-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S4096x1024 : Shape := ⟨2, ![4096, 1024]⟩
abbrev S15x128x1024 : Shape := ⟨3, ![15, 128, 1024]⟩
abbrev S4 : Shape := ⟨1, ![4]⟩
abbrev S15x2 : Shape := ⟨2, ![15, 2]⟩
abbrev S_ : Shape := ⟨0, ![]⟩
abbrev S1 : Shape := ⟨1, ![1]⟩
abbrev S1x1 : Shape := ⟨2, ![1, 1]⟩
abbrev S1x64x1024 : Shape := ⟨3, ![1, 64, 1024]⟩
abbrev S64x1024 : Shape := ⟨2, ![64, 1024]⟩
abbrev S1x128x1024 : Shape := ⟨3, ![1, 128, 1024]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S15x128x1024, .f32⟩
  | .local _ .vmem, ⟨3, _⟩ => ⟨S15x128x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c_m1_i32 : BitVec 32) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.addi v2 c_m1_i32
  let c32_i32 : BitVec 32 := 32#32
  let v14 : BitVec 32 := Scalar.addi v13 c32_i32
  let c16_i32_10 : BitVec 32 := 16#32
  let v15 : BitVec 32 := Scalar.remsi v14 c16_i32_10
  let c256_i32 : BitVec 32 := 256#32
  let v16 : BitVec 32 := Scalar.muli v15 c256_i32
  let v17 : BitVec 32 := Scalar.addi v16 c0_i32_11
  let c0_i32_20 : BitVec 32 := 0#32
  ![v17.toNat, 0]
def k0_off1_at (r : Fin 30) : BitVec 32 × BitVec 32 :=
  if r.val < 15 then
    if r.val < 7 then
      if r.val < 3 then
        if r.val < 1 then
          (4294967295#32, 0#32)
        else
          if r.val < 2 then
            (4294967295#32, 64#32)
          else
            (0#32, 0#32)
      else
        if r.val < 5 then
          if r.val < 4 then
            (0#32, 64#32)
          else
            (4294967294#32, 0#32)
        else
          if r.val < 6 then
            (4294967294#32, 64#32)
          else
            (4294967293#32, 0#32)
    else
      if r.val < 11 then
        if r.val < 9 then
          if r.val < 8 then
            (4294967293#32, 64#32)
          else
            (4294967292#32, 0#32)
        else
          if r.val < 10 then
            (4294967292#32, 64#32)
          else
            (4294967291#32, 0#32)
      else
        if r.val < 13 then
          if r.val < 12 then
            (4294967291#32, 64#32)
          else
            (4294967290#32, 0#32)
        else
          if r.val < 14 then
            (4294967290#32, 64#32)
          else
            (4294967289#32, 0#32)
  else
    if r.val < 22 then
      if r.val < 18 then
        if r.val < 16 then
          (4294967289#32, 64#32)
        else
          if r.val < 17 then
            (4294967288#32, 0#32)
          else
            (4294967288#32, 64#32)
      else
        if r.val < 20 then
          if r.val < 19 then
            (4294967287#32, 0#32)
          else
            (4294967287#32, 64#32)
        else
          if r.val < 21 then
            (4294967286#32, 0#32)
          else
            (4294967286#32, 64#32)
    else
      if r.val < 26 then
        if r.val < 24 then
          if r.val < 23 then
            (4294967285#32, 0#32)
          else
            (4294967285#32, 64#32)
        else
          if r.val < 25 then
            (4294967284#32, 0#32)
          else
            (4294967284#32, 64#32)
      else
        if r.val < 28 then
          if r.val < 27 then
            (4294967283#32, 0#32)
          else
            (4294967283#32, 64#32)
        else
          if r.val < 29 then
            (4294967282#32, 0#32)
          else
            (4294967282#32, 64#32)
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_16 : BitVec 32 := 1#32
  let v18 : BitVec 32 := Scalar.muli v7 c1_i32_16
  let v19 : BitVec 32 := Scalar.addi c0_i32_17 v18
  v19.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v32 : BitVec 32 := Scalar.muli v7 c1_i32_29
  let v33 : BitVec 32 := Scalar.addi c0_i32_30 v32
  v33.toNat
def k0_off2 (d0 : Dev nD) (c1_i32_34 : BitVec 32) (c0_i32_38 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v41 : BitVec 32 := Scalar.addi v2 c1_i32_34
  let c32_i32_35 : BitVec 32 := 32#32
  let v42 : BitVec 32 := Scalar.addi v41 c32_i32_35
  let c16_i32_36 : BitVec 32 := 16#32
  let v43 : BitVec 32 := Scalar.remsi v42 c16_i32_36
  let c256_i32_37 : BitVec 32 := 256#32
  let v44 : BitVec 32 := Scalar.muli v43 c256_i32_37
  let c128_i32 : BitVec 32 := 128#32
  let v45 : BitVec 32 := Scalar.addi v44 c128_i32
  let v46 : BitVec 32 := Scalar.addi v45 c0_i32_38
  let c0_i32_47 : BitVec 32 := 0#32
  ![v46.toNat, 0]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_43 : BitVec 32 := 1#32
  let v47 : BitVec 32 := Scalar.muli v5 c1_i32_43
  let v48 : BitVec 32 := Scalar.addi c0_i32_44 v47
  v48.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_58 : BitVec 32 := 1#32
  let v62 : BitVec 32 := Scalar.muli v5 c1_i32_58
  let v63 : BitVec 32 := Scalar.addi c0_i32_59 v62
  v63.toNat
def k0_off3 (d0 : Dev nD) (c_m2_i32 : BitVec 32) (c0_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v80 : BitVec 32 := Scalar.addi v2 c_m2_i32
  let c32_i32_74 : BitVec 32 := 32#32
  let v81 : BitVec 32 := Scalar.addi v80 c32_i32_74
  let c16_i32_75 : BitVec 32 := 16#32
  let v82 : BitVec 32 := Scalar.remsi v81 c16_i32_75
  let c256_i32_76 : BitVec 32 := 256#32
  let v83 : BitVec 32 := Scalar.muli v82 c256_i32_76
  let v84 : BitVec 32 := Scalar.addi v83 c0_i32_77
  let v85 : Index := Scalar.indexCast v84
  let c0_78 : Index := 0#32
  ![v85.toNat, 0]
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_87 : BitVec 32 := 1#32
  let v92 : BitVec 32 := Scalar.muli v7 c1_i32_87
  let v93 : BitVec 32 := Scalar.addi c0_i32_88 v92
  v93.toNat
def k0_off4 (d0 : Dev nD) (c2_i32_105 : BitVec 32) (c0_i32_110 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.addi v2 c2_i32_105
  let c32_i32_106 : BitVec 32 := 32#32
  let v112 : BitVec 32 := Scalar.addi v111 c32_i32_106
  let c16_i32_107 : BitVec 32 := 16#32
  let v113 : BitVec 32 := Scalar.remsi v112 c16_i32_107
  let c256_i32_108 : BitVec 32 := 256#32
  let v114 : BitVec 32 := Scalar.muli v113 c256_i32_108
  let c128_i32_109 : BitVec 32 := 128#32
  let v115 : BitVec 32 := Scalar.addi v114 c128_i32_109
  let v116 : BitVec 32 := Scalar.addi v115 c0_i32_110
  let v117 : Index := Scalar.indexCast v116
  let c0_111 : Index := 0#32
  ![v117.toNat, 0]
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_120 : BitVec 32 := 1#32
  let v124 : BitVec 32 := Scalar.muli v5 c1_i32_120
  let v125 : BitVec 32 := Scalar.addi c0_i32_121 v124
  v125.toNat
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_150 : BitVec 32 := 1#32
  let v155 : BitVec 32 := Scalar.muli v7 c1_i32_150
  let v156 : BitVec 32 := Scalar.addi c0_i32_151 v155
  v156.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_183 : BitVec 32 := 1#32
  let v187 : BitVec 32 := Scalar.muli v5 c1_i32_183
  let v188 : BitVec 32 := Scalar.addi c0_i32_184 v187
  v188.toNat
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_223 : BitVec 32 := 1#32
  let v224 : BitVec 32 := Scalar.muli v7 c1_i32_223
  let v225 : BitVec 32 := Scalar.addi c0_i32_224 v224
  v225.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_266 : BitVec 32 := 1#32
  let v262 : BitVec 32 := Scalar.muli v5 c1_i32_266
  let v263 : BitVec 32 := Scalar.addi c0_i32_267 v262
  v263.toNat
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_308 : BitVec 32 := 1#32
  let v299 : BitVec 32 := Scalar.muli v7 c1_i32_308
  let v300 : BitVec 32 := Scalar.addi c0_i32_309 v299
  v300.toNat
def k0_dev14 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_351 : BitVec 32 := 1#32
  let v337 : BitVec 32 := Scalar.muli v5 c1_i32_351
  let v338 : BitVec 32 := Scalar.addi c0_i32_352 v337
  v338.toNat
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_393 : BitVec 32 := 1#32
  let v375 : BitVec 32 := Scalar.muli v7 c1_i32_393
  let v376 : BitVec 32 := Scalar.addi c0_i32_394 v375
  v376.toNat
def k0_dev16 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_437 : BitVec 32 := 1#32
  let v414 : BitVec 32 := Scalar.muli v5 c1_i32_437
  let v415 : BitVec 32 := Scalar.addi c0_i32_438 v414
  v415.toNat
def k0_dev17 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_481 : BitVec 32 := 1#32
  let v452 : BitVec 32 := Scalar.muli v7 c1_i32_481
  let v453 : BitVec 32 := Scalar.addi c0_i32_482 v452
  v453.toNat
def k0_dev18 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_526 : BitVec 32 := 1#32
  let v491 : BitVec 32 := Scalar.muli v5 c1_i32_526
  let v492 : BitVec 32 := Scalar.addi c0_i32_527 v491
  v492.toNat
def k0_dev19 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_568 : BitVec 32 := 1#32
  let v529 : BitVec 32 := Scalar.muli v7 c1_i32_568
  let v530 : BitVec 32 := Scalar.addi c0_i32_569 v529
  v530.toNat
def k0_dev20 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_612 : BitVec 32 := 1#32
  let v568 : BitVec 32 := Scalar.muli v5 c1_i32_612
  let v569 : BitVec 32 := Scalar.addi c0_i32_613 v568
  v569.toNat
def k0_dev21 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_656 : BitVec 32 := 1#32
  let v606 : BitVec 32 := Scalar.muli v7 c1_i32_656
  let v607 : BitVec 32 := Scalar.addi c0_i32_657 v606
  v607.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_701 : BitVec 32 := 1#32
  let v645 : BitVec 32 := Scalar.muli v5 c1_i32_701
  let v646 : BitVec 32 := Scalar.addi c0_i32_702 v645
  v646.toNat
def k0_dev23 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_743 : BitVec 32 := 1#32
  let v683 : BitVec 32 := Scalar.muli v7 c1_i32_743
  let v684 : BitVec 32 := Scalar.addi c0_i32_744 v683
  v684.toNat
def k0_dev24 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_787 : BitVec 32 := 1#32
  let v722 : BitVec 32 := Scalar.muli v5 c1_i32_787
  let v723 : BitVec 32 := Scalar.addi c0_i32_788 v722
  v723.toNat
def k0_dev25 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_831 : BitVec 32 := 1#32
  let v760 : BitVec 32 := Scalar.muli v7 c1_i32_831
  let v761 : BitVec 32 := Scalar.addi c0_i32_832 v760
  v761.toNat
def k0_dev26 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_876 : BitVec 32 := 1#32
  let v799 : BitVec 32 := Scalar.muli v5 c1_i32_876
  let v800 : BitVec 32 := Scalar.addi c0_i32_877 v799
  v800.toNat
def k0_dev27 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_918 : BitVec 32 := 1#32
  let v837 : BitVec 32 := Scalar.muli v7 c1_i32_918
  let v838 : BitVec 32 := Scalar.addi c0_i32_919 v837
  v838.toNat
def k0_dev28 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_962 : BitVec 32 := 1#32
  let v876 : BitVec 32 := Scalar.muli v5 c1_i32_962
  let v877 : BitVec 32 := Scalar.addi c0_i32_963 v876
  v877.toNat
def k0_dev29 (d0 : Dev nD) : Nat :=
  let c0_i32_1007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1006 : BitVec 32 := 1#32
  let v914 : BitVec 32 := Scalar.muli v7 c1_i32_1006
  let v915 : BitVec 32 := Scalar.addi c0_i32_1007 v914
  v915.toNat
def k0_dev30 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1051 : BitVec 32 := 1#32
  let v953 : BitVec 32 := Scalar.muli v5 c1_i32_1051
  let v954 : BitVec 32 := Scalar.addi c0_i32_1052 v953
  v954.toNat
def k0_dev31 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1093 : BitVec 32 := 1#32
  let v991 : BitVec 32 := Scalar.muli v7 c1_i32_1093
  let v992 : BitVec 32 := Scalar.addi c0_i32_1094 v991
  v992.toNat
def k0_dev32 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1137 : BitVec 32 := 1#32
  let v1030 : BitVec 32 := Scalar.muli v5 c1_i32_1137
  let v1031 : BitVec 32 := Scalar.addi c0_i32_1138 v1030
  v1031.toNat
def k0_dev33 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1181 : BitVec 32 := 1#32
  let v1068 : BitVec 32 := Scalar.muli v7 c1_i32_1181
  let v1069 : BitVec 32 := Scalar.addi c0_i32_1182 v1068
  v1069.toNat
def k0_dev34 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1226 : BitVec 32 := 1#32
  let v1107 : BitVec 32 := Scalar.muli v5 c1_i32_1226
  let v1108 : BitVec 32 := Scalar.addi c0_i32_1227 v1107
  v1108.toNat
def k0_dev35 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1268 : BitVec 32 := 1#32
  let v1145 : BitVec 32 := Scalar.muli v7 c1_i32_1268
  let v1146 : BitVec 32 := Scalar.addi c0_i32_1269 v1145
  v1146.toNat
def k0_dev36 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1312 : BitVec 32 := 1#32
  let v1184 : BitVec 32 := Scalar.muli v5 c1_i32_1312
  let v1185 : BitVec 32 := Scalar.addi c0_i32_1313 v1184
  v1185.toNat
def k0_dev37 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1356 : BitVec 32 := 1#32
  let v1222 : BitVec 32 := Scalar.muli v7 c1_i32_1356
  let v1223 : BitVec 32 := Scalar.addi c0_i32_1357 v1222
  v1223.toNat
def k0_dev38 (d0 : Dev nD) : Nat :=
  let c0_i32_1402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1401 : BitVec 32 := 1#32
  let v1261 : BitVec 32 := Scalar.muli v5 c1_i32_1401
  let v1262 : BitVec 32 := Scalar.addi c0_i32_1402 v1261
  v1262.toNat
def k0_dev39 (d0 : Dev nD) : Nat :=
  let c0_i32_1444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1443 : BitVec 32 := 1#32
  let v1299 : BitVec 32 := Scalar.muli v7 c1_i32_1443
  let v1300 : BitVec 32 := Scalar.addi c0_i32_1444 v1299
  v1300.toNat
def k0_dev40 (d0 : Dev nD) : Nat :=
  let c0_i32_1488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1487 : BitVec 32 := 1#32
  let v1338 : BitVec 32 := Scalar.muli v5 c1_i32_1487
  let v1339 : BitVec 32 := Scalar.addi c0_i32_1488 v1338
  v1339.toNat
def k0_dev41 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1531 : BitVec 32 := 1#32
  let v1376 : BitVec 32 := Scalar.muli v7 c1_i32_1531
  let v1377 : BitVec 32 := Scalar.addi c0_i32_1532 v1376
  v1377.toNat
def k0_dev42 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1576 : BitVec 32 := 1#32
  let v1415 : BitVec 32 := Scalar.muli v5 c1_i32_1576
  let v1416 : BitVec 32 := Scalar.addi c0_i32_1577 v1415
  v1416.toNat
def k0_dev43 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1618 : BitVec 32 := 1#32
  let v1453 : BitVec 32 := Scalar.muli v7 c1_i32_1618
  let v1454 : BitVec 32 := Scalar.addi c0_i32_1619 v1453
  v1454.toNat
def k0_dev44 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1662 : BitVec 32 := 1#32
  let v1492 : BitVec 32 := Scalar.muli v5 c1_i32_1662
  let v1493 : BitVec 32 := Scalar.addi c0_i32_1663 v1492
  v1493.toNat
def k0_dev45 (d0 : Dev nD) : Nat :=
  let c0_i32_1707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1706 : BitVec 32 := 1#32
  let v1530 : BitVec 32 := Scalar.muli v7 c1_i32_1706
  let v1531 : BitVec 32 := Scalar.addi c0_i32_1707 v1530
  v1531.toNat
def k0_dev46 (d0 : Dev nD) : Nat :=
  let c0_i32_1752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1751 : BitVec 32 := 1#32
  let v1569 : BitVec 32 := Scalar.muli v5 c1_i32_1751
  let v1570 : BitVec 32 := Scalar.addi c0_i32_1752 v1569
  v1570.toNat
def k0_dev47 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1793 : BitVec 32 := 1#32
  let v1607 : BitVec 32 := Scalar.muli v7 c1_i32_1793
  let v1608 : BitVec 32 := Scalar.addi c0_i32_1794 v1607
  v1608.toNat
def k0_dev48 (d0 : Dev nD) : Nat :=
  let c0_i32_1838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1837 : BitVec 32 := 1#32
  let v1646 : BitVec 32 := Scalar.muli v5 c1_i32_1837
  let v1647 : BitVec 32 := Scalar.addi c0_i32_1838 v1646
  v1647.toNat
def k0_dev49 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1881 : BitVec 32 := 1#32
  let v1684 : BitVec 32 := Scalar.muli v7 c1_i32_1881
  let v1685 : BitVec 32 := Scalar.addi c0_i32_1882 v1684
  v1685.toNat
def k0_dev50 (d0 : Dev nD) : Nat :=
  let c0_i32_1927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1926 : BitVec 32 := 1#32
  let v1723 : BitVec 32 := Scalar.muli v5 c1_i32_1926
  let v1724 : BitVec 32 := Scalar.addi c0_i32_1927 v1723
  v1724.toNat
def k0_dev51 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1968 : BitVec 32 := 1#32
  let v1761 : BitVec 32 := Scalar.muli v7 c1_i32_1968
  let v1762 : BitVec 32 := Scalar.addi c0_i32_1969 v1761
  v1762.toNat
def k0_dev52 (d0 : Dev nD) : Nat :=
  let c0_i32_2013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2012 : BitVec 32 := 1#32
  let v1800 : BitVec 32 := Scalar.muli v5 c1_i32_2012
  let v1801 : BitVec 32 := Scalar.addi c0_i32_2013 v1800
  v1801.toNat
def k0_dev53 (d0 : Dev nD) : Nat :=
  let c0_i32_2057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2056 : BitVec 32 := 1#32
  let v1838 : BitVec 32 := Scalar.muli v7 c1_i32_2056
  let v1839 : BitVec 32 := Scalar.addi c0_i32_2057 v1838
  v1839.toNat
def k0_dev54 (d0 : Dev nD) : Nat :=
  let c0_i32_2102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2101 : BitVec 32 := 1#32
  let v1877 : BitVec 32 := Scalar.muli v5 c1_i32_2101
  let v1878 : BitVec 32 := Scalar.addi c0_i32_2102 v1877
  v1878.toNat
def k0_dev55 (d0 : Dev nD) : Nat :=
  let c0_i32_2144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2143 : BitVec 32 := 1#32
  let v1915 : BitVec 32 := Scalar.muli v7 c1_i32_2143
  let v1916 : BitVec 32 := Scalar.addi c0_i32_2144 v1915
  v1916.toNat
def k0_dev56 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2187 : BitVec 32 := 1#32
  let v1954 : BitVec 32 := Scalar.muli v5 c1_i32_2187
  let v1955 : BitVec 32 := Scalar.addi c0_i32_2188 v1954
  v1955.toNat
def k0_dev57 (d0 : Dev nD) : Nat :=
  let c0_i32_2232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2231 : BitVec 32 := 1#32
  let v1992 : BitVec 32 := Scalar.muli v7 c1_i32_2231
  let v1993 : BitVec 32 := Scalar.addi c0_i32_2232 v1992
  v1993.toNat
def k0_dev58 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2276 : BitVec 32 := 1#32
  let v2031 : BitVec 32 := Scalar.muli v5 c1_i32_2276
  let v2032 : BitVec 32 := Scalar.addi c0_i32_2277 v2031
  v2032.toNat
def k0_dev59 (d0 : Dev nD) : Nat :=
  let c0_i32_2319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2318 : BitVec 32 := 1#32
  let v2069 : BitVec 32 := Scalar.muli v7 c1_i32_2318
  let v2070 : BitVec 32 := Scalar.addi c0_i32_2319 v2069
  v2070.toNat
def k0_dev60 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2362 : BitVec 32 := 1#32
  let v2108 : BitVec 32 := Scalar.muli v5 c1_i32_2362
  let v2109 : BitVec 32 := Scalar.addi c0_i32_2363 v2108
  v2109.toNat
def k0_dev61 (d0 : Dev nD) : Nat :=
  let c0_i32_2407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2406 : BitVec 32 := 1#32
  let v2146 : BitVec 32 := Scalar.muli v7 c1_i32_2406
  let v2147 : BitVec 32 := Scalar.addi c0_i32_2407 v2146
  v2147.toNat
def k0_dev62 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2451 : BitVec 32 := 1#32
  let v2185 : BitVec 32 := Scalar.muli v5 c1_i32_2451
  let v2186 : BitVec 32 := Scalar.addi c0_i32_2452 v2185
  v2186.toNat
def k0_dev63 (d0 : Dev nD) : Nat :=
  let c0_i32_2488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2487 : BitVec 32 := 1#32
  let v2222 : BitVec 32 := Scalar.muli v7 c1_i32_2487
  let v2223 : BitVec 32 := Scalar.addi c0_i32_2488 v2222
  v2223.toNat
def k0_dev64 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2526 : BitVec 32 := 1#32
  let v2260 : BitVec 32 := Scalar.muli v5 c1_i32_2526
  let v2261 : BitVec 32 := Scalar.addi c0_i32_2527 v2260
  v2261.toNat
def k0_dev65 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2563 : BitVec 32 := 1#32
  let v2296 : BitVec 32 := Scalar.muli v7 c1_i32_2563
  let v2297 : BitVec 32 := Scalar.addi c0_i32_2564 v2296
  v2297.toNat
def k0_dev66 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2602 : BitVec 32 := 1#32
  let v2334 : BitVec 32 := Scalar.muli v5 c1_i32_2602
  let v2335 : BitVec 32 := Scalar.addi c0_i32_2603 v2334
  v2335.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2610 : BitVec 32 := 256#32
  let v2345 : BitVec 32 := Scalar.muli v2 c256_i32_2610
  let v2346 : Index := Scalar.indexCast v2345
  let c0_2611 : Index := 0#32
  ![v2346.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2615 : BitVec 32 := 256#32
  let v2350 : BitVec 32 := Scalar.muli v2 c256_i32_2615
  let c128_i32_2616 : BitVec 32 := 128#32
  let v2351 : BitVec 32 := Scalar.addi v2350 c128_i32_2616
  let v2352 : Index := Scalar.indexCast v2351
  let c0_2617 : Index := 0#32
  ![v2352.toNat, 0]
def k0_dev67 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2637 : BitVec 32 := 1#32
  let v2368 : BitVec 32 := Scalar.muli v7 c1_i32_2637
  let v2369 : BitVec 32 := Scalar.addi c0_i32_2638 v2368
  v2369.toNat
def k0_dev68 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2662 : BitVec 32 := 1#32
  let v2392 : BitVec 32 := Scalar.muli v5 c1_i32_2662
  let v2393 : BitVec 32 := Scalar.addi c0_i32_2663 v2392
  v2393.toNat
def k0_dev69 (d0 : Dev nD) : Nat :=
  let c0_i32_2686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2685 : BitVec 32 := 1#32
  let v2414 : BitVec 32 := Scalar.muli v7 c1_i32_2685
  let v2415 : BitVec 32 := Scalar.addi c0_i32_2686 v2414
  v2415.toNat
def k0_dev70 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2710 : BitVec 32 := 1#32
  let v2438 : BitVec 32 := Scalar.muli v5 c1_i32_2710
  let v2439 : BitVec 32 := Scalar.addi c0_i32_2711 v2438
  v2439.toNat
def k0_dev71 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2739 : BitVec 32 := 1#32
  let v2464 : BitVec 32 := Scalar.muli v7 c1_i32_2739
  let v2465 : BitVec 32 := Scalar.addi c0_i32_2740 v2464
  v2465.toNat
def k0_dev72 (d0 : Dev nD) : Nat :=
  let c0_i32_2771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2770 : BitVec 32 := 1#32
  let v2492 : BitVec 32 := Scalar.muli v5 c1_i32_2770
  let v2493 : BitVec 32 := Scalar.addi c0_i32_2771 v2492
  v2493.toNat
def k0_dev73 (d0 : Dev nD) : Nat :=
  let c0_i32_2800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2799 : BitVec 32 := 1#32
  let v2518 : BitVec 32 := Scalar.muli v7 c1_i32_2799
  let v2519 : BitVec 32 := Scalar.addi c0_i32_2800 v2518
  v2519.toNat
def k0_dev74 (d0 : Dev nD) : Nat :=
  let c0_i32_2831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2830 : BitVec 32 := 1#32
  let v2546 : BitVec 32 := Scalar.muli v5 c1_i32_2830
  let v2547 : BitVec 32 := Scalar.addi c0_i32_2831 v2546
  v2547.toNat
def k0_dev75 (d0 : Dev nD) : Nat :=
  let c0_i32_2858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2857 : BitVec 32 := 1#32
  let v2571 : BitVec 32 := Scalar.muli v7 c1_i32_2857
  let v2572 : BitVec 32 := Scalar.addi c0_i32_2858 v2571
  v2572.toNat
def k0_dev76 (d0 : Dev nD) : Nat :=
  let c0_i32_2887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2886 : BitVec 32 := 1#32
  let v2598 : BitVec 32 := Scalar.muli v5 c1_i32_2886
  let v2599 : BitVec 32 := Scalar.addi c0_i32_2887 v2598
  v2599.toNat
def k0_dev77 (d0 : Dev nD) : Nat :=
  let c0_i32_2914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2913 : BitVec 32 := 1#32
  let v2623 : BitVec 32 := Scalar.muli v7 c1_i32_2913
  let v2624 : BitVec 32 := Scalar.addi c0_i32_2914 v2623
  v2624.toNat
def k0_dev78 (d0 : Dev nD) : Nat :=
  let c0_i32_2943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2942 : BitVec 32 := 1#32
  let v2650 : BitVec 32 := Scalar.muli v5 c1_i32_2942
  let v2651 : BitVec 32 := Scalar.addi c0_i32_2943 v2650
  v2651.toNat
def k0_dev79 (d0 : Dev nD) : Nat :=
  let c0_i32_2970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2969 : BitVec 32 := 1#32
  let v2675 : BitVec 32 := Scalar.muli v7 c1_i32_2969
  let v2676 : BitVec 32 := Scalar.addi c0_i32_2970 v2675
  v2676.toNat
def k0_dev80 (d0 : Dev nD) : Nat :=
  let c0_i32_2999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2998 : BitVec 32 := 1#32
  let v2702 : BitVec 32 := Scalar.muli v5 c1_i32_2998
  let v2703 : BitVec 32 := Scalar.addi c0_i32_2999 v2702
  v2703.toNat
def k0_dev81 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3025 : BitVec 32 := 1#32
  let v2727 : BitVec 32 := Scalar.muli v7 c1_i32_3025
  let v2728 : BitVec 32 := Scalar.addi c0_i32_3026 v2727
  v2728.toNat
def k0_dev82 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3054 : BitVec 32 := 1#32
  let v2754 : BitVec 32 := Scalar.muli v5 c1_i32_3054
  let v2755 : BitVec 32 := Scalar.addi c0_i32_3055 v2754
  v2755.toNat
def k0_dev83 (d0 : Dev nD) : Nat :=
  let c0_i32_3082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3081 : BitVec 32 := 1#32
  let v2779 : BitVec 32 := Scalar.muli v7 c1_i32_3081
  let v2780 : BitVec 32 := Scalar.addi c0_i32_3082 v2779
  v2780.toNat
def k0_dev84 (d0 : Dev nD) : Nat :=
  let c0_i32_3111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3110 : BitVec 32 := 1#32
  let v2806 : BitVec 32 := Scalar.muli v5 c1_i32_3110
  let v2807 : BitVec 32 := Scalar.addi c0_i32_3111 v2806
  v2807.toNat
def k0_dev85 (d0 : Dev nD) : Nat :=
  let c0_i32_3138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3137 : BitVec 32 := 1#32
  let v2831 : BitVec 32 := Scalar.muli v7 c1_i32_3137
  let v2832 : BitVec 32 := Scalar.addi c0_i32_3138 v2831
  v2832.toNat
def k0_dev86 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3166 : BitVec 32 := 1#32
  let v2858 : BitVec 32 := Scalar.muli v5 c1_i32_3166
  let v2859 : BitVec 32 := Scalar.addi c0_i32_3167 v2858
  v2859.toNat
def k0_dev87 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3193 : BitVec 32 := 1#32
  let v2883 : BitVec 32 := Scalar.muli v7 c1_i32_3193
  let v2884 : BitVec 32 := Scalar.addi c0_i32_3194 v2883
  v2884.toNat
def k0_dev88 (d0 : Dev nD) : Nat :=
  let c0_i32_3223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3222 : BitVec 32 := 1#32
  let v2910 : BitVec 32 := Scalar.muli v5 c1_i32_3222
  let v2911 : BitVec 32 := Scalar.addi c0_i32_3223 v2910
  v2911.toNat
def k0_dev89 (d0 : Dev nD) : Nat :=
  let c0_i32_3250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3249 : BitVec 32 := 1#32
  let v2935 : BitVec 32 := Scalar.muli v7 c1_i32_3249
  let v2936 : BitVec 32 := Scalar.addi c0_i32_3250 v2935
  v2936.toNat
def k0_dev90 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3278 : BitVec 32 := 1#32
  let v2962 : BitVec 32 := Scalar.muli v5 c1_i32_3278
  let v2963 : BitVec 32 := Scalar.addi c0_i32_3279 v2962
  v2963.toNat
def k0_dev91 (d0 : Dev nD) : Nat :=
  let c0_i32_3306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3305 : BitVec 32 := 1#32
  let v2987 : BitVec 32 := Scalar.muli v7 c1_i32_3305
  let v2988 : BitVec 32 := Scalar.addi c0_i32_3306 v2987
  v2988.toNat
def k0_dev92 (d0 : Dev nD) : Nat :=
  let c0_i32_3335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3334 : BitVec 32 := 1#32
  let v3014 : BitVec 32 := Scalar.muli v5 c1_i32_3334
  let v3015 : BitVec 32 := Scalar.addi c0_i32_3335 v3014
  v3015.toNat
def k0_dev93 (d0 : Dev nD) : Nat :=
  let c0_i32_3362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3361 : BitVec 32 := 1#32
  let v3039 : BitVec 32 := Scalar.muli v7 c1_i32_3361
  let v3040 : BitVec 32 := Scalar.addi c0_i32_3362 v3039
  v3040.toNat
def k0_dev94 (d0 : Dev nD) : Nat :=
  let c0_i32_3391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3390 : BitVec 32 := 1#32
  let v3066 : BitVec 32 := Scalar.muli v5 c1_i32_3390
  let v3067 : BitVec 32 := Scalar.addi c0_i32_3391 v3066
  v3067.toNat
def k0_dev95 (d0 : Dev nD) : Nat :=
  let c0_i32_3418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3417 : BitVec 32 := 1#32
  let v3091 : BitVec 32 := Scalar.muli v7 c1_i32_3417
  let v3092 : BitVec 32 := Scalar.addi c0_i32_3418 v3091
  v3092.toNat
def k0_dev96 (d0 : Dev nD) : Nat :=
  let c0_i32_3447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3446 : BitVec 32 := 1#32
  let v3118 : BitVec 32 := Scalar.muli v5 c1_i32_3446
  let v3119 : BitVec 32 := Scalar.addi c0_i32_3447 v3118
  v3119.toNat
def k0_dev97 (d0 : Dev nD) : Nat :=
  let c0_i32_3474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3473 : BitVec 32 := 1#32
  let v3143 : BitVec 32 := Scalar.muli v7 c1_i32_3473
  let v3144 : BitVec 32 := Scalar.addi c0_i32_3474 v3143
  v3144.toNat
def k0_dev98 (d0 : Dev nD) : Nat :=
  let c0_i32_3503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3502 : BitVec 32 := 1#32
  let v3170 : BitVec 32 := Scalar.muli v5 c1_i32_3502
  let v3171 : BitVec 32 := Scalar.addi c0_i32_3503 v3170
  v3171.toNat
def k0_dev99 (d0 : Dev nD) : Nat :=
  let c0_i32_3530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3529 : BitVec 32 := 1#32
  let v3195 : BitVec 32 := Scalar.muli v7 c1_i32_3529
  let v3196 : BitVec 32 := Scalar.addi c0_i32_3530 v3195
  v3196.toNat
def k0_dev100 (d0 : Dev nD) : Nat :=
  let c0_i32_3559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3558 : BitVec 32 := 1#32
  let v3222 : BitVec 32 := Scalar.muli v5 c1_i32_3558
  let v3223 : BitVec 32 := Scalar.addi c0_i32_3559 v3222
  v3223.toNat
def k0_dev101 (d0 : Dev nD) : Nat :=
  let c0_i32_3586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3585 : BitVec 32 := 1#32
  let v3247 : BitVec 32 := Scalar.muli v7 c1_i32_3585
  let v3248 : BitVec 32 := Scalar.addi c0_i32_3586 v3247
  v3248.toNat
def k0_dev102 (d0 : Dev nD) : Nat :=
  let c0_i32_3615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3614 : BitVec 32 := 1#32
  let v3274 : BitVec 32 := Scalar.muli v5 c1_i32_3614
  let v3275 : BitVec 32 := Scalar.addi c0_i32_3615 v3274
  v3275.toNat
def k0_dev103 (d0 : Dev nD) : Nat :=
  let c0_i32_3642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3641 : BitVec 32 := 1#32
  let v3299 : BitVec 32 := Scalar.muli v7 c1_i32_3641
  let v3300 : BitVec 32 := Scalar.addi c0_i32_3642 v3299
  v3300.toNat
def k0_dev104 (d0 : Dev nD) : Nat :=
  let c0_i32_3671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3670 : BitVec 32 := 1#32
  let v3326 : BitVec 32 := Scalar.muli v5 c1_i32_3670
  let v3327 : BitVec 32 := Scalar.addi c0_i32_3671 v3326
  v3327.toNat
def k0_dev105 (d0 : Dev nD) : Nat :=
  let c0_i32_3698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3697 : BitVec 32 := 1#32
  let v3351 : BitVec 32 := Scalar.muli v7 c1_i32_3697
  let v3352 : BitVec 32 := Scalar.addi c0_i32_3698 v3351
  v3352.toNat
def k0_dev106 (d0 : Dev nD) : Nat :=
  let c0_i32_3727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3726 : BitVec 32 := 1#32
  let v3378 : BitVec 32 := Scalar.muli v5 c1_i32_3726
  let v3379 : BitVec 32 := Scalar.addi c0_i32_3727 v3378
  v3379.toNat
def k0_dev107 (d0 : Dev nD) : Nat :=
  let c0_i32_3754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3753 : BitVec 32 := 1#32
  let v3403 : BitVec 32 := Scalar.muli v7 c1_i32_3753
  let v3404 : BitVec 32 := Scalar.addi c0_i32_3754 v3403
  v3404.toNat
def k0_dev108 (d0 : Dev nD) : Nat :=
  let c0_i32_3783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3782 : BitVec 32 := 1#32
  let v3430 : BitVec 32 := Scalar.muli v5 c1_i32_3782
  let v3431 : BitVec 32 := Scalar.addi c0_i32_3783 v3430
  v3431.toNat
def k0_dev109 (d0 : Dev nD) : Nat :=
  let c0_i32_3810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3809 : BitVec 32 := 1#32
  let v3455 : BitVec 32 := Scalar.muli v7 c1_i32_3809
  let v3456 : BitVec 32 := Scalar.addi c0_i32_3810 v3455
  v3456.toNat
def k0_dev110 (d0 : Dev nD) : Nat :=
  let c0_i32_3839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3838 : BitVec 32 := 1#32
  let v3482 : BitVec 32 := Scalar.muli v5 c1_i32_3838
  let v3483 : BitVec 32 := Scalar.addi c0_i32_3839 v3482
  v3483.toNat
def k0_dev111 (d0 : Dev nD) : Nat :=
  let c0_i32_3866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3865 : BitVec 32 := 1#32
  let v3507 : BitVec 32 := Scalar.muli v7 c1_i32_3865
  let v3508 : BitVec 32 := Scalar.addi c0_i32_3866 v3507
  v3508.toNat
def k0_dev112 (d0 : Dev nD) : Nat :=
  let c0_i32_3895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3894 : BitVec 32 := 1#32
  let v3534 : BitVec 32 := Scalar.muli v5 c1_i32_3894
  let v3535 : BitVec 32 := Scalar.addi c0_i32_3895 v3534
  v3535.toNat
def k0_dev113 (d0 : Dev nD) : Nat :=
  let c0_i32_3922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3921 : BitVec 32 := 1#32
  let v3559 : BitVec 32 := Scalar.muli v7 c1_i32_3921
  let v3560 : BitVec 32 := Scalar.addi c0_i32_3922 v3559
  v3560.toNat
def k0_dev114 (d0 : Dev nD) : Nat :=
  let c0_i32_3951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3950 : BitVec 32 := 1#32
  let v3586 : BitVec 32 := Scalar.muli v5 c1_i32_3950
  let v3587 : BitVec 32 := Scalar.addi c0_i32_3951 v3586
  v3587.toNat
def k0_dev115 (d0 : Dev nD) : Nat :=
  let c0_i32_3978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3977 : BitVec 32 := 1#32
  let v3611 : BitVec 32 := Scalar.muli v7 c1_i32_3977
  let v3612 : BitVec 32 := Scalar.addi c0_i32_3978 v3611
  v3612.toNat
def k0_dev116 (d0 : Dev nD) : Nat :=
  let c0_i32_4007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4006 : BitVec 32 := 1#32
  let v3638 : BitVec 32 := Scalar.muli v5 c1_i32_4006
  let v3639 : BitVec 32 := Scalar.addi c0_i32_4007 v3638
  v3639.toNat
def k0_dev117 (d0 : Dev nD) : Nat :=
  let c0_i32_4034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4033 : BitVec 32 := 1#32
  let v3663 : BitVec 32 := Scalar.muli v7 c1_i32_4033
  let v3664 : BitVec 32 := Scalar.addi c0_i32_4034 v3663
  v3664.toNat
def k0_dev118 (d0 : Dev nD) : Nat :=
  let c0_i32_4063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4062 : BitVec 32 := 1#32
  let v3690 : BitVec 32 := Scalar.muli v5 c1_i32_4062
  let v3691 : BitVec 32 := Scalar.addi c0_i32_4063 v3690
  v3691.toNat
def k0_dev119 (d0 : Dev nD) : Nat :=
  let c0_i32_4090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4089 : BitVec 32 := 1#32
  let v3715 : BitVec 32 := Scalar.muli v7 c1_i32_4089
  let v3716 : BitVec 32 := Scalar.addi c0_i32_4090 v3715
  v3716.toNat
def k0_dev120 (d0 : Dev nD) : Nat :=
  let c0_i32_4119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4118 : BitVec 32 := 1#32
  let v3742 : BitVec 32 := Scalar.muli v5 c1_i32_4118
  let v3743 : BitVec 32 := Scalar.addi c0_i32_4119 v3742
  v3743.toNat
def k0_dev121 (d0 : Dev nD) : Nat :=
  let c0_i32_4146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4145 : BitVec 32 := 1#32
  let v3767 : BitVec 32 := Scalar.muli v7 c1_i32_4145
  let v3768 : BitVec 32 := Scalar.addi c0_i32_4146 v3767
  v3768.toNat
def k0_dev122 (d0 : Dev nD) : Nat :=
  let c0_i32_4175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4174 : BitVec 32 := 1#32
  let v3794 : BitVec 32 := Scalar.muli v5 c1_i32_4174
  let v3795 : BitVec 32 := Scalar.addi c0_i32_4175 v3794
  v3795.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S4_S1_0 : ∀ a, (![0] : Fin 1 → Nat) a + S1.size a ≤ S4.size a
  squeezes_S1_S_ : S1.Squeezes S_
  inb_S15x2_S1x1_0_0 : ∀ a, (![0, 0] : Fin 2 → Nat) a + S1x1.size a ≤ S15x2.size a
  squeezes_S1x1_S_ : S1x1.Squeezes S_
  inb_S15x128x1024_S1x64x1024_0_0_0 : ∀ a, (![0, 0, 0] : Fin 3 → Nat) a + S1x64x1024.size a ≤ S15x128x1024.size a
  squeezes_S1x64x1024_S64x1024 : S1x64x1024.Squeezes S64x1024
  inb_S4_S1_1 : ∀ a, (![1] : Fin 1 → Nat) a + S1.size a ≤ S4.size a
  inb_S15x2_S1x1_0_1 : ∀ a, (![0, 1] : Fin 2 → Nat) a + S1x1.size a ≤ S15x2.size a
  inb_S15x128x1024_S1x64x1024_0_64_0 : ∀ a, (![0, 64, 0] : Fin 3 → Nat) a + S1x64x1024.size a ≤ S15x128x1024.size a
  h_S1x64x1024 : 0 < S1x64x1024.numel
  shapeCasts_S1x64x1024_S64x1024 : S1x64x1024.ShapeCasts S64x1024
  h_S64x1024 : 0 < S64x1024.numel
  shapeCasts_S64x1024_S64x1024 : S64x1024.ShapeCasts S64x1024
  shapeCasts_S64x1024_S1x64x1024 : S64x1024.ShapeCasts S1x64x1024
  inb_S4_S1_2 : ∀ a, (![2] : Fin 1 → Nat) a + S1.size a ≤ S4.size a
  inb_S15x2_S1x1_1_0 : ∀ a, (![1, 0] : Fin 2 → Nat) a + S1x1.size a ≤ S15x2.size a
  inb_S15x128x1024_S1x64x1024_1_0_0 : ∀ a, (![1, 0, 0] : Fin 3 → Nat) a + S1x64x1024.size a ≤ S15x128x1024.size a
  inb_S4_S1_3 : ∀ a, (![3] : Fin 1 → Nat) a + S1.size a ≤ S4.size a
  inb_S15x2_S1x1_1_1 : ∀ a, (![1, 1] : Fin 2 → Nat) a + S1x1.size a ≤ S15x2.size a
  inb_S15x128x1024_S1x64x1024_1_64_0 : ∀ a, (![1, 64, 0] : Fin 3 → Nat) a + S1x64x1024.size a ≤ S15x128x1024.size a
  inb_S15x2_S1x1_2_0 : ∀ a, (![2, 0] : Fin 2 → Nat) a + S1x1.size a ≤ S15x2.size a
  inb_S15x128x1024_S1x64x1024_2_0_0 : ∀ a, (![2, 0, 0] : Fin 3 → Nat) a + S1x64x1024.size a ≤ S15x128x1024.size a
  inb_S15x2_S1x1_2_1 : ∀ a, (![2, 1] : Fin 2 → Nat) a + S1x1.size a ≤ S15x2.size a
  inb_S15x128x1024_S1x64x1024_2_64_0 : ∀ a, (![2, 64, 0] : Fin 3 → Nat) a + S1x64x1024.size a ≤ S15x128x1024.size a
  inb_S15x2_S1x1_3_0 : ∀ a, (![3, 0] : Fin 2 → Nat) a + S1x1.size a ≤ S15x2.size a
  inb_S15x128x1024_S1x64x1024_3_0_0 : ∀ a, (![3, 0, 0] : Fin 3 → Nat) a + S1x64x1024.size a ≤ S15x128x1024.size a
  inb_S15x2_S1x1_3_1 : ∀ a, (![3, 1] : Fin 2 → Nat) a + S1x1.size a ≤ S15x2.size a
  inb_S15x128x1024_S1x64x1024_3_64_0 : ∀ a, (![3, 64, 0] : Fin 3 → Nat) a + S1x64x1024.size a ≤ S15x128x1024.size a
  inb_S15x2_S1x1_4_0 : ∀ a, (![4, 0] : Fin 2 → Nat) a + S1x1.size a ≤ S15x2.size a
  inb_S15x128x1024_S1x64x1024_4_0_0 : ∀ a, (![4, 0, 0] : Fin 3 → Nat) a + S1x64x1024.size a ≤ S15x128x1024.size a
  inb_S15x2_S1x1_4_1 : ∀ a, (![4, 1] : Fin 2 → Nat) a + S1x1.size a ≤ S15x2.size a
  inb_S15x128x1024_S1x64x1024_4_64_0 : ∀ a, (![4, 64, 0] : Fin 3 → Nat) a + S1x64x1024.size a ≤ S15x128x1024.size a
  inb_S15x2_S1x1_5_0 : ∀ a, (![5, 0] : Fin 2 → Nat) a + S1x1.size a ≤ S15x2.size a
  inb_S15x128x1024_S1x64x1024_5_0_0 : ∀ a, (![5, 0, 0] : Fin 3 → Nat) a + S1x64x1024.size a ≤ S15x128x1024.size a
  inb_S15x2_S1x1_5_1 : ∀ a, (![5, 1] : Fin 2 → Nat) a + S1x1.size a ≤ S15x2.size a
  inb_S15x128x1024_S1x64x1024_5_64_0 : ∀ a, (![5, 64, 0] : Fin 3 → Nat) a + S1x64x1024.size a ≤ S15x128x1024.size a
  inb_S15x2_S1x1_6_0 : ∀ a, (![6, 0] : Fin 2 → Nat) a + S1x1.size a ≤ S15x2.size a
  inb_S15x128x1024_S1x64x1024_6_0_0 : ∀ a, (![6, 0, 0] : Fin 3 → Nat) a + S1x64x1024.size a ≤ S15x128x1024.size a
  inb_S15x2_S1x1_6_1 : ∀ a, (![6, 1] : Fin 2 → Nat) a + S1x1.size a ≤ S15x2.size a
  inb_S15x128x1024_S1x64x1024_6_64_0 : ∀ a, (![6, 64, 0] : Fin 3 → Nat) a + S1x64x1024.size a ≤ S15x128x1024.size a
  inb_S15x2_S1x1_7_0 : ∀ a, (![7, 0] : Fin 2 → Nat) a + S1x1.size a ≤ S15x2.size a
  inb_S15x128x1024_S1x64x1024_7_0_0 : ∀ a, (![7, 0, 0] : Fin 3 → Nat) a + S1x64x1024.size a ≤ S15x128x1024.size a
  inb_S15x2_S1x1_7_1 : ∀ a, (![7, 1] : Fin 2 → Nat) a + S1x1.size a ≤ S15x2.size a
  inb_S15x128x1024_S1x64x1024_7_64_0 : ∀ a, (![7, 64, 0] : Fin 3 → Nat) a + S1x64x1024.size a ≤ S15x128x1024.size a
  inb_S15x2_S1x1_8_0 : ∀ a, (![8, 0] : Fin 2 → Nat) a + S1x1.size a ≤ S15x2.size a
  inb_S15x128x1024_S1x64x1024_8_0_0 : ∀ a, (![8, 0, 0] : Fin 3 → Nat) a + S1x64x1024.size a ≤ S15x128x1024.size a
  inb_S15x2_S1x1_8_1 : ∀ a, (![8, 1] : Fin 2 → Nat) a + S1x1.size a ≤ S15x2.size a
  inb_S15x128x1024_S1x64x1024_8_64_0 : ∀ a, (![8, 64, 0] : Fin 3 → Nat) a + S1x64x1024.size a ≤ S15x128x1024.size a
  inb_S15x2_S1x1_9_0 : ∀ a, (![9, 0] : Fin 2 → Nat) a + S1x1.size a ≤ S15x2.size a
  inb_S15x128x1024_S1x64x1024_9_0_0 : ∀ a, (![9, 0, 0] : Fin 3 → Nat) a + S1x64x1024.size a ≤ S15x128x1024.size a
  inb_S15x2_S1x1_9_1 : ∀ a, (![9, 1] : Fin 2 → Nat) a + S1x1.size a ≤ S15x2.size a
  inb_S15x128x1024_S1x64x1024_9_64_0 : ∀ a, (![9, 64, 0] : Fin 3 → Nat) a + S1x64x1024.size a ≤ S15x128x1024.size a
  inb_S15x2_S1x1_10_0 : ∀ a, (![10, 0] : Fin 2 → Nat) a + S1x1.size a ≤ S15x2.size a
  inb_S15x128x1024_S1x64x1024_10_0_0 : ∀ a, (![10, 0, 0] : Fin 3 → Nat) a + S1x64x1024.size a ≤ S15x128x1024.size a
  inb_S15x2_S1x1_10_1 : ∀ a, (![10, 1] : Fin 2 → Nat) a + S1x1.size a ≤ S15x2.size a
  inb_S15x128x1024_S1x64x1024_10_64_0 : ∀ a, (![10, 64, 0] : Fin 3 → Nat) a + S1x64x1024.size a ≤ S15x128x1024.size a
  inb_S15x2_S1x1_11_0 : ∀ a, (![11, 0] : Fin 2 → Nat) a + S1x1.size a ≤ S15x2.size a
  inb_S15x128x1024_S1x64x1024_11_0_0 : ∀ a, (![11, 0, 0] : Fin 3 → Nat) a + S1x64x1024.size a ≤ S15x128x1024.size a
  inb_S15x2_S1x1_11_1 : ∀ a, (![11, 1] : Fin 2 → Nat) a + S1x1.size a ≤ S15x2.size a
  inb_S15x128x1024_S1x64x1024_11_64_0 : ∀ a, (![11, 64, 0] : Fin 3 → Nat) a + S1x64x1024.size a ≤ S15x128x1024.size a
  inb_S15x2_S1x1_12_0 : ∀ a, (![12, 0] : Fin 2 → Nat) a + S1x1.size a ≤ S15x2.size a
  inb_S15x128x1024_S1x64x1024_12_0_0 : ∀ a, (![12, 0, 0] : Fin 3 → Nat) a + S1x64x1024.size a ≤ S15x128x1024.size a
  inb_S15x2_S1x1_12_1 : ∀ a, (![12, 1] : Fin 2 → Nat) a + S1x1.size a ≤ S15x2.size a
  inb_S15x128x1024_S1x64x1024_12_64_0 : ∀ a, (![12, 64, 0] : Fin 3 → Nat) a + S1x64x1024.size a ≤ S15x128x1024.size a
  inb_S15x2_S1x1_13_0 : ∀ a, (![13, 0] : Fin 2 → Nat) a + S1x1.size a ≤ S15x2.size a
  inb_S15x128x1024_S1x64x1024_13_0_0 : ∀ a, (![13, 0, 0] : Fin 3 → Nat) a + S1x64x1024.size a ≤ S15x128x1024.size a
  inb_S15x2_S1x1_13_1 : ∀ a, (![13, 1] : Fin 2 → Nat) a + S1x1.size a ≤ S15x2.size a
  inb_S15x128x1024_S1x64x1024_13_64_0 : ∀ a, (![13, 64, 0] : Fin 3 → Nat) a + S1x64x1024.size a ≤ S15x128x1024.size a
  inb_S15x2_S1x1_14_0 : ∀ a, (![14, 0] : Fin 2 → Nat) a + S1x1.size a ≤ S15x2.size a
  inb_S15x128x1024_S1x64x1024_14_0_0 : ∀ a, (![14, 0, 0] : Fin 3 → Nat) a + S1x64x1024.size a ≤ S15x128x1024.size a
  inb_S15x2_S1x1_14_1 : ∀ a, (![14, 1] : Fin 2 → Nat) a + S1x1.size a ≤ S15x2.size a
  inb_S15x128x1024_S1x64x1024_14_64_0 : ∀ a, (![14, 64, 0] : Fin 3 → Nat) a + S1x64x1024.size a ≤ S15x128x1024.size a
  inb_S15x128x1024_S1x128x1024_14_0_0 : ∀ a, (![14, 0, 0] : Fin 3 → Nat) a + S1x128x1024.size a ≤ S15x128x1024.size a
  h_S1x128x1024 : 0 < S1x128x1024.numel
  shapeCasts_S1x128x1024_S128x1024 : S1x128x1024.ShapeCasts S128x1024
  h_S128x1024 : 0 < S128x1024.numel
  hcc0_scratch2 : 2 + S4.numel ≤ 138
  hcc0_scratch3 : 6 + S15x2.numel ≤ 138
  hcc0_scratch4 : 36 + S4.numel ≤ 138
  hcc0_scratch5 : 40 + S15x2.numel ≤ 138
  hcc0_scratch6 : 70 + S4.numel ≤ 138
  hcc0_scratch7 : 74 + S15x2.numel ≤ 138
  hcc0_scratch8 : 104 + S4.numel ≤ 138
  hcc0_scratch9 : 108 + S15x2.numel ≤ 138
  k0_dev1_lt : ∀ d0 : Dev nD, (k0_dev1 d0) < nD
  k0_dev2_lt : ∀ d0 : Dev nD, (k0_dev2 d0) < nD
  k0_off1_inb : ∀ d0 : Dev nD, ∀ (r : Fin 30), ∀ a, (k0_off1 d0 (k0_off1_at r).1 (k0_off1_at r).2) a + S64x1024.size a ≤ S4096x1024.size a
  k0_dev3_lt : ∀ d0 : Dev nD, (k0_dev3 d0) < nD
  k0_dev4_lt : ∀ d0 : Dev nD, (k0_dev4 d0) < nD
  k0_off2_inb : ∀ d0 : Dev nD, ∀ (r₁ : Fin 15) (r₂ : Fin 2), ∀ a, (k0_off2 d0 (BitVec.ofNat 32 r₁.val) (BitVec.ofNat 32 (64 * r₂.val))) a + S64x1024.size a ≤ S4096x1024.size a
  k0_dev5_lt : ∀ d0 : Dev nD, (k0_dev5 d0) < nD
  k0_dev6_lt : ∀ d0 : Dev nD, (k0_dev6 d0) < nD
  k0_off3_inb : ∀ d0 : Dev nD, ∀ (r₁ : Fin 15) (r₂ : Fin 2), ∀ a, (k0_off3 d0 (BitVec.ofNat 32 (4294967280 + r₁.val)) (BitVec.ofNat 32 (64 * r₂.val))) a + S64x1024.size a ≤ S4096x1024.size a
  k0_dev7_lt : ∀ d0 : Dev nD, (k0_dev7 d0) < nD
  k0_off4_inb : ∀ d0 : Dev nD, ∀ (r₁ : Fin 15) (r₂ : Fin 2), ∀ a, (k0_off4 d0 (BitVec.ofNat 32 (2 + r₁.val)) (BitVec.ofNat 32 (64 * r₂.val))) a + S64x1024.size a ≤ S4096x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off5_inb : ∀ d0 : Dev nD, ∀ a, (k0_off5 d0) a + S128x1024.size a ≤ S4096x1024.size a
  k0_off6_inb : ∀ d0 : Dev nD, ∀ a, (k0_off6 d0) a + S128x1024.size a ≤ S4096x1024.size a
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S15x2 := SemArray.consecutive 6 S15x2 hcc0_scratch3
abbrev cc0_scratch4 : DmaSems sig S4 := SemArray.consecutive 36 S4 hcc0_scratch4
abbrev cc0_scratch5 : DmaSems sig S15x2 := SemArray.consecutive 40 S15x2 hcc0_scratch5
abbrev cc0_scratch6 : DmaSems sig S4 := SemArray.consecutive 70 S4 hcc0_scratch6
abbrev cc0_scratch7 : DmaSems sig S15x2 := SemArray.consecutive 74 S15x2 hcc0_scratch7
abbrev cc0_scratch8 : DmaSems sig S4 := SemArray.consecutive 104 S4 hcc0_scratch8
abbrev cc0_scratch9 : DmaSems sig S15x2 := SemArray.consecutive 108 S15x2 hcc0_scratch9

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S16x4096x1024 : Shape := ⟨3, ![16, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x4096x1024, .f32⟩
  | .hbm, ⟨2, _⟩ => ⟨S_, .f32⟩
  | .hbm, ⟨3, _⟩ => ⟨S4096x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S65536x1024_S16x4096x1024 : S65536x1024.ShapeCasts S16x4096x1024
  reducesTo_S16x4096x1024_S4096x1024_d0 : S16x4096x1024.ReducesTo [0] S4096x1024
  h_S_ : 0 < S_.numel

variable [Facts₀]

class Facts : Prop extends Facts₀ where

variable [Facts]
-- ==== Proof.Base.lean ====
import proofs.«901013_g7700000000001014_dist_rs_then_ag_i_m4096_n1024_v7x_i16_f32_1_alg».proof.Proof.Gen.KernelIdeal.Skeleton
import proofs.«901013_g7700000000001014_dist_rs_then_ag_i_m4096_n1024_v7x_i16_f32_1_alg».proof.Proof.Gen.KernelIdeal.Launch
import proofs.«901013_g7700000000001014_dist_rs_then_ag_i_m4096_n1024_v7x_i16_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring of sixteen devices -/

def nxt (c : Dev nD) : Dev nD := ⟨(c.val + 1) % 16, Nat.mod_lt _ (by decide)⟩
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- one step round the ring: towards the next device when `cw`, towards the previous one otherwise -/
def fwd (cw : Bool) (c : Dev nD) : Dev nD := if cw then nxt c else prv c
/-- one step the other way: the device a transfer in direction `cw` comes from -/
def bwd (cw : Bool) (c : Dev nD) : Dev nD := if cw then prv c else nxt c

/-! ## The buffers: the staged block of the input, the staged result, the two ring buffers -/

abbrev xM : Memref sig .tc .vmem S4096x1024 .f32 := Memref.whole cc0_stg0_0
abbrev oM : Memref sig .tc .vmem S4096x1024 .f32 := Memref.whole cc0_stg1_0
abbrev aM : Memref sig .tc .vmem S15x128x1024 .f32 := Memref.whole cc0_scratch0
abbrev bM : Memref sig .tc .vmem S15x128x1024 .f32 := Memref.whole cc0_scratch1

/-- slot `s` of a ring buffer, its 64 rows from row `r` on, as the kernel's loads and stores name it (a leading axis of one) -/
abbrev slot3 (M : Memref sig .tc .vmem S15x128x1024 .f32) (s r : ℕ)
    (h : ∀ a, (![s, r, 0] : Fin 3 → Nat) a + S1x64x1024.size a ≤ S15x128x1024.size a) : Memref sig .tc .vmem S1x64x1024 .f32 :=
  M.slice (Rect.unit (s := S15x128x1024) ![s, r, 0] S1x64x1024.size h) (fun _ => rfl)
/-- the same rows as the kernel's transfers name them (the leading axis squeezed away) -/
abbrev slot (M : Memref sig .tc .vmem S15x128x1024 .f32) (s r : ℕ)
    (h : ∀ a, (![s, r, 0] : Fin 3 → Nat) a + S1x64x1024.size a ≤ S15x128x1024.size a) : Memref sig .tc .vmem S64x1024 .f32 :=
  (slot3 M s r h).squeeze S64x1024 squeezes_S1x64x1024_S64x1024
/-- 64 rows of a staged array from the offset `o` on -/
abbrev rows (M : Memref sig .tc .vmem S4096x1024 .f32) (o : Fin 2 → Nat)
    (h : ∀ a, o a + S64x1024.size a ≤ S4096x1024.size a) : Memref sig .tc .vmem S64x1024 .f32 :=
  M.slice (Rect.unit (s := S4096x1024) o S64x1024.size h) (fun _ => rfl)

/-- the credit of one transfer of 64 rows -/
abbrev N : ℕ := (slot aM 0 0 inb_S15x128x1024_S1x64x1024_0_0_0).view.dmaCredit
theorem N_pos : 0 < N := View.dmaCredit_pos _ (by decide)

/-- the runtime's barrier semaphore of collective id 0 -/
abbrev barS : Sem sig := (SemArray.scalar (sig.barrier 0 rfl) : Sems sig S_).sem

/-! ## Where the sub-blocks lie

The staged arrays have sixteen chunks of 256 rows; the first 128 rows of a chunk travel one way round the ring, the last 128
the other way, each half as two sub-blocks of 64 rows. -/

/-- the row offset of sub-block `b` of the half of chunk `k` (modulo sixteen) that travels in direction `cw` -/
def off (cw : Bool) (k b : ℕ) : Fin 2 → ℕ := ![256 * (k % 16) + (if cw then 0 else 128) + 64 * b, 0]

theorem off_inb (cw : Bool) (k : ℕ) (b : Fin 2) : ∀ a, off cw k b.val a + S64x1024.size a ≤ S4096x1024.size a := by
  have hk : k % 16 < 16 := Nat.mod_lt _ (by decide)
  have hb := b.isLt
  intro a
  match a with
  | ⟨0, _⟩ => show 256 * (k % 16) + (if cw then 0 else 128) + 64 * b.val + 64 ≤ 4096; cases cw <;> simp <;> omega
  | ⟨1, _⟩ => show 0 + 1024 ≤ 1024; omega

/-! ## The values that travel

`X d` is device `d`'s staged block of the input. In direction `cw`, sub-block `b`: at step `s` of the reduce-scatter device `c`
receives `recvV cw s b c` — a partial sum for chunk `c ∓ (2 + s)` — adds its own rows of that chunk (`addV`) and passes the sum on. -/

variable (X : Dev nD → S4096x1024.Idx → Elt F .f32)

/-- 64 rows of a 4096-row array, read through the window the kernel's transfers use -/
def piece (o : Fin 2 → ℕ) (h : ∀ a, o a + S64x1024.size a ≤ S4096x1024.size a) (Y : S4096x1024.Idx → Elt F .f32) : S64x1024.Idx → Elt F .f32 :=
  (rows xM o h).view.read (Elt F) Y

/-- the chunk device `c` works on at step `s` in direction `cw`: two further back than the step count -/
def chunkAt (cw : Bool) (c : Dev nD) (s : ℕ) : ℕ := if cw then c.val + 32 - 2 - s else c.val + 2 + s

/-- the kernel's elementwise sum of what it received and its own rows -/
def kadd (u v : S64x1024.Idx → Elt F .f32) : S64x1024.Idx → Elt F .f32 :=
  (addf (u : FVec F S64x1024 .f32) (v : FVec F S64x1024 .f32) : FVec F S64x1024 .f32)

mutual
/-- what device `c` receives at step `s` -/
def recvV (cw : Bool) (b : Fin 2) : ℕ → Dev nD → S64x1024.Idx → Elt F .f32
  | 0, c => piece (off cw (chunkAt cw c 0) b.val) (off_inb cw _ b) (X (bwd cw c))
  | s + 1, c => addV cw b s (bwd cw c)
/-- what it holds, and passes on, after adding its own rows -/
def addV (cw : Bool) (b : Fin 2) : ℕ → Dev nD → S64x1024.Idx → Elt F .f32
  | s, c => kadd (recvV cw b s c) (piece (off cw (chunkAt cw c s) b.val) (off_inb cw _ b) (X c))
end

/-- the finished sub-block `b` of the `cw` half of chunk `k`: what device `k` holds after the last step -/
def doneV (cw : Bool) (b : Fin 2) (k : Dev nD) : S64x1024.Idx → Elt F .f32 := addV X cw b 14 k

end Cert.KernelIdeal.RSAG

end
-- ==== Proof.Sched.lean ====
import proofs.«901013_g7700000000001014_dist_rs_then_ag_i_m4096_n1024_v7x_i16_f32_1_alg».proof.Proof.Base

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The cells -/

abbrev barCell (c : Dev nD) : GSem nD τ sig := ((c : Thread nD τ), .reg barS)
abbrev dcell (c : Dev nD) (q : DmaSem sig) : GSem nD τ sig := ((c : Thread nD τ), .dma q)

/-- The kernel's 136 transfer semaphores lie in eight arrays, 34 to a direction-and-phase: four that count what a device
    has SENT (one slot reused every other step) and thirty that count what it has RECEIVED (one per step and sub-block).
    `q - 2` is the semaphore's place among them. -/
def arrOf (q : ℕ) : ℕ := (q - 2) / 34
def posOf (q : ℕ) : ℕ := (q - 2) % 34

theorem slot_inb (s b : ℕ) (hs : s < 15) (hb : b < 2) :
    ∀ a, (![s, 64 * b, 0] : Fin 3 → Nat) a + S1x64x1024.size a ≤ S15x128x1024.size a := by
  intro a
  match a with
  | ⟨0, _⟩ => show s + 1 ≤ 15; omega
  | ⟨1, _⟩ => show 64 * b + 64 ≤ 128; omega
  | ⟨2, _⟩ => show 0 + 1024 ≤ 1024; omega

/-- the ring buffer a direction uses -/
abbrev bufOf (cw : Bool) : Memref sig .tc .vmem S15x128x1024 .f32 := if cw then aM else bM

variable (X : Dev nD → S4096x1024.Idx → Elt F .f32)

/-- the device whose chunk device `c` receives at step `h` of the all-gather in direction `cw`, as a shift of `c` -/
def agShift (cw : Bool) (h : ℕ) : ℕ := if cw then 15 - h else 1 + h
def devAt (c : Dev nD) (k : ℕ) : Dev nD := ⟨(c.val + k) % 16, Nat.mod_lt _ (by decide)⟩

/-- what the landing of the transfer of step `s`, sub-block `b`, hands device `c`: in the reduce-scatter slot `s` of its ring
    buffer holding the partial sum; in the all-gather the rows of its result that hold the finished sub-block of another chunk -/
def recvPay (cw ag : Bool) (c : Dev nD) (s b : ℕ) : sProp 𝕄 :=
  if h : s < 15 ∧ b < 2 then
    if ag then owns (c : Thread nD τ) (rows oM (off cw (c.val + agShift cw s) b) (off_inb cw _ ⟨b, h.2⟩)) fullShare (doneV X cw ⟨b, h.2⟩ (devAt c (agShift cw s)))
    else owns (c : Thread nD τ) (slot (bufOf cw) s (64 * b) (slot_inb s b h.1 h.2)) fullShare (recvV X cw ⟨b, h.2⟩ s c)
  else iprop(emp)

/-- what the read-out of the transfer device `c` fires at step `t` (sub-block `b`) hands back: its source -/
def sendPay (cw ag : Bool) (c : Dev nD) (t b : ℕ) : sProp 𝕄 :=
  if h : t < 15 ∧ b < 2 then
    if ag then
      (match t with
       | 0 => owns (c : Thread nD τ) (slot (bufOf cw) 14 (64 * b) (slot_inb 14 b (by decide) h.2)) fullShare.right (addV X cw ⟨b, h.2⟩ 14 c)
       | t' + 1 => owns (c : Thread nD τ) (rows oM (off cw (c.val + agShift cw t') b) (off_inb cw _ ⟨b, h.2⟩)) fullShare (doneV X cw ⟨b, h.2⟩ (devAt c (agShift cw t'))))
    else
      (match t, h with
       | 0, _ => iprop((rows xM (off cw (c.val + (if cw then 15 else 1)) b) (off_inb cw _ ⟨b, h.2⟩)).view.loc (c : Thread nD τ)
            ↦[(rows xM (off cw (c.val + (if cw then 15 else 1)) b) (off_inb cw _ ⟨b, h.2⟩)).view.set]{fullShare.right} X c)
       | t' + 1, h => owns (c : Thread nD τ) (slot (bufOf cw) t' (64 * b) (slot_inb t' b (by omega) h.2)) fullShare (addV X cw ⟨b, h.2⟩ t' c))
  else iprop(emp)

/-- a transfer semaphore's payload by its place: array `a` (direction `a % 2`, phase `a / 2`), place `p` in it, round `r` -/
def dmaPay (c : Dev nD) (q r : ℕ) : sProp 𝕄 :=
  if q < 2 then iprop(emp) else
    if posOf q < 4 then sendPay X (arrOf q % 2 = 0) (2 ≤ arrOf q) c (2 * r + posOf q / 2) (posOf q % 2)
    else recvPay X (arrOf q % 2 = 0) (2 ≤ arrOf q) c ((posOf q - 4) / 2) ((posOf q - 4) % 2)

/-- how often a send slot is used: the even steps 0..14 or the odd steps 1..13 -/
def sendRounds (p : ℕ) : ℕ := if p < 2 then 8 else 7

/-! ### The barrier's payloads: each device lends each neighbour what that neighbour will write -/

/-- all thirty slots of a ring buffer on device `d`, at some contents -/
def allSlots (cw : Bool) (d : Dev nD) : sProp 𝕄 :=
  bigSep (Finset.univ : Finset (Fin 15 × Fin 2)) fun sb =>
    iprop(∃ f, (slot (bufOf cw) sb.1.val (64 * sb.2.val) (slot_inb _ _ sb.1.isLt sb.2.isLt)).view.loc (d : Thread nD τ)
      ↦[(slot (bufOf cw) sb.1.val (64 * sb.2.val) (slot_inb _ _ sb.1.isLt sb.2.isLt)).view.set]{fullShare} f)
/-- the thirty sub-blocks of device `d`'s staged result that arrive in direction `cw`, at some contents -/
def allRows (cw : Bool) (d : Dev nD) : sProp 𝕄 :=
  bigSep (Finset.univ : Finset (Fin 15 × Fin 2)) fun hb =>
    iprop(∃ f, (rows oM (off cw (d.val + agShift cw hb.1.val) hb.2.val) (off_inb cw _ hb.2)).view.loc (d : Thread nD τ)
      ↦[(rows oM (off cw (d.val + agShift cw hb.1.val) hb.2.val) (off_inb cw _ hb.2)).view.set]{fullShare} f)

/-- duty `false` of `c`'s barrier cell is paid by `nxt c`, which `c` writes clockwise; duty `true` by `prv c` -/
def barPay (c : Dev nD) (d : Bool) : sProp 𝕄 :=
  if d then iprop(allSlots false (prv c) ∗ allRows false (prv c)) else iprop(allSlots true (nxt c) ∗ allRows true (nxt c))

/-! ## The schedule -/

def Rd : Rounds.Schedule (GSem nD τ sig) Bool 𝕄 where
  duties g r :=
    if g.1.2 = .tc then
      (match g.2 with
       | .reg s => if s = barS ∧ r = 0 then Finset.univ else ∅
       | .dma q => if q.val < 2 then ∅ else if posOf q.val < 4 then (if r < sendRounds (posOf q.val) then {false} else ∅)
            else if r = 0 then {false} else ∅)
    else ∅
  unitless _ := False
  amount g _ _ := match g.2 with | .reg _ => 1 | .dma _ => N
  payload g r d := match g.2 with | .reg _ => barPay g.1.1 d | .dma q => dmaPay X g.1.1 q.val r
  amount_pos g _ _ _ := by
    cases g.2 with
    | reg _ => exact Nat.one_pos
    | dma _ => exact N_pos

instance Rd_payload_storable (g : GSem nD τ sig) (r : ℕ) (d : Bool) :
    BI.Storable (upEmb : UEmb _ 𝕄) ((Rd (F := F) X).payload g r d) := by
  dsimp only [Rd]
  cases g.2 with
  | reg _ => dsimp only; unfold barPay allSlots allRows; split <;> infer_instance
  | dma q => dsimp only; unfold dmaPay sendPay recvPay owns; (repeat' split) <;> infer_instance

end Cert.KernelIdeal.RSAG

end
-- ==== Proof.Tables.lean ====
import proofs.«901013_g7700000000001014_dist_rs_then_ag_i_m4096_n1024_v7x_i16_f32_1_alg».proof.Proof.Sched

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The kernel's semaphores as it names them, and the schedule's entries at each of them (every equation holds by unfolding). -/

abbrev qS (A : DmaSems sig S4) (j : ℕ) (h : ∀ a, (![j] : Fin 1 → Nat) a + S1.size a ≤ S4.size a) : DmaSem sig :=
  ((A.slice (Rect.unit (s := S4) ![j] S1.size h)).squeeze S_ squeezes_S1_S_).sem
abbrev qR (A : DmaSems sig S15x2) (s b : ℕ) (h : ∀ a, (![s, b] : Fin 2 → Nat) a + S1x1.size a ≤ S15x2.size a) : DmaSem sig :=
  ((A.slice (Rect.unit (s := S15x2) ![s, b] S1x1.size h)).squeeze S_ squeezes_S1x1_S_).sem

variable (X : Dev nD → S4096x1024.Idx → Elt F .f32)

theorem duties_bar (c : Dev nD) : (Rd (F := F) X).duties (barCell c) 0 = Finset.univ := rfl
theorem amount_bar (c : Dev nD) (d : Bool) : (Rd (F := F) X).amount (barCell c) 0 d = 1 := rfl
theorem expect_bar (c : Dev nD) : (Rd (F := F) X).expect (barCell c) 0 = 2 := by
  unfold Schedule.expect Schedule.amountOf
  rw [duties_bar, Finset.sum_congr rfl fun d _ => amount_bar X c d, Finset.sum_const, Finset.card_univ, Fintype.card_bool, smul_eq_mul]
theorem payload_bar (c : Dev nD) (d : Bool) : (Rd (F := F) X).payload (barCell c) 0 d = barPay c d := rfl
theorem duties_rscw_r_0_0 (c : Dev nD) : (Rd (F := F) X).duties (dcell c (qR cc0_scratch3 0 0 inb_S15x2_S1x1_0_0)) 0 = {false} := rfl
theorem amount_rscw_r_0_0 (c : Dev nD) (d : Bool) : (Rd (F := F) X).amount (dcell c (qR cc0_scratch3 0 0 inb_S15x2_S1x1_0_0)) 0 d = N := rfl
theorem payload_rscw_r_0_0 (c : Dev nD) (d : Bool) : (Rd (F := F) X).payload (dcell c (qR cc0_scratch3 0 0 inb_S15x2_S1x1_0_0)) 0 d = owns (c : Thread nD τ) (slot aM 0 0 inb_S15x128x1024_S1x64x1024_0_0_0) fullShare (recvV X true 0 0 c) := rfl
theorem expect_rscw_r_0_0 (c : Dev nD) : (Rd (F := F) X).expect (dcell c (qR cc0_scratch3 0 0 inb_S15x2_S1x1_0_0)) 0 = N := by
  unfold Schedule.expect Schedule.amountOf; rw [duties_rscw_r_0_0, Finset.sum_singleton]; rfl
theorem duties_rscw_r_0_1 (c : Dev nD) : (Rd (F := F) X).duties (dcell c (qR cc0_scratch3 0 1 inb_S15x2_S1x1_0_1)) 0 = {false} := rfl
theorem amount_rscw_r_0_1 (c : Dev nD) (d : Bool) : (Rd (F := F) X).amount (dcell c (qR cc0_scratch3 0 1 inb_S15x2_S1x1_0_1)) 0 d = N := rfl
theorem payload_rscw_r_0_1 (c : Dev nD) (d : Bool) : (Rd (F := F) X).payload (dcell c (qR cc0_scratch3 0 1 inb_S15x2_S1x1_0_1)) 0 d = owns (c : Thread nD τ) (slot aM 0 64 inb_S15x128x1024_S1x64x1024_0_64_0) fullShare (recvV X true 1 0 c) := rfl
theorem expect_rscw_r_0_1 (c : Dev nD) : (Rd (F := F) X).expect (dcell c (qR cc0_scratch3 0 1 inb_S15x2_S1x1_0_1)) 0 = N := by
  unfold Schedule.expect Schedule.amountOf; rw [duties_rscw_r_0_1, Finset.sum_singleton]; rfl
theorem duties_rscw_r_1_0 (c : Dev nD) : (Rd (F := F) X).duties (dcell c (qR cc0_scratch3 1 0 inb_S15x2_S1x1_1_0)) 0 = {false} := rfl
theorem amount_rscw_r_1_0 (c : Dev nD) (d : Bool) : (Rd (F := F) X).amount (dcell c (qR cc0_scratch3 1 0 inb_S15x2_S1x1_1_0)) 0 d = N := rfl
theorem payload_rscw_r_1_0 (c : Dev nD) (d : Bool) : (Rd (F := F) X).payload (dcell c (qR cc0_scratch3 1 0 inb_S15x2_S1x1_1_0)) 0 d = owns (c : Thread nD τ) (slot aM 1 0 inb_S15x128x1024_S1x64x1024_1_0_0) fullShare (recvV X true 0 1 c) := rfl
theorem expect_rscw_r_1_0 (c : Dev nD) : (Rd (F := F) X).expect (dcell c (qR cc0_scratch3 1 0 inb_S15x2_S1x1_1_0)) 0 = N := by
  unfold Schedule.expect Schedule.amountOf; rw [duties_rscw_r_1_0, Finset.sum_singleton]; rfl
theorem duties_rscw_r_1_1 (c : Dev nD) : (Rd (F := F) X).duties (dcell c (qR cc0_scratch3 1 1 inb_S15x2_S1x1_1_1)) 0 = {false} := rfl
theorem amount_rscw_r_1_1 (c : Dev nD) (d : Bool) : (Rd (F := F) X).amount (dcell c (qR cc0_scratch3 1 1 inb_S15x2_S1x1_1_1)) 0 d = N := rfl
theorem payload_rscw_r_1_1 (c : Dev nD) (d : Bool) : (Rd (F := F) X).payload (dcell c (qR cc0_scratch3 1 1 inb_S15x2_S1x1_1_1)) 0 d = owns (c : Thread nD τ) (slot aM 1 64 inb_S15x128x1024_S1x64x1024_1_64_0) fullShare (recvV X true 1 1 c) := rfl
theorem expect_rscw_r_1_1 (c : Dev nD) : (Rd (F := F) X).expect (dcell c (qR cc0_scratch3 1 1 inb_S15x2_S1x1_1_1)) 0 = N := by
  unfold Schedule.expect Schedule.amountOf; rw [duties_rscw_r_1_1, Finset.sum_singleton]; rfl
theorem duties_rscw_r_2_0 (c : Dev nD) : (Rd (F := F) X).duties (dcell c (qR cc0_scratch3 2 0 inb_S15x2_S1x1_2_0)) 0 = {false} := rfl
theorem amount_rscw_r_2_0 (c : Dev nD) (d : Bool) : (Rd (F := F) X).amount (dcell c (qR cc0_scratch3 2 0 inb_S15x2_S1x1_2_0)) 0 d = N := rfl
theorem payload_rscw_r_2_0 (c : Dev nD) (d : Bool) : (Rd (F := F) X).payload (dcell c (qR cc0_scratch3 2 0 inb_S15x2_S1x1_2_0)) 0 d = owns (c : Thread nD τ) (slot aM 2 0 inb_S15x128x1024_S1x64x1024_2_0_0) fullShare (recvV X true 0 2 c) := rfl
theorem expect_rscw_r_2_0 (c : Dev nD) : (Rd (F := F) X).expect (dcell c (qR cc0_scratch3 2 0 inb_S15x2_S1x1_2_0)) 0 = N := by
  unfold Schedule.expect Schedule.amountOf; rw [duties_rscw_r_2_0, Finset.sum_singleton]; rfl
theorem duties_rscw_r_2_1 (c : Dev nD) : (Rd (F := F) X).duties (dcell c (qR cc0_scratch3 2 1 inb_S15x2_S1x1_2_1)) 0 = {false} := rfl
theorem amount_rscw_r_2_1 (c : Dev nD) (d : Bool) : (Rd (F := F) X).amount (dcell c (qR cc0_scratch3 2 1 inb_S15x2_S1x1_2_1)) 0 d = N := rfl
theorem payload_rscw_r_2_1 (c : Dev nD) (d : Bool) : (Rd (F := F) X).payload (dcell c (qR cc0_scratch3 2 1 inb_S15x2_S1x1_2_1)) 0 d = owns (c : Thread nD τ) (slot aM 2 64 inb_S15x128x1024_S1x64x1024_2_64_0) fullShare (recvV X true 1 2 c) := rfl
theorem expect_rscw_r_2_1 (c : Dev nD) : (Rd (F := F) X).expect (dcell c (qR cc0_scratch3 2 1 inb_S15x2_S1x1_2_1)) 0 = N := by
  unfold Schedule.expect Schedule.amountOf; rw [duties_rscw_r_2_1, Finset.sum_singleton]; rfl
theorem duties_rscw_r_3_0 (c : Dev nD) : (Rd (F := F) X).duties (dcell c (qR cc0_scratch3 3 0 inb_S15x2_S1x1_3_0)) 0 = {false} := rfl
theorem amount_rscw_r_3_0 (c : Dev nD) (d : Bool) : (Rd (F := F) X).amount (dcell c (qR cc0_scratch3 3 0 inb_S15x2_S1x1_3_0)) 0 d = N := rfl
theorem payload_rscw_r_3_0 (c : Dev nD) (d : Bool) : (Rd (F := F) X).payload (dcell c (qR cc0_scratch3 3 0 inb_S15x2_S1x1_3_0)) 0 d = owns (c : Thread nD τ) (slot aM 3 0 inb_S15x128x1024_S1x64x1024_3_0_0) fullShare (recvV X true 0 3 c) := rfl
theorem expect_rscw_r_3_0 (c : Dev nD) : (Rd (F := F) X).expect (dcell c (qR cc0_scratch3 3 0 inb_S15x2_S1x1_3_0)) 0 = N := by
  unfold Schedule.expect Schedule.amountOf; rw [duties_rscw_r_3_0, Finset.sum_singleton]; rfl
theorem duties_rscw_r_3_1 (c : Dev nD) : (Rd (F := F) X).duties (dcell c (qR cc0_scratch3 3 1 inb_S15x2_S1x1_3_1)) 0 = {false} := rfl
theorem amount_rscw_r_3_1 (c : Dev nD) (d : Bool) : (Rd (F := F) X).amount (dcell c (qR cc0_scratch3 3 1 inb_S15x2_S1x1_3_1)) 0 d = N := rfl
theorem payload_rscw_r_3_1 (c : Dev nD) (d : Bool) : (Rd (F := F) X).payload (dcell c (qR cc0_scratch3 3 1 inb_S15x2_S1x1_3_1)) 0 d = owns (c : Thread nD τ) (slot aM 3 64 inb_S15x128x1024_S1x64x1024_3_64_0) fullShare (recvV X true 1 3 c) := rfl
theorem expect_rscw_r_3_1 (c : Dev nD) : (Rd (F := F) X).expect (dcell c (qR cc0_scratch3 3 1 inb_S15x2_S1x1_3_1)) 0 = N := by
  unfold Schedule.expect Schedule.amountOf; rw [duties_rscw_r_3_1, Finset.sum_singleton]; rfl
theorem duties_rscw_r_4_0 (c : Dev nD) : (Rd (F := F) X).duties (dcell c (qR cc0_scratch3 4 0 inb_S15x2_S1x1_4_0)) 0 = {false} := rfl
theorem amount_rscw_r_4_0 (c : Dev nD) (d : Bool) : (Rd (F := F) X).amount (dcell c (qR cc0_scratch3 4 0 inb_S15x2_S1x1_4_0)) 0 d = N := rfl
theorem payload_rscw_r_4_0 (c : Dev nD) (d : Bool) : (Rd (F := F) X).payload (dcell c (qR cc0_scratch3 4 0 inb_S15x2_S1x1_4_0)) 0 d = owns (c : Thread nD τ) (slot aM 4 0 inb_S15x128x1024_S1x64x1024_4_0_0) fullShare (recvV X true 0 4 c) := rfl
theorem expect_rscw_r_4_0 (c : Dev nD) : (Rd (F := F) X).expect (dcell c (qR cc0_scratch3 4 0 inb_S15x2_S1x1_4_0)) 0 = N := by
  unfold Schedule.expect Schedule.amountOf; rw [duties_rscw_r_4_0, Finset.sum_singleton]; rfl
theorem duties_rscw_r_4_1 (c : Dev nD) : (Rd (F := F) X).duties (dcell c (qR cc0_scratch3 4 1 inb_S15x2_S1x1_4_1)) 0 = {false} := rfl
theorem amount_rscw_r_4_1 (c : Dev nD) (d : Bool) : (Rd (F := F) X).amount (dcell c (qR cc0_scratch3 4 1 inb_S15x2_S1x1_4_1)) 0 d = N := rfl
theorem payload_rscw_r_4_1 (c : Dev nD) (d : Bool) : (Rd (F := F) X).payload (dcell c (qR cc0_scratch3 4 1 inb_S15x2_S1x1_4_1)) 0 d = owns (c : Thread nD τ) (slot aM 4 64 inb_S15x128x1024_S1x64x1024_4_64_0) fullShare (recvV X true 1 4 c) := rfl
theorem expect_rscw_r_4_1 (c : Dev nD) : (Rd (F := F) X).expect (dcell c (qR cc0_scratch3 4 1 inb_S15x2_S1x1_4_1)) 0 = N := by
  unfold Schedule.expect Schedule.amountOf; rw [duties_rscw_r_4_1, Finset.sum_singleton]; rfl
theorem duties_rscw_r_5_0 (c : Dev nD) : (Rd (F := F) X).duties (dcell c (qR cc0_scratch3 5 0 inb_S15x2_S1x1_5_0)) 0 = {false} := rfl
theorem amount_rscw_r_5_0 (c : Dev nD) (d : Bool) : (Rd (F := F) X).amount (dcell c (qR cc0_scratch3 5 0 inb_S15x2_S1x1_5_0)) 0 d = N := rfl
theorem payload_rscw_r_5_0 (c : Dev nD) (d : Bool) : (Rd (F := F) X).payload (dcell c (qR cc0_scratch3 5 0 inb_S15x2_S1x1_5_0)) 0 d = owns (c : Thread nD τ) (slot aM 5 0 inb_S15x128x1024_S1x64x1024_5_0_0) fullShare (recvV X true 0 5 c) := rfl
theorem expect_rscw_r_5_0 (c : Dev nD) : (Rd (F := F) X).expect (dcell c (qR cc0_scratch3 5 0 inb_S15x2_S1x1_5_0)) 0 = N := by
  unfold Schedule.expect Schedule.amountOf; rw [duties_rscw_r_5_0, Finset.sum_singleton]; rfl
theorem duties_rscw_r_5_1 (c : Dev nD) : (Rd (F := F) X).duties (dcell c (qR cc0_scratch3 5 1 inb_S15x2_S1x1_5_1)) 0 = {false} := rfl
theorem amount_rscw_r_5_1 (c : Dev nD) (d : Bool) : (Rd (F := F) X).amount (dcell c (qR cc0_scratch3 5 1 inb_S15x2_S1x1_5_1)) 0 d = N := rfl
theorem payload_rscw_r_5_1 (c : Dev nD) (d : Bool) : (Rd (F := F) X).payload (dcell c (qR cc0_scratch3 5 1 inb_S15x2_S1x1_5_1)) 0 d = owns (c : Thread nD τ) (slot aM 5 64 inb_S15x128x1024_S1x64x1024_5_64_0) fullShare (recvV X true 1 5 c) := rfl
theorem expect_rscw_r_5_1 (c : Dev nD) : (Rd (F := F) X).expect (dcell c (qR cc0_scratch3 5 1 inb_S15x2_S1x1_5_1)) 0 = N := by
  unfold Schedule.expect Schedule.amountOf; rw [duties_rscw_r_5_1, Finset.sum_singleton]; rfl
theorem duties_rscw_r_6_0 (c : Dev nD) : (Rd (F := F) X).duties (dcell c (qR cc0_scratch3 6 0 inb_S15x2_S1x1_6_0)) 0 = {false} := rfl
theorem amount_rscw_r_6_0 (c : Dev nD) (d : Bool) : (Rd (F := F) X).amount (dcell c (qR cc0_scratch3 6 0 inb_S15x2_S1x1_6_0)) 0 d = N := rfl
theorem payload_rscw_r_6_0 (c : Dev nD) (d : Bool) : (Rd (F := F) X).payload (dcell c (qR cc0_scratch3 6 0 inb_S15x2_S1x1_6_0)) 0 d = owns (c : Thread nD τ) (slot aM 6 0 inb_S15x128x1024_S1x64x1024_6_0_0) fullShare (recvV X true 0 6 c) := rfl
theorem expect_rscw_r_6_0 (c : Dev nD) : (Rd (F := F) X).expect (dcell c (qR cc0_scratch3 6 0 inb_S15x2_S1x1_6_0)) 0 = N := by
  unfold Schedule.expect Schedule.amountOf; rw [duties_rscw_r_6_0, Finset.sum_singleton]; rfl
theorem duties_rscw_r_6_1 (c : Dev nD) : (Rd (F := F) X).duties (dcell c (qR cc0_scratch3 6 1 inb_S15x2_S1x1_6_1)) 0 = {false} := rfl
theorem amount_rscw_r_6_1 (c : Dev nD) (d : Bool) : (Rd (F := F) X).amount (dcell c (qR cc0_scratch3 6 1 inb_S15x2_S1x1_6_1)) 0 d = N := rfl
theorem payload_rscw_r_6_1 (c : Dev nD) (d : Bool) : (Rd (F := F) X).payload (dcell c (qR cc0_scratch3 6 1 inb_S15x2_S1x1_6_1)) 0 d = owns (c : Thread nD τ) (slot aM 6 64 inb_S15x128x1024_S1x64x1024_6_64_0) fullShare (recvV X true 1 6 c) := rfl
theorem expect_rscw_r_6_1 (c : Dev nD) : (Rd (F := F) X).expect (dcell c (qR cc0_scratch3 6 1 inb_S15x2_S1x1_6_1)) 0 = N := by
  unfold Schedule.expect Schedule.amountOf; rw [duties_rscw_r_6_1, Finset.sum_singleton]; rfl
theorem duties_rscw_r_7_0 (c : Dev nD) : (Rd (F := F) X).duties (dcell c (qR cc0_scratch3 7 0 inb_S15x2_S1x1_7_0)) 0 = {false} := rfl
theorem amount_rscw_r_7_0 (c : Dev nD) (d : Bool) : (Rd (F := F) X).amount (dcell c (qR cc0_scratch3 7 0 inb_S15x2_S1x1_7_0)) 0 d = N := rfl
theorem payload_rscw_r_7_0 (c : Dev nD) (d : Bool) : (Rd (F := F) X).payload (dcell c (qR cc0_scratch3 7 0 inb_S15x2_S1x1_7_0)) 0 d = owns (c : Thread nD τ) (slot aM 7 0 inb_S15x128x1024_S1x64x1024_7_0_0) fullShare (recvV X true 0 7 c) := rfl
theorem expect_rscw_r_7_0 (c : Dev nD) : (Rd (F := F) X).expect (dcell c (qR cc0_scratch3 7 0 inb_S15x2_S1x1_7_0)) 0 = N := by
  unfold Schedule.expect Schedule.amountOf; rw [duties_rscw_r_7_0, Finset.sum_singleton]; rfl
theorem duties_rscw_r_7_1 (c : Dev nD) : (Rd (F := F) X).duties (dcell c (qR cc0_scratch3 7 1 inb_S15x2_S1x1_7_1)) 0 = {false} := rfl
theorem amount_rscw_r_7_1 (c : Dev nD) (d : Bool) : (Rd (F := F) X).amount (dcell c (qR cc0_scratch3 7 1 inb_S15x2_S1x1_7_1)) 0 d = N := rfl
theorem payload_rscw_r_7_1 (c : Dev nD) (d : Bool) : (Rd (F := F) X).payload (dcell c (qR cc0_scratch3 7 1 inb_S15x2_S1x1_7_1)) 0 d = owns (c : Thread nD τ) (slot aM 7 64 inb_S15x128x1024_S1x64x1024_7_64_0) fullShare (recvV X true 1 7 c) := rfl
theorem expect_rscw_r_7_1 (c : Dev nD) : (Rd (F := F) X).expect (dcell c (qR cc0_scratch3 7 1 inb_S15x2_S1x1_7_1)) 0 = N := by
  unfold Schedule.expect Schedule.amountOf; rw [duties_rscw_r_7_1, Finset.sum_singleton]; rfl
theorem duties_rscw_r_8_0 (c : Dev nD) : (Rd (F := F) X).duties (dcell c (qR cc0_scratch3 8 0 inb_S15x2_S1x1_8_0)) 0 = {false} := rfl
theorem amount_rscw_r_8_0 (c : Dev nD) (d : Bool) : (Rd (F := F) X).amount (dcell c (qR cc0_scratch3 8 0 inb_S15x2_S1x1_8_0)) 0 d = N := rfl
theorem payload_rscw_r_8_0 (c : Dev nD) (d : Bool) : (Rd (F := F) X).payload (dcell c (qR cc0_scratch3 8 0 inb_S15x2_S1x1_8_0)) 0 d = owns (c : Thread nD τ) (slot aM 8 0 inb_S15x128x1024_S1x64x1024_8_0_0) fullShare (recvV X true 0 8 c) := rfl
theorem expect_rscw_r_8_0 (c : Dev nD) : (Rd (F := F) X).expect (dcell c (qR cc0_scratch3 8 0 inb_S15x2_S1x1_8_0)) 0 = N := by
  unfold Schedule.expect Schedule.amountOf; rw [duties_rscw_r_8_0, Finset.sum_singleton]; rfl
theorem duties_rscw_r_8_1 (c : Dev nD) : (Rd (F := F) X).duties (dcell c (qR cc0_scratch3 8 1 inb_S15x2_S1x1_8_1)) 0 = {false} := rfl
theorem amount_rscw_r_8_1 (c : Dev nD) (d : Bool) : (Rd (F := F) X).amount (dcell c (qR cc0_scratch3 8 1 inb_S15x2_S1x1_8_1)) 0 d = N := rfl
theorem payload_rscw_r_8_1 (c : Dev nD) (d : Bool) : (Rd (F := F) X).payload (dcell c (qR cc0_scratch3 8 1 inb_S15x2_S1x1_8_1)) 0 d = owns (c : Thread nD τ) (slot aM 8 64 inb_S15x128x1024_S1x64x1024_8_64_0) fullShare (recvV X true 1 8 c) := rfl
theorem expect_rscw_r_8_1 (c : Dev nD) : (Rd (F := F) X).expect (dcell c (qR cc0_scratch3 8 1 inb_S15x2_S1x1_8_1)) 0 = N := by
  unfold Schedule.expect Schedule.amountOf; rw [duties_rscw_r_8_1, Finset.sum_singleton]; rfl
theorem duties_rscw_r_9_0 (c : Dev nD) : (Rd (F := F) X).duties (dcell c (qR cc0_scratch3 9 0 inb_S15x2_S1x1_9_0)) 0 = {false} := rfl
theorem amount_rscw_r_9_0 (c : Dev nD) (d : Bool) : (Rd (F := F) X).amount (dcell c (qR cc0_scratch3 9 0 inb_S15x2_S1x1_9_0)) 0 d = N := rfl
theorem payload_rscw_r_9_0 (c : Dev nD) (d : Bool) : (Rd (F := F) X).payload (dcell c (qR cc0_scratch3 9 0 inb_S15x2_S1x1_9_0)) 0 d = owns (c : Thread nD τ) (slot aM 9 0 inb_S15x128x1024_S1x64x1024_9_0_0) fullShare (recvV X true 0 9 c) := rfl
theorem expect_rscw_r_9_0 (c : Dev nD) : (Rd (F := F) X).expect (dcell c (qR cc0_scratch3 9 0 inb_S15x2_S1x1_9_0)) 0 = N := by
  unfold Schedule.expect Schedule.amountOf; rw [duties_rscw_r_9_0, Finset.sum_singleton]; rfl
theorem duties_rscw_r_9_1 (c : Dev nD) : (Rd (F := F) X).duties (dcell c (qR cc0_scratch3 9 1 inb_S15x2_S1x1_9_1)) 0 = {false} := rfl
theorem amount_rscw_r_9_1 (c : Dev nD) (d : Bool) : (Rd (F := F) X).amount (dcell c (qR cc0_scratch3 9 1 inb_S15x2_S1x1_9_1)) 0 d = N := rfl
theorem payload_rscw_r_9_1 (c : Dev nD) (d : Bool) : (Rd (F := F) X).payload (dcell c (qR cc0_scratch3 9 1 inb_S15x2_S1x1_9_1)) 0 d = owns (c : Thread nD τ) (slot aM 9 64 inb_S15x128x1024_S1x64x1024_9_64_0) fullShare (recvV X true 1 9 c) := rfl
theorem expect_rscw_r_9_1 (c : Dev nD) : (Rd (F := F) X).expect (dcell c (qR cc0_scratch3 9 1 inb_S15x2_S1x1_9_1)) 0 = N := by
  unfold Schedule.expect Schedule.amountOf; rw [duties_rscw_r_9_1, Finset.sum_singleton]; rfl
theorem duties_rscw_r_10_0 (c : Dev nD) : (Rd (F := F) X).duties (dcell c (qR cc0_scratch3 10 0 inb_S15x2_S1x1_10_0)) 0 = {false} := rfl
theorem amount_rscw_r_10_0 (c : Dev nD) (d : Bool) : (Rd (F := F) X).amount (dcell c (qR cc0_scratch3 10 0 inb_S15x2_S1x1_10_0)) 0 d = N := rfl
theorem payload_rscw_r_10_0 (c : Dev nD) (d : Bool) : (Rd (F := F) X).payload (dcell c (qR cc0_scratch3 10 0 inb_S15x2_S1x1_10_0)) 0 d = owns (c : Thread nD τ) (slot aM 10 0 inb_S15x128x1024_S1x64x1024_10_0_0) fullShare (recvV X true 0 10 c) := rfl
theorem expect_rscw_r_10_0 (c : Dev nD) : (Rd (F := F) X).expect (dcell c (qR cc0_scratch3 10 0 inb_S15x2_S1x1_10_0)) 0 = N := by
  unfold Schedule.expect Schedule.amountOf; rw [duties_rscw_r_10_0, Finset.sum_singleton]; rfl
theorem duties_rscw_r_10_1 (c : Dev nD) : (Rd (F := F) X).duties (dcell c (qR cc0_scratch3 10 1 inb_S15x2_S1x1_10_1)) 0 = {false} := rfl
theorem amount_rscw_r_10_1 (c : Dev nD) (d : Bool) : (Rd (F := F) X).amount (dcell c (qR cc0_scratch3 10 1 inb_S15x2_S1x1_10_1)) 0 d = N := rfl
theorem payload_rscw_r_10_1 (c : Dev nD) (d : Bool) : (Rd (F := F) X).payload (dcell c (qR cc0_scratch3 10 1 inb_S15x2_S1x1_10_1)) 0 d = owns (c : Thread nD τ) (slot aM 10 64 inb_S15x128x1024_S1x64x1024_10_64_0) fullShare (recvV X true 1 10 c) := rfl
theorem expect_rscw_r_10_1 (c : Dev nD) : (Rd (F := F) X).expect (dcell c (qR cc0_scratch3 10 1 inb_S15x2_S1x1_10_1)) 0 = N := by
  unfold Schedule.expect Schedule.amountOf; rw [duties_rscw_r_10_1, Finset.sum_singleton]; rfl
theorem duties_rscw_r_11_0 (c : Dev nD) : (Rd (F := F) X).duties (dcell c (qR cc0_scratch3 11 0 inb_S15x2_S1x1_11_0)) 0 = {false} := rfl
theorem amount_rscw_r_11_0 (c : Dev nD) (d : Bool) : (Rd (F := F) X).amount (dcell c (qR cc0_scratch3 11 0 inb_S15x2_S1x1_11_0)) 0 d = N := rfl
theorem payload_rscw_r_11_0 (c : Dev nD) (d : Bool) : (Rd (F := F) X).payload (dcell c (qR cc0_scratch3 11 0 inb_S15x2_S1x1_11_0)) 0 d = owns (c : Thread nD τ) (slot aM 11 0 inb_S15x128x1024_S1x64x1024_11_0_0) fullShare (recvV X true 0 11 c) := rfl
theorem expect_rscw_r_11_0 (c : Dev nD) : (Rd (F := F) X).expect (dcell c (qR cc0_scratch3 11 0 inb_S15x2_S1x1_11_0)) 0 = N := by
  unfold Schedule.expect Schedule.amountOf; rw [duties_rscw_r_11_0, Finset.sum_singleton]; rfl
theorem duties_rscw_r_11_1 (c : Dev nD) : (Rd (F := F) X).duties (dcell c (qR cc0_scratch3 11 1 inb_S15x2_S1x1_11_1)) 0 = {false} := rfl
theorem amount_rscw_r_11_1 (c : Dev nD) (d : Bool) : (Rd (F := F) X).amount (dcell c (qR cc0_scratch3 11 1 inb_S15x2_S1x1_11_1)) 0 d = N := rfl
theorem payload_rscw_r_11_1 (c : Dev nD) (d : Bool) : (Rd (F := F) X).payload (dcell c (qR cc0_scratch3 11 1 inb_S15x2_S1x1_11_1)) 0 d = owns (c : Thread nD τ) (slot aM 11 64 inb_S15x128x1024_S1x64x1024_11_64_0) fullShare (recvV X true 1 11 c) := rfl
theorem expect_rscw_r_11_1 (c : Dev nD) : (Rd (F := F) X).expect (dcell c (qR cc0_scratch3 11 1 inb_S15x2_S1x1_11_1)) 0 = N := by
  unfold Schedule.expect Schedule.amountOf; rw [duties_rscw_r_11_1, Finset.sum_singleton]; rfl
theorem duties_rscw_r_12_0 (c : Dev nD) : (Rd (F := F) X).duties (dcell c (qR cc0_scratch3 12 0 inb_S15x2_S1x1_12_0)) 0 = {false} := rfl
theorem amount_rscw_r_12_0 (c : Dev nD) (d : Bool) : (Rd (F := F) X).amount (dcell c (qR cc0_scratch3 12 0 inb_S15x2_S1x1_12_0)) 0 d = N := rfl
theorem payload_rscw_r_12_0 (c : Dev nD) (d : Bool) : (Rd (F := F) X).payload (dcell c (qR cc0_scratch3 12 0 inb_S15x2_S1x1_12_0)) 0 d = owns (c : Thread nD τ) (slot aM 12 0 inb_S15x128x1024_S1x64x1024_12_0_0) fullShare (recvV X true 0 12 c) := rfl
theorem expect_rscw_r_12_0 (c : Dev nD) : (Rd (F := F) X).expect (dcell c (qR cc0_scratch3 12 0 inb_S15x2_S1x1_12_0)) 0 = N := by
  unfold Schedule.expect Schedule.amountOf; rw [duties_rscw_r_12_0, Finset.sum_singleton]; rfl
theorem duties_rscw_r_12_1 (c : Dev nD) : (Rd (F := F) X).duties (dcell c (qR cc0_scratch3 12 1 inb_S15x2_S1x1_12_1)) 0 = {false} := rfl
theorem amount_rscw_r_12_1 (c : Dev nD) (d : Bool) : (Rd (F := F) X).amount (dcell c (qR cc0_scratch3 12 1 inb_S15x2_S1x1_12_1)) 0 d = N := rfl
theorem payload_rscw_r_12_1 (c : Dev nD) (d : Bool) : (Rd (F := F) X).payload (dcell c (qR cc0_scratch3 12 1 inb_S15x2_S1x1_12_1)) 0 d = owns (c : Thread nD τ) (slot aM 12 64 inb_S15x128x1024_S1x64x1024_12_64_0) fullShare (recvV X true 1 12 c) := rfl
theorem expect_rscw_r_12_1 (c : Dev nD) : (Rd (F := F) X).expect (dcell c (qR cc0_scratch3 12 1 inb_S15x2_S1x1_12_1)) 0 = N := by
  unfold Schedule.expect Schedule.amountOf; rw [duties_rscw_r_12_1, Finset.sum_singleton]; rfl
theorem duties_rscw_r_13_0 (c : Dev nD) : (Rd (F := F) X).duties (dcell c (qR cc0_scratch3 13 0 inb_S15x2_S1x1_13_0)) 0 = {false} := rfl
theorem amount_rscw_r_13_0 (c : Dev nD) (d : Bool) : (Rd (F := F) X).amount (dcell c (qR cc0_scratch3 13 0 inb_S15x2_S1x1_13_0)) 0 d = N := rfl
theorem payload_rscw_r_13_0 (c : Dev nD) (d : Bool) : (Rd (F := F) X).payload (dcell c (qR cc0_scratch3 13 0 inb_S15x2_S1x1_13_0)) 0 d = owns (c : Thread nD τ) (slot aM 13 0 inb_S15x128x1024_S1x64x1024_13_0_0) fullShare (recvV X true 0 13 c) := rfl
theorem expect_rscw_r_13_0 (c : Dev nD) : (Rd (F := F) X).expect (dcell c (qR cc0_scratch3 13 0 inb_S15x2_S1x1_13_0)) 0 = N := by
  unfold Schedule.expect Schedule.amountOf; rw [duties_rscw_r_13_0, Finset.sum_singleton]; rfl
theorem duties_rscw_r_13_1 (c : Dev nD) : (Rd (F := F) X).duties (dcell c (qR cc0_scratch3 13 1 inb_S15x2_S1x1_13_1)) 0 = {false} := rfl
theorem amount_rscw_r_13_1 (c : Dev nD) (d : Bool) : (Rd (F := F) X).amount (dcell c (qR cc0_scratch3 13 1 inb_S15x2_S1x1_13_1)) 0 d = N := rfl
theorem payload_rscw_r_13_1 (c : Dev nD) (d : Bool) : (Rd (F := F) X).payload (dcell c (qR cc0_scratch3 13 1 inb_S15x2_S1x1_13_1)) 0 d = owns (c : Thread nD τ) (slot aM 13 64 inb_S15x128x1024_S1x64x1024_13_64_0) fullShare (recvV X true 1 13 c) := rfl
theorem expect_rscw_r_13_1 (c : Dev nD) : (Rd (F := F) X).expect (dcell c (qR cc0_scratch3 13 1 inb_S15x2_S1x1_13_1)) 0 = N := by
  unfold Schedule.expect Schedule.amountOf; rw [duties_rscw_r_13_1, Finset.sum_singleton]; rfl
theorem duties_rscw_r_14_0 (c : Dev nD) : (Rd (F := F) X).duties (dcell c (qR cc0_scratch3 14 0 inb_S15x2_S1x1_14_0)) 0 = {false} := rfl
theorem amount_rscw_r_14_0 (c : Dev nD) (d : Bool) : (Rd (F := F) X).amount (dcell c (qR cc0_scratch3 14 0 inb_S15x2_S1x1_14_0)) 0 d = N := rfl
theorem payload_rscw_r_14_0 (c : Dev nD) (d : Bool) : (Rd (F := F) X).payload (dcell c (qR cc0_scratch3 14 0 inb_S15x2_S1x1_14_0)) 0 d = owns (c : Thread nD τ) (slot aM 14 0 inb_S15x128x1024_S1x64x1024_14_0_0) fullShare (recvV X true 0 14 c) := rfl
theorem expect_rscw_r_14_0 (c : Dev nD) : (Rd (F := F) X).expect (dcell c (qR cc0_scratch3 14 0 inb_S15x2_S1x1_14_0)) 0 = N := by
  unfold Schedule.expect Schedule.amountOf; rw [duties_rscw_r_14_0, Finset.sum_singleton]; rfl
theorem duties_rscw_r_14_1 (c : Dev nD) : (Rd (F := F) X).duties (dcell c (qR cc0_scratch3 14 1 inb_S15x2_S1x1_14_1)) 0 = {false} := rfl
theorem amount_rscw_r_14_1 (c : Dev nD) (d : Bool) : (Rd (F := F) X).amount (dcell c (qR cc0_scratch3 14 1 inb_S15x2_S1x1_14_1)) 0 d = N := rfl
theorem payload_rscw_r_14_1 (c : Dev nD) (d : Bool) : (Rd (F := F) X).payload (dcell c (qR cc0_scratch3 14 1 inb_S15x2_S1x1_14_1)) 0 d = owns (c : Thread nD τ) (slot aM 14 64 inb_S15x128x1024_S1x64x1024_14_64_0) fullShare (recvV X true 1 14 c) := rfl
theorem expect_rscw_r_14_1 (c : Dev nD) : (Rd (F := F) X).expect (dcell c (qR cc0_scratch3 14 1 inb_S15x2_S1x1_14_1)) 0 = N := by
  unfold Schedule.expect Schedule.amountOf; rw [duties_rscw_r_14_1, Finset.sum_singleton]; rfl
theorem duties_rscw_s_0_0 (c : Dev nD) : (Rd (F := F) X).duties (dcell c (qS cc0_scratch2 0 inb_S4_S1_0)) 0 = {false} := rfl
theorem amount_rscw_s_0_0 (c : Dev nD) (d : Bool) : (Rd (F := F) X).amount (dcell c (qS cc0_scratch2 0 inb_S4_S1_0)) 0 d = N := rfl
theorem payload_rscw_s_0_0 (c : Dev nD) (d : Bool) : (Rd (F := F) X).payload (dcell c (qS cc0_scratch2 0 inb_S4_S1_0)) 0 d = iprop((rows xM (off true (c.val + 15) 0) (off_inb true _ 0)).view.loc (c : Thread nD τ) ↦[(rows xM (off true (c.val + 15) 0) (off_inb true _ 0)).view.set]{fullShare.right} X c) := rfl
theorem expect_rscw_s_0_0 (c : Dev nD) : (Rd (F := F) X).expect (dcell c (qS cc0_scratch2 0 inb_S4_S1_0)) 0 = N := by
  unfold Schedule.expect Schedule.amountOf; rw [duties_rscw_s_0_0, Finset.sum_singleton]; rfl
theorem duties_rscw_s_0_1 (c : Dev nD) : (Rd (F := F) X).duties (dcell c (qS cc0_scratch2 0 inb_S4_S1_0)) 1 = {false} := rfl
theorem amount_rscw_s_0_1 (c : Dev nD) (d : Bool) : (Rd (F := F) X).amount (dcell c (qS cc0_scratch2 0 inb_S4_S1_0)) 1 d = N := rfl
theorem payload_rscw_s_0_1 (c : Dev nD) (d : Bool) : (Rd (F := F) X).payload (dcell c (qS cc0_scratch2 0 inb_S4_S1_0)) 1 d = owns (c : Thread nD τ) (slot aM 1 0 inb_S15x128x1024_S1x64x1024_1_0_0) fullShare (addV X true 0 1 c) := rfl
theorem expect_rscw_s_0_1 (c : Dev nD) : (Rd (F := F) X).expect (dcell c (qS cc0_scratch2 0 inb_S4_S1_0)) 1 = N := by
  unfold Schedule.expect Schedule.amountOf; rw [duties_rscw_s_0_1, Finset.sum_singleton]; rfl
theorem duties_rscw_s_0_2 (c : Dev nD) : (Rd (F := F) X).duties (dcell c (qS cc0_scratch2 0 inb_S4_S1_0)) 2 = {false} := rfl
theorem amount_rscw_s_0_2 (c : Dev nD) (d : Bool) : (Rd (F := F) X).amount (dcell c (qS cc0_scratch2 0 inb_S4_S1_0)) 2 d = N := rfl
theorem payload_rscw_s_0_2 (c : Dev nD) (d : Bool) : (Rd (F := F) X).payload (dcell c (qS cc0_scratch2 0 inb_S4_S1_0)) 2 d = owns (c : Thread nD τ) (slot aM 3 0 inb_S15x128x1024_S1x64x1024_3_0_0) fullShare (addV X true 0 3 c) := rfl
theorem expect_rscw_s_0_2 (c : Dev nD) : (Rd (F := F) X).expect (dcell c (qS cc0_scratch2 0 inb_S4_S1_0)) 2 = N := by
  unfold Schedule.expect Schedule.amountOf; rw [duties_rscw_s_0_2, Finset.sum_singleton]; rfl
theorem duties_rscw_s_0_3 (c : Dev nD) : (Rd (F := F) X).duties (dcell c (qS cc0_scratch2 0 inb_S4_S1_0)) 3 = {false} := rfl
theorem amount_rscw_s_0_3 (c : Dev nD) (d : Bool) : (Rd (F := F) X).amount (dcell c (qS cc0_scratch2 0 inb_S4_S1_0)) 3 d = N := rfl
theorem payload_rscw_s_0_3 (c : Dev nD) (d : Bool) : (Rd (F := F) X).payload (dcell c (qS cc0_scratch2 0 inb_S4_S1_0)) 3 d = owns (c : Thread nD τ) (slot aM 5 0 inb_S15x128x1024_S1x64x1024_5_0_0) fullShare (addV X true 0 5 c) := rfl
theorem expect_rscw_s_0_3 (c : Dev nD) : (Rd (F := F) X).expect (dcell c (qS cc0_scratch2 0 inb_S4_S1_0)) 3 = N := by
  unfold Schedule.expect Schedule.amountOf; rw [duties_rscw_s_0_3, Finset.sum_singleton]; rfl
theorem duties_rscw_s_0_4 (c : Dev nD) : (Rd (F := F) X).duties (dcell c (qS cc0_scratch2 0 inb_S4_S1_0)) 4 = {false} := rfl
theorem amount_rscw_s_0_4 (c : Dev nD) (d : Bool) : (Rd (F := F) X).amount (dcell c (qS cc0_scratch2 0 inb_S4_S1_0)) 4 d = N := rfl
theorem payload_rscw_s_0_4 (c : Dev nD) (d : Bool) : (Rd (F := F) X).payload (dcell c (qS cc0_scratch2 0 inb_S4_S1_0)) 4 d = owns (c : Thread nD τ) (slot aM 7 0 inb_S15x128x1024_S1x64x1024_7_0_0) fullShare (addV X true 0 7 c) := rfl
theorem expect_rscw_s_0_4 (c : Dev nD) : (Rd (F := F) X).expect (dcell c (qS cc0_scratch2 0 inb_S4_S1_0)) 4 = N := by
  unfold Schedule.expect Schedule.amountOf; rw [duties_rscw_s_0_4, Finset.sum_singleton]; rfl
theorem duties_rscw_s_0_5 (c : Dev nD) : (Rd (F := F) X).duties (dcell c (qS cc0_scratch2 0 inb_S4_S1_0)) 5 = {false} := rfl
theorem amount_rscw_s_0_5 (c : Dev nD) (d : Bool) : (Rd (F := F) X).amount (dcell c (qS cc0_scratch2 0 inb_S4_S1_0)) 5 d = N := rfl
theorem payload_rscw_s_0_5 (c : Dev nD) (d : Bool) : (Rd (F := F) X).payload (dcell c (qS cc0_scratch2 0 inb_S4_S1_0)) 5 d = owns (c : Thread nD τ) (slot aM 9 0 inb_S15x128x1024_S1x64x1024_9_0_0) fullShare (addV X true 0 9 c) := rfl
theorem expect_rscw_s_0_5 (c : Dev nD) : (Rd (F := F) X).expect (dcell c (qS cc0_scratch2 0 inb_S4_S1_0)) 5 = N := by
  unfold Schedule.expect Schedule.amountOf; rw [duties_rscw_s_0_5, Finset.sum_singleton]; rfl
theorem duties_rscw_s_0_6 (c : Dev nD) : (Rd (F := F) X).duties (dcell c (qS cc0_scratch2 0 inb_S4_S1_0)) 6 = {false} := rfl
theorem amount_rscw_s_0_6 (c : Dev nD) (d : Bool) : (Rd (F := F) X).amount (dcell c (qS cc0_scratch2 0 inb_S4_S1_0)) 6 d = N := rfl
theorem payload_rscw_s_0_6 (c : Dev nD) (d : Bool) : (Rd (F := F) X).payload (dcell c (qS cc0_scratch2 0 inb_S4_S1_0)) 6 d = owns (c : Thread nD τ) (slot aM 11 0 inb_S15x128x1024_S1x64x1024_11_0_0) fullShare (addV X true 0 11 c) := rfl
theorem expect_rscw_s_0_6 (c : Dev nD) : (Rd (F := F) X).expect (dcell c (qS cc0_scratch2 0 inb_S4_S1_0)) 6 = N := by
  unfold Schedule.expect Schedule.amountOf; rw [duties_rscw_s_0_6, Finset.sum_singleton]; rfl
theorem duties_rscw_s_0_7 (c : Dev nD) : (Rd (F := F) X).duties (dcell c (qS cc0_scratch2 0 inb_S4_S1_0)) 7 = {false} := rfl
theorem amount_rscw_s_0_7 (c : Dev nD) (d : Bool) : (Rd (F := F) X).amount (dcell c (qS cc0_scratch2 0 inb_S4_S1_0)) 7 d = N := rfl
theorem payload_rscw_s_0_7 (c : Dev nD) (d : Bool) : (Rd (F := F) X).payload (dcell c (qS cc0_scratch2 0 inb_S4_S1_0)) 7 d = owns (c : Thread nD τ) (slot aM 13 0 inb_S15x128x1024_S1x64x1024_13_0_0) fullShare (addV X true 0 13 c) := rfl
theorem expect_rscw_s_0_7 (c : Dev nD) : (Rd (F := F) X).expect (dcell c (qS cc0_scratch2 0 inb_S4_S1_0)) 7 = N := by
  unfold Schedule.expect Schedule.amountOf; rw [duties_rscw_s_0_7, Finset.sum_singleton]; rfl
theorem later_rscw_s_0 (c : Dev nD) : ∀ r, 8 ≤ r → (Rd (F := F) X).duties (dcell c (qS cc0_scratch2 0 inb_S4_S1_0)) r = ∅ := fun r hr => by
  show (if r < 8 then ({false} : Finset Bool) else ∅) = ∅; exact if_neg (by omega)
theorem duties_rscw_s_1_0 (c : Dev nD) : (Rd (F := F) X).duties (dcell c (qS cc0_scratch2 1 inb_S4_S1_1)) 0 = {false} := rfl
theorem amount_rscw_s_1_0 (c : Dev nD) (d : Bool) : (Rd (F := F) X).amount (dcell c (qS cc0_scratch2 1 inb_S4_S1_1)) 0 d = N := rfl
theorem payload_rscw_s_1_0 (c : Dev nD) (d : Bool) : (Rd (F := F) X).payload (dcell c (qS cc0_scratch2 1 inb_S4_S1_1)) 0 d = iprop((rows xM (off true (c.val + 15) 1) (off_inb true _ 1)).view.loc (c : Thread nD τ) ↦[(rows xM (off true (c.val + 15) 1) (off_inb true _ 1)).view.set]{fullShare.right} X c) := rfl
theorem expect_rscw_s_1_0 (c : Dev nD) : (Rd (F := F) X).expect (dcell c (qS cc0_scratch2 1 inb_S4_S1_1)) 0 = N := by
  unfold Schedule.expect Schedule.amountOf; rw [duties_rscw_s_1_0, Finset.sum_singleton]; rfl
theorem duties_rscw_s_1_1 (c : Dev nD) : (Rd (F := F) X).duties (dcell c (qS cc0_scratch2 1 inb_S4_S1_1)) 1 = {false} := rfl
theorem amount_rscw_s_1_1 (c : Dev nD) (d : Bool) : (Rd (F := F) X).amount (dcell c (qS cc0_scratch2 1 inb_S4_S1_1)) 1 d = N := rfl
theorem payload_rscw_s_1_1 (c : Dev nD) (d : Bool) : (Rd (F := F) X).payload (dcell c (qS cc0_scratch2 1 inb_S4_S1_1)) 1 d = owns (c : Thread nD τ) (slot aM 1 64 inb_S15x128x1024_S1x64x1024_1_64_0) fullShare (addV X true 1 1 c) := rfl
theorem expect_rscw_s_1_1 (c : Dev nD) : (Rd (F := F) X).expect (dcell c (qS cc0_scratch2 1 inb_S4_S1_1)) 1 = N := by
  unfold Schedule.expect Schedule.amountOf; rw [duties_rscw_s_1_1, Finset.sum_singleton]; rfl
theorem duties_rscw_s_1_2 (c : Dev nD) : (Rd (F := F) X).duties (dcell c (qS cc0_scratch2 1 inb_S4_S1_1)) 2 = {false} := rfl
theorem amount_rscw_s_1_2 (c : Dev nD) (d : Bool) : (Rd (F := F) X).amount (dcell c (qS cc0_scratch2 1 inb_S4_S1_1)) 2 d = N := rfl
theorem payload_rscw_s_1_2 (c : Dev nD) (d : Bool) : (Rd (F := F) X).payload (dcell c (qS cc0_scratch2 1 inb_S4_S1_1)) 2 d = owns (c : Thread nD τ) (slot aM 3 64 inb_S15x128x1024_S1x64x1024_3_64_0) fullShare (addV X true 1 3 c) := rfl
theorem expect_rscw_s_1_2 (c : Dev nD) : (Rd (F := F) X).expect (dcell c (qS cc0_scratch2 1 inb_S4_S1_1)) 2 = N := by
  unfold Schedule.expect Schedule.amountOf; rw [duties_rscw_s_1_2, Finset.sum_singleton]; rfl
theorem duties_rscw_s_1_3 (c : Dev nD) : (Rd (F := F) X).duties (dcell c (qS cc0_scratch2 1 inb_S4_S1_1)) 3 = {false} := rfl
theorem amount_rscw_s_1_3 (c : Dev nD) (d : Bool) : (Rd (F := F) X).amount (dcell c (qS cc0_scratch2 1 inb_S4_S1_1)) 3 d = N := rfl
theorem payload_rscw_s_1_3 (c : Dev nD) (d : Bool) : (Rd (F := F) X).payload (dcell c (qS cc0_scratch2 1 inb_S4_S1_1)) 3 d = owns (c : Thread nD τ) (slot aM 5 64 inb_S15x128x1024_S1x64x1024_5_64_0) fullShare (addV X true 1 5 c) := rfl
theorem expect_rscw_s_1_3 (c : Dev nD) : (Rd (F := F) X).expect (dcell c (qS cc0_scratch2 1 inb_S4_S1_1)) 3 = N := by
  unfold Schedule.expect Schedule.amountOf; rw [duties_rscw_s_1_3, Finset.sum_singleton]; rfl
theorem duties_rscw_s_1_4 (c : Dev nD) : (Rd (F := F) X).duties (dcell c (qS cc0_scratch2 1 inb_S4_S1_1)) 4 = {false} := rfl
theorem amount_rscw_s_1_4 (c : Dev nD) (d : Bool) : (Rd (F := F) X).amount (dcell c (qS cc0_scratch2 1 inb_S4_S1_1)) 4 d = N := rfl
theorem payload_rscw_s_1_4 (c : Dev nD) (d : Bool) : (Rd (F := F) X).payload (dcell c (qS cc0_scratch2 1 inb_S4_S1_1)) 4 d = owns (c : Thread nD τ) (slot aM 7 64 inb_S15x128x1024_S1x64x1024_7_64_0) fullShare (addV X true 1 7 c) := rfl
theorem expect_rscw_s_1_4 (c : Dev nD) : (Rd (F := F) X).expect (dcell c (qS cc0_scratch2 1 inb_S4_S1_1)) 4 = N := by
  unfold Schedule.expect Schedule.amountOf; rw [duties_rscw_s_1_4, Finset.sum_singleton]; rfl
theorem duties_rscw_s_1_5 (c : Dev nD) : (Rd (F := F) X).duties (dcell c (qS cc0_scratch2 1 inb_S4_S1_1)) 5 = {false} := rfl
theorem amount_rscw_s_1_5 (c : Dev nD) (d : Bool) : (Rd (F := F) X).amount (dcell c (qS cc0_scratch2 1 inb_S4_S1_1)) 5 d = N := rfl
theorem payload_rscw_s_1_5 (c : Dev nD) (d : Bool) : (Rd (F := F) X).payload (dcell c (qS cc0_scratch2 1 inb_S4_S1_1)) 5 d = owns (c : Thread nD τ) (slot aM 9 64 inb_S15x128x1024_S1x64x1024_9_64_0) fullShare (addV X true 1 9 c) := rfl
theorem expect_rscw_s_1_5 (c : Dev nD) : (Rd (F := F) X).expect (dcell c (qS cc0_scratch2 1 inb_S4_S1_1)) 5 = N := by
  unfold Schedule.expect Schedule.amountOf; rw [duties_rscw_s_1_5, Finset.sum_singleton]; rfl
theorem duties_rscw_s_1_6 (c : Dev nD) : (Rd (F := F) X).duties (dcell c (qS cc0_scratch2 1 inb_S4_S1_1)) 6 = {false} := rfl
theorem amount_rscw_s_1_6 (c : Dev nD) (d : Bool) : (Rd (F := F) X).amount (dcell c (qS cc0_scratch2 1 inb_S4_S1_1)) 6 d = N := rfl
theorem payload_rscw_s_1_6 (c : Dev nD) (d : Bool) : (Rd (F := F) X).payload (dcell c (qS cc0_scratch2 1 inb_S4_S1_1)) 6 d = owns (c : Thread nD τ) (slot aM 11 64 inb_S15x128x1024_S1x64x1024_11_64_0) fullShare (addV X true 1 11 c) := rfl
theorem expect_rscw_s_1_6 (c : Dev nD) : (Rd (F := F) X).expect (dcell c (qS cc0_scratch2 1 inb_S4_S1_1)) 6 = N := by
  unfold Schedule.expect Schedule.amountOf; rw [duties_rscw_s_1_6, Finset.sum_singleton]; rfl
theorem duties_rscw_s_1_7 (c : Dev nD) : (Rd (F := F) X).duties (dcell c (qS cc0_scratch2 1 inb_S4_S1_1)) 7 = {false} := rfl
theorem amount_rscw_s_1_7 (c : Dev nD) (d : Bool) : (Rd (F := F) X).amount (dcell c (qS cc0_scratch2 1 inb_S4_S1_1)) 7 d = N := rfl
theorem payload_rscw_s_1_7 (c : Dev nD) (d : Bool) : (Rd (F := F) X).payload (dcell c (qS cc0_scratch2 1 inb_S4_S1_1)) 7 d = owns (c : Thread nD τ) (slot aM 13 64 inb_S15x128x1024_S1x64x1024_13_64_0) fullShare (addV X true 1 13 c) := rfl
theorem expect_rscw_s_1_7 (c : Dev nD) : (Rd (F := F) X).expect (dcell c (qS cc0_scratch2 1 inb_S4_S1_1)) 7 = N := by
  unfold Schedule.expect Schedule.amountOf; rw [duties_rscw_s_1_7, Finset.sum_singleton]; rfl
theorem later_rscw_s_1 (c : Dev nD) : ∀ r, 8 ≤ r → (Rd (F := F) X).duties (dcell c (qS cc0_scratch2 1 inb_S4_S1_1)) r = ∅ := fun r hr => by
  show (if r < 8 then ({false} : Finset Bool) else ∅) = ∅; exact if_neg (by omega)
theorem duties_rscw_s_2_0 (c : Dev nD) : (Rd (F := F) X).duties (dcell c (qS cc0_scratch2 2 inb_S4_S1_2)) 0 = {false} := rfl
theorem amount_rscw_s_2_0 (c : Dev nD) (d : Bool) : (Rd (F := F) X).amount (dcell c (qS cc0_scratch2 2 inb_S4_S1_2)) 0 d = N := rfl
theorem payload_rscw_s_2_0 (c : Dev nD) (d : Bool) : (Rd (F := F) X).payload (dcell c (qS cc0_scratch2 2 inb_S4_S1_2)) 0 d = owns (c : Thread nD τ) (slot aM 0 0 inb_S15x128x1024_S1x64x1024_0_0_0) fullShare (addV X true 0 0 c) := rfl
theorem expect_rscw_s_2_0 (c : Dev nD) : (Rd (F := F) X).expect (dcell c (qS cc0_scratch2 2 inb_S4_S1_2)) 0 = N := by
  unfold Schedule.expect Schedule.amountOf; rw [duties_rscw_s_2_0, Finset.sum_singleton]; rfl
theorem duties_rscw_s_2_1 (c : Dev nD) : (Rd (F := F) X).duties (dcell c (qS cc0_scratch2 2 inb_S4_S1_2)) 1 = {false} := rfl
theorem amount_rscw_s_2_1 (c : Dev nD) (d : Bool) : (Rd (F := F) X).amount (dcell c (qS cc0_scratch2 2 inb_S4_S1_2)) 1 d = N := rfl
theorem payload_rscw_s_2_1 (c : Dev nD) (d : Bool) : (Rd (F := F) X).payload (dcell c (qS cc0_scratch2 2 inb_S4_S1_2)) 1 d = owns (c : Thread nD τ) (slot aM 2 0 inb_S15x128x1024_S1x64x1024_2_0_0) fullShare (addV X true 0 2 c) := rfl
theorem expect_rscw_s_2_1 (c : Dev nD) : (Rd (F := F) X).expect (dcell c (qS cc0_scratch2 2 inb_S4_S1_2)) 1 = N := by
  unfold Schedule.expect Schedule.amountOf; rw [duties_rscw_s_2_1, Finset.sum_singleton]; rfl
theorem duties_rscw_s_2_2 (c : Dev nD) : (Rd (F := F) X).duties (dcell c (qS cc0_scratch2 2 inb_S4_S1_2)) 2 = {false} := rfl
theorem amount_rscw_s_2_2 (c : Dev nD) (d : Bool) : (Rd (F := F) X).amount (dcell c (qS cc0_scratch2 2 inb_S4_S1_2)) 2 d = N := rfl
theorem payload_rscw_s_2_2 (c : Dev nD) (d : Bool) : (Rd (F := F) X).payload (dcell c (qS cc0_scratch2 2 inb_S4_S1_2)) 2 d = owns (c : Thread nD τ) (slot aM 4 0 inb_S15x128x1024_S1x64x1024_4_0_0) fullShare (addV X true 0 4 c) := rfl
theorem expect_rscw_s_2_2 (c : Dev nD) : (Rd (F := F) X).expect (dcell c (qS cc0_scratch2 2 inb_S4_S1_2)) 2 = N := by
  unfold Schedule.expect Schedule.amountOf; rw [duties_rscw_s_2_2, Finset.sum_singleton]; rfl
theorem duties_rscw_s_2_3 (c : Dev nD) : (Rd (F := F) X).duties (dcell c (qS cc0_scratch2 2 inb_S4_S1_2)) 3 = {false} := rfl
theorem amount_rscw_s_2_3 (c : Dev nD) (d : Bool) : (Rd (F := F) X).amount (dcell c (qS cc0_scratch2 2 inb_S4_S1_2)) 3 d = N := rfl
theorem payload_rscw_s_2_3 (c : Dev nD) (d : Bool) : (Rd (F := F) X).payload (dcell c (qS cc0_scratch2 2 inb_S4_S1_2)) 3 d = owns (c : Thread nD τ) (slot aM 6 0 inb_S15x128x1024_S1x64x1024_6_0_0) fullShare (addV X true 0 6 c) := rfl
theorem expect_rscw_s_2_3 (c : Dev nD) : (Rd (F := F) X).expect (dcell c (qS cc0_scratch2 2 inb_S4_S1_2)) 3 = N := by
  unfold Schedule.expect Schedule.amountOf; rw [duties_rscw_s_2_3, Finset.sum_singleton]; rfl
theorem duties_rscw_s_2_4 (c : Dev nD) : (Rd (F := F) X).duties (dcell c (qS cc0_scratch2 2 inb_S4_S1_2)) 4 = {false} := rfl
theorem amount_rscw_s_2_4 (c : Dev nD) (d : Bool) : (Rd (F := F) X).amount (dcell c (qS cc0_scratch2 2 inb_S4_S1_2)) 4 d = N := rfl
theorem payload_rscw_s_2_4 (c : Dev nD) (d : Bool) : (Rd (F := F) X).payload (dcell c (qS cc0_scratch2 2 inb_S4_S1_2)) 4 d = owns (c : Thread nD τ) (slot aM 8 0 inb_S15x128x1024_S1x64x1024_8_0_0) fullShare (addV X true 0 8 c) := rfl
theorem expect_rscw_s_2_4 (c : Dev nD) : (Rd (F := F) X).expect (dcell c (qS cc0_scratch2 2 inb_S4_S1_2)) 4 = N := by
  unfold Schedule.expect Schedule.amountOf; rw [duties_rscw_s_2_4, Finset.sum_singleton]; rfl
theorem duties_rscw_s_2_5 (c : Dev nD) : (Rd (F := F) X).duties (dcell c (qS cc0_scratch2 2 inb_S4_S1_2)) 5 = {false} := rfl
theorem amount_rscw_s_2_5 (c : Dev nD) (d : Bool) : (Rd (F := F) X).amount (dcell c (qS cc0_scratch2 2 inb_S4_S1_2)) 5 d = N := rfl
theorem payload_rscw_s_2_5 (c : Dev nD) (d : Bool) : (Rd (F := F) X).payload (dcell c (qS cc0_scratch2 2 inb_S4_S1_2)) 5 d = owns (c : Thread nD τ) (slot aM 10 0 inb_S15x128x1024_S1x64x1024_10_0_0) fullShare (addV X true 0 10 c) := rfl
theorem expect_rscw_s_2_5 (c : Dev nD) : (Rd (F := F) X).expect (dcell c (qS cc0_scratch2 2 inb_S4_S1_2)) 5 = N := by
  unfold Schedule.expect Schedule.amountOf; rw [duties_rscw_s_2_5, Finset.sum_singleton]; rfl
theorem duties_rscw_s_2_6 (c : Dev nD) : (Rd (F := F) X).duties (dcell c (qS cc0_scratch2 2 inb_S4_S1_2)) 6 = {false} := rfl
theorem amount_rscw_s_2_6 (c : Dev nD) (d : Bool) : (Rd (F := F) X).amount (dcell c (qS cc0_scratch2 2 inb_S4_S1_2)) 6 d = N := rfl
theorem payload_rscw_s_2_6 (c : Dev nD) (d : Bool) : (Rd (F := F) X).payload (dcell c (qS cc0_scratch2 2 inb_S4_S1_2)) 6 d = owns (c : Thread nD τ) (slot aM 12 0 inb_S15x128x1024_S1x64x1024_12_0_0) fullShare (addV X true 0 12 c) := rfl
theorem expect_rscw_s_2_6 (c : Dev nD) : (Rd (F := F) X).expect (dcell c (qS cc0_scratch2 2 inb_S4_S1_2)) 6 = N := by
  unfold Schedule.expect Schedule.amountOf; rw [duties_rscw_s_2_6, Finset.sum_singleton]; rfl
theorem later_rscw_s_2 (c : Dev nD) : ∀ r, 7 ≤ r → (Rd (F := F) X).duties (dcell c (qS cc0_scratch2 2 inb_S4_S1_2)) r = ∅ := fun r hr => by
  show (if r < 7 then ({false} : Finset Bool) else ∅) = ∅; exact if_neg (by omega)
theorem duties_rscw_s_3_0 (c : Dev nD) : (Rd (F := F) X).duties (dcell c (qS cc0_scratch2 3 inb_S4_S1_3)) 0 = {false} := rfl
theorem amount_rscw_s_3_0 (c : Dev nD) (d : Bool) : (Rd (F := F) X).amount (dcell c (qS cc0_scratch2 3 inb_S4_S1_3)) 0 d = N := rfl
theorem payload_rscw_s_3_0 (c : Dev nD) (d : Bool) : (Rd (F := F) X).payload (dcell c (qS cc0_scratch2 3 inb_S4_S1_3)) 0 d = owns (c : Thread nD τ) (slot aM 0 64 inb_S15x128x1024_S1x64x1024_0_64_0) fullShare (addV X true 1 0 c) := rfl
theorem expect_rscw_s_3_0 (c : Dev nD) : (Rd (F := F) X).expect (dcell c (qS cc0_scratch2 3 inb_S4_S1_3)) 0 = N := by
  unfold Schedule.expect Schedule.amountOf; rw [duties_rscw_s_3_0, Finset.sum_singleton]; rfl
theorem duties_rscw_s_3_1 (c : Dev nD) : (Rd (F := F) X).duties (dcell c (qS cc0_scratch2 3 inb_S4_S1_3)) 1 = {false} := rfl
theorem amount_rscw_s_3_1 (c : Dev nD) (d : Bool) : (Rd (F := F) X).amount (dcell c (qS cc0_scratch2 3 inb_S4_S1_3)) 1 d = N := rfl
theorem payload_rscw_s_3_1 (c : Dev nD) (d : Bool) : (Rd (F := F) X).payload (dcell c (qS cc0_scratch2 3 inb_S4_S1_3)) 1 d = owns (c : Thread nD τ) (slot aM 2 64 inb_S15x128x1024_S1x64x1024_2_64_0) fullShare (addV X true 1 2 c) := rfl
theorem expect_rscw_s_3_1 (c : Dev nD) : (Rd (F := F) X).expect (dcell c (qS cc0_scratch2 3 inb_S4_S1_3)) 1 = N := by
  unfold Schedule.expect Schedule.amountOf; rw [duties_rscw_s_3_1, Finset.sum_singleton]; rfl
theorem duties_rscw_s_3_2 (c : Dev nD) : (Rd (F := F) X).duties (dcell c (qS cc0_scratch2 3 inb_S4_S1_3)) 2 = {false} := rfl
theorem amount_rscw_s_3_2 (c : Dev nD) (d : Bool) : (Rd (F := F) X).amount (dcell c (qS cc0_scratch2 3 inb_S4_S1_3)) 2 d = N := rfl
theorem payload_rscw_s_3_2 (c : Dev nD) (d : Bool) : (Rd (F := F) X).payload (dcell c (qS cc0_scratch2 3 inb_S4_S1_3)) 2 d = owns (c : Thread nD τ) (slot aM 4 64 inb_S15x128x1024_S1x64x1024_4_64_0) fullShare (addV X true 1 4 c) := rfl
theorem expect_rscw_s_3_2 (c : Dev nD) : (Rd (F := F) X).expect (dcell c (qS cc0_scratch2 3 inb_S4_S1_3)) 2 = N := by
  unfold Schedule.expect Schedule.amountOf; rw [duties_rscw_s_3_2, Finset.sum_singleton]; rfl
theorem duties_rscw_s_3_3 (c : Dev nD) : (Rd (F := F) X).duties (dcell c (qS cc0_scratch2 3 inb_S4_S1_3)) 3 = {false} := rfl
theorem amount_rscw_s_3_3 (c : Dev nD) (d : Bool) : (Rd (F := F) X).amount (dcell c (qS cc0_scratch2 3 inb_S4_S1_3)) 3 d = N := rfl
theorem payload_rscw_s_3_3 (c : Dev nD) (d : Bool) : (Rd (F := F) X).payload (dcell c (qS cc0_scratch2 3 inb_S4_S1_3)) 3 d = owns (c : Thread nD τ) (slot aM 6 64 inb_S15x128x1024_S1x64x1024_6_64_0) fullShare (addV X true 1 6 c) := rfl
theorem expect_rscw_s_3_3 (c : Dev nD) : (Rd (F := F) X).expect (dcell c (qS cc0_scratch2 3 inb_S4_S1_3)) 3 = N := by
  unfold Schedule.expect Schedule.amountOf; rw [duties_rscw_s_3_3, Finset.sum_singleton]; rfl
theorem duties_rscw_s_3_4 (c : Dev nD) : (Rd (F := F) X).duties (dcell c (qS cc0_scratch2 3 inb_S4_S1_3)) 4 = {false} := rfl
theorem amount_rscw_s_3_4 (c : Dev nD) (d : Bool) : (Rd (F := F) X).amount (dcell c (qS cc0_scratch2 3 inb_S4_S1_3)) 4 d = N := rfl
theorem payload_rscw_s_3_4 (c : Dev nD) (d : Bool) : (Rd (F := F) X).payload (dcell c (qS cc0_scratch2 3 inb_S4_S1_3)) 4 d = owns (c : Thread nD τ) (slot aM 8 64 inb_S15x128x1024_S1x64x1024_8_64_0) fullShare (addV X true 1 8 c) := rfl
theorem expect_rscw_s_3_4 (c : Dev nD) : (Rd (F := F) X).expect (dcell c (qS cc0_scratch2 3 inb_S4_S1_3)) 4 = N := by
  unfold Schedule.expect Schedule.amountOf; rw [duties_rscw_s_3_4, Finset.sum_singleton]; rfl
theorem duties_rscw_s_3_5 (c : Dev nD) : (Rd (F := F) X).duties (dcell c (qS cc0_scratch2 3 inb_S4_S1_3)) 5 = {false} := rfl
theorem amount_rscw_s_3_5 (c : Dev nD) (d : Bool) : (Rd (F := F) X).amount (dcell c (qS cc0_scratch2 3 inb_S4_S1_3)) 5 d = N := rfl
theorem payload_rscw_s_3_5 (c : Dev nD) (d : Bool) : (Rd (F := F) X).payload (dcell c (qS cc0_scratch2 3 inb_S4_S1_3)) 5 d = owns (c : Thread nD τ) (slot aM 10 64 inb_S15x128x1024_S1x64x1024_10_64_0) fullShare (addV X true 1 10 c) := rfl
theorem expect_rscw_s_3_5 (c : Dev nD) : (Rd (F := F) X).expect (dcell c (qS cc0_scratch2 3 inb_S4_S1_3)) 5 = N := by
  unfold Schedule.expect Schedule.amountOf; rw [duties_rscw_s_3_5, Finset.sum_singleton]; rfl
theorem duties_rscw_s_3_6 (c : Dev nD) : (Rd (F := F) X).duties (dcell c (qS cc0_scratch2 3 inb_S4_S1_3)) 6 = {false} := rfl
theorem amount_rscw_s_3_6 (c : Dev nD) (d : Bool) : (Rd (F := F) X).amount (dcell c (qS cc0_scratch2 3 inb_S4_S1_3)) 6 d = N := rfl
theorem payload_rscw_s_3_6 (c : Dev nD) (d : Bool) : (Rd (F := F) X).payload (dcell c (qS cc0_scratch2 3 inb_S4_S1_3)) 6 d = owns (c : Thread nD τ) (slot aM 12 64 inb_S15x128x1024_S1x64x1024_12_64_0) fullShare (addV X true 1 12 c) := rfl
theorem expect_rscw_s_3_6 (c : Dev nD) : (Rd (F := F) X).expect (dcell c (qS cc0_scratch2 3 inb_S4_S1_3)) 6 = N := by
  unfold Schedule.expect Schedule.amountOf; rw [duties_rscw_s_3_6, Finset.sum_singleton]; rfl
theorem later_rscw_s_3 (c : Dev nD) : ∀ r, 7 ≤ r → (Rd (F := F) X).duties (dcell c (qS cc0_scratch2 3 inb_S4_S1_3)) r = ∅ := fun r hr => by
  show (if r < 7 then ({false} : Finset Bool) else ∅) = ∅; exact if_neg (by omega)
theorem later_rscw_r_0_0 (c : Dev nD) : ∀ r, 1 ≤ r → (Rd (F := F) X).duties (dcell c (qR cc0_scratch3 0 0 inb_S15x2_S1x1_0_0)) r = ∅ := fun r hr => by
  show (if r = 0 then ({false} : Finset Bool) else ∅) = ∅; exact if_neg (by omega)
theorem later_rscw_r_0_1 (c : Dev nD) : ∀ r, 1 ≤ r → (Rd (F := F) X).duties (dcell c (qR cc0_scratch3 0 1 inb_S15x2_S1x1_0_1)) r = ∅ := fun r hr => by
  show (if r = 0 then ({false} : Finset Bool) else ∅) = ∅; exact if_neg (by omega)
theorem later_rscw_r_1_0 (c : Dev nD) : ∀ r, 1 ≤ r → (Rd (F := F) X).duties (dcell c (qR cc0_scratch3 1 0 inb_S15x2_S1x1_1_0)) r = ∅ := fun r hr => by
  show (if r = 0 then ({false} : Finset Bool) else ∅) = ∅; exact if_neg (by omega)
theorem later_rscw_r_1_1 (c : Dev nD) : ∀ r, 1 ≤ r → (Rd (F := F) X).duties (dcell c (qR cc0_scratch3 1 1 inb_S15x2_S1x1_1_1)) r = ∅ := fun r hr => by
  show (if r = 0 then ({false} : Finset Bool) else ∅) = ∅; exact if_neg (by omega)
theorem later_rscw_r_2_0 (c : Dev nD) : ∀ r, 1 ≤ r → (Rd (F := F) X).duties (dcell c (qR cc0_scratch3 2 0 inb_S15x2_S1x1_2_0)) r = ∅ := fun r hr => by
  show (if r = 0 then ({false} : Finset Bool) else ∅) = ∅; exact if_neg (by omega)
theorem later_rscw_r_2_1 (c : Dev nD) : ∀ r, 1 ≤ r → (Rd (F := F) X).duties (dcell c (qR cc0_scratch3 2 1 inb_S15x2_S1x1_2_1)) r = ∅ := fun r hr => by
  show (if r = 0 then ({false} : Finset Bool) else ∅) = ∅; exact if_neg (by omega)
theorem later_rscw_r_3_0 (c : Dev nD) : ∀ r, 1 ≤ r → (Rd (F := F) X).duties (dcell c (qR cc0_scratch3 3 0 inb_S15x2_S1x1_3_0)) r = ∅ := fun r hr => by
  show (if r = 0 then ({false} : Finset Bool) else ∅) = ∅; exact if_neg (by omega)
theorem later_rscw_r_3_1 (c : Dev nD) : ∀ r, 1 ≤ r → (Rd (F := F) X).duties (dcell c (qR cc0_scratch3 3 1 inb_S15x2_S1x1_3_1)) r = ∅ := fun r hr => by
  show (if r = 0 then ({false} : Finset Bool) else ∅) = ∅; exact if_neg (by omega)
theorem later_rscw_r_4_0 (c : Dev nD) : ∀ r, 1 ≤ r → (Rd (F := F) X).duties (dcell c (qR cc0_scratch3 4 0 inb_S15x2_S1x1_4_0)) r = ∅ := fun r hr => by
  show (if r = 0 then ({false} : Finset Bool) else ∅) = ∅; exact if_neg (by omega)
theorem later_rscw_r_4_1 (c : Dev nD) : ∀ r, 1 ≤ r → (Rd (F := F) X).duties (dcell c (qR cc0_scratch3 4 1 inb_S15x2_S1x1_4_1)) r = ∅ := fun r hr => by
  show (if r = 0 then ({false} : Finset Bool) else ∅) = ∅; exact if_neg (by omega)
theorem later_rscw_r_5_0 (c : Dev nD) : ∀ r, 1 ≤ r → (Rd (F := F) X).duties (dcell c (qR cc0_scratch3 5 0 inb_S15x2_S1x1_5_0)) r = ∅ := fun r hr => by
  show (if r = 0 then ({false} : Finset Bool) else ∅) = ∅; exact if_neg (by omega)
theorem later_rscw_r_5_1 (c : Dev nD) : ∀ r, 1 ≤ r → (Rd (F := F) X).duties (dcell c (qR cc0_scratch3 5 1 inb_S15x2_S1x1_5_1)) r = ∅ := fun r hr => by
  show (if r = 0 then ({false} : Finset Bool) else ∅) = ∅; exact if_neg (by omega)
theorem later_rscw_r_6_0 (c : Dev nD) : ∀ r, 1 ≤ r → (Rd (F := F) X).duties (dcell c (qR cc0_scratch3 6 0 inb_S15x2_S1x1_6_0)) r = ∅ := fun r hr => by
  show (if r = 0 then ({false} : Finset Bool) else ∅) = ∅; exact if_neg (by omega)
theorem later_rscw_r_6_1 (c : Dev nD) : ∀ r, 1 ≤ r → (Rd (F := F) X).duties (dcell c (qR cc0_scratch3 6 1 inb_S15x2_S1x1_6_1)) r = ∅ := fun r hr => by
  show (if r = 0 then ({false} : Finset Bool) else ∅) = ∅; exact if_neg (by omega)
theorem later_rscw_r_7_0 (c : Dev nD) : ∀ r, 1 ≤ r → (Rd (F := F) X).duties (dcell c (qR cc0_scratch3 7 0 inb_S15x2_S1x1_7_0)) r = ∅ := fun r hr => by
  show (if r = 0 then ({false} : Finset Bool) else ∅) = ∅; exact if_neg (by omega)
theorem later_rscw_r_7_1 (c : Dev nD) : ∀ r, 1 ≤ r → (Rd (F := F) X).duties (dcell c (qR cc0_scratch3 7 1 inb_S15x2_S1x1_7_1)) r = ∅ := fun r hr => by
  show (if r = 0 then ({false} : Finset Bool) else ∅) = ∅; exact if_neg (by omega)
theorem later_rscw_r_8_0 (c : Dev nD) : ∀ r, 1 ≤ r → (Rd (F := F) X).duties (dcell c (qR cc0_scratch3 8 0 inb_S15x2_S1x1_8_0)) r = ∅ := fun r hr => by
  show (if r = 0 then ({false} : Finset Bool) else ∅) = ∅; exact if_neg (by omega)
theorem later_rscw_r_8_1 (c : Dev nD) : ∀ r, 1 ≤ r → (Rd (F := F) X).duties (dcell c (qR cc0_scratch3 8 1 inb_S15x2_S1x1_8_1)) r = ∅ := fun r hr => by
  show (if r = 0 then ({false} : Finset Bool) else ∅) = ∅; exact if_neg (by omega)
theorem later_rscw_r_9_0 (c : Dev nD) : ∀ r, 1 ≤ r → (Rd (F := F) X).duties (dcell c (qR cc0_scratch3 9 0 inb_S15x2_S1x1_9_0)) r = ∅ := fun r hr => by
  show (if r = 0 then ({false} : Finset Bool) else ∅) = ∅; exact if_neg (by omega)
theorem later_rscw_r_9_1 (c : Dev nD) : ∀ r, 1 ≤ r → (Rd (F := F) X).duties (dcell c (qR cc0_scratch3 9 1 inb_S15x2_S1x1_9_1)) r = ∅ := fun r hr => by
  show (if r = 0 then ({false} : Finset Bool) else ∅) = ∅; exact if_neg (by omega)
theorem later_rscw_r_10_0 (c : Dev nD) : ∀ r, 1 ≤ r → (Rd (F := F) X).duties (dcell c (qR cc0_scratch3 10 0 inb_S15x2_S1x1_10_0)) r = ∅ := fun r hr => by
  show (if r = 0 then ({false} : Finset Bool) else ∅) = ∅; exact if_neg (by omega)
theorem later_rscw_r_10_1 (c : Dev nD) : ∀ r, 1 ≤ r → (Rd (F := F) X).duties (dcell c (qR cc0_scratch3 10 1 inb_S15x2_S1x1_10_1)) r = ∅ := fun r hr => by
  show (if r = 0 then ({false} : Finset Bool) else ∅) = ∅; exact if_neg (by omega)
theorem later_rscw_r_11_0 (c : Dev nD) : ∀ r, 1 ≤ r → (Rd (F := F) X).duties (dcell c (qR cc0_scratch3 11 0 inb_S15x2_S1x1_11_0)) r = ∅ := fun r hr => by
  show (if r = 0 then ({false} : Finset Bool) else ∅) = ∅; exact if_neg (by omega)
theorem later_rscw_r_11_1 (c : Dev nD) : ∀ r, 1 ≤ r → (Rd (F := F) X).duties (dcell c (qR cc0_scratch3 11 1 inb_S15x2_S1x1_11_1)) r = ∅ := fun r hr => by
  show (if r = 0 then ({false} : Finset Bool) else ∅) = ∅; exact if_neg (by omega)
theorem later_rscw_r_12_0 (c : Dev nD) : ∀ r, 1 ≤ r → (Rd (F := F) X).duties (dcell c (qR cc0_scratch3 12 0 inb_S15x2_S1x1_12_0)) r = ∅ := fun r hr => by
  show (if r = 0 then ({false} : Finset Bool) else ∅) = ∅; exact if_neg (by omega)
theorem later_rscw_r_12_1 (c : Dev nD) : ∀ r, 1 ≤ r → (Rd (F := F) X).duties (dcell c (qR cc0_scratch3 12 1 inb_S15x2_S1x1_12_1)) r = ∅ := fun r hr => by
  show (if r = 0 then ({false} : Finset Bool) else ∅) = ∅; exact if_neg (by omega)
theorem later_rscw_r_13_0 (c : Dev nD) : ∀ r, 1 ≤ r → (Rd (F := F) X).duties (dcell c (qR cc0_scratch3 13 0 inb_S15x2_S1x1_13_0)) r = ∅ := fun r hr => by
  show (if r = 0 then ({false} : Finset Bool) else ∅) = ∅; exact if_neg (by omega)
theorem later_rscw_r_13_1 (c : Dev nD) : ∀ r, 1 ≤ r → (Rd (F := F) X).duties (dcell c (qR cc0_scratch3 13 1 inb_S15x2_S1x1_13_1)) r = ∅ := fun r hr => by
  show (if r = 0 then ({false} : Finset Bool) else ∅) = ∅; exact if_neg (by omega)
theorem later_rscw_r_14_0 (c : Dev nD) : ∀ r, 1 ≤ r → (Rd (F := F) X).duties (dcell c (qR cc0_scratch3 14 0 inb_S15x2_S1x1_14_0)) r = ∅ := fun r hr => by
  show (if r = 0 then ({false} : Finset Bool) else ∅) = ∅; exact if_neg (by omega)
theorem later_rscw_r_14_1 (c : Dev nD) : ∀ r, 1 ≤ r → (Rd (F := F) X).duties (dcell c (qR cc0_scratch3 14 1 inb_S15x2_S1x1_14_1)) r = ∅ := fun r hr => by
  show (if r = 0 then ({false} : Finset Bool) else ∅) = ∅; exact if_neg (by omega)
theorem duties_rsccw_r_0_0 (c : Dev nD) : (Rd (F := F) X).duties (dcell c (qR cc0_scratch5 0 0 inb_S15x2_S1x1_0_0)) 0 = {false} := rfl
theorem amount_rsccw_r_0_0 (c : Dev nD) (d : Bool) : (Rd (F := F) X).amount (dcell c (qR cc0_scratch5 0 0 inb_S15x2_S1x1_0_0)) 0 d = N := rfl
theorem payload_rsccw_r_0_0 (c : Dev nD) (d : Bool) : (Rd (F := F) X).payload (dcell c (qR cc0_scratch5 0 0 inb_S15x2_S1x1_0_0)) 0 d = owns (c : Thread nD τ) (slot bM 0 0 inb_S15x128x1024_S1x64x1024_0_0_0) fullShare (recvV X false 0 0 c) := rfl
theorem expect_rsccw_r_0_0 (c : Dev nD) : (Rd (F := F) X).expect (dcell c (qR cc0_scratch5 0 0 inb_S15x2_S1x1_0_0)) 0 = N := by
  unfold Schedule.expect Schedule.amountOf; rw [duties_rsccw_r_0_0, Finset.sum_singleton]; rfl
theorem duties_rsccw_r_0_1 (c : Dev nD) : (Rd (F := F) X).duties (dcell c (qR cc0_scratch5 0 1 inb_S15x2_S1x1_0_1)) 0 = {false} := rfl
theorem amount_rsccw_r_0_1 (c : Dev nD) (d : Bool) : (Rd (F := F) X).amount (dcell c (qR cc0_scratch5 0 1 inb_S15x2_S1x1_0_1)) 0 d = N := rfl
theorem payload_rsccw_r_0_1 (c : Dev nD) (d : Bool) : (Rd (F := F) X).payload (dcell c (qR cc0_scratch5 0 1 inb_S15x2_S1x1_0_1)) 0 d = owns (c : Thread nD τ) (slot bM 0 64 inb_S15x128x1024_S1x64x1024_0_64_0) fullShare (recvV X false 1 0 c) := rfl
theorem expect_rsccw_r_0_1 (c : Dev nD) : (Rd (F := F) X).expect (dcell c (qR cc0_scratch5 0 1 inb_S15x2_S1x1_0_1)) 0 = N := by
  unfold Schedule.expect Schedule.amountOf; rw [duties_rsccw_r_0_1, Finset.sum_singleton]; rfl
theorem duties_rsccw_r_1_0 (c : Dev nD) : (Rd (F := F) X).duties (dcell c (qR cc0_scratch5 1 0 inb_S15x2_S1x1_1_0)) 0 = {false} := rfl
theorem amount_rsccw_r_1_0 (c : Dev nD) (d : Bool) : (Rd (F := F) X).amount (dcell c (qR cc0_scratch5 1 0 inb_S15x2_S1x1_1_0)) 0 d = N := rfl
theorem payload_rsccw_r_1_0 (c : Dev nD) (d : Bool) : (Rd (F := F) X).payload (dcell c (qR cc0_scratch5 1 0 inb_S15x2_S1x1_1_0)) 0 d = owns (c : Thread nD τ) (slot bM 1 0 inb_S15x128x1024_S1x64x1024_1_0_0) fullShare (recvV X false 0 1 c) := rfl
theorem expect_rsccw_r_1_0 (c : Dev nD) : (Rd (F := F) X).expect (dcell c (qR cc0_scratch5 1 0 inb_S15x2_S1x1_1_0)) 0 = N := by
  unfold Schedule.expect Schedule.amountOf; rw [duties_rsccw_r_1_0, Finset.sum_singleton]; rfl
theorem duties_rsccw_r_1_1 (c : Dev nD) : (Rd (F := F) X).duties (dcell c (qR cc0_scratch5 1 1 inb_S15x2_S1x1_1_1)) 0 = {false} := rfl
theorem amount_rsccw_r_1_1 (c : Dev nD) (d : Bool) : (Rd (F := F) X).amount (dcell c (qR cc0_scratch5 1 1 inb_S15x2_S1x1_1_1)) 0 d = N := rfl
theorem payload_rsccw_r_1_1 (c : Dev nD) (d : Bool) : (Rd (F := F) X).payload (dcell c (qR cc0_scratch5 1 1 inb_S15x2_S1x1_1_1)) 0 d = owns (c : Thread nD τ) (slot bM 1 64 inb_S15x128x1024_S1x64x1024_1_64_0) fullShare (recvV X false 1 1 c) := rfl
theorem expect_rsccw_r_1_1 (c : Dev nD) : (Rd (F := F) X).expect (dcell c (qR cc0_scratch5 1 1 inb_S15x2_S1x1_1_1)) 0 = N := by
  unfold Schedule.expect Schedule.amountOf; rw [duties_rsccw_r_1_1, Finset.sum_singleton]; rfl
theorem duties_rsccw_r_2_0 (c : Dev nD) : (Rd (F := F) X).duties (dcell c (qR cc0_scratch5 2 0 inb_S15x2_S1x1_2_0)) 0 = {false} := rfl
theorem amount_rsccw_r_2_0 (c : Dev nD) (d : Bool) : (Rd (F := F) X).amount (dcell c (qR cc0_scratch5 2 0 inb_S15x2_S1x1_2_0)) 0 d = N := rfl
theorem payload_rsccw_r_2_0 (c : Dev nD) (d : Bool) : (Rd (F := F) X).payload (dcell c (qR cc0_scratch5 2 0 inb_S15x2_S1x1_2_0)) 0 d = owns (c : Thread nD τ) (slot bM 2 0 inb_S15x128x1024_S1x64x1024_2_0_0) fullShare (recvV X false 0 2 c) := rfl
theorem expect_rsccw_r_2_0 (c : Dev nD) : (Rd (F := F) X).expect (dcell c (qR cc0_scratch5 2 0 inb_S15x2_S1x1_2_0)) 0 = N := by
  unfold Schedule.expect Schedule.amountOf; rw [duties_rsccw_r_2_0, Finset.sum_singleton]; rfl
theorem duties_rsccw_r_2_1 (c : Dev nD) : (Rd (F := F) X).duties (dcell c (qR cc0_scratch5 2 1 inb_S15x2_S1x1_2_1)) 0 = {false} := rfl
theorem amount_rsccw_r_2_1 (c : Dev nD) (d : Bool) : (Rd (F := F) X).amount (dcell c (qR cc0_scratch5 2 1 inb_S15x2_S1x1_2_1)) 0 d = N := rfl
theorem payload_rsccw_r_2_1 (c : Dev nD) (d : Bool) : (Rd (F := F) X).payload (dcell c (qR cc0_scratch5 2 1 inb_S15x2_S1x1_2_1)) 0 d = owns (c : Thread nD τ) (slot bM 2 64 inb_S15x128x1024_S1x64x1024_2_64_0) fullShare (recvV X false 1 2 c) := rfl
theorem expect_rsccw_r_2_1 (c : Dev nD) : (Rd (F := F) X).expect (dcell c (qR cc0_scratch5 2 1 inb_S15x2_S1x1_2_1)) 0 = N := by
  unfold Schedule.expect Schedule.amountOf; rw [duties_rsccw_r_2_1, Finset.sum_singleton]; rfl
theorem duties_rsccw_r_3_0 (c : Dev nD) : (Rd (F := F) X).duties (dcell c (qR cc0_scratch5 3 0 inb_S15x2_S1x1_3_0)) 0 = {false} := rfl
theorem amount_rsccw_r_3_0 (c : Dev nD) (d : Bool) : (Rd (F := F) X).amount (dcell c (qR cc0_scratch5 3 0 inb_S15x2_S1x1_3_0)) 0 d = N := rfl
theorem payload_rsccw_r_3_0 (c : Dev nD) (d : Bool) : (Rd (F := F) X).payload (dcell c (qR cc0_scratch5 3 0 inb_S15x2_S1x1_3_0)) 0 d = owns (c : Thread nD τ) (slot bM 3 0 inb_S15x128x1024_S1x64x1024_3_0_0) fullShare (recvV X false 0 3 c) := rfl
theorem expect_rsccw_r_3_0 (c : Dev nD) : (Rd (F := F) X).expect (dcell c (qR cc0_scratch5 3 0 inb_S15x2_S1x1_3_0)) 0 = N := by
  unfold Schedule.expect Schedule.amountOf; rw [duties_rsccw_r_3_0, Finset.sum_singleton]; rfl
theorem duties_rsccw_r_3_1 (c : Dev nD) : (Rd (F := F) X).duties (dcell c (qR cc0_scratch5 3 1 inb_S15x2_S1x1_3_1)) 0 = {false} := rfl
theorem amount_rsccw_r_3_1 (c : Dev nD) (d : Bool) : (Rd (F := F) X).amount (dcell c (qR cc0_scratch5 3 1 inb_S15x2_S1x1_3_1)) 0 d = N := rfl
theorem payload_rsccw_r_3_1 (c : Dev nD) (d : Bool) : (Rd (F := F) X).payload (dcell c (qR cc0_scratch5 3 1 inb_S15x2_S1x1_3_1)) 0 d = owns (c : Thread nD τ) (slot bM 3 64 inb_S15x128x1024_S1x64x1024_3_64_0) fullShare (recvV X false 1 3 c) := rfl
theorem expect_rsccw_r_3_1 (c : Dev nD) : (Rd (F := F) X).expect (dcell c (qR cc0_scratch5 3 1 inb_S15x2_S1x1_3_1)) 0 = N := by
  unfold Schedule.expect Schedule.amountOf; rw [duties_rsccw_r_3_1, Finset.sum_singleton]; rfl
theorem duties_rsccw_r_4_0 (c : Dev nD) : (Rd (F := F) X).duties (dcell c (qR cc0_scratch5 4 0 inb_S15x2_S1x1_4_0)) 0 = {false} := rfl
theorem amount_rsccw_r_4_0 (c : Dev nD) (d : Bool) : (Rd (F := F) X).amount (dcell c (qR cc0_scratch5 4 0 inb_S15x2_S1x1_4_0)) 0 d = N := rfl
theorem payload_rsccw_r_4_0 (c : Dev nD) (d : Bool) : (Rd (F := F) X).payload (dcell c (qR cc0_scratch5 4 0 inb_S15x2_S1x1_4_0)) 0 d = owns (c : Thread nD τ) (slot bM 4 0 inb_S15x128x1024_S1x64x1024_4_0_0) fullShare (recvV X false 0 4 c) := rfl
theorem expect_rsccw_r_4_0 (c : Dev nD) : (Rd (F := F) X).expect (dcell c (qR cc0_scratch5 4 0 inb_S15x2_S1x1_4_0)) 0 = N := by
  unfold Schedule.expect Schedule.amountOf; rw [duties_rsccw_r_4_0, Finset.sum_singleton]; rfl
theorem duties_rsccw_r_4_1 (c : Dev nD) : (Rd (F := F) X).duties (dcell c (qR cc0_scratch5 4 1 inb_S15x2_S1x1_4_1)) 0 = {false} := rfl
theorem amount_rsccw_r_4_1 (c : Dev nD) (d : Bool) : (Rd (F := F) X).amount (dcell c (qR cc0_scratch5 4 1 inb_S15x2_S1x1_4_1)) 0 d = N := rfl
theorem payload_rsccw_r_4_1 (c : Dev nD) (d : Bool) : (Rd (F := F) X).payload (dcell c (qR cc0_scratch5 4 1 inb_S15x2_S1x1_4_1)) 0 d = owns (c : Thread nD τ) (slot bM 4 64 inb_S15x128x1024_S1x64x1024_4_64_0) fullShare (recvV X false 1 4 c) := rfl
theorem expect_rsccw_r_4_1 (c : Dev nD) : (Rd (F := F) X).expect (dcell c (qR cc0_scratch5 4 1 inb_S15x2_S1x1_4_1)) 0 = N := by
  unfold Schedule.expect Schedule.amountOf; rw [duties_rsccw_r_4_1, Finset.sum_singleton]; rfl
theorem duties_rsccw_r_5_0 (c : Dev nD) : (Rd (F := F) X).duties (dcell c (qR cc0_scratch5 5 0 inb_S15x2_S1x1_5_0)) 0 = {false} := rfl
theorem amount_rsccw_r_5_0 (c : Dev nD) (d : Bool) : (Rd (F := F) X).amount (dcell c (qR cc0_scratch5 5 0 inb_S15x2_S1x1_5_0)) 0 d = N := rfl
theorem payload_rsccw_r_5_0 (c : Dev nD) (d : Bool) : (Rd (F := F) X).payload (dcell c (qR cc0_scratch5 5 0 inb_S15x2_S1x1_5_0)) 0 d = owns (c : Thread nD τ) (slot bM 5 0 inb_S15x128x1024_S1x64x1024_5_0_0) fullShare (recvV X false 0 5 c) := rfl
theorem expect_rsccw_r_5_0 (c : Dev nD) : (Rd (F := F) X).expect (dcell c (qR cc0_scratch5 5 0 inb_S15x2_S1x1_5_0)) 0 = N := by
  unfold Schedule.expect Schedule.amountOf; rw [duties_rsccw_r_5_0, Finset.sum_singleton]; rfl
theorem duties_rsccw_r_5_1 (c : Dev nD) : (Rd (F := F) X).duties (dcell c (qR cc0_scratch5 5 1 inb_S15x2_S1x1_5_1)) 0 = {false} := rfl
theorem amount_rsccw_r_5_1 (c : Dev nD) (d : Bool) : (Rd (F := F) X).amount (dcell c (qR cc0_scratch5 5 1 inb_S15x2_S1x1_5_1)) 0 d = N := rfl
theorem payload_rsccw_r_5_1 (c : Dev nD) (d : Bool) : (Rd (F := F) X).payload (dcell c (qR cc0_scratch5 5 1 inb_S15x2_S1x1_5_1)) 0 d = owns (c : Thread nD τ) (slot bM 5 64 inb_S15x128x1024_S1x64x1024_5_64_0) fullShare (recvV X false 1 5 c) := rfl
theorem expect_rsccw_r_5_1 (c : Dev nD) : (Rd (F := F) X).expect (dcell c (qR cc0_scratch5 5 1 inb_S15x2_S1x1_5_1)) 0 = N := by
  unfold Schedule.expect Schedule.amountOf; rw [duties_rsccw_r_5_1, Finset.sum_singleton]; rfl
theorem duties_rsccw_r_6_0 (c : Dev nD) : (Rd (F := F) X).duties (dcell c (qR cc0_scratch5 6 0 inb_S15x2_S1x1_6_0)) 0 = {false} := rfl
theorem amount_rsccw_r_6_0 (c : Dev nD) (d : Bool) : (Rd (F := F) X).amount (dcell c (qR cc0_scratch5 6 0 inb_S15x2_S1x1_6_0)) 0 d = N := rfl
theorem payload_rsccw_r_6_0 (c : Dev nD) (d : Bool) : (Rd (F := F) X).payload (dcell c (qR cc0_scratch5 6 0 inb_S15x2_S1x1_6_0)) 0 d = owns (c : Thread nD τ) (slot bM 6 0 inb_S15x128x1024_S1x64x1024_6_0_0) fullShare (recvV X false 0 6 c) := rfl
theorem expect_rsccw_r_6_0 (c : Dev nD) : (Rd (F := F) X).expect (dcell c (qR cc0_scratch5 6 0 inb_S15x2_S1x1_6_0)) 0 = N := by
  unfold Schedule.expect Schedule.amountOf; rw [duties_rsccw_r_6_0, Finset.sum_singleton]; rfl
theorem duties_rsccw_r_6_1 (c : Dev nD) : (Rd (F := F) X).duties (dcell c (qR cc0_scratch5 6 1 inb_S15x2_S1x1_6_1)) 0 = {false} := rfl
theorem amount_rsccw_r_6_1 (c : Dev nD) (d : Bool) : (Rd (F := F) X).amount (dcell c (qR cc0_scratch5 6 1 inb_S15x2_S1x1_6_1)) 0 d = N := rfl
theorem payload_rsccw_r_6_1 (c : Dev nD) (d : Bool) : (Rd (F := F) X).payload (dcell c (qR cc0_scratch5 6 1 inb_S15x2_S1x1_6_1)) 0 d = owns (c : Thread nD τ) (slot bM 6 64 inb_S15x128x1024_S1x64x1024_6_64_0) fullShare (recvV X false 1 6 c) := rfl
theorem expect_rsccw_r_6_1 (c : Dev nD) : (Rd (F := F) X).expect (dcell c (qR cc0_scratch5 6 1 inb_S15x2_S1x1_6_1)) 0 = N := by
  unfold Schedule.expect Schedule.amountOf; rw [duties_rsccw_r_6_1, Finset.sum_singleton]; rfl
theorem duties_rsccw_r_7_0 (c : Dev nD) : (Rd (F := F) X).duties (dcell c (qR cc0_scratch5 7 0 inb_S15x2_S1x1_7_0)) 0 = {false} := rfl
theorem amount_rsccw_r_7_0 (c : Dev nD) (d : Bool) : (Rd (F := F) X).amount (dcell c (qR cc0_scratch5 7 0 inb_S15x2_S1x1_7_0)) 0 d = N := rfl
theorem payload_rsccw_r_7_0 (c : Dev nD) (d : Bool) : (Rd (F := F) X).payload (dcell c (qR cc0_scratch5 7 0 inb_S15x2_S1x1_7_0)) 0 d = owns (c : Thread nD τ) (slot bM 7 0 inb_S15x128x1024_S1x64x1024_7_0_0) fullShare (recvV X false 0 7 c) := rfl
theorem expect_rsccw_r_7_0 (c : Dev nD) : (Rd (F := F) X).expect (dcell c (qR cc0_scratch5 7 0 inb_S15x2_S1x1_7_0)) 0 = N := by
  unfold Schedule.expect Schedule.amountOf; rw [duties_rsccw_r_7_0, Finset.sum_singleton]; rfl
theorem duties_rsccw_r_7_1 (c : Dev nD) : (Rd (F := F) X).duties (dcell c (qR cc0_scratch5 7 1 inb_S15x2_S1x1_7_1)) 0 = {false} := rfl
theorem amount_rsccw_r_7_1 (c : Dev nD) (d : Bool) : (Rd (F := F) X).amount (dcell c (qR cc0_scratch5 7 1 inb_S15x2_S1x1_7_1)) 0 d = N := rfl
theorem payload_rsccw_r_7_1 (c : Dev nD) (d : Bool) : (Rd (F := F) X).payload (dcell c (qR cc0_scratch5 7 1 inb_S15x2_S1x1_7_1)) 0 d = owns (c : Thread nD τ) (slot bM 7 64 inb_S15x128x1024_S1x64x1024_7_64_0) fullShare (recvV X false 1 7 c) := rfl
theorem expect_rsccw_r_7_1 (c : Dev nD) : (Rd (F := F) X).expect (dcell c (qR cc0_scratch5 7 1 inb_S15x2_S1x1_7_1)) 0 = N := by
  unfold Schedule.expect Schedule.amountOf; rw [duties_rsccw_r_7_1, Finset.sum_singleton]; rfl
theorem duties_rsccw_r_8_0 (c : Dev nD) : (Rd (F := F) X).duties (dcell c (qR cc0_scratch5 8 0 inb_S15x2_S1x1_8_0)) 0 = {false} := rfl
theorem amount_rsccw_r_8_0 (c : Dev nD) (d : Bool) : (Rd (F := F) X).amount (dcell c (qR cc0_scratch5 8 0 inb_S15x2_S1x1_8_0)) 0 d = N := rfl
theorem payload_rsccw_r_8_0 (c : Dev nD) (d : Bool) : (Rd (F := F) X).payload (dcell c (qR cc0_scratch5 8 0 inb_S15x2_S1x1_8_0)) 0 d = owns (c : Thread nD τ) (slot bM 8 0 inb_S15x128x1024_S1x64x1024_8_0_0) fullShare (recvV X false 0 8 c) := rfl
theorem expect_rsccw_r_8_0 (c : Dev nD) : (Rd (F := F) X).expect (dcell c (qR cc0_scratch5 8 0 inb_S15x2_S1x1_8_0)) 0 = N := by
  unfold Schedule.expect Schedule.amountOf; rw [duties_rsccw_r_8_0, Finset.sum_singleton]; rfl
theorem duties_rsccw_r_8_1 (c : Dev nD) : (Rd (F := F) X).duties (dcell c (qR cc0_scratch5 8 1 inb_S15x2_S1x1_8_1)) 0 = {false} := rfl
theorem amount_rsccw_r_8_1 (c : Dev nD) (d : Bool) : (Rd (F := F) X).amount (dcell c (qR cc0_scratch5 8 1 inb_S15x2_S1x1_8_1)) 0 d = N := rfl
theorem payload_rsccw_r_8_1 (c : Dev nD) (d : Bool) : (Rd (F := F) X).payload (dcell c (qR cc0_scratch5 8 1 inb_S15x2_S1x1_8_1)) 0 d = owns (c : Thread nD τ) (slot bM 8 64 inb_S15x128x1024_S1x64x1024_8_64_0) fullShare (recvV X false 1 8 c) := rfl
theorem expect_rsccw_r_8_1 (c : Dev nD) : (Rd (F := F) X).expect (dcell c (qR cc0_scratch5 8 1 inb_S15x2_S1x1_8_1)) 0 = N := by
  unfold Schedule.expect Schedule.amountOf; rw [duties_rsccw_r_8_1, Finset.sum_singleton]; rfl
theorem duties_rsccw_r_9_0 (c : Dev nD) : (Rd (F := F) X).duties (dcell c (qR cc0_scratch5 9 0 inb_S15x2_S1x1_9_0)) 0 = {false} := rfl
theorem amount_rsccw_r_9_0 (c : Dev nD) (d : Bool) : (Rd (F := F) X).amount (dcell c (qR cc0_scratch5 9 0 inb_S15x2_S1x1_9_0)) 0 d = N := rfl
theorem payload_rsccw_r_9_0 (c : Dev nD) (d : Bool) : (Rd (F := F) X).payload (dcell c (qR cc0_scratch5 9 0 inb_S15x2_S1x1_9_0)) 0 d = owns (c : Thread nD τ) (slot bM 9 0 inb_S15x128x1024_S1x64x1024_9_0_0) fullShare (recvV X false 0 9 c) := rfl
theorem expect_rsccw_r_9_0 (c : Dev nD) : (Rd (F := F) X).expect (dcell c (qR cc0_scratch5 9 0 inb_S15x2_S1x1_9_0)) 0 = N := by
  unfold Schedule.expect Schedule.amountOf; rw [duties_rsccw_r_9_0, Finset.sum_singleton]; rfl
theorem duties_rsccw_r_9_1 (c : Dev nD) : (Rd (F := F) X).duties (dcell c (qR cc0_scratch5 9 1 inb_S15x2_S1x1_9_1)) 0 = {false} := rfl
theorem amount_rsccw_r_9_1 (c : Dev nD) (d : Bool) : (Rd (F := F) X).amount (dcell c (qR cc0_scratch5 9 1 inb_S15x2_S1x1_9_1)) 0 d = N := rfl
theorem payload_rsccw_r_9_1 (c : Dev nD) (d : Bool) : (Rd (F := F) X).payload (dcell c (qR cc0_scratch5 9 1 inb_S15x2_S1x1_9_1)) 0 d = owns (c : Thread nD τ) (slot bM 9 64 inb_S15x128x1024_S1x64x1024_9_64_0) fullShare (recvV X false 1 9 c) := rfl
theorem expect_rsccw_r_9_1 (c : Dev nD) : (Rd (F := F) X).expect (dcell c (qR cc0_scratch5 9 1 inb_S15x2_S1x1_9_1)) 0 = N := by
  unfold Schedule.expect Schedule.amountOf; rw [duties_rsccw_r_9_1, Finset.sum_singleton]; rfl
theorem duties_rsccw_r_10_0 (c : Dev nD) : (Rd (F := F) X).duties (dcell c (qR cc0_scratch5 10 0 inb_S15x2_S1x1_10_0)) 0 = {false} := rfl
theorem amount_rsccw_r_10_0 (c : Dev nD) (d : Bool) : (Rd (F := F) X).amount (dcell c (qR cc0_scratch5 10 0 inb_S15x2_S1x1_10_0)) 0 d = N := rfl
theorem payload_rsccw_r_10_0 (c : Dev nD) (d : Bool) : (Rd (F := F) X).payload (dcell c (qR cc0_scratch5 10 0 inb_S15x2_S1x1_10_0)) 0 d = owns (c : Thread nD τ) (slot bM 10 0 inb_S15x128x1024_S1x64x1024_10_0_0) fullShare (recvV X false 0 10 c) := rfl
theorem expect_rsccw_r_10_0 (c : Dev nD) : (Rd (F := F) X).expect (dcell c (qR cc0_scratch5 10 0 inb_S15x2_S1x1_10_0)) 0 = N := by
  unfold Schedule.expect Schedule.amountOf; rw [duties_rsccw_r_10_0, Finset.sum_singleton]; rfl
theorem duties_rsccw_r_10_1 (c : Dev nD) : (Rd (F := F) X).duties (dcell c (qR cc0_scratch5 10 1 inb_S15x2_S1x1_10_1)) 0 = {false} := rfl
theorem amount_rsccw_r_10_1 (c : Dev nD) (d : Bool) : (Rd (F := F) X).amount (dcell c (qR cc0_scratch5 10 1 inb_S15x2_S1x1_10_1)) 0 d = N := rfl
theorem payload_rsccw_r_10_1 (c : Dev nD) (d : Bool) : (Rd (F := F) X).payload (dcell c (qR cc0_scratch5 10 1 inb_S15x2_S1x1_10_1)) 0 d = owns (c : Thread nD τ) (slot bM 10 64 inb_S15x128x1024_S1x64x1024_10_64_0) fullShare (recvV X false 1 10 c) := rfl
theorem expect_rsccw_r_10_1 (c : Dev nD) : (Rd (F := F) X).expect (dcell c (qR cc0_scratch5 10 1 inb_S15x2_S1x1_10_1)) 0 = N := by
  unfold Schedule.expect Schedule.amountOf; rw [duties_rsccw_r_10_1, Finset.sum_singleton]; rfl
theorem duties_rsccw_r_11_0 (c : Dev nD) : (Rd (F := F) X).duties (dcell c (qR cc0_scratch5 11 0 inb_S15x2_S1x1_11_0)) 0 = {false} := rfl
theorem amount_rsccw_r_11_0 (c : Dev nD) (d : Bool) : (Rd (F := F) X).amount (dcell c (qR cc0_scratch5 11 0 inb_S15x2_S1x1_11_0)) 0 d = N := rfl
theorem payload_rsccw_r_11_0 (c : Dev nD) (d : Bool) : (Rd (F := F) X).payload (dcell c (qR cc0_scratch5 11 0 inb_S15x2_S1x1_11_0)) 0 d = owns (c : Thread nD τ) (slot bM 11 0 inb_S15x128x1024_S1x64x1024_11_0_0) fullShare (recvV X false 0 11 c) := rfl
theorem expect_rsccw_r_11_0 (c : Dev nD) : (Rd (F := F) X).expect (dcell c (qR cc0_scratch5 11 0 inb_S15x2_S1x1_11_0)) 0 = N := by
  unfold Schedule.expect Schedule.amountOf; rw [duties_rsccw_r_11_0, Finset.sum_singleton]; rfl
theorem duties_rsccw_r_11_1 (c : Dev nD) : (Rd (F := F) X).duties (dcell c (qR cc0_scratch5 11 1 inb_S15x2_S1x1_11_1)) 0 = {false} := rfl
theorem amount_rsccw_r_11_1 (c : Dev nD) (d : Bool) : (Rd (F := F) X).amount (dcell c (qR cc0_scratch5 11 1 inb_S15x2_S1x1_11_1)) 0 d = N := rfl
theorem payload_rsccw_r_11_1 (c : Dev nD) (d : Bool) : (Rd (F := F) X).payload (dcell c (qR cc0_scratch5 11 1 inb_S15x2_S1x1_11_1)) 0 d = owns (c : Thread nD τ) (slot bM 11 64 inb_S15x128x1024_S1x64x1024_11_64_0) fullShare (recvV X false 1 11 c) := rfl
theorem expect_rsccw_r_11_1 (c : Dev nD) : (Rd (F := F) X).expect (dcell c (qR cc0_scratch5 11 1 inb_S15x2_S1x1_11_1)) 0 = N := by
  unfold Schedule.expect Schedule.amountOf; rw [duties_rsccw_r_11_1, Finset.sum_singleton]; rfl
theorem duties_rsccw_r_12_0 (c : Dev nD) : (Rd (F := F) X).duties (dcell c (qR cc0_scratch5 12 0 inb_S15x2_S1x1_12_0)) 0 = {false} := rfl
theorem amount_rsccw_r_12_0 (c : Dev nD) (d : Bool) : (Rd (F := F) X).amount (dcell c (qR cc0_scratch5 12 0 inb_S15x2_S1x1_12_0)) 0 d = N := rfl
theorem payload_rsccw_r_12_0 (c : Dev nD) (d : Bool) : (Rd (F := F) X).payload (dcell c (qR cc0_scratch5 12 0 inb_S15x2_S1x1_12_0)) 0 d = owns (c : Thread nD τ) (slot bM 12 0 inb_S15x128x1024_S1x64x1024_12_0_0) fullShare (recvV X false 0 12 c) := rfl
theorem expect_rsccw_r_12_0 (c : Dev nD) : (Rd (F := F) X).expect (dcell c (qR cc0_scratch5 12 0 inb_S15x2_S1x1_12_0)) 0 = N := by
  unfold Schedule.expect Schedule.amountOf; rw [duties_rsccw_r_12_0, Finset.sum_singleton]; rfl
theorem duties_rsccw_r_12_1 (c : Dev nD) : (Rd (F := F) X).duties (dcell c (qR cc0_scratch5 12 1 inb_S15x2_S1x1_12_1)) 0 = {false} := rfl
theorem amount_rsccw_r_12_1 (c : Dev nD) (d : Bool) : (Rd (F := F) X).amount (dcell c (qR cc0_scratch5 12 1 inb_S15x2_S1x1_12_1)) 0 d = N := rfl
theorem payload_rsccw_r_12_1 (c : Dev nD) (d : Bool) : (Rd (F := F) X).payload (dcell c (qR cc0_scratch5 12 1 inb_S15x2_S1x1_12_1)) 0 d = owns (c : Thread nD τ) (slot bM 12 64 inb_S15x128x1024_S1x64x1024_12_64_0) fullShare (recvV X false 1 12 c) := rfl
theorem expect_rsccw_r_12_1 (c : Dev nD) : (Rd (F := F) X).expect (dcell c (qR cc0_scratch5 12 1 inb_S15x2_S1x1_12_1)) 0 = N := by
  unfold Schedule.expect Schedule.amountOf; rw [duties_rsccw_r_12_1, Finset.sum_singleton]; rfl
theorem duties_rsccw_r_13_0 (c : Dev nD) : (Rd (F := F) X).duties (dcell c (qR cc0_scratch5 13 0 inb_S15x2_S1x1_13_0)) 0 = {false} := rfl
theorem amount_rsccw_r_13_0 (c : Dev nD) (d : Bool) : (Rd (F := F) X).amount (dcell c (qR cc0_scratch5 13 0 inb_S15x2_S1x1_13_0)) 0 d = N := rfl
theorem payload_rsccw_r_13_0 (c : Dev nD) (d : Bool) : (Rd (F := F) X).payload (dcell c (qR cc0_scratch5 13 0 inb_S15x2_S1x1_13_0)) 0 d = owns (c : Thread nD τ) (slot bM 13 0 inb_S15x128x1024_S1x64x1024_13_0_0) fullShare (recvV X false 0 13 c) := rfl
theorem expect_rsccw_r_13_0 (c : Dev nD) : (Rd (F := F) X).expect (dcell c (qR cc0_scratch5 13 0 inb_S15x2_S1x1_13_0)) 0 = N := by
  unfold Schedule.expect Schedule.amountOf; rw [duties_rsccw_r_13_0, Finset.sum_singleton]; rfl
theorem duties_rsccw_r_13_1 (c : Dev nD) : (Rd (F := F) X).duties (dcell c (qR cc0_scratch5 13 1 inb_S15x2_S1x1_13_1)) 0 = {false} := rfl
theorem amount_rsccw_r_13_1 (c : Dev nD) (d : Bool) : (Rd (F := F) X).amount (dcell c (qR cc0_scratch5 13 1 inb_S15x2_S1x1_13_1)) 0 d = N := rfl
theorem payload_rsccw_r_13_1 (c : Dev nD) (d : Bool) : (Rd (F := F) X).payload (dcell c (qR cc0_scratch5 13 1 inb_S15x2_S1x1_13_1)) 0 d = owns (c : Thread nD τ) (slot bM 13 64 inb_S15x128x1024_S1x64x1024_13_64_0) fullShare (recvV X false 1 13 c) := rfl
theorem expect_rsccw_r_13_1 (c : Dev nD) : (Rd (F := F) X).expect (dcell c (qR cc0_scratch5 13 1 inb_S15x2_S1x1_13_1)) 0 = N := by
  unfold Schedule.expect Schedule.amountOf; rw [duties_rsccw_r_13_1, Finset.sum_singleton]; rfl
theorem duties_rsccw_r_14_0 (c : Dev nD) : (Rd (F := F) X).duties (dcell c (qR cc0_scratch5 14 0 inb_S15x2_S1x1_14_0)) 0 = {false} := rfl
theorem amount_rsccw_r_14_0 (c : Dev nD) (d : Bool) : (Rd (F := F) X).amount (dcell c (qR cc0_scratch5 14 0 inb_S15x2_S1x1_14_0)) 0 d = N := rfl
theorem payload_rsccw_r_14_0 (c : Dev nD) (d : Bool) : (Rd (F := F) X).payload (dcell c (qR cc0_scratch5 14 0 inb_S15x2_S1x1_14_0)) 0 d = owns (c : Thread nD τ) (slot bM 14 0 inb_S15x128x1024_S1x64x1024_14_0_0) fullShare (recvV X false 0 14 c) := rfl
theorem expect_rsccw_r_14_0 (c : Dev nD) : (Rd (F := F) X).expect (dcell c (qR cc0_scratch5 14 0 inb_S15x2_S1x1_14_0)) 0 = N := by
  unfold Schedule.expect Schedule.amountOf; rw [duties_rsccw_r_14_0, Finset.sum_singleton]; rfl
theorem duties_rsccw_r_14_1 (c : Dev nD) : (Rd (F := F) X).duties (dcell c (qR cc0_scratch5 14 1 inb_S15x2_S1x1_14_1)) 0 = {false} := rfl
theorem amount_rsccw_r_14_1 (c : Dev nD) (d : Bool) : (Rd (F := F) X).amount (dcell c (qR cc0_scratch5 14 1 inb_S15x2_S1x1_14_1)) 0 d = N := rfl
theorem payload_rsccw_r_14_1 (c : Dev nD) (d : Bool) : (Rd (F := F) X).payload (dcell c (qR cc0_scratch5 14 1 inb_S15x2_S1x1_14_1)) 0 d = owns (c : Thread nD τ) (slot bM 14 64 inb_S15x128x1024_S1x64x1024_14_64_0) fullShare (recvV X false 1 14 c) := rfl
theorem expect_rsccw_r_14_1 (c : Dev nD) : (Rd (F := F) X).expect (dcell c (qR cc0_scratch5 14 1 inb_S15x2_S1x1_14_1)) 0 = N := by
  unfold Schedule.expect Schedule.amountOf; rw [duties_rsccw_r_14_1, Finset.sum_singleton]; rfl
theorem duties_rsccw_s_0_0 (c : Dev nD) : (Rd (F := F) X).duties (dcell c (qS cc0_scratch4 0 inb_S4_S1_0)) 0 = {false} := rfl
theorem amount_rsccw_s_0_0 (c : Dev nD) (d : Bool) : (Rd (F := F) X).amount (dcell c (qS cc0_scratch4 0 inb_S4_S1_0)) 0 d = N := rfl
theorem payload_rsccw_s_0_0 (c : Dev nD) (d : Bool) : (Rd (F := F) X).payload (dcell c (qS cc0_scratch4 0 inb_S4_S1_0)) 0 d = iprop((rows xM (off false (c.val + 1) 0) (off_inb false _ 0)).view.loc (c : Thread nD τ) ↦[(rows xM (off false (c.val + 1) 0) (off_inb false _ 0)).view.set]{fullShare.right} X c) := rfl
theorem expect_rsccw_s_0_0 (c : Dev nD) : (Rd (F := F) X).expect (dcell c (qS cc0_scratch4 0 inb_S4_S1_0)) 0 = N := by
  unfold Schedule.expect Schedule.amountOf; rw [duties_rsccw_s_0_0, Finset.sum_singleton]; rfl
theorem duties_rsccw_s_0_1 (c : Dev nD) : (Rd (F := F) X).duties (dcell c (qS cc0_scratch4 0 inb_S4_S1_0)) 1 = {false} := rfl
theorem amount_rsccw_s_0_1 (c : Dev nD) (d : Bool) : (Rd (F := F) X).amount (dcell c (qS cc0_scratch4 0 inb_S4_S1_0)) 1 d = N := rfl
theorem payload_rsccw_s_0_1 (c : Dev nD) (d : Bool) : (Rd (F := F) X).payload (dcell c (qS cc0_scratch4 0 inb_S4_S1_0)) 1 d = owns (c : Thread nD τ) (slot bM 1 0 inb_S15x128x1024_S1x64x1024_1_0_0) fullShare (addV X false 0 1 c) := rfl
theorem expect_rsccw_s_0_1 (c : Dev nD) : (Rd (F := F) X).expect (dcell c (qS cc0_scratch4 0 inb_S4_S1_0)) 1 = N := by
  unfold Schedule.expect Schedule.amountOf; rw [duties_rsccw_s_0_1, Finset.sum_singleton]; rfl
theorem duties_rsccw_s_0_2 (c : Dev nD) : (Rd (F := F) X).duties (dcell c (qS cc0_scratch4 0 inb_S4_S1_0)) 2 = {false} := rfl
theorem amount_rsccw_s_0_2 (c : Dev nD) (d : Bool) : (Rd (F := F) X).amount (dcell c (qS cc0_scratch4 0 inb_S4_S1_0)) 2 d = N := rfl
theorem payload_rsccw_s_0_2 (c : Dev nD) (d : Bool) : (Rd (F := F) X).payload (dcell c (qS cc0_scratch4 0 inb_S4_S1_0)) 2 d = owns (c : Thread nD τ) (slot bM 3 0 inb_S15x128x1024_S1x64x1024_3_0_0) fullShare (addV X false 0 3 c) := rfl
theorem expect_rsccw_s_0_2 (c : Dev nD) : (Rd (F := F) X).expect (dcell c (qS cc0_scratch4 0 inb_S4_S1_0)) 2 = N := by
  unfold Schedule.expect Schedule.amountOf; rw [duties_rsccw_s_0_2, Finset.sum_singleton]; rfl
theorem duties_rsccw_s_0_3 (c : Dev nD) : (Rd (F := F) X).duties (dcell c (qS cc0_scratch4 0 inb_S4_S1_0)) 3 = {false} := rfl
theorem amount_rsccw_s_0_3 (c : Dev nD) (d : Bool) : (Rd (F := F) X).amount (dcell c (qS cc0_scratch4 0 inb_S4_S1_0)) 3 d = N := rfl
theorem payload_rsccw_s_0_3 (c : Dev nD) (d : Bool) : (Rd (F := F) X).payload (dcell c (qS cc0_scratch4 0 inb_S4_S1_0)) 3 d = owns (c : Thread nD τ) (slot bM 5 0 inb_S15x128x1024_S1x64x1024_5_0_0) fullShare (addV X false 0 5 c) := rfl
theorem expect_rsccw_s_0_3 (c : Dev nD) : (Rd (F := F) X).expect (dcell c (qS cc0_scratch4 0 inb_S4_S1_0)) 3 = N := by
  unfold Schedule.expect Schedule.amountOf; rw [duties_rsccw_s_0_3, Finset.sum_singleton]; rfl
theorem duties_rsccw_s_0_4 (c : Dev nD) : (Rd (F := F) X).duties (dcell c (qS cc0_scratch4 0 inb_S4_S1_0)) 4 = {false} := rfl
theorem amount_rsccw_s_0_4 (c : Dev nD) (d : Bool) : (Rd (F := F) X).amount (dcell c (qS cc0_scratch4 0 inb_S4_S1_0)) 4 d = N := rfl
theorem payload_rsccw_s_0_4 (c : Dev nD) (d : Bool) : (Rd (F := F) X).payload (dcell c (qS cc0_scratch4 0 inb_S4_S1_0)) 4 d = owns (c : Thread nD τ) (slot bM 7 0 inb_S15x128x1024_S1x64x1024_7_0_0) fullShare (addV X false 0 7 c) := rfl
theorem expect_rsccw_s_0_4 (c : Dev nD) : (Rd (F := F) X).expect (dcell c (qS cc0_scratch4 0 inb_S4_S1_0)) 4 = N := by
  unfold Schedule.expect Schedule.amountOf; rw [duties_rsccw_s_0_4, Finset.sum_singleton]; rfl
theorem duties_rsccw_s_0_5 (c : Dev nD) : (Rd (F := F) X).duties (dcell c (qS cc0_scratch4 0 inb_S4_S1_0)) 5 = {false} := rfl
theorem amount_rsccw_s_0_5 (c : Dev nD) (d : Bool) : (Rd (F := F) X).amount (dcell c (qS cc0_scratch4 0 inb_S4_S1_0)) 5 d = N := rfl
theorem payload_rsccw_s_0_5 (c : Dev nD) (d : Bool) : (Rd (F := F) X).payload (dcell c (qS cc0_scratch4 0 inb_S4_S1_0)) 5 d = owns (c : Thread nD τ) (slot bM 9 0 inb_S15x128x1024_S1x64x1024_9_0_0) fullShare (addV X false 0 9 c) := rfl
theorem expect_rsccw_s_0_5 (c : Dev nD) : (Rd (F := F) X).expect (dcell c (qS cc0_scratch4 0 inb_S4_S1_0)) 5 = N := by
  unfold Schedule.expect Schedule.amountOf; rw [duties_rsccw_s_0_5, Finset.sum_singleton]; rfl
theorem duties_rsccw_s_0_6 (c : Dev nD) : (Rd (F := F) X).duties (dcell c (qS cc0_scratch4 0 inb_S4_S1_0)) 6 = {false} := rfl
theorem amount_rsccw_s_0_6 (c : Dev nD) (d : Bool) : (Rd (F := F) X).amount (dcell c (qS cc0_scratch4 0 inb_S4_S1_0)) 6 d = N := rfl
theorem payload_rsccw_s_0_6 (c : Dev nD) (d : Bool) : (Rd (F := F) X).payload (dcell c (qS cc0_scratch4 0 inb_S4_S1_0)) 6 d = owns (c : Thread nD τ) (slot bM 11 0 inb_S15x128x1024_S1x64x1024_11_0_0) fullShare (addV X false 0 11 c) := rfl
theorem expect_rsccw_s_0_6 (c : Dev nD) : (Rd (F := F) X).expect (dcell c (qS cc0_scratch4 0 inb_S4_S1_0)) 6 = N := by
  unfold Schedule.expect Schedule.amountOf; rw [duties_rsccw_s_0_6, Finset.sum_singleton]; rfl
theorem duties_rsccw_s_0_7 (c : Dev nD) : (Rd (F := F) X).duties (dcell c (qS cc0_scratch4 0 inb_S4_S1_0)) 7 = {false} := rfl
theorem amount_rsccw_s_0_7 (c : Dev nD) (d : Bool) : (Rd (F := F) X).amount (dcell c (qS cc0_scratch4 0 inb_S4_S1_0)) 7 d = N := rfl
theorem payload_rsccw_s_0_7 (c : Dev nD) (d : Bool) : (Rd (F := F) X).payload (dcell c (qS cc0_scratch4 0 inb_S4_S1_0)) 7 d = owns (c : Thread nD τ) (slot bM 13 0 inb_S15x128x1024_S1x64x1024_13_0_0) fullShare (addV X false 0 13 c) := rfl
theorem expect_rsccw_s_0_7 (c : Dev nD) : (Rd (F := F) X).expect (dcell c (qS cc0_scratch4 0 inb_S4_S1_0)) 7 = N := by
  unfold Schedule.expect Schedule.amountOf; rw [duties_rsccw_s_0_7, Finset.sum_singleton]; rfl
theorem later_rsccw_s_0 (c : Dev nD) : ∀ r, 8 ≤ r → (Rd (F := F) X).duties (dcell c (qS cc0_scratch4 0 inb_S4_S1_0)) r = ∅ := fun r hr => by
  show (if r < 8 then ({false} : Finset Bool) else ∅) = ∅; exact if_neg (by omega)
theorem duties_rsccw_s_1_0 (c : Dev nD) : (Rd (F := F) X).duties (dcell c (qS cc0_scratch4 1 inb_S4_S1_1)) 0 = {false} := rfl
theorem amount_rsccw_s_1_0 (c : Dev nD) (d : Bool) : (Rd (F := F) X).amount (dcell c (qS cc0_scratch4 1 inb_S4_S1_1)) 0 d = N := rfl
theorem payload_rsccw_s_1_0 (c : Dev nD) (d : Bool) : (Rd (F := F) X).payload (dcell c (qS cc0_scratch4 1 inb_S4_S1_1)) 0 d = iprop((rows xM (off false (c.val + 1) 1) (off_inb false _ 1)).view.loc (c : Thread nD τ) ↦[(rows xM (off false (c.val + 1) 1) (off_inb false _ 1)).view.set]{fullShare.right} X c) := rfl
theorem expect_rsccw_s_1_0 (c : Dev nD) : (Rd (F := F) X).expect (dcell c (qS cc0_scratch4 1 inb_S4_S1_1)) 0 = N := by
  unfold Schedule.expect Schedule.amountOf; rw [duties_rsccw_s_1_0, Finset.sum_singleton]; rfl
theorem duties_rsccw_s_1_1 (c : Dev nD) : (Rd (F := F) X).duties (dcell c (qS cc0_scratch4 1 inb_S4_S1_1)) 1 = {false} := rfl
theorem amount_rsccw_s_1_1 (c : Dev nD) (d : Bool) : (Rd (F := F) X).amount (dcell c (qS cc0_scratch4 1 inb_S4_S1_1)) 1 d = N := rfl
theorem payload_rsccw_s_1_1 (c : Dev nD) (d : Bool) : (Rd (F := F) X).payload (dcell c (qS cc0_scratch4 1 inb_S4_S1_1)) 1 d = owns (c : Thread nD τ) (slot bM 1 64 inb_S15x128x1024_S1x64x1024_1_64_0) fullShare (addV X false 1 1 c) := rfl
theorem expect_rsccw_s_1_1 (c : Dev nD) : (Rd (F := F) X).expect (dcell c (qS cc0_scratch4 1 inb_S4_S1_1)) 1 = N := by
  unfold Schedule.expect Schedule.amountOf; rw [duties_rsccw_s_1_1, Finset.sum_singleton]; rfl
theorem duties_rsccw_s_1_2 (c : Dev nD) : (Rd (F := F) X).duties (dcell c (qS cc0_scratch4 1 inb_S4_S1_1)) 2 = {false} := rfl
theorem amount_rsccw_s_1_2 (c : Dev nD) (d : Bool) : (Rd (F := F) X).amount (dcell c (qS cc0_scratch4 1 inb_S4_S1_1)) 2 d = N := rfl
theorem payload_rsccw_s_1_2 (c : Dev nD) (d : Bool) : (Rd (F := F) X).payload (dcell c (qS cc0_scratch4 1 inb_S4_S1_1)) 2 d = owns (c : Thread nD τ) (slot bM 3 64 inb_S15x128x1024_S1x64x1024_3_64_0) fullShare (addV X false 1 3 c) := rfl
theorem expect_rsccw_s_1_2 (c : Dev nD) : (Rd (F := F) X).expect (dcell c (qS cc0_scratch4 1 inb_S4_S1_1)) 2 = N := by
  unfold Schedule.expect Schedule.amountOf; rw [duties_rsccw_s_1_2, Finset.sum_singleton]; rfl
theorem duties_rsccw_s_1_3 (c : Dev nD) : (Rd (F := F) X).duties (dcell c (qS cc0_scratch4 1 inb_S4_S1_1)) 3 = {false} := rfl
theorem amount_rsccw_s_1_3 (c : Dev nD) (d : Bool) : (Rd (F := F) X).amount (dcell c (qS cc0_scratch4 1 inb_S4_S1_1)) 3 d = N := rfl
theorem payload_rsccw_s_1_3 (c : Dev nD) (d : Bool) : (Rd (F := F) X).payload (dcell c (qS cc0_scratch4 1 inb_S4_S1_1)) 3 d = owns (c : Thread nD τ) (slot bM 5 64 inb_S15x128x1024_S1x64x1024_5_64_0) fullShare (addV X false 1 5 c) := rfl
theorem expect_rsccw_s_1_3 (c : Dev nD) : (Rd (F := F) X).expect (dcell c (qS cc0_scratch4 1 inb_S4_S1_1)) 3 = N := by
  unfold Schedule.expect Schedule.amountOf; rw [duties_rsccw_s_1_3, Finset.sum_singleton]; rfl
theorem duties_rsccw_s_1_4 (c : Dev nD) : (Rd (F := F) X).duties (dcell c (qS cc0_scratch4 1 inb_S4_S1_1)) 4 = {false} := rfl
theorem amount_rsccw_s_1_4 (c : Dev nD) (d : Bool) : (Rd (F := F) X).amount (dcell c (qS cc0_scratch4 1 inb_S4_S1_1)) 4 d = N := rfl
theorem payload_rsccw_s_1_4 (c : Dev nD) (d : Bool) : (Rd (F := F) X).payload (dcell c (qS cc0_scratch4 1 inb_S4_S1_1)) 4 d = owns (c : Thread nD τ) (slot bM 7 64 inb_S15x128x1024_S1x64x1024_7_64_0) fullShare (addV X false 1 7 c) := rfl
theorem expect_rsccw_s_1_4 (c : Dev nD) : (Rd (F := F) X).expect (dcell c (qS cc0_scratch4 1 inb_S4_S1_1)) 4 = N := by
  unfold Schedule.expect Schedule.amountOf; rw [duties_rsccw_s_1_4, Finset.sum_singleton]; rfl
theorem duties_rsccw_s_1_5 (c : Dev nD) : (Rd (F := F) X).duties (dcell c (qS cc0_scratch4 1 inb_S4_S1_1)) 5 = {false} := rfl
theorem amount_rsccw_s_1_5 (c : Dev nD) (d : Bool) : (Rd (F := F) X).amount (dcell c (qS cc0_scratch4 1 inb_S4_S1_1)) 5 d = N := rfl
theorem payload_rsccw_s_1_5 (c : Dev nD) (d : Bool) : (Rd (F := F) X).payload (dcell c (qS cc0_scratch4 1 inb_S4_S1_1)) 5 d = owns (c : Thread nD τ) (slot bM 9 64 inb_S15x128x1024_S1x64x1024_9_64_0) fullShare (addV X false 1 9 c) := rfl
theorem expect_rsccw_s_1_5 (c : Dev nD) : (Rd (F := F) X).expect (dcell c (qS cc0_scratch4 1 inb_S4_S1_1)) 5 = N := by
  unfold Schedule.expect Schedule.amountOf; rw [duties_rsccw_s_1_5, Finset.sum_singleton]; rfl
theorem duties_rsccw_s_1_6 (c : Dev nD) : (Rd (F := F) X).duties (dcell c (qS cc0_scratch4 1 inb_S4_S1_1)) 6 = {false} := rfl
theorem amount_rsccw_s_1_6 (c : Dev nD) (d : Bool) : (Rd (F := F) X).amount (dcell c (qS cc0_scratch4 1 inb_S4_S1_1)) 6 d = N := rfl
theorem payload_rsccw_s_1_6 (c : Dev nD) (d : Bool) : (Rd (F := F) X).payload (dcell c (qS cc0_scratch4 1 inb_S4_S1_1)) 6 d = owns (c : Thread nD τ) (slot bM 11 64 inb_S15x128x1024_S1x64x1024_11_64_0) fullShare (addV X false 1 11 c) := rfl
theorem expect_rsccw_s_1_6 (c : Dev nD) : (Rd (F := F) X).expect (dcell c (qS cc0_scratch4 1 inb_S4_S1_1)) 6 = N := by
  unfold Schedule.expect Schedule.amountOf; rw [duties_rsccw_s_1_6, Finset.sum_singleton]; rfl
theorem duties_rsccw_s_1_7 (c : Dev nD) : (Rd (F := F) X).duties (dcell c (qS cc0_scratch4 1 inb_S4_S1_1)) 7 = {false} := rfl
theorem amount_rsccw_s_1_7 (c : Dev nD) (d : Bool) : (Rd (F := F) X).amount (dcell c (qS cc0_scratch4 1 inb_S4_S1_1)) 7 d = N := rfl
theorem payload_rsccw_s_1_7 (c : Dev nD) (d : Bool) : (Rd (F := F) X).payload (dcell c (qS cc0_scratch4 1 inb_S4_S1_1)) 7 d = owns (c : Thread nD τ) (slot bM 13 64 inb_S15x128x1024_S1x64x1024_13_64_0) fullShare (addV X false 1 13 c) := rfl
theorem expect_rsccw_s_1_7 (c : Dev nD) : (Rd (F := F) X).expect (dcell c (qS cc0_scratch4 1 inb_S4_S1_1)) 7 = N := by
  unfold Schedule.expect Schedule.amountOf; rw [duties_rsccw_s_1_7, Finset.sum_singleton]; rfl
theorem later_rsccw_s_1 (c : Dev nD) : ∀ r, 8 ≤ r → (Rd (F := F) X).duties (dcell c (qS cc0_scratch4 1 inb_S4_S1_1)) r = ∅ := fun r hr => by
  show (if r < 8 then ({false} : Finset Bool) else ∅) = ∅; exact if_neg (by omega)
theorem duties_rsccw_s_2_0 (c : Dev nD) : (Rd (F := F) X).duties (dcell c (qS cc0_scratch4 2 inb_S4_S1_2)) 0 = {false} := rfl
theorem amount_rsccw_s_2_0 (c : Dev nD) (d : Bool) : (Rd (F := F) X).amount (dcell c (qS cc0_scratch4 2 inb_S4_S1_2)) 0 d = N := rfl
theorem payload_rsccw_s_2_0 (c : Dev nD) (d : Bool) : (Rd (F := F) X).payload (dcell c (qS cc0_scratch4 2 inb_S4_S1_2)) 0 d = owns (c : Thread nD τ) (slot bM 0 0 inb_S15x128x1024_S1x64x1024_0_0_0) fullShare (addV X false 0 0 c) := rfl
theorem expect_rsccw_s_2_0 (c : Dev nD) : (Rd (F := F) X).expect (dcell c (qS cc0_scratch4 2 inb_S4_S1_2)) 0 = N := by
  unfold Schedule.expect Schedule.amountOf; rw [duties_rsccw_s_2_0, Finset.sum_singleton]; rfl
theorem duties_rsccw_s_2_1 (c : Dev nD) : (Rd (F := F) X).duties (dcell c (qS cc0_scratch4 2 inb_S4_S1_2)) 1 = {false} := rfl
theorem amount_rsccw_s_2_1 (c : Dev nD) (d : Bool) : (Rd (F := F) X).amount (dcell c (qS cc0_scratch4 2 inb_S4_S1_2)) 1 d = N := rfl
theorem payload_rsccw_s_2_1 (c : Dev nD) (d : Bool) : (Rd (F := F) X).payload (dcell c (qS cc0_scratch4 2 inb_S4_S1_2)) 1 d = owns (c : Thread nD τ) (slot bM 2 0 inb_S15x128x1024_S1x64x1024_2_0_0) fullShare (addV X false 0 2 c) := rfl
theorem expect_rsccw_s_2_1 (c : Dev nD) : (Rd (F := F) X).expect (dcell c (qS cc0_scratch4 2 inb_S4_S1_2)) 1 = N := by
  unfold Schedule.expect Schedule.amountOf; rw [duties_rsccw_s_2_1, Finset.sum_singleton]; rfl
theorem duties_rsccw_s_2_2 (c : Dev nD) : (Rd (F := F) X).duties (dcell c (qS cc0_scratch4 2 inb_S4_S1_2)) 2 = {false} := rfl
theorem amount_rsccw_s_2_2 (c : Dev nD) (d : Bool) : (Rd (F := F) X).amount (dcell c (qS cc0_scratch4 2 inb_S4_S1_2)) 2 d = N := rfl
theorem payload_rsccw_s_2_2 (c : Dev nD) (d : Bool) : (Rd (F := F) X).payload (dcell c (qS cc0_scratch4 2 inb_S4_S1_2)) 2 d = owns (c : Thread nD τ) (slot bM 4 0 inb_S15x128x1024_S1x64x1024_4_0_0) fullShare (addV X false 0 4 c) := rfl
theorem expect_rsccw_s_2_2 (c : Dev nD) : (Rd (F := F) X).expect (dcell c (qS cc0_scratch4 2 inb_S4_S1_2)) 2 = N := by
  unfold Schedule.expect Schedule.amountOf; rw [duties_rsccw_s_2_2, Finset.sum_singleton]; rfl
theorem duties_rsccw_s_2_3 (c : Dev nD) : (Rd (F := F) X).duties (dcell c (qS cc0_scratch4 2 inb_S4_S1_2)) 3 = {false} := rfl
theorem amount_rsccw_s_2_3 (c : Dev nD) (d : Bool) : (Rd (F := F) X).amount (dcell c (qS cc0_scratch4 2 inb_S4_S1_2)) 3 d = N := rfl
theorem payload_rsccw_s_2_3 (c : Dev nD) (d : Bool) : (Rd (F := F) X).payload (dcell c (qS cc0_scratch4 2 inb_S4_S1_2)) 3 d = owns (c : Thread nD τ) (slot bM 6 0 inb_S15x128x1024_S1x64x1024_6_0_0) fullShare (addV X false 0 6 c) := rfl
theorem expect_rsccw_s_2_3 (c : Dev nD) : (Rd (F := F) X).expect (dcell c (qS cc0_scratch4 2 inb_S4_S1_2)) 3 = N := by
  unfold Schedule.expect Schedule.amountOf; rw [duties_rsccw_s_2_3, Finset.sum_singleton]; rfl
theorem duties_rsccw_s_2_4 (c : Dev nD) : (Rd (F := F) X).duties (dcell c (qS cc0_scratch4 2 inb_S4_S1_2)) 4 = {false} := rfl
theorem amount_rsccw_s_2_4 (c : Dev nD) (d : Bool) : (Rd (F := F) X).amount (dcell c (qS cc0_scratch4 2 inb_S4_S1_2)) 4 d = N := rfl
theorem payload_rsccw_s_2_4 (c : Dev nD) (d : Bool) : (Rd (F := F) X).payload (dcell c (qS cc0_scratch4 2 inb_S4_S1_2)) 4 d = owns (c : Thread nD τ) (slot bM 8 0 inb_S15x128x1024_S1x64x1024_8_0_0) fullShare (addV X false 0 8 c) := rfl
theorem expect_rsccw_s_2_4 (c : Dev nD) : (Rd (F := F) X).expect (dcell c (qS cc0_scratch4 2 inb_S4_S1_2)) 4 = N := by
  unfold Schedule.expect Schedule.amountOf; rw [duties_rsccw_s_2_4, Finset.sum_singleton]; rfl
theorem duties_rsccw_s_2_5 (c : Dev nD) : (Rd (F := F) X).duties (dcell c (qS cc0_scratch4 2 inb_S4_S1_2)) 5 = {false} := rfl
theorem amount_rsccw_s_2_5 (c : Dev nD) (d : Bool) : (Rd (F := F) X).amount (dcell c (qS cc0_scratch4 2 inb_S4_S1_2)) 5 d = N := rfl
theorem payload_rsccw_s_2_5 (c : Dev nD) (d : Bool) : (Rd (F := F) X).payload (dcell c (qS cc0_scratch4 2 inb_S4_S1_2)) 5 d = owns (c : Thread nD τ) (slot bM 10 0 inb_S15x128x1024_S1x64x1024_10_0_0) fullShare (addV X false 0 10 c) := rfl
theorem expect_rsccw_s_2_5 (c : Dev nD) : (Rd (F := F) X).expect (dcell c (qS cc0_scratch4 2 inb_S4_S1_2)) 5 = N := by
  unfold Schedule.expect Schedule.amountOf; rw [duties_rsccw_s_2_5, Finset.sum_singleton]; rfl
theorem duties_rsccw_s_2_6 (c : Dev nD) : (Rd (F := F) X).duties (dcell c (qS cc0_scratch4 2 inb_S4_S1_2)) 6 = {false} := rfl
theorem amount_rsccw_s_2_6 (c : Dev nD) (d : Bool) : (Rd (F := F) X).amount (dcell c (qS cc0_scratch4 2 inb_S4_S1_2)) 6 d = N := rfl
theorem payload_rsccw_s_2_6 (c : Dev nD) (d : Bool) : (Rd (F := F) X).payload (dcell c (qS cc0_scratch4 2 inb_S4_S1_2)) 6 d = owns (c : Thread nD τ) (slot bM 12 0 inb_S15x128x1024_S1x64x1024_12_0_0) fullShare (addV X false 0 12 c) := rfl
theorem expect_rsccw_s_2_6 (c : Dev nD) : (Rd (F := F) X).expect (dcell c (qS cc0_scratch4 2 inb_S4_S1_2)) 6 = N := by
  unfold Schedule.expect Schedule.amountOf; rw [duties_rsccw_s_2_6, Finset.sum_singleton]; rfl
theorem later_rsccw_s_2 (c : Dev nD) : ∀ r, 7 ≤ r → (Rd (F := F) X).duties (dcell c (qS cc0_scratch4 2 inb_S4_S1_2)) r = ∅ := fun r hr => by
  show (if r < 7 then ({false} : Finset Bool) else ∅) = ∅; exact if_neg (by omega)
theorem duties_rsccw_s_3_0 (c : Dev nD) : (Rd (F := F) X).duties (dcell c (qS cc0_scratch4 3 inb_S4_S1_3)) 0 = {false} := rfl
theorem amount_rsccw_s_3_0 (c : Dev nD) (d : Bool) : (Rd (F := F) X).amount (dcell c (qS cc0_scratch4 3 inb_S4_S1_3)) 0 d = N := rfl
theorem payload_rsccw_s_3_0 (c : Dev nD) (d : Bool) : (Rd (F := F) X).payload (dcell c (qS cc0_scratch4 3 inb_S4_S1_3)) 0 d = owns (c : Thread nD τ) (slot bM 0 64 inb_S15x128x1024_S1x64x1024_0_64_0) fullShare (addV X false 1 0 c) := rfl
theorem expect_rsccw_s_3_0 (c : Dev nD) : (Rd (F := F) X).expect (dcell c (qS cc0_scratch4 3 inb_S4_S1_3)) 0 = N := by
  unfold Schedule.expect Schedule.amountOf; rw [duties_rsccw_s_3_0, Finset.sum_singleton]; rfl
theorem duties_rsccw_s_3_1 (c : Dev nD) : (Rd (F := F) X).duties (dcell c (qS cc0_scratch4 3 inb_S4_S1_3)) 1 = {false} := rfl
theorem amount_rsccw_s_3_1 (c : Dev nD) (d : Bool) : (Rd (F := F) X).amount (dcell c (qS cc0_scratch4 3 inb_S4_S1_3)) 1 d = N := rfl
theorem payload_rsccw_s_3_1 (c : Dev nD) (d : Bool) : (Rd (F := F) X).payload (dcell c (qS cc0_scratch4 3 inb_S4_S1_3)) 1 d = owns (c : Thread nD τ) (slot bM 2 64 inb_S15x128x1024_S1x64x1024_2_64_0) fullShare (addV X false 1 2 c) := rfl
theorem expect_rsccw_s_3_1 (c : Dev nD) : (Rd (F := F) X).expect (dcell c (qS cc0_scratch4 3 inb_S4_S1_3)) 1 = N := by
  unfold Schedule.expect Schedule.amountOf; rw [duties_rsccw_s_3_1, Finset.sum_singleton]; rfl
theorem duties_rsccw_s_3_2 (c : Dev nD) : (Rd (F := F) X).duties (dcell c (qS cc0_scratch4 3 inb_S4_S1_3)) 2 = {false} := rfl
theorem amount_rsccw_s_3_2 (c : Dev nD) (d : Bool) : (Rd (F := F) X).amount (dcell c (qS cc0_scratch4 3 inb_S4_S1_3)) 2 d = N := rfl
theorem payload_rsccw_s_3_2 (c : Dev nD) (d : Bool) : (Rd (F := F) X).payload (dcell c (qS cc0_scratch4 3 inb_S4_S1_3)) 2 d = owns (c : Thread nD τ) (slot bM 4 64 inb_S15x128x1024_S1x64x1024_4_64_0) fullShare (addV X false 1 4 c) := rfl
theorem expect_rsccw_s_3_2 (c : Dev nD) : (Rd (F := F) X).expect (dcell c (qS cc0_scratch4 3 inb_S4_S1_3)) 2 = N := by
  unfold Schedule.expect Schedule.amountOf; rw [duties_rsccw_s_3_2, Finset.sum_singleton]; rfl
theorem duties_rsccw_s_3_3 (c : Dev nD) : (Rd (F := F) X).duties (dcell c (qS cc0_scratch4 3 inb_S4_S1_3)) 3 = {false} := rfl
theorem amount_rsccw_s_3_3 (c : Dev nD) (d : Bool) : (Rd (F := F) X).amount (dcell c (qS cc0_scratch4 3 inb_S4_S1_3)) 3 d = N := rfl
theorem payload_rsccw_s_3_3 (c : Dev nD) (d : Bool) : (Rd (F := F) X).payload (dcell c (qS cc0_scratch4 3 inb_S4_S1_3)) 3 d = owns (c : Thread nD τ) (slot bM 6 64 inb_S15x128x1024_S1x64x1024_6_64_0) fullShare (addV X false 1 6 c) := rfl
theorem expect_rsccw_s_3_3 (c : Dev nD) : (Rd (F := F) X).expect (dcell c (qS cc0_scratch4 3 inb_S4_S1_3)) 3 = N := by
  unfold Schedule.expect Schedule.amountOf; rw [duties_rsccw_s_3_3, Finset.sum_singleton]; rfl
theorem duties_rsccw_s_3_4 (c : Dev nD) : (Rd (F := F) X).duties (dcell c (qS cc0_scratch4 3 inb_S4_S1_3)) 4 = {false} := rfl
theorem amount_rsccw_s_3_4 (c : Dev nD) (d : Bool) : (Rd (F := F) X).amount (dcell c (qS cc0_scratch4 3 inb_S4_S1_3)) 4 d = N := rfl
theorem payload_rsccw_s_3_4 (c : Dev nD) (d : Bool) : (Rd (F := F) X).payload (dcell c (qS cc0_scratch4 3 inb_S4_S1_3)) 4 d = owns (c : Thread nD τ) (slot bM 8 64 inb_S15x128x1024_S1x64x1024_8_64_0) fullShare (addV X false 1 8 c) := rfl
theorem expect_rsccw_s_3_4 (c : Dev nD) : (Rd (F := F) X).expect (dcell c (qS cc0_scratch4 3 inb_S4_S1_3)) 4 = N := by
  unfold Schedule.expect Schedule.amountOf; rw [duties_rsccw_s_3_4, Finset.sum_singleton]; rfl
theorem duties_rsccw_s_3_5 (c : Dev nD) : (Rd (F := F) X).duties (dcell c (qS cc0_scratch4 3 inb_S4_S1_3)) 5 = {false} := rfl
theorem amount_rsccw_s_3_5 (c : Dev nD) (d : Bool) : (Rd (F := F) X).amount (dcell c (qS cc0_scratch4 3 inb_S4_S1_3)) 5 d = N := rfl
theorem payload_rsccw_s_3_5 (c : Dev nD) (d : Bool) : (Rd (F := F) X).payload (dcell c (qS cc0_scratch4 3 inb_S4_S1_3)) 5 d = owns (c : Thread nD τ) (slot bM 10 64 inb_S15x128x1024_S1x64x1024_10_64_0) fullShare (addV X false 1 10 c) := rfl
theorem expect_rsccw_s_3_5 (c : Dev nD) : (Rd (F := F) X).expect (dcell c (qS cc0_scratch4 3 inb_S4_S1_3)) 5 = N := by
  unfold Schedule.expect Schedule.amountOf; rw [duties_rsccw_s_3_5, Finset.sum_singleton]; rfl
theorem duties_rsccw_s_3_6 (c : Dev nD) : (Rd (F := F) X).duties (dcell c (qS cc0_scratch4 3 inb_S4_S1_3)) 6 = {false} := rfl
theorem amount_rsccw_s_3_6 (c : Dev nD) (d : Bool) : (Rd (F := F) X).amount (dcell c (qS cc0_scratch4 3 inb_S4_S1_3)) 6 d = N := rfl
theorem payload_rsccw_s_3_6 (c : Dev nD) (d : Bool) : (Rd (F := F) X).payload (dcell c (qS cc0_scratch4 3 inb_S4_S1_3)) 6 d = owns (c : Thread nD τ) (slot bM 12 64 inb_S15x128x1024_S1x64x1024_12_64_0) fullShare (addV X false 1 12 c) := rfl
theorem expect_rsccw_s_3_6 (c : Dev nD) : (Rd (F := F) X).expect (dcell c (qS cc0_scratch4 3 inb_S4_S1_3)) 6 = N := by
  unfold Schedule.expect Schedule.amountOf; rw [duties_rsccw_s_3_6, Finset.sum_singleton]; rfl
theorem later_rsccw_s_3 (c : Dev nD) : ∀ r, 7 ≤ r → (Rd (F := F) X).duties (dcell c (qS cc0_scratch4 3 inb_S4_S1_3)) r = ∅ := fun r hr => by
  show (if r < 7 then ({false} : Finset Bool) else ∅) = ∅; exact if_neg (by omega)
theorem later_rsccw_r_0_0 (c : Dev nD) : ∀ r, 1 ≤ r → (Rd (F := F) X).duties (dcell c (qR cc0_scratch5 0 0 inb_S15x2_S1x1_0_0)) r = ∅ := fun r hr => by
  show (if r = 0 then ({false} : Finset Bool) else ∅) = ∅; exact if_neg (by omega)
theorem later_rsccw_r_0_1 (c : Dev nD) : ∀ r, 1 ≤ r → (Rd (F := F) X).duties (dcell c (qR cc0_scratch5 0 1 inb_S15x2_S1x1_0_1)) r = ∅ := fun r hr => by
  show (if r = 0 then ({false} : Finset Bool) else ∅) = ∅; exact if_neg (by omega)
theorem later_rsccw_r_1_0 (c : Dev nD) : ∀ r, 1 ≤ r → (Rd (F := F) X).duties (dcell c (qR cc0_scratch5 1 0 inb_S15x2_S1x1_1_0)) r = ∅ := fun r hr => by
  show (if r = 0 then ({false} : Finset Bool) else ∅) = ∅; exact if_neg (by omega)
theorem later_rsccw_r_1_1 (c : Dev nD) : ∀ r, 1 ≤ r → (Rd (F := F) X).duties (dcell c (qR cc0_scratch5 1 1 inb_S15x2_S1x1_1_1)) r = ∅ := fun r hr => by
  show (if r = 0 then ({false} : Finset Bool) else ∅) = ∅; exact if_neg (by omega)
theorem later_rsccw_r_2_0 (c : Dev nD) : ∀ r, 1 ≤ r → (Rd (F := F) X).duties (dcell c (qR cc0_scratch5 2 0 inb_S15x2_S1x1_2_0)) r = ∅ := fun r hr => by
  show (if r = 0 then ({false} : Finset Bool) else ∅) = ∅; exact if_neg (by omega)
theorem later_rsccw_r_2_1 (c : Dev nD) : ∀ r, 1 ≤ r → (Rd (F := F) X).duties (dcell c (qR cc0_scratch5 2 1 inb_S15x2_S1x1_2_1)) r = ∅ := fun r hr => by
  show (if r = 0 then ({false} : Finset Bool) else ∅) = ∅; exact if_neg (by omega)
theorem later_rsccw_r_3_0 (c : Dev nD) : ∀ r, 1 ≤ r → (Rd (F := F) X).duties (dcell c (qR cc0_scratch5 3 0 inb_S15x2_S1x1_3_0)) r = ∅ := fun r hr => by
  show (if r = 0 then ({false} : Finset Bool) else ∅) = ∅; exact if_neg (by omega)
theorem later_rsccw_r_3_1 (c : Dev nD) : ∀ r, 1 ≤ r → (Rd (F := F) X).duties (dcell c (qR cc0_scratch5 3 1 inb_S15x2_S1x1_3_1)) r = ∅ := fun r hr => by
  show (if r = 0 then ({false} : Finset Bool) else ∅) = ∅; exact if_neg (by omega)
theorem later_rsccw_r_4_0 (c : Dev nD) : ∀ r, 1 ≤ r → (Rd (F := F) X).duties (dcell c (qR cc0_scratch5 4 0 inb_S15x2_S1x1_4_0)) r = ∅ := fun r hr => by
  show (if r = 0 then ({false} : Finset Bool) else ∅) = ∅; exact if_neg (by omega)
theorem later_rsccw_r_4_1 (c : Dev nD) : ∀ r, 1 ≤ r → (Rd (F := F) X).duties (dcell c (qR cc0_scratch5 4 1 inb_S15x2_S1x1_4_1)) r = ∅ := fun r hr => by
  show (if r = 0 then ({false} : Finset Bool) else ∅) = ∅; exact if_neg (by omega)
theorem later_rsccw_r_5_0 (c : Dev nD) : ∀ r, 1 ≤ r → (Rd (F := F) X).duties (dcell c (qR cc0_scratch5 5 0 inb_S15x2_S1x1_5_0)) r = ∅ := fun r hr => by
  show (if r = 0 then ({false} : Finset Bool) else ∅) = ∅; exact if_neg (by omega)
theorem later_rsccw_r_5_1 (c : Dev nD) : ∀ r, 1 ≤ r → (Rd (F := F) X).duties (dcell c (qR cc0_scratch5 5 1 inb_S15x2_S1x1_5_1)) r = ∅ := fun r hr => by
  show (if r = 0 then ({false} : Finset Bool) else ∅) = ∅; exact if_neg (by omega)
theorem later_rsccw_r_6_0 (c : Dev nD) : ∀ r, 1 ≤ r → (Rd (F := F) X).duties (dcell c (qR cc0_scratch5 6 0 inb_S15x2_S1x1_6_0)) r = ∅ := fun r hr => by
  show (if r = 0 then ({false} : Finset Bool) else ∅) = ∅; exact if_neg (by omega)
theorem later_rsccw_r_6_1 (c : Dev nD) : ∀ r, 1 ≤ r → (Rd (F := F) X).duties (dcell c (qR cc0_scratch5 6 1 inb_S15x2_S1x1_6_1)) r = ∅ := fun r hr => by
  show (if r = 0 then ({false} : Finset Bool) else ∅) = ∅; exact if_neg (by omega)
theorem later_rsccw_r_7_0 (c : Dev nD) : ∀ r, 1 ≤ r → (Rd (F := F) X).duties (dcell c (qR cc0_scratch5 7 0 inb_S15x2_S1x1_7_0)) r = ∅ := fun r hr => by
  show (if r = 0 then ({false} : Finset Bool) else ∅) = ∅; exact if_neg (by omega)
theorem later_rsccw_r_7_1 (c : Dev nD) : ∀ r, 1 ≤ r → (Rd (F := F) X).duties (dcell c (qR cc0_scratch5 7 1 inb_S15x2_S1x1_7_1)) r = ∅ := fun r hr => by
  show (if r = 0 then ({false} : Finset Bool) else ∅) = ∅; exact if_neg (by omega)
theorem later_rsccw_r_8_0 (c : Dev nD) : ∀ r, 1 ≤ r → (Rd (F := F) X).duties (dcell c (qR cc0_scratch5 8 0 inb_S15x2_S1x1_8_0)) r = ∅ := fun r hr => by
  show (if r = 0 then ({false} : Finset Bool) else ∅) = ∅; exact if_neg (by omega)
theorem later_rsccw_r_8_1 (c : Dev nD) : ∀ r, 1 ≤ r → (Rd (F := F) X).duties (dcell c (qR cc0_scratch5 8 1 inb_S15x2_S1x1_8_1)) r = ∅ := fun r hr => by
  show (if r = 0 then ({false} : Finset Bool) else ∅) = ∅; exact if_neg (by omega)
theorem later_rsccw_r_9_0 (c : Dev nD) : ∀ r, 1 ≤ r → (Rd (F := F) X).duties (dcell c (qR cc0_scratch5 9 0 inb_S15x2_S1x1_9_0)) r = ∅ := fun r hr => by
  show (if r = 0 then ({false} : Finset Bool) else ∅) = ∅; exact if_neg (by omega)
theorem later_rsccw_r_9_1 (c : Dev nD) : ∀ r, 1 ≤ r → (Rd (F := F) X).duties (dcell c (qR cc0_scratch5 9 1 inb_S15x2_S1x1_9_1)) r = ∅ := fun r hr => by
  show (if r = 0 then ({false} : Finset Bool) else ∅) = ∅; exact if_neg (by omega)
theorem later_rsccw_r_10_0 (c : Dev nD) : ∀ r, 1 ≤ r → (Rd (F := F) X).duties (dcell c (qR cc0_scratch5 10 0 inb_S15x2_S1x1_10_0)) r = ∅ := fun r hr => by
  show (if r = 0 then ({false} : Finset Bool) else ∅) = ∅; exact if_neg (by omega)
theorem later_rsccw_r_10_1 (c : Dev nD) : ∀ r, 1 ≤ r → (Rd (F := F) X).duties (dcell c (qR cc0_scratch5 10 1 inb_S15x2_S1x1_10_1)) r = ∅ := fun r hr => by
  show (if r = 0 then ({false} : Finset Bool) else ∅) = ∅; exact if_neg (by omega)
theorem later_rsccw_r_11_0 (c : Dev nD) : ∀ r, 1 ≤ r → (Rd (F := F) X).duties (dcell c (qR cc0_scratch5 11 0 inb_S15x2_S1x1_11_0)) r = ∅ := fun r hr => by
  show (if r = 0 then ({false} : Finset Bool) else ∅) = ∅; exact if_neg (by omega)
theorem later_rsccw_r_11_1 (c : Dev nD) : ∀ r, 1 ≤ r → (Rd (F := F) X).duties (dcell c (qR cc0_scratch5 11 1 inb_S15x2_S1x1_11_1)) r = ∅ := fun r hr => by
  show (if r = 0 then ({false} : Finset Bool) else ∅) = ∅; exact if_neg (by omega)
theorem later_rsccw_r_12_0 (c : Dev nD) : ∀ r, 1 ≤ r → (Rd (F := F) X).duties (dcell c (qR cc0_scratch5 12 0 inb_S15x2_S1x1_12_0)) r = ∅ := fun r hr => by
  show (if r = 0 then ({false} : Finset Bool) else ∅) = ∅; exact if_neg (by omega)
theorem later_rsccw_r_12_1 (c : Dev nD) : ∀ r, 1 ≤ r → (Rd (F := F) X).duties (dcell c (qR cc0_scratch5 12 1 inb_S15x2_S1x1_12_1)) r = ∅ := fun r hr => by
  show (if r = 0 then ({false} : Finset Bool) else ∅) = ∅; exact if_neg (by omega)
theorem later_rsccw_r_13_0 (c : Dev nD) : ∀ r, 1 ≤ r → (Rd (F := F) X).duties (dcell c (qR cc0_scratch5 13 0 inb_S15x2_S1x1_13_0)) r = ∅ := fun r hr => by
  show (if r = 0 then ({false} : Finset Bool) else ∅) = ∅; exact if_neg (by omega)
theorem later_rsccw_r_13_1 (c : Dev nD) : ∀ r, 1 ≤ r → (Rd (F := F) X).duties (dcell c (qR cc0_scratch5 13 1 inb_S15x2_S1x1_13_1)) r = ∅ := fun r hr => by
  show (if r = 0 then ({false} : Finset Bool) else ∅) = ∅; exact if_neg (by omega)
theorem later_rsccw_r_14_0 (c : Dev nD) : ∀ r, 1 ≤ r → (Rd (F := F) X).duties (dcell c (qR cc0_scratch5 14 0 inb_S15x2_S1x1_14_0)) r = ∅ := fun r hr => by
  show (if r = 0 then ({false} : Finset Bool) else ∅) = ∅; exact if_neg (by omega)
theorem later_rsccw_r_14_1 (c : Dev nD) : ∀ r, 1 ≤ r → (Rd (F := F) X).duties (dcell c (qR cc0_scratch5 14 1 inb_S15x2_S1x1_14_1)) r = ∅ := fun r hr => by
  show (if r = 0 then ({false} : Finset Bool) else ∅) = ∅; exact if_neg (by omega)
theorem duties_agcw_r_0_0 (c : Dev nD) : (Rd (F := F) X).duties (dcell c (qR cc0_scratch7 0 0 inb_S15x2_S1x1_0_0)) 0 = {false} := rfl
theorem amount_agcw_r_0_0 (c : Dev nD) (d : Bool) : (Rd (F := F) X).amount (dcell c (qR cc0_scratch7 0 0 inb_S15x2_S1x1_0_0)) 0 d = N := rfl
theorem payload_agcw_r_0_0 (c : Dev nD) (d : Bool) : (Rd (F := F) X).payload (dcell c (qR cc0_scratch7 0 0 inb_S15x2_S1x1_0_0)) 0 d = owns (c : Thread nD τ) (rows oM (off true (c.val + 15) 0) (off_inb true _ 0)) fullShare (doneV X true 0 (devAt c 15)) := rfl
theorem expect_agcw_r_0_0 (c : Dev nD) : (Rd (F := F) X).expect (dcell c (qR cc0_scratch7 0 0 inb_S15x2_S1x1_0_0)) 0 = N := by
  unfold Schedule.expect Schedule.amountOf; rw [duties_agcw_r_0_0, Finset.sum_singleton]; rfl
theorem duties_agcw_r_0_1 (c : Dev nD) : (Rd (F := F) X).duties (dcell c (qR cc0_scratch7 0 1 inb_S15x2_S1x1_0_1)) 0 = {false} := rfl
theorem amount_agcw_r_0_1 (c : Dev nD) (d : Bool) : (Rd (F := F) X).amount (dcell c (qR cc0_scratch7 0 1 inb_S15x2_S1x1_0_1)) 0 d = N := rfl
theorem payload_agcw_r_0_1 (c : Dev nD) (d : Bool) : (Rd (F := F) X).payload (dcell c (qR cc0_scratch7 0 1 inb_S15x2_S1x1_0_1)) 0 d = owns (c : Thread nD τ) (rows oM (off true (c.val + 15) 1) (off_inb true _ 1)) fullShare (doneV X true 1 (devAt c 15)) := rfl
theorem expect_agcw_r_0_1 (c : Dev nD) : (Rd (F := F) X).expect (dcell c (qR cc0_scratch7 0 1 inb_S15x2_S1x1_0_1)) 0 = N := by
  unfold Schedule.expect Schedule.amountOf; rw [duties_agcw_r_0_1, Finset.sum_singleton]; rfl
theorem duties_agcw_r_1_0 (c : Dev nD) : (Rd (F := F) X).duties (dcell c (qR cc0_scratch7 1 0 inb_S15x2_S1x1_1_0)) 0 = {false} := rfl
theorem amount_agcw_r_1_0 (c : Dev nD) (d : Bool) : (Rd (F := F) X).amount (dcell c (qR cc0_scratch7 1 0 inb_S15x2_S1x1_1_0)) 0 d = N := rfl
theorem payload_agcw_r_1_0 (c : Dev nD) (d : Bool) : (Rd (F := F) X).payload (dcell c (qR cc0_scratch7 1 0 inb_S15x2_S1x1_1_0)) 0 d = owns (c : Thread nD τ) (rows oM (off true (c.val + 14) 0) (off_inb true _ 0)) fullShare (doneV X true 0 (devAt c 14)) := rfl
theorem expect_agcw_r_1_0 (c : Dev nD) : (Rd (F := F) X).expect (dcell c (qR cc0_scratch7 1 0 inb_S15x2_S1x1_1_0)) 0 = N := by
  unfold Schedule.expect Schedule.amountOf; rw [duties_agcw_r_1_0, Finset.sum_singleton]; rfl
theorem duties_agcw_r_1_1 (c : Dev nD) : (Rd (F := F) X).duties (dcell c (qR cc0_scratch7 1 1 inb_S15x2_S1x1_1_1)) 0 = {false} := rfl
theorem amount_agcw_r_1_1 (c : Dev nD) (d : Bool) : (Rd (F := F) X).amount (dcell c (qR cc0_scratch7 1 1 inb_S15x2_S1x1_1_1)) 0 d = N := rfl
theorem payload_agcw_r_1_1 (c : Dev nD) (d : Bool) : (Rd (F := F) X).payload (dcell c (qR cc0_scratch7 1 1 inb_S15x2_S1x1_1_1)) 0 d = owns (c : Thread nD τ) (rows oM (off true (c.val + 14) 1) (off_inb true _ 1)) fullShare (doneV X true 1 (devAt c 14)) := rfl
theorem expect_agcw_r_1_1 (c : Dev nD) : (Rd (F := F) X).expect (dcell c (qR cc0_scratch7 1 1 inb_S15x2_S1x1_1_1)) 0 = N := by
  unfold Schedule.expect Schedule.amountOf; rw [duties_agcw_r_1_1, Finset.sum_singleton]; rfl
theorem duties_agcw_r_2_0 (c : Dev nD) : (Rd (F := F) X).duties (dcell c (qR cc0_scratch7 2 0 inb_S15x2_S1x1_2_0)) 0 = {false} := rfl
theorem amount_agcw_r_2_0 (c : Dev nD) (d : Bool) : (Rd (F := F) X).amount (dcell c (qR cc0_scratch7 2 0 inb_S15x2_S1x1_2_0)) 0 d = N := rfl
theorem payload_agcw_r_2_0 (c : Dev nD) (d : Bool) : (Rd (F := F) X).payload (dcell c (qR cc0_scratch7 2 0 inb_S15x2_S1x1_2_0)) 0 d = owns (c : Thread nD τ) (rows oM (off true (c.val + 13) 0) (off_inb true _ 0)) fullShare (doneV X true 0 (devAt c 13)) := rfl
theorem expect_agcw_r_2_0 (c : Dev nD) : (Rd (F := F) X).expect (dcell c (qR cc0_scratch7 2 0 inb_S15x2_S1x1_2_0)) 0 = N := by
  unfold Schedule.expect Schedule.amountOf; rw [duties_agcw_r_2_0, Finset.sum_singleton]; rfl
theorem duties_agcw_r_2_1 (c : Dev nD) : (Rd (F := F) X).duties (dcell c (qR cc0_scratch7 2 1 inb_S15x2_S1x1_2_1)) 0 = {false} := rfl
theorem amount_agcw_r_2_1 (c : Dev nD) (d : Bool) : (Rd (F := F) X).amount (dcell c (qR cc0_scratch7 2 1 inb_S15x2_S1x1_2_1)) 0 d = N := rfl
theorem payload_agcw_r_2_1 (c : Dev nD) (d : Bool) : (Rd (F := F) X).payload (dcell c (qR cc0_scratch7 2 1 inb_S15x2_S1x1_2_1)) 0 d = owns (c : Thread nD τ) (rows oM (off true (c.val + 13) 1) (off_inb true _ 1)) fullShare (doneV X true 1 (devAt c 13)) := rfl
theorem expect_agcw_r_2_1 (c : Dev nD) : (Rd (F := F) X).expect (dcell c (qR cc0_scratch7 2 1 inb_S15x2_S1x1_2_1)) 0 = N := by
  unfold Schedule.expect Schedule.amountOf; rw [duties_agcw_r_2_1, Finset.sum_singleton]; rfl
theorem duties_agcw_r_3_0 (c : Dev nD) : (Rd (F := F) X).duties (dcell c (qR cc0_scratch7 3 0 inb_S15x2_S1x1_3_0)) 0 = {false} := rfl
theorem amount_agcw_r_3_0 (c : Dev nD) (d : Bool) : (Rd (F := F) X).amount (dcell c (qR cc0_scratch7 3 0 inb_S15x2_S1x1_3_0)) 0 d = N := rfl
theorem payload_agcw_r_3_0 (c : Dev nD) (d : Bool) : (Rd (F := F) X).payload (dcell c (qR cc0_scratch7 3 0 inb_S15x2_S1x1_3_0)) 0 d = owns (c : Thread nD τ) (rows oM (off true (c.val + 12) 0) (off_inb true _ 0)) fullShare (doneV X true 0 (devAt c 12)) := rfl
theorem expect_agcw_r_3_0 (c : Dev nD) : (Rd (F := F) X).expect (dcell c (qR cc0_scratch7 3 0 inb_S15x2_S1x1_3_0)) 0 = N := by
  unfold Schedule.expect Schedule.amountOf; rw [duties_agcw_r_3_0, Finset.sum_singleton]; rfl
theorem duties_agcw_r_3_1 (c : Dev nD) : (Rd (F := F) X).duties (dcell c (qR cc0_scratch7 3 1 inb_S15x2_S1x1_3_1)) 0 = {false} := rfl
theorem amount_agcw_r_3_1 (c : Dev nD) (d : Bool) : (Rd (F := F) X).amount (dcell c (qR cc0_scratch7 3 1 inb_S15x2_S1x1_3_1)) 0 d = N := rfl
theorem payload_agcw_r_3_1 (c : Dev nD) (d : Bool) : (Rd (F := F) X).payload (dcell c (qR cc0_scratch7 3 1 inb_S15x2_S1x1_3_1)) 0 d = owns (c : Thread nD τ) (rows oM (off true (c.val + 12) 1) (off_inb true _ 1)) fullShare (doneV X true 1 (devAt c 12)) := rfl
theorem expect_agcw_r_3_1 (c : Dev nD) : (Rd (F := F) X).expect (dcell c (qR cc0_scratch7 3 1 inb_S15x2_S1x1_3_1)) 0 = N := by
  unfold Schedule.expect Schedule.amountOf; rw [duties_agcw_r_3_1, Finset.sum_singleton]; rfl
theorem duties_agcw_r_4_0 (c : Dev nD) : (Rd (F := F) X).duties (dcell c (qR cc0_scratch7 4 0 inb_S15x2_S1x1_4_0)) 0 = {false} := rfl
theorem amount_agcw_r_4_0 (c : Dev nD) (d : Bool) : (Rd (F := F) X).amount (dcell c (qR cc0_scratch7 4 0 inb_S15x2_S1x1_4_0)) 0 d = N := rfl
theorem payload_agcw_r_4_0 (c : Dev nD) (d : Bool) : (Rd (F := F) X).payload (dcell c (qR cc0_scratch7 4 0 inb_S15x2_S1x1_4_0)) 0 d = owns (c : Thread nD τ) (rows oM (off true (c.val + 11) 0) (off_inb true _ 0)) fullShare (doneV X true 0 (devAt c 11)) := rfl
theorem expect_agcw_r_4_0 (c : Dev nD) : (Rd (F := F) X).expect (dcell c (qR cc0_scratch7 4 0 inb_S15x2_S1x1_4_0)) 0 = N := by
  unfold Schedule.expect Schedule.amountOf; rw [duties_agcw_r_4_0, Finset.sum_singleton]; rfl
theorem duties_agcw_r_4_1 (c : Dev nD) : (Rd (F := F) X).duties (dcell c (qR cc0_scratch7 4 1 inb_S15x2_S1x1_4_1)) 0 = {false} := rfl
theorem amount_agcw_r_4_1 (c : Dev nD) (d : Bool) : (Rd (F := F) X).amount (dcell c (qR cc0_scratch7 4 1 inb_S15x2_S1x1_4_1)) 0 d = N := rfl
theorem payload_agcw_r_4_1 (c : Dev nD) (d : Bool) : (Rd (F := F) X).payload (dcell c (qR cc0_scratch7 4 1 inb_S15x2_S1x1_4_1)) 0 d = owns (c : Thread nD τ) (rows oM (off true (c.val + 11) 1) (off_inb true _ 1)) fullShare (doneV X true 1 (devAt c 11)) := rfl
theorem expect_agcw_r_4_1 (c : Dev nD) : (Rd (F := F) X).expect (dcell c (qR cc0_scratch7 4 1 inb_S15x2_S1x1_4_1)) 0 = N := by
  unfold Schedule.expect Schedule.amountOf; rw [duties_agcw_r_4_1, Finset.sum_singleton]; rfl
theorem duties_agcw_r_5_0 (c : Dev nD) : (Rd (F := F) X).duties (dcell c (qR cc0_scratch7 5 0 inb_S15x2_S1x1_5_0)) 0 = {false} := rfl
theorem amount_agcw_r_5_0 (c : Dev nD) (d : Bool) : (Rd (F := F) X).amount (dcell c (qR cc0_scratch7 5 0 inb_S15x2_S1x1_5_0)) 0 d = N := rfl
theorem payload_agcw_r_5_0 (c : Dev nD) (d : Bool) : (Rd (F := F) X).payload (dcell c (qR cc0_scratch7 5 0 inb_S15x2_S1x1_5_0)) 0 d = owns (c : Thread nD τ) (rows oM (off true (c.val + 10) 0) (off_inb true _ 0)) fullShare (doneV X true 0 (devAt c 10)) := rfl
theorem expect_agcw_r_5_0 (c : Dev nD) : (Rd (F := F) X).expect (dcell c (qR cc0_scratch7 5 0 inb_S15x2_S1x1_5_0)) 0 = N := by
  unfold Schedule.expect Schedule.amountOf; rw [duties_agcw_r_5_0, Finset.sum_singleton]; rfl
theorem duties_agcw_r_5_1 (c : Dev nD) : (Rd (F := F) X).duties (dcell c (qR cc0_scratch7 5 1 inb_S15x2_S1x1_5_1)) 0 = {false} := rfl
theorem amount_agcw_r_5_1 (c : Dev nD) (d : Bool) : (Rd (F := F) X).amount (dcell c (qR cc0_scratch7 5 1 inb_S15x2_S1x1_5_1)) 0 d = N := rfl
theorem payload_agcw_r_5_1 (c : Dev nD) (d : Bool) : (Rd (F := F) X).payload (dcell c (qR cc0_scratch7 5 1 inb_S15x2_S1x1_5_1)) 0 d = owns (c : Thread nD τ) (rows oM (off true (c.val + 10) 1) (off_inb true _ 1)) fullShare (doneV X true 1 (devAt c 10)) := rfl
theorem expect_agcw_r_5_1 (c : Dev nD) : (Rd (F := F) X).expect (dcell c (qR cc0_scratch7 5 1 inb_S15x2_S1x1_5_1)) 0 = N := by
  unfold Schedule.expect Schedule.amountOf; rw [duties_agcw_r_5_1, Finset.sum_singleton]; rfl
theorem duties_agcw_r_6_0 (c : Dev nD) : (Rd (F := F) X).duties (dcell c (qR cc0_scratch7 6 0 inb_S15x2_S1x1_6_0)) 0 = {false} := rfl
theorem amount_agcw_r_6_0 (c : Dev nD) (d : Bool) : (Rd (F := F) X).amount (dcell c (qR cc0_scratch7 6 0 inb_S15x2_S1x1_6_0)) 0 d = N := rfl
theorem payload_agcw_r_6_0 (c : Dev nD) (d : Bool) : (Rd (F := F) X).payload (dcell c (qR cc0_scratch7 6 0 inb_S15x2_S1x1_6_0)) 0 d = owns (c : Thread nD τ) (rows oM (off true (c.val + 9) 0) (off_inb true _ 0)) fullShare (doneV X true 0 (devAt c 9)) := rfl
theorem expect_agcw_r_6_0 (c : Dev nD) : (Rd (F := F) X).expect (dcell c (qR cc0_scratch7 6 0 inb_S15x2_S1x1_6_0)) 0 = N := by
  unfold Schedule.expect Schedule.amountOf; rw [duties_agcw_r_6_0, Finset.sum_singleton]; rfl
theorem duties_agcw_r_6_1 (c : Dev nD) : (Rd (F := F) X).duties (dcell c (qR cc0_scratch7 6 1 inb_S15x2_S1x1_6_1)) 0 = {false} := rfl
theorem amount_agcw_r_6_1 (c : Dev nD) (d : Bool) : (Rd (F := F) X).amount (dcell c (qR cc0_scratch7 6 1 inb_S15x2_S1x1_6_1)) 0 d = N := rfl
theorem payload_agcw_r_6_1 (c : Dev nD) (d : Bool) : (Rd (F := F) X).payload (dcell c (qR cc0_scratch7 6 1 inb_S15x2_S1x1_6_1)) 0 d = owns (c : Thread nD τ) (rows oM (off true (c.val + 9) 1) (off_inb true _ 1)) fullShare (doneV X true 1 (devAt c 9)) := rfl
theorem expect_agcw_r_6_1 (c : Dev nD) : (Rd (F := F) X).expect (dcell c (qR cc0_scratch7 6 1 inb_S15x2_S1x1_6_1)) 0 = N := by
  unfold Schedule.expect Schedule.amountOf; rw [duties_agcw_r_6_1, Finset.sum_singleton]; rfl
theorem duties_agcw_r_7_0 (c : Dev nD) : (Rd (F := F) X).duties (dcell c (qR cc0_scratch7 7 0 inb_S15x2_S1x1_7_0)) 0 = {false} := rfl
theorem amount_agcw_r_7_0 (c : Dev nD) (d : Bool) : (Rd (F := F) X).amount (dcell c (qR cc0_scratch7 7 0 inb_S15x2_S1x1_7_0)) 0 d = N := rfl
theorem payload_agcw_r_7_0 (c : Dev nD) (d : Bool) : (Rd (F := F) X).payload (dcell c (qR cc0_scratch7 7 0 inb_S15x2_S1x1_7_0)) 0 d = owns (c : Thread nD τ) (rows oM (off true (c.val + 8) 0) (off_inb true _ 0)) fullShare (doneV X true 0 (devAt c 8)) := rfl
theorem expect_agcw_r_7_0 (c : Dev nD) : (Rd (F := F) X).expect (dcell c (qR cc0_scratch7 7 0 inb_S15x2_S1x1_7_0)) 0 = N := by
  unfold Schedule.expect Schedule.amountOf; rw [duties_agcw_r_7_0, Finset.sum_singleton]; rfl
theorem duties_agcw_r_7_1 (c : Dev nD) : (Rd (F := F) X).duties (dcell c (qR cc0_scratch7 7 1 inb_S15x2_S1x1_7_1)) 0 = {false} := rfl
theorem amount_agcw_r_7_1 (c : Dev nD) (d : Bool) : (Rd (F := F) X).amount (dcell c (qR cc0_scratch7 7 1 inb_S15x2_S1x1_7_1)) 0 d = N := rfl
theorem payload_agcw_r_7_1 (c : Dev nD) (d : Bool) : (Rd (F := F) X).payload (dcell c (qR cc0_scratch7 7 1 inb_S15x2_S1x1_7_1)) 0 d = owns (c : Thread nD τ) (rows oM (off true (c.val + 8) 1) (off_inb true _ 1)) fullShare (doneV X true 1 (devAt c 8)) := rfl
theorem expect_agcw_r_7_1 (c : Dev nD) : (Rd (F := F) X).expect (dcell c (qR cc0_scratch7 7 1 inb_S15x2_S1x1_7_1)) 0 = N := by
  unfold Schedule.expect Schedule.amountOf; rw [duties_agcw_r_7_1, Finset.sum_singleton]; rfl
theorem duties_agcw_r_8_0 (c : Dev nD) : (Rd (F := F) X).duties (dcell c (qR cc0_scratch7 8 0 inb_S15x2_S1x1_8_0)) 0 = {false} := rfl
theorem amount_agcw_r_8_0 (c : Dev nD) (d : Bool) : (Rd (F := F) X).amount (dcell c (qR cc0_scratch7 8 0 inb_S15x2_S1x1_8_0)) 0 d = N := rfl
theorem payload_agcw_r_8_0 (c : Dev nD) (d : Bool) : (Rd (F := F) X).payload (dcell c (qR cc0_scratch7 8 0 inb_S15x2_S1x1_8_0)) 0 d = owns (c : Thread nD τ) (rows oM (off true (c.val + 7) 0) (off_inb true _ 0)) fullShare (doneV X true 0 (devAt c 7)) := rfl
theorem expect_agcw_r_8_0 (c : Dev nD) : (Rd (F := F) X).expect (dcell c (qR cc0_scratch7 8 0 inb_S15x2_S1x1_8_0)) 0 = N := by
  unfold Schedule.expect Schedule.amountOf; rw [duties_agcw_r_8_0, Finset.sum_singleton]; rfl
theorem duties_agcw_r_8_1 (c : Dev nD) : (Rd (F := F) X).duties (dcell c (qR cc0_scratch7 8 1 inb_S15x2_S1x1_8_1)) 0 = {false} := rfl
theorem amount_agcw_r_8_1 (c : Dev nD) (d : Bool) : (Rd (F := F) X).amount (dcell c (qR cc0_scratch7 8 1 inb_S15x2_S1x1_8_1)) 0 d = N := rfl
theorem payload_agcw_r_8_1 (c : Dev nD) (d : Bool) : (Rd (F := F) X).payload (dcell c (qR cc0_scratch7 8 1 inb_S15x2_S1x1_8_1)) 0 d = owns (c : Thread nD τ) (rows oM (off true (c.val + 7) 1) (off_inb true _ 1)) fullShare (doneV X true 1 (devAt c 7)) := rfl
theorem expect_agcw_r_8_1 (c : Dev nD) : (Rd (F := F) X).expect (dcell c (qR cc0_scratch7 8 1 inb_S15x2_S1x1_8_1)) 0 = N := by
  unfold Schedule.expect Schedule.amountOf; rw [duties_agcw_r_8_1, Finset.sum_singleton]; rfl
theorem duties_agcw_r_9_0 (c : Dev nD) : (Rd (F := F) X).duties (dcell c (qR cc0_scratch7 9 0 inb_S15x2_S1x1_9_0)) 0 = {false} := rfl
theorem amount_agcw_r_9_0 (c : Dev nD) (d : Bool) : (Rd (F := F) X).amount (dcell c (qR cc0_scratch7 9 0 inb_S15x2_S1x1_9_0)) 0 d = N := rfl
theorem payload_agcw_r_9_0 (c : Dev nD) (d : Bool) : (Rd (F := F) X).payload (dcell c (qR cc0_scratch7 9 0 inb_S15x2_S1x1_9_0)) 0 d = owns (c : Thread nD τ) (rows oM (off true (c.val + 6) 0) (off_inb true _ 0)) fullShare (doneV X true 0 (devAt c 6)) := rfl
theorem expect_agcw_r_9_0 (c : Dev nD) : (Rd (F := F) X).expect (dcell c (qR cc0_scratch7 9 0 inb_S15x2_S1x1_9_0)) 0 = N := by
  unfold Schedule.expect Schedule.amountOf; rw [duties_agcw_r_9_0, Finset.sum_singleton]; rfl
theorem duties_agcw_r_9_1 (c : Dev nD) : (Rd (F := F) X).duties (dcell c (qR cc0_scratch7 9 1 inb_S15x2_S1x1_9_1)) 0 = {false} := rfl
theorem amount_agcw_r_9_1 (c : Dev nD) (d : Bool) : (Rd (F := F) X).amount (dcell c (qR cc0_scratch7 9 1 inb_S15x2_S1x1_9_1)) 0 d = N := rfl
theorem payload_agcw_r_9_1 (c : Dev nD) (d : Bool) : (Rd (F := F) X).payload (dcell c (qR cc0_scratch7 9 1 inb_S15x2_S1x1_9_1)) 0 d = owns (c : Thread nD τ) (rows oM (off true (c.val + 6) 1) (off_inb true _ 1)) fullShare (doneV X true 1 (devAt c 6)) := rfl
theorem expect_agcw_r_9_1 (c : Dev nD) : (Rd (F := F) X).expect (dcell c (qR cc0_scratch7 9 1 inb_S15x2_S1x1_9_1)) 0 = N := by
  unfold Schedule.expect Schedule.amountOf; rw [duties_agcw_r_9_1, Finset.sum_singleton]; rfl
theorem duties_agcw_r_10_0 (c : Dev nD) : (Rd (F := F) X).duties (dcell c (qR cc0_scratch7 10 0 inb_S15x2_S1x1_10_0)) 0 = {false} := rfl
theorem amount_agcw_r_10_0 (c : Dev nD) (d : Bool) : (Rd (F := F) X).amount (dcell c (qR cc0_scratch7 10 0 inb_S15x2_S1x1_10_0)) 0 d = N := rfl
theorem payload_agcw_r_10_0 (c : Dev nD) (d : Bool) : (Rd (F := F) X).payload (dcell c (qR cc0_scratch7 10 0 inb_S15x2_S1x1_10_0)) 0 d = owns (c : Thread nD τ) (rows oM (off true (c.val + 5) 0) (off_inb true _ 0)) fullShare (doneV X true 0 (devAt c 5)) := rfl
theorem expect_agcw_r_10_0 (c : Dev nD) : (Rd (F := F) X).expect (dcell c (qR cc0_scratch7 10 0 inb_S15x2_S1x1_10_0)) 0 = N := by
  unfold Schedule.expect Schedule.amountOf; rw [duties_agcw_r_10_0, Finset.sum_singleton]; rfl
theorem duties_agcw_r_10_1 (c : Dev nD) : (Rd (F := F) X).duties (dcell c (qR cc0_scratch7 10 1 inb_S15x2_S1x1_10_1)) 0 = {false} := rfl
theorem amount_agcw_r_10_1 (c : Dev nD) (d : Bool) : (Rd (F := F) X).amount (dcell c (qR cc0_scratch7 10 1 inb_S15x2_S1x1_10_1)) 0 d = N := rfl
theorem payload_agcw_r_10_1 (c : Dev nD) (d : Bool) : (Rd (F := F) X).payload (dcell c (qR cc0_scratch7 10 1 inb_S15x2_S1x1_10_1)) 0 d = owns (c : Thread nD τ) (rows oM (off true (c.val + 5) 1) (off_inb true _ 1)) fullShare (doneV X true 1 (devAt c 5)) := rfl
theorem expect_agcw_r_10_1 (c : Dev nD) : (Rd (F := F) X).expect (dcell c (qR cc0_scratch7 10 1 inb_S15x2_S1x1_10_1)) 0 = N := by
  unfold Schedule.expect Schedule.amountOf; rw [duties_agcw_r_10_1, Finset.sum_singleton]; rfl
theorem duties_agcw_r_11_0 (c : Dev nD) : (Rd (F := F) X).duties (dcell c (qR cc0_scratch7 11 0 inb_S15x2_S1x1_11_0)) 0 = {false} := rfl
theorem amount_agcw_r_11_0 (c : Dev nD) (d : Bool) : (Rd (F := F) X).amount (dcell c (qR cc0_scratch7 11 0 inb_S15x2_S1x1_11_0)) 0 d = N := rfl
theorem payload_agcw_r_11_0 (c : Dev nD) (d : Bool) : (Rd (F := F) X).payload (dcell c (qR cc0_scratch7 11 0 inb_S15x2_S1x1_11_0)) 0 d = owns (c : Thread nD τ) (rows oM (off true (c.val + 4) 0) (off_inb true _ 0)) fullShare (doneV X true 0 (devAt c 4)) := rfl
theorem expect_agcw_r_11_0 (c : Dev nD) : (Rd (F := F) X).expect (dcell c (qR cc0_scratch7 11 0 inb_S15x2_S1x1_11_0)) 0 = N := by
  unfold Schedule.expect Schedule.amountOf; rw [duties_agcw_r_11_0, Finset.sum_singleton]; rfl
theorem duties_agcw_r_11_1 (c : Dev nD) : (Rd (F := F) X).duties (dcell c (qR cc0_scratch7 11 1 inb_S15x2_S1x1_11_1)) 0 = {false} := rfl
theorem amount_agcw_r_11_1 (c : Dev nD) (d : Bool) : (Rd (F := F) X).amount (dcell c (qR cc0_scratch7 11 1 inb_S15x2_S1x1_11_1)) 0 d = N := rfl
theorem payload_agcw_r_11_1 (c : Dev nD) (d : Bool) : (Rd (F := F) X).payload (dcell c (qR cc0_scratch7 11 1 inb_S15x2_S1x1_11_1)) 0 d = owns (c : Thread nD τ) (rows oM (off true (c.val + 4) 1) (off_inb true _ 1)) fullShare (doneV X true 1 (devAt c 4)) := rfl
theorem expect_agcw_r_11_1 (c : Dev nD) : (Rd (F := F) X).expect (dcell c (qR cc0_scratch7 11 1 inb_S15x2_S1x1_11_1)) 0 = N := by
  unfold Schedule.expect Schedule.amountOf; rw [duties_agcw_r_11_1, Finset.sum_singleton]; rfl
theorem duties_agcw_r_12_0 (c : Dev nD) : (Rd (F := F) X).duties (dcell c (qR cc0_scratch7 12 0 inb_S15x2_S1x1_12_0)) 0 = {false} := rfl
theorem amount_agcw_r_12_0 (c : Dev nD) (d : Bool) : (Rd (F := F) X).amount (dcell c (qR cc0_scratch7 12 0 inb_S15x2_S1x1_12_0)) 0 d = N := rfl
theorem payload_agcw_r_12_0 (c : Dev nD) (d : Bool) : (Rd (F := F) X).payload (dcell c (qR cc0_scratch7 12 0 inb_S15x2_S1x1_12_0)) 0 d = owns (c : Thread nD τ) (rows oM (off true (c.val + 3) 0) (off_inb true _ 0)) fullShare (doneV X true 0 (devAt c 3)) := rfl
theorem expect_agcw_r_12_0 (c : Dev nD) : (Rd (F := F) X).expect (dcell c (qR cc0_scratch7 12 0 inb_S15x2_S1x1_12_0)) 0 = N := by
  unfold Schedule.expect Schedule.amountOf; rw [duties_agcw_r_12_0, Finset.sum_singleton]; rfl
theorem duties_agcw_r_12_1 (c : Dev nD) : (Rd (F := F) X).duties (dcell c (qR cc0_scratch7 12 1 inb_S15x2_S1x1_12_1)) 0 = {false} := rfl
theorem amount_agcw_r_12_1 (c : Dev nD) (d : Bool) : (Rd (F := F) X).amount (dcell c (qR cc0_scratch7 12 1 inb_S15x2_S1x1_12_1)) 0 d = N := rfl
theorem payload_agcw_r_12_1 (c : Dev nD) (d : Bool) : (Rd (F := F) X).payload (dcell c (qR cc0_scratch7 12 1 inb_S15x2_S1x1_12_1)) 0 d = owns (c : Thread nD τ) (rows oM (off true (c.val + 3) 1) (off_inb true _ 1)) fullShare (doneV X true 1 (devAt c 3)) := rfl
theorem expect_agcw_r_12_1 (c : Dev nD) : (Rd (F := F) X).expect (dcell c (qR cc0_scratch7 12 1 inb_S15x2_S1x1_12_1)) 0 = N := by
  unfold Schedule.expect Schedule.amountOf; rw [duties_agcw_r_12_1, Finset.sum_singleton]; rfl
theorem duties_agcw_r_13_0 (c : Dev nD) : (Rd (F := F) X).duties (dcell c (qR cc0_scratch7 13 0 inb_S15x2_S1x1_13_0)) 0 = {false} := rfl
theorem amount_agcw_r_13_0 (c : Dev nD) (d : Bool) : (Rd (F := F) X).amount (dcell c (qR cc0_scratch7 13 0 inb_S15x2_S1x1_13_0)) 0 d = N := rfl
theorem payload_agcw_r_13_0 (c : Dev nD) (d : Bool) : (Rd (F := F) X).payload (dcell c (qR cc0_scratch7 13 0 inb_S15x2_S1x1_13_0)) 0 d = owns (c : Thread nD τ) (rows oM (off true (c.val + 2) 0) (off_inb true _ 0)) fullShare (doneV X true 0 (devAt c 2)) := rfl
theorem expect_agcw_r_13_0 (c : Dev nD) : (Rd (F := F) X).expect (dcell c (qR cc0_scratch7 13 0 inb_S15x2_S1x1_13_0)) 0 = N := by
  unfold Schedule.expect Schedule.amountOf; rw [duties_agcw_r_13_0, Finset.sum_singleton]; rfl
theorem duties_agcw_r_13_1 (c : Dev nD) : (Rd (F := F) X).duties (dcell c (qR cc0_scratch7 13 1 inb_S15x2_S1x1_13_1)) 0 = {false} := rfl
theorem amount_agcw_r_13_1 (c : Dev nD) (d : Bool) : (Rd (F := F) X).amount (dcell c (qR cc0_scratch7 13 1 inb_S15x2_S1x1_13_1)) 0 d = N := rfl
theorem payload_agcw_r_13_1 (c : Dev nD) (d : Bool) : (Rd (F := F) X).payload (dcell c (qR cc0_scratch7 13 1 inb_S15x2_S1x1_13_1)) 0 d = owns (c : Thread nD τ) (rows oM (off true (c.val + 2) 1) (off_inb true _ 1)) fullShare (doneV X true 1 (devAt c 2)) := rfl
theorem expect_agcw_r_13_1 (c : Dev nD) : (Rd (F := F) X).expect (dcell c (qR cc0_scratch7 13 1 inb_S15x2_S1x1_13_1)) 0 = N := by
  unfold Schedule.expect Schedule.amountOf; rw [duties_agcw_r_13_1, Finset.sum_singleton]; rfl
theorem duties_agcw_r_14_0 (c : Dev nD) : (Rd (F := F) X).duties (dcell c (qR cc0_scratch7 14 0 inb_S15x2_S1x1_14_0)) 0 = {false} := rfl
theorem amount_agcw_r_14_0 (c : Dev nD) (d : Bool) : (Rd (F := F) X).amount (dcell c (qR cc0_scratch7 14 0 inb_S15x2_S1x1_14_0)) 0 d = N := rfl
theorem payload_agcw_r_14_0 (c : Dev nD) (d : Bool) : (Rd (F := F) X).payload (dcell c (qR cc0_scratch7 14 0 inb_S15x2_S1x1_14_0)) 0 d = owns (c : Thread nD τ) (rows oM (off true (c.val + 1) 0) (off_inb true _ 0)) fullShare (doneV X true 0 (devAt c 1)) := rfl
theorem expect_agcw_r_14_0 (c : Dev nD) : (Rd (F := F) X).expect (dcell c (qR cc0_scratch7 14 0 inb_S15x2_S1x1_14_0)) 0 = N := by
  unfold Schedule.expect Schedule.amountOf; rw [duties_agcw_r_14_0, Finset.sum_singleton]; rfl
theorem duties_agcw_r_14_1 (c : Dev nD) : (Rd (F := F) X).duties (dcell c (qR cc0_scratch7 14 1 inb_S15x2_S1x1_14_1)) 0 = {false} := rfl
theorem amount_agcw_r_14_1 (c : Dev nD) (d : Bool) : (Rd (F := F) X).amount (dcell c (qR cc0_scratch7 14 1 inb_S15x2_S1x1_14_1)) 0 d = N := rfl
theorem payload_agcw_r_14_1 (c : Dev nD) (d : Bool) : (Rd (F := F) X).payload (dcell c (qR cc0_scratch7 14 1 inb_S15x2_S1x1_14_1)) 0 d = owns (c : Thread nD τ) (rows oM (off true (c.val + 1) 1) (off_inb true _ 1)) fullShare (doneV X true 1 (devAt c 1)) := rfl
theorem expect_agcw_r_14_1 (c : Dev nD) : (Rd (F := F) X).expect (dcell c (qR cc0_scratch7 14 1 inb_S15x2_S1x1_14_1)) 0 = N := by
  unfold Schedule.expect Schedule.amountOf; rw [duties_agcw_r_14_1, Finset.sum_singleton]; rfl
theorem duties_agcw_s_0_0 (c : Dev nD) : (Rd (F := F) X).duties (dcell c (qS cc0_scratch6 0 inb_S4_S1_0)) 0 = {false} := rfl
theorem amount_agcw_s_0_0 (c : Dev nD) (d : Bool) : (Rd (F := F) X).amount (dcell c (qS cc0_scratch6 0 inb_S4_S1_0)) 0 d = N := rfl
theorem payload_agcw_s_0_0 (c : Dev nD) (d : Bool) : (Rd (F := F) X).payload (dcell c (qS cc0_scratch6 0 inb_S4_S1_0)) 0 d = owns (c : Thread nD τ) (slot aM 14 0 inb_S15x128x1024_S1x64x1024_14_0_0) fullShare.right (addV X true 0 14 c) := rfl
theorem expect_agcw_s_0_0 (c : Dev nD) : (Rd (F := F) X).expect (dcell c (qS cc0_scratch6 0 inb_S4_S1_0)) 0 = N := by
  unfold Schedule.expect Schedule.amountOf; rw [duties_agcw_s_0_0, Finset.sum_singleton]; rfl
theorem duties_agcw_s_0_1 (c : Dev nD) : (Rd (F := F) X).duties (dcell c (qS cc0_scratch6 0 inb_S4_S1_0)) 1 = {false} := rfl
theorem amount_agcw_s_0_1 (c : Dev nD) (d : Bool) : (Rd (F := F) X).amount (dcell c (qS cc0_scratch6 0 inb_S4_S1_0)) 1 d = N := rfl
theorem payload_agcw_s_0_1 (c : Dev nD) (d : Bool) : (Rd (F := F) X).payload (dcell c (qS cc0_scratch6 0 inb_S4_S1_0)) 1 d = owns (c : Thread nD τ) (rows oM (off true (c.val + 14) 0) (off_inb true _ 0)) fullShare (doneV X true 0 (devAt c 14)) := rfl
theorem expect_agcw_s_0_1 (c : Dev nD) : (Rd (F := F) X).expect (dcell c (qS cc0_scratch6 0 inb_S4_S1_0)) 1 = N := by
  unfold Schedule.expect Schedule.amountOf; rw [duties_agcw_s_0_1, Finset.sum_singleton]; rfl
theorem duties_agcw_s_0_2 (c : Dev nD) : (Rd (F := F) X).duties (dcell c (qS cc0_scratch6 0 inb_S4_S1_0)) 2 = {false} := rfl
theorem amount_agcw_s_0_2 (c : Dev nD) (d : Bool) : (Rd (F := F) X).amount (dcell c (qS cc0_scratch6 0 inb_S4_S1_0)) 2 d = N := rfl
theorem payload_agcw_s_0_2 (c : Dev nD) (d : Bool) : (Rd (F := F) X).payload (dcell c (qS cc0_scratch6 0 inb_S4_S1_0)) 2 d = owns (c : Thread nD τ) (rows oM (off true (c.val + 12) 0) (off_inb true _ 0)) fullShare (doneV X true 0 (devAt c 12)) := rfl
theorem expect_agcw_s_0_2 (c : Dev nD) : (Rd (F := F) X).expect (dcell c (qS cc0_scratch6 0 inb_S4_S1_0)) 2 = N := by
  unfold Schedule.expect Schedule.amountOf; rw [duties_agcw_s_0_2, Finset.sum_singleton]; rfl
theorem duties_agcw_s_0_3 (c : Dev nD) : (Rd (F := F) X).duties (dcell c (qS cc0_scratch6 0 inb_S4_S1_0)) 3 = {false} := rfl
theorem amount_agcw_s_0_3 (c : Dev nD) (d : Bool) : (Rd (F := F) X).amount (dcell c (qS cc0_scratch6 0 inb_S4_S1_0)) 3 d = N := rfl
theorem payload_agcw_s_0_3 (c : Dev nD) (d : Bool) : (Rd (F := F) X).payload (dcell c (qS cc0_scratch6 0 inb_S4_S1_0)) 3 d = owns (c : Thread nD τ) (rows oM (off true (c.val + 10) 0) (off_inb true _ 0)) fullShare (doneV X true 0 (devAt c 10)) := rfl
theorem expect_agcw_s_0_3 (c : Dev nD) : (Rd (F := F) X).expect (dcell c (qS cc0_scratch6 0 inb_S4_S1_0)) 3 = N := by
  unfold Schedule.expect Schedule.amountOf; rw [duties_agcw_s_0_3, Finset.sum_singleton]; rfl
theorem duties_agcw_s_0_4 (c : Dev nD) : (Rd (F := F) X).duties (dcell c (qS cc0_scratch6 0 inb_S4_S1_0)) 4 = {false} := rfl
theorem amount_agcw_s_0_4 (c : Dev nD) (d : Bool) : (Rd (F := F) X).amount (dcell c (qS cc0_scratch6 0 inb_S4_S1_0)) 4 d = N := rfl
theorem payload_agcw_s_0_4 (c : Dev nD) (d : Bool) : (Rd (F := F) X).payload (dcell c (qS cc0_scratch6 0 inb_S4_S1_0)) 4 d = owns (c : Thread nD τ) (rows oM (off true (c.val + 8) 0) (off_inb true _ 0)) fullShare (doneV X true 0 (devAt c 8)) := rfl
theorem expect_agcw_s_0_4 (c : Dev nD) : (Rd (F := F) X).expect (dcell c (qS cc0_scratch6 0 inb_S4_S1_0)) 4 = N := by
  unfold Schedule.expect Schedule.amountOf; rw [duties_agcw_s_0_4, Finset.sum_singleton]; rfl
theorem duties_agcw_s_0_5 (c : Dev nD) : (Rd (F := F) X).duties (dcell c (qS cc0_scratch6 0 inb_S4_S1_0)) 5 = {false} := rfl
theorem amount_agcw_s_0_5 (c : Dev nD) (d : Bool) : (Rd (F := F) X).amount (dcell c (qS cc0_scratch6 0 inb_S4_S1_0)) 5 d = N := rfl
theorem payload_agcw_s_0_5 (c : Dev nD) (d : Bool) : (Rd (F := F) X).payload (dcell c (qS cc0_scratch6 0 inb_S4_S1_0)) 5 d = owns (c : Thread nD τ) (rows oM (off true (c.val + 6) 0) (off_inb true _ 0)) fullShare (doneV X true 0 (devAt c 6)) := rfl
theorem expect_agcw_s_0_5 (c : Dev nD) : (Rd (F := F) X).expect (dcell c (qS cc0_scratch6 0 inb_S4_S1_0)) 5 = N := by
  unfold Schedule.expect Schedule.amountOf; rw [duties_agcw_s_0_5, Finset.sum_singleton]; rfl
theorem duties_agcw_s_0_6 (c : Dev nD) : (Rd (F := F) X).duties (dcell c (qS cc0_scratch6 0 inb_S4_S1_0)) 6 = {false} := rfl
theorem amount_agcw_s_0_6 (c : Dev nD) (d : Bool) : (Rd (F := F) X).amount (dcell c (qS cc0_scratch6 0 inb_S4_S1_0)) 6 d = N := rfl
theorem payload_agcw_s_0_6 (c : Dev nD) (d : Bool) : (Rd (F := F) X).payload (dcell c (qS cc0_scratch6 0 inb_S4_S1_0)) 6 d = owns (c : Thread nD τ) (rows oM (off true (c.val + 4) 0) (off_inb true _ 0)) fullShare (doneV X true 0 (devAt c 4)) := rfl
theorem expect_agcw_s_0_6 (c : Dev nD) : (Rd (F := F) X).expect (dcell c (qS cc0_scratch6 0 inb_S4_S1_0)) 6 = N := by
  unfold Schedule.expect Schedule.amountOf; rw [duties_agcw_s_0_6, Finset.sum_singleton]; rfl
theorem duties_agcw_s_0_7 (c : Dev nD) : (Rd (F := F) X).duties (dcell c (qS cc0_scratch6 0 inb_S4_S1_0)) 7 = {false} := rfl
theorem amount_agcw_s_0_7 (c : Dev nD) (d : Bool) : (Rd (F := F) X).amount (dcell c (qS cc0_scratch6 0 inb_S4_S1_0)) 7 d = N := rfl
theorem payload_agcw_s_0_7 (c : Dev nD) (d : Bool) : (Rd (F := F) X).payload (dcell c (qS cc0_scratch6 0 inb_S4_S1_0)) 7 d = owns (c : Thread nD τ) (rows oM (off true (c.val + 2) 0) (off_inb true _ 0)) fullShare (doneV X true 0 (devAt c 2)) := rfl
theorem expect_agcw_s_0_7 (c : Dev nD) : (Rd (F := F) X).expect (dcell c (qS cc0_scratch6 0 inb_S4_S1_0)) 7 = N := by
  unfold Schedule.expect Schedule.amountOf; rw [duties_agcw_s_0_7, Finset.sum_singleton]; rfl
theorem later_agcw_s_0 (c : Dev nD) : ∀ r, 8 ≤ r → (Rd (F := F) X).duties (dcell c (qS cc0_scratch6 0 inb_S4_S1_0)) r = ∅ := fun r hr => by
  show (if r < 8 then ({false} : Finset Bool) else ∅) = ∅; exact if_neg (by omega)
theorem duties_agcw_s_1_0 (c : Dev nD) : (Rd (F := F) X).duties (dcell c (qS cc0_scratch6 1 inb_S4_S1_1)) 0 = {false} := rfl
theorem amount_agcw_s_1_0 (c : Dev nD) (d : Bool) : (Rd (F := F) X).amount (dcell c (qS cc0_scratch6 1 inb_S4_S1_1)) 0 d = N := rfl
theorem payload_agcw_s_1_0 (c : Dev nD) (d : Bool) : (Rd (F := F) X).payload (dcell c (qS cc0_scratch6 1 inb_S4_S1_1)) 0 d = owns (c : Thread nD τ) (slot aM 14 64 inb_S15x128x1024_S1x64x1024_14_64_0) fullShare.right (addV X true 1 14 c) := rfl
theorem expect_agcw_s_1_0 (c : Dev nD) : (Rd (F := F) X).expect (dcell c (qS cc0_scratch6 1 inb_S4_S1_1)) 0 = N := by
  unfold Schedule.expect Schedule.amountOf; rw [duties_agcw_s_1_0, Finset.sum_singleton]; rfl
theorem duties_agcw_s_1_1 (c : Dev nD) : (Rd (F := F) X).duties (dcell c (qS cc0_scratch6 1 inb_S4_S1_1)) 1 = {false} := rfl
theorem amount_agcw_s_1_1 (c : Dev nD) (d : Bool) : (Rd (F := F) X).amount (dcell c (qS cc0_scratch6 1 inb_S4_S1_1)) 1 d = N := rfl
theorem payload_agcw_s_1_1 (c : Dev nD) (d : Bool) : (Rd (F := F) X).payload (dcell c (qS cc0_scratch6 1 inb_S4_S1_1)) 1 d = owns (c : Thread nD τ) (rows oM (off true (c.val + 14) 1) (off_inb true _ 1)) fullShare (doneV X true 1 (devAt c 14)) := rfl
theorem expect_agcw_s_1_1 (c : Dev nD) : (Rd (F := F) X).expect (dcell c (qS cc0_scratch6 1 inb_S4_S1_1)) 1 = N := by
  unfold Schedule.expect Schedule.amountOf; rw [duties_agcw_s_1_1, Finset.sum_singleton]; rfl
theorem duties_agcw_s_1_2 (c : Dev nD) : (Rd (F := F) X).duties (dcell c (qS cc0_scratch6 1 inb_S4_S1_1)) 2 = {false} := rfl
theorem amount_agcw_s_1_2 (c : Dev nD) (d : Bool) : (Rd (F := F) X).amount (dcell c (qS cc0_scratch6 1 inb_S4_S1_1)) 2 d = N := rfl
theorem payload_agcw_s_1_2 (c : Dev nD) (d : Bool) : (Rd (F := F) X).payload (dcell c (qS cc0_scratch6 1 inb_S4_S1_1)) 2 d = owns (c : Thread nD τ) (rows oM (off true (c.val + 12) 1) (off_inb true _ 1)) fullShare (doneV X true 1 (devAt c 12)) := rfl
theorem expect_agcw_s_1_2 (c : Dev nD) : (Rd (F := F) X).expect (dcell c (qS cc0_scratch6 1 inb_S4_S1_1)) 2 = N := by
  unfold Schedule.expect Schedule.amountOf; rw [duties_agcw_s_1_2, Finset.sum_singleton]; rfl
theorem duties_agcw_s_1_3 (c : Dev nD) : (Rd (F := F) X).duties (dcell c (qS cc0_scratch6 1 inb_S4_S1_1)) 3 = {false} := rfl
theorem amount_agcw_s_1_3 (c : Dev nD) (d : Bool) : (Rd (F := F) X).amount (dcell c (qS cc0_scratch6 1 inb_S4_S1_1)) 3 d = N := rfl
theorem payload_agcw_s_1_3 (c : Dev nD) (d : Bool) : (Rd (F := F) X).payload (dcell c (qS cc0_scratch6 1 inb_S4_S1_1)) 3 d = owns (c : Thread nD τ) (rows oM (off true (c.val + 10) 1) (off_inb true _ 1)) fullShare (doneV X true 1 (devAt c 10)) := rfl
theorem expect_agcw_s_1_3 (c : Dev nD) : (Rd (F := F) X).expect (dcell c (qS cc0_scratch6 1 inb_S4_S1_1)) 3 = N := by
  unfold Schedule.expect Schedule.amountOf; rw [duties_agcw_s_1_3, Finset.sum_singleton]; rfl
theorem duties_agcw_s_1_4 (c : Dev nD) : (Rd (F := F) X).duties (dcell c (qS cc0_scratch6 1 inb_S4_S1_1)) 4 = {false} := rfl
theorem amount_agcw_s_1_4 (c : Dev nD) (d : Bool) : (Rd (F := F) X).amount (dcell c (qS cc0_scratch6 1 inb_S4_S1_1)) 4 d = N := rfl
theorem payload_agcw_s_1_4 (c : Dev nD) (d : Bool) : (Rd (F := F) X).payload (dcell c (qS cc0_scratch6 1 inb_S4_S1_1)) 4 d = owns (c : Thread nD τ) (rows oM (off true (c.val + 8) 1) (off_inb true _ 1)) fullShare (doneV X true 1 (devAt c 8)) := rfl
theorem expect_agcw_s_1_4 (c : Dev nD) : (Rd (F := F) X).expect (dcell c (qS cc0_scratch6 1 inb_S4_S1_1)) 4 = N := by
  unfold Schedule.expect Schedule.amountOf; rw [duties_agcw_s_1_4, Finset.sum_singleton]; rfl
theorem duties_agcw_s_1_5 (c : Dev nD) : (Rd (F := F) X).duties (dcell c (qS cc0_scratch6 1 inb_S4_S1_1)) 5 = {false} := rfl
theorem amount_agcw_s_1_5 (c : Dev nD) (d : Bool) : (Rd (F := F) X).amount (dcell c (qS cc0_scratch6 1 inb_S4_S1_1)) 5 d = N := rfl
theorem payload_agcw_s_1_5 (c : Dev nD) (d : Bool) : (Rd (F := F) X).payload (dcell c (qS cc0_scratch6 1 inb_S4_S1_1)) 5 d = owns (c : Thread nD τ) (rows oM (off true (c.val + 6) 1) (off_inb true _ 1)) fullShare (doneV X true 1 (devAt c 6)) := rfl
theorem expect_agcw_s_1_5 (c : Dev nD) : (Rd (F := F) X).expect (dcell c (qS cc0_scratch6 1 inb_S4_S1_1)) 5 = N := by
  unfold Schedule.expect Schedule.amountOf; rw [duties_agcw_s_1_5, Finset.sum_singleton]; rfl
theorem duties_agcw_s_1_6 (c : Dev nD) : (Rd (F := F) X).duties (dcell c (qS cc0_scratch6 1 inb_S4_S1_1)) 6 = {false} := rfl
theorem amount_agcw_s_1_6 (c : Dev nD) (d : Bool) : (Rd (F := F) X).amount (dcell c (qS cc0_scratch6 1 inb_S4_S1_1)) 6 d = N := rfl
theorem payload_agcw_s_1_6 (c : Dev nD) (d : Bool) : (Rd (F := F) X).payload (dcell c (qS cc0_scratch6 1 inb_S4_S1_1)) 6 d = owns (c : Thread nD τ) (rows oM (off true (c.val + 4) 1) (off_inb true _ 1)) fullShare (doneV X true 1 (devAt c 4)) := rfl
theorem expect_agcw_s_1_6 (c : Dev nD) : (Rd (F := F) X).expect (dcell c (qS cc0_scratch6 1 inb_S4_S1_1)) 6 = N := by
  unfold Schedule.expect Schedule.amountOf; rw [duties_agcw_s_1_6, Finset.sum_singleton]; rfl
theorem duties_agcw_s_1_7 (c : Dev nD) : (Rd (F := F) X).duties (dcell c (qS cc0_scratch6 1 inb_S4_S1_1)) 7 = {false} := rfl
theorem amount_agcw_s_1_7 (c : Dev nD) (d : Bool) : (Rd (F := F) X).amount (dcell c (qS cc0_scratch6 1 inb_S4_S1_1)) 7 d = N := rfl
theorem payload_agcw_s_1_7 (c : Dev nD) (d : Bool) : (Rd (F := F) X).payload (dcell c (qS cc0_scratch6 1 inb_S4_S1_1)) 7 d = owns (c : Thread nD τ) (rows oM (off true (c.val + 2) 1) (off_inb true _ 1)) fullShare (doneV X true 1 (devAt c 2)) := rfl
theorem expect_agcw_s_1_7 (c : Dev nD) : (Rd (F := F) X).expect (dcell c (qS cc0_scratch6 1 inb_S4_S1_1)) 7 = N := by
  unfold Schedule.expect Schedule.amountOf; rw [duties_agcw_s_1_7, Finset.sum_singleton]; rfl
theorem later_agcw_s_1 (c : Dev nD) : ∀ r, 8 ≤ r → (Rd (F := F) X).duties (dcell c (qS cc0_scratch6 1 inb_S4_S1_1)) r = ∅ := fun r hr => by
  show (if r < 8 then ({false} : Finset Bool) else ∅) = ∅; exact if_neg (by omega)
theorem duties_agcw_s_2_0 (c : Dev nD) : (Rd (F := F) X).duties (dcell c (qS cc0_scratch6 2 inb_S4_S1_2)) 0 = {false} := rfl
theorem amount_agcw_s_2_0 (c : Dev nD) (d : Bool) : (Rd (F := F) X).amount (dcell c (qS cc0_scratch6 2 inb_S4_S1_2)) 0 d = N := rfl
theorem payload_agcw_s_2_0 (c : Dev nD) (d : Bool) : (Rd (F := F) X).payload (dcell c (qS cc0_scratch6 2 inb_S4_S1_2)) 0 d = owns (c : Thread nD τ) (rows oM (off true (c.val + 15) 0) (off_inb true _ 0)) fullShare (doneV X true 0 (devAt c 15)) := rfl
theorem expect_agcw_s_2_0 (c : Dev nD) : (Rd (F := F) X).expect (dcell c (qS cc0_scratch6 2 inb_S4_S1_2)) 0 = N := by
  unfold Schedule.expect Schedule.amountOf; rw [duties_agcw_s_2_0, Finset.sum_singleton]; rfl
theorem duties_agcw_s_2_1 (c : Dev nD) : (Rd (F := F) X).duties (dcell c (qS cc0_scratch6 2 inb_S4_S1_2)) 1 = {false} := rfl
theorem amount_agcw_s_2_1 (c : Dev nD) (d : Bool) : (Rd (F := F) X).amount (dcell c (qS cc0_scratch6 2 inb_S4_S1_2)) 1 d = N := rfl
theorem payload_agcw_s_2_1 (c : Dev nD) (d : Bool) : (Rd (F := F) X).payload (dcell c (qS cc0_scratch6 2 inb_S4_S1_2)) 1 d = owns (c : Thread nD τ) (rows oM (off true (c.val + 13) 0) (off_inb true _ 0)) fullShare (doneV X true 0 (devAt c 13)) := rfl
theorem expect_agcw_s_2_1 (c : Dev nD) : (Rd (F := F) X).expect (dcell c (qS cc0_scratch6 2 inb_S4_S1_2)) 1 = N := by
  unfold Schedule.expect Schedule.amountOf; rw [duties_agcw_s_2_1, Finset.sum_singleton]; rfl
theorem duties_agcw_s_2_2 (c : Dev nD) : (Rd (F := F) X).duties (dcell c (qS cc0_scratch6 2 inb_S4_S1_2)) 2 = {false} := rfl
theorem amount_agcw_s_2_2 (c : Dev nD) (d : Bool) : (Rd (F := F) X).amount (dcell c (qS cc0_scratch6 2 inb_S4_S1_2)) 2 d = N := rfl
theorem payload_agcw_s_2_2 (c : Dev nD) (d : Bool) : (Rd (F := F) X).payload (dcell c (qS cc0_scratch6 2 inb_S4_S1_2)) 2 d = owns (c : Thread nD τ) (rows oM (off true (c.val + 11) 0) (off_inb true _ 0)) fullShare (doneV X true 0 (devAt c 11)) := rfl
theorem expect_agcw_s_2_2 (c : Dev nD) : (Rd (F := F) X).expect (dcell c (qS cc0_scratch6 2 inb_S4_S1_2)) 2 = N := by
  unfold Schedule.expect Schedule.amountOf; rw [duties_agcw_s_2_2, Finset.sum_singleton]; rfl
theorem duties_agcw_s_2_3 (c : Dev nD) : (Rd (F := F) X).duties (dcell c (qS cc0_scratch6 2 inb_S4_S1_2)) 3 = {false} := rfl
theorem amount_agcw_s_2_3 (c : Dev nD) (d : Bool) : (Rd (F := F) X).amount (dcell c (qS cc0_scratch6 2 inb_S4_S1_2)) 3 d = N := rfl
theorem payload_agcw_s_2_3 (c : Dev nD) (d : Bool) : (Rd (F := F) X).payload (dcell c (qS cc0_scratch6 2 inb_S4_S1_2)) 3 d = owns (c : Thread nD τ) (rows oM (off true (c.val + 9) 0) (off_inb true _ 0)) fullShare (doneV X true 0 (devAt c 9)) := rfl
theorem expect_agcw_s_2_3 (c : Dev nD) : (Rd (F := F) X).expect (dcell c (qS cc0_scratch6 2 inb_S4_S1_2)) 3 = N := by
  unfold Schedule.expect Schedule.amountOf; rw [duties_agcw_s_2_3, Finset.sum_singleton]; rfl
theorem duties_agcw_s_2_4 (c : Dev nD) : (Rd (F := F) X).duties (dcell c (qS cc0_scratch6 2 inb_S4_S1_2)) 4 = {false} := rfl
theorem amount_agcw_s_2_4 (c : Dev nD) (d : Bool) : (Rd (F := F) X).amount (dcell c (qS cc0_scratch6 2 inb_S4_S1_2)) 4 d = N := rfl
theorem payload_agcw_s_2_4 (c : Dev nD) (d : Bool) : (Rd (F := F) X).payload (dcell c (qS cc0_scratch6 2 inb_S4_S1_2)) 4 d = owns (c : Thread nD τ) (rows oM (off true (c.val + 7) 0) (off_inb true _ 0)) fullShare (doneV X true 0 (devAt c 7)) := rfl
theorem expect_agcw_s_2_4 (c : Dev nD) : (Rd (F := F) X).expect (dcell c (qS cc0_scratch6 2 inb_S4_S1_2)) 4 = N := by
  unfold Schedule.expect Schedule.amountOf; rw [duties_agcw_s_2_4, Finset.sum_singleton]; rfl
theorem duties_agcw_s_2_5 (c : Dev nD) : (Rd (F := F) X).duties (dcell c (qS cc0_scratch6 2 inb_S4_S1_2)) 5 = {false} := rfl
theorem amount_agcw_s_2_5 (c : Dev nD) (d : Bool) : (Rd (F := F) X).amount (dcell c (qS cc0_scratch6 2 inb_S4_S1_2)) 5 d = N := rfl
theorem payload_agcw_s_2_5 (c : Dev nD) (d : Bool) : (Rd (F := F) X).payload (dcell c (qS cc0_scratch6 2 inb_S4_S1_2)) 5 d = owns (c : Thread nD τ) (rows oM (off true (c.val + 5) 0) (off_inb true _ 0)) fullShare (doneV X true 0 (devAt c 5)) := rfl
theorem expect_agcw_s_2_5 (c : Dev nD) : (Rd (F := F) X).expect (dcell c (qS cc0_scratch6 2 inb_S4_S1_2)) 5 = N := by
  unfold Schedule.expect Schedule.amountOf; rw [duties_agcw_s_2_5, Finset.sum_singleton]; rfl
theorem duties_agcw_s_2_6 (c : Dev nD) : (Rd (F := F) X).duties (dcell c (qS cc0_scratch6 2 inb_S4_S1_2)) 6 = {false} := rfl
theorem amount_agcw_s_2_6 (c : Dev nD) (d : Bool) : (Rd (F := F) X).amount (dcell c (qS cc0_scratch6 2 inb_S4_S1_2)) 6 d = N := rfl
theorem payload_agcw_s_2_6 (c : Dev nD) (d : Bool) : (Rd (F := F) X).payload (dcell c (qS cc0_scratch6 2 inb_S4_S1_2)) 6 d = owns (c : Thread nD τ) (rows oM (off true (c.val + 3) 0) (off_inb true _ 0)) fullShare (doneV X true 0 (devAt c 3)) := rfl
theorem expect_agcw_s_2_6 (c : Dev nD) : (Rd (F := F) X).expect (dcell c (qS cc0_scratch6 2 inb_S4_S1_2)) 6 = N := by
  unfold Schedule.expect Schedule.amountOf; rw [duties_agcw_s_2_6, Finset.sum_singleton]; rfl
theorem later_agcw_s_2 (c : Dev nD) : ∀ r, 7 ≤ r → (Rd (F := F) X).duties (dcell c (qS cc0_scratch6 2 inb_S4_S1_2)) r = ∅ := fun r hr => by
  show (if r < 7 then ({false} : Finset Bool) else ∅) = ∅; exact if_neg (by omega)
theorem duties_agcw_s_3_0 (c : Dev nD) : (Rd (F := F) X).duties (dcell c (qS cc0_scratch6 3 inb_S4_S1_3)) 0 = {false} := rfl
theorem amount_agcw_s_3_0 (c : Dev nD) (d : Bool) : (Rd (F := F) X).amount (dcell c (qS cc0_scratch6 3 inb_S4_S1_3)) 0 d = N := rfl
theorem payload_agcw_s_3_0 (c : Dev nD) (d : Bool) : (Rd (F := F) X).payload (dcell c (qS cc0_scratch6 3 inb_S4_S1_3)) 0 d = owns (c : Thread nD τ) (rows oM (off true (c.val + 15) 1) (off_inb true _ 1)) fullShare (doneV X true 1 (devAt c 15)) := rfl
theorem expect_agcw_s_3_0 (c : Dev nD) : (Rd (F := F) X).expect (dcell c (qS cc0_scratch6 3 inb_S4_S1_3)) 0 = N := by
  unfold Schedule.expect Schedule.amountOf; rw [duties_agcw_s_3_0, Finset.sum_singleton]; rfl
theorem duties_agcw_s_3_1 (c : Dev nD) : (Rd (F := F) X).duties (dcell c (qS cc0_scratch6 3 inb_S4_S1_3)) 1 = {false} := rfl
theorem amount_agcw_s_3_1 (c : Dev nD) (d : Bool) : (Rd (F := F) X).amount (dcell c (qS cc0_scratch6 3 inb_S4_S1_3)) 1 d = N := rfl
theorem payload_agcw_s_3_1 (c : Dev nD) (d : Bool) : (Rd (F := F) X).payload (dcell c (qS cc0_scratch6 3 inb_S4_S1_3)) 1 d = owns (c : Thread nD τ) (rows oM (off true (c.val + 13) 1) (off_inb true _ 1)) fullShare (doneV X true 1 (devAt c 13)) := rfl
theorem expect_agcw_s_3_1 (c : Dev nD) : (Rd (F := F) X).expect (dcell c (qS cc0_scratch6 3 inb_S4_S1_3)) 1 = N := by
  unfold Schedule.expect Schedule.amountOf; rw [duties_agcw_s_3_1, Finset.sum_singleton]; rfl
theorem duties_agcw_s_3_2 (c : Dev nD) : (Rd (F := F) X).duties (dcell c (qS cc0_scratch6 3 inb_S4_S1_3)) 2 = {false} := rfl
theorem amount_agcw_s_3_2 (c : Dev nD) (d : Bool) : (Rd (F := F) X).amount (dcell c (qS cc0_scratch6 3 inb_S4_S1_3)) 2 d = N := rfl
theorem payload_agcw_s_3_2 (c : Dev nD) (d : Bool) : (Rd (F := F) X).payload (dcell c (qS cc0_scratch6 3 inb_S4_S1_3)) 2 d = owns (c : Thread nD τ) (rows oM (off true (c.val + 11) 1) (off_inb true _ 1)) fullShare (doneV X true 1 (devAt c 11)) := rfl
theorem expect_agcw_s_3_2 (c : Dev nD) : (Rd (F := F) X).expect (dcell c (qS cc0_scratch6 3 inb_S4_S1_3)) 2 = N := by
  unfold Schedule.expect Schedule.amountOf; rw [duties_agcw_s_3_2, Finset.sum_singleton]; rfl
theorem duties_agcw_s_3_3 (c : Dev nD) : (Rd (F := F) X).duties (dcell c (qS cc0_scratch6 3 inb_S4_S1_3)) 3 = {false} := rfl
theorem amount_agcw_s_3_3 (c : Dev nD) (d : Bool) : (Rd (F := F) X).amount (dcell c (qS cc0_scratch6 3 inb_S4_S1_3)) 3 d = N := rfl
theorem payload_agcw_s_3_3 (c : Dev nD) (d : Bool) : (Rd (F := F) X).payload (dcell c (qS cc0_scratch6 3 inb_S4_S1_3)) 3 d = owns (c : Thread nD τ) (rows oM (off true (c.val + 9) 1) (off_inb true _ 1)) fullShare (doneV X true 1 (devAt c 9)) := rfl
theorem expect_agcw_s_3_3 (c : Dev nD) : (Rd (F := F) X).expect (dcell c (qS cc0_scratch6 3 inb_S4_S1_3)) 3 = N := by
  unfold Schedule.expect Schedule.amountOf; rw [duties_agcw_s_3_3, Finset.sum_singleton]; rfl
theorem duties_agcw_s_3_4 (c : Dev nD) : (Rd (F := F) X).duties (dcell c (qS cc0_scratch6 3 inb_S4_S1_3)) 4 = {false} := rfl
theorem amount_agcw_s_3_4 (c : Dev nD) (d : Bool) : (Rd (F := F) X).amount (dcell c (qS cc0_scratch6 3 inb_S4_S1_3)) 4 d = N := rfl
theorem payload_agcw_s_3_4 (c : Dev nD) (d : Bool) : (Rd (F := F) X).payload (dcell c (qS cc0_scratch6 3 inb_S4_S1_3)) 4 d = owns (c : Thread nD τ) (rows oM (off true (c.val + 7) 1) (off_inb true _ 1)) fullShare (doneV X true 1 (devAt c 7)) := rfl
theorem expect_agcw_s_3_4 (c : Dev nD) : (Rd (F := F) X).expect (dcell c (qS cc0_scratch6 3 inb_S4_S1_3)) 4 = N := by
  unfold Schedule.expect Schedule.amountOf; rw [duties_agcw_s_3_4, Finset.sum_singleton]; rfl
theorem duties_agcw_s_3_5 (c : Dev nD) : (Rd (F := F) X).duties (dcell c (qS cc0_scratch6 3 inb_S4_S1_3)) 5 = {false} := rfl
theorem amount_agcw_s_3_5 (c : Dev nD) (d : Bool) : (Rd (F := F) X).amount (dcell c (qS cc0_scratch6 3 inb_S4_S1_3)) 5 d = N := rfl
theorem payload_agcw_s_3_5 (c : Dev nD) (d : Bool) : (Rd (F := F) X).payload (dcell c (qS cc0_scratch6 3 inb_S4_S1_3)) 5 d = owns (c : Thread nD τ) (rows oM (off true (c.val + 5) 1) (off_inb true _ 1)) fullShare (doneV X true 1 (devAt c 5)) := rfl
theorem expect_agcw_s_3_5 (c : Dev nD) : (Rd (F := F) X).expect (dcell c (qS cc0_scratch6 3 inb_S4_S1_3)) 5 = N := by
  unfold Schedule.expect Schedule.amountOf; rw [duties_agcw_s_3_5, Finset.sum_singleton]; rfl
theorem duties_agcw_s_3_6 (c : Dev nD) : (Rd (F := F) X).duties (dcell c (qS cc0_scratch6 3 inb_S4_S1_3)) 6 = {false} := rfl
theorem amount_agcw_s_3_6 (c : Dev nD) (d : Bool) : (Rd (F := F) X).amount (dcell c (qS cc0_scratch6 3 inb_S4_S1_3)) 6 d = N := rfl
theorem payload_agcw_s_3_6 (c : Dev nD) (d : Bool) : (Rd (F := F) X).payload (dcell c (qS cc0_scratch6 3 inb_S4_S1_3)) 6 d = owns (c : Thread nD τ) (rows oM (off true (c.val + 3) 1) (off_inb true _ 1)) fullShare (doneV X true 1 (devAt c 3)) := rfl
theorem expect_agcw_s_3_6 (c : Dev nD) : (Rd (F := F) X).expect (dcell c (qS cc0_scratch6 3 inb_S4_S1_3)) 6 = N := by
  unfold Schedule.expect Schedule.amountOf; rw [duties_agcw_s_3_6, Finset.sum_singleton]; rfl
theorem later_agcw_s_3 (c : Dev nD) : ∀ r, 7 ≤ r → (Rd (F := F) X).duties (dcell c (qS cc0_scratch6 3 inb_S4_S1_3)) r = ∅ := fun r hr => by
  show (if r < 7 then ({false} : Finset Bool) else ∅) = ∅; exact if_neg (by omega)
theorem later_agcw_r_0_0 (c : Dev nD) : ∀ r, 1 ≤ r → (Rd (F := F) X).duties (dcell c (qR cc0_scratch7 0 0 inb_S15x2_S1x1_0_0)) r = ∅ := fun r hr => by
  show (if r = 0 then ({false} : Finset Bool) else ∅) = ∅; exact if_neg (by omega)
theorem later_agcw_r_0_1 (c : Dev nD) : ∀ r, 1 ≤ r → (Rd (F := F) X).duties (dcell c (qR cc0_scratch7 0 1 inb_S15x2_S1x1_0_1)) r = ∅ := fun r hr => by
  show (if r = 0 then ({false} : Finset Bool) else ∅) = ∅; exact if_neg (by omega)
theorem later_agcw_r_1_0 (c : Dev nD) : ∀ r, 1 ≤ r → (Rd (F := F) X).duties (dcell c (qR cc0_scratch7 1 0 inb_S15x2_S1x1_1_0)) r = ∅ := fun r hr => by
  show (if r = 0 then ({false} : Finset Bool) else ∅) = ∅; exact if_neg (by omega)
theorem later_agcw_r_1_1 (c : Dev nD) : ∀ r, 1 ≤ r → (Rd (F := F) X).duties (dcell c (qR cc0_scratch7 1 1 inb_S15x2_S1x1_1_1)) r = ∅ := fun r hr => by
  show (if r = 0 then ({false} : Finset Bool) else ∅) = ∅; exact if_neg (by omega)
theorem later_agcw_r_2_0 (c : Dev nD) : ∀ r, 1 ≤ r → (Rd (F := F) X).duties (dcell c (qR cc0_scratch7 2 0 inb_S15x2_S1x1_2_0)) r = ∅ := fun r hr => by
  show (if r = 0 then ({false} : Finset Bool) else ∅) = ∅; exact if_neg (by omega)
theorem later_agcw_r_2_1 (c : Dev nD) : ∀ r, 1 ≤ r → (Rd (F := F) X).duties (dcell c (qR cc0_scratch7 2 1 inb_S15x2_S1x1_2_1)) r = ∅ := fun r hr => by
  show (if r = 0 then ({false} : Finset Bool) else ∅) = ∅; exact if_neg (by omega)
theorem later_agcw_r_3_0 (c : Dev nD) : ∀ r, 1 ≤ r → (Rd (F := F) X).duties (dcell c (qR cc0_scratch7 3 0 inb_S15x2_S1x1_3_0)) r = ∅ := fun r hr => by
  show (if r = 0 then ({false} : Finset Bool) else ∅) = ∅; exact if_neg (by omega)
theorem later_agcw_r_3_1 (c : Dev nD) : ∀ r, 1 ≤ r → (Rd (F := F) X).duties (dcell c (qR cc0_scratch7 3 1 inb_S15x2_S1x1_3_1)) r = ∅ := fun r hr => by
  show (if r = 0 then ({false} : Finset Bool) else ∅) = ∅; exact if_neg (by omega)
theorem later_agcw_r_4_0 (c : Dev nD) : ∀ r, 1 ≤ r → (Rd (F := F) X).duties (dcell c (qR cc0_scratch7 4 0 inb_S15x2_S1x1_4_0)) r = ∅ := fun r hr => by
  show (if r = 0 then ({false} : Finset Bool) else ∅) = ∅; exact if_neg (by omega)
theorem later_agcw_r_4_1 (c : Dev nD) : ∀ r, 1 ≤ r → (Rd (F := F) X).duties (dcell c (qR cc0_scratch7 4 1 inb_S15x2_S1x1_4_1)) r = ∅ := fun r hr => by
  show (if r = 0 then ({false} : Finset Bool) else ∅) = ∅; exact if_neg (by omega)
theorem later_agcw_r_5_0 (c : Dev nD) : ∀ r, 1 ≤ r → (Rd (F := F) X).duties (dcell c (qR cc0_scratch7 5 0 inb_S15x2_S1x1_5_0)) r = ∅ := fun r hr => by
  show (if r = 0 then ({false} : Finset Bool) else ∅) = ∅; exact if_neg (by omega)
theorem later_agcw_r_5_1 (c : Dev nD) : ∀ r, 1 ≤ r → (Rd (F := F) X).duties (dcell c (qR cc0_scratch7 5 1 inb_S15x2_S1x1_5_1)) r = ∅ := fun r hr => by
  show (if r = 0 then ({false} : Finset Bool) else ∅) = ∅; exact if_neg (by omega)
theorem later_agcw_r_6_0 (c : Dev nD) : ∀ r, 1 ≤ r → (Rd (F := F) X).duties (dcell c (qR cc0_scratch7 6 0 inb_S15x2_S1x1_6_0)) r = ∅ := fun r hr => by
  show (if r = 0 then ({false} : Finset Bool) else ∅) = ∅; exact if_neg (by omega)
theorem later_agcw_r_6_1 (c : Dev nD) : ∀ r, 1 ≤ r → (Rd (F := F) X).duties (dcell c (qR cc0_scratch7 6 1 inb_S15x2_S1x1_6_1)) r = ∅ := fun r hr => by
  show (if r = 0 then ({false} : Finset Bool) else ∅) = ∅; exact if_neg (by omega)
theorem later_agcw_r_7_0 (c : Dev nD) : ∀ r, 1 ≤ r → (Rd (F := F) X).duties (dcell c (qR cc0_scratch7 7 0 inb_S15x2_S1x1_7_0)) r = ∅ := fun r hr => by
  show (if r = 0 then ({false} : Finset Bool) else ∅) = ∅; exact if_neg (by omega)
theorem later_agcw_r_7_1 (c : Dev nD) : ∀ r, 1 ≤ r → (Rd (F := F) X).duties (dcell c (qR cc0_scratch7 7 1 inb_S15x2_S1x1_7_1)) r = ∅ := fun r hr => by
  show (if r = 0 then ({false} : Finset Bool) else ∅) = ∅; exact if_neg (by omega)
theorem later_agcw_r_8_0 (c : Dev nD) : ∀ r, 1 ≤ r → (Rd (F := F) X).duties (dcell c (qR cc0_scratch7 8 0 inb_S15x2_S1x1_8_0)) r = ∅ := fun r hr => by
  show (if r = 0 then ({false} : Finset Bool) else ∅) = ∅; exact if_neg (by omega)
theorem later_agcw_r_8_1 (c : Dev nD) : ∀ r, 1 ≤ r → (Rd (F := F) X).duties (dcell c (qR cc0_scratch7 8 1 inb_S15x2_S1x1_8_1)) r = ∅ := fun r hr => by
  show (if r = 0 then ({false} : Finset Bool) else ∅) = ∅; exact if_neg (by omega)
theorem later_agcw_r_9_0 (c : Dev nD) : ∀ r, 1 ≤ r → (Rd (F := F) X).duties (dcell c (qR cc0_scratch7 9 0 inb_S15x2_S1x1_9_0)) r = ∅ := fun r hr => by
  show (if r = 0 then ({false} : Finset Bool) else ∅) = ∅; exact if_neg (by omega)
theorem later_agcw_r_9_1 (c : Dev nD) : ∀ r, 1 ≤ r → (Rd (F := F) X).duties (dcell c (qR cc0_scratch7 9 1 inb_S15x2_S1x1_9_1)) r = ∅ := fun r hr => by
  show (if r = 0 then ({false} : Finset Bool) else ∅) = ∅; exact if_neg (by omega)
theorem later_agcw_r_10_0 (c : Dev nD) : ∀ r, 1 ≤ r → (Rd (F := F) X).duties (dcell c (qR cc0_scratch7 10 0 inb_S15x2_S1x1_10_0)) r = ∅ := fun r hr => by
  show (if r = 0 then ({false} : Finset Bool) else ∅) = ∅; exact if_neg (by omega)
theorem later_agcw_r_10_1 (c : Dev nD) : ∀ r, 1 ≤ r → (Rd (F := F) X).duties (dcell c (qR cc0_scratch7 10 1 inb_S15x2_S1x1_10_1)) r = ∅ := fun r hr => by
  show (if r = 0 then ({false} : Finset Bool) else ∅) = ∅; exact if_neg (by omega)
theorem later_agcw_r_11_0 (c : Dev nD) : ∀ r, 1 ≤ r → (Rd (F := F) X).duties (dcell c (qR cc0_scratch7 11 0 inb_S15x2_S1x1_11_0)) r = ∅ := fun r hr => by
  show (if r = 0 then ({false} : Finset Bool) else ∅) = ∅; exact if_neg (by omega)
theorem later_agcw_r_11_1 (c : Dev nD) : ∀ r, 1 ≤ r → (Rd (F := F) X).duties (dcell c (qR cc0_scratch7 11 1 inb_S15x2_S1x1_11_1)) r = ∅ := fun r hr => by
  show (if r = 0 then ({false} : Finset Bool) else ∅) = ∅; exact if_neg (by omega)
theorem later_agcw_r_12_0 (c : Dev nD) : ∀ r, 1 ≤ r → (Rd (F := F) X).duties (dcell c (qR cc0_scratch7 12 0 inb_S15x2_S1x1_12_0)) r = ∅ := fun r hr => by
  show (if r = 0 then ({false} : Finset Bool) else ∅) = ∅; exact if_neg (by omega)
theorem later_agcw_r_12_1 (c : Dev nD) : ∀ r, 1 ≤ r → (Rd (F := F) X).duties (dcell c (qR cc0_scratch7 12 1 inb_S15x2_S1x1_12_1)) r = ∅ := fun r hr => by
  show (if r = 0 then ({false} : Finset Bool) else ∅) = ∅; exact if_neg (by omega)
theorem later_agcw_r_13_0 (c : Dev nD) : ∀ r, 1 ≤ r → (Rd (F := F) X).duties (dcell c (qR cc0_scratch7 13 0 inb_S15x2_S1x1_13_0)) r = ∅ := fun r hr => by
  show (if r = 0 then ({false} : Finset Bool) else ∅) = ∅; exact if_neg (by omega)
theorem later_agcw_r_13_1 (c : Dev nD) : ∀ r, 1 ≤ r → (Rd (F := F) X).duties (dcell c (qR cc0_scratch7 13 1 inb_S15x2_S1x1_13_1)) r = ∅ := fun r hr => by
  show (if r = 0 then ({false} : Finset Bool) else ∅) = ∅; exact if_neg (by omega)
theorem later_agcw_r_14_0 (c : Dev nD) : ∀ r, 1 ≤ r → (Rd (F := F) X).duties (dcell c (qR cc0_scratch7 14 0 inb_S15x2_S1x1_14_0)) r = ∅ := fun r hr => by
  show (if r = 0 then ({false} : Finset Bool) else ∅) = ∅; exact if_neg (by omega)
theorem later_agcw_r_14_1 (c : Dev nD) : ∀ r, 1 ≤ r → (Rd (F := F) X).duties (dcell c (qR cc0_scratch7 14 1 inb_S15x2_S1x1_14_1)) r = ∅ := fun r hr => by
  show (if r = 0 then ({false} : Finset Bool) else ∅) = ∅; exact if_neg (by omega)
theorem duties_agccw_r_0_0 (c : Dev nD) : (Rd (F := F) X).duties (dcell c (qR cc0_scratch9 0 0 inb_S15x2_S1x1_0_0)) 0 = {false} := rfl
theorem amount_agccw_r_0_0 (c : Dev nD) (d : Bool) : (Rd (F := F) X).amount (dcell c (qR cc0_scratch9 0 0 inb_S15x2_S1x1_0_0)) 0 d = N := rfl
theorem payload_agccw_r_0_0 (c : Dev nD) (d : Bool) : (Rd (F := F) X).payload (dcell c (qR cc0_scratch9 0 0 inb_S15x2_S1x1_0_0)) 0 d = owns (c : Thread nD τ) (rows oM (off false (c.val + 1) 0) (off_inb false _ 0)) fullShare (doneV X false 0 (devAt c 1)) := rfl
theorem expect_agccw_r_0_0 (c : Dev nD) : (Rd (F := F) X).expect (dcell c (qR cc0_scratch9 0 0 inb_S15x2_S1x1_0_0)) 0 = N := by
  unfold Schedule.expect Schedule.amountOf; rw [duties_agccw_r_0_0, Finset.sum_singleton]; rfl
theorem duties_agccw_r_0_1 (c : Dev nD) : (Rd (F := F) X).duties (dcell c (qR cc0_scratch9 0 1 inb_S15x2_S1x1_0_1)) 0 = {false} := rfl
theorem amount_agccw_r_0_1 (c : Dev nD) (d : Bool) : (Rd (F := F) X).amount (dcell c (qR cc0_scratch9 0 1 inb_S15x2_S1x1_0_1)) 0 d = N := rfl
theorem payload_agccw_r_0_1 (c : Dev nD) (d : Bool) : (Rd (F := F) X).payload (dcell c (qR cc0_scratch9 0 1 inb_S15x2_S1x1_0_1)) 0 d = owns (c : Thread nD τ) (rows oM (off false (c.val + 1) 1) (off_inb false _ 1)) fullShare (doneV X false 1 (devAt c 1)) := rfl
theorem expect_agccw_r_0_1 (c : Dev nD) : (Rd (F := F) X).expect (dcell c (qR cc0_scratch9 0 1 inb_S15x2_S1x1_0_1)) 0 = N := by
  unfold Schedule.expect Schedule.amountOf; rw [duties_agccw_r_0_1, Finset.sum_singleton]; rfl
theorem duties_agccw_r_1_0 (c : Dev nD) : (Rd (F := F) X).duties (dcell c (qR cc0_scratch9 1 0 inb_S15x2_S1x1_1_0)) 0 = {false} := rfl
theorem amount_agccw_r_1_0 (c : Dev nD) (d : Bool) : (Rd (F := F) X).amount (dcell c (qR cc0_scratch9 1 0 inb_S15x2_S1x1_1_0)) 0 d = N := rfl
theorem payload_agccw_r_1_0 (c : Dev nD) (d : Bool) : (Rd (F := F) X).payload (dcell c (qR cc0_scratch9 1 0 inb_S15x2_S1x1_1_0)) 0 d = owns (c : Thread nD τ) (rows oM (off false (c.val + 2) 0) (off_inb false _ 0)) fullShare (doneV X false 0 (devAt c 2)) := rfl
theorem expect_agccw_r_1_0 (c : Dev nD) : (Rd (F := F) X).expect (dcell c (qR cc0_scratch9 1 0 inb_S15x2_S1x1_1_0)) 0 = N := by
  unfold Schedule.expect Schedule.amountOf; rw [duties_agccw_r_1_0, Finset.sum_singleton]; rfl
theorem duties_agccw_r_1_1 (c : Dev nD) : (Rd (F := F) X).duties (dcell c (qR cc0_scratch9 1 1 inb_S15x2_S1x1_1_1)) 0 = {false} := rfl
theorem amount_agccw_r_1_1 (c : Dev nD) (d : Bool) : (Rd (F := F) X).amount (dcell c (qR cc0_scratch9 1 1 inb_S15x2_S1x1_1_1)) 0 d = N := rfl
theorem payload_agccw_r_1_1 (c : Dev nD) (d : Bool) : (Rd (F := F) X).payload (dcell c (qR cc0_scratch9 1 1 inb_S15x2_S1x1_1_1)) 0 d = owns (c : Thread nD τ) (rows oM (off false (c.val + 2) 1) (off_inb false _ 1)) fullShare (doneV X false 1 (devAt c 2)) := rfl
theorem expect_agccw_r_1_1 (c : Dev nD) : (Rd (F := F) X).expect (dcell c (qR cc0_scratch9 1 1 inb_S15x2_S1x1_1_1)) 0 = N := by
  unfold Schedule.expect Schedule.amountOf; rw [duties_agccw_r_1_1, Finset.sum_singleton]; rfl
theorem duties_agccw_r_2_0 (c : Dev nD) : (Rd (F := F) X).duties (dcell c (qR cc0_scratch9 2 0 inb_S15x2_S1x1_2_0)) 0 = {false} := rfl
theorem amount_agccw_r_2_0 (c : Dev nD) (d : Bool) : (Rd (F := F) X).amount (dcell c (qR cc0_scratch9 2 0 inb_S15x2_S1x1_2_0)) 0 d = N := rfl
theorem payload_agccw_r_2_0 (c : Dev nD) (d : Bool) : (Rd (F := F) X).payload (dcell c (qR cc0_scratch9 2 0 inb_S15x2_S1x1_2_0)) 0 d = owns (c : Thread nD τ) (rows oM (off false (c.val + 3) 0) (off_inb false _ 0)) fullShare (doneV X false 0 (devAt c 3)) := rfl
theorem expect_agccw_r_2_0 (c : Dev nD) : (Rd (F := F) X).expect (dcell c (qR cc0_scratch9 2 0 inb_S15x2_S1x1_2_0)) 0 = N := by
  unfold Schedule.expect Schedule.amountOf; rw [duties_agccw_r_2_0, Finset.sum_singleton]; rfl
theorem duties_agccw_r_2_1 (c : Dev nD) : (Rd (F := F) X).duties (dcell c (qR cc0_scratch9 2 1 inb_S15x2_S1x1_2_1)) 0 = {false} := rfl
theorem amount_agccw_r_2_1 (c : Dev nD) (d : Bool) : (Rd (F := F) X).amount (dcell c (qR cc0_scratch9 2 1 inb_S15x2_S1x1_2_1)) 0 d = N := rfl
theorem payload_agccw_r_2_1 (c : Dev nD) (d : Bool) : (Rd (F := F) X).payload (dcell c (qR cc0_scratch9 2 1 inb_S15x2_S1x1_2_1)) 0 d = owns (c : Thread nD τ) (rows oM (off false (c.val + 3) 1) (off_inb false _ 1)) fullShare (doneV X false 1 (devAt c 3)) := rfl
theorem expect_agccw_r_2_1 (c : Dev nD) : (Rd (F := F) X).expect (dcell c (qR cc0_scratch9 2 1 inb_S15x2_S1x1_2_1)) 0 = N := by
  unfold Schedule.expect Schedule.amountOf; rw [duties_agccw_r_2_1, Finset.sum_singleton]; rfl
theorem duties_agccw_r_3_0 (c : Dev nD) : (Rd (F := F) X).duties (dcell c (qR cc0_scratch9 3 0 inb_S15x2_S1x1_3_0)) 0 = {false} := rfl
theorem amount_agccw_r_3_0 (c : Dev nD) (d : Bool) : (Rd (F := F) X).amount (dcell c (qR cc0_scratch9 3 0 inb_S15x2_S1x1_3_0)) 0 d = N := rfl
theorem payload_agccw_r_3_0 (c : Dev nD) (d : Bool) : (Rd (F := F) X).payload (dcell c (qR cc0_scratch9 3 0 inb_S15x2_S1x1_3_0)) 0 d = owns (c : Thread nD τ) (rows oM (off false (c.val + 4) 0) (off_inb false _ 0)) fullShare (doneV X false 0 (devAt c 4)) := rfl
theorem expect_agccw_r_3_0 (c : Dev nD) : (Rd (F := F) X).expect (dcell c (qR cc0_scratch9 3 0 inb_S15x2_S1x1_3_0)) 0 = N := by
  unfold Schedule.expect Schedule.amountOf; rw [duties_agccw_r_3_0, Finset.sum_singleton]; rfl
theorem duties_agccw_r_3_1 (c : Dev nD) : (Rd (F := F) X).duties (dcell c (qR cc0_scratch9 3 1 inb_S15x2_S1x1_3_1)) 0 = {false} := rfl
theorem amount_agccw_r_3_1 (c : Dev nD) (d : Bool) : (Rd (F := F) X).amount (dcell c (qR cc0_scratch9 3 1 inb_S15x2_S1x1_3_1)) 0 d = N := rfl
theorem payload_agccw_r_3_1 (c : Dev nD) (d : Bool) : (Rd (F := F) X).payload (dcell c (qR cc0_scratch9 3 1 inb_S15x2_S1x1_3_1)) 0 d = owns (c : Thread nD τ) (rows oM (off false (c.val + 4) 1) (off_inb false _ 1)) fullShare (doneV X false 1 (devAt c 4)) := rfl
theorem expect_agccw_r_3_1 (c : Dev nD) : (Rd (F := F) X).expect (dcell c (qR cc0_scratch9 3 1 inb_S15x2_S1x1_3_1)) 0 = N := by
  unfold Schedule.expect Schedule.amountOf; rw [duties_agccw_r_3_1, Finset.sum_singleton]; rfl
theorem duties_agccw_r_4_0 (c : Dev nD) : (Rd (F := F) X).duties (dcell c (qR cc0_scratch9 4 0 inb_S15x2_S1x1_4_0)) 0 = {false} := rfl
theorem amount_agccw_r_4_0 (c : Dev nD) (d : Bool) : (Rd (F := F) X).amount (dcell c (qR cc0_scratch9 4 0 inb_S15x2_S1x1_4_0)) 0 d = N := rfl
theorem payload_agccw_r_4_0 (c : Dev nD) (d : Bool) : (Rd (F := F) X).payload (dcell c (qR cc0_scratch9 4 0 inb_S15x2_S1x1_4_0)) 0 d = owns (c : Thread nD τ) (rows oM (off false (c.val + 5) 0) (off_inb false _ 0)) fullShare (doneV X false 0 (devAt c 5)) := rfl
theorem expect_agccw_r_4_0 (c : Dev nD) : (Rd (F := F) X).expect (dcell c (qR cc0_scratch9 4 0 inb_S15x2_S1x1_4_0)) 0 = N := by
  unfold Schedule.expect Schedule.amountOf; rw [duties_agccw_r_4_0, Finset.sum_singleton]; rfl
theorem duties_agccw_r_4_1 (c : Dev nD) : (Rd (F := F) X).duties (dcell c (qR cc0_scratch9 4 1 inb_S15x2_S1x1_4_1)) 0 = {false} := rfl
theorem amount_agccw_r_4_1 (c : Dev nD) (d : Bool) : (Rd (F := F) X).amount (dcell c (qR cc0_scratch9 4 1 inb_S15x2_S1x1_4_1)) 0 d = N := rfl
theorem payload_agccw_r_4_1 (c : Dev nD) (d : Bool) : (Rd (F := F) X).payload (dcell c (qR cc0_scratch9 4 1 inb_S15x2_S1x1_4_1)) 0 d = owns (c : Thread nD τ) (rows oM (off false (c.val + 5) 1) (off_inb false _ 1)) fullShare (doneV X false 1 (devAt c 5)) := rfl
theorem expect_agccw_r_4_1 (c : Dev nD) : (Rd (F := F) X).expect (dcell c (qR cc0_scratch9 4 1 inb_S15x2_S1x1_4_1)) 0 = N := by
  unfold Schedule.expect Schedule.amountOf; rw [duties_agccw_r_4_1, Finset.sum_singleton]; rfl
theorem duties_agccw_r_5_0 (c : Dev nD) : (Rd (F := F) X).duties (dcell c (qR cc0_scratch9 5 0 inb_S15x2_S1x1_5_0)) 0 = {false} := rfl
theorem amount_agccw_r_5_0 (c : Dev nD) (d : Bool) : (Rd (F := F) X).amount (dcell c (qR cc0_scratch9 5 0 inb_S15x2_S1x1_5_0)) 0 d = N := rfl
theorem payload_agccw_r_5_0 (c : Dev nD) (d : Bool) : (Rd (F := F) X).payload (dcell c (qR cc0_scratch9 5 0 inb_S15x2_S1x1_5_0)) 0 d = owns (c : Thread nD τ) (rows oM (off false (c.val + 6) 0) (off_inb false _ 0)) fullShare (doneV X false 0 (devAt c 6)) := rfl
theorem expect_agccw_r_5_0 (c : Dev nD) : (Rd (F := F) X).expect (dcell c (qR cc0_scratch9 5 0 inb_S15x2_S1x1_5_0)) 0 = N := by
  unfold Schedule.expect Schedule.amountOf; rw [duties_agccw_r_5_0, Finset.sum_singleton]; rfl
theorem duties_agccw_r_5_1 (c : Dev nD) : (Rd (F := F) X).duties (dcell c (qR cc0_scratch9 5 1 inb_S15x2_S1x1_5_1)) 0 = {false} := rfl
theorem amount_agccw_r_5_1 (c : Dev nD) (d : Bool) : (Rd (F := F) X).amount (dcell c (qR cc0_scratch9 5 1 inb_S15x2_S1x1_5_1)) 0 d = N := rfl
theorem payload_agccw_r_5_1 (c : Dev nD) (d : Bool) : (Rd (F := F) X).payload (dcell c (qR cc0_scratch9 5 1 inb_S15x2_S1x1_5_1)) 0 d = owns (c : Thread nD τ) (rows oM (off false (c.val + 6) 1) (off_inb false _ 1)) fullShare (doneV X false 1 (devAt c 6)) := rfl
theorem expect_agccw_r_5_1 (c : Dev nD) : (Rd (F := F) X).expect (dcell c (qR cc0_scratch9 5 1 inb_S15x2_S1x1_5_1)) 0 = N := by
  unfold Schedule.expect Schedule.amountOf; rw [duties_agccw_r_5_1, Finset.sum_singleton]; rfl
theorem duties_agccw_r_6_0 (c : Dev nD) : (Rd (F := F) X).duties (dcell c (qR cc0_scratch9 6 0 inb_S15x2_S1x1_6_0)) 0 = {false} := rfl
theorem amount_agccw_r_6_0 (c : Dev nD) (d : Bool) : (Rd (F := F) X).amount (dcell c (qR cc0_scratch9 6 0 inb_S15x2_S1x1_6_0)) 0 d = N := rfl
theorem payload_agccw_r_6_0 (c : Dev nD) (d : Bool) : (Rd (F := F) X).payload (dcell c (qR cc0_scratch9 6 0 inb_S15x2_S1x1_6_0)) 0 d = owns (c : Thread nD τ) (rows oM (off false (c.val + 7) 0) (off_inb false _ 0)) fullShare (doneV X false 0 (devAt c 7)) := rfl
theorem expect_agccw_r_6_0 (c : Dev nD) : (Rd (F := F) X).expect (dcell c (qR cc0_scratch9 6 0 inb_S15x2_S1x1_6_0)) 0 = N := by
  unfold Schedule.expect Schedule.amountOf; rw [duties_agccw_r_6_0, Finset.sum_singleton]; rfl
theorem duties_agccw_r_6_1 (c : Dev nD) : (Rd (F := F) X).duties (dcell c (qR cc0_scratch9 6 1 inb_S15x2_S1x1_6_1)) 0 = {false} := rfl
theorem amount_agccw_r_6_1 (c : Dev nD) (d : Bool) : (Rd (F := F) X).amount (dcell c (qR cc0_scratch9 6 1 inb_S15x2_S1x1_6_1)) 0 d = N := rfl
theorem payload_agccw_r_6_1 (c : Dev nD) (d : Bool) : (Rd (F := F) X).payload (dcell c (qR cc0_scratch9 6 1 inb_S15x2_S1x1_6_1)) 0 d = owns (c : Thread nD τ) (rows oM (off false (c.val + 7) 1) (off_inb false _ 1)) fullShare (doneV X false 1 (devAt c 7)) := rfl
theorem expect_agccw_r_6_1 (c : Dev nD) : (Rd (F := F) X).expect (dcell c (qR cc0_scratch9 6 1 inb_S15x2_S1x1_6_1)) 0 = N := by
  unfold Schedule.expect Schedule.amountOf; rw [duties_agccw_r_6_1, Finset.sum_singleton]; rfl
theorem duties_agccw_r_7_0 (c : Dev nD) : (Rd (F := F) X).duties (dcell c (qR cc0_scratch9 7 0 inb_S15x2_S1x1_7_0)) 0 = {false} := rfl
theorem amount_agccw_r_7_0 (c : Dev nD) (d : Bool) : (Rd (F := F) X).amount (dcell c (qR cc0_scratch9 7 0 inb_S15x2_S1x1_7_0)) 0 d = N := rfl
theorem payload_agccw_r_7_0 (c : Dev nD) (d : Bool) : (Rd (F := F) X).payload (dcell c (qR cc0_scratch9 7 0 inb_S15x2_S1x1_7_0)) 0 d = owns (c : Thread nD τ) (rows oM (off false (c.val + 8) 0) (off_inb false _ 0)) fullShare (doneV X false 0 (devAt c 8)) := rfl
theorem expect_agccw_r_7_0 (c : Dev nD) : (Rd (F := F) X).expect (dcell c (qR cc0_scratch9 7 0 inb_S15x2_S1x1_7_0)) 0 = N := by
  unfold Schedule.expect Schedule.amountOf; rw [duties_agccw_r_7_0, Finset.sum_singleton]; rfl
theorem duties_agccw_r_7_1 (c : Dev nD) : (Rd (F := F) X).duties (dcell c (qR cc0_scratch9 7 1 inb_S15x2_S1x1_7_1)) 0 = {false} := rfl
theorem amount_agccw_r_7_1 (c : Dev nD) (d : Bool) : (Rd (F := F) X).amount (dcell c (qR cc0_scratch9 7 1 inb_S15x2_S1x1_7_1)) 0 d = N := rfl
theorem payload_agccw_r_7_1 (c : Dev nD) (d : Bool) : (Rd (F := F) X).payload (dcell c (qR cc0_scratch9 7 1 inb_S15x2_S1x1_7_1)) 0 d = owns (c : Thread nD τ) (rows oM (off false (c.val + 8) 1) (off_inb false _ 1)) fullShare (doneV X false 1 (devAt c 8)) := rfl
theorem expect_agccw_r_7_1 (c : Dev nD) : (Rd (F := F) X).expect (dcell c (qR cc0_scratch9 7 1 inb_S15x2_S1x1_7_1)) 0 = N := by
  unfold Schedule.expect Schedule.amountOf; rw [duties_agccw_r_7_1, Finset.sum_singleton]; rfl
theorem duties_agccw_r_8_0 (c : Dev nD) : (Rd (F := F) X).duties (dcell c (qR cc0_scratch9 8 0 inb_S15x2_S1x1_8_0)) 0 = {false} := rfl
theorem amount_agccw_r_8_0 (c : Dev nD) (d : Bool) : (Rd (F := F) X).amount (dcell c (qR cc0_scratch9 8 0 inb_S15x2_S1x1_8_0)) 0 d = N := rfl
theorem payload_agccw_r_8_0 (c : Dev nD) (d : Bool) : (Rd (F := F) X).payload (dcell c (qR cc0_scratch9 8 0 inb_S15x2_S1x1_8_0)) 0 d = owns (c : Thread nD τ) (rows oM (off false (c.val + 9) 0) (off_inb false _ 0)) fullShare (doneV X false 0 (devAt c 9)) := rfl
theorem expect_agccw_r_8_0 (c : Dev nD) : (Rd (F := F) X).expect (dcell c (qR cc0_scratch9 8 0 inb_S15x2_S1x1_8_0)) 0 = N := by
  unfold Schedule.expect Schedule.amountOf; rw [duties_agccw_r_8_0, Finset.sum_singleton]; rfl
theorem duties_agccw_r_8_1 (c : Dev nD) : (Rd (F := F) X).duties (dcell c (qR cc0_scratch9 8 1 inb_S15x2_S1x1_8_1)) 0 = {false} := rfl
theorem amount_agccw_r_8_1 (c : Dev nD) (d : Bool) : (Rd (F := F) X).amount (dcell c (qR cc0_scratch9 8 1 inb_S15x2_S1x1_8_1)) 0 d = N := rfl
theorem payload_agccw_r_8_1 (c : Dev nD) (d : Bool) : (Rd (F := F) X).payload (dcell c (qR cc0_scratch9 8 1 inb_S15x2_S1x1_8_1)) 0 d = owns (c : Thread nD τ) (rows oM (off false (c.val + 9) 1) (off_inb false _ 1)) fullShare (doneV X false 1 (devAt c 9)) := rfl
theorem expect_agccw_r_8_1 (c : Dev nD) : (Rd (F := F) X).expect (dcell c (qR cc0_scratch9 8 1 inb_S15x2_S1x1_8_1)) 0 = N := by
  unfold Schedule.expect Schedule.amountOf; rw [duties_agccw_r_8_1, Finset.sum_singleton]; rfl
theorem duties_agccw_r_9_0 (c : Dev nD) : (Rd (F := F) X).duties (dcell c (qR cc0_scratch9 9 0 inb_S15x2_S1x1_9_0)) 0 = {false} := rfl
theorem amount_agccw_r_9_0 (c : Dev nD) (d : Bool) : (Rd (F := F) X).amount (dcell c (qR cc0_scratch9 9 0 inb_S15x2_S1x1_9_0)) 0 d = N := rfl
theorem payload_agccw_r_9_0 (c : Dev nD) (d : Bool) : (Rd (F := F) X).payload (dcell c (qR cc0_scratch9 9 0 inb_S15x2_S1x1_9_0)) 0 d = owns (c : Thread nD τ) (rows oM (off false (c.val + 10) 0) (off_inb false _ 0)) fullShare (doneV X false 0 (devAt c 10)) := rfl
theorem expect_agccw_r_9_0 (c : Dev nD) : (Rd (F := F) X).expect (dcell c (qR cc0_scratch9 9 0 inb_S15x2_S1x1_9_0)) 0 = N := by
  unfold Schedule.expect Schedule.amountOf; rw [duties_agccw_r_9_0, Finset.sum_singleton]; rfl
theorem duties_agccw_r_9_1 (c : Dev nD) : (Rd (F := F) X).duties (dcell c (qR cc0_scratch9 9 1 inb_S15x2_S1x1_9_1)) 0 = {false} := rfl
theorem amount_agccw_r_9_1 (c : Dev nD) (d : Bool) : (Rd (F := F) X).amount (dcell c (qR cc0_scratch9 9 1 inb_S15x2_S1x1_9_1)) 0 d = N := rfl
theorem payload_agccw_r_9_1 (c : Dev nD) (d : Bool) : (Rd (F := F) X).payload (dcell c (qR cc0_scratch9 9 1 inb_S15x2_S1x1_9_1)) 0 d = owns (c : Thread nD τ) (rows oM (off false (c.val + 10) 1) (off_inb false _ 1)) fullShare (doneV X false 1 (devAt c 10)) := rfl
theorem expect_agccw_r_9_1 (c : Dev nD) : (Rd (F := F) X).expect (dcell c (qR cc0_scratch9 9 1 inb_S15x2_S1x1_9_1)) 0 = N := by
  unfold Schedule.expect Schedule.amountOf; rw [duties_agccw_r_9_1, Finset.sum_singleton]; rfl
theorem duties_agccw_r_10_0 (c : Dev nD) : (Rd (F := F) X).duties (dcell c (qR cc0_scratch9 10 0 inb_S15x2_S1x1_10_0)) 0 = {false} := rfl
theorem amount_agccw_r_10_0 (c : Dev nD) (d : Bool) : (Rd (F := F) X).amount (dcell c (qR cc0_scratch9 10 0 inb_S15x2_S1x1_10_0)) 0 d = N := rfl
theorem payload_agccw_r_10_0 (c : Dev nD) (d : Bool) : (Rd (F := F) X).payload (dcell c (qR cc0_scratch9 10 0 inb_S15x2_S1x1_10_0)) 0 d = owns (c : Thread nD τ) (rows oM (off false (c.val + 11) 0) (off_inb false _ 0)) fullShare (doneV X false 0 (devAt c 11)) := rfl
theorem expect_agccw_r_10_0 (c : Dev nD) : (Rd (F := F) X).expect (dcell c (qR cc0_scratch9 10 0 inb_S15x2_S1x1_10_0)) 0 = N := by
  unfold Schedule.expect Schedule.amountOf; rw [duties_agccw_r_10_0, Finset.sum_singleton]; rfl
theorem duties_agccw_r_10_1 (c : Dev nD) : (Rd (F := F) X).duties (dcell c (qR cc0_scratch9 10 1 inb_S15x2_S1x1_10_1)) 0 = {false} := rfl
theorem amount_agccw_r_10_1 (c : Dev nD) (d : Bool) : (Rd (F := F) X).amount (dcell c (qR cc0_scratch9 10 1 inb_S15x2_S1x1_10_1)) 0 d = N := rfl
theorem payload_agccw_r_10_1 (c : Dev nD) (d : Bool) : (Rd (F := F) X).payload (dcell c (qR cc0_scratch9 10 1 inb_S15x2_S1x1_10_1)) 0 d = owns (c : Thread nD τ) (rows oM (off false (c.val + 11) 1) (off_inb false _ 1)) fullShare (doneV X false 1 (devAt c 11)) := rfl
theorem expect_agccw_r_10_1 (c : Dev nD) : (Rd (F := F) X).expect (dcell c (qR cc0_scratch9 10 1 inb_S15x2_S1x1_10_1)) 0 = N := by
  unfold Schedule.expect Schedule.amountOf; rw [duties_agccw_r_10_1, Finset.sum_singleton]; rfl
theorem duties_agccw_r_11_0 (c : Dev nD) : (Rd (F := F) X).duties (dcell c (qR cc0_scratch9 11 0 inb_S15x2_S1x1_11_0)) 0 = {false} := rfl
theorem amount_agccw_r_11_0 (c : Dev nD) (d : Bool) : (Rd (F := F) X).amount (dcell c (qR cc0_scratch9 11 0 inb_S15x2_S1x1_11_0)) 0 d = N := rfl
theorem payload_agccw_r_11_0 (c : Dev nD) (d : Bool) : (Rd (F := F) X).payload (dcell c (qR cc0_scratch9 11 0 inb_S15x2_S1x1_11_0)) 0 d = owns (c : Thread nD τ) (rows oM (off false (c.val + 12) 0) (off_inb false _ 0)) fullShare (doneV X false 0 (devAt c 12)) := rfl
theorem expect_agccw_r_11_0 (c : Dev nD) : (Rd (F := F) X).expect (dcell c (qR cc0_scratch9 11 0 inb_S15x2_S1x1_11_0)) 0 = N := by
  unfold Schedule.expect Schedule.amountOf; rw [duties_agccw_r_11_0, Finset.sum_singleton]; rfl
theorem duties_agccw_r_11_1 (c : Dev nD) : (Rd (F := F) X).duties (dcell c (qR cc0_scratch9 11 1 inb_S15x2_S1x1_11_1)) 0 = {false} := rfl
theorem amount_agccw_r_11_1 (c : Dev nD) (d : Bool) : (Rd (F := F) X).amount (dcell c (qR cc0_scratch9 11 1 inb_S15x2_S1x1_11_1)) 0 d = N := rfl
theorem payload_agccw_r_11_1 (c : Dev nD) (d : Bool) : (Rd (F := F) X).payload (dcell c (qR cc0_scratch9 11 1 inb_S15x2_S1x1_11_1)) 0 d = owns (c : Thread nD τ) (rows oM (off false (c.val + 12) 1) (off_inb false _ 1)) fullShare (doneV X false 1 (devAt c 12)) := rfl
theorem expect_agccw_r_11_1 (c : Dev nD) : (Rd (F := F) X).expect (dcell c (qR cc0_scratch9 11 1 inb_S15x2_S1x1_11_1)) 0 = N := by
  unfold Schedule.expect Schedule.amountOf; rw [duties_agccw_r_11_1, Finset.sum_singleton]; rfl
theorem duties_agccw_r_12_0 (c : Dev nD) : (Rd (F := F) X).duties (dcell c (qR cc0_scratch9 12 0 inb_S15x2_S1x1_12_0)) 0 = {false} := rfl
theorem amount_agccw_r_12_0 (c : Dev nD) (d : Bool) : (Rd (F := F) X).amount (dcell c (qR cc0_scratch9 12 0 inb_S15x2_S1x1_12_0)) 0 d = N := rfl
theorem payload_agccw_r_12_0 (c : Dev nD) (d : Bool) : (Rd (F := F) X).payload (dcell c (qR cc0_scratch9 12 0 inb_S15x2_S1x1_12_0)) 0 d = owns (c : Thread nD τ) (rows oM (off false (c.val + 13) 0) (off_inb false _ 0)) fullShare (doneV X false 0 (devAt c 13)) := rfl
theorem expect_agccw_r_12_0 (c : Dev nD) : (Rd (F := F) X).expect (dcell c (qR cc0_scratch9 12 0 inb_S15x2_S1x1_12_0)) 0 = N := by
  unfold Schedule.expect Schedule.amountOf; rw [duties_agccw_r_12_0, Finset.sum_singleton]; rfl
theorem duties_agccw_r_12_1 (c : Dev nD) : (Rd (F := F) X).duties (dcell c (qR cc0_scratch9 12 1 inb_S15x2_S1x1_12_1)) 0 = {false} := rfl
theorem amount_agccw_r_12_1 (c : Dev nD) (d : Bool) : (Rd (F := F) X).amount (dcell c (qR cc0_scratch9 12 1 inb_S15x2_S1x1_12_1)) 0 d = N := rfl
theorem payload_agccw_r_12_1 (c : Dev nD) (d : Bool) : (Rd (F := F) X).payload (dcell c (qR cc0_scratch9 12 1 inb_S15x2_S1x1_12_1)) 0 d = owns (c : Thread nD τ) (rows oM (off false (c.val + 13) 1) (off_inb false _ 1)) fullShare (doneV X false 1 (devAt c 13)) := rfl
theorem expect_agccw_r_12_1 (c : Dev nD) : (Rd (F := F) X).expect (dcell c (qR cc0_scratch9 12 1 inb_S15x2_S1x1_12_1)) 0 = N := by
  unfold Schedule.expect Schedule.amountOf; rw [duties_agccw_r_12_1, Finset.sum_singleton]; rfl
theorem duties_agccw_r_13_0 (c : Dev nD) : (Rd (F := F) X).duties (dcell c (qR cc0_scratch9 13 0 inb_S15x2_S1x1_13_0)) 0 = {false} := rfl
theorem amount_agccw_r_13_0 (c : Dev nD) (d : Bool) : (Rd (F := F) X).amount (dcell c (qR cc0_scratch9 13 0 inb_S15x2_S1x1_13_0)) 0 d = N := rfl
theorem payload_agccw_r_13_0 (c : Dev nD) (d : Bool) : (Rd (F := F) X).payload (dcell c (qR cc0_scratch9 13 0 inb_S15x2_S1x1_13_0)) 0 d = owns (c : Thread nD τ) (rows oM (off false (c.val + 14) 0) (off_inb false _ 0)) fullShare (doneV X false 0 (devAt c 14)) := rfl
theorem expect_agccw_r_13_0 (c : Dev nD) : (Rd (F := F) X).expect (dcell c (qR cc0_scratch9 13 0 inb_S15x2_S1x1_13_0)) 0 = N := by
  unfold Schedule.expect Schedule.amountOf; rw [duties_agccw_r_13_0, Finset.sum_singleton]; rfl
theorem duties_agccw_r_13_1 (c : Dev nD) : (Rd (F := F) X).duties (dcell c (qR cc0_scratch9 13 1 inb_S15x2_S1x1_13_1)) 0 = {false} := rfl
theorem amount_agccw_r_13_1 (c : Dev nD) (d : Bool) : (Rd (F := F) X).amount (dcell c (qR cc0_scratch9 13 1 inb_S15x2_S1x1_13_1)) 0 d = N := rfl
theorem payload_agccw_r_13_1 (c : Dev nD) (d : Bool) : (Rd (F := F) X).payload (dcell c (qR cc0_scratch9 13 1 inb_S15x2_S1x1_13_1)) 0 d = owns (c : Thread nD τ) (rows oM (off false (c.val + 14) 1) (off_inb false _ 1)) fullShare (doneV X false 1 (devAt c 14)) := rfl
theorem expect_agccw_r_13_1 (c : Dev nD) : (Rd (F := F) X).expect (dcell c (qR cc0_scratch9 13 1 inb_S15x2_S1x1_13_1)) 0 = N := by
  unfold Schedule.expect Schedule.amountOf; rw [duties_agccw_r_13_1, Finset.sum_singleton]; rfl
theorem duties_agccw_r_14_0 (c : Dev nD) : (Rd (F := F) X).duties (dcell c (qR cc0_scratch9 14 0 inb_S15x2_S1x1_14_0)) 0 = {false} := rfl
theorem amount_agccw_r_14_0 (c : Dev nD) (d : Bool) : (Rd (F := F) X).amount (dcell c (qR cc0_scratch9 14 0 inb_S15x2_S1x1_14_0)) 0 d = N := rfl
theorem payload_agccw_r_14_0 (c : Dev nD) (d : Bool) : (Rd (F := F) X).payload (dcell c (qR cc0_scratch9 14 0 inb_S15x2_S1x1_14_0)) 0 d = owns (c : Thread nD τ) (rows oM (off false (c.val + 15) 0) (off_inb false _ 0)) fullShare (doneV X false 0 (devAt c 15)) := rfl
theorem expect_agccw_r_14_0 (c : Dev nD) : (Rd (F := F) X).expect (dcell c (qR cc0_scratch9 14 0 inb_S15x2_S1x1_14_0)) 0 = N := by
  unfold Schedule.expect Schedule.amountOf; rw [duties_agccw_r_14_0, Finset.sum_singleton]; rfl
theorem duties_agccw_r_14_1 (c : Dev nD) : (Rd (F := F) X).duties (dcell c (qR cc0_scratch9 14 1 inb_S15x2_S1x1_14_1)) 0 = {false} := rfl
theorem amount_agccw_r_14_1 (c : Dev nD) (d : Bool) : (Rd (F := F) X).amount (dcell c (qR cc0_scratch9 14 1 inb_S15x2_S1x1_14_1)) 0 d = N := rfl
theorem payload_agccw_r_14_1 (c : Dev nD) (d : Bool) : (Rd (F := F) X).payload (dcell c (qR cc0_scratch9 14 1 inb_S15x2_S1x1_14_1)) 0 d = owns (c : Thread nD τ) (rows oM (off false (c.val + 15) 1) (off_inb false _ 1)) fullShare (doneV X false 1 (devAt c 15)) := rfl
theorem expect_agccw_r_14_1 (c : Dev nD) : (Rd (F := F) X).expect (dcell c (qR cc0_scratch9 14 1 inb_S15x2_S1x1_14_1)) 0 = N := by
  unfold Schedule.expect Schedule.amountOf; rw [duties_agccw_r_14_1, Finset.sum_singleton]; rfl
theorem duties_agccw_s_0_0 (c : Dev nD) : (Rd (F := F) X).duties (dcell c (qS cc0_scratch8 0 inb_S4_S1_0)) 0 = {false} := rfl
theorem amount_agccw_s_0_0 (c : Dev nD) (d : Bool) : (Rd (F := F) X).amount (dcell c (qS cc0_scratch8 0 inb_S4_S1_0)) 0 d = N := rfl
theorem payload_agccw_s_0_0 (c : Dev nD) (d : Bool) : (Rd (F := F) X).payload (dcell c (qS cc0_scratch8 0 inb_S4_S1_0)) 0 d = owns (c : Thread nD τ) (slot bM 14 0 inb_S15x128x1024_S1x64x1024_14_0_0) fullShare.right (addV X false 0 14 c) := rfl
theorem expect_agccw_s_0_0 (c : Dev nD) : (Rd (F := F) X).expect (dcell c (qS cc0_scratch8 0 inb_S4_S1_0)) 0 = N := by
  unfold Schedule.expect Schedule.amountOf; rw [duties_agccw_s_0_0, Finset.sum_singleton]; rfl
theorem duties_agccw_s_0_1 (c : Dev nD) : (Rd (F := F) X).duties (dcell c (qS cc0_scratch8 0 inb_S4_S1_0)) 1 = {false} := rfl
theorem amount_agccw_s_0_1 (c : Dev nD) (d : Bool) : (Rd (F := F) X).amount (dcell c (qS cc0_scratch8 0 inb_S4_S1_0)) 1 d = N := rfl
theorem payload_agccw_s_0_1 (c : Dev nD) (d : Bool) : (Rd (F := F) X).payload (dcell c (qS cc0_scratch8 0 inb_S4_S1_0)) 1 d = owns (c : Thread nD τ) (rows oM (off false (c.val + 2) 0) (off_inb false _ 0)) fullShare (doneV X false 0 (devAt c 2)) := rfl
theorem expect_agccw_s_0_1 (c : Dev nD) : (Rd (F := F) X).expect (dcell c (qS cc0_scratch8 0 inb_S4_S1_0)) 1 = N := by
  unfold Schedule.expect Schedule.amountOf; rw [duties_agccw_s_0_1, Finset.sum_singleton]; rfl
theorem duties_agccw_s_0_2 (c : Dev nD) : (Rd (F := F) X).duties (dcell c (qS cc0_scratch8 0 inb_S4_S1_0)) 2 = {false} := rfl
theorem amount_agccw_s_0_2 (c : Dev nD) (d : Bool) : (Rd (F := F) X).amount (dcell c (qS cc0_scratch8 0 inb_S4_S1_0)) 2 d = N := rfl
theorem payload_agccw_s_0_2 (c : Dev nD) (d : Bool) : (Rd (F := F) X).payload (dcell c (qS cc0_scratch8 0 inb_S4_S1_0)) 2 d = owns (c : Thread nD τ) (rows oM (off false (c.val + 4) 0) (off_inb false _ 0)) fullShare (doneV X false 0 (devAt c 4)) := rfl
theorem expect_agccw_s_0_2 (c : Dev nD) : (Rd (F := F) X).expect (dcell c (qS cc0_scratch8 0 inb_S4_S1_0)) 2 = N := by
  unfold Schedule.expect Schedule.amountOf; rw [duties_agccw_s_0_2, Finset.sum_singleton]; rfl
theorem duties_agccw_s_0_3 (c : Dev nD) : (Rd (F := F) X).duties (dcell c (qS cc0_scratch8 0 inb_S4_S1_0)) 3 = {false} := rfl
theorem amount_agccw_s_0_3 (c : Dev nD) (d : Bool) : (Rd (F := F) X).amount (dcell c (qS cc0_scratch8 0 inb_S4_S1_0)) 3 d = N := rfl
theorem payload_agccw_s_0_3 (c : Dev nD) (d : Bool) : (Rd (F := F) X).payload (dcell c (qS cc0_scratch8 0 inb_S4_S1_0)) 3 d = owns (c : Thread nD τ) (rows oM (off false (c.val + 6) 0) (off_inb false _ 0)) fullShare (doneV X false 0 (devAt c 6)) := rfl
theorem expect_agccw_s_0_3 (c : Dev nD) : (Rd (F := F) X).expect (dcell c (qS cc0_scratch8 0 inb_S4_S1_0)) 3 = N := by
  unfold Schedule.expect Schedule.amountOf; rw [duties_agccw_s_0_3, Finset.sum_singleton]; rfl
theorem duties_agccw_s_0_4 (c : Dev nD) : (Rd (F := F) X).duties (dcell c (qS cc0_scratch8 0 inb_S4_S1_0)) 4 = {false} := rfl
theorem amount_agccw_s_0_4 (c : Dev nD) (d : Bool) : (Rd (F := F) X).amount (dcell c (qS cc0_scratch8 0 inb_S4_S1_0)) 4 d = N := rfl
theorem payload_agccw_s_0_4 (c : Dev nD) (d : Bool) : (Rd (F := F) X).payload (dcell c (qS cc0_scratch8 0 inb_S4_S1_0)) 4 d = owns (c : Thread nD τ) (rows oM (off false (c.val + 8) 0) (off_inb false _ 0)) fullShare (doneV X false 0 (devAt c 8)) := rfl
theorem expect_agccw_s_0_4 (c : Dev nD) : (Rd (F := F) X).expect (dcell c (qS cc0_scratch8 0 inb_S4_S1_0)) 4 = N := by
  unfold Schedule.expect Schedule.amountOf; rw [duties_agccw_s_0_4, Finset.sum_singleton]; rfl
theorem duties_agccw_s_0_5 (c : Dev nD) : (Rd (F := F) X).duties (dcell c (qS cc0_scratch8 0 inb_S4_S1_0)) 5 = {false} := rfl
theorem amount_agccw_s_0_5 (c : Dev nD) (d : Bool) : (Rd (F := F) X).amount (dcell c (qS cc0_scratch8 0 inb_S4_S1_0)) 5 d = N := rfl
theorem payload_agccw_s_0_5 (c : Dev nD) (d : Bool) : (Rd (F := F) X).payload (dcell c (qS cc0_scratch8 0 inb_S4_S1_0)) 5 d = owns (c : Thread nD τ) (rows oM (off false (c.val + 10) 0) (off_inb false _ 0)) fullShare (doneV X false 0 (devAt c 10)) := rfl
theorem expect_agccw_s_0_5 (c : Dev nD) : (Rd (F := F) X).expect (dcell c (qS cc0_scratch8 0 inb_S4_S1_0)) 5 = N := by
  unfold Schedule.expect Schedule.amountOf; rw [duties_agccw_s_0_5, Finset.sum_singleton]; rfl
theorem duties_agccw_s_0_6 (c : Dev nD) : (Rd (F := F) X).duties (dcell c (qS cc0_scratch8 0 inb_S4_S1_0)) 6 = {false} := rfl
theorem amount_agccw_s_0_6 (c : Dev nD) (d : Bool) : (Rd (F := F) X).amount (dcell c (qS cc0_scratch8 0 inb_S4_S1_0)) 6 d = N := rfl
theorem payload_agccw_s_0_6 (c : Dev nD) (d : Bool) : (Rd (F := F) X).payload (dcell c (qS cc0_scratch8 0 inb_S4_S1_0)) 6 d = owns (c : Thread nD τ) (rows oM (off false (c.val + 12) 0) (off_inb false _ 0)) fullShare (doneV X false 0 (devAt c 12)) := rfl
theorem expect_agccw_s_0_6 (c : Dev nD) : (Rd (F := F) X).expect (dcell c (qS cc0_scratch8 0 inb_S4_S1_0)) 6 = N := by
  unfold Schedule.expect Schedule.amountOf; rw [duties_agccw_s_0_6, Finset.sum_singleton]; rfl
theorem duties_agccw_s_0_7 (c : Dev nD) : (Rd (F := F) X).duties (dcell c (qS cc0_scratch8 0 inb_S4_S1_0)) 7 = {false} := rfl
theorem amount_agccw_s_0_7 (c : Dev nD) (d : Bool) : (Rd (F := F) X).amount (dcell c (qS cc0_scratch8 0 inb_S4_S1_0)) 7 d = N := rfl
theorem payload_agccw_s_0_7 (c : Dev nD) (d : Bool) : (Rd (F := F) X).payload (dcell c (qS cc0_scratch8 0 inb_S4_S1_0)) 7 d = owns (c : Thread nD τ) (rows oM (off false (c.val + 14) 0) (off_inb false _ 0)) fullShare (doneV X false 0 (devAt c 14)) := rfl
theorem expect_agccw_s_0_7 (c : Dev nD) : (Rd (F := F) X).expect (dcell c (qS cc0_scratch8 0 inb_S4_S1_0)) 7 = N := by
  unfold Schedule.expect Schedule.amountOf; rw [duties_agccw_s_0_7, Finset.sum_singleton]; rfl
theorem later_agccw_s_0 (c : Dev nD) : ∀ r, 8 ≤ r → (Rd (F := F) X).duties (dcell c (qS cc0_scratch8 0 inb_S4_S1_0)) r = ∅ := fun r hr => by
  show (if r < 8 then ({false} : Finset Bool) else ∅) = ∅; exact if_neg (by omega)
theorem duties_agccw_s_1_0 (c : Dev nD) : (Rd (F := F) X).duties (dcell c (qS cc0_scratch8 1 inb_S4_S1_1)) 0 = {false} := rfl
theorem amount_agccw_s_1_0 (c : Dev nD) (d : Bool) : (Rd (F := F) X).amount (dcell c (qS cc0_scratch8 1 inb_S4_S1_1)) 0 d = N := rfl
theorem payload_agccw_s_1_0 (c : Dev nD) (d : Bool) : (Rd (F := F) X).payload (dcell c (qS cc0_scratch8 1 inb_S4_S1_1)) 0 d = owns (c : Thread nD τ) (slot bM 14 64 inb_S15x128x1024_S1x64x1024_14_64_0) fullShare.right (addV X false 1 14 c) := rfl
theorem expect_agccw_s_1_0 (c : Dev nD) : (Rd (F := F) X).expect (dcell c (qS cc0_scratch8 1 inb_S4_S1_1)) 0 = N := by
  unfold Schedule.expect Schedule.amountOf; rw [duties_agccw_s_1_0, Finset.sum_singleton]; rfl
theorem duties_agccw_s_1_1 (c : Dev nD) : (Rd (F := F) X).duties (dcell c (qS cc0_scratch8 1 inb_S4_S1_1)) 1 = {false} := rfl
theorem amount_agccw_s_1_1 (c : Dev nD) (d : Bool) : (Rd (F := F) X).amount (dcell c (qS cc0_scratch8 1 inb_S4_S1_1)) 1 d = N := rfl
theorem payload_agccw_s_1_1 (c : Dev nD) (d : Bool) : (Rd (F := F) X).payload (dcell c (qS cc0_scratch8 1 inb_S4_S1_1)) 1 d = owns (c : Thread nD τ) (rows oM (off false (c.val + 2) 1) (off_inb false _ 1)) fullShare (doneV X false 1 (devAt c 2)) := rfl
theorem expect_agccw_s_1_1 (c : Dev nD) : (Rd (F := F) X).expect (dcell c (qS cc0_scratch8 1 inb_S4_S1_1)) 1 = N := by
  unfold Schedule.expect Schedule.amountOf; rw [duties_agccw_s_1_1, Finset.sum_singleton]; rfl
theorem duties_agccw_s_1_2 (c : Dev nD) : (Rd (F := F) X).duties (dcell c (qS cc0_scratch8 1 inb_S4_S1_1)) 2 = {false} := rfl
theorem amount_agccw_s_1_2 (c : Dev nD) (d : Bool) : (Rd (F := F) X).amount (dcell c (qS cc0_scratch8 1 inb_S4_S1_1)) 2 d = N := rfl
theorem payload_agccw_s_1_2 (c : Dev nD) (d : Bool) : (Rd (F := F) X).payload (dcell c (qS cc0_scratch8 1 inb_S4_S1_1)) 2 d = owns (c : Thread nD τ) (rows oM (off false (c.val + 4) 1) (off_inb false _ 1)) fullShare (doneV X false 1 (devAt c 4)) := rfl
theorem expect_agccw_s_1_2 (c : Dev nD) : (Rd (F := F) X).expect (dcell c (qS cc0_scratch8 1 inb_S4_S1_1)) 2 = N := by
  unfold Schedule.expect Schedule.amountOf; rw [duties_agccw_s_1_2, Finset.sum_singleton]; rfl
theorem duties_agccw_s_1_3 (c : Dev nD) : (Rd (F := F) X).duties (dcell c (qS cc0_scratch8 1 inb_S4_S1_1)) 3 = {false} := rfl
theorem amount_agccw_s_1_3 (c : Dev nD) (d : Bool) : (Rd (F := F) X).amount (dcell c (qS cc0_scratch8 1 inb_S4_S1_1)) 3 d = N := rfl
theorem payload_agccw_s_1_3 (c : Dev nD) (d : Bool) : (Rd (F := F) X).payload (dcell c (qS cc0_scratch8 1 inb_S4_S1_1)) 3 d = owns (c : Thread nD τ) (rows oM (off false (c.val + 6) 1) (off_inb false _ 1)) fullShare (doneV X false 1 (devAt c 6)) := rfl
theorem expect_agccw_s_1_3 (c : Dev nD) : (Rd (F := F) X).expect (dcell c (qS cc0_scratch8 1 inb_S4_S1_1)) 3 = N := by
  unfold Schedule.expect Schedule.amountOf; rw [duties_agccw_s_1_3, Finset.sum_singleton]; rfl
theorem duties_agccw_s_1_4 (c : Dev nD) : (Rd (F := F) X).duties (dcell c (qS cc0_scratch8 1 inb_S4_S1_1)) 4 = {false} := rfl
theorem amount_agccw_s_1_4 (c : Dev nD) (d : Bool) : (Rd (F := F) X).amount (dcell c (qS cc0_scratch8 1 inb_S4_S1_1)) 4 d = N := rfl
theorem payload_agccw_s_1_4 (c : Dev nD) (d : Bool) : (Rd (F := F) X).payload (dcell c (qS cc0_scratch8 1 inb_S4_S1_1)) 4 d = owns (c : Thread nD τ) (rows oM (off false (c.val + 8) 1) (off_inb false _ 1)) fullShare (doneV X false 1 (devAt c 8)) := rfl
theorem expect_agccw_s_1_4 (c : Dev nD) : (Rd (F := F) X).expect (dcell c (qS cc0_scratch8 1 inb_S4_S1_1)) 4 = N := by
  unfold Schedule.expect Schedule.amountOf; rw [duties_agccw_s_1_4, Finset.sum_singleton]; rfl
theorem duties_agccw_s_1_5 (c : Dev nD) : (Rd (F := F) X).duties (dcell c (qS cc0_scratch8 1 inb_S4_S1_1)) 5 = {false} := rfl
theorem amount_agccw_s_1_5 (c : Dev nD) (d : Bool) : (Rd (F := F) X).amount (dcell c (qS cc0_scratch8 1 inb_S4_S1_1)) 5 d = N := rfl
theorem payload_agccw_s_1_5 (c : Dev nD) (d : Bool) : (Rd (F := F) X).payload (dcell c (qS cc0_scratch8 1 inb_S4_S1_1)) 5 d = owns (c : Thread nD τ) (rows oM (off false (c.val + 10) 1) (off_inb false _ 1)) fullShare (doneV X false 1 (devAt c 10)) := rfl
theorem expect_agccw_s_1_5 (c : Dev nD) : (Rd (F := F) X).expect (dcell c (qS cc0_scratch8 1 inb_S4_S1_1)) 5 = N := by
  unfold Schedule.expect Schedule.amountOf; rw [duties_agccw_s_1_5, Finset.sum_singleton]; rfl
theorem duties_agccw_s_1_6 (c : Dev nD) : (Rd (F := F) X).duties (dcell c (qS cc0_scratch8 1 inb_S4_S1_1)) 6 = {false} := rfl
theorem amount_agccw_s_1_6 (c : Dev nD) (d : Bool) : (Rd (F := F) X).amount (dcell c (qS cc0_scratch8 1 inb_S4_S1_1)) 6 d = N := rfl
theorem payload_agccw_s_1_6 (c : Dev nD) (d : Bool) : (Rd (F := F) X).payload (dcell c (qS cc0_scratch8 1 inb_S4_S1_1)) 6 d = owns (c : Thread nD τ) (rows oM (off false (c.val + 12) 1) (off_inb false _ 1)) fullShare (doneV X false 1 (devAt c 12)) := rfl
theorem expect_agccw_s_1_6 (c : Dev nD) : (Rd (F := F) X).expect (dcell c (qS cc0_scratch8 1 inb_S4_S1_1)) 6 = N := by
  unfold Schedule.expect Schedule.amountOf; rw [duties_agccw_s_1_6, Finset.sum_singleton]; rfl
theorem duties_agccw_s_1_7 (c : Dev nD) : (Rd (F := F) X).duties (dcell c (qS cc0_scratch8 1 inb_S4_S1_1)) 7 = {false} := rfl
theorem amount_agccw_s_1_7 (c : Dev nD) (d : Bool) : (Rd (F := F) X).amount (dcell c (qS cc0_scratch8 1 inb_S4_S1_1)) 7 d = N := rfl
theorem payload_agccw_s_1_7 (c : Dev nD) (d : Bool) : (Rd (F := F) X).payload (dcell c (qS cc0_scratch8 1 inb_S4_S1_1)) 7 d = owns (c : Thread nD τ) (rows oM (off false (c.val + 14) 1) (off_inb false _ 1)) fullShare (doneV X false 1 (devAt c 14)) := rfl
theorem expect_agccw_s_1_7 (c : Dev nD) : (Rd (F := F) X).expect (dcell c (qS cc0_scratch8 1 inb_S4_S1_1)) 7 = N := by
  unfold Schedule.expect Schedule.amountOf; rw [duties_agccw_s_1_7, Finset.sum_singleton]; rfl
theorem later_agccw_s_1 (c : Dev nD) : ∀ r, 8 ≤ r → (Rd (F := F) X).duties (dcell c (qS cc0_scratch8 1 inb_S4_S1_1)) r = ∅ := fun r hr => by
  show (if r < 8 then ({false} : Finset Bool) else ∅) = ∅; exact if_neg (by omega)
theorem duties_agccw_s_2_0 (c : Dev nD) : (Rd (F := F) X).duties (dcell c (qS cc0_scratch8 2 inb_S4_S1_2)) 0 = {false} := rfl
theorem amount_agccw_s_2_0 (c : Dev nD) (d : Bool) : (Rd (F := F) X).amount (dcell c (qS cc0_scratch8 2 inb_S4_S1_2)) 0 d = N := rfl
theorem payload_agccw_s_2_0 (c : Dev nD) (d : Bool) : (Rd (F := F) X).payload (dcell c (qS cc0_scratch8 2 inb_S4_S1_2)) 0 d = owns (c : Thread nD τ) (rows oM (off false (c.val + 1) 0) (off_inb false _ 0)) fullShare (doneV X false 0 (devAt c 1)) := rfl
theorem expect_agccw_s_2_0 (c : Dev nD) : (Rd (F := F) X).expect (dcell c (qS cc0_scratch8 2 inb_S4_S1_2)) 0 = N := by
  unfold Schedule.expect Schedule.amountOf; rw [duties_agccw_s_2_0, Finset.sum_singleton]; rfl
theorem duties_agccw_s_2_1 (c : Dev nD) : (Rd (F := F) X).duties (dcell c (qS cc0_scratch8 2 inb_S4_S1_2)) 1 = {false} := rfl
theorem amount_agccw_s_2_1 (c : Dev nD) (d : Bool) : (Rd (F := F) X).amount (dcell c (qS cc0_scratch8 2 inb_S4_S1_2)) 1 d = N := rfl
theorem payload_agccw_s_2_1 (c : Dev nD) (d : Bool) : (Rd (F := F) X).payload (dcell c (qS cc0_scratch8 2 inb_S4_S1_2)) 1 d = owns (c : Thread nD τ) (rows oM (off false (c.val + 3) 0) (off_inb false _ 0)) fullShare (doneV X false 0 (devAt c 3)) := rfl
theorem expect_agccw_s_2_1 (c : Dev nD) : (Rd (F := F) X).expect (dcell c (qS cc0_scratch8 2 inb_S4_S1_2)) 1 = N := by
  unfold Schedule.expect Schedule.amountOf; rw [duties_agccw_s_2_1, Finset.sum_singleton]; rfl
theorem duties_agccw_s_2_2 (c : Dev nD) : (Rd (F := F) X).duties (dcell c (qS cc0_scratch8 2 inb_S4_S1_2)) 2 = {false} := rfl
theorem amount_agccw_s_2_2 (c : Dev nD) (d : Bool) : (Rd (F := F) X).amount (dcell c (qS cc0_scratch8 2 inb_S4_S1_2)) 2 d = N := rfl
theorem payload_agccw_s_2_2 (c : Dev nD) (d : Bool) : (Rd (F := F) X).payload (dcell c (qS cc0_scratch8 2 inb_S4_S1_2)) 2 d = owns (c : Thread nD τ) (rows oM (off false (c.val + 5) 0) (off_inb false _ 0)) fullShare (doneV X false 0 (devAt c 5)) := rfl
theorem expect_agccw_s_2_2 (c : Dev nD) : (Rd (F := F) X).expect (dcell c (qS cc0_scratch8 2 inb_S4_S1_2)) 2 = N := by
  unfold Schedule.expect Schedule.amountOf; rw [duties_agccw_s_2_2, Finset.sum_singleton]; rfl
theorem duties_agccw_s_2_3 (c : Dev nD) : (Rd (F := F) X).duties (dcell c (qS cc0_scratch8 2 inb_S4_S1_2)) 3 = {false} := rfl
theorem amount_agccw_s_2_3 (c : Dev nD) (d : Bool) : (Rd (F := F) X).amount (dcell c (qS cc0_scratch8 2 inb_S4_S1_2)) 3 d = N := rfl
theorem payload_agccw_s_2_3 (c : Dev nD) (d : Bool) : (Rd (F := F) X).payload (dcell c (qS cc0_scratch8 2 inb_S4_S1_2)) 3 d = owns (c : Thread nD τ) (rows oM (off false (c.val + 7) 0) (off_inb false _ 0)) fullShare (doneV X false 0 (devAt c 7)) := rfl
theorem expect_agccw_s_2_3 (c : Dev nD) : (Rd (F := F) X).expect (dcell c (qS cc0_scratch8 2 inb_S4_S1_2)) 3 = N := by
  unfold Schedule.expect Schedule.amountOf; rw [duties_agccw_s_2_3, Finset.sum_singleton]; rfl
theorem duties_agccw_s_2_4 (c : Dev nD) : (Rd (F := F) X).duties (dcell c (qS cc0_scratch8 2 inb_S4_S1_2)) 4 = {false} := rfl
theorem amount_agccw_s_2_4 (c : Dev nD) (d : Bool) : (Rd (F := F) X).amount (dcell c (qS cc0_scratch8 2 inb_S4_S1_2)) 4 d = N := rfl
theorem payload_agccw_s_2_4 (c : Dev nD) (d : Bool) : (Rd (F := F) X).payload (dcell c (qS cc0_scratch8 2 inb_S4_S1_2)) 4 d = owns (c : Thread nD τ) (rows oM (off false (c.val + 9) 0) (off_inb false _ 0)) fullShare (doneV X false 0 (devAt c 9)) := rfl
theorem expect_agccw_s_2_4 (c : Dev nD) : (Rd (F := F) X).expect (dcell c (qS cc0_scratch8 2 inb_S4_S1_2)) 4 = N := by
  unfold Schedule.expect Schedule.amountOf; rw [duties_agccw_s_2_4, Finset.sum_singleton]; rfl
theorem duties_agccw_s_2_5 (c : Dev nD) : (Rd (F := F) X).duties (dcell c (qS cc0_scratch8 2 inb_S4_S1_2)) 5 = {false} := rfl
theorem amount_agccw_s_2_5 (c : Dev nD) (d : Bool) : (Rd (F := F) X).amount (dcell c (qS cc0_scratch8 2 inb_S4_S1_2)) 5 d = N := rfl
theorem payload_agccw_s_2_5 (c : Dev nD) (d : Bool) : (Rd (F := F) X).payload (dcell c (qS cc0_scratch8 2 inb_S4_S1_2)) 5 d = owns (c : Thread nD τ) (rows oM (off false (c.val + 11) 0) (off_inb false _ 0)) fullShare (doneV X false 0 (devAt c 11)) := rfl
theorem expect_agccw_s_2_5 (c : Dev nD) : (Rd (F := F) X).expect (dcell c (qS cc0_scratch8 2 inb_S4_S1_2)) 5 = N := by
  unfold Schedule.expect Schedule.amountOf; rw [duties_agccw_s_2_5, Finset.sum_singleton]; rfl
theorem duties_agccw_s_2_6 (c : Dev nD) : (Rd (F := F) X).duties (dcell c (qS cc0_scratch8 2 inb_S4_S1_2)) 6 = {false} := rfl
theorem amount_agccw_s_2_6 (c : Dev nD) (d : Bool) : (Rd (F := F) X).amount (dcell c (qS cc0_scratch8 2 inb_S4_S1_2)) 6 d = N := rfl
theorem payload_agccw_s_2_6 (c : Dev nD) (d : Bool) : (Rd (F := F) X).payload (dcell c (qS cc0_scratch8 2 inb_S4_S1_2)) 6 d = owns (c : Thread nD τ) (rows oM (off false (c.val + 13) 0) (off_inb false _ 0)) fullShare (doneV X false 0 (devAt c 13)) := rfl
theorem expect_agccw_s_2_6 (c : Dev nD) : (Rd (F := F) X).expect (dcell c (qS cc0_scratch8 2 inb_S4_S1_2)) 6 = N := by
  unfold Schedule.expect Schedule.amountOf; rw [duties_agccw_s_2_6, Finset.sum_singleton]; rfl
theorem later_agccw_s_2 (c : Dev nD) : ∀ r, 7 ≤ r → (Rd (F := F) X).duties (dcell c (qS cc0_scratch8 2 inb_S4_S1_2)) r = ∅ := fun r hr => by
  show (if r < 7 then ({false} : Finset Bool) else ∅) = ∅; exact if_neg (by omega)
theorem duties_agccw_s_3_0 (c : Dev nD) : (Rd (F := F) X).duties (dcell c (qS cc0_scratch8 3 inb_S4_S1_3)) 0 = {false} := rfl
theorem amount_agccw_s_3_0 (c : Dev nD) (d : Bool) : (Rd (F := F) X).amount (dcell c (qS cc0_scratch8 3 inb_S4_S1_3)) 0 d = N := rfl
theorem payload_agccw_s_3_0 (c : Dev nD) (d : Bool) : (Rd (F := F) X).payload (dcell c (qS cc0_scratch8 3 inb_S4_S1_3)) 0 d = owns (c : Thread nD τ) (rows oM (off false (c.val + 1) 1) (off_inb false _ 1)) fullShare (doneV X false 1 (devAt c 1)) := rfl
theorem expect_agccw_s_3_0 (c : Dev nD) : (Rd (F := F) X).expect (dcell c (qS cc0_scratch8 3 inb_S4_S1_3)) 0 = N := by
  unfold Schedule.expect Schedule.amountOf; rw [duties_agccw_s_3_0, Finset.sum_singleton]; rfl
theorem duties_agccw_s_3_1 (c : Dev nD) : (Rd (F := F) X).duties (dcell c (qS cc0_scratch8 3 inb_S4_S1_3)) 1 = {false} := rfl
theorem amount_agccw_s_3_1 (c : Dev nD) (d : Bool) : (Rd (F := F) X).amount (dcell c (qS cc0_scratch8 3 inb_S4_S1_3)) 1 d = N := rfl
theorem payload_agccw_s_3_1 (c : Dev nD) (d : Bool) : (Rd (F := F) X).payload (dcell c (qS cc0_scratch8 3 inb_S4_S1_3)) 1 d = owns (c : Thread nD τ) (rows oM (off false (c.val + 3) 1) (off_inb false _ 1)) fullShare (doneV X false 1 (devAt c 3)) := rfl
theorem expect_agccw_s_3_1 (c : Dev nD) : (Rd (F := F) X).expect (dcell c (qS cc0_scratch8 3 inb_S4_S1_3)) 1 = N := by
  unfold Schedule.expect Schedule.amountOf; rw [duties_agccw_s_3_1, Finset.sum_singleton]; rfl
theorem duties_agccw_s_3_2 (c : Dev nD) : (Rd (F := F) X).duties (dcell c (qS cc0_scratch8 3 inb_S4_S1_3)) 2 = {false} := rfl
theorem amount_agccw_s_3_2 (c : Dev nD) (d : Bool) : (Rd (F := F) X).amount (dcell c (qS cc0_scratch8 3 inb_S4_S1_3)) 2 d = N := rfl
theorem payload_agccw_s_3_2 (c : Dev nD) (d : Bool) : (Rd (F := F) X).payload (dcell c (qS cc0_scratch8 3 inb_S4_S1_3)) 2 d = owns (c : Thread nD τ) (rows oM (off false (c.val + 5) 1) (off_inb false _ 1)) fullShare (doneV X false 1 (devAt c 5)) := rfl
theorem expect_agccw_s_3_2 (c : Dev nD) : (Rd (F := F) X).expect (dcell c (qS cc0_scratch8 3 inb_S4_S1_3)) 2 = N := by
  unfold Schedule.expect Schedule.amountOf; rw [duties_agccw_s_3_2, Finset.sum_singleton]; rfl
theorem duties_agccw_s_3_3 (c : Dev nD) : (Rd (F := F) X).duties (dcell c (qS cc0_scratch8 3 inb_S4_S1_3)) 3 = {false} := rfl
theorem amount_agccw_s_3_3 (c : Dev nD) (d : Bool) : (Rd (F := F) X).amount (dcell c (qS cc0_scratch8 3 inb_S4_S1_3)) 3 d = N := rfl
theorem payload_agccw_s_3_3 (c : Dev nD) (d : Bool) : (Rd (F := F) X).payload (dcell c (qS cc0_scratch8 3 inb_S4_S1_3)) 3 d = owns (c : Thread nD τ) (rows oM (off false (c.val + 7) 1) (off_inb false _ 1)) fullShare (doneV X false 1 (devAt c 7)) := rfl
theorem expect_agccw_s_3_3 (c : Dev nD) : (Rd (F := F) X).expect (dcell c (qS cc0_scratch8 3 inb_S4_S1_3)) 3 = N := by
  unfold Schedule.expect Schedule.amountOf; rw [duties_agccw_s_3_3, Finset.sum_singleton]; rfl
theorem duties_agccw_s_3_4 (c : Dev nD) : (Rd (F := F) X).duties (dcell c (qS cc0_scratch8 3 inb_S4_S1_3)) 4 = {false} := rfl
theorem amount_agccw_s_3_4 (c : Dev nD) (d : Bool) : (Rd (F := F) X).amount (dcell c (qS cc0_scratch8 3 inb_S4_S1_3)) 4 d = N := rfl
theorem payload_agccw_s_3_4 (c : Dev nD) (d : Bool) : (Rd (F := F) X).payload (dcell c (qS cc0_scratch8 3 inb_S4_S1_3)) 4 d = owns (c : Thread nD τ) (rows oM (off false (c.val + 9) 1) (off_inb false _ 1)) fullShare (doneV X false 1 (devAt c 9)) := rfl
theorem expect_agccw_s_3_4 (c : Dev nD) : (Rd (F := F) X).expect (dcell c (qS cc0_scratch8 3 inb_S4_S1_3)) 4 = N := by
  unfold Schedule.expect Schedule.amountOf; rw [duties_agccw_s_3_4, Finset.sum_singleton]; rfl
theorem duties_agccw_s_3_5 (c : Dev nD) : (Rd (F := F) X).duties (dcell c (qS cc0_scratch8 3 inb_S4_S1_3)) 5 = {false} := rfl
theorem amount_agccw_s_3_5 (c : Dev nD) (d : Bool) : (Rd (F := F) X).amount (dcell c (qS cc0_scratch8 3 inb_S4_S1_3)) 5 d = N := rfl
theorem payload_agccw_s_3_5 (c : Dev nD) (d : Bool) : (Rd (F := F) X).payload (dcell c (qS cc0_scratch8 3 inb_S4_S1_3)) 5 d = owns (c : Thread nD τ) (rows oM (off false (c.val + 11) 1) (off_inb false _ 1)) fullShare (doneV X false 1 (devAt c 11)) := rfl
theorem expect_agccw_s_3_5 (c : Dev nD) : (Rd (F := F) X).expect (dcell c (qS cc0_scratch8 3 inb_S4_S1_3)) 5 = N := by
  unfold Schedule.expect Schedule.amountOf; rw [duties_agccw_s_3_5, Finset.sum_singleton]; rfl
theorem duties_agccw_s_3_6 (c : Dev nD) : (Rd (F := F) X).duties (dcell c (qS cc0_scratch8 3 inb_S4_S1_3)) 6 = {false} := rfl
theorem amount_agccw_s_3_6 (c : Dev nD) (d : Bool) : (Rd (F := F) X).amount (dcell c (qS cc0_scratch8 3 inb_S4_S1_3)) 6 d = N := rfl
theorem payload_agccw_s_3_6 (c : Dev nD) (d : Bool) : (Rd (F := F) X).payload (dcell c (qS cc0_scratch8 3 inb_S4_S1_3)) 6 d = owns (c : Thread nD τ) (rows oM (off false (c.val + 13) 1) (off_inb false _ 1)) fullShare (doneV X false 1 (devAt c 13)) := rfl
theorem expect_agccw_s_3_6 (c : Dev nD) : (Rd (F := F) X).expect (dcell c (qS cc0_scratch8 3 inb_S4_S1_3)) 6 = N := by
  unfold Schedule.expect Schedule.amountOf; rw [duties_agccw_s_3_6, Finset.sum_singleton]; rfl
theorem later_agccw_s_3 (c : Dev nD) : ∀ r, 7 ≤ r → (Rd (F := F) X).duties (dcell c (qS cc0_scratch8 3 inb_S4_S1_3)) r = ∅ := fun r hr => by
  show (if r < 7 then ({false} : Finset Bool) else ∅) = ∅; exact if_neg (by omega)
theorem later_agccw_r_0_0 (c : Dev nD) : ∀ r, 1 ≤ r → (Rd (F := F) X).duties (dcell c (qR cc0_scratch9 0 0 inb_S15x2_S1x1_0_0)) r = ∅ := fun r hr => by
  show (if r = 0 then ({false} : Finset Bool) else ∅) = ∅; exact if_neg (by omega)
theorem later_agccw_r_0_1 (c : Dev nD) : ∀ r, 1 ≤ r → (Rd (F := F) X).duties (dcell c (qR cc0_scratch9 0 1 inb_S15x2_S1x1_0_1)) r = ∅ := fun r hr => by
  show (if r = 0 then ({false} : Finset Bool) else ∅) = ∅; exact if_neg (by omega)
theorem later_agccw_r_1_0 (c : Dev nD) : ∀ r, 1 ≤ r → (Rd (F := F) X).duties (dcell c (qR cc0_scratch9 1 0 inb_S15x2_S1x1_1_0)) r = ∅ := fun r hr => by
  show (if r = 0 then ({false} : Finset Bool) else ∅) = ∅; exact if_neg (by omega)
theorem later_agccw_r_1_1 (c : Dev nD) : ∀ r, 1 ≤ r → (Rd (F := F) X).duties (dcell c (qR cc0_scratch9 1 1 inb_S15x2_S1x1_1_1)) r = ∅ := fun r hr => by
  show (if r = 0 then ({false} : Finset Bool) else ∅) = ∅; exact if_neg (by omega)
theorem later_agccw_r_2_0 (c : Dev nD) : ∀ r, 1 ≤ r → (Rd (F := F) X).duties (dcell c (qR cc0_scratch9 2 0 inb_S15x2_S1x1_2_0)) r = ∅ := fun r hr => by
  show (if r = 0 then ({false} : Finset Bool) else ∅) = ∅; exact if_neg (by omega)
theorem later_agccw_r_2_1 (c : Dev nD) : ∀ r, 1 ≤ r → (Rd (F := F) X).duties (dcell c (qR cc0_scratch9 2 1 inb_S15x2_S1x1_2_1)) r = ∅ := fun r hr => by
  show (if r = 0 then ({false} : Finset Bool) else ∅) = ∅; exact if_neg (by omega)
theorem later_agccw_r_3_0 (c : Dev nD) : ∀ r, 1 ≤ r → (Rd (F := F) X).duties (dcell c (qR cc0_scratch9 3 0 inb_S15x2_S1x1_3_0)) r = ∅ := fun r hr => by
  show (if r = 0 then ({false} : Finset Bool) else ∅) = ∅; exact if_neg (by omega)
theorem later_agccw_r_3_1 (c : Dev nD) : ∀ r, 1 ≤ r → (Rd (F := F) X).duties (dcell c (qR cc0_scratch9 3 1 inb_S15x2_S1x1_3_1)) r = ∅ := fun r hr => by
  show (if r = 0 then ({false} : Finset Bool) else ∅) = ∅; exact if_neg (by omega)
theorem later_agccw_r_4_0 (c : Dev nD) : ∀ r, 1 ≤ r → (Rd (F := F) X).duties (dcell c (qR cc0_scratch9 4 0 inb_S15x2_S1x1_4_0)) r = ∅ := fun r hr => by
  show (if r = 0 then ({false} : Finset Bool) else ∅) = ∅; exact if_neg (by omega)
theorem later_agccw_r_4_1 (c : Dev nD) : ∀ r, 1 ≤ r → (Rd (F := F) X).duties (dcell c (qR cc0_scratch9 4 1 inb_S15x2_S1x1_4_1)) r = ∅ := fun r hr => by
  show (if r = 0 then ({false} : Finset Bool) else ∅) = ∅; exact if_neg (by omega)
theorem later_agccw_r_5_0 (c : Dev nD) : ∀ r, 1 ≤ r → (Rd (F := F) X).duties (dcell c (qR cc0_scratch9 5 0 inb_S15x2_S1x1_5_0)) r = ∅ := fun r hr => by
  show (if r = 0 then ({false} : Finset Bool) else ∅) = ∅; exact if_neg (by omega)
theorem later_agccw_r_5_1 (c : Dev nD) : ∀ r, 1 ≤ r → (Rd (F := F) X).duties (dcell c (qR cc0_scratch9 5 1 inb_S15x2_S1x1_5_1)) r = ∅ := fun r hr => by
  show (if r = 0 then ({false} : Finset Bool) else ∅) = ∅; exact if_neg (by omega)
theorem later_agccw_r_6_0 (c : Dev nD) : ∀ r, 1 ≤ r → (Rd (F := F) X).duties (dcell c (qR cc0_scratch9 6 0 inb_S15x2_S1x1_6_0)) r = ∅ := fun r hr => by
  show (if r = 0 then ({false} : Finset Bool) else ∅) = ∅; exact if_neg (by omega)
theorem later_agccw_r_6_1 (c : Dev nD) : ∀ r, 1 ≤ r → (Rd (F := F) X).duties (dcell c (qR cc0_scratch9 6 1 inb_S15x2_S1x1_6_1)) r = ∅ := fun r hr => by
  show (if r = 0 then ({false} : Finset Bool) else ∅) = ∅; exact if_neg (by omega)
theorem later_agccw_r_7_0 (c : Dev nD) : ∀ r, 1 ≤ r → (Rd (F := F) X).duties (dcell c (qR cc0_scratch9 7 0 inb_S15x2_S1x1_7_0)) r = ∅ := fun r hr => by
  show (if r = 0 then ({false} : Finset Bool) else ∅) = ∅; exact if_neg (by omega)
theorem later_agccw_r_7_1 (c : Dev nD) : ∀ r, 1 ≤ r → (Rd (F := F) X).duties (dcell c (qR cc0_scratch9 7 1 inb_S15x2_S1x1_7_1)) r = ∅ := fun r hr => by
  show (if r = 0 then ({false} : Finset Bool) else ∅) = ∅; exact if_neg (by omega)
theorem later_agccw_r_8_0 (c : Dev nD) : ∀ r, 1 ≤ r → (Rd (F := F) X).duties (dcell c (qR cc0_scratch9 8 0 inb_S15x2_S1x1_8_0)) r = ∅ := fun r hr => by
  show (if r = 0 then ({false} : Finset Bool) else ∅) = ∅; exact if_neg (by omega)
theorem later_agccw_r_8_1 (c : Dev nD) : ∀ r, 1 ≤ r → (Rd (F := F) X).duties (dcell c (qR cc0_scratch9 8 1 inb_S15x2_S1x1_8_1)) r = ∅ := fun r hr => by
  show (if r = 0 then ({false} : Finset Bool) else ∅) = ∅; exact if_neg (by omega)
theorem later_agccw_r_9_0 (c : Dev nD) : ∀ r, 1 ≤ r → (Rd (F := F) X).duties (dcell c (qR cc0_scratch9 9 0 inb_S15x2_S1x1_9_0)) r = ∅ := fun r hr => by
  show (if r = 0 then ({false} : Finset Bool) else ∅) = ∅; exact if_neg (by omega)
theorem later_agccw_r_9_1 (c : Dev nD) : ∀ r, 1 ≤ r → (Rd (F := F) X).duties (dcell c (qR cc0_scratch9 9 1 inb_S15x2_S1x1_9_1)) r = ∅ := fun r hr => by
  show (if r = 0 then ({false} : Finset Bool) else ∅) = ∅; exact if_neg (by omega)
theorem later_agccw_r_10_0 (c : Dev nD) : ∀ r, 1 ≤ r → (Rd (F := F) X).duties (dcell c (qR cc0_scratch9 10 0 inb_S15x2_S1x1_10_0)) r = ∅ := fun r hr => by
  show (if r = 0 then ({false} : Finset Bool) else ∅) = ∅; exact if_neg (by omega)
theorem later_agccw_r_10_1 (c : Dev nD) : ∀ r, 1 ≤ r → (Rd (F := F) X).duties (dcell c (qR cc0_scratch9 10 1 inb_S15x2_S1x1_10_1)) r = ∅ := fun r hr => by
  show (if r = 0 then ({false} : Finset Bool) else ∅) = ∅; exact if_neg (by omega)
theorem later_agccw_r_11_0 (c : Dev nD) : ∀ r, 1 ≤ r → (Rd (F := F) X).duties (dcell c (qR cc0_scratch9 11 0 inb_S15x2_S1x1_11_0)) r = ∅ := fun r hr => by
  show (if r = 0 then ({false} : Finset Bool) else ∅) = ∅; exact if_neg (by omega)
theorem later_agccw_r_11_1 (c : Dev nD) : ∀ r, 1 ≤ r → (Rd (F := F) X).duties (dcell c (qR cc0_scratch9 11 1 inb_S15x2_S1x1_11_1)) r = ∅ := fun r hr => by
  show (if r = 0 then ({false} : Finset Bool) else ∅) = ∅; exact if_neg (by omega)
theorem later_agccw_r_12_0 (c : Dev nD) : ∀ r, 1 ≤ r → (Rd (F := F) X).duties (dcell c (qR cc0_scratch9 12 0 inb_S15x2_S1x1_12_0)) r = ∅ := fun r hr => by
  show (if r = 0 then ({false} : Finset Bool) else ∅) = ∅; exact if_neg (by omega)
theorem later_agccw_r_12_1 (c : Dev nD) : ∀ r, 1 ≤ r → (Rd (F := F) X).duties (dcell c (qR cc0_scratch9 12 1 inb_S15x2_S1x1_12_1)) r = ∅ := fun r hr => by
  show (if r = 0 then ({false} : Finset Bool) else ∅) = ∅; exact if_neg (by omega)
theorem later_agccw_r_13_0 (c : Dev nD) : ∀ r, 1 ≤ r → (Rd (F := F) X).duties (dcell c (qR cc0_scratch9 13 0 inb_S15x2_S1x1_13_0)) r = ∅ := fun r hr => by
  show (if r = 0 then ({false} : Finset Bool) else ∅) = ∅; exact if_neg (by omega)
theorem later_agccw_r_13_1 (c : Dev nD) : ∀ r, 1 ≤ r → (Rd (F := F) X).duties (dcell c (qR cc0_scratch9 13 1 inb_S15x2_S1x1_13_1)) r = ∅ := fun r hr => by
  show (if r = 0 then ({false} : Finset Bool) else ∅) = ∅; exact if_neg (by omega)
theorem later_agccw_r_14_0 (c : Dev nD) : ∀ r, 1 ≤ r → (Rd (F := F) X).duties (dcell c (qR cc0_scratch9 14 0 inb_S15x2_S1x1_14_0)) r = ∅ := fun r hr => by
  show (if r = 0 then ({false} : Finset Bool) else ∅) = ∅; exact if_neg (by omega)
theorem later_agccw_r_14_1 (c : Dev nD) : ∀ r, 1 ≤ r → (Rd (F := F) X).duties (dcell c (qR cc0_scratch9 14 1 inb_S15x2_S1x1_14_1)) r = ∅ := fun r hr => by
  show (if r = 0 then ({false} : Finset Bool) else ∅) = ∅; exact if_neg (by omega)

end Cert.KernelIdeal.RSAG

end
-- ==== Proof.RingSum.lean ====
import Mathlib.Data.EReal.Basic
import Mathlib.Algebra.BigOperators.Fin
import Mathlib.Algebra.Group.Fin.Basic
import Mathlib.Algebra.Group.Units.Equiv

/-! Sums around a ring of sixteen positions. Starting next to position `k` and walking upwards (or downwards)
    fifteen steps, adding the entry met at each step, adds up every entry exactly once: the positions met are a
    translate (or a reflected translate) of all of `Fin 16`. Addition of extended reals is commutative and
    associative, so nothing is asked of the entries. -/

open scoped BigOperators
open Fin.NatCast

noncomputable section

namespace Cert.RingSum

/-- The running sum walking upwards from `k + 1`: after `n` steps, the entries at `k + 1, …, k + 1 + n`. -/
def up (x : Fin 16 → EReal) (k : Fin 16) : ℕ → EReal
  | 0 => x (k + 1)
  | n + 1 => up x k n + x (k + 1 + ((n + 1 : ℕ) : Fin 16))

/-- The running sum walking downwards from `k - 1`: after `n` steps, the entries at `k - 1, …, k - 1 - n`. -/
def down (x : Fin 16 → EReal) (k : Fin 16) : ℕ → EReal
  | 0 => x (k - 1)
  | n + 1 => down x k n + x (k - 1 - ((n + 1 : ℕ) : Fin 16))

/-- After `n` steps upwards the running sum is the sum over the first `n + 1` offsets. -/
theorem up_eq_sum_range (x : Fin 16 → EReal) (k : Fin 16) (n : ℕ) :
    up x k n = ∑ j ∈ Finset.range (n + 1), x (k + 1 + ((j : ℕ) : Fin 16)) := by
  induction n with
  | zero => simp [up]
  | succ n ih => rw [up, ih, Finset.sum_range_succ _ (n + 1)]

/-- After `n` steps downwards the running sum is the sum over the first `n + 1` offsets. -/
theorem down_eq_sum_range (x : Fin 16 → EReal) (k : Fin 16) (n : ℕ) :
    down x k n = ∑ j ∈ Finset.range (n + 1), x (k - 1 - ((j : ℕ) : Fin 16)) := by
  induction n with
  | zero => simp [down]
  | succ n ih => rw [down, ih, Finset.sum_range_succ _ (n + 1)]

/-- Fifteen steps upwards meet every position once. -/
theorem up_all (x : Fin 16 → EReal) (k : Fin 16) : up x k 15 = ∑ d, x d := by
  rw [up_eq_sum_range, Finset.sum_range (fun j : ℕ => x (k + 1 + ((j : ℕ) : Fin 16)))]
  simp only [Fin.cast_val_eq_self]
  exact Fintype.sum_equiv (Equiv.addLeft (k + 1)) _ _ (fun _ => rfl)

/-- Fifteen steps downwards meet every position once. -/
theorem down_all (x : Fin 16 → EReal) (k : Fin 16) : down x k 15 = ∑ d, x d := by
  rw [down_eq_sum_range, Finset.sum_range (fun j : ℕ => x (k - 1 - ((j : ℕ) : Fin 16)))]
  simp only [Fin.cast_val_eq_self]
  exact Fintype.sum_equiv (Equiv.subLeft (k - 1)) _ _ (fun _ => rfl)

end Cert.RingSum

end
-- ==== Proof.RefSide.lean ====
import proofs.«901013_g7700000000001014_dist_rs_then_ag_i_m4096_n1024_v7x_i16_f32_1_alg».proof.Proof.Gen.ReferenceIdeal
import proofs.«901013_g7700000000001014_dist_rs_then_ag_i_m4096_n1024_v7x_i16_f32_1_alg».proof.Proof.Gen.ReferenceIdeal.Run
import proofs.«901013_g7700000000001014_dist_rs_then_ag_i_m4096_n1024_v7x_i16_f32_1_alg».proof.Proof.Gen.ReferenceIdeal.Read
import proofs.«901013_g7700000000001014_dist_rs_then_ag_i_m4096_n1024_v7x_i16_f32_1_alg».proof.Proof.Gen.Pre_finite_inputs_ReferenceIdeal
import proofs.«901013_g7700000000001014_dist_rs_then_ag_i_m4096_n1024_v7x_i16_f32_1_alg».proof.Defs
import Idealize.ShloMosaic.Lib.ValueIdx

/-! The one-device reference: row `i` of the result is the sum, over the sixteen row blocks `d` of the
    argument, of row `4096 * d + i`. The reduction's initial value is the constant zero, which the sum absorbs. -/

noncomputable section

namespace Cert.RefSide

open Cert.ReferenceIdeal Idealize.ShloMosaic Idealize.ShloMosaic.TcCoe Idealize.SL.Sem Idealize.ShloMosaic.ValueIdx
open scoped BigOperators

/-- Row `4096 * d + r` of the argument, for a block `d` of sixteen and a row `r` of the block. -/
abbrev row (d : Fin 16) (r : Fin 4096) : Fin 65536 := ⟨4096 * d.val + r.val, by omega⟩

/-- The reference's value: the sixteen row blocks of the argument added up, entry by entry. -/
def refVal (X : (⟨S65536x1024, .f32⟩ : BufTy).Contents (Elt Ideal)) : (⟨S4096x1024, .f32⟩ : BufTy).Contents (Elt Ideal) :=
  fun i => ∑ d : Fin 16, X (ix2 (row d (i 0)) (i 1 : Fin 1024))

/-- Reading the reshaped argument at block `k`, row `i 0`, column `i 1` reads the argument at row `4096 * k + i 0`. -/
theorem idx_comp (i : S4096x1024.Idx) (k : Fin 16) :
    Read.idx_main_v0 (Read.idx_main_v1 i k) = ix2 (row k (i 0)) (i 1 : Fin 1024) := by
  funext a
  have h0 : (i 0).val < 4096 := (i 0).isLt
  have h1 : (i 1).val < 1024 := (i 1).isLt
  match a with
  | ⟨0, _⟩ => exact Fin.ext (by show ((k.val * 4096 + (i 0).val) * 1024 + (i 1).val) / 1024 = 4096 * k.val + (i 0).val; omega)
  | ⟨1, _⟩ => exact Fin.ext (by show ((k.val * 4096 + (i 0).val) * 1024 + (i 1).val) % 1024 = (i 1).val; omega)

/-- The reference's stage-by-stage value is `refVal`. -/
theorem val_eq_refVal (X : (⟨S65536x1024, .f32⟩ : BufTy).Contents (Elt Ideal)) :
    Read.val_main_v1 (F := Ideal) X = refVal X := by
  funext i
  rw [Read.val_main_v1_apply, Read.val_main_cst_apply]
  show Ideal.ofBits .f32 0x00000000#32 + _ = _
  rw [Ideal.ofBits_zero_f32, zero_add]
  unfold refVal
  refine Finset.sum_congr rfl fun k _ => ?_
  exact (Read.val_main_v0_apply X (Read.idx_main_v1 i k)).trans (congrArg X (idx_comp i k))

/-- The reference runs: every weakly fair execution ends with the result holding `refVal` of the argument as it
    was at the start, and the argument unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r =>
        r.2.mem (((0 : Dev nD).tc : Thread nD τ).loc main_v1) = refVal (m' (((0 : Dev nD).tc : Thread nD τ).loc main_arg0))
        ∧ r.2.mem (((0 : Dev nD).tc : Thread nD τ).loc main_arg0) = m' (((0 : Dev nD).tc : Thread nD τ).loc main_arg0)) :=
  (θ_run (Cert.ReferenceIdeal.defs (F := Ideal)) _ _).mono
    (fun _ h => ⟨(h 0).1.trans ((Read.val_main_v1_eq _).trans (val_eq_refVal _)), (h 0).2⟩)
    (Cert.ReferenceIdeal.Value.run (F := Ideal) m' ρ')

/-- The reference runs and leaves its argument unchanged: its run with the result's value dropped. -/
theorem frame_ref :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run (Cert.ReferenceIdeal.defs (F := Ideal)) _ _).mono (fun _ h c => (h c).2)
    (Cert.ReferenceIdeal.Value.run (F := Ideal) m ρ)

end Cert.RefSide

end
-- ==== Proof.Values.lean ====
import proofs.«901013_g7700000000001014_dist_rs_then_ag_i_m4096_n1024_v7x_i16_f32_1_alg».proof.Proof.Base
import proofs.«901013_g7700000000001014_dist_rs_then_ag_i_m4096_n1024_v7x_i16_f32_1_alg».proof.Proof.RingSum
import proofs.«901013_g7700000000001014_dist_rs_then_ag_i_m4096_n1024_v7x_i16_f32_1_alg».proof.Proof.RefSide
import Idealize.ShloMosaic.Lib.ValueIdx
import Idealize.ShloMosaic.Lib.Layout

/-! The values of the ring reduce-scatter, read entry by entry.

    A window of 64 rows reads the array at an index shifted by the window's offset. The finished sub-blocks, laid out
    chunk by chunk, half by half, form one 4096-row array; under each sub-block's window that array shows the
    sub-block. With exact addition each finished sub-block is the sum of all sixteen devices' staged rows, because the
    partial sum of a chunk meets every device exactly once on its way round the ring; and the sixteen row blocks of the
    whole argument, added up, are the one-device reference's value. -/

noncomputable section

namespace Cert.KernelIdeal.RSAG

open Cert.KernelIdeal Cert.KernelIdeal.Gen
open Idealize.ShloMosaic
open Idealize.ShloMosaic.TcCoe
open Idealize.ShloMosaic.ValueIdx
open scoped BigOperators

variable {F : FTy → Type} [FloatOps F]

/-! ## Reading a window is an index shift -/

/-- A row of a 64-row window at row offset `o 0` is a row of the array. -/
theorem piece_row_lt (o : Fin 2 → ℕ) (h : ∀ a, o a + S64x1024.size a ≤ S4096x1024.size a) (i : S64x1024.Idx) :
    o 0 + (i 0).val < 4096 := by
  have h0 : o 0 + 64 ≤ 4096 := h 0
  have := idx2_lt0 i
  omega

/-- A column of the window at column offset `o 1` is a column of the array. -/
theorem piece_col_lt (o : Fin 2 → ℕ) (h : ∀ a, o a + S64x1024.size a ≤ S4096x1024.size a) (i : S64x1024.Idx) :
    o 1 + (i 1).val < 1024 := by
  have h1 : o 1 + 1024 ≤ 1024 := h 1
  have := idx2_lt1 i
  omega

/-- Reading 64 rows through the window at offset `o` is an index shift by `o`. -/
theorem piece_apply (o : Fin 2 → ℕ) (h : ∀ a, o a + S64x1024.size a ≤ S4096x1024.size a) (Y : S4096x1024.Idx → Elt F .f32)
    (i : S64x1024.Idx) :
    piece o h Y i = Y (ix2 ⟨o 0 + (i 0).val, piece_row_lt o h i⟩ ⟨o 1 + (i 1).val, piece_col_lt o h i⟩) := by
  show Y _ = Y _
  refine congrArg Y (funext fun a => Fin.ext ?_)
  match a with
  | ⟨0, _⟩ => show o 0 + 1 * (i 0).val = o 0 + (i 0).val; omega
  | ⟨1, _⟩ => show o 1 + 1 * (i 1).val = o 1 + (i 1).val; omega

/-! ## The assembled result

Row `R` of the result lies in chunk `R / 256`; within the chunk, rows below 128 belong to the half that travelled
towards the next device, the others to the half that travelled the other way; each half is two sub-blocks of 64 rows. -/

/-- The array index of row `j 0`, column `j 1` of sub-block `b` of the `cw` half of chunk `k`. -/
def J (cw : Bool) (k : Dev nD) (b : Fin 2) (j : S64x1024.Idx) : S4096x1024.Idx :=
  ix2 (⟨256 * k.val + (if cw then 0 else 128) + 64 * b.val + (j 0).val, by
        have hk : k.val < 16 := k.isLt
        have hb : b.val < 2 := b.isLt
        have hj := idx2_lt0 j
        cases cw <;> simp <;> omega⟩ : Fin 4096) (j 1 : Fin 1024)

theorem J_row (cw : Bool) (k : Dev nD) (b : Fin 2) (j : S64x1024.Idx) :
    (J cw k b j 0).val = 256 * k.val + (if cw then 0 else 128) + 64 * b.val + (j 0).val := rfl

/-- A window at the offset of sub-block `b` of the `cw` half of a chunk congruent to `k` reads the array at `J cw k b`. -/
theorem piece_off (cw : Bool) (m : ℕ) (b : Fin 2) (k : Dev nD) (hm : m % 16 = k.val) (Y : S4096x1024.Idx → Elt F .f32)
    (j : S64x1024.Idx) : piece (off cw m b.val) (off_inb cw m b) Y j = Y (J cw k b j) := by
  rw [piece_apply]
  refine congrArg Y (funext fun a => Fin.ext ?_)
  match a with
  | ⟨0, _⟩ =>
    show 256 * (m % 16) + (if cw then 0 else 128) + 64 * b.val + (j 0).val
      = 256 * k.val + (if cw then 0 else 128) + 64 * b.val + (j 0).val
    rw [hm]
  | ⟨1, _⟩ => show 0 + (j 1).val = (j 1).val; omega

/-- A row of the result lies in one of the sixteen chunks. -/
theorem chunk_lt (i : S4096x1024.Idx) : (i 0).val / 256 < nD := by
  have h : (i 0).val < 4096 := idx2_lt0 i
  show (i 0).val / 256 < 16
  omega

/-- The finished sub-blocks laid out as the 4096-row result every device ends with. -/
def outV (X : Dev nD → S4096x1024.Idx → Elt F .f32) : S4096x1024.Idx → Elt F .f32 := fun i =>
  doneV X (decide ((i 0).val % 256 < 128)) ⟨(i 0).val % 256 % 128 / 64, by omega⟩
    ⟨(i 0).val / 256, chunk_lt i⟩
    (ix2 (⟨(i 0).val % 256 % 64, by omega⟩ : Fin 64) (i 1 : Fin 1024))

theorem doneV_congr (X : Dev nD → S4096x1024.Idx → Elt F .f32) {cw cw' : Bool} {b b' : Fin 2} {k k' : Dev nD}
    {j j' : S64x1024.Idx} (h1 : cw' = cw) (h2 : b' = b) (h3 : k' = k) (h4 : j' = j) :
    doneV X cw' b' k' j' = doneV X cw b k j := by
  subst h1 h2 h3 h4; rfl

/-- The result at the array index of a sub-block's entry is that sub-block's entry. -/
theorem outV_J (X : Dev nD → S4096x1024.Idx → Elt F .f32) (cw : Bool) (k : Dev nD) (b : Fin 2) (j : S64x1024.Idx) :
    outV X (J cw k b j) = doneV X cw b k j := by
  have hk : k.val < 16 := k.isLt
  have hb : b.val < 2 := b.isLt
  have hj : (j 0).val < 64 := idx2_lt0 j
  have hR := J_row cw k b j
  show doneV X _ _ _ _ = _
  cases cw
  · have hR' : (J false k b j 0).val = 256 * k.val + 128 + 64 * b.val + (j 0).val := hR
    refine doneV_congr X (decide_eq_false (by rw [hR']; omega)) (Fin.ext ?_) (Fin.ext ?_) (funext fun a => ?_)
    · show (J false k b j 0).val % 256 % 128 / 64 = b.val
      rw [hR']; omega
    · show (J false k b j 0).val / 256 = k.val
      rw [hR']; omega
    · match a with
      | ⟨0, _⟩ => exact Fin.ext (by show (J false k b j 0).val % 256 % 64 = (j 0).val; rw [hR']; omega)
      | ⟨1, _⟩ => rfl
  · have hR' : (J true k b j 0).val = 256 * k.val + 0 + 64 * b.val + (j 0).val := hR
    refine doneV_congr X (decide_eq_true (by rw [hR']; omega)) (Fin.ext ?_) (Fin.ext ?_) (funext fun a => ?_)
    · show (J true k b j 0).val % 256 % 128 / 64 = b.val
      rw [hR']; omega
    · show (J true k b j 0).val / 256 = k.val
      rw [hR']; omega
    · match a with
      | ⟨0, _⟩ => exact Fin.ext (by show (J true k b j 0).val % 256 % 64 = (j 0).val; rw [hR']; omega)
      | ⟨1, _⟩ => rfl

/-- Every index of the result is the array index of one sub-block's entry: the one `outV` reads. -/
theorem J_decode (i : S4096x1024.Idx) :
    J (decide ((i 0).val % 256 < 128)) ⟨(i 0).val / 256, chunk_lt i⟩ ⟨(i 0).val % 256 % 128 / 64, by omega⟩
      (ix2 (⟨(i 0).val % 256 % 64, by omega⟩ : Fin 64) (i 1 : Fin 1024)) = i := by
  funext a
  match a with
  | ⟨0, _⟩ =>
    refine Fin.ext ?_
    show 256 * ((i 0).val / 256) + (if decide ((i 0).val % 256 < 128) = true then 0 else 128)
      + 64 * ((i 0).val % 256 % 128 / 64) + (i 0).val % 256 % 64 = (i 0).val
    by_cases h : (i 0).val % 256 < 128
    · rw [if_pos (decide_eq_true h)]; omega
    · rw [if_neg (by rw [decide_eq_false h]; exact Bool.false_ne_true)]; omega
  | ⟨1, _⟩ => rfl

/-- The rows of the result under the window of sub-block `b` of the `cw` half of chunk `k` are that finished sub-block. -/
theorem piece_outV (X : Dev nD → S4096x1024.Idx → Elt F .f32) (cw : Bool) (k : Dev nD) (b : Fin 2) :
    piece (off cw k.val b.val) (off_inb cw k.val b) (outV X) = doneV X cw b k := by
  funext j
  have hk : k.val < 16 := k.isLt
  rw [piece_off cw k.val b k (by omega)]
  exact outV_J X cw k b j

/-! ## At the ideal instance: a finished sub-block is the sum over all sixteen devices

Following one chunk `k` round the ring: in the direction of the next device its partial sum starts from device `k + 1`'s
rows, is added to on `k + 2`, `k + 3`, … and after fifteen steps arrives back on `k` having met every device once; the other
direction walks `k - 1`, `k - 2`, … likewise. -/

section AtIdeal

open Cert.RingSum
open Fin.NatCast

variable (X : Dev nD → S4096x1024.Idx → Elt Ideal .f32)

/-- The kernel's sum at an entry is the sum of the entries. -/
theorem kadd_apply (u v : S64x1024.Idx → Elt Ideal .f32) (j : S64x1024.Idx) : kadd u v j = u j + v j := rfl

/-- The device `n` places above `k + 1`, from its number. -/
theorem eq_up_pos (k c : Fin 16) (n : ℕ) (h : c.val = (k.val + 1 + n) % 16) : c = k + 1 + ((n : ℕ) : Fin 16) := by
  refine Fin.ext ?_
  rw [h, Fin.val_add, Fin.val_add, Fin.val_natCast]
  show _ = ((k.val + 1) % 16 + n % 16) % 16
  omega

/-- The device `n` places below `k - 1`, from its number. -/
theorem eq_down_pos (k c : Fin 16) (n : ℕ) (hn : n ≤ 15) (h : c.val = (k.val + 31 - n) % 16) :
    c = k - 1 - ((n : ℕ) : Fin 16) := by
  refine Fin.ext ?_
  rw [h, Fin.sub_def, Fin.sub_def, Fin.val_natCast]
  show _ = ((16 - n % 16) + ((16 - 1) + k.val) % 16) % 16
  omega

/-- One step of the recursion at an entry, at the first step: what the neighbour staged plus the device's own rows. -/
theorem addV_zero_apply (cw : Bool) (b : Fin 2) (c : Dev nD) (j : S64x1024.Idx) :
    addV X cw b 0 c j
      = piece (off cw (chunkAt cw c 0) b.val) (off_inb cw _ b) (X (bwd cw c)) j
        + piece (off cw (chunkAt cw c 0) b.val) (off_inb cw _ b) (X c) j := by
  rw [addV, kadd_apply, recvV]

/-- One step of the recursion at an entry, at a later step: what the neighbour held plus the device's own rows. -/
theorem addV_succ_apply (cw : Bool) (b : Fin 2) (s : ℕ) (c : Dev nD) (j : S64x1024.Idx) :
    addV X cw b (s + 1) c j
      = addV X cw b s (bwd cw c) j + piece (off cw (chunkAt cw c (s + 1)) b.val) (off_inb cw _ b) (X c) j := by
  rw [addV, kadd_apply, recvV]

/-- Towards the next device: after step `s` the device `s + 2` places above `k` holds the walk's sum of `s + 2` entries. -/
theorem addV_up (b : Fin 2) (k : Dev nD) (j : S64x1024.Idx) (s : ℕ) (hs : s ≤ 14) (c : Dev nD)
    (hc : c.val = (k.val + 2 + s) % 16) :
    addV X true b s c j = up (fun d => X d (J true k b j)) k (s + 1) := by
  have hk : k.val < 16 := k.isLt
  induction s generalizing c with
  | zero =>
    have hm : chunkAt true c 0 % 16 = k.val := by show (c.val + 32 - 2 - 0) % 16 = k.val; omega
    have hp : bwd true c = k + 1 := by
      have h0 := eq_up_pos k (bwd true c) 0 (by show (c.val + 15) % 16 = (k.val + 1 + 0) % 16; omega)
      rw [h0]; simp
    have hc' : c = k + 1 + ((0 + 1 : ℕ) : Fin 16) := eq_up_pos k c (0 + 1) (by omega)
    rw [addV_zero_apply, piece_off true _ b k hm, piece_off true _ b k hm, hp]
    show _ = up _ k 0 + _
    rw [← hc']
    rfl
  | succ s ih =>
    have hm : chunkAt true c (s + 1) % 16 = k.val := by show (c.val + 32 - 2 - (s + 1)) % 16 = k.val; omega
    have hc' : c = k + 1 + ((s + 1 + 1 : ℕ) : Fin 16) := eq_up_pos k c (s + 1 + 1) (by omega)
    rw [addV_succ_apply, piece_off true _ b k hm,
      ih (by omega) (bwd true c) (by show (c.val + 15) % 16 = (k.val + 2 + s) % 16; omega)]
    show _ = up _ k (s + 1) + _
    rw [← hc']

/-- Towards the previous device: after step `s` the device `s + 2` places below `k` holds the walk's sum of `s + 2` entries. -/
theorem addV_down (b : Fin 2) (k : Dev nD) (j : S64x1024.Idx) (s : ℕ) (hs : s ≤ 14) (c : Dev nD)
    (hc : c.val = (k.val + 30 - s) % 16) :
    addV X false b s c j = down (fun d => X d (J false k b j)) k (s + 1) := by
  have hk : k.val < 16 := k.isLt
  induction s generalizing c with
  | zero =>
    have hm : chunkAt false c 0 % 16 = k.val := by show (c.val + 2 + 0) % 16 = k.val; omega
    have hp : bwd false c = k - 1 := by
      have h0 := eq_down_pos k (bwd false c) 0 (by omega) (by show (c.val + 1) % 16 = (k.val + 31 - 0) % 16; omega)
      rw [h0]; simp
    have hc' : c = k - 1 - ((0 + 1 : ℕ) : Fin 16) := eq_down_pos k c (0 + 1) (by omega) (by omega)
    rw [addV_zero_apply, piece_off false _ b k hm, piece_off false _ b k hm, hp]
    show _ = down _ k 0 + _
    rw [← hc']
    rfl
  | succ s ih =>
    have hm : chunkAt false c (s + 1) % 16 = k.val := by show (c.val + 2 + (s + 1)) % 16 = k.val; omega
    have hc' : c = k - 1 - ((s + 1 + 1 : ℕ) : Fin 16) := eq_down_pos k c (s + 1 + 1) (by omega) (by omega)
    rw [addV_succ_apply, piece_off false _ b k hm,
      ih (by omega) (bwd false c) (by show (c.val + 1) % 16 = (k.val + 30 - s) % 16; omega)]
    show _ = down _ k (s + 1) + _
    rw [← hc']

/-- A finished sub-block's entry is the sum, over all sixteen devices, of their staged blocks' entries there. -/
theorem doneV_eq_sum (cw : Bool) (b : Fin 2) (k : Dev nD) (j : S64x1024.Idx) :
    doneV X cw b k j = ∑ d : Dev nD, X d (J cw k b j) := by
  have hk : k.val < 16 := k.isLt
  cases cw
  · exact (addV_down X b k j 14 (by omega) k (by omega)).trans (down_all _ k)
  · exact (addV_up X b k j 14 (by omega) k (by omega)).trans (up_all _ k)

/-- The assembled result is, entry by entry, the sum of the sixteen devices' staged blocks. -/
theorem outV_eq_sum (i : S4096x1024.Idx) : outV X i = ∑ d : Dev nD, X d i := by
  show doneV X _ _ _ _ = _
  rw [doneV_eq_sum, J_decode]

end AtIdeal

/-! ## The sixteen row blocks of the whole argument, added up, are the reference's value -/

/-- Entry `i` of block `d` of the whole argument is its entry at row `4096 * d + i 0`; summed over the blocks this is
    the reference's value. -/
theorem sum_blocks_eq_refVal (Xw : (⟨Cert.ReferenceIdeal.S65536x1024, .f32⟩ : BufTy).Contents (Elt Ideal)) :
    (fun i : S4096x1024.Idx =>
      ∑ d : Dev nD, (Layout.block ⟨2, ![4096, 1024]⟩ ⟨2, ![65536, 1024]⟩ 0 16 d Xw) i) = Cert.RefSide.refVal Xw := by
  funext i
  refine Finset.sum_congr rfl fun d _ => ?_
  show Xw _ = Xw _
  refine congrArg Xw (funext fun a => Fin.ext ?_)
  match a with
  | ⟨0, _⟩ => show d.val * 4096 + (i 0).val = 4096 * d.val + (i 0).val; omega
  | ⟨1, _⟩ => rfl

/-- When every device stages its row block of the whole argument, the assembled result is the reference's value. -/
theorem outV_eq_refVal (Xw : (⟨Cert.ReferenceIdeal.S65536x1024, .f32⟩ : BufTy).Contents (Elt Ideal))
    (X : Dev nD → S4096x1024.Idx → Elt Ideal .f32)
    (hX : ∀ c : Dev nD, X c = Layout.block ⟨2, ![4096, 1024]⟩ ⟨2, ![65536, 1024]⟩ 0 16 c Xw) :
    outV X = Cert.RefSide.refVal Xw := by
  rw [← sum_blocks_eq_refVal]
  funext i
  rw [outV_eq_sum]
  exact Finset.sum_congr rfl fun d _ => by rw [hX d]

end Cert.KernelIdeal.RSAG

end
-- ==== Proof.Dats.lean ====
import proofs.«901013_g7700000000001014_dist_rs_then_ag_i_m4096_n1024_v7x_i16_f32_1_alg».proof.Proof.Tables
import proofs.«901013_g7700000000001014_dist_rs_then_ag_i_m4096_n1024_v7x_i16_f32_1_alg».proof.Proof.Values

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch memory, what each device owes and at which levels it waits, the ghost state a device's body starts from,
    and the pipeline's proof data. -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- device `c`'s staged block of the input -/
def xstg (c : Dev nD) : S4096x1024.Idx → Elt F .f32 :=
  (win0_0.blk (0 : Fin 1)).view.read (Elt F) (m ((c : Thread nD τ).loc main_arg0))

/-! ## What a device pays, in the order it pays: the two barrier signals, then every transfer's arrival -/

def pays (c : Dev nD) : List (GSem nD τ sig × ℕ) :=
  [(barCell (prv c), 1),
   (barCell (nxt c), 1),
   (dcell (nxt c) (qR cc0_scratch3 0 0 inb_S15x2_S1x1_0_0), N),
   (dcell (nxt c) (qR cc0_scratch3 0 1 inb_S15x2_S1x1_0_1), N),
   (dcell (prv c) (qR cc0_scratch5 0 0 inb_S15x2_S1x1_0_0), N),
   (dcell (prv c) (qR cc0_scratch5 0 1 inb_S15x2_S1x1_0_1), N),
   (dcell (nxt c) (qR cc0_scratch3 1 0 inb_S15x2_S1x1_1_0), N),
   (dcell (prv c) (qR cc0_scratch5 1 0 inb_S15x2_S1x1_1_0), N),
   (dcell (nxt c) (qR cc0_scratch3 1 1 inb_S15x2_S1x1_1_1), N),
   (dcell (prv c) (qR cc0_scratch5 1 1 inb_S15x2_S1x1_1_1), N),
   (dcell (nxt c) (qR cc0_scratch3 2 0 inb_S15x2_S1x1_2_0), N),
   (dcell (prv c) (qR cc0_scratch5 2 0 inb_S15x2_S1x1_2_0), N),
   (dcell (nxt c) (qR cc0_scratch3 2 1 inb_S15x2_S1x1_2_1), N),
   (dcell (prv c) (qR cc0_scratch5 2 1 inb_S15x2_S1x1_2_1), N),
   (dcell (nxt c) (qR cc0_scratch3 3 0 inb_S15x2_S1x1_3_0), N),
   (dcell (prv c) (qR cc0_scratch5 3 0 inb_S15x2_S1x1_3_0), N),
   (dcell (nxt c) (qR cc0_scratch3 3 1 inb_S15x2_S1x1_3_1), N),
   (dcell (prv c) (qR cc0_scratch5 3 1 inb_S15x2_S1x1_3_1), N),
   (dcell (nxt c) (qR cc0_scratch3 4 0 inb_S15x2_S1x1_4_0), N),
   (dcell (prv c) (qR cc0_scratch5 4 0 inb_S15x2_S1x1_4_0), N),
   (dcell (nxt c) (qR cc0_scratch3 4 1 inb_S15x2_S1x1_4_1), N),
   (dcell (prv c) (qR cc0_scratch5 4 1 inb_S15x2_S1x1_4_1), N),
   (dcell (nxt c) (qR cc0_scratch3 5 0 inb_S15x2_S1x1_5_0), N),
   (dcell (prv c) (qR cc0_scratch5 5 0 inb_S15x2_S1x1_5_0), N),
   (dcell (nxt c) (qR cc0_scratch3 5 1 inb_S15x2_S1x1_5_1), N),
   (dcell (prv c) (qR cc0_scratch5 5 1 inb_S15x2_S1x1_5_1), N),
   (dcell (nxt c) (qR cc0_scratch3 6 0 inb_S15x2_S1x1_6_0), N),
   (dcell (prv c) (qR cc0_scratch5 6 0 inb_S15x2_S1x1_6_0), N),
   (dcell (nxt c) (qR cc0_scratch3 6 1 inb_S15x2_S1x1_6_1), N),
   (dcell (prv c) (qR cc0_scratch5 6 1 inb_S15x2_S1x1_6_1), N),
   (dcell (nxt c) (qR cc0_scratch3 7 0 inb_S15x2_S1x1_7_0), N),
   (dcell (prv c) (qR cc0_scratch5 7 0 inb_S15x2_S1x1_7_0), N),
   (dcell (nxt c) (qR cc0_scratch3 7 1 inb_S15x2_S1x1_7_1), N),
   (dcell (prv c) (qR cc0_scratch5 7 1 inb_S15x2_S1x1_7_1), N),
   (dcell (nxt c) (qR cc0_scratch3 8 0 inb_S15x2_S1x1_8_0), N),
   (dcell (prv c) (qR cc0_scratch5 8 0 inb_S15x2_S1x1_8_0), N),
   (dcell (nxt c) (qR cc0_scratch3 8 1 inb_S15x2_S1x1_8_1), N),
   (dcell (prv c) (qR cc0_scratch5 8 1 inb_S15x2_S1x1_8_1), N),
   (dcell (nxt c) (qR cc0_scratch3 9 0 inb_S15x2_S1x1_9_0), N),
   (dcell (prv c) (qR cc0_scratch5 9 0 inb_S15x2_S1x1_9_0), N),
   (dcell (nxt c) (qR cc0_scratch3 9 1 inb_S15x2_S1x1_9_1), N),
   (dcell (prv c) (qR cc0_scratch5 9 1 inb_S15x2_S1x1_9_1), N),
   (dcell (nxt c) (qR cc0_scratch3 10 0 inb_S15x2_S1x1_10_0), N),
   (dcell (prv c) (qR cc0_scratch5 10 0 inb_S15x2_S1x1_10_0), N),
   (dcell (nxt c) (qR cc0_scratch3 10 1 inb_S15x2_S1x1_10_1), N),
   (dcell (prv c) (qR cc0_scratch5 10 1 inb_S15x2_S1x1_10_1), N),
   (dcell (nxt c) (qR cc0_scratch3 11 0 inb_S15x2_S1x1_11_0), N),
   (dcell (prv c) (qR cc0_scratch5 11 0 inb_S15x2_S1x1_11_0), N),
   (dcell (nxt c) (qR cc0_scratch3 11 1 inb_S15x2_S1x1_11_1), N),
   (dcell (prv c) (qR cc0_scratch5 11 1 inb_S15x2_S1x1_11_1), N),
   (dcell (nxt c) (qR cc0_scratch3 12 0 inb_S15x2_S1x1_12_0), N),
   (dcell (prv c) (qR cc0_scratch5 12 0 inb_S15x2_S1x1_12_0), N),
   (dcell (nxt c) (qR cc0_scratch3 12 1 inb_S15x2_S1x1_12_1), N),
   (dcell (prv c) (qR cc0_scratch5 12 1 inb_S15x2_S1x1_12_1), N),
   (dcell (nxt c) (qR cc0_scratch3 13 0 inb_S15x2_S1x1_13_0), N),
   (dcell (prv c) (qR cc0_scratch5 13 0 inb_S15x2_S1x1_13_0), N),
   (dcell (nxt c) (qR cc0_scratch3 13 1 inb_S15x2_S1x1_13_1), N),
   (dcell (prv c) (qR cc0_scratch5 13 1 inb_S15x2_S1x1_13_1), N),
   (dcell (nxt c) (qR cc0_scratch3 14 0 inb_S15x2_S1x1_14_0), N),
   (dcell (prv c) (qR cc0_scratch5 14 0 inb_S15x2_S1x1_14_0), N),
   (dcell (nxt c) (qR cc0_scratch3 14 1 inb_S15x2_S1x1_14_1), N),
   (dcell (prv c) (qR cc0_scratch5 14 1 inb_S15x2_S1x1_14_1), N),
   (dcell (nxt c) (qR cc0_scratch7 0 0 inb_S15x2_S1x1_0_0), N),
   (dcell (prv c) (qR cc0_scratch9 0 0 inb_S15x2_S1x1_0_0), N),
   (dcell (nxt c) (qR cc0_scratch7 0 1 inb_S15x2_S1x1_0_1), N),
   (dcell (prv c) (qR cc0_scratch9 0 1 inb_S15x2_S1x1_0_1), N),
   (dcell (nxt c) (qR cc0_scratch7 1 0 inb_S15x2_S1x1_1_0), N),
   (dcell (prv c) (qR cc0_scratch9 1 0 inb_S15x2_S1x1_1_0), N),
   (dcell (nxt c) (qR cc0_scratch7 1 1 inb_S15x2_S1x1_1_1), N),
   (dcell (prv c) (qR cc0_scratch9 1 1 inb_S15x2_S1x1_1_1), N),
   (dcell (nxt c) (qR cc0_scratch7 2 0 inb_S15x2_S1x1_2_0), N),
   (dcell (prv c) (qR cc0_scratch9 2 0 inb_S15x2_S1x1_2_0), N),
   (dcell (nxt c) (qR cc0_scratch7 2 1 inb_S15x2_S1x1_2_1), N),
   (dcell (prv c) (qR cc0_scratch9 2 1 inb_S15x2_S1x1_2_1), N),
   (dcell (nxt c) (qR cc0_scratch7 3 0 inb_S15x2_S1x1_3_0), N),
   (dcell (prv c) (qR cc0_scratch9 3 0 inb_S15x2_S1x1_3_0), N),
   (dcell (nxt c) (qR cc0_scratch7 3 1 inb_S15x2_S1x1_3_1), N),
   (dcell (prv c) (qR cc0_scratch9 3 1 inb_S15x2_S1x1_3_1), N),
   (dcell (nxt c) (qR cc0_scratch7 4 0 inb_S15x2_S1x1_4_0), N),
   (dcell (prv c) (qR cc0_scratch9 4 0 inb_S15x2_S1x1_4_0), N),
   (dcell (nxt c) (qR cc0_scratch7 4 1 inb_S15x2_S1x1_4_1), N),
   (dcell (prv c) (qR cc0_scratch9 4 1 inb_S15x2_S1x1_4_1), N),
   (dcell (nxt c) (qR cc0_scratch7 5 0 inb_S15x2_S1x1_5_0), N),
   (dcell (prv c) (qR cc0_scratch9 5 0 inb_S15x2_S1x1_5_0), N),
   (dcell (nxt c) (qR cc0_scratch7 5 1 inb_S15x2_S1x1_5_1), N),
   (dcell (prv c) (qR cc0_scratch9 5 1 inb_S15x2_S1x1_5_1), N),
   (dcell (nxt c) (qR cc0_scratch7 6 0 inb_S15x2_S1x1_6_0), N),
   (dcell (prv c) (qR cc0_scratch9 6 0 inb_S15x2_S1x1_6_0), N),
   (dcell (nxt c) (qR cc0_scratch7 6 1 inb_S15x2_S1x1_6_1), N),
   (dcell (prv c) (qR cc0_scratch9 6 1 inb_S15x2_S1x1_6_1), N),
   (dcell (nxt c) (qR cc0_scratch7 7 0 inb_S15x2_S1x1_7_0), N),
   (dcell (prv c) (qR cc0_scratch9 7 0 inb_S15x2_S1x1_7_0), N),
   (dcell (nxt c) (qR cc0_scratch7 7 1 inb_S15x2_S1x1_7_1), N),
   (dcell (prv c) (qR cc0_scratch9 7 1 inb_S15x2_S1x1_7_1), N),
   (dcell (nxt c) (qR cc0_scratch7 8 0 inb_S15x2_S1x1_8_0), N),
   (dcell (prv c) (qR cc0_scratch9 8 0 inb_S15x2_S1x1_8_0), N),
   (dcell (nxt c) (qR cc0_scratch7 8 1 inb_S15x2_S1x1_8_1), N),
   (dcell (prv c) (qR cc0_scratch9 8 1 inb_S15x2_S1x1_8_1), N),
   (dcell (nxt c) (qR cc0_scratch7 9 0 inb_S15x2_S1x1_9_0), N),
   (dcell (prv c) (qR cc0_scratch9 9 0 inb_S15x2_S1x1_9_0), N),
   (dcell (nxt c) (qR cc0_scratch7 9 1 inb_S15x2_S1x1_9_1), N),
   (dcell (prv c) (qR cc0_scratch9 9 1 inb_S15x2_S1x1_9_1), N),
   (dcell (nxt c) (qR cc0_scratch7 10 0 inb_S15x2_S1x1_10_0), N),
   (dcell (prv c) (qR cc0_scratch9 10 0 inb_S15x2_S1x1_10_0), N),
   (dcell (nxt c) (qR cc0_scratch7 10 1 inb_S15x2_S1x1_10_1), N),
   (dcell (prv c) (qR cc0_scratch9 10 1 inb_S15x2_S1x1_10_1), N),
   (dcell (nxt c) (qR cc0_scratch7 11 0 inb_S15x2_S1x1_11_0), N),
   (dcell (prv c) (qR cc0_scratch9 11 0 inb_S15x2_S1x1_11_0), N),
   (dcell (nxt c) (qR cc0_scratch7 11 1 inb_S15x2_S1x1_11_1), N),
   (dcell (prv c) (qR cc0_scratch9 11 1 inb_S15x2_S1x1_11_1), N),
   (dcell (nxt c) (qR cc0_scratch7 12 0 inb_S15x2_S1x1_12_0), N),
   (dcell (prv c) (qR cc0_scratch9 12 0 inb_S15x2_S1x1_12_0), N),
   (dcell (nxt c) (qR cc0_scratch7 12 1 inb_S15x2_S1x1_12_1), N),
   (dcell (prv c) (qR cc0_scratch9 12 1 inb_S15x2_S1x1_12_1), N),
   (dcell (nxt c) (qR cc0_scratch7 13 0 inb_S15x2_S1x1_13_0), N),
   (dcell (prv c) (qR cc0_scratch9 13 0 inb_S15x2_S1x1_13_0), N),
   (dcell (nxt c) (qR cc0_scratch7 13 1 inb_S15x2_S1x1_13_1), N),
   (dcell (prv c) (qR cc0_scratch9 13 1 inb_S15x2_S1x1_13_1), N),
   (dcell (nxt c) (qR cc0_scratch7 14 0 inb_S15x2_S1x1_14_0), N),
   (dcell (prv c) (qR cc0_scratch9 14 0 inb_S15x2_S1x1_14_0), N),
   (dcell (nxt c) (qR cc0_scratch7 14 1 inb_S15x2_S1x1_14_1), N),
   (dcell (prv c) (qR cc0_scratch9 14 1 inb_S15x2_S1x1_14_1), N)]

/-- what it still owes once the first `j` are paid -/
def rem (c : Dev nD) (j : ℕ) : CellTallies nD τ sig Unit := ((pays c).drop j).foldr (fun p O => O + tallyAt p.1 () p.2) 0

/-! ## Levels: a barrier cell at 1; a receive cell at 2 + the place of the transfer that credits it in `pays`; the rest at 0.
    A device waits on a receive cell only after firing the transfer of the same name, so everything it still owes lies above. -/

def lvq : ℕ → ℕ
  | 6 => 4
  | 7 => 5
  | 40 => 6
  | 41 => 7
  | 8 => 8
  | 42 => 9
  | 9 => 10
  | 43 => 11
  | 10 => 12
  | 44 => 13
  | 11 => 14
  | 45 => 15
  | 12 => 16
  | 46 => 17
  | 13 => 18
  | 47 => 19
  | 14 => 20
  | 48 => 21
  | 15 => 22
  | 49 => 23
  | 16 => 24
  | 50 => 25
  | 17 => 26
  | 51 => 27
  | 18 => 28
  | 52 => 29
  | 19 => 30
  | 53 => 31
  | 20 => 32
  | 54 => 33
  | 21 => 34
  | 55 => 35
  | 22 => 36
  | 56 => 37
  | 23 => 38
  | 57 => 39
  | 24 => 40
  | 58 => 41
  | 25 => 42
  | 59 => 43
  | 26 => 44
  | 60 => 45
  | 27 => 46
  | 61 => 47
  | 28 => 48
  | 62 => 49
  | 29 => 50
  | 63 => 51
  | 30 => 52
  | 64 => 53
  | 31 => 54
  | 65 => 55
  | 32 => 56
  | 66 => 57
  | 33 => 58
  | 67 => 59
  | 34 => 60
  | 68 => 61
  | 35 => 62
  | 69 => 63
  | 74 => 64
  | 108 => 65
  | 75 => 66
  | 109 => 67
  | 76 => 68
  | 110 => 69
  | 77 => 70
  | 111 => 71
  | 78 => 72
  | 112 => 73
  | 79 => 74
  | 113 => 75
  | 80 => 76
  | 114 => 77
  | 81 => 78
  | 115 => 79
  | 82 => 80
  | 116 => 81
  | 83 => 82
  | 117 => 83
  | 84 => 84
  | 118 => 85
  | 85 => 86
  | 119 => 87
  | 86 => 88
  | 120 => 89
  | 87 => 90
  | 121 => 91
  | 88 => 92
  | 122 => 93
  | 89 => 94
  | 123 => 95
  | 90 => 96
  | 124 => 97
  | 91 => 98
  | 125 => 99
  | 92 => 100
  | 126 => 101
  | 93 => 102
  | 127 => 103
  | 94 => 104
  | 128 => 105
  | 95 => 106
  | 129 => 107
  | 96 => 108
  | 130 => 109
  | 97 => 110
  | 131 => 111
  | 98 => 112
  | 132 => 113
  | 99 => 114
  | 133 => 115
  | 100 => 116
  | 134 => 117
  | 101 => 118
  | 135 => 119
  | 102 => 120
  | 136 => 121
  | 103 => 122
  | 137 => 123
  | _ => 0

def L (g : GSem nD τ sig) : Finset Unit := if g.1.2 = .tc then {()} else ∅
def lv (g : GSem nD τ sig) (_ : Unit) : ℕ := match g.2 with | .reg _ => 1 | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

/-! ## The semaphores by role -/

/-- the receive semaphores of the clockwise transfers (reduce-scatter, then all-gather), -/
def recvCw : List (DmaSem sig) :=
  [(qR cc0_scratch3 0 0 inb_S15x2_S1x1_0_0),
   (qR cc0_scratch3 0 1 inb_S15x2_S1x1_0_1),
   (qR cc0_scratch3 1 0 inb_S15x2_S1x1_1_0),
   (qR cc0_scratch3 1 1 inb_S15x2_S1x1_1_1),
   (qR cc0_scratch3 2 0 inb_S15x2_S1x1_2_0),
   (qR cc0_scratch3 2 1 inb_S15x2_S1x1_2_1),
   (qR cc0_scratch3 3 0 inb_S15x2_S1x1_3_0),
   (qR cc0_scratch3 3 1 inb_S15x2_S1x1_3_1),
   (qR cc0_scratch3 4 0 inb_S15x2_S1x1_4_0),
   (qR cc0_scratch3 4 1 inb_S15x2_S1x1_4_1),
   (qR cc0_scratch3 5 0 inb_S15x2_S1x1_5_0),
   (qR cc0_scratch3 5 1 inb_S15x2_S1x1_5_1),
   (qR cc0_scratch3 6 0 inb_S15x2_S1x1_6_0),
   (qR cc0_scratch3 6 1 inb_S15x2_S1x1_6_1),
   (qR cc0_scratch3 7 0 inb_S15x2_S1x1_7_0),
   (qR cc0_scratch3 7 1 inb_S15x2_S1x1_7_1),
   (qR cc0_scratch3 8 0 inb_S15x2_S1x1_8_0),
   (qR cc0_scratch3 8 1 inb_S15x2_S1x1_8_1),
   (qR cc0_scratch3 9 0 inb_S15x2_S1x1_9_0),
   (qR cc0_scratch3 9 1 inb_S15x2_S1x1_9_1),
   (qR cc0_scratch3 10 0 inb_S15x2_S1x1_10_0),
   (qR cc0_scratch3 10 1 inb_S15x2_S1x1_10_1),
   (qR cc0_scratch3 11 0 inb_S15x2_S1x1_11_0),
   (qR cc0_scratch3 11 1 inb_S15x2_S1x1_11_1),
   (qR cc0_scratch3 12 0 inb_S15x2_S1x1_12_0),
   (qR cc0_scratch3 12 1 inb_S15x2_S1x1_12_1),
   (qR cc0_scratch3 13 0 inb_S15x2_S1x1_13_0),
   (qR cc0_scratch3 13 1 inb_S15x2_S1x1_13_1),
   (qR cc0_scratch3 14 0 inb_S15x2_S1x1_14_0),
   (qR cc0_scratch3 14 1 inb_S15x2_S1x1_14_1),
   (qR cc0_scratch7 0 0 inb_S15x2_S1x1_0_0),
   (qR cc0_scratch7 0 1 inb_S15x2_S1x1_0_1),
   (qR cc0_scratch7 1 0 inb_S15x2_S1x1_1_0),
   (qR cc0_scratch7 1 1 inb_S15x2_S1x1_1_1),
   (qR cc0_scratch7 2 0 inb_S15x2_S1x1_2_0),
   (qR cc0_scratch7 2 1 inb_S15x2_S1x1_2_1),
   (qR cc0_scratch7 3 0 inb_S15x2_S1x1_3_0),
   (qR cc0_scratch7 3 1 inb_S15x2_S1x1_3_1),
   (qR cc0_scratch7 4 0 inb_S15x2_S1x1_4_0),
   (qR cc0_scratch7 4 1 inb_S15x2_S1x1_4_1),
   (qR cc0_scratch7 5 0 inb_S15x2_S1x1_5_0),
   (qR cc0_scratch7 5 1 inb_S15x2_S1x1_5_1),
   (qR cc0_scratch7 6 0 inb_S15x2_S1x1_6_0),
   (qR cc0_scratch7 6 1 inb_S15x2_S1x1_6_1),
   (qR cc0_scratch7 7 0 inb_S15x2_S1x1_7_0),
   (qR cc0_scratch7 7 1 inb_S15x2_S1x1_7_1),
   (qR cc0_scratch7 8 0 inb_S15x2_S1x1_8_0),
   (qR cc0_scratch7 8 1 inb_S15x2_S1x1_8_1),
   (qR cc0_scratch7 9 0 inb_S15x2_S1x1_9_0),
   (qR cc0_scratch7 9 1 inb_S15x2_S1x1_9_1),
   (qR cc0_scratch7 10 0 inb_S15x2_S1x1_10_0),
   (qR cc0_scratch7 10 1 inb_S15x2_S1x1_10_1),
   (qR cc0_scratch7 11 0 inb_S15x2_S1x1_11_0),
   (qR cc0_scratch7 11 1 inb_S15x2_S1x1_11_1),
   (qR cc0_scratch7 12 0 inb_S15x2_S1x1_12_0),
   (qR cc0_scratch7 12 1 inb_S15x2_S1x1_12_1),
   (qR cc0_scratch7 13 0 inb_S15x2_S1x1_13_0),
   (qR cc0_scratch7 13 1 inb_S15x2_S1x1_13_1),
   (qR cc0_scratch7 14 0 inb_S15x2_S1x1_14_0),
   (qR cc0_scratch7 14 1 inb_S15x2_S1x1_14_1)]
/-- of the counter-clockwise ones, -/
def recvCcw : List (DmaSem sig) :=
  [(qR cc0_scratch5 0 0 inb_S15x2_S1x1_0_0),
   (qR cc0_scratch5 0 1 inb_S15x2_S1x1_0_1),
   (qR cc0_scratch5 1 0 inb_S15x2_S1x1_1_0),
   (qR cc0_scratch5 1 1 inb_S15x2_S1x1_1_1),
   (qR cc0_scratch5 2 0 inb_S15x2_S1x1_2_0),
   (qR cc0_scratch5 2 1 inb_S15x2_S1x1_2_1),
   (qR cc0_scratch5 3 0 inb_S15x2_S1x1_3_0),
   (qR cc0_scratch5 3 1 inb_S15x2_S1x1_3_1),
   (qR cc0_scratch5 4 0 inb_S15x2_S1x1_4_0),
   (qR cc0_scratch5 4 1 inb_S15x2_S1x1_4_1),
   (qR cc0_scratch5 5 0 inb_S15x2_S1x1_5_0),
   (qR cc0_scratch5 5 1 inb_S15x2_S1x1_5_1),
   (qR cc0_scratch5 6 0 inb_S15x2_S1x1_6_0),
   (qR cc0_scratch5 6 1 inb_S15x2_S1x1_6_1),
   (qR cc0_scratch5 7 0 inb_S15x2_S1x1_7_0),
   (qR cc0_scratch5 7 1 inb_S15x2_S1x1_7_1),
   (qR cc0_scratch5 8 0 inb_S15x2_S1x1_8_0),
   (qR cc0_scratch5 8 1 inb_S15x2_S1x1_8_1),
   (qR cc0_scratch5 9 0 inb_S15x2_S1x1_9_0),
   (qR cc0_scratch5 9 1 inb_S15x2_S1x1_9_1),
   (qR cc0_scratch5 10 0 inb_S15x2_S1x1_10_0),
   (qR cc0_scratch5 10 1 inb_S15x2_S1x1_10_1),
   (qR cc0_scratch5 11 0 inb_S15x2_S1x1_11_0),
   (qR cc0_scratch5 11 1 inb_S15x2_S1x1_11_1),
   (qR cc0_scratch5 12 0 inb_S15x2_S1x1_12_0),
   (qR cc0_scratch5 12 1 inb_S15x2_S1x1_12_1),
   (qR cc0_scratch5 13 0 inb_S15x2_S1x1_13_0),
   (qR cc0_scratch5 13 1 inb_S15x2_S1x1_13_1),
   (qR cc0_scratch5 14 0 inb_S15x2_S1x1_14_0),
   (qR cc0_scratch5 14 1 inb_S15x2_S1x1_14_1),
   (qR cc0_scratch9 0 0 inb_S15x2_S1x1_0_0),
   (qR cc0_scratch9 0 1 inb_S15x2_S1x1_0_1),
   (qR cc0_scratch9 1 0 inb_S15x2_S1x1_1_0),
   (qR cc0_scratch9 1 1 inb_S15x2_S1x1_1_1),
   (qR cc0_scratch9 2 0 inb_S15x2_S1x1_2_0),
   (qR cc0_scratch9 2 1 inb_S15x2_S1x1_2_1),
   (qR cc0_scratch9 3 0 inb_S15x2_S1x1_3_0),
   (qR cc0_scratch9 3 1 inb_S15x2_S1x1_3_1),
   (qR cc0_scratch9 4 0 inb_S15x2_S1x1_4_0),
   (qR cc0_scratch9 4 1 inb_S15x2_S1x1_4_1),
   (qR cc0_scratch9 5 0 inb_S15x2_S1x1_5_0),
   (qR cc0_scratch9 5 1 inb_S15x2_S1x1_5_1),
   (qR cc0_scratch9 6 0 inb_S15x2_S1x1_6_0),
   (qR cc0_scratch9 6 1 inb_S15x2_S1x1_6_1),
   (qR cc0_scratch9 7 0 inb_S15x2_S1x1_7_0),
   (qR cc0_scratch9 7 1 inb_S15x2_S1x1_7_1),
   (qR cc0_scratch9 8 0 inb_S15x2_S1x1_8_0),
   (qR cc0_scratch9 8 1 inb_S15x2_S1x1_8_1),
   (qR cc0_scratch9 9 0 inb_S15x2_S1x1_9_0),
   (qR cc0_scratch9 9 1 inb_S15x2_S1x1_9_1),
   (qR cc0_scratch9 10 0 inb_S15x2_S1x1_10_0),
   (qR cc0_scratch9 10 1 inb_S15x2_S1x1_10_1),
   (qR cc0_scratch9 11 0 inb_S15x2_S1x1_11_0),
   (qR cc0_scratch9 11 1 inb_S15x2_S1x1_11_1),
   (qR cc0_scratch9 12 0 inb_S15x2_S1x1_12_0),
   (qR cc0_scratch9 12 1 inb_S15x2_S1x1_12_1),
   (qR cc0_scratch9 13 0 inb_S15x2_S1x1_13_0),
   (qR cc0_scratch9 13 1 inb_S15x2_S1x1_13_1),
   (qR cc0_scratch9 14 0 inb_S15x2_S1x1_14_0),
   (qR cc0_scratch9 14 1 inb_S15x2_S1x1_14_1)]
/-- the sixteen send semaphores, -/
def sendQs : List (DmaSem sig) :=
  [(qS cc0_scratch2 0 inb_S4_S1_0),
   (qS cc0_scratch2 1 inb_S4_S1_1),
   (qS cc0_scratch2 2 inb_S4_S1_2),
   (qS cc0_scratch2 3 inb_S4_S1_3),
   (qS cc0_scratch4 0 inb_S4_S1_0),
   (qS cc0_scratch4 1 inb_S4_S1_1),
   (qS cc0_scratch4 2 inb_S4_S1_2),
   (qS cc0_scratch4 3 inb_S4_S1_3),
   (qS cc0_scratch6 0 inb_S4_S1_0),
   (qS cc0_scratch6 1 inb_S4_S1_1),
   (qS cc0_scratch6 2 inb_S4_S1_2),
   (qS cc0_scratch6 3 inb_S4_S1_3),
   (qS cc0_scratch8 0 inb_S4_S1_0),
   (qS cc0_scratch8 1 inb_S4_S1_1),
   (qS cc0_scratch8 2 inb_S4_S1_2),
   (qS cc0_scratch8 3 inb_S4_S1_3)]
/-- each with the rounds it is used in, -/
def sendToks : List (DmaSem sig × ℕ) :=
  [((qS cc0_scratch2 0 inb_S4_S1_0), 0),
   ((qS cc0_scratch2 0 inb_S4_S1_0), 1),
   ((qS cc0_scratch2 0 inb_S4_S1_0), 2),
   ((qS cc0_scratch2 0 inb_S4_S1_0), 3),
   ((qS cc0_scratch2 0 inb_S4_S1_0), 4),
   ((qS cc0_scratch2 0 inb_S4_S1_0), 5),
   ((qS cc0_scratch2 0 inb_S4_S1_0), 6),
   ((qS cc0_scratch2 0 inb_S4_S1_0), 7),
   ((qS cc0_scratch2 1 inb_S4_S1_1), 0),
   ((qS cc0_scratch2 1 inb_S4_S1_1), 1),
   ((qS cc0_scratch2 1 inb_S4_S1_1), 2),
   ((qS cc0_scratch2 1 inb_S4_S1_1), 3),
   ((qS cc0_scratch2 1 inb_S4_S1_1), 4),
   ((qS cc0_scratch2 1 inb_S4_S1_1), 5),
   ((qS cc0_scratch2 1 inb_S4_S1_1), 6),
   ((qS cc0_scratch2 1 inb_S4_S1_1), 7),
   ((qS cc0_scratch2 2 inb_S4_S1_2), 0),
   ((qS cc0_scratch2 2 inb_S4_S1_2), 1),
   ((qS cc0_scratch2 2 inb_S4_S1_2), 2),
   ((qS cc0_scratch2 2 inb_S4_S1_2), 3),
   ((qS cc0_scratch2 2 inb_S4_S1_2), 4),
   ((qS cc0_scratch2 2 inb_S4_S1_2), 5),
   ((qS cc0_scratch2 2 inb_S4_S1_2), 6),
   ((qS cc0_scratch2 3 inb_S4_S1_3), 0),
   ((qS cc0_scratch2 3 inb_S4_S1_3), 1),
   ((qS cc0_scratch2 3 inb_S4_S1_3), 2),
   ((qS cc0_scratch2 3 inb_S4_S1_3), 3),
   ((qS cc0_scratch2 3 inb_S4_S1_3), 4),
   ((qS cc0_scratch2 3 inb_S4_S1_3), 5),
   ((qS cc0_scratch2 3 inb_S4_S1_3), 6),
   ((qS cc0_scratch4 0 inb_S4_S1_0), 0),
   ((qS cc0_scratch4 0 inb_S4_S1_0), 1),
   ((qS cc0_scratch4 0 inb_S4_S1_0), 2),
   ((qS cc0_scratch4 0 inb_S4_S1_0), 3),
   ((qS cc0_scratch4 0 inb_S4_S1_0), 4),
   ((qS cc0_scratch4 0 inb_S4_S1_0), 5),
   ((qS cc0_scratch4 0 inb_S4_S1_0), 6),
   ((qS cc0_scratch4 0 inb_S4_S1_0), 7),
   ((qS cc0_scratch4 1 inb_S4_S1_1), 0),
   ((qS cc0_scratch4 1 inb_S4_S1_1), 1),
   ((qS cc0_scratch4 1 inb_S4_S1_1), 2),
   ((qS cc0_scratch4 1 inb_S4_S1_1), 3),
   ((qS cc0_scratch4 1 inb_S4_S1_1), 4),
   ((qS cc0_scratch4 1 inb_S4_S1_1), 5),
   ((qS cc0_scratch4 1 inb_S4_S1_1), 6),
   ((qS cc0_scratch4 1 inb_S4_S1_1), 7),
   ((qS cc0_scratch4 2 inb_S4_S1_2), 0),
   ((qS cc0_scratch4 2 inb_S4_S1_2), 1),
   ((qS cc0_scratch4 2 inb_S4_S1_2), 2),
   ((qS cc0_scratch4 2 inb_S4_S1_2), 3),
   ((qS cc0_scratch4 2 inb_S4_S1_2), 4),
   ((qS cc0_scratch4 2 inb_S4_S1_2), 5),
   ((qS cc0_scratch4 2 inb_S4_S1_2), 6),
   ((qS cc0_scratch4 3 inb_S4_S1_3), 0),
   ((qS cc0_scratch4 3 inb_S4_S1_3), 1),
   ((qS cc0_scratch4 3 inb_S4_S1_3), 2),
   ((qS cc0_scratch4 3 inb_S4_S1_3), 3),
   ((qS cc0_scratch4 3 inb_S4_S1_3), 4),
   ((qS cc0_scratch4 3 inb_S4_S1_3), 5),
   ((qS cc0_scratch4 3 inb_S4_S1_3), 6),
   ((qS cc0_scratch6 0 inb_S4_S1_0), 0),
   ((qS cc0_scratch6 0 inb_S4_S1_0), 1),
   ((qS cc0_scratch6 0 inb_S4_S1_0), 2),
   ((qS cc0_scratch6 0 inb_S4_S1_0), 3),
   ((qS cc0_scratch6 0 inb_S4_S1_0), 4),
   ((qS cc0_scratch6 0 inb_S4_S1_0), 5),
   ((qS cc0_scratch6 0 inb_S4_S1_0), 6),
   ((qS cc0_scratch6 0 inb_S4_S1_0), 7),
   ((qS cc0_scratch6 1 inb_S4_S1_1), 0),
   ((qS cc0_scratch6 1 inb_S4_S1_1), 1),
   ((qS cc0_scratch6 1 inb_S4_S1_1), 2),
   ((qS cc0_scratch6 1 inb_S4_S1_1), 3),
   ((qS cc0_scratch6 1 inb_S4_S1_1), 4),
   ((qS cc0_scratch6 1 inb_S4_S1_1), 5),
   ((qS cc0_scratch6 1 inb_S4_S1_1), 6),
   ((qS cc0_scratch6 1 inb_S4_S1_1), 7),
   ((qS cc0_scratch6 2 inb_S4_S1_2), 0),
   ((qS cc0_scratch6 2 inb_S4_S1_2), 1),
   ((qS cc0_scratch6 2 inb_S4_S1_2), 2),
   ((qS cc0_scratch6 2 inb_S4_S1_2), 3),
   ((qS cc0_scratch6 2 inb_S4_S1_2), 4),
   ((qS cc0_scratch6 2 inb_S4_S1_2), 5),
   ((qS cc0_scratch6 2 inb_S4_S1_2), 6),
   ((qS cc0_scratch6 3 inb_S4_S1_3), 0),
   ((qS cc0_scratch6 3 inb_S4_S1_3), 1),
   ((qS cc0_scratch6 3 inb_S4_S1_3), 2),
   ((qS cc0_scratch6 3 inb_S4_S1_3), 3),
   ((qS cc0_scratch6 3 inb_S4_S1_3), 4),
   ((qS cc0_scratch6 3 inb_S4_S1_3), 5),
   ((qS cc0_scratch6 3 inb_S4_S1_3), 6),
   ((qS cc0_scratch8 0 inb_S4_S1_0), 0),
   ((qS cc0_scratch8 0 inb_S4_S1_0), 1),
   ((qS cc0_scratch8 0 inb_S4_S1_0), 2),
   ((qS cc0_scratch8 0 inb_S4_S1_0), 3),
   ((qS cc0_scratch8 0 inb_S4_S1_0), 4),
   ((qS cc0_scratch8 0 inb_S4_S1_0), 5),
   ((qS cc0_scratch8 0 inb_S4_S1_0), 6),
   ((qS cc0_scratch8 0 inb_S4_S1_0), 7),
   ((qS cc0_scratch8 1 inb_S4_S1_1), 0),
   ((qS cc0_scratch8 1 inb_S4_S1_1), 1),
   ((qS cc0_scratch8 1 inb_S4_S1_1), 2),
   ((qS cc0_scratch8 1 inb_S4_S1_1), 3),
   ((qS cc0_scratch8 1 inb_S4_S1_1), 4),
   ((qS cc0_scratch8 1 inb_S4_S1_1), 5),
   ((qS cc0_scratch8 1 inb_S4_S1_1), 6),
   ((qS cc0_scratch8 1 inb_S4_S1_1), 7),
   ((qS cc0_scratch8 2 inb_S4_S1_2), 0),
   ((qS cc0_scratch8 2 inb_S4_S1_2), 1),
   ((qS cc0_scratch8 2 inb_S4_S1_2), 2),
   ((qS cc0_scratch8 2 inb_S4_S1_2), 3),
   ((qS cc0_scratch8 2 inb_S4_S1_2), 4),
   ((qS cc0_scratch8 2 inb_S4_S1_2), 5),
   ((qS cc0_scratch8 2 inb_S4_S1_2), 6),
   ((qS cc0_scratch8 3 inb_S4_S1_3), 0),
   ((qS cc0_scratch8 3 inb_S4_S1_3), 1),
   ((qS cc0_scratch8 3 inb_S4_S1_3), 2),
   ((qS cc0_scratch8 3 inb_S4_S1_3), 3),
   ((qS cc0_scratch8 3 inb_S4_S1_3), 4),
   ((qS cc0_scratch8 3 inb_S4_S1_3), 5),
   ((qS cc0_scratch8 3 inb_S4_S1_3), 6)]
/-- and all 136 of a device. -/
def ownQs : List (DmaSem sig) := sendQs ++ recvCw ++ recvCcw

variable (X : Dev nD → S4096x1024.Idx → Elt F .f32)

/-- The ghost state device `c`'s body starts from, the cells' invariants under the names `K`: the invariants of its own
    cells, of both neighbours' barrier cells and of the receive cells it credits; its positions; round 0 reached on every
    cell it pays; the tokens of the duties it pays. -/
def ghost (K : GSem nD τ sig → ℕ) (c : Dev nD) : sProp 𝕄 :=
  iprop((cellInv ER (Rd X) (K (barCell c)) (barCell c) ∗ cellInv ER (Rd X) (K (barCell (nxt c))) (barCell (nxt c)) ∗ cellInv ER (Rd X) (K (barCell (prv c))) (barCell (prv c))
      ∗ bigSepL ownQs (fun q => cellInv ER (Rd X) (K (dcell c q)) (dcell c q))
      ∗ bigSepL recvCw (fun q => cellInv ER (Rd X) (K (dcell (nxt c) q)) (dcell (nxt c) q))
      ∗ bigSepL recvCcw (fun q => cellInv ER (Rd X) (K (dcell (prv c) q)) (dcell (prv c) q)))
    ∗ (atPos ER (barCell c) 0 ∅ 0 ∗ bigSepL ownQs (fun q => atPos ER (dcell c q) 0 ∅ 0))
    ∗ (reached ER (barCell (nxt c)) 0 ∗ reached ER (barCell (prv c)) 0
      ∗ bigSepL recvCw (fun q => reached ER (dcell (nxt c) q) 0) ∗ bigSepL recvCcw (fun q => reached ER (dcell (prv c) q) 0)
      ∗ bigSepL sendQs (fun q => reached ER (dcell c q) 0))
    ∗ (dutyTok ER (barCell (prv c)) 0 false ∗ dutyTok ER (barCell (nxt c)) 0 true
      ∗ bigSepL recvCw (fun q => dutyTok ER (dcell (nxt c) q) 0 false) ∗ bigSepL recvCcw (fun q => dutyTok ER (dcell (prv c) q) 0 false)
      ∗ bigSepL sendToks (fun qr => dutyTok ER (dcell c qr.1) qr.2 false)))

/-- What device `c`'s body starts from: that at some names, the credit tokens of its barrier cell and of its receive cells,
    and the level facts. -/
def start (c : Dev nD) : sProp 𝕄 :=
  iprop((∃ K, ghost X K c) ∗ cred (tallyAt (barCell c) () 2)
    ∗ bigSepL (recvCw ++ recvCcw) (fun q => cred (tallyAt (dcell c q) () N)) ∗ levAts L lv)

/-- Before the point: that, and both ring buffers slot by slot at some contents. -/
def Φ₀ (c : Dev nD) : sProp 𝕄 := iprop(start X c ∗ allSlots true c ∗ allSlots false c)
/-- After it: the ring buffers back slot by slot, every own semaphore at zero, closed. -/
def Φ₁ (c : Dev nD) : sProp 𝕄 := iprop(allSlots true c ∗ allSlots false c ∗ bigSepL ownQs (fun q => semVal (dcell c q) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV (xstg m)
  Φ t := match t with
    | ⟨0, _⟩ => Φ₀ (xstg m) c
    | ⟨_ + 1, _⟩ => Φ₁ c
  q _ := fullShare
  owed t := match t with
    | ⟨0, _⟩ => rem c 0
    | ⟨_ + 1, _⟩ => 0

end Cert.KernelIdeal.RSAG

end
-- ==== Proof.Canon.lean ====
import proofs.«901013_g7700000000001014_dist_rs_then_ag_i_m4096_n1024_v7x_i16_f32_1_alg».proof.Proof.Base

/-! The printed kernel's device ids and row offsets, in closed form.

Every device id the kernel computes is the next or the previous device of the ring of sixteen. Every row offset it
computes for a block of 64 rows is `off cw (c + J) b`: sub-block `b` of the half (first 128 rows when `cw`, last 128
otherwise) of chunk `c + J` modulo sixteen, for a literal `J`; the two accesses of 128 rows are the two halves of the
device's own chunk. Each equation is stated once per distinct spelling in the program; the slices of the two staged
arrays are then the same slices at the closed offsets. -/

noncomputable section

namespace Cert.KernelIdeal.RSAG

open Cert.KernelIdeal Cert.KernelIdeal.Gen Idealize.ShloMosaic

/-! ## General facts -/

/-- a row offset with the chunk index reduced modulo sixteen, first half -/
theorem vec_true {n k : ℕ} (b : ℕ) (e : n % 16 = k % 16) :
    (![256 * (n % 16) + 64 * b, 0] : Fin 2 → ℕ) = off true k b := by
  unfold off; rw [e]; rfl

/-- the same, second half -/
theorem vec_false {n k : ℕ} (b : ℕ) (e : n % 16 = k % 16) :
    (![256 * (n % 16) + 64 * b + 128, 0] : Fin 2 → ℕ) = off false k b := by
  unfold off; rw [e]
  have h : 256 * (k % 16) + 64 * b + 128 = 256 * (k % 16) + (if false = true then 0 else 128) + 64 * b := by
    simp only [Bool.false_eq_true, if_false]; omega
  rw [h]

/-- the offset depends on the chunk index modulo sixteen only -/
theorem off_mod (cw : Bool) {k k' : ℕ} (b : ℕ) (e : k % 16 = k' % 16) : off cw k b = off cw k' b := by
  unfold off; rw [e]

/-- slices of 64 rows at equal offsets are equal -/
theorem rows_congr (M : Memref sig .tc .vmem S4096x1024 .f32) {o o' : Fin 2 → ℕ} (e : o = o')
    (h : ∀ a, o a + S64x1024.size a ≤ S4096x1024.size a) (h' : ∀ a, o' a + S64x1024.size a ≤ S4096x1024.size a) (hs) :
    M.slice (Rect.unit (s := S4096x1024) o S64x1024.size h) hs = rows M o' h' :=
  Memref.slice_unit_congr M e h h' hs (fun _ => rfl)

/-- a half chunk of 128 rows lies inside the staged array -/
theorem off_inb128 (cw : Bool) (k : ℕ) : ∀ a, off cw k 0 a + S128x1024.size a ≤ S4096x1024.size a := by
  have hk : k % 16 < 16 := Nat.mod_lt _ (by decide)
  intro a
  match a with
  | ⟨0, _⟩ => show 256 * (k % 16) + (if cw then 0 else 128) + 64 * 0 + 128 ≤ 4096; cases cw <;> simp <;> omega
  | ⟨1, _⟩ => show 0 + 1024 ≤ 1024; omega

/-! ## The device ids: 122 device functions, each the next or the previous device -/

theorem dev1_eq (c : Dev nD) (h : k0_dev1 c < nD) : (⟨k0_dev1 c, h⟩ : Dev nD) = prv c := Fin.ext (k0_dev1_eq c)
theorem dev2_eq (c : Dev nD) (h : k0_dev2 c < nD) : (⟨k0_dev2 c, h⟩ : Dev nD) = nxt c := Fin.ext (k0_dev2_eq c)
theorem dev3_eq (c : Dev nD) (h : k0_dev3 c < nD) : (⟨k0_dev3 c, h⟩ : Dev nD) = nxt c := Fin.ext (k0_dev3_eq c)
theorem dev4_eq (c : Dev nD) (h : k0_dev4 c < nD) : (⟨k0_dev4 c, h⟩ : Dev nD) = nxt c := Fin.ext (k0_dev4_eq c)
theorem dev5_eq (c : Dev nD) (h : k0_dev5 c < nD) : (⟨k0_dev5 c, h⟩ : Dev nD) = prv c := Fin.ext (k0_dev5_eq c)
theorem dev6_eq (c : Dev nD) (h : k0_dev6 c < nD) : (⟨k0_dev6 c, h⟩ : Dev nD) = prv c := Fin.ext (k0_dev6_eq c)
theorem dev7_eq (c : Dev nD) (h : k0_dev7 c < nD) : (⟨k0_dev7 c, h⟩ : Dev nD) = nxt c := Fin.ext (k0_dev7_eq c)
theorem dev8_eq (c : Dev nD) (h : k0_dev8 c < nD) : (⟨k0_dev8 c, h⟩ : Dev nD) = prv c := Fin.ext (k0_dev8_eq c)
theorem dev9_eq (c : Dev nD) (h : k0_dev9 c < nD) : (⟨k0_dev9 c, h⟩ : Dev nD) = nxt c := Fin.ext (k0_dev9_eq c)
theorem dev10_eq (c : Dev nD) (h : k0_dev10 c < nD) : (⟨k0_dev10 c, h⟩ : Dev nD) = prv c := Fin.ext (k0_dev10_eq c)
theorem dev11_eq (c : Dev nD) (h : k0_dev11 c < nD) : (⟨k0_dev11 c, h⟩ : Dev nD) = nxt c := Fin.ext (k0_dev11_eq c)
theorem dev12_eq (c : Dev nD) (h : k0_dev12 c < nD) : (⟨k0_dev12 c, h⟩ : Dev nD) = prv c := Fin.ext (k0_dev12_eq c)
theorem dev13_eq (c : Dev nD) (h : k0_dev13 c < nD) : (⟨k0_dev13 c, h⟩ : Dev nD) = nxt c := Fin.ext (k0_dev13_eq c)
theorem dev14_eq (c : Dev nD) (h : k0_dev14 c < nD) : (⟨k0_dev14 c, h⟩ : Dev nD) = prv c := Fin.ext (k0_dev14_eq c)
theorem dev15_eq (c : Dev nD) (h : k0_dev15 c < nD) : (⟨k0_dev15 c, h⟩ : Dev nD) = nxt c := Fin.ext (k0_dev15_eq c)
theorem dev16_eq (c : Dev nD) (h : k0_dev16 c < nD) : (⟨k0_dev16 c, h⟩ : Dev nD) = prv c := Fin.ext (k0_dev16_eq c)
theorem dev17_eq (c : Dev nD) (h : k0_dev17 c < nD) : (⟨k0_dev17 c, h⟩ : Dev nD) = nxt c := Fin.ext (k0_dev17_eq c)
theorem dev18_eq (c : Dev nD) (h : k0_dev18 c < nD) : (⟨k0_dev18 c, h⟩ : Dev nD) = prv c := Fin.ext (k0_dev18_eq c)
theorem dev19_eq (c : Dev nD) (h : k0_dev19 c < nD) : (⟨k0_dev19 c, h⟩ : Dev nD) = nxt c := Fin.ext (k0_dev19_eq c)
theorem dev20_eq (c : Dev nD) (h : k0_dev20 c < nD) : (⟨k0_dev20 c, h⟩ : Dev nD) = prv c := Fin.ext (k0_dev20_eq c)
theorem dev21_eq (c : Dev nD) (h : k0_dev21 c < nD) : (⟨k0_dev21 c, h⟩ : Dev nD) = nxt c := Fin.ext (k0_dev21_eq c)
theorem dev22_eq (c : Dev nD) (h : k0_dev22 c < nD) : (⟨k0_dev22 c, h⟩ : Dev nD) = prv c := Fin.ext (k0_dev22_eq c)
theorem dev23_eq (c : Dev nD) (h : k0_dev23 c < nD) : (⟨k0_dev23 c, h⟩ : Dev nD) = nxt c := Fin.ext (k0_dev23_eq c)
theorem dev24_eq (c : Dev nD) (h : k0_dev24 c < nD) : (⟨k0_dev24 c, h⟩ : Dev nD) = prv c := Fin.ext (k0_dev24_eq c)
theorem dev25_eq (c : Dev nD) (h : k0_dev25 c < nD) : (⟨k0_dev25 c, h⟩ : Dev nD) = nxt c := Fin.ext (k0_dev25_eq c)
theorem dev26_eq (c : Dev nD) (h : k0_dev26 c < nD) : (⟨k0_dev26 c, h⟩ : Dev nD) = prv c := Fin.ext (k0_dev26_eq c)
theorem dev27_eq (c : Dev nD) (h : k0_dev27 c < nD) : (⟨k0_dev27 c, h⟩ : Dev nD) = nxt c := Fin.ext (k0_dev27_eq c)
theorem dev28_eq (c : Dev nD) (h : k0_dev28 c < nD) : (⟨k0_dev28 c, h⟩ : Dev nD) = prv c := Fin.ext (k0_dev28_eq c)
theorem dev29_eq (c : Dev nD) (h : k0_dev29 c < nD) : (⟨k0_dev29 c, h⟩ : Dev nD) = nxt c := Fin.ext (k0_dev29_eq c)
theorem dev30_eq (c : Dev nD) (h : k0_dev30 c < nD) : (⟨k0_dev30 c, h⟩ : Dev nD) = prv c := Fin.ext (k0_dev30_eq c)
theorem dev31_eq (c : Dev nD) (h : k0_dev31 c < nD) : (⟨k0_dev31 c, h⟩ : Dev nD) = nxt c := Fin.ext (k0_dev31_eq c)
theorem dev32_eq (c : Dev nD) (h : k0_dev32 c < nD) : (⟨k0_dev32 c, h⟩ : Dev nD) = prv c := Fin.ext (k0_dev32_eq c)
theorem dev33_eq (c : Dev nD) (h : k0_dev33 c < nD) : (⟨k0_dev33 c, h⟩ : Dev nD) = nxt c := Fin.ext (k0_dev33_eq c)
theorem dev34_eq (c : Dev nD) (h : k0_dev34 c < nD) : (⟨k0_dev34 c, h⟩ : Dev nD) = prv c := Fin.ext (k0_dev34_eq c)
theorem dev35_eq (c : Dev nD) (h : k0_dev35 c < nD) : (⟨k0_dev35 c, h⟩ : Dev nD) = nxt c := Fin.ext (k0_dev35_eq c)
theorem dev36_eq (c : Dev nD) (h : k0_dev36 c < nD) : (⟨k0_dev36 c, h⟩ : Dev nD) = prv c := Fin.ext (k0_dev36_eq c)
theorem dev37_eq (c : Dev nD) (h : k0_dev37 c < nD) : (⟨k0_dev37 c, h⟩ : Dev nD) = nxt c := Fin.ext (k0_dev37_eq c)
theorem dev38_eq (c : Dev nD) (h : k0_dev38 c < nD) : (⟨k0_dev38 c, h⟩ : Dev nD) = prv c := Fin.ext (k0_dev38_eq c)
theorem dev39_eq (c : Dev nD) (h : k0_dev39 c < nD) : (⟨k0_dev39 c, h⟩ : Dev nD) = nxt c := Fin.ext (k0_dev39_eq c)
theorem dev40_eq (c : Dev nD) (h : k0_dev40 c < nD) : (⟨k0_dev40 c, h⟩ : Dev nD) = prv c := Fin.ext (k0_dev40_eq c)
theorem dev41_eq (c : Dev nD) (h : k0_dev41 c < nD) : (⟨k0_dev41 c, h⟩ : Dev nD) = nxt c := Fin.ext (k0_dev41_eq c)
theorem dev42_eq (c : Dev nD) (h : k0_dev42 c < nD) : (⟨k0_dev42 c, h⟩ : Dev nD) = prv c := Fin.ext (k0_dev42_eq c)
theorem dev43_eq (c : Dev nD) (h : k0_dev43 c < nD) : (⟨k0_dev43 c, h⟩ : Dev nD) = nxt c := Fin.ext (k0_dev43_eq c)
theorem dev44_eq (c : Dev nD) (h : k0_dev44 c < nD) : (⟨k0_dev44 c, h⟩ : Dev nD) = prv c := Fin.ext (k0_dev44_eq c)
theorem dev45_eq (c : Dev nD) (h : k0_dev45 c < nD) : (⟨k0_dev45 c, h⟩ : Dev nD) = nxt c := Fin.ext (k0_dev45_eq c)
theorem dev46_eq (c : Dev nD) (h : k0_dev46 c < nD) : (⟨k0_dev46 c, h⟩ : Dev nD) = prv c := Fin.ext (k0_dev46_eq c)
theorem dev47_eq (c : Dev nD) (h : k0_dev47 c < nD) : (⟨k0_dev47 c, h⟩ : Dev nD) = nxt c := Fin.ext (k0_dev47_eq c)
theorem dev48_eq (c : Dev nD) (h : k0_dev48 c < nD) : (⟨k0_dev48 c, h⟩ : Dev nD) = prv c := Fin.ext (k0_dev48_eq c)
theorem dev49_eq (c : Dev nD) (h : k0_dev49 c < nD) : (⟨k0_dev49 c, h⟩ : Dev nD) = nxt c := Fin.ext (k0_dev49_eq c)
theorem dev50_eq (c : Dev nD) (h : k0_dev50 c < nD) : (⟨k0_dev50 c, h⟩ : Dev nD) = prv c := Fin.ext (k0_dev50_eq c)
theorem dev51_eq (c : Dev nD) (h : k0_dev51 c < nD) : (⟨k0_dev51 c, h⟩ : Dev nD) = nxt c := Fin.ext (k0_dev51_eq c)
theorem dev52_eq (c : Dev nD) (h : k0_dev52 c < nD) : (⟨k0_dev52 c, h⟩ : Dev nD) = prv c := Fin.ext (k0_dev52_eq c)
theorem dev53_eq (c : Dev nD) (h : k0_dev53 c < nD) : (⟨k0_dev53 c, h⟩ : Dev nD) = nxt c := Fin.ext (k0_dev53_eq c)
theorem dev54_eq (c : Dev nD) (h : k0_dev54 c < nD) : (⟨k0_dev54 c, h⟩ : Dev nD) = prv c := Fin.ext (k0_dev54_eq c)
theorem dev55_eq (c : Dev nD) (h : k0_dev55 c < nD) : (⟨k0_dev55 c, h⟩ : Dev nD) = nxt c := Fin.ext (k0_dev55_eq c)
theorem dev56_eq (c : Dev nD) (h : k0_dev56 c < nD) : (⟨k0_dev56 c, h⟩ : Dev nD) = prv c := Fin.ext (k0_dev56_eq c)
theorem dev57_eq (c : Dev nD) (h : k0_dev57 c < nD) : (⟨k0_dev57 c, h⟩ : Dev nD) = nxt c := Fin.ext (k0_dev57_eq c)
theorem dev58_eq (c : Dev nD) (h : k0_dev58 c < nD) : (⟨k0_dev58 c, h⟩ : Dev nD) = prv c := Fin.ext (k0_dev58_eq c)
theorem dev59_eq (c : Dev nD) (h : k0_dev59 c < nD) : (⟨k0_dev59 c, h⟩ : Dev nD) = nxt c := Fin.ext (k0_dev59_eq c)
theorem dev60_eq (c : Dev nD) (h : k0_dev60 c < nD) : (⟨k0_dev60 c, h⟩ : Dev nD) = prv c := Fin.ext (k0_dev60_eq c)
theorem dev61_eq (c : Dev nD) (h : k0_dev61 c < nD) : (⟨k0_dev61 c, h⟩ : Dev nD) = nxt c := Fin.ext (k0_dev61_eq c)
theorem dev62_eq (c : Dev nD) (h : k0_dev62 c < nD) : (⟨k0_dev62 c, h⟩ : Dev nD) = prv c := Fin.ext (k0_dev62_eq c)
theorem dev63_eq (c : Dev nD) (h : k0_dev63 c < nD) : (⟨k0_dev63 c, h⟩ : Dev nD) = nxt c := Fin.ext (k0_dev63_eq c)
theorem dev64_eq (c : Dev nD) (h : k0_dev64 c < nD) : (⟨k0_dev64 c, h⟩ : Dev nD) = prv c := Fin.ext (k0_dev64_eq c)
theorem dev65_eq (c : Dev nD) (h : k0_dev65 c < nD) : (⟨k0_dev65 c, h⟩ : Dev nD) = nxt c := Fin.ext (k0_dev65_eq c)
theorem dev66_eq (c : Dev nD) (h : k0_dev66 c < nD) : (⟨k0_dev66 c, h⟩ : Dev nD) = prv c := Fin.ext (k0_dev66_eq c)
theorem dev67_eq (c : Dev nD) (h : k0_dev67 c < nD) : (⟨k0_dev67 c, h⟩ : Dev nD) = nxt c := Fin.ext (k0_dev67_eq c)
theorem dev68_eq (c : Dev nD) (h : k0_dev68 c < nD) : (⟨k0_dev68 c, h⟩ : Dev nD) = prv c := Fin.ext (k0_dev68_eq c)
theorem dev69_eq (c : Dev nD) (h : k0_dev69 c < nD) : (⟨k0_dev69 c, h⟩ : Dev nD) = nxt c := Fin.ext (k0_dev69_eq c)
theorem dev70_eq (c : Dev nD) (h : k0_dev70 c < nD) : (⟨k0_dev70 c, h⟩ : Dev nD) = prv c := Fin.ext (k0_dev70_eq c)
theorem dev71_eq (c : Dev nD) (h : k0_dev71 c < nD) : (⟨k0_dev71 c, h⟩ : Dev nD) = nxt c := Fin.ext (k0_dev71_eq c)
theorem dev72_eq (c : Dev nD) (h : k0_dev72 c < nD) : (⟨k0_dev72 c, h⟩ : Dev nD) = prv c := Fin.ext (k0_dev72_eq c)
theorem dev73_eq (c : Dev nD) (h : k0_dev73 c < nD) : (⟨k0_dev73 c, h⟩ : Dev nD) = nxt c := Fin.ext (k0_dev73_eq c)
theorem dev74_eq (c : Dev nD) (h : k0_dev74 c < nD) : (⟨k0_dev74 c, h⟩ : Dev nD) = prv c := Fin.ext (k0_dev74_eq c)
theorem dev75_eq (c : Dev nD) (h : k0_dev75 c < nD) : (⟨k0_dev75 c, h⟩ : Dev nD) = nxt c := Fin.ext (k0_dev75_eq c)
theorem dev76_eq (c : Dev nD) (h : k0_dev76 c < nD) : (⟨k0_dev76 c, h⟩ : Dev nD) = prv c := Fin.ext (k0_dev76_eq c)
theorem dev77_eq (c : Dev nD) (h : k0_dev77 c < nD) : (⟨k0_dev77 c, h⟩ : Dev nD) = nxt c := Fin.ext (k0_dev77_eq c)
theorem dev78_eq (c : Dev nD) (h : k0_dev78 c < nD) : (⟨k0_dev78 c, h⟩ : Dev nD) = prv c := Fin.ext (k0_dev78_eq c)
theorem dev79_eq (c : Dev nD) (h : k0_dev79 c < nD) : (⟨k0_dev79 c, h⟩ : Dev nD) = nxt c := Fin.ext (k0_dev79_eq c)
theorem dev80_eq (c : Dev nD) (h : k0_dev80 c < nD) : (⟨k0_dev80 c, h⟩ : Dev nD) = prv c := Fin.ext (k0_dev80_eq c)
theorem dev81_eq (c : Dev nD) (h : k0_dev81 c < nD) : (⟨k0_dev81 c, h⟩ : Dev nD) = nxt c := Fin.ext (k0_dev81_eq c)
theorem dev82_eq (c : Dev nD) (h : k0_dev82 c < nD) : (⟨k0_dev82 c, h⟩ : Dev nD) = prv c := Fin.ext (k0_dev82_eq c)
theorem dev83_eq (c : Dev nD) (h : k0_dev83 c < nD) : (⟨k0_dev83 c, h⟩ : Dev nD) = nxt c := Fin.ext (k0_dev83_eq c)
theorem dev84_eq (c : Dev nD) (h : k0_dev84 c < nD) : (⟨k0_dev84 c, h⟩ : Dev nD) = prv c := Fin.ext (k0_dev84_eq c)
theorem dev85_eq (c : Dev nD) (h : k0_dev85 c < nD) : (⟨k0_dev85 c, h⟩ : Dev nD) = nxt c := Fin.ext (k0_dev85_eq c)
theorem dev86_eq (c : Dev nD) (h : k0_dev86 c < nD) : (⟨k0_dev86 c, h⟩ : Dev nD) = prv c := Fin.ext (k0_dev86_eq c)
theorem dev87_eq (c : Dev nD) (h : k0_dev87 c < nD) : (⟨k0_dev87 c, h⟩ : Dev nD) = nxt c := Fin.ext (k0_dev87_eq c)
theorem dev88_eq (c : Dev nD) (h : k0_dev88 c < nD) : (⟨k0_dev88 c, h⟩ : Dev nD) = prv c := Fin.ext (k0_dev88_eq c)
theorem dev89_eq (c : Dev nD) (h : k0_dev89 c < nD) : (⟨k0_dev89 c, h⟩ : Dev nD) = nxt c := Fin.ext (k0_dev89_eq c)
theorem dev90_eq (c : Dev nD) (h : k0_dev90 c < nD) : (⟨k0_dev90 c, h⟩ : Dev nD) = prv c := Fin.ext (k0_dev90_eq c)
theorem dev91_eq (c : Dev nD) (h : k0_dev91 c < nD) : (⟨k0_dev91 c, h⟩ : Dev nD) = nxt c := Fin.ext (k0_dev91_eq c)
theorem dev92_eq (c : Dev nD) (h : k0_dev92 c < nD) : (⟨k0_dev92 c, h⟩ : Dev nD) = prv c := Fin.ext (k0_dev92_eq c)
theorem dev93_eq (c : Dev nD) (h : k0_dev93 c < nD) : (⟨k0_dev93 c, h⟩ : Dev nD) = nxt c := Fin.ext (k0_dev93_eq c)
theorem dev94_eq (c : Dev nD) (h : k0_dev94 c < nD) : (⟨k0_dev94 c, h⟩ : Dev nD) = prv c := Fin.ext (k0_dev94_eq c)
theorem dev95_eq (c : Dev nD) (h : k0_dev95 c < nD) : (⟨k0_dev95 c, h⟩ : Dev nD) = nxt c := Fin.ext (k0_dev95_eq c)
theorem dev96_eq (c : Dev nD) (h : k0_dev96 c < nD) : (⟨k0_dev96 c, h⟩ : Dev nD) = prv c := Fin.ext (k0_dev96_eq c)
theorem dev97_eq (c : Dev nD) (h : k0_dev97 c < nD) : (⟨k0_dev97 c, h⟩ : Dev nD) = nxt c := Fin.ext (k0_dev97_eq c)
theorem dev98_eq (c : Dev nD) (h : k0_dev98 c < nD) : (⟨k0_dev98 c, h⟩ : Dev nD) = prv c := Fin.ext (k0_dev98_eq c)
theorem dev99_eq (c : Dev nD) (h : k0_dev99 c < nD) : (⟨k0_dev99 c, h⟩ : Dev nD) = nxt c := Fin.ext (k0_dev99_eq c)
theorem dev100_eq (c : Dev nD) (h : k0_dev100 c < nD) : (⟨k0_dev100 c, h⟩ : Dev nD) = prv c := Fin.ext (k0_dev100_eq c)
theorem dev101_eq (c : Dev nD) (h : k0_dev101 c < nD) : (⟨k0_dev101 c, h⟩ : Dev nD) = nxt c := Fin.ext (k0_dev101_eq c)
theorem dev102_eq (c : Dev nD) (h : k0_dev102 c < nD) : (⟨k0_dev102 c, h⟩ : Dev nD) = prv c := Fin.ext (k0_dev102_eq c)
theorem dev103_eq (c : Dev nD) (h : k0_dev103 c < nD) : (⟨k0_dev103 c, h⟩ : Dev nD) = nxt c := Fin.ext (k0_dev103_eq c)
theorem dev104_eq (c : Dev nD) (h : k0_dev104 c < nD) : (⟨k0_dev104 c, h⟩ : Dev nD) = prv c := Fin.ext (k0_dev104_eq c)
theorem dev105_eq (c : Dev nD) (h : k0_dev105 c < nD) : (⟨k0_dev105 c, h⟩ : Dev nD) = nxt c := Fin.ext (k0_dev105_eq c)
theorem dev106_eq (c : Dev nD) (h : k0_dev106 c < nD) : (⟨k0_dev106 c, h⟩ : Dev nD) = prv c := Fin.ext (k0_dev106_eq c)
theorem dev107_eq (c : Dev nD) (h : k0_dev107 c < nD) : (⟨k0_dev107 c, h⟩ : Dev nD) = nxt c := Fin.ext (k0_dev107_eq c)
theorem dev108_eq (c : Dev nD) (h : k0_dev108 c < nD) : (⟨k0_dev108 c, h⟩ : Dev nD) = prv c := Fin.ext (k0_dev108_eq c)
theorem dev109_eq (c : Dev nD) (h : k0_dev109 c < nD) : (⟨k0_dev109 c, h⟩ : Dev nD) = nxt c := Fin.ext (k0_dev109_eq c)
theorem dev110_eq (c : Dev nD) (h : k0_dev110 c < nD) : (⟨k0_dev110 c, h⟩ : Dev nD) = prv c := Fin.ext (k0_dev110_eq c)
theorem dev111_eq (c : Dev nD) (h : k0_dev111 c < nD) : (⟨k0_dev111 c, h⟩ : Dev nD) = nxt c := Fin.ext (k0_dev111_eq c)
theorem dev112_eq (c : Dev nD) (h : k0_dev112 c < nD) : (⟨k0_dev112 c, h⟩ : Dev nD) = prv c := Fin.ext (k0_dev112_eq c)
theorem dev113_eq (c : Dev nD) (h : k0_dev113 c < nD) : (⟨k0_dev113 c, h⟩ : Dev nD) = nxt c := Fin.ext (k0_dev113_eq c)
theorem dev114_eq (c : Dev nD) (h : k0_dev114 c < nD) : (⟨k0_dev114 c, h⟩ : Dev nD) = prv c := Fin.ext (k0_dev114_eq c)
theorem dev115_eq (c : Dev nD) (h : k0_dev115 c < nD) : (⟨k0_dev115 c, h⟩ : Dev nD) = nxt c := Fin.ext (k0_dev115_eq c)
theorem dev116_eq (c : Dev nD) (h : k0_dev116 c < nD) : (⟨k0_dev116 c, h⟩ : Dev nD) = prv c := Fin.ext (k0_dev116_eq c)
theorem dev117_eq (c : Dev nD) (h : k0_dev117 c < nD) : (⟨k0_dev117 c, h⟩ : Dev nD) = nxt c := Fin.ext (k0_dev117_eq c)
theorem dev118_eq (c : Dev nD) (h : k0_dev118 c < nD) : (⟨k0_dev118 c, h⟩ : Dev nD) = prv c := Fin.ext (k0_dev118_eq c)
theorem dev119_eq (c : Dev nD) (h : k0_dev119 c < nD) : (⟨k0_dev119 c, h⟩ : Dev nD) = nxt c := Fin.ext (k0_dev119_eq c)
theorem dev120_eq (c : Dev nD) (h : k0_dev120 c < nD) : (⟨k0_dev120 c, h⟩ : Dev nD) = prv c := Fin.ext (k0_dev120_eq c)
theorem dev121_eq (c : Dev nD) (h : k0_dev121 c < nD) : (⟨k0_dev121 c, h⟩ : Dev nD) = nxt c := Fin.ext (k0_dev121_eq c)
theorem dev122_eq (c : Dev nD) (h : k0_dev122 c < nD) : (⟨k0_dev122 c, h⟩ : Dev nD) = prv c := Fin.ext (k0_dev122_eq c)

attribute [sl_canon]
  dev1_eq dev2_eq dev3_eq dev4_eq dev5_eq dev6_eq dev7_eq dev8_eq dev9_eq dev10_eq dev11_eq dev12_eq dev13_eq
  dev14_eq dev15_eq dev16_eq dev17_eq dev18_eq dev19_eq dev20_eq dev21_eq dev22_eq dev23_eq dev24_eq dev25_eq
  dev26_eq dev27_eq dev28_eq dev29_eq dev30_eq dev31_eq dev32_eq dev33_eq dev34_eq dev35_eq dev36_eq dev37_eq
  dev38_eq dev39_eq dev40_eq dev41_eq dev42_eq dev43_eq dev44_eq dev45_eq dev46_eq dev47_eq dev48_eq dev49_eq
  dev50_eq dev51_eq dev52_eq dev53_eq dev54_eq dev55_eq dev56_eq dev57_eq dev58_eq dev59_eq dev60_eq dev61_eq
  dev62_eq dev63_eq dev64_eq dev65_eq dev66_eq dev67_eq dev68_eq dev69_eq dev70_eq dev71_eq dev72_eq dev73_eq
  dev74_eq dev75_eq dev76_eq dev77_eq dev78_eq dev79_eq dev80_eq dev81_eq dev82_eq dev83_eq dev84_eq dev85_eq
  dev86_eq dev87_eq dev88_eq dev89_eq dev90_eq dev91_eq dev92_eq dev93_eq dev94_eq dev95_eq dev96_eq dev97_eq
  dev98_eq dev99_eq dev100_eq dev101_eq dev102_eq dev103_eq dev104_eq dev105_eq dev106_eq dev107_eq dev108_eq
  dev109_eq dev110_eq dev111_eq dev112_eq dev113_eq dev114_eq dev115_eq dev116_eq dev117_eq dev118_eq
  dev119_eq dev120_eq dev121_eq dev122_eq

/-- rewrites every device id of the program to `nxt c` or `prv c`, and nothing else (no projection or definitional reduction: the
    equations are stated over the program's own spelling) -/
macro "dev_eqs" : tactic => `(tactic| simp (config := { beta := false, eta := false, zeta := false, zetaDelta := false, proj := false, decide := false, arith := false, dsimp := false, ground := false, unfoldPartialApp := false, etaStruct := .none, iota := false, failIfUnchanged := false }) only [
    dev1_eq, dev2_eq, dev3_eq, dev4_eq, dev5_eq, dev6_eq, dev7_eq, dev8_eq, dev9_eq, dev10_eq, dev11_eq,
    dev12_eq, dev13_eq, dev14_eq, dev15_eq, dev16_eq, dev17_eq, dev18_eq, dev19_eq, dev20_eq, dev21_eq,
    dev22_eq, dev23_eq, dev24_eq, dev25_eq, dev26_eq, dev27_eq, dev28_eq, dev29_eq, dev30_eq, dev31_eq,
    dev32_eq, dev33_eq, dev34_eq, dev35_eq, dev36_eq, dev37_eq, dev38_eq, dev39_eq, dev40_eq, dev41_eq,
    dev42_eq, dev43_eq, dev44_eq, dev45_eq, dev46_eq, dev47_eq, dev48_eq, dev49_eq, dev50_eq, dev51_eq,
    dev52_eq, dev53_eq, dev54_eq, dev55_eq, dev56_eq, dev57_eq, dev58_eq, dev59_eq, dev60_eq, dev61_eq,
    dev62_eq, dev63_eq, dev64_eq, dev65_eq, dev66_eq, dev67_eq, dev68_eq, dev69_eq, dev70_eq, dev71_eq,
    dev72_eq, dev73_eq, dev74_eq, dev75_eq, dev76_eq, dev77_eq, dev78_eq, dev79_eq, dev80_eq, dev81_eq,
    dev82_eq, dev83_eq, dev84_eq, dev85_eq, dev86_eq, dev87_eq, dev88_eq, dev89_eq, dev90_eq, dev91_eq,
    dev92_eq, dev93_eq, dev94_eq, dev95_eq, dev96_eq, dev97_eq, dev98_eq, dev99_eq, dev100_eq, dev101_eq,
    dev102_eq, dev103_eq, dev104_eq, dev105_eq, dev106_eq, dev107_eq, dev108_eq, dev109_eq, dev110_eq,
    dev111_eq, dev112_eq, dev113_eq, dev114_eq, dev115_eq, dev116_eq, dev117_eq, dev118_eq, dev119_eq,
    dev120_eq, dev121_eq, dev122_eq])

/-! ## The row offsets of the blocks of 64 rows

120 distinct applications. The chains of `k0_off2` and `k0_off4` have a stated closed form; those of `k0_off1` and
`k0_off3` have none and are evaluated on the sixteen devices, one argument pair at a time (60 pairs). -/

theorem k0_off1_0_0_lit : ∀ c : Dev nD, k0_off1 c 0#32 0#32 = ![256 * ((c.val + 0) % 16) + 64 * 0, 0] := by decide +kernel
theorem off1_0_0 (c : Dev nD) : k0_off1 c 0#32 0#32 = off true (c.val + 0) 0 := (k0_off1_0_0_lit c).trans (vec_true 0 rfl)
theorem k0_off1_0_64_lit : ∀ c : Dev nD, k0_off1 c 0#32 64#32 = ![256 * ((c.val + 0) % 16) + 64 * 1, 0] := by decide +kernel
theorem off1_0_64 (c : Dev nD) : k0_off1 c 0#32 64#32 = off true (c.val + 0) 1 := (k0_off1_0_64_lit c).trans (vec_true 1 rfl)
theorem k0_off1_m1_0_lit : ∀ c : Dev nD, k0_off1 c 4294967295#32 0#32 = ![256 * ((c.val + 15) % 16) + 64 * 0, 0] := by decide +kernel
theorem off1_m1_0 (c : Dev nD) : k0_off1 c 4294967295#32 0#32 = off true (c.val + 15) 0 := (k0_off1_m1_0_lit c).trans (vec_true 0 rfl)
theorem k0_off1_m1_64_lit : ∀ c : Dev nD, k0_off1 c 4294967295#32 64#32 = ![256 * ((c.val + 15) % 16) + 64 * 1, 0] := by decide +kernel
theorem off1_m1_64 (c : Dev nD) : k0_off1 c 4294967295#32 64#32 = off true (c.val + 15) 1 := (k0_off1_m1_64_lit c).trans (vec_true 1 rfl)
theorem k0_off1_m2_0_lit : ∀ c : Dev nD, k0_off1 c 4294967294#32 0#32 = ![256 * ((c.val + 14) % 16) + 64 * 0, 0] := by decide +kernel
theorem off1_m2_0 (c : Dev nD) : k0_off1 c 4294967294#32 0#32 = off true (c.val + 14) 0 := (k0_off1_m2_0_lit c).trans (vec_true 0 rfl)
theorem k0_off1_m2_64_lit : ∀ c : Dev nD, k0_off1 c 4294967294#32 64#32 = ![256 * ((c.val + 14) % 16) + 64 * 1, 0] := by decide +kernel
theorem off1_m2_64 (c : Dev nD) : k0_off1 c 4294967294#32 64#32 = off true (c.val + 14) 1 := (k0_off1_m2_64_lit c).trans (vec_true 1 rfl)
theorem k0_off1_m3_0_lit : ∀ c : Dev nD, k0_off1 c 4294967293#32 0#32 = ![256 * ((c.val + 13) % 16) + 64 * 0, 0] := by decide +kernel
theorem off1_m3_0 (c : Dev nD) : k0_off1 c 4294967293#32 0#32 = off true (c.val + 13) 0 := (k0_off1_m3_0_lit c).trans (vec_true 0 rfl)
theorem k0_off1_m3_64_lit : ∀ c : Dev nD, k0_off1 c 4294967293#32 64#32 = ![256 * ((c.val + 13) % 16) + 64 * 1, 0] := by decide +kernel
theorem off1_m3_64 (c : Dev nD) : k0_off1 c 4294967293#32 64#32 = off true (c.val + 13) 1 := (k0_off1_m3_64_lit c).trans (vec_true 1 rfl)
theorem k0_off1_m4_0_lit : ∀ c : Dev nD, k0_off1 c 4294967292#32 0#32 = ![256 * ((c.val + 12) % 16) + 64 * 0, 0] := by decide +kernel
theorem off1_m4_0 (c : Dev nD) : k0_off1 c 4294967292#32 0#32 = off true (c.val + 12) 0 := (k0_off1_m4_0_lit c).trans (vec_true 0 rfl)
theorem k0_off1_m4_64_lit : ∀ c : Dev nD, k0_off1 c 4294967292#32 64#32 = ![256 * ((c.val + 12) % 16) + 64 * 1, 0] := by decide +kernel
theorem off1_m4_64 (c : Dev nD) : k0_off1 c 4294967292#32 64#32 = off true (c.val + 12) 1 := (k0_off1_m4_64_lit c).trans (vec_true 1 rfl)
theorem k0_off1_m5_0_lit : ∀ c : Dev nD, k0_off1 c 4294967291#32 0#32 = ![256 * ((c.val + 11) % 16) + 64 * 0, 0] := by decide +kernel
theorem off1_m5_0 (c : Dev nD) : k0_off1 c 4294967291#32 0#32 = off true (c.val + 11) 0 := (k0_off1_m5_0_lit c).trans (vec_true 0 rfl)
theorem k0_off1_m5_64_lit : ∀ c : Dev nD, k0_off1 c 4294967291#32 64#32 = ![256 * ((c.val + 11) % 16) + 64 * 1, 0] := by decide +kernel
theorem off1_m5_64 (c : Dev nD) : k0_off1 c 4294967291#32 64#32 = off true (c.val + 11) 1 := (k0_off1_m5_64_lit c).trans (vec_true 1 rfl)
theorem k0_off1_m6_0_lit : ∀ c : Dev nD, k0_off1 c 4294967290#32 0#32 = ![256 * ((c.val + 10) % 16) + 64 * 0, 0] := by decide +kernel
theorem off1_m6_0 (c : Dev nD) : k0_off1 c 4294967290#32 0#32 = off true (c.val + 10) 0 := (k0_off1_m6_0_lit c).trans (vec_true 0 rfl)
theorem k0_off1_m6_64_lit : ∀ c : Dev nD, k0_off1 c 4294967290#32 64#32 = ![256 * ((c.val + 10) % 16) + 64 * 1, 0] := by decide +kernel
theorem off1_m6_64 (c : Dev nD) : k0_off1 c 4294967290#32 64#32 = off true (c.val + 10) 1 := (k0_off1_m6_64_lit c).trans (vec_true 1 rfl)
theorem k0_off1_m7_0_lit : ∀ c : Dev nD, k0_off1 c 4294967289#32 0#32 = ![256 * ((c.val + 9) % 16) + 64 * 0, 0] := by decide +kernel
theorem off1_m7_0 (c : Dev nD) : k0_off1 c 4294967289#32 0#32 = off true (c.val + 9) 0 := (k0_off1_m7_0_lit c).trans (vec_true 0 rfl)
theorem k0_off1_m7_64_lit : ∀ c : Dev nD, k0_off1 c 4294967289#32 64#32 = ![256 * ((c.val + 9) % 16) + 64 * 1, 0] := by decide +kernel
theorem off1_m7_64 (c : Dev nD) : k0_off1 c 4294967289#32 64#32 = off true (c.val + 9) 1 := (k0_off1_m7_64_lit c).trans (vec_true 1 rfl)
theorem k0_off1_m8_0_lit : ∀ c : Dev nD, k0_off1 c 4294967288#32 0#32 = ![256 * ((c.val + 8) % 16) + 64 * 0, 0] := by decide +kernel
theorem off1_m8_0 (c : Dev nD) : k0_off1 c 4294967288#32 0#32 = off true (c.val + 8) 0 := (k0_off1_m8_0_lit c).trans (vec_true 0 rfl)
theorem k0_off1_m8_64_lit : ∀ c : Dev nD, k0_off1 c 4294967288#32 64#32 = ![256 * ((c.val + 8) % 16) + 64 * 1, 0] := by decide +kernel
theorem off1_m8_64 (c : Dev nD) : k0_off1 c 4294967288#32 64#32 = off true (c.val + 8) 1 := (k0_off1_m8_64_lit c).trans (vec_true 1 rfl)
theorem k0_off1_m9_0_lit : ∀ c : Dev nD, k0_off1 c 4294967287#32 0#32 = ![256 * ((c.val + 7) % 16) + 64 * 0, 0] := by decide +kernel
theorem off1_m9_0 (c : Dev nD) : k0_off1 c 4294967287#32 0#32 = off true (c.val + 7) 0 := (k0_off1_m9_0_lit c).trans (vec_true 0 rfl)
theorem k0_off1_m9_64_lit : ∀ c : Dev nD, k0_off1 c 4294967287#32 64#32 = ![256 * ((c.val + 7) % 16) + 64 * 1, 0] := by decide +kernel
theorem off1_m9_64 (c : Dev nD) : k0_off1 c 4294967287#32 64#32 = off true (c.val + 7) 1 := (k0_off1_m9_64_lit c).trans (vec_true 1 rfl)
theorem k0_off1_m10_0_lit : ∀ c : Dev nD, k0_off1 c 4294967286#32 0#32 = ![256 * ((c.val + 6) % 16) + 64 * 0, 0] := by decide +kernel
theorem off1_m10_0 (c : Dev nD) : k0_off1 c 4294967286#32 0#32 = off true (c.val + 6) 0 := (k0_off1_m10_0_lit c).trans (vec_true 0 rfl)
theorem k0_off1_m10_64_lit : ∀ c : Dev nD, k0_off1 c 4294967286#32 64#32 = ![256 * ((c.val + 6) % 16) + 64 * 1, 0] := by decide +kernel
theorem off1_m10_64 (c : Dev nD) : k0_off1 c 4294967286#32 64#32 = off true (c.val + 6) 1 := (k0_off1_m10_64_lit c).trans (vec_true 1 rfl)
theorem k0_off1_m11_0_lit : ∀ c : Dev nD, k0_off1 c 4294967285#32 0#32 = ![256 * ((c.val + 5) % 16) + 64 * 0, 0] := by decide +kernel
theorem off1_m11_0 (c : Dev nD) : k0_off1 c 4294967285#32 0#32 = off true (c.val + 5) 0 := (k0_off1_m11_0_lit c).trans (vec_true 0 rfl)
theorem k0_off1_m11_64_lit : ∀ c : Dev nD, k0_off1 c 4294967285#32 64#32 = ![256 * ((c.val + 5) % 16) + 64 * 1, 0] := by decide +kernel
theorem off1_m11_64 (c : Dev nD) : k0_off1 c 4294967285#32 64#32 = off true (c.val + 5) 1 := (k0_off1_m11_64_lit c).trans (vec_true 1 rfl)
theorem k0_off1_m12_0_lit : ∀ c : Dev nD, k0_off1 c 4294967284#32 0#32 = ![256 * ((c.val + 4) % 16) + 64 * 0, 0] := by decide +kernel
theorem off1_m12_0 (c : Dev nD) : k0_off1 c 4294967284#32 0#32 = off true (c.val + 4) 0 := (k0_off1_m12_0_lit c).trans (vec_true 0 rfl)
theorem k0_off1_m12_64_lit : ∀ c : Dev nD, k0_off1 c 4294967284#32 64#32 = ![256 * ((c.val + 4) % 16) + 64 * 1, 0] := by decide +kernel
theorem off1_m12_64 (c : Dev nD) : k0_off1 c 4294967284#32 64#32 = off true (c.val + 4) 1 := (k0_off1_m12_64_lit c).trans (vec_true 1 rfl)
theorem k0_off1_m13_0_lit : ∀ c : Dev nD, k0_off1 c 4294967283#32 0#32 = ![256 * ((c.val + 3) % 16) + 64 * 0, 0] := by decide +kernel
theorem off1_m13_0 (c : Dev nD) : k0_off1 c 4294967283#32 0#32 = off true (c.val + 3) 0 := (k0_off1_m13_0_lit c).trans (vec_true 0 rfl)
theorem k0_off1_m13_64_lit : ∀ c : Dev nD, k0_off1 c 4294967283#32 64#32 = ![256 * ((c.val + 3) % 16) + 64 * 1, 0] := by decide +kernel
theorem off1_m13_64 (c : Dev nD) : k0_off1 c 4294967283#32 64#32 = off true (c.val + 3) 1 := (k0_off1_m13_64_lit c).trans (vec_true 1 rfl)
theorem k0_off1_m14_0_lit : ∀ c : Dev nD, k0_off1 c 4294967282#32 0#32 = ![256 * ((c.val + 2) % 16) + 64 * 0, 0] := by decide +kernel
theorem off1_m14_0 (c : Dev nD) : k0_off1 c 4294967282#32 0#32 = off true (c.val + 2) 0 := (k0_off1_m14_0_lit c).trans (vec_true 0 rfl)
theorem k0_off1_m14_64_lit : ∀ c : Dev nD, k0_off1 c 4294967282#32 64#32 = ![256 * ((c.val + 2) % 16) + 64 * 1, 0] := by decide +kernel
theorem off1_m14_64 (c : Dev nD) : k0_off1 c 4294967282#32 64#32 = off true (c.val + 2) 1 := (k0_off1_m14_64_lit c).trans (vec_true 1 rfl)
theorem off2_0_0 (c : Dev nD) : k0_off2 c 0#32 0#32 = off false (c.val + 0) 0 :=
  (k0_off2_eq c ⟨0, by decide⟩ ⟨0, by decide⟩).trans (vec_false 0 (by show (c.val + 0 + 32) % 16 = (c.val + 0) % 16; omega))
theorem off2_0_64 (c : Dev nD) : k0_off2 c 0#32 64#32 = off false (c.val + 0) 1 :=
  (k0_off2_eq c ⟨0, by decide⟩ ⟨1, by decide⟩).trans (vec_false 1 (by show (c.val + 0 + 32) % 16 = (c.val + 0) % 16; omega))
theorem off2_1_0 (c : Dev nD) : k0_off2 c 1#32 0#32 = off false (c.val + 1) 0 :=
  (k0_off2_eq c ⟨1, by decide⟩ ⟨0, by decide⟩).trans (vec_false 0 (by show (c.val + 1 + 32) % 16 = (c.val + 1) % 16; omega))
theorem off2_1_64 (c : Dev nD) : k0_off2 c 1#32 64#32 = off false (c.val + 1) 1 :=
  (k0_off2_eq c ⟨1, by decide⟩ ⟨1, by decide⟩).trans (vec_false 1 (by show (c.val + 1 + 32) % 16 = (c.val + 1) % 16; omega))
theorem off2_2_0 (c : Dev nD) : k0_off2 c 2#32 0#32 = off false (c.val + 2) 0 :=
  (k0_off2_eq c ⟨2, by decide⟩ ⟨0, by decide⟩).trans (vec_false 0 (by show (c.val + 2 + 32) % 16 = (c.val + 2) % 16; omega))
theorem off2_2_64 (c : Dev nD) : k0_off2 c 2#32 64#32 = off false (c.val + 2) 1 :=
  (k0_off2_eq c ⟨2, by decide⟩ ⟨1, by decide⟩).trans (vec_false 1 (by show (c.val + 2 + 32) % 16 = (c.val + 2) % 16; omega))
theorem off2_3_0 (c : Dev nD) : k0_off2 c 3#32 0#32 = off false (c.val + 3) 0 :=
  (k0_off2_eq c ⟨3, by decide⟩ ⟨0, by decide⟩).trans (vec_false 0 (by show (c.val + 3 + 32) % 16 = (c.val + 3) % 16; omega))
theorem off2_3_64 (c : Dev nD) : k0_off2 c 3#32 64#32 = off false (c.val + 3) 1 :=
  (k0_off2_eq c ⟨3, by decide⟩ ⟨1, by decide⟩).trans (vec_false 1 (by show (c.val + 3 + 32) % 16 = (c.val + 3) % 16; omega))
theorem off2_4_0 (c : Dev nD) : k0_off2 c 4#32 0#32 = off false (c.val + 4) 0 :=
  (k0_off2_eq c ⟨4, by decide⟩ ⟨0, by decide⟩).trans (vec_false 0 (by show (c.val + 4 + 32) % 16 = (c.val + 4) % 16; omega))
theorem off2_4_64 (c : Dev nD) : k0_off2 c 4#32 64#32 = off false (c.val + 4) 1 :=
  (k0_off2_eq c ⟨4, by decide⟩ ⟨1, by decide⟩).trans (vec_false 1 (by show (c.val + 4 + 32) % 16 = (c.val + 4) % 16; omega))
theorem off2_5_0 (c : Dev nD) : k0_off2 c 5#32 0#32 = off false (c.val + 5) 0 :=
  (k0_off2_eq c ⟨5, by decide⟩ ⟨0, by decide⟩).trans (vec_false 0 (by show (c.val + 5 + 32) % 16 = (c.val + 5) % 16; omega))
theorem off2_5_64 (c : Dev nD) : k0_off2 c 5#32 64#32 = off false (c.val + 5) 1 :=
  (k0_off2_eq c ⟨5, by decide⟩ ⟨1, by decide⟩).trans (vec_false 1 (by show (c.val + 5 + 32) % 16 = (c.val + 5) % 16; omega))
theorem off2_6_0 (c : Dev nD) : k0_off2 c 6#32 0#32 = off false (c.val + 6) 0 :=
  (k0_off2_eq c ⟨6, by decide⟩ ⟨0, by decide⟩).trans (vec_false 0 (by show (c.val + 6 + 32) % 16 = (c.val + 6) % 16; omega))
theorem off2_6_64 (c : Dev nD) : k0_off2 c 6#32 64#32 = off false (c.val + 6) 1 :=
  (k0_off2_eq c ⟨6, by decide⟩ ⟨1, by decide⟩).trans (vec_false 1 (by show (c.val + 6 + 32) % 16 = (c.val + 6) % 16; omega))
theorem off2_7_0 (c : Dev nD) : k0_off2 c 7#32 0#32 = off false (c.val + 7) 0 :=
  (k0_off2_eq c ⟨7, by decide⟩ ⟨0, by decide⟩).trans (vec_false 0 (by show (c.val + 7 + 32) % 16 = (c.val + 7) % 16; omega))
theorem off2_7_64 (c : Dev nD) : k0_off2 c 7#32 64#32 = off false (c.val + 7) 1 :=
  (k0_off2_eq c ⟨7, by decide⟩ ⟨1, by decide⟩).trans (vec_false 1 (by show (c.val + 7 + 32) % 16 = (c.val + 7) % 16; omega))
theorem off2_8_0 (c : Dev nD) : k0_off2 c 8#32 0#32 = off false (c.val + 8) 0 :=
  (k0_off2_eq c ⟨8, by decide⟩ ⟨0, by decide⟩).trans (vec_false 0 (by show (c.val + 8 + 32) % 16 = (c.val + 8) % 16; omega))
theorem off2_8_64 (c : Dev nD) : k0_off2 c 8#32 64#32 = off false (c.val + 8) 1 :=
  (k0_off2_eq c ⟨8, by decide⟩ ⟨1, by decide⟩).trans (vec_false 1 (by show (c.val + 8 + 32) % 16 = (c.val + 8) % 16; omega))
theorem off2_9_0 (c : Dev nD) : k0_off2 c 9#32 0#32 = off false (c.val + 9) 0 :=
  (k0_off2_eq c ⟨9, by decide⟩ ⟨0, by decide⟩).trans (vec_false 0 (by show (c.val + 9 + 32) % 16 = (c.val + 9) % 16; omega))
theorem off2_9_64 (c : Dev nD) : k0_off2 c 9#32 64#32 = off false (c.val + 9) 1 :=
  (k0_off2_eq c ⟨9, by decide⟩ ⟨1, by decide⟩).trans (vec_false 1 (by show (c.val + 9 + 32) % 16 = (c.val + 9) % 16; omega))
theorem off2_10_0 (c : Dev nD) : k0_off2 c 10#32 0#32 = off false (c.val + 10) 0 :=
  (k0_off2_eq c ⟨10, by decide⟩ ⟨0, by decide⟩).trans (vec_false 0 (by show (c.val + 10 + 32) % 16 = (c.val + 10) % 16; omega))
theorem off2_10_64 (c : Dev nD) : k0_off2 c 10#32 64#32 = off false (c.val + 10) 1 :=
  (k0_off2_eq c ⟨10, by decide⟩ ⟨1, by decide⟩).trans (vec_false 1 (by show (c.val + 10 + 32) % 16 = (c.val + 10) % 16; omega))
theorem off2_11_0 (c : Dev nD) : k0_off2 c 11#32 0#32 = off false (c.val + 11) 0 :=
  (k0_off2_eq c ⟨11, by decide⟩ ⟨0, by decide⟩).trans (vec_false 0 (by show (c.val + 11 + 32) % 16 = (c.val + 11) % 16; omega))
theorem off2_11_64 (c : Dev nD) : k0_off2 c 11#32 64#32 = off false (c.val + 11) 1 :=
  (k0_off2_eq c ⟨11, by decide⟩ ⟨1, by decide⟩).trans (vec_false 1 (by show (c.val + 11 + 32) % 16 = (c.val + 11) % 16; omega))
theorem off2_12_0 (c : Dev nD) : k0_off2 c 12#32 0#32 = off false (c.val + 12) 0 :=
  (k0_off2_eq c ⟨12, by decide⟩ ⟨0, by decide⟩).trans (vec_false 0 (by show (c.val + 12 + 32) % 16 = (c.val + 12) % 16; omega))
theorem off2_12_64 (c : Dev nD) : k0_off2 c 12#32 64#32 = off false (c.val + 12) 1 :=
  (k0_off2_eq c ⟨12, by decide⟩ ⟨1, by decide⟩).trans (vec_false 1 (by show (c.val + 12 + 32) % 16 = (c.val + 12) % 16; omega))
theorem off2_13_0 (c : Dev nD) : k0_off2 c 13#32 0#32 = off false (c.val + 13) 0 :=
  (k0_off2_eq c ⟨13, by decide⟩ ⟨0, by decide⟩).trans (vec_false 0 (by show (c.val + 13 + 32) % 16 = (c.val + 13) % 16; omega))
theorem off2_13_64 (c : Dev nD) : k0_off2 c 13#32 64#32 = off false (c.val + 13) 1 :=
  (k0_off2_eq c ⟨13, by decide⟩ ⟨1, by decide⟩).trans (vec_false 1 (by show (c.val + 13 + 32) % 16 = (c.val + 13) % 16; omega))
theorem off2_14_0 (c : Dev nD) : k0_off2 c 14#32 0#32 = off false (c.val + 14) 0 :=
  (k0_off2_eq c ⟨14, by decide⟩ ⟨0, by decide⟩).trans (vec_false 0 (by show (c.val + 14 + 32) % 16 = (c.val + 14) % 16; omega))
theorem off2_14_64 (c : Dev nD) : k0_off2 c 14#32 64#32 = off false (c.val + 14) 1 :=
  (k0_off2_eq c ⟨14, by decide⟩ ⟨1, by decide⟩).trans (vec_false 1 (by show (c.val + 14 + 32) % 16 = (c.val + 14) % 16; omega))
theorem k0_off3_m2_0_lit : ∀ c : Dev nD, k0_off3 c 4294967294#32 0#32 = ![256 * ((c.val + 14) % 16) + 64 * 0, 0] := by decide +kernel
theorem off3_m2_0 (c : Dev nD) : k0_off3 c 4294967294#32 0#32 = off true (c.val + 14) 0 := (k0_off3_m2_0_lit c).trans (vec_true 0 rfl)
theorem k0_off3_m2_64_lit : ∀ c : Dev nD, k0_off3 c 4294967294#32 64#32 = ![256 * ((c.val + 14) % 16) + 64 * 1, 0] := by decide +kernel
theorem off3_m2_64 (c : Dev nD) : k0_off3 c 4294967294#32 64#32 = off true (c.val + 14) 1 := (k0_off3_m2_64_lit c).trans (vec_true 1 rfl)
theorem k0_off3_m3_0_lit : ∀ c : Dev nD, k0_off3 c 4294967293#32 0#32 = ![256 * ((c.val + 13) % 16) + 64 * 0, 0] := by decide +kernel
theorem off3_m3_0 (c : Dev nD) : k0_off3 c 4294967293#32 0#32 = off true (c.val + 13) 0 := (k0_off3_m3_0_lit c).trans (vec_true 0 rfl)
theorem k0_off3_m3_64_lit : ∀ c : Dev nD, k0_off3 c 4294967293#32 64#32 = ![256 * ((c.val + 13) % 16) + 64 * 1, 0] := by decide +kernel
theorem off3_m3_64 (c : Dev nD) : k0_off3 c 4294967293#32 64#32 = off true (c.val + 13) 1 := (k0_off3_m3_64_lit c).trans (vec_true 1 rfl)
theorem k0_off3_m4_0_lit : ∀ c : Dev nD, k0_off3 c 4294967292#32 0#32 = ![256 * ((c.val + 12) % 16) + 64 * 0, 0] := by decide +kernel
theorem off3_m4_0 (c : Dev nD) : k0_off3 c 4294967292#32 0#32 = off true (c.val + 12) 0 := (k0_off3_m4_0_lit c).trans (vec_true 0 rfl)
theorem k0_off3_m4_64_lit : ∀ c : Dev nD, k0_off3 c 4294967292#32 64#32 = ![256 * ((c.val + 12) % 16) + 64 * 1, 0] := by decide +kernel
theorem off3_m4_64 (c : Dev nD) : k0_off3 c 4294967292#32 64#32 = off true (c.val + 12) 1 := (k0_off3_m4_64_lit c).trans (vec_true 1 rfl)
theorem k0_off3_m5_0_lit : ∀ c : Dev nD, k0_off3 c 4294967291#32 0#32 = ![256 * ((c.val + 11) % 16) + 64 * 0, 0] := by decide +kernel
theorem off3_m5_0 (c : Dev nD) : k0_off3 c 4294967291#32 0#32 = off true (c.val + 11) 0 := (k0_off3_m5_0_lit c).trans (vec_true 0 rfl)
theorem k0_off3_m5_64_lit : ∀ c : Dev nD, k0_off3 c 4294967291#32 64#32 = ![256 * ((c.val + 11) % 16) + 64 * 1, 0] := by decide +kernel
theorem off3_m5_64 (c : Dev nD) : k0_off3 c 4294967291#32 64#32 = off true (c.val + 11) 1 := (k0_off3_m5_64_lit c).trans (vec_true 1 rfl)
theorem k0_off3_m6_0_lit : ∀ c : Dev nD, k0_off3 c 4294967290#32 0#32 = ![256 * ((c.val + 10) % 16) + 64 * 0, 0] := by decide +kernel
theorem off3_m6_0 (c : Dev nD) : k0_off3 c 4294967290#32 0#32 = off true (c.val + 10) 0 := (k0_off3_m6_0_lit c).trans (vec_true 0 rfl)
theorem k0_off3_m6_64_lit : ∀ c : Dev nD, k0_off3 c 4294967290#32 64#32 = ![256 * ((c.val + 10) % 16) + 64 * 1, 0] := by decide +kernel
theorem off3_m6_64 (c : Dev nD) : k0_off3 c 4294967290#32 64#32 = off true (c.val + 10) 1 := (k0_off3_m6_64_lit c).trans (vec_true 1 rfl)
theorem k0_off3_m7_0_lit : ∀ c : Dev nD, k0_off3 c 4294967289#32 0#32 = ![256 * ((c.val + 9) % 16) + 64 * 0, 0] := by decide +kernel
theorem off3_m7_0 (c : Dev nD) : k0_off3 c 4294967289#32 0#32 = off true (c.val + 9) 0 := (k0_off3_m7_0_lit c).trans (vec_true 0 rfl)
theorem k0_off3_m7_64_lit : ∀ c : Dev nD, k0_off3 c 4294967289#32 64#32 = ![256 * ((c.val + 9) % 16) + 64 * 1, 0] := by decide +kernel
theorem off3_m7_64 (c : Dev nD) : k0_off3 c 4294967289#32 64#32 = off true (c.val + 9) 1 := (k0_off3_m7_64_lit c).trans (vec_true 1 rfl)
theorem k0_off3_m8_0_lit : ∀ c : Dev nD, k0_off3 c 4294967288#32 0#32 = ![256 * ((c.val + 8) % 16) + 64 * 0, 0] := by decide +kernel
theorem off3_m8_0 (c : Dev nD) : k0_off3 c 4294967288#32 0#32 = off true (c.val + 8) 0 := (k0_off3_m8_0_lit c).trans (vec_true 0 rfl)
theorem k0_off3_m8_64_lit : ∀ c : Dev nD, k0_off3 c 4294967288#32 64#32 = ![256 * ((c.val + 8) % 16) + 64 * 1, 0] := by decide +kernel
theorem off3_m8_64 (c : Dev nD) : k0_off3 c 4294967288#32 64#32 = off true (c.val + 8) 1 := (k0_off3_m8_64_lit c).trans (vec_true 1 rfl)
theorem k0_off3_m9_0_lit : ∀ c : Dev nD, k0_off3 c 4294967287#32 0#32 = ![256 * ((c.val + 7) % 16) + 64 * 0, 0] := by decide +kernel
theorem off3_m9_0 (c : Dev nD) : k0_off3 c 4294967287#32 0#32 = off true (c.val + 7) 0 := (k0_off3_m9_0_lit c).trans (vec_true 0 rfl)
theorem k0_off3_m9_64_lit : ∀ c : Dev nD, k0_off3 c 4294967287#32 64#32 = ![256 * ((c.val + 7) % 16) + 64 * 1, 0] := by decide +kernel
theorem off3_m9_64 (c : Dev nD) : k0_off3 c 4294967287#32 64#32 = off true (c.val + 7) 1 := (k0_off3_m9_64_lit c).trans (vec_true 1 rfl)
theorem k0_off3_m10_0_lit : ∀ c : Dev nD, k0_off3 c 4294967286#32 0#32 = ![256 * ((c.val + 6) % 16) + 64 * 0, 0] := by decide +kernel
theorem off3_m10_0 (c : Dev nD) : k0_off3 c 4294967286#32 0#32 = off true (c.val + 6) 0 := (k0_off3_m10_0_lit c).trans (vec_true 0 rfl)
theorem k0_off3_m10_64_lit : ∀ c : Dev nD, k0_off3 c 4294967286#32 64#32 = ![256 * ((c.val + 6) % 16) + 64 * 1, 0] := by decide +kernel
theorem off3_m10_64 (c : Dev nD) : k0_off3 c 4294967286#32 64#32 = off true (c.val + 6) 1 := (k0_off3_m10_64_lit c).trans (vec_true 1 rfl)
theorem k0_off3_m11_0_lit : ∀ c : Dev nD, k0_off3 c 4294967285#32 0#32 = ![256 * ((c.val + 5) % 16) + 64 * 0, 0] := by decide +kernel
theorem off3_m11_0 (c : Dev nD) : k0_off3 c 4294967285#32 0#32 = off true (c.val + 5) 0 := (k0_off3_m11_0_lit c).trans (vec_true 0 rfl)
theorem k0_off3_m11_64_lit : ∀ c : Dev nD, k0_off3 c 4294967285#32 64#32 = ![256 * ((c.val + 5) % 16) + 64 * 1, 0] := by decide +kernel
theorem off3_m11_64 (c : Dev nD) : k0_off3 c 4294967285#32 64#32 = off true (c.val + 5) 1 := (k0_off3_m11_64_lit c).trans (vec_true 1 rfl)
theorem k0_off3_m12_0_lit : ∀ c : Dev nD, k0_off3 c 4294967284#32 0#32 = ![256 * ((c.val + 4) % 16) + 64 * 0, 0] := by decide +kernel
theorem off3_m12_0 (c : Dev nD) : k0_off3 c 4294967284#32 0#32 = off true (c.val + 4) 0 := (k0_off3_m12_0_lit c).trans (vec_true 0 rfl)
theorem k0_off3_m12_64_lit : ∀ c : Dev nD, k0_off3 c 4294967284#32 64#32 = ![256 * ((c.val + 4) % 16) + 64 * 1, 0] := by decide +kernel
theorem off3_m12_64 (c : Dev nD) : k0_off3 c 4294967284#32 64#32 = off true (c.val + 4) 1 := (k0_off3_m12_64_lit c).trans (vec_true 1 rfl)
theorem k0_off3_m13_0_lit : ∀ c : Dev nD, k0_off3 c 4294967283#32 0#32 = ![256 * ((c.val + 3) % 16) + 64 * 0, 0] := by decide +kernel
theorem off3_m13_0 (c : Dev nD) : k0_off3 c 4294967283#32 0#32 = off true (c.val + 3) 0 := (k0_off3_m13_0_lit c).trans (vec_true 0 rfl)
theorem k0_off3_m13_64_lit : ∀ c : Dev nD, k0_off3 c 4294967283#32 64#32 = ![256 * ((c.val + 3) % 16) + 64 * 1, 0] := by decide +kernel
theorem off3_m13_64 (c : Dev nD) : k0_off3 c 4294967283#32 64#32 = off true (c.val + 3) 1 := (k0_off3_m13_64_lit c).trans (vec_true 1 rfl)
theorem k0_off3_m14_0_lit : ∀ c : Dev nD, k0_off3 c 4294967282#32 0#32 = ![256 * ((c.val + 2) % 16) + 64 * 0, 0] := by decide +kernel
theorem off3_m14_0 (c : Dev nD) : k0_off3 c 4294967282#32 0#32 = off true (c.val + 2) 0 := (k0_off3_m14_0_lit c).trans (vec_true 0 rfl)
theorem k0_off3_m14_64_lit : ∀ c : Dev nD, k0_off3 c 4294967282#32 64#32 = ![256 * ((c.val + 2) % 16) + 64 * 1, 0] := by decide +kernel
theorem off3_m14_64 (c : Dev nD) : k0_off3 c 4294967282#32 64#32 = off true (c.val + 2) 1 := (k0_off3_m14_64_lit c).trans (vec_true 1 rfl)
theorem k0_off3_m15_0_lit : ∀ c : Dev nD, k0_off3 c 4294967281#32 0#32 = ![256 * ((c.val + 1) % 16) + 64 * 0, 0] := by decide +kernel
theorem off3_m15_0 (c : Dev nD) : k0_off3 c 4294967281#32 0#32 = off true (c.val + 1) 0 := (k0_off3_m15_0_lit c).trans (vec_true 0 rfl)
theorem k0_off3_m15_64_lit : ∀ c : Dev nD, k0_off3 c 4294967281#32 64#32 = ![256 * ((c.val + 1) % 16) + 64 * 1, 0] := by decide +kernel
theorem off3_m15_64 (c : Dev nD) : k0_off3 c 4294967281#32 64#32 = off true (c.val + 1) 1 := (k0_off3_m15_64_lit c).trans (vec_true 1 rfl)
theorem k0_off3_m16_0_lit : ∀ c : Dev nD, k0_off3 c 4294967280#32 0#32 = ![256 * ((c.val + 0) % 16) + 64 * 0, 0] := by decide +kernel
theorem off3_m16_0 (c : Dev nD) : k0_off3 c 4294967280#32 0#32 = off true (c.val + 0) 0 := (k0_off3_m16_0_lit c).trans (vec_true 0 rfl)
theorem k0_off3_m16_64_lit : ∀ c : Dev nD, k0_off3 c 4294967280#32 64#32 = ![256 * ((c.val + 0) % 16) + 64 * 1, 0] := by decide +kernel
theorem off3_m16_64 (c : Dev nD) : k0_off3 c 4294967280#32 64#32 = off true (c.val + 0) 1 := (k0_off3_m16_64_lit c).trans (vec_true 1 rfl)
theorem off4_2_0 (c : Dev nD) : k0_off4 c 2#32 0#32 = off false (c.val + 2) 0 :=
  (k0_off4_eq c ⟨0, by decide⟩ ⟨0, by decide⟩).trans (vec_false 0 (by show (c.val + 0 + 34) % 16 = (c.val + 2) % 16; omega))
theorem off4_2_64 (c : Dev nD) : k0_off4 c 2#32 64#32 = off false (c.val + 2) 1 :=
  (k0_off4_eq c ⟨0, by decide⟩ ⟨1, by decide⟩).trans (vec_false 1 (by show (c.val + 0 + 34) % 16 = (c.val + 2) % 16; omega))
theorem off4_3_0 (c : Dev nD) : k0_off4 c 3#32 0#32 = off false (c.val + 3) 0 :=
  (k0_off4_eq c ⟨1, by decide⟩ ⟨0, by decide⟩).trans (vec_false 0 (by show (c.val + 1 + 34) % 16 = (c.val + 3) % 16; omega))
theorem off4_3_64 (c : Dev nD) : k0_off4 c 3#32 64#32 = off false (c.val + 3) 1 :=
  (k0_off4_eq c ⟨1, by decide⟩ ⟨1, by decide⟩).trans (vec_false 1 (by show (c.val + 1 + 34) % 16 = (c.val + 3) % 16; omega))
theorem off4_4_0 (c : Dev nD) : k0_off4 c 4#32 0#32 = off false (c.val + 4) 0 :=
  (k0_off4_eq c ⟨2, by decide⟩ ⟨0, by decide⟩).trans (vec_false 0 (by show (c.val + 2 + 34) % 16 = (c.val + 4) % 16; omega))
theorem off4_4_64 (c : Dev nD) : k0_off4 c 4#32 64#32 = off false (c.val + 4) 1 :=
  (k0_off4_eq c ⟨2, by decide⟩ ⟨1, by decide⟩).trans (vec_false 1 (by show (c.val + 2 + 34) % 16 = (c.val + 4) % 16; omega))
theorem off4_5_0 (c : Dev nD) : k0_off4 c 5#32 0#32 = off false (c.val + 5) 0 :=
  (k0_off4_eq c ⟨3, by decide⟩ ⟨0, by decide⟩).trans (vec_false 0 (by show (c.val + 3 + 34) % 16 = (c.val + 5) % 16; omega))
theorem off4_5_64 (c : Dev nD) : k0_off4 c 5#32 64#32 = off false (c.val + 5) 1 :=
  (k0_off4_eq c ⟨3, by decide⟩ ⟨1, by decide⟩).trans (vec_false 1 (by show (c.val + 3 + 34) % 16 = (c.val + 5) % 16; omega))
theorem off4_6_0 (c : Dev nD) : k0_off4 c 6#32 0#32 = off false (c.val + 6) 0 :=
  (k0_off4_eq c ⟨4, by decide⟩ ⟨0, by decide⟩).trans (vec_false 0 (by show (c.val + 4 + 34) % 16 = (c.val + 6) % 16; omega))
theorem off4_6_64 (c : Dev nD) : k0_off4 c 6#32 64#32 = off false (c.val + 6) 1 :=
  (k0_off4_eq c ⟨4, by decide⟩ ⟨1, by decide⟩).trans (vec_false 1 (by show (c.val + 4 + 34) % 16 = (c.val + 6) % 16; omega))
theorem off4_7_0 (c : Dev nD) : k0_off4 c 7#32 0#32 = off false (c.val + 7) 0 :=
  (k0_off4_eq c ⟨5, by decide⟩ ⟨0, by decide⟩).trans (vec_false 0 (by show (c.val + 5 + 34) % 16 = (c.val + 7) % 16; omega))
theorem off4_7_64 (c : Dev nD) : k0_off4 c 7#32 64#32 = off false (c.val + 7) 1 :=
  (k0_off4_eq c ⟨5, by decide⟩ ⟨1, by decide⟩).trans (vec_false 1 (by show (c.val + 5 + 34) % 16 = (c.val + 7) % 16; omega))
theorem off4_8_0 (c : Dev nD) : k0_off4 c 8#32 0#32 = off false (c.val + 8) 0 :=
  (k0_off4_eq c ⟨6, by decide⟩ ⟨0, by decide⟩).trans (vec_false 0 (by show (c.val + 6 + 34) % 16 = (c.val + 8) % 16; omega))
theorem off4_8_64 (c : Dev nD) : k0_off4 c 8#32 64#32 = off false (c.val + 8) 1 :=
  (k0_off4_eq c ⟨6, by decide⟩ ⟨1, by decide⟩).trans (vec_false 1 (by show (c.val + 6 + 34) % 16 = (c.val + 8) % 16; omega))
theorem off4_9_0 (c : Dev nD) : k0_off4 c 9#32 0#32 = off false (c.val + 9) 0 :=
  (k0_off4_eq c ⟨7, by decide⟩ ⟨0, by decide⟩).trans (vec_false 0 (by show (c.val + 7 + 34) % 16 = (c.val + 9) % 16; omega))
theorem off4_9_64 (c : Dev nD) : k0_off4 c 9#32 64#32 = off false (c.val + 9) 1 :=
  (k0_off4_eq c ⟨7, by decide⟩ ⟨1, by decide⟩).trans (vec_false 1 (by show (c.val + 7 + 34) % 16 = (c.val + 9) % 16; omega))
theorem off4_10_0 (c : Dev nD) : k0_off4 c 10#32 0#32 = off false (c.val + 10) 0 :=
  (k0_off4_eq c ⟨8, by decide⟩ ⟨0, by decide⟩).trans (vec_false 0 (by show (c.val + 8 + 34) % 16 = (c.val + 10) % 16; omega))
theorem off4_10_64 (c : Dev nD) : k0_off4 c 10#32 64#32 = off false (c.val + 10) 1 :=
  (k0_off4_eq c ⟨8, by decide⟩ ⟨1, by decide⟩).trans (vec_false 1 (by show (c.val + 8 + 34) % 16 = (c.val + 10) % 16; omega))
theorem off4_11_0 (c : Dev nD) : k0_off4 c 11#32 0#32 = off false (c.val + 11) 0 :=
  (k0_off4_eq c ⟨9, by decide⟩ ⟨0, by decide⟩).trans (vec_false 0 (by show (c.val + 9 + 34) % 16 = (c.val + 11) % 16; omega))
theorem off4_11_64 (c : Dev nD) : k0_off4 c 11#32 64#32 = off false (c.val + 11) 1 :=
  (k0_off4_eq c ⟨9, by decide⟩ ⟨1, by decide⟩).trans (vec_false 1 (by show (c.val + 9 + 34) % 16 = (c.val + 11) % 16; omega))
theorem off4_12_0 (c : Dev nD) : k0_off4 c 12#32 0#32 = off false (c.val + 12) 0 :=
  (k0_off4_eq c ⟨10, by decide⟩ ⟨0, by decide⟩).trans (vec_false 0 (by show (c.val + 10 + 34) % 16 = (c.val + 12) % 16; omega))
theorem off4_12_64 (c : Dev nD) : k0_off4 c 12#32 64#32 = off false (c.val + 12) 1 :=
  (k0_off4_eq c ⟨10, by decide⟩ ⟨1, by decide⟩).trans (vec_false 1 (by show (c.val + 10 + 34) % 16 = (c.val + 12) % 16; omega))
theorem off4_13_0 (c : Dev nD) : k0_off4 c 13#32 0#32 = off false (c.val + 13) 0 :=
  (k0_off4_eq c ⟨11, by decide⟩ ⟨0, by decide⟩).trans (vec_false 0 (by show (c.val + 11 + 34) % 16 = (c.val + 13) % 16; omega))
theorem off4_13_64 (c : Dev nD) : k0_off4 c 13#32 64#32 = off false (c.val + 13) 1 :=
  (k0_off4_eq c ⟨11, by decide⟩ ⟨1, by decide⟩).trans (vec_false 1 (by show (c.val + 11 + 34) % 16 = (c.val + 13) % 16; omega))
theorem off4_14_0 (c : Dev nD) : k0_off4 c 14#32 0#32 = off false (c.val + 14) 0 :=
  (k0_off4_eq c ⟨12, by decide⟩ ⟨0, by decide⟩).trans (vec_false 0 (by show (c.val + 12 + 34) % 16 = (c.val + 14) % 16; omega))
theorem off4_14_64 (c : Dev nD) : k0_off4 c 14#32 64#32 = off false (c.val + 14) 1 :=
  (k0_off4_eq c ⟨12, by decide⟩ ⟨1, by decide⟩).trans (vec_false 1 (by show (c.val + 12 + 34) % 16 = (c.val + 14) % 16; omega))
theorem off4_15_0 (c : Dev nD) : k0_off4 c 15#32 0#32 = off false (c.val + 15) 0 :=
  (k0_off4_eq c ⟨13, by decide⟩ ⟨0, by decide⟩).trans (vec_false 0 (by show (c.val + 13 + 34) % 16 = (c.val + 15) % 16; omega))
theorem off4_15_64 (c : Dev nD) : k0_off4 c 15#32 64#32 = off false (c.val + 15) 1 :=
  (k0_off4_eq c ⟨13, by decide⟩ ⟨1, by decide⟩).trans (vec_false 1 (by show (c.val + 13 + 34) % 16 = (c.val + 15) % 16; omega))
theorem off4_16_0 (c : Dev nD) : k0_off4 c 16#32 0#32 = off false (c.val + 0) 0 :=
  (k0_off4_eq c ⟨14, by decide⟩ ⟨0, by decide⟩).trans (vec_false 0 (by show (c.val + 14 + 34) % 16 = (c.val + 0) % 16; omega))
theorem off4_16_64 (c : Dev nD) : k0_off4 c 16#32 64#32 = off false (c.val + 0) 1 :=
  (k0_off4_eq c ⟨14, by decide⟩ ⟨1, by decide⟩).trans (vec_false 1 (by show (c.val + 14 + 34) % 16 = (c.val + 0) % 16; omega))

/-! ## The slices of the staged arrays (transfers' ends) and the rectangles of the loads, at the closed offsets -/

theorem rows1_0_0_o (c : Dev nD) :
    oM.slice (Rect.unit (s := S4096x1024) (k0_off1 c 0#32 0#32) S64x1024.size (k0_off1_inb c 2)) (fun _ => rfl)
      = rows oM (off true (c.val + 0) 0) (off_inb true (c.val + 0) ⟨0, by decide⟩) :=
  rows_congr _ (off1_0_0 c) _ _ _
theorem rows1_0_64_o (c : Dev nD) :
    oM.slice (Rect.unit (s := S4096x1024) (k0_off1 c 0#32 64#32) S64x1024.size (k0_off1_inb c 3)) (fun _ => rfl)
      = rows oM (off true (c.val + 0) 1) (off_inb true (c.val + 0) ⟨1, by decide⟩) :=
  rows_congr _ (off1_0_64 c) _ _ _
theorem rows1_m1_0_x (c : Dev nD) :
    xM.slice (Rect.unit (s := S4096x1024) (k0_off1 c 4294967295#32 0#32) S64x1024.size (k0_off1_inb c 0)) (fun _ => rfl)
      = rows xM (off true (c.val + 15) 0) (off_inb true (c.val + 15) ⟨0, by decide⟩) :=
  rows_congr _ (off1_m1_0 c) _ _ _
theorem rows1_m1_0_o (c : Dev nD) :
    oM.slice (Rect.unit (s := S4096x1024) (k0_off1 c 4294967295#32 0#32) S64x1024.size (k0_off1_inb c 0)) (fun _ => rfl)
      = rows oM (off true (c.val + 15) 0) (off_inb true (c.val + 15) ⟨0, by decide⟩) :=
  rows_congr _ (off1_m1_0 c) _ _ _
theorem rows1_m1_64_x (c : Dev nD) :
    xM.slice (Rect.unit (s := S4096x1024) (k0_off1 c 4294967295#32 64#32) S64x1024.size (k0_off1_inb c 1)) (fun _ => rfl)
      = rows xM (off true (c.val + 15) 1) (off_inb true (c.val + 15) ⟨1, by decide⟩) :=
  rows_congr _ (off1_m1_64 c) _ _ _
theorem rows1_m1_64_o (c : Dev nD) :
    oM.slice (Rect.unit (s := S4096x1024) (k0_off1 c 4294967295#32 64#32) S64x1024.size (k0_off1_inb c 1)) (fun _ => rfl)
      = rows oM (off true (c.val + 15) 1) (off_inb true (c.val + 15) ⟨1, by decide⟩) :=
  rows_congr _ (off1_m1_64 c) _ _ _
theorem rows1_m2_0_o (c : Dev nD) :
    oM.slice (Rect.unit (s := S4096x1024) (k0_off1 c 4294967294#32 0#32) S64x1024.size (k0_off1_inb c 4)) (fun _ => rfl)
      = rows oM (off true (c.val + 14) 0) (off_inb true (c.val + 14) ⟨0, by decide⟩) :=
  rows_congr _ (off1_m2_0 c) _ _ _
theorem rows1_m2_64_o (c : Dev nD) :
    oM.slice (Rect.unit (s := S4096x1024) (k0_off1 c 4294967294#32 64#32) S64x1024.size (k0_off1_inb c 5)) (fun _ => rfl)
      = rows oM (off true (c.val + 14) 1) (off_inb true (c.val + 14) ⟨1, by decide⟩) :=
  rows_congr _ (off1_m2_64 c) _ _ _
theorem rows1_m3_0_o (c : Dev nD) :
    oM.slice (Rect.unit (s := S4096x1024) (k0_off1 c 4294967293#32 0#32) S64x1024.size (k0_off1_inb c 6)) (fun _ => rfl)
      = rows oM (off true (c.val + 13) 0) (off_inb true (c.val + 13) ⟨0, by decide⟩) :=
  rows_congr _ (off1_m3_0 c) _ _ _
theorem rows1_m3_64_o (c : Dev nD) :
    oM.slice (Rect.unit (s := S4096x1024) (k0_off1 c 4294967293#32 64#32) S64x1024.size (k0_off1_inb c 7)) (fun _ => rfl)
      = rows oM (off true (c.val + 13) 1) (off_inb true (c.val + 13) ⟨1, by decide⟩) :=
  rows_congr _ (off1_m3_64 c) _ _ _
theorem rows1_m4_0_o (c : Dev nD) :
    oM.slice (Rect.unit (s := S4096x1024) (k0_off1 c 4294967292#32 0#32) S64x1024.size (k0_off1_inb c 8)) (fun _ => rfl)
      = rows oM (off true (c.val + 12) 0) (off_inb true (c.val + 12) ⟨0, by decide⟩) :=
  rows_congr _ (off1_m4_0 c) _ _ _
theorem rows1_m4_64_o (c : Dev nD) :
    oM.slice (Rect.unit (s := S4096x1024) (k0_off1 c 4294967292#32 64#32) S64x1024.size (k0_off1_inb c 9)) (fun _ => rfl)
      = rows oM (off true (c.val + 12) 1) (off_inb true (c.val + 12) ⟨1, by decide⟩) :=
  rows_congr _ (off1_m4_64 c) _ _ _
theorem rows1_m5_0_o (c : Dev nD) :
    oM.slice (Rect.unit (s := S4096x1024) (k0_off1 c 4294967291#32 0#32) S64x1024.size (k0_off1_inb c 10)) (fun _ => rfl)
      = rows oM (off true (c.val + 11) 0) (off_inb true (c.val + 11) ⟨0, by decide⟩) :=
  rows_congr _ (off1_m5_0 c) _ _ _
theorem rows1_m5_64_o (c : Dev nD) :
    oM.slice (Rect.unit (s := S4096x1024) (k0_off1 c 4294967291#32 64#32) S64x1024.size (k0_off1_inb c 11)) (fun _ => rfl)
      = rows oM (off true (c.val + 11) 1) (off_inb true (c.val + 11) ⟨1, by decide⟩) :=
  rows_congr _ (off1_m5_64 c) _ _ _
theorem rows1_m6_0_o (c : Dev nD) :
    oM.slice (Rect.unit (s := S4096x1024) (k0_off1 c 4294967290#32 0#32) S64x1024.size (k0_off1_inb c 12)) (fun _ => rfl)
      = rows oM (off true (c.val + 10) 0) (off_inb true (c.val + 10) ⟨0, by decide⟩) :=
  rows_congr _ (off1_m6_0 c) _ _ _
theorem rows1_m6_64_o (c : Dev nD) :
    oM.slice (Rect.unit (s := S4096x1024) (k0_off1 c 4294967290#32 64#32) S64x1024.size (k0_off1_inb c 13)) (fun _ => rfl)
      = rows oM (off true (c.val + 10) 1) (off_inb true (c.val + 10) ⟨1, by decide⟩) :=
  rows_congr _ (off1_m6_64 c) _ _ _
theorem rows1_m7_0_o (c : Dev nD) :
    oM.slice (Rect.unit (s := S4096x1024) (k0_off1 c 4294967289#32 0#32) S64x1024.size (k0_off1_inb c 14)) (fun _ => rfl)
      = rows oM (off true (c.val + 9) 0) (off_inb true (c.val + 9) ⟨0, by decide⟩) :=
  rows_congr _ (off1_m7_0 c) _ _ _
theorem rows1_m7_64_o (c : Dev nD) :
    oM.slice (Rect.unit (s := S4096x1024) (k0_off1 c 4294967289#32 64#32) S64x1024.size (k0_off1_inb c 15)) (fun _ => rfl)
      = rows oM (off true (c.val + 9) 1) (off_inb true (c.val + 9) ⟨1, by decide⟩) :=
  rows_congr _ (off1_m7_64 c) _ _ _
theorem rows1_m8_0_o (c : Dev nD) :
    oM.slice (Rect.unit (s := S4096x1024) (k0_off1 c 4294967288#32 0#32) S64x1024.size (k0_off1_inb c 16)) (fun _ => rfl)
      = rows oM (off true (c.val + 8) 0) (off_inb true (c.val + 8) ⟨0, by decide⟩) :=
  rows_congr _ (off1_m8_0 c) _ _ _
theorem rows1_m8_64_o (c : Dev nD) :
    oM.slice (Rect.unit (s := S4096x1024) (k0_off1 c 4294967288#32 64#32) S64x1024.size (k0_off1_inb c 17)) (fun _ => rfl)
      = rows oM (off true (c.val + 8) 1) (off_inb true (c.val + 8) ⟨1, by decide⟩) :=
  rows_congr _ (off1_m8_64 c) _ _ _
theorem rows1_m9_0_o (c : Dev nD) :
    oM.slice (Rect.unit (s := S4096x1024) (k0_off1 c 4294967287#32 0#32) S64x1024.size (k0_off1_inb c 18)) (fun _ => rfl)
      = rows oM (off true (c.val + 7) 0) (off_inb true (c.val + 7) ⟨0, by decide⟩) :=
  rows_congr _ (off1_m9_0 c) _ _ _
theorem rows1_m9_64_o (c : Dev nD) :
    oM.slice (Rect.unit (s := S4096x1024) (k0_off1 c 4294967287#32 64#32) S64x1024.size (k0_off1_inb c 19)) (fun _ => rfl)
      = rows oM (off true (c.val + 7) 1) (off_inb true (c.val + 7) ⟨1, by decide⟩) :=
  rows_congr _ (off1_m9_64 c) _ _ _
theorem rows1_m10_0_o (c : Dev nD) :
    oM.slice (Rect.unit (s := S4096x1024) (k0_off1 c 4294967286#32 0#32) S64x1024.size (k0_off1_inb c 20)) (fun _ => rfl)
      = rows oM (off true (c.val + 6) 0) (off_inb true (c.val + 6) ⟨0, by decide⟩) :=
  rows_congr _ (off1_m10_0 c) _ _ _
theorem rows1_m10_64_o (c : Dev nD) :
    oM.slice (Rect.unit (s := S4096x1024) (k0_off1 c 4294967286#32 64#32) S64x1024.size (k0_off1_inb c 21)) (fun _ => rfl)
      = rows oM (off true (c.val + 6) 1) (off_inb true (c.val + 6) ⟨1, by decide⟩) :=
  rows_congr _ (off1_m10_64 c) _ _ _
theorem rows1_m11_0_o (c : Dev nD) :
    oM.slice (Rect.unit (s := S4096x1024) (k0_off1 c 4294967285#32 0#32) S64x1024.size (k0_off1_inb c 22)) (fun _ => rfl)
      = rows oM (off true (c.val + 5) 0) (off_inb true (c.val + 5) ⟨0, by decide⟩) :=
  rows_congr _ (off1_m11_0 c) _ _ _
theorem rows1_m11_64_o (c : Dev nD) :
    oM.slice (Rect.unit (s := S4096x1024) (k0_off1 c 4294967285#32 64#32) S64x1024.size (k0_off1_inb c 23)) (fun _ => rfl)
      = rows oM (off true (c.val + 5) 1) (off_inb true (c.val + 5) ⟨1, by decide⟩) :=
  rows_congr _ (off1_m11_64 c) _ _ _
theorem rows1_m12_0_o (c : Dev nD) :
    oM.slice (Rect.unit (s := S4096x1024) (k0_off1 c 4294967284#32 0#32) S64x1024.size (k0_off1_inb c 24)) (fun _ => rfl)
      = rows oM (off true (c.val + 4) 0) (off_inb true (c.val + 4) ⟨0, by decide⟩) :=
  rows_congr _ (off1_m12_0 c) _ _ _
theorem rows1_m12_64_o (c : Dev nD) :
    oM.slice (Rect.unit (s := S4096x1024) (k0_off1 c 4294967284#32 64#32) S64x1024.size (k0_off1_inb c 25)) (fun _ => rfl)
      = rows oM (off true (c.val + 4) 1) (off_inb true (c.val + 4) ⟨1, by decide⟩) :=
  rows_congr _ (off1_m12_64 c) _ _ _
theorem rows1_m13_0_o (c : Dev nD) :
    oM.slice (Rect.unit (s := S4096x1024) (k0_off1 c 4294967283#32 0#32) S64x1024.size (k0_off1_inb c 26)) (fun _ => rfl)
      = rows oM (off true (c.val + 3) 0) (off_inb true (c.val + 3) ⟨0, by decide⟩) :=
  rows_congr _ (off1_m13_0 c) _ _ _
theorem rows1_m13_64_o (c : Dev nD) :
    oM.slice (Rect.unit (s := S4096x1024) (k0_off1 c 4294967283#32 64#32) S64x1024.size (k0_off1_inb c 27)) (fun _ => rfl)
      = rows oM (off true (c.val + 3) 1) (off_inb true (c.val + 3) ⟨1, by decide⟩) :=
  rows_congr _ (off1_m13_64 c) _ _ _
theorem rows1_m14_0_o (c : Dev nD) :
    oM.slice (Rect.unit (s := S4096x1024) (k0_off1 c 4294967282#32 0#32) S64x1024.size (k0_off1_inb c 28)) (fun _ => rfl)
      = rows oM (off true (c.val + 2) 0) (off_inb true (c.val + 2) ⟨0, by decide⟩) :=
  rows_congr _ (off1_m14_0 c) _ _ _
theorem rows1_m14_64_o (c : Dev nD) :
    oM.slice (Rect.unit (s := S4096x1024) (k0_off1 c 4294967282#32 64#32) S64x1024.size (k0_off1_inb c 29)) (fun _ => rfl)
      = rows oM (off true (c.val + 2) 1) (off_inb true (c.val + 2) ⟨1, by decide⟩) :=
  rows_congr _ (off1_m14_64 c) _ _ _
theorem rows2_0_0_o (c : Dev nD) :
    oM.slice (Rect.unit (s := S4096x1024) (k0_off2 c 0#32 0#32) S64x1024.size (k0_off2_inb c 0 0)) (fun _ => rfl)
      = rows oM (off false (c.val + 0) 0) (off_inb false (c.val + 0) ⟨0, by decide⟩) :=
  rows_congr _ (off2_0_0 c) _ _ _
theorem rows2_0_64_o (c : Dev nD) :
    oM.slice (Rect.unit (s := S4096x1024) (k0_off2 c 0#32 64#32) S64x1024.size (k0_off2_inb c 0 1)) (fun _ => rfl)
      = rows oM (off false (c.val + 0) 1) (off_inb false (c.val + 0) ⟨1, by decide⟩) :=
  rows_congr _ (off2_0_64 c) _ _ _
theorem rows2_1_0_x (c : Dev nD) :
    xM.slice (Rect.unit (s := S4096x1024) (k0_off2 c 1#32 0#32) S64x1024.size (k0_off2_inb c 1 0)) (fun _ => rfl)
      = rows xM (off false (c.val + 1) 0) (off_inb false (c.val + 1) ⟨0, by decide⟩) :=
  rows_congr _ (off2_1_0 c) _ _ _
theorem rows2_1_0_o (c : Dev nD) :
    oM.slice (Rect.unit (s := S4096x1024) (k0_off2 c 1#32 0#32) S64x1024.size (k0_off2_inb c 1 0)) (fun _ => rfl)
      = rows oM (off false (c.val + 1) 0) (off_inb false (c.val + 1) ⟨0, by decide⟩) :=
  rows_congr _ (off2_1_0 c) _ _ _
theorem rows2_1_64_x (c : Dev nD) :
    xM.slice (Rect.unit (s := S4096x1024) (k0_off2 c 1#32 64#32) S64x1024.size (k0_off2_inb c 1 1)) (fun _ => rfl)
      = rows xM (off false (c.val + 1) 1) (off_inb false (c.val + 1) ⟨1, by decide⟩) :=
  rows_congr _ (off2_1_64 c) _ _ _
theorem rows2_1_64_o (c : Dev nD) :
    oM.slice (Rect.unit (s := S4096x1024) (k0_off2 c 1#32 64#32) S64x1024.size (k0_off2_inb c 1 1)) (fun _ => rfl)
      = rows oM (off false (c.val + 1) 1) (off_inb false (c.val + 1) ⟨1, by decide⟩) :=
  rows_congr _ (off2_1_64 c) _ _ _
theorem rows2_2_0_o (c : Dev nD) :
    oM.slice (Rect.unit (s := S4096x1024) (k0_off2 c 2#32 0#32) S64x1024.size (k0_off2_inb c 2 0)) (fun _ => rfl)
      = rows oM (off false (c.val + 2) 0) (off_inb false (c.val + 2) ⟨0, by decide⟩) :=
  rows_congr _ (off2_2_0 c) _ _ _
theorem rows2_2_64_o (c : Dev nD) :
    oM.slice (Rect.unit (s := S4096x1024) (k0_off2 c 2#32 64#32) S64x1024.size (k0_off2_inb c 2 1)) (fun _ => rfl)
      = rows oM (off false (c.val + 2) 1) (off_inb false (c.val + 2) ⟨1, by decide⟩) :=
  rows_congr _ (off2_2_64 c) _ _ _
theorem rows2_3_0_o (c : Dev nD) :
    oM.slice (Rect.unit (s := S4096x1024) (k0_off2 c 3#32 0#32) S64x1024.size (k0_off2_inb c 3 0)) (fun _ => rfl)
      = rows oM (off false (c.val + 3) 0) (off_inb false (c.val + 3) ⟨0, by decide⟩) :=
  rows_congr _ (off2_3_0 c) _ _ _
theorem rows2_3_64_o (c : Dev nD) :
    oM.slice (Rect.unit (s := S4096x1024) (k0_off2 c 3#32 64#32) S64x1024.size (k0_off2_inb c 3 1)) (fun _ => rfl)
      = rows oM (off false (c.val + 3) 1) (off_inb false (c.val + 3) ⟨1, by decide⟩) :=
  rows_congr _ (off2_3_64 c) _ _ _
theorem rows2_4_0_o (c : Dev nD) :
    oM.slice (Rect.unit (s := S4096x1024) (k0_off2 c 4#32 0#32) S64x1024.size (k0_off2_inb c 4 0)) (fun _ => rfl)
      = rows oM (off false (c.val + 4) 0) (off_inb false (c.val + 4) ⟨0, by decide⟩) :=
  rows_congr _ (off2_4_0 c) _ _ _
theorem rows2_4_64_o (c : Dev nD) :
    oM.slice (Rect.unit (s := S4096x1024) (k0_off2 c 4#32 64#32) S64x1024.size (k0_off2_inb c 4 1)) (fun _ => rfl)
      = rows oM (off false (c.val + 4) 1) (off_inb false (c.val + 4) ⟨1, by decide⟩) :=
  rows_congr _ (off2_4_64 c) _ _ _
theorem rows2_5_0_o (c : Dev nD) :
    oM.slice (Rect.unit (s := S4096x1024) (k0_off2 c 5#32 0#32) S64x1024.size (k0_off2_inb c 5 0)) (fun _ => rfl)
      = rows oM (off false (c.val + 5) 0) (off_inb false (c.val + 5) ⟨0, by decide⟩) :=
  rows_congr _ (off2_5_0 c) _ _ _
theorem rows2_5_64_o (c : Dev nD) :
    oM.slice (Rect.unit (s := S4096x1024) (k0_off2 c 5#32 64#32) S64x1024.size (k0_off2_inb c 5 1)) (fun _ => rfl)
      = rows oM (off false (c.val + 5) 1) (off_inb false (c.val + 5) ⟨1, by decide⟩) :=
  rows_congr _ (off2_5_64 c) _ _ _
theorem rows2_6_0_o (c : Dev nD) :
    oM.slice (Rect.unit (s := S4096x1024) (k0_off2 c 6#32 0#32) S64x1024.size (k0_off2_inb c 6 0)) (fun _ => rfl)
      = rows oM (off false (c.val + 6) 0) (off_inb false (c.val + 6) ⟨0, by decide⟩) :=
  rows_congr _ (off2_6_0 c) _ _ _
theorem rows2_6_64_o (c : Dev nD) :
    oM.slice (Rect.unit (s := S4096x1024) (k0_off2 c 6#32 64#32) S64x1024.size (k0_off2_inb c 6 1)) (fun _ => rfl)
      = rows oM (off false (c.val + 6) 1) (off_inb false (c.val + 6) ⟨1, by decide⟩) :=
  rows_congr _ (off2_6_64 c) _ _ _
theorem rows2_7_0_o (c : Dev nD) :
    oM.slice (Rect.unit (s := S4096x1024) (k0_off2 c 7#32 0#32) S64x1024.size (k0_off2_inb c 7 0)) (fun _ => rfl)
      = rows oM (off false (c.val + 7) 0) (off_inb false (c.val + 7) ⟨0, by decide⟩) :=
  rows_congr _ (off2_7_0 c) _ _ _
theorem rows2_7_64_o (c : Dev nD) :
    oM.slice (Rect.unit (s := S4096x1024) (k0_off2 c 7#32 64#32) S64x1024.size (k0_off2_inb c 7 1)) (fun _ => rfl)
      = rows oM (off false (c.val + 7) 1) (off_inb false (c.val + 7) ⟨1, by decide⟩) :=
  rows_congr _ (off2_7_64 c) _ _ _
theorem rows2_8_0_o (c : Dev nD) :
    oM.slice (Rect.unit (s := S4096x1024) (k0_off2 c 8#32 0#32) S64x1024.size (k0_off2_inb c 8 0)) (fun _ => rfl)
      = rows oM (off false (c.val + 8) 0) (off_inb false (c.val + 8) ⟨0, by decide⟩) :=
  rows_congr _ (off2_8_0 c) _ _ _
theorem rows2_8_64_o (c : Dev nD) :
    oM.slice (Rect.unit (s := S4096x1024) (k0_off2 c 8#32 64#32) S64x1024.size (k0_off2_inb c 8 1)) (fun _ => rfl)
      = rows oM (off false (c.val + 8) 1) (off_inb false (c.val + 8) ⟨1, by decide⟩) :=
  rows_congr _ (off2_8_64 c) _ _ _
theorem rows2_9_0_o (c : Dev nD) :
    oM.slice (Rect.unit (s := S4096x1024) (k0_off2 c 9#32 0#32) S64x1024.size (k0_off2_inb c 9 0)) (fun _ => rfl)
      = rows oM (off false (c.val + 9) 0) (off_inb false (c.val + 9) ⟨0, by decide⟩) :=
  rows_congr _ (off2_9_0 c) _ _ _
theorem rows2_9_64_o (c : Dev nD) :
    oM.slice (Rect.unit (s := S4096x1024) (k0_off2 c 9#32 64#32) S64x1024.size (k0_off2_inb c 9 1)) (fun _ => rfl)
      = rows oM (off false (c.val + 9) 1) (off_inb false (c.val + 9) ⟨1, by decide⟩) :=
  rows_congr _ (off2_9_64 c) _ _ _
theorem rows2_10_0_o (c : Dev nD) :
    oM.slice (Rect.unit (s := S4096x1024) (k0_off2 c 10#32 0#32) S64x1024.size (k0_off2_inb c 10 0)) (fun _ => rfl)
      = rows oM (off false (c.val + 10) 0) (off_inb false (c.val + 10) ⟨0, by decide⟩) :=
  rows_congr _ (off2_10_0 c) _ _ _
theorem rows2_10_64_o (c : Dev nD) :
    oM.slice (Rect.unit (s := S4096x1024) (k0_off2 c 10#32 64#32) S64x1024.size (k0_off2_inb c 10 1)) (fun _ => rfl)
      = rows oM (off false (c.val + 10) 1) (off_inb false (c.val + 10) ⟨1, by decide⟩) :=
  rows_congr _ (off2_10_64 c) _ _ _
theorem rows2_11_0_o (c : Dev nD) :
    oM.slice (Rect.unit (s := S4096x1024) (k0_off2 c 11#32 0#32) S64x1024.size (k0_off2_inb c 11 0)) (fun _ => rfl)
      = rows oM (off false (c.val + 11) 0) (off_inb false (c.val + 11) ⟨0, by decide⟩) :=
  rows_congr _ (off2_11_0 c) _ _ _
theorem rows2_11_64_o (c : Dev nD) :
    oM.slice (Rect.unit (s := S4096x1024) (k0_off2 c 11#32 64#32) S64x1024.size (k0_off2_inb c 11 1)) (fun _ => rfl)
      = rows oM (off false (c.val + 11) 1) (off_inb false (c.val + 11) ⟨1, by decide⟩) :=
  rows_congr _ (off2_11_64 c) _ _ _
theorem rows2_12_0_o (c : Dev nD) :
    oM.slice (Rect.unit (s := S4096x1024) (k0_off2 c 12#32 0#32) S64x1024.size (k0_off2_inb c 12 0)) (fun _ => rfl)
      = rows oM (off false (c.val + 12) 0) (off_inb false (c.val + 12) ⟨0, by decide⟩) :=
  rows_congr _ (off2_12_0 c) _ _ _
theorem rows2_12_64_o (c : Dev nD) :
    oM.slice (Rect.unit (s := S4096x1024) (k0_off2 c 12#32 64#32) S64x1024.size (k0_off2_inb c 12 1)) (fun _ => rfl)
      = rows oM (off false (c.val + 12) 1) (off_inb false (c.val + 12) ⟨1, by decide⟩) :=
  rows_congr _ (off2_12_64 c) _ _ _
theorem rows2_13_0_o (c : Dev nD) :
    oM.slice (Rect.unit (s := S4096x1024) (k0_off2 c 13#32 0#32) S64x1024.size (k0_off2_inb c 13 0)) (fun _ => rfl)
      = rows oM (off false (c.val + 13) 0) (off_inb false (c.val + 13) ⟨0, by decide⟩) :=
  rows_congr _ (off2_13_0 c) _ _ _
theorem rows2_13_64_o (c : Dev nD) :
    oM.slice (Rect.unit (s := S4096x1024) (k0_off2 c 13#32 64#32) S64x1024.size (k0_off2_inb c 13 1)) (fun _ => rfl)
      = rows oM (off false (c.val + 13) 1) (off_inb false (c.val + 13) ⟨1, by decide⟩) :=
  rows_congr _ (off2_13_64 c) _ _ _
theorem rows2_14_0_o (c : Dev nD) :
    oM.slice (Rect.unit (s := S4096x1024) (k0_off2 c 14#32 0#32) S64x1024.size (k0_off2_inb c 14 0)) (fun _ => rfl)
      = rows oM (off false (c.val + 14) 0) (off_inb false (c.val + 14) ⟨0, by decide⟩) :=
  rows_congr _ (off2_14_0 c) _ _ _
theorem rows2_14_64_o (c : Dev nD) :
    oM.slice (Rect.unit (s := S4096x1024) (k0_off2 c 14#32 64#32) S64x1024.size (k0_off2_inb c 14 1)) (fun _ => rfl)
      = rows oM (off false (c.val + 14) 1) (off_inb false (c.val + 14) ⟨1, by decide⟩) :=
  rows_congr _ (off2_14_64 c) _ _ _
theorem rect3_m2_0 (c : Dev nD) :
    Rect.unit (s := S4096x1024) (k0_off3 c 4294967294#32 0#32) S64x1024.size (k0_off3_inb c 14 0)
      = Rect.unit (s := S4096x1024) (off true (c.val + 14) 0) S64x1024.size (off_inb true (c.val + 14) ⟨0, by decide⟩) :=
  Rect.unit_congr (off3_m2_0 c) _ _
theorem rect3_m2_64 (c : Dev nD) :
    Rect.unit (s := S4096x1024) (k0_off3 c 4294967294#32 64#32) S64x1024.size (k0_off3_inb c 14 1)
      = Rect.unit (s := S4096x1024) (off true (c.val + 14) 1) S64x1024.size (off_inb true (c.val + 14) ⟨1, by decide⟩) :=
  Rect.unit_congr (off3_m2_64 c) _ _
theorem rect3_m3_0 (c : Dev nD) :
    Rect.unit (s := S4096x1024) (k0_off3 c 4294967293#32 0#32) S64x1024.size (k0_off3_inb c 13 0)
      = Rect.unit (s := S4096x1024) (off true (c.val + 13) 0) S64x1024.size (off_inb true (c.val + 13) ⟨0, by decide⟩) :=
  Rect.unit_congr (off3_m3_0 c) _ _
theorem rect3_m3_64 (c : Dev nD) :
    Rect.unit (s := S4096x1024) (k0_off3 c 4294967293#32 64#32) S64x1024.size (k0_off3_inb c 13 1)
      = Rect.unit (s := S4096x1024) (off true (c.val + 13) 1) S64x1024.size (off_inb true (c.val + 13) ⟨1, by decide⟩) :=
  Rect.unit_congr (off3_m3_64 c) _ _
theorem rect3_m4_0 (c : Dev nD) :
    Rect.unit (s := S4096x1024) (k0_off3 c 4294967292#32 0#32) S64x1024.size (k0_off3_inb c 12 0)
      = Rect.unit (s := S4096x1024) (off true (c.val + 12) 0) S64x1024.size (off_inb true (c.val + 12) ⟨0, by decide⟩) :=
  Rect.unit_congr (off3_m4_0 c) _ _
theorem rect3_m4_64 (c : Dev nD) :
    Rect.unit (s := S4096x1024) (k0_off3 c 4294967292#32 64#32) S64x1024.size (k0_off3_inb c 12 1)
      = Rect.unit (s := S4096x1024) (off true (c.val + 12) 1) S64x1024.size (off_inb true (c.val + 12) ⟨1, by decide⟩) :=
  Rect.unit_congr (off3_m4_64 c) _ _
theorem rect3_m5_0 (c : Dev nD) :
    Rect.unit (s := S4096x1024) (k0_off3 c 4294967291#32 0#32) S64x1024.size (k0_off3_inb c 11 0)
      = Rect.unit (s := S4096x1024) (off true (c.val + 11) 0) S64x1024.size (off_inb true (c.val + 11) ⟨0, by decide⟩) :=
  Rect.unit_congr (off3_m5_0 c) _ _
theorem rect3_m5_64 (c : Dev nD) :
    Rect.unit (s := S4096x1024) (k0_off3 c 4294967291#32 64#32) S64x1024.size (k0_off3_inb c 11 1)
      = Rect.unit (s := S4096x1024) (off true (c.val + 11) 1) S64x1024.size (off_inb true (c.val + 11) ⟨1, by decide⟩) :=
  Rect.unit_congr (off3_m5_64 c) _ _
theorem rect3_m6_0 (c : Dev nD) :
    Rect.unit (s := S4096x1024) (k0_off3 c 4294967290#32 0#32) S64x1024.size (k0_off3_inb c 10 0)
      = Rect.unit (s := S4096x1024) (off true (c.val + 10) 0) S64x1024.size (off_inb true (c.val + 10) ⟨0, by decide⟩) :=
  Rect.unit_congr (off3_m6_0 c) _ _
theorem rect3_m6_64 (c : Dev nD) :
    Rect.unit (s := S4096x1024) (k0_off3 c 4294967290#32 64#32) S64x1024.size (k0_off3_inb c 10 1)
      = Rect.unit (s := S4096x1024) (off true (c.val + 10) 1) S64x1024.size (off_inb true (c.val + 10) ⟨1, by decide⟩) :=
  Rect.unit_congr (off3_m6_64 c) _ _
theorem rect3_m7_0 (c : Dev nD) :
    Rect.unit (s := S4096x1024) (k0_off3 c 4294967289#32 0#32) S64x1024.size (k0_off3_inb c 9 0)
      = Rect.unit (s := S4096x1024) (off true (c.val + 9) 0) S64x1024.size (off_inb true (c.val + 9) ⟨0, by decide⟩) :=
  Rect.unit_congr (off3_m7_0 c) _ _
theorem rect3_m7_64 (c : Dev nD) :
    Rect.unit (s := S4096x1024) (k0_off3 c 4294967289#32 64#32) S64x1024.size (k0_off3_inb c 9 1)
      = Rect.unit (s := S4096x1024) (off true (c.val + 9) 1) S64x1024.size (off_inb true (c.val + 9) ⟨1, by decide⟩) :=
  Rect.unit_congr (off3_m7_64 c) _ _
theorem rect3_m8_0 (c : Dev nD) :
    Rect.unit (s := S4096x1024) (k0_off3 c 4294967288#32 0#32) S64x1024.size (k0_off3_inb c 8 0)
      = Rect.unit (s := S4096x1024) (off true (c.val + 8) 0) S64x1024.size (off_inb true (c.val + 8) ⟨0, by decide⟩) :=
  Rect.unit_congr (off3_m8_0 c) _ _
theorem rect3_m8_64 (c : Dev nD) :
    Rect.unit (s := S4096x1024) (k0_off3 c 4294967288#32 64#32) S64x1024.size (k0_off3_inb c 8 1)
      = Rect.unit (s := S4096x1024) (off true (c.val + 8) 1) S64x1024.size (off_inb true (c.val + 8) ⟨1, by decide⟩) :=
  Rect.unit_congr (off3_m8_64 c) _ _
theorem rect3_m9_0 (c : Dev nD) :
    Rect.unit (s := S4096x1024) (k0_off3 c 4294967287#32 0#32) S64x1024.size (k0_off3_inb c 7 0)
      = Rect.unit (s := S4096x1024) (off true (c.val + 7) 0) S64x1024.size (off_inb true (c.val + 7) ⟨0, by decide⟩) :=
  Rect.unit_congr (off3_m9_0 c) _ _
theorem rect3_m9_64 (c : Dev nD) :
    Rect.unit (s := S4096x1024) (k0_off3 c 4294967287#32 64#32) S64x1024.size (k0_off3_inb c 7 1)
      = Rect.unit (s := S4096x1024) (off true (c.val + 7) 1) S64x1024.size (off_inb true (c.val + 7) ⟨1, by decide⟩) :=
  Rect.unit_congr (off3_m9_64 c) _ _
theorem rect3_m10_0 (c : Dev nD) :
    Rect.unit (s := S4096x1024) (k0_off3 c 4294967286#32 0#32) S64x1024.size (k0_off3_inb c 6 0)
      = Rect.unit (s := S4096x1024) (off true (c.val + 6) 0) S64x1024.size (off_inb true (c.val + 6) ⟨0, by decide⟩) :=
  Rect.unit_congr (off3_m10_0 c) _ _
theorem rect3_m10_64 (c : Dev nD) :
    Rect.unit (s := S4096x1024) (k0_off3 c 4294967286#32 64#32) S64x1024.size (k0_off3_inb c 6 1)
      = Rect.unit (s := S4096x1024) (off true (c.val + 6) 1) S64x1024.size (off_inb true (c.val + 6) ⟨1, by decide⟩) :=
  Rect.unit_congr (off3_m10_64 c) _ _
theorem rect3_m11_0 (c : Dev nD) :
    Rect.unit (s := S4096x1024) (k0_off3 c 4294967285#32 0#32) S64x1024.size (k0_off3_inb c 5 0)
      = Rect.unit (s := S4096x1024) (off true (c.val + 5) 0) S64x1024.size (off_inb true (c.val + 5) ⟨0, by decide⟩) :=
  Rect.unit_congr (off3_m11_0 c) _ _
theorem rect3_m11_64 (c : Dev nD) :
    Rect.unit (s := S4096x1024) (k0_off3 c 4294967285#32 64#32) S64x1024.size (k0_off3_inb c 5 1)
      = Rect.unit (s := S4096x1024) (off true (c.val + 5) 1) S64x1024.size (off_inb true (c.val + 5) ⟨1, by decide⟩) :=
  Rect.unit_congr (off3_m11_64 c) _ _
theorem rect3_m12_0 (c : Dev nD) :
    Rect.unit (s := S4096x1024) (k0_off3 c 4294967284#32 0#32) S64x1024.size (k0_off3_inb c 4 0)
      = Rect.unit (s := S4096x1024) (off true (c.val + 4) 0) S64x1024.size (off_inb true (c.val + 4) ⟨0, by decide⟩) :=
  Rect.unit_congr (off3_m12_0 c) _ _
theorem rect3_m12_64 (c : Dev nD) :
    Rect.unit (s := S4096x1024) (k0_off3 c 4294967284#32 64#32) S64x1024.size (k0_off3_inb c 4 1)
      = Rect.unit (s := S4096x1024) (off true (c.val + 4) 1) S64x1024.size (off_inb true (c.val + 4) ⟨1, by decide⟩) :=
  Rect.unit_congr (off3_m12_64 c) _ _
theorem rect3_m13_0 (c : Dev nD) :
    Rect.unit (s := S4096x1024) (k0_off3 c 4294967283#32 0#32) S64x1024.size (k0_off3_inb c 3 0)
      = Rect.unit (s := S4096x1024) (off true (c.val + 3) 0) S64x1024.size (off_inb true (c.val + 3) ⟨0, by decide⟩) :=
  Rect.unit_congr (off3_m13_0 c) _ _
theorem rect3_m13_64 (c : Dev nD) :
    Rect.unit (s := S4096x1024) (k0_off3 c 4294967283#32 64#32) S64x1024.size (k0_off3_inb c 3 1)
      = Rect.unit (s := S4096x1024) (off true (c.val + 3) 1) S64x1024.size (off_inb true (c.val + 3) ⟨1, by decide⟩) :=
  Rect.unit_congr (off3_m13_64 c) _ _
theorem rect3_m14_0 (c : Dev nD) :
    Rect.unit (s := S4096x1024) (k0_off3 c 4294967282#32 0#32) S64x1024.size (k0_off3_inb c 2 0)
      = Rect.unit (s := S4096x1024) (off true (c.val + 2) 0) S64x1024.size (off_inb true (c.val + 2) ⟨0, by decide⟩) :=
  Rect.unit_congr (off3_m14_0 c) _ _
theorem rect3_m14_64 (c : Dev nD) :
    Rect.unit (s := S4096x1024) (k0_off3 c 4294967282#32 64#32) S64x1024.size (k0_off3_inb c 2 1)
      = Rect.unit (s := S4096x1024) (off true (c.val + 2) 1) S64x1024.size (off_inb true (c.val + 2) ⟨1, by decide⟩) :=
  Rect.unit_congr (off3_m14_64 c) _ _
theorem rect3_m15_0 (c : Dev nD) :
    Rect.unit (s := S4096x1024) (k0_off3 c 4294967281#32 0#32) S64x1024.size (k0_off3_inb c 1 0)
      = Rect.unit (s := S4096x1024) (off true (c.val + 1) 0) S64x1024.size (off_inb true (c.val + 1) ⟨0, by decide⟩) :=
  Rect.unit_congr (off3_m15_0 c) _ _
theorem rect3_m15_64 (c : Dev nD) :
    Rect.unit (s := S4096x1024) (k0_off3 c 4294967281#32 64#32) S64x1024.size (k0_off3_inb c 1 1)
      = Rect.unit (s := S4096x1024) (off true (c.val + 1) 1) S64x1024.size (off_inb true (c.val + 1) ⟨1, by decide⟩) :=
  Rect.unit_congr (off3_m15_64 c) _ _
theorem rect3_m16_0 (c : Dev nD) :
    Rect.unit (s := S4096x1024) (k0_off3 c 4294967280#32 0#32) S64x1024.size (k0_off3_inb c 0 0)
      = Rect.unit (s := S4096x1024) (off true (c.val + 0) 0) S64x1024.size (off_inb true (c.val + 0) ⟨0, by decide⟩) :=
  Rect.unit_congr (off3_m16_0 c) _ _
theorem rect3_m16_64 (c : Dev nD) :
    Rect.unit (s := S4096x1024) (k0_off3 c 4294967280#32 64#32) S64x1024.size (k0_off3_inb c 0 1)
      = Rect.unit (s := S4096x1024) (off true (c.val + 0) 1) S64x1024.size (off_inb true (c.val + 0) ⟨1, by decide⟩) :=
  Rect.unit_congr (off3_m16_64 c) _ _
theorem rect4_2_0 (c : Dev nD) :
    Rect.unit (s := S4096x1024) (k0_off4 c 2#32 0#32) S64x1024.size (k0_off4_inb c 0 0)
      = Rect.unit (s := S4096x1024) (off false (c.val + 2) 0) S64x1024.size (off_inb false (c.val + 2) ⟨0, by decide⟩) :=
  Rect.unit_congr (off4_2_0 c) _ _
theorem rect4_2_64 (c : Dev nD) :
    Rect.unit (s := S4096x1024) (k0_off4 c 2#32 64#32) S64x1024.size (k0_off4_inb c 0 1)
      = Rect.unit (s := S4096x1024) (off false (c.val + 2) 1) S64x1024.size (off_inb false (c.val + 2) ⟨1, by decide⟩) :=
  Rect.unit_congr (off4_2_64 c) _ _
theorem rect4_3_0 (c : Dev nD) :
    Rect.unit (s := S4096x1024) (k0_off4 c 3#32 0#32) S64x1024.size (k0_off4_inb c 1 0)
      = Rect.unit (s := S4096x1024) (off false (c.val + 3) 0) S64x1024.size (off_inb false (c.val + 3) ⟨0, by decide⟩) :=
  Rect.unit_congr (off4_3_0 c) _ _
theorem rect4_3_64 (c : Dev nD) :
    Rect.unit (s := S4096x1024) (k0_off4 c 3#32 64#32) S64x1024.size (k0_off4_inb c 1 1)
      = Rect.unit (s := S4096x1024) (off false (c.val + 3) 1) S64x1024.size (off_inb false (c.val + 3) ⟨1, by decide⟩) :=
  Rect.unit_congr (off4_3_64 c) _ _
theorem rect4_4_0 (c : Dev nD) :
    Rect.unit (s := S4096x1024) (k0_off4 c 4#32 0#32) S64x1024.size (k0_off4_inb c 2 0)
      = Rect.unit (s := S4096x1024) (off false (c.val + 4) 0) S64x1024.size (off_inb false (c.val + 4) ⟨0, by decide⟩) :=
  Rect.unit_congr (off4_4_0 c) _ _
theorem rect4_4_64 (c : Dev nD) :
    Rect.unit (s := S4096x1024) (k0_off4 c 4#32 64#32) S64x1024.size (k0_off4_inb c 2 1)
      = Rect.unit (s := S4096x1024) (off false (c.val + 4) 1) S64x1024.size (off_inb false (c.val + 4) ⟨1, by decide⟩) :=
  Rect.unit_congr (off4_4_64 c) _ _
theorem rect4_5_0 (c : Dev nD) :
    Rect.unit (s := S4096x1024) (k0_off4 c 5#32 0#32) S64x1024.size (k0_off4_inb c 3 0)
      = Rect.unit (s := S4096x1024) (off false (c.val + 5) 0) S64x1024.size (off_inb false (c.val + 5) ⟨0, by decide⟩) :=
  Rect.unit_congr (off4_5_0 c) _ _
theorem rect4_5_64 (c : Dev nD) :
    Rect.unit (s := S4096x1024) (k0_off4 c 5#32 64#32) S64x1024.size (k0_off4_inb c 3 1)
      = Rect.unit (s := S4096x1024) (off false (c.val + 5) 1) S64x1024.size (off_inb false (c.val + 5) ⟨1, by decide⟩) :=
  Rect.unit_congr (off4_5_64 c) _ _
theorem rect4_6_0 (c : Dev nD) :
    Rect.unit (s := S4096x1024) (k0_off4 c 6#32 0#32) S64x1024.size (k0_off4_inb c 4 0)
      = Rect.unit (s := S4096x1024) (off false (c.val + 6) 0) S64x1024.size (off_inb false (c.val + 6) ⟨0, by decide⟩) :=
  Rect.unit_congr (off4_6_0 c) _ _
theorem rect4_6_64 (c : Dev nD) :
    Rect.unit (s := S4096x1024) (k0_off4 c 6#32 64#32) S64x1024.size (k0_off4_inb c 4 1)
      = Rect.unit (s := S4096x1024) (off false (c.val + 6) 1) S64x1024.size (off_inb false (c.val + 6) ⟨1, by decide⟩) :=
  Rect.unit_congr (off4_6_64 c) _ _
theorem rect4_7_0 (c : Dev nD) :
    Rect.unit (s := S4096x1024) (k0_off4 c 7#32 0#32) S64x1024.size (k0_off4_inb c 5 0)
      = Rect.unit (s := S4096x1024) (off false (c.val + 7) 0) S64x1024.size (off_inb false (c.val + 7) ⟨0, by decide⟩) :=
  Rect.unit_congr (off4_7_0 c) _ _
theorem rect4_7_64 (c : Dev nD) :
    Rect.unit (s := S4096x1024) (k0_off4 c 7#32 64#32) S64x1024.size (k0_off4_inb c 5 1)
      = Rect.unit (s := S4096x1024) (off false (c.val + 7) 1) S64x1024.size (off_inb false (c.val + 7) ⟨1, by decide⟩) :=
  Rect.unit_congr (off4_7_64 c) _ _
theorem rect4_8_0 (c : Dev nD) :
    Rect.unit (s := S4096x1024) (k0_off4 c 8#32 0#32) S64x1024.size (k0_off4_inb c 6 0)
      = Rect.unit (s := S4096x1024) (off false (c.val + 8) 0) S64x1024.size (off_inb false (c.val + 8) ⟨0, by decide⟩) :=
  Rect.unit_congr (off4_8_0 c) _ _
theorem rect4_8_64 (c : Dev nD) :
    Rect.unit (s := S4096x1024) (k0_off4 c 8#32 64#32) S64x1024.size (k0_off4_inb c 6 1)
      = Rect.unit (s := S4096x1024) (off false (c.val + 8) 1) S64x1024.size (off_inb false (c.val + 8) ⟨1, by decide⟩) :=
  Rect.unit_congr (off4_8_64 c) _ _
theorem rect4_9_0 (c : Dev nD) :
    Rect.unit (s := S4096x1024) (k0_off4 c 9#32 0#32) S64x1024.size (k0_off4_inb c 7 0)
      = Rect.unit (s := S4096x1024) (off false (c.val + 9) 0) S64x1024.size (off_inb false (c.val + 9) ⟨0, by decide⟩) :=
  Rect.unit_congr (off4_9_0 c) _ _
theorem rect4_9_64 (c : Dev nD) :
    Rect.unit (s := S4096x1024) (k0_off4 c 9#32 64#32) S64x1024.size (k0_off4_inb c 7 1)
      = Rect.unit (s := S4096x1024) (off false (c.val + 9) 1) S64x1024.size (off_inb false (c.val + 9) ⟨1, by decide⟩) :=
  Rect.unit_congr (off4_9_64 c) _ _
theorem rect4_10_0 (c : Dev nD) :
    Rect.unit (s := S4096x1024) (k0_off4 c 10#32 0#32) S64x1024.size (k0_off4_inb c 8 0)
      = Rect.unit (s := S4096x1024) (off false (c.val + 10) 0) S64x1024.size (off_inb false (c.val + 10) ⟨0, by decide⟩) :=
  Rect.unit_congr (off4_10_0 c) _ _
theorem rect4_10_64 (c : Dev nD) :
    Rect.unit (s := S4096x1024) (k0_off4 c 10#32 64#32) S64x1024.size (k0_off4_inb c 8 1)
      = Rect.unit (s := S4096x1024) (off false (c.val + 10) 1) S64x1024.size (off_inb false (c.val + 10) ⟨1, by decide⟩) :=
  Rect.unit_congr (off4_10_64 c) _ _
theorem rect4_11_0 (c : Dev nD) :
    Rect.unit (s := S4096x1024) (k0_off4 c 11#32 0#32) S64x1024.size (k0_off4_inb c 9 0)
      = Rect.unit (s := S4096x1024) (off false (c.val + 11) 0) S64x1024.size (off_inb false (c.val + 11) ⟨0, by decide⟩) :=
  Rect.unit_congr (off4_11_0 c) _ _
theorem rect4_11_64 (c : Dev nD) :
    Rect.unit (s := S4096x1024) (k0_off4 c 11#32 64#32) S64x1024.size (k0_off4_inb c 9 1)
      = Rect.unit (s := S4096x1024) (off false (c.val + 11) 1) S64x1024.size (off_inb false (c.val + 11) ⟨1, by decide⟩) :=
  Rect.unit_congr (off4_11_64 c) _ _
theorem rect4_12_0 (c : Dev nD) :
    Rect.unit (s := S4096x1024) (k0_off4 c 12#32 0#32) S64x1024.size (k0_off4_inb c 10 0)
      = Rect.unit (s := S4096x1024) (off false (c.val + 12) 0) S64x1024.size (off_inb false (c.val + 12) ⟨0, by decide⟩) :=
  Rect.unit_congr (off4_12_0 c) _ _
theorem rect4_12_64 (c : Dev nD) :
    Rect.unit (s := S4096x1024) (k0_off4 c 12#32 64#32) S64x1024.size (k0_off4_inb c 10 1)
      = Rect.unit (s := S4096x1024) (off false (c.val + 12) 1) S64x1024.size (off_inb false (c.val + 12) ⟨1, by decide⟩) :=
  Rect.unit_congr (off4_12_64 c) _ _
theorem rect4_13_0 (c : Dev nD) :
    Rect.unit (s := S4096x1024) (k0_off4 c 13#32 0#32) S64x1024.size (k0_off4_inb c 11 0)
      = Rect.unit (s := S4096x1024) (off false (c.val + 13) 0) S64x1024.size (off_inb false (c.val + 13) ⟨0, by decide⟩) :=
  Rect.unit_congr (off4_13_0 c) _ _
theorem rect4_13_64 (c : Dev nD) :
    Rect.unit (s := S4096x1024) (k0_off4 c 13#32 64#32) S64x1024.size (k0_off4_inb c 11 1)
      = Rect.unit (s := S4096x1024) (off false (c.val + 13) 1) S64x1024.size (off_inb false (c.val + 13) ⟨1, by decide⟩) :=
  Rect.unit_congr (off4_13_64 c) _ _
theorem rect4_14_0 (c : Dev nD) :
    Rect.unit (s := S4096x1024) (k0_off4 c 14#32 0#32) S64x1024.size (k0_off4_inb c 12 0)
      = Rect.unit (s := S4096x1024) (off false (c.val + 14) 0) S64x1024.size (off_inb false (c.val + 14) ⟨0, by decide⟩) :=
  Rect.unit_congr (off4_14_0 c) _ _
theorem rect4_14_64 (c : Dev nD) :
    Rect.unit (s := S4096x1024) (k0_off4 c 14#32 64#32) S64x1024.size (k0_off4_inb c 12 1)
      = Rect.unit (s := S4096x1024) (off false (c.val + 14) 1) S64x1024.size (off_inb false (c.val + 14) ⟨1, by decide⟩) :=
  Rect.unit_congr (off4_14_64 c) _ _
theorem rect4_15_0 (c : Dev nD) :
    Rect.unit (s := S4096x1024) (k0_off4 c 15#32 0#32) S64x1024.size (k0_off4_inb c 13 0)
      = Rect.unit (s := S4096x1024) (off false (c.val + 15) 0) S64x1024.size (off_inb false (c.val + 15) ⟨0, by decide⟩) :=
  Rect.unit_congr (off4_15_0 c) _ _
theorem rect4_15_64 (c : Dev nD) :
    Rect.unit (s := S4096x1024) (k0_off4 c 15#32 64#32) S64x1024.size (k0_off4_inb c 13 1)
      = Rect.unit (s := S4096x1024) (off false (c.val + 15) 1) S64x1024.size (off_inb false (c.val + 15) ⟨1, by decide⟩) :=
  Rect.unit_congr (off4_15_64 c) _ _
theorem rect4_16_0 (c : Dev nD) :
    Rect.unit (s := S4096x1024) (k0_off4 c 16#32 0#32) S64x1024.size (k0_off4_inb c 14 0)
      = Rect.unit (s := S4096x1024) (off false (c.val + 0) 0) S64x1024.size (off_inb false (c.val + 0) ⟨0, by decide⟩) :=
  Rect.unit_congr (off4_16_0 c) _ _
theorem rect4_16_64 (c : Dev nD) :
    Rect.unit (s := S4096x1024) (k0_off4 c 16#32 64#32) S64x1024.size (k0_off4_inb c 14 1)
      = Rect.unit (s := S4096x1024) (off false (c.val + 0) 1) S64x1024.size (off_inb false (c.val + 0) ⟨1, by decide⟩) :=
  Rect.unit_congr (off4_16_64 c) _ _

attribute [sl_canon]
  rows1_0_0_o rows1_0_64_o rows1_m1_0_x rows1_m1_0_o rows1_m1_64_x rows1_m1_64_o rows1_m2_0_o rows1_m2_64_o
  rows1_m3_0_o rows1_m3_64_o rows1_m4_0_o rows1_m4_64_o rows1_m5_0_o rows1_m5_64_o rows1_m6_0_o rows1_m6_64_o
  rows1_m7_0_o rows1_m7_64_o rows1_m8_0_o rows1_m8_64_o rows1_m9_0_o rows1_m9_64_o rows1_m10_0_o
  rows1_m10_64_o rows1_m11_0_o rows1_m11_64_o rows1_m12_0_o rows1_m12_64_o rows1_m13_0_o rows1_m13_64_o
  rows1_m14_0_o rows1_m14_64_o rows2_0_0_o rows2_0_64_o rows2_1_0_x rows2_1_0_o rows2_1_64_x rows2_1_64_o
  rows2_2_0_o rows2_2_64_o rows2_3_0_o rows2_3_64_o rows2_4_0_o rows2_4_64_o rows2_5_0_o rows2_5_64_o
  rows2_6_0_o rows2_6_64_o rows2_7_0_o rows2_7_64_o rows2_8_0_o rows2_8_64_o rows2_9_0_o rows2_9_64_o
  rows2_10_0_o rows2_10_64_o rows2_11_0_o rows2_11_64_o rows2_12_0_o rows2_12_64_o rows2_13_0_o rows2_13_64_o
  rows2_14_0_o rows2_14_64_o

/-- rewrites the rectangle of every load of 64 rows of the staged input to its closed offsets, and nothing else -/
macro "rect_eqs" : tactic => `(tactic| simp (config := { beta := false, eta := false, zeta := false, zetaDelta := false, proj := false, decide := false, arith := false, dsimp := false, ground := false, unfoldPartialApp := false, etaStruct := .none, iota := false, failIfUnchanged := false }) only [
    rect3_m2_0, rect3_m2_64, rect3_m3_0, rect3_m3_64, rect3_m4_0, rect3_m4_64, rect3_m5_0, rect3_m5_64,
    rect3_m6_0, rect3_m6_64, rect3_m7_0, rect3_m7_64, rect3_m8_0, rect3_m8_64, rect3_m9_0, rect3_m9_64,
    rect3_m10_0, rect3_m10_64, rect3_m11_0, rect3_m11_64, rect3_m12_0, rect3_m12_64, rect3_m13_0,
    rect3_m13_64, rect3_m14_0, rect3_m14_64, rect3_m15_0, rect3_m15_64, rect3_m16_0, rect3_m16_64, rect4_2_0,
    rect4_2_64, rect4_3_0, rect4_3_64, rect4_4_0, rect4_4_64, rect4_5_0, rect4_5_64, rect4_6_0, rect4_6_64,
    rect4_7_0, rect4_7_64, rect4_8_0, rect4_8_64, rect4_9_0, rect4_9_64, rect4_10_0, rect4_10_64, rect4_11_0,
    rect4_11_64, rect4_12_0, rect4_12_64, rect4_13_0, rect4_13_64, rect4_14_0, rect4_14_64, rect4_15_0,
    rect4_15_64, rect4_16_0, rect4_16_64])

/-! ## The two accesses of 128 rows: the two halves of the device's own chunk -/

theorem off5_eq (c : Dev nD) : k0_off5 c = off true c.val 0 :=
  (k0_off5_eq c).trans (by have := c.isLt; unfold off; rw [Nat.mod_eq_of_lt (show c.val < 16 from this)]; rfl)
theorem off6_eq (c : Dev nD) : k0_off6 c = off false c.val 0 :=
  (k0_off6_eq c).trans (by have := c.isLt; unfold off; rw [Nat.mod_eq_of_lt (show c.val < 16 from this)]; rfl)
theorem rect5_eq (c : Dev nD) :
    Rect.unit (s := S4096x1024) (k0_off5 c) S128x1024.size (k0_off5_inb c)
      = Rect.unit (s := S4096x1024) (off true c.val 0) S128x1024.size (off_inb128 true c.val) :=
  Rect.unit_congr (off5_eq c) _ _
theorem rect6_eq (c : Dev nD) :
    Rect.unit (s := S4096x1024) (k0_off6 c) S128x1024.size (k0_off6_inb c)
      = Rect.unit (s := S4096x1024) (off false c.val 0) S128x1024.size (off_inb128 false c.val) :=
  Rect.unit_congr (off6_eq c) _ _

end Cert.KernelIdeal.RSAG

end
-- ==== Proof.BodyLib.lean ====
import proofs.«901013_g7700000000001014_dist_rs_then_ag_i_m4096_n1024_v7x_i16_f32_1_alg».proof.Proof.Dats

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-- one conjunct out of a list-indexed separating conjunction -/
theorem bigSepL_elim_mem {I : Type} [DecidableEq I] (l : List I) (Φ : I → sProp 𝕄) (i : I) (h : i ∈ l) : bigSepL l Φ ⊢ Φ i := by
  induction l with
  | nil => cases h
  | cons j l' ih =>
    rw [bigSepL_cons]
    by_cases hij : i = j
    · subst hij; show iprop(Φ i ∗ bigSepL l' Φ) ⊢ Φ i; iintro ⟨H, -⟩; iexact H
    · show iprop(Φ j ∗ bigSepL l' Φ) ⊢ Φ i; iintro ⟨-, H⟩; iapply (ih (List.mem_of_ne_of_mem hij h)); iexact H

instance bigSepL_persistent {I : Type} (l : List I) (Φ : I → sProp 𝕄) [∀ i, BI.Persistent (Φ i)] : BI.Persistent (bigSepL l Φ) := by
  induction l with
  | nil => rw [bigSepL_nil]; show BI.Persistent (iprop(emp) : sProp 𝕄); infer_instance
  | cons j l' ih => rw [bigSepL_cons]; show BI.Persistent iprop(Φ j ∗ bigSepL l' Φ); infer_instance

theorem owns_elim {c : Thread nD τ} {sp : Space} {sh : Shape} {e : EltTy} (mm : Memref sig c.2.kind sp sh e) (q : PosShare TreeShare) (V : sh.Idx → Elt F e) :
    (owns (Ix := Unit) (Name := ℕ) (U := UU) (Lvl := ℕ) c mm q V : sProp 𝕄)
      ⊢ iprop(∃ f, ⌜View.read (Elt F) mm.view f = V⌝ ∗ View.loc c mm.view ↦[mm.view.set]{q} f) := BI.Entails.refl _

theorem bigSepL_elim_idx {I : Type} (l : List I) (Φ : I → sProp 𝕄) (i : ℕ) (h : i < l.length) : bigSepL l Φ ⊢ Φ (l[i]'h) := by
  induction l generalizing i with
  | nil => exact absurd h (Nat.not_lt_zero _)
  | cons j l' ih =>
    rw [bigSepL_cons]
    cases i with
    | zero => show iprop(Φ j ∗ bigSepL l' Φ) ⊢ Φ j; iintro ⟨H, -⟩; iexact H
    | succ i' => show iprop(Φ j ∗ bigSepL l' Φ) ⊢ Φ (l'[i']'(Nat.lt_of_succ_lt_succ h)); iintro ⟨-, H⟩; iapply (ih i' (Nat.lt_of_succ_lt_succ h)); iexact H

theorem owes_congr {c : Thread nD τ} {O O' : CellTallies nD τ sig Unit} {W : Waits sig Unit} (h : O = O') :
    (owes c O W : sProp 𝕄) ⊢ owes c O' W := by subst h; exact BI.Entails.refl _

end Cert.KernelIdeal.RSAG

end
-- ==== Proof.Steps.lean ====
import proofs.«901013_g7700000000001014_dist_rs_then_ag_i_m4096_n1024_v7x_i16_f32_1_alg».proof.Proof.Tables
import Idealize.ShloMosaic.Lib.Pipeline.Value
import Idealize.ShloMosaic.Lib.ValueLayout

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## A remote copy of 64 rows

The issuing device hands in its source rows, the destination rows on the other device (lent to it at the barrier), and the two
duty tokens: the read-out returns the source with the send semaphore's credit, the landing hands the destination's owner the
rows rewritten, which read as what was sent. -/

/-- the source held as `owns` at the value `V` -/
theorem send_owns {c c' : Dev nD} {src : Memref sig .tc .vmem S64x1024 .f32} {dst : Memref sig .tc .vmem S64x1024 .f32}
    {hsc : (dst : Memref sig (Dev.tc c' : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α}
    (X : Dev nD → S4096x1024.Idx → Elt F .f32) (qs : PosShare TreeShare) (V : S64x1024.Idx → Elt F .f32) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = owns (c : Thread nD τ) src qs V)
    (hp₂ : (Rd (F := F) X).payload (dcell c' sem) 0 false = owns (c' : Thread nD τ) dst fullShare V)
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ owns (c : Thread nD τ) src qs V
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  unfold owns
  iintro ⟨Hg₁, Hg₂, ⟨%fs, %hfs, Hsrc⟩, ⟨%fd, Hdst⟩, HL, Ht₁, Hr₁, Ht₂, Hr₂⟩
  subst hfs
  iapply (Rounds.wp_send_pointsTo 𝒱₀ ER (Rd (F := F) X) (c : Thread nD τ) none (κ₁ := κ₁) (κ₂ := κ₂)
    (r₁ := r₁) (r₂ := 0) (d₁ := false) (d₂ := false) (q := qs) (fs := fs) (fd := fd)
    hd₁ hd₂ () () N hN hk₁ hk₂ O hO (W := W)
    (by rw [hp₁]; exact owns_intro _ _ _ _)
    (by rw [hp₂]; exact (owns_intro _ _ _ _).trans (by rw [View.read_write_univ]))
    hr)
  isplitl [Hg₁]; · iexact Hg₁
  isplitl [Hg₂]; · iexact Hg₂
  isplitl [Hsrc]; · iexact Hsrc
  isplitl [Hdst]; · iexact Hdst
  isplitl [HL]; · iexact HL
  isplitl [Ht₁]; · iexact Ht₁
  isplitl [Hr₁]; · iexact Hr₁
  isplitl [Ht₂]; · iexact Ht₂
  iexact Hr₂

/-- the source held as a plain points-to at the contents `fs`: what lands reads as `fs` read through the source window -/
theorem send_pts {c c' : Dev nD} {src : Memref sig .tc .vmem S64x1024 .f32} {dst : Memref sig .tc .vmem S64x1024 .f32}
    {hsc : (dst : Memref sig (Dev.tc c' : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α}
    (X : Dev nD → S4096x1024.Idx → Elt F .f32) (qs : PosShare TreeShare)
    (fs : Buf (Elt F) (src.view.loc (c : Thread nD τ))) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = iprop(src.view.loc (c : Thread nD τ) ↦[src.view.set]{qs} fs))
    (hp₂ : (Rd (F := F) X).payload (dcell c' sem) 0 false = owns (c' : Thread nD τ) dst fullShare (src.view.read (Elt F) fs))
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ (src.view.loc (c : Thread nD τ) ↦[src.view.set]{qs} fs)
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  iintro ⟨Hg₁, Hg₂, Hsrc, ⟨%fd, Hdst⟩, HL, Ht₁, Hr₁, Ht₂, Hr₂⟩
  iapply (Rounds.wp_send_pointsTo 𝒱₀ ER (Rd (F := F) X) (c : Thread nD τ) none (κ₁ := κ₁) (κ₂ := κ₂)
    (r₁ := r₁) (r₂ := 0) (d₁ := false) (d₂ := false) (q := qs) (fs := fs) (fd := fd)
    hd₁ hd₂ () () N hN hk₁ hk₂ O hO (W := W)
    (by rw [hp₁])
    (by rw [hp₂]; exact (owns_intro _ _ _ _).trans (by rw [View.read_write_univ]))
    hr)
  isplitl [Hg₁]; · iexact Hg₁
  isplitl [Hg₂]; · iexact Hg₂
  isplitl [Hsrc]; · iexact Hsrc
  isplitl [Hdst]; · iexact Hdst
  isplitl [HL]; · iexact HL
  isplitl [Ht₁]; · iexact Ht₁
  isplitl [Hr₁]; · iexact Hr₁
  isplitl [Ht₂]; · iexact Ht₂
  iexact Hr₂

/-! ## A "load, add, store" step

The kernel loads 64 rows of a ring-buffer slot (with a leading axis of one), adds 64 rows of its staged input, and stores the
sum back over the slot's rows. Read through the slot's transfer window, the slot then holds the elementwise sum of what it
held and the input's rows. -/

/-- the rectangle of 64 rows of slot `s` from row `r` on, with its leading axis of one -/
abbrev R3 (s r : ℕ) (h : ∀ a, (![s, r, 0] : Fin 3 → Nat) a + S1x64x1024.size a ≤ S15x128x1024.size a) : Rect S15x128x1024 :=
  Rect.unit (s := S15x128x1024) ![s, r, 0] S1x64x1024.size h

theorem add_value (M : Memref sig .tc .vmem S15x128x1024 .f32) (s r : ℕ)
    (h : ∀ a, (![s, r, 0] : Fin 3 → Nat) a + S1x64x1024.size a ≤ S15x128x1024.size a)
    (f : M.view.ty.Contents (Elt F)) (Y : S4096x1024.Idx → Elt F .f32)
    (o : Fin 2 → ℕ) (ho : ∀ a, o a + S64x1024.size a ≤ S4096x1024.size a) (P : Vec F S1x64x1024 .f32)
    (hP : P = (shapeCast S1x64x1024
        (addf (shapeCast S64x1024 (View.readAt (Elt F) M.view (R3 s r h).toLoadRect f) shapeCasts_S1x64x1024_S64x1024)
          (shapeCast S64x1024 (View.readAt (Elt F) xM.view (Rect.unit (s := S4096x1024) o S64x1024.size ho).toLoadRect Y)
            shapeCasts_S64x1024_S64x1024))
        shapeCasts_S64x1024_S1x64x1024 : FVec F S1x64x1024 .f32)) :
    (slot M s r h).view.read (Elt F) (View.write (Elt F) (M.access (R3 s r h)) f P Finset.univ)
      = kadd ((slot M s r h).view.read (Elt F) f) (piece o ho Y) := by
  subst hP
  -- the slot's window reads what a load at the slot's rectangle reads, with the leading axis dropped
  rw [Memref.read_squeeze_slice M (R3 s r h) (fun _ => rfl) squeezes_S1x64x1024_S64x1024 shapeCasts_S1x64x1024_S64x1024,
    Memref.read_squeeze_slice M (R3 s r h) (fun _ => rfl) squeezes_S1x64x1024_S64x1024 shapeCasts_S1x64x1024_S64x1024]
  -- a load at the rectangle just written reads the payload
  rw [View.readAt_rect]
  dsimp only [Memref.access]
  rw [View.read_write_univ]
  -- the two casts of the leading axis cancel; the cast of the input's rows to their own shape is the identity
  refine (shapeCast_shapeCast (s := S64x1024) (t := S1x64x1024) _ _ _).trans ?_
  unfold kadd piece
  exact congrArg (addf _) (shapeCast_self (s := S64x1024) _ _)

/-- the same, the input's rows named by the ring's offsets and the slot's old contents by what they read as -/
theorem add_value_at (M : Memref sig .tc .vmem S15x128x1024 .f32) (s r : ℕ)
    (h : ∀ a, (![s, r, 0] : Fin 3 → Nat) a + S1x64x1024.size a ≤ S15x128x1024.size a)
    (f : M.view.ty.Contents (Elt F)) (Y : S4096x1024.Idx → Elt F .f32)
    (o : Fin 2 → ℕ) (ho : ∀ a, o a + S64x1024.size a ≤ S4096x1024.size a) (P : Vec F S1x64x1024 .f32)
    (hP : P = (shapeCast S1x64x1024
        (addf (shapeCast S64x1024 (View.readAt (Elt F) M.view (R3 s r h).toLoadRect f) shapeCasts_S1x64x1024_S64x1024)
          (shapeCast S64x1024 (View.readAt (Elt F) xM.view (Rect.unit (s := S4096x1024) o S64x1024.size ho).toLoadRect Y)
            shapeCasts_S64x1024_S64x1024))
        shapeCasts_S64x1024_S1x64x1024 : FVec F S1x64x1024 .f32))
    (cw : Bool) (k : ℕ) (b : Fin 2) (ho' : o = off cw k b.val)
    (R : S64x1024.Idx → Elt F .f32) (hf : (slot M s r h).view.read (Elt F) f = R) :
    (slot M s r h).view.read (Elt F) (View.write (Elt F) (M.access (R3 s r h)) f P Finset.univ)
      = kadd R (piece (off cw k b.val) (off_inb cw k b) Y) := by
  subst ho' hf
  exact add_value M s r h f Y _ ho P hP

/-! ## The finished slot copied into the result

The kernel loads the whole last slot (128 rows, with a leading axis of one) and stores it over 128 rows of its staged result.
Read back through either of the two 64-row windows the transfers use, those rows hold what the slot's matching window reads. -/

/-- a 64-row window of a staged array reads the array at the window's place -/
theorem rows_read_apply (Mx : Memref sig .tc .vmem S4096x1024 .f32) (o : Fin 2 → ℕ)
    (ho : ∀ a, o a + S64x1024.size a ≤ S4096x1024.size a) (g : Mx.view.ty.Contents (Elt F)) (x : S64x1024.Idx) :
    (rows Mx o ho).view.read (Elt F) g x
      = Mx.view.read (Elt F) g ((Rect.unit (s := S4096x1024) o S64x1024.size ho).emb x) := rfl

theorem copy_value (M : Memref sig .tc .vmem S15x128x1024 .f32) (f : M.view.ty.Contents (Elt F))
    (fo : oM.view.ty.Contents (Elt F))
    (O : Fin 2 → ℕ) (hO : ∀ a, O a + S128x1024.size a ≤ S4096x1024.size a)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (R0 : ℕ) (hOeq : O = ![R0, 0]) (b : Fin 2) (o : Fin 2 → ℕ) (ho : ∀ a, o a + S64x1024.size a ≤ S4096x1024.size a)
    (hoeq : o = ![R0 + 64 * b.val, 0])
    (hs : ∀ a, (![14, 64 * b.val, 0] : Fin 3 → Nat) a + S1x64x1024.size a ≤ S15x128x1024.size a) :
    (rows oM o ho).view.read (Elt F)
        (View.write (Elt F) (oM.access (Rect.unit (s := S4096x1024) O S128x1024.size hO)) fo P Finset.univ)
      = (slot M 14 (64 * b.val) hs).view.read (Elt F) f := by
  subst hP hOeq hoeq
  funext x
  have hx0 : (x 0).val < 64 := (x 0).isLt
  have hb := b.isLt
  have hy0 : 64 * b.val + (x 0).val < 128 := by omega
  -- the window's row `x 0` is row `64 b + x 0` of the 128 rows stored
  have hemb : (Rect.unit (s := S4096x1024) ![R0 + 64 * b.val, 0] S64x1024.size ho).emb x
      = (Rect.unit (s := S4096x1024) ![R0, 0] S128x1024.size hO).emb (ix2 ⟨64 * b.val + (x 0).val, hy0⟩ (x 1)) := by
    funext a
    apply Fin.ext
    match a with
    | ⟨0, _⟩ => show R0 + 64 * b.val + 1 * (x 0).val = R0 + 1 * (64 * b.val + (x 0).val); omega
    | ⟨1, _⟩ => rfl
  rw [rows_read_apply, hemb]
  dsimp only [Memref.access]
  rw [View.read_slice_write_emb _ _ _ (Finset.mem_univ _)]
  -- both sides now read the slot's buffer: drop the leading axis on each and compare the places read
  refine (shapeCast_1ab_ab_apply (a := 128) (b := 1024) _ _ ⟨64 * b.val + (x 0).val, hy0⟩ (x 1)).trans ?_
  rw [Memref.read_squeeze_slice M (R3 14 (64 * b.val) hs) (fun _ => rfl) squeezes_S1x64x1024_S64x1024 shapeCasts_S1x64x1024_S64x1024]
  refine Eq.trans ?_ (congrArg (shapeCast S64x1024 _ shapeCasts_S1x64x1024_S64x1024) (eq_ix2 x).symm)
  refine Eq.trans ?_ (shapeCast_1ab_ab_apply (a := 64) (b := 1024) _ _ (x 0) (x 1)).symm
  refine congrArg (M.view.read (Elt F) f) (funext fun a => Fin.ext ?_)
  match a with
  | ⟨0, _⟩ => rfl
  | ⟨1, _⟩ => show 0 + 1 * (64 * b.val + (x 0).val) = 64 * b.val + 1 * (x 0).val; omega
  | ⟨2, _⟩ => rfl

theorem off_cw (c : Dev nD) (b : ℕ) : off true c.val b = ![256 * c.val + 64 * b, 0] := by
  have hc : c.val % 16 = c.val := Nat.mod_eq_of_lt c.isLt
  unfold off; rw [hc]; rfl

theorem off_ccw (c : Dev nD) (b : ℕ) : off false c.val b = ![256 * c.val + 128 + 64 * b, 0] := by
  have hc : c.val % 16 = c.val := Nat.mod_eq_of_lt c.isLt
  unfold off; rw [hc]; rfl

/-- the clockwise half: the first 128 rows of the device's own chunk -/
theorem copy_value_cw (M : Memref sig .tc .vmem S15x128x1024 .f32) (f : M.view.ty.Contents (Elt F))
    (fo : oM.view.ty.Contents (Elt F)) (c : Dev nD) (b : Fin 2)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (hs : ∀ a, (![14, 64 * b.val, 0] : Fin 3 → Nat) a + S1x64x1024.size a ≤ S15x128x1024.size a) :
    (rows oM (off true c.val b.val) (off_inb true c.val b)).view.read (Elt F)
        (View.write (Elt F) (oM.access (Rect.unit (s := S4096x1024) (k0_off5 c) S128x1024.size (k0_off5_inb c))) fo P Finset.univ)
      = (slot M 14 (64 * b.val) hs).view.read (Elt F) f :=
  copy_value M f fo (k0_off5 c) (k0_off5_inb c) h14 P hP (256 * c.val) (k0_off5_eq c) b _ _ (off_cw c b.val) hs

/-- the other half: the last 128 rows of the device's own chunk -/
theorem copy_value_ccw (M : Memref sig .tc .vmem S15x128x1024 .f32) (f : M.view.ty.Contents (Elt F))
    (fo : oM.view.ty.Contents (Elt F)) (c : Dev nD) (b : Fin 2)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (hs : ∀ a, (![14, 64 * b.val, 0] : Fin 3 → Nat) a + S1x64x1024.size a ≤ S15x128x1024.size a) :
    (rows oM (off false c.val b.val) (off_inb false c.val b)).view.read (Elt F)
        (View.write (Elt F) (oM.access (Rect.unit (s := S4096x1024) (k0_off6 c) S128x1024.size (k0_off6_inb c))) fo P Finset.univ)
      = (slot M 14 (64 * b.val) hs).view.read (Elt F) f :=
  copy_value M f fo (k0_off6 c) (k0_off6_inb c) h14 P hP (256 * c.val + 128) (k0_off6_eq c) b _ _ (off_ccw c b.val) hs

end Cert.KernelIdeal.RSAG

end
-- ==== Proof.SplitLib.lean ====
import proofs.«901013_g7700000000001014_dist_rs_then_ag_i_m4096_n1024_v7x_i16_f32_1_alg».proof.Proof.Sched
import Idealize.ShloMosaic.Lib.Pipeline.Kit

/-! Listing a direction's thirty (step, sub-block) pairs.

    The slots of a ring buffer and the sub-blocks of the staged result a device receives in a direction are indexed by
    the pairs (step, sub-block). Listed in the order the steps run, a separating conjunction over all pairs is a chain
    of thirty conjuncts; a sub-block's window depends on its chunk's number only modulo sixteen, so the windows a
    neighbour receives can be named by their chunks' shifts from this device's own chunk. -/

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-! ## The thirty steps of a direction, listed

A direction's ring buffer has fifteen slots of two sub-blocks; the staged result takes, from a direction, fifteen
chunks' halves of two sub-blocks. Both families are indexed by the pairs (step, sub-block); listing the pairs in the
order the steps run turns a conjunction over all of them into a chain. -/

/-- the thirty (step, sub-block) pairs in the order the steps run -/
def sbList : List (Fin 15 × Fin 2) :=
  [(0,0),(0,1),(1,0),(1,1),(2,0),(2,1),(3,0),(3,1),(4,0),(4,1),(5,0),(5,1),(6,0),(6,1),(7,0),(7,1),
   (8,0),(8,1),(9,0),(9,1),(10,0),(10,1),(11,0),(11,1),(12,0),(12,1),(13,0),(13,1),(14,0),(14,1)]

theorem sbList_univ : (Finset.univ : Finset (Fin 15 × Fin 2)) = sbList.toFinset := by decide
theorem sbList_nodup : sbList.Nodup := by decide

/-- chains over one list whose conjuncts are equal are equal -/
theorem bigSepL_congr {I : Type} (l : List I) (Φ Ψ : I → sProp 𝕄) (h : ∀ i ∈ l, Φ i = Ψ i) :
    bigSepL l Φ = bigSepL l Ψ := by
  induction l with
  | nil => rfl
  | cons i l ih =>
    rw [bigSepL_cons, bigSepL_cons, h i (List.mem_cons_self ..), ih fun j hj => h j (List.mem_cons_of_mem _ hj)]

/-- a chain is monotone in its conjuncts -/
theorem bigSepL_mono {I : Type} (l : List I) (Φ Ψ : I → sProp 𝕄) (h : ∀ i ∈ l, Φ i ⊢ Ψ i) :
    bigSepL l Φ ⊢ bigSepL l Ψ := by
  induction l with
  | nil => exact .rfl
  | cons i l ih =>
    rw [bigSepL_cons, bigSepL_cons]
    exact BI.sep_mono (h i (List.mem_cons_self ..)) (ih fun j hj => h j (List.mem_cons_of_mem _ hj))

/-- all thirty slots of a ring buffer as the chain over the listed pairs -/
theorem allSlots_eq (cw : Bool) (d : Dev nD) : allSlots (F := F) cw d = bigSepL sbList fun sb =>
    iprop(∃ f, (slot (bufOf cw) sb.1.val (64 * sb.2.val) (slot_inb _ _ sb.1.isLt sb.2.isLt)).view.loc (d : Thread nD τ)
      ↦[(slot (bufOf cw) sb.1.val (64 * sb.2.val) (slot_inb _ _ sb.1.isLt sb.2.isLt)).view.set]{fullShare} f) := by
  unfold allSlots
  exact bigSep_univ_eq_bigSepL sbList sbList_univ sbList_nodup _

/-- thirty slots at given contents are thirty slots at some contents -/
theorem slots_intro_gen (cw : Bool) (d : Dev nD)
    (f : Fin 15 × Fin 2 → Buf (Elt F) ((bufOf cw).view.loc (d : Thread nD τ))) :
    (bigSepL sbList fun sb =>
      iprop((slot (bufOf cw) sb.1.val (64 * sb.2.val) (slot_inb _ _ sb.1.isLt sb.2.isLt)).view.loc (d : Thread nD τ)
        ↦[(slot (bufOf cw) sb.1.val (64 * sb.2.val) (slot_inb _ _ sb.1.isLt sb.2.isLt)).view.set]{fullShare} f sb))
      ⊢ allSlots (F := F) cw d := by
  rw [allSlots_eq]
  exact bigSepL_mono _ _ _ fun sb _ => exists_intro (f sb)

/-! ## Offsets that name the same chunk -/

/-- the offset of a sub-block depends on the chunk's number only modulo sixteen -/
theorem off_congr (cw : Bool) {k k' : ℕ} (b : ℕ) (h : k % 16 = k' % 16) : off cw k b = off cw k' b := by
  unfold off; rw [h]

/-- windows at equal offsets are one window -/
theorem rowsEx_congr (d : Dev nD) {o o' : Fin 2 → ℕ} (e : o = o')
    (h : ∀ a, o a + S64x1024.size a ≤ S4096x1024.size a) (h' : ∀ a, o' a + S64x1024.size a ≤ S4096x1024.size a) :
    (iprop(∃ f, (rows oM o h).view.loc (d : Thread nD τ) ↦[(rows oM o h).view.set]{fullShare} f) : sProp 𝕄)
      = iprop(∃ f, (rows oM o' h').view.loc (d : Thread nD τ) ↦[(rows oM o' h').view.set]{fullShare} f) := by
  subst e; rfl

/-- the thirty sub-blocks device `d` receives in a direction, named by their shifts `Jf` from another device `c` -/
theorem allRows_shift (cw : Bool) (d c : Dev nD) (Jf : ℕ → ℕ)
    (hJ : ∀ h, h < 15 → (d.val + agShift cw h) % 16 = (c.val + Jf h) % 16) :
    allRows (F := F) cw d = bigSepL sbList fun hb =>
      iprop(∃ f, (rows oM (off cw (c.val + Jf hb.1.val) hb.2.val) (off_inb cw _ hb.2)).view.loc (d : Thread nD τ)
        ↦[(rows oM (off cw (c.val + Jf hb.1.val) hb.2.val) (off_inb cw _ hb.2)).view.set]{fullShare} f) := by
  unfold allRows
  rw [bigSep_univ_eq_bigSepL sbList sbList_univ sbList_nodup]
  exact bigSepL_congr _ _ _ fun hb _ => rowsEx_congr d (off_congr cw _ (hJ hb.1.val hb.1.isLt)) _ _

/-- the next device receives, at step `h` of the gather towards it, the chunk `16 - h` places above `c`'s -/
theorem shift_nxt (c : Dev nD) (h : ℕ) (hh : h < 15) :
    ((nxt c).val + agShift true h) % 16 = (c.val + (16 - h) % 16) % 16 := by
  show ((c.val + 1) % 16 + (15 - h)) % 16 = (c.val + (16 - h) % 16) % 16
  omega

/-- the previous device receives, at step `h` of the gather towards it, the chunk `h` places above `c`'s -/
theorem shift_prv (c : Dev nD) (h : ℕ) (hh : h < 15) :
    ((prv c).val + agShift false h) % 16 = (c.val + h) % 16 := by
  show ((c.val + 15) % 16 + (1 + h)) % 16 = (c.val + h) % 16
  omega

end Cert.KernelIdeal.RSAG

end
-- ==== Proof.LinksLib.lean ====
import proofs.«901013_g7700000000001014_dist_rs_then_ag_i_m4096_n1024_v7x_i16_f32_1_alg».proof.Proof.Tables
import proofs.«901013_g7700000000001014_dist_rs_then_ag_i_m4096_n1024_v7x_i16_f32_1_alg».proof.Proof.Canon
import proofs.«901013_g7700000000001014_dist_rs_then_ag_i_m4096_n1024_v7x_i16_f32_1_alg».proof.Proof.SplitLib

/-! What a device's neighbour receives, told in the device's own terms.

    A transfer fired by device `c` lands on its neighbour, and the neighbour's receive cell names what lands in the
    neighbour's terms: the partial sum the neighbour receives at a step, or the finished sub-block of the chunk so many
    places above the neighbour. Going one step back round the ring from the neighbour is `c` itself, so each of these
    is something `c` holds: at the first step of the reduce-scatter the rows of `c`'s own staged block, at a later step
    the sum `c` formed at the step before, and in the all-gather the finished sub-block of the chunk one place further
    (or nearer) counted from `c`. A window's offset depends on its chunk's number only modulo sixteen. -/

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## The values -/

/-- windows at equal offsets read equal arrays equally -/
theorem piece_congr {o o' : Fin 2 → ℕ} (e : o = o') (h : ∀ a, o a + S64x1024.size a ≤ S4096x1024.size a)
    (h' : ∀ a, o' a + S64x1024.size a ≤ S4096x1024.size a) {Y Y' : S4096x1024.Idx → Elt F .f32} (eY : Y = Y') :
    piece o h Y = piece o' h' Y' := by
  subst e eY; rfl

/-- at the first step the next device receives rows of `c`'s own staged block: those of the chunk fifteen places above `c`'s -/
theorem recvV_zero_nxt (b : Fin 2) (c : Dev nD) :
    recvV X true b 0 (nxt c)
      = (rows xM (off true (c.val + 15) b.val) (off_inb true (c.val + 15) b)).view.read (Elt F) (X c) := by
  rw [recvV]
  exact piece_congr
    (off_mod true b.val (by show ((c.val + 1) % 16 + 32 - 2 - 0) % 16 = (c.val + 15) % 16; omega)) _ _
    (congrArg X (prv_nxt c))

/-- at the first step the previous device receives rows of `c`'s own staged block: those of the chunk one place above `c`'s -/
theorem recvV_zero_prv (b : Fin 2) (c : Dev nD) :
    recvV X false b 0 (prv c)
      = (rows xM (off false (c.val + 1) b.val) (off_inb false (c.val + 1) b)).view.read (Elt F) (X c) := by
  rw [recvV]
  exact piece_congr
    (off_mod false b.val (by show ((c.val + 15) % 16 + 2 + 0) % 16 = (c.val + 1) % 16; omega)) _ _
    (congrArg X (nxt_prv c))

/-- at a later step the next device receives the sum `c` formed at the step before -/
theorem recvV_succ_nxt (b : Fin 2) (t : ℕ) (c : Dev nD) : recvV X true b (t + 1) (nxt c) = addV X true b t c := by
  rw [recvV]
  exact congrArg (addV X true b t) (prv_nxt c)

/-- at a later step the previous device receives the sum `c` formed at the step before -/
theorem recvV_succ_prv (b : Fin 2) (t : ℕ) (c : Dev nD) : recvV X false b (t + 1) (prv c) = addV X false b t c := by
  rw [recvV]
  exact congrArg (addV X false b t) (nxt_prv c)

/-! ## The devices -/

/-- `j` places above the next device is `j + 1` places above `c` -/
theorem devAt_nxt (c : Dev nD) (j : ℕ) : devAt (nxt c) j = devAt c (j + 1) :=
  Fin.ext (by show ((c.val + 1) % 16 + j) % 16 = (c.val + (j + 1)) % 16; omega)

/-- `j + 1` places above the previous device is `j` places above `c` -/
theorem devAt_prv (c : Dev nD) (j : ℕ) : devAt (prv c) (j + 1) = devAt c j :=
  Fin.ext (by show ((c.val + 15) % 16 + (j + 1)) % 16 = (c.val + j) % 16; omega)

/-- fifteen places above the next device is `c` -/
theorem devAt_nxt_last (c : Dev nD) : devAt (nxt c) 15 = c := by
  have hc : c.val < 16 := c.isLt
  exact Fin.ext (by show ((c.val + 1) % 16 + 15) % 16 = c.val; omega)

/-- one place above the previous device is `c` -/
theorem devAt_prv_first (c : Dev nD) : devAt (prv c) 1 = c := by
  have hc : c.val < 16 := c.isLt
  exact Fin.ext (by show ((c.val + 15) % 16 + 1) % 16 = c.val; omega)

/-! ## What the neighbour owns on landing -/

/-- owning one window of the staged result at equal offsets and equal contents -/
theorem owns_rows_link (d : Dev nD) {o o' : Fin 2 → ℕ} (e : o = o') (h : ∀ a, o a + S64x1024.size a ≤ S4096x1024.size a)
    (h' : ∀ a, o' a + S64x1024.size a ≤ S4096x1024.size a) {v v' : S64x1024.Idx → Elt F .f32} (ev : v = v') :
    (owns (d : Thread nD τ) (rows oM o h) fullShare v : sProp 𝕄) = owns (d : Thread nD τ) (rows oM o' h') fullShare v' := by
  subst e ev; rfl

/-- reduce-scatter towards the next device, first step -/
theorem link_rs_cw_zero (c : Dev nD) (b : Fin 2) (M : Memref sig .tc .vmem S64x1024 .f32) :
    (owns (nxt c : Thread nD τ) M fullShare (recvV X true b 0 (nxt c)) : sProp 𝕄)
      = owns (nxt c : Thread nD τ) M fullShare
          ((rows xM (off true (c.val + 15) b.val) (off_inb true (c.val + 15) b)).view.read (Elt F) (X c)) := by
  rw [recvV_zero_nxt]

/-- reduce-scatter towards the next device, a later step -/
theorem link_rs_cw_succ (c : Dev nD) (b : Fin 2) (t : ℕ) (M : Memref sig .tc .vmem S64x1024 .f32) :
    (owns (nxt c : Thread nD τ) M fullShare (recvV X true b (t + 1) (nxt c)) : sProp 𝕄)
      = owns (nxt c : Thread nD τ) M fullShare (addV X true b t c) := by
  rw [recvV_succ_nxt]

/-- reduce-scatter towards the previous device, first step -/
theorem link_rs_ccw_zero (c : Dev nD) (b : Fin 2) (M : Memref sig .tc .vmem S64x1024 .f32) :
    (owns (prv c : Thread nD τ) M fullShare (recvV X false b 0 (prv c)) : sProp 𝕄)
      = owns (prv c : Thread nD τ) M fullShare
          ((rows xM (off false (c.val + 1) b.val) (off_inb false (c.val + 1) b)).view.read (Elt F) (X c)) := by
  rw [recvV_zero_prv]

/-- reduce-scatter towards the previous device, a later step -/
theorem link_rs_ccw_succ (c : Dev nD) (b : Fin 2) (t : ℕ) (M : Memref sig .tc .vmem S64x1024 .f32) :
    (owns (prv c : Thread nD τ) M fullShare (recvV X false b (t + 1) (prv c)) : sProp 𝕄)
      = owns (prv c : Thread nD τ) M fullShare (addV X false b t c) := by
  rw [recvV_succ_prv]

/-- all-gather towards the next device, first step: `c`'s own finished sub-block lands in the window of `c`'s chunk -/
theorem link_ag_cw_zero (c : Dev nD) (b : Fin 2) :
    (owns (nxt c : Thread nD τ) (rows oM (off true ((nxt c).val + 15) b.val) (off_inb true ((nxt c).val + 15) b)) fullShare
        (doneV X true b (devAt (nxt c) 15)) : sProp 𝕄)
      = owns (nxt c : Thread nD τ) (rows oM (off true (c.val + 0) b.val) (off_inb true (c.val + 0) b)) fullShare
          (addV X true b 14 c) :=
  owns_rows_link (nxt c)
    (off_mod true b.val (by show ((c.val + 1) % 16 + 15) % 16 = (c.val + 0) % 16; omega)) _ _
    (by show addV X true b 14 (devAt (nxt c) 15) = _; rw [devAt_nxt_last])

/-- all-gather towards the next device, a later step: the chunk `j` places above the neighbour is `j + 1` places above `c` -/
theorem link_ag_cw_succ (c : Dev nD) (b : Fin 2) (j : ℕ) :
    (owns (nxt c : Thread nD τ) (rows oM (off true ((nxt c).val + j) b.val) (off_inb true ((nxt c).val + j) b)) fullShare
        (doneV X true b (devAt (nxt c) j)) : sProp 𝕄)
      = owns (nxt c : Thread nD τ) (rows oM (off true (c.val + (j + 1)) b.val) (off_inb true (c.val + (j + 1)) b)) fullShare
          (doneV X true b (devAt c (j + 1))) :=
  owns_rows_link (nxt c)
    (off_mod true b.val (by show ((c.val + 1) % 16 + j) % 16 = (c.val + (j + 1)) % 16; omega)) _ _
    (by rw [devAt_nxt])

/-- all-gather towards the previous device, first step: `c`'s own finished sub-block lands in the window of `c`'s chunk -/
theorem link_ag_ccw_zero (c : Dev nD) (b : Fin 2) :
    (owns (prv c : Thread nD τ) (rows oM (off false ((prv c).val + 1) b.val) (off_inb false ((prv c).val + 1) b)) fullShare
        (doneV X false b (devAt (prv c) 1)) : sProp 𝕄)
      = owns (prv c : Thread nD τ) (rows oM (off false (c.val + 0) b.val) (off_inb false (c.val + 0) b)) fullShare
          (addV X false b 14 c) :=
  owns_rows_link (prv c)
    (off_mod false b.val (by show ((c.val + 15) % 16 + 1) % 16 = (c.val + 0) % 16; omega)) _ _
    (by show addV X false b 14 (devAt (prv c) 1) = _; rw [devAt_prv_first])

/-- all-gather towards the previous device, a later step: the chunk `j + 1` places above the neighbour is `j` places above `c` -/
theorem link_ag_ccw_succ (c : Dev nD) (b : Fin 2) (j : ℕ) :
    (owns (prv c : Thread nD τ) (rows oM (off false ((prv c).val + (j + 1)) b.val) (off_inb false ((prv c).val + (j + 1)) b)) fullShare
        (doneV X false b (devAt (prv c) (j + 1))) : sProp 𝕄)
      = owns (prv c : Thread nD τ) (rows oM (off false (c.val + j) b.val) (off_inb false (c.val + j) b)) fullShare
          (doneV X false b (devAt c j)) :=
  owns_rows_link (prv c)
    (off_mod false b.val (by show ((c.val + 15) % 16 + (j + 1)) % 16 = (c.val + j) % 16; omega)) _ _
    (by rw [devAt_prv])

/-! ## A step's sum with the device's own rows named by a shift of its chunk -/

/-- the sum a device forms at a step, its own rows' window named by any chunk number congruent to the step's chunk -/
theorem addV_eq (cw : Bool) (b : Fin 2) (s : ℕ) (c : Dev nD) (J : ℕ) (hJ : (c.val + J) % 16 = chunkAt cw c s % 16) :
    addV X cw b s c
      = kadd (recvV X cw b s c) (piece (off cw (c.val + J) b.val) (off_inb cw (c.val + J) b) (X c)) := by
  rw [addV]
  exact congrArg (kadd (recvV X cw b s c)) (piece_congr (off_mod cw b.val hJ.symm) _ _ rfl)

end Cert.KernelIdeal.RSAG

end
-- ==== Proof.Links.lean ====
import proofs.«901013_g7700000000001014_dist_rs_then_ag_i_m4096_n1024_v7x_i16_f32_1_alg».proof.Proof.LinksLib

/-! The neighbour's receive cells and the steps' sums, case by case.

    For each of the 120 transfers a device `c` fires, the payload of the receive cell on the neighbour it lands on,
    written in `c`'s own terms; and for each direction, step and sub-block the sum `c` forms, its own rows' window named
    by the literal shift of its chunk. Every line instantiates one general lemma. -/

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## The neighbour's receive cells -/

theorem hp2_rscw_r_0_0 (c : Dev nD) : (Rd (F := F) X).payload (dcell (nxt c) (qR cc0_scratch3 0 0 inb_S15x2_S1x1_0_0)) 0 false = owns (nxt c : Thread nD τ) (slot aM 0 0 inb_S15x128x1024_S1x64x1024_0_0_0) fullShare ((rows xM (off true (c.val + 15) 0) (off_inb true (c.val + 15) ⟨0, by decide⟩)).view.read (Elt F) (X c)) := (payload_rscw_r_0_0 X (nxt c) false).trans (link_rs_cw_zero X c 0 _)
theorem hp2_rscw_r_0_1 (c : Dev nD) : (Rd (F := F) X).payload (dcell (nxt c) (qR cc0_scratch3 0 1 inb_S15x2_S1x1_0_1)) 0 false = owns (nxt c : Thread nD τ) (slot aM 0 64 inb_S15x128x1024_S1x64x1024_0_64_0) fullShare ((rows xM (off true (c.val + 15) 1) (off_inb true (c.val + 15) ⟨1, by decide⟩)).view.read (Elt F) (X c)) := (payload_rscw_r_0_1 X (nxt c) false).trans (link_rs_cw_zero X c 1 _)
theorem hp2_rscw_r_1_0 (c : Dev nD) : (Rd (F := F) X).payload (dcell (nxt c) (qR cc0_scratch3 1 0 inb_S15x2_S1x1_1_0)) 0 false = owns (nxt c : Thread nD τ) (slot aM 1 0 inb_S15x128x1024_S1x64x1024_1_0_0) fullShare (addV X true 0 0 c) := (payload_rscw_r_1_0 X (nxt c) false).trans (link_rs_cw_succ X c 0 0 _)
theorem hp2_rscw_r_1_1 (c : Dev nD) : (Rd (F := F) X).payload (dcell (nxt c) (qR cc0_scratch3 1 1 inb_S15x2_S1x1_1_1)) 0 false = owns (nxt c : Thread nD τ) (slot aM 1 64 inb_S15x128x1024_S1x64x1024_1_64_0) fullShare (addV X true 1 0 c) := (payload_rscw_r_1_1 X (nxt c) false).trans (link_rs_cw_succ X c 1 0 _)
theorem hp2_rscw_r_2_0 (c : Dev nD) : (Rd (F := F) X).payload (dcell (nxt c) (qR cc0_scratch3 2 0 inb_S15x2_S1x1_2_0)) 0 false = owns (nxt c : Thread nD τ) (slot aM 2 0 inb_S15x128x1024_S1x64x1024_2_0_0) fullShare (addV X true 0 1 c) := (payload_rscw_r_2_0 X (nxt c) false).trans (link_rs_cw_succ X c 0 1 _)
theorem hp2_rscw_r_2_1 (c : Dev nD) : (Rd (F := F) X).payload (dcell (nxt c) (qR cc0_scratch3 2 1 inb_S15x2_S1x1_2_1)) 0 false = owns (nxt c : Thread nD τ) (slot aM 2 64 inb_S15x128x1024_S1x64x1024_2_64_0) fullShare (addV X true 1 1 c) := (payload_rscw_r_2_1 X (nxt c) false).trans (link_rs_cw_succ X c 1 1 _)
theorem hp2_rscw_r_3_0 (c : Dev nD) : (Rd (F := F) X).payload (dcell (nxt c) (qR cc0_scratch3 3 0 inb_S15x2_S1x1_3_0)) 0 false = owns (nxt c : Thread nD τ) (slot aM 3 0 inb_S15x128x1024_S1x64x1024_3_0_0) fullShare (addV X true 0 2 c) := (payload_rscw_r_3_0 X (nxt c) false).trans (link_rs_cw_succ X c 0 2 _)
theorem hp2_rscw_r_3_1 (c : Dev nD) : (Rd (F := F) X).payload (dcell (nxt c) (qR cc0_scratch3 3 1 inb_S15x2_S1x1_3_1)) 0 false = owns (nxt c : Thread nD τ) (slot aM 3 64 inb_S15x128x1024_S1x64x1024_3_64_0) fullShare (addV X true 1 2 c) := (payload_rscw_r_3_1 X (nxt c) false).trans (link_rs_cw_succ X c 1 2 _)
theorem hp2_rscw_r_4_0 (c : Dev nD) : (Rd (F := F) X).payload (dcell (nxt c) (qR cc0_scratch3 4 0 inb_S15x2_S1x1_4_0)) 0 false = owns (nxt c : Thread nD τ) (slot aM 4 0 inb_S15x128x1024_S1x64x1024_4_0_0) fullShare (addV X true 0 3 c) := (payload_rscw_r_4_0 X (nxt c) false).trans (link_rs_cw_succ X c 0 3 _)
theorem hp2_rscw_r_4_1 (c : Dev nD) : (Rd (F := F) X).payload (dcell (nxt c) (qR cc0_scratch3 4 1 inb_S15x2_S1x1_4_1)) 0 false = owns (nxt c : Thread nD τ) (slot aM 4 64 inb_S15x128x1024_S1x64x1024_4_64_0) fullShare (addV X true 1 3 c) := (payload_rscw_r_4_1 X (nxt c) false).trans (link_rs_cw_succ X c 1 3 _)
theorem hp2_rscw_r_5_0 (c : Dev nD) : (Rd (F := F) X).payload (dcell (nxt c) (qR cc0_scratch3 5 0 inb_S15x2_S1x1_5_0)) 0 false = owns (nxt c : Thread nD τ) (slot aM 5 0 inb_S15x128x1024_S1x64x1024_5_0_0) fullShare (addV X true 0 4 c) := (payload_rscw_r_5_0 X (nxt c) false).trans (link_rs_cw_succ X c 0 4 _)
theorem hp2_rscw_r_5_1 (c : Dev nD) : (Rd (F := F) X).payload (dcell (nxt c) (qR cc0_scratch3 5 1 inb_S15x2_S1x1_5_1)) 0 false = owns (nxt c : Thread nD τ) (slot aM 5 64 inb_S15x128x1024_S1x64x1024_5_64_0) fullShare (addV X true 1 4 c) := (payload_rscw_r_5_1 X (nxt c) false).trans (link_rs_cw_succ X c 1 4 _)
theorem hp2_rscw_r_6_0 (c : Dev nD) : (Rd (F := F) X).payload (dcell (nxt c) (qR cc0_scratch3 6 0 inb_S15x2_S1x1_6_0)) 0 false = owns (nxt c : Thread nD τ) (slot aM 6 0 inb_S15x128x1024_S1x64x1024_6_0_0) fullShare (addV X true 0 5 c) := (payload_rscw_r_6_0 X (nxt c) false).trans (link_rs_cw_succ X c 0 5 _)
theorem hp2_rscw_r_6_1 (c : Dev nD) : (Rd (F := F) X).payload (dcell (nxt c) (qR cc0_scratch3 6 1 inb_S15x2_S1x1_6_1)) 0 false = owns (nxt c : Thread nD τ) (slot aM 6 64 inb_S15x128x1024_S1x64x1024_6_64_0) fullShare (addV X true 1 5 c) := (payload_rscw_r_6_1 X (nxt c) false).trans (link_rs_cw_succ X c 1 5 _)
theorem hp2_rscw_r_7_0 (c : Dev nD) : (Rd (F := F) X).payload (dcell (nxt c) (qR cc0_scratch3 7 0 inb_S15x2_S1x1_7_0)) 0 false = owns (nxt c : Thread nD τ) (slot aM 7 0 inb_S15x128x1024_S1x64x1024_7_0_0) fullShare (addV X true 0 6 c) := (payload_rscw_r_7_0 X (nxt c) false).trans (link_rs_cw_succ X c 0 6 _)
theorem hp2_rscw_r_7_1 (c : Dev nD) : (Rd (F := F) X).payload (dcell (nxt c) (qR cc0_scratch3 7 1 inb_S15x2_S1x1_7_1)) 0 false = owns (nxt c : Thread nD τ) (slot aM 7 64 inb_S15x128x1024_S1x64x1024_7_64_0) fullShare (addV X true 1 6 c) := (payload_rscw_r_7_1 X (nxt c) false).trans (link_rs_cw_succ X c 1 6 _)
theorem hp2_rscw_r_8_0 (c : Dev nD) : (Rd (F := F) X).payload (dcell (nxt c) (qR cc0_scratch3 8 0 inb_S15x2_S1x1_8_0)) 0 false = owns (nxt c : Thread nD τ) (slot aM 8 0 inb_S15x128x1024_S1x64x1024_8_0_0) fullShare (addV X true 0 7 c) := (payload_rscw_r_8_0 X (nxt c) false).trans (link_rs_cw_succ X c 0 7 _)
theorem hp2_rscw_r_8_1 (c : Dev nD) : (Rd (F := F) X).payload (dcell (nxt c) (qR cc0_scratch3 8 1 inb_S15x2_S1x1_8_1)) 0 false = owns (nxt c : Thread nD τ) (slot aM 8 64 inb_S15x128x1024_S1x64x1024_8_64_0) fullShare (addV X true 1 7 c) := (payload_rscw_r_8_1 X (nxt c) false).trans (link_rs_cw_succ X c 1 7 _)
theorem hp2_rscw_r_9_0 (c : Dev nD) : (Rd (F := F) X).payload (dcell (nxt c) (qR cc0_scratch3 9 0 inb_S15x2_S1x1_9_0)) 0 false = owns (nxt c : Thread nD τ) (slot aM 9 0 inb_S15x128x1024_S1x64x1024_9_0_0) fullShare (addV X true 0 8 c) := (payload_rscw_r_9_0 X (nxt c) false).trans (link_rs_cw_succ X c 0 8 _)
theorem hp2_rscw_r_9_1 (c : Dev nD) : (Rd (F := F) X).payload (dcell (nxt c) (qR cc0_scratch3 9 1 inb_S15x2_S1x1_9_1)) 0 false = owns (nxt c : Thread nD τ) (slot aM 9 64 inb_S15x128x1024_S1x64x1024_9_64_0) fullShare (addV X true 1 8 c) := (payload_rscw_r_9_1 X (nxt c) false).trans (link_rs_cw_succ X c 1 8 _)
theorem hp2_rscw_r_10_0 (c : Dev nD) : (Rd (F := F) X).payload (dcell (nxt c) (qR cc0_scratch3 10 0 inb_S15x2_S1x1_10_0)) 0 false = owns (nxt c : Thread nD τ) (slot aM 10 0 inb_S15x128x1024_S1x64x1024_10_0_0) fullShare (addV X true 0 9 c) := (payload_rscw_r_10_0 X (nxt c) false).trans (link_rs_cw_succ X c 0 9 _)
theorem hp2_rscw_r_10_1 (c : Dev nD) : (Rd (F := F) X).payload (dcell (nxt c) (qR cc0_scratch3 10 1 inb_S15x2_S1x1_10_1)) 0 false = owns (nxt c : Thread nD τ) (slot aM 10 64 inb_S15x128x1024_S1x64x1024_10_64_0) fullShare (addV X true 1 9 c) := (payload_rscw_r_10_1 X (nxt c) false).trans (link_rs_cw_succ X c 1 9 _)
theorem hp2_rscw_r_11_0 (c : Dev nD) : (Rd (F := F) X).payload (dcell (nxt c) (qR cc0_scratch3 11 0 inb_S15x2_S1x1_11_0)) 0 false = owns (nxt c : Thread nD τ) (slot aM 11 0 inb_S15x128x1024_S1x64x1024_11_0_0) fullShare (addV X true 0 10 c) := (payload_rscw_r_11_0 X (nxt c) false).trans (link_rs_cw_succ X c 0 10 _)
theorem hp2_rscw_r_11_1 (c : Dev nD) : (Rd (F := F) X).payload (dcell (nxt c) (qR cc0_scratch3 11 1 inb_S15x2_S1x1_11_1)) 0 false = owns (nxt c : Thread nD τ) (slot aM 11 64 inb_S15x128x1024_S1x64x1024_11_64_0) fullShare (addV X true 1 10 c) := (payload_rscw_r_11_1 X (nxt c) false).trans (link_rs_cw_succ X c 1 10 _)
theorem hp2_rscw_r_12_0 (c : Dev nD) : (Rd (F := F) X).payload (dcell (nxt c) (qR cc0_scratch3 12 0 inb_S15x2_S1x1_12_0)) 0 false = owns (nxt c : Thread nD τ) (slot aM 12 0 inb_S15x128x1024_S1x64x1024_12_0_0) fullShare (addV X true 0 11 c) := (payload_rscw_r_12_0 X (nxt c) false).trans (link_rs_cw_succ X c 0 11 _)
theorem hp2_rscw_r_12_1 (c : Dev nD) : (Rd (F := F) X).payload (dcell (nxt c) (qR cc0_scratch3 12 1 inb_S15x2_S1x1_12_1)) 0 false = owns (nxt c : Thread nD τ) (slot aM 12 64 inb_S15x128x1024_S1x64x1024_12_64_0) fullShare (addV X true 1 11 c) := (payload_rscw_r_12_1 X (nxt c) false).trans (link_rs_cw_succ X c 1 11 _)
theorem hp2_rscw_r_13_0 (c : Dev nD) : (Rd (F := F) X).payload (dcell (nxt c) (qR cc0_scratch3 13 0 inb_S15x2_S1x1_13_0)) 0 false = owns (nxt c : Thread nD τ) (slot aM 13 0 inb_S15x128x1024_S1x64x1024_13_0_0) fullShare (addV X true 0 12 c) := (payload_rscw_r_13_0 X (nxt c) false).trans (link_rs_cw_succ X c 0 12 _)
theorem hp2_rscw_r_13_1 (c : Dev nD) : (Rd (F := F) X).payload (dcell (nxt c) (qR cc0_scratch3 13 1 inb_S15x2_S1x1_13_1)) 0 false = owns (nxt c : Thread nD τ) (slot aM 13 64 inb_S15x128x1024_S1x64x1024_13_64_0) fullShare (addV X true 1 12 c) := (payload_rscw_r_13_1 X (nxt c) false).trans (link_rs_cw_succ X c 1 12 _)
theorem hp2_rscw_r_14_0 (c : Dev nD) : (Rd (F := F) X).payload (dcell (nxt c) (qR cc0_scratch3 14 0 inb_S15x2_S1x1_14_0)) 0 false = owns (nxt c : Thread nD τ) (slot aM 14 0 inb_S15x128x1024_S1x64x1024_14_0_0) fullShare (addV X true 0 13 c) := (payload_rscw_r_14_0 X (nxt c) false).trans (link_rs_cw_succ X c 0 13 _)
theorem hp2_rscw_r_14_1 (c : Dev nD) : (Rd (F := F) X).payload (dcell (nxt c) (qR cc0_scratch3 14 1 inb_S15x2_S1x1_14_1)) 0 false = owns (nxt c : Thread nD τ) (slot aM 14 64 inb_S15x128x1024_S1x64x1024_14_64_0) fullShare (addV X true 1 13 c) := (payload_rscw_r_14_1 X (nxt c) false).trans (link_rs_cw_succ X c 1 13 _)
theorem hp2_agcw_r_0_0 (c : Dev nD) : (Rd (F := F) X).payload (dcell (nxt c) (qR cc0_scratch7 0 0 inb_S15x2_S1x1_0_0)) 0 false = owns (nxt c : Thread nD τ) (rows oM (off true (c.val + 0) 0) (off_inb true (c.val + 0) ⟨0, by decide⟩)) fullShare (addV X true 0 14 c) := (payload_agcw_r_0_0 X (nxt c) false).trans (link_ag_cw_zero X c 0)
theorem hp2_agcw_r_0_1 (c : Dev nD) : (Rd (F := F) X).payload (dcell (nxt c) (qR cc0_scratch7 0 1 inb_S15x2_S1x1_0_1)) 0 false = owns (nxt c : Thread nD τ) (rows oM (off true (c.val + 0) 1) (off_inb true (c.val + 0) ⟨1, by decide⟩)) fullShare (addV X true 1 14 c) := (payload_agcw_r_0_1 X (nxt c) false).trans (link_ag_cw_zero X c 1)
theorem hp2_agcw_r_1_0 (c : Dev nD) : (Rd (F := F) X).payload (dcell (nxt c) (qR cc0_scratch7 1 0 inb_S15x2_S1x1_1_0)) 0 false = owns (nxt c : Thread nD τ) (rows oM (off true (c.val + 15) 0) (off_inb true (c.val + 15) ⟨0, by decide⟩)) fullShare (doneV X true 0 (devAt c 15)) := (payload_agcw_r_1_0 X (nxt c) false).trans (link_ag_cw_succ X c 0 14)
theorem hp2_agcw_r_1_1 (c : Dev nD) : (Rd (F := F) X).payload (dcell (nxt c) (qR cc0_scratch7 1 1 inb_S15x2_S1x1_1_1)) 0 false = owns (nxt c : Thread nD τ) (rows oM (off true (c.val + 15) 1) (off_inb true (c.val + 15) ⟨1, by decide⟩)) fullShare (doneV X true 1 (devAt c 15)) := (payload_agcw_r_1_1 X (nxt c) false).trans (link_ag_cw_succ X c 1 14)
theorem hp2_agcw_r_2_0 (c : Dev nD) : (Rd (F := F) X).payload (dcell (nxt c) (qR cc0_scratch7 2 0 inb_S15x2_S1x1_2_0)) 0 false = owns (nxt c : Thread nD τ) (rows oM (off true (c.val + 14) 0) (off_inb true (c.val + 14) ⟨0, by decide⟩)) fullShare (doneV X true 0 (devAt c 14)) := (payload_agcw_r_2_0 X (nxt c) false).trans (link_ag_cw_succ X c 0 13)
theorem hp2_agcw_r_2_1 (c : Dev nD) : (Rd (F := F) X).payload (dcell (nxt c) (qR cc0_scratch7 2 1 inb_S15x2_S1x1_2_1)) 0 false = owns (nxt c : Thread nD τ) (rows oM (off true (c.val + 14) 1) (off_inb true (c.val + 14) ⟨1, by decide⟩)) fullShare (doneV X true 1 (devAt c 14)) := (payload_agcw_r_2_1 X (nxt c) false).trans (link_ag_cw_succ X c 1 13)
theorem hp2_agcw_r_3_0 (c : Dev nD) : (Rd (F := F) X).payload (dcell (nxt c) (qR cc0_scratch7 3 0 inb_S15x2_S1x1_3_0)) 0 false = owns (nxt c : Thread nD τ) (rows oM (off true (c.val + 13) 0) (off_inb true (c.val + 13) ⟨0, by decide⟩)) fullShare (doneV X true 0 (devAt c 13)) := (payload_agcw_r_3_0 X (nxt c) false).trans (link_ag_cw_succ X c 0 12)
theorem hp2_agcw_r_3_1 (c : Dev nD) : (Rd (F := F) X).payload (dcell (nxt c) (qR cc0_scratch7 3 1 inb_S15x2_S1x1_3_1)) 0 false = owns (nxt c : Thread nD τ) (rows oM (off true (c.val + 13) 1) (off_inb true (c.val + 13) ⟨1, by decide⟩)) fullShare (doneV X true 1 (devAt c 13)) := (payload_agcw_r_3_1 X (nxt c) false).trans (link_ag_cw_succ X c 1 12)
theorem hp2_agcw_r_4_0 (c : Dev nD) : (Rd (F := F) X).payload (dcell (nxt c) (qR cc0_scratch7 4 0 inb_S15x2_S1x1_4_0)) 0 false = owns (nxt c : Thread nD τ) (rows oM (off true (c.val + 12) 0) (off_inb true (c.val + 12) ⟨0, by decide⟩)) fullShare (doneV X true 0 (devAt c 12)) := (payload_agcw_r_4_0 X (nxt c) false).trans (link_ag_cw_succ X c 0 11)
theorem hp2_agcw_r_4_1 (c : Dev nD) : (Rd (F := F) X).payload (dcell (nxt c) (qR cc0_scratch7 4 1 inb_S15x2_S1x1_4_1)) 0 false = owns (nxt c : Thread nD τ) (rows oM (off true (c.val + 12) 1) (off_inb true (c.val + 12) ⟨1, by decide⟩)) fullShare (doneV X true 1 (devAt c 12)) := (payload_agcw_r_4_1 X (nxt c) false).trans (link_ag_cw_succ X c 1 11)
theorem hp2_agcw_r_5_0 (c : Dev nD) : (Rd (F := F) X).payload (dcell (nxt c) (qR cc0_scratch7 5 0 inb_S15x2_S1x1_5_0)) 0 false = owns (nxt c : Thread nD τ) (rows oM (off true (c.val + 11) 0) (off_inb true (c.val + 11) ⟨0, by decide⟩)) fullShare (doneV X true 0 (devAt c 11)) := (payload_agcw_r_5_0 X (nxt c) false).trans (link_ag_cw_succ X c 0 10)
theorem hp2_agcw_r_5_1 (c : Dev nD) : (Rd (F := F) X).payload (dcell (nxt c) (qR cc0_scratch7 5 1 inb_S15x2_S1x1_5_1)) 0 false = owns (nxt c : Thread nD τ) (rows oM (off true (c.val + 11) 1) (off_inb true (c.val + 11) ⟨1, by decide⟩)) fullShare (doneV X true 1 (devAt c 11)) := (payload_agcw_r_5_1 X (nxt c) false).trans (link_ag_cw_succ X c 1 10)
theorem hp2_agcw_r_6_0 (c : Dev nD) : (Rd (F := F) X).payload (dcell (nxt c) (qR cc0_scratch7 6 0 inb_S15x2_S1x1_6_0)) 0 false = owns (nxt c : Thread nD τ) (rows oM (off true (c.val + 10) 0) (off_inb true (c.val + 10) ⟨0, by decide⟩)) fullShare (doneV X true 0 (devAt c 10)) := (payload_agcw_r_6_0 X (nxt c) false).trans (link_ag_cw_succ X c 0 9)
theorem hp2_agcw_r_6_1 (c : Dev nD) : (Rd (F := F) X).payload (dcell (nxt c) (qR cc0_scratch7 6 1 inb_S15x2_S1x1_6_1)) 0 false = owns (nxt c : Thread nD τ) (rows oM (off true (c.val + 10) 1) (off_inb true (c.val + 10) ⟨1, by decide⟩)) fullShare (doneV X true 1 (devAt c 10)) := (payload_agcw_r_6_1 X (nxt c) false).trans (link_ag_cw_succ X c 1 9)
theorem hp2_agcw_r_7_0 (c : Dev nD) : (Rd (F := F) X).payload (dcell (nxt c) (qR cc0_scratch7 7 0 inb_S15x2_S1x1_7_0)) 0 false = owns (nxt c : Thread nD τ) (rows oM (off true (c.val + 9) 0) (off_inb true (c.val + 9) ⟨0, by decide⟩)) fullShare (doneV X true 0 (devAt c 9)) := (payload_agcw_r_7_0 X (nxt c) false).trans (link_ag_cw_succ X c 0 8)
theorem hp2_agcw_r_7_1 (c : Dev nD) : (Rd (F := F) X).payload (dcell (nxt c) (qR cc0_scratch7 7 1 inb_S15x2_S1x1_7_1)) 0 false = owns (nxt c : Thread nD τ) (rows oM (off true (c.val + 9) 1) (off_inb true (c.val + 9) ⟨1, by decide⟩)) fullShare (doneV X true 1 (devAt c 9)) := (payload_agcw_r_7_1 X (nxt c) false).trans (link_ag_cw_succ X c 1 8)
theorem hp2_agcw_r_8_0 (c : Dev nD) : (Rd (F := F) X).payload (dcell (nxt c) (qR cc0_scratch7 8 0 inb_S15x2_S1x1_8_0)) 0 false = owns (nxt c : Thread nD τ) (rows oM (off true (c.val + 8) 0) (off_inb true (c.val + 8) ⟨0, by decide⟩)) fullShare (doneV X true 0 (devAt c 8)) := (payload_agcw_r_8_0 X (nxt c) false).trans (link_ag_cw_succ X c 0 7)
theorem hp2_agcw_r_8_1 (c : Dev nD) : (Rd (F := F) X).payload (dcell (nxt c) (qR cc0_scratch7 8 1 inb_S15x2_S1x1_8_1)) 0 false = owns (nxt c : Thread nD τ) (rows oM (off true (c.val + 8) 1) (off_inb true (c.val + 8) ⟨1, by decide⟩)) fullShare (doneV X true 1 (devAt c 8)) := (payload_agcw_r_8_1 X (nxt c) false).trans (link_ag_cw_succ X c 1 7)
theorem hp2_agcw_r_9_0 (c : Dev nD) : (Rd (F := F) X).payload (dcell (nxt c) (qR cc0_scratch7 9 0 inb_S15x2_S1x1_9_0)) 0 false = owns (nxt c : Thread nD τ) (rows oM (off true (c.val + 7) 0) (off_inb true (c.val + 7) ⟨0, by decide⟩)) fullShare (doneV X true 0 (devAt c 7)) := (payload_agcw_r_9_0 X (nxt c) false).trans (link_ag_cw_succ X c 0 6)
theorem hp2_agcw_r_9_1 (c : Dev nD) : (Rd (F := F) X).payload (dcell (nxt c) (qR cc0_scratch7 9 1 inb_S15x2_S1x1_9_1)) 0 false = owns (nxt c : Thread nD τ) (rows oM (off true (c.val + 7) 1) (off_inb true (c.val + 7) ⟨1, by decide⟩)) fullShare (doneV X true 1 (devAt c 7)) := (payload_agcw_r_9_1 X (nxt c) false).trans (link_ag_cw_succ X c 1 6)
theorem hp2_agcw_r_10_0 (c : Dev nD) : (Rd (F := F) X).payload (dcell (nxt c) (qR cc0_scratch7 10 0 inb_S15x2_S1x1_10_0)) 0 false = owns (nxt c : Thread nD τ) (rows oM (off true (c.val + 6) 0) (off_inb true (c.val + 6) ⟨0, by decide⟩)) fullShare (doneV X true 0 (devAt c 6)) := (payload_agcw_r_10_0 X (nxt c) false).trans (link_ag_cw_succ X c 0 5)
theorem hp2_agcw_r_10_1 (c : Dev nD) : (Rd (F := F) X).payload (dcell (nxt c) (qR cc0_scratch7 10 1 inb_S15x2_S1x1_10_1)) 0 false = owns (nxt c : Thread nD τ) (rows oM (off true (c.val + 6) 1) (off_inb true (c.val + 6) ⟨1, by decide⟩)) fullShare (doneV X true 1 (devAt c 6)) := (payload_agcw_r_10_1 X (nxt c) false).trans (link_ag_cw_succ X c 1 5)
theorem hp2_agcw_r_11_0 (c : Dev nD) : (Rd (F := F) X).payload (dcell (nxt c) (qR cc0_scratch7 11 0 inb_S15x2_S1x1_11_0)) 0 false = owns (nxt c : Thread nD τ) (rows oM (off true (c.val + 5) 0) (off_inb true (c.val + 5) ⟨0, by decide⟩)) fullShare (doneV X true 0 (devAt c 5)) := (payload_agcw_r_11_0 X (nxt c) false).trans (link_ag_cw_succ X c 0 4)
theorem hp2_agcw_r_11_1 (c : Dev nD) : (Rd (F := F) X).payload (dcell (nxt c) (qR cc0_scratch7 11 1 inb_S15x2_S1x1_11_1)) 0 false = owns (nxt c : Thread nD τ) (rows oM (off true (c.val + 5) 1) (off_inb true (c.val + 5) ⟨1, by decide⟩)) fullShare (doneV X true 1 (devAt c 5)) := (payload_agcw_r_11_1 X (nxt c) false).trans (link_ag_cw_succ X c 1 4)
theorem hp2_agcw_r_12_0 (c : Dev nD) : (Rd (F := F) X).payload (dcell (nxt c) (qR cc0_scratch7 12 0 inb_S15x2_S1x1_12_0)) 0 false = owns (nxt c : Thread nD τ) (rows oM (off true (c.val + 4) 0) (off_inb true (c.val + 4) ⟨0, by decide⟩)) fullShare (doneV X true 0 (devAt c 4)) := (payload_agcw_r_12_0 X (nxt c) false).trans (link_ag_cw_succ X c 0 3)
theorem hp2_agcw_r_12_1 (c : Dev nD) : (Rd (F := F) X).payload (dcell (nxt c) (qR cc0_scratch7 12 1 inb_S15x2_S1x1_12_1)) 0 false = owns (nxt c : Thread nD τ) (rows oM (off true (c.val + 4) 1) (off_inb true (c.val + 4) ⟨1, by decide⟩)) fullShare (doneV X true 1 (devAt c 4)) := (payload_agcw_r_12_1 X (nxt c) false).trans (link_ag_cw_succ X c 1 3)
theorem hp2_agcw_r_13_0 (c : Dev nD) : (Rd (F := F) X).payload (dcell (nxt c) (qR cc0_scratch7 13 0 inb_S15x2_S1x1_13_0)) 0 false = owns (nxt c : Thread nD τ) (rows oM (off true (c.val + 3) 0) (off_inb true (c.val + 3) ⟨0, by decide⟩)) fullShare (doneV X true 0 (devAt c 3)) := (payload_agcw_r_13_0 X (nxt c) false).trans (link_ag_cw_succ X c 0 2)
theorem hp2_agcw_r_13_1 (c : Dev nD) : (Rd (F := F) X).payload (dcell (nxt c) (qR cc0_scratch7 13 1 inb_S15x2_S1x1_13_1)) 0 false = owns (nxt c : Thread nD τ) (rows oM (off true (c.val + 3) 1) (off_inb true (c.val + 3) ⟨1, by decide⟩)) fullShare (doneV X true 1 (devAt c 3)) := (payload_agcw_r_13_1 X (nxt c) false).trans (link_ag_cw_succ X c 1 2)
theorem hp2_agcw_r_14_0 (c : Dev nD) : (Rd (F := F) X).payload (dcell (nxt c) (qR cc0_scratch7 14 0 inb_S15x2_S1x1_14_0)) 0 false = owns (nxt c : Thread nD τ) (rows oM (off true (c.val + 2) 0) (off_inb true (c.val + 2) ⟨0, by decide⟩)) fullShare (doneV X true 0 (devAt c 2)) := (payload_agcw_r_14_0 X (nxt c) false).trans (link_ag_cw_succ X c 0 1)
theorem hp2_agcw_r_14_1 (c : Dev nD) : (Rd (F := F) X).payload (dcell (nxt c) (qR cc0_scratch7 14 1 inb_S15x2_S1x1_14_1)) 0 false = owns (nxt c : Thread nD τ) (rows oM (off true (c.val + 2) 1) (off_inb true (c.val + 2) ⟨1, by decide⟩)) fullShare (doneV X true 1 (devAt c 2)) := (payload_agcw_r_14_1 X (nxt c) false).trans (link_ag_cw_succ X c 1 1)
theorem hp2_rsccw_r_0_0 (c : Dev nD) : (Rd (F := F) X).payload (dcell (prv c) (qR cc0_scratch5 0 0 inb_S15x2_S1x1_0_0)) 0 false = owns (prv c : Thread nD τ) (slot bM 0 0 inb_S15x128x1024_S1x64x1024_0_0_0) fullShare ((rows xM (off false (c.val + 1) 0) (off_inb false (c.val + 1) ⟨0, by decide⟩)).view.read (Elt F) (X c)) := (payload_rsccw_r_0_0 X (prv c) false).trans (link_rs_ccw_zero X c 0 _)
theorem hp2_rsccw_r_0_1 (c : Dev nD) : (Rd (F := F) X).payload (dcell (prv c) (qR cc0_scratch5 0 1 inb_S15x2_S1x1_0_1)) 0 false = owns (prv c : Thread nD τ) (slot bM 0 64 inb_S15x128x1024_S1x64x1024_0_64_0) fullShare ((rows xM (off false (c.val + 1) 1) (off_inb false (c.val + 1) ⟨1, by decide⟩)).view.read (Elt F) (X c)) := (payload_rsccw_r_0_1 X (prv c) false).trans (link_rs_ccw_zero X c 1 _)
theorem hp2_rsccw_r_1_0 (c : Dev nD) : (Rd (F := F) X).payload (dcell (prv c) (qR cc0_scratch5 1 0 inb_S15x2_S1x1_1_0)) 0 false = owns (prv c : Thread nD τ) (slot bM 1 0 inb_S15x128x1024_S1x64x1024_1_0_0) fullShare (addV X false 0 0 c) := (payload_rsccw_r_1_0 X (prv c) false).trans (link_rs_ccw_succ X c 0 0 _)
theorem hp2_rsccw_r_1_1 (c : Dev nD) : (Rd (F := F) X).payload (dcell (prv c) (qR cc0_scratch5 1 1 inb_S15x2_S1x1_1_1)) 0 false = owns (prv c : Thread nD τ) (slot bM 1 64 inb_S15x128x1024_S1x64x1024_1_64_0) fullShare (addV X false 1 0 c) := (payload_rsccw_r_1_1 X (prv c) false).trans (link_rs_ccw_succ X c 1 0 _)
theorem hp2_rsccw_r_2_0 (c : Dev nD) : (Rd (F := F) X).payload (dcell (prv c) (qR cc0_scratch5 2 0 inb_S15x2_S1x1_2_0)) 0 false = owns (prv c : Thread nD τ) (slot bM 2 0 inb_S15x128x1024_S1x64x1024_2_0_0) fullShare (addV X false 0 1 c) := (payload_rsccw_r_2_0 X (prv c) false).trans (link_rs_ccw_succ X c 0 1 _)
theorem hp2_rsccw_r_2_1 (c : Dev nD) : (Rd (F := F) X).payload (dcell (prv c) (qR cc0_scratch5 2 1 inb_S15x2_S1x1_2_1)) 0 false = owns (prv c : Thread nD τ) (slot bM 2 64 inb_S15x128x1024_S1x64x1024_2_64_0) fullShare (addV X false 1 1 c) := (payload_rsccw_r_2_1 X (prv c) false).trans (link_rs_ccw_succ X c 1 1 _)
theorem hp2_rsccw_r_3_0 (c : Dev nD) : (Rd (F := F) X).payload (dcell (prv c) (qR cc0_scratch5 3 0 inb_S15x2_S1x1_3_0)) 0 false = owns (prv c : Thread nD τ) (slot bM 3 0 inb_S15x128x1024_S1x64x1024_3_0_0) fullShare (addV X false 0 2 c) := (payload_rsccw_r_3_0 X (prv c) false).trans (link_rs_ccw_succ X c 0 2 _)
theorem hp2_rsccw_r_3_1 (c : Dev nD) : (Rd (F := F) X).payload (dcell (prv c) (qR cc0_scratch5 3 1 inb_S15x2_S1x1_3_1)) 0 false = owns (prv c : Thread nD τ) (slot bM 3 64 inb_S15x128x1024_S1x64x1024_3_64_0) fullShare (addV X false 1 2 c) := (payload_rsccw_r_3_1 X (prv c) false).trans (link_rs_ccw_succ X c 1 2 _)
theorem hp2_rsccw_r_4_0 (c : Dev nD) : (Rd (F := F) X).payload (dcell (prv c) (qR cc0_scratch5 4 0 inb_S15x2_S1x1_4_0)) 0 false = owns (prv c : Thread nD τ) (slot bM 4 0 inb_S15x128x1024_S1x64x1024_4_0_0) fullShare (addV X false 0 3 c) := (payload_rsccw_r_4_0 X (prv c) false).trans (link_rs_ccw_succ X c 0 3 _)
theorem hp2_rsccw_r_4_1 (c : Dev nD) : (Rd (F := F) X).payload (dcell (prv c) (qR cc0_scratch5 4 1 inb_S15x2_S1x1_4_1)) 0 false = owns (prv c : Thread nD τ) (slot bM 4 64 inb_S15x128x1024_S1x64x1024_4_64_0) fullShare (addV X false 1 3 c) := (payload_rsccw_r_4_1 X (prv c) false).trans (link_rs_ccw_succ X c 1 3 _)
theorem hp2_rsccw_r_5_0 (c : Dev nD) : (Rd (F := F) X).payload (dcell (prv c) (qR cc0_scratch5 5 0 inb_S15x2_S1x1_5_0)) 0 false = owns (prv c : Thread nD τ) (slot bM 5 0 inb_S15x128x1024_S1x64x1024_5_0_0) fullShare (addV X false 0 4 c) := (payload_rsccw_r_5_0 X (prv c) false).trans (link_rs_ccw_succ X c 0 4 _)
theorem hp2_rsccw_r_5_1 (c : Dev nD) : (Rd (F := F) X).payload (dcell (prv c) (qR cc0_scratch5 5 1 inb_S15x2_S1x1_5_1)) 0 false = owns (prv c : Thread nD τ) (slot bM 5 64 inb_S15x128x1024_S1x64x1024_5_64_0) fullShare (addV X false 1 4 c) := (payload_rsccw_r_5_1 X (prv c) false).trans (link_rs_ccw_succ X c 1 4 _)
theorem hp2_rsccw_r_6_0 (c : Dev nD) : (Rd (F := F) X).payload (dcell (prv c) (qR cc0_scratch5 6 0 inb_S15x2_S1x1_6_0)) 0 false = owns (prv c : Thread nD τ) (slot bM 6 0 inb_S15x128x1024_S1x64x1024_6_0_0) fullShare (addV X false 0 5 c) := (payload_rsccw_r_6_0 X (prv c) false).trans (link_rs_ccw_succ X c 0 5 _)
theorem hp2_rsccw_r_6_1 (c : Dev nD) : (Rd (F := F) X).payload (dcell (prv c) (qR cc0_scratch5 6 1 inb_S15x2_S1x1_6_1)) 0 false = owns (prv c : Thread nD τ) (slot bM 6 64 inb_S15x128x1024_S1x64x1024_6_64_0) fullShare (addV X false 1 5 c) := (payload_rsccw_r_6_1 X (prv c) false).trans (link_rs_ccw_succ X c 1 5 _)
theorem hp2_rsccw_r_7_0 (c : Dev nD) : (Rd (F := F) X).payload (dcell (prv c) (qR cc0_scratch5 7 0 inb_S15x2_S1x1_7_0)) 0 false = owns (prv c : Thread nD τ) (slot bM 7 0 inb_S15x128x1024_S1x64x1024_7_0_0) fullShare (addV X false 0 6 c) := (payload_rsccw_r_7_0 X (prv c) false).trans (link_rs_ccw_succ X c 0 6 _)
theorem hp2_rsccw_r_7_1 (c : Dev nD) : (Rd (F := F) X).payload (dcell (prv c) (qR cc0_scratch5 7 1 inb_S15x2_S1x1_7_1)) 0 false = owns (prv c : Thread nD τ) (slot bM 7 64 inb_S15x128x1024_S1x64x1024_7_64_0) fullShare (addV X false 1 6 c) := (payload_rsccw_r_7_1 X (prv c) false).trans (link_rs_ccw_succ X c 1 6 _)
theorem hp2_rsccw_r_8_0 (c : Dev nD) : (Rd (F := F) X).payload (dcell (prv c) (qR cc0_scratch5 8 0 inb_S15x2_S1x1_8_0)) 0 false = owns (prv c : Thread nD τ) (slot bM 8 0 inb_S15x128x1024_S1x64x1024_8_0_0) fullShare (addV X false 0 7 c) := (payload_rsccw_r_8_0 X (prv c) false).trans (link_rs_ccw_succ X c 0 7 _)
theorem hp2_rsccw_r_8_1 (c : Dev nD) : (Rd (F := F) X).payload (dcell (prv c) (qR cc0_scratch5 8 1 inb_S15x2_S1x1_8_1)) 0 false = owns (prv c : Thread nD τ) (slot bM 8 64 inb_S15x128x1024_S1x64x1024_8_64_0) fullShare (addV X false 1 7 c) := (payload_rsccw_r_8_1 X (prv c) false).trans (link_rs_ccw_succ X c 1 7 _)
theorem hp2_rsccw_r_9_0 (c : Dev nD) : (Rd (F := F) X).payload (dcell (prv c) (qR cc0_scratch5 9 0 inb_S15x2_S1x1_9_0)) 0 false = owns (prv c : Thread nD τ) (slot bM 9 0 inb_S15x128x1024_S1x64x1024_9_0_0) fullShare (addV X false 0 8 c) := (payload_rsccw_r_9_0 X (prv c) false).trans (link_rs_ccw_succ X c 0 8 _)
theorem hp2_rsccw_r_9_1 (c : Dev nD) : (Rd (F := F) X).payload (dcell (prv c) (qR cc0_scratch5 9 1 inb_S15x2_S1x1_9_1)) 0 false = owns (prv c : Thread nD τ) (slot bM 9 64 inb_S15x128x1024_S1x64x1024_9_64_0) fullShare (addV X false 1 8 c) := (payload_rsccw_r_9_1 X (prv c) false).trans (link_rs_ccw_succ X c 1 8 _)
theorem hp2_rsccw_r_10_0 (c : Dev nD) : (Rd (F := F) X).payload (dcell (prv c) (qR cc0_scratch5 10 0 inb_S15x2_S1x1_10_0)) 0 false = owns (prv c : Thread nD τ) (slot bM 10 0 inb_S15x128x1024_S1x64x1024_10_0_0) fullShare (addV X false 0 9 c) := (payload_rsccw_r_10_0 X (prv c) false).trans (link_rs_ccw_succ X c 0 9 _)
theorem hp2_rsccw_r_10_1 (c : Dev nD) : (Rd (F := F) X).payload (dcell (prv c) (qR cc0_scratch5 10 1 inb_S15x2_S1x1_10_1)) 0 false = owns (prv c : Thread nD τ) (slot bM 10 64 inb_S15x128x1024_S1x64x1024_10_64_0) fullShare (addV X false 1 9 c) := (payload_rsccw_r_10_1 X (prv c) false).trans (link_rs_ccw_succ X c 1 9 _)
theorem hp2_rsccw_r_11_0 (c : Dev nD) : (Rd (F := F) X).payload (dcell (prv c) (qR cc0_scratch5 11 0 inb_S15x2_S1x1_11_0)) 0 false = owns (prv c : Thread nD τ) (slot bM 11 0 inb_S15x128x1024_S1x64x1024_11_0_0) fullShare (addV X false 0 10 c) := (payload_rsccw_r_11_0 X (prv c) false).trans (link_rs_ccw_succ X c 0 10 _)
theorem hp2_rsccw_r_11_1 (c : Dev nD) : (Rd (F := F) X).payload (dcell (prv c) (qR cc0_scratch5 11 1 inb_S15x2_S1x1_11_1)) 0 false = owns (prv c : Thread nD τ) (slot bM 11 64 inb_S15x128x1024_S1x64x1024_11_64_0) fullShare (addV X false 1 10 c) := (payload_rsccw_r_11_1 X (prv c) false).trans (link_rs_ccw_succ X c 1 10 _)
theorem hp2_rsccw_r_12_0 (c : Dev nD) : (Rd (F := F) X).payload (dcell (prv c) (qR cc0_scratch5 12 0 inb_S15x2_S1x1_12_0)) 0 false = owns (prv c : Thread nD τ) (slot bM 12 0 inb_S15x128x1024_S1x64x1024_12_0_0) fullShare (addV X false 0 11 c) := (payload_rsccw_r_12_0 X (prv c) false).trans (link_rs_ccw_succ X c 0 11 _)
theorem hp2_rsccw_r_12_1 (c : Dev nD) : (Rd (F := F) X).payload (dcell (prv c) (qR cc0_scratch5 12 1 inb_S15x2_S1x1_12_1)) 0 false = owns (prv c : Thread nD τ) (slot bM 12 64 inb_S15x128x1024_S1x64x1024_12_64_0) fullShare (addV X false 1 11 c) := (payload_rsccw_r_12_1 X (prv c) false).trans (link_rs_ccw_succ X c 1 11 _)
theorem hp2_rsccw_r_13_0 (c : Dev nD) : (Rd (F := F) X).payload (dcell (prv c) (qR cc0_scratch5 13 0 inb_S15x2_S1x1_13_0)) 0 false = owns (prv c : Thread nD τ) (slot bM 13 0 inb_S15x128x1024_S1x64x1024_13_0_0) fullShare (addV X false 0 12 c) := (payload_rsccw_r_13_0 X (prv c) false).trans (link_rs_ccw_succ X c 0 12 _)
theorem hp2_rsccw_r_13_1 (c : Dev nD) : (Rd (F := F) X).payload (dcell (prv c) (qR cc0_scratch5 13 1 inb_S15x2_S1x1_13_1)) 0 false = owns (prv c : Thread nD τ) (slot bM 13 64 inb_S15x128x1024_S1x64x1024_13_64_0) fullShare (addV X false 1 12 c) := (payload_rsccw_r_13_1 X (prv c) false).trans (link_rs_ccw_succ X c 1 12 _)
theorem hp2_rsccw_r_14_0 (c : Dev nD) : (Rd (F := F) X).payload (dcell (prv c) (qR cc0_scratch5 14 0 inb_S15x2_S1x1_14_0)) 0 false = owns (prv c : Thread nD τ) (slot bM 14 0 inb_S15x128x1024_S1x64x1024_14_0_0) fullShare (addV X false 0 13 c) := (payload_rsccw_r_14_0 X (prv c) false).trans (link_rs_ccw_succ X c 0 13 _)
theorem hp2_rsccw_r_14_1 (c : Dev nD) : (Rd (F := F) X).payload (dcell (prv c) (qR cc0_scratch5 14 1 inb_S15x2_S1x1_14_1)) 0 false = owns (prv c : Thread nD τ) (slot bM 14 64 inb_S15x128x1024_S1x64x1024_14_64_0) fullShare (addV X false 1 13 c) := (payload_rsccw_r_14_1 X (prv c) false).trans (link_rs_ccw_succ X c 1 13 _)
theorem hp2_agccw_r_0_0 (c : Dev nD) : (Rd (F := F) X).payload (dcell (prv c) (qR cc0_scratch9 0 0 inb_S15x2_S1x1_0_0)) 0 false = owns (prv c : Thread nD τ) (rows oM (off false (c.val + 0) 0) (off_inb false (c.val + 0) ⟨0, by decide⟩)) fullShare (addV X false 0 14 c) := (payload_agccw_r_0_0 X (prv c) false).trans (link_ag_ccw_zero X c 0)
theorem hp2_agccw_r_0_1 (c : Dev nD) : (Rd (F := F) X).payload (dcell (prv c) (qR cc0_scratch9 0 1 inb_S15x2_S1x1_0_1)) 0 false = owns (prv c : Thread nD τ) (rows oM (off false (c.val + 0) 1) (off_inb false (c.val + 0) ⟨1, by decide⟩)) fullShare (addV X false 1 14 c) := (payload_agccw_r_0_1 X (prv c) false).trans (link_ag_ccw_zero X c 1)
theorem hp2_agccw_r_1_0 (c : Dev nD) : (Rd (F := F) X).payload (dcell (prv c) (qR cc0_scratch9 1 0 inb_S15x2_S1x1_1_0)) 0 false = owns (prv c : Thread nD τ) (rows oM (off false (c.val + 1) 0) (off_inb false (c.val + 1) ⟨0, by decide⟩)) fullShare (doneV X false 0 (devAt c 1)) := (payload_agccw_r_1_0 X (prv c) false).trans (link_ag_ccw_succ X c 0 1)
theorem hp2_agccw_r_1_1 (c : Dev nD) : (Rd (F := F) X).payload (dcell (prv c) (qR cc0_scratch9 1 1 inb_S15x2_S1x1_1_1)) 0 false = owns (prv c : Thread nD τ) (rows oM (off false (c.val + 1) 1) (off_inb false (c.val + 1) ⟨1, by decide⟩)) fullShare (doneV X false 1 (devAt c 1)) := (payload_agccw_r_1_1 X (prv c) false).trans (link_ag_ccw_succ X c 1 1)
theorem hp2_agccw_r_2_0 (c : Dev nD) : (Rd (F := F) X).payload (dcell (prv c) (qR cc0_scratch9 2 0 inb_S15x2_S1x1_2_0)) 0 false = owns (prv c : Thread nD τ) (rows oM (off false (c.val + 2) 0) (off_inb false (c.val + 2) ⟨0, by decide⟩)) fullShare (doneV X false 0 (devAt c 2)) := (payload_agccw_r_2_0 X (prv c) false).trans (link_ag_ccw_succ X c 0 2)
theorem hp2_agccw_r_2_1 (c : Dev nD) : (Rd (F := F) X).payload (dcell (prv c) (qR cc0_scratch9 2 1 inb_S15x2_S1x1_2_1)) 0 false = owns (prv c : Thread nD τ) (rows oM (off false (c.val + 2) 1) (off_inb false (c.val + 2) ⟨1, by decide⟩)) fullShare (doneV X false 1 (devAt c 2)) := (payload_agccw_r_2_1 X (prv c) false).trans (link_ag_ccw_succ X c 1 2)
theorem hp2_agccw_r_3_0 (c : Dev nD) : (Rd (F := F) X).payload (dcell (prv c) (qR cc0_scratch9 3 0 inb_S15x2_S1x1_3_0)) 0 false = owns (prv c : Thread nD τ) (rows oM (off false (c.val + 3) 0) (off_inb false (c.val + 3) ⟨0, by decide⟩)) fullShare (doneV X false 0 (devAt c 3)) := (payload_agccw_r_3_0 X (prv c) false).trans (link_ag_ccw_succ X c 0 3)
theorem hp2_agccw_r_3_1 (c : Dev nD) : (Rd (F := F) X).payload (dcell (prv c) (qR cc0_scratch9 3 1 inb_S15x2_S1x1_3_1)) 0 false = owns (prv c : Thread nD τ) (rows oM (off false (c.val + 3) 1) (off_inb false (c.val + 3) ⟨1, by decide⟩)) fullShare (doneV X false 1 (devAt c 3)) := (payload_agccw_r_3_1 X (prv c) false).trans (link_ag_ccw_succ X c 1 3)
theorem hp2_agccw_r_4_0 (c : Dev nD) : (Rd (F := F) X).payload (dcell (prv c) (qR cc0_scratch9 4 0 inb_S15x2_S1x1_4_0)) 0 false = owns (prv c : Thread nD τ) (rows oM (off false (c.val + 4) 0) (off_inb false (c.val + 4) ⟨0, by decide⟩)) fullShare (doneV X false 0 (devAt c 4)) := (payload_agccw_r_4_0 X (prv c) false).trans (link_ag_ccw_succ X c 0 4)
theorem hp2_agccw_r_4_1 (c : Dev nD) : (Rd (F := F) X).payload (dcell (prv c) (qR cc0_scratch9 4 1 inb_S15x2_S1x1_4_1)) 0 false = owns (prv c : Thread nD τ) (rows oM (off false (c.val + 4) 1) (off_inb false (c.val + 4) ⟨1, by decide⟩)) fullShare (doneV X false 1 (devAt c 4)) := (payload_agccw_r_4_1 X (prv c) false).trans (link_ag_ccw_succ X c 1 4)
theorem hp2_agccw_r_5_0 (c : Dev nD) : (Rd (F := F) X).payload (dcell (prv c) (qR cc0_scratch9 5 0 inb_S15x2_S1x1_5_0)) 0 false = owns (prv c : Thread nD τ) (rows oM (off false (c.val + 5) 0) (off_inb false (c.val + 5) ⟨0, by decide⟩)) fullShare (doneV X false 0 (devAt c 5)) := (payload_agccw_r_5_0 X (prv c) false).trans (link_ag_ccw_succ X c 0 5)
theorem hp2_agccw_r_5_1 (c : Dev nD) : (Rd (F := F) X).payload (dcell (prv c) (qR cc0_scratch9 5 1 inb_S15x2_S1x1_5_1)) 0 false = owns (prv c : Thread nD τ) (rows oM (off false (c.val + 5) 1) (off_inb false (c.val + 5) ⟨1, by decide⟩)) fullShare (doneV X false 1 (devAt c 5)) := (payload_agccw_r_5_1 X (prv c) false).trans (link_ag_ccw_succ X c 1 5)
theorem hp2_agccw_r_6_0 (c : Dev nD) : (Rd (F := F) X).payload (dcell (prv c) (qR cc0_scratch9 6 0 inb_S15x2_S1x1_6_0)) 0 false = owns (prv c : Thread nD τ) (rows oM (off false (c.val + 6) 0) (off_inb false (c.val + 6) ⟨0, by decide⟩)) fullShare (doneV X false 0 (devAt c 6)) := (payload_agccw_r_6_0 X (prv c) false).trans (link_ag_ccw_succ X c 0 6)
theorem hp2_agccw_r_6_1 (c : Dev nD) : (Rd (F := F) X).payload (dcell (prv c) (qR cc0_scratch9 6 1 inb_S15x2_S1x1_6_1)) 0 false = owns (prv c : Thread nD τ) (rows oM (off false (c.val + 6) 1) (off_inb false (c.val + 6) ⟨1, by decide⟩)) fullShare (doneV X false 1 (devAt c 6)) := (payload_agccw_r_6_1 X (prv c) false).trans (link_ag_ccw_succ X c 1 6)
theorem hp2_agccw_r_7_0 (c : Dev nD) : (Rd (F := F) X).payload (dcell (prv c) (qR cc0_scratch9 7 0 inb_S15x2_S1x1_7_0)) 0 false = owns (prv c : Thread nD τ) (rows oM (off false (c.val + 7) 0) (off_inb false (c.val + 7) ⟨0, by decide⟩)) fullShare (doneV X false 0 (devAt c 7)) := (payload_agccw_r_7_0 X (prv c) false).trans (link_ag_ccw_succ X c 0 7)
theorem hp2_agccw_r_7_1 (c : Dev nD) : (Rd (F := F) X).payload (dcell (prv c) (qR cc0_scratch9 7 1 inb_S15x2_S1x1_7_1)) 0 false = owns (prv c : Thread nD τ) (rows oM (off false (c.val + 7) 1) (off_inb false (c.val + 7) ⟨1, by decide⟩)) fullShare (doneV X false 1 (devAt c 7)) := (payload_agccw_r_7_1 X (prv c) false).trans (link_ag_ccw_succ X c 1 7)
theorem hp2_agccw_r_8_0 (c : Dev nD) : (Rd (F := F) X).payload (dcell (prv c) (qR cc0_scratch9 8 0 inb_S15x2_S1x1_8_0)) 0 false = owns (prv c : Thread nD τ) (rows oM (off false (c.val + 8) 0) (off_inb false (c.val + 8) ⟨0, by decide⟩)) fullShare (doneV X false 0 (devAt c 8)) := (payload_agccw_r_8_0 X (prv c) false).trans (link_ag_ccw_succ X c 0 8)
theorem hp2_agccw_r_8_1 (c : Dev nD) : (Rd (F := F) X).payload (dcell (prv c) (qR cc0_scratch9 8 1 inb_S15x2_S1x1_8_1)) 0 false = owns (prv c : Thread nD τ) (rows oM (off false (c.val + 8) 1) (off_inb false (c.val + 8) ⟨1, by decide⟩)) fullShare (doneV X false 1 (devAt c 8)) := (payload_agccw_r_8_1 X (prv c) false).trans (link_ag_ccw_succ X c 1 8)
theorem hp2_agccw_r_9_0 (c : Dev nD) : (Rd (F := F) X).payload (dcell (prv c) (qR cc0_scratch9 9 0 inb_S15x2_S1x1_9_0)) 0 false = owns (prv c : Thread nD τ) (rows oM (off false (c.val + 9) 0) (off_inb false (c.val + 9) ⟨0, by decide⟩)) fullShare (doneV X false 0 (devAt c 9)) := (payload_agccw_r_9_0 X (prv c) false).trans (link_ag_ccw_succ X c 0 9)
theorem hp2_agccw_r_9_1 (c : Dev nD) : (Rd (F := F) X).payload (dcell (prv c) (qR cc0_scratch9 9 1 inb_S15x2_S1x1_9_1)) 0 false = owns (prv c : Thread nD τ) (rows oM (off false (c.val + 9) 1) (off_inb false (c.val + 9) ⟨1, by decide⟩)) fullShare (doneV X false 1 (devAt c 9)) := (payload_agccw_r_9_1 X (prv c) false).trans (link_ag_ccw_succ X c 1 9)
theorem hp2_agccw_r_10_0 (c : Dev nD) : (Rd (F := F) X).payload (dcell (prv c) (qR cc0_scratch9 10 0 inb_S15x2_S1x1_10_0)) 0 false = owns (prv c : Thread nD τ) (rows oM (off false (c.val + 10) 0) (off_inb false (c.val + 10) ⟨0, by decide⟩)) fullShare (doneV X false 0 (devAt c 10)) := (payload_agccw_r_10_0 X (prv c) false).trans (link_ag_ccw_succ X c 0 10)
theorem hp2_agccw_r_10_1 (c : Dev nD) : (Rd (F := F) X).payload (dcell (prv c) (qR cc0_scratch9 10 1 inb_S15x2_S1x1_10_1)) 0 false = owns (prv c : Thread nD τ) (rows oM (off false (c.val + 10) 1) (off_inb false (c.val + 10) ⟨1, by decide⟩)) fullShare (doneV X false 1 (devAt c 10)) := (payload_agccw_r_10_1 X (prv c) false).trans (link_ag_ccw_succ X c 1 10)
theorem hp2_agccw_r_11_0 (c : Dev nD) : (Rd (F := F) X).payload (dcell (prv c) (qR cc0_scratch9 11 0 inb_S15x2_S1x1_11_0)) 0 false = owns (prv c : Thread nD τ) (rows oM (off false (c.val + 11) 0) (off_inb false (c.val + 11) ⟨0, by decide⟩)) fullShare (doneV X false 0 (devAt c 11)) := (payload_agccw_r_11_0 X (prv c) false).trans (link_ag_ccw_succ X c 0 11)
theorem hp2_agccw_r_11_1 (c : Dev nD) : (Rd (F := F) X).payload (dcell (prv c) (qR cc0_scratch9 11 1 inb_S15x2_S1x1_11_1)) 0 false = owns (prv c : Thread nD τ) (rows oM (off false (c.val + 11) 1) (off_inb false (c.val + 11) ⟨1, by decide⟩)) fullShare (doneV X false 1 (devAt c 11)) := (payload_agccw_r_11_1 X (prv c) false).trans (link_ag_ccw_succ X c 1 11)
theorem hp2_agccw_r_12_0 (c : Dev nD) : (Rd (F := F) X).payload (dcell (prv c) (qR cc0_scratch9 12 0 inb_S15x2_S1x1_12_0)) 0 false = owns (prv c : Thread nD τ) (rows oM (off false (c.val + 12) 0) (off_inb false (c.val + 12) ⟨0, by decide⟩)) fullShare (doneV X false 0 (devAt c 12)) := (payload_agccw_r_12_0 X (prv c) false).trans (link_ag_ccw_succ X c 0 12)
theorem hp2_agccw_r_12_1 (c : Dev nD) : (Rd (F := F) X).payload (dcell (prv c) (qR cc0_scratch9 12 1 inb_S15x2_S1x1_12_1)) 0 false = owns (prv c : Thread nD τ) (rows oM (off false (c.val + 12) 1) (off_inb false (c.val + 12) ⟨1, by decide⟩)) fullShare (doneV X false 1 (devAt c 12)) := (payload_agccw_r_12_1 X (prv c) false).trans (link_ag_ccw_succ X c 1 12)
theorem hp2_agccw_r_13_0 (c : Dev nD) : (Rd (F := F) X).payload (dcell (prv c) (qR cc0_scratch9 13 0 inb_S15x2_S1x1_13_0)) 0 false = owns (prv c : Thread nD τ) (rows oM (off false (c.val + 13) 0) (off_inb false (c.val + 13) ⟨0, by decide⟩)) fullShare (doneV X false 0 (devAt c 13)) := (payload_agccw_r_13_0 X (prv c) false).trans (link_ag_ccw_succ X c 0 13)
theorem hp2_agccw_r_13_1 (c : Dev nD) : (Rd (F := F) X).payload (dcell (prv c) (qR cc0_scratch9 13 1 inb_S15x2_S1x1_13_1)) 0 false = owns (prv c : Thread nD τ) (rows oM (off false (c.val + 13) 1) (off_inb false (c.val + 13) ⟨1, by decide⟩)) fullShare (doneV X false 1 (devAt c 13)) := (payload_agccw_r_13_1 X (prv c) false).trans (link_ag_ccw_succ X c 1 13)
theorem hp2_agccw_r_14_0 (c : Dev nD) : (Rd (F := F) X).payload (dcell (prv c) (qR cc0_scratch9 14 0 inb_S15x2_S1x1_14_0)) 0 false = owns (prv c : Thread nD τ) (rows oM (off false (c.val + 14) 0) (off_inb false (c.val + 14) ⟨0, by decide⟩)) fullShare (doneV X false 0 (devAt c 14)) := (payload_agccw_r_14_0 X (prv c) false).trans (link_ag_ccw_succ X c 0 14)
theorem hp2_agccw_r_14_1 (c : Dev nD) : (Rd (F := F) X).payload (dcell (prv c) (qR cc0_scratch9 14 1 inb_S15x2_S1x1_14_1)) 0 false = owns (prv c : Thread nD τ) (rows oM (off false (c.val + 14) 1) (off_inb false (c.val + 14) ⟨1, by decide⟩)) fullShare (doneV X false 1 (devAt c 14)) := (payload_agccw_r_14_1 X (prv c) false).trans (link_ag_ccw_succ X c 1 14)

/-! ## The steps' sums -/

theorem addV_eq_cw_0_0 (c : Dev nD) : addV X true 0 0 c = kadd (recvV X true 0 0 c) (piece (off true (c.val + 14) 0) (off_inb true (c.val + 14) ⟨0, by decide⟩) (X c)) := addV_eq X true 0 0 c 14 (by show (c.val + 14) % 16 = (c.val + 32 - 2 - 0) % 16; omega)
theorem addV_eq_cw_0_1 (c : Dev nD) : addV X true 1 0 c = kadd (recvV X true 1 0 c) (piece (off true (c.val + 14) 1) (off_inb true (c.val + 14) ⟨1, by decide⟩) (X c)) := addV_eq X true 1 0 c 14 (by show (c.val + 14) % 16 = (c.val + 32 - 2 - 0) % 16; omega)
theorem addV_eq_cw_1_0 (c : Dev nD) : addV X true 0 1 c = kadd (recvV X true 0 1 c) (piece (off true (c.val + 13) 0) (off_inb true (c.val + 13) ⟨0, by decide⟩) (X c)) := addV_eq X true 0 1 c 13 (by show (c.val + 13) % 16 = (c.val + 32 - 2 - 1) % 16; omega)
theorem addV_eq_cw_1_1 (c : Dev nD) : addV X true 1 1 c = kadd (recvV X true 1 1 c) (piece (off true (c.val + 13) 1) (off_inb true (c.val + 13) ⟨1, by decide⟩) (X c)) := addV_eq X true 1 1 c 13 (by show (c.val + 13) % 16 = (c.val + 32 - 2 - 1) % 16; omega)
theorem addV_eq_cw_2_0 (c : Dev nD) : addV X true 0 2 c = kadd (recvV X true 0 2 c) (piece (off true (c.val + 12) 0) (off_inb true (c.val + 12) ⟨0, by decide⟩) (X c)) := addV_eq X true 0 2 c 12 (by show (c.val + 12) % 16 = (c.val + 32 - 2 - 2) % 16; omega)
theorem addV_eq_cw_2_1 (c : Dev nD) : addV X true 1 2 c = kadd (recvV X true 1 2 c) (piece (off true (c.val + 12) 1) (off_inb true (c.val + 12) ⟨1, by decide⟩) (X c)) := addV_eq X true 1 2 c 12 (by show (c.val + 12) % 16 = (c.val + 32 - 2 - 2) % 16; omega)
theorem addV_eq_cw_3_0 (c : Dev nD) : addV X true 0 3 c = kadd (recvV X true 0 3 c) (piece (off true (c.val + 11) 0) (off_inb true (c.val + 11) ⟨0, by decide⟩) (X c)) := addV_eq X true 0 3 c 11 (by show (c.val + 11) % 16 = (c.val + 32 - 2 - 3) % 16; omega)
theorem addV_eq_cw_3_1 (c : Dev nD) : addV X true 1 3 c = kadd (recvV X true 1 3 c) (piece (off true (c.val + 11) 1) (off_inb true (c.val + 11) ⟨1, by decide⟩) (X c)) := addV_eq X true 1 3 c 11 (by show (c.val + 11) % 16 = (c.val + 32 - 2 - 3) % 16; omega)
theorem addV_eq_cw_4_0 (c : Dev nD) : addV X true 0 4 c = kadd (recvV X true 0 4 c) (piece (off true (c.val + 10) 0) (off_inb true (c.val + 10) ⟨0, by decide⟩) (X c)) := addV_eq X true 0 4 c 10 (by show (c.val + 10) % 16 = (c.val + 32 - 2 - 4) % 16; omega)
theorem addV_eq_cw_4_1 (c : Dev nD) : addV X true 1 4 c = kadd (recvV X true 1 4 c) (piece (off true (c.val + 10) 1) (off_inb true (c.val + 10) ⟨1, by decide⟩) (X c)) := addV_eq X true 1 4 c 10 (by show (c.val + 10) % 16 = (c.val + 32 - 2 - 4) % 16; omega)
theorem addV_eq_cw_5_0 (c : Dev nD) : addV X true 0 5 c = kadd (recvV X true 0 5 c) (piece (off true (c.val + 9) 0) (off_inb true (c.val + 9) ⟨0, by decide⟩) (X c)) := addV_eq X true 0 5 c 9 (by show (c.val + 9) % 16 = (c.val + 32 - 2 - 5) % 16; omega)
theorem addV_eq_cw_5_1 (c : Dev nD) : addV X true 1 5 c = kadd (recvV X true 1 5 c) (piece (off true (c.val + 9) 1) (off_inb true (c.val + 9) ⟨1, by decide⟩) (X c)) := addV_eq X true 1 5 c 9 (by show (c.val + 9) % 16 = (c.val + 32 - 2 - 5) % 16; omega)
theorem addV_eq_cw_6_0 (c : Dev nD) : addV X true 0 6 c = kadd (recvV X true 0 6 c) (piece (off true (c.val + 8) 0) (off_inb true (c.val + 8) ⟨0, by decide⟩) (X c)) := addV_eq X true 0 6 c 8 (by show (c.val + 8) % 16 = (c.val + 32 - 2 - 6) % 16; omega)
theorem addV_eq_cw_6_1 (c : Dev nD) : addV X true 1 6 c = kadd (recvV X true 1 6 c) (piece (off true (c.val + 8) 1) (off_inb true (c.val + 8) ⟨1, by decide⟩) (X c)) := addV_eq X true 1 6 c 8 (by show (c.val + 8) % 16 = (c.val + 32 - 2 - 6) % 16; omega)
theorem addV_eq_cw_7_0 (c : Dev nD) : addV X true 0 7 c = kadd (recvV X true 0 7 c) (piece (off true (c.val + 7) 0) (off_inb true (c.val + 7) ⟨0, by decide⟩) (X c)) := addV_eq X true 0 7 c 7 (by show (c.val + 7) % 16 = (c.val + 32 - 2 - 7) % 16; omega)
theorem addV_eq_cw_7_1 (c : Dev nD) : addV X true 1 7 c = kadd (recvV X true 1 7 c) (piece (off true (c.val + 7) 1) (off_inb true (c.val + 7) ⟨1, by decide⟩) (X c)) := addV_eq X true 1 7 c 7 (by show (c.val + 7) % 16 = (c.val + 32 - 2 - 7) % 16; omega)
theorem addV_eq_cw_8_0 (c : Dev nD) : addV X true 0 8 c = kadd (recvV X true 0 8 c) (piece (off true (c.val + 6) 0) (off_inb true (c.val + 6) ⟨0, by decide⟩) (X c)) := addV_eq X true 0 8 c 6 (by show (c.val + 6) % 16 = (c.val + 32 - 2 - 8) % 16; omega)
theorem addV_eq_cw_8_1 (c : Dev nD) : addV X true 1 8 c = kadd (recvV X true 1 8 c) (piece (off true (c.val + 6) 1) (off_inb true (c.val + 6) ⟨1, by decide⟩) (X c)) := addV_eq X true 1 8 c 6 (by show (c.val + 6) % 16 = (c.val + 32 - 2 - 8) % 16; omega)
theorem addV_eq_cw_9_0 (c : Dev nD) : addV X true 0 9 c = kadd (recvV X true 0 9 c) (piece (off true (c.val + 5) 0) (off_inb true (c.val + 5) ⟨0, by decide⟩) (X c)) := addV_eq X true 0 9 c 5 (by show (c.val + 5) % 16 = (c.val + 32 - 2 - 9) % 16; omega)
theorem addV_eq_cw_9_1 (c : Dev nD) : addV X true 1 9 c = kadd (recvV X true 1 9 c) (piece (off true (c.val + 5) 1) (off_inb true (c.val + 5) ⟨1, by decide⟩) (X c)) := addV_eq X true 1 9 c 5 (by show (c.val + 5) % 16 = (c.val + 32 - 2 - 9) % 16; omega)
theorem addV_eq_cw_10_0 (c : Dev nD) : addV X true 0 10 c = kadd (recvV X true 0 10 c) (piece (off true (c.val + 4) 0) (off_inb true (c.val + 4) ⟨0, by decide⟩) (X c)) := addV_eq X true 0 10 c 4 (by show (c.val + 4) % 16 = (c.val + 32 - 2 - 10) % 16; omega)
theorem addV_eq_cw_10_1 (c : Dev nD) : addV X true 1 10 c = kadd (recvV X true 1 10 c) (piece (off true (c.val + 4) 1) (off_inb true (c.val + 4) ⟨1, by decide⟩) (X c)) := addV_eq X true 1 10 c 4 (by show (c.val + 4) % 16 = (c.val + 32 - 2 - 10) % 16; omega)
theorem addV_eq_cw_11_0 (c : Dev nD) : addV X true 0 11 c = kadd (recvV X true 0 11 c) (piece (off true (c.val + 3) 0) (off_inb true (c.val + 3) ⟨0, by decide⟩) (X c)) := addV_eq X true 0 11 c 3 (by show (c.val + 3) % 16 = (c.val + 32 - 2 - 11) % 16; omega)
theorem addV_eq_cw_11_1 (c : Dev nD) : addV X true 1 11 c = kadd (recvV X true 1 11 c) (piece (off true (c.val + 3) 1) (off_inb true (c.val + 3) ⟨1, by decide⟩) (X c)) := addV_eq X true 1 11 c 3 (by show (c.val + 3) % 16 = (c.val + 32 - 2 - 11) % 16; omega)
theorem addV_eq_cw_12_0 (c : Dev nD) : addV X true 0 12 c = kadd (recvV X true 0 12 c) (piece (off true (c.val + 2) 0) (off_inb true (c.val + 2) ⟨0, by decide⟩) (X c)) := addV_eq X true 0 12 c 2 (by show (c.val + 2) % 16 = (c.val + 32 - 2 - 12) % 16; omega)
theorem addV_eq_cw_12_1 (c : Dev nD) : addV X true 1 12 c = kadd (recvV X true 1 12 c) (piece (off true (c.val + 2) 1) (off_inb true (c.val + 2) ⟨1, by decide⟩) (X c)) := addV_eq X true 1 12 c 2 (by show (c.val + 2) % 16 = (c.val + 32 - 2 - 12) % 16; omega)
theorem addV_eq_cw_13_0 (c : Dev nD) : addV X true 0 13 c = kadd (recvV X true 0 13 c) (piece (off true (c.val + 1) 0) (off_inb true (c.val + 1) ⟨0, by decide⟩) (X c)) := addV_eq X true 0 13 c 1 (by show (c.val + 1) % 16 = (c.val + 32 - 2 - 13) % 16; omega)
theorem addV_eq_cw_13_1 (c : Dev nD) : addV X true 1 13 c = kadd (recvV X true 1 13 c) (piece (off true (c.val + 1) 1) (off_inb true (c.val + 1) ⟨1, by decide⟩) (X c)) := addV_eq X true 1 13 c 1 (by show (c.val + 1) % 16 = (c.val + 32 - 2 - 13) % 16; omega)
theorem addV_eq_cw_14_0 (c : Dev nD) : addV X true 0 14 c = kadd (recvV X true 0 14 c) (piece (off true (c.val + 0) 0) (off_inb true (c.val + 0) ⟨0, by decide⟩) (X c)) := addV_eq X true 0 14 c 0 (by show (c.val + 0) % 16 = (c.val + 32 - 2 - 14) % 16; omega)
theorem addV_eq_cw_14_1 (c : Dev nD) : addV X true 1 14 c = kadd (recvV X true 1 14 c) (piece (off true (c.val + 0) 1) (off_inb true (c.val + 0) ⟨1, by decide⟩) (X c)) := addV_eq X true 1 14 c 0 (by show (c.val + 0) % 16 = (c.val + 32 - 2 - 14) % 16; omega)
theorem addV_eq_ccw_0_0 (c : Dev nD) : addV X false 0 0 c = kadd (recvV X false 0 0 c) (piece (off false (c.val + 2) 0) (off_inb false (c.val + 2) ⟨0, by decide⟩) (X c)) := addV_eq X false 0 0 c 2 (by show (c.val + 2) % 16 = (c.val + 2 + 0) % 16; omega)
theorem addV_eq_ccw_0_1 (c : Dev nD) : addV X false 1 0 c = kadd (recvV X false 1 0 c) (piece (off false (c.val + 2) 1) (off_inb false (c.val + 2) ⟨1, by decide⟩) (X c)) := addV_eq X false 1 0 c 2 (by show (c.val + 2) % 16 = (c.val + 2 + 0) % 16; omega)
theorem addV_eq_ccw_1_0 (c : Dev nD) : addV X false 0 1 c = kadd (recvV X false 0 1 c) (piece (off false (c.val + 3) 0) (off_inb false (c.val + 3) ⟨0, by decide⟩) (X c)) := addV_eq X false 0 1 c 3 (by show (c.val + 3) % 16 = (c.val + 2 + 1) % 16; omega)
theorem addV_eq_ccw_1_1 (c : Dev nD) : addV X false 1 1 c = kadd (recvV X false 1 1 c) (piece (off false (c.val + 3) 1) (off_inb false (c.val + 3) ⟨1, by decide⟩) (X c)) := addV_eq X false 1 1 c 3 (by show (c.val + 3) % 16 = (c.val + 2 + 1) % 16; omega)
theorem addV_eq_ccw_2_0 (c : Dev nD) : addV X false 0 2 c = kadd (recvV X false 0 2 c) (piece (off false (c.val + 4) 0) (off_inb false (c.val + 4) ⟨0, by decide⟩) (X c)) := addV_eq X false 0 2 c 4 (by show (c.val + 4) % 16 = (c.val + 2 + 2) % 16; omega)
theorem addV_eq_ccw_2_1 (c : Dev nD) : addV X false 1 2 c = kadd (recvV X false 1 2 c) (piece (off false (c.val + 4) 1) (off_inb false (c.val + 4) ⟨1, by decide⟩) (X c)) := addV_eq X false 1 2 c 4 (by show (c.val + 4) % 16 = (c.val + 2 + 2) % 16; omega)
theorem addV_eq_ccw_3_0 (c : Dev nD) : addV X false 0 3 c = kadd (recvV X false 0 3 c) (piece (off false (c.val + 5) 0) (off_inb false (c.val + 5) ⟨0, by decide⟩) (X c)) := addV_eq X false 0 3 c 5 (by show (c.val + 5) % 16 = (c.val + 2 + 3) % 16; omega)
theorem addV_eq_ccw_3_1 (c : Dev nD) : addV X false 1 3 c = kadd (recvV X false 1 3 c) (piece (off false (c.val + 5) 1) (off_inb false (c.val + 5) ⟨1, by decide⟩) (X c)) := addV_eq X false 1 3 c 5 (by show (c.val + 5) % 16 = (c.val + 2 + 3) % 16; omega)
theorem addV_eq_ccw_4_0 (c : Dev nD) : addV X false 0 4 c = kadd (recvV X false 0 4 c) (piece (off false (c.val + 6) 0) (off_inb false (c.val + 6) ⟨0, by decide⟩) (X c)) := addV_eq X false 0 4 c 6 (by show (c.val + 6) % 16 = (c.val + 2 + 4) % 16; omega)
theorem addV_eq_ccw_4_1 (c : Dev nD) : addV X false 1 4 c = kadd (recvV X false 1 4 c) (piece (off false (c.val + 6) 1) (off_inb false (c.val + 6) ⟨1, by decide⟩) (X c)) := addV_eq X false 1 4 c 6 (by show (c.val + 6) % 16 = (c.val + 2 + 4) % 16; omega)
theorem addV_eq_ccw_5_0 (c : Dev nD) : addV X false 0 5 c = kadd (recvV X false 0 5 c) (piece (off false (c.val + 7) 0) (off_inb false (c.val + 7) ⟨0, by decide⟩) (X c)) := addV_eq X false 0 5 c 7 (by show (c.val + 7) % 16 = (c.val + 2 + 5) % 16; omega)
theorem addV_eq_ccw_5_1 (c : Dev nD) : addV X false 1 5 c = kadd (recvV X false 1 5 c) (piece (off false (c.val + 7) 1) (off_inb false (c.val + 7) ⟨1, by decide⟩) (X c)) := addV_eq X false 1 5 c 7 (by show (c.val + 7) % 16 = (c.val + 2 + 5) % 16; omega)
theorem addV_eq_ccw_6_0 (c : Dev nD) : addV X false 0 6 c = kadd (recvV X false 0 6 c) (piece (off false (c.val + 8) 0) (off_inb false (c.val + 8) ⟨0, by decide⟩) (X c)) := addV_eq X false 0 6 c 8 (by show (c.val + 8) % 16 = (c.val + 2 + 6) % 16; omega)
theorem addV_eq_ccw_6_1 (c : Dev nD) : addV X false 1 6 c = kadd (recvV X false 1 6 c) (piece (off false (c.val + 8) 1) (off_inb false (c.val + 8) ⟨1, by decide⟩) (X c)) := addV_eq X false 1 6 c 8 (by show (c.val + 8) % 16 = (c.val + 2 + 6) % 16; omega)
theorem addV_eq_ccw_7_0 (c : Dev nD) : addV X false 0 7 c = kadd (recvV X false 0 7 c) (piece (off false (c.val + 9) 0) (off_inb false (c.val + 9) ⟨0, by decide⟩) (X c)) := addV_eq X false 0 7 c 9 (by show (c.val + 9) % 16 = (c.val + 2 + 7) % 16; omega)
theorem addV_eq_ccw_7_1 (c : Dev nD) : addV X false 1 7 c = kadd (recvV X false 1 7 c) (piece (off false (c.val + 9) 1) (off_inb false (c.val + 9) ⟨1, by decide⟩) (X c)) := addV_eq X false 1 7 c 9 (by show (c.val + 9) % 16 = (c.val + 2 + 7) % 16; omega)
theorem addV_eq_ccw_8_0 (c : Dev nD) : addV X false 0 8 c = kadd (recvV X false 0 8 c) (piece (off false (c.val + 10) 0) (off_inb false (c.val + 10) ⟨0, by decide⟩) (X c)) := addV_eq X false 0 8 c 10 (by show (c.val + 10) % 16 = (c.val + 2 + 8) % 16; omega)
theorem addV_eq_ccw_8_1 (c : Dev nD) : addV X false 1 8 c = kadd (recvV X false 1 8 c) (piece (off false (c.val + 10) 1) (off_inb false (c.val + 10) ⟨1, by decide⟩) (X c)) := addV_eq X false 1 8 c 10 (by show (c.val + 10) % 16 = (c.val + 2 + 8) % 16; omega)
theorem addV_eq_ccw_9_0 (c : Dev nD) : addV X false 0 9 c = kadd (recvV X false 0 9 c) (piece (off false (c.val + 11) 0) (off_inb false (c.val + 11) ⟨0, by decide⟩) (X c)) := addV_eq X false 0 9 c 11 (by show (c.val + 11) % 16 = (c.val + 2 + 9) % 16; omega)
theorem addV_eq_ccw_9_1 (c : Dev nD) : addV X false 1 9 c = kadd (recvV X false 1 9 c) (piece (off false (c.val + 11) 1) (off_inb false (c.val + 11) ⟨1, by decide⟩) (X c)) := addV_eq X false 1 9 c 11 (by show (c.val + 11) % 16 = (c.val + 2 + 9) % 16; omega)
theorem addV_eq_ccw_10_0 (c : Dev nD) : addV X false 0 10 c = kadd (recvV X false 0 10 c) (piece (off false (c.val + 12) 0) (off_inb false (c.val + 12) ⟨0, by decide⟩) (X c)) := addV_eq X false 0 10 c 12 (by show (c.val + 12) % 16 = (c.val + 2 + 10) % 16; omega)
theorem addV_eq_ccw_10_1 (c : Dev nD) : addV X false 1 10 c = kadd (recvV X false 1 10 c) (piece (off false (c.val + 12) 1) (off_inb false (c.val + 12) ⟨1, by decide⟩) (X c)) := addV_eq X false 1 10 c 12 (by show (c.val + 12) % 16 = (c.val + 2 + 10) % 16; omega)
theorem addV_eq_ccw_11_0 (c : Dev nD) : addV X false 0 11 c = kadd (recvV X false 0 11 c) (piece (off false (c.val + 13) 0) (off_inb false (c.val + 13) ⟨0, by decide⟩) (X c)) := addV_eq X false 0 11 c 13 (by show (c.val + 13) % 16 = (c.val + 2 + 11) % 16; omega)
theorem addV_eq_ccw_11_1 (c : Dev nD) : addV X false 1 11 c = kadd (recvV X false 1 11 c) (piece (off false (c.val + 13) 1) (off_inb false (c.val + 13) ⟨1, by decide⟩) (X c)) := addV_eq X false 1 11 c 13 (by show (c.val + 13) % 16 = (c.val + 2 + 11) % 16; omega)
theorem addV_eq_ccw_12_0 (c : Dev nD) : addV X false 0 12 c = kadd (recvV X false 0 12 c) (piece (off false (c.val + 14) 0) (off_inb false (c.val + 14) ⟨0, by decide⟩) (X c)) := addV_eq X false 0 12 c 14 (by show (c.val + 14) % 16 = (c.val + 2 + 12) % 16; omega)
theorem addV_eq_ccw_12_1 (c : Dev nD) : addV X false 1 12 c = kadd (recvV X false 1 12 c) (piece (off false (c.val + 14) 1) (off_inb false (c.val + 14) ⟨1, by decide⟩) (X c)) := addV_eq X false 1 12 c 14 (by show (c.val + 14) % 16 = (c.val + 2 + 12) % 16; omega)
theorem addV_eq_ccw_13_0 (c : Dev nD) : addV X false 0 13 c = kadd (recvV X false 0 13 c) (piece (off false (c.val + 15) 0) (off_inb false (c.val + 15) ⟨0, by decide⟩) (X c)) := addV_eq X false 0 13 c 15 (by show (c.val + 15) % 16 = (c.val + 2 + 13) % 16; omega)
theorem addV_eq_ccw_13_1 (c : Dev nD) : addV X false 1 13 c = kadd (recvV X false 1 13 c) (piece (off false (c.val + 15) 1) (off_inb false (c.val + 15) ⟨1, by decide⟩) (X c)) := addV_eq X false 1 13 c 15 (by show (c.val + 15) % 16 = (c.val + 2 + 13) % 16; omega)
theorem addV_eq_ccw_14_0 (c : Dev nD) : addV X false 0 14 c = kadd (recvV X false 0 14 c) (piece (off false (c.val + 0) 0) (off_inb false (c.val + 0) ⟨0, by decide⟩) (X c)) := addV_eq X false 0 14 c 0 (by show (c.val + 0) % 16 = (c.val + 2 + 14) % 16; omega)
theorem addV_eq_ccw_14_1 (c : Dev nD) : addV X false 1 14 c = kadd (recvV X false 1 14 c) (piece (off false (c.val + 0) 1) (off_inb false (c.val + 0) ⟨1, by decide⟩) (X c)) := addV_eq X false 1 14 c 0 (by show (c.val + 0) % 16 = (c.val + 2 + 14) % 16; omega)

end Cert.KernelIdeal.RSAG

end
-- ==== Proof.Cut.lean ====
import proofs.«901013_g7700000000001014_dist_rs_then_ag_i_m4096_n1024_v7x_i16_f32_1_alg».proof.Proof.Sched
import proofs.«901013_g7700000000001014_dist_rs_then_ag_i_m4096_n1024_v7x_i16_f32_1_alg».proof.Proof.Values
import proofs.«901013_g7700000000001014_dist_rs_then_ag_i_m4096_n1024_v7x_i16_f32_1_alg».proof.Proof.SplitLib
import Idealize.ShloMosaic.Lib.Memref

/-! Cutting the staged buffers into the 64-row windows the transfers move, and joining them again.

    A staged array of 4096 rows is sixty-four windows of 64 rows, pairwise disjoint, covering it. The staged input
    keeps half its share whole and hands the other half out at the four windows the first transfers read. The staged
    result, at any contents, is the thirty windows each direction of the gather fills and the two 128-row windows of
    the device's own chunk; owning every window at the finished sub-block that belongs there is owning the staged
    result at the assembled value. -/

set_option maxRecDepth 8192

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig Unit (Elt F) ℕ UU ℕ

/-! ## The sixty-four windows of a staged array

A staged array of 4096 rows is sixteen chunks of 256 rows, each chunk two halves of 128 rows, each half two
sub-blocks of 64 rows: sixty-four windows of 64 rows, pairwise disjoint, that cover the array. -/

/-- the 64-row window of sub-block `b` of the `cw` half of chunk `k` (modulo sixteen) -/
abbrev winR (cw : Bool) (k : ℕ) (b : Fin 2) : Rect S4096x1024 :=
  Rect.unit (s := S4096x1024) (off cw k b.val) S64x1024.size (off_inb cw k b)

/-- an index lies in a window when its row does -/
theorem mem_win {cw : Bool} {k b : ℕ} (h : ∀ a, off cw k b a + S64x1024.size a ≤ S4096x1024.size a) {i : S4096x1024.Idx} :
    i ∈ (Rect.unit (s := S4096x1024) (off cw k b) S64x1024.size h).set ↔
      256 * (k % 16) + (if cw then 0 else 128) + 64 * b ≤ (i 0).val
        ∧ (i 0).val < 256 * (k % 16) + (if cw then 0 else 128) + 64 * b + 64 := by
  rw [Rect.mem_set_unit]
  constructor
  · intro h; exact h 0
  · intro h a
    match a with
    | ⟨0, _⟩ => exact h
    | ⟨1, _⟩ =>
      have := idx2_lt1 i
      exact ⟨Nat.zero_le _, by show (i 1).val < 0 + 1024; omega⟩

theorem mem_winR {cw : Bool} {k : ℕ} {b : Fin 2} {i : S4096x1024.Idx} :
    i ∈ (winR cw k b).set ↔
      256 * (k % 16) + (if cw then 0 else 128) + 64 * b.val ≤ (i 0).val
        ∧ (i 0).val < 256 * (k % 16) + (if cw then 0 else 128) + 64 * b.val + 64 :=
  mem_win _

/-- windows of different sub-blocks are disjoint -/
theorem winR_disjoint {cw cw' : Bool} {k k' : ℕ} {b b' : Fin 2} (h : ¬ (cw = cw' ∧ k % 16 = k' % 16 ∧ b = b')) :
    Disjoint (winR cw k b).set (winR cw' k' b').set := by
  rw [Finset.disjoint_left]
  intro i hi hi'
  rw [mem_winR] at hi hi'
  apply h
  have hb := b.isLt
  have hb' := b'.isLt
  have hk : k % 16 < 16 := Nat.mod_lt _ (by decide)
  have hk' : k' % 16 < 16 := Nat.mod_lt _ (by decide)
  generalize k % 16 = m at hi hk ⊢
  generalize k' % 16 = m' at hi' hk' ⊢
  cases cw <;> cases cw' <;> simp only [Bool.false_eq_true, if_true, if_false] at hi hi' <;>
    first
    | exact ⟨rfl, by omega, Fin.ext (by omega)⟩
    | (exfalso; omega)

/-- every index of the array lies in the window of some sub-block, whose chunk is named by its shift from `c`'s -/
theorem winR_cover (c : Dev nD) (i : S4096x1024.Idx) :
    ∃ t : Bool × Fin 16 × Fin 2, i ∈ (winR t.1 (c.val + t.2.1.val) t.2.2).set := by
  have hi : (i 0).val < 4096 := idx2_lt0 i
  have hc : c.val < 16 := c.isLt
  refine ⟨(decide ((i 0).val % 256 < 128), ⟨((i 0).val / 256 + 16 - c.val) % 16, Nat.mod_lt _ (by decide)⟩,
    ⟨(i 0).val % 128 / 64, by omega⟩), ?_⟩
  rw [mem_winR]
  show 256 * ((c.val + ((i 0).val / 256 + 16 - c.val) % 16) % 16)
        + (if decide ((i 0).val % 256 < 128) = true then 0 else 128) + 64 * ((i 0).val % 128 / 64) ≤ (i 0).val
      ∧ (i 0).val < 256 * ((c.val + ((i 0).val / 256 + 16 - c.val) % 16) % 16)
        + (if decide ((i 0).val % 256 < 128) = true then 0 else 128) + 64 * ((i 0).val % 128 / 64) + 64
  by_cases h : (i 0).val % 256 < 128
  · rw [if_pos (decide_eq_true h)]; omega
  · rw [if_neg (by rw [decide_eq_false h]; exact Bool.false_ne_true)]; omega

/-- the family of all sixty-four windows, the chunks named by their shifts from `c`'s -/
abbrev winFam (c : Dev nD) (t : Bool × Fin 16 × Fin 2) : Rect S4096x1024 := winR t.1 (c.val + t.2.1.val) t.2.2

theorem winFam_disjoint (c : Dev nD) (t t' : Bool × Fin 16 × Fin 2) (h : t ≠ t') :
    Disjoint (winFam c t).set (winFam c t').set := by
  refine winR_disjoint fun ⟨h1, h2, h3⟩ => h ?_
  obtain ⟨cw, J, b⟩ := t
  obtain ⟨cw', J', b'⟩ := t'
  have hJ := J.isLt
  have hJ' := J'.isLt
  have hc : c.val < 16 := c.isLt
  have e : J = J' := Fin.ext (by
    have h2' : (c.val + J.val) % 16 = (c.val + J'.val) % 16 := h2
    omega)
  exact Prod.ext h1 (Prod.ext e h3)

theorem winFam_cover (c : Dev nD) :
    (Finset.univ : Finset (Bool × Fin 16 × Fin 2)).biUnion (fun t => (winFam c t).set) = Finset.univ := by
  ext i
  simp only [Finset.mem_biUnion, Finset.mem_univ, true_and, iff_true]
  exact winR_cover c i

/-! ## Small laws of the separating conjunction, as equations -/

theorem eq_of_bi {P Q : sProp 𝕄} (h : P ⊣⊢ Q) : P = Q := BI.equiv_iff.mp ⟨h.1, h.2⟩

theorem sep_assoc_eq (P Q R : sProp 𝕄) : iprop((P ∗ Q) ∗ R) = iprop(P ∗ Q ∗ R) :=
  BI.equiv_iff.mp ⟨BI.sep_assoc, BI.sep_assoc'⟩

theorem sep_assoc_eq' (P Q R : sProp 𝕄) : BI.sep (BI.sep P Q) R = BI.sep P (BI.sep Q R) :=
  BI.equiv_iff.mp ⟨BI.sep_assoc, BI.sep_assoc'⟩

/-- a window of a staged array holds the array's elements under its rectangle -/
theorem rows_set_x (o : Fin 2 → ℕ) (h : ∀ a, o a + S64x1024.size a ≤ S4096x1024.size a) :
    (rows xM o h).view.set = (Rect.unit (s := S4096x1024) o S64x1024.size h).set :=
  View.set_slice_whole cc0_stg0_0 _

theorem rows_set_o (o : Fin 2 → ℕ) (h : ∀ a, o a + S64x1024.size a ≤ S4096x1024.size a) :
    (rows oM o h).view.set = (Rect.unit (s := S4096x1024) o S64x1024.size h).set :=
  View.set_slice_whole cc0_stg1_0 _

/-! ## The staged input: half its share kept, the other half cut at the four windows the first transfers read -/

/-- A points-to, one half of its share kept whole, the other half cut at four pairwise disjoint parts and the rest. -/
theorem pointsTo_cut4 {ℓ : Loc nD τ sig} {S A B C D : Finset (Idx ℓ)} (f : Buf (Elt F) ℓ)
    (hA : A ⊆ S) (hB : B ⊆ S) (hC : C ⊆ S) (hD : D ⊆ S)
    (hAB : Disjoint A B) (hAC : Disjoint A C) (hAD : Disjoint A D) (hBC : Disjoint B C) (hBD : Disjoint B D)
    (hCD : Disjoint C D) :
    (ℓ ↦[S]{fullShare} f : sProp 𝕄) ⊣⊢ iprop((ℓ ↦[S]{fullShare.left} f) ∗ (ℓ ↦[A]{fullShare.right} f)
      ∗ (ℓ ↦[B]{fullShare.right} f) ∗ (ℓ ↦[C]{fullShare.right} f) ∗ (ℓ ↦[D]{fullShare.right} f)
      ∗ (ℓ ↦[S \ (A ∪ (B ∪ (C ∪ D)))]{fullShare.right} f)) := by
  have hU : A ∪ (B ∪ (C ∪ D)) ⊆ S := Finset.union_subset hA (Finset.union_subset hB (Finset.union_subset hC hD))
  have e1 : (ℓ ↦[S]{fullShare} f : sProp 𝕄) = iprop((ℓ ↦[S]{fullShare.left} f) ∗ ℓ ↦[S]{fullShare.right} f) :=
    eq_of_bi (pointsTo_share (PosShare.mem_left_op_right fullShare))
  have e2 : (ℓ ↦[S]{fullShare.right} f : sProp 𝕄)
      = iprop((ℓ ↦[A ∪ (B ∪ (C ∪ D))]{fullShare.right} f) ∗ ℓ ↦[S \ (A ∪ (B ∪ (C ∪ D)))]{fullShare.right} f) :=
    eq_of_bi (pointsTo_split_subset hU)
  have e3 : (ℓ ↦[A ∪ (B ∪ (C ∪ D))]{fullShare.right} f : sProp 𝕄)
      = iprop((ℓ ↦[A]{fullShare.right} f) ∗ ℓ ↦[B ∪ (C ∪ D)]{fullShare.right} f) :=
    eq_of_bi (pointsTo_union (Finset.disjoint_union_right.mpr ⟨hAB, Finset.disjoint_union_right.mpr ⟨hAC, hAD⟩⟩))
  have e4 : (ℓ ↦[B ∪ (C ∪ D)]{fullShare.right} f : sProp 𝕄)
      = iprop((ℓ ↦[B]{fullShare.right} f) ∗ ℓ ↦[C ∪ D]{fullShare.right} f) :=
    eq_of_bi (pointsTo_union (Finset.disjoint_union_right.mpr ⟨hBC, hBD⟩))
  have e5 : (ℓ ↦[C ∪ D]{fullShare.right} f : sProp 𝕄) = iprop((ℓ ↦[C]{fullShare.right} f) ∗ ℓ ↦[D]{fullShare.right} f) :=
    eq_of_bi (pointsTo_union hCD)
  refine BiEntails.of_eq ?_
  rw [e1, e2, e3, e4, e5, sep_assoc_eq, sep_assoc_eq, sep_assoc_eq]

/-- the elements of device `c`'s staged block of the input under the four windows its first transfers read -/
def xWins (c : Dev nD) : Finset (Idx (xM.view.loc (c : Thread nD τ))) :=
  (show Finset (Idx (xM.view.loc (c : Thread nD τ))) from (rows xM (off true (c.val + 15) 0) (off_inb true (c.val + 15) 0)).view.set)
    ∪ ((show Finset (Idx (xM.view.loc (c : Thread nD τ))) from (rows xM (off true (c.val + 15) 1) (off_inb true (c.val + 15) 1)).view.set)
      ∪ ((show Finset (Idx (xM.view.loc (c : Thread nD τ))) from (rows xM (off false (c.val + 1) 0) (off_inb false (c.val + 1) 0)).view.set)
        ∪ (show Finset (Idx (xM.view.loc (c : Thread nD τ))) from (rows xM (off false (c.val + 1) 1) (off_inb false (c.val + 1) 1)).view.set)))

/-- Device `c`'s staged block of the input: the left half of its share, and the right half cut at the four windows its
    first transfers read (the chunk fifteen places above its own towards the next device, one place above towards the
    previous one) and the rest. -/
theorem x_split (c : Dev nD) (Xc : S4096x1024.Idx → Elt F .f32) :
    (xM.view.loc (c : Thread nD τ) ↦[xM.view.set]{fullShare} Xc : sProp 𝕄) ⊣⊢ iprop(
      (xM.view.loc (c : Thread nD τ) ↦[xM.view.set]{fullShare.left} Xc)
      ∗ ((rows xM (off true (c.val + 15) 0) (off_inb true _ 0)).view.loc (c : Thread nD τ)
          ↦[(rows xM (off true (c.val + 15) 0) (off_inb true _ 0)).view.set]{fullShare.right} Xc)
      ∗ ((rows xM (off true (c.val + 15) 1) (off_inb true _ 1)).view.loc (c : Thread nD τ)
          ↦[(rows xM (off true (c.val + 15) 1) (off_inb true _ 1)).view.set]{fullShare.right} Xc)
      ∗ ((rows xM (off false (c.val + 1) 0) (off_inb false _ 0)).view.loc (c : Thread nD τ)
          ↦[(rows xM (off false (c.val + 1) 0) (off_inb false _ 0)).view.set]{fullShare.right} Xc)
      ∗ ((rows xM (off false (c.val + 1) 1) (off_inb false _ 1)).view.loc (c : Thread nD τ)
          ↦[(rows xM (off false (c.val + 1) 1) (off_inb false _ 1)).view.set]{fullShare.right} Xc)
      ∗ (xM.view.loc (c : Thread nD τ) ↦[xM.view.set \ xWins c]{fullShare.right} Xc)) := by
  have hd {cw cw' : Bool} {k k' : ℕ} {b b' : Fin 2} (h : ¬ (cw = cw' ∧ k % 16 = k' % 16 ∧ b = b')) :
      Disjoint (rows xM (off cw k b.val) (off_inb cw k b)).view.set (rows xM (off cw' k' b'.val) (off_inb cw' k' b')).view.set := by
    rw [rows_set_x, rows_set_x]; exact winR_disjoint h
  exact pointsTo_cut4 (F := F) (ℓ := xM.view.loc (c : Thread nD τ)) Xc
    (xM.view.set_slice_subset _) (xM.view.set_slice_subset _) (xM.view.set_slice_subset _) (xM.view.set_slice_subset _)
    (hd (cw := true) (k := c.val + 15) (b := 0) (cw' := true) (k' := c.val + 15) (b' := 1) fun h => absurd h.2.2 (by decide))
    (hd (cw := true) (k := c.val + 15) (b := 0) (cw' := false) (k' := c.val + 1) (b' := 0) fun h => Bool.noConfusion h.1)
    (hd (cw := true) (k := c.val + 15) (b := 0) (cw' := false) (k' := c.val + 1) (b' := 1) fun h => Bool.noConfusion h.1)
    (hd (cw := true) (k := c.val + 15) (b := 1) (cw' := false) (k' := c.val + 1) (b' := 0) fun h => Bool.noConfusion h.1)
    (hd (cw := true) (k := c.val + 15) (b := 1) (cw' := false) (k' := c.val + 1) (b' := 1) fun h => Bool.noConfusion h.1)
    (hd (cw := false) (k := c.val + 1) (b := 0) (cw' := false) (k' := c.val + 1) (b' := 1) fun h => absurd h.2.2 (by decide))

/-! ## Joining the sixty-four finished sub-blocks -/

/-- the offset of a sub-block depends on the chunk's number only modulo sixteen -/
theorem off_mod16 (cw : Bool) (k b : ℕ) : off cw (k % 16) b = off cw k b := by
  unfold off; rw [Nat.mod_mod]

/-- windows at equal offsets read the same -/
theorem cut_piece_congr {o o' : Fin 2 → ℕ} (e : o = o') (h : ∀ a, o a + S64x1024.size a ≤ S4096x1024.size a)
    (h' : ∀ a, o' a + S64x1024.size a ≤ S4096x1024.size a) (Y : S4096x1024.Idx → Elt F .f32) :
    piece o h Y = piece o' h' Y := by
  subst e; rfl

/-- the finished sub-block of the chunk `J` places above `c`'s is what its window reads of the assembled result -/
theorem doneV_eq_win (c : Dev nD) (X : Dev nD → S4096x1024.Idx → Elt F .f32) (t : Bool × Fin 16 × Fin 2) :
    doneV X t.1 t.2.2 (devAt c t.2.1.val) = fun j => outV X ((winFam c t).emb j) := by
  rw [← piece_outV X t.1 (devAt c t.2.1.val) t.2.2]
  show piece (F := F) _ _ (outV X)
    = piece (F := F) (off t.1 (c.val + t.2.1.val) t.2.2.val) (off_inb t.1 (c.val + t.2.1.val) t.2.2) (outV X)
  exact cut_piece_congr (F := F) (off_mod16 t.1 (c.val + t.2.1.val) t.2.2.val) _ _ _

/-- Device `c` owning every 64-row window of its staged result at the finished sub-block that belongs there owns the
    staged result at the assembled value. -/
theorem out_join (c : Dev nD) (X : Dev nD → S4096x1024.Idx → Elt F .f32) :
    (bigSep (Finset.univ : Finset (Bool × Fin 16 × Fin 2)) fun t =>
      owns (c : Thread nD τ) (rows oM (off t.1 (c.val + t.2.1.val) t.2.2.val) (off_inb t.1 _ t.2.2)) fullShare
        (doneV X t.1 t.2.2 (devAt c t.2.1.val)))
      ⊢ (owns (c : Thread nD τ) oM fullShare (outV X) : sProp 𝕄) := by
  refine Entails.trans (Entails.of_eq ?_) (owns_of_rects (c : Thread nD τ) oM fullShare (winFam c) (fun _ _ => rfl)
    (winFam_disjoint c) (winFam_cover c) (outV X))
  exact bigSep_congr fun t _ => by rw [doneV_eq_win]

/-- the same from a chain over any listing of the sixty-four (direction, shift, sub-block) triples -/
theorem out_join_list (c : Dev nD) (X : Dev nD → S4096x1024.Idx → Elt F .f32) (l : List (Bool × Fin 16 × Fin 2))
    (hl : Finset.univ = l.toFinset) (hn : l.Nodup) :
    (bigSepL l fun t =>
      owns (c : Thread nD τ) (rows oM (off t.1 (c.val + t.2.1.val) t.2.2.val) (off_inb t.1 _ t.2.2)) fullShare
        (doneV X t.1 t.2.2 (devAt c t.2.1.val)))
      ⊢ (owns (c : Thread nD τ) oM fullShare (outV X) : sProp 𝕄) := by
  rw [← bigSep_univ_eq_bigSepL l hl hn]
  exact out_join c X

/-! ## The staged result cut into its windows

The sixty-four windows, listed: the thirty sub-blocks that arrive from the previous device in the steps' order (at
step `h` the chunk `15 - h` places above the device's own), the thirty that arrive from the next device (the chunk
`1 + h` places above), and the four sub-blocks of the device's own chunk, which it writes itself as two windows of
128 rows. -/

/-- a chain over two lists end to end is the two chains -/
theorem cut_bigSepL_append {I : Type} (l₁ l₂ : List I) (Φ : I → sProp 𝕄) :
    bigSepL (l₁ ++ l₂) Φ = BI.sep (bigSepL l₁ Φ) (bigSepL l₂ Φ) := by
  induction l₁ with
  | nil => exact (BI.equiv_iff.mp BI.emp_sep).symm
  | cons i l ih => rw [List.cons_append, bigSepL_cons, bigSepL_cons, ih, sep_assoc_eq']

/-- a chain over the images of a list is the chain of the composed conjuncts -/
theorem cut_bigSepL_map {I J : Type} (g : J → I) (l : List J) (Φ : I → sProp 𝕄) :
    bigSepL (l.map g) Φ = bigSepL l fun j => Φ (g j) := by
  induction l with
  | nil => rfl
  | cons j l ih => rw [List.map_cons, bigSepL_cons, bigSepL_cons, ih]

/-- the (direction, shift, sub-block) triples of what arrives in a direction, in the steps' order -/
def cwTri (hb : Fin 15 × Fin 2) : Bool × Fin 16 × Fin 2 := (true, ⟨15 - hb.1.val, by omega⟩, hb.2)
def ccwTri (hb : Fin 15 × Fin 2) : Bool × Fin 16 × Fin 2 := (false, ⟨1 + hb.1.val, by have := hb.1.isLt; omega⟩, hb.2)

/-- all sixty-four triples: what arrives clockwise, what arrives the other way, the device's own four -/
def triList : List (Bool × Fin 16 × Fin 2) :=
  sbList.map cwTri ++ (sbList.map ccwTri ++ [(true, 0, 0), (true, 0, 1), (false, 0, 0), (false, 0, 1)])

theorem triList_univ : (Finset.univ : Finset (Bool × Fin 16 × Fin 2)) = triList.toFinset := by decide
theorem triList_nodup : triList.Nodup := by decide

/-- the 128-row window of the `cw` half of device `c`'s own chunk, as the kernel's local store names it -/
def own128 (cw : Bool) (c : Dev nD) (f : Buf (Elt F) (oM.view.loc (c : Thread nD τ))) : sProp 𝕄 :=
  match cw with
  | true =>
    iprop((oM.slice (Rect.unit (s := S4096x1024) (k0_off5 c) S128x1024.size (k0_off5_inb c)) (fun _ => rfl)).view.loc (c : Thread nD τ)
      ↦[(oM.slice (Rect.unit (s := S4096x1024) (k0_off5 c) S128x1024.size (k0_off5_inb c)) (fun _ => rfl)).view.set]{fullShare} f)
  | false =>
    iprop((oM.slice (Rect.unit (s := S4096x1024) (k0_off6 c) S128x1024.size (k0_off6_inb c)) (fun _ => rfl)).view.loc (c : Thread nD τ)
      ↦[(oM.slice (Rect.unit (s := S4096x1024) (k0_off6 c) S128x1024.size (k0_off6_inb c)) (fun _ => rfl)).view.set]{fullShare} f)

theorem mem_own5 (c : Dev nD) {i : S4096x1024.Idx} :
    i ∈ (Rect.unit (s := S4096x1024) (k0_off5 c) S128x1024.size (k0_off5_inb c)).set
      ↔ 256 * c.val ≤ (i 0).val ∧ (i 0).val < 256 * c.val + 128 := by
  rw [Rect.mem_set_unit]
  simp only [k0_off5_eq]
  constructor
  · intro h; exact h 0
  · intro h a
    match a with
    | ⟨0, _⟩ => exact h
    | ⟨1, _⟩ =>
      have := idx2_lt1 i
      exact ⟨Nat.zero_le _, by show (i 1).val < 0 + 1024; omega⟩

theorem mem_own6 (c : Dev nD) {i : S4096x1024.Idx} :
    i ∈ (Rect.unit (s := S4096x1024) (k0_off6 c) S128x1024.size (k0_off6_inb c)).set
      ↔ 256 * c.val + 128 ≤ (i 0).val ∧ (i 0).val < 256 * c.val + 128 + 128 := by
  rw [Rect.mem_set_unit]
  simp only [k0_off6_eq]
  constructor
  · intro h; exact h 0
  · intro h a
    match a with
    | ⟨0, _⟩ => exact h
    | ⟨1, _⟩ =>
      have := idx2_lt1 i
      exact ⟨Nat.zero_le _, by show (i 1).val < 0 + 1024; omega⟩

/-- the 128-row window of a half of the device's own chunk is that half's two sub-blocks' windows -/
theorem own128_halves (cw : Bool) (c : Dev nD) (f : Buf (Elt F) (oM.view.loc (c : Thread nD τ))) :
    own128 cw c f ⊣⊢ iprop(
      ((rows oM (off cw c.val 0) (off_inb cw _ 0)).view.loc (c : Thread nD τ)
        ↦[(rows oM (off cw c.val 0) (off_inb cw _ 0)).view.set]{fullShare} f)
      ∗ ((rows oM (off cw c.val 1) (off_inb cw _ 1)).view.loc (c : Thread nD τ)
        ↦[(rows oM (off cw c.val 1) (off_inb cw _ 1)).view.set]{fullShare} f)) := by
  have hc : c.val < 16 := c.isLt
  have hd : Disjoint (rows oM (off cw c.val 0) (off_inb cw _ 0)).view.set (rows oM (off cw c.val 1) (off_inb cw _ 1)).view.set := by
    rw [rows_set_o, rows_set_o]
    exact winR_disjoint (cw := cw) (k := c.val) (b := 0) (cw' := cw) (k' := c.val) (b' := 1) fun h => absurd h.2.2 (by decide)
  cases cw
  · have hs : (oM.slice (Rect.unit (s := S4096x1024) (k0_off6 c) S128x1024.size (k0_off6_inb c)) (fun _ => rfl)).view.set
        = (rows oM (off false c.val 0) (off_inb false _ 0)).view.set ∪ (rows oM (off false c.val 1) (off_inb false _ 1)).view.set := by
      rw [rows_set_o, rows_set_o]
      refine (View.set_slice_whole cc0_stg1_0 _).trans ?_
      ext i
      rw [Finset.mem_union, mem_own6, mem_win, mem_win]
      simp only [Bool.false_eq_true, if_false]
      omega
    show iprop(_ ↦[_]{fullShare} f) ⊣⊢ _
    rw [hs]
    exact pointsTo_union hd
  · have hs : (oM.slice (Rect.unit (s := S4096x1024) (k0_off5 c) S128x1024.size (k0_off5_inb c)) (fun _ => rfl)).view.set
        = (rows oM (off true c.val 0) (off_inb true _ 0)).view.set ∪ (rows oM (off true c.val 1) (off_inb true _ 1)).view.set := by
      rw [rows_set_o, rows_set_o]
      refine (View.set_slice_whole cc0_stg1_0 _).trans ?_
      ext i
      rw [Finset.mem_union, mem_own5, mem_win, mem_win]
      simp only [if_true]
      omega
    show iprop(_ ↦[_]{fullShare} f) ⊣⊢ _
    rw [hs]
    exact pointsTo_union hd

/-- Device `c`'s staged result at any contents: the thirty sub-blocks each direction will bring, and the two 128-row
    windows of its own chunk, each at some contents. -/
theorem out_split (c : Dev nD) (fo : Buf (Elt F) (oM.view.loc (c : Thread nD τ))) :
    (oM.view.loc (c : Thread nD τ) ↦[oM.view.set]{fullShare} fo : sProp 𝕄)
      ⊢ iprop(allRows (F := F) true c ∗ allRows (F := F) false c ∗ (∃ f, own128 (F := F) true c f) ∗ (∃ f, own128 (F := F) false c f)) := by
  have hset : oM.view.set = (Finset.univ : Finset (Bool × Fin 16 × Fin 2)).biUnion fun t =>
      (rows oM (off t.1 (c.val + t.2.1.val) t.2.2.val) (off_inb t.1 _ t.2.2)).view.set := by
    refine (View.set_whole cc0_stg1_0).trans ((winFam_cover c).symm.trans ?_)
    exact Finset.biUnion_congr rfl fun t _ => (rows_set_o _ _).symm
  rw [hset, pointsTo_biUnion _ _ (fun t _ t' _ h => by rw [rows_set_o, rows_set_o]; exact winFam_disjoint c t t' h),
    bigSep_univ_eq_bigSepL triList triList_univ triList_nodup]
  unfold triList
  rw [cut_bigSepL_append, cut_bigSepL_append, cut_bigSepL_map, cut_bigSepL_map]
  refine BI.sep_mono ?_ (BI.sep_mono ?_ ?_)
  · rw [allRows_shift true c c (agShift true) (fun _ _ => rfl)]
    exact bigSepL_mono _ _ _ fun hb _ => exists_intro fo
  · rw [allRows_shift false c c (agShift false) (fun _ _ => rfl)]
    exact bigSepL_mono _ _ _ fun hb _ => exists_intro fo
  · rw [bigSepL_cons_cons, bigSepL_cons_cons, bigSepL_cons_cons, bigSepL_singleton, ← sep_assoc_eq']
    refine BI.sep_mono ?_ ?_
    · exact ((own128_halves true c fo).2).trans (exists_intro fo)
    · exact ((own128_halves false c fo).2).trans (exists_intro fo)

end Cert.KernelIdeal.RSAG

end
-- ==== Proof.Split.lean ====
import proofs.«901013_g7700000000001014_dist_rs_then_ag_i_m4096_n1024_v7x_i16_f32_1_alg».proof.Proof.SplitLib

/-! The conjunctions over a direction's thirty (step, sub-block) pairs, written out.

    Every slot of a ring buffer and every 64-row window of the staged result is spelt with literal numbers, slot by
    slot and window by window, in the order the steps run: the slots of a ring buffer on a device; the sub-blocks the
    next and the previous device receive, named by the shift of their chunk from this device's; the sub-blocks this
    device itself receives. -/

set_option maxRecDepth 4096

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- the thirty slots of the ring buffer of direction true on device d, slot by slot -/
theorem allSlots_list_cw (d : Dev nD) : allSlots (F := F) true d = iprop(
    (∃ f, (slot aM 0 0 Cert.KernelIdeal.Gen.inb_S15x128x1024_S1x64x1024_0_0_0).view.loc (d : Thread nD τ) ↦[(slot aM 0 0 Cert.KernelIdeal.Gen.inb_S15x128x1024_S1x64x1024_0_0_0).view.set]{fullShare} f) ∗
    (∃ f, (slot aM 0 64 Cert.KernelIdeal.Gen.inb_S15x128x1024_S1x64x1024_0_64_0).view.loc (d : Thread nD τ) ↦[(slot aM 0 64 Cert.KernelIdeal.Gen.inb_S15x128x1024_S1x64x1024_0_64_0).view.set]{fullShare} f) ∗
    (∃ f, (slot aM 1 0 Cert.KernelIdeal.Gen.inb_S15x128x1024_S1x64x1024_1_0_0).view.loc (d : Thread nD τ) ↦[(slot aM 1 0 Cert.KernelIdeal.Gen.inb_S15x128x1024_S1x64x1024_1_0_0).view.set]{fullShare} f) ∗
    (∃ f, (slot aM 1 64 Cert.KernelIdeal.Gen.inb_S15x128x1024_S1x64x1024_1_64_0).view.loc (d : Thread nD τ) ↦[(slot aM 1 64 Cert.KernelIdeal.Gen.inb_S15x128x1024_S1x64x1024_1_64_0).view.set]{fullShare} f) ∗
    (∃ f, (slot aM 2 0 Cert.KernelIdeal.Gen.inb_S15x128x1024_S1x64x1024_2_0_0).view.loc (d : Thread nD τ) ↦[(slot aM 2 0 Cert.KernelIdeal.Gen.inb_S15x128x1024_S1x64x1024_2_0_0).view.set]{fullShare} f) ∗
    (∃ f, (slot aM 2 64 Cert.KernelIdeal.Gen.inb_S15x128x1024_S1x64x1024_2_64_0).view.loc (d : Thread nD τ) ↦[(slot aM 2 64 Cert.KernelIdeal.Gen.inb_S15x128x1024_S1x64x1024_2_64_0).view.set]{fullShare} f) ∗
    (∃ f, (slot aM 3 0 Cert.KernelIdeal.Gen.inb_S15x128x1024_S1x64x1024_3_0_0).view.loc (d : Thread nD τ) ↦[(slot aM 3 0 Cert.KernelIdeal.Gen.inb_S15x128x1024_S1x64x1024_3_0_0).view.set]{fullShare} f) ∗
    (∃ f, (slot aM 3 64 Cert.KernelIdeal.Gen.inb_S15x128x1024_S1x64x1024_3_64_0).view.loc (d : Thread nD τ) ↦[(slot aM 3 64 Cert.KernelIdeal.Gen.inb_S15x128x1024_S1x64x1024_3_64_0).view.set]{fullShare} f) ∗
    (∃ f, (slot aM 4 0 Cert.KernelIdeal.Gen.inb_S15x128x1024_S1x64x1024_4_0_0).view.loc (d : Thread nD τ) ↦[(slot aM 4 0 Cert.KernelIdeal.Gen.inb_S15x128x1024_S1x64x1024_4_0_0).view.set]{fullShare} f) ∗
    (∃ f, (slot aM 4 64 Cert.KernelIdeal.Gen.inb_S15x128x1024_S1x64x1024_4_64_0).view.loc (d : Thread nD τ) ↦[(slot aM 4 64 Cert.KernelIdeal.Gen.inb_S15x128x1024_S1x64x1024_4_64_0).view.set]{fullShare} f) ∗
    (∃ f, (slot aM 5 0 Cert.KernelIdeal.Gen.inb_S15x128x1024_S1x64x1024_5_0_0).view.loc (d : Thread nD τ) ↦[(slot aM 5 0 Cert.KernelIdeal.Gen.inb_S15x128x1024_S1x64x1024_5_0_0).view.set]{fullShare} f) ∗
    (∃ f, (slot aM 5 64 Cert.KernelIdeal.Gen.inb_S15x128x1024_S1x64x1024_5_64_0).view.loc (d : Thread nD τ) ↦[(slot aM 5 64 Cert.KernelIdeal.Gen.inb_S15x128x1024_S1x64x1024_5_64_0).view.set]{fullShare} f) ∗
    (∃ f, (slot aM 6 0 Cert.KernelIdeal.Gen.inb_S15x128x1024_S1x64x1024_6_0_0).view.loc (d : Thread nD τ) ↦[(slot aM 6 0 Cert.KernelIdeal.Gen.inb_S15x128x1024_S1x64x1024_6_0_0).view.set]{fullShare} f) ∗
    (∃ f, (slot aM 6 64 Cert.KernelIdeal.Gen.inb_S15x128x1024_S1x64x1024_6_64_0).view.loc (d : Thread nD τ) ↦[(slot aM 6 64 Cert.KernelIdeal.Gen.inb_S15x128x1024_S1x64x1024_6_64_0).view.set]{fullShare} f) ∗
    (∃ f, (slot aM 7 0 Cert.KernelIdeal.Gen.inb_S15x128x1024_S1x64x1024_7_0_0).view.loc (d : Thread nD τ) ↦[(slot aM 7 0 Cert.KernelIdeal.Gen.inb_S15x128x1024_S1x64x1024_7_0_0).view.set]{fullShare} f) ∗
    (∃ f, (slot aM 7 64 Cert.KernelIdeal.Gen.inb_S15x128x1024_S1x64x1024_7_64_0).view.loc (d : Thread nD τ) ↦[(slot aM 7 64 Cert.KernelIdeal.Gen.inb_S15x128x1024_S1x64x1024_7_64_0).view.set]{fullShare} f) ∗
    (∃ f, (slot aM 8 0 Cert.KernelIdeal.Gen.inb_S15x128x1024_S1x64x1024_8_0_0).view.loc (d : Thread nD τ) ↦[(slot aM 8 0 Cert.KernelIdeal.Gen.inb_S15x128x1024_S1x64x1024_8_0_0).view.set]{fullShare} f) ∗
    (∃ f, (slot aM 8 64 Cert.KernelIdeal.Gen.inb_S15x128x1024_S1x64x1024_8_64_0).view.loc (d : Thread nD τ) ↦[(slot aM 8 64 Cert.KernelIdeal.Gen.inb_S15x128x1024_S1x64x1024_8_64_0).view.set]{fullShare} f) ∗
    (∃ f, (slot aM 9 0 Cert.KernelIdeal.Gen.inb_S15x128x1024_S1x64x1024_9_0_0).view.loc (d : Thread nD τ) ↦[(slot aM 9 0 Cert.KernelIdeal.Gen.inb_S15x128x1024_S1x64x1024_9_0_0).view.set]{fullShare} f) ∗
    (∃ f, (slot aM 9 64 Cert.KernelIdeal.Gen.inb_S15x128x1024_S1x64x1024_9_64_0).view.loc (d : Thread nD τ) ↦[(slot aM 9 64 Cert.KernelIdeal.Gen.inb_S15x128x1024_S1x64x1024_9_64_0).view.set]{fullShare} f) ∗
    (∃ f, (slot aM 10 0 Cert.KernelIdeal.Gen.inb_S15x128x1024_S1x64x1024_10_0_0).view.loc (d : Thread nD τ) ↦[(slot aM 10 0 Cert.KernelIdeal.Gen.inb_S15x128x1024_S1x64x1024_10_0_0).view.set]{fullShare} f) ∗
    (∃ f, (slot aM 10 64 Cert.KernelIdeal.Gen.inb_S15x128x1024_S1x64x1024_10_64_0).view.loc (d : Thread nD τ) ↦[(slot aM 10 64 Cert.KernelIdeal.Gen.inb_S15x128x1024_S1x64x1024_10_64_0).view.set]{fullShare} f) ∗
    (∃ f, (slot aM 11 0 Cert.KernelIdeal.Gen.inb_S15x128x1024_S1x64x1024_11_0_0).view.loc (d : Thread nD τ) ↦[(slot aM 11 0 Cert.KernelIdeal.Gen.inb_S15x128x1024_S1x64x1024_11_0_0).view.set]{fullShare} f) ∗
    (∃ f, (slot aM 11 64 Cert.KernelIdeal.Gen.inb_S15x128x1024_S1x64x1024_11_64_0).view.loc (d : Thread nD τ) ↦[(slot aM 11 64 Cert.KernelIdeal.Gen.inb_S15x128x1024_S1x64x1024_11_64_0).view.set]{fullShare} f) ∗
    (∃ f, (slot aM 12 0 Cert.KernelIdeal.Gen.inb_S15x128x1024_S1x64x1024_12_0_0).view.loc (d : Thread nD τ) ↦[(slot aM 12 0 Cert.KernelIdeal.Gen.inb_S15x128x1024_S1x64x1024_12_0_0).view.set]{fullShare} f) ∗
    (∃ f, (slot aM 12 64 Cert.KernelIdeal.Gen.inb_S15x128x1024_S1x64x1024_12_64_0).view.loc (d : Thread nD τ) ↦[(slot aM 12 64 Cert.KernelIdeal.Gen.inb_S15x128x1024_S1x64x1024_12_64_0).view.set]{fullShare} f) ∗
    (∃ f, (slot aM 13 0 Cert.KernelIdeal.Gen.inb_S15x128x1024_S1x64x1024_13_0_0).view.loc (d : Thread nD τ) ↦[(slot aM 13 0 Cert.KernelIdeal.Gen.inb_S15x128x1024_S1x64x1024_13_0_0).view.set]{fullShare} f) ∗
    (∃ f, (slot aM 13 64 Cert.KernelIdeal.Gen.inb_S15x128x1024_S1x64x1024_13_64_0).view.loc (d : Thread nD τ) ↦[(slot aM 13 64 Cert.KernelIdeal.Gen.inb_S15x128x1024_S1x64x1024_13_64_0).view.set]{fullShare} f) ∗
    (∃ f, (slot aM 14 0 Cert.KernelIdeal.Gen.inb_S15x128x1024_S1x64x1024_14_0_0).view.loc (d : Thread nD τ) ↦[(slot aM 14 0 Cert.KernelIdeal.Gen.inb_S15x128x1024_S1x64x1024_14_0_0).view.set]{fullShare} f) ∗
    (∃ f, (slot aM 14 64 Cert.KernelIdeal.Gen.inb_S15x128x1024_S1x64x1024_14_64_0).view.loc (d : Thread nD τ) ↦[(slot aM 14 64 Cert.KernelIdeal.Gen.inb_S15x128x1024_S1x64x1024_14_64_0).view.set]{fullShare} f)) :=
  (allSlots_eq true d).trans rfl

/-- the thirty slots of the ring buffer of direction false on device d, slot by slot -/
theorem allSlots_list_ccw (d : Dev nD) : allSlots (F := F) false d = iprop(
    (∃ f, (slot bM 0 0 Cert.KernelIdeal.Gen.inb_S15x128x1024_S1x64x1024_0_0_0).view.loc (d : Thread nD τ) ↦[(slot bM 0 0 Cert.KernelIdeal.Gen.inb_S15x128x1024_S1x64x1024_0_0_0).view.set]{fullShare} f) ∗
    (∃ f, (slot bM 0 64 Cert.KernelIdeal.Gen.inb_S15x128x1024_S1x64x1024_0_64_0).view.loc (d : Thread nD τ) ↦[(slot bM 0 64 Cert.KernelIdeal.Gen.inb_S15x128x1024_S1x64x1024_0_64_0).view.set]{fullShare} f) ∗
    (∃ f, (slot bM 1 0 Cert.KernelIdeal.Gen.inb_S15x128x1024_S1x64x1024_1_0_0).view.loc (d : Thread nD τ) ↦[(slot bM 1 0 Cert.KernelIdeal.Gen.inb_S15x128x1024_S1x64x1024_1_0_0).view.set]{fullShare} f) ∗
    (∃ f, (slot bM 1 64 Cert.KernelIdeal.Gen.inb_S15x128x1024_S1x64x1024_1_64_0).view.loc (d : Thread nD τ) ↦[(slot bM 1 64 Cert.KernelIdeal.Gen.inb_S15x128x1024_S1x64x1024_1_64_0).view.set]{fullShare} f) ∗
    (∃ f, (slot bM 2 0 Cert.KernelIdeal.Gen.inb_S15x128x1024_S1x64x1024_2_0_0).view.loc (d : Thread nD τ) ↦[(slot bM 2 0 Cert.KernelIdeal.Gen.inb_S15x128x1024_S1x64x1024_2_0_0).view.set]{fullShare} f) ∗
    (∃ f, (slot bM 2 64 Cert.KernelIdeal.Gen.inb_S15x128x1024_S1x64x1024_2_64_0).view.loc (d : Thread nD τ) ↦[(slot bM 2 64 Cert.KernelIdeal.Gen.inb_S15x128x1024_S1x64x1024_2_64_0).view.set]{fullShare} f) ∗
    (∃ f, (slot bM 3 0 Cert.KernelIdeal.Gen.inb_S15x128x1024_S1x64x1024_3_0_0).view.loc (d : Thread nD τ) ↦[(slot bM 3 0 Cert.KernelIdeal.Gen.inb_S15x128x1024_S1x64x1024_3_0_0).view.set]{fullShare} f) ∗
    (∃ f, (slot bM 3 64 Cert.KernelIdeal.Gen.inb_S15x128x1024_S1x64x1024_3_64_0).view.loc (d : Thread nD τ) ↦[(slot bM 3 64 Cert.KernelIdeal.Gen.inb_S15x128x1024_S1x64x1024_3_64_0).view.set]{fullShare} f) ∗
    (∃ f, (slot bM 4 0 Cert.KernelIdeal.Gen.inb_S15x128x1024_S1x64x1024_4_0_0).view.loc (d : Thread nD τ) ↦[(slot bM 4 0 Cert.KernelIdeal.Gen.inb_S15x128x1024_S1x64x1024_4_0_0).view.set]{fullShare} f) ∗
    (∃ f, (slot bM 4 64 Cert.KernelIdeal.Gen.inb_S15x128x1024_S1x64x1024_4_64_0).view.loc (d : Thread nD τ) ↦[(slot bM 4 64 Cert.KernelIdeal.Gen.inb_S15x128x1024_S1x64x1024_4_64_0).view.set]{fullShare} f) ∗
    (∃ f, (slot bM 5 0 Cert.KernelIdeal.Gen.inb_S15x128x1024_S1x64x1024_5_0_0).view.loc (d : Thread nD τ) ↦[(slot bM 5 0 Cert.KernelIdeal.Gen.inb_S15x128x1024_S1x64x1024_5_0_0).view.set]{fullShare} f) ∗
    (∃ f, (slot bM 5 64 Cert.KernelIdeal.Gen.inb_S15x128x1024_S1x64x1024_5_64_0).view.loc (d : Thread nD τ) ↦[(slot bM 5 64 Cert.KernelIdeal.Gen.inb_S15x128x1024_S1x64x1024_5_64_0).view.set]{fullShare} f) ∗
    (∃ f, (slot bM 6 0 Cert.KernelIdeal.Gen.inb_S15x128x1024_S1x64x1024_6_0_0).view.loc (d : Thread nD τ) ↦[(slot bM 6 0 Cert.KernelIdeal.Gen.inb_S15x128x1024_S1x64x1024_6_0_0).view.set]{fullShare} f) ∗
    (∃ f, (slot bM 6 64 Cert.KernelIdeal.Gen.inb_S15x128x1024_S1x64x1024_6_64_0).view.loc (d : Thread nD τ) ↦[(slot bM 6 64 Cert.KernelIdeal.Gen.inb_S15x128x1024_S1x64x1024_6_64_0).view.set]{fullShare} f) ∗
    (∃ f, (slot bM 7 0 Cert.KernelIdeal.Gen.inb_S15x128x1024_S1x64x1024_7_0_0).view.loc (d : Thread nD τ) ↦[(slot bM 7 0 Cert.KernelIdeal.Gen.inb_S15x128x1024_S1x64x1024_7_0_0).view.set]{fullShare} f) ∗
    (∃ f, (slot bM 7 64 Cert.KernelIdeal.Gen.inb_S15x128x1024_S1x64x1024_7_64_0).view.loc (d : Thread nD τ) ↦[(slot bM 7 64 Cert.KernelIdeal.Gen.inb_S15x128x1024_S1x64x1024_7_64_0).view.set]{fullShare} f) ∗
    (∃ f, (slot bM 8 0 Cert.KernelIdeal.Gen.inb_S15x128x1024_S1x64x1024_8_0_0).view.loc (d : Thread nD τ) ↦[(slot bM 8 0 Cert.KernelIdeal.Gen.inb_S15x128x1024_S1x64x1024_8_0_0).view.set]{fullShare} f) ∗
    (∃ f, (slot bM 8 64 Cert.KernelIdeal.Gen.inb_S15x128x1024_S1x64x1024_8_64_0).view.loc (d : Thread nD τ) ↦[(slot bM 8 64 Cert.KernelIdeal.Gen.inb_S15x128x1024_S1x64x1024_8_64_0).view.set]{fullShare} f) ∗
    (∃ f, (slot bM 9 0 Cert.KernelIdeal.Gen.inb_S15x128x1024_S1x64x1024_9_0_0).view.loc (d : Thread nD τ) ↦[(slot bM 9 0 Cert.KernelIdeal.Gen.inb_S15x128x1024_S1x64x1024_9_0_0).view.set]{fullShare} f) ∗
    (∃ f, (slot bM 9 64 Cert.KernelIdeal.Gen.inb_S15x128x1024_S1x64x1024_9_64_0).view.loc (d : Thread nD τ) ↦[(slot bM 9 64 Cert.KernelIdeal.Gen.inb_S15x128x1024_S1x64x1024_9_64_0).view.set]{fullShare} f) ∗
    (∃ f, (slot bM 10 0 Cert.KernelIdeal.Gen.inb_S15x128x1024_S1x64x1024_10_0_0).view.loc (d : Thread nD τ) ↦[(slot bM 10 0 Cert.KernelIdeal.Gen.inb_S15x128x1024_S1x64x1024_10_0_0).view.set]{fullShare} f) ∗
    (∃ f, (slot bM 10 64 Cert.KernelIdeal.Gen.inb_S15x128x1024_S1x64x1024_10_64_0).view.loc (d : Thread nD τ) ↦[(slot bM 10 64 Cert.KernelIdeal.Gen.inb_S15x128x1024_S1x64x1024_10_64_0).view.set]{fullShare} f) ∗
    (∃ f, (slot bM 11 0 Cert.KernelIdeal.Gen.inb_S15x128x1024_S1x64x1024_11_0_0).view.loc (d : Thread nD τ) ↦[(slot bM 11 0 Cert.KernelIdeal.Gen.inb_S15x128x1024_S1x64x1024_11_0_0).view.set]{fullShare} f) ∗
    (∃ f, (slot bM 11 64 Cert.KernelIdeal.Gen.inb_S15x128x1024_S1x64x1024_11_64_0).view.loc (d : Thread nD τ) ↦[(slot bM 11 64 Cert.KernelIdeal.Gen.inb_S15x128x1024_S1x64x1024_11_64_0).view.set]{fullShare} f) ∗
    (∃ f, (slot bM 12 0 Cert.KernelIdeal.Gen.inb_S15x128x1024_S1x64x1024_12_0_0).view.loc (d : Thread nD τ) ↦[(slot bM 12 0 Cert.KernelIdeal.Gen.inb_S15x128x1024_S1x64x1024_12_0_0).view.set]{fullShare} f) ∗
    (∃ f, (slot bM 12 64 Cert.KernelIdeal.Gen.inb_S15x128x1024_S1x64x1024_12_64_0).view.loc (d : Thread nD τ) ↦[(slot bM 12 64 Cert.KernelIdeal.Gen.inb_S15x128x1024_S1x64x1024_12_64_0).view.set]{fullShare} f) ∗
    (∃ f, (slot bM 13 0 Cert.KernelIdeal.Gen.inb_S15x128x1024_S1x64x1024_13_0_0).view.loc (d : Thread nD τ) ↦[(slot bM 13 0 Cert.KernelIdeal.Gen.inb_S15x128x1024_S1x64x1024_13_0_0).view.set]{fullShare} f) ∗
    (∃ f, (slot bM 13 64 Cert.KernelIdeal.Gen.inb_S15x128x1024_S1x64x1024_13_64_0).view.loc (d : Thread nD τ) ↦[(slot bM 13 64 Cert.KernelIdeal.Gen.inb_S15x128x1024_S1x64x1024_13_64_0).view.set]{fullShare} f) ∗
    (∃ f, (slot bM 14 0 Cert.KernelIdeal.Gen.inb_S15x128x1024_S1x64x1024_14_0_0).view.loc (d : Thread nD τ) ↦[(slot bM 14 0 Cert.KernelIdeal.Gen.inb_S15x128x1024_S1x64x1024_14_0_0).view.set]{fullShare} f) ∗
    (∃ f, (slot bM 14 64 Cert.KernelIdeal.Gen.inb_S15x128x1024_S1x64x1024_14_64_0).view.loc (d : Thread nD τ) ↦[(slot bM 14 64 Cert.KernelIdeal.Gen.inb_S15x128x1024_S1x64x1024_14_64_0).view.set]{fullShare} f)) :=
  (allSlots_eq false d).trans rfl

/-- the thirty sub-blocks the next device receives in the gather towards it, by their chunks' shifts from c -/
theorem allRows_list_nxt (c : Dev nD) : allRows (F := F) true (nxt c) = iprop(
    (∃ f, (rows oM (off true (c.val + 0) 0) (off_inb true _ 0)).view.loc (nxt c : Thread nD τ) ↦[(rows oM (off true (c.val + 0) 0) (off_inb true _ 0)).view.set]{fullShare} f) ∗
    (∃ f, (rows oM (off true (c.val + 0) 1) (off_inb true _ 1)).view.loc (nxt c : Thread nD τ) ↦[(rows oM (off true (c.val + 0) 1) (off_inb true _ 1)).view.set]{fullShare} f) ∗
    (∃ f, (rows oM (off true (c.val + 15) 0) (off_inb true _ 0)).view.loc (nxt c : Thread nD τ) ↦[(rows oM (off true (c.val + 15) 0) (off_inb true _ 0)).view.set]{fullShare} f) ∗
    (∃ f, (rows oM (off true (c.val + 15) 1) (off_inb true _ 1)).view.loc (nxt c : Thread nD τ) ↦[(rows oM (off true (c.val + 15) 1) (off_inb true _ 1)).view.set]{fullShare} f) ∗
    (∃ f, (rows oM (off true (c.val + 14) 0) (off_inb true _ 0)).view.loc (nxt c : Thread nD τ) ↦[(rows oM (off true (c.val + 14) 0) (off_inb true _ 0)).view.set]{fullShare} f) ∗
    (∃ f, (rows oM (off true (c.val + 14) 1) (off_inb true _ 1)).view.loc (nxt c : Thread nD τ) ↦[(rows oM (off true (c.val + 14) 1) (off_inb true _ 1)).view.set]{fullShare} f) ∗
    (∃ f, (rows oM (off true (c.val + 13) 0) (off_inb true _ 0)).view.loc (nxt c : Thread nD τ) ↦[(rows oM (off true (c.val + 13) 0) (off_inb true _ 0)).view.set]{fullShare} f) ∗
    (∃ f, (rows oM (off true (c.val + 13) 1) (off_inb true _ 1)).view.loc (nxt c : Thread nD τ) ↦[(rows oM (off true (c.val + 13) 1) (off_inb true _ 1)).view.set]{fullShare} f) ∗
    (∃ f, (rows oM (off true (c.val + 12) 0) (off_inb true _ 0)).view.loc (nxt c : Thread nD τ) ↦[(rows oM (off true (c.val + 12) 0) (off_inb true _ 0)).view.set]{fullShare} f) ∗
    (∃ f, (rows oM (off true (c.val + 12) 1) (off_inb true _ 1)).view.loc (nxt c : Thread nD τ) ↦[(rows oM (off true (c.val + 12) 1) (off_inb true _ 1)).view.set]{fullShare} f) ∗
    (∃ f, (rows oM (off true (c.val + 11) 0) (off_inb true _ 0)).view.loc (nxt c : Thread nD τ) ↦[(rows oM (off true (c.val + 11) 0) (off_inb true _ 0)).view.set]{fullShare} f) ∗
    (∃ f, (rows oM (off true (c.val + 11) 1) (off_inb true _ 1)).view.loc (nxt c : Thread nD τ) ↦[(rows oM (off true (c.val + 11) 1) (off_inb true _ 1)).view.set]{fullShare} f) ∗
    (∃ f, (rows oM (off true (c.val + 10) 0) (off_inb true _ 0)).view.loc (nxt c : Thread nD τ) ↦[(rows oM (off true (c.val + 10) 0) (off_inb true _ 0)).view.set]{fullShare} f) ∗
    (∃ f, (rows oM (off true (c.val + 10) 1) (off_inb true _ 1)).view.loc (nxt c : Thread nD τ) ↦[(rows oM (off true (c.val + 10) 1) (off_inb true _ 1)).view.set]{fullShare} f) ∗
    (∃ f, (rows oM (off true (c.val + 9) 0) (off_inb true _ 0)).view.loc (nxt c : Thread nD τ) ↦[(rows oM (off true (c.val + 9) 0) (off_inb true _ 0)).view.set]{fullShare} f) ∗
    (∃ f, (rows oM (off true (c.val + 9) 1) (off_inb true _ 1)).view.loc (nxt c : Thread nD τ) ↦[(rows oM (off true (c.val + 9) 1) (off_inb true _ 1)).view.set]{fullShare} f) ∗
    (∃ f, (rows oM (off true (c.val + 8) 0) (off_inb true _ 0)).view.loc (nxt c : Thread nD τ) ↦[(rows oM (off true (c.val + 8) 0) (off_inb true _ 0)).view.set]{fullShare} f) ∗
    (∃ f, (rows oM (off true (c.val + 8) 1) (off_inb true _ 1)).view.loc (nxt c : Thread nD τ) ↦[(rows oM (off true (c.val + 8) 1) (off_inb true _ 1)).view.set]{fullShare} f) ∗
    (∃ f, (rows oM (off true (c.val + 7) 0) (off_inb true _ 0)).view.loc (nxt c : Thread nD τ) ↦[(rows oM (off true (c.val + 7) 0) (off_inb true _ 0)).view.set]{fullShare} f) ∗
    (∃ f, (rows oM (off true (c.val + 7) 1) (off_inb true _ 1)).view.loc (nxt c : Thread nD τ) ↦[(rows oM (off true (c.val + 7) 1) (off_inb true _ 1)).view.set]{fullShare} f) ∗
    (∃ f, (rows oM (off true (c.val + 6) 0) (off_inb true _ 0)).view.loc (nxt c : Thread nD τ) ↦[(rows oM (off true (c.val + 6) 0) (off_inb true _ 0)).view.set]{fullShare} f) ∗
    (∃ f, (rows oM (off true (c.val + 6) 1) (off_inb true _ 1)).view.loc (nxt c : Thread nD τ) ↦[(rows oM (off true (c.val + 6) 1) (off_inb true _ 1)).view.set]{fullShare} f) ∗
    (∃ f, (rows oM (off true (c.val + 5) 0) (off_inb true _ 0)).view.loc (nxt c : Thread nD τ) ↦[(rows oM (off true (c.val + 5) 0) (off_inb true _ 0)).view.set]{fullShare} f) ∗
    (∃ f, (rows oM (off true (c.val + 5) 1) (off_inb true _ 1)).view.loc (nxt c : Thread nD τ) ↦[(rows oM (off true (c.val + 5) 1) (off_inb true _ 1)).view.set]{fullShare} f) ∗
    (∃ f, (rows oM (off true (c.val + 4) 0) (off_inb true _ 0)).view.loc (nxt c : Thread nD τ) ↦[(rows oM (off true (c.val + 4) 0) (off_inb true _ 0)).view.set]{fullShare} f) ∗
    (∃ f, (rows oM (off true (c.val + 4) 1) (off_inb true _ 1)).view.loc (nxt c : Thread nD τ) ↦[(rows oM (off true (c.val + 4) 1) (off_inb true _ 1)).view.set]{fullShare} f) ∗
    (∃ f, (rows oM (off true (c.val + 3) 0) (off_inb true _ 0)).view.loc (nxt c : Thread nD τ) ↦[(rows oM (off true (c.val + 3) 0) (off_inb true _ 0)).view.set]{fullShare} f) ∗
    (∃ f, (rows oM (off true (c.val + 3) 1) (off_inb true _ 1)).view.loc (nxt c : Thread nD τ) ↦[(rows oM (off true (c.val + 3) 1) (off_inb true _ 1)).view.set]{fullShare} f) ∗
    (∃ f, (rows oM (off true (c.val + 2) 0) (off_inb true _ 0)).view.loc (nxt c : Thread nD τ) ↦[(rows oM (off true (c.val + 2) 0) (off_inb true _ 0)).view.set]{fullShare} f) ∗
    (∃ f, (rows oM (off true (c.val + 2) 1) (off_inb true _ 1)).view.loc (nxt c : Thread nD τ) ↦[(rows oM (off true (c.val + 2) 1) (off_inb true _ 1)).view.set]{fullShare} f)) :=
  (allRows_shift true (nxt c) c (fun h => (16 - h) % 16) (shift_nxt c)).trans rfl

/-- the thirty sub-blocks the previous device receives in the gather towards it, by their chunks' shifts from c -/
theorem allRows_list_prv (c : Dev nD) : allRows (F := F) false (prv c) = iprop(
    (∃ f, (rows oM (off false (c.val + 0) 0) (off_inb false _ 0)).view.loc (prv c : Thread nD τ) ↦[(rows oM (off false (c.val + 0) 0) (off_inb false _ 0)).view.set]{fullShare} f) ∗
    (∃ f, (rows oM (off false (c.val + 0) 1) (off_inb false _ 1)).view.loc (prv c : Thread nD τ) ↦[(rows oM (off false (c.val + 0) 1) (off_inb false _ 1)).view.set]{fullShare} f) ∗
    (∃ f, (rows oM (off false (c.val + 1) 0) (off_inb false _ 0)).view.loc (prv c : Thread nD τ) ↦[(rows oM (off false (c.val + 1) 0) (off_inb false _ 0)).view.set]{fullShare} f) ∗
    (∃ f, (rows oM (off false (c.val + 1) 1) (off_inb false _ 1)).view.loc (prv c : Thread nD τ) ↦[(rows oM (off false (c.val + 1) 1) (off_inb false _ 1)).view.set]{fullShare} f) ∗
    (∃ f, (rows oM (off false (c.val + 2) 0) (off_inb false _ 0)).view.loc (prv c : Thread nD τ) ↦[(rows oM (off false (c.val + 2) 0) (off_inb false _ 0)).view.set]{fullShare} f) ∗
    (∃ f, (rows oM (off false (c.val + 2) 1) (off_inb false _ 1)).view.loc (prv c : Thread nD τ) ↦[(rows oM (off false (c.val + 2) 1) (off_inb false _ 1)).view.set]{fullShare} f) ∗
    (∃ f, (rows oM (off false (c.val + 3) 0) (off_inb false _ 0)).view.loc (prv c : Thread nD τ) ↦[(rows oM (off false (c.val + 3) 0) (off_inb false _ 0)).view.set]{fullShare} f) ∗
    (∃ f, (rows oM (off false (c.val + 3) 1) (off_inb false _ 1)).view.loc (prv c : Thread nD τ) ↦[(rows oM (off false (c.val + 3) 1) (off_inb false _ 1)).view.set]{fullShare} f) ∗
    (∃ f, (rows oM (off false (c.val + 4) 0) (off_inb false _ 0)).view.loc (prv c : Thread nD τ) ↦[(rows oM (off false (c.val + 4) 0) (off_inb false _ 0)).view.set]{fullShare} f) ∗
    (∃ f, (rows oM (off false (c.val + 4) 1) (off_inb false _ 1)).view.loc (prv c : Thread nD τ) ↦[(rows oM (off false (c.val + 4) 1) (off_inb false _ 1)).view.set]{fullShare} f) ∗
    (∃ f, (rows oM (off false (c.val + 5) 0) (off_inb false _ 0)).view.loc (prv c : Thread nD τ) ↦[(rows oM (off false (c.val + 5) 0) (off_inb false _ 0)).view.set]{fullShare} f) ∗
    (∃ f, (rows oM (off false (c.val + 5) 1) (off_inb false _ 1)).view.loc (prv c : Thread nD τ) ↦[(rows oM (off false (c.val + 5) 1) (off_inb false _ 1)).view.set]{fullShare} f) ∗
    (∃ f, (rows oM (off false (c.val + 6) 0) (off_inb false _ 0)).view.loc (prv c : Thread nD τ) ↦[(rows oM (off false (c.val + 6) 0) (off_inb false _ 0)).view.set]{fullShare} f) ∗
    (∃ f, (rows oM (off false (c.val + 6) 1) (off_inb false _ 1)).view.loc (prv c : Thread nD τ) ↦[(rows oM (off false (c.val + 6) 1) (off_inb false _ 1)).view.set]{fullShare} f) ∗
    (∃ f, (rows oM (off false (c.val + 7) 0) (off_inb false _ 0)).view.loc (prv c : Thread nD τ) ↦[(rows oM (off false (c.val + 7) 0) (off_inb false _ 0)).view.set]{fullShare} f) ∗
    (∃ f, (rows oM (off false (c.val + 7) 1) (off_inb false _ 1)).view.loc (prv c : Thread nD τ) ↦[(rows oM (off false (c.val + 7) 1) (off_inb false _ 1)).view.set]{fullShare} f) ∗
    (∃ f, (rows oM (off false (c.val + 8) 0) (off_inb false _ 0)).view.loc (prv c : Thread nD τ) ↦[(rows oM (off false (c.val + 8) 0) (off_inb false _ 0)).view.set]{fullShare} f) ∗
    (∃ f, (rows oM (off false (c.val + 8) 1) (off_inb false _ 1)).view.loc (prv c : Thread nD τ) ↦[(rows oM (off false (c.val + 8) 1) (off_inb false _ 1)).view.set]{fullShare} f) ∗
    (∃ f, (rows oM (off false (c.val + 9) 0) (off_inb false _ 0)).view.loc (prv c : Thread nD τ) ↦[(rows oM (off false (c.val + 9) 0) (off_inb false _ 0)).view.set]{fullShare} f) ∗
    (∃ f, (rows oM (off false (c.val + 9) 1) (off_inb false _ 1)).view.loc (prv c : Thread nD τ) ↦[(rows oM (off false (c.val + 9) 1) (off_inb false _ 1)).view.set]{fullShare} f) ∗
    (∃ f, (rows oM (off false (c.val + 10) 0) (off_inb false _ 0)).view.loc (prv c : Thread nD τ) ↦[(rows oM (off false (c.val + 10) 0) (off_inb false _ 0)).view.set]{fullShare} f) ∗
    (∃ f, (rows oM (off false (c.val + 10) 1) (off_inb false _ 1)).view.loc (prv c : Thread nD τ) ↦[(rows oM (off false (c.val + 10) 1) (off_inb false _ 1)).view.set]{fullShare} f) ∗
    (∃ f, (rows oM (off false (c.val + 11) 0) (off_inb false _ 0)).view.loc (prv c : Thread nD τ) ↦[(rows oM (off false (c.val + 11) 0) (off_inb false _ 0)).view.set]{fullShare} f) ∗
    (∃ f, (rows oM (off false (c.val + 11) 1) (off_inb false _ 1)).view.loc (prv c : Thread nD τ) ↦[(rows oM (off false (c.val + 11) 1) (off_inb false _ 1)).view.set]{fullShare} f) ∗
    (∃ f, (rows oM (off false (c.val + 12) 0) (off_inb false _ 0)).view.loc (prv c : Thread nD τ) ↦[(rows oM (off false (c.val + 12) 0) (off_inb false _ 0)).view.set]{fullShare} f) ∗
    (∃ f, (rows oM (off false (c.val + 12) 1) (off_inb false _ 1)).view.loc (prv c : Thread nD τ) ↦[(rows oM (off false (c.val + 12) 1) (off_inb false _ 1)).view.set]{fullShare} f) ∗
    (∃ f, (rows oM (off false (c.val + 13) 0) (off_inb false _ 0)).view.loc (prv c : Thread nD τ) ↦[(rows oM (off false (c.val + 13) 0) (off_inb false _ 0)).view.set]{fullShare} f) ∗
    (∃ f, (rows oM (off false (c.val + 13) 1) (off_inb false _ 1)).view.loc (prv c : Thread nD τ) ↦[(rows oM (off false (c.val + 13) 1) (off_inb false _ 1)).view.set]{fullShare} f) ∗
    (∃ f, (rows oM (off false (c.val + 14) 0) (off_inb false _ 0)).view.loc (prv c : Thread nD τ) ↦[(rows oM (off false (c.val + 14) 0) (off_inb false _ 0)).view.set]{fullShare} f) ∗
    (∃ f, (rows oM (off false (c.val + 14) 1) (off_inb false _ 1)).view.loc (prv c : Thread nD τ) ↦[(rows oM (off false (c.val + 14) 1) (off_inb false _ 1)).view.set]{fullShare} f)) :=
  (allRows_shift false (prv c) c (fun h => h) (shift_prv c)).trans rfl

/-- the thirty sub-blocks device c itself receives in direction true -/
theorem allRows_list_own_cw (c : Dev nD) : allRows (F := F) true c = iprop(
    (∃ f, (rows oM (off true (c.val + 15) 0) (off_inb true _ 0)).view.loc (c : Thread nD τ) ↦[(rows oM (off true (c.val + 15) 0) (off_inb true _ 0)).view.set]{fullShare} f) ∗
    (∃ f, (rows oM (off true (c.val + 15) 1) (off_inb true _ 1)).view.loc (c : Thread nD τ) ↦[(rows oM (off true (c.val + 15) 1) (off_inb true _ 1)).view.set]{fullShare} f) ∗
    (∃ f, (rows oM (off true (c.val + 14) 0) (off_inb true _ 0)).view.loc (c : Thread nD τ) ↦[(rows oM (off true (c.val + 14) 0) (off_inb true _ 0)).view.set]{fullShare} f) ∗
    (∃ f, (rows oM (off true (c.val + 14) 1) (off_inb true _ 1)).view.loc (c : Thread nD τ) ↦[(rows oM (off true (c.val + 14) 1) (off_inb true _ 1)).view.set]{fullShare} f) ∗
    (∃ f, (rows oM (off true (c.val + 13) 0) (off_inb true _ 0)).view.loc (c : Thread nD τ) ↦[(rows oM (off true (c.val + 13) 0) (off_inb true _ 0)).view.set]{fullShare} f) ∗
    (∃ f, (rows oM (off true (c.val + 13) 1) (off_inb true _ 1)).view.loc (c : Thread nD τ) ↦[(rows oM (off true (c.val + 13) 1) (off_inb true _ 1)).view.set]{fullShare} f) ∗
    (∃ f, (rows oM (off true (c.val + 12) 0) (off_inb true _ 0)).view.loc (c : Thread nD τ) ↦[(rows oM (off true (c.val + 12) 0) (off_inb true _ 0)).view.set]{fullShare} f) ∗
    (∃ f, (rows oM (off true (c.val + 12) 1) (off_inb true _ 1)).view.loc (c : Thread nD τ) ↦[(rows oM (off true (c.val + 12) 1) (off_inb true _ 1)).view.set]{fullShare} f) ∗
    (∃ f, (rows oM (off true (c.val + 11) 0) (off_inb true _ 0)).view.loc (c : Thread nD τ) ↦[(rows oM (off true (c.val + 11) 0) (off_inb true _ 0)).view.set]{fullShare} f) ∗
    (∃ f, (rows oM (off true (c.val + 11) 1) (off_inb true _ 1)).view.loc (c : Thread nD τ) ↦[(rows oM (off true (c.val + 11) 1) (off_inb true _ 1)).view.set]{fullShare} f) ∗
    (∃ f, (rows oM (off true (c.val + 10) 0) (off_inb true _ 0)).view.loc (c : Thread nD τ) ↦[(rows oM (off true (c.val + 10) 0) (off_inb true _ 0)).view.set]{fullShare} f) ∗
    (∃ f, (rows oM (off true (c.val + 10) 1) (off_inb true _ 1)).view.loc (c : Thread nD τ) ↦[(rows oM (off true (c.val + 10) 1) (off_inb true _ 1)).view.set]{fullShare} f) ∗
    (∃ f, (rows oM (off true (c.val + 9) 0) (off_inb true _ 0)).view.loc (c : Thread nD τ) ↦[(rows oM (off true (c.val + 9) 0) (off_inb true _ 0)).view.set]{fullShare} f) ∗
    (∃ f, (rows oM (off true (c.val + 9) 1) (off_inb true _ 1)).view.loc (c : Thread nD τ) ↦[(rows oM (off true (c.val + 9) 1) (off_inb true _ 1)).view.set]{fullShare} f) ∗
    (∃ f, (rows oM (off true (c.val + 8) 0) (off_inb true _ 0)).view.loc (c : Thread nD τ) ↦[(rows oM (off true (c.val + 8) 0) (off_inb true _ 0)).view.set]{fullShare} f) ∗
    (∃ f, (rows oM (off true (c.val + 8) 1) (off_inb true _ 1)).view.loc (c : Thread nD τ) ↦[(rows oM (off true (c.val + 8) 1) (off_inb true _ 1)).view.set]{fullShare} f) ∗
    (∃ f, (rows oM (off true (c.val + 7) 0) (off_inb true _ 0)).view.loc (c : Thread nD τ) ↦[(rows oM (off true (c.val + 7) 0) (off_inb true _ 0)).view.set]{fullShare} f) ∗
    (∃ f, (rows oM (off true (c.val + 7) 1) (off_inb true _ 1)).view.loc (c : Thread nD τ) ↦[(rows oM (off true (c.val + 7) 1) (off_inb true _ 1)).view.set]{fullShare} f) ∗
    (∃ f, (rows oM (off true (c.val + 6) 0) (off_inb true _ 0)).view.loc (c : Thread nD τ) ↦[(rows oM (off true (c.val + 6) 0) (off_inb true _ 0)).view.set]{fullShare} f) ∗
    (∃ f, (rows oM (off true (c.val + 6) 1) (off_inb true _ 1)).view.loc (c : Thread nD τ) ↦[(rows oM (off true (c.val + 6) 1) (off_inb true _ 1)).view.set]{fullShare} f) ∗
    (∃ f, (rows oM (off true (c.val + 5) 0) (off_inb true _ 0)).view.loc (c : Thread nD τ) ↦[(rows oM (off true (c.val + 5) 0) (off_inb true _ 0)).view.set]{fullShare} f) ∗
    (∃ f, (rows oM (off true (c.val + 5) 1) (off_inb true _ 1)).view.loc (c : Thread nD τ) ↦[(rows oM (off true (c.val + 5) 1) (off_inb true _ 1)).view.set]{fullShare} f) ∗
    (∃ f, (rows oM (off true (c.val + 4) 0) (off_inb true _ 0)).view.loc (c : Thread nD τ) ↦[(rows oM (off true (c.val + 4) 0) (off_inb true _ 0)).view.set]{fullShare} f) ∗
    (∃ f, (rows oM (off true (c.val + 4) 1) (off_inb true _ 1)).view.loc (c : Thread nD τ) ↦[(rows oM (off true (c.val + 4) 1) (off_inb true _ 1)).view.set]{fullShare} f) ∗
    (∃ f, (rows oM (off true (c.val + 3) 0) (off_inb true _ 0)).view.loc (c : Thread nD τ) ↦[(rows oM (off true (c.val + 3) 0) (off_inb true _ 0)).view.set]{fullShare} f) ∗
    (∃ f, (rows oM (off true (c.val + 3) 1) (off_inb true _ 1)).view.loc (c : Thread nD τ) ↦[(rows oM (off true (c.val + 3) 1) (off_inb true _ 1)).view.set]{fullShare} f) ∗
    (∃ f, (rows oM (off true (c.val + 2) 0) (off_inb true _ 0)).view.loc (c : Thread nD τ) ↦[(rows oM (off true (c.val + 2) 0) (off_inb true _ 0)).view.set]{fullShare} f) ∗
    (∃ f, (rows oM (off true (c.val + 2) 1) (off_inb true _ 1)).view.loc (c : Thread nD τ) ↦[(rows oM (off true (c.val + 2) 1) (off_inb true _ 1)).view.set]{fullShare} f) ∗
    (∃ f, (rows oM (off true (c.val + 1) 0) (off_inb true _ 0)).view.loc (c : Thread nD τ) ↦[(rows oM (off true (c.val + 1) 0) (off_inb true _ 0)).view.set]{fullShare} f) ∗
    (∃ f, (rows oM (off true (c.val + 1) 1) (off_inb true _ 1)).view.loc (c : Thread nD τ) ↦[(rows oM (off true (c.val + 1) 1) (off_inb true _ 1)).view.set]{fullShare} f)) :=
  (allRows_shift true c c (agShift true) (fun _ _ => rfl)).trans rfl

/-- the thirty sub-blocks device c itself receives in direction false -/
theorem allRows_list_own_ccw (c : Dev nD) : allRows (F := F) false c = iprop(
    (∃ f, (rows oM (off false (c.val + 1) 0) (off_inb false _ 0)).view.loc (c : Thread nD τ) ↦[(rows oM (off false (c.val + 1) 0) (off_inb false _ 0)).view.set]{fullShare} f) ∗
    (∃ f, (rows oM (off false (c.val + 1) 1) (off_inb false _ 1)).view.loc (c : Thread nD τ) ↦[(rows oM (off false (c.val + 1) 1) (off_inb false _ 1)).view.set]{fullShare} f) ∗
    (∃ f, (rows oM (off false (c.val + 2) 0) (off_inb false _ 0)).view.loc (c : Thread nD τ) ↦[(rows oM (off false (c.val + 2) 0) (off_inb false _ 0)).view.set]{fullShare} f) ∗
    (∃ f, (rows oM (off false (c.val + 2) 1) (off_inb false _ 1)).view.loc (c : Thread nD τ) ↦[(rows oM (off false (c.val + 2) 1) (off_inb false _ 1)).view.set]{fullShare} f) ∗
    (∃ f, (rows oM (off false (c.val + 3) 0) (off_inb false _ 0)).view.loc (c : Thread nD τ) ↦[(rows oM (off false (c.val + 3) 0) (off_inb false _ 0)).view.set]{fullShare} f) ∗
    (∃ f, (rows oM (off false (c.val + 3) 1) (off_inb false _ 1)).view.loc (c : Thread nD τ) ↦[(rows oM (off false (c.val + 3) 1) (off_inb false _ 1)).view.set]{fullShare} f) ∗
    (∃ f, (rows oM (off false (c.val + 4) 0) (off_inb false _ 0)).view.loc (c : Thread nD τ) ↦[(rows oM (off false (c.val + 4) 0) (off_inb false _ 0)).view.set]{fullShare} f) ∗
    (∃ f, (rows oM (off false (c.val + 4) 1) (off_inb false _ 1)).view.loc (c : Thread nD τ) ↦[(rows oM (off false (c.val + 4) 1) (off_inb false _ 1)).view.set]{fullShare} f) ∗
    (∃ f, (rows oM (off false (c.val + 5) 0) (off_inb false _ 0)).view.loc (c : Thread nD τ) ↦[(rows oM (off false (c.val + 5) 0) (off_inb false _ 0)).view.set]{fullShare} f) ∗
    (∃ f, (rows oM (off false (c.val + 5) 1) (off_inb false _ 1)).view.loc (c : Thread nD τ) ↦[(rows oM (off false (c.val + 5) 1) (off_inb false _ 1)).view.set]{fullShare} f) ∗
    (∃ f, (rows oM (off false (c.val + 6) 0) (off_inb false _ 0)).view.loc (c : Thread nD τ) ↦[(rows oM (off false (c.val + 6) 0) (off_inb false _ 0)).view.set]{fullShare} f) ∗
    (∃ f, (rows oM (off false (c.val + 6) 1) (off_inb false _ 1)).view.loc (c : Thread nD τ) ↦[(rows oM (off false (c.val + 6) 1) (off_inb false _ 1)).view.set]{fullShare} f) ∗
    (∃ f, (rows oM (off false (c.val + 7) 0) (off_inb false _ 0)).view.loc (c : Thread nD τ) ↦[(rows oM (off false (c.val + 7) 0) (off_inb false _ 0)).view.set]{fullShare} f) ∗
    (∃ f, (rows oM (off false (c.val + 7) 1) (off_inb false _ 1)).view.loc (c : Thread nD τ) ↦[(rows oM (off false (c.val + 7) 1) (off_inb false _ 1)).view.set]{fullShare} f) ∗
    (∃ f, (rows oM (off false (c.val + 8) 0) (off_inb false _ 0)).view.loc (c : Thread nD τ) ↦[(rows oM (off false (c.val + 8) 0) (off_inb false _ 0)).view.set]{fullShare} f) ∗
    (∃ f, (rows oM (off false (c.val + 8) 1) (off_inb false _ 1)).view.loc (c : Thread nD τ) ↦[(rows oM (off false (c.val + 8) 1) (off_inb false _ 1)).view.set]{fullShare} f) ∗
    (∃ f, (rows oM (off false (c.val + 9) 0) (off_inb false _ 0)).view.loc (c : Thread nD τ) ↦[(rows oM (off false (c.val + 9) 0) (off_inb false _ 0)).view.set]{fullShare} f) ∗
    (∃ f, (rows oM (off false (c.val + 9) 1) (off_inb false _ 1)).view.loc (c : Thread nD τ) ↦[(rows oM (off false (c.val + 9) 1) (off_inb false _ 1)).view.set]{fullShare} f) ∗
    (∃ f, (rows oM (off false (c.val + 10) 0) (off_inb false _ 0)).view.loc (c : Thread nD τ) ↦[(rows oM (off false (c.val + 10) 0) (off_inb false _ 0)).view.set]{fullShare} f) ∗
    (∃ f, (rows oM (off false (c.val + 10) 1) (off_inb false _ 1)).view.loc (c : Thread nD τ) ↦[(rows oM (off false (c.val + 10) 1) (off_inb false _ 1)).view.set]{fullShare} f) ∗
    (∃ f, (rows oM (off false (c.val + 11) 0) (off_inb false _ 0)).view.loc (c : Thread nD τ) ↦[(rows oM (off false (c.val + 11) 0) (off_inb false _ 0)).view.set]{fullShare} f) ∗
    (∃ f, (rows oM (off false (c.val + 11) 1) (off_inb false _ 1)).view.loc (c : Thread nD τ) ↦[(rows oM (off false (c.val + 11) 1) (off_inb false _ 1)).view.set]{fullShare} f) ∗
    (∃ f, (rows oM (off false (c.val + 12) 0) (off_inb false _ 0)).view.loc (c : Thread nD τ) ↦[(rows oM (off false (c.val + 12) 0) (off_inb false _ 0)).view.set]{fullShare} f) ∗
    (∃ f, (rows oM (off false (c.val + 12) 1) (off_inb false _ 1)).view.loc (c : Thread nD τ) ↦[(rows oM (off false (c.val + 12) 1) (off_inb false _ 1)).view.set]{fullShare} f) ∗
    (∃ f, (rows oM (off false (c.val + 13) 0) (off_inb false _ 0)).view.loc (c : Thread nD τ) ↦[(rows oM (off false (c.val + 13) 0) (off_inb false _ 0)).view.set]{fullShare} f) ∗
    (∃ f, (rows oM (off false (c.val + 13) 1) (off_inb false _ 1)).view.loc (c : Thread nD τ) ↦[(rows oM (off false (c.val + 13) 1) (off_inb false _ 1)).view.set]{fullShare} f) ∗
    (∃ f, (rows oM (off false (c.val + 14) 0) (off_inb false _ 0)).view.loc (c : Thread nD τ) ↦[(rows oM (off false (c.val + 14) 0) (off_inb false _ 0)).view.set]{fullShare} f) ∗
    (∃ f, (rows oM (off false (c.val + 14) 1) (off_inb false _ 1)).view.loc (c : Thread nD τ) ↦[(rows oM (off false (c.val + 14) 1) (off_inb false _ 1)).view.set]{fullShare} f) ∗
    (∃ f, (rows oM (off false (c.val + 15) 0) (off_inb false _ 0)).view.loc (c : Thread nD τ) ↦[(rows oM (off false (c.val + 15) 0) (off_inb false _ 0)).view.set]{fullShare} f) ∗
    (∃ f, (rows oM (off false (c.val + 15) 1) (off_inb false _ 1)).view.loc (c : Thread nD τ) ↦[(rows oM (off false (c.val + 15) 1) (off_inb false _ 1)).view.set]{fullShare} f)) :=
  (allRows_shift false c c (agShift false) (fun _ _ => rfl)).trans rfl

/-- thirty slots of the ring buffer of direction true at given contents are its thirty slots -/
theorem slots_intro_cw (d : Dev nD)
    (f_0_0 f_0_1 f_1_0 f_1_1 f_2_0 f_2_1 f_3_0 f_3_1 f_4_0 f_4_1 f_5_0 f_5_1 f_6_0 f_6_1 f_7_0 f_7_1 f_8_0 f_8_1 f_9_0 f_9_1 f_10_0 f_10_1 f_11_0 f_11_1 f_12_0 f_12_1 f_13_0 f_13_1 f_14_0 f_14_1 : Buf (Elt F) (aM.view.loc (d : Thread nD τ))) :
    (iprop(
    ((slot aM 0 0 Cert.KernelIdeal.Gen.inb_S15x128x1024_S1x64x1024_0_0_0).view.loc (d : Thread nD τ) ↦[(slot aM 0 0 Cert.KernelIdeal.Gen.inb_S15x128x1024_S1x64x1024_0_0_0).view.set]{fullShare} f_0_0) ∗
    ((slot aM 0 64 Cert.KernelIdeal.Gen.inb_S15x128x1024_S1x64x1024_0_64_0).view.loc (d : Thread nD τ) ↦[(slot aM 0 64 Cert.KernelIdeal.Gen.inb_S15x128x1024_S1x64x1024_0_64_0).view.set]{fullShare} f_0_1) ∗
    ((slot aM 1 0 Cert.KernelIdeal.Gen.inb_S15x128x1024_S1x64x1024_1_0_0).view.loc (d : Thread nD τ) ↦[(slot aM 1 0 Cert.KernelIdeal.Gen.inb_S15x128x1024_S1x64x1024_1_0_0).view.set]{fullShare} f_1_0) ∗
    ((slot aM 1 64 Cert.KernelIdeal.Gen.inb_S15x128x1024_S1x64x1024_1_64_0).view.loc (d : Thread nD τ) ↦[(slot aM 1 64 Cert.KernelIdeal.Gen.inb_S15x128x1024_S1x64x1024_1_64_0).view.set]{fullShare} f_1_1) ∗
    ((slot aM 2 0 Cert.KernelIdeal.Gen.inb_S15x128x1024_S1x64x1024_2_0_0).view.loc (d : Thread nD τ) ↦[(slot aM 2 0 Cert.KernelIdeal.Gen.inb_S15x128x1024_S1x64x1024_2_0_0).view.set]{fullShare} f_2_0) ∗
    ((slot aM 2 64 Cert.KernelIdeal.Gen.inb_S15x128x1024_S1x64x1024_2_64_0).view.loc (d : Thread nD τ) ↦[(slot aM 2 64 Cert.KernelIdeal.Gen.inb_S15x128x1024_S1x64x1024_2_64_0).view.set]{fullShare} f_2_1) ∗
    ((slot aM 3 0 Cert.KernelIdeal.Gen.inb_S15x128x1024_S1x64x1024_3_0_0).view.loc (d : Thread nD τ) ↦[(slot aM 3 0 Cert.KernelIdeal.Gen.inb_S15x128x1024_S1x64x1024_3_0_0).view.set]{fullShare} f_3_0) ∗
    ((slot aM 3 64 Cert.KernelIdeal.Gen.inb_S15x128x1024_S1x64x1024_3_64_0).view.loc (d : Thread nD τ) ↦[(slot aM 3 64 Cert.KernelIdeal.Gen.inb_S15x128x1024_S1x64x1024_3_64_0).view.set]{fullShare} f_3_1) ∗
    ((slot aM 4 0 Cert.KernelIdeal.Gen.inb_S15x128x1024_S1x64x1024_4_0_0).view.loc (d : Thread nD τ) ↦[(slot aM 4 0 Cert.KernelIdeal.Gen.inb_S15x128x1024_S1x64x1024_4_0_0).view.set]{fullShare} f_4_0) ∗
    ((slot aM 4 64 Cert.KernelIdeal.Gen.inb_S15x128x1024_S1x64x1024_4_64_0).view.loc (d : Thread nD τ) ↦[(slot aM 4 64 Cert.KernelIdeal.Gen.inb_S15x128x1024_S1x64x1024_4_64_0).view.set]{fullShare} f_4_1) ∗
    ((slot aM 5 0 Cert.KernelIdeal.Gen.inb_S15x128x1024_S1x64x1024_5_0_0).view.loc (d : Thread nD τ) ↦[(slot aM 5 0 Cert.KernelIdeal.Gen.inb_S15x128x1024_S1x64x1024_5_0_0).view.set]{fullShare} f_5_0) ∗
    ((slot aM 5 64 Cert.KernelIdeal.Gen.inb_S15x128x1024_S1x64x1024_5_64_0).view.loc (d : Thread nD τ) ↦[(slot aM 5 64 Cert.KernelIdeal.Gen.inb_S15x128x1024_S1x64x1024_5_64_0).view.set]{fullShare} f_5_1) ∗
    ((slot aM 6 0 Cert.KernelIdeal.Gen.inb_S15x128x1024_S1x64x1024_6_0_0).view.loc (d : Thread nD τ) ↦[(slot aM 6 0 Cert.KernelIdeal.Gen.inb_S15x128x1024_S1x64x1024_6_0_0).view.set]{fullShare} f_6_0) ∗
    ((slot aM 6 64 Cert.KernelIdeal.Gen.inb_S15x128x1024_S1x64x1024_6_64_0).view.loc (d : Thread nD τ) ↦[(slot aM 6 64 Cert.KernelIdeal.Gen.inb_S15x128x1024_S1x64x1024_6_64_0).view.set]{fullShare} f_6_1) ∗
    ((slot aM 7 0 Cert.KernelIdeal.Gen.inb_S15x128x1024_S1x64x1024_7_0_0).view.loc (d : Thread nD τ) ↦[(slot aM 7 0 Cert.KernelIdeal.Gen.inb_S15x128x1024_S1x64x1024_7_0_0).view.set]{fullShare} f_7_0) ∗
    ((slot aM 7 64 Cert.KernelIdeal.Gen.inb_S15x128x1024_S1x64x1024_7_64_0).view.loc (d : Thread nD τ) ↦[(slot aM 7 64 Cert.KernelIdeal.Gen.inb_S15x128x1024_S1x64x1024_7_64_0).view.set]{fullShare} f_7_1) ∗
    ((slot aM 8 0 Cert.KernelIdeal.Gen.inb_S15x128x1024_S1x64x1024_8_0_0).view.loc (d : Thread nD τ) ↦[(slot aM 8 0 Cert.KernelIdeal.Gen.inb_S15x128x1024_S1x64x1024_8_0_0).view.set]{fullShare} f_8_0) ∗
    ((slot aM 8 64 Cert.KernelIdeal.Gen.inb_S15x128x1024_S1x64x1024_8_64_0).view.loc (d : Thread nD τ) ↦[(slot aM 8 64 Cert.KernelIdeal.Gen.inb_S15x128x1024_S1x64x1024_8_64_0).view.set]{fullShare} f_8_1) ∗
    ((slot aM 9 0 Cert.KernelIdeal.Gen.inb_S15x128x1024_S1x64x1024_9_0_0).view.loc (d : Thread nD τ) ↦[(slot aM 9 0 Cert.KernelIdeal.Gen.inb_S15x128x1024_S1x64x1024_9_0_0).view.set]{fullShare} f_9_0) ∗
    ((slot aM 9 64 Cert.KernelIdeal.Gen.inb_S15x128x1024_S1x64x1024_9_64_0).view.loc (d : Thread nD τ) ↦[(slot aM 9 64 Cert.KernelIdeal.Gen.inb_S15x128x1024_S1x64x1024_9_64_0).view.set]{fullShare} f_9_1) ∗
    ((slot aM 10 0 Cert.KernelIdeal.Gen.inb_S15x128x1024_S1x64x1024_10_0_0).view.loc (d : Thread nD τ) ↦[(slot aM 10 0 Cert.KernelIdeal.Gen.inb_S15x128x1024_S1x64x1024_10_0_0).view.set]{fullShare} f_10_0) ∗
    ((slot aM 10 64 Cert.KernelIdeal.Gen.inb_S15x128x1024_S1x64x1024_10_64_0).view.loc (d : Thread nD τ) ↦[(slot aM 10 64 Cert.KernelIdeal.Gen.inb_S15x128x1024_S1x64x1024_10_64_0).view.set]{fullShare} f_10_1) ∗
    ((slot aM 11 0 Cert.KernelIdeal.Gen.inb_S15x128x1024_S1x64x1024_11_0_0).view.loc (d : Thread nD τ) ↦[(slot aM 11 0 Cert.KernelIdeal.Gen.inb_S15x128x1024_S1x64x1024_11_0_0).view.set]{fullShare} f_11_0) ∗
    ((slot aM 11 64 Cert.KernelIdeal.Gen.inb_S15x128x1024_S1x64x1024_11_64_0).view.loc (d : Thread nD τ) ↦[(slot aM 11 64 Cert.KernelIdeal.Gen.inb_S15x128x1024_S1x64x1024_11_64_0).view.set]{fullShare} f_11_1) ∗
    ((slot aM 12 0 Cert.KernelIdeal.Gen.inb_S15x128x1024_S1x64x1024_12_0_0).view.loc (d : Thread nD τ) ↦[(slot aM 12 0 Cert.KernelIdeal.Gen.inb_S15x128x1024_S1x64x1024_12_0_0).view.set]{fullShare} f_12_0) ∗
    ((slot aM 12 64 Cert.KernelIdeal.Gen.inb_S15x128x1024_S1x64x1024_12_64_0).view.loc (d : Thread nD τ) ↦[(slot aM 12 64 Cert.KernelIdeal.Gen.inb_S15x128x1024_S1x64x1024_12_64_0).view.set]{fullShare} f_12_1) ∗
    ((slot aM 13 0 Cert.KernelIdeal.Gen.inb_S15x128x1024_S1x64x1024_13_0_0).view.loc (d : Thread nD τ) ↦[(slot aM 13 0 Cert.KernelIdeal.Gen.inb_S15x128x1024_S1x64x1024_13_0_0).view.set]{fullShare} f_13_0) ∗
    ((slot aM 13 64 Cert.KernelIdeal.Gen.inb_S15x128x1024_S1x64x1024_13_64_0).view.loc (d : Thread nD τ) ↦[(slot aM 13 64 Cert.KernelIdeal.Gen.inb_S15x128x1024_S1x64x1024_13_64_0).view.set]{fullShare} f_13_1) ∗
    ((slot aM 14 0 Cert.KernelIdeal.Gen.inb_S15x128x1024_S1x64x1024_14_0_0).view.loc (d : Thread nD τ) ↦[(slot aM 14 0 Cert.KernelIdeal.Gen.inb_S15x128x1024_S1x64x1024_14_0_0).view.set]{fullShare} f_14_0) ∗
    ((slot aM 14 64 Cert.KernelIdeal.Gen.inb_S15x128x1024_S1x64x1024_14_64_0).view.loc (d : Thread nD τ) ↦[(slot aM 14 64 Cert.KernelIdeal.Gen.inb_S15x128x1024_S1x64x1024_14_64_0).view.set]{fullShare} f_14_1)) : sProp 𝕄) ⊢ allSlots (F := F) true d :=
  slots_intro_gen true d fun sb => [f_0_0, f_0_1, f_1_0, f_1_1, f_2_0, f_2_1, f_3_0, f_3_1, f_4_0, f_4_1, f_5_0, f_5_1, f_6_0, f_6_1, f_7_0, f_7_1, f_8_0, f_8_1, f_9_0, f_9_1, f_10_0, f_10_1, f_11_0, f_11_1, f_12_0, f_12_1, f_13_0, f_13_1, f_14_0, f_14_1].getD (2 * sb.1.val + sb.2.val) f_0_0

/-- thirty slots of the ring buffer of direction false at given contents are its thirty slots -/
theorem slots_intro_ccw (d : Dev nD)
    (f_0_0 f_0_1 f_1_0 f_1_1 f_2_0 f_2_1 f_3_0 f_3_1 f_4_0 f_4_1 f_5_0 f_5_1 f_6_0 f_6_1 f_7_0 f_7_1 f_8_0 f_8_1 f_9_0 f_9_1 f_10_0 f_10_1 f_11_0 f_11_1 f_12_0 f_12_1 f_13_0 f_13_1 f_14_0 f_14_1 : Buf (Elt F) (bM.view.loc (d : Thread nD τ))) :
    (iprop(
    ((slot bM 0 0 Cert.KernelIdeal.Gen.inb_S15x128x1024_S1x64x1024_0_0_0).view.loc (d : Thread nD τ) ↦[(slot bM 0 0 Cert.KernelIdeal.Gen.inb_S15x128x1024_S1x64x1024_0_0_0).view.set]{fullShare} f_0_0) ∗
    ((slot bM 0 64 Cert.KernelIdeal.Gen.inb_S15x128x1024_S1x64x1024_0_64_0).view.loc (d : Thread nD τ) ↦[(slot bM 0 64 Cert.KernelIdeal.Gen.inb_S15x128x1024_S1x64x1024_0_64_0).view.set]{fullShare} f_0_1) ∗
    ((slot bM 1 0 Cert.KernelIdeal.Gen.inb_S15x128x1024_S1x64x1024_1_0_0).view.loc (d : Thread nD τ) ↦[(slot bM 1 0 Cert.KernelIdeal.Gen.inb_S15x128x1024_S1x64x1024_1_0_0).view.set]{fullShare} f_1_0) ∗
    ((slot bM 1 64 Cert.KernelIdeal.Gen.inb_S15x128x1024_S1x64x1024_1_64_0).view.loc (d : Thread nD τ) ↦[(slot bM 1 64 Cert.KernelIdeal.Gen.inb_S15x128x1024_S1x64x1024_1_64_0).view.set]{fullShare} f_1_1) ∗
    ((slot bM 2 0 Cert.KernelIdeal.Gen.inb_S15x128x1024_S1x64x1024_2_0_0).view.loc (d : Thread nD τ) ↦[(slot bM 2 0 Cert.KernelIdeal.Gen.inb_S15x128x1024_S1x64x1024_2_0_0).view.set]{fullShare} f_2_0) ∗
    ((slot bM 2 64 Cert.KernelIdeal.Gen.inb_S15x128x1024_S1x64x1024_2_64_0).view.loc (d : Thread nD τ) ↦[(slot bM 2 64 Cert.KernelIdeal.Gen.inb_S15x128x1024_S1x64x1024_2_64_0).view.set]{fullShare} f_2_1) ∗
    ((slot bM 3 0 Cert.KernelIdeal.Gen.inb_S15x128x1024_S1x64x1024_3_0_0).view.loc (d : Thread nD τ) ↦[(slot bM 3 0 Cert.KernelIdeal.Gen.inb_S15x128x1024_S1x64x1024_3_0_0).view.set]{fullShare} f_3_0) ∗
    ((slot bM 3 64 Cert.KernelIdeal.Gen.inb_S15x128x1024_S1x64x1024_3_64_0).view.loc (d : Thread nD τ) ↦[(slot bM 3 64 Cert.KernelIdeal.Gen.inb_S15x128x1024_S1x64x1024_3_64_0).view.set]{fullShare} f_3_1) ∗
    ((slot bM 4 0 Cert.KernelIdeal.Gen.inb_S15x128x1024_S1x64x1024_4_0_0).view.loc (d : Thread nD τ) ↦[(slot bM 4 0 Cert.KernelIdeal.Gen.inb_S15x128x1024_S1x64x1024_4_0_0).view.set]{fullShare} f_4_0) ∗
    ((slot bM 4 64 Cert.KernelIdeal.Gen.inb_S15x128x1024_S1x64x1024_4_64_0).view.loc (d : Thread nD τ) ↦[(slot bM 4 64 Cert.KernelIdeal.Gen.inb_S15x128x1024_S1x64x1024_4_64_0).view.set]{fullShare} f_4_1) ∗
    ((slot bM 5 0 Cert.KernelIdeal.Gen.inb_S15x128x1024_S1x64x1024_5_0_0).view.loc (d : Thread nD τ) ↦[(slot bM 5 0 Cert.KernelIdeal.Gen.inb_S15x128x1024_S1x64x1024_5_0_0).view.set]{fullShare} f_5_0) ∗
    ((slot bM 5 64 Cert.KernelIdeal.Gen.inb_S15x128x1024_S1x64x1024_5_64_0).view.loc (d : Thread nD τ) ↦[(slot bM 5 64 Cert.KernelIdeal.Gen.inb_S15x128x1024_S1x64x1024_5_64_0).view.set]{fullShare} f_5_1) ∗
    ((slot bM 6 0 Cert.KernelIdeal.Gen.inb_S15x128x1024_S1x64x1024_6_0_0).view.loc (d : Thread nD τ) ↦[(slot bM 6 0 Cert.KernelIdeal.Gen.inb_S15x128x1024_S1x64x1024_6_0_0).view.set]{fullShare} f_6_0) ∗
    ((slot bM 6 64 Cert.KernelIdeal.Gen.inb_S15x128x1024_S1x64x1024_6_64_0).view.loc (d : Thread nD τ) ↦[(slot bM 6 64 Cert.KernelIdeal.Gen.inb_S15x128x1024_S1x64x1024_6_64_0).view.set]{fullShare} f_6_1) ∗
    ((slot bM 7 0 Cert.KernelIdeal.Gen.inb_S15x128x1024_S1x64x1024_7_0_0).view.loc (d : Thread nD τ) ↦[(slot bM 7 0 Cert.KernelIdeal.Gen.inb_S15x128x1024_S1x64x1024_7_0_0).view.set]{fullShare} f_7_0) ∗
    ((slot bM 7 64 Cert.KernelIdeal.Gen.inb_S15x128x1024_S1x64x1024_7_64_0).view.loc (d : Thread nD τ) ↦[(slot bM 7 64 Cert.KernelIdeal.Gen.inb_S15x128x1024_S1x64x1024_7_64_0).view.set]{fullShare} f_7_1) ∗
    ((slot bM 8 0 Cert.KernelIdeal.Gen.inb_S15x128x1024_S1x64x1024_8_0_0).view.loc (d : Thread nD τ) ↦[(slot bM 8 0 Cert.KernelIdeal.Gen.inb_S15x128x1024_S1x64x1024_8_0_0).view.set]{fullShare} f_8_0) ∗
    ((slot bM 8 64 Cert.KernelIdeal.Gen.inb_S15x128x1024_S1x64x1024_8_64_0).view.loc (d : Thread nD τ) ↦[(slot bM 8 64 Cert.KernelIdeal.Gen.inb_S15x128x1024_S1x64x1024_8_64_0).view.set]{fullShare} f_8_1) ∗
    ((slot bM 9 0 Cert.KernelIdeal.Gen.inb_S15x128x1024_S1x64x1024_9_0_0).view.loc (d : Thread nD τ) ↦[(slot bM 9 0 Cert.KernelIdeal.Gen.inb_S15x128x1024_S1x64x1024_9_0_0).view.set]{fullShare} f_9_0) ∗
    ((slot bM 9 64 Cert.KernelIdeal.Gen.inb_S15x128x1024_S1x64x1024_9_64_0).view.loc (d : Thread nD τ) ↦[(slot bM 9 64 Cert.KernelIdeal.Gen.inb_S15x128x1024_S1x64x1024_9_64_0).view.set]{fullShare} f_9_1) ∗
    ((slot bM 10 0 Cert.KernelIdeal.Gen.inb_S15x128x1024_S1x64x1024_10_0_0).view.loc (d : Thread nD τ) ↦[(slot bM 10 0 Cert.KernelIdeal.Gen.inb_S15x128x1024_S1x64x1024_10_0_0).view.set]{fullShare} f_10_0) ∗
    ((slot bM 10 64 Cert.KernelIdeal.Gen.inb_S15x128x1024_S1x64x1024_10_64_0).view.loc (d : Thread nD τ) ↦[(slot bM 10 64 Cert.KernelIdeal.Gen.inb_S15x128x1024_S1x64x1024_10_64_0).view.set]{fullShare} f_10_1) ∗
    ((slot bM 11 0 Cert.KernelIdeal.Gen.inb_S15x128x1024_S1x64x1024_11_0_0).view.loc (d : Thread nD τ) ↦[(slot bM 11 0 Cert.KernelIdeal.Gen.inb_S15x128x1024_S1x64x1024_11_0_0).view.set]{fullShare} f_11_0) ∗
    ((slot bM 11 64 Cert.KernelIdeal.Gen.inb_S15x128x1024_S1x64x1024_11_64_0).view.loc (d : Thread nD τ) ↦[(slot bM 11 64 Cert.KernelIdeal.Gen.inb_S15x128x1024_S1x64x1024_11_64_0).view.set]{fullShare} f_11_1) ∗
    ((slot bM 12 0 Cert.KernelIdeal.Gen.inb_S15x128x1024_S1x64x1024_12_0_0).view.loc (d : Thread nD τ) ↦[(slot bM 12 0 Cert.KernelIdeal.Gen.inb_S15x128x1024_S1x64x1024_12_0_0).view.set]{fullShare} f_12_0) ∗
    ((slot bM 12 64 Cert.KernelIdeal.Gen.inb_S15x128x1024_S1x64x1024_12_64_0).view.loc (d : Thread nD τ) ↦[(slot bM 12 64 Cert.KernelIdeal.Gen.inb_S15x128x1024_S1x64x1024_12_64_0).view.set]{fullShare} f_12_1) ∗
    ((slot bM 13 0 Cert.KernelIdeal.Gen.inb_S15x128x1024_S1x64x1024_13_0_0).view.loc (d : Thread nD τ) ↦[(slot bM 13 0 Cert.KernelIdeal.Gen.inb_S15x128x1024_S1x64x1024_13_0_0).view.set]{fullShare} f_13_0) ∗
    ((slot bM 13 64 Cert.KernelIdeal.Gen.inb_S15x128x1024_S1x64x1024_13_64_0).view.loc (d : Thread nD τ) ↦[(slot bM 13 64 Cert.KernelIdeal.Gen.inb_S15x128x1024_S1x64x1024_13_64_0).view.set]{fullShare} f_13_1) ∗
    ((slot bM 14 0 Cert.KernelIdeal.Gen.inb_S15x128x1024_S1x64x1024_14_0_0).view.loc (d : Thread nD τ) ↦[(slot bM 14 0 Cert.KernelIdeal.Gen.inb_S15x128x1024_S1x64x1024_14_0_0).view.set]{fullShare} f_14_0) ∗
    ((slot bM 14 64 Cert.KernelIdeal.Gen.inb_S15x128x1024_S1x64x1024_14_64_0).view.loc (d : Thread nD τ) ↦[(slot bM 14 64 Cert.KernelIdeal.Gen.inb_S15x128x1024_S1x64x1024_14_64_0).view.set]{fullShare} f_14_1)) : sProp 𝕄) ⊢ allSlots (F := F) false d :=
  slots_intro_gen false d fun sb => [f_0_0, f_0_1, f_1_0, f_1_1, f_2_0, f_2_1, f_3_0, f_3_1, f_4_0, f_4_1, f_5_0, f_5_1, f_6_0, f_6_1, f_7_0, f_7_1, f_8_0, f_8_1, f_9_0, f_9_1, f_10_0, f_10_1, f_11_0, f_11_1, f_12_0, f_12_1, f_13_0, f_13_1, f_14_0, f_14_1].getD (2 * sb.1.val + sb.2.val) f_0_0

end Cert.KernelIdeal.RSAG

end
-- ==== Proof.BodyLib2.lean ====
import proofs.«901013_g7700000000001014_dist_rs_then_ag_i_m4096_n1024_v7x_i16_f32_1_alg».proof.Proof.BodyLib
import proofs.«901013_g7700000000001014_dist_rs_then_ag_i_m4096_n1024_v7x_i16_f32_1_alg».proof.Proof.Steps
import proofs.«901013_g7700000000001014_dist_rs_then_ag_i_m4096_n1024_v7x_i16_f32_1_alg».proof.Proof.Links
import proofs.«901013_g7700000000001014_dist_rs_then_ag_i_m4096_n1024_v7x_i16_f32_1_alg».proof.Proof.Cut
import proofs.«901013_g7700000000001014_dist_rs_then_ag_i_m4096_n1024_v7x_i16_f32_1_alg».proof.Proof.Split

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-- what a wait for the whole of a one-duty round hands over -/
theorem rest_single (g : GSem nD τ sig) (r : ℕ) (P : sProp 𝕄) (hd : (Rd (F := F) X).duties g r = {false})
    (hp : (Rd (F := F) X).payload g r false = P) :
    bigSep ((Rd (F := F) X).duties g r \ ∅) (fun d => (Rd (F := F) X).payload g r d) = P := by
  rw [Finset.sdiff_empty, hd, bigSep_singleton, hp]

/-- what the barrier wait hands over: what each neighbour lent -/
theorem bar_rest (c : Dev nD) :
    bigSep (Finset.univ : Finset Bool) (fun d => (Rd (F := F) X).payload (barCell c) 0 d)
      = iprop((allSlots true (nxt c) ∗ allRows true (nxt c)) ∗ (allSlots false (prv c) ∗ allRows false (prv c))) := by
  rw [bigSep_univ_eq_bigSepL [false, true] (by decide) (by decide), bigSepL_cons_cons, bigSepL_singleton]
  rfl

/-- a slot whose contents are what the store of the sum left holds the sum -/
theorem owns_intro_add (cw : Bool) (s r : ℕ) (b : Fin 2) (c : Dev nD) (J : ℕ)
    (M : Memref sig .tc .vmem S15x128x1024 .f32) (h : ∀ a, (![s, r, 0] : Fin 3 → Nat) a + S1x64x1024.size a ≤ S15x128x1024.size a)
    (f : M.view.ty.Contents (Elt F)) (o : Fin 2 → ℕ) (ho : ∀ a, o a + S64x1024.size a ≤ S4096x1024.size a) (P : Vec F S1x64x1024 .f32)
    (hP : P = shapeCast S1x64x1024 (addf (shapeCast S64x1024 (View.readAt (Elt F) M.view (R3 s r h).toLoadRect f) shapeCasts_S1x64x1024_S64x1024)
      (shapeCast S64x1024 (View.readAt (Elt F) xM.view (Rect.unit (s := S4096x1024) o S64x1024.size ho).toLoadRect (X c)) shapeCasts_S64x1024_S64x1024)) shapeCasts_S64x1024_S1x64x1024)
    (ho' : o = off cw (c.val + J) b.val)
    (hf : (slot M s r h).view.read (Elt F) f = recvV X cw b s c)
    (hadd : addV X cw b s c = kadd (recvV X cw b s c) (piece (off cw (c.val + J) b.val) (off_inb cw (c.val + J) b) (X c))) :
    ((slot M s r h).view.loc (c : Thread nD τ) ↦[(slot M s r h).view.set]{fullShare} View.write (Elt F) (M.access (R3 s r h)) f P Finset.univ : sProp 𝕄)
      ⊢ owns (c : Thread nD τ) (slot M s r h) fullShare (addV X cw b s c) := by
  unfold owns
  iintro H
  iexists _
  isplitr
  · ipureintro; rw [hadd]; exact add_value_at M s r h f (X c) o ho P hP cw (c.val + J) b ho' _ hf
  · iexact H

/-- what is held at the full share is held in two halves -/
theorem owns_share_split {sh : Shape} (c : Dev nD) (mm : Memref sig .tc .vmem sh .f32) (V : sh.Idx → Elt F .f32) :
    (owns (Ix := Unit) (Name := ℕ) (U := UU) (Lvl := ℕ) (c : Thread nD τ) mm fullShare V : sProp 𝕄)
      ⊢ iprop(owns (c : Thread nD τ) mm fullShare.left V ∗ owns (c : Thread nD τ) mm fullShare.right V) := by
  unfold owns
  iintro ⟨%f, %hf, H⟩
  ihave H2 := (pointsTo_share (PosShare.mem_left_op_right fullShare)).1 $$ H
  icases H2 with ⟨HL, HR⟩
  isplitl [HL]
  · iexists f; isplitr; · (ipureintro; exact hf)
    iexact HL
  · iexists f; isplitr; · (ipureintro; exact hf)
    iexact HR

/-- the send rules with the transfer addressed to a device `n` known to be `c'` (substituted, not rewritten: the
    destination memref's type and the typing evidence mention the device) -/
theorem send_pts_at {c c' n : Dev nD} (hn : n = c') {src : Memref sig .tc .vmem S64x1024 .f32} {dst : Memref sig .tc .vmem S64x1024 .f32}
    {hsc : (dst : Memref sig (Dev.tc n : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc n : Thread nD τ) dst (.dma sS) hsc)}
    {α : Type} {Q : α → sProp 𝕄} {k : PUnit → Prog (TpuEff nD τ sig (Elt F) Λ₀ .tc) α}
    (qs : PosShare TreeShare)
    (fs : Buf (Elt F) (src.view.loc (c : Thread nD τ))) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = iprop(src.view.loc (c : Thread nD τ) ↦[src.view.set]{qs} fs))
    (hp₂ : (Rd (F := F) X).payload (dcell c' sem) 0 false = owns (c' : Thread nD τ) dst fullShare (src.view.read (Elt F) fs))
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ (src.view.loc (c : Thread nD τ) ↦[src.view.set]{qs} fs)
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
            -∗ wp frame (wpE (defs₀ (F := F)) 𝒱₀ (c : Thread nD τ) none) Set.univ
                (.op (.enqueueDma src (.remote (Dev.tc n : Thread nD τ) dst (.dma sS) hsc) (.dma sem) hsrc hdst hsem) k) Q) := by
  subst hn
  exact send_pts X qs fs r₁ κ₁ κ₂ O W hd₁ hd₂ hk₁ hk₂ hN hp₁ hp₂ hO hr

theorem send_owns_at {c c' n : Dev nD} (hn : n = c') {src : Memref sig .tc .vmem S64x1024 .f32} {dst : Memref sig .tc .vmem S64x1024 .f32}
    {hsc : (dst : Memref sig (Dev.tc n : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc n : Thread nD τ) dst (.dma sS) hsc)}
    {α : Type} {Q : α → sProp 𝕄} {k : PUnit → Prog (TpuEff nD τ sig (Elt F) Λ₀ .tc) α}
    (qs : PosShare TreeShare) (V : S64x1024.Idx → Elt F .f32) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = owns (c : Thread nD τ) src qs V)
    (hp₂ : (Rd (F := F) X).payload (dcell c' sem) 0 false = owns (c' : Thread nD τ) dst fullShare V)
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ owns (c : Thread nD τ) src qs V
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
            -∗ wp frame (wpE (defs₀ (F := F)) 𝒱₀ (c : Thread nD τ) none) Set.univ
                (.op (.enqueueDma src (.remote (Dev.tc n : Thread nD τ) dst (.dma sS) hsc) (.dma sem) hsrc hdst hsem) k) Q) := by
  subst hn
  exact send_owns X qs V r₁ κ₁ κ₂ O W hd₁ hd₂ hk₁ hk₂ hN hp₁ hp₂ hO hr

end Cert.KernelIdeal.RSAG

end
-- ==== Proof.LaunchBPeel.lean ====
import proofs.«901013_g7700000000001014_dist_rs_then_ag_i_m4096_n1024_v7x_i16_f32_1_alg».proof.Proof.Dats

/-! What a device still owes from place `j` on is what it owes from place `j + 1` on and the `j`-th payment: one equation
per place, the cell spelt as the list of payments spells it; each holds by unfolding the list. After the last place nothing is owed. -/

noncomputable section

namespace Cert.KernelIdeal.RSAG

open Cert.KernelIdeal Cert.KernelIdeal.Gen
open Idealize.ShloMosaic
open Idealize.ShloMosaic.TcCoe

theorem rem_peel_0 (c : Dev nD) : rem c 0 = rem c 1 + tallyAt (barCell (prv c)) () 1 := rfl
theorem rem_peel_1 (c : Dev nD) : rem c 1 = rem c 2 + tallyAt (barCell (nxt c)) () 1 := rfl
theorem rem_peel_2 (c : Dev nD) : rem c 2 = rem c 3 + tallyAt (dcell (nxt c) (qR cc0_scratch3 0 0 inb_S15x2_S1x1_0_0)) () N := rfl
theorem rem_peel_3 (c : Dev nD) : rem c 3 = rem c 4 + tallyAt (dcell (nxt c) (qR cc0_scratch3 0 1 inb_S15x2_S1x1_0_1)) () N := rfl
theorem rem_peel_4 (c : Dev nD) : rem c 4 = rem c 5 + tallyAt (dcell (prv c) (qR cc0_scratch5 0 0 inb_S15x2_S1x1_0_0)) () N := rfl
theorem rem_peel_5 (c : Dev nD) : rem c 5 = rem c 6 + tallyAt (dcell (prv c) (qR cc0_scratch5 0 1 inb_S15x2_S1x1_0_1)) () N := rfl
theorem rem_peel_6 (c : Dev nD) : rem c 6 = rem c 7 + tallyAt (dcell (nxt c) (qR cc0_scratch3 1 0 inb_S15x2_S1x1_1_0)) () N := rfl
theorem rem_peel_7 (c : Dev nD) : rem c 7 = rem c 8 + tallyAt (dcell (prv c) (qR cc0_scratch5 1 0 inb_S15x2_S1x1_1_0)) () N := rfl
theorem rem_peel_8 (c : Dev nD) : rem c 8 = rem c 9 + tallyAt (dcell (nxt c) (qR cc0_scratch3 1 1 inb_S15x2_S1x1_1_1)) () N := rfl
theorem rem_peel_9 (c : Dev nD) : rem c 9 = rem c 10 + tallyAt (dcell (prv c) (qR cc0_scratch5 1 1 inb_S15x2_S1x1_1_1)) () N := rfl
theorem rem_peel_10 (c : Dev nD) : rem c 10 = rem c 11 + tallyAt (dcell (nxt c) (qR cc0_scratch3 2 0 inb_S15x2_S1x1_2_0)) () N := rfl
theorem rem_peel_11 (c : Dev nD) : rem c 11 = rem c 12 + tallyAt (dcell (prv c) (qR cc0_scratch5 2 0 inb_S15x2_S1x1_2_0)) () N := rfl
theorem rem_peel_12 (c : Dev nD) : rem c 12 = rem c 13 + tallyAt (dcell (nxt c) (qR cc0_scratch3 2 1 inb_S15x2_S1x1_2_1)) () N := rfl
theorem rem_peel_13 (c : Dev nD) : rem c 13 = rem c 14 + tallyAt (dcell (prv c) (qR cc0_scratch5 2 1 inb_S15x2_S1x1_2_1)) () N := rfl
theorem rem_peel_14 (c : Dev nD) : rem c 14 = rem c 15 + tallyAt (dcell (nxt c) (qR cc0_scratch3 3 0 inb_S15x2_S1x1_3_0)) () N := rfl
theorem rem_peel_15 (c : Dev nD) : rem c 15 = rem c 16 + tallyAt (dcell (prv c) (qR cc0_scratch5 3 0 inb_S15x2_S1x1_3_0)) () N := rfl
theorem rem_peel_16 (c : Dev nD) : rem c 16 = rem c 17 + tallyAt (dcell (nxt c) (qR cc0_scratch3 3 1 inb_S15x2_S1x1_3_1)) () N := rfl
theorem rem_peel_17 (c : Dev nD) : rem c 17 = rem c 18 + tallyAt (dcell (prv c) (qR cc0_scratch5 3 1 inb_S15x2_S1x1_3_1)) () N := rfl
theorem rem_peel_18 (c : Dev nD) : rem c 18 = rem c 19 + tallyAt (dcell (nxt c) (qR cc0_scratch3 4 0 inb_S15x2_S1x1_4_0)) () N := rfl
theorem rem_peel_19 (c : Dev nD) : rem c 19 = rem c 20 + tallyAt (dcell (prv c) (qR cc0_scratch5 4 0 inb_S15x2_S1x1_4_0)) () N := rfl
theorem rem_peel_20 (c : Dev nD) : rem c 20 = rem c 21 + tallyAt (dcell (nxt c) (qR cc0_scratch3 4 1 inb_S15x2_S1x1_4_1)) () N := rfl
theorem rem_peel_21 (c : Dev nD) : rem c 21 = rem c 22 + tallyAt (dcell (prv c) (qR cc0_scratch5 4 1 inb_S15x2_S1x1_4_1)) () N := rfl
theorem rem_peel_22 (c : Dev nD) : rem c 22 = rem c 23 + tallyAt (dcell (nxt c) (qR cc0_scratch3 5 0 inb_S15x2_S1x1_5_0)) () N := rfl
theorem rem_peel_23 (c : Dev nD) : rem c 23 = rem c 24 + tallyAt (dcell (prv c) (qR cc0_scratch5 5 0 inb_S15x2_S1x1_5_0)) () N := rfl
theorem rem_peel_24 (c : Dev nD) : rem c 24 = rem c 25 + tallyAt (dcell (nxt c) (qR cc0_scratch3 5 1 inb_S15x2_S1x1_5_1)) () N := rfl
theorem rem_peel_25 (c : Dev nD) : rem c 25 = rem c 26 + tallyAt (dcell (prv c) (qR cc0_scratch5 5 1 inb_S15x2_S1x1_5_1)) () N := rfl
theorem rem_peel_26 (c : Dev nD) : rem c 26 = rem c 27 + tallyAt (dcell (nxt c) (qR cc0_scratch3 6 0 inb_S15x2_S1x1_6_0)) () N := rfl
theorem rem_peel_27 (c : Dev nD) : rem c 27 = rem c 28 + tallyAt (dcell (prv c) (qR cc0_scratch5 6 0 inb_S15x2_S1x1_6_0)) () N := rfl
theorem rem_peel_28 (c : Dev nD) : rem c 28 = rem c 29 + tallyAt (dcell (nxt c) (qR cc0_scratch3 6 1 inb_S15x2_S1x1_6_1)) () N := rfl
theorem rem_peel_29 (c : Dev nD) : rem c 29 = rem c 30 + tallyAt (dcell (prv c) (qR cc0_scratch5 6 1 inb_S15x2_S1x1_6_1)) () N := rfl
theorem rem_peel_30 (c : Dev nD) : rem c 30 = rem c 31 + tallyAt (dcell (nxt c) (qR cc0_scratch3 7 0 inb_S15x2_S1x1_7_0)) () N := rfl
theorem rem_peel_31 (c : Dev nD) : rem c 31 = rem c 32 + tallyAt (dcell (prv c) (qR cc0_scratch5 7 0 inb_S15x2_S1x1_7_0)) () N := rfl
theorem rem_peel_32 (c : Dev nD) : rem c 32 = rem c 33 + tallyAt (dcell (nxt c) (qR cc0_scratch3 7 1 inb_S15x2_S1x1_7_1)) () N := rfl
theorem rem_peel_33 (c : Dev nD) : rem c 33 = rem c 34 + tallyAt (dcell (prv c) (qR cc0_scratch5 7 1 inb_S15x2_S1x1_7_1)) () N := rfl
theorem rem_peel_34 (c : Dev nD) : rem c 34 = rem c 35 + tallyAt (dcell (nxt c) (qR cc0_scratch3 8 0 inb_S15x2_S1x1_8_0)) () N := rfl
theorem rem_peel_35 (c : Dev nD) : rem c 35 = rem c 36 + tallyAt (dcell (prv c) (qR cc0_scratch5 8 0 inb_S15x2_S1x1_8_0)) () N := rfl
theorem rem_peel_36 (c : Dev nD) : rem c 36 = rem c 37 + tallyAt (dcell (nxt c) (qR cc0_scratch3 8 1 inb_S15x2_S1x1_8_1)) () N := rfl
theorem rem_peel_37 (c : Dev nD) : rem c 37 = rem c 38 + tallyAt (dcell (prv c) (qR cc0_scratch5 8 1 inb_S15x2_S1x1_8_1)) () N := rfl
theorem rem_peel_38 (c : Dev nD) : rem c 38 = rem c 39 + tallyAt (dcell (nxt c) (qR cc0_scratch3 9 0 inb_S15x2_S1x1_9_0)) () N := rfl
theorem rem_peel_39 (c : Dev nD) : rem c 39 = rem c 40 + tallyAt (dcell (prv c) (qR cc0_scratch5 9 0 inb_S15x2_S1x1_9_0)) () N := rfl
theorem rem_peel_40 (c : Dev nD) : rem c 40 = rem c 41 + tallyAt (dcell (nxt c) (qR cc0_scratch3 9 1 inb_S15x2_S1x1_9_1)) () N := rfl
theorem rem_peel_41 (c : Dev nD) : rem c 41 = rem c 42 + tallyAt (dcell (prv c) (qR cc0_scratch5 9 1 inb_S15x2_S1x1_9_1)) () N := rfl
theorem rem_peel_42 (c : Dev nD) : rem c 42 = rem c 43 + tallyAt (dcell (nxt c) (qR cc0_scratch3 10 0 inb_S15x2_S1x1_10_0)) () N := rfl
theorem rem_peel_43 (c : Dev nD) : rem c 43 = rem c 44 + tallyAt (dcell (prv c) (qR cc0_scratch5 10 0 inb_S15x2_S1x1_10_0)) () N := rfl
theorem rem_peel_44 (c : Dev nD) : rem c 44 = rem c 45 + tallyAt (dcell (nxt c) (qR cc0_scratch3 10 1 inb_S15x2_S1x1_10_1)) () N := rfl
theorem rem_peel_45 (c : Dev nD) : rem c 45 = rem c 46 + tallyAt (dcell (prv c) (qR cc0_scratch5 10 1 inb_S15x2_S1x1_10_1)) () N := rfl
theorem rem_peel_46 (c : Dev nD) : rem c 46 = rem c 47 + tallyAt (dcell (nxt c) (qR cc0_scratch3 11 0 inb_S15x2_S1x1_11_0)) () N := rfl
theorem rem_peel_47 (c : Dev nD) : rem c 47 = rem c 48 + tallyAt (dcell (prv c) (qR cc0_scratch5 11 0 inb_S15x2_S1x1_11_0)) () N := rfl
theorem rem_peel_48 (c : Dev nD) : rem c 48 = rem c 49 + tallyAt (dcell (nxt c) (qR cc0_scratch3 11 1 inb_S15x2_S1x1_11_1)) () N := rfl
theorem rem_peel_49 (c : Dev nD) : rem c 49 = rem c 50 + tallyAt (dcell (prv c) (qR cc0_scratch5 11 1 inb_S15x2_S1x1_11_1)) () N := rfl
theorem rem_peel_50 (c : Dev nD) : rem c 50 = rem c 51 + tallyAt (dcell (nxt c) (qR cc0_scratch3 12 0 inb_S15x2_S1x1_12_0)) () N := rfl
theorem rem_peel_51 (c : Dev nD) : rem c 51 = rem c 52 + tallyAt (dcell (prv c) (qR cc0_scratch5 12 0 inb_S15x2_S1x1_12_0)) () N := rfl
theorem rem_peel_52 (c : Dev nD) : rem c 52 = rem c 53 + tallyAt (dcell (nxt c) (qR cc0_scratch3 12 1 inb_S15x2_S1x1_12_1)) () N := rfl
theorem rem_peel_53 (c : Dev nD) : rem c 53 = rem c 54 + tallyAt (dcell (prv c) (qR cc0_scratch5 12 1 inb_S15x2_S1x1_12_1)) () N := rfl
theorem rem_peel_54 (c : Dev nD) : rem c 54 = rem c 55 + tallyAt (dcell (nxt c) (qR cc0_scratch3 13 0 inb_S15x2_S1x1_13_0)) () N := rfl
theorem rem_peel_55 (c : Dev nD) : rem c 55 = rem c 56 + tallyAt (dcell (prv c) (qR cc0_scratch5 13 0 inb_S15x2_S1x1_13_0)) () N := rfl
theorem rem_peel_56 (c : Dev nD) : rem c 56 = rem c 57 + tallyAt (dcell (nxt c) (qR cc0_scratch3 13 1 inb_S15x2_S1x1_13_1)) () N := rfl
theorem rem_peel_57 (c : Dev nD) : rem c 57 = rem c 58 + tallyAt (dcell (prv c) (qR cc0_scratch5 13 1 inb_S15x2_S1x1_13_1)) () N := rfl
theorem rem_peel_58 (c : Dev nD) : rem c 58 = rem c 59 + tallyAt (dcell (nxt c) (qR cc0_scratch3 14 0 inb_S15x2_S1x1_14_0)) () N := rfl
theorem rem_peel_59 (c : Dev nD) : rem c 59 = rem c 60 + tallyAt (dcell (prv c) (qR cc0_scratch5 14 0 inb_S15x2_S1x1_14_0)) () N := rfl
theorem rem_peel_60 (c : Dev nD) : rem c 60 = rem c 61 + tallyAt (dcell (nxt c) (qR cc0_scratch3 14 1 inb_S15x2_S1x1_14_1)) () N := rfl
theorem rem_peel_61 (c : Dev nD) : rem c 61 = rem c 62 + tallyAt (dcell (prv c) (qR cc0_scratch5 14 1 inb_S15x2_S1x1_14_1)) () N := rfl
theorem rem_peel_62 (c : Dev nD) : rem c 62 = rem c 63 + tallyAt (dcell (nxt c) (qR cc0_scratch7 0 0 inb_S15x2_S1x1_0_0)) () N := rfl
theorem rem_peel_63 (c : Dev nD) : rem c 63 = rem c 64 + tallyAt (dcell (prv c) (qR cc0_scratch9 0 0 inb_S15x2_S1x1_0_0)) () N := rfl
theorem rem_peel_64 (c : Dev nD) : rem c 64 = rem c 65 + tallyAt (dcell (nxt c) (qR cc0_scratch7 0 1 inb_S15x2_S1x1_0_1)) () N := rfl
theorem rem_peel_65 (c : Dev nD) : rem c 65 = rem c 66 + tallyAt (dcell (prv c) (qR cc0_scratch9 0 1 inb_S15x2_S1x1_0_1)) () N := rfl
theorem rem_peel_66 (c : Dev nD) : rem c 66 = rem c 67 + tallyAt (dcell (nxt c) (qR cc0_scratch7 1 0 inb_S15x2_S1x1_1_0)) () N := rfl
theorem rem_peel_67 (c : Dev nD) : rem c 67 = rem c 68 + tallyAt (dcell (prv c) (qR cc0_scratch9 1 0 inb_S15x2_S1x1_1_0)) () N := rfl
theorem rem_peel_68 (c : Dev nD) : rem c 68 = rem c 69 + tallyAt (dcell (nxt c) (qR cc0_scratch7 1 1 inb_S15x2_S1x1_1_1)) () N := rfl
theorem rem_peel_69 (c : Dev nD) : rem c 69 = rem c 70 + tallyAt (dcell (prv c) (qR cc0_scratch9 1 1 inb_S15x2_S1x1_1_1)) () N := rfl
theorem rem_peel_70 (c : Dev nD) : rem c 70 = rem c 71 + tallyAt (dcell (nxt c) (qR cc0_scratch7 2 0 inb_S15x2_S1x1_2_0)) () N := rfl
theorem rem_peel_71 (c : Dev nD) : rem c 71 = rem c 72 + tallyAt (dcell (prv c) (qR cc0_scratch9 2 0 inb_S15x2_S1x1_2_0)) () N := rfl
theorem rem_peel_72 (c : Dev nD) : rem c 72 = rem c 73 + tallyAt (dcell (nxt c) (qR cc0_scratch7 2 1 inb_S15x2_S1x1_2_1)) () N := rfl
theorem rem_peel_73 (c : Dev nD) : rem c 73 = rem c 74 + tallyAt (dcell (prv c) (qR cc0_scratch9 2 1 inb_S15x2_S1x1_2_1)) () N := rfl
theorem rem_peel_74 (c : Dev nD) : rem c 74 = rem c 75 + tallyAt (dcell (nxt c) (qR cc0_scratch7 3 0 inb_S15x2_S1x1_3_0)) () N := rfl
theorem rem_peel_75 (c : Dev nD) : rem c 75 = rem c 76 + tallyAt (dcell (prv c) (qR cc0_scratch9 3 0 inb_S15x2_S1x1_3_0)) () N := rfl
theorem rem_peel_76 (c : Dev nD) : rem c 76 = rem c 77 + tallyAt (dcell (nxt c) (qR cc0_scratch7 3 1 inb_S15x2_S1x1_3_1)) () N := rfl
theorem rem_peel_77 (c : Dev nD) : rem c 77 = rem c 78 + tallyAt (dcell (prv c) (qR cc0_scratch9 3 1 inb_S15x2_S1x1_3_1)) () N := rfl
theorem rem_peel_78 (c : Dev nD) : rem c 78 = rem c 79 + tallyAt (dcell (nxt c) (qR cc0_scratch7 4 0 inb_S15x2_S1x1_4_0)) () N := rfl
theorem rem_peel_79 (c : Dev nD) : rem c 79 = rem c 80 + tallyAt (dcell (prv c) (qR cc0_scratch9 4 0 inb_S15x2_S1x1_4_0)) () N := rfl
theorem rem_peel_80 (c : Dev nD) : rem c 80 = rem c 81 + tallyAt (dcell (nxt c) (qR cc0_scratch7 4 1 inb_S15x2_S1x1_4_1)) () N := rfl
theorem rem_peel_81 (c : Dev nD) : rem c 81 = rem c 82 + tallyAt (dcell (prv c) (qR cc0_scratch9 4 1 inb_S15x2_S1x1_4_1)) () N := rfl
theorem rem_peel_82 (c : Dev nD) : rem c 82 = rem c 83 + tallyAt (dcell (nxt c) (qR cc0_scratch7 5 0 inb_S15x2_S1x1_5_0)) () N := rfl
theorem rem_peel_83 (c : Dev nD) : rem c 83 = rem c 84 + tallyAt (dcell (prv c) (qR cc0_scratch9 5 0 inb_S15x2_S1x1_5_0)) () N := rfl
theorem rem_peel_84 (c : Dev nD) : rem c 84 = rem c 85 + tallyAt (dcell (nxt c) (qR cc0_scratch7 5 1 inb_S15x2_S1x1_5_1)) () N := rfl
theorem rem_peel_85 (c : Dev nD) : rem c 85 = rem c 86 + tallyAt (dcell (prv c) (qR cc0_scratch9 5 1 inb_S15x2_S1x1_5_1)) () N := rfl
theorem rem_peel_86 (c : Dev nD) : rem c 86 = rem c 87 + tallyAt (dcell (nxt c) (qR cc0_scratch7 6 0 inb_S15x2_S1x1_6_0)) () N := rfl
theorem rem_peel_87 (c : Dev nD) : rem c 87 = rem c 88 + tallyAt (dcell (prv c) (qR cc0_scratch9 6 0 inb_S15x2_S1x1_6_0)) () N := rfl
theorem rem_peel_88 (c : Dev nD) : rem c 88 = rem c 89 + tallyAt (dcell (nxt c) (qR cc0_scratch7 6 1 inb_S15x2_S1x1_6_1)) () N := rfl
theorem rem_peel_89 (c : Dev nD) : rem c 89 = rem c 90 + tallyAt (dcell (prv c) (qR cc0_scratch9 6 1 inb_S15x2_S1x1_6_1)) () N := rfl
theorem rem_peel_90 (c : Dev nD) : rem c 90 = rem c 91 + tallyAt (dcell (nxt c) (qR cc0_scratch7 7 0 inb_S15x2_S1x1_7_0)) () N := rfl
theorem rem_peel_91 (c : Dev nD) : rem c 91 = rem c 92 + tallyAt (dcell (prv c) (qR cc0_scratch9 7 0 inb_S15x2_S1x1_7_0)) () N := rfl
theorem rem_peel_92 (c : Dev nD) : rem c 92 = rem c 93 + tallyAt (dcell (nxt c) (qR cc0_scratch7 7 1 inb_S15x2_S1x1_7_1)) () N := rfl
theorem rem_peel_93 (c : Dev nD) : rem c 93 = rem c 94 + tallyAt (dcell (prv c) (qR cc0_scratch9 7 1 inb_S15x2_S1x1_7_1)) () N := rfl
theorem rem_peel_94 (c : Dev nD) : rem c 94 = rem c 95 + tallyAt (dcell (nxt c) (qR cc0_scratch7 8 0 inb_S15x2_S1x1_8_0)) () N := rfl
theorem rem_peel_95 (c : Dev nD) : rem c 95 = rem c 96 + tallyAt (dcell (prv c) (qR cc0_scratch9 8 0 inb_S15x2_S1x1_8_0)) () N := rfl
theorem rem_peel_96 (c : Dev nD) : rem c 96 = rem c 97 + tallyAt (dcell (nxt c) (qR cc0_scratch7 8 1 inb_S15x2_S1x1_8_1)) () N := rfl
theorem rem_peel_97 (c : Dev nD) : rem c 97 = rem c 98 + tallyAt (dcell (prv c) (qR cc0_scratch9 8 1 inb_S15x2_S1x1_8_1)) () N := rfl
theorem rem_peel_98 (c : Dev nD) : rem c 98 = rem c 99 + tallyAt (dcell (nxt c) (qR cc0_scratch7 9 0 inb_S15x2_S1x1_9_0)) () N := rfl
theorem rem_peel_99 (c : Dev nD) : rem c 99 = rem c 100 + tallyAt (dcell (prv c) (qR cc0_scratch9 9 0 inb_S15x2_S1x1_9_0)) () N := rfl
theorem rem_peel_100 (c : Dev nD) : rem c 100 = rem c 101 + tallyAt (dcell (nxt c) (qR cc0_scratch7 9 1 inb_S15x2_S1x1_9_1)) () N := rfl
theorem rem_peel_101 (c : Dev nD) : rem c 101 = rem c 102 + tallyAt (dcell (prv c) (qR cc0_scratch9 9 1 inb_S15x2_S1x1_9_1)) () N := rfl
theorem rem_peel_102 (c : Dev nD) : rem c 102 = rem c 103 + tallyAt (dcell (nxt c) (qR cc0_scratch7 10 0 inb_S15x2_S1x1_10_0)) () N := rfl
theorem rem_peel_103 (c : Dev nD) : rem c 103 = rem c 104 + tallyAt (dcell (prv c) (qR cc0_scratch9 10 0 inb_S15x2_S1x1_10_0)) () N := rfl
theorem rem_peel_104 (c : Dev nD) : rem c 104 = rem c 105 + tallyAt (dcell (nxt c) (qR cc0_scratch7 10 1 inb_S15x2_S1x1_10_1)) () N := rfl
theorem rem_peel_105 (c : Dev nD) : rem c 105 = rem c 106 + tallyAt (dcell (prv c) (qR cc0_scratch9 10 1 inb_S15x2_S1x1_10_1)) () N := rfl
theorem rem_peel_106 (c : Dev nD) : rem c 106 = rem c 107 + tallyAt (dcell (nxt c) (qR cc0_scratch7 11 0 inb_S15x2_S1x1_11_0)) () N := rfl
theorem rem_peel_107 (c : Dev nD) : rem c 107 = rem c 108 + tallyAt (dcell (prv c) (qR cc0_scratch9 11 0 inb_S15x2_S1x1_11_0)) () N := rfl
theorem rem_peel_108 (c : Dev nD) : rem c 108 = rem c 109 + tallyAt (dcell (nxt c) (qR cc0_scratch7 11 1 inb_S15x2_S1x1_11_1)) () N := rfl
theorem rem_peel_109 (c : Dev nD) : rem c 109 = rem c 110 + tallyAt (dcell (prv c) (qR cc0_scratch9 11 1 inb_S15x2_S1x1_11_1)) () N := rfl
theorem rem_peel_110 (c : Dev nD) : rem c 110 = rem c 111 + tallyAt (dcell (nxt c) (qR cc0_scratch7 12 0 inb_S15x2_S1x1_12_0)) () N := rfl
theorem rem_peel_111 (c : Dev nD) : rem c 111 = rem c 112 + tallyAt (dcell (prv c) (qR cc0_scratch9 12 0 inb_S15x2_S1x1_12_0)) () N := rfl
theorem rem_peel_112 (c : Dev nD) : rem c 112 = rem c 113 + tallyAt (dcell (nxt c) (qR cc0_scratch7 12 1 inb_S15x2_S1x1_12_1)) () N := rfl
theorem rem_peel_113 (c : Dev nD) : rem c 113 = rem c 114 + tallyAt (dcell (prv c) (qR cc0_scratch9 12 1 inb_S15x2_S1x1_12_1)) () N := rfl
theorem rem_peel_114 (c : Dev nD) : rem c 114 = rem c 115 + tallyAt (dcell (nxt c) (qR cc0_scratch7 13 0 inb_S15x2_S1x1_13_0)) () N := rfl
theorem rem_peel_115 (c : Dev nD) : rem c 115 = rem c 116 + tallyAt (dcell (prv c) (qR cc0_scratch9 13 0 inb_S15x2_S1x1_13_0)) () N := rfl
theorem rem_peel_116 (c : Dev nD) : rem c 116 = rem c 117 + tallyAt (dcell (nxt c) (qR cc0_scratch7 13 1 inb_S15x2_S1x1_13_1)) () N := rfl
theorem rem_peel_117 (c : Dev nD) : rem c 117 = rem c 118 + tallyAt (dcell (prv c) (qR cc0_scratch9 13 1 inb_S15x2_S1x1_13_1)) () N := rfl
theorem rem_peel_118 (c : Dev nD) : rem c 118 = rem c 119 + tallyAt (dcell (nxt c) (qR cc0_scratch7 14 0 inb_S15x2_S1x1_14_0)) () N := rfl
theorem rem_peel_119 (c : Dev nD) : rem c 119 = rem c 120 + tallyAt (dcell (prv c) (qR cc0_scratch9 14 0 inb_S15x2_S1x1_14_0)) () N := rfl
theorem rem_peel_120 (c : Dev nD) : rem c 120 = rem c 121 + tallyAt (dcell (nxt c) (qR cc0_scratch7 14 1 inb_S15x2_S1x1_14_1)) () N := rfl
theorem rem_peel_121 (c : Dev nD) : rem c 121 = rem c 122 + tallyAt (dcell (prv c) (qR cc0_scratch9 14 1 inb_S15x2_S1x1_14_1)) () N := rfl

theorem rem_done (c : Dev nD) : rem c 122 = 0 := rfl

end Cert.KernelIdeal.RSAG

end
-- ==== Proof.LaunchB.lean ====
import proofs.«901013_g7700000000001014_dist_rs_then_ag_i_m4096_n1024_v7x_i16_f32_1_alg».proof.Proof.Dats

/-! What a device owes, place by place, and the level evidence of its waits.

A device pays the 122 entries of its list of payments in order: the two barrier signals, then the arrival of each of its 120
transfers at a neighbour's receive cell. After `j` of them it owes the rest. A barrier cell lies at level 1 and the receive
cell paid at place `k` at level `2 + k`, so what is still owed from place `j` on lies at level `2 + j` or above: a device may
wait on any cell of its own below that. At launch every receive cell is owed one transfer's credit by exactly one neighbour
and every barrier cell one unit by each neighbour: the credit tokens a device is dealt. -/

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The list of payments: its length, and peeling one place -/

theorem len_pays (c : Dev nD) : (pays c).length = 122 := rfl

/-- What is owed from place `j` on is what is owed from the next place on and the `j`-th payment. -/
theorem rem_peel (c : Dev nD) (j : ℕ) (hj : j < 122) :
    rem c j = rem c (j + 1) + tallyAt ((pays c)[j]'(by rw [len_pays]; exact hj)).1 () ((pays c)[j]'(by rw [len_pays]; exact hj)).2 := by
  unfold rem
  rw [List.drop_eq_getElem_cons (by rw [len_pays]; exact hj), List.foldr_cons]

/-! ## Where the cells paid lie: every one on a TensorCore; the two barrier cells at level 1, the cell of place `k ≥ 2` at level `2 + k` -/

theorem pays_facts (c : Dev nD) :
    (pays c).map (fun p => (p.1.1.2, lv p.1 ())) = (List.range 122).map (fun i => ((Proc.tc : Proc τ), if i < 2 then 1 else 2 + i)) := rfl

theorem pays_get (c : Dev nD) (k : ℕ) (hk : k < 122) :
    ((pays c)[k]'(by rw [len_pays]; exact hk)).1.1.2 = .tc
      ∧ lv ((pays c)[k]'(by rw [len_pays]; exact hk)).1 () = if k < 2 then 1 else 2 + k := by
  have h := List.getElem_of_eq (pays_facts c) (i := k) (by rw [List.length_map, len_pays]; exact hk)
  rw [List.getElem_map, List.getElem_map, List.getElem_range] at h
  exact ⟨congrArg Prod.fst h, congrArg Prod.snd h⟩

/-- A sum of payments is positive only at a cell one of them names. -/
theorem foldr_tally_pos (l : List (GSem nD τ sig × ℕ)) (g : GSem nD τ sig) (u : Unit)
    (h : 0 < (l.foldr (fun p O => O + tallyAt p.1 () p.2) (0 : CellTallies nD τ sig Unit)) g u) : ∃ p ∈ l, p.1 = g := by
  induction l with
  | nil => exact absurd h (Nat.lt_irrefl 0)
  | cons p l ih =>
    rw [List.foldr_cons] at h
    by_cases hg : g = p.1
    · exact ⟨p, List.mem_cons_self, hg.symm⟩
    · rw [Pi.add_apply, Finsupp.add_apply, tallyAt_ne_cell hg, Finsupp.zero_apply, Nat.add_zero] at h
      obtain ⟨q, hq, hqg⟩ := ih h
      exact ⟨q, List.mem_cons_of_mem _ hq, hqg⟩

/-- What is owed from place `j` on is positive only at the cell of a place `k ≥ j`. -/
theorem rem_pos (c : Dev nD) (j : ℕ) (g : GSem nD τ sig) (u : Unit) (h : 0 < rem c j g u) :
    ∃ k, j ≤ k ∧ ∃ hk : k < 122, ((pays c)[k]'(by rw [len_pays]; exact hk)).1 = g := by
  obtain ⟨p, hp, hpg⟩ := foldr_tally_pos _ g u h
  obtain ⟨i, hi, hip⟩ := List.mem_iff_getElem.mp hp
  rw [List.getElem_drop] at hip
  rw [List.length_drop, len_pays] at hi
  exact ⟨j + i, Nat.le_add_right _ _, by omega, by rw [← hpg, ← hip]⟩

/-! ## The level evidence of a wait -/

/-- A device that still owes the payments from place `j` on may wait on a cell of its own whose level is at most `b`,
    when the cell of every place from `j` on lies above `b`. -/
theorem mayWait_cut (c : Dev nD) (j b : ℕ) (hb : ∀ k, j ≤ k → k < 122 → b < (if k < 2 then 1 else 2 + k))
    (sm : SemLoc sig) (h : lv ((c : Thread nD τ), sm) () ≤ b) :
    (levAts L lv : sProp 𝕄) ⊢ MayWait (c : Thread nD τ) sm () (rem c j) :=
  MayOwe.of_cut (L := L) (lev := lv) b
    (fun p hp => by rw [Finset.mem_singleton.mp hp, L_tc]; exact Finset.mem_singleton_self _)
    (fun g u hg => by
      obtain ⟨k, _, hk, rfl⟩ := rem_pos c j g u hg
      unfold L; rw [if_pos (pays_get c k hk).1]; exact Finset.mem_singleton_self _)
    (fun p hp => by rw [Finset.mem_singleton.mp hp]; exact h)
    (fun g u hg => by
      obtain ⟨k, hjk, hk, rfl⟩ := rem_pos c j g u hg
      rw [(pays_get c k hk).2]; exact hb k hjk hk)

/-- From place `j ≥ 2` on every cell still owed has level `2 +` its place, at least `2 + j`. -/
theorem mayWait_rem (c : Dev nD) (j : ℕ) (hj : 2 ≤ j) (sm : SemLoc sig) (h : lv ((c : Thread nD τ), sm) () < 2 + j) :
    (levAts L lv : sProp 𝕄) ⊢ MayWait (c : Thread nD τ) sm () (rem c j) :=
  mayWait_cut c j (1 + j) (fun k hjk _ => by rw [if_neg (by omega)]; omega) sm (by omega)

/-- At its barrier wait a device owes the transfers only: receive cells, all above its barrier cell. -/
theorem mayWait_bar (c : Dev nD) : (levAts L lv : sProp 𝕄) ⊢ MayWait (c : Thread nD τ) (.reg barS) () (rem c 2) :=
  mayWait_rem c 2 (Nat.le_refl 2) (.reg barS) (show 1 < 2 + 2 by decide)

/-! ## The pipeline's own waits: the two staging cells lie at level 0, below everything a device ever owes -/

theorem stage_lvq (w : Fin cfg0.W) (s : Fin (cfg0.win w).nbuf) : lvq ((cfg0.win w).sem s).val = 0 := by
  fin_cases w <;> fin_cases s <;> rfl

variable (m : (ℓ : Loc nD τ sig) → Buf (Elt F) ℓ) (ρ : Dev nD → PrngReg)

theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait_cut c 0 0 (fun k _ _ => by split <;> omega) _ (Nat.le_of_eq (stage_lvq w s))
    · show (levAts L lv : sProp 𝕄) ⊢ MayWait (c : Thread nD τ) _ () 0
      rw [MayWait_zero]; iintro -; iempintro

/-! ## The credit tokens dealt at launch

Every payment goes to a neighbour: to the next device or to the previous one. Summed over the payers, each such payment is
one token on the payee's own cell; so a device is dealt one token per entry of the list. Sorted by direction these are the
two barrier units and one transfer's credit on each receive cell. -/

omit [FloatOps F] in
theorem bigSepL_cons' {I : Type} (i : I) (l : List I) (Φ : I → sProp 𝕄) : bigSepL (i :: l) Φ = iprop(Φ i ∗ bigSepL l Φ) :=
  bigSepL_cons i l Φ

omit [FloatOps F] in
theorem bigSepL_append {I : Type} (l₁ l₂ : List I) (Φ : I → sProp 𝕄) :
    iprop(bigSepL l₁ Φ ∗ bigSepL l₂ Φ) ⊢ bigSepL (l₁ ++ l₂) Φ := by
  induction l₁ with
  | nil => rw [List.nil_append, bigSepL_nil]; iintro ⟨-, H⟩; iexact H
  | cons i l ih =>
    rw [List.cons_append, bigSepL_cons', bigSepL_cons']
    iintro ⟨⟨Hi, Hl⟩, H2⟩
    isplitl [Hi]; · iexact Hi
    iapply ih
    isplitl [Hl]; · iexact Hl
    iexact H2

omit [FloatOps F] in
theorem bigSepL_map {I J : Type} (f : J → I) (l : List J) (Φ : I → sProp 𝕄) :
    bigSepL (l.map f) Φ = bigSepL l (fun j => Φ (f j)) := by
  induction l with
  | nil => rfl
  | cons j l ih => rw [List.map_cons, bigSepL_cons, bigSepL_cons, ih]

omit [FloatOps F] in
/-- A chain sorted by a test: the entries that pass it, and the others. -/
theorem bigSepL_filter {I : Type} (p : I → Bool) (l : List I) (Φ : I → sProp 𝕄) :
    bigSepL l Φ ⊢ iprop(bigSepL (l.filter p) Φ ∗ bigSepL (l.filter (fun x => !p x)) Φ) := by
  induction l with
  | nil => rw [List.filter_nil, List.filter_nil, bigSepL_nil]; iintro -; isplitl [] <;> iempintro
  | cons x l ih =>
    rw [bigSepL_cons']
    cases h : p x with
    | true =>
      rw [List.filter_cons_of_pos (by rw [h]), List.filter_cons_of_neg (by rw [h]; decide), bigSepL_cons']
      iintro ⟨Hx, Hl⟩
      ihave H := ih $$ Hl
      icases H with ⟨H1, H2⟩
      isplitl [Hx H1]
      · isplitl [Hx]; · iexact Hx
        iexact H1
      · iexact H2
    | false =>
      rw [List.filter_cons_of_neg (by rw [h]; decide), List.filter_cons_of_pos (by rw [h]; rfl), bigSepL_cons']
      iintro ⟨Hx, Hl⟩
      ihave H := ih $$ Hl
      icases H with ⟨H1, H2⟩
      isplitl [H1]; · iexact H1
      isplitl [Hx]; · iexact Hx
      iexact H2

theorem fwd_bwd (cw : Bool) (c : Dev nD) : fwd cw (bwd cw c) = c := by
  cases cw
  · exact prv_nxt c
  · exact nxt_prv c
theorem bwd_fwd (cw : Bool) (c : Dev nD) : bwd cw (fwd cw c) = c := by
  cases cw
  · exact nxt_prv c
  · exact prv_nxt c

/-- The payments without the payer: towards the next device or the previous one, the semaphore, the amount. -/
def payK : List (Bool × SemLoc sig × ℕ) := (pays (0 : Dev nD)).map (fun p => (decide (p.1.1.1 = nxt 0), p.1.2, p.2))

theorem pays_eq (d : Dev nD) : pays d = payK.map (fun t => (((fwd t.1 d : Thread nD τ), t.2.1), t.2.2)) := rfl
theorem payK_cw : payK.filter (fun t => t.1) = (true, SemLoc.reg barS, 1) :: recvCw.map (fun q => (true, SemLoc.dma q, N)) := rfl
theorem payK_ccw : payK.filter (fun t => !t.1) = (false, SemLoc.reg barS, 1) :: recvCcw.map (fun q => (false, SemLoc.dma q, N)) := rfl

omit [FloatOps F] in
/-- One token per payment, on the payee's own cell. -/
theorem launchCred_ring (K : List (Bool × SemLoc sig × ℕ)) (c : Dev nD) :
    (Pipeline.launchCred (fun d => (K.map (fun t => (((fwd t.1 d : Thread nD τ), t.2.1), t.2.2))).foldr
        (fun p O => O + tallyAt p.1 () p.2) (0 : CellTallies nD τ sig Unit)) c : sProp 𝕄)
      ⊢ bigSepL K (fun t => cred (tallyAt ((c : Thread nD τ), t.2.1) () t.2.2)) := by
  induction K with
  | nil => exact Entails.of_eq (Pipeline.launchCred_zero c)
  | cons t K ih =>
    have e : (fun d : Dev nD => (((t :: K).map (fun t => (((fwd t.1 d : Thread nD τ), t.2.1), t.2.2))).foldr
          (fun p O => O + tallyAt p.1 () p.2) (0 : CellTallies nD τ sig Unit)))
        = fun d => (fun d : Dev nD => (K.map (fun t => (((fwd t.1 d : Thread nD τ), t.2.1), t.2.2))).foldr
            (fun p O => O + tallyAt p.1 () p.2) (0 : CellTallies nD τ sig Unit)) d
          + (fun d : Dev nD => (tallyAt ((fwd t.1 d : Thread nD τ), t.2.1) () t.2.2 : CellTallies nD τ sig Unit)) d := rfl
    rw [e, Pipeline.launchCred_add, bigSepL_cons']
    iintro ⟨HK, Ht⟩
    isplitl [Ht]
    · iapply (Pipeline.launchCred_tallyAt t.2.1 (fwd t.1) (bwd t.1) (fwd_bwd t.1) (bwd_fwd t.1) () t.2.2 c); iexact Ht
    · iapply ih; iexact HK

omit [FloatOps F] in
theorem creds (c : Dev nD) : (Pipeline.launchCred (fun c => rem c 0) c : sProp 𝕄)
    ⊢ iprop(cred (tallyAt (barCell c) () 2) ∗ bigSepL (recvCw ++ recvCcw) (fun q => cred (tallyAt (dcell c q) () N))) := by
  refine (launchCred_ring payK c).trans ((bigSepL_filter (fun t => t.1) payK _).trans ?_)
  rw [payK_cw, payK_ccw, bigSepL_cons', bigSepL_cons', bigSepL_map, bigSepL_map]
  iintro ⟨⟨Hb1, Hcw⟩, ⟨Hb2, Hccw⟩⟩
  isplitl [Hb1 Hb2]
  · rw [← tallyAt_add (barCell c) () 1 1]
    iapply (cred_add _ _).2
    isplitl [Hb1]; · iexact Hb1
    iexact Hb2
  · iapply (bigSepL_append recvCw recvCcw)
    isplitl [Hcw]; · iexact Hcw
    iexact Hccw

end Cert.KernelIdeal.RSAG

end
-- ==== Proof.Wrap.lean ====
import proofs.«901013_g7700000000001014_dist_rs_then_ag_i_m4096_n1024_v7x_i16_f32_1_alg».proof.Proof.Dats
import proofs.«901013_g7700000000001014_dist_rs_then_ag_i_m4096_n1024_v7x_i16_f32_1_alg».proof.Proof.Cut
import proofs.«901013_g7700000000001014_dist_rs_then_ag_i_m4096_n1024_v7x_i16_f32_1_alg».proof.Proof.Split
import proofs.«901013_g7700000000001014_dist_rs_then_ag_i_m4096_n1024_v7x_i16_f32_1_alg».proof.Proof.LaunchB
import proofs.«901013_g7700000000001014_dist_rs_then_ag_i_m4096_n1024_v7x_i16_f32_1_alg».proof.Proof.LaunchBPeel
import proofs.«901013_g7700000000001014_dist_rs_then_ag_i_m4096_n1024_v7x_i16_f32_1_alg».proof.Proof.BodyLib2

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! What a device's body starts from, spelt out conjunct by conjunct, and that the pipeline's invariant before the point,
    with the two staged buffers, is that at some names and some set of waits. -/

/-- the chain `Φ a ∗ Φ b ∗ … ∗ Φ z ∗ R` over a list -/
def chainL {I : Type} (l : List I) (Φ : I → sProp 𝕄) (R : sProp 𝕄) : sProp 𝕄 := l.foldr (fun q acc => iprop(Φ q ∗ acc)) R

/-- it is the list's chain and then the rest -/
theorem chainL_eq {I : Type} (l : List I) (Φ : I → sProp 𝕄) (R : sProp 𝕄) : chainL l Φ R = iprop(bigSepL l Φ ∗ R) := by
  induction l with
  | nil => exact (BI.equiv_iff.mp BI.emp_sep).symm
  | cons i l ih =>
    show iprop(Φ i ∗ chainL l Φ R) = _
    rw [ih, bigSepL_cons]
    exact (sep_assoc_eq _ _ _).symm

variable (X : Dev nD → S4096x1024.Idx → Elt F .f32)

/-- What device `c`'s body starts from, every conjunct by itself: the invariants (its own and its neighbours' receive
    cells' kept as three bundles), its positions, the rounds reached, the tokens of the duties it pays, its credit tokens,
    the level facts, both ring buffers slot by slot, what it owes, its staged block of the input (half its share whole,
    the other half at the four windows the first transfers read and the rest), and its staged result window by window. -/
def bodyPre (K : GSem nD τ sig → ℕ) (W : Waits sig Unit) (c : Dev nD) : sProp 𝕄 :=
    iprop(cellInv ER (Rd X) (K (barCell c)) (barCell c)
    ∗ cellInv ER (Rd X) (K (barCell (nxt c))) (barCell (nxt c))
    ∗ cellInv ER (Rd X) (K (barCell (prv c))) (barCell (prv c))
    ∗ bigSepL ownQs (fun q => cellInv ER (Rd X) (K (dcell c q)) (dcell c q))
    ∗ bigSepL recvCw (fun q => cellInv ER (Rd X) (K (dcell (nxt c) q)) (dcell (nxt c) q))
    ∗ bigSepL recvCcw (fun q => cellInv ER (Rd X) (K (dcell (prv c) q)) (dcell (prv c) q))
    ∗ atPos ER (barCell c) 0 ∅ 0
    ∗ atPos ER (dcell c (qS cc0_scratch2 0 inb_S4_S1_0)) 0 ∅ 0
    ∗ atPos ER (dcell c (qS cc0_scratch2 1 inb_S4_S1_1)) 0 ∅ 0
    ∗ atPos ER (dcell c (qS cc0_scratch2 2 inb_S4_S1_2)) 0 ∅ 0
    ∗ atPos ER (dcell c (qS cc0_scratch2 3 inb_S4_S1_3)) 0 ∅ 0
    ∗ atPos ER (dcell c (qS cc0_scratch4 0 inb_S4_S1_0)) 0 ∅ 0
    ∗ atPos ER (dcell c (qS cc0_scratch4 1 inb_S4_S1_1)) 0 ∅ 0
    ∗ atPos ER (dcell c (qS cc0_scratch4 2 inb_S4_S1_2)) 0 ∅ 0
    ∗ atPos ER (dcell c (qS cc0_scratch4 3 inb_S4_S1_3)) 0 ∅ 0
    ∗ atPos ER (dcell c (qS cc0_scratch6 0 inb_S4_S1_0)) 0 ∅ 0
    ∗ atPos ER (dcell c (qS cc0_scratch6 1 inb_S4_S1_1)) 0 ∅ 0
    ∗ atPos ER (dcell c (qS cc0_scratch6 2 inb_S4_S1_2)) 0 ∅ 0
    ∗ atPos ER (dcell c (qS cc0_scratch6 3 inb_S4_S1_3)) 0 ∅ 0
    ∗ atPos ER (dcell c (qS cc0_scratch8 0 inb_S4_S1_0)) 0 ∅ 0
    ∗ atPos ER (dcell c (qS cc0_scratch8 1 inb_S4_S1_1)) 0 ∅ 0
    ∗ atPos ER (dcell c (qS cc0_scratch8 2 inb_S4_S1_2)) 0 ∅ 0
    ∗ atPos ER (dcell c (qS cc0_scratch8 3 inb_S4_S1_3)) 0 ∅ 0
    ∗ atPos ER (dcell c (qR cc0_scratch3 0 0 inb_S15x2_S1x1_0_0)) 0 ∅ 0
    ∗ atPos ER (dcell c (qR cc0_scratch3 0 1 inb_S15x2_S1x1_0_1)) 0 ∅ 0
    ∗ atPos ER (dcell c (qR cc0_scratch3 1 0 inb_S15x2_S1x1_1_0)) 0 ∅ 0
    ∗ atPos ER (dcell c (qR cc0_scratch3 1 1 inb_S15x2_S1x1_1_1)) 0 ∅ 0
    ∗ atPos ER (dcell c (qR cc0_scratch3 2 0 inb_S15x2_S1x1_2_0)) 0 ∅ 0
    ∗ atPos ER (dcell c (qR cc0_scratch3 2 1 inb_S15x2_S1x1_2_1)) 0 ∅ 0
    ∗ atPos ER (dcell c (qR cc0_scratch3 3 0 inb_S15x2_S1x1_3_0)) 0 ∅ 0
    ∗ atPos ER (dcell c (qR cc0_scratch3 3 1 inb_S15x2_S1x1_3_1)) 0 ∅ 0
    ∗ atPos ER (dcell c (qR cc0_scratch3 4 0 inb_S15x2_S1x1_4_0)) 0 ∅ 0
    ∗ atPos ER (dcell c (qR cc0_scratch3 4 1 inb_S15x2_S1x1_4_1)) 0 ∅ 0
    ∗ atPos ER (dcell c (qR cc0_scratch3 5 0 inb_S15x2_S1x1_5_0)) 0 ∅ 0
    ∗ atPos ER (dcell c (qR cc0_scratch3 5 1 inb_S15x2_S1x1_5_1)) 0 ∅ 0
    ∗ atPos ER (dcell c (qR cc0_scratch3 6 0 inb_S15x2_S1x1_6_0)) 0 ∅ 0
    ∗ atPos ER (dcell c (qR cc0_scratch3 6 1 inb_S15x2_S1x1_6_1)) 0 ∅ 0
    ∗ atPos ER (dcell c (qR cc0_scratch3 7 0 inb_S15x2_S1x1_7_0)) 0 ∅ 0
    ∗ atPos ER (dcell c (qR cc0_scratch3 7 1 inb_S15x2_S1x1_7_1)) 0 ∅ 0
    ∗ atPos ER (dcell c (qR cc0_scratch3 8 0 inb_S15x2_S1x1_8_0)) 0 ∅ 0
    ∗ atPos ER (dcell c (qR cc0_scratch3 8 1 inb_S15x2_S1x1_8_1)) 0 ∅ 0
    ∗ atPos ER (dcell c (qR cc0_scratch3 9 0 inb_S15x2_S1x1_9_0)) 0 ∅ 0
    ∗ atPos ER (dcell c (qR cc0_scratch3 9 1 inb_S15x2_S1x1_9_1)) 0 ∅ 0
    ∗ atPos ER (dcell c (qR cc0_scratch3 10 0 inb_S15x2_S1x1_10_0)) 0 ∅ 0
    ∗ atPos ER (dcell c (qR cc0_scratch3 10 1 inb_S15x2_S1x1_10_1)) 0 ∅ 0
    ∗ atPos ER (dcell c (qR cc0_scratch3 11 0 inb_S15x2_S1x1_11_0)) 0 ∅ 0
    ∗ atPos ER (dcell c (qR cc0_scratch3 11 1 inb_S15x2_S1x1_11_1)) 0 ∅ 0
    ∗ atPos ER (dcell c (qR cc0_scratch3 12 0 inb_S15x2_S1x1_12_0)) 0 ∅ 0
    ∗ atPos ER (dcell c (qR cc0_scratch3 12 1 inb_S15x2_S1x1_12_1)) 0 ∅ 0
    ∗ atPos ER (dcell c (qR cc0_scratch3 13 0 inb_S15x2_S1x1_13_0)) 0 ∅ 0
    ∗ atPos ER (dcell c (qR cc0_scratch3 13 1 inb_S15x2_S1x1_13_1)) 0 ∅ 0
    ∗ atPos ER (dcell c (qR cc0_scratch3 14 0 inb_S15x2_S1x1_14_0)) 0 ∅ 0
    ∗ atPos ER (dcell c (qR cc0_scratch3 14 1 inb_S15x2_S1x1_14_1)) 0 ∅ 0
    ∗ atPos ER (dcell c (qR cc0_scratch7 0 0 inb_S15x2_S1x1_0_0)) 0 ∅ 0
    ∗ atPos ER (dcell c (qR cc0_scratch7 0 1 inb_S15x2_S1x1_0_1)) 0 ∅ 0
    ∗ atPos ER (dcell c (qR cc0_scratch7 1 0 inb_S15x2_S1x1_1_0)) 0 ∅ 0
    ∗ atPos ER (dcell c (qR cc0_scratch7 1 1 inb_S15x2_S1x1_1_1)) 0 ∅ 0
    ∗ atPos ER (dcell c (qR cc0_scratch7 2 0 inb_S15x2_S1x1_2_0)) 0 ∅ 0
    ∗ atPos ER (dcell c (qR cc0_scratch7 2 1 inb_S15x2_S1x1_2_1)) 0 ∅ 0
    ∗ atPos ER (dcell c (qR cc0_scratch7 3 0 inb_S15x2_S1x1_3_0)) 0 ∅ 0
    ∗ atPos ER (dcell c (qR cc0_scratch7 3 1 inb_S15x2_S1x1_3_1)) 0 ∅ 0
    ∗ atPos ER (dcell c (qR cc0_scratch7 4 0 inb_S15x2_S1x1_4_0)) 0 ∅ 0
    ∗ atPos ER (dcell c (qR cc0_scratch7 4 1 inb_S15x2_S1x1_4_1)) 0 ∅ 0
    ∗ atPos ER (dcell c (qR cc0_scratch7 5 0 inb_S15x2_S1x1_5_0)) 0 ∅ 0
    ∗ atPos ER (dcell c (qR cc0_scratch7 5 1 inb_S15x2_S1x1_5_1)) 0 ∅ 0
    ∗ atPos ER (dcell c (qR cc0_scratch7 6 0 inb_S15x2_S1x1_6_0)) 0 ∅ 0
    ∗ atPos ER (dcell c (qR cc0_scratch7 6 1 inb_S15x2_S1x1_6_1)) 0 ∅ 0
    ∗ atPos ER (dcell c (qR cc0_scratch7 7 0 inb_S15x2_S1x1_7_0)) 0 ∅ 0
    ∗ atPos ER (dcell c (qR cc0_scratch7 7 1 inb_S15x2_S1x1_7_1)) 0 ∅ 0
    ∗ atPos ER (dcell c (qR cc0_scratch7 8 0 inb_S15x2_S1x1_8_0)) 0 ∅ 0
    ∗ atPos ER (dcell c (qR cc0_scratch7 8 1 inb_S15x2_S1x1_8_1)) 0 ∅ 0
    ∗ atPos ER (dcell c (qR cc0_scratch7 9 0 inb_S15x2_S1x1_9_0)) 0 ∅ 0
    ∗ atPos ER (dcell c (qR cc0_scratch7 9 1 inb_S15x2_S1x1_9_1)) 0 ∅ 0
    ∗ atPos ER (dcell c (qR cc0_scratch7 10 0 inb_S15x2_S1x1_10_0)) 0 ∅ 0
    ∗ atPos ER (dcell c (qR cc0_scratch7 10 1 inb_S15x2_S1x1_10_1)) 0 ∅ 0
    ∗ atPos ER (dcell c (qR cc0_scratch7 11 0 inb_S15x2_S1x1_11_0)) 0 ∅ 0
    ∗ atPos ER (dcell c (qR cc0_scratch7 11 1 inb_S15x2_S1x1_11_1)) 0 ∅ 0
    ∗ atPos ER (dcell c (qR cc0_scratch7 12 0 inb_S15x2_S1x1_12_0)) 0 ∅ 0
    ∗ atPos ER (dcell c (qR cc0_scratch7 12 1 inb_S15x2_S1x1_12_1)) 0 ∅ 0
    ∗ atPos ER (dcell c (qR cc0_scratch7 13 0 inb_S15x2_S1x1_13_0)) 0 ∅ 0
    ∗ atPos ER (dcell c (qR cc0_scratch7 13 1 inb_S15x2_S1x1_13_1)) 0 ∅ 0
    ∗ atPos ER (dcell c (qR cc0_scratch7 14 0 inb_S15x2_S1x1_14_0)) 0 ∅ 0
    ∗ atPos ER (dcell c (qR cc0_scratch7 14 1 inb_S15x2_S1x1_14_1)) 0 ∅ 0
    ∗ atPos ER (dcell c (qR cc0_scratch5 0 0 inb_S15x2_S1x1_0_0)) 0 ∅ 0
    ∗ atPos ER (dcell c (qR cc0_scratch5 0 1 inb_S15x2_S1x1_0_1)) 0 ∅ 0
    ∗ atPos ER (dcell c (qR cc0_scratch5 1 0 inb_S15x2_S1x1_1_0)) 0 ∅ 0
    ∗ atPos ER (dcell c (qR cc0_scratch5 1 1 inb_S15x2_S1x1_1_1)) 0 ∅ 0
    ∗ atPos ER (dcell c (qR cc0_scratch5 2 0 inb_S15x2_S1x1_2_0)) 0 ∅ 0
    ∗ atPos ER (dcell c (qR cc0_scratch5 2 1 inb_S15x2_S1x1_2_1)) 0 ∅ 0
    ∗ atPos ER (dcell c (qR cc0_scratch5 3 0 inb_S15x2_S1x1_3_0)) 0 ∅ 0
    ∗ atPos ER (dcell c (qR cc0_scratch5 3 1 inb_S15x2_S1x1_3_1)) 0 ∅ 0
    ∗ atPos ER (dcell c (qR cc0_scratch5 4 0 inb_S15x2_S1x1_4_0)) 0 ∅ 0
    ∗ atPos ER (dcell c (qR cc0_scratch5 4 1 inb_S15x2_S1x1_4_1)) 0 ∅ 0
    ∗ atPos ER (dcell c (qR cc0_scratch5 5 0 inb_S15x2_S1x1_5_0)) 0 ∅ 0
    ∗ atPos ER (dcell c (qR cc0_scratch5 5 1 inb_S15x2_S1x1_5_1)) 0 ∅ 0
    ∗ atPos ER (dcell c (qR cc0_scratch5 6 0 inb_S15x2_S1x1_6_0)) 0 ∅ 0
    ∗ atPos ER (dcell c (qR cc0_scratch5 6 1 inb_S15x2_S1x1_6_1)) 0 ∅ 0
    ∗ atPos ER (dcell c (qR cc0_scratch5 7 0 inb_S15x2_S1x1_7_0)) 0 ∅ 0
    ∗ atPos ER (dcell c (qR cc0_scratch5 7 1 inb_S15x2_S1x1_7_1)) 0 ∅ 0
    ∗ atPos ER (dcell c (qR cc0_scratch5 8 0 inb_S15x2_S1x1_8_0)) 0 ∅ 0
    ∗ atPos ER (dcell c (qR cc0_scratch5 8 1 inb_S15x2_S1x1_8_1)) 0 ∅ 0
    ∗ atPos ER (dcell c (qR cc0_scratch5 9 0 inb_S15x2_S1x1_9_0)) 0 ∅ 0
    ∗ atPos ER (dcell c (qR cc0_scratch5 9 1 inb_S15x2_S1x1_9_1)) 0 ∅ 0
    ∗ atPos ER (dcell c (qR cc0_scratch5 10 0 inb_S15x2_S1x1_10_0)) 0 ∅ 0
    ∗ atPos ER (dcell c (qR cc0_scratch5 10 1 inb_S15x2_S1x1_10_1)) 0 ∅ 0
    ∗ atPos ER (dcell c (qR cc0_scratch5 11 0 inb_S15x2_S1x1_11_0)) 0 ∅ 0
    ∗ atPos ER (dcell c (qR cc0_scratch5 11 1 inb_S15x2_S1x1_11_1)) 0 ∅ 0
    ∗ atPos ER (dcell c (qR cc0_scratch5 12 0 inb_S15x2_S1x1_12_0)) 0 ∅ 0
    ∗ atPos ER (dcell c (qR cc0_scratch5 12 1 inb_S15x2_S1x1_12_1)) 0 ∅ 0
    ∗ atPos ER (dcell c (qR cc0_scratch5 13 0 inb_S15x2_S1x1_13_0)) 0 ∅ 0
    ∗ atPos ER (dcell c (qR cc0_scratch5 13 1 inb_S15x2_S1x1_13_1)) 0 ∅ 0
    ∗ atPos ER (dcell c (qR cc0_scratch5 14 0 inb_S15x2_S1x1_14_0)) 0 ∅ 0
    ∗ atPos ER (dcell c (qR cc0_scratch5 14 1 inb_S15x2_S1x1_14_1)) 0 ∅ 0
    ∗ atPos ER (dcell c (qR cc0_scratch9 0 0 inb_S15x2_S1x1_0_0)) 0 ∅ 0
    ∗ atPos ER (dcell c (qR cc0_scratch9 0 1 inb_S15x2_S1x1_0_1)) 0 ∅ 0
    ∗ atPos ER (dcell c (qR cc0_scratch9 1 0 inb_S15x2_S1x1_1_0)) 0 ∅ 0
    ∗ atPos ER (dcell c (qR cc0_scratch9 1 1 inb_S15x2_S1x1_1_1)) 0 ∅ 0
    ∗ atPos ER (dcell c (qR cc0_scratch9 2 0 inb_S15x2_S1x1_2_0)) 0 ∅ 0
    ∗ atPos ER (dcell c (qR cc0_scratch9 2 1 inb_S15x2_S1x1_2_1)) 0 ∅ 0
    ∗ atPos ER (dcell c (qR cc0_scratch9 3 0 inb_S15x2_S1x1_3_0)) 0 ∅ 0
    ∗ atPos ER (dcell c (qR cc0_scratch9 3 1 inb_S15x2_S1x1_3_1)) 0 ∅ 0
    ∗ atPos ER (dcell c (qR cc0_scratch9 4 0 inb_S15x2_S1x1_4_0)) 0 ∅ 0
    ∗ atPos ER (dcell c (qR cc0_scratch9 4 1 inb_S15x2_S1x1_4_1)) 0 ∅ 0
    ∗ atPos ER (dcell c (qR cc0_scratch9 5 0 inb_S15x2_S1x1_5_0)) 0 ∅ 0
    ∗ atPos ER (dcell c (qR cc0_scratch9 5 1 inb_S15x2_S1x1_5_1)) 0 ∅ 0
    ∗ atPos ER (dcell c (qR cc0_scratch9 6 0 inb_S15x2_S1x1_6_0)) 0 ∅ 0
    ∗ atPos ER (dcell c (qR cc0_scratch9 6 1 inb_S15x2_S1x1_6_1)) 0 ∅ 0
    ∗ atPos ER (dcell c (qR cc0_scratch9 7 0 inb_S15x2_S1x1_7_0)) 0 ∅ 0
    ∗ atPos ER (dcell c (qR cc0_scratch9 7 1 inb_S15x2_S1x1_7_1)) 0 ∅ 0
    ∗ atPos ER (dcell c (qR cc0_scratch9 8 0 inb_S15x2_S1x1_8_0)) 0 ∅ 0
    ∗ atPos ER (dcell c (qR cc0_scratch9 8 1 inb_S15x2_S1x1_8_1)) 0 ∅ 0
    ∗ atPos ER (dcell c (qR cc0_scratch9 9 0 inb_S15x2_S1x1_9_0)) 0 ∅ 0
    ∗ atPos ER (dcell c (qR cc0_scratch9 9 1 inb_S15x2_S1x1_9_1)) 0 ∅ 0
    ∗ atPos ER (dcell c (qR cc0_scratch9 10 0 inb_S15x2_S1x1_10_0)) 0 ∅ 0
    ∗ atPos ER (dcell c (qR cc0_scratch9 10 1 inb_S15x2_S1x1_10_1)) 0 ∅ 0
    ∗ atPos ER (dcell c (qR cc0_scratch9 11 0 inb_S15x2_S1x1_11_0)) 0 ∅ 0
    ∗ atPos ER (dcell c (qR cc0_scratch9 11 1 inb_S15x2_S1x1_11_1)) 0 ∅ 0
    ∗ atPos ER (dcell c (qR cc0_scratch9 12 0 inb_S15x2_S1x1_12_0)) 0 ∅ 0
    ∗ atPos ER (dcell c (qR cc0_scratch9 12 1 inb_S15x2_S1x1_12_1)) 0 ∅ 0
    ∗ atPos ER (dcell c (qR cc0_scratch9 13 0 inb_S15x2_S1x1_13_0)) 0 ∅ 0
    ∗ atPos ER (dcell c (qR cc0_scratch9 13 1 inb_S15x2_S1x1_13_1)) 0 ∅ 0
    ∗ atPos ER (dcell c (qR cc0_scratch9 14 0 inb_S15x2_S1x1_14_0)) 0 ∅ 0
    ∗ atPos ER (dcell c (qR cc0_scratch9 14 1 inb_S15x2_S1x1_14_1)) 0 ∅ 0
    ∗ reached ER (barCell (nxt c)) 0
    ∗ reached ER (barCell (prv c)) 0
    ∗ reached ER (dcell (nxt c) (qR cc0_scratch3 0 0 inb_S15x2_S1x1_0_0)) 0
    ∗ reached ER (dcell (nxt c) (qR cc0_scratch3 0 1 inb_S15x2_S1x1_0_1)) 0
    ∗ reached ER (dcell (nxt c) (qR cc0_scratch3 1 0 inb_S15x2_S1x1_1_0)) 0
    ∗ reached ER (dcell (nxt c) (qR cc0_scratch3 1 1 inb_S15x2_S1x1_1_1)) 0
    ∗ reached ER (dcell (nxt c) (qR cc0_scratch3 2 0 inb_S15x2_S1x1_2_0)) 0
    ∗ reached ER (dcell (nxt c) (qR cc0_scratch3 2 1 inb_S15x2_S1x1_2_1)) 0
    ∗ reached ER (dcell (nxt c) (qR cc0_scratch3 3 0 inb_S15x2_S1x1_3_0)) 0
    ∗ reached ER (dcell (nxt c) (qR cc0_scratch3 3 1 inb_S15x2_S1x1_3_1)) 0
    ∗ reached ER (dcell (nxt c) (qR cc0_scratch3 4 0 inb_S15x2_S1x1_4_0)) 0
    ∗ reached ER (dcell (nxt c) (qR cc0_scratch3 4 1 inb_S15x2_S1x1_4_1)) 0
    ∗ reached ER (dcell (nxt c) (qR cc0_scratch3 5 0 inb_S15x2_S1x1_5_0)) 0
    ∗ reached ER (dcell (nxt c) (qR cc0_scratch3 5 1 inb_S15x2_S1x1_5_1)) 0
    ∗ reached ER (dcell (nxt c) (qR cc0_scratch3 6 0 inb_S15x2_S1x1_6_0)) 0
    ∗ reached ER (dcell (nxt c) (qR cc0_scratch3 6 1 inb_S15x2_S1x1_6_1)) 0
    ∗ reached ER (dcell (nxt c) (qR cc0_scratch3 7 0 inb_S15x2_S1x1_7_0)) 0
    ∗ reached ER (dcell (nxt c) (qR cc0_scratch3 7 1 inb_S15x2_S1x1_7_1)) 0
    ∗ reached ER (dcell (nxt c) (qR cc0_scratch3 8 0 inb_S15x2_S1x1_8_0)) 0
    ∗ reached ER (dcell (nxt c) (qR cc0_scratch3 8 1 inb_S15x2_S1x1_8_1)) 0
    ∗ reached ER (dcell (nxt c) (qR cc0_scratch3 9 0 inb_S15x2_S1x1_9_0)) 0
    ∗ reached ER (dcell (nxt c) (qR cc0_scratch3 9 1 inb_S15x2_S1x1_9_1)) 0
    ∗ reached ER (dcell (nxt c) (qR cc0_scratch3 10 0 inb_S15x2_S1x1_10_0)) 0
    ∗ reached ER (dcell (nxt c) (qR cc0_scratch3 10 1 inb_S15x2_S1x1_10_1)) 0
    ∗ reached ER (dcell (nxt c) (qR cc0_scratch3 11 0 inb_S15x2_S1x1_11_0)) 0
    ∗ reached ER (dcell (nxt c) (qR cc0_scratch3 11 1 inb_S15x2_S1x1_11_1)) 0
    ∗ reached ER (dcell (nxt c) (qR cc0_scratch3 12 0 inb_S15x2_S1x1_12_0)) 0
    ∗ reached ER (dcell (nxt c) (qR cc0_scratch3 12 1 inb_S15x2_S1x1_12_1)) 0
    ∗ reached ER (dcell (nxt c) (qR cc0_scratch3 13 0 inb_S15x2_S1x1_13_0)) 0
    ∗ reached ER (dcell (nxt c) (qR cc0_scratch3 13 1 inb_S15x2_S1x1_13_1)) 0
    ∗ reached ER (dcell (nxt c) (qR cc0_scratch3 14 0 inb_S15x2_S1x1_14_0)) 0
    ∗ reached ER (dcell (nxt c) (qR cc0_scratch3 14 1 inb_S15x2_S1x1_14_1)) 0
    ∗ reached ER (dcell (nxt c) (qR cc0_scratch7 0 0 inb_S15x2_S1x1_0_0)) 0
    ∗ reached ER (dcell (nxt c) (qR cc0_scratch7 0 1 inb_S15x2_S1x1_0_1)) 0
    ∗ reached ER (dcell (nxt c) (qR cc0_scratch7 1 0 inb_S15x2_S1x1_1_0)) 0
    ∗ reached ER (dcell (nxt c) (qR cc0_scratch7 1 1 inb_S15x2_S1x1_1_1)) 0
    ∗ reached ER (dcell (nxt c) (qR cc0_scratch7 2 0 inb_S15x2_S1x1_2_0)) 0
    ∗ reached ER (dcell (nxt c) (qR cc0_scratch7 2 1 inb_S15x2_S1x1_2_1)) 0
    ∗ reached ER (dcell (nxt c) (qR cc0_scratch7 3 0 inb_S15x2_S1x1_3_0)) 0
    ∗ reached ER (dcell (nxt c) (qR cc0_scratch7 3 1 inb_S15x2_S1x1_3_1)) 0
    ∗ reached ER (dcell (nxt c) (qR cc0_scratch7 4 0 inb_S15x2_S1x1_4_0)) 0
    ∗ reached ER (dcell (nxt c) (qR cc0_scratch7 4 1 inb_S15x2_S1x1_4_1)) 0
    ∗ reached ER (dcell (nxt c) (qR cc0_scratch7 5 0 inb_S15x2_S1x1_5_0)) 0
    ∗ reached ER (dcell (nxt c) (qR cc0_scratch7 5 1 inb_S15x2_S1x1_5_1)) 0
    ∗ reached ER (dcell (nxt c) (qR cc0_scratch7 6 0 inb_S15x2_S1x1_6_0)) 0
    ∗ reached ER (dcell (nxt c) (qR cc0_scratch7 6 1 inb_S15x2_S1x1_6_1)) 0
    ∗ reached ER (dcell (nxt c) (qR cc0_scratch7 7 0 inb_S15x2_S1x1_7_0)) 0
    ∗ reached ER (dcell (nxt c) (qR cc0_scratch7 7 1 inb_S15x2_S1x1_7_1)) 0
    ∗ reached ER (dcell (nxt c) (qR cc0_scratch7 8 0 inb_S15x2_S1x1_8_0)) 0
    ∗ reached ER (dcell (nxt c) (qR cc0_scratch7 8 1 inb_S15x2_S1x1_8_1)) 0
    ∗ reached ER (dcell (nxt c) (qR cc0_scratch7 9 0 inb_S15x2_S1x1_9_0)) 0
    ∗ reached ER (dcell (nxt c) (qR cc0_scratch7 9 1 inb_S15x2_S1x1_9_1)) 0
    ∗ reached ER (dcell (nxt c) (qR cc0_scratch7 10 0 inb_S15x2_S1x1_10_0)) 0
    ∗ reached ER (dcell (nxt c) (qR cc0_scratch7 10 1 inb_S15x2_S1x1_10_1)) 0
    ∗ reached ER (dcell (nxt c) (qR cc0_scratch7 11 0 inb_S15x2_S1x1_11_0)) 0
    ∗ reached ER (dcell (nxt c) (qR cc0_scratch7 11 1 inb_S15x2_S1x1_11_1)) 0
    ∗ reached ER (dcell (nxt c) (qR cc0_scratch7 12 0 inb_S15x2_S1x1_12_0)) 0
    ∗ reached ER (dcell (nxt c) (qR cc0_scratch7 12 1 inb_S15x2_S1x1_12_1)) 0
    ∗ reached ER (dcell (nxt c) (qR cc0_scratch7 13 0 inb_S15x2_S1x1_13_0)) 0
    ∗ reached ER (dcell (nxt c) (qR cc0_scratch7 13 1 inb_S15x2_S1x1_13_1)) 0
    ∗ reached ER (dcell (nxt c) (qR cc0_scratch7 14 0 inb_S15x2_S1x1_14_0)) 0
    ∗ reached ER (dcell (nxt c) (qR cc0_scratch7 14 1 inb_S15x2_S1x1_14_1)) 0
    ∗ reached ER (dcell (prv c) (qR cc0_scratch5 0 0 inb_S15x2_S1x1_0_0)) 0
    ∗ reached ER (dcell (prv c) (qR cc0_scratch5 0 1 inb_S15x2_S1x1_0_1)) 0
    ∗ reached ER (dcell (prv c) (qR cc0_scratch5 1 0 inb_S15x2_S1x1_1_0)) 0
    ∗ reached ER (dcell (prv c) (qR cc0_scratch5 1 1 inb_S15x2_S1x1_1_1)) 0
    ∗ reached ER (dcell (prv c) (qR cc0_scratch5 2 0 inb_S15x2_S1x1_2_0)) 0
    ∗ reached ER (dcell (prv c) (qR cc0_scratch5 2 1 inb_S15x2_S1x1_2_1)) 0
    ∗ reached ER (dcell (prv c) (qR cc0_scratch5 3 0 inb_S15x2_S1x1_3_0)) 0
    ∗ reached ER (dcell (prv c) (qR cc0_scratch5 3 1 inb_S15x2_S1x1_3_1)) 0
    ∗ reached ER (dcell (prv c) (qR cc0_scratch5 4 0 inb_S15x2_S1x1_4_0)) 0
    ∗ reached ER (dcell (prv c) (qR cc0_scratch5 4 1 inb_S15x2_S1x1_4_1)) 0
    ∗ reached ER (dcell (prv c) (qR cc0_scratch5 5 0 inb_S15x2_S1x1_5_0)) 0
    ∗ reached ER (dcell (prv c) (qR cc0_scratch5 5 1 inb_S15x2_S1x1_5_1)) 0
    ∗ reached ER (dcell (prv c) (qR cc0_scratch5 6 0 inb_S15x2_S1x1_6_0)) 0
    ∗ reached ER (dcell (prv c) (qR cc0_scratch5 6 1 inb_S15x2_S1x1_6_1)) 0
    ∗ reached ER (dcell (prv c) (qR cc0_scratch5 7 0 inb_S15x2_S1x1_7_0)) 0
    ∗ reached ER (dcell (prv c) (qR cc0_scratch5 7 1 inb_S15x2_S1x1_7_1)) 0
    ∗ reached ER (dcell (prv c) (qR cc0_scratch5 8 0 inb_S15x2_S1x1_8_0)) 0
    ∗ reached ER (dcell (prv c) (qR cc0_scratch5 8 1 inb_S15x2_S1x1_8_1)) 0
    ∗ reached ER (dcell (prv c) (qR cc0_scratch5 9 0 inb_S15x2_S1x1_9_0)) 0
    ∗ reached ER (dcell (prv c) (qR cc0_scratch5 9 1 inb_S15x2_S1x1_9_1)) 0
    ∗ reached ER (dcell (prv c) (qR cc0_scratch5 10 0 inb_S15x2_S1x1_10_0)) 0
    ∗ reached ER (dcell (prv c) (qR cc0_scratch5 10 1 inb_S15x2_S1x1_10_1)) 0
    ∗ reached ER (dcell (prv c) (qR cc0_scratch5 11 0 inb_S15x2_S1x1_11_0)) 0
    ∗ reached ER (dcell (prv c) (qR cc0_scratch5 11 1 inb_S15x2_S1x1_11_1)) 0
    ∗ reached ER (dcell (prv c) (qR cc0_scratch5 12 0 inb_S15x2_S1x1_12_0)) 0
    ∗ reached ER (dcell (prv c) (qR cc0_scratch5 12 1 inb_S15x2_S1x1_12_1)) 0
    ∗ reached ER (dcell (prv c) (qR cc0_scratch5 13 0 inb_S15x2_S1x1_13_0)) 0
    ∗ reached ER (dcell (prv c) (qR cc0_scratch5 13 1 inb_S15x2_S1x1_13_1)) 0
    ∗ reached ER (dcell (prv c) (qR cc0_scratch5 14 0 inb_S15x2_S1x1_14_0)) 0
    ∗ reached ER (dcell (prv c) (qR cc0_scratch5 14 1 inb_S15x2_S1x1_14_1)) 0
    ∗ reached ER (dcell (prv c) (qR cc0_scratch9 0 0 inb_S15x2_S1x1_0_0)) 0
    ∗ reached ER (dcell (prv c) (qR cc0_scratch9 0 1 inb_S15x2_S1x1_0_1)) 0
    ∗ reached ER (dcell (prv c) (qR cc0_scratch9 1 0 inb_S15x2_S1x1_1_0)) 0
    ∗ reached ER (dcell (prv c) (qR cc0_scratch9 1 1 inb_S15x2_S1x1_1_1)) 0
    ∗ reached ER (dcell (prv c) (qR cc0_scratch9 2 0 inb_S15x2_S1x1_2_0)) 0
    ∗ reached ER (dcell (prv c) (qR cc0_scratch9 2 1 inb_S15x2_S1x1_2_1)) 0
    ∗ reached ER (dcell (prv c) (qR cc0_scratch9 3 0 inb_S15x2_S1x1_3_0)) 0
    ∗ reached ER (dcell (prv c) (qR cc0_scratch9 3 1 inb_S15x2_S1x1_3_1)) 0
    ∗ reached ER (dcell (prv c) (qR cc0_scratch9 4 0 inb_S15x2_S1x1_4_0)) 0
    ∗ reached ER (dcell (prv c) (qR cc0_scratch9 4 1 inb_S15x2_S1x1_4_1)) 0
    ∗ reached ER (dcell (prv c) (qR cc0_scratch9 5 0 inb_S15x2_S1x1_5_0)) 0
    ∗ reached ER (dcell (prv c) (qR cc0_scratch9 5 1 inb_S15x2_S1x1_5_1)) 0
    ∗ reached ER (dcell (prv c) (qR cc0_scratch9 6 0 inb_S15x2_S1x1_6_0)) 0
    ∗ reached ER (dcell (prv c) (qR cc0_scratch9 6 1 inb_S15x2_S1x1_6_1)) 0
    ∗ reached ER (dcell (prv c) (qR cc0_scratch9 7 0 inb_S15x2_S1x1_7_0)) 0
    ∗ reached ER (dcell (prv c) (qR cc0_scratch9 7 1 inb_S15x2_S1x1_7_1)) 0
    ∗ reached ER (dcell (prv c) (qR cc0_scratch9 8 0 inb_S15x2_S1x1_8_0)) 0
    ∗ reached ER (dcell (prv c) (qR cc0_scratch9 8 1 inb_S15x2_S1x1_8_1)) 0
    ∗ reached ER (dcell (prv c) (qR cc0_scratch9 9 0 inb_S15x2_S1x1_9_0)) 0
    ∗ reached ER (dcell (prv c) (qR cc0_scratch9 9 1 inb_S15x2_S1x1_9_1)) 0
    ∗ reached ER (dcell (prv c) (qR cc0_scratch9 10 0 inb_S15x2_S1x1_10_0)) 0
    ∗ reached ER (dcell (prv c) (qR cc0_scratch9 10 1 inb_S15x2_S1x1_10_1)) 0
    ∗ reached ER (dcell (prv c) (qR cc0_scratch9 11 0 inb_S15x2_S1x1_11_0)) 0
    ∗ reached ER (dcell (prv c) (qR cc0_scratch9 11 1 inb_S15x2_S1x1_11_1)) 0
    ∗ reached ER (dcell (prv c) (qR cc0_scratch9 12 0 inb_S15x2_S1x1_12_0)) 0
    ∗ reached ER (dcell (prv c) (qR cc0_scratch9 12 1 inb_S15x2_S1x1_12_1)) 0
    ∗ reached ER (dcell (prv c) (qR cc0_scratch9 13 0 inb_S15x2_S1x1_13_0)) 0
    ∗ reached ER (dcell (prv c) (qR cc0_scratch9 13 1 inb_S15x2_S1x1_13_1)) 0
    ∗ reached ER (dcell (prv c) (qR cc0_scratch9 14 0 inb_S15x2_S1x1_14_0)) 0
    ∗ reached ER (dcell (prv c) (qR cc0_scratch9 14 1 inb_S15x2_S1x1_14_1)) 0
    ∗ reached ER (dcell c (qS cc0_scratch2 0 inb_S4_S1_0)) 0
    ∗ reached ER (dcell c (qS cc0_scratch2 1 inb_S4_S1_1)) 0
    ∗ reached ER (dcell c (qS cc0_scratch2 2 inb_S4_S1_2)) 0
    ∗ reached ER (dcell c (qS cc0_scratch2 3 inb_S4_S1_3)) 0
    ∗ reached ER (dcell c (qS cc0_scratch4 0 inb_S4_S1_0)) 0
    ∗ reached ER (dcell c (qS cc0_scratch4 1 inb_S4_S1_1)) 0
    ∗ reached ER (dcell c (qS cc0_scratch4 2 inb_S4_S1_2)) 0
    ∗ reached ER (dcell c (qS cc0_scratch4 3 inb_S4_S1_3)) 0
    ∗ reached ER (dcell c (qS cc0_scratch6 0 inb_S4_S1_0)) 0
    ∗ reached ER (dcell c (qS cc0_scratch6 1 inb_S4_S1_1)) 0
    ∗ reached ER (dcell c (qS cc0_scratch6 2 inb_S4_S1_2)) 0
    ∗ reached ER (dcell c (qS cc0_scratch6 3 inb_S4_S1_3)) 0
    ∗ reached ER (dcell c (qS cc0_scratch8 0 inb_S4_S1_0)) 0
    ∗ reached ER (dcell c (qS cc0_scratch8 1 inb_S4_S1_1)) 0
    ∗ reached ER (dcell c (qS cc0_scratch8 2 inb_S4_S1_2)) 0
    ∗ reached ER (dcell c (qS cc0_scratch8 3 inb_S4_S1_3)) 0
    ∗ dutyTok ER (barCell (prv c)) 0 false
    ∗ dutyTok ER (barCell (nxt c)) 0 true
    ∗ dutyTok ER (dcell (nxt c) (qR cc0_scratch3 0 0 inb_S15x2_S1x1_0_0)) 0 false
    ∗ dutyTok ER (dcell (nxt c) (qR cc0_scratch3 0 1 inb_S15x2_S1x1_0_1)) 0 false
    ∗ dutyTok ER (dcell (nxt c) (qR cc0_scratch3 1 0 inb_S15x2_S1x1_1_0)) 0 false
    ∗ dutyTok ER (dcell (nxt c) (qR cc0_scratch3 1 1 inb_S15x2_S1x1_1_1)) 0 false
    ∗ dutyTok ER (dcell (nxt c) (qR cc0_scratch3 2 0 inb_S15x2_S1x1_2_0)) 0 false
    ∗ dutyTok ER (dcell (nxt c) (qR cc0_scratch3 2 1 inb_S15x2_S1x1_2_1)) 0 false
    ∗ dutyTok ER (dcell (nxt c) (qR cc0_scratch3 3 0 inb_S15x2_S1x1_3_0)) 0 false
    ∗ dutyTok ER (dcell (nxt c) (qR cc0_scratch3 3 1 inb_S15x2_S1x1_3_1)) 0 false
    ∗ dutyTok ER (dcell (nxt c) (qR cc0_scratch3 4 0 inb_S15x2_S1x1_4_0)) 0 false
    ∗ dutyTok ER (dcell (nxt c) (qR cc0_scratch3 4 1 inb_S15x2_S1x1_4_1)) 0 false
    ∗ dutyTok ER (dcell (nxt c) (qR cc0_scratch3 5 0 inb_S15x2_S1x1_5_0)) 0 false
    ∗ dutyTok ER (dcell (nxt c) (qR cc0_scratch3 5 1 inb_S15x2_S1x1_5_1)) 0 false
    ∗ dutyTok ER (dcell (nxt c) (qR cc0_scratch3 6 0 inb_S15x2_S1x1_6_0)) 0 false
    ∗ dutyTok ER (dcell (nxt c) (qR cc0_scratch3 6 1 inb_S15x2_S1x1_6_1)) 0 false
    ∗ dutyTok ER (dcell (nxt c) (qR cc0_scratch3 7 0 inb_S15x2_S1x1_7_0)) 0 false
    ∗ dutyTok ER (dcell (nxt c) (qR cc0_scratch3 7 1 inb_S15x2_S1x1_7_1)) 0 false
    ∗ dutyTok ER (dcell (nxt c) (qR cc0_scratch3 8 0 inb_S15x2_S1x1_8_0)) 0 false
    ∗ dutyTok ER (dcell (nxt c) (qR cc0_scratch3 8 1 inb_S15x2_S1x1_8_1)) 0 false
    ∗ dutyTok ER (dcell (nxt c) (qR cc0_scratch3 9 0 inb_S15x2_S1x1_9_0)) 0 false
    ∗ dutyTok ER (dcell (nxt c) (qR cc0_scratch3 9 1 inb_S15x2_S1x1_9_1)) 0 false
    ∗ dutyTok ER (dcell (nxt c) (qR cc0_scratch3 10 0 inb_S15x2_S1x1_10_0)) 0 false
    ∗ dutyTok ER (dcell (nxt c) (qR cc0_scratch3 10 1 inb_S15x2_S1x1_10_1)) 0 false
    ∗ dutyTok ER (dcell (nxt c) (qR cc0_scratch3 11 0 inb_S15x2_S1x1_11_0)) 0 false
    ∗ dutyTok ER (dcell (nxt c) (qR cc0_scratch3 11 1 inb_S15x2_S1x1_11_1)) 0 false
    ∗ dutyTok ER (dcell (nxt c) (qR cc0_scratch3 12 0 inb_S15x2_S1x1_12_0)) 0 false
    ∗ dutyTok ER (dcell (nxt c) (qR cc0_scratch3 12 1 inb_S15x2_S1x1_12_1)) 0 false
    ∗ dutyTok ER (dcell (nxt c) (qR cc0_scratch3 13 0 inb_S15x2_S1x1_13_0)) 0 false
    ∗ dutyTok ER (dcell (nxt c) (qR cc0_scratch3 13 1 inb_S15x2_S1x1_13_1)) 0 false
    ∗ dutyTok ER (dcell (nxt c) (qR cc0_scratch3 14 0 inb_S15x2_S1x1_14_0)) 0 false
    ∗ dutyTok ER (dcell (nxt c) (qR cc0_scratch3 14 1 inb_S15x2_S1x1_14_1)) 0 false
    ∗ dutyTok ER (dcell (nxt c) (qR cc0_scratch7 0 0 inb_S15x2_S1x1_0_0)) 0 false
    ∗ dutyTok ER (dcell (nxt c) (qR cc0_scratch7 0 1 inb_S15x2_S1x1_0_1)) 0 false
    ∗ dutyTok ER (dcell (nxt c) (qR cc0_scratch7 1 0 inb_S15x2_S1x1_1_0)) 0 false
    ∗ dutyTok ER (dcell (nxt c) (qR cc0_scratch7 1 1 inb_S15x2_S1x1_1_1)) 0 false
    ∗ dutyTok ER (dcell (nxt c) (qR cc0_scratch7 2 0 inb_S15x2_S1x1_2_0)) 0 false
    ∗ dutyTok ER (dcell (nxt c) (qR cc0_scratch7 2 1 inb_S15x2_S1x1_2_1)) 0 false
    ∗ dutyTok ER (dcell (nxt c) (qR cc0_scratch7 3 0 inb_S15x2_S1x1_3_0)) 0 false
    ∗ dutyTok ER (dcell (nxt c) (qR cc0_scratch7 3 1 inb_S15x2_S1x1_3_1)) 0 false
    ∗ dutyTok ER (dcell (nxt c) (qR cc0_scratch7 4 0 inb_S15x2_S1x1_4_0)) 0 false
    ∗ dutyTok ER (dcell (nxt c) (qR cc0_scratch7 4 1 inb_S15x2_S1x1_4_1)) 0 false
    ∗ dutyTok ER (dcell (nxt c) (qR cc0_scratch7 5 0 inb_S15x2_S1x1_5_0)) 0 false
    ∗ dutyTok ER (dcell (nxt c) (qR cc0_scratch7 5 1 inb_S15x2_S1x1_5_1)) 0 false
    ∗ dutyTok ER (dcell (nxt c) (qR cc0_scratch7 6 0 inb_S15x2_S1x1_6_0)) 0 false
    ∗ dutyTok ER (dcell (nxt c) (qR cc0_scratch7 6 1 inb_S15x2_S1x1_6_1)) 0 false
    ∗ dutyTok ER (dcell (nxt c) (qR cc0_scratch7 7 0 inb_S15x2_S1x1_7_0)) 0 false
    ∗ dutyTok ER (dcell (nxt c) (qR cc0_scratch7 7 1 inb_S15x2_S1x1_7_1)) 0 false
    ∗ dutyTok ER (dcell (nxt c) (qR cc0_scratch7 8 0 inb_S15x2_S1x1_8_0)) 0 false
    ∗ dutyTok ER (dcell (nxt c) (qR cc0_scratch7 8 1 inb_S15x2_S1x1_8_1)) 0 false
    ∗ dutyTok ER (dcell (nxt c) (qR cc0_scratch7 9 0 inb_S15x2_S1x1_9_0)) 0 false
    ∗ dutyTok ER (dcell (nxt c) (qR cc0_scratch7 9 1 inb_S15x2_S1x1_9_1)) 0 false
    ∗ dutyTok ER (dcell (nxt c) (qR cc0_scratch7 10 0 inb_S15x2_S1x1_10_0)) 0 false
    ∗ dutyTok ER (dcell (nxt c) (qR cc0_scratch7 10 1 inb_S15x2_S1x1_10_1)) 0 false
    ∗ dutyTok ER (dcell (nxt c) (qR cc0_scratch7 11 0 inb_S15x2_S1x1_11_0)) 0 false
    ∗ dutyTok ER (dcell (nxt c) (qR cc0_scratch7 11 1 inb_S15x2_S1x1_11_1)) 0 false
    ∗ dutyTok ER (dcell (nxt c) (qR cc0_scratch7 12 0 inb_S15x2_S1x1_12_0)) 0 false
    ∗ dutyTok ER (dcell (nxt c) (qR cc0_scratch7 12 1 inb_S15x2_S1x1_12_1)) 0 false
    ∗ dutyTok ER (dcell (nxt c) (qR cc0_scratch7 13 0 inb_S15x2_S1x1_13_0)) 0 false
    ∗ dutyTok ER (dcell (nxt c) (qR cc0_scratch7 13 1 inb_S15x2_S1x1_13_1)) 0 false
    ∗ dutyTok ER (dcell (nxt c) (qR cc0_scratch7 14 0 inb_S15x2_S1x1_14_0)) 0 false
    ∗ dutyTok ER (dcell (nxt c) (qR cc0_scratch7 14 1 inb_S15x2_S1x1_14_1)) 0 false
    ∗ dutyTok ER (dcell (prv c) (qR cc0_scratch5 0 0 inb_S15x2_S1x1_0_0)) 0 false
    ∗ dutyTok ER (dcell (prv c) (qR cc0_scratch5 0 1 inb_S15x2_S1x1_0_1)) 0 false
    ∗ dutyTok ER (dcell (prv c) (qR cc0_scratch5 1 0 inb_S15x2_S1x1_1_0)) 0 false
    ∗ dutyTok ER (dcell (prv c) (qR cc0_scratch5 1 1 inb_S15x2_S1x1_1_1)) 0 false
    ∗ dutyTok ER (dcell (prv c) (qR cc0_scratch5 2 0 inb_S15x2_S1x1_2_0)) 0 false
    ∗ dutyTok ER (dcell (prv c) (qR cc0_scratch5 2 1 inb_S15x2_S1x1_2_1)) 0 false
    ∗ dutyTok ER (dcell (prv c) (qR cc0_scratch5 3 0 inb_S15x2_S1x1_3_0)) 0 false
    ∗ dutyTok ER (dcell (prv c) (qR cc0_scratch5 3 1 inb_S15x2_S1x1_3_1)) 0 false
    ∗ dutyTok ER (dcell (prv c) (qR cc0_scratch5 4 0 inb_S15x2_S1x1_4_0)) 0 false
    ∗ dutyTok ER (dcell (prv c) (qR cc0_scratch5 4 1 inb_S15x2_S1x1_4_1)) 0 false
    ∗ dutyTok ER (dcell (prv c) (qR cc0_scratch5 5 0 inb_S15x2_S1x1_5_0)) 0 false
    ∗ dutyTok ER (dcell (prv c) (qR cc0_scratch5 5 1 inb_S15x2_S1x1_5_1)) 0 false
    ∗ dutyTok ER (dcell (prv c) (qR cc0_scratch5 6 0 inb_S15x2_S1x1_6_0)) 0 false
    ∗ dutyTok ER (dcell (prv c) (qR cc0_scratch5 6 1 inb_S15x2_S1x1_6_1)) 0 false
    ∗ dutyTok ER (dcell (prv c) (qR cc0_scratch5 7 0 inb_S15x2_S1x1_7_0)) 0 false
    ∗ dutyTok ER (dcell (prv c) (qR cc0_scratch5 7 1 inb_S15x2_S1x1_7_1)) 0 false
    ∗ dutyTok ER (dcell (prv c) (qR cc0_scratch5 8 0 inb_S15x2_S1x1_8_0)) 0 false
    ∗ dutyTok ER (dcell (prv c) (qR cc0_scratch5 8 1 inb_S15x2_S1x1_8_1)) 0 false
    ∗ dutyTok ER (dcell (prv c) (qR cc0_scratch5 9 0 inb_S15x2_S1x1_9_0)) 0 false
    ∗ dutyTok ER (dcell (prv c) (qR cc0_scratch5 9 1 inb_S15x2_S1x1_9_1)) 0 false
    ∗ dutyTok ER (dcell (prv c) (qR cc0_scratch5 10 0 inb_S15x2_S1x1_10_0)) 0 false
    ∗ dutyTok ER (dcell (prv c) (qR cc0_scratch5 10 1 inb_S15x2_S1x1_10_1)) 0 false
    ∗ dutyTok ER (dcell (prv c) (qR cc0_scratch5 11 0 inb_S15x2_S1x1_11_0)) 0 false
    ∗ dutyTok ER (dcell (prv c) (qR cc0_scratch5 11 1 inb_S15x2_S1x1_11_1)) 0 false
    ∗ dutyTok ER (dcell (prv c) (qR cc0_scratch5 12 0 inb_S15x2_S1x1_12_0)) 0 false
    ∗ dutyTok ER (dcell (prv c) (qR cc0_scratch5 12 1 inb_S15x2_S1x1_12_1)) 0 false
    ∗ dutyTok ER (dcell (prv c) (qR cc0_scratch5 13 0 inb_S15x2_S1x1_13_0)) 0 false
    ∗ dutyTok ER (dcell (prv c) (qR cc0_scratch5 13 1 inb_S15x2_S1x1_13_1)) 0 false
    ∗ dutyTok ER (dcell (prv c) (qR cc0_scratch5 14 0 inb_S15x2_S1x1_14_0)) 0 false
    ∗ dutyTok ER (dcell (prv c) (qR cc0_scratch5 14 1 inb_S15x2_S1x1_14_1)) 0 false
    ∗ dutyTok ER (dcell (prv c) (qR cc0_scratch9 0 0 inb_S15x2_S1x1_0_0)) 0 false
    ∗ dutyTok ER (dcell (prv c) (qR cc0_scratch9 0 1 inb_S15x2_S1x1_0_1)) 0 false
    ∗ dutyTok ER (dcell (prv c) (qR cc0_scratch9 1 0 inb_S15x2_S1x1_1_0)) 0 false
    ∗ dutyTok ER (dcell (prv c) (qR cc0_scratch9 1 1 inb_S15x2_S1x1_1_1)) 0 false
    ∗ dutyTok ER (dcell (prv c) (qR cc0_scratch9 2 0 inb_S15x2_S1x1_2_0)) 0 false
    ∗ dutyTok ER (dcell (prv c) (qR cc0_scratch9 2 1 inb_S15x2_S1x1_2_1)) 0 false
    ∗ dutyTok ER (dcell (prv c) (qR cc0_scratch9 3 0 inb_S15x2_S1x1_3_0)) 0 false
    ∗ dutyTok ER (dcell (prv c) (qR cc0_scratch9 3 1 inb_S15x2_S1x1_3_1)) 0 false
    ∗ dutyTok ER (dcell (prv c) (qR cc0_scratch9 4 0 inb_S15x2_S1x1_4_0)) 0 false
    ∗ dutyTok ER (dcell (prv c) (qR cc0_scratch9 4 1 inb_S15x2_S1x1_4_1)) 0 false
    ∗ dutyTok ER (dcell (prv c) (qR cc0_scratch9 5 0 inb_S15x2_S1x1_5_0)) 0 false
    ∗ dutyTok ER (dcell (prv c) (qR cc0_scratch9 5 1 inb_S15x2_S1x1_5_1)) 0 false
    ∗ dutyTok ER (dcell (prv c) (qR cc0_scratch9 6 0 inb_S15x2_S1x1_6_0)) 0 false
    ∗ dutyTok ER (dcell (prv c) (qR cc0_scratch9 6 1 inb_S15x2_S1x1_6_1)) 0 false
    ∗ dutyTok ER (dcell (prv c) (qR cc0_scratch9 7 0 inb_S15x2_S1x1_7_0)) 0 false
    ∗ dutyTok ER (dcell (prv c) (qR cc0_scratch9 7 1 inb_S15x2_S1x1_7_1)) 0 false
    ∗ dutyTok ER (dcell (prv c) (qR cc0_scratch9 8 0 inb_S15x2_S1x1_8_0)) 0 false
    ∗ dutyTok ER (dcell (prv c) (qR cc0_scratch9 8 1 inb_S15x2_S1x1_8_1)) 0 false
    ∗ dutyTok ER (dcell (prv c) (qR cc0_scratch9 9 0 inb_S15x2_S1x1_9_0)) 0 false
    ∗ dutyTok ER (dcell (prv c) (qR cc0_scratch9 9 1 inb_S15x2_S1x1_9_1)) 0 false
    ∗ dutyTok ER (dcell (prv c) (qR cc0_scratch9 10 0 inb_S15x2_S1x1_10_0)) 0 false
    ∗ dutyTok ER (dcell (prv c) (qR cc0_scratch9 10 1 inb_S15x2_S1x1_10_1)) 0 false
    ∗ dutyTok ER (dcell (prv c) (qR cc0_scratch9 11 0 inb_S15x2_S1x1_11_0)) 0 false
    ∗ dutyTok ER (dcell (prv c) (qR cc0_scratch9 11 1 inb_S15x2_S1x1_11_1)) 0 false
    ∗ dutyTok ER (dcell (prv c) (qR cc0_scratch9 12 0 inb_S15x2_S1x1_12_0)) 0 false
    ∗ dutyTok ER (dcell (prv c) (qR cc0_scratch9 12 1 inb_S15x2_S1x1_12_1)) 0 false
    ∗ dutyTok ER (dcell (prv c) (qR cc0_scratch9 13 0 inb_S15x2_S1x1_13_0)) 0 false
    ∗ dutyTok ER (dcell (prv c) (qR cc0_scratch9 13 1 inb_S15x2_S1x1_13_1)) 0 false
    ∗ dutyTok ER (dcell (prv c) (qR cc0_scratch9 14 0 inb_S15x2_S1x1_14_0)) 0 false
    ∗ dutyTok ER (dcell (prv c) (qR cc0_scratch9 14 1 inb_S15x2_S1x1_14_1)) 0 false
    ∗ dutyTok ER (dcell c (qS cc0_scratch2 0 inb_S4_S1_0)) 0 false
    ∗ dutyTok ER (dcell c (qS cc0_scratch2 0 inb_S4_S1_0)) 1 false
    ∗ dutyTok ER (dcell c (qS cc0_scratch2 0 inb_S4_S1_0)) 2 false
    ∗ dutyTok ER (dcell c (qS cc0_scratch2 0 inb_S4_S1_0)) 3 false
    ∗ dutyTok ER (dcell c (qS cc0_scratch2 0 inb_S4_S1_0)) 4 false
    ∗ dutyTok ER (dcell c (qS cc0_scratch2 0 inb_S4_S1_0)) 5 false
    ∗ dutyTok ER (dcell c (qS cc0_scratch2 0 inb_S4_S1_0)) 6 false
    ∗ dutyTok ER (dcell c (qS cc0_scratch2 0 inb_S4_S1_0)) 7 false
    ∗ dutyTok ER (dcell c (qS cc0_scratch2 1 inb_S4_S1_1)) 0 false
    ∗ dutyTok ER (dcell c (qS cc0_scratch2 1 inb_S4_S1_1)) 1 false
    ∗ dutyTok ER (dcell c (qS cc0_scratch2 1 inb_S4_S1_1)) 2 false
    ∗ dutyTok ER (dcell c (qS cc0_scratch2 1 inb_S4_S1_1)) 3 false
    ∗ dutyTok ER (dcell c (qS cc0_scratch2 1 inb_S4_S1_1)) 4 false
    ∗ dutyTok ER (dcell c (qS cc0_scratch2 1 inb_S4_S1_1)) 5 false
    ∗ dutyTok ER (dcell c (qS cc0_scratch2 1 inb_S4_S1_1)) 6 false
    ∗ dutyTok ER (dcell c (qS cc0_scratch2 1 inb_S4_S1_1)) 7 false
    ∗ dutyTok ER (dcell c (qS cc0_scratch2 2 inb_S4_S1_2)) 0 false
    ∗ dutyTok ER (dcell c (qS cc0_scratch2 2 inb_S4_S1_2)) 1 false
    ∗ dutyTok ER (dcell c (qS cc0_scratch2 2 inb_S4_S1_2)) 2 false
    ∗ dutyTok ER (dcell c (qS cc0_scratch2 2 inb_S4_S1_2)) 3 false
    ∗ dutyTok ER (dcell c (qS cc0_scratch2 2 inb_S4_S1_2)) 4 false
    ∗ dutyTok ER (dcell c (qS cc0_scratch2 2 inb_S4_S1_2)) 5 false
    ∗ dutyTok ER (dcell c (qS cc0_scratch2 2 inb_S4_S1_2)) 6 false
    ∗ dutyTok ER (dcell c (qS cc0_scratch2 3 inb_S4_S1_3)) 0 false
    ∗ dutyTok ER (dcell c (qS cc0_scratch2 3 inb_S4_S1_3)) 1 false
    ∗ dutyTok ER (dcell c (qS cc0_scratch2 3 inb_S4_S1_3)) 2 false
    ∗ dutyTok ER (dcell c (qS cc0_scratch2 3 inb_S4_S1_3)) 3 false
    ∗ dutyTok ER (dcell c (qS cc0_scratch2 3 inb_S4_S1_3)) 4 false
    ∗ dutyTok ER (dcell c (qS cc0_scratch2 3 inb_S4_S1_3)) 5 false
    ∗ dutyTok ER (dcell c (qS cc0_scratch2 3 inb_S4_S1_3)) 6 false
    ∗ dutyTok ER (dcell c (qS cc0_scratch4 0 inb_S4_S1_0)) 0 false
    ∗ dutyTok ER (dcell c (qS cc0_scratch4 0 inb_S4_S1_0)) 1 false
    ∗ dutyTok ER (dcell c (qS cc0_scratch4 0 inb_S4_S1_0)) 2 false
    ∗ dutyTok ER (dcell c (qS cc0_scratch4 0 inb_S4_S1_0)) 3 false
    ∗ dutyTok ER (dcell c (qS cc0_scratch4 0 inb_S4_S1_0)) 4 false
    ∗ dutyTok ER (dcell c (qS cc0_scratch4 0 inb_S4_S1_0)) 5 false
    ∗ dutyTok ER (dcell c (qS cc0_scratch4 0 inb_S4_S1_0)) 6 false
    ∗ dutyTok ER (dcell c (qS cc0_scratch4 0 inb_S4_S1_0)) 7 false
    ∗ dutyTok ER (dcell c (qS cc0_scratch4 1 inb_S4_S1_1)) 0 false
    ∗ dutyTok ER (dcell c (qS cc0_scratch4 1 inb_S4_S1_1)) 1 false
    ∗ dutyTok ER (dcell c (qS cc0_scratch4 1 inb_S4_S1_1)) 2 false
    ∗ dutyTok ER (dcell c (qS cc0_scratch4 1 inb_S4_S1_1)) 3 false
    ∗ dutyTok ER (dcell c (qS cc0_scratch4 1 inb_S4_S1_1)) 4 false
    ∗ dutyTok ER (dcell c (qS cc0_scratch4 1 inb_S4_S1_1)) 5 false
    ∗ dutyTok ER (dcell c (qS cc0_scratch4 1 inb_S4_S1_1)) 6 false
    ∗ dutyTok ER (dcell c (qS cc0_scratch4 1 inb_S4_S1_1)) 7 false
    ∗ dutyTok ER (dcell c (qS cc0_scratch4 2 inb_S4_S1_2)) 0 false
    ∗ dutyTok ER (dcell c (qS cc0_scratch4 2 inb_S4_S1_2)) 1 false
    ∗ dutyTok ER (dcell c (qS cc0_scratch4 2 inb_S4_S1_2)) 2 false
    ∗ dutyTok ER (dcell c (qS cc0_scratch4 2 inb_S4_S1_2)) 3 false
    ∗ dutyTok ER (dcell c (qS cc0_scratch4 2 inb_S4_S1_2)) 4 false
    ∗ dutyTok ER (dcell c (qS cc0_scratch4 2 inb_S4_S1_2)) 5 false
    ∗ dutyTok ER (dcell c (qS cc0_scratch4 2 inb_S4_S1_2)) 6 false
    ∗ dutyTok ER (dcell c (qS cc0_scratch4 3 inb_S4_S1_3)) 0 false
    ∗ dutyTok ER (dcell c (qS cc0_scratch4 3 inb_S4_S1_3)) 1 false
    ∗ dutyTok ER (dcell c (qS cc0_scratch4 3 inb_S4_S1_3)) 2 false
    ∗ dutyTok ER (dcell c (qS cc0_scratch4 3 inb_S4_S1_3)) 3 false
    ∗ dutyTok ER (dcell c (qS cc0_scratch4 3 inb_S4_S1_3)) 4 false
    ∗ dutyTok ER (dcell c (qS cc0_scratch4 3 inb_S4_S1_3)) 5 false
    ∗ dutyTok ER (dcell c (qS cc0_scratch4 3 inb_S4_S1_3)) 6 false
    ∗ dutyTok ER (dcell c (qS cc0_scratch6 0 inb_S4_S1_0)) 0 false
    ∗ dutyTok ER (dcell c (qS cc0_scratch6 0 inb_S4_S1_0)) 1 false
    ∗ dutyTok ER (dcell c (qS cc0_scratch6 0 inb_S4_S1_0)) 2 false
    ∗ dutyTok ER (dcell c (qS cc0_scratch6 0 inb_S4_S1_0)) 3 false
    ∗ dutyTok ER (dcell c (qS cc0_scratch6 0 inb_S4_S1_0)) 4 false
    ∗ dutyTok ER (dcell c (qS cc0_scratch6 0 inb_S4_S1_0)) 5 false
    ∗ dutyTok ER (dcell c (qS cc0_scratch6 0 inb_S4_S1_0)) 6 false
    ∗ dutyTok ER (dcell c (qS cc0_scratch6 0 inb_S4_S1_0)) 7 false
    ∗ dutyTok ER (dcell c (qS cc0_scratch6 1 inb_S4_S1_1)) 0 false
    ∗ dutyTok ER (dcell c (qS cc0_scratch6 1 inb_S4_S1_1)) 1 false
    ∗ dutyTok ER (dcell c (qS cc0_scratch6 1 inb_S4_S1_1)) 2 false
    ∗ dutyTok ER (dcell c (qS cc0_scratch6 1 inb_S4_S1_1)) 3 false
    ∗ dutyTok ER (dcell c (qS cc0_scratch6 1 inb_S4_S1_1)) 4 false
    ∗ dutyTok ER (dcell c (qS cc0_scratch6 1 inb_S4_S1_1)) 5 false
    ∗ dutyTok ER (dcell c (qS cc0_scratch6 1 inb_S4_S1_1)) 6 false
    ∗ dutyTok ER (dcell c (qS cc0_scratch6 1 inb_S4_S1_1)) 7 false
    ∗ dutyTok ER (dcell c (qS cc0_scratch6 2 inb_S4_S1_2)) 0 false
    ∗ dutyTok ER (dcell c (qS cc0_scratch6 2 inb_S4_S1_2)) 1 false
    ∗ dutyTok ER (dcell c (qS cc0_scratch6 2 inb_S4_S1_2)) 2 false
    ∗ dutyTok ER (dcell c (qS cc0_scratch6 2 inb_S4_S1_2)) 3 false
    ∗ dutyTok ER (dcell c (qS cc0_scratch6 2 inb_S4_S1_2)) 4 false
    ∗ dutyTok ER (dcell c (qS cc0_scratch6 2 inb_S4_S1_2)) 5 false
    ∗ dutyTok ER (dcell c (qS cc0_scratch6 2 inb_S4_S1_2)) 6 false
    ∗ dutyTok ER (dcell c (qS cc0_scratch6 3 inb_S4_S1_3)) 0 false
    ∗ dutyTok ER (dcell c (qS cc0_scratch6 3 inb_S4_S1_3)) 1 false
    ∗ dutyTok ER (dcell c (qS cc0_scratch6 3 inb_S4_S1_3)) 2 false
    ∗ dutyTok ER (dcell c (qS cc0_scratch6 3 inb_S4_S1_3)) 3 false
    ∗ dutyTok ER (dcell c (qS cc0_scratch6 3 inb_S4_S1_3)) 4 false
    ∗ dutyTok ER (dcell c (qS cc0_scratch6 3 inb_S4_S1_3)) 5 false
    ∗ dutyTok ER (dcell c (qS cc0_scratch6 3 inb_S4_S1_3)) 6 false
    ∗ dutyTok ER (dcell c (qS cc0_scratch8 0 inb_S4_S1_0)) 0 false
    ∗ dutyTok ER (dcell c (qS cc0_scratch8 0 inb_S4_S1_0)) 1 false
    ∗ dutyTok ER (dcell c (qS cc0_scratch8 0 inb_S4_S1_0)) 2 false
    ∗ dutyTok ER (dcell c (qS cc0_scratch8 0 inb_S4_S1_0)) 3 false
    ∗ dutyTok ER (dcell c (qS cc0_scratch8 0 inb_S4_S1_0)) 4 false
    ∗ dutyTok ER (dcell c (qS cc0_scratch8 0 inb_S4_S1_0)) 5 false
    ∗ dutyTok ER (dcell c (qS cc0_scratch8 0 inb_S4_S1_0)) 6 false
    ∗ dutyTok ER (dcell c (qS cc0_scratch8 0 inb_S4_S1_0)) 7 false
    ∗ dutyTok ER (dcell c (qS cc0_scratch8 1 inb_S4_S1_1)) 0 false
    ∗ dutyTok ER (dcell c (qS cc0_scratch8 1 inb_S4_S1_1)) 1 false
    ∗ dutyTok ER (dcell c (qS cc0_scratch8 1 inb_S4_S1_1)) 2 false
    ∗ dutyTok ER (dcell c (qS cc0_scratch8 1 inb_S4_S1_1)) 3 false
    ∗ dutyTok ER (dcell c (qS cc0_scratch8 1 inb_S4_S1_1)) 4 false
    ∗ dutyTok ER (dcell c (qS cc0_scratch8 1 inb_S4_S1_1)) 5 false
    ∗ dutyTok ER (dcell c (qS cc0_scratch8 1 inb_S4_S1_1)) 6 false
    ∗ dutyTok ER (dcell c (qS cc0_scratch8 1 inb_S4_S1_1)) 7 false
    ∗ dutyTok ER (dcell c (qS cc0_scratch8 2 inb_S4_S1_2)) 0 false
    ∗ dutyTok ER (dcell c (qS cc0_scratch8 2 inb_S4_S1_2)) 1 false
    ∗ dutyTok ER (dcell c (qS cc0_scratch8 2 inb_S4_S1_2)) 2 false
    ∗ dutyTok ER (dcell c (qS cc0_scratch8 2 inb_S4_S1_2)) 3 false
    ∗ dutyTok ER (dcell c (qS cc0_scratch8 2 inb_S4_S1_2)) 4 false
    ∗ dutyTok ER (dcell c (qS cc0_scratch8 2 inb_S4_S1_2)) 5 false
    ∗ dutyTok ER (dcell c (qS cc0_scratch8 2 inb_S4_S1_2)) 6 false
    ∗ dutyTok ER (dcell c (qS cc0_scratch8 3 inb_S4_S1_3)) 0 false
    ∗ dutyTok ER (dcell c (qS cc0_scratch8 3 inb_S4_S1_3)) 1 false
    ∗ dutyTok ER (dcell c (qS cc0_scratch8 3 inb_S4_S1_3)) 2 false
    ∗ dutyTok ER (dcell c (qS cc0_scratch8 3 inb_S4_S1_3)) 3 false
    ∗ dutyTok ER (dcell c (qS cc0_scratch8 3 inb_S4_S1_3)) 4 false
    ∗ dutyTok ER (dcell c (qS cc0_scratch8 3 inb_S4_S1_3)) 5 false
    ∗ dutyTok ER (dcell c (qS cc0_scratch8 3 inb_S4_S1_3)) 6 false
    ∗ cred (tallyAt (barCell c) () 2)
    ∗ cred (tallyAt (dcell c (qR cc0_scratch3 0 0 inb_S15x2_S1x1_0_0)) () N)
    ∗ cred (tallyAt (dcell c (qR cc0_scratch3 0 1 inb_S15x2_S1x1_0_1)) () N)
    ∗ cred (tallyAt (dcell c (qR cc0_scratch3 1 0 inb_S15x2_S1x1_1_0)) () N)
    ∗ cred (tallyAt (dcell c (qR cc0_scratch3 1 1 inb_S15x2_S1x1_1_1)) () N)
    ∗ cred (tallyAt (dcell c (qR cc0_scratch3 2 0 inb_S15x2_S1x1_2_0)) () N)
    ∗ cred (tallyAt (dcell c (qR cc0_scratch3 2 1 inb_S15x2_S1x1_2_1)) () N)
    ∗ cred (tallyAt (dcell c (qR cc0_scratch3 3 0 inb_S15x2_S1x1_3_0)) () N)
    ∗ cred (tallyAt (dcell c (qR cc0_scratch3 3 1 inb_S15x2_S1x1_3_1)) () N)
    ∗ cred (tallyAt (dcell c (qR cc0_scratch3 4 0 inb_S15x2_S1x1_4_0)) () N)
    ∗ cred (tallyAt (dcell c (qR cc0_scratch3 4 1 inb_S15x2_S1x1_4_1)) () N)
    ∗ cred (tallyAt (dcell c (qR cc0_scratch3 5 0 inb_S15x2_S1x1_5_0)) () N)
    ∗ cred (tallyAt (dcell c (qR cc0_scratch3 5 1 inb_S15x2_S1x1_5_1)) () N)
    ∗ cred (tallyAt (dcell c (qR cc0_scratch3 6 0 inb_S15x2_S1x1_6_0)) () N)
    ∗ cred (tallyAt (dcell c (qR cc0_scratch3 6 1 inb_S15x2_S1x1_6_1)) () N)
    ∗ cred (tallyAt (dcell c (qR cc0_scratch3 7 0 inb_S15x2_S1x1_7_0)) () N)
    ∗ cred (tallyAt (dcell c (qR cc0_scratch3 7 1 inb_S15x2_S1x1_7_1)) () N)
    ∗ cred (tallyAt (dcell c (qR cc0_scratch3 8 0 inb_S15x2_S1x1_8_0)) () N)
    ∗ cred (tallyAt (dcell c (qR cc0_scratch3 8 1 inb_S15x2_S1x1_8_1)) () N)
    ∗ cred (tallyAt (dcell c (qR cc0_scratch3 9 0 inb_S15x2_S1x1_9_0)) () N)
    ∗ cred (tallyAt (dcell c (qR cc0_scratch3 9 1 inb_S15x2_S1x1_9_1)) () N)
    ∗ cred (tallyAt (dcell c (qR cc0_scratch3 10 0 inb_S15x2_S1x1_10_0)) () N)
    ∗ cred (tallyAt (dcell c (qR cc0_scratch3 10 1 inb_S15x2_S1x1_10_1)) () N)
    ∗ cred (tallyAt (dcell c (qR cc0_scratch3 11 0 inb_S15x2_S1x1_11_0)) () N)
    ∗ cred (tallyAt (dcell c (qR cc0_scratch3 11 1 inb_S15x2_S1x1_11_1)) () N)
    ∗ cred (tallyAt (dcell c (qR cc0_scratch3 12 0 inb_S15x2_S1x1_12_0)) () N)
    ∗ cred (tallyAt (dcell c (qR cc0_scratch3 12 1 inb_S15x2_S1x1_12_1)) () N)
    ∗ cred (tallyAt (dcell c (qR cc0_scratch3 13 0 inb_S15x2_S1x1_13_0)) () N)
    ∗ cred (tallyAt (dcell c (qR cc0_scratch3 13 1 inb_S15x2_S1x1_13_1)) () N)
    ∗ cred (tallyAt (dcell c (qR cc0_scratch3 14 0 inb_S15x2_S1x1_14_0)) () N)
    ∗ cred (tallyAt (dcell c (qR cc0_scratch3 14 1 inb_S15x2_S1x1_14_1)) () N)
    ∗ cred (tallyAt (dcell c (qR cc0_scratch7 0 0 inb_S15x2_S1x1_0_0)) () N)
    ∗ cred (tallyAt (dcell c (qR cc0_scratch7 0 1 inb_S15x2_S1x1_0_1)) () N)
    ∗ cred (tallyAt (dcell c (qR cc0_scratch7 1 0 inb_S15x2_S1x1_1_0)) () N)
    ∗ cred (tallyAt (dcell c (qR cc0_scratch7 1 1 inb_S15x2_S1x1_1_1)) () N)
    ∗ cred (tallyAt (dcell c (qR cc0_scratch7 2 0 inb_S15x2_S1x1_2_0)) () N)
    ∗ cred (tallyAt (dcell c (qR cc0_scratch7 2 1 inb_S15x2_S1x1_2_1)) () N)
    ∗ cred (tallyAt (dcell c (qR cc0_scratch7 3 0 inb_S15x2_S1x1_3_0)) () N)
    ∗ cred (tallyAt (dcell c (qR cc0_scratch7 3 1 inb_S15x2_S1x1_3_1)) () N)
    ∗ cred (tallyAt (dcell c (qR cc0_scratch7 4 0 inb_S15x2_S1x1_4_0)) () N)
    ∗ cred (tallyAt (dcell c (qR cc0_scratch7 4 1 inb_S15x2_S1x1_4_1)) () N)
    ∗ cred (tallyAt (dcell c (qR cc0_scratch7 5 0 inb_S15x2_S1x1_5_0)) () N)
    ∗ cred (tallyAt (dcell c (qR cc0_scratch7 5 1 inb_S15x2_S1x1_5_1)) () N)
    ∗ cred (tallyAt (dcell c (qR cc0_scratch7 6 0 inb_S15x2_S1x1_6_0)) () N)
    ∗ cred (tallyAt (dcell c (qR cc0_scratch7 6 1 inb_S15x2_S1x1_6_1)) () N)
    ∗ cred (tallyAt (dcell c (qR cc0_scratch7 7 0 inb_S15x2_S1x1_7_0)) () N)
    ∗ cred (tallyAt (dcell c (qR cc0_scratch7 7 1 inb_S15x2_S1x1_7_1)) () N)
    ∗ cred (tallyAt (dcell c (qR cc0_scratch7 8 0 inb_S15x2_S1x1_8_0)) () N)
    ∗ cred (tallyAt (dcell c (qR cc0_scratch7 8 1 inb_S15x2_S1x1_8_1)) () N)
    ∗ cred (tallyAt (dcell c (qR cc0_scratch7 9 0 inb_S15x2_S1x1_9_0)) () N)
    ∗ cred (tallyAt (dcell c (qR cc0_scratch7 9 1 inb_S15x2_S1x1_9_1)) () N)
    ∗ cred (tallyAt (dcell c (qR cc0_scratch7 10 0 inb_S15x2_S1x1_10_0)) () N)
    ∗ cred (tallyAt (dcell c (qR cc0_scratch7 10 1 inb_S15x2_S1x1_10_1)) () N)
    ∗ cred (tallyAt (dcell c (qR cc0_scratch7 11 0 inb_S15x2_S1x1_11_0)) () N)
    ∗ cred (tallyAt (dcell c (qR cc0_scratch7 11 1 inb_S15x2_S1x1_11_1)) () N)
    ∗ cred (tallyAt (dcell c (qR cc0_scratch7 12 0 inb_S15x2_S1x1_12_0)) () N)
    ∗ cred (tallyAt (dcell c (qR cc0_scratch7 12 1 inb_S15x2_S1x1_12_1)) () N)
    ∗ cred (tallyAt (dcell c (qR cc0_scratch7 13 0 inb_S15x2_S1x1_13_0)) () N)
    ∗ cred (tallyAt (dcell c (qR cc0_scratch7 13 1 inb_S15x2_S1x1_13_1)) () N)
    ∗ cred (tallyAt (dcell c (qR cc0_scratch7 14 0 inb_S15x2_S1x1_14_0)) () N)
    ∗ cred (tallyAt (dcell c (qR cc0_scratch7 14 1 inb_S15x2_S1x1_14_1)) () N)
    ∗ cred (tallyAt (dcell c (qR cc0_scratch5 0 0 inb_S15x2_S1x1_0_0)) () N)
    ∗ cred (tallyAt (dcell c (qR cc0_scratch5 0 1 inb_S15x2_S1x1_0_1)) () N)
    ∗ cred (tallyAt (dcell c (qR cc0_scratch5 1 0 inb_S15x2_S1x1_1_0)) () N)
    ∗ cred (tallyAt (dcell c (qR cc0_scratch5 1 1 inb_S15x2_S1x1_1_1)) () N)
    ∗ cred (tallyAt (dcell c (qR cc0_scratch5 2 0 inb_S15x2_S1x1_2_0)) () N)
    ∗ cred (tallyAt (dcell c (qR cc0_scratch5 2 1 inb_S15x2_S1x1_2_1)) () N)
    ∗ cred (tallyAt (dcell c (qR cc0_scratch5 3 0 inb_S15x2_S1x1_3_0)) () N)
    ∗ cred (tallyAt (dcell c (qR cc0_scratch5 3 1 inb_S15x2_S1x1_3_1)) () N)
    ∗ cred (tallyAt (dcell c (qR cc0_scratch5 4 0 inb_S15x2_S1x1_4_0)) () N)
    ∗ cred (tallyAt (dcell c (qR cc0_scratch5 4 1 inb_S15x2_S1x1_4_1)) () N)
    ∗ cred (tallyAt (dcell c (qR cc0_scratch5 5 0 inb_S15x2_S1x1_5_0)) () N)
    ∗ cred (tallyAt (dcell c (qR cc0_scratch5 5 1 inb_S15x2_S1x1_5_1)) () N)
    ∗ cred (tallyAt (dcell c (qR cc0_scratch5 6 0 inb_S15x2_S1x1_6_0)) () N)
    ∗ cred (tallyAt (dcell c (qR cc0_scratch5 6 1 inb_S15x2_S1x1_6_1)) () N)
    ∗ cred (tallyAt (dcell c (qR cc0_scratch5 7 0 inb_S15x2_S1x1_7_0)) () N)
    ∗ cred (tallyAt (dcell c (qR cc0_scratch5 7 1 inb_S15x2_S1x1_7_1)) () N)
    ∗ cred (tallyAt (dcell c (qR cc0_scratch5 8 0 inb_S15x2_S1x1_8_0)) () N)
    ∗ cred (tallyAt (dcell c (qR cc0_scratch5 8 1 inb_S15x2_S1x1_8_1)) () N)
    ∗ cred (tallyAt (dcell c (qR cc0_scratch5 9 0 inb_S15x2_S1x1_9_0)) () N)
    ∗ cred (tallyAt (dcell c (qR cc0_scratch5 9 1 inb_S15x2_S1x1_9_1)) () N)
    ∗ cred (tallyAt (dcell c (qR cc0_scratch5 10 0 inb_S15x2_S1x1_10_0)) () N)
    ∗ cred (tallyAt (dcell c (qR cc0_scratch5 10 1 inb_S15x2_S1x1_10_1)) () N)
    ∗ cred (tallyAt (dcell c (qR cc0_scratch5 11 0 inb_S15x2_S1x1_11_0)) () N)
    ∗ cred (tallyAt (dcell c (qR cc0_scratch5 11 1 inb_S15x2_S1x1_11_1)) () N)
    ∗ cred (tallyAt (dcell c (qR cc0_scratch5 12 0 inb_S15x2_S1x1_12_0)) () N)
    ∗ cred (tallyAt (dcell c (qR cc0_scratch5 12 1 inb_S15x2_S1x1_12_1)) () N)
    ∗ cred (tallyAt (dcell c (qR cc0_scratch5 13 0 inb_S15x2_S1x1_13_0)) () N)
    ∗ cred (tallyAt (dcell c (qR cc0_scratch5 13 1 inb_S15x2_S1x1_13_1)) () N)
    ∗ cred (tallyAt (dcell c (qR cc0_scratch5 14 0 inb_S15x2_S1x1_14_0)) () N)
    ∗ cred (tallyAt (dcell c (qR cc0_scratch5 14 1 inb_S15x2_S1x1_14_1)) () N)
    ∗ cred (tallyAt (dcell c (qR cc0_scratch9 0 0 inb_S15x2_S1x1_0_0)) () N)
    ∗ cred (tallyAt (dcell c (qR cc0_scratch9 0 1 inb_S15x2_S1x1_0_1)) () N)
    ∗ cred (tallyAt (dcell c (qR cc0_scratch9 1 0 inb_S15x2_S1x1_1_0)) () N)
    ∗ cred (tallyAt (dcell c (qR cc0_scratch9 1 1 inb_S15x2_S1x1_1_1)) () N)
    ∗ cred (tallyAt (dcell c (qR cc0_scratch9 2 0 inb_S15x2_S1x1_2_0)) () N)
    ∗ cred (tallyAt (dcell c (qR cc0_scratch9 2 1 inb_S15x2_S1x1_2_1)) () N)
    ∗ cred (tallyAt (dcell c (qR cc0_scratch9 3 0 inb_S15x2_S1x1_3_0)) () N)
    ∗ cred (tallyAt (dcell c (qR cc0_scratch9 3 1 inb_S15x2_S1x1_3_1)) () N)
    ∗ cred (tallyAt (dcell c (qR cc0_scratch9 4 0 inb_S15x2_S1x1_4_0)) () N)
    ∗ cred (tallyAt (dcell c (qR cc0_scratch9 4 1 inb_S15x2_S1x1_4_1)) () N)
    ∗ cred (tallyAt (dcell c (qR cc0_scratch9 5 0 inb_S15x2_S1x1_5_0)) () N)
    ∗ cred (tallyAt (dcell c (qR cc0_scratch9 5 1 inb_S15x2_S1x1_5_1)) () N)
    ∗ cred (tallyAt (dcell c (qR cc0_scratch9 6 0 inb_S15x2_S1x1_6_0)) () N)
    ∗ cred (tallyAt (dcell c (qR cc0_scratch9 6 1 inb_S15x2_S1x1_6_1)) () N)
    ∗ cred (tallyAt (dcell c (qR cc0_scratch9 7 0 inb_S15x2_S1x1_7_0)) () N)
    ∗ cred (tallyAt (dcell c (qR cc0_scratch9 7 1 inb_S15x2_S1x1_7_1)) () N)
    ∗ cred (tallyAt (dcell c (qR cc0_scratch9 8 0 inb_S15x2_S1x1_8_0)) () N)
    ∗ cred (tallyAt (dcell c (qR cc0_scratch9 8 1 inb_S15x2_S1x1_8_1)) () N)
    ∗ cred (tallyAt (dcell c (qR cc0_scratch9 9 0 inb_S15x2_S1x1_9_0)) () N)
    ∗ cred (tallyAt (dcell c (qR cc0_scratch9 9 1 inb_S15x2_S1x1_9_1)) () N)
    ∗ cred (tallyAt (dcell c (qR cc0_scratch9 10 0 inb_S15x2_S1x1_10_0)) () N)
    ∗ cred (tallyAt (dcell c (qR cc0_scratch9 10 1 inb_S15x2_S1x1_10_1)) () N)
    ∗ cred (tallyAt (dcell c (qR cc0_scratch9 11 0 inb_S15x2_S1x1_11_0)) () N)
    ∗ cred (tallyAt (dcell c (qR cc0_scratch9 11 1 inb_S15x2_S1x1_11_1)) () N)
    ∗ cred (tallyAt (dcell c (qR cc0_scratch9 12 0 inb_S15x2_S1x1_12_0)) () N)
    ∗ cred (tallyAt (dcell c (qR cc0_scratch9 12 1 inb_S15x2_S1x1_12_1)) () N)
    ∗ cred (tallyAt (dcell c (qR cc0_scratch9 13 0 inb_S15x2_S1x1_13_0)) () N)
    ∗ cred (tallyAt (dcell c (qR cc0_scratch9 13 1 inb_S15x2_S1x1_13_1)) () N)
    ∗ cred (tallyAt (dcell c (qR cc0_scratch9 14 0 inb_S15x2_S1x1_14_0)) () N)
    ∗ cred (tallyAt (dcell c (qR cc0_scratch9 14 1 inb_S15x2_S1x1_14_1)) () N)
    ∗ levAts L lv
    ∗ allSlots true c
    ∗ allSlots false c
    ∗ owes (c : Thread nD τ) (rem c 2 + tallyAt (barCell (nxt c)) () 1 + tallyAt (barCell (prv c)) () 1) W
    ∗ (xM.view.loc (c : Thread nD τ) ↦[xM.view.set]{fullShare.left} X c)
    ∗ ((rows xM (off true (c.val + 15) 0) (off_inb true _ 0)).view.loc (c : Thread nD τ) ↦[(rows xM (off true (c.val + 15) 0) (off_inb true _ 0)).view.set]{fullShare.right} X c)
    ∗ ((rows xM (off true (c.val + 15) 1) (off_inb true _ 1)).view.loc (c : Thread nD τ) ↦[(rows xM (off true (c.val + 15) 1) (off_inb true _ 1)).view.set]{fullShare.right} X c)
    ∗ ((rows xM (off false (c.val + 1) 0) (off_inb false _ 0)).view.loc (c : Thread nD τ) ↦[(rows xM (off false (c.val + 1) 0) (off_inb false _ 0)).view.set]{fullShare.right} X c)
    ∗ ((rows xM (off false (c.val + 1) 1) (off_inb false _ 1)).view.loc (c : Thread nD τ) ↦[(rows xM (off false (c.val + 1) 1) (off_inb false _ 1)).view.set]{fullShare.right} X c)
    ∗ (xM.view.loc (c : Thread nD τ) ↦[xM.view.set \ xWins c]{fullShare.right} X c)
    ∗ allRows true c
    ∗ allRows false c
    ∗ (∃ f, own128 true c f)
    ∗ (∃ f, own128 false c f))

/-- the same with each list's conjuncts as a chain over the list -/
def bodyPreC (K : GSem nD τ sig → ℕ) (W : Waits sig Unit) (c : Dev nD) : sProp 𝕄 :=
  iprop(cellInv ER (Rd X) (K (barCell c)) (barCell c)
    ∗ cellInv ER (Rd X) (K (barCell (nxt c))) (barCell (nxt c))
    ∗ cellInv ER (Rd X) (K (barCell (prv c))) (barCell (prv c))
    ∗ bigSepL ownQs (fun q => cellInv ER (Rd X) (K (dcell c q)) (dcell c q))
    ∗ bigSepL recvCw (fun q => cellInv ER (Rd X) (K (dcell (nxt c) q)) (dcell (nxt c) q))
    ∗ bigSepL recvCcw (fun q => cellInv ER (Rd X) (K (dcell (prv c) q)) (dcell (prv c) q))
    ∗ atPos ER (barCell c) 0 ∅ 0
    ∗ chainL ownQs (fun q => atPos ER (dcell c q) 0 ∅ 0)
      iprop(reached ER (barCell (nxt c)) 0 ∗ reached ER (barCell (prv c)) 0
      ∗ chainL recvCw (fun q => reached ER (dcell (nxt c) q) 0)
       (chainL recvCcw (fun q => reached ER (dcell (prv c) q) 0)
       (chainL sendQs (fun q => reached ER (dcell c q) 0)
        iprop(dutyTok ER (barCell (prv c)) 0 false ∗ dutyTok ER (barCell (nxt c)) 0 true
        ∗ chainL recvCw (fun q => dutyTok ER (dcell (nxt c) q) 0 false)
         (chainL recvCcw (fun q => dutyTok ER (dcell (prv c) q) 0 false)
         (chainL sendToks (fun qr => dutyTok ER (dcell c qr.1) qr.2 false)
          iprop(cred (tallyAt (barCell c) () 2)
          ∗ chainL (recvCw ++ recvCcw) (fun q => cred (tallyAt (dcell c q) () N))
           iprop(levAts L lv
            ∗ allSlots true c
            ∗ allSlots false c
            ∗ owes (c : Thread nD τ) (rem c 2 + tallyAt (barCell (nxt c)) () 1 + tallyAt (barCell (prv c)) () 1) W
            ∗ (xM.view.loc (c : Thread nD τ) ↦[xM.view.set]{fullShare.left} X c)
            ∗ ((rows xM (off true (c.val + 15) 0) (off_inb true _ 0)).view.loc (c : Thread nD τ) ↦[(rows xM (off true (c.val + 15) 0) (off_inb true _ 0)).view.set]{fullShare.right} X c)
            ∗ ((rows xM (off true (c.val + 15) 1) (off_inb true _ 1)).view.loc (c : Thread nD τ) ↦[(rows xM (off true (c.val + 15) 1) (off_inb true _ 1)).view.set]{fullShare.right} X c)
            ∗ ((rows xM (off false (c.val + 1) 0) (off_inb false _ 0)).view.loc (c : Thread nD τ) ↦[(rows xM (off false (c.val + 1) 0) (off_inb false _ 0)).view.set]{fullShare.right} X c)
            ∗ ((rows xM (off false (c.val + 1) 1) (off_inb false _ 1)).view.loc (c : Thread nD τ) ↦[(rows xM (off false (c.val + 1) 1) (off_inb false _ 1)).view.set]{fullShare.right} X c)
            ∗ (xM.view.loc (c : Thread nD τ) ↦[xM.view.set \ xWins c]{fullShare.right} X c)
            ∗ allRows true c
            ∗ allRows false c
            ∗ (∃ f, own128 true c f)
            ∗ (∃ f, own128 false c f))))))))))

set_option maxRecDepth 200000 in
theorem bodyPre_eq (K : GSem nD τ sig → ℕ) (W : Waits sig Unit) (c : Dev nD) : bodyPre X K W c = bodyPreC X K W c := rfl

variable (m : (ℓ : Loc nD τ sig) → Buf (Elt F) ℓ) (ρ : Dev nD → PrngReg)

set_option maxRecDepth 200000 in
/-- The pipeline's invariant before the point, what the device owes there, and the two staged buffers whole — the input
    as fetched, the result at any contents — are what the body starts from, at some names and some set of waits. -/
theorem pre_open (c : Dev nD) :
    iprop((dats m ρ 0 c).Φ t0_0.castSucc ∗ (dats m ρ 0 c).owesAt () t0_0.castSucc
      ∗ (∃ d, owns (c : Thread nD τ) xM fullShare ((dats m ρ 0 c).before (0 : Fin 2) t0_0 d))
      ∗ (∃ d, owns (c : Thread nD τ) oM fullShare ((dats m ρ 0 c).before (1 : Fin 2) t0_0 d)))
      ⊢ iprop(∃ K W, bodyPre (xstg m) K W c) := by
  rw [show (dats m ρ 0 c).Φ t0_0.castSucc = Φ₀ (xstg m) c from rfl]
  unfold Φ₀ start ghost owns Dat.owesAt Pipeline.owesWithin
  iintro ⟨⟨⟨⟨%K, ⟨HI1, HI2, HI3, HL1, HL2, HL3⟩, ⟨HA0, HA⟩, ⟨HR1, HR2, HRn, HRp, HRs⟩, HT1, HT2, HTn, HTp, HTs⟩, HC0, HCq, Hlev⟩, Hsa, Hsb⟩,
    ⟨%W, %hW, HO⟩, ⟨%d0, %f0, %hf0, Hx⟩, ⟨%d1, %f1, %hf1, Ho⟩⟩
  have hx : f0 = xstg m c := by
    have h : f0 = (dats m ρ 0 c).before (0 : Fin 2) t0_0 d0 := hf0
    rw [h]; unfold Dat.before; rw [if_pos (fetch0_0 t0_0)]; rfl
  subst hx
  rw [show (dats m ρ 0 c).owed t0_0.castSucc = rem c 0 from rfl, rem_peel_0, rem_peel_1]
  ihave Hx' := (x_split c (xstg m c)).1 $$ Hx
  icases Hx' with ⟨HxL, Hx1, Hx2, Hx3, Hx4, Hxr⟩
  ihave Ho' := (out_split c f1) $$ Ho
  icases Ho' with ⟨Har1, Har2, Ho1, Ho2⟩
  iexists K
  iexists W
  rw [bodyPre_eq]
  unfold bodyPreC
  simp only [chainL_eq]
  isplitl [HI1]; · iexact HI1
  isplitl [HI2]; · iexact HI2
  isplitl [HI3]; · iexact HI3
  isplitl [HL1]; · iexact HL1
  isplitl [HL2]; · iexact HL2
  isplitl [HL3]; · iexact HL3
  isplitl [HA0]; · iexact HA0
  isplitl [HA]; · iexact HA
  isplitl [HR1]; · iexact HR1
  isplitl [HR2]; · iexact HR2
  isplitl [HRn]; · iexact HRn
  isplitl [HRp]; · iexact HRp
  isplitl [HRs]; · iexact HRs
  isplitl [HT1]; · iexact HT1
  isplitl [HT2]; · iexact HT2
  isplitl [HTn]; · iexact HTn
  isplitl [HTp]; · iexact HTp
  isplitl [HTs]; · iexact HTs
  isplitl [HC0]; · iexact HC0
  isplitl [HCq]; · iexact HCq
  isplitl [Hlev]; · iexact Hlev
  isplitl [Hsa]; · iexact Hsa
  isplitl [Hsb]; · iexact Hsb
  isplitl [HO]; · iexact HO
  isplitl [HxL]; · iexact HxL
  isplitl [Hx1]; · iexact Hx1
  isplitl [Hx2]; · iexact Hx2
  isplitl [Hx3]; · iexact Hx3
  isplitl [Hx4]; · iexact Hx4
  isplitl [Hxr]; · iexact Hxr
  isplitl [Har1]; · iexact Har1
  isplitl [Har2]; · iexact Har2
  isplitl [Ho1]; · iexact Ho1
  iexact Ho2

end Cert.KernelIdeal.RSAG

end
-- ==== Proof.FinishLib.lean ====
import proofs.«901013_g7700000000001014_dist_rs_then_ag_i_m4096_n1024_v7x_i16_f32_1_alg».proof.Proof.BodyLib2

/-! The end of a device's body: what it holds when its last wait returns is what the pipeline wants back.

    The ring buffers' slots, each at the partial sum it last held, are the slots at some contents; the six pieces of the
    staged input are the staged input; the sixty-four windows of the staged result, each at its finished sub-block, are
    the staged result at the assembled value; every own semaphore, its owner past the last round that has a duty,
    closes with its counter at zero; and a device that has paid all it owed owes nothing. -/

set_option maxRecDepth 8192

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## Closing the own semaphores -/

/-- from its listed round on, no listed semaphore of device `c` has a duty -/
def AllLater (c : Dev nD) : List (DmaSem sig × ℕ) → Prop
  | [] => True
  | p :: l => (∀ r, p.2 ≤ r → (Rd (F := F) X).duties (dcell c p.1) r = ∅) ∧ AllLater c l

/-- The owner of listed cells, at a round from which none has a duty and having consumed nothing of it, closes them
    one after the other: every counter reads zero. -/
theorem close_list (c : Dev nD) (K : GSem nD τ sig → ℕ) (l : List (DmaSem sig × ℕ)) (hl : AllLater (F := F) X c l) :
    iprop(bigSepL l (fun p => cellInv ER (Rd (F := F) X) (K (dcell c p.1)) (dcell c p.1))
        ∗ bigSepL l (fun p => atPos ER (dcell c p.1) p.2 (∅ : Finset Bool) 0))
      ⊢ (iprop(|={Set.univ}=> bigSepL l (fun p => semVal (dcell c p.1) 0)) : sProp 𝕄) := by
  induction l with
  | nil =>
    show _ ⊢ (iprop(|={Set.univ}=> emp) : sProp 𝕄)
    iintro -
    imodintro
    iempintro
  | cons p l ih =>
    rw [bigSepL_cons, bigSepL_cons, bigSepL_cons]
    show iprop((cellInv ER (Rd (F := F) X) (K (dcell c p.1)) (dcell c p.1)
          ∗ bigSepL l (fun p => cellInv ER (Rd (F := F) X) (K (dcell c p.1)) (dcell c p.1)))
        ∗ (atPos ER (dcell c p.1) p.2 (∅ : Finset Bool) 0 ∗ bigSepL l (fun p => atPos ER (dcell c p.1) p.2 (∅ : Finset Bool) 0)))
      ⊢ (iprop(|={Set.univ}=> (semVal (dcell c p.1) 0 ∗ bigSepL l (fun p => semVal (dcell c p.1) 0))) : sProp 𝕄)
    iintro ⟨⟨HI, HIs⟩, ⟨Hat, Hats⟩⟩
    imod (Rounds.cell_close ER (Rd (F := F) X) (Set.mem_univ (K (dcell c p.1))) (fun h => h) (R := p.2) hl.1) $$ [HI Hat] with Hz
    · isplitl [HI]; · iexact HI
      iexact Hat
    imod (ih hl.2) $$ [HIs Hats] with Hzs
    · isplitl [HIs]; · iexact HIs
      iexact Hats
    imodintro
    isplitl [Hz]; · iexact Hz
    iexact Hzs

/-- the same with the invariants listed by semaphore, as the body's start deals them -/
theorem sems_close_gen (c : Dev nD) (K : GSem nD τ sig → ℕ) (l : List (DmaSem sig × ℕ)) (hq : ownQs = l.map Prod.fst)
    (hl : AllLater (F := F) X c l) :
    iprop(bigSepL ownQs (fun q => cellInv ER (Rd (F := F) X) (K (dcell c q)) (dcell c q))
        ∗ bigSepL l (fun p => atPos ER (dcell c p.1) p.2 (∅ : Finset Bool) 0))
      ⊢ (iprop(|={Set.univ}=> bigSepL ownQs (fun q => semVal (dcell c q) 0)) : sProp 𝕄) := by
  rw [hq, cut_bigSepL_map, cut_bigSepL_map]
  exact close_list X c K l hl

/-! ## The ring buffers' slots back -/

/-- what is owned at known contents is held at some contents -/
theorem owns_ex {sh : Shape} (c : Dev nD) (mm : Memref sig .tc .vmem sh .f32) (q : PosShare TreeShare) (V : sh.Idx → Elt F .f32) :
    (owns (Ix := Unit) (Name := ℕ) (U := UU) (Lvl := ℕ) (c : Thread nD τ) mm q V : sProp 𝕄)
      ⊢ iprop(∃ f, mm.view.loc (c : Thread nD τ) ↦[mm.view.set]{q} f) := by
  unfold owns
  iintro ⟨%f, -, H⟩
  iexists f
  iexact H

/-- the two halves of what is owned at one contents rejoin -/
theorem owns_halves_ex {sh : Shape} (c : Dev nD) (mm : Memref sig .tc .vmem sh .f32) (V : sh.Idx → Elt F .f32) :
    (iprop(owns (Ix := Unit) (Name := ℕ) (U := UU) (Lvl := ℕ) (c : Thread nD τ) mm fullShare.left V
        ∗ owns (Ix := Unit) (Name := ℕ) (U := UU) (Lvl := ℕ) (c : Thread nD τ) mm fullShare.right V) : sProp 𝕄)
      ⊢ iprop(∃ f, mm.view.loc (c : Thread nD τ) ↦[mm.view.set]{fullShare} f) := by
  unfold owns
  iintro ⟨⟨%f, %hf, HL⟩, ⟨%g, %hg, HR⟩⟩
  have e : (mm.view.loc (c : Thread nD τ) ↦[mm.view.set]{fullShare.right} g : sProp 𝕄)
      = mm.view.loc (c : Thread nD τ) ↦[mm.view.set]{fullShare.right} f :=
    pointsTo_congr fun i hi => by
      rw [View.set, Finset.mem_map] at hi
      obtain ⟨x, -, rfl⟩ := hi
      have := congrFun (hg.trans hf.symm) x
      simp only [View.read] at this
      exact (cast_inj _).mp this
  ihave HR' := (Entails.of_eq e) $$ HR
  iexists f
  iapply (pointsTo_share (PosShare.mem_left_op_right fullShare)).2
  isplitl [HL]; · iexact HL
  iexact HR'

/-- a slot of the ring buffer of direction `cw` on device `c` at the partial sum it last held: at the full share, or at
    one half of it -/
def slotAt (cw : Bool) (c : Dev nD) (i : Fin 15 × Fin 2 × Option Bool) : sProp 𝕄 :=
  owns (c : Thread nD τ) (slot (bufOf cw) i.1.val (64 * i.2.1.val) (slot_inb _ _ i.1.isLt i.2.1.isLt))
    (match i.2.2 with | none => fullShare | some true => fullShare.left | some false => fullShare.right)
    (addV X cw i.2.1 i.1.val c)

/-- the slots as the body's end holds them: fourteen steps' slots whole, the last step's in two halves -/
def backList : List (Fin 15 × Fin 2 × Option Bool) :=
  (sbList.take 28).map (fun sb => (sb.1, sb.2, none))
    ++ [(14, 0, some true), (14, 0, some false), (14, 1, some true), (14, 1, some false)]

/-- The slots a device holds at its body's end are its ring buffer's thirty slots at some contents. -/
theorem slots_back_gen (cw : Bool) (c : Dev nD) : bigSepL backList (slotAt (F := F) X cw c) ⊢ allSlots (F := F) cw c := by
  rw [allSlots_eq]
  show _ ⊢ bigSepL (sbList.take 28 ++ [(14, 0), (14, 1)]) _
  unfold backList
  rw [cut_bigSepL_append, cut_bigSepL_append, cut_bigSepL_map]
  refine BI.sep_mono ?_ ?_
  · exact bigSepL_mono _ _ _ fun sb _ => owns_ex c _ _ _
  · rw [bigSepL_cons_cons, bigSepL_cons_cons, bigSepL_cons_cons, bigSepL_singleton, bigSepL_cons_cons, bigSepL_singleton,
      ← sep_assoc_eq']
    exact BI.sep_mono (owns_halves_ex c _ _) (owns_halves_ex c _ _)

/-! ## The staged input back, and nothing left to pay -/

/-- The six pieces of the staged input, at its contents, are the staged input. -/
theorem x_back (c : Dev nD) (Xc : S4096x1024.Idx → Elt F .f32) :
    (iprop(
      (xM.view.loc (c : Thread nD τ) ↦[xM.view.set]{fullShare.left} Xc)
      ∗ ((rows xM (off true (c.val + 15) 0) (off_inb true _ 0)).view.loc (c : Thread nD τ)
          ↦[(rows xM (off true (c.val + 15) 0) (off_inb true _ 0)).view.set]{fullShare.right} Xc)
      ∗ ((rows xM (off true (c.val + 15) 1) (off_inb true _ 1)).view.loc (c : Thread nD τ)
          ↦[(rows xM (off true (c.val + 15) 1) (off_inb true _ 1)).view.set]{fullShare.right} Xc)
      ∗ ((rows xM (off false (c.val + 1) 0) (off_inb false _ 0)).view.loc (c : Thread nD τ)
          ↦[(rows xM (off false (c.val + 1) 0) (off_inb false _ 0)).view.set]{fullShare.right} Xc)
      ∗ ((rows xM (off false (c.val + 1) 1) (off_inb false _ 1)).view.loc (c : Thread nD τ)
          ↦[(rows xM (off false (c.val + 1) 1) (off_inb false _ 1)).view.set]{fullShare.right} Xc)
      ∗ (xM.view.loc (c : Thread nD τ) ↦[xM.view.set \ xWins c]{fullShare.right} Xc)) : sProp 𝕄)
      ⊢ owns (c : Thread nD τ) xM fullShare Xc :=
  (x_split c Xc).2.trans (owns_intro (c : Thread nD τ) xM fullShare Xc)

/-- the device the shift zero names is the device itself -/
theorem devAt_zero (c : Dev nD) : devAt c 0 = c := by
  have hc : c.val < 16 := c.isLt
  exact Fin.ext (show (c.val + 0) % 16 = c.val by omega)

/-- once all 122 payments are made nothing is left -/
theorem fin_rem_done (c : Dev nD) : rem c 122 = 0 := rfl

variable (m : (ℓ : Loc nD τ sig) → Buf (Elt F) ℓ) (ρ : Dev nD → PrngReg)

/-- A device that has paid all it owed holds what the pipeline wants of it after the point. -/
theorem owes_done (c : Dev nD) (W : Waits sig Unit) :
    (owes (c : Thread nD τ) (rem c 122) W : sProp 𝕄) ⊢ (dats (F := F) m ρ 0 c).owesAt () t0_0.succ := by
  unfold Dat.owesAt Pipeline.owesWithin
  rw [show (dats (F := F) m ρ 0 c).owed t0_0.succ = 0 from rfl]
  iintro H
  iexists W
  isplitr; · ipureintro; exact fun _ _ => Or.inl trivial
  iapply (owes_congr (fin_rem_done c))
  iexact H

end Cert.KernelIdeal.RSAG

end
-- ==== Proof.Finish.lean ====
import proofs.«901013_g7700000000001014_dist_rs_then_ag_i_m4096_n1024_v7x_i16_f32_1_alg».proof.Proof.FinishLib

/-! What a device holds at its body's end, written out conjunct by conjunct.

    Its 136 own semaphores in the order they are listed, each with the round from which it has no duty; the slots of
    its two ring buffers, the last step's in two halves; the sixty-four windows of its staged result. -/

set_option maxRecDepth 16384

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-- a device's own semaphores in their listed order, each with the round from which it has no duty -/
def ownQR : List (DmaSem sig × ℕ) :=
  [((qS cc0_scratch2 0 inb_S4_S1_0), 8),
   ((qS cc0_scratch2 1 inb_S4_S1_1), 8),
   ((qS cc0_scratch2 2 inb_S4_S1_2), 7),
   ((qS cc0_scratch2 3 inb_S4_S1_3), 7),
   ((qS cc0_scratch4 0 inb_S4_S1_0), 8),
   ((qS cc0_scratch4 1 inb_S4_S1_1), 8),
   ((qS cc0_scratch4 2 inb_S4_S1_2), 7),
   ((qS cc0_scratch4 3 inb_S4_S1_3), 7),
   ((qS cc0_scratch6 0 inb_S4_S1_0), 8),
   ((qS cc0_scratch6 1 inb_S4_S1_1), 8),
   ((qS cc0_scratch6 2 inb_S4_S1_2), 7),
   ((qS cc0_scratch6 3 inb_S4_S1_3), 7),
   ((qS cc0_scratch8 0 inb_S4_S1_0), 8),
   ((qS cc0_scratch8 1 inb_S4_S1_1), 8),
   ((qS cc0_scratch8 2 inb_S4_S1_2), 7),
   ((qS cc0_scratch8 3 inb_S4_S1_3), 7),
   ((qR cc0_scratch3 0 0 inb_S15x2_S1x1_0_0), 1),
   ((qR cc0_scratch3 0 1 inb_S15x2_S1x1_0_1), 1),
   ((qR cc0_scratch3 1 0 inb_S15x2_S1x1_1_0), 1),
   ((qR cc0_scratch3 1 1 inb_S15x2_S1x1_1_1), 1),
   ((qR cc0_scratch3 2 0 inb_S15x2_S1x1_2_0), 1),
   ((qR cc0_scratch3 2 1 inb_S15x2_S1x1_2_1), 1),
   ((qR cc0_scratch3 3 0 inb_S15x2_S1x1_3_0), 1),
   ((qR cc0_scratch3 3 1 inb_S15x2_S1x1_3_1), 1),
   ((qR cc0_scratch3 4 0 inb_S15x2_S1x1_4_0), 1),
   ((qR cc0_scratch3 4 1 inb_S15x2_S1x1_4_1), 1),
   ((qR cc0_scratch3 5 0 inb_S15x2_S1x1_5_0), 1),
   ((qR cc0_scratch3 5 1 inb_S15x2_S1x1_5_1), 1),
   ((qR cc0_scratch3 6 0 inb_S15x2_S1x1_6_0), 1),
   ((qR cc0_scratch3 6 1 inb_S15x2_S1x1_6_1), 1),
   ((qR cc0_scratch3 7 0 inb_S15x2_S1x1_7_0), 1),
   ((qR cc0_scratch3 7 1 inb_S15x2_S1x1_7_1), 1),
   ((qR cc0_scratch3 8 0 inb_S15x2_S1x1_8_0), 1),
   ((qR cc0_scratch3 8 1 inb_S15x2_S1x1_8_1), 1),
   ((qR cc0_scratch3 9 0 inb_S15x2_S1x1_9_0), 1),
   ((qR cc0_scratch3 9 1 inb_S15x2_S1x1_9_1), 1),
   ((qR cc0_scratch3 10 0 inb_S15x2_S1x1_10_0), 1),
   ((qR cc0_scratch3 10 1 inb_S15x2_S1x1_10_1), 1),
   ((qR cc0_scratch3 11 0 inb_S15x2_S1x1_11_0), 1),
   ((qR cc0_scratch3 11 1 inb_S15x2_S1x1_11_1), 1),
   ((qR cc0_scratch3 12 0 inb_S15x2_S1x1_12_0), 1),
   ((qR cc0_scratch3 12 1 inb_S15x2_S1x1_12_1), 1),
   ((qR cc0_scratch3 13 0 inb_S15x2_S1x1_13_0), 1),
   ((qR cc0_scratch3 13 1 inb_S15x2_S1x1_13_1), 1),
   ((qR cc0_scratch3 14 0 inb_S15x2_S1x1_14_0), 1),
   ((qR cc0_scratch3 14 1 inb_S15x2_S1x1_14_1), 1),
   ((qR cc0_scratch7 0 0 inb_S15x2_S1x1_0_0), 1),
   ((qR cc0_scratch7 0 1 inb_S15x2_S1x1_0_1), 1),
   ((qR cc0_scratch7 1 0 inb_S15x2_S1x1_1_0), 1),
   ((qR cc0_scratch7 1 1 inb_S15x2_S1x1_1_1), 1),
   ((qR cc0_scratch7 2 0 inb_S15x2_S1x1_2_0), 1),
   ((qR cc0_scratch7 2 1 inb_S15x2_S1x1_2_1), 1),
   ((qR cc0_scratch7 3 0 inb_S15x2_S1x1_3_0), 1),
   ((qR cc0_scratch7 3 1 inb_S15x2_S1x1_3_1), 1),
   ((qR cc0_scratch7 4 0 inb_S15x2_S1x1_4_0), 1),
   ((qR cc0_scratch7 4 1 inb_S15x2_S1x1_4_1), 1),
   ((qR cc0_scratch7 5 0 inb_S15x2_S1x1_5_0), 1),
   ((qR cc0_scratch7 5 1 inb_S15x2_S1x1_5_1), 1),
   ((qR cc0_scratch7 6 0 inb_S15x2_S1x1_6_0), 1),
   ((qR cc0_scratch7 6 1 inb_S15x2_S1x1_6_1), 1),
   ((qR cc0_scratch7 7 0 inb_S15x2_S1x1_7_0), 1),
   ((qR cc0_scratch7 7 1 inb_S15x2_S1x1_7_1), 1),
   ((qR cc0_scratch7 8 0 inb_S15x2_S1x1_8_0), 1),
   ((qR cc0_scratch7 8 1 inb_S15x2_S1x1_8_1), 1),
   ((qR cc0_scratch7 9 0 inb_S15x2_S1x1_9_0), 1),
   ((qR cc0_scratch7 9 1 inb_S15x2_S1x1_9_1), 1),
   ((qR cc0_scratch7 10 0 inb_S15x2_S1x1_10_0), 1),
   ((qR cc0_scratch7 10 1 inb_S15x2_S1x1_10_1), 1),
   ((qR cc0_scratch7 11 0 inb_S15x2_S1x1_11_0), 1),
   ((qR cc0_scratch7 11 1 inb_S15x2_S1x1_11_1), 1),
   ((qR cc0_scratch7 12 0 inb_S15x2_S1x1_12_0), 1),
   ((qR cc0_scratch7 12 1 inb_S15x2_S1x1_12_1), 1),
   ((qR cc0_scratch7 13 0 inb_S15x2_S1x1_13_0), 1),
   ((qR cc0_scratch7 13 1 inb_S15x2_S1x1_13_1), 1),
   ((qR cc0_scratch7 14 0 inb_S15x2_S1x1_14_0), 1),
   ((qR cc0_scratch7 14 1 inb_S15x2_S1x1_14_1), 1),
   ((qR cc0_scratch5 0 0 inb_S15x2_S1x1_0_0), 1),
   ((qR cc0_scratch5 0 1 inb_S15x2_S1x1_0_1), 1),
   ((qR cc0_scratch5 1 0 inb_S15x2_S1x1_1_0), 1),
   ((qR cc0_scratch5 1 1 inb_S15x2_S1x1_1_1), 1),
   ((qR cc0_scratch5 2 0 inb_S15x2_S1x1_2_0), 1),
   ((qR cc0_scratch5 2 1 inb_S15x2_S1x1_2_1), 1),
   ((qR cc0_scratch5 3 0 inb_S15x2_S1x1_3_0), 1),
   ((qR cc0_scratch5 3 1 inb_S15x2_S1x1_3_1), 1),
   ((qR cc0_scratch5 4 0 inb_S15x2_S1x1_4_0), 1),
   ((qR cc0_scratch5 4 1 inb_S15x2_S1x1_4_1), 1),
   ((qR cc0_scratch5 5 0 inb_S15x2_S1x1_5_0), 1),
   ((qR cc0_scratch5 5 1 inb_S15x2_S1x1_5_1), 1),
   ((qR cc0_scratch5 6 0 inb_S15x2_S1x1_6_0), 1),
   ((qR cc0_scratch5 6 1 inb_S15x2_S1x1_6_1), 1),
   ((qR cc0_scratch5 7 0 inb_S15x2_S1x1_7_0), 1),
   ((qR cc0_scratch5 7 1 inb_S15x2_S1x1_7_1), 1),
   ((qR cc0_scratch5 8 0 inb_S15x2_S1x1_8_0), 1),
   ((qR cc0_scratch5 8 1 inb_S15x2_S1x1_8_1), 1),
   ((qR cc0_scratch5 9 0 inb_S15x2_S1x1_9_0), 1),
   ((qR cc0_scratch5 9 1 inb_S15x2_S1x1_9_1), 1),
   ((qR cc0_scratch5 10 0 inb_S15x2_S1x1_10_0), 1),
   ((qR cc0_scratch5 10 1 inb_S15x2_S1x1_10_1), 1),
   ((qR cc0_scratch5 11 0 inb_S15x2_S1x1_11_0), 1),
   ((qR cc0_scratch5 11 1 inb_S15x2_S1x1_11_1), 1),
   ((qR cc0_scratch5 12 0 inb_S15x2_S1x1_12_0), 1),
   ((qR cc0_scratch5 12 1 inb_S15x2_S1x1_12_1), 1),
   ((qR cc0_scratch5 13 0 inb_S15x2_S1x1_13_0), 1),
   ((qR cc0_scratch5 13 1 inb_S15x2_S1x1_13_1), 1),
   ((qR cc0_scratch5 14 0 inb_S15x2_S1x1_14_0), 1),
   ((qR cc0_scratch5 14 1 inb_S15x2_S1x1_14_1), 1),
   ((qR cc0_scratch9 0 0 inb_S15x2_S1x1_0_0), 1),
   ((qR cc0_scratch9 0 1 inb_S15x2_S1x1_0_1), 1),
   ((qR cc0_scratch9 1 0 inb_S15x2_S1x1_1_0), 1),
   ((qR cc0_scratch9 1 1 inb_S15x2_S1x1_1_1), 1),
   ((qR cc0_scratch9 2 0 inb_S15x2_S1x1_2_0), 1),
   ((qR cc0_scratch9 2 1 inb_S15x2_S1x1_2_1), 1),
   ((qR cc0_scratch9 3 0 inb_S15x2_S1x1_3_0), 1),
   ((qR cc0_scratch9 3 1 inb_S15x2_S1x1_3_1), 1),
   ((qR cc0_scratch9 4 0 inb_S15x2_S1x1_4_0), 1),
   ((qR cc0_scratch9 4 1 inb_S15x2_S1x1_4_1), 1),
   ((qR cc0_scratch9 5 0 inb_S15x2_S1x1_5_0), 1),
   ((qR cc0_scratch9 5 1 inb_S15x2_S1x1_5_1), 1),
   ((qR cc0_scratch9 6 0 inb_S15x2_S1x1_6_0), 1),
   ((qR cc0_scratch9 6 1 inb_S15x2_S1x1_6_1), 1),
   ((qR cc0_scratch9 7 0 inb_S15x2_S1x1_7_0), 1),
   ((qR cc0_scratch9 7 1 inb_S15x2_S1x1_7_1), 1),
   ((qR cc0_scratch9 8 0 inb_S15x2_S1x1_8_0), 1),
   ((qR cc0_scratch9 8 1 inb_S15x2_S1x1_8_1), 1),
   ((qR cc0_scratch9 9 0 inb_S15x2_S1x1_9_0), 1),
   ((qR cc0_scratch9 9 1 inb_S15x2_S1x1_9_1), 1),
   ((qR cc0_scratch9 10 0 inb_S15x2_S1x1_10_0), 1),
   ((qR cc0_scratch9 10 1 inb_S15x2_S1x1_10_1), 1),
   ((qR cc0_scratch9 11 0 inb_S15x2_S1x1_11_0), 1),
   ((qR cc0_scratch9 11 1 inb_S15x2_S1x1_11_1), 1),
   ((qR cc0_scratch9 12 0 inb_S15x2_S1x1_12_0), 1),
   ((qR cc0_scratch9 12 1 inb_S15x2_S1x1_12_1), 1),
   ((qR cc0_scratch9 13 0 inb_S15x2_S1x1_13_0), 1),
   ((qR cc0_scratch9 13 1 inb_S15x2_S1x1_13_1), 1),
   ((qR cc0_scratch9 14 0 inb_S15x2_S1x1_14_0), 1),
   ((qR cc0_scratch9 14 1 inb_S15x2_S1x1_14_1), 1)]

/-- from those rounds on none of them has a duty: the table's lemmas, one per semaphore -/
theorem ownQR_later (c : Dev nD) : AllLater (F := F) X c ownQR :=
  ⟨later_rscw_s_0 X c,
   later_rscw_s_1 X c,
   later_rscw_s_2 X c,
   later_rscw_s_3 X c,
   later_rsccw_s_0 X c,
   later_rsccw_s_1 X c,
   later_rsccw_s_2 X c,
   later_rsccw_s_3 X c,
   later_agcw_s_0 X c,
   later_agcw_s_1 X c,
   later_agcw_s_2 X c,
   later_agcw_s_3 X c,
   later_agccw_s_0 X c,
   later_agccw_s_1 X c,
   later_agccw_s_2 X c,
   later_agccw_s_3 X c,
   later_rscw_r_0_0 X c,
   later_rscw_r_0_1 X c,
   later_rscw_r_1_0 X c,
   later_rscw_r_1_1 X c,
   later_rscw_r_2_0 X c,
   later_rscw_r_2_1 X c,
   later_rscw_r_3_0 X c,
   later_rscw_r_3_1 X c,
   later_rscw_r_4_0 X c,
   later_rscw_r_4_1 X c,
   later_rscw_r_5_0 X c,
   later_rscw_r_5_1 X c,
   later_rscw_r_6_0 X c,
   later_rscw_r_6_1 X c,
   later_rscw_r_7_0 X c,
   later_rscw_r_7_1 X c,
   later_rscw_r_8_0 X c,
   later_rscw_r_8_1 X c,
   later_rscw_r_9_0 X c,
   later_rscw_r_9_1 X c,
   later_rscw_r_10_0 X c,
   later_rscw_r_10_1 X c,
   later_rscw_r_11_0 X c,
   later_rscw_r_11_1 X c,
   later_rscw_r_12_0 X c,
   later_rscw_r_12_1 X c,
   later_rscw_r_13_0 X c,
   later_rscw_r_13_1 X c,
   later_rscw_r_14_0 X c,
   later_rscw_r_14_1 X c,
   later_agcw_r_0_0 X c,
   later_agcw_r_0_1 X c,
   later_agcw_r_1_0 X c,
   later_agcw_r_1_1 X c,
   later_agcw_r_2_0 X c,
   later_agcw_r_2_1 X c,
   later_agcw_r_3_0 X c,
   later_agcw_r_3_1 X c,
   later_agcw_r_4_0 X c,
   later_agcw_r_4_1 X c,
   later_agcw_r_5_0 X c,
   later_agcw_r_5_1 X c,
   later_agcw_r_6_0 X c,
   later_agcw_r_6_1 X c,
   later_agcw_r_7_0 X c,
   later_agcw_r_7_1 X c,
   later_agcw_r_8_0 X c,
   later_agcw_r_8_1 X c,
   later_agcw_r_9_0 X c,
   later_agcw_r_9_1 X c,
   later_agcw_r_10_0 X c,
   later_agcw_r_10_1 X c,
   later_agcw_r_11_0 X c,
   later_agcw_r_11_1 X c,
   later_agcw_r_12_0 X c,
   later_agcw_r_12_1 X c,
   later_agcw_r_13_0 X c,
   later_agcw_r_13_1 X c,
   later_agcw_r_14_0 X c,
   later_agcw_r_14_1 X c,
   later_rsccw_r_0_0 X c,
   later_rsccw_r_0_1 X c,
   later_rsccw_r_1_0 X c,
   later_rsccw_r_1_1 X c,
   later_rsccw_r_2_0 X c,
   later_rsccw_r_2_1 X c,
   later_rsccw_r_3_0 X c,
   later_rsccw_r_3_1 X c,
   later_rsccw_r_4_0 X c,
   later_rsccw_r_4_1 X c,
   later_rsccw_r_5_0 X c,
   later_rsccw_r_5_1 X c,
   later_rsccw_r_6_0 X c,
   later_rsccw_r_6_1 X c,
   later_rsccw_r_7_0 X c,
   later_rsccw_r_7_1 X c,
   later_rsccw_r_8_0 X c,
   later_rsccw_r_8_1 X c,
   later_rsccw_r_9_0 X c,
   later_rsccw_r_9_1 X c,
   later_rsccw_r_10_0 X c,
   later_rsccw_r_10_1 X c,
   later_rsccw_r_11_0 X c,
   later_rsccw_r_11_1 X c,
   later_rsccw_r_12_0 X c,
   later_rsccw_r_12_1 X c,
   later_rsccw_r_13_0 X c,
   later_rsccw_r_13_1 X c,
   later_rsccw_r_14_0 X c,
   later_rsccw_r_14_1 X c,
   later_agccw_r_0_0 X c,
   later_agccw_r_0_1 X c,
   later_agccw_r_1_0 X c,
   later_agccw_r_1_1 X c,
   later_agccw_r_2_0 X c,
   later_agccw_r_2_1 X c,
   later_agccw_r_3_0 X c,
   later_agccw_r_3_1 X c,
   later_agccw_r_4_0 X c,
   later_agccw_r_4_1 X c,
   later_agccw_r_5_0 X c,
   later_agccw_r_5_1 X c,
   later_agccw_r_6_0 X c,
   later_agccw_r_6_1 X c,
   later_agccw_r_7_0 X c,
   later_agccw_r_7_1 X c,
   later_agccw_r_8_0 X c,
   later_agccw_r_8_1 X c,
   later_agccw_r_9_0 X c,
   later_agccw_r_9_1 X c,
   later_agccw_r_10_0 X c,
   later_agccw_r_10_1 X c,
   later_agccw_r_11_0 X c,
   later_agccw_r_11_1 X c,
   later_agccw_r_12_0 X c,
   later_agccw_r_12_1 X c,
   later_agccw_r_13_0 X c,
   later_agccw_r_13_1 X c,
   later_agccw_r_14_0 X c,
   later_agccw_r_14_1 X c,
   trivial⟩

/-- The owner's positions on its 136 own semaphores, each past its last round with a duty, with the cells' invariants: every counter reads zero, the cells closed. -/
theorem sems_close (c : Dev nD) (K : GSem nD τ sig → ℕ) :
    (iprop(bigSepL ownQs (fun q => cellInv ER (Rd (F := F) X) (K (dcell c q)) (dcell c q)) ∗
    (atPos ER (dcell c (qS cc0_scratch2 0 inb_S4_S1_0)) 8 ∅ 0) ∗
    (atPos ER (dcell c (qS cc0_scratch2 1 inb_S4_S1_1)) 8 ∅ 0) ∗
    (atPos ER (dcell c (qS cc0_scratch2 2 inb_S4_S1_2)) 7 ∅ 0) ∗
    (atPos ER (dcell c (qS cc0_scratch2 3 inb_S4_S1_3)) 7 ∅ 0) ∗
    (atPos ER (dcell c (qS cc0_scratch4 0 inb_S4_S1_0)) 8 ∅ 0) ∗
    (atPos ER (dcell c (qS cc0_scratch4 1 inb_S4_S1_1)) 8 ∅ 0) ∗
    (atPos ER (dcell c (qS cc0_scratch4 2 inb_S4_S1_2)) 7 ∅ 0) ∗
    (atPos ER (dcell c (qS cc0_scratch4 3 inb_S4_S1_3)) 7 ∅ 0) ∗
    (atPos ER (dcell c (qS cc0_scratch6 0 inb_S4_S1_0)) 8 ∅ 0) ∗
    (atPos ER (dcell c (qS cc0_scratch6 1 inb_S4_S1_1)) 8 ∅ 0) ∗
    (atPos ER (dcell c (qS cc0_scratch6 2 inb_S4_S1_2)) 7 ∅ 0) ∗
    (atPos ER (dcell c (qS cc0_scratch6 3 inb_S4_S1_3)) 7 ∅ 0) ∗
    (atPos ER (dcell c (qS cc0_scratch8 0 inb_S4_S1_0)) 8 ∅ 0) ∗
    (atPos ER (dcell c (qS cc0_scratch8 1 inb_S4_S1_1)) 8 ∅ 0) ∗
    (atPos ER (dcell c (qS cc0_scratch8 2 inb_S4_S1_2)) 7 ∅ 0) ∗
    (atPos ER (dcell c (qS cc0_scratch8 3 inb_S4_S1_3)) 7 ∅ 0) ∗
    (atPos ER (dcell c (qR cc0_scratch3 0 0 inb_S15x2_S1x1_0_0)) 1 ∅ 0) ∗
    (atPos ER (dcell c (qR cc0_scratch3 0 1 inb_S15x2_S1x1_0_1)) 1 ∅ 0) ∗
    (atPos ER (dcell c (qR cc0_scratch3 1 0 inb_S15x2_S1x1_1_0)) 1 ∅ 0) ∗
    (atPos ER (dcell c (qR cc0_scratch3 1 1 inb_S15x2_S1x1_1_1)) 1 ∅ 0) ∗
    (atPos ER (dcell c (qR cc0_scratch3 2 0 inb_S15x2_S1x1_2_0)) 1 ∅ 0) ∗
    (atPos ER (dcell c (qR cc0_scratch3 2 1 inb_S15x2_S1x1_2_1)) 1 ∅ 0) ∗
    (atPos ER (dcell c (qR cc0_scratch3 3 0 inb_S15x2_S1x1_3_0)) 1 ∅ 0) ∗
    (atPos ER (dcell c (qR cc0_scratch3 3 1 inb_S15x2_S1x1_3_1)) 1 ∅ 0) ∗
    (atPos ER (dcell c (qR cc0_scratch3 4 0 inb_S15x2_S1x1_4_0)) 1 ∅ 0) ∗
    (atPos ER (dcell c (qR cc0_scratch3 4 1 inb_S15x2_S1x1_4_1)) 1 ∅ 0) ∗
    (atPos ER (dcell c (qR cc0_scratch3 5 0 inb_S15x2_S1x1_5_0)) 1 ∅ 0) ∗
    (atPos ER (dcell c (qR cc0_scratch3 5 1 inb_S15x2_S1x1_5_1)) 1 ∅ 0) ∗
    (atPos ER (dcell c (qR cc0_scratch3 6 0 inb_S15x2_S1x1_6_0)) 1 ∅ 0) ∗
    (atPos ER (dcell c (qR cc0_scratch3 6 1 inb_S15x2_S1x1_6_1)) 1 ∅ 0) ∗
    (atPos ER (dcell c (qR cc0_scratch3 7 0 inb_S15x2_S1x1_7_0)) 1 ∅ 0) ∗
    (atPos ER (dcell c (qR cc0_scratch3 7 1 inb_S15x2_S1x1_7_1)) 1 ∅ 0) ∗
    (atPos ER (dcell c (qR cc0_scratch3 8 0 inb_S15x2_S1x1_8_0)) 1 ∅ 0) ∗
    (atPos ER (dcell c (qR cc0_scratch3 8 1 inb_S15x2_S1x1_8_1)) 1 ∅ 0) ∗
    (atPos ER (dcell c (qR cc0_scratch3 9 0 inb_S15x2_S1x1_9_0)) 1 ∅ 0) ∗
    (atPos ER (dcell c (qR cc0_scratch3 9 1 inb_S15x2_S1x1_9_1)) 1 ∅ 0) ∗
    (atPos ER (dcell c (qR cc0_scratch3 10 0 inb_S15x2_S1x1_10_0)) 1 ∅ 0) ∗
    (atPos ER (dcell c (qR cc0_scratch3 10 1 inb_S15x2_S1x1_10_1)) 1 ∅ 0) ∗
    (atPos ER (dcell c (qR cc0_scratch3 11 0 inb_S15x2_S1x1_11_0)) 1 ∅ 0) ∗
    (atPos ER (dcell c (qR cc0_scratch3 11 1 inb_S15x2_S1x1_11_1)) 1 ∅ 0) ∗
    (atPos ER (dcell c (qR cc0_scratch3 12 0 inb_S15x2_S1x1_12_0)) 1 ∅ 0) ∗
    (atPos ER (dcell c (qR cc0_scratch3 12 1 inb_S15x2_S1x1_12_1)) 1 ∅ 0) ∗
    (atPos ER (dcell c (qR cc0_scratch3 13 0 inb_S15x2_S1x1_13_0)) 1 ∅ 0) ∗
    (atPos ER (dcell c (qR cc0_scratch3 13 1 inb_S15x2_S1x1_13_1)) 1 ∅ 0) ∗
    (atPos ER (dcell c (qR cc0_scratch3 14 0 inb_S15x2_S1x1_14_0)) 1 ∅ 0) ∗
    (atPos ER (dcell c (qR cc0_scratch3 14 1 inb_S15x2_S1x1_14_1)) 1 ∅ 0) ∗
    (atPos ER (dcell c (qR cc0_scratch7 0 0 inb_S15x2_S1x1_0_0)) 1 ∅ 0) ∗
    (atPos ER (dcell c (qR cc0_scratch7 0 1 inb_S15x2_S1x1_0_1)) 1 ∅ 0) ∗
    (atPos ER (dcell c (qR cc0_scratch7 1 0 inb_S15x2_S1x1_1_0)) 1 ∅ 0) ∗
    (atPos ER (dcell c (qR cc0_scratch7 1 1 inb_S15x2_S1x1_1_1)) 1 ∅ 0) ∗
    (atPos ER (dcell c (qR cc0_scratch7 2 0 inb_S15x2_S1x1_2_0)) 1 ∅ 0) ∗
    (atPos ER (dcell c (qR cc0_scratch7 2 1 inb_S15x2_S1x1_2_1)) 1 ∅ 0) ∗
    (atPos ER (dcell c (qR cc0_scratch7 3 0 inb_S15x2_S1x1_3_0)) 1 ∅ 0) ∗
    (atPos ER (dcell c (qR cc0_scratch7 3 1 inb_S15x2_S1x1_3_1)) 1 ∅ 0) ∗
    (atPos ER (dcell c (qR cc0_scratch7 4 0 inb_S15x2_S1x1_4_0)) 1 ∅ 0) ∗
    (atPos ER (dcell c (qR cc0_scratch7 4 1 inb_S15x2_S1x1_4_1)) 1 ∅ 0) ∗
    (atPos ER (dcell c (qR cc0_scratch7 5 0 inb_S15x2_S1x1_5_0)) 1 ∅ 0) ∗
    (atPos ER (dcell c (qR cc0_scratch7 5 1 inb_S15x2_S1x1_5_1)) 1 ∅ 0) ∗
    (atPos ER (dcell c (qR cc0_scratch7 6 0 inb_S15x2_S1x1_6_0)) 1 ∅ 0) ∗
    (atPos ER (dcell c (qR cc0_scratch7 6 1 inb_S15x2_S1x1_6_1)) 1 ∅ 0) ∗
    (atPos ER (dcell c (qR cc0_scratch7 7 0 inb_S15x2_S1x1_7_0)) 1 ∅ 0) ∗
    (atPos ER (dcell c (qR cc0_scratch7 7 1 inb_S15x2_S1x1_7_1)) 1 ∅ 0) ∗
    (atPos ER (dcell c (qR cc0_scratch7 8 0 inb_S15x2_S1x1_8_0)) 1 ∅ 0) ∗
    (atPos ER (dcell c (qR cc0_scratch7 8 1 inb_S15x2_S1x1_8_1)) 1 ∅ 0) ∗
    (atPos ER (dcell c (qR cc0_scratch7 9 0 inb_S15x2_S1x1_9_0)) 1 ∅ 0) ∗
    (atPos ER (dcell c (qR cc0_scratch7 9 1 inb_S15x2_S1x1_9_1)) 1 ∅ 0) ∗
    (atPos ER (dcell c (qR cc0_scratch7 10 0 inb_S15x2_S1x1_10_0)) 1 ∅ 0) ∗
    (atPos ER (dcell c (qR cc0_scratch7 10 1 inb_S15x2_S1x1_10_1)) 1 ∅ 0) ∗
    (atPos ER (dcell c (qR cc0_scratch7 11 0 inb_S15x2_S1x1_11_0)) 1 ∅ 0) ∗
    (atPos ER (dcell c (qR cc0_scratch7 11 1 inb_S15x2_S1x1_11_1)) 1 ∅ 0) ∗
    (atPos ER (dcell c (qR cc0_scratch7 12 0 inb_S15x2_S1x1_12_0)) 1 ∅ 0) ∗
    (atPos ER (dcell c (qR cc0_scratch7 12 1 inb_S15x2_S1x1_12_1)) 1 ∅ 0) ∗
    (atPos ER (dcell c (qR cc0_scratch7 13 0 inb_S15x2_S1x1_13_0)) 1 ∅ 0) ∗
    (atPos ER (dcell c (qR cc0_scratch7 13 1 inb_S15x2_S1x1_13_1)) 1 ∅ 0) ∗
    (atPos ER (dcell c (qR cc0_scratch7 14 0 inb_S15x2_S1x1_14_0)) 1 ∅ 0) ∗
    (atPos ER (dcell c (qR cc0_scratch7 14 1 inb_S15x2_S1x1_14_1)) 1 ∅ 0) ∗
    (atPos ER (dcell c (qR cc0_scratch5 0 0 inb_S15x2_S1x1_0_0)) 1 ∅ 0) ∗
    (atPos ER (dcell c (qR cc0_scratch5 0 1 inb_S15x2_S1x1_0_1)) 1 ∅ 0) ∗
    (atPos ER (dcell c (qR cc0_scratch5 1 0 inb_S15x2_S1x1_1_0)) 1 ∅ 0) ∗
    (atPos ER (dcell c (qR cc0_scratch5 1 1 inb_S15x2_S1x1_1_1)) 1 ∅ 0) ∗
    (atPos ER (dcell c (qR cc0_scratch5 2 0 inb_S15x2_S1x1_2_0)) 1 ∅ 0) ∗
    (atPos ER (dcell c (qR cc0_scratch5 2 1 inb_S15x2_S1x1_2_1)) 1 ∅ 0) ∗
    (atPos ER (dcell c (qR cc0_scratch5 3 0 inb_S15x2_S1x1_3_0)) 1 ∅ 0) ∗
    (atPos ER (dcell c (qR cc0_scratch5 3 1 inb_S15x2_S1x1_3_1)) 1 ∅ 0) ∗
    (atPos ER (dcell c (qR cc0_scratch5 4 0 inb_S15x2_S1x1_4_0)) 1 ∅ 0) ∗
    (atPos ER (dcell c (qR cc0_scratch5 4 1 inb_S15x2_S1x1_4_1)) 1 ∅ 0) ∗
    (atPos ER (dcell c (qR cc0_scratch5 5 0 inb_S15x2_S1x1_5_0)) 1 ∅ 0) ∗
    (atPos ER (dcell c (qR cc0_scratch5 5 1 inb_S15x2_S1x1_5_1)) 1 ∅ 0) ∗
    (atPos ER (dcell c (qR cc0_scratch5 6 0 inb_S15x2_S1x1_6_0)) 1 ∅ 0) ∗
    (atPos ER (dcell c (qR cc0_scratch5 6 1 inb_S15x2_S1x1_6_1)) 1 ∅ 0) ∗
    (atPos ER (dcell c (qR cc0_scratch5 7 0 inb_S15x2_S1x1_7_0)) 1 ∅ 0) ∗
    (atPos ER (dcell c (qR cc0_scratch5 7 1 inb_S15x2_S1x1_7_1)) 1 ∅ 0) ∗
    (atPos ER (dcell c (qR cc0_scratch5 8 0 inb_S15x2_S1x1_8_0)) 1 ∅ 0) ∗
    (atPos ER (dcell c (qR cc0_scratch5 8 1 inb_S15x2_S1x1_8_1)) 1 ∅ 0) ∗
    (atPos ER (dcell c (qR cc0_scratch5 9 0 inb_S15x2_S1x1_9_0)) 1 ∅ 0) ∗
    (atPos ER (dcell c (qR cc0_scratch5 9 1 inb_S15x2_S1x1_9_1)) 1 ∅ 0) ∗
    (atPos ER (dcell c (qR cc0_scratch5 10 0 inb_S15x2_S1x1_10_0)) 1 ∅ 0) ∗
    (atPos ER (dcell c (qR cc0_scratch5 10 1 inb_S15x2_S1x1_10_1)) 1 ∅ 0) ∗
    (atPos ER (dcell c (qR cc0_scratch5 11 0 inb_S15x2_S1x1_11_0)) 1 ∅ 0) ∗
    (atPos ER (dcell c (qR cc0_scratch5 11 1 inb_S15x2_S1x1_11_1)) 1 ∅ 0) ∗
    (atPos ER (dcell c (qR cc0_scratch5 12 0 inb_S15x2_S1x1_12_0)) 1 ∅ 0) ∗
    (atPos ER (dcell c (qR cc0_scratch5 12 1 inb_S15x2_S1x1_12_1)) 1 ∅ 0) ∗
    (atPos ER (dcell c (qR cc0_scratch5 13 0 inb_S15x2_S1x1_13_0)) 1 ∅ 0) ∗
    (atPos ER (dcell c (qR cc0_scratch5 13 1 inb_S15x2_S1x1_13_1)) 1 ∅ 0) ∗
    (atPos ER (dcell c (qR cc0_scratch5 14 0 inb_S15x2_S1x1_14_0)) 1 ∅ 0) ∗
    (atPos ER (dcell c (qR cc0_scratch5 14 1 inb_S15x2_S1x1_14_1)) 1 ∅ 0) ∗
    (atPos ER (dcell c (qR cc0_scratch9 0 0 inb_S15x2_S1x1_0_0)) 1 ∅ 0) ∗
    (atPos ER (dcell c (qR cc0_scratch9 0 1 inb_S15x2_S1x1_0_1)) 1 ∅ 0) ∗
    (atPos ER (dcell c (qR cc0_scratch9 1 0 inb_S15x2_S1x1_1_0)) 1 ∅ 0) ∗
    (atPos ER (dcell c (qR cc0_scratch9 1 1 inb_S15x2_S1x1_1_1)) 1 ∅ 0) ∗
    (atPos ER (dcell c (qR cc0_scratch9 2 0 inb_S15x2_S1x1_2_0)) 1 ∅ 0) ∗
    (atPos ER (dcell c (qR cc0_scratch9 2 1 inb_S15x2_S1x1_2_1)) 1 ∅ 0) ∗
    (atPos ER (dcell c (qR cc0_scratch9 3 0 inb_S15x2_S1x1_3_0)) 1 ∅ 0) ∗
    (atPos ER (dcell c (qR cc0_scratch9 3 1 inb_S15x2_S1x1_3_1)) 1 ∅ 0) ∗
    (atPos ER (dcell c (qR cc0_scratch9 4 0 inb_S15x2_S1x1_4_0)) 1 ∅ 0) ∗
    (atPos ER (dcell c (qR cc0_scratch9 4 1 inb_S15x2_S1x1_4_1)) 1 ∅ 0) ∗
    (atPos ER (dcell c (qR cc0_scratch9 5 0 inb_S15x2_S1x1_5_0)) 1 ∅ 0) ∗
    (atPos ER (dcell c (qR cc0_scratch9 5 1 inb_S15x2_S1x1_5_1)) 1 ∅ 0) ∗
    (atPos ER (dcell c (qR cc0_scratch9 6 0 inb_S15x2_S1x1_6_0)) 1 ∅ 0) ∗
    (atPos ER (dcell c (qR cc0_scratch9 6 1 inb_S15x2_S1x1_6_1)) 1 ∅ 0) ∗
    (atPos ER (dcell c (qR cc0_scratch9 7 0 inb_S15x2_S1x1_7_0)) 1 ∅ 0) ∗
    (atPos ER (dcell c (qR cc0_scratch9 7 1 inb_S15x2_S1x1_7_1)) 1 ∅ 0) ∗
    (atPos ER (dcell c (qR cc0_scratch9 8 0 inb_S15x2_S1x1_8_0)) 1 ∅ 0) ∗
    (atPos ER (dcell c (qR cc0_scratch9 8 1 inb_S15x2_S1x1_8_1)) 1 ∅ 0) ∗
    (atPos ER (dcell c (qR cc0_scratch9 9 0 inb_S15x2_S1x1_9_0)) 1 ∅ 0) ∗
    (atPos ER (dcell c (qR cc0_scratch9 9 1 inb_S15x2_S1x1_9_1)) 1 ∅ 0) ∗
    (atPos ER (dcell c (qR cc0_scratch9 10 0 inb_S15x2_S1x1_10_0)) 1 ∅ 0) ∗
    (atPos ER (dcell c (qR cc0_scratch9 10 1 inb_S15x2_S1x1_10_1)) 1 ∅ 0) ∗
    (atPos ER (dcell c (qR cc0_scratch9 11 0 inb_S15x2_S1x1_11_0)) 1 ∅ 0) ∗
    (atPos ER (dcell c (qR cc0_scratch9 11 1 inb_S15x2_S1x1_11_1)) 1 ∅ 0) ∗
    (atPos ER (dcell c (qR cc0_scratch9 12 0 inb_S15x2_S1x1_12_0)) 1 ∅ 0) ∗
    (atPos ER (dcell c (qR cc0_scratch9 12 1 inb_S15x2_S1x1_12_1)) 1 ∅ 0) ∗
    (atPos ER (dcell c (qR cc0_scratch9 13 0 inb_S15x2_S1x1_13_0)) 1 ∅ 0) ∗
    (atPos ER (dcell c (qR cc0_scratch9 13 1 inb_S15x2_S1x1_13_1)) 1 ∅ 0) ∗
    (atPos ER (dcell c (qR cc0_scratch9 14 0 inb_S15x2_S1x1_14_0)) 1 ∅ 0) ∗
    (atPos ER (dcell c (qR cc0_scratch9 14 1 inb_S15x2_S1x1_14_1)) 1 ∅ 0)) : sProp 𝕄)
      ⊢ iprop(|={Set.univ}=> bigSepL ownQs (fun q => semVal (dcell c q) 0)) :=
  sems_close_gen X c K ownQR rfl (ownQR_later X c)

/-- the slots of the ring buffer of direction true as the body's end holds them (steps 0 to 13 whole, then step 14's two sub-blocks each in its left and right half) are the buffer's thirty slots -/
theorem slots_back_cw (c : Dev nD) :
    (iprop(
    (owns (c : Thread nD τ) (slot aM 0 0 Cert.KernelIdeal.Gen.inb_S15x128x1024_S1x64x1024_0_0_0) fullShare (addV X true 0 0 c)) ∗
    (owns (c : Thread nD τ) (slot aM 0 64 Cert.KernelIdeal.Gen.inb_S15x128x1024_S1x64x1024_0_64_0) fullShare (addV X true 1 0 c)) ∗
    (owns (c : Thread nD τ) (slot aM 1 0 Cert.KernelIdeal.Gen.inb_S15x128x1024_S1x64x1024_1_0_0) fullShare (addV X true 0 1 c)) ∗
    (owns (c : Thread nD τ) (slot aM 1 64 Cert.KernelIdeal.Gen.inb_S15x128x1024_S1x64x1024_1_64_0) fullShare (addV X true 1 1 c)) ∗
    (owns (c : Thread nD τ) (slot aM 2 0 Cert.KernelIdeal.Gen.inb_S15x128x1024_S1x64x1024_2_0_0) fullShare (addV X true 0 2 c)) ∗
    (owns (c : Thread nD τ) (slot aM 2 64 Cert.KernelIdeal.Gen.inb_S15x128x1024_S1x64x1024_2_64_0) fullShare (addV X true 1 2 c)) ∗
    (owns (c : Thread nD τ) (slot aM 3 0 Cert.KernelIdeal.Gen.inb_S15x128x1024_S1x64x1024_3_0_0) fullShare (addV X true 0 3 c)) ∗
    (owns (c : Thread nD τ) (slot aM 3 64 Cert.KernelIdeal.Gen.inb_S15x128x1024_S1x64x1024_3_64_0) fullShare (addV X true 1 3 c)) ∗
    (owns (c : Thread nD τ) (slot aM 4 0 Cert.KernelIdeal.Gen.inb_S15x128x1024_S1x64x1024_4_0_0) fullShare (addV X true 0 4 c)) ∗
    (owns (c : Thread nD τ) (slot aM 4 64 Cert.KernelIdeal.Gen.inb_S15x128x1024_S1x64x1024_4_64_0) fullShare (addV X true 1 4 c)) ∗
    (owns (c : Thread nD τ) (slot aM 5 0 Cert.KernelIdeal.Gen.inb_S15x128x1024_S1x64x1024_5_0_0) fullShare (addV X true 0 5 c)) ∗
    (owns (c : Thread nD τ) (slot aM 5 64 Cert.KernelIdeal.Gen.inb_S15x128x1024_S1x64x1024_5_64_0) fullShare (addV X true 1 5 c)) ∗
    (owns (c : Thread nD τ) (slot aM 6 0 Cert.KernelIdeal.Gen.inb_S15x128x1024_S1x64x1024_6_0_0) fullShare (addV X true 0 6 c)) ∗
    (owns (c : Thread nD τ) (slot aM 6 64 Cert.KernelIdeal.Gen.inb_S15x128x1024_S1x64x1024_6_64_0) fullShare (addV X true 1 6 c)) ∗
    (owns (c : Thread nD τ) (slot aM 7 0 Cert.KernelIdeal.Gen.inb_S15x128x1024_S1x64x1024_7_0_0) fullShare (addV X true 0 7 c)) ∗
    (owns (c : Thread nD τ) (slot aM 7 64 Cert.KernelIdeal.Gen.inb_S15x128x1024_S1x64x1024_7_64_0) fullShare (addV X true 1 7 c)) ∗
    (owns (c : Thread nD τ) (slot aM 8 0 Cert.KernelIdeal.Gen.inb_S15x128x1024_S1x64x1024_8_0_0) fullShare (addV X true 0 8 c)) ∗
    (owns (c : Thread nD τ) (slot aM 8 64 Cert.KernelIdeal.Gen.inb_S15x128x1024_S1x64x1024_8_64_0) fullShare (addV X true 1 8 c)) ∗
    (owns (c : Thread nD τ) (slot aM 9 0 Cert.KernelIdeal.Gen.inb_S15x128x1024_S1x64x1024_9_0_0) fullShare (addV X true 0 9 c)) ∗
    (owns (c : Thread nD τ) (slot aM 9 64 Cert.KernelIdeal.Gen.inb_S15x128x1024_S1x64x1024_9_64_0) fullShare (addV X true 1 9 c)) ∗
    (owns (c : Thread nD τ) (slot aM 10 0 Cert.KernelIdeal.Gen.inb_S15x128x1024_S1x64x1024_10_0_0) fullShare (addV X true 0 10 c)) ∗
    (owns (c : Thread nD τ) (slot aM 10 64 Cert.KernelIdeal.Gen.inb_S15x128x1024_S1x64x1024_10_64_0) fullShare (addV X true 1 10 c)) ∗
    (owns (c : Thread nD τ) (slot aM 11 0 Cert.KernelIdeal.Gen.inb_S15x128x1024_S1x64x1024_11_0_0) fullShare (addV X true 0 11 c)) ∗
    (owns (c : Thread nD τ) (slot aM 11 64 Cert.KernelIdeal.Gen.inb_S15x128x1024_S1x64x1024_11_64_0) fullShare (addV X true 1 11 c)) ∗
    (owns (c : Thread nD τ) (slot aM 12 0 Cert.KernelIdeal.Gen.inb_S15x128x1024_S1x64x1024_12_0_0) fullShare (addV X true 0 12 c)) ∗
    (owns (c : Thread nD τ) (slot aM 12 64 Cert.KernelIdeal.Gen.inb_S15x128x1024_S1x64x1024_12_64_0) fullShare (addV X true 1 12 c)) ∗
    (owns (c : Thread nD τ) (slot aM 13 0 Cert.KernelIdeal.Gen.inb_S15x128x1024_S1x64x1024_13_0_0) fullShare (addV X true 0 13 c)) ∗
    (owns (c : Thread nD τ) (slot aM 13 64 Cert.KernelIdeal.Gen.inb_S15x128x1024_S1x64x1024_13_64_0) fullShare (addV X true 1 13 c)) ∗
    (owns (c : Thread nD τ) (slot aM 14 0 Cert.KernelIdeal.Gen.inb_S15x128x1024_S1x64x1024_14_0_0) fullShare.left (addV X true 0 14 c)) ∗
    (owns (c : Thread nD τ) (slot aM 14 0 Cert.KernelIdeal.Gen.inb_S15x128x1024_S1x64x1024_14_0_0) fullShare.right (addV X true 0 14 c)) ∗
    (owns (c : Thread nD τ) (slot aM 14 64 Cert.KernelIdeal.Gen.inb_S15x128x1024_S1x64x1024_14_64_0) fullShare.left (addV X true 1 14 c)) ∗
    (owns (c : Thread nD τ) (slot aM 14 64 Cert.KernelIdeal.Gen.inb_S15x128x1024_S1x64x1024_14_64_0) fullShare.right (addV X true 1 14 c))) : sProp 𝕄) ⊢ allSlots (F := F) true c :=
  slots_back_gen X true c

/-- the slots of the ring buffer of direction false as the body's end holds them (steps 0 to 13 whole, then step 14's two sub-blocks each in its left and right half) are the buffer's thirty slots -/
theorem slots_back_ccw (c : Dev nD) :
    (iprop(
    (owns (c : Thread nD τ) (slot bM 0 0 Cert.KernelIdeal.Gen.inb_S15x128x1024_S1x64x1024_0_0_0) fullShare (addV X false 0 0 c)) ∗
    (owns (c : Thread nD τ) (slot bM 0 64 Cert.KernelIdeal.Gen.inb_S15x128x1024_S1x64x1024_0_64_0) fullShare (addV X false 1 0 c)) ∗
    (owns (c : Thread nD τ) (slot bM 1 0 Cert.KernelIdeal.Gen.inb_S15x128x1024_S1x64x1024_1_0_0) fullShare (addV X false 0 1 c)) ∗
    (owns (c : Thread nD τ) (slot bM 1 64 Cert.KernelIdeal.Gen.inb_S15x128x1024_S1x64x1024_1_64_0) fullShare (addV X false 1 1 c)) ∗
    (owns (c : Thread nD τ) (slot bM 2 0 Cert.KernelIdeal.Gen.inb_S15x128x1024_S1x64x1024_2_0_0) fullShare (addV X false 0 2 c)) ∗
    (owns (c : Thread nD τ) (slot bM 2 64 Cert.KernelIdeal.Gen.inb_S15x128x1024_S1x64x1024_2_64_0) fullShare (addV X false 1 2 c)) ∗
    (owns (c : Thread nD τ) (slot bM 3 0 Cert.KernelIdeal.Gen.inb_S15x128x1024_S1x64x1024_3_0_0) fullShare (addV X false 0 3 c)) ∗
    (owns (c : Thread nD τ) (slot bM 3 64 Cert.KernelIdeal.Gen.inb_S15x128x1024_S1x64x1024_3_64_0) fullShare (addV X false 1 3 c)) ∗
    (owns (c : Thread nD τ) (slot bM 4 0 Cert.KernelIdeal.Gen.inb_S15x128x1024_S1x64x1024_4_0_0) fullShare (addV X false 0 4 c)) ∗
    (owns (c : Thread nD τ) (slot bM 4 64 Cert.KernelIdeal.Gen.inb_S15x128x1024_S1x64x1024_4_64_0) fullShare (addV X false 1 4 c)) ∗
    (owns (c : Thread nD τ) (slot bM 5 0 Cert.KernelIdeal.Gen.inb_S15x128x1024_S1x64x1024_5_0_0) fullShare (addV X false 0 5 c)) ∗
    (owns (c : Thread nD τ) (slot bM 5 64 Cert.KernelIdeal.Gen.inb_S15x128x1024_S1x64x1024_5_64_0) fullShare (addV X false 1 5 c)) ∗
    (owns (c : Thread nD τ) (slot bM 6 0 Cert.KernelIdeal.Gen.inb_S15x128x1024_S1x64x1024_6_0_0) fullShare (addV X false 0 6 c)) ∗
    (owns (c : Thread nD τ) (slot bM 6 64 Cert.KernelIdeal.Gen.inb_S15x128x1024_S1x64x1024_6_64_0) fullShare (addV X false 1 6 c)) ∗
    (owns (c : Thread nD τ) (slot bM 7 0 Cert.KernelIdeal.Gen.inb_S15x128x1024_S1x64x1024_7_0_0) fullShare (addV X false 0 7 c)) ∗
    (owns (c : Thread nD τ) (slot bM 7 64 Cert.KernelIdeal.Gen.inb_S15x128x1024_S1x64x1024_7_64_0) fullShare (addV X false 1 7 c)) ∗
    (owns (c : Thread nD τ) (slot bM 8 0 Cert.KernelIdeal.Gen.inb_S15x128x1024_S1x64x1024_8_0_0) fullShare (addV X false 0 8 c)) ∗
    (owns (c : Thread nD τ) (slot bM 8 64 Cert.KernelIdeal.Gen.inb_S15x128x1024_S1x64x1024_8_64_0) fullShare (addV X false 1 8 c)) ∗
    (owns (c : Thread nD τ) (slot bM 9 0 Cert.KernelIdeal.Gen.inb_S15x128x1024_S1x64x1024_9_0_0) fullShare (addV X false 0 9 c)) ∗
    (owns (c : Thread nD τ) (slot bM 9 64 Cert.KernelIdeal.Gen.inb_S15x128x1024_S1x64x1024_9_64_0) fullShare (addV X false 1 9 c)) ∗
    (owns (c : Thread nD τ) (slot bM 10 0 Cert.KernelIdeal.Gen.inb_S15x128x1024_S1x64x1024_10_0_0) fullShare (addV X false 0 10 c)) ∗
    (owns (c : Thread nD τ) (slot bM 10 64 Cert.KernelIdeal.Gen.inb_S15x128x1024_S1x64x1024_10_64_0) fullShare (addV X false 1 10 c)) ∗
    (owns (c : Thread nD τ) (slot bM 11 0 Cert.KernelIdeal.Gen.inb_S15x128x1024_S1x64x1024_11_0_0) fullShare (addV X false 0 11 c)) ∗
    (owns (c : Thread nD τ) (slot bM 11 64 Cert.KernelIdeal.Gen.inb_S15x128x1024_S1x64x1024_11_64_0) fullShare (addV X false 1 11 c)) ∗
    (owns (c : Thread nD τ) (slot bM 12 0 Cert.KernelIdeal.Gen.inb_S15x128x1024_S1x64x1024_12_0_0) fullShare (addV X false 0 12 c)) ∗
    (owns (c : Thread nD τ) (slot bM 12 64 Cert.KernelIdeal.Gen.inb_S15x128x1024_S1x64x1024_12_64_0) fullShare (addV X false 1 12 c)) ∗
    (owns (c : Thread nD τ) (slot bM 13 0 Cert.KernelIdeal.Gen.inb_S15x128x1024_S1x64x1024_13_0_0) fullShare (addV X false 0 13 c)) ∗
    (owns (c : Thread nD τ) (slot bM 13 64 Cert.KernelIdeal.Gen.inb_S15x128x1024_S1x64x1024_13_64_0) fullShare (addV X false 1 13 c)) ∗
    (owns (c : Thread nD τ) (slot bM 14 0 Cert.KernelIdeal.Gen.inb_S15x128x1024_S1x64x1024_14_0_0) fullShare.left (addV X false 0 14 c)) ∗
    (owns (c : Thread nD τ) (slot bM 14 0 Cert.KernelIdeal.Gen.inb_S15x128x1024_S1x64x1024_14_0_0) fullShare.right (addV X false 0 14 c)) ∗
    (owns (c : Thread nD τ) (slot bM 14 64 Cert.KernelIdeal.Gen.inb_S15x128x1024_S1x64x1024_14_64_0) fullShare.left (addV X false 1 14 c)) ∗
    (owns (c : Thread nD τ) (slot bM 14 64 Cert.KernelIdeal.Gen.inb_S15x128x1024_S1x64x1024_14_64_0) fullShare.right (addV X false 1 14 c))) : sProp 𝕄) ⊢ allSlots (F := F) false c :=
  slots_back_gen X false c

/-- the sixty-four (direction, shift, sub-block) triples: clockwise halves first, by shift, by sub-block -/
def triAll : List (Bool × Fin 16 × Fin 2) :=
  [(true, 0, 0), (true, 0, 1), (true, 1, 0), (true, 1, 1), (true, 2, 0), (true, 2, 1), (true, 3, 0), (true, 3, 1), (true, 4, 0), (true, 4, 1), (true, 5, 0), (true, 5, 1), (true, 6, 0), (true, 6, 1), (true, 7, 0), (true, 7, 1), (true, 8, 0), (true, 8, 1), (true, 9, 0), (true, 9, 1), (true, 10, 0), (true, 10, 1), (true, 11, 0), (true, 11, 1), (true, 12, 0), (true, 12, 1), (true, 13, 0), (true, 13, 1), (true, 14, 0), (true, 14, 1), (true, 15, 0), (true, 15, 1), (false, 0, 0), (false, 0, 1), (false, 1, 0), (false, 1, 1), (false, 2, 0), (false, 2, 1), (false, 3, 0), (false, 3, 1), (false, 4, 0), (false, 4, 1), (false, 5, 0), (false, 5, 1), (false, 6, 0), (false, 6, 1), (false, 7, 0), (false, 7, 1), (false, 8, 0), (false, 8, 1), (false, 9, 0), (false, 9, 1), (false, 10, 0), (false, 10, 1), (false, 11, 0), (false, 11, 1), (false, 12, 0), (false, 12, 1), (false, 13, 0), (false, 13, 1), (false, 14, 0), (false, 14, 1), (false, 15, 0), (false, 15, 1)]

theorem triAll_univ : (Finset.univ : Finset (Bool × Fin 16 × Fin 2)) = triAll.toFinset := by decide
theorem triAll_nodup : triAll.Nodup := by decide

/-- the sixty-four windows of the staged result, each at its finished sub-block, are the staged result at the assembled value -/
theorem out_back (c : Dev nD) :
    (iprop(
    (owns (c : Thread nD τ) (rows oM (off true (c.val + 0) 0) (off_inb true _ 0)) fullShare (doneV X true 0 (devAt c 0))) ∗
    (owns (c : Thread nD τ) (rows oM (off true (c.val + 0) 1) (off_inb true _ 1)) fullShare (doneV X true 1 (devAt c 0))) ∗
    (owns (c : Thread nD τ) (rows oM (off true (c.val + 1) 0) (off_inb true _ 0)) fullShare (doneV X true 0 (devAt c 1))) ∗
    (owns (c : Thread nD τ) (rows oM (off true (c.val + 1) 1) (off_inb true _ 1)) fullShare (doneV X true 1 (devAt c 1))) ∗
    (owns (c : Thread nD τ) (rows oM (off true (c.val + 2) 0) (off_inb true _ 0)) fullShare (doneV X true 0 (devAt c 2))) ∗
    (owns (c : Thread nD τ) (rows oM (off true (c.val + 2) 1) (off_inb true _ 1)) fullShare (doneV X true 1 (devAt c 2))) ∗
    (owns (c : Thread nD τ) (rows oM (off true (c.val + 3) 0) (off_inb true _ 0)) fullShare (doneV X true 0 (devAt c 3))) ∗
    (owns (c : Thread nD τ) (rows oM (off true (c.val + 3) 1) (off_inb true _ 1)) fullShare (doneV X true 1 (devAt c 3))) ∗
    (owns (c : Thread nD τ) (rows oM (off true (c.val + 4) 0) (off_inb true _ 0)) fullShare (doneV X true 0 (devAt c 4))) ∗
    (owns (c : Thread nD τ) (rows oM (off true (c.val + 4) 1) (off_inb true _ 1)) fullShare (doneV X true 1 (devAt c 4))) ∗
    (owns (c : Thread nD τ) (rows oM (off true (c.val + 5) 0) (off_inb true _ 0)) fullShare (doneV X true 0 (devAt c 5))) ∗
    (owns (c : Thread nD τ) (rows oM (off true (c.val + 5) 1) (off_inb true _ 1)) fullShare (doneV X true 1 (devAt c 5))) ∗
    (owns (c : Thread nD τ) (rows oM (off true (c.val + 6) 0) (off_inb true _ 0)) fullShare (doneV X true 0 (devAt c 6))) ∗
    (owns (c : Thread nD τ) (rows oM (off true (c.val + 6) 1) (off_inb true _ 1)) fullShare (doneV X true 1 (devAt c 6))) ∗
    (owns (c : Thread nD τ) (rows oM (off true (c.val + 7) 0) (off_inb true _ 0)) fullShare (doneV X true 0 (devAt c 7))) ∗
    (owns (c : Thread nD τ) (rows oM (off true (c.val + 7) 1) (off_inb true _ 1)) fullShare (doneV X true 1 (devAt c 7))) ∗
    (owns (c : Thread nD τ) (rows oM (off true (c.val + 8) 0) (off_inb true _ 0)) fullShare (doneV X true 0 (devAt c 8))) ∗
    (owns (c : Thread nD τ) (rows oM (off true (c.val + 8) 1) (off_inb true _ 1)) fullShare (doneV X true 1 (devAt c 8))) ∗
    (owns (c : Thread nD τ) (rows oM (off true (c.val + 9) 0) (off_inb true _ 0)) fullShare (doneV X true 0 (devAt c 9))) ∗
    (owns (c : Thread nD τ) (rows oM (off true (c.val + 9) 1) (off_inb true _ 1)) fullShare (doneV X true 1 (devAt c 9))) ∗
    (owns (c : Thread nD τ) (rows oM (off true (c.val + 10) 0) (off_inb true _ 0)) fullShare (doneV X true 0 (devAt c 10))) ∗
    (owns (c : Thread nD τ) (rows oM (off true (c.val + 10) 1) (off_inb true _ 1)) fullShare (doneV X true 1 (devAt c 10))) ∗
    (owns (c : Thread nD τ) (rows oM (off true (c.val + 11) 0) (off_inb true _ 0)) fullShare (doneV X true 0 (devAt c 11))) ∗
    (owns (c : Thread nD τ) (rows oM (off true (c.val + 11) 1) (off_inb true _ 1)) fullShare (doneV X true 1 (devAt c 11))) ∗
    (owns (c : Thread nD τ) (rows oM (off true (c.val + 12) 0) (off_inb true _ 0)) fullShare (doneV X true 0 (devAt c 12))) ∗
    (owns (c : Thread nD τ) (rows oM (off true (c.val + 12) 1) (off_inb true _ 1)) fullShare (doneV X true 1 (devAt c 12))) ∗
    (owns (c : Thread nD τ) (rows oM (off true (c.val + 13) 0) (off_inb true _ 0)) fullShare (doneV X true 0 (devAt c 13))) ∗
    (owns (c : Thread nD τ) (rows oM (off true (c.val + 13) 1) (off_inb true _ 1)) fullShare (doneV X true 1 (devAt c 13))) ∗
    (owns (c : Thread nD τ) (rows oM (off true (c.val + 14) 0) (off_inb true _ 0)) fullShare (doneV X true 0 (devAt c 14))) ∗
    (owns (c : Thread nD τ) (rows oM (off true (c.val + 14) 1) (off_inb true _ 1)) fullShare (doneV X true 1 (devAt c 14))) ∗
    (owns (c : Thread nD τ) (rows oM (off true (c.val + 15) 0) (off_inb true _ 0)) fullShare (doneV X true 0 (devAt c 15))) ∗
    (owns (c : Thread nD τ) (rows oM (off true (c.val + 15) 1) (off_inb true _ 1)) fullShare (doneV X true 1 (devAt c 15))) ∗
    (owns (c : Thread nD τ) (rows oM (off false (c.val + 0) 0) (off_inb false _ 0)) fullShare (doneV X false 0 (devAt c 0))) ∗
    (owns (c : Thread nD τ) (rows oM (off false (c.val + 0) 1) (off_inb false _ 1)) fullShare (doneV X false 1 (devAt c 0))) ∗
    (owns (c : Thread nD τ) (rows oM (off false (c.val + 1) 0) (off_inb false _ 0)) fullShare (doneV X false 0 (devAt c 1))) ∗
    (owns (c : Thread nD τ) (rows oM (off false (c.val + 1) 1) (off_inb false _ 1)) fullShare (doneV X false 1 (devAt c 1))) ∗
    (owns (c : Thread nD τ) (rows oM (off false (c.val + 2) 0) (off_inb false _ 0)) fullShare (doneV X false 0 (devAt c 2))) ∗
    (owns (c : Thread nD τ) (rows oM (off false (c.val + 2) 1) (off_inb false _ 1)) fullShare (doneV X false 1 (devAt c 2))) ∗
    (owns (c : Thread nD τ) (rows oM (off false (c.val + 3) 0) (off_inb false _ 0)) fullShare (doneV X false 0 (devAt c 3))) ∗
    (owns (c : Thread nD τ) (rows oM (off false (c.val + 3) 1) (off_inb false _ 1)) fullShare (doneV X false 1 (devAt c 3))) ∗
    (owns (c : Thread nD τ) (rows oM (off false (c.val + 4) 0) (off_inb false _ 0)) fullShare (doneV X false 0 (devAt c 4))) ∗
    (owns (c : Thread nD τ) (rows oM (off false (c.val + 4) 1) (off_inb false _ 1)) fullShare (doneV X false 1 (devAt c 4))) ∗
    (owns (c : Thread nD τ) (rows oM (off false (c.val + 5) 0) (off_inb false _ 0)) fullShare (doneV X false 0 (devAt c 5))) ∗
    (owns (c : Thread nD τ) (rows oM (off false (c.val + 5) 1) (off_inb false _ 1)) fullShare (doneV X false 1 (devAt c 5))) ∗
    (owns (c : Thread nD τ) (rows oM (off false (c.val + 6) 0) (off_inb false _ 0)) fullShare (doneV X false 0 (devAt c 6))) ∗
    (owns (c : Thread nD τ) (rows oM (off false (c.val + 6) 1) (off_inb false _ 1)) fullShare (doneV X false 1 (devAt c 6))) ∗
    (owns (c : Thread nD τ) (rows oM (off false (c.val + 7) 0) (off_inb false _ 0)) fullShare (doneV X false 0 (devAt c 7))) ∗
    (owns (c : Thread nD τ) (rows oM (off false (c.val + 7) 1) (off_inb false _ 1)) fullShare (doneV X false 1 (devAt c 7))) ∗
    (owns (c : Thread nD τ) (rows oM (off false (c.val + 8) 0) (off_inb false _ 0)) fullShare (doneV X false 0 (devAt c 8))) ∗
    (owns (c : Thread nD τ) (rows oM (off false (c.val + 8) 1) (off_inb false _ 1)) fullShare (doneV X false 1 (devAt c 8))) ∗
    (owns (c : Thread nD τ) (rows oM (off false (c.val + 9) 0) (off_inb false _ 0)) fullShare (doneV X false 0 (devAt c 9))) ∗
    (owns (c : Thread nD τ) (rows oM (off false (c.val + 9) 1) (off_inb false _ 1)) fullShare (doneV X false 1 (devAt c 9))) ∗
    (owns (c : Thread nD τ) (rows oM (off false (c.val + 10) 0) (off_inb false _ 0)) fullShare (doneV X false 0 (devAt c 10))) ∗
    (owns (c : Thread nD τ) (rows oM (off false (c.val + 10) 1) (off_inb false _ 1)) fullShare (doneV X false 1 (devAt c 10))) ∗
    (owns (c : Thread nD τ) (rows oM (off false (c.val + 11) 0) (off_inb false _ 0)) fullShare (doneV X false 0 (devAt c 11))) ∗
    (owns (c : Thread nD τ) (rows oM (off false (c.val + 11) 1) (off_inb false _ 1)) fullShare (doneV X false 1 (devAt c 11))) ∗
    (owns (c : Thread nD τ) (rows oM (off false (c.val + 12) 0) (off_inb false _ 0)) fullShare (doneV X false 0 (devAt c 12))) ∗
    (owns (c : Thread nD τ) (rows oM (off false (c.val + 12) 1) (off_inb false _ 1)) fullShare (doneV X false 1 (devAt c 12))) ∗
    (owns (c : Thread nD τ) (rows oM (off false (c.val + 13) 0) (off_inb false _ 0)) fullShare (doneV X false 0 (devAt c 13))) ∗
    (owns (c : Thread nD τ) (rows oM (off false (c.val + 13) 1) (off_inb false _ 1)) fullShare (doneV X false 1 (devAt c 13))) ∗
    (owns (c : Thread nD τ) (rows oM (off false (c.val + 14) 0) (off_inb false _ 0)) fullShare (doneV X false 0 (devAt c 14))) ∗
    (owns (c : Thread nD τ) (rows oM (off false (c.val + 14) 1) (off_inb false _ 1)) fullShare (doneV X false 1 (devAt c 14))) ∗
    (owns (c : Thread nD τ) (rows oM (off false (c.val + 15) 0) (off_inb false _ 0)) fullShare (doneV X false 0 (devAt c 15))) ∗
    (owns (c : Thread nD τ) (rows oM (off false (c.val + 15) 1) (off_inb false _ 1)) fullShare (doneV X false 1 (devAt c 15)))) : sProp 𝕄) ⊢ owns (c : Thread nD τ) oM fullShare (outV X) :=
  out_join_list c X triAll triAll_univ triAll_nodup

end Cert.KernelIdeal.RSAG

end
-- ==== Proof.LocalStore.lean ====
import proofs.«901013_g7700000000001014_dist_rs_then_ag_i_m4096_n1024_v7x_i16_f32_1_alg».proof.Proof.BodyLib2
import proofs.«901013_g7700000000001014_dist_rs_then_ag_i_m4096_n1024_v7x_i16_f32_1_alg».proof.Proof.Cut

/-! The kernel's two local copies of the finished last slot into the staged result.

    The last slot of a ring buffer is held as its two 64-row windows; the copy reads it as one window of 128 rows.
    The two windows are disjoint and together are the 128 rows, so holding both is holding the 128 rows at contents
    that read as each window's value, and conversely. What the copy stores over 128 rows of the staged result reads
    back, through either 64-row window of those rows, as the slot's matching window. -/

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The last slot as one window of 128 rows -/

/-- the rectangle of all 128 rows of slot 14, with its leading axis of one -/
abbrev R128 (h14 : ∀ a, (![14, 0, 0] : Fin 3 → ℕ) a + S1x128x1024.size a ≤ S15x128x1024.size a) : Rect S15x128x1024 :=
  Rect.unit (s := S15x128x1024) ![14, 0, 0] S1x128x1024.size h14

/-- slot 14 of a ring buffer as the kernel's 128-row load names it -/
def slot128 (M : Memref sig .tc .vmem S15x128x1024 .f32)
    (h14 : ∀ a, (![14, 0, 0] : Fin 3 → ℕ) a + S1x128x1024.size a ≤ S15x128x1024.size a) : Memref sig .tc .vmem S1x128x1024 .f32 :=
  M.slice (Rect.unit (s := S15x128x1024) ![14, 0, 0] S1x128x1024.size h14) (fun _ => rfl)

/-- an index lies in a 64-row window of a slot when its slot and row do -/
theorem mem_R3 {s r : ℕ} {h : ∀ a, (![s, r, 0] : Fin 3 → Nat) a + S1x64x1024.size a ≤ S15x128x1024.size a}
    {i : S15x128x1024.Idx} : i ∈ (R3 s r h).set ↔ (i 0).val = s ∧ r ≤ (i 1).val ∧ (i 1).val < r + 64 := by
  rw [Rect.mem_set_unit]
  constructor
  · intro H
    have H0 : s ≤ (i 0).val ∧ (i 0).val < s + 1 := H 0
    have H1 : r ≤ (i 1).val ∧ (i 1).val < r + 64 := H 1
    exact ⟨by omega, H1⟩
  · rintro ⟨e0, e1⟩ a
    match a with
    | ⟨0, _⟩ => show s ≤ (i 0).val ∧ (i 0).val < s + 1; omega
    | ⟨1, _⟩ => exact e1
    | ⟨2, _⟩ =>
      have h2 : (i 2).val < 1024 := (i 2).isLt
      show 0 ≤ (i 2).val ∧ (i 2).val < 0 + 1024; omega

/-- an index lies in the 128 rows of slot 14 when its slot is 14 -/
theorem mem_R128 {h14 : ∀ a, (![14, 0, 0] : Fin 3 → ℕ) a + S1x128x1024.size a ≤ S15x128x1024.size a}
    {i : S15x128x1024.Idx} : i ∈ (R128 h14).set ↔ (i 0).val = 14 := by
  rw [Rect.mem_set_unit]
  constructor
  · intro H
    have H0 : 14 ≤ (i 0).val ∧ (i 0).val < 14 + 1 := H 0
    omega
  · intro e0 a
    match a with
    | ⟨0, _⟩ => show 14 ≤ (i 0).val ∧ (i 0).val < 14 + 1; omega
    | ⟨1, _⟩ =>
      have h1 : (i 1).val < 128 := (i 1).isLt
      show 0 ≤ (i 1).val ∧ (i 1).val < 0 + 128; omega
    | ⟨2, _⟩ =>
      have h2 : (i 2).val < 1024 := (i 2).isLt
      show 0 ≤ (i 2).val ∧ (i 2).val < 0 + 1024; omega

/-- the two 64-row windows of slot 14 are disjoint -/
theorem R3_disjoint (h0 : ∀ a, (![14, 0, 0] : Fin 3 → Nat) a + S1x64x1024.size a ≤ S15x128x1024.size a)
    (h1 : ∀ a, (![14, 64, 0] : Fin 3 → Nat) a + S1x64x1024.size a ≤ S15x128x1024.size a) :
    Disjoint (R3 14 0 h0).set (R3 14 64 h1).set := by
  rw [Finset.disjoint_left]
  intro i hi hi'
  rw [mem_R3] at hi hi'
  omega

/-- and together they are its 128 rows -/
theorem R3_union (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (R3 14 0 h0).set ∪ (R3 14 64 h1).set = (R128 h14).set := by
  ext i
  have hi1 : (i 1).val < 128 := (i 1).isLt
  rw [Finset.mem_union, mem_R3, mem_R3, mem_R128]
  omega

variable (M : Memref sig .tc .vmem S15x128x1024 .f32) (c : Dev nD)

/-- the elements of the buffer under a 64-row window of a slot -/
theorem slot_set (s r : ℕ) (h : ∀ a, (![s, r, 0] : Fin 3 → Nat) a + S1x64x1024.size a ≤ S15x128x1024.size a) :
    (slot M s r h).view.set = (R3 s r h).set.map M.view.emb :=
  (View.set_reshape _ _).trans (View.set_slice _ _)

theorem slot128_set (h14 : ∀ a, (![14, 0, 0] : Fin 3 → ℕ) a + S1x128x1024.size a ≤ S15x128x1024.size a) :
    (slot128 M h14).view.set = (R128 h14).set.map M.view.emb :=
  View.set_slice _ _

theorem slot_disjoint (h0 : ∀ a, (![14, 0, 0] : Fin 3 → Nat) a + S1x64x1024.size a ≤ S15x128x1024.size a)
    (h1 : ∀ a, (![14, 64, 0] : Fin 3 → Nat) a + S1x64x1024.size a ≤ S15x128x1024.size a) :
    Disjoint (slot M 14 0 h0).view.set (slot M 14 64 h1).view.set := by
  rw [slot_set, slot_set]
  exact (Finset.disjoint_map _).mpr (R3_disjoint h0 h1)

theorem slot_union (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (slot M 14 0 h0).view.set ∪ (slot M 14 64 h1).view.set = (slot128 M h14).view.set := by
  rw [slot_set, slot_set, slot128_set, ← Finset.map_union, R3_union h0 h1 h14]

/-- two disjoint parts of one buffer held at different contents are their union held at contents that agree with each -/
theorem pts_join2 {ℓ : Loc nD τ sig} {A B C : Finset (Idx ℓ)} (q : PosShare TreeShare) (f0 f1 : Buf (Elt F) ℓ)
    (hd : Disjoint A B) (hu : A ∪ B = C) :
    iprop((ℓ ↦[A]{q} f0) ∗ (ℓ ↦[B]{q} f1)) ⊢ (ℓ ↦[C]{q} (B.piecewise f1 f0) : sProp 𝕄) := by
  subst hu; exact pointsTo_join hd

theorem pts_split2 {ℓ : Loc nD τ sig} {A B C : Finset (Idx ℓ)} (q : PosShare TreeShare) (f : Buf (Elt F) ℓ)
    (hd : Disjoint A B) (hu : A ∪ B = C) :
    (ℓ ↦[C]{q} f : sProp 𝕄) ⊢ iprop((ℓ ↦[A]{q} f) ∗ (ℓ ↦[B]{q} f)) := by
  subst hu; exact (pointsTo_union hd).1

/-- the two windows of slot 14 held at the values `V0`, `V1` are its 128 rows held at contents both windows read so -/
theorem join128 (q : PosShare TreeShare) (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    iprop(owns (c : Thread nD τ) (slot M 14 0 h0) q V0 ∗ owns (c : Thread nD τ) (slot M 14 64 h1) q V1)
      ⊢ (iprop(∃ f, ⌜(slot M 14 0 h0).view.read (Elt F) f = V0 ∧ (slot M 14 64 h1).view.read (Elt F) f = V1⌝
          ∗ ((slot128 M h14).view.loc (c : Thread nD τ) ↦[(slot128 M h14).view.set]{q} f)) : sProp 𝕄) := by
  unfold owns
  iintro ⟨⟨%f0, %e0, H0⟩, ⟨%f1, %e1, H1⟩⟩
  have hd := slot_disjoint M h0 h1
  ihave H := (pts_join2 (F := F) (ℓ := M.view.loc (c : Thread nD τ)) (A := (slot M 14 0 h0).view.set)
    (B := (slot M 14 64 h1).view.set) (C := (slot128 M h14).view.set) q f0 f1 hd (slot_union M h0 h1 h14)) $$ [H0 H1]
  · isplitl [H0]
    · iexact H0
    · iexact H1
  iexists (Finset.piecewise (s := (slot M 14 64 h1).view.set) f1 f0)
  isplitr
  · ipureintro
    constructor
    · rw [← e0]
      exact View.read_congr fun i hi => Finset.piecewise_eq_of_notMem _ _ _ (Finset.disjoint_left.mp hd hi)
    · rw [← e1]
      exact View.read_congr fun i hi => Finset.piecewise_eq_of_mem _ _ _ hi
  · iexact H

/-- the 128 rows of slot 14 at contents `f` are its two windows at what each reads of `f` -/
theorem split128_at (q : PosShare TreeShare) (f : M.view.ty.Contents (Elt F))
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    ((slot128 M h14).view.loc (c : Thread nD τ) ↦[(slot128 M h14).view.set]{q} f : sProp 𝕄)
      ⊢ iprop(owns (c : Thread nD τ) (slot M 14 0 h0) q ((slot M 14 0 h0).view.read (Elt F) f)
          ∗ owns (c : Thread nD τ) (slot M 14 64 h1) q ((slot M 14 64 h1).view.read (Elt F) f)) := by
  refine (pts_split2 (F := F) (ℓ := M.view.loc (c : Thread nD τ)) (A := (slot M 14 0 h0).view.set)
    (B := (slot M 14 64 h1).view.set) (C := (slot128 M h14).view.set) q f (slot_disjoint M h0 h1) (slot_union M h0 h1 h14)).trans ?_
  exact BI.sep_mono (owns_intro (c : Thread nD τ) (slot M 14 0 h0) q f) (owns_intro (c : Thread nD τ) (slot M 14 64 h1) q f)

/-- the converse of `join128` -/
theorem split128 (q : PosShare TreeShare) (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (iprop(∃ f, ⌜(slot M 14 0 h0).view.read (Elt F) f = V0 ∧ (slot M 14 64 h1).view.read (Elt F) f = V1⌝
          ∗ ((slot128 M h14).view.loc (c : Thread nD τ) ↦[(slot128 M h14).view.set]{q} f)) : sProp 𝕄)
      ⊢ iprop(owns (c : Thread nD τ) (slot M 14 0 h0) q V0 ∗ owns (c : Thread nD τ) (slot M 14 64 h1) q V1) := by
  iintro ⟨%f, %e, H⟩
  obtain ⟨e0, e1⟩ := e
  subst e0 e1
  iapply (split128_at M c q f h0 h1 h14)
  iexact H

/-! ## What the copy leaves in the staged result -/

/-- the clockwise half: the 128 rows stored over the first half of the device's own chunk, as its two 64-row windows -/
theorem own_store_intro_cw (f : M.view.ty.Contents (Elt F)) (fo : Buf (Elt F) (oM.view.loc (c : Thread nD τ)))
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (hf0 : (slot M 14 0 h0).view.read (Elt F) f = V0) (hf1 : (slot M 14 64 h1).view.read (Elt F) f = V1) :
    (own128 true c (View.write (Elt F) (oM.access (Rect.unit (s := S4096x1024) (k0_off5 c) S128x1024.size (k0_off5_inb c))) fo P Finset.univ) : sProp 𝕄)
      ⊢ iprop(owns (c : Thread nD τ) (rows oM (off true c.val 0) (off_inb true _ 0)) fullShare V0
          ∗ owns (c : Thread nD τ) (rows oM (off true c.val 1) (off_inb true _ 1)) fullShare V1) := by
  subst hf0 hf1
  refine (own128_halves true c _).1.trans (BI.sep_mono ?_ ?_)
  · refine (owns_intro (c : Thread nD τ) (rows oM (off true c.val 0) (off_inb true _ 0)) fullShare _).trans (Entails.of_eq ?_)
    exact congrArg (owns (c : Thread nD τ) (rows oM (off true c.val 0) (off_inb true _ 0)) fullShare)
      (copy_value_cw M f fo c 0 h14 P hP h0)
  · refine (owns_intro (c : Thread nD τ) (rows oM (off true c.val 1) (off_inb true _ 1)) fullShare _).trans (Entails.of_eq ?_)
    exact congrArg (owns (c : Thread nD τ) (rows oM (off true c.val 1) (off_inb true _ 1)) fullShare)
      (copy_value_cw M f fo c 1 h14 P hP h1)

/-- the other half: the 128 rows stored over the second half of the device's own chunk -/
theorem own_store_intro_ccw (f : M.view.ty.Contents (Elt F)) (fo : Buf (Elt F) (oM.view.loc (c : Thread nD τ)))
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (hf0 : (slot M 14 0 h0).view.read (Elt F) f = V0) (hf1 : (slot M 14 64 h1).view.read (Elt F) f = V1) :
    (own128 false c (View.write (Elt F) (oM.access (Rect.unit (s := S4096x1024) (k0_off6 c) S128x1024.size (k0_off6_inb c))) fo P Finset.univ) : sProp 𝕄)
      ⊢ iprop(owns (c : Thread nD τ) (rows oM (off false c.val 0) (off_inb false _ 0)) fullShare V0
          ∗ owns (c : Thread nD τ) (rows oM (off false c.val 1) (off_inb false _ 1)) fullShare V1) := by
  subst hf0 hf1
  refine (own128_halves false c _).1.trans (BI.sep_mono ?_ ?_)
  · refine (owns_intro (c : Thread nD τ) (rows oM (off false c.val 0) (off_inb false _ 0)) fullShare _).trans (Entails.of_eq ?_)
    exact congrArg (owns (c : Thread nD τ) (rows oM (off false c.val 0) (off_inb false _ 0)) fullShare)
      (copy_value_ccw M f fo c 0 h14 P hP h0)
  · refine (owns_intro (c : Thread nD τ) (rows oM (off false c.val 1) (off_inb false _ 1)) fullShare _).trans (Entails.of_eq ?_)
    exact congrArg (owns (c : Thread nD τ) (rows oM (off false c.val 1) (off_inb false _ 1)) fullShare)
      (copy_value_ccw M f fo c 1 h14 P hP h1)

end Cert.KernelIdeal.RSAG

end
-- ==== Proof.Body.lean ====
import proofs.«901013_g7700000000001014_dist_rs_then_ag_i_m4096_n1024_v7x_i16_f32_1_alg».proof.Proof.Canon
import proofs.«901013_g7700000000001014_dist_rs_then_ag_i_m4096_n1024_v7x_i16_f32_1_alg».proof.Proof.BodyLib2
import proofs.«901013_g7700000000001014_dist_rs_then_ag_i_m4096_n1024_v7x_i16_f32_1_alg».proof.Proof.LaunchBPeel
import proofs.«901013_g7700000000001014_dist_rs_then_ag_i_m4096_n1024_v7x_i16_f32_1_alg».proof.Proof.LaunchB
import proofs.«901013_g7700000000001014_dist_rs_then_ag_i_m4096_n1024_v7x_i16_f32_1_alg».proof.Proof.Wrap
import proofs.«901013_g7700000000001014_dist_rs_then_ag_i_m4096_n1024_v7x_i16_f32_1_alg».proof.Proof.Finish
import proofs.«901013_g7700000000001014_dist_rs_then_ag_i_m4096_n1024_v7x_i16_f32_1_alg».proof.Proof.LocalStore

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

theorem payload_bar_own_false (c : Dev nD) : (Rd (F := F) X).payload (barCell c) 0 false = iprop(allSlots true (nxt c) ∗ allRows true (nxt c)) := rfl
theorem payload_bar_own_true (c : Dev nD) : (Rd (F := F) X).payload (barCell c) 0 true = iprop(allSlots false (prv c) ∗ allRows false (prv c)) := rfl
theorem payload_bar_prv_false (c : Dev nD) : (Rd (F := F) X).payload (barCell (prv c)) 0 false = iprop(allSlots true c ∗ allRows true c) := by
  rw [payload_bar_own_false, nxt_prv]
theorem payload_bar_nxt_true (c : Dev nD) : (Rd (F := F) X).payload (barCell (nxt c)) 0 true = iprop(allSlots false c ∗ allRows false c) := by
  rw [payload_bar_own_true, prv_nxt]
attribute [local sl_rounds high] payload_bar_prv_false payload_bar_nxt_true
attribute [local sl_rounds] payload_bar_own_false payload_bar_own_true duties_bar amount_bar expect_bar

/-- what the body leaves: both ring buffers back slot by slot and every own semaphore at zero; nothing owed; the staged
    input unchanged and the staged result holding the assembled sums -/
def bodyPost (c : Dev nD) : sProp 𝕄 :=
  iprop(Φ₁ c ∗ (∃ W, owes (c : Thread nD τ) (rem c 122) W) ∗ owns (c : Thread nD τ) xM fullShare (X c) ∗ owns (c : Thread nD τ) oM fullShare (outV X))

set_option maxHeartbeats 0 in
set_option maxRecDepth 100000 in
/-- One device's body, run from the opened ghost state: the barrier handshake; fifteen steps of the reduce-scatter in both
    directions (each: the partial sum lands, the own rows are added, the sum is passed on); the own chunk copied into the
    result; fifteen steps of the all-gather; every send waited. -/
theorem sound_body (c : Dev nD) (K : GSem nD τ sig → ℕ) (W : Waits sig Unit) (Kt : PUnit → sProp 𝕄) :
    iprop(bodyPre X K W c ∗ (bodyPost X c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9) Kt := by
  unfold bodyPre
  iintro ⟨⟨#HIb, #HIbn, #HIbp, #HInvOwn, #HInbCw, #HInbCcw, Hat_b, Hat_rscw_s_0, Hat_rscw_s_1, Hat_rscw_s_2, Hat_rscw_s_3, Hat_rsccw_s_0, Hat_rsccw_s_1, Hat_rsccw_s_2, Hat_rsccw_s_3, Hat_agcw_s_0, Hat_agcw_s_1, Hat_agcw_s_2, Hat_agcw_s_3, Hat_agccw_s_0, Hat_agccw_s_1, Hat_agccw_s_2, Hat_agccw_s_3, Hat_rscw_r_0_0, Hat_rscw_r_0_1, Hat_rscw_r_1_0, Hat_rscw_r_1_1, Hat_rscw_r_2_0, Hat_rscw_r_2_1, Hat_rscw_r_3_0, Hat_rscw_r_3_1, Hat_rscw_r_4_0, Hat_rscw_r_4_1, Hat_rscw_r_5_0, Hat_rscw_r_5_1, Hat_rscw_r_6_0, Hat_rscw_r_6_1, Hat_rscw_r_7_0, Hat_rscw_r_7_1, Hat_rscw_r_8_0, Hat_rscw_r_8_1, Hat_rscw_r_9_0, Hat_rscw_r_9_1, Hat_rscw_r_10_0, Hat_rscw_r_10_1, Hat_rscw_r_11_0, Hat_rscw_r_11_1, Hat_rscw_r_12_0, Hat_rscw_r_12_1, Hat_rscw_r_13_0, Hat_rscw_r_13_1, Hat_rscw_r_14_0, Hat_rscw_r_14_1, Hat_agcw_r_0_0, Hat_agcw_r_0_1, Hat_agcw_r_1_0, Hat_agcw_r_1_1, Hat_agcw_r_2_0, Hat_agcw_r_2_1, Hat_agcw_r_3_0, Hat_agcw_r_3_1, Hat_agcw_r_4_0, Hat_agcw_r_4_1, Hat_agcw_r_5_0, Hat_agcw_r_5_1, Hat_agcw_r_6_0, Hat_agcw_r_6_1, Hat_agcw_r_7_0, Hat_agcw_r_7_1, Hat_agcw_r_8_0, Hat_agcw_r_8_1, Hat_agcw_r_9_0, Hat_agcw_r_9_1, Hat_agcw_r_10_0, Hat_agcw_r_10_1, Hat_agcw_r_11_0, Hat_agcw_r_11_1, Hat_agcw_r_12_0, Hat_agcw_r_12_1, Hat_agcw_r_13_0, Hat_agcw_r_13_1, Hat_agcw_r_14_0, Hat_agcw_r_14_1, Hat_rsccw_r_0_0, Hat_rsccw_r_0_1, Hat_rsccw_r_1_0, Hat_rsccw_r_1_1, Hat_rsccw_r_2_0, Hat_rsccw_r_2_1, Hat_rsccw_r_3_0, Hat_rsccw_r_3_1, Hat_rsccw_r_4_0, Hat_rsccw_r_4_1, Hat_rsccw_r_5_0, Hat_rsccw_r_5_1, Hat_rsccw_r_6_0, Hat_rsccw_r_6_1, Hat_rsccw_r_7_0, Hat_rsccw_r_7_1, Hat_rsccw_r_8_0, Hat_rsccw_r_8_1, Hat_rsccw_r_9_0, Hat_rsccw_r_9_1, Hat_rsccw_r_10_0, Hat_rsccw_r_10_1, Hat_rsccw_r_11_0, Hat_rsccw_r_11_1, Hat_rsccw_r_12_0, Hat_rsccw_r_12_1, Hat_rsccw_r_13_0, Hat_rsccw_r_13_1, Hat_rsccw_r_14_0, Hat_rsccw_r_14_1, Hat_agccw_r_0_0, Hat_agccw_r_0_1, Hat_agccw_r_1_0, Hat_agccw_r_1_1, Hat_agccw_r_2_0, Hat_agccw_r_2_1, Hat_agccw_r_3_0, Hat_agccw_r_3_1, Hat_agccw_r_4_0, Hat_agccw_r_4_1, Hat_agccw_r_5_0, Hat_agccw_r_5_1, Hat_agccw_r_6_0, Hat_agccw_r_6_1, Hat_agccw_r_7_0, Hat_agccw_r_7_1, Hat_agccw_r_8_0, Hat_agccw_r_8_1, Hat_agccw_r_9_0, Hat_agccw_r_9_1, Hat_agccw_r_10_0, Hat_agccw_r_10_1, Hat_agccw_r_11_0, Hat_agccw_r_11_1, Hat_agccw_r_12_0, Hat_agccw_r_12_1, Hat_agccw_r_13_0, Hat_agccw_r_13_1, Hat_agccw_r_14_0, Hat_agccw_r_14_1, #Hr_bn, #Hr_bp, #Hrn_rscw_r_0_0, #Hrn_rscw_r_0_1, #Hrn_rscw_r_1_0, #Hrn_rscw_r_1_1, #Hrn_rscw_r_2_0, #Hrn_rscw_r_2_1, #Hrn_rscw_r_3_0, #Hrn_rscw_r_3_1, #Hrn_rscw_r_4_0, #Hrn_rscw_r_4_1, #Hrn_rscw_r_5_0, #Hrn_rscw_r_5_1, #Hrn_rscw_r_6_0, #Hrn_rscw_r_6_1, #Hrn_rscw_r_7_0, #Hrn_rscw_r_7_1, #Hrn_rscw_r_8_0, #Hrn_rscw_r_8_1, #Hrn_rscw_r_9_0, #Hrn_rscw_r_9_1, #Hrn_rscw_r_10_0, #Hrn_rscw_r_10_1, #Hrn_rscw_r_11_0, #Hrn_rscw_r_11_1, #Hrn_rscw_r_12_0, #Hrn_rscw_r_12_1, #Hrn_rscw_r_13_0, #Hrn_rscw_r_13_1, #Hrn_rscw_r_14_0, #Hrn_rscw_r_14_1, #Hrn_agcw_r_0_0, #Hrn_agcw_r_0_1, #Hrn_agcw_r_1_0, #Hrn_agcw_r_1_1, #Hrn_agcw_r_2_0, #Hrn_agcw_r_2_1, #Hrn_agcw_r_3_0, #Hrn_agcw_r_3_1, #Hrn_agcw_r_4_0, #Hrn_agcw_r_4_1, #Hrn_agcw_r_5_0, #Hrn_agcw_r_5_1, #Hrn_agcw_r_6_0, #Hrn_agcw_r_6_1, #Hrn_agcw_r_7_0, #Hrn_agcw_r_7_1, #Hrn_agcw_r_8_0, #Hrn_agcw_r_8_1, #Hrn_agcw_r_9_0, #Hrn_agcw_r_9_1, #Hrn_agcw_r_10_0, #Hrn_agcw_r_10_1, #Hrn_agcw_r_11_0, #Hrn_agcw_r_11_1, #Hrn_agcw_r_12_0, #Hrn_agcw_r_12_1, #Hrn_agcw_r_13_0, #Hrn_agcw_r_13_1, #Hrn_agcw_r_14_0, #Hrn_agcw_r_14_1, #Hrn_rsccw_r_0_0, #Hrn_rsccw_r_0_1, #Hrn_rsccw_r_1_0, #Hrn_rsccw_r_1_1, #Hrn_rsccw_r_2_0, #Hrn_rsccw_r_2_1, #Hrn_rsccw_r_3_0, #Hrn_rsccw_r_3_1, #Hrn_rsccw_r_4_0, #Hrn_rsccw_r_4_1, #Hrn_rsccw_r_5_0, #Hrn_rsccw_r_5_1, #Hrn_rsccw_r_6_0, #Hrn_rsccw_r_6_1, #Hrn_rsccw_r_7_0, #Hrn_rsccw_r_7_1, #Hrn_rsccw_r_8_0, #Hrn_rsccw_r_8_1, #Hrn_rsccw_r_9_0, #Hrn_rsccw_r_9_1, #Hrn_rsccw_r_10_0, #Hrn_rsccw_r_10_1, #Hrn_rsccw_r_11_0, #Hrn_rsccw_r_11_1, #Hrn_rsccw_r_12_0, #Hrn_rsccw_r_12_1, #Hrn_rsccw_r_13_0, #Hrn_rsccw_r_13_1, #Hrn_rsccw_r_14_0, #Hrn_rsccw_r_14_1, #Hrn_agccw_r_0_0, #Hrn_agccw_r_0_1, #Hrn_agccw_r_1_0, #Hrn_agccw_r_1_1, #Hrn_agccw_r_2_0, #Hrn_agccw_r_2_1, #Hrn_agccw_r_3_0, #Hrn_agccw_r_3_1, #Hrn_agccw_r_4_0, #Hrn_agccw_r_4_1, #Hrn_agccw_r_5_0, #Hrn_agccw_r_5_1, #Hrn_agccw_r_6_0, #Hrn_agccw_r_6_1, #Hrn_agccw_r_7_0, #Hrn_agccw_r_7_1, #Hrn_agccw_r_8_0, #Hrn_agccw_r_8_1, #Hrn_agccw_r_9_0, #Hrn_agccw_r_9_1, #Hrn_agccw_r_10_0, #Hrn_agccw_r_10_1, #Hrn_agccw_r_11_0, #Hrn_agccw_r_11_1, #Hrn_agccw_r_12_0, #Hrn_agccw_r_12_1, #Hrn_agccw_r_13_0, #Hrn_agccw_r_13_1, #Hrn_agccw_r_14_0, #Hrn_agccw_r_14_1, #Hrs_rscw_s_0_0, #Hrs_rscw_s_1_0, #Hrs_rscw_s_2_0, #Hrs_rscw_s_3_0, #Hrs_rsccw_s_0_0, #Hrs_rsccw_s_1_0, #Hrs_rsccw_s_2_0, #Hrs_rsccw_s_3_0, #Hrs_agcw_s_0_0, #Hrs_agcw_s_1_0, #Hrs_agcw_s_2_0, #Hrs_agcw_s_3_0, #Hrs_agccw_s_0_0, #Hrs_agccw_s_1_0, #Hrs_agccw_s_2_0, #Hrs_agccw_s_3_0, Ht_bp, Ht_bn, Htn_rscw_r_0_0, Htn_rscw_r_0_1, Htn_rscw_r_1_0, Htn_rscw_r_1_1, Htn_rscw_r_2_0, Htn_rscw_r_2_1, Htn_rscw_r_3_0, Htn_rscw_r_3_1, Htn_rscw_r_4_0, Htn_rscw_r_4_1, Htn_rscw_r_5_0, Htn_rscw_r_5_1, Htn_rscw_r_6_0, Htn_rscw_r_6_1, Htn_rscw_r_7_0, Htn_rscw_r_7_1, Htn_rscw_r_8_0, Htn_rscw_r_8_1, Htn_rscw_r_9_0, Htn_rscw_r_9_1, Htn_rscw_r_10_0, Htn_rscw_r_10_1, Htn_rscw_r_11_0, Htn_rscw_r_11_1, Htn_rscw_r_12_0, Htn_rscw_r_12_1, Htn_rscw_r_13_0, Htn_rscw_r_13_1, Htn_rscw_r_14_0, Htn_rscw_r_14_1, Htn_agcw_r_0_0, Htn_agcw_r_0_1, Htn_agcw_r_1_0, Htn_agcw_r_1_1, Htn_agcw_r_2_0, Htn_agcw_r_2_1, Htn_agcw_r_3_0, Htn_agcw_r_3_1, Htn_agcw_r_4_0, Htn_agcw_r_4_1, Htn_agcw_r_5_0, Htn_agcw_r_5_1, Htn_agcw_r_6_0, Htn_agcw_r_6_1, Htn_agcw_r_7_0, Htn_agcw_r_7_1, Htn_agcw_r_8_0, Htn_agcw_r_8_1, Htn_agcw_r_9_0, Htn_agcw_r_9_1, Htn_agcw_r_10_0, Htn_agcw_r_10_1, Htn_agcw_r_11_0, Htn_agcw_r_11_1, Htn_agcw_r_12_0, Htn_agcw_r_12_1, Htn_agcw_r_13_0, Htn_agcw_r_13_1, Htn_agcw_r_14_0, Htn_agcw_r_14_1, Htn_rsccw_r_0_0, Htn_rsccw_r_0_1, Htn_rsccw_r_1_0, Htn_rsccw_r_1_1, Htn_rsccw_r_2_0, Htn_rsccw_r_2_1, Htn_rsccw_r_3_0, Htn_rsccw_r_3_1, Htn_rsccw_r_4_0, Htn_rsccw_r_4_1, Htn_rsccw_r_5_0, Htn_rsccw_r_5_1, Htn_rsccw_r_6_0, Htn_rsccw_r_6_1, Htn_rsccw_r_7_0, Htn_rsccw_r_7_1, Htn_rsccw_r_8_0, Htn_rsccw_r_8_1, Htn_rsccw_r_9_0, Htn_rsccw_r_9_1, Htn_rsccw_r_10_0, Htn_rsccw_r_10_1, Htn_rsccw_r_11_0, Htn_rsccw_r_11_1, Htn_rsccw_r_12_0, Htn_rsccw_r_12_1, Htn_rsccw_r_13_0, Htn_rsccw_r_13_1, Htn_rsccw_r_14_0, Htn_rsccw_r_14_1, Htn_agccw_r_0_0, Htn_agccw_r_0_1, Htn_agccw_r_1_0, Htn_agccw_r_1_1, Htn_agccw_r_2_0, Htn_agccw_r_2_1, Htn_agccw_r_3_0, Htn_agccw_r_3_1, Htn_agccw_r_4_0, Htn_agccw_r_4_1, Htn_agccw_r_5_0, Htn_agccw_r_5_1, Htn_agccw_r_6_0, Htn_agccw_r_6_1, Htn_agccw_r_7_0, Htn_agccw_r_7_1, Htn_agccw_r_8_0, Htn_agccw_r_8_1, Htn_agccw_r_9_0, Htn_agccw_r_9_1, Htn_agccw_r_10_0, Htn_agccw_r_10_1, Htn_agccw_r_11_0, Htn_agccw_r_11_1, Htn_agccw_r_12_0, Htn_agccw_r_12_1, Htn_agccw_r_13_0, Htn_agccw_r_13_1, Htn_agccw_r_14_0, Htn_agccw_r_14_1, Hts_rscw_s_0_0, Hts_rscw_s_0_1, Hts_rscw_s_0_2, Hts_rscw_s_0_3, Hts_rscw_s_0_4, Hts_rscw_s_0_5, Hts_rscw_s_0_6, Hts_rscw_s_0_7, Hts_rscw_s_1_0, Hts_rscw_s_1_1, Hts_rscw_s_1_2, Hts_rscw_s_1_3, Hts_rscw_s_1_4, Hts_rscw_s_1_5, Hts_rscw_s_1_6, Hts_rscw_s_1_7, Hts_rscw_s_2_0, Hts_rscw_s_2_1, Hts_rscw_s_2_2, Hts_rscw_s_2_3, Hts_rscw_s_2_4, Hts_rscw_s_2_5, Hts_rscw_s_2_6, Hts_rscw_s_3_0, Hts_rscw_s_3_1, Hts_rscw_s_3_2, Hts_rscw_s_3_3, Hts_rscw_s_3_4, Hts_rscw_s_3_5, Hts_rscw_s_3_6, Hts_rsccw_s_0_0, Hts_rsccw_s_0_1, Hts_rsccw_s_0_2, Hts_rsccw_s_0_3, Hts_rsccw_s_0_4, Hts_rsccw_s_0_5, Hts_rsccw_s_0_6, Hts_rsccw_s_0_7, Hts_rsccw_s_1_0, Hts_rsccw_s_1_1, Hts_rsccw_s_1_2, Hts_rsccw_s_1_3, Hts_rsccw_s_1_4, Hts_rsccw_s_1_5, Hts_rsccw_s_1_6, Hts_rsccw_s_1_7, Hts_rsccw_s_2_0, Hts_rsccw_s_2_1, Hts_rsccw_s_2_2, Hts_rsccw_s_2_3, Hts_rsccw_s_2_4, Hts_rsccw_s_2_5, Hts_rsccw_s_2_6, Hts_rsccw_s_3_0, Hts_rsccw_s_3_1, Hts_rsccw_s_3_2, Hts_rsccw_s_3_3, Hts_rsccw_s_3_4, Hts_rsccw_s_3_5, Hts_rsccw_s_3_6, Hts_agcw_s_0_0, Hts_agcw_s_0_1, Hts_agcw_s_0_2, Hts_agcw_s_0_3, Hts_agcw_s_0_4, Hts_agcw_s_0_5, Hts_agcw_s_0_6, Hts_agcw_s_0_7, Hts_agcw_s_1_0, Hts_agcw_s_1_1, Hts_agcw_s_1_2, Hts_agcw_s_1_3, Hts_agcw_s_1_4, Hts_agcw_s_1_5, Hts_agcw_s_1_6, Hts_agcw_s_1_7, Hts_agcw_s_2_0, Hts_agcw_s_2_1, Hts_agcw_s_2_2, Hts_agcw_s_2_3, Hts_agcw_s_2_4, Hts_agcw_s_2_5, Hts_agcw_s_2_6, Hts_agcw_s_3_0, Hts_agcw_s_3_1, Hts_agcw_s_3_2, Hts_agcw_s_3_3, Hts_agcw_s_3_4, Hts_agcw_s_3_5, Hts_agcw_s_3_6, Hts_agccw_s_0_0, Hts_agccw_s_0_1, Hts_agccw_s_0_2, Hts_agccw_s_0_3, Hts_agccw_s_0_4, Hts_agccw_s_0_5, Hts_agccw_s_0_6, Hts_agccw_s_0_7, Hts_agccw_s_1_0, Hts_agccw_s_1_1, Hts_agccw_s_1_2, Hts_agccw_s_1_3, Hts_agccw_s_1_4, Hts_agccw_s_1_5, Hts_agccw_s_1_6, Hts_agccw_s_1_7, Hts_agccw_s_2_0, Hts_agccw_s_2_1, Hts_agccw_s_2_2, Hts_agccw_s_2_3, Hts_agccw_s_2_4, Hts_agccw_s_2_5, Hts_agccw_s_2_6, Hts_agccw_s_3_0, Hts_agccw_s_3_1, Hts_agccw_s_3_2, Hts_agccw_s_3_3, Hts_agccw_s_3_4, Hts_agccw_s_3_5, Hts_agccw_s_3_6, Hc_b, Hc_rscw_r_0_0, Hc_rscw_r_0_1, Hc_rscw_r_1_0, Hc_rscw_r_1_1, Hc_rscw_r_2_0, Hc_rscw_r_2_1, Hc_rscw_r_3_0, Hc_rscw_r_3_1, Hc_rscw_r_4_0, Hc_rscw_r_4_1, Hc_rscw_r_5_0, Hc_rscw_r_5_1, Hc_rscw_r_6_0, Hc_rscw_r_6_1, Hc_rscw_r_7_0, Hc_rscw_r_7_1, Hc_rscw_r_8_0, Hc_rscw_r_8_1, Hc_rscw_r_9_0, Hc_rscw_r_9_1, Hc_rscw_r_10_0, Hc_rscw_r_10_1, Hc_rscw_r_11_0, Hc_rscw_r_11_1, Hc_rscw_r_12_0, Hc_rscw_r_12_1, Hc_rscw_r_13_0, Hc_rscw_r_13_1, Hc_rscw_r_14_0, Hc_rscw_r_14_1, Hc_agcw_r_0_0, Hc_agcw_r_0_1, Hc_agcw_r_1_0, Hc_agcw_r_1_1, Hc_agcw_r_2_0, Hc_agcw_r_2_1, Hc_agcw_r_3_0, Hc_agcw_r_3_1, Hc_agcw_r_4_0, Hc_agcw_r_4_1, Hc_agcw_r_5_0, Hc_agcw_r_5_1, Hc_agcw_r_6_0, Hc_agcw_r_6_1, Hc_agcw_r_7_0, Hc_agcw_r_7_1, Hc_agcw_r_8_0, Hc_agcw_r_8_1, Hc_agcw_r_9_0, Hc_agcw_r_9_1, Hc_agcw_r_10_0, Hc_agcw_r_10_1, Hc_agcw_r_11_0, Hc_agcw_r_11_1, Hc_agcw_r_12_0, Hc_agcw_r_12_1, Hc_agcw_r_13_0, Hc_agcw_r_13_1, Hc_agcw_r_14_0, Hc_agcw_r_14_1, Hc_rsccw_r_0_0, Hc_rsccw_r_0_1, Hc_rsccw_r_1_0, Hc_rsccw_r_1_1, Hc_rsccw_r_2_0, Hc_rsccw_r_2_1, Hc_rsccw_r_3_0, Hc_rsccw_r_3_1, Hc_rsccw_r_4_0, Hc_rsccw_r_4_1, Hc_rsccw_r_5_0, Hc_rsccw_r_5_1, Hc_rsccw_r_6_0, Hc_rsccw_r_6_1, Hc_rsccw_r_7_0, Hc_rsccw_r_7_1, Hc_rsccw_r_8_0, Hc_rsccw_r_8_1, Hc_rsccw_r_9_0, Hc_rsccw_r_9_1, Hc_rsccw_r_10_0, Hc_rsccw_r_10_1, Hc_rsccw_r_11_0, Hc_rsccw_r_11_1, Hc_rsccw_r_12_0, Hc_rsccw_r_12_1, Hc_rsccw_r_13_0, Hc_rsccw_r_13_1, Hc_rsccw_r_14_0, Hc_rsccw_r_14_1, Hc_agccw_r_0_0, Hc_agccw_r_0_1, Hc_agccw_r_1_0, Hc_agccw_r_1_1, Hc_agccw_r_2_0, Hc_agccw_r_2_1, Hc_agccw_r_3_0, Hc_agccw_r_3_1, Hc_agccw_r_4_0, Hc_agccw_r_4_1, Hc_agccw_r_5_0, Hc_agccw_r_5_1, Hc_agccw_r_6_0, Hc_agccw_r_6_1, Hc_agccw_r_7_0, Hc_agccw_r_7_1, Hc_agccw_r_8_0, Hc_agccw_r_8_1, Hc_agccw_r_9_0, Hc_agccw_r_9_1, Hc_agccw_r_10_0, Hc_agccw_r_10_1, Hc_agccw_r_11_0, Hc_agccw_r_11_1, Hc_agccw_r_12_0, Hc_agccw_r_12_1, Hc_agccw_r_13_0, Hc_agccw_r_13_1, Hc_agccw_r_14_0, Hc_agccw_r_14_1, #Hlev, Hsl_cw, Hsl_ccw, HO, HxL, Hx_cw0, Hx_cw1, Hx_ccw0, Hx_ccw1, HxRest, Har_cw, Har_ccw, Hown_cw, Hown_ccw⟩, Hk⟩
  have hmwb := mayWait_bar (F := F) c
  unfold cc0_body
  sl_exec_parts
  ihave Hp := (Entails.of_eq (bar_rest X c)) $$ Hat_b_pay1
  icases Hp with ⟨⟨Hds_cw, Hdr_cw⟩, ⟨Hds_ccw, Hdr_ccw⟩⟩
  ihave H := (Entails.of_eq (allSlots_list_cw (F := F) (nxt c))) $$ Hds_cw
  icases H with ⟨Hd_rscw_r_0_0, Hd_rscw_r_0_1, Hd_rscw_r_1_0, Hd_rscw_r_1_1, Hd_rscw_r_2_0, Hd_rscw_r_2_1, Hd_rscw_r_3_0, Hd_rscw_r_3_1, Hd_rscw_r_4_0, Hd_rscw_r_4_1, Hd_rscw_r_5_0, Hd_rscw_r_5_1, Hd_rscw_r_6_0, Hd_rscw_r_6_1, Hd_rscw_r_7_0, Hd_rscw_r_7_1, Hd_rscw_r_8_0, Hd_rscw_r_8_1, Hd_rscw_r_9_0, Hd_rscw_r_9_1, Hd_rscw_r_10_0, Hd_rscw_r_10_1, Hd_rscw_r_11_0, Hd_rscw_r_11_1, Hd_rscw_r_12_0, Hd_rscw_r_12_1, Hd_rscw_r_13_0, Hd_rscw_r_13_1, Hd_rscw_r_14_0, Hd_rscw_r_14_1⟩
  ihave H := (Entails.of_eq (allRows_list_nxt (F := F) c)) $$ Hdr_cw
  icases H with ⟨Hd_agcw_r_0_0, Hd_agcw_r_0_1, Hd_agcw_r_1_0, Hd_agcw_r_1_1, Hd_agcw_r_2_0, Hd_agcw_r_2_1, Hd_agcw_r_3_0, Hd_agcw_r_3_1, Hd_agcw_r_4_0, Hd_agcw_r_4_1, Hd_agcw_r_5_0, Hd_agcw_r_5_1, Hd_agcw_r_6_0, Hd_agcw_r_6_1, Hd_agcw_r_7_0, Hd_agcw_r_7_1, Hd_agcw_r_8_0, Hd_agcw_r_8_1, Hd_agcw_r_9_0, Hd_agcw_r_9_1, Hd_agcw_r_10_0, Hd_agcw_r_10_1, Hd_agcw_r_11_0, Hd_agcw_r_11_1, Hd_agcw_r_12_0, Hd_agcw_r_12_1, Hd_agcw_r_13_0, Hd_agcw_r_13_1, Hd_agcw_r_14_0, Hd_agcw_r_14_1⟩
  ihave H := (Entails.of_eq (allSlots_list_ccw (F := F) (prv c))) $$ Hds_ccw
  icases H with ⟨Hd_rsccw_r_0_0, Hd_rsccw_r_0_1, Hd_rsccw_r_1_0, Hd_rsccw_r_1_1, Hd_rsccw_r_2_0, Hd_rsccw_r_2_1, Hd_rsccw_r_3_0, Hd_rsccw_r_3_1, Hd_rsccw_r_4_0, Hd_rsccw_r_4_1, Hd_rsccw_r_5_0, Hd_rsccw_r_5_1, Hd_rsccw_r_6_0, Hd_rsccw_r_6_1, Hd_rsccw_r_7_0, Hd_rsccw_r_7_1, Hd_rsccw_r_8_0, Hd_rsccw_r_8_1, Hd_rsccw_r_9_0, Hd_rsccw_r_9_1, Hd_rsccw_r_10_0, Hd_rsccw_r_10_1, Hd_rsccw_r_11_0, Hd_rsccw_r_11_1, Hd_rsccw_r_12_0, Hd_rsccw_r_12_1, Hd_rsccw_r_13_0, Hd_rsccw_r_13_1, Hd_rsccw_r_14_0, Hd_rsccw_r_14_1⟩
  ihave H := (Entails.of_eq (allRows_list_prv (F := F) c)) $$ Hdr_ccw
  icases H with ⟨Hd_agccw_r_0_0, Hd_agccw_r_0_1, Hd_agccw_r_1_0, Hd_agccw_r_1_1, Hd_agccw_r_2_0, Hd_agccw_r_2_1, Hd_agccw_r_3_0, Hd_agccw_r_3_1, Hd_agccw_r_4_0, Hd_agccw_r_4_1, Hd_agccw_r_5_0, Hd_agccw_r_5_1, Hd_agccw_r_6_0, Hd_agccw_r_6_1, Hd_agccw_r_7_0, Hd_agccw_r_7_1, Hd_agccw_r_8_0, Hd_agccw_r_8_1, Hd_agccw_r_9_0, Hd_agccw_r_9_1, Hd_agccw_r_10_0, Hd_agccw_r_10_1, Hd_agccw_r_11_0, Hd_agccw_r_11_1, Hd_agccw_r_12_0, Hd_agccw_r_12_1, Hd_agccw_r_13_0, Hd_agccw_r_13_1, Hd_agccw_r_14_0, Hd_agccw_r_14_1⟩
  -- send rs cw t=0 b=0 (payment 2, device function 3)
  try sl_exec_parts
  ihave HO := (owes_congr (rem_peel_2 c)) $$ HO
  ihave #HIo := (bigSepL_elim_idx ownQs _ 0 (by decide)) $$ HInvOwn
  ihave #HIt := (bigSepL_elim_idx recvCw _ 0 (by decide)) $$ HInbCw
  iapply (@send_pts_at F _ X c (nxt c) ⟨k0_dev3 c, k0_dev3_lt c⟩ (dev3_eq c _) (rows xM (off true (c.val + 15) 0) (off_inb true _ 0)) (slot aM 0 0 inb_S15x128x1024_S1x64x1024_0_0_0) _ (qS cc0_scratch2 0 inb_S4_S1_0) (qR cc0_scratch3 0 0 inb_S15x2_S1x1_0_0) _ _ _ _ _ _ fullShare.right (X c) 0 (K (dcell c (qS cc0_scratch2 0 inb_S4_S1_0))) (K (dcell (nxt c) (qR cc0_scratch3 0 0 inb_S15x2_S1x1_0_0))) _ (rem c 3) _ (by rw [duties_rscw_s_0_0 X c]; exact Finset.mem_singleton_self _) (by rw [duties_rscw_r_0_0 X (nxt c)]; exact Finset.mem_singleton_self _) (by exact amount_rscw_s_0_0 X c false) (by exact amount_rscw_r_0_0 X (nxt c) false) (by rfl) (by exact payload_rscw_s_0_0 X c false) (by exact hp2_rscw_r_0_0 X c) (by rfl) (by routes)) $$ [Hx_cw0 Hd_rscw_r_0_0 HO Hts_rscw_s_0_0 Htn_rscw_r_0_0]
  · isplitr; · iexact HIo
    isplitr; · iexact HIt
    isplitl [Hx_cw0]; · iexact Hx_cw0
    isplitl [Hd_rscw_r_0_0]; · iexact Hd_rscw_r_0_0
    isplitl [HO]; · iexact HO
    isplitl [Hts_rscw_s_0_0]; · iexact Hts_rscw_s_0_0
    isplitr; · iexact Hrs_rscw_s_0_0
    isplitl [Htn_rscw_r_0_0]; · iexact Htn_rscw_r_0_0
    iexact Hrn_rscw_r_0_0
  iintro ⟨Hcs_rscw_s_0_0, HO⟩
  iclear HIo HIt
  -- send rs cw t=0 b=1 (payment 3, device function 4)
  try sl_exec_parts
  ihave HO := (owes_congr (rem_peel_3 c)) $$ HO
  ihave #HIo := (bigSepL_elim_idx ownQs _ 1 (by decide)) $$ HInvOwn
  ihave #HIt := (bigSepL_elim_idx recvCw _ 1 (by decide)) $$ HInbCw
  iapply (@send_pts_at F _ X c (nxt c) ⟨k0_dev4 c, k0_dev4_lt c⟩ (dev4_eq c _) (rows xM (off true (c.val + 15) 1) (off_inb true _ 1)) (slot aM 0 64 inb_S15x128x1024_S1x64x1024_0_64_0) _ (qS cc0_scratch2 1 inb_S4_S1_1) (qR cc0_scratch3 0 1 inb_S15x2_S1x1_0_1) _ _ _ _ _ _ fullShare.right (X c) 0 (K (dcell c (qS cc0_scratch2 1 inb_S4_S1_1))) (K (dcell (nxt c) (qR cc0_scratch3 0 1 inb_S15x2_S1x1_0_1))) _ (rem c 4) _ (by rw [duties_rscw_s_1_0 X c]; exact Finset.mem_singleton_self _) (by rw [duties_rscw_r_0_1 X (nxt c)]; exact Finset.mem_singleton_self _) (by exact amount_rscw_s_1_0 X c false) (by exact amount_rscw_r_0_1 X (nxt c) false) (by rfl) (by exact payload_rscw_s_1_0 X c false) (by exact hp2_rscw_r_0_1 X c) (by rfl) (by routes)) $$ [Hx_cw1 Hd_rscw_r_0_1 HO Hts_rscw_s_1_0 Htn_rscw_r_0_1]
  · isplitr; · iexact HIo
    isplitr; · iexact HIt
    isplitl [Hx_cw1]; · iexact Hx_cw1
    isplitl [Hd_rscw_r_0_1]; · iexact Hd_rscw_r_0_1
    isplitl [HO]; · iexact HO
    isplitl [Hts_rscw_s_1_0]; · iexact Hts_rscw_s_1_0
    isplitr; · iexact Hrs_rscw_s_1_0
    isplitl [Htn_rscw_r_0_1]; · iexact Htn_rscw_r_0_1
    iexact Hrn_rscw_r_0_1
  iintro ⟨Hcs_rscw_s_1_0, HO⟩
  iclear HIo HIt
  -- send rs ccw t=0 b=0 (payment 4, device function 5)
  try sl_exec_parts
  ihave HO := (owes_congr (rem_peel_4 c)) $$ HO
  ihave #HIo := (bigSepL_elim_idx ownQs _ 4 (by decide)) $$ HInvOwn
  ihave #HIt := (bigSepL_elim_idx recvCcw _ 0 (by decide)) $$ HInbCcw
  iapply (@send_pts_at F _ X c (prv c) ⟨k0_dev5 c, k0_dev5_lt c⟩ (dev5_eq c _) (rows xM (off false (c.val + 1) 0) (off_inb false _ 0)) (slot bM 0 0 inb_S15x128x1024_S1x64x1024_0_0_0) _ (qS cc0_scratch4 0 inb_S4_S1_0) (qR cc0_scratch5 0 0 inb_S15x2_S1x1_0_0) _ _ _ _ _ _ fullShare.right (X c) 0 (K (dcell c (qS cc0_scratch4 0 inb_S4_S1_0))) (K (dcell (prv c) (qR cc0_scratch5 0 0 inb_S15x2_S1x1_0_0))) _ (rem c 5) _ (by rw [duties_rsccw_s_0_0 X c]; exact Finset.mem_singleton_self _) (by rw [duties_rsccw_r_0_0 X (prv c)]; exact Finset.mem_singleton_self _) (by exact amount_rsccw_s_0_0 X c false) (by exact amount_rsccw_r_0_0 X (prv c) false) (by rfl) (by exact payload_rsccw_s_0_0 X c false) (by exact hp2_rsccw_r_0_0 X c) (by rfl) (by routes)) $$ [Hx_ccw0 Hd_rsccw_r_0_0 HO Hts_rsccw_s_0_0 Htn_rsccw_r_0_0]
  · isplitr; · iexact HIo
    isplitr; · iexact HIt
    isplitl [Hx_ccw0]; · iexact Hx_ccw0
    isplitl [Hd_rsccw_r_0_0]; · iexact Hd_rsccw_r_0_0
    isplitl [HO]; · iexact HO
    isplitl [Hts_rsccw_s_0_0]; · iexact Hts_rsccw_s_0_0
    isplitr; · iexact Hrs_rsccw_s_0_0
    isplitl [Htn_rsccw_r_0_0]; · iexact Htn_rsccw_r_0_0
    iexact Hrn_rsccw_r_0_0
  iintro ⟨Hcs_rsccw_s_0_0, HO⟩
  iclear HIo HIt
  -- send rs ccw t=0 b=1 (payment 5, device function 6)
  try sl_exec_parts
  ihave HO := (owes_congr (rem_peel_5 c)) $$ HO
  ihave #HIo := (bigSepL_elim_idx ownQs _ 5 (by decide)) $$ HInvOwn
  ihave #HIt := (bigSepL_elim_idx recvCcw _ 1 (by decide)) $$ HInbCcw
  iapply (@send_pts_at F _ X c (prv c) ⟨k0_dev6 c, k0_dev6_lt c⟩ (dev6_eq c _) (rows xM (off false (c.val + 1) 1) (off_inb false _ 1)) (slot bM 0 64 inb_S15x128x1024_S1x64x1024_0_64_0) _ (qS cc0_scratch4 1 inb_S4_S1_1) (qR cc0_scratch5 0 1 inb_S15x2_S1x1_0_1) _ _ _ _ _ _ fullShare.right (X c) 0 (K (dcell c (qS cc0_scratch4 1 inb_S4_S1_1))) (K (dcell (prv c) (qR cc0_scratch5 0 1 inb_S15x2_S1x1_0_1))) _ (rem c 6) _ (by rw [duties_rsccw_s_1_0 X c]; exact Finset.mem_singleton_self _) (by rw [duties_rsccw_r_0_1 X (prv c)]; exact Finset.mem_singleton_self _) (by exact amount_rsccw_s_1_0 X c false) (by exact amount_rsccw_r_0_1 X (prv c) false) (by rfl) (by exact payload_rsccw_s_1_0 X c false) (by exact hp2_rsccw_r_0_1 X c) (by rfl) (by routes)) $$ [Hx_ccw1 Hd_rsccw_r_0_1 HO Hts_rsccw_s_1_0 Htn_rsccw_r_0_1]
  · isplitr; · iexact HIo
    isplitr; · iexact HIt
    isplitl [Hx_ccw1]; · iexact Hx_ccw1
    isplitl [Hd_rsccw_r_0_1]; · iexact Hd_rsccw_r_0_1
    isplitl [HO]; · iexact HO
    isplitl [Hts_rsccw_s_1_0]; · iexact Hts_rsccw_s_1_0
    isplitr; · iexact Hrs_rsccw_s_1_0
    isplitl [Htn_rsccw_r_0_1]; · iexact Htn_rsccw_r_0_1
    iexact Hrn_rsccw_r_0_1
  iintro ⟨Hcs_rsccw_s_1_0, HO⟩
  iclear HIo HIt
  -- wait recv rs cw t=0 b=0
  try sl_exec_parts
  ihave #HIo := (bigSepL_elim_idx ownQs _ 16 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 6) (W := _) (R := 0) (m := 0) (T := ∅)
      (by rw [Nat.zero_add, expect_rscw_r_0_0 X c])) $$ [Hc_rscw_r_0_0 HO Hat_rscw_r_0_0]
  · isplitr; · iexact HIo
    isplitl [Hc_rscw_r_0_0]; · iexact Hc_rscw_r_0_0
    isplitl [HO]; · iexact HO
    isplitr; · iapply (mayWait_rem (F := F) c 6 (by decide) _ (by show (4 : ℕ) < 2 + 6; decide)); iexact Hlev
    iexact Hat_rscw_r_0_0
  iintro ⟨HO, Hat_rscw_r_0_0, #Hrch_rscw_r_0_0_1, Hpay⟩
  iclear HIo
  ihave Hp := (Entails.of_eq (rest_single X _ _ _ (duties_rscw_r_0_0 X c) (payload_rscw_r_0_0 X c false))) $$ Hpay
  ihave Hq := (owns_elim _ _ _) $$ Hp
  icases Hq with ⟨%f_rscw_r_0_0, %hf_rscw_r_0_0, Hs_rscw_r_0_0⟩
  -- add cw s=0 b=0: the loads and the store run by themselves (within the next run)
  -- send rs cw t=1 b=0 (payment 6, device function 7)
  try sl_exec_parts
  ihave HO := (owes_congr (rem_peel_6 c)) $$ HO
  ihave #HIo := (bigSepL_elim_idx ownQs _ 2 (by decide)) $$ HInvOwn
  ihave #HIt := (bigSepL_elim_idx recvCw _ 2 (by decide)) $$ HInbCw
  iapply (@send_owns_at F _ X c (nxt c) ⟨k0_dev7 c, k0_dev7_lt c⟩ (dev7_eq c _) (slot aM 0 0 inb_S15x128x1024_S1x64x1024_0_0_0) (slot aM 1 0 inb_S15x128x1024_S1x64x1024_1_0_0) _ (qS cc0_scratch2 2 inb_S4_S1_2) (qR cc0_scratch3 1 0 inb_S15x2_S1x1_1_0) _ _ _ _ _ _ fullShare (addV X true 0 0 c) 0 (K (dcell c (qS cc0_scratch2 2 inb_S4_S1_2))) (K (dcell (nxt c) (qR cc0_scratch3 1 0 inb_S15x2_S1x1_1_0))) _ (rem c 7) _ (by rw [duties_rscw_s_2_0 X c]; exact Finset.mem_singleton_self _) (by rw [duties_rscw_r_1_0 X (nxt c)]; exact Finset.mem_singleton_self _) (by exact amount_rscw_s_2_0 X c false) (by exact amount_rscw_r_1_0 X (nxt c) false) (by rfl) (by exact payload_rscw_s_2_0 X c false) (by exact hp2_rscw_r_1_0 X c) (by rfl) (by routes)) $$ [Hs_rscw_r_0_0 Hd_rscw_r_1_0 HO Hts_rscw_s_2_0 Htn_rscw_r_1_0]
  · isplitr; · iexact HIo
    isplitr; · iexact HIt
    isplitl [Hs_rscw_r_0_0]; · iapply (owns_intro_add X true 0 0 0 c 14 aM _ f_rscw_r_0_0 _ _ _ rfl (off3_m2_0 c) hf_rscw_r_0_0 (addV_eq_cw_0_0 X c)); iexact Hs_rscw_r_0_0
    isplitl [Hd_rscw_r_1_0]; · iexact Hd_rscw_r_1_0
    isplitl [HO]; · iexact HO
    isplitl [Hts_rscw_s_2_0]; · iexact Hts_rscw_s_2_0
    isplitr; · iexact Hrs_rscw_s_2_0
    isplitl [Htn_rscw_r_1_0]; · iexact Htn_rscw_r_1_0
    iexact Hrn_rscw_r_1_0
  iintro ⟨Hcs_rscw_s_2_0, HO⟩
  iclear HIo HIt
  -- wait recv rs ccw t=0 b=0
  try sl_exec_parts
  ihave #HIo := (bigSepL_elim_idx ownQs _ 76 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 7) (W := _) (R := 0) (m := 0) (T := ∅)
      (by rw [Nat.zero_add, expect_rsccw_r_0_0 X c])) $$ [Hc_rsccw_r_0_0 HO Hat_rsccw_r_0_0]
  · isplitr; · iexact HIo
    isplitl [Hc_rsccw_r_0_0]; · iexact Hc_rsccw_r_0_0
    isplitl [HO]; · iexact HO
    isplitr; · iapply (mayWait_rem (F := F) c 7 (by decide) _ (by show (6 : ℕ) < 2 + 7; decide)); iexact Hlev
    iexact Hat_rsccw_r_0_0
  iintro ⟨HO, Hat_rsccw_r_0_0, #Hrch_rsccw_r_0_0_1, Hpay⟩
  iclear HIo
  ihave Hp := (Entails.of_eq (rest_single X _ _ _ (duties_rsccw_r_0_0 X c) (payload_rsccw_r_0_0 X c false))) $$ Hpay
  ihave Hq := (owns_elim _ _ _) $$ Hp
  icases Hq with ⟨%f_rsccw_r_0_0, %hf_rsccw_r_0_0, Hs_rsccw_r_0_0⟩
  -- add ccw s=0 b=0: the loads and the store run by themselves (within the next run)
  -- send rs ccw t=1 b=0 (payment 7, device function 8)
  try sl_exec_parts
  ihave HO := (owes_congr (rem_peel_7 c)) $$ HO
  ihave #HIo := (bigSepL_elim_idx ownQs _ 6 (by decide)) $$ HInvOwn
  ihave #HIt := (bigSepL_elim_idx recvCcw _ 2 (by decide)) $$ HInbCcw
  iapply (@send_owns_at F _ X c (prv c) ⟨k0_dev8 c, k0_dev8_lt c⟩ (dev8_eq c _) (slot bM 0 0 inb_S15x128x1024_S1x64x1024_0_0_0) (slot bM 1 0 inb_S15x128x1024_S1x64x1024_1_0_0) _ (qS cc0_scratch4 2 inb_S4_S1_2) (qR cc0_scratch5 1 0 inb_S15x2_S1x1_1_0) _ _ _ _ _ _ fullShare (addV X false 0 0 c) 0 (K (dcell c (qS cc0_scratch4 2 inb_S4_S1_2))) (K (dcell (prv c) (qR cc0_scratch5 1 0 inb_S15x2_S1x1_1_0))) _ (rem c 8) _ (by rw [duties_rsccw_s_2_0 X c]; exact Finset.mem_singleton_self _) (by rw [duties_rsccw_r_1_0 X (prv c)]; exact Finset.mem_singleton_self _) (by exact amount_rsccw_s_2_0 X c false) (by exact amount_rsccw_r_1_0 X (prv c) false) (by rfl) (by exact payload_rsccw_s_2_0 X c false) (by exact hp2_rsccw_r_1_0 X c) (by rfl) (by routes)) $$ [Hs_rsccw_r_0_0 Hd_rsccw_r_1_0 HO Hts_rsccw_s_2_0 Htn_rsccw_r_1_0]
  · isplitr; · iexact HIo
    isplitr; · iexact HIt
    isplitl [Hs_rsccw_r_0_0]; · iapply (owns_intro_add X false 0 0 0 c 2 bM _ f_rsccw_r_0_0 _ _ _ rfl (off4_2_0 c) hf_rsccw_r_0_0 (addV_eq_ccw_0_0 X c)); iexact Hs_rsccw_r_0_0
    isplitl [Hd_rsccw_r_1_0]; · iexact Hd_rsccw_r_1_0
    isplitl [HO]; · iexact HO
    isplitl [Hts_rsccw_s_2_0]; · iexact Hts_rsccw_s_2_0
    isplitr; · iexact Hrs_rsccw_s_2_0
    isplitl [Htn_rsccw_r_1_0]; · iexact Htn_rsccw_r_1_0
    iexact Hrn_rsccw_r_1_0
  iintro ⟨Hcs_rsccw_s_2_0, HO⟩
  iclear HIo HIt
  -- wait recv rs cw t=0 b=1
  try sl_exec_parts
  ihave #HIo := (bigSepL_elim_idx ownQs _ 17 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 8) (W := _) (R := 0) (m := 0) (T := ∅)
      (by rw [Nat.zero_add, expect_rscw_r_0_1 X c])) $$ [Hc_rscw_r_0_1 HO Hat_rscw_r_0_1]
  · isplitr; · iexact HIo
    isplitl [Hc_rscw_r_0_1]; · iexact Hc_rscw_r_0_1
    isplitl [HO]; · iexact HO
    isplitr; · iapply (mayWait_rem (F := F) c 8 (by decide) _ (by show (5 : ℕ) < 2 + 8; decide)); iexact Hlev
    iexact Hat_rscw_r_0_1
  iintro ⟨HO, Hat_rscw_r_0_1, #Hrch_rscw_r_0_1_1, Hpay⟩
  iclear HIo
  ihave Hp := (Entails.of_eq (rest_single X _ _ _ (duties_rscw_r_0_1 X c) (payload_rscw_r_0_1 X c false))) $$ Hpay
  ihave Hq := (owns_elim _ _ _) $$ Hp
  icases Hq with ⟨%f_rscw_r_0_1, %hf_rscw_r_0_1, Hs_rscw_r_0_1⟩
  -- add cw s=0 b=1: the loads and the store run by themselves (within the next run)
  -- send rs cw t=1 b=1 (payment 8, device function 9)
  try sl_exec_parts
  ihave HO := (owes_congr (rem_peel_8 c)) $$ HO
  ihave #HIo := (bigSepL_elim_idx ownQs _ 3 (by decide)) $$ HInvOwn
  ihave #HIt := (bigSepL_elim_idx recvCw _ 3 (by decide)) $$ HInbCw
  iapply (@send_owns_at F _ X c (nxt c) ⟨k0_dev9 c, k0_dev9_lt c⟩ (dev9_eq c _) (slot aM 0 64 inb_S15x128x1024_S1x64x1024_0_64_0) (slot aM 1 64 inb_S15x128x1024_S1x64x1024_1_64_0) _ (qS cc0_scratch2 3 inb_S4_S1_3) (qR cc0_scratch3 1 1 inb_S15x2_S1x1_1_1) _ _ _ _ _ _ fullShare (addV X true 1 0 c) 0 (K (dcell c (qS cc0_scratch2 3 inb_S4_S1_3))) (K (dcell (nxt c) (qR cc0_scratch3 1 1 inb_S15x2_S1x1_1_1))) _ (rem c 9) _ (by rw [duties_rscw_s_3_0 X c]; exact Finset.mem_singleton_self _) (by rw [duties_rscw_r_1_1 X (nxt c)]; exact Finset.mem_singleton_self _) (by exact amount_rscw_s_3_0 X c false) (by exact amount_rscw_r_1_1 X (nxt c) false) (by rfl) (by exact payload_rscw_s_3_0 X c false) (by exact hp2_rscw_r_1_1 X c) (by rfl) (by routes)) $$ [Hs_rscw_r_0_1 Hd_rscw_r_1_1 HO Hts_rscw_s_3_0 Htn_rscw_r_1_1]
  · isplitr; · iexact HIo
    isplitr; · iexact HIt
    isplitl [Hs_rscw_r_0_1]; · iapply (owns_intro_add X true 0 64 1 c 14 aM _ f_rscw_r_0_1 _ _ _ rfl (off3_m2_64 c) hf_rscw_r_0_1 (addV_eq_cw_0_1 X c)); iexact Hs_rscw_r_0_1
    isplitl [Hd_rscw_r_1_1]; · iexact Hd_rscw_r_1_1
    isplitl [HO]; · iexact HO
    isplitl [Hts_rscw_s_3_0]; · iexact Hts_rscw_s_3_0
    isplitr; · iexact Hrs_rscw_s_3_0
    isplitl [Htn_rscw_r_1_1]; · iexact Htn_rscw_r_1_1
    iexact Hrn_rscw_r_1_1
  iintro ⟨Hcs_rscw_s_3_0, HO⟩
  iclear HIo HIt
  -- wait recv rs ccw t=0 b=1
  try sl_exec_parts
  ihave #HIo := (bigSepL_elim_idx ownQs _ 77 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 9) (W := _) (R := 0) (m := 0) (T := ∅)
      (by rw [Nat.zero_add, expect_rsccw_r_0_1 X c])) $$ [Hc_rsccw_r_0_1 HO Hat_rsccw_r_0_1]
  · isplitr; · iexact HIo
    isplitl [Hc_rsccw_r_0_1]; · iexact Hc_rsccw_r_0_1
    isplitl [HO]; · iexact HO
    isplitr; · iapply (mayWait_rem (F := F) c 9 (by decide) _ (by show (7 : ℕ) < 2 + 9; decide)); iexact Hlev
    iexact Hat_rsccw_r_0_1
  iintro ⟨HO, Hat_rsccw_r_0_1, #Hrch_rsccw_r_0_1_1, Hpay⟩
  iclear HIo
  ihave Hp := (Entails.of_eq (rest_single X _ _ _ (duties_rsccw_r_0_1 X c) (payload_rsccw_r_0_1 X c false))) $$ Hpay
  ihave Hq := (owns_elim _ _ _) $$ Hp
  icases Hq with ⟨%f_rsccw_r_0_1, %hf_rsccw_r_0_1, Hs_rsccw_r_0_1⟩
  -- add ccw s=0 b=1: the loads and the store run by themselves (within the next run)
  -- send rs ccw t=1 b=1 (payment 9, device function 10)
  try sl_exec_parts
  ihave HO := (owes_congr (rem_peel_9 c)) $$ HO
  ihave #HIo := (bigSepL_elim_idx ownQs _ 7 (by decide)) $$ HInvOwn
  ihave #HIt := (bigSepL_elim_idx recvCcw _ 3 (by decide)) $$ HInbCcw
  iapply (@send_owns_at F _ X c (prv c) ⟨k0_dev10 c, k0_dev10_lt c⟩ (dev10_eq c _) (slot bM 0 64 inb_S15x128x1024_S1x64x1024_0_64_0) (slot bM 1 64 inb_S15x128x1024_S1x64x1024_1_64_0) _ (qS cc0_scratch4 3 inb_S4_S1_3) (qR cc0_scratch5 1 1 inb_S15x2_S1x1_1_1) _ _ _ _ _ _ fullShare (addV X false 1 0 c) 0 (K (dcell c (qS cc0_scratch4 3 inb_S4_S1_3))) (K (dcell (prv c) (qR cc0_scratch5 1 1 inb_S15x2_S1x1_1_1))) _ (rem c 10) _ (by rw [duties_rsccw_s_3_0 X c]; exact Finset.mem_singleton_self _) (by rw [duties_rsccw_r_1_1 X (prv c)]; exact Finset.mem_singleton_self _) (by exact amount_rsccw_s_3_0 X c false) (by exact amount_rsccw_r_1_1 X (prv c) false) (by rfl) (by exact payload_rsccw_s_3_0 X c false) (by exact hp2_rsccw_r_1_1 X c) (by rfl) (by routes)) $$ [Hs_rsccw_r_0_1 Hd_rsccw_r_1_1 HO Hts_rsccw_s_3_0 Htn_rsccw_r_1_1]
  · isplitr; · iexact HIo
    isplitr; · iexact HIt
    isplitl [Hs_rsccw_r_0_1]; · iapply (owns_intro_add X false 0 64 1 c 2 bM _ f_rsccw_r_0_1 _ _ _ rfl (off4_2_64 c) hf_rsccw_r_0_1 (addV_eq_ccw_0_1 X c)); iexact Hs_rsccw_r_0_1
    isplitl [Hd_rsccw_r_1_1]; · iexact Hd_rsccw_r_1_1
    isplitl [HO]; · iexact HO
    isplitl [Hts_rsccw_s_3_0]; · iexact Hts_rsccw_s_3_0
    isplitr; · iexact Hrs_rsccw_s_3_0
    isplitl [Htn_rsccw_r_1_1]; · iexact Htn_rsccw_r_1_1
    iexact Hrn_rsccw_r_1_1
  iintro ⟨Hcs_rsccw_s_3_0, HO⟩
  iclear HIo HIt
  -- wait recv rs cw t=1 b=0
  try sl_exec_parts
  ihave #HIo := (bigSepL_elim_idx ownQs _ 18 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 10) (W := _) (R := 0) (m := 0) (T := ∅)
      (by rw [Nat.zero_add, expect_rscw_r_1_0 X c])) $$ [Hc_rscw_r_1_0 HO Hat_rscw_r_1_0]
  · isplitr; · iexact HIo
    isplitl [Hc_rscw_r_1_0]; · iexact Hc_rscw_r_1_0
    isplitl [HO]; · iexact HO
    isplitr; · iapply (mayWait_rem (F := F) c 10 (by decide) _ (by show (8 : ℕ) < 2 + 10; decide)); iexact Hlev
    iexact Hat_rscw_r_1_0
  iintro ⟨HO, Hat_rscw_r_1_0, #Hrch_rscw_r_1_0_1, Hpay⟩
  iclear HIo
  ihave Hp := (Entails.of_eq (rest_single X _ _ _ (duties_rscw_r_1_0 X c) (payload_rscw_r_1_0 X c false))) $$ Hpay
  ihave Hq := (owns_elim _ _ _) $$ Hp
  icases Hq with ⟨%f_rscw_r_1_0, %hf_rscw_r_1_0, Hs_rscw_r_1_0⟩
  -- add cw s=1 b=0: the loads and the store run by themselves (within the next run)
  -- wait send rs cw t=0 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 10) (W := _) (R := 0) (m := 0) (T := ∅)
      (by rw [Nat.zero_add, expect_rscw_s_0_0 X c])) $$ [Hcs_rscw_s_0_0 HO Hat_rscw_s_0]
  · isplitr; · iexact HIo
    isplitl [Hcs_rscw_s_0_0]; · iexact Hcs_rscw_s_0_0
    isplitl [HO]; · iexact HO
    isplitr; · iapply (mayWait_rem (F := F) c 10 (by decide) _ (by show (0 : ℕ) < 2 + 10; decide)); iexact Hlev
    iexact Hat_rscw_s_0
  iintro ⟨HO, Hat_rscw_s_0, #Hrch_rscw_s_0_1, Hpay⟩
  iclear HIo
  ihave Hp := (Entails.of_eq (rest_single X _ _ _ (duties_rscw_s_0_0 X c) (payload_rscw_s_0_0 X c false))) $$ Hpay
  irename Hp => Hx_cw0
  -- send rs cw t=2 b=0 (payment 10, device function 11)
  try sl_exec_parts
  ihave HO := (owes_congr (rem_peel_10 c)) $$ HO
  ihave #HIo := (bigSepL_elim_idx ownQs _ 0 (by decide)) $$ HInvOwn
  ihave #HIt := (bigSepL_elim_idx recvCw _ 4 (by decide)) $$ HInbCw
  iapply (@send_owns_at F _ X c (nxt c) ⟨k0_dev11 c, k0_dev11_lt c⟩ (dev11_eq c _) (slot aM 1 0 inb_S15x128x1024_S1x64x1024_1_0_0) (slot aM 2 0 inb_S15x128x1024_S1x64x1024_2_0_0) _ (qS cc0_scratch2 0 inb_S4_S1_0) (qR cc0_scratch3 2 0 inb_S15x2_S1x1_2_0) _ _ _ _ _ _ fullShare (addV X true 0 1 c) 1 (K (dcell c (qS cc0_scratch2 0 inb_S4_S1_0))) (K (dcell (nxt c) (qR cc0_scratch3 2 0 inb_S15x2_S1x1_2_0))) _ (rem c 11) _ (by rw [duties_rscw_s_0_1 X c]; exact Finset.mem_singleton_self _) (by rw [duties_rscw_r_2_0 X (nxt c)]; exact Finset.mem_singleton_self _) (by exact amount_rscw_s_0_1 X c false) (by exact amount_rscw_r_2_0 X (nxt c) false) (by rfl) (by exact payload_rscw_s_0_1 X c false) (by exact hp2_rscw_r_2_0 X c) (by rfl) (by routes)) $$ [Hs_rscw_r_1_0 Hd_rscw_r_2_0 HO Hts_rscw_s_0_1 Htn_rscw_r_2_0]
  · isplitr; · iexact HIo
    isplitr; · iexact HIt
    isplitl [Hs_rscw_r_1_0]; · iapply (owns_intro_add X true 1 0 0 c 13 aM _ f_rscw_r_1_0 _ _ _ rfl (off3_m3_0 c) hf_rscw_r_1_0 (addV_eq_cw_1_0 X c)); iexact Hs_rscw_r_1_0
    isplitl [Hd_rscw_r_2_0]; · iexact Hd_rscw_r_2_0
    isplitl [HO]; · iexact HO
    isplitl [Hts_rscw_s_0_1]; · iexact Hts_rscw_s_0_1
    isplitr; · iexact Hrch_rscw_s_0_1
    isplitl [Htn_rscw_r_2_0]; · iexact Htn_rscw_r_2_0
    iexact Hrn_rscw_r_2_0
  iintro ⟨Hcs_rscw_s_0_1, HO⟩
  iclear HIo HIt
  -- wait recv rs ccw t=1 b=0
  try sl_exec_parts
  ihave #HIo := (bigSepL_elim_idx ownQs _ 78 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 11) (W := _) (R := 0) (m := 0) (T := ∅)
      (by rw [Nat.zero_add, expect_rsccw_r_1_0 X c])) $$ [Hc_rsccw_r_1_0 HO Hat_rsccw_r_1_0]
  · isplitr; · iexact HIo
    isplitl [Hc_rsccw_r_1_0]; · iexact Hc_rsccw_r_1_0
    isplitl [HO]; · iexact HO
    isplitr; · iapply (mayWait_rem (F := F) c 11 (by decide) _ (by show (9 : ℕ) < 2 + 11; decide)); iexact Hlev
    iexact Hat_rsccw_r_1_0
  iintro ⟨HO, Hat_rsccw_r_1_0, #Hrch_rsccw_r_1_0_1, Hpay⟩
  iclear HIo
  ihave Hp := (Entails.of_eq (rest_single X _ _ _ (duties_rsccw_r_1_0 X c) (payload_rsccw_r_1_0 X c false))) $$ Hpay
  ihave Hq := (owns_elim _ _ _) $$ Hp
  icases Hq with ⟨%f_rsccw_r_1_0, %hf_rsccw_r_1_0, Hs_rsccw_r_1_0⟩
  -- add ccw s=1 b=0: the loads and the store run by themselves (within the next run)
  -- wait send rs ccw t=0 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 11) (W := _) (R := 0) (m := 0) (T := ∅)
      (by rw [Nat.zero_add, expect_rsccw_s_0_0 X c])) $$ [Hcs_rsccw_s_0_0 HO Hat_rsccw_s_0]
  · isplitr; · iexact HIo
    isplitl [Hcs_rsccw_s_0_0]; · iexact Hcs_rsccw_s_0_0
    isplitl [HO]; · iexact HO
    isplitr; · iapply (mayWait_rem (F := F) c 11 (by decide) _ (by show (0 : ℕ) < 2 + 11; decide)); iexact Hlev
    iexact Hat_rsccw_s_0
  iintro ⟨HO, Hat_rsccw_s_0, #Hrch_rsccw_s_0_1, Hpay⟩
  iclear HIo
  ihave Hp := (Entails.of_eq (rest_single X _ _ _ (duties_rsccw_s_0_0 X c) (payload_rsccw_s_0_0 X c false))) $$ Hpay
  irename Hp => Hx_ccw0
  -- send rs ccw t=2 b=0 (payment 11, device function 12)
  try sl_exec_parts
  ihave HO := (owes_congr (rem_peel_11 c)) $$ HO
  ihave #HIo := (bigSepL_elim_idx ownQs _ 4 (by decide)) $$ HInvOwn
  ihave #HIt := (bigSepL_elim_idx recvCcw _ 4 (by decide)) $$ HInbCcw
  iapply (@send_owns_at F _ X c (prv c) ⟨k0_dev12 c, k0_dev12_lt c⟩ (dev12_eq c _) (slot bM 1 0 inb_S15x128x1024_S1x64x1024_1_0_0) (slot bM 2 0 inb_S15x128x1024_S1x64x1024_2_0_0) _ (qS cc0_scratch4 0 inb_S4_S1_0) (qR cc0_scratch5 2 0 inb_S15x2_S1x1_2_0) _ _ _ _ _ _ fullShare (addV X false 0 1 c) 1 (K (dcell c (qS cc0_scratch4 0 inb_S4_S1_0))) (K (dcell (prv c) (qR cc0_scratch5 2 0 inb_S15x2_S1x1_2_0))) _ (rem c 12) _ (by rw [duties_rsccw_s_0_1 X c]; exact Finset.mem_singleton_self _) (by rw [duties_rsccw_r_2_0 X (prv c)]; exact Finset.mem_singleton_self _) (by exact amount_rsccw_s_0_1 X c false) (by exact amount_rsccw_r_2_0 X (prv c) false) (by rfl) (by exact payload_rsccw_s_0_1 X c false) (by exact hp2_rsccw_r_2_0 X c) (by rfl) (by routes)) $$ [Hs_rsccw_r_1_0 Hd_rsccw_r_2_0 HO Hts_rsccw_s_0_1 Htn_rsccw_r_2_0]
  · isplitr; · iexact HIo
    isplitr; · iexact HIt
    isplitl [Hs_rsccw_r_1_0]; · iapply (owns_intro_add X false 1 0 0 c 3 bM _ f_rsccw_r_1_0 _ _ _ rfl (off4_3_0 c) hf_rsccw_r_1_0 (addV_eq_ccw_1_0 X c)); iexact Hs_rsccw_r_1_0
    isplitl [Hd_rsccw_r_2_0]; · iexact Hd_rsccw_r_2_0
    isplitl [HO]; · iexact HO
    isplitl [Hts_rsccw_s_0_1]; · iexact Hts_rsccw_s_0_1
    isplitr; · iexact Hrch_rsccw_s_0_1
    isplitl [Htn_rsccw_r_2_0]; · iexact Htn_rsccw_r_2_0
    iexact Hrn_rsccw_r_2_0
  iintro ⟨Hcs_rsccw_s_0_1, HO⟩
  iclear HIo HIt
  -- wait recv rs cw t=1 b=1
  try sl_exec_parts
  ihave #HIo := (bigSepL_elim_idx ownQs _ 19 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 12) (W := _) (R := 0) (m := 0) (T := ∅)
      (by rw [Nat.zero_add, expect_rscw_r_1_1 X c])) $$ [Hc_rscw_r_1_1 HO Hat_rscw_r_1_1]
  · isplitr; · iexact HIo
    isplitl [Hc_rscw_r_1_1]; · iexact Hc_rscw_r_1_1
    isplitl [HO]; · iexact HO
    isplitr; · iapply (mayWait_rem (F := F) c 12 (by decide) _ (by show (10 : ℕ) < 2 + 12; decide)); iexact Hlev
    iexact Hat_rscw_r_1_1
  iintro ⟨HO, Hat_rscw_r_1_1, #Hrch_rscw_r_1_1_1, Hpay⟩
  iclear HIo
  ihave Hp := (Entails.of_eq (rest_single X _ _ _ (duties_rscw_r_1_1 X c) (payload_rscw_r_1_1 X c false))) $$ Hpay
  ihave Hq := (owns_elim _ _ _) $$ Hp
  icases Hq with ⟨%f_rscw_r_1_1, %hf_rscw_r_1_1, Hs_rscw_r_1_1⟩
  -- add cw s=1 b=1: the loads and the store run by themselves (within the next run)
  -- wait send rs cw t=0 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 12) (W := _) (R := 0) (m := 0) (T := ∅)
      (by rw [Nat.zero_add, expect_rscw_s_1_0 X c])) $$ [Hcs_rscw_s_1_0 HO Hat_rscw_s_1]
  · isplitr; · iexact HIo
    isplitl [Hcs_rscw_s_1_0]; · iexact Hcs_rscw_s_1_0
    isplitl [HO]; · iexact HO
    isplitr; · iapply (mayWait_rem (F := F) c 12 (by decide) _ (by show (0 : ℕ) < 2 + 12; decide)); iexact Hlev
    iexact Hat_rscw_s_1
  iintro ⟨HO, Hat_rscw_s_1, #Hrch_rscw_s_1_1, Hpay⟩
  iclear HIo
  ihave Hp := (Entails.of_eq (rest_single X _ _ _ (duties_rscw_s_1_0 X c) (payload_rscw_s_1_0 X c false))) $$ Hpay
  irename Hp => Hx_cw1
  -- send rs cw t=2 b=1 (payment 12, device function 13)
  try sl_exec_parts
  ihave HO := (owes_congr (rem_peel_12 c)) $$ HO
  ihave #HIo := (bigSepL_elim_idx ownQs _ 1 (by decide)) $$ HInvOwn
  ihave #HIt := (bigSepL_elim_idx recvCw _ 5 (by decide)) $$ HInbCw
  iapply (@send_owns_at F _ X c (nxt c) ⟨k0_dev13 c, k0_dev13_lt c⟩ (dev13_eq c _) (slot aM 1 64 inb_S15x128x1024_S1x64x1024_1_64_0) (slot aM 2 64 inb_S15x128x1024_S1x64x1024_2_64_0) _ (qS cc0_scratch2 1 inb_S4_S1_1) (qR cc0_scratch3 2 1 inb_S15x2_S1x1_2_1) _ _ _ _ _ _ fullShare (addV X true 1 1 c) 1 (K (dcell c (qS cc0_scratch2 1 inb_S4_S1_1))) (K (dcell (nxt c) (qR cc0_scratch3 2 1 inb_S15x2_S1x1_2_1))) _ (rem c 13) _ (by rw [duties_rscw_s_1_1 X c]; exact Finset.mem_singleton_self _) (by rw [duties_rscw_r_2_1 X (nxt c)]; exact Finset.mem_singleton_self _) (by exact amount_rscw_s_1_1 X c false) (by exact amount_rscw_r_2_1 X (nxt c) false) (by rfl) (by exact payload_rscw_s_1_1 X c false) (by exact hp2_rscw_r_2_1 X c) (by rfl) (by routes)) $$ [Hs_rscw_r_1_1 Hd_rscw_r_2_1 HO Hts_rscw_s_1_1 Htn_rscw_r_2_1]
  · isplitr; · iexact HIo
    isplitr; · iexact HIt
    isplitl [Hs_rscw_r_1_1]; · iapply (owns_intro_add X true 1 64 1 c 13 aM _ f_rscw_r_1_1 _ _ _ rfl (off3_m3_64 c) hf_rscw_r_1_1 (addV_eq_cw_1_1 X c)); iexact Hs_rscw_r_1_1
    isplitl [Hd_rscw_r_2_1]; · iexact Hd_rscw_r_2_1
    isplitl [HO]; · iexact HO
    isplitl [Hts_rscw_s_1_1]; · iexact Hts_rscw_s_1_1
    isplitr; · iexact Hrch_rscw_s_1_1
    isplitl [Htn_rscw_r_2_1]; · iexact Htn_rscw_r_2_1
    iexact Hrn_rscw_r_2_1
  iintro ⟨Hcs_rscw_s_1_1, HO⟩
  iclear HIo HIt
  -- wait recv rs ccw t=1 b=1
  try sl_exec_parts
  ihave #HIo := (bigSepL_elim_idx ownQs _ 79 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 13) (W := _) (R := 0) (m := 0) (T := ∅)
      (by rw [Nat.zero_add, expect_rsccw_r_1_1 X c])) $$ [Hc_rsccw_r_1_1 HO Hat_rsccw_r_1_1]
  · isplitr; · iexact HIo
    isplitl [Hc_rsccw_r_1_1]; · iexact Hc_rsccw_r_1_1
    isplitl [HO]; · iexact HO
    isplitr; · iapply (mayWait_rem (F := F) c 13 (by decide) _ (by show (11 : ℕ) < 2 + 13; decide)); iexact Hlev
    iexact Hat_rsccw_r_1_1
  iintro ⟨HO, Hat_rsccw_r_1_1, #Hrch_rsccw_r_1_1_1, Hpay⟩
  iclear HIo
  ihave Hp := (Entails.of_eq (rest_single X _ _ _ (duties_rsccw_r_1_1 X c) (payload_rsccw_r_1_1 X c false))) $$ Hpay
  ihave Hq := (owns_elim _ _ _) $$ Hp
  icases Hq with ⟨%f_rsccw_r_1_1, %hf_rsccw_r_1_1, Hs_rsccw_r_1_1⟩
  -- add ccw s=1 b=1: the loads and the store run by themselves (within the next run)
  -- wait send rs ccw t=0 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 13) (W := _) (R := 0) (m := 0) (T := ∅)
      (by rw [Nat.zero_add, expect_rsccw_s_1_0 X c])) $$ [Hcs_rsccw_s_1_0 HO Hat_rsccw_s_1]
  · isplitr; · iexact HIo
    isplitl [Hcs_rsccw_s_1_0]; · iexact Hcs_rsccw_s_1_0
    isplitl [HO]; · iexact HO
    isplitr; · iapply (mayWait_rem (F := F) c 13 (by decide) _ (by show (0 : ℕ) < 2 + 13; decide)); iexact Hlev
    iexact Hat_rsccw_s_1
  iintro ⟨HO, Hat_rsccw_s_1, #Hrch_rsccw_s_1_1, Hpay⟩
  iclear HIo
  ihave Hp := (Entails.of_eq (rest_single X _ _ _ (duties_rsccw_s_1_0 X c) (payload_rsccw_s_1_0 X c false))) $$ Hpay
  irename Hp => Hx_ccw1
  -- send rs ccw t=2 b=1 (payment 13, device function 14)
  try sl_exec_parts
  ihave HO := (owes_congr (rem_peel_13 c)) $$ HO
  ihave #HIo := (bigSepL_elim_idx ownQs _ 5 (by decide)) $$ HInvOwn
  ihave #HIt := (bigSepL_elim_idx recvCcw _ 5 (by decide)) $$ HInbCcw
  iapply (@send_owns_at F _ X c (prv c) ⟨k0_dev14 c, k0_dev14_lt c⟩ (dev14_eq c _) (slot bM 1 64 inb_S15x128x1024_S1x64x1024_1_64_0) (slot bM 2 64 inb_S15x128x1024_S1x64x1024_2_64_0) _ (qS cc0_scratch4 1 inb_S4_S1_1) (qR cc0_scratch5 2 1 inb_S15x2_S1x1_2_1) _ _ _ _ _ _ fullShare (addV X false 1 1 c) 1 (K (dcell c (qS cc0_scratch4 1 inb_S4_S1_1))) (K (dcell (prv c) (qR cc0_scratch5 2 1 inb_S15x2_S1x1_2_1))) _ (rem c 14) _ (by rw [duties_rsccw_s_1_1 X c]; exact Finset.mem_singleton_self _) (by rw [duties_rsccw_r_2_1 X (prv c)]; exact Finset.mem_singleton_self _) (by exact amount_rsccw_s_1_1 X c false) (by exact amount_rsccw_r_2_1 X (prv c) false) (by rfl) (by exact payload_rsccw_s_1_1 X c false) (by exact hp2_rsccw_r_2_1 X c) (by rfl) (by routes)) $$ [Hs_rsccw_r_1_1 Hd_rsccw_r_2_1 HO Hts_rsccw_s_1_1 Htn_rsccw_r_2_1]
  · isplitr; · iexact HIo
    isplitr; · iexact HIt
    isplitl [Hs_rsccw_r_1_1]; · iapply (owns_intro_add X false 1 64 1 c 3 bM _ f_rsccw_r_1_1 _ _ _ rfl (off4_3_64 c) hf_rsccw_r_1_1 (addV_eq_ccw_1_1 X c)); iexact Hs_rsccw_r_1_1
    isplitl [Hd_rsccw_r_2_1]; · iexact Hd_rsccw_r_2_1
    isplitl [HO]; · iexact HO
    isplitl [Hts_rsccw_s_1_1]; · iexact Hts_rsccw_s_1_1
    isplitr; · iexact Hrch_rsccw_s_1_1
    isplitl [Htn_rsccw_r_2_1]; · iexact Htn_rsccw_r_2_1
    iexact Hrn_rsccw_r_2_1
  iintro ⟨Hcs_rsccw_s_1_1, HO⟩
  iclear HIo HIt
  -- wait recv rs cw t=2 b=0
  try sl_exec_parts
  ihave #HIo := (bigSepL_elim_idx ownQs _ 20 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 14) (W := _) (R := 0) (m := 0) (T := ∅)
      (by rw [Nat.zero_add, expect_rscw_r_2_0 X c])) $$ [Hc_rscw_r_2_0 HO Hat_rscw_r_2_0]
  · isplitr; · iexact HIo
    isplitl [Hc_rscw_r_2_0]; · iexact Hc_rscw_r_2_0
    isplitl [HO]; · iexact HO
    isplitr; · iapply (mayWait_rem (F := F) c 14 (by decide) _ (by show (12 : ℕ) < 2 + 14; decide)); iexact Hlev
    iexact Hat_rscw_r_2_0
  iintro ⟨HO, Hat_rscw_r_2_0, #Hrch_rscw_r_2_0_1, Hpay⟩
  iclear HIo
  ihave Hp := (Entails.of_eq (rest_single X _ _ _ (duties_rscw_r_2_0 X c) (payload_rscw_r_2_0 X c false))) $$ Hpay
  ihave Hq := (owns_elim _ _ _) $$ Hp
  icases Hq with ⟨%f_rscw_r_2_0, %hf_rscw_r_2_0, Hs_rscw_r_2_0⟩
  -- add cw s=2 b=0: the loads and the store run by themselves (within the next run)
  -- wait send rs cw t=1 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 14) (W := _) (R := 0) (m := 0) (T := ∅)
      (by rw [Nat.zero_add, expect_rscw_s_2_0 X c])) $$ [Hcs_rscw_s_2_0 HO Hat_rscw_s_2]
  · isplitr; · iexact HIo
    isplitl [Hcs_rscw_s_2_0]; · iexact Hcs_rscw_s_2_0
    isplitl [HO]; · iexact HO
    isplitr; · iapply (mayWait_rem (F := F) c 14 (by decide) _ (by show (0 : ℕ) < 2 + 14; decide)); iexact Hlev
    iexact Hat_rscw_s_2
  iintro ⟨HO, Hat_rscw_s_2, #Hrch_rscw_s_2_1, Hpay⟩
  iclear HIo
  ihave Hp := (Entails.of_eq (rest_single X _ _ _ (duties_rscw_s_2_0 X c) (payload_rscw_s_2_0 X c false))) $$ Hpay
  irename Hp => Hback_rscw_r_0_0
  -- send rs cw t=3 b=0 (payment 14, device function 15)
  try sl_exec_parts
  ihave HO := (owes_congr (rem_peel_14 c)) $$ HO
  ihave #HIo := (bigSepL_elim_idx ownQs _ 2 (by decide)) $$ HInvOwn
  ihave #HIt := (bigSepL_elim_idx recvCw _ 6 (by decide)) $$ HInbCw
  iapply (@send_owns_at F _ X c (nxt c) ⟨k0_dev15 c, k0_dev15_lt c⟩ (dev15_eq c _) (slot aM 2 0 inb_S15x128x1024_S1x64x1024_2_0_0) (slot aM 3 0 inb_S15x128x1024_S1x64x1024_3_0_0) _ (qS cc0_scratch2 2 inb_S4_S1_2) (qR cc0_scratch3 3 0 inb_S15x2_S1x1_3_0) _ _ _ _ _ _ fullShare (addV X true 0 2 c) 1 (K (dcell c (qS cc0_scratch2 2 inb_S4_S1_2))) (K (dcell (nxt c) (qR cc0_scratch3 3 0 inb_S15x2_S1x1_3_0))) _ (rem c 15) _ (by rw [duties_rscw_s_2_1 X c]; exact Finset.mem_singleton_self _) (by rw [duties_rscw_r_3_0 X (nxt c)]; exact Finset.mem_singleton_self _) (by exact amount_rscw_s_2_1 X c false) (by exact amount_rscw_r_3_0 X (nxt c) false) (by rfl) (by exact payload_rscw_s_2_1 X c false) (by exact hp2_rscw_r_3_0 X c) (by rfl) (by routes)) $$ [Hs_rscw_r_2_0 Hd_rscw_r_3_0 HO Hts_rscw_s_2_1 Htn_rscw_r_3_0]
  · isplitr; · iexact HIo
    isplitr; · iexact HIt
    isplitl [Hs_rscw_r_2_0]; · iapply (owns_intro_add X true 2 0 0 c 12 aM _ f_rscw_r_2_0 _ _ _ rfl (off3_m4_0 c) hf_rscw_r_2_0 (addV_eq_cw_2_0 X c)); iexact Hs_rscw_r_2_0
    isplitl [Hd_rscw_r_3_0]; · iexact Hd_rscw_r_3_0
    isplitl [HO]; · iexact HO
    isplitl [Hts_rscw_s_2_1]; · iexact Hts_rscw_s_2_1
    isplitr; · iexact Hrch_rscw_s_2_1
    isplitl [Htn_rscw_r_3_0]; · iexact Htn_rscw_r_3_0
    iexact Hrn_rscw_r_3_0
  iintro ⟨Hcs_rscw_s_2_1, HO⟩
  iclear HIo HIt
  -- wait recv rs ccw t=2 b=0
  try sl_exec_parts
  ihave #HIo := (bigSepL_elim_idx ownQs _ 80 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 15) (W := _) (R := 0) (m := 0) (T := ∅)
      (by rw [Nat.zero_add, expect_rsccw_r_2_0 X c])) $$ [Hc_rsccw_r_2_0 HO Hat_rsccw_r_2_0]
  · isplitr; · iexact HIo
    isplitl [Hc_rsccw_r_2_0]; · iexact Hc_rsccw_r_2_0
    isplitl [HO]; · iexact HO
    isplitr; · iapply (mayWait_rem (F := F) c 15 (by decide) _ (by show (13 : ℕ) < 2 + 15; decide)); iexact Hlev
    iexact Hat_rsccw_r_2_0
  iintro ⟨HO, Hat_rsccw_r_2_0, #Hrch_rsccw_r_2_0_1, Hpay⟩
  iclear HIo
  ihave Hp := (Entails.of_eq (rest_single X _ _ _ (duties_rsccw_r_2_0 X c) (payload_rsccw_r_2_0 X c false))) $$ Hpay
  ihave Hq := (owns_elim _ _ _) $$ Hp
  icases Hq with ⟨%f_rsccw_r_2_0, %hf_rsccw_r_2_0, Hs_rsccw_r_2_0⟩
  -- add ccw s=2 b=0: the loads and the store run by themselves (within the next run)
  -- wait send rs ccw t=1 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 15) (W := _) (R := 0) (m := 0) (T := ∅)
      (by rw [Nat.zero_add, expect_rsccw_s_2_0 X c])) $$ [Hcs_rsccw_s_2_0 HO Hat_rsccw_s_2]
  · isplitr; · iexact HIo
    isplitl [Hcs_rsccw_s_2_0]; · iexact Hcs_rsccw_s_2_0
    isplitl [HO]; · iexact HO
    isplitr; · iapply (mayWait_rem (F := F) c 15 (by decide) _ (by show (0 : ℕ) < 2 + 15; decide)); iexact Hlev
    iexact Hat_rsccw_s_2
  iintro ⟨HO, Hat_rsccw_s_2, #Hrch_rsccw_s_2_1, Hpay⟩
  iclear HIo
  ihave Hp := (Entails.of_eq (rest_single X _ _ _ (duties_rsccw_s_2_0 X c) (payload_rsccw_s_2_0 X c false))) $$ Hpay
  irename Hp => Hback_rsccw_r_0_0
  -- send rs ccw t=3 b=0 (payment 15, device function 16)
  try sl_exec_parts
  ihave HO := (owes_congr (rem_peel_15 c)) $$ HO
  ihave #HIo := (bigSepL_elim_idx ownQs _ 6 (by decide)) $$ HInvOwn
  ihave #HIt := (bigSepL_elim_idx recvCcw _ 6 (by decide)) $$ HInbCcw
  iapply (@send_owns_at F _ X c (prv c) ⟨k0_dev16 c, k0_dev16_lt c⟩ (dev16_eq c _) (slot bM 2 0 inb_S15x128x1024_S1x64x1024_2_0_0) (slot bM 3 0 inb_S15x128x1024_S1x64x1024_3_0_0) _ (qS cc0_scratch4 2 inb_S4_S1_2) (qR cc0_scratch5 3 0 inb_S15x2_S1x1_3_0) _ _ _ _ _ _ fullShare (addV X false 0 2 c) 1 (K (dcell c (qS cc0_scratch4 2 inb_S4_S1_2))) (K (dcell (prv c) (qR cc0_scratch5 3 0 inb_S15x2_S1x1_3_0))) _ (rem c 16) _ (by rw [duties_rsccw_s_2_1 X c]; exact Finset.mem_singleton_self _) (by rw [duties_rsccw_r_3_0 X (prv c)]; exact Finset.mem_singleton_self _) (by exact amount_rsccw_s_2_1 X c false) (by exact amount_rsccw_r_3_0 X (prv c) false) (by rfl) (by exact payload_rsccw_s_2_1 X c false) (by exact hp2_rsccw_r_3_0 X c) (by rfl) (by routes)) $$ [Hs_rsccw_r_2_0 Hd_rsccw_r_3_0 HO Hts_rsccw_s_2_1 Htn_rsccw_r_3_0]
  · isplitr; · iexact HIo
    isplitr; · iexact HIt
    isplitl [Hs_rsccw_r_2_0]; · iapply (owns_intro_add X false 2 0 0 c 4 bM _ f_rsccw_r_2_0 _ _ _ rfl (off4_4_0 c) hf_rsccw_r_2_0 (addV_eq_ccw_2_0 X c)); iexact Hs_rsccw_r_2_0
    isplitl [Hd_rsccw_r_3_0]; · iexact Hd_rsccw_r_3_0
    isplitl [HO]; · iexact HO
    isplitl [Hts_rsccw_s_2_1]; · iexact Hts_rsccw_s_2_1
    isplitr; · iexact Hrch_rsccw_s_2_1
    isplitl [Htn_rsccw_r_3_0]; · iexact Htn_rsccw_r_3_0
    iexact Hrn_rsccw_r_3_0
  iintro ⟨Hcs_rsccw_s_2_1, HO⟩
  iclear HIo HIt
  -- wait recv rs cw t=2 b=1
  try sl_exec_parts
  ihave #HIo := (bigSepL_elim_idx ownQs _ 21 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 16) (W := _) (R := 0) (m := 0) (T := ∅)
      (by rw [Nat.zero_add, expect_rscw_r_2_1 X c])) $$ [Hc_rscw_r_2_1 HO Hat_rscw_r_2_1]
  · isplitr; · iexact HIo
    isplitl [Hc_rscw_r_2_1]; · iexact Hc_rscw_r_2_1
    isplitl [HO]; · iexact HO
    isplitr; · iapply (mayWait_rem (F := F) c 16 (by decide) _ (by show (14 : ℕ) < 2 + 16; decide)); iexact Hlev
    iexact Hat_rscw_r_2_1
  iintro ⟨HO, Hat_rscw_r_2_1, #Hrch_rscw_r_2_1_1, Hpay⟩
  iclear HIo
  ihave Hp := (Entails.of_eq (rest_single X _ _ _ (duties_rscw_r_2_1 X c) (payload_rscw_r_2_1 X c false))) $$ Hpay
  ihave Hq := (owns_elim _ _ _) $$ Hp
  icases Hq with ⟨%f_rscw_r_2_1, %hf_rscw_r_2_1, Hs_rscw_r_2_1⟩
  -- add cw s=2 b=1: the loads and the store run by themselves (within the next run)
  -- wait send rs cw t=1 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 16) (W := _) (R := 0) (m := 0) (T := ∅)
      (by rw [Nat.zero_add, expect_rscw_s_3_0 X c])) $$ [Hcs_rscw_s_3_0 HO Hat_rscw_s_3]
  · isplitr; · iexact HIo
    isplitl [Hcs_rscw_s_3_0]; · iexact Hcs_rscw_s_3_0
    isplitl [HO]; · iexact HO
    isplitr; · iapply (mayWait_rem (F := F) c 16 (by decide) _ (by show (0 : ℕ) < 2 + 16; decide)); iexact Hlev
    iexact Hat_rscw_s_3
  iintro ⟨HO, Hat_rscw_s_3, #Hrch_rscw_s_3_1, Hpay⟩
  iclear HIo
  ihave Hp := (Entails.of_eq (rest_single X _ _ _ (duties_rscw_s_3_0 X c) (payload_rscw_s_3_0 X c false))) $$ Hpay
  irename Hp => Hback_rscw_r_0_1
  -- send rs cw t=3 b=1 (payment 16, device function 17)
  try sl_exec_parts
  ihave HO := (owes_congr (rem_peel_16 c)) $$ HO
  ihave #HIo := (bigSepL_elim_idx ownQs _ 3 (by decide)) $$ HInvOwn
  ihave #HIt := (bigSepL_elim_idx recvCw _ 7 (by decide)) $$ HInbCw
  iapply (@send_owns_at F _ X c (nxt c) ⟨k0_dev17 c, k0_dev17_lt c⟩ (dev17_eq c _) (slot aM 2 64 inb_S15x128x1024_S1x64x1024_2_64_0) (slot aM 3 64 inb_S15x128x1024_S1x64x1024_3_64_0) _ (qS cc0_scratch2 3 inb_S4_S1_3) (qR cc0_scratch3 3 1 inb_S15x2_S1x1_3_1) _ _ _ _ _ _ fullShare (addV X true 1 2 c) 1 (K (dcell c (qS cc0_scratch2 3 inb_S4_S1_3))) (K (dcell (nxt c) (qR cc0_scratch3 3 1 inb_S15x2_S1x1_3_1))) _ (rem c 17) _ (by rw [duties_rscw_s_3_1 X c]; exact Finset.mem_singleton_self _) (by rw [duties_rscw_r_3_1 X (nxt c)]; exact Finset.mem_singleton_self _) (by exact amount_rscw_s_3_1 X c false) (by exact amount_rscw_r_3_1 X (nxt c) false) (by rfl) (by exact payload_rscw_s_3_1 X c false) (by exact hp2_rscw_r_3_1 X c) (by rfl) (by routes)) $$ [Hs_rscw_r_2_1 Hd_rscw_r_3_1 HO Hts_rscw_s_3_1 Htn_rscw_r_3_1]
  · isplitr; · iexact HIo
    isplitr; · iexact HIt
    isplitl [Hs_rscw_r_2_1]; · iapply (owns_intro_add X true 2 64 1 c 12 aM _ f_rscw_r_2_1 _ _ _ rfl (off3_m4_64 c) hf_rscw_r_2_1 (addV_eq_cw_2_1 X c)); iexact Hs_rscw_r_2_1
    isplitl [Hd_rscw_r_3_1]; · iexact Hd_rscw_r_3_1
    isplitl [HO]; · iexact HO
    isplitl [Hts_rscw_s_3_1]; · iexact Hts_rscw_s_3_1
    isplitr; · iexact Hrch_rscw_s_3_1
    isplitl [Htn_rscw_r_3_1]; · iexact Htn_rscw_r_3_1
    iexact Hrn_rscw_r_3_1
  iintro ⟨Hcs_rscw_s_3_1, HO⟩
  iclear HIo HIt
  -- wait recv rs ccw t=2 b=1
  try sl_exec_parts
  ihave #HIo := (bigSepL_elim_idx ownQs _ 81 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 17) (W := _) (R := 0) (m := 0) (T := ∅)
      (by rw [Nat.zero_add, expect_rsccw_r_2_1 X c])) $$ [Hc_rsccw_r_2_1 HO Hat_rsccw_r_2_1]
  · isplitr; · iexact HIo
    isplitl [Hc_rsccw_r_2_1]; · iexact Hc_rsccw_r_2_1
    isplitl [HO]; · iexact HO
    isplitr; · iapply (mayWait_rem (F := F) c 17 (by decide) _ (by show (15 : ℕ) < 2 + 17; decide)); iexact Hlev
    iexact Hat_rsccw_r_2_1
  iintro ⟨HO, Hat_rsccw_r_2_1, #Hrch_rsccw_r_2_1_1, Hpay⟩
  iclear HIo
  ihave Hp := (Entails.of_eq (rest_single X _ _ _ (duties_rsccw_r_2_1 X c) (payload_rsccw_r_2_1 X c false))) $$ Hpay
  ihave Hq := (owns_elim _ _ _) $$ Hp
  icases Hq with ⟨%f_rsccw_r_2_1, %hf_rsccw_r_2_1, Hs_rsccw_r_2_1⟩
  -- add ccw s=2 b=1: the loads and the store run by themselves (within the next run)
  -- wait send rs ccw t=1 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 17) (W := _) (R := 0) (m := 0) (T := ∅)
      (by rw [Nat.zero_add, expect_rsccw_s_3_0 X c])) $$ [Hcs_rsccw_s_3_0 HO Hat_rsccw_s_3]
  · isplitr; · iexact HIo
    isplitl [Hcs_rsccw_s_3_0]; · iexact Hcs_rsccw_s_3_0
    isplitl [HO]; · iexact HO
    isplitr; · iapply (mayWait_rem (F := F) c 17 (by decide) _ (by show (0 : ℕ) < 2 + 17; decide)); iexact Hlev
    iexact Hat_rsccw_s_3
  iintro ⟨HO, Hat_rsccw_s_3, #Hrch_rsccw_s_3_1, Hpay⟩
  iclear HIo
  ihave Hp := (Entails.of_eq (rest_single X _ _ _ (duties_rsccw_s_3_0 X c) (payload_rsccw_s_3_0 X c false))) $$ Hpay
  irename Hp => Hback_rsccw_r_0_1
  -- send rs ccw t=3 b=1 (payment 17, device function 18)
  try sl_exec_parts
  ihave HO := (owes_congr (rem_peel_17 c)) $$ HO
  ihave #HIo := (bigSepL_elim_idx ownQs _ 7 (by decide)) $$ HInvOwn
  ihave #HIt := (bigSepL_elim_idx recvCcw _ 7 (by decide)) $$ HInbCcw
  iapply (@send_owns_at F _ X c (prv c) ⟨k0_dev18 c, k0_dev18_lt c⟩ (dev18_eq c _) (slot bM 2 64 inb_S15x128x1024_S1x64x1024_2_64_0) (slot bM 3 64 inb_S15x128x1024_S1x64x1024_3_64_0) _ (qS cc0_scratch4 3 inb_S4_S1_3) (qR cc0_scratch5 3 1 inb_S15x2_S1x1_3_1) _ _ _ _ _ _ fullShare (addV X false 1 2 c) 1 (K (dcell c (qS cc0_scratch4 3 inb_S4_S1_3))) (K (dcell (prv c) (qR cc0_scratch5 3 1 inb_S15x2_S1x1_3_1))) _ (rem c 18) _ (by rw [duties_rsccw_s_3_1 X c]; exact Finset.mem_singleton_self _) (by rw [duties_rsccw_r_3_1 X (prv c)]; exact Finset.mem_singleton_self _) (by exact amount_rsccw_s_3_1 X c false) (by exact amount_rsccw_r_3_1 X (prv c) false) (by rfl) (by exact payload_rsccw_s_3_1 X c false) (by exact hp2_rsccw_r_3_1 X c) (by rfl) (by routes)) $$ [Hs_rsccw_r_2_1 Hd_rsccw_r_3_1 HO Hts_rsccw_s_3_1 Htn_rsccw_r_3_1]
  · isplitr; · iexact HIo
    isplitr; · iexact HIt
    isplitl [Hs_rsccw_r_2_1]; · iapply (owns_intro_add X false 2 64 1 c 4 bM _ f_rsccw_r_2_1 _ _ _ rfl (off4_4_64 c) hf_rsccw_r_2_1 (addV_eq_ccw_2_1 X c)); iexact Hs_rsccw_r_2_1
    isplitl [Hd_rsccw_r_3_1]; · iexact Hd_rsccw_r_3_1
    isplitl [HO]; · iexact HO
    isplitl [Hts_rsccw_s_3_1]; · iexact Hts_rsccw_s_3_1
    isplitr; · iexact Hrch_rsccw_s_3_1
    isplitl [Htn_rsccw_r_3_1]; · iexact Htn_rsccw_r_3_1
    iexact Hrn_rsccw_r_3_1
  iintro ⟨Hcs_rsccw_s_3_1, HO⟩
  iclear HIo HIt
  -- wait recv rs cw t=3 b=0
  try sl_exec_parts
  ihave #HIo := (bigSepL_elim_idx ownQs _ 22 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 18) (W := _) (R := 0) (m := 0) (T := ∅)
      (by rw [Nat.zero_add, expect_rscw_r_3_0 X c])) $$ [Hc_rscw_r_3_0 HO Hat_rscw_r_3_0]
  · isplitr; · iexact HIo
    isplitl [Hc_rscw_r_3_0]; · iexact Hc_rscw_r_3_0
    isplitl [HO]; · iexact HO
    isplitr; · iapply (mayWait_rem (F := F) c 18 (by decide) _ (by show (16 : ℕ) < 2 + 18; decide)); iexact Hlev
    iexact Hat_rscw_r_3_0
  iintro ⟨HO, Hat_rscw_r_3_0, #Hrch_rscw_r_3_0_1, Hpay⟩
  iclear HIo
  ihave Hp := (Entails.of_eq (rest_single X _ _ _ (duties_rscw_r_3_0 X c) (payload_rscw_r_3_0 X c false))) $$ Hpay
  ihave Hq := (owns_elim _ _ _) $$ Hp
  icases Hq with ⟨%f_rscw_r_3_0, %hf_rscw_r_3_0, Hs_rscw_r_3_0⟩
  -- add cw s=3 b=0: the loads and the store run by themselves (within the next run)
  -- wait send rs cw t=2 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 18) (W := _) (R := 1) (m := 0) (T := ∅)
      (by rw [Nat.zero_add, expect_rscw_s_0_1 X c])) $$ [Hcs_rscw_s_0_1 HO Hat_rscw_s_0]
  · isplitr; · iexact HIo
    isplitl [Hcs_rscw_s_0_1]; · iexact Hcs_rscw_s_0_1
    isplitl [HO]; · iexact HO
    isplitr; · iapply (mayWait_rem (F := F) c 18 (by decide) _ (by show (0 : ℕ) < 2 + 18; decide)); iexact Hlev
    iexact Hat_rscw_s_0
  iintro ⟨HO, Hat_rscw_s_0, #Hrch_rscw_s_0_2, Hpay⟩
  iclear HIo
  ihave Hp := (Entails.of_eq (rest_single X _ _ _ (duties_rscw_s_0_1 X c) (payload_rscw_s_0_1 X c false))) $$ Hpay
  irename Hp => Hback_rscw_r_1_0
  -- send rs cw t=4 b=0 (payment 18, device function 19)
  try sl_exec_parts
  ihave HO := (owes_congr (rem_peel_18 c)) $$ HO
  ihave #HIo := (bigSepL_elim_idx ownQs _ 0 (by decide)) $$ HInvOwn
  ihave #HIt := (bigSepL_elim_idx recvCw _ 8 (by decide)) $$ HInbCw
  iapply (@send_owns_at F _ X c (nxt c) ⟨k0_dev19 c, k0_dev19_lt c⟩ (dev19_eq c _) (slot aM 3 0 inb_S15x128x1024_S1x64x1024_3_0_0) (slot aM 4 0 inb_S15x128x1024_S1x64x1024_4_0_0) _ (qS cc0_scratch2 0 inb_S4_S1_0) (qR cc0_scratch3 4 0 inb_S15x2_S1x1_4_0) _ _ _ _ _ _ fullShare (addV X true 0 3 c) 2 (K (dcell c (qS cc0_scratch2 0 inb_S4_S1_0))) (K (dcell (nxt c) (qR cc0_scratch3 4 0 inb_S15x2_S1x1_4_0))) _ (rem c 19) _ (by rw [duties_rscw_s_0_2 X c]; exact Finset.mem_singleton_self _) (by rw [duties_rscw_r_4_0 X (nxt c)]; exact Finset.mem_singleton_self _) (by exact amount_rscw_s_0_2 X c false) (by exact amount_rscw_r_4_0 X (nxt c) false) (by rfl) (by exact payload_rscw_s_0_2 X c false) (by exact hp2_rscw_r_4_0 X c) (by rfl) (by routes)) $$ [Hs_rscw_r_3_0 Hd_rscw_r_4_0 HO Hts_rscw_s_0_2 Htn_rscw_r_4_0]
  · isplitr; · iexact HIo
    isplitr; · iexact HIt
    isplitl [Hs_rscw_r_3_0]; · iapply (owns_intro_add X true 3 0 0 c 11 aM _ f_rscw_r_3_0 _ _ _ rfl (off3_m5_0 c) hf_rscw_r_3_0 (addV_eq_cw_3_0 X c)); iexact Hs_rscw_r_3_0
    isplitl [Hd_rscw_r_4_0]; · iexact Hd_rscw_r_4_0
    isplitl [HO]; · iexact HO
    isplitl [Hts_rscw_s_0_2]; · iexact Hts_rscw_s_0_2
    isplitr; · iexact Hrch_rscw_s_0_2
    isplitl [Htn_rscw_r_4_0]; · iexact Htn_rscw_r_4_0
    iexact Hrn_rscw_r_4_0
  iintro ⟨Hcs_rscw_s_0_2, HO⟩
  iclear HIo HIt
  -- wait recv rs ccw t=3 b=0
  try sl_exec_parts
  ihave #HIo := (bigSepL_elim_idx ownQs _ 82 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 19) (W := _) (R := 0) (m := 0) (T := ∅)
      (by rw [Nat.zero_add, expect_rsccw_r_3_0 X c])) $$ [Hc_rsccw_r_3_0 HO Hat_rsccw_r_3_0]
  · isplitr; · iexact HIo
    isplitl [Hc_rsccw_r_3_0]; · iexact Hc_rsccw_r_3_0
    isplitl [HO]; · iexact HO
    isplitr; · iapply (mayWait_rem (F := F) c 19 (by decide) _ (by show (17 : ℕ) < 2 + 19; decide)); iexact Hlev
    iexact Hat_rsccw_r_3_0
  iintro ⟨HO, Hat_rsccw_r_3_0, #Hrch_rsccw_r_3_0_1, Hpay⟩
  iclear HIo
  ihave Hp := (Entails.of_eq (rest_single X _ _ _ (duties_rsccw_r_3_0 X c) (payload_rsccw_r_3_0 X c false))) $$ Hpay
  ihave Hq := (owns_elim _ _ _) $$ Hp
  icases Hq with ⟨%f_rsccw_r_3_0, %hf_rsccw_r_3_0, Hs_rsccw_r_3_0⟩
  -- add ccw s=3 b=0: the loads and the store run by themselves (within the next run)
  -- wait send rs ccw t=2 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 19) (W := _) (R := 1) (m := 0) (T := ∅)
      (by rw [Nat.zero_add, expect_rsccw_s_0_1 X c])) $$ [Hcs_rsccw_s_0_1 HO Hat_rsccw_s_0]
  · isplitr; · iexact HIo
    isplitl [Hcs_rsccw_s_0_1]; · iexact Hcs_rsccw_s_0_1
    isplitl [HO]; · iexact HO
    isplitr; · iapply (mayWait_rem (F := F) c 19 (by decide) _ (by show (0 : ℕ) < 2 + 19; decide)); iexact Hlev
    iexact Hat_rsccw_s_0
  iintro ⟨HO, Hat_rsccw_s_0, #Hrch_rsccw_s_0_2, Hpay⟩
  iclear HIo
  ihave Hp := (Entails.of_eq (rest_single X _ _ _ (duties_rsccw_s_0_1 X c) (payload_rsccw_s_0_1 X c false))) $$ Hpay
  irename Hp => Hback_rsccw_r_1_0
  -- send rs ccw t=4 b=0 (payment 19, device function 20)
  try sl_exec_parts
  ihave HO := (owes_congr (rem_peel_19 c)) $$ HO
  ihave #HIo := (bigSepL_elim_idx ownQs _ 4 (by decide)) $$ HInvOwn
  ihave #HIt := (bigSepL_elim_idx recvCcw _ 8 (by decide)) $$ HInbCcw
  iapply (@send_owns_at F _ X c (prv c) ⟨k0_dev20 c, k0_dev20_lt c⟩ (dev20_eq c _) (slot bM 3 0 inb_S15x128x1024_S1x64x1024_3_0_0) (slot bM 4 0 inb_S15x128x1024_S1x64x1024_4_0_0) _ (qS cc0_scratch4 0 inb_S4_S1_0) (qR cc0_scratch5 4 0 inb_S15x2_S1x1_4_0) _ _ _ _ _ _ fullShare (addV X false 0 3 c) 2 (K (dcell c (qS cc0_scratch4 0 inb_S4_S1_0))) (K (dcell (prv c) (qR cc0_scratch5 4 0 inb_S15x2_S1x1_4_0))) _ (rem c 20) _ (by rw [duties_rsccw_s_0_2 X c]; exact Finset.mem_singleton_self _) (by rw [duties_rsccw_r_4_0 X (prv c)]; exact Finset.mem_singleton_self _) (by exact amount_rsccw_s_0_2 X c false) (by exact amount_rsccw_r_4_0 X (prv c) false) (by rfl) (by exact payload_rsccw_s_0_2 X c false) (by exact hp2_rsccw_r_4_0 X c) (by rfl) (by routes)) $$ [Hs_rsccw_r_3_0 Hd_rsccw_r_4_0 HO Hts_rsccw_s_0_2 Htn_rsccw_r_4_0]
  · isplitr; · iexact HIo
    isplitr; · iexact HIt
    isplitl [Hs_rsccw_r_3_0]; · iapply (owns_intro_add X false 3 0 0 c 5 bM _ f_rsccw_r_3_0 _ _ _ rfl (off4_5_0 c) hf_rsccw_r_3_0 (addV_eq_ccw_3_0 X c)); iexact Hs_rsccw_r_3_0
    isplitl [Hd_rsccw_r_4_0]; · iexact Hd_rsccw_r_4_0
    isplitl [HO]; · iexact HO
    isplitl [Hts_rsccw_s_0_2]; · iexact Hts_rsccw_s_0_2
    isplitr; · iexact Hrch_rsccw_s_0_2
    isplitl [Htn_rsccw_r_4_0]; · iexact Htn_rsccw_r_4_0
    iexact Hrn_rsccw_r_4_0
  iintro ⟨Hcs_rsccw_s_0_2, HO⟩
  iclear HIo HIt
  -- wait recv rs cw t=3 b=1
  try sl_exec_parts
  ihave #HIo := (bigSepL_elim_idx ownQs _ 23 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 20) (W := _) (R := 0) (m := 0) (T := ∅)
      (by rw [Nat.zero_add, expect_rscw_r_3_1 X c])) $$ [Hc_rscw_r_3_1 HO Hat_rscw_r_3_1]
  · isplitr; · iexact HIo
    isplitl [Hc_rscw_r_3_1]; · iexact Hc_rscw_r_3_1
    isplitl [HO]; · iexact HO
    isplitr; · iapply (mayWait_rem (F := F) c 20 (by decide) _ (by show (18 : ℕ) < 2 + 20; decide)); iexact Hlev
    iexact Hat_rscw_r_3_1
  iintro ⟨HO, Hat_rscw_r_3_1, #Hrch_rscw_r_3_1_1, Hpay⟩
  iclear HIo
  ihave Hp := (Entails.of_eq (rest_single X _ _ _ (duties_rscw_r_3_1 X c) (payload_rscw_r_3_1 X c false))) $$ Hpay
  ihave Hq := (owns_elim _ _ _) $$ Hp
  icases Hq with ⟨%f_rscw_r_3_1, %hf_rscw_r_3_1, Hs_rscw_r_3_1⟩
  -- add cw s=3 b=1: the loads and the store run by themselves (within the next run)
  -- wait send rs cw t=2 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 20) (W := _) (R := 1) (m := 0) (T := ∅)
      (by rw [Nat.zero_add, expect_rscw_s_1_1 X c])) $$ [Hcs_rscw_s_1_1 HO Hat_rscw_s_1]
  · isplitr; · iexact HIo
    isplitl [Hcs_rscw_s_1_1]; · iexact Hcs_rscw_s_1_1
    isplitl [HO]; · iexact HO
    isplitr; · iapply (mayWait_rem (F := F) c 20 (by decide) _ (by show (0 : ℕ) < 2 + 20; decide)); iexact Hlev
    iexact Hat_rscw_s_1
  iintro ⟨HO, Hat_rscw_s_1, #Hrch_rscw_s_1_2, Hpay⟩
  iclear HIo
  ihave Hp := (Entails.of_eq (rest_single X _ _ _ (duties_rscw_s_1_1 X c) (payload_rscw_s_1_1 X c false))) $$ Hpay
  irename Hp => Hback_rscw_r_1_1
  -- send rs cw t=4 b=1 (payment 20, device function 21)
  try sl_exec_parts
  ihave HO := (owes_congr (rem_peel_20 c)) $$ HO
  ihave #HIo := (bigSepL_elim_idx ownQs _ 1 (by decide)) $$ HInvOwn
  ihave #HIt := (bigSepL_elim_idx recvCw _ 9 (by decide)) $$ HInbCw
  iapply (@send_owns_at F _ X c (nxt c) ⟨k0_dev21 c, k0_dev21_lt c⟩ (dev21_eq c _) (slot aM 3 64 inb_S15x128x1024_S1x64x1024_3_64_0) (slot aM 4 64 inb_S15x128x1024_S1x64x1024_4_64_0) _ (qS cc0_scratch2 1 inb_S4_S1_1) (qR cc0_scratch3 4 1 inb_S15x2_S1x1_4_1) _ _ _ _ _ _ fullShare (addV X true 1 3 c) 2 (K (dcell c (qS cc0_scratch2 1 inb_S4_S1_1))) (K (dcell (nxt c) (qR cc0_scratch3 4 1 inb_S15x2_S1x1_4_1))) _ (rem c 21) _ (by rw [duties_rscw_s_1_2 X c]; exact Finset.mem_singleton_self _) (by rw [duties_rscw_r_4_1 X (nxt c)]; exact Finset.mem_singleton_self _) (by exact amount_rscw_s_1_2 X c false) (by exact amount_rscw_r_4_1 X (nxt c) false) (by rfl) (by exact payload_rscw_s_1_2 X c false) (by exact hp2_rscw_r_4_1 X c) (by rfl) (by routes)) $$ [Hs_rscw_r_3_1 Hd_rscw_r_4_1 HO Hts_rscw_s_1_2 Htn_rscw_r_4_1]
  · isplitr; · iexact HIo
    isplitr; · iexact HIt
    isplitl [Hs_rscw_r_3_1]; · iapply (owns_intro_add X true 3 64 1 c 11 aM _ f_rscw_r_3_1 _ _ _ rfl (off3_m5_64 c) hf_rscw_r_3_1 (addV_eq_cw_3_1 X c)); iexact Hs_rscw_r_3_1
    isplitl [Hd_rscw_r_4_1]; · iexact Hd_rscw_r_4_1
    isplitl [HO]; · iexact HO
    isplitl [Hts_rscw_s_1_2]; · iexact Hts_rscw_s_1_2
    isplitr; · iexact Hrch_rscw_s_1_2
    isplitl [Htn_rscw_r_4_1]; · iexact Htn_rscw_r_4_1
    iexact Hrn_rscw_r_4_1
  iintro ⟨Hcs_rscw_s_1_2, HO⟩
  iclear HIo HIt
  -- wait recv rs ccw t=3 b=1
  try sl_exec_parts
  ihave #HIo := (bigSepL_elim_idx ownQs _ 83 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 21) (W := _) (R := 0) (m := 0) (T := ∅)
      (by rw [Nat.zero_add, expect_rsccw_r_3_1 X c])) $$ [Hc_rsccw_r_3_1 HO Hat_rsccw_r_3_1]
  · isplitr; · iexact HIo
    isplitl [Hc_rsccw_r_3_1]; · iexact Hc_rsccw_r_3_1
    isplitl [HO]; · iexact HO
    isplitr; · iapply (mayWait_rem (F := F) c 21 (by decide) _ (by show (19 : ℕ) < 2 + 21; decide)); iexact Hlev
    iexact Hat_rsccw_r_3_1
  iintro ⟨HO, Hat_rsccw_r_3_1, #Hrch_rsccw_r_3_1_1, Hpay⟩
  iclear HIo
  ihave Hp := (Entails.of_eq (rest_single X _ _ _ (duties_rsccw_r_3_1 X c) (payload_rsccw_r_3_1 X c false))) $$ Hpay
  ihave Hq := (owns_elim _ _ _) $$ Hp
  icases Hq with ⟨%f_rsccw_r_3_1, %hf_rsccw_r_3_1, Hs_rsccw_r_3_1⟩
  -- add ccw s=3 b=1: the loads and the store run by themselves (within the next run)
  -- wait send rs ccw t=2 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 21) (W := _) (R := 1) (m := 0) (T := ∅)
      (by rw [Nat.zero_add, expect_rsccw_s_1_1 X c])) $$ [Hcs_rsccw_s_1_1 HO Hat_rsccw_s_1]
  · isplitr; · iexact HIo
    isplitl [Hcs_rsccw_s_1_1]; · iexact Hcs_rsccw_s_1_1
    isplitl [HO]; · iexact HO
    isplitr; · iapply (mayWait_rem (F := F) c 21 (by decide) _ (by show (0 : ℕ) < 2 + 21; decide)); iexact Hlev
    iexact Hat_rsccw_s_1
  iintro ⟨HO, Hat_rsccw_s_1, #Hrch_rsccw_s_1_2, Hpay⟩
  iclear HIo
  ihave Hp := (Entails.of_eq (rest_single X _ _ _ (duties_rsccw_s_1_1 X c) (payload_rsccw_s_1_1 X c false))) $$ Hpay
  irename Hp => Hback_rsccw_r_1_1
  -- send rs ccw t=4 b=1 (payment 21, device function 22)
  try sl_exec_parts
  ihave HO := (owes_congr (rem_peel_21 c)) $$ HO
  ihave #HIo := (bigSepL_elim_idx ownQs _ 5 (by decide)) $$ HInvOwn
  ihave #HIt := (bigSepL_elim_idx recvCcw _ 9 (by decide)) $$ HInbCcw
  iapply (@send_owns_at F _ X c (prv c) ⟨k0_dev22 c, k0_dev22_lt c⟩ (dev22_eq c _) (slot bM 3 64 inb_S15x128x1024_S1x64x1024_3_64_0) (slot bM 4 64 inb_S15x128x1024_S1x64x1024_4_64_0) _ (qS cc0_scratch4 1 inb_S4_S1_1) (qR cc0_scratch5 4 1 inb_S15x2_S1x1_4_1) _ _ _ _ _ _ fullShare (addV X false 1 3 c) 2 (K (dcell c (qS cc0_scratch4 1 inb_S4_S1_1))) (K (dcell (prv c) (qR cc0_scratch5 4 1 inb_S15x2_S1x1_4_1))) _ (rem c 22) _ (by rw [duties_rsccw_s_1_2 X c]; exact Finset.mem_singleton_self _) (by rw [duties_rsccw_r_4_1 X (prv c)]; exact Finset.mem_singleton_self _) (by exact amount_rsccw_s_1_2 X c false) (by exact amount_rsccw_r_4_1 X (prv c) false) (by rfl) (by exact payload_rsccw_s_1_2 X c false) (by exact hp2_rsccw_r_4_1 X c) (by rfl) (by routes)) $$ [Hs_rsccw_r_3_1 Hd_rsccw_r_4_1 HO Hts_rsccw_s_1_2 Htn_rsccw_r_4_1]
  · isplitr; · iexact HIo
    isplitr; · iexact HIt
    isplitl [Hs_rsccw_r_3_1]; · iapply (owns_intro_add X false 3 64 1 c 5 bM _ f_rsccw_r_3_1 _ _ _ rfl (off4_5_64 c) hf_rsccw_r_3_1 (addV_eq_ccw_3_1 X c)); iexact Hs_rsccw_r_3_1
    isplitl [Hd_rsccw_r_4_1]; · iexact Hd_rsccw_r_4_1
    isplitl [HO]; · iexact HO
    isplitl [Hts_rsccw_s_1_2]; · iexact Hts_rsccw_s_1_2
    isplitr; · iexact Hrch_rsccw_s_1_2
    isplitl [Htn_rsccw_r_4_1]; · iexact Htn_rsccw_r_4_1
    iexact Hrn_rsccw_r_4_1
  iintro ⟨Hcs_rsccw_s_1_2, HO⟩
  iclear HIo HIt
  -- wait recv rs cw t=4 b=0
  try sl_exec_parts
  ihave #HIo := (bigSepL_elim_idx ownQs _ 24 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 22) (W := _) (R := 0) (m := 0) (T := ∅)
      (by rw [Nat.zero_add, expect_rscw_r_4_0 X c])) $$ [Hc_rscw_r_4_0 HO Hat_rscw_r_4_0]
  · isplitr; · iexact HIo
    isplitl [Hc_rscw_r_4_0]; · iexact Hc_rscw_r_4_0
    isplitl [HO]; · iexact HO
    isplitr; · iapply (mayWait_rem (F := F) c 22 (by decide) _ (by show (20 : ℕ) < 2 + 22; decide)); iexact Hlev
    iexact Hat_rscw_r_4_0
  iintro ⟨HO, Hat_rscw_r_4_0, #Hrch_rscw_r_4_0_1, Hpay⟩
  iclear HIo
  ihave Hp := (Entails.of_eq (rest_single X _ _ _ (duties_rscw_r_4_0 X c) (payload_rscw_r_4_0 X c false))) $$ Hpay
  ihave Hq := (owns_elim _ _ _) $$ Hp
  icases Hq with ⟨%f_rscw_r_4_0, %hf_rscw_r_4_0, Hs_rscw_r_4_0⟩
  -- add cw s=4 b=0: the loads and the store run by themselves (within the next run)
  -- wait send rs cw t=3 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 22) (W := _) (R := 1) (m := 0) (T := ∅)
      (by rw [Nat.zero_add, expect_rscw_s_2_1 X c])) $$ [Hcs_rscw_s_2_1 HO Hat_rscw_s_2]
  · isplitr; · iexact HIo
    isplitl [Hcs_rscw_s_2_1]; · iexact Hcs_rscw_s_2_1
    isplitl [HO]; · iexact HO
    isplitr; · iapply (mayWait_rem (F := F) c 22 (by decide) _ (by show (0 : ℕ) < 2 + 22; decide)); iexact Hlev
    iexact Hat_rscw_s_2
  iintro ⟨HO, Hat_rscw_s_2, #Hrch_rscw_s_2_2, Hpay⟩
  iclear HIo
  ihave Hp := (Entails.of_eq (rest_single X _ _ _ (duties_rscw_s_2_1 X c) (payload_rscw_s_2_1 X c false))) $$ Hpay
  irename Hp => Hback_rscw_r_2_0
  -- send rs cw t=5 b=0 (payment 22, device function 23)
  try sl_exec_parts
  ihave HO := (owes_congr (rem_peel_22 c)) $$ HO
  ihave #HIo := (bigSepL_elim_idx ownQs _ 2 (by decide)) $$ HInvOwn
  ihave #HIt := (bigSepL_elim_idx recvCw _ 10 (by decide)) $$ HInbCw
  iapply (@send_owns_at F _ X c (nxt c) ⟨k0_dev23 c, k0_dev23_lt c⟩ (dev23_eq c _) (slot aM 4 0 inb_S15x128x1024_S1x64x1024_4_0_0) (slot aM 5 0 inb_S15x128x1024_S1x64x1024_5_0_0) _ (qS cc0_scratch2 2 inb_S4_S1_2) (qR cc0_scratch3 5 0 inb_S15x2_S1x1_5_0) _ _ _ _ _ _ fullShare (addV X true 0 4 c) 2 (K (dcell c (qS cc0_scratch2 2 inb_S4_S1_2))) (K (dcell (nxt c) (qR cc0_scratch3 5 0 inb_S15x2_S1x1_5_0))) _ (rem c 23) _ (by rw [duties_rscw_s_2_2 X c]; exact Finset.mem_singleton_self _) (by rw [duties_rscw_r_5_0 X (nxt c)]; exact Finset.mem_singleton_self _) (by exact amount_rscw_s_2_2 X c false) (by exact amount_rscw_r_5_0 X (nxt c) false) (by rfl) (by exact payload_rscw_s_2_2 X c false) (by exact hp2_rscw_r_5_0 X c) (by rfl) (by routes)) $$ [Hs_rscw_r_4_0 Hd_rscw_r_5_0 HO Hts_rscw_s_2_2 Htn_rscw_r_5_0]
  · isplitr; · iexact HIo
    isplitr; · iexact HIt
    isplitl [Hs_rscw_r_4_0]; · iapply (owns_intro_add X true 4 0 0 c 10 aM _ f_rscw_r_4_0 _ _ _ rfl (off3_m6_0 c) hf_rscw_r_4_0 (addV_eq_cw_4_0 X c)); iexact Hs_rscw_r_4_0
    isplitl [Hd_rscw_r_5_0]; · iexact Hd_rscw_r_5_0
    isplitl [HO]; · iexact HO
    isplitl [Hts_rscw_s_2_2]; · iexact Hts_rscw_s_2_2
    isplitr; · iexact Hrch_rscw_s_2_2
    isplitl [Htn_rscw_r_5_0]; · iexact Htn_rscw_r_5_0
    iexact Hrn_rscw_r_5_0
  iintro ⟨Hcs_rscw_s_2_2, HO⟩
  iclear HIo HIt
  -- wait recv rs ccw t=4 b=0
  try sl_exec_parts
  ihave #HIo := (bigSepL_elim_idx ownQs _ 84 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 23) (W := _) (R := 0) (m := 0) (T := ∅)
      (by rw [Nat.zero_add, expect_rsccw_r_4_0 X c])) $$ [Hc_rsccw_r_4_0 HO Hat_rsccw_r_4_0]
  · isplitr; · iexact HIo
    isplitl [Hc_rsccw_r_4_0]; · iexact Hc_rsccw_r_4_0
    isplitl [HO]; · iexact HO
    isplitr; · iapply (mayWait_rem (F := F) c 23 (by decide) _ (by show (21 : ℕ) < 2 + 23; decide)); iexact Hlev
    iexact Hat_rsccw_r_4_0
  iintro ⟨HO, Hat_rsccw_r_4_0, #Hrch_rsccw_r_4_0_1, Hpay⟩
  iclear HIo
  ihave Hp := (Entails.of_eq (rest_single X _ _ _ (duties_rsccw_r_4_0 X c) (payload_rsccw_r_4_0 X c false))) $$ Hpay
  ihave Hq := (owns_elim _ _ _) $$ Hp
  icases Hq with ⟨%f_rsccw_r_4_0, %hf_rsccw_r_4_0, Hs_rsccw_r_4_0⟩
  -- add ccw s=4 b=0: the loads and the store run by themselves (within the next run)
  -- wait send rs ccw t=3 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 23) (W := _) (R := 1) (m := 0) (T := ∅)
      (by rw [Nat.zero_add, expect_rsccw_s_2_1 X c])) $$ [Hcs_rsccw_s_2_1 HO Hat_rsccw_s_2]
  · isplitr; · iexact HIo
    isplitl [Hcs_rsccw_s_2_1]; · iexact Hcs_rsccw_s_2_1
    isplitl [HO]; · iexact HO
    isplitr; · iapply (mayWait_rem (F := F) c 23 (by decide) _ (by show (0 : ℕ) < 2 + 23; decide)); iexact Hlev
    iexact Hat_rsccw_s_2
  iintro ⟨HO, Hat_rsccw_s_2, #Hrch_rsccw_s_2_2, Hpay⟩
  iclear HIo
  ihave Hp := (Entails.of_eq (rest_single X _ _ _ (duties_rsccw_s_2_1 X c) (payload_rsccw_s_2_1 X c false))) $$ Hpay
  irename Hp => Hback_rsccw_r_2_0
  -- send rs ccw t=5 b=0 (payment 23, device function 24)
  try sl_exec_parts
  ihave HO := (owes_congr (rem_peel_23 c)) $$ HO
  ihave #HIo := (bigSepL_elim_idx ownQs _ 6 (by decide)) $$ HInvOwn
  ihave #HIt := (bigSepL_elim_idx recvCcw _ 10 (by decide)) $$ HInbCcw
  iapply (@send_owns_at F _ X c (prv c) ⟨k0_dev24 c, k0_dev24_lt c⟩ (dev24_eq c _) (slot bM 4 0 inb_S15x128x1024_S1x64x1024_4_0_0) (slot bM 5 0 inb_S15x128x1024_S1x64x1024_5_0_0) _ (qS cc0_scratch4 2 inb_S4_S1_2) (qR cc0_scratch5 5 0 inb_S15x2_S1x1_5_0) _ _ _ _ _ _ fullShare (addV X false 0 4 c) 2 (K (dcell c (qS cc0_scratch4 2 inb_S4_S1_2))) (K (dcell (prv c) (qR cc0_scratch5 5 0 inb_S15x2_S1x1_5_0))) _ (rem c 24) _ (by rw [duties_rsccw_s_2_2 X c]; exact Finset.mem_singleton_self _) (by rw [duties_rsccw_r_5_0 X (prv c)]; exact Finset.mem_singleton_self _) (by exact amount_rsccw_s_2_2 X c false) (by exact amount_rsccw_r_5_0 X (prv c) false) (by rfl) (by exact payload_rsccw_s_2_2 X c false) (by exact hp2_rsccw_r_5_0 X c) (by rfl) (by routes)) $$ [Hs_rsccw_r_4_0 Hd_rsccw_r_5_0 HO Hts_rsccw_s_2_2 Htn_rsccw_r_5_0]
  · isplitr; · iexact HIo
    isplitr; · iexact HIt
    isplitl [Hs_rsccw_r_4_0]; · iapply (owns_intro_add X false 4 0 0 c 6 bM _ f_rsccw_r_4_0 _ _ _ rfl (off4_6_0 c) hf_rsccw_r_4_0 (addV_eq_ccw_4_0 X c)); iexact Hs_rsccw_r_4_0
    isplitl [Hd_rsccw_r_5_0]; · iexact Hd_rsccw_r_5_0
    isplitl [HO]; · iexact HO
    isplitl [Hts_rsccw_s_2_2]; · iexact Hts_rsccw_s_2_2
    isplitr; · iexact Hrch_rsccw_s_2_2
    isplitl [Htn_rsccw_r_5_0]; · iexact Htn_rsccw_r_5_0
    iexact Hrn_rsccw_r_5_0
  iintro ⟨Hcs_rsccw_s_2_2, HO⟩
  iclear HIo HIt
  -- wait recv rs cw t=4 b=1
  try sl_exec_parts
  ihave #HIo := (bigSepL_elim_idx ownQs _ 25 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 24) (W := _) (R := 0) (m := 0) (T := ∅)
      (by rw [Nat.zero_add, expect_rscw_r_4_1 X c])) $$ [Hc_rscw_r_4_1 HO Hat_rscw_r_4_1]
  · isplitr; · iexact HIo
    isplitl [Hc_rscw_r_4_1]; · iexact Hc_rscw_r_4_1
    isplitl [HO]; · iexact HO
    isplitr; · iapply (mayWait_rem (F := F) c 24 (by decide) _ (by show (22 : ℕ) < 2 + 24; decide)); iexact Hlev
    iexact Hat_rscw_r_4_1
  iintro ⟨HO, Hat_rscw_r_4_1, #Hrch_rscw_r_4_1_1, Hpay⟩
  iclear HIo
  ihave Hp := (Entails.of_eq (rest_single X _ _ _ (duties_rscw_r_4_1 X c) (payload_rscw_r_4_1 X c false))) $$ Hpay
  ihave Hq := (owns_elim _ _ _) $$ Hp
  icases Hq with ⟨%f_rscw_r_4_1, %hf_rscw_r_4_1, Hs_rscw_r_4_1⟩
  -- add cw s=4 b=1: the loads and the store run by themselves (within the next run)
  -- wait send rs cw t=3 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 24) (W := _) (R := 1) (m := 0) (T := ∅)
      (by rw [Nat.zero_add, expect_rscw_s_3_1 X c])) $$ [Hcs_rscw_s_3_1 HO Hat_rscw_s_3]
  · isplitr; · iexact HIo
    isplitl [Hcs_rscw_s_3_1]; · iexact Hcs_rscw_s_3_1
    isplitl [HO]; · iexact HO
    isplitr; · iapply (mayWait_rem (F := F) c 24 (by decide) _ (by show (0 : ℕ) < 2 + 24; decide)); iexact Hlev
    iexact Hat_rscw_s_3
  iintro ⟨HO, Hat_rscw_s_3, #Hrch_rscw_s_3_2, Hpay⟩
  iclear HIo
  ihave Hp := (Entails.of_eq (rest_single X _ _ _ (duties_rscw_s_3_1 X c) (payload_rscw_s_3_1 X c false))) $$ Hpay
  irename Hp => Hback_rscw_r_2_1
  -- send rs cw t=5 b=1 (payment 24, device function 25)
  try sl_exec_parts
  ihave HO := (owes_congr (rem_peel_24 c)) $$ HO
  ihave #HIo := (bigSepL_elim_idx ownQs _ 3 (by decide)) $$ HInvOwn
  ihave #HIt := (bigSepL_elim_idx recvCw _ 11 (by decide)) $$ HInbCw
  iapply (@send_owns_at F _ X c (nxt c) ⟨k0_dev25 c, k0_dev25_lt c⟩ (dev25_eq c _) (slot aM 4 64 inb_S15x128x1024_S1x64x1024_4_64_0) (slot aM 5 64 inb_S15x128x1024_S1x64x1024_5_64_0) _ (qS cc0_scratch2 3 inb_S4_S1_3) (qR cc0_scratch3 5 1 inb_S15x2_S1x1_5_1) _ _ _ _ _ _ fullShare (addV X true 1 4 c) 2 (K (dcell c (qS cc0_scratch2 3 inb_S4_S1_3))) (K (dcell (nxt c) (qR cc0_scratch3 5 1 inb_S15x2_S1x1_5_1))) _ (rem c 25) _ (by rw [duties_rscw_s_3_2 X c]; exact Finset.mem_singleton_self _) (by rw [duties_rscw_r_5_1 X (nxt c)]; exact Finset.mem_singleton_self _) (by exact amount_rscw_s_3_2 X c false) (by exact amount_rscw_r_5_1 X (nxt c) false) (by rfl) (by exact payload_rscw_s_3_2 X c false) (by exact hp2_rscw_r_5_1 X c) (by rfl) (by routes)) $$ [Hs_rscw_r_4_1 Hd_rscw_r_5_1 HO Hts_rscw_s_3_2 Htn_rscw_r_5_1]
  · isplitr; · iexact HIo
    isplitr; · iexact HIt
    isplitl [Hs_rscw_r_4_1]; · iapply (owns_intro_add X true 4 64 1 c 10 aM _ f_rscw_r_4_1 _ _ _ rfl (off3_m6_64 c) hf_rscw_r_4_1 (addV_eq_cw_4_1 X c)); iexact Hs_rscw_r_4_1
    isplitl [Hd_rscw_r_5_1]; · iexact Hd_rscw_r_5_1
    isplitl [HO]; · iexact HO
    isplitl [Hts_rscw_s_3_2]; · iexact Hts_rscw_s_3_2
    isplitr; · iexact Hrch_rscw_s_3_2
    isplitl [Htn_rscw_r_5_1]; · iexact Htn_rscw_r_5_1
    iexact Hrn_rscw_r_5_1
  iintro ⟨Hcs_rscw_s_3_2, HO⟩
  iclear HIo HIt
  -- wait recv rs ccw t=4 b=1
  try sl_exec_parts
  ihave #HIo := (bigSepL_elim_idx ownQs _ 85 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 25) (W := _) (R := 0) (m := 0) (T := ∅)
      (by rw [Nat.zero_add, expect_rsccw_r_4_1 X c])) $$ [Hc_rsccw_r_4_1 HO Hat_rsccw_r_4_1]
  · isplitr; · iexact HIo
    isplitl [Hc_rsccw_r_4_1]; · iexact Hc_rsccw_r_4_1
    isplitl [HO]; · iexact HO
    isplitr; · iapply (mayWait_rem (F := F) c 25 (by decide) _ (by show (23 : ℕ) < 2 + 25; decide)); iexact Hlev
    iexact Hat_rsccw_r_4_1
  iintro ⟨HO, Hat_rsccw_r_4_1, #Hrch_rsccw_r_4_1_1, Hpay⟩
  iclear HIo
  ihave Hp := (Entails.of_eq (rest_single X _ _ _ (duties_rsccw_r_4_1 X c) (payload_rsccw_r_4_1 X c false))) $$ Hpay
  ihave Hq := (owns_elim _ _ _) $$ Hp
  icases Hq with ⟨%f_rsccw_r_4_1, %hf_rsccw_r_4_1, Hs_rsccw_r_4_1⟩
  -- add ccw s=4 b=1: the loads and the store run by themselves (within the next run)
  -- wait send rs ccw t=3 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 25) (W := _) (R := 1) (m := 0) (T := ∅)
      (by rw [Nat.zero_add, expect_rsccw_s_3_1 X c])) $$ [Hcs_rsccw_s_3_1 HO Hat_rsccw_s_3]
  · isplitr; · iexact HIo
    isplitl [Hcs_rsccw_s_3_1]; · iexact Hcs_rsccw_s_3_1
    isplitl [HO]; · iexact HO
    isplitr; · iapply (mayWait_rem (F := F) c 25 (by decide) _ (by show (0 : ℕ) < 2 + 25; decide)); iexact Hlev
    iexact Hat_rsccw_s_3
  iintro ⟨HO, Hat_rsccw_s_3, #Hrch_rsccw_s_3_2, Hpay⟩
  iclear HIo
  ihave Hp := (Entails.of_eq (rest_single X _ _ _ (duties_rsccw_s_3_1 X c) (payload_rsccw_s_3_1 X c false))) $$ Hpay
  irename Hp => Hback_rsccw_r_2_1
  -- send rs ccw t=5 b=1 (payment 25, device function 26)
  try sl_exec_parts
  ihave HO := (owes_congr (rem_peel_25 c)) $$ HO
  ihave #HIo := (bigSepL_elim_idx ownQs _ 7 (by decide)) $$ HInvOwn
  ihave #HIt := (bigSepL_elim_idx recvCcw _ 11 (by decide)) $$ HInbCcw
  iapply (@send_owns_at F _ X c (prv c) ⟨k0_dev26 c, k0_dev26_lt c⟩ (dev26_eq c _) (slot bM 4 64 inb_S15x128x1024_S1x64x1024_4_64_0) (slot bM 5 64 inb_S15x128x1024_S1x64x1024_5_64_0) _ (qS cc0_scratch4 3 inb_S4_S1_3) (qR cc0_scratch5 5 1 inb_S15x2_S1x1_5_1) _ _ _ _ _ _ fullShare (addV X false 1 4 c) 2 (K (dcell c (qS cc0_scratch4 3 inb_S4_S1_3))) (K (dcell (prv c) (qR cc0_scratch5 5 1 inb_S15x2_S1x1_5_1))) _ (rem c 26) _ (by rw [duties_rsccw_s_3_2 X c]; exact Finset.mem_singleton_self _) (by rw [duties_rsccw_r_5_1 X (prv c)]; exact Finset.mem_singleton_self _) (by exact amount_rsccw_s_3_2 X c false) (by exact amount_rsccw_r_5_1 X (prv c) false) (by rfl) (by exact payload_rsccw_s_3_2 X c false) (by exact hp2_rsccw_r_5_1 X c) (by rfl) (by routes)) $$ [Hs_rsccw_r_4_1 Hd_rsccw_r_5_1 HO Hts_rsccw_s_3_2 Htn_rsccw_r_5_1]
  · isplitr; · iexact HIo
    isplitr; · iexact HIt
    isplitl [Hs_rsccw_r_4_1]; · iapply (owns_intro_add X false 4 64 1 c 6 bM _ f_rsccw_r_4_1 _ _ _ rfl (off4_6_64 c) hf_rsccw_r_4_1 (addV_eq_ccw_4_1 X c)); iexact Hs_rsccw_r_4_1
    isplitl [Hd_rsccw_r_5_1]; · iexact Hd_rsccw_r_5_1
    isplitl [HO]; · iexact HO
    isplitl [Hts_rsccw_s_3_2]; · iexact Hts_rsccw_s_3_2
    isplitr; · iexact Hrch_rsccw_s_3_2
    isplitl [Htn_rsccw_r_5_1]; · iexact Htn_rsccw_r_5_1
    iexact Hrn_rsccw_r_5_1
  iintro ⟨Hcs_rsccw_s_3_2, HO⟩
  iclear HIo HIt
  -- wait recv rs cw t=5 b=0
  try sl_exec_parts
  ihave #HIo := (bigSepL_elim_idx ownQs _ 26 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 26) (W := _) (R := 0) (m := 0) (T := ∅)
      (by rw [Nat.zero_add, expect_rscw_r_5_0 X c])) $$ [Hc_rscw_r_5_0 HO Hat_rscw_r_5_0]
  · isplitr; · iexact HIo
    isplitl [Hc_rscw_r_5_0]; · iexact Hc_rscw_r_5_0
    isplitl [HO]; · iexact HO
    isplitr; · iapply (mayWait_rem (F := F) c 26 (by decide) _ (by show (24 : ℕ) < 2 + 26; decide)); iexact Hlev
    iexact Hat_rscw_r_5_0
  iintro ⟨HO, Hat_rscw_r_5_0, #Hrch_rscw_r_5_0_1, Hpay⟩
  iclear HIo
  ihave Hp := (Entails.of_eq (rest_single X _ _ _ (duties_rscw_r_5_0 X c) (payload_rscw_r_5_0 X c false))) $$ Hpay
  ihave Hq := (owns_elim _ _ _) $$ Hp
  icases Hq with ⟨%f_rscw_r_5_0, %hf_rscw_r_5_0, Hs_rscw_r_5_0⟩
  -- add cw s=5 b=0: the loads and the store run by themselves (within the next run)
  -- wait send rs cw t=4 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 26) (W := _) (R := 2) (m := 0) (T := ∅)
      (by rw [Nat.zero_add, expect_rscw_s_0_2 X c])) $$ [Hcs_rscw_s_0_2 HO Hat_rscw_s_0]
  · isplitr; · iexact HIo
    isplitl [Hcs_rscw_s_0_2]; · iexact Hcs_rscw_s_0_2
    isplitl [HO]; · iexact HO
    isplitr; · iapply (mayWait_rem (F := F) c 26 (by decide) _ (by show (0 : ℕ) < 2 + 26; decide)); iexact Hlev
    iexact Hat_rscw_s_0
  iintro ⟨HO, Hat_rscw_s_0, #Hrch_rscw_s_0_3, Hpay⟩
  iclear HIo
  ihave Hp := (Entails.of_eq (rest_single X _ _ _ (duties_rscw_s_0_2 X c) (payload_rscw_s_0_2 X c false))) $$ Hpay
  irename Hp => Hback_rscw_r_3_0
  -- send rs cw t=6 b=0 (payment 26, device function 27)
  try sl_exec_parts
  ihave HO := (owes_congr (rem_peel_26 c)) $$ HO
  ihave #HIo := (bigSepL_elim_idx ownQs _ 0 (by decide)) $$ HInvOwn
  ihave #HIt := (bigSepL_elim_idx recvCw _ 12 (by decide)) $$ HInbCw
  iapply (@send_owns_at F _ X c (nxt c) ⟨k0_dev27 c, k0_dev27_lt c⟩ (dev27_eq c _) (slot aM 5 0 inb_S15x128x1024_S1x64x1024_5_0_0) (slot aM 6 0 inb_S15x128x1024_S1x64x1024_6_0_0) _ (qS cc0_scratch2 0 inb_S4_S1_0) (qR cc0_scratch3 6 0 inb_S15x2_S1x1_6_0) _ _ _ _ _ _ fullShare (addV X true 0 5 c) 3 (K (dcell c (qS cc0_scratch2 0 inb_S4_S1_0))) (K (dcell (nxt c) (qR cc0_scratch3 6 0 inb_S15x2_S1x1_6_0))) _ (rem c 27) _ (by rw [duties_rscw_s_0_3 X c]; exact Finset.mem_singleton_self _) (by rw [duties_rscw_r_6_0 X (nxt c)]; exact Finset.mem_singleton_self _) (by exact amount_rscw_s_0_3 X c false) (by exact amount_rscw_r_6_0 X (nxt c) false) (by rfl) (by exact payload_rscw_s_0_3 X c false) (by exact hp2_rscw_r_6_0 X c) (by rfl) (by routes)) $$ [Hs_rscw_r_5_0 Hd_rscw_r_6_0 HO Hts_rscw_s_0_3 Htn_rscw_r_6_0]
  · isplitr; · iexact HIo
    isplitr; · iexact HIt
    isplitl [Hs_rscw_r_5_0]; · iapply (owns_intro_add X true 5 0 0 c 9 aM _ f_rscw_r_5_0 _ _ _ rfl (off3_m7_0 c) hf_rscw_r_5_0 (addV_eq_cw_5_0 X c)); iexact Hs_rscw_r_5_0
    isplitl [Hd_rscw_r_6_0]; · iexact Hd_rscw_r_6_0
    isplitl [HO]; · iexact HO
    isplitl [Hts_rscw_s_0_3]; · iexact Hts_rscw_s_0_3
    isplitr; · iexact Hrch_rscw_s_0_3
    isplitl [Htn_rscw_r_6_0]; · iexact Htn_rscw_r_6_0
    iexact Hrn_rscw_r_6_0
  iintro ⟨Hcs_rscw_s_0_3, HO⟩
  iclear HIo HIt
  -- wait recv rs ccw t=5 b=0
  try sl_exec_parts
  ihave #HIo := (bigSepL_elim_idx ownQs _ 86 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 27) (W := _) (R := 0) (m := 0) (T := ∅)
      (by rw [Nat.zero_add, expect_rsccw_r_5_0 X c])) $$ [Hc_rsccw_r_5_0 HO Hat_rsccw_r_5_0]
  · isplitr; · iexact HIo
    isplitl [Hc_rsccw_r_5_0]; · iexact Hc_rsccw_r_5_0
    isplitl [HO]; · iexact HO
    isplitr; · iapply (mayWait_rem (F := F) c 27 (by decide) _ (by show (25 : ℕ) < 2 + 27; decide)); iexact Hlev
    iexact Hat_rsccw_r_5_0
  iintro ⟨HO, Hat_rsccw_r_5_0, #Hrch_rsccw_r_5_0_1, Hpay⟩
  iclear HIo
  ihave Hp := (Entails.of_eq (rest_single X _ _ _ (duties_rsccw_r_5_0 X c) (payload_rsccw_r_5_0 X c false))) $$ Hpay
  ihave Hq := (owns_elim _ _ _) $$ Hp
  icases Hq with ⟨%f_rsccw_r_5_0, %hf_rsccw_r_5_0, Hs_rsccw_r_5_0⟩
  -- add ccw s=5 b=0: the loads and the store run by themselves (within the next run)
  -- wait send rs ccw t=4 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 27) (W := _) (R := 2) (m := 0) (T := ∅)
      (by rw [Nat.zero_add, expect_rsccw_s_0_2 X c])) $$ [Hcs_rsccw_s_0_2 HO Hat_rsccw_s_0]
  · isplitr; · iexact HIo
    isplitl [Hcs_rsccw_s_0_2]; · iexact Hcs_rsccw_s_0_2
    isplitl [HO]; · iexact HO
    isplitr; · iapply (mayWait_rem (F := F) c 27 (by decide) _ (by show (0 : ℕ) < 2 + 27; decide)); iexact Hlev
    iexact Hat_rsccw_s_0
  iintro ⟨HO, Hat_rsccw_s_0, #Hrch_rsccw_s_0_3, Hpay⟩
  iclear HIo
  ihave Hp := (Entails.of_eq (rest_single X _ _ _ (duties_rsccw_s_0_2 X c) (payload_rsccw_s_0_2 X c false))) $$ Hpay
  irename Hp => Hback_rsccw_r_3_0
  -- send rs ccw t=6 b=0 (payment 27, device function 28)
  try sl_exec_parts
  ihave HO := (owes_congr (rem_peel_27 c)) $$ HO
  ihave #HIo := (bigSepL_elim_idx ownQs _ 4 (by decide)) $$ HInvOwn
  ihave #HIt := (bigSepL_elim_idx recvCcw _ 12 (by decide)) $$ HInbCcw
  iapply (@send_owns_at F _ X c (prv c) ⟨k0_dev28 c, k0_dev28_lt c⟩ (dev28_eq c _) (slot bM 5 0 inb_S15x128x1024_S1x64x1024_5_0_0) (slot bM 6 0 inb_S15x128x1024_S1x64x1024_6_0_0) _ (qS cc0_scratch4 0 inb_S4_S1_0) (qR cc0_scratch5 6 0 inb_S15x2_S1x1_6_0) _ _ _ _ _ _ fullShare (addV X false 0 5 c) 3 (K (dcell c (qS cc0_scratch4 0 inb_S4_S1_0))) (K (dcell (prv c) (qR cc0_scratch5 6 0 inb_S15x2_S1x1_6_0))) _ (rem c 28) _ (by rw [duties_rsccw_s_0_3 X c]; exact Finset.mem_singleton_self _) (by rw [duties_rsccw_r_6_0 X (prv c)]; exact Finset.mem_singleton_self _) (by exact amount_rsccw_s_0_3 X c false) (by exact amount_rsccw_r_6_0 X (prv c) false) (by rfl) (by exact payload_rsccw_s_0_3 X c false) (by exact hp2_rsccw_r_6_0 X c) (by rfl) (by routes)) $$ [Hs_rsccw_r_5_0 Hd_rsccw_r_6_0 HO Hts_rsccw_s_0_3 Htn_rsccw_r_6_0]
  · isplitr; · iexact HIo
    isplitr; · iexact HIt
    isplitl [Hs_rsccw_r_5_0]; · iapply (owns_intro_add X false 5 0 0 c 7 bM _ f_rsccw_r_5_0 _ _ _ rfl (off4_7_0 c) hf_rsccw_r_5_0 (addV_eq_ccw_5_0 X c)); iexact Hs_rsccw_r_5_0
    isplitl [Hd_rsccw_r_6_0]; · iexact Hd_rsccw_r_6_0
    isplitl [HO]; · iexact HO
    isplitl [Hts_rsccw_s_0_3]; · iexact Hts_rsccw_s_0_3
    isplitr; · iexact Hrch_rsccw_s_0_3
    isplitl [Htn_rsccw_r_6_0]; · iexact Htn_rsccw_r_6_0
    iexact Hrn_rsccw_r_6_0
  iintro ⟨Hcs_rsccw_s_0_3, HO⟩
  iclear HIo HIt
  -- wait recv rs cw t=5 b=1
  try sl_exec_parts
  ihave #HIo := (bigSepL_elim_idx ownQs _ 27 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 28) (W := _) (R := 0) (m := 0) (T := ∅)
      (by rw [Nat.zero_add, expect_rscw_r_5_1 X c])) $$ [Hc_rscw_r_5_1 HO Hat_rscw_r_5_1]
  · isplitr; · iexact HIo
    isplitl [Hc_rscw_r_5_1]; · iexact Hc_rscw_r_5_1
    isplitl [HO]; · iexact HO
    isplitr; · iapply (mayWait_rem (F := F) c 28 (by decide) _ (by show (26 : ℕ) < 2 + 28; decide)); iexact Hlev
    iexact Hat_rscw_r_5_1
  iintro ⟨HO, Hat_rscw_r_5_1, #Hrch_rscw_r_5_1_1, Hpay⟩
  iclear HIo
  ihave Hp := (Entails.of_eq (rest_single X _ _ _ (duties_rscw_r_5_1 X c) (payload_rscw_r_5_1 X c false))) $$ Hpay
  ihave Hq := (owns_elim _ _ _) $$ Hp
  icases Hq with ⟨%f_rscw_r_5_1, %hf_rscw_r_5_1, Hs_rscw_r_5_1⟩
  -- add cw s=5 b=1: the loads and the store run by themselves (within the next run)
  -- wait send rs cw t=4 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 28) (W := _) (R := 2) (m := 0) (T := ∅)
      (by rw [Nat.zero_add, expect_rscw_s_1_2 X c])) $$ [Hcs_rscw_s_1_2 HO Hat_rscw_s_1]
  · isplitr; · iexact HIo
    isplitl [Hcs_rscw_s_1_2]; · iexact Hcs_rscw_s_1_2
    isplitl [HO]; · iexact HO
    isplitr; · iapply (mayWait_rem (F := F) c 28 (by decide) _ (by show (0 : ℕ) < 2 + 28; decide)); iexact Hlev
    iexact Hat_rscw_s_1
  iintro ⟨HO, Hat_rscw_s_1, #Hrch_rscw_s_1_3, Hpay⟩
  iclear HIo
  ihave Hp := (Entails.of_eq (rest_single X _ _ _ (duties_rscw_s_1_2 X c) (payload_rscw_s_1_2 X c false))) $$ Hpay
  irename Hp => Hback_rscw_r_3_1
  -- send rs cw t=6 b=1 (payment 28, device function 29)
  try sl_exec_parts
  ihave HO := (owes_congr (rem_peel_28 c)) $$ HO
  ihave #HIo := (bigSepL_elim_idx ownQs _ 1 (by decide)) $$ HInvOwn
  ihave #HIt := (bigSepL_elim_idx recvCw _ 13 (by decide)) $$ HInbCw
  iapply (@send_owns_at F _ X c (nxt c) ⟨k0_dev29 c, k0_dev29_lt c⟩ (dev29_eq c _) (slot aM 5 64 inb_S15x128x1024_S1x64x1024_5_64_0) (slot aM 6 64 inb_S15x128x1024_S1x64x1024_6_64_0) _ (qS cc0_scratch2 1 inb_S4_S1_1) (qR cc0_scratch3 6 1 inb_S15x2_S1x1_6_1) _ _ _ _ _ _ fullShare (addV X true 1 5 c) 3 (K (dcell c (qS cc0_scratch2 1 inb_S4_S1_1))) (K (dcell (nxt c) (qR cc0_scratch3 6 1 inb_S15x2_S1x1_6_1))) _ (rem c 29) _ (by rw [duties_rscw_s_1_3 X c]; exact Finset.mem_singleton_self _) (by rw [duties_rscw_r_6_1 X (nxt c)]; exact Finset.mem_singleton_self _) (by exact amount_rscw_s_1_3 X c false) (by exact amount_rscw_r_6_1 X (nxt c) false) (by rfl) (by exact payload_rscw_s_1_3 X c false) (by exact hp2_rscw_r_6_1 X c) (by rfl) (by routes)) $$ [Hs_rscw_r_5_1 Hd_rscw_r_6_1 HO Hts_rscw_s_1_3 Htn_rscw_r_6_1]
  · isplitr; · iexact HIo
    isplitr; · iexact HIt
    isplitl [Hs_rscw_r_5_1]; · iapply (owns_intro_add X true 5 64 1 c 9 aM _ f_rscw_r_5_1 _ _ _ rfl (off3_m7_64 c) hf_rscw_r_5_1 (addV_eq_cw_5_1 X c)); iexact Hs_rscw_r_5_1
    isplitl [Hd_rscw_r_6_1]; · iexact Hd_rscw_r_6_1
    isplitl [HO]; · iexact HO
    isplitl [Hts_rscw_s_1_3]; · iexact Hts_rscw_s_1_3
    isplitr; · iexact Hrch_rscw_s_1_3
    isplitl [Htn_rscw_r_6_1]; · iexact Htn_rscw_r_6_1
    iexact Hrn_rscw_r_6_1
  iintro ⟨Hcs_rscw_s_1_3, HO⟩
  iclear HIo HIt
  -- wait recv rs ccw t=5 b=1
  try sl_exec_parts
  ihave #HIo := (bigSepL_elim_idx ownQs _ 87 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 29) (W := _) (R := 0) (m := 0) (T := ∅)
      (by rw [Nat.zero_add, expect_rsccw_r_5_1 X c])) $$ [Hc_rsccw_r_5_1 HO Hat_rsccw_r_5_1]
  · isplitr; · iexact HIo
    isplitl [Hc_rsccw_r_5_1]; · iexact Hc_rsccw_r_5_1
    isplitl [HO]; · iexact HO
    isplitr; · iapply (mayWait_rem (F := F) c 29 (by decide) _ (by show (27 : ℕ) < 2 + 29; decide)); iexact Hlev
    iexact Hat_rsccw_r_5_1
  iintro ⟨HO, Hat_rsccw_r_5_1, #Hrch_rsccw_r_5_1_1, Hpay⟩
  iclear HIo
  ihave Hp := (Entails.of_eq (rest_single X _ _ _ (duties_rsccw_r_5_1 X c) (payload_rsccw_r_5_1 X c false))) $$ Hpay
  ihave Hq := (owns_elim _ _ _) $$ Hp
  icases Hq with ⟨%f_rsccw_r_5_1, %hf_rsccw_r_5_1, Hs_rsccw_r_5_1⟩
  -- add ccw s=5 b=1: the loads and the store run by themselves (within the next run)
  -- wait send rs ccw t=4 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 29) (W := _) (R := 2) (m := 0) (T := ∅)
      (by rw [Nat.zero_add, expect_rsccw_s_1_2 X c])) $$ [Hcs_rsccw_s_1_2 HO Hat_rsccw_s_1]
  · isplitr; · iexact HIo
    isplitl [Hcs_rsccw_s_1_2]; · iexact Hcs_rsccw_s_1_2
    isplitl [HO]; · iexact HO
    isplitr; · iapply (mayWait_rem (F := F) c 29 (by decide) _ (by show (0 : ℕ) < 2 + 29; decide)); iexact Hlev
    iexact Hat_rsccw_s_1
  iintro ⟨HO, Hat_rsccw_s_1, #Hrch_rsccw_s_1_3, Hpay⟩
  iclear HIo
  ihave Hp := (Entails.of_eq (rest_single X _ _ _ (duties_rsccw_s_1_2 X c) (payload_rsccw_s_1_2 X c false))) $$ Hpay
  irename Hp => Hback_rsccw_r_3_1
  -- send rs ccw t=6 b=1 (payment 29, device function 30)
  try sl_exec_parts
  ihave HO := (owes_congr (rem_peel_29 c)) $$ HO
  ihave #HIo := (bigSepL_elim_idx ownQs _ 5 (by decide)) $$ HInvOwn
  ihave #HIt := (bigSepL_elim_idx recvCcw _ 13 (by decide)) $$ HInbCcw
  iapply (@send_owns_at F _ X c (prv c) ⟨k0_dev30 c, k0_dev30_lt c⟩ (dev30_eq c _) (slot bM 5 64 inb_S15x128x1024_S1x64x1024_5_64_0) (slot bM 6 64 inb_S15x128x1024_S1x64x1024_6_64_0) _ (qS cc0_scratch4 1 inb_S4_S1_1) (qR cc0_scratch5 6 1 inb_S15x2_S1x1_6_1) _ _ _ _ _ _ fullShare (addV X false 1 5 c) 3 (K (dcell c (qS cc0_scratch4 1 inb_S4_S1_1))) (K (dcell (prv c) (qR cc0_scratch5 6 1 inb_S15x2_S1x1_6_1))) _ (rem c 30) _ (by rw [duties_rsccw_s_1_3 X c]; exact Finset.mem_singleton_self _) (by rw [duties_rsccw_r_6_1 X (prv c)]; exact Finset.mem_singleton_self _) (by exact amount_rsccw_s_1_3 X c false) (by exact amount_rsccw_r_6_1 X (prv c) false) (by rfl) (by exact payload_rsccw_s_1_3 X c false) (by exact hp2_rsccw_r_6_1 X c) (by rfl) (by routes)) $$ [Hs_rsccw_r_5_1 Hd_rsccw_r_6_1 HO Hts_rsccw_s_1_3 Htn_rsccw_r_6_1]
  · isplitr; · iexact HIo
    isplitr; · iexact HIt
    isplitl [Hs_rsccw_r_5_1]; · iapply (owns_intro_add X false 5 64 1 c 7 bM _ f_rsccw_r_5_1 _ _ _ rfl (off4_7_64 c) hf_rsccw_r_5_1 (addV_eq_ccw_5_1 X c)); iexact Hs_rsccw_r_5_1
    isplitl [Hd_rsccw_r_6_1]; · iexact Hd_rsccw_r_6_1
    isplitl [HO]; · iexact HO
    isplitl [Hts_rsccw_s_1_3]; · iexact Hts_rsccw_s_1_3
    isplitr; · iexact Hrch_rsccw_s_1_3
    isplitl [Htn_rsccw_r_6_1]; · iexact Htn_rsccw_r_6_1
    iexact Hrn_rsccw_r_6_1
  iintro ⟨Hcs_rsccw_s_1_3, HO⟩
  iclear HIo HIt
  -- wait recv rs cw t=6 b=0
  try sl_exec_parts
  ihave #HIo := (bigSepL_elim_idx ownQs _ 28 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 30) (W := _) (R := 0) (m := 0) (T := ∅)
      (by rw [Nat.zero_add, expect_rscw_r_6_0 X c])) $$ [Hc_rscw_r_6_0 HO Hat_rscw_r_6_0]
  · isplitr; · iexact HIo
    isplitl [Hc_rscw_r_6_0]; · iexact Hc_rscw_r_6_0
    isplitl [HO]; · iexact HO
    isplitr; · iapply (mayWait_rem (F := F) c 30 (by decide) _ (by show (28 : ℕ) < 2 + 30; decide)); iexact Hlev
    iexact Hat_rscw_r_6_0
  iintro ⟨HO, Hat_rscw_r_6_0, #Hrch_rscw_r_6_0_1, Hpay⟩
  iclear HIo
  ihave Hp := (Entails.of_eq (rest_single X _ _ _ (duties_rscw_r_6_0 X c) (payload_rscw_r_6_0 X c false))) $$ Hpay
  ihave Hq := (owns_elim _ _ _) $$ Hp
  icases Hq with ⟨%f_rscw_r_6_0, %hf_rscw_r_6_0, Hs_rscw_r_6_0⟩
  -- add cw s=6 b=0: the loads and the store run by themselves (within the next run)
  -- wait send rs cw t=5 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 30) (W := _) (R := 2) (m := 0) (T := ∅)
      (by rw [Nat.zero_add, expect_rscw_s_2_2 X c])) $$ [Hcs_rscw_s_2_2 HO Hat_rscw_s_2]
  · isplitr; · iexact HIo
    isplitl [Hcs_rscw_s_2_2]; · iexact Hcs_rscw_s_2_2
    isplitl [HO]; · iexact HO
    isplitr; · iapply (mayWait_rem (F := F) c 30 (by decide) _ (by show (0 : ℕ) < 2 + 30; decide)); iexact Hlev
    iexact Hat_rscw_s_2
  iintro ⟨HO, Hat_rscw_s_2, #Hrch_rscw_s_2_3, Hpay⟩
  iclear HIo
  ihave Hp := (Entails.of_eq (rest_single X _ _ _ (duties_rscw_s_2_2 X c) (payload_rscw_s_2_2 X c false))) $$ Hpay
  irename Hp => Hback_rscw_r_4_0
  -- send rs cw t=7 b=0 (payment 30, device function 31)
  try sl_exec_parts
  ihave HO := (owes_congr (rem_peel_30 c)) $$ HO
  ihave #HIo := (bigSepL_elim_idx ownQs _ 2 (by decide)) $$ HInvOwn
  ihave #HIt := (bigSepL_elim_idx recvCw _ 14 (by decide)) $$ HInbCw
  iapply (@send_owns_at F _ X c (nxt c) ⟨k0_dev31 c, k0_dev31_lt c⟩ (dev31_eq c _) (slot aM 6 0 inb_S15x128x1024_S1x64x1024_6_0_0) (slot aM 7 0 inb_S15x128x1024_S1x64x1024_7_0_0) _ (qS cc0_scratch2 2 inb_S4_S1_2) (qR cc0_scratch3 7 0 inb_S15x2_S1x1_7_0) _ _ _ _ _ _ fullShare (addV X true 0 6 c) 3 (K (dcell c (qS cc0_scratch2 2 inb_S4_S1_2))) (K (dcell (nxt c) (qR cc0_scratch3 7 0 inb_S15x2_S1x1_7_0))) _ (rem c 31) _ (by rw [duties_rscw_s_2_3 X c]; exact Finset.mem_singleton_self _) (by rw [duties_rscw_r_7_0 X (nxt c)]; exact Finset.mem_singleton_self _) (by exact amount_rscw_s_2_3 X c false) (by exact amount_rscw_r_7_0 X (nxt c) false) (by rfl) (by exact payload_rscw_s_2_3 X c false) (by exact hp2_rscw_r_7_0 X c) (by rfl) (by routes)) $$ [Hs_rscw_r_6_0 Hd_rscw_r_7_0 HO Hts_rscw_s_2_3 Htn_rscw_r_7_0]
  · isplitr; · iexact HIo
    isplitr; · iexact HIt
    isplitl [Hs_rscw_r_6_0]; · iapply (owns_intro_add X true 6 0 0 c 8 aM _ f_rscw_r_6_0 _ _ _ rfl (off3_m8_0 c) hf_rscw_r_6_0 (addV_eq_cw_6_0 X c)); iexact Hs_rscw_r_6_0
    isplitl [Hd_rscw_r_7_0]; · iexact Hd_rscw_r_7_0
    isplitl [HO]; · iexact HO
    isplitl [Hts_rscw_s_2_3]; · iexact Hts_rscw_s_2_3
    isplitr; · iexact Hrch_rscw_s_2_3
    isplitl [Htn_rscw_r_7_0]; · iexact Htn_rscw_r_7_0
    iexact Hrn_rscw_r_7_0
  iintro ⟨Hcs_rscw_s_2_3, HO⟩
  iclear HIo HIt
  -- wait recv rs ccw t=6 b=0
  try sl_exec_parts
  ihave #HIo := (bigSepL_elim_idx ownQs _ 88 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 31) (W := _) (R := 0) (m := 0) (T := ∅)
      (by rw [Nat.zero_add, expect_rsccw_r_6_0 X c])) $$ [Hc_rsccw_r_6_0 HO Hat_rsccw_r_6_0]
  · isplitr; · iexact HIo
    isplitl [Hc_rsccw_r_6_0]; · iexact Hc_rsccw_r_6_0
    isplitl [HO]; · iexact HO
    isplitr; · iapply (mayWait_rem (F := F) c 31 (by decide) _ (by show (29 : ℕ) < 2 + 31; decide)); iexact Hlev
    iexact Hat_rsccw_r_6_0
  iintro ⟨HO, Hat_rsccw_r_6_0, #Hrch_rsccw_r_6_0_1, Hpay⟩
  iclear HIo
  ihave Hp := (Entails.of_eq (rest_single X _ _ _ (duties_rsccw_r_6_0 X c) (payload_rsccw_r_6_0 X c false))) $$ Hpay
  ihave Hq := (owns_elim _ _ _) $$ Hp
  icases Hq with ⟨%f_rsccw_r_6_0, %hf_rsccw_r_6_0, Hs_rsccw_r_6_0⟩
  -- add ccw s=6 b=0: the loads and the store run by themselves (within the next run)
  -- wait send rs ccw t=5 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 31) (W := _) (R := 2) (m := 0) (T := ∅)
      (by rw [Nat.zero_add, expect_rsccw_s_2_2 X c])) $$ [Hcs_rsccw_s_2_2 HO Hat_rsccw_s_2]
  · isplitr; · iexact HIo
    isplitl [Hcs_rsccw_s_2_2]; · iexact Hcs_rsccw_s_2_2
    isplitl [HO]; · iexact HO
    isplitr; · iapply (mayWait_rem (F := F) c 31 (by decide) _ (by show (0 : ℕ) < 2 + 31; decide)); iexact Hlev
    iexact Hat_rsccw_s_2
  iintro ⟨HO, Hat_rsccw_s_2, #Hrch_rsccw_s_2_3, Hpay⟩
  iclear HIo
  ihave Hp := (Entails.of_eq (rest_single X _ _ _ (duties_rsccw_s_2_2 X c) (payload_rsccw_s_2_2 X c false))) $$ Hpay
  irename Hp => Hback_rsccw_r_4_0
  -- send rs ccw t=7 b=0 (payment 31, device function 32)
  try sl_exec_parts
  ihave HO := (owes_congr (rem_peel_31 c)) $$ HO
  ihave #HIo := (bigSepL_elim_idx ownQs _ 6 (by decide)) $$ HInvOwn
  ihave #HIt := (bigSepL_elim_idx recvCcw _ 14 (by decide)) $$ HInbCcw
  iapply (@send_owns_at F _ X c (prv c) ⟨k0_dev32 c, k0_dev32_lt c⟩ (dev32_eq c _) (slot bM 6 0 inb_S15x128x1024_S1x64x1024_6_0_0) (slot bM 7 0 inb_S15x128x1024_S1x64x1024_7_0_0) _ (qS cc0_scratch4 2 inb_S4_S1_2) (qR cc0_scratch5 7 0 inb_S15x2_S1x1_7_0) _ _ _ _ _ _ fullShare (addV X false 0 6 c) 3 (K (dcell c (qS cc0_scratch4 2 inb_S4_S1_2))) (K (dcell (prv c) (qR cc0_scratch5 7 0 inb_S15x2_S1x1_7_0))) _ (rem c 32) _ (by rw [duties_rsccw_s_2_3 X c]; exact Finset.mem_singleton_self _) (by rw [duties_rsccw_r_7_0 X (prv c)]; exact Finset.mem_singleton_self _) (by exact amount_rsccw_s_2_3 X c false) (by exact amount_rsccw_r_7_0 X (prv c) false) (by rfl) (by exact payload_rsccw_s_2_3 X c false) (by exact hp2_rsccw_r_7_0 X c) (by rfl) (by routes)) $$ [Hs_rsccw_r_6_0 Hd_rsccw_r_7_0 HO Hts_rsccw_s_2_3 Htn_rsccw_r_7_0]
  · isplitr; · iexact HIo
    isplitr; · iexact HIt
    isplitl [Hs_rsccw_r_6_0]; · iapply (owns_intro_add X false 6 0 0 c 8 bM _ f_rsccw_r_6_0 _ _ _ rfl (off4_8_0 c) hf_rsccw_r_6_0 (addV_eq_ccw_6_0 X c)); iexact Hs_rsccw_r_6_0
    isplitl [Hd_rsccw_r_7_0]; · iexact Hd_rsccw_r_7_0
    isplitl [HO]; · iexact HO
    isplitl [Hts_rsccw_s_2_3]; · iexact Hts_rsccw_s_2_3
    isplitr; · iexact Hrch_rsccw_s_2_3
    isplitl [Htn_rsccw_r_7_0]; · iexact Htn_rsccw_r_7_0
    iexact Hrn_rsccw_r_7_0
  iintro ⟨Hcs_rsccw_s_2_3, HO⟩
  iclear HIo HIt
  -- wait recv rs cw t=6 b=1
  try sl_exec_parts
  ihave #HIo := (bigSepL_elim_idx ownQs _ 29 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 32) (W := _) (R := 0) (m := 0) (T := ∅)
      (by rw [Nat.zero_add, expect_rscw_r_6_1 X c])) $$ [Hc_rscw_r_6_1 HO Hat_rscw_r_6_1]
  · isplitr; · iexact HIo
    isplitl [Hc_rscw_r_6_1]; · iexact Hc_rscw_r_6_1
    isplitl [HO]; · iexact HO
    isplitr; · iapply (mayWait_rem (F := F) c 32 (by decide) _ (by show (30 : ℕ) < 2 + 32; decide)); iexact Hlev
    iexact Hat_rscw_r_6_1
  iintro ⟨HO, Hat_rscw_r_6_1, #Hrch_rscw_r_6_1_1, Hpay⟩
  iclear HIo
  ihave Hp := (Entails.of_eq (rest_single X _ _ _ (duties_rscw_r_6_1 X c) (payload_rscw_r_6_1 X c false))) $$ Hpay
  ihave Hq := (owns_elim _ _ _) $$ Hp
  icases Hq with ⟨%f_rscw_r_6_1, %hf_rscw_r_6_1, Hs_rscw_r_6_1⟩
  -- add cw s=6 b=1: the loads and the store run by themselves (within the next run)
  -- wait send rs cw t=5 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 32) (W := _) (R := 2) (m := 0) (T := ∅)
      (by rw [Nat.zero_add, expect_rscw_s_3_2 X c])) $$ [Hcs_rscw_s_3_2 HO Hat_rscw_s_3]
  · isplitr; · iexact HIo
    isplitl [Hcs_rscw_s_3_2]; · iexact Hcs_rscw_s_3_2
    isplitl [HO]; · iexact HO
    isplitr; · iapply (mayWait_rem (F := F) c 32 (by decide) _ (by show (0 : ℕ) < 2 + 32; decide)); iexact Hlev
    iexact Hat_rscw_s_3
  iintro ⟨HO, Hat_rscw_s_3, #Hrch_rscw_s_3_3, Hpay⟩
  iclear HIo
  ihave Hp := (Entails.of_eq (rest_single X _ _ _ (duties_rscw_s_3_2 X c) (payload_rscw_s_3_2 X c false))) $$ Hpay
  irename Hp => Hback_rscw_r_4_1
  -- send rs cw t=7 b=1 (payment 32, device function 33)
  try sl_exec_parts
  ihave HO := (owes_congr (rem_peel_32 c)) $$ HO
  ihave #HIo := (bigSepL_elim_idx ownQs _ 3 (by decide)) $$ HInvOwn
  ihave #HIt := (bigSepL_elim_idx recvCw _ 15 (by decide)) $$ HInbCw
  iapply (@send_owns_at F _ X c (nxt c) ⟨k0_dev33 c, k0_dev33_lt c⟩ (dev33_eq c _) (slot aM 6 64 inb_S15x128x1024_S1x64x1024_6_64_0) (slot aM 7 64 inb_S15x128x1024_S1x64x1024_7_64_0) _ (qS cc0_scratch2 3 inb_S4_S1_3) (qR cc0_scratch3 7 1 inb_S15x2_S1x1_7_1) _ _ _ _ _ _ fullShare (addV X true 1 6 c) 3 (K (dcell c (qS cc0_scratch2 3 inb_S4_S1_3))) (K (dcell (nxt c) (qR cc0_scratch3 7 1 inb_S15x2_S1x1_7_1))) _ (rem c 33) _ (by rw [duties_rscw_s_3_3 X c]; exact Finset.mem_singleton_self _) (by rw [duties_rscw_r_7_1 X (nxt c)]; exact Finset.mem_singleton_self _) (by exact amount_rscw_s_3_3 X c false) (by exact amount_rscw_r_7_1 X (nxt c) false) (by rfl) (by exact payload_rscw_s_3_3 X c false) (by exact hp2_rscw_r_7_1 X c) (by rfl) (by routes)) $$ [Hs_rscw_r_6_1 Hd_rscw_r_7_1 HO Hts_rscw_s_3_3 Htn_rscw_r_7_1]
  · isplitr; · iexact HIo
    isplitr; · iexact HIt
    isplitl [Hs_rscw_r_6_1]; · iapply (owns_intro_add X true 6 64 1 c 8 aM _ f_rscw_r_6_1 _ _ _ rfl (off3_m8_64 c) hf_rscw_r_6_1 (addV_eq_cw_6_1 X c)); iexact Hs_rscw_r_6_1
    isplitl [Hd_rscw_r_7_1]; · iexact Hd_rscw_r_7_1
    isplitl [HO]; · iexact HO
    isplitl [Hts_rscw_s_3_3]; · iexact Hts_rscw_s_3_3
    isplitr; · iexact Hrch_rscw_s_3_3
    isplitl [Htn_rscw_r_7_1]; · iexact Htn_rscw_r_7_1
    iexact Hrn_rscw_r_7_1
  iintro ⟨Hcs_rscw_s_3_3, HO⟩
  iclear HIo HIt
  -- wait recv rs ccw t=6 b=1
  try sl_exec_parts
  ihave #HIo := (bigSepL_elim_idx ownQs _ 89 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 33) (W := _) (R := 0) (m := 0) (T := ∅)
      (by rw [Nat.zero_add, expect_rsccw_r_6_1 X c])) $$ [Hc_rsccw_r_6_1 HO Hat_rsccw_r_6_1]
  · isplitr; · iexact HIo
    isplitl [Hc_rsccw_r_6_1]; · iexact Hc_rsccw_r_6_1
    isplitl [HO]; · iexact HO
    isplitr; · iapply (mayWait_rem (F := F) c 33 (by decide) _ (by show (31 : ℕ) < 2 + 33; decide)); iexact Hlev
    iexact Hat_rsccw_r_6_1
  iintro ⟨HO, Hat_rsccw_r_6_1, #Hrch_rsccw_r_6_1_1, Hpay⟩
  iclear HIo
  ihave Hp := (Entails.of_eq (rest_single X _ _ _ (duties_rsccw_r_6_1 X c) (payload_rsccw_r_6_1 X c false))) $$ Hpay
  ihave Hq := (owns_elim _ _ _) $$ Hp
  icases Hq with ⟨%f_rsccw_r_6_1, %hf_rsccw_r_6_1, Hs_rsccw_r_6_1⟩
  -- add ccw s=6 b=1: the loads and the store run by themselves (within the next run)
  -- wait send rs ccw t=5 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 33) (W := _) (R := 2) (m := 0) (T := ∅)
      (by rw [Nat.zero_add, expect_rsccw_s_3_2 X c])) $$ [Hcs_rsccw_s_3_2 HO Hat_rsccw_s_3]
  · isplitr; · iexact HIo
    isplitl [Hcs_rsccw_s_3_2]; · iexact Hcs_rsccw_s_3_2
    isplitl [HO]; · iexact HO
    isplitr; · iapply (mayWait_rem (F := F) c 33 (by decide) _ (by show (0 : ℕ) < 2 + 33; decide)); iexact Hlev
    iexact Hat_rsccw_s_3
  iintro ⟨HO, Hat_rsccw_s_3, #Hrch_rsccw_s_3_3, Hpay⟩
  iclear HIo
  ihave Hp := (Entails.of_eq (rest_single X _ _ _ (duties_rsccw_s_3_2 X c) (payload_rsccw_s_3_2 X c false))) $$ Hpay
  irename Hp => Hback_rsccw_r_4_1
  -- send rs ccw t=7 b=1 (payment 33, device function 34)
  try sl_exec_parts
  ihave HO := (owes_congr (rem_peel_33 c)) $$ HO
  ihave #HIo := (bigSepL_elim_idx ownQs _ 7 (by decide)) $$ HInvOwn
  ihave #HIt := (bigSepL_elim_idx recvCcw _ 15 (by decide)) $$ HInbCcw
  iapply (@send_owns_at F _ X c (prv c) ⟨k0_dev34 c, k0_dev34_lt c⟩ (dev34_eq c _) (slot bM 6 64 inb_S15x128x1024_S1x64x1024_6_64_0) (slot bM 7 64 inb_S15x128x1024_S1x64x1024_7_64_0) _ (qS cc0_scratch4 3 inb_S4_S1_3) (qR cc0_scratch5 7 1 inb_S15x2_S1x1_7_1) _ _ _ _ _ _ fullShare (addV X false 1 6 c) 3 (K (dcell c (qS cc0_scratch4 3 inb_S4_S1_3))) (K (dcell (prv c) (qR cc0_scratch5 7 1 inb_S15x2_S1x1_7_1))) _ (rem c 34) _ (by rw [duties_rsccw_s_3_3 X c]; exact Finset.mem_singleton_self _) (by rw [duties_rsccw_r_7_1 X (prv c)]; exact Finset.mem_singleton_self _) (by exact amount_rsccw_s_3_3 X c false) (by exact amount_rsccw_r_7_1 X (prv c) false) (by rfl) (by exact payload_rsccw_s_3_3 X c false) (by exact hp2_rsccw_r_7_1 X c) (by rfl) (by routes)) $$ [Hs_rsccw_r_6_1 Hd_rsccw_r_7_1 HO Hts_rsccw_s_3_3 Htn_rsccw_r_7_1]
  · isplitr; · iexact HIo
    isplitr; · iexact HIt
    isplitl [Hs_rsccw_r_6_1]; · iapply (owns_intro_add X false 6 64 1 c 8 bM _ f_rsccw_r_6_1 _ _ _ rfl (off4_8_64 c) hf_rsccw_r_6_1 (addV_eq_ccw_6_1 X c)); iexact Hs_rsccw_r_6_1
    isplitl [Hd_rsccw_r_7_1]; · iexact Hd_rsccw_r_7_1
    isplitl [HO]; · iexact HO
    isplitl [Hts_rsccw_s_3_3]; · iexact Hts_rsccw_s_3_3
    isplitr; · iexact Hrch_rsccw_s_3_3
    isplitl [Htn_rsccw_r_7_1]; · iexact Htn_rsccw_r_7_1
    iexact Hrn_rsccw_r_7_1
  iintro ⟨Hcs_rsccw_s_3_3, HO⟩
  iclear HIo HIt
  -- wait recv rs cw t=7 b=0
  try sl_exec_parts
  ihave #HIo := (bigSepL_elim_idx ownQs _ 30 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 34) (W := _) (R := 0) (m := 0) (T := ∅)
      (by rw [Nat.zero_add, expect_rscw_r_7_0 X c])) $$ [Hc_rscw_r_7_0 HO Hat_rscw_r_7_0]
  · isplitr; · iexact HIo
    isplitl [Hc_rscw_r_7_0]; · iexact Hc_rscw_r_7_0
    isplitl [HO]; · iexact HO
    isplitr; · iapply (mayWait_rem (F := F) c 34 (by decide) _ (by show (32 : ℕ) < 2 + 34; decide)); iexact Hlev
    iexact Hat_rscw_r_7_0
  iintro ⟨HO, Hat_rscw_r_7_0, #Hrch_rscw_r_7_0_1, Hpay⟩
  iclear HIo
  ihave Hp := (Entails.of_eq (rest_single X _ _ _ (duties_rscw_r_7_0 X c) (payload_rscw_r_7_0 X c false))) $$ Hpay
  ihave Hq := (owns_elim _ _ _) $$ Hp
  icases Hq with ⟨%f_rscw_r_7_0, %hf_rscw_r_7_0, Hs_rscw_r_7_0⟩
  -- add cw s=7 b=0: the loads and the store run by themselves (within the next run)
  -- wait send rs cw t=6 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 34) (W := _) (R := 3) (m := 0) (T := ∅)
      (by rw [Nat.zero_add, expect_rscw_s_0_3 X c])) $$ [Hcs_rscw_s_0_3 HO Hat_rscw_s_0]
  · isplitr; · iexact HIo
    isplitl [Hcs_rscw_s_0_3]; · iexact Hcs_rscw_s_0_3
    isplitl [HO]; · iexact HO
    isplitr; · iapply (mayWait_rem (F := F) c 34 (by decide) _ (by show (0 : ℕ) < 2 + 34; decide)); iexact Hlev
    iexact Hat_rscw_s_0
  iintro ⟨HO, Hat_rscw_s_0, #Hrch_rscw_s_0_4, Hpay⟩
  iclear HIo
  ihave Hp := (Entails.of_eq (rest_single X _ _ _ (duties_rscw_s_0_3 X c) (payload_rscw_s_0_3 X c false))) $$ Hpay
  irename Hp => Hback_rscw_r_5_0
  -- send rs cw t=8 b=0 (payment 34, device function 35)
  try sl_exec_parts
  ihave HO := (owes_congr (rem_peel_34 c)) $$ HO
  ihave #HIo := (bigSepL_elim_idx ownQs _ 0 (by decide)) $$ HInvOwn
  ihave #HIt := (bigSepL_elim_idx recvCw _ 16 (by decide)) $$ HInbCw
  iapply (@send_owns_at F _ X c (nxt c) ⟨k0_dev35 c, k0_dev35_lt c⟩ (dev35_eq c _) (slot aM 7 0 inb_S15x128x1024_S1x64x1024_7_0_0) (slot aM 8 0 inb_S15x128x1024_S1x64x1024_8_0_0) _ (qS cc0_scratch2 0 inb_S4_S1_0) (qR cc0_scratch3 8 0 inb_S15x2_S1x1_8_0) _ _ _ _ _ _ fullShare (addV X true 0 7 c) 4 (K (dcell c (qS cc0_scratch2 0 inb_S4_S1_0))) (K (dcell (nxt c) (qR cc0_scratch3 8 0 inb_S15x2_S1x1_8_0))) _ (rem c 35) _ (by rw [duties_rscw_s_0_4 X c]; exact Finset.mem_singleton_self _) (by rw [duties_rscw_r_8_0 X (nxt c)]; exact Finset.mem_singleton_self _) (by exact amount_rscw_s_0_4 X c false) (by exact amount_rscw_r_8_0 X (nxt c) false) (by rfl) (by exact payload_rscw_s_0_4 X c false) (by exact hp2_rscw_r_8_0 X c) (by rfl) (by routes)) $$ [Hs_rscw_r_7_0 Hd_rscw_r_8_0 HO Hts_rscw_s_0_4 Htn_rscw_r_8_0]
  · isplitr; · iexact HIo
    isplitr; · iexact HIt
    isplitl [Hs_rscw_r_7_0]; · iapply (owns_intro_add X true 7 0 0 c 7 aM _ f_rscw_r_7_0 _ _ _ rfl (off3_m9_0 c) hf_rscw_r_7_0 (addV_eq_cw_7_0 X c)); iexact Hs_rscw_r_7_0
    isplitl [Hd_rscw_r_8_0]; · iexact Hd_rscw_r_8_0
    isplitl [HO]; · iexact HO
    isplitl [Hts_rscw_s_0_4]; · iexact Hts_rscw_s_0_4
    isplitr; · iexact Hrch_rscw_s_0_4
    isplitl [Htn_rscw_r_8_0]; · iexact Htn_rscw_r_8_0
    iexact Hrn_rscw_r_8_0
  iintro ⟨Hcs_rscw_s_0_4, HO⟩
  iclear HIo HIt
  -- wait recv rs ccw t=7 b=0
  try sl_exec_parts
  ihave #HIo := (bigSepL_elim_idx ownQs _ 90 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 35) (W := _) (R := 0) (m := 0) (T := ∅)
      (by rw [Nat.zero_add, expect_rsccw_r_7_0 X c])) $$ [Hc_rsccw_r_7_0 HO Hat_rsccw_r_7_0]
  · isplitr; · iexact HIo
    isplitl [Hc_rsccw_r_7_0]; · iexact Hc_rsccw_r_7_0
    isplitl [HO]; · iexact HO
    isplitr; · iapply (mayWait_rem (F := F) c 35 (by decide) _ (by show (33 : ℕ) < 2 + 35; decide)); iexact Hlev
    iexact Hat_rsccw_r_7_0
  iintro ⟨HO, Hat_rsccw_r_7_0, #Hrch_rsccw_r_7_0_1, Hpay⟩
  iclear HIo
  ihave Hp := (Entails.of_eq (rest_single X _ _ _ (duties_rsccw_r_7_0 X c) (payload_rsccw_r_7_0 X c false))) $$ Hpay
  ihave Hq := (owns_elim _ _ _) $$ Hp
  icases Hq with ⟨%f_rsccw_r_7_0, %hf_rsccw_r_7_0, Hs_rsccw_r_7_0⟩
  -- add ccw s=7 b=0: the loads and the store run by themselves (within the next run)
  -- wait send rs ccw t=6 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 35) (W := _) (R := 3) (m := 0) (T := ∅)
      (by rw [Nat.zero_add, expect_rsccw_s_0_3 X c])) $$ [Hcs_rsccw_s_0_3 HO Hat_rsccw_s_0]
  · isplitr; · iexact HIo
    isplitl [Hcs_rsccw_s_0_3]; · iexact Hcs_rsccw_s_0_3
    isplitl [HO]; · iexact HO
    isplitr; · iapply (mayWait_rem (F := F) c 35 (by decide) _ (by show (0 : ℕ) < 2 + 35; decide)); iexact Hlev
    iexact Hat_rsccw_s_0
  iintro ⟨HO, Hat_rsccw_s_0, #Hrch_rsccw_s_0_4, Hpay⟩
  iclear HIo
  ihave Hp := (Entails.of_eq (rest_single X _ _ _ (duties_rsccw_s_0_3 X c) (payload_rsccw_s_0_3 X c false))) $$ Hpay
  irename Hp => Hback_rsccw_r_5_0
  -- send rs ccw t=8 b=0 (payment 35, device function 36)
  try sl_exec_parts
  ihave HO := (owes_congr (rem_peel_35 c)) $$ HO
  ihave #HIo := (bigSepL_elim_idx ownQs _ 4 (by decide)) $$ HInvOwn
  ihave #HIt := (bigSepL_elim_idx recvCcw _ 16 (by decide)) $$ HInbCcw
  iapply (@send_owns_at F _ X c (prv c) ⟨k0_dev36 c, k0_dev36_lt c⟩ (dev36_eq c _) (slot bM 7 0 inb_S15x128x1024_S1x64x1024_7_0_0) (slot bM 8 0 inb_S15x128x1024_S1x64x1024_8_0_0) _ (qS cc0_scratch4 0 inb_S4_S1_0) (qR cc0_scratch5 8 0 inb_S15x2_S1x1_8_0) _ _ _ _ _ _ fullShare (addV X false 0 7 c) 4 (K (dcell c (qS cc0_scratch4 0 inb_S4_S1_0))) (K (dcell (prv c) (qR cc0_scratch5 8 0 inb_S15x2_S1x1_8_0))) _ (rem c 36) _ (by rw [duties_rsccw_s_0_4 X c]; exact Finset.mem_singleton_self _) (by rw [duties_rsccw_r_8_0 X (prv c)]; exact Finset.mem_singleton_self _) (by exact amount_rsccw_s_0_4 X c false) (by exact amount_rsccw_r_8_0 X (prv c) false) (by rfl) (by exact payload_rsccw_s_0_4 X c false) (by exact hp2_rsccw_r_8_0 X c) (by rfl) (by routes)) $$ [Hs_rsccw_r_7_0 Hd_rsccw_r_8_0 HO Hts_rsccw_s_0_4 Htn_rsccw_r_8_0]
  · isplitr; · iexact HIo
    isplitr; · iexact HIt
    isplitl [Hs_rsccw_r_7_0]; · iapply (owns_intro_add X false 7 0 0 c 9 bM _ f_rsccw_r_7_0 _ _ _ rfl (off4_9_0 c) hf_rsccw_r_7_0 (addV_eq_ccw_7_0 X c)); iexact Hs_rsccw_r_7_0
    isplitl [Hd_rsccw_r_8_0]; · iexact Hd_rsccw_r_8_0
    isplitl [HO]; · iexact HO
    isplitl [Hts_rsccw_s_0_4]; · iexact Hts_rsccw_s_0_4
    isplitr; · iexact Hrch_rsccw_s_0_4
    isplitl [Htn_rsccw_r_8_0]; · iexact Htn_rsccw_r_8_0
    iexact Hrn_rsccw_r_8_0
  iintro ⟨Hcs_rsccw_s_0_4, HO⟩
  iclear HIo HIt
  -- wait recv rs cw t=7 b=1
  try sl_exec_parts
  ihave #HIo := (bigSepL_elim_idx ownQs _ 31 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 36) (W := _) (R := 0) (m := 0) (T := ∅)
      (by rw [Nat.zero_add, expect_rscw_r_7_1 X c])) $$ [Hc_rscw_r_7_1 HO Hat_rscw_r_7_1]
  · isplitr; · iexact HIo
    isplitl [Hc_rscw_r_7_1]; · iexact Hc_rscw_r_7_1
    isplitl [HO]; · iexact HO
    isplitr; · iapply (mayWait_rem (F := F) c 36 (by decide) _ (by show (34 : ℕ) < 2 + 36; decide)); iexact Hlev
    iexact Hat_rscw_r_7_1
  iintro ⟨HO, Hat_rscw_r_7_1, #Hrch_rscw_r_7_1_1, Hpay⟩
  iclear HIo
  ihave Hp := (Entails.of_eq (rest_single X _ _ _ (duties_rscw_r_7_1 X c) (payload_rscw_r_7_1 X c false))) $$ Hpay
  ihave Hq := (owns_elim _ _ _) $$ Hp
  icases Hq with ⟨%f_rscw_r_7_1, %hf_rscw_r_7_1, Hs_rscw_r_7_1⟩
  -- add cw s=7 b=1: the loads and the store run by themselves (within the next run)
  -- wait send rs cw t=6 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 36) (W := _) (R := 3) (m := 0) (T := ∅)
      (by rw [Nat.zero_add, expect_rscw_s_1_3 X c])) $$ [Hcs_rscw_s_1_3 HO Hat_rscw_s_1]
  · isplitr; · iexact HIo
    isplitl [Hcs_rscw_s_1_3]; · iexact Hcs_rscw_s_1_3
    isplitl [HO]; · iexact HO
    isplitr; · iapply (mayWait_rem (F := F) c 36 (by decide) _ (by show (0 : ℕ) < 2 + 36; decide)); iexact Hlev
    iexact Hat_rscw_s_1
  iintro ⟨HO, Hat_rscw_s_1, #Hrch_rscw_s_1_4, Hpay⟩
  iclear HIo
  ihave Hp := (Entails.of_eq (rest_single X _ _ _ (duties_rscw_s_1_3 X c) (payload_rscw_s_1_3 X c false))) $$ Hpay
  irename Hp => Hback_rscw_r_5_1
  -- send rs cw t=8 b=1 (payment 36, device function 37)
  try sl_exec_parts
  ihave HO := (owes_congr (rem_peel_36 c)) $$ HO
  ihave #HIo := (bigSepL_elim_idx ownQs _ 1 (by decide)) $$ HInvOwn
  ihave #HIt := (bigSepL_elim_idx recvCw _ 17 (by decide)) $$ HInbCw
  iapply (@send_owns_at F _ X c (nxt c) ⟨k0_dev37 c, k0_dev37_lt c⟩ (dev37_eq c _) (slot aM 7 64 inb_S15x128x1024_S1x64x1024_7_64_0) (slot aM 8 64 inb_S15x128x1024_S1x64x1024_8_64_0) _ (qS cc0_scratch2 1 inb_S4_S1_1) (qR cc0_scratch3 8 1 inb_S15x2_S1x1_8_1) _ _ _ _ _ _ fullShare (addV X true 1 7 c) 4 (K (dcell c (qS cc0_scratch2 1 inb_S4_S1_1))) (K (dcell (nxt c) (qR cc0_scratch3 8 1 inb_S15x2_S1x1_8_1))) _ (rem c 37) _ (by rw [duties_rscw_s_1_4 X c]; exact Finset.mem_singleton_self _) (by rw [duties_rscw_r_8_1 X (nxt c)]; exact Finset.mem_singleton_self _) (by exact amount_rscw_s_1_4 X c false) (by exact amount_rscw_r_8_1 X (nxt c) false) (by rfl) (by exact payload_rscw_s_1_4 X c false) (by exact hp2_rscw_r_8_1 X c) (by rfl) (by routes)) $$ [Hs_rscw_r_7_1 Hd_rscw_r_8_1 HO Hts_rscw_s_1_4 Htn_rscw_r_8_1]
  · isplitr; · iexact HIo
    isplitr; · iexact HIt
    isplitl [Hs_rscw_r_7_1]; · iapply (owns_intro_add X true 7 64 1 c 7 aM _ f_rscw_r_7_1 _ _ _ rfl (off3_m9_64 c) hf_rscw_r_7_1 (addV_eq_cw_7_1 X c)); iexact Hs_rscw_r_7_1
    isplitl [Hd_rscw_r_8_1]; · iexact Hd_rscw_r_8_1
    isplitl [HO]; · iexact HO
    isplitl [Hts_rscw_s_1_4]; · iexact Hts_rscw_s_1_4
    isplitr; · iexact Hrch_rscw_s_1_4
    isplitl [Htn_rscw_r_8_1]; · iexact Htn_rscw_r_8_1
    iexact Hrn_rscw_r_8_1
  iintro ⟨Hcs_rscw_s_1_4, HO⟩
  iclear HIo HIt
  -- wait recv rs ccw t=7 b=1
  try sl_exec_parts
  ihave #HIo := (bigSepL_elim_idx ownQs _ 91 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 37) (W := _) (R := 0) (m := 0) (T := ∅)
      (by rw [Nat.zero_add, expect_rsccw_r_7_1 X c])) $$ [Hc_rsccw_r_7_1 HO Hat_rsccw_r_7_1]
  · isplitr; · iexact HIo
    isplitl [Hc_rsccw_r_7_1]; · iexact Hc_rsccw_r_7_1
    isplitl [HO]; · iexact HO
    isplitr; · iapply (mayWait_rem (F := F) c 37 (by decide) _ (by show (35 : ℕ) < 2 + 37; decide)); iexact Hlev
    iexact Hat_rsccw_r_7_1
  iintro ⟨HO, Hat_rsccw_r_7_1, #Hrch_rsccw_r_7_1_1, Hpay⟩
  iclear HIo
  ihave Hp := (Entails.of_eq (rest_single X _ _ _ (duties_rsccw_r_7_1 X c) (payload_rsccw_r_7_1 X c false))) $$ Hpay
  ihave Hq := (owns_elim _ _ _) $$ Hp
  icases Hq with ⟨%f_rsccw_r_7_1, %hf_rsccw_r_7_1, Hs_rsccw_r_7_1⟩
  -- add ccw s=7 b=1: the loads and the store run by themselves (within the next run)
  -- wait send rs ccw t=6 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 37) (W := _) (R := 3) (m := 0) (T := ∅)
      (by rw [Nat.zero_add, expect_rsccw_s_1_3 X c])) $$ [Hcs_rsccw_s_1_3 HO Hat_rsccw_s_1]
  · isplitr; · iexact HIo
    isplitl [Hcs_rsccw_s_1_3]; · iexact Hcs_rsccw_s_1_3
    isplitl [HO]; · iexact HO
    isplitr; · iapply (mayWait_rem (F := F) c 37 (by decide) _ (by show (0 : ℕ) < 2 + 37; decide)); iexact Hlev
    iexact Hat_rsccw_s_1
  iintro ⟨HO, Hat_rsccw_s_1, #Hrch_rsccw_s_1_4, Hpay⟩
  iclear HIo
  ihave Hp := (Entails.of_eq (rest_single X _ _ _ (duties_rsccw_s_1_3 X c) (payload_rsccw_s_1_3 X c false))) $$ Hpay
  irename Hp => Hback_rsccw_r_5_1
  -- send rs ccw t=8 b=1 (payment 37, device function 38)
  try sl_exec_parts
  ihave HO := (owes_congr (rem_peel_37 c)) $$ HO
  ihave #HIo := (bigSepL_elim_idx ownQs _ 5 (by decide)) $$ HInvOwn
  ihave #HIt := (bigSepL_elim_idx recvCcw _ 17 (by decide)) $$ HInbCcw
  iapply (@send_owns_at F _ X c (prv c) ⟨k0_dev38 c, k0_dev38_lt c⟩ (dev38_eq c _) (slot bM 7 64 inb_S15x128x1024_S1x64x1024_7_64_0) (slot bM 8 64 inb_S15x128x1024_S1x64x1024_8_64_0) _ (qS cc0_scratch4 1 inb_S4_S1_1) (qR cc0_scratch5 8 1 inb_S15x2_S1x1_8_1) _ _ _ _ _ _ fullShare (addV X false 1 7 c) 4 (K (dcell c (qS cc0_scratch4 1 inb_S4_S1_1))) (K (dcell (prv c) (qR cc0_scratch5 8 1 inb_S15x2_S1x1_8_1))) _ (rem c 38) _ (by rw [duties_rsccw_s_1_4 X c]; exact Finset.mem_singleton_self _) (by rw [duties_rsccw_r_8_1 X (prv c)]; exact Finset.mem_singleton_self _) (by exact amount_rsccw_s_1_4 X c false) (by exact amount_rsccw_r_8_1 X (prv c) false) (by rfl) (by exact payload_rsccw_s_1_4 X c false) (by exact hp2_rsccw_r_8_1 X c) (by rfl) (by routes)) $$ [Hs_rsccw_r_7_1 Hd_rsccw_r_8_1 HO Hts_rsccw_s_1_4 Htn_rsccw_r_8_1]
  · isplitr; · iexact HIo
    isplitr; · iexact HIt
    isplitl [Hs_rsccw_r_7_1]; · iapply (owns_intro_add X false 7 64 1 c 9 bM _ f_rsccw_r_7_1 _ _ _ rfl (off4_9_64 c) hf_rsccw_r_7_1 (addV_eq_ccw_7_1 X c)); iexact Hs_rsccw_r_7_1
    isplitl [Hd_rsccw_r_8_1]; · iexact Hd_rsccw_r_8_1
    isplitl [HO]; · iexact HO
    isplitl [Hts_rsccw_s_1_4]; · iexact Hts_rsccw_s_1_4
    isplitr; · iexact Hrch_rsccw_s_1_4
    isplitl [Htn_rsccw_r_8_1]; · iexact Htn_rsccw_r_8_1
    iexact Hrn_rsccw_r_8_1
  iintro ⟨Hcs_rsccw_s_1_4, HO⟩
  iclear HIo HIt
  -- wait recv rs cw t=8 b=0
  try sl_exec_parts
  ihave #HIo := (bigSepL_elim_idx ownQs _ 32 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 38) (W := _) (R := 0) (m := 0) (T := ∅)
      (by rw [Nat.zero_add, expect_rscw_r_8_0 X c])) $$ [Hc_rscw_r_8_0 HO Hat_rscw_r_8_0]
  · isplitr; · iexact HIo
    isplitl [Hc_rscw_r_8_0]; · iexact Hc_rscw_r_8_0
    isplitl [HO]; · iexact HO
    isplitr; · iapply (mayWait_rem (F := F) c 38 (by decide) _ (by show (36 : ℕ) < 2 + 38; decide)); iexact Hlev
    iexact Hat_rscw_r_8_0
  iintro ⟨HO, Hat_rscw_r_8_0, #Hrch_rscw_r_8_0_1, Hpay⟩
  iclear HIo
  ihave Hp := (Entails.of_eq (rest_single X _ _ _ (duties_rscw_r_8_0 X c) (payload_rscw_r_8_0 X c false))) $$ Hpay
  ihave Hq := (owns_elim _ _ _) $$ Hp
  icases Hq with ⟨%f_rscw_r_8_0, %hf_rscw_r_8_0, Hs_rscw_r_8_0⟩
  -- add cw s=8 b=0: the loads and the store run by themselves (within the next run)
  -- wait send rs cw t=7 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 38) (W := _) (R := 3) (m := 0) (T := ∅)
      (by rw [Nat.zero_add, expect_rscw_s_2_3 X c])) $$ [Hcs_rscw_s_2_3 HO Hat_rscw_s_2]
  · isplitr; · iexact HIo
    isplitl [Hcs_rscw_s_2_3]; · iexact Hcs_rscw_s_2_3
    isplitl [HO]; · iexact HO
    isplitr; · iapply (mayWait_rem (F := F) c 38 (by decide) _ (by show (0 : ℕ) < 2 + 38; decide)); iexact Hlev
    iexact Hat_rscw_s_2
  iintro ⟨HO, Hat_rscw_s_2, #Hrch_rscw_s_2_4, Hpay⟩
  iclear HIo
  ihave Hp := (Entails.of_eq (rest_single X _ _ _ (duties_rscw_s_2_3 X c) (payload_rscw_s_2_3 X c false))) $$ Hpay
  irename Hp => Hback_rscw_r_6_0
  -- send rs cw t=9 b=0 (payment 38, device function 39)
  try sl_exec_parts
  ihave HO := (owes_congr (rem_peel_38 c)) $$ HO
  ihave #HIo := (bigSepL_elim_idx ownQs _ 2 (by decide)) $$ HInvOwn
  ihave #HIt := (bigSepL_elim_idx recvCw _ 18 (by decide)) $$ HInbCw
  iapply (@send_owns_at F _ X c (nxt c) ⟨k0_dev39 c, k0_dev39_lt c⟩ (dev39_eq c _) (slot aM 8 0 inb_S15x128x1024_S1x64x1024_8_0_0) (slot aM 9 0 inb_S15x128x1024_S1x64x1024_9_0_0) _ (qS cc0_scratch2 2 inb_S4_S1_2) (qR cc0_scratch3 9 0 inb_S15x2_S1x1_9_0) _ _ _ _ _ _ fullShare (addV X true 0 8 c) 4 (K (dcell c (qS cc0_scratch2 2 inb_S4_S1_2))) (K (dcell (nxt c) (qR cc0_scratch3 9 0 inb_S15x2_S1x1_9_0))) _ (rem c 39) _ (by rw [duties_rscw_s_2_4 X c]; exact Finset.mem_singleton_self _) (by rw [duties_rscw_r_9_0 X (nxt c)]; exact Finset.mem_singleton_self _) (by exact amount_rscw_s_2_4 X c false) (by exact amount_rscw_r_9_0 X (nxt c) false) (by rfl) (by exact payload_rscw_s_2_4 X c false) (by exact hp2_rscw_r_9_0 X c) (by rfl) (by routes)) $$ [Hs_rscw_r_8_0 Hd_rscw_r_9_0 HO Hts_rscw_s_2_4 Htn_rscw_r_9_0]
  · isplitr; · iexact HIo
    isplitr; · iexact HIt
    isplitl [Hs_rscw_r_8_0]; · iapply (owns_intro_add X true 8 0 0 c 6 aM _ f_rscw_r_8_0 _ _ _ rfl (off3_m10_0 c) hf_rscw_r_8_0 (addV_eq_cw_8_0 X c)); iexact Hs_rscw_r_8_0
    isplitl [Hd_rscw_r_9_0]; · iexact Hd_rscw_r_9_0
    isplitl [HO]; · iexact HO
    isplitl [Hts_rscw_s_2_4]; · iexact Hts_rscw_s_2_4
    isplitr; · iexact Hrch_rscw_s_2_4
    isplitl [Htn_rscw_r_9_0]; · iexact Htn_rscw_r_9_0
    iexact Hrn_rscw_r_9_0
  iintro ⟨Hcs_rscw_s_2_4, HO⟩
  iclear HIo HIt
  -- wait recv rs ccw t=8 b=0
  try sl_exec_parts
  ihave #HIo := (bigSepL_elim_idx ownQs _ 92 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 39) (W := _) (R := 0) (m := 0) (T := ∅)
      (by rw [Nat.zero_add, expect_rsccw_r_8_0 X c])) $$ [Hc_rsccw_r_8_0 HO Hat_rsccw_r_8_0]
  · isplitr; · iexact HIo
    isplitl [Hc_rsccw_r_8_0]; · iexact Hc_rsccw_r_8_0
    isplitl [HO]; · iexact HO
    isplitr; · iapply (mayWait_rem (F := F) c 39 (by decide) _ (by show (37 : ℕ) < 2 + 39; decide)); iexact Hlev
    iexact Hat_rsccw_r_8_0
  iintro ⟨HO, Hat_rsccw_r_8_0, #Hrch_rsccw_r_8_0_1, Hpay⟩
  iclear HIo
  ihave Hp := (Entails.of_eq (rest_single X _ _ _ (duties_rsccw_r_8_0 X c) (payload_rsccw_r_8_0 X c false))) $$ Hpay
  ihave Hq := (owns_elim _ _ _) $$ Hp
  icases Hq with ⟨%f_rsccw_r_8_0, %hf_rsccw_r_8_0, Hs_rsccw_r_8_0⟩
  -- add ccw s=8 b=0: the loads and the store run by themselves (within the next run)
  -- wait send rs ccw t=7 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 39) (W := _) (R := 3) (m := 0) (T := ∅)
      (by rw [Nat.zero_add, expect_rsccw_s_2_3 X c])) $$ [Hcs_rsccw_s_2_3 HO Hat_rsccw_s_2]
  · isplitr; · iexact HIo
    isplitl [Hcs_rsccw_s_2_3]; · iexact Hcs_rsccw_s_2_3
    isplitl [HO]; · iexact HO
    isplitr; · iapply (mayWait_rem (F := F) c 39 (by decide) _ (by show (0 : ℕ) < 2 + 39; decide)); iexact Hlev
    iexact Hat_rsccw_s_2
  iintro ⟨HO, Hat_rsccw_s_2, #Hrch_rsccw_s_2_4, Hpay⟩
  iclear HIo
  ihave Hp := (Entails.of_eq (rest_single X _ _ _ (duties_rsccw_s_2_3 X c) (payload_rsccw_s_2_3 X c false))) $$ Hpay
  irename Hp => Hback_rsccw_r_6_0
  -- send rs ccw t=9 b=0 (payment 39, device function 40)
  try sl_exec_parts
  ihave HO := (owes_congr (rem_peel_39 c)) $$ HO
  ihave #HIo := (bigSepL_elim_idx ownQs _ 6 (by decide)) $$ HInvOwn
  ihave #HIt := (bigSepL_elim_idx recvCcw _ 18 (by decide)) $$ HInbCcw
  iapply (@send_owns_at F _ X c (prv c) ⟨k0_dev40 c, k0_dev40_lt c⟩ (dev40_eq c _) (slot bM 8 0 inb_S15x128x1024_S1x64x1024_8_0_0) (slot bM 9 0 inb_S15x128x1024_S1x64x1024_9_0_0) _ (qS cc0_scratch4 2 inb_S4_S1_2) (qR cc0_scratch5 9 0 inb_S15x2_S1x1_9_0) _ _ _ _ _ _ fullShare (addV X false 0 8 c) 4 (K (dcell c (qS cc0_scratch4 2 inb_S4_S1_2))) (K (dcell (prv c) (qR cc0_scratch5 9 0 inb_S15x2_S1x1_9_0))) _ (rem c 40) _ (by rw [duties_rsccw_s_2_4 X c]; exact Finset.mem_singleton_self _) (by rw [duties_rsccw_r_9_0 X (prv c)]; exact Finset.mem_singleton_self _) (by exact amount_rsccw_s_2_4 X c false) (by exact amount_rsccw_r_9_0 X (prv c) false) (by rfl) (by exact payload_rsccw_s_2_4 X c false) (by exact hp2_rsccw_r_9_0 X c) (by rfl) (by routes)) $$ [Hs_rsccw_r_8_0 Hd_rsccw_r_9_0 HO Hts_rsccw_s_2_4 Htn_rsccw_r_9_0]
  · isplitr; · iexact HIo
    isplitr; · iexact HIt
    isplitl [Hs_rsccw_r_8_0]; · iapply (owns_intro_add X false 8 0 0 c 10 bM _ f_rsccw_r_8_0 _ _ _ rfl (off4_10_0 c) hf_rsccw_r_8_0 (addV_eq_ccw_8_0 X c)); iexact Hs_rsccw_r_8_0
    isplitl [Hd_rsccw_r_9_0]; · iexact Hd_rsccw_r_9_0
    isplitl [HO]; · iexact HO
    isplitl [Hts_rsccw_s_2_4]; · iexact Hts_rsccw_s_2_4
    isplitr; · iexact Hrch_rsccw_s_2_4
    isplitl [Htn_rsccw_r_9_0]; · iexact Htn_rsccw_r_9_0
    iexact Hrn_rsccw_r_9_0
  iintro ⟨Hcs_rsccw_s_2_4, HO⟩
  iclear HIo HIt
  -- wait recv rs cw t=8 b=1
  try sl_exec_parts
  ihave #HIo := (bigSepL_elim_idx ownQs _ 33 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 40) (W := _) (R := 0) (m := 0) (T := ∅)
      (by rw [Nat.zero_add, expect_rscw_r_8_1 X c])) $$ [Hc_rscw_r_8_1 HO Hat_rscw_r_8_1]
  · isplitr; · iexact HIo
    isplitl [Hc_rscw_r_8_1]; · iexact Hc_rscw_r_8_1
    isplitl [HO]; · iexact HO
    isplitr; · iapply (mayWait_rem (F := F) c 40 (by decide) _ (by show (38 : ℕ) < 2 + 40; decide)); iexact Hlev
    iexact Hat_rscw_r_8_1
  iintro ⟨HO, Hat_rscw_r_8_1, #Hrch_rscw_r_8_1_1, Hpay⟩
  iclear HIo
  ihave Hp := (Entails.of_eq (rest_single X _ _ _ (duties_rscw_r_8_1 X c) (payload_rscw_r_8_1 X c false))) $$ Hpay
  ihave Hq := (owns_elim _ _ _) $$ Hp
  icases Hq with ⟨%f_rscw_r_8_1, %hf_rscw_r_8_1, Hs_rscw_r_8_1⟩
  -- add cw s=8 b=1: the loads and the store run by themselves (within the next run)
  -- wait send rs cw t=7 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 40) (W := _) (R := 3) (m := 0) (T := ∅)
      (by rw [Nat.zero_add, expect_rscw_s_3_3 X c])) $$ [Hcs_rscw_s_3_3 HO Hat_rscw_s_3]
  · isplitr; · iexact HIo
    isplitl [Hcs_rscw_s_3_3]; · iexact Hcs_rscw_s_3_3
    isplitl [HO]; · iexact HO
    isplitr; · iapply (mayWait_rem (F := F) c 40 (by decide) _ (by show (0 : ℕ) < 2 + 40; decide)); iexact Hlev
    iexact Hat_rscw_s_3
  iintro ⟨HO, Hat_rscw_s_3, #Hrch_rscw_s_3_4, Hpay⟩
  iclear HIo
  ihave Hp := (Entails.of_eq (rest_single X _ _ _ (duties_rscw_s_3_3 X c) (payload_rscw_s_3_3 X c false))) $$ Hpay
  irename Hp => Hback_rscw_r_6_1
  -- send rs cw t=9 b=1 (payment 40, device function 41)
  try sl_exec_parts
  ihave HO := (owes_congr (rem_peel_40 c)) $$ HO
  ihave #HIo := (bigSepL_elim_idx ownQs _ 3 (by decide)) $$ HInvOwn
  ihave #HIt := (bigSepL_elim_idx recvCw _ 19 (by decide)) $$ HInbCw
  iapply (@send_owns_at F _ X c (nxt c) ⟨k0_dev41 c, k0_dev41_lt c⟩ (dev41_eq c _) (slot aM 8 64 inb_S15x128x1024_S1x64x1024_8_64_0) (slot aM 9 64 inb_S15x128x1024_S1x64x1024_9_64_0) _ (qS cc0_scratch2 3 inb_S4_S1_3) (qR cc0_scratch3 9 1 inb_S15x2_S1x1_9_1) _ _ _ _ _ _ fullShare (addV X true 1 8 c) 4 (K (dcell c (qS cc0_scratch2 3 inb_S4_S1_3))) (K (dcell (nxt c) (qR cc0_scratch3 9 1 inb_S15x2_S1x1_9_1))) _ (rem c 41) _ (by rw [duties_rscw_s_3_4 X c]; exact Finset.mem_singleton_self _) (by rw [duties_rscw_r_9_1 X (nxt c)]; exact Finset.mem_singleton_self _) (by exact amount_rscw_s_3_4 X c false) (by exact amount_rscw_r_9_1 X (nxt c) false) (by rfl) (by exact payload_rscw_s_3_4 X c false) (by exact hp2_rscw_r_9_1 X c) (by rfl) (by routes)) $$ [Hs_rscw_r_8_1 Hd_rscw_r_9_1 HO Hts_rscw_s_3_4 Htn_rscw_r_9_1]
  · isplitr; · iexact HIo
    isplitr; · iexact HIt
    isplitl [Hs_rscw_r_8_1]; · iapply (owns_intro_add X true 8 64 1 c 6 aM _ f_rscw_r_8_1 _ _ _ rfl (off3_m10_64 c) hf_rscw_r_8_1 (addV_eq_cw_8_1 X c)); iexact Hs_rscw_r_8_1
    isplitl [Hd_rscw_r_9_1]; · iexact Hd_rscw_r_9_1
    isplitl [HO]; · iexact HO
    isplitl [Hts_rscw_s_3_4]; · iexact Hts_rscw_s_3_4
    isplitr; · iexact Hrch_rscw_s_3_4
    isplitl [Htn_rscw_r_9_1]; · iexact Htn_rscw_r_9_1
    iexact Hrn_rscw_r_9_1
  iintro ⟨Hcs_rscw_s_3_4, HO⟩
  iclear HIo HIt
  -- wait recv rs ccw t=8 b=1
  try sl_exec_parts
  ihave #HIo := (bigSepL_elim_idx ownQs _ 93 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 41) (W := _) (R := 0) (m := 0) (T := ∅)
      (by rw [Nat.zero_add, expect_rsccw_r_8_1 X c])) $$ [Hc_rsccw_r_8_1 HO Hat_rsccw_r_8_1]
  · isplitr; · iexact HIo
    isplitl [Hc_rsccw_r_8_1]; · iexact Hc_rsccw_r_8_1
    isplitl [HO]; · iexact HO
    isplitr; · iapply (mayWait_rem (F := F) c 41 (by decide) _ (by show (39 : ℕ) < 2 + 41; decide)); iexact Hlev
    iexact Hat_rsccw_r_8_1
  iintro ⟨HO, Hat_rsccw_r_8_1, #Hrch_rsccw_r_8_1_1, Hpay⟩
  iclear HIo
  ihave Hp := (Entails.of_eq (rest_single X _ _ _ (duties_rsccw_r_8_1 X c) (payload_rsccw_r_8_1 X c false))) $$ Hpay
  ihave Hq := (owns_elim _ _ _) $$ Hp
  icases Hq with ⟨%f_rsccw_r_8_1, %hf_rsccw_r_8_1, Hs_rsccw_r_8_1⟩
  -- add ccw s=8 b=1: the loads and the store run by themselves (within the next run)
  -- wait send rs ccw t=7 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 41) (W := _) (R := 3) (m := 0) (T := ∅)
      (by rw [Nat.zero_add, expect_rsccw_s_3_3 X c])) $$ [Hcs_rsccw_s_3_3 HO Hat_rsccw_s_3]
  · isplitr; · iexact HIo
    isplitl [Hcs_rsccw_s_3_3]; · iexact Hcs_rsccw_s_3_3
    isplitl [HO]; · iexact HO
    isplitr; · iapply (mayWait_rem (F := F) c 41 (by decide) _ (by show (0 : ℕ) < 2 + 41; decide)); iexact Hlev
    iexact Hat_rsccw_s_3
  iintro ⟨HO, Hat_rsccw_s_3, #Hrch_rsccw_s_3_4, Hpay⟩
  iclear HIo
  ihave Hp := (Entails.of_eq (rest_single X _ _ _ (duties_rsccw_s_3_3 X c) (payload_rsccw_s_3_3 X c false))) $$ Hpay
  irename Hp => Hback_rsccw_r_6_1
  -- send rs ccw t=9 b=1 (payment 41, device function 42)
  try sl_exec_parts
  ihave HO := (owes_congr (rem_peel_41 c)) $$ HO
  ihave #HIo := (bigSepL_elim_idx ownQs _ 7 (by decide)) $$ HInvOwn
  ihave #HIt := (bigSepL_elim_idx recvCcw _ 19 (by decide)) $$ HInbCcw
  iapply (@send_owns_at F _ X c (prv c) ⟨k0_dev42 c, k0_dev42_lt c⟩ (dev42_eq c _) (slot bM 8 64 inb_S15x128x1024_S1x64x1024_8_64_0) (slot bM 9 64 inb_S15x128x1024_S1x64x1024_9_64_0) _ (qS cc0_scratch4 3 inb_S4_S1_3) (qR cc0_scratch5 9 1 inb_S15x2_S1x1_9_1) _ _ _ _ _ _ fullShare (addV X false 1 8 c) 4 (K (dcell c (qS cc0_scratch4 3 inb_S4_S1_3))) (K (dcell (prv c) (qR cc0_scratch5 9 1 inb_S15x2_S1x1_9_1))) _ (rem c 42) _ (by rw [duties_rsccw_s_3_4 X c]; exact Finset.mem_singleton_self _) (by rw [duties_rsccw_r_9_1 X (prv c)]; exact Finset.mem_singleton_self _) (by exact amount_rsccw_s_3_4 X c false) (by exact amount_rsccw_r_9_1 X (prv c) false) (by rfl) (by exact payload_rsccw_s_3_4 X c false) (by exact hp2_rsccw_r_9_1 X c) (by rfl) (by routes)) $$ [Hs_rsccw_r_8_1 Hd_rsccw_r_9_1 HO Hts_rsccw_s_3_4 Htn_rsccw_r_9_1]
  · isplitr; · iexact HIo
    isplitr; · iexact HIt
    isplitl [Hs_rsccw_r_8_1]; · iapply (owns_intro_add X false 8 64 1 c 10 bM _ f_rsccw_r_8_1 _ _ _ rfl (off4_10_64 c) hf_rsccw_r_8_1 (addV_eq_ccw_8_1 X c)); iexact Hs_rsccw_r_8_1
    isplitl [Hd_rsccw_r_9_1]; · iexact Hd_rsccw_r_9_1
    isplitl [HO]; · iexact HO
    isplitl [Hts_rsccw_s_3_4]; · iexact Hts_rsccw_s_3_4
    isplitr; · iexact Hrch_rsccw_s_3_4
    isplitl [Htn_rsccw_r_9_1]; · iexact Htn_rsccw_r_9_1
    iexact Hrn_rsccw_r_9_1
  iintro ⟨Hcs_rsccw_s_3_4, HO⟩
  iclear HIo HIt
  -- wait recv rs cw t=9 b=0
  try sl_exec_parts
  ihave #HIo := (bigSepL_elim_idx ownQs _ 34 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 42) (W := _) (R := 0) (m := 0) (T := ∅)
      (by rw [Nat.zero_add, expect_rscw_r_9_0 X c])) $$ [Hc_rscw_r_9_0 HO Hat_rscw_r_9_0]
  · isplitr; · iexact HIo
    isplitl [Hc_rscw_r_9_0]; · iexact Hc_rscw_r_9_0
    isplitl [HO]; · iexact HO
    isplitr; · iapply (mayWait_rem (F := F) c 42 (by decide) _ (by show (40 : ℕ) < 2 + 42; decide)); iexact Hlev
    iexact Hat_rscw_r_9_0
  iintro ⟨HO, Hat_rscw_r_9_0, #Hrch_rscw_r_9_0_1, Hpay⟩
  iclear HIo
  ihave Hp := (Entails.of_eq (rest_single X _ _ _ (duties_rscw_r_9_0 X c) (payload_rscw_r_9_0 X c false))) $$ Hpay
  ihave Hq := (owns_elim _ _ _) $$ Hp
  icases Hq with ⟨%f_rscw_r_9_0, %hf_rscw_r_9_0, Hs_rscw_r_9_0⟩
  -- add cw s=9 b=0: the loads and the store run by themselves (within the next run)
  -- wait send rs cw t=8 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 42) (W := _) (R := 4) (m := 0) (T := ∅)
      (by rw [Nat.zero_add, expect_rscw_s_0_4 X c])) $$ [Hcs_rscw_s_0_4 HO Hat_rscw_s_0]
  · isplitr; · iexact HIo
    isplitl [Hcs_rscw_s_0_4]; · iexact Hcs_rscw_s_0_4
    isplitl [HO]; · iexact HO
    isplitr; · iapply (mayWait_rem (F := F) c 42 (by decide) _ (by show (0 : ℕ) < 2 + 42; decide)); iexact Hlev
    iexact Hat_rscw_s_0
  iintro ⟨HO, Hat_rscw_s_0, #Hrch_rscw_s_0_5, Hpay⟩
  iclear HIo
  ihave Hp := (Entails.of_eq (rest_single X _ _ _ (duties_rscw_s_0_4 X c) (payload_rscw_s_0_4 X c false))) $$ Hpay
  irename Hp => Hback_rscw_r_7_0
  -- send rs cw t=10 b=0 (payment 42, device function 43)
  try sl_exec_parts
  ihave HO := (owes_congr (rem_peel_42 c)) $$ HO
  ihave #HIo := (bigSepL_elim_idx ownQs _ 0 (by decide)) $$ HInvOwn
  ihave #HIt := (bigSepL_elim_idx recvCw _ 20 (by decide)) $$ HInbCw
  iapply (@send_owns_at F _ X c (nxt c) ⟨k0_dev43 c, k0_dev43_lt c⟩ (dev43_eq c _) (slot aM 9 0 inb_S15x128x1024_S1x64x1024_9_0_0) (slot aM 10 0 inb_S15x128x1024_S1x64x1024_10_0_0) _ (qS cc0_scratch2 0 inb_S4_S1_0) (qR cc0_scratch3 10 0 inb_S15x2_S1x1_10_0) _ _ _ _ _ _ fullShare (addV X true 0 9 c) 5 (K (dcell c (qS cc0_scratch2 0 inb_S4_S1_0))) (K (dcell (nxt c) (qR cc0_scratch3 10 0 inb_S15x2_S1x1_10_0))) _ (rem c 43) _ (by rw [duties_rscw_s_0_5 X c]; exact Finset.mem_singleton_self _) (by rw [duties_rscw_r_10_0 X (nxt c)]; exact Finset.mem_singleton_self _) (by exact amount_rscw_s_0_5 X c false) (by exact amount_rscw_r_10_0 X (nxt c) false) (by rfl) (by exact payload_rscw_s_0_5 X c false) (by exact hp2_rscw_r_10_0 X c) (by rfl) (by routes)) $$ [Hs_rscw_r_9_0 Hd_rscw_r_10_0 HO Hts_rscw_s_0_5 Htn_rscw_r_10_0]
  · isplitr; · iexact HIo
    isplitr; · iexact HIt
    isplitl [Hs_rscw_r_9_0]; · iapply (owns_intro_add X true 9 0 0 c 5 aM _ f_rscw_r_9_0 _ _ _ rfl (off3_m11_0 c) hf_rscw_r_9_0 (addV_eq_cw_9_0 X c)); iexact Hs_rscw_r_9_0
    isplitl [Hd_rscw_r_10_0]; · iexact Hd_rscw_r_10_0
    isplitl [HO]; · iexact HO
    isplitl [Hts_rscw_s_0_5]; · iexact Hts_rscw_s_0_5
    isplitr; · iexact Hrch_rscw_s_0_5
    isplitl [Htn_rscw_r_10_0]; · iexact Htn_rscw_r_10_0
    iexact Hrn_rscw_r_10_0
  iintro ⟨Hcs_rscw_s_0_5, HO⟩
  iclear HIo HIt
  -- wait recv rs ccw t=9 b=0
  try sl_exec_parts
  ihave #HIo := (bigSepL_elim_idx ownQs _ 94 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 43) (W := _) (R := 0) (m := 0) (T := ∅)
      (by rw [Nat.zero_add, expect_rsccw_r_9_0 X c])) $$ [Hc_rsccw_r_9_0 HO Hat_rsccw_r_9_0]
  · isplitr; · iexact HIo
    isplitl [Hc_rsccw_r_9_0]; · iexact Hc_rsccw_r_9_0
    isplitl [HO]; · iexact HO
    isplitr; · iapply (mayWait_rem (F := F) c 43 (by decide) _ (by show (41 : ℕ) < 2 + 43; decide)); iexact Hlev
    iexact Hat_rsccw_r_9_0
  iintro ⟨HO, Hat_rsccw_r_9_0, #Hrch_rsccw_r_9_0_1, Hpay⟩
  iclear HIo
  ihave Hp := (Entails.of_eq (rest_single X _ _ _ (duties_rsccw_r_9_0 X c) (payload_rsccw_r_9_0 X c false))) $$ Hpay
  ihave Hq := (owns_elim _ _ _) $$ Hp
  icases Hq with ⟨%f_rsccw_r_9_0, %hf_rsccw_r_9_0, Hs_rsccw_r_9_0⟩
  -- add ccw s=9 b=0: the loads and the store run by themselves (within the next run)
  -- wait send rs ccw t=8 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 43) (W := _) (R := 4) (m := 0) (T := ∅)
      (by rw [Nat.zero_add, expect_rsccw_s_0_4 X c])) $$ [Hcs_rsccw_s_0_4 HO Hat_rsccw_s_0]
  · isplitr; · iexact HIo
    isplitl [Hcs_rsccw_s_0_4]; · iexact Hcs_rsccw_s_0_4
    isplitl [HO]; · iexact HO
    isplitr; · iapply (mayWait_rem (F := F) c 43 (by decide) _ (by show (0 : ℕ) < 2 + 43; decide)); iexact Hlev
    iexact Hat_rsccw_s_0
  iintro ⟨HO, Hat_rsccw_s_0, #Hrch_rsccw_s_0_5, Hpay⟩
  iclear HIo
  ihave Hp := (Entails.of_eq (rest_single X _ _ _ (duties_rsccw_s_0_4 X c) (payload_rsccw_s_0_4 X c false))) $$ Hpay
  irename Hp => Hback_rsccw_r_7_0
  -- send rs ccw t=10 b=0 (payment 43, device function 44)
  try sl_exec_parts
  ihave HO := (owes_congr (rem_peel_43 c)) $$ HO
  ihave #HIo := (bigSepL_elim_idx ownQs _ 4 (by decide)) $$ HInvOwn
  ihave #HIt := (bigSepL_elim_idx recvCcw _ 20 (by decide)) $$ HInbCcw
  iapply (@send_owns_at F _ X c (prv c) ⟨k0_dev44 c, k0_dev44_lt c⟩ (dev44_eq c _) (slot bM 9 0 inb_S15x128x1024_S1x64x1024_9_0_0) (slot bM 10 0 inb_S15x128x1024_S1x64x1024_10_0_0) _ (qS cc0_scratch4 0 inb_S4_S1_0) (qR cc0_scratch5 10 0 inb_S15x2_S1x1_10_0) _ _ _ _ _ _ fullShare (addV X false 0 9 c) 5 (K (dcell c (qS cc0_scratch4 0 inb_S4_S1_0))) (K (dcell (prv c) (qR cc0_scratch5 10 0 inb_S15x2_S1x1_10_0))) _ (rem c 44) _ (by rw [duties_rsccw_s_0_5 X c]; exact Finset.mem_singleton_self _) (by rw [duties_rsccw_r_10_0 X (prv c)]; exact Finset.mem_singleton_self _) (by exact amount_rsccw_s_0_5 X c false) (by exact amount_rsccw_r_10_0 X (prv c) false) (by rfl) (by exact payload_rsccw_s_0_5 X c false) (by exact hp2_rsccw_r_10_0 X c) (by rfl) (by routes)) $$ [Hs_rsccw_r_9_0 Hd_rsccw_r_10_0 HO Hts_rsccw_s_0_5 Htn_rsccw_r_10_0]
  · isplitr; · iexact HIo
    isplitr; · iexact HIt
    isplitl [Hs_rsccw_r_9_0]; · iapply (owns_intro_add X false 9 0 0 c 11 bM _ f_rsccw_r_9_0 _ _ _ rfl (off4_11_0 c) hf_rsccw_r_9_0 (addV_eq_ccw_9_0 X c)); iexact Hs_rsccw_r_9_0
    isplitl [Hd_rsccw_r_10_0]; · iexact Hd_rsccw_r_10_0
    isplitl [HO]; · iexact HO
    isplitl [Hts_rsccw_s_0_5]; · iexact Hts_rsccw_s_0_5
    isplitr; · iexact Hrch_rsccw_s_0_5
    isplitl [Htn_rsccw_r_10_0]; · iexact Htn_rsccw_r_10_0
    iexact Hrn_rsccw_r_10_0
  iintro ⟨Hcs_rsccw_s_0_5, HO⟩
  iclear HIo HIt
  -- wait recv rs cw t=9 b=1
  try sl_exec_parts
  ihave #HIo := (bigSepL_elim_idx ownQs _ 35 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 44) (W := _) (R := 0) (m := 0) (T := ∅)
      (by rw [Nat.zero_add, expect_rscw_r_9_1 X c])) $$ [Hc_rscw_r_9_1 HO Hat_rscw_r_9_1]
  · isplitr; · iexact HIo
    isplitl [Hc_rscw_r_9_1]; · iexact Hc_rscw_r_9_1
    isplitl [HO]; · iexact HO
    isplitr; · iapply (mayWait_rem (F := F) c 44 (by decide) _ (by show (42 : ℕ) < 2 + 44; decide)); iexact Hlev
    iexact Hat_rscw_r_9_1
  iintro ⟨HO, Hat_rscw_r_9_1, #Hrch_rscw_r_9_1_1, Hpay⟩
  iclear HIo
  ihave Hp := (Entails.of_eq (rest_single X _ _ _ (duties_rscw_r_9_1 X c) (payload_rscw_r_9_1 X c false))) $$ Hpay
  ihave Hq := (owns_elim _ _ _) $$ Hp
  icases Hq with ⟨%f_rscw_r_9_1, %hf_rscw_r_9_1, Hs_rscw_r_9_1⟩
  -- add cw s=9 b=1: the loads and the store run by themselves (within the next run)
  -- wait send rs cw t=8 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 44) (W := _) (R := 4) (m := 0) (T := ∅)
      (by rw [Nat.zero_add, expect_rscw_s_1_4 X c])) $$ [Hcs_rscw_s_1_4 HO Hat_rscw_s_1]
  · isplitr; · iexact HIo
    isplitl [Hcs_rscw_s_1_4]; · iexact Hcs_rscw_s_1_4
    isplitl [HO]; · iexact HO
    isplitr; · iapply (mayWait_rem (F := F) c 44 (by decide) _ (by show (0 : ℕ) < 2 + 44; decide)); iexact Hlev
    iexact Hat_rscw_s_1
  iintro ⟨HO, Hat_rscw_s_1, #Hrch_rscw_s_1_5, Hpay⟩
  iclear HIo
  ihave Hp := (Entails.of_eq (rest_single X _ _ _ (duties_rscw_s_1_4 X c) (payload_rscw_s_1_4 X c false))) $$ Hpay
  irename Hp => Hback_rscw_r_7_1
  -- send rs cw t=10 b=1 (payment 44, device function 45)
  try sl_exec_parts
  ihave HO := (owes_congr (rem_peel_44 c)) $$ HO
  ihave #HIo := (bigSepL_elim_idx ownQs _ 1 (by decide)) $$ HInvOwn
  ihave #HIt := (bigSepL_elim_idx recvCw _ 21 (by decide)) $$ HInbCw
  iapply (@send_owns_at F _ X c (nxt c) ⟨k0_dev45 c, k0_dev45_lt c⟩ (dev45_eq c _) (slot aM 9 64 inb_S15x128x1024_S1x64x1024_9_64_0) (slot aM 10 64 inb_S15x128x1024_S1x64x1024_10_64_0) _ (qS cc0_scratch2 1 inb_S4_S1_1) (qR cc0_scratch3 10 1 inb_S15x2_S1x1_10_1) _ _ _ _ _ _ fullShare (addV X true 1 9 c) 5 (K (dcell c (qS cc0_scratch2 1 inb_S4_S1_1))) (K (dcell (nxt c) (qR cc0_scratch3 10 1 inb_S15x2_S1x1_10_1))) _ (rem c 45) _ (by rw [duties_rscw_s_1_5 X c]; exact Finset.mem_singleton_self _) (by rw [duties_rscw_r_10_1 X (nxt c)]; exact Finset.mem_singleton_self _) (by exact amount_rscw_s_1_5 X c false) (by exact amount_rscw_r_10_1 X (nxt c) false) (by rfl) (by exact payload_rscw_s_1_5 X c false) (by exact hp2_rscw_r_10_1 X c) (by rfl) (by routes)) $$ [Hs_rscw_r_9_1 Hd_rscw_r_10_1 HO Hts_rscw_s_1_5 Htn_rscw_r_10_1]
  · isplitr; · iexact HIo
    isplitr; · iexact HIt
    isplitl [Hs_rscw_r_9_1]; · iapply (owns_intro_add X true 9 64 1 c 5 aM _ f_rscw_r_9_1 _ _ _ rfl (off3_m11_64 c) hf_rscw_r_9_1 (addV_eq_cw_9_1 X c)); iexact Hs_rscw_r_9_1
    isplitl [Hd_rscw_r_10_1]; · iexact Hd_rscw_r_10_1
    isplitl [HO]; · iexact HO
    isplitl [Hts_rscw_s_1_5]; · iexact Hts_rscw_s_1_5
    isplitr; · iexact Hrch_rscw_s_1_5
    isplitl [Htn_rscw_r_10_1]; · iexact Htn_rscw_r_10_1
    iexact Hrn_rscw_r_10_1
  iintro ⟨Hcs_rscw_s_1_5, HO⟩
  iclear HIo HIt
  -- wait recv rs ccw t=9 b=1
  try sl_exec_parts
  ihave #HIo := (bigSepL_elim_idx ownQs _ 95 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 45) (W := _) (R := 0) (m := 0) (T := ∅)
      (by rw [Nat.zero_add, expect_rsccw_r_9_1 X c])) $$ [Hc_rsccw_r_9_1 HO Hat_rsccw_r_9_1]
  · isplitr; · iexact HIo
    isplitl [Hc_rsccw_r_9_1]; · iexact Hc_rsccw_r_9_1
    isplitl [HO]; · iexact HO
    isplitr; · iapply (mayWait_rem (F := F) c 45 (by decide) _ (by show (43 : ℕ) < 2 + 45; decide)); iexact Hlev
    iexact Hat_rsccw_r_9_1
  iintro ⟨HO, Hat_rsccw_r_9_1, #Hrch_rsccw_r_9_1_1, Hpay⟩
  iclear HIo
  ihave Hp := (Entails.of_eq (rest_single X _ _ _ (duties_rsccw_r_9_1 X c) (payload_rsccw_r_9_1 X c false))) $$ Hpay
  ihave Hq := (owns_elim _ _ _) $$ Hp
  icases Hq with ⟨%f_rsccw_r_9_1, %hf_rsccw_r_9_1, Hs_rsccw_r_9_1⟩
  -- add ccw s=9 b=1: the loads and the store run by themselves (within the next run)
  -- wait send rs ccw t=8 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 45) (W := _) (R := 4) (m := 0) (T := ∅)
      (by rw [Nat.zero_add, expect_rsccw_s_1_4 X c])) $$ [Hcs_rsccw_s_1_4 HO Hat_rsccw_s_1]
  · isplitr; · iexact HIo
    isplitl [Hcs_rsccw_s_1_4]; · iexact Hcs_rsccw_s_1_4
    isplitl [HO]; · iexact HO
    isplitr; · iapply (mayWait_rem (F := F) c 45 (by decide) _ (by show (0 : ℕ) < 2 + 45; decide)); iexact Hlev
    iexact Hat_rsccw_s_1
  iintro ⟨HO, Hat_rsccw_s_1, #Hrch_rsccw_s_1_5, Hpay⟩
  iclear HIo
  ihave Hp := (Entails.of_eq (rest_single X _ _ _ (duties_rsccw_s_1_4 X c) (payload_rsccw_s_1_4 X c false))) $$ Hpay
  irename Hp => Hback_rsccw_r_7_1
  -- send rs ccw t=10 b=1 (payment 45, device function 46)
  try sl_exec_parts
  ihave HO := (owes_congr (rem_peel_45 c)) $$ HO
  ihave #HIo := (bigSepL_elim_idx ownQs _ 5 (by decide)) $$ HInvOwn
  ihave #HIt := (bigSepL_elim_idx recvCcw _ 21 (by decide)) $$ HInbCcw
  iapply (@send_owns_at F _ X c (prv c) ⟨k0_dev46 c, k0_dev46_lt c⟩ (dev46_eq c _) (slot bM 9 64 inb_S15x128x1024_S1x64x1024_9_64_0) (slot bM 10 64 inb_S15x128x1024_S1x64x1024_10_64_0) _ (qS cc0_scratch4 1 inb_S4_S1_1) (qR cc0_scratch5 10 1 inb_S15x2_S1x1_10_1) _ _ _ _ _ _ fullShare (addV X false 1 9 c) 5 (K (dcell c (qS cc0_scratch4 1 inb_S4_S1_1))) (K (dcell (prv c) (qR cc0_scratch5 10 1 inb_S15x2_S1x1_10_1))) _ (rem c 46) _ (by rw [duties_rsccw_s_1_5 X c]; exact Finset.mem_singleton_self _) (by rw [duties_rsccw_r_10_1 X (prv c)]; exact Finset.mem_singleton_self _) (by exact amount_rsccw_s_1_5 X c false) (by exact amount_rsccw_r_10_1 X (prv c) false) (by rfl) (by exact payload_rsccw_s_1_5 X c false) (by exact hp2_rsccw_r_10_1 X c) (by rfl) (by routes)) $$ [Hs_rsccw_r_9_1 Hd_rsccw_r_10_1 HO Hts_rsccw_s_1_5 Htn_rsccw_r_10_1]
  · isplitr; · iexact HIo
    isplitr; · iexact HIt
    isplitl [Hs_rsccw_r_9_1]; · iapply (owns_intro_add X false 9 64 1 c 11 bM _ f_rsccw_r_9_1 _ _ _ rfl (off4_11_64 c) hf_rsccw_r_9_1 (addV_eq_ccw_9_1 X c)); iexact Hs_rsccw_r_9_1
    isplitl [Hd_rsccw_r_10_1]; · iexact Hd_rsccw_r_10_1
    isplitl [HO]; · iexact HO
    isplitl [Hts_rsccw_s_1_5]; · iexact Hts_rsccw_s_1_5
    isplitr; · iexact Hrch_rsccw_s_1_5
    isplitl [Htn_rsccw_r_10_1]; · iexact Htn_rsccw_r_10_1
    iexact Hrn_rsccw_r_10_1
  iintro ⟨Hcs_rsccw_s_1_5, HO⟩
  iclear HIo HIt
  -- wait recv rs cw t=10 b=0
  try sl_exec_parts
  ihave #HIo := (bigSepL_elim_idx ownQs _ 36 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 46) (W := _) (R := 0) (m := 0) (T := ∅)
      (by rw [Nat.zero_add, expect_rscw_r_10_0 X c])) $$ [Hc_rscw_r_10_0 HO Hat_rscw_r_10_0]
  · isplitr; · iexact HIo
    isplitl [Hc_rscw_r_10_0]; · iexact Hc_rscw_r_10_0
    isplitl [HO]; · iexact HO
    isplitr; · iapply (mayWait_rem (F := F) c 46 (by decide) _ (by show (44 : ℕ) < 2 + 46; decide)); iexact Hlev
    iexact Hat_rscw_r_10_0
  iintro ⟨HO, Hat_rscw_r_10_0, #Hrch_rscw_r_10_0_1, Hpay⟩
  iclear HIo
  ihave Hp := (Entails.of_eq (rest_single X _ _ _ (duties_rscw_r_10_0 X c) (payload_rscw_r_10_0 X c false))) $$ Hpay
  ihave Hq := (owns_elim _ _ _) $$ Hp
  icases Hq with ⟨%f_rscw_r_10_0, %hf_rscw_r_10_0, Hs_rscw_r_10_0⟩
  -- add cw s=10 b=0: the loads and the store run by themselves (within the next run)
  -- wait send rs cw t=9 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 46) (W := _) (R := 4) (m := 0) (T := ∅)
      (by rw [Nat.zero_add, expect_rscw_s_2_4 X c])) $$ [Hcs_rscw_s_2_4 HO Hat_rscw_s_2]
  · isplitr; · iexact HIo
    isplitl [Hcs_rscw_s_2_4]; · iexact Hcs_rscw_s_2_4
    isplitl [HO]; · iexact HO
    isplitr; · iapply (mayWait_rem (F := F) c 46 (by decide) _ (by show (0 : ℕ) < 2 + 46; decide)); iexact Hlev
    iexact Hat_rscw_s_2
  iintro ⟨HO, Hat_rscw_s_2, #Hrch_rscw_s_2_5, Hpay⟩
  iclear HIo
  ihave Hp := (Entails.of_eq (rest_single X _ _ _ (duties_rscw_s_2_4 X c) (payload_rscw_s_2_4 X c false))) $$ Hpay
  irename Hp => Hback_rscw_r_8_0
  -- send rs cw t=11 b=0 (payment 46, device function 47)
  try sl_exec_parts
  ihave HO := (owes_congr (rem_peel_46 c)) $$ HO
  ihave #HIo := (bigSepL_elim_idx ownQs _ 2 (by decide)) $$ HInvOwn
  ihave #HIt := (bigSepL_elim_idx recvCw _ 22 (by decide)) $$ HInbCw
  iapply (@send_owns_at F _ X c (nxt c) ⟨k0_dev47 c, k0_dev47_lt c⟩ (dev47_eq c _) (slot aM 10 0 inb_S15x128x1024_S1x64x1024_10_0_0) (slot aM 11 0 inb_S15x128x1024_S1x64x1024_11_0_0) _ (qS cc0_scratch2 2 inb_S4_S1_2) (qR cc0_scratch3 11 0 inb_S15x2_S1x1_11_0) _ _ _ _ _ _ fullShare (addV X true 0 10 c) 5 (K (dcell c (qS cc0_scratch2 2 inb_S4_S1_2))) (K (dcell (nxt c) (qR cc0_scratch3 11 0 inb_S15x2_S1x1_11_0))) _ (rem c 47) _ (by rw [duties_rscw_s_2_5 X c]; exact Finset.mem_singleton_self _) (by rw [duties_rscw_r_11_0 X (nxt c)]; exact Finset.mem_singleton_self _) (by exact amount_rscw_s_2_5 X c false) (by exact amount_rscw_r_11_0 X (nxt c) false) (by rfl) (by exact payload_rscw_s_2_5 X c false) (by exact hp2_rscw_r_11_0 X c) (by rfl) (by routes)) $$ [Hs_rscw_r_10_0 Hd_rscw_r_11_0 HO Hts_rscw_s_2_5 Htn_rscw_r_11_0]
  · isplitr; · iexact HIo
    isplitr; · iexact HIt
    isplitl [Hs_rscw_r_10_0]; · iapply (owns_intro_add X true 10 0 0 c 4 aM _ f_rscw_r_10_0 _ _ _ rfl (off3_m12_0 c) hf_rscw_r_10_0 (addV_eq_cw_10_0 X c)); iexact Hs_rscw_r_10_0
    isplitl [Hd_rscw_r_11_0]; · iexact Hd_rscw_r_11_0
    isplitl [HO]; · iexact HO
    isplitl [Hts_rscw_s_2_5]; · iexact Hts_rscw_s_2_5
    isplitr; · iexact Hrch_rscw_s_2_5
    isplitl [Htn_rscw_r_11_0]; · iexact Htn_rscw_r_11_0
    iexact Hrn_rscw_r_11_0
  iintro ⟨Hcs_rscw_s_2_5, HO⟩
  iclear HIo HIt
  -- wait recv rs ccw t=10 b=0
  try sl_exec_parts
  ihave #HIo := (bigSepL_elim_idx ownQs _ 96 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 47) (W := _) (R := 0) (m := 0) (T := ∅)
      (by rw [Nat.zero_add, expect_rsccw_r_10_0 X c])) $$ [Hc_rsccw_r_10_0 HO Hat_rsccw_r_10_0]
  · isplitr; · iexact HIo
    isplitl [Hc_rsccw_r_10_0]; · iexact Hc_rsccw_r_10_0
    isplitl [HO]; · iexact HO
    isplitr; · iapply (mayWait_rem (F := F) c 47 (by decide) _ (by show (45 : ℕ) < 2 + 47; decide)); iexact Hlev
    iexact Hat_rsccw_r_10_0
  iintro ⟨HO, Hat_rsccw_r_10_0, #Hrch_rsccw_r_10_0_1, Hpay⟩
  iclear HIo
  ihave Hp := (Entails.of_eq (rest_single X _ _ _ (duties_rsccw_r_10_0 X c) (payload_rsccw_r_10_0 X c false))) $$ Hpay
  ihave Hq := (owns_elim _ _ _) $$ Hp
  icases Hq with ⟨%f_rsccw_r_10_0, %hf_rsccw_r_10_0, Hs_rsccw_r_10_0⟩
  -- add ccw s=10 b=0: the loads and the store run by themselves (within the next run)
  -- wait send rs ccw t=9 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 47) (W := _) (R := 4) (m := 0) (T := ∅)
      (by rw [Nat.zero_add, expect_rsccw_s_2_4 X c])) $$ [Hcs_rsccw_s_2_4 HO Hat_rsccw_s_2]
  · isplitr; · iexact HIo
    isplitl [Hcs_rsccw_s_2_4]; · iexact Hcs_rsccw_s_2_4
    isplitl [HO]; · iexact HO
    isplitr; · iapply (mayWait_rem (F := F) c 47 (by decide) _ (by show (0 : ℕ) < 2 + 47; decide)); iexact Hlev
    iexact Hat_rsccw_s_2
  iintro ⟨HO, Hat_rsccw_s_2, #Hrch_rsccw_s_2_5, Hpay⟩
  iclear HIo
  ihave Hp := (Entails.of_eq (rest_single X _ _ _ (duties_rsccw_s_2_4 X c) (payload_rsccw_s_2_4 X c false))) $$ Hpay
  irename Hp => Hback_rsccw_r_8_0
  -- send rs ccw t=11 b=0 (payment 47, device function 48)
  try sl_exec_parts
  ihave HO := (owes_congr (rem_peel_47 c)) $$ HO
  ihave #HIo := (bigSepL_elim_idx ownQs _ 6 (by decide)) $$ HInvOwn
  ihave #HIt := (bigSepL_elim_idx recvCcw _ 22 (by decide)) $$ HInbCcw
  iapply (@send_owns_at F _ X c (prv c) ⟨k0_dev48 c, k0_dev48_lt c⟩ (dev48_eq c _) (slot bM 10 0 inb_S15x128x1024_S1x64x1024_10_0_0) (slot bM 11 0 inb_S15x128x1024_S1x64x1024_11_0_0) _ (qS cc0_scratch4 2 inb_S4_S1_2) (qR cc0_scratch5 11 0 inb_S15x2_S1x1_11_0) _ _ _ _ _ _ fullShare (addV X false 0 10 c) 5 (K (dcell c (qS cc0_scratch4 2 inb_S4_S1_2))) (K (dcell (prv c) (qR cc0_scratch5 11 0 inb_S15x2_S1x1_11_0))) _ (rem c 48) _ (by rw [duties_rsccw_s_2_5 X c]; exact Finset.mem_singleton_self _) (by rw [duties_rsccw_r_11_0 X (prv c)]; exact Finset.mem_singleton_self _) (by exact amount_rsccw_s_2_5 X c false) (by exact amount_rsccw_r_11_0 X (prv c) false) (by rfl) (by exact payload_rsccw_s_2_5 X c false) (by exact hp2_rsccw_r_11_0 X c) (by rfl) (by routes)) $$ [Hs_rsccw_r_10_0 Hd_rsccw_r_11_0 HO Hts_rsccw_s_2_5 Htn_rsccw_r_11_0]
  · isplitr; · iexact HIo
    isplitr; · iexact HIt
    isplitl [Hs_rsccw_r_10_0]; · iapply (owns_intro_add X false 10 0 0 c 12 bM _ f_rsccw_r_10_0 _ _ _ rfl (off4_12_0 c) hf_rsccw_r_10_0 (addV_eq_ccw_10_0 X c)); iexact Hs_rsccw_r_10_0
    isplitl [Hd_rsccw_r_11_0]; · iexact Hd_rsccw_r_11_0
    isplitl [HO]; · iexact HO
    isplitl [Hts_rsccw_s_2_5]; · iexact Hts_rsccw_s_2_5
    isplitr; · iexact Hrch_rsccw_s_2_5
    isplitl [Htn_rsccw_r_11_0]; · iexact Htn_rsccw_r_11_0
    iexact Hrn_rsccw_r_11_0
  iintro ⟨Hcs_rsccw_s_2_5, HO⟩
  iclear HIo HIt
  -- wait recv rs cw t=10 b=1
  try sl_exec_parts
  ihave #HIo := (bigSepL_elim_idx ownQs _ 37 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 48) (W := _) (R := 0) (m := 0) (T := ∅)
      (by rw [Nat.zero_add, expect_rscw_r_10_1 X c])) $$ [Hc_rscw_r_10_1 HO Hat_rscw_r_10_1]
  · isplitr; · iexact HIo
    isplitl [Hc_rscw_r_10_1]; · iexact Hc_rscw_r_10_1
    isplitl [HO]; · iexact HO
    isplitr; · iapply (mayWait_rem (F := F) c 48 (by decide) _ (by show (46 : ℕ) < 2 + 48; decide)); iexact Hlev
    iexact Hat_rscw_r_10_1
  iintro ⟨HO, Hat_rscw_r_10_1, #Hrch_rscw_r_10_1_1, Hpay⟩
  iclear HIo
  ihave Hp := (Entails.of_eq (rest_single X _ _ _ (duties_rscw_r_10_1 X c) (payload_rscw_r_10_1 X c false))) $$ Hpay
  ihave Hq := (owns_elim _ _ _) $$ Hp
  icases Hq with ⟨%f_rscw_r_10_1, %hf_rscw_r_10_1, Hs_rscw_r_10_1⟩
  -- add cw s=10 b=1: the loads and the store run by themselves (within the next run)
  -- wait send rs cw t=9 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 48) (W := _) (R := 4) (m := 0) (T := ∅)
      (by rw [Nat.zero_add, expect_rscw_s_3_4 X c])) $$ [Hcs_rscw_s_3_4 HO Hat_rscw_s_3]
  · isplitr; · iexact HIo
    isplitl [Hcs_rscw_s_3_4]; · iexact Hcs_rscw_s_3_4
    isplitl [HO]; · iexact HO
    isplitr; · iapply (mayWait_rem (F := F) c 48 (by decide) _ (by show (0 : ℕ) < 2 + 48; decide)); iexact Hlev
    iexact Hat_rscw_s_3
  iintro ⟨HO, Hat_rscw_s_3, #Hrch_rscw_s_3_5, Hpay⟩
  iclear HIo
  ihave Hp := (Entails.of_eq (rest_single X _ _ _ (duties_rscw_s_3_4 X c) (payload_rscw_s_3_4 X c false))) $$ Hpay
  irename Hp => Hback_rscw_r_8_1
  -- send rs cw t=11 b=1 (payment 48, device function 49)
  try sl_exec_parts
  ihave HO := (owes_congr (rem_peel_48 c)) $$ HO
  ihave #HIo := (bigSepL_elim_idx ownQs _ 3 (by decide)) $$ HInvOwn
  ihave #HIt := (bigSepL_elim_idx recvCw _ 23 (by decide)) $$ HInbCw
  iapply (@send_owns_at F _ X c (nxt c) ⟨k0_dev49 c, k0_dev49_lt c⟩ (dev49_eq c _) (slot aM 10 64 inb_S15x128x1024_S1x64x1024_10_64_0) (slot aM 11 64 inb_S15x128x1024_S1x64x1024_11_64_0) _ (qS cc0_scratch2 3 inb_S4_S1_3) (qR cc0_scratch3 11 1 inb_S15x2_S1x1_11_1) _ _ _ _ _ _ fullShare (addV X true 1 10 c) 5 (K (dcell c (qS cc0_scratch2 3 inb_S4_S1_3))) (K (dcell (nxt c) (qR cc0_scratch3 11 1 inb_S15x2_S1x1_11_1))) _ (rem c 49) _ (by rw [duties_rscw_s_3_5 X c]; exact Finset.mem_singleton_self _) (by rw [duties_rscw_r_11_1 X (nxt c)]; exact Finset.mem_singleton_self _) (by exact amount_rscw_s_3_5 X c false) (by exact amount_rscw_r_11_1 X (nxt c) false) (by rfl) (by exact payload_rscw_s_3_5 X c false) (by exact hp2_rscw_r_11_1 X c) (by rfl) (by routes)) $$ [Hs_rscw_r_10_1 Hd_rscw_r_11_1 HO Hts_rscw_s_3_5 Htn_rscw_r_11_1]
  · isplitr; · iexact HIo
    isplitr; · iexact HIt
    isplitl [Hs_rscw_r_10_1]; · iapply (owns_intro_add X true 10 64 1 c 4 aM _ f_rscw_r_10_1 _ _ _ rfl (off3_m12_64 c) hf_rscw_r_10_1 (addV_eq_cw_10_1 X c)); iexact Hs_rscw_r_10_1
    isplitl [Hd_rscw_r_11_1]; · iexact Hd_rscw_r_11_1
    isplitl [HO]; · iexact HO
    isplitl [Hts_rscw_s_3_5]; · iexact Hts_rscw_s_3_5
    isplitr; · iexact Hrch_rscw_s_3_5
    isplitl [Htn_rscw_r_11_1]; · iexact Htn_rscw_r_11_1
    iexact Hrn_rscw_r_11_1
  iintro ⟨Hcs_rscw_s_3_5, HO⟩
  iclear HIo HIt
  -- wait recv rs ccw t=10 b=1
  try sl_exec_parts
  ihave #HIo := (bigSepL_elim_idx ownQs _ 97 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 49) (W := _) (R := 0) (m := 0) (T := ∅)
      (by rw [Nat.zero_add, expect_rsccw_r_10_1 X c])) $$ [Hc_rsccw_r_10_1 HO Hat_rsccw_r_10_1]
  · isplitr; · iexact HIo
    isplitl [Hc_rsccw_r_10_1]; · iexact Hc_rsccw_r_10_1
    isplitl [HO]; · iexact HO
    isplitr; · iapply (mayWait_rem (F := F) c 49 (by decide) _ (by show (47 : ℕ) < 2 + 49; decide)); iexact Hlev
    iexact Hat_rsccw_r_10_1
  iintro ⟨HO, Hat_rsccw_r_10_1, #Hrch_rsccw_r_10_1_1, Hpay⟩
  iclear HIo
  ihave Hp := (Entails.of_eq (rest_single X _ _ _ (duties_rsccw_r_10_1 X c) (payload_rsccw_r_10_1 X c false))) $$ Hpay
  ihave Hq := (owns_elim _ _ _) $$ Hp
  icases Hq with ⟨%f_rsccw_r_10_1, %hf_rsccw_r_10_1, Hs_rsccw_r_10_1⟩
  -- add ccw s=10 b=1: the loads and the store run by themselves (within the next run)
  -- wait send rs ccw t=9 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 49) (W := _) (R := 4) (m := 0) (T := ∅)
      (by rw [Nat.zero_add, expect_rsccw_s_3_4 X c])) $$ [Hcs_rsccw_s_3_4 HO Hat_rsccw_s_3]
  · isplitr; · iexact HIo
    isplitl [Hcs_rsccw_s_3_4]; · iexact Hcs_rsccw_s_3_4
    isplitl [HO]; · iexact HO
    isplitr; · iapply (mayWait_rem (F := F) c 49 (by decide) _ (by show (0 : ℕ) < 2 + 49; decide)); iexact Hlev
    iexact Hat_rsccw_s_3
  iintro ⟨HO, Hat_rsccw_s_3, #Hrch_rsccw_s_3_5, Hpay⟩
  iclear HIo
  ihave Hp := (Entails.of_eq (rest_single X _ _ _ (duties_rsccw_s_3_4 X c) (payload_rsccw_s_3_4 X c false))) $$ Hpay
  irename Hp => Hback_rsccw_r_8_1
  -- send rs ccw t=11 b=1 (payment 49, device function 50)
  try sl_exec_parts
  ihave HO := (owes_congr (rem_peel_49 c)) $$ HO
  ihave #HIo := (bigSepL_elim_idx ownQs _ 7 (by decide)) $$ HInvOwn
  ihave #HIt := (bigSepL_elim_idx recvCcw _ 23 (by decide)) $$ HInbCcw
  iapply (@send_owns_at F _ X c (prv c) ⟨k0_dev50 c, k0_dev50_lt c⟩ (dev50_eq c _) (slot bM 10 64 inb_S15x128x1024_S1x64x1024_10_64_0) (slot bM 11 64 inb_S15x128x1024_S1x64x1024_11_64_0) _ (qS cc0_scratch4 3 inb_S4_S1_3) (qR cc0_scratch5 11 1 inb_S15x2_S1x1_11_1) _ _ _ _ _ _ fullShare (addV X false 1 10 c) 5 (K (dcell c (qS cc0_scratch4 3 inb_S4_S1_3))) (K (dcell (prv c) (qR cc0_scratch5 11 1 inb_S15x2_S1x1_11_1))) _ (rem c 50) _ (by rw [duties_rsccw_s_3_5 X c]; exact Finset.mem_singleton_self _) (by rw [duties_rsccw_r_11_1 X (prv c)]; exact Finset.mem_singleton_self _) (by exact amount_rsccw_s_3_5 X c false) (by exact amount_rsccw_r_11_1 X (prv c) false) (by rfl) (by exact payload_rsccw_s_3_5 X c false) (by exact hp2_rsccw_r_11_1 X c) (by rfl) (by routes)) $$ [Hs_rsccw_r_10_1 Hd_rsccw_r_11_1 HO Hts_rsccw_s_3_5 Htn_rsccw_r_11_1]
  · isplitr; · iexact HIo
    isplitr; · iexact HIt
    isplitl [Hs_rsccw_r_10_1]; · iapply (owns_intro_add X false 10 64 1 c 12 bM _ f_rsccw_r_10_1 _ _ _ rfl (off4_12_64 c) hf_rsccw_r_10_1 (addV_eq_ccw_10_1 X c)); iexact Hs_rsccw_r_10_1
    isplitl [Hd_rsccw_r_11_1]; · iexact Hd_rsccw_r_11_1
    isplitl [HO]; · iexact HO
    isplitl [Hts_rsccw_s_3_5]; · iexact Hts_rsccw_s_3_5
    isplitr; · iexact Hrch_rsccw_s_3_5
    isplitl [Htn_rsccw_r_11_1]; · iexact Htn_rsccw_r_11_1
    iexact Hrn_rsccw_r_11_1
  iintro ⟨Hcs_rsccw_s_3_5, HO⟩
  iclear HIo HIt
  -- wait recv rs cw t=11 b=0
  try sl_exec_parts
  ihave #HIo := (bigSepL_elim_idx ownQs _ 38 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 50) (W := _) (R := 0) (m := 0) (T := ∅)
      (by rw [Nat.zero_add, expect_rscw_r_11_0 X c])) $$ [Hc_rscw_r_11_0 HO Hat_rscw_r_11_0]
  · isplitr; · iexact HIo
    isplitl [Hc_rscw_r_11_0]; · iexact Hc_rscw_r_11_0
    isplitl [HO]; · iexact HO
    isplitr; · iapply (mayWait_rem (F := F) c 50 (by decide) _ (by show (48 : ℕ) < 2 + 50; decide)); iexact Hlev
    iexact Hat_rscw_r_11_0
  iintro ⟨HO, Hat_rscw_r_11_0, #Hrch_rscw_r_11_0_1, Hpay⟩
  iclear HIo
  ihave Hp := (Entails.of_eq (rest_single X _ _ _ (duties_rscw_r_11_0 X c) (payload_rscw_r_11_0 X c false))) $$ Hpay
  ihave Hq := (owns_elim _ _ _) $$ Hp
  icases Hq with ⟨%f_rscw_r_11_0, %hf_rscw_r_11_0, Hs_rscw_r_11_0⟩
  -- add cw s=11 b=0: the loads and the store run by themselves (within the next run)
  -- wait send rs cw t=10 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 50) (W := _) (R := 5) (m := 0) (T := ∅)
      (by rw [Nat.zero_add, expect_rscw_s_0_5 X c])) $$ [Hcs_rscw_s_0_5 HO Hat_rscw_s_0]
  · isplitr; · iexact HIo
    isplitl [Hcs_rscw_s_0_5]; · iexact Hcs_rscw_s_0_5
    isplitl [HO]; · iexact HO
    isplitr; · iapply (mayWait_rem (F := F) c 50 (by decide) _ (by show (0 : ℕ) < 2 + 50; decide)); iexact Hlev
    iexact Hat_rscw_s_0
  iintro ⟨HO, Hat_rscw_s_0, #Hrch_rscw_s_0_6, Hpay⟩
  iclear HIo
  ihave Hp := (Entails.of_eq (rest_single X _ _ _ (duties_rscw_s_0_5 X c) (payload_rscw_s_0_5 X c false))) $$ Hpay
  irename Hp => Hback_rscw_r_9_0
  -- send rs cw t=12 b=0 (payment 50, device function 51)
  try sl_exec_parts
  ihave HO := (owes_congr (rem_peel_50 c)) $$ HO
  ihave #HIo := (bigSepL_elim_idx ownQs _ 0 (by decide)) $$ HInvOwn
  ihave #HIt := (bigSepL_elim_idx recvCw _ 24 (by decide)) $$ HInbCw
  iapply (@send_owns_at F _ X c (nxt c) ⟨k0_dev51 c, k0_dev51_lt c⟩ (dev51_eq c _) (slot aM 11 0 inb_S15x128x1024_S1x64x1024_11_0_0) (slot aM 12 0 inb_S15x128x1024_S1x64x1024_12_0_0) _ (qS cc0_scratch2 0 inb_S4_S1_0) (qR cc0_scratch3 12 0 inb_S15x2_S1x1_12_0) _ _ _ _ _ _ fullShare (addV X true 0 11 c) 6 (K (dcell c (qS cc0_scratch2 0 inb_S4_S1_0))) (K (dcell (nxt c) (qR cc0_scratch3 12 0 inb_S15x2_S1x1_12_0))) _ (rem c 51) _ (by rw [duties_rscw_s_0_6 X c]; exact Finset.mem_singleton_self _) (by rw [duties_rscw_r_12_0 X (nxt c)]; exact Finset.mem_singleton_self _) (by exact amount_rscw_s_0_6 X c false) (by exact amount_rscw_r_12_0 X (nxt c) false) (by rfl) (by exact payload_rscw_s_0_6 X c false) (by exact hp2_rscw_r_12_0 X c) (by rfl) (by routes)) $$ [Hs_rscw_r_11_0 Hd_rscw_r_12_0 HO Hts_rscw_s_0_6 Htn_rscw_r_12_0]
  · isplitr; · iexact HIo
    isplitr; · iexact HIt
    isplitl [Hs_rscw_r_11_0]; · iapply (owns_intro_add X true 11 0 0 c 3 aM _ f_rscw_r_11_0 _ _ _ rfl (off3_m13_0 c) hf_rscw_r_11_0 (addV_eq_cw_11_0 X c)); iexact Hs_rscw_r_11_0
    isplitl [Hd_rscw_r_12_0]; · iexact Hd_rscw_r_12_0
    isplitl [HO]; · iexact HO
    isplitl [Hts_rscw_s_0_6]; · iexact Hts_rscw_s_0_6
    isplitr; · iexact Hrch_rscw_s_0_6
    isplitl [Htn_rscw_r_12_0]; · iexact Htn_rscw_r_12_0
    iexact Hrn_rscw_r_12_0
  iintro ⟨Hcs_rscw_s_0_6, HO⟩
  iclear HIo HIt
  -- wait recv rs ccw t=11 b=0
  try sl_exec_parts
  ihave #HIo := (bigSepL_elim_idx ownQs _ 98 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 51) (W := _) (R := 0) (m := 0) (T := ∅)
      (by rw [Nat.zero_add, expect_rsccw_r_11_0 X c])) $$ [Hc_rsccw_r_11_0 HO Hat_rsccw_r_11_0]
  · isplitr; · iexact HIo
    isplitl [Hc_rsccw_r_11_0]; · iexact Hc_rsccw_r_11_0
    isplitl [HO]; · iexact HO
    isplitr; · iapply (mayWait_rem (F := F) c 51 (by decide) _ (by show (49 : ℕ) < 2 + 51; decide)); iexact Hlev
    iexact Hat_rsccw_r_11_0
  iintro ⟨HO, Hat_rsccw_r_11_0, #Hrch_rsccw_r_11_0_1, Hpay⟩
  iclear HIo
  ihave Hp := (Entails.of_eq (rest_single X _ _ _ (duties_rsccw_r_11_0 X c) (payload_rsccw_r_11_0 X c false))) $$ Hpay
  ihave Hq := (owns_elim _ _ _) $$ Hp
  icases Hq with ⟨%f_rsccw_r_11_0, %hf_rsccw_r_11_0, Hs_rsccw_r_11_0⟩
  -- add ccw s=11 b=0: the loads and the store run by themselves (within the next run)
  -- wait send rs ccw t=10 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 51) (W := _) (R := 5) (m := 0) (T := ∅)
      (by rw [Nat.zero_add, expect_rsccw_s_0_5 X c])) $$ [Hcs_rsccw_s_0_5 HO Hat_rsccw_s_0]
  · isplitr; · iexact HIo
    isplitl [Hcs_rsccw_s_0_5]; · iexact Hcs_rsccw_s_0_5
    isplitl [HO]; · iexact HO
    isplitr; · iapply (mayWait_rem (F := F) c 51 (by decide) _ (by show (0 : ℕ) < 2 + 51; decide)); iexact Hlev
    iexact Hat_rsccw_s_0
  iintro ⟨HO, Hat_rsccw_s_0, #Hrch_rsccw_s_0_6, Hpay⟩
  iclear HIo
  ihave Hp := (Entails.of_eq (rest_single X _ _ _ (duties_rsccw_s_0_5 X c) (payload_rsccw_s_0_5 X c false))) $$ Hpay
  irename Hp => Hback_rsccw_r_9_0
  -- send rs ccw t=12 b=0 (payment 51, device function 52)
  try sl_exec_parts
  ihave HO := (owes_congr (rem_peel_51 c)) $$ HO
  ihave #HIo := (bigSepL_elim_idx ownQs _ 4 (by decide)) $$ HInvOwn
  ihave #HIt := (bigSepL_elim_idx recvCcw _ 24 (by decide)) $$ HInbCcw
  iapply (@send_owns_at F _ X c (prv c) ⟨k0_dev52 c, k0_dev52_lt c⟩ (dev52_eq c _) (slot bM 11 0 inb_S15x128x1024_S1x64x1024_11_0_0) (slot bM 12 0 inb_S15x128x1024_S1x64x1024_12_0_0) _ (qS cc0_scratch4 0 inb_S4_S1_0) (qR cc0_scratch5 12 0 inb_S15x2_S1x1_12_0) _ _ _ _ _ _ fullShare (addV X false 0 11 c) 6 (K (dcell c (qS cc0_scratch4 0 inb_S4_S1_0))) (K (dcell (prv c) (qR cc0_scratch5 12 0 inb_S15x2_S1x1_12_0))) _ (rem c 52) _ (by rw [duties_rsccw_s_0_6 X c]; exact Finset.mem_singleton_self _) (by rw [duties_rsccw_r_12_0 X (prv c)]; exact Finset.mem_singleton_self _) (by exact amount_rsccw_s_0_6 X c false) (by exact amount_rsccw_r_12_0 X (prv c) false) (by rfl) (by exact payload_rsccw_s_0_6 X c false) (by exact hp2_rsccw_r_12_0 X c) (by rfl) (by routes)) $$ [Hs_rsccw_r_11_0 Hd_rsccw_r_12_0 HO Hts_rsccw_s_0_6 Htn_rsccw_r_12_0]
  · isplitr; · iexact HIo
    isplitr; · iexact HIt
    isplitl [Hs_rsccw_r_11_0]; · iapply (owns_intro_add X false 11 0 0 c 13 bM _ f_rsccw_r_11_0 _ _ _ rfl (off4_13_0 c) hf_rsccw_r_11_0 (addV_eq_ccw_11_0 X c)); iexact Hs_rsccw_r_11_0
    isplitl [Hd_rsccw_r_12_0]; · iexact Hd_rsccw_r_12_0
    isplitl [HO]; · iexact HO
    isplitl [Hts_rsccw_s_0_6]; · iexact Hts_rsccw_s_0_6
    isplitr; · iexact Hrch_rsccw_s_0_6
    isplitl [Htn_rsccw_r_12_0]; · iexact Htn_rsccw_r_12_0
    iexact Hrn_rsccw_r_12_0
  iintro ⟨Hcs_rsccw_s_0_6, HO⟩
  iclear HIo HIt
  -- wait recv rs cw t=11 b=1
  try sl_exec_parts
  ihave #HIo := (bigSepL_elim_idx ownQs _ 39 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 52) (W := _) (R := 0) (m := 0) (T := ∅)
      (by rw [Nat.zero_add, expect_rscw_r_11_1 X c])) $$ [Hc_rscw_r_11_1 HO Hat_rscw_r_11_1]
  · isplitr; · iexact HIo
    isplitl [Hc_rscw_r_11_1]; · iexact Hc_rscw_r_11_1
    isplitl [HO]; · iexact HO
    isplitr; · iapply (mayWait_rem (F := F) c 52 (by decide) _ (by show (50 : ℕ) < 2 + 52; decide)); iexact Hlev
    iexact Hat_rscw_r_11_1
  iintro ⟨HO, Hat_rscw_r_11_1, #Hrch_rscw_r_11_1_1, Hpay⟩
  iclear HIo
  ihave Hp := (Entails.of_eq (rest_single X _ _ _ (duties_rscw_r_11_1 X c) (payload_rscw_r_11_1 X c false))) $$ Hpay
  ihave Hq := (owns_elim _ _ _) $$ Hp
  icases Hq with ⟨%f_rscw_r_11_1, %hf_rscw_r_11_1, Hs_rscw_r_11_1⟩
  -- add cw s=11 b=1: the loads and the store run by themselves (within the next run)
  -- wait send rs cw t=10 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 52) (W := _) (R := 5) (m := 0) (T := ∅)
      (by rw [Nat.zero_add, expect_rscw_s_1_5 X c])) $$ [Hcs_rscw_s_1_5 HO Hat_rscw_s_1]
  · isplitr; · iexact HIo
    isplitl [Hcs_rscw_s_1_5]; · iexact Hcs_rscw_s_1_5
    isplitl [HO]; · iexact HO
    isplitr; · iapply (mayWait_rem (F := F) c 52 (by decide) _ (by show (0 : ℕ) < 2 + 52; decide)); iexact Hlev
    iexact Hat_rscw_s_1
  iintro ⟨HO, Hat_rscw_s_1, #Hrch_rscw_s_1_6, Hpay⟩
  iclear HIo
  ihave Hp := (Entails.of_eq (rest_single X _ _ _ (duties_rscw_s_1_5 X c) (payload_rscw_s_1_5 X c false))) $$ Hpay
  irename Hp => Hback_rscw_r_9_1
  -- send rs cw t=12 b=1 (payment 52, device function 53)
  try sl_exec_parts
  ihave HO := (owes_congr (rem_peel_52 c)) $$ HO
  ihave #HIo := (bigSepL_elim_idx ownQs _ 1 (by decide)) $$ HInvOwn
  ihave #HIt := (bigSepL_elim_idx recvCw _ 25 (by decide)) $$ HInbCw
  iapply (@send_owns_at F _ X c (nxt c) ⟨k0_dev53 c, k0_dev53_lt c⟩ (dev53_eq c _) (slot aM 11 64 inb_S15x128x1024_S1x64x1024_11_64_0) (slot aM 12 64 inb_S15x128x1024_S1x64x1024_12_64_0) _ (qS cc0_scratch2 1 inb_S4_S1_1) (qR cc0_scratch3 12 1 inb_S15x2_S1x1_12_1) _ _ _ _ _ _ fullShare (addV X true 1 11 c) 6 (K (dcell c (qS cc0_scratch2 1 inb_S4_S1_1))) (K (dcell (nxt c) (qR cc0_scratch3 12 1 inb_S15x2_S1x1_12_1))) _ (rem c 53) _ (by rw [duties_rscw_s_1_6 X c]; exact Finset.mem_singleton_self _) (by rw [duties_rscw_r_12_1 X (nxt c)]; exact Finset.mem_singleton_self _) (by exact amount_rscw_s_1_6 X c false) (by exact amount_rscw_r_12_1 X (nxt c) false) (by rfl) (by exact payload_rscw_s_1_6 X c false) (by exact hp2_rscw_r_12_1 X c) (by rfl) (by routes)) $$ [Hs_rscw_r_11_1 Hd_rscw_r_12_1 HO Hts_rscw_s_1_6 Htn_rscw_r_12_1]
  · isplitr; · iexact HIo
    isplitr; · iexact HIt
    isplitl [Hs_rscw_r_11_1]; · iapply (owns_intro_add X true 11 64 1 c 3 aM _ f_rscw_r_11_1 _ _ _ rfl (off3_m13_64 c) hf_rscw_r_11_1 (addV_eq_cw_11_1 X c)); iexact Hs_rscw_r_11_1
    isplitl [Hd_rscw_r_12_1]; · iexact Hd_rscw_r_12_1
    isplitl [HO]; · iexact HO
    isplitl [Hts_rscw_s_1_6]; · iexact Hts_rscw_s_1_6
    isplitr; · iexact Hrch_rscw_s_1_6
    isplitl [Htn_rscw_r_12_1]; · iexact Htn_rscw_r_12_1
    iexact Hrn_rscw_r_12_1
  iintro ⟨Hcs_rscw_s_1_6, HO⟩
  iclear HIo HIt
  -- wait recv rs ccw t=11 b=1
  try sl_exec_parts
  ihave #HIo := (bigSepL_elim_idx ownQs _ 99 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 53) (W := _) (R := 0) (m := 0) (T := ∅)
      (by rw [Nat.zero_add, expect_rsccw_r_11_1 X c])) $$ [Hc_rsccw_r_11_1 HO Hat_rsccw_r_11_1]
  · isplitr; · iexact HIo
    isplitl [Hc_rsccw_r_11_1]; · iexact Hc_rsccw_r_11_1
    isplitl [HO]; · iexact HO
    isplitr; · iapply (mayWait_rem (F := F) c 53 (by decide) _ (by show (51 : ℕ) < 2 + 53; decide)); iexact Hlev
    iexact Hat_rsccw_r_11_1
  iintro ⟨HO, Hat_rsccw_r_11_1, #Hrch_rsccw_r_11_1_1, Hpay⟩
  iclear HIo
  ihave Hp := (Entails.of_eq (rest_single X _ _ _ (duties_rsccw_r_11_1 X c) (payload_rsccw_r_11_1 X c false))) $$ Hpay
  ihave Hq := (owns_elim _ _ _) $$ Hp
  icases Hq with ⟨%f_rsccw_r_11_1, %hf_rsccw_r_11_1, Hs_rsccw_r_11_1⟩
  -- add ccw s=11 b=1: the loads and the store run by themselves (within the next run)
  -- wait send rs ccw t=10 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 53) (W := _) (R := 5) (m := 0) (T := ∅)
      (by rw [Nat.zero_add, expect_rsccw_s_1_5 X c])) $$ [Hcs_rsccw_s_1_5 HO Hat_rsccw_s_1]
  · isplitr; · iexact HIo
    isplitl [Hcs_rsccw_s_1_5]; · iexact Hcs_rsccw_s_1_5
    isplitl [HO]; · iexact HO
    isplitr; · iapply (mayWait_rem (F := F) c 53 (by decide) _ (by show (0 : ℕ) < 2 + 53; decide)); iexact Hlev
    iexact Hat_rsccw_s_1
  iintro ⟨HO, Hat_rsccw_s_1, #Hrch_rsccw_s_1_6, Hpay⟩
  iclear HIo
  ihave Hp := (Entails.of_eq (rest_single X _ _ _ (duties_rsccw_s_1_5 X c) (payload_rsccw_s_1_5 X c false))) $$ Hpay
  irename Hp => Hback_rsccw_r_9_1
  -- send rs ccw t=12 b=1 (payment 53, device function 54)
  try sl_exec_parts
  ihave HO := (owes_congr (rem_peel_53 c)) $$ HO
  ihave #HIo := (bigSepL_elim_idx ownQs _ 5 (by decide)) $$ HInvOwn
  ihave #HIt := (bigSepL_elim_idx recvCcw _ 25 (by decide)) $$ HInbCcw
  iapply (@send_owns_at F _ X c (prv c) ⟨k0_dev54 c, k0_dev54_lt c⟩ (dev54_eq c _) (slot bM 11 64 inb_S15x128x1024_S1x64x1024_11_64_0) (slot bM 12 64 inb_S15x128x1024_S1x64x1024_12_64_0) _ (qS cc0_scratch4 1 inb_S4_S1_1) (qR cc0_scratch5 12 1 inb_S15x2_S1x1_12_1) _ _ _ _ _ _ fullShare (addV X false 1 11 c) 6 (K (dcell c (qS cc0_scratch4 1 inb_S4_S1_1))) (K (dcell (prv c) (qR cc0_scratch5 12 1 inb_S15x2_S1x1_12_1))) _ (rem c 54) _ (by rw [duties_rsccw_s_1_6 X c]; exact Finset.mem_singleton_self _) (by rw [duties_rsccw_r_12_1 X (prv c)]; exact Finset.mem_singleton_self _) (by exact amount_rsccw_s_1_6 X c false) (by exact amount_rsccw_r_12_1 X (prv c) false) (by rfl) (by exact payload_rsccw_s_1_6 X c false) (by exact hp2_rsccw_r_12_1 X c) (by rfl) (by routes)) $$ [Hs_rsccw_r_11_1 Hd_rsccw_r_12_1 HO Hts_rsccw_s_1_6 Htn_rsccw_r_12_1]
  · isplitr; · iexact HIo
    isplitr; · iexact HIt
    isplitl [Hs_rsccw_r_11_1]; · iapply (owns_intro_add X false 11 64 1 c 13 bM _ f_rsccw_r_11_1 _ _ _ rfl (off4_13_64 c) hf_rsccw_r_11_1 (addV_eq_ccw_11_1 X c)); iexact Hs_rsccw_r_11_1
    isplitl [Hd_rsccw_r_12_1]; · iexact Hd_rsccw_r_12_1
    isplitl [HO]; · iexact HO
    isplitl [Hts_rsccw_s_1_6]; · iexact Hts_rsccw_s_1_6
    isplitr; · iexact Hrch_rsccw_s_1_6
    isplitl [Htn_rsccw_r_12_1]; · iexact Htn_rsccw_r_12_1
    iexact Hrn_rsccw_r_12_1
  iintro ⟨Hcs_rsccw_s_1_6, HO⟩
  iclear HIo HIt
  -- wait recv rs cw t=12 b=0
  try sl_exec_parts
  ihave #HIo := (bigSepL_elim_idx ownQs _ 40 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 54) (W := _) (R := 0) (m := 0) (T := ∅)
      (by rw [Nat.zero_add, expect_rscw_r_12_0 X c])) $$ [Hc_rscw_r_12_0 HO Hat_rscw_r_12_0]
  · isplitr; · iexact HIo
    isplitl [Hc_rscw_r_12_0]; · iexact Hc_rscw_r_12_0
    isplitl [HO]; · iexact HO
    isplitr; · iapply (mayWait_rem (F := F) c 54 (by decide) _ (by show (52 : ℕ) < 2 + 54; decide)); iexact Hlev
    iexact Hat_rscw_r_12_0
  iintro ⟨HO, Hat_rscw_r_12_0, #Hrch_rscw_r_12_0_1, Hpay⟩
  iclear HIo
  ihave Hp := (Entails.of_eq (rest_single X _ _ _ (duties_rscw_r_12_0 X c) (payload_rscw_r_12_0 X c false))) $$ Hpay
  ihave Hq := (owns_elim _ _ _) $$ Hp
  icases Hq with ⟨%f_rscw_r_12_0, %hf_rscw_r_12_0, Hs_rscw_r_12_0⟩
  -- add cw s=12 b=0: the loads and the store run by themselves (within the next run)
  -- wait send rs cw t=11 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 54) (W := _) (R := 5) (m := 0) (T := ∅)
      (by rw [Nat.zero_add, expect_rscw_s_2_5 X c])) $$ [Hcs_rscw_s_2_5 HO Hat_rscw_s_2]
  · isplitr; · iexact HIo
    isplitl [Hcs_rscw_s_2_5]; · iexact Hcs_rscw_s_2_5
    isplitl [HO]; · iexact HO
    isplitr; · iapply (mayWait_rem (F := F) c 54 (by decide) _ (by show (0 : ℕ) < 2 + 54; decide)); iexact Hlev
    iexact Hat_rscw_s_2
  iintro ⟨HO, Hat_rscw_s_2, #Hrch_rscw_s_2_6, Hpay⟩
  iclear HIo
  ihave Hp := (Entails.of_eq (rest_single X _ _ _ (duties_rscw_s_2_5 X c) (payload_rscw_s_2_5 X c false))) $$ Hpay
  irename Hp => Hback_rscw_r_10_0
  -- send rs cw t=13 b=0 (payment 54, device function 55)
  try sl_exec_parts
  ihave HO := (owes_congr (rem_peel_54 c)) $$ HO
  ihave #HIo := (bigSepL_elim_idx ownQs _ 2 (by decide)) $$ HInvOwn
  ihave #HIt := (bigSepL_elim_idx recvCw _ 26 (by decide)) $$ HInbCw
  iapply (@send_owns_at F _ X c (nxt c) ⟨k0_dev55 c, k0_dev55_lt c⟩ (dev55_eq c _) (slot aM 12 0 inb_S15x128x1024_S1x64x1024_12_0_0) (slot aM 13 0 inb_S15x128x1024_S1x64x1024_13_0_0) _ (qS cc0_scratch2 2 inb_S4_S1_2) (qR cc0_scratch3 13 0 inb_S15x2_S1x1_13_0) _ _ _ _ _ _ fullShare (addV X true 0 12 c) 6 (K (dcell c (qS cc0_scratch2 2 inb_S4_S1_2))) (K (dcell (nxt c) (qR cc0_scratch3 13 0 inb_S15x2_S1x1_13_0))) _ (rem c 55) _ (by rw [duties_rscw_s_2_6 X c]; exact Finset.mem_singleton_self _) (by rw [duties_rscw_r_13_0 X (nxt c)]; exact Finset.mem_singleton_self _) (by exact amount_rscw_s_2_6 X c false) (by exact amount_rscw_r_13_0 X (nxt c) false) (by rfl) (by exact payload_rscw_s_2_6 X c false) (by exact hp2_rscw_r_13_0 X c) (by rfl) (by routes)) $$ [Hs_rscw_r_12_0 Hd_rscw_r_13_0 HO Hts_rscw_s_2_6 Htn_rscw_r_13_0]
  · isplitr; · iexact HIo
    isplitr; · iexact HIt
    isplitl [Hs_rscw_r_12_0]; · iapply (owns_intro_add X true 12 0 0 c 2 aM _ f_rscw_r_12_0 _ _ _ rfl (off3_m14_0 c) hf_rscw_r_12_0 (addV_eq_cw_12_0 X c)); iexact Hs_rscw_r_12_0
    isplitl [Hd_rscw_r_13_0]; · iexact Hd_rscw_r_13_0
    isplitl [HO]; · iexact HO
    isplitl [Hts_rscw_s_2_6]; · iexact Hts_rscw_s_2_6
    isplitr; · iexact Hrch_rscw_s_2_6
    isplitl [Htn_rscw_r_13_0]; · iexact Htn_rscw_r_13_0
    iexact Hrn_rscw_r_13_0
  iintro ⟨Hcs_rscw_s_2_6, HO⟩
  iclear HIo HIt
  -- wait recv rs ccw t=12 b=0
  try sl_exec_parts
  ihave #HIo := (bigSepL_elim_idx ownQs _ 100 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 55) (W := _) (R := 0) (m := 0) (T := ∅)
      (by rw [Nat.zero_add, expect_rsccw_r_12_0 X c])) $$ [Hc_rsccw_r_12_0 HO Hat_rsccw_r_12_0]
  · isplitr; · iexact HIo
    isplitl [Hc_rsccw_r_12_0]; · iexact Hc_rsccw_r_12_0
    isplitl [HO]; · iexact HO
    isplitr; · iapply (mayWait_rem (F := F) c 55 (by decide) _ (by show (53 : ℕ) < 2 + 55; decide)); iexact Hlev
    iexact Hat_rsccw_r_12_0
  iintro ⟨HO, Hat_rsccw_r_12_0, #Hrch_rsccw_r_12_0_1, Hpay⟩
  iclear HIo
  ihave Hp := (Entails.of_eq (rest_single X _ _ _ (duties_rsccw_r_12_0 X c) (payload_rsccw_r_12_0 X c false))) $$ Hpay
  ihave Hq := (owns_elim _ _ _) $$ Hp
  icases Hq with ⟨%f_rsccw_r_12_0, %hf_rsccw_r_12_0, Hs_rsccw_r_12_0⟩
  -- add ccw s=12 b=0: the loads and the store run by themselves (within the next run)
  -- wait send rs ccw t=11 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 55) (W := _) (R := 5) (m := 0) (T := ∅)
      (by rw [Nat.zero_add, expect_rsccw_s_2_5 X c])) $$ [Hcs_rsccw_s_2_5 HO Hat_rsccw_s_2]
  · isplitr; · iexact HIo
    isplitl [Hcs_rsccw_s_2_5]; · iexact Hcs_rsccw_s_2_5
    isplitl [HO]; · iexact HO
    isplitr; · iapply (mayWait_rem (F := F) c 55 (by decide) _ (by show (0 : ℕ) < 2 + 55; decide)); iexact Hlev
    iexact Hat_rsccw_s_2
  iintro ⟨HO, Hat_rsccw_s_2, #Hrch_rsccw_s_2_6, Hpay⟩
  iclear HIo
  ihave Hp := (Entails.of_eq (rest_single X _ _ _ (duties_rsccw_s_2_5 X c) (payload_rsccw_s_2_5 X c false))) $$ Hpay
  irename Hp => Hback_rsccw_r_10_0
  -- send rs ccw t=13 b=0 (payment 55, device function 56)
  try sl_exec_parts
  ihave HO := (owes_congr (rem_peel_55 c)) $$ HO
  ihave #HIo := (bigSepL_elim_idx ownQs _ 6 (by decide)) $$ HInvOwn
  ihave #HIt := (bigSepL_elim_idx recvCcw _ 26 (by decide)) $$ HInbCcw
  iapply (@send_owns_at F _ X c (prv c) ⟨k0_dev56 c, k0_dev56_lt c⟩ (dev56_eq c _) (slot bM 12 0 inb_S15x128x1024_S1x64x1024_12_0_0) (slot bM 13 0 inb_S15x128x1024_S1x64x1024_13_0_0) _ (qS cc0_scratch4 2 inb_S4_S1_2) (qR cc0_scratch5 13 0 inb_S15x2_S1x1_13_0) _ _ _ _ _ _ fullShare (addV X false 0 12 c) 6 (K (dcell c (qS cc0_scratch4 2 inb_S4_S1_2))) (K (dcell (prv c) (qR cc0_scratch5 13 0 inb_S15x2_S1x1_13_0))) _ (rem c 56) _ (by rw [duties_rsccw_s_2_6 X c]; exact Finset.mem_singleton_self _) (by rw [duties_rsccw_r_13_0 X (prv c)]; exact Finset.mem_singleton_self _) (by exact amount_rsccw_s_2_6 X c false) (by exact amount_rsccw_r_13_0 X (prv c) false) (by rfl) (by exact payload_rsccw_s_2_6 X c false) (by exact hp2_rsccw_r_13_0 X c) (by rfl) (by routes)) $$ [Hs_rsccw_r_12_0 Hd_rsccw_r_13_0 HO Hts_rsccw_s_2_6 Htn_rsccw_r_13_0]
  · isplitr; · iexact HIo
    isplitr; · iexact HIt
    isplitl [Hs_rsccw_r_12_0]; · iapply (owns_intro_add X false 12 0 0 c 14 bM _ f_rsccw_r_12_0 _ _ _ rfl (off4_14_0 c) hf_rsccw_r_12_0 (addV_eq_ccw_12_0 X c)); iexact Hs_rsccw_r_12_0
    isplitl [Hd_rsccw_r_13_0]; · iexact Hd_rsccw_r_13_0
    isplitl [HO]; · iexact HO
    isplitl [Hts_rsccw_s_2_6]; · iexact Hts_rsccw_s_2_6
    isplitr; · iexact Hrch_rsccw_s_2_6
    isplitl [Htn_rsccw_r_13_0]; · iexact Htn_rsccw_r_13_0
    iexact Hrn_rsccw_r_13_0
  iintro ⟨Hcs_rsccw_s_2_6, HO⟩
  iclear HIo HIt
  -- wait recv rs cw t=12 b=1
  try sl_exec_parts
  ihave #HIo := (bigSepL_elim_idx ownQs _ 41 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 56) (W := _) (R := 0) (m := 0) (T := ∅)
      (by rw [Nat.zero_add, expect_rscw_r_12_1 X c])) $$ [Hc_rscw_r_12_1 HO Hat_rscw_r_12_1]
  · isplitr; · iexact HIo
    isplitl [Hc_rscw_r_12_1]; · iexact Hc_rscw_r_12_1
    isplitl [HO]; · iexact HO
    isplitr; · iapply (mayWait_rem (F := F) c 56 (by decide) _ (by show (54 : ℕ) < 2 + 56; decide)); iexact Hlev
    iexact Hat_rscw_r_12_1
  iintro ⟨HO, Hat_rscw_r_12_1, #Hrch_rscw_r_12_1_1, Hpay⟩
  iclear HIo
  ihave Hp := (Entails.of_eq (rest_single X _ _ _ (duties_rscw_r_12_1 X c) (payload_rscw_r_12_1 X c false))) $$ Hpay
  ihave Hq := (owns_elim _ _ _) $$ Hp
  icases Hq with ⟨%f_rscw_r_12_1, %hf_rscw_r_12_1, Hs_rscw_r_12_1⟩
  -- add cw s=12 b=1: the loads and the store run by themselves (within the next run)
  -- wait send rs cw t=11 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 56) (W := _) (R := 5) (m := 0) (T := ∅)
      (by rw [Nat.zero_add, expect_rscw_s_3_5 X c])) $$ [Hcs_rscw_s_3_5 HO Hat_rscw_s_3]
  · isplitr; · iexact HIo
    isplitl [Hcs_rscw_s_3_5]; · iexact Hcs_rscw_s_3_5
    isplitl [HO]; · iexact HO
    isplitr; · iapply (mayWait_rem (F := F) c 56 (by decide) _ (by show (0 : ℕ) < 2 + 56; decide)); iexact Hlev
    iexact Hat_rscw_s_3
  iintro ⟨HO, Hat_rscw_s_3, #Hrch_rscw_s_3_6, Hpay⟩
  iclear HIo
  ihave Hp := (Entails.of_eq (rest_single X _ _ _ (duties_rscw_s_3_5 X c) (payload_rscw_s_3_5 X c false))) $$ Hpay
  irename Hp => Hback_rscw_r_10_1
  -- send rs cw t=13 b=1 (payment 56, device function 57)
  try sl_exec_parts
  ihave HO := (owes_congr (rem_peel_56 c)) $$ HO
  ihave #HIo := (bigSepL_elim_idx ownQs _ 3 (by decide)) $$ HInvOwn
  ihave #HIt := (bigSepL_elim_idx recvCw _ 27 (by decide)) $$ HInbCw
  iapply (@send_owns_at F _ X c (nxt c) ⟨k0_dev57 c, k0_dev57_lt c⟩ (dev57_eq c _) (slot aM 12 64 inb_S15x128x1024_S1x64x1024_12_64_0) (slot aM 13 64 inb_S15x128x1024_S1x64x1024_13_64_0) _ (qS cc0_scratch2 3 inb_S4_S1_3) (qR cc0_scratch3 13 1 inb_S15x2_S1x1_13_1) _ _ _ _ _ _ fullShare (addV X true 1 12 c) 6 (K (dcell c (qS cc0_scratch2 3 inb_S4_S1_3))) (K (dcell (nxt c) (qR cc0_scratch3 13 1 inb_S15x2_S1x1_13_1))) _ (rem c 57) _ (by rw [duties_rscw_s_3_6 X c]; exact Finset.mem_singleton_self _) (by rw [duties_rscw_r_13_1 X (nxt c)]; exact Finset.mem_singleton_self _) (by exact amount_rscw_s_3_6 X c false) (by exact amount_rscw_r_13_1 X (nxt c) false) (by rfl) (by exact payload_rscw_s_3_6 X c false) (by exact hp2_rscw_r_13_1 X c) (by rfl) (by routes)) $$ [Hs_rscw_r_12_1 Hd_rscw_r_13_1 HO Hts_rscw_s_3_6 Htn_rscw_r_13_1]
  · isplitr; · iexact HIo
    isplitr; · iexact HIt
    isplitl [Hs_rscw_r_12_1]; · iapply (owns_intro_add X true 12 64 1 c 2 aM _ f_rscw_r_12_1 _ _ _ rfl (off3_m14_64 c) hf_rscw_r_12_1 (addV_eq_cw_12_1 X c)); iexact Hs_rscw_r_12_1
    isplitl [Hd_rscw_r_13_1]; · iexact Hd_rscw_r_13_1
    isplitl [HO]; · iexact HO
    isplitl [Hts_rscw_s_3_6]; · iexact Hts_rscw_s_3_6
    isplitr; · iexact Hrch_rscw_s_3_6
    isplitl [Htn_rscw_r_13_1]; · iexact Htn_rscw_r_13_1
    iexact Hrn_rscw_r_13_1
  iintro ⟨Hcs_rscw_s_3_6, HO⟩
  iclear HIo HIt
  -- wait recv rs ccw t=12 b=1
  try sl_exec_parts
  ihave #HIo := (bigSepL_elim_idx ownQs _ 101 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 57) (W := _) (R := 0) (m := 0) (T := ∅)
      (by rw [Nat.zero_add, expect_rsccw_r_12_1 X c])) $$ [Hc_rsccw_r_12_1 HO Hat_rsccw_r_12_1]
  · isplitr; · iexact HIo
    isplitl [Hc_rsccw_r_12_1]; · iexact Hc_rsccw_r_12_1
    isplitl [HO]; · iexact HO
    isplitr; · iapply (mayWait_rem (F := F) c 57 (by decide) _ (by show (55 : ℕ) < 2 + 57; decide)); iexact Hlev
    iexact Hat_rsccw_r_12_1
  iintro ⟨HO, Hat_rsccw_r_12_1, #Hrch_rsccw_r_12_1_1, Hpay⟩
  iclear HIo
  ihave Hp := (Entails.of_eq (rest_single X _ _ _ (duties_rsccw_r_12_1 X c) (payload_rsccw_r_12_1 X c false))) $$ Hpay
  ihave Hq := (owns_elim _ _ _) $$ Hp
  icases Hq with ⟨%f_rsccw_r_12_1, %hf_rsccw_r_12_1, Hs_rsccw_r_12_1⟩
  -- add ccw s=12 b=1: the loads and the store run by themselves (within the next run)
  -- wait send rs ccw t=11 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 57) (W := _) (R := 5) (m := 0) (T := ∅)
      (by rw [Nat.zero_add, expect_rsccw_s_3_5 X c])) $$ [Hcs_rsccw_s_3_5 HO Hat_rsccw_s_3]
  · isplitr; · iexact HIo
    isplitl [Hcs_rsccw_s_3_5]; · iexact Hcs_rsccw_s_3_5
    isplitl [HO]; · iexact HO
    isplitr; · iapply (mayWait_rem (F := F) c 57 (by decide) _ (by show (0 : ℕ) < 2 + 57; decide)); iexact Hlev
    iexact Hat_rsccw_s_3
  iintro ⟨HO, Hat_rsccw_s_3, #Hrch_rsccw_s_3_6, Hpay⟩
  iclear HIo
  ihave Hp := (Entails.of_eq (rest_single X _ _ _ (duties_rsccw_s_3_5 X c) (payload_rsccw_s_3_5 X c false))) $$ Hpay
  irename Hp => Hback_rsccw_r_10_1
  -- send rs ccw t=13 b=1 (payment 57, device function 58)
  try sl_exec_parts
  ihave HO := (owes_congr (rem_peel_57 c)) $$ HO
  ihave #HIo := (bigSepL_elim_idx ownQs _ 7 (by decide)) $$ HInvOwn
  ihave #HIt := (bigSepL_elim_idx recvCcw _ 27 (by decide)) $$ HInbCcw
  iapply (@send_owns_at F _ X c (prv c) ⟨k0_dev58 c, k0_dev58_lt c⟩ (dev58_eq c _) (slot bM 12 64 inb_S15x128x1024_S1x64x1024_12_64_0) (slot bM 13 64 inb_S15x128x1024_S1x64x1024_13_64_0) _ (qS cc0_scratch4 3 inb_S4_S1_3) (qR cc0_scratch5 13 1 inb_S15x2_S1x1_13_1) _ _ _ _ _ _ fullShare (addV X false 1 12 c) 6 (K (dcell c (qS cc0_scratch4 3 inb_S4_S1_3))) (K (dcell (prv c) (qR cc0_scratch5 13 1 inb_S15x2_S1x1_13_1))) _ (rem c 58) _ (by rw [duties_rsccw_s_3_6 X c]; exact Finset.mem_singleton_self _) (by rw [duties_rsccw_r_13_1 X (prv c)]; exact Finset.mem_singleton_self _) (by exact amount_rsccw_s_3_6 X c false) (by exact amount_rsccw_r_13_1 X (prv c) false) (by rfl) (by exact payload_rsccw_s_3_6 X c false) (by exact hp2_rsccw_r_13_1 X c) (by rfl) (by routes)) $$ [Hs_rsccw_r_12_1 Hd_rsccw_r_13_1 HO Hts_rsccw_s_3_6 Htn_rsccw_r_13_1]
  · isplitr; · iexact HIo
    isplitr; · iexact HIt
    isplitl [Hs_rsccw_r_12_1]; · iapply (owns_intro_add X false 12 64 1 c 14 bM _ f_rsccw_r_12_1 _ _ _ rfl (off4_14_64 c) hf_rsccw_r_12_1 (addV_eq_ccw_12_1 X c)); iexact Hs_rsccw_r_12_1
    isplitl [Hd_rsccw_r_13_1]; · iexact Hd_rsccw_r_13_1
    isplitl [HO]; · iexact HO
    isplitl [Hts_rsccw_s_3_6]; · iexact Hts_rsccw_s_3_6
    isplitr; · iexact Hrch_rsccw_s_3_6
    isplitl [Htn_rsccw_r_13_1]; · iexact Htn_rsccw_r_13_1
    iexact Hrn_rsccw_r_13_1
  iintro ⟨Hcs_rsccw_s_3_6, HO⟩
  iclear HIo HIt
  -- wait recv rs cw t=13 b=0
  try sl_exec_parts
  ihave #HIo := (bigSepL_elim_idx ownQs _ 42 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 58) (W := _) (R := 0) (m := 0) (T := ∅)
      (by rw [Nat.zero_add, expect_rscw_r_13_0 X c])) $$ [Hc_rscw_r_13_0 HO Hat_rscw_r_13_0]
  · isplitr; · iexact HIo
    isplitl [Hc_rscw_r_13_0]; · iexact Hc_rscw_r_13_0
    isplitl [HO]; · iexact HO
    isplitr; · iapply (mayWait_rem (F := F) c 58 (by decide) _ (by show (56 : ℕ) < 2 + 58; decide)); iexact Hlev
    iexact Hat_rscw_r_13_0
  iintro ⟨HO, Hat_rscw_r_13_0, #Hrch_rscw_r_13_0_1, Hpay⟩
  iclear HIo
  ihave Hp := (Entails.of_eq (rest_single X _ _ _ (duties_rscw_r_13_0 X c) (payload_rscw_r_13_0 X c false))) $$ Hpay
  ihave Hq := (owns_elim _ _ _) $$ Hp
  icases Hq with ⟨%f_rscw_r_13_0, %hf_rscw_r_13_0, Hs_rscw_r_13_0⟩
  -- add cw s=13 b=0: the loads and the store run by themselves (within the next run)
  -- wait send rs cw t=12 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 58) (W := _) (R := 6) (m := 0) (T := ∅)
      (by rw [Nat.zero_add, expect_rscw_s_0_6 X c])) $$ [Hcs_rscw_s_0_6 HO Hat_rscw_s_0]
  · isplitr; · iexact HIo
    isplitl [Hcs_rscw_s_0_6]; · iexact Hcs_rscw_s_0_6
    isplitl [HO]; · iexact HO
    isplitr; · iapply (mayWait_rem (F := F) c 58 (by decide) _ (by show (0 : ℕ) < 2 + 58; decide)); iexact Hlev
    iexact Hat_rscw_s_0
  iintro ⟨HO, Hat_rscw_s_0, #Hrch_rscw_s_0_7, Hpay⟩
  iclear HIo
  ihave Hp := (Entails.of_eq (rest_single X _ _ _ (duties_rscw_s_0_6 X c) (payload_rscw_s_0_6 X c false))) $$ Hpay
  irename Hp => Hback_rscw_r_11_0
  -- send rs cw t=14 b=0 (payment 58, device function 59)
  try sl_exec_parts
  ihave HO := (owes_congr (rem_peel_58 c)) $$ HO
  ihave #HIo := (bigSepL_elim_idx ownQs _ 0 (by decide)) $$ HInvOwn
  ihave #HIt := (bigSepL_elim_idx recvCw _ 28 (by decide)) $$ HInbCw
  iapply (@send_owns_at F _ X c (nxt c) ⟨k0_dev59 c, k0_dev59_lt c⟩ (dev59_eq c _) (slot aM 13 0 inb_S15x128x1024_S1x64x1024_13_0_0) (slot aM 14 0 inb_S15x128x1024_S1x64x1024_14_0_0) _ (qS cc0_scratch2 0 inb_S4_S1_0) (qR cc0_scratch3 14 0 inb_S15x2_S1x1_14_0) _ _ _ _ _ _ fullShare (addV X true 0 13 c) 7 (K (dcell c (qS cc0_scratch2 0 inb_S4_S1_0))) (K (dcell (nxt c) (qR cc0_scratch3 14 0 inb_S15x2_S1x1_14_0))) _ (rem c 59) _ (by rw [duties_rscw_s_0_7 X c]; exact Finset.mem_singleton_self _) (by rw [duties_rscw_r_14_0 X (nxt c)]; exact Finset.mem_singleton_self _) (by exact amount_rscw_s_0_7 X c false) (by exact amount_rscw_r_14_0 X (nxt c) false) (by rfl) (by exact payload_rscw_s_0_7 X c false) (by exact hp2_rscw_r_14_0 X c) (by rfl) (by routes)) $$ [Hs_rscw_r_13_0 Hd_rscw_r_14_0 HO Hts_rscw_s_0_7 Htn_rscw_r_14_0]
  · isplitr; · iexact HIo
    isplitr; · iexact HIt
    isplitl [Hs_rscw_r_13_0]; · iapply (owns_intro_add X true 13 0 0 c 1 aM _ f_rscw_r_13_0 _ _ _ rfl (off3_m15_0 c) hf_rscw_r_13_0 (addV_eq_cw_13_0 X c)); iexact Hs_rscw_r_13_0
    isplitl [Hd_rscw_r_14_0]; · iexact Hd_rscw_r_14_0
    isplitl [HO]; · iexact HO
    isplitl [Hts_rscw_s_0_7]; · iexact Hts_rscw_s_0_7
    isplitr; · iexact Hrch_rscw_s_0_7
    isplitl [Htn_rscw_r_14_0]; · iexact Htn_rscw_r_14_0
    iexact Hrn_rscw_r_14_0
  iintro ⟨Hcs_rscw_s_0_7, HO⟩
  iclear HIo HIt
  -- wait recv rs ccw t=13 b=0
  try sl_exec_parts
  ihave #HIo := (bigSepL_elim_idx ownQs _ 102 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 59) (W := _) (R := 0) (m := 0) (T := ∅)
      (by rw [Nat.zero_add, expect_rsccw_r_13_0 X c])) $$ [Hc_rsccw_r_13_0 HO Hat_rsccw_r_13_0]
  · isplitr; · iexact HIo
    isplitl [Hc_rsccw_r_13_0]; · iexact Hc_rsccw_r_13_0
    isplitl [HO]; · iexact HO
    isplitr; · iapply (mayWait_rem (F := F) c 59 (by decide) _ (by show (57 : ℕ) < 2 + 59; decide)); iexact Hlev
    iexact Hat_rsccw_r_13_0
  iintro ⟨HO, Hat_rsccw_r_13_0, #Hrch_rsccw_r_13_0_1, Hpay⟩
  iclear HIo
  ihave Hp := (Entails.of_eq (rest_single X _ _ _ (duties_rsccw_r_13_0 X c) (payload_rsccw_r_13_0 X c false))) $$ Hpay
  ihave Hq := (owns_elim _ _ _) $$ Hp
  icases Hq with ⟨%f_rsccw_r_13_0, %hf_rsccw_r_13_0, Hs_rsccw_r_13_0⟩
  -- add ccw s=13 b=0: the loads and the store run by themselves (within the next run)
  -- wait send rs ccw t=12 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 59) (W := _) (R := 6) (m := 0) (T := ∅)
      (by rw [Nat.zero_add, expect_rsccw_s_0_6 X c])) $$ [Hcs_rsccw_s_0_6 HO Hat_rsccw_s_0]
  · isplitr; · iexact HIo
    isplitl [Hcs_rsccw_s_0_6]; · iexact Hcs_rsccw_s_0_6
    isplitl [HO]; · iexact HO
    isplitr; · iapply (mayWait_rem (F := F) c 59 (by decide) _ (by show (0 : ℕ) < 2 + 59; decide)); iexact Hlev
    iexact Hat_rsccw_s_0
  iintro ⟨HO, Hat_rsccw_s_0, #Hrch_rsccw_s_0_7, Hpay⟩
  iclear HIo
  ihave Hp := (Entails.of_eq (rest_single X _ _ _ (duties_rsccw_s_0_6 X c) (payload_rsccw_s_0_6 X c false))) $$ Hpay
  irename Hp => Hback_rsccw_r_11_0
  -- send rs ccw t=14 b=0 (payment 59, device function 60)
  try sl_exec_parts
  ihave HO := (owes_congr (rem_peel_59 c)) $$ HO
  ihave #HIo := (bigSepL_elim_idx ownQs _ 4 (by decide)) $$ HInvOwn
  ihave #HIt := (bigSepL_elim_idx recvCcw _ 28 (by decide)) $$ HInbCcw
  iapply (@send_owns_at F _ X c (prv c) ⟨k0_dev60 c, k0_dev60_lt c⟩ (dev60_eq c _) (slot bM 13 0 inb_S15x128x1024_S1x64x1024_13_0_0) (slot bM 14 0 inb_S15x128x1024_S1x64x1024_14_0_0) _ (qS cc0_scratch4 0 inb_S4_S1_0) (qR cc0_scratch5 14 0 inb_S15x2_S1x1_14_0) _ _ _ _ _ _ fullShare (addV X false 0 13 c) 7 (K (dcell c (qS cc0_scratch4 0 inb_S4_S1_0))) (K (dcell (prv c) (qR cc0_scratch5 14 0 inb_S15x2_S1x1_14_0))) _ (rem c 60) _ (by rw [duties_rsccw_s_0_7 X c]; exact Finset.mem_singleton_self _) (by rw [duties_rsccw_r_14_0 X (prv c)]; exact Finset.mem_singleton_self _) (by exact amount_rsccw_s_0_7 X c false) (by exact amount_rsccw_r_14_0 X (prv c) false) (by rfl) (by exact payload_rsccw_s_0_7 X c false) (by exact hp2_rsccw_r_14_0 X c) (by rfl) (by routes)) $$ [Hs_rsccw_r_13_0 Hd_rsccw_r_14_0 HO Hts_rsccw_s_0_7 Htn_rsccw_r_14_0]
  · isplitr; · iexact HIo
    isplitr; · iexact HIt
    isplitl [Hs_rsccw_r_13_0]; · iapply (owns_intro_add X false 13 0 0 c 15 bM _ f_rsccw_r_13_0 _ _ _ rfl (off4_15_0 c) hf_rsccw_r_13_0 (addV_eq_ccw_13_0 X c)); iexact Hs_rsccw_r_13_0
    isplitl [Hd_rsccw_r_14_0]; · iexact Hd_rsccw_r_14_0
    isplitl [HO]; · iexact HO
    isplitl [Hts_rsccw_s_0_7]; · iexact Hts_rsccw_s_0_7
    isplitr; · iexact Hrch_rsccw_s_0_7
    isplitl [Htn_rsccw_r_14_0]; · iexact Htn_rsccw_r_14_0
    iexact Hrn_rsccw_r_14_0
  iintro ⟨Hcs_rsccw_s_0_7, HO⟩
  iclear HIo HIt
  -- wait recv rs cw t=13 b=1
  try sl_exec_parts
  ihave #HIo := (bigSepL_elim_idx ownQs _ 43 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 60) (W := _) (R := 0) (m := 0) (T := ∅)
      (by rw [Nat.zero_add, expect_rscw_r_13_1 X c])) $$ [Hc_rscw_r_13_1 HO Hat_rscw_r_13_1]
  · isplitr; · iexact HIo
    isplitl [Hc_rscw_r_13_1]; · iexact Hc_rscw_r_13_1
    isplitl [HO]; · iexact HO
    isplitr; · iapply (mayWait_rem (F := F) c 60 (by decide) _ (by show (58 : ℕ) < 2 + 60; decide)); iexact Hlev
    iexact Hat_rscw_r_13_1
  iintro ⟨HO, Hat_rscw_r_13_1, #Hrch_rscw_r_13_1_1, Hpay⟩
  iclear HIo
  ihave Hp := (Entails.of_eq (rest_single X _ _ _ (duties_rscw_r_13_1 X c) (payload_rscw_r_13_1 X c false))) $$ Hpay
  ihave Hq := (owns_elim _ _ _) $$ Hp
  icases Hq with ⟨%f_rscw_r_13_1, %hf_rscw_r_13_1, Hs_rscw_r_13_1⟩
  -- add cw s=13 b=1: the loads and the store run by themselves (within the next run)
  -- wait send rs cw t=12 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 60) (W := _) (R := 6) (m := 0) (T := ∅)
      (by rw [Nat.zero_add, expect_rscw_s_1_6 X c])) $$ [Hcs_rscw_s_1_6 HO Hat_rscw_s_1]
  · isplitr; · iexact HIo
    isplitl [Hcs_rscw_s_1_6]; · iexact Hcs_rscw_s_1_6
    isplitl [HO]; · iexact HO
    isplitr; · iapply (mayWait_rem (F := F) c 60 (by decide) _ (by show (0 : ℕ) < 2 + 60; decide)); iexact Hlev
    iexact Hat_rscw_s_1
  iintro ⟨HO, Hat_rscw_s_1, #Hrch_rscw_s_1_7, Hpay⟩
  iclear HIo
  ihave Hp := (Entails.of_eq (rest_single X _ _ _ (duties_rscw_s_1_6 X c) (payload_rscw_s_1_6 X c false))) $$ Hpay
  irename Hp => Hback_rscw_r_11_1
  -- send rs cw t=14 b=1 (payment 60, device function 61)
  try sl_exec_parts
  ihave HO := (owes_congr (rem_peel_60 c)) $$ HO
  ihave #HIo := (bigSepL_elim_idx ownQs _ 1 (by decide)) $$ HInvOwn
  ihave #HIt := (bigSepL_elim_idx recvCw _ 29 (by decide)) $$ HInbCw
  iapply (@send_owns_at F _ X c (nxt c) ⟨k0_dev61 c, k0_dev61_lt c⟩ (dev61_eq c _) (slot aM 13 64 inb_S15x128x1024_S1x64x1024_13_64_0) (slot aM 14 64 inb_S15x128x1024_S1x64x1024_14_64_0) _ (qS cc0_scratch2 1 inb_S4_S1_1) (qR cc0_scratch3 14 1 inb_S15x2_S1x1_14_1) _ _ _ _ _ _ fullShare (addV X true 1 13 c) 7 (K (dcell c (qS cc0_scratch2 1 inb_S4_S1_1))) (K (dcell (nxt c) (qR cc0_scratch3 14 1 inb_S15x2_S1x1_14_1))) _ (rem c 61) _ (by rw [duties_rscw_s_1_7 X c]; exact Finset.mem_singleton_self _) (by rw [duties_rscw_r_14_1 X (nxt c)]; exact Finset.mem_singleton_self _) (by exact amount_rscw_s_1_7 X c false) (by exact amount_rscw_r_14_1 X (nxt c) false) (by rfl) (by exact payload_rscw_s_1_7 X c false) (by exact hp2_rscw_r_14_1 X c) (by rfl) (by routes)) $$ [Hs_rscw_r_13_1 Hd_rscw_r_14_1 HO Hts_rscw_s_1_7 Htn_rscw_r_14_1]
  · isplitr; · iexact HIo
    isplitr; · iexact HIt
    isplitl [Hs_rscw_r_13_1]; · iapply (owns_intro_add X true 13 64 1 c 1 aM _ f_rscw_r_13_1 _ _ _ rfl (off3_m15_64 c) hf_rscw_r_13_1 (addV_eq_cw_13_1 X c)); iexact Hs_rscw_r_13_1
    isplitl [Hd_rscw_r_14_1]; · iexact Hd_rscw_r_14_1
    isplitl [HO]; · iexact HO
    isplitl [Hts_rscw_s_1_7]; · iexact Hts_rscw_s_1_7
    isplitr; · iexact Hrch_rscw_s_1_7
    isplitl [Htn_rscw_r_14_1]; · iexact Htn_rscw_r_14_1
    iexact Hrn_rscw_r_14_1
  iintro ⟨Hcs_rscw_s_1_7, HO⟩
  iclear HIo HIt
  -- wait recv rs ccw t=13 b=1
  try sl_exec_parts
  ihave #HIo := (bigSepL_elim_idx ownQs _ 103 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 61) (W := _) (R := 0) (m := 0) (T := ∅)
      (by rw [Nat.zero_add, expect_rsccw_r_13_1 X c])) $$ [Hc_rsccw_r_13_1 HO Hat_rsccw_r_13_1]
  · isplitr; · iexact HIo
    isplitl [Hc_rsccw_r_13_1]; · iexact Hc_rsccw_r_13_1
    isplitl [HO]; · iexact HO
    isplitr; · iapply (mayWait_rem (F := F) c 61 (by decide) _ (by show (59 : ℕ) < 2 + 61; decide)); iexact Hlev
    iexact Hat_rsccw_r_13_1
  iintro ⟨HO, Hat_rsccw_r_13_1, #Hrch_rsccw_r_13_1_1, Hpay⟩
  iclear HIo
  ihave Hp := (Entails.of_eq (rest_single X _ _ _ (duties_rsccw_r_13_1 X c) (payload_rsccw_r_13_1 X c false))) $$ Hpay
  ihave Hq := (owns_elim _ _ _) $$ Hp
  icases Hq with ⟨%f_rsccw_r_13_1, %hf_rsccw_r_13_1, Hs_rsccw_r_13_1⟩
  -- add ccw s=13 b=1: the loads and the store run by themselves (within the next run)
  -- wait send rs ccw t=12 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 61) (W := _) (R := 6) (m := 0) (T := ∅)
      (by rw [Nat.zero_add, expect_rsccw_s_1_6 X c])) $$ [Hcs_rsccw_s_1_6 HO Hat_rsccw_s_1]
  · isplitr; · iexact HIo
    isplitl [Hcs_rsccw_s_1_6]; · iexact Hcs_rsccw_s_1_6
    isplitl [HO]; · iexact HO
    isplitr; · iapply (mayWait_rem (F := F) c 61 (by decide) _ (by show (0 : ℕ) < 2 + 61; decide)); iexact Hlev
    iexact Hat_rsccw_s_1
  iintro ⟨HO, Hat_rsccw_s_1, #Hrch_rsccw_s_1_7, Hpay⟩
  iclear HIo
  ihave Hp := (Entails.of_eq (rest_single X _ _ _ (duties_rsccw_s_1_6 X c) (payload_rsccw_s_1_6 X c false))) $$ Hpay
  irename Hp => Hback_rsccw_r_11_1
  -- send rs ccw t=14 b=1 (payment 61, device function 62)
  try sl_exec_parts
  ihave HO := (owes_congr (rem_peel_61 c)) $$ HO
  ihave #HIo := (bigSepL_elim_idx ownQs _ 5 (by decide)) $$ HInvOwn
  ihave #HIt := (bigSepL_elim_idx recvCcw _ 29 (by decide)) $$ HInbCcw
  iapply (@send_owns_at F _ X c (prv c) ⟨k0_dev62 c, k0_dev62_lt c⟩ (dev62_eq c _) (slot bM 13 64 inb_S15x128x1024_S1x64x1024_13_64_0) (slot bM 14 64 inb_S15x128x1024_S1x64x1024_14_64_0) _ (qS cc0_scratch4 1 inb_S4_S1_1) (qR cc0_scratch5 14 1 inb_S15x2_S1x1_14_1) _ _ _ _ _ _ fullShare (addV X false 1 13 c) 7 (K (dcell c (qS cc0_scratch4 1 inb_S4_S1_1))) (K (dcell (prv c) (qR cc0_scratch5 14 1 inb_S15x2_S1x1_14_1))) _ (rem c 62) _ (by rw [duties_rsccw_s_1_7 X c]; exact Finset.mem_singleton_self _) (by rw [duties_rsccw_r_14_1 X (prv c)]; exact Finset.mem_singleton_self _) (by exact amount_rsccw_s_1_7 X c false) (by exact amount_rsccw_r_14_1 X (prv c) false) (by rfl) (by exact payload_rsccw_s_1_7 X c false) (by exact hp2_rsccw_r_14_1 X c) (by rfl) (by routes)) $$ [Hs_rsccw_r_13_1 Hd_rsccw_r_14_1 HO Hts_rsccw_s_1_7 Htn_rsccw_r_14_1]
  · isplitr; · iexact HIo
    isplitr; · iexact HIt
    isplitl [Hs_rsccw_r_13_1]; · iapply (owns_intro_add X false 13 64 1 c 15 bM _ f_rsccw_r_13_1 _ _ _ rfl (off4_15_64 c) hf_rsccw_r_13_1 (addV_eq_ccw_13_1 X c)); iexact Hs_rsccw_r_13_1
    isplitl [Hd_rsccw_r_14_1]; · iexact Hd_rsccw_r_14_1
    isplitl [HO]; · iexact HO
    isplitl [Hts_rsccw_s_1_7]; · iexact Hts_rsccw_s_1_7
    isplitr; · iexact Hrch_rsccw_s_1_7
    isplitl [Htn_rsccw_r_14_1]; · iexact Htn_rsccw_r_14_1
    iexact Hrn_rsccw_r_14_1
  iintro ⟨Hcs_rsccw_s_1_7, HO⟩
  iclear HIo HIt
  -- wait recv rs cw t=14 b=0
  try sl_exec_parts
  ihave #HIo := (bigSepL_elim_idx ownQs _ 44 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 62) (W := _) (R := 0) (m := 0) (T := ∅)
      (by rw [Nat.zero_add, expect_rscw_r_14_0 X c])) $$ [Hc_rscw_r_14_0 HO Hat_rscw_r_14_0]
  · isplitr; · iexact HIo
    isplitl [Hc_rscw_r_14_0]; · iexact Hc_rscw_r_14_0
    isplitl [HO]; · iexact HO
    isplitr; · iapply (mayWait_rem (F := F) c 62 (by decide) _ (by show (60 : ℕ) < 2 + 62; decide)); iexact Hlev
    iexact Hat_rscw_r_14_0
  iintro ⟨HO, Hat_rscw_r_14_0, #Hrch_rscw_r_14_0_1, Hpay⟩
  iclear HIo
  ihave Hp := (Entails.of_eq (rest_single X _ _ _ (duties_rscw_r_14_0 X c) (payload_rscw_r_14_0 X c false))) $$ Hpay
  ihave Hq := (owns_elim _ _ _) $$ Hp
  icases Hq with ⟨%f_rscw_r_14_0, %hf_rscw_r_14_0, Hs_rscw_r_14_0⟩
  -- add cw s=14 b=0: the loads and the store run by themselves (within the next run)
  try sl_exec_parts
  ihave Hq := (owns_intro_add X true 14 0 0 c 0 aM _ f_rscw_r_14_0 _ _ _ rfl (off3_m16_0 c) hf_rscw_r_14_0 (addV_eq_cw_14_0 X c)) $$ [Hs_rscw_r_14_0]
  · iexact Hs_rscw_r_14_0
  ihave Hq2 := (owns_share_split _ _ _) $$ Hq
  icases Hq2 with ⟨HsL_rscw_r_14_0, HsR_rscw_r_14_0⟩
  -- send ag cw t=0 b=0 (payment 62, device function 63)
  try sl_exec_parts
  ihave HO := (owes_congr (rem_peel_62 c)) $$ HO
  ihave #HIo := (bigSepL_elim_idx ownQs _ 8 (by decide)) $$ HInvOwn
  ihave #HIt := (bigSepL_elim_idx recvCw _ 30 (by decide)) $$ HInbCw
  iapply (@send_owns_at F _ X c (nxt c) ⟨k0_dev63 c, k0_dev63_lt c⟩ (dev63_eq c _) (slot aM 14 0 inb_S15x128x1024_S1x64x1024_14_0_0) (rows oM (off true (c.val + 0) 0) (off_inb true _ 0)) _ (qS cc0_scratch6 0 inb_S4_S1_0) (qR cc0_scratch7 0 0 inb_S15x2_S1x1_0_0) _ _ _ _ _ _ fullShare.right (addV X true 0 14 c) 0 (K (dcell c (qS cc0_scratch6 0 inb_S4_S1_0))) (K (dcell (nxt c) (qR cc0_scratch7 0 0 inb_S15x2_S1x1_0_0))) _ (rem c 63) _ (by rw [duties_agcw_s_0_0 X c]; exact Finset.mem_singleton_self _) (by rw [duties_agcw_r_0_0 X (nxt c)]; exact Finset.mem_singleton_self _) (by exact amount_agcw_s_0_0 X c false) (by exact amount_agcw_r_0_0 X (nxt c) false) (by rfl) (by exact payload_agcw_s_0_0 X c false) (by exact hp2_agcw_r_0_0 X c) (by rfl) (by routes)) $$ [HsR_rscw_r_14_0 Hd_agcw_r_0_0 HO Hts_agcw_s_0_0 Htn_agcw_r_0_0]
  · isplitr; · iexact HIo
    isplitr; · iexact HIt
    isplitl [HsR_rscw_r_14_0]; · iexact HsR_rscw_r_14_0
    isplitl [Hd_agcw_r_0_0]; · iexact Hd_agcw_r_0_0
    isplitl [HO]; · iexact HO
    isplitl [Hts_agcw_s_0_0]; · iexact Hts_agcw_s_0_0
    isplitr; · iexact Hrs_agcw_s_0_0
    isplitl [Htn_agcw_r_0_0]; · iexact Htn_agcw_r_0_0
    iexact Hrn_agcw_r_0_0
  iintro ⟨Hcs_agcw_s_0_0, HO⟩
  iclear HIo HIt
  -- wait recv rs ccw t=14 b=0
  try sl_exec_parts
  ihave #HIo := (bigSepL_elim_idx ownQs _ 104 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 63) (W := _) (R := 0) (m := 0) (T := ∅)
      (by rw [Nat.zero_add, expect_rsccw_r_14_0 X c])) $$ [Hc_rsccw_r_14_0 HO Hat_rsccw_r_14_0]
  · isplitr; · iexact HIo
    isplitl [Hc_rsccw_r_14_0]; · iexact Hc_rsccw_r_14_0
    isplitl [HO]; · iexact HO
    isplitr; · iapply (mayWait_rem (F := F) c 63 (by decide) _ (by show (61 : ℕ) < 2 + 63; decide)); iexact Hlev
    iexact Hat_rsccw_r_14_0
  iintro ⟨HO, Hat_rsccw_r_14_0, #Hrch_rsccw_r_14_0_1, Hpay⟩
  iclear HIo
  ihave Hp := (Entails.of_eq (rest_single X _ _ _ (duties_rsccw_r_14_0 X c) (payload_rsccw_r_14_0 X c false))) $$ Hpay
  ihave Hq := (owns_elim _ _ _) $$ Hp
  icases Hq with ⟨%f_rsccw_r_14_0, %hf_rsccw_r_14_0, Hs_rsccw_r_14_0⟩
  -- add ccw s=14 b=0: the loads and the store run by themselves (within the next run)
  try sl_exec_parts
  ihave Hq := (owns_intro_add X false 14 0 0 c 0 bM _ f_rsccw_r_14_0 _ _ _ rfl (off4_16_0 c) hf_rsccw_r_14_0 (addV_eq_ccw_14_0 X c)) $$ [Hs_rsccw_r_14_0]
  · iexact Hs_rsccw_r_14_0
  ihave Hq2 := (owns_share_split _ _ _) $$ Hq
  icases Hq2 with ⟨HsL_rsccw_r_14_0, HsR_rsccw_r_14_0⟩
  -- send ag ccw t=0 b=0 (payment 63, device function 64)
  try sl_exec_parts
  ihave HO := (owes_congr (rem_peel_63 c)) $$ HO
  ihave #HIo := (bigSepL_elim_idx ownQs _ 12 (by decide)) $$ HInvOwn
  ihave #HIt := (bigSepL_elim_idx recvCcw _ 30 (by decide)) $$ HInbCcw
  iapply (@send_owns_at F _ X c (prv c) ⟨k0_dev64 c, k0_dev64_lt c⟩ (dev64_eq c _) (slot bM 14 0 inb_S15x128x1024_S1x64x1024_14_0_0) (rows oM (off false (c.val + 0) 0) (off_inb false _ 0)) _ (qS cc0_scratch8 0 inb_S4_S1_0) (qR cc0_scratch9 0 0 inb_S15x2_S1x1_0_0) _ _ _ _ _ _ fullShare.right (addV X false 0 14 c) 0 (K (dcell c (qS cc0_scratch8 0 inb_S4_S1_0))) (K (dcell (prv c) (qR cc0_scratch9 0 0 inb_S15x2_S1x1_0_0))) _ (rem c 64) _ (by rw [duties_agccw_s_0_0 X c]; exact Finset.mem_singleton_self _) (by rw [duties_agccw_r_0_0 X (prv c)]; exact Finset.mem_singleton_self _) (by exact amount_agccw_s_0_0 X c false) (by exact amount_agccw_r_0_0 X (prv c) false) (by rfl) (by exact payload_agccw_s_0_0 X c false) (by exact hp2_agccw_r_0_0 X c) (by rfl) (by routes)) $$ [HsR_rsccw_r_14_0 Hd_agccw_r_0_0 HO Hts_agccw_s_0_0 Htn_agccw_r_0_0]
  · isplitr; · iexact HIo
    isplitr; · iexact HIt
    isplitl [HsR_rsccw_r_14_0]; · iexact HsR_rsccw_r_14_0
    isplitl [Hd_agccw_r_0_0]; · iexact Hd_agccw_r_0_0
    isplitl [HO]; · iexact HO
    isplitl [Hts_agccw_s_0_0]; · iexact Hts_agccw_s_0_0
    isplitr; · iexact Hrs_agccw_s_0_0
    isplitl [Htn_agccw_r_0_0]; · iexact Htn_agccw_r_0_0
    iexact Hrn_agccw_r_0_0
  iintro ⟨Hcs_agccw_s_0_0, HO⟩
  iclear HIo HIt
  -- wait recv rs cw t=14 b=1
  try sl_exec_parts
  ihave #HIo := (bigSepL_elim_idx ownQs _ 45 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 64) (W := _) (R := 0) (m := 0) (T := ∅)
      (by rw [Nat.zero_add, expect_rscw_r_14_1 X c])) $$ [Hc_rscw_r_14_1 HO Hat_rscw_r_14_1]
  · isplitr; · iexact HIo
    isplitl [Hc_rscw_r_14_1]; · iexact Hc_rscw_r_14_1
    isplitl [HO]; · iexact HO
    isplitr; · iapply (mayWait_rem (F := F) c 64 (by decide) _ (by show (62 : ℕ) < 2 + 64; decide)); iexact Hlev
    iexact Hat_rscw_r_14_1
  iintro ⟨HO, Hat_rscw_r_14_1, #Hrch_rscw_r_14_1_1, Hpay⟩
  iclear HIo
  ihave Hp := (Entails.of_eq (rest_single X _ _ _ (duties_rscw_r_14_1 X c) (payload_rscw_r_14_1 X c false))) $$ Hpay
  ihave Hq := (owns_elim _ _ _) $$ Hp
  icases Hq with ⟨%f_rscw_r_14_1, %hf_rscw_r_14_1, Hs_rscw_r_14_1⟩
  -- add cw s=14 b=1: the loads and the store run by themselves (within the next run)
  try sl_exec_parts
  ihave Hq := (owns_intro_add X true 14 64 1 c 0 aM _ f_rscw_r_14_1 _ _ _ rfl (off3_m16_64 c) hf_rscw_r_14_1 (addV_eq_cw_14_1 X c)) $$ [Hs_rscw_r_14_1]
  · iexact Hs_rscw_r_14_1
  ihave Hq2 := (owns_share_split _ _ _) $$ Hq
  icases Hq2 with ⟨HsL_rscw_r_14_1, HsR_rscw_r_14_1⟩
  -- send ag cw t=0 b=1 (payment 64, device function 65)
  try sl_exec_parts
  ihave HO := (owes_congr (rem_peel_64 c)) $$ HO
  ihave #HIo := (bigSepL_elim_idx ownQs _ 9 (by decide)) $$ HInvOwn
  ihave #HIt := (bigSepL_elim_idx recvCw _ 31 (by decide)) $$ HInbCw
  iapply (@send_owns_at F _ X c (nxt c) ⟨k0_dev65 c, k0_dev65_lt c⟩ (dev65_eq c _) (slot aM 14 64 inb_S15x128x1024_S1x64x1024_14_64_0) (rows oM (off true (c.val + 0) 1) (off_inb true _ 1)) _ (qS cc0_scratch6 1 inb_S4_S1_1) (qR cc0_scratch7 0 1 inb_S15x2_S1x1_0_1) _ _ _ _ _ _ fullShare.right (addV X true 1 14 c) 0 (K (dcell c (qS cc0_scratch6 1 inb_S4_S1_1))) (K (dcell (nxt c) (qR cc0_scratch7 0 1 inb_S15x2_S1x1_0_1))) _ (rem c 65) _ (by rw [duties_agcw_s_1_0 X c]; exact Finset.mem_singleton_self _) (by rw [duties_agcw_r_0_1 X (nxt c)]; exact Finset.mem_singleton_self _) (by exact amount_agcw_s_1_0 X c false) (by exact amount_agcw_r_0_1 X (nxt c) false) (by rfl) (by exact payload_agcw_s_1_0 X c false) (by exact hp2_agcw_r_0_1 X c) (by rfl) (by routes)) $$ [HsR_rscw_r_14_1 Hd_agcw_r_0_1 HO Hts_agcw_s_1_0 Htn_agcw_r_0_1]
  · isplitr; · iexact HIo
    isplitr; · iexact HIt
    isplitl [HsR_rscw_r_14_1]; · iexact HsR_rscw_r_14_1
    isplitl [Hd_agcw_r_0_1]; · iexact Hd_agcw_r_0_1
    isplitl [HO]; · iexact HO
    isplitl [Hts_agcw_s_1_0]; · iexact Hts_agcw_s_1_0
    isplitr; · iexact Hrs_agcw_s_1_0
    isplitl [Htn_agcw_r_0_1]; · iexact Htn_agcw_r_0_1
    iexact Hrn_agcw_r_0_1
  iintro ⟨Hcs_agcw_s_1_0, HO⟩
  iclear HIo HIt
  -- wait recv rs ccw t=14 b=1
  try sl_exec_parts
  ihave #HIo := (bigSepL_elim_idx ownQs _ 105 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 65) (W := _) (R := 0) (m := 0) (T := ∅)
      (by rw [Nat.zero_add, expect_rsccw_r_14_1 X c])) $$ [Hc_rsccw_r_14_1 HO Hat_rsccw_r_14_1]
  · isplitr; · iexact HIo
    isplitl [Hc_rsccw_r_14_1]; · iexact Hc_rsccw_r_14_1
    isplitl [HO]; · iexact HO
    isplitr; · iapply (mayWait_rem (F := F) c 65 (by decide) _ (by show (63 : ℕ) < 2 + 65; decide)); iexact Hlev
    iexact Hat_rsccw_r_14_1
  iintro ⟨HO, Hat_rsccw_r_14_1, #Hrch_rsccw_r_14_1_1, Hpay⟩
  iclear HIo
  ihave Hp := (Entails.of_eq (rest_single X _ _ _ (duties_rsccw_r_14_1 X c) (payload_rsccw_r_14_1 X c false))) $$ Hpay
  ihave Hq := (owns_elim _ _ _) $$ Hp
  icases Hq with ⟨%f_rsccw_r_14_1, %hf_rsccw_r_14_1, Hs_rsccw_r_14_1⟩
  -- add ccw s=14 b=1: the loads and the store run by themselves (within the next run)
  try sl_exec_parts
  ihave Hq := (owns_intro_add X false 14 64 1 c 0 bM _ f_rsccw_r_14_1 _ _ _ rfl (off4_16_64 c) hf_rsccw_r_14_1 (addV_eq_ccw_14_1 X c)) $$ [Hs_rsccw_r_14_1]
  · iexact Hs_rsccw_r_14_1
  ihave Hq2 := (owns_share_split _ _ _) $$ Hq
  icases Hq2 with ⟨HsL_rsccw_r_14_1, HsR_rsccw_r_14_1⟩
  -- send ag ccw t=0 b=1 (payment 65, device function 66)
  try sl_exec_parts
  ihave HO := (owes_congr (rem_peel_65 c)) $$ HO
  ihave #HIo := (bigSepL_elim_idx ownQs _ 13 (by decide)) $$ HInvOwn
  ihave #HIt := (bigSepL_elim_idx recvCcw _ 31 (by decide)) $$ HInbCcw
  iapply (@send_owns_at F _ X c (prv c) ⟨k0_dev66 c, k0_dev66_lt c⟩ (dev66_eq c _) (slot bM 14 64 inb_S15x128x1024_S1x64x1024_14_64_0) (rows oM (off false (c.val + 0) 1) (off_inb false _ 1)) _ (qS cc0_scratch8 1 inb_S4_S1_1) (qR cc0_scratch9 0 1 inb_S15x2_S1x1_0_1) _ _ _ _ _ _ fullShare.right (addV X false 1 14 c) 0 (K (dcell c (qS cc0_scratch8 1 inb_S4_S1_1))) (K (dcell (prv c) (qR cc0_scratch9 0 1 inb_S15x2_S1x1_0_1))) _ (rem c 66) _ (by rw [duties_agccw_s_1_0 X c]; exact Finset.mem_singleton_self _) (by rw [duties_agccw_r_0_1 X (prv c)]; exact Finset.mem_singleton_self _) (by exact amount_agccw_s_1_0 X c false) (by exact amount_agccw_r_0_1 X (prv c) false) (by rfl) (by exact payload_agccw_s_1_0 X c false) (by exact hp2_agccw_r_0_1 X c) (by rfl) (by routes)) $$ [HsR_rsccw_r_14_1 Hd_agccw_r_0_1 HO Hts_agccw_s_1_0 Htn_agccw_r_0_1]
  · isplitr; · iexact HIo
    isplitr; · iexact HIt
    isplitl [HsR_rsccw_r_14_1]; · iexact HsR_rsccw_r_14_1
    isplitl [Hd_agccw_r_0_1]; · iexact Hd_agccw_r_0_1
    isplitl [HO]; · iexact HO
    isplitl [Hts_agccw_s_1_0]; · iexact Hts_agccw_s_1_0
    isplitr; · iexact Hrs_agccw_s_1_0
    isplitl [Htn_agccw_r_0_1]; · iexact Htn_agccw_r_0_1
    iexact Hrn_agccw_r_0_1
  iintro ⟨Hcs_agccw_s_1_0, HO⟩
  iclear HIo HIt
  -- the own chunk's cw half: slot 14's two left halves joined for the 128-row load
  ihave Hj := (join128 aM c fullShare.left _ _ inb_S15x128x1024_S1x64x1024_14_0_0 inb_S15x128x1024_S1x64x1024_14_64_0 inb_S15x128x1024_S1x128x1024_14_0_0) $$ [HsL_rscw_r_14_0 HsL_rscw_r_14_1]
  · isplitl [HsL_rscw_r_14_0]; · iexact HsL_rscw_r_14_0
    iexact HsL_rscw_r_14_1
  icases Hj with ⟨%f128_cw, %hf128_cw, H128_cw⟩
  icases Hown_cw with ⟨%fo_cw, Hown_cw⟩
  -- the own chunk's ccw half: slot 14's two left halves joined for the 128-row load
  ihave Hj := (join128 bM c fullShare.left _ _ inb_S15x128x1024_S1x64x1024_14_0_0 inb_S15x128x1024_S1x64x1024_14_64_0 inb_S15x128x1024_S1x128x1024_14_0_0) $$ [HsL_rsccw_r_14_0 HsL_rsccw_r_14_1]
  · isplitl [HsL_rsccw_r_14_0]; · iexact HsL_rsccw_r_14_0
    iexact HsL_rsccw_r_14_1
  icases Hj with ⟨%f128_ccw, %hf128_ccw, H128_ccw⟩
  icases Hown_ccw with ⟨%fo_ccw, Hown_ccw⟩
  unfold own128 slot128
  try sl_exec_parts
  ihave Hw := (own_store_intro_cw aM c f128_cw fo_cw inb_S15x128x1024_S1x128x1024_14_0_0 _ rfl _ _ inb_S15x128x1024_S1x64x1024_14_0_0 inb_S15x128x1024_S1x64x1024_14_64_0 hf128_cw.1 hf128_cw.2) $$ [Hown_cw]
  · unfold own128; dsimp only; iexact Hown_cw
  icases Hw with ⟨Hg_own_cw0, Hg_own_cw1⟩
  ihave Hs2 := (split128 aM c fullShare.left _ _ inb_S15x128x1024_S1x64x1024_14_0_0 inb_S15x128x1024_S1x64x1024_14_64_0 inb_S15x128x1024_S1x128x1024_14_0_0) $$ [H128_cw]
  · iexists f128_cw; isplitr; · (ipureintro; exact hf128_cw)
    iexact H128_cw
  icases Hs2 with ⟨HsL_rscw_r_14_0, HsL_rscw_r_14_1⟩
  ihave Hw := (own_store_intro_ccw bM c f128_ccw fo_ccw inb_S15x128x1024_S1x128x1024_14_0_0 _ rfl _ _ inb_S15x128x1024_S1x64x1024_14_0_0 inb_S15x128x1024_S1x64x1024_14_64_0 hf128_ccw.1 hf128_ccw.2) $$ [Hown_ccw]
  · unfold own128; dsimp only; iexact Hown_ccw
  icases Hw with ⟨Hg_own_ccw0, Hg_own_ccw1⟩
  ihave Hs2 := (split128 bM c fullShare.left _ _ inb_S15x128x1024_S1x64x1024_14_0_0 inb_S15x128x1024_S1x64x1024_14_64_0 inb_S15x128x1024_S1x128x1024_14_0_0) $$ [H128_ccw]
  · iexists f128_ccw; isplitr; · (ipureintro; exact hf128_ccw)
    iexact H128_ccw
  icases Hs2 with ⟨HsL_rsccw_r_14_0, HsL_rsccw_r_14_1⟩
  -- wait recv ag cw t=0 b=0
  try sl_exec_parts
  ihave #HIo := (bigSepL_elim_idx ownQs _ 46 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 66) (W := _) (R := 0) (m := 0) (T := ∅)
      (by rw [Nat.zero_add, expect_agcw_r_0_0 X c])) $$ [Hc_agcw_r_0_0 HO Hat_agcw_r_0_0]
  · isplitr; · iexact HIo
    isplitl [Hc_agcw_r_0_0]; · iexact Hc_agcw_r_0_0
    isplitl [HO]; · iexact HO
    isplitr; · iapply (mayWait_rem (F := F) c 66 (by decide) _ (by show (64 : ℕ) < 2 + 66; decide)); iexact Hlev
    iexact Hat_agcw_r_0_0
  iintro ⟨HO, Hat_agcw_r_0_0, #Hrch_agcw_r_0_0_1, Hpay⟩
  iclear HIo
  ihave Hp := (Entails.of_eq (rest_single X _ _ _ (duties_agcw_r_0_0 X c) (payload_agcw_r_0_0 X c false))) $$ Hpay
  irename Hp => Hg_agcw_r_0_0
  -- send ag cw t=1 b=0 (payment 66, device function 67)
  try sl_exec_parts
  ihave HO := (owes_congr (rem_peel_66 c)) $$ HO
  ihave #HIo := (bigSepL_elim_idx ownQs _ 10 (by decide)) $$ HInvOwn
  ihave #HIt := (bigSepL_elim_idx recvCw _ 32 (by decide)) $$ HInbCw
  iapply (@send_owns_at F _ X c (nxt c) ⟨k0_dev67 c, k0_dev67_lt c⟩ (dev67_eq c _) (rows oM (off true (c.val + 15) 0) (off_inb true _ 0)) (rows oM (off true (c.val + 15) 0) (off_inb true _ 0)) _ (qS cc0_scratch6 2 inb_S4_S1_2) (qR cc0_scratch7 1 0 inb_S15x2_S1x1_1_0) _ _ _ _ _ _ fullShare (doneV X true 0 (devAt c 15)) 0 (K (dcell c (qS cc0_scratch6 2 inb_S4_S1_2))) (K (dcell (nxt c) (qR cc0_scratch7 1 0 inb_S15x2_S1x1_1_0))) _ (rem c 67) _ (by rw [duties_agcw_s_2_0 X c]; exact Finset.mem_singleton_self _) (by rw [duties_agcw_r_1_0 X (nxt c)]; exact Finset.mem_singleton_self _) (by exact amount_agcw_s_2_0 X c false) (by exact amount_agcw_r_1_0 X (nxt c) false) (by rfl) (by exact payload_agcw_s_2_0 X c false) (by exact hp2_agcw_r_1_0 X c) (by rfl) (by routes)) $$ [Hg_agcw_r_0_0 Hd_agcw_r_1_0 HO Hts_agcw_s_2_0 Htn_agcw_r_1_0]
  · isplitr; · iexact HIo
    isplitr; · iexact HIt
    isplitl [Hg_agcw_r_0_0]; · iexact Hg_agcw_r_0_0
    isplitl [Hd_agcw_r_1_0]; · iexact Hd_agcw_r_1_0
    isplitl [HO]; · iexact HO
    isplitl [Hts_agcw_s_2_0]; · iexact Hts_agcw_s_2_0
    isplitr; · iexact Hrs_agcw_s_2_0
    isplitl [Htn_agcw_r_1_0]; · iexact Htn_agcw_r_1_0
    iexact Hrn_agcw_r_1_0
  iintro ⟨Hcs_agcw_s_2_0, HO⟩
  iclear HIo HIt
  -- wait recv ag ccw t=0 b=0
  try sl_exec_parts
  ihave #HIo := (bigSepL_elim_idx ownQs _ 106 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 67) (W := _) (R := 0) (m := 0) (T := ∅)
      (by rw [Nat.zero_add, expect_agccw_r_0_0 X c])) $$ [Hc_agccw_r_0_0 HO Hat_agccw_r_0_0]
  · isplitr; · iexact HIo
    isplitl [Hc_agccw_r_0_0]; · iexact Hc_agccw_r_0_0
    isplitl [HO]; · iexact HO
    isplitr; · iapply (mayWait_rem (F := F) c 67 (by decide) _ (by show (65 : ℕ) < 2 + 67; decide)); iexact Hlev
    iexact Hat_agccw_r_0_0
  iintro ⟨HO, Hat_agccw_r_0_0, #Hrch_agccw_r_0_0_1, Hpay⟩
  iclear HIo
  ihave Hp := (Entails.of_eq (rest_single X _ _ _ (duties_agccw_r_0_0 X c) (payload_agccw_r_0_0 X c false))) $$ Hpay
  irename Hp => Hg_agccw_r_0_0
  -- send ag ccw t=1 b=0 (payment 67, device function 68)
  try sl_exec_parts
  ihave HO := (owes_congr (rem_peel_67 c)) $$ HO
  ihave #HIo := (bigSepL_elim_idx ownQs _ 14 (by decide)) $$ HInvOwn
  ihave #HIt := (bigSepL_elim_idx recvCcw _ 32 (by decide)) $$ HInbCcw
  iapply (@send_owns_at F _ X c (prv c) ⟨k0_dev68 c, k0_dev68_lt c⟩ (dev68_eq c _) (rows oM (off false (c.val + 1) 0) (off_inb false _ 0)) (rows oM (off false (c.val + 1) 0) (off_inb false _ 0)) _ (qS cc0_scratch8 2 inb_S4_S1_2) (qR cc0_scratch9 1 0 inb_S15x2_S1x1_1_0) _ _ _ _ _ _ fullShare (doneV X false 0 (devAt c 1)) 0 (K (dcell c (qS cc0_scratch8 2 inb_S4_S1_2))) (K (dcell (prv c) (qR cc0_scratch9 1 0 inb_S15x2_S1x1_1_0))) _ (rem c 68) _ (by rw [duties_agccw_s_2_0 X c]; exact Finset.mem_singleton_self _) (by rw [duties_agccw_r_1_0 X (prv c)]; exact Finset.mem_singleton_self _) (by exact amount_agccw_s_2_0 X c false) (by exact amount_agccw_r_1_0 X (prv c) false) (by rfl) (by exact payload_agccw_s_2_0 X c false) (by exact hp2_agccw_r_1_0 X c) (by rfl) (by routes)) $$ [Hg_agccw_r_0_0 Hd_agccw_r_1_0 HO Hts_agccw_s_2_0 Htn_agccw_r_1_0]
  · isplitr; · iexact HIo
    isplitr; · iexact HIt
    isplitl [Hg_agccw_r_0_0]; · iexact Hg_agccw_r_0_0
    isplitl [Hd_agccw_r_1_0]; · iexact Hd_agccw_r_1_0
    isplitl [HO]; · iexact HO
    isplitl [Hts_agccw_s_2_0]; · iexact Hts_agccw_s_2_0
    isplitr; · iexact Hrs_agccw_s_2_0
    isplitl [Htn_agccw_r_1_0]; · iexact Htn_agccw_r_1_0
    iexact Hrn_agccw_r_1_0
  iintro ⟨Hcs_agccw_s_2_0, HO⟩
  iclear HIo HIt
  -- wait recv ag cw t=0 b=1
  try sl_exec_parts
  ihave #HIo := (bigSepL_elim_idx ownQs _ 47 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 68) (W := _) (R := 0) (m := 0) (T := ∅)
      (by rw [Nat.zero_add, expect_agcw_r_0_1 X c])) $$ [Hc_agcw_r_0_1 HO Hat_agcw_r_0_1]
  · isplitr; · iexact HIo
    isplitl [Hc_agcw_r_0_1]; · iexact Hc_agcw_r_0_1
    isplitl [HO]; · iexact HO
    isplitr; · iapply (mayWait_rem (F := F) c 68 (by decide) _ (by show (66 : ℕ) < 2 + 68; decide)); iexact Hlev
    iexact Hat_agcw_r_0_1
  iintro ⟨HO, Hat_agcw_r_0_1, #Hrch_agcw_r_0_1_1, Hpay⟩
  iclear HIo
  ihave Hp := (Entails.of_eq (rest_single X _ _ _ (duties_agcw_r_0_1 X c) (payload_agcw_r_0_1 X c false))) $$ Hpay
  irename Hp => Hg_agcw_r_0_1
  -- send ag cw t=1 b=1 (payment 68, device function 69)
  try sl_exec_parts
  ihave HO := (owes_congr (rem_peel_68 c)) $$ HO
  ihave #HIo := (bigSepL_elim_idx ownQs _ 11 (by decide)) $$ HInvOwn
  ihave #HIt := (bigSepL_elim_idx recvCw _ 33 (by decide)) $$ HInbCw
  iapply (@send_owns_at F _ X c (nxt c) ⟨k0_dev69 c, k0_dev69_lt c⟩ (dev69_eq c _) (rows oM (off true (c.val + 15) 1) (off_inb true _ 1)) (rows oM (off true (c.val + 15) 1) (off_inb true _ 1)) _ (qS cc0_scratch6 3 inb_S4_S1_3) (qR cc0_scratch7 1 1 inb_S15x2_S1x1_1_1) _ _ _ _ _ _ fullShare (doneV X true 1 (devAt c 15)) 0 (K (dcell c (qS cc0_scratch6 3 inb_S4_S1_3))) (K (dcell (nxt c) (qR cc0_scratch7 1 1 inb_S15x2_S1x1_1_1))) _ (rem c 69) _ (by rw [duties_agcw_s_3_0 X c]; exact Finset.mem_singleton_self _) (by rw [duties_agcw_r_1_1 X (nxt c)]; exact Finset.mem_singleton_self _) (by exact amount_agcw_s_3_0 X c false) (by exact amount_agcw_r_1_1 X (nxt c) false) (by rfl) (by exact payload_agcw_s_3_0 X c false) (by exact hp2_agcw_r_1_1 X c) (by rfl) (by routes)) $$ [Hg_agcw_r_0_1 Hd_agcw_r_1_1 HO Hts_agcw_s_3_0 Htn_agcw_r_1_1]
  · isplitr; · iexact HIo
    isplitr; · iexact HIt
    isplitl [Hg_agcw_r_0_1]; · iexact Hg_agcw_r_0_1
    isplitl [Hd_agcw_r_1_1]; · iexact Hd_agcw_r_1_1
    isplitl [HO]; · iexact HO
    isplitl [Hts_agcw_s_3_0]; · iexact Hts_agcw_s_3_0
    isplitr; · iexact Hrs_agcw_s_3_0
    isplitl [Htn_agcw_r_1_1]; · iexact Htn_agcw_r_1_1
    iexact Hrn_agcw_r_1_1
  iintro ⟨Hcs_agcw_s_3_0, HO⟩
  iclear HIo HIt
  -- wait recv ag ccw t=0 b=1
  try sl_exec_parts
  ihave #HIo := (bigSepL_elim_idx ownQs _ 107 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 69) (W := _) (R := 0) (m := 0) (T := ∅)
      (by rw [Nat.zero_add, expect_agccw_r_0_1 X c])) $$ [Hc_agccw_r_0_1 HO Hat_agccw_r_0_1]
  · isplitr; · iexact HIo
    isplitl [Hc_agccw_r_0_1]; · iexact Hc_agccw_r_0_1
    isplitl [HO]; · iexact HO
    isplitr; · iapply (mayWait_rem (F := F) c 69 (by decide) _ (by show (67 : ℕ) < 2 + 69; decide)); iexact Hlev
    iexact Hat_agccw_r_0_1
  iintro ⟨HO, Hat_agccw_r_0_1, #Hrch_agccw_r_0_1_1, Hpay⟩
  iclear HIo
  ihave Hp := (Entails.of_eq (rest_single X _ _ _ (duties_agccw_r_0_1 X c) (payload_agccw_r_0_1 X c false))) $$ Hpay
  irename Hp => Hg_agccw_r_0_1
  -- send ag ccw t=1 b=1 (payment 69, device function 70)
  try sl_exec_parts
  ihave HO := (owes_congr (rem_peel_69 c)) $$ HO
  ihave #HIo := (bigSepL_elim_idx ownQs _ 15 (by decide)) $$ HInvOwn
  ihave #HIt := (bigSepL_elim_idx recvCcw _ 33 (by decide)) $$ HInbCcw
  iapply (@send_owns_at F _ X c (prv c) ⟨k0_dev70 c, k0_dev70_lt c⟩ (dev70_eq c _) (rows oM (off false (c.val + 1) 1) (off_inb false _ 1)) (rows oM (off false (c.val + 1) 1) (off_inb false _ 1)) _ (qS cc0_scratch8 3 inb_S4_S1_3) (qR cc0_scratch9 1 1 inb_S15x2_S1x1_1_1) _ _ _ _ _ _ fullShare (doneV X false 1 (devAt c 1)) 0 (K (dcell c (qS cc0_scratch8 3 inb_S4_S1_3))) (K (dcell (prv c) (qR cc0_scratch9 1 1 inb_S15x2_S1x1_1_1))) _ (rem c 70) _ (by rw [duties_agccw_s_3_0 X c]; exact Finset.mem_singleton_self _) (by rw [duties_agccw_r_1_1 X (prv c)]; exact Finset.mem_singleton_self _) (by exact amount_agccw_s_3_0 X c false) (by exact amount_agccw_r_1_1 X (prv c) false) (by rfl) (by exact payload_agccw_s_3_0 X c false) (by exact hp2_agccw_r_1_1 X c) (by rfl) (by routes)) $$ [Hg_agccw_r_0_1 Hd_agccw_r_1_1 HO Hts_agccw_s_3_0 Htn_agccw_r_1_1]
  · isplitr; · iexact HIo
    isplitr; · iexact HIt
    isplitl [Hg_agccw_r_0_1]; · iexact Hg_agccw_r_0_1
    isplitl [Hd_agccw_r_1_1]; · iexact Hd_agccw_r_1_1
    isplitl [HO]; · iexact HO
    isplitl [Hts_agccw_s_3_0]; · iexact Hts_agccw_s_3_0
    isplitr; · iexact Hrs_agccw_s_3_0
    isplitl [Htn_agccw_r_1_1]; · iexact Htn_agccw_r_1_1
    iexact Hrn_agccw_r_1_1
  iintro ⟨Hcs_agccw_s_3_0, HO⟩
  iclear HIo HIt
  -- wait recv ag cw t=1 b=0
  try sl_exec_parts
  ihave #HIo := (bigSepL_elim_idx ownQs _ 48 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 70) (W := _) (R := 0) (m := 0) (T := ∅)
      (by rw [Nat.zero_add, expect_agcw_r_1_0 X c])) $$ [Hc_agcw_r_1_0 HO Hat_agcw_r_1_0]
  · isplitr; · iexact HIo
    isplitl [Hc_agcw_r_1_0]; · iexact Hc_agcw_r_1_0
    isplitl [HO]; · iexact HO
    isplitr; · iapply (mayWait_rem (F := F) c 70 (by decide) _ (by show (68 : ℕ) < 2 + 70; decide)); iexact Hlev
    iexact Hat_agcw_r_1_0
  iintro ⟨HO, Hat_agcw_r_1_0, #Hrch_agcw_r_1_0_1, Hpay⟩
  iclear HIo
  ihave Hp := (Entails.of_eq (rest_single X _ _ _ (duties_agcw_r_1_0 X c) (payload_agcw_r_1_0 X c false))) $$ Hpay
  irename Hp => Hg_agcw_r_1_0
  -- wait send ag cw t=0 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 70) (W := _) (R := 0) (m := 0) (T := ∅)
      (by rw [Nat.zero_add, expect_agcw_s_0_0 X c])) $$ [Hcs_agcw_s_0_0 HO Hat_agcw_s_0]
  · isplitr; · iexact HIo
    isplitl [Hcs_agcw_s_0_0]; · iexact Hcs_agcw_s_0_0
    isplitl [HO]; · iexact HO
    isplitr; · iapply (mayWait_rem (F := F) c 70 (by decide) _ (by show (0 : ℕ) < 2 + 70; decide)); iexact Hlev
    iexact Hat_agcw_s_0
  iintro ⟨HO, Hat_agcw_s_0, #Hrch_agcw_s_0_1, Hpay⟩
  iclear HIo
  ihave Hp := (Entails.of_eq (rest_single X _ _ _ (duties_agcw_s_0_0 X c) (payload_agcw_s_0_0 X c false))) $$ Hpay
  irename Hp => HbackR_rscw_r_14_0
  -- send ag cw t=2 b=0 (payment 70, device function 71)
  try sl_exec_parts
  ihave HO := (owes_congr (rem_peel_70 c)) $$ HO
  ihave #HIo := (bigSepL_elim_idx ownQs _ 8 (by decide)) $$ HInvOwn
  ihave #HIt := (bigSepL_elim_idx recvCw _ 34 (by decide)) $$ HInbCw
  iapply (@send_owns_at F _ X c (nxt c) ⟨k0_dev71 c, k0_dev71_lt c⟩ (dev71_eq c _) (rows oM (off true (c.val + 14) 0) (off_inb true _ 0)) (rows oM (off true (c.val + 14) 0) (off_inb true _ 0)) _ (qS cc0_scratch6 0 inb_S4_S1_0) (qR cc0_scratch7 2 0 inb_S15x2_S1x1_2_0) _ _ _ _ _ _ fullShare (doneV X true 0 (devAt c 14)) 1 (K (dcell c (qS cc0_scratch6 0 inb_S4_S1_0))) (K (dcell (nxt c) (qR cc0_scratch7 2 0 inb_S15x2_S1x1_2_0))) _ (rem c 71) _ (by rw [duties_agcw_s_0_1 X c]; exact Finset.mem_singleton_self _) (by rw [duties_agcw_r_2_0 X (nxt c)]; exact Finset.mem_singleton_self _) (by exact amount_agcw_s_0_1 X c false) (by exact amount_agcw_r_2_0 X (nxt c) false) (by rfl) (by exact payload_agcw_s_0_1 X c false) (by exact hp2_agcw_r_2_0 X c) (by rfl) (by routes)) $$ [Hg_agcw_r_1_0 Hd_agcw_r_2_0 HO Hts_agcw_s_0_1 Htn_agcw_r_2_0]
  · isplitr; · iexact HIo
    isplitr; · iexact HIt
    isplitl [Hg_agcw_r_1_0]; · iexact Hg_agcw_r_1_0
    isplitl [Hd_agcw_r_2_0]; · iexact Hd_agcw_r_2_0
    isplitl [HO]; · iexact HO
    isplitl [Hts_agcw_s_0_1]; · iexact Hts_agcw_s_0_1
    isplitr; · iexact Hrch_agcw_s_0_1
    isplitl [Htn_agcw_r_2_0]; · iexact Htn_agcw_r_2_0
    iexact Hrn_agcw_r_2_0
  iintro ⟨Hcs_agcw_s_0_1, HO⟩
  iclear HIo HIt
  -- wait recv ag ccw t=1 b=0
  try sl_exec_parts
  ihave #HIo := (bigSepL_elim_idx ownQs _ 108 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 71) (W := _) (R := 0) (m := 0) (T := ∅)
      (by rw [Nat.zero_add, expect_agccw_r_1_0 X c])) $$ [Hc_agccw_r_1_0 HO Hat_agccw_r_1_0]
  · isplitr; · iexact HIo
    isplitl [Hc_agccw_r_1_0]; · iexact Hc_agccw_r_1_0
    isplitl [HO]; · iexact HO
    isplitr; · iapply (mayWait_rem (F := F) c 71 (by decide) _ (by show (69 : ℕ) < 2 + 71; decide)); iexact Hlev
    iexact Hat_agccw_r_1_0
  iintro ⟨HO, Hat_agccw_r_1_0, #Hrch_agccw_r_1_0_1, Hpay⟩
  iclear HIo
  ihave Hp := (Entails.of_eq (rest_single X _ _ _ (duties_agccw_r_1_0 X c) (payload_agccw_r_1_0 X c false))) $$ Hpay
  irename Hp => Hg_agccw_r_1_0
  -- wait send ag ccw t=0 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 71) (W := _) (R := 0) (m := 0) (T := ∅)
      (by rw [Nat.zero_add, expect_agccw_s_0_0 X c])) $$ [Hcs_agccw_s_0_0 HO Hat_agccw_s_0]
  · isplitr; · iexact HIo
    isplitl [Hcs_agccw_s_0_0]; · iexact Hcs_agccw_s_0_0
    isplitl [HO]; · iexact HO
    isplitr; · iapply (mayWait_rem (F := F) c 71 (by decide) _ (by show (0 : ℕ) < 2 + 71; decide)); iexact Hlev
    iexact Hat_agccw_s_0
  iintro ⟨HO, Hat_agccw_s_0, #Hrch_agccw_s_0_1, Hpay⟩
  iclear HIo
  ihave Hp := (Entails.of_eq (rest_single X _ _ _ (duties_agccw_s_0_0 X c) (payload_agccw_s_0_0 X c false))) $$ Hpay
  irename Hp => HbackR_rsccw_r_14_0
  -- send ag ccw t=2 b=0 (payment 71, device function 72)
  try sl_exec_parts
  ihave HO := (owes_congr (rem_peel_71 c)) $$ HO
  ihave #HIo := (bigSepL_elim_idx ownQs _ 12 (by decide)) $$ HInvOwn
  ihave #HIt := (bigSepL_elim_idx recvCcw _ 34 (by decide)) $$ HInbCcw
  iapply (@send_owns_at F _ X c (prv c) ⟨k0_dev72 c, k0_dev72_lt c⟩ (dev72_eq c _) (rows oM (off false (c.val + 2) 0) (off_inb false _ 0)) (rows oM (off false (c.val + 2) 0) (off_inb false _ 0)) _ (qS cc0_scratch8 0 inb_S4_S1_0) (qR cc0_scratch9 2 0 inb_S15x2_S1x1_2_0) _ _ _ _ _ _ fullShare (doneV X false 0 (devAt c 2)) 1 (K (dcell c (qS cc0_scratch8 0 inb_S4_S1_0))) (K (dcell (prv c) (qR cc0_scratch9 2 0 inb_S15x2_S1x1_2_0))) _ (rem c 72) _ (by rw [duties_agccw_s_0_1 X c]; exact Finset.mem_singleton_self _) (by rw [duties_agccw_r_2_0 X (prv c)]; exact Finset.mem_singleton_self _) (by exact amount_agccw_s_0_1 X c false) (by exact amount_agccw_r_2_0 X (prv c) false) (by rfl) (by exact payload_agccw_s_0_1 X c false) (by exact hp2_agccw_r_2_0 X c) (by rfl) (by routes)) $$ [Hg_agccw_r_1_0 Hd_agccw_r_2_0 HO Hts_agccw_s_0_1 Htn_agccw_r_2_0]
  · isplitr; · iexact HIo
    isplitr; · iexact HIt
    isplitl [Hg_agccw_r_1_0]; · iexact Hg_agccw_r_1_0
    isplitl [Hd_agccw_r_2_0]; · iexact Hd_agccw_r_2_0
    isplitl [HO]; · iexact HO
    isplitl [Hts_agccw_s_0_1]; · iexact Hts_agccw_s_0_1
    isplitr; · iexact Hrch_agccw_s_0_1
    isplitl [Htn_agccw_r_2_0]; · iexact Htn_agccw_r_2_0
    iexact Hrn_agccw_r_2_0
  iintro ⟨Hcs_agccw_s_0_1, HO⟩
  iclear HIo HIt
  -- wait recv ag cw t=1 b=1
  try sl_exec_parts
  ihave #HIo := (bigSepL_elim_idx ownQs _ 49 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 72) (W := _) (R := 0) (m := 0) (T := ∅)
      (by rw [Nat.zero_add, expect_agcw_r_1_1 X c])) $$ [Hc_agcw_r_1_1 HO Hat_agcw_r_1_1]
  · isplitr; · iexact HIo
    isplitl [Hc_agcw_r_1_1]; · iexact Hc_agcw_r_1_1
    isplitl [HO]; · iexact HO
    isplitr; · iapply (mayWait_rem (F := F) c 72 (by decide) _ (by show (70 : ℕ) < 2 + 72; decide)); iexact Hlev
    iexact Hat_agcw_r_1_1
  iintro ⟨HO, Hat_agcw_r_1_1, #Hrch_agcw_r_1_1_1, Hpay⟩
  iclear HIo
  ihave Hp := (Entails.of_eq (rest_single X _ _ _ (duties_agcw_r_1_1 X c) (payload_agcw_r_1_1 X c false))) $$ Hpay
  irename Hp => Hg_agcw_r_1_1
  -- wait send ag cw t=0 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 72) (W := _) (R := 0) (m := 0) (T := ∅)
      (by rw [Nat.zero_add, expect_agcw_s_1_0 X c])) $$ [Hcs_agcw_s_1_0 HO Hat_agcw_s_1]
  · isplitr; · iexact HIo
    isplitl [Hcs_agcw_s_1_0]; · iexact Hcs_agcw_s_1_0
    isplitl [HO]; · iexact HO
    isplitr; · iapply (mayWait_rem (F := F) c 72 (by decide) _ (by show (0 : ℕ) < 2 + 72; decide)); iexact Hlev
    iexact Hat_agcw_s_1
  iintro ⟨HO, Hat_agcw_s_1, #Hrch_agcw_s_1_1, Hpay⟩
  iclear HIo
  ihave Hp := (Entails.of_eq (rest_single X _ _ _ (duties_agcw_s_1_0 X c) (payload_agcw_s_1_0 X c false))) $$ Hpay
  irename Hp => HbackR_rscw_r_14_1
  -- send ag cw t=2 b=1 (payment 72, device function 73)
  try sl_exec_parts
  ihave HO := (owes_congr (rem_peel_72 c)) $$ HO
  ihave #HIo := (bigSepL_elim_idx ownQs _ 9 (by decide)) $$ HInvOwn
  ihave #HIt := (bigSepL_elim_idx recvCw _ 35 (by decide)) $$ HInbCw
  iapply (@send_owns_at F _ X c (nxt c) ⟨k0_dev73 c, k0_dev73_lt c⟩ (dev73_eq c _) (rows oM (off true (c.val + 14) 1) (off_inb true _ 1)) (rows oM (off true (c.val + 14) 1) (off_inb true _ 1)) _ (qS cc0_scratch6 1 inb_S4_S1_1) (qR cc0_scratch7 2 1 inb_S15x2_S1x1_2_1) _ _ _ _ _ _ fullShare (doneV X true 1 (devAt c 14)) 1 (K (dcell c (qS cc0_scratch6 1 inb_S4_S1_1))) (K (dcell (nxt c) (qR cc0_scratch7 2 1 inb_S15x2_S1x1_2_1))) _ (rem c 73) _ (by rw [duties_agcw_s_1_1 X c]; exact Finset.mem_singleton_self _) (by rw [duties_agcw_r_2_1 X (nxt c)]; exact Finset.mem_singleton_self _) (by exact amount_agcw_s_1_1 X c false) (by exact amount_agcw_r_2_1 X (nxt c) false) (by rfl) (by exact payload_agcw_s_1_1 X c false) (by exact hp2_agcw_r_2_1 X c) (by rfl) (by routes)) $$ [Hg_agcw_r_1_1 Hd_agcw_r_2_1 HO Hts_agcw_s_1_1 Htn_agcw_r_2_1]
  · isplitr; · iexact HIo
    isplitr; · iexact HIt
    isplitl [Hg_agcw_r_1_1]; · iexact Hg_agcw_r_1_1
    isplitl [Hd_agcw_r_2_1]; · iexact Hd_agcw_r_2_1
    isplitl [HO]; · iexact HO
    isplitl [Hts_agcw_s_1_1]; · iexact Hts_agcw_s_1_1
    isplitr; · iexact Hrch_agcw_s_1_1
    isplitl [Htn_agcw_r_2_1]; · iexact Htn_agcw_r_2_1
    iexact Hrn_agcw_r_2_1
  iintro ⟨Hcs_agcw_s_1_1, HO⟩
  iclear HIo HIt
  -- wait recv ag ccw t=1 b=1
  try sl_exec_parts
  ihave #HIo := (bigSepL_elim_idx ownQs _ 109 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 73) (W := _) (R := 0) (m := 0) (T := ∅)
      (by rw [Nat.zero_add, expect_agccw_r_1_1 X c])) $$ [Hc_agccw_r_1_1 HO Hat_agccw_r_1_1]
  · isplitr; · iexact HIo
    isplitl [Hc_agccw_r_1_1]; · iexact Hc_agccw_r_1_1
    isplitl [HO]; · iexact HO
    isplitr; · iapply (mayWait_rem (F := F) c 73 (by decide) _ (by show (71 : ℕ) < 2 + 73; decide)); iexact Hlev
    iexact Hat_agccw_r_1_1
  iintro ⟨HO, Hat_agccw_r_1_1, #Hrch_agccw_r_1_1_1, Hpay⟩
  iclear HIo
  ihave Hp := (Entails.of_eq (rest_single X _ _ _ (duties_agccw_r_1_1 X c) (payload_agccw_r_1_1 X c false))) $$ Hpay
  irename Hp => Hg_agccw_r_1_1
  -- wait send ag ccw t=0 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 73) (W := _) (R := 0) (m := 0) (T := ∅)
      (by rw [Nat.zero_add, expect_agccw_s_1_0 X c])) $$ [Hcs_agccw_s_1_0 HO Hat_agccw_s_1]
  · isplitr; · iexact HIo
    isplitl [Hcs_agccw_s_1_0]; · iexact Hcs_agccw_s_1_0
    isplitl [HO]; · iexact HO
    isplitr; · iapply (mayWait_rem (F := F) c 73 (by decide) _ (by show (0 : ℕ) < 2 + 73; decide)); iexact Hlev
    iexact Hat_agccw_s_1
  iintro ⟨HO, Hat_agccw_s_1, #Hrch_agccw_s_1_1, Hpay⟩
  iclear HIo
  ihave Hp := (Entails.of_eq (rest_single X _ _ _ (duties_agccw_s_1_0 X c) (payload_agccw_s_1_0 X c false))) $$ Hpay
  irename Hp => HbackR_rsccw_r_14_1
  -- send ag ccw t=2 b=1 (payment 73, device function 74)
  try sl_exec_parts
  ihave HO := (owes_congr (rem_peel_73 c)) $$ HO
  ihave #HIo := (bigSepL_elim_idx ownQs _ 13 (by decide)) $$ HInvOwn
  ihave #HIt := (bigSepL_elim_idx recvCcw _ 35 (by decide)) $$ HInbCcw
  iapply (@send_owns_at F _ X c (prv c) ⟨k0_dev74 c, k0_dev74_lt c⟩ (dev74_eq c _) (rows oM (off false (c.val + 2) 1) (off_inb false _ 1)) (rows oM (off false (c.val + 2) 1) (off_inb false _ 1)) _ (qS cc0_scratch8 1 inb_S4_S1_1) (qR cc0_scratch9 2 1 inb_S15x2_S1x1_2_1) _ _ _ _ _ _ fullShare (doneV X false 1 (devAt c 2)) 1 (K (dcell c (qS cc0_scratch8 1 inb_S4_S1_1))) (K (dcell (prv c) (qR cc0_scratch9 2 1 inb_S15x2_S1x1_2_1))) _ (rem c 74) _ (by rw [duties_agccw_s_1_1 X c]; exact Finset.mem_singleton_self _) (by rw [duties_agccw_r_2_1 X (prv c)]; exact Finset.mem_singleton_self _) (by exact amount_agccw_s_1_1 X c false) (by exact amount_agccw_r_2_1 X (prv c) false) (by rfl) (by exact payload_agccw_s_1_1 X c false) (by exact hp2_agccw_r_2_1 X c) (by rfl) (by routes)) $$ [Hg_agccw_r_1_1 Hd_agccw_r_2_1 HO Hts_agccw_s_1_1 Htn_agccw_r_2_1]
  · isplitr; · iexact HIo
    isplitr; · iexact HIt
    isplitl [Hg_agccw_r_1_1]; · iexact Hg_agccw_r_1_1
    isplitl [Hd_agccw_r_2_1]; · iexact Hd_agccw_r_2_1
    isplitl [HO]; · iexact HO
    isplitl [Hts_agccw_s_1_1]; · iexact Hts_agccw_s_1_1
    isplitr; · iexact Hrch_agccw_s_1_1
    isplitl [Htn_agccw_r_2_1]; · iexact Htn_agccw_r_2_1
    iexact Hrn_agccw_r_2_1
  iintro ⟨Hcs_agccw_s_1_1, HO⟩
  iclear HIo HIt
  -- wait recv ag cw t=2 b=0
  try sl_exec_parts
  ihave #HIo := (bigSepL_elim_idx ownQs _ 50 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 74) (W := _) (R := 0) (m := 0) (T := ∅)
      (by rw [Nat.zero_add, expect_agcw_r_2_0 X c])) $$ [Hc_agcw_r_2_0 HO Hat_agcw_r_2_0]
  · isplitr; · iexact HIo
    isplitl [Hc_agcw_r_2_0]; · iexact Hc_agcw_r_2_0
    isplitl [HO]; · iexact HO
    isplitr; · iapply (mayWait_rem (F := F) c 74 (by decide) _ (by show (72 : ℕ) < 2 + 74; decide)); iexact Hlev
    iexact Hat_agcw_r_2_0
  iintro ⟨HO, Hat_agcw_r_2_0, #Hrch_agcw_r_2_0_1, Hpay⟩
  iclear HIo
  ihave Hp := (Entails.of_eq (rest_single X _ _ _ (duties_agcw_r_2_0 X c) (payload_agcw_r_2_0 X c false))) $$ Hpay
  irename Hp => Hg_agcw_r_2_0
  -- wait send ag cw t=1 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 74) (W := _) (R := 0) (m := 0) (T := ∅)
      (by rw [Nat.zero_add, expect_agcw_s_2_0 X c])) $$ [Hcs_agcw_s_2_0 HO Hat_agcw_s_2]
  · isplitr; · iexact HIo
    isplitl [Hcs_agcw_s_2_0]; · iexact Hcs_agcw_s_2_0
    isplitl [HO]; · iexact HO
    isplitr; · iapply (mayWait_rem (F := F) c 74 (by decide) _ (by show (0 : ℕ) < 2 + 74; decide)); iexact Hlev
    iexact Hat_agcw_s_2
  iintro ⟨HO, Hat_agcw_s_2, #Hrch_agcw_s_2_1, Hpay⟩
  iclear HIo
  ihave Hp := (Entails.of_eq (rest_single X _ _ _ (duties_agcw_s_2_0 X c) (payload_agcw_s_2_0 X c false))) $$ Hpay
  irename Hp => Hback_agcw_r_0_0
  -- send ag cw t=3 b=0 (payment 74, device function 75)
  try sl_exec_parts
  ihave HO := (owes_congr (rem_peel_74 c)) $$ HO
  ihave #HIo := (bigSepL_elim_idx ownQs _ 10 (by decide)) $$ HInvOwn
  ihave #HIt := (bigSepL_elim_idx recvCw _ 36 (by decide)) $$ HInbCw
  iapply (@send_owns_at F _ X c (nxt c) ⟨k0_dev75 c, k0_dev75_lt c⟩ (dev75_eq c _) (rows oM (off true (c.val + 13) 0) (off_inb true _ 0)) (rows oM (off true (c.val + 13) 0) (off_inb true _ 0)) _ (qS cc0_scratch6 2 inb_S4_S1_2) (qR cc0_scratch7 3 0 inb_S15x2_S1x1_3_0) _ _ _ _ _ _ fullShare (doneV X true 0 (devAt c 13)) 1 (K (dcell c (qS cc0_scratch6 2 inb_S4_S1_2))) (K (dcell (nxt c) (qR cc0_scratch7 3 0 inb_S15x2_S1x1_3_0))) _ (rem c 75) _ (by rw [duties_agcw_s_2_1 X c]; exact Finset.mem_singleton_self _) (by rw [duties_agcw_r_3_0 X (nxt c)]; exact Finset.mem_singleton_self _) (by exact amount_agcw_s_2_1 X c false) (by exact amount_agcw_r_3_0 X (nxt c) false) (by rfl) (by exact payload_agcw_s_2_1 X c false) (by exact hp2_agcw_r_3_0 X c) (by rfl) (by routes)) $$ [Hg_agcw_r_2_0 Hd_agcw_r_3_0 HO Hts_agcw_s_2_1 Htn_agcw_r_3_0]
  · isplitr; · iexact HIo
    isplitr; · iexact HIt
    isplitl [Hg_agcw_r_2_0]; · iexact Hg_agcw_r_2_0
    isplitl [Hd_agcw_r_3_0]; · iexact Hd_agcw_r_3_0
    isplitl [HO]; · iexact HO
    isplitl [Hts_agcw_s_2_1]; · iexact Hts_agcw_s_2_1
    isplitr; · iexact Hrch_agcw_s_2_1
    isplitl [Htn_agcw_r_3_0]; · iexact Htn_agcw_r_3_0
    iexact Hrn_agcw_r_3_0
  iintro ⟨Hcs_agcw_s_2_1, HO⟩
  iclear HIo HIt
  -- wait recv ag ccw t=2 b=0
  try sl_exec_parts
  ihave #HIo := (bigSepL_elim_idx ownQs _ 110 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 75) (W := _) (R := 0) (m := 0) (T := ∅)
      (by rw [Nat.zero_add, expect_agccw_r_2_0 X c])) $$ [Hc_agccw_r_2_0 HO Hat_agccw_r_2_0]
  · isplitr; · iexact HIo
    isplitl [Hc_agccw_r_2_0]; · iexact Hc_agccw_r_2_0
    isplitl [HO]; · iexact HO
    isplitr; · iapply (mayWait_rem (F := F) c 75 (by decide) _ (by show (73 : ℕ) < 2 + 75; decide)); iexact Hlev
    iexact Hat_agccw_r_2_0
  iintro ⟨HO, Hat_agccw_r_2_0, #Hrch_agccw_r_2_0_1, Hpay⟩
  iclear HIo
  ihave Hp := (Entails.of_eq (rest_single X _ _ _ (duties_agccw_r_2_0 X c) (payload_agccw_r_2_0 X c false))) $$ Hpay
  irename Hp => Hg_agccw_r_2_0
  -- wait send ag ccw t=1 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 75) (W := _) (R := 0) (m := 0) (T := ∅)
      (by rw [Nat.zero_add, expect_agccw_s_2_0 X c])) $$ [Hcs_agccw_s_2_0 HO Hat_agccw_s_2]
  · isplitr; · iexact HIo
    isplitl [Hcs_agccw_s_2_0]; · iexact Hcs_agccw_s_2_0
    isplitl [HO]; · iexact HO
    isplitr; · iapply (mayWait_rem (F := F) c 75 (by decide) _ (by show (0 : ℕ) < 2 + 75; decide)); iexact Hlev
    iexact Hat_agccw_s_2
  iintro ⟨HO, Hat_agccw_s_2, #Hrch_agccw_s_2_1, Hpay⟩
  iclear HIo
  ihave Hp := (Entails.of_eq (rest_single X _ _ _ (duties_agccw_s_2_0 X c) (payload_agccw_s_2_0 X c false))) $$ Hpay
  irename Hp => Hback_agccw_r_0_0
  -- send ag ccw t=3 b=0 (payment 75, device function 76)
  try sl_exec_parts
  ihave HO := (owes_congr (rem_peel_75 c)) $$ HO
  ihave #HIo := (bigSepL_elim_idx ownQs _ 14 (by decide)) $$ HInvOwn
  ihave #HIt := (bigSepL_elim_idx recvCcw _ 36 (by decide)) $$ HInbCcw
  iapply (@send_owns_at F _ X c (prv c) ⟨k0_dev76 c, k0_dev76_lt c⟩ (dev76_eq c _) (rows oM (off false (c.val + 3) 0) (off_inb false _ 0)) (rows oM (off false (c.val + 3) 0) (off_inb false _ 0)) _ (qS cc0_scratch8 2 inb_S4_S1_2) (qR cc0_scratch9 3 0 inb_S15x2_S1x1_3_0) _ _ _ _ _ _ fullShare (doneV X false 0 (devAt c 3)) 1 (K (dcell c (qS cc0_scratch8 2 inb_S4_S1_2))) (K (dcell (prv c) (qR cc0_scratch9 3 0 inb_S15x2_S1x1_3_0))) _ (rem c 76) _ (by rw [duties_agccw_s_2_1 X c]; exact Finset.mem_singleton_self _) (by rw [duties_agccw_r_3_0 X (prv c)]; exact Finset.mem_singleton_self _) (by exact amount_agccw_s_2_1 X c false) (by exact amount_agccw_r_3_0 X (prv c) false) (by rfl) (by exact payload_agccw_s_2_1 X c false) (by exact hp2_agccw_r_3_0 X c) (by rfl) (by routes)) $$ [Hg_agccw_r_2_0 Hd_agccw_r_3_0 HO Hts_agccw_s_2_1 Htn_agccw_r_3_0]
  · isplitr; · iexact HIo
    isplitr; · iexact HIt
    isplitl [Hg_agccw_r_2_0]; · iexact Hg_agccw_r_2_0
    isplitl [Hd_agccw_r_3_0]; · iexact Hd_agccw_r_3_0
    isplitl [HO]; · iexact HO
    isplitl [Hts_agccw_s_2_1]; · iexact Hts_agccw_s_2_1
    isplitr; · iexact Hrch_agccw_s_2_1
    isplitl [Htn_agccw_r_3_0]; · iexact Htn_agccw_r_3_0
    iexact Hrn_agccw_r_3_0
  iintro ⟨Hcs_agccw_s_2_1, HO⟩
  iclear HIo HIt
  -- wait recv ag cw t=2 b=1
  try sl_exec_parts
  ihave #HIo := (bigSepL_elim_idx ownQs _ 51 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 76) (W := _) (R := 0) (m := 0) (T := ∅)
      (by rw [Nat.zero_add, expect_agcw_r_2_1 X c])) $$ [Hc_agcw_r_2_1 HO Hat_agcw_r_2_1]
  · isplitr; · iexact HIo
    isplitl [Hc_agcw_r_2_1]; · iexact Hc_agcw_r_2_1
    isplitl [HO]; · iexact HO
    isplitr; · iapply (mayWait_rem (F := F) c 76 (by decide) _ (by show (74 : ℕ) < 2 + 76; decide)); iexact Hlev
    iexact Hat_agcw_r_2_1
  iintro ⟨HO, Hat_agcw_r_2_1, #Hrch_agcw_r_2_1_1, Hpay⟩
  iclear HIo
  ihave Hp := (Entails.of_eq (rest_single X _ _ _ (duties_agcw_r_2_1 X c) (payload_agcw_r_2_1 X c false))) $$ Hpay
  irename Hp => Hg_agcw_r_2_1
  -- wait send ag cw t=1 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 76) (W := _) (R := 0) (m := 0) (T := ∅)
      (by rw [Nat.zero_add, expect_agcw_s_3_0 X c])) $$ [Hcs_agcw_s_3_0 HO Hat_agcw_s_3]
  · isplitr; · iexact HIo
    isplitl [Hcs_agcw_s_3_0]; · iexact Hcs_agcw_s_3_0
    isplitl [HO]; · iexact HO
    isplitr; · iapply (mayWait_rem (F := F) c 76 (by decide) _ (by show (0 : ℕ) < 2 + 76; decide)); iexact Hlev
    iexact Hat_agcw_s_3
  iintro ⟨HO, Hat_agcw_s_3, #Hrch_agcw_s_3_1, Hpay⟩
  iclear HIo
  ihave Hp := (Entails.of_eq (rest_single X _ _ _ (duties_agcw_s_3_0 X c) (payload_agcw_s_3_0 X c false))) $$ Hpay
  irename Hp => Hback_agcw_r_0_1
  -- send ag cw t=3 b=1 (payment 76, device function 77)
  try sl_exec_parts
  ihave HO := (owes_congr (rem_peel_76 c)) $$ HO
  ihave #HIo := (bigSepL_elim_idx ownQs _ 11 (by decide)) $$ HInvOwn
  ihave #HIt := (bigSepL_elim_idx recvCw _ 37 (by decide)) $$ HInbCw
  iapply (@send_owns_at F _ X c (nxt c) ⟨k0_dev77 c, k0_dev77_lt c⟩ (dev77_eq c _) (rows oM (off true (c.val + 13) 1) (off_inb true _ 1)) (rows oM (off true (c.val + 13) 1) (off_inb true _ 1)) _ (qS cc0_scratch6 3 inb_S4_S1_3) (qR cc0_scratch7 3 1 inb_S15x2_S1x1_3_1) _ _ _ _ _ _ fullShare (doneV X true 1 (devAt c 13)) 1 (K (dcell c (qS cc0_scratch6 3 inb_S4_S1_3))) (K (dcell (nxt c) (qR cc0_scratch7 3 1 inb_S15x2_S1x1_3_1))) _ (rem c 77) _ (by rw [duties_agcw_s_3_1 X c]; exact Finset.mem_singleton_self _) (by rw [duties_agcw_r_3_1 X (nxt c)]; exact Finset.mem_singleton_self _) (by exact amount_agcw_s_3_1 X c false) (by exact amount_agcw_r_3_1 X (nxt c) false) (by rfl) (by exact payload_agcw_s_3_1 X c false) (by exact hp2_agcw_r_3_1 X c) (by rfl) (by routes)) $$ [Hg_agcw_r_2_1 Hd_agcw_r_3_1 HO Hts_agcw_s_3_1 Htn_agcw_r_3_1]
  · isplitr; · iexact HIo
    isplitr; · iexact HIt
    isplitl [Hg_agcw_r_2_1]; · iexact Hg_agcw_r_2_1
    isplitl [Hd_agcw_r_3_1]; · iexact Hd_agcw_r_3_1
    isplitl [HO]; · iexact HO
    isplitl [Hts_agcw_s_3_1]; · iexact Hts_agcw_s_3_1
    isplitr; · iexact Hrch_agcw_s_3_1
    isplitl [Htn_agcw_r_3_1]; · iexact Htn_agcw_r_3_1
    iexact Hrn_agcw_r_3_1
  iintro ⟨Hcs_agcw_s_3_1, HO⟩
  iclear HIo HIt
  -- wait recv ag ccw t=2 b=1
  try sl_exec_parts
  ihave #HIo := (bigSepL_elim_idx ownQs _ 111 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 77) (W := _) (R := 0) (m := 0) (T := ∅)
      (by rw [Nat.zero_add, expect_agccw_r_2_1 X c])) $$ [Hc_agccw_r_2_1 HO Hat_agccw_r_2_1]
  · isplitr; · iexact HIo
    isplitl [Hc_agccw_r_2_1]; · iexact Hc_agccw_r_2_1
    isplitl [HO]; · iexact HO
    isplitr; · iapply (mayWait_rem (F := F) c 77 (by decide) _ (by show (75 : ℕ) < 2 + 77; decide)); iexact Hlev
    iexact Hat_agccw_r_2_1
  iintro ⟨HO, Hat_agccw_r_2_1, #Hrch_agccw_r_2_1_1, Hpay⟩
  iclear HIo
  ihave Hp := (Entails.of_eq (rest_single X _ _ _ (duties_agccw_r_2_1 X c) (payload_agccw_r_2_1 X c false))) $$ Hpay
  irename Hp => Hg_agccw_r_2_1
  -- wait send ag ccw t=1 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 77) (W := _) (R := 0) (m := 0) (T := ∅)
      (by rw [Nat.zero_add, expect_agccw_s_3_0 X c])) $$ [Hcs_agccw_s_3_0 HO Hat_agccw_s_3]
  · isplitr; · iexact HIo
    isplitl [Hcs_agccw_s_3_0]; · iexact Hcs_agccw_s_3_0
    isplitl [HO]; · iexact HO
    isplitr; · iapply (mayWait_rem (F := F) c 77 (by decide) _ (by show (0 : ℕ) < 2 + 77; decide)); iexact Hlev
    iexact Hat_agccw_s_3
  iintro ⟨HO, Hat_agccw_s_3, #Hrch_agccw_s_3_1, Hpay⟩
  iclear HIo
  ihave Hp := (Entails.of_eq (rest_single X _ _ _ (duties_agccw_s_3_0 X c) (payload_agccw_s_3_0 X c false))) $$ Hpay
  irename Hp => Hback_agccw_r_0_1
  -- send ag ccw t=3 b=1 (payment 77, device function 78)
  try sl_exec_parts
  ihave HO := (owes_congr (rem_peel_77 c)) $$ HO
  ihave #HIo := (bigSepL_elim_idx ownQs _ 15 (by decide)) $$ HInvOwn
  ihave #HIt := (bigSepL_elim_idx recvCcw _ 37 (by decide)) $$ HInbCcw
  iapply (@send_owns_at F _ X c (prv c) ⟨k0_dev78 c, k0_dev78_lt c⟩ (dev78_eq c _) (rows oM (off false (c.val + 3) 1) (off_inb false _ 1)) (rows oM (off false (c.val + 3) 1) (off_inb false _ 1)) _ (qS cc0_scratch8 3 inb_S4_S1_3) (qR cc0_scratch9 3 1 inb_S15x2_S1x1_3_1) _ _ _ _ _ _ fullShare (doneV X false 1 (devAt c 3)) 1 (K (dcell c (qS cc0_scratch8 3 inb_S4_S1_3))) (K (dcell (prv c) (qR cc0_scratch9 3 1 inb_S15x2_S1x1_3_1))) _ (rem c 78) _ (by rw [duties_agccw_s_3_1 X c]; exact Finset.mem_singleton_self _) (by rw [duties_agccw_r_3_1 X (prv c)]; exact Finset.mem_singleton_self _) (by exact amount_agccw_s_3_1 X c false) (by exact amount_agccw_r_3_1 X (prv c) false) (by rfl) (by exact payload_agccw_s_3_1 X c false) (by exact hp2_agccw_r_3_1 X c) (by rfl) (by routes)) $$ [Hg_agccw_r_2_1 Hd_agccw_r_3_1 HO Hts_agccw_s_3_1 Htn_agccw_r_3_1]
  · isplitr; · iexact HIo
    isplitr; · iexact HIt
    isplitl [Hg_agccw_r_2_1]; · iexact Hg_agccw_r_2_1
    isplitl [Hd_agccw_r_3_1]; · iexact Hd_agccw_r_3_1
    isplitl [HO]; · iexact HO
    isplitl [Hts_agccw_s_3_1]; · iexact Hts_agccw_s_3_1
    isplitr; · iexact Hrch_agccw_s_3_1
    isplitl [Htn_agccw_r_3_1]; · iexact Htn_agccw_r_3_1
    iexact Hrn_agccw_r_3_1
  iintro ⟨Hcs_agccw_s_3_1, HO⟩
  iclear HIo HIt
  -- wait recv ag cw t=3 b=0
  try sl_exec_parts
  ihave #HIo := (bigSepL_elim_idx ownQs _ 52 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 78) (W := _) (R := 0) (m := 0) (T := ∅)
      (by rw [Nat.zero_add, expect_agcw_r_3_0 X c])) $$ [Hc_agcw_r_3_0 HO Hat_agcw_r_3_0]
  · isplitr; · iexact HIo
    isplitl [Hc_agcw_r_3_0]; · iexact Hc_agcw_r_3_0
    isplitl [HO]; · iexact HO
    isplitr; · iapply (mayWait_rem (F := F) c 78 (by decide) _ (by show (76 : ℕ) < 2 + 78; decide)); iexact Hlev
    iexact Hat_agcw_r_3_0
  iintro ⟨HO, Hat_agcw_r_3_0, #Hrch_agcw_r_3_0_1, Hpay⟩
  iclear HIo
  ihave Hp := (Entails.of_eq (rest_single X _ _ _ (duties_agcw_r_3_0 X c) (payload_agcw_r_3_0 X c false))) $$ Hpay
  irename Hp => Hg_agcw_r_3_0
  -- wait send ag cw t=2 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 78) (W := _) (R := 1) (m := 0) (T := ∅)
      (by rw [Nat.zero_add, expect_agcw_s_0_1 X c])) $$ [Hcs_agcw_s_0_1 HO Hat_agcw_s_0]
  · isplitr; · iexact HIo
    isplitl [Hcs_agcw_s_0_1]; · iexact Hcs_agcw_s_0_1
    isplitl [HO]; · iexact HO
    isplitr; · iapply (mayWait_rem (F := F) c 78 (by decide) _ (by show (0 : ℕ) < 2 + 78; decide)); iexact Hlev
    iexact Hat_agcw_s_0
  iintro ⟨HO, Hat_agcw_s_0, #Hrch_agcw_s_0_2, Hpay⟩
  iclear HIo
  ihave Hp := (Entails.of_eq (rest_single X _ _ _ (duties_agcw_s_0_1 X c) (payload_agcw_s_0_1 X c false))) $$ Hpay
  irename Hp => Hback_agcw_r_1_0
  -- send ag cw t=4 b=0 (payment 78, device function 79)
  try sl_exec_parts
  ihave HO := (owes_congr (rem_peel_78 c)) $$ HO
  ihave #HIo := (bigSepL_elim_idx ownQs _ 8 (by decide)) $$ HInvOwn
  ihave #HIt := (bigSepL_elim_idx recvCw _ 38 (by decide)) $$ HInbCw
  iapply (@send_owns_at F _ X c (nxt c) ⟨k0_dev79 c, k0_dev79_lt c⟩ (dev79_eq c _) (rows oM (off true (c.val + 12) 0) (off_inb true _ 0)) (rows oM (off true (c.val + 12) 0) (off_inb true _ 0)) _ (qS cc0_scratch6 0 inb_S4_S1_0) (qR cc0_scratch7 4 0 inb_S15x2_S1x1_4_0) _ _ _ _ _ _ fullShare (doneV X true 0 (devAt c 12)) 2 (K (dcell c (qS cc0_scratch6 0 inb_S4_S1_0))) (K (dcell (nxt c) (qR cc0_scratch7 4 0 inb_S15x2_S1x1_4_0))) _ (rem c 79) _ (by rw [duties_agcw_s_0_2 X c]; exact Finset.mem_singleton_self _) (by rw [duties_agcw_r_4_0 X (nxt c)]; exact Finset.mem_singleton_self _) (by exact amount_agcw_s_0_2 X c false) (by exact amount_agcw_r_4_0 X (nxt c) false) (by rfl) (by exact payload_agcw_s_0_2 X c false) (by exact hp2_agcw_r_4_0 X c) (by rfl) (by routes)) $$ [Hg_agcw_r_3_0 Hd_agcw_r_4_0 HO Hts_agcw_s_0_2 Htn_agcw_r_4_0]
  · isplitr; · iexact HIo
    isplitr; · iexact HIt
    isplitl [Hg_agcw_r_3_0]; · iexact Hg_agcw_r_3_0
    isplitl [Hd_agcw_r_4_0]; · iexact Hd_agcw_r_4_0
    isplitl [HO]; · iexact HO
    isplitl [Hts_agcw_s_0_2]; · iexact Hts_agcw_s_0_2
    isplitr; · iexact Hrch_agcw_s_0_2
    isplitl [Htn_agcw_r_4_0]; · iexact Htn_agcw_r_4_0
    iexact Hrn_agcw_r_4_0
  iintro ⟨Hcs_agcw_s_0_2, HO⟩
  iclear HIo HIt
  -- wait recv ag ccw t=3 b=0
  try sl_exec_parts
  ihave #HIo := (bigSepL_elim_idx ownQs _ 112 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 79) (W := _) (R := 0) (m := 0) (T := ∅)
      (by rw [Nat.zero_add, expect_agccw_r_3_0 X c])) $$ [Hc_agccw_r_3_0 HO Hat_agccw_r_3_0]
  · isplitr; · iexact HIo
    isplitl [Hc_agccw_r_3_0]; · iexact Hc_agccw_r_3_0
    isplitl [HO]; · iexact HO
    isplitr; · iapply (mayWait_rem (F := F) c 79 (by decide) _ (by show (77 : ℕ) < 2 + 79; decide)); iexact Hlev
    iexact Hat_agccw_r_3_0
  iintro ⟨HO, Hat_agccw_r_3_0, #Hrch_agccw_r_3_0_1, Hpay⟩
  iclear HIo
  ihave Hp := (Entails.of_eq (rest_single X _ _ _ (duties_agccw_r_3_0 X c) (payload_agccw_r_3_0 X c false))) $$ Hpay
  irename Hp => Hg_agccw_r_3_0
  -- wait send ag ccw t=2 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 79) (W := _) (R := 1) (m := 0) (T := ∅)
      (by rw [Nat.zero_add, expect_agccw_s_0_1 X c])) $$ [Hcs_agccw_s_0_1 HO Hat_agccw_s_0]
  · isplitr; · iexact HIo
    isplitl [Hcs_agccw_s_0_1]; · iexact Hcs_agccw_s_0_1
    isplitl [HO]; · iexact HO
    isplitr; · iapply (mayWait_rem (F := F) c 79 (by decide) _ (by show (0 : ℕ) < 2 + 79; decide)); iexact Hlev
    iexact Hat_agccw_s_0
  iintro ⟨HO, Hat_agccw_s_0, #Hrch_agccw_s_0_2, Hpay⟩
  iclear HIo
  ihave Hp := (Entails.of_eq (rest_single X _ _ _ (duties_agccw_s_0_1 X c) (payload_agccw_s_0_1 X c false))) $$ Hpay
  irename Hp => Hback_agccw_r_1_0
  -- send ag ccw t=4 b=0 (payment 79, device function 80)
  try sl_exec_parts
  ihave HO := (owes_congr (rem_peel_79 c)) $$ HO
  ihave #HIo := (bigSepL_elim_idx ownQs _ 12 (by decide)) $$ HInvOwn
  ihave #HIt := (bigSepL_elim_idx recvCcw _ 38 (by decide)) $$ HInbCcw
  iapply (@send_owns_at F _ X c (prv c) ⟨k0_dev80 c, k0_dev80_lt c⟩ (dev80_eq c _) (rows oM (off false (c.val + 4) 0) (off_inb false _ 0)) (rows oM (off false (c.val + 4) 0) (off_inb false _ 0)) _ (qS cc0_scratch8 0 inb_S4_S1_0) (qR cc0_scratch9 4 0 inb_S15x2_S1x1_4_0) _ _ _ _ _ _ fullShare (doneV X false 0 (devAt c 4)) 2 (K (dcell c (qS cc0_scratch8 0 inb_S4_S1_0))) (K (dcell (prv c) (qR cc0_scratch9 4 0 inb_S15x2_S1x1_4_0))) _ (rem c 80) _ (by rw [duties_agccw_s_0_2 X c]; exact Finset.mem_singleton_self _) (by rw [duties_agccw_r_4_0 X (prv c)]; exact Finset.mem_singleton_self _) (by exact amount_agccw_s_0_2 X c false) (by exact amount_agccw_r_4_0 X (prv c) false) (by rfl) (by exact payload_agccw_s_0_2 X c false) (by exact hp2_agccw_r_4_0 X c) (by rfl) (by routes)) $$ [Hg_agccw_r_3_0 Hd_agccw_r_4_0 HO Hts_agccw_s_0_2 Htn_agccw_r_4_0]
  · isplitr; · iexact HIo
    isplitr; · iexact HIt
    isplitl [Hg_agccw_r_3_0]; · iexact Hg_agccw_r_3_0
    isplitl [Hd_agccw_r_4_0]; · iexact Hd_agccw_r_4_0
    isplitl [HO]; · iexact HO
    isplitl [Hts_agccw_s_0_2]; · iexact Hts_agccw_s_0_2
    isplitr; · iexact Hrch_agccw_s_0_2
    isplitl [Htn_agccw_r_4_0]; · iexact Htn_agccw_r_4_0
    iexact Hrn_agccw_r_4_0
  iintro ⟨Hcs_agccw_s_0_2, HO⟩
  iclear HIo HIt
  -- wait recv ag cw t=3 b=1
  try sl_exec_parts
  ihave #HIo := (bigSepL_elim_idx ownQs _ 53 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 80) (W := _) (R := 0) (m := 0) (T := ∅)
      (by rw [Nat.zero_add, expect_agcw_r_3_1 X c])) $$ [Hc_agcw_r_3_1 HO Hat_agcw_r_3_1]
  · isplitr; · iexact HIo
    isplitl [Hc_agcw_r_3_1]; · iexact Hc_agcw_r_3_1
    isplitl [HO]; · iexact HO
    isplitr; · iapply (mayWait_rem (F := F) c 80 (by decide) _ (by show (78 : ℕ) < 2 + 80; decide)); iexact Hlev
    iexact Hat_agcw_r_3_1
  iintro ⟨HO, Hat_agcw_r_3_1, #Hrch_agcw_r_3_1_1, Hpay⟩
  iclear HIo
  ihave Hp := (Entails.of_eq (rest_single X _ _ _ (duties_agcw_r_3_1 X c) (payload_agcw_r_3_1 X c false))) $$ Hpay
  irename Hp => Hg_agcw_r_3_1
  -- wait send ag cw t=2 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 80) (W := _) (R := 1) (m := 0) (T := ∅)
      (by rw [Nat.zero_add, expect_agcw_s_1_1 X c])) $$ [Hcs_agcw_s_1_1 HO Hat_agcw_s_1]
  · isplitr; · iexact HIo
    isplitl [Hcs_agcw_s_1_1]; · iexact Hcs_agcw_s_1_1
    isplitl [HO]; · iexact HO
    isplitr; · iapply (mayWait_rem (F := F) c 80 (by decide) _ (by show (0 : ℕ) < 2 + 80; decide)); iexact Hlev
    iexact Hat_agcw_s_1
  iintro ⟨HO, Hat_agcw_s_1, #Hrch_agcw_s_1_2, Hpay⟩
  iclear HIo
  ihave Hp := (Entails.of_eq (rest_single X _ _ _ (duties_agcw_s_1_1 X c) (payload_agcw_s_1_1 X c false))) $$ Hpay
  irename Hp => Hback_agcw_r_1_1
  -- send ag cw t=4 b=1 (payment 80, device function 81)
  try sl_exec_parts
  ihave HO := (owes_congr (rem_peel_80 c)) $$ HO
  ihave #HIo := (bigSepL_elim_idx ownQs _ 9 (by decide)) $$ HInvOwn
  ihave #HIt := (bigSepL_elim_idx recvCw _ 39 (by decide)) $$ HInbCw
  iapply (@send_owns_at F _ X c (nxt c) ⟨k0_dev81 c, k0_dev81_lt c⟩ (dev81_eq c _) (rows oM (off true (c.val + 12) 1) (off_inb true _ 1)) (rows oM (off true (c.val + 12) 1) (off_inb true _ 1)) _ (qS cc0_scratch6 1 inb_S4_S1_1) (qR cc0_scratch7 4 1 inb_S15x2_S1x1_4_1) _ _ _ _ _ _ fullShare (doneV X true 1 (devAt c 12)) 2 (K (dcell c (qS cc0_scratch6 1 inb_S4_S1_1))) (K (dcell (nxt c) (qR cc0_scratch7 4 1 inb_S15x2_S1x1_4_1))) _ (rem c 81) _ (by rw [duties_agcw_s_1_2 X c]; exact Finset.mem_singleton_self _) (by rw [duties_agcw_r_4_1 X (nxt c)]; exact Finset.mem_singleton_self _) (by exact amount_agcw_s_1_2 X c false) (by exact amount_agcw_r_4_1 X (nxt c) false) (by rfl) (by exact payload_agcw_s_1_2 X c false) (by exact hp2_agcw_r_4_1 X c) (by rfl) (by routes)) $$ [Hg_agcw_r_3_1 Hd_agcw_r_4_1 HO Hts_agcw_s_1_2 Htn_agcw_r_4_1]
  · isplitr; · iexact HIo
    isplitr; · iexact HIt
    isplitl [Hg_agcw_r_3_1]; · iexact Hg_agcw_r_3_1
    isplitl [Hd_agcw_r_4_1]; · iexact Hd_agcw_r_4_1
    isplitl [HO]; · iexact HO
    isplitl [Hts_agcw_s_1_2]; · iexact Hts_agcw_s_1_2
    isplitr; · iexact Hrch_agcw_s_1_2
    isplitl [Htn_agcw_r_4_1]; · iexact Htn_agcw_r_4_1
    iexact Hrn_agcw_r_4_1
  iintro ⟨Hcs_agcw_s_1_2, HO⟩
  iclear HIo HIt
  -- wait recv ag ccw t=3 b=1
  try sl_exec_parts
  ihave #HIo := (bigSepL_elim_idx ownQs _ 113 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 81) (W := _) (R := 0) (m := 0) (T := ∅)
      (by rw [Nat.zero_add, expect_agccw_r_3_1 X c])) $$ [Hc_agccw_r_3_1 HO Hat_agccw_r_3_1]
  · isplitr; · iexact HIo
    isplitl [Hc_agccw_r_3_1]; · iexact Hc_agccw_r_3_1
    isplitl [HO]; · iexact HO
    isplitr; · iapply (mayWait_rem (F := F) c 81 (by decide) _ (by show (79 : ℕ) < 2 + 81; decide)); iexact Hlev
    iexact Hat_agccw_r_3_1
  iintro ⟨HO, Hat_agccw_r_3_1, #Hrch_agccw_r_3_1_1, Hpay⟩
  iclear HIo
  ihave Hp := (Entails.of_eq (rest_single X _ _ _ (duties_agccw_r_3_1 X c) (payload_agccw_r_3_1 X c false))) $$ Hpay
  irename Hp => Hg_agccw_r_3_1
  -- wait send ag ccw t=2 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 81) (W := _) (R := 1) (m := 0) (T := ∅)
      (by rw [Nat.zero_add, expect_agccw_s_1_1 X c])) $$ [Hcs_agccw_s_1_1 HO Hat_agccw_s_1]
  · isplitr; · iexact HIo
    isplitl [Hcs_agccw_s_1_1]; · iexact Hcs_agccw_s_1_1
    isplitl [HO]; · iexact HO
    isplitr; · iapply (mayWait_rem (F := F) c 81 (by decide) _ (by show (0 : ℕ) < 2 + 81; decide)); iexact Hlev
    iexact Hat_agccw_s_1
  iintro ⟨HO, Hat_agccw_s_1, #Hrch_agccw_s_1_2, Hpay⟩
  iclear HIo
  ihave Hp := (Entails.of_eq (rest_single X _ _ _ (duties_agccw_s_1_1 X c) (payload_agccw_s_1_1 X c false))) $$ Hpay
  irename Hp => Hback_agccw_r_1_1
  -- send ag ccw t=4 b=1 (payment 81, device function 82)
  try sl_exec_parts
  ihave HO := (owes_congr (rem_peel_81 c)) $$ HO
  ihave #HIo := (bigSepL_elim_idx ownQs _ 13 (by decide)) $$ HInvOwn
  ihave #HIt := (bigSepL_elim_idx recvCcw _ 39 (by decide)) $$ HInbCcw
  iapply (@send_owns_at F _ X c (prv c) ⟨k0_dev82 c, k0_dev82_lt c⟩ (dev82_eq c _) (rows oM (off false (c.val + 4) 1) (off_inb false _ 1)) (rows oM (off false (c.val + 4) 1) (off_inb false _ 1)) _ (qS cc0_scratch8 1 inb_S4_S1_1) (qR cc0_scratch9 4 1 inb_S15x2_S1x1_4_1) _ _ _ _ _ _ fullShare (doneV X false 1 (devAt c 4)) 2 (K (dcell c (qS cc0_scratch8 1 inb_S4_S1_1))) (K (dcell (prv c) (qR cc0_scratch9 4 1 inb_S15x2_S1x1_4_1))) _ (rem c 82) _ (by rw [duties_agccw_s_1_2 X c]; exact Finset.mem_singleton_self _) (by rw [duties_agccw_r_4_1 X (prv c)]; exact Finset.mem_singleton_self _) (by exact amount_agccw_s_1_2 X c false) (by exact amount_agccw_r_4_1 X (prv c) false) (by rfl) (by exact payload_agccw_s_1_2 X c false) (by exact hp2_agccw_r_4_1 X c) (by rfl) (by routes)) $$ [Hg_agccw_r_3_1 Hd_agccw_r_4_1 HO Hts_agccw_s_1_2 Htn_agccw_r_4_1]
  · isplitr; · iexact HIo
    isplitr; · iexact HIt
    isplitl [Hg_agccw_r_3_1]; · iexact Hg_agccw_r_3_1
    isplitl [Hd_agccw_r_4_1]; · iexact Hd_agccw_r_4_1
    isplitl [HO]; · iexact HO
    isplitl [Hts_agccw_s_1_2]; · iexact Hts_agccw_s_1_2
    isplitr; · iexact Hrch_agccw_s_1_2
    isplitl [Htn_agccw_r_4_1]; · iexact Htn_agccw_r_4_1
    iexact Hrn_agccw_r_4_1
  iintro ⟨Hcs_agccw_s_1_2, HO⟩
  iclear HIo HIt
  -- wait recv ag cw t=4 b=0
  try sl_exec_parts
  ihave #HIo := (bigSepL_elim_idx ownQs _ 54 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 82) (W := _) (R := 0) (m := 0) (T := ∅)
      (by rw [Nat.zero_add, expect_agcw_r_4_0 X c])) $$ [Hc_agcw_r_4_0 HO Hat_agcw_r_4_0]
  · isplitr; · iexact HIo
    isplitl [Hc_agcw_r_4_0]; · iexact Hc_agcw_r_4_0
    isplitl [HO]; · iexact HO
    isplitr; · iapply (mayWait_rem (F := F) c 82 (by decide) _ (by show (80 : ℕ) < 2 + 82; decide)); iexact Hlev
    iexact Hat_agcw_r_4_0
  iintro ⟨HO, Hat_agcw_r_4_0, #Hrch_agcw_r_4_0_1, Hpay⟩
  iclear HIo
  ihave Hp := (Entails.of_eq (rest_single X _ _ _ (duties_agcw_r_4_0 X c) (payload_agcw_r_4_0 X c false))) $$ Hpay
  irename Hp => Hg_agcw_r_4_0
  -- wait send ag cw t=3 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 82) (W := _) (R := 1) (m := 0) (T := ∅)
      (by rw [Nat.zero_add, expect_agcw_s_2_1 X c])) $$ [Hcs_agcw_s_2_1 HO Hat_agcw_s_2]
  · isplitr; · iexact HIo
    isplitl [Hcs_agcw_s_2_1]; · iexact Hcs_agcw_s_2_1
    isplitl [HO]; · iexact HO
    isplitr; · iapply (mayWait_rem (F := F) c 82 (by decide) _ (by show (0 : ℕ) < 2 + 82; decide)); iexact Hlev
    iexact Hat_agcw_s_2
  iintro ⟨HO, Hat_agcw_s_2, #Hrch_agcw_s_2_2, Hpay⟩
  iclear HIo
  ihave Hp := (Entails.of_eq (rest_single X _ _ _ (duties_agcw_s_2_1 X c) (payload_agcw_s_2_1 X c false))) $$ Hpay
  irename Hp => Hback_agcw_r_2_0
  -- send ag cw t=5 b=0 (payment 82, device function 83)
  try sl_exec_parts
  ihave HO := (owes_congr (rem_peel_82 c)) $$ HO
  ihave #HIo := (bigSepL_elim_idx ownQs _ 10 (by decide)) $$ HInvOwn
  ihave #HIt := (bigSepL_elim_idx recvCw _ 40 (by decide)) $$ HInbCw
  iapply (@send_owns_at F _ X c (nxt c) ⟨k0_dev83 c, k0_dev83_lt c⟩ (dev83_eq c _) (rows oM (off true (c.val + 11) 0) (off_inb true _ 0)) (rows oM (off true (c.val + 11) 0) (off_inb true _ 0)) _ (qS cc0_scratch6 2 inb_S4_S1_2) (qR cc0_scratch7 5 0 inb_S15x2_S1x1_5_0) _ _ _ _ _ _ fullShare (doneV X true 0 (devAt c 11)) 2 (K (dcell c (qS cc0_scratch6 2 inb_S4_S1_2))) (K (dcell (nxt c) (qR cc0_scratch7 5 0 inb_S15x2_S1x1_5_0))) _ (rem c 83) _ (by rw [duties_agcw_s_2_2 X c]; exact Finset.mem_singleton_self _) (by rw [duties_agcw_r_5_0 X (nxt c)]; exact Finset.mem_singleton_self _) (by exact amount_agcw_s_2_2 X c false) (by exact amount_agcw_r_5_0 X (nxt c) false) (by rfl) (by exact payload_agcw_s_2_2 X c false) (by exact hp2_agcw_r_5_0 X c) (by rfl) (by routes)) $$ [Hg_agcw_r_4_0 Hd_agcw_r_5_0 HO Hts_agcw_s_2_2 Htn_agcw_r_5_0]
  · isplitr; · iexact HIo
    isplitr; · iexact HIt
    isplitl [Hg_agcw_r_4_0]; · iexact Hg_agcw_r_4_0
    isplitl [Hd_agcw_r_5_0]; · iexact Hd_agcw_r_5_0
    isplitl [HO]; · iexact HO
    isplitl [Hts_agcw_s_2_2]; · iexact Hts_agcw_s_2_2
    isplitr; · iexact Hrch_agcw_s_2_2
    isplitl [Htn_agcw_r_5_0]; · iexact Htn_agcw_r_5_0
    iexact Hrn_agcw_r_5_0
  iintro ⟨Hcs_agcw_s_2_2, HO⟩
  iclear HIo HIt
  -- wait recv ag ccw t=4 b=0
  try sl_exec_parts
  ihave #HIo := (bigSepL_elim_idx ownQs _ 114 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 83) (W := _) (R := 0) (m := 0) (T := ∅)
      (by rw [Nat.zero_add, expect_agccw_r_4_0 X c])) $$ [Hc_agccw_r_4_0 HO Hat_agccw_r_4_0]
  · isplitr; · iexact HIo
    isplitl [Hc_agccw_r_4_0]; · iexact Hc_agccw_r_4_0
    isplitl [HO]; · iexact HO
    isplitr; · iapply (mayWait_rem (F := F) c 83 (by decide) _ (by show (81 : ℕ) < 2 + 83; decide)); iexact Hlev
    iexact Hat_agccw_r_4_0
  iintro ⟨HO, Hat_agccw_r_4_0, #Hrch_agccw_r_4_0_1, Hpay⟩
  iclear HIo
  ihave Hp := (Entails.of_eq (rest_single X _ _ _ (duties_agccw_r_4_0 X c) (payload_agccw_r_4_0 X c false))) $$ Hpay
  irename Hp => Hg_agccw_r_4_0
  -- wait send ag ccw t=3 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 83) (W := _) (R := 1) (m := 0) (T := ∅)
      (by rw [Nat.zero_add, expect_agccw_s_2_1 X c])) $$ [Hcs_agccw_s_2_1 HO Hat_agccw_s_2]
  · isplitr; · iexact HIo
    isplitl [Hcs_agccw_s_2_1]; · iexact Hcs_agccw_s_2_1
    isplitl [HO]; · iexact HO
    isplitr; · iapply (mayWait_rem (F := F) c 83 (by decide) _ (by show (0 : ℕ) < 2 + 83; decide)); iexact Hlev
    iexact Hat_agccw_s_2
  iintro ⟨HO, Hat_agccw_s_2, #Hrch_agccw_s_2_2, Hpay⟩
  iclear HIo
  ihave Hp := (Entails.of_eq (rest_single X _ _ _ (duties_agccw_s_2_1 X c) (payload_agccw_s_2_1 X c false))) $$ Hpay
  irename Hp => Hback_agccw_r_2_0
  -- send ag ccw t=5 b=0 (payment 83, device function 84)
  try sl_exec_parts
  ihave HO := (owes_congr (rem_peel_83 c)) $$ HO
  ihave #HIo := (bigSepL_elim_idx ownQs _ 14 (by decide)) $$ HInvOwn
  ihave #HIt := (bigSepL_elim_idx recvCcw _ 40 (by decide)) $$ HInbCcw
  iapply (@send_owns_at F _ X c (prv c) ⟨k0_dev84 c, k0_dev84_lt c⟩ (dev84_eq c _) (rows oM (off false (c.val + 5) 0) (off_inb false _ 0)) (rows oM (off false (c.val + 5) 0) (off_inb false _ 0)) _ (qS cc0_scratch8 2 inb_S4_S1_2) (qR cc0_scratch9 5 0 inb_S15x2_S1x1_5_0) _ _ _ _ _ _ fullShare (doneV X false 0 (devAt c 5)) 2 (K (dcell c (qS cc0_scratch8 2 inb_S4_S1_2))) (K (dcell (prv c) (qR cc0_scratch9 5 0 inb_S15x2_S1x1_5_0))) _ (rem c 84) _ (by rw [duties_agccw_s_2_2 X c]; exact Finset.mem_singleton_self _) (by rw [duties_agccw_r_5_0 X (prv c)]; exact Finset.mem_singleton_self _) (by exact amount_agccw_s_2_2 X c false) (by exact amount_agccw_r_5_0 X (prv c) false) (by rfl) (by exact payload_agccw_s_2_2 X c false) (by exact hp2_agccw_r_5_0 X c) (by rfl) (by routes)) $$ [Hg_agccw_r_4_0 Hd_agccw_r_5_0 HO Hts_agccw_s_2_2 Htn_agccw_r_5_0]
  · isplitr; · iexact HIo
    isplitr; · iexact HIt
    isplitl [Hg_agccw_r_4_0]; · iexact Hg_agccw_r_4_0
    isplitl [Hd_agccw_r_5_0]; · iexact Hd_agccw_r_5_0
    isplitl [HO]; · iexact HO
    isplitl [Hts_agccw_s_2_2]; · iexact Hts_agccw_s_2_2
    isplitr; · iexact Hrch_agccw_s_2_2
    isplitl [Htn_agccw_r_5_0]; · iexact Htn_agccw_r_5_0
    iexact Hrn_agccw_r_5_0
  iintro ⟨Hcs_agccw_s_2_2, HO⟩
  iclear HIo HIt
  -- wait recv ag cw t=4 b=1
  try sl_exec_parts
  ihave #HIo := (bigSepL_elim_idx ownQs _ 55 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 84) (W := _) (R := 0) (m := 0) (T := ∅)
      (by rw [Nat.zero_add, expect_agcw_r_4_1 X c])) $$ [Hc_agcw_r_4_1 HO Hat_agcw_r_4_1]
  · isplitr; · iexact HIo
    isplitl [Hc_agcw_r_4_1]; · iexact Hc_agcw_r_4_1
    isplitl [HO]; · iexact HO
    isplitr; · iapply (mayWait_rem (F := F) c 84 (by decide) _ (by show (82 : ℕ) < 2 + 84; decide)); iexact Hlev
    iexact Hat_agcw_r_4_1
  iintro ⟨HO, Hat_agcw_r_4_1, #Hrch_agcw_r_4_1_1, Hpay⟩
  iclear HIo
  ihave Hp := (Entails.of_eq (rest_single X _ _ _ (duties_agcw_r_4_1 X c) (payload_agcw_r_4_1 X c false))) $$ Hpay
  irename Hp => Hg_agcw_r_4_1
  -- wait send ag cw t=3 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 84) (W := _) (R := 1) (m := 0) (T := ∅)
      (by rw [Nat.zero_add, expect_agcw_s_3_1 X c])) $$ [Hcs_agcw_s_3_1 HO Hat_agcw_s_3]
  · isplitr; · iexact HIo
    isplitl [Hcs_agcw_s_3_1]; · iexact Hcs_agcw_s_3_1
    isplitl [HO]; · iexact HO
    isplitr; · iapply (mayWait_rem (F := F) c 84 (by decide) _ (by show (0 : ℕ) < 2 + 84; decide)); iexact Hlev
    iexact Hat_agcw_s_3
  iintro ⟨HO, Hat_agcw_s_3, #Hrch_agcw_s_3_2, Hpay⟩
  iclear HIo
  ihave Hp := (Entails.of_eq (rest_single X _ _ _ (duties_agcw_s_3_1 X c) (payload_agcw_s_3_1 X c false))) $$ Hpay
  irename Hp => Hback_agcw_r_2_1
  -- send ag cw t=5 b=1 (payment 84, device function 85)
  try sl_exec_parts
  ihave HO := (owes_congr (rem_peel_84 c)) $$ HO
  ihave #HIo := (bigSepL_elim_idx ownQs _ 11 (by decide)) $$ HInvOwn
  ihave #HIt := (bigSepL_elim_idx recvCw _ 41 (by decide)) $$ HInbCw
  iapply (@send_owns_at F _ X c (nxt c) ⟨k0_dev85 c, k0_dev85_lt c⟩ (dev85_eq c _) (rows oM (off true (c.val + 11) 1) (off_inb true _ 1)) (rows oM (off true (c.val + 11) 1) (off_inb true _ 1)) _ (qS cc0_scratch6 3 inb_S4_S1_3) (qR cc0_scratch7 5 1 inb_S15x2_S1x1_5_1) _ _ _ _ _ _ fullShare (doneV X true 1 (devAt c 11)) 2 (K (dcell c (qS cc0_scratch6 3 inb_S4_S1_3))) (K (dcell (nxt c) (qR cc0_scratch7 5 1 inb_S15x2_S1x1_5_1))) _ (rem c 85) _ (by rw [duties_agcw_s_3_2 X c]; exact Finset.mem_singleton_self _) (by rw [duties_agcw_r_5_1 X (nxt c)]; exact Finset.mem_singleton_self _) (by exact amount_agcw_s_3_2 X c false) (by exact amount_agcw_r_5_1 X (nxt c) false) (by rfl) (by exact payload_agcw_s_3_2 X c false) (by exact hp2_agcw_r_5_1 X c) (by rfl) (by routes)) $$ [Hg_agcw_r_4_1 Hd_agcw_r_5_1 HO Hts_agcw_s_3_2 Htn_agcw_r_5_1]
  · isplitr; · iexact HIo
    isplitr; · iexact HIt
    isplitl [Hg_agcw_r_4_1]; · iexact Hg_agcw_r_4_1
    isplitl [Hd_agcw_r_5_1]; · iexact Hd_agcw_r_5_1
    isplitl [HO]; · iexact HO
    isplitl [Hts_agcw_s_3_2]; · iexact Hts_agcw_s_3_2
    isplitr; · iexact Hrch_agcw_s_3_2
    isplitl [Htn_agcw_r_5_1]; · iexact Htn_agcw_r_5_1
    iexact Hrn_agcw_r_5_1
  iintro ⟨Hcs_agcw_s_3_2, HO⟩
  iclear HIo HIt
  -- wait recv ag ccw t=4 b=1
  try sl_exec_parts
  ihave #HIo := (bigSepL_elim_idx ownQs _ 115 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 85) (W := _) (R := 0) (m := 0) (T := ∅)
      (by rw [Nat.zero_add, expect_agccw_r_4_1 X c])) $$ [Hc_agccw_r_4_1 HO Hat_agccw_r_4_1]
  · isplitr; · iexact HIo
    isplitl [Hc_agccw_r_4_1]; · iexact Hc_agccw_r_4_1
    isplitl [HO]; · iexact HO
    isplitr; · iapply (mayWait_rem (F := F) c 85 (by decide) _ (by show (83 : ℕ) < 2 + 85; decide)); iexact Hlev
    iexact Hat_agccw_r_4_1
  iintro ⟨HO, Hat_agccw_r_4_1, #Hrch_agccw_r_4_1_1, Hpay⟩
  iclear HIo
  ihave Hp := (Entails.of_eq (rest_single X _ _ _ (duties_agccw_r_4_1 X c) (payload_agccw_r_4_1 X c false))) $$ Hpay
  irename Hp => Hg_agccw_r_4_1
  -- wait send ag ccw t=3 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 85) (W := _) (R := 1) (m := 0) (T := ∅)
      (by rw [Nat.zero_add, expect_agccw_s_3_1 X c])) $$ [Hcs_agccw_s_3_1 HO Hat_agccw_s_3]
  · isplitr; · iexact HIo
    isplitl [Hcs_agccw_s_3_1]; · iexact Hcs_agccw_s_3_1
    isplitl [HO]; · iexact HO
    isplitr; · iapply (mayWait_rem (F := F) c 85 (by decide) _ (by show (0 : ℕ) < 2 + 85; decide)); iexact Hlev
    iexact Hat_agccw_s_3
  iintro ⟨HO, Hat_agccw_s_3, #Hrch_agccw_s_3_2, Hpay⟩
  iclear HIo
  ihave Hp := (Entails.of_eq (rest_single X _ _ _ (duties_agccw_s_3_1 X c) (payload_agccw_s_3_1 X c false))) $$ Hpay
  irename Hp => Hback_agccw_r_2_1
  -- send ag ccw t=5 b=1 (payment 85, device function 86)
  try sl_exec_parts
  ihave HO := (owes_congr (rem_peel_85 c)) $$ HO
  ihave #HIo := (bigSepL_elim_idx ownQs _ 15 (by decide)) $$ HInvOwn
  ihave #HIt := (bigSepL_elim_idx recvCcw _ 41 (by decide)) $$ HInbCcw
  iapply (@send_owns_at F _ X c (prv c) ⟨k0_dev86 c, k0_dev86_lt c⟩ (dev86_eq c _) (rows oM (off false (c.val + 5) 1) (off_inb false _ 1)) (rows oM (off false (c.val + 5) 1) (off_inb false _ 1)) _ (qS cc0_scratch8 3 inb_S4_S1_3) (qR cc0_scratch9 5 1 inb_S15x2_S1x1_5_1) _ _ _ _ _ _ fullShare (doneV X false 1 (devAt c 5)) 2 (K (dcell c (qS cc0_scratch8 3 inb_S4_S1_3))) (K (dcell (prv c) (qR cc0_scratch9 5 1 inb_S15x2_S1x1_5_1))) _ (rem c 86) _ (by rw [duties_agccw_s_3_2 X c]; exact Finset.mem_singleton_self _) (by rw [duties_agccw_r_5_1 X (prv c)]; exact Finset.mem_singleton_self _) (by exact amount_agccw_s_3_2 X c false) (by exact amount_agccw_r_5_1 X (prv c) false) (by rfl) (by exact payload_agccw_s_3_2 X c false) (by exact hp2_agccw_r_5_1 X c) (by rfl) (by routes)) $$ [Hg_agccw_r_4_1 Hd_agccw_r_5_1 HO Hts_agccw_s_3_2 Htn_agccw_r_5_1]
  · isplitr; · iexact HIo
    isplitr; · iexact HIt
    isplitl [Hg_agccw_r_4_1]; · iexact Hg_agccw_r_4_1
    isplitl [Hd_agccw_r_5_1]; · iexact Hd_agccw_r_5_1
    isplitl [HO]; · iexact HO
    isplitl [Hts_agccw_s_3_2]; · iexact Hts_agccw_s_3_2
    isplitr; · iexact Hrch_agccw_s_3_2
    isplitl [Htn_agccw_r_5_1]; · iexact Htn_agccw_r_5_1
    iexact Hrn_agccw_r_5_1
  iintro ⟨Hcs_agccw_s_3_2, HO⟩
  iclear HIo HIt
  -- wait recv ag cw t=5 b=0
  try sl_exec_parts
  ihave #HIo := (bigSepL_elim_idx ownQs _ 56 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 86) (W := _) (R := 0) (m := 0) (T := ∅)
      (by rw [Nat.zero_add, expect_agcw_r_5_0 X c])) $$ [Hc_agcw_r_5_0 HO Hat_agcw_r_5_0]
  · isplitr; · iexact HIo
    isplitl [Hc_agcw_r_5_0]; · iexact Hc_agcw_r_5_0
    isplitl [HO]; · iexact HO
    isplitr; · iapply (mayWait_rem (F := F) c 86 (by decide) _ (by show (84 : ℕ) < 2 + 86; decide)); iexact Hlev
    iexact Hat_agcw_r_5_0
  iintro ⟨HO, Hat_agcw_r_5_0, #Hrch_agcw_r_5_0_1, Hpay⟩
  iclear HIo
  ihave Hp := (Entails.of_eq (rest_single X _ _ _ (duties_agcw_r_5_0 X c) (payload_agcw_r_5_0 X c false))) $$ Hpay
  irename Hp => Hg_agcw_r_5_0
  -- wait send ag cw t=4 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 86) (W := _) (R := 2) (m := 0) (T := ∅)
      (by rw [Nat.zero_add, expect_agcw_s_0_2 X c])) $$ [Hcs_agcw_s_0_2 HO Hat_agcw_s_0]
  · isplitr; · iexact HIo
    isplitl [Hcs_agcw_s_0_2]; · iexact Hcs_agcw_s_0_2
    isplitl [HO]; · iexact HO
    isplitr; · iapply (mayWait_rem (F := F) c 86 (by decide) _ (by show (0 : ℕ) < 2 + 86; decide)); iexact Hlev
    iexact Hat_agcw_s_0
  iintro ⟨HO, Hat_agcw_s_0, #Hrch_agcw_s_0_3, Hpay⟩
  iclear HIo
  ihave Hp := (Entails.of_eq (rest_single X _ _ _ (duties_agcw_s_0_2 X c) (payload_agcw_s_0_2 X c false))) $$ Hpay
  irename Hp => Hback_agcw_r_3_0
  -- send ag cw t=6 b=0 (payment 86, device function 87)
  try sl_exec_parts
  ihave HO := (owes_congr (rem_peel_86 c)) $$ HO
  ihave #HIo := (bigSepL_elim_idx ownQs _ 8 (by decide)) $$ HInvOwn
  ihave #HIt := (bigSepL_elim_idx recvCw _ 42 (by decide)) $$ HInbCw
  iapply (@send_owns_at F _ X c (nxt c) ⟨k0_dev87 c, k0_dev87_lt c⟩ (dev87_eq c _) (rows oM (off true (c.val + 10) 0) (off_inb true _ 0)) (rows oM (off true (c.val + 10) 0) (off_inb true _ 0)) _ (qS cc0_scratch6 0 inb_S4_S1_0) (qR cc0_scratch7 6 0 inb_S15x2_S1x1_6_0) _ _ _ _ _ _ fullShare (doneV X true 0 (devAt c 10)) 3 (K (dcell c (qS cc0_scratch6 0 inb_S4_S1_0))) (K (dcell (nxt c) (qR cc0_scratch7 6 0 inb_S15x2_S1x1_6_0))) _ (rem c 87) _ (by rw [duties_agcw_s_0_3 X c]; exact Finset.mem_singleton_self _) (by rw [duties_agcw_r_6_0 X (nxt c)]; exact Finset.mem_singleton_self _) (by exact amount_agcw_s_0_3 X c false) (by exact amount_agcw_r_6_0 X (nxt c) false) (by rfl) (by exact payload_agcw_s_0_3 X c false) (by exact hp2_agcw_r_6_0 X c) (by rfl) (by routes)) $$ [Hg_agcw_r_5_0 Hd_agcw_r_6_0 HO Hts_agcw_s_0_3 Htn_agcw_r_6_0]
  · isplitr; · iexact HIo
    isplitr; · iexact HIt
    isplitl [Hg_agcw_r_5_0]; · iexact Hg_agcw_r_5_0
    isplitl [Hd_agcw_r_6_0]; · iexact Hd_agcw_r_6_0
    isplitl [HO]; · iexact HO
    isplitl [Hts_agcw_s_0_3]; · iexact Hts_agcw_s_0_3
    isplitr; · iexact Hrch_agcw_s_0_3
    isplitl [Htn_agcw_r_6_0]; · iexact Htn_agcw_r_6_0
    iexact Hrn_agcw_r_6_0
  iintro ⟨Hcs_agcw_s_0_3, HO⟩
  iclear HIo HIt
  -- wait recv ag ccw t=5 b=0
  try sl_exec_parts
  ihave #HIo := (bigSepL_elim_idx ownQs _ 116 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 87) (W := _) (R := 0) (m := 0) (T := ∅)
      (by rw [Nat.zero_add, expect_agccw_r_5_0 X c])) $$ [Hc_agccw_r_5_0 HO Hat_agccw_r_5_0]
  · isplitr; · iexact HIo
    isplitl [Hc_agccw_r_5_0]; · iexact Hc_agccw_r_5_0
    isplitl [HO]; · iexact HO
    isplitr; · iapply (mayWait_rem (F := F) c 87 (by decide) _ (by show (85 : ℕ) < 2 + 87; decide)); iexact Hlev
    iexact Hat_agccw_r_5_0
  iintro ⟨HO, Hat_agccw_r_5_0, #Hrch_agccw_r_5_0_1, Hpay⟩
  iclear HIo
  ihave Hp := (Entails.of_eq (rest_single X _ _ _ (duties_agccw_r_5_0 X c) (payload_agccw_r_5_0 X c false))) $$ Hpay
  irename Hp => Hg_agccw_r_5_0
  -- wait send ag ccw t=4 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 87) (W := _) (R := 2) (m := 0) (T := ∅)
      (by rw [Nat.zero_add, expect_agccw_s_0_2 X c])) $$ [Hcs_agccw_s_0_2 HO Hat_agccw_s_0]
  · isplitr; · iexact HIo
    isplitl [Hcs_agccw_s_0_2]; · iexact Hcs_agccw_s_0_2
    isplitl [HO]; · iexact HO
    isplitr; · iapply (mayWait_rem (F := F) c 87 (by decide) _ (by show (0 : ℕ) < 2 + 87; decide)); iexact Hlev
    iexact Hat_agccw_s_0
  iintro ⟨HO, Hat_agccw_s_0, #Hrch_agccw_s_0_3, Hpay⟩
  iclear HIo
  ihave Hp := (Entails.of_eq (rest_single X _ _ _ (duties_agccw_s_0_2 X c) (payload_agccw_s_0_2 X c false))) $$ Hpay
  irename Hp => Hback_agccw_r_3_0
  -- send ag ccw t=6 b=0 (payment 87, device function 88)
  try sl_exec_parts
  ihave HO := (owes_congr (rem_peel_87 c)) $$ HO
  ihave #HIo := (bigSepL_elim_idx ownQs _ 12 (by decide)) $$ HInvOwn
  ihave #HIt := (bigSepL_elim_idx recvCcw _ 42 (by decide)) $$ HInbCcw
  iapply (@send_owns_at F _ X c (prv c) ⟨k0_dev88 c, k0_dev88_lt c⟩ (dev88_eq c _) (rows oM (off false (c.val + 6) 0) (off_inb false _ 0)) (rows oM (off false (c.val + 6) 0) (off_inb false _ 0)) _ (qS cc0_scratch8 0 inb_S4_S1_0) (qR cc0_scratch9 6 0 inb_S15x2_S1x1_6_0) _ _ _ _ _ _ fullShare (doneV X false 0 (devAt c 6)) 3 (K (dcell c (qS cc0_scratch8 0 inb_S4_S1_0))) (K (dcell (prv c) (qR cc0_scratch9 6 0 inb_S15x2_S1x1_6_0))) _ (rem c 88) _ (by rw [duties_agccw_s_0_3 X c]; exact Finset.mem_singleton_self _) (by rw [duties_agccw_r_6_0 X (prv c)]; exact Finset.mem_singleton_self _) (by exact amount_agccw_s_0_3 X c false) (by exact amount_agccw_r_6_0 X (prv c) false) (by rfl) (by exact payload_agccw_s_0_3 X c false) (by exact hp2_agccw_r_6_0 X c) (by rfl) (by routes)) $$ [Hg_agccw_r_5_0 Hd_agccw_r_6_0 HO Hts_agccw_s_0_3 Htn_agccw_r_6_0]
  · isplitr; · iexact HIo
    isplitr; · iexact HIt
    isplitl [Hg_agccw_r_5_0]; · iexact Hg_agccw_r_5_0
    isplitl [Hd_agccw_r_6_0]; · iexact Hd_agccw_r_6_0
    isplitl [HO]; · iexact HO
    isplitl [Hts_agccw_s_0_3]; · iexact Hts_agccw_s_0_3
    isplitr; · iexact Hrch_agccw_s_0_3
    isplitl [Htn_agccw_r_6_0]; · iexact Htn_agccw_r_6_0
    iexact Hrn_agccw_r_6_0
  iintro ⟨Hcs_agccw_s_0_3, HO⟩
  iclear HIo HIt
  -- wait recv ag cw t=5 b=1
  try sl_exec_parts
  ihave #HIo := (bigSepL_elim_idx ownQs _ 57 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 88) (W := _) (R := 0) (m := 0) (T := ∅)
      (by rw [Nat.zero_add, expect_agcw_r_5_1 X c])) $$ [Hc_agcw_r_5_1 HO Hat_agcw_r_5_1]
  · isplitr; · iexact HIo
    isplitl [Hc_agcw_r_5_1]; · iexact Hc_agcw_r_5_1
    isplitl [HO]; · iexact HO
    isplitr; · iapply (mayWait_rem (F := F) c 88 (by decide) _ (by show (86 : ℕ) < 2 + 88; decide)); iexact Hlev
    iexact Hat_agcw_r_5_1
  iintro ⟨HO, Hat_agcw_r_5_1, #Hrch_agcw_r_5_1_1, Hpay⟩
  iclear HIo
  ihave Hp := (Entails.of_eq (rest_single X _ _ _ (duties_agcw_r_5_1 X c) (payload_agcw_r_5_1 X c false))) $$ Hpay
  irename Hp => Hg_agcw_r_5_1
  -- wait send ag cw t=4 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 88) (W := _) (R := 2) (m := 0) (T := ∅)
      (by rw [Nat.zero_add, expect_agcw_s_1_2 X c])) $$ [Hcs_agcw_s_1_2 HO Hat_agcw_s_1]
  · isplitr; · iexact HIo
    isplitl [Hcs_agcw_s_1_2]; · iexact Hcs_agcw_s_1_2
    isplitl [HO]; · iexact HO
    isplitr; · iapply (mayWait_rem (F := F) c 88 (by decide) _ (by show (0 : ℕ) < 2 + 88; decide)); iexact Hlev
    iexact Hat_agcw_s_1
  iintro ⟨HO, Hat_agcw_s_1, #Hrch_agcw_s_1_3, Hpay⟩
  iclear HIo
  ihave Hp := (Entails.of_eq (rest_single X _ _ _ (duties_agcw_s_1_2 X c) (payload_agcw_s_1_2 X c false))) $$ Hpay
  irename Hp => Hback_agcw_r_3_1
  -- send ag cw t=6 b=1 (payment 88, device function 89)
  try sl_exec_parts
  ihave HO := (owes_congr (rem_peel_88 c)) $$ HO
  ihave #HIo := (bigSepL_elim_idx ownQs _ 9 (by decide)) $$ HInvOwn
  ihave #HIt := (bigSepL_elim_idx recvCw _ 43 (by decide)) $$ HInbCw
  iapply (@send_owns_at F _ X c (nxt c) ⟨k0_dev89 c, k0_dev89_lt c⟩ (dev89_eq c _) (rows oM (off true (c.val + 10) 1) (off_inb true _ 1)) (rows oM (off true (c.val + 10) 1) (off_inb true _ 1)) _ (qS cc0_scratch6 1 inb_S4_S1_1) (qR cc0_scratch7 6 1 inb_S15x2_S1x1_6_1) _ _ _ _ _ _ fullShare (doneV X true 1 (devAt c 10)) 3 (K (dcell c (qS cc0_scratch6 1 inb_S4_S1_1))) (K (dcell (nxt c) (qR cc0_scratch7 6 1 inb_S15x2_S1x1_6_1))) _ (rem c 89) _ (by rw [duties_agcw_s_1_3 X c]; exact Finset.mem_singleton_self _) (by rw [duties_agcw_r_6_1 X (nxt c)]; exact Finset.mem_singleton_self _) (by exact amount_agcw_s_1_3 X c false) (by exact amount_agcw_r_6_1 X (nxt c) false) (by rfl) (by exact payload_agcw_s_1_3 X c false) (by exact hp2_agcw_r_6_1 X c) (by rfl) (by routes)) $$ [Hg_agcw_r_5_1 Hd_agcw_r_6_1 HO Hts_agcw_s_1_3 Htn_agcw_r_6_1]
  · isplitr; · iexact HIo
    isplitr; · iexact HIt
    isplitl [Hg_agcw_r_5_1]; · iexact Hg_agcw_r_5_1
    isplitl [Hd_agcw_r_6_1]; · iexact Hd_agcw_r_6_1
    isplitl [HO]; · iexact HO
    isplitl [Hts_agcw_s_1_3]; · iexact Hts_agcw_s_1_3
    isplitr; · iexact Hrch_agcw_s_1_3
    isplitl [Htn_agcw_r_6_1]; · iexact Htn_agcw_r_6_1
    iexact Hrn_agcw_r_6_1
  iintro ⟨Hcs_agcw_s_1_3, HO⟩
  iclear HIo HIt
  -- wait recv ag ccw t=5 b=1
  try sl_exec_parts
  ihave #HIo := (bigSepL_elim_idx ownQs _ 117 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 89) (W := _) (R := 0) (m := 0) (T := ∅)
      (by rw [Nat.zero_add, expect_agccw_r_5_1 X c])) $$ [Hc_agccw_r_5_1 HO Hat_agccw_r_5_1]
  · isplitr; · iexact HIo
    isplitl [Hc_agccw_r_5_1]; · iexact Hc_agccw_r_5_1
    isplitl [HO]; · iexact HO
    isplitr; · iapply (mayWait_rem (F := F) c 89 (by decide) _ (by show (87 : ℕ) < 2 + 89; decide)); iexact Hlev
    iexact Hat_agccw_r_5_1
  iintro ⟨HO, Hat_agccw_r_5_1, #Hrch_agccw_r_5_1_1, Hpay⟩
  iclear HIo
  ihave Hp := (Entails.of_eq (rest_single X _ _ _ (duties_agccw_r_5_1 X c) (payload_agccw_r_5_1 X c false))) $$ Hpay
  irename Hp => Hg_agccw_r_5_1
  -- wait send ag ccw t=4 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 89) (W := _) (R := 2) (m := 0) (T := ∅)
      (by rw [Nat.zero_add, expect_agccw_s_1_2 X c])) $$ [Hcs_agccw_s_1_2 HO Hat_agccw_s_1]
  · isplitr; · iexact HIo
    isplitl [Hcs_agccw_s_1_2]; · iexact Hcs_agccw_s_1_2
    isplitl [HO]; · iexact HO
    isplitr; · iapply (mayWait_rem (F := F) c 89 (by decide) _ (by show (0 : ℕ) < 2 + 89; decide)); iexact Hlev
    iexact Hat_agccw_s_1
  iintro ⟨HO, Hat_agccw_s_1, #Hrch_agccw_s_1_3, Hpay⟩
  iclear HIo
  ihave Hp := (Entails.of_eq (rest_single X _ _ _ (duties_agccw_s_1_2 X c) (payload_agccw_s_1_2 X c false))) $$ Hpay
  irename Hp => Hback_agccw_r_3_1
  -- send ag ccw t=6 b=1 (payment 89, device function 90)
  try sl_exec_parts
  ihave HO := (owes_congr (rem_peel_89 c)) $$ HO
  ihave #HIo := (bigSepL_elim_idx ownQs _ 13 (by decide)) $$ HInvOwn
  ihave #HIt := (bigSepL_elim_idx recvCcw _ 43 (by decide)) $$ HInbCcw
  iapply (@send_owns_at F _ X c (prv c) ⟨k0_dev90 c, k0_dev90_lt c⟩ (dev90_eq c _) (rows oM (off false (c.val + 6) 1) (off_inb false _ 1)) (rows oM (off false (c.val + 6) 1) (off_inb false _ 1)) _ (qS cc0_scratch8 1 inb_S4_S1_1) (qR cc0_scratch9 6 1 inb_S15x2_S1x1_6_1) _ _ _ _ _ _ fullShare (doneV X false 1 (devAt c 6)) 3 (K (dcell c (qS cc0_scratch8 1 inb_S4_S1_1))) (K (dcell (prv c) (qR cc0_scratch9 6 1 inb_S15x2_S1x1_6_1))) _ (rem c 90) _ (by rw [duties_agccw_s_1_3 X c]; exact Finset.mem_singleton_self _) (by rw [duties_agccw_r_6_1 X (prv c)]; exact Finset.mem_singleton_self _) (by exact amount_agccw_s_1_3 X c false) (by exact amount_agccw_r_6_1 X (prv c) false) (by rfl) (by exact payload_agccw_s_1_3 X c false) (by exact hp2_agccw_r_6_1 X c) (by rfl) (by routes)) $$ [Hg_agccw_r_5_1 Hd_agccw_r_6_1 HO Hts_agccw_s_1_3 Htn_agccw_r_6_1]
  · isplitr; · iexact HIo
    isplitr; · iexact HIt
    isplitl [Hg_agccw_r_5_1]; · iexact Hg_agccw_r_5_1
    isplitl [Hd_agccw_r_6_1]; · iexact Hd_agccw_r_6_1
    isplitl [HO]; · iexact HO
    isplitl [Hts_agccw_s_1_3]; · iexact Hts_agccw_s_1_3
    isplitr; · iexact Hrch_agccw_s_1_3
    isplitl [Htn_agccw_r_6_1]; · iexact Htn_agccw_r_6_1
    iexact Hrn_agccw_r_6_1
  iintro ⟨Hcs_agccw_s_1_3, HO⟩
  iclear HIo HIt
  -- wait recv ag cw t=6 b=0
  try sl_exec_parts
  ihave #HIo := (bigSepL_elim_idx ownQs _ 58 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 90) (W := _) (R := 0) (m := 0) (T := ∅)
      (by rw [Nat.zero_add, expect_agcw_r_6_0 X c])) $$ [Hc_agcw_r_6_0 HO Hat_agcw_r_6_0]
  · isplitr; · iexact HIo
    isplitl [Hc_agcw_r_6_0]; · iexact Hc_agcw_r_6_0
    isplitl [HO]; · iexact HO
    isplitr; · iapply (mayWait_rem (F := F) c 90 (by decide) _ (by show (88 : ℕ) < 2 + 90; decide)); iexact Hlev
    iexact Hat_agcw_r_6_0
  iintro ⟨HO, Hat_agcw_r_6_0, #Hrch_agcw_r_6_0_1, Hpay⟩
  iclear HIo
  ihave Hp := (Entails.of_eq (rest_single X _ _ _ (duties_agcw_r_6_0 X c) (payload_agcw_r_6_0 X c false))) $$ Hpay
  irename Hp => Hg_agcw_r_6_0
  -- wait send ag cw t=5 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 90) (W := _) (R := 2) (m := 0) (T := ∅)
      (by rw [Nat.zero_add, expect_agcw_s_2_2 X c])) $$ [Hcs_agcw_s_2_2 HO Hat_agcw_s_2]
  · isplitr; · iexact HIo
    isplitl [Hcs_agcw_s_2_2]; · iexact Hcs_agcw_s_2_2
    isplitl [HO]; · iexact HO
    isplitr; · iapply (mayWait_rem (F := F) c 90 (by decide) _ (by show (0 : ℕ) < 2 + 90; decide)); iexact Hlev
    iexact Hat_agcw_s_2
  iintro ⟨HO, Hat_agcw_s_2, #Hrch_agcw_s_2_3, Hpay⟩
  iclear HIo
  ihave Hp := (Entails.of_eq (rest_single X _ _ _ (duties_agcw_s_2_2 X c) (payload_agcw_s_2_2 X c false))) $$ Hpay
  irename Hp => Hback_agcw_r_4_0
  -- send ag cw t=7 b=0 (payment 90, device function 91)
  try sl_exec_parts
  ihave HO := (owes_congr (rem_peel_90 c)) $$ HO
  ihave #HIo := (bigSepL_elim_idx ownQs _ 10 (by decide)) $$ HInvOwn
  ihave #HIt := (bigSepL_elim_idx recvCw _ 44 (by decide)) $$ HInbCw
  iapply (@send_owns_at F _ X c (nxt c) ⟨k0_dev91 c, k0_dev91_lt c⟩ (dev91_eq c _) (rows oM (off true (c.val + 9) 0) (off_inb true _ 0)) (rows oM (off true (c.val + 9) 0) (off_inb true _ 0)) _ (qS cc0_scratch6 2 inb_S4_S1_2) (qR cc0_scratch7 7 0 inb_S15x2_S1x1_7_0) _ _ _ _ _ _ fullShare (doneV X true 0 (devAt c 9)) 3 (K (dcell c (qS cc0_scratch6 2 inb_S4_S1_2))) (K (dcell (nxt c) (qR cc0_scratch7 7 0 inb_S15x2_S1x1_7_0))) _ (rem c 91) _ (by rw [duties_agcw_s_2_3 X c]; exact Finset.mem_singleton_self _) (by rw [duties_agcw_r_7_0 X (nxt c)]; exact Finset.mem_singleton_self _) (by exact amount_agcw_s_2_3 X c false) (by exact amount_agcw_r_7_0 X (nxt c) false) (by rfl) (by exact payload_agcw_s_2_3 X c false) (by exact hp2_agcw_r_7_0 X c) (by rfl) (by routes)) $$ [Hg_agcw_r_6_0 Hd_agcw_r_7_0 HO Hts_agcw_s_2_3 Htn_agcw_r_7_0]
  · isplitr; · iexact HIo
    isplitr; · iexact HIt
    isplitl [Hg_agcw_r_6_0]; · iexact Hg_agcw_r_6_0
    isplitl [Hd_agcw_r_7_0]; · iexact Hd_agcw_r_7_0
    isplitl [HO]; · iexact HO
    isplitl [Hts_agcw_s_2_3]; · iexact Hts_agcw_s_2_3
    isplitr; · iexact Hrch_agcw_s_2_3
    isplitl [Htn_agcw_r_7_0]; · iexact Htn_agcw_r_7_0
    iexact Hrn_agcw_r_7_0
  iintro ⟨Hcs_agcw_s_2_3, HO⟩
  iclear HIo HIt
  -- wait recv ag ccw t=6 b=0
  try sl_exec_parts
  ihave #HIo := (bigSepL_elim_idx ownQs _ 118 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 91) (W := _) (R := 0) (m := 0) (T := ∅)
      (by rw [Nat.zero_add, expect_agccw_r_6_0 X c])) $$ [Hc_agccw_r_6_0 HO Hat_agccw_r_6_0]
  · isplitr; · iexact HIo
    isplitl [Hc_agccw_r_6_0]; · iexact Hc_agccw_r_6_0
    isplitl [HO]; · iexact HO
    isplitr; · iapply (mayWait_rem (F := F) c 91 (by decide) _ (by show (89 : ℕ) < 2 + 91; decide)); iexact Hlev
    iexact Hat_agccw_r_6_0
  iintro ⟨HO, Hat_agccw_r_6_0, #Hrch_agccw_r_6_0_1, Hpay⟩
  iclear HIo
  ihave Hp := (Entails.of_eq (rest_single X _ _ _ (duties_agccw_r_6_0 X c) (payload_agccw_r_6_0 X c false))) $$ Hpay
  irename Hp => Hg_agccw_r_6_0
  -- wait send ag ccw t=5 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 91) (W := _) (R := 2) (m := 0) (T := ∅)
      (by rw [Nat.zero_add, expect_agccw_s_2_2 X c])) $$ [Hcs_agccw_s_2_2 HO Hat_agccw_s_2]
  · isplitr; · iexact HIo
    isplitl [Hcs_agccw_s_2_2]; · iexact Hcs_agccw_s_2_2
    isplitl [HO]; · iexact HO
    isplitr; · iapply (mayWait_rem (F := F) c 91 (by decide) _ (by show (0 : ℕ) < 2 + 91; decide)); iexact Hlev
    iexact Hat_agccw_s_2
  iintro ⟨HO, Hat_agccw_s_2, #Hrch_agccw_s_2_3, Hpay⟩
  iclear HIo
  ihave Hp := (Entails.of_eq (rest_single X _ _ _ (duties_agccw_s_2_2 X c) (payload_agccw_s_2_2 X c false))) $$ Hpay
  irename Hp => Hback_agccw_r_4_0
  -- send ag ccw t=7 b=0 (payment 91, device function 92)
  try sl_exec_parts
  ihave HO := (owes_congr (rem_peel_91 c)) $$ HO
  ihave #HIo := (bigSepL_elim_idx ownQs _ 14 (by decide)) $$ HInvOwn
  ihave #HIt := (bigSepL_elim_idx recvCcw _ 44 (by decide)) $$ HInbCcw
  iapply (@send_owns_at F _ X c (prv c) ⟨k0_dev92 c, k0_dev92_lt c⟩ (dev92_eq c _) (rows oM (off false (c.val + 7) 0) (off_inb false _ 0)) (rows oM (off false (c.val + 7) 0) (off_inb false _ 0)) _ (qS cc0_scratch8 2 inb_S4_S1_2) (qR cc0_scratch9 7 0 inb_S15x2_S1x1_7_0) _ _ _ _ _ _ fullShare (doneV X false 0 (devAt c 7)) 3 (K (dcell c (qS cc0_scratch8 2 inb_S4_S1_2))) (K (dcell (prv c) (qR cc0_scratch9 7 0 inb_S15x2_S1x1_7_0))) _ (rem c 92) _ (by rw [duties_agccw_s_2_3 X c]; exact Finset.mem_singleton_self _) (by rw [duties_agccw_r_7_0 X (prv c)]; exact Finset.mem_singleton_self _) (by exact amount_agccw_s_2_3 X c false) (by exact amount_agccw_r_7_0 X (prv c) false) (by rfl) (by exact payload_agccw_s_2_3 X c false) (by exact hp2_agccw_r_7_0 X c) (by rfl) (by routes)) $$ [Hg_agccw_r_6_0 Hd_agccw_r_7_0 HO Hts_agccw_s_2_3 Htn_agccw_r_7_0]
  · isplitr; · iexact HIo
    isplitr; · iexact HIt
    isplitl [Hg_agccw_r_6_0]; · iexact Hg_agccw_r_6_0
    isplitl [Hd_agccw_r_7_0]; · iexact Hd_agccw_r_7_0
    isplitl [HO]; · iexact HO
    isplitl [Hts_agccw_s_2_3]; · iexact Hts_agccw_s_2_3
    isplitr; · iexact Hrch_agccw_s_2_3
    isplitl [Htn_agccw_r_7_0]; · iexact Htn_agccw_r_7_0
    iexact Hrn_agccw_r_7_0
  iintro ⟨Hcs_agccw_s_2_3, HO⟩
  iclear HIo HIt
  -- wait recv ag cw t=6 b=1
  try sl_exec_parts
  ihave #HIo := (bigSepL_elim_idx ownQs _ 59 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 92) (W := _) (R := 0) (m := 0) (T := ∅)
      (by rw [Nat.zero_add, expect_agcw_r_6_1 X c])) $$ [Hc_agcw_r_6_1 HO Hat_agcw_r_6_1]
  · isplitr; · iexact HIo
    isplitl [Hc_agcw_r_6_1]; · iexact Hc_agcw_r_6_1
    isplitl [HO]; · iexact HO
    isplitr; · iapply (mayWait_rem (F := F) c 92 (by decide) _ (by show (90 : ℕ) < 2 + 92; decide)); iexact Hlev
    iexact Hat_agcw_r_6_1
  iintro ⟨HO, Hat_agcw_r_6_1, #Hrch_agcw_r_6_1_1, Hpay⟩
  iclear HIo
  ihave Hp := (Entails.of_eq (rest_single X _ _ _ (duties_agcw_r_6_1 X c) (payload_agcw_r_6_1 X c false))) $$ Hpay
  irename Hp => Hg_agcw_r_6_1
  -- wait send ag cw t=5 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 92) (W := _) (R := 2) (m := 0) (T := ∅)
      (by rw [Nat.zero_add, expect_agcw_s_3_2 X c])) $$ [Hcs_agcw_s_3_2 HO Hat_agcw_s_3]
  · isplitr; · iexact HIo
    isplitl [Hcs_agcw_s_3_2]; · iexact Hcs_agcw_s_3_2
    isplitl [HO]; · iexact HO
    isplitr; · iapply (mayWait_rem (F := F) c 92 (by decide) _ (by show (0 : ℕ) < 2 + 92; decide)); iexact Hlev
    iexact Hat_agcw_s_3
  iintro ⟨HO, Hat_agcw_s_3, #Hrch_agcw_s_3_3, Hpay⟩
  iclear HIo
  ihave Hp := (Entails.of_eq (rest_single X _ _ _ (duties_agcw_s_3_2 X c) (payload_agcw_s_3_2 X c false))) $$ Hpay
  irename Hp => Hback_agcw_r_4_1
  -- send ag cw t=7 b=1 (payment 92, device function 93)
  try sl_exec_parts
  ihave HO := (owes_congr (rem_peel_92 c)) $$ HO
  ihave #HIo := (bigSepL_elim_idx ownQs _ 11 (by decide)) $$ HInvOwn
  ihave #HIt := (bigSepL_elim_idx recvCw _ 45 (by decide)) $$ HInbCw
  iapply (@send_owns_at F _ X c (nxt c) ⟨k0_dev93 c, k0_dev93_lt c⟩ (dev93_eq c _) (rows oM (off true (c.val + 9) 1) (off_inb true _ 1)) (rows oM (off true (c.val + 9) 1) (off_inb true _ 1)) _ (qS cc0_scratch6 3 inb_S4_S1_3) (qR cc0_scratch7 7 1 inb_S15x2_S1x1_7_1) _ _ _ _ _ _ fullShare (doneV X true 1 (devAt c 9)) 3 (K (dcell c (qS cc0_scratch6 3 inb_S4_S1_3))) (K (dcell (nxt c) (qR cc0_scratch7 7 1 inb_S15x2_S1x1_7_1))) _ (rem c 93) _ (by rw [duties_agcw_s_3_3 X c]; exact Finset.mem_singleton_self _) (by rw [duties_agcw_r_7_1 X (nxt c)]; exact Finset.mem_singleton_self _) (by exact amount_agcw_s_3_3 X c false) (by exact amount_agcw_r_7_1 X (nxt c) false) (by rfl) (by exact payload_agcw_s_3_3 X c false) (by exact hp2_agcw_r_7_1 X c) (by rfl) (by routes)) $$ [Hg_agcw_r_6_1 Hd_agcw_r_7_1 HO Hts_agcw_s_3_3 Htn_agcw_r_7_1]
  · isplitr; · iexact HIo
    isplitr; · iexact HIt
    isplitl [Hg_agcw_r_6_1]; · iexact Hg_agcw_r_6_1
    isplitl [Hd_agcw_r_7_1]; · iexact Hd_agcw_r_7_1
    isplitl [HO]; · iexact HO
    isplitl [Hts_agcw_s_3_3]; · iexact Hts_agcw_s_3_3
    isplitr; · iexact Hrch_agcw_s_3_3
    isplitl [Htn_agcw_r_7_1]; · iexact Htn_agcw_r_7_1
    iexact Hrn_agcw_r_7_1
  iintro ⟨Hcs_agcw_s_3_3, HO⟩
  iclear HIo HIt
  -- wait recv ag ccw t=6 b=1
  try sl_exec_parts
  ihave #HIo := (bigSepL_elim_idx ownQs _ 119 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 93) (W := _) (R := 0) (m := 0) (T := ∅)
      (by rw [Nat.zero_add, expect_agccw_r_6_1 X c])) $$ [Hc_agccw_r_6_1 HO Hat_agccw_r_6_1]
  · isplitr; · iexact HIo
    isplitl [Hc_agccw_r_6_1]; · iexact Hc_agccw_r_6_1
    isplitl [HO]; · iexact HO
    isplitr; · iapply (mayWait_rem (F := F) c 93 (by decide) _ (by show (91 : ℕ) < 2 + 93; decide)); iexact Hlev
    iexact Hat_agccw_r_6_1
  iintro ⟨HO, Hat_agccw_r_6_1, #Hrch_agccw_r_6_1_1, Hpay⟩
  iclear HIo
  ihave Hp := (Entails.of_eq (rest_single X _ _ _ (duties_agccw_r_6_1 X c) (payload_agccw_r_6_1 X c false))) $$ Hpay
  irename Hp => Hg_agccw_r_6_1
  -- wait send ag ccw t=5 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 93) (W := _) (R := 2) (m := 0) (T := ∅)
      (by rw [Nat.zero_add, expect_agccw_s_3_2 X c])) $$ [Hcs_agccw_s_3_2 HO Hat_agccw_s_3]
  · isplitr; · iexact HIo
    isplitl [Hcs_agccw_s_3_2]; · iexact Hcs_agccw_s_3_2
    isplitl [HO]; · iexact HO
    isplitr; · iapply (mayWait_rem (F := F) c 93 (by decide) _ (by show (0 : ℕ) < 2 + 93; decide)); iexact Hlev
    iexact Hat_agccw_s_3
  iintro ⟨HO, Hat_agccw_s_3, #Hrch_agccw_s_3_3, Hpay⟩
  iclear HIo
  ihave Hp := (Entails.of_eq (rest_single X _ _ _ (duties_agccw_s_3_2 X c) (payload_agccw_s_3_2 X c false))) $$ Hpay
  irename Hp => Hback_agccw_r_4_1
  -- send ag ccw t=7 b=1 (payment 93, device function 94)
  try sl_exec_parts
  ihave HO := (owes_congr (rem_peel_93 c)) $$ HO
  ihave #HIo := (bigSepL_elim_idx ownQs _ 15 (by decide)) $$ HInvOwn
  ihave #HIt := (bigSepL_elim_idx recvCcw _ 45 (by decide)) $$ HInbCcw
  iapply (@send_owns_at F _ X c (prv c) ⟨k0_dev94 c, k0_dev94_lt c⟩ (dev94_eq c _) (rows oM (off false (c.val + 7) 1) (off_inb false _ 1)) (rows oM (off false (c.val + 7) 1) (off_inb false _ 1)) _ (qS cc0_scratch8 3 inb_S4_S1_3) (qR cc0_scratch9 7 1 inb_S15x2_S1x1_7_1) _ _ _ _ _ _ fullShare (doneV X false 1 (devAt c 7)) 3 (K (dcell c (qS cc0_scratch8 3 inb_S4_S1_3))) (K (dcell (prv c) (qR cc0_scratch9 7 1 inb_S15x2_S1x1_7_1))) _ (rem c 94) _ (by rw [duties_agccw_s_3_3 X c]; exact Finset.mem_singleton_self _) (by rw [duties_agccw_r_7_1 X (prv c)]; exact Finset.mem_singleton_self _) (by exact amount_agccw_s_3_3 X c false) (by exact amount_agccw_r_7_1 X (prv c) false) (by rfl) (by exact payload_agccw_s_3_3 X c false) (by exact hp2_agccw_r_7_1 X c) (by rfl) (by routes)) $$ [Hg_agccw_r_6_1 Hd_agccw_r_7_1 HO Hts_agccw_s_3_3 Htn_agccw_r_7_1]
  · isplitr; · iexact HIo
    isplitr; · iexact HIt
    isplitl [Hg_agccw_r_6_1]; · iexact Hg_agccw_r_6_1
    isplitl [Hd_agccw_r_7_1]; · iexact Hd_agccw_r_7_1
    isplitl [HO]; · iexact HO
    isplitl [Hts_agccw_s_3_3]; · iexact Hts_agccw_s_3_3
    isplitr; · iexact Hrch_agccw_s_3_3
    isplitl [Htn_agccw_r_7_1]; · iexact Htn_agccw_r_7_1
    iexact Hrn_agccw_r_7_1
  iintro ⟨Hcs_agccw_s_3_3, HO⟩
  iclear HIo HIt
  -- wait recv ag cw t=7 b=0
  try sl_exec_parts
  ihave #HIo := (bigSepL_elim_idx ownQs _ 60 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 94) (W := _) (R := 0) (m := 0) (T := ∅)
      (by rw [Nat.zero_add, expect_agcw_r_7_0 X c])) $$ [Hc_agcw_r_7_0 HO Hat_agcw_r_7_0]
  · isplitr; · iexact HIo
    isplitl [Hc_agcw_r_7_0]; · iexact Hc_agcw_r_7_0
    isplitl [HO]; · iexact HO
    isplitr; · iapply (mayWait_rem (F := F) c 94 (by decide) _ (by show (92 : ℕ) < 2 + 94; decide)); iexact Hlev
    iexact Hat_agcw_r_7_0
  iintro ⟨HO, Hat_agcw_r_7_0, #Hrch_agcw_r_7_0_1, Hpay⟩
  iclear HIo
  ihave Hp := (Entails.of_eq (rest_single X _ _ _ (duties_agcw_r_7_0 X c) (payload_agcw_r_7_0 X c false))) $$ Hpay
  irename Hp => Hg_agcw_r_7_0
  -- wait send ag cw t=6 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 94) (W := _) (R := 3) (m := 0) (T := ∅)
      (by rw [Nat.zero_add, expect_agcw_s_0_3 X c])) $$ [Hcs_agcw_s_0_3 HO Hat_agcw_s_0]
  · isplitr; · iexact HIo
    isplitl [Hcs_agcw_s_0_3]; · iexact Hcs_agcw_s_0_3
    isplitl [HO]; · iexact HO
    isplitr; · iapply (mayWait_rem (F := F) c 94 (by decide) _ (by show (0 : ℕ) < 2 + 94; decide)); iexact Hlev
    iexact Hat_agcw_s_0
  iintro ⟨HO, Hat_agcw_s_0, #Hrch_agcw_s_0_4, Hpay⟩
  iclear HIo
  ihave Hp := (Entails.of_eq (rest_single X _ _ _ (duties_agcw_s_0_3 X c) (payload_agcw_s_0_3 X c false))) $$ Hpay
  irename Hp => Hback_agcw_r_5_0
  -- send ag cw t=8 b=0 (payment 94, device function 95)
  try sl_exec_parts
  ihave HO := (owes_congr (rem_peel_94 c)) $$ HO
  ihave #HIo := (bigSepL_elim_idx ownQs _ 8 (by decide)) $$ HInvOwn
  ihave #HIt := (bigSepL_elim_idx recvCw _ 46 (by decide)) $$ HInbCw
  iapply (@send_owns_at F _ X c (nxt c) ⟨k0_dev95 c, k0_dev95_lt c⟩ (dev95_eq c _) (rows oM (off true (c.val + 8) 0) (off_inb true _ 0)) (rows oM (off true (c.val + 8) 0) (off_inb true _ 0)) _ (qS cc0_scratch6 0 inb_S4_S1_0) (qR cc0_scratch7 8 0 inb_S15x2_S1x1_8_0) _ _ _ _ _ _ fullShare (doneV X true 0 (devAt c 8)) 4 (K (dcell c (qS cc0_scratch6 0 inb_S4_S1_0))) (K (dcell (nxt c) (qR cc0_scratch7 8 0 inb_S15x2_S1x1_8_0))) _ (rem c 95) _ (by rw [duties_agcw_s_0_4 X c]; exact Finset.mem_singleton_self _) (by rw [duties_agcw_r_8_0 X (nxt c)]; exact Finset.mem_singleton_self _) (by exact amount_agcw_s_0_4 X c false) (by exact amount_agcw_r_8_0 X (nxt c) false) (by rfl) (by exact payload_agcw_s_0_4 X c false) (by exact hp2_agcw_r_8_0 X c) (by rfl) (by routes)) $$ [Hg_agcw_r_7_0 Hd_agcw_r_8_0 HO Hts_agcw_s_0_4 Htn_agcw_r_8_0]
  · isplitr; · iexact HIo
    isplitr; · iexact HIt
    isplitl [Hg_agcw_r_7_0]; · iexact Hg_agcw_r_7_0
    isplitl [Hd_agcw_r_8_0]; · iexact Hd_agcw_r_8_0
    isplitl [HO]; · iexact HO
    isplitl [Hts_agcw_s_0_4]; · iexact Hts_agcw_s_0_4
    isplitr; · iexact Hrch_agcw_s_0_4
    isplitl [Htn_agcw_r_8_0]; · iexact Htn_agcw_r_8_0
    iexact Hrn_agcw_r_8_0
  iintro ⟨Hcs_agcw_s_0_4, HO⟩
  iclear HIo HIt
  -- wait recv ag ccw t=7 b=0
  try sl_exec_parts
  ihave #HIo := (bigSepL_elim_idx ownQs _ 120 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 95) (W := _) (R := 0) (m := 0) (T := ∅)
      (by rw [Nat.zero_add, expect_agccw_r_7_0 X c])) $$ [Hc_agccw_r_7_0 HO Hat_agccw_r_7_0]
  · isplitr; · iexact HIo
    isplitl [Hc_agccw_r_7_0]; · iexact Hc_agccw_r_7_0
    isplitl [HO]; · iexact HO
    isplitr; · iapply (mayWait_rem (F := F) c 95 (by decide) _ (by show (93 : ℕ) < 2 + 95; decide)); iexact Hlev
    iexact Hat_agccw_r_7_0
  iintro ⟨HO, Hat_agccw_r_7_0, #Hrch_agccw_r_7_0_1, Hpay⟩
  iclear HIo
  ihave Hp := (Entails.of_eq (rest_single X _ _ _ (duties_agccw_r_7_0 X c) (payload_agccw_r_7_0 X c false))) $$ Hpay
  irename Hp => Hg_agccw_r_7_0
  -- wait send ag ccw t=6 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 95) (W := _) (R := 3) (m := 0) (T := ∅)
      (by rw [Nat.zero_add, expect_agccw_s_0_3 X c])) $$ [Hcs_agccw_s_0_3 HO Hat_agccw_s_0]
  · isplitr; · iexact HIo
    isplitl [Hcs_agccw_s_0_3]; · iexact Hcs_agccw_s_0_3
    isplitl [HO]; · iexact HO
    isplitr; · iapply (mayWait_rem (F := F) c 95 (by decide) _ (by show (0 : ℕ) < 2 + 95; decide)); iexact Hlev
    iexact Hat_agccw_s_0
  iintro ⟨HO, Hat_agccw_s_0, #Hrch_agccw_s_0_4, Hpay⟩
  iclear HIo
  ihave Hp := (Entails.of_eq (rest_single X _ _ _ (duties_agccw_s_0_3 X c) (payload_agccw_s_0_3 X c false))) $$ Hpay
  irename Hp => Hback_agccw_r_5_0
  -- send ag ccw t=8 b=0 (payment 95, device function 96)
  try sl_exec_parts
  ihave HO := (owes_congr (rem_peel_95 c)) $$ HO
  ihave #HIo := (bigSepL_elim_idx ownQs _ 12 (by decide)) $$ HInvOwn
  ihave #HIt := (bigSepL_elim_idx recvCcw _ 46 (by decide)) $$ HInbCcw
  iapply (@send_owns_at F _ X c (prv c) ⟨k0_dev96 c, k0_dev96_lt c⟩ (dev96_eq c _) (rows oM (off false (c.val + 8) 0) (off_inb false _ 0)) (rows oM (off false (c.val + 8) 0) (off_inb false _ 0)) _ (qS cc0_scratch8 0 inb_S4_S1_0) (qR cc0_scratch9 8 0 inb_S15x2_S1x1_8_0) _ _ _ _ _ _ fullShare (doneV X false 0 (devAt c 8)) 4 (K (dcell c (qS cc0_scratch8 0 inb_S4_S1_0))) (K (dcell (prv c) (qR cc0_scratch9 8 0 inb_S15x2_S1x1_8_0))) _ (rem c 96) _ (by rw [duties_agccw_s_0_4 X c]; exact Finset.mem_singleton_self _) (by rw [duties_agccw_r_8_0 X (prv c)]; exact Finset.mem_singleton_self _) (by exact amount_agccw_s_0_4 X c false) (by exact amount_agccw_r_8_0 X (prv c) false) (by rfl) (by exact payload_agccw_s_0_4 X c false) (by exact hp2_agccw_r_8_0 X c) (by rfl) (by routes)) $$ [Hg_agccw_r_7_0 Hd_agccw_r_8_0 HO Hts_agccw_s_0_4 Htn_agccw_r_8_0]
  · isplitr; · iexact HIo
    isplitr; · iexact HIt
    isplitl [Hg_agccw_r_7_0]; · iexact Hg_agccw_r_7_0
    isplitl [Hd_agccw_r_8_0]; · iexact Hd_agccw_r_8_0
    isplitl [HO]; · iexact HO
    isplitl [Hts_agccw_s_0_4]; · iexact Hts_agccw_s_0_4
    isplitr; · iexact Hrch_agccw_s_0_4
    isplitl [Htn_agccw_r_8_0]; · iexact Htn_agccw_r_8_0
    iexact Hrn_agccw_r_8_0
  iintro ⟨Hcs_agccw_s_0_4, HO⟩
  iclear HIo HIt
  -- wait recv ag cw t=7 b=1
  try sl_exec_parts
  ihave #HIo := (bigSepL_elim_idx ownQs _ 61 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 96) (W := _) (R := 0) (m := 0) (T := ∅)
      (by rw [Nat.zero_add, expect_agcw_r_7_1 X c])) $$ [Hc_agcw_r_7_1 HO Hat_agcw_r_7_1]
  · isplitr; · iexact HIo
    isplitl [Hc_agcw_r_7_1]; · iexact Hc_agcw_r_7_1
    isplitl [HO]; · iexact HO
    isplitr; · iapply (mayWait_rem (F := F) c 96 (by decide) _ (by show (94 : ℕ) < 2 + 96; decide)); iexact Hlev
    iexact Hat_agcw_r_7_1
  iintro ⟨HO, Hat_agcw_r_7_1, #Hrch_agcw_r_7_1_1, Hpay⟩
  iclear HIo
  ihave Hp := (Entails.of_eq (rest_single X _ _ _ (duties_agcw_r_7_1 X c) (payload_agcw_r_7_1 X c false))) $$ Hpay
  irename Hp => Hg_agcw_r_7_1
  -- wait send ag cw t=6 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 96) (W := _) (R := 3) (m := 0) (T := ∅)
      (by rw [Nat.zero_add, expect_agcw_s_1_3 X c])) $$ [Hcs_agcw_s_1_3 HO Hat_agcw_s_1]
  · isplitr; · iexact HIo
    isplitl [Hcs_agcw_s_1_3]; · iexact Hcs_agcw_s_1_3
    isplitl [HO]; · iexact HO
    isplitr; · iapply (mayWait_rem (F := F) c 96 (by decide) _ (by show (0 : ℕ) < 2 + 96; decide)); iexact Hlev
    iexact Hat_agcw_s_1
  iintro ⟨HO, Hat_agcw_s_1, #Hrch_agcw_s_1_4, Hpay⟩
  iclear HIo
  ihave Hp := (Entails.of_eq (rest_single X _ _ _ (duties_agcw_s_1_3 X c) (payload_agcw_s_1_3 X c false))) $$ Hpay
  irename Hp => Hback_agcw_r_5_1
  -- send ag cw t=8 b=1 (payment 96, device function 97)
  try sl_exec_parts
  ihave HO := (owes_congr (rem_peel_96 c)) $$ HO
  ihave #HIo := (bigSepL_elim_idx ownQs _ 9 (by decide)) $$ HInvOwn
  ihave #HIt := (bigSepL_elim_idx recvCw _ 47 (by decide)) $$ HInbCw
  iapply (@send_owns_at F _ X c (nxt c) ⟨k0_dev97 c, k0_dev97_lt c⟩ (dev97_eq c _) (rows oM (off true (c.val + 8) 1) (off_inb true _ 1)) (rows oM (off true (c.val + 8) 1) (off_inb true _ 1)) _ (qS cc0_scratch6 1 inb_S4_S1_1) (qR cc0_scratch7 8 1 inb_S15x2_S1x1_8_1) _ _ _ _ _ _ fullShare (doneV X true 1 (devAt c 8)) 4 (K (dcell c (qS cc0_scratch6 1 inb_S4_S1_1))) (K (dcell (nxt c) (qR cc0_scratch7 8 1 inb_S15x2_S1x1_8_1))) _ (rem c 97) _ (by rw [duties_agcw_s_1_4 X c]; exact Finset.mem_singleton_self _) (by rw [duties_agcw_r_8_1 X (nxt c)]; exact Finset.mem_singleton_self _) (by exact amount_agcw_s_1_4 X c false) (by exact amount_agcw_r_8_1 X (nxt c) false) (by rfl) (by exact payload_agcw_s_1_4 X c false) (by exact hp2_agcw_r_8_1 X c) (by rfl) (by routes)) $$ [Hg_agcw_r_7_1 Hd_agcw_r_8_1 HO Hts_agcw_s_1_4 Htn_agcw_r_8_1]
  · isplitr; · iexact HIo
    isplitr; · iexact HIt
    isplitl [Hg_agcw_r_7_1]; · iexact Hg_agcw_r_7_1
    isplitl [Hd_agcw_r_8_1]; · iexact Hd_agcw_r_8_1
    isplitl [HO]; · iexact HO
    isplitl [Hts_agcw_s_1_4]; · iexact Hts_agcw_s_1_4
    isplitr; · iexact Hrch_agcw_s_1_4
    isplitl [Htn_agcw_r_8_1]; · iexact Htn_agcw_r_8_1
    iexact Hrn_agcw_r_8_1
  iintro ⟨Hcs_agcw_s_1_4, HO⟩
  iclear HIo HIt
  -- wait recv ag ccw t=7 b=1
  try sl_exec_parts
  ihave #HIo := (bigSepL_elim_idx ownQs _ 121 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 97) (W := _) (R := 0) (m := 0) (T := ∅)
      (by rw [Nat.zero_add, expect_agccw_r_7_1 X c])) $$ [Hc_agccw_r_7_1 HO Hat_agccw_r_7_1]
  · isplitr; · iexact HIo
    isplitl [Hc_agccw_r_7_1]; · iexact Hc_agccw_r_7_1
    isplitl [HO]; · iexact HO
    isplitr; · iapply (mayWait_rem (F := F) c 97 (by decide) _ (by show (95 : ℕ) < 2 + 97; decide)); iexact Hlev
    iexact Hat_agccw_r_7_1
  iintro ⟨HO, Hat_agccw_r_7_1, #Hrch_agccw_r_7_1_1, Hpay⟩
  iclear HIo
  ihave Hp := (Entails.of_eq (rest_single X _ _ _ (duties_agccw_r_7_1 X c) (payload_agccw_r_7_1 X c false))) $$ Hpay
  irename Hp => Hg_agccw_r_7_1
  -- wait send ag ccw t=6 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 97) (W := _) (R := 3) (m := 0) (T := ∅)
      (by rw [Nat.zero_add, expect_agccw_s_1_3 X c])) $$ [Hcs_agccw_s_1_3 HO Hat_agccw_s_1]
  · isplitr; · iexact HIo
    isplitl [Hcs_agccw_s_1_3]; · iexact Hcs_agccw_s_1_3
    isplitl [HO]; · iexact HO
    isplitr; · iapply (mayWait_rem (F := F) c 97 (by decide) _ (by show (0 : ℕ) < 2 + 97; decide)); iexact Hlev
    iexact Hat_agccw_s_1
  iintro ⟨HO, Hat_agccw_s_1, #Hrch_agccw_s_1_4, Hpay⟩
  iclear HIo
  ihave Hp := (Entails.of_eq (rest_single X _ _ _ (duties_agccw_s_1_3 X c) (payload_agccw_s_1_3 X c false))) $$ Hpay
  irename Hp => Hback_agccw_r_5_1
  -- send ag ccw t=8 b=1 (payment 97, device function 98)
  try sl_exec_parts
  ihave HO := (owes_congr (rem_peel_97 c)) $$ HO
  ihave #HIo := (bigSepL_elim_idx ownQs _ 13 (by decide)) $$ HInvOwn
  ihave #HIt := (bigSepL_elim_idx recvCcw _ 47 (by decide)) $$ HInbCcw
  iapply (@send_owns_at F _ X c (prv c) ⟨k0_dev98 c, k0_dev98_lt c⟩ (dev98_eq c _) (rows oM (off false (c.val + 8) 1) (off_inb false _ 1)) (rows oM (off false (c.val + 8) 1) (off_inb false _ 1)) _ (qS cc0_scratch8 1 inb_S4_S1_1) (qR cc0_scratch9 8 1 inb_S15x2_S1x1_8_1) _ _ _ _ _ _ fullShare (doneV X false 1 (devAt c 8)) 4 (K (dcell c (qS cc0_scratch8 1 inb_S4_S1_1))) (K (dcell (prv c) (qR cc0_scratch9 8 1 inb_S15x2_S1x1_8_1))) _ (rem c 98) _ (by rw [duties_agccw_s_1_4 X c]; exact Finset.mem_singleton_self _) (by rw [duties_agccw_r_8_1 X (prv c)]; exact Finset.mem_singleton_self _) (by exact amount_agccw_s_1_4 X c false) (by exact amount_agccw_r_8_1 X (prv c) false) (by rfl) (by exact payload_agccw_s_1_4 X c false) (by exact hp2_agccw_r_8_1 X c) (by rfl) (by routes)) $$ [Hg_agccw_r_7_1 Hd_agccw_r_8_1 HO Hts_agccw_s_1_4 Htn_agccw_r_8_1]
  · isplitr; · iexact HIo
    isplitr; · iexact HIt
    isplitl [Hg_agccw_r_7_1]; · iexact Hg_agccw_r_7_1
    isplitl [Hd_agccw_r_8_1]; · iexact Hd_agccw_r_8_1
    isplitl [HO]; · iexact HO
    isplitl [Hts_agccw_s_1_4]; · iexact Hts_agccw_s_1_4
    isplitr; · iexact Hrch_agccw_s_1_4
    isplitl [Htn_agccw_r_8_1]; · iexact Htn_agccw_r_8_1
    iexact Hrn_agccw_r_8_1
  iintro ⟨Hcs_agccw_s_1_4, HO⟩
  iclear HIo HIt
  -- wait recv ag cw t=8 b=0
  try sl_exec_parts
  ihave #HIo := (bigSepL_elim_idx ownQs _ 62 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 98) (W := _) (R := 0) (m := 0) (T := ∅)
      (by rw [Nat.zero_add, expect_agcw_r_8_0 X c])) $$ [Hc_agcw_r_8_0 HO Hat_agcw_r_8_0]
  · isplitr; · iexact HIo
    isplitl [Hc_agcw_r_8_0]; · iexact Hc_agcw_r_8_0
    isplitl [HO]; · iexact HO
    isplitr; · iapply (mayWait_rem (F := F) c 98 (by decide) _ (by show (96 : ℕ) < 2 + 98; decide)); iexact Hlev
    iexact Hat_agcw_r_8_0
  iintro ⟨HO, Hat_agcw_r_8_0, #Hrch_agcw_r_8_0_1, Hpay⟩
  iclear HIo
  ihave Hp := (Entails.of_eq (rest_single X _ _ _ (duties_agcw_r_8_0 X c) (payload_agcw_r_8_0 X c false))) $$ Hpay
  irename Hp => Hg_agcw_r_8_0
  -- wait send ag cw t=7 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 98) (W := _) (R := 3) (m := 0) (T := ∅)
      (by rw [Nat.zero_add, expect_agcw_s_2_3 X c])) $$ [Hcs_agcw_s_2_3 HO Hat_agcw_s_2]
  · isplitr; · iexact HIo
    isplitl [Hcs_agcw_s_2_3]; · iexact Hcs_agcw_s_2_3
    isplitl [HO]; · iexact HO
    isplitr; · iapply (mayWait_rem (F := F) c 98 (by decide) _ (by show (0 : ℕ) < 2 + 98; decide)); iexact Hlev
    iexact Hat_agcw_s_2
  iintro ⟨HO, Hat_agcw_s_2, #Hrch_agcw_s_2_4, Hpay⟩
  iclear HIo
  ihave Hp := (Entails.of_eq (rest_single X _ _ _ (duties_agcw_s_2_3 X c) (payload_agcw_s_2_3 X c false))) $$ Hpay
  irename Hp => Hback_agcw_r_6_0
  -- send ag cw t=9 b=0 (payment 98, device function 99)
  try sl_exec_parts
  ihave HO := (owes_congr (rem_peel_98 c)) $$ HO
  ihave #HIo := (bigSepL_elim_idx ownQs _ 10 (by decide)) $$ HInvOwn
  ihave #HIt := (bigSepL_elim_idx recvCw _ 48 (by decide)) $$ HInbCw
  iapply (@send_owns_at F _ X c (nxt c) ⟨k0_dev99 c, k0_dev99_lt c⟩ (dev99_eq c _) (rows oM (off true (c.val + 7) 0) (off_inb true _ 0)) (rows oM (off true (c.val + 7) 0) (off_inb true _ 0)) _ (qS cc0_scratch6 2 inb_S4_S1_2) (qR cc0_scratch7 9 0 inb_S15x2_S1x1_9_0) _ _ _ _ _ _ fullShare (doneV X true 0 (devAt c 7)) 4 (K (dcell c (qS cc0_scratch6 2 inb_S4_S1_2))) (K (dcell (nxt c) (qR cc0_scratch7 9 0 inb_S15x2_S1x1_9_0))) _ (rem c 99) _ (by rw [duties_agcw_s_2_4 X c]; exact Finset.mem_singleton_self _) (by rw [duties_agcw_r_9_0 X (nxt c)]; exact Finset.mem_singleton_self _) (by exact amount_agcw_s_2_4 X c false) (by exact amount_agcw_r_9_0 X (nxt c) false) (by rfl) (by exact payload_agcw_s_2_4 X c false) (by exact hp2_agcw_r_9_0 X c) (by rfl) (by routes)) $$ [Hg_agcw_r_8_0 Hd_agcw_r_9_0 HO Hts_agcw_s_2_4 Htn_agcw_r_9_0]
  · isplitr; · iexact HIo
    isplitr; · iexact HIt
    isplitl [Hg_agcw_r_8_0]; · iexact Hg_agcw_r_8_0
    isplitl [Hd_agcw_r_9_0]; · iexact Hd_agcw_r_9_0
    isplitl [HO]; · iexact HO
    isplitl [Hts_agcw_s_2_4]; · iexact Hts_agcw_s_2_4
    isplitr; · iexact Hrch_agcw_s_2_4
    isplitl [Htn_agcw_r_9_0]; · iexact Htn_agcw_r_9_0
    iexact Hrn_agcw_r_9_0
  iintro ⟨Hcs_agcw_s_2_4, HO⟩
  iclear HIo HIt
  -- wait recv ag ccw t=8 b=0
  try sl_exec_parts
  ihave #HIo := (bigSepL_elim_idx ownQs _ 122 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 99) (W := _) (R := 0) (m := 0) (T := ∅)
      (by rw [Nat.zero_add, expect_agccw_r_8_0 X c])) $$ [Hc_agccw_r_8_0 HO Hat_agccw_r_8_0]
  · isplitr; · iexact HIo
    isplitl [Hc_agccw_r_8_0]; · iexact Hc_agccw_r_8_0
    isplitl [HO]; · iexact HO
    isplitr; · iapply (mayWait_rem (F := F) c 99 (by decide) _ (by show (97 : ℕ) < 2 + 99; decide)); iexact Hlev
    iexact Hat_agccw_r_8_0
  iintro ⟨HO, Hat_agccw_r_8_0, #Hrch_agccw_r_8_0_1, Hpay⟩
  iclear HIo
  ihave Hp := (Entails.of_eq (rest_single X _ _ _ (duties_agccw_r_8_0 X c) (payload_agccw_r_8_0 X c false))) $$ Hpay
  irename Hp => Hg_agccw_r_8_0
  -- wait send ag ccw t=7 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 99) (W := _) (R := 3) (m := 0) (T := ∅)
      (by rw [Nat.zero_add, expect_agccw_s_2_3 X c])) $$ [Hcs_agccw_s_2_3 HO Hat_agccw_s_2]
  · isplitr; · iexact HIo
    isplitl [Hcs_agccw_s_2_3]; · iexact Hcs_agccw_s_2_3
    isplitl [HO]; · iexact HO
    isplitr; · iapply (mayWait_rem (F := F) c 99 (by decide) _ (by show (0 : ℕ) < 2 + 99; decide)); iexact Hlev
    iexact Hat_agccw_s_2
  iintro ⟨HO, Hat_agccw_s_2, #Hrch_agccw_s_2_4, Hpay⟩
  iclear HIo
  ihave Hp := (Entails.of_eq (rest_single X _ _ _ (duties_agccw_s_2_3 X c) (payload_agccw_s_2_3 X c false))) $$ Hpay
  irename Hp => Hback_agccw_r_6_0
  -- send ag ccw t=9 b=0 (payment 99, device function 100)
  try sl_exec_parts
  ihave HO := (owes_congr (rem_peel_99 c)) $$ HO
  ihave #HIo := (bigSepL_elim_idx ownQs _ 14 (by decide)) $$ HInvOwn
  ihave #HIt := (bigSepL_elim_idx recvCcw _ 48 (by decide)) $$ HInbCcw
  iapply (@send_owns_at F _ X c (prv c) ⟨k0_dev100 c, k0_dev100_lt c⟩ (dev100_eq c _) (rows oM (off false (c.val + 9) 0) (off_inb false _ 0)) (rows oM (off false (c.val + 9) 0) (off_inb false _ 0)) _ (qS cc0_scratch8 2 inb_S4_S1_2) (qR cc0_scratch9 9 0 inb_S15x2_S1x1_9_0) _ _ _ _ _ _ fullShare (doneV X false 0 (devAt c 9)) 4 (K (dcell c (qS cc0_scratch8 2 inb_S4_S1_2))) (K (dcell (prv c) (qR cc0_scratch9 9 0 inb_S15x2_S1x1_9_0))) _ (rem c 100) _ (by rw [duties_agccw_s_2_4 X c]; exact Finset.mem_singleton_self _) (by rw [duties_agccw_r_9_0 X (prv c)]; exact Finset.mem_singleton_self _) (by exact amount_agccw_s_2_4 X c false) (by exact amount_agccw_r_9_0 X (prv c) false) (by rfl) (by exact payload_agccw_s_2_4 X c false) (by exact hp2_agccw_r_9_0 X c) (by rfl) (by routes)) $$ [Hg_agccw_r_8_0 Hd_agccw_r_9_0 HO Hts_agccw_s_2_4 Htn_agccw_r_9_0]
  · isplitr; · iexact HIo
    isplitr; · iexact HIt
    isplitl [Hg_agccw_r_8_0]; · iexact Hg_agccw_r_8_0
    isplitl [Hd_agccw_r_9_0]; · iexact Hd_agccw_r_9_0
    isplitl [HO]; · iexact HO
    isplitl [Hts_agccw_s_2_4]; · iexact Hts_agccw_s_2_4
    isplitr; · iexact Hrch_agccw_s_2_4
    isplitl [Htn_agccw_r_9_0]; · iexact Htn_agccw_r_9_0
    iexact Hrn_agccw_r_9_0
  iintro ⟨Hcs_agccw_s_2_4, HO⟩
  iclear HIo HIt
  -- wait recv ag cw t=8 b=1
  try sl_exec_parts
  ihave #HIo := (bigSepL_elim_idx ownQs _ 63 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 100) (W := _) (R := 0) (m := 0) (T := ∅)
      (by rw [Nat.zero_add, expect_agcw_r_8_1 X c])) $$ [Hc_agcw_r_8_1 HO Hat_agcw_r_8_1]
  · isplitr; · iexact HIo
    isplitl [Hc_agcw_r_8_1]; · iexact Hc_agcw_r_8_1
    isplitl [HO]; · iexact HO
    isplitr; · iapply (mayWait_rem (F := F) c 100 (by decide) _ (by show (98 : ℕ) < 2 + 100; decide)); iexact Hlev
    iexact Hat_agcw_r_8_1
  iintro ⟨HO, Hat_agcw_r_8_1, #Hrch_agcw_r_8_1_1, Hpay⟩
  iclear HIo
  ihave Hp := (Entails.of_eq (rest_single X _ _ _ (duties_agcw_r_8_1 X c) (payload_agcw_r_8_1 X c false))) $$ Hpay
  irename Hp => Hg_agcw_r_8_1
  -- wait send ag cw t=7 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 100) (W := _) (R := 3) (m := 0) (T := ∅)
      (by rw [Nat.zero_add, expect_agcw_s_3_3 X c])) $$ [Hcs_agcw_s_3_3 HO Hat_agcw_s_3]
  · isplitr; · iexact HIo
    isplitl [Hcs_agcw_s_3_3]; · iexact Hcs_agcw_s_3_3
    isplitl [HO]; · iexact HO
    isplitr; · iapply (mayWait_rem (F := F) c 100 (by decide) _ (by show (0 : ℕ) < 2 + 100; decide)); iexact Hlev
    iexact Hat_agcw_s_3
  iintro ⟨HO, Hat_agcw_s_3, #Hrch_agcw_s_3_4, Hpay⟩
  iclear HIo
  ihave Hp := (Entails.of_eq (rest_single X _ _ _ (duties_agcw_s_3_3 X c) (payload_agcw_s_3_3 X c false))) $$ Hpay
  irename Hp => Hback_agcw_r_6_1
  -- send ag cw t=9 b=1 (payment 100, device function 101)
  try sl_exec_parts
  ihave HO := (owes_congr (rem_peel_100 c)) $$ HO
  ihave #HIo := (bigSepL_elim_idx ownQs _ 11 (by decide)) $$ HInvOwn
  ihave #HIt := (bigSepL_elim_idx recvCw _ 49 (by decide)) $$ HInbCw
  iapply (@send_owns_at F _ X c (nxt c) ⟨k0_dev101 c, k0_dev101_lt c⟩ (dev101_eq c _) (rows oM (off true (c.val + 7) 1) (off_inb true _ 1)) (rows oM (off true (c.val + 7) 1) (off_inb true _ 1)) _ (qS cc0_scratch6 3 inb_S4_S1_3) (qR cc0_scratch7 9 1 inb_S15x2_S1x1_9_1) _ _ _ _ _ _ fullShare (doneV X true 1 (devAt c 7)) 4 (K (dcell c (qS cc0_scratch6 3 inb_S4_S1_3))) (K (dcell (nxt c) (qR cc0_scratch7 9 1 inb_S15x2_S1x1_9_1))) _ (rem c 101) _ (by rw [duties_agcw_s_3_4 X c]; exact Finset.mem_singleton_self _) (by rw [duties_agcw_r_9_1 X (nxt c)]; exact Finset.mem_singleton_self _) (by exact amount_agcw_s_3_4 X c false) (by exact amount_agcw_r_9_1 X (nxt c) false) (by rfl) (by exact payload_agcw_s_3_4 X c false) (by exact hp2_agcw_r_9_1 X c) (by rfl) (by routes)) $$ [Hg_agcw_r_8_1 Hd_agcw_r_9_1 HO Hts_agcw_s_3_4 Htn_agcw_r_9_1]
  · isplitr; · iexact HIo
    isplitr; · iexact HIt
    isplitl [Hg_agcw_r_8_1]; · iexact Hg_agcw_r_8_1
    isplitl [Hd_agcw_r_9_1]; · iexact Hd_agcw_r_9_1
    isplitl [HO]; · iexact HO
    isplitl [Hts_agcw_s_3_4]; · iexact Hts_agcw_s_3_4
    isplitr; · iexact Hrch_agcw_s_3_4
    isplitl [Htn_agcw_r_9_1]; · iexact Htn_agcw_r_9_1
    iexact Hrn_agcw_r_9_1
  iintro ⟨Hcs_agcw_s_3_4, HO⟩
  iclear HIo HIt
  -- wait recv ag ccw t=8 b=1
  try sl_exec_parts
  ihave #HIo := (bigSepL_elim_idx ownQs _ 123 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 101) (W := _) (R := 0) (m := 0) (T := ∅)
      (by rw [Nat.zero_add, expect_agccw_r_8_1 X c])) $$ [Hc_agccw_r_8_1 HO Hat_agccw_r_8_1]
  · isplitr; · iexact HIo
    isplitl [Hc_agccw_r_8_1]; · iexact Hc_agccw_r_8_1
    isplitl [HO]; · iexact HO
    isplitr; · iapply (mayWait_rem (F := F) c 101 (by decide) _ (by show (99 : ℕ) < 2 + 101; decide)); iexact Hlev
    iexact Hat_agccw_r_8_1
  iintro ⟨HO, Hat_agccw_r_8_1, #Hrch_agccw_r_8_1_1, Hpay⟩
  iclear HIo
  ihave Hp := (Entails.of_eq (rest_single X _ _ _ (duties_agccw_r_8_1 X c) (payload_agccw_r_8_1 X c false))) $$ Hpay
  irename Hp => Hg_agccw_r_8_1
  -- wait send ag ccw t=7 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 101) (W := _) (R := 3) (m := 0) (T := ∅)
      (by rw [Nat.zero_add, expect_agccw_s_3_3 X c])) $$ [Hcs_agccw_s_3_3 HO Hat_agccw_s_3]
  · isplitr; · iexact HIo
    isplitl [Hcs_agccw_s_3_3]; · iexact Hcs_agccw_s_3_3
    isplitl [HO]; · iexact HO
    isplitr; · iapply (mayWait_rem (F := F) c 101 (by decide) _ (by show (0 : ℕ) < 2 + 101; decide)); iexact Hlev
    iexact Hat_agccw_s_3
  iintro ⟨HO, Hat_agccw_s_3, #Hrch_agccw_s_3_4, Hpay⟩
  iclear HIo
  ihave Hp := (Entails.of_eq (rest_single X _ _ _ (duties_agccw_s_3_3 X c) (payload_agccw_s_3_3 X c false))) $$ Hpay
  irename Hp => Hback_agccw_r_6_1
  -- send ag ccw t=9 b=1 (payment 101, device function 102)
  try sl_exec_parts
  ihave HO := (owes_congr (rem_peel_101 c)) $$ HO
  ihave #HIo := (bigSepL_elim_idx ownQs _ 15 (by decide)) $$ HInvOwn
  ihave #HIt := (bigSepL_elim_idx recvCcw _ 49 (by decide)) $$ HInbCcw
  iapply (@send_owns_at F _ X c (prv c) ⟨k0_dev102 c, k0_dev102_lt c⟩ (dev102_eq c _) (rows oM (off false (c.val + 9) 1) (off_inb false _ 1)) (rows oM (off false (c.val + 9) 1) (off_inb false _ 1)) _ (qS cc0_scratch8 3 inb_S4_S1_3) (qR cc0_scratch9 9 1 inb_S15x2_S1x1_9_1) _ _ _ _ _ _ fullShare (doneV X false 1 (devAt c 9)) 4 (K (dcell c (qS cc0_scratch8 3 inb_S4_S1_3))) (K (dcell (prv c) (qR cc0_scratch9 9 1 inb_S15x2_S1x1_9_1))) _ (rem c 102) _ (by rw [duties_agccw_s_3_4 X c]; exact Finset.mem_singleton_self _) (by rw [duties_agccw_r_9_1 X (prv c)]; exact Finset.mem_singleton_self _) (by exact amount_agccw_s_3_4 X c false) (by exact amount_agccw_r_9_1 X (prv c) false) (by rfl) (by exact payload_agccw_s_3_4 X c false) (by exact hp2_agccw_r_9_1 X c) (by rfl) (by routes)) $$ [Hg_agccw_r_8_1 Hd_agccw_r_9_1 HO Hts_agccw_s_3_4 Htn_agccw_r_9_1]
  · isplitr; · iexact HIo
    isplitr; · iexact HIt
    isplitl [Hg_agccw_r_8_1]; · iexact Hg_agccw_r_8_1
    isplitl [Hd_agccw_r_9_1]; · iexact Hd_agccw_r_9_1
    isplitl [HO]; · iexact HO
    isplitl [Hts_agccw_s_3_4]; · iexact Hts_agccw_s_3_4
    isplitr; · iexact Hrch_agccw_s_3_4
    isplitl [Htn_agccw_r_9_1]; · iexact Htn_agccw_r_9_1
    iexact Hrn_agccw_r_9_1
  iintro ⟨Hcs_agccw_s_3_4, HO⟩
  iclear HIo HIt
  -- wait recv ag cw t=9 b=0
  try sl_exec_parts
  ihave #HIo := (bigSepL_elim_idx ownQs _ 64 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 102) (W := _) (R := 0) (m := 0) (T := ∅)
      (by rw [Nat.zero_add, expect_agcw_r_9_0 X c])) $$ [Hc_agcw_r_9_0 HO Hat_agcw_r_9_0]
  · isplitr; · iexact HIo
    isplitl [Hc_agcw_r_9_0]; · iexact Hc_agcw_r_9_0
    isplitl [HO]; · iexact HO
    isplitr; · iapply (mayWait_rem (F := F) c 102 (by decide) _ (by show (100 : ℕ) < 2 + 102; decide)); iexact Hlev
    iexact Hat_agcw_r_9_0
  iintro ⟨HO, Hat_agcw_r_9_0, #Hrch_agcw_r_9_0_1, Hpay⟩
  iclear HIo
  ihave Hp := (Entails.of_eq (rest_single X _ _ _ (duties_agcw_r_9_0 X c) (payload_agcw_r_9_0 X c false))) $$ Hpay
  irename Hp => Hg_agcw_r_9_0
  -- wait send ag cw t=8 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 102) (W := _) (R := 4) (m := 0) (T := ∅)
      (by rw [Nat.zero_add, expect_agcw_s_0_4 X c])) $$ [Hcs_agcw_s_0_4 HO Hat_agcw_s_0]
  · isplitr; · iexact HIo
    isplitl [Hcs_agcw_s_0_4]; · iexact Hcs_agcw_s_0_4
    isplitl [HO]; · iexact HO
    isplitr; · iapply (mayWait_rem (F := F) c 102 (by decide) _ (by show (0 : ℕ) < 2 + 102; decide)); iexact Hlev
    iexact Hat_agcw_s_0
  iintro ⟨HO, Hat_agcw_s_0, #Hrch_agcw_s_0_5, Hpay⟩
  iclear HIo
  ihave Hp := (Entails.of_eq (rest_single X _ _ _ (duties_agcw_s_0_4 X c) (payload_agcw_s_0_4 X c false))) $$ Hpay
  irename Hp => Hback_agcw_r_7_0
  -- send ag cw t=10 b=0 (payment 102, device function 103)
  try sl_exec_parts
  ihave HO := (owes_congr (rem_peel_102 c)) $$ HO
  ihave #HIo := (bigSepL_elim_idx ownQs _ 8 (by decide)) $$ HInvOwn
  ihave #HIt := (bigSepL_elim_idx recvCw _ 50 (by decide)) $$ HInbCw
  iapply (@send_owns_at F _ X c (nxt c) ⟨k0_dev103 c, k0_dev103_lt c⟩ (dev103_eq c _) (rows oM (off true (c.val + 6) 0) (off_inb true _ 0)) (rows oM (off true (c.val + 6) 0) (off_inb true _ 0)) _ (qS cc0_scratch6 0 inb_S4_S1_0) (qR cc0_scratch7 10 0 inb_S15x2_S1x1_10_0) _ _ _ _ _ _ fullShare (doneV X true 0 (devAt c 6)) 5 (K (dcell c (qS cc0_scratch6 0 inb_S4_S1_0))) (K (dcell (nxt c) (qR cc0_scratch7 10 0 inb_S15x2_S1x1_10_0))) _ (rem c 103) _ (by rw [duties_agcw_s_0_5 X c]; exact Finset.mem_singleton_self _) (by rw [duties_agcw_r_10_0 X (nxt c)]; exact Finset.mem_singleton_self _) (by exact amount_agcw_s_0_5 X c false) (by exact amount_agcw_r_10_0 X (nxt c) false) (by rfl) (by exact payload_agcw_s_0_5 X c false) (by exact hp2_agcw_r_10_0 X c) (by rfl) (by routes)) $$ [Hg_agcw_r_9_0 Hd_agcw_r_10_0 HO Hts_agcw_s_0_5 Htn_agcw_r_10_0]
  · isplitr; · iexact HIo
    isplitr; · iexact HIt
    isplitl [Hg_agcw_r_9_0]; · iexact Hg_agcw_r_9_0
    isplitl [Hd_agcw_r_10_0]; · iexact Hd_agcw_r_10_0
    isplitl [HO]; · iexact HO
    isplitl [Hts_agcw_s_0_5]; · iexact Hts_agcw_s_0_5
    isplitr; · iexact Hrch_agcw_s_0_5
    isplitl [Htn_agcw_r_10_0]; · iexact Htn_agcw_r_10_0
    iexact Hrn_agcw_r_10_0
  iintro ⟨Hcs_agcw_s_0_5, HO⟩
  iclear HIo HIt
  -- wait recv ag ccw t=9 b=0
  try sl_exec_parts
  ihave #HIo := (bigSepL_elim_idx ownQs _ 124 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 103) (W := _) (R := 0) (m := 0) (T := ∅)
      (by rw [Nat.zero_add, expect_agccw_r_9_0 X c])) $$ [Hc_agccw_r_9_0 HO Hat_agccw_r_9_0]
  · isplitr; · iexact HIo
    isplitl [Hc_agccw_r_9_0]; · iexact Hc_agccw_r_9_0
    isplitl [HO]; · iexact HO
    isplitr; · iapply (mayWait_rem (F := F) c 103 (by decide) _ (by show (101 : ℕ) < 2 + 103; decide)); iexact Hlev
    iexact Hat_agccw_r_9_0
  iintro ⟨HO, Hat_agccw_r_9_0, #Hrch_agccw_r_9_0_1, Hpay⟩
  iclear HIo
  ihave Hp := (Entails.of_eq (rest_single X _ _ _ (duties_agccw_r_9_0 X c) (payload_agccw_r_9_0 X c false))) $$ Hpay
  irename Hp => Hg_agccw_r_9_0
  -- wait send ag ccw t=8 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 103) (W := _) (R := 4) (m := 0) (T := ∅)
      (by rw [Nat.zero_add, expect_agccw_s_0_4 X c])) $$ [Hcs_agccw_s_0_4 HO Hat_agccw_s_0]
  · isplitr; · iexact HIo
    isplitl [Hcs_agccw_s_0_4]; · iexact Hcs_agccw_s_0_4
    isplitl [HO]; · iexact HO
    isplitr; · iapply (mayWait_rem (F := F) c 103 (by decide) _ (by show (0 : ℕ) < 2 + 103; decide)); iexact Hlev
    iexact Hat_agccw_s_0
  iintro ⟨HO, Hat_agccw_s_0, #Hrch_agccw_s_0_5, Hpay⟩
  iclear HIo
  ihave Hp := (Entails.of_eq (rest_single X _ _ _ (duties_agccw_s_0_4 X c) (payload_agccw_s_0_4 X c false))) $$ Hpay
  irename Hp => Hback_agccw_r_7_0
  -- send ag ccw t=10 b=0 (payment 103, device function 104)
  try sl_exec_parts
  ihave HO := (owes_congr (rem_peel_103 c)) $$ HO
  ihave #HIo := (bigSepL_elim_idx ownQs _ 12 (by decide)) $$ HInvOwn
  ihave #HIt := (bigSepL_elim_idx recvCcw _ 50 (by decide)) $$ HInbCcw
  iapply (@send_owns_at F _ X c (prv c) ⟨k0_dev104 c, k0_dev104_lt c⟩ (dev104_eq c _) (rows oM (off false (c.val + 10) 0) (off_inb false _ 0)) (rows oM (off false (c.val + 10) 0) (off_inb false _ 0)) _ (qS cc0_scratch8 0 inb_S4_S1_0) (qR cc0_scratch9 10 0 inb_S15x2_S1x1_10_0) _ _ _ _ _ _ fullShare (doneV X false 0 (devAt c 10)) 5 (K (dcell c (qS cc0_scratch8 0 inb_S4_S1_0))) (K (dcell (prv c) (qR cc0_scratch9 10 0 inb_S15x2_S1x1_10_0))) _ (rem c 104) _ (by rw [duties_agccw_s_0_5 X c]; exact Finset.mem_singleton_self _) (by rw [duties_agccw_r_10_0 X (prv c)]; exact Finset.mem_singleton_self _) (by exact amount_agccw_s_0_5 X c false) (by exact amount_agccw_r_10_0 X (prv c) false) (by rfl) (by exact payload_agccw_s_0_5 X c false) (by exact hp2_agccw_r_10_0 X c) (by rfl) (by routes)) $$ [Hg_agccw_r_9_0 Hd_agccw_r_10_0 HO Hts_agccw_s_0_5 Htn_agccw_r_10_0]
  · isplitr; · iexact HIo
    isplitr; · iexact HIt
    isplitl [Hg_agccw_r_9_0]; · iexact Hg_agccw_r_9_0
    isplitl [Hd_agccw_r_10_0]; · iexact Hd_agccw_r_10_0
    isplitl [HO]; · iexact HO
    isplitl [Hts_agccw_s_0_5]; · iexact Hts_agccw_s_0_5
    isplitr; · iexact Hrch_agccw_s_0_5
    isplitl [Htn_agccw_r_10_0]; · iexact Htn_agccw_r_10_0
    iexact Hrn_agccw_r_10_0
  iintro ⟨Hcs_agccw_s_0_5, HO⟩
  iclear HIo HIt
  -- wait recv ag cw t=9 b=1
  try sl_exec_parts
  ihave #HIo := (bigSepL_elim_idx ownQs _ 65 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 104) (W := _) (R := 0) (m := 0) (T := ∅)
      (by rw [Nat.zero_add, expect_agcw_r_9_1 X c])) $$ [Hc_agcw_r_9_1 HO Hat_agcw_r_9_1]
  · isplitr; · iexact HIo
    isplitl [Hc_agcw_r_9_1]; · iexact Hc_agcw_r_9_1
    isplitl [HO]; · iexact HO
    isplitr; · iapply (mayWait_rem (F := F) c 104 (by decide) _ (by show (102 : ℕ) < 2 + 104; decide)); iexact Hlev
    iexact Hat_agcw_r_9_1
  iintro ⟨HO, Hat_agcw_r_9_1, #Hrch_agcw_r_9_1_1, Hpay⟩
  iclear HIo
  ihave Hp := (Entails.of_eq (rest_single X _ _ _ (duties_agcw_r_9_1 X c) (payload_agcw_r_9_1 X c false))) $$ Hpay
  irename Hp => Hg_agcw_r_9_1
  -- wait send ag cw t=8 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 104) (W := _) (R := 4) (m := 0) (T := ∅)
      (by rw [Nat.zero_add, expect_agcw_s_1_4 X c])) $$ [Hcs_agcw_s_1_4 HO Hat_agcw_s_1]
  · isplitr; · iexact HIo
    isplitl [Hcs_agcw_s_1_4]; · iexact Hcs_agcw_s_1_4
    isplitl [HO]; · iexact HO
    isplitr; · iapply (mayWait_rem (F := F) c 104 (by decide) _ (by show (0 : ℕ) < 2 + 104; decide)); iexact Hlev
    iexact Hat_agcw_s_1
  iintro ⟨HO, Hat_agcw_s_1, #Hrch_agcw_s_1_5, Hpay⟩
  iclear HIo
  ihave Hp := (Entails.of_eq (rest_single X _ _ _ (duties_agcw_s_1_4 X c) (payload_agcw_s_1_4 X c false))) $$ Hpay
  irename Hp => Hback_agcw_r_7_1
  -- send ag cw t=10 b=1 (payment 104, device function 105)
  try sl_exec_parts
  ihave HO := (owes_congr (rem_peel_104 c)) $$ HO
  ihave #HIo := (bigSepL_elim_idx ownQs _ 9 (by decide)) $$ HInvOwn
  ihave #HIt := (bigSepL_elim_idx recvCw _ 51 (by decide)) $$ HInbCw
  iapply (@send_owns_at F _ X c (nxt c) ⟨k0_dev105 c, k0_dev105_lt c⟩ (dev105_eq c _) (rows oM (off true (c.val + 6) 1) (off_inb true _ 1)) (rows oM (off true (c.val + 6) 1) (off_inb true _ 1)) _ (qS cc0_scratch6 1 inb_S4_S1_1) (qR cc0_scratch7 10 1 inb_S15x2_S1x1_10_1) _ _ _ _ _ _ fullShare (doneV X true 1 (devAt c 6)) 5 (K (dcell c (qS cc0_scratch6 1 inb_S4_S1_1))) (K (dcell (nxt c) (qR cc0_scratch7 10 1 inb_S15x2_S1x1_10_1))) _ (rem c 105) _ (by rw [duties_agcw_s_1_5 X c]; exact Finset.mem_singleton_self _) (by rw [duties_agcw_r_10_1 X (nxt c)]; exact Finset.mem_singleton_self _) (by exact amount_agcw_s_1_5 X c false) (by exact amount_agcw_r_10_1 X (nxt c) false) (by rfl) (by exact payload_agcw_s_1_5 X c false) (by exact hp2_agcw_r_10_1 X c) (by rfl) (by routes)) $$ [Hg_agcw_r_9_1 Hd_agcw_r_10_1 HO Hts_agcw_s_1_5 Htn_agcw_r_10_1]
  · isplitr; · iexact HIo
    isplitr; · iexact HIt
    isplitl [Hg_agcw_r_9_1]; · iexact Hg_agcw_r_9_1
    isplitl [Hd_agcw_r_10_1]; · iexact Hd_agcw_r_10_1
    isplitl [HO]; · iexact HO
    isplitl [Hts_agcw_s_1_5]; · iexact Hts_agcw_s_1_5
    isplitr; · iexact Hrch_agcw_s_1_5
    isplitl [Htn_agcw_r_10_1]; · iexact Htn_agcw_r_10_1
    iexact Hrn_agcw_r_10_1
  iintro ⟨Hcs_agcw_s_1_5, HO⟩
  iclear HIo HIt
  -- wait recv ag ccw t=9 b=1
  try sl_exec_parts
  ihave #HIo := (bigSepL_elim_idx ownQs _ 125 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 105) (W := _) (R := 0) (m := 0) (T := ∅)
      (by rw [Nat.zero_add, expect_agccw_r_9_1 X c])) $$ [Hc_agccw_r_9_1 HO Hat_agccw_r_9_1]
  · isplitr; · iexact HIo
    isplitl [Hc_agccw_r_9_1]; · iexact Hc_agccw_r_9_1
    isplitl [HO]; · iexact HO
    isplitr; · iapply (mayWait_rem (F := F) c 105 (by decide) _ (by show (103 : ℕ) < 2 + 105; decide)); iexact Hlev
    iexact Hat_agccw_r_9_1
  iintro ⟨HO, Hat_agccw_r_9_1, #Hrch_agccw_r_9_1_1, Hpay⟩
  iclear HIo
  ihave Hp := (Entails.of_eq (rest_single X _ _ _ (duties_agccw_r_9_1 X c) (payload_agccw_r_9_1 X c false))) $$ Hpay
  irename Hp => Hg_agccw_r_9_1
  -- wait send ag ccw t=8 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 105) (W := _) (R := 4) (m := 0) (T := ∅)
      (by rw [Nat.zero_add, expect_agccw_s_1_4 X c])) $$ [Hcs_agccw_s_1_4 HO Hat_agccw_s_1]
  · isplitr; · iexact HIo
    isplitl [Hcs_agccw_s_1_4]; · iexact Hcs_agccw_s_1_4
    isplitl [HO]; · iexact HO
    isplitr; · iapply (mayWait_rem (F := F) c 105 (by decide) _ (by show (0 : ℕ) < 2 + 105; decide)); iexact Hlev
    iexact Hat_agccw_s_1
  iintro ⟨HO, Hat_agccw_s_1, #Hrch_agccw_s_1_5, Hpay⟩
  iclear HIo
  ihave Hp := (Entails.of_eq (rest_single X _ _ _ (duties_agccw_s_1_4 X c) (payload_agccw_s_1_4 X c false))) $$ Hpay
  irename Hp => Hback_agccw_r_7_1
  -- send ag ccw t=10 b=1 (payment 105, device function 106)
  try sl_exec_parts
  ihave HO := (owes_congr (rem_peel_105 c)) $$ HO
  ihave #HIo := (bigSepL_elim_idx ownQs _ 13 (by decide)) $$ HInvOwn
  ihave #HIt := (bigSepL_elim_idx recvCcw _ 51 (by decide)) $$ HInbCcw
  iapply (@send_owns_at F _ X c (prv c) ⟨k0_dev106 c, k0_dev106_lt c⟩ (dev106_eq c _) (rows oM (off false (c.val + 10) 1) (off_inb false _ 1)) (rows oM (off false (c.val + 10) 1) (off_inb false _ 1)) _ (qS cc0_scratch8 1 inb_S4_S1_1) (qR cc0_scratch9 10 1 inb_S15x2_S1x1_10_1) _ _ _ _ _ _ fullShare (doneV X false 1 (devAt c 10)) 5 (K (dcell c (qS cc0_scratch8 1 inb_S4_S1_1))) (K (dcell (prv c) (qR cc0_scratch9 10 1 inb_S15x2_S1x1_10_1))) _ (rem c 106) _ (by rw [duties_agccw_s_1_5 X c]; exact Finset.mem_singleton_self _) (by rw [duties_agccw_r_10_1 X (prv c)]; exact Finset.mem_singleton_self _) (by exact amount_agccw_s_1_5 X c false) (by exact amount_agccw_r_10_1 X (prv c) false) (by rfl) (by exact payload_agccw_s_1_5 X c false) (by exact hp2_agccw_r_10_1 X c) (by rfl) (by routes)) $$ [Hg_agccw_r_9_1 Hd_agccw_r_10_1 HO Hts_agccw_s_1_5 Htn_agccw_r_10_1]
  · isplitr; · iexact HIo
    isplitr; · iexact HIt
    isplitl [Hg_agccw_r_9_1]; · iexact Hg_agccw_r_9_1
    isplitl [Hd_agccw_r_10_1]; · iexact Hd_agccw_r_10_1
    isplitl [HO]; · iexact HO
    isplitl [Hts_agccw_s_1_5]; · iexact Hts_agccw_s_1_5
    isplitr; · iexact Hrch_agccw_s_1_5
    isplitl [Htn_agccw_r_10_1]; · iexact Htn_agccw_r_10_1
    iexact Hrn_agccw_r_10_1
  iintro ⟨Hcs_agccw_s_1_5, HO⟩
  iclear HIo HIt
  -- wait recv ag cw t=10 b=0
  try sl_exec_parts
  ihave #HIo := (bigSepL_elim_idx ownQs _ 66 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 106) (W := _) (R := 0) (m := 0) (T := ∅)
      (by rw [Nat.zero_add, expect_agcw_r_10_0 X c])) $$ [Hc_agcw_r_10_0 HO Hat_agcw_r_10_0]
  · isplitr; · iexact HIo
    isplitl [Hc_agcw_r_10_0]; · iexact Hc_agcw_r_10_0
    isplitl [HO]; · iexact HO
    isplitr; · iapply (mayWait_rem (F := F) c 106 (by decide) _ (by show (104 : ℕ) < 2 + 106; decide)); iexact Hlev
    iexact Hat_agcw_r_10_0
  iintro ⟨HO, Hat_agcw_r_10_0, #Hrch_agcw_r_10_0_1, Hpay⟩
  iclear HIo
  ihave Hp := (Entails.of_eq (rest_single X _ _ _ (duties_agcw_r_10_0 X c) (payload_agcw_r_10_0 X c false))) $$ Hpay
  irename Hp => Hg_agcw_r_10_0
  -- wait send ag cw t=9 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 106) (W := _) (R := 4) (m := 0) (T := ∅)
      (by rw [Nat.zero_add, expect_agcw_s_2_4 X c])) $$ [Hcs_agcw_s_2_4 HO Hat_agcw_s_2]
  · isplitr; · iexact HIo
    isplitl [Hcs_agcw_s_2_4]; · iexact Hcs_agcw_s_2_4
    isplitl [HO]; · iexact HO
    isplitr; · iapply (mayWait_rem (F := F) c 106 (by decide) _ (by show (0 : ℕ) < 2 + 106; decide)); iexact Hlev
    iexact Hat_agcw_s_2
  iintro ⟨HO, Hat_agcw_s_2, #Hrch_agcw_s_2_5, Hpay⟩
  iclear HIo
  ihave Hp := (Entails.of_eq (rest_single X _ _ _ (duties_agcw_s_2_4 X c) (payload_agcw_s_2_4 X c false))) $$ Hpay
  irename Hp => Hback_agcw_r_8_0
  -- send ag cw t=11 b=0 (payment 106, device function 107)
  try sl_exec_parts
  ihave HO := (owes_congr (rem_peel_106 c)) $$ HO
  ihave #HIo := (bigSepL_elim_idx ownQs _ 10 (by decide)) $$ HInvOwn
  ihave #HIt := (bigSepL_elim_idx recvCw _ 52 (by decide)) $$ HInbCw
  iapply (@send_owns_at F _ X c (nxt c) ⟨k0_dev107 c, k0_dev107_lt c⟩ (dev107_eq c _) (rows oM (off true (c.val + 5) 0) (off_inb true _ 0)) (rows oM (off true (c.val + 5) 0) (off_inb true _ 0)) _ (qS cc0_scratch6 2 inb_S4_S1_2) (qR cc0_scratch7 11 0 inb_S15x2_S1x1_11_0) _ _ _ _ _ _ fullShare (doneV X true 0 (devAt c 5)) 5 (K (dcell c (qS cc0_scratch6 2 inb_S4_S1_2))) (K (dcell (nxt c) (qR cc0_scratch7 11 0 inb_S15x2_S1x1_11_0))) _ (rem c 107) _ (by rw [duties_agcw_s_2_5 X c]; exact Finset.mem_singleton_self _) (by rw [duties_agcw_r_11_0 X (nxt c)]; exact Finset.mem_singleton_self _) (by exact amount_agcw_s_2_5 X c false) (by exact amount_agcw_r_11_0 X (nxt c) false) (by rfl) (by exact payload_agcw_s_2_5 X c false) (by exact hp2_agcw_r_11_0 X c) (by rfl) (by routes)) $$ [Hg_agcw_r_10_0 Hd_agcw_r_11_0 HO Hts_agcw_s_2_5 Htn_agcw_r_11_0]
  · isplitr; · iexact HIo
    isplitr; · iexact HIt
    isplitl [Hg_agcw_r_10_0]; · iexact Hg_agcw_r_10_0
    isplitl [Hd_agcw_r_11_0]; · iexact Hd_agcw_r_11_0
    isplitl [HO]; · iexact HO
    isplitl [Hts_agcw_s_2_5]; · iexact Hts_agcw_s_2_5
    isplitr; · iexact Hrch_agcw_s_2_5
    isplitl [Htn_agcw_r_11_0]; · iexact Htn_agcw_r_11_0
    iexact Hrn_agcw_r_11_0
  iintro ⟨Hcs_agcw_s_2_5, HO⟩
  iclear HIo HIt
  -- wait recv ag ccw t=10 b=0
  try sl_exec_parts
  ihave #HIo := (bigSepL_elim_idx ownQs _ 126 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 107) (W := _) (R := 0) (m := 0) (T := ∅)
      (by rw [Nat.zero_add, expect_agccw_r_10_0 X c])) $$ [Hc_agccw_r_10_0 HO Hat_agccw_r_10_0]
  · isplitr; · iexact HIo
    isplitl [Hc_agccw_r_10_0]; · iexact Hc_agccw_r_10_0
    isplitl [HO]; · iexact HO
    isplitr; · iapply (mayWait_rem (F := F) c 107 (by decide) _ (by show (105 : ℕ) < 2 + 107; decide)); iexact Hlev
    iexact Hat_agccw_r_10_0
  iintro ⟨HO, Hat_agccw_r_10_0, #Hrch_agccw_r_10_0_1, Hpay⟩
  iclear HIo
  ihave Hp := (Entails.of_eq (rest_single X _ _ _ (duties_agccw_r_10_0 X c) (payload_agccw_r_10_0 X c false))) $$ Hpay
  irename Hp => Hg_agccw_r_10_0
  -- wait send ag ccw t=9 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 107) (W := _) (R := 4) (m := 0) (T := ∅)
      (by rw [Nat.zero_add, expect_agccw_s_2_4 X c])) $$ [Hcs_agccw_s_2_4 HO Hat_agccw_s_2]
  · isplitr; · iexact HIo
    isplitl [Hcs_agccw_s_2_4]; · iexact Hcs_agccw_s_2_4
    isplitl [HO]; · iexact HO
    isplitr; · iapply (mayWait_rem (F := F) c 107 (by decide) _ (by show (0 : ℕ) < 2 + 107; decide)); iexact Hlev
    iexact Hat_agccw_s_2
  iintro ⟨HO, Hat_agccw_s_2, #Hrch_agccw_s_2_5, Hpay⟩
  iclear HIo
  ihave Hp := (Entails.of_eq (rest_single X _ _ _ (duties_agccw_s_2_4 X c) (payload_agccw_s_2_4 X c false))) $$ Hpay
  irename Hp => Hback_agccw_r_8_0
  -- send ag ccw t=11 b=0 (payment 107, device function 108)
  try sl_exec_parts
  ihave HO := (owes_congr (rem_peel_107 c)) $$ HO
  ihave #HIo := (bigSepL_elim_idx ownQs _ 14 (by decide)) $$ HInvOwn
  ihave #HIt := (bigSepL_elim_idx recvCcw _ 52 (by decide)) $$ HInbCcw
  iapply (@send_owns_at F _ X c (prv c) ⟨k0_dev108 c, k0_dev108_lt c⟩ (dev108_eq c _) (rows oM (off false (c.val + 11) 0) (off_inb false _ 0)) (rows oM (off false (c.val + 11) 0) (off_inb false _ 0)) _ (qS cc0_scratch8 2 inb_S4_S1_2) (qR cc0_scratch9 11 0 inb_S15x2_S1x1_11_0) _ _ _ _ _ _ fullShare (doneV X false 0 (devAt c 11)) 5 (K (dcell c (qS cc0_scratch8 2 inb_S4_S1_2))) (K (dcell (prv c) (qR cc0_scratch9 11 0 inb_S15x2_S1x1_11_0))) _ (rem c 108) _ (by rw [duties_agccw_s_2_5 X c]; exact Finset.mem_singleton_self _) (by rw [duties_agccw_r_11_0 X (prv c)]; exact Finset.mem_singleton_self _) (by exact amount_agccw_s_2_5 X c false) (by exact amount_agccw_r_11_0 X (prv c) false) (by rfl) (by exact payload_agccw_s_2_5 X c false) (by exact hp2_agccw_r_11_0 X c) (by rfl) (by routes)) $$ [Hg_agccw_r_10_0 Hd_agccw_r_11_0 HO Hts_agccw_s_2_5 Htn_agccw_r_11_0]
  · isplitr; · iexact HIo
    isplitr; · iexact HIt
    isplitl [Hg_agccw_r_10_0]; · iexact Hg_agccw_r_10_0
    isplitl [Hd_agccw_r_11_0]; · iexact Hd_agccw_r_11_0
    isplitl [HO]; · iexact HO
    isplitl [Hts_agccw_s_2_5]; · iexact Hts_agccw_s_2_5
    isplitr; · iexact Hrch_agccw_s_2_5
    isplitl [Htn_agccw_r_11_0]; · iexact Htn_agccw_r_11_0
    iexact Hrn_agccw_r_11_0
  iintro ⟨Hcs_agccw_s_2_5, HO⟩
  iclear HIo HIt
  -- wait recv ag cw t=10 b=1
  try sl_exec_parts
  ihave #HIo := (bigSepL_elim_idx ownQs _ 67 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 108) (W := _) (R := 0) (m := 0) (T := ∅)
      (by rw [Nat.zero_add, expect_agcw_r_10_1 X c])) $$ [Hc_agcw_r_10_1 HO Hat_agcw_r_10_1]
  · isplitr; · iexact HIo
    isplitl [Hc_agcw_r_10_1]; · iexact Hc_agcw_r_10_1
    isplitl [HO]; · iexact HO
    isplitr; · iapply (mayWait_rem (F := F) c 108 (by decide) _ (by show (106 : ℕ) < 2 + 108; decide)); iexact Hlev
    iexact Hat_agcw_r_10_1
  iintro ⟨HO, Hat_agcw_r_10_1, #Hrch_agcw_r_10_1_1, Hpay⟩
  iclear HIo
  ihave Hp := (Entails.of_eq (rest_single X _ _ _ (duties_agcw_r_10_1 X c) (payload_agcw_r_10_1 X c false))) $$ Hpay
  irename Hp => Hg_agcw_r_10_1
  -- wait send ag cw t=9 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 108) (W := _) (R := 4) (m := 0) (T := ∅)
      (by rw [Nat.zero_add, expect_agcw_s_3_4 X c])) $$ [Hcs_agcw_s_3_4 HO Hat_agcw_s_3]
  · isplitr; · iexact HIo
    isplitl [Hcs_agcw_s_3_4]; · iexact Hcs_agcw_s_3_4
    isplitl [HO]; · iexact HO
    isplitr; · iapply (mayWait_rem (F := F) c 108 (by decide) _ (by show (0 : ℕ) < 2 + 108; decide)); iexact Hlev
    iexact Hat_agcw_s_3
  iintro ⟨HO, Hat_agcw_s_3, #Hrch_agcw_s_3_5, Hpay⟩
  iclear HIo
  ihave Hp := (Entails.of_eq (rest_single X _ _ _ (duties_agcw_s_3_4 X c) (payload_agcw_s_3_4 X c false))) $$ Hpay
  irename Hp => Hback_agcw_r_8_1
  -- send ag cw t=11 b=1 (payment 108, device function 109)
  try sl_exec_parts
  ihave HO := (owes_congr (rem_peel_108 c)) $$ HO
  ihave #HIo := (bigSepL_elim_idx ownQs _ 11 (by decide)) $$ HInvOwn
  ihave #HIt := (bigSepL_elim_idx recvCw _ 53 (by decide)) $$ HInbCw
  iapply (@send_owns_at F _ X c (nxt c) ⟨k0_dev109 c, k0_dev109_lt c⟩ (dev109_eq c _) (rows oM (off true (c.val + 5) 1) (off_inb true _ 1)) (rows oM (off true (c.val + 5) 1) (off_inb true _ 1)) _ (qS cc0_scratch6 3 inb_S4_S1_3) (qR cc0_scratch7 11 1 inb_S15x2_S1x1_11_1) _ _ _ _ _ _ fullShare (doneV X true 1 (devAt c 5)) 5 (K (dcell c (qS cc0_scratch6 3 inb_S4_S1_3))) (K (dcell (nxt c) (qR cc0_scratch7 11 1 inb_S15x2_S1x1_11_1))) _ (rem c 109) _ (by rw [duties_agcw_s_3_5 X c]; exact Finset.mem_singleton_self _) (by rw [duties_agcw_r_11_1 X (nxt c)]; exact Finset.mem_singleton_self _) (by exact amount_agcw_s_3_5 X c false) (by exact amount_agcw_r_11_1 X (nxt c) false) (by rfl) (by exact payload_agcw_s_3_5 X c false) (by exact hp2_agcw_r_11_1 X c) (by rfl) (by routes)) $$ [Hg_agcw_r_10_1 Hd_agcw_r_11_1 HO Hts_agcw_s_3_5 Htn_agcw_r_11_1]
  · isplitr; · iexact HIo
    isplitr; · iexact HIt
    isplitl [Hg_agcw_r_10_1]; · iexact Hg_agcw_r_10_1
    isplitl [Hd_agcw_r_11_1]; · iexact Hd_agcw_r_11_1
    isplitl [HO]; · iexact HO
    isplitl [Hts_agcw_s_3_5]; · iexact Hts_agcw_s_3_5
    isplitr; · iexact Hrch_agcw_s_3_5
    isplitl [Htn_agcw_r_11_1]; · iexact Htn_agcw_r_11_1
    iexact Hrn_agcw_r_11_1
  iintro ⟨Hcs_agcw_s_3_5, HO⟩
  iclear HIo HIt
  -- wait recv ag ccw t=10 b=1
  try sl_exec_parts
  ihave #HIo := (bigSepL_elim_idx ownQs _ 127 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 109) (W := _) (R := 0) (m := 0) (T := ∅)
      (by rw [Nat.zero_add, expect_agccw_r_10_1 X c])) $$ [Hc_agccw_r_10_1 HO Hat_agccw_r_10_1]
  · isplitr; · iexact HIo
    isplitl [Hc_agccw_r_10_1]; · iexact Hc_agccw_r_10_1
    isplitl [HO]; · iexact HO
    isplitr; · iapply (mayWait_rem (F := F) c 109 (by decide) _ (by show (107 : ℕ) < 2 + 109; decide)); iexact Hlev
    iexact Hat_agccw_r_10_1
  iintro ⟨HO, Hat_agccw_r_10_1, #Hrch_agccw_r_10_1_1, Hpay⟩
  iclear HIo
  ihave Hp := (Entails.of_eq (rest_single X _ _ _ (duties_agccw_r_10_1 X c) (payload_agccw_r_10_1 X c false))) $$ Hpay
  irename Hp => Hg_agccw_r_10_1
  -- wait send ag ccw t=9 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 109) (W := _) (R := 4) (m := 0) (T := ∅)
      (by rw [Nat.zero_add, expect_agccw_s_3_4 X c])) $$ [Hcs_agccw_s_3_4 HO Hat_agccw_s_3]
  · isplitr; · iexact HIo
    isplitl [Hcs_agccw_s_3_4]; · iexact Hcs_agccw_s_3_4
    isplitl [HO]; · iexact HO
    isplitr; · iapply (mayWait_rem (F := F) c 109 (by decide) _ (by show (0 : ℕ) < 2 + 109; decide)); iexact Hlev
    iexact Hat_agccw_s_3
  iintro ⟨HO, Hat_agccw_s_3, #Hrch_agccw_s_3_5, Hpay⟩
  iclear HIo
  ihave Hp := (Entails.of_eq (rest_single X _ _ _ (duties_agccw_s_3_4 X c) (payload_agccw_s_3_4 X c false))) $$ Hpay
  irename Hp => Hback_agccw_r_8_1
  -- send ag ccw t=11 b=1 (payment 109, device function 110)
  try sl_exec_parts
  ihave HO := (owes_congr (rem_peel_109 c)) $$ HO
  ihave #HIo := (bigSepL_elim_idx ownQs _ 15 (by decide)) $$ HInvOwn
  ihave #HIt := (bigSepL_elim_idx recvCcw _ 53 (by decide)) $$ HInbCcw
  iapply (@send_owns_at F _ X c (prv c) ⟨k0_dev110 c, k0_dev110_lt c⟩ (dev110_eq c _) (rows oM (off false (c.val + 11) 1) (off_inb false _ 1)) (rows oM (off false (c.val + 11) 1) (off_inb false _ 1)) _ (qS cc0_scratch8 3 inb_S4_S1_3) (qR cc0_scratch9 11 1 inb_S15x2_S1x1_11_1) _ _ _ _ _ _ fullShare (doneV X false 1 (devAt c 11)) 5 (K (dcell c (qS cc0_scratch8 3 inb_S4_S1_3))) (K (dcell (prv c) (qR cc0_scratch9 11 1 inb_S15x2_S1x1_11_1))) _ (rem c 110) _ (by rw [duties_agccw_s_3_5 X c]; exact Finset.mem_singleton_self _) (by rw [duties_agccw_r_11_1 X (prv c)]; exact Finset.mem_singleton_self _) (by exact amount_agccw_s_3_5 X c false) (by exact amount_agccw_r_11_1 X (prv c) false) (by rfl) (by exact payload_agccw_s_3_5 X c false) (by exact hp2_agccw_r_11_1 X c) (by rfl) (by routes)) $$ [Hg_agccw_r_10_1 Hd_agccw_r_11_1 HO Hts_agccw_s_3_5 Htn_agccw_r_11_1]
  · isplitr; · iexact HIo
    isplitr; · iexact HIt
    isplitl [Hg_agccw_r_10_1]; · iexact Hg_agccw_r_10_1
    isplitl [Hd_agccw_r_11_1]; · iexact Hd_agccw_r_11_1
    isplitl [HO]; · iexact HO
    isplitl [Hts_agccw_s_3_5]; · iexact Hts_agccw_s_3_5
    isplitr; · iexact Hrch_agccw_s_3_5
    isplitl [Htn_agccw_r_11_1]; · iexact Htn_agccw_r_11_1
    iexact Hrn_agccw_r_11_1
  iintro ⟨Hcs_agccw_s_3_5, HO⟩
  iclear HIo HIt
  -- wait recv ag cw t=11 b=0
  try sl_exec_parts
  ihave #HIo := (bigSepL_elim_idx ownQs _ 68 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 110) (W := _) (R := 0) (m := 0) (T := ∅)
      (by rw [Nat.zero_add, expect_agcw_r_11_0 X c])) $$ [Hc_agcw_r_11_0 HO Hat_agcw_r_11_0]
  · isplitr; · iexact HIo
    isplitl [Hc_agcw_r_11_0]; · iexact Hc_agcw_r_11_0
    isplitl [HO]; · iexact HO
    isplitr; · iapply (mayWait_rem (F := F) c 110 (by decide) _ (by show (108 : ℕ) < 2 + 110; decide)); iexact Hlev
    iexact Hat_agcw_r_11_0
  iintro ⟨HO, Hat_agcw_r_11_0, #Hrch_agcw_r_11_0_1, Hpay⟩
  iclear HIo
  ihave Hp := (Entails.of_eq (rest_single X _ _ _ (duties_agcw_r_11_0 X c) (payload_agcw_r_11_0 X c false))) $$ Hpay
  irename Hp => Hg_agcw_r_11_0
  -- wait send ag cw t=10 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 110) (W := _) (R := 5) (m := 0) (T := ∅)
      (by rw [Nat.zero_add, expect_agcw_s_0_5 X c])) $$ [Hcs_agcw_s_0_5 HO Hat_agcw_s_0]
  · isplitr; · iexact HIo
    isplitl [Hcs_agcw_s_0_5]; · iexact Hcs_agcw_s_0_5
    isplitl [HO]; · iexact HO
    isplitr; · iapply (mayWait_rem (F := F) c 110 (by decide) _ (by show (0 : ℕ) < 2 + 110; decide)); iexact Hlev
    iexact Hat_agcw_s_0
  iintro ⟨HO, Hat_agcw_s_0, #Hrch_agcw_s_0_6, Hpay⟩
  iclear HIo
  ihave Hp := (Entails.of_eq (rest_single X _ _ _ (duties_agcw_s_0_5 X c) (payload_agcw_s_0_5 X c false))) $$ Hpay
  irename Hp => Hback_agcw_r_9_0
  -- send ag cw t=12 b=0 (payment 110, device function 111)
  try sl_exec_parts
  ihave HO := (owes_congr (rem_peel_110 c)) $$ HO
  ihave #HIo := (bigSepL_elim_idx ownQs _ 8 (by decide)) $$ HInvOwn
  ihave #HIt := (bigSepL_elim_idx recvCw _ 54 (by decide)) $$ HInbCw
  iapply (@send_owns_at F _ X c (nxt c) ⟨k0_dev111 c, k0_dev111_lt c⟩ (dev111_eq c _) (rows oM (off true (c.val + 4) 0) (off_inb true _ 0)) (rows oM (off true (c.val + 4) 0) (off_inb true _ 0)) _ (qS cc0_scratch6 0 inb_S4_S1_0) (qR cc0_scratch7 12 0 inb_S15x2_S1x1_12_0) _ _ _ _ _ _ fullShare (doneV X true 0 (devAt c 4)) 6 (K (dcell c (qS cc0_scratch6 0 inb_S4_S1_0))) (K (dcell (nxt c) (qR cc0_scratch7 12 0 inb_S15x2_S1x1_12_0))) _ (rem c 111) _ (by rw [duties_agcw_s_0_6 X c]; exact Finset.mem_singleton_self _) (by rw [duties_agcw_r_12_0 X (nxt c)]; exact Finset.mem_singleton_self _) (by exact amount_agcw_s_0_6 X c false) (by exact amount_agcw_r_12_0 X (nxt c) false) (by rfl) (by exact payload_agcw_s_0_6 X c false) (by exact hp2_agcw_r_12_0 X c) (by rfl) (by routes)) $$ [Hg_agcw_r_11_0 Hd_agcw_r_12_0 HO Hts_agcw_s_0_6 Htn_agcw_r_12_0]
  · isplitr; · iexact HIo
    isplitr; · iexact HIt
    isplitl [Hg_agcw_r_11_0]; · iexact Hg_agcw_r_11_0
    isplitl [Hd_agcw_r_12_0]; · iexact Hd_agcw_r_12_0
    isplitl [HO]; · iexact HO
    isplitl [Hts_agcw_s_0_6]; · iexact Hts_agcw_s_0_6
    isplitr; · iexact Hrch_agcw_s_0_6
    isplitl [Htn_agcw_r_12_0]; · iexact Htn_agcw_r_12_0
    iexact Hrn_agcw_r_12_0
  iintro ⟨Hcs_agcw_s_0_6, HO⟩
  iclear HIo HIt
  -- wait recv ag ccw t=11 b=0
  try sl_exec_parts
  ihave #HIo := (bigSepL_elim_idx ownQs _ 128 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 111) (W := _) (R := 0) (m := 0) (T := ∅)
      (by rw [Nat.zero_add, expect_agccw_r_11_0 X c])) $$ [Hc_agccw_r_11_0 HO Hat_agccw_r_11_0]
  · isplitr; · iexact HIo
    isplitl [Hc_agccw_r_11_0]; · iexact Hc_agccw_r_11_0
    isplitl [HO]; · iexact HO
    isplitr; · iapply (mayWait_rem (F := F) c 111 (by decide) _ (by show (109 : ℕ) < 2 + 111; decide)); iexact Hlev
    iexact Hat_agccw_r_11_0
  iintro ⟨HO, Hat_agccw_r_11_0, #Hrch_agccw_r_11_0_1, Hpay⟩
  iclear HIo
  ihave Hp := (Entails.of_eq (rest_single X _ _ _ (duties_agccw_r_11_0 X c) (payload_agccw_r_11_0 X c false))) $$ Hpay
  irename Hp => Hg_agccw_r_11_0
  -- wait send ag ccw t=10 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 111) (W := _) (R := 5) (m := 0) (T := ∅)
      (by rw [Nat.zero_add, expect_agccw_s_0_5 X c])) $$ [Hcs_agccw_s_0_5 HO Hat_agccw_s_0]
  · isplitr; · iexact HIo
    isplitl [Hcs_agccw_s_0_5]; · iexact Hcs_agccw_s_0_5
    isplitl [HO]; · iexact HO
    isplitr; · iapply (mayWait_rem (F := F) c 111 (by decide) _ (by show (0 : ℕ) < 2 + 111; decide)); iexact Hlev
    iexact Hat_agccw_s_0
  iintro ⟨HO, Hat_agccw_s_0, #Hrch_agccw_s_0_6, Hpay⟩
  iclear HIo
  ihave Hp := (Entails.of_eq (rest_single X _ _ _ (duties_agccw_s_0_5 X c) (payload_agccw_s_0_5 X c false))) $$ Hpay
  irename Hp => Hback_agccw_r_9_0
  -- send ag ccw t=12 b=0 (payment 111, device function 112)
  try sl_exec_parts
  ihave HO := (owes_congr (rem_peel_111 c)) $$ HO
  ihave #HIo := (bigSepL_elim_idx ownQs _ 12 (by decide)) $$ HInvOwn
  ihave #HIt := (bigSepL_elim_idx recvCcw _ 54 (by decide)) $$ HInbCcw
  iapply (@send_owns_at F _ X c (prv c) ⟨k0_dev112 c, k0_dev112_lt c⟩ (dev112_eq c _) (rows oM (off false (c.val + 12) 0) (off_inb false _ 0)) (rows oM (off false (c.val + 12) 0) (off_inb false _ 0)) _ (qS cc0_scratch8 0 inb_S4_S1_0) (qR cc0_scratch9 12 0 inb_S15x2_S1x1_12_0) _ _ _ _ _ _ fullShare (doneV X false 0 (devAt c 12)) 6 (K (dcell c (qS cc0_scratch8 0 inb_S4_S1_0))) (K (dcell (prv c) (qR cc0_scratch9 12 0 inb_S15x2_S1x1_12_0))) _ (rem c 112) _ (by rw [duties_agccw_s_0_6 X c]; exact Finset.mem_singleton_self _) (by rw [duties_agccw_r_12_0 X (prv c)]; exact Finset.mem_singleton_self _) (by exact amount_agccw_s_0_6 X c false) (by exact amount_agccw_r_12_0 X (prv c) false) (by rfl) (by exact payload_agccw_s_0_6 X c false) (by exact hp2_agccw_r_12_0 X c) (by rfl) (by routes)) $$ [Hg_agccw_r_11_0 Hd_agccw_r_12_0 HO Hts_agccw_s_0_6 Htn_agccw_r_12_0]
  · isplitr; · iexact HIo
    isplitr; · iexact HIt
    isplitl [Hg_agccw_r_11_0]; · iexact Hg_agccw_r_11_0
    isplitl [Hd_agccw_r_12_0]; · iexact Hd_agccw_r_12_0
    isplitl [HO]; · iexact HO
    isplitl [Hts_agccw_s_0_6]; · iexact Hts_agccw_s_0_6
    isplitr; · iexact Hrch_agccw_s_0_6
    isplitl [Htn_agccw_r_12_0]; · iexact Htn_agccw_r_12_0
    iexact Hrn_agccw_r_12_0
  iintro ⟨Hcs_agccw_s_0_6, HO⟩
  iclear HIo HIt
  -- wait recv ag cw t=11 b=1
  try sl_exec_parts
  ihave #HIo := (bigSepL_elim_idx ownQs _ 69 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 112) (W := _) (R := 0) (m := 0) (T := ∅)
      (by rw [Nat.zero_add, expect_agcw_r_11_1 X c])) $$ [Hc_agcw_r_11_1 HO Hat_agcw_r_11_1]
  · isplitr; · iexact HIo
    isplitl [Hc_agcw_r_11_1]; · iexact Hc_agcw_r_11_1
    isplitl [HO]; · iexact HO
    isplitr; · iapply (mayWait_rem (F := F) c 112 (by decide) _ (by show (110 : ℕ) < 2 + 112; decide)); iexact Hlev
    iexact Hat_agcw_r_11_1
  iintro ⟨HO, Hat_agcw_r_11_1, #Hrch_agcw_r_11_1_1, Hpay⟩
  iclear HIo
  ihave Hp := (Entails.of_eq (rest_single X _ _ _ (duties_agcw_r_11_1 X c) (payload_agcw_r_11_1 X c false))) $$ Hpay
  irename Hp => Hg_agcw_r_11_1
  -- wait send ag cw t=10 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 112) (W := _) (R := 5) (m := 0) (T := ∅)
      (by rw [Nat.zero_add, expect_agcw_s_1_5 X c])) $$ [Hcs_agcw_s_1_5 HO Hat_agcw_s_1]
  · isplitr; · iexact HIo
    isplitl [Hcs_agcw_s_1_5]; · iexact Hcs_agcw_s_1_5
    isplitl [HO]; · iexact HO
    isplitr; · iapply (mayWait_rem (F := F) c 112 (by decide) _ (by show (0 : ℕ) < 2 + 112; decide)); iexact Hlev
    iexact Hat_agcw_s_1
  iintro ⟨HO, Hat_agcw_s_1, #Hrch_agcw_s_1_6, Hpay⟩
  iclear HIo
  ihave Hp := (Entails.of_eq (rest_single X _ _ _ (duties_agcw_s_1_5 X c) (payload_agcw_s_1_5 X c false))) $$ Hpay
  irename Hp => Hback_agcw_r_9_1
  -- send ag cw t=12 b=1 (payment 112, device function 113)
  try sl_exec_parts
  ihave HO := (owes_congr (rem_peel_112 c)) $$ HO
  ihave #HIo := (bigSepL_elim_idx ownQs _ 9 (by decide)) $$ HInvOwn
  ihave #HIt := (bigSepL_elim_idx recvCw _ 55 (by decide)) $$ HInbCw
  iapply (@send_owns_at F _ X c (nxt c) ⟨k0_dev113 c, k0_dev113_lt c⟩ (dev113_eq c _) (rows oM (off true (c.val + 4) 1) (off_inb true _ 1)) (rows oM (off true (c.val + 4) 1) (off_inb true _ 1)) _ (qS cc0_scratch6 1 inb_S4_S1_1) (qR cc0_scratch7 12 1 inb_S15x2_S1x1_12_1) _ _ _ _ _ _ fullShare (doneV X true 1 (devAt c 4)) 6 (K (dcell c (qS cc0_scratch6 1 inb_S4_S1_1))) (K (dcell (nxt c) (qR cc0_scratch7 12 1 inb_S15x2_S1x1_12_1))) _ (rem c 113) _ (by rw [duties_agcw_s_1_6 X c]; exact Finset.mem_singleton_self _) (by rw [duties_agcw_r_12_1 X (nxt c)]; exact Finset.mem_singleton_self _) (by exact amount_agcw_s_1_6 X c false) (by exact amount_agcw_r_12_1 X (nxt c) false) (by rfl) (by exact payload_agcw_s_1_6 X c false) (by exact hp2_agcw_r_12_1 X c) (by rfl) (by routes)) $$ [Hg_agcw_r_11_1 Hd_agcw_r_12_1 HO Hts_agcw_s_1_6 Htn_agcw_r_12_1]
  · isplitr; · iexact HIo
    isplitr; · iexact HIt
    isplitl [Hg_agcw_r_11_1]; · iexact Hg_agcw_r_11_1
    isplitl [Hd_agcw_r_12_1]; · iexact Hd_agcw_r_12_1
    isplitl [HO]; · iexact HO
    isplitl [Hts_agcw_s_1_6]; · iexact Hts_agcw_s_1_6
    isplitr; · iexact Hrch_agcw_s_1_6
    isplitl [Htn_agcw_r_12_1]; · iexact Htn_agcw_r_12_1
    iexact Hrn_agcw_r_12_1
  iintro ⟨Hcs_agcw_s_1_6, HO⟩
  iclear HIo HIt
  -- wait recv ag ccw t=11 b=1
  try sl_exec_parts
  ihave #HIo := (bigSepL_elim_idx ownQs _ 129 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 113) (W := _) (R := 0) (m := 0) (T := ∅)
      (by rw [Nat.zero_add, expect_agccw_r_11_1 X c])) $$ [Hc_agccw_r_11_1 HO Hat_agccw_r_11_1]
  · isplitr; · iexact HIo
    isplitl [Hc_agccw_r_11_1]; · iexact Hc_agccw_r_11_1
    isplitl [HO]; · iexact HO
    isplitr; · iapply (mayWait_rem (F := F) c 113 (by decide) _ (by show (111 : ℕ) < 2 + 113; decide)); iexact Hlev
    iexact Hat_agccw_r_11_1
  iintro ⟨HO, Hat_agccw_r_11_1, #Hrch_agccw_r_11_1_1, Hpay⟩
  iclear HIo
  ihave Hp := (Entails.of_eq (rest_single X _ _ _ (duties_agccw_r_11_1 X c) (payload_agccw_r_11_1 X c false))) $$ Hpay
  irename Hp => Hg_agccw_r_11_1
  -- wait send ag ccw t=10 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 113) (W := _) (R := 5) (m := 0) (T := ∅)
      (by rw [Nat.zero_add, expect_agccw_s_1_5 X c])) $$ [Hcs_agccw_s_1_5 HO Hat_agccw_s_1]
  · isplitr; · iexact HIo
    isplitl [Hcs_agccw_s_1_5]; · iexact Hcs_agccw_s_1_5
    isplitl [HO]; · iexact HO
    isplitr; · iapply (mayWait_rem (F := F) c 113 (by decide) _ (by show (0 : ℕ) < 2 + 113; decide)); iexact Hlev
    iexact Hat_agccw_s_1
  iintro ⟨HO, Hat_agccw_s_1, #Hrch_agccw_s_1_6, Hpay⟩
  iclear HIo
  ihave Hp := (Entails.of_eq (rest_single X _ _ _ (duties_agccw_s_1_5 X c) (payload_agccw_s_1_5 X c false))) $$ Hpay
  irename Hp => Hback_agccw_r_9_1
  -- send ag ccw t=12 b=1 (payment 113, device function 114)
  try sl_exec_parts
  ihave HO := (owes_congr (rem_peel_113 c)) $$ HO
  ihave #HIo := (bigSepL_elim_idx ownQs _ 13 (by decide)) $$ HInvOwn
  ihave #HIt := (bigSepL_elim_idx recvCcw _ 55 (by decide)) $$ HInbCcw
  iapply (@send_owns_at F _ X c (prv c) ⟨k0_dev114 c, k0_dev114_lt c⟩ (dev114_eq c _) (rows oM (off false (c.val + 12) 1) (off_inb false _ 1)) (rows oM (off false (c.val + 12) 1) (off_inb false _ 1)) _ (qS cc0_scratch8 1 inb_S4_S1_1) (qR cc0_scratch9 12 1 inb_S15x2_S1x1_12_1) _ _ _ _ _ _ fullShare (doneV X false 1 (devAt c 12)) 6 (K (dcell c (qS cc0_scratch8 1 inb_S4_S1_1))) (K (dcell (prv c) (qR cc0_scratch9 12 1 inb_S15x2_S1x1_12_1))) _ (rem c 114) _ (by rw [duties_agccw_s_1_6 X c]; exact Finset.mem_singleton_self _) (by rw [duties_agccw_r_12_1 X (prv c)]; exact Finset.mem_singleton_self _) (by exact amount_agccw_s_1_6 X c false) (by exact amount_agccw_r_12_1 X (prv c) false) (by rfl) (by exact payload_agccw_s_1_6 X c false) (by exact hp2_agccw_r_12_1 X c) (by rfl) (by routes)) $$ [Hg_agccw_r_11_1 Hd_agccw_r_12_1 HO Hts_agccw_s_1_6 Htn_agccw_r_12_1]
  · isplitr; · iexact HIo
    isplitr; · iexact HIt
    isplitl [Hg_agccw_r_11_1]; · iexact Hg_agccw_r_11_1
    isplitl [Hd_agccw_r_12_1]; · iexact Hd_agccw_r_12_1
    isplitl [HO]; · iexact HO
    isplitl [Hts_agccw_s_1_6]; · iexact Hts_agccw_s_1_6
    isplitr; · iexact Hrch_agccw_s_1_6
    isplitl [Htn_agccw_r_12_1]; · iexact Htn_agccw_r_12_1
    iexact Hrn_agccw_r_12_1
  iintro ⟨Hcs_agccw_s_1_6, HO⟩
  iclear HIo HIt
  -- wait recv ag cw t=12 b=0
  try sl_exec_parts
  ihave #HIo := (bigSepL_elim_idx ownQs _ 70 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 114) (W := _) (R := 0) (m := 0) (T := ∅)
      (by rw [Nat.zero_add, expect_agcw_r_12_0 X c])) $$ [Hc_agcw_r_12_0 HO Hat_agcw_r_12_0]
  · isplitr; · iexact HIo
    isplitl [Hc_agcw_r_12_0]; · iexact Hc_agcw_r_12_0
    isplitl [HO]; · iexact HO
    isplitr; · iapply (mayWait_rem (F := F) c 114 (by decide) _ (by show (112 : ℕ) < 2 + 114; decide)); iexact Hlev
    iexact Hat_agcw_r_12_0
  iintro ⟨HO, Hat_agcw_r_12_0, #Hrch_agcw_r_12_0_1, Hpay⟩
  iclear HIo
  ihave Hp := (Entails.of_eq (rest_single X _ _ _ (duties_agcw_r_12_0 X c) (payload_agcw_r_12_0 X c false))) $$ Hpay
  irename Hp => Hg_agcw_r_12_0
  -- wait send ag cw t=11 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 114) (W := _) (R := 5) (m := 0) (T := ∅)
      (by rw [Nat.zero_add, expect_agcw_s_2_5 X c])) $$ [Hcs_agcw_s_2_5 HO Hat_agcw_s_2]
  · isplitr; · iexact HIo
    isplitl [Hcs_agcw_s_2_5]; · iexact Hcs_agcw_s_2_5
    isplitl [HO]; · iexact HO
    isplitr; · iapply (mayWait_rem (F := F) c 114 (by decide) _ (by show (0 : ℕ) < 2 + 114; decide)); iexact Hlev
    iexact Hat_agcw_s_2
  iintro ⟨HO, Hat_agcw_s_2, #Hrch_agcw_s_2_6, Hpay⟩
  iclear HIo
  ihave Hp := (Entails.of_eq (rest_single X _ _ _ (duties_agcw_s_2_5 X c) (payload_agcw_s_2_5 X c false))) $$ Hpay
  irename Hp => Hback_agcw_r_10_0
  -- send ag cw t=13 b=0 (payment 114, device function 115)
  try sl_exec_parts
  ihave HO := (owes_congr (rem_peel_114 c)) $$ HO
  ihave #HIo := (bigSepL_elim_idx ownQs _ 10 (by decide)) $$ HInvOwn
  ihave #HIt := (bigSepL_elim_idx recvCw _ 56 (by decide)) $$ HInbCw
  iapply (@send_owns_at F _ X c (nxt c) ⟨k0_dev115 c, k0_dev115_lt c⟩ (dev115_eq c _) (rows oM (off true (c.val + 3) 0) (off_inb true _ 0)) (rows oM (off true (c.val + 3) 0) (off_inb true _ 0)) _ (qS cc0_scratch6 2 inb_S4_S1_2) (qR cc0_scratch7 13 0 inb_S15x2_S1x1_13_0) _ _ _ _ _ _ fullShare (doneV X true 0 (devAt c 3)) 6 (K (dcell c (qS cc0_scratch6 2 inb_S4_S1_2))) (K (dcell (nxt c) (qR cc0_scratch7 13 0 inb_S15x2_S1x1_13_0))) _ (rem c 115) _ (by rw [duties_agcw_s_2_6 X c]; exact Finset.mem_singleton_self _) (by rw [duties_agcw_r_13_0 X (nxt c)]; exact Finset.mem_singleton_self _) (by exact amount_agcw_s_2_6 X c false) (by exact amount_agcw_r_13_0 X (nxt c) false) (by rfl) (by exact payload_agcw_s_2_6 X c false) (by exact hp2_agcw_r_13_0 X c) (by rfl) (by routes)) $$ [Hg_agcw_r_12_0 Hd_agcw_r_13_0 HO Hts_agcw_s_2_6 Htn_agcw_r_13_0]
  · isplitr; · iexact HIo
    isplitr; · iexact HIt
    isplitl [Hg_agcw_r_12_0]; · iexact Hg_agcw_r_12_0
    isplitl [Hd_agcw_r_13_0]; · iexact Hd_agcw_r_13_0
    isplitl [HO]; · iexact HO
    isplitl [Hts_agcw_s_2_6]; · iexact Hts_agcw_s_2_6
    isplitr; · iexact Hrch_agcw_s_2_6
    isplitl [Htn_agcw_r_13_0]; · iexact Htn_agcw_r_13_0
    iexact Hrn_agcw_r_13_0
  iintro ⟨Hcs_agcw_s_2_6, HO⟩
  iclear HIo HIt
  -- wait recv ag ccw t=12 b=0
  try sl_exec_parts
  ihave #HIo := (bigSepL_elim_idx ownQs _ 130 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 115) (W := _) (R := 0) (m := 0) (T := ∅)
      (by rw [Nat.zero_add, expect_agccw_r_12_0 X c])) $$ [Hc_agccw_r_12_0 HO Hat_agccw_r_12_0]
  · isplitr; · iexact HIo
    isplitl [Hc_agccw_r_12_0]; · iexact Hc_agccw_r_12_0
    isplitl [HO]; · iexact HO
    isplitr; · iapply (mayWait_rem (F := F) c 115 (by decide) _ (by show (113 : ℕ) < 2 + 115; decide)); iexact Hlev
    iexact Hat_agccw_r_12_0
  iintro ⟨HO, Hat_agccw_r_12_0, #Hrch_agccw_r_12_0_1, Hpay⟩
  iclear HIo
  ihave Hp := (Entails.of_eq (rest_single X _ _ _ (duties_agccw_r_12_0 X c) (payload_agccw_r_12_0 X c false))) $$ Hpay
  irename Hp => Hg_agccw_r_12_0
  -- wait send ag ccw t=11 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 115) (W := _) (R := 5) (m := 0) (T := ∅)
      (by rw [Nat.zero_add, expect_agccw_s_2_5 X c])) $$ [Hcs_agccw_s_2_5 HO Hat_agccw_s_2]
  · isplitr; · iexact HIo
    isplitl [Hcs_agccw_s_2_5]; · iexact Hcs_agccw_s_2_5
    isplitl [HO]; · iexact HO
    isplitr; · iapply (mayWait_rem (F := F) c 115 (by decide) _ (by show (0 : ℕ) < 2 + 115; decide)); iexact Hlev
    iexact Hat_agccw_s_2
  iintro ⟨HO, Hat_agccw_s_2, #Hrch_agccw_s_2_6, Hpay⟩
  iclear HIo
  ihave Hp := (Entails.of_eq (rest_single X _ _ _ (duties_agccw_s_2_5 X c) (payload_agccw_s_2_5 X c false))) $$ Hpay
  irename Hp => Hback_agccw_r_10_0
  -- send ag ccw t=13 b=0 (payment 115, device function 116)
  try sl_exec_parts
  ihave HO := (owes_congr (rem_peel_115 c)) $$ HO
  ihave #HIo := (bigSepL_elim_idx ownQs _ 14 (by decide)) $$ HInvOwn
  ihave #HIt := (bigSepL_elim_idx recvCcw _ 56 (by decide)) $$ HInbCcw
  iapply (@send_owns_at F _ X c (prv c) ⟨k0_dev116 c, k0_dev116_lt c⟩ (dev116_eq c _) (rows oM (off false (c.val + 13) 0) (off_inb false _ 0)) (rows oM (off false (c.val + 13) 0) (off_inb false _ 0)) _ (qS cc0_scratch8 2 inb_S4_S1_2) (qR cc0_scratch9 13 0 inb_S15x2_S1x1_13_0) _ _ _ _ _ _ fullShare (doneV X false 0 (devAt c 13)) 6 (K (dcell c (qS cc0_scratch8 2 inb_S4_S1_2))) (K (dcell (prv c) (qR cc0_scratch9 13 0 inb_S15x2_S1x1_13_0))) _ (rem c 116) _ (by rw [duties_agccw_s_2_6 X c]; exact Finset.mem_singleton_self _) (by rw [duties_agccw_r_13_0 X (prv c)]; exact Finset.mem_singleton_self _) (by exact amount_agccw_s_2_6 X c false) (by exact amount_agccw_r_13_0 X (prv c) false) (by rfl) (by exact payload_agccw_s_2_6 X c false) (by exact hp2_agccw_r_13_0 X c) (by rfl) (by routes)) $$ [Hg_agccw_r_12_0 Hd_agccw_r_13_0 HO Hts_agccw_s_2_6 Htn_agccw_r_13_0]
  · isplitr; · iexact HIo
    isplitr; · iexact HIt
    isplitl [Hg_agccw_r_12_0]; · iexact Hg_agccw_r_12_0
    isplitl [Hd_agccw_r_13_0]; · iexact Hd_agccw_r_13_0
    isplitl [HO]; · iexact HO
    isplitl [Hts_agccw_s_2_6]; · iexact Hts_agccw_s_2_6
    isplitr; · iexact Hrch_agccw_s_2_6
    isplitl [Htn_agccw_r_13_0]; · iexact Htn_agccw_r_13_0
    iexact Hrn_agccw_r_13_0
  iintro ⟨Hcs_agccw_s_2_6, HO⟩
  iclear HIo HIt
  -- wait recv ag cw t=12 b=1
  try sl_exec_parts
  ihave #HIo := (bigSepL_elim_idx ownQs _ 71 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 116) (W := _) (R := 0) (m := 0) (T := ∅)
      (by rw [Nat.zero_add, expect_agcw_r_12_1 X c])) $$ [Hc_agcw_r_12_1 HO Hat_agcw_r_12_1]
  · isplitr; · iexact HIo
    isplitl [Hc_agcw_r_12_1]; · iexact Hc_agcw_r_12_1
    isplitl [HO]; · iexact HO
    isplitr; · iapply (mayWait_rem (F := F) c 116 (by decide) _ (by show (114 : ℕ) < 2 + 116; decide)); iexact Hlev
    iexact Hat_agcw_r_12_1
  iintro ⟨HO, Hat_agcw_r_12_1, #Hrch_agcw_r_12_1_1, Hpay⟩
  iclear HIo
  ihave Hp := (Entails.of_eq (rest_single X _ _ _ (duties_agcw_r_12_1 X c) (payload_agcw_r_12_1 X c false))) $$ Hpay
  irename Hp => Hg_agcw_r_12_1
  -- wait send ag cw t=11 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 116) (W := _) (R := 5) (m := 0) (T := ∅)
      (by rw [Nat.zero_add, expect_agcw_s_3_5 X c])) $$ [Hcs_agcw_s_3_5 HO Hat_agcw_s_3]
  · isplitr; · iexact HIo
    isplitl [Hcs_agcw_s_3_5]; · iexact Hcs_agcw_s_3_5
    isplitl [HO]; · iexact HO
    isplitr; · iapply (mayWait_rem (F := F) c 116 (by decide) _ (by show (0 : ℕ) < 2 + 116; decide)); iexact Hlev
    iexact Hat_agcw_s_3
  iintro ⟨HO, Hat_agcw_s_3, #Hrch_agcw_s_3_6, Hpay⟩
  iclear HIo
  ihave Hp := (Entails.of_eq (rest_single X _ _ _ (duties_agcw_s_3_5 X c) (payload_agcw_s_3_5 X c false))) $$ Hpay
  irename Hp => Hback_agcw_r_10_1
  -- send ag cw t=13 b=1 (payment 116, device function 117)
  try sl_exec_parts
  ihave HO := (owes_congr (rem_peel_116 c)) $$ HO
  ihave #HIo := (bigSepL_elim_idx ownQs _ 11 (by decide)) $$ HInvOwn
  ihave #HIt := (bigSepL_elim_idx recvCw _ 57 (by decide)) $$ HInbCw
  iapply (@send_owns_at F _ X c (nxt c) ⟨k0_dev117 c, k0_dev117_lt c⟩ (dev117_eq c _) (rows oM (off true (c.val + 3) 1) (off_inb true _ 1)) (rows oM (off true (c.val + 3) 1) (off_inb true _ 1)) _ (qS cc0_scratch6 3 inb_S4_S1_3) (qR cc0_scratch7 13 1 inb_S15x2_S1x1_13_1) _ _ _ _ _ _ fullShare (doneV X true 1 (devAt c 3)) 6 (K (dcell c (qS cc0_scratch6 3 inb_S4_S1_3))) (K (dcell (nxt c) (qR cc0_scratch7 13 1 inb_S15x2_S1x1_13_1))) _ (rem c 117) _ (by rw [duties_agcw_s_3_6 X c]; exact Finset.mem_singleton_self _) (by rw [duties_agcw_r_13_1 X (nxt c)]; exact Finset.mem_singleton_self _) (by exact amount_agcw_s_3_6 X c false) (by exact amount_agcw_r_13_1 X (nxt c) false) (by rfl) (by exact payload_agcw_s_3_6 X c false) (by exact hp2_agcw_r_13_1 X c) (by rfl) (by routes)) $$ [Hg_agcw_r_12_1 Hd_agcw_r_13_1 HO Hts_agcw_s_3_6 Htn_agcw_r_13_1]
  · isplitr; · iexact HIo
    isplitr; · iexact HIt
    isplitl [Hg_agcw_r_12_1]; · iexact Hg_agcw_r_12_1
    isplitl [Hd_agcw_r_13_1]; · iexact Hd_agcw_r_13_1
    isplitl [HO]; · iexact HO
    isplitl [Hts_agcw_s_3_6]; · iexact Hts_agcw_s_3_6
    isplitr; · iexact Hrch_agcw_s_3_6
    isplitl [Htn_agcw_r_13_1]; · iexact Htn_agcw_r_13_1
    iexact Hrn_agcw_r_13_1
  iintro ⟨Hcs_agcw_s_3_6, HO⟩
  iclear HIo HIt
  -- wait recv ag ccw t=12 b=1
  try sl_exec_parts
  ihave #HIo := (bigSepL_elim_idx ownQs _ 131 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 117) (W := _) (R := 0) (m := 0) (T := ∅)
      (by rw [Nat.zero_add, expect_agccw_r_12_1 X c])) $$ [Hc_agccw_r_12_1 HO Hat_agccw_r_12_1]
  · isplitr; · iexact HIo
    isplitl [Hc_agccw_r_12_1]; · iexact Hc_agccw_r_12_1
    isplitl [HO]; · iexact HO
    isplitr; · iapply (mayWait_rem (F := F) c 117 (by decide) _ (by show (115 : ℕ) < 2 + 117; decide)); iexact Hlev
    iexact Hat_agccw_r_12_1
  iintro ⟨HO, Hat_agccw_r_12_1, #Hrch_agccw_r_12_1_1, Hpay⟩
  iclear HIo
  ihave Hp := (Entails.of_eq (rest_single X _ _ _ (duties_agccw_r_12_1 X c) (payload_agccw_r_12_1 X c false))) $$ Hpay
  irename Hp => Hg_agccw_r_12_1
  -- wait send ag ccw t=11 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 117) (W := _) (R := 5) (m := 0) (T := ∅)
      (by rw [Nat.zero_add, expect_agccw_s_3_5 X c])) $$ [Hcs_agccw_s_3_5 HO Hat_agccw_s_3]
  · isplitr; · iexact HIo
    isplitl [Hcs_agccw_s_3_5]; · iexact Hcs_agccw_s_3_5
    isplitl [HO]; · iexact HO
    isplitr; · iapply (mayWait_rem (F := F) c 117 (by decide) _ (by show (0 : ℕ) < 2 + 117; decide)); iexact Hlev
    iexact Hat_agccw_s_3
  iintro ⟨HO, Hat_agccw_s_3, #Hrch_agccw_s_3_6, Hpay⟩
  iclear HIo
  ihave Hp := (Entails.of_eq (rest_single X _ _ _ (duties_agccw_s_3_5 X c) (payload_agccw_s_3_5 X c false))) $$ Hpay
  irename Hp => Hback_agccw_r_10_1
  -- send ag ccw t=13 b=1 (payment 117, device function 118)
  try sl_exec_parts
  ihave HO := (owes_congr (rem_peel_117 c)) $$ HO
  ihave #HIo := (bigSepL_elim_idx ownQs _ 15 (by decide)) $$ HInvOwn
  ihave #HIt := (bigSepL_elim_idx recvCcw _ 57 (by decide)) $$ HInbCcw
  iapply (@send_owns_at F _ X c (prv c) ⟨k0_dev118 c, k0_dev118_lt c⟩ (dev118_eq c _) (rows oM (off false (c.val + 13) 1) (off_inb false _ 1)) (rows oM (off false (c.val + 13) 1) (off_inb false _ 1)) _ (qS cc0_scratch8 3 inb_S4_S1_3) (qR cc0_scratch9 13 1 inb_S15x2_S1x1_13_1) _ _ _ _ _ _ fullShare (doneV X false 1 (devAt c 13)) 6 (K (dcell c (qS cc0_scratch8 3 inb_S4_S1_3))) (K (dcell (prv c) (qR cc0_scratch9 13 1 inb_S15x2_S1x1_13_1))) _ (rem c 118) _ (by rw [duties_agccw_s_3_6 X c]; exact Finset.mem_singleton_self _) (by rw [duties_agccw_r_13_1 X (prv c)]; exact Finset.mem_singleton_self _) (by exact amount_agccw_s_3_6 X c false) (by exact amount_agccw_r_13_1 X (prv c) false) (by rfl) (by exact payload_agccw_s_3_6 X c false) (by exact hp2_agccw_r_13_1 X c) (by rfl) (by routes)) $$ [Hg_agccw_r_12_1 Hd_agccw_r_13_1 HO Hts_agccw_s_3_6 Htn_agccw_r_13_1]
  · isplitr; · iexact HIo
    isplitr; · iexact HIt
    isplitl [Hg_agccw_r_12_1]; · iexact Hg_agccw_r_12_1
    isplitl [Hd_agccw_r_13_1]; · iexact Hd_agccw_r_13_1
    isplitl [HO]; · iexact HO
    isplitl [Hts_agccw_s_3_6]; · iexact Hts_agccw_s_3_6
    isplitr; · iexact Hrch_agccw_s_3_6
    isplitl [Htn_agccw_r_13_1]; · iexact Htn_agccw_r_13_1
    iexact Hrn_agccw_r_13_1
  iintro ⟨Hcs_agccw_s_3_6, HO⟩
  iclear HIo HIt
  -- wait recv ag cw t=13 b=0
  try sl_exec_parts
  ihave #HIo := (bigSepL_elim_idx ownQs _ 72 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 118) (W := _) (R := 0) (m := 0) (T := ∅)
      (by rw [Nat.zero_add, expect_agcw_r_13_0 X c])) $$ [Hc_agcw_r_13_0 HO Hat_agcw_r_13_0]
  · isplitr; · iexact HIo
    isplitl [Hc_agcw_r_13_0]; · iexact Hc_agcw_r_13_0
    isplitl [HO]; · iexact HO
    isplitr; · iapply (mayWait_rem (F := F) c 118 (by decide) _ (by show (116 : ℕ) < 2 + 118; decide)); iexact Hlev
    iexact Hat_agcw_r_13_0
  iintro ⟨HO, Hat_agcw_r_13_0, #Hrch_agcw_r_13_0_1, Hpay⟩
  iclear HIo
  ihave Hp := (Entails.of_eq (rest_single X _ _ _ (duties_agcw_r_13_0 X c) (payload_agcw_r_13_0 X c false))) $$ Hpay
  irename Hp => Hg_agcw_r_13_0
  -- wait send ag cw t=12 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 118) (W := _) (R := 6) (m := 0) (T := ∅)
      (by rw [Nat.zero_add, expect_agcw_s_0_6 X c])) $$ [Hcs_agcw_s_0_6 HO Hat_agcw_s_0]
  · isplitr; · iexact HIo
    isplitl [Hcs_agcw_s_0_6]; · iexact Hcs_agcw_s_0_6
    isplitl [HO]; · iexact HO
    isplitr; · iapply (mayWait_rem (F := F) c 118 (by decide) _ (by show (0 : ℕ) < 2 + 118; decide)); iexact Hlev
    iexact Hat_agcw_s_0
  iintro ⟨HO, Hat_agcw_s_0, #Hrch_agcw_s_0_7, Hpay⟩
  iclear HIo
  ihave Hp := (Entails.of_eq (rest_single X _ _ _ (duties_agcw_s_0_6 X c) (payload_agcw_s_0_6 X c false))) $$ Hpay
  irename Hp => Hback_agcw_r_11_0
  -- send ag cw t=14 b=0 (payment 118, device function 119)
  try sl_exec_parts
  ihave HO := (owes_congr (rem_peel_118 c)) $$ HO
  ihave #HIo := (bigSepL_elim_idx ownQs _ 8 (by decide)) $$ HInvOwn
  ihave #HIt := (bigSepL_elim_idx recvCw _ 58 (by decide)) $$ HInbCw
  iapply (@send_owns_at F _ X c (nxt c) ⟨k0_dev119 c, k0_dev119_lt c⟩ (dev119_eq c _) (rows oM (off true (c.val + 2) 0) (off_inb true _ 0)) (rows oM (off true (c.val + 2) 0) (off_inb true _ 0)) _ (qS cc0_scratch6 0 inb_S4_S1_0) (qR cc0_scratch7 14 0 inb_S15x2_S1x1_14_0) _ _ _ _ _ _ fullShare (doneV X true 0 (devAt c 2)) 7 (K (dcell c (qS cc0_scratch6 0 inb_S4_S1_0))) (K (dcell (nxt c) (qR cc0_scratch7 14 0 inb_S15x2_S1x1_14_0))) _ (rem c 119) _ (by rw [duties_agcw_s_0_7 X c]; exact Finset.mem_singleton_self _) (by rw [duties_agcw_r_14_0 X (nxt c)]; exact Finset.mem_singleton_self _) (by exact amount_agcw_s_0_7 X c false) (by exact amount_agcw_r_14_0 X (nxt c) false) (by rfl) (by exact payload_agcw_s_0_7 X c false) (by exact hp2_agcw_r_14_0 X c) (by rfl) (by routes)) $$ [Hg_agcw_r_13_0 Hd_agcw_r_14_0 HO Hts_agcw_s_0_7 Htn_agcw_r_14_0]
  · isplitr; · iexact HIo
    isplitr; · iexact HIt
    isplitl [Hg_agcw_r_13_0]; · iexact Hg_agcw_r_13_0
    isplitl [Hd_agcw_r_14_0]; · iexact Hd_agcw_r_14_0
    isplitl [HO]; · iexact HO
    isplitl [Hts_agcw_s_0_7]; · iexact Hts_agcw_s_0_7
    isplitr; · iexact Hrch_agcw_s_0_7
    isplitl [Htn_agcw_r_14_0]; · iexact Htn_agcw_r_14_0
    iexact Hrn_agcw_r_14_0
  iintro ⟨Hcs_agcw_s_0_7, HO⟩
  iclear HIo HIt
  -- wait recv ag ccw t=13 b=0
  try sl_exec_parts
  ihave #HIo := (bigSepL_elim_idx ownQs _ 132 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 119) (W := _) (R := 0) (m := 0) (T := ∅)
      (by rw [Nat.zero_add, expect_agccw_r_13_0 X c])) $$ [Hc_agccw_r_13_0 HO Hat_agccw_r_13_0]
  · isplitr; · iexact HIo
    isplitl [Hc_agccw_r_13_0]; · iexact Hc_agccw_r_13_0
    isplitl [HO]; · iexact HO
    isplitr; · iapply (mayWait_rem (F := F) c 119 (by decide) _ (by show (117 : ℕ) < 2 + 119; decide)); iexact Hlev
    iexact Hat_agccw_r_13_0
  iintro ⟨HO, Hat_agccw_r_13_0, #Hrch_agccw_r_13_0_1, Hpay⟩
  iclear HIo
  ihave Hp := (Entails.of_eq (rest_single X _ _ _ (duties_agccw_r_13_0 X c) (payload_agccw_r_13_0 X c false))) $$ Hpay
  irename Hp => Hg_agccw_r_13_0
  -- wait send ag ccw t=12 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 119) (W := _) (R := 6) (m := 0) (T := ∅)
      (by rw [Nat.zero_add, expect_agccw_s_0_6 X c])) $$ [Hcs_agccw_s_0_6 HO Hat_agccw_s_0]
  · isplitr; · iexact HIo
    isplitl [Hcs_agccw_s_0_6]; · iexact Hcs_agccw_s_0_6
    isplitl [HO]; · iexact HO
    isplitr; · iapply (mayWait_rem (F := F) c 119 (by decide) _ (by show (0 : ℕ) < 2 + 119; decide)); iexact Hlev
    iexact Hat_agccw_s_0
  iintro ⟨HO, Hat_agccw_s_0, #Hrch_agccw_s_0_7, Hpay⟩
  iclear HIo
  ihave Hp := (Entails.of_eq (rest_single X _ _ _ (duties_agccw_s_0_6 X c) (payload_agccw_s_0_6 X c false))) $$ Hpay
  irename Hp => Hback_agccw_r_11_0
  -- send ag ccw t=14 b=0 (payment 119, device function 120)
  try sl_exec_parts
  ihave HO := (owes_congr (rem_peel_119 c)) $$ HO
  ihave #HIo := (bigSepL_elim_idx ownQs _ 12 (by decide)) $$ HInvOwn
  ihave #HIt := (bigSepL_elim_idx recvCcw _ 58 (by decide)) $$ HInbCcw
  iapply (@send_owns_at F _ X c (prv c) ⟨k0_dev120 c, k0_dev120_lt c⟩ (dev120_eq c _) (rows oM (off false (c.val + 14) 0) (off_inb false _ 0)) (rows oM (off false (c.val + 14) 0) (off_inb false _ 0)) _ (qS cc0_scratch8 0 inb_S4_S1_0) (qR cc0_scratch9 14 0 inb_S15x2_S1x1_14_0) _ _ _ _ _ _ fullShare (doneV X false 0 (devAt c 14)) 7 (K (dcell c (qS cc0_scratch8 0 inb_S4_S1_0))) (K (dcell (prv c) (qR cc0_scratch9 14 0 inb_S15x2_S1x1_14_0))) _ (rem c 120) _ (by rw [duties_agccw_s_0_7 X c]; exact Finset.mem_singleton_self _) (by rw [duties_agccw_r_14_0 X (prv c)]; exact Finset.mem_singleton_self _) (by exact amount_agccw_s_0_7 X c false) (by exact amount_agccw_r_14_0 X (prv c) false) (by rfl) (by exact payload_agccw_s_0_7 X c false) (by exact hp2_agccw_r_14_0 X c) (by rfl) (by routes)) $$ [Hg_agccw_r_13_0 Hd_agccw_r_14_0 HO Hts_agccw_s_0_7 Htn_agccw_r_14_0]
  · isplitr; · iexact HIo
    isplitr; · iexact HIt
    isplitl [Hg_agccw_r_13_0]; · iexact Hg_agccw_r_13_0
    isplitl [Hd_agccw_r_14_0]; · iexact Hd_agccw_r_14_0
    isplitl [HO]; · iexact HO
    isplitl [Hts_agccw_s_0_7]; · iexact Hts_agccw_s_0_7
    isplitr; · iexact Hrch_agccw_s_0_7
    isplitl [Htn_agccw_r_14_0]; · iexact Htn_agccw_r_14_0
    iexact Hrn_agccw_r_14_0
  iintro ⟨Hcs_agccw_s_0_7, HO⟩
  iclear HIo HIt
  -- wait recv ag cw t=13 b=1
  try sl_exec_parts
  ihave #HIo := (bigSepL_elim_idx ownQs _ 73 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 120) (W := _) (R := 0) (m := 0) (T := ∅)
      (by rw [Nat.zero_add, expect_agcw_r_13_1 X c])) $$ [Hc_agcw_r_13_1 HO Hat_agcw_r_13_1]
  · isplitr; · iexact HIo
    isplitl [Hc_agcw_r_13_1]; · iexact Hc_agcw_r_13_1
    isplitl [HO]; · iexact HO
    isplitr; · iapply (mayWait_rem (F := F) c 120 (by decide) _ (by show (118 : ℕ) < 2 + 120; decide)); iexact Hlev
    iexact Hat_agcw_r_13_1
  iintro ⟨HO, Hat_agcw_r_13_1, #Hrch_agcw_r_13_1_1, Hpay⟩
  iclear HIo
  ihave Hp := (Entails.of_eq (rest_single X _ _ _ (duties_agcw_r_13_1 X c) (payload_agcw_r_13_1 X c false))) $$ Hpay
  irename Hp => Hg_agcw_r_13_1
  -- wait send ag cw t=12 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 120) (W := _) (R := 6) (m := 0) (T := ∅)
      (by rw [Nat.zero_add, expect_agcw_s_1_6 X c])) $$ [Hcs_agcw_s_1_6 HO Hat_agcw_s_1]
  · isplitr; · iexact HIo
    isplitl [Hcs_agcw_s_1_6]; · iexact Hcs_agcw_s_1_6
    isplitl [HO]; · iexact HO
    isplitr; · iapply (mayWait_rem (F := F) c 120 (by decide) _ (by show (0 : ℕ) < 2 + 120; decide)); iexact Hlev
    iexact Hat_agcw_s_1
  iintro ⟨HO, Hat_agcw_s_1, #Hrch_agcw_s_1_7, Hpay⟩
  iclear HIo
  ihave Hp := (Entails.of_eq (rest_single X _ _ _ (duties_agcw_s_1_6 X c) (payload_agcw_s_1_6 X c false))) $$ Hpay
  irename Hp => Hback_agcw_r_11_1
  -- send ag cw t=14 b=1 (payment 120, device function 121)
  try sl_exec_parts
  ihave HO := (owes_congr (rem_peel_120 c)) $$ HO
  ihave #HIo := (bigSepL_elim_idx ownQs _ 9 (by decide)) $$ HInvOwn
  ihave #HIt := (bigSepL_elim_idx recvCw _ 59 (by decide)) $$ HInbCw
  iapply (@send_owns_at F _ X c (nxt c) ⟨k0_dev121 c, k0_dev121_lt c⟩ (dev121_eq c _) (rows oM (off true (c.val + 2) 1) (off_inb true _ 1)) (rows oM (off true (c.val + 2) 1) (off_inb true _ 1)) _ (qS cc0_scratch6 1 inb_S4_S1_1) (qR cc0_scratch7 14 1 inb_S15x2_S1x1_14_1) _ _ _ _ _ _ fullShare (doneV X true 1 (devAt c 2)) 7 (K (dcell c (qS cc0_scratch6 1 inb_S4_S1_1))) (K (dcell (nxt c) (qR cc0_scratch7 14 1 inb_S15x2_S1x1_14_1))) _ (rem c 121) _ (by rw [duties_agcw_s_1_7 X c]; exact Finset.mem_singleton_self _) (by rw [duties_agcw_r_14_1 X (nxt c)]; exact Finset.mem_singleton_self _) (by exact amount_agcw_s_1_7 X c false) (by exact amount_agcw_r_14_1 X (nxt c) false) (by rfl) (by exact payload_agcw_s_1_7 X c false) (by exact hp2_agcw_r_14_1 X c) (by rfl) (by routes)) $$ [Hg_agcw_r_13_1 Hd_agcw_r_14_1 HO Hts_agcw_s_1_7 Htn_agcw_r_14_1]
  · isplitr; · iexact HIo
    isplitr; · iexact HIt
    isplitl [Hg_agcw_r_13_1]; · iexact Hg_agcw_r_13_1
    isplitl [Hd_agcw_r_14_1]; · iexact Hd_agcw_r_14_1
    isplitl [HO]; · iexact HO
    isplitl [Hts_agcw_s_1_7]; · iexact Hts_agcw_s_1_7
    isplitr; · iexact Hrch_agcw_s_1_7
    isplitl [Htn_agcw_r_14_1]; · iexact Htn_agcw_r_14_1
    iexact Hrn_agcw_r_14_1
  iintro ⟨Hcs_agcw_s_1_7, HO⟩
  iclear HIo HIt
  -- wait recv ag ccw t=13 b=1
  try sl_exec_parts
  ihave #HIo := (bigSepL_elim_idx ownQs _ 133 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 121) (W := _) (R := 0) (m := 0) (T := ∅)
      (by rw [Nat.zero_add, expect_agccw_r_13_1 X c])) $$ [Hc_agccw_r_13_1 HO Hat_agccw_r_13_1]
  · isplitr; · iexact HIo
    isplitl [Hc_agccw_r_13_1]; · iexact Hc_agccw_r_13_1
    isplitl [HO]; · iexact HO
    isplitr; · iapply (mayWait_rem (F := F) c 121 (by decide) _ (by show (119 : ℕ) < 2 + 121; decide)); iexact Hlev
    iexact Hat_agccw_r_13_1
  iintro ⟨HO, Hat_agccw_r_13_1, #Hrch_agccw_r_13_1_1, Hpay⟩
  iclear HIo
  ihave Hp := (Entails.of_eq (rest_single X _ _ _ (duties_agccw_r_13_1 X c) (payload_agccw_r_13_1 X c false))) $$ Hpay
  irename Hp => Hg_agccw_r_13_1
  -- wait send ag ccw t=12 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 121) (W := _) (R := 6) (m := 0) (T := ∅)
      (by rw [Nat.zero_add, expect_agccw_s_1_6 X c])) $$ [Hcs_agccw_s_1_6 HO Hat_agccw_s_1]
  · isplitr; · iexact HIo
    isplitl [Hcs_agccw_s_1_6]; · iexact Hcs_agccw_s_1_6
    isplitl [HO]; · iexact HO
    isplitr; · iapply (mayWait_rem (F := F) c 121 (by decide) _ (by show (0 : ℕ) < 2 + 121; decide)); iexact Hlev
    iexact Hat_agccw_s_1
  iintro ⟨HO, Hat_agccw_s_1, #Hrch_agccw_s_1_7, Hpay⟩
  iclear HIo
  ihave Hp := (Entails.of_eq (rest_single X _ _ _ (duties_agccw_s_1_6 X c) (payload_agccw_s_1_6 X c false))) $$ Hpay
  irename Hp => Hback_agccw_r_11_1
  -- send ag ccw t=14 b=1 (payment 121, device function 122)
  try sl_exec_parts
  ihave HO := (owes_congr (rem_peel_121 c)) $$ HO
  ihave #HIo := (bigSepL_elim_idx ownQs _ 13 (by decide)) $$ HInvOwn
  ihave #HIt := (bigSepL_elim_idx recvCcw _ 59 (by decide)) $$ HInbCcw
  iapply (@send_owns_at F _ X c (prv c) ⟨k0_dev122 c, k0_dev122_lt c⟩ (dev122_eq c _) (rows oM (off false (c.val + 14) 1) (off_inb false _ 1)) (rows oM (off false (c.val + 14) 1) (off_inb false _ 1)) _ (qS cc0_scratch8 1 inb_S4_S1_1) (qR cc0_scratch9 14 1 inb_S15x2_S1x1_14_1) _ _ _ _ _ _ fullShare (doneV X false 1 (devAt c 14)) 7 (K (dcell c (qS cc0_scratch8 1 inb_S4_S1_1))) (K (dcell (prv c) (qR cc0_scratch9 14 1 inb_S15x2_S1x1_14_1))) _ (rem c 122) _ (by rw [duties_agccw_s_1_7 X c]; exact Finset.mem_singleton_self _) (by rw [duties_agccw_r_14_1 X (prv c)]; exact Finset.mem_singleton_self _) (by exact amount_agccw_s_1_7 X c false) (by exact amount_agccw_r_14_1 X (prv c) false) (by rfl) (by exact payload_agccw_s_1_7 X c false) (by exact hp2_agccw_r_14_1 X c) (by rfl) (by routes)) $$ [Hg_agccw_r_13_1 Hd_agccw_r_14_1 HO Hts_agccw_s_1_7 Htn_agccw_r_14_1]
  · isplitr; · iexact HIo
    isplitr; · iexact HIt
    isplitl [Hg_agccw_r_13_1]; · iexact Hg_agccw_r_13_1
    isplitl [Hd_agccw_r_14_1]; · iexact Hd_agccw_r_14_1
    isplitl [HO]; · iexact HO
    isplitl [Hts_agccw_s_1_7]; · iexact Hts_agccw_s_1_7
    isplitr; · iexact Hrch_agccw_s_1_7
    isplitl [Htn_agccw_r_14_1]; · iexact Htn_agccw_r_14_1
    iexact Hrn_agccw_r_14_1
  iintro ⟨Hcs_agccw_s_1_7, HO⟩
  iclear HIo HIt
  -- wait recv ag cw t=14 b=0
  try sl_exec_parts
  ihave #HIo := (bigSepL_elim_idx ownQs _ 74 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agcw_r_14_0 X c])) $$ [Hc_agcw_r_14_0 HO Hat_agcw_r_14_0]
  · isplitr; · iexact HIo
    isplitl [Hc_agcw_r_14_0]; · iexact Hc_agcw_r_14_0
    isplitl [HO]; · iexact HO
    isplitr; · iapply (mayWait_rem (F := F) c 122 (by decide) _ (by show (120 : ℕ) < 2 + 122; decide)); iexact Hlev
    iexact Hat_agcw_r_14_0
  iintro ⟨HO, Hat_agcw_r_14_0, #Hrch_agcw_r_14_0_1, Hpay⟩
  iclear HIo
  ihave Hp := (Entails.of_eq (rest_single X _ _ _ (duties_agcw_r_14_0 X c) (payload_agcw_r_14_0 X c false))) $$ Hpay
  irename Hp => Hg_agcw_r_14_0
  -- wait recv ag ccw t=14 b=0
  try sl_exec_parts
  ihave #HIo := (bigSepL_elim_idx ownQs _ 134 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agccw_r_14_0 X c])) $$ [Hc_agccw_r_14_0 HO Hat_agccw_r_14_0]
  · isplitr; · iexact HIo
    isplitl [Hc_agccw_r_14_0]; · iexact Hc_agccw_r_14_0
    isplitl [HO]; · iexact HO
    isplitr; · iapply (mayWait_rem (F := F) c 122 (by decide) _ (by show (121 : ℕ) < 2 + 122; decide)); iexact Hlev
    iexact Hat_agccw_r_14_0
  iintro ⟨HO, Hat_agccw_r_14_0, #Hrch_agccw_r_14_0_1, Hpay⟩
  iclear HIo
  ihave Hp := (Entails.of_eq (rest_single X _ _ _ (duties_agccw_r_14_0 X c) (payload_agccw_r_14_0 X c false))) $$ Hpay
  irename Hp => Hg_agccw_r_14_0
  -- wait recv ag cw t=14 b=1
  try sl_exec_parts
  ihave #HIo := (bigSepL_elim_idx ownQs _ 75 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agcw_r_14_1 X c])) $$ [Hc_agcw_r_14_1 HO Hat_agcw_r_14_1]
  · isplitr; · iexact HIo
    isplitl [Hc_agcw_r_14_1]; · iexact Hc_agcw_r_14_1
    isplitl [HO]; · iexact HO
    isplitr; · iapply (mayWait_rem (F := F) c 122 (by decide) _ (by show (122 : ℕ) < 2 + 122; decide)); iexact Hlev
    iexact Hat_agcw_r_14_1
  iintro ⟨HO, Hat_agcw_r_14_1, #Hrch_agcw_r_14_1_1, Hpay⟩
  iclear HIo
  ihave Hp := (Entails.of_eq (rest_single X _ _ _ (duties_agcw_r_14_1 X c) (payload_agcw_r_14_1 X c false))) $$ Hpay
  irename Hp => Hg_agcw_r_14_1
  -- wait recv ag ccw t=14 b=1
  try sl_exec_parts
  ihave #HIo := (bigSepL_elim_idx ownQs _ 135 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agccw_r_14_1 X c])) $$ [Hc_agccw_r_14_1 HO Hat_agccw_r_14_1]
  · isplitr; · iexact HIo
    isplitl [Hc_agccw_r_14_1]; · iexact Hc_agccw_r_14_1
    isplitl [HO]; · iexact HO
    isplitr; · iapply (mayWait_rem (F := F) c 122 (by decide) _ (by show (123 : ℕ) < 2 + 122; decide)); iexact Hlev
    iexact Hat_agccw_r_14_1
  iintro ⟨HO, Hat_agccw_r_14_1, #Hrch_agccw_r_14_1_1, Hpay⟩
  iclear HIo
  ihave Hp := (Entails.of_eq (rest_single X _ _ _ (duties_agccw_r_14_1 X c) (payload_agccw_r_14_1 X c false))) $$ Hpay
  irename Hp => Hg_agccw_r_14_1
  -- wait send rs cw t=13 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rscw_s_2_6 X c])) $$ [Hcs_rscw_s_2_6 HO Hat_rscw_s_2]
  · isplitr; · iexact HIo
    isplitl [Hcs_rscw_s_2_6]; · iexact Hcs_rscw_s_2_6
    isplitl [HO]; · iexact HO
    isplitr; · iapply (mayWait_rem (F := F) c 122 (by decide) _ (by show (0 : ℕ) < 2 + 122; decide)); iexact Hlev
    iexact Hat_rscw_s_2
  iintro ⟨HO, Hat_rscw_s_2, #Hrch_rscw_s_2_7, Hpay⟩
  iclear HIo
  ihave Hp := (Entails.of_eq (rest_single X _ _ _ (duties_rscw_s_2_6 X c) (payload_rscw_s_2_6 X c false))) $$ Hpay
  irename Hp => Hback_rscw_r_12_0
  -- wait send rs cw t=13 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rscw_s_3_6 X c])) $$ [Hcs_rscw_s_3_6 HO Hat_rscw_s_3]
  · isplitr; · iexact HIo
    isplitl [Hcs_rscw_s_3_6]; · iexact Hcs_rscw_s_3_6
    isplitl [HO]; · iexact HO
    isplitr; · iapply (mayWait_rem (F := F) c 122 (by decide) _ (by show (0 : ℕ) < 2 + 122; decide)); iexact Hlev
    iexact Hat_rscw_s_3
  iintro ⟨HO, Hat_rscw_s_3, #Hrch_rscw_s_3_7, Hpay⟩
  iclear HIo
  ihave Hp := (Entails.of_eq (rest_single X _ _ _ (duties_rscw_s_3_6 X c) (payload_rscw_s_3_6 X c false))) $$ Hpay
  irename Hp => Hback_rscw_r_12_1
  -- wait send rs cw t=14 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rscw_s_0_7 X c])) $$ [Hcs_rscw_s_0_7 HO Hat_rscw_s_0]
  · isplitr; · iexact HIo
    isplitl [Hcs_rscw_s_0_7]; · iexact Hcs_rscw_s_0_7
    isplitl [HO]; · iexact HO
    isplitr; · iapply (mayWait_rem (F := F) c 122 (by decide) _ (by show (0 : ℕ) < 2 + 122; decide)); iexact Hlev
    iexact Hat_rscw_s_0
  iintro ⟨HO, Hat_rscw_s_0, #Hrch_rscw_s_0_8, Hpay⟩
  iclear HIo
  ihave Hp := (Entails.of_eq (rest_single X _ _ _ (duties_rscw_s_0_7 X c) (payload_rscw_s_0_7 X c false))) $$ Hpay
  irename Hp => Hback_rscw_r_13_0
  -- wait send rs cw t=14 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rscw_s_1_7 X c])) $$ [Hcs_rscw_s_1_7 HO Hat_rscw_s_1]
  · isplitr; · iexact HIo
    isplitl [Hcs_rscw_s_1_7]; · iexact Hcs_rscw_s_1_7
    isplitl [HO]; · iexact HO
    isplitr; · iapply (mayWait_rem (F := F) c 122 (by decide) _ (by show (0 : ℕ) < 2 + 122; decide)); iexact Hlev
    iexact Hat_rscw_s_1
  iintro ⟨HO, Hat_rscw_s_1, #Hrch_rscw_s_1_8, Hpay⟩
  iclear HIo
  ihave Hp := (Entails.of_eq (rest_single X _ _ _ (duties_rscw_s_1_7 X c) (payload_rscw_s_1_7 X c false))) $$ Hpay
  irename Hp => Hback_rscw_r_13_1
  -- wait send rs ccw t=13 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rsccw_s_2_6 X c])) $$ [Hcs_rsccw_s_2_6 HO Hat_rsccw_s_2]
  · isplitr; · iexact HIo
    isplitl [Hcs_rsccw_s_2_6]; · iexact Hcs_rsccw_s_2_6
    isplitl [HO]; · iexact HO
    isplitr; · iapply (mayWait_rem (F := F) c 122 (by decide) _ (by show (0 : ℕ) < 2 + 122; decide)); iexact Hlev
    iexact Hat_rsccw_s_2
  iintro ⟨HO, Hat_rsccw_s_2, #Hrch_rsccw_s_2_7, Hpay⟩
  iclear HIo
  ihave Hp := (Entails.of_eq (rest_single X _ _ _ (duties_rsccw_s_2_6 X c) (payload_rsccw_s_2_6 X c false))) $$ Hpay
  irename Hp => Hback_rsccw_r_12_0
  -- wait send rs ccw t=13 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rsccw_s_3_6 X c])) $$ [Hcs_rsccw_s_3_6 HO Hat_rsccw_s_3]
  · isplitr; · iexact HIo
    isplitl [Hcs_rsccw_s_3_6]; · iexact Hcs_rsccw_s_3_6
    isplitl [HO]; · iexact HO
    isplitr; · iapply (mayWait_rem (F := F) c 122 (by decide) _ (by show (0 : ℕ) < 2 + 122; decide)); iexact Hlev
    iexact Hat_rsccw_s_3
  iintro ⟨HO, Hat_rsccw_s_3, #Hrch_rsccw_s_3_7, Hpay⟩
  iclear HIo
  ihave Hp := (Entails.of_eq (rest_single X _ _ _ (duties_rsccw_s_3_6 X c) (payload_rsccw_s_3_6 X c false))) $$ Hpay
  irename Hp => Hback_rsccw_r_12_1
  -- wait send rs ccw t=14 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rsccw_s_0_7 X c])) $$ [Hcs_rsccw_s_0_7 HO Hat_rsccw_s_0]
  · isplitr; · iexact HIo
    isplitl [Hcs_rsccw_s_0_7]; · iexact Hcs_rsccw_s_0_7
    isplitl [HO]; · iexact HO
    isplitr; · iapply (mayWait_rem (F := F) c 122 (by decide) _ (by show (0 : ℕ) < 2 + 122; decide)); iexact Hlev
    iexact Hat_rsccw_s_0
  iintro ⟨HO, Hat_rsccw_s_0, #Hrch_rsccw_s_0_8, Hpay⟩
  iclear HIo
  ihave Hp := (Entails.of_eq (rest_single X _ _ _ (duties_rsccw_s_0_7 X c) (payload_rsccw_s_0_7 X c false))) $$ Hpay
  irename Hp => Hback_rsccw_r_13_0
  -- wait send rs ccw t=14 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rsccw_s_1_7 X c])) $$ [Hcs_rsccw_s_1_7 HO Hat_rsccw_s_1]
  · isplitr; · iexact HIo
    isplitl [Hcs_rsccw_s_1_7]; · iexact Hcs_rsccw_s_1_7
    isplitl [HO]; · iexact HO
    isplitr; · iapply (mayWait_rem (F := F) c 122 (by decide) _ (by show (0 : ℕ) < 2 + 122; decide)); iexact Hlev
    iexact Hat_rsccw_s_1
  iintro ⟨HO, Hat_rsccw_s_1, #Hrch_rsccw_s_1_8, Hpay⟩
  iclear HIo
  ihave Hp := (Entails.of_eq (rest_single X _ _ _ (duties_rsccw_s_1_7 X c) (payload_rsccw_s_1_7 X c false))) $$ Hpay
  irename Hp => Hback_rsccw_r_13_1
  -- wait send ag cw t=13 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agcw_s_2_6 X c])) $$ [Hcs_agcw_s_2_6 HO Hat_agcw_s_2]
  · isplitr; · iexact HIo
    isplitl [Hcs_agcw_s_2_6]; · iexact Hcs_agcw_s_2_6
    isplitl [HO]; · iexact HO
    isplitr; · iapply (mayWait_rem (F := F) c 122 (by decide) _ (by show (0 : ℕ) < 2 + 122; decide)); iexact Hlev
    iexact Hat_agcw_s_2
  iintro ⟨HO, Hat_agcw_s_2, #Hrch_agcw_s_2_7, Hpay⟩
  iclear HIo
  ihave Hp := (Entails.of_eq (rest_single X _ _ _ (duties_agcw_s_2_6 X c) (payload_agcw_s_2_6 X c false))) $$ Hpay
  irename Hp => Hback_agcw_r_12_0
  -- wait send ag cw t=13 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agcw_s_3_6 X c])) $$ [Hcs_agcw_s_3_6 HO Hat_agcw_s_3]
  · isplitr; · iexact HIo
    isplitl [Hcs_agcw_s_3_6]; · iexact Hcs_agcw_s_3_6
    isplitl [HO]; · iexact HO
    isplitr; · iapply (mayWait_rem (F := F) c 122 (by decide) _ (by show (0 : ℕ) < 2 + 122; decide)); iexact Hlev
    iexact Hat_agcw_s_3
  iintro ⟨HO, Hat_agcw_s_3, #Hrch_agcw_s_3_7, Hpay⟩
  iclear HIo
  ihave Hp := (Entails.of_eq (rest_single X _ _ _ (duties_agcw_s_3_6 X c) (payload_agcw_s_3_6 X c false))) $$ Hpay
  irename Hp => Hback_agcw_r_12_1
  -- wait send ag cw t=14 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agcw_s_0_7 X c])) $$ [Hcs_agcw_s_0_7 HO Hat_agcw_s_0]
  · isplitr; · iexact HIo
    isplitl [Hcs_agcw_s_0_7]; · iexact Hcs_agcw_s_0_7
    isplitl [HO]; · iexact HO
    isplitr; · iapply (mayWait_rem (F := F) c 122 (by decide) _ (by show (0 : ℕ) < 2 + 122; decide)); iexact Hlev
    iexact Hat_agcw_s_0
  iintro ⟨HO, Hat_agcw_s_0, #Hrch_agcw_s_0_8, Hpay⟩
  iclear HIo
  ihave Hp := (Entails.of_eq (rest_single X _ _ _ (duties_agcw_s_0_7 X c) (payload_agcw_s_0_7 X c false))) $$ Hpay
  irename Hp => Hback_agcw_r_13_0
  -- wait send ag cw t=14 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agcw_s_1_7 X c])) $$ [Hcs_agcw_s_1_7 HO Hat_agcw_s_1]
  · isplitr; · iexact HIo
    isplitl [Hcs_agcw_s_1_7]; · iexact Hcs_agcw_s_1_7
    isplitl [HO]; · iexact HO
    isplitr; · iapply (mayWait_rem (F := F) c 122 (by decide) _ (by show (0 : ℕ) < 2 + 122; decide)); iexact Hlev
    iexact Hat_agcw_s_1
  iintro ⟨HO, Hat_agcw_s_1, #Hrch_agcw_s_1_8, Hpay⟩
  iclear HIo
  ihave Hp := (Entails.of_eq (rest_single X _ _ _ (duties_agcw_s_1_7 X c) (payload_agcw_s_1_7 X c false))) $$ Hpay
  irename Hp => Hback_agcw_r_13_1
  -- wait send ag ccw t=13 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agccw_s_2_6 X c])) $$ [Hcs_agccw_s_2_6 HO Hat_agccw_s_2]
  · isplitr; · iexact HIo
    isplitl [Hcs_agccw_s_2_6]; · iexact Hcs_agccw_s_2_6
    isplitl [HO]; · iexact HO
    isplitr; · iapply (mayWait_rem (F := F) c 122 (by decide) _ (by show (0 : ℕ) < 2 + 122; decide)); iexact Hlev
    iexact Hat_agccw_s_2
  iintro ⟨HO, Hat_agccw_s_2, #Hrch_agccw_s_2_7, Hpay⟩
  iclear HIo
  ihave Hp := (Entails.of_eq (rest_single X _ _ _ (duties_agccw_s_2_6 X c) (payload_agccw_s_2_6 X c false))) $$ Hpay
  irename Hp => Hback_agccw_r_12_0
  -- wait send ag ccw t=13 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agccw_s_3_6 X c])) $$ [Hcs_agccw_s_3_6 HO Hat_agccw_s_3]
  · isplitr; · iexact HIo
    isplitl [Hcs_agccw_s_3_6]; · iexact Hcs_agccw_s_3_6
    isplitl [HO]; · iexact HO
    isplitr; · iapply (mayWait_rem (F := F) c 122 (by decide) _ (by show (0 : ℕ) < 2 + 122; decide)); iexact Hlev
    iexact Hat_agccw_s_3
  iintro ⟨HO, Hat_agccw_s_3, #Hrch_agccw_s_3_7, Hpay⟩
  iclear HIo
  ihave Hp := (Entails.of_eq (rest_single X _ _ _ (duties_agccw_s_3_6 X c) (payload_agccw_s_3_6 X c false))) $$ Hpay
  irename Hp => Hback_agccw_r_12_1
  -- wait send ag ccw t=14 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agccw_s_0_7 X c])) $$ [Hcs_agccw_s_0_7 HO Hat_agccw_s_0]
  · isplitr; · iexact HIo
    isplitl [Hcs_agccw_s_0_7]; · iexact Hcs_agccw_s_0_7
    isplitl [HO]; · iexact HO
    isplitr; · iapply (mayWait_rem (F := F) c 122 (by decide) _ (by show (0 : ℕ) < 2 + 122; decide)); iexact Hlev
    iexact Hat_agccw_s_0
  iintro ⟨HO, Hat_agccw_s_0, #Hrch_agccw_s_0_8, Hpay⟩
  iclear HIo
  ihave Hp := (Entails.of_eq (rest_single X _ _ _ (duties_agccw_s_0_7 X c) (payload_agccw_s_0_7 X c false))) $$ Hpay
  irename Hp => Hback_agccw_r_13_0
  -- wait send ag ccw t=14 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agccw_s_1_7 X c])) $$ [Hcs_agccw_s_1_7 HO Hat_agccw_s_1]
  · isplitr; · iexact HIo
    isplitl [Hcs_agccw_s_1_7]; · iexact Hcs_agccw_s_1_7
    isplitl [HO]; · iexact HO
    isplitr; · iapply (mayWait_rem (F := F) c 122 (by decide) _ (by show (0 : ℕ) < 2 + 122; decide)); iexact Hlev
    iexact Hat_agccw_s_1
  iintro ⟨HO, Hat_agccw_s_1, #Hrch_agccw_s_1_8, Hpay⟩
  iclear HIo
  ihave Hp := (Entails.of_eq (rest_single X _ _ _ (duties_agccw_s_1_7 X c) (payload_agccw_s_1_7 X c false))) $$ Hpay
  irename Hp => Hback_agccw_r_13_1
  try sl_exec_parts
  imod (sems_close X c K) $$ [Hat_rscw_s_0 Hat_rscw_s_1 Hat_rscw_s_2 Hat_rscw_s_3 Hat_rsccw_s_0 Hat_rsccw_s_1 Hat_rsccw_s_2 Hat_rsccw_s_3 Hat_agcw_s_0 Hat_agcw_s_1 Hat_agcw_s_2 Hat_agcw_s_3 Hat_agccw_s_0 Hat_agccw_s_1 Hat_agccw_s_2 Hat_agccw_s_3 Hat_rscw_r_0_0 Hat_rscw_r_0_1 Hat_rscw_r_1_0 Hat_rscw_r_1_1 Hat_rscw_r_2_0 Hat_rscw_r_2_1 Hat_rscw_r_3_0 Hat_rscw_r_3_1 Hat_rscw_r_4_0 Hat_rscw_r_4_1 Hat_rscw_r_5_0 Hat_rscw_r_5_1 Hat_rscw_r_6_0 Hat_rscw_r_6_1 Hat_rscw_r_7_0 Hat_rscw_r_7_1 Hat_rscw_r_8_0 Hat_rscw_r_8_1 Hat_rscw_r_9_0 Hat_rscw_r_9_1 Hat_rscw_r_10_0 Hat_rscw_r_10_1 Hat_rscw_r_11_0 Hat_rscw_r_11_1 Hat_rscw_r_12_0 Hat_rscw_r_12_1 Hat_rscw_r_13_0 Hat_rscw_r_13_1 Hat_rscw_r_14_0 Hat_rscw_r_14_1 Hat_agcw_r_0_0 Hat_agcw_r_0_1 Hat_agcw_r_1_0 Hat_agcw_r_1_1 Hat_agcw_r_2_0 Hat_agcw_r_2_1 Hat_agcw_r_3_0 Hat_agcw_r_3_1 Hat_agcw_r_4_0 Hat_agcw_r_4_1 Hat_agcw_r_5_0 Hat_agcw_r_5_1 Hat_agcw_r_6_0 Hat_agcw_r_6_1 Hat_agcw_r_7_0 Hat_agcw_r_7_1 Hat_agcw_r_8_0 Hat_agcw_r_8_1 Hat_agcw_r_9_0 Hat_agcw_r_9_1 Hat_agcw_r_10_0 Hat_agcw_r_10_1 Hat_agcw_r_11_0 Hat_agcw_r_11_1 Hat_agcw_r_12_0 Hat_agcw_r_12_1 Hat_agcw_r_13_0 Hat_agcw_r_13_1 Hat_agcw_r_14_0 Hat_agcw_r_14_1 Hat_rsccw_r_0_0 Hat_rsccw_r_0_1 Hat_rsccw_r_1_0 Hat_rsccw_r_1_1 Hat_rsccw_r_2_0 Hat_rsccw_r_2_1 Hat_rsccw_r_3_0 Hat_rsccw_r_3_1 Hat_rsccw_r_4_0 Hat_rsccw_r_4_1 Hat_rsccw_r_5_0 Hat_rsccw_r_5_1 Hat_rsccw_r_6_0 Hat_rsccw_r_6_1 Hat_rsccw_r_7_0 Hat_rsccw_r_7_1 Hat_rsccw_r_8_0 Hat_rsccw_r_8_1 Hat_rsccw_r_9_0 Hat_rsccw_r_9_1 Hat_rsccw_r_10_0 Hat_rsccw_r_10_1 Hat_rsccw_r_11_0 Hat_rsccw_r_11_1 Hat_rsccw_r_12_0 Hat_rsccw_r_12_1 Hat_rsccw_r_13_0 Hat_rsccw_r_13_1 Hat_rsccw_r_14_0 Hat_rsccw_r_14_1 Hat_agccw_r_0_0 Hat_agccw_r_0_1 Hat_agccw_r_1_0 Hat_agccw_r_1_1 Hat_agccw_r_2_0 Hat_agccw_r_2_1 Hat_agccw_r_3_0 Hat_agccw_r_3_1 Hat_agccw_r_4_0 Hat_agccw_r_4_1 Hat_agccw_r_5_0 Hat_agccw_r_5_1 Hat_agccw_r_6_0 Hat_agccw_r_6_1 Hat_agccw_r_7_0 Hat_agccw_r_7_1 Hat_agccw_r_8_0 Hat_agccw_r_8_1 Hat_agccw_r_9_0 Hat_agccw_r_9_1 Hat_agccw_r_10_0 Hat_agccw_r_10_1 Hat_agccw_r_11_0 Hat_agccw_r_11_1 Hat_agccw_r_12_0 Hat_agccw_r_12_1 Hat_agccw_r_13_0 Hat_agccw_r_13_1 Hat_agccw_r_14_0 Hat_agccw_r_14_1] with Hsem
  · isplitr; · iexact HInvOwn
    isplitl [Hat_rscw_s_0]; · iexact Hat_rscw_s_0
    isplitl [Hat_rscw_s_1]; · iexact Hat_rscw_s_1
    isplitl [Hat_rscw_s_2]; · iexact Hat_rscw_s_2
    isplitl [Hat_rscw_s_3]; · iexact Hat_rscw_s_3
    isplitl [Hat_rsccw_s_0]; · iexact Hat_rsccw_s_0
    isplitl [Hat_rsccw_s_1]; · iexact Hat_rsccw_s_1
    isplitl [Hat_rsccw_s_2]; · iexact Hat_rsccw_s_2
    isplitl [Hat_rsccw_s_3]; · iexact Hat_rsccw_s_3
    isplitl [Hat_agcw_s_0]; · iexact Hat_agcw_s_0
    isplitl [Hat_agcw_s_1]; · iexact Hat_agcw_s_1
    isplitl [Hat_agcw_s_2]; · iexact Hat_agcw_s_2
    isplitl [Hat_agcw_s_3]; · iexact Hat_agcw_s_3
    isplitl [Hat_agccw_s_0]; · iexact Hat_agccw_s_0
    isplitl [Hat_agccw_s_1]; · iexact Hat_agccw_s_1
    isplitl [Hat_agccw_s_2]; · iexact Hat_agccw_s_2
    isplitl [Hat_agccw_s_3]; · iexact Hat_agccw_s_3
    isplitl [Hat_rscw_r_0_0]; · iexact Hat_rscw_r_0_0
    isplitl [Hat_rscw_r_0_1]; · iexact Hat_rscw_r_0_1
    isplitl [Hat_rscw_r_1_0]; · iexact Hat_rscw_r_1_0
    isplitl [Hat_rscw_r_1_1]; · iexact Hat_rscw_r_1_1
    isplitl [Hat_rscw_r_2_0]; · iexact Hat_rscw_r_2_0
    isplitl [Hat_rscw_r_2_1]; · iexact Hat_rscw_r_2_1
    isplitl [Hat_rscw_r_3_0]; · iexact Hat_rscw_r_3_0
    isplitl [Hat_rscw_r_3_1]; · iexact Hat_rscw_r_3_1
    isplitl [Hat_rscw_r_4_0]; · iexact Hat_rscw_r_4_0
    isplitl [Hat_rscw_r_4_1]; · iexact Hat_rscw_r_4_1
    isplitl [Hat_rscw_r_5_0]; · iexact Hat_rscw_r_5_0
    isplitl [Hat_rscw_r_5_1]; · iexact Hat_rscw_r_5_1
    isplitl [Hat_rscw_r_6_0]; · iexact Hat_rscw_r_6_0
    isplitl [Hat_rscw_r_6_1]; · iexact Hat_rscw_r_6_1
    isplitl [Hat_rscw_r_7_0]; · iexact Hat_rscw_r_7_0
    isplitl [Hat_rscw_r_7_1]; · iexact Hat_rscw_r_7_1
    isplitl [Hat_rscw_r_8_0]; · iexact Hat_rscw_r_8_0
    isplitl [Hat_rscw_r_8_1]; · iexact Hat_rscw_r_8_1
    isplitl [Hat_rscw_r_9_0]; · iexact Hat_rscw_r_9_0
    isplitl [Hat_rscw_r_9_1]; · iexact Hat_rscw_r_9_1
    isplitl [Hat_rscw_r_10_0]; · iexact Hat_rscw_r_10_0
    isplitl [Hat_rscw_r_10_1]; · iexact Hat_rscw_r_10_1
    isplitl [Hat_rscw_r_11_0]; · iexact Hat_rscw_r_11_0
    isplitl [Hat_rscw_r_11_1]; · iexact Hat_rscw_r_11_1
    isplitl [Hat_rscw_r_12_0]; · iexact Hat_rscw_r_12_0
    isplitl [Hat_rscw_r_12_1]; · iexact Hat_rscw_r_12_1
    isplitl [Hat_rscw_r_13_0]; · iexact Hat_rscw_r_13_0
    isplitl [Hat_rscw_r_13_1]; · iexact Hat_rscw_r_13_1
    isplitl [Hat_rscw_r_14_0]; · iexact Hat_rscw_r_14_0
    isplitl [Hat_rscw_r_14_1]; · iexact Hat_rscw_r_14_1
    isplitl [Hat_agcw_r_0_0]; · iexact Hat_agcw_r_0_0
    isplitl [Hat_agcw_r_0_1]; · iexact Hat_agcw_r_0_1
    isplitl [Hat_agcw_r_1_0]; · iexact Hat_agcw_r_1_0
    isplitl [Hat_agcw_r_1_1]; · iexact Hat_agcw_r_1_1
    isplitl [Hat_agcw_r_2_0]; · iexact Hat_agcw_r_2_0
    isplitl [Hat_agcw_r_2_1]; · iexact Hat_agcw_r_2_1
    isplitl [Hat_agcw_r_3_0]; · iexact Hat_agcw_r_3_0
    isplitl [Hat_agcw_r_3_1]; · iexact Hat_agcw_r_3_1
    isplitl [Hat_agcw_r_4_0]; · iexact Hat_agcw_r_4_0
    isplitl [Hat_agcw_r_4_1]; · iexact Hat_agcw_r_4_1
    isplitl [Hat_agcw_r_5_0]; · iexact Hat_agcw_r_5_0
    isplitl [Hat_agcw_r_5_1]; · iexact Hat_agcw_r_5_1
    isplitl [Hat_agcw_r_6_0]; · iexact Hat_agcw_r_6_0
    isplitl [Hat_agcw_r_6_1]; · iexact Hat_agcw_r_6_1
    isplitl [Hat_agcw_r_7_0]; · iexact Hat_agcw_r_7_0
    isplitl [Hat_agcw_r_7_1]; · iexact Hat_agcw_r_7_1
    isplitl [Hat_agcw_r_8_0]; · iexact Hat_agcw_r_8_0
    isplitl [Hat_agcw_r_8_1]; · iexact Hat_agcw_r_8_1
    isplitl [Hat_agcw_r_9_0]; · iexact Hat_agcw_r_9_0
    isplitl [Hat_agcw_r_9_1]; · iexact Hat_agcw_r_9_1
    isplitl [Hat_agcw_r_10_0]; · iexact Hat_agcw_r_10_0
    isplitl [Hat_agcw_r_10_1]; · iexact Hat_agcw_r_10_1
    isplitl [Hat_agcw_r_11_0]; · iexact Hat_agcw_r_11_0
    isplitl [Hat_agcw_r_11_1]; · iexact Hat_agcw_r_11_1
    isplitl [Hat_agcw_r_12_0]; · iexact Hat_agcw_r_12_0
    isplitl [Hat_agcw_r_12_1]; · iexact Hat_agcw_r_12_1
    isplitl [Hat_agcw_r_13_0]; · iexact Hat_agcw_r_13_0
    isplitl [Hat_agcw_r_13_1]; · iexact Hat_agcw_r_13_1
    isplitl [Hat_agcw_r_14_0]; · iexact Hat_agcw_r_14_0
    isplitl [Hat_agcw_r_14_1]; · iexact Hat_agcw_r_14_1
    isplitl [Hat_rsccw_r_0_0]; · iexact Hat_rsccw_r_0_0
    isplitl [Hat_rsccw_r_0_1]; · iexact Hat_rsccw_r_0_1
    isplitl [Hat_rsccw_r_1_0]; · iexact Hat_rsccw_r_1_0
    isplitl [Hat_rsccw_r_1_1]; · iexact Hat_rsccw_r_1_1
    isplitl [Hat_rsccw_r_2_0]; · iexact Hat_rsccw_r_2_0
    isplitl [Hat_rsccw_r_2_1]; · iexact Hat_rsccw_r_2_1
    isplitl [Hat_rsccw_r_3_0]; · iexact Hat_rsccw_r_3_0
    isplitl [Hat_rsccw_r_3_1]; · iexact Hat_rsccw_r_3_1
    isplitl [Hat_rsccw_r_4_0]; · iexact Hat_rsccw_r_4_0
    isplitl [Hat_rsccw_r_4_1]; · iexact Hat_rsccw_r_4_1
    isplitl [Hat_rsccw_r_5_0]; · iexact Hat_rsccw_r_5_0
    isplitl [Hat_rsccw_r_5_1]; · iexact Hat_rsccw_r_5_1
    isplitl [Hat_rsccw_r_6_0]; · iexact Hat_rsccw_r_6_0
    isplitl [Hat_rsccw_r_6_1]; · iexact Hat_rsccw_r_6_1
    isplitl [Hat_rsccw_r_7_0]; · iexact Hat_rsccw_r_7_0
    isplitl [Hat_rsccw_r_7_1]; · iexact Hat_rsccw_r_7_1
    isplitl [Hat_rsccw_r_8_0]; · iexact Hat_rsccw_r_8_0
    isplitl [Hat_rsccw_r_8_1]; · iexact Hat_rsccw_r_8_1
    isplitl [Hat_rsccw_r_9_0]; · iexact Hat_rsccw_r_9_0
    isplitl [Hat_rsccw_r_9_1]; · iexact Hat_rsccw_r_9_1
    isplitl [Hat_rsccw_r_10_0]; · iexact Hat_rsccw_r_10_0
    isplitl [Hat_rsccw_r_10_1]; · iexact Hat_rsccw_r_10_1
    isplitl [Hat_rsccw_r_11_0]; · iexact Hat_rsccw_r_11_0
    isplitl [Hat_rsccw_r_11_1]; · iexact Hat_rsccw_r_11_1
    isplitl [Hat_rsccw_r_12_0]; · iexact Hat_rsccw_r_12_0
    isplitl [Hat_rsccw_r_12_1]; · iexact Hat_rsccw_r_12_1
    isplitl [Hat_rsccw_r_13_0]; · iexact Hat_rsccw_r_13_0
    isplitl [Hat_rsccw_r_13_1]; · iexact Hat_rsccw_r_13_1
    isplitl [Hat_rsccw_r_14_0]; · iexact Hat_rsccw_r_14_0
    isplitl [Hat_rsccw_r_14_1]; · iexact Hat_rsccw_r_14_1
    isplitl [Hat_agccw_r_0_0]; · iexact Hat_agccw_r_0_0
    isplitl [Hat_agccw_r_0_1]; · iexact Hat_agccw_r_0_1
    isplitl [Hat_agccw_r_1_0]; · iexact Hat_agccw_r_1_0
    isplitl [Hat_agccw_r_1_1]; · iexact Hat_agccw_r_1_1
    isplitl [Hat_agccw_r_2_0]; · iexact Hat_agccw_r_2_0
    isplitl [Hat_agccw_r_2_1]; · iexact Hat_agccw_r_2_1
    isplitl [Hat_agccw_r_3_0]; · iexact Hat_agccw_r_3_0
    isplitl [Hat_agccw_r_3_1]; · iexact Hat_agccw_r_3_1
    isplitl [Hat_agccw_r_4_0]; · iexact Hat_agccw_r_4_0
    isplitl [Hat_agccw_r_4_1]; · iexact Hat_agccw_r_4_1
    isplitl [Hat_agccw_r_5_0]; · iexact Hat_agccw_r_5_0
    isplitl [Hat_agccw_r_5_1]; · iexact Hat_agccw_r_5_1
    isplitl [Hat_agccw_r_6_0]; · iexact Hat_agccw_r_6_0
    isplitl [Hat_agccw_r_6_1]; · iexact Hat_agccw_r_6_1
    isplitl [Hat_agccw_r_7_0]; · iexact Hat_agccw_r_7_0
    isplitl [Hat_agccw_r_7_1]; · iexact Hat_agccw_r_7_1
    isplitl [Hat_agccw_r_8_0]; · iexact Hat_agccw_r_8_0
    isplitl [Hat_agccw_r_8_1]; · iexact Hat_agccw_r_8_1
    isplitl [Hat_agccw_r_9_0]; · iexact Hat_agccw_r_9_0
    isplitl [Hat_agccw_r_9_1]; · iexact Hat_agccw_r_9_1
    isplitl [Hat_agccw_r_10_0]; · iexact Hat_agccw_r_10_0
    isplitl [Hat_agccw_r_10_1]; · iexact Hat_agccw_r_10_1
    isplitl [Hat_agccw_r_11_0]; · iexact Hat_agccw_r_11_0
    isplitl [Hat_agccw_r_11_1]; · iexact Hat_agccw_r_11_1
    isplitl [Hat_agccw_r_12_0]; · iexact Hat_agccw_r_12_0
    isplitl [Hat_agccw_r_12_1]; · iexact Hat_agccw_r_12_1
    isplitl [Hat_agccw_r_13_0]; · iexact Hat_agccw_r_13_0
    isplitl [Hat_agccw_r_13_1]; · iexact Hat_agccw_r_13_1
    isplitl [Hat_agccw_r_14_0]; · iexact Hat_agccw_r_14_0
    iexact Hat_agccw_r_14_1
  rw [wp_ret]; imodintro
  iapply Hk
  unfold bodyPost Φ₁
  ihave Hsl_cw := (slots_back_cw X c) $$ [Hback_rscw_r_0_0 Hback_rscw_r_0_1 Hback_rscw_r_1_0 Hback_rscw_r_1_1 Hback_rscw_r_2_0 Hback_rscw_r_2_1 Hback_rscw_r_3_0 Hback_rscw_r_3_1 Hback_rscw_r_4_0 Hback_rscw_r_4_1 Hback_rscw_r_5_0 Hback_rscw_r_5_1 Hback_rscw_r_6_0 Hback_rscw_r_6_1 Hback_rscw_r_7_0 Hback_rscw_r_7_1 Hback_rscw_r_8_0 Hback_rscw_r_8_1 Hback_rscw_r_9_0 Hback_rscw_r_9_1 Hback_rscw_r_10_0 Hback_rscw_r_10_1 Hback_rscw_r_11_0 Hback_rscw_r_11_1 Hback_rscw_r_12_0 Hback_rscw_r_12_1 Hback_rscw_r_13_0 Hback_rscw_r_13_1 HsL_rscw_r_14_0 HbackR_rscw_r_14_0 HsL_rscw_r_14_1 HbackR_rscw_r_14_1]
  · isplitl [Hback_rscw_r_0_0]; · iexact Hback_rscw_r_0_0
    isplitl [Hback_rscw_r_0_1]; · iexact Hback_rscw_r_0_1
    isplitl [Hback_rscw_r_1_0]; · iexact Hback_rscw_r_1_0
    isplitl [Hback_rscw_r_1_1]; · iexact Hback_rscw_r_1_1
    isplitl [Hback_rscw_r_2_0]; · iexact Hback_rscw_r_2_0
    isplitl [Hback_rscw_r_2_1]; · iexact Hback_rscw_r_2_1
    isplitl [Hback_rscw_r_3_0]; · iexact Hback_rscw_r_3_0
    isplitl [Hback_rscw_r_3_1]; · iexact Hback_rscw_r_3_1
    isplitl [Hback_rscw_r_4_0]; · iexact Hback_rscw_r_4_0
    isplitl [Hback_rscw_r_4_1]; · iexact Hback_rscw_r_4_1
    isplitl [Hback_rscw_r_5_0]; · iexact Hback_rscw_r_5_0
    isplitl [Hback_rscw_r_5_1]; · iexact Hback_rscw_r_5_1
    isplitl [Hback_rscw_r_6_0]; · iexact Hback_rscw_r_6_0
    isplitl [Hback_rscw_r_6_1]; · iexact Hback_rscw_r_6_1
    isplitl [Hback_rscw_r_7_0]; · iexact Hback_rscw_r_7_0
    isplitl [Hback_rscw_r_7_1]; · iexact Hback_rscw_r_7_1
    isplitl [Hback_rscw_r_8_0]; · iexact Hback_rscw_r_8_0
    isplitl [Hback_rscw_r_8_1]; · iexact Hback_rscw_r_8_1
    isplitl [Hback_rscw_r_9_0]; · iexact Hback_rscw_r_9_0
    isplitl [Hback_rscw_r_9_1]; · iexact Hback_rscw_r_9_1
    isplitl [Hback_rscw_r_10_0]; · iexact Hback_rscw_r_10_0
    isplitl [Hback_rscw_r_10_1]; · iexact Hback_rscw_r_10_1
    isplitl [Hback_rscw_r_11_0]; · iexact Hback_rscw_r_11_0
    isplitl [Hback_rscw_r_11_1]; · iexact Hback_rscw_r_11_1
    isplitl [Hback_rscw_r_12_0]; · iexact Hback_rscw_r_12_0
    isplitl [Hback_rscw_r_12_1]; · iexact Hback_rscw_r_12_1
    isplitl [Hback_rscw_r_13_0]; · iexact Hback_rscw_r_13_0
    isplitl [Hback_rscw_r_13_1]; · iexact Hback_rscw_r_13_1
    isplitl [HsL_rscw_r_14_0]; · iexact HsL_rscw_r_14_0
    isplitl [HbackR_rscw_r_14_0]; · iexact HbackR_rscw_r_14_0
    isplitl [HsL_rscw_r_14_1]; · iexact HsL_rscw_r_14_1
    iexact HbackR_rscw_r_14_1
  ihave Hsl_ccw := (slots_back_ccw X c) $$ [Hback_rsccw_r_0_0 Hback_rsccw_r_0_1 Hback_rsccw_r_1_0 Hback_rsccw_r_1_1 Hback_rsccw_r_2_0 Hback_rsccw_r_2_1 Hback_rsccw_r_3_0 Hback_rsccw_r_3_1 Hback_rsccw_r_4_0 Hback_rsccw_r_4_1 Hback_rsccw_r_5_0 Hback_rsccw_r_5_1 Hback_rsccw_r_6_0 Hback_rsccw_r_6_1 Hback_rsccw_r_7_0 Hback_rsccw_r_7_1 Hback_rsccw_r_8_0 Hback_rsccw_r_8_1 Hback_rsccw_r_9_0 Hback_rsccw_r_9_1 Hback_rsccw_r_10_0 Hback_rsccw_r_10_1 Hback_rsccw_r_11_0 Hback_rsccw_r_11_1 Hback_rsccw_r_12_0 Hback_rsccw_r_12_1 Hback_rsccw_r_13_0 Hback_rsccw_r_13_1 HsL_rsccw_r_14_0 HbackR_rsccw_r_14_0 HsL_rsccw_r_14_1 HbackR_rsccw_r_14_1]
  · isplitl [Hback_rsccw_r_0_0]; · iexact Hback_rsccw_r_0_0
    isplitl [Hback_rsccw_r_0_1]; · iexact Hback_rsccw_r_0_1
    isplitl [Hback_rsccw_r_1_0]; · iexact Hback_rsccw_r_1_0
    isplitl [Hback_rsccw_r_1_1]; · iexact Hback_rsccw_r_1_1
    isplitl [Hback_rsccw_r_2_0]; · iexact Hback_rsccw_r_2_0
    isplitl [Hback_rsccw_r_2_1]; · iexact Hback_rsccw_r_2_1
    isplitl [Hback_rsccw_r_3_0]; · iexact Hback_rsccw_r_3_0
    isplitl [Hback_rsccw_r_3_1]; · iexact Hback_rsccw_r_3_1
    isplitl [Hback_rsccw_r_4_0]; · iexact Hback_rsccw_r_4_0
    isplitl [Hback_rsccw_r_4_1]; · iexact Hback_rsccw_r_4_1
    isplitl [Hback_rsccw_r_5_0]; · iexact Hback_rsccw_r_5_0
    isplitl [Hback_rsccw_r_5_1]; · iexact Hback_rsccw_r_5_1
    isplitl [Hback_rsccw_r_6_0]; · iexact Hback_rsccw_r_6_0
    isplitl [Hback_rsccw_r_6_1]; · iexact Hback_rsccw_r_6_1
    isplitl [Hback_rsccw_r_7_0]; · iexact Hback_rsccw_r_7_0
    isplitl [Hback_rsccw_r_7_1]; · iexact Hback_rsccw_r_7_1
    isplitl [Hback_rsccw_r_8_0]; · iexact Hback_rsccw_r_8_0
    isplitl [Hback_rsccw_r_8_1]; · iexact Hback_rsccw_r_8_1
    isplitl [Hback_rsccw_r_9_0]; · iexact Hback_rsccw_r_9_0
    isplitl [Hback_rsccw_r_9_1]; · iexact Hback_rsccw_r_9_1
    isplitl [Hback_rsccw_r_10_0]; · iexact Hback_rsccw_r_10_0
    isplitl [Hback_rsccw_r_10_1]; · iexact Hback_rsccw_r_10_1
    isplitl [Hback_rsccw_r_11_0]; · iexact Hback_rsccw_r_11_0
    isplitl [Hback_rsccw_r_11_1]; · iexact Hback_rsccw_r_11_1
    isplitl [Hback_rsccw_r_12_0]; · iexact Hback_rsccw_r_12_0
    isplitl [Hback_rsccw_r_12_1]; · iexact Hback_rsccw_r_12_1
    isplitl [Hback_rsccw_r_13_0]; · iexact Hback_rsccw_r_13_0
    isplitl [Hback_rsccw_r_13_1]; · iexact Hback_rsccw_r_13_1
    isplitl [HsL_rsccw_r_14_0]; · iexact HsL_rsccw_r_14_0
    isplitl [HbackR_rsccw_r_14_0]; · iexact HbackR_rsccw_r_14_0
    isplitl [HsL_rsccw_r_14_1]; · iexact HsL_rsccw_r_14_1
    iexact HbackR_rsccw_r_14_1
  ihave Hxb := (x_back c (X c)) $$ [HxL Hx_cw0 Hx_cw1 Hx_ccw0 Hx_ccw1 HxRest]
  · isplitl [HxL]; · iexact HxL
    isplitl [Hx_cw0]; · iexact Hx_cw0
    isplitl [Hx_cw1]; · iexact Hx_cw1
    isplitl [Hx_ccw0]; · iexact Hx_ccw0
    isplitl [Hx_ccw1]; · iexact Hx_ccw1
    iexact HxRest
  ihave Hob := (out_back X c) $$ [Hg_own_cw0 Hg_own_cw1 Hg_agcw_r_14_0 Hg_agcw_r_14_1 Hback_agcw_r_13_0 Hback_agcw_r_13_1 Hback_agcw_r_12_0 Hback_agcw_r_12_1 Hback_agcw_r_11_0 Hback_agcw_r_11_1 Hback_agcw_r_10_0 Hback_agcw_r_10_1 Hback_agcw_r_9_0 Hback_agcw_r_9_1 Hback_agcw_r_8_0 Hback_agcw_r_8_1 Hback_agcw_r_7_0 Hback_agcw_r_7_1 Hback_agcw_r_6_0 Hback_agcw_r_6_1 Hback_agcw_r_5_0 Hback_agcw_r_5_1 Hback_agcw_r_4_0 Hback_agcw_r_4_1 Hback_agcw_r_3_0 Hback_agcw_r_3_1 Hback_agcw_r_2_0 Hback_agcw_r_2_1 Hback_agcw_r_1_0 Hback_agcw_r_1_1 Hback_agcw_r_0_0 Hback_agcw_r_0_1 Hg_own_ccw0 Hg_own_ccw1 Hback_agccw_r_0_0 Hback_agccw_r_0_1 Hback_agccw_r_1_0 Hback_agccw_r_1_1 Hback_agccw_r_2_0 Hback_agccw_r_2_1 Hback_agccw_r_3_0 Hback_agccw_r_3_1 Hback_agccw_r_4_0 Hback_agccw_r_4_1 Hback_agccw_r_5_0 Hback_agccw_r_5_1 Hback_agccw_r_6_0 Hback_agccw_r_6_1 Hback_agccw_r_7_0 Hback_agccw_r_7_1 Hback_agccw_r_8_0 Hback_agccw_r_8_1 Hback_agccw_r_9_0 Hback_agccw_r_9_1 Hback_agccw_r_10_0 Hback_agccw_r_10_1 Hback_agccw_r_11_0 Hback_agccw_r_11_1 Hback_agccw_r_12_0 Hback_agccw_r_12_1 Hback_agccw_r_13_0 Hback_agccw_r_13_1 Hg_agccw_r_14_0 Hg_agccw_r_14_1]
  · rw [devAt_zero c]
    isplitl [Hg_own_cw0]; · iexact Hg_own_cw0
    isplitl [Hg_own_cw1]; · iexact Hg_own_cw1
    isplitl [Hg_agcw_r_14_0]; · iexact Hg_agcw_r_14_0
    isplitl [Hg_agcw_r_14_1]; · iexact Hg_agcw_r_14_1
    isplitl [Hback_agcw_r_13_0]; · iexact Hback_agcw_r_13_0
    isplitl [Hback_agcw_r_13_1]; · iexact Hback_agcw_r_13_1
    isplitl [Hback_agcw_r_12_0]; · iexact Hback_agcw_r_12_0
    isplitl [Hback_agcw_r_12_1]; · iexact Hback_agcw_r_12_1
    isplitl [Hback_agcw_r_11_0]; · iexact Hback_agcw_r_11_0
    isplitl [Hback_agcw_r_11_1]; · iexact Hback_agcw_r_11_1
    isplitl [Hback_agcw_r_10_0]; · iexact Hback_agcw_r_10_0
    isplitl [Hback_agcw_r_10_1]; · iexact Hback_agcw_r_10_1
    isplitl [Hback_agcw_r_9_0]; · iexact Hback_agcw_r_9_0
    isplitl [Hback_agcw_r_9_1]; · iexact Hback_agcw_r_9_1
    isplitl [Hback_agcw_r_8_0]; · iexact Hback_agcw_r_8_0
    isplitl [Hback_agcw_r_8_1]; · iexact Hback_agcw_r_8_1
    isplitl [Hback_agcw_r_7_0]; · iexact Hback_agcw_r_7_0
    isplitl [Hback_agcw_r_7_1]; · iexact Hback_agcw_r_7_1
    isplitl [Hback_agcw_r_6_0]; · iexact Hback_agcw_r_6_0
    isplitl [Hback_agcw_r_6_1]; · iexact Hback_agcw_r_6_1
    isplitl [Hback_agcw_r_5_0]; · iexact Hback_agcw_r_5_0
    isplitl [Hback_agcw_r_5_1]; · iexact Hback_agcw_r_5_1
    isplitl [Hback_agcw_r_4_0]; · iexact Hback_agcw_r_4_0
    isplitl [Hback_agcw_r_4_1]; · iexact Hback_agcw_r_4_1
    isplitl [Hback_agcw_r_3_0]; · iexact Hback_agcw_r_3_0
    isplitl [Hback_agcw_r_3_1]; · iexact Hback_agcw_r_3_1
    isplitl [Hback_agcw_r_2_0]; · iexact Hback_agcw_r_2_0
    isplitl [Hback_agcw_r_2_1]; · iexact Hback_agcw_r_2_1
    isplitl [Hback_agcw_r_1_0]; · iexact Hback_agcw_r_1_0
    isplitl [Hback_agcw_r_1_1]; · iexact Hback_agcw_r_1_1
    isplitl [Hback_agcw_r_0_0]; · iexact Hback_agcw_r_0_0
    isplitl [Hback_agcw_r_0_1]; · iexact Hback_agcw_r_0_1
    isplitl [Hg_own_ccw0]; · iexact Hg_own_ccw0
    isplitl [Hg_own_ccw1]; · iexact Hg_own_ccw1
    isplitl [Hback_agccw_r_0_0]; · iexact Hback_agccw_r_0_0
    isplitl [Hback_agccw_r_0_1]; · iexact Hback_agccw_r_0_1
    isplitl [Hback_agccw_r_1_0]; · iexact Hback_agccw_r_1_0
    isplitl [Hback_agccw_r_1_1]; · iexact Hback_agccw_r_1_1
    isplitl [Hback_agccw_r_2_0]; · iexact Hback_agccw_r_2_0
    isplitl [Hback_agccw_r_2_1]; · iexact Hback_agccw_r_2_1
    isplitl [Hback_agccw_r_3_0]; · iexact Hback_agccw_r_3_0
    isplitl [Hback_agccw_r_3_1]; · iexact Hback_agccw_r_3_1
    isplitl [Hback_agccw_r_4_0]; · iexact Hback_agccw_r_4_0
    isplitl [Hback_agccw_r_4_1]; · iexact Hback_agccw_r_4_1
    isplitl [Hback_agccw_r_5_0]; · iexact Hback_agccw_r_5_0
    isplitl [Hback_agccw_r_5_1]; · iexact Hback_agccw_r_5_1
    isplitl [Hback_agccw_r_6_0]; · iexact Hback_agccw_r_6_0
    isplitl [Hback_agccw_r_6_1]; · iexact Hback_agccw_r_6_1
    isplitl [Hback_agccw_r_7_0]; · iexact Hback_agccw_r_7_0
    isplitl [Hback_agccw_r_7_1]; · iexact Hback_agccw_r_7_1
    isplitl [Hback_agccw_r_8_0]; · iexact Hback_agccw_r_8_0
    isplitl [Hback_agccw_r_8_1]; · iexact Hback_agccw_r_8_1
    isplitl [Hback_agccw_r_9_0]; · iexact Hback_agccw_r_9_0
    isplitl [Hback_agccw_r_9_1]; · iexact Hback_agccw_r_9_1
    isplitl [Hback_agccw_r_10_0]; · iexact Hback_agccw_r_10_0
    isplitl [Hback_agccw_r_10_1]; · iexact Hback_agccw_r_10_1
    isplitl [Hback_agccw_r_11_0]; · iexact Hback_agccw_r_11_0
    isplitl [Hback_agccw_r_11_1]; · iexact Hback_agccw_r_11_1
    isplitl [Hback_agccw_r_12_0]; · iexact Hback_agccw_r_12_0
    isplitl [Hback_agccw_r_12_1]; · iexact Hback_agccw_r_12_1
    isplitl [Hback_agccw_r_13_0]; · iexact Hback_agccw_r_13_0
    isplitl [Hback_agccw_r_13_1]; · iexact Hback_agccw_r_13_1
    isplitl [Hg_agccw_r_14_0]; · iexact Hg_agccw_r_14_0
    iexact Hg_agccw_r_14_1
  isplitl [Hsl_cw Hsl_ccw Hsem]
  · isplitl [Hsl_cw]; · iexact Hsl_cw
    isplitl [Hsl_ccw]; · iexact Hsl_ccw
    iexact Hsem
  isplitl [HO]; · iexists _; iexact HO
  isplitl [Hxb]; · iexact Hxb
  iexact Hob

variable (m : (ℓ : Loc nD τ sig) → Buf (Elt F) ℓ) (ρ : Dev nD → PrngReg)

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  show iprop((dats m ρ 0 c).Φ t0_0.castSucc ∗ (dats m ρ 0 c).owesAt () t0_0.castSucc
      ∗ (∃ d, owns (c : Thread nD τ) xM fullShare ((dats m ρ 0 c).before (0 : Fin 2) t0_0 d))
      ∗ (∃ d, owns (c : Thread nD τ) oM fullShare ((dats m ρ 0 c).before (1 : Fin 2) t0_0 d)))
    ⊢ wp frame (wpE (defs₀ (F := F)) 𝒱₀ c none) Set.univ
        (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9)
        (fun _ => iprop(Φ₁ c ∗ (dats m ρ 0 c).owesAt () t0_0.succ ∗ owns (c : Thread nD τ) xM fullShare (xstg m c) ∗ owns (c : Thread nD τ) oM fullShare (outV (xstg m))))
  iintro H
  ihave H' := (pre_open m ρ c) $$ H
  icases H' with ⟨%K, %W, Hpre⟩
  iapply (sound_body (xstg m) c K W _)
  isplitl [Hpre]
  · iexact Hpre
  · unfold bodyPost
    iintro ⟨HΦ, ⟨%W', HO⟩, Hx, Ho⟩
    isplitl [HΦ]; · iexact HΦ
    isplitl [HO]; · iapply (owes_done m ρ c W'); iexact HO
    isplitl [Hx]; · iexact Hx
    iexact Ho

end Cert.KernelIdeal.RSAG

end
-- ==== Proof.LaunchA.lean ====
import proofs.«901013_g7700000000001014_dist_rs_then_ag_i_m4096_n1024_v7x_i16_f32_1_alg».proof.Proof.Dats

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch's ghost state: the ring's cells and duty tokens funded, every cell's invariant allocated from its counter at
    zero, and the result dealt to the devices as the ghost state each body starts from. -/

/-! ## Chains over lists -/

section Lists

universe u v w
variable {M : Type u} [URA M] {I : Type v} {J : Type w}

omit [FloatOps F] in
theorem la_bigSepL_append (l₁ l₂ : List I) (Φ : I → sProp M) :
    bigSepL (l₁ ++ l₂) Φ = iprop(bigSepL l₁ Φ ∗ bigSepL l₂ Φ) := by
  induction l₁ with
  | nil => rw [List.nil_append, bigSepL_nil]; exact (equiv_iff.mp emp_sep).symm
  | cons i l ih => rw [List.cons_append, bigSepL_cons, ih, bigSepL_cons]; exact equiv_iff.mp ⟨BI.sep_assoc', BI.sep_assoc⟩

omit [FloatOps F] in
theorem la_bigSepL_map' (f : J → I) (l : List J) (Φ : I → sProp M) :
    bigSepL (l.map f) Φ = bigSepL l (fun j => Φ (f j)) := by
  induction l with
  | nil => rfl
  | cons j l ih => rw [List.map_cons, bigSepL_cons, ih, bigSepL_cons]

omit [FloatOps F] in
instance la_bigSepL_persistent (l : List I) (Φ : I → sProp M) [∀ i, BI.Persistent (Φ i)] : BI.Persistent (bigSepL l Φ) := by
  induction l with
  | nil => exact inferInstanceAs (BI.Persistent iprop(emp))
  | cons i l ih => rw [bigSepL_cons]; exact inferInstanceAs (BI.Persistent iprop(_ ∗ _))

omit [FloatOps F] in
/-- a chain over a product of two sets is the chain of chains -/
theorem la_bigSep_product {α : Type v} {β : Type w} [DecidableEq α] [DecidableEq β] (s : Finset α) (t : Finset β) (Φ : α × β → sProp M) :
    bigSep (s ×ˢ t) Φ = bigSep s (fun a => bigSep t (fun b => Φ (a, b))) := by
  induction s using Finset.induction_on with
  | empty => rw [Finset.empty_product]; rfl
  | insert a s ha ih =>
    have hdisj : Disjoint (({a} : Finset α) ×ˢ t) (s ×ˢ t) :=
      Finset.disjoint_product.mpr (.inl (Finset.disjoint_singleton_left.mpr ha))
    rw [bigSep_insert ha, Finset.insert_eq, Finset.union_product, bigSep_union hdisj, ih, Finset.singleton_product, bigSep_map]
    rfl

end Lists

/-! ## The kernel's own semaphores -/

/-- the kernel's own transfer semaphores, numbers 2 to 137 -/
abbrev osem : Fin 136 → SemLoc sig :=
  fun i => .dma ⟨i.val + 2, Nat.lt_of_lt_of_le (Nat.add_lt_add_right i.isLt 2) (by decide)⟩

/-- the numbers of a device's 136 transfer semaphores in the order of `ownQs` -/
theorem la_ownQs_vals : ownQs.map (fun q : DmaSem sig => q.val) =
    [2, 3, 4, 5, 36, 37, 38, 39, 70, 71, 72, 73, 104, 105, 106, 107] ++ List.range' 6 30 ++ List.range' 74 30
      ++ List.range' 40 30 ++ List.range' 108 30 := by decide

theorem la_ownQs_nodup : ownQs.Nodup := List.Nodup.of_map (fun q : DmaSem sig => q.val) (by rw [la_ownQs_vals]; decide)

theorem ownSemFacts : Pipeline.OwnSemFacts cfg0.spec osem where
  isScoped := by decide
  inj := fun a b h => by
    have h1 : (a.val + 2 : ℕ) = b.val + 2 := congrArg (fun s : SemLoc sig => match s with | .dma q => q.val | .reg _ => 0) h
    exact Fin.ext (by omega)
  disj := by decide

/-- the places of `ownQs`'s entries among the numbers 2 to 137 -/
def la_ownIx : List (Fin 136) :=
  ([0, 1, 2, 3, 34, 35, 36, 37, 68, 69, 70, 71, 102, 103, 104, 105] ++ List.range' 4 30 ++ List.range' 72 30
      ++ List.range' 38 30 ++ List.range' 106 30).map (fun n => Fin.ofNat 136 n)

omit [FloatOps F] in
/-- the kernel's own semaphores at zero are the cells of `ownQs` at zero -/
theorem ownSems0_eq (c : Dev nD) : (Pipeline.ownSems0 (Ix := Unit) (Name := ℕ) (U := UU) (Lvl := ℕ) (Val := Elt F) (τ := τ) osem c : sProp 𝕄)
    = bigSepL ownQs (fun q => semVal (dcell c q) 0) := by
  rw [Pipeline.ownSems0_eq_of_list c osem la_ownIx (by decide) (by decide),
    show ownQs = la_ownIx.map (fun i => (⟨i.val + 2, Nat.lt_of_lt_of_le (Nat.add_lt_add_right i.isLt 2) (by decide)⟩ : DmaSem sig)) from by decide,
    la_bigSepL_map']

omit [FloatOps F] in
/-- the barrier semaphore is the launch's one unscoped semaphore -/
theorem la_unscopedSems0_eq (c : Dev nD) : (unscopedSems0 c : sProp 𝕄) = semVal (barCell c) 0 := by
  unfold unscopedSems0; rw [bigSep_eq_bigSepL_of_eq [SemLoc.reg barS] (by decide) (by decide)]; rfl

/-! ## The ring's cells and tokens -/

/-- a device's cells by their semaphores: the barrier's, then its 136 transfer semaphores -/
def la_semL : List (SemLoc sig) := SemLoc.reg barS :: ownQs.map SemLoc.dma

theorem la_semL_nodup : la_semL.Nodup :=
  List.nodup_cons.mpr ⟨(fun h => by obtain ⟨q, -, hq⟩ := List.mem_map.mp h; cases hq),
    la_ownQs_nodup.map (fun a b h => SemLoc.dma.inj h)⟩

def la_cellEmb : Dev nD × SemLoc sig ↪ GSem nD τ sig :=
  ⟨fun p => ((p.1 : Thread nD τ), p.2), fun a b h =>
    Prod.ext (by have := congrArg (fun g : GSem nD τ sig => g.1.1) h; exact this)
      (by have := congrArg (fun g : GSem nD τ sig => g.2) h; exact this)⟩

/-- every device's barrier cell and its 136 transfer cells -/
def ringCells : Finset (GSem nD τ sig) := (Finset.univ ×ˢ la_semL.toFinset).map la_cellEmb

/-- a device's cells' duties: the barrier's two, each receive cell's one, each send cell's one per round of its use -/
def la_tokL : List (SemLoc sig × ℕ × Bool) :=
  (SemLoc.reg barS, 0, false) :: (SemLoc.reg barS, 0, true) ::
    ((recvCw ++ recvCcw).map (fun q => (SemLoc.dma q, 0, false)) ++ sendToks.map (fun qr => (SemLoc.dma qr.1, qr.2, false)))

/-- a duty's semaphore by its number (the barrier's as 0), to tell the duties apart -/
def la_tokCode (t : SemLoc sig × ℕ × Bool) : ℕ × ℕ × Bool :=
  (match t.1 with | .reg _ => 0 | .dma q => q.val + 1, t.2.1, t.2.2)

theorem la_tokL_nodup : la_tokL.Nodup := List.Nodup.of_map la_tokCode (by decide)

def la_tokEmb : Dev nD × (SemLoc sig × ℕ × Bool) ↪ GSem nD τ sig × ℕ × Bool :=
  ⟨fun p => (((p.1 : Thread nD τ), p.2.1), p.2.2.1, p.2.2.2), fun a b h =>
    Prod.ext (by have := congrArg (fun x : GSem nD τ sig × ℕ × Bool => x.1.1.1) h; exact this)
      (Prod.ext (by have := congrArg (fun x : GSem nD τ sig × ℕ × Bool => x.1.2) h; exact this)
        (Prod.ext (by have := congrArg (fun x : GSem nD τ sig × ℕ × Bool => x.2.1) h; exact this)
          (by have := congrArg (fun x : GSem nD τ sig × ℕ × Bool => x.2.2) h; exact this)))⟩

def ringToks : Finset (GSem nD τ sig × ℕ × Bool) := (Finset.univ ×ˢ la_tokL.toFinset).map la_tokEmb

def u₀ : UU :=
  (initOf (Pipeline.cells cfgs cellOf_inj) (Pipeline.launchToks cfgs cellOf_inj), initOf ringCells ringToks)

omit [FloatOps F] in
/-- a chain over the ring's cells, device by device: the barrier cell and the 136 transfer cells -/
theorem la_cells_eq (Φ : GSem nD τ sig → sProp 𝕄) :
    bigSep ringCells Φ = bigSep Finset.univ fun c : Dev nD => iprop(Φ (barCell c) ∗ bigSepL ownQs fun q => Φ (dcell c q)) := by
  unfold ringCells
  rw [bigSep_map, la_bigSep_product]
  refine bigSep_congr fun c _ => ?_
  rw [bigSep_eq_bigSepL la_semL la_semL_nodup]
  unfold la_semL
  rw [bigSepL_cons, la_bigSepL_map']
  rfl

omit [FloatOps F] in
theorem la_cells_eq' (Φ : GSem nD τ sig → sProp 𝕄) :
    bigSep ringCells Φ = iprop((bigSep Finset.univ fun c : Dev nD => Φ (barCell c)) ∗ bigSep Finset.univ fun c : Dev nD => bigSepL ownQs fun q => Φ (dcell c q)) :=
  (la_cells_eq Φ).trans (bigSep_sep' _ _ _)

/-- the duty tokens of device `c`'s own cells -/
def la_toks (c : Dev nD) : sProp 𝕄 :=
  iprop(dutyTok ER (barCell c) 0 false ∗ dutyTok ER (barCell c) 0 true
    ∗ (bigSepL recvCw (fun q => dutyTok ER (dcell c q) 0 false) ∗ bigSepL recvCcw (fun q => dutyTok ER (dcell c q) 0 false))
    ∗ bigSepL sendToks (fun qr => dutyTok ER (dcell c qr.1) qr.2 false))

omit [FloatOps F] in
theorem la_toks_eq : bigSep ringToks (fun x => (dutyTok ER x.1 x.2.1 x.2.2 : sProp 𝕄)) = bigSep Finset.univ fun c : Dev nD => la_toks c := by
  unfold ringToks
  rw [bigSep_map, la_bigSep_product]
  refine bigSep_congr fun c _ => ?_
  rw [bigSep_eq_bigSepL la_tokL la_tokL_nodup]
  unfold la_tokL la_toks
  rw [bigSepL_cons, bigSepL_cons, la_bigSepL_append, la_bigSepL_map', la_bigSepL_map', la_bigSepL_append]
  rfl

/-! ## The launch element funded -/

variable (X : Dev nD → S4096x1024.Idx → Elt F .f32)

/-- what the launch element deals device `c`: its cells' round states at counter zero, round 0 of each reached, its
    positions, and its own cells' duty tokens -/
def G (c : Dev nD) : sProp 𝕄 :=
  iprop((roundState ER (Rd X) (barCell c) 0 ∗ bigSepL ownQs fun q => roundState ER (Rd X) (dcell c q) 0)
    ∗ (reached ER (barCell c) 0 ∗ bigSepL ownQs fun q => reached ER (dcell c q) 0)
    ∗ (atPos ER (barCell c) 0 ∅ 0 ∗ bigSepL ownQs fun q => atPos ER (dcell c q) 0 ∅ 0)
    ∗ la_toks c)

theorem la_G_eq : bigSep Finset.univ (G X) = iprop(bigSep ringCells (fun g => roundState ER (Rd X) g 0) ∗ bigSep ringCells (fun g => reached ER g 0)
    ∗ bigSep ringCells (fun g => atPos ER g 0 ∅ 0) ∗ bigSep ringToks (fun x => dutyTok ER x.1 x.2.1 x.2.2)) := by
  unfold G
  rw [la_cells_eq' (fun g => roundState ER (Rd X) g 0), la_cells_eq' (fun g => reached ER g 0), la_cells_eq' (fun g => atPos ER g 0 ∅ 0), la_toks_eq]
  simp only [bigSep_sep']

theorem la_fund_ring : BI.own (ER (initOf ringCells ringToks)) ⊢ (|==> bigSep Finset.univ (G X) : sProp 𝕄) := by
  rw [la_G_eq]; exact Rounds.fund ER (Rd X) ringCells ringToks

theorem hu₀ : (ownU u₀ : sProp 𝕄) ⊢ |={Set.univ}=> iprop(BI.own (EP (initOf (Pipeline.cells cfgs cellOf_inj) (Pipeline.launchToks cfgs cellOf_inj)))
    ∗ bigSep Finset.univ (G X)) := by
  unfold u₀
  iintro Hu
  ihave H := (ownU_pair _ _) $$ Hu
  icases H with ⟨HP, HX⟩
  imod (la_fund_ring X) $$ HX with HG
  imodintro
  isplitl [HP] <;> iassumption

/-! ## The tokens dealt round the ring -/

/-- the tokens of the duties device `c` pays -/
def la_payToks (c : Dev nD) : sProp 𝕄 :=
  iprop(dutyTok ER (barCell (prv c)) 0 false ∗ dutyTok ER (barCell (nxt c)) 0 true
    ∗ bigSepL recvCw (fun q => dutyTok ER (dcell (nxt c) q) 0 false) ∗ bigSepL recvCcw (fun q => dutyTok ER (dcell (prv c) q) 0 false)
    ∗ bigSepL sendToks (fun qr => dutyTok ER (dcell c qr.1) qr.2 false))

omit [FloatOps F] in
/-- a barrier cell's `false` token goes one device up, its `true` token one device down; a clockwise receive cell's token
    one device down (to the device that sends clockwise into it), a counter-clockwise one's one device up -/
theorem la_toks_around : (bigSep Finset.univ fun c : Dev nD => (la_toks c : sProp 𝕄)) ⊢ bigSep Finset.univ fun c : Dev nD => la_payToks c := by
  unfold la_toks la_payToks
  rw [bigSep_sep', bigSep_sep', bigSep_sep', bigSep_sep', bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring (fun c : Dev nD => (bigSepL recvCw (fun q => dutyTok ER (dcell c q) 0 false) : sProp 𝕄)),
    bigSep_univ_equiv ring.symm (fun c : Dev nD => (bigSepL recvCcw (fun q => dutyTok ER (dcell c q) 0 false) : sProp 𝕄))]
  iintro ⟨H1, H2, ⟨H3, H4⟩, H5⟩
  isplitl [H1]; · iexact H1
  isplitl [H2]; · iexact H2
  isplitl [H3]; · iexact H3
  isplitl [H4]; · iexact H4
  iexact H5

/-! ## The invariants allocated, and the whole dealt to the devices -/

/-- what every device may copy: every cell's invariant under the names `K`, and that round 0 of every cell is reached -/
def la_records (K : GSem nD τ sig → ℕ) : sProp 𝕄 :=
  iprop(bigSep ringCells (fun g => cellInv ER (Rd X) (K g) g) ∗ bigSep ringCells (fun g => reached ER g 0))

instance la_records_persistent (K : GSem nD τ sig → ℕ) : BI.Persistent (la_records X K) := by unfold la_records; infer_instance

/-- what stays with device `c`: its positions, and the tokens of the duties it pays -/
def la_linear (c : Dev nD) : sProp 𝕄 :=
  iprop((atPos ER (barCell c) 0 ∅ 0 ∗ bigSepL ownQs fun q => atPos ER (dcell c q) 0 ∅ 0) ∗ la_payToks c)

omit [FloatOps F] in
theorem la_linear_eq : (bigSep Finset.univ fun c : Dev nD => (la_linear c : sProp 𝕄))
    = iprop(((bigSep Finset.univ fun c : Dev nD => atPos ER (barCell c) 0 ∅ 0) ∗ bigSep Finset.univ fun c : Dev nD => bigSepL ownQs fun q => atPos ER (dcell c q) 0 ∅ 0)
        ∗ bigSep Finset.univ fun c : Dev nD => la_payToks c) := by
  unfold la_linear; simp only [bigSep_sep']

section Parts

omit [FloatOps F] in
theorem la_sep_fst {P Q : sProp 𝕄} : iprop(P ∗ Q) ⊢ P := by iintro ⟨H, -⟩; iexact H
omit [FloatOps F] in
theorem la_sep_snd {P Q : sProp 𝕄} : iprop(P ∗ Q) ⊢ Q := by iintro ⟨-, H⟩; iexact H

omit [FloatOps F] in
theorem la_ownQs_split (Ψ : DmaSem sig → sProp 𝕄) :
    bigSepL ownQs Ψ = iprop((bigSepL sendQs Ψ ∗ bigSepL recvCw Ψ) ∗ bigSepL recvCcw Ψ) := by
  rw [show ownQs = (sendQs ++ recvCw) ++ recvCcw from rfl, la_bigSepL_append, la_bigSepL_append]

omit [FloatOps F] in
/-- of a chain over the ring's cells, device `d`'s barrier cell; its transfer cells; and of those the send cells, the
    clockwise and the counter-clockwise receive cells -/
theorem la_cells_bar (Φ : GSem nD τ sig → sProp 𝕄) (d : Dev nD) : bigSep ringCells Φ ⊢ Φ (barCell d) := by
  rw [la_cells_eq]; exact (bigSep_elim (Finset.mem_univ d)).trans la_sep_fst
omit [FloatOps F] in
theorem la_cells_own (Φ : GSem nD τ sig → sProp 𝕄) (d : Dev nD) : bigSep ringCells Φ ⊢ bigSepL ownQs fun q => Φ (dcell d q) := by
  rw [la_cells_eq]; exact (bigSep_elim (Finset.mem_univ d)).trans la_sep_snd
omit [FloatOps F] in
theorem la_cells_send (Φ : GSem nD τ sig → sProp 𝕄) (d : Dev nD) : bigSep ringCells Φ ⊢ bigSepL sendQs fun q => Φ (dcell d q) := by
  refine (la_cells_own Φ d).trans ?_; rw [la_ownQs_split]; iintro ⟨⟨H, -⟩, -⟩; iexact H
omit [FloatOps F] in
theorem la_cells_cw (Φ : GSem nD τ sig → sProp 𝕄) (d : Dev nD) : bigSep ringCells Φ ⊢ bigSepL recvCw fun q => Φ (dcell d q) := by
  refine (la_cells_own Φ d).trans ?_; rw [la_ownQs_split]; iintro ⟨⟨-, H⟩, -⟩; iexact H
omit [FloatOps F] in
theorem la_cells_ccw (Φ : GSem nD τ sig → sProp 𝕄) (d : Dev nD) : bigSep ringCells Φ ⊢ bigSepL recvCcw fun q => Φ (dcell d q) := by
  refine (la_cells_own Φ d).trans ?_; rw [la_ownQs_split]; iintro ⟨-, H⟩; iexact H

end Parts

theorem la_ghost_intro (K : GSem nD τ sig → ℕ) (c : Dev nD) : iprop(la_records X K ∗ la_linear c) ⊢ iprop(∃ K, ghost X K c) := by
  unfold la_records la_linear la_payToks ghost
  iintro ⟨⟨#HI, #HR⟩, ⟨HaB, HaQ⟩, HtBP, HtBN, HtCw, HtCcw, HtS⟩
  iexists K
  isplitr
  · isplitr; · iapply (la_cells_bar (fun g => cellInv ER (Rd X) (K g) g) c); iexact HI
    isplitr; · iapply (la_cells_bar (fun g => cellInv ER (Rd X) (K g) g) (nxt c)); iexact HI
    isplitr; · iapply (la_cells_bar (fun g => cellInv ER (Rd X) (K g) g) (prv c)); iexact HI
    isplitr; · iapply (la_cells_own (fun g => cellInv ER (Rd X) (K g) g) c); iexact HI
    isplitr; · iapply (la_cells_cw (fun g => cellInv ER (Rd X) (K g) g) (nxt c)); iexact HI
    iapply (la_cells_ccw (fun g => cellInv ER (Rd X) (K g) g) (prv c)); iexact HI
  isplitl [HaB HaQ]
  · isplitl [HaB]; · iexact HaB
    iexact HaQ
  isplitr
  · isplitr; · iapply (la_cells_bar (F := F) (fun g => reached ER g 0) (nxt c)); iexact HR
    isplitr; · iapply (la_cells_bar (F := F) (fun g => reached ER g 0) (prv c)); iexact HR
    isplitr; · iapply (la_cells_cw (F := F) (fun g => reached ER g 0) (nxt c)); iexact HR
    isplitr; · iapply (la_cells_ccw (F := F) (fun g => reached ER g 0) (prv c)); iexact HR
    iapply (la_cells_send (F := F) (fun g => reached ER g 0) c); iexact HR
  isplitl [HtBP]; · iexact HtBP
  isplitl [HtBN]; · iexact HtBN
  isplitl [HtCw]; · iexact HtCw
  isplitl [HtCcw]; · iexact HtCcw
  iexact HtS

/-- every device handed its ghost state from what all may copy and what stays with each -/
theorem la_deal (K : GSem nD τ sig → ℕ) :
    iprop(la_records X K ∗ ((bigSep Finset.univ fun c : Dev nD => atPos ER (barCell c) 0 ∅ 0) ∗ bigSep Finset.univ fun c : Dev nD => bigSepL ownQs fun q => atPos ER (dcell c q) 0 ∅ 0)
        ∗ bigSep Finset.univ fun c : Dev nD => la_payToks c)
      ⊢ bigSep Finset.univ (fun c => iprop(∃ K, ghost X K c)) :=
  (sep_mono_right (Entails.of_eq (la_linear_eq (F := F)).symm)).trans (bigSep_with_persistent (R := la_records X K) fun c _ => la_ghost_intro X K c)

/-- The global step: every cell's invariant allocated from its counter at zero and its round state, under names chosen once
    for all cells; the tokens dealt round the ring; every device handed its ghost state. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (fun c => iprop(∃ K, ghost X K c)) := by
  simp only [ownSems0_eq, la_unscopedSems0_eq]
  unfold G
  simp only [bigSep_sep']
  iintro ⟨HvQ, HvB, ⟨HstB, HstQ⟩, ⟨HrB, HrQ⟩, ⟨HaB, HaQ⟩, Htok⟩
  ihave Hv := (Entails.of_eq (la_cells_eq' (fun g => semVal g 0)).symm) $$ [HvQ HvB]
  · isplitl [HvB]; · iexact HvB
    iexact HvQ
  ihave Hst := (Entails.of_eq (la_cells_eq' (fun g => roundState ER (Rd X) g 0)).symm) $$ [HstB HstQ]
  · isplitl [HstB]; · iexact HstB
    iexact HstQ
  ihave Hr := (Entails.of_eq (la_cells_eq' (fun g => reached ER g 0)).symm) $$ [HrB HrQ]
  · isplitl [HrB]; · iexact HrB
    iexact HrQ
  ihave Hb := (show iprop(bigSep ringCells (fun g => semVal g 0) ∗ bigSep ringCells (fun g => roundState ER (Rd X) g 0))
      ⊢ (bigSep ringCells (body ER (Rd X)) : sProp 𝕄) from by
        rw [← bigSep_sep']; exact bigSep_mono fun g _ => Rounds.body_intro ER (Rd X) g) $$ [Hv Hst]
  · isplitl [Hv]; · iexact Hv
    iexact Hst
  imod (inv_alloc_family ringCells (body ER (Rd X)) ∅) $$ Hb with ⟨%K, -, #HI⟩
  imodintro
  icases Hr with #HR
  ihave Htk := (la_toks_around (F := F)) $$ Htok
  iapply (la_deal X K)
  isplitr
  · unfold la_records; isplitl; · iexact HI
    iexact HR
  isplitl [HaB HaQ]
  · isplitl [HaB]; · iexact HaB
    iexact HaQ
  iexact Htk

end Cert.KernelIdeal.RSAG

end
-- ==== Proof.Launch.lean ====
import proofs.«901013_g7700000000001014_dist_rs_then_ag_i_m4096_n1024_v7x_i16_f32_1_alg».proof.Proof.Dats
import proofs.«901013_g7700000000001014_dist_rs_then_ag_i_m4096_n1024_v7x_i16_f32_1_alg».proof.Proof.Body
import proofs.«901013_g7700000000001014_dist_rs_then_ag_i_m4096_n1024_v7x_i16_f32_1_alg».proof.Proof.LaunchA
import proofs.«901013_g7700000000001014_dist_rs_then_ag_i_m4096_n1024_v7x_i16_f32_1_alg».proof.Proof.LaunchB

noncomputable section

namespace Cert.KernelIdeal.RSAG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch: the thirty slots of a ring buffer tile it, so the buffer the launch hands over whole is what the body
    wants slot by slot, and back; what each device is dealt at launch is what its body starts from; the launch theorem
    applied; what the two arrays hold after the run; and the two runs the claims read. -/

/-! ## The thirty slots tile a ring buffer -/

/-- the rectangle of slot `sb.1`, sub-block `sb.2`, in a ring buffer -/
abbrev slotRect (sb : Fin 15 × Fin 2) : Rect S15x128x1024 :=
  Rect.unit (s := S15x128x1024) ![sb.1.val, 64 * sb.2.val, 0] S1x64x1024.size (slot_inb _ _ sb.1.isLt sb.2.isLt)

/-- two different slots share no element: they differ in the slot number or in the half of the 128 rows -/
theorem slotRect_disjoint (sb sb' : Fin 15 × Fin 2) (h : sb ≠ sb') : Disjoint (slotRect sb).set (slotRect sb').set := by
  by_cases h1 : sb.1 = sb'.1
  · have h2 : sb.2 ≠ sb'.2 := fun e => h (Prod.ext h1 e)
    have h2' : sb.2.val ≠ sb'.2.val := fun e => h2 (Fin.ext e)
    refine Rect.unit_disjoint (1 : Fin 3) ?_
    show 64 * sb.2.val + 64 ≤ 64 * sb'.2.val ∨ 64 * sb'.2.val + 64 ≤ 64 * sb.2.val
    omega
  · have h1' : sb.1.val ≠ sb'.1.val := fun e => h1 (Fin.ext e)
    refine Rect.unit_disjoint (0 : Fin 3) ?_
    show sb.1.val + 1 ≤ sb'.1.val ∨ sb'.1.val + 1 ≤ sb.1.val
    omega

/-- every element of the buffer lies in the slot of its first coordinate and of the half its row is in -/
theorem slotRect_cover : (Finset.univ : Finset (Fin 15 × Fin 2)).biUnion (fun sb => (slotRect sb).set) = Finset.univ := by
  ext i
  simp only [Finset.mem_biUnion, Finset.mem_univ, true_and, iff_true]
  have h0 : (i 0).val < 15 := (i 0).isLt
  have h1 : (i 1).val < 128 := (i 1).isLt
  have h2 : (i 2).val < 1024 := (i 2).isLt
  refine ⟨(⟨(i 0).val, h0⟩, ⟨(i 1).val / 64, by omega⟩), ?_⟩
  rw [Rect.mem_set_unit]
  intro a
  match a with
  | ⟨0, _⟩ => exact ⟨Nat.le_refl _, by show (i 0).val < (i 0).val + 1; omega⟩
  | ⟨1, _⟩ => exact ⟨by show 64 * ((i 1).val / 64) ≤ (i 1).val; omega, by show (i 1).val < 64 * ((i 1).val / 64) + 64; omega⟩
  | ⟨2, _⟩ => exact ⟨Nat.zero_le _, by show (i 2).val < 0 + 1024; omega⟩

/-- the elements under a slot's window are its rectangle's -/
theorem slot_set_a (sb : Fin 15 × Fin 2) :
    (slot aM sb.1.val (64 * sb.2.val) (slot_inb _ _ sb.1.isLt sb.2.isLt)).view.set = (slotRect sb).set :=
  Eq.trans (View.set_reshape ..) (View.set_slice_whole cc0_scratch0 (slotRect sb))

theorem slot_set_b (sb : Fin 15 × Fin 2) :
    (slot bM sb.1.val (64 * sb.2.val) (slot_inb _ _ sb.1.isLt sb.2.isLt)).view.set = (slotRect sb).set :=
  Eq.trans (View.set_reshape ..) (View.set_slice_whole cc0_scratch1 (slotRect sb))

/-- all thirty slots of the ring buffer `M` on device `d`, each at some contents -/
def slotsOf (M : Memref sig .tc .vmem S15x128x1024 .f32) (d : Dev nD) : sProp 𝕄 :=
  bigSep (Finset.univ : Finset (Fin 15 × Fin 2)) fun sb =>
    iprop(∃ f, (slot M sb.1.val (64 * sb.2.val) (slot_inb _ _ sb.1.isLt sb.2.isLt)).view.loc (d : Thread nD τ)
      ↦[(slot M sb.1.val (64 * sb.2.val) (slot_inb _ _ sb.1.isLt sb.2.isLt)).view.set]{fullShare} f)

omit [FloatOps F] in
/-- a buffer held whole is held rectangle by rectangle -/
theorem whole_rects_a (c : Dev nD) (f : Buf (Elt F) ((c : Thread nD τ).loc cc0_scratch0)) :
    (((c : Thread nD τ).loc cc0_scratch0) ↦{fullShare} f : sProp 𝕄)
      = bigSep Finset.univ fun sb : Fin 15 × Fin 2 => ((c : Thread nD τ).loc cc0_scratch0) ↦[(slotRect sb).set]{fullShare} f := by
  rw [← pointsTo_biUnion _ _ (fun t _ t' _ h => slotRect_disjoint t t' h), slotRect_cover]

omit [FloatOps F] in
theorem whole_rects_b (c : Dev nD) (f : Buf (Elt F) ((c : Thread nD τ).loc cc0_scratch1)) :
    (((c : Thread nD τ).loc cc0_scratch1) ↦{fullShare} f : sProp 𝕄)
      = bigSep Finset.univ fun sb : Fin 15 × Fin 2 => ((c : Thread nD τ).loc cc0_scratch1) ↦[(slotRect sb).set]{fullShare} f := by
  rw [← pointsTo_biUnion _ _ (fun t _ t' _ h => slotRect_disjoint t t' h), slotRect_cover]

omit [FloatOps F] in
/-- a slot's rectangle of the buffer is the slot at some contents, -/
theorem slot_intro_a (c : Dev nD) (f : Buf (Elt F) ((c : Thread nD τ).loc cc0_scratch0)) (sb : Fin 15 × Fin 2) :
    (((c : Thread nD τ).loc cc0_scratch0) ↦[(slotRect sb).set]{fullShare} f : sProp 𝕄)
      ⊢ iprop(∃ f, (slot aM sb.1.val (64 * sb.2.val) (slot_inb _ _ sb.1.isLt sb.2.isLt)).view.loc (c : Thread nD τ)
          ↦[(slot aM sb.1.val (64 * sb.2.val) (slot_inb _ _ sb.1.isLt sb.2.isLt)).view.set]{fullShare} f) := by
  iintro H
  iexists f
  rw [slot_set_a]
  iexact H

omit [FloatOps F] in
theorem slot_intro_b (c : Dev nD) (f : Buf (Elt F) ((c : Thread nD τ).loc cc0_scratch1)) (sb : Fin 15 × Fin 2) :
    (((c : Thread nD τ).loc cc0_scratch1) ↦[(slotRect sb).set]{fullShare} f : sProp 𝕄)
      ⊢ iprop(∃ f, (slot bM sb.1.val (64 * sb.2.val) (slot_inb _ _ sb.1.isLt sb.2.isLt)).view.loc (c : Thread nD τ)
          ↦[(slot bM sb.1.val (64 * sb.2.val) (slot_inb _ _ sb.1.isLt sb.2.isLt)).view.set]{fullShare} f) := by
  iintro H
  iexists f
  rw [slot_set_b]
  iexact H

omit [FloatOps F] in
/-- and back. -/
theorem slot_elim_a (c : Dev nD) (sb : Fin 15 × Fin 2) :
    (iprop(∃ f, (slot aM sb.1.val (64 * sb.2.val) (slot_inb _ _ sb.1.isLt sb.2.isLt)).view.loc (c : Thread nD τ)
          ↦[(slot aM sb.1.val (64 * sb.2.val) (slot_inb _ _ sb.1.isLt sb.2.isLt)).view.set]{fullShare} f) : sProp 𝕄)
      ⊢ iprop(∃ f : Buf (Elt F) ((c : Thread nD τ).loc cc0_scratch0), ((c : Thread nD τ).loc cc0_scratch0) ↦[(slotRect sb).set]{fullShare} f) := by
  rw [slot_set_a]

omit [FloatOps F] in
theorem slot_elim_b (c : Dev nD) (sb : Fin 15 × Fin 2) :
    (iprop(∃ f, (slot bM sb.1.val (64 * sb.2.val) (slot_inb _ _ sb.1.isLt sb.2.isLt)).view.loc (c : Thread nD τ)
          ↦[(slot bM sb.1.val (64 * sb.2.val) (slot_inb _ _ sb.1.isLt sb.2.isLt)).view.set]{fullShare} f) : sProp 𝕄)
      ⊢ iprop(∃ f : Buf (Elt F) ((c : Thread nD τ).loc cc0_scratch1), ((c : Thread nD τ).loc cc0_scratch1) ↦[(slotRect sb).set]{fullShare} f) := by
  rw [slot_set_b]

omit [FloatOps F] in
theorem slots_fwd_a (c : Dev nD) :
    (iprop(∃ f, ((c : Thread nD τ).loc cc0_scratch0) ↦{fullShare} f) : sProp 𝕄) ⊢ slotsOf aM c := by
  unfold slotsOf
  iintro ⟨%f, H⟩
  iapply ((Entails.of_eq (whole_rects_a c f)).trans (bigSep_mono fun sb _ => slot_intro_a c f sb))
  iexact H

omit [FloatOps F] in
theorem slots_fwd_b (c : Dev nD) :
    (iprop(∃ f, ((c : Thread nD τ).loc cc0_scratch1) ↦{fullShare} f) : sProp 𝕄) ⊢ slotsOf bM c := by
  unfold slotsOf
  iintro ⟨%f, H⟩
  iapply ((Entails.of_eq (whole_rects_b c f)).trans (bigSep_mono fun sb _ => slot_intro_b c f sb))
  iexact H

/-- slot by slot at any contents, the buffer is held whole at some contents -/
theorem slots_bwd_a (c : Dev nD) :
    slotsOf aM c ⊢ (iprop(∃ f, ((c : Thread nD τ).loc cc0_scratch0) ↦{fullShare} f) : sProp 𝕄) := by
  unfold slotsOf
  refine (bigSep_mono fun sb _ => slot_elim_a (F := F) c sb).trans ?_
  refine (BI.bigSep_exists_pi Finset.univ (fun (sb : Fin 15 × Fin 2) (f : Buf (Elt F) ((c : Thread nD τ).loc cc0_scratch0)) =>
      (((c : Thread nD τ).loc cc0_scratch0) ↦[(slotRect sb).set]{fullShare} f : sProp 𝕄))).trans ?_
  iintro ⟨%fs, H1⟩
  ihave H2 := (pointsTo_biUnion_join Finset.univ (fun sb : Fin 15 × Fin 2 => (slotRect sb).set) fs (fun _ => Classical.choice inferInstance)
      (fun t _ t' _ h => slotRect_disjoint t t' h)) $$ H1
  icases H2 with ⟨%g, -, H2⟩
  iexists g
  rw [slotRect_cover]
  iexact H2

theorem slots_bwd_b (c : Dev nD) :
    slotsOf bM c ⊢ (iprop(∃ f, ((c : Thread nD τ).loc cc0_scratch1) ↦{fullShare} f) : sProp 𝕄) := by
  unfold slotsOf
  refine (bigSep_mono fun sb _ => slot_elim_b (F := F) c sb).trans ?_
  refine (BI.bigSep_exists_pi Finset.univ (fun (sb : Fin 15 × Fin 2) (f : Buf (Elt F) ((c : Thread nD τ).loc cc0_scratch1)) =>
      (((c : Thread nD τ).loc cc0_scratch1) ↦[(slotRect sb).set]{fullShare} f : sProp 𝕄))).trans ?_
  iintro ⟨%fs, H1⟩
  ihave H2 := (pointsTo_biUnion_join Finset.univ (fun sb : Fin 15 × Fin 2 => (slotRect sb).set) fs (fun _ => Classical.choice inferInstance)
      (fun t _ t' _ h => slotRect_disjoint t t' h)) $$ H1
  icases H2 with ⟨%g, -, H2⟩
  iexists g
  rw [slotRect_cover]
  iexact H2

omit [FloatOps F] in
/-- A ring buffer held whole at some contents is held slot by slot, -/
theorem slots_whole_fwd (cw : Bool) (c : Dev nD) :
    (iprop(∃ f, ((c : Thread nD τ).loc (if cw then cc0_scratch0 else cc0_scratch1)) ↦{fullShare} f) : sProp 𝕄) ⊢ allSlots cw c := by
  cases cw
  · exact slots_fwd_b c
  · exact slots_fwd_a c

/-- and slot by slot it is held whole at some contents. -/
theorem slots_whole_bwd (cw : Bool) (c : Dev nD) :
    allSlots cw c ⊢ (iprop(∃ f, ((c : Thread nD τ).loc (if cw then cc0_scratch0 else cc0_scratch1)) ↦{fullShare} f) : sProp 𝕄) := by
  cases cw
  · exact slots_bwd_b c
  · exact slots_bwd_a c

omit [FloatOps F] in
theorem allSlots_a_intro (c : Dev nD) :
    (iprop(∃ f, ((c : Thread nD τ).loc cc0_scratch0) ↦{fullShare} f) : sProp 𝕄) ⊢ allSlots true c := slots_fwd_a c
omit [FloatOps F] in
theorem allSlots_b_intro (c : Dev nD) :
    (iprop(∃ f, ((c : Thread nD τ).loc cc0_scratch1) ↦{fullShare} f) : sProp 𝕄) ⊢ allSlots false c := slots_fwd_b c
theorem allSlots_a_elim (c : Dev nD) :
    allSlots true c ⊢ (iprop(∃ f, ((c : Thread nD τ).loc cc0_scratch0) ↦{fullShare} f) : sProp 𝕄) := slots_bwd_a c
theorem allSlots_b_elim (c : Dev nD) :
    allSlots false c ⊢ (iprop(∃ f, ((c : Thread nD τ).loc cc0_scratch1) ↦{fullShare} f) : sProp 𝕄) := slots_bwd_b c

/-! ## The launch theorem's side conditions -/

variable (m : (ℓ : Loc nD τ sig) → Buf (Elt F) ℓ) (ρ : Dev nD → PrngReg)

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred (fun c => rem c 0) c ∗ prngReg c (ρ c) ∗ (∃ K, ghost (xstg m) K c))
      ⊢ |={Set.univ}=> iprop(start (xstg m) c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- Before the point: the two ring buffers, whole at some contents, are held slot by slot. -/
theorem phi0_intro (c : Dev nD) :
    iprop(start (xstg m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xstg m) c from rfl, scopedRest0_eq]
  unfold Φ₀
  iintro ⟨Hs, -, ⟨Ha, Hb⟩⟩
  isplitl [Hs]; · iexact Hs
  isplitl [Ha]
  · iapply (allSlots_a_intro c); iexact Ha
  · iapply (allSlots_b_intro c); iexact Hb

/-- After it: the slots are the two buffers whole again, and every own semaphore is at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Ha, Hb, Hz⟩
  isplitr; · iempintro
  isplitl [Hz]; · iexact Hz
  isplitl [Ha]
  · iapply (allSlots_a_elim c); iexact Ha
  · iapply (allSlots_b_elim c); iexact Hb

theorem share_eq (c : Dev nD) (w : Fin cfg0.W) : (dats m ρ 0 c).share w = fullShare := by unfold Dat.share; split <;> rfl

/-! ## The run -/

set_option maxRecDepth 200000 in
/-- At the compiled mesh of sixteen devices, for any float values, from any memory with zero counters: every weakly
    fair execution of @main terminates, and every final state has each device's two arrays at the contents the proof
    data name after the last point. -/
theorem run_main : θ_run defs (onTc (τ := τ) (main (F := F))) (s₀ m ρ)
    (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => rem c 0) (howed₀ := fun _ => rfl) (howedN := fun _ => rfl)
    (L := L) (lv := lv) (hL := L_of_ne) (hwaits := waits m ρ)
    (G := G (xstg m)) (G' := fun c => iprop(∃ K, ghost (xstg m) K c)) (u₀ := u₀)
    (hu₀ := hu₀ (xstg m))
    (hglob := glob (xstg m))
    (hA := fun _ _ => rfl) (hpf := fun _ k => k.elim0)
    (X := start (xstg m)) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is never written. -/
theorem finalA_x (c : Dev nD) : (dats m ρ 0 c).arrAt (0 : Fin 2) cfg0.N = m ((c : Thread nD τ).loc main_arg0) :=
  (dats (F := F) m ρ 0 c).arrAt_in (0 : Fin 2) rfl _

omit [FloatOps F] in
theorem off_zero : (fun a : Fin 2 => (win0_1.index t0_0 a) * win0_1.size a) = fun _ => 0 := funext fun a => Nat.zero_mul _

/-- The result array is one whole block, written back once at the one point: it ends holding the assembled result. -/
theorem finalA_o (c : Dev nD) : (dats m ρ 0 c).arrAt (1 : Fin 2) cfg0.N = outV (xstg m) := by
  have h := (dats (F := F) m ρ 0 c).arrAt_succ (1 : Fin 2) t0_0
  rw [if_pos (show (cfg0.win (1 : Fin 2)).flush t0_0 = true from rfl)] at h
  refine h.trans ?_
  exact Memref.write_access_unit_zero_univ (Elt F) main_v1 off_zero _ _ _

/-- A device's staged block of the argument is the argument array itself: its one block is the whole array. -/
theorem xstg_eq (c : Dev nD) : xstg m c = m ((c : Thread nD τ).loc main_arg0) := by
  unfold xstg
  exact Memref.read_access_unit_zero (Elt F) main_arg0 (off := fun a => (win0_0.index t0_0 a) * win0_0.size a) (funext fun a => Nat.zero_mul _) _ _

/-! ## The two runs the claims read -/

/-- The run with each device's result named and its argument unchanged. -/
theorem value_run : θ_run defs (onTc (τ := τ) (main (F := F))) (s₀ m ρ)
    (fun r => ∀ c : Dev nD, r.2.mem ((c : Thread nD τ).loc main_v1) = outV (xstg m)
      ∧ r.2.mem ((c : Thread nD τ).loc main_arg0) = m ((c : Thread nD τ).loc main_arg0)) :=
  (θ_run (defs (F := F)) _ _).mono
    (fun r h c => ⟨(h c (1 : Fin 2)).trans (finalA_o m ρ c), (h c (0 : Fin 2)).trans (finalA_x m ρ c)⟩)
    (run_main m ρ)

/-- The run with the result's value dropped: it terminates, nothing faults, and the arguments end unchanged. -/
theorem frame_run : θ_run defs (onTc (τ := τ) (main (F := F))) (s₀ m ρ)
    (fun r => ∀ c : Dev nD, r.2.mem ((c : Thread nD τ).loc main_arg0) = m ((c : Thread nD τ).loc main_arg0)) :=
  (θ_run (defs (F := F)) _ _).mono (fun r h c => (h c).2) (value_run m ρ)

end Cert.KernelIdeal.RSAG

end
-- ==== Proof.Claims.lean ====
import proofs.«901013_g7700000000001014_dist_rs_then_ag_i_m4096_n1024_v7x_i16_f32_1_alg».proof.Proof.Launch
import proofs.«901013_g7700000000001014_dist_rs_then_ag_i_m4096_n1024_v7x_i16_f32_1_alg».proof.Proof.Gen.Pre_finite_inputs_Kernel
import proofs.«901013_g7700000000001014_dist_rs_then_ag_i_m4096_n1024_v7x_i16_f32_1_alg».proof.Defs

/-! The idealized kernel's two claims: its frame, and that with exact arithmetic every device ends holding what the
    one-device reference computes from the whole argument. -/

noncomputable section

namespace Cert.Proof

open Idealize.ShloMosaic Idealize.SL.Sem
open Cert.KernelIdeal Cert.KernelIdeal.RSAG

/-- The idealized kernel runs on the sixteen devices and leaves every device's argument block unchanged. -/
theorem frame_KernelIdeal' :
    Cert.frame_KernelIdeal (hKernelIdeal := Cert.KernelIdeal.Gen.facts)
      (hPre_finite_inputs_Kernel := Cert.Pre_finite_inputs_Kernel.Gen.facts) :=
  fun m g _ => frame_run (F := Ideal) m g

/-- With exact arithmetic every device ends holding the sum of the sixteen row blocks of the whole argument,
    which is what the one-device reference computes; both leave their arguments unchanged. -/
theorem algebraic' :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) :=
  fun m g m' g' _ hblk =>
    ⟨Cert.RefSide.refVal (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun r h c => ⟨(h c).1.trans (outV_eq_refVal _ (xstg m) fun d => (xstg_eq m d).trans (hblk d)), (h c).2⟩)
        (value_run (F := Ideal) m g),
      Cert.RefSide.ref_run m' g'⟩

end Cert.Proof

end
-- ==== Proof.Bits.Base.lean ====
import proofs.«901013_g7700000000001014_dist_rs_then_ag_i_m4096_n1024_v7x_i16_f32_1_alg».proof.Proof.Gen.Kernel.Skeleton
import proofs.«901013_g7700000000001014_dist_rs_then_ag_i_m4096_n1024_v7x_i16_f32_1_alg».proof.Proof.Gen.Kernel.Launch
import proofs.«901013_g7700000000001014_dist_rs_then_ag_i_m4096_n1024_v7x_i16_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring of sixteen devices -/

def nxt (c : Dev nD) : Dev nD := ⟨(c.val + 1) % 16, Nat.mod_lt _ (by decide)⟩
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- one step round the ring: towards the next device when `cw`, towards the previous one otherwise -/
def fwd (cw : Bool) (c : Dev nD) : Dev nD := if cw then nxt c else prv c
/-- one step the other way: the device a transfer in direction `cw` comes from -/
def bwd (cw : Bool) (c : Dev nD) : Dev nD := if cw then prv c else nxt c

/-! ## The buffers: the staged block of the input, the staged result, the two ring buffers -/

abbrev xM : Memref sig .tc .vmem S4096x1024 .f32 := Memref.whole cc0_stg0_0
abbrev oM : Memref sig .tc .vmem S4096x1024 .f32 := Memref.whole cc0_stg1_0
abbrev aM : Memref sig .tc .vmem S15x128x1024 .f32 := Memref.whole cc0_scratch0
abbrev bM : Memref sig .tc .vmem S15x128x1024 .f32 := Memref.whole cc0_scratch1

/-- slot `s` of a ring buffer, its 64 rows from row `r` on, as the kernel's loads and stores name it (a leading axis of one) -/
abbrev slot3 (M : Memref sig .tc .vmem S15x128x1024 .f32) (s r : ℕ)
    (h : ∀ a, (![s, r, 0] : Fin 3 → Nat) a + S1x64x1024.size a ≤ S15x128x1024.size a) : Memref sig .tc .vmem S1x64x1024 .f32 :=
  M.slice (Rect.unit (s := S15x128x1024) ![s, r, 0] S1x64x1024.size h) (fun _ => rfl)
/-- the same rows as the kernel's transfers name them (the leading axis squeezed away) -/
abbrev slot (M : Memref sig .tc .vmem S15x128x1024 .f32) (s r : ℕ)
    (h : ∀ a, (![s, r, 0] : Fin 3 → Nat) a + S1x64x1024.size a ≤ S15x128x1024.size a) : Memref sig .tc .vmem S64x1024 .f32 :=
  (slot3 M s r h).squeeze S64x1024 squeezes_S1x64x1024_S64x1024
/-- 64 rows of a staged array from the offset `o` on -/
abbrev rows (M : Memref sig .tc .vmem S4096x1024 .f32) (o : Fin 2 → Nat)
    (h : ∀ a, o a + S64x1024.size a ≤ S4096x1024.size a) : Memref sig .tc .vmem S64x1024 .f32 :=
  M.slice (Rect.unit (s := S4096x1024) o S64x1024.size h) (fun _ => rfl)

/-- the credit of one transfer of 64 rows -/
abbrev N : ℕ := (slot aM 0 0 inb_S15x128x1024_S1x64x1024_0_0_0).view.dmaCredit
theorem N_pos : 0 < N := View.dmaCredit_pos _ (by decide)

/-- the runtime's barrier semaphore of collective id 0 -/
abbrev barS : Sem sig := (SemArray.scalar (sig.barrier 0 rfl) : Sems sig S_).sem

/-! ## Where the sub-blocks lie

The staged arrays have sixteen chunks of 256 rows; the first 128 rows of a chunk travel one way round the ring, the last 128
the other way, each half as two sub-blocks of 64 rows. -/

/-- the row offset of sub-block `b` of the half of chunk `k` (modulo sixteen) that travels in direction `cw` -/
def off (cw : Bool) (k b : ℕ) : Fin 2 → ℕ := ![256 * (k % 16) + (if cw then 0 else 128) + 64 * b, 0]

theorem off_inb (cw : Bool) (k : ℕ) (b : Fin 2) : ∀ a, off cw k b.val a + S64x1024.size a ≤ S4096x1024.size a := by
  have hk : k % 16 < 16 := Nat.mod_lt _ (by decide)
  have hb := b.isLt
  intro a
  match a with
  | ⟨0, _⟩ => show 256 * (k % 16) + (if cw then 0 else 128) + 64 * b.val + 64 ≤ 4096; cases cw <;> simp <;> omega
  | ⟨1, _⟩ => show 0 + 1024 ≤ 1024; omega

/-! ## The values that travel

`X d` is device `d`'s staged block of the input. In direction `cw`, sub-block `b`: at step `s` of the reduce-scatter device `c`
receives `recvV cw s b c` — a partial sum for chunk `c ∓ (2 + s)` — adds its own rows of that chunk (`addV`) and passes the sum on. -/

variable (X : Dev nD → S4096x1024.Idx → Elt F .f32)

/-- 64 rows of a 4096-row array, read through the window the kernel's transfers use -/
def piece (o : Fin 2 → ℕ) (h : ∀ a, o a + S64x1024.size a ≤ S4096x1024.size a) (Y : S4096x1024.Idx → Elt F .f32) : S64x1024.Idx → Elt F .f32 :=
  (rows xM o h).view.read (Elt F) Y

/-- the chunk device `c` works on at step `s` in direction `cw`: two further back than the step count -/
def chunkAt (cw : Bool) (c : Dev nD) (s : ℕ) : ℕ := if cw then c.val + 32 - 2 - s else c.val + 2 + s

/-- the kernel's elementwise sum of what it received and its own rows -/
def kadd (u v : S64x1024.Idx → Elt F .f32) : S64x1024.Idx → Elt F .f32 :=
  (addf (u : FVec F S64x1024 .f32) (v : FVec F S64x1024 .f32) : FVec F S64x1024 .f32)

mutual
/-- what device `c` receives at step `s` -/
def recvV (cw : Bool) (b : Fin 2) : ℕ → Dev nD → S64x1024.Idx → Elt F .f32
  | 0, c => piece (off cw (chunkAt cw c 0) b.val) (off_inb cw _ b) (X (bwd cw c))
  | s + 1, c => addV cw b s (bwd cw c)
/-- what it holds, and passes on, after adding its own rows -/
def addV (cw : Bool) (b : Fin 2) : ℕ → Dev nD → S64x1024.Idx → Elt F .f32
  | s, c => kadd (recvV cw b s c) (piece (off cw (chunkAt cw c s) b.val) (off_inb cw _ b) (X c))
end

/-- the finished sub-block `b` of the `cw` half of chunk `k`: what device `k` holds after the last step -/
def doneV (cw : Bool) (b : Fin 2) (k : Dev nD) : S64x1024.Idx → Elt F .f32 := addV X cw b 14 k

end Cert.Kernel.RSAG

end
-- ==== Proof.Bits.Sched.lean ====
import proofs.«901013_g7700000000001014_dist_rs_then_ag_i_m4096_n1024_v7x_i16_f32_1_alg».proof.Proof.Bits.Base

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The cells -/

abbrev barCell (c : Dev nD) : GSem nD τ sig := ((c : Thread nD τ), .reg barS)
abbrev dcell (c : Dev nD) (q : DmaSem sig) : GSem nD τ sig := ((c : Thread nD τ), .dma q)

/-- The kernel's 136 transfer semaphores lie in eight arrays, 34 to a direction-and-phase: four that count what a device
    has SENT (one slot reused every other step) and thirty that count what it has RECEIVED (one per step and sub-block).
    `q - 2` is the semaphore's place among them. -/
def arrOf (q : ℕ) : ℕ := (q - 2) / 34
def posOf (q : ℕ) : ℕ := (q - 2) % 34

theorem slot_inb (s b : ℕ) (hs : s < 15) (hb : b < 2) :
    ∀ a, (![s, 64 * b, 0] : Fin 3 → Nat) a + S1x64x1024.size a ≤ S15x128x1024.size a := by
  intro a
  match a with
  | ⟨0, _⟩ => show s + 1 ≤ 15; omega
  | ⟨1, _⟩ => show 64 * b + 64 ≤ 128; omega
  | ⟨2, _⟩ => show 0 + 1024 ≤ 1024; omega

/-- the ring buffer a direction uses -/
abbrev bufOf (cw : Bool) : Memref sig .tc .vmem S15x128x1024 .f32 := if cw then aM else bM

variable (X : Dev nD → S4096x1024.Idx → Elt F .f32)

/-- the device whose chunk device `c` receives at step `h` of the all-gather in direction `cw`, as a shift of `c` -/
def agShift (cw : Bool) (h : ℕ) : ℕ := if cw then 15 - h else 1 + h
def devAt (c : Dev nD) (k : ℕ) : Dev nD := ⟨(c.val + k) % 16, Nat.mod_lt _ (by decide)⟩

/-- what the landing of the transfer of step `s`, sub-block `b`, hands device `c`: in the reduce-scatter slot `s` of its ring
    buffer holding the partial sum; in the all-gather the rows of its result that hold the finished sub-block of another chunk -/
def recvPay (cw ag : Bool) (c : Dev nD) (s b : ℕ) : sProp 𝕄 :=
  if h : s < 15 ∧ b < 2 then
    if ag then owns (c : Thread nD τ) (rows oM (off cw (c.val + agShift cw s) b) (off_inb cw _ ⟨b, h.2⟩)) fullShare (doneV X cw ⟨b, h.2⟩ (devAt c (agShift cw s)))
    else owns (c : Thread nD τ) (slot (bufOf cw) s (64 * b) (slot_inb s b h.1 h.2)) fullShare (recvV X cw ⟨b, h.2⟩ s c)
  else iprop(emp)

/-- what the read-out of the transfer device `c` fires at step `t` (sub-block `b`) hands back: its source -/
def sendPay (cw ag : Bool) (c : Dev nD) (t b : ℕ) : sProp 𝕄 :=
  if h : t < 15 ∧ b < 2 then
    if ag then
      (match t with
       | 0 => owns (c : Thread nD τ) (slot (bufOf cw) 14 (64 * b) (slot_inb 14 b (by decide) h.2)) fullShare.right (addV X cw ⟨b, h.2⟩ 14 c)
       | t' + 1 => owns (c : Thread nD τ) (rows oM (off cw (c.val + agShift cw t') b) (off_inb cw _ ⟨b, h.2⟩)) fullShare (doneV X cw ⟨b, h.2⟩ (devAt c (agShift cw t'))))
    else
      (match t, h with
       | 0, _ => iprop((rows xM (off cw (c.val + (if cw then 15 else 1)) b) (off_inb cw _ ⟨b, h.2⟩)).view.loc (c : Thread nD τ)
            ↦[(rows xM (off cw (c.val + (if cw then 15 else 1)) b) (off_inb cw _ ⟨b, h.2⟩)).view.set]{fullShare.right} X c)
       | t' + 1, h => owns (c : Thread nD τ) (slot (bufOf cw) t' (64 * b) (slot_inb t' b (by omega) h.2)) fullShare (addV X cw ⟨b, h.2⟩ t' c))
  else iprop(emp)

/-- a transfer semaphore's payload by its place: array `a` (direction `a % 2`, phase `a / 2`), place `p` in it, round `r` -/
def dmaPay (c : Dev nD) (q r : ℕ) : sProp 𝕄 :=
  if q < 2 then iprop(emp) else
    if posOf q < 4 then sendPay X (arrOf q % 2 = 0) (2 ≤ arrOf q) c (2 * r + posOf q / 2) (posOf q % 2)
    else recvPay X (arrOf q % 2 = 0) (2 ≤ arrOf q) c ((posOf q - 4) / 2) ((posOf q - 4) % 2)

/-- how often a send slot is used: the even steps 0..14 or the odd steps 1..13 -/
def sendRounds (p : ℕ) : ℕ := if p < 2 then 8 else 7

/-! ### The barrier's payloads: each device lends each neighbour what that neighbour will write -/

/-- all thirty slots of a ring buffer on device `d`, at some contents -/
def allSlots (cw : Bool) (d : Dev nD) : sProp 𝕄 :=
  bigSep (Finset.univ : Finset (Fin 15 × Fin 2)) fun sb =>
    iprop(∃ f, (slot (bufOf cw) sb.1.val (64 * sb.2.val) (slot_inb _ _ sb.1.isLt sb.2.isLt)).view.loc (d : Thread nD τ)
      ↦[(slot (bufOf cw) sb.1.val (64 * sb.2.val) (slot_inb _ _ sb.1.isLt sb.2.isLt)).view.set]{fullShare} f)
/-- the thirty sub-blocks of device `d`'s staged result that arrive in direction `cw`, at some contents -/
def allRows (cw : Bool) (d : Dev nD) : sProp 𝕄 :=
  bigSep (Finset.univ : Finset (Fin 15 × Fin 2)) fun hb =>
    iprop(∃ f, (rows oM (off cw (d.val + agShift cw hb.1.val) hb.2.val) (off_inb cw _ hb.2)).view.loc (d : Thread nD τ)
      ↦[(rows oM (off cw (d.val + agShift cw hb.1.val) hb.2.val) (off_inb cw _ hb.2)).view.set]{fullShare} f)

/-- duty `false` of `c`'s barrier cell is paid by `nxt c`, which `c` writes clockwise; duty `true` by `prv c` -/
def barPay (c : Dev nD) (d : Bool) : sProp 𝕄 :=
  if d then iprop(allSlots false (prv c) ∗ allRows false (prv c)) else iprop(allSlots true (nxt c) ∗ allRows true (nxt c))

/-! ## The schedule -/

def Rd : Rounds.Schedule (GSem nD τ sig) Bool 𝕄 where
  duties g r :=
    if g.1.2 = .tc then
      (match g.2 with
       | .reg s => if s = barS ∧ r = 0 then Finset.univ else ∅
       | .dma q => if q.val < 2 then ∅ else if posOf q.val < 4 then (if r < sendRounds (posOf q.val) then {false} else ∅)
            else if r = 0 then {false} else ∅)
    else ∅
  unitless _ := False
  amount g _ _ := match g.2 with | .reg _ => 1 | .dma _ => N
  payload g r d := match g.2 with | .reg _ => barPay g.1.1 d | .dma q => dmaPay X g.1.1 q.val r
  amount_pos g _ _ _ := by
    cases g.2 with
    | reg _ => exact Nat.one_pos
    | dma _ => exact N_pos

instance Rd_payload_storable (g : GSem nD τ sig) (r : ℕ) (d : Bool) :
    BI.Storable (upEmb : UEmb _ 𝕄) ((Rd (F := F) X).payload g r d) := by
  dsimp only [Rd]
  cases g.2 with
  | reg _ => dsimp only; unfold barPay allSlots allRows; split <;> infer_instance
  | dma q => dsimp only; unfold dmaPay sendPay recvPay owns; (repeat' split) <;> infer_instance

end Cert.Kernel.RSAG

end
-- ==== Proof.Bits.Tables.lean ====
import proofs.«901013_g7700000000001014_dist_rs_then_ag_i_m4096_n1024_v7x_i16_f32_1_alg».proof.Proof.Bits.Sched

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The kernel's semaphores as it names them, and the schedule's entries at each of them (every equation holds by unfolding). -/

abbrev qS (A : DmaSems sig S4) (j : ℕ) (h : ∀ a, (![j] : Fin 1 → Nat) a + S1.size a ≤ S4.size a) : DmaSem sig :=
  ((A.slice (Rect.unit (s := S4) ![j] S1.size h)).squeeze S_ squeezes_S1_S_).sem
abbrev qR (A : DmaSems sig S15x2) (s b : ℕ) (h : ∀ a, (![s, b] : Fin 2 → Nat) a + S1x1.size a ≤ S15x2.size a) : DmaSem sig :=
  ((A.slice (Rect.unit (s := S15x2) ![s, b] S1x1.size h)).squeeze S_ squeezes_S1x1_S_).sem

variable (X : Dev nD → S4096x1024.Idx → Elt F .f32)

theorem duties_bar (c : Dev nD) : (Rd (F := F) X).duties (barCell c) 0 = Finset.univ := rfl
theorem amount_bar (c : Dev nD) (d : Bool) : (Rd (F := F) X).amount (barCell c) 0 d = 1 := rfl
theorem expect_bar (c : Dev nD) : (Rd (F := F) X).expect (barCell c) 0 = 2 := by
  unfold Schedule.expect Schedule.amountOf
  rw [duties_bar, Finset.sum_congr rfl fun d _ => amount_bar X c d, Finset.sum_const, Finset.card_univ, Fintype.card_bool, smul_eq_mul]
theorem payload_bar (c : Dev nD) (d : Bool) : (Rd (F := F) X).payload (barCell c) 0 d = barPay c d := rfl
theorem duties_rscw_r_0_0 (c : Dev nD) : (Rd (F := F) X).duties (dcell c (qR cc0_scratch3 0 0 inb_S15x2_S1x1_0_0)) 0 = {false} := rfl
theorem amount_rscw_r_0_0 (c : Dev nD) (d : Bool) : (Rd (F := F) X).amount (dcell c (qR cc0_scratch3 0 0 inb_S15x2_S1x1_0_0)) 0 d = N := rfl
theorem payload_rscw_r_0_0 (c : Dev nD) (d : Bool) : (Rd (F := F) X).payload (dcell c (qR cc0_scratch3 0 0 inb_S15x2_S1x1_0_0)) 0 d = owns (c : Thread nD τ) (slot aM 0 0 inb_S15x128x1024_S1x64x1024_0_0_0) fullShare (recvV X true 0 0 c) := rfl
theorem expect_rscw_r_0_0 (c : Dev nD) : (Rd (F := F) X).expect (dcell c (qR cc0_scratch3 0 0 inb_S15x2_S1x1_0_0)) 0 = N := by
  unfold Schedule.expect Schedule.amountOf; rw [duties_rscw_r_0_0, Finset.sum_singleton]; rfl
theorem duties_rscw_r_0_1 (c : Dev nD) : (Rd (F := F) X).duties (dcell c (qR cc0_scratch3 0 1 inb_S15x2_S1x1_0_1)) 0 = {false} := rfl
theorem amount_rscw_r_0_1 (c : Dev nD) (d : Bool) : (Rd (F := F) X).amount (dcell c (qR cc0_scratch3 0 1 inb_S15x2_S1x1_0_1)) 0 d = N := rfl
theorem payload_rscw_r_0_1 (c : Dev nD) (d : Bool) : (Rd (F := F) X).payload (dcell c (qR cc0_scratch3 0 1 inb_S15x2_S1x1_0_1)) 0 d = owns (c : Thread nD τ) (slot aM 0 64 inb_S15x128x1024_S1x64x1024_0_64_0) fullShare (recvV X true 1 0 c) := rfl
theorem expect_rscw_r_0_1 (c : Dev nD) : (Rd (F := F) X).expect (dcell c (qR cc0_scratch3 0 1 inb_S15x2_S1x1_0_1)) 0 = N := by
  unfold Schedule.expect Schedule.amountOf; rw [duties_rscw_r_0_1, Finset.sum_singleton]; rfl
theorem duties_rscw_r_1_0 (c : Dev nD) : (Rd (F := F) X).duties (dcell c (qR cc0_scratch3 1 0 inb_S15x2_S1x1_1_0)) 0 = {false} := rfl
theorem amount_rscw_r_1_0 (c : Dev nD) (d : Bool) : (Rd (F := F) X).amount (dcell c (qR cc0_scratch3 1 0 inb_S15x2_S1x1_1_0)) 0 d = N := rfl
theorem payload_rscw_r_1_0 (c : Dev nD) (d : Bool) : (Rd (F := F) X).payload (dcell c (qR cc0_scratch3 1 0 inb_S15x2_S1x1_1_0)) 0 d = owns (c : Thread nD τ) (slot aM 1 0 inb_S15x128x1024_S1x64x1024_1_0_0) fullShare (recvV X true 0 1 c) := rfl
theorem expect_rscw_r_1_0 (c : Dev nD) : (Rd (F := F) X).expect (dcell c (qR cc0_scratch3 1 0 inb_S15x2_S1x1_1_0)) 0 = N := by
  unfold Schedule.expect Schedule.amountOf; rw [duties_rscw_r_1_0, Finset.sum_singleton]; rfl
theorem duties_rscw_r_1_1 (c : Dev nD) : (Rd (F := F) X).duties (dcell c (qR cc0_scratch3 1 1 inb_S15x2_S1x1_1_1)) 0 = {false} := rfl
theorem amount_rscw_r_1_1 (c : Dev nD) (d : Bool) : (Rd (F := F) X).amount (dcell c (qR cc0_scratch3 1 1 inb_S15x2_S1x1_1_1)) 0 d = N := rfl
theorem payload_rscw_r_1_1 (c : Dev nD) (d : Bool) : (Rd (F := F) X).payload (dcell c (qR cc0_scratch3 1 1 inb_S15x2_S1x1_1_1)) 0 d = owns (c : Thread nD τ) (slot aM 1 64 inb_S15x128x1024_S1x64x1024_1_64_0) fullShare (recvV X true 1 1 c) := rfl
theorem expect_rscw_r_1_1 (c : Dev nD) : (Rd (F := F) X).expect (dcell c (qR cc0_scratch3 1 1 inb_S15x2_S1x1_1_1)) 0 = N := by
  unfold Schedule.expect Schedule.amountOf; rw [duties_rscw_r_1_1, Finset.sum_singleton]; rfl
theorem duties_rscw_r_2_0 (c : Dev nD) : (Rd (F := F) X).duties (dcell c (qR cc0_scratch3 2 0 inb_S15x2_S1x1_2_0)) 0 = {false} := rfl
theorem amount_rscw_r_2_0 (c : Dev nD) (d : Bool) : (Rd (F := F) X).amount (dcell c (qR cc0_scratch3 2 0 inb_S15x2_S1x1_2_0)) 0 d = N := rfl
theorem payload_rscw_r_2_0 (c : Dev nD) (d : Bool) : (Rd (F := F) X).payload (dcell c (qR cc0_scratch3 2 0 inb_S15x2_S1x1_2_0)) 0 d = owns (c : Thread nD τ) (slot aM 2 0 inb_S15x128x1024_S1x64x1024_2_0_0) fullShare (recvV X true 0 2 c) := rfl
theorem expect_rscw_r_2_0 (c : Dev nD) : (Rd (F := F) X).expect (dcell c (qR cc0_scratch3 2 0 inb_S15x2_S1x1_2_0)) 0 = N := by
  unfold Schedule.expect Schedule.amountOf; rw [duties_rscw_r_2_0, Finset.sum_singleton]; rfl
theorem duties_rscw_r_2_1 (c : Dev nD) : (Rd (F := F) X).duties (dcell c (qR cc0_scratch3 2 1 inb_S15x2_S1x1_2_1)) 0 = {false} := rfl
theorem amount_rscw_r_2_1 (c : Dev nD) (d : Bool) : (Rd (F := F) X).amount (dcell c (qR cc0_scratch3 2 1 inb_S15x2_S1x1_2_1)) 0 d = N := rfl
theorem payload_rscw_r_2_1 (c : Dev nD) (d : Bool) : (Rd (F := F) X).payload (dcell c (qR cc0_scratch3 2 1 inb_S15x2_S1x1_2_1)) 0 d = owns (c : Thread nD τ) (slot aM 2 64 inb_S15x128x1024_S1x64x1024_2_64_0) fullShare (recvV X true 1 2 c) := rfl
theorem expect_rscw_r_2_1 (c : Dev nD) : (Rd (F := F) X).expect (dcell c (qR cc0_scratch3 2 1 inb_S15x2_S1x1_2_1)) 0 = N := by
  unfold Schedule.expect Schedule.amountOf; rw [duties_rscw_r_2_1, Finset.sum_singleton]; rfl
theorem duties_rscw_r_3_0 (c : Dev nD) : (Rd (F := F) X).duties (dcell c (qR cc0_scratch3 3 0 inb_S15x2_S1x1_3_0)) 0 = {false} := rfl
theorem amount_rscw_r_3_0 (c : Dev nD) (d : Bool) : (Rd (F := F) X).amount (dcell c (qR cc0_scratch3 3 0 inb_S15x2_S1x1_3_0)) 0 d = N := rfl
theorem payload_rscw_r_3_0 (c : Dev nD) (d : Bool) : (Rd (F := F) X).payload (dcell c (qR cc0_scratch3 3 0 inb_S15x2_S1x1_3_0)) 0 d = owns (c : Thread nD τ) (slot aM 3 0 inb_S15x128x1024_S1x64x1024_3_0_0) fullShare (recvV X true 0 3 c) := rfl
theorem expect_rscw_r_3_0 (c : Dev nD) : (Rd (F := F) X).expect (dcell c (qR cc0_scratch3 3 0 inb_S15x2_S1x1_3_0)) 0 = N := by
  unfold Schedule.expect Schedule.amountOf; rw [duties_rscw_r_3_0, Finset.sum_singleton]; rfl
theorem duties_rscw_r_3_1 (c : Dev nD) : (Rd (F := F) X).duties (dcell c (qR cc0_scratch3 3 1 inb_S15x2_S1x1_3_1)) 0 = {false} := rfl
theorem amount_rscw_r_3_1 (c : Dev nD) (d : Bool) : (Rd (F := F) X).amount (dcell c (qR cc0_scratch3 3 1 inb_S15x2_S1x1_3_1)) 0 d = N := rfl
theorem payload_rscw_r_3_1 (c : Dev nD) (d : Bool) : (Rd (F := F) X).payload (dcell c (qR cc0_scratch3 3 1 inb_S15x2_S1x1_3_1)) 0 d = owns (c : Thread nD τ) (slot aM 3 64 inb_S15x128x1024_S1x64x1024_3_64_0) fullShare (recvV X true 1 3 c) := rfl
theorem expect_rscw_r_3_1 (c : Dev nD) : (Rd (F := F) X).expect (dcell c (qR cc0_scratch3 3 1 inb_S15x2_S1x1_3_1)) 0 = N := by
  unfold Schedule.expect Schedule.amountOf; rw [duties_rscw_r_3_1, Finset.sum_singleton]; rfl
theorem duties_rscw_r_4_0 (c : Dev nD) : (Rd (F := F) X).duties (dcell c (qR cc0_scratch3 4 0 inb_S15x2_S1x1_4_0)) 0 = {false} := rfl
theorem amount_rscw_r_4_0 (c : Dev nD) (d : Bool) : (Rd (F := F) X).amount (dcell c (qR cc0_scratch3 4 0 inb_S15x2_S1x1_4_0)) 0 d = N := rfl
theorem payload_rscw_r_4_0 (c : Dev nD) (d : Bool) : (Rd (F := F) X).payload (dcell c (qR cc0_scratch3 4 0 inb_S15x2_S1x1_4_0)) 0 d = owns (c : Thread nD τ) (slot aM 4 0 inb_S15x128x1024_S1x64x1024_4_0_0) fullShare (recvV X true 0 4 c) := rfl
theorem expect_rscw_r_4_0 (c : Dev nD) : (Rd (F := F) X).expect (dcell c (qR cc0_scratch3 4 0 inb_S15x2_S1x1_4_0)) 0 = N := by
  unfold Schedule.expect Schedule.amountOf; rw [duties_rscw_r_4_0, Finset.sum_singleton]; rfl
theorem duties_rscw_r_4_1 (c : Dev nD) : (Rd (F := F) X).duties (dcell c (qR cc0_scratch3 4 1 inb_S15x2_S1x1_4_1)) 0 = {false} := rfl
theorem amount_rscw_r_4_1 (c : Dev nD) (d : Bool) : (Rd (F := F) X).amount (dcell c (qR cc0_scratch3 4 1 inb_S15x2_S1x1_4_1)) 0 d = N := rfl
theorem payload_rscw_r_4_1 (c : Dev nD) (d : Bool) : (Rd (F := F) X).payload (dcell c (qR cc0_scratch3 4 1 inb_S15x2_S1x1_4_1)) 0 d = owns (c : Thread nD τ) (slot aM 4 64 inb_S15x128x1024_S1x64x1024_4_64_0) fullShare (recvV X true 1 4 c) := rfl
theorem expect_rscw_r_4_1 (c : Dev nD) : (Rd (F := F) X).expect (dcell c (qR cc0_scratch3 4 1 inb_S15x2_S1x1_4_1)) 0 = N := by
  unfold Schedule.expect Schedule.amountOf; rw [duties_rscw_r_4_1, Finset.sum_singleton]; rfl
theorem duties_rscw_r_5_0 (c : Dev nD) : (Rd (F := F) X).duties (dcell c (qR cc0_scratch3 5 0 inb_S15x2_S1x1_5_0)) 0 = {false} := rfl
theorem amount_rscw_r_5_0 (c : Dev nD) (d : Bool) : (Rd (F := F) X).amount (dcell c (qR cc0_scratch3 5 0 inb_S15x2_S1x1_5_0)) 0 d = N := rfl
theorem payload_rscw_r_5_0 (c : Dev nD) (d : Bool) : (Rd (F := F) X).payload (dcell c (qR cc0_scratch3 5 0 inb_S15x2_S1x1_5_0)) 0 d = owns (c : Thread nD τ) (slot aM 5 0 inb_S15x128x1024_S1x64x1024_5_0_0) fullShare (recvV X true 0 5 c) := rfl
theorem expect_rscw_r_5_0 (c : Dev nD) : (Rd (F := F) X).expect (dcell c (qR cc0_scratch3 5 0 inb_S15x2_S1x1_5_0)) 0 = N := by
  unfold Schedule.expect Schedule.amountOf; rw [duties_rscw_r_5_0, Finset.sum_singleton]; rfl
theorem duties_rscw_r_5_1 (c : Dev nD) : (Rd (F := F) X).duties (dcell c (qR cc0_scratch3 5 1 inb_S15x2_S1x1_5_1)) 0 = {false} := rfl
theorem amount_rscw_r_5_1 (c : Dev nD) (d : Bool) : (Rd (F := F) X).amount (dcell c (qR cc0_scratch3 5 1 inb_S15x2_S1x1_5_1)) 0 d = N := rfl
theorem payload_rscw_r_5_1 (c : Dev nD) (d : Bool) : (Rd (F := F) X).payload (dcell c (qR cc0_scratch3 5 1 inb_S15x2_S1x1_5_1)) 0 d = owns (c : Thread nD τ) (slot aM 5 64 inb_S15x128x1024_S1x64x1024_5_64_0) fullShare (recvV X true 1 5 c) := rfl
theorem expect_rscw_r_5_1 (c : Dev nD) : (Rd (F := F) X).expect (dcell c (qR cc0_scratch3 5 1 inb_S15x2_S1x1_5_1)) 0 = N := by
  unfold Schedule.expect Schedule.amountOf; rw [duties_rscw_r_5_1, Finset.sum_singleton]; rfl
theorem duties_rscw_r_6_0 (c : Dev nD) : (Rd (F := F) X).duties (dcell c (qR cc0_scratch3 6 0 inb_S15x2_S1x1_6_0)) 0 = {false} := rfl
theorem amount_rscw_r_6_0 (c : Dev nD) (d : Bool) : (Rd (F := F) X).amount (dcell c (qR cc0_scratch3 6 0 inb_S15x2_S1x1_6_0)) 0 d = N := rfl
theorem payload_rscw_r_6_0 (c : Dev nD) (d : Bool) : (Rd (F := F) X).payload (dcell c (qR cc0_scratch3 6 0 inb_S15x2_S1x1_6_0)) 0 d = owns (c : Thread nD τ) (slot aM 6 0 inb_S15x128x1024_S1x64x1024_6_0_0) fullShare (recvV X true 0 6 c) := rfl
theorem expect_rscw_r_6_0 (c : Dev nD) : (Rd (F := F) X).expect (dcell c (qR cc0_scratch3 6 0 inb_S15x2_S1x1_6_0)) 0 = N := by
  unfold Schedule.expect Schedule.amountOf; rw [duties_rscw_r_6_0, Finset.sum_singleton]; rfl
theorem duties_rscw_r_6_1 (c : Dev nD) : (Rd (F := F) X).duties (dcell c (qR cc0_scratch3 6 1 inb_S15x2_S1x1_6_1)) 0 = {false} := rfl
theorem amount_rscw_r_6_1 (c : Dev nD) (d : Bool) : (Rd (F := F) X).amount (dcell c (qR cc0_scratch3 6 1 inb_S15x2_S1x1_6_1)) 0 d = N := rfl
theorem payload_rscw_r_6_1 (c : Dev nD) (d : Bool) : (Rd (F := F) X).payload (dcell c (qR cc0_scratch3 6 1 inb_S15x2_S1x1_6_1)) 0 d = owns (c : Thread nD τ) (slot aM 6 64 inb_S15x128x1024_S1x64x1024_6_64_0) fullShare (recvV X true 1 6 c) := rfl
theorem expect_rscw_r_6_1 (c : Dev nD) : (Rd (F := F) X).expect (dcell c (qR cc0_scratch3 6 1 inb_S15x2_S1x1_6_1)) 0 = N := by
  unfold Schedule.expect Schedule.amountOf; rw [duties_rscw_r_6_1, Finset.sum_singleton]; rfl
theorem duties_rscw_r_7_0 (c : Dev nD) : (Rd (F := F) X).duties (dcell c (qR cc0_scratch3 7 0 inb_S15x2_S1x1_7_0)) 0 = {false} := rfl
theorem amount_rscw_r_7_0 (c : Dev nD) (d : Bool) : (Rd (F := F) X).amount (dcell c (qR cc0_scratch3 7 0 inb_S15x2_S1x1_7_0)) 0 d = N := rfl
theorem payload_rscw_r_7_0 (c : Dev nD) (d : Bool) : (Rd (F := F) X).payload (dcell c (qR cc0_scratch3 7 0 inb_S15x2_S1x1_7_0)) 0 d = owns (c : Thread nD τ) (slot aM 7 0 inb_S15x128x1024_S1x64x1024_7_0_0) fullShare (recvV X true 0 7 c) := rfl
theorem expect_rscw_r_7_0 (c : Dev nD) : (Rd (F := F) X).expect (dcell c (qR cc0_scratch3 7 0 inb_S15x2_S1x1_7_0)) 0 = N := by
  unfold Schedule.expect Schedule.amountOf; rw [duties_rscw_r_7_0, Finset.sum_singleton]; rfl
theorem duties_rscw_r_7_1 (c : Dev nD) : (Rd (F := F) X).duties (dcell c (qR cc0_scratch3 7 1 inb_S15x2_S1x1_7_1)) 0 = {false} := rfl
theorem amount_rscw_r_7_1 (c : Dev nD) (d : Bool) : (Rd (F := F) X).amount (dcell c (qR cc0_scratch3 7 1 inb_S15x2_S1x1_7_1)) 0 d = N := rfl
theorem payload_rscw_r_7_1 (c : Dev nD) (d : Bool) : (Rd (F := F) X).payload (dcell c (qR cc0_scratch3 7 1 inb_S15x2_S1x1_7_1)) 0 d = owns (c : Thread nD τ) (slot aM 7 64 inb_S15x128x1024_S1x64x1024_7_64_0) fullShare (recvV X true 1 7 c) := rfl
theorem expect_rscw_r_7_1 (c : Dev nD) : (Rd (F := F) X).expect (dcell c (qR cc0_scratch3 7 1 inb_S15x2_S1x1_7_1)) 0 = N := by
  unfold Schedule.expect Schedule.amountOf; rw [duties_rscw_r_7_1, Finset.sum_singleton]; rfl
theorem duties_rscw_r_8_0 (c : Dev nD) : (Rd (F := F) X).duties (dcell c (qR cc0_scratch3 8 0 inb_S15x2_S1x1_8_0)) 0 = {false} := rfl
theorem amount_rscw_r_8_0 (c : Dev nD) (d : Bool) : (Rd (F := F) X).amount (dcell c (qR cc0_scratch3 8 0 inb_S15x2_S1x1_8_0)) 0 d = N := rfl
theorem payload_rscw_r_8_0 (c : Dev nD) (d : Bool) : (Rd (F := F) X).payload (dcell c (qR cc0_scratch3 8 0 inb_S15x2_S1x1_8_0)) 0 d = owns (c : Thread nD τ) (slot aM 8 0 inb_S15x128x1024_S1x64x1024_8_0_0) fullShare (recvV X true 0 8 c) := rfl
theorem expect_rscw_r_8_0 (c : Dev nD) : (Rd (F := F) X).expect (dcell c (qR cc0_scratch3 8 0 inb_S15x2_S1x1_8_0)) 0 = N := by
  unfold Schedule.expect Schedule.amountOf; rw [duties_rscw_r_8_0, Finset.sum_singleton]; rfl
theorem duties_rscw_r_8_1 (c : Dev nD) : (Rd (F := F) X).duties (dcell c (qR cc0_scratch3 8 1 inb_S15x2_S1x1_8_1)) 0 = {false} := rfl
theorem amount_rscw_r_8_1 (c : Dev nD) (d : Bool) : (Rd (F := F) X).amount (dcell c (qR cc0_scratch3 8 1 inb_S15x2_S1x1_8_1)) 0 d = N := rfl
theorem payload_rscw_r_8_1 (c : Dev nD) (d : Bool) : (Rd (F := F) X).payload (dcell c (qR cc0_scratch3 8 1 inb_S15x2_S1x1_8_1)) 0 d = owns (c : Thread nD τ) (slot aM 8 64 inb_S15x128x1024_S1x64x1024_8_64_0) fullShare (recvV X true 1 8 c) := rfl
theorem expect_rscw_r_8_1 (c : Dev nD) : (Rd (F := F) X).expect (dcell c (qR cc0_scratch3 8 1 inb_S15x2_S1x1_8_1)) 0 = N := by
  unfold Schedule.expect Schedule.amountOf; rw [duties_rscw_r_8_1, Finset.sum_singleton]; rfl
theorem duties_rscw_r_9_0 (c : Dev nD) : (Rd (F := F) X).duties (dcell c (qR cc0_scratch3 9 0 inb_S15x2_S1x1_9_0)) 0 = {false} := rfl
theorem amount_rscw_r_9_0 (c : Dev nD) (d : Bool) : (Rd (F := F) X).amount (dcell c (qR cc0_scratch3 9 0 inb_S15x2_S1x1_9_0)) 0 d = N := rfl
theorem payload_rscw_r_9_0 (c : Dev nD) (d : Bool) : (Rd (F := F) X).payload (dcell c (qR cc0_scratch3 9 0 inb_S15x2_S1x1_9_0)) 0 d = owns (c : Thread nD τ) (slot aM 9 0 inb_S15x128x1024_S1x64x1024_9_0_0) fullShare (recvV X true 0 9 c) := rfl
theorem expect_rscw_r_9_0 (c : Dev nD) : (Rd (F := F) X).expect (dcell c (qR cc0_scratch3 9 0 inb_S15x2_S1x1_9_0)) 0 = N := by
  unfold Schedule.expect Schedule.amountOf; rw [duties_rscw_r_9_0, Finset.sum_singleton]; rfl
theorem duties_rscw_r_9_1 (c : Dev nD) : (Rd (F := F) X).duties (dcell c (qR cc0_scratch3 9 1 inb_S15x2_S1x1_9_1)) 0 = {false} := rfl
theorem amount_rscw_r_9_1 (c : Dev nD) (d : Bool) : (Rd (F := F) X).amount (dcell c (qR cc0_scratch3 9 1 inb_S15x2_S1x1_9_1)) 0 d = N := rfl
theorem payload_rscw_r_9_1 (c : Dev nD) (d : Bool) : (Rd (F := F) X).payload (dcell c (qR cc0_scratch3 9 1 inb_S15x2_S1x1_9_1)) 0 d = owns (c : Thread nD τ) (slot aM 9 64 inb_S15x128x1024_S1x64x1024_9_64_0) fullShare (recvV X true 1 9 c) := rfl
theorem expect_rscw_r_9_1 (c : Dev nD) : (Rd (F := F) X).expect (dcell c (qR cc0_scratch3 9 1 inb_S15x2_S1x1_9_1)) 0 = N := by
  unfold Schedule.expect Schedule.amountOf; rw [duties_rscw_r_9_1, Finset.sum_singleton]; rfl
theorem duties_rscw_r_10_0 (c : Dev nD) : (Rd (F := F) X).duties (dcell c (qR cc0_scratch3 10 0 inb_S15x2_S1x1_10_0)) 0 = {false} := rfl
theorem amount_rscw_r_10_0 (c : Dev nD) (d : Bool) : (Rd (F := F) X).amount (dcell c (qR cc0_scratch3 10 0 inb_S15x2_S1x1_10_0)) 0 d = N := rfl
theorem payload_rscw_r_10_0 (c : Dev nD) (d : Bool) : (Rd (F := F) X).payload (dcell c (qR cc0_scratch3 10 0 inb_S15x2_S1x1_10_0)) 0 d = owns (c : Thread nD τ) (slot aM 10 0 inb_S15x128x1024_S1x64x1024_10_0_0) fullShare (recvV X true 0 10 c) := rfl
theorem expect_rscw_r_10_0 (c : Dev nD) : (Rd (F := F) X).expect (dcell c (qR cc0_scratch3 10 0 inb_S15x2_S1x1_10_0)) 0 = N := by
  unfold Schedule.expect Schedule.amountOf; rw [duties_rscw_r_10_0, Finset.sum_singleton]; rfl
theorem duties_rscw_r_10_1 (c : Dev nD) : (Rd (F := F) X).duties (dcell c (qR cc0_scratch3 10 1 inb_S15x2_S1x1_10_1)) 0 = {false} := rfl
theorem amount_rscw_r_10_1 (c : Dev nD) (d : Bool) : (Rd (F := F) X).amount (dcell c (qR cc0_scratch3 10 1 inb_S15x2_S1x1_10_1)) 0 d = N := rfl
theorem payload_rscw_r_10_1 (c : Dev nD) (d : Bool) : (Rd (F := F) X).payload (dcell c (qR cc0_scratch3 10 1 inb_S15x2_S1x1_10_1)) 0 d = owns (c : Thread nD τ) (slot aM 10 64 inb_S15x128x1024_S1x64x1024_10_64_0) fullShare (recvV X true 1 10 c) := rfl
theorem expect_rscw_r_10_1 (c : Dev nD) : (Rd (F := F) X).expect (dcell c (qR cc0_scratch3 10 1 inb_S15x2_S1x1_10_1)) 0 = N := by
  unfold Schedule.expect Schedule.amountOf; rw [duties_rscw_r_10_1, Finset.sum_singleton]; rfl
theorem duties_rscw_r_11_0 (c : Dev nD) : (Rd (F := F) X).duties (dcell c (qR cc0_scratch3 11 0 inb_S15x2_S1x1_11_0)) 0 = {false} := rfl
theorem amount_rscw_r_11_0 (c : Dev nD) (d : Bool) : (Rd (F := F) X).amount (dcell c (qR cc0_scratch3 11 0 inb_S15x2_S1x1_11_0)) 0 d = N := rfl
theorem payload_rscw_r_11_0 (c : Dev nD) (d : Bool) : (Rd (F := F) X).payload (dcell c (qR cc0_scratch3 11 0 inb_S15x2_S1x1_11_0)) 0 d = owns (c : Thread nD τ) (slot aM 11 0 inb_S15x128x1024_S1x64x1024_11_0_0) fullShare (recvV X true 0 11 c) := rfl
theorem expect_rscw_r_11_0 (c : Dev nD) : (Rd (F := F) X).expect (dcell c (qR cc0_scratch3 11 0 inb_S15x2_S1x1_11_0)) 0 = N := by
  unfold Schedule.expect Schedule.amountOf; rw [duties_rscw_r_11_0, Finset.sum_singleton]; rfl
theorem duties_rscw_r_11_1 (c : Dev nD) : (Rd (F := F) X).duties (dcell c (qR cc0_scratch3 11 1 inb_S15x2_S1x1_11_1)) 0 = {false} := rfl
theorem amount_rscw_r_11_1 (c : Dev nD) (d : Bool) : (Rd (F := F) X).amount (dcell c (qR cc0_scratch3 11 1 inb_S15x2_S1x1_11_1)) 0 d = N := rfl
theorem payload_rscw_r_11_1 (c : Dev nD) (d : Bool) : (Rd (F := F) X).payload (dcell c (qR cc0_scratch3 11 1 inb_S15x2_S1x1_11_1)) 0 d = owns (c : Thread nD τ) (slot aM 11 64 inb_S15x128x1024_S1x64x1024_11_64_0) fullShare (recvV X true 1 11 c) := rfl
theorem expect_rscw_r_11_1 (c : Dev nD) : (Rd (F := F) X).expect (dcell c (qR cc0_scratch3 11 1 inb_S15x2_S1x1_11_1)) 0 = N := by
  unfold Schedule.expect Schedule.amountOf; rw [duties_rscw_r_11_1, Finset.sum_singleton]; rfl
theorem duties_rscw_r_12_0 (c : Dev nD) : (Rd (F := F) X).duties (dcell c (qR cc0_scratch3 12 0 inb_S15x2_S1x1_12_0)) 0 = {false} := rfl
theorem amount_rscw_r_12_0 (c : Dev nD) (d : Bool) : (Rd (F := F) X).amount (dcell c (qR cc0_scratch3 12 0 inb_S15x2_S1x1_12_0)) 0 d = N := rfl
theorem payload_rscw_r_12_0 (c : Dev nD) (d : Bool) : (Rd (F := F) X).payload (dcell c (qR cc0_scratch3 12 0 inb_S15x2_S1x1_12_0)) 0 d = owns (c : Thread nD τ) (slot aM 12 0 inb_S15x128x1024_S1x64x1024_12_0_0) fullShare (recvV X true 0 12 c) := rfl
theorem expect_rscw_r_12_0 (c : Dev nD) : (Rd (F := F) X).expect (dcell c (qR cc0_scratch3 12 0 inb_S15x2_S1x1_12_0)) 0 = N := by
  unfold Schedule.expect Schedule.amountOf; rw [duties_rscw_r_12_0, Finset.sum_singleton]; rfl
theorem duties_rscw_r_12_1 (c : Dev nD) : (Rd (F := F) X).duties (dcell c (qR cc0_scratch3 12 1 inb_S15x2_S1x1_12_1)) 0 = {false} := rfl
theorem amount_rscw_r_12_1 (c : Dev nD) (d : Bool) : (Rd (F := F) X).amount (dcell c (qR cc0_scratch3 12 1 inb_S15x2_S1x1_12_1)) 0 d = N := rfl
theorem payload_rscw_r_12_1 (c : Dev nD) (d : Bool) : (Rd (F := F) X).payload (dcell c (qR cc0_scratch3 12 1 inb_S15x2_S1x1_12_1)) 0 d = owns (c : Thread nD τ) (slot aM 12 64 inb_S15x128x1024_S1x64x1024_12_64_0) fullShare (recvV X true 1 12 c) := rfl
theorem expect_rscw_r_12_1 (c : Dev nD) : (Rd (F := F) X).expect (dcell c (qR cc0_scratch3 12 1 inb_S15x2_S1x1_12_1)) 0 = N := by
  unfold Schedule.expect Schedule.amountOf; rw [duties_rscw_r_12_1, Finset.sum_singleton]; rfl
theorem duties_rscw_r_13_0 (c : Dev nD) : (Rd (F := F) X).duties (dcell c (qR cc0_scratch3 13 0 inb_S15x2_S1x1_13_0)) 0 = {false} := rfl
theorem amount_rscw_r_13_0 (c : Dev nD) (d : Bool) : (Rd (F := F) X).amount (dcell c (qR cc0_scratch3 13 0 inb_S15x2_S1x1_13_0)) 0 d = N := rfl
theorem payload_rscw_r_13_0 (c : Dev nD) (d : Bool) : (Rd (F := F) X).payload (dcell c (qR cc0_scratch3 13 0 inb_S15x2_S1x1_13_0)) 0 d = owns (c : Thread nD τ) (slot aM 13 0 inb_S15x128x1024_S1x64x1024_13_0_0) fullShare (recvV X true 0 13 c) := rfl
theorem expect_rscw_r_13_0 (c : Dev nD) : (Rd (F := F) X).expect (dcell c (qR cc0_scratch3 13 0 inb_S15x2_S1x1_13_0)) 0 = N := by
  unfold Schedule.expect Schedule.amountOf; rw [duties_rscw_r_13_0, Finset.sum_singleton]; rfl
theorem duties_rscw_r_13_1 (c : Dev nD) : (Rd (F := F) X).duties (dcell c (qR cc0_scratch3 13 1 inb_S15x2_S1x1_13_1)) 0 = {false} := rfl
theorem amount_rscw_r_13_1 (c : Dev nD) (d : Bool) : (Rd (F := F) X).amount (dcell c (qR cc0_scratch3 13 1 inb_S15x2_S1x1_13_1)) 0 d = N := rfl
theorem payload_rscw_r_13_1 (c : Dev nD) (d : Bool) : (Rd (F := F) X).payload (dcell c (qR cc0_scratch3 13 1 inb_S15x2_S1x1_13_1)) 0 d = owns (c : Thread nD τ) (slot aM 13 64 inb_S15x128x1024_S1x64x1024_13_64_0) fullShare (recvV X true 1 13 c) := rfl
theorem expect_rscw_r_13_1 (c : Dev nD) : (Rd (F := F) X).expect (dcell c (qR cc0_scratch3 13 1 inb_S15x2_S1x1_13_1)) 0 = N := by
  unfold Schedule.expect Schedule.amountOf; rw [duties_rscw_r_13_1, Finset.sum_singleton]; rfl
theorem duties_rscw_r_14_0 (c : Dev nD) : (Rd (F := F) X).duties (dcell c (qR cc0_scratch3 14 0 inb_S15x2_S1x1_14_0)) 0 = {false} := rfl
theorem amount_rscw_r_14_0 (c : Dev nD) (d : Bool) : (Rd (F := F) X).amount (dcell c (qR cc0_scratch3 14 0 inb_S15x2_S1x1_14_0)) 0 d = N := rfl
theorem payload_rscw_r_14_0 (c : Dev nD) (d : Bool) : (Rd (F := F) X).payload (dcell c (qR cc0_scratch3 14 0 inb_S15x2_S1x1_14_0)) 0 d = owns (c : Thread nD τ) (slot aM 14 0 inb_S15x128x1024_S1x64x1024_14_0_0) fullShare (recvV X true 0 14 c) := rfl
theorem expect_rscw_r_14_0 (c : Dev nD) : (Rd (F := F) X).expect (dcell c (qR cc0_scratch3 14 0 inb_S15x2_S1x1_14_0)) 0 = N := by
  unfold Schedule.expect Schedule.amountOf; rw [duties_rscw_r_14_0, Finset.sum_singleton]; rfl
theorem duties_rscw_r_14_1 (c : Dev nD) : (Rd (F := F) X).duties (dcell c (qR cc0_scratch3 14 1 inb_S15x2_S1x1_14_1)) 0 = {false} := rfl
theorem amount_rscw_r_14_1 (c : Dev nD) (d : Bool) : (Rd (F := F) X).amount (dcell c (qR cc0_scratch3 14 1 inb_S15x2_S1x1_14_1)) 0 d = N := rfl
theorem payload_rscw_r_14_1 (c : Dev nD) (d : Bool) : (Rd (F := F) X).payload (dcell c (qR cc0_scratch3 14 1 inb_S15x2_S1x1_14_1)) 0 d = owns (c : Thread nD τ) (slot aM 14 64 inb_S15x128x1024_S1x64x1024_14_64_0) fullShare (recvV X true 1 14 c) := rfl
theorem expect_rscw_r_14_1 (c : Dev nD) : (Rd (F := F) X).expect (dcell c (qR cc0_scratch3 14 1 inb_S15x2_S1x1_14_1)) 0 = N := by
  unfold Schedule.expect Schedule.amountOf; rw [duties_rscw_r_14_1, Finset.sum_singleton]; rfl
theorem duties_rscw_s_0_0 (c : Dev nD) : (Rd (F := F) X).duties (dcell c (qS cc0_scratch2 0 inb_S4_S1_0)) 0 = {false} := rfl
theorem amount_rscw_s_0_0 (c : Dev nD) (d : Bool) : (Rd (F := F) X).amount (dcell c (qS cc0_scratch2 0 inb_S4_S1_0)) 0 d = N := rfl
theorem payload_rscw_s_0_0 (c : Dev nD) (d : Bool) : (Rd (F := F) X).payload (dcell c (qS cc0_scratch2 0 inb_S4_S1_0)) 0 d = iprop((rows xM (off true (c.val + 15) 0) (off_inb true _ 0)).view.loc (c : Thread nD τ) ↦[(rows xM (off true (c.val + 15) 0) (off_inb true _ 0)).view.set]{fullShare.right} X c) := rfl
theorem expect_rscw_s_0_0 (c : Dev nD) : (Rd (F := F) X).expect (dcell c (qS cc0_scratch2 0 inb_S4_S1_0)) 0 = N := by
  unfold Schedule.expect Schedule.amountOf; rw [duties_rscw_s_0_0, Finset.sum_singleton]; rfl
theorem duties_rscw_s_0_1 (c : Dev nD) : (Rd (F := F) X).duties (dcell c (qS cc0_scratch2 0 inb_S4_S1_0)) 1 = {false} := rfl
theorem amount_rscw_s_0_1 (c : Dev nD) (d : Bool) : (Rd (F := F) X).amount (dcell c (qS cc0_scratch2 0 inb_S4_S1_0)) 1 d = N := rfl
theorem payload_rscw_s_0_1 (c : Dev nD) (d : Bool) : (Rd (F := F) X).payload (dcell c (qS cc0_scratch2 0 inb_S4_S1_0)) 1 d = owns (c : Thread nD τ) (slot aM 1 0 inb_S15x128x1024_S1x64x1024_1_0_0) fullShare (addV X true 0 1 c) := rfl
theorem expect_rscw_s_0_1 (c : Dev nD) : (Rd (F := F) X).expect (dcell c (qS cc0_scratch2 0 inb_S4_S1_0)) 1 = N := by
  unfold Schedule.expect Schedule.amountOf; rw [duties_rscw_s_0_1, Finset.sum_singleton]; rfl
theorem duties_rscw_s_0_2 (c : Dev nD) : (Rd (F := F) X).duties (dcell c (qS cc0_scratch2 0 inb_S4_S1_0)) 2 = {false} := rfl
theorem amount_rscw_s_0_2 (c : Dev nD) (d : Bool) : (Rd (F := F) X).amount (dcell c (qS cc0_scratch2 0 inb_S4_S1_0)) 2 d = N := rfl
theorem payload_rscw_s_0_2 (c : Dev nD) (d : Bool) : (Rd (F := F) X).payload (dcell c (qS cc0_scratch2 0 inb_S4_S1_0)) 2 d = owns (c : Thread nD τ) (slot aM 3 0 inb_S15x128x1024_S1x64x1024_3_0_0) fullShare (addV X true 0 3 c) := rfl
theorem expect_rscw_s_0_2 (c : Dev nD) : (Rd (F := F) X).expect (dcell c (qS cc0_scratch2 0 inb_S4_S1_0)) 2 = N := by
  unfold Schedule.expect Schedule.amountOf; rw [duties_rscw_s_0_2, Finset.sum_singleton]; rfl
theorem duties_rscw_s_0_3 (c : Dev nD) : (Rd (F := F) X).duties (dcell c (qS cc0_scratch2 0 inb_S4_S1_0)) 3 = {false} := rfl
theorem amount_rscw_s_0_3 (c : Dev nD) (d : Bool) : (Rd (F := F) X).amount (dcell c (qS cc0_scratch2 0 inb_S4_S1_0)) 3 d = N := rfl
theorem payload_rscw_s_0_3 (c : Dev nD) (d : Bool) : (Rd (F := F) X).payload (dcell c (qS cc0_scratch2 0 inb_S4_S1_0)) 3 d = owns (c : Thread nD τ) (slot aM 5 0 inb_S15x128x1024_S1x64x1024_5_0_0) fullShare (addV X true 0 5 c) := rfl
theorem expect_rscw_s_0_3 (c : Dev nD) : (Rd (F := F) X).expect (dcell c (qS cc0_scratch2 0 inb_S4_S1_0)) 3 = N := by
  unfold Schedule.expect Schedule.amountOf; rw [duties_rscw_s_0_3, Finset.sum_singleton]; rfl
theorem duties_rscw_s_0_4 (c : Dev nD) : (Rd (F := F) X).duties (dcell c (qS cc0_scratch2 0 inb_S4_S1_0)) 4 = {false} := rfl
theorem amount_rscw_s_0_4 (c : Dev nD) (d : Bool) : (Rd (F := F) X).amount (dcell c (qS cc0_scratch2 0 inb_S4_S1_0)) 4 d = N := rfl
theorem payload_rscw_s_0_4 (c : Dev nD) (d : Bool) : (Rd (F := F) X).payload (dcell c (qS cc0_scratch2 0 inb_S4_S1_0)) 4 d = owns (c : Thread nD τ) (slot aM 7 0 inb_S15x128x1024_S1x64x1024_7_0_0) fullShare (addV X true 0 7 c) := rfl
theorem expect_rscw_s_0_4 (c : Dev nD) : (Rd (F := F) X).expect (dcell c (qS cc0_scratch2 0 inb_S4_S1_0)) 4 = N := by
  unfold Schedule.expect Schedule.amountOf; rw [duties_rscw_s_0_4, Finset.sum_singleton]; rfl
theorem duties_rscw_s_0_5 (c : Dev nD) : (Rd (F := F) X).duties (dcell c (qS cc0_scratch2 0 inb_S4_S1_0)) 5 = {false} := rfl
theorem amount_rscw_s_0_5 (c : Dev nD) (d : Bool) : (Rd (F := F) X).amount (dcell c (qS cc0_scratch2 0 inb_S4_S1_0)) 5 d = N := rfl
theorem payload_rscw_s_0_5 (c : Dev nD) (d : Bool) : (Rd (F := F) X).payload (dcell c (qS cc0_scratch2 0 inb_S4_S1_0)) 5 d = owns (c : Thread nD τ) (slot aM 9 0 inb_S15x128x1024_S1x64x1024_9_0_0) fullShare (addV X true 0 9 c) := rfl
theorem expect_rscw_s_0_5 (c : Dev nD) : (Rd (F := F) X).expect (dcell c (qS cc0_scratch2 0 inb_S4_S1_0)) 5 = N := by
  unfold Schedule.expect Schedule.amountOf; rw [duties_rscw_s_0_5, Finset.sum_singleton]; rfl
theorem duties_rscw_s_0_6 (c : Dev nD) : (Rd (F := F) X).duties (dcell c (qS cc0_scratch2 0 inb_S4_S1_0)) 6 = {false} := rfl
theorem amount_rscw_s_0_6 (c : Dev nD) (d : Bool) : (Rd (F := F) X).amount (dcell c (qS cc0_scratch2 0 inb_S4_S1_0)) 6 d = N := rfl
theorem payload_rscw_s_0_6 (c : Dev nD) (d : Bool) : (Rd (F := F) X).payload (dcell c (qS cc0_scratch2 0 inb_S4_S1_0)) 6 d = owns (c : Thread nD τ) (slot aM 11 0 inb_S15x128x1024_S1x64x1024_11_0_0) fullShare (addV X true 0 11 c) := rfl
theorem expect_rscw_s_0_6 (c : Dev nD) : (Rd (F := F) X).expect (dcell c (qS cc0_scratch2 0 inb_S4_S1_0)) 6 = N := by
  unfold Schedule.expect Schedule.amountOf; rw [duties_rscw_s_0_6, Finset.sum_singleton]; rfl
theorem duties_rscw_s_0_7 (c : Dev nD) : (Rd (F := F) X).duties (dcell c (qS cc0_scratch2 0 inb_S4_S1_0)) 7 = {false} := rfl
theorem amount_rscw_s_0_7 (c : Dev nD) (d : Bool) : (Rd (F := F) X).amount (dcell c (qS cc0_scratch2 0 inb_S4_S1_0)) 7 d = N := rfl
theorem payload_rscw_s_0_7 (c : Dev nD) (d : Bool) : (Rd (F := F) X).payload (dcell c (qS cc0_scratch2 0 inb_S4_S1_0)) 7 d = owns (c : Thread nD τ) (slot aM 13 0 inb_S15x128x1024_S1x64x1024_13_0_0) fullShare (addV X true 0 13 c) := rfl
theorem expect_rscw_s_0_7 (c : Dev nD) : (Rd (F := F) X).expect (dcell c (qS cc0_scratch2 0 inb_S4_S1_0)) 7 = N := by
  unfold Schedule.expect Schedule.amountOf; rw [duties_rscw_s_0_7, Finset.sum_singleton]; rfl
theorem later_rscw_s_0 (c : Dev nD) : ∀ r, 8 ≤ r → (Rd (F := F) X).duties (dcell c (qS cc0_scratch2 0 inb_S4_S1_0)) r = ∅ := fun r hr => by
  show (if r < 8 then ({false} : Finset Bool) else ∅) = ∅; exact if_neg (by omega)
theorem duties_rscw_s_1_0 (c : Dev nD) : (Rd (F := F) X).duties (dcell c (qS cc0_scratch2 1 inb_S4_S1_1)) 0 = {false} := rfl
theorem amount_rscw_s_1_0 (c : Dev nD) (d : Bool) : (Rd (F := F) X).amount (dcell c (qS cc0_scratch2 1 inb_S4_S1_1)) 0 d = N := rfl
theorem payload_rscw_s_1_0 (c : Dev nD) (d : Bool) : (Rd (F := F) X).payload (dcell c (qS cc0_scratch2 1 inb_S4_S1_1)) 0 d = iprop((rows xM (off true (c.val + 15) 1) (off_inb true _ 1)).view.loc (c : Thread nD τ) ↦[(rows xM (off true (c.val + 15) 1) (off_inb true _ 1)).view.set]{fullShare.right} X c) := rfl
theorem expect_rscw_s_1_0 (c : Dev nD) : (Rd (F := F) X).expect (dcell c (qS cc0_scratch2 1 inb_S4_S1_1)) 0 = N := by
  unfold Schedule.expect Schedule.amountOf; rw [duties_rscw_s_1_0, Finset.sum_singleton]; rfl
theorem duties_rscw_s_1_1 (c : Dev nD) : (Rd (F := F) X).duties (dcell c (qS cc0_scratch2 1 inb_S4_S1_1)) 1 = {false} := rfl
theorem amount_rscw_s_1_1 (c : Dev nD) (d : Bool) : (Rd (F := F) X).amount (dcell c (qS cc0_scratch2 1 inb_S4_S1_1)) 1 d = N := rfl
theorem payload_rscw_s_1_1 (c : Dev nD) (d : Bool) : (Rd (F := F) X).payload (dcell c (qS cc0_scratch2 1 inb_S4_S1_1)) 1 d = owns (c : Thread nD τ) (slot aM 1 64 inb_S15x128x1024_S1x64x1024_1_64_0) fullShare (addV X true 1 1 c) := rfl
theorem expect_rscw_s_1_1 (c : Dev nD) : (Rd (F := F) X).expect (dcell c (qS cc0_scratch2 1 inb_S4_S1_1)) 1 = N := by
  unfold Schedule.expect Schedule.amountOf; rw [duties_rscw_s_1_1, Finset.sum_singleton]; rfl
theorem duties_rscw_s_1_2 (c : Dev nD) : (Rd (F := F) X).duties (dcell c (qS cc0_scratch2 1 inb_S4_S1_1)) 2 = {false} := rfl
theorem amount_rscw_s_1_2 (c : Dev nD) (d : Bool) : (Rd (F := F) X).amount (dcell c (qS cc0_scratch2 1 inb_S4_S1_1)) 2 d = N := rfl
theorem payload_rscw_s_1_2 (c : Dev nD) (d : Bool) : (Rd (F := F) X).payload (dcell c (qS cc0_scratch2 1 inb_S4_S1_1)) 2 d = owns (c : Thread nD τ) (slot aM 3 64 inb_S15x128x1024_S1x64x1024_3_64_0) fullShare (addV X true 1 3 c) := rfl
theorem expect_rscw_s_1_2 (c : Dev nD) : (Rd (F := F) X).expect (dcell c (qS cc0_scratch2 1 inb_S4_S1_1)) 2 = N := by
  unfold Schedule.expect Schedule.amountOf; rw [duties_rscw_s_1_2, Finset.sum_singleton]; rfl
theorem duties_rscw_s_1_3 (c : Dev nD) : (Rd (F := F) X).duties (dcell c (qS cc0_scratch2 1 inb_S4_S1_1)) 3 = {false} := rfl
theorem amount_rscw_s_1_3 (c : Dev nD) (d : Bool) : (Rd (F := F) X).amount (dcell c (qS cc0_scratch2 1 inb_S4_S1_1)) 3 d = N := rfl
theorem payload_rscw_s_1_3 (c : Dev nD) (d : Bool) : (Rd (F := F) X).payload (dcell c (qS cc0_scratch2 1 inb_S4_S1_1)) 3 d = owns (c : Thread nD τ) (slot aM 5 64 inb_S15x128x1024_S1x64x1024_5_64_0) fullShare (addV X true 1 5 c) := rfl
theorem expect_rscw_s_1_3 (c : Dev nD) : (Rd (F := F) X).expect (dcell c (qS cc0_scratch2 1 inb_S4_S1_1)) 3 = N := by
  unfold Schedule.expect Schedule.amountOf; rw [duties_rscw_s_1_3, Finset.sum_singleton]; rfl
theorem duties_rscw_s_1_4 (c : Dev nD) : (Rd (F := F) X).duties (dcell c (qS cc0_scratch2 1 inb_S4_S1_1)) 4 = {false} := rfl
theorem amount_rscw_s_1_4 (c : Dev nD) (d : Bool) : (Rd (F := F) X).amount (dcell c (qS cc0_scratch2 1 inb_S4_S1_1)) 4 d = N := rfl
theorem payload_rscw_s_1_4 (c : Dev nD) (d : Bool) : (Rd (F := F) X).payload (dcell c (qS cc0_scratch2 1 inb_S4_S1_1)) 4 d = owns (c : Thread nD τ) (slot aM 7 64 inb_S15x128x1024_S1x64x1024_7_64_0) fullShare (addV X true 1 7 c) := rfl
theorem expect_rscw_s_1_4 (c : Dev nD) : (Rd (F := F) X).expect (dcell c (qS cc0_scratch2 1 inb_S4_S1_1)) 4 = N := by
  unfold Schedule.expect Schedule.amountOf; rw [duties_rscw_s_1_4, Finset.sum_singleton]; rfl
theorem duties_rscw_s_1_5 (c : Dev nD) : (Rd (F := F) X).duties (dcell c (qS cc0_scratch2 1 inb_S4_S1_1)) 5 = {false} := rfl
theorem amount_rscw_s_1_5 (c : Dev nD) (d : Bool) : (Rd (F := F) X).amount (dcell c (qS cc0_scratch2 1 inb_S4_S1_1)) 5 d = N := rfl
theorem payload_rscw_s_1_5 (c : Dev nD) (d : Bool) : (Rd (F := F) X).payload (dcell c (qS cc0_scratch2 1 inb_S4_S1_1)) 5 d = owns (c : Thread nD τ) (slot aM 9 64 inb_S15x128x1024_S1x64x1024_9_64_0) fullShare (addV X true 1 9 c) := rfl
theorem expect_rscw_s_1_5 (c : Dev nD) : (Rd (F := F) X).expect (dcell c (qS cc0_scratch2 1 inb_S4_S1_1)) 5 = N := by
  unfold Schedule.expect Schedule.amountOf; rw [duties_rscw_s_1_5, Finset.sum_singleton]; rfl
theorem duties_rscw_s_1_6 (c : Dev nD) : (Rd (F := F) X).duties (dcell c (qS cc0_scratch2 1 inb_S4_S1_1)) 6 = {false} := rfl
theorem amount_rscw_s_1_6 (c : Dev nD) (d : Bool) : (Rd (F := F) X).amount (dcell c (qS cc0_scratch2 1 inb_S4_S1_1)) 6 d = N := rfl
theorem payload_rscw_s_1_6 (c : Dev nD) (d : Bool) : (Rd (F := F) X).payload (dcell c (qS cc0_scratch2 1 inb_S4_S1_1)) 6 d = owns (c : Thread nD τ) (slot aM 11 64 inb_S15x128x1024_S1x64x1024_11_64_0) fullShare (addV X true 1 11 c) := rfl
theorem expect_rscw_s_1_6 (c : Dev nD) : (Rd (F := F) X).expect (dcell c (qS cc0_scratch2 1 inb_S4_S1_1)) 6 = N := by
  unfold Schedule.expect Schedule.amountOf; rw [duties_rscw_s_1_6, Finset.sum_singleton]; rfl
theorem duties_rscw_s_1_7 (c : Dev nD) : (Rd (F := F) X).duties (dcell c (qS cc0_scratch2 1 inb_S4_S1_1)) 7 = {false} := rfl
theorem amount_rscw_s_1_7 (c : Dev nD) (d : Bool) : (Rd (F := F) X).amount (dcell c (qS cc0_scratch2 1 inb_S4_S1_1)) 7 d = N := rfl
theorem payload_rscw_s_1_7 (c : Dev nD) (d : Bool) : (Rd (F := F) X).payload (dcell c (qS cc0_scratch2 1 inb_S4_S1_1)) 7 d = owns (c : Thread nD τ) (slot aM 13 64 inb_S15x128x1024_S1x64x1024_13_64_0) fullShare (addV X true 1 13 c) := rfl
theorem expect_rscw_s_1_7 (c : Dev nD) : (Rd (F := F) X).expect (dcell c (qS cc0_scratch2 1 inb_S4_S1_1)) 7 = N := by
  unfold Schedule.expect Schedule.amountOf; rw [duties_rscw_s_1_7, Finset.sum_singleton]; rfl
theorem later_rscw_s_1 (c : Dev nD) : ∀ r, 8 ≤ r → (Rd (F := F) X).duties (dcell c (qS cc0_scratch2 1 inb_S4_S1_1)) r = ∅ := fun r hr => by
  show (if r < 8 then ({false} : Finset Bool) else ∅) = ∅; exact if_neg (by omega)
theorem duties_rscw_s_2_0 (c : Dev nD) : (Rd (F := F) X).duties (dcell c (qS cc0_scratch2 2 inb_S4_S1_2)) 0 = {false} := rfl
theorem amount_rscw_s_2_0 (c : Dev nD) (d : Bool) : (Rd (F := F) X).amount (dcell c (qS cc0_scratch2 2 inb_S4_S1_2)) 0 d = N := rfl
theorem payload_rscw_s_2_0 (c : Dev nD) (d : Bool) : (Rd (F := F) X).payload (dcell c (qS cc0_scratch2 2 inb_S4_S1_2)) 0 d = owns (c : Thread nD τ) (slot aM 0 0 inb_S15x128x1024_S1x64x1024_0_0_0) fullShare (addV X true 0 0 c) := rfl
theorem expect_rscw_s_2_0 (c : Dev nD) : (Rd (F := F) X).expect (dcell c (qS cc0_scratch2 2 inb_S4_S1_2)) 0 = N := by
  unfold Schedule.expect Schedule.amountOf; rw [duties_rscw_s_2_0, Finset.sum_singleton]; rfl
theorem duties_rscw_s_2_1 (c : Dev nD) : (Rd (F := F) X).duties (dcell c (qS cc0_scratch2 2 inb_S4_S1_2)) 1 = {false} := rfl
theorem amount_rscw_s_2_1 (c : Dev nD) (d : Bool) : (Rd (F := F) X).amount (dcell c (qS cc0_scratch2 2 inb_S4_S1_2)) 1 d = N := rfl
theorem payload_rscw_s_2_1 (c : Dev nD) (d : Bool) : (Rd (F := F) X).payload (dcell c (qS cc0_scratch2 2 inb_S4_S1_2)) 1 d = owns (c : Thread nD τ) (slot aM 2 0 inb_S15x128x1024_S1x64x1024_2_0_0) fullShare (addV X true 0 2 c) := rfl
theorem expect_rscw_s_2_1 (c : Dev nD) : (Rd (F := F) X).expect (dcell c (qS cc0_scratch2 2 inb_S4_S1_2)) 1 = N := by
  unfold Schedule.expect Schedule.amountOf; rw [duties_rscw_s_2_1, Finset.sum_singleton]; rfl
theorem duties_rscw_s_2_2 (c : Dev nD) : (Rd (F := F) X).duties (dcell c (qS cc0_scratch2 2 inb_S4_S1_2)) 2 = {false} := rfl
theorem amount_rscw_s_2_2 (c : Dev nD) (d : Bool) : (Rd (F := F) X).amount (dcell c (qS cc0_scratch2 2 inb_S4_S1_2)) 2 d = N := rfl
theorem payload_rscw_s_2_2 (c : Dev nD) (d : Bool) : (Rd (F := F) X).payload (dcell c (qS cc0_scratch2 2 inb_S4_S1_2)) 2 d = owns (c : Thread nD τ) (slot aM 4 0 inb_S15x128x1024_S1x64x1024_4_0_0) fullShare (addV X true 0 4 c) := rfl
theorem expect_rscw_s_2_2 (c : Dev nD) : (Rd (F := F) X).expect (dcell c (qS cc0_scratch2 2 inb_S4_S1_2)) 2 = N := by
  unfold Schedule.expect Schedule.amountOf; rw [duties_rscw_s_2_2, Finset.sum_singleton]; rfl
theorem duties_rscw_s_2_3 (c : Dev nD) : (Rd (F := F) X).duties (dcell c (qS cc0_scratch2 2 inb_S4_S1_2)) 3 = {false} := rfl
theorem amount_rscw_s_2_3 (c : Dev nD) (d : Bool) : (Rd (F := F) X).amount (dcell c (qS cc0_scratch2 2 inb_S4_S1_2)) 3 d = N := rfl
theorem payload_rscw_s_2_3 (c : Dev nD) (d : Bool) : (Rd (F := F) X).payload (dcell c (qS cc0_scratch2 2 inb_S4_S1_2)) 3 d = owns (c : Thread nD τ) (slot aM 6 0 inb_S15x128x1024_S1x64x1024_6_0_0) fullShare (addV X true 0 6 c) := rfl
theorem expect_rscw_s_2_3 (c : Dev nD) : (Rd (F := F) X).expect (dcell c (qS cc0_scratch2 2 inb_S4_S1_2)) 3 = N := by
  unfold Schedule.expect Schedule.amountOf; rw [duties_rscw_s_2_3, Finset.sum_singleton]; rfl
theorem duties_rscw_s_2_4 (c : Dev nD) : (Rd (F := F) X).duties (dcell c (qS cc0_scratch2 2 inb_S4_S1_2)) 4 = {false} := rfl
theorem amount_rscw_s_2_4 (c : Dev nD) (d : Bool) : (Rd (F := F) X).amount (dcell c (qS cc0_scratch2 2 inb_S4_S1_2)) 4 d = N := rfl
theorem payload_rscw_s_2_4 (c : Dev nD) (d : Bool) : (Rd (F := F) X).payload (dcell c (qS cc0_scratch2 2 inb_S4_S1_2)) 4 d = owns (c : Thread nD τ) (slot aM 8 0 inb_S15x128x1024_S1x64x1024_8_0_0) fullShare (addV X true 0 8 c) := rfl
theorem expect_rscw_s_2_4 (c : Dev nD) : (Rd (F := F) X).expect (dcell c (qS cc0_scratch2 2 inb_S4_S1_2)) 4 = N := by
  unfold Schedule.expect Schedule.amountOf; rw [duties_rscw_s_2_4, Finset.sum_singleton]; rfl
theorem duties_rscw_s_2_5 (c : Dev nD) : (Rd (F := F) X).duties (dcell c (qS cc0_scratch2 2 inb_S4_S1_2)) 5 = {false} := rfl
theorem amount_rscw_s_2_5 (c : Dev nD) (d : Bool) : (Rd (F := F) X).amount (dcell c (qS cc0_scratch2 2 inb_S4_S1_2)) 5 d = N := rfl
theorem payload_rscw_s_2_5 (c : Dev nD) (d : Bool) : (Rd (F := F) X).payload (dcell c (qS cc0_scratch2 2 inb_S4_S1_2)) 5 d = owns (c : Thread nD τ) (slot aM 10 0 inb_S15x128x1024_S1x64x1024_10_0_0) fullShare (addV X true 0 10 c) := rfl
theorem expect_rscw_s_2_5 (c : Dev nD) : (Rd (F := F) X).expect (dcell c (qS cc0_scratch2 2 inb_S4_S1_2)) 5 = N := by
  unfold Schedule.expect Schedule.amountOf; rw [duties_rscw_s_2_5, Finset.sum_singleton]; rfl
theorem duties_rscw_s_2_6 (c : Dev nD) : (Rd (F := F) X).duties (dcell c (qS cc0_scratch2 2 inb_S4_S1_2)) 6 = {false} := rfl
theorem amount_rscw_s_2_6 (c : Dev nD) (d : Bool) : (Rd (F := F) X).amount (dcell c (qS cc0_scratch2 2 inb_S4_S1_2)) 6 d = N := rfl
theorem payload_rscw_s_2_6 (c : Dev nD) (d : Bool) : (Rd (F := F) X).payload (dcell c (qS cc0_scratch2 2 inb_S4_S1_2)) 6 d = owns (c : Thread nD τ) (slot aM 12 0 inb_S15x128x1024_S1x64x1024_12_0_0) fullShare (addV X true 0 12 c) := rfl
theorem expect_rscw_s_2_6 (c : Dev nD) : (Rd (F := F) X).expect (dcell c (qS cc0_scratch2 2 inb_S4_S1_2)) 6 = N := by
  unfold Schedule.expect Schedule.amountOf; rw [duties_rscw_s_2_6, Finset.sum_singleton]; rfl
theorem later_rscw_s_2 (c : Dev nD) : ∀ r, 7 ≤ r → (Rd (F := F) X).duties (dcell c (qS cc0_scratch2 2 inb_S4_S1_2)) r = ∅ := fun r hr => by
  show (if r < 7 then ({false} : Finset Bool) else ∅) = ∅; exact if_neg (by omega)
theorem duties_rscw_s_3_0 (c : Dev nD) : (Rd (F := F) X).duties (dcell c (qS cc0_scratch2 3 inb_S4_S1_3)) 0 = {false} := rfl
theorem amount_rscw_s_3_0 (c : Dev nD) (d : Bool) : (Rd (F := F) X).amount (dcell c (qS cc0_scratch2 3 inb_S4_S1_3)) 0 d = N := rfl
theorem payload_rscw_s_3_0 (c : Dev nD) (d : Bool) : (Rd (F := F) X).payload (dcell c (qS cc0_scratch2 3 inb_S4_S1_3)) 0 d = owns (c : Thread nD τ) (slot aM 0 64 inb_S15x128x1024_S1x64x1024_0_64_0) fullShare (addV X true 1 0 c) := rfl
theorem expect_rscw_s_3_0 (c : Dev nD) : (Rd (F := F) X).expect (dcell c (qS cc0_scratch2 3 inb_S4_S1_3)) 0 = N := by
  unfold Schedule.expect Schedule.amountOf; rw [duties_rscw_s_3_0, Finset.sum_singleton]; rfl
theorem duties_rscw_s_3_1 (c : Dev nD) : (Rd (F := F) X).duties (dcell c (qS cc0_scratch2 3 inb_S4_S1_3)) 1 = {false} := rfl
theorem amount_rscw_s_3_1 (c : Dev nD) (d : Bool) : (Rd (F := F) X).amount (dcell c (qS cc0_scratch2 3 inb_S4_S1_3)) 1 d = N := rfl
theorem payload_rscw_s_3_1 (c : Dev nD) (d : Bool) : (Rd (F := F) X).payload (dcell c (qS cc0_scratch2 3 inb_S4_S1_3)) 1 d = owns (c : Thread nD τ) (slot aM 2 64 inb_S15x128x1024_S1x64x1024_2_64_0) fullShare (addV X true 1 2 c) := rfl
theorem expect_rscw_s_3_1 (c : Dev nD) : (Rd (F := F) X).expect (dcell c (qS cc0_scratch2 3 inb_S4_S1_3)) 1 = N := by
  unfold Schedule.expect Schedule.amountOf; rw [duties_rscw_s_3_1, Finset.sum_singleton]; rfl
theorem duties_rscw_s_3_2 (c : Dev nD) : (Rd (F := F) X).duties (dcell c (qS cc0_scratch2 3 inb_S4_S1_3)) 2 = {false} := rfl
theorem amount_rscw_s_3_2 (c : Dev nD) (d : Bool) : (Rd (F := F) X).amount (dcell c (qS cc0_scratch2 3 inb_S4_S1_3)) 2 d = N := rfl
theorem payload_rscw_s_3_2 (c : Dev nD) (d : Bool) : (Rd (F := F) X).payload (dcell c (qS cc0_scratch2 3 inb_S4_S1_3)) 2 d = owns (c : Thread nD τ) (slot aM 4 64 inb_S15x128x1024_S1x64x1024_4_64_0) fullShare (addV X true 1 4 c) := rfl
theorem expect_rscw_s_3_2 (c : Dev nD) : (Rd (F := F) X).expect (dcell c (qS cc0_scratch2 3 inb_S4_S1_3)) 2 = N := by
  unfold Schedule.expect Schedule.amountOf; rw [duties_rscw_s_3_2, Finset.sum_singleton]; rfl
theorem duties_rscw_s_3_3 (c : Dev nD) : (Rd (F := F) X).duties (dcell c (qS cc0_scratch2 3 inb_S4_S1_3)) 3 = {false} := rfl
theorem amount_rscw_s_3_3 (c : Dev nD) (d : Bool) : (Rd (F := F) X).amount (dcell c (qS cc0_scratch2 3 inb_S4_S1_3)) 3 d = N := rfl
theorem payload_rscw_s_3_3 (c : Dev nD) (d : Bool) : (Rd (F := F) X).payload (dcell c (qS cc0_scratch2 3 inb_S4_S1_3)) 3 d = owns (c : Thread nD τ) (slot aM 6 64 inb_S15x128x1024_S1x64x1024_6_64_0) fullShare (addV X true 1 6 c) := rfl
theorem expect_rscw_s_3_3 (c : Dev nD) : (Rd (F := F) X).expect (dcell c (qS cc0_scratch2 3 inb_S4_S1_3)) 3 = N := by
  unfold Schedule.expect Schedule.amountOf; rw [duties_rscw_s_3_3, Finset.sum_singleton]; rfl
theorem duties_rscw_s_3_4 (c : Dev nD) : (Rd (F := F) X).duties (dcell c (qS cc0_scratch2 3 inb_S4_S1_3)) 4 = {false} := rfl
theorem amount_rscw_s_3_4 (c : Dev nD) (d : Bool) : (Rd (F := F) X).amount (dcell c (qS cc0_scratch2 3 inb_S4_S1_3)) 4 d = N := rfl
theorem payload_rscw_s_3_4 (c : Dev nD) (d : Bool) : (Rd (F := F) X).payload (dcell c (qS cc0_scratch2 3 inb_S4_S1_3)) 4 d = owns (c : Thread nD τ) (slot aM 8 64 inb_S15x128x1024_S1x64x1024_8_64_0) fullShare (addV X true 1 8 c) := rfl
theorem expect_rscw_s_3_4 (c : Dev nD) : (Rd (F := F) X).expect (dcell c (qS cc0_scratch2 3 inb_S4_S1_3)) 4 = N := by
  unfold Schedule.expect Schedule.amountOf; rw [duties_rscw_s_3_4, Finset.sum_singleton]; rfl
theorem duties_rscw_s_3_5 (c : Dev nD) : (Rd (F := F) X).duties (dcell c (qS cc0_scratch2 3 inb_S4_S1_3)) 5 = {false} := rfl
theorem amount_rscw_s_3_5 (c : Dev nD) (d : Bool) : (Rd (F := F) X).amount (dcell c (qS cc0_scratch2 3 inb_S4_S1_3)) 5 d = N := rfl
theorem payload_rscw_s_3_5 (c : Dev nD) (d : Bool) : (Rd (F := F) X).payload (dcell c (qS cc0_scratch2 3 inb_S4_S1_3)) 5 d = owns (c : Thread nD τ) (slot aM 10 64 inb_S15x128x1024_S1x64x1024_10_64_0) fullShare (addV X true 1 10 c) := rfl
theorem expect_rscw_s_3_5 (c : Dev nD) : (Rd (F := F) X).expect (dcell c (qS cc0_scratch2 3 inb_S4_S1_3)) 5 = N := by
  unfold Schedule.expect Schedule.amountOf; rw [duties_rscw_s_3_5, Finset.sum_singleton]; rfl
theorem duties_rscw_s_3_6 (c : Dev nD) : (Rd (F := F) X).duties (dcell c (qS cc0_scratch2 3 inb_S4_S1_3)) 6 = {false} := rfl
theorem amount_rscw_s_3_6 (c : Dev nD) (d : Bool) : (Rd (F := F) X).amount (dcell c (qS cc0_scratch2 3 inb_S4_S1_3)) 6 d = N := rfl
theorem payload_rscw_s_3_6 (c : Dev nD) (d : Bool) : (Rd (F := F) X).payload (dcell c (qS cc0_scratch2 3 inb_S4_S1_3)) 6 d = owns (c : Thread nD τ) (slot aM 12 64 inb_S15x128x1024_S1x64x1024_12_64_0) fullShare (addV X true 1 12 c) := rfl
theorem expect_rscw_s_3_6 (c : Dev nD) : (Rd (F := F) X).expect (dcell c (qS cc0_scratch2 3 inb_S4_S1_3)) 6 = N := by
  unfold Schedule.expect Schedule.amountOf; rw [duties_rscw_s_3_6, Finset.sum_singleton]; rfl
theorem later_rscw_s_3 (c : Dev nD) : ∀ r, 7 ≤ r → (Rd (F := F) X).duties (dcell c (qS cc0_scratch2 3 inb_S4_S1_3)) r = ∅ := fun r hr => by
  show (if r < 7 then ({false} : Finset Bool) else ∅) = ∅; exact if_neg (by omega)
theorem later_rscw_r_0_0 (c : Dev nD) : ∀ r, 1 ≤ r → (Rd (F := F) X).duties (dcell c (qR cc0_scratch3 0 0 inb_S15x2_S1x1_0_0)) r = ∅ := fun r hr => by
  show (if r = 0 then ({false} : Finset Bool) else ∅) = ∅; exact if_neg (by omega)
theorem later_rscw_r_0_1 (c : Dev nD) : ∀ r, 1 ≤ r → (Rd (F := F) X).duties (dcell c (qR cc0_scratch3 0 1 inb_S15x2_S1x1_0_1)) r = ∅ := fun r hr => by
  show (if r = 0 then ({false} : Finset Bool) else ∅) = ∅; exact if_neg (by omega)
theorem later_rscw_r_1_0 (c : Dev nD) : ∀ r, 1 ≤ r → (Rd (F := F) X).duties (dcell c (qR cc0_scratch3 1 0 inb_S15x2_S1x1_1_0)) r = ∅ := fun r hr => by
  show (if r = 0 then ({false} : Finset Bool) else ∅) = ∅; exact if_neg (by omega)
theorem later_rscw_r_1_1 (c : Dev nD) : ∀ r, 1 ≤ r → (Rd (F := F) X).duties (dcell c (qR cc0_scratch3 1 1 inb_S15x2_S1x1_1_1)) r = ∅ := fun r hr => by
  show (if r = 0 then ({false} : Finset Bool) else ∅) = ∅; exact if_neg (by omega)
theorem later_rscw_r_2_0 (c : Dev nD) : ∀ r, 1 ≤ r → (Rd (F := F) X).duties (dcell c (qR cc0_scratch3 2 0 inb_S15x2_S1x1_2_0)) r = ∅ := fun r hr => by
  show (if r = 0 then ({false} : Finset Bool) else ∅) = ∅; exact if_neg (by omega)
theorem later_rscw_r_2_1 (c : Dev nD) : ∀ r, 1 ≤ r → (Rd (F := F) X).duties (dcell c (qR cc0_scratch3 2 1 inb_S15x2_S1x1_2_1)) r = ∅ := fun r hr => by
  show (if r = 0 then ({false} : Finset Bool) else ∅) = ∅; exact if_neg (by omega)
theorem later_rscw_r_3_0 (c : Dev nD) : ∀ r, 1 ≤ r → (Rd (F := F) X).duties (dcell c (qR cc0_scratch3 3 0 inb_S15x2_S1x1_3_0)) r = ∅ := fun r hr => by
  show (if r = 0 then ({false} : Finset Bool) else ∅) = ∅; exact if_neg (by omega)
theorem later_rscw_r_3_1 (c : Dev nD) : ∀ r, 1 ≤ r → (Rd (F := F) X).duties (dcell c (qR cc0_scratch3 3 1 inb_S15x2_S1x1_3_1)) r = ∅ := fun r hr => by
  show (if r = 0 then ({false} : Finset Bool) else ∅) = ∅; exact if_neg (by omega)
theorem later_rscw_r_4_0 (c : Dev nD) : ∀ r, 1 ≤ r → (Rd (F := F) X).duties (dcell c (qR cc0_scratch3 4 0 inb_S15x2_S1x1_4_0)) r = ∅ := fun r hr => by
  show (if r = 0 then ({false} : Finset Bool) else ∅) = ∅; exact if_neg (by omega)
theorem later_rscw_r_4_1 (c : Dev nD) : ∀ r, 1 ≤ r → (Rd (F := F) X).duties (dcell c (qR cc0_scratch3 4 1 inb_S15x2_S1x1_4_1)) r = ∅ := fun r hr => by
  show (if r = 0 then ({false} : Finset Bool) else ∅) = ∅; exact if_neg (by omega)
theorem later_rscw_r_5_0 (c : Dev nD) : ∀ r, 1 ≤ r → (Rd (F := F) X).duties (dcell c (qR cc0_scratch3 5 0 inb_S15x2_S1x1_5_0)) r = ∅ := fun r hr => by
  show (if r = 0 then ({false} : Finset Bool) else ∅) = ∅; exact if_neg (by omega)
theorem later_rscw_r_5_1 (c : Dev nD) : ∀ r, 1 ≤ r → (Rd (F := F) X).duties (dcell c (qR cc0_scratch3 5 1 inb_S15x2_S1x1_5_1)) r = ∅ := fun r hr => by
  show (if r = 0 then ({false} : Finset Bool) else ∅) = ∅; exact if_neg (by omega)
theorem later_rscw_r_6_0 (c : Dev nD) : ∀ r, 1 ≤ r → (Rd (F := F) X).duties (dcell c (qR cc0_scratch3 6 0 inb_S15x2_S1x1_6_0)) r = ∅ := fun r hr => by
  show (if r = 0 then ({false} : Finset Bool) else ∅) = ∅; exact if_neg (by omega)
theorem later_rscw_r_6_1 (c : Dev nD) : ∀ r, 1 ≤ r → (Rd (F := F) X).duties (dcell c (qR cc0_scratch3 6 1 inb_S15x2_S1x1_6_1)) r = ∅ := fun r hr => by
  show (if r = 0 then ({false} : Finset Bool) else ∅) = ∅; exact if_neg (by omega)
theorem later_rscw_r_7_0 (c : Dev nD) : ∀ r, 1 ≤ r → (Rd (F := F) X).duties (dcell c (qR cc0_scratch3 7 0 inb_S15x2_S1x1_7_0)) r = ∅ := fun r hr => by
  show (if r = 0 then ({false} : Finset Bool) else ∅) = ∅; exact if_neg (by omega)
theorem later_rscw_r_7_1 (c : Dev nD) : ∀ r, 1 ≤ r → (Rd (F := F) X).duties (dcell c (qR cc0_scratch3 7 1 inb_S15x2_S1x1_7_1)) r = ∅ := fun r hr => by
  show (if r = 0 then ({false} : Finset Bool) else ∅) = ∅; exact if_neg (by omega)
theorem later_rscw_r_8_0 (c : Dev nD) : ∀ r, 1 ≤ r → (Rd (F := F) X).duties (dcell c (qR cc0_scratch3 8 0 inb_S15x2_S1x1_8_0)) r = ∅ := fun r hr => by
  show (if r = 0 then ({false} : Finset Bool) else ∅) = ∅; exact if_neg (by omega)
theorem later_rscw_r_8_1 (c : Dev nD) : ∀ r, 1 ≤ r → (Rd (F := F) X).duties (dcell c (qR cc0_scratch3 8 1 inb_S15x2_S1x1_8_1)) r = ∅ := fun r hr => by
  show (if r = 0 then ({false} : Finset Bool) else ∅) = ∅; exact if_neg (by omega)
theorem later_rscw_r_9_0 (c : Dev nD) : ∀ r, 1 ≤ r → (Rd (F := F) X).duties (dcell c (qR cc0_scratch3 9 0 inb_S15x2_S1x1_9_0)) r = ∅ := fun r hr => by
  show (if r = 0 then ({false} : Finset Bool) else ∅) = ∅; exact if_neg (by omega)
theorem later_rscw_r_9_1 (c : Dev nD) : ∀ r, 1 ≤ r → (Rd (F := F) X).duties (dcell c (qR cc0_scratch3 9 1 inb_S15x2_S1x1_9_1)) r = ∅ := fun r hr => by
  show (if r = 0 then ({false} : Finset Bool) else ∅) = ∅; exact if_neg (by omega)
theorem later_rscw_r_10_0 (c : Dev nD) : ∀ r, 1 ≤ r → (Rd (F := F) X).duties (dcell c (qR cc0_scratch3 10 0 inb_S15x2_S1x1_10_0)) r = ∅ := fun r hr => by
  show (if r = 0 then ({false} : Finset Bool) else ∅) = ∅; exact if_neg (by omega)
theorem later_rscw_r_10_1 (c : Dev nD) : ∀ r, 1 ≤ r → (Rd (F := F) X).duties (dcell c (qR cc0_scratch3 10 1 inb_S15x2_S1x1_10_1)) r = ∅ := fun r hr => by
  show (if r = 0 then ({false} : Finset Bool) else ∅) = ∅; exact if_neg (by omega)
theorem later_rscw_r_11_0 (c : Dev nD) : ∀ r, 1 ≤ r → (Rd (F := F) X).duties (dcell c (qR cc0_scratch3 11 0 inb_S15x2_S1x1_11_0)) r = ∅ := fun r hr => by
  show (if r = 0 then ({false} : Finset Bool) else ∅) = ∅; exact if_neg (by omega)
theorem later_rscw_r_11_1 (c : Dev nD) : ∀ r, 1 ≤ r → (Rd (F := F) X).duties (dcell c (qR cc0_scratch3 11 1 inb_S15x2_S1x1_11_1)) r = ∅ := fun r hr => by
  show (if r = 0 then ({false} : Finset Bool) else ∅) = ∅; exact if_neg (by omega)
theorem later_rscw_r_12_0 (c : Dev nD) : ∀ r, 1 ≤ r → (Rd (F := F) X).duties (dcell c (qR cc0_scratch3 12 0 inb_S15x2_S1x1_12_0)) r = ∅ := fun r hr => by
  show (if r = 0 then ({false} : Finset Bool) else ∅) = ∅; exact if_neg (by omega)
theorem later_rscw_r_12_1 (c : Dev nD) : ∀ r, 1 ≤ r → (Rd (F := F) X).duties (dcell c (qR cc0_scratch3 12 1 inb_S15x2_S1x1_12_1)) r = ∅ := fun r hr => by
  show (if r = 0 then ({false} : Finset Bool) else ∅) = ∅; exact if_neg (by omega)
theorem later_rscw_r_13_0 (c : Dev nD) : ∀ r, 1 ≤ r → (Rd (F := F) X).duties (dcell c (qR cc0_scratch3 13 0 inb_S15x2_S1x1_13_0)) r = ∅ := fun r hr => by
  show (if r = 0 then ({false} : Finset Bool) else ∅) = ∅; exact if_neg (by omega)
theorem later_rscw_r_13_1 (c : Dev nD) : ∀ r, 1 ≤ r → (Rd (F := F) X).duties (dcell c (qR cc0_scratch3 13 1 inb_S15x2_S1x1_13_1)) r = ∅ := fun r hr => by
  show (if r = 0 then ({false} : Finset Bool) else ∅) = ∅; exact if_neg (by omega)
theorem later_rscw_r_14_0 (c : Dev nD) : ∀ r, 1 ≤ r → (Rd (F := F) X).duties (dcell c (qR cc0_scratch3 14 0 inb_S15x2_S1x1_14_0)) r = ∅ := fun r hr => by
  show (if r = 0 then ({false} : Finset Bool) else ∅) = ∅; exact if_neg (by omega)
theorem later_rscw_r_14_1 (c : Dev nD) : ∀ r, 1 ≤ r → (Rd (F := F) X).duties (dcell c (qR cc0_scratch3 14 1 inb_S15x2_S1x1_14_1)) r = ∅ := fun r hr => by
  show (if r = 0 then ({false} : Finset Bool) else ∅) = ∅; exact if_neg (by omega)
theorem duties_rsccw_r_0_0 (c : Dev nD) : (Rd (F := F) X).duties (dcell c (qR cc0_scratch5 0 0 inb_S15x2_S1x1_0_0)) 0 = {false} := rfl
theorem amount_rsccw_r_0_0 (c : Dev nD) (d : Bool) : (Rd (F := F) X).amount (dcell c (qR cc0_scratch5 0 0 inb_S15x2_S1x1_0_0)) 0 d = N := rfl
theorem payload_rsccw_r_0_0 (c : Dev nD) (d : Bool) : (Rd (F := F) X).payload (dcell c (qR cc0_scratch5 0 0 inb_S15x2_S1x1_0_0)) 0 d = owns (c : Thread nD τ) (slot bM 0 0 inb_S15x128x1024_S1x64x1024_0_0_0) fullShare (recvV X false 0 0 c) := rfl
theorem expect_rsccw_r_0_0 (c : Dev nD) : (Rd (F := F) X).expect (dcell c (qR cc0_scratch5 0 0 inb_S15x2_S1x1_0_0)) 0 = N := by
  unfold Schedule.expect Schedule.amountOf; rw [duties_rsccw_r_0_0, Finset.sum_singleton]; rfl
theorem duties_rsccw_r_0_1 (c : Dev nD) : (Rd (F := F) X).duties (dcell c (qR cc0_scratch5 0 1 inb_S15x2_S1x1_0_1)) 0 = {false} := rfl
theorem amount_rsccw_r_0_1 (c : Dev nD) (d : Bool) : (Rd (F := F) X).amount (dcell c (qR cc0_scratch5 0 1 inb_S15x2_S1x1_0_1)) 0 d = N := rfl
theorem payload_rsccw_r_0_1 (c : Dev nD) (d : Bool) : (Rd (F := F) X).payload (dcell c (qR cc0_scratch5 0 1 inb_S15x2_S1x1_0_1)) 0 d = owns (c : Thread nD τ) (slot bM 0 64 inb_S15x128x1024_S1x64x1024_0_64_0) fullShare (recvV X false 1 0 c) := rfl
theorem expect_rsccw_r_0_1 (c : Dev nD) : (Rd (F := F) X).expect (dcell c (qR cc0_scratch5 0 1 inb_S15x2_S1x1_0_1)) 0 = N := by
  unfold Schedule.expect Schedule.amountOf; rw [duties_rsccw_r_0_1, Finset.sum_singleton]; rfl
theorem duties_rsccw_r_1_0 (c : Dev nD) : (Rd (F := F) X).duties (dcell c (qR cc0_scratch5 1 0 inb_S15x2_S1x1_1_0)) 0 = {false} := rfl
theorem amount_rsccw_r_1_0 (c : Dev nD) (d : Bool) : (Rd (F := F) X).amount (dcell c (qR cc0_scratch5 1 0 inb_S15x2_S1x1_1_0)) 0 d = N := rfl
theorem payload_rsccw_r_1_0 (c : Dev nD) (d : Bool) : (Rd (F := F) X).payload (dcell c (qR cc0_scratch5 1 0 inb_S15x2_S1x1_1_0)) 0 d = owns (c : Thread nD τ) (slot bM 1 0 inb_S15x128x1024_S1x64x1024_1_0_0) fullShare (recvV X false 0 1 c) := rfl
theorem expect_rsccw_r_1_0 (c : Dev nD) : (Rd (F := F) X).expect (dcell c (qR cc0_scratch5 1 0 inb_S15x2_S1x1_1_0)) 0 = N := by
  unfold Schedule.expect Schedule.amountOf; rw [duties_rsccw_r_1_0, Finset.sum_singleton]; rfl
theorem duties_rsccw_r_1_1 (c : Dev nD) : (Rd (F := F) X).duties (dcell c (qR cc0_scratch5 1 1 inb_S15x2_S1x1_1_1)) 0 = {false} := rfl
theorem amount_rsccw_r_1_1 (c : Dev nD) (d : Bool) : (Rd (F := F) X).amount (dcell c (qR cc0_scratch5 1 1 inb_S15x2_S1x1_1_1)) 0 d = N := rfl
theorem payload_rsccw_r_1_1 (c : Dev nD) (d : Bool) : (Rd (F := F) X).payload (dcell c (qR cc0_scratch5 1 1 inb_S15x2_S1x1_1_1)) 0 d = owns (c : Thread nD τ) (slot bM 1 64 inb_S15x128x1024_S1x64x1024_1_64_0) fullShare (recvV X false 1 1 c) := rfl
theorem expect_rsccw_r_1_1 (c : Dev nD) : (Rd (F := F) X).expect (dcell c (qR cc0_scratch5 1 1 inb_S15x2_S1x1_1_1)) 0 = N := by
  unfold Schedule.expect Schedule.amountOf; rw [duties_rsccw_r_1_1, Finset.sum_singleton]; rfl
theorem duties_rsccw_r_2_0 (c : Dev nD) : (Rd (F := F) X).duties (dcell c (qR cc0_scratch5 2 0 inb_S15x2_S1x1_2_0)) 0 = {false} := rfl
theorem amount_rsccw_r_2_0 (c : Dev nD) (d : Bool) : (Rd (F := F) X).amount (dcell c (qR cc0_scratch5 2 0 inb_S15x2_S1x1_2_0)) 0 d = N := rfl
theorem payload_rsccw_r_2_0 (c : Dev nD) (d : Bool) : (Rd (F := F) X).payload (dcell c (qR cc0_scratch5 2 0 inb_S15x2_S1x1_2_0)) 0 d = owns (c : Thread nD τ) (slot bM 2 0 inb_S15x128x1024_S1x64x1024_2_0_0) fullShare (recvV X false 0 2 c) := rfl
theorem expect_rsccw_r_2_0 (c : Dev nD) : (Rd (F := F) X).expect (dcell c (qR cc0_scratch5 2 0 inb_S15x2_S1x1_2_0)) 0 = N := by
  unfold Schedule.expect Schedule.amountOf; rw [duties_rsccw_r_2_0, Finset.sum_singleton]; rfl
theorem duties_rsccw_r_2_1 (c : Dev nD) : (Rd (F := F) X).duties (dcell c (qR cc0_scratch5 2 1 inb_S15x2_S1x1_2_1)) 0 = {false} := rfl
theorem amount_rsccw_r_2_1 (c : Dev nD) (d : Bool) : (Rd (F := F) X).amount (dcell c (qR cc0_scratch5 2 1 inb_S15x2_S1x1_2_1)) 0 d = N := rfl
theorem payload_rsccw_r_2_1 (c : Dev nD) (d : Bool) : (Rd (F := F) X).payload (dcell c (qR cc0_scratch5 2 1 inb_S15x2_S1x1_2_1)) 0 d = owns (c : Thread nD τ) (slot bM 2 64 inb_S15x128x1024_S1x64x1024_2_64_0) fullShare (recvV X false 1 2 c) := rfl
theorem expect_rsccw_r_2_1 (c : Dev nD) : (Rd (F := F) X).expect (dcell c (qR cc0_scratch5 2 1 inb_S15x2_S1x1_2_1)) 0 = N := by
  unfold Schedule.expect Schedule.amountOf; rw [duties_rsccw_r_2_1, Finset.sum_singleton]; rfl
theorem duties_rsccw_r_3_0 (c : Dev nD) : (Rd (F := F) X).duties (dcell c (qR cc0_scratch5 3 0 inb_S15x2_S1x1_3_0)) 0 = {false} := rfl
theorem amount_rsccw_r_3_0 (c : Dev nD) (d : Bool) : (Rd (F := F) X).amount (dcell c (qR cc0_scratch5 3 0 inb_S15x2_S1x1_3_0)) 0 d = N := rfl
theorem payload_rsccw_r_3_0 (c : Dev nD) (d : Bool) : (Rd (F := F) X).payload (dcell c (qR cc0_scratch5 3 0 inb_S15x2_S1x1_3_0)) 0 d = owns (c : Thread nD τ) (slot bM 3 0 inb_S15x128x1024_S1x64x1024_3_0_0) fullShare (recvV X false 0 3 c) := rfl
theorem expect_rsccw_r_3_0 (c : Dev nD) : (Rd (F := F) X).expect (dcell c (qR cc0_scratch5 3 0 inb_S15x2_S1x1_3_0)) 0 = N := by
  unfold Schedule.expect Schedule.amountOf; rw [duties_rsccw_r_3_0, Finset.sum_singleton]; rfl
theorem duties_rsccw_r_3_1 (c : Dev nD) : (Rd (F := F) X).duties (dcell c (qR cc0_scratch5 3 1 inb_S15x2_S1x1_3_1)) 0 = {false} := rfl
theorem amount_rsccw_r_3_1 (c : Dev nD) (d : Bool) : (Rd (F := F) X).amount (dcell c (qR cc0_scratch5 3 1 inb_S15x2_S1x1_3_1)) 0 d = N := rfl
theorem payload_rsccw_r_3_1 (c : Dev nD) (d : Bool) : (Rd (F := F) X).payload (dcell c (qR cc0_scratch5 3 1 inb_S15x2_S1x1_3_1)) 0 d = owns (c : Thread nD τ) (slot bM 3 64 inb_S15x128x1024_S1x64x1024_3_64_0) fullShare (recvV X false 1 3 c) := rfl
theorem expect_rsccw_r_3_1 (c : Dev nD) : (Rd (F := F) X).expect (dcell c (qR cc0_scratch5 3 1 inb_S15x2_S1x1_3_1)) 0 = N := by
  unfold Schedule.expect Schedule.amountOf; rw [duties_rsccw_r_3_1, Finset.sum_singleton]; rfl
theorem duties_rsccw_r_4_0 (c : Dev nD) : (Rd (F := F) X).duties (dcell c (qR cc0_scratch5 4 0 inb_S15x2_S1x1_4_0)) 0 = {false} := rfl
theorem amount_rsccw_r_4_0 (c : Dev nD) (d : Bool) : (Rd (F := F) X).amount (dcell c (qR cc0_scratch5 4 0 inb_S15x2_S1x1_4_0)) 0 d = N := rfl
theorem payload_rsccw_r_4_0 (c : Dev nD) (d : Bool) : (Rd (F := F) X).payload (dcell c (qR cc0_scratch5 4 0 inb_S15x2_S1x1_4_0)) 0 d = owns (c : Thread nD τ) (slot bM 4 0 inb_S15x128x1024_S1x64x1024_4_0_0) fullShare (recvV X false 0 4 c) := rfl
theorem expect_rsccw_r_4_0 (c : Dev nD) : (Rd (F := F) X).expect (dcell c (qR cc0_scratch5 4 0 inb_S15x2_S1x1_4_0)) 0 = N := by
  unfold Schedule.expect Schedule.amountOf; rw [duties_rsccw_r_4_0, Finset.sum_singleton]; rfl
theorem duties_rsccw_r_4_1 (c : Dev nD) : (Rd (F := F) X).duties (dcell c (qR cc0_scratch5 4 1 inb_S15x2_S1x1_4_1)) 0 = {false} := rfl
theorem amount_rsccw_r_4_1 (c : Dev nD) (d : Bool) : (Rd (F := F) X).amount (dcell c (qR cc0_scratch5 4 1 inb_S15x2_S1x1_4_1)) 0 d = N := rfl
theorem payload_rsccw_r_4_1 (c : Dev nD) (d : Bool) : (Rd (F := F) X).payload (dcell c (qR cc0_scratch5 4 1 inb_S15x2_S1x1_4_1)) 0 d = owns (c : Thread nD τ) (slot bM 4 64 inb_S15x128x1024_S1x64x1024_4_64_0) fullShare (recvV X false 1 4 c) := rfl
theorem expect_rsccw_r_4_1 (c : Dev nD) : (Rd (F := F) X).expect (dcell c (qR cc0_scratch5 4 1 inb_S15x2_S1x1_4_1)) 0 = N := by
  unfold Schedule.expect Schedule.amountOf; rw [duties_rsccw_r_4_1, Finset.sum_singleton]; rfl
theorem duties_rsccw_r_5_0 (c : Dev nD) : (Rd (F := F) X).duties (dcell c (qR cc0_scratch5 5 0 inb_S15x2_S1x1_5_0)) 0 = {false} := rfl
theorem amount_rsccw_r_5_0 (c : Dev nD) (d : Bool) : (Rd (F := F) X).amount (dcell c (qR cc0_scratch5 5 0 inb_S15x2_S1x1_5_0)) 0 d = N := rfl
theorem payload_rsccw_r_5_0 (c : Dev nD) (d : Bool) : (Rd (F := F) X).payload (dcell c (qR cc0_scratch5 5 0 inb_S15x2_S1x1_5_0)) 0 d = owns (c : Thread nD τ) (slot bM 5 0 inb_S15x128x1024_S1x64x1024_5_0_0) fullShare (recvV X false 0 5 c) := rfl
theorem expect_rsccw_r_5_0 (c : Dev nD) : (Rd (F := F) X).expect (dcell c (qR cc0_scratch5 5 0 inb_S15x2_S1x1_5_0)) 0 = N := by
  unfold Schedule.expect Schedule.amountOf; rw [duties_rsccw_r_5_0, Finset.sum_singleton]; rfl
theorem duties_rsccw_r_5_1 (c : Dev nD) : (Rd (F := F) X).duties (dcell c (qR cc0_scratch5 5 1 inb_S15x2_S1x1_5_1)) 0 = {false} := rfl
theorem amount_rsccw_r_5_1 (c : Dev nD) (d : Bool) : (Rd (F := F) X).amount (dcell c (qR cc0_scratch5 5 1 inb_S15x2_S1x1_5_1)) 0 d = N := rfl
theorem payload_rsccw_r_5_1 (c : Dev nD) (d : Bool) : (Rd (F := F) X).payload (dcell c (qR cc0_scratch5 5 1 inb_S15x2_S1x1_5_1)) 0 d = owns (c : Thread nD τ) (slot bM 5 64 inb_S15x128x1024_S1x64x1024_5_64_0) fullShare (recvV X false 1 5 c) := rfl
theorem expect_rsccw_r_5_1 (c : Dev nD) : (Rd (F := F) X).expect (dcell c (qR cc0_scratch5 5 1 inb_S15x2_S1x1_5_1)) 0 = N := by
  unfold Schedule.expect Schedule.amountOf; rw [duties_rsccw_r_5_1, Finset.sum_singleton]; rfl
theorem duties_rsccw_r_6_0 (c : Dev nD) : (Rd (F := F) X).duties (dcell c (qR cc0_scratch5 6 0 inb_S15x2_S1x1_6_0)) 0 = {false} := rfl
theorem amount_rsccw_r_6_0 (c : Dev nD) (d : Bool) : (Rd (F := F) X).amount (dcell c (qR cc0_scratch5 6 0 inb_S15x2_S1x1_6_0)) 0 d = N := rfl
theorem payload_rsccw_r_6_0 (c : Dev nD) (d : Bool) : (Rd (F := F) X).payload (dcell c (qR cc0_scratch5 6 0 inb_S15x2_S1x1_6_0)) 0 d = owns (c : Thread nD τ) (slot bM 6 0 inb_S15x128x1024_S1x64x1024_6_0_0) fullShare (recvV X false 0 6 c) := rfl
theorem expect_rsccw_r_6_0 (c : Dev nD) : (Rd (F := F) X).expect (dcell c (qR cc0_scratch5 6 0 inb_S15x2_S1x1_6_0)) 0 = N := by
  unfold Schedule.expect Schedule.amountOf; rw [duties_rsccw_r_6_0, Finset.sum_singleton]; rfl
theorem duties_rsccw_r_6_1 (c : Dev nD) : (Rd (F := F) X).duties (dcell c (qR cc0_scratch5 6 1 inb_S15x2_S1x1_6_1)) 0 = {false} := rfl
theorem amount_rsccw_r_6_1 (c : Dev nD) (d : Bool) : (Rd (F := F) X).amount (dcell c (qR cc0_scratch5 6 1 inb_S15x2_S1x1_6_1)) 0 d = N := rfl
theorem payload_rsccw_r_6_1 (c : Dev nD) (d : Bool) : (Rd (F := F) X).payload (dcell c (qR cc0_scratch5 6 1 inb_S15x2_S1x1_6_1)) 0 d = owns (c : Thread nD τ) (slot bM 6 64 inb_S15x128x1024_S1x64x1024_6_64_0) fullShare (recvV X false 1 6 c) := rfl
theorem expect_rsccw_r_6_1 (c : Dev nD) : (Rd (F := F) X).expect (dcell c (qR cc0_scratch5 6 1 inb_S15x2_S1x1_6_1)) 0 = N := by
  unfold Schedule.expect Schedule.amountOf; rw [duties_rsccw_r_6_1, Finset.sum_singleton]; rfl
theorem duties_rsccw_r_7_0 (c : Dev nD) : (Rd (F := F) X).duties (dcell c (qR cc0_scratch5 7 0 inb_S15x2_S1x1_7_0)) 0 = {false} := rfl
theorem amount_rsccw_r_7_0 (c : Dev nD) (d : Bool) : (Rd (F := F) X).amount (dcell c (qR cc0_scratch5 7 0 inb_S15x2_S1x1_7_0)) 0 d = N := rfl
theorem payload_rsccw_r_7_0 (c : Dev nD) (d : Bool) : (Rd (F := F) X).payload (dcell c (qR cc0_scratch5 7 0 inb_S15x2_S1x1_7_0)) 0 d = owns (c : Thread nD τ) (slot bM 7 0 inb_S15x128x1024_S1x64x1024_7_0_0) fullShare (recvV X false 0 7 c) := rfl
theorem expect_rsccw_r_7_0 (c : Dev nD) : (Rd (F := F) X).expect (dcell c (qR cc0_scratch5 7 0 inb_S15x2_S1x1_7_0)) 0 = N := by
  unfold Schedule.expect Schedule.amountOf; rw [duties_rsccw_r_7_0, Finset.sum_singleton]; rfl
theorem duties_rsccw_r_7_1 (c : Dev nD) : (Rd (F := F) X).duties (dcell c (qR cc0_scratch5 7 1 inb_S15x2_S1x1_7_1)) 0 = {false} := rfl
theorem amount_rsccw_r_7_1 (c : Dev nD) (d : Bool) : (Rd (F := F) X).amount (dcell c (qR cc0_scratch5 7 1 inb_S15x2_S1x1_7_1)) 0 d = N := rfl
theorem payload_rsccw_r_7_1 (c : Dev nD) (d : Bool) : (Rd (F := F) X).payload (dcell c (qR cc0_scratch5 7 1 inb_S15x2_S1x1_7_1)) 0 d = owns (c : Thread nD τ) (slot bM 7 64 inb_S15x128x1024_S1x64x1024_7_64_0) fullShare (recvV X false 1 7 c) := rfl
theorem expect_rsccw_r_7_1 (c : Dev nD) : (Rd (F := F) X).expect (dcell c (qR cc0_scratch5 7 1 inb_S15x2_S1x1_7_1)) 0 = N := by
  unfold Schedule.expect Schedule.amountOf; rw [duties_rsccw_r_7_1, Finset.sum_singleton]; rfl
theorem duties_rsccw_r_8_0 (c : Dev nD) : (Rd (F := F) X).duties (dcell c (qR cc0_scratch5 8 0 inb_S15x2_S1x1_8_0)) 0 = {false} := rfl
theorem amount_rsccw_r_8_0 (c : Dev nD) (d : Bool) : (Rd (F := F) X).amount (dcell c (qR cc0_scratch5 8 0 inb_S15x2_S1x1_8_0)) 0 d = N := rfl
theorem payload_rsccw_r_8_0 (c : Dev nD) (d : Bool) : (Rd (F := F) X).payload (dcell c (qR cc0_scratch5 8 0 inb_S15x2_S1x1_8_0)) 0 d = owns (c : Thread nD τ) (slot bM 8 0 inb_S15x128x1024_S1x64x1024_8_0_0) fullShare (recvV X false 0 8 c) := rfl
theorem expect_rsccw_r_8_0 (c : Dev nD) : (Rd (F := F) X).expect (dcell c (qR cc0_scratch5 8 0 inb_S15x2_S1x1_8_0)) 0 = N := by
  unfold Schedule.expect Schedule.amountOf; rw [duties_rsccw_r_8_0, Finset.sum_singleton]; rfl
theorem duties_rsccw_r_8_1 (c : Dev nD) : (Rd (F := F) X).duties (dcell c (qR cc0_scratch5 8 1 inb_S15x2_S1x1_8_1)) 0 = {false} := rfl
theorem amount_rsccw_r_8_1 (c : Dev nD) (d : Bool) : (Rd (F := F) X).amount (dcell c (qR cc0_scratch5 8 1 inb_S15x2_S1x1_8_1)) 0 d = N := rfl
theorem payload_rsccw_r_8_1 (c : Dev nD) (d : Bool) : (Rd (F := F) X).payload (dcell c (qR cc0_scratch5 8 1 inb_S15x2_S1x1_8_1)) 0 d = owns (c : Thread nD τ) (slot bM 8 64 inb_S15x128x1024_S1x64x1024_8_64_0) fullShare (recvV X false 1 8 c) := rfl
theorem expect_rsccw_r_8_1 (c : Dev nD) : (Rd (F := F) X).expect (dcell c (qR cc0_scratch5 8 1 inb_S15x2_S1x1_8_1)) 0 = N := by
  unfold Schedule.expect Schedule.amountOf; rw [duties_rsccw_r_8_1, Finset.sum_singleton]; rfl
theorem duties_rsccw_r_9_0 (c : Dev nD) : (Rd (F := F) X).duties (dcell c (qR cc0_scratch5 9 0 inb_S15x2_S1x1_9_0)) 0 = {false} := rfl
theorem amount_rsccw_r_9_0 (c : Dev nD) (d : Bool) : (Rd (F := F) X).amount (dcell c (qR cc0_scratch5 9 0 inb_S15x2_S1x1_9_0)) 0 d = N := rfl
theorem payload_rsccw_r_9_0 (c : Dev nD) (d : Bool) : (Rd (F := F) X).payload (dcell c (qR cc0_scratch5 9 0 inb_S15x2_S1x1_9_0)) 0 d = owns (c : Thread nD τ) (slot bM 9 0 inb_S15x128x1024_S1x64x1024_9_0_0) fullShare (recvV X false 0 9 c) := rfl
theorem expect_rsccw_r_9_0 (c : Dev nD) : (Rd (F := F) X).expect (dcell c (qR cc0_scratch5 9 0 inb_S15x2_S1x1_9_0)) 0 = N := by
  unfold Schedule.expect Schedule.amountOf; rw [duties_rsccw_r_9_0, Finset.sum_singleton]; rfl
theorem duties_rsccw_r_9_1 (c : Dev nD) : (Rd (F := F) X).duties (dcell c (qR cc0_scratch5 9 1 inb_S15x2_S1x1_9_1)) 0 = {false} := rfl
theorem amount_rsccw_r_9_1 (c : Dev nD) (d : Bool) : (Rd (F := F) X).amount (dcell c (qR cc0_scratch5 9 1 inb_S15x2_S1x1_9_1)) 0 d = N := rfl
theorem payload_rsccw_r_9_1 (c : Dev nD) (d : Bool) : (Rd (F := F) X).payload (dcell c (qR cc0_scratch5 9 1 inb_S15x2_S1x1_9_1)) 0 d = owns (c : Thread nD τ) (slot bM 9 64 inb_S15x128x1024_S1x64x1024_9_64_0) fullShare (recvV X false 1 9 c) := rfl
theorem expect_rsccw_r_9_1 (c : Dev nD) : (Rd (F := F) X).expect (dcell c (qR cc0_scratch5 9 1 inb_S15x2_S1x1_9_1)) 0 = N := by
  unfold Schedule.expect Schedule.amountOf; rw [duties_rsccw_r_9_1, Finset.sum_singleton]; rfl
theorem duties_rsccw_r_10_0 (c : Dev nD) : (Rd (F := F) X).duties (dcell c (qR cc0_scratch5 10 0 inb_S15x2_S1x1_10_0)) 0 = {false} := rfl
theorem amount_rsccw_r_10_0 (c : Dev nD) (d : Bool) : (Rd (F := F) X).amount (dcell c (qR cc0_scratch5 10 0 inb_S15x2_S1x1_10_0)) 0 d = N := rfl
theorem payload_rsccw_r_10_0 (c : Dev nD) (d : Bool) : (Rd (F := F) X).payload (dcell c (qR cc0_scratch5 10 0 inb_S15x2_S1x1_10_0)) 0 d = owns (c : Thread nD τ) (slot bM 10 0 inb_S15x128x1024_S1x64x1024_10_0_0) fullShare (recvV X false 0 10 c) := rfl
theorem expect_rsccw_r_10_0 (c : Dev nD) : (Rd (F := F) X).expect (dcell c (qR cc0_scratch5 10 0 inb_S15x2_S1x1_10_0)) 0 = N := by
  unfold Schedule.expect Schedule.amountOf; rw [duties_rsccw_r_10_0, Finset.sum_singleton]; rfl
theorem duties_rsccw_r_10_1 (c : Dev nD) : (Rd (F := F) X).duties (dcell c (qR cc0_scratch5 10 1 inb_S15x2_S1x1_10_1)) 0 = {false} := rfl
theorem amount_rsccw_r_10_1 (c : Dev nD) (d : Bool) : (Rd (F := F) X).amount (dcell c (qR cc0_scratch5 10 1 inb_S15x2_S1x1_10_1)) 0 d = N := rfl
theorem payload_rsccw_r_10_1 (c : Dev nD) (d : Bool) : (Rd (F := F) X).payload (dcell c (qR cc0_scratch5 10 1 inb_S15x2_S1x1_10_1)) 0 d = owns (c : Thread nD τ) (slot bM 10 64 inb_S15x128x1024_S1x64x1024_10_64_0) fullShare (recvV X false 1 10 c) := rfl
theorem expect_rsccw_r_10_1 (c : Dev nD) : (Rd (F := F) X).expect (dcell c (qR cc0_scratch5 10 1 inb_S15x2_S1x1_10_1)) 0 = N := by
  unfold Schedule.expect Schedule.amountOf; rw [duties_rsccw_r_10_1, Finset.sum_singleton]; rfl
theorem duties_rsccw_r_11_0 (c : Dev nD) : (Rd (F := F) X).duties (dcell c (qR cc0_scratch5 11 0 inb_S15x2_S1x1_11_0)) 0 = {false} := rfl
theorem amount_rsccw_r_11_0 (c : Dev nD) (d : Bool) : (Rd (F := F) X).amount (dcell c (qR cc0_scratch5 11 0 inb_S15x2_S1x1_11_0)) 0 d = N := rfl
theorem payload_rsccw_r_11_0 (c : Dev nD) (d : Bool) : (Rd (F := F) X).payload (dcell c (qR cc0_scratch5 11 0 inb_S15x2_S1x1_11_0)) 0 d = owns (c : Thread nD τ) (slot bM 11 0 inb_S15x128x1024_S1x64x1024_11_0_0) fullShare (recvV X false 0 11 c) := rfl
theorem expect_rsccw_r_11_0 (c : Dev nD) : (Rd (F := F) X).expect (dcell c (qR cc0_scratch5 11 0 inb_S15x2_S1x1_11_0)) 0 = N := by
  unfold Schedule.expect Schedule.amountOf; rw [duties_rsccw_r_11_0, Finset.sum_singleton]; rfl
theorem duties_rsccw_r_11_1 (c : Dev nD) : (Rd (F := F) X).duties (dcell c (qR cc0_scratch5 11 1 inb_S15x2_S1x1_11_1)) 0 = {false} := rfl
theorem amount_rsccw_r_11_1 (c : Dev nD) (d : Bool) : (Rd (F := F) X).amount (dcell c (qR cc0_scratch5 11 1 inb_S15x2_S1x1_11_1)) 0 d = N := rfl
theorem payload_rsccw_r_11_1 (c : Dev nD) (d : Bool) : (Rd (F := F) X).payload (dcell c (qR cc0_scratch5 11 1 inb_S15x2_S1x1_11_1)) 0 d = owns (c : Thread nD τ) (slot bM 11 64 inb_S15x128x1024_S1x64x1024_11_64_0) fullShare (recvV X false 1 11 c) := rfl
theorem expect_rsccw_r_11_1 (c : Dev nD) : (Rd (F := F) X).expect (dcell c (qR cc0_scratch5 11 1 inb_S15x2_S1x1_11_1)) 0 = N := by
  unfold Schedule.expect Schedule.amountOf; rw [duties_rsccw_r_11_1, Finset.sum_singleton]; rfl
theorem duties_rsccw_r_12_0 (c : Dev nD) : (Rd (F := F) X).duties (dcell c (qR cc0_scratch5 12 0 inb_S15x2_S1x1_12_0)) 0 = {false} := rfl
theorem amount_rsccw_r_12_0 (c : Dev nD) (d : Bool) : (Rd (F := F) X).amount (dcell c (qR cc0_scratch5 12 0 inb_S15x2_S1x1_12_0)) 0 d = N := rfl
theorem payload_rsccw_r_12_0 (c : Dev nD) (d : Bool) : (Rd (F := F) X).payload (dcell c (qR cc0_scratch5 12 0 inb_S15x2_S1x1_12_0)) 0 d = owns (c : Thread nD τ) (slot bM 12 0 inb_S15x128x1024_S1x64x1024_12_0_0) fullShare (recvV X false 0 12 c) := rfl
theorem expect_rsccw_r_12_0 (c : Dev nD) : (Rd (F := F) X).expect (dcell c (qR cc0_scratch5 12 0 inb_S15x2_S1x1_12_0)) 0 = N := by
  unfold Schedule.expect Schedule.amountOf; rw [duties_rsccw_r_12_0, Finset.sum_singleton]; rfl
theorem duties_rsccw_r_12_1 (c : Dev nD) : (Rd (F := F) X).duties (dcell c (qR cc0_scratch5 12 1 inb_S15x2_S1x1_12_1)) 0 = {false} := rfl
theorem amount_rsccw_r_12_1 (c : Dev nD) (d : Bool) : (Rd (F := F) X).amount (dcell c (qR cc0_scratch5 12 1 inb_S15x2_S1x1_12_1)) 0 d = N := rfl
theorem payload_rsccw_r_12_1 (c : Dev nD) (d : Bool) : (Rd (F := F) X).payload (dcell c (qR cc0_scratch5 12 1 inb_S15x2_S1x1_12_1)) 0 d = owns (c : Thread nD τ) (slot bM 12 64 inb_S15x128x1024_S1x64x1024_12_64_0) fullShare (recvV X false 1 12 c) := rfl
theorem expect_rsccw_r_12_1 (c : Dev nD) : (Rd (F := F) X).expect (dcell c (qR cc0_scratch5 12 1 inb_S15x2_S1x1_12_1)) 0 = N := by
  unfold Schedule.expect Schedule.amountOf; rw [duties_rsccw_r_12_1, Finset.sum_singleton]; rfl
theorem duties_rsccw_r_13_0 (c : Dev nD) : (Rd (F := F) X).duties (dcell c (qR cc0_scratch5 13 0 inb_S15x2_S1x1_13_0)) 0 = {false} := rfl
theorem amount_rsccw_r_13_0 (c : Dev nD) (d : Bool) : (Rd (F := F) X).amount (dcell c (qR cc0_scratch5 13 0 inb_S15x2_S1x1_13_0)) 0 d = N := rfl
theorem payload_rsccw_r_13_0 (c : Dev nD) (d : Bool) : (Rd (F := F) X).payload (dcell c (qR cc0_scratch5 13 0 inb_S15x2_S1x1_13_0)) 0 d = owns (c : Thread nD τ) (slot bM 13 0 inb_S15x128x1024_S1x64x1024_13_0_0) fullShare (recvV X false 0 13 c) := rfl
theorem expect_rsccw_r_13_0 (c : Dev nD) : (Rd (F := F) X).expect (dcell c (qR cc0_scratch5 13 0 inb_S15x2_S1x1_13_0)) 0 = N := by
  unfold Schedule.expect Schedule.amountOf; rw [duties_rsccw_r_13_0, Finset.sum_singleton]; rfl
theorem duties_rsccw_r_13_1 (c : Dev nD) : (Rd (F := F) X).duties (dcell c (qR cc0_scratch5 13 1 inb_S15x2_S1x1_13_1)) 0 = {false} := rfl
theorem amount_rsccw_r_13_1 (c : Dev nD) (d : Bool) : (Rd (F := F) X).amount (dcell c (qR cc0_scratch5 13 1 inb_S15x2_S1x1_13_1)) 0 d = N := rfl
theorem payload_rsccw_r_13_1 (c : Dev nD) (d : Bool) : (Rd (F := F) X).payload (dcell c (qR cc0_scratch5 13 1 inb_S15x2_S1x1_13_1)) 0 d = owns (c : Thread nD τ) (slot bM 13 64 inb_S15x128x1024_S1x64x1024_13_64_0) fullShare (recvV X false 1 13 c) := rfl
theorem expect_rsccw_r_13_1 (c : Dev nD) : (Rd (F := F) X).expect (dcell c (qR cc0_scratch5 13 1 inb_S15x2_S1x1_13_1)) 0 = N := by
  unfold Schedule.expect Schedule.amountOf; rw [duties_rsccw_r_13_1, Finset.sum_singleton]; rfl
theorem duties_rsccw_r_14_0 (c : Dev nD) : (Rd (F := F) X).duties (dcell c (qR cc0_scratch5 14 0 inb_S15x2_S1x1_14_0)) 0 = {false} := rfl
theorem amount_rsccw_r_14_0 (c : Dev nD) (d : Bool) : (Rd (F := F) X).amount (dcell c (qR cc0_scratch5 14 0 inb_S15x2_S1x1_14_0)) 0 d = N := rfl
theorem payload_rsccw_r_14_0 (c : Dev nD) (d : Bool) : (Rd (F := F) X).payload (dcell c (qR cc0_scratch5 14 0 inb_S15x2_S1x1_14_0)) 0 d = owns (c : Thread nD τ) (slot bM 14 0 inb_S15x128x1024_S1x64x1024_14_0_0) fullShare (recvV X false 0 14 c) := rfl
theorem expect_rsccw_r_14_0 (c : Dev nD) : (Rd (F := F) X).expect (dcell c (qR cc0_scratch5 14 0 inb_S15x2_S1x1_14_0)) 0 = N := by
  unfold Schedule.expect Schedule.amountOf; rw [duties_rsccw_r_14_0, Finset.sum_singleton]; rfl
theorem duties_rsccw_r_14_1 (c : Dev nD) : (Rd (F := F) X).duties (dcell c (qR cc0_scratch5 14 1 inb_S15x2_S1x1_14_1)) 0 = {false} := rfl
theorem amount_rsccw_r_14_1 (c : Dev nD) (d : Bool) : (Rd (F := F) X).amount (dcell c (qR cc0_scratch5 14 1 inb_S15x2_S1x1_14_1)) 0 d = N := rfl
theorem payload_rsccw_r_14_1 (c : Dev nD) (d : Bool) : (Rd (F := F) X).payload (dcell c (qR cc0_scratch5 14 1 inb_S15x2_S1x1_14_1)) 0 d = owns (c : Thread nD τ) (slot bM 14 64 inb_S15x128x1024_S1x64x1024_14_64_0) fullShare (recvV X false 1 14 c) := rfl
theorem expect_rsccw_r_14_1 (c : Dev nD) : (Rd (F := F) X).expect (dcell c (qR cc0_scratch5 14 1 inb_S15x2_S1x1_14_1)) 0 = N := by
  unfold Schedule.expect Schedule.amountOf; rw [duties_rsccw_r_14_1, Finset.sum_singleton]; rfl
theorem duties_rsccw_s_0_0 (c : Dev nD) : (Rd (F := F) X).duties (dcell c (qS cc0_scratch4 0 inb_S4_S1_0)) 0 = {false} := rfl
theorem amount_rsccw_s_0_0 (c : Dev nD) (d : Bool) : (Rd (F := F) X).amount (dcell c (qS cc0_scratch4 0 inb_S4_S1_0)) 0 d = N := rfl
theorem payload_rsccw_s_0_0 (c : Dev nD) (d : Bool) : (Rd (F := F) X).payload (dcell c (qS cc0_scratch4 0 inb_S4_S1_0)) 0 d = iprop((rows xM (off false (c.val + 1) 0) (off_inb false _ 0)).view.loc (c : Thread nD τ) ↦[(rows xM (off false (c.val + 1) 0) (off_inb false _ 0)).view.set]{fullShare.right} X c) := rfl
theorem expect_rsccw_s_0_0 (c : Dev nD) : (Rd (F := F) X).expect (dcell c (qS cc0_scratch4 0 inb_S4_S1_0)) 0 = N := by
  unfold Schedule.expect Schedule.amountOf; rw [duties_rsccw_s_0_0, Finset.sum_singleton]; rfl
theorem duties_rsccw_s_0_1 (c : Dev nD) : (Rd (F := F) X).duties (dcell c (qS cc0_scratch4 0 inb_S4_S1_0)) 1 = {false} := rfl
theorem amount_rsccw_s_0_1 (c : Dev nD) (d : Bool) : (Rd (F := F) X).amount (dcell c (qS cc0_scratch4 0 inb_S4_S1_0)) 1 d = N := rfl
theorem payload_rsccw_s_0_1 (c : Dev nD) (d : Bool) : (Rd (F := F) X).payload (dcell c (qS cc0_scratch4 0 inb_S4_S1_0)) 1 d = owns (c : Thread nD τ) (slot bM 1 0 inb_S15x128x1024_S1x64x1024_1_0_0) fullShare (addV X false 0 1 c) := rfl
theorem expect_rsccw_s_0_1 (c : Dev nD) : (Rd (F := F) X).expect (dcell c (qS cc0_scratch4 0 inb_S4_S1_0)) 1 = N := by
  unfold Schedule.expect Schedule.amountOf; rw [duties_rsccw_s_0_1, Finset.sum_singleton]; rfl
theorem duties_rsccw_s_0_2 (c : Dev nD) : (Rd (F := F) X).duties (dcell c (qS cc0_scratch4 0 inb_S4_S1_0)) 2 = {false} := rfl
theorem amount_rsccw_s_0_2 (c : Dev nD) (d : Bool) : (Rd (F := F) X).amount (dcell c (qS cc0_scratch4 0 inb_S4_S1_0)) 2 d = N := rfl
theorem payload_rsccw_s_0_2 (c : Dev nD) (d : Bool) : (Rd (F := F) X).payload (dcell c (qS cc0_scratch4 0 inb_S4_S1_0)) 2 d = owns (c : Thread nD τ) (slot bM 3 0 inb_S15x128x1024_S1x64x1024_3_0_0) fullShare (addV X false 0 3 c) := rfl
theorem expect_rsccw_s_0_2 (c : Dev nD) : (Rd (F := F) X).expect (dcell c (qS cc0_scratch4 0 inb_S4_S1_0)) 2 = N := by
  unfold Schedule.expect Schedule.amountOf; rw [duties_rsccw_s_0_2, Finset.sum_singleton]; rfl
theorem duties_rsccw_s_0_3 (c : Dev nD) : (Rd (F := F) X).duties (dcell c (qS cc0_scratch4 0 inb_S4_S1_0)) 3 = {false} := rfl
theorem amount_rsccw_s_0_3 (c : Dev nD) (d : Bool) : (Rd (F := F) X).amount (dcell c (qS cc0_scratch4 0 inb_S4_S1_0)) 3 d = N := rfl
theorem payload_rsccw_s_0_3 (c : Dev nD) (d : Bool) : (Rd (F := F) X).payload (dcell c (qS cc0_scratch4 0 inb_S4_S1_0)) 3 d = owns (c : Thread nD τ) (slot bM 5 0 inb_S15x128x1024_S1x64x1024_5_0_0) fullShare (addV X false 0 5 c) := rfl
theorem expect_rsccw_s_0_3 (c : Dev nD) : (Rd (F := F) X).expect (dcell c (qS cc0_scratch4 0 inb_S4_S1_0)) 3 = N := by
  unfold Schedule.expect Schedule.amountOf; rw [duties_rsccw_s_0_3, Finset.sum_singleton]; rfl
theorem duties_rsccw_s_0_4 (c : Dev nD) : (Rd (F := F) X).duties (dcell c (qS cc0_scratch4 0 inb_S4_S1_0)) 4 = {false} := rfl
theorem amount_rsccw_s_0_4 (c : Dev nD) (d : Bool) : (Rd (F := F) X).amount (dcell c (qS cc0_scratch4 0 inb_S4_S1_0)) 4 d = N := rfl
theorem payload_rsccw_s_0_4 (c : Dev nD) (d : Bool) : (Rd (F := F) X).payload (dcell c (qS cc0_scratch4 0 inb_S4_S1_0)) 4 d = owns (c : Thread nD τ) (slot bM 7 0 inb_S15x128x1024_S1x64x1024_7_0_0) fullShare (addV X false 0 7 c) := rfl
theorem expect_rsccw_s_0_4 (c : Dev nD) : (Rd (F := F) X).expect (dcell c (qS cc0_scratch4 0 inb_S4_S1_0)) 4 = N := by
  unfold Schedule.expect Schedule.amountOf; rw [duties_rsccw_s_0_4, Finset.sum_singleton]; rfl
theorem duties_rsccw_s_0_5 (c : Dev nD) : (Rd (F := F) X).duties (dcell c (qS cc0_scratch4 0 inb_S4_S1_0)) 5 = {false} := rfl
theorem amount_rsccw_s_0_5 (c : Dev nD) (d : Bool) : (Rd (F := F) X).amount (dcell c (qS cc0_scratch4 0 inb_S4_S1_0)) 5 d = N := rfl
theorem payload_rsccw_s_0_5 (c : Dev nD) (d : Bool) : (Rd (F := F) X).payload (dcell c (qS cc0_scratch4 0 inb_S4_S1_0)) 5 d = owns (c : Thread nD τ) (slot bM 9 0 inb_S15x128x1024_S1x64x1024_9_0_0) fullShare (addV X false 0 9 c) := rfl
theorem expect_rsccw_s_0_5 (c : Dev nD) : (Rd (F := F) X).expect (dcell c (qS cc0_scratch4 0 inb_S4_S1_0)) 5 = N := by
  unfold Schedule.expect Schedule.amountOf; rw [duties_rsccw_s_0_5, Finset.sum_singleton]; rfl
theorem duties_rsccw_s_0_6 (c : Dev nD) : (Rd (F := F) X).duties (dcell c (qS cc0_scratch4 0 inb_S4_S1_0)) 6 = {false} := rfl
theorem amount_rsccw_s_0_6 (c : Dev nD) (d : Bool) : (Rd (F := F) X).amount (dcell c (qS cc0_scratch4 0 inb_S4_S1_0)) 6 d = N := rfl
theorem payload_rsccw_s_0_6 (c : Dev nD) (d : Bool) : (Rd (F := F) X).payload (dcell c (qS cc0_scratch4 0 inb_S4_S1_0)) 6 d = owns (c : Thread nD τ) (slot bM 11 0 inb_S15x128x1024_S1x64x1024_11_0_0) fullShare (addV X false 0 11 c) := rfl
theorem expect_rsccw_s_0_6 (c : Dev nD) : (Rd (F := F) X).expect (dcell c (qS cc0_scratch4 0 inb_S4_S1_0)) 6 = N := by
  unfold Schedule.expect Schedule.amountOf; rw [duties_rsccw_s_0_6, Finset.sum_singleton]; rfl
theorem duties_rsccw_s_0_7 (c : Dev nD) : (Rd (F := F) X).duties (dcell c (qS cc0_scratch4 0 inb_S4_S1_0)) 7 = {false} := rfl
theorem amount_rsccw_s_0_7 (c : Dev nD) (d : Bool) : (Rd (F := F) X).amount (dcell c (qS cc0_scratch4 0 inb_S4_S1_0)) 7 d = N := rfl
theorem payload_rsccw_s_0_7 (c : Dev nD) (d : Bool) : (Rd (F := F) X).payload (dcell c (qS cc0_scratch4 0 inb_S4_S1_0)) 7 d = owns (c : Thread nD τ) (slot bM 13 0 inb_S15x128x1024_S1x64x1024_13_0_0) fullShare (addV X false 0 13 c) := rfl
theorem expect_rsccw_s_0_7 (c : Dev nD) : (Rd (F := F) X).expect (dcell c (qS cc0_scratch4 0 inb_S4_S1_0)) 7 = N := by
  unfold Schedule.expect Schedule.amountOf; rw [duties_rsccw_s_0_7, Finset.sum_singleton]; rfl
theorem later_rsccw_s_0 (c : Dev nD) : ∀ r, 8 ≤ r → (Rd (F := F) X).duties (dcell c (qS cc0_scratch4 0 inb_S4_S1_0)) r = ∅ := fun r hr => by
  show (if r < 8 then ({false} : Finset Bool) else ∅) = ∅; exact if_neg (by omega)
theorem duties_rsccw_s_1_0 (c : Dev nD) : (Rd (F := F) X).duties (dcell c (qS cc0_scratch4 1 inb_S4_S1_1)) 0 = {false} := rfl
theorem amount_rsccw_s_1_0 (c : Dev nD) (d : Bool) : (Rd (F := F) X).amount (dcell c (qS cc0_scratch4 1 inb_S4_S1_1)) 0 d = N := rfl
theorem payload_rsccw_s_1_0 (c : Dev nD) (d : Bool) : (Rd (F := F) X).payload (dcell c (qS cc0_scratch4 1 inb_S4_S1_1)) 0 d = iprop((rows xM (off false (c.val + 1) 1) (off_inb false _ 1)).view.loc (c : Thread nD τ) ↦[(rows xM (off false (c.val + 1) 1) (off_inb false _ 1)).view.set]{fullShare.right} X c) := rfl
theorem expect_rsccw_s_1_0 (c : Dev nD) : (Rd (F := F) X).expect (dcell c (qS cc0_scratch4 1 inb_S4_S1_1)) 0 = N := by
  unfold Schedule.expect Schedule.amountOf; rw [duties_rsccw_s_1_0, Finset.sum_singleton]; rfl
theorem duties_rsccw_s_1_1 (c : Dev nD) : (Rd (F := F) X).duties (dcell c (qS cc0_scratch4 1 inb_S4_S1_1)) 1 = {false} := rfl
theorem amount_rsccw_s_1_1 (c : Dev nD) (d : Bool) : (Rd (F := F) X).amount (dcell c (qS cc0_scratch4 1 inb_S4_S1_1)) 1 d = N := rfl
theorem payload_rsccw_s_1_1 (c : Dev nD) (d : Bool) : (Rd (F := F) X).payload (dcell c (qS cc0_scratch4 1 inb_S4_S1_1)) 1 d = owns (c : Thread nD τ) (slot bM 1 64 inb_S15x128x1024_S1x64x1024_1_64_0) fullShare (addV X false 1 1 c) := rfl
theorem expect_rsccw_s_1_1 (c : Dev nD) : (Rd (F := F) X).expect (dcell c (qS cc0_scratch4 1 inb_S4_S1_1)) 1 = N := by
  unfold Schedule.expect Schedule.amountOf; rw [duties_rsccw_s_1_1, Finset.sum_singleton]; rfl
theorem duties_rsccw_s_1_2 (c : Dev nD) : (Rd (F := F) X).duties (dcell c (qS cc0_scratch4 1 inb_S4_S1_1)) 2 = {false} := rfl
theorem amount_rsccw_s_1_2 (c : Dev nD) (d : Bool) : (Rd (F := F) X).amount (dcell c (qS cc0_scratch4 1 inb_S4_S1_1)) 2 d = N := rfl
theorem payload_rsccw_s_1_2 (c : Dev nD) (d : Bool) : (Rd (F := F) X).payload (dcell c (qS cc0_scratch4 1 inb_S4_S1_1)) 2 d = owns (c : Thread nD τ) (slot bM 3 64 inb_S15x128x1024_S1x64x1024_3_64_0) fullShare (addV X false 1 3 c) := rfl
theorem expect_rsccw_s_1_2 (c : Dev nD) : (Rd (F := F) X).expect (dcell c (qS cc0_scratch4 1 inb_S4_S1_1)) 2 = N := by
  unfold Schedule.expect Schedule.amountOf; rw [duties_rsccw_s_1_2, Finset.sum_singleton]; rfl
theorem duties_rsccw_s_1_3 (c : Dev nD) : (Rd (F := F) X).duties (dcell c (qS cc0_scratch4 1 inb_S4_S1_1)) 3 = {false} := rfl
theorem amount_rsccw_s_1_3 (c : Dev nD) (d : Bool) : (Rd (F := F) X).amount (dcell c (qS cc0_scratch4 1 inb_S4_S1_1)) 3 d = N := rfl
theorem payload_rsccw_s_1_3 (c : Dev nD) (d : Bool) : (Rd (F := F) X).payload (dcell c (qS cc0_scratch4 1 inb_S4_S1_1)) 3 d = owns (c : Thread nD τ) (slot bM 5 64 inb_S15x128x1024_S1x64x1024_5_64_0) fullShare (addV X false 1 5 c) := rfl
theorem expect_rsccw_s_1_3 (c : Dev nD) : (Rd (F := F) X).expect (dcell c (qS cc0_scratch4 1 inb_S4_S1_1)) 3 = N := by
  unfold Schedule.expect Schedule.amountOf; rw [duties_rsccw_s_1_3, Finset.sum_singleton]; rfl
theorem duties_rsccw_s_1_4 (c : Dev nD) : (Rd (F := F) X).duties (dcell c (qS cc0_scratch4 1 inb_S4_S1_1)) 4 = {false} := rfl
theorem amount_rsccw_s_1_4 (c : Dev nD) (d : Bool) : (Rd (F := F) X).amount (dcell c (qS cc0_scratch4 1 inb_S4_S1_1)) 4 d = N := rfl
theorem payload_rsccw_s_1_4 (c : Dev nD) (d : Bool) : (Rd (F := F) X).payload (dcell c (qS cc0_scratch4 1 inb_S4_S1_1)) 4 d = owns (c : Thread nD τ) (slot bM 7 64 inb_S15x128x1024_S1x64x1024_7_64_0) fullShare (addV X false 1 7 c) := rfl
theorem expect_rsccw_s_1_4 (c : Dev nD) : (Rd (F := F) X).expect (dcell c (qS cc0_scratch4 1 inb_S4_S1_1)) 4 = N := by
  unfold Schedule.expect Schedule.amountOf; rw [duties_rsccw_s_1_4, Finset.sum_singleton]; rfl
theorem duties_rsccw_s_1_5 (c : Dev nD) : (Rd (F := F) X).duties (dcell c (qS cc0_scratch4 1 inb_S4_S1_1)) 5 = {false} := rfl
theorem amount_rsccw_s_1_5 (c : Dev nD) (d : Bool) : (Rd (F := F) X).amount (dcell c (qS cc0_scratch4 1 inb_S4_S1_1)) 5 d = N := rfl
theorem payload_rsccw_s_1_5 (c : Dev nD) (d : Bool) : (Rd (F := F) X).payload (dcell c (qS cc0_scratch4 1 inb_S4_S1_1)) 5 d = owns (c : Thread nD τ) (slot bM 9 64 inb_S15x128x1024_S1x64x1024_9_64_0) fullShare (addV X false 1 9 c) := rfl
theorem expect_rsccw_s_1_5 (c : Dev nD) : (Rd (F := F) X).expect (dcell c (qS cc0_scratch4 1 inb_S4_S1_1)) 5 = N := by
  unfold Schedule.expect Schedule.amountOf; rw [duties_rsccw_s_1_5, Finset.sum_singleton]; rfl
theorem duties_rsccw_s_1_6 (c : Dev nD) : (Rd (F := F) X).duties (dcell c (qS cc0_scratch4 1 inb_S4_S1_1)) 6 = {false} := rfl
theorem amount_rsccw_s_1_6 (c : Dev nD) (d : Bool) : (Rd (F := F) X).amount (dcell c (qS cc0_scratch4 1 inb_S4_S1_1)) 6 d = N := rfl
theorem payload_rsccw_s_1_6 (c : Dev nD) (d : Bool) : (Rd (F := F) X).payload (dcell c (qS cc0_scratch4 1 inb_S4_S1_1)) 6 d = owns (c : Thread nD τ) (slot bM 11 64 inb_S15x128x1024_S1x64x1024_11_64_0) fullShare (addV X false 1 11 c) := rfl
theorem expect_rsccw_s_1_6 (c : Dev nD) : (Rd (F := F) X).expect (dcell c (qS cc0_scratch4 1 inb_S4_S1_1)) 6 = N := by
  unfold Schedule.expect Schedule.amountOf; rw [duties_rsccw_s_1_6, Finset.sum_singleton]; rfl
theorem duties_rsccw_s_1_7 (c : Dev nD) : (Rd (F := F) X).duties (dcell c (qS cc0_scratch4 1 inb_S4_S1_1)) 7 = {false} := rfl
theorem amount_rsccw_s_1_7 (c : Dev nD) (d : Bool) : (Rd (F := F) X).amount (dcell c (qS cc0_scratch4 1 inb_S4_S1_1)) 7 d = N := rfl
theorem payload_rsccw_s_1_7 (c : Dev nD) (d : Bool) : (Rd (F := F) X).payload (dcell c (qS cc0_scratch4 1 inb_S4_S1_1)) 7 d = owns (c : Thread nD τ) (slot bM 13 64 inb_S15x128x1024_S1x64x1024_13_64_0) fullShare (addV X false 1 13 c) := rfl
theorem expect_rsccw_s_1_7 (c : Dev nD) : (Rd (F := F) X).expect (dcell c (qS cc0_scratch4 1 inb_S4_S1_1)) 7 = N := by
  unfold Schedule.expect Schedule.amountOf; rw [duties_rsccw_s_1_7, Finset.sum_singleton]; rfl
theorem later_rsccw_s_1 (c : Dev nD) : ∀ r, 8 ≤ r → (Rd (F := F) X).duties (dcell c (qS cc0_scratch4 1 inb_S4_S1_1)) r = ∅ := fun r hr => by
  show (if r < 8 then ({false} : Finset Bool) else ∅) = ∅; exact if_neg (by omega)
theorem duties_rsccw_s_2_0 (c : Dev nD) : (Rd (F := F) X).duties (dcell c (qS cc0_scratch4 2 inb_S4_S1_2)) 0 = {false} := rfl
theorem amount_rsccw_s_2_0 (c : Dev nD) (d : Bool) : (Rd (F := F) X).amount (dcell c (qS cc0_scratch4 2 inb_S4_S1_2)) 0 d = N := rfl
theorem payload_rsccw_s_2_0 (c : Dev nD) (d : Bool) : (Rd (F := F) X).payload (dcell c (qS cc0_scratch4 2 inb_S4_S1_2)) 0 d = owns (c : Thread nD τ) (slot bM 0 0 inb_S15x128x1024_S1x64x1024_0_0_0) fullShare (addV X false 0 0 c) := rfl
theorem expect_rsccw_s_2_0 (c : Dev nD) : (Rd (F := F) X).expect (dcell c (qS cc0_scratch4 2 inb_S4_S1_2)) 0 = N := by
  unfold Schedule.expect Schedule.amountOf; rw [duties_rsccw_s_2_0, Finset.sum_singleton]; rfl
theorem duties_rsccw_s_2_1 (c : Dev nD) : (Rd (F := F) X).duties (dcell c (qS cc0_scratch4 2 inb_S4_S1_2)) 1 = {false} := rfl
theorem amount_rsccw_s_2_1 (c : Dev nD) (d : Bool) : (Rd (F := F) X).amount (dcell c (qS cc0_scratch4 2 inb_S4_S1_2)) 1 d = N := rfl
theorem payload_rsccw_s_2_1 (c : Dev nD) (d : Bool) : (Rd (F := F) X).payload (dcell c (qS cc0_scratch4 2 inb_S4_S1_2)) 1 d = owns (c : Thread nD τ) (slot bM 2 0 inb_S15x128x1024_S1x64x1024_2_0_0) fullShare (addV X false 0 2 c) := rfl
theorem expect_rsccw_s_2_1 (c : Dev nD) : (Rd (F := F) X).expect (dcell c (qS cc0_scratch4 2 inb_S4_S1_2)) 1 = N := by
  unfold Schedule.expect Schedule.amountOf; rw [duties_rsccw_s_2_1, Finset.sum_singleton]; rfl
theorem duties_rsccw_s_2_2 (c : Dev nD) : (Rd (F := F) X).duties (dcell c (qS cc0_scratch4 2 inb_S4_S1_2)) 2 = {false} := rfl
theorem amount_rsccw_s_2_2 (c : Dev nD) (d : Bool) : (Rd (F := F) X).amount (dcell c (qS cc0_scratch4 2 inb_S4_S1_2)) 2 d = N := rfl
theorem payload_rsccw_s_2_2 (c : Dev nD) (d : Bool) : (Rd (F := F) X).payload (dcell c (qS cc0_scratch4 2 inb_S4_S1_2)) 2 d = owns (c : Thread nD τ) (slot bM 4 0 inb_S15x128x1024_S1x64x1024_4_0_0) fullShare (addV X false 0 4 c) := rfl
theorem expect_rsccw_s_2_2 (c : Dev nD) : (Rd (F := F) X).expect (dcell c (qS cc0_scratch4 2 inb_S4_S1_2)) 2 = N := by
  unfold Schedule.expect Schedule.amountOf; rw [duties_rsccw_s_2_2, Finset.sum_singleton]; rfl
theorem duties_rsccw_s_2_3 (c : Dev nD) : (Rd (F := F) X).duties (dcell c (qS cc0_scratch4 2 inb_S4_S1_2)) 3 = {false} := rfl
theorem amount_rsccw_s_2_3 (c : Dev nD) (d : Bool) : (Rd (F := F) X).amount (dcell c (qS cc0_scratch4 2 inb_S4_S1_2)) 3 d = N := rfl
theorem payload_rsccw_s_2_3 (c : Dev nD) (d : Bool) : (Rd (F := F) X).payload (dcell c (qS cc0_scratch4 2 inb_S4_S1_2)) 3 d = owns (c : Thread nD τ) (slot bM 6 0 inb_S15x128x1024_S1x64x1024_6_0_0) fullShare (addV X false 0 6 c) := rfl
theorem expect_rsccw_s_2_3 (c : Dev nD) : (Rd (F := F) X).expect (dcell c (qS cc0_scratch4 2 inb_S4_S1_2)) 3 = N := by
  unfold Schedule.expect Schedule.amountOf; rw [duties_rsccw_s_2_3, Finset.sum_singleton]; rfl
theorem duties_rsccw_s_2_4 (c : Dev nD) : (Rd (F := F) X).duties (dcell c (qS cc0_scratch4 2 inb_S4_S1_2)) 4 = {false} := rfl
theorem amount_rsccw_s_2_4 (c : Dev nD) (d : Bool) : (Rd (F := F) X).amount (dcell c (qS cc0_scratch4 2 inb_S4_S1_2)) 4 d = N := rfl
theorem payload_rsccw_s_2_4 (c : Dev nD) (d : Bool) : (Rd (F := F) X).payload (dcell c (qS cc0_scratch4 2 inb_S4_S1_2)) 4 d = owns (c : Thread nD τ) (slot bM 8 0 inb_S15x128x1024_S1x64x1024_8_0_0) fullShare (addV X false 0 8 c) := rfl
theorem expect_rsccw_s_2_4 (c : Dev nD) : (Rd (F := F) X).expect (dcell c (qS cc0_scratch4 2 inb_S4_S1_2)) 4 = N := by
  unfold Schedule.expect Schedule.amountOf; rw [duties_rsccw_s_2_4, Finset.sum_singleton]; rfl
theorem duties_rsccw_s_2_5 (c : Dev nD) : (Rd (F := F) X).duties (dcell c (qS cc0_scratch4 2 inb_S4_S1_2)) 5 = {false} := rfl
theorem amount_rsccw_s_2_5 (c : Dev nD) (d : Bool) : (Rd (F := F) X).amount (dcell c (qS cc0_scratch4 2 inb_S4_S1_2)) 5 d = N := rfl
theorem payload_rsccw_s_2_5 (c : Dev nD) (d : Bool) : (Rd (F := F) X).payload (dcell c (qS cc0_scratch4 2 inb_S4_S1_2)) 5 d = owns (c : Thread nD τ) (slot bM 10 0 inb_S15x128x1024_S1x64x1024_10_0_0) fullShare (addV X false 0 10 c) := rfl
theorem expect_rsccw_s_2_5 (c : Dev nD) : (Rd (F := F) X).expect (dcell c (qS cc0_scratch4 2 inb_S4_S1_2)) 5 = N := by
  unfold Schedule.expect Schedule.amountOf; rw [duties_rsccw_s_2_5, Finset.sum_singleton]; rfl
theorem duties_rsccw_s_2_6 (c : Dev nD) : (Rd (F := F) X).duties (dcell c (qS cc0_scratch4 2 inb_S4_S1_2)) 6 = {false} := rfl
theorem amount_rsccw_s_2_6 (c : Dev nD) (d : Bool) : (Rd (F := F) X).amount (dcell c (qS cc0_scratch4 2 inb_S4_S1_2)) 6 d = N := rfl
theorem payload_rsccw_s_2_6 (c : Dev nD) (d : Bool) : (Rd (F := F) X).payload (dcell c (qS cc0_scratch4 2 inb_S4_S1_2)) 6 d = owns (c : Thread nD τ) (slot bM 12 0 inb_S15x128x1024_S1x64x1024_12_0_0) fullShare (addV X false 0 12 c) := rfl
theorem expect_rsccw_s_2_6 (c : Dev nD) : (Rd (F := F) X).expect (dcell c (qS cc0_scratch4 2 inb_S4_S1_2)) 6 = N := by
  unfold Schedule.expect Schedule.amountOf; rw [duties_rsccw_s_2_6, Finset.sum_singleton]; rfl
theorem later_rsccw_s_2 (c : Dev nD) : ∀ r, 7 ≤ r → (Rd (F := F) X).duties (dcell c (qS cc0_scratch4 2 inb_S4_S1_2)) r = ∅ := fun r hr => by
  show (if r < 7 then ({false} : Finset Bool) else ∅) = ∅; exact if_neg (by omega)
theorem duties_rsccw_s_3_0 (c : Dev nD) : (Rd (F := F) X).duties (dcell c (qS cc0_scratch4 3 inb_S4_S1_3)) 0 = {false} := rfl
theorem amount_rsccw_s_3_0 (c : Dev nD) (d : Bool) : (Rd (F := F) X).amount (dcell c (qS cc0_scratch4 3 inb_S4_S1_3)) 0 d = N := rfl
theorem payload_rsccw_s_3_0 (c : Dev nD) (d : Bool) : (Rd (F := F) X).payload (dcell c (qS cc0_scratch4 3 inb_S4_S1_3)) 0 d = owns (c : Thread nD τ) (slot bM 0 64 inb_S15x128x1024_S1x64x1024_0_64_0) fullShare (addV X false 1 0 c) := rfl
theorem expect_rsccw_s_3_0 (c : Dev nD) : (Rd (F := F) X).expect (dcell c (qS cc0_scratch4 3 inb_S4_S1_3)) 0 = N := by
  unfold Schedule.expect Schedule.amountOf; rw [duties_rsccw_s_3_0, Finset.sum_singleton]; rfl
theorem duties_rsccw_s_3_1 (c : Dev nD) : (Rd (F := F) X).duties (dcell c (qS cc0_scratch4 3 inb_S4_S1_3)) 1 = {false} := rfl
theorem amount_rsccw_s_3_1 (c : Dev nD) (d : Bool) : (Rd (F := F) X).amount (dcell c (qS cc0_scratch4 3 inb_S4_S1_3)) 1 d = N := rfl
theorem payload_rsccw_s_3_1 (c : Dev nD) (d : Bool) : (Rd (F := F) X).payload (dcell c (qS cc0_scratch4 3 inb_S4_S1_3)) 1 d = owns (c : Thread nD τ) (slot bM 2 64 inb_S15x128x1024_S1x64x1024_2_64_0) fullShare (addV X false 1 2 c) := rfl
theorem expect_rsccw_s_3_1 (c : Dev nD) : (Rd (F := F) X).expect (dcell c (qS cc0_scratch4 3 inb_S4_S1_3)) 1 = N := by
  unfold Schedule.expect Schedule.amountOf; rw [duties_rsccw_s_3_1, Finset.sum_singleton]; rfl
theorem duties_rsccw_s_3_2 (c : Dev nD) : (Rd (F := F) X).duties (dcell c (qS cc0_scratch4 3 inb_S4_S1_3)) 2 = {false} := rfl
theorem amount_rsccw_s_3_2 (c : Dev nD) (d : Bool) : (Rd (F := F) X).amount (dcell c (qS cc0_scratch4 3 inb_S4_S1_3)) 2 d = N := rfl
theorem payload_rsccw_s_3_2 (c : Dev nD) (d : Bool) : (Rd (F := F) X).payload (dcell c (qS cc0_scratch4 3 inb_S4_S1_3)) 2 d = owns (c : Thread nD τ) (slot bM 4 64 inb_S15x128x1024_S1x64x1024_4_64_0) fullShare (addV X false 1 4 c) := rfl
theorem expect_rsccw_s_3_2 (c : Dev nD) : (Rd (F := F) X).expect (dcell c (qS cc0_scratch4 3 inb_S4_S1_3)) 2 = N := by
  unfold Schedule.expect Schedule.amountOf; rw [duties_rsccw_s_3_2, Finset.sum_singleton]; rfl
theorem duties_rsccw_s_3_3 (c : Dev nD) : (Rd (F := F) X).duties (dcell c (qS cc0_scratch4 3 inb_S4_S1_3)) 3 = {false} := rfl
theorem amount_rsccw_s_3_3 (c : Dev nD) (d : Bool) : (Rd (F := F) X).amount (dcell c (qS cc0_scratch4 3 inb_S4_S1_3)) 3 d = N := rfl
theorem payload_rsccw_s_3_3 (c : Dev nD) (d : Bool) : (Rd (F := F) X).payload (dcell c (qS cc0_scratch4 3 inb_S4_S1_3)) 3 d = owns (c : Thread nD τ) (slot bM 6 64 inb_S15x128x1024_S1x64x1024_6_64_0) fullShare (addV X false 1 6 c) := rfl
theorem expect_rsccw_s_3_3 (c : Dev nD) : (Rd (F := F) X).expect (dcell c (qS cc0_scratch4 3 inb_S4_S1_3)) 3 = N := by
  unfold Schedule.expect Schedule.amountOf; rw [duties_rsccw_s_3_3, Finset.sum_singleton]; rfl
theorem duties_rsccw_s_3_4 (c : Dev nD) : (Rd (F := F) X).duties (dcell c (qS cc0_scratch4 3 inb_S4_S1_3)) 4 = {false} := rfl
theorem amount_rsccw_s_3_4 (c : Dev nD) (d : Bool) : (Rd (F := F) X).amount (dcell c (qS cc0_scratch4 3 inb_S4_S1_3)) 4 d = N := rfl
theorem payload_rsccw_s_3_4 (c : Dev nD) (d : Bool) : (Rd (F := F) X).payload (dcell c (qS cc0_scratch4 3 inb_S4_S1_3)) 4 d = owns (c : Thread nD τ) (slot bM 8 64 inb_S15x128x1024_S1x64x1024_8_64_0) fullShare (addV X false 1 8 c) := rfl
theorem expect_rsccw_s_3_4 (c : Dev nD) : (Rd (F := F) X).expect (dcell c (qS cc0_scratch4 3 inb_S4_S1_3)) 4 = N := by
  unfold Schedule.expect Schedule.amountOf; rw [duties_rsccw_s_3_4, Finset.sum_singleton]; rfl
theorem duties_rsccw_s_3_5 (c : Dev nD) : (Rd (F := F) X).duties (dcell c (qS cc0_scratch4 3 inb_S4_S1_3)) 5 = {false} := rfl
theorem amount_rsccw_s_3_5 (c : Dev nD) (d : Bool) : (Rd (F := F) X).amount (dcell c (qS cc0_scratch4 3 inb_S4_S1_3)) 5 d = N := rfl
theorem payload_rsccw_s_3_5 (c : Dev nD) (d : Bool) : (Rd (F := F) X).payload (dcell c (qS cc0_scratch4 3 inb_S4_S1_3)) 5 d = owns (c : Thread nD τ) (slot bM 10 64 inb_S15x128x1024_S1x64x1024_10_64_0) fullShare (addV X false 1 10 c) := rfl
theorem expect_rsccw_s_3_5 (c : Dev nD) : (Rd (F := F) X).expect (dcell c (qS cc0_scratch4 3 inb_S4_S1_3)) 5 = N := by
  unfold Schedule.expect Schedule.amountOf; rw [duties_rsccw_s_3_5, Finset.sum_singleton]; rfl
theorem duties_rsccw_s_3_6 (c : Dev nD) : (Rd (F := F) X).duties (dcell c (qS cc0_scratch4 3 inb_S4_S1_3)) 6 = {false} := rfl
theorem amount_rsccw_s_3_6 (c : Dev nD) (d : Bool) : (Rd (F := F) X).amount (dcell c (qS cc0_scratch4 3 inb_S4_S1_3)) 6 d = N := rfl
theorem payload_rsccw_s_3_6 (c : Dev nD) (d : Bool) : (Rd (F := F) X).payload (dcell c (qS cc0_scratch4 3 inb_S4_S1_3)) 6 d = owns (c : Thread nD τ) (slot bM 12 64 inb_S15x128x1024_S1x64x1024_12_64_0) fullShare (addV X false 1 12 c) := rfl
theorem expect_rsccw_s_3_6 (c : Dev nD) : (Rd (F := F) X).expect (dcell c (qS cc0_scratch4 3 inb_S4_S1_3)) 6 = N := by
  unfold Schedule.expect Schedule.amountOf; rw [duties_rsccw_s_3_6, Finset.sum_singleton]; rfl
theorem later_rsccw_s_3 (c : Dev nD) : ∀ r, 7 ≤ r → (Rd (F := F) X).duties (dcell c (qS cc0_scratch4 3 inb_S4_S1_3)) r = ∅ := fun r hr => by
  show (if r < 7 then ({false} : Finset Bool) else ∅) = ∅; exact if_neg (by omega)
theorem later_rsccw_r_0_0 (c : Dev nD) : ∀ r, 1 ≤ r → (Rd (F := F) X).duties (dcell c (qR cc0_scratch5 0 0 inb_S15x2_S1x1_0_0)) r = ∅ := fun r hr => by
  show (if r = 0 then ({false} : Finset Bool) else ∅) = ∅; exact if_neg (by omega)
theorem later_rsccw_r_0_1 (c : Dev nD) : ∀ r, 1 ≤ r → (Rd (F := F) X).duties (dcell c (qR cc0_scratch5 0 1 inb_S15x2_S1x1_0_1)) r = ∅ := fun r hr => by
  show (if r = 0 then ({false} : Finset Bool) else ∅) = ∅; exact if_neg (by omega)
theorem later_rsccw_r_1_0 (c : Dev nD) : ∀ r, 1 ≤ r → (Rd (F := F) X).duties (dcell c (qR cc0_scratch5 1 0 inb_S15x2_S1x1_1_0)) r = ∅ := fun r hr => by
  show (if r = 0 then ({false} : Finset Bool) else ∅) = ∅; exact if_neg (by omega)
theorem later_rsccw_r_1_1 (c : Dev nD) : ∀ r, 1 ≤ r → (Rd (F := F) X).duties (dcell c (qR cc0_scratch5 1 1 inb_S15x2_S1x1_1_1)) r = ∅ := fun r hr => by
  show (if r = 0 then ({false} : Finset Bool) else ∅) = ∅; exact if_neg (by omega)
theorem later_rsccw_r_2_0 (c : Dev nD) : ∀ r, 1 ≤ r → (Rd (F := F) X).duties (dcell c (qR cc0_scratch5 2 0 inb_S15x2_S1x1_2_0)) r = ∅ := fun r hr => by
  show (if r = 0 then ({false} : Finset Bool) else ∅) = ∅; exact if_neg (by omega)
theorem later_rsccw_r_2_1 (c : Dev nD) : ∀ r, 1 ≤ r → (Rd (F := F) X).duties (dcell c (qR cc0_scratch5 2 1 inb_S15x2_S1x1_2_1)) r = ∅ := fun r hr => by
  show (if r = 0 then ({false} : Finset Bool) else ∅) = ∅; exact if_neg (by omega)
theorem later_rsccw_r_3_0 (c : Dev nD) : ∀ r, 1 ≤ r → (Rd (F := F) X).duties (dcell c (qR cc0_scratch5 3 0 inb_S15x2_S1x1_3_0)) r = ∅ := fun r hr => by
  show (if r = 0 then ({false} : Finset Bool) else ∅) = ∅; exact if_neg (by omega)
theorem later_rsccw_r_3_1 (c : Dev nD) : ∀ r, 1 ≤ r → (Rd (F := F) X).duties (dcell c (qR cc0_scratch5 3 1 inb_S15x2_S1x1_3_1)) r = ∅ := fun r hr => by
  show (if r = 0 then ({false} : Finset Bool) else ∅) = ∅; exact if_neg (by omega)
theorem later_rsccw_r_4_0 (c : Dev nD) : ∀ r, 1 ≤ r → (Rd (F := F) X).duties (dcell c (qR cc0_scratch5 4 0 inb_S15x2_S1x1_4_0)) r = ∅ := fun r hr => by
  show (if r = 0 then ({false} : Finset Bool) else ∅) = ∅; exact if_neg (by omega)
theorem later_rsccw_r_4_1 (c : Dev nD) : ∀ r, 1 ≤ r → (Rd (F := F) X).duties (dcell c (qR cc0_scratch5 4 1 inb_S15x2_S1x1_4_1)) r = ∅ := fun r hr => by
  show (if r = 0 then ({false} : Finset Bool) else ∅) = ∅; exact if_neg (by omega)
theorem later_rsccw_r_5_0 (c : Dev nD) : ∀ r, 1 ≤ r → (Rd (F := F) X).duties (dcell c (qR cc0_scratch5 5 0 inb_S15x2_S1x1_5_0)) r = ∅ := fun r hr => by
  show (if r = 0 then ({false} : Finset Bool) else ∅) = ∅; exact if_neg (by omega)
theorem later_rsccw_r_5_1 (c : Dev nD) : ∀ r, 1 ≤ r → (Rd (F := F) X).duties (dcell c (qR cc0_scratch5 5 1 inb_S15x2_S1x1_5_1)) r = ∅ := fun r hr => by
  show (if r = 0 then ({false} : Finset Bool) else ∅) = ∅; exact if_neg (by omega)
theorem later_rsccw_r_6_0 (c : Dev nD) : ∀ r, 1 ≤ r → (Rd (F := F) X).duties (dcell c (qR cc0_scratch5 6 0 inb_S15x2_S1x1_6_0)) r = ∅ := fun r hr => by
  show (if r = 0 then ({false} : Finset Bool) else ∅) = ∅; exact if_neg (by omega)
theorem later_rsccw_r_6_1 (c : Dev nD) : ∀ r, 1 ≤ r → (Rd (F := F) X).duties (dcell c (qR cc0_scratch5 6 1 inb_S15x2_S1x1_6_1)) r = ∅ := fun r hr => by
  show (if r = 0 then ({false} : Finset Bool) else ∅) = ∅; exact if_neg (by omega)
theorem later_rsccw_r_7_0 (c : Dev nD) : ∀ r, 1 ≤ r → (Rd (F := F) X).duties (dcell c (qR cc0_scratch5 7 0 inb_S15x2_S1x1_7_0)) r = ∅ := fun r hr => by
  show (if r = 0 then ({false} : Finset Bool) else ∅) = ∅; exact if_neg (by omega)
theorem later_rsccw_r_7_1 (c : Dev nD) : ∀ r, 1 ≤ r → (Rd (F := F) X).duties (dcell c (qR cc0_scratch5 7 1 inb_S15x2_S1x1_7_1)) r = ∅ := fun r hr => by
  show (if r = 0 then ({false} : Finset Bool) else ∅) = ∅; exact if_neg (by omega)
theorem later_rsccw_r_8_0 (c : Dev nD) : ∀ r, 1 ≤ r → (Rd (F := F) X).duties (dcell c (qR cc0_scratch5 8 0 inb_S15x2_S1x1_8_0)) r = ∅ := fun r hr => by
  show (if r = 0 then ({false} : Finset Bool) else ∅) = ∅; exact if_neg (by omega)
theorem later_rsccw_r_8_1 (c : Dev nD) : ∀ r, 1 ≤ r → (Rd (F := F) X).duties (dcell c (qR cc0_scratch5 8 1 inb_S15x2_S1x1_8_1)) r = ∅ := fun r hr => by
  show (if r = 0 then ({false} : Finset Bool) else ∅) = ∅; exact if_neg (by omega)
theorem later_rsccw_r_9_0 (c : Dev nD) : ∀ r, 1 ≤ r → (Rd (F := F) X).duties (dcell c (qR cc0_scratch5 9 0 inb_S15x2_S1x1_9_0)) r = ∅ := fun r hr => by
  show (if r = 0 then ({false} : Finset Bool) else ∅) = ∅; exact if_neg (by omega)
theorem later_rsccw_r_9_1 (c : Dev nD) : ∀ r, 1 ≤ r → (Rd (F := F) X).duties (dcell c (qR cc0_scratch5 9 1 inb_S15x2_S1x1_9_1)) r = ∅ := fun r hr => by
  show (if r = 0 then ({false} : Finset Bool) else ∅) = ∅; exact if_neg (by omega)
theorem later_rsccw_r_10_0 (c : Dev nD) : ∀ r, 1 ≤ r → (Rd (F := F) X).duties (dcell c (qR cc0_scratch5 10 0 inb_S15x2_S1x1_10_0)) r = ∅ := fun r hr => by
  show (if r = 0 then ({false} : Finset Bool) else ∅) = ∅; exact if_neg (by omega)
theorem later_rsccw_r_10_1 (c : Dev nD) : ∀ r, 1 ≤ r → (Rd (F := F) X).duties (dcell c (qR cc0_scratch5 10 1 inb_S15x2_S1x1_10_1)) r = ∅ := fun r hr => by
  show (if r = 0 then ({false} : Finset Bool) else ∅) = ∅; exact if_neg (by omega)
theorem later_rsccw_r_11_0 (c : Dev nD) : ∀ r, 1 ≤ r → (Rd (F := F) X).duties (dcell c (qR cc0_scratch5 11 0 inb_S15x2_S1x1_11_0)) r = ∅ := fun r hr => by
  show (if r = 0 then ({false} : Finset Bool) else ∅) = ∅; exact if_neg (by omega)
theorem later_rsccw_r_11_1 (c : Dev nD) : ∀ r, 1 ≤ r → (Rd (F := F) X).duties (dcell c (qR cc0_scratch5 11 1 inb_S15x2_S1x1_11_1)) r = ∅ := fun r hr => by
  show (if r = 0 then ({false} : Finset Bool) else ∅) = ∅; exact if_neg (by omega)
theorem later_rsccw_r_12_0 (c : Dev nD) : ∀ r, 1 ≤ r → (Rd (F := F) X).duties (dcell c (qR cc0_scratch5 12 0 inb_S15x2_S1x1_12_0)) r = ∅ := fun r hr => by
  show (if r = 0 then ({false} : Finset Bool) else ∅) = ∅; exact if_neg (by omega)
theorem later_rsccw_r_12_1 (c : Dev nD) : ∀ r, 1 ≤ r → (Rd (F := F) X).duties (dcell c (qR cc0_scratch5 12 1 inb_S15x2_S1x1_12_1)) r = ∅ := fun r hr => by
  show (if r = 0 then ({false} : Finset Bool) else ∅) = ∅; exact if_neg (by omega)
theorem later_rsccw_r_13_0 (c : Dev nD) : ∀ r, 1 ≤ r → (Rd (F := F) X).duties (dcell c (qR cc0_scratch5 13 0 inb_S15x2_S1x1_13_0)) r = ∅ := fun r hr => by
  show (if r = 0 then ({false} : Finset Bool) else ∅) = ∅; exact if_neg (by omega)
theorem later_rsccw_r_13_1 (c : Dev nD) : ∀ r, 1 ≤ r → (Rd (F := F) X).duties (dcell c (qR cc0_scratch5 13 1 inb_S15x2_S1x1_13_1)) r = ∅ := fun r hr => by
  show (if r = 0 then ({false} : Finset Bool) else ∅) = ∅; exact if_neg (by omega)
theorem later_rsccw_r_14_0 (c : Dev nD) : ∀ r, 1 ≤ r → (Rd (F := F) X).duties (dcell c (qR cc0_scratch5 14 0 inb_S15x2_S1x1_14_0)) r = ∅ := fun r hr => by
  show (if r = 0 then ({false} : Finset Bool) else ∅) = ∅; exact if_neg (by omega)
theorem later_rsccw_r_14_1 (c : Dev nD) : ∀ r, 1 ≤ r → (Rd (F := F) X).duties (dcell c (qR cc0_scratch5 14 1 inb_S15x2_S1x1_14_1)) r = ∅ := fun r hr => by
  show (if r = 0 then ({false} : Finset Bool) else ∅) = ∅; exact if_neg (by omega)
theorem duties_agcw_r_0_0 (c : Dev nD) : (Rd (F := F) X).duties (dcell c (qR cc0_scratch7 0 0 inb_S15x2_S1x1_0_0)) 0 = {false} := rfl
theorem amount_agcw_r_0_0 (c : Dev nD) (d : Bool) : (Rd (F := F) X).amount (dcell c (qR cc0_scratch7 0 0 inb_S15x2_S1x1_0_0)) 0 d = N := rfl
theorem payload_agcw_r_0_0 (c : Dev nD) (d : Bool) : (Rd (F := F) X).payload (dcell c (qR cc0_scratch7 0 0 inb_S15x2_S1x1_0_0)) 0 d = owns (c : Thread nD τ) (rows oM (off true (c.val + 15) 0) (off_inb true _ 0)) fullShare (doneV X true 0 (devAt c 15)) := rfl
theorem expect_agcw_r_0_0 (c : Dev nD) : (Rd (F := F) X).expect (dcell c (qR cc0_scratch7 0 0 inb_S15x2_S1x1_0_0)) 0 = N := by
  unfold Schedule.expect Schedule.amountOf; rw [duties_agcw_r_0_0, Finset.sum_singleton]; rfl
theorem duties_agcw_r_0_1 (c : Dev nD) : (Rd (F := F) X).duties (dcell c (qR cc0_scratch7 0 1 inb_S15x2_S1x1_0_1)) 0 = {false} := rfl
theorem amount_agcw_r_0_1 (c : Dev nD) (d : Bool) : (Rd (F := F) X).amount (dcell c (qR cc0_scratch7 0 1 inb_S15x2_S1x1_0_1)) 0 d = N := rfl
theorem payload_agcw_r_0_1 (c : Dev nD) (d : Bool) : (Rd (F := F) X).payload (dcell c (qR cc0_scratch7 0 1 inb_S15x2_S1x1_0_1)) 0 d = owns (c : Thread nD τ) (rows oM (off true (c.val + 15) 1) (off_inb true _ 1)) fullShare (doneV X true 1 (devAt c 15)) := rfl
theorem expect_agcw_r_0_1 (c : Dev nD) : (Rd (F := F) X).expect (dcell c (qR cc0_scratch7 0 1 inb_S15x2_S1x1_0_1)) 0 = N := by
  unfold Schedule.expect Schedule.amountOf; rw [duties_agcw_r_0_1, Finset.sum_singleton]; rfl
theorem duties_agcw_r_1_0 (c : Dev nD) : (Rd (F := F) X).duties (dcell c (qR cc0_scratch7 1 0 inb_S15x2_S1x1_1_0)) 0 = {false} := rfl
theorem amount_agcw_r_1_0 (c : Dev nD) (d : Bool) : (Rd (F := F) X).amount (dcell c (qR cc0_scratch7 1 0 inb_S15x2_S1x1_1_0)) 0 d = N := rfl
theorem payload_agcw_r_1_0 (c : Dev nD) (d : Bool) : (Rd (F := F) X).payload (dcell c (qR cc0_scratch7 1 0 inb_S15x2_S1x1_1_0)) 0 d = owns (c : Thread nD τ) (rows oM (off true (c.val + 14) 0) (off_inb true _ 0)) fullShare (doneV X true 0 (devAt c 14)) := rfl
theorem expect_agcw_r_1_0 (c : Dev nD) : (Rd (F := F) X).expect (dcell c (qR cc0_scratch7 1 0 inb_S15x2_S1x1_1_0)) 0 = N := by
  unfold Schedule.expect Schedule.amountOf; rw [duties_agcw_r_1_0, Finset.sum_singleton]; rfl
theorem duties_agcw_r_1_1 (c : Dev nD) : (Rd (F := F) X).duties (dcell c (qR cc0_scratch7 1 1 inb_S15x2_S1x1_1_1)) 0 = {false} := rfl
theorem amount_agcw_r_1_1 (c : Dev nD) (d : Bool) : (Rd (F := F) X).amount (dcell c (qR cc0_scratch7 1 1 inb_S15x2_S1x1_1_1)) 0 d = N := rfl
theorem payload_agcw_r_1_1 (c : Dev nD) (d : Bool) : (Rd (F := F) X).payload (dcell c (qR cc0_scratch7 1 1 inb_S15x2_S1x1_1_1)) 0 d = owns (c : Thread nD τ) (rows oM (off true (c.val + 14) 1) (off_inb true _ 1)) fullShare (doneV X true 1 (devAt c 14)) := rfl
theorem expect_agcw_r_1_1 (c : Dev nD) : (Rd (F := F) X).expect (dcell c (qR cc0_scratch7 1 1 inb_S15x2_S1x1_1_1)) 0 = N := by
  unfold Schedule.expect Schedule.amountOf; rw [duties_agcw_r_1_1, Finset.sum_singleton]; rfl
theorem duties_agcw_r_2_0 (c : Dev nD) : (Rd (F := F) X).duties (dcell c (qR cc0_scratch7 2 0 inb_S15x2_S1x1_2_0)) 0 = {false} := rfl
theorem amount_agcw_r_2_0 (c : Dev nD) (d : Bool) : (Rd (F := F) X).amount (dcell c (qR cc0_scratch7 2 0 inb_S15x2_S1x1_2_0)) 0 d = N := rfl
theorem payload_agcw_r_2_0 (c : Dev nD) (d : Bool) : (Rd (F := F) X).payload (dcell c (qR cc0_scratch7 2 0 inb_S15x2_S1x1_2_0)) 0 d = owns (c : Thread nD τ) (rows oM (off true (c.val + 13) 0) (off_inb true _ 0)) fullShare (doneV X true 0 (devAt c 13)) := rfl
theorem expect_agcw_r_2_0 (c : Dev nD) : (Rd (F := F) X).expect (dcell c (qR cc0_scratch7 2 0 inb_S15x2_S1x1_2_0)) 0 = N := by
  unfold Schedule.expect Schedule.amountOf; rw [duties_agcw_r_2_0, Finset.sum_singleton]; rfl
theorem duties_agcw_r_2_1 (c : Dev nD) : (Rd (F := F) X).duties (dcell c (qR cc0_scratch7 2 1 inb_S15x2_S1x1_2_1)) 0 = {false} := rfl
theorem amount_agcw_r_2_1 (c : Dev nD) (d : Bool) : (Rd (F := F) X).amount (dcell c (qR cc0_scratch7 2 1 inb_S15x2_S1x1_2_1)) 0 d = N := rfl
theorem payload_agcw_r_2_1 (c : Dev nD) (d : Bool) : (Rd (F := F) X).payload (dcell c (qR cc0_scratch7 2 1 inb_S15x2_S1x1_2_1)) 0 d = owns (c : Thread nD τ) (rows oM (off true (c.val + 13) 1) (off_inb true _ 1)) fullShare (doneV X true 1 (devAt c 13)) := rfl
theorem expect_agcw_r_2_1 (c : Dev nD) : (Rd (F := F) X).expect (dcell c (qR cc0_scratch7 2 1 inb_S15x2_S1x1_2_1)) 0 = N := by
  unfold Schedule.expect Schedule.amountOf; rw [duties_agcw_r_2_1, Finset.sum_singleton]; rfl
theorem duties_agcw_r_3_0 (c : Dev nD) : (Rd (F := F) X).duties (dcell c (qR cc0_scratch7 3 0 inb_S15x2_S1x1_3_0)) 0 = {false} := rfl
theorem amount_agcw_r_3_0 (c : Dev nD) (d : Bool) : (Rd (F := F) X).amount (dcell c (qR cc0_scratch7 3 0 inb_S15x2_S1x1_3_0)) 0 d = N := rfl
theorem payload_agcw_r_3_0 (c : Dev nD) (d : Bool) : (Rd (F := F) X).payload (dcell c (qR cc0_scratch7 3 0 inb_S15x2_S1x1_3_0)) 0 d = owns (c : Thread nD τ) (rows oM (off true (c.val + 12) 0) (off_inb true _ 0)) fullShare (doneV X true 0 (devAt c 12)) := rfl
theorem expect_agcw_r_3_0 (c : Dev nD) : (Rd (F := F) X).expect (dcell c (qR cc0_scratch7 3 0 inb_S15x2_S1x1_3_0)) 0 = N := by
  unfold Schedule.expect Schedule.amountOf; rw [duties_agcw_r_3_0, Finset.sum_singleton]; rfl
theorem duties_agcw_r_3_1 (c : Dev nD) : (Rd (F := F) X).duties (dcell c (qR cc0_scratch7 3 1 inb_S15x2_S1x1_3_1)) 0 = {false} := rfl
theorem amount_agcw_r_3_1 (c : Dev nD) (d : Bool) : (Rd (F := F) X).amount (dcell c (qR cc0_scratch7 3 1 inb_S15x2_S1x1_3_1)) 0 d = N := rfl
theorem payload_agcw_r_3_1 (c : Dev nD) (d : Bool) : (Rd (F := F) X).payload (dcell c (qR cc0_scratch7 3 1 inb_S15x2_S1x1_3_1)) 0 d = owns (c : Thread nD τ) (rows oM (off true (c.val + 12) 1) (off_inb true _ 1)) fullShare (doneV X true 1 (devAt c 12)) := rfl
theorem expect_agcw_r_3_1 (c : Dev nD) : (Rd (F := F) X).expect (dcell c (qR cc0_scratch7 3 1 inb_S15x2_S1x1_3_1)) 0 = N := by
  unfold Schedule.expect Schedule.amountOf; rw [duties_agcw_r_3_1, Finset.sum_singleton]; rfl
theorem duties_agcw_r_4_0 (c : Dev nD) : (Rd (F := F) X).duties (dcell c (qR cc0_scratch7 4 0 inb_S15x2_S1x1_4_0)) 0 = {false} := rfl
theorem amount_agcw_r_4_0 (c : Dev nD) (d : Bool) : (Rd (F := F) X).amount (dcell c (qR cc0_scratch7 4 0 inb_S15x2_S1x1_4_0)) 0 d = N := rfl
theorem payload_agcw_r_4_0 (c : Dev nD) (d : Bool) : (Rd (F := F) X).payload (dcell c (qR cc0_scratch7 4 0 inb_S15x2_S1x1_4_0)) 0 d = owns (c : Thread nD τ) (rows oM (off true (c.val + 11) 0) (off_inb true _ 0)) fullShare (doneV X true 0 (devAt c 11)) := rfl
theorem expect_agcw_r_4_0 (c : Dev nD) : (Rd (F := F) X).expect (dcell c (qR cc0_scratch7 4 0 inb_S15x2_S1x1_4_0)) 0 = N := by
  unfold Schedule.expect Schedule.amountOf; rw [duties_agcw_r_4_0, Finset.sum_singleton]; rfl
theorem duties_agcw_r_4_1 (c : Dev nD) : (Rd (F := F) X).duties (dcell c (qR cc0_scratch7 4 1 inb_S15x2_S1x1_4_1)) 0 = {false} := rfl
theorem amount_agcw_r_4_1 (c : Dev nD) (d : Bool) : (Rd (F := F) X).amount (dcell c (qR cc0_scratch7 4 1 inb_S15x2_S1x1_4_1)) 0 d = N := rfl
theorem payload_agcw_r_4_1 (c : Dev nD) (d : Bool) : (Rd (F := F) X).payload (dcell c (qR cc0_scratch7 4 1 inb_S15x2_S1x1_4_1)) 0 d = owns (c : Thread nD τ) (rows oM (off true (c.val + 11) 1) (off_inb true _ 1)) fullShare (doneV X true 1 (devAt c 11)) := rfl
theorem expect_agcw_r_4_1 (c : Dev nD) : (Rd (F := F) X).expect (dcell c (qR cc0_scratch7 4 1 inb_S15x2_S1x1_4_1)) 0 = N := by
  unfold Schedule.expect Schedule.amountOf; rw [duties_agcw_r_4_1, Finset.sum_singleton]; rfl
theorem duties_agcw_r_5_0 (c : Dev nD) : (Rd (F := F) X).duties (dcell c (qR cc0_scratch7 5 0 inb_S15x2_S1x1_5_0)) 0 = {false} := rfl
theorem amount_agcw_r_5_0 (c : Dev nD) (d : Bool) : (Rd (F := F) X).amount (dcell c (qR cc0_scratch7 5 0 inb_S15x2_S1x1_5_0)) 0 d = N := rfl
theorem payload_agcw_r_5_0 (c : Dev nD) (d : Bool) : (Rd (F := F) X).payload (dcell c (qR cc0_scratch7 5 0 inb_S15x2_S1x1_5_0)) 0 d = owns (c : Thread nD τ) (rows oM (off true (c.val + 10) 0) (off_inb true _ 0)) fullShare (doneV X true 0 (devAt c 10)) := rfl
theorem expect_agcw_r_5_0 (c : Dev nD) : (Rd (F := F) X).expect (dcell c (qR cc0_scratch7 5 0 inb_S15x2_S1x1_5_0)) 0 = N := by
  unfold Schedule.expect Schedule.amountOf; rw [duties_agcw_r_5_0, Finset.sum_singleton]; rfl
theorem duties_agcw_r_5_1 (c : Dev nD) : (Rd (F := F) X).duties (dcell c (qR cc0_scratch7 5 1 inb_S15x2_S1x1_5_1)) 0 = {false} := rfl
theorem amount_agcw_r_5_1 (c : Dev nD) (d : Bool) : (Rd (F := F) X).amount (dcell c (qR cc0_scratch7 5 1 inb_S15x2_S1x1_5_1)) 0 d = N := rfl
theorem payload_agcw_r_5_1 (c : Dev nD) (d : Bool) : (Rd (F := F) X).payload (dcell c (qR cc0_scratch7 5 1 inb_S15x2_S1x1_5_1)) 0 d = owns (c : Thread nD τ) (rows oM (off true (c.val + 10) 1) (off_inb true _ 1)) fullShare (doneV X true 1 (devAt c 10)) := rfl
theorem expect_agcw_r_5_1 (c : Dev nD) : (Rd (F := F) X).expect (dcell c (qR cc0_scratch7 5 1 inb_S15x2_S1x1_5_1)) 0 = N := by
  unfold Schedule.expect Schedule.amountOf; rw [duties_agcw_r_5_1, Finset.sum_singleton]; rfl
theorem duties_agcw_r_6_0 (c : Dev nD) : (Rd (F := F) X).duties (dcell c (qR cc0_scratch7 6 0 inb_S15x2_S1x1_6_0)) 0 = {false} := rfl
theorem amount_agcw_r_6_0 (c : Dev nD) (d : Bool) : (Rd (F := F) X).amount (dcell c (qR cc0_scratch7 6 0 inb_S15x2_S1x1_6_0)) 0 d = N := rfl
theorem payload_agcw_r_6_0 (c : Dev nD) (d : Bool) : (Rd (F := F) X).payload (dcell c (qR cc0_scratch7 6 0 inb_S15x2_S1x1_6_0)) 0 d = owns (c : Thread nD τ) (rows oM (off true (c.val + 9) 0) (off_inb true _ 0)) fullShare (doneV X true 0 (devAt c 9)) := rfl
theorem expect_agcw_r_6_0 (c : Dev nD) : (Rd (F := F) X).expect (dcell c (qR cc0_scratch7 6 0 inb_S15x2_S1x1_6_0)) 0 = N := by
  unfold Schedule.expect Schedule.amountOf; rw [duties_agcw_r_6_0, Finset.sum_singleton]; rfl
theorem duties_agcw_r_6_1 (c : Dev nD) : (Rd (F := F) X).duties (dcell c (qR cc0_scratch7 6 1 inb_S15x2_S1x1_6_1)) 0 = {false} := rfl
theorem amount_agcw_r_6_1 (c : Dev nD) (d : Bool) : (Rd (F := F) X).amount (dcell c (qR cc0_scratch7 6 1 inb_S15x2_S1x1_6_1)) 0 d = N := rfl
theorem payload_agcw_r_6_1 (c : Dev nD) (d : Bool) : (Rd (F := F) X).payload (dcell c (qR cc0_scratch7 6 1 inb_S15x2_S1x1_6_1)) 0 d = owns (c : Thread nD τ) (rows oM (off true (c.val + 9) 1) (off_inb true _ 1)) fullShare (doneV X true 1 (devAt c 9)) := rfl
theorem expect_agcw_r_6_1 (c : Dev nD) : (Rd (F := F) X).expect (dcell c (qR cc0_scratch7 6 1 inb_S15x2_S1x1_6_1)) 0 = N := by
  unfold Schedule.expect Schedule.amountOf; rw [duties_agcw_r_6_1, Finset.sum_singleton]; rfl
theorem duties_agcw_r_7_0 (c : Dev nD) : (Rd (F := F) X).duties (dcell c (qR cc0_scratch7 7 0 inb_S15x2_S1x1_7_0)) 0 = {false} := rfl
theorem amount_agcw_r_7_0 (c : Dev nD) (d : Bool) : (Rd (F := F) X).amount (dcell c (qR cc0_scratch7 7 0 inb_S15x2_S1x1_7_0)) 0 d = N := rfl
theorem payload_agcw_r_7_0 (c : Dev nD) (d : Bool) : (Rd (F := F) X).payload (dcell c (qR cc0_scratch7 7 0 inb_S15x2_S1x1_7_0)) 0 d = owns (c : Thread nD τ) (rows oM (off true (c.val + 8) 0) (off_inb true _ 0)) fullShare (doneV X true 0 (devAt c 8)) := rfl
theorem expect_agcw_r_7_0 (c : Dev nD) : (Rd (F := F) X).expect (dcell c (qR cc0_scratch7 7 0 inb_S15x2_S1x1_7_0)) 0 = N := by
  unfold Schedule.expect Schedule.amountOf; rw [duties_agcw_r_7_0, Finset.sum_singleton]; rfl
theorem duties_agcw_r_7_1 (c : Dev nD) : (Rd (F := F) X).duties (dcell c (qR cc0_scratch7 7 1 inb_S15x2_S1x1_7_1)) 0 = {false} := rfl
theorem amount_agcw_r_7_1 (c : Dev nD) (d : Bool) : (Rd (F := F) X).amount (dcell c (qR cc0_scratch7 7 1 inb_S15x2_S1x1_7_1)) 0 d = N := rfl
theorem payload_agcw_r_7_1 (c : Dev nD) (d : Bool) : (Rd (F := F) X).payload (dcell c (qR cc0_scratch7 7 1 inb_S15x2_S1x1_7_1)) 0 d = owns (c : Thread nD τ) (rows oM (off true (c.val + 8) 1) (off_inb true _ 1)) fullShare (doneV X true 1 (devAt c 8)) := rfl
theorem expect_agcw_r_7_1 (c : Dev nD) : (Rd (F := F) X).expect (dcell c (qR cc0_scratch7 7 1 inb_S15x2_S1x1_7_1)) 0 = N := by
  unfold Schedule.expect Schedule.amountOf; rw [duties_agcw_r_7_1, Finset.sum_singleton]; rfl
theorem duties_agcw_r_8_0 (c : Dev nD) : (Rd (F := F) X).duties (dcell c (qR cc0_scratch7 8 0 inb_S15x2_S1x1_8_0)) 0 = {false} := rfl
theorem amount_agcw_r_8_0 (c : Dev nD) (d : Bool) : (Rd (F := F) X).amount (dcell c (qR cc0_scratch7 8 0 inb_S15x2_S1x1_8_0)) 0 d = N := rfl
theorem payload_agcw_r_8_0 (c : Dev nD) (d : Bool) : (Rd (F := F) X).payload (dcell c (qR cc0_scratch7 8 0 inb_S15x2_S1x1_8_0)) 0 d = owns (c : Thread nD τ) (rows oM (off true (c.val + 7) 0) (off_inb true _ 0)) fullShare (doneV X true 0 (devAt c 7)) := rfl
theorem expect_agcw_r_8_0 (c : Dev nD) : (Rd (F := F) X).expect (dcell c (qR cc0_scratch7 8 0 inb_S15x2_S1x1_8_0)) 0 = N := by
  unfold Schedule.expect Schedule.amountOf; rw [duties_agcw_r_8_0, Finset.sum_singleton]; rfl
theorem duties_agcw_r_8_1 (c : Dev nD) : (Rd (F := F) X).duties (dcell c (qR cc0_scratch7 8 1 inb_S15x2_S1x1_8_1)) 0 = {false} := rfl
theorem amount_agcw_r_8_1 (c : Dev nD) (d : Bool) : (Rd (F := F) X).amount (dcell c (qR cc0_scratch7 8 1 inb_S15x2_S1x1_8_1)) 0 d = N := rfl
theorem payload_agcw_r_8_1 (c : Dev nD) (d : Bool) : (Rd (F := F) X).payload (dcell c (qR cc0_scratch7 8 1 inb_S15x2_S1x1_8_1)) 0 d = owns (c : Thread nD τ) (rows oM (off true (c.val + 7) 1) (off_inb true _ 1)) fullShare (doneV X true 1 (devAt c 7)) := rfl
theorem expect_agcw_r_8_1 (c : Dev nD) : (Rd (F := F) X).expect (dcell c (qR cc0_scratch7 8 1 inb_S15x2_S1x1_8_1)) 0 = N := by
  unfold Schedule.expect Schedule.amountOf; rw [duties_agcw_r_8_1, Finset.sum_singleton]; rfl
theorem duties_agcw_r_9_0 (c : Dev nD) : (Rd (F := F) X).duties (dcell c (qR cc0_scratch7 9 0 inb_S15x2_S1x1_9_0)) 0 = {false} := rfl
theorem amount_agcw_r_9_0 (c : Dev nD) (d : Bool) : (Rd (F := F) X).amount (dcell c (qR cc0_scratch7 9 0 inb_S15x2_S1x1_9_0)) 0 d = N := rfl
theorem payload_agcw_r_9_0 (c : Dev nD) (d : Bool) : (Rd (F := F) X).payload (dcell c (qR cc0_scratch7 9 0 inb_S15x2_S1x1_9_0)) 0 d = owns (c : Thread nD τ) (rows oM (off true (c.val + 6) 0) (off_inb true _ 0)) fullShare (doneV X true 0 (devAt c 6)) := rfl
theorem expect_agcw_r_9_0 (c : Dev nD) : (Rd (F := F) X).expect (dcell c (qR cc0_scratch7 9 0 inb_S15x2_S1x1_9_0)) 0 = N := by
  unfold Schedule.expect Schedule.amountOf; rw [duties_agcw_r_9_0, Finset.sum_singleton]; rfl
theorem duties_agcw_r_9_1 (c : Dev nD) : (Rd (F := F) X).duties (dcell c (qR cc0_scratch7 9 1 inb_S15x2_S1x1_9_1)) 0 = {false} := rfl
theorem amount_agcw_r_9_1 (c : Dev nD) (d : Bool) : (Rd (F := F) X).amount (dcell c (qR cc0_scratch7 9 1 inb_S15x2_S1x1_9_1)) 0 d = N := rfl
theorem payload_agcw_r_9_1 (c : Dev nD) (d : Bool) : (Rd (F := F) X).payload (dcell c (qR cc0_scratch7 9 1 inb_S15x2_S1x1_9_1)) 0 d = owns (c : Thread nD τ) (rows oM (off true (c.val + 6) 1) (off_inb true _ 1)) fullShare (doneV X true 1 (devAt c 6)) := rfl
theorem expect_agcw_r_9_1 (c : Dev nD) : (Rd (F := F) X).expect (dcell c (qR cc0_scratch7 9 1 inb_S15x2_S1x1_9_1)) 0 = N := by
  unfold Schedule.expect Schedule.amountOf; rw [duties_agcw_r_9_1, Finset.sum_singleton]; rfl
theorem duties_agcw_r_10_0 (c : Dev nD) : (Rd (F := F) X).duties (dcell c (qR cc0_scratch7 10 0 inb_S15x2_S1x1_10_0)) 0 = {false} := rfl
theorem amount_agcw_r_10_0 (c : Dev nD) (d : Bool) : (Rd (F := F) X).amount (dcell c (qR cc0_scratch7 10 0 inb_S15x2_S1x1_10_0)) 0 d = N := rfl
theorem payload_agcw_r_10_0 (c : Dev nD) (d : Bool) : (Rd (F := F) X).payload (dcell c (qR cc0_scratch7 10 0 inb_S15x2_S1x1_10_0)) 0 d = owns (c : Thread nD τ) (rows oM (off true (c.val + 5) 0) (off_inb true _ 0)) fullShare (doneV X true 0 (devAt c 5)) := rfl
theorem expect_agcw_r_10_0 (c : Dev nD) : (Rd (F := F) X).expect (dcell c (qR cc0_scratch7 10 0 inb_S15x2_S1x1_10_0)) 0 = N := by
  unfold Schedule.expect Schedule.amountOf; rw [duties_agcw_r_10_0, Finset.sum_singleton]; rfl
theorem duties_agcw_r_10_1 (c : Dev nD) : (Rd (F := F) X).duties (dcell c (qR cc0_scratch7 10 1 inb_S15x2_S1x1_10_1)) 0 = {false} := rfl
theorem amount_agcw_r_10_1 (c : Dev nD) (d : Bool) : (Rd (F := F) X).amount (dcell c (qR cc0_scratch7 10 1 inb_S15x2_S1x1_10_1)) 0 d = N := rfl
theorem payload_agcw_r_10_1 (c : Dev nD) (d : Bool) : (Rd (F := F) X).payload (dcell c (qR cc0_scratch7 10 1 inb_S15x2_S1x1_10_1)) 0 d = owns (c : Thread nD τ) (rows oM (off true (c.val + 5) 1) (off_inb true _ 1)) fullShare (doneV X true 1 (devAt c 5)) := rfl
theorem expect_agcw_r_10_1 (c : Dev nD) : (Rd (F := F) X).expect (dcell c (qR cc0_scratch7 10 1 inb_S15x2_S1x1_10_1)) 0 = N := by
  unfold Schedule.expect Schedule.amountOf; rw [duties_agcw_r_10_1, Finset.sum_singleton]; rfl
theorem duties_agcw_r_11_0 (c : Dev nD) : (Rd (F := F) X).duties (dcell c (qR cc0_scratch7 11 0 inb_S15x2_S1x1_11_0)) 0 = {false} := rfl
theorem amount_agcw_r_11_0 (c : Dev nD) (d : Bool) : (Rd (F := F) X).amount (dcell c (qR cc0_scratch7 11 0 inb_S15x2_S1x1_11_0)) 0 d = N := rfl
theorem payload_agcw_r_11_0 (c : Dev nD) (d : Bool) : (Rd (F := F) X).payload (dcell c (qR cc0_scratch7 11 0 inb_S15x2_S1x1_11_0)) 0 d = owns (c : Thread nD τ) (rows oM (off true (c.val + 4) 0) (off_inb true _ 0)) fullShare (doneV X true 0 (devAt c 4)) := rfl
theorem expect_agcw_r_11_0 (c : Dev nD) : (Rd (F := F) X).expect (dcell c (qR cc0_scratch7 11 0 inb_S15x2_S1x1_11_0)) 0 = N := by
  unfold Schedule.expect Schedule.amountOf; rw [duties_agcw_r_11_0, Finset.sum_singleton]; rfl
theorem duties_agcw_r_11_1 (c : Dev nD) : (Rd (F := F) X).duties (dcell c (qR cc0_scratch7 11 1 inb_S15x2_S1x1_11_1)) 0 = {false} := rfl
theorem amount_agcw_r_11_1 (c : Dev nD) (d : Bool) : (Rd (F := F) X).amount (dcell c (qR cc0_scratch7 11 1 inb_S15x2_S1x1_11_1)) 0 d = N := rfl
theorem payload_agcw_r_11_1 (c : Dev nD) (d : Bool) : (Rd (F := F) X).payload (dcell c (qR cc0_scratch7 11 1 inb_S15x2_S1x1_11_1)) 0 d = owns (c : Thread nD τ) (rows oM (off true (c.val + 4) 1) (off_inb true _ 1)) fullShare (doneV X true 1 (devAt c 4)) := rfl
theorem expect_agcw_r_11_1 (c : Dev nD) : (Rd (F := F) X).expect (dcell c (qR cc0_scratch7 11 1 inb_S15x2_S1x1_11_1)) 0 = N := by
  unfold Schedule.expect Schedule.amountOf; rw [duties_agcw_r_11_1, Finset.sum_singleton]; rfl
theorem duties_agcw_r_12_0 (c : Dev nD) : (Rd (F := F) X).duties (dcell c (qR cc0_scratch7 12 0 inb_S15x2_S1x1_12_0)) 0 = {false} := rfl
theorem amount_agcw_r_12_0 (c : Dev nD) (d : Bool) : (Rd (F := F) X).amount (dcell c (qR cc0_scratch7 12 0 inb_S15x2_S1x1_12_0)) 0 d = N := rfl
theorem payload_agcw_r_12_0 (c : Dev nD) (d : Bool) : (Rd (F := F) X).payload (dcell c (qR cc0_scratch7 12 0 inb_S15x2_S1x1_12_0)) 0 d = owns (c : Thread nD τ) (rows oM (off true (c.val + 3) 0) (off_inb true _ 0)) fullShare (doneV X true 0 (devAt c 3)) := rfl
theorem expect_agcw_r_12_0 (c : Dev nD) : (Rd (F := F) X).expect (dcell c (qR cc0_scratch7 12 0 inb_S15x2_S1x1_12_0)) 0 = N := by
  unfold Schedule.expect Schedule.amountOf; rw [duties_agcw_r_12_0, Finset.sum_singleton]; rfl
theorem duties_agcw_r_12_1 (c : Dev nD) : (Rd (F := F) X).duties (dcell c (qR cc0_scratch7 12 1 inb_S15x2_S1x1_12_1)) 0 = {false} := rfl
theorem amount_agcw_r_12_1 (c : Dev nD) (d : Bool) : (Rd (F := F) X).amount (dcell c (qR cc0_scratch7 12 1 inb_S15x2_S1x1_12_1)) 0 d = N := rfl
theorem payload_agcw_r_12_1 (c : Dev nD) (d : Bool) : (Rd (F := F) X).payload (dcell c (qR cc0_scratch7 12 1 inb_S15x2_S1x1_12_1)) 0 d = owns (c : Thread nD τ) (rows oM (off true (c.val + 3) 1) (off_inb true _ 1)) fullShare (doneV X true 1 (devAt c 3)) := rfl
theorem expect_agcw_r_12_1 (c : Dev nD) : (Rd (F := F) X).expect (dcell c (qR cc0_scratch7 12 1 inb_S15x2_S1x1_12_1)) 0 = N := by
  unfold Schedule.expect Schedule.amountOf; rw [duties_agcw_r_12_1, Finset.sum_singleton]; rfl
theorem duties_agcw_r_13_0 (c : Dev nD) : (Rd (F := F) X).duties (dcell c (qR cc0_scratch7 13 0 inb_S15x2_S1x1_13_0)) 0 = {false} := rfl
theorem amount_agcw_r_13_0 (c : Dev nD) (d : Bool) : (Rd (F := F) X).amount (dcell c (qR cc0_scratch7 13 0 inb_S15x2_S1x1_13_0)) 0 d = N := rfl
theorem payload_agcw_r_13_0 (c : Dev nD) (d : Bool) : (Rd (F := F) X).payload (dcell c (qR cc0_scratch7 13 0 inb_S15x2_S1x1_13_0)) 0 d = owns (c : Thread nD τ) (rows oM (off true (c.val + 2) 0) (off_inb true _ 0)) fullShare (doneV X true 0 (devAt c 2)) := rfl
theorem expect_agcw_r_13_0 (c : Dev nD) : (Rd (F := F) X).expect (dcell c (qR cc0_scratch7 13 0 inb_S15x2_S1x1_13_0)) 0 = N := by
  unfold Schedule.expect Schedule.amountOf; rw [duties_agcw_r_13_0, Finset.sum_singleton]; rfl
theorem duties_agcw_r_13_1 (c : Dev nD) : (Rd (F := F) X).duties (dcell c (qR cc0_scratch7 13 1 inb_S15x2_S1x1_13_1)) 0 = {false} := rfl
theorem amount_agcw_r_13_1 (c : Dev nD) (d : Bool) : (Rd (F := F) X).amount (dcell c (qR cc0_scratch7 13 1 inb_S15x2_S1x1_13_1)) 0 d = N := rfl
theorem payload_agcw_r_13_1 (c : Dev nD) (d : Bool) : (Rd (F := F) X).payload (dcell c (qR cc0_scratch7 13 1 inb_S15x2_S1x1_13_1)) 0 d = owns (c : Thread nD τ) (rows oM (off true (c.val + 2) 1) (off_inb true _ 1)) fullShare (doneV X true 1 (devAt c 2)) := rfl
theorem expect_agcw_r_13_1 (c : Dev nD) : (Rd (F := F) X).expect (dcell c (qR cc0_scratch7 13 1 inb_S15x2_S1x1_13_1)) 0 = N := by
  unfold Schedule.expect Schedule.amountOf; rw [duties_agcw_r_13_1, Finset.sum_singleton]; rfl
theorem duties_agcw_r_14_0 (c : Dev nD) : (Rd (F := F) X).duties (dcell c (qR cc0_scratch7 14 0 inb_S15x2_S1x1_14_0)) 0 = {false} := rfl
theorem amount_agcw_r_14_0 (c : Dev nD) (d : Bool) : (Rd (F := F) X).amount (dcell c (qR cc0_scratch7 14 0 inb_S15x2_S1x1_14_0)) 0 d = N := rfl
theorem payload_agcw_r_14_0 (c : Dev nD) (d : Bool) : (Rd (F := F) X).payload (dcell c (qR cc0_scratch7 14 0 inb_S15x2_S1x1_14_0)) 0 d = owns (c : Thread nD τ) (rows oM (off true (c.val + 1) 0) (off_inb true _ 0)) fullShare (doneV X true 0 (devAt c 1)) := rfl
theorem expect_agcw_r_14_0 (c : Dev nD) : (Rd (F := F) X).expect (dcell c (qR cc0_scratch7 14 0 inb_S15x2_S1x1_14_0)) 0 = N := by
  unfold Schedule.expect Schedule.amountOf; rw [duties_agcw_r_14_0, Finset.sum_singleton]; rfl
theorem duties_agcw_r_14_1 (c : Dev nD) : (Rd (F := F) X).duties (dcell c (qR cc0_scratch7 14 1 inb_S15x2_S1x1_14_1)) 0 = {false} := rfl
theorem amount_agcw_r_14_1 (c : Dev nD) (d : Bool) : (Rd (F := F) X).amount (dcell c (qR cc0_scratch7 14 1 inb_S15x2_S1x1_14_1)) 0 d = N := rfl
theorem payload_agcw_r_14_1 (c : Dev nD) (d : Bool) : (Rd (F := F) X).payload (dcell c (qR cc0_scratch7 14 1 inb_S15x2_S1x1_14_1)) 0 d = owns (c : Thread nD τ) (rows oM (off true (c.val + 1) 1) (off_inb true _ 1)) fullShare (doneV X true 1 (devAt c 1)) := rfl
theorem expect_agcw_r_14_1 (c : Dev nD) : (Rd (F := F) X).expect (dcell c (qR cc0_scratch7 14 1 inb_S15x2_S1x1_14_1)) 0 = N := by
  unfold Schedule.expect Schedule.amountOf; rw [duties_agcw_r_14_1, Finset.sum_singleton]; rfl
theorem duties_agcw_s_0_0 (c : Dev nD) : (Rd (F := F) X).duties (dcell c (qS cc0_scratch6 0 inb_S4_S1_0)) 0 = {false} := rfl
theorem amount_agcw_s_0_0 (c : Dev nD) (d : Bool) : (Rd (F := F) X).amount (dcell c (qS cc0_scratch6 0 inb_S4_S1_0)) 0 d = N := rfl
theorem payload_agcw_s_0_0 (c : Dev nD) (d : Bool) : (Rd (F := F) X).payload (dcell c (qS cc0_scratch6 0 inb_S4_S1_0)) 0 d = owns (c : Thread nD τ) (slot aM 14 0 inb_S15x128x1024_S1x64x1024_14_0_0) fullShare.right (addV X true 0 14 c) := rfl
theorem expect_agcw_s_0_0 (c : Dev nD) : (Rd (F := F) X).expect (dcell c (qS cc0_scratch6 0 inb_S4_S1_0)) 0 = N := by
  unfold Schedule.expect Schedule.amountOf; rw [duties_agcw_s_0_0, Finset.sum_singleton]; rfl
theorem duties_agcw_s_0_1 (c : Dev nD) : (Rd (F := F) X).duties (dcell c (qS cc0_scratch6 0 inb_S4_S1_0)) 1 = {false} := rfl
theorem amount_agcw_s_0_1 (c : Dev nD) (d : Bool) : (Rd (F := F) X).amount (dcell c (qS cc0_scratch6 0 inb_S4_S1_0)) 1 d = N := rfl
theorem payload_agcw_s_0_1 (c : Dev nD) (d : Bool) : (Rd (F := F) X).payload (dcell c (qS cc0_scratch6 0 inb_S4_S1_0)) 1 d = owns (c : Thread nD τ) (rows oM (off true (c.val + 14) 0) (off_inb true _ 0)) fullShare (doneV X true 0 (devAt c 14)) := rfl
theorem expect_agcw_s_0_1 (c : Dev nD) : (Rd (F := F) X).expect (dcell c (qS cc0_scratch6 0 inb_S4_S1_0)) 1 = N := by
  unfold Schedule.expect Schedule.amountOf; rw [duties_agcw_s_0_1, Finset.sum_singleton]; rfl
theorem duties_agcw_s_0_2 (c : Dev nD) : (Rd (F := F) X).duties (dcell c (qS cc0_scratch6 0 inb_S4_S1_0)) 2 = {false} := rfl
theorem amount_agcw_s_0_2 (c : Dev nD) (d : Bool) : (Rd (F := F) X).amount (dcell c (qS cc0_scratch6 0 inb_S4_S1_0)) 2 d = N := rfl
theorem payload_agcw_s_0_2 (c : Dev nD) (d : Bool) : (Rd (F := F) X).payload (dcell c (qS cc0_scratch6 0 inb_S4_S1_0)) 2 d = owns (c : Thread nD τ) (rows oM (off true (c.val + 12) 0) (off_inb true _ 0)) fullShare (doneV X true 0 (devAt c 12)) := rfl
theorem expect_agcw_s_0_2 (c : Dev nD) : (Rd (F := F) X).expect (dcell c (qS cc0_scratch6 0 inb_S4_S1_0)) 2 = N := by
  unfold Schedule.expect Schedule.amountOf; rw [duties_agcw_s_0_2, Finset.sum_singleton]; rfl
theorem duties_agcw_s_0_3 (c : Dev nD) : (Rd (F := F) X).duties (dcell c (qS cc0_scratch6 0 inb_S4_S1_0)) 3 = {false} := rfl
theorem amount_agcw_s_0_3 (c : Dev nD) (d : Bool) : (Rd (F := F) X).amount (dcell c (qS cc0_scratch6 0 inb_S4_S1_0)) 3 d = N := rfl
theorem payload_agcw_s_0_3 (c : Dev nD) (d : Bool) : (Rd (F := F) X).payload (dcell c (qS cc0_scratch6 0 inb_S4_S1_0)) 3 d = owns (c : Thread nD τ) (rows oM (off true (c.val + 10) 0) (off_inb true _ 0)) fullShare (doneV X true 0 (devAt c 10)) := rfl
theorem expect_agcw_s_0_3 (c : Dev nD) : (Rd (F := F) X).expect (dcell c (qS cc0_scratch6 0 inb_S4_S1_0)) 3 = N := by
  unfold Schedule.expect Schedule.amountOf; rw [duties_agcw_s_0_3, Finset.sum_singleton]; rfl
theorem duties_agcw_s_0_4 (c : Dev nD) : (Rd (F := F) X).duties (dcell c (qS cc0_scratch6 0 inb_S4_S1_0)) 4 = {false} := rfl
theorem amount_agcw_s_0_4 (c : Dev nD) (d : Bool) : (Rd (F := F) X).amount (dcell c (qS cc0_scratch6 0 inb_S4_S1_0)) 4 d = N := rfl
theorem payload_agcw_s_0_4 (c : Dev nD) (d : Bool) : (Rd (F := F) X).payload (dcell c (qS cc0_scratch6 0 inb_S4_S1_0)) 4 d = owns (c : Thread nD τ) (rows oM (off true (c.val + 8) 0) (off_inb true _ 0)) fullShare (doneV X true 0 (devAt c 8)) := rfl
theorem expect_agcw_s_0_4 (c : Dev nD) : (Rd (F := F) X).expect (dcell c (qS cc0_scratch6 0 inb_S4_S1_0)) 4 = N := by
  unfold Schedule.expect Schedule.amountOf; rw [duties_agcw_s_0_4, Finset.sum_singleton]; rfl
theorem duties_agcw_s_0_5 (c : Dev nD) : (Rd (F := F) X).duties (dcell c (qS cc0_scratch6 0 inb_S4_S1_0)) 5 = {false} := rfl
theorem amount_agcw_s_0_5 (c : Dev nD) (d : Bool) : (Rd (F := F) X).amount (dcell c (qS cc0_scratch6 0 inb_S4_S1_0)) 5 d = N := rfl
theorem payload_agcw_s_0_5 (c : Dev nD) (d : Bool) : (Rd (F := F) X).payload (dcell c (qS cc0_scratch6 0 inb_S4_S1_0)) 5 d = owns (c : Thread nD τ) (rows oM (off true (c.val + 6) 0) (off_inb true _ 0)) fullShare (doneV X true 0 (devAt c 6)) := rfl
theorem expect_agcw_s_0_5 (c : Dev nD) : (Rd (F := F) X).expect (dcell c (qS cc0_scratch6 0 inb_S4_S1_0)) 5 = N := by
  unfold Schedule.expect Schedule.amountOf; rw [duties_agcw_s_0_5, Finset.sum_singleton]; rfl
theorem duties_agcw_s_0_6 (c : Dev nD) : (Rd (F := F) X).duties (dcell c (qS cc0_scratch6 0 inb_S4_S1_0)) 6 = {false} := rfl
theorem amount_agcw_s_0_6 (c : Dev nD) (d : Bool) : (Rd (F := F) X).amount (dcell c (qS cc0_scratch6 0 inb_S4_S1_0)) 6 d = N := rfl
theorem payload_agcw_s_0_6 (c : Dev nD) (d : Bool) : (Rd (F := F) X).payload (dcell c (qS cc0_scratch6 0 inb_S4_S1_0)) 6 d = owns (c : Thread nD τ) (rows oM (off true (c.val + 4) 0) (off_inb true _ 0)) fullShare (doneV X true 0 (devAt c 4)) := rfl
theorem expect_agcw_s_0_6 (c : Dev nD) : (Rd (F := F) X).expect (dcell c (qS cc0_scratch6 0 inb_S4_S1_0)) 6 = N := by
  unfold Schedule.expect Schedule.amountOf; rw [duties_agcw_s_0_6, Finset.sum_singleton]; rfl
theorem duties_agcw_s_0_7 (c : Dev nD) : (Rd (F := F) X).duties (dcell c (qS cc0_scratch6 0 inb_S4_S1_0)) 7 = {false} := rfl
theorem amount_agcw_s_0_7 (c : Dev nD) (d : Bool) : (Rd (F := F) X).amount (dcell c (qS cc0_scratch6 0 inb_S4_S1_0)) 7 d = N := rfl
theorem payload_agcw_s_0_7 (c : Dev nD) (d : Bool) : (Rd (F := F) X).payload (dcell c (qS cc0_scratch6 0 inb_S4_S1_0)) 7 d = owns (c : Thread nD τ) (rows oM (off true (c.val + 2) 0) (off_inb true _ 0)) fullShare (doneV X true 0 (devAt c 2)) := rfl
theorem expect_agcw_s_0_7 (c : Dev nD) : (Rd (F := F) X).expect (dcell c (qS cc0_scratch6 0 inb_S4_S1_0)) 7 = N := by
  unfold Schedule.expect Schedule.amountOf; rw [duties_agcw_s_0_7, Finset.sum_singleton]; rfl
theorem later_agcw_s_0 (c : Dev nD) : ∀ r, 8 ≤ r → (Rd (F := F) X).duties (dcell c (qS cc0_scratch6 0 inb_S4_S1_0)) r = ∅ := fun r hr => by
  show (if r < 8 then ({false} : Finset Bool) else ∅) = ∅; exact if_neg (by omega)
theorem duties_agcw_s_1_0 (c : Dev nD) : (Rd (F := F) X).duties (dcell c (qS cc0_scratch6 1 inb_S4_S1_1)) 0 = {false} := rfl
theorem amount_agcw_s_1_0 (c : Dev nD) (d : Bool) : (Rd (F := F) X).amount (dcell c (qS cc0_scratch6 1 inb_S4_S1_1)) 0 d = N := rfl
theorem payload_agcw_s_1_0 (c : Dev nD) (d : Bool) : (Rd (F := F) X).payload (dcell c (qS cc0_scratch6 1 inb_S4_S1_1)) 0 d = owns (c : Thread nD τ) (slot aM 14 64 inb_S15x128x1024_S1x64x1024_14_64_0) fullShare.right (addV X true 1 14 c) := rfl
theorem expect_agcw_s_1_0 (c : Dev nD) : (Rd (F := F) X).expect (dcell c (qS cc0_scratch6 1 inb_S4_S1_1)) 0 = N := by
  unfold Schedule.expect Schedule.amountOf; rw [duties_agcw_s_1_0, Finset.sum_singleton]; rfl
theorem duties_agcw_s_1_1 (c : Dev nD) : (Rd (F := F) X).duties (dcell c (qS cc0_scratch6 1 inb_S4_S1_1)) 1 = {false} := rfl
theorem amount_agcw_s_1_1 (c : Dev nD) (d : Bool) : (Rd (F := F) X).amount (dcell c (qS cc0_scratch6 1 inb_S4_S1_1)) 1 d = N := rfl
theorem payload_agcw_s_1_1 (c : Dev nD) (d : Bool) : (Rd (F := F) X).payload (dcell c (qS cc0_scratch6 1 inb_S4_S1_1)) 1 d = owns (c : Thread nD τ) (rows oM (off true (c.val + 14) 1) (off_inb true _ 1)) fullShare (doneV X true 1 (devAt c 14)) := rfl
theorem expect_agcw_s_1_1 (c : Dev nD) : (Rd (F := F) X).expect (dcell c (qS cc0_scratch6 1 inb_S4_S1_1)) 1 = N := by
  unfold Schedule.expect Schedule.amountOf; rw [duties_agcw_s_1_1, Finset.sum_singleton]; rfl
theorem duties_agcw_s_1_2 (c : Dev nD) : (Rd (F := F) X).duties (dcell c (qS cc0_scratch6 1 inb_S4_S1_1)) 2 = {false} := rfl
theorem amount_agcw_s_1_2 (c : Dev nD) (d : Bool) : (Rd (F := F) X).amount (dcell c (qS cc0_scratch6 1 inb_S4_S1_1)) 2 d = N := rfl
theorem payload_agcw_s_1_2 (c : Dev nD) (d : Bool) : (Rd (F := F) X).payload (dcell c (qS cc0_scratch6 1 inb_S4_S1_1)) 2 d = owns (c : Thread nD τ) (rows oM (off true (c.val + 12) 1) (off_inb true _ 1)) fullShare (doneV X true 1 (devAt c 12)) := rfl
theorem expect_agcw_s_1_2 (c : Dev nD) : (Rd (F := F) X).expect (dcell c (qS cc0_scratch6 1 inb_S4_S1_1)) 2 = N := by
  unfold Schedule.expect Schedule.amountOf; rw [duties_agcw_s_1_2, Finset.sum_singleton]; rfl
theorem duties_agcw_s_1_3 (c : Dev nD) : (Rd (F := F) X).duties (dcell c (qS cc0_scratch6 1 inb_S4_S1_1)) 3 = {false} := rfl
theorem amount_agcw_s_1_3 (c : Dev nD) (d : Bool) : (Rd (F := F) X).amount (dcell c (qS cc0_scratch6 1 inb_S4_S1_1)) 3 d = N := rfl
theorem payload_agcw_s_1_3 (c : Dev nD) (d : Bool) : (Rd (F := F) X).payload (dcell c (qS cc0_scratch6 1 inb_S4_S1_1)) 3 d = owns (c : Thread nD τ) (rows oM (off true (c.val + 10) 1) (off_inb true _ 1)) fullShare (doneV X true 1 (devAt c 10)) := rfl
theorem expect_agcw_s_1_3 (c : Dev nD) : (Rd (F := F) X).expect (dcell c (qS cc0_scratch6 1 inb_S4_S1_1)) 3 = N := by
  unfold Schedule.expect Schedule.amountOf; rw [duties_agcw_s_1_3, Finset.sum_singleton]; rfl
theorem duties_agcw_s_1_4 (c : Dev nD) : (Rd (F := F) X).duties (dcell c (qS cc0_scratch6 1 inb_S4_S1_1)) 4 = {false} := rfl
theorem amount_agcw_s_1_4 (c : Dev nD) (d : Bool) : (Rd (F := F) X).amount (dcell c (qS cc0_scratch6 1 inb_S4_S1_1)) 4 d = N := rfl
theorem payload_agcw_s_1_4 (c : Dev nD) (d : Bool) : (Rd (F := F) X).payload (dcell c (qS cc0_scratch6 1 inb_S4_S1_1)) 4 d = owns (c : Thread nD τ) (rows oM (off true (c.val + 8) 1) (off_inb true _ 1)) fullShare (doneV X true 1 (devAt c 8)) := rfl
theorem expect_agcw_s_1_4 (c : Dev nD) : (Rd (F := F) X).expect (dcell c (qS cc0_scratch6 1 inb_S4_S1_1)) 4 = N := by
  unfold Schedule.expect Schedule.amountOf; rw [duties_agcw_s_1_4, Finset.sum_singleton]; rfl
theorem duties_agcw_s_1_5 (c : Dev nD) : (Rd (F := F) X).duties (dcell c (qS cc0_scratch6 1 inb_S4_S1_1)) 5 = {false} := rfl
theorem amount_agcw_s_1_5 (c : Dev nD) (d : Bool) : (Rd (F := F) X).amount (dcell c (qS cc0_scratch6 1 inb_S4_S1_1)) 5 d = N := rfl
theorem payload_agcw_s_1_5 (c : Dev nD) (d : Bool) : (Rd (F := F) X).payload (dcell c (qS cc0_scratch6 1 inb_S4_S1_1)) 5 d = owns (c : Thread nD τ) (rows oM (off true (c.val + 6) 1) (off_inb true _ 1)) fullShare (doneV X true 1 (devAt c 6)) := rfl
theorem expect_agcw_s_1_5 (c : Dev nD) : (Rd (F := F) X).expect (dcell c (qS cc0_scratch6 1 inb_S4_S1_1)) 5 = N := by
  unfold Schedule.expect Schedule.amountOf; rw [duties_agcw_s_1_5, Finset.sum_singleton]; rfl
theorem duties_agcw_s_1_6 (c : Dev nD) : (Rd (F := F) X).duties (dcell c (qS cc0_scratch6 1 inb_S4_S1_1)) 6 = {false} := rfl
theorem amount_agcw_s_1_6 (c : Dev nD) (d : Bool) : (Rd (F := F) X).amount (dcell c (qS cc0_scratch6 1 inb_S4_S1_1)) 6 d = N := rfl
theorem payload_agcw_s_1_6 (c : Dev nD) (d : Bool) : (Rd (F := F) X).payload (dcell c (qS cc0_scratch6 1 inb_S4_S1_1)) 6 d = owns (c : Thread nD τ) (rows oM (off true (c.val + 4) 1) (off_inb true _ 1)) fullShare (doneV X true 1 (devAt c 4)) := rfl
theorem expect_agcw_s_1_6 (c : Dev nD) : (Rd (F := F) X).expect (dcell c (qS cc0_scratch6 1 inb_S4_S1_1)) 6 = N := by
  unfold Schedule.expect Schedule.amountOf; rw [duties_agcw_s_1_6, Finset.sum_singleton]; rfl
theorem duties_agcw_s_1_7 (c : Dev nD) : (Rd (F := F) X).duties (dcell c (qS cc0_scratch6 1 inb_S4_S1_1)) 7 = {false} := rfl
theorem amount_agcw_s_1_7 (c : Dev nD) (d : Bool) : (Rd (F := F) X).amount (dcell c (qS cc0_scratch6 1 inb_S4_S1_1)) 7 d = N := rfl
theorem payload_agcw_s_1_7 (c : Dev nD) (d : Bool) : (Rd (F := F) X).payload (dcell c (qS cc0_scratch6 1 inb_S4_S1_1)) 7 d = owns (c : Thread nD τ) (rows oM (off true (c.val + 2) 1) (off_inb true _ 1)) fullShare (doneV X true 1 (devAt c 2)) := rfl
theorem expect_agcw_s_1_7 (c : Dev nD) : (Rd (F := F) X).expect (dcell c (qS cc0_scratch6 1 inb_S4_S1_1)) 7 = N := by
  unfold Schedule.expect Schedule.amountOf; rw [duties_agcw_s_1_7, Finset.sum_singleton]; rfl
theorem later_agcw_s_1 (c : Dev nD) : ∀ r, 8 ≤ r → (Rd (F := F) X).duties (dcell c (qS cc0_scratch6 1 inb_S4_S1_1)) r = ∅ := fun r hr => by
  show (if r < 8 then ({false} : Finset Bool) else ∅) = ∅; exact if_neg (by omega)
theorem duties_agcw_s_2_0 (c : Dev nD) : (Rd (F := F) X).duties (dcell c (qS cc0_scratch6 2 inb_S4_S1_2)) 0 = {false} := rfl
theorem amount_agcw_s_2_0 (c : Dev nD) (d : Bool) : (Rd (F := F) X).amount (dcell c (qS cc0_scratch6 2 inb_S4_S1_2)) 0 d = N := rfl
theorem payload_agcw_s_2_0 (c : Dev nD) (d : Bool) : (Rd (F := F) X).payload (dcell c (qS cc0_scratch6 2 inb_S4_S1_2)) 0 d = owns (c : Thread nD τ) (rows oM (off true (c.val + 15) 0) (off_inb true _ 0)) fullShare (doneV X true 0 (devAt c 15)) := rfl
theorem expect_agcw_s_2_0 (c : Dev nD) : (Rd (F := F) X).expect (dcell c (qS cc0_scratch6 2 inb_S4_S1_2)) 0 = N := by
  unfold Schedule.expect Schedule.amountOf; rw [duties_agcw_s_2_0, Finset.sum_singleton]; rfl
theorem duties_agcw_s_2_1 (c : Dev nD) : (Rd (F := F) X).duties (dcell c (qS cc0_scratch6 2 inb_S4_S1_2)) 1 = {false} := rfl
theorem amount_agcw_s_2_1 (c : Dev nD) (d : Bool) : (Rd (F := F) X).amount (dcell c (qS cc0_scratch6 2 inb_S4_S1_2)) 1 d = N := rfl
theorem payload_agcw_s_2_1 (c : Dev nD) (d : Bool) : (Rd (F := F) X).payload (dcell c (qS cc0_scratch6 2 inb_S4_S1_2)) 1 d = owns (c : Thread nD τ) (rows oM (off true (c.val + 13) 0) (off_inb true _ 0)) fullShare (doneV X true 0 (devAt c 13)) := rfl
theorem expect_agcw_s_2_1 (c : Dev nD) : (Rd (F := F) X).expect (dcell c (qS cc0_scratch6 2 inb_S4_S1_2)) 1 = N := by
  unfold Schedule.expect Schedule.amountOf; rw [duties_agcw_s_2_1, Finset.sum_singleton]; rfl
theorem duties_agcw_s_2_2 (c : Dev nD) : (Rd (F := F) X).duties (dcell c (qS cc0_scratch6 2 inb_S4_S1_2)) 2 = {false} := rfl
theorem amount_agcw_s_2_2 (c : Dev nD) (d : Bool) : (Rd (F := F) X).amount (dcell c (qS cc0_scratch6 2 inb_S4_S1_2)) 2 d = N := rfl
theorem payload_agcw_s_2_2 (c : Dev nD) (d : Bool) : (Rd (F := F) X).payload (dcell c (qS cc0_scratch6 2 inb_S4_S1_2)) 2 d = owns (c : Thread nD τ) (rows oM (off true (c.val + 11) 0) (off_inb true _ 0)) fullShare (doneV X true 0 (devAt c 11)) := rfl
theorem expect_agcw_s_2_2 (c : Dev nD) : (Rd (F := F) X).expect (dcell c (qS cc0_scratch6 2 inb_S4_S1_2)) 2 = N := by
  unfold Schedule.expect Schedule.amountOf; rw [duties_agcw_s_2_2, Finset.sum_singleton]; rfl
theorem duties_agcw_s_2_3 (c : Dev nD) : (Rd (F := F) X).duties (dcell c (qS cc0_scratch6 2 inb_S4_S1_2)) 3 = {false} := rfl
theorem amount_agcw_s_2_3 (c : Dev nD) (d : Bool) : (Rd (F := F) X).amount (dcell c (qS cc0_scratch6 2 inb_S4_S1_2)) 3 d = N := rfl
theorem payload_agcw_s_2_3 (c : Dev nD) (d : Bool) : (Rd (F := F) X).payload (dcell c (qS cc0_scratch6 2 inb_S4_S1_2)) 3 d = owns (c : Thread nD τ) (rows oM (off true (c.val + 9) 0) (off_inb true _ 0)) fullShare (doneV X true 0 (devAt c 9)) := rfl
theorem expect_agcw_s_2_3 (c : Dev nD) : (Rd (F := F) X).expect (dcell c (qS cc0_scratch6 2 inb_S4_S1_2)) 3 = N := by
  unfold Schedule.expect Schedule.amountOf; rw [duties_agcw_s_2_3, Finset.sum_singleton]; rfl
theorem duties_agcw_s_2_4 (c : Dev nD) : (Rd (F := F) X).duties (dcell c (qS cc0_scratch6 2 inb_S4_S1_2)) 4 = {false} := rfl
theorem amount_agcw_s_2_4 (c : Dev nD) (d : Bool) : (Rd (F := F) X).amount (dcell c (qS cc0_scratch6 2 inb_S4_S1_2)) 4 d = N := rfl
theorem payload_agcw_s_2_4 (c : Dev nD) (d : Bool) : (Rd (F := F) X).payload (dcell c (qS cc0_scratch6 2 inb_S4_S1_2)) 4 d = owns (c : Thread nD τ) (rows oM (off true (c.val + 7) 0) (off_inb true _ 0)) fullShare (doneV X true 0 (devAt c 7)) := rfl
theorem expect_agcw_s_2_4 (c : Dev nD) : (Rd (F := F) X).expect (dcell c (qS cc0_scratch6 2 inb_S4_S1_2)) 4 = N := by
  unfold Schedule.expect Schedule.amountOf; rw [duties_agcw_s_2_4, Finset.sum_singleton]; rfl
theorem duties_agcw_s_2_5 (c : Dev nD) : (Rd (F := F) X).duties (dcell c (qS cc0_scratch6 2 inb_S4_S1_2)) 5 = {false} := rfl
theorem amount_agcw_s_2_5 (c : Dev nD) (d : Bool) : (Rd (F := F) X).amount (dcell c (qS cc0_scratch6 2 inb_S4_S1_2)) 5 d = N := rfl
theorem payload_agcw_s_2_5 (c : Dev nD) (d : Bool) : (Rd (F := F) X).payload (dcell c (qS cc0_scratch6 2 inb_S4_S1_2)) 5 d = owns (c : Thread nD τ) (rows oM (off true (c.val + 5) 0) (off_inb true _ 0)) fullShare (doneV X true 0 (devAt c 5)) := rfl
theorem expect_agcw_s_2_5 (c : Dev nD) : (Rd (F := F) X).expect (dcell c (qS cc0_scratch6 2 inb_S4_S1_2)) 5 = N := by
  unfold Schedule.expect Schedule.amountOf; rw [duties_agcw_s_2_5, Finset.sum_singleton]; rfl
theorem duties_agcw_s_2_6 (c : Dev nD) : (Rd (F := F) X).duties (dcell c (qS cc0_scratch6 2 inb_S4_S1_2)) 6 = {false} := rfl
theorem amount_agcw_s_2_6 (c : Dev nD) (d : Bool) : (Rd (F := F) X).amount (dcell c (qS cc0_scratch6 2 inb_S4_S1_2)) 6 d = N := rfl
theorem payload_agcw_s_2_6 (c : Dev nD) (d : Bool) : (Rd (F := F) X).payload (dcell c (qS cc0_scratch6 2 inb_S4_S1_2)) 6 d = owns (c : Thread nD τ) (rows oM (off true (c.val + 3) 0) (off_inb true _ 0)) fullShare (doneV X true 0 (devAt c 3)) := rfl
theorem expect_agcw_s_2_6 (c : Dev nD) : (Rd (F := F) X).expect (dcell c (qS cc0_scratch6 2 inb_S4_S1_2)) 6 = N := by
  unfold Schedule.expect Schedule.amountOf; rw [duties_agcw_s_2_6, Finset.sum_singleton]; rfl
theorem later_agcw_s_2 (c : Dev nD) : ∀ r, 7 ≤ r → (Rd (F := F) X).duties (dcell c (qS cc0_scratch6 2 inb_S4_S1_2)) r = ∅ := fun r hr => by
  show (if r < 7 then ({false} : Finset Bool) else ∅) = ∅; exact if_neg (by omega)
theorem duties_agcw_s_3_0 (c : Dev nD) : (Rd (F := F) X).duties (dcell c (qS cc0_scratch6 3 inb_S4_S1_3)) 0 = {false} := rfl
theorem amount_agcw_s_3_0 (c : Dev nD) (d : Bool) : (Rd (F := F) X).amount (dcell c (qS cc0_scratch6 3 inb_S4_S1_3)) 0 d = N := rfl
theorem payload_agcw_s_3_0 (c : Dev nD) (d : Bool) : (Rd (F := F) X).payload (dcell c (qS cc0_scratch6 3 inb_S4_S1_3)) 0 d = owns (c : Thread nD τ) (rows oM (off true (c.val + 15) 1) (off_inb true _ 1)) fullShare (doneV X true 1 (devAt c 15)) := rfl
theorem expect_agcw_s_3_0 (c : Dev nD) : (Rd (F := F) X).expect (dcell c (qS cc0_scratch6 3 inb_S4_S1_3)) 0 = N := by
  unfold Schedule.expect Schedule.amountOf; rw [duties_agcw_s_3_0, Finset.sum_singleton]; rfl
theorem duties_agcw_s_3_1 (c : Dev nD) : (Rd (F := F) X).duties (dcell c (qS cc0_scratch6 3 inb_S4_S1_3)) 1 = {false} := rfl
theorem amount_agcw_s_3_1 (c : Dev nD) (d : Bool) : (Rd (F := F) X).amount (dcell c (qS cc0_scratch6 3 inb_S4_S1_3)) 1 d = N := rfl
theorem payload_agcw_s_3_1 (c : Dev nD) (d : Bool) : (Rd (F := F) X).payload (dcell c (qS cc0_scratch6 3 inb_S4_S1_3)) 1 d = owns (c : Thread nD τ) (rows oM (off true (c.val + 13) 1) (off_inb true _ 1)) fullShare (doneV X true 1 (devAt c 13)) := rfl
theorem expect_agcw_s_3_1 (c : Dev nD) : (Rd (F := F) X).expect (dcell c (qS cc0_scratch6 3 inb_S4_S1_3)) 1 = N := by
  unfold Schedule.expect Schedule.amountOf; rw [duties_agcw_s_3_1, Finset.sum_singleton]; rfl
theorem duties_agcw_s_3_2 (c : Dev nD) : (Rd (F := F) X).duties (dcell c (qS cc0_scratch6 3 inb_S4_S1_3)) 2 = {false} := rfl
theorem amount_agcw_s_3_2 (c : Dev nD) (d : Bool) : (Rd (F := F) X).amount (dcell c (qS cc0_scratch6 3 inb_S4_S1_3)) 2 d = N := rfl
theorem payload_agcw_s_3_2 (c : Dev nD) (d : Bool) : (Rd (F := F) X).payload (dcell c (qS cc0_scratch6 3 inb_S4_S1_3)) 2 d = owns (c : Thread nD τ) (rows oM (off true (c.val + 11) 1) (off_inb true _ 1)) fullShare (doneV X true 1 (devAt c 11)) := rfl
theorem expect_agcw_s_3_2 (c : Dev nD) : (Rd (F := F) X).expect (dcell c (qS cc0_scratch6 3 inb_S4_S1_3)) 2 = N := by
  unfold Schedule.expect Schedule.amountOf; rw [duties_agcw_s_3_2, Finset.sum_singleton]; rfl
theorem duties_agcw_s_3_3 (c : Dev nD) : (Rd (F := F) X).duties (dcell c (qS cc0_scratch6 3 inb_S4_S1_3)) 3 = {false} := rfl
theorem amount_agcw_s_3_3 (c : Dev nD) (d : Bool) : (Rd (F := F) X).amount (dcell c (qS cc0_scratch6 3 inb_S4_S1_3)) 3 d = N := rfl
theorem payload_agcw_s_3_3 (c : Dev nD) (d : Bool) : (Rd (F := F) X).payload (dcell c (qS cc0_scratch6 3 inb_S4_S1_3)) 3 d = owns (c : Thread nD τ) (rows oM (off true (c.val + 9) 1) (off_inb true _ 1)) fullShare (doneV X true 1 (devAt c 9)) := rfl
theorem expect_agcw_s_3_3 (c : Dev nD) : (Rd (F := F) X).expect (dcell c (qS cc0_scratch6 3 inb_S4_S1_3)) 3 = N := by
  unfold Schedule.expect Schedule.amountOf; rw [duties_agcw_s_3_3, Finset.sum_singleton]; rfl
theorem duties_agcw_s_3_4 (c : Dev nD) : (Rd (F := F) X).duties (dcell c (qS cc0_scratch6 3 inb_S4_S1_3)) 4 = {false} := rfl
theorem amount_agcw_s_3_4 (c : Dev nD) (d : Bool) : (Rd (F := F) X).amount (dcell c (qS cc0_scratch6 3 inb_S4_S1_3)) 4 d = N := rfl
theorem payload_agcw_s_3_4 (c : Dev nD) (d : Bool) : (Rd (F := F) X).payload (dcell c (qS cc0_scratch6 3 inb_S4_S1_3)) 4 d = owns (c : Thread nD τ) (rows oM (off true (c.val + 7) 1) (off_inb true _ 1)) fullShare (doneV X true 1 (devAt c 7)) := rfl
theorem expect_agcw_s_3_4 (c : Dev nD) : (Rd (F := F) X).expect (dcell c (qS cc0_scratch6 3 inb_S4_S1_3)) 4 = N := by
  unfold Schedule.expect Schedule.amountOf; rw [duties_agcw_s_3_4, Finset.sum_singleton]; rfl
theorem duties_agcw_s_3_5 (c : Dev nD) : (Rd (F := F) X).duties (dcell c (qS cc0_scratch6 3 inb_S4_S1_3)) 5 = {false} := rfl
theorem amount_agcw_s_3_5 (c : Dev nD) (d : Bool) : (Rd (F := F) X).amount (dcell c (qS cc0_scratch6 3 inb_S4_S1_3)) 5 d = N := rfl
theorem payload_agcw_s_3_5 (c : Dev nD) (d : Bool) : (Rd (F := F) X).payload (dcell c (qS cc0_scratch6 3 inb_S4_S1_3)) 5 d = owns (c : Thread nD τ) (rows oM (off true (c.val + 5) 1) (off_inb true _ 1)) fullShare (doneV X true 1 (devAt c 5)) := rfl
theorem expect_agcw_s_3_5 (c : Dev nD) : (Rd (F := F) X).expect (dcell c (qS cc0_scratch6 3 inb_S4_S1_3)) 5 = N := by
  unfold Schedule.expect Schedule.amountOf; rw [duties_agcw_s_3_5, Finset.sum_singleton]; rfl
theorem duties_agcw_s_3_6 (c : Dev nD) : (Rd (F := F) X).duties (dcell c (qS cc0_scratch6 3 inb_S4_S1_3)) 6 = {false} := rfl
theorem amount_agcw_s_3_6 (c : Dev nD) (d : Bool) : (Rd (F := F) X).amount (dcell c (qS cc0_scratch6 3 inb_S4_S1_3)) 6 d = N := rfl
theorem payload_agcw_s_3_6 (c : Dev nD) (d : Bool) : (Rd (F := F) X).payload (dcell c (qS cc0_scratch6 3 inb_S4_S1_3)) 6 d = owns (c : Thread nD τ) (rows oM (off true (c.val + 3) 1) (off_inb true _ 1)) fullShare (doneV X true 1 (devAt c 3)) := rfl
theorem expect_agcw_s_3_6 (c : Dev nD) : (Rd (F := F) X).expect (dcell c (qS cc0_scratch6 3 inb_S4_S1_3)) 6 = N := by
  unfold Schedule.expect Schedule.amountOf; rw [duties_agcw_s_3_6, Finset.sum_singleton]; rfl
theorem later_agcw_s_3 (c : Dev nD) : ∀ r, 7 ≤ r → (Rd (F := F) X).duties (dcell c (qS cc0_scratch6 3 inb_S4_S1_3)) r = ∅ := fun r hr => by
  show (if r < 7 then ({false} : Finset Bool) else ∅) = ∅; exact if_neg (by omega)
theorem later_agcw_r_0_0 (c : Dev nD) : ∀ r, 1 ≤ r → (Rd (F := F) X).duties (dcell c (qR cc0_scratch7 0 0 inb_S15x2_S1x1_0_0)) r = ∅ := fun r hr => by
  show (if r = 0 then ({false} : Finset Bool) else ∅) = ∅; exact if_neg (by omega)
theorem later_agcw_r_0_1 (c : Dev nD) : ∀ r, 1 ≤ r → (Rd (F := F) X).duties (dcell c (qR cc0_scratch7 0 1 inb_S15x2_S1x1_0_1)) r = ∅ := fun r hr => by
  show (if r = 0 then ({false} : Finset Bool) else ∅) = ∅; exact if_neg (by omega)
theorem later_agcw_r_1_0 (c : Dev nD) : ∀ r, 1 ≤ r → (Rd (F := F) X).duties (dcell c (qR cc0_scratch7 1 0 inb_S15x2_S1x1_1_0)) r = ∅ := fun r hr => by
  show (if r = 0 then ({false} : Finset Bool) else ∅) = ∅; exact if_neg (by omega)
theorem later_agcw_r_1_1 (c : Dev nD) : ∀ r, 1 ≤ r → (Rd (F := F) X).duties (dcell c (qR cc0_scratch7 1 1 inb_S15x2_S1x1_1_1)) r = ∅ := fun r hr => by
  show (if r = 0 then ({false} : Finset Bool) else ∅) = ∅; exact if_neg (by omega)
theorem later_agcw_r_2_0 (c : Dev nD) : ∀ r, 1 ≤ r → (Rd (F := F) X).duties (dcell c (qR cc0_scratch7 2 0 inb_S15x2_S1x1_2_0)) r = ∅ := fun r hr => by
  show (if r = 0 then ({false} : Finset Bool) else ∅) = ∅; exact if_neg (by omega)
theorem later_agcw_r_2_1 (c : Dev nD) : ∀ r, 1 ≤ r → (Rd (F := F) X).duties (dcell c (qR cc0_scratch7 2 1 inb_S15x2_S1x1_2_1)) r = ∅ := fun r hr => by
  show (if r = 0 then ({false} : Finset Bool) else ∅) = ∅; exact if_neg (by omega)
theorem later_agcw_r_3_0 (c : Dev nD) : ∀ r, 1 ≤ r → (Rd (F := F) X).duties (dcell c (qR cc0_scratch7 3 0 inb_S15x2_S1x1_3_0)) r = ∅ := fun r hr => by
  show (if r = 0 then ({false} : Finset Bool) else ∅) = ∅; exact if_neg (by omega)
theorem later_agcw_r_3_1 (c : Dev nD) : ∀ r, 1 ≤ r → (Rd (F := F) X).duties (dcell c (qR cc0_scratch7 3 1 inb_S15x2_S1x1_3_1)) r = ∅ := fun r hr => by
  show (if r = 0 then ({false} : Finset Bool) else ∅) = ∅; exact if_neg (by omega)
theorem later_agcw_r_4_0 (c : Dev nD) : ∀ r, 1 ≤ r → (Rd (F := F) X).duties (dcell c (qR cc0_scratch7 4 0 inb_S15x2_S1x1_4_0)) r = ∅ := fun r hr => by
  show (if r = 0 then ({false} : Finset Bool) else ∅) = ∅; exact if_neg (by omega)
theorem later_agcw_r_4_1 (c : Dev nD) : ∀ r, 1 ≤ r → (Rd (F := F) X).duties (dcell c (qR cc0_scratch7 4 1 inb_S15x2_S1x1_4_1)) r = ∅ := fun r hr => by
  show (if r = 0 then ({false} : Finset Bool) else ∅) = ∅; exact if_neg (by omega)
theorem later_agcw_r_5_0 (c : Dev nD) : ∀ r, 1 ≤ r → (Rd (F := F) X).duties (dcell c (qR cc0_scratch7 5 0 inb_S15x2_S1x1_5_0)) r = ∅ := fun r hr => by
  show (if r = 0 then ({false} : Finset Bool) else ∅) = ∅; exact if_neg (by omega)
theorem later_agcw_r_5_1 (c : Dev nD) : ∀ r, 1 ≤ r → (Rd (F := F) X).duties (dcell c (qR cc0_scratch7 5 1 inb_S15x2_S1x1_5_1)) r = ∅ := fun r hr => by
  show (if r = 0 then ({false} : Finset Bool) else ∅) = ∅; exact if_neg (by omega)
theorem later_agcw_r_6_0 (c : Dev nD) : ∀ r, 1 ≤ r → (Rd (F := F) X).duties (dcell c (qR cc0_scratch7 6 0 inb_S15x2_S1x1_6_0)) r = ∅ := fun r hr => by
  show (if r = 0 then ({false} : Finset Bool) else ∅) = ∅; exact if_neg (by omega)
theorem later_agcw_r_6_1 (c : Dev nD) : ∀ r, 1 ≤ r → (Rd (F := F) X).duties (dcell c (qR cc0_scratch7 6 1 inb_S15x2_S1x1_6_1)) r = ∅ := fun r hr => by
  show (if r = 0 then ({false} : Finset Bool) else ∅) = ∅; exact if_neg (by omega)
theorem later_agcw_r_7_0 (c : Dev nD) : ∀ r, 1 ≤ r → (Rd (F := F) X).duties (dcell c (qR cc0_scratch7 7 0 inb_S15x2_S1x1_7_0)) r = ∅ := fun r hr => by
  show (if r = 0 then ({false} : Finset Bool) else ∅) = ∅; exact if_neg (by omega)
theorem later_agcw_r_7_1 (c : Dev nD) : ∀ r, 1 ≤ r → (Rd (F := F) X).duties (dcell c (qR cc0_scratch7 7 1 inb_S15x2_S1x1_7_1)) r = ∅ := fun r hr => by
  show (if r = 0 then ({false} : Finset Bool) else ∅) = ∅; exact if_neg (by omega)
theorem later_agcw_r_8_0 (c : Dev nD) : ∀ r, 1 ≤ r → (Rd (F := F) X).duties (dcell c (qR cc0_scratch7 8 0 inb_S15x2_S1x1_8_0)) r = ∅ := fun r hr => by
  show (if r = 0 then ({false} : Finset Bool) else ∅) = ∅; exact if_neg (by omega)
theorem later_agcw_r_8_1 (c : Dev nD) : ∀ r, 1 ≤ r → (Rd (F := F) X).duties (dcell c (qR cc0_scratch7 8 1 inb_S15x2_S1x1_8_1)) r = ∅ := fun r hr => by
  show (if r = 0 then ({false} : Finset Bool) else ∅) = ∅; exact if_neg (by omega)
theorem later_agcw_r_9_0 (c : Dev nD) : ∀ r, 1 ≤ r → (Rd (F := F) X).duties (dcell c (qR cc0_scratch7 9 0 inb_S15x2_S1x1_9_0)) r = ∅ := fun r hr => by
  show (if r = 0 then ({false} : Finset Bool) else ∅) = ∅; exact if_neg (by omega)
theorem later_agcw_r_9_1 (c : Dev nD) : ∀ r, 1 ≤ r → (Rd (F := F) X).duties (dcell c (qR cc0_scratch7 9 1 inb_S15x2_S1x1_9_1)) r = ∅ := fun r hr => by
  show (if r = 0 then ({false} : Finset Bool) else ∅) = ∅; exact if_neg (by omega)
theorem later_agcw_r_10_0 (c : Dev nD) : ∀ r, 1 ≤ r → (Rd (F := F) X).duties (dcell c (qR cc0_scratch7 10 0 inb_S15x2_S1x1_10_0)) r = ∅ := fun r hr => by
  show (if r = 0 then ({false} : Finset Bool) else ∅) = ∅; exact if_neg (by omega)
theorem later_agcw_r_10_1 (c : Dev nD) : ∀ r, 1 ≤ r → (Rd (F := F) X).duties (dcell c (qR cc0_scratch7 10 1 inb_S15x2_S1x1_10_1)) r = ∅ := fun r hr => by
  show (if r = 0 then ({false} : Finset Bool) else ∅) = ∅; exact if_neg (by omega)
theorem later_agcw_r_11_0 (c : Dev nD) : ∀ r, 1 ≤ r → (Rd (F := F) X).duties (dcell c (qR cc0_scratch7 11 0 inb_S15x2_S1x1_11_0)) r = ∅ := fun r hr => by
  show (if r = 0 then ({false} : Finset Bool) else ∅) = ∅; exact if_neg (by omega)
theorem later_agcw_r_11_1 (c : Dev nD) : ∀ r, 1 ≤ r → (Rd (F := F) X).duties (dcell c (qR cc0_scratch7 11 1 inb_S15x2_S1x1_11_1)) r = ∅ := fun r hr => by
  show (if r = 0 then ({false} : Finset Bool) else ∅) = ∅; exact if_neg (by omega)
theorem later_agcw_r_12_0 (c : Dev nD) : ∀ r, 1 ≤ r → (Rd (F := F) X).duties (dcell c (qR cc0_scratch7 12 0 inb_S15x2_S1x1_12_0)) r = ∅ := fun r hr => by
  show (if r = 0 then ({false} : Finset Bool) else ∅) = ∅; exact if_neg (by omega)
theorem later_agcw_r_12_1 (c : Dev nD) : ∀ r, 1 ≤ r → (Rd (F := F) X).duties (dcell c (qR cc0_scratch7 12 1 inb_S15x2_S1x1_12_1)) r = ∅ := fun r hr => by
  show (if r = 0 then ({false} : Finset Bool) else ∅) = ∅; exact if_neg (by omega)
theorem later_agcw_r_13_0 (c : Dev nD) : ∀ r, 1 ≤ r → (Rd (F := F) X).duties (dcell c (qR cc0_scratch7 13 0 inb_S15x2_S1x1_13_0)) r = ∅ := fun r hr => by
  show (if r = 0 then ({false} : Finset Bool) else ∅) = ∅; exact if_neg (by omega)
theorem later_agcw_r_13_1 (c : Dev nD) : ∀ r, 1 ≤ r → (Rd (F := F) X).duties (dcell c (qR cc0_scratch7 13 1 inb_S15x2_S1x1_13_1)) r = ∅ := fun r hr => by
  show (if r = 0 then ({false} : Finset Bool) else ∅) = ∅; exact if_neg (by omega)
theorem later_agcw_r_14_0 (c : Dev nD) : ∀ r, 1 ≤ r → (Rd (F := F) X).duties (dcell c (qR cc0_scratch7 14 0 inb_S15x2_S1x1_14_0)) r = ∅ := fun r hr => by
  show (if r = 0 then ({false} : Finset Bool) else ∅) = ∅; exact if_neg (by omega)
theorem later_agcw_r_14_1 (c : Dev nD) : ∀ r, 1 ≤ r → (Rd (F := F) X).duties (dcell c (qR cc0_scratch7 14 1 inb_S15x2_S1x1_14_1)) r = ∅ := fun r hr => by
  show (if r = 0 then ({false} : Finset Bool) else ∅) = ∅; exact if_neg (by omega)
theorem duties_agccw_r_0_0 (c : Dev nD) : (Rd (F := F) X).duties (dcell c (qR cc0_scratch9 0 0 inb_S15x2_S1x1_0_0)) 0 = {false} := rfl
theorem amount_agccw_r_0_0 (c : Dev nD) (d : Bool) : (Rd (F := F) X).amount (dcell c (qR cc0_scratch9 0 0 inb_S15x2_S1x1_0_0)) 0 d = N := rfl
theorem payload_agccw_r_0_0 (c : Dev nD) (d : Bool) : (Rd (F := F) X).payload (dcell c (qR cc0_scratch9 0 0 inb_S15x2_S1x1_0_0)) 0 d = owns (c : Thread nD τ) (rows oM (off false (c.val + 1) 0) (off_inb false _ 0)) fullShare (doneV X false 0 (devAt c 1)) := rfl
theorem expect_agccw_r_0_0 (c : Dev nD) : (Rd (F := F) X).expect (dcell c (qR cc0_scratch9 0 0 inb_S15x2_S1x1_0_0)) 0 = N := by
  unfold Schedule.expect Schedule.amountOf; rw [duties_agccw_r_0_0, Finset.sum_singleton]; rfl
theorem duties_agccw_r_0_1 (c : Dev nD) : (Rd (F := F) X).duties (dcell c (qR cc0_scratch9 0 1 inb_S15x2_S1x1_0_1)) 0 = {false} := rfl
theorem amount_agccw_r_0_1 (c : Dev nD) (d : Bool) : (Rd (F := F) X).amount (dcell c (qR cc0_scratch9 0 1 inb_S15x2_S1x1_0_1)) 0 d = N := rfl
theorem payload_agccw_r_0_1 (c : Dev nD) (d : Bool) : (Rd (F := F) X).payload (dcell c (qR cc0_scratch9 0 1 inb_S15x2_S1x1_0_1)) 0 d = owns (c : Thread nD τ) (rows oM (off false (c.val + 1) 1) (off_inb false _ 1)) fullShare (doneV X false 1 (devAt c 1)) := rfl
theorem expect_agccw_r_0_1 (c : Dev nD) : (Rd (F := F) X).expect (dcell c (qR cc0_scratch9 0 1 inb_S15x2_S1x1_0_1)) 0 = N := by
  unfold Schedule.expect Schedule.amountOf; rw [duties_agccw_r_0_1, Finset.sum_singleton]; rfl
theorem duties_agccw_r_1_0 (c : Dev nD) : (Rd (F := F) X).duties (dcell c (qR cc0_scratch9 1 0 inb_S15x2_S1x1_1_0)) 0 = {false} := rfl
theorem amount_agccw_r_1_0 (c : Dev nD) (d : Bool) : (Rd (F := F) X).amount (dcell c (qR cc0_scratch9 1 0 inb_S15x2_S1x1_1_0)) 0 d = N := rfl
theorem payload_agccw_r_1_0 (c : Dev nD) (d : Bool) : (Rd (F := F) X).payload (dcell c (qR cc0_scratch9 1 0 inb_S15x2_S1x1_1_0)) 0 d = owns (c : Thread nD τ) (rows oM (off false (c.val + 2) 0) (off_inb false _ 0)) fullShare (doneV X false 0 (devAt c 2)) := rfl
theorem expect_agccw_r_1_0 (c : Dev nD) : (Rd (F := F) X).expect (dcell c (qR cc0_scratch9 1 0 inb_S15x2_S1x1_1_0)) 0 = N := by
  unfold Schedule.expect Schedule.amountOf; rw [duties_agccw_r_1_0, Finset.sum_singleton]; rfl
theorem duties_agccw_r_1_1 (c : Dev nD) : (Rd (F := F) X).duties (dcell c (qR cc0_scratch9 1 1 inb_S15x2_S1x1_1_1)) 0 = {false} := rfl
theorem amount_agccw_r_1_1 (c : Dev nD) (d : Bool) : (Rd (F := F) X).amount (dcell c (qR cc0_scratch9 1 1 inb_S15x2_S1x1_1_1)) 0 d = N := rfl
theorem payload_agccw_r_1_1 (c : Dev nD) (d : Bool) : (Rd (F := F) X).payload (dcell c (qR cc0_scratch9 1 1 inb_S15x2_S1x1_1_1)) 0 d = owns (c : Thread nD τ) (rows oM (off false (c.val + 2) 1) (off_inb false _ 1)) fullShare (doneV X false 1 (devAt c 2)) := rfl
theorem expect_agccw_r_1_1 (c : Dev nD) : (Rd (F := F) X).expect (dcell c (qR cc0_scratch9 1 1 inb_S15x2_S1x1_1_1)) 0 = N := by
  unfold Schedule.expect Schedule.amountOf; rw [duties_agccw_r_1_1, Finset.sum_singleton]; rfl
theorem duties_agccw_r_2_0 (c : Dev nD) : (Rd (F := F) X).duties (dcell c (qR cc0_scratch9 2 0 inb_S15x2_S1x1_2_0)) 0 = {false} := rfl
theorem amount_agccw_r_2_0 (c : Dev nD) (d : Bool) : (Rd (F := F) X).amount (dcell c (qR cc0_scratch9 2 0 inb_S15x2_S1x1_2_0)) 0 d = N := rfl
theorem payload_agccw_r_2_0 (c : Dev nD) (d : Bool) : (Rd (F := F) X).payload (dcell c (qR cc0_scratch9 2 0 inb_S15x2_S1x1_2_0)) 0 d = owns (c : Thread nD τ) (rows oM (off false (c.val + 3) 0) (off_inb false _ 0)) fullShare (doneV X false 0 (devAt c 3)) := rfl
theorem expect_agccw_r_2_0 (c : Dev nD) : (Rd (F := F) X).expect (dcell c (qR cc0_scratch9 2 0 inb_S15x2_S1x1_2_0)) 0 = N := by
  unfold Schedule.expect Schedule.amountOf; rw [duties_agccw_r_2_0, Finset.sum_singleton]; rfl
theorem duties_agccw_r_2_1 (c : Dev nD) : (Rd (F := F) X).duties (dcell c (qR cc0_scratch9 2 1 inb_S15x2_S1x1_2_1)) 0 = {false} := rfl
theorem amount_agccw_r_2_1 (c : Dev nD) (d : Bool) : (Rd (F := F) X).amount (dcell c (qR cc0_scratch9 2 1 inb_S15x2_S1x1_2_1)) 0 d = N := rfl
theorem payload_agccw_r_2_1 (c : Dev nD) (d : Bool) : (Rd (F := F) X).payload (dcell c (qR cc0_scratch9 2 1 inb_S15x2_S1x1_2_1)) 0 d = owns (c : Thread nD τ) (rows oM (off false (c.val + 3) 1) (off_inb false _ 1)) fullShare (doneV X false 1 (devAt c 3)) := rfl
theorem expect_agccw_r_2_1 (c : Dev nD) : (Rd (F := F) X).expect (dcell c (qR cc0_scratch9 2 1 inb_S15x2_S1x1_2_1)) 0 = N := by
  unfold Schedule.expect Schedule.amountOf; rw [duties_agccw_r_2_1, Finset.sum_singleton]; rfl
theorem duties_agccw_r_3_0 (c : Dev nD) : (Rd (F := F) X).duties (dcell c (qR cc0_scratch9 3 0 inb_S15x2_S1x1_3_0)) 0 = {false} := rfl
theorem amount_agccw_r_3_0 (c : Dev nD) (d : Bool) : (Rd (F := F) X).amount (dcell c (qR cc0_scratch9 3 0 inb_S15x2_S1x1_3_0)) 0 d = N := rfl
theorem payload_agccw_r_3_0 (c : Dev nD) (d : Bool) : (Rd (F := F) X).payload (dcell c (qR cc0_scratch9 3 0 inb_S15x2_S1x1_3_0)) 0 d = owns (c : Thread nD τ) (rows oM (off false (c.val + 4) 0) (off_inb false _ 0)) fullShare (doneV X false 0 (devAt c 4)) := rfl
theorem expect_agccw_r_3_0 (c : Dev nD) : (Rd (F := F) X).expect (dcell c (qR cc0_scratch9 3 0 inb_S15x2_S1x1_3_0)) 0 = N := by
  unfold Schedule.expect Schedule.amountOf; rw [duties_agccw_r_3_0, Finset.sum_singleton]; rfl
theorem duties_agccw_r_3_1 (c : Dev nD) : (Rd (F := F) X).duties (dcell c (qR cc0_scratch9 3 1 inb_S15x2_S1x1_3_1)) 0 = {false} := rfl
theorem amount_agccw_r_3_1 (c : Dev nD) (d : Bool) : (Rd (F := F) X).amount (dcell c (qR cc0_scratch9 3 1 inb_S15x2_S1x1_3_1)) 0 d = N := rfl
theorem payload_agccw_r_3_1 (c : Dev nD) (d : Bool) : (Rd (F := F) X).payload (dcell c (qR cc0_scratch9 3 1 inb_S15x2_S1x1_3_1)) 0 d = owns (c : Thread nD τ) (rows oM (off false (c.val + 4) 1) (off_inb false _ 1)) fullShare (doneV X false 1 (devAt c 4)) := rfl
theorem expect_agccw_r_3_1 (c : Dev nD) : (Rd (F := F) X).expect (dcell c (qR cc0_scratch9 3 1 inb_S15x2_S1x1_3_1)) 0 = N := by
  unfold Schedule.expect Schedule.amountOf; rw [duties_agccw_r_3_1, Finset.sum_singleton]; rfl
theorem duties_agccw_r_4_0 (c : Dev nD) : (Rd (F := F) X).duties (dcell c (qR cc0_scratch9 4 0 inb_S15x2_S1x1_4_0)) 0 = {false} := rfl
theorem amount_agccw_r_4_0 (c : Dev nD) (d : Bool) : (Rd (F := F) X).amount (dcell c (qR cc0_scratch9 4 0 inb_S15x2_S1x1_4_0)) 0 d = N := rfl
theorem payload_agccw_r_4_0 (c : Dev nD) (d : Bool) : (Rd (F := F) X).payload (dcell c (qR cc0_scratch9 4 0 inb_S15x2_S1x1_4_0)) 0 d = owns (c : Thread nD τ) (rows oM (off false (c.val + 5) 0) (off_inb false _ 0)) fullShare (doneV X false 0 (devAt c 5)) := rfl
theorem expect_agccw_r_4_0 (c : Dev nD) : (Rd (F := F) X).expect (dcell c (qR cc0_scratch9 4 0 inb_S15x2_S1x1_4_0)) 0 = N := by
  unfold Schedule.expect Schedule.amountOf; rw [duties_agccw_r_4_0, Finset.sum_singleton]; rfl
theorem duties_agccw_r_4_1 (c : Dev nD) : (Rd (F := F) X).duties (dcell c (qR cc0_scratch9 4 1 inb_S15x2_S1x1_4_1)) 0 = {false} := rfl
theorem amount_agccw_r_4_1 (c : Dev nD) (d : Bool) : (Rd (F := F) X).amount (dcell c (qR cc0_scratch9 4 1 inb_S15x2_S1x1_4_1)) 0 d = N := rfl
theorem payload_agccw_r_4_1 (c : Dev nD) (d : Bool) : (Rd (F := F) X).payload (dcell c (qR cc0_scratch9 4 1 inb_S15x2_S1x1_4_1)) 0 d = owns (c : Thread nD τ) (rows oM (off false (c.val + 5) 1) (off_inb false _ 1)) fullShare (doneV X false 1 (devAt c 5)) := rfl
theorem expect_agccw_r_4_1 (c : Dev nD) : (Rd (F := F) X).expect (dcell c (qR cc0_scratch9 4 1 inb_S15x2_S1x1_4_1)) 0 = N := by
  unfold Schedule.expect Schedule.amountOf; rw [duties_agccw_r_4_1, Finset.sum_singleton]; rfl
theorem duties_agccw_r_5_0 (c : Dev nD) : (Rd (F := F) X).duties (dcell c (qR cc0_scratch9 5 0 inb_S15x2_S1x1_5_0)) 0 = {false} := rfl
theorem amount_agccw_r_5_0 (c : Dev nD) (d : Bool) : (Rd (F := F) X).amount (dcell c (qR cc0_scratch9 5 0 inb_S15x2_S1x1_5_0)) 0 d = N := rfl
theorem payload_agccw_r_5_0 (c : Dev nD) (d : Bool) : (Rd (F := F) X).payload (dcell c (qR cc0_scratch9 5 0 inb_S15x2_S1x1_5_0)) 0 d = owns (c : Thread nD τ) (rows oM (off false (c.val + 6) 0) (off_inb false _ 0)) fullShare (doneV X false 0 (devAt c 6)) := rfl
theorem expect_agccw_r_5_0 (c : Dev nD) : (Rd (F := F) X).expect (dcell c (qR cc0_scratch9 5 0 inb_S15x2_S1x1_5_0)) 0 = N := by
  unfold Schedule.expect Schedule.amountOf; rw [duties_agccw_r_5_0, Finset.sum_singleton]; rfl
theorem duties_agccw_r_5_1 (c : Dev nD) : (Rd (F := F) X).duties (dcell c (qR cc0_scratch9 5 1 inb_S15x2_S1x1_5_1)) 0 = {false} := rfl
theorem amount_agccw_r_5_1 (c : Dev nD) (d : Bool) : (Rd (F := F) X).amount (dcell c (qR cc0_scratch9 5 1 inb_S15x2_S1x1_5_1)) 0 d = N := rfl
theorem payload_agccw_r_5_1 (c : Dev nD) (d : Bool) : (Rd (F := F) X).payload (dcell c (qR cc0_scratch9 5 1 inb_S15x2_S1x1_5_1)) 0 d = owns (c : Thread nD τ) (rows oM (off false (c.val + 6) 1) (off_inb false _ 1)) fullShare (doneV X false 1 (devAt c 6)) := rfl
theorem expect_agccw_r_5_1 (c : Dev nD) : (Rd (F := F) X).expect (dcell c (qR cc0_scratch9 5 1 inb_S15x2_S1x1_5_1)) 0 = N := by
  unfold Schedule.expect Schedule.amountOf; rw [duties_agccw_r_5_1, Finset.sum_singleton]; rfl
theorem duties_agccw_r_6_0 (c : Dev nD) : (Rd (F := F) X).duties (dcell c (qR cc0_scratch9 6 0 inb_S15x2_S1x1_6_0)) 0 = {false} := rfl
theorem amount_agccw_r_6_0 (c : Dev nD) (d : Bool) : (Rd (F := F) X).amount (dcell c (qR cc0_scratch9 6 0 inb_S15x2_S1x1_6_0)) 0 d = N := rfl
theorem payload_agccw_r_6_0 (c : Dev nD) (d : Bool) : (Rd (F := F) X).payload (dcell c (qR cc0_scratch9 6 0 inb_S15x2_S1x1_6_0)) 0 d = owns (c : Thread nD τ) (rows oM (off false (c.val + 7) 0) (off_inb false _ 0)) fullShare (doneV X false 0 (devAt c 7)) := rfl
theorem expect_agccw_r_6_0 (c : Dev nD) : (Rd (F := F) X).expect (dcell c (qR cc0_scratch9 6 0 inb_S15x2_S1x1_6_0)) 0 = N := by
  unfold Schedule.expect Schedule.amountOf; rw [duties_agccw_r_6_0, Finset.sum_singleton]; rfl
theorem duties_agccw_r_6_1 (c : Dev nD) : (Rd (F := F) X).duties (dcell c (qR cc0_scratch9 6 1 inb_S15x2_S1x1_6_1)) 0 = {false} := rfl
theorem amount_agccw_r_6_1 (c : Dev nD) (d : Bool) : (Rd (F := F) X).amount (dcell c (qR cc0_scratch9 6 1 inb_S15x2_S1x1_6_1)) 0 d = N := rfl
theorem payload_agccw_r_6_1 (c : Dev nD) (d : Bool) : (Rd (F := F) X).payload (dcell c (qR cc0_scratch9 6 1 inb_S15x2_S1x1_6_1)) 0 d = owns (c : Thread nD τ) (rows oM (off false (c.val + 7) 1) (off_inb false _ 1)) fullShare (doneV X false 1 (devAt c 7)) := rfl
theorem expect_agccw_r_6_1 (c : Dev nD) : (Rd (F := F) X).expect (dcell c (qR cc0_scratch9 6 1 inb_S15x2_S1x1_6_1)) 0 = N := by
  unfold Schedule.expect Schedule.amountOf; rw [duties_agccw_r_6_1, Finset.sum_singleton]; rfl
theorem duties_agccw_r_7_0 (c : Dev nD) : (Rd (F := F) X).duties (dcell c (qR cc0_scratch9 7 0 inb_S15x2_S1x1_7_0)) 0 = {false} := rfl
theorem amount_agccw_r_7_0 (c : Dev nD) (d : Bool) : (Rd (F := F) X).amount (dcell c (qR cc0_scratch9 7 0 inb_S15x2_S1x1_7_0)) 0 d = N := rfl
theorem payload_agccw_r_7_0 (c : Dev nD) (d : Bool) : (Rd (F := F) X).payload (dcell c (qR cc0_scratch9 7 0 inb_S15x2_S1x1_7_0)) 0 d = owns (c : Thread nD τ) (rows oM (off false (c.val + 8) 0) (off_inb false _ 0)) fullShare (doneV X false 0 (devAt c 8)) := rfl
theorem expect_agccw_r_7_0 (c : Dev nD) : (Rd (F := F) X).expect (dcell c (qR cc0_scratch9 7 0 inb_S15x2_S1x1_7_0)) 0 = N := by
  unfold Schedule.expect Schedule.amountOf; rw [duties_agccw_r_7_0, Finset.sum_singleton]; rfl
theorem duties_agccw_r_7_1 (c : Dev nD) : (Rd (F := F) X).duties (dcell c (qR cc0_scratch9 7 1 inb_S15x2_S1x1_7_1)) 0 = {false} := rfl
theorem amount_agccw_r_7_1 (c : Dev nD) (d : Bool) : (Rd (F := F) X).amount (dcell c (qR cc0_scratch9 7 1 inb_S15x2_S1x1_7_1)) 0 d = N := rfl
theorem payload_agccw_r_7_1 (c : Dev nD) (d : Bool) : (Rd (F := F) X).payload (dcell c (qR cc0_scratch9 7 1 inb_S15x2_S1x1_7_1)) 0 d = owns (c : Thread nD τ) (rows oM (off false (c.val + 8) 1) (off_inb false _ 1)) fullShare (doneV X false 1 (devAt c 8)) := rfl
theorem expect_agccw_r_7_1 (c : Dev nD) : (Rd (F := F) X).expect (dcell c (qR cc0_scratch9 7 1 inb_S15x2_S1x1_7_1)) 0 = N := by
  unfold Schedule.expect Schedule.amountOf; rw [duties_agccw_r_7_1, Finset.sum_singleton]; rfl
theorem duties_agccw_r_8_0 (c : Dev nD) : (Rd (F := F) X).duties (dcell c (qR cc0_scratch9 8 0 inb_S15x2_S1x1_8_0)) 0 = {false} := rfl
theorem amount_agccw_r_8_0 (c : Dev nD) (d : Bool) : (Rd (F := F) X).amount (dcell c (qR cc0_scratch9 8 0 inb_S15x2_S1x1_8_0)) 0 d = N := rfl
theorem payload_agccw_r_8_0 (c : Dev nD) (d : Bool) : (Rd (F := F) X).payload (dcell c (qR cc0_scratch9 8 0 inb_S15x2_S1x1_8_0)) 0 d = owns (c : Thread nD τ) (rows oM (off false (c.val + 9) 0) (off_inb false _ 0)) fullShare (doneV X false 0 (devAt c 9)) := rfl
theorem expect_agccw_r_8_0 (c : Dev nD) : (Rd (F := F) X).expect (dcell c (qR cc0_scratch9 8 0 inb_S15x2_S1x1_8_0)) 0 = N := by
  unfold Schedule.expect Schedule.amountOf; rw [duties_agccw_r_8_0, Finset.sum_singleton]; rfl
theorem duties_agccw_r_8_1 (c : Dev nD) : (Rd (F := F) X).duties (dcell c (qR cc0_scratch9 8 1 inb_S15x2_S1x1_8_1)) 0 = {false} := rfl
theorem amount_agccw_r_8_1 (c : Dev nD) (d : Bool) : (Rd (F := F) X).amount (dcell c (qR cc0_scratch9 8 1 inb_S15x2_S1x1_8_1)) 0 d = N := rfl
theorem payload_agccw_r_8_1 (c : Dev nD) (d : Bool) : (Rd (F := F) X).payload (dcell c (qR cc0_scratch9 8 1 inb_S15x2_S1x1_8_1)) 0 d = owns (c : Thread nD τ) (rows oM (off false (c.val + 9) 1) (off_inb false _ 1)) fullShare (doneV X false 1 (devAt c 9)) := rfl
theorem expect_agccw_r_8_1 (c : Dev nD) : (Rd (F := F) X).expect (dcell c (qR cc0_scratch9 8 1 inb_S15x2_S1x1_8_1)) 0 = N := by
  unfold Schedule.expect Schedule.amountOf; rw [duties_agccw_r_8_1, Finset.sum_singleton]; rfl
theorem duties_agccw_r_9_0 (c : Dev nD) : (Rd (F := F) X).duties (dcell c (qR cc0_scratch9 9 0 inb_S15x2_S1x1_9_0)) 0 = {false} := rfl
theorem amount_agccw_r_9_0 (c : Dev nD) (d : Bool) : (Rd (F := F) X).amount (dcell c (qR cc0_scratch9 9 0 inb_S15x2_S1x1_9_0)) 0 d = N := rfl
theorem payload_agccw_r_9_0 (c : Dev nD) (d : Bool) : (Rd (F := F) X).payload (dcell c (qR cc0_scratch9 9 0 inb_S15x2_S1x1_9_0)) 0 d = owns (c : Thread nD τ) (rows oM (off false (c.val + 10) 0) (off_inb false _ 0)) fullShare (doneV X false 0 (devAt c 10)) := rfl
theorem expect_agccw_r_9_0 (c : Dev nD) : (Rd (F := F) X).expect (dcell c (qR cc0_scratch9 9 0 inb_S15x2_S1x1_9_0)) 0 = N := by
  unfold Schedule.expect Schedule.amountOf; rw [duties_agccw_r_9_0, Finset.sum_singleton]; rfl
theorem duties_agccw_r_9_1 (c : Dev nD) : (Rd (F := F) X).duties (dcell c (qR cc0_scratch9 9 1 inb_S15x2_S1x1_9_1)) 0 = {false} := rfl
theorem amount_agccw_r_9_1 (c : Dev nD) (d : Bool) : (Rd (F := F) X).amount (dcell c (qR cc0_scratch9 9 1 inb_S15x2_S1x1_9_1)) 0 d = N := rfl
theorem payload_agccw_r_9_1 (c : Dev nD) (d : Bool) : (Rd (F := F) X).payload (dcell c (qR cc0_scratch9 9 1 inb_S15x2_S1x1_9_1)) 0 d = owns (c : Thread nD τ) (rows oM (off false (c.val + 10) 1) (off_inb false _ 1)) fullShare (doneV X false 1 (devAt c 10)) := rfl
theorem expect_agccw_r_9_1 (c : Dev nD) : (Rd (F := F) X).expect (dcell c (qR cc0_scratch9 9 1 inb_S15x2_S1x1_9_1)) 0 = N := by
  unfold Schedule.expect Schedule.amountOf; rw [duties_agccw_r_9_1, Finset.sum_singleton]; rfl
theorem duties_agccw_r_10_0 (c : Dev nD) : (Rd (F := F) X).duties (dcell c (qR cc0_scratch9 10 0 inb_S15x2_S1x1_10_0)) 0 = {false} := rfl
theorem amount_agccw_r_10_0 (c : Dev nD) (d : Bool) : (Rd (F := F) X).amount (dcell c (qR cc0_scratch9 10 0 inb_S15x2_S1x1_10_0)) 0 d = N := rfl
theorem payload_agccw_r_10_0 (c : Dev nD) (d : Bool) : (Rd (F := F) X).payload (dcell c (qR cc0_scratch9 10 0 inb_S15x2_S1x1_10_0)) 0 d = owns (c : Thread nD τ) (rows oM (off false (c.val + 11) 0) (off_inb false _ 0)) fullShare (doneV X false 0 (devAt c 11)) := rfl
theorem expect_agccw_r_10_0 (c : Dev nD) : (Rd (F := F) X).expect (dcell c (qR cc0_scratch9 10 0 inb_S15x2_S1x1_10_0)) 0 = N := by
  unfold Schedule.expect Schedule.amountOf; rw [duties_agccw_r_10_0, Finset.sum_singleton]; rfl
theorem duties_agccw_r_10_1 (c : Dev nD) : (Rd (F := F) X).duties (dcell c (qR cc0_scratch9 10 1 inb_S15x2_S1x1_10_1)) 0 = {false} := rfl
theorem amount_agccw_r_10_1 (c : Dev nD) (d : Bool) : (Rd (F := F) X).amount (dcell c (qR cc0_scratch9 10 1 inb_S15x2_S1x1_10_1)) 0 d = N := rfl
theorem payload_agccw_r_10_1 (c : Dev nD) (d : Bool) : (Rd (F := F) X).payload (dcell c (qR cc0_scratch9 10 1 inb_S15x2_S1x1_10_1)) 0 d = owns (c : Thread nD τ) (rows oM (off false (c.val + 11) 1) (off_inb false _ 1)) fullShare (doneV X false 1 (devAt c 11)) := rfl
theorem expect_agccw_r_10_1 (c : Dev nD) : (Rd (F := F) X).expect (dcell c (qR cc0_scratch9 10 1 inb_S15x2_S1x1_10_1)) 0 = N := by
  unfold Schedule.expect Schedule.amountOf; rw [duties_agccw_r_10_1, Finset.sum_singleton]; rfl
theorem duties_agccw_r_11_0 (c : Dev nD) : (Rd (F := F) X).duties (dcell c (qR cc0_scratch9 11 0 inb_S15x2_S1x1_11_0)) 0 = {false} := rfl
theorem amount_agccw_r_11_0 (c : Dev nD) (d : Bool) : (Rd (F := F) X).amount (dcell c (qR cc0_scratch9 11 0 inb_S15x2_S1x1_11_0)) 0 d = N := rfl
theorem payload_agccw_r_11_0 (c : Dev nD) (d : Bool) : (Rd (F := F) X).payload (dcell c (qR cc0_scratch9 11 0 inb_S15x2_S1x1_11_0)) 0 d = owns (c : Thread nD τ) (rows oM (off false (c.val + 12) 0) (off_inb false _ 0)) fullShare (doneV X false 0 (devAt c 12)) := rfl
theorem expect_agccw_r_11_0 (c : Dev nD) : (Rd (F := F) X).expect (dcell c (qR cc0_scratch9 11 0 inb_S15x2_S1x1_11_0)) 0 = N := by
  unfold Schedule.expect Schedule.amountOf; rw [duties_agccw_r_11_0, Finset.sum_singleton]; rfl
theorem duties_agccw_r_11_1 (c : Dev nD) : (Rd (F := F) X).duties (dcell c (qR cc0_scratch9 11 1 inb_S15x2_S1x1_11_1)) 0 = {false} := rfl
theorem amount_agccw_r_11_1 (c : Dev nD) (d : Bool) : (Rd (F := F) X).amount (dcell c (qR cc0_scratch9 11 1 inb_S15x2_S1x1_11_1)) 0 d = N := rfl
theorem payload_agccw_r_11_1 (c : Dev nD) (d : Bool) : (Rd (F := F) X).payload (dcell c (qR cc0_scratch9 11 1 inb_S15x2_S1x1_11_1)) 0 d = owns (c : Thread nD τ) (rows oM (off false (c.val + 12) 1) (off_inb false _ 1)) fullShare (doneV X false 1 (devAt c 12)) := rfl
theorem expect_agccw_r_11_1 (c : Dev nD) : (Rd (F := F) X).expect (dcell c (qR cc0_scratch9 11 1 inb_S15x2_S1x1_11_1)) 0 = N := by
  unfold Schedule.expect Schedule.amountOf; rw [duties_agccw_r_11_1, Finset.sum_singleton]; rfl
theorem duties_agccw_r_12_0 (c : Dev nD) : (Rd (F := F) X).duties (dcell c (qR cc0_scratch9 12 0 inb_S15x2_S1x1_12_0)) 0 = {false} := rfl
theorem amount_agccw_r_12_0 (c : Dev nD) (d : Bool) : (Rd (F := F) X).amount (dcell c (qR cc0_scratch9 12 0 inb_S15x2_S1x1_12_0)) 0 d = N := rfl
theorem payload_agccw_r_12_0 (c : Dev nD) (d : Bool) : (Rd (F := F) X).payload (dcell c (qR cc0_scratch9 12 0 inb_S15x2_S1x1_12_0)) 0 d = owns (c : Thread nD τ) (rows oM (off false (c.val + 13) 0) (off_inb false _ 0)) fullShare (doneV X false 0 (devAt c 13)) := rfl
theorem expect_agccw_r_12_0 (c : Dev nD) : (Rd (F := F) X).expect (dcell c (qR cc0_scratch9 12 0 inb_S15x2_S1x1_12_0)) 0 = N := by
  unfold Schedule.expect Schedule.amountOf; rw [duties_agccw_r_12_0, Finset.sum_singleton]; rfl
theorem duties_agccw_r_12_1 (c : Dev nD) : (Rd (F := F) X).duties (dcell c (qR cc0_scratch9 12 1 inb_S15x2_S1x1_12_1)) 0 = {false} := rfl
theorem amount_agccw_r_12_1 (c : Dev nD) (d : Bool) : (Rd (F := F) X).amount (dcell c (qR cc0_scratch9 12 1 inb_S15x2_S1x1_12_1)) 0 d = N := rfl
theorem payload_agccw_r_12_1 (c : Dev nD) (d : Bool) : (Rd (F := F) X).payload (dcell c (qR cc0_scratch9 12 1 inb_S15x2_S1x1_12_1)) 0 d = owns (c : Thread nD τ) (rows oM (off false (c.val + 13) 1) (off_inb false _ 1)) fullShare (doneV X false 1 (devAt c 13)) := rfl
theorem expect_agccw_r_12_1 (c : Dev nD) : (Rd (F := F) X).expect (dcell c (qR cc0_scratch9 12 1 inb_S15x2_S1x1_12_1)) 0 = N := by
  unfold Schedule.expect Schedule.amountOf; rw [duties_agccw_r_12_1, Finset.sum_singleton]; rfl
theorem duties_agccw_r_13_0 (c : Dev nD) : (Rd (F := F) X).duties (dcell c (qR cc0_scratch9 13 0 inb_S15x2_S1x1_13_0)) 0 = {false} := rfl
theorem amount_agccw_r_13_0 (c : Dev nD) (d : Bool) : (Rd (F := F) X).amount (dcell c (qR cc0_scratch9 13 0 inb_S15x2_S1x1_13_0)) 0 d = N := rfl
theorem payload_agccw_r_13_0 (c : Dev nD) (d : Bool) : (Rd (F := F) X).payload (dcell c (qR cc0_scratch9 13 0 inb_S15x2_S1x1_13_0)) 0 d = owns (c : Thread nD τ) (rows oM (off false (c.val + 14) 0) (off_inb false _ 0)) fullShare (doneV X false 0 (devAt c 14)) := rfl
theorem expect_agccw_r_13_0 (c : Dev nD) : (Rd (F := F) X).expect (dcell c (qR cc0_scratch9 13 0 inb_S15x2_S1x1_13_0)) 0 = N := by
  unfold Schedule.expect Schedule.amountOf; rw [duties_agccw_r_13_0, Finset.sum_singleton]; rfl
theorem duties_agccw_r_13_1 (c : Dev nD) : (Rd (F := F) X).duties (dcell c (qR cc0_scratch9 13 1 inb_S15x2_S1x1_13_1)) 0 = {false} := rfl
theorem amount_agccw_r_13_1 (c : Dev nD) (d : Bool) : (Rd (F := F) X).amount (dcell c (qR cc0_scratch9 13 1 inb_S15x2_S1x1_13_1)) 0 d = N := rfl
theorem payload_agccw_r_13_1 (c : Dev nD) (d : Bool) : (Rd (F := F) X).payload (dcell c (qR cc0_scratch9 13 1 inb_S15x2_S1x1_13_1)) 0 d = owns (c : Thread nD τ) (rows oM (off false (c.val + 14) 1) (off_inb false _ 1)) fullShare (doneV X false 1 (devAt c 14)) := rfl
theorem expect_agccw_r_13_1 (c : Dev nD) : (Rd (F := F) X).expect (dcell c (qR cc0_scratch9 13 1 inb_S15x2_S1x1_13_1)) 0 = N := by
  unfold Schedule.expect Schedule.amountOf; rw [duties_agccw_r_13_1, Finset.sum_singleton]; rfl
theorem duties_agccw_r_14_0 (c : Dev nD) : (Rd (F := F) X).duties (dcell c (qR cc0_scratch9 14 0 inb_S15x2_S1x1_14_0)) 0 = {false} := rfl
theorem amount_agccw_r_14_0 (c : Dev nD) (d : Bool) : (Rd (F := F) X).amount (dcell c (qR cc0_scratch9 14 0 inb_S15x2_S1x1_14_0)) 0 d = N := rfl
theorem payload_agccw_r_14_0 (c : Dev nD) (d : Bool) : (Rd (F := F) X).payload (dcell c (qR cc0_scratch9 14 0 inb_S15x2_S1x1_14_0)) 0 d = owns (c : Thread nD τ) (rows oM (off false (c.val + 15) 0) (off_inb false _ 0)) fullShare (doneV X false 0 (devAt c 15)) := rfl
theorem expect_agccw_r_14_0 (c : Dev nD) : (Rd (F := F) X).expect (dcell c (qR cc0_scratch9 14 0 inb_S15x2_S1x1_14_0)) 0 = N := by
  unfold Schedule.expect Schedule.amountOf; rw [duties_agccw_r_14_0, Finset.sum_singleton]; rfl
theorem duties_agccw_r_14_1 (c : Dev nD) : (Rd (F := F) X).duties (dcell c (qR cc0_scratch9 14 1 inb_S15x2_S1x1_14_1)) 0 = {false} := rfl
theorem amount_agccw_r_14_1 (c : Dev nD) (d : Bool) : (Rd (F := F) X).amount (dcell c (qR cc0_scratch9 14 1 inb_S15x2_S1x1_14_1)) 0 d = N := rfl
theorem payload_agccw_r_14_1 (c : Dev nD) (d : Bool) : (Rd (F := F) X).payload (dcell c (qR cc0_scratch9 14 1 inb_S15x2_S1x1_14_1)) 0 d = owns (c : Thread nD τ) (rows oM (off false (c.val + 15) 1) (off_inb false _ 1)) fullShare (doneV X false 1 (devAt c 15)) := rfl
theorem expect_agccw_r_14_1 (c : Dev nD) : (Rd (F := F) X).expect (dcell c (qR cc0_scratch9 14 1 inb_S15x2_S1x1_14_1)) 0 = N := by
  unfold Schedule.expect Schedule.amountOf; rw [duties_agccw_r_14_1, Finset.sum_singleton]; rfl
theorem duties_agccw_s_0_0 (c : Dev nD) : (Rd (F := F) X).duties (dcell c (qS cc0_scratch8 0 inb_S4_S1_0)) 0 = {false} := rfl
theorem amount_agccw_s_0_0 (c : Dev nD) (d : Bool) : (Rd (F := F) X).amount (dcell c (qS cc0_scratch8 0 inb_S4_S1_0)) 0 d = N := rfl
theorem payload_agccw_s_0_0 (c : Dev nD) (d : Bool) : (Rd (F := F) X).payload (dcell c (qS cc0_scratch8 0 inb_S4_S1_0)) 0 d = owns (c : Thread nD τ) (slot bM 14 0 inb_S15x128x1024_S1x64x1024_14_0_0) fullShare.right (addV X false 0 14 c) := rfl
theorem expect_agccw_s_0_0 (c : Dev nD) : (Rd (F := F) X).expect (dcell c (qS cc0_scratch8 0 inb_S4_S1_0)) 0 = N := by
  unfold Schedule.expect Schedule.amountOf; rw [duties_agccw_s_0_0, Finset.sum_singleton]; rfl
theorem duties_agccw_s_0_1 (c : Dev nD) : (Rd (F := F) X).duties (dcell c (qS cc0_scratch8 0 inb_S4_S1_0)) 1 = {false} := rfl
theorem amount_agccw_s_0_1 (c : Dev nD) (d : Bool) : (Rd (F := F) X).amount (dcell c (qS cc0_scratch8 0 inb_S4_S1_0)) 1 d = N := rfl
theorem payload_agccw_s_0_1 (c : Dev nD) (d : Bool) : (Rd (F := F) X).payload (dcell c (qS cc0_scratch8 0 inb_S4_S1_0)) 1 d = owns (c : Thread nD τ) (rows oM (off false (c.val + 2) 0) (off_inb false _ 0)) fullShare (doneV X false 0 (devAt c 2)) := rfl
theorem expect_agccw_s_0_1 (c : Dev nD) : (Rd (F := F) X).expect (dcell c (qS cc0_scratch8 0 inb_S4_S1_0)) 1 = N := by
  unfold Schedule.expect Schedule.amountOf; rw [duties_agccw_s_0_1, Finset.sum_singleton]; rfl
theorem duties_agccw_s_0_2 (c : Dev nD) : (Rd (F := F) X).duties (dcell c (qS cc0_scratch8 0 inb_S4_S1_0)) 2 = {false} := rfl
theorem amount_agccw_s_0_2 (c : Dev nD) (d : Bool) : (Rd (F := F) X).amount (dcell c (qS cc0_scratch8 0 inb_S4_S1_0)) 2 d = N := rfl
theorem payload_agccw_s_0_2 (c : Dev nD) (d : Bool) : (Rd (F := F) X).payload (dcell c (qS cc0_scratch8 0 inb_S4_S1_0)) 2 d = owns (c : Thread nD τ) (rows oM (off false (c.val + 4) 0) (off_inb false _ 0)) fullShare (doneV X false 0 (devAt c 4)) := rfl
theorem expect_agccw_s_0_2 (c : Dev nD) : (Rd (F := F) X).expect (dcell c (qS cc0_scratch8 0 inb_S4_S1_0)) 2 = N := by
  unfold Schedule.expect Schedule.amountOf; rw [duties_agccw_s_0_2, Finset.sum_singleton]; rfl
theorem duties_agccw_s_0_3 (c : Dev nD) : (Rd (F := F) X).duties (dcell c (qS cc0_scratch8 0 inb_S4_S1_0)) 3 = {false} := rfl
theorem amount_agccw_s_0_3 (c : Dev nD) (d : Bool) : (Rd (F := F) X).amount (dcell c (qS cc0_scratch8 0 inb_S4_S1_0)) 3 d = N := rfl
theorem payload_agccw_s_0_3 (c : Dev nD) (d : Bool) : (Rd (F := F) X).payload (dcell c (qS cc0_scratch8 0 inb_S4_S1_0)) 3 d = owns (c : Thread nD τ) (rows oM (off false (c.val + 6) 0) (off_inb false _ 0)) fullShare (doneV X false 0 (devAt c 6)) := rfl
theorem expect_agccw_s_0_3 (c : Dev nD) : (Rd (F := F) X).expect (dcell c (qS cc0_scratch8 0 inb_S4_S1_0)) 3 = N := by
  unfold Schedule.expect Schedule.amountOf; rw [duties_agccw_s_0_3, Finset.sum_singleton]; rfl
theorem duties_agccw_s_0_4 (c : Dev nD) : (Rd (F := F) X).duties (dcell c (qS cc0_scratch8 0 inb_S4_S1_0)) 4 = {false} := rfl
theorem amount_agccw_s_0_4 (c : Dev nD) (d : Bool) : (Rd (F := F) X).amount (dcell c (qS cc0_scratch8 0 inb_S4_S1_0)) 4 d = N := rfl
theorem payload_agccw_s_0_4 (c : Dev nD) (d : Bool) : (Rd (F := F) X).payload (dcell c (qS cc0_scratch8 0 inb_S4_S1_0)) 4 d = owns (c : Thread nD τ) (rows oM (off false (c.val + 8) 0) (off_inb false _ 0)) fullShare (doneV X false 0 (devAt c 8)) := rfl
theorem expect_agccw_s_0_4 (c : Dev nD) : (Rd (F := F) X).expect (dcell c (qS cc0_scratch8 0 inb_S4_S1_0)) 4 = N := by
  unfold Schedule.expect Schedule.amountOf; rw [duties_agccw_s_0_4, Finset.sum_singleton]; rfl
theorem duties_agccw_s_0_5 (c : Dev nD) : (Rd (F := F) X).duties (dcell c (qS cc0_scratch8 0 inb_S4_S1_0)) 5 = {false} := rfl
theorem amount_agccw_s_0_5 (c : Dev nD) (d : Bool) : (Rd (F := F) X).amount (dcell c (qS cc0_scratch8 0 inb_S4_S1_0)) 5 d = N := rfl
theorem payload_agccw_s_0_5 (c : Dev nD) (d : Bool) : (Rd (F := F) X).payload (dcell c (qS cc0_scratch8 0 inb_S4_S1_0)) 5 d = owns (c : Thread nD τ) (rows oM (off false (c.val + 10) 0) (off_inb false _ 0)) fullShare (doneV X false 0 (devAt c 10)) := rfl
theorem expect_agccw_s_0_5 (c : Dev nD) : (Rd (F := F) X).expect (dcell c (qS cc0_scratch8 0 inb_S4_S1_0)) 5 = N := by
  unfold Schedule.expect Schedule.amountOf; rw [duties_agccw_s_0_5, Finset.sum_singleton]; rfl
theorem duties_agccw_s_0_6 (c : Dev nD) : (Rd (F := F) X).duties (dcell c (qS cc0_scratch8 0 inb_S4_S1_0)) 6 = {false} := rfl
theorem amount_agccw_s_0_6 (c : Dev nD) (d : Bool) : (Rd (F := F) X).amount (dcell c (qS cc0_scratch8 0 inb_S4_S1_0)) 6 d = N := rfl
theorem payload_agccw_s_0_6 (c : Dev nD) (d : Bool) : (Rd (F := F) X).payload (dcell c (qS cc0_scratch8 0 inb_S4_S1_0)) 6 d = owns (c : Thread nD τ) (rows oM (off false (c.val + 12) 0) (off_inb false _ 0)) fullShare (doneV X false 0 (devAt c 12)) := rfl
theorem expect_agccw_s_0_6 (c : Dev nD) : (Rd (F := F) X).expect (dcell c (qS cc0_scratch8 0 inb_S4_S1_0)) 6 = N := by
  unfold Schedule.expect Schedule.amountOf; rw [duties_agccw_s_0_6, Finset.sum_singleton]; rfl
theorem duties_agccw_s_0_7 (c : Dev nD) : (Rd (F := F) X).duties (dcell c (qS cc0_scratch8 0 inb_S4_S1_0)) 7 = {false} := rfl
theorem amount_agccw_s_0_7 (c : Dev nD) (d : Bool) : (Rd (F := F) X).amount (dcell c (qS cc0_scratch8 0 inb_S4_S1_0)) 7 d = N := rfl
theorem payload_agccw_s_0_7 (c : Dev nD) (d : Bool) : (Rd (F := F) X).payload (dcell c (qS cc0_scratch8 0 inb_S4_S1_0)) 7 d = owns (c : Thread nD τ) (rows oM (off false (c.val + 14) 0) (off_inb false _ 0)) fullShare (doneV X false 0 (devAt c 14)) := rfl
theorem expect_agccw_s_0_7 (c : Dev nD) : (Rd (F := F) X).expect (dcell c (qS cc0_scratch8 0 inb_S4_S1_0)) 7 = N := by
  unfold Schedule.expect Schedule.amountOf; rw [duties_agccw_s_0_7, Finset.sum_singleton]; rfl
theorem later_agccw_s_0 (c : Dev nD) : ∀ r, 8 ≤ r → (Rd (F := F) X).duties (dcell c (qS cc0_scratch8 0 inb_S4_S1_0)) r = ∅ := fun r hr => by
  show (if r < 8 then ({false} : Finset Bool) else ∅) = ∅; exact if_neg (by omega)
theorem duties_agccw_s_1_0 (c : Dev nD) : (Rd (F := F) X).duties (dcell c (qS cc0_scratch8 1 inb_S4_S1_1)) 0 = {false} := rfl
theorem amount_agccw_s_1_0 (c : Dev nD) (d : Bool) : (Rd (F := F) X).amount (dcell c (qS cc0_scratch8 1 inb_S4_S1_1)) 0 d = N := rfl
theorem payload_agccw_s_1_0 (c : Dev nD) (d : Bool) : (Rd (F := F) X).payload (dcell c (qS cc0_scratch8 1 inb_S4_S1_1)) 0 d = owns (c : Thread nD τ) (slot bM 14 64 inb_S15x128x1024_S1x64x1024_14_64_0) fullShare.right (addV X false 1 14 c) := rfl
theorem expect_agccw_s_1_0 (c : Dev nD) : (Rd (F := F) X).expect (dcell c (qS cc0_scratch8 1 inb_S4_S1_1)) 0 = N := by
  unfold Schedule.expect Schedule.amountOf; rw [duties_agccw_s_1_0, Finset.sum_singleton]; rfl
theorem duties_agccw_s_1_1 (c : Dev nD) : (Rd (F := F) X).duties (dcell c (qS cc0_scratch8 1 inb_S4_S1_1)) 1 = {false} := rfl
theorem amount_agccw_s_1_1 (c : Dev nD) (d : Bool) : (Rd (F := F) X).amount (dcell c (qS cc0_scratch8 1 inb_S4_S1_1)) 1 d = N := rfl
theorem payload_agccw_s_1_1 (c : Dev nD) (d : Bool) : (Rd (F := F) X).payload (dcell c (qS cc0_scratch8 1 inb_S4_S1_1)) 1 d = owns (c : Thread nD τ) (rows oM (off false (c.val + 2) 1) (off_inb false _ 1)) fullShare (doneV X false 1 (devAt c 2)) := rfl
theorem expect_agccw_s_1_1 (c : Dev nD) : (Rd (F := F) X).expect (dcell c (qS cc0_scratch8 1 inb_S4_S1_1)) 1 = N := by
  unfold Schedule.expect Schedule.amountOf; rw [duties_agccw_s_1_1, Finset.sum_singleton]; rfl
theorem duties_agccw_s_1_2 (c : Dev nD) : (Rd (F := F) X).duties (dcell c (qS cc0_scratch8 1 inb_S4_S1_1)) 2 = {false} := rfl
theorem amount_agccw_s_1_2 (c : Dev nD) (d : Bool) : (Rd (F := F) X).amount (dcell c (qS cc0_scratch8 1 inb_S4_S1_1)) 2 d = N := rfl
theorem payload_agccw_s_1_2 (c : Dev nD) (d : Bool) : (Rd (F := F) X).payload (dcell c (qS cc0_scratch8 1 inb_S4_S1_1)) 2 d = owns (c : Thread nD τ) (rows oM (off false (c.val + 4) 1) (off_inb false _ 1)) fullShare (doneV X false 1 (devAt c 4)) := rfl
theorem expect_agccw_s_1_2 (c : Dev nD) : (Rd (F := F) X).expect (dcell c (qS cc0_scratch8 1 inb_S4_S1_1)) 2 = N := by
  unfold Schedule.expect Schedule.amountOf; rw [duties_agccw_s_1_2, Finset.sum_singleton]; rfl
theorem duties_agccw_s_1_3 (c : Dev nD) : (Rd (F := F) X).duties (dcell c (qS cc0_scratch8 1 inb_S4_S1_1)) 3 = {false} := rfl
theorem amount_agccw_s_1_3 (c : Dev nD) (d : Bool) : (Rd (F := F) X).amount (dcell c (qS cc0_scratch8 1 inb_S4_S1_1)) 3 d = N := rfl
theorem payload_agccw_s_1_3 (c : Dev nD) (d : Bool) : (Rd (F := F) X).payload (dcell c (qS cc0_scratch8 1 inb_S4_S1_1)) 3 d = owns (c : Thread nD τ) (rows oM (off false (c.val + 6) 1) (off_inb false _ 1)) fullShare (doneV X false 1 (devAt c 6)) := rfl
theorem expect_agccw_s_1_3 (c : Dev nD) : (Rd (F := F) X).expect (dcell c (qS cc0_scratch8 1 inb_S4_S1_1)) 3 = N := by
  unfold Schedule.expect Schedule.amountOf; rw [duties_agccw_s_1_3, Finset.sum_singleton]; rfl
theorem duties_agccw_s_1_4 (c : Dev nD) : (Rd (F := F) X).duties (dcell c (qS cc0_scratch8 1 inb_S4_S1_1)) 4 = {false} := rfl
theorem amount_agccw_s_1_4 (c : Dev nD) (d : Bool) : (Rd (F := F) X).amount (dcell c (qS cc0_scratch8 1 inb_S4_S1_1)) 4 d = N := rfl
theorem payload_agccw_s_1_4 (c : Dev nD) (d : Bool) : (Rd (F := F) X).payload (dcell c (qS cc0_scratch8 1 inb_S4_S1_1)) 4 d = owns (c : Thread nD τ) (rows oM (off false (c.val + 8) 1) (off_inb false _ 1)) fullShare (doneV X false 1 (devAt c 8)) := rfl
theorem expect_agccw_s_1_4 (c : Dev nD) : (Rd (F := F) X).expect (dcell c (qS cc0_scratch8 1 inb_S4_S1_1)) 4 = N := by
  unfold Schedule.expect Schedule.amountOf; rw [duties_agccw_s_1_4, Finset.sum_singleton]; rfl
theorem duties_agccw_s_1_5 (c : Dev nD) : (Rd (F := F) X).duties (dcell c (qS cc0_scratch8 1 inb_S4_S1_1)) 5 = {false} := rfl
theorem amount_agccw_s_1_5 (c : Dev nD) (d : Bool) : (Rd (F := F) X).amount (dcell c (qS cc0_scratch8 1 inb_S4_S1_1)) 5 d = N := rfl
theorem payload_agccw_s_1_5 (c : Dev nD) (d : Bool) : (Rd (F := F) X).payload (dcell c (qS cc0_scratch8 1 inb_S4_S1_1)) 5 d = owns (c : Thread nD τ) (rows oM (off false (c.val + 10) 1) (off_inb false _ 1)) fullShare (doneV X false 1 (devAt c 10)) := rfl
theorem expect_agccw_s_1_5 (c : Dev nD) : (Rd (F := F) X).expect (dcell c (qS cc0_scratch8 1 inb_S4_S1_1)) 5 = N := by
  unfold Schedule.expect Schedule.amountOf; rw [duties_agccw_s_1_5, Finset.sum_singleton]; rfl
theorem duties_agccw_s_1_6 (c : Dev nD) : (Rd (F := F) X).duties (dcell c (qS cc0_scratch8 1 inb_S4_S1_1)) 6 = {false} := rfl
theorem amount_agccw_s_1_6 (c : Dev nD) (d : Bool) : (Rd (F := F) X).amount (dcell c (qS cc0_scratch8 1 inb_S4_S1_1)) 6 d = N := rfl
theorem payload_agccw_s_1_6 (c : Dev nD) (d : Bool) : (Rd (F := F) X).payload (dcell c (qS cc0_scratch8 1 inb_S4_S1_1)) 6 d = owns (c : Thread nD τ) (rows oM (off false (c.val + 12) 1) (off_inb false _ 1)) fullShare (doneV X false 1 (devAt c 12)) := rfl
theorem expect_agccw_s_1_6 (c : Dev nD) : (Rd (F := F) X).expect (dcell c (qS cc0_scratch8 1 inb_S4_S1_1)) 6 = N := by
  unfold Schedule.expect Schedule.amountOf; rw [duties_agccw_s_1_6, Finset.sum_singleton]; rfl
theorem duties_agccw_s_1_7 (c : Dev nD) : (Rd (F := F) X).duties (dcell c (qS cc0_scratch8 1 inb_S4_S1_1)) 7 = {false} := rfl
theorem amount_agccw_s_1_7 (c : Dev nD) (d : Bool) : (Rd (F := F) X).amount (dcell c (qS cc0_scratch8 1 inb_S4_S1_1)) 7 d = N := rfl
theorem payload_agccw_s_1_7 (c : Dev nD) (d : Bool) : (Rd (F := F) X).payload (dcell c (qS cc0_scratch8 1 inb_S4_S1_1)) 7 d = owns (c : Thread nD τ) (rows oM (off false (c.val + 14) 1) (off_inb false _ 1)) fullShare (doneV X false 1 (devAt c 14)) := rfl
theorem expect_agccw_s_1_7 (c : Dev nD) : (Rd (F := F) X).expect (dcell c (qS cc0_scratch8 1 inb_S4_S1_1)) 7 = N := by
  unfold Schedule.expect Schedule.amountOf; rw [duties_agccw_s_1_7, Finset.sum_singleton]; rfl
theorem later_agccw_s_1 (c : Dev nD) : ∀ r, 8 ≤ r → (Rd (F := F) X).duties (dcell c (qS cc0_scratch8 1 inb_S4_S1_1)) r = ∅ := fun r hr => by
  show (if r < 8 then ({false} : Finset Bool) else ∅) = ∅; exact if_neg (by omega)
theorem duties_agccw_s_2_0 (c : Dev nD) : (Rd (F := F) X).duties (dcell c (qS cc0_scratch8 2 inb_S4_S1_2)) 0 = {false} := rfl
theorem amount_agccw_s_2_0 (c : Dev nD) (d : Bool) : (Rd (F := F) X).amount (dcell c (qS cc0_scratch8 2 inb_S4_S1_2)) 0 d = N := rfl
theorem payload_agccw_s_2_0 (c : Dev nD) (d : Bool) : (Rd (F := F) X).payload (dcell c (qS cc0_scratch8 2 inb_S4_S1_2)) 0 d = owns (c : Thread nD τ) (rows oM (off false (c.val + 1) 0) (off_inb false _ 0)) fullShare (doneV X false 0 (devAt c 1)) := rfl
theorem expect_agccw_s_2_0 (c : Dev nD) : (Rd (F := F) X).expect (dcell c (qS cc0_scratch8 2 inb_S4_S1_2)) 0 = N := by
  unfold Schedule.expect Schedule.amountOf; rw [duties_agccw_s_2_0, Finset.sum_singleton]; rfl
theorem duties_agccw_s_2_1 (c : Dev nD) : (Rd (F := F) X).duties (dcell c (qS cc0_scratch8 2 inb_S4_S1_2)) 1 = {false} := rfl
theorem amount_agccw_s_2_1 (c : Dev nD) (d : Bool) : (Rd (F := F) X).amount (dcell c (qS cc0_scratch8 2 inb_S4_S1_2)) 1 d = N := rfl
theorem payload_agccw_s_2_1 (c : Dev nD) (d : Bool) : (Rd (F := F) X).payload (dcell c (qS cc0_scratch8 2 inb_S4_S1_2)) 1 d = owns (c : Thread nD τ) (rows oM (off false (c.val + 3) 0) (off_inb false _ 0)) fullShare (doneV X false 0 (devAt c 3)) := rfl
theorem expect_agccw_s_2_1 (c : Dev nD) : (Rd (F := F) X).expect (dcell c (qS cc0_scratch8 2 inb_S4_S1_2)) 1 = N := by
  unfold Schedule.expect Schedule.amountOf; rw [duties_agccw_s_2_1, Finset.sum_singleton]; rfl
theorem duties_agccw_s_2_2 (c : Dev nD) : (Rd (F := F) X).duties (dcell c (qS cc0_scratch8 2 inb_S4_S1_2)) 2 = {false} := rfl
theorem amount_agccw_s_2_2 (c : Dev nD) (d : Bool) : (Rd (F := F) X).amount (dcell c (qS cc0_scratch8 2 inb_S4_S1_2)) 2 d = N := rfl
theorem payload_agccw_s_2_2 (c : Dev nD) (d : Bool) : (Rd (F := F) X).payload (dcell c (qS cc0_scratch8 2 inb_S4_S1_2)) 2 d = owns (c : Thread nD τ) (rows oM (off false (c.val + 5) 0) (off_inb false _ 0)) fullShare (doneV X false 0 (devAt c 5)) := rfl
theorem expect_agccw_s_2_2 (c : Dev nD) : (Rd (F := F) X).expect (dcell c (qS cc0_scratch8 2 inb_S4_S1_2)) 2 = N := by
  unfold Schedule.expect Schedule.amountOf; rw [duties_agccw_s_2_2, Finset.sum_singleton]; rfl
theorem duties_agccw_s_2_3 (c : Dev nD) : (Rd (F := F) X).duties (dcell c (qS cc0_scratch8 2 inb_S4_S1_2)) 3 = {false} := rfl
theorem amount_agccw_s_2_3 (c : Dev nD) (d : Bool) : (Rd (F := F) X).amount (dcell c (qS cc0_scratch8 2 inb_S4_S1_2)) 3 d = N := rfl
theorem payload_agccw_s_2_3 (c : Dev nD) (d : Bool) : (Rd (F := F) X).payload (dcell c (qS cc0_scratch8 2 inb_S4_S1_2)) 3 d = owns (c : Thread nD τ) (rows oM (off false (c.val + 7) 0) (off_inb false _ 0)) fullShare (doneV X false 0 (devAt c 7)) := rfl
theorem expect_agccw_s_2_3 (c : Dev nD) : (Rd (F := F) X).expect (dcell c (qS cc0_scratch8 2 inb_S4_S1_2)) 3 = N := by
  unfold Schedule.expect Schedule.amountOf; rw [duties_agccw_s_2_3, Finset.sum_singleton]; rfl
theorem duties_agccw_s_2_4 (c : Dev nD) : (Rd (F := F) X).duties (dcell c (qS cc0_scratch8 2 inb_S4_S1_2)) 4 = {false} := rfl
theorem amount_agccw_s_2_4 (c : Dev nD) (d : Bool) : (Rd (F := F) X).amount (dcell c (qS cc0_scratch8 2 inb_S4_S1_2)) 4 d = N := rfl
theorem payload_agccw_s_2_4 (c : Dev nD) (d : Bool) : (Rd (F := F) X).payload (dcell c (qS cc0_scratch8 2 inb_S4_S1_2)) 4 d = owns (c : Thread nD τ) (rows oM (off false (c.val + 9) 0) (off_inb false _ 0)) fullShare (doneV X false 0 (devAt c 9)) := rfl
theorem expect_agccw_s_2_4 (c : Dev nD) : (Rd (F := F) X).expect (dcell c (qS cc0_scratch8 2 inb_S4_S1_2)) 4 = N := by
  unfold Schedule.expect Schedule.amountOf; rw [duties_agccw_s_2_4, Finset.sum_singleton]; rfl
theorem duties_agccw_s_2_5 (c : Dev nD) : (Rd (F := F) X).duties (dcell c (qS cc0_scratch8 2 inb_S4_S1_2)) 5 = {false} := rfl
theorem amount_agccw_s_2_5 (c : Dev nD) (d : Bool) : (Rd (F := F) X).amount (dcell c (qS cc0_scratch8 2 inb_S4_S1_2)) 5 d = N := rfl
theorem payload_agccw_s_2_5 (c : Dev nD) (d : Bool) : (Rd (F := F) X).payload (dcell c (qS cc0_scratch8 2 inb_S4_S1_2)) 5 d = owns (c : Thread nD τ) (rows oM (off false (c.val + 11) 0) (off_inb false _ 0)) fullShare (doneV X false 0 (devAt c 11)) := rfl
theorem expect_agccw_s_2_5 (c : Dev nD) : (Rd (F := F) X).expect (dcell c (qS cc0_scratch8 2 inb_S4_S1_2)) 5 = N := by
  unfold Schedule.expect Schedule.amountOf; rw [duties_agccw_s_2_5, Finset.sum_singleton]; rfl
theorem duties_agccw_s_2_6 (c : Dev nD) : (Rd (F := F) X).duties (dcell c (qS cc0_scratch8 2 inb_S4_S1_2)) 6 = {false} := rfl
theorem amount_agccw_s_2_6 (c : Dev nD) (d : Bool) : (Rd (F := F) X).amount (dcell c (qS cc0_scratch8 2 inb_S4_S1_2)) 6 d = N := rfl
theorem payload_agccw_s_2_6 (c : Dev nD) (d : Bool) : (Rd (F := F) X).payload (dcell c (qS cc0_scratch8 2 inb_S4_S1_2)) 6 d = owns (c : Thread nD τ) (rows oM (off false (c.val + 13) 0) (off_inb false _ 0)) fullShare (doneV X false 0 (devAt c 13)) := rfl
theorem expect_agccw_s_2_6 (c : Dev nD) : (Rd (F := F) X).expect (dcell c (qS cc0_scratch8 2 inb_S4_S1_2)) 6 = N := by
  unfold Schedule.expect Schedule.amountOf; rw [duties_agccw_s_2_6, Finset.sum_singleton]; rfl
theorem later_agccw_s_2 (c : Dev nD) : ∀ r, 7 ≤ r → (Rd (F := F) X).duties (dcell c (qS cc0_scratch8 2 inb_S4_S1_2)) r = ∅ := fun r hr => by
  show (if r < 7 then ({false} : Finset Bool) else ∅) = ∅; exact if_neg (by omega)
theorem duties_agccw_s_3_0 (c : Dev nD) : (Rd (F := F) X).duties (dcell c (qS cc0_scratch8 3 inb_S4_S1_3)) 0 = {false} := rfl
theorem amount_agccw_s_3_0 (c : Dev nD) (d : Bool) : (Rd (F := F) X).amount (dcell c (qS cc0_scratch8 3 inb_S4_S1_3)) 0 d = N := rfl
theorem payload_agccw_s_3_0 (c : Dev nD) (d : Bool) : (Rd (F := F) X).payload (dcell c (qS cc0_scratch8 3 inb_S4_S1_3)) 0 d = owns (c : Thread nD τ) (rows oM (off false (c.val + 1) 1) (off_inb false _ 1)) fullShare (doneV X false 1 (devAt c 1)) := rfl
theorem expect_agccw_s_3_0 (c : Dev nD) : (Rd (F := F) X).expect (dcell c (qS cc0_scratch8 3 inb_S4_S1_3)) 0 = N := by
  unfold Schedule.expect Schedule.amountOf; rw [duties_agccw_s_3_0, Finset.sum_singleton]; rfl
theorem duties_agccw_s_3_1 (c : Dev nD) : (Rd (F := F) X).duties (dcell c (qS cc0_scratch8 3 inb_S4_S1_3)) 1 = {false} := rfl
theorem amount_agccw_s_3_1 (c : Dev nD) (d : Bool) : (Rd (F := F) X).amount (dcell c (qS cc0_scratch8 3 inb_S4_S1_3)) 1 d = N := rfl
theorem payload_agccw_s_3_1 (c : Dev nD) (d : Bool) : (Rd (F := F) X).payload (dcell c (qS cc0_scratch8 3 inb_S4_S1_3)) 1 d = owns (c : Thread nD τ) (rows oM (off false (c.val + 3) 1) (off_inb false _ 1)) fullShare (doneV X false 1 (devAt c 3)) := rfl
theorem expect_agccw_s_3_1 (c : Dev nD) : (Rd (F := F) X).expect (dcell c (qS cc0_scratch8 3 inb_S4_S1_3)) 1 = N := by
  unfold Schedule.expect Schedule.amountOf; rw [duties_agccw_s_3_1, Finset.sum_singleton]; rfl
theorem duties_agccw_s_3_2 (c : Dev nD) : (Rd (F := F) X).duties (dcell c (qS cc0_scratch8 3 inb_S4_S1_3)) 2 = {false} := rfl
theorem amount_agccw_s_3_2 (c : Dev nD) (d : Bool) : (Rd (F := F) X).amount (dcell c (qS cc0_scratch8 3 inb_S4_S1_3)) 2 d = N := rfl
theorem payload_agccw_s_3_2 (c : Dev nD) (d : Bool) : (Rd (F := F) X).payload (dcell c (qS cc0_scratch8 3 inb_S4_S1_3)) 2 d = owns (c : Thread nD τ) (rows oM (off false (c.val + 5) 1) (off_inb false _ 1)) fullShare (doneV X false 1 (devAt c 5)) := rfl
theorem expect_agccw_s_3_2 (c : Dev nD) : (Rd (F := F) X).expect (dcell c (qS cc0_scratch8 3 inb_S4_S1_3)) 2 = N := by
  unfold Schedule.expect Schedule.amountOf; rw [duties_agccw_s_3_2, Finset.sum_singleton]; rfl
theorem duties_agccw_s_3_3 (c : Dev nD) : (Rd (F := F) X).duties (dcell c (qS cc0_scratch8 3 inb_S4_S1_3)) 3 = {false} := rfl
theorem amount_agccw_s_3_3 (c : Dev nD) (d : Bool) : (Rd (F := F) X).amount (dcell c (qS cc0_scratch8 3 inb_S4_S1_3)) 3 d = N := rfl
theorem payload_agccw_s_3_3 (c : Dev nD) (d : Bool) : (Rd (F := F) X).payload (dcell c (qS cc0_scratch8 3 inb_S4_S1_3)) 3 d = owns (c : Thread nD τ) (rows oM (off false (c.val + 7) 1) (off_inb false _ 1)) fullShare (doneV X false 1 (devAt c 7)) := rfl
theorem expect_agccw_s_3_3 (c : Dev nD) : (Rd (F := F) X).expect (dcell c (qS cc0_scratch8 3 inb_S4_S1_3)) 3 = N := by
  unfold Schedule.expect Schedule.amountOf; rw [duties_agccw_s_3_3, Finset.sum_singleton]; rfl
theorem duties_agccw_s_3_4 (c : Dev nD) : (Rd (F := F) X).duties (dcell c (qS cc0_scratch8 3 inb_S4_S1_3)) 4 = {false} := rfl
theorem amount_agccw_s_3_4 (c : Dev nD) (d : Bool) : (Rd (F := F) X).amount (dcell c (qS cc0_scratch8 3 inb_S4_S1_3)) 4 d = N := rfl
theorem payload_agccw_s_3_4 (c : Dev nD) (d : Bool) : (Rd (F := F) X).payload (dcell c (qS cc0_scratch8 3 inb_S4_S1_3)) 4 d = owns (c : Thread nD τ) (rows oM (off false (c.val + 9) 1) (off_inb false _ 1)) fullShare (doneV X false 1 (devAt c 9)) := rfl
theorem expect_agccw_s_3_4 (c : Dev nD) : (Rd (F := F) X).expect (dcell c (qS cc0_scratch8 3 inb_S4_S1_3)) 4 = N := by
  unfold Schedule.expect Schedule.amountOf; rw [duties_agccw_s_3_4, Finset.sum_singleton]; rfl
theorem duties_agccw_s_3_5 (c : Dev nD) : (Rd (F := F) X).duties (dcell c (qS cc0_scratch8 3 inb_S4_S1_3)) 5 = {false} := rfl
theorem amount_agccw_s_3_5 (c : Dev nD) (d : Bool) : (Rd (F := F) X).amount (dcell c (qS cc0_scratch8 3 inb_S4_S1_3)) 5 d = N := rfl
theorem payload_agccw_s_3_5 (c : Dev nD) (d : Bool) : (Rd (F := F) X).payload (dcell c (qS cc0_scratch8 3 inb_S4_S1_3)) 5 d = owns (c : Thread nD τ) (rows oM (off false (c.val + 11) 1) (off_inb false _ 1)) fullShare (doneV X false 1 (devAt c 11)) := rfl
theorem expect_agccw_s_3_5 (c : Dev nD) : (Rd (F := F) X).expect (dcell c (qS cc0_scratch8 3 inb_S4_S1_3)) 5 = N := by
  unfold Schedule.expect Schedule.amountOf; rw [duties_agccw_s_3_5, Finset.sum_singleton]; rfl
theorem duties_agccw_s_3_6 (c : Dev nD) : (Rd (F := F) X).duties (dcell c (qS cc0_scratch8 3 inb_S4_S1_3)) 6 = {false} := rfl
theorem amount_agccw_s_3_6 (c : Dev nD) (d : Bool) : (Rd (F := F) X).amount (dcell c (qS cc0_scratch8 3 inb_S4_S1_3)) 6 d = N := rfl
theorem payload_agccw_s_3_6 (c : Dev nD) (d : Bool) : (Rd (F := F) X).payload (dcell c (qS cc0_scratch8 3 inb_S4_S1_3)) 6 d = owns (c : Thread nD τ) (rows oM (off false (c.val + 13) 1) (off_inb false _ 1)) fullShare (doneV X false 1 (devAt c 13)) := rfl
theorem expect_agccw_s_3_6 (c : Dev nD) : (Rd (F := F) X).expect (dcell c (qS cc0_scratch8 3 inb_S4_S1_3)) 6 = N := by
  unfold Schedule.expect Schedule.amountOf; rw [duties_agccw_s_3_6, Finset.sum_singleton]; rfl
theorem later_agccw_s_3 (c : Dev nD) : ∀ r, 7 ≤ r → (Rd (F := F) X).duties (dcell c (qS cc0_scratch8 3 inb_S4_S1_3)) r = ∅ := fun r hr => by
  show (if r < 7 then ({false} : Finset Bool) else ∅) = ∅; exact if_neg (by omega)
theorem later_agccw_r_0_0 (c : Dev nD) : ∀ r, 1 ≤ r → (Rd (F := F) X).duties (dcell c (qR cc0_scratch9 0 0 inb_S15x2_S1x1_0_0)) r = ∅ := fun r hr => by
  show (if r = 0 then ({false} : Finset Bool) else ∅) = ∅; exact if_neg (by omega)
theorem later_agccw_r_0_1 (c : Dev nD) : ∀ r, 1 ≤ r → (Rd (F := F) X).duties (dcell c (qR cc0_scratch9 0 1 inb_S15x2_S1x1_0_1)) r = ∅ := fun r hr => by
  show (if r = 0 then ({false} : Finset Bool) else ∅) = ∅; exact if_neg (by omega)
theorem later_agccw_r_1_0 (c : Dev nD) : ∀ r, 1 ≤ r → (Rd (F := F) X).duties (dcell c (qR cc0_scratch9 1 0 inb_S15x2_S1x1_1_0)) r = ∅ := fun r hr => by
  show (if r = 0 then ({false} : Finset Bool) else ∅) = ∅; exact if_neg (by omega)
theorem later_agccw_r_1_1 (c : Dev nD) : ∀ r, 1 ≤ r → (Rd (F := F) X).duties (dcell c (qR cc0_scratch9 1 1 inb_S15x2_S1x1_1_1)) r = ∅ := fun r hr => by
  show (if r = 0 then ({false} : Finset Bool) else ∅) = ∅; exact if_neg (by omega)
theorem later_agccw_r_2_0 (c : Dev nD) : ∀ r, 1 ≤ r → (Rd (F := F) X).duties (dcell c (qR cc0_scratch9 2 0 inb_S15x2_S1x1_2_0)) r = ∅ := fun r hr => by
  show (if r = 0 then ({false} : Finset Bool) else ∅) = ∅; exact if_neg (by omega)
theorem later_agccw_r_2_1 (c : Dev nD) : ∀ r, 1 ≤ r → (Rd (F := F) X).duties (dcell c (qR cc0_scratch9 2 1 inb_S15x2_S1x1_2_1)) r = ∅ := fun r hr => by
  show (if r = 0 then ({false} : Finset Bool) else ∅) = ∅; exact if_neg (by omega)
theorem later_agccw_r_3_0 (c : Dev nD) : ∀ r, 1 ≤ r → (Rd (F := F) X).duties (dcell c (qR cc0_scratch9 3 0 inb_S15x2_S1x1_3_0)) r = ∅ := fun r hr => by
  show (if r = 0 then ({false} : Finset Bool) else ∅) = ∅; exact if_neg (by omega)
theorem later_agccw_r_3_1 (c : Dev nD) : ∀ r, 1 ≤ r → (Rd (F := F) X).duties (dcell c (qR cc0_scratch9 3 1 inb_S15x2_S1x1_3_1)) r = ∅ := fun r hr => by
  show (if r = 0 then ({false} : Finset Bool) else ∅) = ∅; exact if_neg (by omega)
theorem later_agccw_r_4_0 (c : Dev nD) : ∀ r, 1 ≤ r → (Rd (F := F) X).duties (dcell c (qR cc0_scratch9 4 0 inb_S15x2_S1x1_4_0)) r = ∅ := fun r hr => by
  show (if r = 0 then ({false} : Finset Bool) else ∅) = ∅; exact if_neg (by omega)
theorem later_agccw_r_4_1 (c : Dev nD) : ∀ r, 1 ≤ r → (Rd (F := F) X).duties (dcell c (qR cc0_scratch9 4 1 inb_S15x2_S1x1_4_1)) r = ∅ := fun r hr => by
  show (if r = 0 then ({false} : Finset Bool) else ∅) = ∅; exact if_neg (by omega)
theorem later_agccw_r_5_0 (c : Dev nD) : ∀ r, 1 ≤ r → (Rd (F := F) X).duties (dcell c (qR cc0_scratch9 5 0 inb_S15x2_S1x1_5_0)) r = ∅ := fun r hr => by
  show (if r = 0 then ({false} : Finset Bool) else ∅) = ∅; exact if_neg (by omega)
theorem later_agccw_r_5_1 (c : Dev nD) : ∀ r, 1 ≤ r → (Rd (F := F) X).duties (dcell c (qR cc0_scratch9 5 1 inb_S15x2_S1x1_5_1)) r = ∅ := fun r hr => by
  show (if r = 0 then ({false} : Finset Bool) else ∅) = ∅; exact if_neg (by omega)
theorem later_agccw_r_6_0 (c : Dev nD) : ∀ r, 1 ≤ r → (Rd (F := F) X).duties (dcell c (qR cc0_scratch9 6 0 inb_S15x2_S1x1_6_0)) r = ∅ := fun r hr => by
  show (if r = 0 then ({false} : Finset Bool) else ∅) = ∅; exact if_neg (by omega)
theorem later_agccw_r_6_1 (c : Dev nD) : ∀ r, 1 ≤ r → (Rd (F := F) X).duties (dcell c (qR cc0_scratch9 6 1 inb_S15x2_S1x1_6_1)) r = ∅ := fun r hr => by
  show (if r = 0 then ({false} : Finset Bool) else ∅) = ∅; exact if_neg (by omega)
theorem later_agccw_r_7_0 (c : Dev nD) : ∀ r, 1 ≤ r → (Rd (F := F) X).duties (dcell c (qR cc0_scratch9 7 0 inb_S15x2_S1x1_7_0)) r = ∅ := fun r hr => by
  show (if r = 0 then ({false} : Finset Bool) else ∅) = ∅; exact if_neg (by omega)
theorem later_agccw_r_7_1 (c : Dev nD) : ∀ r, 1 ≤ r → (Rd (F := F) X).duties (dcell c (qR cc0_scratch9 7 1 inb_S15x2_S1x1_7_1)) r = ∅ := fun r hr => by
  show (if r = 0 then ({false} : Finset Bool) else ∅) = ∅; exact if_neg (by omega)
theorem later_agccw_r_8_0 (c : Dev nD) : ∀ r, 1 ≤ r → (Rd (F := F) X).duties (dcell c (qR cc0_scratch9 8 0 inb_S15x2_S1x1_8_0)) r = ∅ := fun r hr => by
  show (if r = 0 then ({false} : Finset Bool) else ∅) = ∅; exact if_neg (by omega)
theorem later_agccw_r_8_1 (c : Dev nD) : ∀ r, 1 ≤ r → (Rd (F := F) X).duties (dcell c (qR cc0_scratch9 8 1 inb_S15x2_S1x1_8_1)) r = ∅ := fun r hr => by
  show (if r = 0 then ({false} : Finset Bool) else ∅) = ∅; exact if_neg (by omega)
theorem later_agccw_r_9_0 (c : Dev nD) : ∀ r, 1 ≤ r → (Rd (F := F) X).duties (dcell c (qR cc0_scratch9 9 0 inb_S15x2_S1x1_9_0)) r = ∅ := fun r hr => by
  show (if r = 0 then ({false} : Finset Bool) else ∅) = ∅; exact if_neg (by omega)
theorem later_agccw_r_9_1 (c : Dev nD) : ∀ r, 1 ≤ r → (Rd (F := F) X).duties (dcell c (qR cc0_scratch9 9 1 inb_S15x2_S1x1_9_1)) r = ∅ := fun r hr => by
  show (if r = 0 then ({false} : Finset Bool) else ∅) = ∅; exact if_neg (by omega)
theorem later_agccw_r_10_0 (c : Dev nD) : ∀ r, 1 ≤ r → (Rd (F := F) X).duties (dcell c (qR cc0_scratch9 10 0 inb_S15x2_S1x1_10_0)) r = ∅ := fun r hr => by
  show (if r = 0 then ({false} : Finset Bool) else ∅) = ∅; exact if_neg (by omega)
theorem later_agccw_r_10_1 (c : Dev nD) : ∀ r, 1 ≤ r → (Rd (F := F) X).duties (dcell c (qR cc0_scratch9 10 1 inb_S15x2_S1x1_10_1)) r = ∅ := fun r hr => by
  show (if r = 0 then ({false} : Finset Bool) else ∅) = ∅; exact if_neg (by omega)
theorem later_agccw_r_11_0 (c : Dev nD) : ∀ r, 1 ≤ r → (Rd (F := F) X).duties (dcell c (qR cc0_scratch9 11 0 inb_S15x2_S1x1_11_0)) r = ∅ := fun r hr => by
  show (if r = 0 then ({false} : Finset Bool) else ∅) = ∅; exact if_neg (by omega)
theorem later_agccw_r_11_1 (c : Dev nD) : ∀ r, 1 ≤ r → (Rd (F := F) X).duties (dcell c (qR cc0_scratch9 11 1 inb_S15x2_S1x1_11_1)) r = ∅ := fun r hr => by
  show (if r = 0 then ({false} : Finset Bool) else ∅) = ∅; exact if_neg (by omega)
theorem later_agccw_r_12_0 (c : Dev nD) : ∀ r, 1 ≤ r → (Rd (F := F) X).duties (dcell c (qR cc0_scratch9 12 0 inb_S15x2_S1x1_12_0)) r = ∅ := fun r hr => by
  show (if r = 0 then ({false} : Finset Bool) else ∅) = ∅; exact if_neg (by omega)
theorem later_agccw_r_12_1 (c : Dev nD) : ∀ r, 1 ≤ r → (Rd (F := F) X).duties (dcell c (qR cc0_scratch9 12 1 inb_S15x2_S1x1_12_1)) r = ∅ := fun r hr => by
  show (if r = 0 then ({false} : Finset Bool) else ∅) = ∅; exact if_neg (by omega)
theorem later_agccw_r_13_0 (c : Dev nD) : ∀ r, 1 ≤ r → (Rd (F := F) X).duties (dcell c (qR cc0_scratch9 13 0 inb_S15x2_S1x1_13_0)) r = ∅ := fun r hr => by
  show (if r = 0 then ({false} : Finset Bool) else ∅) = ∅; exact if_neg (by omega)
theorem later_agccw_r_13_1 (c : Dev nD) : ∀ r, 1 ≤ r → (Rd (F := F) X).duties (dcell c (qR cc0_scratch9 13 1 inb_S15x2_S1x1_13_1)) r = ∅ := fun r hr => by
  show (if r = 0 then ({false} : Finset Bool) else ∅) = ∅; exact if_neg (by omega)
theorem later_agccw_r_14_0 (c : Dev nD) : ∀ r, 1 ≤ r → (Rd (F := F) X).duties (dcell c (qR cc0_scratch9 14 0 inb_S15x2_S1x1_14_0)) r = ∅ := fun r hr => by
  show (if r = 0 then ({false} : Finset Bool) else ∅) = ∅; exact if_neg (by omega)
theorem later_agccw_r_14_1 (c : Dev nD) : ∀ r, 1 ≤ r → (Rd (F := F) X).duties (dcell c (qR cc0_scratch9 14 1 inb_S15x2_S1x1_14_1)) r = ∅ := fun r hr => by
  show (if r = 0 then ({false} : Finset Bool) else ∅) = ∅; exact if_neg (by omega)

end Cert.Kernel.RSAG

end
-- ==== Proof.Bits.Values.lean ====
import proofs.«901013_g7700000000001014_dist_rs_then_ag_i_m4096_n1024_v7x_i16_f32_1_alg».proof.Proof.Bits.Base
import Idealize.ShloMosaic.Lib.ValueIdx
import Idealize.ShloMosaic.Lib.Layout

/-! The values of the ring reduce-scatter, read entry by entry.

    A window of 64 rows reads the array at an index shifted by the window's offset. The finished sub-blocks, laid out
    chunk by chunk, half by half, form one 4096-row array; under each sub-block's window that array shows the
    sub-block. With exact addition each finished sub-block is the sum of all sixteen devices' staged rows, because the
    partial sum of a chunk meets every device exactly once on its way round the ring; and the sixteen row blocks of the
    whole argument, added up, are the one-device reference's value. -/

noncomputable section

namespace Cert.Kernel.RSAG

open Cert.Kernel Cert.Kernel.Gen
open Idealize.ShloMosaic
open Idealize.ShloMosaic.TcCoe
open Idealize.ShloMosaic.ValueIdx
open scoped BigOperators

variable {F : FTy → Type} [FloatOps F]

/-! ## Reading a window is an index shift -/

/-- A row of a 64-row window at row offset `o 0` is a row of the array. -/
theorem piece_row_lt (o : Fin 2 → ℕ) (h : ∀ a, o a + S64x1024.size a ≤ S4096x1024.size a) (i : S64x1024.Idx) :
    o 0 + (i 0).val < 4096 := by
  have h0 : o 0 + 64 ≤ 4096 := h 0
  have := idx2_lt0 i
  omega

/-- A column of the window at column offset `o 1` is a column of the array. -/
theorem piece_col_lt (o : Fin 2 → ℕ) (h : ∀ a, o a + S64x1024.size a ≤ S4096x1024.size a) (i : S64x1024.Idx) :
    o 1 + (i 1).val < 1024 := by
  have h1 : o 1 + 1024 ≤ 1024 := h 1
  have := idx2_lt1 i
  omega

/-- Reading 64 rows through the window at offset `o` is an index shift by `o`. -/
theorem piece_apply (o : Fin 2 → ℕ) (h : ∀ a, o a + S64x1024.size a ≤ S4096x1024.size a) (Y : S4096x1024.Idx → Elt F .f32)
    (i : S64x1024.Idx) :
    piece o h Y i = Y (ix2 ⟨o 0 + (i 0).val, piece_row_lt o h i⟩ ⟨o 1 + (i 1).val, piece_col_lt o h i⟩) := by
  show Y _ = Y _
  refine congrArg Y (funext fun a => Fin.ext ?_)
  match a with
  | ⟨0, _⟩ => show o 0 + 1 * (i 0).val = o 0 + (i 0).val; omega
  | ⟨1, _⟩ => show o 1 + 1 * (i 1).val = o 1 + (i 1).val; omega

/-! ## The assembled result

Row `R` of the result lies in chunk `R / 256`; within the chunk, rows below 128 belong to the half that travelled
towards the next device, the others to the half that travelled the other way; each half is two sub-blocks of 64 rows. -/

/-- The array index of row `j 0`, column `j 1` of sub-block `b` of the `cw` half of chunk `k`. -/
def J (cw : Bool) (k : Dev nD) (b : Fin 2) (j : S64x1024.Idx) : S4096x1024.Idx :=
  ix2 (⟨256 * k.val + (if cw then 0 else 128) + 64 * b.val + (j 0).val, by
        have hk : k.val < 16 := k.isLt
        have hb : b.val < 2 := b.isLt
        have hj := idx2_lt0 j
        cases cw <;> simp <;> omega⟩ : Fin 4096) (j 1 : Fin 1024)

theorem J_row (cw : Bool) (k : Dev nD) (b : Fin 2) (j : S64x1024.Idx) :
    (J cw k b j 0).val = 256 * k.val + (if cw then 0 else 128) + 64 * b.val + (j 0).val := rfl

/-- A window at the offset of sub-block `b` of the `cw` half of a chunk congruent to `k` reads the array at `J cw k b`. -/
theorem piece_off (cw : Bool) (m : ℕ) (b : Fin 2) (k : Dev nD) (hm : m % 16 = k.val) (Y : S4096x1024.Idx → Elt F .f32)
    (j : S64x1024.Idx) : piece (off cw m b.val) (off_inb cw m b) Y j = Y (J cw k b j) := by
  rw [piece_apply]
  refine congrArg Y (funext fun a => Fin.ext ?_)
  match a with
  | ⟨0, _⟩ =>
    show 256 * (m % 16) + (if cw then 0 else 128) + 64 * b.val + (j 0).val
      = 256 * k.val + (if cw then 0 else 128) + 64 * b.val + (j 0).val
    rw [hm]
  | ⟨1, _⟩ => show 0 + (j 1).val = (j 1).val; omega

/-- A row of the result lies in one of the sixteen chunks. -/
theorem chunk_lt (i : S4096x1024.Idx) : (i 0).val / 256 < nD := by
  have h : (i 0).val < 4096 := idx2_lt0 i
  show (i 0).val / 256 < 16
  omega

/-- The finished sub-blocks laid out as the 4096-row result every device ends with. -/
def outV (X : Dev nD → S4096x1024.Idx → Elt F .f32) : S4096x1024.Idx → Elt F .f32 := fun i =>
  doneV X (decide ((i 0).val % 256 < 128)) ⟨(i 0).val % 256 % 128 / 64, by omega⟩
    ⟨(i 0).val / 256, chunk_lt i⟩
    (ix2 (⟨(i 0).val % 256 % 64, by omega⟩ : Fin 64) (i 1 : Fin 1024))

theorem doneV_congr (X : Dev nD → S4096x1024.Idx → Elt F .f32) {cw cw' : Bool} {b b' : Fin 2} {k k' : Dev nD}
    {j j' : S64x1024.Idx} (h1 : cw' = cw) (h2 : b' = b) (h3 : k' = k) (h4 : j' = j) :
    doneV X cw' b' k' j' = doneV X cw b k j := by
  subst h1 h2 h3 h4; rfl

/-- The result at the array index of a sub-block's entry is that sub-block's entry. -/
theorem outV_J (X : Dev nD → S4096x1024.Idx → Elt F .f32) (cw : Bool) (k : Dev nD) (b : Fin 2) (j : S64x1024.Idx) :
    outV X (J cw k b j) = doneV X cw b k j := by
  have hk : k.val < 16 := k.isLt
  have hb : b.val < 2 := b.isLt
  have hj : (j 0).val < 64 := idx2_lt0 j
  have hR := J_row cw k b j
  show doneV X _ _ _ _ = _
  cases cw
  · have hR' : (J false k b j 0).val = 256 * k.val + 128 + 64 * b.val + (j 0).val := hR
    refine doneV_congr X (decide_eq_false (by rw [hR']; omega)) (Fin.ext ?_) (Fin.ext ?_) (funext fun a => ?_)
    · show (J false k b j 0).val % 256 % 128 / 64 = b.val
      rw [hR']; omega
    · show (J false k b j 0).val / 256 = k.val
      rw [hR']; omega
    · match a with
      | ⟨0, _⟩ => exact Fin.ext (by show (J false k b j 0).val % 256 % 64 = (j 0).val; rw [hR']; omega)
      | ⟨1, _⟩ => rfl
  · have hR' : (J true k b j 0).val = 256 * k.val + 0 + 64 * b.val + (j 0).val := hR
    refine doneV_congr X (decide_eq_true (by rw [hR']; omega)) (Fin.ext ?_) (Fin.ext ?_) (funext fun a => ?_)
    · show (J true k b j 0).val % 256 % 128 / 64 = b.val
      rw [hR']; omega
    · show (J true k b j 0).val / 256 = k.val
      rw [hR']; omega
    · match a with
      | ⟨0, _⟩ => exact Fin.ext (by show (J true k b j 0).val % 256 % 64 = (j 0).val; rw [hR']; omega)
      | ⟨1, _⟩ => rfl

/-- Every index of the result is the array index of one sub-block's entry: the one `outV` reads. -/
theorem J_decode (i : S4096x1024.Idx) :
    J (decide ((i 0).val % 256 < 128)) ⟨(i 0).val / 256, chunk_lt i⟩ ⟨(i 0).val % 256 % 128 / 64, by omega⟩
      (ix2 (⟨(i 0).val % 256 % 64, by omega⟩ : Fin 64) (i 1 : Fin 1024)) = i := by
  funext a
  match a with
  | ⟨0, _⟩ =>
    refine Fin.ext ?_
    show 256 * ((i 0).val / 256) + (if decide ((i 0).val % 256 < 128) = true then 0 else 128)
      + 64 * ((i 0).val % 256 % 128 / 64) + (i 0).val % 256 % 64 = (i 0).val
    by_cases h : (i 0).val % 256 < 128
    · rw [if_pos (decide_eq_true h)]; omega
    · rw [if_neg (by rw [decide_eq_false h]; exact Bool.false_ne_true)]; omega
  | ⟨1, _⟩ => rfl

/-- The rows of the result under the window of sub-block `b` of the `cw` half of chunk `k` are that finished sub-block. -/
theorem piece_outV (X : Dev nD → S4096x1024.Idx → Elt F .f32) (cw : Bool) (k : Dev nD) (b : Fin 2) :
    piece (off cw k.val b.val) (off_inb cw k.val b) (outV X) = doneV X cw b k := by
  funext j
  have hk : k.val < 16 := k.isLt
  rw [piece_off cw k.val b k (by omega)]
  exact outV_J X cw k b j

end Cert.Kernel.RSAG

end
-- ==== Proof.Bits.Dats.lean ====
import proofs.«901013_g7700000000001014_dist_rs_then_ag_i_m4096_n1024_v7x_i16_f32_1_alg».proof.Proof.Bits.Tables
import proofs.«901013_g7700000000001014_dist_rs_then_ag_i_m4096_n1024_v7x_i16_f32_1_alg».proof.Proof.Bits.Values

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch memory, what each device owes and at which levels it waits, the ghost state a device's body starts from,
    and the pipeline's proof data. -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- device `c`'s staged block of the input -/
def xstg (c : Dev nD) : S4096x1024.Idx → Elt F .f32 :=
  (win0_0.blk (0 : Fin 1)).view.read (Elt F) (m ((c : Thread nD τ).loc main_arg0))

/-! ## What a device pays, in the order it pays: the two barrier signals, then every transfer's arrival -/

def pays (c : Dev nD) : List (GSem nD τ sig × ℕ) :=
  [(barCell (prv c), 1),
   (barCell (nxt c), 1),
   (dcell (nxt c) (qR cc0_scratch3 0 0 inb_S15x2_S1x1_0_0), N),
   (dcell (nxt c) (qR cc0_scratch3 0 1 inb_S15x2_S1x1_0_1), N),
   (dcell (prv c) (qR cc0_scratch5 0 0 inb_S15x2_S1x1_0_0), N),
   (dcell (prv c) (qR cc0_scratch5 0 1 inb_S15x2_S1x1_0_1), N),
   (dcell (nxt c) (qR cc0_scratch3 1 0 inb_S15x2_S1x1_1_0), N),
   (dcell (prv c) (qR cc0_scratch5 1 0 inb_S15x2_S1x1_1_0), N),
   (dcell (nxt c) (qR cc0_scratch3 1 1 inb_S15x2_S1x1_1_1), N),
   (dcell (prv c) (qR cc0_scratch5 1 1 inb_S15x2_S1x1_1_1), N),
   (dcell (nxt c) (qR cc0_scratch3 2 0 inb_S15x2_S1x1_2_0), N),
   (dcell (prv c) (qR cc0_scratch5 2 0 inb_S15x2_S1x1_2_0), N),
   (dcell (nxt c) (qR cc0_scratch3 2 1 inb_S15x2_S1x1_2_1), N),
   (dcell (prv c) (qR cc0_scratch5 2 1 inb_S15x2_S1x1_2_1), N),
   (dcell (nxt c) (qR cc0_scratch3 3 0 inb_S15x2_S1x1_3_0), N),
   (dcell (prv c) (qR cc0_scratch5 3 0 inb_S15x2_S1x1_3_0), N),
   (dcell (nxt c) (qR cc0_scratch3 3 1 inb_S15x2_S1x1_3_1), N),
   (dcell (prv c) (qR cc0_scratch5 3 1 inb_S15x2_S1x1_3_1), N),
   (dcell (nxt c) (qR cc0_scratch3 4 0 inb_S15x2_S1x1_4_0), N),
   (dcell (prv c) (qR cc0_scratch5 4 0 inb_S15x2_S1x1_4_0), N),
   (dcell (nxt c) (qR cc0_scratch3 4 1 inb_S15x2_S1x1_4_1), N),
   (dcell (prv c) (qR cc0_scratch5 4 1 inb_S15x2_S1x1_4_1), N),
   (dcell (nxt c) (qR cc0_scratch3 5 0 inb_S15x2_S1x1_5_0), N),
   (dcell (prv c) (qR cc0_scratch5 5 0 inb_S15x2_S1x1_5_0), N),
   (dcell (nxt c) (qR cc0_scratch3 5 1 inb_S15x2_S1x1_5_1), N),
   (dcell (prv c) (qR cc0_scratch5 5 1 inb_S15x2_S1x1_5_1), N),
   (dcell (nxt c) (qR cc0_scratch3 6 0 inb_S15x2_S1x1_6_0), N),
   (dcell (prv c) (qR cc0_scratch5 6 0 inb_S15x2_S1x1_6_0), N),
   (dcell (nxt c) (qR cc0_scratch3 6 1 inb_S15x2_S1x1_6_1), N),
   (dcell (prv c) (qR cc0_scratch5 6 1 inb_S15x2_S1x1_6_1), N),
   (dcell (nxt c) (qR cc0_scratch3 7 0 inb_S15x2_S1x1_7_0), N),
   (dcell (prv c) (qR cc0_scratch5 7 0 inb_S15x2_S1x1_7_0), N),
   (dcell (nxt c) (qR cc0_scratch3 7 1 inb_S15x2_S1x1_7_1), N),
   (dcell (prv c) (qR cc0_scratch5 7 1 inb_S15x2_S1x1_7_1), N),
   (dcell (nxt c) (qR cc0_scratch3 8 0 inb_S15x2_S1x1_8_0), N),
   (dcell (prv c) (qR cc0_scratch5 8 0 inb_S15x2_S1x1_8_0), N),
   (dcell (nxt c) (qR cc0_scratch3 8 1 inb_S15x2_S1x1_8_1), N),
   (dcell (prv c) (qR cc0_scratch5 8 1 inb_S15x2_S1x1_8_1), N),
   (dcell (nxt c) (qR cc0_scratch3 9 0 inb_S15x2_S1x1_9_0), N),
   (dcell (prv c) (qR cc0_scratch5 9 0 inb_S15x2_S1x1_9_0), N),
   (dcell (nxt c) (qR cc0_scratch3 9 1 inb_S15x2_S1x1_9_1), N),
   (dcell (prv c) (qR cc0_scratch5 9 1 inb_S15x2_S1x1_9_1), N),
   (dcell (nxt c) (qR cc0_scratch3 10 0 inb_S15x2_S1x1_10_0), N),
   (dcell (prv c) (qR cc0_scratch5 10 0 inb_S15x2_S1x1_10_0), N),
   (dcell (nxt c) (qR cc0_scratch3 10 1 inb_S15x2_S1x1_10_1), N),
   (dcell (prv c) (qR cc0_scratch5 10 1 inb_S15x2_S1x1_10_1), N),
   (dcell (nxt c) (qR cc0_scratch3 11 0 inb_S15x2_S1x1_11_0), N),
   (dcell (prv c) (qR cc0_scratch5 11 0 inb_S15x2_S1x1_11_0), N),
   (dcell (nxt c) (qR cc0_scratch3 11 1 inb_S15x2_S1x1_11_1), N),
   (dcell (prv c) (qR cc0_scratch5 11 1 inb_S15x2_S1x1_11_1), N),
   (dcell (nxt c) (qR cc0_scratch3 12 0 inb_S15x2_S1x1_12_0), N),
   (dcell (prv c) (qR cc0_scratch5 12 0 inb_S15x2_S1x1_12_0), N),
   (dcell (nxt c) (qR cc0_scratch3 12 1 inb_S15x2_S1x1_12_1), N),
   (dcell (prv c) (qR cc0_scratch5 12 1 inb_S15x2_S1x1_12_1), N),
   (dcell (nxt c) (qR cc0_scratch3 13 0 inb_S15x2_S1x1_13_0), N),
   (dcell (prv c) (qR cc0_scratch5 13 0 inb_S15x2_S1x1_13_0), N),
   (dcell (nxt c) (qR cc0_scratch3 13 1 inb_S15x2_S1x1_13_1), N),
   (dcell (prv c) (qR cc0_scratch5 13 1 inb_S15x2_S1x1_13_1), N),
   (dcell (nxt c) (qR cc0_scratch3 14 0 inb_S15x2_S1x1_14_0), N),
   (dcell (prv c) (qR cc0_scratch5 14 0 inb_S15x2_S1x1_14_0), N),
   (dcell (nxt c) (qR cc0_scratch3 14 1 inb_S15x2_S1x1_14_1), N),
   (dcell (prv c) (qR cc0_scratch5 14 1 inb_S15x2_S1x1_14_1), N),
   (dcell (nxt c) (qR cc0_scratch7 0 0 inb_S15x2_S1x1_0_0), N),
   (dcell (prv c) (qR cc0_scratch9 0 0 inb_S15x2_S1x1_0_0), N),
   (dcell (nxt c) (qR cc0_scratch7 0 1 inb_S15x2_S1x1_0_1), N),
   (dcell (prv c) (qR cc0_scratch9 0 1 inb_S15x2_S1x1_0_1), N),
   (dcell (nxt c) (qR cc0_scratch7 1 0 inb_S15x2_S1x1_1_0), N),
   (dcell (prv c) (qR cc0_scratch9 1 0 inb_S15x2_S1x1_1_0), N),
   (dcell (nxt c) (qR cc0_scratch7 1 1 inb_S15x2_S1x1_1_1), N),
   (dcell (prv c) (qR cc0_scratch9 1 1 inb_S15x2_S1x1_1_1), N),
   (dcell (nxt c) (qR cc0_scratch7 2 0 inb_S15x2_S1x1_2_0), N),
   (dcell (prv c) (qR cc0_scratch9 2 0 inb_S15x2_S1x1_2_0), N),
   (dcell (nxt c) (qR cc0_scratch7 2 1 inb_S15x2_S1x1_2_1), N),
   (dcell (prv c) (qR cc0_scratch9 2 1 inb_S15x2_S1x1_2_1), N),
   (dcell (nxt c) (qR cc0_scratch7 3 0 inb_S15x2_S1x1_3_0), N),
   (dcell (prv c) (qR cc0_scratch9 3 0 inb_S15x2_S1x1_3_0), N),
   (dcell (nxt c) (qR cc0_scratch7 3 1 inb_S15x2_S1x1_3_1), N),
   (dcell (prv c) (qR cc0_scratch9 3 1 inb_S15x2_S1x1_3_1), N),
   (dcell (nxt c) (qR cc0_scratch7 4 0 inb_S15x2_S1x1_4_0), N),
   (dcell (prv c) (qR cc0_scratch9 4 0 inb_S15x2_S1x1_4_0), N),
   (dcell (nxt c) (qR cc0_scratch7 4 1 inb_S15x2_S1x1_4_1), N),
   (dcell (prv c) (qR cc0_scratch9 4 1 inb_S15x2_S1x1_4_1), N),
   (dcell (nxt c) (qR cc0_scratch7 5 0 inb_S15x2_S1x1_5_0), N),
   (dcell (prv c) (qR cc0_scratch9 5 0 inb_S15x2_S1x1_5_0), N),
   (dcell (nxt c) (qR cc0_scratch7 5 1 inb_S15x2_S1x1_5_1), N),
   (dcell (prv c) (qR cc0_scratch9 5 1 inb_S15x2_S1x1_5_1), N),
   (dcell (nxt c) (qR cc0_scratch7 6 0 inb_S15x2_S1x1_6_0), N),
   (dcell (prv c) (qR cc0_scratch9 6 0 inb_S15x2_S1x1_6_0), N),
   (dcell (nxt c) (qR cc0_scratch7 6 1 inb_S15x2_S1x1_6_1), N),
   (dcell (prv c) (qR cc0_scratch9 6 1 inb_S15x2_S1x1_6_1), N),
   (dcell (nxt c) (qR cc0_scratch7 7 0 inb_S15x2_S1x1_7_0), N),
   (dcell (prv c) (qR cc0_scratch9 7 0 inb_S15x2_S1x1_7_0), N),
   (dcell (nxt c) (qR cc0_scratch7 7 1 inb_S15x2_S1x1_7_1), N),
   (dcell (prv c) (qR cc0_scratch9 7 1 inb_S15x2_S1x1_7_1), N),
   (dcell (nxt c) (qR cc0_scratch7 8 0 inb_S15x2_S1x1_8_0), N),
   (dcell (prv c) (qR cc0_scratch9 8 0 inb_S15x2_S1x1_8_0), N),
   (dcell (nxt c) (qR cc0_scratch7 8 1 inb_S15x2_S1x1_8_1), N),
   (dcell (prv c) (qR cc0_scratch9 8 1 inb_S15x2_S1x1_8_1), N),
   (dcell (nxt c) (qR cc0_scratch7 9 0 inb_S15x2_S1x1_9_0), N),
   (dcell (prv c) (qR cc0_scratch9 9 0 inb_S15x2_S1x1_9_0), N),
   (dcell (nxt c) (qR cc0_scratch7 9 1 inb_S15x2_S1x1_9_1), N),
   (dcell (prv c) (qR cc0_scratch9 9 1 inb_S15x2_S1x1_9_1), N),
   (dcell (nxt c) (qR cc0_scratch7 10 0 inb_S15x2_S1x1_10_0), N),
   (dcell (prv c) (qR cc0_scratch9 10 0 inb_S15x2_S1x1_10_0), N),
   (dcell (nxt c) (qR cc0_scratch7 10 1 inb_S15x2_S1x1_10_1), N),
   (dcell (prv c) (qR cc0_scratch9 10 1 inb_S15x2_S1x1_10_1), N),
   (dcell (nxt c) (qR cc0_scratch7 11 0 inb_S15x2_S1x1_11_0), N),
   (dcell (prv c) (qR cc0_scratch9 11 0 inb_S15x2_S1x1_11_0), N),
   (dcell (nxt c) (qR cc0_scratch7 11 1 inb_S15x2_S1x1_11_1), N),
   (dcell (prv c) (qR cc0_scratch9 11 1 inb_S15x2_S1x1_11_1), N),
   (dcell (nxt c) (qR cc0_scratch7 12 0 inb_S15x2_S1x1_12_0), N),
   (dcell (prv c) (qR cc0_scratch9 12 0 inb_S15x2_S1x1_12_0), N),
   (dcell (nxt c) (qR cc0_scratch7 12 1 inb_S15x2_S1x1_12_1), N),
   (dcell (prv c) (qR cc0_scratch9 12 1 inb_S15x2_S1x1_12_1), N),
   (dcell (nxt c) (qR cc0_scratch7 13 0 inb_S15x2_S1x1_13_0), N),
   (dcell (prv c) (qR cc0_scratch9 13 0 inb_S15x2_S1x1_13_0), N),
   (dcell (nxt c) (qR cc0_scratch7 13 1 inb_S15x2_S1x1_13_1), N),
   (dcell (prv c) (qR cc0_scratch9 13 1 inb_S15x2_S1x1_13_1), N),
   (dcell (nxt c) (qR cc0_scratch7 14 0 inb_S15x2_S1x1_14_0), N),
   (dcell (prv c) (qR cc0_scratch9 14 0 inb_S15x2_S1x1_14_0), N),
   (dcell (nxt c) (qR cc0_scratch7 14 1 inb_S15x2_S1x1_14_1), N),
   (dcell (prv c) (qR cc0_scratch9 14 1 inb_S15x2_S1x1_14_1), N)]

/-- what it still owes once the first `j` are paid -/
def rem (c : Dev nD) (j : ℕ) : CellTallies nD τ sig Unit := ((pays c).drop j).foldr (fun p O => O + tallyAt p.1 () p.2) 0

/-! ## Levels: a barrier cell at 1; a receive cell at 2 + the place of the transfer that credits it in `pays`; the rest at 0.
    A device waits on a receive cell only after firing the transfer of the same name, so everything it still owes lies above. -/

def lvq : ℕ → ℕ
  | 6 => 4
  | 7 => 5
  | 40 => 6
  | 41 => 7
  | 8 => 8
  | 42 => 9
  | 9 => 10
  | 43 => 11
  | 10 => 12
  | 44 => 13
  | 11 => 14
  | 45 => 15
  | 12 => 16
  | 46 => 17
  | 13 => 18
  | 47 => 19
  | 14 => 20
  | 48 => 21
  | 15 => 22
  | 49 => 23
  | 16 => 24
  | 50 => 25
  | 17 => 26
  | 51 => 27
  | 18 => 28
  | 52 => 29
  | 19 => 30
  | 53 => 31
  | 20 => 32
  | 54 => 33
  | 21 => 34
  | 55 => 35
  | 22 => 36
  | 56 => 37
  | 23 => 38
  | 57 => 39
  | 24 => 40
  | 58 => 41
  | 25 => 42
  | 59 => 43
  | 26 => 44
  | 60 => 45
  | 27 => 46
  | 61 => 47
  | 28 => 48
  | 62 => 49
  | 29 => 50
  | 63 => 51
  | 30 => 52
  | 64 => 53
  | 31 => 54
  | 65 => 55
  | 32 => 56
  | 66 => 57
  | 33 => 58
  | 67 => 59
  | 34 => 60
  | 68 => 61
  | 35 => 62
  | 69 => 63
  | 74 => 64
  | 108 => 65
  | 75 => 66
  | 109 => 67
  | 76 => 68
  | 110 => 69
  | 77 => 70
  | 111 => 71
  | 78 => 72
  | 112 => 73
  | 79 => 74
  | 113 => 75
  | 80 => 76
  | 114 => 77
  | 81 => 78
  | 115 => 79
  | 82 => 80
  | 116 => 81
  | 83 => 82
  | 117 => 83
  | 84 => 84
  | 118 => 85
  | 85 => 86
  | 119 => 87
  | 86 => 88
  | 120 => 89
  | 87 => 90
  | 121 => 91
  | 88 => 92
  | 122 => 93
  | 89 => 94
  | 123 => 95
  | 90 => 96
  | 124 => 97
  | 91 => 98
  | 125 => 99
  | 92 => 100
  | 126 => 101
  | 93 => 102
  | 127 => 103
  | 94 => 104
  | 128 => 105
  | 95 => 106
  | 129 => 107
  | 96 => 108
  | 130 => 109
  | 97 => 110
  | 131 => 111
  | 98 => 112
  | 132 => 113
  | 99 => 114
  | 133 => 115
  | 100 => 116
  | 134 => 117
  | 101 => 118
  | 135 => 119
  | 102 => 120
  | 136 => 121
  | 103 => 122
  | 137 => 123
  | _ => 0

def L (g : GSem nD τ sig) : Finset Unit := if g.1.2 = .tc then {()} else ∅
def lv (g : GSem nD τ sig) (_ : Unit) : ℕ := match g.2 with | .reg _ => 1 | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

/-! ## The semaphores by role -/

/-- the receive semaphores of the clockwise transfers (reduce-scatter, then all-gather), -/
def recvCw : List (DmaSem sig) :=
  [(qR cc0_scratch3 0 0 inb_S15x2_S1x1_0_0),
   (qR cc0_scratch3 0 1 inb_S15x2_S1x1_0_1),
   (qR cc0_scratch3 1 0 inb_S15x2_S1x1_1_0),
   (qR cc0_scratch3 1 1 inb_S15x2_S1x1_1_1),
   (qR cc0_scratch3 2 0 inb_S15x2_S1x1_2_0),
   (qR cc0_scratch3 2 1 inb_S15x2_S1x1_2_1),
   (qR cc0_scratch3 3 0 inb_S15x2_S1x1_3_0),
   (qR cc0_scratch3 3 1 inb_S15x2_S1x1_3_1),
   (qR cc0_scratch3 4 0 inb_S15x2_S1x1_4_0),
   (qR cc0_scratch3 4 1 inb_S15x2_S1x1_4_1),
   (qR cc0_scratch3 5 0 inb_S15x2_S1x1_5_0),
   (qR cc0_scratch3 5 1 inb_S15x2_S1x1_5_1),
   (qR cc0_scratch3 6 0 inb_S15x2_S1x1_6_0),
   (qR cc0_scratch3 6 1 inb_S15x2_S1x1_6_1),
   (qR cc0_scratch3 7 0 inb_S15x2_S1x1_7_0),
   (qR cc0_scratch3 7 1 inb_S15x2_S1x1_7_1),
   (qR cc0_scratch3 8 0 inb_S15x2_S1x1_8_0),
   (qR cc0_scratch3 8 1 inb_S15x2_S1x1_8_1),
   (qR cc0_scratch3 9 0 inb_S15x2_S1x1_9_0),
   (qR cc0_scratch3 9 1 inb_S15x2_S1x1_9_1),
   (qR cc0_scratch3 10 0 inb_S15x2_S1x1_10_0),
   (qR cc0_scratch3 10 1 inb_S15x2_S1x1_10_1),
   (qR cc0_scratch3 11 0 inb_S15x2_S1x1_11_0),
   (qR cc0_scratch3 11 1 inb_S15x2_S1x1_11_1),
   (qR cc0_scratch3 12 0 inb_S15x2_S1x1_12_0),
   (qR cc0_scratch3 12 1 inb_S15x2_S1x1_12_1),
   (qR cc0_scratch3 13 0 inb_S15x2_S1x1_13_0),
   (qR cc0_scratch3 13 1 inb_S15x2_S1x1_13_1),
   (qR cc0_scratch3 14 0 inb_S15x2_S1x1_14_0),
   (qR cc0_scratch3 14 1 inb_S15x2_S1x1_14_1),
   (qR cc0_scratch7 0 0 inb_S15x2_S1x1_0_0),
   (qR cc0_scratch7 0 1 inb_S15x2_S1x1_0_1),
   (qR cc0_scratch7 1 0 inb_S15x2_S1x1_1_0),
   (qR cc0_scratch7 1 1 inb_S15x2_S1x1_1_1),
   (qR cc0_scratch7 2 0 inb_S15x2_S1x1_2_0),
   (qR cc0_scratch7 2 1 inb_S15x2_S1x1_2_1),
   (qR cc0_scratch7 3 0 inb_S15x2_S1x1_3_0),
   (qR cc0_scratch7 3 1 inb_S15x2_S1x1_3_1),
   (qR cc0_scratch7 4 0 inb_S15x2_S1x1_4_0),
   (qR cc0_scratch7 4 1 inb_S15x2_S1x1_4_1),
   (qR cc0_scratch7 5 0 inb_S15x2_S1x1_5_0),
   (qR cc0_scratch7 5 1 inb_S15x2_S1x1_5_1),
   (qR cc0_scratch7 6 0 inb_S15x2_S1x1_6_0),
   (qR cc0_scratch7 6 1 inb_S15x2_S1x1_6_1),
   (qR cc0_scratch7 7 0 inb_S15x2_S1x1_7_0),
   (qR cc0_scratch7 7 1 inb_S15x2_S1x1_7_1),
   (qR cc0_scratch7 8 0 inb_S15x2_S1x1_8_0),
   (qR cc0_scratch7 8 1 inb_S15x2_S1x1_8_1),
   (qR cc0_scratch7 9 0 inb_S15x2_S1x1_9_0),
   (qR cc0_scratch7 9 1 inb_S15x2_S1x1_9_1),
   (qR cc0_scratch7 10 0 inb_S15x2_S1x1_10_0),
   (qR cc0_scratch7 10 1 inb_S15x2_S1x1_10_1),
   (qR cc0_scratch7 11 0 inb_S15x2_S1x1_11_0),
   (qR cc0_scratch7 11 1 inb_S15x2_S1x1_11_1),
   (qR cc0_scratch7 12 0 inb_S15x2_S1x1_12_0),
   (qR cc0_scratch7 12 1 inb_S15x2_S1x1_12_1),
   (qR cc0_scratch7 13 0 inb_S15x2_S1x1_13_0),
   (qR cc0_scratch7 13 1 inb_S15x2_S1x1_13_1),
   (qR cc0_scratch7 14 0 inb_S15x2_S1x1_14_0),
   (qR cc0_scratch7 14 1 inb_S15x2_S1x1_14_1)]
/-- of the counter-clockwise ones, -/
def recvCcw : List (DmaSem sig) :=
  [(qR cc0_scratch5 0 0 inb_S15x2_S1x1_0_0),
   (qR cc0_scratch5 0 1 inb_S15x2_S1x1_0_1),
   (qR cc0_scratch5 1 0 inb_S15x2_S1x1_1_0),
   (qR cc0_scratch5 1 1 inb_S15x2_S1x1_1_1),
   (qR cc0_scratch5 2 0 inb_S15x2_S1x1_2_0),
   (qR cc0_scratch5 2 1 inb_S15x2_S1x1_2_1),
   (qR cc0_scratch5 3 0 inb_S15x2_S1x1_3_0),
   (qR cc0_scratch5 3 1 inb_S15x2_S1x1_3_1),
   (qR cc0_scratch5 4 0 inb_S15x2_S1x1_4_0),
   (qR cc0_scratch5 4 1 inb_S15x2_S1x1_4_1),
   (qR cc0_scratch5 5 0 inb_S15x2_S1x1_5_0),
   (qR cc0_scratch5 5 1 inb_S15x2_S1x1_5_1),
   (qR cc0_scratch5 6 0 inb_S15x2_S1x1_6_0),
   (qR cc0_scratch5 6 1 inb_S15x2_S1x1_6_1),
   (qR cc0_scratch5 7 0 inb_S15x2_S1x1_7_0),
   (qR cc0_scratch5 7 1 inb_S15x2_S1x1_7_1),
   (qR cc0_scratch5 8 0 inb_S15x2_S1x1_8_0),
   (qR cc0_scratch5 8 1 inb_S15x2_S1x1_8_1),
   (qR cc0_scratch5 9 0 inb_S15x2_S1x1_9_0),
   (qR cc0_scratch5 9 1 inb_S15x2_S1x1_9_1),
   (qR cc0_scratch5 10 0 inb_S15x2_S1x1_10_0),
   (qR cc0_scratch5 10 1 inb_S15x2_S1x1_10_1),
   (qR cc0_scratch5 11 0 inb_S15x2_S1x1_11_0),
   (qR cc0_scratch5 11 1 inb_S15x2_S1x1_11_1),
   (qR cc0_scratch5 12 0 inb_S15x2_S1x1_12_0),
   (qR cc0_scratch5 12 1 inb_S15x2_S1x1_12_1),
   (qR cc0_scratch5 13 0 inb_S15x2_S1x1_13_0),
   (qR cc0_scratch5 13 1 inb_S15x2_S1x1_13_1),
   (qR cc0_scratch5 14 0 inb_S15x2_S1x1_14_0),
   (qR cc0_scratch5 14 1 inb_S15x2_S1x1_14_1),
   (qR cc0_scratch9 0 0 inb_S15x2_S1x1_0_0),
   (qR cc0_scratch9 0 1 inb_S15x2_S1x1_0_1),
   (qR cc0_scratch9 1 0 inb_S15x2_S1x1_1_0),
   (qR cc0_scratch9 1 1 inb_S15x2_S1x1_1_1),
   (qR cc0_scratch9 2 0 inb_S15x2_S1x1_2_0),
   (qR cc0_scratch9 2 1 inb_S15x2_S1x1_2_1),
   (qR cc0_scratch9 3 0 inb_S15x2_S1x1_3_0),
   (qR cc0_scratch9 3 1 inb_S15x2_S1x1_3_1),
   (qR cc0_scratch9 4 0 inb_S15x2_S1x1_4_0),
   (qR cc0_scratch9 4 1 inb_S15x2_S1x1_4_1),
   (qR cc0_scratch9 5 0 inb_S15x2_S1x1_5_0),
   (qR cc0_scratch9 5 1 inb_S15x2_S1x1_5_1),
   (qR cc0_scratch9 6 0 inb_S15x2_S1x1_6_0),
   (qR cc0_scratch9 6 1 inb_S15x2_S1x1_6_1),
   (qR cc0_scratch9 7 0 inb_S15x2_S1x1_7_0),
   (qR cc0_scratch9 7 1 inb_S15x2_S1x1_7_1),
   (qR cc0_scratch9 8 0 inb_S15x2_S1x1_8_0),
   (qR cc0_scratch9 8 1 inb_S15x2_S1x1_8_1),
   (qR cc0_scratch9 9 0 inb_S15x2_S1x1_9_0),
   (qR cc0_scratch9 9 1 inb_S15x2_S1x1_9_1),
   (qR cc0_scratch9 10 0 inb_S15x2_S1x1_10_0),
   (qR cc0_scratch9 10 1 inb_S15x2_S1x1_10_1),
   (qR cc0_scratch9 11 0 inb_S15x2_S1x1_11_0),
   (qR cc0_scratch9 11 1 inb_S15x2_S1x1_11_1),
   (qR cc0_scratch9 12 0 inb_S15x2_S1x1_12_0),
   (qR cc0_scratch9 12 1 inb_S15x2_S1x1_12_1),
   (qR cc0_scratch9 13 0 inb_S15x2_S1x1_13_0),
   (qR cc0_scratch9 13 1 inb_S15x2_S1x1_13_1),
   (qR cc0_scratch9 14 0 inb_S15x2_S1x1_14_0),
   (qR cc0_scratch9 14 1 inb_S15x2_S1x1_14_1)]
/-- the sixteen send semaphores, -/
def sendQs : List (DmaSem sig) :=
  [(qS cc0_scratch2 0 inb_S4_S1_0),
   (qS cc0_scratch2 1 inb_S4_S1_1),
   (qS cc0_scratch2 2 inb_S4_S1_2),
   (qS cc0_scratch2 3 inb_S4_S1_3),
   (qS cc0_scratch4 0 inb_S4_S1_0),
   (qS cc0_scratch4 1 inb_S4_S1_1),
   (qS cc0_scratch4 2 inb_S4_S1_2),
   (qS cc0_scratch4 3 inb_S4_S1_3),
   (qS cc0_scratch6 0 inb_S4_S1_0),
   (qS cc0_scratch6 1 inb_S4_S1_1),
   (qS cc0_scratch6 2 inb_S4_S1_2),
   (qS cc0_scratch6 3 inb_S4_S1_3),
   (qS cc0_scratch8 0 inb_S4_S1_0),
   (qS cc0_scratch8 1 inb_S4_S1_1),
   (qS cc0_scratch8 2 inb_S4_S1_2),
   (qS cc0_scratch8 3 inb_S4_S1_3)]
/-- each with the rounds it is used in, -/
def sendToks : List (DmaSem sig × ℕ) :=
  [((qS cc0_scratch2 0 inb_S4_S1_0), 0),
   ((qS cc0_scratch2 0 inb_S4_S1_0), 1),
   ((qS cc0_scratch2 0 inb_S4_S1_0), 2),
   ((qS cc0_scratch2 0 inb_S4_S1_0), 3),
   ((qS cc0_scratch2 0 inb_S4_S1_0), 4),
   ((qS cc0_scratch2 0 inb_S4_S1_0), 5),
   ((qS cc0_scratch2 0 inb_S4_S1_0), 6),
   ((qS cc0_scratch2 0 inb_S4_S1_0), 7),
   ((qS cc0_scratch2 1 inb_S4_S1_1), 0),
   ((qS cc0_scratch2 1 inb_S4_S1_1), 1),
   ((qS cc0_scratch2 1 inb_S4_S1_1), 2),
   ((qS cc0_scratch2 1 inb_S4_S1_1), 3),
   ((qS cc0_scratch2 1 inb_S4_S1_1), 4),
   ((qS cc0_scratch2 1 inb_S4_S1_1), 5),
   ((qS cc0_scratch2 1 inb_S4_S1_1), 6),
   ((qS cc0_scratch2 1 inb_S4_S1_1), 7),
   ((qS cc0_scratch2 2 inb_S4_S1_2), 0),
   ((qS cc0_scratch2 2 inb_S4_S1_2), 1),
   ((qS cc0_scratch2 2 inb_S4_S1_2), 2),
   ((qS cc0_scratch2 2 inb_S4_S1_2), 3),
   ((qS cc0_scratch2 2 inb_S4_S1_2), 4),
   ((qS cc0_scratch2 2 inb_S4_S1_2), 5),
   ((qS cc0_scratch2 2 inb_S4_S1_2), 6),
   ((qS cc0_scratch2 3 inb_S4_S1_3), 0),
   ((qS cc0_scratch2 3 inb_S4_S1_3), 1),
   ((qS cc0_scratch2 3 inb_S4_S1_3), 2),
   ((qS cc0_scratch2 3 inb_S4_S1_3), 3),
   ((qS cc0_scratch2 3 inb_S4_S1_3), 4),
   ((qS cc0_scratch2 3 inb_S4_S1_3), 5),
   ((qS cc0_scratch2 3 inb_S4_S1_3), 6),
   ((qS cc0_scratch4 0 inb_S4_S1_0), 0),
   ((qS cc0_scratch4 0 inb_S4_S1_0), 1),
   ((qS cc0_scratch4 0 inb_S4_S1_0), 2),
   ((qS cc0_scratch4 0 inb_S4_S1_0), 3),
   ((qS cc0_scratch4 0 inb_S4_S1_0), 4),
   ((qS cc0_scratch4 0 inb_S4_S1_0), 5),
   ((qS cc0_scratch4 0 inb_S4_S1_0), 6),
   ((qS cc0_scratch4 0 inb_S4_S1_0), 7),
   ((qS cc0_scratch4 1 inb_S4_S1_1), 0),
   ((qS cc0_scratch4 1 inb_S4_S1_1), 1),
   ((qS cc0_scratch4 1 inb_S4_S1_1), 2),
   ((qS cc0_scratch4 1 inb_S4_S1_1), 3),
   ((qS cc0_scratch4 1 inb_S4_S1_1), 4),
   ((qS cc0_scratch4 1 inb_S4_S1_1), 5),
   ((qS cc0_scratch4 1 inb_S4_S1_1), 6),
   ((qS cc0_scratch4 1 inb_S4_S1_1), 7),
   ((qS cc0_scratch4 2 inb_S4_S1_2), 0),
   ((qS cc0_scratch4 2 inb_S4_S1_2), 1),
   ((qS cc0_scratch4 2 inb_S4_S1_2), 2),
   ((qS cc0_scratch4 2 inb_S4_S1_2), 3),
   ((qS cc0_scratch4 2 inb_S4_S1_2), 4),
   ((qS cc0_scratch4 2 inb_S4_S1_2), 5),
   ((qS cc0_scratch4 2 inb_S4_S1_2), 6),
   ((qS cc0_scratch4 3 inb_S4_S1_3), 0),
   ((qS cc0_scratch4 3 inb_S4_S1_3), 1),
   ((qS cc0_scratch4 3 inb_S4_S1_3), 2),
   ((qS cc0_scratch4 3 inb_S4_S1_3), 3),
   ((qS cc0_scratch4 3 inb_S4_S1_3), 4),
   ((qS cc0_scratch4 3 inb_S4_S1_3), 5),
   ((qS cc0_scratch4 3 inb_S4_S1_3), 6),
   ((qS cc0_scratch6 0 inb_S4_S1_0), 0),
   ((qS cc0_scratch6 0 inb_S4_S1_0), 1),
   ((qS cc0_scratch6 0 inb_S4_S1_0), 2),
   ((qS cc0_scratch6 0 inb_S4_S1_0), 3),
   ((qS cc0_scratch6 0 inb_S4_S1_0), 4),
   ((qS cc0_scratch6 0 inb_S4_S1_0), 5),
   ((qS cc0_scratch6 0 inb_S4_S1_0), 6),
   ((qS cc0_scratch6 0 inb_S4_S1_0), 7),
   ((qS cc0_scratch6 1 inb_S4_S1_1), 0),
   ((qS cc0_scratch6 1 inb_S4_S1_1), 1),
   ((qS cc0_scratch6 1 inb_S4_S1_1), 2),
   ((qS cc0_scratch6 1 inb_S4_S1_1), 3),
   ((qS cc0_scratch6 1 inb_S4_S1_1), 4),
   ((qS cc0_scratch6 1 inb_S4_S1_1), 5),
   ((qS cc0_scratch6 1 inb_S4_S1_1), 6),
   ((qS cc0_scratch6 1 inb_S4_S1_1), 7),
   ((qS cc0_scratch6 2 inb_S4_S1_2), 0),
   ((qS cc0_scratch6 2 inb_S4_S1_2), 1),
   ((qS cc0_scratch6 2 inb_S4_S1_2), 2),
   ((qS cc0_scratch6 2 inb_S4_S1_2), 3),
   ((qS cc0_scratch6 2 inb_S4_S1_2), 4),
   ((qS cc0_scratch6 2 inb_S4_S1_2), 5),
   ((qS cc0_scratch6 2 inb_S4_S1_2), 6),
   ((qS cc0_scratch6 3 inb_S4_S1_3), 0),
   ((qS cc0_scratch6 3 inb_S4_S1_3), 1),
   ((qS cc0_scratch6 3 inb_S4_S1_3), 2),
   ((qS cc0_scratch6 3 inb_S4_S1_3), 3),
   ((qS cc0_scratch6 3 inb_S4_S1_3), 4),
   ((qS cc0_scratch6 3 inb_S4_S1_3), 5),
   ((qS cc0_scratch6 3 inb_S4_S1_3), 6),
   ((qS cc0_scratch8 0 inb_S4_S1_0), 0),
   ((qS cc0_scratch8 0 inb_S4_S1_0), 1),
   ((qS cc0_scratch8 0 inb_S4_S1_0), 2),
   ((qS cc0_scratch8 0 inb_S4_S1_0), 3),
   ((qS cc0_scratch8 0 inb_S4_S1_0), 4),
   ((qS cc0_scratch8 0 inb_S4_S1_0), 5),
   ((qS cc0_scratch8 0 inb_S4_S1_0), 6),
   ((qS cc0_scratch8 0 inb_S4_S1_0), 7),
   ((qS cc0_scratch8 1 inb_S4_S1_1), 0),
   ((qS cc0_scratch8 1 inb_S4_S1_1), 1),
   ((qS cc0_scratch8 1 inb_S4_S1_1), 2),
   ((qS cc0_scratch8 1 inb_S4_S1_1), 3),
   ((qS cc0_scratch8 1 inb_S4_S1_1), 4),
   ((qS cc0_scratch8 1 inb_S4_S1_1), 5),
   ((qS cc0_scratch8 1 inb_S4_S1_1), 6),
   ((qS cc0_scratch8 1 inb_S4_S1_1), 7),
   ((qS cc0_scratch8 2 inb_S4_S1_2), 0),
   ((qS cc0_scratch8 2 inb_S4_S1_2), 1),
   ((qS cc0_scratch8 2 inb_S4_S1_2), 2),
   ((qS cc0_scratch8 2 inb_S4_S1_2), 3),
   ((qS cc0_scratch8 2 inb_S4_S1_2), 4),
   ((qS cc0_scratch8 2 inb_S4_S1_2), 5),
   ((qS cc0_scratch8 2 inb_S4_S1_2), 6),
   ((qS cc0_scratch8 3 inb_S4_S1_3), 0),
   ((qS cc0_scratch8 3 inb_S4_S1_3), 1),
   ((qS cc0_scratch8 3 inb_S4_S1_3), 2),
   ((qS cc0_scratch8 3 inb_S4_S1_3), 3),
   ((qS cc0_scratch8 3 inb_S4_S1_3), 4),
   ((qS cc0_scratch8 3 inb_S4_S1_3), 5),
   ((qS cc0_scratch8 3 inb_S4_S1_3), 6)]
/-- and all 136 of a device. -/
def ownQs : List (DmaSem sig) := sendQs ++ recvCw ++ recvCcw

variable (X : Dev nD → S4096x1024.Idx → Elt F .f32)

/-- The ghost state device `c`'s body starts from, the cells' invariants under the names `K`: the invariants of its own
    cells, of both neighbours' barrier cells and of the receive cells it credits; its positions; round 0 reached on every
    cell it pays; the tokens of the duties it pays. -/
def ghost (K : GSem nD τ sig → ℕ) (c : Dev nD) : sProp 𝕄 :=
  iprop((cellInv ER (Rd X) (K (barCell c)) (barCell c) ∗ cellInv ER (Rd X) (K (barCell (nxt c))) (barCell (nxt c)) ∗ cellInv ER (Rd X) (K (barCell (prv c))) (barCell (prv c))
      ∗ bigSepL ownQs (fun q => cellInv ER (Rd X) (K (dcell c q)) (dcell c q))
      ∗ bigSepL recvCw (fun q => cellInv ER (Rd X) (K (dcell (nxt c) q)) (dcell (nxt c) q))
      ∗ bigSepL recvCcw (fun q => cellInv ER (Rd X) (K (dcell (prv c) q)) (dcell (prv c) q)))
    ∗ (atPos ER (barCell c) 0 ∅ 0 ∗ bigSepL ownQs (fun q => atPos ER (dcell c q) 0 ∅ 0))
    ∗ (reached ER (barCell (nxt c)) 0 ∗ reached ER (barCell (prv c)) 0
      ∗ bigSepL recvCw (fun q => reached ER (dcell (nxt c) q) 0) ∗ bigSepL recvCcw (fun q => reached ER (dcell (prv c) q) 0)
      ∗ bigSepL sendQs (fun q => reached ER (dcell c q) 0))
    ∗ (dutyTok ER (barCell (prv c)) 0 false ∗ dutyTok ER (barCell (nxt c)) 0 true
      ∗ bigSepL recvCw (fun q => dutyTok ER (dcell (nxt c) q) 0 false) ∗ bigSepL recvCcw (fun q => dutyTok ER (dcell (prv c) q) 0 false)
      ∗ bigSepL sendToks (fun qr => dutyTok ER (dcell c qr.1) qr.2 false)))

/-- What device `c`'s body starts from: that at some names, the credit tokens of its barrier cell and of its receive cells,
    and the level facts. -/
def start (c : Dev nD) : sProp 𝕄 :=
  iprop((∃ K, ghost X K c) ∗ cred (tallyAt (barCell c) () 2)
    ∗ bigSepL (recvCw ++ recvCcw) (fun q => cred (tallyAt (dcell c q) () N)) ∗ levAts L lv)

/-- Before the point: that, and both ring buffers slot by slot at some contents. -/
def Φ₀ (c : Dev nD) : sProp 𝕄 := iprop(start X c ∗ allSlots true c ∗ allSlots false c)
/-- After it: the ring buffers back slot by slot, every own semaphore at zero, closed. -/
def Φ₁ (c : Dev nD) : sProp 𝕄 := iprop(allSlots true c ∗ allSlots false c ∗ bigSepL ownQs (fun q => semVal (dcell c q) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV (xstg m)
  Φ t := match t with
    | ⟨0, _⟩ => Φ₀ (xstg m) c
    | ⟨_ + 1, _⟩ => Φ₁ c
  q _ := fullShare
  owed t := match t with
    | ⟨0, _⟩ => rem c 0
    | ⟨_ + 1, _⟩ => 0

end Cert.Kernel.RSAG

end
-- ==== Proof.Bits.Canon.lean ====
import proofs.«901013_g7700000000001014_dist_rs_then_ag_i_m4096_n1024_v7x_i16_f32_1_alg».proof.Proof.Bits.Base

/-! The printed kernel's device ids and row offsets, in closed form.

Every device id the kernel computes is the next or the previous device of the ring of sixteen. Every row offset it
computes for a block of 64 rows is `off cw (c + J) b`: sub-block `b` of the half (first 128 rows when `cw`, last 128
otherwise) of chunk `c + J` modulo sixteen, for a literal `J`; the two accesses of 128 rows are the two halves of the
device's own chunk. Each equation is stated once per distinct spelling in the program; the slices of the two staged
arrays are then the same slices at the closed offsets. -/

noncomputable section

namespace Cert.Kernel.RSAG

open Cert.Kernel Cert.Kernel.Gen Idealize.ShloMosaic

/-! ## General facts -/

/-- a row offset with the chunk index reduced modulo sixteen, first half -/
theorem vec_true {n k : ℕ} (b : ℕ) (e : n % 16 = k % 16) :
    (![256 * (n % 16) + 64 * b, 0] : Fin 2 → ℕ) = off true k b := by
  unfold off; rw [e]; rfl

/-- the same, second half -/
theorem vec_false {n k : ℕ} (b : ℕ) (e : n % 16 = k % 16) :
    (![256 * (n % 16) + 64 * b + 128, 0] : Fin 2 → ℕ) = off false k b := by
  unfold off; rw [e]
  have h : 256 * (k % 16) + 64 * b + 128 = 256 * (k % 16) + (if false = true then 0 else 128) + 64 * b := by
    simp only [Bool.false_eq_true, if_false]; omega
  rw [h]

/-- the offset depends on the chunk index modulo sixteen only -/
theorem off_mod (cw : Bool) {k k' : ℕ} (b : ℕ) (e : k % 16 = k' % 16) : off cw k b = off cw k' b := by
  unfold off; rw [e]

/-- slices of 64 rows at equal offsets are equal -/
theorem rows_congr (M : Memref sig .tc .vmem S4096x1024 .f32) {o o' : Fin 2 → ℕ} (e : o = o')
    (h : ∀ a, o a + S64x1024.size a ≤ S4096x1024.size a) (h' : ∀ a, o' a + S64x1024.size a ≤ S4096x1024.size a) (hs) :
    M.slice (Rect.unit (s := S4096x1024) o S64x1024.size h) hs = rows M o' h' :=
  Memref.slice_unit_congr M e h h' hs (fun _ => rfl)

/-- a half chunk of 128 rows lies inside the staged array -/
theorem off_inb128 (cw : Bool) (k : ℕ) : ∀ a, off cw k 0 a + S128x1024.size a ≤ S4096x1024.size a := by
  have hk : k % 16 < 16 := Nat.mod_lt _ (by decide)
  intro a
  match a with
  | ⟨0, _⟩ => show 256 * (k % 16) + (if cw then 0 else 128) + 64 * 0 + 128 ≤ 4096; cases cw <;> simp <;> omega
  | ⟨1, _⟩ => show 0 + 1024 ≤ 1024; omega

/-! ## The device ids: 122 device functions, each the next or the previous device -/

theorem dev1_eq (c : Dev nD) (h : k0_dev1 c < nD) : (⟨k0_dev1 c, h⟩ : Dev nD) = prv c := Fin.ext (k0_dev1_eq c)
theorem dev2_eq (c : Dev nD) (h : k0_dev2 c < nD) : (⟨k0_dev2 c, h⟩ : Dev nD) = nxt c := Fin.ext (k0_dev2_eq c)
theorem dev3_eq (c : Dev nD) (h : k0_dev3 c < nD) : (⟨k0_dev3 c, h⟩ : Dev nD) = nxt c := Fin.ext (k0_dev3_eq c)
theorem dev4_eq (c : Dev nD) (h : k0_dev4 c < nD) : (⟨k0_dev4 c, h⟩ : Dev nD) = nxt c := Fin.ext (k0_dev4_eq c)
theorem dev5_eq (c : Dev nD) (h : k0_dev5 c < nD) : (⟨k0_dev5 c, h⟩ : Dev nD) = prv c := Fin.ext (k0_dev5_eq c)
theorem dev6_eq (c : Dev nD) (h : k0_dev6 c < nD) : (⟨k0_dev6 c, h⟩ : Dev nD) = prv c := Fin.ext (k0_dev6_eq c)
theorem dev7_eq (c : Dev nD) (h : k0_dev7 c < nD) : (⟨k0_dev7 c, h⟩ : Dev nD) = nxt c := Fin.ext (k0_dev7_eq c)
theorem dev8_eq (c : Dev nD) (h : k0_dev8 c < nD) : (⟨k0_dev8 c, h⟩ : Dev nD) = prv c := Fin.ext (k0_dev8_eq c)
theorem dev9_eq (c : Dev nD) (h : k0_dev9 c < nD) : (⟨k0_dev9 c, h⟩ : Dev nD) = nxt c := Fin.ext (k0_dev9_eq c)
theorem dev10_eq (c : Dev nD) (h : k0_dev10 c < nD) : (⟨k0_dev10 c, h⟩ : Dev nD) = prv c := Fin.ext (k0_dev10_eq c)
theorem dev11_eq (c : Dev nD) (h : k0_dev11 c < nD) : (⟨k0_dev11 c, h⟩ : Dev nD) = nxt c := Fin.ext (k0_dev11_eq c)
theorem dev12_eq (c : Dev nD) (h : k0_dev12 c < nD) : (⟨k0_dev12 c, h⟩ : Dev nD) = prv c := Fin.ext (k0_dev12_eq c)
theorem dev13_eq (c : Dev nD) (h : k0_dev13 c < nD) : (⟨k0_dev13 c, h⟩ : Dev nD) = nxt c := Fin.ext (k0_dev13_eq c)
theorem dev14_eq (c : Dev nD) (h : k0_dev14 c < nD) : (⟨k0_dev14 c, h⟩ : Dev nD) = prv c := Fin.ext (k0_dev14_eq c)
theorem dev15_eq (c : Dev nD) (h : k0_dev15 c < nD) : (⟨k0_dev15 c, h⟩ : Dev nD) = nxt c := Fin.ext (k0_dev15_eq c)
theorem dev16_eq (c : Dev nD) (h : k0_dev16 c < nD) : (⟨k0_dev16 c, h⟩ : Dev nD) = prv c := Fin.ext (k0_dev16_eq c)
theorem dev17_eq (c : Dev nD) (h : k0_dev17 c < nD) : (⟨k0_dev17 c, h⟩ : Dev nD) = nxt c := Fin.ext (k0_dev17_eq c)
theorem dev18_eq (c : Dev nD) (h : k0_dev18 c < nD) : (⟨k0_dev18 c, h⟩ : Dev nD) = prv c := Fin.ext (k0_dev18_eq c)
theorem dev19_eq (c : Dev nD) (h : k0_dev19 c < nD) : (⟨k0_dev19 c, h⟩ : Dev nD) = nxt c := Fin.ext (k0_dev19_eq c)
theorem dev20_eq (c : Dev nD) (h : k0_dev20 c < nD) : (⟨k0_dev20 c, h⟩ : Dev nD) = prv c := Fin.ext (k0_dev20_eq c)
theorem dev21_eq (c : Dev nD) (h : k0_dev21 c < nD) : (⟨k0_dev21 c, h⟩ : Dev nD) = nxt c := Fin.ext (k0_dev21_eq c)
theorem dev22_eq (c : Dev nD) (h : k0_dev22 c < nD) : (⟨k0_dev22 c, h⟩ : Dev nD) = prv c := Fin.ext (k0_dev22_eq c)
theorem dev23_eq (c : Dev nD) (h : k0_dev23 c < nD) : (⟨k0_dev23 c, h⟩ : Dev nD) = nxt c := Fin.ext (k0_dev23_eq c)
theorem dev24_eq (c : Dev nD) (h : k0_dev24 c < nD) : (⟨k0_dev24 c, h⟩ : Dev nD) = prv c := Fin.ext (k0_dev24_eq c)
theorem dev25_eq (c : Dev nD) (h : k0_dev25 c < nD) : (⟨k0_dev25 c, h⟩ : Dev nD) = nxt c := Fin.ext (k0_dev25_eq c)
theorem dev26_eq (c : Dev nD) (h : k0_dev26 c < nD) : (⟨k0_dev26 c, h⟩ : Dev nD) = prv c := Fin.ext (k0_dev26_eq c)
theorem dev27_eq (c : Dev nD) (h : k0_dev27 c < nD) : (⟨k0_dev27 c, h⟩ : Dev nD) = nxt c := Fin.ext (k0_dev27_eq c)
theorem dev28_eq (c : Dev nD) (h : k0_dev28 c < nD) : (⟨k0_dev28 c, h⟩ : Dev nD) = prv c := Fin.ext (k0_dev28_eq c)
theorem dev29_eq (c : Dev nD) (h : k0_dev29 c < nD) : (⟨k0_dev29 c, h⟩ : Dev nD) = nxt c := Fin.ext (k0_dev29_eq c)
theorem dev30_eq (c : Dev nD) (h : k0_dev30 c < nD) : (⟨k0_dev30 c, h⟩ : Dev nD) = prv c := Fin.ext (k0_dev30_eq c)
theorem dev31_eq (c : Dev nD) (h : k0_dev31 c < nD) : (⟨k0_dev31 c, h⟩ : Dev nD) = nxt c := Fin.ext (k0_dev31_eq c)
theorem dev32_eq (c : Dev nD) (h : k0_dev32 c < nD) : (⟨k0_dev32 c, h⟩ : Dev nD) = prv c := Fin.ext (k0_dev32_eq c)
theorem dev33_eq (c : Dev nD) (h : k0_dev33 c < nD) : (⟨k0_dev33 c, h⟩ : Dev nD) = nxt c := Fin.ext (k0_dev33_eq c)
theorem dev34_eq (c : Dev nD) (h : k0_dev34 c < nD) : (⟨k0_dev34 c, h⟩ : Dev nD) = prv c := Fin.ext (k0_dev34_eq c)
theorem dev35_eq (c : Dev nD) (h : k0_dev35 c < nD) : (⟨k0_dev35 c, h⟩ : Dev nD) = nxt c := Fin.ext (k0_dev35_eq c)
theorem dev36_eq (c : Dev nD) (h : k0_dev36 c < nD) : (⟨k0_dev36 c, h⟩ : Dev nD) = prv c := Fin.ext (k0_dev36_eq c)
theorem dev37_eq (c : Dev nD) (h : k0_dev37 c < nD) : (⟨k0_dev37 c, h⟩ : Dev nD) = nxt c := Fin.ext (k0_dev37_eq c)
theorem dev38_eq (c : Dev nD) (h : k0_dev38 c < nD) : (⟨k0_dev38 c, h⟩ : Dev nD) = prv c := Fin.ext (k0_dev38_eq c)
theorem dev39_eq (c : Dev nD) (h : k0_dev39 c < nD) : (⟨k0_dev39 c, h⟩ : Dev nD) = nxt c := Fin.ext (k0_dev39_eq c)
theorem dev40_eq (c : Dev nD) (h : k0_dev40 c < nD) : (⟨k0_dev40 c, h⟩ : Dev nD) = prv c := Fin.ext (k0_dev40_eq c)
theorem dev41_eq (c : Dev nD) (h : k0_dev41 c < nD) : (⟨k0_dev41 c, h⟩ : Dev nD) = nxt c := Fin.ext (k0_dev41_eq c)
theorem dev42_eq (c : Dev nD) (h : k0_dev42 c < nD) : (⟨k0_dev42 c, h⟩ : Dev nD) = prv c := Fin.ext (k0_dev42_eq c)
theorem dev43_eq (c : Dev nD) (h : k0_dev43 c < nD) : (⟨k0_dev43 c, h⟩ : Dev nD) = nxt c := Fin.ext (k0_dev43_eq c)
theorem dev44_eq (c : Dev nD) (h : k0_dev44 c < nD) : (⟨k0_dev44 c, h⟩ : Dev nD) = prv c := Fin.ext (k0_dev44_eq c)
theorem dev45_eq (c : Dev nD) (h : k0_dev45 c < nD) : (⟨k0_dev45 c, h⟩ : Dev nD) = nxt c := Fin.ext (k0_dev45_eq c)
theorem dev46_eq (c : Dev nD) (h : k0_dev46 c < nD) : (⟨k0_dev46 c, h⟩ : Dev nD) = prv c := Fin.ext (k0_dev46_eq c)
theorem dev47_eq (c : Dev nD) (h : k0_dev47 c < nD) : (⟨k0_dev47 c, h⟩ : Dev nD) = nxt c := Fin.ext (k0_dev47_eq c)
theorem dev48_eq (c : Dev nD) (h : k0_dev48 c < nD) : (⟨k0_dev48 c, h⟩ : Dev nD) = prv c := Fin.ext (k0_dev48_eq c)
theorem dev49_eq (c : Dev nD) (h : k0_dev49 c < nD) : (⟨k0_dev49 c, h⟩ : Dev nD) = nxt c := Fin.ext (k0_dev49_eq c)
theorem dev50_eq (c : Dev nD) (h : k0_dev50 c < nD) : (⟨k0_dev50 c, h⟩ : Dev nD) = prv c := Fin.ext (k0_dev50_eq c)
theorem dev51_eq (c : Dev nD) (h : k0_dev51 c < nD) : (⟨k0_dev51 c, h⟩ : Dev nD) = nxt c := Fin.ext (k0_dev51_eq c)
theorem dev52_eq (c : Dev nD) (h : k0_dev52 c < nD) : (⟨k0_dev52 c, h⟩ : Dev nD) = prv c := Fin.ext (k0_dev52_eq c)
theorem dev53_eq (c : Dev nD) (h : k0_dev53 c < nD) : (⟨k0_dev53 c, h⟩ : Dev nD) = nxt c := Fin.ext (k0_dev53_eq c)
theorem dev54_eq (c : Dev nD) (h : k0_dev54 c < nD) : (⟨k0_dev54 c, h⟩ : Dev nD) = prv c := Fin.ext (k0_dev54_eq c)
theorem dev55_eq (c : Dev nD) (h : k0_dev55 c < nD) : (⟨k0_dev55 c, h⟩ : Dev nD) = nxt c := Fin.ext (k0_dev55_eq c)
theorem dev56_eq (c : Dev nD) (h : k0_dev56 c < nD) : (⟨k0_dev56 c, h⟩ : Dev nD) = prv c := Fin.ext (k0_dev56_eq c)
theorem dev57_eq (c : Dev nD) (h : k0_dev57 c < nD) : (⟨k0_dev57 c, h⟩ : Dev nD) = nxt c := Fin.ext (k0_dev57_eq c)
theorem dev58_eq (c : Dev nD) (h : k0_dev58 c < nD) : (⟨k0_dev58 c, h⟩ : Dev nD) = prv c := Fin.ext (k0_dev58_eq c)
theorem dev59_eq (c : Dev nD) (h : k0_dev59 c < nD) : (⟨k0_dev59 c, h⟩ : Dev nD) = nxt c := Fin.ext (k0_dev59_eq c)
theorem dev60_eq (c : Dev nD) (h : k0_dev60 c < nD) : (⟨k0_dev60 c, h⟩ : Dev nD) = prv c := Fin.ext (k0_dev60_eq c)
theorem dev61_eq (c : Dev nD) (h : k0_dev61 c < nD) : (⟨k0_dev61 c, h⟩ : Dev nD) = nxt c := Fin.ext (k0_dev61_eq c)
theorem dev62_eq (c : Dev nD) (h : k0_dev62 c < nD) : (⟨k0_dev62 c, h⟩ : Dev nD) = prv c := Fin.ext (k0_dev62_eq c)
theorem dev63_eq (c : Dev nD) (h : k0_dev63 c < nD) : (⟨k0_dev63 c, h⟩ : Dev nD) = nxt c := Fin.ext (k0_dev63_eq c)
theorem dev64_eq (c : Dev nD) (h : k0_dev64 c < nD) : (⟨k0_dev64 c, h⟩ : Dev nD) = prv c := Fin.ext (k0_dev64_eq c)
theorem dev65_eq (c : Dev nD) (h : k0_dev65 c < nD) : (⟨k0_dev65 c, h⟩ : Dev nD) = nxt c := Fin.ext (k0_dev65_eq c)
theorem dev66_eq (c : Dev nD) (h : k0_dev66 c < nD) : (⟨k0_dev66 c, h⟩ : Dev nD) = prv c := Fin.ext (k0_dev66_eq c)
theorem dev67_eq (c : Dev nD) (h : k0_dev67 c < nD) : (⟨k0_dev67 c, h⟩ : Dev nD) = nxt c := Fin.ext (k0_dev67_eq c)
theorem dev68_eq (c : Dev nD) (h : k0_dev68 c < nD) : (⟨k0_dev68 c, h⟩ : Dev nD) = prv c := Fin.ext (k0_dev68_eq c)
theorem dev69_eq (c : Dev nD) (h : k0_dev69 c < nD) : (⟨k0_dev69 c, h⟩ : Dev nD) = nxt c := Fin.ext (k0_dev69_eq c)
theorem dev70_eq (c : Dev nD) (h : k0_dev70 c < nD) : (⟨k0_dev70 c, h⟩ : Dev nD) = prv c := Fin.ext (k0_dev70_eq c)
theorem dev71_eq (c : Dev nD) (h : k0_dev71 c < nD) : (⟨k0_dev71 c, h⟩ : Dev nD) = nxt c := Fin.ext (k0_dev71_eq c)
theorem dev72_eq (c : Dev nD) (h : k0_dev72 c < nD) : (⟨k0_dev72 c, h⟩ : Dev nD) = prv c := Fin.ext (k0_dev72_eq c)
theorem dev73_eq (c : Dev nD) (h : k0_dev73 c < nD) : (⟨k0_dev73 c, h⟩ : Dev nD) = nxt c := Fin.ext (k0_dev73_eq c)
theorem dev74_eq (c : Dev nD) (h : k0_dev74 c < nD) : (⟨k0_dev74 c, h⟩ : Dev nD) = prv c := Fin.ext (k0_dev74_eq c)
theorem dev75_eq (c : Dev nD) (h : k0_dev75 c < nD) : (⟨k0_dev75 c, h⟩ : Dev nD) = nxt c := Fin.ext (k0_dev75_eq c)
theorem dev76_eq (c : Dev nD) (h : k0_dev76 c < nD) : (⟨k0_dev76 c, h⟩ : Dev nD) = prv c := Fin.ext (k0_dev76_eq c)
theorem dev77_eq (c : Dev nD) (h : k0_dev77 c < nD) : (⟨k0_dev77 c, h⟩ : Dev nD) = nxt c := Fin.ext (k0_dev77_eq c)
theorem dev78_eq (c : Dev nD) (h : k0_dev78 c < nD) : (⟨k0_dev78 c, h⟩ : Dev nD) = prv c := Fin.ext (k0_dev78_eq c)
theorem dev79_eq (c : Dev nD) (h : k0_dev79 c < nD) : (⟨k0_dev79 c, h⟩ : Dev nD) = nxt c := Fin.ext (k0_dev79_eq c)
theorem dev80_eq (c : Dev nD) (h : k0_dev80 c < nD) : (⟨k0_dev80 c, h⟩ : Dev nD) = prv c := Fin.ext (k0_dev80_eq c)
theorem dev81_eq (c : Dev nD) (h : k0_dev81 c < nD) : (⟨k0_dev81 c, h⟩ : Dev nD) = nxt c := Fin.ext (k0_dev81_eq c)
theorem dev82_eq (c : Dev nD) (h : k0_dev82 c < nD) : (⟨k0_dev82 c, h⟩ : Dev nD) = prv c := Fin.ext (k0_dev82_eq c)
theorem dev83_eq (c : Dev nD) (h : k0_dev83 c < nD) : (⟨k0_dev83 c, h⟩ : Dev nD) = nxt c := Fin.ext (k0_dev83_eq c)
theorem dev84_eq (c : Dev nD) (h : k0_dev84 c < nD) : (⟨k0_dev84 c, h⟩ : Dev nD) = prv c := Fin.ext (k0_dev84_eq c)
theorem dev85_eq (c : Dev nD) (h : k0_dev85 c < nD) : (⟨k0_dev85 c, h⟩ : Dev nD) = nxt c := Fin.ext (k0_dev85_eq c)
theorem dev86_eq (c : Dev nD) (h : k0_dev86 c < nD) : (⟨k0_dev86 c, h⟩ : Dev nD) = prv c := Fin.ext (k0_dev86_eq c)
theorem dev87_eq (c : Dev nD) (h : k0_dev87 c < nD) : (⟨k0_dev87 c, h⟩ : Dev nD) = nxt c := Fin.ext (k0_dev87_eq c)
theorem dev88_eq (c : Dev nD) (h : k0_dev88 c < nD) : (⟨k0_dev88 c, h⟩ : Dev nD) = prv c := Fin.ext (k0_dev88_eq c)
theorem dev89_eq (c : Dev nD) (h : k0_dev89 c < nD) : (⟨k0_dev89 c, h⟩ : Dev nD) = nxt c := Fin.ext (k0_dev89_eq c)
theorem dev90_eq (c : Dev nD) (h : k0_dev90 c < nD) : (⟨k0_dev90 c, h⟩ : Dev nD) = prv c := Fin.ext (k0_dev90_eq c)
theorem dev91_eq (c : Dev nD) (h : k0_dev91 c < nD) : (⟨k0_dev91 c, h⟩ : Dev nD) = nxt c := Fin.ext (k0_dev91_eq c)
theorem dev92_eq (c : Dev nD) (h : k0_dev92 c < nD) : (⟨k0_dev92 c, h⟩ : Dev nD) = prv c := Fin.ext (k0_dev92_eq c)
theorem dev93_eq (c : Dev nD) (h : k0_dev93 c < nD) : (⟨k0_dev93 c, h⟩ : Dev nD) = nxt c := Fin.ext (k0_dev93_eq c)
theorem dev94_eq (c : Dev nD) (h : k0_dev94 c < nD) : (⟨k0_dev94 c, h⟩ : Dev nD) = prv c := Fin.ext (k0_dev94_eq c)
theorem dev95_eq (c : Dev nD) (h : k0_dev95 c < nD) : (⟨k0_dev95 c, h⟩ : Dev nD) = nxt c := Fin.ext (k0_dev95_eq c)
theorem dev96_eq (c : Dev nD) (h : k0_dev96 c < nD) : (⟨k0_dev96 c, h⟩ : Dev nD) = prv c := Fin.ext (k0_dev96_eq c)
theorem dev97_eq (c : Dev nD) (h : k0_dev97 c < nD) : (⟨k0_dev97 c, h⟩ : Dev nD) = nxt c := Fin.ext (k0_dev97_eq c)
theorem dev98_eq (c : Dev nD) (h : k0_dev98 c < nD) : (⟨k0_dev98 c, h⟩ : Dev nD) = prv c := Fin.ext (k0_dev98_eq c)
theorem dev99_eq (c : Dev nD) (h : k0_dev99 c < nD) : (⟨k0_dev99 c, h⟩ : Dev nD) = nxt c := Fin.ext (k0_dev99_eq c)
theorem dev100_eq (c : Dev nD) (h : k0_dev100 c < nD) : (⟨k0_dev100 c, h⟩ : Dev nD) = prv c := Fin.ext (k0_dev100_eq c)
theorem dev101_eq (c : Dev nD) (h : k0_dev101 c < nD) : (⟨k0_dev101 c, h⟩ : Dev nD) = nxt c := Fin.ext (k0_dev101_eq c)
theorem dev102_eq (c : Dev nD) (h : k0_dev102 c < nD) : (⟨k0_dev102 c, h⟩ : Dev nD) = prv c := Fin.ext (k0_dev102_eq c)
theorem dev103_eq (c : Dev nD) (h : k0_dev103 c < nD) : (⟨k0_dev103 c, h⟩ : Dev nD) = nxt c := Fin.ext (k0_dev103_eq c)
theorem dev104_eq (c : Dev nD) (h : k0_dev104 c < nD) : (⟨k0_dev104 c, h⟩ : Dev nD) = prv c := Fin.ext (k0_dev104_eq c)
theorem dev105_eq (c : Dev nD) (h : k0_dev105 c < nD) : (⟨k0_dev105 c, h⟩ : Dev nD) = nxt c := Fin.ext (k0_dev105_eq c)
theorem dev106_eq (c : Dev nD) (h : k0_dev106 c < nD) : (⟨k0_dev106 c, h⟩ : Dev nD) = prv c := Fin.ext (k0_dev106_eq c)
theorem dev107_eq (c : Dev nD) (h : k0_dev107 c < nD) : (⟨k0_dev107 c, h⟩ : Dev nD) = nxt c := Fin.ext (k0_dev107_eq c)
theorem dev108_eq (c : Dev nD) (h : k0_dev108 c < nD) : (⟨k0_dev108 c, h⟩ : Dev nD) = prv c := Fin.ext (k0_dev108_eq c)
theorem dev109_eq (c : Dev nD) (h : k0_dev109 c < nD) : (⟨k0_dev109 c, h⟩ : Dev nD) = nxt c := Fin.ext (k0_dev109_eq c)
theorem dev110_eq (c : Dev nD) (h : k0_dev110 c < nD) : (⟨k0_dev110 c, h⟩ : Dev nD) = prv c := Fin.ext (k0_dev110_eq c)
theorem dev111_eq (c : Dev nD) (h : k0_dev111 c < nD) : (⟨k0_dev111 c, h⟩ : Dev nD) = nxt c := Fin.ext (k0_dev111_eq c)
theorem dev112_eq (c : Dev nD) (h : k0_dev112 c < nD) : (⟨k0_dev112 c, h⟩ : Dev nD) = prv c := Fin.ext (k0_dev112_eq c)
theorem dev113_eq (c : Dev nD) (h : k0_dev113 c < nD) : (⟨k0_dev113 c, h⟩ : Dev nD) = nxt c := Fin.ext (k0_dev113_eq c)
theorem dev114_eq (c : Dev nD) (h : k0_dev114 c < nD) : (⟨k0_dev114 c, h⟩ : Dev nD) = prv c := Fin.ext (k0_dev114_eq c)
theorem dev115_eq (c : Dev nD) (h : k0_dev115 c < nD) : (⟨k0_dev115 c, h⟩ : Dev nD) = nxt c := Fin.ext (k0_dev115_eq c)
theorem dev116_eq (c : Dev nD) (h : k0_dev116 c < nD) : (⟨k0_dev116 c, h⟩ : Dev nD) = prv c := Fin.ext (k0_dev116_eq c)
theorem dev117_eq (c : Dev nD) (h : k0_dev117 c < nD) : (⟨k0_dev117 c, h⟩ : Dev nD) = nxt c := Fin.ext (k0_dev117_eq c)
theorem dev118_eq (c : Dev nD) (h : k0_dev118 c < nD) : (⟨k0_dev118 c, h⟩ : Dev nD) = prv c := Fin.ext (k0_dev118_eq c)
theorem dev119_eq (c : Dev nD) (h : k0_dev119 c < nD) : (⟨k0_dev119 c, h⟩ : Dev nD) = nxt c := Fin.ext (k0_dev119_eq c)
theorem dev120_eq (c : Dev nD) (h : k0_dev120 c < nD) : (⟨k0_dev120 c, h⟩ : Dev nD) = prv c := Fin.ext (k0_dev120_eq c)
theorem dev121_eq (c : Dev nD) (h : k0_dev121 c < nD) : (⟨k0_dev121 c, h⟩ : Dev nD) = nxt c := Fin.ext (k0_dev121_eq c)
theorem dev122_eq (c : Dev nD) (h : k0_dev122 c < nD) : (⟨k0_dev122 c, h⟩ : Dev nD) = prv c := Fin.ext (k0_dev122_eq c)

attribute [sl_canon]
  dev1_eq dev2_eq dev3_eq dev4_eq dev5_eq dev6_eq dev7_eq dev8_eq dev9_eq dev10_eq dev11_eq dev12_eq dev13_eq
  dev14_eq dev15_eq dev16_eq dev17_eq dev18_eq dev19_eq dev20_eq dev21_eq dev22_eq dev23_eq dev24_eq dev25_eq
  dev26_eq dev27_eq dev28_eq dev29_eq dev30_eq dev31_eq dev32_eq dev33_eq dev34_eq dev35_eq dev36_eq dev37_eq
  dev38_eq dev39_eq dev40_eq dev41_eq dev42_eq dev43_eq dev44_eq dev45_eq dev46_eq dev47_eq dev48_eq dev49_eq
  dev50_eq dev51_eq dev52_eq dev53_eq dev54_eq dev55_eq dev56_eq dev57_eq dev58_eq dev59_eq dev60_eq dev61_eq
  dev62_eq dev63_eq dev64_eq dev65_eq dev66_eq dev67_eq dev68_eq dev69_eq dev70_eq dev71_eq dev72_eq dev73_eq
  dev74_eq dev75_eq dev76_eq dev77_eq dev78_eq dev79_eq dev80_eq dev81_eq dev82_eq dev83_eq dev84_eq dev85_eq
  dev86_eq dev87_eq dev88_eq dev89_eq dev90_eq dev91_eq dev92_eq dev93_eq dev94_eq dev95_eq dev96_eq dev97_eq
  dev98_eq dev99_eq dev100_eq dev101_eq dev102_eq dev103_eq dev104_eq dev105_eq dev106_eq dev107_eq dev108_eq
  dev109_eq dev110_eq dev111_eq dev112_eq dev113_eq dev114_eq dev115_eq dev116_eq dev117_eq dev118_eq
  dev119_eq dev120_eq dev121_eq dev122_eq

/-- rewrites every device id of the program to `nxt c` or `prv c`, and nothing else (no projection or definitional reduction: the
    equations are stated over the program's own spelling) -/
macro "dev_eqs" : tactic => `(tactic| simp (config := { beta := false, eta := false, zeta := false, zetaDelta := false, proj := false, decide := false, arith := false, dsimp := false, ground := false, unfoldPartialApp := false, etaStruct := .none, iota := false, failIfUnchanged := false }) only [
    dev1_eq, dev2_eq, dev3_eq, dev4_eq, dev5_eq, dev6_eq, dev7_eq, dev8_eq, dev9_eq, dev10_eq, dev11_eq,
    dev12_eq, dev13_eq, dev14_eq, dev15_eq, dev16_eq, dev17_eq, dev18_eq, dev19_eq, dev20_eq, dev21_eq,
    dev22_eq, dev23_eq, dev24_eq, dev25_eq, dev26_eq, dev27_eq, dev28_eq, dev29_eq, dev30_eq, dev31_eq,
    dev32_eq, dev33_eq, dev34_eq, dev35_eq, dev36_eq, dev37_eq, dev38_eq, dev39_eq, dev40_eq, dev41_eq,
    dev42_eq, dev43_eq, dev44_eq, dev45_eq, dev46_eq, dev47_eq, dev48_eq, dev49_eq, dev50_eq, dev51_eq,
    dev52_eq, dev53_eq, dev54_eq, dev55_eq, dev56_eq, dev57_eq, dev58_eq, dev59_eq, dev60_eq, dev61_eq,
    dev62_eq, dev63_eq, dev64_eq, dev65_eq, dev66_eq, dev67_eq, dev68_eq, dev69_eq, dev70_eq, dev71_eq,
    dev72_eq, dev73_eq, dev74_eq, dev75_eq, dev76_eq, dev77_eq, dev78_eq, dev79_eq, dev80_eq, dev81_eq,
    dev82_eq, dev83_eq, dev84_eq, dev85_eq, dev86_eq, dev87_eq, dev88_eq, dev89_eq, dev90_eq, dev91_eq,
    dev92_eq, dev93_eq, dev94_eq, dev95_eq, dev96_eq, dev97_eq, dev98_eq, dev99_eq, dev100_eq, dev101_eq,
    dev102_eq, dev103_eq, dev104_eq, dev105_eq, dev106_eq, dev107_eq, dev108_eq, dev109_eq, dev110_eq,
    dev111_eq, dev112_eq, dev113_eq, dev114_eq, dev115_eq, dev116_eq, dev117_eq, dev118_eq, dev119_eq,
    dev120_eq, dev121_eq, dev122_eq])

/-! ## The row offsets of the blocks of 64 rows

120 distinct applications. The chains of `k0_off2` and `k0_off4` have a stated closed form; those of `k0_off1` and
`k0_off3` have none and are evaluated on the sixteen devices, one argument pair at a time (60 pairs). -/

theorem k0_off1_0_0_lit : ∀ c : Dev nD, k0_off1 c 0#32 0#32 = ![256 * ((c.val + 0) % 16) + 64 * 0, 0] := by decide +kernel
theorem off1_0_0 (c : Dev nD) : k0_off1 c 0#32 0#32 = off true (c.val + 0) 0 := (k0_off1_0_0_lit c).trans (vec_true 0 rfl)
theorem k0_off1_0_64_lit : ∀ c : Dev nD, k0_off1 c 0#32 64#32 = ![256 * ((c.val + 0) % 16) + 64 * 1, 0] := by decide +kernel
theorem off1_0_64 (c : Dev nD) : k0_off1 c 0#32 64#32 = off true (c.val + 0) 1 := (k0_off1_0_64_lit c).trans (vec_true 1 rfl)
theorem k0_off1_m1_0_lit : ∀ c : Dev nD, k0_off1 c 4294967295#32 0#32 = ![256 * ((c.val + 15) % 16) + 64 * 0, 0] := by decide +kernel
theorem off1_m1_0 (c : Dev nD) : k0_off1 c 4294967295#32 0#32 = off true (c.val + 15) 0 := (k0_off1_m1_0_lit c).trans (vec_true 0 rfl)
theorem k0_off1_m1_64_lit : ∀ c : Dev nD, k0_off1 c 4294967295#32 64#32 = ![256 * ((c.val + 15) % 16) + 64 * 1, 0] := by decide +kernel
theorem off1_m1_64 (c : Dev nD) : k0_off1 c 4294967295#32 64#32 = off true (c.val + 15) 1 := (k0_off1_m1_64_lit c).trans (vec_true 1 rfl)
theorem k0_off1_m2_0_lit : ∀ c : Dev nD, k0_off1 c 4294967294#32 0#32 = ![256 * ((c.val + 14) % 16) + 64 * 0, 0] := by decide +kernel
theorem off1_m2_0 (c : Dev nD) : k0_off1 c 4294967294#32 0#32 = off true (c.val + 14) 0 := (k0_off1_m2_0_lit c).trans (vec_true 0 rfl)
theorem k0_off1_m2_64_lit : ∀ c : Dev nD, k0_off1 c 4294967294#32 64#32 = ![256 * ((c.val + 14) % 16) + 64 * 1, 0] := by decide +kernel
theorem off1_m2_64 (c : Dev nD) : k0_off1 c 4294967294#32 64#32 = off true (c.val + 14) 1 := (k0_off1_m2_64_lit c).trans (vec_true 1 rfl)
theorem k0_off1_m3_0_lit : ∀ c : Dev nD, k0_off1 c 4294967293#32 0#32 = ![256 * ((c.val + 13) % 16) + 64 * 0, 0] := by decide +kernel
theorem off1_m3_0 (c : Dev nD) : k0_off1 c 4294967293#32 0#32 = off true (c.val + 13) 0 := (k0_off1_m3_0_lit c).trans (vec_true 0 rfl)
theorem k0_off1_m3_64_lit : ∀ c : Dev nD, k0_off1 c 4294967293#32 64#32 = ![256 * ((c.val + 13) % 16) + 64 * 1, 0] := by decide +kernel
theorem off1_m3_64 (c : Dev nD) : k0_off1 c 4294967293#32 64#32 = off true (c.val + 13) 1 := (k0_off1_m3_64_lit c).trans (vec_true 1 rfl)
theorem k0_off1_m4_0_lit : ∀ c : Dev nD, k0_off1 c 4294967292#32 0#32 = ![256 * ((c.val + 12) % 16) + 64 * 0, 0] := by decide +kernel
theorem off1_m4_0 (c : Dev nD) : k0_off1 c 4294967292#32 0#32 = off true (c.val + 12) 0 := (k0_off1_m4_0_lit c).trans (vec_true 0 rfl)
theorem k0_off1_m4_64_lit : ∀ c : Dev nD, k0_off1 c 4294967292#32 64#32 = ![256 * ((c.val + 12) % 16) + 64 * 1, 0] := by decide +kernel
theorem off1_m4_64 (c : Dev nD) : k0_off1 c 4294967292#32 64#32 = off true (c.val + 12) 1 := (k0_off1_m4_64_lit c).trans (vec_true 1 rfl)
theorem k0_off1_m5_0_lit : ∀ c : Dev nD, k0_off1 c 4294967291#32 0#32 = ![256 * ((c.val + 11) % 16) + 64 * 0, 0] := by decide +kernel
theorem off1_m5_0 (c : Dev nD) : k0_off1 c 4294967291#32 0#32 = off true (c.val + 11) 0 := (k0_off1_m5_0_lit c).trans (vec_true 0 rfl)
theorem k0_off1_m5_64_lit : ∀ c : Dev nD, k0_off1 c 4294967291#32 64#32 = ![256 * ((c.val + 11) % 16) + 64 * 1, 0] := by decide +kernel
theorem off1_m5_64 (c : Dev nD) : k0_off1 c 4294967291#32 64#32 = off true (c.val + 11) 1 := (k0_off1_m5_64_lit c).trans (vec_true 1 rfl)
theorem k0_off1_m6_0_lit : ∀ c : Dev nD, k0_off1 c 4294967290#32 0#32 = ![256 * ((c.val + 10) % 16) + 64 * 0, 0] := by decide +kernel
theorem off1_m6_0 (c : Dev nD) : k0_off1 c 4294967290#32 0#32 = off true (c.val + 10) 0 := (k0_off1_m6_0_lit c).trans (vec_true 0 rfl)
theorem k0_off1_m6_64_lit : ∀ c : Dev nD, k0_off1 c 4294967290#32 64#32 = ![256 * ((c.val + 10) % 16) + 64 * 1, 0] := by decide +kernel
theorem off1_m6_64 (c : Dev nD) : k0_off1 c 4294967290#32 64#32 = off true (c.val + 10) 1 := (k0_off1_m6_64_lit c).trans (vec_true 1 rfl)
theorem k0_off1_m7_0_lit : ∀ c : Dev nD, k0_off1 c 4294967289#32 0#32 = ![256 * ((c.val + 9) % 16) + 64 * 0, 0] := by decide +kernel
theorem off1_m7_0 (c : Dev nD) : k0_off1 c 4294967289#32 0#32 = off true (c.val + 9) 0 := (k0_off1_m7_0_lit c).trans (vec_true 0 rfl)
theorem k0_off1_m7_64_lit : ∀ c : Dev nD, k0_off1 c 4294967289#32 64#32 = ![256 * ((c.val + 9) % 16) + 64 * 1, 0] := by decide +kernel
theorem off1_m7_64 (c : Dev nD) : k0_off1 c 4294967289#32 64#32 = off true (c.val + 9) 1 := (k0_off1_m7_64_lit c).trans (vec_true 1 rfl)
theorem k0_off1_m8_0_lit : ∀ c : Dev nD, k0_off1 c 4294967288#32 0#32 = ![256 * ((c.val + 8) % 16) + 64 * 0, 0] := by decide +kernel
theorem off1_m8_0 (c : Dev nD) : k0_off1 c 4294967288#32 0#32 = off true (c.val + 8) 0 := (k0_off1_m8_0_lit c).trans (vec_true 0 rfl)
theorem k0_off1_m8_64_lit : ∀ c : Dev nD, k0_off1 c 4294967288#32 64#32 = ![256 * ((c.val + 8) % 16) + 64 * 1, 0] := by decide +kernel
theorem off1_m8_64 (c : Dev nD) : k0_off1 c 4294967288#32 64#32 = off true (c.val + 8) 1 := (k0_off1_m8_64_lit c).trans (vec_true 1 rfl)
theorem k0_off1_m9_0_lit : ∀ c : Dev nD, k0_off1 c 4294967287#32 0#32 = ![256 * ((c.val + 7) % 16) + 64 * 0, 0] := by decide +kernel
theorem off1_m9_0 (c : Dev nD) : k0_off1 c 4294967287#32 0#32 = off true (c.val + 7) 0 := (k0_off1_m9_0_lit c).trans (vec_true 0 rfl)
theorem k0_off1_m9_64_lit : ∀ c : Dev nD, k0_off1 c 4294967287#32 64#32 = ![256 * ((c.val + 7) % 16) + 64 * 1, 0] := by decide +kernel
theorem off1_m9_64 (c : Dev nD) : k0_off1 c 4294967287#32 64#32 = off true (c.val + 7) 1 := (k0_off1_m9_64_lit c).trans (vec_true 1 rfl)
theorem k0_off1_m10_0_lit : ∀ c : Dev nD, k0_off1 c 4294967286#32 0#32 = ![256 * ((c.val + 6) % 16) + 64 * 0, 0] := by decide +kernel
theorem off1_m10_0 (c : Dev nD) : k0_off1 c 4294967286#32 0#32 = off true (c.val + 6) 0 := (k0_off1_m10_0_lit c).trans (vec_true 0 rfl)
theorem k0_off1_m10_64_lit : ∀ c : Dev nD, k0_off1 c 4294967286#32 64#32 = ![256 * ((c.val + 6) % 16) + 64 * 1, 0] := by decide +kernel
theorem off1_m10_64 (c : Dev nD) : k0_off1 c 4294967286#32 64#32 = off true (c.val + 6) 1 := (k0_off1_m10_64_lit c).trans (vec_true 1 rfl)
theorem k0_off1_m11_0_lit : ∀ c : Dev nD, k0_off1 c 4294967285#32 0#32 = ![256 * ((c.val + 5) % 16) + 64 * 0, 0] := by decide +kernel
theorem off1_m11_0 (c : Dev nD) : k0_off1 c 4294967285#32 0#32 = off true (c.val + 5) 0 := (k0_off1_m11_0_lit c).trans (vec_true 0 rfl)
theorem k0_off1_m11_64_lit : ∀ c : Dev nD, k0_off1 c 4294967285#32 64#32 = ![256 * ((c.val + 5) % 16) + 64 * 1, 0] := by decide +kernel
theorem off1_m11_64 (c : Dev nD) : k0_off1 c 4294967285#32 64#32 = off true (c.val + 5) 1 := (k0_off1_m11_64_lit c).trans (vec_true 1 rfl)
theorem k0_off1_m12_0_lit : ∀ c : Dev nD, k0_off1 c 4294967284#32 0#32 = ![256 * ((c.val + 4) % 16) + 64 * 0, 0] := by decide +kernel
theorem off1_m12_0 (c : Dev nD) : k0_off1 c 4294967284#32 0#32 = off true (c.val + 4) 0 := (k0_off1_m12_0_lit c).trans (vec_true 0 rfl)
theorem k0_off1_m12_64_lit : ∀ c : Dev nD, k0_off1 c 4294967284#32 64#32 = ![256 * ((c.val + 4) % 16) + 64 * 1, 0] := by decide +kernel
theorem off1_m12_64 (c : Dev nD) : k0_off1 c 4294967284#32 64#32 = off true (c.val + 4) 1 := (k0_off1_m12_64_lit c).trans (vec_true 1 rfl)
theorem k0_off1_m13_0_lit : ∀ c : Dev nD, k0_off1 c 4294967283#32 0#32 = ![256 * ((c.val + 3) % 16) + 64 * 0, 0] := by decide +kernel
theorem off1_m13_0 (c : Dev nD) : k0_off1 c 4294967283#32 0#32 = off true (c.val + 3) 0 := (k0_off1_m13_0_lit c).trans (vec_true 0 rfl)
theorem k0_off1_m13_64_lit : ∀ c : Dev nD, k0_off1 c 4294967283#32 64#32 = ![256 * ((c.val + 3) % 16) + 64 * 1, 0] := by decide +kernel
theorem off1_m13_64 (c : Dev nD) : k0_off1 c 4294967283#32 64#32 = off true (c.val + 3) 1 := (k0_off1_m13_64_lit c).trans (vec_true 1 rfl)
theorem k0_off1_m14_0_lit : ∀ c : Dev nD, k0_off1 c 4294967282#32 0#32 = ![256 * ((c.val + 2) % 16) + 64 * 0, 0] := by decide +kernel
theorem off1_m14_0 (c : Dev nD) : k0_off1 c 4294967282#32 0#32 = off true (c.val + 2) 0 := (k0_off1_m14_0_lit c).trans (vec_true 0 rfl)
theorem k0_off1_m14_64_lit : ∀ c : Dev nD, k0_off1 c 4294967282#32 64#32 = ![256 * ((c.val + 2) % 16) + 64 * 1, 0] := by decide +kernel
theorem off1_m14_64 (c : Dev nD) : k0_off1 c 4294967282#32 64#32 = off true (c.val + 2) 1 := (k0_off1_m14_64_lit c).trans (vec_true 1 rfl)
theorem off2_0_0 (c : Dev nD) : k0_off2 c 0#32 0#32 = off false (c.val + 0) 0 :=
  (k0_off2_eq c ⟨0, by decide⟩ ⟨0, by decide⟩).trans (vec_false 0 (by show (c.val + 0 + 32) % 16 = (c.val + 0) % 16; omega))
theorem off2_0_64 (c : Dev nD) : k0_off2 c 0#32 64#32 = off false (c.val + 0) 1 :=
  (k0_off2_eq c ⟨0, by decide⟩ ⟨1, by decide⟩).trans (vec_false 1 (by show (c.val + 0 + 32) % 16 = (c.val + 0) % 16; omega))
theorem off2_1_0 (c : Dev nD) : k0_off2 c 1#32 0#32 = off false (c.val + 1) 0 :=
  (k0_off2_eq c ⟨1, by decide⟩ ⟨0, by decide⟩).trans (vec_false 0 (by show (c.val + 1 + 32) % 16 = (c.val + 1) % 16; omega))
theorem off2_1_64 (c : Dev nD) : k0_off2 c 1#32 64#32 = off false (c.val + 1) 1 :=
  (k0_off2_eq c ⟨1, by decide⟩ ⟨1, by decide⟩).trans (vec_false 1 (by show (c.val + 1 + 32) % 16 = (c.val + 1) % 16; omega))
theorem off2_2_0 (c : Dev nD) : k0_off2 c 2#32 0#32 = off false (c.val + 2) 0 :=
  (k0_off2_eq c ⟨2, by decide⟩ ⟨0, by decide⟩).trans (vec_false 0 (by show (c.val + 2 + 32) % 16 = (c.val + 2) % 16; omega))
theorem off2_2_64 (c : Dev nD) : k0_off2 c 2#32 64#32 = off false (c.val + 2) 1 :=
  (k0_off2_eq c ⟨2, by decide⟩ ⟨1, by decide⟩).trans (vec_false 1 (by show (c.val + 2 + 32) % 16 = (c.val + 2) % 16; omega))
theorem off2_3_0 (c : Dev nD) : k0_off2 c 3#32 0#32 = off false (c.val + 3) 0 :=
  (k0_off2_eq c ⟨3, by decide⟩ ⟨0, by decide⟩).trans (vec_false 0 (by show (c.val + 3 + 32) % 16 = (c.val + 3) % 16; omega))
theorem off2_3_64 (c : Dev nD) : k0_off2 c 3#32 64#32 = off false (c.val + 3) 1 :=
  (k0_off2_eq c ⟨3, by decide⟩ ⟨1, by decide⟩).trans (vec_false 1 (by show (c.val + 3 + 32) % 16 = (c.val + 3) % 16; omega))
theorem off2_4_0 (c : Dev nD) : k0_off2 c 4#32 0#32 = off false (c.val + 4) 0 :=
  (k0_off2_eq c ⟨4, by decide⟩ ⟨0, by decide⟩).trans (vec_false 0 (by show (c.val + 4 + 32) % 16 = (c.val + 4) % 16; omega))
theorem off2_4_64 (c : Dev nD) : k0_off2 c 4#32 64#32 = off false (c.val + 4) 1 :=
  (k0_off2_eq c ⟨4, by decide⟩ ⟨1, by decide⟩).trans (vec_false 1 (by show (c.val + 4 + 32) % 16 = (c.val + 4) % 16; omega))
theorem off2_5_0 (c : Dev nD) : k0_off2 c 5#32 0#32 = off false (c.val + 5) 0 :=
  (k0_off2_eq c ⟨5, by decide⟩ ⟨0, by decide⟩).trans (vec_false 0 (by show (c.val + 5 + 32) % 16 = (c.val + 5) % 16; omega))
theorem off2_5_64 (c : Dev nD) : k0_off2 c 5#32 64#32 = off false (c.val + 5) 1 :=
  (k0_off2_eq c ⟨5, by decide⟩ ⟨1, by decide⟩).trans (vec_false 1 (by show (c.val + 5 + 32) % 16 = (c.val + 5) % 16; omega))
theorem off2_6_0 (c : Dev nD) : k0_off2 c 6#32 0#32 = off false (c.val + 6) 0 :=
  (k0_off2_eq c ⟨6, by decide⟩ ⟨0, by decide⟩).trans (vec_false 0 (by show (c.val + 6 + 32) % 16 = (c.val + 6) % 16; omega))
theorem off2_6_64 (c : Dev nD) : k0_off2 c 6#32 64#32 = off false (c.val + 6) 1 :=
  (k0_off2_eq c ⟨6, by decide⟩ ⟨1, by decide⟩).trans (vec_false 1 (by show (c.val + 6 + 32) % 16 = (c.val + 6) % 16; omega))
theorem off2_7_0 (c : Dev nD) : k0_off2 c 7#32 0#32 = off false (c.val + 7) 0 :=
  (k0_off2_eq c ⟨7, by decide⟩ ⟨0, by decide⟩).trans (vec_false 0 (by show (c.val + 7 + 32) % 16 = (c.val + 7) % 16; omega))
theorem off2_7_64 (c : Dev nD) : k0_off2 c 7#32 64#32 = off false (c.val + 7) 1 :=
  (k0_off2_eq c ⟨7, by decide⟩ ⟨1, by decide⟩).trans (vec_false 1 (by show (c.val + 7 + 32) % 16 = (c.val + 7) % 16; omega))
theorem off2_8_0 (c : Dev nD) : k0_off2 c 8#32 0#32 = off false (c.val + 8) 0 :=
  (k0_off2_eq c ⟨8, by decide⟩ ⟨0, by decide⟩).trans (vec_false 0 (by show (c.val + 8 + 32) % 16 = (c.val + 8) % 16; omega))
theorem off2_8_64 (c : Dev nD) : k0_off2 c 8#32 64#32 = off false (c.val + 8) 1 :=
  (k0_off2_eq c ⟨8, by decide⟩ ⟨1, by decide⟩).trans (vec_false 1 (by show (c.val + 8 + 32) % 16 = (c.val + 8) % 16; omega))
theorem off2_9_0 (c : Dev nD) : k0_off2 c 9#32 0#32 = off false (c.val + 9) 0 :=
  (k0_off2_eq c ⟨9, by decide⟩ ⟨0, by decide⟩).trans (vec_false 0 (by show (c.val + 9 + 32) % 16 = (c.val + 9) % 16; omega))
theorem off2_9_64 (c : Dev nD) : k0_off2 c 9#32 64#32 = off false (c.val + 9) 1 :=
  (k0_off2_eq c ⟨9, by decide⟩ ⟨1, by decide⟩).trans (vec_false 1 (by show (c.val + 9 + 32) % 16 = (c.val + 9) % 16; omega))
theorem off2_10_0 (c : Dev nD) : k0_off2 c 10#32 0#32 = off false (c.val + 10) 0 :=
  (k0_off2_eq c ⟨10, by decide⟩ ⟨0, by decide⟩).trans (vec_false 0 (by show (c.val + 10 + 32) % 16 = (c.val + 10) % 16; omega))
theorem off2_10_64 (c : Dev nD) : k0_off2 c 10#32 64#32 = off false (c.val + 10) 1 :=
  (k0_off2_eq c ⟨10, by decide⟩ ⟨1, by decide⟩).trans (vec_false 1 (by show (c.val + 10 + 32) % 16 = (c.val + 10) % 16; omega))
theorem off2_11_0 (c : Dev nD) : k0_off2 c 11#32 0#32 = off false (c.val + 11) 0 :=
  (k0_off2_eq c ⟨11, by decide⟩ ⟨0, by decide⟩).trans (vec_false 0 (by show (c.val + 11 + 32) % 16 = (c.val + 11) % 16; omega))
theorem off2_11_64 (c : Dev nD) : k0_off2 c 11#32 64#32 = off false (c.val + 11) 1 :=
  (k0_off2_eq c ⟨11, by decide⟩ ⟨1, by decide⟩).trans (vec_false 1 (by show (c.val + 11 + 32) % 16 = (c.val + 11) % 16; omega))
theorem off2_12_0 (c : Dev nD) : k0_off2 c 12#32 0#32 = off false (c.val + 12) 0 :=
  (k0_off2_eq c ⟨12, by decide⟩ ⟨0, by decide⟩).trans (vec_false 0 (by show (c.val + 12 + 32) % 16 = (c.val + 12) % 16; omega))
theorem off2_12_64 (c : Dev nD) : k0_off2 c 12#32 64#32 = off false (c.val + 12) 1 :=
  (k0_off2_eq c ⟨12, by decide⟩ ⟨1, by decide⟩).trans (vec_false 1 (by show (c.val + 12 + 32) % 16 = (c.val + 12) % 16; omega))
theorem off2_13_0 (c : Dev nD) : k0_off2 c 13#32 0#32 = off false (c.val + 13) 0 :=
  (k0_off2_eq c ⟨13, by decide⟩ ⟨0, by decide⟩).trans (vec_false 0 (by show (c.val + 13 + 32) % 16 = (c.val + 13) % 16; omega))
theorem off2_13_64 (c : Dev nD) : k0_off2 c 13#32 64#32 = off false (c.val + 13) 1 :=
  (k0_off2_eq c ⟨13, by decide⟩ ⟨1, by decide⟩).trans (vec_false 1 (by show (c.val + 13 + 32) % 16 = (c.val + 13) % 16; omega))
theorem off2_14_0 (c : Dev nD) : k0_off2 c 14#32 0#32 = off false (c.val + 14) 0 :=
  (k0_off2_eq c ⟨14, by decide⟩ ⟨0, by decide⟩).trans (vec_false 0 (by show (c.val + 14 + 32) % 16 = (c.val + 14) % 16; omega))
theorem off2_14_64 (c : Dev nD) : k0_off2 c 14#32 64#32 = off false (c.val + 14) 1 :=
  (k0_off2_eq c ⟨14, by decide⟩ ⟨1, by decide⟩).trans (vec_false 1 (by show (c.val + 14 + 32) % 16 = (c.val + 14) % 16; omega))
theorem k0_off3_m2_0_lit : ∀ c : Dev nD, k0_off3 c 4294967294#32 0#32 = ![256 * ((c.val + 14) % 16) + 64 * 0, 0] := by decide +kernel
theorem off3_m2_0 (c : Dev nD) : k0_off3 c 4294967294#32 0#32 = off true (c.val + 14) 0 := (k0_off3_m2_0_lit c).trans (vec_true 0 rfl)
theorem k0_off3_m2_64_lit : ∀ c : Dev nD, k0_off3 c 4294967294#32 64#32 = ![256 * ((c.val + 14) % 16) + 64 * 1, 0] := by decide +kernel
theorem off3_m2_64 (c : Dev nD) : k0_off3 c 4294967294#32 64#32 = off true (c.val + 14) 1 := (k0_off3_m2_64_lit c).trans (vec_true 1 rfl)
theorem k0_off3_m3_0_lit : ∀ c : Dev nD, k0_off3 c 4294967293#32 0#32 = ![256 * ((c.val + 13) % 16) + 64 * 0, 0] := by decide +kernel
theorem off3_m3_0 (c : Dev nD) : k0_off3 c 4294967293#32 0#32 = off true (c.val + 13) 0 := (k0_off3_m3_0_lit c).trans (vec_true 0 rfl)
theorem k0_off3_m3_64_lit : ∀ c : Dev nD, k0_off3 c 4294967293#32 64#32 = ![256 * ((c.val + 13) % 16) + 64 * 1, 0] := by decide +kernel
theorem off3_m3_64 (c : Dev nD) : k0_off3 c 4294967293#32 64#32 = off true (c.val + 13) 1 := (k0_off3_m3_64_lit c).trans (vec_true 1 rfl)
theorem k0_off3_m4_0_lit : ∀ c : Dev nD, k0_off3 c 4294967292#32 0#32 = ![256 * ((c.val + 12) % 16) + 64 * 0, 0] := by decide +kernel
theorem off3_m4_0 (c : Dev nD) : k0_off3 c 4294967292#32 0#32 = off true (c.val + 12) 0 := (k0_off3_m4_0_lit c).trans (vec_true 0 rfl)
theorem k0_off3_m4_64_lit : ∀ c : Dev nD, k0_off3 c 4294967292#32 64#32 = ![256 * ((c.val + 12) % 16) + 64 * 1, 0] := by decide +kernel
theorem off3_m4_64 (c : Dev nD) : k0_off3 c 4294967292#32 64#32 = off true (c.val + 12) 1 := (k0_off3_m4_64_lit c).trans (vec_true 1 rfl)
theorem k0_off3_m5_0_lit : ∀ c : Dev nD, k0_off3 c 4294967291#32 0#32 = ![256 * ((c.val + 11) % 16) + 64 * 0, 0] := by decide +kernel
theorem off3_m5_0 (c : Dev nD) : k0_off3 c 4294967291#32 0#32 = off true (c.val + 11) 0 := (k0_off3_m5_0_lit c).trans (vec_true 0 rfl)
theorem k0_off3_m5_64_lit : ∀ c : Dev nD, k0_off3 c 4294967291#32 64#32 = ![256 * ((c.val + 11) % 16) + 64 * 1, 0] := by decide +kernel
theorem off3_m5_64 (c : Dev nD) : k0_off3 c 4294967291#32 64#32 = off true (c.val + 11) 1 := (k0_off3_m5_64_lit c).trans (vec_true 1 rfl)
theorem k0_off3_m6_0_lit : ∀ c : Dev nD, k0_off3 c 4294967290#32 0#32 = ![256 * ((c.val + 10) % 16) + 64 * 0, 0] := by decide +kernel
theorem off3_m6_0 (c : Dev nD) : k0_off3 c 4294967290#32 0#32 = off true (c.val + 10) 0 := (k0_off3_m6_0_lit c).trans (vec_true 0 rfl)
theorem k0_off3_m6_64_lit : ∀ c : Dev nD, k0_off3 c 4294967290#32 64#32 = ![256 * ((c.val + 10) % 16) + 64 * 1, 0] := by decide +kernel
theorem off3_m6_64 (c : Dev nD) : k0_off3 c 4294967290#32 64#32 = off true (c.val + 10) 1 := (k0_off3_m6_64_lit c).trans (vec_true 1 rfl)
theorem k0_off3_m7_0_lit : ∀ c : Dev nD, k0_off3 c 4294967289#32 0#32 = ![256 * ((c.val + 9) % 16) + 64 * 0, 0] := by decide +kernel
theorem off3_m7_0 (c : Dev nD) : k0_off3 c 4294967289#32 0#32 = off true (c.val + 9) 0 := (k0_off3_m7_0_lit c).trans (vec_true 0 rfl)
theorem k0_off3_m7_64_lit : ∀ c : Dev nD, k0_off3 c 4294967289#32 64#32 = ![256 * ((c.val + 9) % 16) + 64 * 1, 0] := by decide +kernel
theorem off3_m7_64 (c : Dev nD) : k0_off3 c 4294967289#32 64#32 = off true (c.val + 9) 1 := (k0_off3_m7_64_lit c).trans (vec_true 1 rfl)
theorem k0_off3_m8_0_lit : ∀ c : Dev nD, k0_off3 c 4294967288#32 0#32 = ![256 * ((c.val + 8) % 16) + 64 * 0, 0] := by decide +kernel
theorem off3_m8_0 (c : Dev nD) : k0_off3 c 4294967288#32 0#32 = off true (c.val + 8) 0 := (k0_off3_m8_0_lit c).trans (vec_true 0 rfl)
theorem k0_off3_m8_64_lit : ∀ c : Dev nD, k0_off3 c 4294967288#32 64#32 = ![256 * ((c.val + 8) % 16) + 64 * 1, 0] := by decide +kernel
theorem off3_m8_64 (c : Dev nD) : k0_off3 c 4294967288#32 64#32 = off true (c.val + 8) 1 := (k0_off3_m8_64_lit c).trans (vec_true 1 rfl)
theorem k0_off3_m9_0_lit : ∀ c : Dev nD, k0_off3 c 4294967287#32 0#32 = ![256 * ((c.val + 7) % 16) + 64 * 0, 0] := by decide +kernel
theorem off3_m9_0 (c : Dev nD) : k0_off3 c 4294967287#32 0#32 = off true (c.val + 7) 0 := (k0_off3_m9_0_lit c).trans (vec_true 0 rfl)
theorem k0_off3_m9_64_lit : ∀ c : Dev nD, k0_off3 c 4294967287#32 64#32 = ![256 * ((c.val + 7) % 16) + 64 * 1, 0] := by decide +kernel
theorem off3_m9_64 (c : Dev nD) : k0_off3 c 4294967287#32 64#32 = off true (c.val + 7) 1 := (k0_off3_m9_64_lit c).trans (vec_true 1 rfl)
theorem k0_off3_m10_0_lit : ∀ c : Dev nD, k0_off3 c 4294967286#32 0#32 = ![256 * ((c.val + 6) % 16) + 64 * 0, 0] := by decide +kernel
theorem off3_m10_0 (c : Dev nD) : k0_off3 c 4294967286#32 0#32 = off true (c.val + 6) 0 := (k0_off3_m10_0_lit c).trans (vec_true 0 rfl)
theorem k0_off3_m10_64_lit : ∀ c : Dev nD, k0_off3 c 4294967286#32 64#32 = ![256 * ((c.val + 6) % 16) + 64 * 1, 0] := by decide +kernel
theorem off3_m10_64 (c : Dev nD) : k0_off3 c 4294967286#32 64#32 = off true (c.val + 6) 1 := (k0_off3_m10_64_lit c).trans (vec_true 1 rfl)
theorem k0_off3_m11_0_lit : ∀ c : Dev nD, k0_off3 c 4294967285#32 0#32 = ![256 * ((c.val + 5) % 16) + 64 * 0, 0] := by decide +kernel
theorem off3_m11_0 (c : Dev nD) : k0_off3 c 4294967285#32 0#32 = off true (c.val + 5) 0 := (k0_off3_m11_0_lit c).trans (vec_true 0 rfl)
theorem k0_off3_m11_64_lit : ∀ c : Dev nD, k0_off3 c 4294967285#32 64#32 = ![256 * ((c.val + 5) % 16) + 64 * 1, 0] := by decide +kernel
theorem off3_m11_64 (c : Dev nD) : k0_off3 c 4294967285#32 64#32 = off true (c.val + 5) 1 := (k0_off3_m11_64_lit c).trans (vec_true 1 rfl)
theorem k0_off3_m12_0_lit : ∀ c : Dev nD, k0_off3 c 4294967284#32 0#32 = ![256 * ((c.val + 4) % 16) + 64 * 0, 0] := by decide +kernel
theorem off3_m12_0 (c : Dev nD) : k0_off3 c 4294967284#32 0#32 = off true (c.val + 4) 0 := (k0_off3_m12_0_lit c).trans (vec_true 0 rfl)
theorem k0_off3_m12_64_lit : ∀ c : Dev nD, k0_off3 c 4294967284#32 64#32 = ![256 * ((c.val + 4) % 16) + 64 * 1, 0] := by decide +kernel
theorem off3_m12_64 (c : Dev nD) : k0_off3 c 4294967284#32 64#32 = off true (c.val + 4) 1 := (k0_off3_m12_64_lit c).trans (vec_true 1 rfl)
theorem k0_off3_m13_0_lit : ∀ c : Dev nD, k0_off3 c 4294967283#32 0#32 = ![256 * ((c.val + 3) % 16) + 64 * 0, 0] := by decide +kernel
theorem off3_m13_0 (c : Dev nD) : k0_off3 c 4294967283#32 0#32 = off true (c.val + 3) 0 := (k0_off3_m13_0_lit c).trans (vec_true 0 rfl)
theorem k0_off3_m13_64_lit : ∀ c : Dev nD, k0_off3 c 4294967283#32 64#32 = ![256 * ((c.val + 3) % 16) + 64 * 1, 0] := by decide +kernel
theorem off3_m13_64 (c : Dev nD) : k0_off3 c 4294967283#32 64#32 = off true (c.val + 3) 1 := (k0_off3_m13_64_lit c).trans (vec_true 1 rfl)
theorem k0_off3_m14_0_lit : ∀ c : Dev nD, k0_off3 c 4294967282#32 0#32 = ![256 * ((c.val + 2) % 16) + 64 * 0, 0] := by decide +kernel
theorem off3_m14_0 (c : Dev nD) : k0_off3 c 4294967282#32 0#32 = off true (c.val + 2) 0 := (k0_off3_m14_0_lit c).trans (vec_true 0 rfl)
theorem k0_off3_m14_64_lit : ∀ c : Dev nD, k0_off3 c 4294967282#32 64#32 = ![256 * ((c.val + 2) % 16) + 64 * 1, 0] := by decide +kernel
theorem off3_m14_64 (c : Dev nD) : k0_off3 c 4294967282#32 64#32 = off true (c.val + 2) 1 := (k0_off3_m14_64_lit c).trans (vec_true 1 rfl)
theorem k0_off3_m15_0_lit : ∀ c : Dev nD, k0_off3 c 4294967281#32 0#32 = ![256 * ((c.val + 1) % 16) + 64 * 0, 0] := by decide +kernel
theorem off3_m15_0 (c : Dev nD) : k0_off3 c 4294967281#32 0#32 = off true (c.val + 1) 0 := (k0_off3_m15_0_lit c).trans (vec_true 0 rfl)
theorem k0_off3_m15_64_lit : ∀ c : Dev nD, k0_off3 c 4294967281#32 64#32 = ![256 * ((c.val + 1) % 16) + 64 * 1, 0] := by decide +kernel
theorem off3_m15_64 (c : Dev nD) : k0_off3 c 4294967281#32 64#32 = off true (c.val + 1) 1 := (k0_off3_m15_64_lit c).trans (vec_true 1 rfl)
theorem k0_off3_m16_0_lit : ∀ c : Dev nD, k0_off3 c 4294967280#32 0#32 = ![256 * ((c.val + 0) % 16) + 64 * 0, 0] := by decide +kernel
theorem off3_m16_0 (c : Dev nD) : k0_off3 c 4294967280#32 0#32 = off true (c.val + 0) 0 := (k0_off3_m16_0_lit c).trans (vec_true 0 rfl)
theorem k0_off3_m16_64_lit : ∀ c : Dev nD, k0_off3 c 4294967280#32 64#32 = ![256 * ((c.val + 0) % 16) + 64 * 1, 0] := by decide +kernel
theorem off3_m16_64 (c : Dev nD) : k0_off3 c 4294967280#32 64#32 = off true (c.val + 0) 1 := (k0_off3_m16_64_lit c).trans (vec_true 1 rfl)
theorem off4_2_0 (c : Dev nD) : k0_off4 c 2#32 0#32 = off false (c.val + 2) 0 :=
  (k0_off4_eq c ⟨0, by decide⟩ ⟨0, by decide⟩).trans (vec_false 0 (by show (c.val + 0 + 34) % 16 = (c.val + 2) % 16; omega))
theorem off4_2_64 (c : Dev nD) : k0_off4 c 2#32 64#32 = off false (c.val + 2) 1 :=
  (k0_off4_eq c ⟨0, by decide⟩ ⟨1, by decide⟩).trans (vec_false 1 (by show (c.val + 0 + 34) % 16 = (c.val + 2) % 16; omega))
theorem off4_3_0 (c : Dev nD) : k0_off4 c 3#32 0#32 = off false (c.val + 3) 0 :=
  (k0_off4_eq c ⟨1, by decide⟩ ⟨0, by decide⟩).trans (vec_false 0 (by show (c.val + 1 + 34) % 16 = (c.val + 3) % 16; omega))
theorem off4_3_64 (c : Dev nD) : k0_off4 c 3#32 64#32 = off false (c.val + 3) 1 :=
  (k0_off4_eq c ⟨1, by decide⟩ ⟨1, by decide⟩).trans (vec_false 1 (by show (c.val + 1 + 34) % 16 = (c.val + 3) % 16; omega))
theorem off4_4_0 (c : Dev nD) : k0_off4 c 4#32 0#32 = off false (c.val + 4) 0 :=
  (k0_off4_eq c ⟨2, by decide⟩ ⟨0, by decide⟩).trans (vec_false 0 (by show (c.val + 2 + 34) % 16 = (c.val + 4) % 16; omega))
theorem off4_4_64 (c : Dev nD) : k0_off4 c 4#32 64#32 = off false (c.val + 4) 1 :=
  (k0_off4_eq c ⟨2, by decide⟩ ⟨1, by decide⟩).trans (vec_false 1 (by show (c.val + 2 + 34) % 16 = (c.val + 4) % 16; omega))
theorem off4_5_0 (c : Dev nD) : k0_off4 c 5#32 0#32 = off false (c.val + 5) 0 :=
  (k0_off4_eq c ⟨3, by decide⟩ ⟨0, by decide⟩).trans (vec_false 0 (by show (c.val + 3 + 34) % 16 = (c.val + 5) % 16; omega))
theorem off4_5_64 (c : Dev nD) : k0_off4 c 5#32 64#32 = off false (c.val + 5) 1 :=
  (k0_off4_eq c ⟨3, by decide⟩ ⟨1, by decide⟩).trans (vec_false 1 (by show (c.val + 3 + 34) % 16 = (c.val + 5) % 16; omega))
theorem off4_6_0 (c : Dev nD) : k0_off4 c 6#32 0#32 = off false (c.val + 6) 0 :=
  (k0_off4_eq c ⟨4, by decide⟩ ⟨0, by decide⟩).trans (vec_false 0 (by show (c.val + 4 + 34) % 16 = (c.val + 6) % 16; omega))
theorem off4_6_64 (c : Dev nD) : k0_off4 c 6#32 64#32 = off false (c.val + 6) 1 :=
  (k0_off4_eq c ⟨4, by decide⟩ ⟨1, by decide⟩).trans (vec_false 1 (by show (c.val + 4 + 34) % 16 = (c.val + 6) % 16; omega))
theorem off4_7_0 (c : Dev nD) : k0_off4 c 7#32 0#32 = off false (c.val + 7) 0 :=
  (k0_off4_eq c ⟨5, by decide⟩ ⟨0, by decide⟩).trans (vec_false 0 (by show (c.val + 5 + 34) % 16 = (c.val + 7) % 16; omega))
theorem off4_7_64 (c : Dev nD) : k0_off4 c 7#32 64#32 = off false (c.val + 7) 1 :=
  (k0_off4_eq c ⟨5, by decide⟩ ⟨1, by decide⟩).trans (vec_false 1 (by show (c.val + 5 + 34) % 16 = (c.val + 7) % 16; omega))
theorem off4_8_0 (c : Dev nD) : k0_off4 c 8#32 0#32 = off false (c.val + 8) 0 :=
  (k0_off4_eq c ⟨6, by decide⟩ ⟨0, by decide⟩).trans (vec_false 0 (by show (c.val + 6 + 34) % 16 = (c.val + 8) % 16; omega))
theorem off4_8_64 (c : Dev nD) : k0_off4 c 8#32 64#32 = off false (c.val + 8) 1 :=
  (k0_off4_eq c ⟨6, by decide⟩ ⟨1, by decide⟩).trans (vec_false 1 (by show (c.val + 6 + 34) % 16 = (c.val + 8) % 16; omega))
theorem off4_9_0 (c : Dev nD) : k0_off4 c 9#32 0#32 = off false (c.val + 9) 0 :=
  (k0_off4_eq c ⟨7, by decide⟩ ⟨0, by decide⟩).trans (vec_false 0 (by show (c.val + 7 + 34) % 16 = (c.val + 9) % 16; omega))
theorem off4_9_64 (c : Dev nD) : k0_off4 c 9#32 64#32 = off false (c.val + 9) 1 :=
  (k0_off4_eq c ⟨7, by decide⟩ ⟨1, by decide⟩).trans (vec_false 1 (by show (c.val + 7 + 34) % 16 = (c.val + 9) % 16; omega))
theorem off4_10_0 (c : Dev nD) : k0_off4 c 10#32 0#32 = off false (c.val + 10) 0 :=
  (k0_off4_eq c ⟨8, by decide⟩ ⟨0, by decide⟩).trans (vec_false 0 (by show (c.val + 8 + 34) % 16 = (c.val + 10) % 16; omega))
theorem off4_10_64 (c : Dev nD) : k0_off4 c 10#32 64#32 = off false (c.val + 10) 1 :=
  (k0_off4_eq c ⟨8, by decide⟩ ⟨1, by decide⟩).trans (vec_false 1 (by show (c.val + 8 + 34) % 16 = (c.val + 10) % 16; omega))
theorem off4_11_0 (c : Dev nD) : k0_off4 c 11#32 0#32 = off false (c.val + 11) 0 :=
  (k0_off4_eq c ⟨9, by decide⟩ ⟨0, by decide⟩).trans (vec_false 0 (by show (c.val + 9 + 34) % 16 = (c.val + 11) % 16; omega))
theorem off4_11_64 (c : Dev nD) : k0_off4 c 11#32 64#32 = off false (c.val + 11) 1 :=
  (k0_off4_eq c ⟨9, by decide⟩ ⟨1, by decide⟩).trans (vec_false 1 (by show (c.val + 9 + 34) % 16 = (c.val + 11) % 16; omega))
theorem off4_12_0 (c : Dev nD) : k0_off4 c 12#32 0#32 = off false (c.val + 12) 0 :=
  (k0_off4_eq c ⟨10, by decide⟩ ⟨0, by decide⟩).trans (vec_false 0 (by show (c.val + 10 + 34) % 16 = (c.val + 12) % 16; omega))
theorem off4_12_64 (c : Dev nD) : k0_off4 c 12#32 64#32 = off false (c.val + 12) 1 :=
  (k0_off4_eq c ⟨10, by decide⟩ ⟨1, by decide⟩).trans (vec_false 1 (by show (c.val + 10 + 34) % 16 = (c.val + 12) % 16; omega))
theorem off4_13_0 (c : Dev nD) : k0_off4 c 13#32 0#32 = off false (c.val + 13) 0 :=
  (k0_off4_eq c ⟨11, by decide⟩ ⟨0, by decide⟩).trans (vec_false 0 (by show (c.val + 11 + 34) % 16 = (c.val + 13) % 16; omega))
theorem off4_13_64 (c : Dev nD) : k0_off4 c 13#32 64#32 = off false (c.val + 13) 1 :=
  (k0_off4_eq c ⟨11, by decide⟩ ⟨1, by decide⟩).trans (vec_false 1 (by show (c.val + 11 + 34) % 16 = (c.val + 13) % 16; omega))
theorem off4_14_0 (c : Dev nD) : k0_off4 c 14#32 0#32 = off false (c.val + 14) 0 :=
  (k0_off4_eq c ⟨12, by decide⟩ ⟨0, by decide⟩).trans (vec_false 0 (by show (c.val + 12 + 34) % 16 = (c.val + 14) % 16; omega))
theorem off4_14_64 (c : Dev nD) : k0_off4 c 14#32 64#32 = off false (c.val + 14) 1 :=
  (k0_off4_eq c ⟨12, by decide⟩ ⟨1, by decide⟩).trans (vec_false 1 (by show (c.val + 12 + 34) % 16 = (c.val + 14) % 16; omega))
theorem off4_15_0 (c : Dev nD) : k0_off4 c 15#32 0#32 = off false (c.val + 15) 0 :=
  (k0_off4_eq c ⟨13, by decide⟩ ⟨0, by decide⟩).trans (vec_false 0 (by show (c.val + 13 + 34) % 16 = (c.val + 15) % 16; omega))
theorem off4_15_64 (c : Dev nD) : k0_off4 c 15#32 64#32 = off false (c.val + 15) 1 :=
  (k0_off4_eq c ⟨13, by decide⟩ ⟨1, by decide⟩).trans (vec_false 1 (by show (c.val + 13 + 34) % 16 = (c.val + 15) % 16; omega))
theorem off4_16_0 (c : Dev nD) : k0_off4 c 16#32 0#32 = off false (c.val + 0) 0 :=
  (k0_off4_eq c ⟨14, by decide⟩ ⟨0, by decide⟩).trans (vec_false 0 (by show (c.val + 14 + 34) % 16 = (c.val + 0) % 16; omega))
theorem off4_16_64 (c : Dev nD) : k0_off4 c 16#32 64#32 = off false (c.val + 0) 1 :=
  (k0_off4_eq c ⟨14, by decide⟩ ⟨1, by decide⟩).trans (vec_false 1 (by show (c.val + 14 + 34) % 16 = (c.val + 0) % 16; omega))

/-! ## The slices of the staged arrays (transfers' ends) and the rectangles of the loads, at the closed offsets -/

theorem rows1_0_0_o (c : Dev nD) :
    oM.slice (Rect.unit (s := S4096x1024) (k0_off1 c 0#32 0#32) S64x1024.size (k0_off1_inb c 2)) (fun _ => rfl)
      = rows oM (off true (c.val + 0) 0) (off_inb true (c.val + 0) ⟨0, by decide⟩) :=
  rows_congr _ (off1_0_0 c) _ _ _
theorem rows1_0_64_o (c : Dev nD) :
    oM.slice (Rect.unit (s := S4096x1024) (k0_off1 c 0#32 64#32) S64x1024.size (k0_off1_inb c 3)) (fun _ => rfl)
      = rows oM (off true (c.val + 0) 1) (off_inb true (c.val + 0) ⟨1, by decide⟩) :=
  rows_congr _ (off1_0_64 c) _ _ _
theorem rows1_m1_0_x (c : Dev nD) :
    xM.slice (Rect.unit (s := S4096x1024) (k0_off1 c 4294967295#32 0#32) S64x1024.size (k0_off1_inb c 0)) (fun _ => rfl)
      = rows xM (off true (c.val + 15) 0) (off_inb true (c.val + 15) ⟨0, by decide⟩) :=
  rows_congr _ (off1_m1_0 c) _ _ _
theorem rows1_m1_0_o (c : Dev nD) :
    oM.slice (Rect.unit (s := S4096x1024) (k0_off1 c 4294967295#32 0#32) S64x1024.size (k0_off1_inb c 0)) (fun _ => rfl)
      = rows oM (off true (c.val + 15) 0) (off_inb true (c.val + 15) ⟨0, by decide⟩) :=
  rows_congr _ (off1_m1_0 c) _ _ _
theorem rows1_m1_64_x (c : Dev nD) :
    xM.slice (Rect.unit (s := S4096x1024) (k0_off1 c 4294967295#32 64#32) S64x1024.size (k0_off1_inb c 1)) (fun _ => rfl)
      = rows xM (off true (c.val + 15) 1) (off_inb true (c.val + 15) ⟨1, by decide⟩) :=
  rows_congr _ (off1_m1_64 c) _ _ _
theorem rows1_m1_64_o (c : Dev nD) :
    oM.slice (Rect.unit (s := S4096x1024) (k0_off1 c 4294967295#32 64#32) S64x1024.size (k0_off1_inb c 1)) (fun _ => rfl)
      = rows oM (off true (c.val + 15) 1) (off_inb true (c.val + 15) ⟨1, by decide⟩) :=
  rows_congr _ (off1_m1_64 c) _ _ _
theorem rows1_m2_0_o (c : Dev nD) :
    oM.slice (Rect.unit (s := S4096x1024) (k0_off1 c 4294967294#32 0#32) S64x1024.size (k0_off1_inb c 4)) (fun _ => rfl)
      = rows oM (off true (c.val + 14) 0) (off_inb true (c.val + 14) ⟨0, by decide⟩) :=
  rows_congr _ (off1_m2_0 c) _ _ _
theorem rows1_m2_64_o (c : Dev nD) :
    oM.slice (Rect.unit (s := S4096x1024) (k0_off1 c 4294967294#32 64#32) S64x1024.size (k0_off1_inb c 5)) (fun _ => rfl)
      = rows oM (off true (c.val + 14) 1) (off_inb true (c.val + 14) ⟨1, by decide⟩) :=
  rows_congr _ (off1_m2_64 c) _ _ _
theorem rows1_m3_0_o (c : Dev nD) :
    oM.slice (Rect.unit (s := S4096x1024) (k0_off1 c 4294967293#32 0#32) S64x1024.size (k0_off1_inb c 6)) (fun _ => rfl)
      = rows oM (off true (c.val + 13) 0) (off_inb true (c.val + 13) ⟨0, by decide⟩) :=
  rows_congr _ (off1_m3_0 c) _ _ _
theorem rows1_m3_64_o (c : Dev nD) :
    oM.slice (Rect.unit (s := S4096x1024) (k0_off1 c 4294967293#32 64#32) S64x1024.size (k0_off1_inb c 7)) (fun _ => rfl)
      = rows oM (off true (c.val + 13) 1) (off_inb true (c.val + 13) ⟨1, by decide⟩) :=
  rows_congr _ (off1_m3_64 c) _ _ _
theorem rows1_m4_0_o (c : Dev nD) :
    oM.slice (Rect.unit (s := S4096x1024) (k0_off1 c 4294967292#32 0#32) S64x1024.size (k0_off1_inb c 8)) (fun _ => rfl)
      = rows oM (off true (c.val + 12) 0) (off_inb true (c.val + 12) ⟨0, by decide⟩) :=
  rows_congr _ (off1_m4_0 c) _ _ _
theorem rows1_m4_64_o (c : Dev nD) :
    oM.slice (Rect.unit (s := S4096x1024) (k0_off1 c 4294967292#32 64#32) S64x1024.size (k0_off1_inb c 9)) (fun _ => rfl)
      = rows oM (off true (c.val + 12) 1) (off_inb true (c.val + 12) ⟨1, by decide⟩) :=
  rows_congr _ (off1_m4_64 c) _ _ _
theorem rows1_m5_0_o (c : Dev nD) :
    oM.slice (Rect.unit (s := S4096x1024) (k0_off1 c 4294967291#32 0#32) S64x1024.size (k0_off1_inb c 10)) (fun _ => rfl)
      = rows oM (off true (c.val + 11) 0) (off_inb true (c.val + 11) ⟨0, by decide⟩) :=
  rows_congr _ (off1_m5_0 c) _ _ _
theorem rows1_m5_64_o (c : Dev nD) :
    oM.slice (Rect.unit (s := S4096x1024) (k0_off1 c 4294967291#32 64#32) S64x1024.size (k0_off1_inb c 11)) (fun _ => rfl)
      = rows oM (off true (c.val + 11) 1) (off_inb true (c.val + 11) ⟨1, by decide⟩) :=
  rows_congr _ (off1_m5_64 c) _ _ _
theorem rows1_m6_0_o (c : Dev nD) :
    oM.slice (Rect.unit (s := S4096x1024) (k0_off1 c 4294967290#32 0#32) S64x1024.size (k0_off1_inb c 12)) (fun _ => rfl)
      = rows oM (off true (c.val + 10) 0) (off_inb true (c.val + 10) ⟨0, by decide⟩) :=
  rows_congr _ (off1_m6_0 c) _ _ _
theorem rows1_m6_64_o (c : Dev nD) :
    oM.slice (Rect.unit (s := S4096x1024) (k0_off1 c 4294967290#32 64#32) S64x1024.size (k0_off1_inb c 13)) (fun _ => rfl)
      = rows oM (off true (c.val + 10) 1) (off_inb true (c.val + 10) ⟨1, by decide⟩) :=
  rows_congr _ (off1_m6_64 c) _ _ _
theorem rows1_m7_0_o (c : Dev nD) :
    oM.slice (Rect.unit (s := S4096x1024) (k0_off1 c 4294967289#32 0#32) S64x1024.size (k0_off1_inb c 14)) (fun _ => rfl)
      = rows oM (off true (c.val + 9) 0) (off_inb true (c.val + 9) ⟨0, by decide⟩) :=
  rows_congr _ (off1_m7_0 c) _ _ _
theorem rows1_m7_64_o (c : Dev nD) :
    oM.slice (Rect.unit (s := S4096x1024) (k0_off1 c 4294967289#32 64#32) S64x1024.size (k0_off1_inb c 15)) (fun _ => rfl)
      = rows oM (off true (c.val + 9) 1) (off_inb true (c.val + 9) ⟨1, by decide⟩) :=
  rows_congr _ (off1_m7_64 c) _ _ _
theorem rows1_m8_0_o (c : Dev nD) :
    oM.slice (Rect.unit (s := S4096x1024) (k0_off1 c 4294967288#32 0#32) S64x1024.size (k0_off1_inb c 16)) (fun _ => rfl)
      = rows oM (off true (c.val + 8) 0) (off_inb true (c.val + 8) ⟨0, by decide⟩) :=
  rows_congr _ (off1_m8_0 c) _ _ _
theorem rows1_m8_64_o (c : Dev nD) :
    oM.slice (Rect.unit (s := S4096x1024) (k0_off1 c 4294967288#32 64#32) S64x1024.size (k0_off1_inb c 17)) (fun _ => rfl)
      = rows oM (off true (c.val + 8) 1) (off_inb true (c.val + 8) ⟨1, by decide⟩) :=
  rows_congr _ (off1_m8_64 c) _ _ _
theorem rows1_m9_0_o (c : Dev nD) :
    oM.slice (Rect.unit (s := S4096x1024) (k0_off1 c 4294967287#32 0#32) S64x1024.size (k0_off1_inb c 18)) (fun _ => rfl)
      = rows oM (off true (c.val + 7) 0) (off_inb true (c.val + 7) ⟨0, by decide⟩) :=
  rows_congr _ (off1_m9_0 c) _ _ _
theorem rows1_m9_64_o (c : Dev nD) :
    oM.slice (Rect.unit (s := S4096x1024) (k0_off1 c 4294967287#32 64#32) S64x1024.size (k0_off1_inb c 19)) (fun _ => rfl)
      = rows oM (off true (c.val + 7) 1) (off_inb true (c.val + 7) ⟨1, by decide⟩) :=
  rows_congr _ (off1_m9_64 c) _ _ _
theorem rows1_m10_0_o (c : Dev nD) :
    oM.slice (Rect.unit (s := S4096x1024) (k0_off1 c 4294967286#32 0#32) S64x1024.size (k0_off1_inb c 20)) (fun _ => rfl)
      = rows oM (off true (c.val + 6) 0) (off_inb true (c.val + 6) ⟨0, by decide⟩) :=
  rows_congr _ (off1_m10_0 c) _ _ _
theorem rows1_m10_64_o (c : Dev nD) :
    oM.slice (Rect.unit (s := S4096x1024) (k0_off1 c 4294967286#32 64#32) S64x1024.size (k0_off1_inb c 21)) (fun _ => rfl)
      = rows oM (off true (c.val + 6) 1) (off_inb true (c.val + 6) ⟨1, by decide⟩) :=
  rows_congr _ (off1_m10_64 c) _ _ _
theorem rows1_m11_0_o (c : Dev nD) :
    oM.slice (Rect.unit (s := S4096x1024) (k0_off1 c 4294967285#32 0#32) S64x1024.size (k0_off1_inb c 22)) (fun _ => rfl)
      = rows oM (off true (c.val + 5) 0) (off_inb true (c.val + 5) ⟨0, by decide⟩) :=
  rows_congr _ (off1_m11_0 c) _ _ _
theorem rows1_m11_64_o (c : Dev nD) :
    oM.slice (Rect.unit (s := S4096x1024) (k0_off1 c 4294967285#32 64#32) S64x1024.size (k0_off1_inb c 23)) (fun _ => rfl)
      = rows oM (off true (c.val + 5) 1) (off_inb true (c.val + 5) ⟨1, by decide⟩) :=
  rows_congr _ (off1_m11_64 c) _ _ _
theorem rows1_m12_0_o (c : Dev nD) :
    oM.slice (Rect.unit (s := S4096x1024) (k0_off1 c 4294967284#32 0#32) S64x1024.size (k0_off1_inb c 24)) (fun _ => rfl)
      = rows oM (off true (c.val + 4) 0) (off_inb true (c.val + 4) ⟨0, by decide⟩) :=
  rows_congr _ (off1_m12_0 c) _ _ _
theorem rows1_m12_64_o (c : Dev nD) :
    oM.slice (Rect.unit (s := S4096x1024) (k0_off1 c 4294967284#32 64#32) S64x1024.size (k0_off1_inb c 25)) (fun _ => rfl)
      = rows oM (off true (c.val + 4) 1) (off_inb true (c.val + 4) ⟨1, by decide⟩) :=
  rows_congr _ (off1_m12_64 c) _ _ _
theorem rows1_m13_0_o (c : Dev nD) :
    oM.slice (Rect.unit (s := S4096x1024) (k0_off1 c 4294967283#32 0#32) S64x1024.size (k0_off1_inb c 26)) (fun _ => rfl)
      = rows oM (off true (c.val + 3) 0) (off_inb true (c.val + 3) ⟨0, by decide⟩) :=
  rows_congr _ (off1_m13_0 c) _ _ _
theorem rows1_m13_64_o (c : Dev nD) :
    oM.slice (Rect.unit (s := S4096x1024) (k0_off1 c 4294967283#32 64#32) S64x1024.size (k0_off1_inb c 27)) (fun _ => rfl)
      = rows oM (off true (c.val + 3) 1) (off_inb true (c.val + 3) ⟨1, by decide⟩) :=
  rows_congr _ (off1_m13_64 c) _ _ _
theorem rows1_m14_0_o (c : Dev nD) :
    oM.slice (Rect.unit (s := S4096x1024) (k0_off1 c 4294967282#32 0#32) S64x1024.size (k0_off1_inb c 28)) (fun _ => rfl)
      = rows oM (off true (c.val + 2) 0) (off_inb true (c.val + 2) ⟨0, by decide⟩) :=
  rows_congr _ (off1_m14_0 c) _ _ _
theorem rows1_m14_64_o (c : Dev nD) :
    oM.slice (Rect.unit (s := S4096x1024) (k0_off1 c 4294967282#32 64#32) S64x1024.size (k0_off1_inb c 29)) (fun _ => rfl)
      = rows oM (off true (c.val + 2) 1) (off_inb true (c.val + 2) ⟨1, by decide⟩) :=
  rows_congr _ (off1_m14_64 c) _ _ _
theorem rows2_0_0_o (c : Dev nD) :
    oM.slice (Rect.unit (s := S4096x1024) (k0_off2 c 0#32 0#32) S64x1024.size (k0_off2_inb c 0 0)) (fun _ => rfl)
      = rows oM (off false (c.val + 0) 0) (off_inb false (c.val + 0) ⟨0, by decide⟩) :=
  rows_congr _ (off2_0_0 c) _ _ _
theorem rows2_0_64_o (c : Dev nD) :
    oM.slice (Rect.unit (s := S4096x1024) (k0_off2 c 0#32 64#32) S64x1024.size (k0_off2_inb c 0 1)) (fun _ => rfl)
      = rows oM (off false (c.val + 0) 1) (off_inb false (c.val + 0) ⟨1, by decide⟩) :=
  rows_congr _ (off2_0_64 c) _ _ _
theorem rows2_1_0_x (c : Dev nD) :
    xM.slice (Rect.unit (s := S4096x1024) (k0_off2 c 1#32 0#32) S64x1024.size (k0_off2_inb c 1 0)) (fun _ => rfl)
      = rows xM (off false (c.val + 1) 0) (off_inb false (c.val + 1) ⟨0, by decide⟩) :=
  rows_congr _ (off2_1_0 c) _ _ _
theorem rows2_1_0_o (c : Dev nD) :
    oM.slice (Rect.unit (s := S4096x1024) (k0_off2 c 1#32 0#32) S64x1024.size (k0_off2_inb c 1 0)) (fun _ => rfl)
      = rows oM (off false (c.val + 1) 0) (off_inb false (c.val + 1) ⟨0, by decide⟩) :=
  rows_congr _ (off2_1_0 c) _ _ _
theorem rows2_1_64_x (c : Dev nD) :
    xM.slice (Rect.unit (s := S4096x1024) (k0_off2 c 1#32 64#32) S64x1024.size (k0_off2_inb c 1 1)) (fun _ => rfl)
      = rows xM (off false (c.val + 1) 1) (off_inb false (c.val + 1) ⟨1, by decide⟩) :=
  rows_congr _ (off2_1_64 c) _ _ _
theorem rows2_1_64_o (c : Dev nD) :
    oM.slice (Rect.unit (s := S4096x1024) (k0_off2 c 1#32 64#32) S64x1024.size (k0_off2_inb c 1 1)) (fun _ => rfl)
      = rows oM (off false (c.val + 1) 1) (off_inb false (c.val + 1) ⟨1, by decide⟩) :=
  rows_congr _ (off2_1_64 c) _ _ _
theorem rows2_2_0_o (c : Dev nD) :
    oM.slice (Rect.unit (s := S4096x1024) (k0_off2 c 2#32 0#32) S64x1024.size (k0_off2_inb c 2 0)) (fun _ => rfl)
      = rows oM (off false (c.val + 2) 0) (off_inb false (c.val + 2) ⟨0, by decide⟩) :=
  rows_congr _ (off2_2_0 c) _ _ _
theorem rows2_2_64_o (c : Dev nD) :
    oM.slice (Rect.unit (s := S4096x1024) (k0_off2 c 2#32 64#32) S64x1024.size (k0_off2_inb c 2 1)) (fun _ => rfl)
      = rows oM (off false (c.val + 2) 1) (off_inb false (c.val + 2) ⟨1, by decide⟩) :=
  rows_congr _ (off2_2_64 c) _ _ _
theorem rows2_3_0_o (c : Dev nD) :
    oM.slice (Rect.unit (s := S4096x1024) (k0_off2 c 3#32 0#32) S64x1024.size (k0_off2_inb c 3 0)) (fun _ => rfl)
      = rows oM (off false (c.val + 3) 0) (off_inb false (c.val + 3) ⟨0, by decide⟩) :=
  rows_congr _ (off2_3_0 c) _ _ _
theorem rows2_3_64_o (c : Dev nD) :
    oM.slice (Rect.unit (s := S4096x1024) (k0_off2 c 3#32 64#32) S64x1024.size (k0_off2_inb c 3 1)) (fun _ => rfl)
      = rows oM (off false (c.val + 3) 1) (off_inb false (c.val + 3) ⟨1, by decide⟩) :=
  rows_congr _ (off2_3_64 c) _ _ _
theorem rows2_4_0_o (c : Dev nD) :
    oM.slice (Rect.unit (s := S4096x1024) (k0_off2 c 4#32 0#32) S64x1024.size (k0_off2_inb c 4 0)) (fun _ => rfl)
      = rows oM (off false (c.val + 4) 0) (off_inb false (c.val + 4) ⟨0, by decide⟩) :=
  rows_congr _ (off2_4_0 c) _ _ _
theorem rows2_4_64_o (c : Dev nD) :
    oM.slice (Rect.unit (s := S4096x1024) (k0_off2 c 4#32 64#32) S64x1024.size (k0_off2_inb c 4 1)) (fun _ => rfl)
      = rows oM (off false (c.val + 4) 1) (off_inb false (c.val + 4) ⟨1, by decide⟩) :=
  rows_congr _ (off2_4_64 c) _ _ _
theorem rows2_5_0_o (c : Dev nD) :
    oM.slice (Rect.unit (s := S4096x1024) (k0_off2 c 5#32 0#32) S64x1024.size (k0_off2_inb c 5 0)) (fun _ => rfl)
      = rows oM (off false (c.val + 5) 0) (off_inb false (c.val + 5) ⟨0, by decide⟩) :=
  rows_congr _ (off2_5_0 c) _ _ _
theorem rows2_5_64_o (c : Dev nD) :
    oM.slice (Rect.unit (s := S4096x1024) (k0_off2 c 5#32 64#32) S64x1024.size (k0_off2_inb c 5 1)) (fun _ => rfl)
      = rows oM (off false (c.val + 5) 1) (off_inb false (c.val + 5) ⟨1, by decide⟩) :=
  rows_congr _ (off2_5_64 c) _ _ _
theorem rows2_6_0_o (c : Dev nD) :
    oM.slice (Rect.unit (s := S4096x1024) (k0_off2 c 6#32 0#32) S64x1024.size (k0_off2_inb c 6 0)) (fun _ => rfl)
      = rows oM (off false (c.val + 6) 0) (off_inb false (c.val + 6) ⟨0, by decide⟩) :=
  rows_congr _ (off2_6_0 c) _ _ _
theorem rows2_6_64_o (c : Dev nD) :
    oM.slice (Rect.unit (s := S4096x1024) (k0_off2 c 6#32 64#32) S64x1024.size (k0_off2_inb c 6 1)) (fun _ => rfl)
      = rows oM (off false (c.val + 6) 1) (off_inb false (c.val + 6) ⟨1, by decide⟩) :=
  rows_congr _ (off2_6_64 c) _ _ _
theorem rows2_7_0_o (c : Dev nD) :
    oM.slice (Rect.unit (s := S4096x1024) (k0_off2 c 7#32 0#32) S64x1024.size (k0_off2_inb c 7 0)) (fun _ => rfl)
      = rows oM (off false (c.val + 7) 0) (off_inb false (c.val + 7) ⟨0, by decide⟩) :=
  rows_congr _ (off2_7_0 c) _ _ _
theorem rows2_7_64_o (c : Dev nD) :
    oM.slice (Rect.unit (s := S4096x1024) (k0_off2 c 7#32 64#32) S64x1024.size (k0_off2_inb c 7 1)) (fun _ => rfl)
      = rows oM (off false (c.val + 7) 1) (off_inb false (c.val + 7) ⟨1, by decide⟩) :=
  rows_congr _ (off2_7_64 c) _ _ _
theorem rows2_8_0_o (c : Dev nD) :
    oM.slice (Rect.unit (s := S4096x1024) (k0_off2 c 8#32 0#32) S64x1024.size (k0_off2_inb c 8 0)) (fun _ => rfl)
      = rows oM (off false (c.val + 8) 0) (off_inb false (c.val + 8) ⟨0, by decide⟩) :=
  rows_congr _ (off2_8_0 c) _ _ _
theorem rows2_8_64_o (c : Dev nD) :
    oM.slice (Rect.unit (s := S4096x1024) (k0_off2 c 8#32 64#32) S64x1024.size (k0_off2_inb c 8 1)) (fun _ => rfl)
      = rows oM (off false (c.val + 8) 1) (off_inb false (c.val + 8) ⟨1, by decide⟩) :=
  rows_congr _ (off2_8_64 c) _ _ _
theorem rows2_9_0_o (c : Dev nD) :
    oM.slice (Rect.unit (s := S4096x1024) (k0_off2 c 9#32 0#32) S64x1024.size (k0_off2_inb c 9 0)) (fun _ => rfl)
      = rows oM (off false (c.val + 9) 0) (off_inb false (c.val + 9) ⟨0, by decide⟩) :=
  rows_congr _ (off2_9_0 c) _ _ _
theorem rows2_9_64_o (c : Dev nD) :
    oM.slice (Rect.unit (s := S4096x1024) (k0_off2 c 9#32 64#32) S64x1024.size (k0_off2_inb c 9 1)) (fun _ => rfl)
      = rows oM (off false (c.val + 9) 1) (off_inb false (c.val + 9) ⟨1, by decide⟩) :=
  rows_congr _ (off2_9_64 c) _ _ _
theorem rows2_10_0_o (c : Dev nD) :
    oM.slice (Rect.unit (s := S4096x1024) (k0_off2 c 10#32 0#32) S64x1024.size (k0_off2_inb c 10 0)) (fun _ => rfl)
      = rows oM (off false (c.val + 10) 0) (off_inb false (c.val + 10) ⟨0, by decide⟩) :=
  rows_congr _ (off2_10_0 c) _ _ _
theorem rows2_10_64_o (c : Dev nD) :
    oM.slice (Rect.unit (s := S4096x1024) (k0_off2 c 10#32 64#32) S64x1024.size (k0_off2_inb c 10 1)) (fun _ => rfl)
      = rows oM (off false (c.val + 10) 1) (off_inb false (c.val + 10) ⟨1, by decide⟩) :=
  rows_congr _ (off2_10_64 c) _ _ _
theorem rows2_11_0_o (c : Dev nD) :
    oM.slice (Rect.unit (s := S4096x1024) (k0_off2 c 11#32 0#32) S64x1024.size (k0_off2_inb c 11 0)) (fun _ => rfl)
      = rows oM (off false (c.val + 11) 0) (off_inb false (c.val + 11) ⟨0, by decide⟩) :=
  rows_congr _ (off2_11_0 c) _ _ _
theorem rows2_11_64_o (c : Dev nD) :
    oM.slice (Rect.unit (s := S4096x1024) (k0_off2 c 11#32 64#32) S64x1024.size (k0_off2_inb c 11 1)) (fun _ => rfl)
      = rows oM (off false (c.val + 11) 1) (off_inb false (c.val + 11) ⟨1, by decide⟩) :=
  rows_congr _ (off2_11_64 c) _ _ _
theorem rows2_12_0_o (c : Dev nD) :
    oM.slice (Rect.unit (s := S4096x1024) (k0_off2 c 12#32 0#32) S64x1024.size (k0_off2_inb c 12 0)) (fun _ => rfl)
      = rows oM (off false (c.val + 12) 0) (off_inb false (c.val + 12) ⟨0, by decide⟩) :=
  rows_congr _ (off2_12_0 c) _ _ _
theorem rows2_12_64_o (c : Dev nD) :
    oM.slice (Rect.unit (s := S4096x1024) (k0_off2 c 12#32 64#32) S64x1024.size (k0_off2_inb c 12 1)) (fun _ => rfl)
      = rows oM (off false (c.val + 12) 1) (off_inb false (c.val + 12) ⟨1, by decide⟩) :=
  rows_congr _ (off2_12_64 c) _ _ _
theorem rows2_13_0_o (c : Dev nD) :
    oM.slice (Rect.unit (s := S4096x1024) (k0_off2 c 13#32 0#32) S64x1024.size (k0_off2_inb c 13 0)) (fun _ => rfl)
      = rows oM (off false (c.val + 13) 0) (off_inb false (c.val + 13) ⟨0, by decide⟩) :=
  rows_congr _ (off2_13_0 c) _ _ _
theorem rows2_13_64_o (c : Dev nD) :
    oM.slice (Rect.unit (s := S4096x1024) (k0_off2 c 13#32 64#32) S64x1024.size (k0_off2_inb c 13 1)) (fun _ => rfl)
      = rows oM (off false (c.val + 13) 1) (off_inb false (c.val + 13) ⟨1, by decide⟩) :=
  rows_congr _ (off2_13_64 c) _ _ _
theorem rows2_14_0_o (c : Dev nD) :
    oM.slice (Rect.unit (s := S4096x1024) (k0_off2 c 14#32 0#32) S64x1024.size (k0_off2_inb c 14 0)) (fun _ => rfl)
      = rows oM (off false (c.val + 14) 0) (off_inb false (c.val + 14) ⟨0, by decide⟩) :=
  rows_congr _ (off2_14_0 c) _ _ _
theorem rows2_14_64_o (c : Dev nD) :
    oM.slice (Rect.unit (s := S4096x1024) (k0_off2 c 14#32 64#32) S64x1024.size (k0_off2_inb c 14 1)) (fun _ => rfl)
      = rows oM (off false (c.val + 14) 1) (off_inb false (c.val + 14) ⟨1, by decide⟩) :=
  rows_congr _ (off2_14_64 c) _ _ _
theorem rect3_m2_0 (c : Dev nD) :
    Rect.unit (s := S4096x1024) (k0_off3 c 4294967294#32 0#32) S64x1024.size (k0_off3_inb c 14 0)
      = Rect.unit (s := S4096x1024) (off true (c.val + 14) 0) S64x1024.size (off_inb true (c.val + 14) ⟨0, by decide⟩) :=
  Rect.unit_congr (off3_m2_0 c) _ _
theorem rect3_m2_64 (c : Dev nD) :
    Rect.unit (s := S4096x1024) (k0_off3 c 4294967294#32 64#32) S64x1024.size (k0_off3_inb c 14 1)
      = Rect.unit (s := S4096x1024) (off true (c.val + 14) 1) S64x1024.size (off_inb true (c.val + 14) ⟨1, by decide⟩) :=
  Rect.unit_congr (off3_m2_64 c) _ _
theorem rect3_m3_0 (c : Dev nD) :
    Rect.unit (s := S4096x1024) (k0_off3 c 4294967293#32 0#32) S64x1024.size (k0_off3_inb c 13 0)
      = Rect.unit (s := S4096x1024) (off true (c.val + 13) 0) S64x1024.size (off_inb true (c.val + 13) ⟨0, by decide⟩) :=
  Rect.unit_congr (off3_m3_0 c) _ _
theorem rect3_m3_64 (c : Dev nD) :
    Rect.unit (s := S4096x1024) (k0_off3 c 4294967293#32 64#32) S64x1024.size (k0_off3_inb c 13 1)
      = Rect.unit (s := S4096x1024) (off true (c.val + 13) 1) S64x1024.size (off_inb true (c.val + 13) ⟨1, by decide⟩) :=
  Rect.unit_congr (off3_m3_64 c) _ _
theorem rect3_m4_0 (c : Dev nD) :
    Rect.unit (s := S4096x1024) (k0_off3 c 4294967292#32 0#32) S64x1024.size (k0_off3_inb c 12 0)
      = Rect.unit (s := S4096x1024) (off true (c.val + 12) 0) S64x1024.size (off_inb true (c.val + 12) ⟨0, by decide⟩) :=
  Rect.unit_congr (off3_m4_0 c) _ _
theorem rect3_m4_64 (c : Dev nD) :
    Rect.unit (s := S4096x1024) (k0_off3 c 4294967292#32 64#32) S64x1024.size (k0_off3_inb c 12 1)
      = Rect.unit (s := S4096x1024) (off true (c.val + 12) 1) S64x1024.size (off_inb true (c.val + 12) ⟨1, by decide⟩) :=
  Rect.unit_congr (off3_m4_64 c) _ _
theorem rect3_m5_0 (c : Dev nD) :
    Rect.unit (s := S4096x1024) (k0_off3 c 4294967291#32 0#32) S64x1024.size (k0_off3_inb c 11 0)
      = Rect.unit (s := S4096x1024) (off true (c.val + 11) 0) S64x1024.size (off_inb true (c.val + 11) ⟨0, by decide⟩) :=
  Rect.unit_congr (off3_m5_0 c) _ _
theorem rect3_m5_64 (c : Dev nD) :
    Rect.unit (s := S4096x1024) (k0_off3 c 4294967291#32 64#32) S64x1024.size (k0_off3_inb c 11 1)
      = Rect.unit (s := S4096x1024) (off true (c.val + 11) 1) S64x1024.size (off_inb true (c.val + 11) ⟨1, by decide⟩) :=
  Rect.unit_congr (off3_m5_64 c) _ _
theorem rect3_m6_0 (c : Dev nD) :
    Rect.unit (s := S4096x1024) (k0_off3 c 4294967290#32 0#32) S64x1024.size (k0_off3_inb c 10 0)
      = Rect.unit (s := S4096x1024) (off true (c.val + 10) 0) S64x1024.size (off_inb true (c.val + 10) ⟨0, by decide⟩) :=
  Rect.unit_congr (off3_m6_0 c) _ _
theorem rect3_m6_64 (c : Dev nD) :
    Rect.unit (s := S4096x1024) (k0_off3 c 4294967290#32 64#32) S64x1024.size (k0_off3_inb c 10 1)
      = Rect.unit (s := S4096x1024) (off true (c.val + 10) 1) S64x1024.size (off_inb true (c.val + 10) ⟨1, by decide⟩) :=
  Rect.unit_congr (off3_m6_64 c) _ _
theorem rect3_m7_0 (c : Dev nD) :
    Rect.unit (s := S4096x1024) (k0_off3 c 4294967289#32 0#32) S64x1024.size (k0_off3_inb c 9 0)
      = Rect.unit (s := S4096x1024) (off true (c.val + 9) 0) S64x1024.size (off_inb true (c.val + 9) ⟨0, by decide⟩) :=
  Rect.unit_congr (off3_m7_0 c) _ _
theorem rect3_m7_64 (c : Dev nD) :
    Rect.unit (s := S4096x1024) (k0_off3 c 4294967289#32 64#32) S64x1024.size (k0_off3_inb c 9 1)
      = Rect.unit (s := S4096x1024) (off true (c.val + 9) 1) S64x1024.size (off_inb true (c.val + 9) ⟨1, by decide⟩) :=
  Rect.unit_congr (off3_m7_64 c) _ _
theorem rect3_m8_0 (c : Dev nD) :
    Rect.unit (s := S4096x1024) (k0_off3 c 4294967288#32 0#32) S64x1024.size (k0_off3_inb c 8 0)
      = Rect.unit (s := S4096x1024) (off true (c.val + 8) 0) S64x1024.size (off_inb true (c.val + 8) ⟨0, by decide⟩) :=
  Rect.unit_congr (off3_m8_0 c) _ _
theorem rect3_m8_64 (c : Dev nD) :
    Rect.unit (s := S4096x1024) (k0_off3 c 4294967288#32 64#32) S64x1024.size (k0_off3_inb c 8 1)
      = Rect.unit (s := S4096x1024) (off true (c.val + 8) 1) S64x1024.size (off_inb true (c.val + 8) ⟨1, by decide⟩) :=
  Rect.unit_congr (off3_m8_64 c) _ _
theorem rect3_m9_0 (c : Dev nD) :
    Rect.unit (s := S4096x1024) (k0_off3 c 4294967287#32 0#32) S64x1024.size (k0_off3_inb c 7 0)
      = Rect.unit (s := S4096x1024) (off true (c.val + 7) 0) S64x1024.size (off_inb true (c.val + 7) ⟨0, by decide⟩) :=
  Rect.unit_congr (off3_m9_0 c) _ _
theorem rect3_m9_64 (c : Dev nD) :
    Rect.unit (s := S4096x1024) (k0_off3 c 4294967287#32 64#32) S64x1024.size (k0_off3_inb c 7 1)
      = Rect.unit (s := S4096x1024) (off true (c.val + 7) 1) S64x1024.size (off_inb true (c.val + 7) ⟨1, by decide⟩) :=
  Rect.unit_congr (off3_m9_64 c) _ _
theorem rect3_m10_0 (c : Dev nD) :
    Rect.unit (s := S4096x1024) (k0_off3 c 4294967286#32 0#32) S64x1024.size (k0_off3_inb c 6 0)
      = Rect.unit (s := S4096x1024) (off true (c.val + 6) 0) S64x1024.size (off_inb true (c.val + 6) ⟨0, by decide⟩) :=
  Rect.unit_congr (off3_m10_0 c) _ _
theorem rect3_m10_64 (c : Dev nD) :
    Rect.unit (s := S4096x1024) (k0_off3 c 4294967286#32 64#32) S64x1024.size (k0_off3_inb c 6 1)
      = Rect.unit (s := S4096x1024) (off true (c.val + 6) 1) S64x1024.size (off_inb true (c.val + 6) ⟨1, by decide⟩) :=
  Rect.unit_congr (off3_m10_64 c) _ _
theorem rect3_m11_0 (c : Dev nD) :
    Rect.unit (s := S4096x1024) (k0_off3 c 4294967285#32 0#32) S64x1024.size (k0_off3_inb c 5 0)
      = Rect.unit (s := S4096x1024) (off true (c.val + 5) 0) S64x1024.size (off_inb true (c.val + 5) ⟨0, by decide⟩) :=
  Rect.unit_congr (off3_m11_0 c) _ _
theorem rect3_m11_64 (c : Dev nD) :
    Rect.unit (s := S4096x1024) (k0_off3 c 4294967285#32 64#32) S64x1024.size (k0_off3_inb c 5 1)
      = Rect.unit (s := S4096x1024) (off true (c.val + 5) 1) S64x1024.size (off_inb true (c.val + 5) ⟨1, by decide⟩) :=
  Rect.unit_congr (off3_m11_64 c) _ _
theorem rect3_m12_0 (c : Dev nD) :
    Rect.unit (s := S4096x1024) (k0_off3 c 4294967284#32 0#32) S64x1024.size (k0_off3_inb c 4 0)
      = Rect.unit (s := S4096x1024) (off true (c.val + 4) 0) S64x1024.size (off_inb true (c.val + 4) ⟨0, by decide⟩) :=
  Rect.unit_congr (off3_m12_0 c) _ _
theorem rect3_m12_64 (c : Dev nD) :
    Rect.unit (s := S4096x1024) (k0_off3 c 4294967284#32 64#32) S64x1024.size (k0_off3_inb c 4 1)
      = Rect.unit (s := S4096x1024) (off true (c.val + 4) 1) S64x1024.size (off_inb true (c.val + 4) ⟨1, by decide⟩) :=
  Rect.unit_congr (off3_m12_64 c) _ _
theorem rect3_m13_0 (c : Dev nD) :
    Rect.unit (s := S4096x1024) (k0_off3 c 4294967283#32 0#32) S64x1024.size (k0_off3_inb c 3 0)
      = Rect.unit (s := S4096x1024) (off true (c.val + 3) 0) S64x1024.size (off_inb true (c.val + 3) ⟨0, by decide⟩) :=
  Rect.unit_congr (off3_m13_0 c) _ _
theorem rect3_m13_64 (c : Dev nD) :
    Rect.unit (s := S4096x1024) (k0_off3 c 4294967283#32 64#32) S64x1024.size (k0_off3_inb c 3 1)
      = Rect.unit (s := S4096x1024) (off true (c.val + 3) 1) S64x1024.size (off_inb true (c.val + 3) ⟨1, by decide⟩) :=
  Rect.unit_congr (off3_m13_64 c) _ _
theorem rect3_m14_0 (c : Dev nD) :
    Rect.unit (s := S4096x1024) (k0_off3 c 4294967282#32 0#32) S64x1024.size (k0_off3_inb c 2 0)
      = Rect.unit (s := S4096x1024) (off true (c.val + 2) 0) S64x1024.size (off_inb true (c.val + 2) ⟨0, by decide⟩) :=
  Rect.unit_congr (off3_m14_0 c) _ _
theorem rect3_m14_64 (c : Dev nD) :
    Rect.unit (s := S4096x1024) (k0_off3 c 4294967282#32 64#32) S64x1024.size (k0_off3_inb c 2 1)
      = Rect.unit (s := S4096x1024) (off true (c.val + 2) 1) S64x1024.size (off_inb true (c.val + 2) ⟨1, by decide⟩) :=
  Rect.unit_congr (off3_m14_64 c) _ _
theorem rect3_m15_0 (c : Dev nD) :
    Rect.unit (s := S4096x1024) (k0_off3 c 4294967281#32 0#32) S64x1024.size (k0_off3_inb c 1 0)
      = Rect.unit (s := S4096x1024) (off true (c.val + 1) 0) S64x1024.size (off_inb true (c.val + 1) ⟨0, by decide⟩) :=
  Rect.unit_congr (off3_m15_0 c) _ _
theorem rect3_m15_64 (c : Dev nD) :
    Rect.unit (s := S4096x1024) (k0_off3 c 4294967281#32 64#32) S64x1024.size (k0_off3_inb c 1 1)
      = Rect.unit (s := S4096x1024) (off true (c.val + 1) 1) S64x1024.size (off_inb true (c.val + 1) ⟨1, by decide⟩) :=
  Rect.unit_congr (off3_m15_64 c) _ _
theorem rect3_m16_0 (c : Dev nD) :
    Rect.unit (s := S4096x1024) (k0_off3 c 4294967280#32 0#32) S64x1024.size (k0_off3_inb c 0 0)
      = Rect.unit (s := S4096x1024) (off true (c.val + 0) 0) S64x1024.size (off_inb true (c.val + 0) ⟨0, by decide⟩) :=
  Rect.unit_congr (off3_m16_0 c) _ _
theorem rect3_m16_64 (c : Dev nD) :
    Rect.unit (s := S4096x1024) (k0_off3 c 4294967280#32 64#32) S64x1024.size (k0_off3_inb c 0 1)
      = Rect.unit (s := S4096x1024) (off true (c.val + 0) 1) S64x1024.size (off_inb true (c.val + 0) ⟨1, by decide⟩) :=
  Rect.unit_congr (off3_m16_64 c) _ _
theorem rect4_2_0 (c : Dev nD) :
    Rect.unit (s := S4096x1024) (k0_off4 c 2#32 0#32) S64x1024.size (k0_off4_inb c 0 0)
      = Rect.unit (s := S4096x1024) (off false (c.val + 2) 0) S64x1024.size (off_inb false (c.val + 2) ⟨0, by decide⟩) :=
  Rect.unit_congr (off4_2_0 c) _ _
theorem rect4_2_64 (c : Dev nD) :
    Rect.unit (s := S4096x1024) (k0_off4 c 2#32 64#32) S64x1024.size (k0_off4_inb c 0 1)
      = Rect.unit (s := S4096x1024) (off false (c.val + 2) 1) S64x1024.size (off_inb false (c.val + 2) ⟨1, by decide⟩) :=
  Rect.unit_congr (off4_2_64 c) _ _
theorem rect4_3_0 (c : Dev nD) :
    Rect.unit (s := S4096x1024) (k0_off4 c 3#32 0#32) S64x1024.size (k0_off4_inb c 1 0)
      = Rect.unit (s := S4096x1024) (off false (c.val + 3) 0) S64x1024.size (off_inb false (c.val + 3) ⟨0, by decide⟩) :=
  Rect.unit_congr (off4_3_0 c) _ _
theorem rect4_3_64 (c : Dev nD) :
    Rect.unit (s := S4096x1024) (k0_off4 c 3#32 64#32) S64x1024.size (k0_off4_inb c 1 1)
      = Rect.unit (s := S4096x1024) (off false (c.val + 3) 1) S64x1024.size (off_inb false (c.val + 3) ⟨1, by decide⟩) :=
  Rect.unit_congr (off4_3_64 c) _ _
theorem rect4_4_0 (c : Dev nD) :
    Rect.unit (s := S4096x1024) (k0_off4 c 4#32 0#32) S64x1024.size (k0_off4_inb c 2 0)
      = Rect.unit (s := S4096x1024) (off false (c.val + 4) 0) S64x1024.size (off_inb false (c.val + 4) ⟨0, by decide⟩) :=
  Rect.unit_congr (off4_4_0 c) _ _
theorem rect4_4_64 (c : Dev nD) :
    Rect.unit (s := S4096x1024) (k0_off4 c 4#32 64#32) S64x1024.size (k0_off4_inb c 2 1)
      = Rect.unit (s := S4096x1024) (off false (c.val + 4) 1) S64x1024.size (off_inb false (c.val + 4) ⟨1, by decide⟩) :=
  Rect.unit_congr (off4_4_64 c) _ _
theorem rect4_5_0 (c : Dev nD) :
    Rect.unit (s := S4096x1024) (k0_off4 c 5#32 0#32) S64x1024.size (k0_off4_inb c 3 0)
      = Rect.unit (s := S4096x1024) (off false (c.val + 5) 0) S64x1024.size (off_inb false (c.val + 5) ⟨0, by decide⟩) :=
  Rect.unit_congr (off4_5_0 c) _ _
theorem rect4_5_64 (c : Dev nD) :
    Rect.unit (s := S4096x1024) (k0_off4 c 5#32 64#32) S64x1024.size (k0_off4_inb c 3 1)
      = Rect.unit (s := S4096x1024) (off false (c.val + 5) 1) S64x1024.size (off_inb false (c.val + 5) ⟨1, by decide⟩) :=
  Rect.unit_congr (off4_5_64 c) _ _
theorem rect4_6_0 (c : Dev nD) :
    Rect.unit (s := S4096x1024) (k0_off4 c 6#32 0#32) S64x1024.size (k0_off4_inb c 4 0)
      = Rect.unit (s := S4096x1024) (off false (c.val + 6) 0) S64x1024.size (off_inb false (c.val + 6) ⟨0, by decide⟩) :=
  Rect.unit_congr (off4_6_0 c) _ _
theorem rect4_6_64 (c : Dev nD) :
    Rect.unit (s := S4096x1024) (k0_off4 c 6#32 64#32) S64x1024.size (k0_off4_inb c 4 1)
      = Rect.unit (s := S4096x1024) (off false (c.val + 6) 1) S64x1024.size (off_inb false (c.val + 6) ⟨1, by decide⟩) :=
  Rect.unit_congr (off4_6_64 c) _ _
theorem rect4_7_0 (c : Dev nD) :
    Rect.unit (s := S4096x1024) (k0_off4 c 7#32 0#32) S64x1024.size (k0_off4_inb c 5 0)
      = Rect.unit (s := S4096x1024) (off false (c.val + 7) 0) S64x1024.size (off_inb false (c.val + 7) ⟨0, by decide⟩) :=
  Rect.unit_congr (off4_7_0 c) _ _
theorem rect4_7_64 (c : Dev nD) :
    Rect.unit (s := S4096x1024) (k0_off4 c 7#32 64#32) S64x1024.size (k0_off4_inb c 5 1)
      = Rect.unit (s := S4096x1024) (off false (c.val + 7) 1) S64x1024.size (off_inb false (c.val + 7) ⟨1, by decide⟩) :=
  Rect.unit_congr (off4_7_64 c) _ _
theorem rect4_8_0 (c : Dev nD) :
    Rect.unit (s := S4096x1024) (k0_off4 c 8#32 0#32) S64x1024.size (k0_off4_inb c 6 0)
      = Rect.unit (s := S4096x1024) (off false (c.val + 8) 0) S64x1024.size (off_inb false (c.val + 8) ⟨0, by decide⟩) :=
  Rect.unit_congr (off4_8_0 c) _ _
theorem rect4_8_64 (c : Dev nD) :
    Rect.unit (s := S4096x1024) (k0_off4 c 8#32 64#32) S64x1024.size (k0_off4_inb c 6 1)
      = Rect.unit (s := S4096x1024) (off false (c.val + 8) 1) S64x1024.size (off_inb false (c.val + 8) ⟨1, by decide⟩) :=
  Rect.unit_congr (off4_8_64 c) _ _
theorem rect4_9_0 (c : Dev nD) :
    Rect.unit (s := S4096x1024) (k0_off4 c 9#32 0#32) S64x1024.size (k0_off4_inb c 7 0)
      = Rect.unit (s := S4096x1024) (off false (c.val + 9) 0) S64x1024.size (off_inb false (c.val + 9) ⟨0, by decide⟩) :=
  Rect.unit_congr (off4_9_0 c) _ _
theorem rect4_9_64 (c : Dev nD) :
    Rect.unit (s := S4096x1024) (k0_off4 c 9#32 64#32) S64x1024.size (k0_off4_inb c 7 1)
      = Rect.unit (s := S4096x1024) (off false (c.val + 9) 1) S64x1024.size (off_inb false (c.val + 9) ⟨1, by decide⟩) :=
  Rect.unit_congr (off4_9_64 c) _ _
theorem rect4_10_0 (c : Dev nD) :
    Rect.unit (s := S4096x1024) (k0_off4 c 10#32 0#32) S64x1024.size (k0_off4_inb c 8 0)
      = Rect.unit (s := S4096x1024) (off false (c.val + 10) 0) S64x1024.size (off_inb false (c.val + 10) ⟨0, by decide⟩) :=
  Rect.unit_congr (off4_10_0 c) _ _
theorem rect4_10_64 (c : Dev nD) :
    Rect.unit (s := S4096x1024) (k0_off4 c 10#32 64#32) S64x1024.size (k0_off4_inb c 8 1)
      = Rect.unit (s := S4096x1024) (off false (c.val + 10) 1) S64x1024.size (off_inb false (c.val + 10) ⟨1, by decide⟩) :=
  Rect.unit_congr (off4_10_64 c) _ _
theorem rect4_11_0 (c : Dev nD) :
    Rect.unit (s := S4096x1024) (k0_off4 c 11#32 0#32) S64x1024.size (k0_off4_inb c 9 0)
      = Rect.unit (s := S4096x1024) (off false (c.val + 11) 0) S64x1024.size (off_inb false (c.val + 11) ⟨0, by decide⟩) :=
  Rect.unit_congr (off4_11_0 c) _ _
theorem rect4_11_64 (c : Dev nD) :
    Rect.unit (s := S4096x1024) (k0_off4 c 11#32 64#32) S64x1024.size (k0_off4_inb c 9 1)
      = Rect.unit (s := S4096x1024) (off false (c.val + 11) 1) S64x1024.size (off_inb false (c.val + 11) ⟨1, by decide⟩) :=
  Rect.unit_congr (off4_11_64 c) _ _
theorem rect4_12_0 (c : Dev nD) :
    Rect.unit (s := S4096x1024) (k0_off4 c 12#32 0#32) S64x1024.size (k0_off4_inb c 10 0)
      = Rect.unit (s := S4096x1024) (off false (c.val + 12) 0) S64x1024.size (off_inb false (c.val + 12) ⟨0, by decide⟩) :=
  Rect.unit_congr (off4_12_0 c) _ _
theorem rect4_12_64 (c : Dev nD) :
    Rect.unit (s := S4096x1024) (k0_off4 c 12#32 64#32) S64x1024.size (k0_off4_inb c 10 1)
      = Rect.unit (s := S4096x1024) (off false (c.val + 12) 1) S64x1024.size (off_inb false (c.val + 12) ⟨1, by decide⟩) :=
  Rect.unit_congr (off4_12_64 c) _ _
theorem rect4_13_0 (c : Dev nD) :
    Rect.unit (s := S4096x1024) (k0_off4 c 13#32 0#32) S64x1024.size (k0_off4_inb c 11 0)
      = Rect.unit (s := S4096x1024) (off false (c.val + 13) 0) S64x1024.size (off_inb false (c.val + 13) ⟨0, by decide⟩) :=
  Rect.unit_congr (off4_13_0 c) _ _
theorem rect4_13_64 (c : Dev nD) :
    Rect.unit (s := S4096x1024) (k0_off4 c 13#32 64#32) S64x1024.size (k0_off4_inb c 11 1)
      = Rect.unit (s := S4096x1024) (off false (c.val + 13) 1) S64x1024.size (off_inb false (c.val + 13) ⟨1, by decide⟩) :=
  Rect.unit_congr (off4_13_64 c) _ _
theorem rect4_14_0 (c : Dev nD) :
    Rect.unit (s := S4096x1024) (k0_off4 c 14#32 0#32) S64x1024.size (k0_off4_inb c 12 0)
      = Rect.unit (s := S4096x1024) (off false (c.val + 14) 0) S64x1024.size (off_inb false (c.val + 14) ⟨0, by decide⟩) :=
  Rect.unit_congr (off4_14_0 c) _ _
theorem rect4_14_64 (c : Dev nD) :
    Rect.unit (s := S4096x1024) (k0_off4 c 14#32 64#32) S64x1024.size (k0_off4_inb c 12 1)
      = Rect.unit (s := S4096x1024) (off false (c.val + 14) 1) S64x1024.size (off_inb false (c.val + 14) ⟨1, by decide⟩) :=
  Rect.unit_congr (off4_14_64 c) _ _
theorem rect4_15_0 (c : Dev nD) :
    Rect.unit (s := S4096x1024) (k0_off4 c 15#32 0#32) S64x1024.size (k0_off4_inb c 13 0)
      = Rect.unit (s := S4096x1024) (off false (c.val + 15) 0) S64x1024.size (off_inb false (c.val + 15) ⟨0, by decide⟩) :=
  Rect.unit_congr (off4_15_0 c) _ _
theorem rect4_15_64 (c : Dev nD) :
    Rect.unit (s := S4096x1024) (k0_off4 c 15#32 64#32) S64x1024.size (k0_off4_inb c 13 1)
      = Rect.unit (s := S4096x1024) (off false (c.val + 15) 1) S64x1024.size (off_inb false (c.val + 15) ⟨1, by decide⟩) :=
  Rect.unit_congr (off4_15_64 c) _ _
theorem rect4_16_0 (c : Dev nD) :
    Rect.unit (s := S4096x1024) (k0_off4 c 16#32 0#32) S64x1024.size (k0_off4_inb c 14 0)
      = Rect.unit (s := S4096x1024) (off false (c.val + 0) 0) S64x1024.size (off_inb false (c.val + 0) ⟨0, by decide⟩) :=
  Rect.unit_congr (off4_16_0 c) _ _
theorem rect4_16_64 (c : Dev nD) :
    Rect.unit (s := S4096x1024) (k0_off4 c 16#32 64#32) S64x1024.size (k0_off4_inb c 14 1)
      = Rect.unit (s := S4096x1024) (off false (c.val + 0) 1) S64x1024.size (off_inb false (c.val + 0) ⟨1, by decide⟩) :=
  Rect.unit_congr (off4_16_64 c) _ _

attribute [sl_canon]
  rows1_0_0_o rows1_0_64_o rows1_m1_0_x rows1_m1_0_o rows1_m1_64_x rows1_m1_64_o rows1_m2_0_o rows1_m2_64_o
  rows1_m3_0_o rows1_m3_64_o rows1_m4_0_o rows1_m4_64_o rows1_m5_0_o rows1_m5_64_o rows1_m6_0_o rows1_m6_64_o
  rows1_m7_0_o rows1_m7_64_o rows1_m8_0_o rows1_m8_64_o rows1_m9_0_o rows1_m9_64_o rows1_m10_0_o
  rows1_m10_64_o rows1_m11_0_o rows1_m11_64_o rows1_m12_0_o rows1_m12_64_o rows1_m13_0_o rows1_m13_64_o
  rows1_m14_0_o rows1_m14_64_o rows2_0_0_o rows2_0_64_o rows2_1_0_x rows2_1_0_o rows2_1_64_x rows2_1_64_o
  rows2_2_0_o rows2_2_64_o rows2_3_0_o rows2_3_64_o rows2_4_0_o rows2_4_64_o rows2_5_0_o rows2_5_64_o
  rows2_6_0_o rows2_6_64_o rows2_7_0_o rows2_7_64_o rows2_8_0_o rows2_8_64_o rows2_9_0_o rows2_9_64_o
  rows2_10_0_o rows2_10_64_o rows2_11_0_o rows2_11_64_o rows2_12_0_o rows2_12_64_o rows2_13_0_o rows2_13_64_o
  rows2_14_0_o rows2_14_64_o

/-- rewrites the rectangle of every load of 64 rows of the staged input to its closed offsets, and nothing else -/
macro "rect_eqs" : tactic => `(tactic| simp (config := { beta := false, eta := false, zeta := false, zetaDelta := false, proj := false, decide := false, arith := false, dsimp := false, ground := false, unfoldPartialApp := false, etaStruct := .none, iota := false, failIfUnchanged := false }) only [
    rect3_m2_0, rect3_m2_64, rect3_m3_0, rect3_m3_64, rect3_m4_0, rect3_m4_64, rect3_m5_0, rect3_m5_64,
    rect3_m6_0, rect3_m6_64, rect3_m7_0, rect3_m7_64, rect3_m8_0, rect3_m8_64, rect3_m9_0, rect3_m9_64,
    rect3_m10_0, rect3_m10_64, rect3_m11_0, rect3_m11_64, rect3_m12_0, rect3_m12_64, rect3_m13_0,
    rect3_m13_64, rect3_m14_0, rect3_m14_64, rect3_m15_0, rect3_m15_64, rect3_m16_0, rect3_m16_64, rect4_2_0,
    rect4_2_64, rect4_3_0, rect4_3_64, rect4_4_0, rect4_4_64, rect4_5_0, rect4_5_64, rect4_6_0, rect4_6_64,
    rect4_7_0, rect4_7_64, rect4_8_0, rect4_8_64, rect4_9_0, rect4_9_64, rect4_10_0, rect4_10_64, rect4_11_0,
    rect4_11_64, rect4_12_0, rect4_12_64, rect4_13_0, rect4_13_64, rect4_14_0, rect4_14_64, rect4_15_0,
    rect4_15_64, rect4_16_0, rect4_16_64])

/-! ## The two accesses of 128 rows: the two halves of the device's own chunk -/

theorem off5_eq (c : Dev nD) : k0_off5 c = off true c.val 0 :=
  (k0_off5_eq c).trans (by have := c.isLt; unfold off; rw [Nat.mod_eq_of_lt (show c.val < 16 from this)]; rfl)
theorem off6_eq (c : Dev nD) : k0_off6 c = off false c.val 0 :=
  (k0_off6_eq c).trans (by have := c.isLt; unfold off; rw [Nat.mod_eq_of_lt (show c.val < 16 from this)]; rfl)
theorem rect5_eq (c : Dev nD) :
    Rect.unit (s := S4096x1024) (k0_off5 c) S128x1024.size (k0_off5_inb c)
      = Rect.unit (s := S4096x1024) (off true c.val 0) S128x1024.size (off_inb128 true c.val) :=
  Rect.unit_congr (off5_eq c) _ _
theorem rect6_eq (c : Dev nD) :
    Rect.unit (s := S4096x1024) (k0_off6 c) S128x1024.size (k0_off6_inb c)
      = Rect.unit (s := S4096x1024) (off false c.val 0) S128x1024.size (off_inb128 false c.val) :=
  Rect.unit_congr (off6_eq c) _ _

end Cert.Kernel.RSAG

end
-- ==== Proof.Bits.BodyLib.lean ====
import proofs.«901013_g7700000000001014_dist_rs_then_ag_i_m4096_n1024_v7x_i16_f32_1_alg».proof.Proof.Bits.Dats

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-- one conjunct out of a list-indexed separating conjunction -/
theorem bigSepL_elim_mem {I : Type} [DecidableEq I] (l : List I) (Φ : I → sProp 𝕄) (i : I) (h : i ∈ l) : bigSepL l Φ ⊢ Φ i := by
  induction l with
  | nil => cases h
  | cons j l' ih =>
    rw [bigSepL_cons]
    by_cases hij : i = j
    · subst hij; show iprop(Φ i ∗ bigSepL l' Φ) ⊢ Φ i; iintro ⟨H, -⟩; iexact H
    · show iprop(Φ j ∗ bigSepL l' Φ) ⊢ Φ i; iintro ⟨-, H⟩; iapply (ih (List.mem_of_ne_of_mem hij h)); iexact H

instance bigSepL_persistent {I : Type} (l : List I) (Φ : I → sProp 𝕄) [∀ i, BI.Persistent (Φ i)] : BI.Persistent (bigSepL l Φ) := by
  induction l with
  | nil => rw [bigSepL_nil]; show BI.Persistent (iprop(emp) : sProp 𝕄); infer_instance
  | cons j l' ih => rw [bigSepL_cons]; show BI.Persistent iprop(Φ j ∗ bigSepL l' Φ); infer_instance

theorem owns_elim {c : Thread nD τ} {sp : Space} {sh : Shape} {e : EltTy} (mm : Memref sig c.2.kind sp sh e) (q : PosShare TreeShare) (V : sh.Idx → Elt F e) :
    (owns (Ix := Unit) (Name := ℕ) (U := UU) (Lvl := ℕ) c mm q V : sProp 𝕄)
      ⊢ iprop(∃ f, ⌜View.read (Elt F) mm.view f = V⌝ ∗ View.loc c mm.view ↦[mm.view.set]{q} f) := BI.Entails.refl _

theorem bigSepL_elim_idx {I : Type} (l : List I) (Φ : I → sProp 𝕄) (i : ℕ) (h : i < l.length) : bigSepL l Φ ⊢ Φ (l[i]'h) := by
  induction l generalizing i with
  | nil => exact absurd h (Nat.not_lt_zero _)
  | cons j l' ih =>
    rw [bigSepL_cons]
    cases i with
    | zero => show iprop(Φ j ∗ bigSepL l' Φ) ⊢ Φ j; iintro ⟨H, -⟩; iexact H
    | succ i' => show iprop(Φ j ∗ bigSepL l' Φ) ⊢ Φ (l'[i']'(Nat.lt_of_succ_lt_succ h)); iintro ⟨-, H⟩; iapply (ih i' (Nat.lt_of_succ_lt_succ h)); iexact H

theorem owes_congr {c : Thread nD τ} {O O' : CellTallies nD τ sig Unit} {W : Waits sig Unit} (h : O = O') :
    (owes c O W : sProp 𝕄) ⊢ owes c O' W := by subst h; exact BI.Entails.refl _

end Cert.Kernel.RSAG

end
-- ==== Proof.Bits.Steps.lean ====
import proofs.«901013_g7700000000001014_dist_rs_then_ag_i_m4096_n1024_v7x_i16_f32_1_alg».proof.Proof.Bits.Tables
import Idealize.ShloMosaic.Lib.Pipeline.Value
import Idealize.ShloMosaic.Lib.ValueLayout

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## A remote copy of 64 rows

The issuing device hands in its source rows, the destination rows on the other device (lent to it at the barrier), and the two
duty tokens: the read-out returns the source with the send semaphore's credit, the landing hands the destination's owner the
rows rewritten, which read as what was sent. -/

/-- the source held as `owns` at the value `V` -/
theorem send_owns {c c' : Dev nD} {src : Memref sig .tc .vmem S64x1024 .f32} {dst : Memref sig .tc .vmem S64x1024 .f32}
    {hsc : (dst : Memref sig (Dev.tc c' : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α}
    (X : Dev nD → S4096x1024.Idx → Elt F .f32) (qs : PosShare TreeShare) (V : S64x1024.Idx → Elt F .f32) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = owns (c : Thread nD τ) src qs V)
    (hp₂ : (Rd (F := F) X).payload (dcell c' sem) 0 false = owns (c' : Thread nD τ) dst fullShare V)
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ owns (c : Thread nD τ) src qs V
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  unfold owns
  iintro ⟨Hg₁, Hg₂, ⟨%fs, %hfs, Hsrc⟩, ⟨%fd, Hdst⟩, HL, Ht₁, Hr₁, Ht₂, Hr₂⟩
  subst hfs
  iapply (Rounds.wp_send_pointsTo 𝒱₀ ER (Rd (F := F) X) (c : Thread nD τ) none (κ₁ := κ₁) (κ₂ := κ₂)
    (r₁ := r₁) (r₂ := 0) (d₁ := false) (d₂ := false) (q := qs) (fs := fs) (fd := fd)
    hd₁ hd₂ () () N hN hk₁ hk₂ O hO (W := W)
    (by rw [hp₁]; exact owns_intro _ _ _ _)
    (by rw [hp₂]; exact (owns_intro _ _ _ _).trans (by rw [View.read_write_univ]))
    hr)
  isplitl [Hg₁]; · iexact Hg₁
  isplitl [Hg₂]; · iexact Hg₂
  isplitl [Hsrc]; · iexact Hsrc
  isplitl [Hdst]; · iexact Hdst
  isplitl [HL]; · iexact HL
  isplitl [Ht₁]; · iexact Ht₁
  isplitl [Hr₁]; · iexact Hr₁
  isplitl [Ht₂]; · iexact Ht₂
  iexact Hr₂

/-- the source held as a plain points-to at the contents `fs`: what lands reads as `fs` read through the source window -/
theorem send_pts {c c' : Dev nD} {src : Memref sig .tc .vmem S64x1024 .f32} {dst : Memref sig .tc .vmem S64x1024 .f32}
    {hsc : (dst : Memref sig (Dev.tc c' : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α}
    (X : Dev nD → S4096x1024.Idx → Elt F .f32) (qs : PosShare TreeShare)
    (fs : Buf (Elt F) (src.view.loc (c : Thread nD τ))) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = iprop(src.view.loc (c : Thread nD τ) ↦[src.view.set]{qs} fs))
    (hp₂ : (Rd (F := F) X).payload (dcell c' sem) 0 false = owns (c' : Thread nD τ) dst fullShare (src.view.read (Elt F) fs))
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ (src.view.loc (c : Thread nD τ) ↦[src.view.set]{qs} fs)
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  iintro ⟨Hg₁, Hg₂, Hsrc, ⟨%fd, Hdst⟩, HL, Ht₁, Hr₁, Ht₂, Hr₂⟩
  iapply (Rounds.wp_send_pointsTo 𝒱₀ ER (Rd (F := F) X) (c : Thread nD τ) none (κ₁ := κ₁) (κ₂ := κ₂)
    (r₁ := r₁) (r₂ := 0) (d₁ := false) (d₂ := false) (q := qs) (fs := fs) (fd := fd)
    hd₁ hd₂ () () N hN hk₁ hk₂ O hO (W := W)
    (by rw [hp₁])
    (by rw [hp₂]; exact (owns_intro _ _ _ _).trans (by rw [View.read_write_univ]))
    hr)
  isplitl [Hg₁]; · iexact Hg₁
  isplitl [Hg₂]; · iexact Hg₂
  isplitl [Hsrc]; · iexact Hsrc
  isplitl [Hdst]; · iexact Hdst
  isplitl [HL]; · iexact HL
  isplitl [Ht₁]; · iexact Ht₁
  isplitl [Hr₁]; · iexact Hr₁
  isplitl [Ht₂]; · iexact Ht₂
  iexact Hr₂

/-! ## A "load, add, store" step

The kernel loads 64 rows of a ring-buffer slot (with a leading axis of one), adds 64 rows of its staged input, and stores the
sum back over the slot's rows. Read through the slot's transfer window, the slot then holds the elementwise sum of what it
held and the input's rows. -/

/-- the rectangle of 64 rows of slot `s` from row `r` on, with its leading axis of one -/
abbrev R3 (s r : ℕ) (h : ∀ a, (![s, r, 0] : Fin 3 → Nat) a + S1x64x1024.size a ≤ S15x128x1024.size a) : Rect S15x128x1024 :=
  Rect.unit (s := S15x128x1024) ![s, r, 0] S1x64x1024.size h

theorem add_value (M : Memref sig .tc .vmem S15x128x1024 .f32) (s r : ℕ)
    (h : ∀ a, (![s, r, 0] : Fin 3 → Nat) a + S1x64x1024.size a ≤ S15x128x1024.size a)
    (f : M.view.ty.Contents (Elt F)) (Y : S4096x1024.Idx → Elt F .f32)
    (o : Fin 2 → ℕ) (ho : ∀ a, o a + S64x1024.size a ≤ S4096x1024.size a) (P : Vec F S1x64x1024 .f32)
    (hP : P = (shapeCast S1x64x1024
        (addf (shapeCast S64x1024 (View.readAt (Elt F) M.view (R3 s r h).toLoadRect f) shapeCasts_S1x64x1024_S64x1024)
          (shapeCast S64x1024 (View.readAt (Elt F) xM.view (Rect.unit (s := S4096x1024) o S64x1024.size ho).toLoadRect Y)
            shapeCasts_S64x1024_S64x1024))
        shapeCasts_S64x1024_S1x64x1024 : FVec F S1x64x1024 .f32)) :
    (slot M s r h).view.read (Elt F) (View.write (Elt F) (M.access (R3 s r h)) f P Finset.univ)
      = kadd ((slot M s r h).view.read (Elt F) f) (piece o ho Y) := by
  subst hP
  -- the slot's window reads what a load at the slot's rectangle reads, with the leading axis dropped
  rw [Memref.read_squeeze_slice M (R3 s r h) (fun _ => rfl) squeezes_S1x64x1024_S64x1024 shapeCasts_S1x64x1024_S64x1024,
    Memref.read_squeeze_slice M (R3 s r h) (fun _ => rfl) squeezes_S1x64x1024_S64x1024 shapeCasts_S1x64x1024_S64x1024]
  -- a load at the rectangle just written reads the payload
  rw [View.readAt_rect]
  dsimp only [Memref.access]
  rw [View.read_write_univ]
  -- the two casts of the leading axis cancel; the cast of the input's rows to their own shape is the identity
  refine (shapeCast_shapeCast (s := S64x1024) (t := S1x64x1024) _ _ _).trans ?_
  unfold kadd piece
  exact congrArg (addf _) (shapeCast_self (s := S64x1024) _ _)

/-- the same, the input's rows named by the ring's offsets and the slot's old contents by what they read as -/
theorem add_value_at (M : Memref sig .tc .vmem S15x128x1024 .f32) (s r : ℕ)
    (h : ∀ a, (![s, r, 0] : Fin 3 → Nat) a + S1x64x1024.size a ≤ S15x128x1024.size a)
    (f : M.view.ty.Contents (Elt F)) (Y : S4096x1024.Idx → Elt F .f32)
    (o : Fin 2 → ℕ) (ho : ∀ a, o a + S64x1024.size a ≤ S4096x1024.size a) (P : Vec F S1x64x1024 .f32)
    (hP : P = (shapeCast S1x64x1024
        (addf (shapeCast S64x1024 (View.readAt (Elt F) M.view (R3 s r h).toLoadRect f) shapeCasts_S1x64x1024_S64x1024)
          (shapeCast S64x1024 (View.readAt (Elt F) xM.view (Rect.unit (s := S4096x1024) o S64x1024.size ho).toLoadRect Y)
            shapeCasts_S64x1024_S64x1024))
        shapeCasts_S64x1024_S1x64x1024 : FVec F S1x64x1024 .f32))
    (cw : Bool) (k : ℕ) (b : Fin 2) (ho' : o = off cw k b.val)
    (R : S64x1024.Idx → Elt F .f32) (hf : (slot M s r h).view.read (Elt F) f = R) :
    (slot M s r h).view.read (Elt F) (View.write (Elt F) (M.access (R3 s r h)) f P Finset.univ)
      = kadd R (piece (off cw k b.val) (off_inb cw k b) Y) := by
  subst ho' hf
  exact add_value M s r h f Y _ ho P hP

/-! ## The finished slot copied into the result

The kernel loads the whole last slot (128 rows, with a leading axis of one) and stores it over 128 rows of its staged result.
Read back through either of the two 64-row windows the transfers use, those rows hold what the slot's matching window reads. -/

/-- a 64-row window of a staged array reads the array at the window's place -/
theorem rows_read_apply (Mx : Memref sig .tc .vmem S4096x1024 .f32) (o : Fin 2 → ℕ)
    (ho : ∀ a, o a + S64x1024.size a ≤ S4096x1024.size a) (g : Mx.view.ty.Contents (Elt F)) (x : S64x1024.Idx) :
    (rows Mx o ho).view.read (Elt F) g x
      = Mx.view.read (Elt F) g ((Rect.unit (s := S4096x1024) o S64x1024.size ho).emb x) := rfl

theorem copy_value (M : Memref sig .tc .vmem S15x128x1024 .f32) (f : M.view.ty.Contents (Elt F))
    (fo : oM.view.ty.Contents (Elt F))
    (O : Fin 2 → ℕ) (hO : ∀ a, O a + S128x1024.size a ≤ S4096x1024.size a)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (R0 : ℕ) (hOeq : O = ![R0, 0]) (b : Fin 2) (o : Fin 2 → ℕ) (ho : ∀ a, o a + S64x1024.size a ≤ S4096x1024.size a)
    (hoeq : o = ![R0 + 64 * b.val, 0])
    (hs : ∀ a, (![14, 64 * b.val, 0] : Fin 3 → Nat) a + S1x64x1024.size a ≤ S15x128x1024.size a) :
    (rows oM o ho).view.read (Elt F)
        (View.write (Elt F) (oM.access (Rect.unit (s := S4096x1024) O S128x1024.size hO)) fo P Finset.univ)
      = (slot M 14 (64 * b.val) hs).view.read (Elt F) f := by
  subst hP hOeq hoeq
  funext x
  have hx0 : (x 0).val < 64 := (x 0).isLt
  have hb := b.isLt
  have hy0 : 64 * b.val + (x 0).val < 128 := by omega
  -- the window's row `x 0` is row `64 b + x 0` of the 128 rows stored
  have hemb : (Rect.unit (s := S4096x1024) ![R0 + 64 * b.val, 0] S64x1024.size ho).emb x
      = (Rect.unit (s := S4096x1024) ![R0, 0] S128x1024.size hO).emb (ix2 ⟨64 * b.val + (x 0).val, hy0⟩ (x 1)) := by
    funext a
    apply Fin.ext
    match a with
    | ⟨0, _⟩ => show R0 + 64 * b.val + 1 * (x 0).val = R0 + 1 * (64 * b.val + (x 0).val); omega
    | ⟨1, _⟩ => rfl
  rw [rows_read_apply, hemb]
  dsimp only [Memref.access]
  rw [View.read_slice_write_emb _ _ _ (Finset.mem_univ _)]
  -- both sides now read the slot's buffer: drop the leading axis on each and compare the places read
  refine (shapeCast_1ab_ab_apply (a := 128) (b := 1024) _ _ ⟨64 * b.val + (x 0).val, hy0⟩ (x 1)).trans ?_
  rw [Memref.read_squeeze_slice M (R3 14 (64 * b.val) hs) (fun _ => rfl) squeezes_S1x64x1024_S64x1024 shapeCasts_S1x64x1024_S64x1024]
  refine Eq.trans ?_ (congrArg (shapeCast S64x1024 _ shapeCasts_S1x64x1024_S64x1024) (eq_ix2 x).symm)
  refine Eq.trans ?_ (shapeCast_1ab_ab_apply (a := 64) (b := 1024) _ _ (x 0) (x 1)).symm
  refine congrArg (M.view.read (Elt F) f) (funext fun a => Fin.ext ?_)
  match a with
  | ⟨0, _⟩ => rfl
  | ⟨1, _⟩ => show 0 + 1 * (64 * b.val + (x 0).val) = 64 * b.val + 1 * (x 0).val; omega
  | ⟨2, _⟩ => rfl

theorem off_cw (c : Dev nD) (b : ℕ) : off true c.val b = ![256 * c.val + 64 * b, 0] := by
  have hc : c.val % 16 = c.val := Nat.mod_eq_of_lt c.isLt
  unfold off; rw [hc]; rfl

theorem off_ccw (c : Dev nD) (b : ℕ) : off false c.val b = ![256 * c.val + 128 + 64 * b, 0] := by
  have hc : c.val % 16 = c.val := Nat.mod_eq_of_lt c.isLt
  unfold off; rw [hc]; rfl

/-- the clockwise half: the first 128 rows of the device's own chunk -/
theorem copy_value_cw (M : Memref sig .tc .vmem S15x128x1024 .f32) (f : M.view.ty.Contents (Elt F))
    (fo : oM.view.ty.Contents (Elt F)) (c : Dev nD) (b : Fin 2)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (hs : ∀ a, (![14, 64 * b.val, 0] : Fin 3 → Nat) a + S1x64x1024.size a ≤ S15x128x1024.size a) :
    (rows oM (off true c.val b.val) (off_inb true c.val b)).view.read (Elt F)
        (View.write (Elt F) (oM.access (Rect.unit (s := S4096x1024) (k0_off5 c) S128x1024.size (k0_off5_inb c))) fo P Finset.univ)
      = (slot M 14 (64 * b.val) hs).view.read (Elt F) f :=
  copy_value M f fo (k0_off5 c) (k0_off5_inb c) h14 P hP (256 * c.val) (k0_off5_eq c) b _ _ (off_cw c b.val) hs

/-- the other half: the last 128 rows of the device's own chunk -/
theorem copy_value_ccw (M : Memref sig .tc .vmem S15x128x1024 .f32) (f : M.view.ty.Contents (Elt F))
    (fo : oM.view.ty.Contents (Elt F)) (c : Dev nD) (b : Fin 2)
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (hs : ∀ a, (![14, 64 * b.val, 0] : Fin 3 → Nat) a + S1x64x1024.size a ≤ S15x128x1024.size a) :
    (rows oM (off false c.val b.val) (off_inb false c.val b)).view.read (Elt F)
        (View.write (Elt F) (oM.access (Rect.unit (s := S4096x1024) (k0_off6 c) S128x1024.size (k0_off6_inb c))) fo P Finset.univ)
      = (slot M 14 (64 * b.val) hs).view.read (Elt F) f :=
  copy_value M f fo (k0_off6 c) (k0_off6_inb c) h14 P hP (256 * c.val + 128) (k0_off6_eq c) b _ _ (off_ccw c b.val) hs

end Cert.Kernel.RSAG

end
-- ==== Proof.Bits.SplitLib.lean ====
import proofs.«901013_g7700000000001014_dist_rs_then_ag_i_m4096_n1024_v7x_i16_f32_1_alg».proof.Proof.Bits.Sched
import Idealize.ShloMosaic.Lib.Pipeline.Kit

/-! Listing a direction's thirty (step, sub-block) pairs.

    The slots of a ring buffer and the sub-blocks of the staged result a device receives in a direction are indexed by
    the pairs (step, sub-block). Listed in the order the steps run, a separating conjunction over all pairs is a chain
    of thirty conjuncts; a sub-block's window depends on its chunk's number only modulo sixteen, so the windows a
    neighbour receives can be named by their chunks' shifts from this device's own chunk. -/

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-! ## The thirty steps of a direction, listed

A direction's ring buffer has fifteen slots of two sub-blocks; the staged result takes, from a direction, fifteen
chunks' halves of two sub-blocks. Both families are indexed by the pairs (step, sub-block); listing the pairs in the
order the steps run turns a conjunction over all of them into a chain. -/

/-- the thirty (step, sub-block) pairs in the order the steps run -/
def sbList : List (Fin 15 × Fin 2) :=
  [(0,0),(0,1),(1,0),(1,1),(2,0),(2,1),(3,0),(3,1),(4,0),(4,1),(5,0),(5,1),(6,0),(6,1),(7,0),(7,1),
   (8,0),(8,1),(9,0),(9,1),(10,0),(10,1),(11,0),(11,1),(12,0),(12,1),(13,0),(13,1),(14,0),(14,1)]

theorem sbList_univ : (Finset.univ : Finset (Fin 15 × Fin 2)) = sbList.toFinset := by decide
theorem sbList_nodup : sbList.Nodup := by decide

/-- chains over one list whose conjuncts are equal are equal -/
theorem bigSepL_congr {I : Type} (l : List I) (Φ Ψ : I → sProp 𝕄) (h : ∀ i ∈ l, Φ i = Ψ i) :
    bigSepL l Φ = bigSepL l Ψ := by
  induction l with
  | nil => rfl
  | cons i l ih =>
    rw [bigSepL_cons, bigSepL_cons, h i (List.mem_cons_self ..), ih fun j hj => h j (List.mem_cons_of_mem _ hj)]

/-- a chain is monotone in its conjuncts -/
theorem bigSepL_mono {I : Type} (l : List I) (Φ Ψ : I → sProp 𝕄) (h : ∀ i ∈ l, Φ i ⊢ Ψ i) :
    bigSepL l Φ ⊢ bigSepL l Ψ := by
  induction l with
  | nil => exact .rfl
  | cons i l ih =>
    rw [bigSepL_cons, bigSepL_cons]
    exact BI.sep_mono (h i (List.mem_cons_self ..)) (ih fun j hj => h j (List.mem_cons_of_mem _ hj))

/-- all thirty slots of a ring buffer as the chain over the listed pairs -/
theorem allSlots_eq (cw : Bool) (d : Dev nD) : allSlots (F := F) cw d = bigSepL sbList fun sb =>
    iprop(∃ f, (slot (bufOf cw) sb.1.val (64 * sb.2.val) (slot_inb _ _ sb.1.isLt sb.2.isLt)).view.loc (d : Thread nD τ)
      ↦[(slot (bufOf cw) sb.1.val (64 * sb.2.val) (slot_inb _ _ sb.1.isLt sb.2.isLt)).view.set]{fullShare} f) := by
  unfold allSlots
  exact bigSep_univ_eq_bigSepL sbList sbList_univ sbList_nodup _

/-- thirty slots at given contents are thirty slots at some contents -/
theorem slots_intro_gen (cw : Bool) (d : Dev nD)
    (f : Fin 15 × Fin 2 → Buf (Elt F) ((bufOf cw).view.loc (d : Thread nD τ))) :
    (bigSepL sbList fun sb =>
      iprop((slot (bufOf cw) sb.1.val (64 * sb.2.val) (slot_inb _ _ sb.1.isLt sb.2.isLt)).view.loc (d : Thread nD τ)
        ↦[(slot (bufOf cw) sb.1.val (64 * sb.2.val) (slot_inb _ _ sb.1.isLt sb.2.isLt)).view.set]{fullShare} f sb))
      ⊢ allSlots (F := F) cw d := by
  rw [allSlots_eq]
  exact bigSepL_mono _ _ _ fun sb _ => exists_intro (f sb)

/-! ## Offsets that name the same chunk -/

/-- the offset of a sub-block depends on the chunk's number only modulo sixteen -/
theorem off_congr (cw : Bool) {k k' : ℕ} (b : ℕ) (h : k % 16 = k' % 16) : off cw k b = off cw k' b := by
  unfold off; rw [h]

/-- windows at equal offsets are one window -/
theorem rowsEx_congr (d : Dev nD) {o o' : Fin 2 → ℕ} (e : o = o')
    (h : ∀ a, o a + S64x1024.size a ≤ S4096x1024.size a) (h' : ∀ a, o' a + S64x1024.size a ≤ S4096x1024.size a) :
    (iprop(∃ f, (rows oM o h).view.loc (d : Thread nD τ) ↦[(rows oM o h).view.set]{fullShare} f) : sProp 𝕄)
      = iprop(∃ f, (rows oM o' h').view.loc (d : Thread nD τ) ↦[(rows oM o' h').view.set]{fullShare} f) := by
  subst e; rfl

/-- the thirty sub-blocks device `d` receives in a direction, named by their shifts `Jf` from another device `c` -/
theorem allRows_shift (cw : Bool) (d c : Dev nD) (Jf : ℕ → ℕ)
    (hJ : ∀ h, h < 15 → (d.val + agShift cw h) % 16 = (c.val + Jf h) % 16) :
    allRows (F := F) cw d = bigSepL sbList fun hb =>
      iprop(∃ f, (rows oM (off cw (c.val + Jf hb.1.val) hb.2.val) (off_inb cw _ hb.2)).view.loc (d : Thread nD τ)
        ↦[(rows oM (off cw (c.val + Jf hb.1.val) hb.2.val) (off_inb cw _ hb.2)).view.set]{fullShare} f) := by
  unfold allRows
  rw [bigSep_univ_eq_bigSepL sbList sbList_univ sbList_nodup]
  exact bigSepL_congr _ _ _ fun hb _ => rowsEx_congr d (off_congr cw _ (hJ hb.1.val hb.1.isLt)) _ _

/-- the next device receives, at step `h` of the gather towards it, the chunk `16 - h` places above `c`'s -/
theorem shift_nxt (c : Dev nD) (h : ℕ) (hh : h < 15) :
    ((nxt c).val + agShift true h) % 16 = (c.val + (16 - h) % 16) % 16 := by
  show ((c.val + 1) % 16 + (15 - h)) % 16 = (c.val + (16 - h) % 16) % 16
  omega

/-- the previous device receives, at step `h` of the gather towards it, the chunk `h` places above `c`'s -/
theorem shift_prv (c : Dev nD) (h : ℕ) (hh : h < 15) :
    ((prv c).val + agShift false h) % 16 = (c.val + h) % 16 := by
  show ((c.val + 15) % 16 + (1 + h)) % 16 = (c.val + h) % 16
  omega

end Cert.Kernel.RSAG

end
-- ==== Proof.Bits.LinksLib.lean ====
import proofs.«901013_g7700000000001014_dist_rs_then_ag_i_m4096_n1024_v7x_i16_f32_1_alg».proof.Proof.Bits.Tables
import proofs.«901013_g7700000000001014_dist_rs_then_ag_i_m4096_n1024_v7x_i16_f32_1_alg».proof.Proof.Bits.Canon
import proofs.«901013_g7700000000001014_dist_rs_then_ag_i_m4096_n1024_v7x_i16_f32_1_alg».proof.Proof.Bits.SplitLib

/-! What a device's neighbour receives, told in the device's own terms.

    A transfer fired by device `c` lands on its neighbour, and the neighbour's receive cell names what lands in the
    neighbour's terms: the partial sum the neighbour receives at a step, or the finished sub-block of the chunk so many
    places above the neighbour. Going one step back round the ring from the neighbour is `c` itself, so each of these
    is something `c` holds: at the first step of the reduce-scatter the rows of `c`'s own staged block, at a later step
    the sum `c` formed at the step before, and in the all-gather the finished sub-block of the chunk one place further
    (or nearer) counted from `c`. A window's offset depends on its chunk's number only modulo sixteen. -/

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## The values -/

/-- windows at equal offsets read equal arrays equally -/
theorem piece_congr {o o' : Fin 2 → ℕ} (e : o = o') (h : ∀ a, o a + S64x1024.size a ≤ S4096x1024.size a)
    (h' : ∀ a, o' a + S64x1024.size a ≤ S4096x1024.size a) {Y Y' : S4096x1024.Idx → Elt F .f32} (eY : Y = Y') :
    piece o h Y = piece o' h' Y' := by
  subst e eY; rfl

/-- at the first step the next device receives rows of `c`'s own staged block: those of the chunk fifteen places above `c`'s -/
theorem recvV_zero_nxt (b : Fin 2) (c : Dev nD) :
    recvV X true b 0 (nxt c)
      = (rows xM (off true (c.val + 15) b.val) (off_inb true (c.val + 15) b)).view.read (Elt F) (X c) := by
  rw [recvV]
  exact piece_congr
    (off_mod true b.val (by show ((c.val + 1) % 16 + 32 - 2 - 0) % 16 = (c.val + 15) % 16; omega)) _ _
    (congrArg X (prv_nxt c))

/-- at the first step the previous device receives rows of `c`'s own staged block: those of the chunk one place above `c`'s -/
theorem recvV_zero_prv (b : Fin 2) (c : Dev nD) :
    recvV X false b 0 (prv c)
      = (rows xM (off false (c.val + 1) b.val) (off_inb false (c.val + 1) b)).view.read (Elt F) (X c) := by
  rw [recvV]
  exact piece_congr
    (off_mod false b.val (by show ((c.val + 15) % 16 + 2 + 0) % 16 = (c.val + 1) % 16; omega)) _ _
    (congrArg X (nxt_prv c))

/-- at a later step the next device receives the sum `c` formed at the step before -/
theorem recvV_succ_nxt (b : Fin 2) (t : ℕ) (c : Dev nD) : recvV X true b (t + 1) (nxt c) = addV X true b t c := by
  rw [recvV]
  exact congrArg (addV X true b t) (prv_nxt c)

/-- at a later step the previous device receives the sum `c` formed at the step before -/
theorem recvV_succ_prv (b : Fin 2) (t : ℕ) (c : Dev nD) : recvV X false b (t + 1) (prv c) = addV X false b t c := by
  rw [recvV]
  exact congrArg (addV X false b t) (nxt_prv c)

/-! ## The devices -/

/-- `j` places above the next device is `j + 1` places above `c` -/
theorem devAt_nxt (c : Dev nD) (j : ℕ) : devAt (nxt c) j = devAt c (j + 1) :=
  Fin.ext (by show ((c.val + 1) % 16 + j) % 16 = (c.val + (j + 1)) % 16; omega)

/-- `j + 1` places above the previous device is `j` places above `c` -/
theorem devAt_prv (c : Dev nD) (j : ℕ) : devAt (prv c) (j + 1) = devAt c j :=
  Fin.ext (by show ((c.val + 15) % 16 + (j + 1)) % 16 = (c.val + j) % 16; omega)

/-- fifteen places above the next device is `c` -/
theorem devAt_nxt_last (c : Dev nD) : devAt (nxt c) 15 = c := by
  have hc : c.val < 16 := c.isLt
  exact Fin.ext (by show ((c.val + 1) % 16 + 15) % 16 = c.val; omega)

/-- one place above the previous device is `c` -/
theorem devAt_prv_first (c : Dev nD) : devAt (prv c) 1 = c := by
  have hc : c.val < 16 := c.isLt
  exact Fin.ext (by show ((c.val + 15) % 16 + 1) % 16 = c.val; omega)

/-! ## What the neighbour owns on landing -/

/-- owning one window of the staged result at equal offsets and equal contents -/
theorem owns_rows_link (d : Dev nD) {o o' : Fin 2 → ℕ} (e : o = o') (h : ∀ a, o a + S64x1024.size a ≤ S4096x1024.size a)
    (h' : ∀ a, o' a + S64x1024.size a ≤ S4096x1024.size a) {v v' : S64x1024.Idx → Elt F .f32} (ev : v = v') :
    (owns (d : Thread nD τ) (rows oM o h) fullShare v : sProp 𝕄) = owns (d : Thread nD τ) (rows oM o' h') fullShare v' := by
  subst e ev; rfl

/-- reduce-scatter towards the next device, first step -/
theorem link_rs_cw_zero (c : Dev nD) (b : Fin 2) (M : Memref sig .tc .vmem S64x1024 .f32) :
    (owns (nxt c : Thread nD τ) M fullShare (recvV X true b 0 (nxt c)) : sProp 𝕄)
      = owns (nxt c : Thread nD τ) M fullShare
          ((rows xM (off true (c.val + 15) b.val) (off_inb true (c.val + 15) b)).view.read (Elt F) (X c)) := by
  rw [recvV_zero_nxt]

/-- reduce-scatter towards the next device, a later step -/
theorem link_rs_cw_succ (c : Dev nD) (b : Fin 2) (t : ℕ) (M : Memref sig .tc .vmem S64x1024 .f32) :
    (owns (nxt c : Thread nD τ) M fullShare (recvV X true b (t + 1) (nxt c)) : sProp 𝕄)
      = owns (nxt c : Thread nD τ) M fullShare (addV X true b t c) := by
  rw [recvV_succ_nxt]

/-- reduce-scatter towards the previous device, first step -/
theorem link_rs_ccw_zero (c : Dev nD) (b : Fin 2) (M : Memref sig .tc .vmem S64x1024 .f32) :
    (owns (prv c : Thread nD τ) M fullShare (recvV X false b 0 (prv c)) : sProp 𝕄)
      = owns (prv c : Thread nD τ) M fullShare
          ((rows xM (off false (c.val + 1) b.val) (off_inb false (c.val + 1) b)).view.read (Elt F) (X c)) := by
  rw [recvV_zero_prv]

/-- reduce-scatter towards the previous device, a later step -/
theorem link_rs_ccw_succ (c : Dev nD) (b : Fin 2) (t : ℕ) (M : Memref sig .tc .vmem S64x1024 .f32) :
    (owns (prv c : Thread nD τ) M fullShare (recvV X false b (t + 1) (prv c)) : sProp 𝕄)
      = owns (prv c : Thread nD τ) M fullShare (addV X false b t c) := by
  rw [recvV_succ_prv]

/-- all-gather towards the next device, first step: `c`'s own finished sub-block lands in the window of `c`'s chunk -/
theorem link_ag_cw_zero (c : Dev nD) (b : Fin 2) :
    (owns (nxt c : Thread nD τ) (rows oM (off true ((nxt c).val + 15) b.val) (off_inb true ((nxt c).val + 15) b)) fullShare
        (doneV X true b (devAt (nxt c) 15)) : sProp 𝕄)
      = owns (nxt c : Thread nD τ) (rows oM (off true (c.val + 0) b.val) (off_inb true (c.val + 0) b)) fullShare
          (addV X true b 14 c) :=
  owns_rows_link (nxt c)
    (off_mod true b.val (by show ((c.val + 1) % 16 + 15) % 16 = (c.val + 0) % 16; omega)) _ _
    (by show addV X true b 14 (devAt (nxt c) 15) = _; rw [devAt_nxt_last])

/-- all-gather towards the next device, a later step: the chunk `j` places above the neighbour is `j + 1` places above `c` -/
theorem link_ag_cw_succ (c : Dev nD) (b : Fin 2) (j : ℕ) :
    (owns (nxt c : Thread nD τ) (rows oM (off true ((nxt c).val + j) b.val) (off_inb true ((nxt c).val + j) b)) fullShare
        (doneV X true b (devAt (nxt c) j)) : sProp 𝕄)
      = owns (nxt c : Thread nD τ) (rows oM (off true (c.val + (j + 1)) b.val) (off_inb true (c.val + (j + 1)) b)) fullShare
          (doneV X true b (devAt c (j + 1))) :=
  owns_rows_link (nxt c)
    (off_mod true b.val (by show ((c.val + 1) % 16 + j) % 16 = (c.val + (j + 1)) % 16; omega)) _ _
    (by rw [devAt_nxt])

/-- all-gather towards the previous device, first step: `c`'s own finished sub-block lands in the window of `c`'s chunk -/
theorem link_ag_ccw_zero (c : Dev nD) (b : Fin 2) :
    (owns (prv c : Thread nD τ) (rows oM (off false ((prv c).val + 1) b.val) (off_inb false ((prv c).val + 1) b)) fullShare
        (doneV X false b (devAt (prv c) 1)) : sProp 𝕄)
      = owns (prv c : Thread nD τ) (rows oM (off false (c.val + 0) b.val) (off_inb false (c.val + 0) b)) fullShare
          (addV X false b 14 c) :=
  owns_rows_link (prv c)
    (off_mod false b.val (by show ((c.val + 15) % 16 + 1) % 16 = (c.val + 0) % 16; omega)) _ _
    (by show addV X false b 14 (devAt (prv c) 1) = _; rw [devAt_prv_first])

/-- all-gather towards the previous device, a later step: the chunk `j + 1` places above the neighbour is `j` places above `c` -/
theorem link_ag_ccw_succ (c : Dev nD) (b : Fin 2) (j : ℕ) :
    (owns (prv c : Thread nD τ) (rows oM (off false ((prv c).val + (j + 1)) b.val) (off_inb false ((prv c).val + (j + 1)) b)) fullShare
        (doneV X false b (devAt (prv c) (j + 1))) : sProp 𝕄)
      = owns (prv c : Thread nD τ) (rows oM (off false (c.val + j) b.val) (off_inb false (c.val + j) b)) fullShare
          (doneV X false b (devAt c j)) :=
  owns_rows_link (prv c)
    (off_mod false b.val (by show ((c.val + 15) % 16 + (j + 1)) % 16 = (c.val + j) % 16; omega)) _ _
    (by rw [devAt_prv])

/-! ## A step's sum with the device's own rows named by a shift of its chunk -/

/-- the sum a device forms at a step, its own rows' window named by any chunk number congruent to the step's chunk -/
theorem addV_eq (cw : Bool) (b : Fin 2) (s : ℕ) (c : Dev nD) (J : ℕ) (hJ : (c.val + J) % 16 = chunkAt cw c s % 16) :
    addV X cw b s c
      = kadd (recvV X cw b s c) (piece (off cw (c.val + J) b.val) (off_inb cw (c.val + J) b) (X c)) := by
  rw [addV]
  exact congrArg (kadd (recvV X cw b s c)) (piece_congr (off_mod cw b.val hJ.symm) _ _ rfl)

end Cert.Kernel.RSAG

end
-- ==== Proof.Bits.Links.lean ====
import proofs.«901013_g7700000000001014_dist_rs_then_ag_i_m4096_n1024_v7x_i16_f32_1_alg».proof.Proof.Bits.LinksLib

/-! The neighbour's receive cells and the steps' sums, case by case.

    For each of the 120 transfers a device `c` fires, the payload of the receive cell on the neighbour it lands on,
    written in `c`'s own terms; and for each direction, step and sub-block the sum `c` forms, its own rows' window named
    by the literal shift of its chunk. Every line instantiates one general lemma. -/

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## The neighbour's receive cells -/

theorem hp2_rscw_r_0_0 (c : Dev nD) : (Rd (F := F) X).payload (dcell (nxt c) (qR cc0_scratch3 0 0 inb_S15x2_S1x1_0_0)) 0 false = owns (nxt c : Thread nD τ) (slot aM 0 0 inb_S15x128x1024_S1x64x1024_0_0_0) fullShare ((rows xM (off true (c.val + 15) 0) (off_inb true (c.val + 15) ⟨0, by decide⟩)).view.read (Elt F) (X c)) := (payload_rscw_r_0_0 X (nxt c) false).trans (link_rs_cw_zero X c 0 _)
theorem hp2_rscw_r_0_1 (c : Dev nD) : (Rd (F := F) X).payload (dcell (nxt c) (qR cc0_scratch3 0 1 inb_S15x2_S1x1_0_1)) 0 false = owns (nxt c : Thread nD τ) (slot aM 0 64 inb_S15x128x1024_S1x64x1024_0_64_0) fullShare ((rows xM (off true (c.val + 15) 1) (off_inb true (c.val + 15) ⟨1, by decide⟩)).view.read (Elt F) (X c)) := (payload_rscw_r_0_1 X (nxt c) false).trans (link_rs_cw_zero X c 1 _)
theorem hp2_rscw_r_1_0 (c : Dev nD) : (Rd (F := F) X).payload (dcell (nxt c) (qR cc0_scratch3 1 0 inb_S15x2_S1x1_1_0)) 0 false = owns (nxt c : Thread nD τ) (slot aM 1 0 inb_S15x128x1024_S1x64x1024_1_0_0) fullShare (addV X true 0 0 c) := (payload_rscw_r_1_0 X (nxt c) false).trans (link_rs_cw_succ X c 0 0 _)
theorem hp2_rscw_r_1_1 (c : Dev nD) : (Rd (F := F) X).payload (dcell (nxt c) (qR cc0_scratch3 1 1 inb_S15x2_S1x1_1_1)) 0 false = owns (nxt c : Thread nD τ) (slot aM 1 64 inb_S15x128x1024_S1x64x1024_1_64_0) fullShare (addV X true 1 0 c) := (payload_rscw_r_1_1 X (nxt c) false).trans (link_rs_cw_succ X c 1 0 _)
theorem hp2_rscw_r_2_0 (c : Dev nD) : (Rd (F := F) X).payload (dcell (nxt c) (qR cc0_scratch3 2 0 inb_S15x2_S1x1_2_0)) 0 false = owns (nxt c : Thread nD τ) (slot aM 2 0 inb_S15x128x1024_S1x64x1024_2_0_0) fullShare (addV X true 0 1 c) := (payload_rscw_r_2_0 X (nxt c) false).trans (link_rs_cw_succ X c 0 1 _)
theorem hp2_rscw_r_2_1 (c : Dev nD) : (Rd (F := F) X).payload (dcell (nxt c) (qR cc0_scratch3 2 1 inb_S15x2_S1x1_2_1)) 0 false = owns (nxt c : Thread nD τ) (slot aM 2 64 inb_S15x128x1024_S1x64x1024_2_64_0) fullShare (addV X true 1 1 c) := (payload_rscw_r_2_1 X (nxt c) false).trans (link_rs_cw_succ X c 1 1 _)
theorem hp2_rscw_r_3_0 (c : Dev nD) : (Rd (F := F) X).payload (dcell (nxt c) (qR cc0_scratch3 3 0 inb_S15x2_S1x1_3_0)) 0 false = owns (nxt c : Thread nD τ) (slot aM 3 0 inb_S15x128x1024_S1x64x1024_3_0_0) fullShare (addV X true 0 2 c) := (payload_rscw_r_3_0 X (nxt c) false).trans (link_rs_cw_succ X c 0 2 _)
theorem hp2_rscw_r_3_1 (c : Dev nD) : (Rd (F := F) X).payload (dcell (nxt c) (qR cc0_scratch3 3 1 inb_S15x2_S1x1_3_1)) 0 false = owns (nxt c : Thread nD τ) (slot aM 3 64 inb_S15x128x1024_S1x64x1024_3_64_0) fullShare (addV X true 1 2 c) := (payload_rscw_r_3_1 X (nxt c) false).trans (link_rs_cw_succ X c 1 2 _)
theorem hp2_rscw_r_4_0 (c : Dev nD) : (Rd (F := F) X).payload (dcell (nxt c) (qR cc0_scratch3 4 0 inb_S15x2_S1x1_4_0)) 0 false = owns (nxt c : Thread nD τ) (slot aM 4 0 inb_S15x128x1024_S1x64x1024_4_0_0) fullShare (addV X true 0 3 c) := (payload_rscw_r_4_0 X (nxt c) false).trans (link_rs_cw_succ X c 0 3 _)
theorem hp2_rscw_r_4_1 (c : Dev nD) : (Rd (F := F) X).payload (dcell (nxt c) (qR cc0_scratch3 4 1 inb_S15x2_S1x1_4_1)) 0 false = owns (nxt c : Thread nD τ) (slot aM 4 64 inb_S15x128x1024_S1x64x1024_4_64_0) fullShare (addV X true 1 3 c) := (payload_rscw_r_4_1 X (nxt c) false).trans (link_rs_cw_succ X c 1 3 _)
theorem hp2_rscw_r_5_0 (c : Dev nD) : (Rd (F := F) X).payload (dcell (nxt c) (qR cc0_scratch3 5 0 inb_S15x2_S1x1_5_0)) 0 false = owns (nxt c : Thread nD τ) (slot aM 5 0 inb_S15x128x1024_S1x64x1024_5_0_0) fullShare (addV X true 0 4 c) := (payload_rscw_r_5_0 X (nxt c) false).trans (link_rs_cw_succ X c 0 4 _)
theorem hp2_rscw_r_5_1 (c : Dev nD) : (Rd (F := F) X).payload (dcell (nxt c) (qR cc0_scratch3 5 1 inb_S15x2_S1x1_5_1)) 0 false = owns (nxt c : Thread nD τ) (slot aM 5 64 inb_S15x128x1024_S1x64x1024_5_64_0) fullShare (addV X true 1 4 c) := (payload_rscw_r_5_1 X (nxt c) false).trans (link_rs_cw_succ X c 1 4 _)
theorem hp2_rscw_r_6_0 (c : Dev nD) : (Rd (F := F) X).payload (dcell (nxt c) (qR cc0_scratch3 6 0 inb_S15x2_S1x1_6_0)) 0 false = owns (nxt c : Thread nD τ) (slot aM 6 0 inb_S15x128x1024_S1x64x1024_6_0_0) fullShare (addV X true 0 5 c) := (payload_rscw_r_6_0 X (nxt c) false).trans (link_rs_cw_succ X c 0 5 _)
theorem hp2_rscw_r_6_1 (c : Dev nD) : (Rd (F := F) X).payload (dcell (nxt c) (qR cc0_scratch3 6 1 inb_S15x2_S1x1_6_1)) 0 false = owns (nxt c : Thread nD τ) (slot aM 6 64 inb_S15x128x1024_S1x64x1024_6_64_0) fullShare (addV X true 1 5 c) := (payload_rscw_r_6_1 X (nxt c) false).trans (link_rs_cw_succ X c 1 5 _)
theorem hp2_rscw_r_7_0 (c : Dev nD) : (Rd (F := F) X).payload (dcell (nxt c) (qR cc0_scratch3 7 0 inb_S15x2_S1x1_7_0)) 0 false = owns (nxt c : Thread nD τ) (slot aM 7 0 inb_S15x128x1024_S1x64x1024_7_0_0) fullShare (addV X true 0 6 c) := (payload_rscw_r_7_0 X (nxt c) false).trans (link_rs_cw_succ X c 0 6 _)
theorem hp2_rscw_r_7_1 (c : Dev nD) : (Rd (F := F) X).payload (dcell (nxt c) (qR cc0_scratch3 7 1 inb_S15x2_S1x1_7_1)) 0 false = owns (nxt c : Thread nD τ) (slot aM 7 64 inb_S15x128x1024_S1x64x1024_7_64_0) fullShare (addV X true 1 6 c) := (payload_rscw_r_7_1 X (nxt c) false).trans (link_rs_cw_succ X c 1 6 _)
theorem hp2_rscw_r_8_0 (c : Dev nD) : (Rd (F := F) X).payload (dcell (nxt c) (qR cc0_scratch3 8 0 inb_S15x2_S1x1_8_0)) 0 false = owns (nxt c : Thread nD τ) (slot aM 8 0 inb_S15x128x1024_S1x64x1024_8_0_0) fullShare (addV X true 0 7 c) := (payload_rscw_r_8_0 X (nxt c) false).trans (link_rs_cw_succ X c 0 7 _)
theorem hp2_rscw_r_8_1 (c : Dev nD) : (Rd (F := F) X).payload (dcell (nxt c) (qR cc0_scratch3 8 1 inb_S15x2_S1x1_8_1)) 0 false = owns (nxt c : Thread nD τ) (slot aM 8 64 inb_S15x128x1024_S1x64x1024_8_64_0) fullShare (addV X true 1 7 c) := (payload_rscw_r_8_1 X (nxt c) false).trans (link_rs_cw_succ X c 1 7 _)
theorem hp2_rscw_r_9_0 (c : Dev nD) : (Rd (F := F) X).payload (dcell (nxt c) (qR cc0_scratch3 9 0 inb_S15x2_S1x1_9_0)) 0 false = owns (nxt c : Thread nD τ) (slot aM 9 0 inb_S15x128x1024_S1x64x1024_9_0_0) fullShare (addV X true 0 8 c) := (payload_rscw_r_9_0 X (nxt c) false).trans (link_rs_cw_succ X c 0 8 _)
theorem hp2_rscw_r_9_1 (c : Dev nD) : (Rd (F := F) X).payload (dcell (nxt c) (qR cc0_scratch3 9 1 inb_S15x2_S1x1_9_1)) 0 false = owns (nxt c : Thread nD τ) (slot aM 9 64 inb_S15x128x1024_S1x64x1024_9_64_0) fullShare (addV X true 1 8 c) := (payload_rscw_r_9_1 X (nxt c) false).trans (link_rs_cw_succ X c 1 8 _)
theorem hp2_rscw_r_10_0 (c : Dev nD) : (Rd (F := F) X).payload (dcell (nxt c) (qR cc0_scratch3 10 0 inb_S15x2_S1x1_10_0)) 0 false = owns (nxt c : Thread nD τ) (slot aM 10 0 inb_S15x128x1024_S1x64x1024_10_0_0) fullShare (addV X true 0 9 c) := (payload_rscw_r_10_0 X (nxt c) false).trans (link_rs_cw_succ X c 0 9 _)
theorem hp2_rscw_r_10_1 (c : Dev nD) : (Rd (F := F) X).payload (dcell (nxt c) (qR cc0_scratch3 10 1 inb_S15x2_S1x1_10_1)) 0 false = owns (nxt c : Thread nD τ) (slot aM 10 64 inb_S15x128x1024_S1x64x1024_10_64_0) fullShare (addV X true 1 9 c) := (payload_rscw_r_10_1 X (nxt c) false).trans (link_rs_cw_succ X c 1 9 _)
theorem hp2_rscw_r_11_0 (c : Dev nD) : (Rd (F := F) X).payload (dcell (nxt c) (qR cc0_scratch3 11 0 inb_S15x2_S1x1_11_0)) 0 false = owns (nxt c : Thread nD τ) (slot aM 11 0 inb_S15x128x1024_S1x64x1024_11_0_0) fullShare (addV X true 0 10 c) := (payload_rscw_r_11_0 X (nxt c) false).trans (link_rs_cw_succ X c 0 10 _)
theorem hp2_rscw_r_11_1 (c : Dev nD) : (Rd (F := F) X).payload (dcell (nxt c) (qR cc0_scratch3 11 1 inb_S15x2_S1x1_11_1)) 0 false = owns (nxt c : Thread nD τ) (slot aM 11 64 inb_S15x128x1024_S1x64x1024_11_64_0) fullShare (addV X true 1 10 c) := (payload_rscw_r_11_1 X (nxt c) false).trans (link_rs_cw_succ X c 1 10 _)
theorem hp2_rscw_r_12_0 (c : Dev nD) : (Rd (F := F) X).payload (dcell (nxt c) (qR cc0_scratch3 12 0 inb_S15x2_S1x1_12_0)) 0 false = owns (nxt c : Thread nD τ) (slot aM 12 0 inb_S15x128x1024_S1x64x1024_12_0_0) fullShare (addV X true 0 11 c) := (payload_rscw_r_12_0 X (nxt c) false).trans (link_rs_cw_succ X c 0 11 _)
theorem hp2_rscw_r_12_1 (c : Dev nD) : (Rd (F := F) X).payload (dcell (nxt c) (qR cc0_scratch3 12 1 inb_S15x2_S1x1_12_1)) 0 false = owns (nxt c : Thread nD τ) (slot aM 12 64 inb_S15x128x1024_S1x64x1024_12_64_0) fullShare (addV X true 1 11 c) := (payload_rscw_r_12_1 X (nxt c) false).trans (link_rs_cw_succ X c 1 11 _)
theorem hp2_rscw_r_13_0 (c : Dev nD) : (Rd (F := F) X).payload (dcell (nxt c) (qR cc0_scratch3 13 0 inb_S15x2_S1x1_13_0)) 0 false = owns (nxt c : Thread nD τ) (slot aM 13 0 inb_S15x128x1024_S1x64x1024_13_0_0) fullShare (addV X true 0 12 c) := (payload_rscw_r_13_0 X (nxt c) false).trans (link_rs_cw_succ X c 0 12 _)
theorem hp2_rscw_r_13_1 (c : Dev nD) : (Rd (F := F) X).payload (dcell (nxt c) (qR cc0_scratch3 13 1 inb_S15x2_S1x1_13_1)) 0 false = owns (nxt c : Thread nD τ) (slot aM 13 64 inb_S15x128x1024_S1x64x1024_13_64_0) fullShare (addV X true 1 12 c) := (payload_rscw_r_13_1 X (nxt c) false).trans (link_rs_cw_succ X c 1 12 _)
theorem hp2_rscw_r_14_0 (c : Dev nD) : (Rd (F := F) X).payload (dcell (nxt c) (qR cc0_scratch3 14 0 inb_S15x2_S1x1_14_0)) 0 false = owns (nxt c : Thread nD τ) (slot aM 14 0 inb_S15x128x1024_S1x64x1024_14_0_0) fullShare (addV X true 0 13 c) := (payload_rscw_r_14_0 X (nxt c) false).trans (link_rs_cw_succ X c 0 13 _)
theorem hp2_rscw_r_14_1 (c : Dev nD) : (Rd (F := F) X).payload (dcell (nxt c) (qR cc0_scratch3 14 1 inb_S15x2_S1x1_14_1)) 0 false = owns (nxt c : Thread nD τ) (slot aM 14 64 inb_S15x128x1024_S1x64x1024_14_64_0) fullShare (addV X true 1 13 c) := (payload_rscw_r_14_1 X (nxt c) false).trans (link_rs_cw_succ X c 1 13 _)
theorem hp2_agcw_r_0_0 (c : Dev nD) : (Rd (F := F) X).payload (dcell (nxt c) (qR cc0_scratch7 0 0 inb_S15x2_S1x1_0_0)) 0 false = owns (nxt c : Thread nD τ) (rows oM (off true (c.val + 0) 0) (off_inb true (c.val + 0) ⟨0, by decide⟩)) fullShare (addV X true 0 14 c) := (payload_agcw_r_0_0 X (nxt c) false).trans (link_ag_cw_zero X c 0)
theorem hp2_agcw_r_0_1 (c : Dev nD) : (Rd (F := F) X).payload (dcell (nxt c) (qR cc0_scratch7 0 1 inb_S15x2_S1x1_0_1)) 0 false = owns (nxt c : Thread nD τ) (rows oM (off true (c.val + 0) 1) (off_inb true (c.val + 0) ⟨1, by decide⟩)) fullShare (addV X true 1 14 c) := (payload_agcw_r_0_1 X (nxt c) false).trans (link_ag_cw_zero X c 1)
theorem hp2_agcw_r_1_0 (c : Dev nD) : (Rd (F := F) X).payload (dcell (nxt c) (qR cc0_scratch7 1 0 inb_S15x2_S1x1_1_0)) 0 false = owns (nxt c : Thread nD τ) (rows oM (off true (c.val + 15) 0) (off_inb true (c.val + 15) ⟨0, by decide⟩)) fullShare (doneV X true 0 (devAt c 15)) := (payload_agcw_r_1_0 X (nxt c) false).trans (link_ag_cw_succ X c 0 14)
theorem hp2_agcw_r_1_1 (c : Dev nD) : (Rd (F := F) X).payload (dcell (nxt c) (qR cc0_scratch7 1 1 inb_S15x2_S1x1_1_1)) 0 false = owns (nxt c : Thread nD τ) (rows oM (off true (c.val + 15) 1) (off_inb true (c.val + 15) ⟨1, by decide⟩)) fullShare (doneV X true 1 (devAt c 15)) := (payload_agcw_r_1_1 X (nxt c) false).trans (link_ag_cw_succ X c 1 14)
theorem hp2_agcw_r_2_0 (c : Dev nD) : (Rd (F := F) X).payload (dcell (nxt c) (qR cc0_scratch7 2 0 inb_S15x2_S1x1_2_0)) 0 false = owns (nxt c : Thread nD τ) (rows oM (off true (c.val + 14) 0) (off_inb true (c.val + 14) ⟨0, by decide⟩)) fullShare (doneV X true 0 (devAt c 14)) := (payload_agcw_r_2_0 X (nxt c) false).trans (link_ag_cw_succ X c 0 13)
theorem hp2_agcw_r_2_1 (c : Dev nD) : (Rd (F := F) X).payload (dcell (nxt c) (qR cc0_scratch7 2 1 inb_S15x2_S1x1_2_1)) 0 false = owns (nxt c : Thread nD τ) (rows oM (off true (c.val + 14) 1) (off_inb true (c.val + 14) ⟨1, by decide⟩)) fullShare (doneV X true 1 (devAt c 14)) := (payload_agcw_r_2_1 X (nxt c) false).trans (link_ag_cw_succ X c 1 13)
theorem hp2_agcw_r_3_0 (c : Dev nD) : (Rd (F := F) X).payload (dcell (nxt c) (qR cc0_scratch7 3 0 inb_S15x2_S1x1_3_0)) 0 false = owns (nxt c : Thread nD τ) (rows oM (off true (c.val + 13) 0) (off_inb true (c.val + 13) ⟨0, by decide⟩)) fullShare (doneV X true 0 (devAt c 13)) := (payload_agcw_r_3_0 X (nxt c) false).trans (link_ag_cw_succ X c 0 12)
theorem hp2_agcw_r_3_1 (c : Dev nD) : (Rd (F := F) X).payload (dcell (nxt c) (qR cc0_scratch7 3 1 inb_S15x2_S1x1_3_1)) 0 false = owns (nxt c : Thread nD τ) (rows oM (off true (c.val + 13) 1) (off_inb true (c.val + 13) ⟨1, by decide⟩)) fullShare (doneV X true 1 (devAt c 13)) := (payload_agcw_r_3_1 X (nxt c) false).trans (link_ag_cw_succ X c 1 12)
theorem hp2_agcw_r_4_0 (c : Dev nD) : (Rd (F := F) X).payload (dcell (nxt c) (qR cc0_scratch7 4 0 inb_S15x2_S1x1_4_0)) 0 false = owns (nxt c : Thread nD τ) (rows oM (off true (c.val + 12) 0) (off_inb true (c.val + 12) ⟨0, by decide⟩)) fullShare (doneV X true 0 (devAt c 12)) := (payload_agcw_r_4_0 X (nxt c) false).trans (link_ag_cw_succ X c 0 11)
theorem hp2_agcw_r_4_1 (c : Dev nD) : (Rd (F := F) X).payload (dcell (nxt c) (qR cc0_scratch7 4 1 inb_S15x2_S1x1_4_1)) 0 false = owns (nxt c : Thread nD τ) (rows oM (off true (c.val + 12) 1) (off_inb true (c.val + 12) ⟨1, by decide⟩)) fullShare (doneV X true 1 (devAt c 12)) := (payload_agcw_r_4_1 X (nxt c) false).trans (link_ag_cw_succ X c 1 11)
theorem hp2_agcw_r_5_0 (c : Dev nD) : (Rd (F := F) X).payload (dcell (nxt c) (qR cc0_scratch7 5 0 inb_S15x2_S1x1_5_0)) 0 false = owns (nxt c : Thread nD τ) (rows oM (off true (c.val + 11) 0) (off_inb true (c.val + 11) ⟨0, by decide⟩)) fullShare (doneV X true 0 (devAt c 11)) := (payload_agcw_r_5_0 X (nxt c) false).trans (link_ag_cw_succ X c 0 10)
theorem hp2_agcw_r_5_1 (c : Dev nD) : (Rd (F := F) X).payload (dcell (nxt c) (qR cc0_scratch7 5 1 inb_S15x2_S1x1_5_1)) 0 false = owns (nxt c : Thread nD τ) (rows oM (off true (c.val + 11) 1) (off_inb true (c.val + 11) ⟨1, by decide⟩)) fullShare (doneV X true 1 (devAt c 11)) := (payload_agcw_r_5_1 X (nxt c) false).trans (link_ag_cw_succ X c 1 10)
theorem hp2_agcw_r_6_0 (c : Dev nD) : (Rd (F := F) X).payload (dcell (nxt c) (qR cc0_scratch7 6 0 inb_S15x2_S1x1_6_0)) 0 false = owns (nxt c : Thread nD τ) (rows oM (off true (c.val + 10) 0) (off_inb true (c.val + 10) ⟨0, by decide⟩)) fullShare (doneV X true 0 (devAt c 10)) := (payload_agcw_r_6_0 X (nxt c) false).trans (link_ag_cw_succ X c 0 9)
theorem hp2_agcw_r_6_1 (c : Dev nD) : (Rd (F := F) X).payload (dcell (nxt c) (qR cc0_scratch7 6 1 inb_S15x2_S1x1_6_1)) 0 false = owns (nxt c : Thread nD τ) (rows oM (off true (c.val + 10) 1) (off_inb true (c.val + 10) ⟨1, by decide⟩)) fullShare (doneV X true 1 (devAt c 10)) := (payload_agcw_r_6_1 X (nxt c) false).trans (link_ag_cw_succ X c 1 9)
theorem hp2_agcw_r_7_0 (c : Dev nD) : (Rd (F := F) X).payload (dcell (nxt c) (qR cc0_scratch7 7 0 inb_S15x2_S1x1_7_0)) 0 false = owns (nxt c : Thread nD τ) (rows oM (off true (c.val + 9) 0) (off_inb true (c.val + 9) ⟨0, by decide⟩)) fullShare (doneV X true 0 (devAt c 9)) := (payload_agcw_r_7_0 X (nxt c) false).trans (link_ag_cw_succ X c 0 8)
theorem hp2_agcw_r_7_1 (c : Dev nD) : (Rd (F := F) X).payload (dcell (nxt c) (qR cc0_scratch7 7 1 inb_S15x2_S1x1_7_1)) 0 false = owns (nxt c : Thread nD τ) (rows oM (off true (c.val + 9) 1) (off_inb true (c.val + 9) ⟨1, by decide⟩)) fullShare (doneV X true 1 (devAt c 9)) := (payload_agcw_r_7_1 X (nxt c) false).trans (link_ag_cw_succ X c 1 8)
theorem hp2_agcw_r_8_0 (c : Dev nD) : (Rd (F := F) X).payload (dcell (nxt c) (qR cc0_scratch7 8 0 inb_S15x2_S1x1_8_0)) 0 false = owns (nxt c : Thread nD τ) (rows oM (off true (c.val + 8) 0) (off_inb true (c.val + 8) ⟨0, by decide⟩)) fullShare (doneV X true 0 (devAt c 8)) := (payload_agcw_r_8_0 X (nxt c) false).trans (link_ag_cw_succ X c 0 7)
theorem hp2_agcw_r_8_1 (c : Dev nD) : (Rd (F := F) X).payload (dcell (nxt c) (qR cc0_scratch7 8 1 inb_S15x2_S1x1_8_1)) 0 false = owns (nxt c : Thread nD τ) (rows oM (off true (c.val + 8) 1) (off_inb true (c.val + 8) ⟨1, by decide⟩)) fullShare (doneV X true 1 (devAt c 8)) := (payload_agcw_r_8_1 X (nxt c) false).trans (link_ag_cw_succ X c 1 7)
theorem hp2_agcw_r_9_0 (c : Dev nD) : (Rd (F := F) X).payload (dcell (nxt c) (qR cc0_scratch7 9 0 inb_S15x2_S1x1_9_0)) 0 false = owns (nxt c : Thread nD τ) (rows oM (off true (c.val + 7) 0) (off_inb true (c.val + 7) ⟨0, by decide⟩)) fullShare (doneV X true 0 (devAt c 7)) := (payload_agcw_r_9_0 X (nxt c) false).trans (link_ag_cw_succ X c 0 6)
theorem hp2_agcw_r_9_1 (c : Dev nD) : (Rd (F := F) X).payload (dcell (nxt c) (qR cc0_scratch7 9 1 inb_S15x2_S1x1_9_1)) 0 false = owns (nxt c : Thread nD τ) (rows oM (off true (c.val + 7) 1) (off_inb true (c.val + 7) ⟨1, by decide⟩)) fullShare (doneV X true 1 (devAt c 7)) := (payload_agcw_r_9_1 X (nxt c) false).trans (link_ag_cw_succ X c 1 6)
theorem hp2_agcw_r_10_0 (c : Dev nD) : (Rd (F := F) X).payload (dcell (nxt c) (qR cc0_scratch7 10 0 inb_S15x2_S1x1_10_0)) 0 false = owns (nxt c : Thread nD τ) (rows oM (off true (c.val + 6) 0) (off_inb true (c.val + 6) ⟨0, by decide⟩)) fullShare (doneV X true 0 (devAt c 6)) := (payload_agcw_r_10_0 X (nxt c) false).trans (link_ag_cw_succ X c 0 5)
theorem hp2_agcw_r_10_1 (c : Dev nD) : (Rd (F := F) X).payload (dcell (nxt c) (qR cc0_scratch7 10 1 inb_S15x2_S1x1_10_1)) 0 false = owns (nxt c : Thread nD τ) (rows oM (off true (c.val + 6) 1) (off_inb true (c.val + 6) ⟨1, by decide⟩)) fullShare (doneV X true 1 (devAt c 6)) := (payload_agcw_r_10_1 X (nxt c) false).trans (link_ag_cw_succ X c 1 5)
theorem hp2_agcw_r_11_0 (c : Dev nD) : (Rd (F := F) X).payload (dcell (nxt c) (qR cc0_scratch7 11 0 inb_S15x2_S1x1_11_0)) 0 false = owns (nxt c : Thread nD τ) (rows oM (off true (c.val + 5) 0) (off_inb true (c.val + 5) ⟨0, by decide⟩)) fullShare (doneV X true 0 (devAt c 5)) := (payload_agcw_r_11_0 X (nxt c) false).trans (link_ag_cw_succ X c 0 4)
theorem hp2_agcw_r_11_1 (c : Dev nD) : (Rd (F := F) X).payload (dcell (nxt c) (qR cc0_scratch7 11 1 inb_S15x2_S1x1_11_1)) 0 false = owns (nxt c : Thread nD τ) (rows oM (off true (c.val + 5) 1) (off_inb true (c.val + 5) ⟨1, by decide⟩)) fullShare (doneV X true 1 (devAt c 5)) := (payload_agcw_r_11_1 X (nxt c) false).trans (link_ag_cw_succ X c 1 4)
theorem hp2_agcw_r_12_0 (c : Dev nD) : (Rd (F := F) X).payload (dcell (nxt c) (qR cc0_scratch7 12 0 inb_S15x2_S1x1_12_0)) 0 false = owns (nxt c : Thread nD τ) (rows oM (off true (c.val + 4) 0) (off_inb true (c.val + 4) ⟨0, by decide⟩)) fullShare (doneV X true 0 (devAt c 4)) := (payload_agcw_r_12_0 X (nxt c) false).trans (link_ag_cw_succ X c 0 3)
theorem hp2_agcw_r_12_1 (c : Dev nD) : (Rd (F := F) X).payload (dcell (nxt c) (qR cc0_scratch7 12 1 inb_S15x2_S1x1_12_1)) 0 false = owns (nxt c : Thread nD τ) (rows oM (off true (c.val + 4) 1) (off_inb true (c.val + 4) ⟨1, by decide⟩)) fullShare (doneV X true 1 (devAt c 4)) := (payload_agcw_r_12_1 X (nxt c) false).trans (link_ag_cw_succ X c 1 3)
theorem hp2_agcw_r_13_0 (c : Dev nD) : (Rd (F := F) X).payload (dcell (nxt c) (qR cc0_scratch7 13 0 inb_S15x2_S1x1_13_0)) 0 false = owns (nxt c : Thread nD τ) (rows oM (off true (c.val + 3) 0) (off_inb true (c.val + 3) ⟨0, by decide⟩)) fullShare (doneV X true 0 (devAt c 3)) := (payload_agcw_r_13_0 X (nxt c) false).trans (link_ag_cw_succ X c 0 2)
theorem hp2_agcw_r_13_1 (c : Dev nD) : (Rd (F := F) X).payload (dcell (nxt c) (qR cc0_scratch7 13 1 inb_S15x2_S1x1_13_1)) 0 false = owns (nxt c : Thread nD τ) (rows oM (off true (c.val + 3) 1) (off_inb true (c.val + 3) ⟨1, by decide⟩)) fullShare (doneV X true 1 (devAt c 3)) := (payload_agcw_r_13_1 X (nxt c) false).trans (link_ag_cw_succ X c 1 2)
theorem hp2_agcw_r_14_0 (c : Dev nD) : (Rd (F := F) X).payload (dcell (nxt c) (qR cc0_scratch7 14 0 inb_S15x2_S1x1_14_0)) 0 false = owns (nxt c : Thread nD τ) (rows oM (off true (c.val + 2) 0) (off_inb true (c.val + 2) ⟨0, by decide⟩)) fullShare (doneV X true 0 (devAt c 2)) := (payload_agcw_r_14_0 X (nxt c) false).trans (link_ag_cw_succ X c 0 1)
theorem hp2_agcw_r_14_1 (c : Dev nD) : (Rd (F := F) X).payload (dcell (nxt c) (qR cc0_scratch7 14 1 inb_S15x2_S1x1_14_1)) 0 false = owns (nxt c : Thread nD τ) (rows oM (off true (c.val + 2) 1) (off_inb true (c.val + 2) ⟨1, by decide⟩)) fullShare (doneV X true 1 (devAt c 2)) := (payload_agcw_r_14_1 X (nxt c) false).trans (link_ag_cw_succ X c 1 1)
theorem hp2_rsccw_r_0_0 (c : Dev nD) : (Rd (F := F) X).payload (dcell (prv c) (qR cc0_scratch5 0 0 inb_S15x2_S1x1_0_0)) 0 false = owns (prv c : Thread nD τ) (slot bM 0 0 inb_S15x128x1024_S1x64x1024_0_0_0) fullShare ((rows xM (off false (c.val + 1) 0) (off_inb false (c.val + 1) ⟨0, by decide⟩)).view.read (Elt F) (X c)) := (payload_rsccw_r_0_0 X (prv c) false).trans (link_rs_ccw_zero X c 0 _)
theorem hp2_rsccw_r_0_1 (c : Dev nD) : (Rd (F := F) X).payload (dcell (prv c) (qR cc0_scratch5 0 1 inb_S15x2_S1x1_0_1)) 0 false = owns (prv c : Thread nD τ) (slot bM 0 64 inb_S15x128x1024_S1x64x1024_0_64_0) fullShare ((rows xM (off false (c.val + 1) 1) (off_inb false (c.val + 1) ⟨1, by decide⟩)).view.read (Elt F) (X c)) := (payload_rsccw_r_0_1 X (prv c) false).trans (link_rs_ccw_zero X c 1 _)
theorem hp2_rsccw_r_1_0 (c : Dev nD) : (Rd (F := F) X).payload (dcell (prv c) (qR cc0_scratch5 1 0 inb_S15x2_S1x1_1_0)) 0 false = owns (prv c : Thread nD τ) (slot bM 1 0 inb_S15x128x1024_S1x64x1024_1_0_0) fullShare (addV X false 0 0 c) := (payload_rsccw_r_1_0 X (prv c) false).trans (link_rs_ccw_succ X c 0 0 _)
theorem hp2_rsccw_r_1_1 (c : Dev nD) : (Rd (F := F) X).payload (dcell (prv c) (qR cc0_scratch5 1 1 inb_S15x2_S1x1_1_1)) 0 false = owns (prv c : Thread nD τ) (slot bM 1 64 inb_S15x128x1024_S1x64x1024_1_64_0) fullShare (addV X false 1 0 c) := (payload_rsccw_r_1_1 X (prv c) false).trans (link_rs_ccw_succ X c 1 0 _)
theorem hp2_rsccw_r_2_0 (c : Dev nD) : (Rd (F := F) X).payload (dcell (prv c) (qR cc0_scratch5 2 0 inb_S15x2_S1x1_2_0)) 0 false = owns (prv c : Thread nD τ) (slot bM 2 0 inb_S15x128x1024_S1x64x1024_2_0_0) fullShare (addV X false 0 1 c) := (payload_rsccw_r_2_0 X (prv c) false).trans (link_rs_ccw_succ X c 0 1 _)
theorem hp2_rsccw_r_2_1 (c : Dev nD) : (Rd (F := F) X).payload (dcell (prv c) (qR cc0_scratch5 2 1 inb_S15x2_S1x1_2_1)) 0 false = owns (prv c : Thread nD τ) (slot bM 2 64 inb_S15x128x1024_S1x64x1024_2_64_0) fullShare (addV X false 1 1 c) := (payload_rsccw_r_2_1 X (prv c) false).trans (link_rs_ccw_succ X c 1 1 _)
theorem hp2_rsccw_r_3_0 (c : Dev nD) : (Rd (F := F) X).payload (dcell (prv c) (qR cc0_scratch5 3 0 inb_S15x2_S1x1_3_0)) 0 false = owns (prv c : Thread nD τ) (slot bM 3 0 inb_S15x128x1024_S1x64x1024_3_0_0) fullShare (addV X false 0 2 c) := (payload_rsccw_r_3_0 X (prv c) false).trans (link_rs_ccw_succ X c 0 2 _)
theorem hp2_rsccw_r_3_1 (c : Dev nD) : (Rd (F := F) X).payload (dcell (prv c) (qR cc0_scratch5 3 1 inb_S15x2_S1x1_3_1)) 0 false = owns (prv c : Thread nD τ) (slot bM 3 64 inb_S15x128x1024_S1x64x1024_3_64_0) fullShare (addV X false 1 2 c) := (payload_rsccw_r_3_1 X (prv c) false).trans (link_rs_ccw_succ X c 1 2 _)
theorem hp2_rsccw_r_4_0 (c : Dev nD) : (Rd (F := F) X).payload (dcell (prv c) (qR cc0_scratch5 4 0 inb_S15x2_S1x1_4_0)) 0 false = owns (prv c : Thread nD τ) (slot bM 4 0 inb_S15x128x1024_S1x64x1024_4_0_0) fullShare (addV X false 0 3 c) := (payload_rsccw_r_4_0 X (prv c) false).trans (link_rs_ccw_succ X c 0 3 _)
theorem hp2_rsccw_r_4_1 (c : Dev nD) : (Rd (F := F) X).payload (dcell (prv c) (qR cc0_scratch5 4 1 inb_S15x2_S1x1_4_1)) 0 false = owns (prv c : Thread nD τ) (slot bM 4 64 inb_S15x128x1024_S1x64x1024_4_64_0) fullShare (addV X false 1 3 c) := (payload_rsccw_r_4_1 X (prv c) false).trans (link_rs_ccw_succ X c 1 3 _)
theorem hp2_rsccw_r_5_0 (c : Dev nD) : (Rd (F := F) X).payload (dcell (prv c) (qR cc0_scratch5 5 0 inb_S15x2_S1x1_5_0)) 0 false = owns (prv c : Thread nD τ) (slot bM 5 0 inb_S15x128x1024_S1x64x1024_5_0_0) fullShare (addV X false 0 4 c) := (payload_rsccw_r_5_0 X (prv c) false).trans (link_rs_ccw_succ X c 0 4 _)
theorem hp2_rsccw_r_5_1 (c : Dev nD) : (Rd (F := F) X).payload (dcell (prv c) (qR cc0_scratch5 5 1 inb_S15x2_S1x1_5_1)) 0 false = owns (prv c : Thread nD τ) (slot bM 5 64 inb_S15x128x1024_S1x64x1024_5_64_0) fullShare (addV X false 1 4 c) := (payload_rsccw_r_5_1 X (prv c) false).trans (link_rs_ccw_succ X c 1 4 _)
theorem hp2_rsccw_r_6_0 (c : Dev nD) : (Rd (F := F) X).payload (dcell (prv c) (qR cc0_scratch5 6 0 inb_S15x2_S1x1_6_0)) 0 false = owns (prv c : Thread nD τ) (slot bM 6 0 inb_S15x128x1024_S1x64x1024_6_0_0) fullShare (addV X false 0 5 c) := (payload_rsccw_r_6_0 X (prv c) false).trans (link_rs_ccw_succ X c 0 5 _)
theorem hp2_rsccw_r_6_1 (c : Dev nD) : (Rd (F := F) X).payload (dcell (prv c) (qR cc0_scratch5 6 1 inb_S15x2_S1x1_6_1)) 0 false = owns (prv c : Thread nD τ) (slot bM 6 64 inb_S15x128x1024_S1x64x1024_6_64_0) fullShare (addV X false 1 5 c) := (payload_rsccw_r_6_1 X (prv c) false).trans (link_rs_ccw_succ X c 1 5 _)
theorem hp2_rsccw_r_7_0 (c : Dev nD) : (Rd (F := F) X).payload (dcell (prv c) (qR cc0_scratch5 7 0 inb_S15x2_S1x1_7_0)) 0 false = owns (prv c : Thread nD τ) (slot bM 7 0 inb_S15x128x1024_S1x64x1024_7_0_0) fullShare (addV X false 0 6 c) := (payload_rsccw_r_7_0 X (prv c) false).trans (link_rs_ccw_succ X c 0 6 _)
theorem hp2_rsccw_r_7_1 (c : Dev nD) : (Rd (F := F) X).payload (dcell (prv c) (qR cc0_scratch5 7 1 inb_S15x2_S1x1_7_1)) 0 false = owns (prv c : Thread nD τ) (slot bM 7 64 inb_S15x128x1024_S1x64x1024_7_64_0) fullShare (addV X false 1 6 c) := (payload_rsccw_r_7_1 X (prv c) false).trans (link_rs_ccw_succ X c 1 6 _)
theorem hp2_rsccw_r_8_0 (c : Dev nD) : (Rd (F := F) X).payload (dcell (prv c) (qR cc0_scratch5 8 0 inb_S15x2_S1x1_8_0)) 0 false = owns (prv c : Thread nD τ) (slot bM 8 0 inb_S15x128x1024_S1x64x1024_8_0_0) fullShare (addV X false 0 7 c) := (payload_rsccw_r_8_0 X (prv c) false).trans (link_rs_ccw_succ X c 0 7 _)
theorem hp2_rsccw_r_8_1 (c : Dev nD) : (Rd (F := F) X).payload (dcell (prv c) (qR cc0_scratch5 8 1 inb_S15x2_S1x1_8_1)) 0 false = owns (prv c : Thread nD τ) (slot bM 8 64 inb_S15x128x1024_S1x64x1024_8_64_0) fullShare (addV X false 1 7 c) := (payload_rsccw_r_8_1 X (prv c) false).trans (link_rs_ccw_succ X c 1 7 _)
theorem hp2_rsccw_r_9_0 (c : Dev nD) : (Rd (F := F) X).payload (dcell (prv c) (qR cc0_scratch5 9 0 inb_S15x2_S1x1_9_0)) 0 false = owns (prv c : Thread nD τ) (slot bM 9 0 inb_S15x128x1024_S1x64x1024_9_0_0) fullShare (addV X false 0 8 c) := (payload_rsccw_r_9_0 X (prv c) false).trans (link_rs_ccw_succ X c 0 8 _)
theorem hp2_rsccw_r_9_1 (c : Dev nD) : (Rd (F := F) X).payload (dcell (prv c) (qR cc0_scratch5 9 1 inb_S15x2_S1x1_9_1)) 0 false = owns (prv c : Thread nD τ) (slot bM 9 64 inb_S15x128x1024_S1x64x1024_9_64_0) fullShare (addV X false 1 8 c) := (payload_rsccw_r_9_1 X (prv c) false).trans (link_rs_ccw_succ X c 1 8 _)
theorem hp2_rsccw_r_10_0 (c : Dev nD) : (Rd (F := F) X).payload (dcell (prv c) (qR cc0_scratch5 10 0 inb_S15x2_S1x1_10_0)) 0 false = owns (prv c : Thread nD τ) (slot bM 10 0 inb_S15x128x1024_S1x64x1024_10_0_0) fullShare (addV X false 0 9 c) := (payload_rsccw_r_10_0 X (prv c) false).trans (link_rs_ccw_succ X c 0 9 _)
theorem hp2_rsccw_r_10_1 (c : Dev nD) : (Rd (F := F) X).payload (dcell (prv c) (qR cc0_scratch5 10 1 inb_S15x2_S1x1_10_1)) 0 false = owns (prv c : Thread nD τ) (slot bM 10 64 inb_S15x128x1024_S1x64x1024_10_64_0) fullShare (addV X false 1 9 c) := (payload_rsccw_r_10_1 X (prv c) false).trans (link_rs_ccw_succ X c 1 9 _)
theorem hp2_rsccw_r_11_0 (c : Dev nD) : (Rd (F := F) X).payload (dcell (prv c) (qR cc0_scratch5 11 0 inb_S15x2_S1x1_11_0)) 0 false = owns (prv c : Thread nD τ) (slot bM 11 0 inb_S15x128x1024_S1x64x1024_11_0_0) fullShare (addV X false 0 10 c) := (payload_rsccw_r_11_0 X (prv c) false).trans (link_rs_ccw_succ X c 0 10 _)
theorem hp2_rsccw_r_11_1 (c : Dev nD) : (Rd (F := F) X).payload (dcell (prv c) (qR cc0_scratch5 11 1 inb_S15x2_S1x1_11_1)) 0 false = owns (prv c : Thread nD τ) (slot bM 11 64 inb_S15x128x1024_S1x64x1024_11_64_0) fullShare (addV X false 1 10 c) := (payload_rsccw_r_11_1 X (prv c) false).trans (link_rs_ccw_succ X c 1 10 _)
theorem hp2_rsccw_r_12_0 (c : Dev nD) : (Rd (F := F) X).payload (dcell (prv c) (qR cc0_scratch5 12 0 inb_S15x2_S1x1_12_0)) 0 false = owns (prv c : Thread nD τ) (slot bM 12 0 inb_S15x128x1024_S1x64x1024_12_0_0) fullShare (addV X false 0 11 c) := (payload_rsccw_r_12_0 X (prv c) false).trans (link_rs_ccw_succ X c 0 11 _)
theorem hp2_rsccw_r_12_1 (c : Dev nD) : (Rd (F := F) X).payload (dcell (prv c) (qR cc0_scratch5 12 1 inb_S15x2_S1x1_12_1)) 0 false = owns (prv c : Thread nD τ) (slot bM 12 64 inb_S15x128x1024_S1x64x1024_12_64_0) fullShare (addV X false 1 11 c) := (payload_rsccw_r_12_1 X (prv c) false).trans (link_rs_ccw_succ X c 1 11 _)
theorem hp2_rsccw_r_13_0 (c : Dev nD) : (Rd (F := F) X).payload (dcell (prv c) (qR cc0_scratch5 13 0 inb_S15x2_S1x1_13_0)) 0 false = owns (prv c : Thread nD τ) (slot bM 13 0 inb_S15x128x1024_S1x64x1024_13_0_0) fullShare (addV X false 0 12 c) := (payload_rsccw_r_13_0 X (prv c) false).trans (link_rs_ccw_succ X c 0 12 _)
theorem hp2_rsccw_r_13_1 (c : Dev nD) : (Rd (F := F) X).payload (dcell (prv c) (qR cc0_scratch5 13 1 inb_S15x2_S1x1_13_1)) 0 false = owns (prv c : Thread nD τ) (slot bM 13 64 inb_S15x128x1024_S1x64x1024_13_64_0) fullShare (addV X false 1 12 c) := (payload_rsccw_r_13_1 X (prv c) false).trans (link_rs_ccw_succ X c 1 12 _)
theorem hp2_rsccw_r_14_0 (c : Dev nD) : (Rd (F := F) X).payload (dcell (prv c) (qR cc0_scratch5 14 0 inb_S15x2_S1x1_14_0)) 0 false = owns (prv c : Thread nD τ) (slot bM 14 0 inb_S15x128x1024_S1x64x1024_14_0_0) fullShare (addV X false 0 13 c) := (payload_rsccw_r_14_0 X (prv c) false).trans (link_rs_ccw_succ X c 0 13 _)
theorem hp2_rsccw_r_14_1 (c : Dev nD) : (Rd (F := F) X).payload (dcell (prv c) (qR cc0_scratch5 14 1 inb_S15x2_S1x1_14_1)) 0 false = owns (prv c : Thread nD τ) (slot bM 14 64 inb_S15x128x1024_S1x64x1024_14_64_0) fullShare (addV X false 1 13 c) := (payload_rsccw_r_14_1 X (prv c) false).trans (link_rs_ccw_succ X c 1 13 _)
theorem hp2_agccw_r_0_0 (c : Dev nD) : (Rd (F := F) X).payload (dcell (prv c) (qR cc0_scratch9 0 0 inb_S15x2_S1x1_0_0)) 0 false = owns (prv c : Thread nD τ) (rows oM (off false (c.val + 0) 0) (off_inb false (c.val + 0) ⟨0, by decide⟩)) fullShare (addV X false 0 14 c) := (payload_agccw_r_0_0 X (prv c) false).trans (link_ag_ccw_zero X c 0)
theorem hp2_agccw_r_0_1 (c : Dev nD) : (Rd (F := F) X).payload (dcell (prv c) (qR cc0_scratch9 0 1 inb_S15x2_S1x1_0_1)) 0 false = owns (prv c : Thread nD τ) (rows oM (off false (c.val + 0) 1) (off_inb false (c.val + 0) ⟨1, by decide⟩)) fullShare (addV X false 1 14 c) := (payload_agccw_r_0_1 X (prv c) false).trans (link_ag_ccw_zero X c 1)
theorem hp2_agccw_r_1_0 (c : Dev nD) : (Rd (F := F) X).payload (dcell (prv c) (qR cc0_scratch9 1 0 inb_S15x2_S1x1_1_0)) 0 false = owns (prv c : Thread nD τ) (rows oM (off false (c.val + 1) 0) (off_inb false (c.val + 1) ⟨0, by decide⟩)) fullShare (doneV X false 0 (devAt c 1)) := (payload_agccw_r_1_0 X (prv c) false).trans (link_ag_ccw_succ X c 0 1)
theorem hp2_agccw_r_1_1 (c : Dev nD) : (Rd (F := F) X).payload (dcell (prv c) (qR cc0_scratch9 1 1 inb_S15x2_S1x1_1_1)) 0 false = owns (prv c : Thread nD τ) (rows oM (off false (c.val + 1) 1) (off_inb false (c.val + 1) ⟨1, by decide⟩)) fullShare (doneV X false 1 (devAt c 1)) := (payload_agccw_r_1_1 X (prv c) false).trans (link_ag_ccw_succ X c 1 1)
theorem hp2_agccw_r_2_0 (c : Dev nD) : (Rd (F := F) X).payload (dcell (prv c) (qR cc0_scratch9 2 0 inb_S15x2_S1x1_2_0)) 0 false = owns (prv c : Thread nD τ) (rows oM (off false (c.val + 2) 0) (off_inb false (c.val + 2) ⟨0, by decide⟩)) fullShare (doneV X false 0 (devAt c 2)) := (payload_agccw_r_2_0 X (prv c) false).trans (link_ag_ccw_succ X c 0 2)
theorem hp2_agccw_r_2_1 (c : Dev nD) : (Rd (F := F) X).payload (dcell (prv c) (qR cc0_scratch9 2 1 inb_S15x2_S1x1_2_1)) 0 false = owns (prv c : Thread nD τ) (rows oM (off false (c.val + 2) 1) (off_inb false (c.val + 2) ⟨1, by decide⟩)) fullShare (doneV X false 1 (devAt c 2)) := (payload_agccw_r_2_1 X (prv c) false).trans (link_ag_ccw_succ X c 1 2)
theorem hp2_agccw_r_3_0 (c : Dev nD) : (Rd (F := F) X).payload (dcell (prv c) (qR cc0_scratch9 3 0 inb_S15x2_S1x1_3_0)) 0 false = owns (prv c : Thread nD τ) (rows oM (off false (c.val + 3) 0) (off_inb false (c.val + 3) ⟨0, by decide⟩)) fullShare (doneV X false 0 (devAt c 3)) := (payload_agccw_r_3_0 X (prv c) false).trans (link_ag_ccw_succ X c 0 3)
theorem hp2_agccw_r_3_1 (c : Dev nD) : (Rd (F := F) X).payload (dcell (prv c) (qR cc0_scratch9 3 1 inb_S15x2_S1x1_3_1)) 0 false = owns (prv c : Thread nD τ) (rows oM (off false (c.val + 3) 1) (off_inb false (c.val + 3) ⟨1, by decide⟩)) fullShare (doneV X false 1 (devAt c 3)) := (payload_agccw_r_3_1 X (prv c) false).trans (link_ag_ccw_succ X c 1 3)
theorem hp2_agccw_r_4_0 (c : Dev nD) : (Rd (F := F) X).payload (dcell (prv c) (qR cc0_scratch9 4 0 inb_S15x2_S1x1_4_0)) 0 false = owns (prv c : Thread nD τ) (rows oM (off false (c.val + 4) 0) (off_inb false (c.val + 4) ⟨0, by decide⟩)) fullShare (doneV X false 0 (devAt c 4)) := (payload_agccw_r_4_0 X (prv c) false).trans (link_ag_ccw_succ X c 0 4)
theorem hp2_agccw_r_4_1 (c : Dev nD) : (Rd (F := F) X).payload (dcell (prv c) (qR cc0_scratch9 4 1 inb_S15x2_S1x1_4_1)) 0 false = owns (prv c : Thread nD τ) (rows oM (off false (c.val + 4) 1) (off_inb false (c.val + 4) ⟨1, by decide⟩)) fullShare (doneV X false 1 (devAt c 4)) := (payload_agccw_r_4_1 X (prv c) false).trans (link_ag_ccw_succ X c 1 4)
theorem hp2_agccw_r_5_0 (c : Dev nD) : (Rd (F := F) X).payload (dcell (prv c) (qR cc0_scratch9 5 0 inb_S15x2_S1x1_5_0)) 0 false = owns (prv c : Thread nD τ) (rows oM (off false (c.val + 5) 0) (off_inb false (c.val + 5) ⟨0, by decide⟩)) fullShare (doneV X false 0 (devAt c 5)) := (payload_agccw_r_5_0 X (prv c) false).trans (link_ag_ccw_succ X c 0 5)
theorem hp2_agccw_r_5_1 (c : Dev nD) : (Rd (F := F) X).payload (dcell (prv c) (qR cc0_scratch9 5 1 inb_S15x2_S1x1_5_1)) 0 false = owns (prv c : Thread nD τ) (rows oM (off false (c.val + 5) 1) (off_inb false (c.val + 5) ⟨1, by decide⟩)) fullShare (doneV X false 1 (devAt c 5)) := (payload_agccw_r_5_1 X (prv c) false).trans (link_ag_ccw_succ X c 1 5)
theorem hp2_agccw_r_6_0 (c : Dev nD) : (Rd (F := F) X).payload (dcell (prv c) (qR cc0_scratch9 6 0 inb_S15x2_S1x1_6_0)) 0 false = owns (prv c : Thread nD τ) (rows oM (off false (c.val + 6) 0) (off_inb false (c.val + 6) ⟨0, by decide⟩)) fullShare (doneV X false 0 (devAt c 6)) := (payload_agccw_r_6_0 X (prv c) false).trans (link_ag_ccw_succ X c 0 6)
theorem hp2_agccw_r_6_1 (c : Dev nD) : (Rd (F := F) X).payload (dcell (prv c) (qR cc0_scratch9 6 1 inb_S15x2_S1x1_6_1)) 0 false = owns (prv c : Thread nD τ) (rows oM (off false (c.val + 6) 1) (off_inb false (c.val + 6) ⟨1, by decide⟩)) fullShare (doneV X false 1 (devAt c 6)) := (payload_agccw_r_6_1 X (prv c) false).trans (link_ag_ccw_succ X c 1 6)
theorem hp2_agccw_r_7_0 (c : Dev nD) : (Rd (F := F) X).payload (dcell (prv c) (qR cc0_scratch9 7 0 inb_S15x2_S1x1_7_0)) 0 false = owns (prv c : Thread nD τ) (rows oM (off false (c.val + 7) 0) (off_inb false (c.val + 7) ⟨0, by decide⟩)) fullShare (doneV X false 0 (devAt c 7)) := (payload_agccw_r_7_0 X (prv c) false).trans (link_ag_ccw_succ X c 0 7)
theorem hp2_agccw_r_7_1 (c : Dev nD) : (Rd (F := F) X).payload (dcell (prv c) (qR cc0_scratch9 7 1 inb_S15x2_S1x1_7_1)) 0 false = owns (prv c : Thread nD τ) (rows oM (off false (c.val + 7) 1) (off_inb false (c.val + 7) ⟨1, by decide⟩)) fullShare (doneV X false 1 (devAt c 7)) := (payload_agccw_r_7_1 X (prv c) false).trans (link_ag_ccw_succ X c 1 7)
theorem hp2_agccw_r_8_0 (c : Dev nD) : (Rd (F := F) X).payload (dcell (prv c) (qR cc0_scratch9 8 0 inb_S15x2_S1x1_8_0)) 0 false = owns (prv c : Thread nD τ) (rows oM (off false (c.val + 8) 0) (off_inb false (c.val + 8) ⟨0, by decide⟩)) fullShare (doneV X false 0 (devAt c 8)) := (payload_agccw_r_8_0 X (prv c) false).trans (link_ag_ccw_succ X c 0 8)
theorem hp2_agccw_r_8_1 (c : Dev nD) : (Rd (F := F) X).payload (dcell (prv c) (qR cc0_scratch9 8 1 inb_S15x2_S1x1_8_1)) 0 false = owns (prv c : Thread nD τ) (rows oM (off false (c.val + 8) 1) (off_inb false (c.val + 8) ⟨1, by decide⟩)) fullShare (doneV X false 1 (devAt c 8)) := (payload_agccw_r_8_1 X (prv c) false).trans (link_ag_ccw_succ X c 1 8)
theorem hp2_agccw_r_9_0 (c : Dev nD) : (Rd (F := F) X).payload (dcell (prv c) (qR cc0_scratch9 9 0 inb_S15x2_S1x1_9_0)) 0 false = owns (prv c : Thread nD τ) (rows oM (off false (c.val + 9) 0) (off_inb false (c.val + 9) ⟨0, by decide⟩)) fullShare (doneV X false 0 (devAt c 9)) := (payload_agccw_r_9_0 X (prv c) false).trans (link_ag_ccw_succ X c 0 9)
theorem hp2_agccw_r_9_1 (c : Dev nD) : (Rd (F := F) X).payload (dcell (prv c) (qR cc0_scratch9 9 1 inb_S15x2_S1x1_9_1)) 0 false = owns (prv c : Thread nD τ) (rows oM (off false (c.val + 9) 1) (off_inb false (c.val + 9) ⟨1, by decide⟩)) fullShare (doneV X false 1 (devAt c 9)) := (payload_agccw_r_9_1 X (prv c) false).trans (link_ag_ccw_succ X c 1 9)
theorem hp2_agccw_r_10_0 (c : Dev nD) : (Rd (F := F) X).payload (dcell (prv c) (qR cc0_scratch9 10 0 inb_S15x2_S1x1_10_0)) 0 false = owns (prv c : Thread nD τ) (rows oM (off false (c.val + 10) 0) (off_inb false (c.val + 10) ⟨0, by decide⟩)) fullShare (doneV X false 0 (devAt c 10)) := (payload_agccw_r_10_0 X (prv c) false).trans (link_ag_ccw_succ X c 0 10)
theorem hp2_agccw_r_10_1 (c : Dev nD) : (Rd (F := F) X).payload (dcell (prv c) (qR cc0_scratch9 10 1 inb_S15x2_S1x1_10_1)) 0 false = owns (prv c : Thread nD τ) (rows oM (off false (c.val + 10) 1) (off_inb false (c.val + 10) ⟨1, by decide⟩)) fullShare (doneV X false 1 (devAt c 10)) := (payload_agccw_r_10_1 X (prv c) false).trans (link_ag_ccw_succ X c 1 10)
theorem hp2_agccw_r_11_0 (c : Dev nD) : (Rd (F := F) X).payload (dcell (prv c) (qR cc0_scratch9 11 0 inb_S15x2_S1x1_11_0)) 0 false = owns (prv c : Thread nD τ) (rows oM (off false (c.val + 11) 0) (off_inb false (c.val + 11) ⟨0, by decide⟩)) fullShare (doneV X false 0 (devAt c 11)) := (payload_agccw_r_11_0 X (prv c) false).trans (link_ag_ccw_succ X c 0 11)
theorem hp2_agccw_r_11_1 (c : Dev nD) : (Rd (F := F) X).payload (dcell (prv c) (qR cc0_scratch9 11 1 inb_S15x2_S1x1_11_1)) 0 false = owns (prv c : Thread nD τ) (rows oM (off false (c.val + 11) 1) (off_inb false (c.val + 11) ⟨1, by decide⟩)) fullShare (doneV X false 1 (devAt c 11)) := (payload_agccw_r_11_1 X (prv c) false).trans (link_ag_ccw_succ X c 1 11)
theorem hp2_agccw_r_12_0 (c : Dev nD) : (Rd (F := F) X).payload (dcell (prv c) (qR cc0_scratch9 12 0 inb_S15x2_S1x1_12_0)) 0 false = owns (prv c : Thread nD τ) (rows oM (off false (c.val + 12) 0) (off_inb false (c.val + 12) ⟨0, by decide⟩)) fullShare (doneV X false 0 (devAt c 12)) := (payload_agccw_r_12_0 X (prv c) false).trans (link_ag_ccw_succ X c 0 12)
theorem hp2_agccw_r_12_1 (c : Dev nD) : (Rd (F := F) X).payload (dcell (prv c) (qR cc0_scratch9 12 1 inb_S15x2_S1x1_12_1)) 0 false = owns (prv c : Thread nD τ) (rows oM (off false (c.val + 12) 1) (off_inb false (c.val + 12) ⟨1, by decide⟩)) fullShare (doneV X false 1 (devAt c 12)) := (payload_agccw_r_12_1 X (prv c) false).trans (link_ag_ccw_succ X c 1 12)
theorem hp2_agccw_r_13_0 (c : Dev nD) : (Rd (F := F) X).payload (dcell (prv c) (qR cc0_scratch9 13 0 inb_S15x2_S1x1_13_0)) 0 false = owns (prv c : Thread nD τ) (rows oM (off false (c.val + 13) 0) (off_inb false (c.val + 13) ⟨0, by decide⟩)) fullShare (doneV X false 0 (devAt c 13)) := (payload_agccw_r_13_0 X (prv c) false).trans (link_ag_ccw_succ X c 0 13)
theorem hp2_agccw_r_13_1 (c : Dev nD) : (Rd (F := F) X).payload (dcell (prv c) (qR cc0_scratch9 13 1 inb_S15x2_S1x1_13_1)) 0 false = owns (prv c : Thread nD τ) (rows oM (off false (c.val + 13) 1) (off_inb false (c.val + 13) ⟨1, by decide⟩)) fullShare (doneV X false 1 (devAt c 13)) := (payload_agccw_r_13_1 X (prv c) false).trans (link_ag_ccw_succ X c 1 13)
theorem hp2_agccw_r_14_0 (c : Dev nD) : (Rd (F := F) X).payload (dcell (prv c) (qR cc0_scratch9 14 0 inb_S15x2_S1x1_14_0)) 0 false = owns (prv c : Thread nD τ) (rows oM (off false (c.val + 14) 0) (off_inb false (c.val + 14) ⟨0, by decide⟩)) fullShare (doneV X false 0 (devAt c 14)) := (payload_agccw_r_14_0 X (prv c) false).trans (link_ag_ccw_succ X c 0 14)
theorem hp2_agccw_r_14_1 (c : Dev nD) : (Rd (F := F) X).payload (dcell (prv c) (qR cc0_scratch9 14 1 inb_S15x2_S1x1_14_1)) 0 false = owns (prv c : Thread nD τ) (rows oM (off false (c.val + 14) 1) (off_inb false (c.val + 14) ⟨1, by decide⟩)) fullShare (doneV X false 1 (devAt c 14)) := (payload_agccw_r_14_1 X (prv c) false).trans (link_ag_ccw_succ X c 1 14)

/-! ## The steps' sums -/

theorem addV_eq_cw_0_0 (c : Dev nD) : addV X true 0 0 c = kadd (recvV X true 0 0 c) (piece (off true (c.val + 14) 0) (off_inb true (c.val + 14) ⟨0, by decide⟩) (X c)) := addV_eq X true 0 0 c 14 (by show (c.val + 14) % 16 = (c.val + 32 - 2 - 0) % 16; omega)
theorem addV_eq_cw_0_1 (c : Dev nD) : addV X true 1 0 c = kadd (recvV X true 1 0 c) (piece (off true (c.val + 14) 1) (off_inb true (c.val + 14) ⟨1, by decide⟩) (X c)) := addV_eq X true 1 0 c 14 (by show (c.val + 14) % 16 = (c.val + 32 - 2 - 0) % 16; omega)
theorem addV_eq_cw_1_0 (c : Dev nD) : addV X true 0 1 c = kadd (recvV X true 0 1 c) (piece (off true (c.val + 13) 0) (off_inb true (c.val + 13) ⟨0, by decide⟩) (X c)) := addV_eq X true 0 1 c 13 (by show (c.val + 13) % 16 = (c.val + 32 - 2 - 1) % 16; omega)
theorem addV_eq_cw_1_1 (c : Dev nD) : addV X true 1 1 c = kadd (recvV X true 1 1 c) (piece (off true (c.val + 13) 1) (off_inb true (c.val + 13) ⟨1, by decide⟩) (X c)) := addV_eq X true 1 1 c 13 (by show (c.val + 13) % 16 = (c.val + 32 - 2 - 1) % 16; omega)
theorem addV_eq_cw_2_0 (c : Dev nD) : addV X true 0 2 c = kadd (recvV X true 0 2 c) (piece (off true (c.val + 12) 0) (off_inb true (c.val + 12) ⟨0, by decide⟩) (X c)) := addV_eq X true 0 2 c 12 (by show (c.val + 12) % 16 = (c.val + 32 - 2 - 2) % 16; omega)
theorem addV_eq_cw_2_1 (c : Dev nD) : addV X true 1 2 c = kadd (recvV X true 1 2 c) (piece (off true (c.val + 12) 1) (off_inb true (c.val + 12) ⟨1, by decide⟩) (X c)) := addV_eq X true 1 2 c 12 (by show (c.val + 12) % 16 = (c.val + 32 - 2 - 2) % 16; omega)
theorem addV_eq_cw_3_0 (c : Dev nD) : addV X true 0 3 c = kadd (recvV X true 0 3 c) (piece (off true (c.val + 11) 0) (off_inb true (c.val + 11) ⟨0, by decide⟩) (X c)) := addV_eq X true 0 3 c 11 (by show (c.val + 11) % 16 = (c.val + 32 - 2 - 3) % 16; omega)
theorem addV_eq_cw_3_1 (c : Dev nD) : addV X true 1 3 c = kadd (recvV X true 1 3 c) (piece (off true (c.val + 11) 1) (off_inb true (c.val + 11) ⟨1, by decide⟩) (X c)) := addV_eq X true 1 3 c 11 (by show (c.val + 11) % 16 = (c.val + 32 - 2 - 3) % 16; omega)
theorem addV_eq_cw_4_0 (c : Dev nD) : addV X true 0 4 c = kadd (recvV X true 0 4 c) (piece (off true (c.val + 10) 0) (off_inb true (c.val + 10) ⟨0, by decide⟩) (X c)) := addV_eq X true 0 4 c 10 (by show (c.val + 10) % 16 = (c.val + 32 - 2 - 4) % 16; omega)
theorem addV_eq_cw_4_1 (c : Dev nD) : addV X true 1 4 c = kadd (recvV X true 1 4 c) (piece (off true (c.val + 10) 1) (off_inb true (c.val + 10) ⟨1, by decide⟩) (X c)) := addV_eq X true 1 4 c 10 (by show (c.val + 10) % 16 = (c.val + 32 - 2 - 4) % 16; omega)
theorem addV_eq_cw_5_0 (c : Dev nD) : addV X true 0 5 c = kadd (recvV X true 0 5 c) (piece (off true (c.val + 9) 0) (off_inb true (c.val + 9) ⟨0, by decide⟩) (X c)) := addV_eq X true 0 5 c 9 (by show (c.val + 9) % 16 = (c.val + 32 - 2 - 5) % 16; omega)
theorem addV_eq_cw_5_1 (c : Dev nD) : addV X true 1 5 c = kadd (recvV X true 1 5 c) (piece (off true (c.val + 9) 1) (off_inb true (c.val + 9) ⟨1, by decide⟩) (X c)) := addV_eq X true 1 5 c 9 (by show (c.val + 9) % 16 = (c.val + 32 - 2 - 5) % 16; omega)
theorem addV_eq_cw_6_0 (c : Dev nD) : addV X true 0 6 c = kadd (recvV X true 0 6 c) (piece (off true (c.val + 8) 0) (off_inb true (c.val + 8) ⟨0, by decide⟩) (X c)) := addV_eq X true 0 6 c 8 (by show (c.val + 8) % 16 = (c.val + 32 - 2 - 6) % 16; omega)
theorem addV_eq_cw_6_1 (c : Dev nD) : addV X true 1 6 c = kadd (recvV X true 1 6 c) (piece (off true (c.val + 8) 1) (off_inb true (c.val + 8) ⟨1, by decide⟩) (X c)) := addV_eq X true 1 6 c 8 (by show (c.val + 8) % 16 = (c.val + 32 - 2 - 6) % 16; omega)
theorem addV_eq_cw_7_0 (c : Dev nD) : addV X true 0 7 c = kadd (recvV X true 0 7 c) (piece (off true (c.val + 7) 0) (off_inb true (c.val + 7) ⟨0, by decide⟩) (X c)) := addV_eq X true 0 7 c 7 (by show (c.val + 7) % 16 = (c.val + 32 - 2 - 7) % 16; omega)
theorem addV_eq_cw_7_1 (c : Dev nD) : addV X true 1 7 c = kadd (recvV X true 1 7 c) (piece (off true (c.val + 7) 1) (off_inb true (c.val + 7) ⟨1, by decide⟩) (X c)) := addV_eq X true 1 7 c 7 (by show (c.val + 7) % 16 = (c.val + 32 - 2 - 7) % 16; omega)
theorem addV_eq_cw_8_0 (c : Dev nD) : addV X true 0 8 c = kadd (recvV X true 0 8 c) (piece (off true (c.val + 6) 0) (off_inb true (c.val + 6) ⟨0, by decide⟩) (X c)) := addV_eq X true 0 8 c 6 (by show (c.val + 6) % 16 = (c.val + 32 - 2 - 8) % 16; omega)
theorem addV_eq_cw_8_1 (c : Dev nD) : addV X true 1 8 c = kadd (recvV X true 1 8 c) (piece (off true (c.val + 6) 1) (off_inb true (c.val + 6) ⟨1, by decide⟩) (X c)) := addV_eq X true 1 8 c 6 (by show (c.val + 6) % 16 = (c.val + 32 - 2 - 8) % 16; omega)
theorem addV_eq_cw_9_0 (c : Dev nD) : addV X true 0 9 c = kadd (recvV X true 0 9 c) (piece (off true (c.val + 5) 0) (off_inb true (c.val + 5) ⟨0, by decide⟩) (X c)) := addV_eq X true 0 9 c 5 (by show (c.val + 5) % 16 = (c.val + 32 - 2 - 9) % 16; omega)
theorem addV_eq_cw_9_1 (c : Dev nD) : addV X true 1 9 c = kadd (recvV X true 1 9 c) (piece (off true (c.val + 5) 1) (off_inb true (c.val + 5) ⟨1, by decide⟩) (X c)) := addV_eq X true 1 9 c 5 (by show (c.val + 5) % 16 = (c.val + 32 - 2 - 9) % 16; omega)
theorem addV_eq_cw_10_0 (c : Dev nD) : addV X true 0 10 c = kadd (recvV X true 0 10 c) (piece (off true (c.val + 4) 0) (off_inb true (c.val + 4) ⟨0, by decide⟩) (X c)) := addV_eq X true 0 10 c 4 (by show (c.val + 4) % 16 = (c.val + 32 - 2 - 10) % 16; omega)
theorem addV_eq_cw_10_1 (c : Dev nD) : addV X true 1 10 c = kadd (recvV X true 1 10 c) (piece (off true (c.val + 4) 1) (off_inb true (c.val + 4) ⟨1, by decide⟩) (X c)) := addV_eq X true 1 10 c 4 (by show (c.val + 4) % 16 = (c.val + 32 - 2 - 10) % 16; omega)
theorem addV_eq_cw_11_0 (c : Dev nD) : addV X true 0 11 c = kadd (recvV X true 0 11 c) (piece (off true (c.val + 3) 0) (off_inb true (c.val + 3) ⟨0, by decide⟩) (X c)) := addV_eq X true 0 11 c 3 (by show (c.val + 3) % 16 = (c.val + 32 - 2 - 11) % 16; omega)
theorem addV_eq_cw_11_1 (c : Dev nD) : addV X true 1 11 c = kadd (recvV X true 1 11 c) (piece (off true (c.val + 3) 1) (off_inb true (c.val + 3) ⟨1, by decide⟩) (X c)) := addV_eq X true 1 11 c 3 (by show (c.val + 3) % 16 = (c.val + 32 - 2 - 11) % 16; omega)
theorem addV_eq_cw_12_0 (c : Dev nD) : addV X true 0 12 c = kadd (recvV X true 0 12 c) (piece (off true (c.val + 2) 0) (off_inb true (c.val + 2) ⟨0, by decide⟩) (X c)) := addV_eq X true 0 12 c 2 (by show (c.val + 2) % 16 = (c.val + 32 - 2 - 12) % 16; omega)
theorem addV_eq_cw_12_1 (c : Dev nD) : addV X true 1 12 c = kadd (recvV X true 1 12 c) (piece (off true (c.val + 2) 1) (off_inb true (c.val + 2) ⟨1, by decide⟩) (X c)) := addV_eq X true 1 12 c 2 (by show (c.val + 2) % 16 = (c.val + 32 - 2 - 12) % 16; omega)
theorem addV_eq_cw_13_0 (c : Dev nD) : addV X true 0 13 c = kadd (recvV X true 0 13 c) (piece (off true (c.val + 1) 0) (off_inb true (c.val + 1) ⟨0, by decide⟩) (X c)) := addV_eq X true 0 13 c 1 (by show (c.val + 1) % 16 = (c.val + 32 - 2 - 13) % 16; omega)
theorem addV_eq_cw_13_1 (c : Dev nD) : addV X true 1 13 c = kadd (recvV X true 1 13 c) (piece (off true (c.val + 1) 1) (off_inb true (c.val + 1) ⟨1, by decide⟩) (X c)) := addV_eq X true 1 13 c 1 (by show (c.val + 1) % 16 = (c.val + 32 - 2 - 13) % 16; omega)
theorem addV_eq_cw_14_0 (c : Dev nD) : addV X true 0 14 c = kadd (recvV X true 0 14 c) (piece (off true (c.val + 0) 0) (off_inb true (c.val + 0) ⟨0, by decide⟩) (X c)) := addV_eq X true 0 14 c 0 (by show (c.val + 0) % 16 = (c.val + 32 - 2 - 14) % 16; omega)
theorem addV_eq_cw_14_1 (c : Dev nD) : addV X true 1 14 c = kadd (recvV X true 1 14 c) (piece (off true (c.val + 0) 1) (off_inb true (c.val + 0) ⟨1, by decide⟩) (X c)) := addV_eq X true 1 14 c 0 (by show (c.val + 0) % 16 = (c.val + 32 - 2 - 14) % 16; omega)
theorem addV_eq_ccw_0_0 (c : Dev nD) : addV X false 0 0 c = kadd (recvV X false 0 0 c) (piece (off false (c.val + 2) 0) (off_inb false (c.val + 2) ⟨0, by decide⟩) (X c)) := addV_eq X false 0 0 c 2 (by show (c.val + 2) % 16 = (c.val + 2 + 0) % 16; omega)
theorem addV_eq_ccw_0_1 (c : Dev nD) : addV X false 1 0 c = kadd (recvV X false 1 0 c) (piece (off false (c.val + 2) 1) (off_inb false (c.val + 2) ⟨1, by decide⟩) (X c)) := addV_eq X false 1 0 c 2 (by show (c.val + 2) % 16 = (c.val + 2 + 0) % 16; omega)
theorem addV_eq_ccw_1_0 (c : Dev nD) : addV X false 0 1 c = kadd (recvV X false 0 1 c) (piece (off false (c.val + 3) 0) (off_inb false (c.val + 3) ⟨0, by decide⟩) (X c)) := addV_eq X false 0 1 c 3 (by show (c.val + 3) % 16 = (c.val + 2 + 1) % 16; omega)
theorem addV_eq_ccw_1_1 (c : Dev nD) : addV X false 1 1 c = kadd (recvV X false 1 1 c) (piece (off false (c.val + 3) 1) (off_inb false (c.val + 3) ⟨1, by decide⟩) (X c)) := addV_eq X false 1 1 c 3 (by show (c.val + 3) % 16 = (c.val + 2 + 1) % 16; omega)
theorem addV_eq_ccw_2_0 (c : Dev nD) : addV X false 0 2 c = kadd (recvV X false 0 2 c) (piece (off false (c.val + 4) 0) (off_inb false (c.val + 4) ⟨0, by decide⟩) (X c)) := addV_eq X false 0 2 c 4 (by show (c.val + 4) % 16 = (c.val + 2 + 2) % 16; omega)
theorem addV_eq_ccw_2_1 (c : Dev nD) : addV X false 1 2 c = kadd (recvV X false 1 2 c) (piece (off false (c.val + 4) 1) (off_inb false (c.val + 4) ⟨1, by decide⟩) (X c)) := addV_eq X false 1 2 c 4 (by show (c.val + 4) % 16 = (c.val + 2 + 2) % 16; omega)
theorem addV_eq_ccw_3_0 (c : Dev nD) : addV X false 0 3 c = kadd (recvV X false 0 3 c) (piece (off false (c.val + 5) 0) (off_inb false (c.val + 5) ⟨0, by decide⟩) (X c)) := addV_eq X false 0 3 c 5 (by show (c.val + 5) % 16 = (c.val + 2 + 3) % 16; omega)
theorem addV_eq_ccw_3_1 (c : Dev nD) : addV X false 1 3 c = kadd (recvV X false 1 3 c) (piece (off false (c.val + 5) 1) (off_inb false (c.val + 5) ⟨1, by decide⟩) (X c)) := addV_eq X false 1 3 c 5 (by show (c.val + 5) % 16 = (c.val + 2 + 3) % 16; omega)
theorem addV_eq_ccw_4_0 (c : Dev nD) : addV X false 0 4 c = kadd (recvV X false 0 4 c) (piece (off false (c.val + 6) 0) (off_inb false (c.val + 6) ⟨0, by decide⟩) (X c)) := addV_eq X false 0 4 c 6 (by show (c.val + 6) % 16 = (c.val + 2 + 4) % 16; omega)
theorem addV_eq_ccw_4_1 (c : Dev nD) : addV X false 1 4 c = kadd (recvV X false 1 4 c) (piece (off false (c.val + 6) 1) (off_inb false (c.val + 6) ⟨1, by decide⟩) (X c)) := addV_eq X false 1 4 c 6 (by show (c.val + 6) % 16 = (c.val + 2 + 4) % 16; omega)
theorem addV_eq_ccw_5_0 (c : Dev nD) : addV X false 0 5 c = kadd (recvV X false 0 5 c) (piece (off false (c.val + 7) 0) (off_inb false (c.val + 7) ⟨0, by decide⟩) (X c)) := addV_eq X false 0 5 c 7 (by show (c.val + 7) % 16 = (c.val + 2 + 5) % 16; omega)
theorem addV_eq_ccw_5_1 (c : Dev nD) : addV X false 1 5 c = kadd (recvV X false 1 5 c) (piece (off false (c.val + 7) 1) (off_inb false (c.val + 7) ⟨1, by decide⟩) (X c)) := addV_eq X false 1 5 c 7 (by show (c.val + 7) % 16 = (c.val + 2 + 5) % 16; omega)
theorem addV_eq_ccw_6_0 (c : Dev nD) : addV X false 0 6 c = kadd (recvV X false 0 6 c) (piece (off false (c.val + 8) 0) (off_inb false (c.val + 8) ⟨0, by decide⟩) (X c)) := addV_eq X false 0 6 c 8 (by show (c.val + 8) % 16 = (c.val + 2 + 6) % 16; omega)
theorem addV_eq_ccw_6_1 (c : Dev nD) : addV X false 1 6 c = kadd (recvV X false 1 6 c) (piece (off false (c.val + 8) 1) (off_inb false (c.val + 8) ⟨1, by decide⟩) (X c)) := addV_eq X false 1 6 c 8 (by show (c.val + 8) % 16 = (c.val + 2 + 6) % 16; omega)
theorem addV_eq_ccw_7_0 (c : Dev nD) : addV X false 0 7 c = kadd (recvV X false 0 7 c) (piece (off false (c.val + 9) 0) (off_inb false (c.val + 9) ⟨0, by decide⟩) (X c)) := addV_eq X false 0 7 c 9 (by show (c.val + 9) % 16 = (c.val + 2 + 7) % 16; omega)
theorem addV_eq_ccw_7_1 (c : Dev nD) : addV X false 1 7 c = kadd (recvV X false 1 7 c) (piece (off false (c.val + 9) 1) (off_inb false (c.val + 9) ⟨1, by decide⟩) (X c)) := addV_eq X false 1 7 c 9 (by show (c.val + 9) % 16 = (c.val + 2 + 7) % 16; omega)
theorem addV_eq_ccw_8_0 (c : Dev nD) : addV X false 0 8 c = kadd (recvV X false 0 8 c) (piece (off false (c.val + 10) 0) (off_inb false (c.val + 10) ⟨0, by decide⟩) (X c)) := addV_eq X false 0 8 c 10 (by show (c.val + 10) % 16 = (c.val + 2 + 8) % 16; omega)
theorem addV_eq_ccw_8_1 (c : Dev nD) : addV X false 1 8 c = kadd (recvV X false 1 8 c) (piece (off false (c.val + 10) 1) (off_inb false (c.val + 10) ⟨1, by decide⟩) (X c)) := addV_eq X false 1 8 c 10 (by show (c.val + 10) % 16 = (c.val + 2 + 8) % 16; omega)
theorem addV_eq_ccw_9_0 (c : Dev nD) : addV X false 0 9 c = kadd (recvV X false 0 9 c) (piece (off false (c.val + 11) 0) (off_inb false (c.val + 11) ⟨0, by decide⟩) (X c)) := addV_eq X false 0 9 c 11 (by show (c.val + 11) % 16 = (c.val + 2 + 9) % 16; omega)
theorem addV_eq_ccw_9_1 (c : Dev nD) : addV X false 1 9 c = kadd (recvV X false 1 9 c) (piece (off false (c.val + 11) 1) (off_inb false (c.val + 11) ⟨1, by decide⟩) (X c)) := addV_eq X false 1 9 c 11 (by show (c.val + 11) % 16 = (c.val + 2 + 9) % 16; omega)
theorem addV_eq_ccw_10_0 (c : Dev nD) : addV X false 0 10 c = kadd (recvV X false 0 10 c) (piece (off false (c.val + 12) 0) (off_inb false (c.val + 12) ⟨0, by decide⟩) (X c)) := addV_eq X false 0 10 c 12 (by show (c.val + 12) % 16 = (c.val + 2 + 10) % 16; omega)
theorem addV_eq_ccw_10_1 (c : Dev nD) : addV X false 1 10 c = kadd (recvV X false 1 10 c) (piece (off false (c.val + 12) 1) (off_inb false (c.val + 12) ⟨1, by decide⟩) (X c)) := addV_eq X false 1 10 c 12 (by show (c.val + 12) % 16 = (c.val + 2 + 10) % 16; omega)
theorem addV_eq_ccw_11_0 (c : Dev nD) : addV X false 0 11 c = kadd (recvV X false 0 11 c) (piece (off false (c.val + 13) 0) (off_inb false (c.val + 13) ⟨0, by decide⟩) (X c)) := addV_eq X false 0 11 c 13 (by show (c.val + 13) % 16 = (c.val + 2 + 11) % 16; omega)
theorem addV_eq_ccw_11_1 (c : Dev nD) : addV X false 1 11 c = kadd (recvV X false 1 11 c) (piece (off false (c.val + 13) 1) (off_inb false (c.val + 13) ⟨1, by decide⟩) (X c)) := addV_eq X false 1 11 c 13 (by show (c.val + 13) % 16 = (c.val + 2 + 11) % 16; omega)
theorem addV_eq_ccw_12_0 (c : Dev nD) : addV X false 0 12 c = kadd (recvV X false 0 12 c) (piece (off false (c.val + 14) 0) (off_inb false (c.val + 14) ⟨0, by decide⟩) (X c)) := addV_eq X false 0 12 c 14 (by show (c.val + 14) % 16 = (c.val + 2 + 12) % 16; omega)
theorem addV_eq_ccw_12_1 (c : Dev nD) : addV X false 1 12 c = kadd (recvV X false 1 12 c) (piece (off false (c.val + 14) 1) (off_inb false (c.val + 14) ⟨1, by decide⟩) (X c)) := addV_eq X false 1 12 c 14 (by show (c.val + 14) % 16 = (c.val + 2 + 12) % 16; omega)
theorem addV_eq_ccw_13_0 (c : Dev nD) : addV X false 0 13 c = kadd (recvV X false 0 13 c) (piece (off false (c.val + 15) 0) (off_inb false (c.val + 15) ⟨0, by decide⟩) (X c)) := addV_eq X false 0 13 c 15 (by show (c.val + 15) % 16 = (c.val + 2 + 13) % 16; omega)
theorem addV_eq_ccw_13_1 (c : Dev nD) : addV X false 1 13 c = kadd (recvV X false 1 13 c) (piece (off false (c.val + 15) 1) (off_inb false (c.val + 15) ⟨1, by decide⟩) (X c)) := addV_eq X false 1 13 c 15 (by show (c.val + 15) % 16 = (c.val + 2 + 13) % 16; omega)
theorem addV_eq_ccw_14_0 (c : Dev nD) : addV X false 0 14 c = kadd (recvV X false 0 14 c) (piece (off false (c.val + 0) 0) (off_inb false (c.val + 0) ⟨0, by decide⟩) (X c)) := addV_eq X false 0 14 c 0 (by show (c.val + 0) % 16 = (c.val + 2 + 14) % 16; omega)
theorem addV_eq_ccw_14_1 (c : Dev nD) : addV X false 1 14 c = kadd (recvV X false 1 14 c) (piece (off false (c.val + 0) 1) (off_inb false (c.val + 0) ⟨1, by decide⟩) (X c)) := addV_eq X false 1 14 c 0 (by show (c.val + 0) % 16 = (c.val + 2 + 14) % 16; omega)

end Cert.Kernel.RSAG

end
-- ==== Proof.Bits.Cut.lean ====
import proofs.«901013_g7700000000001014_dist_rs_then_ag_i_m4096_n1024_v7x_i16_f32_1_alg».proof.Proof.Bits.Sched
import proofs.«901013_g7700000000001014_dist_rs_then_ag_i_m4096_n1024_v7x_i16_f32_1_alg».proof.Proof.Bits.Values
import proofs.«901013_g7700000000001014_dist_rs_then_ag_i_m4096_n1024_v7x_i16_f32_1_alg».proof.Proof.Bits.SplitLib
import Idealize.ShloMosaic.Lib.Memref

/-! Cutting the staged buffers into the 64-row windows the transfers move, and joining them again.

    A staged array of 4096 rows is sixty-four windows of 64 rows, pairwise disjoint, covering it. The staged input
    keeps half its share whole and hands the other half out at the four windows the first transfers read. The staged
    result, at any contents, is the thirty windows each direction of the gather fills and the two 128-row windows of
    the device's own chunk; owning every window at the finished sub-block that belongs there is owning the staged
    result at the assembled value. -/

set_option maxRecDepth 8192

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig Unit (Elt F) ℕ UU ℕ

/-! ## The sixty-four windows of a staged array

A staged array of 4096 rows is sixteen chunks of 256 rows, each chunk two halves of 128 rows, each half two
sub-blocks of 64 rows: sixty-four windows of 64 rows, pairwise disjoint, that cover the array. -/

/-- the 64-row window of sub-block `b` of the `cw` half of chunk `k` (modulo sixteen) -/
abbrev winR (cw : Bool) (k : ℕ) (b : Fin 2) : Rect S4096x1024 :=
  Rect.unit (s := S4096x1024) (off cw k b.val) S64x1024.size (off_inb cw k b)

/-- an index lies in a window when its row does -/
theorem mem_win {cw : Bool} {k b : ℕ} (h : ∀ a, off cw k b a + S64x1024.size a ≤ S4096x1024.size a) {i : S4096x1024.Idx} :
    i ∈ (Rect.unit (s := S4096x1024) (off cw k b) S64x1024.size h).set ↔
      256 * (k % 16) + (if cw then 0 else 128) + 64 * b ≤ (i 0).val
        ∧ (i 0).val < 256 * (k % 16) + (if cw then 0 else 128) + 64 * b + 64 := by
  rw [Rect.mem_set_unit]
  constructor
  · intro h; exact h 0
  · intro h a
    match a with
    | ⟨0, _⟩ => exact h
    | ⟨1, _⟩ =>
      have := idx2_lt1 i
      exact ⟨Nat.zero_le _, by show (i 1).val < 0 + 1024; omega⟩

theorem mem_winR {cw : Bool} {k : ℕ} {b : Fin 2} {i : S4096x1024.Idx} :
    i ∈ (winR cw k b).set ↔
      256 * (k % 16) + (if cw then 0 else 128) + 64 * b.val ≤ (i 0).val
        ∧ (i 0).val < 256 * (k % 16) + (if cw then 0 else 128) + 64 * b.val + 64 :=
  mem_win _

/-- windows of different sub-blocks are disjoint -/
theorem winR_disjoint {cw cw' : Bool} {k k' : ℕ} {b b' : Fin 2} (h : ¬ (cw = cw' ∧ k % 16 = k' % 16 ∧ b = b')) :
    Disjoint (winR cw k b).set (winR cw' k' b').set := by
  rw [Finset.disjoint_left]
  intro i hi hi'
  rw [mem_winR] at hi hi'
  apply h
  have hb := b.isLt
  have hb' := b'.isLt
  have hk : k % 16 < 16 := Nat.mod_lt _ (by decide)
  have hk' : k' % 16 < 16 := Nat.mod_lt _ (by decide)
  generalize k % 16 = m at hi hk ⊢
  generalize k' % 16 = m' at hi' hk' ⊢
  cases cw <;> cases cw' <;> simp only [Bool.false_eq_true, if_true, if_false] at hi hi' <;>
    first
    | exact ⟨rfl, by omega, Fin.ext (by omega)⟩
    | (exfalso; omega)

/-- every index of the array lies in the window of some sub-block, whose chunk is named by its shift from `c`'s -/
theorem winR_cover (c : Dev nD) (i : S4096x1024.Idx) :
    ∃ t : Bool × Fin 16 × Fin 2, i ∈ (winR t.1 (c.val + t.2.1.val) t.2.2).set := by
  have hi : (i 0).val < 4096 := idx2_lt0 i
  have hc : c.val < 16 := c.isLt
  refine ⟨(decide ((i 0).val % 256 < 128), ⟨((i 0).val / 256 + 16 - c.val) % 16, Nat.mod_lt _ (by decide)⟩,
    ⟨(i 0).val % 128 / 64, by omega⟩), ?_⟩
  rw [mem_winR]
  show 256 * ((c.val + ((i 0).val / 256 + 16 - c.val) % 16) % 16)
        + (if decide ((i 0).val % 256 < 128) = true then 0 else 128) + 64 * ((i 0).val % 128 / 64) ≤ (i 0).val
      ∧ (i 0).val < 256 * ((c.val + ((i 0).val / 256 + 16 - c.val) % 16) % 16)
        + (if decide ((i 0).val % 256 < 128) = true then 0 else 128) + 64 * ((i 0).val % 128 / 64) + 64
  by_cases h : (i 0).val % 256 < 128
  · rw [if_pos (decide_eq_true h)]; omega
  · rw [if_neg (by rw [decide_eq_false h]; exact Bool.false_ne_true)]; omega

/-- the family of all sixty-four windows, the chunks named by their shifts from `c`'s -/
abbrev winFam (c : Dev nD) (t : Bool × Fin 16 × Fin 2) : Rect S4096x1024 := winR t.1 (c.val + t.2.1.val) t.2.2

theorem winFam_disjoint (c : Dev nD) (t t' : Bool × Fin 16 × Fin 2) (h : t ≠ t') :
    Disjoint (winFam c t).set (winFam c t').set := by
  refine winR_disjoint fun ⟨h1, h2, h3⟩ => h ?_
  obtain ⟨cw, J, b⟩ := t
  obtain ⟨cw', J', b'⟩ := t'
  have hJ := J.isLt
  have hJ' := J'.isLt
  have hc : c.val < 16 := c.isLt
  have e : J = J' := Fin.ext (by
    have h2' : (c.val + J.val) % 16 = (c.val + J'.val) % 16 := h2
    omega)
  exact Prod.ext h1 (Prod.ext e h3)

theorem winFam_cover (c : Dev nD) :
    (Finset.univ : Finset (Bool × Fin 16 × Fin 2)).biUnion (fun t => (winFam c t).set) = Finset.univ := by
  ext i
  simp only [Finset.mem_biUnion, Finset.mem_univ, true_and, iff_true]
  exact winR_cover c i

/-! ## Small laws of the separating conjunction, as equations -/

theorem eq_of_bi {P Q : sProp 𝕄} (h : P ⊣⊢ Q) : P = Q := BI.equiv_iff.mp ⟨h.1, h.2⟩

theorem sep_assoc_eq (P Q R : sProp 𝕄) : iprop((P ∗ Q) ∗ R) = iprop(P ∗ Q ∗ R) :=
  BI.equiv_iff.mp ⟨BI.sep_assoc, BI.sep_assoc'⟩

theorem sep_assoc_eq' (P Q R : sProp 𝕄) : BI.sep (BI.sep P Q) R = BI.sep P (BI.sep Q R) :=
  BI.equiv_iff.mp ⟨BI.sep_assoc, BI.sep_assoc'⟩

/-- a window of a staged array holds the array's elements under its rectangle -/
theorem rows_set_x (o : Fin 2 → ℕ) (h : ∀ a, o a + S64x1024.size a ≤ S4096x1024.size a) :
    (rows xM o h).view.set = (Rect.unit (s := S4096x1024) o S64x1024.size h).set :=
  View.set_slice_whole cc0_stg0_0 _

theorem rows_set_o (o : Fin 2 → ℕ) (h : ∀ a, o a + S64x1024.size a ≤ S4096x1024.size a) :
    (rows oM o h).view.set = (Rect.unit (s := S4096x1024) o S64x1024.size h).set :=
  View.set_slice_whole cc0_stg1_0 _

/-! ## The staged input: half its share kept, the other half cut at the four windows the first transfers read -/

/-- A points-to, one half of its share kept whole, the other half cut at four pairwise disjoint parts and the rest. -/
theorem pointsTo_cut4 {ℓ : Loc nD τ sig} {S A B C D : Finset (Idx ℓ)} (f : Buf (Elt F) ℓ)
    (hA : A ⊆ S) (hB : B ⊆ S) (hC : C ⊆ S) (hD : D ⊆ S)
    (hAB : Disjoint A B) (hAC : Disjoint A C) (hAD : Disjoint A D) (hBC : Disjoint B C) (hBD : Disjoint B D)
    (hCD : Disjoint C D) :
    (ℓ ↦[S]{fullShare} f : sProp 𝕄) ⊣⊢ iprop((ℓ ↦[S]{fullShare.left} f) ∗ (ℓ ↦[A]{fullShare.right} f)
      ∗ (ℓ ↦[B]{fullShare.right} f) ∗ (ℓ ↦[C]{fullShare.right} f) ∗ (ℓ ↦[D]{fullShare.right} f)
      ∗ (ℓ ↦[S \ (A ∪ (B ∪ (C ∪ D)))]{fullShare.right} f)) := by
  have hU : A ∪ (B ∪ (C ∪ D)) ⊆ S := Finset.union_subset hA (Finset.union_subset hB (Finset.union_subset hC hD))
  have e1 : (ℓ ↦[S]{fullShare} f : sProp 𝕄) = iprop((ℓ ↦[S]{fullShare.left} f) ∗ ℓ ↦[S]{fullShare.right} f) :=
    eq_of_bi (pointsTo_share (PosShare.mem_left_op_right fullShare))
  have e2 : (ℓ ↦[S]{fullShare.right} f : sProp 𝕄)
      = iprop((ℓ ↦[A ∪ (B ∪ (C ∪ D))]{fullShare.right} f) ∗ ℓ ↦[S \ (A ∪ (B ∪ (C ∪ D)))]{fullShare.right} f) :=
    eq_of_bi (pointsTo_split_subset hU)
  have e3 : (ℓ ↦[A ∪ (B ∪ (C ∪ D))]{fullShare.right} f : sProp 𝕄)
      = iprop((ℓ ↦[A]{fullShare.right} f) ∗ ℓ ↦[B ∪ (C ∪ D)]{fullShare.right} f) :=
    eq_of_bi (pointsTo_union (Finset.disjoint_union_right.mpr ⟨hAB, Finset.disjoint_union_right.mpr ⟨hAC, hAD⟩⟩))
  have e4 : (ℓ ↦[B ∪ (C ∪ D)]{fullShare.right} f : sProp 𝕄)
      = iprop((ℓ ↦[B]{fullShare.right} f) ∗ ℓ ↦[C ∪ D]{fullShare.right} f) :=
    eq_of_bi (pointsTo_union (Finset.disjoint_union_right.mpr ⟨hBC, hBD⟩))
  have e5 : (ℓ ↦[C ∪ D]{fullShare.right} f : sProp 𝕄) = iprop((ℓ ↦[C]{fullShare.right} f) ∗ ℓ ↦[D]{fullShare.right} f) :=
    eq_of_bi (pointsTo_union hCD)
  refine BiEntails.of_eq ?_
  rw [e1, e2, e3, e4, e5, sep_assoc_eq, sep_assoc_eq, sep_assoc_eq]

/-- the elements of device `c`'s staged block of the input under the four windows its first transfers read -/
def xWins (c : Dev nD) : Finset (Idx (xM.view.loc (c : Thread nD τ))) :=
  (show Finset (Idx (xM.view.loc (c : Thread nD τ))) from (rows xM (off true (c.val + 15) 0) (off_inb true (c.val + 15) 0)).view.set)
    ∪ ((show Finset (Idx (xM.view.loc (c : Thread nD τ))) from (rows xM (off true (c.val + 15) 1) (off_inb true (c.val + 15) 1)).view.set)
      ∪ ((show Finset (Idx (xM.view.loc (c : Thread nD τ))) from (rows xM (off false (c.val + 1) 0) (off_inb false (c.val + 1) 0)).view.set)
        ∪ (show Finset (Idx (xM.view.loc (c : Thread nD τ))) from (rows xM (off false (c.val + 1) 1) (off_inb false (c.val + 1) 1)).view.set)))

/-- Device `c`'s staged block of the input: the left half of its share, and the right half cut at the four windows its
    first transfers read (the chunk fifteen places above its own towards the next device, one place above towards the
    previous one) and the rest. -/
theorem x_split (c : Dev nD) (Xc : S4096x1024.Idx → Elt F .f32) :
    (xM.view.loc (c : Thread nD τ) ↦[xM.view.set]{fullShare} Xc : sProp 𝕄) ⊣⊢ iprop(
      (xM.view.loc (c : Thread nD τ) ↦[xM.view.set]{fullShare.left} Xc)
      ∗ ((rows xM (off true (c.val + 15) 0) (off_inb true _ 0)).view.loc (c : Thread nD τ)
          ↦[(rows xM (off true (c.val + 15) 0) (off_inb true _ 0)).view.set]{fullShare.right} Xc)
      ∗ ((rows xM (off true (c.val + 15) 1) (off_inb true _ 1)).view.loc (c : Thread nD τ)
          ↦[(rows xM (off true (c.val + 15) 1) (off_inb true _ 1)).view.set]{fullShare.right} Xc)
      ∗ ((rows xM (off false (c.val + 1) 0) (off_inb false _ 0)).view.loc (c : Thread nD τ)
          ↦[(rows xM (off false (c.val + 1) 0) (off_inb false _ 0)).view.set]{fullShare.right} Xc)
      ∗ ((rows xM (off false (c.val + 1) 1) (off_inb false _ 1)).view.loc (c : Thread nD τ)
          ↦[(rows xM (off false (c.val + 1) 1) (off_inb false _ 1)).view.set]{fullShare.right} Xc)
      ∗ (xM.view.loc (c : Thread nD τ) ↦[xM.view.set \ xWins c]{fullShare.right} Xc)) := by
  have hd {cw cw' : Bool} {k k' : ℕ} {b b' : Fin 2} (h : ¬ (cw = cw' ∧ k % 16 = k' % 16 ∧ b = b')) :
      Disjoint (rows xM (off cw k b.val) (off_inb cw k b)).view.set (rows xM (off cw' k' b'.val) (off_inb cw' k' b')).view.set := by
    rw [rows_set_x, rows_set_x]; exact winR_disjoint h
  exact pointsTo_cut4 (F := F) (ℓ := xM.view.loc (c : Thread nD τ)) Xc
    (xM.view.set_slice_subset _) (xM.view.set_slice_subset _) (xM.view.set_slice_subset _) (xM.view.set_slice_subset _)
    (hd (cw := true) (k := c.val + 15) (b := 0) (cw' := true) (k' := c.val + 15) (b' := 1) fun h => absurd h.2.2 (by decide))
    (hd (cw := true) (k := c.val + 15) (b := 0) (cw' := false) (k' := c.val + 1) (b' := 0) fun h => Bool.noConfusion h.1)
    (hd (cw := true) (k := c.val + 15) (b := 0) (cw' := false) (k' := c.val + 1) (b' := 1) fun h => Bool.noConfusion h.1)
    (hd (cw := true) (k := c.val + 15) (b := 1) (cw' := false) (k' := c.val + 1) (b' := 0) fun h => Bool.noConfusion h.1)
    (hd (cw := true) (k := c.val + 15) (b := 1) (cw' := false) (k' := c.val + 1) (b' := 1) fun h => Bool.noConfusion h.1)
    (hd (cw := false) (k := c.val + 1) (b := 0) (cw' := false) (k' := c.val + 1) (b' := 1) fun h => absurd h.2.2 (by decide))

/-! ## Joining the sixty-four finished sub-blocks -/

/-- the offset of a sub-block depends on the chunk's number only modulo sixteen -/
theorem off_mod16 (cw : Bool) (k b : ℕ) : off cw (k % 16) b = off cw k b := by
  unfold off; rw [Nat.mod_mod]

/-- windows at equal offsets read the same -/
theorem cut_piece_congr {o o' : Fin 2 → ℕ} (e : o = o') (h : ∀ a, o a + S64x1024.size a ≤ S4096x1024.size a)
    (h' : ∀ a, o' a + S64x1024.size a ≤ S4096x1024.size a) (Y : S4096x1024.Idx → Elt F .f32) :
    piece o h Y = piece o' h' Y := by
  subst e; rfl

/-- the finished sub-block of the chunk `J` places above `c`'s is what its window reads of the assembled result -/
theorem doneV_eq_win (c : Dev nD) (X : Dev nD → S4096x1024.Idx → Elt F .f32) (t : Bool × Fin 16 × Fin 2) :
    doneV X t.1 t.2.2 (devAt c t.2.1.val) = fun j => outV X ((winFam c t).emb j) := by
  rw [← piece_outV X t.1 (devAt c t.2.1.val) t.2.2]
  show piece (F := F) _ _ (outV X)
    = piece (F := F) (off t.1 (c.val + t.2.1.val) t.2.2.val) (off_inb t.1 (c.val + t.2.1.val) t.2.2) (outV X)
  exact cut_piece_congr (F := F) (off_mod16 t.1 (c.val + t.2.1.val) t.2.2.val) _ _ _

/-- Device `c` owning every 64-row window of its staged result at the finished sub-block that belongs there owns the
    staged result at the assembled value. -/
theorem out_join (c : Dev nD) (X : Dev nD → S4096x1024.Idx → Elt F .f32) :
    (bigSep (Finset.univ : Finset (Bool × Fin 16 × Fin 2)) fun t =>
      owns (c : Thread nD τ) (rows oM (off t.1 (c.val + t.2.1.val) t.2.2.val) (off_inb t.1 _ t.2.2)) fullShare
        (doneV X t.1 t.2.2 (devAt c t.2.1.val)))
      ⊢ (owns (c : Thread nD τ) oM fullShare (outV X) : sProp 𝕄) := by
  refine Entails.trans (Entails.of_eq ?_) (owns_of_rects (c : Thread nD τ) oM fullShare (winFam c) (fun _ _ => rfl)
    (winFam_disjoint c) (winFam_cover c) (outV X))
  exact bigSep_congr fun t _ => by rw [doneV_eq_win]

/-- the same from a chain over any listing of the sixty-four (direction, shift, sub-block) triples -/
theorem out_join_list (c : Dev nD) (X : Dev nD → S4096x1024.Idx → Elt F .f32) (l : List (Bool × Fin 16 × Fin 2))
    (hl : Finset.univ = l.toFinset) (hn : l.Nodup) :
    (bigSepL l fun t =>
      owns (c : Thread nD τ) (rows oM (off t.1 (c.val + t.2.1.val) t.2.2.val) (off_inb t.1 _ t.2.2)) fullShare
        (doneV X t.1 t.2.2 (devAt c t.2.1.val)))
      ⊢ (owns (c : Thread nD τ) oM fullShare (outV X) : sProp 𝕄) := by
  rw [← bigSep_univ_eq_bigSepL l hl hn]
  exact out_join c X

/-! ## The staged result cut into its windows

The sixty-four windows, listed: the thirty sub-blocks that arrive from the previous device in the steps' order (at
step `h` the chunk `15 - h` places above the device's own), the thirty that arrive from the next device (the chunk
`1 + h` places above), and the four sub-blocks of the device's own chunk, which it writes itself as two windows of
128 rows. -/

/-- a chain over two lists end to end is the two chains -/
theorem cut_bigSepL_append {I : Type} (l₁ l₂ : List I) (Φ : I → sProp 𝕄) :
    bigSepL (l₁ ++ l₂) Φ = BI.sep (bigSepL l₁ Φ) (bigSepL l₂ Φ) := by
  induction l₁ with
  | nil => exact (BI.equiv_iff.mp BI.emp_sep).symm
  | cons i l ih => rw [List.cons_append, bigSepL_cons, bigSepL_cons, ih, sep_assoc_eq']

/-- a chain over the images of a list is the chain of the composed conjuncts -/
theorem cut_bigSepL_map {I J : Type} (g : J → I) (l : List J) (Φ : I → sProp 𝕄) :
    bigSepL (l.map g) Φ = bigSepL l fun j => Φ (g j) := by
  induction l with
  | nil => rfl
  | cons j l ih => rw [List.map_cons, bigSepL_cons, bigSepL_cons, ih]

/-- the (direction, shift, sub-block) triples of what arrives in a direction, in the steps' order -/
def cwTri (hb : Fin 15 × Fin 2) : Bool × Fin 16 × Fin 2 := (true, ⟨15 - hb.1.val, by omega⟩, hb.2)
def ccwTri (hb : Fin 15 × Fin 2) : Bool × Fin 16 × Fin 2 := (false, ⟨1 + hb.1.val, by have := hb.1.isLt; omega⟩, hb.2)

/-- all sixty-four triples: what arrives clockwise, what arrives the other way, the device's own four -/
def triList : List (Bool × Fin 16 × Fin 2) :=
  sbList.map cwTri ++ (sbList.map ccwTri ++ [(true, 0, 0), (true, 0, 1), (false, 0, 0), (false, 0, 1)])

theorem triList_univ : (Finset.univ : Finset (Bool × Fin 16 × Fin 2)) = triList.toFinset := by decide
theorem triList_nodup : triList.Nodup := by decide

/-- the 128-row window of the `cw` half of device `c`'s own chunk, as the kernel's local store names it -/
def own128 (cw : Bool) (c : Dev nD) (f : Buf (Elt F) (oM.view.loc (c : Thread nD τ))) : sProp 𝕄 :=
  match cw with
  | true =>
    iprop((oM.slice (Rect.unit (s := S4096x1024) (k0_off5 c) S128x1024.size (k0_off5_inb c)) (fun _ => rfl)).view.loc (c : Thread nD τ)
      ↦[(oM.slice (Rect.unit (s := S4096x1024) (k0_off5 c) S128x1024.size (k0_off5_inb c)) (fun _ => rfl)).view.set]{fullShare} f)
  | false =>
    iprop((oM.slice (Rect.unit (s := S4096x1024) (k0_off6 c) S128x1024.size (k0_off6_inb c)) (fun _ => rfl)).view.loc (c : Thread nD τ)
      ↦[(oM.slice (Rect.unit (s := S4096x1024) (k0_off6 c) S128x1024.size (k0_off6_inb c)) (fun _ => rfl)).view.set]{fullShare} f)

theorem mem_own5 (c : Dev nD) {i : S4096x1024.Idx} :
    i ∈ (Rect.unit (s := S4096x1024) (k0_off5 c) S128x1024.size (k0_off5_inb c)).set
      ↔ 256 * c.val ≤ (i 0).val ∧ (i 0).val < 256 * c.val + 128 := by
  rw [Rect.mem_set_unit]
  simp only [k0_off5_eq]
  constructor
  · intro h; exact h 0
  · intro h a
    match a with
    | ⟨0, _⟩ => exact h
    | ⟨1, _⟩ =>
      have := idx2_lt1 i
      exact ⟨Nat.zero_le _, by show (i 1).val < 0 + 1024; omega⟩

theorem mem_own6 (c : Dev nD) {i : S4096x1024.Idx} :
    i ∈ (Rect.unit (s := S4096x1024) (k0_off6 c) S128x1024.size (k0_off6_inb c)).set
      ↔ 256 * c.val + 128 ≤ (i 0).val ∧ (i 0).val < 256 * c.val + 128 + 128 := by
  rw [Rect.mem_set_unit]
  simp only [k0_off6_eq]
  constructor
  · intro h; exact h 0
  · intro h a
    match a with
    | ⟨0, _⟩ => exact h
    | ⟨1, _⟩ =>
      have := idx2_lt1 i
      exact ⟨Nat.zero_le _, by show (i 1).val < 0 + 1024; omega⟩

/-- the 128-row window of a half of the device's own chunk is that half's two sub-blocks' windows -/
theorem own128_halves (cw : Bool) (c : Dev nD) (f : Buf (Elt F) (oM.view.loc (c : Thread nD τ))) :
    own128 cw c f ⊣⊢ iprop(
      ((rows oM (off cw c.val 0) (off_inb cw _ 0)).view.loc (c : Thread nD τ)
        ↦[(rows oM (off cw c.val 0) (off_inb cw _ 0)).view.set]{fullShare} f)
      ∗ ((rows oM (off cw c.val 1) (off_inb cw _ 1)).view.loc (c : Thread nD τ)
        ↦[(rows oM (off cw c.val 1) (off_inb cw _ 1)).view.set]{fullShare} f)) := by
  have hc : c.val < 16 := c.isLt
  have hd : Disjoint (rows oM (off cw c.val 0) (off_inb cw _ 0)).view.set (rows oM (off cw c.val 1) (off_inb cw _ 1)).view.set := by
    rw [rows_set_o, rows_set_o]
    exact winR_disjoint (cw := cw) (k := c.val) (b := 0) (cw' := cw) (k' := c.val) (b' := 1) fun h => absurd h.2.2 (by decide)
  cases cw
  · have hs : (oM.slice (Rect.unit (s := S4096x1024) (k0_off6 c) S128x1024.size (k0_off6_inb c)) (fun _ => rfl)).view.set
        = (rows oM (off false c.val 0) (off_inb false _ 0)).view.set ∪ (rows oM (off false c.val 1) (off_inb false _ 1)).view.set := by
      rw [rows_set_o, rows_set_o]
      refine (View.set_slice_whole cc0_stg1_0 _).trans ?_
      ext i
      rw [Finset.mem_union, mem_own6, mem_win, mem_win]
      simp only [Bool.false_eq_true, if_false]
      omega
    show iprop(_ ↦[_]{fullShare} f) ⊣⊢ _
    rw [hs]
    exact pointsTo_union hd
  · have hs : (oM.slice (Rect.unit (s := S4096x1024) (k0_off5 c) S128x1024.size (k0_off5_inb c)) (fun _ => rfl)).view.set
        = (rows oM (off true c.val 0) (off_inb true _ 0)).view.set ∪ (rows oM (off true c.val 1) (off_inb true _ 1)).view.set := by
      rw [rows_set_o, rows_set_o]
      refine (View.set_slice_whole cc0_stg1_0 _).trans ?_
      ext i
      rw [Finset.mem_union, mem_own5, mem_win, mem_win]
      simp only [if_true]
      omega
    show iprop(_ ↦[_]{fullShare} f) ⊣⊢ _
    rw [hs]
    exact pointsTo_union hd

/-- Device `c`'s staged result at any contents: the thirty sub-blocks each direction will bring, and the two 128-row
    windows of its own chunk, each at some contents. -/
theorem out_split (c : Dev nD) (fo : Buf (Elt F) (oM.view.loc (c : Thread nD τ))) :
    (oM.view.loc (c : Thread nD τ) ↦[oM.view.set]{fullShare} fo : sProp 𝕄)
      ⊢ iprop(allRows (F := F) true c ∗ allRows (F := F) false c ∗ (∃ f, own128 (F := F) true c f) ∗ (∃ f, own128 (F := F) false c f)) := by
  have hset : oM.view.set = (Finset.univ : Finset (Bool × Fin 16 × Fin 2)).biUnion fun t =>
      (rows oM (off t.1 (c.val + t.2.1.val) t.2.2.val) (off_inb t.1 _ t.2.2)).view.set := by
    refine (View.set_whole cc0_stg1_0).trans ((winFam_cover c).symm.trans ?_)
    exact Finset.biUnion_congr rfl fun t _ => (rows_set_o _ _).symm
  rw [hset, pointsTo_biUnion _ _ (fun t _ t' _ h => by rw [rows_set_o, rows_set_o]; exact winFam_disjoint c t t' h),
    bigSep_univ_eq_bigSepL triList triList_univ triList_nodup]
  unfold triList
  rw [cut_bigSepL_append, cut_bigSepL_append, cut_bigSepL_map, cut_bigSepL_map]
  refine BI.sep_mono ?_ (BI.sep_mono ?_ ?_)
  · rw [allRows_shift true c c (agShift true) (fun _ _ => rfl)]
    exact bigSepL_mono _ _ _ fun hb _ => exists_intro fo
  · rw [allRows_shift false c c (agShift false) (fun _ _ => rfl)]
    exact bigSepL_mono _ _ _ fun hb _ => exists_intro fo
  · rw [bigSepL_cons_cons, bigSepL_cons_cons, bigSepL_cons_cons, bigSepL_singleton, ← sep_assoc_eq']
    refine BI.sep_mono ?_ ?_
    · exact ((own128_halves true c fo).2).trans (exists_intro fo)
    · exact ((own128_halves false c fo).2).trans (exists_intro fo)

end Cert.Kernel.RSAG

end
-- ==== Proof.Bits.Split.lean ====
import proofs.«901013_g7700000000001014_dist_rs_then_ag_i_m4096_n1024_v7x_i16_f32_1_alg».proof.Proof.Bits.SplitLib

/-! The conjunctions over a direction's thirty (step, sub-block) pairs, written out.

    Every slot of a ring buffer and every 64-row window of the staged result is spelt with literal numbers, slot by
    slot and window by window, in the order the steps run: the slots of a ring buffer on a device; the sub-blocks the
    next and the previous device receive, named by the shift of their chunk from this device's; the sub-blocks this
    device itself receives. -/

set_option maxRecDepth 4096

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- the thirty slots of the ring buffer of direction true on device d, slot by slot -/
theorem allSlots_list_cw (d : Dev nD) : allSlots (F := F) true d = iprop(
    (∃ f, (slot aM 0 0 Cert.Kernel.Gen.inb_S15x128x1024_S1x64x1024_0_0_0).view.loc (d : Thread nD τ) ↦[(slot aM 0 0 Cert.Kernel.Gen.inb_S15x128x1024_S1x64x1024_0_0_0).view.set]{fullShare} f) ∗
    (∃ f, (slot aM 0 64 Cert.Kernel.Gen.inb_S15x128x1024_S1x64x1024_0_64_0).view.loc (d : Thread nD τ) ↦[(slot aM 0 64 Cert.Kernel.Gen.inb_S15x128x1024_S1x64x1024_0_64_0).view.set]{fullShare} f) ∗
    (∃ f, (slot aM 1 0 Cert.Kernel.Gen.inb_S15x128x1024_S1x64x1024_1_0_0).view.loc (d : Thread nD τ) ↦[(slot aM 1 0 Cert.Kernel.Gen.inb_S15x128x1024_S1x64x1024_1_0_0).view.set]{fullShare} f) ∗
    (∃ f, (slot aM 1 64 Cert.Kernel.Gen.inb_S15x128x1024_S1x64x1024_1_64_0).view.loc (d : Thread nD τ) ↦[(slot aM 1 64 Cert.Kernel.Gen.inb_S15x128x1024_S1x64x1024_1_64_0).view.set]{fullShare} f) ∗
    (∃ f, (slot aM 2 0 Cert.Kernel.Gen.inb_S15x128x1024_S1x64x1024_2_0_0).view.loc (d : Thread nD τ) ↦[(slot aM 2 0 Cert.Kernel.Gen.inb_S15x128x1024_S1x64x1024_2_0_0).view.set]{fullShare} f) ∗
    (∃ f, (slot aM 2 64 Cert.Kernel.Gen.inb_S15x128x1024_S1x64x1024_2_64_0).view.loc (d : Thread nD τ) ↦[(slot aM 2 64 Cert.Kernel.Gen.inb_S15x128x1024_S1x64x1024_2_64_0).view.set]{fullShare} f) ∗
    (∃ f, (slot aM 3 0 Cert.Kernel.Gen.inb_S15x128x1024_S1x64x1024_3_0_0).view.loc (d : Thread nD τ) ↦[(slot aM 3 0 Cert.Kernel.Gen.inb_S15x128x1024_S1x64x1024_3_0_0).view.set]{fullShare} f) ∗
    (∃ f, (slot aM 3 64 Cert.Kernel.Gen.inb_S15x128x1024_S1x64x1024_3_64_0).view.loc (d : Thread nD τ) ↦[(slot aM 3 64 Cert.Kernel.Gen.inb_S15x128x1024_S1x64x1024_3_64_0).view.set]{fullShare} f) ∗
    (∃ f, (slot aM 4 0 Cert.Kernel.Gen.inb_S15x128x1024_S1x64x1024_4_0_0).view.loc (d : Thread nD τ) ↦[(slot aM 4 0 Cert.Kernel.Gen.inb_S15x128x1024_S1x64x1024_4_0_0).view.set]{fullShare} f) ∗
    (∃ f, (slot aM 4 64 Cert.Kernel.Gen.inb_S15x128x1024_S1x64x1024_4_64_0).view.loc (d : Thread nD τ) ↦[(slot aM 4 64 Cert.Kernel.Gen.inb_S15x128x1024_S1x64x1024_4_64_0).view.set]{fullShare} f) ∗
    (∃ f, (slot aM 5 0 Cert.Kernel.Gen.inb_S15x128x1024_S1x64x1024_5_0_0).view.loc (d : Thread nD τ) ↦[(slot aM 5 0 Cert.Kernel.Gen.inb_S15x128x1024_S1x64x1024_5_0_0).view.set]{fullShare} f) ∗
    (∃ f, (slot aM 5 64 Cert.Kernel.Gen.inb_S15x128x1024_S1x64x1024_5_64_0).view.loc (d : Thread nD τ) ↦[(slot aM 5 64 Cert.Kernel.Gen.inb_S15x128x1024_S1x64x1024_5_64_0).view.set]{fullShare} f) ∗
    (∃ f, (slot aM 6 0 Cert.Kernel.Gen.inb_S15x128x1024_S1x64x1024_6_0_0).view.loc (d : Thread nD τ) ↦[(slot aM 6 0 Cert.Kernel.Gen.inb_S15x128x1024_S1x64x1024_6_0_0).view.set]{fullShare} f) ∗
    (∃ f, (slot aM 6 64 Cert.Kernel.Gen.inb_S15x128x1024_S1x64x1024_6_64_0).view.loc (d : Thread nD τ) ↦[(slot aM 6 64 Cert.Kernel.Gen.inb_S15x128x1024_S1x64x1024_6_64_0).view.set]{fullShare} f) ∗
    (∃ f, (slot aM 7 0 Cert.Kernel.Gen.inb_S15x128x1024_S1x64x1024_7_0_0).view.loc (d : Thread nD τ) ↦[(slot aM 7 0 Cert.Kernel.Gen.inb_S15x128x1024_S1x64x1024_7_0_0).view.set]{fullShare} f) ∗
    (∃ f, (slot aM 7 64 Cert.Kernel.Gen.inb_S15x128x1024_S1x64x1024_7_64_0).view.loc (d : Thread nD τ) ↦[(slot aM 7 64 Cert.Kernel.Gen.inb_S15x128x1024_S1x64x1024_7_64_0).view.set]{fullShare} f) ∗
    (∃ f, (slot aM 8 0 Cert.Kernel.Gen.inb_S15x128x1024_S1x64x1024_8_0_0).view.loc (d : Thread nD τ) ↦[(slot aM 8 0 Cert.Kernel.Gen.inb_S15x128x1024_S1x64x1024_8_0_0).view.set]{fullShare} f) ∗
    (∃ f, (slot aM 8 64 Cert.Kernel.Gen.inb_S15x128x1024_S1x64x1024_8_64_0).view.loc (d : Thread nD τ) ↦[(slot aM 8 64 Cert.Kernel.Gen.inb_S15x128x1024_S1x64x1024_8_64_0).view.set]{fullShare} f) ∗
    (∃ f, (slot aM 9 0 Cert.Kernel.Gen.inb_S15x128x1024_S1x64x1024_9_0_0).view.loc (d : Thread nD τ) ↦[(slot aM 9 0 Cert.Kernel.Gen.inb_S15x128x1024_S1x64x1024_9_0_0).view.set]{fullShare} f) ∗
    (∃ f, (slot aM 9 64 Cert.Kernel.Gen.inb_S15x128x1024_S1x64x1024_9_64_0).view.loc (d : Thread nD τ) ↦[(slot aM 9 64 Cert.Kernel.Gen.inb_S15x128x1024_S1x64x1024_9_64_0).view.set]{fullShare} f) ∗
    (∃ f, (slot aM 10 0 Cert.Kernel.Gen.inb_S15x128x1024_S1x64x1024_10_0_0).view.loc (d : Thread nD τ) ↦[(slot aM 10 0 Cert.Kernel.Gen.inb_S15x128x1024_S1x64x1024_10_0_0).view.set]{fullShare} f) ∗
    (∃ f, (slot aM 10 64 Cert.Kernel.Gen.inb_S15x128x1024_S1x64x1024_10_64_0).view.loc (d : Thread nD τ) ↦[(slot aM 10 64 Cert.Kernel.Gen.inb_S15x128x1024_S1x64x1024_10_64_0).view.set]{fullShare} f) ∗
    (∃ f, (slot aM 11 0 Cert.Kernel.Gen.inb_S15x128x1024_S1x64x1024_11_0_0).view.loc (d : Thread nD τ) ↦[(slot aM 11 0 Cert.Kernel.Gen.inb_S15x128x1024_S1x64x1024_11_0_0).view.set]{fullShare} f) ∗
    (∃ f, (slot aM 11 64 Cert.Kernel.Gen.inb_S15x128x1024_S1x64x1024_11_64_0).view.loc (d : Thread nD τ) ↦[(slot aM 11 64 Cert.Kernel.Gen.inb_S15x128x1024_S1x64x1024_11_64_0).view.set]{fullShare} f) ∗
    (∃ f, (slot aM 12 0 Cert.Kernel.Gen.inb_S15x128x1024_S1x64x1024_12_0_0).view.loc (d : Thread nD τ) ↦[(slot aM 12 0 Cert.Kernel.Gen.inb_S15x128x1024_S1x64x1024_12_0_0).view.set]{fullShare} f) ∗
    (∃ f, (slot aM 12 64 Cert.Kernel.Gen.inb_S15x128x1024_S1x64x1024_12_64_0).view.loc (d : Thread nD τ) ↦[(slot aM 12 64 Cert.Kernel.Gen.inb_S15x128x1024_S1x64x1024_12_64_0).view.set]{fullShare} f) ∗
    (∃ f, (slot aM 13 0 Cert.Kernel.Gen.inb_S15x128x1024_S1x64x1024_13_0_0).view.loc (d : Thread nD τ) ↦[(slot aM 13 0 Cert.Kernel.Gen.inb_S15x128x1024_S1x64x1024_13_0_0).view.set]{fullShare} f) ∗
    (∃ f, (slot aM 13 64 Cert.Kernel.Gen.inb_S15x128x1024_S1x64x1024_13_64_0).view.loc (d : Thread nD τ) ↦[(slot aM 13 64 Cert.Kernel.Gen.inb_S15x128x1024_S1x64x1024_13_64_0).view.set]{fullShare} f) ∗
    (∃ f, (slot aM 14 0 Cert.Kernel.Gen.inb_S15x128x1024_S1x64x1024_14_0_0).view.loc (d : Thread nD τ) ↦[(slot aM 14 0 Cert.Kernel.Gen.inb_S15x128x1024_S1x64x1024_14_0_0).view.set]{fullShare} f) ∗
    (∃ f, (slot aM 14 64 Cert.Kernel.Gen.inb_S15x128x1024_S1x64x1024_14_64_0).view.loc (d : Thread nD τ) ↦[(slot aM 14 64 Cert.Kernel.Gen.inb_S15x128x1024_S1x64x1024_14_64_0).view.set]{fullShare} f)) :=
  (allSlots_eq true d).trans rfl

/-- the thirty slots of the ring buffer of direction false on device d, slot by slot -/
theorem allSlots_list_ccw (d : Dev nD) : allSlots (F := F) false d = iprop(
    (∃ f, (slot bM 0 0 Cert.Kernel.Gen.inb_S15x128x1024_S1x64x1024_0_0_0).view.loc (d : Thread nD τ) ↦[(slot bM 0 0 Cert.Kernel.Gen.inb_S15x128x1024_S1x64x1024_0_0_0).view.set]{fullShare} f) ∗
    (∃ f, (slot bM 0 64 Cert.Kernel.Gen.inb_S15x128x1024_S1x64x1024_0_64_0).view.loc (d : Thread nD τ) ↦[(slot bM 0 64 Cert.Kernel.Gen.inb_S15x128x1024_S1x64x1024_0_64_0).view.set]{fullShare} f) ∗
    (∃ f, (slot bM 1 0 Cert.Kernel.Gen.inb_S15x128x1024_S1x64x1024_1_0_0).view.loc (d : Thread nD τ) ↦[(slot bM 1 0 Cert.Kernel.Gen.inb_S15x128x1024_S1x64x1024_1_0_0).view.set]{fullShare} f) ∗
    (∃ f, (slot bM 1 64 Cert.Kernel.Gen.inb_S15x128x1024_S1x64x1024_1_64_0).view.loc (d : Thread nD τ) ↦[(slot bM 1 64 Cert.Kernel.Gen.inb_S15x128x1024_S1x64x1024_1_64_0).view.set]{fullShare} f) ∗
    (∃ f, (slot bM 2 0 Cert.Kernel.Gen.inb_S15x128x1024_S1x64x1024_2_0_0).view.loc (d : Thread nD τ) ↦[(slot bM 2 0 Cert.Kernel.Gen.inb_S15x128x1024_S1x64x1024_2_0_0).view.set]{fullShare} f) ∗
    (∃ f, (slot bM 2 64 Cert.Kernel.Gen.inb_S15x128x1024_S1x64x1024_2_64_0).view.loc (d : Thread nD τ) ↦[(slot bM 2 64 Cert.Kernel.Gen.inb_S15x128x1024_S1x64x1024_2_64_0).view.set]{fullShare} f) ∗
    (∃ f, (slot bM 3 0 Cert.Kernel.Gen.inb_S15x128x1024_S1x64x1024_3_0_0).view.loc (d : Thread nD τ) ↦[(slot bM 3 0 Cert.Kernel.Gen.inb_S15x128x1024_S1x64x1024_3_0_0).view.set]{fullShare} f) ∗
    (∃ f, (slot bM 3 64 Cert.Kernel.Gen.inb_S15x128x1024_S1x64x1024_3_64_0).view.loc (d : Thread nD τ) ↦[(slot bM 3 64 Cert.Kernel.Gen.inb_S15x128x1024_S1x64x1024_3_64_0).view.set]{fullShare} f) ∗
    (∃ f, (slot bM 4 0 Cert.Kernel.Gen.inb_S15x128x1024_S1x64x1024_4_0_0).view.loc (d : Thread nD τ) ↦[(slot bM 4 0 Cert.Kernel.Gen.inb_S15x128x1024_S1x64x1024_4_0_0).view.set]{fullShare} f) ∗
    (∃ f, (slot bM 4 64 Cert.Kernel.Gen.inb_S15x128x1024_S1x64x1024_4_64_0).view.loc (d : Thread nD τ) ↦[(slot bM 4 64 Cert.Kernel.Gen.inb_S15x128x1024_S1x64x1024_4_64_0).view.set]{fullShare} f) ∗
    (∃ f, (slot bM 5 0 Cert.Kernel.Gen.inb_S15x128x1024_S1x64x1024_5_0_0).view.loc (d : Thread nD τ) ↦[(slot bM 5 0 Cert.Kernel.Gen.inb_S15x128x1024_S1x64x1024_5_0_0).view.set]{fullShare} f) ∗
    (∃ f, (slot bM 5 64 Cert.Kernel.Gen.inb_S15x128x1024_S1x64x1024_5_64_0).view.loc (d : Thread nD τ) ↦[(slot bM 5 64 Cert.Kernel.Gen.inb_S15x128x1024_S1x64x1024_5_64_0).view.set]{fullShare} f) ∗
    (∃ f, (slot bM 6 0 Cert.Kernel.Gen.inb_S15x128x1024_S1x64x1024_6_0_0).view.loc (d : Thread nD τ) ↦[(slot bM 6 0 Cert.Kernel.Gen.inb_S15x128x1024_S1x64x1024_6_0_0).view.set]{fullShare} f) ∗
    (∃ f, (slot bM 6 64 Cert.Kernel.Gen.inb_S15x128x1024_S1x64x1024_6_64_0).view.loc (d : Thread nD τ) ↦[(slot bM 6 64 Cert.Kernel.Gen.inb_S15x128x1024_S1x64x1024_6_64_0).view.set]{fullShare} f) ∗
    (∃ f, (slot bM 7 0 Cert.Kernel.Gen.inb_S15x128x1024_S1x64x1024_7_0_0).view.loc (d : Thread nD τ) ↦[(slot bM 7 0 Cert.Kernel.Gen.inb_S15x128x1024_S1x64x1024_7_0_0).view.set]{fullShare} f) ∗
    (∃ f, (slot bM 7 64 Cert.Kernel.Gen.inb_S15x128x1024_S1x64x1024_7_64_0).view.loc (d : Thread nD τ) ↦[(slot bM 7 64 Cert.Kernel.Gen.inb_S15x128x1024_S1x64x1024_7_64_0).view.set]{fullShare} f) ∗
    (∃ f, (slot bM 8 0 Cert.Kernel.Gen.inb_S15x128x1024_S1x64x1024_8_0_0).view.loc (d : Thread nD τ) ↦[(slot bM 8 0 Cert.Kernel.Gen.inb_S15x128x1024_S1x64x1024_8_0_0).view.set]{fullShare} f) ∗
    (∃ f, (slot bM 8 64 Cert.Kernel.Gen.inb_S15x128x1024_S1x64x1024_8_64_0).view.loc (d : Thread nD τ) ↦[(slot bM 8 64 Cert.Kernel.Gen.inb_S15x128x1024_S1x64x1024_8_64_0).view.set]{fullShare} f) ∗
    (∃ f, (slot bM 9 0 Cert.Kernel.Gen.inb_S15x128x1024_S1x64x1024_9_0_0).view.loc (d : Thread nD τ) ↦[(slot bM 9 0 Cert.Kernel.Gen.inb_S15x128x1024_S1x64x1024_9_0_0).view.set]{fullShare} f) ∗
    (∃ f, (slot bM 9 64 Cert.Kernel.Gen.inb_S15x128x1024_S1x64x1024_9_64_0).view.loc (d : Thread nD τ) ↦[(slot bM 9 64 Cert.Kernel.Gen.inb_S15x128x1024_S1x64x1024_9_64_0).view.set]{fullShare} f) ∗
    (∃ f, (slot bM 10 0 Cert.Kernel.Gen.inb_S15x128x1024_S1x64x1024_10_0_0).view.loc (d : Thread nD τ) ↦[(slot bM 10 0 Cert.Kernel.Gen.inb_S15x128x1024_S1x64x1024_10_0_0).view.set]{fullShare} f) ∗
    (∃ f, (slot bM 10 64 Cert.Kernel.Gen.inb_S15x128x1024_S1x64x1024_10_64_0).view.loc (d : Thread nD τ) ↦[(slot bM 10 64 Cert.Kernel.Gen.inb_S15x128x1024_S1x64x1024_10_64_0).view.set]{fullShare} f) ∗
    (∃ f, (slot bM 11 0 Cert.Kernel.Gen.inb_S15x128x1024_S1x64x1024_11_0_0).view.loc (d : Thread nD τ) ↦[(slot bM 11 0 Cert.Kernel.Gen.inb_S15x128x1024_S1x64x1024_11_0_0).view.set]{fullShare} f) ∗
    (∃ f, (slot bM 11 64 Cert.Kernel.Gen.inb_S15x128x1024_S1x64x1024_11_64_0).view.loc (d : Thread nD τ) ↦[(slot bM 11 64 Cert.Kernel.Gen.inb_S15x128x1024_S1x64x1024_11_64_0).view.set]{fullShare} f) ∗
    (∃ f, (slot bM 12 0 Cert.Kernel.Gen.inb_S15x128x1024_S1x64x1024_12_0_0).view.loc (d : Thread nD τ) ↦[(slot bM 12 0 Cert.Kernel.Gen.inb_S15x128x1024_S1x64x1024_12_0_0).view.set]{fullShare} f) ∗
    (∃ f, (slot bM 12 64 Cert.Kernel.Gen.inb_S15x128x1024_S1x64x1024_12_64_0).view.loc (d : Thread nD τ) ↦[(slot bM 12 64 Cert.Kernel.Gen.inb_S15x128x1024_S1x64x1024_12_64_0).view.set]{fullShare} f) ∗
    (∃ f, (slot bM 13 0 Cert.Kernel.Gen.inb_S15x128x1024_S1x64x1024_13_0_0).view.loc (d : Thread nD τ) ↦[(slot bM 13 0 Cert.Kernel.Gen.inb_S15x128x1024_S1x64x1024_13_0_0).view.set]{fullShare} f) ∗
    (∃ f, (slot bM 13 64 Cert.Kernel.Gen.inb_S15x128x1024_S1x64x1024_13_64_0).view.loc (d : Thread nD τ) ↦[(slot bM 13 64 Cert.Kernel.Gen.inb_S15x128x1024_S1x64x1024_13_64_0).view.set]{fullShare} f) ∗
    (∃ f, (slot bM 14 0 Cert.Kernel.Gen.inb_S15x128x1024_S1x64x1024_14_0_0).view.loc (d : Thread nD τ) ↦[(slot bM 14 0 Cert.Kernel.Gen.inb_S15x128x1024_S1x64x1024_14_0_0).view.set]{fullShare} f) ∗
    (∃ f, (slot bM 14 64 Cert.Kernel.Gen.inb_S15x128x1024_S1x64x1024_14_64_0).view.loc (d : Thread nD τ) ↦[(slot bM 14 64 Cert.Kernel.Gen.inb_S15x128x1024_S1x64x1024_14_64_0).view.set]{fullShare} f)) :=
  (allSlots_eq false d).trans rfl

/-- the thirty sub-blocks the next device receives in the gather towards it, by their chunks' shifts from c -/
theorem allRows_list_nxt (c : Dev nD) : allRows (F := F) true (nxt c) = iprop(
    (∃ f, (rows oM (off true (c.val + 0) 0) (off_inb true _ 0)).view.loc (nxt c : Thread nD τ) ↦[(rows oM (off true (c.val + 0) 0) (off_inb true _ 0)).view.set]{fullShare} f) ∗
    (∃ f, (rows oM (off true (c.val + 0) 1) (off_inb true _ 1)).view.loc (nxt c : Thread nD τ) ↦[(rows oM (off true (c.val + 0) 1) (off_inb true _ 1)).view.set]{fullShare} f) ∗
    (∃ f, (rows oM (off true (c.val + 15) 0) (off_inb true _ 0)).view.loc (nxt c : Thread nD τ) ↦[(rows oM (off true (c.val + 15) 0) (off_inb true _ 0)).view.set]{fullShare} f) ∗
    (∃ f, (rows oM (off true (c.val + 15) 1) (off_inb true _ 1)).view.loc (nxt c : Thread nD τ) ↦[(rows oM (off true (c.val + 15) 1) (off_inb true _ 1)).view.set]{fullShare} f) ∗
    (∃ f, (rows oM (off true (c.val + 14) 0) (off_inb true _ 0)).view.loc (nxt c : Thread nD τ) ↦[(rows oM (off true (c.val + 14) 0) (off_inb true _ 0)).view.set]{fullShare} f) ∗
    (∃ f, (rows oM (off true (c.val + 14) 1) (off_inb true _ 1)).view.loc (nxt c : Thread nD τ) ↦[(rows oM (off true (c.val + 14) 1) (off_inb true _ 1)).view.set]{fullShare} f) ∗
    (∃ f, (rows oM (off true (c.val + 13) 0) (off_inb true _ 0)).view.loc (nxt c : Thread nD τ) ↦[(rows oM (off true (c.val + 13) 0) (off_inb true _ 0)).view.set]{fullShare} f) ∗
    (∃ f, (rows oM (off true (c.val + 13) 1) (off_inb true _ 1)).view.loc (nxt c : Thread nD τ) ↦[(rows oM (off true (c.val + 13) 1) (off_inb true _ 1)).view.set]{fullShare} f) ∗
    (∃ f, (rows oM (off true (c.val + 12) 0) (off_inb true _ 0)).view.loc (nxt c : Thread nD τ) ↦[(rows oM (off true (c.val + 12) 0) (off_inb true _ 0)).view.set]{fullShare} f) ∗
    (∃ f, (rows oM (off true (c.val + 12) 1) (off_inb true _ 1)).view.loc (nxt c : Thread nD τ) ↦[(rows oM (off true (c.val + 12) 1) (off_inb true _ 1)).view.set]{fullShare} f) ∗
    (∃ f, (rows oM (off true (c.val + 11) 0) (off_inb true _ 0)).view.loc (nxt c : Thread nD τ) ↦[(rows oM (off true (c.val + 11) 0) (off_inb true _ 0)).view.set]{fullShare} f) ∗
    (∃ f, (rows oM (off true (c.val + 11) 1) (off_inb true _ 1)).view.loc (nxt c : Thread nD τ) ↦[(rows oM (off true (c.val + 11) 1) (off_inb true _ 1)).view.set]{fullShare} f) ∗
    (∃ f, (rows oM (off true (c.val + 10) 0) (off_inb true _ 0)).view.loc (nxt c : Thread nD τ) ↦[(rows oM (off true (c.val + 10) 0) (off_inb true _ 0)).view.set]{fullShare} f) ∗
    (∃ f, (rows oM (off true (c.val + 10) 1) (off_inb true _ 1)).view.loc (nxt c : Thread nD τ) ↦[(rows oM (off true (c.val + 10) 1) (off_inb true _ 1)).view.set]{fullShare} f) ∗
    (∃ f, (rows oM (off true (c.val + 9) 0) (off_inb true _ 0)).view.loc (nxt c : Thread nD τ) ↦[(rows oM (off true (c.val + 9) 0) (off_inb true _ 0)).view.set]{fullShare} f) ∗
    (∃ f, (rows oM (off true (c.val + 9) 1) (off_inb true _ 1)).view.loc (nxt c : Thread nD τ) ↦[(rows oM (off true (c.val + 9) 1) (off_inb true _ 1)).view.set]{fullShare} f) ∗
    (∃ f, (rows oM (off true (c.val + 8) 0) (off_inb true _ 0)).view.loc (nxt c : Thread nD τ) ↦[(rows oM (off true (c.val + 8) 0) (off_inb true _ 0)).view.set]{fullShare} f) ∗
    (∃ f, (rows oM (off true (c.val + 8) 1) (off_inb true _ 1)).view.loc (nxt c : Thread nD τ) ↦[(rows oM (off true (c.val + 8) 1) (off_inb true _ 1)).view.set]{fullShare} f) ∗
    (∃ f, (rows oM (off true (c.val + 7) 0) (off_inb true _ 0)).view.loc (nxt c : Thread nD τ) ↦[(rows oM (off true (c.val + 7) 0) (off_inb true _ 0)).view.set]{fullShare} f) ∗
    (∃ f, (rows oM (off true (c.val + 7) 1) (off_inb true _ 1)).view.loc (nxt c : Thread nD τ) ↦[(rows oM (off true (c.val + 7) 1) (off_inb true _ 1)).view.set]{fullShare} f) ∗
    (∃ f, (rows oM (off true (c.val + 6) 0) (off_inb true _ 0)).view.loc (nxt c : Thread nD τ) ↦[(rows oM (off true (c.val + 6) 0) (off_inb true _ 0)).view.set]{fullShare} f) ∗
    (∃ f, (rows oM (off true (c.val + 6) 1) (off_inb true _ 1)).view.loc (nxt c : Thread nD τ) ↦[(rows oM (off true (c.val + 6) 1) (off_inb true _ 1)).view.set]{fullShare} f) ∗
    (∃ f, (rows oM (off true (c.val + 5) 0) (off_inb true _ 0)).view.loc (nxt c : Thread nD τ) ↦[(rows oM (off true (c.val + 5) 0) (off_inb true _ 0)).view.set]{fullShare} f) ∗
    (∃ f, (rows oM (off true (c.val + 5) 1) (off_inb true _ 1)).view.loc (nxt c : Thread nD τ) ↦[(rows oM (off true (c.val + 5) 1) (off_inb true _ 1)).view.set]{fullShare} f) ∗
    (∃ f, (rows oM (off true (c.val + 4) 0) (off_inb true _ 0)).view.loc (nxt c : Thread nD τ) ↦[(rows oM (off true (c.val + 4) 0) (off_inb true _ 0)).view.set]{fullShare} f) ∗
    (∃ f, (rows oM (off true (c.val + 4) 1) (off_inb true _ 1)).view.loc (nxt c : Thread nD τ) ↦[(rows oM (off true (c.val + 4) 1) (off_inb true _ 1)).view.set]{fullShare} f) ∗
    (∃ f, (rows oM (off true (c.val + 3) 0) (off_inb true _ 0)).view.loc (nxt c : Thread nD τ) ↦[(rows oM (off true (c.val + 3) 0) (off_inb true _ 0)).view.set]{fullShare} f) ∗
    (∃ f, (rows oM (off true (c.val + 3) 1) (off_inb true _ 1)).view.loc (nxt c : Thread nD τ) ↦[(rows oM (off true (c.val + 3) 1) (off_inb true _ 1)).view.set]{fullShare} f) ∗
    (∃ f, (rows oM (off true (c.val + 2) 0) (off_inb true _ 0)).view.loc (nxt c : Thread nD τ) ↦[(rows oM (off true (c.val + 2) 0) (off_inb true _ 0)).view.set]{fullShare} f) ∗
    (∃ f, (rows oM (off true (c.val + 2) 1) (off_inb true _ 1)).view.loc (nxt c : Thread nD τ) ↦[(rows oM (off true (c.val + 2) 1) (off_inb true _ 1)).view.set]{fullShare} f)) :=
  (allRows_shift true (nxt c) c (fun h => (16 - h) % 16) (shift_nxt c)).trans rfl

/-- the thirty sub-blocks the previous device receives in the gather towards it, by their chunks' shifts from c -/
theorem allRows_list_prv (c : Dev nD) : allRows (F := F) false (prv c) = iprop(
    (∃ f, (rows oM (off false (c.val + 0) 0) (off_inb false _ 0)).view.loc (prv c : Thread nD τ) ↦[(rows oM (off false (c.val + 0) 0) (off_inb false _ 0)).view.set]{fullShare} f) ∗
    (∃ f, (rows oM (off false (c.val + 0) 1) (off_inb false _ 1)).view.loc (prv c : Thread nD τ) ↦[(rows oM (off false (c.val + 0) 1) (off_inb false _ 1)).view.set]{fullShare} f) ∗
    (∃ f, (rows oM (off false (c.val + 1) 0) (off_inb false _ 0)).view.loc (prv c : Thread nD τ) ↦[(rows oM (off false (c.val + 1) 0) (off_inb false _ 0)).view.set]{fullShare} f) ∗
    (∃ f, (rows oM (off false (c.val + 1) 1) (off_inb false _ 1)).view.loc (prv c : Thread nD τ) ↦[(rows oM (off false (c.val + 1) 1) (off_inb false _ 1)).view.set]{fullShare} f) ∗
    (∃ f, (rows oM (off false (c.val + 2) 0) (off_inb false _ 0)).view.loc (prv c : Thread nD τ) ↦[(rows oM (off false (c.val + 2) 0) (off_inb false _ 0)).view.set]{fullShare} f) ∗
    (∃ f, (rows oM (off false (c.val + 2) 1) (off_inb false _ 1)).view.loc (prv c : Thread nD τ) ↦[(rows oM (off false (c.val + 2) 1) (off_inb false _ 1)).view.set]{fullShare} f) ∗
    (∃ f, (rows oM (off false (c.val + 3) 0) (off_inb false _ 0)).view.loc (prv c : Thread nD τ) ↦[(rows oM (off false (c.val + 3) 0) (off_inb false _ 0)).view.set]{fullShare} f) ∗
    (∃ f, (rows oM (off false (c.val + 3) 1) (off_inb false _ 1)).view.loc (prv c : Thread nD τ) ↦[(rows oM (off false (c.val + 3) 1) (off_inb false _ 1)).view.set]{fullShare} f) ∗
    (∃ f, (rows oM (off false (c.val + 4) 0) (off_inb false _ 0)).view.loc (prv c : Thread nD τ) ↦[(rows oM (off false (c.val + 4) 0) (off_inb false _ 0)).view.set]{fullShare} f) ∗
    (∃ f, (rows oM (off false (c.val + 4) 1) (off_inb false _ 1)).view.loc (prv c : Thread nD τ) ↦[(rows oM (off false (c.val + 4) 1) (off_inb false _ 1)).view.set]{fullShare} f) ∗
    (∃ f, (rows oM (off false (c.val + 5) 0) (off_inb false _ 0)).view.loc (prv c : Thread nD τ) ↦[(rows oM (off false (c.val + 5) 0) (off_inb false _ 0)).view.set]{fullShare} f) ∗
    (∃ f, (rows oM (off false (c.val + 5) 1) (off_inb false _ 1)).view.loc (prv c : Thread nD τ) ↦[(rows oM (off false (c.val + 5) 1) (off_inb false _ 1)).view.set]{fullShare} f) ∗
    (∃ f, (rows oM (off false (c.val + 6) 0) (off_inb false _ 0)).view.loc (prv c : Thread nD τ) ↦[(rows oM (off false (c.val + 6) 0) (off_inb false _ 0)).view.set]{fullShare} f) ∗
    (∃ f, (rows oM (off false (c.val + 6) 1) (off_inb false _ 1)).view.loc (prv c : Thread nD τ) ↦[(rows oM (off false (c.val + 6) 1) (off_inb false _ 1)).view.set]{fullShare} f) ∗
    (∃ f, (rows oM (off false (c.val + 7) 0) (off_inb false _ 0)).view.loc (prv c : Thread nD τ) ↦[(rows oM (off false (c.val + 7) 0) (off_inb false _ 0)).view.set]{fullShare} f) ∗
    (∃ f, (rows oM (off false (c.val + 7) 1) (off_inb false _ 1)).view.loc (prv c : Thread nD τ) ↦[(rows oM (off false (c.val + 7) 1) (off_inb false _ 1)).view.set]{fullShare} f) ∗
    (∃ f, (rows oM (off false (c.val + 8) 0) (off_inb false _ 0)).view.loc (prv c : Thread nD τ) ↦[(rows oM (off false (c.val + 8) 0) (off_inb false _ 0)).view.set]{fullShare} f) ∗
    (∃ f, (rows oM (off false (c.val + 8) 1) (off_inb false _ 1)).view.loc (prv c : Thread nD τ) ↦[(rows oM (off false (c.val + 8) 1) (off_inb false _ 1)).view.set]{fullShare} f) ∗
    (∃ f, (rows oM (off false (c.val + 9) 0) (off_inb false _ 0)).view.loc (prv c : Thread nD τ) ↦[(rows oM (off false (c.val + 9) 0) (off_inb false _ 0)).view.set]{fullShare} f) ∗
    (∃ f, (rows oM (off false (c.val + 9) 1) (off_inb false _ 1)).view.loc (prv c : Thread nD τ) ↦[(rows oM (off false (c.val + 9) 1) (off_inb false _ 1)).view.set]{fullShare} f) ∗
    (∃ f, (rows oM (off false (c.val + 10) 0) (off_inb false _ 0)).view.loc (prv c : Thread nD τ) ↦[(rows oM (off false (c.val + 10) 0) (off_inb false _ 0)).view.set]{fullShare} f) ∗
    (∃ f, (rows oM (off false (c.val + 10) 1) (off_inb false _ 1)).view.loc (prv c : Thread nD τ) ↦[(rows oM (off false (c.val + 10) 1) (off_inb false _ 1)).view.set]{fullShare} f) ∗
    (∃ f, (rows oM (off false (c.val + 11) 0) (off_inb false _ 0)).view.loc (prv c : Thread nD τ) ↦[(rows oM (off false (c.val + 11) 0) (off_inb false _ 0)).view.set]{fullShare} f) ∗
    (∃ f, (rows oM (off false (c.val + 11) 1) (off_inb false _ 1)).view.loc (prv c : Thread nD τ) ↦[(rows oM (off false (c.val + 11) 1) (off_inb false _ 1)).view.set]{fullShare} f) ∗
    (∃ f, (rows oM (off false (c.val + 12) 0) (off_inb false _ 0)).view.loc (prv c : Thread nD τ) ↦[(rows oM (off false (c.val + 12) 0) (off_inb false _ 0)).view.set]{fullShare} f) ∗
    (∃ f, (rows oM (off false (c.val + 12) 1) (off_inb false _ 1)).view.loc (prv c : Thread nD τ) ↦[(rows oM (off false (c.val + 12) 1) (off_inb false _ 1)).view.set]{fullShare} f) ∗
    (∃ f, (rows oM (off false (c.val + 13) 0) (off_inb false _ 0)).view.loc (prv c : Thread nD τ) ↦[(rows oM (off false (c.val + 13) 0) (off_inb false _ 0)).view.set]{fullShare} f) ∗
    (∃ f, (rows oM (off false (c.val + 13) 1) (off_inb false _ 1)).view.loc (prv c : Thread nD τ) ↦[(rows oM (off false (c.val + 13) 1) (off_inb false _ 1)).view.set]{fullShare} f) ∗
    (∃ f, (rows oM (off false (c.val + 14) 0) (off_inb false _ 0)).view.loc (prv c : Thread nD τ) ↦[(rows oM (off false (c.val + 14) 0) (off_inb false _ 0)).view.set]{fullShare} f) ∗
    (∃ f, (rows oM (off false (c.val + 14) 1) (off_inb false _ 1)).view.loc (prv c : Thread nD τ) ↦[(rows oM (off false (c.val + 14) 1) (off_inb false _ 1)).view.set]{fullShare} f)) :=
  (allRows_shift false (prv c) c (fun h => h) (shift_prv c)).trans rfl

/-- the thirty sub-blocks device c itself receives in direction true -/
theorem allRows_list_own_cw (c : Dev nD) : allRows (F := F) true c = iprop(
    (∃ f, (rows oM (off true (c.val + 15) 0) (off_inb true _ 0)).view.loc (c : Thread nD τ) ↦[(rows oM (off true (c.val + 15) 0) (off_inb true _ 0)).view.set]{fullShare} f) ∗
    (∃ f, (rows oM (off true (c.val + 15) 1) (off_inb true _ 1)).view.loc (c : Thread nD τ) ↦[(rows oM (off true (c.val + 15) 1) (off_inb true _ 1)).view.set]{fullShare} f) ∗
    (∃ f, (rows oM (off true (c.val + 14) 0) (off_inb true _ 0)).view.loc (c : Thread nD τ) ↦[(rows oM (off true (c.val + 14) 0) (off_inb true _ 0)).view.set]{fullShare} f) ∗
    (∃ f, (rows oM (off true (c.val + 14) 1) (off_inb true _ 1)).view.loc (c : Thread nD τ) ↦[(rows oM (off true (c.val + 14) 1) (off_inb true _ 1)).view.set]{fullShare} f) ∗
    (∃ f, (rows oM (off true (c.val + 13) 0) (off_inb true _ 0)).view.loc (c : Thread nD τ) ↦[(rows oM (off true (c.val + 13) 0) (off_inb true _ 0)).view.set]{fullShare} f) ∗
    (∃ f, (rows oM (off true (c.val + 13) 1) (off_inb true _ 1)).view.loc (c : Thread nD τ) ↦[(rows oM (off true (c.val + 13) 1) (off_inb true _ 1)).view.set]{fullShare} f) ∗
    (∃ f, (rows oM (off true (c.val + 12) 0) (off_inb true _ 0)).view.loc (c : Thread nD τ) ↦[(rows oM (off true (c.val + 12) 0) (off_inb true _ 0)).view.set]{fullShare} f) ∗
    (∃ f, (rows oM (off true (c.val + 12) 1) (off_inb true _ 1)).view.loc (c : Thread nD τ) ↦[(rows oM (off true (c.val + 12) 1) (off_inb true _ 1)).view.set]{fullShare} f) ∗
    (∃ f, (rows oM (off true (c.val + 11) 0) (off_inb true _ 0)).view.loc (c : Thread nD τ) ↦[(rows oM (off true (c.val + 11) 0) (off_inb true _ 0)).view.set]{fullShare} f) ∗
    (∃ f, (rows oM (off true (c.val + 11) 1) (off_inb true _ 1)).view.loc (c : Thread nD τ) ↦[(rows oM (off true (c.val + 11) 1) (off_inb true _ 1)).view.set]{fullShare} f) ∗
    (∃ f, (rows oM (off true (c.val + 10) 0) (off_inb true _ 0)).view.loc (c : Thread nD τ) ↦[(rows oM (off true (c.val + 10) 0) (off_inb true _ 0)).view.set]{fullShare} f) ∗
    (∃ f, (rows oM (off true (c.val + 10) 1) (off_inb true _ 1)).view.loc (c : Thread nD τ) ↦[(rows oM (off true (c.val + 10) 1) (off_inb true _ 1)).view.set]{fullShare} f) ∗
    (∃ f, (rows oM (off true (c.val + 9) 0) (off_inb true _ 0)).view.loc (c : Thread nD τ) ↦[(rows oM (off true (c.val + 9) 0) (off_inb true _ 0)).view.set]{fullShare} f) ∗
    (∃ f, (rows oM (off true (c.val + 9) 1) (off_inb true _ 1)).view.loc (c : Thread nD τ) ↦[(rows oM (off true (c.val + 9) 1) (off_inb true _ 1)).view.set]{fullShare} f) ∗
    (∃ f, (rows oM (off true (c.val + 8) 0) (off_inb true _ 0)).view.loc (c : Thread nD τ) ↦[(rows oM (off true (c.val + 8) 0) (off_inb true _ 0)).view.set]{fullShare} f) ∗
    (∃ f, (rows oM (off true (c.val + 8) 1) (off_inb true _ 1)).view.loc (c : Thread nD τ) ↦[(rows oM (off true (c.val + 8) 1) (off_inb true _ 1)).view.set]{fullShare} f) ∗
    (∃ f, (rows oM (off true (c.val + 7) 0) (off_inb true _ 0)).view.loc (c : Thread nD τ) ↦[(rows oM (off true (c.val + 7) 0) (off_inb true _ 0)).view.set]{fullShare} f) ∗
    (∃ f, (rows oM (off true (c.val + 7) 1) (off_inb true _ 1)).view.loc (c : Thread nD τ) ↦[(rows oM (off true (c.val + 7) 1) (off_inb true _ 1)).view.set]{fullShare} f) ∗
    (∃ f, (rows oM (off true (c.val + 6) 0) (off_inb true _ 0)).view.loc (c : Thread nD τ) ↦[(rows oM (off true (c.val + 6) 0) (off_inb true _ 0)).view.set]{fullShare} f) ∗
    (∃ f, (rows oM (off true (c.val + 6) 1) (off_inb true _ 1)).view.loc (c : Thread nD τ) ↦[(rows oM (off true (c.val + 6) 1) (off_inb true _ 1)).view.set]{fullShare} f) ∗
    (∃ f, (rows oM (off true (c.val + 5) 0) (off_inb true _ 0)).view.loc (c : Thread nD τ) ↦[(rows oM (off true (c.val + 5) 0) (off_inb true _ 0)).view.set]{fullShare} f) ∗
    (∃ f, (rows oM (off true (c.val + 5) 1) (off_inb true _ 1)).view.loc (c : Thread nD τ) ↦[(rows oM (off true (c.val + 5) 1) (off_inb true _ 1)).view.set]{fullShare} f) ∗
    (∃ f, (rows oM (off true (c.val + 4) 0) (off_inb true _ 0)).view.loc (c : Thread nD τ) ↦[(rows oM (off true (c.val + 4) 0) (off_inb true _ 0)).view.set]{fullShare} f) ∗
    (∃ f, (rows oM (off true (c.val + 4) 1) (off_inb true _ 1)).view.loc (c : Thread nD τ) ↦[(rows oM (off true (c.val + 4) 1) (off_inb true _ 1)).view.set]{fullShare} f) ∗
    (∃ f, (rows oM (off true (c.val + 3) 0) (off_inb true _ 0)).view.loc (c : Thread nD τ) ↦[(rows oM (off true (c.val + 3) 0) (off_inb true _ 0)).view.set]{fullShare} f) ∗
    (∃ f, (rows oM (off true (c.val + 3) 1) (off_inb true _ 1)).view.loc (c : Thread nD τ) ↦[(rows oM (off true (c.val + 3) 1) (off_inb true _ 1)).view.set]{fullShare} f) ∗
    (∃ f, (rows oM (off true (c.val + 2) 0) (off_inb true _ 0)).view.loc (c : Thread nD τ) ↦[(rows oM (off true (c.val + 2) 0) (off_inb true _ 0)).view.set]{fullShare} f) ∗
    (∃ f, (rows oM (off true (c.val + 2) 1) (off_inb true _ 1)).view.loc (c : Thread nD τ) ↦[(rows oM (off true (c.val + 2) 1) (off_inb true _ 1)).view.set]{fullShare} f) ∗
    (∃ f, (rows oM (off true (c.val + 1) 0) (off_inb true _ 0)).view.loc (c : Thread nD τ) ↦[(rows oM (off true (c.val + 1) 0) (off_inb true _ 0)).view.set]{fullShare} f) ∗
    (∃ f, (rows oM (off true (c.val + 1) 1) (off_inb true _ 1)).view.loc (c : Thread nD τ) ↦[(rows oM (off true (c.val + 1) 1) (off_inb true _ 1)).view.set]{fullShare} f)) :=
  (allRows_shift true c c (agShift true) (fun _ _ => rfl)).trans rfl

/-- the thirty sub-blocks device c itself receives in direction false -/
theorem allRows_list_own_ccw (c : Dev nD) : allRows (F := F) false c = iprop(
    (∃ f, (rows oM (off false (c.val + 1) 0) (off_inb false _ 0)).view.loc (c : Thread nD τ) ↦[(rows oM (off false (c.val + 1) 0) (off_inb false _ 0)).view.set]{fullShare} f) ∗
    (∃ f, (rows oM (off false (c.val + 1) 1) (off_inb false _ 1)).view.loc (c : Thread nD τ) ↦[(rows oM (off false (c.val + 1) 1) (off_inb false _ 1)).view.set]{fullShare} f) ∗
    (∃ f, (rows oM (off false (c.val + 2) 0) (off_inb false _ 0)).view.loc (c : Thread nD τ) ↦[(rows oM (off false (c.val + 2) 0) (off_inb false _ 0)).view.set]{fullShare} f) ∗
    (∃ f, (rows oM (off false (c.val + 2) 1) (off_inb false _ 1)).view.loc (c : Thread nD τ) ↦[(rows oM (off false (c.val + 2) 1) (off_inb false _ 1)).view.set]{fullShare} f) ∗
    (∃ f, (rows oM (off false (c.val + 3) 0) (off_inb false _ 0)).view.loc (c : Thread nD τ) ↦[(rows oM (off false (c.val + 3) 0) (off_inb false _ 0)).view.set]{fullShare} f) ∗
    (∃ f, (rows oM (off false (c.val + 3) 1) (off_inb false _ 1)).view.loc (c : Thread nD τ) ↦[(rows oM (off false (c.val + 3) 1) (off_inb false _ 1)).view.set]{fullShare} f) ∗
    (∃ f, (rows oM (off false (c.val + 4) 0) (off_inb false _ 0)).view.loc (c : Thread nD τ) ↦[(rows oM (off false (c.val + 4) 0) (off_inb false _ 0)).view.set]{fullShare} f) ∗
    (∃ f, (rows oM (off false (c.val + 4) 1) (off_inb false _ 1)).view.loc (c : Thread nD τ) ↦[(rows oM (off false (c.val + 4) 1) (off_inb false _ 1)).view.set]{fullShare} f) ∗
    (∃ f, (rows oM (off false (c.val + 5) 0) (off_inb false _ 0)).view.loc (c : Thread nD τ) ↦[(rows oM (off false (c.val + 5) 0) (off_inb false _ 0)).view.set]{fullShare} f) ∗
    (∃ f, (rows oM (off false (c.val + 5) 1) (off_inb false _ 1)).view.loc (c : Thread nD τ) ↦[(rows oM (off false (c.val + 5) 1) (off_inb false _ 1)).view.set]{fullShare} f) ∗
    (∃ f, (rows oM (off false (c.val + 6) 0) (off_inb false _ 0)).view.loc (c : Thread nD τ) ↦[(rows oM (off false (c.val + 6) 0) (off_inb false _ 0)).view.set]{fullShare} f) ∗
    (∃ f, (rows oM (off false (c.val + 6) 1) (off_inb false _ 1)).view.loc (c : Thread nD τ) ↦[(rows oM (off false (c.val + 6) 1) (off_inb false _ 1)).view.set]{fullShare} f) ∗
    (∃ f, (rows oM (off false (c.val + 7) 0) (off_inb false _ 0)).view.loc (c : Thread nD τ) ↦[(rows oM (off false (c.val + 7) 0) (off_inb false _ 0)).view.set]{fullShare} f) ∗
    (∃ f, (rows oM (off false (c.val + 7) 1) (off_inb false _ 1)).view.loc (c : Thread nD τ) ↦[(rows oM (off false (c.val + 7) 1) (off_inb false _ 1)).view.set]{fullShare} f) ∗
    (∃ f, (rows oM (off false (c.val + 8) 0) (off_inb false _ 0)).view.loc (c : Thread nD τ) ↦[(rows oM (off false (c.val + 8) 0) (off_inb false _ 0)).view.set]{fullShare} f) ∗
    (∃ f, (rows oM (off false (c.val + 8) 1) (off_inb false _ 1)).view.loc (c : Thread nD τ) ↦[(rows oM (off false (c.val + 8) 1) (off_inb false _ 1)).view.set]{fullShare} f) ∗
    (∃ f, (rows oM (off false (c.val + 9) 0) (off_inb false _ 0)).view.loc (c : Thread nD τ) ↦[(rows oM (off false (c.val + 9) 0) (off_inb false _ 0)).view.set]{fullShare} f) ∗
    (∃ f, (rows oM (off false (c.val + 9) 1) (off_inb false _ 1)).view.loc (c : Thread nD τ) ↦[(rows oM (off false (c.val + 9) 1) (off_inb false _ 1)).view.set]{fullShare} f) ∗
    (∃ f, (rows oM (off false (c.val + 10) 0) (off_inb false _ 0)).view.loc (c : Thread nD τ) ↦[(rows oM (off false (c.val + 10) 0) (off_inb false _ 0)).view.set]{fullShare} f) ∗
    (∃ f, (rows oM (off false (c.val + 10) 1) (off_inb false _ 1)).view.loc (c : Thread nD τ) ↦[(rows oM (off false (c.val + 10) 1) (off_inb false _ 1)).view.set]{fullShare} f) ∗
    (∃ f, (rows oM (off false (c.val + 11) 0) (off_inb false _ 0)).view.loc (c : Thread nD τ) ↦[(rows oM (off false (c.val + 11) 0) (off_inb false _ 0)).view.set]{fullShare} f) ∗
    (∃ f, (rows oM (off false (c.val + 11) 1) (off_inb false _ 1)).view.loc (c : Thread nD τ) ↦[(rows oM (off false (c.val + 11) 1) (off_inb false _ 1)).view.set]{fullShare} f) ∗
    (∃ f, (rows oM (off false (c.val + 12) 0) (off_inb false _ 0)).view.loc (c : Thread nD τ) ↦[(rows oM (off false (c.val + 12) 0) (off_inb false _ 0)).view.set]{fullShare} f) ∗
    (∃ f, (rows oM (off false (c.val + 12) 1) (off_inb false _ 1)).view.loc (c : Thread nD τ) ↦[(rows oM (off false (c.val + 12) 1) (off_inb false _ 1)).view.set]{fullShare} f) ∗
    (∃ f, (rows oM (off false (c.val + 13) 0) (off_inb false _ 0)).view.loc (c : Thread nD τ) ↦[(rows oM (off false (c.val + 13) 0) (off_inb false _ 0)).view.set]{fullShare} f) ∗
    (∃ f, (rows oM (off false (c.val + 13) 1) (off_inb false _ 1)).view.loc (c : Thread nD τ) ↦[(rows oM (off false (c.val + 13) 1) (off_inb false _ 1)).view.set]{fullShare} f) ∗
    (∃ f, (rows oM (off false (c.val + 14) 0) (off_inb false _ 0)).view.loc (c : Thread nD τ) ↦[(rows oM (off false (c.val + 14) 0) (off_inb false _ 0)).view.set]{fullShare} f) ∗
    (∃ f, (rows oM (off false (c.val + 14) 1) (off_inb false _ 1)).view.loc (c : Thread nD τ) ↦[(rows oM (off false (c.val + 14) 1) (off_inb false _ 1)).view.set]{fullShare} f) ∗
    (∃ f, (rows oM (off false (c.val + 15) 0) (off_inb false _ 0)).view.loc (c : Thread nD τ) ↦[(rows oM (off false (c.val + 15) 0) (off_inb false _ 0)).view.set]{fullShare} f) ∗
    (∃ f, (rows oM (off false (c.val + 15) 1) (off_inb false _ 1)).view.loc (c : Thread nD τ) ↦[(rows oM (off false (c.val + 15) 1) (off_inb false _ 1)).view.set]{fullShare} f)) :=
  (allRows_shift false c c (agShift false) (fun _ _ => rfl)).trans rfl

/-- thirty slots of the ring buffer of direction true at given contents are its thirty slots -/
theorem slots_intro_cw (d : Dev nD)
    (f_0_0 f_0_1 f_1_0 f_1_1 f_2_0 f_2_1 f_3_0 f_3_1 f_4_0 f_4_1 f_5_0 f_5_1 f_6_0 f_6_1 f_7_0 f_7_1 f_8_0 f_8_1 f_9_0 f_9_1 f_10_0 f_10_1 f_11_0 f_11_1 f_12_0 f_12_1 f_13_0 f_13_1 f_14_0 f_14_1 : Buf (Elt F) (aM.view.loc (d : Thread nD τ))) :
    (iprop(
    ((slot aM 0 0 Cert.Kernel.Gen.inb_S15x128x1024_S1x64x1024_0_0_0).view.loc (d : Thread nD τ) ↦[(slot aM 0 0 Cert.Kernel.Gen.inb_S15x128x1024_S1x64x1024_0_0_0).view.set]{fullShare} f_0_0) ∗
    ((slot aM 0 64 Cert.Kernel.Gen.inb_S15x128x1024_S1x64x1024_0_64_0).view.loc (d : Thread nD τ) ↦[(slot aM 0 64 Cert.Kernel.Gen.inb_S15x128x1024_S1x64x1024_0_64_0).view.set]{fullShare} f_0_1) ∗
    ((slot aM 1 0 Cert.Kernel.Gen.inb_S15x128x1024_S1x64x1024_1_0_0).view.loc (d : Thread nD τ) ↦[(slot aM 1 0 Cert.Kernel.Gen.inb_S15x128x1024_S1x64x1024_1_0_0).view.set]{fullShare} f_1_0) ∗
    ((slot aM 1 64 Cert.Kernel.Gen.inb_S15x128x1024_S1x64x1024_1_64_0).view.loc (d : Thread nD τ) ↦[(slot aM 1 64 Cert.Kernel.Gen.inb_S15x128x1024_S1x64x1024_1_64_0).view.set]{fullShare} f_1_1) ∗
    ((slot aM 2 0 Cert.Kernel.Gen.inb_S15x128x1024_S1x64x1024_2_0_0).view.loc (d : Thread nD τ) ↦[(slot aM 2 0 Cert.Kernel.Gen.inb_S15x128x1024_S1x64x1024_2_0_0).view.set]{fullShare} f_2_0) ∗
    ((slot aM 2 64 Cert.Kernel.Gen.inb_S15x128x1024_S1x64x1024_2_64_0).view.loc (d : Thread nD τ) ↦[(slot aM 2 64 Cert.Kernel.Gen.inb_S15x128x1024_S1x64x1024_2_64_0).view.set]{fullShare} f_2_1) ∗
    ((slot aM 3 0 Cert.Kernel.Gen.inb_S15x128x1024_S1x64x1024_3_0_0).view.loc (d : Thread nD τ) ↦[(slot aM 3 0 Cert.Kernel.Gen.inb_S15x128x1024_S1x64x1024_3_0_0).view.set]{fullShare} f_3_0) ∗
    ((slot aM 3 64 Cert.Kernel.Gen.inb_S15x128x1024_S1x64x1024_3_64_0).view.loc (d : Thread nD τ) ↦[(slot aM 3 64 Cert.Kernel.Gen.inb_S15x128x1024_S1x64x1024_3_64_0).view.set]{fullShare} f_3_1) ∗
    ((slot aM 4 0 Cert.Kernel.Gen.inb_S15x128x1024_S1x64x1024_4_0_0).view.loc (d : Thread nD τ) ↦[(slot aM 4 0 Cert.Kernel.Gen.inb_S15x128x1024_S1x64x1024_4_0_0).view.set]{fullShare} f_4_0) ∗
    ((slot aM 4 64 Cert.Kernel.Gen.inb_S15x128x1024_S1x64x1024_4_64_0).view.loc (d : Thread nD τ) ↦[(slot aM 4 64 Cert.Kernel.Gen.inb_S15x128x1024_S1x64x1024_4_64_0).view.set]{fullShare} f_4_1) ∗
    ((slot aM 5 0 Cert.Kernel.Gen.inb_S15x128x1024_S1x64x1024_5_0_0).view.loc (d : Thread nD τ) ↦[(slot aM 5 0 Cert.Kernel.Gen.inb_S15x128x1024_S1x64x1024_5_0_0).view.set]{fullShare} f_5_0) ∗
    ((slot aM 5 64 Cert.Kernel.Gen.inb_S15x128x1024_S1x64x1024_5_64_0).view.loc (d : Thread nD τ) ↦[(slot aM 5 64 Cert.Kernel.Gen.inb_S15x128x1024_S1x64x1024_5_64_0).view.set]{fullShare} f_5_1) ∗
    ((slot aM 6 0 Cert.Kernel.Gen.inb_S15x128x1024_S1x64x1024_6_0_0).view.loc (d : Thread nD τ) ↦[(slot aM 6 0 Cert.Kernel.Gen.inb_S15x128x1024_S1x64x1024_6_0_0).view.set]{fullShare} f_6_0) ∗
    ((slot aM 6 64 Cert.Kernel.Gen.inb_S15x128x1024_S1x64x1024_6_64_0).view.loc (d : Thread nD τ) ↦[(slot aM 6 64 Cert.Kernel.Gen.inb_S15x128x1024_S1x64x1024_6_64_0).view.set]{fullShare} f_6_1) ∗
    ((slot aM 7 0 Cert.Kernel.Gen.inb_S15x128x1024_S1x64x1024_7_0_0).view.loc (d : Thread nD τ) ↦[(slot aM 7 0 Cert.Kernel.Gen.inb_S15x128x1024_S1x64x1024_7_0_0).view.set]{fullShare} f_7_0) ∗
    ((slot aM 7 64 Cert.Kernel.Gen.inb_S15x128x1024_S1x64x1024_7_64_0).view.loc (d : Thread nD τ) ↦[(slot aM 7 64 Cert.Kernel.Gen.inb_S15x128x1024_S1x64x1024_7_64_0).view.set]{fullShare} f_7_1) ∗
    ((slot aM 8 0 Cert.Kernel.Gen.inb_S15x128x1024_S1x64x1024_8_0_0).view.loc (d : Thread nD τ) ↦[(slot aM 8 0 Cert.Kernel.Gen.inb_S15x128x1024_S1x64x1024_8_0_0).view.set]{fullShare} f_8_0) ∗
    ((slot aM 8 64 Cert.Kernel.Gen.inb_S15x128x1024_S1x64x1024_8_64_0).view.loc (d : Thread nD τ) ↦[(slot aM 8 64 Cert.Kernel.Gen.inb_S15x128x1024_S1x64x1024_8_64_0).view.set]{fullShare} f_8_1) ∗
    ((slot aM 9 0 Cert.Kernel.Gen.inb_S15x128x1024_S1x64x1024_9_0_0).view.loc (d : Thread nD τ) ↦[(slot aM 9 0 Cert.Kernel.Gen.inb_S15x128x1024_S1x64x1024_9_0_0).view.set]{fullShare} f_9_0) ∗
    ((slot aM 9 64 Cert.Kernel.Gen.inb_S15x128x1024_S1x64x1024_9_64_0).view.loc (d : Thread nD τ) ↦[(slot aM 9 64 Cert.Kernel.Gen.inb_S15x128x1024_S1x64x1024_9_64_0).view.set]{fullShare} f_9_1) ∗
    ((slot aM 10 0 Cert.Kernel.Gen.inb_S15x128x1024_S1x64x1024_10_0_0).view.loc (d : Thread nD τ) ↦[(slot aM 10 0 Cert.Kernel.Gen.inb_S15x128x1024_S1x64x1024_10_0_0).view.set]{fullShare} f_10_0) ∗
    ((slot aM 10 64 Cert.Kernel.Gen.inb_S15x128x1024_S1x64x1024_10_64_0).view.loc (d : Thread nD τ) ↦[(slot aM 10 64 Cert.Kernel.Gen.inb_S15x128x1024_S1x64x1024_10_64_0).view.set]{fullShare} f_10_1) ∗
    ((slot aM 11 0 Cert.Kernel.Gen.inb_S15x128x1024_S1x64x1024_11_0_0).view.loc (d : Thread nD τ) ↦[(slot aM 11 0 Cert.Kernel.Gen.inb_S15x128x1024_S1x64x1024_11_0_0).view.set]{fullShare} f_11_0) ∗
    ((slot aM 11 64 Cert.Kernel.Gen.inb_S15x128x1024_S1x64x1024_11_64_0).view.loc (d : Thread nD τ) ↦[(slot aM 11 64 Cert.Kernel.Gen.inb_S15x128x1024_S1x64x1024_11_64_0).view.set]{fullShare} f_11_1) ∗
    ((slot aM 12 0 Cert.Kernel.Gen.inb_S15x128x1024_S1x64x1024_12_0_0).view.loc (d : Thread nD τ) ↦[(slot aM 12 0 Cert.Kernel.Gen.inb_S15x128x1024_S1x64x1024_12_0_0).view.set]{fullShare} f_12_0) ∗
    ((slot aM 12 64 Cert.Kernel.Gen.inb_S15x128x1024_S1x64x1024_12_64_0).view.loc (d : Thread nD τ) ↦[(slot aM 12 64 Cert.Kernel.Gen.inb_S15x128x1024_S1x64x1024_12_64_0).view.set]{fullShare} f_12_1) ∗
    ((slot aM 13 0 Cert.Kernel.Gen.inb_S15x128x1024_S1x64x1024_13_0_0).view.loc (d : Thread nD τ) ↦[(slot aM 13 0 Cert.Kernel.Gen.inb_S15x128x1024_S1x64x1024_13_0_0).view.set]{fullShare} f_13_0) ∗
    ((slot aM 13 64 Cert.Kernel.Gen.inb_S15x128x1024_S1x64x1024_13_64_0).view.loc (d : Thread nD τ) ↦[(slot aM 13 64 Cert.Kernel.Gen.inb_S15x128x1024_S1x64x1024_13_64_0).view.set]{fullShare} f_13_1) ∗
    ((slot aM 14 0 Cert.Kernel.Gen.inb_S15x128x1024_S1x64x1024_14_0_0).view.loc (d : Thread nD τ) ↦[(slot aM 14 0 Cert.Kernel.Gen.inb_S15x128x1024_S1x64x1024_14_0_0).view.set]{fullShare} f_14_0) ∗
    ((slot aM 14 64 Cert.Kernel.Gen.inb_S15x128x1024_S1x64x1024_14_64_0).view.loc (d : Thread nD τ) ↦[(slot aM 14 64 Cert.Kernel.Gen.inb_S15x128x1024_S1x64x1024_14_64_0).view.set]{fullShare} f_14_1)) : sProp 𝕄) ⊢ allSlots (F := F) true d :=
  slots_intro_gen true d fun sb => [f_0_0, f_0_1, f_1_0, f_1_1, f_2_0, f_2_1, f_3_0, f_3_1, f_4_0, f_4_1, f_5_0, f_5_1, f_6_0, f_6_1, f_7_0, f_7_1, f_8_0, f_8_1, f_9_0, f_9_1, f_10_0, f_10_1, f_11_0, f_11_1, f_12_0, f_12_1, f_13_0, f_13_1, f_14_0, f_14_1].getD (2 * sb.1.val + sb.2.val) f_0_0

/-- thirty slots of the ring buffer of direction false at given contents are its thirty slots -/
theorem slots_intro_ccw (d : Dev nD)
    (f_0_0 f_0_1 f_1_0 f_1_1 f_2_0 f_2_1 f_3_0 f_3_1 f_4_0 f_4_1 f_5_0 f_5_1 f_6_0 f_6_1 f_7_0 f_7_1 f_8_0 f_8_1 f_9_0 f_9_1 f_10_0 f_10_1 f_11_0 f_11_1 f_12_0 f_12_1 f_13_0 f_13_1 f_14_0 f_14_1 : Buf (Elt F) (bM.view.loc (d : Thread nD τ))) :
    (iprop(
    ((slot bM 0 0 Cert.Kernel.Gen.inb_S15x128x1024_S1x64x1024_0_0_0).view.loc (d : Thread nD τ) ↦[(slot bM 0 0 Cert.Kernel.Gen.inb_S15x128x1024_S1x64x1024_0_0_0).view.set]{fullShare} f_0_0) ∗
    ((slot bM 0 64 Cert.Kernel.Gen.inb_S15x128x1024_S1x64x1024_0_64_0).view.loc (d : Thread nD τ) ↦[(slot bM 0 64 Cert.Kernel.Gen.inb_S15x128x1024_S1x64x1024_0_64_0).view.set]{fullShare} f_0_1) ∗
    ((slot bM 1 0 Cert.Kernel.Gen.inb_S15x128x1024_S1x64x1024_1_0_0).view.loc (d : Thread nD τ) ↦[(slot bM 1 0 Cert.Kernel.Gen.inb_S15x128x1024_S1x64x1024_1_0_0).view.set]{fullShare} f_1_0) ∗
    ((slot bM 1 64 Cert.Kernel.Gen.inb_S15x128x1024_S1x64x1024_1_64_0).view.loc (d : Thread nD τ) ↦[(slot bM 1 64 Cert.Kernel.Gen.inb_S15x128x1024_S1x64x1024_1_64_0).view.set]{fullShare} f_1_1) ∗
    ((slot bM 2 0 Cert.Kernel.Gen.inb_S15x128x1024_S1x64x1024_2_0_0).view.loc (d : Thread nD τ) ↦[(slot bM 2 0 Cert.Kernel.Gen.inb_S15x128x1024_S1x64x1024_2_0_0).view.set]{fullShare} f_2_0) ∗
    ((slot bM 2 64 Cert.Kernel.Gen.inb_S15x128x1024_S1x64x1024_2_64_0).view.loc (d : Thread nD τ) ↦[(slot bM 2 64 Cert.Kernel.Gen.inb_S15x128x1024_S1x64x1024_2_64_0).view.set]{fullShare} f_2_1) ∗
    ((slot bM 3 0 Cert.Kernel.Gen.inb_S15x128x1024_S1x64x1024_3_0_0).view.loc (d : Thread nD τ) ↦[(slot bM 3 0 Cert.Kernel.Gen.inb_S15x128x1024_S1x64x1024_3_0_0).view.set]{fullShare} f_3_0) ∗
    ((slot bM 3 64 Cert.Kernel.Gen.inb_S15x128x1024_S1x64x1024_3_64_0).view.loc (d : Thread nD τ) ↦[(slot bM 3 64 Cert.Kernel.Gen.inb_S15x128x1024_S1x64x1024_3_64_0).view.set]{fullShare} f_3_1) ∗
    ((slot bM 4 0 Cert.Kernel.Gen.inb_S15x128x1024_S1x64x1024_4_0_0).view.loc (d : Thread nD τ) ↦[(slot bM 4 0 Cert.Kernel.Gen.inb_S15x128x1024_S1x64x1024_4_0_0).view.set]{fullShare} f_4_0) ∗
    ((slot bM 4 64 Cert.Kernel.Gen.inb_S15x128x1024_S1x64x1024_4_64_0).view.loc (d : Thread nD τ) ↦[(slot bM 4 64 Cert.Kernel.Gen.inb_S15x128x1024_S1x64x1024_4_64_0).view.set]{fullShare} f_4_1) ∗
    ((slot bM 5 0 Cert.Kernel.Gen.inb_S15x128x1024_S1x64x1024_5_0_0).view.loc (d : Thread nD τ) ↦[(slot bM 5 0 Cert.Kernel.Gen.inb_S15x128x1024_S1x64x1024_5_0_0).view.set]{fullShare} f_5_0) ∗
    ((slot bM 5 64 Cert.Kernel.Gen.inb_S15x128x1024_S1x64x1024_5_64_0).view.loc (d : Thread nD τ) ↦[(slot bM 5 64 Cert.Kernel.Gen.inb_S15x128x1024_S1x64x1024_5_64_0).view.set]{fullShare} f_5_1) ∗
    ((slot bM 6 0 Cert.Kernel.Gen.inb_S15x128x1024_S1x64x1024_6_0_0).view.loc (d : Thread nD τ) ↦[(slot bM 6 0 Cert.Kernel.Gen.inb_S15x128x1024_S1x64x1024_6_0_0).view.set]{fullShare} f_6_0) ∗
    ((slot bM 6 64 Cert.Kernel.Gen.inb_S15x128x1024_S1x64x1024_6_64_0).view.loc (d : Thread nD τ) ↦[(slot bM 6 64 Cert.Kernel.Gen.inb_S15x128x1024_S1x64x1024_6_64_0).view.set]{fullShare} f_6_1) ∗
    ((slot bM 7 0 Cert.Kernel.Gen.inb_S15x128x1024_S1x64x1024_7_0_0).view.loc (d : Thread nD τ) ↦[(slot bM 7 0 Cert.Kernel.Gen.inb_S15x128x1024_S1x64x1024_7_0_0).view.set]{fullShare} f_7_0) ∗
    ((slot bM 7 64 Cert.Kernel.Gen.inb_S15x128x1024_S1x64x1024_7_64_0).view.loc (d : Thread nD τ) ↦[(slot bM 7 64 Cert.Kernel.Gen.inb_S15x128x1024_S1x64x1024_7_64_0).view.set]{fullShare} f_7_1) ∗
    ((slot bM 8 0 Cert.Kernel.Gen.inb_S15x128x1024_S1x64x1024_8_0_0).view.loc (d : Thread nD τ) ↦[(slot bM 8 0 Cert.Kernel.Gen.inb_S15x128x1024_S1x64x1024_8_0_0).view.set]{fullShare} f_8_0) ∗
    ((slot bM 8 64 Cert.Kernel.Gen.inb_S15x128x1024_S1x64x1024_8_64_0).view.loc (d : Thread nD τ) ↦[(slot bM 8 64 Cert.Kernel.Gen.inb_S15x128x1024_S1x64x1024_8_64_0).view.set]{fullShare} f_8_1) ∗
    ((slot bM 9 0 Cert.Kernel.Gen.inb_S15x128x1024_S1x64x1024_9_0_0).view.loc (d : Thread nD τ) ↦[(slot bM 9 0 Cert.Kernel.Gen.inb_S15x128x1024_S1x64x1024_9_0_0).view.set]{fullShare} f_9_0) ∗
    ((slot bM 9 64 Cert.Kernel.Gen.inb_S15x128x1024_S1x64x1024_9_64_0).view.loc (d : Thread nD τ) ↦[(slot bM 9 64 Cert.Kernel.Gen.inb_S15x128x1024_S1x64x1024_9_64_0).view.set]{fullShare} f_9_1) ∗
    ((slot bM 10 0 Cert.Kernel.Gen.inb_S15x128x1024_S1x64x1024_10_0_0).view.loc (d : Thread nD τ) ↦[(slot bM 10 0 Cert.Kernel.Gen.inb_S15x128x1024_S1x64x1024_10_0_0).view.set]{fullShare} f_10_0) ∗
    ((slot bM 10 64 Cert.Kernel.Gen.inb_S15x128x1024_S1x64x1024_10_64_0).view.loc (d : Thread nD τ) ↦[(slot bM 10 64 Cert.Kernel.Gen.inb_S15x128x1024_S1x64x1024_10_64_0).view.set]{fullShare} f_10_1) ∗
    ((slot bM 11 0 Cert.Kernel.Gen.inb_S15x128x1024_S1x64x1024_11_0_0).view.loc (d : Thread nD τ) ↦[(slot bM 11 0 Cert.Kernel.Gen.inb_S15x128x1024_S1x64x1024_11_0_0).view.set]{fullShare} f_11_0) ∗
    ((slot bM 11 64 Cert.Kernel.Gen.inb_S15x128x1024_S1x64x1024_11_64_0).view.loc (d : Thread nD τ) ↦[(slot bM 11 64 Cert.Kernel.Gen.inb_S15x128x1024_S1x64x1024_11_64_0).view.set]{fullShare} f_11_1) ∗
    ((slot bM 12 0 Cert.Kernel.Gen.inb_S15x128x1024_S1x64x1024_12_0_0).view.loc (d : Thread nD τ) ↦[(slot bM 12 0 Cert.Kernel.Gen.inb_S15x128x1024_S1x64x1024_12_0_0).view.set]{fullShare} f_12_0) ∗
    ((slot bM 12 64 Cert.Kernel.Gen.inb_S15x128x1024_S1x64x1024_12_64_0).view.loc (d : Thread nD τ) ↦[(slot bM 12 64 Cert.Kernel.Gen.inb_S15x128x1024_S1x64x1024_12_64_0).view.set]{fullShare} f_12_1) ∗
    ((slot bM 13 0 Cert.Kernel.Gen.inb_S15x128x1024_S1x64x1024_13_0_0).view.loc (d : Thread nD τ) ↦[(slot bM 13 0 Cert.Kernel.Gen.inb_S15x128x1024_S1x64x1024_13_0_0).view.set]{fullShare} f_13_0) ∗
    ((slot bM 13 64 Cert.Kernel.Gen.inb_S15x128x1024_S1x64x1024_13_64_0).view.loc (d : Thread nD τ) ↦[(slot bM 13 64 Cert.Kernel.Gen.inb_S15x128x1024_S1x64x1024_13_64_0).view.set]{fullShare} f_13_1) ∗
    ((slot bM 14 0 Cert.Kernel.Gen.inb_S15x128x1024_S1x64x1024_14_0_0).view.loc (d : Thread nD τ) ↦[(slot bM 14 0 Cert.Kernel.Gen.inb_S15x128x1024_S1x64x1024_14_0_0).view.set]{fullShare} f_14_0) ∗
    ((slot bM 14 64 Cert.Kernel.Gen.inb_S15x128x1024_S1x64x1024_14_64_0).view.loc (d : Thread nD τ) ↦[(slot bM 14 64 Cert.Kernel.Gen.inb_S15x128x1024_S1x64x1024_14_64_0).view.set]{fullShare} f_14_1)) : sProp 𝕄) ⊢ allSlots (F := F) false d :=
  slots_intro_gen false d fun sb => [f_0_0, f_0_1, f_1_0, f_1_1, f_2_0, f_2_1, f_3_0, f_3_1, f_4_0, f_4_1, f_5_0, f_5_1, f_6_0, f_6_1, f_7_0, f_7_1, f_8_0, f_8_1, f_9_0, f_9_1, f_10_0, f_10_1, f_11_0, f_11_1, f_12_0, f_12_1, f_13_0, f_13_1, f_14_0, f_14_1].getD (2 * sb.1.val + sb.2.val) f_0_0

end Cert.Kernel.RSAG

end
-- ==== Proof.Bits.BodyLib2.lean ====
import proofs.«901013_g7700000000001014_dist_rs_then_ag_i_m4096_n1024_v7x_i16_f32_1_alg».proof.Proof.Bits.BodyLib
import proofs.«901013_g7700000000001014_dist_rs_then_ag_i_m4096_n1024_v7x_i16_f32_1_alg».proof.Proof.Bits.Steps
import proofs.«901013_g7700000000001014_dist_rs_then_ag_i_m4096_n1024_v7x_i16_f32_1_alg».proof.Proof.Bits.Links
import proofs.«901013_g7700000000001014_dist_rs_then_ag_i_m4096_n1024_v7x_i16_f32_1_alg».proof.Proof.Bits.Cut
import proofs.«901013_g7700000000001014_dist_rs_then_ag_i_m4096_n1024_v7x_i16_f32_1_alg».proof.Proof.Bits.Split

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-- what a wait for the whole of a one-duty round hands over -/
theorem rest_single (g : GSem nD τ sig) (r : ℕ) (P : sProp 𝕄) (hd : (Rd (F := F) X).duties g r = {false})
    (hp : (Rd (F := F) X).payload g r false = P) :
    bigSep ((Rd (F := F) X).duties g r \ ∅) (fun d => (Rd (F := F) X).payload g r d) = P := by
  rw [Finset.sdiff_empty, hd, bigSep_singleton, hp]

/-- what the barrier wait hands over: what each neighbour lent -/
theorem bar_rest (c : Dev nD) :
    bigSep (Finset.univ : Finset Bool) (fun d => (Rd (F := F) X).payload (barCell c) 0 d)
      = iprop((allSlots true (nxt c) ∗ allRows true (nxt c)) ∗ (allSlots false (prv c) ∗ allRows false (prv c))) := by
  rw [bigSep_univ_eq_bigSepL [false, true] (by decide) (by decide), bigSepL_cons_cons, bigSepL_singleton]
  rfl

/-- a slot whose contents are what the store of the sum left holds the sum -/
theorem owns_intro_add (cw : Bool) (s r : ℕ) (b : Fin 2) (c : Dev nD) (J : ℕ)
    (M : Memref sig .tc .vmem S15x128x1024 .f32) (h : ∀ a, (![s, r, 0] : Fin 3 → Nat) a + S1x64x1024.size a ≤ S15x128x1024.size a)
    (f : M.view.ty.Contents (Elt F)) (o : Fin 2 → ℕ) (ho : ∀ a, o a + S64x1024.size a ≤ S4096x1024.size a) (P : Vec F S1x64x1024 .f32)
    (hP : P = shapeCast S1x64x1024 (addf (shapeCast S64x1024 (View.readAt (Elt F) M.view (R3 s r h).toLoadRect f) shapeCasts_S1x64x1024_S64x1024)
      (shapeCast S64x1024 (View.readAt (Elt F) xM.view (Rect.unit (s := S4096x1024) o S64x1024.size ho).toLoadRect (X c)) shapeCasts_S64x1024_S64x1024)) shapeCasts_S64x1024_S1x64x1024)
    (ho' : o = off cw (c.val + J) b.val)
    (hf : (slot M s r h).view.read (Elt F) f = recvV X cw b s c)
    (hadd : addV X cw b s c = kadd (recvV X cw b s c) (piece (off cw (c.val + J) b.val) (off_inb cw (c.val + J) b) (X c))) :
    ((slot M s r h).view.loc (c : Thread nD τ) ↦[(slot M s r h).view.set]{fullShare} View.write (Elt F) (M.access (R3 s r h)) f P Finset.univ : sProp 𝕄)
      ⊢ owns (c : Thread nD τ) (slot M s r h) fullShare (addV X cw b s c) := by
  unfold owns
  iintro H
  iexists _
  isplitr
  · ipureintro; rw [hadd]; exact add_value_at M s r h f (X c) o ho P hP cw (c.val + J) b ho' _ hf
  · iexact H

/-- what is held at the full share is held in two halves -/
theorem owns_share_split {sh : Shape} (c : Dev nD) (mm : Memref sig .tc .vmem sh .f32) (V : sh.Idx → Elt F .f32) :
    (owns (Ix := Unit) (Name := ℕ) (U := UU) (Lvl := ℕ) (c : Thread nD τ) mm fullShare V : sProp 𝕄)
      ⊢ iprop(owns (c : Thread nD τ) mm fullShare.left V ∗ owns (c : Thread nD τ) mm fullShare.right V) := by
  unfold owns
  iintro ⟨%f, %hf, H⟩
  ihave H2 := (pointsTo_share (PosShare.mem_left_op_right fullShare)).1 $$ H
  icases H2 with ⟨HL, HR⟩
  isplitl [HL]
  · iexists f; isplitr; · (ipureintro; exact hf)
    iexact HL
  · iexists f; isplitr; · (ipureintro; exact hf)
    iexact HR

/-- the send rules with the transfer addressed to a device `n` known to be `c'` (substituted, not rewritten: the
    destination memref's type and the typing evidence mention the device) -/
theorem send_pts_at {c c' n : Dev nD} (hn : n = c') {src : Memref sig .tc .vmem S64x1024 .f32} {dst : Memref sig .tc .vmem S64x1024 .f32}
    {hsc : (dst : Memref sig (Dev.tc n : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc n : Thread nD τ) dst (.dma sS) hsc)}
    {α : Type} {Q : α → sProp 𝕄} {k : PUnit → Prog (TpuEff nD τ sig (Elt F) Λ₀ .tc) α}
    (qs : PosShare TreeShare)
    (fs : Buf (Elt F) (src.view.loc (c : Thread nD τ))) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = iprop(src.view.loc (c : Thread nD τ) ↦[src.view.set]{qs} fs))
    (hp₂ : (Rd (F := F) X).payload (dcell c' sem) 0 false = owns (c' : Thread nD τ) dst fullShare (src.view.read (Elt F) fs))
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ (src.view.loc (c : Thread nD τ) ↦[src.view.set]{qs} fs)
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
            -∗ wp frame (wpE (defs₀ (F := F)) 𝒱₀ (c : Thread nD τ) none) Set.univ
                (.op (.enqueueDma src (.remote (Dev.tc n : Thread nD τ) dst (.dma sS) hsc) (.dma sem) hsrc hdst hsem) k) Q) := by
  subst hn
  exact send_pts X qs fs r₁ κ₁ κ₂ O W hd₁ hd₂ hk₁ hk₂ hN hp₁ hp₂ hO hr

theorem send_owns_at {c c' n : Dev nD} (hn : n = c') {src : Memref sig .tc .vmem S64x1024 .f32} {dst : Memref sig .tc .vmem S64x1024 .f32}
    {hsc : (dst : Memref sig (Dev.tc n : Thread nD τ).2.kind .vmem S64x1024 .f32).view.ref.isScScratch = false}
    {sS sem : DmaSem sig} {hsrc : src.view.WordExact} {hdst : dst.view.WordExact}
    {hsem : DmaTarget.Typed .vmem (.dma sem) (.remote (Dev.tc n : Thread nD τ) dst (.dma sS) hsc)}
    {α : Type} {Q : α → sProp 𝕄} {k : PUnit → Prog (TpuEff nD τ sig (Elt F) Λ₀ .tc) α}
    (qs : PosShare TreeShare) (V : S64x1024.Idx → Elt F .f32) (r₁ : ℕ) (κ₁ κ₂ : ℕ)
    {O₀ : CellTallies nD τ sig Unit} (O : CellTallies nD τ sig Unit) (W : Waits sig Unit)
    (hd₁ : false ∈ (Rd (F := F) X).duties (dcell c sS) r₁) (hd₂ : false ∈ (Rd (F := F) X).duties (dcell c' sem) 0)
    (hk₁ : (Rd (F := F) X).amount (dcell c sS) r₁ false = N) (hk₂ : (Rd (F := F) X).amount (dcell c' sem) 0 false = N)
    (hN : dst.view.amount (.dma sem) = N)
    (hp₁ : (Rd (F := F) X).payload (dcell c sS) r₁ false = owns (c : Thread nD τ) src qs V)
    (hp₂ : (Rd (F := F) X).payload (dcell c' sem) 0 false = owns (c' : Thread nD τ) dst fullShare V)
    (hO : O₀ = O + tallyAt (dcell c' sem) () N)
    (hr : τ.routes (c : Thread nD τ) (c' : Thread nD τ) = true) :
    iprop(cellInv ER (Rd (F := F) X) κ₁ (dcell c sS) ∗ cellInv ER (Rd (F := F) X) κ₂ (dcell c' sem)
        ∗ owns (c : Thread nD τ) src qs V
        ∗ (∃ fd, dst.view.loc (c' : Thread nD τ) ↦[dst.view.set]{fullShare} fd)
        ∗ owes (c : Thread nD τ) O₀ W
        ∗ dutyTok ER (dcell c sS) r₁ false ∗ reached ER (dcell c sS) r₁
        ∗ dutyTok ER (dcell c' sem) 0 false ∗ reached ER (dcell c' sem) 0)
      ⊢ iprop(((cred (tallyAt (dcell c sS) () N) ∗ owes (c : Thread nD τ) O W)
              -∗ wp frame (wpE (defs₀ (F := F)) 𝒱₀ (c : Thread nD τ) none) Set.univ (k ⟨⟩) Q)
            -∗ wp frame (wpE (defs₀ (F := F)) 𝒱₀ (c : Thread nD τ) none) Set.univ
                (.op (.enqueueDma src (.remote (Dev.tc n : Thread nD τ) dst (.dma sS) hsc) (.dma sem) hsrc hdst hsem) k) Q) := by
  subst hn
  exact send_owns X qs V r₁ κ₁ κ₂ O W hd₁ hd₂ hk₁ hk₂ hN hp₁ hp₂ hO hr

end Cert.Kernel.RSAG

end
-- ==== Proof.Bits.LaunchBPeel.lean ====
import proofs.«901013_g7700000000001014_dist_rs_then_ag_i_m4096_n1024_v7x_i16_f32_1_alg».proof.Proof.Bits.Dats

/-! What a device still owes from place `j` on is what it owes from place `j + 1` on and the `j`-th payment: one equation
per place, the cell spelt as the list of payments spells it; each holds by unfolding the list. After the last place nothing is owed. -/

noncomputable section

namespace Cert.Kernel.RSAG

open Cert.Kernel Cert.Kernel.Gen
open Idealize.ShloMosaic
open Idealize.ShloMosaic.TcCoe

theorem rem_peel_0 (c : Dev nD) : rem c 0 = rem c 1 + tallyAt (barCell (prv c)) () 1 := rfl
theorem rem_peel_1 (c : Dev nD) : rem c 1 = rem c 2 + tallyAt (barCell (nxt c)) () 1 := rfl
theorem rem_peel_2 (c : Dev nD) : rem c 2 = rem c 3 + tallyAt (dcell (nxt c) (qR cc0_scratch3 0 0 inb_S15x2_S1x1_0_0)) () N := rfl
theorem rem_peel_3 (c : Dev nD) : rem c 3 = rem c 4 + tallyAt (dcell (nxt c) (qR cc0_scratch3 0 1 inb_S15x2_S1x1_0_1)) () N := rfl
theorem rem_peel_4 (c : Dev nD) : rem c 4 = rem c 5 + tallyAt (dcell (prv c) (qR cc0_scratch5 0 0 inb_S15x2_S1x1_0_0)) () N := rfl
theorem rem_peel_5 (c : Dev nD) : rem c 5 = rem c 6 + tallyAt (dcell (prv c) (qR cc0_scratch5 0 1 inb_S15x2_S1x1_0_1)) () N := rfl
theorem rem_peel_6 (c : Dev nD) : rem c 6 = rem c 7 + tallyAt (dcell (nxt c) (qR cc0_scratch3 1 0 inb_S15x2_S1x1_1_0)) () N := rfl
theorem rem_peel_7 (c : Dev nD) : rem c 7 = rem c 8 + tallyAt (dcell (prv c) (qR cc0_scratch5 1 0 inb_S15x2_S1x1_1_0)) () N := rfl
theorem rem_peel_8 (c : Dev nD) : rem c 8 = rem c 9 + tallyAt (dcell (nxt c) (qR cc0_scratch3 1 1 inb_S15x2_S1x1_1_1)) () N := rfl
theorem rem_peel_9 (c : Dev nD) : rem c 9 = rem c 10 + tallyAt (dcell (prv c) (qR cc0_scratch5 1 1 inb_S15x2_S1x1_1_1)) () N := rfl
theorem rem_peel_10 (c : Dev nD) : rem c 10 = rem c 11 + tallyAt (dcell (nxt c) (qR cc0_scratch3 2 0 inb_S15x2_S1x1_2_0)) () N := rfl
theorem rem_peel_11 (c : Dev nD) : rem c 11 = rem c 12 + tallyAt (dcell (prv c) (qR cc0_scratch5 2 0 inb_S15x2_S1x1_2_0)) () N := rfl
theorem rem_peel_12 (c : Dev nD) : rem c 12 = rem c 13 + tallyAt (dcell (nxt c) (qR cc0_scratch3 2 1 inb_S15x2_S1x1_2_1)) () N := rfl
theorem rem_peel_13 (c : Dev nD) : rem c 13 = rem c 14 + tallyAt (dcell (prv c) (qR cc0_scratch5 2 1 inb_S15x2_S1x1_2_1)) () N := rfl
theorem rem_peel_14 (c : Dev nD) : rem c 14 = rem c 15 + tallyAt (dcell (nxt c) (qR cc0_scratch3 3 0 inb_S15x2_S1x1_3_0)) () N := rfl
theorem rem_peel_15 (c : Dev nD) : rem c 15 = rem c 16 + tallyAt (dcell (prv c) (qR cc0_scratch5 3 0 inb_S15x2_S1x1_3_0)) () N := rfl
theorem rem_peel_16 (c : Dev nD) : rem c 16 = rem c 17 + tallyAt (dcell (nxt c) (qR cc0_scratch3 3 1 inb_S15x2_S1x1_3_1)) () N := rfl
theorem rem_peel_17 (c : Dev nD) : rem c 17 = rem c 18 + tallyAt (dcell (prv c) (qR cc0_scratch5 3 1 inb_S15x2_S1x1_3_1)) () N := rfl
theorem rem_peel_18 (c : Dev nD) : rem c 18 = rem c 19 + tallyAt (dcell (nxt c) (qR cc0_scratch3 4 0 inb_S15x2_S1x1_4_0)) () N := rfl
theorem rem_peel_19 (c : Dev nD) : rem c 19 = rem c 20 + tallyAt (dcell (prv c) (qR cc0_scratch5 4 0 inb_S15x2_S1x1_4_0)) () N := rfl
theorem rem_peel_20 (c : Dev nD) : rem c 20 = rem c 21 + tallyAt (dcell (nxt c) (qR cc0_scratch3 4 1 inb_S15x2_S1x1_4_1)) () N := rfl
theorem rem_peel_21 (c : Dev nD) : rem c 21 = rem c 22 + tallyAt (dcell (prv c) (qR cc0_scratch5 4 1 inb_S15x2_S1x1_4_1)) () N := rfl
theorem rem_peel_22 (c : Dev nD) : rem c 22 = rem c 23 + tallyAt (dcell (nxt c) (qR cc0_scratch3 5 0 inb_S15x2_S1x1_5_0)) () N := rfl
theorem rem_peel_23 (c : Dev nD) : rem c 23 = rem c 24 + tallyAt (dcell (prv c) (qR cc0_scratch5 5 0 inb_S15x2_S1x1_5_0)) () N := rfl
theorem rem_peel_24 (c : Dev nD) : rem c 24 = rem c 25 + tallyAt (dcell (nxt c) (qR cc0_scratch3 5 1 inb_S15x2_S1x1_5_1)) () N := rfl
theorem rem_peel_25 (c : Dev nD) : rem c 25 = rem c 26 + tallyAt (dcell (prv c) (qR cc0_scratch5 5 1 inb_S15x2_S1x1_5_1)) () N := rfl
theorem rem_peel_26 (c : Dev nD) : rem c 26 = rem c 27 + tallyAt (dcell (nxt c) (qR cc0_scratch3 6 0 inb_S15x2_S1x1_6_0)) () N := rfl
theorem rem_peel_27 (c : Dev nD) : rem c 27 = rem c 28 + tallyAt (dcell (prv c) (qR cc0_scratch5 6 0 inb_S15x2_S1x1_6_0)) () N := rfl
theorem rem_peel_28 (c : Dev nD) : rem c 28 = rem c 29 + tallyAt (dcell (nxt c) (qR cc0_scratch3 6 1 inb_S15x2_S1x1_6_1)) () N := rfl
theorem rem_peel_29 (c : Dev nD) : rem c 29 = rem c 30 + tallyAt (dcell (prv c) (qR cc0_scratch5 6 1 inb_S15x2_S1x1_6_1)) () N := rfl
theorem rem_peel_30 (c : Dev nD) : rem c 30 = rem c 31 + tallyAt (dcell (nxt c) (qR cc0_scratch3 7 0 inb_S15x2_S1x1_7_0)) () N := rfl
theorem rem_peel_31 (c : Dev nD) : rem c 31 = rem c 32 + tallyAt (dcell (prv c) (qR cc0_scratch5 7 0 inb_S15x2_S1x1_7_0)) () N := rfl
theorem rem_peel_32 (c : Dev nD) : rem c 32 = rem c 33 + tallyAt (dcell (nxt c) (qR cc0_scratch3 7 1 inb_S15x2_S1x1_7_1)) () N := rfl
theorem rem_peel_33 (c : Dev nD) : rem c 33 = rem c 34 + tallyAt (dcell (prv c) (qR cc0_scratch5 7 1 inb_S15x2_S1x1_7_1)) () N := rfl
theorem rem_peel_34 (c : Dev nD) : rem c 34 = rem c 35 + tallyAt (dcell (nxt c) (qR cc0_scratch3 8 0 inb_S15x2_S1x1_8_0)) () N := rfl
theorem rem_peel_35 (c : Dev nD) : rem c 35 = rem c 36 + tallyAt (dcell (prv c) (qR cc0_scratch5 8 0 inb_S15x2_S1x1_8_0)) () N := rfl
theorem rem_peel_36 (c : Dev nD) : rem c 36 = rem c 37 + tallyAt (dcell (nxt c) (qR cc0_scratch3 8 1 inb_S15x2_S1x1_8_1)) () N := rfl
theorem rem_peel_37 (c : Dev nD) : rem c 37 = rem c 38 + tallyAt (dcell (prv c) (qR cc0_scratch5 8 1 inb_S15x2_S1x1_8_1)) () N := rfl
theorem rem_peel_38 (c : Dev nD) : rem c 38 = rem c 39 + tallyAt (dcell (nxt c) (qR cc0_scratch3 9 0 inb_S15x2_S1x1_9_0)) () N := rfl
theorem rem_peel_39 (c : Dev nD) : rem c 39 = rem c 40 + tallyAt (dcell (prv c) (qR cc0_scratch5 9 0 inb_S15x2_S1x1_9_0)) () N := rfl
theorem rem_peel_40 (c : Dev nD) : rem c 40 = rem c 41 + tallyAt (dcell (nxt c) (qR cc0_scratch3 9 1 inb_S15x2_S1x1_9_1)) () N := rfl
theorem rem_peel_41 (c : Dev nD) : rem c 41 = rem c 42 + tallyAt (dcell (prv c) (qR cc0_scratch5 9 1 inb_S15x2_S1x1_9_1)) () N := rfl
theorem rem_peel_42 (c : Dev nD) : rem c 42 = rem c 43 + tallyAt (dcell (nxt c) (qR cc0_scratch3 10 0 inb_S15x2_S1x1_10_0)) () N := rfl
theorem rem_peel_43 (c : Dev nD) : rem c 43 = rem c 44 + tallyAt (dcell (prv c) (qR cc0_scratch5 10 0 inb_S15x2_S1x1_10_0)) () N := rfl
theorem rem_peel_44 (c : Dev nD) : rem c 44 = rem c 45 + tallyAt (dcell (nxt c) (qR cc0_scratch3 10 1 inb_S15x2_S1x1_10_1)) () N := rfl
theorem rem_peel_45 (c : Dev nD) : rem c 45 = rem c 46 + tallyAt (dcell (prv c) (qR cc0_scratch5 10 1 inb_S15x2_S1x1_10_1)) () N := rfl
theorem rem_peel_46 (c : Dev nD) : rem c 46 = rem c 47 + tallyAt (dcell (nxt c) (qR cc0_scratch3 11 0 inb_S15x2_S1x1_11_0)) () N := rfl
theorem rem_peel_47 (c : Dev nD) : rem c 47 = rem c 48 + tallyAt (dcell (prv c) (qR cc0_scratch5 11 0 inb_S15x2_S1x1_11_0)) () N := rfl
theorem rem_peel_48 (c : Dev nD) : rem c 48 = rem c 49 + tallyAt (dcell (nxt c) (qR cc0_scratch3 11 1 inb_S15x2_S1x1_11_1)) () N := rfl
theorem rem_peel_49 (c : Dev nD) : rem c 49 = rem c 50 + tallyAt (dcell (prv c) (qR cc0_scratch5 11 1 inb_S15x2_S1x1_11_1)) () N := rfl
theorem rem_peel_50 (c : Dev nD) : rem c 50 = rem c 51 + tallyAt (dcell (nxt c) (qR cc0_scratch3 12 0 inb_S15x2_S1x1_12_0)) () N := rfl
theorem rem_peel_51 (c : Dev nD) : rem c 51 = rem c 52 + tallyAt (dcell (prv c) (qR cc0_scratch5 12 0 inb_S15x2_S1x1_12_0)) () N := rfl
theorem rem_peel_52 (c : Dev nD) : rem c 52 = rem c 53 + tallyAt (dcell (nxt c) (qR cc0_scratch3 12 1 inb_S15x2_S1x1_12_1)) () N := rfl
theorem rem_peel_53 (c : Dev nD) : rem c 53 = rem c 54 + tallyAt (dcell (prv c) (qR cc0_scratch5 12 1 inb_S15x2_S1x1_12_1)) () N := rfl
theorem rem_peel_54 (c : Dev nD) : rem c 54 = rem c 55 + tallyAt (dcell (nxt c) (qR cc0_scratch3 13 0 inb_S15x2_S1x1_13_0)) () N := rfl
theorem rem_peel_55 (c : Dev nD) : rem c 55 = rem c 56 + tallyAt (dcell (prv c) (qR cc0_scratch5 13 0 inb_S15x2_S1x1_13_0)) () N := rfl
theorem rem_peel_56 (c : Dev nD) : rem c 56 = rem c 57 + tallyAt (dcell (nxt c) (qR cc0_scratch3 13 1 inb_S15x2_S1x1_13_1)) () N := rfl
theorem rem_peel_57 (c : Dev nD) : rem c 57 = rem c 58 + tallyAt (dcell (prv c) (qR cc0_scratch5 13 1 inb_S15x2_S1x1_13_1)) () N := rfl
theorem rem_peel_58 (c : Dev nD) : rem c 58 = rem c 59 + tallyAt (dcell (nxt c) (qR cc0_scratch3 14 0 inb_S15x2_S1x1_14_0)) () N := rfl
theorem rem_peel_59 (c : Dev nD) : rem c 59 = rem c 60 + tallyAt (dcell (prv c) (qR cc0_scratch5 14 0 inb_S15x2_S1x1_14_0)) () N := rfl
theorem rem_peel_60 (c : Dev nD) : rem c 60 = rem c 61 + tallyAt (dcell (nxt c) (qR cc0_scratch3 14 1 inb_S15x2_S1x1_14_1)) () N := rfl
theorem rem_peel_61 (c : Dev nD) : rem c 61 = rem c 62 + tallyAt (dcell (prv c) (qR cc0_scratch5 14 1 inb_S15x2_S1x1_14_1)) () N := rfl
theorem rem_peel_62 (c : Dev nD) : rem c 62 = rem c 63 + tallyAt (dcell (nxt c) (qR cc0_scratch7 0 0 inb_S15x2_S1x1_0_0)) () N := rfl
theorem rem_peel_63 (c : Dev nD) : rem c 63 = rem c 64 + tallyAt (dcell (prv c) (qR cc0_scratch9 0 0 inb_S15x2_S1x1_0_0)) () N := rfl
theorem rem_peel_64 (c : Dev nD) : rem c 64 = rem c 65 + tallyAt (dcell (nxt c) (qR cc0_scratch7 0 1 inb_S15x2_S1x1_0_1)) () N := rfl
theorem rem_peel_65 (c : Dev nD) : rem c 65 = rem c 66 + tallyAt (dcell (prv c) (qR cc0_scratch9 0 1 inb_S15x2_S1x1_0_1)) () N := rfl
theorem rem_peel_66 (c : Dev nD) : rem c 66 = rem c 67 + tallyAt (dcell (nxt c) (qR cc0_scratch7 1 0 inb_S15x2_S1x1_1_0)) () N := rfl
theorem rem_peel_67 (c : Dev nD) : rem c 67 = rem c 68 + tallyAt (dcell (prv c) (qR cc0_scratch9 1 0 inb_S15x2_S1x1_1_0)) () N := rfl
theorem rem_peel_68 (c : Dev nD) : rem c 68 = rem c 69 + tallyAt (dcell (nxt c) (qR cc0_scratch7 1 1 inb_S15x2_S1x1_1_1)) () N := rfl
theorem rem_peel_69 (c : Dev nD) : rem c 69 = rem c 70 + tallyAt (dcell (prv c) (qR cc0_scratch9 1 1 inb_S15x2_S1x1_1_1)) () N := rfl
theorem rem_peel_70 (c : Dev nD) : rem c 70 = rem c 71 + tallyAt (dcell (nxt c) (qR cc0_scratch7 2 0 inb_S15x2_S1x1_2_0)) () N := rfl
theorem rem_peel_71 (c : Dev nD) : rem c 71 = rem c 72 + tallyAt (dcell (prv c) (qR cc0_scratch9 2 0 inb_S15x2_S1x1_2_0)) () N := rfl
theorem rem_peel_72 (c : Dev nD) : rem c 72 = rem c 73 + tallyAt (dcell (nxt c) (qR cc0_scratch7 2 1 inb_S15x2_S1x1_2_1)) () N := rfl
theorem rem_peel_73 (c : Dev nD) : rem c 73 = rem c 74 + tallyAt (dcell (prv c) (qR cc0_scratch9 2 1 inb_S15x2_S1x1_2_1)) () N := rfl
theorem rem_peel_74 (c : Dev nD) : rem c 74 = rem c 75 + tallyAt (dcell (nxt c) (qR cc0_scratch7 3 0 inb_S15x2_S1x1_3_0)) () N := rfl
theorem rem_peel_75 (c : Dev nD) : rem c 75 = rem c 76 + tallyAt (dcell (prv c) (qR cc0_scratch9 3 0 inb_S15x2_S1x1_3_0)) () N := rfl
theorem rem_peel_76 (c : Dev nD) : rem c 76 = rem c 77 + tallyAt (dcell (nxt c) (qR cc0_scratch7 3 1 inb_S15x2_S1x1_3_1)) () N := rfl
theorem rem_peel_77 (c : Dev nD) : rem c 77 = rem c 78 + tallyAt (dcell (prv c) (qR cc0_scratch9 3 1 inb_S15x2_S1x1_3_1)) () N := rfl
theorem rem_peel_78 (c : Dev nD) : rem c 78 = rem c 79 + tallyAt (dcell (nxt c) (qR cc0_scratch7 4 0 inb_S15x2_S1x1_4_0)) () N := rfl
theorem rem_peel_79 (c : Dev nD) : rem c 79 = rem c 80 + tallyAt (dcell (prv c) (qR cc0_scratch9 4 0 inb_S15x2_S1x1_4_0)) () N := rfl
theorem rem_peel_80 (c : Dev nD) : rem c 80 = rem c 81 + tallyAt (dcell (nxt c) (qR cc0_scratch7 4 1 inb_S15x2_S1x1_4_1)) () N := rfl
theorem rem_peel_81 (c : Dev nD) : rem c 81 = rem c 82 + tallyAt (dcell (prv c) (qR cc0_scratch9 4 1 inb_S15x2_S1x1_4_1)) () N := rfl
theorem rem_peel_82 (c : Dev nD) : rem c 82 = rem c 83 + tallyAt (dcell (nxt c) (qR cc0_scratch7 5 0 inb_S15x2_S1x1_5_0)) () N := rfl
theorem rem_peel_83 (c : Dev nD) : rem c 83 = rem c 84 + tallyAt (dcell (prv c) (qR cc0_scratch9 5 0 inb_S15x2_S1x1_5_0)) () N := rfl
theorem rem_peel_84 (c : Dev nD) : rem c 84 = rem c 85 + tallyAt (dcell (nxt c) (qR cc0_scratch7 5 1 inb_S15x2_S1x1_5_1)) () N := rfl
theorem rem_peel_85 (c : Dev nD) : rem c 85 = rem c 86 + tallyAt (dcell (prv c) (qR cc0_scratch9 5 1 inb_S15x2_S1x1_5_1)) () N := rfl
theorem rem_peel_86 (c : Dev nD) : rem c 86 = rem c 87 + tallyAt (dcell (nxt c) (qR cc0_scratch7 6 0 inb_S15x2_S1x1_6_0)) () N := rfl
theorem rem_peel_87 (c : Dev nD) : rem c 87 = rem c 88 + tallyAt (dcell (prv c) (qR cc0_scratch9 6 0 inb_S15x2_S1x1_6_0)) () N := rfl
theorem rem_peel_88 (c : Dev nD) : rem c 88 = rem c 89 + tallyAt (dcell (nxt c) (qR cc0_scratch7 6 1 inb_S15x2_S1x1_6_1)) () N := rfl
theorem rem_peel_89 (c : Dev nD) : rem c 89 = rem c 90 + tallyAt (dcell (prv c) (qR cc0_scratch9 6 1 inb_S15x2_S1x1_6_1)) () N := rfl
theorem rem_peel_90 (c : Dev nD) : rem c 90 = rem c 91 + tallyAt (dcell (nxt c) (qR cc0_scratch7 7 0 inb_S15x2_S1x1_7_0)) () N := rfl
theorem rem_peel_91 (c : Dev nD) : rem c 91 = rem c 92 + tallyAt (dcell (prv c) (qR cc0_scratch9 7 0 inb_S15x2_S1x1_7_0)) () N := rfl
theorem rem_peel_92 (c : Dev nD) : rem c 92 = rem c 93 + tallyAt (dcell (nxt c) (qR cc0_scratch7 7 1 inb_S15x2_S1x1_7_1)) () N := rfl
theorem rem_peel_93 (c : Dev nD) : rem c 93 = rem c 94 + tallyAt (dcell (prv c) (qR cc0_scratch9 7 1 inb_S15x2_S1x1_7_1)) () N := rfl
theorem rem_peel_94 (c : Dev nD) : rem c 94 = rem c 95 + tallyAt (dcell (nxt c) (qR cc0_scratch7 8 0 inb_S15x2_S1x1_8_0)) () N := rfl
theorem rem_peel_95 (c : Dev nD) : rem c 95 = rem c 96 + tallyAt (dcell (prv c) (qR cc0_scratch9 8 0 inb_S15x2_S1x1_8_0)) () N := rfl
theorem rem_peel_96 (c : Dev nD) : rem c 96 = rem c 97 + tallyAt (dcell (nxt c) (qR cc0_scratch7 8 1 inb_S15x2_S1x1_8_1)) () N := rfl
theorem rem_peel_97 (c : Dev nD) : rem c 97 = rem c 98 + tallyAt (dcell (prv c) (qR cc0_scratch9 8 1 inb_S15x2_S1x1_8_1)) () N := rfl
theorem rem_peel_98 (c : Dev nD) : rem c 98 = rem c 99 + tallyAt (dcell (nxt c) (qR cc0_scratch7 9 0 inb_S15x2_S1x1_9_0)) () N := rfl
theorem rem_peel_99 (c : Dev nD) : rem c 99 = rem c 100 + tallyAt (dcell (prv c) (qR cc0_scratch9 9 0 inb_S15x2_S1x1_9_0)) () N := rfl
theorem rem_peel_100 (c : Dev nD) : rem c 100 = rem c 101 + tallyAt (dcell (nxt c) (qR cc0_scratch7 9 1 inb_S15x2_S1x1_9_1)) () N := rfl
theorem rem_peel_101 (c : Dev nD) : rem c 101 = rem c 102 + tallyAt (dcell (prv c) (qR cc0_scratch9 9 1 inb_S15x2_S1x1_9_1)) () N := rfl
theorem rem_peel_102 (c : Dev nD) : rem c 102 = rem c 103 + tallyAt (dcell (nxt c) (qR cc0_scratch7 10 0 inb_S15x2_S1x1_10_0)) () N := rfl
theorem rem_peel_103 (c : Dev nD) : rem c 103 = rem c 104 + tallyAt (dcell (prv c) (qR cc0_scratch9 10 0 inb_S15x2_S1x1_10_0)) () N := rfl
theorem rem_peel_104 (c : Dev nD) : rem c 104 = rem c 105 + tallyAt (dcell (nxt c) (qR cc0_scratch7 10 1 inb_S15x2_S1x1_10_1)) () N := rfl
theorem rem_peel_105 (c : Dev nD) : rem c 105 = rem c 106 + tallyAt (dcell (prv c) (qR cc0_scratch9 10 1 inb_S15x2_S1x1_10_1)) () N := rfl
theorem rem_peel_106 (c : Dev nD) : rem c 106 = rem c 107 + tallyAt (dcell (nxt c) (qR cc0_scratch7 11 0 inb_S15x2_S1x1_11_0)) () N := rfl
theorem rem_peel_107 (c : Dev nD) : rem c 107 = rem c 108 + tallyAt (dcell (prv c) (qR cc0_scratch9 11 0 inb_S15x2_S1x1_11_0)) () N := rfl
theorem rem_peel_108 (c : Dev nD) : rem c 108 = rem c 109 + tallyAt (dcell (nxt c) (qR cc0_scratch7 11 1 inb_S15x2_S1x1_11_1)) () N := rfl
theorem rem_peel_109 (c : Dev nD) : rem c 109 = rem c 110 + tallyAt (dcell (prv c) (qR cc0_scratch9 11 1 inb_S15x2_S1x1_11_1)) () N := rfl
theorem rem_peel_110 (c : Dev nD) : rem c 110 = rem c 111 + tallyAt (dcell (nxt c) (qR cc0_scratch7 12 0 inb_S15x2_S1x1_12_0)) () N := rfl
theorem rem_peel_111 (c : Dev nD) : rem c 111 = rem c 112 + tallyAt (dcell (prv c) (qR cc0_scratch9 12 0 inb_S15x2_S1x1_12_0)) () N := rfl
theorem rem_peel_112 (c : Dev nD) : rem c 112 = rem c 113 + tallyAt (dcell (nxt c) (qR cc0_scratch7 12 1 inb_S15x2_S1x1_12_1)) () N := rfl
theorem rem_peel_113 (c : Dev nD) : rem c 113 = rem c 114 + tallyAt (dcell (prv c) (qR cc0_scratch9 12 1 inb_S15x2_S1x1_12_1)) () N := rfl
theorem rem_peel_114 (c : Dev nD) : rem c 114 = rem c 115 + tallyAt (dcell (nxt c) (qR cc0_scratch7 13 0 inb_S15x2_S1x1_13_0)) () N := rfl
theorem rem_peel_115 (c : Dev nD) : rem c 115 = rem c 116 + tallyAt (dcell (prv c) (qR cc0_scratch9 13 0 inb_S15x2_S1x1_13_0)) () N := rfl
theorem rem_peel_116 (c : Dev nD) : rem c 116 = rem c 117 + tallyAt (dcell (nxt c) (qR cc0_scratch7 13 1 inb_S15x2_S1x1_13_1)) () N := rfl
theorem rem_peel_117 (c : Dev nD) : rem c 117 = rem c 118 + tallyAt (dcell (prv c) (qR cc0_scratch9 13 1 inb_S15x2_S1x1_13_1)) () N := rfl
theorem rem_peel_118 (c : Dev nD) : rem c 118 = rem c 119 + tallyAt (dcell (nxt c) (qR cc0_scratch7 14 0 inb_S15x2_S1x1_14_0)) () N := rfl
theorem rem_peel_119 (c : Dev nD) : rem c 119 = rem c 120 + tallyAt (dcell (prv c) (qR cc0_scratch9 14 0 inb_S15x2_S1x1_14_0)) () N := rfl
theorem rem_peel_120 (c : Dev nD) : rem c 120 = rem c 121 + tallyAt (dcell (nxt c) (qR cc0_scratch7 14 1 inb_S15x2_S1x1_14_1)) () N := rfl
theorem rem_peel_121 (c : Dev nD) : rem c 121 = rem c 122 + tallyAt (dcell (prv c) (qR cc0_scratch9 14 1 inb_S15x2_S1x1_14_1)) () N := rfl

theorem rem_done (c : Dev nD) : rem c 122 = 0 := rfl

end Cert.Kernel.RSAG

end
-- ==== Proof.Bits.LaunchB.lean ====
import proofs.«901013_g7700000000001014_dist_rs_then_ag_i_m4096_n1024_v7x_i16_f32_1_alg».proof.Proof.Bits.Dats

/-! What a device owes, place by place, and the level evidence of its waits.

A device pays the 122 entries of its list of payments in order: the two barrier signals, then the arrival of each of its 120
transfers at a neighbour's receive cell. After `j` of them it owes the rest. A barrier cell lies at level 1 and the receive
cell paid at place `k` at level `2 + k`, so what is still owed from place `j` on lies at level `2 + j` or above: a device may
wait on any cell of its own below that. At launch every receive cell is owed one transfer's credit by exactly one neighbour
and every barrier cell one unit by each neighbour: the credit tokens a device is dealt. -/

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The list of payments: its length, and peeling one place -/

theorem len_pays (c : Dev nD) : (pays c).length = 122 := rfl

/-- What is owed from place `j` on is what is owed from the next place on and the `j`-th payment. -/
theorem rem_peel (c : Dev nD) (j : ℕ) (hj : j < 122) :
    rem c j = rem c (j + 1) + tallyAt ((pays c)[j]'(by rw [len_pays]; exact hj)).1 () ((pays c)[j]'(by rw [len_pays]; exact hj)).2 := by
  unfold rem
  rw [List.drop_eq_getElem_cons (by rw [len_pays]; exact hj), List.foldr_cons]

/-! ## Where the cells paid lie: every one on a TensorCore; the two barrier cells at level 1, the cell of place `k ≥ 2` at level `2 + k` -/

theorem pays_facts (c : Dev nD) :
    (pays c).map (fun p => (p.1.1.2, lv p.1 ())) = (List.range 122).map (fun i => ((Proc.tc : Proc τ), if i < 2 then 1 else 2 + i)) := rfl

theorem pays_get (c : Dev nD) (k : ℕ) (hk : k < 122) :
    ((pays c)[k]'(by rw [len_pays]; exact hk)).1.1.2 = .tc
      ∧ lv ((pays c)[k]'(by rw [len_pays]; exact hk)).1 () = if k < 2 then 1 else 2 + k := by
  have h := List.getElem_of_eq (pays_facts c) (i := k) (by rw [List.length_map, len_pays]; exact hk)
  rw [List.getElem_map, List.getElem_map, List.getElem_range] at h
  exact ⟨congrArg Prod.fst h, congrArg Prod.snd h⟩

/-- A sum of payments is positive only at a cell one of them names. -/
theorem foldr_tally_pos (l : List (GSem nD τ sig × ℕ)) (g : GSem nD τ sig) (u : Unit)
    (h : 0 < (l.foldr (fun p O => O + tallyAt p.1 () p.2) (0 : CellTallies nD τ sig Unit)) g u) : ∃ p ∈ l, p.1 = g := by
  induction l with
  | nil => exact absurd h (Nat.lt_irrefl 0)
  | cons p l ih =>
    rw [List.foldr_cons] at h
    by_cases hg : g = p.1
    · exact ⟨p, List.mem_cons_self, hg.symm⟩
    · rw [Pi.add_apply, Finsupp.add_apply, tallyAt_ne_cell hg, Finsupp.zero_apply, Nat.add_zero] at h
      obtain ⟨q, hq, hqg⟩ := ih h
      exact ⟨q, List.mem_cons_of_mem _ hq, hqg⟩

/-- What is owed from place `j` on is positive only at the cell of a place `k ≥ j`. -/
theorem rem_pos (c : Dev nD) (j : ℕ) (g : GSem nD τ sig) (u : Unit) (h : 0 < rem c j g u) :
    ∃ k, j ≤ k ∧ ∃ hk : k < 122, ((pays c)[k]'(by rw [len_pays]; exact hk)).1 = g := by
  obtain ⟨p, hp, hpg⟩ := foldr_tally_pos _ g u h
  obtain ⟨i, hi, hip⟩ := List.mem_iff_getElem.mp hp
  rw [List.getElem_drop] at hip
  rw [List.length_drop, len_pays] at hi
  exact ⟨j + i, Nat.le_add_right _ _, by omega, by rw [← hpg, ← hip]⟩

/-! ## The level evidence of a wait -/

/-- A device that still owes the payments from place `j` on may wait on a cell of its own whose level is at most `b`,
    when the cell of every place from `j` on lies above `b`. -/
theorem mayWait_cut (c : Dev nD) (j b : ℕ) (hb : ∀ k, j ≤ k → k < 122 → b < (if k < 2 then 1 else 2 + k))
    (sm : SemLoc sig) (h : lv ((c : Thread nD τ), sm) () ≤ b) :
    (levAts L lv : sProp 𝕄) ⊢ MayWait (c : Thread nD τ) sm () (rem c j) :=
  MayOwe.of_cut (L := L) (lev := lv) b
    (fun p hp => by rw [Finset.mem_singleton.mp hp, L_tc]; exact Finset.mem_singleton_self _)
    (fun g u hg => by
      obtain ⟨k, _, hk, rfl⟩ := rem_pos c j g u hg
      unfold L; rw [if_pos (pays_get c k hk).1]; exact Finset.mem_singleton_self _)
    (fun p hp => by rw [Finset.mem_singleton.mp hp]; exact h)
    (fun g u hg => by
      obtain ⟨k, hjk, hk, rfl⟩ := rem_pos c j g u hg
      rw [(pays_get c k hk).2]; exact hb k hjk hk)

/-- From place `j ≥ 2` on every cell still owed has level `2 +` its place, at least `2 + j`. -/
theorem mayWait_rem (c : Dev nD) (j : ℕ) (hj : 2 ≤ j) (sm : SemLoc sig) (h : lv ((c : Thread nD τ), sm) () < 2 + j) :
    (levAts L lv : sProp 𝕄) ⊢ MayWait (c : Thread nD τ) sm () (rem c j) :=
  mayWait_cut c j (1 + j) (fun k hjk _ => by rw [if_neg (by omega)]; omega) sm (by omega)

/-- At its barrier wait a device owes the transfers only: receive cells, all above its barrier cell. -/
theorem mayWait_bar (c : Dev nD) : (levAts L lv : sProp 𝕄) ⊢ MayWait (c : Thread nD τ) (.reg barS) () (rem c 2) :=
  mayWait_rem c 2 (Nat.le_refl 2) (.reg barS) (show 1 < 2 + 2 by decide)

/-! ## The pipeline's own waits: the two staging cells lie at level 0, below everything a device ever owes -/

theorem stage_lvq (w : Fin cfg0.W) (s : Fin (cfg0.win w).nbuf) : lvq ((cfg0.win w).sem s).val = 0 := by
  fin_cases w <;> fin_cases s <;> rfl

variable (m : (ℓ : Loc nD τ sig) → Buf (Elt F) ℓ) (ρ : Dev nD → PrngReg)

theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait_cut c 0 0 (fun k _ _ => by split <;> omega) _ (Nat.le_of_eq (stage_lvq w s))
    · show (levAts L lv : sProp 𝕄) ⊢ MayWait (c : Thread nD τ) _ () 0
      rw [MayWait_zero]; iintro -; iempintro

/-! ## The credit tokens dealt at launch

Every payment goes to a neighbour: to the next device or to the previous one. Summed over the payers, each such payment is
one token on the payee's own cell; so a device is dealt one token per entry of the list. Sorted by direction these are the
two barrier units and one transfer's credit on each receive cell. -/

omit [FloatOps F] in
theorem bigSepL_cons' {I : Type} (i : I) (l : List I) (Φ : I → sProp 𝕄) : bigSepL (i :: l) Φ = iprop(Φ i ∗ bigSepL l Φ) :=
  bigSepL_cons i l Φ

omit [FloatOps F] in
theorem bigSepL_append {I : Type} (l₁ l₂ : List I) (Φ : I → sProp 𝕄) :
    iprop(bigSepL l₁ Φ ∗ bigSepL l₂ Φ) ⊢ bigSepL (l₁ ++ l₂) Φ := by
  induction l₁ with
  | nil => rw [List.nil_append, bigSepL_nil]; iintro ⟨-, H⟩; iexact H
  | cons i l ih =>
    rw [List.cons_append, bigSepL_cons', bigSepL_cons']
    iintro ⟨⟨Hi, Hl⟩, H2⟩
    isplitl [Hi]; · iexact Hi
    iapply ih
    isplitl [Hl]; · iexact Hl
    iexact H2

omit [FloatOps F] in
theorem bigSepL_map {I J : Type} (f : J → I) (l : List J) (Φ : I → sProp 𝕄) :
    bigSepL (l.map f) Φ = bigSepL l (fun j => Φ (f j)) := by
  induction l with
  | nil => rfl
  | cons j l ih => rw [List.map_cons, bigSepL_cons, bigSepL_cons, ih]

omit [FloatOps F] in
/-- A chain sorted by a test: the entries that pass it, and the others. -/
theorem bigSepL_filter {I : Type} (p : I → Bool) (l : List I) (Φ : I → sProp 𝕄) :
    bigSepL l Φ ⊢ iprop(bigSepL (l.filter p) Φ ∗ bigSepL (l.filter (fun x => !p x)) Φ) := by
  induction l with
  | nil => rw [List.filter_nil, List.filter_nil, bigSepL_nil]; iintro -; isplitl [] <;> iempintro
  | cons x l ih =>
    rw [bigSepL_cons']
    cases h : p x with
    | true =>
      rw [List.filter_cons_of_pos (by rw [h]), List.filter_cons_of_neg (by rw [h]; decide), bigSepL_cons']
      iintro ⟨Hx, Hl⟩
      ihave H := ih $$ Hl
      icases H with ⟨H1, H2⟩
      isplitl [Hx H1]
      · isplitl [Hx]; · iexact Hx
        iexact H1
      · iexact H2
    | false =>
      rw [List.filter_cons_of_neg (by rw [h]; decide), List.filter_cons_of_pos (by rw [h]; rfl), bigSepL_cons']
      iintro ⟨Hx, Hl⟩
      ihave H := ih $$ Hl
      icases H with ⟨H1, H2⟩
      isplitl [H1]; · iexact H1
      isplitl [Hx]; · iexact Hx
      iexact H2

theorem fwd_bwd (cw : Bool) (c : Dev nD) : fwd cw (bwd cw c) = c := by
  cases cw
  · exact prv_nxt c
  · exact nxt_prv c
theorem bwd_fwd (cw : Bool) (c : Dev nD) : bwd cw (fwd cw c) = c := by
  cases cw
  · exact nxt_prv c
  · exact prv_nxt c

/-- The payments without the payer: towards the next device or the previous one, the semaphore, the amount. -/
def payK : List (Bool × SemLoc sig × ℕ) := (pays (0 : Dev nD)).map (fun p => (decide (p.1.1.1 = nxt 0), p.1.2, p.2))

theorem pays_eq (d : Dev nD) : pays d = payK.map (fun t => (((fwd t.1 d : Thread nD τ), t.2.1), t.2.2)) := rfl
theorem payK_cw : payK.filter (fun t => t.1) = (true, SemLoc.reg barS, 1) :: recvCw.map (fun q => (true, SemLoc.dma q, N)) := rfl
theorem payK_ccw : payK.filter (fun t => !t.1) = (false, SemLoc.reg barS, 1) :: recvCcw.map (fun q => (false, SemLoc.dma q, N)) := rfl

omit [FloatOps F] in
/-- One token per payment, on the payee's own cell. -/
theorem launchCred_ring (K : List (Bool × SemLoc sig × ℕ)) (c : Dev nD) :
    (Pipeline.launchCred (fun d => (K.map (fun t => (((fwd t.1 d : Thread nD τ), t.2.1), t.2.2))).foldr
        (fun p O => O + tallyAt p.1 () p.2) (0 : CellTallies nD τ sig Unit)) c : sProp 𝕄)
      ⊢ bigSepL K (fun t => cred (tallyAt ((c : Thread nD τ), t.2.1) () t.2.2)) := by
  induction K with
  | nil => exact Entails.of_eq (Pipeline.launchCred_zero c)
  | cons t K ih =>
    have e : (fun d : Dev nD => (((t :: K).map (fun t => (((fwd t.1 d : Thread nD τ), t.2.1), t.2.2))).foldr
          (fun p O => O + tallyAt p.1 () p.2) (0 : CellTallies nD τ sig Unit)))
        = fun d => (fun d : Dev nD => (K.map (fun t => (((fwd t.1 d : Thread nD τ), t.2.1), t.2.2))).foldr
            (fun p O => O + tallyAt p.1 () p.2) (0 : CellTallies nD τ sig Unit)) d
          + (fun d : Dev nD => (tallyAt ((fwd t.1 d : Thread nD τ), t.2.1) () t.2.2 : CellTallies nD τ sig Unit)) d := rfl
    rw [e, Pipeline.launchCred_add, bigSepL_cons']
    iintro ⟨HK, Ht⟩
    isplitl [Ht]
    · iapply (Pipeline.launchCred_tallyAt t.2.1 (fwd t.1) (bwd t.1) (fwd_bwd t.1) (bwd_fwd t.1) () t.2.2 c); iexact Ht
    · iapply ih; iexact HK

omit [FloatOps F] in
theorem creds (c : Dev nD) : (Pipeline.launchCred (fun c => rem c 0) c : sProp 𝕄)
    ⊢ iprop(cred (tallyAt (barCell c) () 2) ∗ bigSepL (recvCw ++ recvCcw) (fun q => cred (tallyAt (dcell c q) () N))) := by
  refine (launchCred_ring payK c).trans ((bigSepL_filter (fun t => t.1) payK _).trans ?_)
  rw [payK_cw, payK_ccw, bigSepL_cons', bigSepL_cons', bigSepL_map, bigSepL_map]
  iintro ⟨⟨Hb1, Hcw⟩, ⟨Hb2, Hccw⟩⟩
  isplitl [Hb1 Hb2]
  · rw [← tallyAt_add (barCell c) () 1 1]
    iapply (cred_add _ _).2
    isplitl [Hb1]; · iexact Hb1
    iexact Hb2
  · iapply (bigSepL_append recvCw recvCcw)
    isplitl [Hcw]; · iexact Hcw
    iexact Hccw

end Cert.Kernel.RSAG

end
-- ==== Proof.Bits.Wrap.lean ====
import proofs.«901013_g7700000000001014_dist_rs_then_ag_i_m4096_n1024_v7x_i16_f32_1_alg».proof.Proof.Bits.Dats
import proofs.«901013_g7700000000001014_dist_rs_then_ag_i_m4096_n1024_v7x_i16_f32_1_alg».proof.Proof.Bits.Cut
import proofs.«901013_g7700000000001014_dist_rs_then_ag_i_m4096_n1024_v7x_i16_f32_1_alg».proof.Proof.Bits.Split
import proofs.«901013_g7700000000001014_dist_rs_then_ag_i_m4096_n1024_v7x_i16_f32_1_alg».proof.Proof.Bits.LaunchB
import proofs.«901013_g7700000000001014_dist_rs_then_ag_i_m4096_n1024_v7x_i16_f32_1_alg».proof.Proof.Bits.LaunchBPeel
import proofs.«901013_g7700000000001014_dist_rs_then_ag_i_m4096_n1024_v7x_i16_f32_1_alg».proof.Proof.Bits.BodyLib2

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! What a device's body starts from, spelt out conjunct by conjunct, and that the pipeline's invariant before the point,
    with the two staged buffers, is that at some names and some set of waits. -/

/-- the chain `Φ a ∗ Φ b ∗ … ∗ Φ z ∗ R` over a list -/
def chainL {I : Type} (l : List I) (Φ : I → sProp 𝕄) (R : sProp 𝕄) : sProp 𝕄 := l.foldr (fun q acc => iprop(Φ q ∗ acc)) R

/-- it is the list's chain and then the rest -/
theorem chainL_eq {I : Type} (l : List I) (Φ : I → sProp 𝕄) (R : sProp 𝕄) : chainL l Φ R = iprop(bigSepL l Φ ∗ R) := by
  induction l with
  | nil => exact (BI.equiv_iff.mp BI.emp_sep).symm
  | cons i l ih =>
    show iprop(Φ i ∗ chainL l Φ R) = _
    rw [ih, bigSepL_cons]
    exact (sep_assoc_eq _ _ _).symm

variable (X : Dev nD → S4096x1024.Idx → Elt F .f32)

/-- What device `c`'s body starts from, every conjunct by itself: the invariants (its own and its neighbours' receive
    cells' kept as three bundles), its positions, the rounds reached, the tokens of the duties it pays, its credit tokens,
    the level facts, both ring buffers slot by slot, what it owes, its staged block of the input (half its share whole,
    the other half at the four windows the first transfers read and the rest), and its staged result window by window. -/
def bodyPre (K : GSem nD τ sig → ℕ) (W : Waits sig Unit) (c : Dev nD) : sProp 𝕄 :=
    iprop(cellInv ER (Rd X) (K (barCell c)) (barCell c)
    ∗ cellInv ER (Rd X) (K (barCell (nxt c))) (barCell (nxt c))
    ∗ cellInv ER (Rd X) (K (barCell (prv c))) (barCell (prv c))
    ∗ bigSepL ownQs (fun q => cellInv ER (Rd X) (K (dcell c q)) (dcell c q))
    ∗ bigSepL recvCw (fun q => cellInv ER (Rd X) (K (dcell (nxt c) q)) (dcell (nxt c) q))
    ∗ bigSepL recvCcw (fun q => cellInv ER (Rd X) (K (dcell (prv c) q)) (dcell (prv c) q))
    ∗ atPos ER (barCell c) 0 ∅ 0
    ∗ atPos ER (dcell c (qS cc0_scratch2 0 inb_S4_S1_0)) 0 ∅ 0
    ∗ atPos ER (dcell c (qS cc0_scratch2 1 inb_S4_S1_1)) 0 ∅ 0
    ∗ atPos ER (dcell c (qS cc0_scratch2 2 inb_S4_S1_2)) 0 ∅ 0
    ∗ atPos ER (dcell c (qS cc0_scratch2 3 inb_S4_S1_3)) 0 ∅ 0
    ∗ atPos ER (dcell c (qS cc0_scratch4 0 inb_S4_S1_0)) 0 ∅ 0
    ∗ atPos ER (dcell c (qS cc0_scratch4 1 inb_S4_S1_1)) 0 ∅ 0
    ∗ atPos ER (dcell c (qS cc0_scratch4 2 inb_S4_S1_2)) 0 ∅ 0
    ∗ atPos ER (dcell c (qS cc0_scratch4 3 inb_S4_S1_3)) 0 ∅ 0
    ∗ atPos ER (dcell c (qS cc0_scratch6 0 inb_S4_S1_0)) 0 ∅ 0
    ∗ atPos ER (dcell c (qS cc0_scratch6 1 inb_S4_S1_1)) 0 ∅ 0
    ∗ atPos ER (dcell c (qS cc0_scratch6 2 inb_S4_S1_2)) 0 ∅ 0
    ∗ atPos ER (dcell c (qS cc0_scratch6 3 inb_S4_S1_3)) 0 ∅ 0
    ∗ atPos ER (dcell c (qS cc0_scratch8 0 inb_S4_S1_0)) 0 ∅ 0
    ∗ atPos ER (dcell c (qS cc0_scratch8 1 inb_S4_S1_1)) 0 ∅ 0
    ∗ atPos ER (dcell c (qS cc0_scratch8 2 inb_S4_S1_2)) 0 ∅ 0
    ∗ atPos ER (dcell c (qS cc0_scratch8 3 inb_S4_S1_3)) 0 ∅ 0
    ∗ atPos ER (dcell c (qR cc0_scratch3 0 0 inb_S15x2_S1x1_0_0)) 0 ∅ 0
    ∗ atPos ER (dcell c (qR cc0_scratch3 0 1 inb_S15x2_S1x1_0_1)) 0 ∅ 0
    ∗ atPos ER (dcell c (qR cc0_scratch3 1 0 inb_S15x2_S1x1_1_0)) 0 ∅ 0
    ∗ atPos ER (dcell c (qR cc0_scratch3 1 1 inb_S15x2_S1x1_1_1)) 0 ∅ 0
    ∗ atPos ER (dcell c (qR cc0_scratch3 2 0 inb_S15x2_S1x1_2_0)) 0 ∅ 0
    ∗ atPos ER (dcell c (qR cc0_scratch3 2 1 inb_S15x2_S1x1_2_1)) 0 ∅ 0
    ∗ atPos ER (dcell c (qR cc0_scratch3 3 0 inb_S15x2_S1x1_3_0)) 0 ∅ 0
    ∗ atPos ER (dcell c (qR cc0_scratch3 3 1 inb_S15x2_S1x1_3_1)) 0 ∅ 0
    ∗ atPos ER (dcell c (qR cc0_scratch3 4 0 inb_S15x2_S1x1_4_0)) 0 ∅ 0
    ∗ atPos ER (dcell c (qR cc0_scratch3 4 1 inb_S15x2_S1x1_4_1)) 0 ∅ 0
    ∗ atPos ER (dcell c (qR cc0_scratch3 5 0 inb_S15x2_S1x1_5_0)) 0 ∅ 0
    ∗ atPos ER (dcell c (qR cc0_scratch3 5 1 inb_S15x2_S1x1_5_1)) 0 ∅ 0
    ∗ atPos ER (dcell c (qR cc0_scratch3 6 0 inb_S15x2_S1x1_6_0)) 0 ∅ 0
    ∗ atPos ER (dcell c (qR cc0_scratch3 6 1 inb_S15x2_S1x1_6_1)) 0 ∅ 0
    ∗ atPos ER (dcell c (qR cc0_scratch3 7 0 inb_S15x2_S1x1_7_0)) 0 ∅ 0
    ∗ atPos ER (dcell c (qR cc0_scratch3 7 1 inb_S15x2_S1x1_7_1)) 0 ∅ 0
    ∗ atPos ER (dcell c (qR cc0_scratch3 8 0 inb_S15x2_S1x1_8_0)) 0 ∅ 0
    ∗ atPos ER (dcell c (qR cc0_scratch3 8 1 inb_S15x2_S1x1_8_1)) 0 ∅ 0
    ∗ atPos ER (dcell c (qR cc0_scratch3 9 0 inb_S15x2_S1x1_9_0)) 0 ∅ 0
    ∗ atPos ER (dcell c (qR cc0_scratch3 9 1 inb_S15x2_S1x1_9_1)) 0 ∅ 0
    ∗ atPos ER (dcell c (qR cc0_scratch3 10 0 inb_S15x2_S1x1_10_0)) 0 ∅ 0
    ∗ atPos ER (dcell c (qR cc0_scratch3 10 1 inb_S15x2_S1x1_10_1)) 0 ∅ 0
    ∗ atPos ER (dcell c (qR cc0_scratch3 11 0 inb_S15x2_S1x1_11_0)) 0 ∅ 0
    ∗ atPos ER (dcell c (qR cc0_scratch3 11 1 inb_S15x2_S1x1_11_1)) 0 ∅ 0
    ∗ atPos ER (dcell c (qR cc0_scratch3 12 0 inb_S15x2_S1x1_12_0)) 0 ∅ 0
    ∗ atPos ER (dcell c (qR cc0_scratch3 12 1 inb_S15x2_S1x1_12_1)) 0 ∅ 0
    ∗ atPos ER (dcell c (qR cc0_scratch3 13 0 inb_S15x2_S1x1_13_0)) 0 ∅ 0
    ∗ atPos ER (dcell c (qR cc0_scratch3 13 1 inb_S15x2_S1x1_13_1)) 0 ∅ 0
    ∗ atPos ER (dcell c (qR cc0_scratch3 14 0 inb_S15x2_S1x1_14_0)) 0 ∅ 0
    ∗ atPos ER (dcell c (qR cc0_scratch3 14 1 inb_S15x2_S1x1_14_1)) 0 ∅ 0
    ∗ atPos ER (dcell c (qR cc0_scratch7 0 0 inb_S15x2_S1x1_0_0)) 0 ∅ 0
    ∗ atPos ER (dcell c (qR cc0_scratch7 0 1 inb_S15x2_S1x1_0_1)) 0 ∅ 0
    ∗ atPos ER (dcell c (qR cc0_scratch7 1 0 inb_S15x2_S1x1_1_0)) 0 ∅ 0
    ∗ atPos ER (dcell c (qR cc0_scratch7 1 1 inb_S15x2_S1x1_1_1)) 0 ∅ 0
    ∗ atPos ER (dcell c (qR cc0_scratch7 2 0 inb_S15x2_S1x1_2_0)) 0 ∅ 0
    ∗ atPos ER (dcell c (qR cc0_scratch7 2 1 inb_S15x2_S1x1_2_1)) 0 ∅ 0
    ∗ atPos ER (dcell c (qR cc0_scratch7 3 0 inb_S15x2_S1x1_3_0)) 0 ∅ 0
    ∗ atPos ER (dcell c (qR cc0_scratch7 3 1 inb_S15x2_S1x1_3_1)) 0 ∅ 0
    ∗ atPos ER (dcell c (qR cc0_scratch7 4 0 inb_S15x2_S1x1_4_0)) 0 ∅ 0
    ∗ atPos ER (dcell c (qR cc0_scratch7 4 1 inb_S15x2_S1x1_4_1)) 0 ∅ 0
    ∗ atPos ER (dcell c (qR cc0_scratch7 5 0 inb_S15x2_S1x1_5_0)) 0 ∅ 0
    ∗ atPos ER (dcell c (qR cc0_scratch7 5 1 inb_S15x2_S1x1_5_1)) 0 ∅ 0
    ∗ atPos ER (dcell c (qR cc0_scratch7 6 0 inb_S15x2_S1x1_6_0)) 0 ∅ 0
    ∗ atPos ER (dcell c (qR cc0_scratch7 6 1 inb_S15x2_S1x1_6_1)) 0 ∅ 0
    ∗ atPos ER (dcell c (qR cc0_scratch7 7 0 inb_S15x2_S1x1_7_0)) 0 ∅ 0
    ∗ atPos ER (dcell c (qR cc0_scratch7 7 1 inb_S15x2_S1x1_7_1)) 0 ∅ 0
    ∗ atPos ER (dcell c (qR cc0_scratch7 8 0 inb_S15x2_S1x1_8_0)) 0 ∅ 0
    ∗ atPos ER (dcell c (qR cc0_scratch7 8 1 inb_S15x2_S1x1_8_1)) 0 ∅ 0
    ∗ atPos ER (dcell c (qR cc0_scratch7 9 0 inb_S15x2_S1x1_9_0)) 0 ∅ 0
    ∗ atPos ER (dcell c (qR cc0_scratch7 9 1 inb_S15x2_S1x1_9_1)) 0 ∅ 0
    ∗ atPos ER (dcell c (qR cc0_scratch7 10 0 inb_S15x2_S1x1_10_0)) 0 ∅ 0
    ∗ atPos ER (dcell c (qR cc0_scratch7 10 1 inb_S15x2_S1x1_10_1)) 0 ∅ 0
    ∗ atPos ER (dcell c (qR cc0_scratch7 11 0 inb_S15x2_S1x1_11_0)) 0 ∅ 0
    ∗ atPos ER (dcell c (qR cc0_scratch7 11 1 inb_S15x2_S1x1_11_1)) 0 ∅ 0
    ∗ atPos ER (dcell c (qR cc0_scratch7 12 0 inb_S15x2_S1x1_12_0)) 0 ∅ 0
    ∗ atPos ER (dcell c (qR cc0_scratch7 12 1 inb_S15x2_S1x1_12_1)) 0 ∅ 0
    ∗ atPos ER (dcell c (qR cc0_scratch7 13 0 inb_S15x2_S1x1_13_0)) 0 ∅ 0
    ∗ atPos ER (dcell c (qR cc0_scratch7 13 1 inb_S15x2_S1x1_13_1)) 0 ∅ 0
    ∗ atPos ER (dcell c (qR cc0_scratch7 14 0 inb_S15x2_S1x1_14_0)) 0 ∅ 0
    ∗ atPos ER (dcell c (qR cc0_scratch7 14 1 inb_S15x2_S1x1_14_1)) 0 ∅ 0
    ∗ atPos ER (dcell c (qR cc0_scratch5 0 0 inb_S15x2_S1x1_0_0)) 0 ∅ 0
    ∗ atPos ER (dcell c (qR cc0_scratch5 0 1 inb_S15x2_S1x1_0_1)) 0 ∅ 0
    ∗ atPos ER (dcell c (qR cc0_scratch5 1 0 inb_S15x2_S1x1_1_0)) 0 ∅ 0
    ∗ atPos ER (dcell c (qR cc0_scratch5 1 1 inb_S15x2_S1x1_1_1)) 0 ∅ 0
    ∗ atPos ER (dcell c (qR cc0_scratch5 2 0 inb_S15x2_S1x1_2_0)) 0 ∅ 0
    ∗ atPos ER (dcell c (qR cc0_scratch5 2 1 inb_S15x2_S1x1_2_1)) 0 ∅ 0
    ∗ atPos ER (dcell c (qR cc0_scratch5 3 0 inb_S15x2_S1x1_3_0)) 0 ∅ 0
    ∗ atPos ER (dcell c (qR cc0_scratch5 3 1 inb_S15x2_S1x1_3_1)) 0 ∅ 0
    ∗ atPos ER (dcell c (qR cc0_scratch5 4 0 inb_S15x2_S1x1_4_0)) 0 ∅ 0
    ∗ atPos ER (dcell c (qR cc0_scratch5 4 1 inb_S15x2_S1x1_4_1)) 0 ∅ 0
    ∗ atPos ER (dcell c (qR cc0_scratch5 5 0 inb_S15x2_S1x1_5_0)) 0 ∅ 0
    ∗ atPos ER (dcell c (qR cc0_scratch5 5 1 inb_S15x2_S1x1_5_1)) 0 ∅ 0
    ∗ atPos ER (dcell c (qR cc0_scratch5 6 0 inb_S15x2_S1x1_6_0)) 0 ∅ 0
    ∗ atPos ER (dcell c (qR cc0_scratch5 6 1 inb_S15x2_S1x1_6_1)) 0 ∅ 0
    ∗ atPos ER (dcell c (qR cc0_scratch5 7 0 inb_S15x2_S1x1_7_0)) 0 ∅ 0
    ∗ atPos ER (dcell c (qR cc0_scratch5 7 1 inb_S15x2_S1x1_7_1)) 0 ∅ 0
    ∗ atPos ER (dcell c (qR cc0_scratch5 8 0 inb_S15x2_S1x1_8_0)) 0 ∅ 0
    ∗ atPos ER (dcell c (qR cc0_scratch5 8 1 inb_S15x2_S1x1_8_1)) 0 ∅ 0
    ∗ atPos ER (dcell c (qR cc0_scratch5 9 0 inb_S15x2_S1x1_9_0)) 0 ∅ 0
    ∗ atPos ER (dcell c (qR cc0_scratch5 9 1 inb_S15x2_S1x1_9_1)) 0 ∅ 0
    ∗ atPos ER (dcell c (qR cc0_scratch5 10 0 inb_S15x2_S1x1_10_0)) 0 ∅ 0
    ∗ atPos ER (dcell c (qR cc0_scratch5 10 1 inb_S15x2_S1x1_10_1)) 0 ∅ 0
    ∗ atPos ER (dcell c (qR cc0_scratch5 11 0 inb_S15x2_S1x1_11_0)) 0 ∅ 0
    ∗ atPos ER (dcell c (qR cc0_scratch5 11 1 inb_S15x2_S1x1_11_1)) 0 ∅ 0
    ∗ atPos ER (dcell c (qR cc0_scratch5 12 0 inb_S15x2_S1x1_12_0)) 0 ∅ 0
    ∗ atPos ER (dcell c (qR cc0_scratch5 12 1 inb_S15x2_S1x1_12_1)) 0 ∅ 0
    ∗ atPos ER (dcell c (qR cc0_scratch5 13 0 inb_S15x2_S1x1_13_0)) 0 ∅ 0
    ∗ atPos ER (dcell c (qR cc0_scratch5 13 1 inb_S15x2_S1x1_13_1)) 0 ∅ 0
    ∗ atPos ER (dcell c (qR cc0_scratch5 14 0 inb_S15x2_S1x1_14_0)) 0 ∅ 0
    ∗ atPos ER (dcell c (qR cc0_scratch5 14 1 inb_S15x2_S1x1_14_1)) 0 ∅ 0
    ∗ atPos ER (dcell c (qR cc0_scratch9 0 0 inb_S15x2_S1x1_0_0)) 0 ∅ 0
    ∗ atPos ER (dcell c (qR cc0_scratch9 0 1 inb_S15x2_S1x1_0_1)) 0 ∅ 0
    ∗ atPos ER (dcell c (qR cc0_scratch9 1 0 inb_S15x2_S1x1_1_0)) 0 ∅ 0
    ∗ atPos ER (dcell c (qR cc0_scratch9 1 1 inb_S15x2_S1x1_1_1)) 0 ∅ 0
    ∗ atPos ER (dcell c (qR cc0_scratch9 2 0 inb_S15x2_S1x1_2_0)) 0 ∅ 0
    ∗ atPos ER (dcell c (qR cc0_scratch9 2 1 inb_S15x2_S1x1_2_1)) 0 ∅ 0
    ∗ atPos ER (dcell c (qR cc0_scratch9 3 0 inb_S15x2_S1x1_3_0)) 0 ∅ 0
    ∗ atPos ER (dcell c (qR cc0_scratch9 3 1 inb_S15x2_S1x1_3_1)) 0 ∅ 0
    ∗ atPos ER (dcell c (qR cc0_scratch9 4 0 inb_S15x2_S1x1_4_0)) 0 ∅ 0
    ∗ atPos ER (dcell c (qR cc0_scratch9 4 1 inb_S15x2_S1x1_4_1)) 0 ∅ 0
    ∗ atPos ER (dcell c (qR cc0_scratch9 5 0 inb_S15x2_S1x1_5_0)) 0 ∅ 0
    ∗ atPos ER (dcell c (qR cc0_scratch9 5 1 inb_S15x2_S1x1_5_1)) 0 ∅ 0
    ∗ atPos ER (dcell c (qR cc0_scratch9 6 0 inb_S15x2_S1x1_6_0)) 0 ∅ 0
    ∗ atPos ER (dcell c (qR cc0_scratch9 6 1 inb_S15x2_S1x1_6_1)) 0 ∅ 0
    ∗ atPos ER (dcell c (qR cc0_scratch9 7 0 inb_S15x2_S1x1_7_0)) 0 ∅ 0
    ∗ atPos ER (dcell c (qR cc0_scratch9 7 1 inb_S15x2_S1x1_7_1)) 0 ∅ 0
    ∗ atPos ER (dcell c (qR cc0_scratch9 8 0 inb_S15x2_S1x1_8_0)) 0 ∅ 0
    ∗ atPos ER (dcell c (qR cc0_scratch9 8 1 inb_S15x2_S1x1_8_1)) 0 ∅ 0
    ∗ atPos ER (dcell c (qR cc0_scratch9 9 0 inb_S15x2_S1x1_9_0)) 0 ∅ 0
    ∗ atPos ER (dcell c (qR cc0_scratch9 9 1 inb_S15x2_S1x1_9_1)) 0 ∅ 0
    ∗ atPos ER (dcell c (qR cc0_scratch9 10 0 inb_S15x2_S1x1_10_0)) 0 ∅ 0
    ∗ atPos ER (dcell c (qR cc0_scratch9 10 1 inb_S15x2_S1x1_10_1)) 0 ∅ 0
    ∗ atPos ER (dcell c (qR cc0_scratch9 11 0 inb_S15x2_S1x1_11_0)) 0 ∅ 0
    ∗ atPos ER (dcell c (qR cc0_scratch9 11 1 inb_S15x2_S1x1_11_1)) 0 ∅ 0
    ∗ atPos ER (dcell c (qR cc0_scratch9 12 0 inb_S15x2_S1x1_12_0)) 0 ∅ 0
    ∗ atPos ER (dcell c (qR cc0_scratch9 12 1 inb_S15x2_S1x1_12_1)) 0 ∅ 0
    ∗ atPos ER (dcell c (qR cc0_scratch9 13 0 inb_S15x2_S1x1_13_0)) 0 ∅ 0
    ∗ atPos ER (dcell c (qR cc0_scratch9 13 1 inb_S15x2_S1x1_13_1)) 0 ∅ 0
    ∗ atPos ER (dcell c (qR cc0_scratch9 14 0 inb_S15x2_S1x1_14_0)) 0 ∅ 0
    ∗ atPos ER (dcell c (qR cc0_scratch9 14 1 inb_S15x2_S1x1_14_1)) 0 ∅ 0
    ∗ reached ER (barCell (nxt c)) 0
    ∗ reached ER (barCell (prv c)) 0
    ∗ reached ER (dcell (nxt c) (qR cc0_scratch3 0 0 inb_S15x2_S1x1_0_0)) 0
    ∗ reached ER (dcell (nxt c) (qR cc0_scratch3 0 1 inb_S15x2_S1x1_0_1)) 0
    ∗ reached ER (dcell (nxt c) (qR cc0_scratch3 1 0 inb_S15x2_S1x1_1_0)) 0
    ∗ reached ER (dcell (nxt c) (qR cc0_scratch3 1 1 inb_S15x2_S1x1_1_1)) 0
    ∗ reached ER (dcell (nxt c) (qR cc0_scratch3 2 0 inb_S15x2_S1x1_2_0)) 0
    ∗ reached ER (dcell (nxt c) (qR cc0_scratch3 2 1 inb_S15x2_S1x1_2_1)) 0
    ∗ reached ER (dcell (nxt c) (qR cc0_scratch3 3 0 inb_S15x2_S1x1_3_0)) 0
    ∗ reached ER (dcell (nxt c) (qR cc0_scratch3 3 1 inb_S15x2_S1x1_3_1)) 0
    ∗ reached ER (dcell (nxt c) (qR cc0_scratch3 4 0 inb_S15x2_S1x1_4_0)) 0
    ∗ reached ER (dcell (nxt c) (qR cc0_scratch3 4 1 inb_S15x2_S1x1_4_1)) 0
    ∗ reached ER (dcell (nxt c) (qR cc0_scratch3 5 0 inb_S15x2_S1x1_5_0)) 0
    ∗ reached ER (dcell (nxt c) (qR cc0_scratch3 5 1 inb_S15x2_S1x1_5_1)) 0
    ∗ reached ER (dcell (nxt c) (qR cc0_scratch3 6 0 inb_S15x2_S1x1_6_0)) 0
    ∗ reached ER (dcell (nxt c) (qR cc0_scratch3 6 1 inb_S15x2_S1x1_6_1)) 0
    ∗ reached ER (dcell (nxt c) (qR cc0_scratch3 7 0 inb_S15x2_S1x1_7_0)) 0
    ∗ reached ER (dcell (nxt c) (qR cc0_scratch3 7 1 inb_S15x2_S1x1_7_1)) 0
    ∗ reached ER (dcell (nxt c) (qR cc0_scratch3 8 0 inb_S15x2_S1x1_8_0)) 0
    ∗ reached ER (dcell (nxt c) (qR cc0_scratch3 8 1 inb_S15x2_S1x1_8_1)) 0
    ∗ reached ER (dcell (nxt c) (qR cc0_scratch3 9 0 inb_S15x2_S1x1_9_0)) 0
    ∗ reached ER (dcell (nxt c) (qR cc0_scratch3 9 1 inb_S15x2_S1x1_9_1)) 0
    ∗ reached ER (dcell (nxt c) (qR cc0_scratch3 10 0 inb_S15x2_S1x1_10_0)) 0
    ∗ reached ER (dcell (nxt c) (qR cc0_scratch3 10 1 inb_S15x2_S1x1_10_1)) 0
    ∗ reached ER (dcell (nxt c) (qR cc0_scratch3 11 0 inb_S15x2_S1x1_11_0)) 0
    ∗ reached ER (dcell (nxt c) (qR cc0_scratch3 11 1 inb_S15x2_S1x1_11_1)) 0
    ∗ reached ER (dcell (nxt c) (qR cc0_scratch3 12 0 inb_S15x2_S1x1_12_0)) 0
    ∗ reached ER (dcell (nxt c) (qR cc0_scratch3 12 1 inb_S15x2_S1x1_12_1)) 0
    ∗ reached ER (dcell (nxt c) (qR cc0_scratch3 13 0 inb_S15x2_S1x1_13_0)) 0
    ∗ reached ER (dcell (nxt c) (qR cc0_scratch3 13 1 inb_S15x2_S1x1_13_1)) 0
    ∗ reached ER (dcell (nxt c) (qR cc0_scratch3 14 0 inb_S15x2_S1x1_14_0)) 0
    ∗ reached ER (dcell (nxt c) (qR cc0_scratch3 14 1 inb_S15x2_S1x1_14_1)) 0
    ∗ reached ER (dcell (nxt c) (qR cc0_scratch7 0 0 inb_S15x2_S1x1_0_0)) 0
    ∗ reached ER (dcell (nxt c) (qR cc0_scratch7 0 1 inb_S15x2_S1x1_0_1)) 0
    ∗ reached ER (dcell (nxt c) (qR cc0_scratch7 1 0 inb_S15x2_S1x1_1_0)) 0
    ∗ reached ER (dcell (nxt c) (qR cc0_scratch7 1 1 inb_S15x2_S1x1_1_1)) 0
    ∗ reached ER (dcell (nxt c) (qR cc0_scratch7 2 0 inb_S15x2_S1x1_2_0)) 0
    ∗ reached ER (dcell (nxt c) (qR cc0_scratch7 2 1 inb_S15x2_S1x1_2_1)) 0
    ∗ reached ER (dcell (nxt c) (qR cc0_scratch7 3 0 inb_S15x2_S1x1_3_0)) 0
    ∗ reached ER (dcell (nxt c) (qR cc0_scratch7 3 1 inb_S15x2_S1x1_3_1)) 0
    ∗ reached ER (dcell (nxt c) (qR cc0_scratch7 4 0 inb_S15x2_S1x1_4_0)) 0
    ∗ reached ER (dcell (nxt c) (qR cc0_scratch7 4 1 inb_S15x2_S1x1_4_1)) 0
    ∗ reached ER (dcell (nxt c) (qR cc0_scratch7 5 0 inb_S15x2_S1x1_5_0)) 0
    ∗ reached ER (dcell (nxt c) (qR cc0_scratch7 5 1 inb_S15x2_S1x1_5_1)) 0
    ∗ reached ER (dcell (nxt c) (qR cc0_scratch7 6 0 inb_S15x2_S1x1_6_0)) 0
    ∗ reached ER (dcell (nxt c) (qR cc0_scratch7 6 1 inb_S15x2_S1x1_6_1)) 0
    ∗ reached ER (dcell (nxt c) (qR cc0_scratch7 7 0 inb_S15x2_S1x1_7_0)) 0
    ∗ reached ER (dcell (nxt c) (qR cc0_scratch7 7 1 inb_S15x2_S1x1_7_1)) 0
    ∗ reached ER (dcell (nxt c) (qR cc0_scratch7 8 0 inb_S15x2_S1x1_8_0)) 0
    ∗ reached ER (dcell (nxt c) (qR cc0_scratch7 8 1 inb_S15x2_S1x1_8_1)) 0
    ∗ reached ER (dcell (nxt c) (qR cc0_scratch7 9 0 inb_S15x2_S1x1_9_0)) 0
    ∗ reached ER (dcell (nxt c) (qR cc0_scratch7 9 1 inb_S15x2_S1x1_9_1)) 0
    ∗ reached ER (dcell (nxt c) (qR cc0_scratch7 10 0 inb_S15x2_S1x1_10_0)) 0
    ∗ reached ER (dcell (nxt c) (qR cc0_scratch7 10 1 inb_S15x2_S1x1_10_1)) 0
    ∗ reached ER (dcell (nxt c) (qR cc0_scratch7 11 0 inb_S15x2_S1x1_11_0)) 0
    ∗ reached ER (dcell (nxt c) (qR cc0_scratch7 11 1 inb_S15x2_S1x1_11_1)) 0
    ∗ reached ER (dcell (nxt c) (qR cc0_scratch7 12 0 inb_S15x2_S1x1_12_0)) 0
    ∗ reached ER (dcell (nxt c) (qR cc0_scratch7 12 1 inb_S15x2_S1x1_12_1)) 0
    ∗ reached ER (dcell (nxt c) (qR cc0_scratch7 13 0 inb_S15x2_S1x1_13_0)) 0
    ∗ reached ER (dcell (nxt c) (qR cc0_scratch7 13 1 inb_S15x2_S1x1_13_1)) 0
    ∗ reached ER (dcell (nxt c) (qR cc0_scratch7 14 0 inb_S15x2_S1x1_14_0)) 0
    ∗ reached ER (dcell (nxt c) (qR cc0_scratch7 14 1 inb_S15x2_S1x1_14_1)) 0
    ∗ reached ER (dcell (prv c) (qR cc0_scratch5 0 0 inb_S15x2_S1x1_0_0)) 0
    ∗ reached ER (dcell (prv c) (qR cc0_scratch5 0 1 inb_S15x2_S1x1_0_1)) 0
    ∗ reached ER (dcell (prv c) (qR cc0_scratch5 1 0 inb_S15x2_S1x1_1_0)) 0
    ∗ reached ER (dcell (prv c) (qR cc0_scratch5 1 1 inb_S15x2_S1x1_1_1)) 0
    ∗ reached ER (dcell (prv c) (qR cc0_scratch5 2 0 inb_S15x2_S1x1_2_0)) 0
    ∗ reached ER (dcell (prv c) (qR cc0_scratch5 2 1 inb_S15x2_S1x1_2_1)) 0
    ∗ reached ER (dcell (prv c) (qR cc0_scratch5 3 0 inb_S15x2_S1x1_3_0)) 0
    ∗ reached ER (dcell (prv c) (qR cc0_scratch5 3 1 inb_S15x2_S1x1_3_1)) 0
    ∗ reached ER (dcell (prv c) (qR cc0_scratch5 4 0 inb_S15x2_S1x1_4_0)) 0
    ∗ reached ER (dcell (prv c) (qR cc0_scratch5 4 1 inb_S15x2_S1x1_4_1)) 0
    ∗ reached ER (dcell (prv c) (qR cc0_scratch5 5 0 inb_S15x2_S1x1_5_0)) 0
    ∗ reached ER (dcell (prv c) (qR cc0_scratch5 5 1 inb_S15x2_S1x1_5_1)) 0
    ∗ reached ER (dcell (prv c) (qR cc0_scratch5 6 0 inb_S15x2_S1x1_6_0)) 0
    ∗ reached ER (dcell (prv c) (qR cc0_scratch5 6 1 inb_S15x2_S1x1_6_1)) 0
    ∗ reached ER (dcell (prv c) (qR cc0_scratch5 7 0 inb_S15x2_S1x1_7_0)) 0
    ∗ reached ER (dcell (prv c) (qR cc0_scratch5 7 1 inb_S15x2_S1x1_7_1)) 0
    ∗ reached ER (dcell (prv c) (qR cc0_scratch5 8 0 inb_S15x2_S1x1_8_0)) 0
    ∗ reached ER (dcell (prv c) (qR cc0_scratch5 8 1 inb_S15x2_S1x1_8_1)) 0
    ∗ reached ER (dcell (prv c) (qR cc0_scratch5 9 0 inb_S15x2_S1x1_9_0)) 0
    ∗ reached ER (dcell (prv c) (qR cc0_scratch5 9 1 inb_S15x2_S1x1_9_1)) 0
    ∗ reached ER (dcell (prv c) (qR cc0_scratch5 10 0 inb_S15x2_S1x1_10_0)) 0
    ∗ reached ER (dcell (prv c) (qR cc0_scratch5 10 1 inb_S15x2_S1x1_10_1)) 0
    ∗ reached ER (dcell (prv c) (qR cc0_scratch5 11 0 inb_S15x2_S1x1_11_0)) 0
    ∗ reached ER (dcell (prv c) (qR cc0_scratch5 11 1 inb_S15x2_S1x1_11_1)) 0
    ∗ reached ER (dcell (prv c) (qR cc0_scratch5 12 0 inb_S15x2_S1x1_12_0)) 0
    ∗ reached ER (dcell (prv c) (qR cc0_scratch5 12 1 inb_S15x2_S1x1_12_1)) 0
    ∗ reached ER (dcell (prv c) (qR cc0_scratch5 13 0 inb_S15x2_S1x1_13_0)) 0
    ∗ reached ER (dcell (prv c) (qR cc0_scratch5 13 1 inb_S15x2_S1x1_13_1)) 0
    ∗ reached ER (dcell (prv c) (qR cc0_scratch5 14 0 inb_S15x2_S1x1_14_0)) 0
    ∗ reached ER (dcell (prv c) (qR cc0_scratch5 14 1 inb_S15x2_S1x1_14_1)) 0
    ∗ reached ER (dcell (prv c) (qR cc0_scratch9 0 0 inb_S15x2_S1x1_0_0)) 0
    ∗ reached ER (dcell (prv c) (qR cc0_scratch9 0 1 inb_S15x2_S1x1_0_1)) 0
    ∗ reached ER (dcell (prv c) (qR cc0_scratch9 1 0 inb_S15x2_S1x1_1_0)) 0
    ∗ reached ER (dcell (prv c) (qR cc0_scratch9 1 1 inb_S15x2_S1x1_1_1)) 0
    ∗ reached ER (dcell (prv c) (qR cc0_scratch9 2 0 inb_S15x2_S1x1_2_0)) 0
    ∗ reached ER (dcell (prv c) (qR cc0_scratch9 2 1 inb_S15x2_S1x1_2_1)) 0
    ∗ reached ER (dcell (prv c) (qR cc0_scratch9 3 0 inb_S15x2_S1x1_3_0)) 0
    ∗ reached ER (dcell (prv c) (qR cc0_scratch9 3 1 inb_S15x2_S1x1_3_1)) 0
    ∗ reached ER (dcell (prv c) (qR cc0_scratch9 4 0 inb_S15x2_S1x1_4_0)) 0
    ∗ reached ER (dcell (prv c) (qR cc0_scratch9 4 1 inb_S15x2_S1x1_4_1)) 0
    ∗ reached ER (dcell (prv c) (qR cc0_scratch9 5 0 inb_S15x2_S1x1_5_0)) 0
    ∗ reached ER (dcell (prv c) (qR cc0_scratch9 5 1 inb_S15x2_S1x1_5_1)) 0
    ∗ reached ER (dcell (prv c) (qR cc0_scratch9 6 0 inb_S15x2_S1x1_6_0)) 0
    ∗ reached ER (dcell (prv c) (qR cc0_scratch9 6 1 inb_S15x2_S1x1_6_1)) 0
    ∗ reached ER (dcell (prv c) (qR cc0_scratch9 7 0 inb_S15x2_S1x1_7_0)) 0
    ∗ reached ER (dcell (prv c) (qR cc0_scratch9 7 1 inb_S15x2_S1x1_7_1)) 0
    ∗ reached ER (dcell (prv c) (qR cc0_scratch9 8 0 inb_S15x2_S1x1_8_0)) 0
    ∗ reached ER (dcell (prv c) (qR cc0_scratch9 8 1 inb_S15x2_S1x1_8_1)) 0
    ∗ reached ER (dcell (prv c) (qR cc0_scratch9 9 0 inb_S15x2_S1x1_9_0)) 0
    ∗ reached ER (dcell (prv c) (qR cc0_scratch9 9 1 inb_S15x2_S1x1_9_1)) 0
    ∗ reached ER (dcell (prv c) (qR cc0_scratch9 10 0 inb_S15x2_S1x1_10_0)) 0
    ∗ reached ER (dcell (prv c) (qR cc0_scratch9 10 1 inb_S15x2_S1x1_10_1)) 0
    ∗ reached ER (dcell (prv c) (qR cc0_scratch9 11 0 inb_S15x2_S1x1_11_0)) 0
    ∗ reached ER (dcell (prv c) (qR cc0_scratch9 11 1 inb_S15x2_S1x1_11_1)) 0
    ∗ reached ER (dcell (prv c) (qR cc0_scratch9 12 0 inb_S15x2_S1x1_12_0)) 0
    ∗ reached ER (dcell (prv c) (qR cc0_scratch9 12 1 inb_S15x2_S1x1_12_1)) 0
    ∗ reached ER (dcell (prv c) (qR cc0_scratch9 13 0 inb_S15x2_S1x1_13_0)) 0
    ∗ reached ER (dcell (prv c) (qR cc0_scratch9 13 1 inb_S15x2_S1x1_13_1)) 0
    ∗ reached ER (dcell (prv c) (qR cc0_scratch9 14 0 inb_S15x2_S1x1_14_0)) 0
    ∗ reached ER (dcell (prv c) (qR cc0_scratch9 14 1 inb_S15x2_S1x1_14_1)) 0
    ∗ reached ER (dcell c (qS cc0_scratch2 0 inb_S4_S1_0)) 0
    ∗ reached ER (dcell c (qS cc0_scratch2 1 inb_S4_S1_1)) 0
    ∗ reached ER (dcell c (qS cc0_scratch2 2 inb_S4_S1_2)) 0
    ∗ reached ER (dcell c (qS cc0_scratch2 3 inb_S4_S1_3)) 0
    ∗ reached ER (dcell c (qS cc0_scratch4 0 inb_S4_S1_0)) 0
    ∗ reached ER (dcell c (qS cc0_scratch4 1 inb_S4_S1_1)) 0
    ∗ reached ER (dcell c (qS cc0_scratch4 2 inb_S4_S1_2)) 0
    ∗ reached ER (dcell c (qS cc0_scratch4 3 inb_S4_S1_3)) 0
    ∗ reached ER (dcell c (qS cc0_scratch6 0 inb_S4_S1_0)) 0
    ∗ reached ER (dcell c (qS cc0_scratch6 1 inb_S4_S1_1)) 0
    ∗ reached ER (dcell c (qS cc0_scratch6 2 inb_S4_S1_2)) 0
    ∗ reached ER (dcell c (qS cc0_scratch6 3 inb_S4_S1_3)) 0
    ∗ reached ER (dcell c (qS cc0_scratch8 0 inb_S4_S1_0)) 0
    ∗ reached ER (dcell c (qS cc0_scratch8 1 inb_S4_S1_1)) 0
    ∗ reached ER (dcell c (qS cc0_scratch8 2 inb_S4_S1_2)) 0
    ∗ reached ER (dcell c (qS cc0_scratch8 3 inb_S4_S1_3)) 0
    ∗ dutyTok ER (barCell (prv c)) 0 false
    ∗ dutyTok ER (barCell (nxt c)) 0 true
    ∗ dutyTok ER (dcell (nxt c) (qR cc0_scratch3 0 0 inb_S15x2_S1x1_0_0)) 0 false
    ∗ dutyTok ER (dcell (nxt c) (qR cc0_scratch3 0 1 inb_S15x2_S1x1_0_1)) 0 false
    ∗ dutyTok ER (dcell (nxt c) (qR cc0_scratch3 1 0 inb_S15x2_S1x1_1_0)) 0 false
    ∗ dutyTok ER (dcell (nxt c) (qR cc0_scratch3 1 1 inb_S15x2_S1x1_1_1)) 0 false
    ∗ dutyTok ER (dcell (nxt c) (qR cc0_scratch3 2 0 inb_S15x2_S1x1_2_0)) 0 false
    ∗ dutyTok ER (dcell (nxt c) (qR cc0_scratch3 2 1 inb_S15x2_S1x1_2_1)) 0 false
    ∗ dutyTok ER (dcell (nxt c) (qR cc0_scratch3 3 0 inb_S15x2_S1x1_3_0)) 0 false
    ∗ dutyTok ER (dcell (nxt c) (qR cc0_scratch3 3 1 inb_S15x2_S1x1_3_1)) 0 false
    ∗ dutyTok ER (dcell (nxt c) (qR cc0_scratch3 4 0 inb_S15x2_S1x1_4_0)) 0 false
    ∗ dutyTok ER (dcell (nxt c) (qR cc0_scratch3 4 1 inb_S15x2_S1x1_4_1)) 0 false
    ∗ dutyTok ER (dcell (nxt c) (qR cc0_scratch3 5 0 inb_S15x2_S1x1_5_0)) 0 false
    ∗ dutyTok ER (dcell (nxt c) (qR cc0_scratch3 5 1 inb_S15x2_S1x1_5_1)) 0 false
    ∗ dutyTok ER (dcell (nxt c) (qR cc0_scratch3 6 0 inb_S15x2_S1x1_6_0)) 0 false
    ∗ dutyTok ER (dcell (nxt c) (qR cc0_scratch3 6 1 inb_S15x2_S1x1_6_1)) 0 false
    ∗ dutyTok ER (dcell (nxt c) (qR cc0_scratch3 7 0 inb_S15x2_S1x1_7_0)) 0 false
    ∗ dutyTok ER (dcell (nxt c) (qR cc0_scratch3 7 1 inb_S15x2_S1x1_7_1)) 0 false
    ∗ dutyTok ER (dcell (nxt c) (qR cc0_scratch3 8 0 inb_S15x2_S1x1_8_0)) 0 false
    ∗ dutyTok ER (dcell (nxt c) (qR cc0_scratch3 8 1 inb_S15x2_S1x1_8_1)) 0 false
    ∗ dutyTok ER (dcell (nxt c) (qR cc0_scratch3 9 0 inb_S15x2_S1x1_9_0)) 0 false
    ∗ dutyTok ER (dcell (nxt c) (qR cc0_scratch3 9 1 inb_S15x2_S1x1_9_1)) 0 false
    ∗ dutyTok ER (dcell (nxt c) (qR cc0_scratch3 10 0 inb_S15x2_S1x1_10_0)) 0 false
    ∗ dutyTok ER (dcell (nxt c) (qR cc0_scratch3 10 1 inb_S15x2_S1x1_10_1)) 0 false
    ∗ dutyTok ER (dcell (nxt c) (qR cc0_scratch3 11 0 inb_S15x2_S1x1_11_0)) 0 false
    ∗ dutyTok ER (dcell (nxt c) (qR cc0_scratch3 11 1 inb_S15x2_S1x1_11_1)) 0 false
    ∗ dutyTok ER (dcell (nxt c) (qR cc0_scratch3 12 0 inb_S15x2_S1x1_12_0)) 0 false
    ∗ dutyTok ER (dcell (nxt c) (qR cc0_scratch3 12 1 inb_S15x2_S1x1_12_1)) 0 false
    ∗ dutyTok ER (dcell (nxt c) (qR cc0_scratch3 13 0 inb_S15x2_S1x1_13_0)) 0 false
    ∗ dutyTok ER (dcell (nxt c) (qR cc0_scratch3 13 1 inb_S15x2_S1x1_13_1)) 0 false
    ∗ dutyTok ER (dcell (nxt c) (qR cc0_scratch3 14 0 inb_S15x2_S1x1_14_0)) 0 false
    ∗ dutyTok ER (dcell (nxt c) (qR cc0_scratch3 14 1 inb_S15x2_S1x1_14_1)) 0 false
    ∗ dutyTok ER (dcell (nxt c) (qR cc0_scratch7 0 0 inb_S15x2_S1x1_0_0)) 0 false
    ∗ dutyTok ER (dcell (nxt c) (qR cc0_scratch7 0 1 inb_S15x2_S1x1_0_1)) 0 false
    ∗ dutyTok ER (dcell (nxt c) (qR cc0_scratch7 1 0 inb_S15x2_S1x1_1_0)) 0 false
    ∗ dutyTok ER (dcell (nxt c) (qR cc0_scratch7 1 1 inb_S15x2_S1x1_1_1)) 0 false
    ∗ dutyTok ER (dcell (nxt c) (qR cc0_scratch7 2 0 inb_S15x2_S1x1_2_0)) 0 false
    ∗ dutyTok ER (dcell (nxt c) (qR cc0_scratch7 2 1 inb_S15x2_S1x1_2_1)) 0 false
    ∗ dutyTok ER (dcell (nxt c) (qR cc0_scratch7 3 0 inb_S15x2_S1x1_3_0)) 0 false
    ∗ dutyTok ER (dcell (nxt c) (qR cc0_scratch7 3 1 inb_S15x2_S1x1_3_1)) 0 false
    ∗ dutyTok ER (dcell (nxt c) (qR cc0_scratch7 4 0 inb_S15x2_S1x1_4_0)) 0 false
    ∗ dutyTok ER (dcell (nxt c) (qR cc0_scratch7 4 1 inb_S15x2_S1x1_4_1)) 0 false
    ∗ dutyTok ER (dcell (nxt c) (qR cc0_scratch7 5 0 inb_S15x2_S1x1_5_0)) 0 false
    ∗ dutyTok ER (dcell (nxt c) (qR cc0_scratch7 5 1 inb_S15x2_S1x1_5_1)) 0 false
    ∗ dutyTok ER (dcell (nxt c) (qR cc0_scratch7 6 0 inb_S15x2_S1x1_6_0)) 0 false
    ∗ dutyTok ER (dcell (nxt c) (qR cc0_scratch7 6 1 inb_S15x2_S1x1_6_1)) 0 false
    ∗ dutyTok ER (dcell (nxt c) (qR cc0_scratch7 7 0 inb_S15x2_S1x1_7_0)) 0 false
    ∗ dutyTok ER (dcell (nxt c) (qR cc0_scratch7 7 1 inb_S15x2_S1x1_7_1)) 0 false
    ∗ dutyTok ER (dcell (nxt c) (qR cc0_scratch7 8 0 inb_S15x2_S1x1_8_0)) 0 false
    ∗ dutyTok ER (dcell (nxt c) (qR cc0_scratch7 8 1 inb_S15x2_S1x1_8_1)) 0 false
    ∗ dutyTok ER (dcell (nxt c) (qR cc0_scratch7 9 0 inb_S15x2_S1x1_9_0)) 0 false
    ∗ dutyTok ER (dcell (nxt c) (qR cc0_scratch7 9 1 inb_S15x2_S1x1_9_1)) 0 false
    ∗ dutyTok ER (dcell (nxt c) (qR cc0_scratch7 10 0 inb_S15x2_S1x1_10_0)) 0 false
    ∗ dutyTok ER (dcell (nxt c) (qR cc0_scratch7 10 1 inb_S15x2_S1x1_10_1)) 0 false
    ∗ dutyTok ER (dcell (nxt c) (qR cc0_scratch7 11 0 inb_S15x2_S1x1_11_0)) 0 false
    ∗ dutyTok ER (dcell (nxt c) (qR cc0_scratch7 11 1 inb_S15x2_S1x1_11_1)) 0 false
    ∗ dutyTok ER (dcell (nxt c) (qR cc0_scratch7 12 0 inb_S15x2_S1x1_12_0)) 0 false
    ∗ dutyTok ER (dcell (nxt c) (qR cc0_scratch7 12 1 inb_S15x2_S1x1_12_1)) 0 false
    ∗ dutyTok ER (dcell (nxt c) (qR cc0_scratch7 13 0 inb_S15x2_S1x1_13_0)) 0 false
    ∗ dutyTok ER (dcell (nxt c) (qR cc0_scratch7 13 1 inb_S15x2_S1x1_13_1)) 0 false
    ∗ dutyTok ER (dcell (nxt c) (qR cc0_scratch7 14 0 inb_S15x2_S1x1_14_0)) 0 false
    ∗ dutyTok ER (dcell (nxt c) (qR cc0_scratch7 14 1 inb_S15x2_S1x1_14_1)) 0 false
    ∗ dutyTok ER (dcell (prv c) (qR cc0_scratch5 0 0 inb_S15x2_S1x1_0_0)) 0 false
    ∗ dutyTok ER (dcell (prv c) (qR cc0_scratch5 0 1 inb_S15x2_S1x1_0_1)) 0 false
    ∗ dutyTok ER (dcell (prv c) (qR cc0_scratch5 1 0 inb_S15x2_S1x1_1_0)) 0 false
    ∗ dutyTok ER (dcell (prv c) (qR cc0_scratch5 1 1 inb_S15x2_S1x1_1_1)) 0 false
    ∗ dutyTok ER (dcell (prv c) (qR cc0_scratch5 2 0 inb_S15x2_S1x1_2_0)) 0 false
    ∗ dutyTok ER (dcell (prv c) (qR cc0_scratch5 2 1 inb_S15x2_S1x1_2_1)) 0 false
    ∗ dutyTok ER (dcell (prv c) (qR cc0_scratch5 3 0 inb_S15x2_S1x1_3_0)) 0 false
    ∗ dutyTok ER (dcell (prv c) (qR cc0_scratch5 3 1 inb_S15x2_S1x1_3_1)) 0 false
    ∗ dutyTok ER (dcell (prv c) (qR cc0_scratch5 4 0 inb_S15x2_S1x1_4_0)) 0 false
    ∗ dutyTok ER (dcell (prv c) (qR cc0_scratch5 4 1 inb_S15x2_S1x1_4_1)) 0 false
    ∗ dutyTok ER (dcell (prv c) (qR cc0_scratch5 5 0 inb_S15x2_S1x1_5_0)) 0 false
    ∗ dutyTok ER (dcell (prv c) (qR cc0_scratch5 5 1 inb_S15x2_S1x1_5_1)) 0 false
    ∗ dutyTok ER (dcell (prv c) (qR cc0_scratch5 6 0 inb_S15x2_S1x1_6_0)) 0 false
    ∗ dutyTok ER (dcell (prv c) (qR cc0_scratch5 6 1 inb_S15x2_S1x1_6_1)) 0 false
    ∗ dutyTok ER (dcell (prv c) (qR cc0_scratch5 7 0 inb_S15x2_S1x1_7_0)) 0 false
    ∗ dutyTok ER (dcell (prv c) (qR cc0_scratch5 7 1 inb_S15x2_S1x1_7_1)) 0 false
    ∗ dutyTok ER (dcell (prv c) (qR cc0_scratch5 8 0 inb_S15x2_S1x1_8_0)) 0 false
    ∗ dutyTok ER (dcell (prv c) (qR cc0_scratch5 8 1 inb_S15x2_S1x1_8_1)) 0 false
    ∗ dutyTok ER (dcell (prv c) (qR cc0_scratch5 9 0 inb_S15x2_S1x1_9_0)) 0 false
    ∗ dutyTok ER (dcell (prv c) (qR cc0_scratch5 9 1 inb_S15x2_S1x1_9_1)) 0 false
    ∗ dutyTok ER (dcell (prv c) (qR cc0_scratch5 10 0 inb_S15x2_S1x1_10_0)) 0 false
    ∗ dutyTok ER (dcell (prv c) (qR cc0_scratch5 10 1 inb_S15x2_S1x1_10_1)) 0 false
    ∗ dutyTok ER (dcell (prv c) (qR cc0_scratch5 11 0 inb_S15x2_S1x1_11_0)) 0 false
    ∗ dutyTok ER (dcell (prv c) (qR cc0_scratch5 11 1 inb_S15x2_S1x1_11_1)) 0 false
    ∗ dutyTok ER (dcell (prv c) (qR cc0_scratch5 12 0 inb_S15x2_S1x1_12_0)) 0 false
    ∗ dutyTok ER (dcell (prv c) (qR cc0_scratch5 12 1 inb_S15x2_S1x1_12_1)) 0 false
    ∗ dutyTok ER (dcell (prv c) (qR cc0_scratch5 13 0 inb_S15x2_S1x1_13_0)) 0 false
    ∗ dutyTok ER (dcell (prv c) (qR cc0_scratch5 13 1 inb_S15x2_S1x1_13_1)) 0 false
    ∗ dutyTok ER (dcell (prv c) (qR cc0_scratch5 14 0 inb_S15x2_S1x1_14_0)) 0 false
    ∗ dutyTok ER (dcell (prv c) (qR cc0_scratch5 14 1 inb_S15x2_S1x1_14_1)) 0 false
    ∗ dutyTok ER (dcell (prv c) (qR cc0_scratch9 0 0 inb_S15x2_S1x1_0_0)) 0 false
    ∗ dutyTok ER (dcell (prv c) (qR cc0_scratch9 0 1 inb_S15x2_S1x1_0_1)) 0 false
    ∗ dutyTok ER (dcell (prv c) (qR cc0_scratch9 1 0 inb_S15x2_S1x1_1_0)) 0 false
    ∗ dutyTok ER (dcell (prv c) (qR cc0_scratch9 1 1 inb_S15x2_S1x1_1_1)) 0 false
    ∗ dutyTok ER (dcell (prv c) (qR cc0_scratch9 2 0 inb_S15x2_S1x1_2_0)) 0 false
    ∗ dutyTok ER (dcell (prv c) (qR cc0_scratch9 2 1 inb_S15x2_S1x1_2_1)) 0 false
    ∗ dutyTok ER (dcell (prv c) (qR cc0_scratch9 3 0 inb_S15x2_S1x1_3_0)) 0 false
    ∗ dutyTok ER (dcell (prv c) (qR cc0_scratch9 3 1 inb_S15x2_S1x1_3_1)) 0 false
    ∗ dutyTok ER (dcell (prv c) (qR cc0_scratch9 4 0 inb_S15x2_S1x1_4_0)) 0 false
    ∗ dutyTok ER (dcell (prv c) (qR cc0_scratch9 4 1 inb_S15x2_S1x1_4_1)) 0 false
    ∗ dutyTok ER (dcell (prv c) (qR cc0_scratch9 5 0 inb_S15x2_S1x1_5_0)) 0 false
    ∗ dutyTok ER (dcell (prv c) (qR cc0_scratch9 5 1 inb_S15x2_S1x1_5_1)) 0 false
    ∗ dutyTok ER (dcell (prv c) (qR cc0_scratch9 6 0 inb_S15x2_S1x1_6_0)) 0 false
    ∗ dutyTok ER (dcell (prv c) (qR cc0_scratch9 6 1 inb_S15x2_S1x1_6_1)) 0 false
    ∗ dutyTok ER (dcell (prv c) (qR cc0_scratch9 7 0 inb_S15x2_S1x1_7_0)) 0 false
    ∗ dutyTok ER (dcell (prv c) (qR cc0_scratch9 7 1 inb_S15x2_S1x1_7_1)) 0 false
    ∗ dutyTok ER (dcell (prv c) (qR cc0_scratch9 8 0 inb_S15x2_S1x1_8_0)) 0 false
    ∗ dutyTok ER (dcell (prv c) (qR cc0_scratch9 8 1 inb_S15x2_S1x1_8_1)) 0 false
    ∗ dutyTok ER (dcell (prv c) (qR cc0_scratch9 9 0 inb_S15x2_S1x1_9_0)) 0 false
    ∗ dutyTok ER (dcell (prv c) (qR cc0_scratch9 9 1 inb_S15x2_S1x1_9_1)) 0 false
    ∗ dutyTok ER (dcell (prv c) (qR cc0_scratch9 10 0 inb_S15x2_S1x1_10_0)) 0 false
    ∗ dutyTok ER (dcell (prv c) (qR cc0_scratch9 10 1 inb_S15x2_S1x1_10_1)) 0 false
    ∗ dutyTok ER (dcell (prv c) (qR cc0_scratch9 11 0 inb_S15x2_S1x1_11_0)) 0 false
    ∗ dutyTok ER (dcell (prv c) (qR cc0_scratch9 11 1 inb_S15x2_S1x1_11_1)) 0 false
    ∗ dutyTok ER (dcell (prv c) (qR cc0_scratch9 12 0 inb_S15x2_S1x1_12_0)) 0 false
    ∗ dutyTok ER (dcell (prv c) (qR cc0_scratch9 12 1 inb_S15x2_S1x1_12_1)) 0 false
    ∗ dutyTok ER (dcell (prv c) (qR cc0_scratch9 13 0 inb_S15x2_S1x1_13_0)) 0 false
    ∗ dutyTok ER (dcell (prv c) (qR cc0_scratch9 13 1 inb_S15x2_S1x1_13_1)) 0 false
    ∗ dutyTok ER (dcell (prv c) (qR cc0_scratch9 14 0 inb_S15x2_S1x1_14_0)) 0 false
    ∗ dutyTok ER (dcell (prv c) (qR cc0_scratch9 14 1 inb_S15x2_S1x1_14_1)) 0 false
    ∗ dutyTok ER (dcell c (qS cc0_scratch2 0 inb_S4_S1_0)) 0 false
    ∗ dutyTok ER (dcell c (qS cc0_scratch2 0 inb_S4_S1_0)) 1 false
    ∗ dutyTok ER (dcell c (qS cc0_scratch2 0 inb_S4_S1_0)) 2 false
    ∗ dutyTok ER (dcell c (qS cc0_scratch2 0 inb_S4_S1_0)) 3 false
    ∗ dutyTok ER (dcell c (qS cc0_scratch2 0 inb_S4_S1_0)) 4 false
    ∗ dutyTok ER (dcell c (qS cc0_scratch2 0 inb_S4_S1_0)) 5 false
    ∗ dutyTok ER (dcell c (qS cc0_scratch2 0 inb_S4_S1_0)) 6 false
    ∗ dutyTok ER (dcell c (qS cc0_scratch2 0 inb_S4_S1_0)) 7 false
    ∗ dutyTok ER (dcell c (qS cc0_scratch2 1 inb_S4_S1_1)) 0 false
    ∗ dutyTok ER (dcell c (qS cc0_scratch2 1 inb_S4_S1_1)) 1 false
    ∗ dutyTok ER (dcell c (qS cc0_scratch2 1 inb_S4_S1_1)) 2 false
    ∗ dutyTok ER (dcell c (qS cc0_scratch2 1 inb_S4_S1_1)) 3 false
    ∗ dutyTok ER (dcell c (qS cc0_scratch2 1 inb_S4_S1_1)) 4 false
    ∗ dutyTok ER (dcell c (qS cc0_scratch2 1 inb_S4_S1_1)) 5 false
    ∗ dutyTok ER (dcell c (qS cc0_scratch2 1 inb_S4_S1_1)) 6 false
    ∗ dutyTok ER (dcell c (qS cc0_scratch2 1 inb_S4_S1_1)) 7 false
    ∗ dutyTok ER (dcell c (qS cc0_scratch2 2 inb_S4_S1_2)) 0 false
    ∗ dutyTok ER (dcell c (qS cc0_scratch2 2 inb_S4_S1_2)) 1 false
    ∗ dutyTok ER (dcell c (qS cc0_scratch2 2 inb_S4_S1_2)) 2 false
    ∗ dutyTok ER (dcell c (qS cc0_scratch2 2 inb_S4_S1_2)) 3 false
    ∗ dutyTok ER (dcell c (qS cc0_scratch2 2 inb_S4_S1_2)) 4 false
    ∗ dutyTok ER (dcell c (qS cc0_scratch2 2 inb_S4_S1_2)) 5 false
    ∗ dutyTok ER (dcell c (qS cc0_scratch2 2 inb_S4_S1_2)) 6 false
    ∗ dutyTok ER (dcell c (qS cc0_scratch2 3 inb_S4_S1_3)) 0 false
    ∗ dutyTok ER (dcell c (qS cc0_scratch2 3 inb_S4_S1_3)) 1 false
    ∗ dutyTok ER (dcell c (qS cc0_scratch2 3 inb_S4_S1_3)) 2 false
    ∗ dutyTok ER (dcell c (qS cc0_scratch2 3 inb_S4_S1_3)) 3 false
    ∗ dutyTok ER (dcell c (qS cc0_scratch2 3 inb_S4_S1_3)) 4 false
    ∗ dutyTok ER (dcell c (qS cc0_scratch2 3 inb_S4_S1_3)) 5 false
    ∗ dutyTok ER (dcell c (qS cc0_scratch2 3 inb_S4_S1_3)) 6 false
    ∗ dutyTok ER (dcell c (qS cc0_scratch4 0 inb_S4_S1_0)) 0 false
    ∗ dutyTok ER (dcell c (qS cc0_scratch4 0 inb_S4_S1_0)) 1 false
    ∗ dutyTok ER (dcell c (qS cc0_scratch4 0 inb_S4_S1_0)) 2 false
    ∗ dutyTok ER (dcell c (qS cc0_scratch4 0 inb_S4_S1_0)) 3 false
    ∗ dutyTok ER (dcell c (qS cc0_scratch4 0 inb_S4_S1_0)) 4 false
    ∗ dutyTok ER (dcell c (qS cc0_scratch4 0 inb_S4_S1_0)) 5 false
    ∗ dutyTok ER (dcell c (qS cc0_scratch4 0 inb_S4_S1_0)) 6 false
    ∗ dutyTok ER (dcell c (qS cc0_scratch4 0 inb_S4_S1_0)) 7 false
    ∗ dutyTok ER (dcell c (qS cc0_scratch4 1 inb_S4_S1_1)) 0 false
    ∗ dutyTok ER (dcell c (qS cc0_scratch4 1 inb_S4_S1_1)) 1 false
    ∗ dutyTok ER (dcell c (qS cc0_scratch4 1 inb_S4_S1_1)) 2 false
    ∗ dutyTok ER (dcell c (qS cc0_scratch4 1 inb_S4_S1_1)) 3 false
    ∗ dutyTok ER (dcell c (qS cc0_scratch4 1 inb_S4_S1_1)) 4 false
    ∗ dutyTok ER (dcell c (qS cc0_scratch4 1 inb_S4_S1_1)) 5 false
    ∗ dutyTok ER (dcell c (qS cc0_scratch4 1 inb_S4_S1_1)) 6 false
    ∗ dutyTok ER (dcell c (qS cc0_scratch4 1 inb_S4_S1_1)) 7 false
    ∗ dutyTok ER (dcell c (qS cc0_scratch4 2 inb_S4_S1_2)) 0 false
    ∗ dutyTok ER (dcell c (qS cc0_scratch4 2 inb_S4_S1_2)) 1 false
    ∗ dutyTok ER (dcell c (qS cc0_scratch4 2 inb_S4_S1_2)) 2 false
    ∗ dutyTok ER (dcell c (qS cc0_scratch4 2 inb_S4_S1_2)) 3 false
    ∗ dutyTok ER (dcell c (qS cc0_scratch4 2 inb_S4_S1_2)) 4 false
    ∗ dutyTok ER (dcell c (qS cc0_scratch4 2 inb_S4_S1_2)) 5 false
    ∗ dutyTok ER (dcell c (qS cc0_scratch4 2 inb_S4_S1_2)) 6 false
    ∗ dutyTok ER (dcell c (qS cc0_scratch4 3 inb_S4_S1_3)) 0 false
    ∗ dutyTok ER (dcell c (qS cc0_scratch4 3 inb_S4_S1_3)) 1 false
    ∗ dutyTok ER (dcell c (qS cc0_scratch4 3 inb_S4_S1_3)) 2 false
    ∗ dutyTok ER (dcell c (qS cc0_scratch4 3 inb_S4_S1_3)) 3 false
    ∗ dutyTok ER (dcell c (qS cc0_scratch4 3 inb_S4_S1_3)) 4 false
    ∗ dutyTok ER (dcell c (qS cc0_scratch4 3 inb_S4_S1_3)) 5 false
    ∗ dutyTok ER (dcell c (qS cc0_scratch4 3 inb_S4_S1_3)) 6 false
    ∗ dutyTok ER (dcell c (qS cc0_scratch6 0 inb_S4_S1_0)) 0 false
    ∗ dutyTok ER (dcell c (qS cc0_scratch6 0 inb_S4_S1_0)) 1 false
    ∗ dutyTok ER (dcell c (qS cc0_scratch6 0 inb_S4_S1_0)) 2 false
    ∗ dutyTok ER (dcell c (qS cc0_scratch6 0 inb_S4_S1_0)) 3 false
    ∗ dutyTok ER (dcell c (qS cc0_scratch6 0 inb_S4_S1_0)) 4 false
    ∗ dutyTok ER (dcell c (qS cc0_scratch6 0 inb_S4_S1_0)) 5 false
    ∗ dutyTok ER (dcell c (qS cc0_scratch6 0 inb_S4_S1_0)) 6 false
    ∗ dutyTok ER (dcell c (qS cc0_scratch6 0 inb_S4_S1_0)) 7 false
    ∗ dutyTok ER (dcell c (qS cc0_scratch6 1 inb_S4_S1_1)) 0 false
    ∗ dutyTok ER (dcell c (qS cc0_scratch6 1 inb_S4_S1_1)) 1 false
    ∗ dutyTok ER (dcell c (qS cc0_scratch6 1 inb_S4_S1_1)) 2 false
    ∗ dutyTok ER (dcell c (qS cc0_scratch6 1 inb_S4_S1_1)) 3 false
    ∗ dutyTok ER (dcell c (qS cc0_scratch6 1 inb_S4_S1_1)) 4 false
    ∗ dutyTok ER (dcell c (qS cc0_scratch6 1 inb_S4_S1_1)) 5 false
    ∗ dutyTok ER (dcell c (qS cc0_scratch6 1 inb_S4_S1_1)) 6 false
    ∗ dutyTok ER (dcell c (qS cc0_scratch6 1 inb_S4_S1_1)) 7 false
    ∗ dutyTok ER (dcell c (qS cc0_scratch6 2 inb_S4_S1_2)) 0 false
    ∗ dutyTok ER (dcell c (qS cc0_scratch6 2 inb_S4_S1_2)) 1 false
    ∗ dutyTok ER (dcell c (qS cc0_scratch6 2 inb_S4_S1_2)) 2 false
    ∗ dutyTok ER (dcell c (qS cc0_scratch6 2 inb_S4_S1_2)) 3 false
    ∗ dutyTok ER (dcell c (qS cc0_scratch6 2 inb_S4_S1_2)) 4 false
    ∗ dutyTok ER (dcell c (qS cc0_scratch6 2 inb_S4_S1_2)) 5 false
    ∗ dutyTok ER (dcell c (qS cc0_scratch6 2 inb_S4_S1_2)) 6 false
    ∗ dutyTok ER (dcell c (qS cc0_scratch6 3 inb_S4_S1_3)) 0 false
    ∗ dutyTok ER (dcell c (qS cc0_scratch6 3 inb_S4_S1_3)) 1 false
    ∗ dutyTok ER (dcell c (qS cc0_scratch6 3 inb_S4_S1_3)) 2 false
    ∗ dutyTok ER (dcell c (qS cc0_scratch6 3 inb_S4_S1_3)) 3 false
    ∗ dutyTok ER (dcell c (qS cc0_scratch6 3 inb_S4_S1_3)) 4 false
    ∗ dutyTok ER (dcell c (qS cc0_scratch6 3 inb_S4_S1_3)) 5 false
    ∗ dutyTok ER (dcell c (qS cc0_scratch6 3 inb_S4_S1_3)) 6 false
    ∗ dutyTok ER (dcell c (qS cc0_scratch8 0 inb_S4_S1_0)) 0 false
    ∗ dutyTok ER (dcell c (qS cc0_scratch8 0 inb_S4_S1_0)) 1 false
    ∗ dutyTok ER (dcell c (qS cc0_scratch8 0 inb_S4_S1_0)) 2 false
    ∗ dutyTok ER (dcell c (qS cc0_scratch8 0 inb_S4_S1_0)) 3 false
    ∗ dutyTok ER (dcell c (qS cc0_scratch8 0 inb_S4_S1_0)) 4 false
    ∗ dutyTok ER (dcell c (qS cc0_scratch8 0 inb_S4_S1_0)) 5 false
    ∗ dutyTok ER (dcell c (qS cc0_scratch8 0 inb_S4_S1_0)) 6 false
    ∗ dutyTok ER (dcell c (qS cc0_scratch8 0 inb_S4_S1_0)) 7 false
    ∗ dutyTok ER (dcell c (qS cc0_scratch8 1 inb_S4_S1_1)) 0 false
    ∗ dutyTok ER (dcell c (qS cc0_scratch8 1 inb_S4_S1_1)) 1 false
    ∗ dutyTok ER (dcell c (qS cc0_scratch8 1 inb_S4_S1_1)) 2 false
    ∗ dutyTok ER (dcell c (qS cc0_scratch8 1 inb_S4_S1_1)) 3 false
    ∗ dutyTok ER (dcell c (qS cc0_scratch8 1 inb_S4_S1_1)) 4 false
    ∗ dutyTok ER (dcell c (qS cc0_scratch8 1 inb_S4_S1_1)) 5 false
    ∗ dutyTok ER (dcell c (qS cc0_scratch8 1 inb_S4_S1_1)) 6 false
    ∗ dutyTok ER (dcell c (qS cc0_scratch8 1 inb_S4_S1_1)) 7 false
    ∗ dutyTok ER (dcell c (qS cc0_scratch8 2 inb_S4_S1_2)) 0 false
    ∗ dutyTok ER (dcell c (qS cc0_scratch8 2 inb_S4_S1_2)) 1 false
    ∗ dutyTok ER (dcell c (qS cc0_scratch8 2 inb_S4_S1_2)) 2 false
    ∗ dutyTok ER (dcell c (qS cc0_scratch8 2 inb_S4_S1_2)) 3 false
    ∗ dutyTok ER (dcell c (qS cc0_scratch8 2 inb_S4_S1_2)) 4 false
    ∗ dutyTok ER (dcell c (qS cc0_scratch8 2 inb_S4_S1_2)) 5 false
    ∗ dutyTok ER (dcell c (qS cc0_scratch8 2 inb_S4_S1_2)) 6 false
    ∗ dutyTok ER (dcell c (qS cc0_scratch8 3 inb_S4_S1_3)) 0 false
    ∗ dutyTok ER (dcell c (qS cc0_scratch8 3 inb_S4_S1_3)) 1 false
    ∗ dutyTok ER (dcell c (qS cc0_scratch8 3 inb_S4_S1_3)) 2 false
    ∗ dutyTok ER (dcell c (qS cc0_scratch8 3 inb_S4_S1_3)) 3 false
    ∗ dutyTok ER (dcell c (qS cc0_scratch8 3 inb_S4_S1_3)) 4 false
    ∗ dutyTok ER (dcell c (qS cc0_scratch8 3 inb_S4_S1_3)) 5 false
    ∗ dutyTok ER (dcell c (qS cc0_scratch8 3 inb_S4_S1_3)) 6 false
    ∗ cred (tallyAt (barCell c) () 2)
    ∗ cred (tallyAt (dcell c (qR cc0_scratch3 0 0 inb_S15x2_S1x1_0_0)) () N)
    ∗ cred (tallyAt (dcell c (qR cc0_scratch3 0 1 inb_S15x2_S1x1_0_1)) () N)
    ∗ cred (tallyAt (dcell c (qR cc0_scratch3 1 0 inb_S15x2_S1x1_1_0)) () N)
    ∗ cred (tallyAt (dcell c (qR cc0_scratch3 1 1 inb_S15x2_S1x1_1_1)) () N)
    ∗ cred (tallyAt (dcell c (qR cc0_scratch3 2 0 inb_S15x2_S1x1_2_0)) () N)
    ∗ cred (tallyAt (dcell c (qR cc0_scratch3 2 1 inb_S15x2_S1x1_2_1)) () N)
    ∗ cred (tallyAt (dcell c (qR cc0_scratch3 3 0 inb_S15x2_S1x1_3_0)) () N)
    ∗ cred (tallyAt (dcell c (qR cc0_scratch3 3 1 inb_S15x2_S1x1_3_1)) () N)
    ∗ cred (tallyAt (dcell c (qR cc0_scratch3 4 0 inb_S15x2_S1x1_4_0)) () N)
    ∗ cred (tallyAt (dcell c (qR cc0_scratch3 4 1 inb_S15x2_S1x1_4_1)) () N)
    ∗ cred (tallyAt (dcell c (qR cc0_scratch3 5 0 inb_S15x2_S1x1_5_0)) () N)
    ∗ cred (tallyAt (dcell c (qR cc0_scratch3 5 1 inb_S15x2_S1x1_5_1)) () N)
    ∗ cred (tallyAt (dcell c (qR cc0_scratch3 6 0 inb_S15x2_S1x1_6_0)) () N)
    ∗ cred (tallyAt (dcell c (qR cc0_scratch3 6 1 inb_S15x2_S1x1_6_1)) () N)
    ∗ cred (tallyAt (dcell c (qR cc0_scratch3 7 0 inb_S15x2_S1x1_7_0)) () N)
    ∗ cred (tallyAt (dcell c (qR cc0_scratch3 7 1 inb_S15x2_S1x1_7_1)) () N)
    ∗ cred (tallyAt (dcell c (qR cc0_scratch3 8 0 inb_S15x2_S1x1_8_0)) () N)
    ∗ cred (tallyAt (dcell c (qR cc0_scratch3 8 1 inb_S15x2_S1x1_8_1)) () N)
    ∗ cred (tallyAt (dcell c (qR cc0_scratch3 9 0 inb_S15x2_S1x1_9_0)) () N)
    ∗ cred (tallyAt (dcell c (qR cc0_scratch3 9 1 inb_S15x2_S1x1_9_1)) () N)
    ∗ cred (tallyAt (dcell c (qR cc0_scratch3 10 0 inb_S15x2_S1x1_10_0)) () N)
    ∗ cred (tallyAt (dcell c (qR cc0_scratch3 10 1 inb_S15x2_S1x1_10_1)) () N)
    ∗ cred (tallyAt (dcell c (qR cc0_scratch3 11 0 inb_S15x2_S1x1_11_0)) () N)
    ∗ cred (tallyAt (dcell c (qR cc0_scratch3 11 1 inb_S15x2_S1x1_11_1)) () N)
    ∗ cred (tallyAt (dcell c (qR cc0_scratch3 12 0 inb_S15x2_S1x1_12_0)) () N)
    ∗ cred (tallyAt (dcell c (qR cc0_scratch3 12 1 inb_S15x2_S1x1_12_1)) () N)
    ∗ cred (tallyAt (dcell c (qR cc0_scratch3 13 0 inb_S15x2_S1x1_13_0)) () N)
    ∗ cred (tallyAt (dcell c (qR cc0_scratch3 13 1 inb_S15x2_S1x1_13_1)) () N)
    ∗ cred (tallyAt (dcell c (qR cc0_scratch3 14 0 inb_S15x2_S1x1_14_0)) () N)
    ∗ cred (tallyAt (dcell c (qR cc0_scratch3 14 1 inb_S15x2_S1x1_14_1)) () N)
    ∗ cred (tallyAt (dcell c (qR cc0_scratch7 0 0 inb_S15x2_S1x1_0_0)) () N)
    ∗ cred (tallyAt (dcell c (qR cc0_scratch7 0 1 inb_S15x2_S1x1_0_1)) () N)
    ∗ cred (tallyAt (dcell c (qR cc0_scratch7 1 0 inb_S15x2_S1x1_1_0)) () N)
    ∗ cred (tallyAt (dcell c (qR cc0_scratch7 1 1 inb_S15x2_S1x1_1_1)) () N)
    ∗ cred (tallyAt (dcell c (qR cc0_scratch7 2 0 inb_S15x2_S1x1_2_0)) () N)
    ∗ cred (tallyAt (dcell c (qR cc0_scratch7 2 1 inb_S15x2_S1x1_2_1)) () N)
    ∗ cred (tallyAt (dcell c (qR cc0_scratch7 3 0 inb_S15x2_S1x1_3_0)) () N)
    ∗ cred (tallyAt (dcell c (qR cc0_scratch7 3 1 inb_S15x2_S1x1_3_1)) () N)
    ∗ cred (tallyAt (dcell c (qR cc0_scratch7 4 0 inb_S15x2_S1x1_4_0)) () N)
    ∗ cred (tallyAt (dcell c (qR cc0_scratch7 4 1 inb_S15x2_S1x1_4_1)) () N)
    ∗ cred (tallyAt (dcell c (qR cc0_scratch7 5 0 inb_S15x2_S1x1_5_0)) () N)
    ∗ cred (tallyAt (dcell c (qR cc0_scratch7 5 1 inb_S15x2_S1x1_5_1)) () N)
    ∗ cred (tallyAt (dcell c (qR cc0_scratch7 6 0 inb_S15x2_S1x1_6_0)) () N)
    ∗ cred (tallyAt (dcell c (qR cc0_scratch7 6 1 inb_S15x2_S1x1_6_1)) () N)
    ∗ cred (tallyAt (dcell c (qR cc0_scratch7 7 0 inb_S15x2_S1x1_7_0)) () N)
    ∗ cred (tallyAt (dcell c (qR cc0_scratch7 7 1 inb_S15x2_S1x1_7_1)) () N)
    ∗ cred (tallyAt (dcell c (qR cc0_scratch7 8 0 inb_S15x2_S1x1_8_0)) () N)
    ∗ cred (tallyAt (dcell c (qR cc0_scratch7 8 1 inb_S15x2_S1x1_8_1)) () N)
    ∗ cred (tallyAt (dcell c (qR cc0_scratch7 9 0 inb_S15x2_S1x1_9_0)) () N)
    ∗ cred (tallyAt (dcell c (qR cc0_scratch7 9 1 inb_S15x2_S1x1_9_1)) () N)
    ∗ cred (tallyAt (dcell c (qR cc0_scratch7 10 0 inb_S15x2_S1x1_10_0)) () N)
    ∗ cred (tallyAt (dcell c (qR cc0_scratch7 10 1 inb_S15x2_S1x1_10_1)) () N)
    ∗ cred (tallyAt (dcell c (qR cc0_scratch7 11 0 inb_S15x2_S1x1_11_0)) () N)
    ∗ cred (tallyAt (dcell c (qR cc0_scratch7 11 1 inb_S15x2_S1x1_11_1)) () N)
    ∗ cred (tallyAt (dcell c (qR cc0_scratch7 12 0 inb_S15x2_S1x1_12_0)) () N)
    ∗ cred (tallyAt (dcell c (qR cc0_scratch7 12 1 inb_S15x2_S1x1_12_1)) () N)
    ∗ cred (tallyAt (dcell c (qR cc0_scratch7 13 0 inb_S15x2_S1x1_13_0)) () N)
    ∗ cred (tallyAt (dcell c (qR cc0_scratch7 13 1 inb_S15x2_S1x1_13_1)) () N)
    ∗ cred (tallyAt (dcell c (qR cc0_scratch7 14 0 inb_S15x2_S1x1_14_0)) () N)
    ∗ cred (tallyAt (dcell c (qR cc0_scratch7 14 1 inb_S15x2_S1x1_14_1)) () N)
    ∗ cred (tallyAt (dcell c (qR cc0_scratch5 0 0 inb_S15x2_S1x1_0_0)) () N)
    ∗ cred (tallyAt (dcell c (qR cc0_scratch5 0 1 inb_S15x2_S1x1_0_1)) () N)
    ∗ cred (tallyAt (dcell c (qR cc0_scratch5 1 0 inb_S15x2_S1x1_1_0)) () N)
    ∗ cred (tallyAt (dcell c (qR cc0_scratch5 1 1 inb_S15x2_S1x1_1_1)) () N)
    ∗ cred (tallyAt (dcell c (qR cc0_scratch5 2 0 inb_S15x2_S1x1_2_0)) () N)
    ∗ cred (tallyAt (dcell c (qR cc0_scratch5 2 1 inb_S15x2_S1x1_2_1)) () N)
    ∗ cred (tallyAt (dcell c (qR cc0_scratch5 3 0 inb_S15x2_S1x1_3_0)) () N)
    ∗ cred (tallyAt (dcell c (qR cc0_scratch5 3 1 inb_S15x2_S1x1_3_1)) () N)
    ∗ cred (tallyAt (dcell c (qR cc0_scratch5 4 0 inb_S15x2_S1x1_4_0)) () N)
    ∗ cred (tallyAt (dcell c (qR cc0_scratch5 4 1 inb_S15x2_S1x1_4_1)) () N)
    ∗ cred (tallyAt (dcell c (qR cc0_scratch5 5 0 inb_S15x2_S1x1_5_0)) () N)
    ∗ cred (tallyAt (dcell c (qR cc0_scratch5 5 1 inb_S15x2_S1x1_5_1)) () N)
    ∗ cred (tallyAt (dcell c (qR cc0_scratch5 6 0 inb_S15x2_S1x1_6_0)) () N)
    ∗ cred (tallyAt (dcell c (qR cc0_scratch5 6 1 inb_S15x2_S1x1_6_1)) () N)
    ∗ cred (tallyAt (dcell c (qR cc0_scratch5 7 0 inb_S15x2_S1x1_7_0)) () N)
    ∗ cred (tallyAt (dcell c (qR cc0_scratch5 7 1 inb_S15x2_S1x1_7_1)) () N)
    ∗ cred (tallyAt (dcell c (qR cc0_scratch5 8 0 inb_S15x2_S1x1_8_0)) () N)
    ∗ cred (tallyAt (dcell c (qR cc0_scratch5 8 1 inb_S15x2_S1x1_8_1)) () N)
    ∗ cred (tallyAt (dcell c (qR cc0_scratch5 9 0 inb_S15x2_S1x1_9_0)) () N)
    ∗ cred (tallyAt (dcell c (qR cc0_scratch5 9 1 inb_S15x2_S1x1_9_1)) () N)
    ∗ cred (tallyAt (dcell c (qR cc0_scratch5 10 0 inb_S15x2_S1x1_10_0)) () N)
    ∗ cred (tallyAt (dcell c (qR cc0_scratch5 10 1 inb_S15x2_S1x1_10_1)) () N)
    ∗ cred (tallyAt (dcell c (qR cc0_scratch5 11 0 inb_S15x2_S1x1_11_0)) () N)
    ∗ cred (tallyAt (dcell c (qR cc0_scratch5 11 1 inb_S15x2_S1x1_11_1)) () N)
    ∗ cred (tallyAt (dcell c (qR cc0_scratch5 12 0 inb_S15x2_S1x1_12_0)) () N)
    ∗ cred (tallyAt (dcell c (qR cc0_scratch5 12 1 inb_S15x2_S1x1_12_1)) () N)
    ∗ cred (tallyAt (dcell c (qR cc0_scratch5 13 0 inb_S15x2_S1x1_13_0)) () N)
    ∗ cred (tallyAt (dcell c (qR cc0_scratch5 13 1 inb_S15x2_S1x1_13_1)) () N)
    ∗ cred (tallyAt (dcell c (qR cc0_scratch5 14 0 inb_S15x2_S1x1_14_0)) () N)
    ∗ cred (tallyAt (dcell c (qR cc0_scratch5 14 1 inb_S15x2_S1x1_14_1)) () N)
    ∗ cred (tallyAt (dcell c (qR cc0_scratch9 0 0 inb_S15x2_S1x1_0_0)) () N)
    ∗ cred (tallyAt (dcell c (qR cc0_scratch9 0 1 inb_S15x2_S1x1_0_1)) () N)
    ∗ cred (tallyAt (dcell c (qR cc0_scratch9 1 0 inb_S15x2_S1x1_1_0)) () N)
    ∗ cred (tallyAt (dcell c (qR cc0_scratch9 1 1 inb_S15x2_S1x1_1_1)) () N)
    ∗ cred (tallyAt (dcell c (qR cc0_scratch9 2 0 inb_S15x2_S1x1_2_0)) () N)
    ∗ cred (tallyAt (dcell c (qR cc0_scratch9 2 1 inb_S15x2_S1x1_2_1)) () N)
    ∗ cred (tallyAt (dcell c (qR cc0_scratch9 3 0 inb_S15x2_S1x1_3_0)) () N)
    ∗ cred (tallyAt (dcell c (qR cc0_scratch9 3 1 inb_S15x2_S1x1_3_1)) () N)
    ∗ cred (tallyAt (dcell c (qR cc0_scratch9 4 0 inb_S15x2_S1x1_4_0)) () N)
    ∗ cred (tallyAt (dcell c (qR cc0_scratch9 4 1 inb_S15x2_S1x1_4_1)) () N)
    ∗ cred (tallyAt (dcell c (qR cc0_scratch9 5 0 inb_S15x2_S1x1_5_0)) () N)
    ∗ cred (tallyAt (dcell c (qR cc0_scratch9 5 1 inb_S15x2_S1x1_5_1)) () N)
    ∗ cred (tallyAt (dcell c (qR cc0_scratch9 6 0 inb_S15x2_S1x1_6_0)) () N)
    ∗ cred (tallyAt (dcell c (qR cc0_scratch9 6 1 inb_S15x2_S1x1_6_1)) () N)
    ∗ cred (tallyAt (dcell c (qR cc0_scratch9 7 0 inb_S15x2_S1x1_7_0)) () N)
    ∗ cred (tallyAt (dcell c (qR cc0_scratch9 7 1 inb_S15x2_S1x1_7_1)) () N)
    ∗ cred (tallyAt (dcell c (qR cc0_scratch9 8 0 inb_S15x2_S1x1_8_0)) () N)
    ∗ cred (tallyAt (dcell c (qR cc0_scratch9 8 1 inb_S15x2_S1x1_8_1)) () N)
    ∗ cred (tallyAt (dcell c (qR cc0_scratch9 9 0 inb_S15x2_S1x1_9_0)) () N)
    ∗ cred (tallyAt (dcell c (qR cc0_scratch9 9 1 inb_S15x2_S1x1_9_1)) () N)
    ∗ cred (tallyAt (dcell c (qR cc0_scratch9 10 0 inb_S15x2_S1x1_10_0)) () N)
    ∗ cred (tallyAt (dcell c (qR cc0_scratch9 10 1 inb_S15x2_S1x1_10_1)) () N)
    ∗ cred (tallyAt (dcell c (qR cc0_scratch9 11 0 inb_S15x2_S1x1_11_0)) () N)
    ∗ cred (tallyAt (dcell c (qR cc0_scratch9 11 1 inb_S15x2_S1x1_11_1)) () N)
    ∗ cred (tallyAt (dcell c (qR cc0_scratch9 12 0 inb_S15x2_S1x1_12_0)) () N)
    ∗ cred (tallyAt (dcell c (qR cc0_scratch9 12 1 inb_S15x2_S1x1_12_1)) () N)
    ∗ cred (tallyAt (dcell c (qR cc0_scratch9 13 0 inb_S15x2_S1x1_13_0)) () N)
    ∗ cred (tallyAt (dcell c (qR cc0_scratch9 13 1 inb_S15x2_S1x1_13_1)) () N)
    ∗ cred (tallyAt (dcell c (qR cc0_scratch9 14 0 inb_S15x2_S1x1_14_0)) () N)
    ∗ cred (tallyAt (dcell c (qR cc0_scratch9 14 1 inb_S15x2_S1x1_14_1)) () N)
    ∗ levAts L lv
    ∗ allSlots true c
    ∗ allSlots false c
    ∗ owes (c : Thread nD τ) (rem c 2 + tallyAt (barCell (nxt c)) () 1 + tallyAt (barCell (prv c)) () 1) W
    ∗ (xM.view.loc (c : Thread nD τ) ↦[xM.view.set]{fullShare.left} X c)
    ∗ ((rows xM (off true (c.val + 15) 0) (off_inb true _ 0)).view.loc (c : Thread nD τ) ↦[(rows xM (off true (c.val + 15) 0) (off_inb true _ 0)).view.set]{fullShare.right} X c)
    ∗ ((rows xM (off true (c.val + 15) 1) (off_inb true _ 1)).view.loc (c : Thread nD τ) ↦[(rows xM (off true (c.val + 15) 1) (off_inb true _ 1)).view.set]{fullShare.right} X c)
    ∗ ((rows xM (off false (c.val + 1) 0) (off_inb false _ 0)).view.loc (c : Thread nD τ) ↦[(rows xM (off false (c.val + 1) 0) (off_inb false _ 0)).view.set]{fullShare.right} X c)
    ∗ ((rows xM (off false (c.val + 1) 1) (off_inb false _ 1)).view.loc (c : Thread nD τ) ↦[(rows xM (off false (c.val + 1) 1) (off_inb false _ 1)).view.set]{fullShare.right} X c)
    ∗ (xM.view.loc (c : Thread nD τ) ↦[xM.view.set \ xWins c]{fullShare.right} X c)
    ∗ allRows true c
    ∗ allRows false c
    ∗ (∃ f, own128 true c f)
    ∗ (∃ f, own128 false c f))

/-- the same with each list's conjuncts as a chain over the list -/
def bodyPreC (K : GSem nD τ sig → ℕ) (W : Waits sig Unit) (c : Dev nD) : sProp 𝕄 :=
  iprop(cellInv ER (Rd X) (K (barCell c)) (barCell c)
    ∗ cellInv ER (Rd X) (K (barCell (nxt c))) (barCell (nxt c))
    ∗ cellInv ER (Rd X) (K (barCell (prv c))) (barCell (prv c))
    ∗ bigSepL ownQs (fun q => cellInv ER (Rd X) (K (dcell c q)) (dcell c q))
    ∗ bigSepL recvCw (fun q => cellInv ER (Rd X) (K (dcell (nxt c) q)) (dcell (nxt c) q))
    ∗ bigSepL recvCcw (fun q => cellInv ER (Rd X) (K (dcell (prv c) q)) (dcell (prv c) q))
    ∗ atPos ER (barCell c) 0 ∅ 0
    ∗ chainL ownQs (fun q => atPos ER (dcell c q) 0 ∅ 0)
      iprop(reached ER (barCell (nxt c)) 0 ∗ reached ER (barCell (prv c)) 0
      ∗ chainL recvCw (fun q => reached ER (dcell (nxt c) q) 0)
       (chainL recvCcw (fun q => reached ER (dcell (prv c) q) 0)
       (chainL sendQs (fun q => reached ER (dcell c q) 0)
        iprop(dutyTok ER (barCell (prv c)) 0 false ∗ dutyTok ER (barCell (nxt c)) 0 true
        ∗ chainL recvCw (fun q => dutyTok ER (dcell (nxt c) q) 0 false)
         (chainL recvCcw (fun q => dutyTok ER (dcell (prv c) q) 0 false)
         (chainL sendToks (fun qr => dutyTok ER (dcell c qr.1) qr.2 false)
          iprop(cred (tallyAt (barCell c) () 2)
          ∗ chainL (recvCw ++ recvCcw) (fun q => cred (tallyAt (dcell c q) () N))
           iprop(levAts L lv
            ∗ allSlots true c
            ∗ allSlots false c
            ∗ owes (c : Thread nD τ) (rem c 2 + tallyAt (barCell (nxt c)) () 1 + tallyAt (barCell (prv c)) () 1) W
            ∗ (xM.view.loc (c : Thread nD τ) ↦[xM.view.set]{fullShare.left} X c)
            ∗ ((rows xM (off true (c.val + 15) 0) (off_inb true _ 0)).view.loc (c : Thread nD τ) ↦[(rows xM (off true (c.val + 15) 0) (off_inb true _ 0)).view.set]{fullShare.right} X c)
            ∗ ((rows xM (off true (c.val + 15) 1) (off_inb true _ 1)).view.loc (c : Thread nD τ) ↦[(rows xM (off true (c.val + 15) 1) (off_inb true _ 1)).view.set]{fullShare.right} X c)
            ∗ ((rows xM (off false (c.val + 1) 0) (off_inb false _ 0)).view.loc (c : Thread nD τ) ↦[(rows xM (off false (c.val + 1) 0) (off_inb false _ 0)).view.set]{fullShare.right} X c)
            ∗ ((rows xM (off false (c.val + 1) 1) (off_inb false _ 1)).view.loc (c : Thread nD τ) ↦[(rows xM (off false (c.val + 1) 1) (off_inb false _ 1)).view.set]{fullShare.right} X c)
            ∗ (xM.view.loc (c : Thread nD τ) ↦[xM.view.set \ xWins c]{fullShare.right} X c)
            ∗ allRows true c
            ∗ allRows false c
            ∗ (∃ f, own128 true c f)
            ∗ (∃ f, own128 false c f))))))))))

set_option maxRecDepth 200000 in
theorem bodyPre_eq (K : GSem nD τ sig → ℕ) (W : Waits sig Unit) (c : Dev nD) : bodyPre X K W c = bodyPreC X K W c := rfl

variable (m : (ℓ : Loc nD τ sig) → Buf (Elt F) ℓ) (ρ : Dev nD → PrngReg)

set_option maxRecDepth 200000 in
/-- The pipeline's invariant before the point, what the device owes there, and the two staged buffers whole — the input
    as fetched, the result at any contents — are what the body starts from, at some names and some set of waits. -/
theorem pre_open (c : Dev nD) :
    iprop((dats m ρ 0 c).Φ t0_0.castSucc ∗ (dats m ρ 0 c).owesAt () t0_0.castSucc
      ∗ (∃ d, owns (c : Thread nD τ) xM fullShare ((dats m ρ 0 c).before (0 : Fin 2) t0_0 d))
      ∗ (∃ d, owns (c : Thread nD τ) oM fullShare ((dats m ρ 0 c).before (1 : Fin 2) t0_0 d)))
      ⊢ iprop(∃ K W, bodyPre (xstg m) K W c) := by
  rw [show (dats m ρ 0 c).Φ t0_0.castSucc = Φ₀ (xstg m) c from rfl]
  unfold Φ₀ start ghost owns Dat.owesAt Pipeline.owesWithin
  iintro ⟨⟨⟨⟨%K, ⟨HI1, HI2, HI3, HL1, HL2, HL3⟩, ⟨HA0, HA⟩, ⟨HR1, HR2, HRn, HRp, HRs⟩, HT1, HT2, HTn, HTp, HTs⟩, HC0, HCq, Hlev⟩, Hsa, Hsb⟩,
    ⟨%W, %hW, HO⟩, ⟨%d0, %f0, %hf0, Hx⟩, ⟨%d1, %f1, %hf1, Ho⟩⟩
  have hx : f0 = xstg m c := by
    have h : f0 = (dats m ρ 0 c).before (0 : Fin 2) t0_0 d0 := hf0
    rw [h]; unfold Dat.before; rw [if_pos (fetch0_0 t0_0)]; rfl
  subst hx
  rw [show (dats m ρ 0 c).owed t0_0.castSucc = rem c 0 from rfl, rem_peel_0, rem_peel_1]
  ihave Hx' := (x_split c (xstg m c)).1 $$ Hx
  icases Hx' with ⟨HxL, Hx1, Hx2, Hx3, Hx4, Hxr⟩
  ihave Ho' := (out_split c f1) $$ Ho
  icases Ho' with ⟨Har1, Har2, Ho1, Ho2⟩
  iexists K
  iexists W
  rw [bodyPre_eq]
  unfold bodyPreC
  simp only [chainL_eq]
  isplitl [HI1]; · iexact HI1
  isplitl [HI2]; · iexact HI2
  isplitl [HI3]; · iexact HI3
  isplitl [HL1]; · iexact HL1
  isplitl [HL2]; · iexact HL2
  isplitl [HL3]; · iexact HL3
  isplitl [HA0]; · iexact HA0
  isplitl [HA]; · iexact HA
  isplitl [HR1]; · iexact HR1
  isplitl [HR2]; · iexact HR2
  isplitl [HRn]; · iexact HRn
  isplitl [HRp]; · iexact HRp
  isplitl [HRs]; · iexact HRs
  isplitl [HT1]; · iexact HT1
  isplitl [HT2]; · iexact HT2
  isplitl [HTn]; · iexact HTn
  isplitl [HTp]; · iexact HTp
  isplitl [HTs]; · iexact HTs
  isplitl [HC0]; · iexact HC0
  isplitl [HCq]; · iexact HCq
  isplitl [Hlev]; · iexact Hlev
  isplitl [Hsa]; · iexact Hsa
  isplitl [Hsb]; · iexact Hsb
  isplitl [HO]; · iexact HO
  isplitl [HxL]; · iexact HxL
  isplitl [Hx1]; · iexact Hx1
  isplitl [Hx2]; · iexact Hx2
  isplitl [Hx3]; · iexact Hx3
  isplitl [Hx4]; · iexact Hx4
  isplitl [Hxr]; · iexact Hxr
  isplitl [Har1]; · iexact Har1
  isplitl [Har2]; · iexact Har2
  isplitl [Ho1]; · iexact Ho1
  iexact Ho2

end Cert.Kernel.RSAG

end
-- ==== Proof.Bits.FinishLib.lean ====
import proofs.«901013_g7700000000001014_dist_rs_then_ag_i_m4096_n1024_v7x_i16_f32_1_alg».proof.Proof.Bits.BodyLib2

/-! The end of a device's body: what it holds when its last wait returns is what the pipeline wants back.

    The ring buffers' slots, each at the partial sum it last held, are the slots at some contents; the six pieces of the
    staged input are the staged input; the sixty-four windows of the staged result, each at its finished sub-block, are
    the staged result at the assembled value; every own semaphore, its owner past the last round that has a duty,
    closes with its counter at zero; and a device that has paid all it owed owes nothing. -/

set_option maxRecDepth 8192

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-! ## Closing the own semaphores -/

/-- from its listed round on, no listed semaphore of device `c` has a duty -/
def AllLater (c : Dev nD) : List (DmaSem sig × ℕ) → Prop
  | [] => True
  | p :: l => (∀ r, p.2 ≤ r → (Rd (F := F) X).duties (dcell c p.1) r = ∅) ∧ AllLater c l

/-- The owner of listed cells, at a round from which none has a duty and having consumed nothing of it, closes them
    one after the other: every counter reads zero. -/
theorem close_list (c : Dev nD) (K : GSem nD τ sig → ℕ) (l : List (DmaSem sig × ℕ)) (hl : AllLater (F := F) X c l) :
    iprop(bigSepL l (fun p => cellInv ER (Rd (F := F) X) (K (dcell c p.1)) (dcell c p.1))
        ∗ bigSepL l (fun p => atPos ER (dcell c p.1) p.2 (∅ : Finset Bool) 0))
      ⊢ (iprop(|={Set.univ}=> bigSepL l (fun p => semVal (dcell c p.1) 0)) : sProp 𝕄) := by
  induction l with
  | nil =>
    show _ ⊢ (iprop(|={Set.univ}=> emp) : sProp 𝕄)
    iintro -
    imodintro
    iempintro
  | cons p l ih =>
    rw [bigSepL_cons, bigSepL_cons, bigSepL_cons]
    show iprop((cellInv ER (Rd (F := F) X) (K (dcell c p.1)) (dcell c p.1)
          ∗ bigSepL l (fun p => cellInv ER (Rd (F := F) X) (K (dcell c p.1)) (dcell c p.1)))
        ∗ (atPos ER (dcell c p.1) p.2 (∅ : Finset Bool) 0 ∗ bigSepL l (fun p => atPos ER (dcell c p.1) p.2 (∅ : Finset Bool) 0)))
      ⊢ (iprop(|={Set.univ}=> (semVal (dcell c p.1) 0 ∗ bigSepL l (fun p => semVal (dcell c p.1) 0))) : sProp 𝕄)
    iintro ⟨⟨HI, HIs⟩, ⟨Hat, Hats⟩⟩
    imod (Rounds.cell_close ER (Rd (F := F) X) (Set.mem_univ (K (dcell c p.1))) (fun h => h) (R := p.2) hl.1) $$ [HI Hat] with Hz
    · isplitl [HI]; · iexact HI
      iexact Hat
    imod (ih hl.2) $$ [HIs Hats] with Hzs
    · isplitl [HIs]; · iexact HIs
      iexact Hats
    imodintro
    isplitl [Hz]; · iexact Hz
    iexact Hzs

/-- the same with the invariants listed by semaphore, as the body's start deals them -/
theorem sems_close_gen (c : Dev nD) (K : GSem nD τ sig → ℕ) (l : List (DmaSem sig × ℕ)) (hq : ownQs = l.map Prod.fst)
    (hl : AllLater (F := F) X c l) :
    iprop(bigSepL ownQs (fun q => cellInv ER (Rd (F := F) X) (K (dcell c q)) (dcell c q))
        ∗ bigSepL l (fun p => atPos ER (dcell c p.1) p.2 (∅ : Finset Bool) 0))
      ⊢ (iprop(|={Set.univ}=> bigSepL ownQs (fun q => semVal (dcell c q) 0)) : sProp 𝕄) := by
  rw [hq, cut_bigSepL_map, cut_bigSepL_map]
  exact close_list X c K l hl

/-! ## The ring buffers' slots back -/

/-- what is owned at known contents is held at some contents -/
theorem owns_ex {sh : Shape} (c : Dev nD) (mm : Memref sig .tc .vmem sh .f32) (q : PosShare TreeShare) (V : sh.Idx → Elt F .f32) :
    (owns (Ix := Unit) (Name := ℕ) (U := UU) (Lvl := ℕ) (c : Thread nD τ) mm q V : sProp 𝕄)
      ⊢ iprop(∃ f, mm.view.loc (c : Thread nD τ) ↦[mm.view.set]{q} f) := by
  unfold owns
  iintro ⟨%f, -, H⟩
  iexists f
  iexact H

/-- the two halves of what is owned at one contents rejoin -/
theorem owns_halves_ex {sh : Shape} (c : Dev nD) (mm : Memref sig .tc .vmem sh .f32) (V : sh.Idx → Elt F .f32) :
    (iprop(owns (Ix := Unit) (Name := ℕ) (U := UU) (Lvl := ℕ) (c : Thread nD τ) mm fullShare.left V
        ∗ owns (Ix := Unit) (Name := ℕ) (U := UU) (Lvl := ℕ) (c : Thread nD τ) mm fullShare.right V) : sProp 𝕄)
      ⊢ iprop(∃ f, mm.view.loc (c : Thread nD τ) ↦[mm.view.set]{fullShare} f) := by
  unfold owns
  iintro ⟨⟨%f, %hf, HL⟩, ⟨%g, %hg, HR⟩⟩
  have e : (mm.view.loc (c : Thread nD τ) ↦[mm.view.set]{fullShare.right} g : sProp 𝕄)
      = mm.view.loc (c : Thread nD τ) ↦[mm.view.set]{fullShare.right} f :=
    pointsTo_congr fun i hi => by
      rw [View.set, Finset.mem_map] at hi
      obtain ⟨x, -, rfl⟩ := hi
      have := congrFun (hg.trans hf.symm) x
      simp only [View.read] at this
      exact (cast_inj _).mp this
  ihave HR' := (Entails.of_eq e) $$ HR
  iexists f
  iapply (pointsTo_share (PosShare.mem_left_op_right fullShare)).2
  isplitl [HL]; · iexact HL
  iexact HR'

/-- a slot of the ring buffer of direction `cw` on device `c` at the partial sum it last held: at the full share, or at
    one half of it -/
def slotAt (cw : Bool) (c : Dev nD) (i : Fin 15 × Fin 2 × Option Bool) : sProp 𝕄 :=
  owns (c : Thread nD τ) (slot (bufOf cw) i.1.val (64 * i.2.1.val) (slot_inb _ _ i.1.isLt i.2.1.isLt))
    (match i.2.2 with | none => fullShare | some true => fullShare.left | some false => fullShare.right)
    (addV X cw i.2.1 i.1.val c)

/-- the slots as the body's end holds them: fourteen steps' slots whole, the last step's in two halves -/
def backList : List (Fin 15 × Fin 2 × Option Bool) :=
  (sbList.take 28).map (fun sb => (sb.1, sb.2, none))
    ++ [(14, 0, some true), (14, 0, some false), (14, 1, some true), (14, 1, some false)]

/-- The slots a device holds at its body's end are its ring buffer's thirty slots at some contents. -/
theorem slots_back_gen (cw : Bool) (c : Dev nD) : bigSepL backList (slotAt (F := F) X cw c) ⊢ allSlots (F := F) cw c := by
  rw [allSlots_eq]
  show _ ⊢ bigSepL (sbList.take 28 ++ [(14, 0), (14, 1)]) _
  unfold backList
  rw [cut_bigSepL_append, cut_bigSepL_append, cut_bigSepL_map]
  refine BI.sep_mono ?_ ?_
  · exact bigSepL_mono _ _ _ fun sb _ => owns_ex c _ _ _
  · rw [bigSepL_cons_cons, bigSepL_cons_cons, bigSepL_cons_cons, bigSepL_singleton, bigSepL_cons_cons, bigSepL_singleton,
      ← sep_assoc_eq']
    exact BI.sep_mono (owns_halves_ex c _ _) (owns_halves_ex c _ _)

/-! ## The staged input back, and nothing left to pay -/

/-- The six pieces of the staged input, at its contents, are the staged input. -/
theorem x_back (c : Dev nD) (Xc : S4096x1024.Idx → Elt F .f32) :
    (iprop(
      (xM.view.loc (c : Thread nD τ) ↦[xM.view.set]{fullShare.left} Xc)
      ∗ ((rows xM (off true (c.val + 15) 0) (off_inb true _ 0)).view.loc (c : Thread nD τ)
          ↦[(rows xM (off true (c.val + 15) 0) (off_inb true _ 0)).view.set]{fullShare.right} Xc)
      ∗ ((rows xM (off true (c.val + 15) 1) (off_inb true _ 1)).view.loc (c : Thread nD τ)
          ↦[(rows xM (off true (c.val + 15) 1) (off_inb true _ 1)).view.set]{fullShare.right} Xc)
      ∗ ((rows xM (off false (c.val + 1) 0) (off_inb false _ 0)).view.loc (c : Thread nD τ)
          ↦[(rows xM (off false (c.val + 1) 0) (off_inb false _ 0)).view.set]{fullShare.right} Xc)
      ∗ ((rows xM (off false (c.val + 1) 1) (off_inb false _ 1)).view.loc (c : Thread nD τ)
          ↦[(rows xM (off false (c.val + 1) 1) (off_inb false _ 1)).view.set]{fullShare.right} Xc)
      ∗ (xM.view.loc (c : Thread nD τ) ↦[xM.view.set \ xWins c]{fullShare.right} Xc)) : sProp 𝕄)
      ⊢ owns (c : Thread nD τ) xM fullShare Xc :=
  (x_split c Xc).2.trans (owns_intro (c : Thread nD τ) xM fullShare Xc)

/-- the device the shift zero names is the device itself -/
theorem devAt_zero (c : Dev nD) : devAt c 0 = c := by
  have hc : c.val < 16 := c.isLt
  exact Fin.ext (show (c.val + 0) % 16 = c.val by omega)

/-- once all 122 payments are made nothing is left -/
theorem fin_rem_done (c : Dev nD) : rem c 122 = 0 := rfl

variable (m : (ℓ : Loc nD τ sig) → Buf (Elt F) ℓ) (ρ : Dev nD → PrngReg)

/-- A device that has paid all it owed holds what the pipeline wants of it after the point. -/
theorem owes_done (c : Dev nD) (W : Waits sig Unit) :
    (owes (c : Thread nD τ) (rem c 122) W : sProp 𝕄) ⊢ (dats (F := F) m ρ 0 c).owesAt () t0_0.succ := by
  unfold Dat.owesAt Pipeline.owesWithin
  rw [show (dats (F := F) m ρ 0 c).owed t0_0.succ = 0 from rfl]
  iintro H
  iexists W
  isplitr; · ipureintro; exact fun _ _ => Or.inl trivial
  iapply (owes_congr (fin_rem_done c))
  iexact H

end Cert.Kernel.RSAG

end
-- ==== Proof.Bits.Finish.lean ====
import proofs.«901013_g7700000000001014_dist_rs_then_ag_i_m4096_n1024_v7x_i16_f32_1_alg».proof.Proof.Bits.FinishLib

/-! What a device holds at its body's end, written out conjunct by conjunct.

    Its 136 own semaphores in the order they are listed, each with the round from which it has no duty; the slots of
    its two ring buffers, the last step's in two halves; the sixty-four windows of its staged result. -/

set_option maxRecDepth 16384

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

/-- a device's own semaphores in their listed order, each with the round from which it has no duty -/
def ownQR : List (DmaSem sig × ℕ) :=
  [((qS cc0_scratch2 0 inb_S4_S1_0), 8),
   ((qS cc0_scratch2 1 inb_S4_S1_1), 8),
   ((qS cc0_scratch2 2 inb_S4_S1_2), 7),
   ((qS cc0_scratch2 3 inb_S4_S1_3), 7),
   ((qS cc0_scratch4 0 inb_S4_S1_0), 8),
   ((qS cc0_scratch4 1 inb_S4_S1_1), 8),
   ((qS cc0_scratch4 2 inb_S4_S1_2), 7),
   ((qS cc0_scratch4 3 inb_S4_S1_3), 7),
   ((qS cc0_scratch6 0 inb_S4_S1_0), 8),
   ((qS cc0_scratch6 1 inb_S4_S1_1), 8),
   ((qS cc0_scratch6 2 inb_S4_S1_2), 7),
   ((qS cc0_scratch6 3 inb_S4_S1_3), 7),
   ((qS cc0_scratch8 0 inb_S4_S1_0), 8),
   ((qS cc0_scratch8 1 inb_S4_S1_1), 8),
   ((qS cc0_scratch8 2 inb_S4_S1_2), 7),
   ((qS cc0_scratch8 3 inb_S4_S1_3), 7),
   ((qR cc0_scratch3 0 0 inb_S15x2_S1x1_0_0), 1),
   ((qR cc0_scratch3 0 1 inb_S15x2_S1x1_0_1), 1),
   ((qR cc0_scratch3 1 0 inb_S15x2_S1x1_1_0), 1),
   ((qR cc0_scratch3 1 1 inb_S15x2_S1x1_1_1), 1),
   ((qR cc0_scratch3 2 0 inb_S15x2_S1x1_2_0), 1),
   ((qR cc0_scratch3 2 1 inb_S15x2_S1x1_2_1), 1),
   ((qR cc0_scratch3 3 0 inb_S15x2_S1x1_3_0), 1),
   ((qR cc0_scratch3 3 1 inb_S15x2_S1x1_3_1), 1),
   ((qR cc0_scratch3 4 0 inb_S15x2_S1x1_4_0), 1),
   ((qR cc0_scratch3 4 1 inb_S15x2_S1x1_4_1), 1),
   ((qR cc0_scratch3 5 0 inb_S15x2_S1x1_5_0), 1),
   ((qR cc0_scratch3 5 1 inb_S15x2_S1x1_5_1), 1),
   ((qR cc0_scratch3 6 0 inb_S15x2_S1x1_6_0), 1),
   ((qR cc0_scratch3 6 1 inb_S15x2_S1x1_6_1), 1),
   ((qR cc0_scratch3 7 0 inb_S15x2_S1x1_7_0), 1),
   ((qR cc0_scratch3 7 1 inb_S15x2_S1x1_7_1), 1),
   ((qR cc0_scratch3 8 0 inb_S15x2_S1x1_8_0), 1),
   ((qR cc0_scratch3 8 1 inb_S15x2_S1x1_8_1), 1),
   ((qR cc0_scratch3 9 0 inb_S15x2_S1x1_9_0), 1),
   ((qR cc0_scratch3 9 1 inb_S15x2_S1x1_9_1), 1),
   ((qR cc0_scratch3 10 0 inb_S15x2_S1x1_10_0), 1),
   ((qR cc0_scratch3 10 1 inb_S15x2_S1x1_10_1), 1),
   ((qR cc0_scratch3 11 0 inb_S15x2_S1x1_11_0), 1),
   ((qR cc0_scratch3 11 1 inb_S15x2_S1x1_11_1), 1),
   ((qR cc0_scratch3 12 0 inb_S15x2_S1x1_12_0), 1),
   ((qR cc0_scratch3 12 1 inb_S15x2_S1x1_12_1), 1),
   ((qR cc0_scratch3 13 0 inb_S15x2_S1x1_13_0), 1),
   ((qR cc0_scratch3 13 1 inb_S15x2_S1x1_13_1), 1),
   ((qR cc0_scratch3 14 0 inb_S15x2_S1x1_14_0), 1),
   ((qR cc0_scratch3 14 1 inb_S15x2_S1x1_14_1), 1),
   ((qR cc0_scratch7 0 0 inb_S15x2_S1x1_0_0), 1),
   ((qR cc0_scratch7 0 1 inb_S15x2_S1x1_0_1), 1),
   ((qR cc0_scratch7 1 0 inb_S15x2_S1x1_1_0), 1),
   ((qR cc0_scratch7 1 1 inb_S15x2_S1x1_1_1), 1),
   ((qR cc0_scratch7 2 0 inb_S15x2_S1x1_2_0), 1),
   ((qR cc0_scratch7 2 1 inb_S15x2_S1x1_2_1), 1),
   ((qR cc0_scratch7 3 0 inb_S15x2_S1x1_3_0), 1),
   ((qR cc0_scratch7 3 1 inb_S15x2_S1x1_3_1), 1),
   ((qR cc0_scratch7 4 0 inb_S15x2_S1x1_4_0), 1),
   ((qR cc0_scratch7 4 1 inb_S15x2_S1x1_4_1), 1),
   ((qR cc0_scratch7 5 0 inb_S15x2_S1x1_5_0), 1),
   ((qR cc0_scratch7 5 1 inb_S15x2_S1x1_5_1), 1),
   ((qR cc0_scratch7 6 0 inb_S15x2_S1x1_6_0), 1),
   ((qR cc0_scratch7 6 1 inb_S15x2_S1x1_6_1), 1),
   ((qR cc0_scratch7 7 0 inb_S15x2_S1x1_7_0), 1),
   ((qR cc0_scratch7 7 1 inb_S15x2_S1x1_7_1), 1),
   ((qR cc0_scratch7 8 0 inb_S15x2_S1x1_8_0), 1),
   ((qR cc0_scratch7 8 1 inb_S15x2_S1x1_8_1), 1),
   ((qR cc0_scratch7 9 0 inb_S15x2_S1x1_9_0), 1),
   ((qR cc0_scratch7 9 1 inb_S15x2_S1x1_9_1), 1),
   ((qR cc0_scratch7 10 0 inb_S15x2_S1x1_10_0), 1),
   ((qR cc0_scratch7 10 1 inb_S15x2_S1x1_10_1), 1),
   ((qR cc0_scratch7 11 0 inb_S15x2_S1x1_11_0), 1),
   ((qR cc0_scratch7 11 1 inb_S15x2_S1x1_11_1), 1),
   ((qR cc0_scratch7 12 0 inb_S15x2_S1x1_12_0), 1),
   ((qR cc0_scratch7 12 1 inb_S15x2_S1x1_12_1), 1),
   ((qR cc0_scratch7 13 0 inb_S15x2_S1x1_13_0), 1),
   ((qR cc0_scratch7 13 1 inb_S15x2_S1x1_13_1), 1),
   ((qR cc0_scratch7 14 0 inb_S15x2_S1x1_14_0), 1),
   ((qR cc0_scratch7 14 1 inb_S15x2_S1x1_14_1), 1),
   ((qR cc0_scratch5 0 0 inb_S15x2_S1x1_0_0), 1),
   ((qR cc0_scratch5 0 1 inb_S15x2_S1x1_0_1), 1),
   ((qR cc0_scratch5 1 0 inb_S15x2_S1x1_1_0), 1),
   ((qR cc0_scratch5 1 1 inb_S15x2_S1x1_1_1), 1),
   ((qR cc0_scratch5 2 0 inb_S15x2_S1x1_2_0), 1),
   ((qR cc0_scratch5 2 1 inb_S15x2_S1x1_2_1), 1),
   ((qR cc0_scratch5 3 0 inb_S15x2_S1x1_3_0), 1),
   ((qR cc0_scratch5 3 1 inb_S15x2_S1x1_3_1), 1),
   ((qR cc0_scratch5 4 0 inb_S15x2_S1x1_4_0), 1),
   ((qR cc0_scratch5 4 1 inb_S15x2_S1x1_4_1), 1),
   ((qR cc0_scratch5 5 0 inb_S15x2_S1x1_5_0), 1),
   ((qR cc0_scratch5 5 1 inb_S15x2_S1x1_5_1), 1),
   ((qR cc0_scratch5 6 0 inb_S15x2_S1x1_6_0), 1),
   ((qR cc0_scratch5 6 1 inb_S15x2_S1x1_6_1), 1),
   ((qR cc0_scratch5 7 0 inb_S15x2_S1x1_7_0), 1),
   ((qR cc0_scratch5 7 1 inb_S15x2_S1x1_7_1), 1),
   ((qR cc0_scratch5 8 0 inb_S15x2_S1x1_8_0), 1),
   ((qR cc0_scratch5 8 1 inb_S15x2_S1x1_8_1), 1),
   ((qR cc0_scratch5 9 0 inb_S15x2_S1x1_9_0), 1),
   ((qR cc0_scratch5 9 1 inb_S15x2_S1x1_9_1), 1),
   ((qR cc0_scratch5 10 0 inb_S15x2_S1x1_10_0), 1),
   ((qR cc0_scratch5 10 1 inb_S15x2_S1x1_10_1), 1),
   ((qR cc0_scratch5 11 0 inb_S15x2_S1x1_11_0), 1),
   ((qR cc0_scratch5 11 1 inb_S15x2_S1x1_11_1), 1),
   ((qR cc0_scratch5 12 0 inb_S15x2_S1x1_12_0), 1),
   ((qR cc0_scratch5 12 1 inb_S15x2_S1x1_12_1), 1),
   ((qR cc0_scratch5 13 0 inb_S15x2_S1x1_13_0), 1),
   ((qR cc0_scratch5 13 1 inb_S15x2_S1x1_13_1), 1),
   ((qR cc0_scratch5 14 0 inb_S15x2_S1x1_14_0), 1),
   ((qR cc0_scratch5 14 1 inb_S15x2_S1x1_14_1), 1),
   ((qR cc0_scratch9 0 0 inb_S15x2_S1x1_0_0), 1),
   ((qR cc0_scratch9 0 1 inb_S15x2_S1x1_0_1), 1),
   ((qR cc0_scratch9 1 0 inb_S15x2_S1x1_1_0), 1),
   ((qR cc0_scratch9 1 1 inb_S15x2_S1x1_1_1), 1),
   ((qR cc0_scratch9 2 0 inb_S15x2_S1x1_2_0), 1),
   ((qR cc0_scratch9 2 1 inb_S15x2_S1x1_2_1), 1),
   ((qR cc0_scratch9 3 0 inb_S15x2_S1x1_3_0), 1),
   ((qR cc0_scratch9 3 1 inb_S15x2_S1x1_3_1), 1),
   ((qR cc0_scratch9 4 0 inb_S15x2_S1x1_4_0), 1),
   ((qR cc0_scratch9 4 1 inb_S15x2_S1x1_4_1), 1),
   ((qR cc0_scratch9 5 0 inb_S15x2_S1x1_5_0), 1),
   ((qR cc0_scratch9 5 1 inb_S15x2_S1x1_5_1), 1),
   ((qR cc0_scratch9 6 0 inb_S15x2_S1x1_6_0), 1),
   ((qR cc0_scratch9 6 1 inb_S15x2_S1x1_6_1), 1),
   ((qR cc0_scratch9 7 0 inb_S15x2_S1x1_7_0), 1),
   ((qR cc0_scratch9 7 1 inb_S15x2_S1x1_7_1), 1),
   ((qR cc0_scratch9 8 0 inb_S15x2_S1x1_8_0), 1),
   ((qR cc0_scratch9 8 1 inb_S15x2_S1x1_8_1), 1),
   ((qR cc0_scratch9 9 0 inb_S15x2_S1x1_9_0), 1),
   ((qR cc0_scratch9 9 1 inb_S15x2_S1x1_9_1), 1),
   ((qR cc0_scratch9 10 0 inb_S15x2_S1x1_10_0), 1),
   ((qR cc0_scratch9 10 1 inb_S15x2_S1x1_10_1), 1),
   ((qR cc0_scratch9 11 0 inb_S15x2_S1x1_11_0), 1),
   ((qR cc0_scratch9 11 1 inb_S15x2_S1x1_11_1), 1),
   ((qR cc0_scratch9 12 0 inb_S15x2_S1x1_12_0), 1),
   ((qR cc0_scratch9 12 1 inb_S15x2_S1x1_12_1), 1),
   ((qR cc0_scratch9 13 0 inb_S15x2_S1x1_13_0), 1),
   ((qR cc0_scratch9 13 1 inb_S15x2_S1x1_13_1), 1),
   ((qR cc0_scratch9 14 0 inb_S15x2_S1x1_14_0), 1),
   ((qR cc0_scratch9 14 1 inb_S15x2_S1x1_14_1), 1)]

/-- from those rounds on none of them has a duty: the table's lemmas, one per semaphore -/
theorem ownQR_later (c : Dev nD) : AllLater (F := F) X c ownQR :=
  ⟨later_rscw_s_0 X c,
   later_rscw_s_1 X c,
   later_rscw_s_2 X c,
   later_rscw_s_3 X c,
   later_rsccw_s_0 X c,
   later_rsccw_s_1 X c,
   later_rsccw_s_2 X c,
   later_rsccw_s_3 X c,
   later_agcw_s_0 X c,
   later_agcw_s_1 X c,
   later_agcw_s_2 X c,
   later_agcw_s_3 X c,
   later_agccw_s_0 X c,
   later_agccw_s_1 X c,
   later_agccw_s_2 X c,
   later_agccw_s_3 X c,
   later_rscw_r_0_0 X c,
   later_rscw_r_0_1 X c,
   later_rscw_r_1_0 X c,
   later_rscw_r_1_1 X c,
   later_rscw_r_2_0 X c,
   later_rscw_r_2_1 X c,
   later_rscw_r_3_0 X c,
   later_rscw_r_3_1 X c,
   later_rscw_r_4_0 X c,
   later_rscw_r_4_1 X c,
   later_rscw_r_5_0 X c,
   later_rscw_r_5_1 X c,
   later_rscw_r_6_0 X c,
   later_rscw_r_6_1 X c,
   later_rscw_r_7_0 X c,
   later_rscw_r_7_1 X c,
   later_rscw_r_8_0 X c,
   later_rscw_r_8_1 X c,
   later_rscw_r_9_0 X c,
   later_rscw_r_9_1 X c,
   later_rscw_r_10_0 X c,
   later_rscw_r_10_1 X c,
   later_rscw_r_11_0 X c,
   later_rscw_r_11_1 X c,
   later_rscw_r_12_0 X c,
   later_rscw_r_12_1 X c,
   later_rscw_r_13_0 X c,
   later_rscw_r_13_1 X c,
   later_rscw_r_14_0 X c,
   later_rscw_r_14_1 X c,
   later_agcw_r_0_0 X c,
   later_agcw_r_0_1 X c,
   later_agcw_r_1_0 X c,
   later_agcw_r_1_1 X c,
   later_agcw_r_2_0 X c,
   later_agcw_r_2_1 X c,
   later_agcw_r_3_0 X c,
   later_agcw_r_3_1 X c,
   later_agcw_r_4_0 X c,
   later_agcw_r_4_1 X c,
   later_agcw_r_5_0 X c,
   later_agcw_r_5_1 X c,
   later_agcw_r_6_0 X c,
   later_agcw_r_6_1 X c,
   later_agcw_r_7_0 X c,
   later_agcw_r_7_1 X c,
   later_agcw_r_8_0 X c,
   later_agcw_r_8_1 X c,
   later_agcw_r_9_0 X c,
   later_agcw_r_9_1 X c,
   later_agcw_r_10_0 X c,
   later_agcw_r_10_1 X c,
   later_agcw_r_11_0 X c,
   later_agcw_r_11_1 X c,
   later_agcw_r_12_0 X c,
   later_agcw_r_12_1 X c,
   later_agcw_r_13_0 X c,
   later_agcw_r_13_1 X c,
   later_agcw_r_14_0 X c,
   later_agcw_r_14_1 X c,
   later_rsccw_r_0_0 X c,
   later_rsccw_r_0_1 X c,
   later_rsccw_r_1_0 X c,
   later_rsccw_r_1_1 X c,
   later_rsccw_r_2_0 X c,
   later_rsccw_r_2_1 X c,
   later_rsccw_r_3_0 X c,
   later_rsccw_r_3_1 X c,
   later_rsccw_r_4_0 X c,
   later_rsccw_r_4_1 X c,
   later_rsccw_r_5_0 X c,
   later_rsccw_r_5_1 X c,
   later_rsccw_r_6_0 X c,
   later_rsccw_r_6_1 X c,
   later_rsccw_r_7_0 X c,
   later_rsccw_r_7_1 X c,
   later_rsccw_r_8_0 X c,
   later_rsccw_r_8_1 X c,
   later_rsccw_r_9_0 X c,
   later_rsccw_r_9_1 X c,
   later_rsccw_r_10_0 X c,
   later_rsccw_r_10_1 X c,
   later_rsccw_r_11_0 X c,
   later_rsccw_r_11_1 X c,
   later_rsccw_r_12_0 X c,
   later_rsccw_r_12_1 X c,
   later_rsccw_r_13_0 X c,
   later_rsccw_r_13_1 X c,
   later_rsccw_r_14_0 X c,
   later_rsccw_r_14_1 X c,
   later_agccw_r_0_0 X c,
   later_agccw_r_0_1 X c,
   later_agccw_r_1_0 X c,
   later_agccw_r_1_1 X c,
   later_agccw_r_2_0 X c,
   later_agccw_r_2_1 X c,
   later_agccw_r_3_0 X c,
   later_agccw_r_3_1 X c,
   later_agccw_r_4_0 X c,
   later_agccw_r_4_1 X c,
   later_agccw_r_5_0 X c,
   later_agccw_r_5_1 X c,
   later_agccw_r_6_0 X c,
   later_agccw_r_6_1 X c,
   later_agccw_r_7_0 X c,
   later_agccw_r_7_1 X c,
   later_agccw_r_8_0 X c,
   later_agccw_r_8_1 X c,
   later_agccw_r_9_0 X c,
   later_agccw_r_9_1 X c,
   later_agccw_r_10_0 X c,
   later_agccw_r_10_1 X c,
   later_agccw_r_11_0 X c,
   later_agccw_r_11_1 X c,
   later_agccw_r_12_0 X c,
   later_agccw_r_12_1 X c,
   later_agccw_r_13_0 X c,
   later_agccw_r_13_1 X c,
   later_agccw_r_14_0 X c,
   later_agccw_r_14_1 X c,
   trivial⟩

/-- The owner's positions on its 136 own semaphores, each past its last round with a duty, with the cells' invariants: every counter reads zero, the cells closed. -/
theorem sems_close (c : Dev nD) (K : GSem nD τ sig → ℕ) :
    (iprop(bigSepL ownQs (fun q => cellInv ER (Rd (F := F) X) (K (dcell c q)) (dcell c q)) ∗
    (atPos ER (dcell c (qS cc0_scratch2 0 inb_S4_S1_0)) 8 ∅ 0) ∗
    (atPos ER (dcell c (qS cc0_scratch2 1 inb_S4_S1_1)) 8 ∅ 0) ∗
    (atPos ER (dcell c (qS cc0_scratch2 2 inb_S4_S1_2)) 7 ∅ 0) ∗
    (atPos ER (dcell c (qS cc0_scratch2 3 inb_S4_S1_3)) 7 ∅ 0) ∗
    (atPos ER (dcell c (qS cc0_scratch4 0 inb_S4_S1_0)) 8 ∅ 0) ∗
    (atPos ER (dcell c (qS cc0_scratch4 1 inb_S4_S1_1)) 8 ∅ 0) ∗
    (atPos ER (dcell c (qS cc0_scratch4 2 inb_S4_S1_2)) 7 ∅ 0) ∗
    (atPos ER (dcell c (qS cc0_scratch4 3 inb_S4_S1_3)) 7 ∅ 0) ∗
    (atPos ER (dcell c (qS cc0_scratch6 0 inb_S4_S1_0)) 8 ∅ 0) ∗
    (atPos ER (dcell c (qS cc0_scratch6 1 inb_S4_S1_1)) 8 ∅ 0) ∗
    (atPos ER (dcell c (qS cc0_scratch6 2 inb_S4_S1_2)) 7 ∅ 0) ∗
    (atPos ER (dcell c (qS cc0_scratch6 3 inb_S4_S1_3)) 7 ∅ 0) ∗
    (atPos ER (dcell c (qS cc0_scratch8 0 inb_S4_S1_0)) 8 ∅ 0) ∗
    (atPos ER (dcell c (qS cc0_scratch8 1 inb_S4_S1_1)) 8 ∅ 0) ∗
    (atPos ER (dcell c (qS cc0_scratch8 2 inb_S4_S1_2)) 7 ∅ 0) ∗
    (atPos ER (dcell c (qS cc0_scratch8 3 inb_S4_S1_3)) 7 ∅ 0) ∗
    (atPos ER (dcell c (qR cc0_scratch3 0 0 inb_S15x2_S1x1_0_0)) 1 ∅ 0) ∗
    (atPos ER (dcell c (qR cc0_scratch3 0 1 inb_S15x2_S1x1_0_1)) 1 ∅ 0) ∗
    (atPos ER (dcell c (qR cc0_scratch3 1 0 inb_S15x2_S1x1_1_0)) 1 ∅ 0) ∗
    (atPos ER (dcell c (qR cc0_scratch3 1 1 inb_S15x2_S1x1_1_1)) 1 ∅ 0) ∗
    (atPos ER (dcell c (qR cc0_scratch3 2 0 inb_S15x2_S1x1_2_0)) 1 ∅ 0) ∗
    (atPos ER (dcell c (qR cc0_scratch3 2 1 inb_S15x2_S1x1_2_1)) 1 ∅ 0) ∗
    (atPos ER (dcell c (qR cc0_scratch3 3 0 inb_S15x2_S1x1_3_0)) 1 ∅ 0) ∗
    (atPos ER (dcell c (qR cc0_scratch3 3 1 inb_S15x2_S1x1_3_1)) 1 ∅ 0) ∗
    (atPos ER (dcell c (qR cc0_scratch3 4 0 inb_S15x2_S1x1_4_0)) 1 ∅ 0) ∗
    (atPos ER (dcell c (qR cc0_scratch3 4 1 inb_S15x2_S1x1_4_1)) 1 ∅ 0) ∗
    (atPos ER (dcell c (qR cc0_scratch3 5 0 inb_S15x2_S1x1_5_0)) 1 ∅ 0) ∗
    (atPos ER (dcell c (qR cc0_scratch3 5 1 inb_S15x2_S1x1_5_1)) 1 ∅ 0) ∗
    (atPos ER (dcell c (qR cc0_scratch3 6 0 inb_S15x2_S1x1_6_0)) 1 ∅ 0) ∗
    (atPos ER (dcell c (qR cc0_scratch3 6 1 inb_S15x2_S1x1_6_1)) 1 ∅ 0) ∗
    (atPos ER (dcell c (qR cc0_scratch3 7 0 inb_S15x2_S1x1_7_0)) 1 ∅ 0) ∗
    (atPos ER (dcell c (qR cc0_scratch3 7 1 inb_S15x2_S1x1_7_1)) 1 ∅ 0) ∗
    (atPos ER (dcell c (qR cc0_scratch3 8 0 inb_S15x2_S1x1_8_0)) 1 ∅ 0) ∗
    (atPos ER (dcell c (qR cc0_scratch3 8 1 inb_S15x2_S1x1_8_1)) 1 ∅ 0) ∗
    (atPos ER (dcell c (qR cc0_scratch3 9 0 inb_S15x2_S1x1_9_0)) 1 ∅ 0) ∗
    (atPos ER (dcell c (qR cc0_scratch3 9 1 inb_S15x2_S1x1_9_1)) 1 ∅ 0) ∗
    (atPos ER (dcell c (qR cc0_scratch3 10 0 inb_S15x2_S1x1_10_0)) 1 ∅ 0) ∗
    (atPos ER (dcell c (qR cc0_scratch3 10 1 inb_S15x2_S1x1_10_1)) 1 ∅ 0) ∗
    (atPos ER (dcell c (qR cc0_scratch3 11 0 inb_S15x2_S1x1_11_0)) 1 ∅ 0) ∗
    (atPos ER (dcell c (qR cc0_scratch3 11 1 inb_S15x2_S1x1_11_1)) 1 ∅ 0) ∗
    (atPos ER (dcell c (qR cc0_scratch3 12 0 inb_S15x2_S1x1_12_0)) 1 ∅ 0) ∗
    (atPos ER (dcell c (qR cc0_scratch3 12 1 inb_S15x2_S1x1_12_1)) 1 ∅ 0) ∗
    (atPos ER (dcell c (qR cc0_scratch3 13 0 inb_S15x2_S1x1_13_0)) 1 ∅ 0) ∗
    (atPos ER (dcell c (qR cc0_scratch3 13 1 inb_S15x2_S1x1_13_1)) 1 ∅ 0) ∗
    (atPos ER (dcell c (qR cc0_scratch3 14 0 inb_S15x2_S1x1_14_0)) 1 ∅ 0) ∗
    (atPos ER (dcell c (qR cc0_scratch3 14 1 inb_S15x2_S1x1_14_1)) 1 ∅ 0) ∗
    (atPos ER (dcell c (qR cc0_scratch7 0 0 inb_S15x2_S1x1_0_0)) 1 ∅ 0) ∗
    (atPos ER (dcell c (qR cc0_scratch7 0 1 inb_S15x2_S1x1_0_1)) 1 ∅ 0) ∗
    (atPos ER (dcell c (qR cc0_scratch7 1 0 inb_S15x2_S1x1_1_0)) 1 ∅ 0) ∗
    (atPos ER (dcell c (qR cc0_scratch7 1 1 inb_S15x2_S1x1_1_1)) 1 ∅ 0) ∗
    (atPos ER (dcell c (qR cc0_scratch7 2 0 inb_S15x2_S1x1_2_0)) 1 ∅ 0) ∗
    (atPos ER (dcell c (qR cc0_scratch7 2 1 inb_S15x2_S1x1_2_1)) 1 ∅ 0) ∗
    (atPos ER (dcell c (qR cc0_scratch7 3 0 inb_S15x2_S1x1_3_0)) 1 ∅ 0) ∗
    (atPos ER (dcell c (qR cc0_scratch7 3 1 inb_S15x2_S1x1_3_1)) 1 ∅ 0) ∗
    (atPos ER (dcell c (qR cc0_scratch7 4 0 inb_S15x2_S1x1_4_0)) 1 ∅ 0) ∗
    (atPos ER (dcell c (qR cc0_scratch7 4 1 inb_S15x2_S1x1_4_1)) 1 ∅ 0) ∗
    (atPos ER (dcell c (qR cc0_scratch7 5 0 inb_S15x2_S1x1_5_0)) 1 ∅ 0) ∗
    (atPos ER (dcell c (qR cc0_scratch7 5 1 inb_S15x2_S1x1_5_1)) 1 ∅ 0) ∗
    (atPos ER (dcell c (qR cc0_scratch7 6 0 inb_S15x2_S1x1_6_0)) 1 ∅ 0) ∗
    (atPos ER (dcell c (qR cc0_scratch7 6 1 inb_S15x2_S1x1_6_1)) 1 ∅ 0) ∗
    (atPos ER (dcell c (qR cc0_scratch7 7 0 inb_S15x2_S1x1_7_0)) 1 ∅ 0) ∗
    (atPos ER (dcell c (qR cc0_scratch7 7 1 inb_S15x2_S1x1_7_1)) 1 ∅ 0) ∗
    (atPos ER (dcell c (qR cc0_scratch7 8 0 inb_S15x2_S1x1_8_0)) 1 ∅ 0) ∗
    (atPos ER (dcell c (qR cc0_scratch7 8 1 inb_S15x2_S1x1_8_1)) 1 ∅ 0) ∗
    (atPos ER (dcell c (qR cc0_scratch7 9 0 inb_S15x2_S1x1_9_0)) 1 ∅ 0) ∗
    (atPos ER (dcell c (qR cc0_scratch7 9 1 inb_S15x2_S1x1_9_1)) 1 ∅ 0) ∗
    (atPos ER (dcell c (qR cc0_scratch7 10 0 inb_S15x2_S1x1_10_0)) 1 ∅ 0) ∗
    (atPos ER (dcell c (qR cc0_scratch7 10 1 inb_S15x2_S1x1_10_1)) 1 ∅ 0) ∗
    (atPos ER (dcell c (qR cc0_scratch7 11 0 inb_S15x2_S1x1_11_0)) 1 ∅ 0) ∗
    (atPos ER (dcell c (qR cc0_scratch7 11 1 inb_S15x2_S1x1_11_1)) 1 ∅ 0) ∗
    (atPos ER (dcell c (qR cc0_scratch7 12 0 inb_S15x2_S1x1_12_0)) 1 ∅ 0) ∗
    (atPos ER (dcell c (qR cc0_scratch7 12 1 inb_S15x2_S1x1_12_1)) 1 ∅ 0) ∗
    (atPos ER (dcell c (qR cc0_scratch7 13 0 inb_S15x2_S1x1_13_0)) 1 ∅ 0) ∗
    (atPos ER (dcell c (qR cc0_scratch7 13 1 inb_S15x2_S1x1_13_1)) 1 ∅ 0) ∗
    (atPos ER (dcell c (qR cc0_scratch7 14 0 inb_S15x2_S1x1_14_0)) 1 ∅ 0) ∗
    (atPos ER (dcell c (qR cc0_scratch7 14 1 inb_S15x2_S1x1_14_1)) 1 ∅ 0) ∗
    (atPos ER (dcell c (qR cc0_scratch5 0 0 inb_S15x2_S1x1_0_0)) 1 ∅ 0) ∗
    (atPos ER (dcell c (qR cc0_scratch5 0 1 inb_S15x2_S1x1_0_1)) 1 ∅ 0) ∗
    (atPos ER (dcell c (qR cc0_scratch5 1 0 inb_S15x2_S1x1_1_0)) 1 ∅ 0) ∗
    (atPos ER (dcell c (qR cc0_scratch5 1 1 inb_S15x2_S1x1_1_1)) 1 ∅ 0) ∗
    (atPos ER (dcell c (qR cc0_scratch5 2 0 inb_S15x2_S1x1_2_0)) 1 ∅ 0) ∗
    (atPos ER (dcell c (qR cc0_scratch5 2 1 inb_S15x2_S1x1_2_1)) 1 ∅ 0) ∗
    (atPos ER (dcell c (qR cc0_scratch5 3 0 inb_S15x2_S1x1_3_0)) 1 ∅ 0) ∗
    (atPos ER (dcell c (qR cc0_scratch5 3 1 inb_S15x2_S1x1_3_1)) 1 ∅ 0) ∗
    (atPos ER (dcell c (qR cc0_scratch5 4 0 inb_S15x2_S1x1_4_0)) 1 ∅ 0) ∗
    (atPos ER (dcell c (qR cc0_scratch5 4 1 inb_S15x2_S1x1_4_1)) 1 ∅ 0) ∗
    (atPos ER (dcell c (qR cc0_scratch5 5 0 inb_S15x2_S1x1_5_0)) 1 ∅ 0) ∗
    (atPos ER (dcell c (qR cc0_scratch5 5 1 inb_S15x2_S1x1_5_1)) 1 ∅ 0) ∗
    (atPos ER (dcell c (qR cc0_scratch5 6 0 inb_S15x2_S1x1_6_0)) 1 ∅ 0) ∗
    (atPos ER (dcell c (qR cc0_scratch5 6 1 inb_S15x2_S1x1_6_1)) 1 ∅ 0) ∗
    (atPos ER (dcell c (qR cc0_scratch5 7 0 inb_S15x2_S1x1_7_0)) 1 ∅ 0) ∗
    (atPos ER (dcell c (qR cc0_scratch5 7 1 inb_S15x2_S1x1_7_1)) 1 ∅ 0) ∗
    (atPos ER (dcell c (qR cc0_scratch5 8 0 inb_S15x2_S1x1_8_0)) 1 ∅ 0) ∗
    (atPos ER (dcell c (qR cc0_scratch5 8 1 inb_S15x2_S1x1_8_1)) 1 ∅ 0) ∗
    (atPos ER (dcell c (qR cc0_scratch5 9 0 inb_S15x2_S1x1_9_0)) 1 ∅ 0) ∗
    (atPos ER (dcell c (qR cc0_scratch5 9 1 inb_S15x2_S1x1_9_1)) 1 ∅ 0) ∗
    (atPos ER (dcell c (qR cc0_scratch5 10 0 inb_S15x2_S1x1_10_0)) 1 ∅ 0) ∗
    (atPos ER (dcell c (qR cc0_scratch5 10 1 inb_S15x2_S1x1_10_1)) 1 ∅ 0) ∗
    (atPos ER (dcell c (qR cc0_scratch5 11 0 inb_S15x2_S1x1_11_0)) 1 ∅ 0) ∗
    (atPos ER (dcell c (qR cc0_scratch5 11 1 inb_S15x2_S1x1_11_1)) 1 ∅ 0) ∗
    (atPos ER (dcell c (qR cc0_scratch5 12 0 inb_S15x2_S1x1_12_0)) 1 ∅ 0) ∗
    (atPos ER (dcell c (qR cc0_scratch5 12 1 inb_S15x2_S1x1_12_1)) 1 ∅ 0) ∗
    (atPos ER (dcell c (qR cc0_scratch5 13 0 inb_S15x2_S1x1_13_0)) 1 ∅ 0) ∗
    (atPos ER (dcell c (qR cc0_scratch5 13 1 inb_S15x2_S1x1_13_1)) 1 ∅ 0) ∗
    (atPos ER (dcell c (qR cc0_scratch5 14 0 inb_S15x2_S1x1_14_0)) 1 ∅ 0) ∗
    (atPos ER (dcell c (qR cc0_scratch5 14 1 inb_S15x2_S1x1_14_1)) 1 ∅ 0) ∗
    (atPos ER (dcell c (qR cc0_scratch9 0 0 inb_S15x2_S1x1_0_0)) 1 ∅ 0) ∗
    (atPos ER (dcell c (qR cc0_scratch9 0 1 inb_S15x2_S1x1_0_1)) 1 ∅ 0) ∗
    (atPos ER (dcell c (qR cc0_scratch9 1 0 inb_S15x2_S1x1_1_0)) 1 ∅ 0) ∗
    (atPos ER (dcell c (qR cc0_scratch9 1 1 inb_S15x2_S1x1_1_1)) 1 ∅ 0) ∗
    (atPos ER (dcell c (qR cc0_scratch9 2 0 inb_S15x2_S1x1_2_0)) 1 ∅ 0) ∗
    (atPos ER (dcell c (qR cc0_scratch9 2 1 inb_S15x2_S1x1_2_1)) 1 ∅ 0) ∗
    (atPos ER (dcell c (qR cc0_scratch9 3 0 inb_S15x2_S1x1_3_0)) 1 ∅ 0) ∗
    (atPos ER (dcell c (qR cc0_scratch9 3 1 inb_S15x2_S1x1_3_1)) 1 ∅ 0) ∗
    (atPos ER (dcell c (qR cc0_scratch9 4 0 inb_S15x2_S1x1_4_0)) 1 ∅ 0) ∗
    (atPos ER (dcell c (qR cc0_scratch9 4 1 inb_S15x2_S1x1_4_1)) 1 ∅ 0) ∗
    (atPos ER (dcell c (qR cc0_scratch9 5 0 inb_S15x2_S1x1_5_0)) 1 ∅ 0) ∗
    (atPos ER (dcell c (qR cc0_scratch9 5 1 inb_S15x2_S1x1_5_1)) 1 ∅ 0) ∗
    (atPos ER (dcell c (qR cc0_scratch9 6 0 inb_S15x2_S1x1_6_0)) 1 ∅ 0) ∗
    (atPos ER (dcell c (qR cc0_scratch9 6 1 inb_S15x2_S1x1_6_1)) 1 ∅ 0) ∗
    (atPos ER (dcell c (qR cc0_scratch9 7 0 inb_S15x2_S1x1_7_0)) 1 ∅ 0) ∗
    (atPos ER (dcell c (qR cc0_scratch9 7 1 inb_S15x2_S1x1_7_1)) 1 ∅ 0) ∗
    (atPos ER (dcell c (qR cc0_scratch9 8 0 inb_S15x2_S1x1_8_0)) 1 ∅ 0) ∗
    (atPos ER (dcell c (qR cc0_scratch9 8 1 inb_S15x2_S1x1_8_1)) 1 ∅ 0) ∗
    (atPos ER (dcell c (qR cc0_scratch9 9 0 inb_S15x2_S1x1_9_0)) 1 ∅ 0) ∗
    (atPos ER (dcell c (qR cc0_scratch9 9 1 inb_S15x2_S1x1_9_1)) 1 ∅ 0) ∗
    (atPos ER (dcell c (qR cc0_scratch9 10 0 inb_S15x2_S1x1_10_0)) 1 ∅ 0) ∗
    (atPos ER (dcell c (qR cc0_scratch9 10 1 inb_S15x2_S1x1_10_1)) 1 ∅ 0) ∗
    (atPos ER (dcell c (qR cc0_scratch9 11 0 inb_S15x2_S1x1_11_0)) 1 ∅ 0) ∗
    (atPos ER (dcell c (qR cc0_scratch9 11 1 inb_S15x2_S1x1_11_1)) 1 ∅ 0) ∗
    (atPos ER (dcell c (qR cc0_scratch9 12 0 inb_S15x2_S1x1_12_0)) 1 ∅ 0) ∗
    (atPos ER (dcell c (qR cc0_scratch9 12 1 inb_S15x2_S1x1_12_1)) 1 ∅ 0) ∗
    (atPos ER (dcell c (qR cc0_scratch9 13 0 inb_S15x2_S1x1_13_0)) 1 ∅ 0) ∗
    (atPos ER (dcell c (qR cc0_scratch9 13 1 inb_S15x2_S1x1_13_1)) 1 ∅ 0) ∗
    (atPos ER (dcell c (qR cc0_scratch9 14 0 inb_S15x2_S1x1_14_0)) 1 ∅ 0) ∗
    (atPos ER (dcell c (qR cc0_scratch9 14 1 inb_S15x2_S1x1_14_1)) 1 ∅ 0)) : sProp 𝕄)
      ⊢ iprop(|={Set.univ}=> bigSepL ownQs (fun q => semVal (dcell c q) 0)) :=
  sems_close_gen X c K ownQR rfl (ownQR_later X c)

/-- the slots of the ring buffer of direction true as the body's end holds them (steps 0 to 13 whole, then step 14's two sub-blocks each in its left and right half) are the buffer's thirty slots -/
theorem slots_back_cw (c : Dev nD) :
    (iprop(
    (owns (c : Thread nD τ) (slot aM 0 0 Cert.Kernel.Gen.inb_S15x128x1024_S1x64x1024_0_0_0) fullShare (addV X true 0 0 c)) ∗
    (owns (c : Thread nD τ) (slot aM 0 64 Cert.Kernel.Gen.inb_S15x128x1024_S1x64x1024_0_64_0) fullShare (addV X true 1 0 c)) ∗
    (owns (c : Thread nD τ) (slot aM 1 0 Cert.Kernel.Gen.inb_S15x128x1024_S1x64x1024_1_0_0) fullShare (addV X true 0 1 c)) ∗
    (owns (c : Thread nD τ) (slot aM 1 64 Cert.Kernel.Gen.inb_S15x128x1024_S1x64x1024_1_64_0) fullShare (addV X true 1 1 c)) ∗
    (owns (c : Thread nD τ) (slot aM 2 0 Cert.Kernel.Gen.inb_S15x128x1024_S1x64x1024_2_0_0) fullShare (addV X true 0 2 c)) ∗
    (owns (c : Thread nD τ) (slot aM 2 64 Cert.Kernel.Gen.inb_S15x128x1024_S1x64x1024_2_64_0) fullShare (addV X true 1 2 c)) ∗
    (owns (c : Thread nD τ) (slot aM 3 0 Cert.Kernel.Gen.inb_S15x128x1024_S1x64x1024_3_0_0) fullShare (addV X true 0 3 c)) ∗
    (owns (c : Thread nD τ) (slot aM 3 64 Cert.Kernel.Gen.inb_S15x128x1024_S1x64x1024_3_64_0) fullShare (addV X true 1 3 c)) ∗
    (owns (c : Thread nD τ) (slot aM 4 0 Cert.Kernel.Gen.inb_S15x128x1024_S1x64x1024_4_0_0) fullShare (addV X true 0 4 c)) ∗
    (owns (c : Thread nD τ) (slot aM 4 64 Cert.Kernel.Gen.inb_S15x128x1024_S1x64x1024_4_64_0) fullShare (addV X true 1 4 c)) ∗
    (owns (c : Thread nD τ) (slot aM 5 0 Cert.Kernel.Gen.inb_S15x128x1024_S1x64x1024_5_0_0) fullShare (addV X true 0 5 c)) ∗
    (owns (c : Thread nD τ) (slot aM 5 64 Cert.Kernel.Gen.inb_S15x128x1024_S1x64x1024_5_64_0) fullShare (addV X true 1 5 c)) ∗
    (owns (c : Thread nD τ) (slot aM 6 0 Cert.Kernel.Gen.inb_S15x128x1024_S1x64x1024_6_0_0) fullShare (addV X true 0 6 c)) ∗
    (owns (c : Thread nD τ) (slot aM 6 64 Cert.Kernel.Gen.inb_S15x128x1024_S1x64x1024_6_64_0) fullShare (addV X true 1 6 c)) ∗
    (owns (c : Thread nD τ) (slot aM 7 0 Cert.Kernel.Gen.inb_S15x128x1024_S1x64x1024_7_0_0) fullShare (addV X true 0 7 c)) ∗
    (owns (c : Thread nD τ) (slot aM 7 64 Cert.Kernel.Gen.inb_S15x128x1024_S1x64x1024_7_64_0) fullShare (addV X true 1 7 c)) ∗
    (owns (c : Thread nD τ) (slot aM 8 0 Cert.Kernel.Gen.inb_S15x128x1024_S1x64x1024_8_0_0) fullShare (addV X true 0 8 c)) ∗
    (owns (c : Thread nD τ) (slot aM 8 64 Cert.Kernel.Gen.inb_S15x128x1024_S1x64x1024_8_64_0) fullShare (addV X true 1 8 c)) ∗
    (owns (c : Thread nD τ) (slot aM 9 0 Cert.Kernel.Gen.inb_S15x128x1024_S1x64x1024_9_0_0) fullShare (addV X true 0 9 c)) ∗
    (owns (c : Thread nD τ) (slot aM 9 64 Cert.Kernel.Gen.inb_S15x128x1024_S1x64x1024_9_64_0) fullShare (addV X true 1 9 c)) ∗
    (owns (c : Thread nD τ) (slot aM 10 0 Cert.Kernel.Gen.inb_S15x128x1024_S1x64x1024_10_0_0) fullShare (addV X true 0 10 c)) ∗
    (owns (c : Thread nD τ) (slot aM 10 64 Cert.Kernel.Gen.inb_S15x128x1024_S1x64x1024_10_64_0) fullShare (addV X true 1 10 c)) ∗
    (owns (c : Thread nD τ) (slot aM 11 0 Cert.Kernel.Gen.inb_S15x128x1024_S1x64x1024_11_0_0) fullShare (addV X true 0 11 c)) ∗
    (owns (c : Thread nD τ) (slot aM 11 64 Cert.Kernel.Gen.inb_S15x128x1024_S1x64x1024_11_64_0) fullShare (addV X true 1 11 c)) ∗
    (owns (c : Thread nD τ) (slot aM 12 0 Cert.Kernel.Gen.inb_S15x128x1024_S1x64x1024_12_0_0) fullShare (addV X true 0 12 c)) ∗
    (owns (c : Thread nD τ) (slot aM 12 64 Cert.Kernel.Gen.inb_S15x128x1024_S1x64x1024_12_64_0) fullShare (addV X true 1 12 c)) ∗
    (owns (c : Thread nD τ) (slot aM 13 0 Cert.Kernel.Gen.inb_S15x128x1024_S1x64x1024_13_0_0) fullShare (addV X true 0 13 c)) ∗
    (owns (c : Thread nD τ) (slot aM 13 64 Cert.Kernel.Gen.inb_S15x128x1024_S1x64x1024_13_64_0) fullShare (addV X true 1 13 c)) ∗
    (owns (c : Thread nD τ) (slot aM 14 0 Cert.Kernel.Gen.inb_S15x128x1024_S1x64x1024_14_0_0) fullShare.left (addV X true 0 14 c)) ∗
    (owns (c : Thread nD τ) (slot aM 14 0 Cert.Kernel.Gen.inb_S15x128x1024_S1x64x1024_14_0_0) fullShare.right (addV X true 0 14 c)) ∗
    (owns (c : Thread nD τ) (slot aM 14 64 Cert.Kernel.Gen.inb_S15x128x1024_S1x64x1024_14_64_0) fullShare.left (addV X true 1 14 c)) ∗
    (owns (c : Thread nD τ) (slot aM 14 64 Cert.Kernel.Gen.inb_S15x128x1024_S1x64x1024_14_64_0) fullShare.right (addV X true 1 14 c))) : sProp 𝕄) ⊢ allSlots (F := F) true c :=
  slots_back_gen X true c

/-- the slots of the ring buffer of direction false as the body's end holds them (steps 0 to 13 whole, then step 14's two sub-blocks each in its left and right half) are the buffer's thirty slots -/
theorem slots_back_ccw (c : Dev nD) :
    (iprop(
    (owns (c : Thread nD τ) (slot bM 0 0 Cert.Kernel.Gen.inb_S15x128x1024_S1x64x1024_0_0_0) fullShare (addV X false 0 0 c)) ∗
    (owns (c : Thread nD τ) (slot bM 0 64 Cert.Kernel.Gen.inb_S15x128x1024_S1x64x1024_0_64_0) fullShare (addV X false 1 0 c)) ∗
    (owns (c : Thread nD τ) (slot bM 1 0 Cert.Kernel.Gen.inb_S15x128x1024_S1x64x1024_1_0_0) fullShare (addV X false 0 1 c)) ∗
    (owns (c : Thread nD τ) (slot bM 1 64 Cert.Kernel.Gen.inb_S15x128x1024_S1x64x1024_1_64_0) fullShare (addV X false 1 1 c)) ∗
    (owns (c : Thread nD τ) (slot bM 2 0 Cert.Kernel.Gen.inb_S15x128x1024_S1x64x1024_2_0_0) fullShare (addV X false 0 2 c)) ∗
    (owns (c : Thread nD τ) (slot bM 2 64 Cert.Kernel.Gen.inb_S15x128x1024_S1x64x1024_2_64_0) fullShare (addV X false 1 2 c)) ∗
    (owns (c : Thread nD τ) (slot bM 3 0 Cert.Kernel.Gen.inb_S15x128x1024_S1x64x1024_3_0_0) fullShare (addV X false 0 3 c)) ∗
    (owns (c : Thread nD τ) (slot bM 3 64 Cert.Kernel.Gen.inb_S15x128x1024_S1x64x1024_3_64_0) fullShare (addV X false 1 3 c)) ∗
    (owns (c : Thread nD τ) (slot bM 4 0 Cert.Kernel.Gen.inb_S15x128x1024_S1x64x1024_4_0_0) fullShare (addV X false 0 4 c)) ∗
    (owns (c : Thread nD τ) (slot bM 4 64 Cert.Kernel.Gen.inb_S15x128x1024_S1x64x1024_4_64_0) fullShare (addV X false 1 4 c)) ∗
    (owns (c : Thread nD τ) (slot bM 5 0 Cert.Kernel.Gen.inb_S15x128x1024_S1x64x1024_5_0_0) fullShare (addV X false 0 5 c)) ∗
    (owns (c : Thread nD τ) (slot bM 5 64 Cert.Kernel.Gen.inb_S15x128x1024_S1x64x1024_5_64_0) fullShare (addV X false 1 5 c)) ∗
    (owns (c : Thread nD τ) (slot bM 6 0 Cert.Kernel.Gen.inb_S15x128x1024_S1x64x1024_6_0_0) fullShare (addV X false 0 6 c)) ∗
    (owns (c : Thread nD τ) (slot bM 6 64 Cert.Kernel.Gen.inb_S15x128x1024_S1x64x1024_6_64_0) fullShare (addV X false 1 6 c)) ∗
    (owns (c : Thread nD τ) (slot bM 7 0 Cert.Kernel.Gen.inb_S15x128x1024_S1x64x1024_7_0_0) fullShare (addV X false 0 7 c)) ∗
    (owns (c : Thread nD τ) (slot bM 7 64 Cert.Kernel.Gen.inb_S15x128x1024_S1x64x1024_7_64_0) fullShare (addV X false 1 7 c)) ∗
    (owns (c : Thread nD τ) (slot bM 8 0 Cert.Kernel.Gen.inb_S15x128x1024_S1x64x1024_8_0_0) fullShare (addV X false 0 8 c)) ∗
    (owns (c : Thread nD τ) (slot bM 8 64 Cert.Kernel.Gen.inb_S15x128x1024_S1x64x1024_8_64_0) fullShare (addV X false 1 8 c)) ∗
    (owns (c : Thread nD τ) (slot bM 9 0 Cert.Kernel.Gen.inb_S15x128x1024_S1x64x1024_9_0_0) fullShare (addV X false 0 9 c)) ∗
    (owns (c : Thread nD τ) (slot bM 9 64 Cert.Kernel.Gen.inb_S15x128x1024_S1x64x1024_9_64_0) fullShare (addV X false 1 9 c)) ∗
    (owns (c : Thread nD τ) (slot bM 10 0 Cert.Kernel.Gen.inb_S15x128x1024_S1x64x1024_10_0_0) fullShare (addV X false 0 10 c)) ∗
    (owns (c : Thread nD τ) (slot bM 10 64 Cert.Kernel.Gen.inb_S15x128x1024_S1x64x1024_10_64_0) fullShare (addV X false 1 10 c)) ∗
    (owns (c : Thread nD τ) (slot bM 11 0 Cert.Kernel.Gen.inb_S15x128x1024_S1x64x1024_11_0_0) fullShare (addV X false 0 11 c)) ∗
    (owns (c : Thread nD τ) (slot bM 11 64 Cert.Kernel.Gen.inb_S15x128x1024_S1x64x1024_11_64_0) fullShare (addV X false 1 11 c)) ∗
    (owns (c : Thread nD τ) (slot bM 12 0 Cert.Kernel.Gen.inb_S15x128x1024_S1x64x1024_12_0_0) fullShare (addV X false 0 12 c)) ∗
    (owns (c : Thread nD τ) (slot bM 12 64 Cert.Kernel.Gen.inb_S15x128x1024_S1x64x1024_12_64_0) fullShare (addV X false 1 12 c)) ∗
    (owns (c : Thread nD τ) (slot bM 13 0 Cert.Kernel.Gen.inb_S15x128x1024_S1x64x1024_13_0_0) fullShare (addV X false 0 13 c)) ∗
    (owns (c : Thread nD τ) (slot bM 13 64 Cert.Kernel.Gen.inb_S15x128x1024_S1x64x1024_13_64_0) fullShare (addV X false 1 13 c)) ∗
    (owns (c : Thread nD τ) (slot bM 14 0 Cert.Kernel.Gen.inb_S15x128x1024_S1x64x1024_14_0_0) fullShare.left (addV X false 0 14 c)) ∗
    (owns (c : Thread nD τ) (slot bM 14 0 Cert.Kernel.Gen.inb_S15x128x1024_S1x64x1024_14_0_0) fullShare.right (addV X false 0 14 c)) ∗
    (owns (c : Thread nD τ) (slot bM 14 64 Cert.Kernel.Gen.inb_S15x128x1024_S1x64x1024_14_64_0) fullShare.left (addV X false 1 14 c)) ∗
    (owns (c : Thread nD τ) (slot bM 14 64 Cert.Kernel.Gen.inb_S15x128x1024_S1x64x1024_14_64_0) fullShare.right (addV X false 1 14 c))) : sProp 𝕄) ⊢ allSlots (F := F) false c :=
  slots_back_gen X false c

/-- the sixty-four (direction, shift, sub-block) triples: clockwise halves first, by shift, by sub-block -/
def triAll : List (Bool × Fin 16 × Fin 2) :=
  [(true, 0, 0), (true, 0, 1), (true, 1, 0), (true, 1, 1), (true, 2, 0), (true, 2, 1), (true, 3, 0), (true, 3, 1), (true, 4, 0), (true, 4, 1), (true, 5, 0), (true, 5, 1), (true, 6, 0), (true, 6, 1), (true, 7, 0), (true, 7, 1), (true, 8, 0), (true, 8, 1), (true, 9, 0), (true, 9, 1), (true, 10, 0), (true, 10, 1), (true, 11, 0), (true, 11, 1), (true, 12, 0), (true, 12, 1), (true, 13, 0), (true, 13, 1), (true, 14, 0), (true, 14, 1), (true, 15, 0), (true, 15, 1), (false, 0, 0), (false, 0, 1), (false, 1, 0), (false, 1, 1), (false, 2, 0), (false, 2, 1), (false, 3, 0), (false, 3, 1), (false, 4, 0), (false, 4, 1), (false, 5, 0), (false, 5, 1), (false, 6, 0), (false, 6, 1), (false, 7, 0), (false, 7, 1), (false, 8, 0), (false, 8, 1), (false, 9, 0), (false, 9, 1), (false, 10, 0), (false, 10, 1), (false, 11, 0), (false, 11, 1), (false, 12, 0), (false, 12, 1), (false, 13, 0), (false, 13, 1), (false, 14, 0), (false, 14, 1), (false, 15, 0), (false, 15, 1)]

theorem triAll_univ : (Finset.univ : Finset (Bool × Fin 16 × Fin 2)) = triAll.toFinset := by decide
theorem triAll_nodup : triAll.Nodup := by decide

/-- the sixty-four windows of the staged result, each at its finished sub-block, are the staged result at the assembled value -/
theorem out_back (c : Dev nD) :
    (iprop(
    (owns (c : Thread nD τ) (rows oM (off true (c.val + 0) 0) (off_inb true _ 0)) fullShare (doneV X true 0 (devAt c 0))) ∗
    (owns (c : Thread nD τ) (rows oM (off true (c.val + 0) 1) (off_inb true _ 1)) fullShare (doneV X true 1 (devAt c 0))) ∗
    (owns (c : Thread nD τ) (rows oM (off true (c.val + 1) 0) (off_inb true _ 0)) fullShare (doneV X true 0 (devAt c 1))) ∗
    (owns (c : Thread nD τ) (rows oM (off true (c.val + 1) 1) (off_inb true _ 1)) fullShare (doneV X true 1 (devAt c 1))) ∗
    (owns (c : Thread nD τ) (rows oM (off true (c.val + 2) 0) (off_inb true _ 0)) fullShare (doneV X true 0 (devAt c 2))) ∗
    (owns (c : Thread nD τ) (rows oM (off true (c.val + 2) 1) (off_inb true _ 1)) fullShare (doneV X true 1 (devAt c 2))) ∗
    (owns (c : Thread nD τ) (rows oM (off true (c.val + 3) 0) (off_inb true _ 0)) fullShare (doneV X true 0 (devAt c 3))) ∗
    (owns (c : Thread nD τ) (rows oM (off true (c.val + 3) 1) (off_inb true _ 1)) fullShare (doneV X true 1 (devAt c 3))) ∗
    (owns (c : Thread nD τ) (rows oM (off true (c.val + 4) 0) (off_inb true _ 0)) fullShare (doneV X true 0 (devAt c 4))) ∗
    (owns (c : Thread nD τ) (rows oM (off true (c.val + 4) 1) (off_inb true _ 1)) fullShare (doneV X true 1 (devAt c 4))) ∗
    (owns (c : Thread nD τ) (rows oM (off true (c.val + 5) 0) (off_inb true _ 0)) fullShare (doneV X true 0 (devAt c 5))) ∗
    (owns (c : Thread nD τ) (rows oM (off true (c.val + 5) 1) (off_inb true _ 1)) fullShare (doneV X true 1 (devAt c 5))) ∗
    (owns (c : Thread nD τ) (rows oM (off true (c.val + 6) 0) (off_inb true _ 0)) fullShare (doneV X true 0 (devAt c 6))) ∗
    (owns (c : Thread nD τ) (rows oM (off true (c.val + 6) 1) (off_inb true _ 1)) fullShare (doneV X true 1 (devAt c 6))) ∗
    (owns (c : Thread nD τ) (rows oM (off true (c.val + 7) 0) (off_inb true _ 0)) fullShare (doneV X true 0 (devAt c 7))) ∗
    (owns (c : Thread nD τ) (rows oM (off true (c.val + 7) 1) (off_inb true _ 1)) fullShare (doneV X true 1 (devAt c 7))) ∗
    (owns (c : Thread nD τ) (rows oM (off true (c.val + 8) 0) (off_inb true _ 0)) fullShare (doneV X true 0 (devAt c 8))) ∗
    (owns (c : Thread nD τ) (rows oM (off true (c.val + 8) 1) (off_inb true _ 1)) fullShare (doneV X true 1 (devAt c 8))) ∗
    (owns (c : Thread nD τ) (rows oM (off true (c.val + 9) 0) (off_inb true _ 0)) fullShare (doneV X true 0 (devAt c 9))) ∗
    (owns (c : Thread nD τ) (rows oM (off true (c.val + 9) 1) (off_inb true _ 1)) fullShare (doneV X true 1 (devAt c 9))) ∗
    (owns (c : Thread nD τ) (rows oM (off true (c.val + 10) 0) (off_inb true _ 0)) fullShare (doneV X true 0 (devAt c 10))) ∗
    (owns (c : Thread nD τ) (rows oM (off true (c.val + 10) 1) (off_inb true _ 1)) fullShare (doneV X true 1 (devAt c 10))) ∗
    (owns (c : Thread nD τ) (rows oM (off true (c.val + 11) 0) (off_inb true _ 0)) fullShare (doneV X true 0 (devAt c 11))) ∗
    (owns (c : Thread nD τ) (rows oM (off true (c.val + 11) 1) (off_inb true _ 1)) fullShare (doneV X true 1 (devAt c 11))) ∗
    (owns (c : Thread nD τ) (rows oM (off true (c.val + 12) 0) (off_inb true _ 0)) fullShare (doneV X true 0 (devAt c 12))) ∗
    (owns (c : Thread nD τ) (rows oM (off true (c.val + 12) 1) (off_inb true _ 1)) fullShare (doneV X true 1 (devAt c 12))) ∗
    (owns (c : Thread nD τ) (rows oM (off true (c.val + 13) 0) (off_inb true _ 0)) fullShare (doneV X true 0 (devAt c 13))) ∗
    (owns (c : Thread nD τ) (rows oM (off true (c.val + 13) 1) (off_inb true _ 1)) fullShare (doneV X true 1 (devAt c 13))) ∗
    (owns (c : Thread nD τ) (rows oM (off true (c.val + 14) 0) (off_inb true _ 0)) fullShare (doneV X true 0 (devAt c 14))) ∗
    (owns (c : Thread nD τ) (rows oM (off true (c.val + 14) 1) (off_inb true _ 1)) fullShare (doneV X true 1 (devAt c 14))) ∗
    (owns (c : Thread nD τ) (rows oM (off true (c.val + 15) 0) (off_inb true _ 0)) fullShare (doneV X true 0 (devAt c 15))) ∗
    (owns (c : Thread nD τ) (rows oM (off true (c.val + 15) 1) (off_inb true _ 1)) fullShare (doneV X true 1 (devAt c 15))) ∗
    (owns (c : Thread nD τ) (rows oM (off false (c.val + 0) 0) (off_inb false _ 0)) fullShare (doneV X false 0 (devAt c 0))) ∗
    (owns (c : Thread nD τ) (rows oM (off false (c.val + 0) 1) (off_inb false _ 1)) fullShare (doneV X false 1 (devAt c 0))) ∗
    (owns (c : Thread nD τ) (rows oM (off false (c.val + 1) 0) (off_inb false _ 0)) fullShare (doneV X false 0 (devAt c 1))) ∗
    (owns (c : Thread nD τ) (rows oM (off false (c.val + 1) 1) (off_inb false _ 1)) fullShare (doneV X false 1 (devAt c 1))) ∗
    (owns (c : Thread nD τ) (rows oM (off false (c.val + 2) 0) (off_inb false _ 0)) fullShare (doneV X false 0 (devAt c 2))) ∗
    (owns (c : Thread nD τ) (rows oM (off false (c.val + 2) 1) (off_inb false _ 1)) fullShare (doneV X false 1 (devAt c 2))) ∗
    (owns (c : Thread nD τ) (rows oM (off false (c.val + 3) 0) (off_inb false _ 0)) fullShare (doneV X false 0 (devAt c 3))) ∗
    (owns (c : Thread nD τ) (rows oM (off false (c.val + 3) 1) (off_inb false _ 1)) fullShare (doneV X false 1 (devAt c 3))) ∗
    (owns (c : Thread nD τ) (rows oM (off false (c.val + 4) 0) (off_inb false _ 0)) fullShare (doneV X false 0 (devAt c 4))) ∗
    (owns (c : Thread nD τ) (rows oM (off false (c.val + 4) 1) (off_inb false _ 1)) fullShare (doneV X false 1 (devAt c 4))) ∗
    (owns (c : Thread nD τ) (rows oM (off false (c.val + 5) 0) (off_inb false _ 0)) fullShare (doneV X false 0 (devAt c 5))) ∗
    (owns (c : Thread nD τ) (rows oM (off false (c.val + 5) 1) (off_inb false _ 1)) fullShare (doneV X false 1 (devAt c 5))) ∗
    (owns (c : Thread nD τ) (rows oM (off false (c.val + 6) 0) (off_inb false _ 0)) fullShare (doneV X false 0 (devAt c 6))) ∗
    (owns (c : Thread nD τ) (rows oM (off false (c.val + 6) 1) (off_inb false _ 1)) fullShare (doneV X false 1 (devAt c 6))) ∗
    (owns (c : Thread nD τ) (rows oM (off false (c.val + 7) 0) (off_inb false _ 0)) fullShare (doneV X false 0 (devAt c 7))) ∗
    (owns (c : Thread nD τ) (rows oM (off false (c.val + 7) 1) (off_inb false _ 1)) fullShare (doneV X false 1 (devAt c 7))) ∗
    (owns (c : Thread nD τ) (rows oM (off false (c.val + 8) 0) (off_inb false _ 0)) fullShare (doneV X false 0 (devAt c 8))) ∗
    (owns (c : Thread nD τ) (rows oM (off false (c.val + 8) 1) (off_inb false _ 1)) fullShare (doneV X false 1 (devAt c 8))) ∗
    (owns (c : Thread nD τ) (rows oM (off false (c.val + 9) 0) (off_inb false _ 0)) fullShare (doneV X false 0 (devAt c 9))) ∗
    (owns (c : Thread nD τ) (rows oM (off false (c.val + 9) 1) (off_inb false _ 1)) fullShare (doneV X false 1 (devAt c 9))) ∗
    (owns (c : Thread nD τ) (rows oM (off false (c.val + 10) 0) (off_inb false _ 0)) fullShare (doneV X false 0 (devAt c 10))) ∗
    (owns (c : Thread nD τ) (rows oM (off false (c.val + 10) 1) (off_inb false _ 1)) fullShare (doneV X false 1 (devAt c 10))) ∗
    (owns (c : Thread nD τ) (rows oM (off false (c.val + 11) 0) (off_inb false _ 0)) fullShare (doneV X false 0 (devAt c 11))) ∗
    (owns (c : Thread nD τ) (rows oM (off false (c.val + 11) 1) (off_inb false _ 1)) fullShare (doneV X false 1 (devAt c 11))) ∗
    (owns (c : Thread nD τ) (rows oM (off false (c.val + 12) 0) (off_inb false _ 0)) fullShare (doneV X false 0 (devAt c 12))) ∗
    (owns (c : Thread nD τ) (rows oM (off false (c.val + 12) 1) (off_inb false _ 1)) fullShare (doneV X false 1 (devAt c 12))) ∗
    (owns (c : Thread nD τ) (rows oM (off false (c.val + 13) 0) (off_inb false _ 0)) fullShare (doneV X false 0 (devAt c 13))) ∗
    (owns (c : Thread nD τ) (rows oM (off false (c.val + 13) 1) (off_inb false _ 1)) fullShare (doneV X false 1 (devAt c 13))) ∗
    (owns (c : Thread nD τ) (rows oM (off false (c.val + 14) 0) (off_inb false _ 0)) fullShare (doneV X false 0 (devAt c 14))) ∗
    (owns (c : Thread nD τ) (rows oM (off false (c.val + 14) 1) (off_inb false _ 1)) fullShare (doneV X false 1 (devAt c 14))) ∗
    (owns (c : Thread nD τ) (rows oM (off false (c.val + 15) 0) (off_inb false _ 0)) fullShare (doneV X false 0 (devAt c 15))) ∗
    (owns (c : Thread nD τ) (rows oM (off false (c.val + 15) 1) (off_inb false _ 1)) fullShare (doneV X false 1 (devAt c 15)))) : sProp 𝕄) ⊢ owns (c : Thread nD τ) oM fullShare (outV X) :=
  out_join_list c X triAll triAll_univ triAll_nodup

end Cert.Kernel.RSAG

end
-- ==== Proof.Bits.LocalStore.lean ====
import proofs.«901013_g7700000000001014_dist_rs_then_ag_i_m4096_n1024_v7x_i16_f32_1_alg».proof.Proof.Bits.BodyLib2
import proofs.«901013_g7700000000001014_dist_rs_then_ag_i_m4096_n1024_v7x_i16_f32_1_alg».proof.Proof.Bits.Cut

/-! The kernel's two local copies of the finished last slot into the staged result.

    The last slot of a ring buffer is held as its two 64-row windows; the copy reads it as one window of 128 rows.
    The two windows are disjoint and together are the 128 rows, so holding both is holding the 128 rows at contents
    that read as each window's value, and conversely. What the copy stores over 128 rows of the staged result reads
    back, through either 64-row window of those rows, as the slot's matching window. -/

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The last slot as one window of 128 rows -/

/-- the rectangle of all 128 rows of slot 14, with its leading axis of one -/
abbrev R128 (h14 : ∀ a, (![14, 0, 0] : Fin 3 → ℕ) a + S1x128x1024.size a ≤ S15x128x1024.size a) : Rect S15x128x1024 :=
  Rect.unit (s := S15x128x1024) ![14, 0, 0] S1x128x1024.size h14

/-- slot 14 of a ring buffer as the kernel's 128-row load names it -/
def slot128 (M : Memref sig .tc .vmem S15x128x1024 .f32)
    (h14 : ∀ a, (![14, 0, 0] : Fin 3 → ℕ) a + S1x128x1024.size a ≤ S15x128x1024.size a) : Memref sig .tc .vmem S1x128x1024 .f32 :=
  M.slice (Rect.unit (s := S15x128x1024) ![14, 0, 0] S1x128x1024.size h14) (fun _ => rfl)

/-- an index lies in a 64-row window of a slot when its slot and row do -/
theorem mem_R3 {s r : ℕ} {h : ∀ a, (![s, r, 0] : Fin 3 → Nat) a + S1x64x1024.size a ≤ S15x128x1024.size a}
    {i : S15x128x1024.Idx} : i ∈ (R3 s r h).set ↔ (i 0).val = s ∧ r ≤ (i 1).val ∧ (i 1).val < r + 64 := by
  rw [Rect.mem_set_unit]
  constructor
  · intro H
    have H0 : s ≤ (i 0).val ∧ (i 0).val < s + 1 := H 0
    have H1 : r ≤ (i 1).val ∧ (i 1).val < r + 64 := H 1
    exact ⟨by omega, H1⟩
  · rintro ⟨e0, e1⟩ a
    match a with
    | ⟨0, _⟩ => show s ≤ (i 0).val ∧ (i 0).val < s + 1; omega
    | ⟨1, _⟩ => exact e1
    | ⟨2, _⟩ =>
      have h2 : (i 2).val < 1024 := (i 2).isLt
      show 0 ≤ (i 2).val ∧ (i 2).val < 0 + 1024; omega

/-- an index lies in the 128 rows of slot 14 when its slot is 14 -/
theorem mem_R128 {h14 : ∀ a, (![14, 0, 0] : Fin 3 → ℕ) a + S1x128x1024.size a ≤ S15x128x1024.size a}
    {i : S15x128x1024.Idx} : i ∈ (R128 h14).set ↔ (i 0).val = 14 := by
  rw [Rect.mem_set_unit]
  constructor
  · intro H
    have H0 : 14 ≤ (i 0).val ∧ (i 0).val < 14 + 1 := H 0
    omega
  · intro e0 a
    match a with
    | ⟨0, _⟩ => show 14 ≤ (i 0).val ∧ (i 0).val < 14 + 1; omega
    | ⟨1, _⟩ =>
      have h1 : (i 1).val < 128 := (i 1).isLt
      show 0 ≤ (i 1).val ∧ (i 1).val < 0 + 128; omega
    | ⟨2, _⟩ =>
      have h2 : (i 2).val < 1024 := (i 2).isLt
      show 0 ≤ (i 2).val ∧ (i 2).val < 0 + 1024; omega

/-- the two 64-row windows of slot 14 are disjoint -/
theorem R3_disjoint (h0 : ∀ a, (![14, 0, 0] : Fin 3 → Nat) a + S1x64x1024.size a ≤ S15x128x1024.size a)
    (h1 : ∀ a, (![14, 64, 0] : Fin 3 → Nat) a + S1x64x1024.size a ≤ S15x128x1024.size a) :
    Disjoint (R3 14 0 h0).set (R3 14 64 h1).set := by
  rw [Finset.disjoint_left]
  intro i hi hi'
  rw [mem_R3] at hi hi'
  omega

/-- and together they are its 128 rows -/
theorem R3_union (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (R3 14 0 h0).set ∪ (R3 14 64 h1).set = (R128 h14).set := by
  ext i
  have hi1 : (i 1).val < 128 := (i 1).isLt
  rw [Finset.mem_union, mem_R3, mem_R3, mem_R128]
  omega

variable (M : Memref sig .tc .vmem S15x128x1024 .f32) (c : Dev nD)

/-- the elements of the buffer under a 64-row window of a slot -/
theorem slot_set (s r : ℕ) (h : ∀ a, (![s, r, 0] : Fin 3 → Nat) a + S1x64x1024.size a ≤ S15x128x1024.size a) :
    (slot M s r h).view.set = (R3 s r h).set.map M.view.emb :=
  (View.set_reshape _ _).trans (View.set_slice _ _)

theorem slot128_set (h14 : ∀ a, (![14, 0, 0] : Fin 3 → ℕ) a + S1x128x1024.size a ≤ S15x128x1024.size a) :
    (slot128 M h14).view.set = (R128 h14).set.map M.view.emb :=
  View.set_slice _ _

theorem slot_disjoint (h0 : ∀ a, (![14, 0, 0] : Fin 3 → Nat) a + S1x64x1024.size a ≤ S15x128x1024.size a)
    (h1 : ∀ a, (![14, 64, 0] : Fin 3 → Nat) a + S1x64x1024.size a ≤ S15x128x1024.size a) :
    Disjoint (slot M 14 0 h0).view.set (slot M 14 64 h1).view.set := by
  rw [slot_set, slot_set]
  exact (Finset.disjoint_map _).mpr (R3_disjoint h0 h1)

theorem slot_union (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (slot M 14 0 h0).view.set ∪ (slot M 14 64 h1).view.set = (slot128 M h14).view.set := by
  rw [slot_set, slot_set, slot128_set, ← Finset.map_union, R3_union h0 h1 h14]

/-- two disjoint parts of one buffer held at different contents are their union held at contents that agree with each -/
theorem pts_join2 {ℓ : Loc nD τ sig} {A B C : Finset (Idx ℓ)} (q : PosShare TreeShare) (f0 f1 : Buf (Elt F) ℓ)
    (hd : Disjoint A B) (hu : A ∪ B = C) :
    iprop((ℓ ↦[A]{q} f0) ∗ (ℓ ↦[B]{q} f1)) ⊢ (ℓ ↦[C]{q} (B.piecewise f1 f0) : sProp 𝕄) := by
  subst hu; exact pointsTo_join hd

theorem pts_split2 {ℓ : Loc nD τ sig} {A B C : Finset (Idx ℓ)} (q : PosShare TreeShare) (f : Buf (Elt F) ℓ)
    (hd : Disjoint A B) (hu : A ∪ B = C) :
    (ℓ ↦[C]{q} f : sProp 𝕄) ⊢ iprop((ℓ ↦[A]{q} f) ∗ (ℓ ↦[B]{q} f)) := by
  subst hu; exact (pointsTo_union hd).1

/-- the two windows of slot 14 held at the values `V0`, `V1` are its 128 rows held at contents both windows read so -/
theorem join128 (q : PosShare TreeShare) (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    iprop(owns (c : Thread nD τ) (slot M 14 0 h0) q V0 ∗ owns (c : Thread nD τ) (slot M 14 64 h1) q V1)
      ⊢ (iprop(∃ f, ⌜(slot M 14 0 h0).view.read (Elt F) f = V0 ∧ (slot M 14 64 h1).view.read (Elt F) f = V1⌝
          ∗ ((slot128 M h14).view.loc (c : Thread nD τ) ↦[(slot128 M h14).view.set]{q} f)) : sProp 𝕄) := by
  unfold owns
  iintro ⟨⟨%f0, %e0, H0⟩, ⟨%f1, %e1, H1⟩⟩
  have hd := slot_disjoint M h0 h1
  ihave H := (pts_join2 (F := F) (ℓ := M.view.loc (c : Thread nD τ)) (A := (slot M 14 0 h0).view.set)
    (B := (slot M 14 64 h1).view.set) (C := (slot128 M h14).view.set) q f0 f1 hd (slot_union M h0 h1 h14)) $$ [H0 H1]
  · isplitl [H0]
    · iexact H0
    · iexact H1
  iexists (Finset.piecewise (s := (slot M 14 64 h1).view.set) f1 f0)
  isplitr
  · ipureintro
    constructor
    · rw [← e0]
      exact View.read_congr fun i hi => Finset.piecewise_eq_of_notMem _ _ _ (Finset.disjoint_left.mp hd hi)
    · rw [← e1]
      exact View.read_congr fun i hi => Finset.piecewise_eq_of_mem _ _ _ hi
  · iexact H

/-- the 128 rows of slot 14 at contents `f` are its two windows at what each reads of `f` -/
theorem split128_at (q : PosShare TreeShare) (f : M.view.ty.Contents (Elt F))
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    ((slot128 M h14).view.loc (c : Thread nD τ) ↦[(slot128 M h14).view.set]{q} f : sProp 𝕄)
      ⊢ iprop(owns (c : Thread nD τ) (slot M 14 0 h0) q ((slot M 14 0 h0).view.read (Elt F) f)
          ∗ owns (c : Thread nD τ) (slot M 14 64 h1) q ((slot M 14 64 h1).view.read (Elt F) f)) := by
  refine (pts_split2 (F := F) (ℓ := M.view.loc (c : Thread nD τ)) (A := (slot M 14 0 h0).view.set)
    (B := (slot M 14 64 h1).view.set) (C := (slot128 M h14).view.set) q f (slot_disjoint M h0 h1) (slot_union M h0 h1 h14)).trans ?_
  exact BI.sep_mono (owns_intro (c : Thread nD τ) (slot M 14 0 h0) q f) (owns_intro (c : Thread nD τ) (slot M 14 64 h1) q f)

/-- the converse of `join128` -/
theorem split128 (q : PosShare TreeShare) (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (h14 : ∀ a, (![14, 0, 0] : Fin 3 → ℕ) a + S1x128x1024.size a ≤ S15x128x1024.size a) :
    (iprop(∃ f, ⌜(slot M 14 0 h0).view.read (Elt F) f = V0 ∧ (slot M 14 64 h1).view.read (Elt F) f = V1⌝
          ∗ ((slot128 M h14).view.loc (c : Thread nD τ) ↦[(slot128 M h14).view.set]{q} f)) : sProp 𝕄)
      ⊢ iprop(owns (c : Thread nD τ) (slot M 14 0 h0) q V0 ∗ owns (c : Thread nD τ) (slot M 14 64 h1) q V1) := by
  iintro ⟨%f, %e, H⟩
  obtain ⟨e0, e1⟩ := e
  subst e0 e1
  iapply (split128_at M c q f h0 h1 h14)
  iexact H

/-! ## What the copy leaves in the staged result -/

/-- the clockwise half: the 128 rows stored over the first half of the device's own chunk, as its two 64-row windows -/
theorem own_store_intro_cw (f : M.view.ty.Contents (Elt F)) (fo : Buf (Elt F) (oM.view.loc (c : Thread nD τ)))
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (hf0 : (slot M 14 0 h0).view.read (Elt F) f = V0) (hf1 : (slot M 14 64 h1).view.read (Elt F) f = V1) :
    (own128 true c (View.write (Elt F) (oM.access (Rect.unit (s := S4096x1024) (k0_off5 c) S128x1024.size (k0_off5_inb c))) fo P Finset.univ) : sProp 𝕄)
      ⊢ iprop(owns (c : Thread nD τ) (rows oM (off true c.val 0) (off_inb true _ 0)) fullShare V0
          ∗ owns (c : Thread nD τ) (rows oM (off true c.val 1) (off_inb true _ 1)) fullShare V1) := by
  subst hf0 hf1
  refine (own128_halves true c _).1.trans (BI.sep_mono ?_ ?_)
  · refine (owns_intro (c : Thread nD τ) (rows oM (off true c.val 0) (off_inb true _ 0)) fullShare _).trans (Entails.of_eq ?_)
    exact congrArg (owns (c : Thread nD τ) (rows oM (off true c.val 0) (off_inb true _ 0)) fullShare)
      (copy_value_cw M f fo c 0 h14 P hP h0)
  · refine (owns_intro (c : Thread nD τ) (rows oM (off true c.val 1) (off_inb true _ 1)) fullShare _).trans (Entails.of_eq ?_)
    exact congrArg (owns (c : Thread nD τ) (rows oM (off true c.val 1) (off_inb true _ 1)) fullShare)
      (copy_value_cw M f fo c 1 h14 P hP h1)

/-- the other half: the 128 rows stored over the second half of the device's own chunk -/
theorem own_store_intro_ccw (f : M.view.ty.Contents (Elt F)) (fo : Buf (Elt F) (oM.view.loc (c : Thread nD τ)))
    (h14 : ∀ a, (![14, 0, 0] : Fin 3 → ℕ) a + S1x128x1024.size a ≤ S15x128x1024.size a)
    (P : Vec F S128x1024 .f32)
    (hP : P = (shapeCast S128x1024
        (View.readAt (Elt F) M.view (Rect.unit (s := S15x128x1024) ![14, 0, 0] S1x128x1024.size h14).toLoadRect f)
        shapeCasts_S1x128x1024_S128x1024 : FVec F S128x1024 .f32))
    (V0 V1 : S64x1024.Idx → Elt F .f32)
    (h0 : ∀ a, (![14, 0, 0] : Fin 3 → Nat) a + S1x64x1024.size a ≤ S15x128x1024.size a)
    (h1 : ∀ a, (![14, 64, 0] : Fin 3 → Nat) a + S1x64x1024.size a ≤ S15x128x1024.size a)
    (hf0 : (slot M 14 0 h0).view.read (Elt F) f = V0) (hf1 : (slot M 14 64 h1).view.read (Elt F) f = V1) :
    (own128 false c (View.write (Elt F) (oM.access (Rect.unit (s := S4096x1024) (k0_off6 c) S128x1024.size (k0_off6_inb c))) fo P Finset.univ) : sProp 𝕄)
      ⊢ iprop(owns (c : Thread nD τ) (rows oM (off false c.val 0) (off_inb false _ 0)) fullShare V0
          ∗ owns (c : Thread nD τ) (rows oM (off false c.val 1) (off_inb false _ 1)) fullShare V1) := by
  subst hf0 hf1
  refine (own128_halves false c _).1.trans (BI.sep_mono ?_ ?_)
  · refine (owns_intro (c : Thread nD τ) (rows oM (off false c.val 0) (off_inb false _ 0)) fullShare _).trans (Entails.of_eq ?_)
    exact congrArg (owns (c : Thread nD τ) (rows oM (off false c.val 0) (off_inb false _ 0)) fullShare)
      (copy_value_ccw M f fo c 0 h14 P hP h0)
  · refine (owns_intro (c : Thread nD τ) (rows oM (off false c.val 1) (off_inb false _ 1)) fullShare _).trans (Entails.of_eq ?_)
    exact congrArg (owns (c : Thread nD τ) (rows oM (off false c.val 1) (off_inb false _ 1)) fullShare)
      (copy_value_ccw M f fo c 1 h14 P hP h1)

end Cert.Kernel.RSAG

end
-- ==== Proof.Bits.Body.lean ====
import proofs.«901013_g7700000000001014_dist_rs_then_ag_i_m4096_n1024_v7x_i16_f32_1_alg».proof.Proof.Bits.Canon
import proofs.«901013_g7700000000001014_dist_rs_then_ag_i_m4096_n1024_v7x_i16_f32_1_alg».proof.Proof.Bits.BodyLib2
import proofs.«901013_g7700000000001014_dist_rs_then_ag_i_m4096_n1024_v7x_i16_f32_1_alg».proof.Proof.Bits.LaunchBPeel
import proofs.«901013_g7700000000001014_dist_rs_then_ag_i_m4096_n1024_v7x_i16_f32_1_alg».proof.Proof.Bits.LaunchB
import proofs.«901013_g7700000000001014_dist_rs_then_ag_i_m4096_n1024_v7x_i16_f32_1_alg».proof.Proof.Bits.Wrap
import proofs.«901013_g7700000000001014_dist_rs_then_ag_i_m4096_n1024_v7x_i16_f32_1_alg».proof.Proof.Bits.Finish
import proofs.«901013_g7700000000001014_dist_rs_then_ag_i_m4096_n1024_v7x_i16_f32_1_alg».proof.Proof.Bits.LocalStore

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (X : Dev nD → S4096x1024.Idx → Elt F .f32)

theorem payload_bar_own_false (c : Dev nD) : (Rd (F := F) X).payload (barCell c) 0 false = iprop(allSlots true (nxt c) ∗ allRows true (nxt c)) := rfl
theorem payload_bar_own_true (c : Dev nD) : (Rd (F := F) X).payload (barCell c) 0 true = iprop(allSlots false (prv c) ∗ allRows false (prv c)) := rfl
theorem payload_bar_prv_false (c : Dev nD) : (Rd (F := F) X).payload (barCell (prv c)) 0 false = iprop(allSlots true c ∗ allRows true c) := by
  rw [payload_bar_own_false, nxt_prv]
theorem payload_bar_nxt_true (c : Dev nD) : (Rd (F := F) X).payload (barCell (nxt c)) 0 true = iprop(allSlots false c ∗ allRows false c) := by
  rw [payload_bar_own_true, prv_nxt]
attribute [local sl_rounds high] payload_bar_prv_false payload_bar_nxt_true
attribute [local sl_rounds] payload_bar_own_false payload_bar_own_true duties_bar amount_bar expect_bar

/-- what the body leaves: both ring buffers back slot by slot and every own semaphore at zero; nothing owed; the staged
    input unchanged and the staged result holding the assembled sums -/
def bodyPost (c : Dev nD) : sProp 𝕄 :=
  iprop(Φ₁ c ∗ (∃ W, owes (c : Thread nD τ) (rem c 122) W) ∗ owns (c : Thread nD τ) xM fullShare (X c) ∗ owns (c : Thread nD τ) oM fullShare (outV X))

set_option maxHeartbeats 0 in
set_option maxRecDepth 100000 in
/-- One device's body, run from the opened ghost state: the barrier handshake; fifteen steps of the reduce-scatter in both
    directions (each: the partial sum lands, the own rows are added, the sum is passed on); the own chunk copied into the
    result; fifteen steps of the all-gather; every send waited. -/
theorem sound_body (c : Dev nD) (K : GSem nD τ sig → ℕ) (W : Waits sig Unit) (Kt : PUnit → sProp 𝕄) :
    iprop(bodyPre X K W c ∗ (bodyPost X c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9) Kt := by
  unfold bodyPre
  iintro ⟨⟨#HIb, #HIbn, #HIbp, #HInvOwn, #HInbCw, #HInbCcw, Hat_b, Hat_rscw_s_0, Hat_rscw_s_1, Hat_rscw_s_2, Hat_rscw_s_3, Hat_rsccw_s_0, Hat_rsccw_s_1, Hat_rsccw_s_2, Hat_rsccw_s_3, Hat_agcw_s_0, Hat_agcw_s_1, Hat_agcw_s_2, Hat_agcw_s_3, Hat_agccw_s_0, Hat_agccw_s_1, Hat_agccw_s_2, Hat_agccw_s_3, Hat_rscw_r_0_0, Hat_rscw_r_0_1, Hat_rscw_r_1_0, Hat_rscw_r_1_1, Hat_rscw_r_2_0, Hat_rscw_r_2_1, Hat_rscw_r_3_0, Hat_rscw_r_3_1, Hat_rscw_r_4_0, Hat_rscw_r_4_1, Hat_rscw_r_5_0, Hat_rscw_r_5_1, Hat_rscw_r_6_0, Hat_rscw_r_6_1, Hat_rscw_r_7_0, Hat_rscw_r_7_1, Hat_rscw_r_8_0, Hat_rscw_r_8_1, Hat_rscw_r_9_0, Hat_rscw_r_9_1, Hat_rscw_r_10_0, Hat_rscw_r_10_1, Hat_rscw_r_11_0, Hat_rscw_r_11_1, Hat_rscw_r_12_0, Hat_rscw_r_12_1, Hat_rscw_r_13_0, Hat_rscw_r_13_1, Hat_rscw_r_14_0, Hat_rscw_r_14_1, Hat_agcw_r_0_0, Hat_agcw_r_0_1, Hat_agcw_r_1_0, Hat_agcw_r_1_1, Hat_agcw_r_2_0, Hat_agcw_r_2_1, Hat_agcw_r_3_0, Hat_agcw_r_3_1, Hat_agcw_r_4_0, Hat_agcw_r_4_1, Hat_agcw_r_5_0, Hat_agcw_r_5_1, Hat_agcw_r_6_0, Hat_agcw_r_6_1, Hat_agcw_r_7_0, Hat_agcw_r_7_1, Hat_agcw_r_8_0, Hat_agcw_r_8_1, Hat_agcw_r_9_0, Hat_agcw_r_9_1, Hat_agcw_r_10_0, Hat_agcw_r_10_1, Hat_agcw_r_11_0, Hat_agcw_r_11_1, Hat_agcw_r_12_0, Hat_agcw_r_12_1, Hat_agcw_r_13_0, Hat_agcw_r_13_1, Hat_agcw_r_14_0, Hat_agcw_r_14_1, Hat_rsccw_r_0_0, Hat_rsccw_r_0_1, Hat_rsccw_r_1_0, Hat_rsccw_r_1_1, Hat_rsccw_r_2_0, Hat_rsccw_r_2_1, Hat_rsccw_r_3_0, Hat_rsccw_r_3_1, Hat_rsccw_r_4_0, Hat_rsccw_r_4_1, Hat_rsccw_r_5_0, Hat_rsccw_r_5_1, Hat_rsccw_r_6_0, Hat_rsccw_r_6_1, Hat_rsccw_r_7_0, Hat_rsccw_r_7_1, Hat_rsccw_r_8_0, Hat_rsccw_r_8_1, Hat_rsccw_r_9_0, Hat_rsccw_r_9_1, Hat_rsccw_r_10_0, Hat_rsccw_r_10_1, Hat_rsccw_r_11_0, Hat_rsccw_r_11_1, Hat_rsccw_r_12_0, Hat_rsccw_r_12_1, Hat_rsccw_r_13_0, Hat_rsccw_r_13_1, Hat_rsccw_r_14_0, Hat_rsccw_r_14_1, Hat_agccw_r_0_0, Hat_agccw_r_0_1, Hat_agccw_r_1_0, Hat_agccw_r_1_1, Hat_agccw_r_2_0, Hat_agccw_r_2_1, Hat_agccw_r_3_0, Hat_agccw_r_3_1, Hat_agccw_r_4_0, Hat_agccw_r_4_1, Hat_agccw_r_5_0, Hat_agccw_r_5_1, Hat_agccw_r_6_0, Hat_agccw_r_6_1, Hat_agccw_r_7_0, Hat_agccw_r_7_1, Hat_agccw_r_8_0, Hat_agccw_r_8_1, Hat_agccw_r_9_0, Hat_agccw_r_9_1, Hat_agccw_r_10_0, Hat_agccw_r_10_1, Hat_agccw_r_11_0, Hat_agccw_r_11_1, Hat_agccw_r_12_0, Hat_agccw_r_12_1, Hat_agccw_r_13_0, Hat_agccw_r_13_1, Hat_agccw_r_14_0, Hat_agccw_r_14_1, #Hr_bn, #Hr_bp, #Hrn_rscw_r_0_0, #Hrn_rscw_r_0_1, #Hrn_rscw_r_1_0, #Hrn_rscw_r_1_1, #Hrn_rscw_r_2_0, #Hrn_rscw_r_2_1, #Hrn_rscw_r_3_0, #Hrn_rscw_r_3_1, #Hrn_rscw_r_4_0, #Hrn_rscw_r_4_1, #Hrn_rscw_r_5_0, #Hrn_rscw_r_5_1, #Hrn_rscw_r_6_0, #Hrn_rscw_r_6_1, #Hrn_rscw_r_7_0, #Hrn_rscw_r_7_1, #Hrn_rscw_r_8_0, #Hrn_rscw_r_8_1, #Hrn_rscw_r_9_0, #Hrn_rscw_r_9_1, #Hrn_rscw_r_10_0, #Hrn_rscw_r_10_1, #Hrn_rscw_r_11_0, #Hrn_rscw_r_11_1, #Hrn_rscw_r_12_0, #Hrn_rscw_r_12_1, #Hrn_rscw_r_13_0, #Hrn_rscw_r_13_1, #Hrn_rscw_r_14_0, #Hrn_rscw_r_14_1, #Hrn_agcw_r_0_0, #Hrn_agcw_r_0_1, #Hrn_agcw_r_1_0, #Hrn_agcw_r_1_1, #Hrn_agcw_r_2_0, #Hrn_agcw_r_2_1, #Hrn_agcw_r_3_0, #Hrn_agcw_r_3_1, #Hrn_agcw_r_4_0, #Hrn_agcw_r_4_1, #Hrn_agcw_r_5_0, #Hrn_agcw_r_5_1, #Hrn_agcw_r_6_0, #Hrn_agcw_r_6_1, #Hrn_agcw_r_7_0, #Hrn_agcw_r_7_1, #Hrn_agcw_r_8_0, #Hrn_agcw_r_8_1, #Hrn_agcw_r_9_0, #Hrn_agcw_r_9_1, #Hrn_agcw_r_10_0, #Hrn_agcw_r_10_1, #Hrn_agcw_r_11_0, #Hrn_agcw_r_11_1, #Hrn_agcw_r_12_0, #Hrn_agcw_r_12_1, #Hrn_agcw_r_13_0, #Hrn_agcw_r_13_1, #Hrn_agcw_r_14_0, #Hrn_agcw_r_14_1, #Hrn_rsccw_r_0_0, #Hrn_rsccw_r_0_1, #Hrn_rsccw_r_1_0, #Hrn_rsccw_r_1_1, #Hrn_rsccw_r_2_0, #Hrn_rsccw_r_2_1, #Hrn_rsccw_r_3_0, #Hrn_rsccw_r_3_1, #Hrn_rsccw_r_4_0, #Hrn_rsccw_r_4_1, #Hrn_rsccw_r_5_0, #Hrn_rsccw_r_5_1, #Hrn_rsccw_r_6_0, #Hrn_rsccw_r_6_1, #Hrn_rsccw_r_7_0, #Hrn_rsccw_r_7_1, #Hrn_rsccw_r_8_0, #Hrn_rsccw_r_8_1, #Hrn_rsccw_r_9_0, #Hrn_rsccw_r_9_1, #Hrn_rsccw_r_10_0, #Hrn_rsccw_r_10_1, #Hrn_rsccw_r_11_0, #Hrn_rsccw_r_11_1, #Hrn_rsccw_r_12_0, #Hrn_rsccw_r_12_1, #Hrn_rsccw_r_13_0, #Hrn_rsccw_r_13_1, #Hrn_rsccw_r_14_0, #Hrn_rsccw_r_14_1, #Hrn_agccw_r_0_0, #Hrn_agccw_r_0_1, #Hrn_agccw_r_1_0, #Hrn_agccw_r_1_1, #Hrn_agccw_r_2_0, #Hrn_agccw_r_2_1, #Hrn_agccw_r_3_0, #Hrn_agccw_r_3_1, #Hrn_agccw_r_4_0, #Hrn_agccw_r_4_1, #Hrn_agccw_r_5_0, #Hrn_agccw_r_5_1, #Hrn_agccw_r_6_0, #Hrn_agccw_r_6_1, #Hrn_agccw_r_7_0, #Hrn_agccw_r_7_1, #Hrn_agccw_r_8_0, #Hrn_agccw_r_8_1, #Hrn_agccw_r_9_0, #Hrn_agccw_r_9_1, #Hrn_agccw_r_10_0, #Hrn_agccw_r_10_1, #Hrn_agccw_r_11_0, #Hrn_agccw_r_11_1, #Hrn_agccw_r_12_0, #Hrn_agccw_r_12_1, #Hrn_agccw_r_13_0, #Hrn_agccw_r_13_1, #Hrn_agccw_r_14_0, #Hrn_agccw_r_14_1, #Hrs_rscw_s_0_0, #Hrs_rscw_s_1_0, #Hrs_rscw_s_2_0, #Hrs_rscw_s_3_0, #Hrs_rsccw_s_0_0, #Hrs_rsccw_s_1_0, #Hrs_rsccw_s_2_0, #Hrs_rsccw_s_3_0, #Hrs_agcw_s_0_0, #Hrs_agcw_s_1_0, #Hrs_agcw_s_2_0, #Hrs_agcw_s_3_0, #Hrs_agccw_s_0_0, #Hrs_agccw_s_1_0, #Hrs_agccw_s_2_0, #Hrs_agccw_s_3_0, Ht_bp, Ht_bn, Htn_rscw_r_0_0, Htn_rscw_r_0_1, Htn_rscw_r_1_0, Htn_rscw_r_1_1, Htn_rscw_r_2_0, Htn_rscw_r_2_1, Htn_rscw_r_3_0, Htn_rscw_r_3_1, Htn_rscw_r_4_0, Htn_rscw_r_4_1, Htn_rscw_r_5_0, Htn_rscw_r_5_1, Htn_rscw_r_6_0, Htn_rscw_r_6_1, Htn_rscw_r_7_0, Htn_rscw_r_7_1, Htn_rscw_r_8_0, Htn_rscw_r_8_1, Htn_rscw_r_9_0, Htn_rscw_r_9_1, Htn_rscw_r_10_0, Htn_rscw_r_10_1, Htn_rscw_r_11_0, Htn_rscw_r_11_1, Htn_rscw_r_12_0, Htn_rscw_r_12_1, Htn_rscw_r_13_0, Htn_rscw_r_13_1, Htn_rscw_r_14_0, Htn_rscw_r_14_1, Htn_agcw_r_0_0, Htn_agcw_r_0_1, Htn_agcw_r_1_0, Htn_agcw_r_1_1, Htn_agcw_r_2_0, Htn_agcw_r_2_1, Htn_agcw_r_3_0, Htn_agcw_r_3_1, Htn_agcw_r_4_0, Htn_agcw_r_4_1, Htn_agcw_r_5_0, Htn_agcw_r_5_1, Htn_agcw_r_6_0, Htn_agcw_r_6_1, Htn_agcw_r_7_0, Htn_agcw_r_7_1, Htn_agcw_r_8_0, Htn_agcw_r_8_1, Htn_agcw_r_9_0, Htn_agcw_r_9_1, Htn_agcw_r_10_0, Htn_agcw_r_10_1, Htn_agcw_r_11_0, Htn_agcw_r_11_1, Htn_agcw_r_12_0, Htn_agcw_r_12_1, Htn_agcw_r_13_0, Htn_agcw_r_13_1, Htn_agcw_r_14_0, Htn_agcw_r_14_1, Htn_rsccw_r_0_0, Htn_rsccw_r_0_1, Htn_rsccw_r_1_0, Htn_rsccw_r_1_1, Htn_rsccw_r_2_0, Htn_rsccw_r_2_1, Htn_rsccw_r_3_0, Htn_rsccw_r_3_1, Htn_rsccw_r_4_0, Htn_rsccw_r_4_1, Htn_rsccw_r_5_0, Htn_rsccw_r_5_1, Htn_rsccw_r_6_0, Htn_rsccw_r_6_1, Htn_rsccw_r_7_0, Htn_rsccw_r_7_1, Htn_rsccw_r_8_0, Htn_rsccw_r_8_1, Htn_rsccw_r_9_0, Htn_rsccw_r_9_1, Htn_rsccw_r_10_0, Htn_rsccw_r_10_1, Htn_rsccw_r_11_0, Htn_rsccw_r_11_1, Htn_rsccw_r_12_0, Htn_rsccw_r_12_1, Htn_rsccw_r_13_0, Htn_rsccw_r_13_1, Htn_rsccw_r_14_0, Htn_rsccw_r_14_1, Htn_agccw_r_0_0, Htn_agccw_r_0_1, Htn_agccw_r_1_0, Htn_agccw_r_1_1, Htn_agccw_r_2_0, Htn_agccw_r_2_1, Htn_agccw_r_3_0, Htn_agccw_r_3_1, Htn_agccw_r_4_0, Htn_agccw_r_4_1, Htn_agccw_r_5_0, Htn_agccw_r_5_1, Htn_agccw_r_6_0, Htn_agccw_r_6_1, Htn_agccw_r_7_0, Htn_agccw_r_7_1, Htn_agccw_r_8_0, Htn_agccw_r_8_1, Htn_agccw_r_9_0, Htn_agccw_r_9_1, Htn_agccw_r_10_0, Htn_agccw_r_10_1, Htn_agccw_r_11_0, Htn_agccw_r_11_1, Htn_agccw_r_12_0, Htn_agccw_r_12_1, Htn_agccw_r_13_0, Htn_agccw_r_13_1, Htn_agccw_r_14_0, Htn_agccw_r_14_1, Hts_rscw_s_0_0, Hts_rscw_s_0_1, Hts_rscw_s_0_2, Hts_rscw_s_0_3, Hts_rscw_s_0_4, Hts_rscw_s_0_5, Hts_rscw_s_0_6, Hts_rscw_s_0_7, Hts_rscw_s_1_0, Hts_rscw_s_1_1, Hts_rscw_s_1_2, Hts_rscw_s_1_3, Hts_rscw_s_1_4, Hts_rscw_s_1_5, Hts_rscw_s_1_6, Hts_rscw_s_1_7, Hts_rscw_s_2_0, Hts_rscw_s_2_1, Hts_rscw_s_2_2, Hts_rscw_s_2_3, Hts_rscw_s_2_4, Hts_rscw_s_2_5, Hts_rscw_s_2_6, Hts_rscw_s_3_0, Hts_rscw_s_3_1, Hts_rscw_s_3_2, Hts_rscw_s_3_3, Hts_rscw_s_3_4, Hts_rscw_s_3_5, Hts_rscw_s_3_6, Hts_rsccw_s_0_0, Hts_rsccw_s_0_1, Hts_rsccw_s_0_2, Hts_rsccw_s_0_3, Hts_rsccw_s_0_4, Hts_rsccw_s_0_5, Hts_rsccw_s_0_6, Hts_rsccw_s_0_7, Hts_rsccw_s_1_0, Hts_rsccw_s_1_1, Hts_rsccw_s_1_2, Hts_rsccw_s_1_3, Hts_rsccw_s_1_4, Hts_rsccw_s_1_5, Hts_rsccw_s_1_6, Hts_rsccw_s_1_7, Hts_rsccw_s_2_0, Hts_rsccw_s_2_1, Hts_rsccw_s_2_2, Hts_rsccw_s_2_3, Hts_rsccw_s_2_4, Hts_rsccw_s_2_5, Hts_rsccw_s_2_6, Hts_rsccw_s_3_0, Hts_rsccw_s_3_1, Hts_rsccw_s_3_2, Hts_rsccw_s_3_3, Hts_rsccw_s_3_4, Hts_rsccw_s_3_5, Hts_rsccw_s_3_6, Hts_agcw_s_0_0, Hts_agcw_s_0_1, Hts_agcw_s_0_2, Hts_agcw_s_0_3, Hts_agcw_s_0_4, Hts_agcw_s_0_5, Hts_agcw_s_0_6, Hts_agcw_s_0_7, Hts_agcw_s_1_0, Hts_agcw_s_1_1, Hts_agcw_s_1_2, Hts_agcw_s_1_3, Hts_agcw_s_1_4, Hts_agcw_s_1_5, Hts_agcw_s_1_6, Hts_agcw_s_1_7, Hts_agcw_s_2_0, Hts_agcw_s_2_1, Hts_agcw_s_2_2, Hts_agcw_s_2_3, Hts_agcw_s_2_4, Hts_agcw_s_2_5, Hts_agcw_s_2_6, Hts_agcw_s_3_0, Hts_agcw_s_3_1, Hts_agcw_s_3_2, Hts_agcw_s_3_3, Hts_agcw_s_3_4, Hts_agcw_s_3_5, Hts_agcw_s_3_6, Hts_agccw_s_0_0, Hts_agccw_s_0_1, Hts_agccw_s_0_2, Hts_agccw_s_0_3, Hts_agccw_s_0_4, Hts_agccw_s_0_5, Hts_agccw_s_0_6, Hts_agccw_s_0_7, Hts_agccw_s_1_0, Hts_agccw_s_1_1, Hts_agccw_s_1_2, Hts_agccw_s_1_3, Hts_agccw_s_1_4, Hts_agccw_s_1_5, Hts_agccw_s_1_6, Hts_agccw_s_1_7, Hts_agccw_s_2_0, Hts_agccw_s_2_1, Hts_agccw_s_2_2, Hts_agccw_s_2_3, Hts_agccw_s_2_4, Hts_agccw_s_2_5, Hts_agccw_s_2_6, Hts_agccw_s_3_0, Hts_agccw_s_3_1, Hts_agccw_s_3_2, Hts_agccw_s_3_3, Hts_agccw_s_3_4, Hts_agccw_s_3_5, Hts_agccw_s_3_6, Hc_b, Hc_rscw_r_0_0, Hc_rscw_r_0_1, Hc_rscw_r_1_0, Hc_rscw_r_1_1, Hc_rscw_r_2_0, Hc_rscw_r_2_1, Hc_rscw_r_3_0, Hc_rscw_r_3_1, Hc_rscw_r_4_0, Hc_rscw_r_4_1, Hc_rscw_r_5_0, Hc_rscw_r_5_1, Hc_rscw_r_6_0, Hc_rscw_r_6_1, Hc_rscw_r_7_0, Hc_rscw_r_7_1, Hc_rscw_r_8_0, Hc_rscw_r_8_1, Hc_rscw_r_9_0, Hc_rscw_r_9_1, Hc_rscw_r_10_0, Hc_rscw_r_10_1, Hc_rscw_r_11_0, Hc_rscw_r_11_1, Hc_rscw_r_12_0, Hc_rscw_r_12_1, Hc_rscw_r_13_0, Hc_rscw_r_13_1, Hc_rscw_r_14_0, Hc_rscw_r_14_1, Hc_agcw_r_0_0, Hc_agcw_r_0_1, Hc_agcw_r_1_0, Hc_agcw_r_1_1, Hc_agcw_r_2_0, Hc_agcw_r_2_1, Hc_agcw_r_3_0, Hc_agcw_r_3_1, Hc_agcw_r_4_0, Hc_agcw_r_4_1, Hc_agcw_r_5_0, Hc_agcw_r_5_1, Hc_agcw_r_6_0, Hc_agcw_r_6_1, Hc_agcw_r_7_0, Hc_agcw_r_7_1, Hc_agcw_r_8_0, Hc_agcw_r_8_1, Hc_agcw_r_9_0, Hc_agcw_r_9_1, Hc_agcw_r_10_0, Hc_agcw_r_10_1, Hc_agcw_r_11_0, Hc_agcw_r_11_1, Hc_agcw_r_12_0, Hc_agcw_r_12_1, Hc_agcw_r_13_0, Hc_agcw_r_13_1, Hc_agcw_r_14_0, Hc_agcw_r_14_1, Hc_rsccw_r_0_0, Hc_rsccw_r_0_1, Hc_rsccw_r_1_0, Hc_rsccw_r_1_1, Hc_rsccw_r_2_0, Hc_rsccw_r_2_1, Hc_rsccw_r_3_0, Hc_rsccw_r_3_1, Hc_rsccw_r_4_0, Hc_rsccw_r_4_1, Hc_rsccw_r_5_0, Hc_rsccw_r_5_1, Hc_rsccw_r_6_0, Hc_rsccw_r_6_1, Hc_rsccw_r_7_0, Hc_rsccw_r_7_1, Hc_rsccw_r_8_0, Hc_rsccw_r_8_1, Hc_rsccw_r_9_0, Hc_rsccw_r_9_1, Hc_rsccw_r_10_0, Hc_rsccw_r_10_1, Hc_rsccw_r_11_0, Hc_rsccw_r_11_1, Hc_rsccw_r_12_0, Hc_rsccw_r_12_1, Hc_rsccw_r_13_0, Hc_rsccw_r_13_1, Hc_rsccw_r_14_0, Hc_rsccw_r_14_1, Hc_agccw_r_0_0, Hc_agccw_r_0_1, Hc_agccw_r_1_0, Hc_agccw_r_1_1, Hc_agccw_r_2_0, Hc_agccw_r_2_1, Hc_agccw_r_3_0, Hc_agccw_r_3_1, Hc_agccw_r_4_0, Hc_agccw_r_4_1, Hc_agccw_r_5_0, Hc_agccw_r_5_1, Hc_agccw_r_6_0, Hc_agccw_r_6_1, Hc_agccw_r_7_0, Hc_agccw_r_7_1, Hc_agccw_r_8_0, Hc_agccw_r_8_1, Hc_agccw_r_9_0, Hc_agccw_r_9_1, Hc_agccw_r_10_0, Hc_agccw_r_10_1, Hc_agccw_r_11_0, Hc_agccw_r_11_1, Hc_agccw_r_12_0, Hc_agccw_r_12_1, Hc_agccw_r_13_0, Hc_agccw_r_13_1, Hc_agccw_r_14_0, Hc_agccw_r_14_1, #Hlev, Hsl_cw, Hsl_ccw, HO, HxL, Hx_cw0, Hx_cw1, Hx_ccw0, Hx_ccw1, HxRest, Har_cw, Har_ccw, Hown_cw, Hown_ccw⟩, Hk⟩
  have hmwb := mayWait_bar (F := F) c
  unfold cc0_body
  sl_exec_parts
  ihave Hp := (Entails.of_eq (bar_rest X c)) $$ Hat_b_pay1
  icases Hp with ⟨⟨Hds_cw, Hdr_cw⟩, ⟨Hds_ccw, Hdr_ccw⟩⟩
  ihave H := (Entails.of_eq (allSlots_list_cw (F := F) (nxt c))) $$ Hds_cw
  icases H with ⟨Hd_rscw_r_0_0, Hd_rscw_r_0_1, Hd_rscw_r_1_0, Hd_rscw_r_1_1, Hd_rscw_r_2_0, Hd_rscw_r_2_1, Hd_rscw_r_3_0, Hd_rscw_r_3_1, Hd_rscw_r_4_0, Hd_rscw_r_4_1, Hd_rscw_r_5_0, Hd_rscw_r_5_1, Hd_rscw_r_6_0, Hd_rscw_r_6_1, Hd_rscw_r_7_0, Hd_rscw_r_7_1, Hd_rscw_r_8_0, Hd_rscw_r_8_1, Hd_rscw_r_9_0, Hd_rscw_r_9_1, Hd_rscw_r_10_0, Hd_rscw_r_10_1, Hd_rscw_r_11_0, Hd_rscw_r_11_1, Hd_rscw_r_12_0, Hd_rscw_r_12_1, Hd_rscw_r_13_0, Hd_rscw_r_13_1, Hd_rscw_r_14_0, Hd_rscw_r_14_1⟩
  ihave H := (Entails.of_eq (allRows_list_nxt (F := F) c)) $$ Hdr_cw
  icases H with ⟨Hd_agcw_r_0_0, Hd_agcw_r_0_1, Hd_agcw_r_1_0, Hd_agcw_r_1_1, Hd_agcw_r_2_0, Hd_agcw_r_2_1, Hd_agcw_r_3_0, Hd_agcw_r_3_1, Hd_agcw_r_4_0, Hd_agcw_r_4_1, Hd_agcw_r_5_0, Hd_agcw_r_5_1, Hd_agcw_r_6_0, Hd_agcw_r_6_1, Hd_agcw_r_7_0, Hd_agcw_r_7_1, Hd_agcw_r_8_0, Hd_agcw_r_8_1, Hd_agcw_r_9_0, Hd_agcw_r_9_1, Hd_agcw_r_10_0, Hd_agcw_r_10_1, Hd_agcw_r_11_0, Hd_agcw_r_11_1, Hd_agcw_r_12_0, Hd_agcw_r_12_1, Hd_agcw_r_13_0, Hd_agcw_r_13_1, Hd_agcw_r_14_0, Hd_agcw_r_14_1⟩
  ihave H := (Entails.of_eq (allSlots_list_ccw (F := F) (prv c))) $$ Hds_ccw
  icases H with ⟨Hd_rsccw_r_0_0, Hd_rsccw_r_0_1, Hd_rsccw_r_1_0, Hd_rsccw_r_1_1, Hd_rsccw_r_2_0, Hd_rsccw_r_2_1, Hd_rsccw_r_3_0, Hd_rsccw_r_3_1, Hd_rsccw_r_4_0, Hd_rsccw_r_4_1, Hd_rsccw_r_5_0, Hd_rsccw_r_5_1, Hd_rsccw_r_6_0, Hd_rsccw_r_6_1, Hd_rsccw_r_7_0, Hd_rsccw_r_7_1, Hd_rsccw_r_8_0, Hd_rsccw_r_8_1, Hd_rsccw_r_9_0, Hd_rsccw_r_9_1, Hd_rsccw_r_10_0, Hd_rsccw_r_10_1, Hd_rsccw_r_11_0, Hd_rsccw_r_11_1, Hd_rsccw_r_12_0, Hd_rsccw_r_12_1, Hd_rsccw_r_13_0, Hd_rsccw_r_13_1, Hd_rsccw_r_14_0, Hd_rsccw_r_14_1⟩
  ihave H := (Entails.of_eq (allRows_list_prv (F := F) c)) $$ Hdr_ccw
  icases H with ⟨Hd_agccw_r_0_0, Hd_agccw_r_0_1, Hd_agccw_r_1_0, Hd_agccw_r_1_1, Hd_agccw_r_2_0, Hd_agccw_r_2_1, Hd_agccw_r_3_0, Hd_agccw_r_3_1, Hd_agccw_r_4_0, Hd_agccw_r_4_1, Hd_agccw_r_5_0, Hd_agccw_r_5_1, Hd_agccw_r_6_0, Hd_agccw_r_6_1, Hd_agccw_r_7_0, Hd_agccw_r_7_1, Hd_agccw_r_8_0, Hd_agccw_r_8_1, Hd_agccw_r_9_0, Hd_agccw_r_9_1, Hd_agccw_r_10_0, Hd_agccw_r_10_1, Hd_agccw_r_11_0, Hd_agccw_r_11_1, Hd_agccw_r_12_0, Hd_agccw_r_12_1, Hd_agccw_r_13_0, Hd_agccw_r_13_1, Hd_agccw_r_14_0, Hd_agccw_r_14_1⟩
  -- send rs cw t=0 b=0 (payment 2, device function 3)
  try sl_exec_parts
  ihave HO := (owes_congr (rem_peel_2 c)) $$ HO
  ihave #HIo := (bigSepL_elim_idx ownQs _ 0 (by decide)) $$ HInvOwn
  ihave #HIt := (bigSepL_elim_idx recvCw _ 0 (by decide)) $$ HInbCw
  iapply (@send_pts_at F _ X c (nxt c) ⟨k0_dev3 c, k0_dev3_lt c⟩ (dev3_eq c _) (rows xM (off true (c.val + 15) 0) (off_inb true _ 0)) (slot aM 0 0 inb_S15x128x1024_S1x64x1024_0_0_0) _ (qS cc0_scratch2 0 inb_S4_S1_0) (qR cc0_scratch3 0 0 inb_S15x2_S1x1_0_0) _ _ _ _ _ _ fullShare.right (X c) 0 (K (dcell c (qS cc0_scratch2 0 inb_S4_S1_0))) (K (dcell (nxt c) (qR cc0_scratch3 0 0 inb_S15x2_S1x1_0_0))) _ (rem c 3) _ (by rw [duties_rscw_s_0_0 X c]; exact Finset.mem_singleton_self _) (by rw [duties_rscw_r_0_0 X (nxt c)]; exact Finset.mem_singleton_self _) (by exact amount_rscw_s_0_0 X c false) (by exact amount_rscw_r_0_0 X (nxt c) false) (by rfl) (by exact payload_rscw_s_0_0 X c false) (by exact hp2_rscw_r_0_0 X c) (by rfl) (by routes)) $$ [Hx_cw0 Hd_rscw_r_0_0 HO Hts_rscw_s_0_0 Htn_rscw_r_0_0]
  · isplitr; · iexact HIo
    isplitr; · iexact HIt
    isplitl [Hx_cw0]; · iexact Hx_cw0
    isplitl [Hd_rscw_r_0_0]; · iexact Hd_rscw_r_0_0
    isplitl [HO]; · iexact HO
    isplitl [Hts_rscw_s_0_0]; · iexact Hts_rscw_s_0_0
    isplitr; · iexact Hrs_rscw_s_0_0
    isplitl [Htn_rscw_r_0_0]; · iexact Htn_rscw_r_0_0
    iexact Hrn_rscw_r_0_0
  iintro ⟨Hcs_rscw_s_0_0, HO⟩
  iclear HIo HIt
  -- send rs cw t=0 b=1 (payment 3, device function 4)
  try sl_exec_parts
  ihave HO := (owes_congr (rem_peel_3 c)) $$ HO
  ihave #HIo := (bigSepL_elim_idx ownQs _ 1 (by decide)) $$ HInvOwn
  ihave #HIt := (bigSepL_elim_idx recvCw _ 1 (by decide)) $$ HInbCw
  iapply (@send_pts_at F _ X c (nxt c) ⟨k0_dev4 c, k0_dev4_lt c⟩ (dev4_eq c _) (rows xM (off true (c.val + 15) 1) (off_inb true _ 1)) (slot aM 0 64 inb_S15x128x1024_S1x64x1024_0_64_0) _ (qS cc0_scratch2 1 inb_S4_S1_1) (qR cc0_scratch3 0 1 inb_S15x2_S1x1_0_1) _ _ _ _ _ _ fullShare.right (X c) 0 (K (dcell c (qS cc0_scratch2 1 inb_S4_S1_1))) (K (dcell (nxt c) (qR cc0_scratch3 0 1 inb_S15x2_S1x1_0_1))) _ (rem c 4) _ (by rw [duties_rscw_s_1_0 X c]; exact Finset.mem_singleton_self _) (by rw [duties_rscw_r_0_1 X (nxt c)]; exact Finset.mem_singleton_self _) (by exact amount_rscw_s_1_0 X c false) (by exact amount_rscw_r_0_1 X (nxt c) false) (by rfl) (by exact payload_rscw_s_1_0 X c false) (by exact hp2_rscw_r_0_1 X c) (by rfl) (by routes)) $$ [Hx_cw1 Hd_rscw_r_0_1 HO Hts_rscw_s_1_0 Htn_rscw_r_0_1]
  · isplitr; · iexact HIo
    isplitr; · iexact HIt
    isplitl [Hx_cw1]; · iexact Hx_cw1
    isplitl [Hd_rscw_r_0_1]; · iexact Hd_rscw_r_0_1
    isplitl [HO]; · iexact HO
    isplitl [Hts_rscw_s_1_0]; · iexact Hts_rscw_s_1_0
    isplitr; · iexact Hrs_rscw_s_1_0
    isplitl [Htn_rscw_r_0_1]; · iexact Htn_rscw_r_0_1
    iexact Hrn_rscw_r_0_1
  iintro ⟨Hcs_rscw_s_1_0, HO⟩
  iclear HIo HIt
  -- send rs ccw t=0 b=0 (payment 4, device function 5)
  try sl_exec_parts
  ihave HO := (owes_congr (rem_peel_4 c)) $$ HO
  ihave #HIo := (bigSepL_elim_idx ownQs _ 4 (by decide)) $$ HInvOwn
  ihave #HIt := (bigSepL_elim_idx recvCcw _ 0 (by decide)) $$ HInbCcw
  iapply (@send_pts_at F _ X c (prv c) ⟨k0_dev5 c, k0_dev5_lt c⟩ (dev5_eq c _) (rows xM (off false (c.val + 1) 0) (off_inb false _ 0)) (slot bM 0 0 inb_S15x128x1024_S1x64x1024_0_0_0) _ (qS cc0_scratch4 0 inb_S4_S1_0) (qR cc0_scratch5 0 0 inb_S15x2_S1x1_0_0) _ _ _ _ _ _ fullShare.right (X c) 0 (K (dcell c (qS cc0_scratch4 0 inb_S4_S1_0))) (K (dcell (prv c) (qR cc0_scratch5 0 0 inb_S15x2_S1x1_0_0))) _ (rem c 5) _ (by rw [duties_rsccw_s_0_0 X c]; exact Finset.mem_singleton_self _) (by rw [duties_rsccw_r_0_0 X (prv c)]; exact Finset.mem_singleton_self _) (by exact amount_rsccw_s_0_0 X c false) (by exact amount_rsccw_r_0_0 X (prv c) false) (by rfl) (by exact payload_rsccw_s_0_0 X c false) (by exact hp2_rsccw_r_0_0 X c) (by rfl) (by routes)) $$ [Hx_ccw0 Hd_rsccw_r_0_0 HO Hts_rsccw_s_0_0 Htn_rsccw_r_0_0]
  · isplitr; · iexact HIo
    isplitr; · iexact HIt
    isplitl [Hx_ccw0]; · iexact Hx_ccw0
    isplitl [Hd_rsccw_r_0_0]; · iexact Hd_rsccw_r_0_0
    isplitl [HO]; · iexact HO
    isplitl [Hts_rsccw_s_0_0]; · iexact Hts_rsccw_s_0_0
    isplitr; · iexact Hrs_rsccw_s_0_0
    isplitl [Htn_rsccw_r_0_0]; · iexact Htn_rsccw_r_0_0
    iexact Hrn_rsccw_r_0_0
  iintro ⟨Hcs_rsccw_s_0_0, HO⟩
  iclear HIo HIt
  -- send rs ccw t=0 b=1 (payment 5, device function 6)
  try sl_exec_parts
  ihave HO := (owes_congr (rem_peel_5 c)) $$ HO
  ihave #HIo := (bigSepL_elim_idx ownQs _ 5 (by decide)) $$ HInvOwn
  ihave #HIt := (bigSepL_elim_idx recvCcw _ 1 (by decide)) $$ HInbCcw
  iapply (@send_pts_at F _ X c (prv c) ⟨k0_dev6 c, k0_dev6_lt c⟩ (dev6_eq c _) (rows xM (off false (c.val + 1) 1) (off_inb false _ 1)) (slot bM 0 64 inb_S15x128x1024_S1x64x1024_0_64_0) _ (qS cc0_scratch4 1 inb_S4_S1_1) (qR cc0_scratch5 0 1 inb_S15x2_S1x1_0_1) _ _ _ _ _ _ fullShare.right (X c) 0 (K (dcell c (qS cc0_scratch4 1 inb_S4_S1_1))) (K (dcell (prv c) (qR cc0_scratch5 0 1 inb_S15x2_S1x1_0_1))) _ (rem c 6) _ (by rw [duties_rsccw_s_1_0 X c]; exact Finset.mem_singleton_self _) (by rw [duties_rsccw_r_0_1 X (prv c)]; exact Finset.mem_singleton_self _) (by exact amount_rsccw_s_1_0 X c false) (by exact amount_rsccw_r_0_1 X (prv c) false) (by rfl) (by exact payload_rsccw_s_1_0 X c false) (by exact hp2_rsccw_r_0_1 X c) (by rfl) (by routes)) $$ [Hx_ccw1 Hd_rsccw_r_0_1 HO Hts_rsccw_s_1_0 Htn_rsccw_r_0_1]
  · isplitr; · iexact HIo
    isplitr; · iexact HIt
    isplitl [Hx_ccw1]; · iexact Hx_ccw1
    isplitl [Hd_rsccw_r_0_1]; · iexact Hd_rsccw_r_0_1
    isplitl [HO]; · iexact HO
    isplitl [Hts_rsccw_s_1_0]; · iexact Hts_rsccw_s_1_0
    isplitr; · iexact Hrs_rsccw_s_1_0
    isplitl [Htn_rsccw_r_0_1]; · iexact Htn_rsccw_r_0_1
    iexact Hrn_rsccw_r_0_1
  iintro ⟨Hcs_rsccw_s_1_0, HO⟩
  iclear HIo HIt
  -- wait recv rs cw t=0 b=0
  try sl_exec_parts
  ihave #HIo := (bigSepL_elim_idx ownQs _ 16 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 6) (W := _) (R := 0) (m := 0) (T := ∅)
      (by rw [Nat.zero_add, expect_rscw_r_0_0 X c])) $$ [Hc_rscw_r_0_0 HO Hat_rscw_r_0_0]
  · isplitr; · iexact HIo
    isplitl [Hc_rscw_r_0_0]; · iexact Hc_rscw_r_0_0
    isplitl [HO]; · iexact HO
    isplitr; · iapply (mayWait_rem (F := F) c 6 (by decide) _ (by show (4 : ℕ) < 2 + 6; decide)); iexact Hlev
    iexact Hat_rscw_r_0_0
  iintro ⟨HO, Hat_rscw_r_0_0, #Hrch_rscw_r_0_0_1, Hpay⟩
  iclear HIo
  ihave Hp := (Entails.of_eq (rest_single X _ _ _ (duties_rscw_r_0_0 X c) (payload_rscw_r_0_0 X c false))) $$ Hpay
  ihave Hq := (owns_elim _ _ _) $$ Hp
  icases Hq with ⟨%f_rscw_r_0_0, %hf_rscw_r_0_0, Hs_rscw_r_0_0⟩
  -- add cw s=0 b=0: the loads and the store run by themselves (within the next run)
  -- send rs cw t=1 b=0 (payment 6, device function 7)
  try sl_exec_parts
  ihave HO := (owes_congr (rem_peel_6 c)) $$ HO
  ihave #HIo := (bigSepL_elim_idx ownQs _ 2 (by decide)) $$ HInvOwn
  ihave #HIt := (bigSepL_elim_idx recvCw _ 2 (by decide)) $$ HInbCw
  iapply (@send_owns_at F _ X c (nxt c) ⟨k0_dev7 c, k0_dev7_lt c⟩ (dev7_eq c _) (slot aM 0 0 inb_S15x128x1024_S1x64x1024_0_0_0) (slot aM 1 0 inb_S15x128x1024_S1x64x1024_1_0_0) _ (qS cc0_scratch2 2 inb_S4_S1_2) (qR cc0_scratch3 1 0 inb_S15x2_S1x1_1_0) _ _ _ _ _ _ fullShare (addV X true 0 0 c) 0 (K (dcell c (qS cc0_scratch2 2 inb_S4_S1_2))) (K (dcell (nxt c) (qR cc0_scratch3 1 0 inb_S15x2_S1x1_1_0))) _ (rem c 7) _ (by rw [duties_rscw_s_2_0 X c]; exact Finset.mem_singleton_self _) (by rw [duties_rscw_r_1_0 X (nxt c)]; exact Finset.mem_singleton_self _) (by exact amount_rscw_s_2_0 X c false) (by exact amount_rscw_r_1_0 X (nxt c) false) (by rfl) (by exact payload_rscw_s_2_0 X c false) (by exact hp2_rscw_r_1_0 X c) (by rfl) (by routes)) $$ [Hs_rscw_r_0_0 Hd_rscw_r_1_0 HO Hts_rscw_s_2_0 Htn_rscw_r_1_0]
  · isplitr; · iexact HIo
    isplitr; · iexact HIt
    isplitl [Hs_rscw_r_0_0]; · iapply (owns_intro_add X true 0 0 0 c 14 aM _ f_rscw_r_0_0 _ _ _ rfl (off3_m2_0 c) hf_rscw_r_0_0 (addV_eq_cw_0_0 X c)); iexact Hs_rscw_r_0_0
    isplitl [Hd_rscw_r_1_0]; · iexact Hd_rscw_r_1_0
    isplitl [HO]; · iexact HO
    isplitl [Hts_rscw_s_2_0]; · iexact Hts_rscw_s_2_0
    isplitr; · iexact Hrs_rscw_s_2_0
    isplitl [Htn_rscw_r_1_0]; · iexact Htn_rscw_r_1_0
    iexact Hrn_rscw_r_1_0
  iintro ⟨Hcs_rscw_s_2_0, HO⟩
  iclear HIo HIt
  -- wait recv rs ccw t=0 b=0
  try sl_exec_parts
  ihave #HIo := (bigSepL_elim_idx ownQs _ 76 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 7) (W := _) (R := 0) (m := 0) (T := ∅)
      (by rw [Nat.zero_add, expect_rsccw_r_0_0 X c])) $$ [Hc_rsccw_r_0_0 HO Hat_rsccw_r_0_0]
  · isplitr; · iexact HIo
    isplitl [Hc_rsccw_r_0_0]; · iexact Hc_rsccw_r_0_0
    isplitl [HO]; · iexact HO
    isplitr; · iapply (mayWait_rem (F := F) c 7 (by decide) _ (by show (6 : ℕ) < 2 + 7; decide)); iexact Hlev
    iexact Hat_rsccw_r_0_0
  iintro ⟨HO, Hat_rsccw_r_0_0, #Hrch_rsccw_r_0_0_1, Hpay⟩
  iclear HIo
  ihave Hp := (Entails.of_eq (rest_single X _ _ _ (duties_rsccw_r_0_0 X c) (payload_rsccw_r_0_0 X c false))) $$ Hpay
  ihave Hq := (owns_elim _ _ _) $$ Hp
  icases Hq with ⟨%f_rsccw_r_0_0, %hf_rsccw_r_0_0, Hs_rsccw_r_0_0⟩
  -- add ccw s=0 b=0: the loads and the store run by themselves (within the next run)
  -- send rs ccw t=1 b=0 (payment 7, device function 8)
  try sl_exec_parts
  ihave HO := (owes_congr (rem_peel_7 c)) $$ HO
  ihave #HIo := (bigSepL_elim_idx ownQs _ 6 (by decide)) $$ HInvOwn
  ihave #HIt := (bigSepL_elim_idx recvCcw _ 2 (by decide)) $$ HInbCcw
  iapply (@send_owns_at F _ X c (prv c) ⟨k0_dev8 c, k0_dev8_lt c⟩ (dev8_eq c _) (slot bM 0 0 inb_S15x128x1024_S1x64x1024_0_0_0) (slot bM 1 0 inb_S15x128x1024_S1x64x1024_1_0_0) _ (qS cc0_scratch4 2 inb_S4_S1_2) (qR cc0_scratch5 1 0 inb_S15x2_S1x1_1_0) _ _ _ _ _ _ fullShare (addV X false 0 0 c) 0 (K (dcell c (qS cc0_scratch4 2 inb_S4_S1_2))) (K (dcell (prv c) (qR cc0_scratch5 1 0 inb_S15x2_S1x1_1_0))) _ (rem c 8) _ (by rw [duties_rsccw_s_2_0 X c]; exact Finset.mem_singleton_self _) (by rw [duties_rsccw_r_1_0 X (prv c)]; exact Finset.mem_singleton_self _) (by exact amount_rsccw_s_2_0 X c false) (by exact amount_rsccw_r_1_0 X (prv c) false) (by rfl) (by exact payload_rsccw_s_2_0 X c false) (by exact hp2_rsccw_r_1_0 X c) (by rfl) (by routes)) $$ [Hs_rsccw_r_0_0 Hd_rsccw_r_1_0 HO Hts_rsccw_s_2_0 Htn_rsccw_r_1_0]
  · isplitr; · iexact HIo
    isplitr; · iexact HIt
    isplitl [Hs_rsccw_r_0_0]; · iapply (owns_intro_add X false 0 0 0 c 2 bM _ f_rsccw_r_0_0 _ _ _ rfl (off4_2_0 c) hf_rsccw_r_0_0 (addV_eq_ccw_0_0 X c)); iexact Hs_rsccw_r_0_0
    isplitl [Hd_rsccw_r_1_0]; · iexact Hd_rsccw_r_1_0
    isplitl [HO]; · iexact HO
    isplitl [Hts_rsccw_s_2_0]; · iexact Hts_rsccw_s_2_0
    isplitr; · iexact Hrs_rsccw_s_2_0
    isplitl [Htn_rsccw_r_1_0]; · iexact Htn_rsccw_r_1_0
    iexact Hrn_rsccw_r_1_0
  iintro ⟨Hcs_rsccw_s_2_0, HO⟩
  iclear HIo HIt
  -- wait recv rs cw t=0 b=1
  try sl_exec_parts
  ihave #HIo := (bigSepL_elim_idx ownQs _ 17 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 8) (W := _) (R := 0) (m := 0) (T := ∅)
      (by rw [Nat.zero_add, expect_rscw_r_0_1 X c])) $$ [Hc_rscw_r_0_1 HO Hat_rscw_r_0_1]
  · isplitr; · iexact HIo
    isplitl [Hc_rscw_r_0_1]; · iexact Hc_rscw_r_0_1
    isplitl [HO]; · iexact HO
    isplitr; · iapply (mayWait_rem (F := F) c 8 (by decide) _ (by show (5 : ℕ) < 2 + 8; decide)); iexact Hlev
    iexact Hat_rscw_r_0_1
  iintro ⟨HO, Hat_rscw_r_0_1, #Hrch_rscw_r_0_1_1, Hpay⟩
  iclear HIo
  ihave Hp := (Entails.of_eq (rest_single X _ _ _ (duties_rscw_r_0_1 X c) (payload_rscw_r_0_1 X c false))) $$ Hpay
  ihave Hq := (owns_elim _ _ _) $$ Hp
  icases Hq with ⟨%f_rscw_r_0_1, %hf_rscw_r_0_1, Hs_rscw_r_0_1⟩
  -- add cw s=0 b=1: the loads and the store run by themselves (within the next run)
  -- send rs cw t=1 b=1 (payment 8, device function 9)
  try sl_exec_parts
  ihave HO := (owes_congr (rem_peel_8 c)) $$ HO
  ihave #HIo := (bigSepL_elim_idx ownQs _ 3 (by decide)) $$ HInvOwn
  ihave #HIt := (bigSepL_elim_idx recvCw _ 3 (by decide)) $$ HInbCw
  iapply (@send_owns_at F _ X c (nxt c) ⟨k0_dev9 c, k0_dev9_lt c⟩ (dev9_eq c _) (slot aM 0 64 inb_S15x128x1024_S1x64x1024_0_64_0) (slot aM 1 64 inb_S15x128x1024_S1x64x1024_1_64_0) _ (qS cc0_scratch2 3 inb_S4_S1_3) (qR cc0_scratch3 1 1 inb_S15x2_S1x1_1_1) _ _ _ _ _ _ fullShare (addV X true 1 0 c) 0 (K (dcell c (qS cc0_scratch2 3 inb_S4_S1_3))) (K (dcell (nxt c) (qR cc0_scratch3 1 1 inb_S15x2_S1x1_1_1))) _ (rem c 9) _ (by rw [duties_rscw_s_3_0 X c]; exact Finset.mem_singleton_self _) (by rw [duties_rscw_r_1_1 X (nxt c)]; exact Finset.mem_singleton_self _) (by exact amount_rscw_s_3_0 X c false) (by exact amount_rscw_r_1_1 X (nxt c) false) (by rfl) (by exact payload_rscw_s_3_0 X c false) (by exact hp2_rscw_r_1_1 X c) (by rfl) (by routes)) $$ [Hs_rscw_r_0_1 Hd_rscw_r_1_1 HO Hts_rscw_s_3_0 Htn_rscw_r_1_1]
  · isplitr; · iexact HIo
    isplitr; · iexact HIt
    isplitl [Hs_rscw_r_0_1]; · iapply (owns_intro_add X true 0 64 1 c 14 aM _ f_rscw_r_0_1 _ _ _ rfl (off3_m2_64 c) hf_rscw_r_0_1 (addV_eq_cw_0_1 X c)); iexact Hs_rscw_r_0_1
    isplitl [Hd_rscw_r_1_1]; · iexact Hd_rscw_r_1_1
    isplitl [HO]; · iexact HO
    isplitl [Hts_rscw_s_3_0]; · iexact Hts_rscw_s_3_0
    isplitr; · iexact Hrs_rscw_s_3_0
    isplitl [Htn_rscw_r_1_1]; · iexact Htn_rscw_r_1_1
    iexact Hrn_rscw_r_1_1
  iintro ⟨Hcs_rscw_s_3_0, HO⟩
  iclear HIo HIt
  -- wait recv rs ccw t=0 b=1
  try sl_exec_parts
  ihave #HIo := (bigSepL_elim_idx ownQs _ 77 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 9) (W := _) (R := 0) (m := 0) (T := ∅)
      (by rw [Nat.zero_add, expect_rsccw_r_0_1 X c])) $$ [Hc_rsccw_r_0_1 HO Hat_rsccw_r_0_1]
  · isplitr; · iexact HIo
    isplitl [Hc_rsccw_r_0_1]; · iexact Hc_rsccw_r_0_1
    isplitl [HO]; · iexact HO
    isplitr; · iapply (mayWait_rem (F := F) c 9 (by decide) _ (by show (7 : ℕ) < 2 + 9; decide)); iexact Hlev
    iexact Hat_rsccw_r_0_1
  iintro ⟨HO, Hat_rsccw_r_0_1, #Hrch_rsccw_r_0_1_1, Hpay⟩
  iclear HIo
  ihave Hp := (Entails.of_eq (rest_single X _ _ _ (duties_rsccw_r_0_1 X c) (payload_rsccw_r_0_1 X c false))) $$ Hpay
  ihave Hq := (owns_elim _ _ _) $$ Hp
  icases Hq with ⟨%f_rsccw_r_0_1, %hf_rsccw_r_0_1, Hs_rsccw_r_0_1⟩
  -- add ccw s=0 b=1: the loads and the store run by themselves (within the next run)
  -- send rs ccw t=1 b=1 (payment 9, device function 10)
  try sl_exec_parts
  ihave HO := (owes_congr (rem_peel_9 c)) $$ HO
  ihave #HIo := (bigSepL_elim_idx ownQs _ 7 (by decide)) $$ HInvOwn
  ihave #HIt := (bigSepL_elim_idx recvCcw _ 3 (by decide)) $$ HInbCcw
  iapply (@send_owns_at F _ X c (prv c) ⟨k0_dev10 c, k0_dev10_lt c⟩ (dev10_eq c _) (slot bM 0 64 inb_S15x128x1024_S1x64x1024_0_64_0) (slot bM 1 64 inb_S15x128x1024_S1x64x1024_1_64_0) _ (qS cc0_scratch4 3 inb_S4_S1_3) (qR cc0_scratch5 1 1 inb_S15x2_S1x1_1_1) _ _ _ _ _ _ fullShare (addV X false 1 0 c) 0 (K (dcell c (qS cc0_scratch4 3 inb_S4_S1_3))) (K (dcell (prv c) (qR cc0_scratch5 1 1 inb_S15x2_S1x1_1_1))) _ (rem c 10) _ (by rw [duties_rsccw_s_3_0 X c]; exact Finset.mem_singleton_self _) (by rw [duties_rsccw_r_1_1 X (prv c)]; exact Finset.mem_singleton_self _) (by exact amount_rsccw_s_3_0 X c false) (by exact amount_rsccw_r_1_1 X (prv c) false) (by rfl) (by exact payload_rsccw_s_3_0 X c false) (by exact hp2_rsccw_r_1_1 X c) (by rfl) (by routes)) $$ [Hs_rsccw_r_0_1 Hd_rsccw_r_1_1 HO Hts_rsccw_s_3_0 Htn_rsccw_r_1_1]
  · isplitr; · iexact HIo
    isplitr; · iexact HIt
    isplitl [Hs_rsccw_r_0_1]; · iapply (owns_intro_add X false 0 64 1 c 2 bM _ f_rsccw_r_0_1 _ _ _ rfl (off4_2_64 c) hf_rsccw_r_0_1 (addV_eq_ccw_0_1 X c)); iexact Hs_rsccw_r_0_1
    isplitl [Hd_rsccw_r_1_1]; · iexact Hd_rsccw_r_1_1
    isplitl [HO]; · iexact HO
    isplitl [Hts_rsccw_s_3_0]; · iexact Hts_rsccw_s_3_0
    isplitr; · iexact Hrs_rsccw_s_3_0
    isplitl [Htn_rsccw_r_1_1]; · iexact Htn_rsccw_r_1_1
    iexact Hrn_rsccw_r_1_1
  iintro ⟨Hcs_rsccw_s_3_0, HO⟩
  iclear HIo HIt
  -- wait recv rs cw t=1 b=0
  try sl_exec_parts
  ihave #HIo := (bigSepL_elim_idx ownQs _ 18 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 10) (W := _) (R := 0) (m := 0) (T := ∅)
      (by rw [Nat.zero_add, expect_rscw_r_1_0 X c])) $$ [Hc_rscw_r_1_0 HO Hat_rscw_r_1_0]
  · isplitr; · iexact HIo
    isplitl [Hc_rscw_r_1_0]; · iexact Hc_rscw_r_1_0
    isplitl [HO]; · iexact HO
    isplitr; · iapply (mayWait_rem (F := F) c 10 (by decide) _ (by show (8 : ℕ) < 2 + 10; decide)); iexact Hlev
    iexact Hat_rscw_r_1_0
  iintro ⟨HO, Hat_rscw_r_1_0, #Hrch_rscw_r_1_0_1, Hpay⟩
  iclear HIo
  ihave Hp := (Entails.of_eq (rest_single X _ _ _ (duties_rscw_r_1_0 X c) (payload_rscw_r_1_0 X c false))) $$ Hpay
  ihave Hq := (owns_elim _ _ _) $$ Hp
  icases Hq with ⟨%f_rscw_r_1_0, %hf_rscw_r_1_0, Hs_rscw_r_1_0⟩
  -- add cw s=1 b=0: the loads and the store run by themselves (within the next run)
  -- wait send rs cw t=0 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 10) (W := _) (R := 0) (m := 0) (T := ∅)
      (by rw [Nat.zero_add, expect_rscw_s_0_0 X c])) $$ [Hcs_rscw_s_0_0 HO Hat_rscw_s_0]
  · isplitr; · iexact HIo
    isplitl [Hcs_rscw_s_0_0]; · iexact Hcs_rscw_s_0_0
    isplitl [HO]; · iexact HO
    isplitr; · iapply (mayWait_rem (F := F) c 10 (by decide) _ (by show (0 : ℕ) < 2 + 10; decide)); iexact Hlev
    iexact Hat_rscw_s_0
  iintro ⟨HO, Hat_rscw_s_0, #Hrch_rscw_s_0_1, Hpay⟩
  iclear HIo
  ihave Hp := (Entails.of_eq (rest_single X _ _ _ (duties_rscw_s_0_0 X c) (payload_rscw_s_0_0 X c false))) $$ Hpay
  irename Hp => Hx_cw0
  -- send rs cw t=2 b=0 (payment 10, device function 11)
  try sl_exec_parts
  ihave HO := (owes_congr (rem_peel_10 c)) $$ HO
  ihave #HIo := (bigSepL_elim_idx ownQs _ 0 (by decide)) $$ HInvOwn
  ihave #HIt := (bigSepL_elim_idx recvCw _ 4 (by decide)) $$ HInbCw
  iapply (@send_owns_at F _ X c (nxt c) ⟨k0_dev11 c, k0_dev11_lt c⟩ (dev11_eq c _) (slot aM 1 0 inb_S15x128x1024_S1x64x1024_1_0_0) (slot aM 2 0 inb_S15x128x1024_S1x64x1024_2_0_0) _ (qS cc0_scratch2 0 inb_S4_S1_0) (qR cc0_scratch3 2 0 inb_S15x2_S1x1_2_0) _ _ _ _ _ _ fullShare (addV X true 0 1 c) 1 (K (dcell c (qS cc0_scratch2 0 inb_S4_S1_0))) (K (dcell (nxt c) (qR cc0_scratch3 2 0 inb_S15x2_S1x1_2_0))) _ (rem c 11) _ (by rw [duties_rscw_s_0_1 X c]; exact Finset.mem_singleton_self _) (by rw [duties_rscw_r_2_0 X (nxt c)]; exact Finset.mem_singleton_self _) (by exact amount_rscw_s_0_1 X c false) (by exact amount_rscw_r_2_0 X (nxt c) false) (by rfl) (by exact payload_rscw_s_0_1 X c false) (by exact hp2_rscw_r_2_0 X c) (by rfl) (by routes)) $$ [Hs_rscw_r_1_0 Hd_rscw_r_2_0 HO Hts_rscw_s_0_1 Htn_rscw_r_2_0]
  · isplitr; · iexact HIo
    isplitr; · iexact HIt
    isplitl [Hs_rscw_r_1_0]; · iapply (owns_intro_add X true 1 0 0 c 13 aM _ f_rscw_r_1_0 _ _ _ rfl (off3_m3_0 c) hf_rscw_r_1_0 (addV_eq_cw_1_0 X c)); iexact Hs_rscw_r_1_0
    isplitl [Hd_rscw_r_2_0]; · iexact Hd_rscw_r_2_0
    isplitl [HO]; · iexact HO
    isplitl [Hts_rscw_s_0_1]; · iexact Hts_rscw_s_0_1
    isplitr; · iexact Hrch_rscw_s_0_1
    isplitl [Htn_rscw_r_2_0]; · iexact Htn_rscw_r_2_0
    iexact Hrn_rscw_r_2_0
  iintro ⟨Hcs_rscw_s_0_1, HO⟩
  iclear HIo HIt
  -- wait recv rs ccw t=1 b=0
  try sl_exec_parts
  ihave #HIo := (bigSepL_elim_idx ownQs _ 78 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 11) (W := _) (R := 0) (m := 0) (T := ∅)
      (by rw [Nat.zero_add, expect_rsccw_r_1_0 X c])) $$ [Hc_rsccw_r_1_0 HO Hat_rsccw_r_1_0]
  · isplitr; · iexact HIo
    isplitl [Hc_rsccw_r_1_0]; · iexact Hc_rsccw_r_1_0
    isplitl [HO]; · iexact HO
    isplitr; · iapply (mayWait_rem (F := F) c 11 (by decide) _ (by show (9 : ℕ) < 2 + 11; decide)); iexact Hlev
    iexact Hat_rsccw_r_1_0
  iintro ⟨HO, Hat_rsccw_r_1_0, #Hrch_rsccw_r_1_0_1, Hpay⟩
  iclear HIo
  ihave Hp := (Entails.of_eq (rest_single X _ _ _ (duties_rsccw_r_1_0 X c) (payload_rsccw_r_1_0 X c false))) $$ Hpay
  ihave Hq := (owns_elim _ _ _) $$ Hp
  icases Hq with ⟨%f_rsccw_r_1_0, %hf_rsccw_r_1_0, Hs_rsccw_r_1_0⟩
  -- add ccw s=1 b=0: the loads and the store run by themselves (within the next run)
  -- wait send rs ccw t=0 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 11) (W := _) (R := 0) (m := 0) (T := ∅)
      (by rw [Nat.zero_add, expect_rsccw_s_0_0 X c])) $$ [Hcs_rsccw_s_0_0 HO Hat_rsccw_s_0]
  · isplitr; · iexact HIo
    isplitl [Hcs_rsccw_s_0_0]; · iexact Hcs_rsccw_s_0_0
    isplitl [HO]; · iexact HO
    isplitr; · iapply (mayWait_rem (F := F) c 11 (by decide) _ (by show (0 : ℕ) < 2 + 11; decide)); iexact Hlev
    iexact Hat_rsccw_s_0
  iintro ⟨HO, Hat_rsccw_s_0, #Hrch_rsccw_s_0_1, Hpay⟩
  iclear HIo
  ihave Hp := (Entails.of_eq (rest_single X _ _ _ (duties_rsccw_s_0_0 X c) (payload_rsccw_s_0_0 X c false))) $$ Hpay
  irename Hp => Hx_ccw0
  -- send rs ccw t=2 b=0 (payment 11, device function 12)
  try sl_exec_parts
  ihave HO := (owes_congr (rem_peel_11 c)) $$ HO
  ihave #HIo := (bigSepL_elim_idx ownQs _ 4 (by decide)) $$ HInvOwn
  ihave #HIt := (bigSepL_elim_idx recvCcw _ 4 (by decide)) $$ HInbCcw
  iapply (@send_owns_at F _ X c (prv c) ⟨k0_dev12 c, k0_dev12_lt c⟩ (dev12_eq c _) (slot bM 1 0 inb_S15x128x1024_S1x64x1024_1_0_0) (slot bM 2 0 inb_S15x128x1024_S1x64x1024_2_0_0) _ (qS cc0_scratch4 0 inb_S4_S1_0) (qR cc0_scratch5 2 0 inb_S15x2_S1x1_2_0) _ _ _ _ _ _ fullShare (addV X false 0 1 c) 1 (K (dcell c (qS cc0_scratch4 0 inb_S4_S1_0))) (K (dcell (prv c) (qR cc0_scratch5 2 0 inb_S15x2_S1x1_2_0))) _ (rem c 12) _ (by rw [duties_rsccw_s_0_1 X c]; exact Finset.mem_singleton_self _) (by rw [duties_rsccw_r_2_0 X (prv c)]; exact Finset.mem_singleton_self _) (by exact amount_rsccw_s_0_1 X c false) (by exact amount_rsccw_r_2_0 X (prv c) false) (by rfl) (by exact payload_rsccw_s_0_1 X c false) (by exact hp2_rsccw_r_2_0 X c) (by rfl) (by routes)) $$ [Hs_rsccw_r_1_0 Hd_rsccw_r_2_0 HO Hts_rsccw_s_0_1 Htn_rsccw_r_2_0]
  · isplitr; · iexact HIo
    isplitr; · iexact HIt
    isplitl [Hs_rsccw_r_1_0]; · iapply (owns_intro_add X false 1 0 0 c 3 bM _ f_rsccw_r_1_0 _ _ _ rfl (off4_3_0 c) hf_rsccw_r_1_0 (addV_eq_ccw_1_0 X c)); iexact Hs_rsccw_r_1_0
    isplitl [Hd_rsccw_r_2_0]; · iexact Hd_rsccw_r_2_0
    isplitl [HO]; · iexact HO
    isplitl [Hts_rsccw_s_0_1]; · iexact Hts_rsccw_s_0_1
    isplitr; · iexact Hrch_rsccw_s_0_1
    isplitl [Htn_rsccw_r_2_0]; · iexact Htn_rsccw_r_2_0
    iexact Hrn_rsccw_r_2_0
  iintro ⟨Hcs_rsccw_s_0_1, HO⟩
  iclear HIo HIt
  -- wait recv rs cw t=1 b=1
  try sl_exec_parts
  ihave #HIo := (bigSepL_elim_idx ownQs _ 19 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 12) (W := _) (R := 0) (m := 0) (T := ∅)
      (by rw [Nat.zero_add, expect_rscw_r_1_1 X c])) $$ [Hc_rscw_r_1_1 HO Hat_rscw_r_1_1]
  · isplitr; · iexact HIo
    isplitl [Hc_rscw_r_1_1]; · iexact Hc_rscw_r_1_1
    isplitl [HO]; · iexact HO
    isplitr; · iapply (mayWait_rem (F := F) c 12 (by decide) _ (by show (10 : ℕ) < 2 + 12; decide)); iexact Hlev
    iexact Hat_rscw_r_1_1
  iintro ⟨HO, Hat_rscw_r_1_1, #Hrch_rscw_r_1_1_1, Hpay⟩
  iclear HIo
  ihave Hp := (Entails.of_eq (rest_single X _ _ _ (duties_rscw_r_1_1 X c) (payload_rscw_r_1_1 X c false))) $$ Hpay
  ihave Hq := (owns_elim _ _ _) $$ Hp
  icases Hq with ⟨%f_rscw_r_1_1, %hf_rscw_r_1_1, Hs_rscw_r_1_1⟩
  -- add cw s=1 b=1: the loads and the store run by themselves (within the next run)
  -- wait send rs cw t=0 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 12) (W := _) (R := 0) (m := 0) (T := ∅)
      (by rw [Nat.zero_add, expect_rscw_s_1_0 X c])) $$ [Hcs_rscw_s_1_0 HO Hat_rscw_s_1]
  · isplitr; · iexact HIo
    isplitl [Hcs_rscw_s_1_0]; · iexact Hcs_rscw_s_1_0
    isplitl [HO]; · iexact HO
    isplitr; · iapply (mayWait_rem (F := F) c 12 (by decide) _ (by show (0 : ℕ) < 2 + 12; decide)); iexact Hlev
    iexact Hat_rscw_s_1
  iintro ⟨HO, Hat_rscw_s_1, #Hrch_rscw_s_1_1, Hpay⟩
  iclear HIo
  ihave Hp := (Entails.of_eq (rest_single X _ _ _ (duties_rscw_s_1_0 X c) (payload_rscw_s_1_0 X c false))) $$ Hpay
  irename Hp => Hx_cw1
  -- send rs cw t=2 b=1 (payment 12, device function 13)
  try sl_exec_parts
  ihave HO := (owes_congr (rem_peel_12 c)) $$ HO
  ihave #HIo := (bigSepL_elim_idx ownQs _ 1 (by decide)) $$ HInvOwn
  ihave #HIt := (bigSepL_elim_idx recvCw _ 5 (by decide)) $$ HInbCw
  iapply (@send_owns_at F _ X c (nxt c) ⟨k0_dev13 c, k0_dev13_lt c⟩ (dev13_eq c _) (slot aM 1 64 inb_S15x128x1024_S1x64x1024_1_64_0) (slot aM 2 64 inb_S15x128x1024_S1x64x1024_2_64_0) _ (qS cc0_scratch2 1 inb_S4_S1_1) (qR cc0_scratch3 2 1 inb_S15x2_S1x1_2_1) _ _ _ _ _ _ fullShare (addV X true 1 1 c) 1 (K (dcell c (qS cc0_scratch2 1 inb_S4_S1_1))) (K (dcell (nxt c) (qR cc0_scratch3 2 1 inb_S15x2_S1x1_2_1))) _ (rem c 13) _ (by rw [duties_rscw_s_1_1 X c]; exact Finset.mem_singleton_self _) (by rw [duties_rscw_r_2_1 X (nxt c)]; exact Finset.mem_singleton_self _) (by exact amount_rscw_s_1_1 X c false) (by exact amount_rscw_r_2_1 X (nxt c) false) (by rfl) (by exact payload_rscw_s_1_1 X c false) (by exact hp2_rscw_r_2_1 X c) (by rfl) (by routes)) $$ [Hs_rscw_r_1_1 Hd_rscw_r_2_1 HO Hts_rscw_s_1_1 Htn_rscw_r_2_1]
  · isplitr; · iexact HIo
    isplitr; · iexact HIt
    isplitl [Hs_rscw_r_1_1]; · iapply (owns_intro_add X true 1 64 1 c 13 aM _ f_rscw_r_1_1 _ _ _ rfl (off3_m3_64 c) hf_rscw_r_1_1 (addV_eq_cw_1_1 X c)); iexact Hs_rscw_r_1_1
    isplitl [Hd_rscw_r_2_1]; · iexact Hd_rscw_r_2_1
    isplitl [HO]; · iexact HO
    isplitl [Hts_rscw_s_1_1]; · iexact Hts_rscw_s_1_1
    isplitr; · iexact Hrch_rscw_s_1_1
    isplitl [Htn_rscw_r_2_1]; · iexact Htn_rscw_r_2_1
    iexact Hrn_rscw_r_2_1
  iintro ⟨Hcs_rscw_s_1_1, HO⟩
  iclear HIo HIt
  -- wait recv rs ccw t=1 b=1
  try sl_exec_parts
  ihave #HIo := (bigSepL_elim_idx ownQs _ 79 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 13) (W := _) (R := 0) (m := 0) (T := ∅)
      (by rw [Nat.zero_add, expect_rsccw_r_1_1 X c])) $$ [Hc_rsccw_r_1_1 HO Hat_rsccw_r_1_1]
  · isplitr; · iexact HIo
    isplitl [Hc_rsccw_r_1_1]; · iexact Hc_rsccw_r_1_1
    isplitl [HO]; · iexact HO
    isplitr; · iapply (mayWait_rem (F := F) c 13 (by decide) _ (by show (11 : ℕ) < 2 + 13; decide)); iexact Hlev
    iexact Hat_rsccw_r_1_1
  iintro ⟨HO, Hat_rsccw_r_1_1, #Hrch_rsccw_r_1_1_1, Hpay⟩
  iclear HIo
  ihave Hp := (Entails.of_eq (rest_single X _ _ _ (duties_rsccw_r_1_1 X c) (payload_rsccw_r_1_1 X c false))) $$ Hpay
  ihave Hq := (owns_elim _ _ _) $$ Hp
  icases Hq with ⟨%f_rsccw_r_1_1, %hf_rsccw_r_1_1, Hs_rsccw_r_1_1⟩
  -- add ccw s=1 b=1: the loads and the store run by themselves (within the next run)
  -- wait send rs ccw t=0 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 13) (W := _) (R := 0) (m := 0) (T := ∅)
      (by rw [Nat.zero_add, expect_rsccw_s_1_0 X c])) $$ [Hcs_rsccw_s_1_0 HO Hat_rsccw_s_1]
  · isplitr; · iexact HIo
    isplitl [Hcs_rsccw_s_1_0]; · iexact Hcs_rsccw_s_1_0
    isplitl [HO]; · iexact HO
    isplitr; · iapply (mayWait_rem (F := F) c 13 (by decide) _ (by show (0 : ℕ) < 2 + 13; decide)); iexact Hlev
    iexact Hat_rsccw_s_1
  iintro ⟨HO, Hat_rsccw_s_1, #Hrch_rsccw_s_1_1, Hpay⟩
  iclear HIo
  ihave Hp := (Entails.of_eq (rest_single X _ _ _ (duties_rsccw_s_1_0 X c) (payload_rsccw_s_1_0 X c false))) $$ Hpay
  irename Hp => Hx_ccw1
  -- send rs ccw t=2 b=1 (payment 13, device function 14)
  try sl_exec_parts
  ihave HO := (owes_congr (rem_peel_13 c)) $$ HO
  ihave #HIo := (bigSepL_elim_idx ownQs _ 5 (by decide)) $$ HInvOwn
  ihave #HIt := (bigSepL_elim_idx recvCcw _ 5 (by decide)) $$ HInbCcw
  iapply (@send_owns_at F _ X c (prv c) ⟨k0_dev14 c, k0_dev14_lt c⟩ (dev14_eq c _) (slot bM 1 64 inb_S15x128x1024_S1x64x1024_1_64_0) (slot bM 2 64 inb_S15x128x1024_S1x64x1024_2_64_0) _ (qS cc0_scratch4 1 inb_S4_S1_1) (qR cc0_scratch5 2 1 inb_S15x2_S1x1_2_1) _ _ _ _ _ _ fullShare (addV X false 1 1 c) 1 (K (dcell c (qS cc0_scratch4 1 inb_S4_S1_1))) (K (dcell (prv c) (qR cc0_scratch5 2 1 inb_S15x2_S1x1_2_1))) _ (rem c 14) _ (by rw [duties_rsccw_s_1_1 X c]; exact Finset.mem_singleton_self _) (by rw [duties_rsccw_r_2_1 X (prv c)]; exact Finset.mem_singleton_self _) (by exact amount_rsccw_s_1_1 X c false) (by exact amount_rsccw_r_2_1 X (prv c) false) (by rfl) (by exact payload_rsccw_s_1_1 X c false) (by exact hp2_rsccw_r_2_1 X c) (by rfl) (by routes)) $$ [Hs_rsccw_r_1_1 Hd_rsccw_r_2_1 HO Hts_rsccw_s_1_1 Htn_rsccw_r_2_1]
  · isplitr; · iexact HIo
    isplitr; · iexact HIt
    isplitl [Hs_rsccw_r_1_1]; · iapply (owns_intro_add X false 1 64 1 c 3 bM _ f_rsccw_r_1_1 _ _ _ rfl (off4_3_64 c) hf_rsccw_r_1_1 (addV_eq_ccw_1_1 X c)); iexact Hs_rsccw_r_1_1
    isplitl [Hd_rsccw_r_2_1]; · iexact Hd_rsccw_r_2_1
    isplitl [HO]; · iexact HO
    isplitl [Hts_rsccw_s_1_1]; · iexact Hts_rsccw_s_1_1
    isplitr; · iexact Hrch_rsccw_s_1_1
    isplitl [Htn_rsccw_r_2_1]; · iexact Htn_rsccw_r_2_1
    iexact Hrn_rsccw_r_2_1
  iintro ⟨Hcs_rsccw_s_1_1, HO⟩
  iclear HIo HIt
  -- wait recv rs cw t=2 b=0
  try sl_exec_parts
  ihave #HIo := (bigSepL_elim_idx ownQs _ 20 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 14) (W := _) (R := 0) (m := 0) (T := ∅)
      (by rw [Nat.zero_add, expect_rscw_r_2_0 X c])) $$ [Hc_rscw_r_2_0 HO Hat_rscw_r_2_0]
  · isplitr; · iexact HIo
    isplitl [Hc_rscw_r_2_0]; · iexact Hc_rscw_r_2_0
    isplitl [HO]; · iexact HO
    isplitr; · iapply (mayWait_rem (F := F) c 14 (by decide) _ (by show (12 : ℕ) < 2 + 14; decide)); iexact Hlev
    iexact Hat_rscw_r_2_0
  iintro ⟨HO, Hat_rscw_r_2_0, #Hrch_rscw_r_2_0_1, Hpay⟩
  iclear HIo
  ihave Hp := (Entails.of_eq (rest_single X _ _ _ (duties_rscw_r_2_0 X c) (payload_rscw_r_2_0 X c false))) $$ Hpay
  ihave Hq := (owns_elim _ _ _) $$ Hp
  icases Hq with ⟨%f_rscw_r_2_0, %hf_rscw_r_2_0, Hs_rscw_r_2_0⟩
  -- add cw s=2 b=0: the loads and the store run by themselves (within the next run)
  -- wait send rs cw t=1 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 14) (W := _) (R := 0) (m := 0) (T := ∅)
      (by rw [Nat.zero_add, expect_rscw_s_2_0 X c])) $$ [Hcs_rscw_s_2_0 HO Hat_rscw_s_2]
  · isplitr; · iexact HIo
    isplitl [Hcs_rscw_s_2_0]; · iexact Hcs_rscw_s_2_0
    isplitl [HO]; · iexact HO
    isplitr; · iapply (mayWait_rem (F := F) c 14 (by decide) _ (by show (0 : ℕ) < 2 + 14; decide)); iexact Hlev
    iexact Hat_rscw_s_2
  iintro ⟨HO, Hat_rscw_s_2, #Hrch_rscw_s_2_1, Hpay⟩
  iclear HIo
  ihave Hp := (Entails.of_eq (rest_single X _ _ _ (duties_rscw_s_2_0 X c) (payload_rscw_s_2_0 X c false))) $$ Hpay
  irename Hp => Hback_rscw_r_0_0
  -- send rs cw t=3 b=0 (payment 14, device function 15)
  try sl_exec_parts
  ihave HO := (owes_congr (rem_peel_14 c)) $$ HO
  ihave #HIo := (bigSepL_elim_idx ownQs _ 2 (by decide)) $$ HInvOwn
  ihave #HIt := (bigSepL_elim_idx recvCw _ 6 (by decide)) $$ HInbCw
  iapply (@send_owns_at F _ X c (nxt c) ⟨k0_dev15 c, k0_dev15_lt c⟩ (dev15_eq c _) (slot aM 2 0 inb_S15x128x1024_S1x64x1024_2_0_0) (slot aM 3 0 inb_S15x128x1024_S1x64x1024_3_0_0) _ (qS cc0_scratch2 2 inb_S4_S1_2) (qR cc0_scratch3 3 0 inb_S15x2_S1x1_3_0) _ _ _ _ _ _ fullShare (addV X true 0 2 c) 1 (K (dcell c (qS cc0_scratch2 2 inb_S4_S1_2))) (K (dcell (nxt c) (qR cc0_scratch3 3 0 inb_S15x2_S1x1_3_0))) _ (rem c 15) _ (by rw [duties_rscw_s_2_1 X c]; exact Finset.mem_singleton_self _) (by rw [duties_rscw_r_3_0 X (nxt c)]; exact Finset.mem_singleton_self _) (by exact amount_rscw_s_2_1 X c false) (by exact amount_rscw_r_3_0 X (nxt c) false) (by rfl) (by exact payload_rscw_s_2_1 X c false) (by exact hp2_rscw_r_3_0 X c) (by rfl) (by routes)) $$ [Hs_rscw_r_2_0 Hd_rscw_r_3_0 HO Hts_rscw_s_2_1 Htn_rscw_r_3_0]
  · isplitr; · iexact HIo
    isplitr; · iexact HIt
    isplitl [Hs_rscw_r_2_0]; · iapply (owns_intro_add X true 2 0 0 c 12 aM _ f_rscw_r_2_0 _ _ _ rfl (off3_m4_0 c) hf_rscw_r_2_0 (addV_eq_cw_2_0 X c)); iexact Hs_rscw_r_2_0
    isplitl [Hd_rscw_r_3_0]; · iexact Hd_rscw_r_3_0
    isplitl [HO]; · iexact HO
    isplitl [Hts_rscw_s_2_1]; · iexact Hts_rscw_s_2_1
    isplitr; · iexact Hrch_rscw_s_2_1
    isplitl [Htn_rscw_r_3_0]; · iexact Htn_rscw_r_3_0
    iexact Hrn_rscw_r_3_0
  iintro ⟨Hcs_rscw_s_2_1, HO⟩
  iclear HIo HIt
  -- wait recv rs ccw t=2 b=0
  try sl_exec_parts
  ihave #HIo := (bigSepL_elim_idx ownQs _ 80 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 15) (W := _) (R := 0) (m := 0) (T := ∅)
      (by rw [Nat.zero_add, expect_rsccw_r_2_0 X c])) $$ [Hc_rsccw_r_2_0 HO Hat_rsccw_r_2_0]
  · isplitr; · iexact HIo
    isplitl [Hc_rsccw_r_2_0]; · iexact Hc_rsccw_r_2_0
    isplitl [HO]; · iexact HO
    isplitr; · iapply (mayWait_rem (F := F) c 15 (by decide) _ (by show (13 : ℕ) < 2 + 15; decide)); iexact Hlev
    iexact Hat_rsccw_r_2_0
  iintro ⟨HO, Hat_rsccw_r_2_0, #Hrch_rsccw_r_2_0_1, Hpay⟩
  iclear HIo
  ihave Hp := (Entails.of_eq (rest_single X _ _ _ (duties_rsccw_r_2_0 X c) (payload_rsccw_r_2_0 X c false))) $$ Hpay
  ihave Hq := (owns_elim _ _ _) $$ Hp
  icases Hq with ⟨%f_rsccw_r_2_0, %hf_rsccw_r_2_0, Hs_rsccw_r_2_0⟩
  -- add ccw s=2 b=0: the loads and the store run by themselves (within the next run)
  -- wait send rs ccw t=1 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 15) (W := _) (R := 0) (m := 0) (T := ∅)
      (by rw [Nat.zero_add, expect_rsccw_s_2_0 X c])) $$ [Hcs_rsccw_s_2_0 HO Hat_rsccw_s_2]
  · isplitr; · iexact HIo
    isplitl [Hcs_rsccw_s_2_0]; · iexact Hcs_rsccw_s_2_0
    isplitl [HO]; · iexact HO
    isplitr; · iapply (mayWait_rem (F := F) c 15 (by decide) _ (by show (0 : ℕ) < 2 + 15; decide)); iexact Hlev
    iexact Hat_rsccw_s_2
  iintro ⟨HO, Hat_rsccw_s_2, #Hrch_rsccw_s_2_1, Hpay⟩
  iclear HIo
  ihave Hp := (Entails.of_eq (rest_single X _ _ _ (duties_rsccw_s_2_0 X c) (payload_rsccw_s_2_0 X c false))) $$ Hpay
  irename Hp => Hback_rsccw_r_0_0
  -- send rs ccw t=3 b=0 (payment 15, device function 16)
  try sl_exec_parts
  ihave HO := (owes_congr (rem_peel_15 c)) $$ HO
  ihave #HIo := (bigSepL_elim_idx ownQs _ 6 (by decide)) $$ HInvOwn
  ihave #HIt := (bigSepL_elim_idx recvCcw _ 6 (by decide)) $$ HInbCcw
  iapply (@send_owns_at F _ X c (prv c) ⟨k0_dev16 c, k0_dev16_lt c⟩ (dev16_eq c _) (slot bM 2 0 inb_S15x128x1024_S1x64x1024_2_0_0) (slot bM 3 0 inb_S15x128x1024_S1x64x1024_3_0_0) _ (qS cc0_scratch4 2 inb_S4_S1_2) (qR cc0_scratch5 3 0 inb_S15x2_S1x1_3_0) _ _ _ _ _ _ fullShare (addV X false 0 2 c) 1 (K (dcell c (qS cc0_scratch4 2 inb_S4_S1_2))) (K (dcell (prv c) (qR cc0_scratch5 3 0 inb_S15x2_S1x1_3_0))) _ (rem c 16) _ (by rw [duties_rsccw_s_2_1 X c]; exact Finset.mem_singleton_self _) (by rw [duties_rsccw_r_3_0 X (prv c)]; exact Finset.mem_singleton_self _) (by exact amount_rsccw_s_2_1 X c false) (by exact amount_rsccw_r_3_0 X (prv c) false) (by rfl) (by exact payload_rsccw_s_2_1 X c false) (by exact hp2_rsccw_r_3_0 X c) (by rfl) (by routes)) $$ [Hs_rsccw_r_2_0 Hd_rsccw_r_3_0 HO Hts_rsccw_s_2_1 Htn_rsccw_r_3_0]
  · isplitr; · iexact HIo
    isplitr; · iexact HIt
    isplitl [Hs_rsccw_r_2_0]; · iapply (owns_intro_add X false 2 0 0 c 4 bM _ f_rsccw_r_2_0 _ _ _ rfl (off4_4_0 c) hf_rsccw_r_2_0 (addV_eq_ccw_2_0 X c)); iexact Hs_rsccw_r_2_0
    isplitl [Hd_rsccw_r_3_0]; · iexact Hd_rsccw_r_3_0
    isplitl [HO]; · iexact HO
    isplitl [Hts_rsccw_s_2_1]; · iexact Hts_rsccw_s_2_1
    isplitr; · iexact Hrch_rsccw_s_2_1
    isplitl [Htn_rsccw_r_3_0]; · iexact Htn_rsccw_r_3_0
    iexact Hrn_rsccw_r_3_0
  iintro ⟨Hcs_rsccw_s_2_1, HO⟩
  iclear HIo HIt
  -- wait recv rs cw t=2 b=1
  try sl_exec_parts
  ihave #HIo := (bigSepL_elim_idx ownQs _ 21 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 16) (W := _) (R := 0) (m := 0) (T := ∅)
      (by rw [Nat.zero_add, expect_rscw_r_2_1 X c])) $$ [Hc_rscw_r_2_1 HO Hat_rscw_r_2_1]
  · isplitr; · iexact HIo
    isplitl [Hc_rscw_r_2_1]; · iexact Hc_rscw_r_2_1
    isplitl [HO]; · iexact HO
    isplitr; · iapply (mayWait_rem (F := F) c 16 (by decide) _ (by show (14 : ℕ) < 2 + 16; decide)); iexact Hlev
    iexact Hat_rscw_r_2_1
  iintro ⟨HO, Hat_rscw_r_2_1, #Hrch_rscw_r_2_1_1, Hpay⟩
  iclear HIo
  ihave Hp := (Entails.of_eq (rest_single X _ _ _ (duties_rscw_r_2_1 X c) (payload_rscw_r_2_1 X c false))) $$ Hpay
  ihave Hq := (owns_elim _ _ _) $$ Hp
  icases Hq with ⟨%f_rscw_r_2_1, %hf_rscw_r_2_1, Hs_rscw_r_2_1⟩
  -- add cw s=2 b=1: the loads and the store run by themselves (within the next run)
  -- wait send rs cw t=1 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 16) (W := _) (R := 0) (m := 0) (T := ∅)
      (by rw [Nat.zero_add, expect_rscw_s_3_0 X c])) $$ [Hcs_rscw_s_3_0 HO Hat_rscw_s_3]
  · isplitr; · iexact HIo
    isplitl [Hcs_rscw_s_3_0]; · iexact Hcs_rscw_s_3_0
    isplitl [HO]; · iexact HO
    isplitr; · iapply (mayWait_rem (F := F) c 16 (by decide) _ (by show (0 : ℕ) < 2 + 16; decide)); iexact Hlev
    iexact Hat_rscw_s_3
  iintro ⟨HO, Hat_rscw_s_3, #Hrch_rscw_s_3_1, Hpay⟩
  iclear HIo
  ihave Hp := (Entails.of_eq (rest_single X _ _ _ (duties_rscw_s_3_0 X c) (payload_rscw_s_3_0 X c false))) $$ Hpay
  irename Hp => Hback_rscw_r_0_1
  -- send rs cw t=3 b=1 (payment 16, device function 17)
  try sl_exec_parts
  ihave HO := (owes_congr (rem_peel_16 c)) $$ HO
  ihave #HIo := (bigSepL_elim_idx ownQs _ 3 (by decide)) $$ HInvOwn
  ihave #HIt := (bigSepL_elim_idx recvCw _ 7 (by decide)) $$ HInbCw
  iapply (@send_owns_at F _ X c (nxt c) ⟨k0_dev17 c, k0_dev17_lt c⟩ (dev17_eq c _) (slot aM 2 64 inb_S15x128x1024_S1x64x1024_2_64_0) (slot aM 3 64 inb_S15x128x1024_S1x64x1024_3_64_0) _ (qS cc0_scratch2 3 inb_S4_S1_3) (qR cc0_scratch3 3 1 inb_S15x2_S1x1_3_1) _ _ _ _ _ _ fullShare (addV X true 1 2 c) 1 (K (dcell c (qS cc0_scratch2 3 inb_S4_S1_3))) (K (dcell (nxt c) (qR cc0_scratch3 3 1 inb_S15x2_S1x1_3_1))) _ (rem c 17) _ (by rw [duties_rscw_s_3_1 X c]; exact Finset.mem_singleton_self _) (by rw [duties_rscw_r_3_1 X (nxt c)]; exact Finset.mem_singleton_self _) (by exact amount_rscw_s_3_1 X c false) (by exact amount_rscw_r_3_1 X (nxt c) false) (by rfl) (by exact payload_rscw_s_3_1 X c false) (by exact hp2_rscw_r_3_1 X c) (by rfl) (by routes)) $$ [Hs_rscw_r_2_1 Hd_rscw_r_3_1 HO Hts_rscw_s_3_1 Htn_rscw_r_3_1]
  · isplitr; · iexact HIo
    isplitr; · iexact HIt
    isplitl [Hs_rscw_r_2_1]; · iapply (owns_intro_add X true 2 64 1 c 12 aM _ f_rscw_r_2_1 _ _ _ rfl (off3_m4_64 c) hf_rscw_r_2_1 (addV_eq_cw_2_1 X c)); iexact Hs_rscw_r_2_1
    isplitl [Hd_rscw_r_3_1]; · iexact Hd_rscw_r_3_1
    isplitl [HO]; · iexact HO
    isplitl [Hts_rscw_s_3_1]; · iexact Hts_rscw_s_3_1
    isplitr; · iexact Hrch_rscw_s_3_1
    isplitl [Htn_rscw_r_3_1]; · iexact Htn_rscw_r_3_1
    iexact Hrn_rscw_r_3_1
  iintro ⟨Hcs_rscw_s_3_1, HO⟩
  iclear HIo HIt
  -- wait recv rs ccw t=2 b=1
  try sl_exec_parts
  ihave #HIo := (bigSepL_elim_idx ownQs _ 81 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 17) (W := _) (R := 0) (m := 0) (T := ∅)
      (by rw [Nat.zero_add, expect_rsccw_r_2_1 X c])) $$ [Hc_rsccw_r_2_1 HO Hat_rsccw_r_2_1]
  · isplitr; · iexact HIo
    isplitl [Hc_rsccw_r_2_1]; · iexact Hc_rsccw_r_2_1
    isplitl [HO]; · iexact HO
    isplitr; · iapply (mayWait_rem (F := F) c 17 (by decide) _ (by show (15 : ℕ) < 2 + 17; decide)); iexact Hlev
    iexact Hat_rsccw_r_2_1
  iintro ⟨HO, Hat_rsccw_r_2_1, #Hrch_rsccw_r_2_1_1, Hpay⟩
  iclear HIo
  ihave Hp := (Entails.of_eq (rest_single X _ _ _ (duties_rsccw_r_2_1 X c) (payload_rsccw_r_2_1 X c false))) $$ Hpay
  ihave Hq := (owns_elim _ _ _) $$ Hp
  icases Hq with ⟨%f_rsccw_r_2_1, %hf_rsccw_r_2_1, Hs_rsccw_r_2_1⟩
  -- add ccw s=2 b=1: the loads and the store run by themselves (within the next run)
  -- wait send rs ccw t=1 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 17) (W := _) (R := 0) (m := 0) (T := ∅)
      (by rw [Nat.zero_add, expect_rsccw_s_3_0 X c])) $$ [Hcs_rsccw_s_3_0 HO Hat_rsccw_s_3]
  · isplitr; · iexact HIo
    isplitl [Hcs_rsccw_s_3_0]; · iexact Hcs_rsccw_s_3_0
    isplitl [HO]; · iexact HO
    isplitr; · iapply (mayWait_rem (F := F) c 17 (by decide) _ (by show (0 : ℕ) < 2 + 17; decide)); iexact Hlev
    iexact Hat_rsccw_s_3
  iintro ⟨HO, Hat_rsccw_s_3, #Hrch_rsccw_s_3_1, Hpay⟩
  iclear HIo
  ihave Hp := (Entails.of_eq (rest_single X _ _ _ (duties_rsccw_s_3_0 X c) (payload_rsccw_s_3_0 X c false))) $$ Hpay
  irename Hp => Hback_rsccw_r_0_1
  -- send rs ccw t=3 b=1 (payment 17, device function 18)
  try sl_exec_parts
  ihave HO := (owes_congr (rem_peel_17 c)) $$ HO
  ihave #HIo := (bigSepL_elim_idx ownQs _ 7 (by decide)) $$ HInvOwn
  ihave #HIt := (bigSepL_elim_idx recvCcw _ 7 (by decide)) $$ HInbCcw
  iapply (@send_owns_at F _ X c (prv c) ⟨k0_dev18 c, k0_dev18_lt c⟩ (dev18_eq c _) (slot bM 2 64 inb_S15x128x1024_S1x64x1024_2_64_0) (slot bM 3 64 inb_S15x128x1024_S1x64x1024_3_64_0) _ (qS cc0_scratch4 3 inb_S4_S1_3) (qR cc0_scratch5 3 1 inb_S15x2_S1x1_3_1) _ _ _ _ _ _ fullShare (addV X false 1 2 c) 1 (K (dcell c (qS cc0_scratch4 3 inb_S4_S1_3))) (K (dcell (prv c) (qR cc0_scratch5 3 1 inb_S15x2_S1x1_3_1))) _ (rem c 18) _ (by rw [duties_rsccw_s_3_1 X c]; exact Finset.mem_singleton_self _) (by rw [duties_rsccw_r_3_1 X (prv c)]; exact Finset.mem_singleton_self _) (by exact amount_rsccw_s_3_1 X c false) (by exact amount_rsccw_r_3_1 X (prv c) false) (by rfl) (by exact payload_rsccw_s_3_1 X c false) (by exact hp2_rsccw_r_3_1 X c) (by rfl) (by routes)) $$ [Hs_rsccw_r_2_1 Hd_rsccw_r_3_1 HO Hts_rsccw_s_3_1 Htn_rsccw_r_3_1]
  · isplitr; · iexact HIo
    isplitr; · iexact HIt
    isplitl [Hs_rsccw_r_2_1]; · iapply (owns_intro_add X false 2 64 1 c 4 bM _ f_rsccw_r_2_1 _ _ _ rfl (off4_4_64 c) hf_rsccw_r_2_1 (addV_eq_ccw_2_1 X c)); iexact Hs_rsccw_r_2_1
    isplitl [Hd_rsccw_r_3_1]; · iexact Hd_rsccw_r_3_1
    isplitl [HO]; · iexact HO
    isplitl [Hts_rsccw_s_3_1]; · iexact Hts_rsccw_s_3_1
    isplitr; · iexact Hrch_rsccw_s_3_1
    isplitl [Htn_rsccw_r_3_1]; · iexact Htn_rsccw_r_3_1
    iexact Hrn_rsccw_r_3_1
  iintro ⟨Hcs_rsccw_s_3_1, HO⟩
  iclear HIo HIt
  -- wait recv rs cw t=3 b=0
  try sl_exec_parts
  ihave #HIo := (bigSepL_elim_idx ownQs _ 22 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 18) (W := _) (R := 0) (m := 0) (T := ∅)
      (by rw [Nat.zero_add, expect_rscw_r_3_0 X c])) $$ [Hc_rscw_r_3_0 HO Hat_rscw_r_3_0]
  · isplitr; · iexact HIo
    isplitl [Hc_rscw_r_3_0]; · iexact Hc_rscw_r_3_0
    isplitl [HO]; · iexact HO
    isplitr; · iapply (mayWait_rem (F := F) c 18 (by decide) _ (by show (16 : ℕ) < 2 + 18; decide)); iexact Hlev
    iexact Hat_rscw_r_3_0
  iintro ⟨HO, Hat_rscw_r_3_0, #Hrch_rscw_r_3_0_1, Hpay⟩
  iclear HIo
  ihave Hp := (Entails.of_eq (rest_single X _ _ _ (duties_rscw_r_3_0 X c) (payload_rscw_r_3_0 X c false))) $$ Hpay
  ihave Hq := (owns_elim _ _ _) $$ Hp
  icases Hq with ⟨%f_rscw_r_3_0, %hf_rscw_r_3_0, Hs_rscw_r_3_0⟩
  -- add cw s=3 b=0: the loads and the store run by themselves (within the next run)
  -- wait send rs cw t=2 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 18) (W := _) (R := 1) (m := 0) (T := ∅)
      (by rw [Nat.zero_add, expect_rscw_s_0_1 X c])) $$ [Hcs_rscw_s_0_1 HO Hat_rscw_s_0]
  · isplitr; · iexact HIo
    isplitl [Hcs_rscw_s_0_1]; · iexact Hcs_rscw_s_0_1
    isplitl [HO]; · iexact HO
    isplitr; · iapply (mayWait_rem (F := F) c 18 (by decide) _ (by show (0 : ℕ) < 2 + 18; decide)); iexact Hlev
    iexact Hat_rscw_s_0
  iintro ⟨HO, Hat_rscw_s_0, #Hrch_rscw_s_0_2, Hpay⟩
  iclear HIo
  ihave Hp := (Entails.of_eq (rest_single X _ _ _ (duties_rscw_s_0_1 X c) (payload_rscw_s_0_1 X c false))) $$ Hpay
  irename Hp => Hback_rscw_r_1_0
  -- send rs cw t=4 b=0 (payment 18, device function 19)
  try sl_exec_parts
  ihave HO := (owes_congr (rem_peel_18 c)) $$ HO
  ihave #HIo := (bigSepL_elim_idx ownQs _ 0 (by decide)) $$ HInvOwn
  ihave #HIt := (bigSepL_elim_idx recvCw _ 8 (by decide)) $$ HInbCw
  iapply (@send_owns_at F _ X c (nxt c) ⟨k0_dev19 c, k0_dev19_lt c⟩ (dev19_eq c _) (slot aM 3 0 inb_S15x128x1024_S1x64x1024_3_0_0) (slot aM 4 0 inb_S15x128x1024_S1x64x1024_4_0_0) _ (qS cc0_scratch2 0 inb_S4_S1_0) (qR cc0_scratch3 4 0 inb_S15x2_S1x1_4_0) _ _ _ _ _ _ fullShare (addV X true 0 3 c) 2 (K (dcell c (qS cc0_scratch2 0 inb_S4_S1_0))) (K (dcell (nxt c) (qR cc0_scratch3 4 0 inb_S15x2_S1x1_4_0))) _ (rem c 19) _ (by rw [duties_rscw_s_0_2 X c]; exact Finset.mem_singleton_self _) (by rw [duties_rscw_r_4_0 X (nxt c)]; exact Finset.mem_singleton_self _) (by exact amount_rscw_s_0_2 X c false) (by exact amount_rscw_r_4_0 X (nxt c) false) (by rfl) (by exact payload_rscw_s_0_2 X c false) (by exact hp2_rscw_r_4_0 X c) (by rfl) (by routes)) $$ [Hs_rscw_r_3_0 Hd_rscw_r_4_0 HO Hts_rscw_s_0_2 Htn_rscw_r_4_0]
  · isplitr; · iexact HIo
    isplitr; · iexact HIt
    isplitl [Hs_rscw_r_3_0]; · iapply (owns_intro_add X true 3 0 0 c 11 aM _ f_rscw_r_3_0 _ _ _ rfl (off3_m5_0 c) hf_rscw_r_3_0 (addV_eq_cw_3_0 X c)); iexact Hs_rscw_r_3_0
    isplitl [Hd_rscw_r_4_0]; · iexact Hd_rscw_r_4_0
    isplitl [HO]; · iexact HO
    isplitl [Hts_rscw_s_0_2]; · iexact Hts_rscw_s_0_2
    isplitr; · iexact Hrch_rscw_s_0_2
    isplitl [Htn_rscw_r_4_0]; · iexact Htn_rscw_r_4_0
    iexact Hrn_rscw_r_4_0
  iintro ⟨Hcs_rscw_s_0_2, HO⟩
  iclear HIo HIt
  -- wait recv rs ccw t=3 b=0
  try sl_exec_parts
  ihave #HIo := (bigSepL_elim_idx ownQs _ 82 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 19) (W := _) (R := 0) (m := 0) (T := ∅)
      (by rw [Nat.zero_add, expect_rsccw_r_3_0 X c])) $$ [Hc_rsccw_r_3_0 HO Hat_rsccw_r_3_0]
  · isplitr; · iexact HIo
    isplitl [Hc_rsccw_r_3_0]; · iexact Hc_rsccw_r_3_0
    isplitl [HO]; · iexact HO
    isplitr; · iapply (mayWait_rem (F := F) c 19 (by decide) _ (by show (17 : ℕ) < 2 + 19; decide)); iexact Hlev
    iexact Hat_rsccw_r_3_0
  iintro ⟨HO, Hat_rsccw_r_3_0, #Hrch_rsccw_r_3_0_1, Hpay⟩
  iclear HIo
  ihave Hp := (Entails.of_eq (rest_single X _ _ _ (duties_rsccw_r_3_0 X c) (payload_rsccw_r_3_0 X c false))) $$ Hpay
  ihave Hq := (owns_elim _ _ _) $$ Hp
  icases Hq with ⟨%f_rsccw_r_3_0, %hf_rsccw_r_3_0, Hs_rsccw_r_3_0⟩
  -- add ccw s=3 b=0: the loads and the store run by themselves (within the next run)
  -- wait send rs ccw t=2 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 19) (W := _) (R := 1) (m := 0) (T := ∅)
      (by rw [Nat.zero_add, expect_rsccw_s_0_1 X c])) $$ [Hcs_rsccw_s_0_1 HO Hat_rsccw_s_0]
  · isplitr; · iexact HIo
    isplitl [Hcs_rsccw_s_0_1]; · iexact Hcs_rsccw_s_0_1
    isplitl [HO]; · iexact HO
    isplitr; · iapply (mayWait_rem (F := F) c 19 (by decide) _ (by show (0 : ℕ) < 2 + 19; decide)); iexact Hlev
    iexact Hat_rsccw_s_0
  iintro ⟨HO, Hat_rsccw_s_0, #Hrch_rsccw_s_0_2, Hpay⟩
  iclear HIo
  ihave Hp := (Entails.of_eq (rest_single X _ _ _ (duties_rsccw_s_0_1 X c) (payload_rsccw_s_0_1 X c false))) $$ Hpay
  irename Hp => Hback_rsccw_r_1_0
  -- send rs ccw t=4 b=0 (payment 19, device function 20)
  try sl_exec_parts
  ihave HO := (owes_congr (rem_peel_19 c)) $$ HO
  ihave #HIo := (bigSepL_elim_idx ownQs _ 4 (by decide)) $$ HInvOwn
  ihave #HIt := (bigSepL_elim_idx recvCcw _ 8 (by decide)) $$ HInbCcw
  iapply (@send_owns_at F _ X c (prv c) ⟨k0_dev20 c, k0_dev20_lt c⟩ (dev20_eq c _) (slot bM 3 0 inb_S15x128x1024_S1x64x1024_3_0_0) (slot bM 4 0 inb_S15x128x1024_S1x64x1024_4_0_0) _ (qS cc0_scratch4 0 inb_S4_S1_0) (qR cc0_scratch5 4 0 inb_S15x2_S1x1_4_0) _ _ _ _ _ _ fullShare (addV X false 0 3 c) 2 (K (dcell c (qS cc0_scratch4 0 inb_S4_S1_0))) (K (dcell (prv c) (qR cc0_scratch5 4 0 inb_S15x2_S1x1_4_0))) _ (rem c 20) _ (by rw [duties_rsccw_s_0_2 X c]; exact Finset.mem_singleton_self _) (by rw [duties_rsccw_r_4_0 X (prv c)]; exact Finset.mem_singleton_self _) (by exact amount_rsccw_s_0_2 X c false) (by exact amount_rsccw_r_4_0 X (prv c) false) (by rfl) (by exact payload_rsccw_s_0_2 X c false) (by exact hp2_rsccw_r_4_0 X c) (by rfl) (by routes)) $$ [Hs_rsccw_r_3_0 Hd_rsccw_r_4_0 HO Hts_rsccw_s_0_2 Htn_rsccw_r_4_0]
  · isplitr; · iexact HIo
    isplitr; · iexact HIt
    isplitl [Hs_rsccw_r_3_0]; · iapply (owns_intro_add X false 3 0 0 c 5 bM _ f_rsccw_r_3_0 _ _ _ rfl (off4_5_0 c) hf_rsccw_r_3_0 (addV_eq_ccw_3_0 X c)); iexact Hs_rsccw_r_3_0
    isplitl [Hd_rsccw_r_4_0]; · iexact Hd_rsccw_r_4_0
    isplitl [HO]; · iexact HO
    isplitl [Hts_rsccw_s_0_2]; · iexact Hts_rsccw_s_0_2
    isplitr; · iexact Hrch_rsccw_s_0_2
    isplitl [Htn_rsccw_r_4_0]; · iexact Htn_rsccw_r_4_0
    iexact Hrn_rsccw_r_4_0
  iintro ⟨Hcs_rsccw_s_0_2, HO⟩
  iclear HIo HIt
  -- wait recv rs cw t=3 b=1
  try sl_exec_parts
  ihave #HIo := (bigSepL_elim_idx ownQs _ 23 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 20) (W := _) (R := 0) (m := 0) (T := ∅)
      (by rw [Nat.zero_add, expect_rscw_r_3_1 X c])) $$ [Hc_rscw_r_3_1 HO Hat_rscw_r_3_1]
  · isplitr; · iexact HIo
    isplitl [Hc_rscw_r_3_1]; · iexact Hc_rscw_r_3_1
    isplitl [HO]; · iexact HO
    isplitr; · iapply (mayWait_rem (F := F) c 20 (by decide) _ (by show (18 : ℕ) < 2 + 20; decide)); iexact Hlev
    iexact Hat_rscw_r_3_1
  iintro ⟨HO, Hat_rscw_r_3_1, #Hrch_rscw_r_3_1_1, Hpay⟩
  iclear HIo
  ihave Hp := (Entails.of_eq (rest_single X _ _ _ (duties_rscw_r_3_1 X c) (payload_rscw_r_3_1 X c false))) $$ Hpay
  ihave Hq := (owns_elim _ _ _) $$ Hp
  icases Hq with ⟨%f_rscw_r_3_1, %hf_rscw_r_3_1, Hs_rscw_r_3_1⟩
  -- add cw s=3 b=1: the loads and the store run by themselves (within the next run)
  -- wait send rs cw t=2 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 20) (W := _) (R := 1) (m := 0) (T := ∅)
      (by rw [Nat.zero_add, expect_rscw_s_1_1 X c])) $$ [Hcs_rscw_s_1_1 HO Hat_rscw_s_1]
  · isplitr; · iexact HIo
    isplitl [Hcs_rscw_s_1_1]; · iexact Hcs_rscw_s_1_1
    isplitl [HO]; · iexact HO
    isplitr; · iapply (mayWait_rem (F := F) c 20 (by decide) _ (by show (0 : ℕ) < 2 + 20; decide)); iexact Hlev
    iexact Hat_rscw_s_1
  iintro ⟨HO, Hat_rscw_s_1, #Hrch_rscw_s_1_2, Hpay⟩
  iclear HIo
  ihave Hp := (Entails.of_eq (rest_single X _ _ _ (duties_rscw_s_1_1 X c) (payload_rscw_s_1_1 X c false))) $$ Hpay
  irename Hp => Hback_rscw_r_1_1
  -- send rs cw t=4 b=1 (payment 20, device function 21)
  try sl_exec_parts
  ihave HO := (owes_congr (rem_peel_20 c)) $$ HO
  ihave #HIo := (bigSepL_elim_idx ownQs _ 1 (by decide)) $$ HInvOwn
  ihave #HIt := (bigSepL_elim_idx recvCw _ 9 (by decide)) $$ HInbCw
  iapply (@send_owns_at F _ X c (nxt c) ⟨k0_dev21 c, k0_dev21_lt c⟩ (dev21_eq c _) (slot aM 3 64 inb_S15x128x1024_S1x64x1024_3_64_0) (slot aM 4 64 inb_S15x128x1024_S1x64x1024_4_64_0) _ (qS cc0_scratch2 1 inb_S4_S1_1) (qR cc0_scratch3 4 1 inb_S15x2_S1x1_4_1) _ _ _ _ _ _ fullShare (addV X true 1 3 c) 2 (K (dcell c (qS cc0_scratch2 1 inb_S4_S1_1))) (K (dcell (nxt c) (qR cc0_scratch3 4 1 inb_S15x2_S1x1_4_1))) _ (rem c 21) _ (by rw [duties_rscw_s_1_2 X c]; exact Finset.mem_singleton_self _) (by rw [duties_rscw_r_4_1 X (nxt c)]; exact Finset.mem_singleton_self _) (by exact amount_rscw_s_1_2 X c false) (by exact amount_rscw_r_4_1 X (nxt c) false) (by rfl) (by exact payload_rscw_s_1_2 X c false) (by exact hp2_rscw_r_4_1 X c) (by rfl) (by routes)) $$ [Hs_rscw_r_3_1 Hd_rscw_r_4_1 HO Hts_rscw_s_1_2 Htn_rscw_r_4_1]
  · isplitr; · iexact HIo
    isplitr; · iexact HIt
    isplitl [Hs_rscw_r_3_1]; · iapply (owns_intro_add X true 3 64 1 c 11 aM _ f_rscw_r_3_1 _ _ _ rfl (off3_m5_64 c) hf_rscw_r_3_1 (addV_eq_cw_3_1 X c)); iexact Hs_rscw_r_3_1
    isplitl [Hd_rscw_r_4_1]; · iexact Hd_rscw_r_4_1
    isplitl [HO]; · iexact HO
    isplitl [Hts_rscw_s_1_2]; · iexact Hts_rscw_s_1_2
    isplitr; · iexact Hrch_rscw_s_1_2
    isplitl [Htn_rscw_r_4_1]; · iexact Htn_rscw_r_4_1
    iexact Hrn_rscw_r_4_1
  iintro ⟨Hcs_rscw_s_1_2, HO⟩
  iclear HIo HIt
  -- wait recv rs ccw t=3 b=1
  try sl_exec_parts
  ihave #HIo := (bigSepL_elim_idx ownQs _ 83 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 21) (W := _) (R := 0) (m := 0) (T := ∅)
      (by rw [Nat.zero_add, expect_rsccw_r_3_1 X c])) $$ [Hc_rsccw_r_3_1 HO Hat_rsccw_r_3_1]
  · isplitr; · iexact HIo
    isplitl [Hc_rsccw_r_3_1]; · iexact Hc_rsccw_r_3_1
    isplitl [HO]; · iexact HO
    isplitr; · iapply (mayWait_rem (F := F) c 21 (by decide) _ (by show (19 : ℕ) < 2 + 21; decide)); iexact Hlev
    iexact Hat_rsccw_r_3_1
  iintro ⟨HO, Hat_rsccw_r_3_1, #Hrch_rsccw_r_3_1_1, Hpay⟩
  iclear HIo
  ihave Hp := (Entails.of_eq (rest_single X _ _ _ (duties_rsccw_r_3_1 X c) (payload_rsccw_r_3_1 X c false))) $$ Hpay
  ihave Hq := (owns_elim _ _ _) $$ Hp
  icases Hq with ⟨%f_rsccw_r_3_1, %hf_rsccw_r_3_1, Hs_rsccw_r_3_1⟩
  -- add ccw s=3 b=1: the loads and the store run by themselves (within the next run)
  -- wait send rs ccw t=2 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 21) (W := _) (R := 1) (m := 0) (T := ∅)
      (by rw [Nat.zero_add, expect_rsccw_s_1_1 X c])) $$ [Hcs_rsccw_s_1_1 HO Hat_rsccw_s_1]
  · isplitr; · iexact HIo
    isplitl [Hcs_rsccw_s_1_1]; · iexact Hcs_rsccw_s_1_1
    isplitl [HO]; · iexact HO
    isplitr; · iapply (mayWait_rem (F := F) c 21 (by decide) _ (by show (0 : ℕ) < 2 + 21; decide)); iexact Hlev
    iexact Hat_rsccw_s_1
  iintro ⟨HO, Hat_rsccw_s_1, #Hrch_rsccw_s_1_2, Hpay⟩
  iclear HIo
  ihave Hp := (Entails.of_eq (rest_single X _ _ _ (duties_rsccw_s_1_1 X c) (payload_rsccw_s_1_1 X c false))) $$ Hpay
  irename Hp => Hback_rsccw_r_1_1
  -- send rs ccw t=4 b=1 (payment 21, device function 22)
  try sl_exec_parts
  ihave HO := (owes_congr (rem_peel_21 c)) $$ HO
  ihave #HIo := (bigSepL_elim_idx ownQs _ 5 (by decide)) $$ HInvOwn
  ihave #HIt := (bigSepL_elim_idx recvCcw _ 9 (by decide)) $$ HInbCcw
  iapply (@send_owns_at F _ X c (prv c) ⟨k0_dev22 c, k0_dev22_lt c⟩ (dev22_eq c _) (slot bM 3 64 inb_S15x128x1024_S1x64x1024_3_64_0) (slot bM 4 64 inb_S15x128x1024_S1x64x1024_4_64_0) _ (qS cc0_scratch4 1 inb_S4_S1_1) (qR cc0_scratch5 4 1 inb_S15x2_S1x1_4_1) _ _ _ _ _ _ fullShare (addV X false 1 3 c) 2 (K (dcell c (qS cc0_scratch4 1 inb_S4_S1_1))) (K (dcell (prv c) (qR cc0_scratch5 4 1 inb_S15x2_S1x1_4_1))) _ (rem c 22) _ (by rw [duties_rsccw_s_1_2 X c]; exact Finset.mem_singleton_self _) (by rw [duties_rsccw_r_4_1 X (prv c)]; exact Finset.mem_singleton_self _) (by exact amount_rsccw_s_1_2 X c false) (by exact amount_rsccw_r_4_1 X (prv c) false) (by rfl) (by exact payload_rsccw_s_1_2 X c false) (by exact hp2_rsccw_r_4_1 X c) (by rfl) (by routes)) $$ [Hs_rsccw_r_3_1 Hd_rsccw_r_4_1 HO Hts_rsccw_s_1_2 Htn_rsccw_r_4_1]
  · isplitr; · iexact HIo
    isplitr; · iexact HIt
    isplitl [Hs_rsccw_r_3_1]; · iapply (owns_intro_add X false 3 64 1 c 5 bM _ f_rsccw_r_3_1 _ _ _ rfl (off4_5_64 c) hf_rsccw_r_3_1 (addV_eq_ccw_3_1 X c)); iexact Hs_rsccw_r_3_1
    isplitl [Hd_rsccw_r_4_1]; · iexact Hd_rsccw_r_4_1
    isplitl [HO]; · iexact HO
    isplitl [Hts_rsccw_s_1_2]; · iexact Hts_rsccw_s_1_2
    isplitr; · iexact Hrch_rsccw_s_1_2
    isplitl [Htn_rsccw_r_4_1]; · iexact Htn_rsccw_r_4_1
    iexact Hrn_rsccw_r_4_1
  iintro ⟨Hcs_rsccw_s_1_2, HO⟩
  iclear HIo HIt
  -- wait recv rs cw t=4 b=0
  try sl_exec_parts
  ihave #HIo := (bigSepL_elim_idx ownQs _ 24 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 22) (W := _) (R := 0) (m := 0) (T := ∅)
      (by rw [Nat.zero_add, expect_rscw_r_4_0 X c])) $$ [Hc_rscw_r_4_0 HO Hat_rscw_r_4_0]
  · isplitr; · iexact HIo
    isplitl [Hc_rscw_r_4_0]; · iexact Hc_rscw_r_4_0
    isplitl [HO]; · iexact HO
    isplitr; · iapply (mayWait_rem (F := F) c 22 (by decide) _ (by show (20 : ℕ) < 2 + 22; decide)); iexact Hlev
    iexact Hat_rscw_r_4_0
  iintro ⟨HO, Hat_rscw_r_4_0, #Hrch_rscw_r_4_0_1, Hpay⟩
  iclear HIo
  ihave Hp := (Entails.of_eq (rest_single X _ _ _ (duties_rscw_r_4_0 X c) (payload_rscw_r_4_0 X c false))) $$ Hpay
  ihave Hq := (owns_elim _ _ _) $$ Hp
  icases Hq with ⟨%f_rscw_r_4_0, %hf_rscw_r_4_0, Hs_rscw_r_4_0⟩
  -- add cw s=4 b=0: the loads and the store run by themselves (within the next run)
  -- wait send rs cw t=3 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 22) (W := _) (R := 1) (m := 0) (T := ∅)
      (by rw [Nat.zero_add, expect_rscw_s_2_1 X c])) $$ [Hcs_rscw_s_2_1 HO Hat_rscw_s_2]
  · isplitr; · iexact HIo
    isplitl [Hcs_rscw_s_2_1]; · iexact Hcs_rscw_s_2_1
    isplitl [HO]; · iexact HO
    isplitr; · iapply (mayWait_rem (F := F) c 22 (by decide) _ (by show (0 : ℕ) < 2 + 22; decide)); iexact Hlev
    iexact Hat_rscw_s_2
  iintro ⟨HO, Hat_rscw_s_2, #Hrch_rscw_s_2_2, Hpay⟩
  iclear HIo
  ihave Hp := (Entails.of_eq (rest_single X _ _ _ (duties_rscw_s_2_1 X c) (payload_rscw_s_2_1 X c false))) $$ Hpay
  irename Hp => Hback_rscw_r_2_0
  -- send rs cw t=5 b=0 (payment 22, device function 23)
  try sl_exec_parts
  ihave HO := (owes_congr (rem_peel_22 c)) $$ HO
  ihave #HIo := (bigSepL_elim_idx ownQs _ 2 (by decide)) $$ HInvOwn
  ihave #HIt := (bigSepL_elim_idx recvCw _ 10 (by decide)) $$ HInbCw
  iapply (@send_owns_at F _ X c (nxt c) ⟨k0_dev23 c, k0_dev23_lt c⟩ (dev23_eq c _) (slot aM 4 0 inb_S15x128x1024_S1x64x1024_4_0_0) (slot aM 5 0 inb_S15x128x1024_S1x64x1024_5_0_0) _ (qS cc0_scratch2 2 inb_S4_S1_2) (qR cc0_scratch3 5 0 inb_S15x2_S1x1_5_0) _ _ _ _ _ _ fullShare (addV X true 0 4 c) 2 (K (dcell c (qS cc0_scratch2 2 inb_S4_S1_2))) (K (dcell (nxt c) (qR cc0_scratch3 5 0 inb_S15x2_S1x1_5_0))) _ (rem c 23) _ (by rw [duties_rscw_s_2_2 X c]; exact Finset.mem_singleton_self _) (by rw [duties_rscw_r_5_0 X (nxt c)]; exact Finset.mem_singleton_self _) (by exact amount_rscw_s_2_2 X c false) (by exact amount_rscw_r_5_0 X (nxt c) false) (by rfl) (by exact payload_rscw_s_2_2 X c false) (by exact hp2_rscw_r_5_0 X c) (by rfl) (by routes)) $$ [Hs_rscw_r_4_0 Hd_rscw_r_5_0 HO Hts_rscw_s_2_2 Htn_rscw_r_5_0]
  · isplitr; · iexact HIo
    isplitr; · iexact HIt
    isplitl [Hs_rscw_r_4_0]; · iapply (owns_intro_add X true 4 0 0 c 10 aM _ f_rscw_r_4_0 _ _ _ rfl (off3_m6_0 c) hf_rscw_r_4_0 (addV_eq_cw_4_0 X c)); iexact Hs_rscw_r_4_0
    isplitl [Hd_rscw_r_5_0]; · iexact Hd_rscw_r_5_0
    isplitl [HO]; · iexact HO
    isplitl [Hts_rscw_s_2_2]; · iexact Hts_rscw_s_2_2
    isplitr; · iexact Hrch_rscw_s_2_2
    isplitl [Htn_rscw_r_5_0]; · iexact Htn_rscw_r_5_0
    iexact Hrn_rscw_r_5_0
  iintro ⟨Hcs_rscw_s_2_2, HO⟩
  iclear HIo HIt
  -- wait recv rs ccw t=4 b=0
  try sl_exec_parts
  ihave #HIo := (bigSepL_elim_idx ownQs _ 84 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 23) (W := _) (R := 0) (m := 0) (T := ∅)
      (by rw [Nat.zero_add, expect_rsccw_r_4_0 X c])) $$ [Hc_rsccw_r_4_0 HO Hat_rsccw_r_4_0]
  · isplitr; · iexact HIo
    isplitl [Hc_rsccw_r_4_0]; · iexact Hc_rsccw_r_4_0
    isplitl [HO]; · iexact HO
    isplitr; · iapply (mayWait_rem (F := F) c 23 (by decide) _ (by show (21 : ℕ) < 2 + 23; decide)); iexact Hlev
    iexact Hat_rsccw_r_4_0
  iintro ⟨HO, Hat_rsccw_r_4_0, #Hrch_rsccw_r_4_0_1, Hpay⟩
  iclear HIo
  ihave Hp := (Entails.of_eq (rest_single X _ _ _ (duties_rsccw_r_4_0 X c) (payload_rsccw_r_4_0 X c false))) $$ Hpay
  ihave Hq := (owns_elim _ _ _) $$ Hp
  icases Hq with ⟨%f_rsccw_r_4_0, %hf_rsccw_r_4_0, Hs_rsccw_r_4_0⟩
  -- add ccw s=4 b=0: the loads and the store run by themselves (within the next run)
  -- wait send rs ccw t=3 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 23) (W := _) (R := 1) (m := 0) (T := ∅)
      (by rw [Nat.zero_add, expect_rsccw_s_2_1 X c])) $$ [Hcs_rsccw_s_2_1 HO Hat_rsccw_s_2]
  · isplitr; · iexact HIo
    isplitl [Hcs_rsccw_s_2_1]; · iexact Hcs_rsccw_s_2_1
    isplitl [HO]; · iexact HO
    isplitr; · iapply (mayWait_rem (F := F) c 23 (by decide) _ (by show (0 : ℕ) < 2 + 23; decide)); iexact Hlev
    iexact Hat_rsccw_s_2
  iintro ⟨HO, Hat_rsccw_s_2, #Hrch_rsccw_s_2_2, Hpay⟩
  iclear HIo
  ihave Hp := (Entails.of_eq (rest_single X _ _ _ (duties_rsccw_s_2_1 X c) (payload_rsccw_s_2_1 X c false))) $$ Hpay
  irename Hp => Hback_rsccw_r_2_0
  -- send rs ccw t=5 b=0 (payment 23, device function 24)
  try sl_exec_parts
  ihave HO := (owes_congr (rem_peel_23 c)) $$ HO
  ihave #HIo := (bigSepL_elim_idx ownQs _ 6 (by decide)) $$ HInvOwn
  ihave #HIt := (bigSepL_elim_idx recvCcw _ 10 (by decide)) $$ HInbCcw
  iapply (@send_owns_at F _ X c (prv c) ⟨k0_dev24 c, k0_dev24_lt c⟩ (dev24_eq c _) (slot bM 4 0 inb_S15x128x1024_S1x64x1024_4_0_0) (slot bM 5 0 inb_S15x128x1024_S1x64x1024_5_0_0) _ (qS cc0_scratch4 2 inb_S4_S1_2) (qR cc0_scratch5 5 0 inb_S15x2_S1x1_5_0) _ _ _ _ _ _ fullShare (addV X false 0 4 c) 2 (K (dcell c (qS cc0_scratch4 2 inb_S4_S1_2))) (K (dcell (prv c) (qR cc0_scratch5 5 0 inb_S15x2_S1x1_5_0))) _ (rem c 24) _ (by rw [duties_rsccw_s_2_2 X c]; exact Finset.mem_singleton_self _) (by rw [duties_rsccw_r_5_0 X (prv c)]; exact Finset.mem_singleton_self _) (by exact amount_rsccw_s_2_2 X c false) (by exact amount_rsccw_r_5_0 X (prv c) false) (by rfl) (by exact payload_rsccw_s_2_2 X c false) (by exact hp2_rsccw_r_5_0 X c) (by rfl) (by routes)) $$ [Hs_rsccw_r_4_0 Hd_rsccw_r_5_0 HO Hts_rsccw_s_2_2 Htn_rsccw_r_5_0]
  · isplitr; · iexact HIo
    isplitr; · iexact HIt
    isplitl [Hs_rsccw_r_4_0]; · iapply (owns_intro_add X false 4 0 0 c 6 bM _ f_rsccw_r_4_0 _ _ _ rfl (off4_6_0 c) hf_rsccw_r_4_0 (addV_eq_ccw_4_0 X c)); iexact Hs_rsccw_r_4_0
    isplitl [Hd_rsccw_r_5_0]; · iexact Hd_rsccw_r_5_0
    isplitl [HO]; · iexact HO
    isplitl [Hts_rsccw_s_2_2]; · iexact Hts_rsccw_s_2_2
    isplitr; · iexact Hrch_rsccw_s_2_2
    isplitl [Htn_rsccw_r_5_0]; · iexact Htn_rsccw_r_5_0
    iexact Hrn_rsccw_r_5_0
  iintro ⟨Hcs_rsccw_s_2_2, HO⟩
  iclear HIo HIt
  -- wait recv rs cw t=4 b=1
  try sl_exec_parts
  ihave #HIo := (bigSepL_elim_idx ownQs _ 25 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 24) (W := _) (R := 0) (m := 0) (T := ∅)
      (by rw [Nat.zero_add, expect_rscw_r_4_1 X c])) $$ [Hc_rscw_r_4_1 HO Hat_rscw_r_4_1]
  · isplitr; · iexact HIo
    isplitl [Hc_rscw_r_4_1]; · iexact Hc_rscw_r_4_1
    isplitl [HO]; · iexact HO
    isplitr; · iapply (mayWait_rem (F := F) c 24 (by decide) _ (by show (22 : ℕ) < 2 + 24; decide)); iexact Hlev
    iexact Hat_rscw_r_4_1
  iintro ⟨HO, Hat_rscw_r_4_1, #Hrch_rscw_r_4_1_1, Hpay⟩
  iclear HIo
  ihave Hp := (Entails.of_eq (rest_single X _ _ _ (duties_rscw_r_4_1 X c) (payload_rscw_r_4_1 X c false))) $$ Hpay
  ihave Hq := (owns_elim _ _ _) $$ Hp
  icases Hq with ⟨%f_rscw_r_4_1, %hf_rscw_r_4_1, Hs_rscw_r_4_1⟩
  -- add cw s=4 b=1: the loads and the store run by themselves (within the next run)
  -- wait send rs cw t=3 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 24) (W := _) (R := 1) (m := 0) (T := ∅)
      (by rw [Nat.zero_add, expect_rscw_s_3_1 X c])) $$ [Hcs_rscw_s_3_1 HO Hat_rscw_s_3]
  · isplitr; · iexact HIo
    isplitl [Hcs_rscw_s_3_1]; · iexact Hcs_rscw_s_3_1
    isplitl [HO]; · iexact HO
    isplitr; · iapply (mayWait_rem (F := F) c 24 (by decide) _ (by show (0 : ℕ) < 2 + 24; decide)); iexact Hlev
    iexact Hat_rscw_s_3
  iintro ⟨HO, Hat_rscw_s_3, #Hrch_rscw_s_3_2, Hpay⟩
  iclear HIo
  ihave Hp := (Entails.of_eq (rest_single X _ _ _ (duties_rscw_s_3_1 X c) (payload_rscw_s_3_1 X c false))) $$ Hpay
  irename Hp => Hback_rscw_r_2_1
  -- send rs cw t=5 b=1 (payment 24, device function 25)
  try sl_exec_parts
  ihave HO := (owes_congr (rem_peel_24 c)) $$ HO
  ihave #HIo := (bigSepL_elim_idx ownQs _ 3 (by decide)) $$ HInvOwn
  ihave #HIt := (bigSepL_elim_idx recvCw _ 11 (by decide)) $$ HInbCw
  iapply (@send_owns_at F _ X c (nxt c) ⟨k0_dev25 c, k0_dev25_lt c⟩ (dev25_eq c _) (slot aM 4 64 inb_S15x128x1024_S1x64x1024_4_64_0) (slot aM 5 64 inb_S15x128x1024_S1x64x1024_5_64_0) _ (qS cc0_scratch2 3 inb_S4_S1_3) (qR cc0_scratch3 5 1 inb_S15x2_S1x1_5_1) _ _ _ _ _ _ fullShare (addV X true 1 4 c) 2 (K (dcell c (qS cc0_scratch2 3 inb_S4_S1_3))) (K (dcell (nxt c) (qR cc0_scratch3 5 1 inb_S15x2_S1x1_5_1))) _ (rem c 25) _ (by rw [duties_rscw_s_3_2 X c]; exact Finset.mem_singleton_self _) (by rw [duties_rscw_r_5_1 X (nxt c)]; exact Finset.mem_singleton_self _) (by exact amount_rscw_s_3_2 X c false) (by exact amount_rscw_r_5_1 X (nxt c) false) (by rfl) (by exact payload_rscw_s_3_2 X c false) (by exact hp2_rscw_r_5_1 X c) (by rfl) (by routes)) $$ [Hs_rscw_r_4_1 Hd_rscw_r_5_1 HO Hts_rscw_s_3_2 Htn_rscw_r_5_1]
  · isplitr; · iexact HIo
    isplitr; · iexact HIt
    isplitl [Hs_rscw_r_4_1]; · iapply (owns_intro_add X true 4 64 1 c 10 aM _ f_rscw_r_4_1 _ _ _ rfl (off3_m6_64 c) hf_rscw_r_4_1 (addV_eq_cw_4_1 X c)); iexact Hs_rscw_r_4_1
    isplitl [Hd_rscw_r_5_1]; · iexact Hd_rscw_r_5_1
    isplitl [HO]; · iexact HO
    isplitl [Hts_rscw_s_3_2]; · iexact Hts_rscw_s_3_2
    isplitr; · iexact Hrch_rscw_s_3_2
    isplitl [Htn_rscw_r_5_1]; · iexact Htn_rscw_r_5_1
    iexact Hrn_rscw_r_5_1
  iintro ⟨Hcs_rscw_s_3_2, HO⟩
  iclear HIo HIt
  -- wait recv rs ccw t=4 b=1
  try sl_exec_parts
  ihave #HIo := (bigSepL_elim_idx ownQs _ 85 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 25) (W := _) (R := 0) (m := 0) (T := ∅)
      (by rw [Nat.zero_add, expect_rsccw_r_4_1 X c])) $$ [Hc_rsccw_r_4_1 HO Hat_rsccw_r_4_1]
  · isplitr; · iexact HIo
    isplitl [Hc_rsccw_r_4_1]; · iexact Hc_rsccw_r_4_1
    isplitl [HO]; · iexact HO
    isplitr; · iapply (mayWait_rem (F := F) c 25 (by decide) _ (by show (23 : ℕ) < 2 + 25; decide)); iexact Hlev
    iexact Hat_rsccw_r_4_1
  iintro ⟨HO, Hat_rsccw_r_4_1, #Hrch_rsccw_r_4_1_1, Hpay⟩
  iclear HIo
  ihave Hp := (Entails.of_eq (rest_single X _ _ _ (duties_rsccw_r_4_1 X c) (payload_rsccw_r_4_1 X c false))) $$ Hpay
  ihave Hq := (owns_elim _ _ _) $$ Hp
  icases Hq with ⟨%f_rsccw_r_4_1, %hf_rsccw_r_4_1, Hs_rsccw_r_4_1⟩
  -- add ccw s=4 b=1: the loads and the store run by themselves (within the next run)
  -- wait send rs ccw t=3 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 25) (W := _) (R := 1) (m := 0) (T := ∅)
      (by rw [Nat.zero_add, expect_rsccw_s_3_1 X c])) $$ [Hcs_rsccw_s_3_1 HO Hat_rsccw_s_3]
  · isplitr; · iexact HIo
    isplitl [Hcs_rsccw_s_3_1]; · iexact Hcs_rsccw_s_3_1
    isplitl [HO]; · iexact HO
    isplitr; · iapply (mayWait_rem (F := F) c 25 (by decide) _ (by show (0 : ℕ) < 2 + 25; decide)); iexact Hlev
    iexact Hat_rsccw_s_3
  iintro ⟨HO, Hat_rsccw_s_3, #Hrch_rsccw_s_3_2, Hpay⟩
  iclear HIo
  ihave Hp := (Entails.of_eq (rest_single X _ _ _ (duties_rsccw_s_3_1 X c) (payload_rsccw_s_3_1 X c false))) $$ Hpay
  irename Hp => Hback_rsccw_r_2_1
  -- send rs ccw t=5 b=1 (payment 25, device function 26)
  try sl_exec_parts
  ihave HO := (owes_congr (rem_peel_25 c)) $$ HO
  ihave #HIo := (bigSepL_elim_idx ownQs _ 7 (by decide)) $$ HInvOwn
  ihave #HIt := (bigSepL_elim_idx recvCcw _ 11 (by decide)) $$ HInbCcw
  iapply (@send_owns_at F _ X c (prv c) ⟨k0_dev26 c, k0_dev26_lt c⟩ (dev26_eq c _) (slot bM 4 64 inb_S15x128x1024_S1x64x1024_4_64_0) (slot bM 5 64 inb_S15x128x1024_S1x64x1024_5_64_0) _ (qS cc0_scratch4 3 inb_S4_S1_3) (qR cc0_scratch5 5 1 inb_S15x2_S1x1_5_1) _ _ _ _ _ _ fullShare (addV X false 1 4 c) 2 (K (dcell c (qS cc0_scratch4 3 inb_S4_S1_3))) (K (dcell (prv c) (qR cc0_scratch5 5 1 inb_S15x2_S1x1_5_1))) _ (rem c 26) _ (by rw [duties_rsccw_s_3_2 X c]; exact Finset.mem_singleton_self _) (by rw [duties_rsccw_r_5_1 X (prv c)]; exact Finset.mem_singleton_self _) (by exact amount_rsccw_s_3_2 X c false) (by exact amount_rsccw_r_5_1 X (prv c) false) (by rfl) (by exact payload_rsccw_s_3_2 X c false) (by exact hp2_rsccw_r_5_1 X c) (by rfl) (by routes)) $$ [Hs_rsccw_r_4_1 Hd_rsccw_r_5_1 HO Hts_rsccw_s_3_2 Htn_rsccw_r_5_1]
  · isplitr; · iexact HIo
    isplitr; · iexact HIt
    isplitl [Hs_rsccw_r_4_1]; · iapply (owns_intro_add X false 4 64 1 c 6 bM _ f_rsccw_r_4_1 _ _ _ rfl (off4_6_64 c) hf_rsccw_r_4_1 (addV_eq_ccw_4_1 X c)); iexact Hs_rsccw_r_4_1
    isplitl [Hd_rsccw_r_5_1]; · iexact Hd_rsccw_r_5_1
    isplitl [HO]; · iexact HO
    isplitl [Hts_rsccw_s_3_2]; · iexact Hts_rsccw_s_3_2
    isplitr; · iexact Hrch_rsccw_s_3_2
    isplitl [Htn_rsccw_r_5_1]; · iexact Htn_rsccw_r_5_1
    iexact Hrn_rsccw_r_5_1
  iintro ⟨Hcs_rsccw_s_3_2, HO⟩
  iclear HIo HIt
  -- wait recv rs cw t=5 b=0
  try sl_exec_parts
  ihave #HIo := (bigSepL_elim_idx ownQs _ 26 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 26) (W := _) (R := 0) (m := 0) (T := ∅)
      (by rw [Nat.zero_add, expect_rscw_r_5_0 X c])) $$ [Hc_rscw_r_5_0 HO Hat_rscw_r_5_0]
  · isplitr; · iexact HIo
    isplitl [Hc_rscw_r_5_0]; · iexact Hc_rscw_r_5_0
    isplitl [HO]; · iexact HO
    isplitr; · iapply (mayWait_rem (F := F) c 26 (by decide) _ (by show (24 : ℕ) < 2 + 26; decide)); iexact Hlev
    iexact Hat_rscw_r_5_0
  iintro ⟨HO, Hat_rscw_r_5_0, #Hrch_rscw_r_5_0_1, Hpay⟩
  iclear HIo
  ihave Hp := (Entails.of_eq (rest_single X _ _ _ (duties_rscw_r_5_0 X c) (payload_rscw_r_5_0 X c false))) $$ Hpay
  ihave Hq := (owns_elim _ _ _) $$ Hp
  icases Hq with ⟨%f_rscw_r_5_0, %hf_rscw_r_5_0, Hs_rscw_r_5_0⟩
  -- add cw s=5 b=0: the loads and the store run by themselves (within the next run)
  -- wait send rs cw t=4 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 26) (W := _) (R := 2) (m := 0) (T := ∅)
      (by rw [Nat.zero_add, expect_rscw_s_0_2 X c])) $$ [Hcs_rscw_s_0_2 HO Hat_rscw_s_0]
  · isplitr; · iexact HIo
    isplitl [Hcs_rscw_s_0_2]; · iexact Hcs_rscw_s_0_2
    isplitl [HO]; · iexact HO
    isplitr; · iapply (mayWait_rem (F := F) c 26 (by decide) _ (by show (0 : ℕ) < 2 + 26; decide)); iexact Hlev
    iexact Hat_rscw_s_0
  iintro ⟨HO, Hat_rscw_s_0, #Hrch_rscw_s_0_3, Hpay⟩
  iclear HIo
  ihave Hp := (Entails.of_eq (rest_single X _ _ _ (duties_rscw_s_0_2 X c) (payload_rscw_s_0_2 X c false))) $$ Hpay
  irename Hp => Hback_rscw_r_3_0
  -- send rs cw t=6 b=0 (payment 26, device function 27)
  try sl_exec_parts
  ihave HO := (owes_congr (rem_peel_26 c)) $$ HO
  ihave #HIo := (bigSepL_elim_idx ownQs _ 0 (by decide)) $$ HInvOwn
  ihave #HIt := (bigSepL_elim_idx recvCw _ 12 (by decide)) $$ HInbCw
  iapply (@send_owns_at F _ X c (nxt c) ⟨k0_dev27 c, k0_dev27_lt c⟩ (dev27_eq c _) (slot aM 5 0 inb_S15x128x1024_S1x64x1024_5_0_0) (slot aM 6 0 inb_S15x128x1024_S1x64x1024_6_0_0) _ (qS cc0_scratch2 0 inb_S4_S1_0) (qR cc0_scratch3 6 0 inb_S15x2_S1x1_6_0) _ _ _ _ _ _ fullShare (addV X true 0 5 c) 3 (K (dcell c (qS cc0_scratch2 0 inb_S4_S1_0))) (K (dcell (nxt c) (qR cc0_scratch3 6 0 inb_S15x2_S1x1_6_0))) _ (rem c 27) _ (by rw [duties_rscw_s_0_3 X c]; exact Finset.mem_singleton_self _) (by rw [duties_rscw_r_6_0 X (nxt c)]; exact Finset.mem_singleton_self _) (by exact amount_rscw_s_0_3 X c false) (by exact amount_rscw_r_6_0 X (nxt c) false) (by rfl) (by exact payload_rscw_s_0_3 X c false) (by exact hp2_rscw_r_6_0 X c) (by rfl) (by routes)) $$ [Hs_rscw_r_5_0 Hd_rscw_r_6_0 HO Hts_rscw_s_0_3 Htn_rscw_r_6_0]
  · isplitr; · iexact HIo
    isplitr; · iexact HIt
    isplitl [Hs_rscw_r_5_0]; · iapply (owns_intro_add X true 5 0 0 c 9 aM _ f_rscw_r_5_0 _ _ _ rfl (off3_m7_0 c) hf_rscw_r_5_0 (addV_eq_cw_5_0 X c)); iexact Hs_rscw_r_5_0
    isplitl [Hd_rscw_r_6_0]; · iexact Hd_rscw_r_6_0
    isplitl [HO]; · iexact HO
    isplitl [Hts_rscw_s_0_3]; · iexact Hts_rscw_s_0_3
    isplitr; · iexact Hrch_rscw_s_0_3
    isplitl [Htn_rscw_r_6_0]; · iexact Htn_rscw_r_6_0
    iexact Hrn_rscw_r_6_0
  iintro ⟨Hcs_rscw_s_0_3, HO⟩
  iclear HIo HIt
  -- wait recv rs ccw t=5 b=0
  try sl_exec_parts
  ihave #HIo := (bigSepL_elim_idx ownQs _ 86 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 27) (W := _) (R := 0) (m := 0) (T := ∅)
      (by rw [Nat.zero_add, expect_rsccw_r_5_0 X c])) $$ [Hc_rsccw_r_5_0 HO Hat_rsccw_r_5_0]
  · isplitr; · iexact HIo
    isplitl [Hc_rsccw_r_5_0]; · iexact Hc_rsccw_r_5_0
    isplitl [HO]; · iexact HO
    isplitr; · iapply (mayWait_rem (F := F) c 27 (by decide) _ (by show (25 : ℕ) < 2 + 27; decide)); iexact Hlev
    iexact Hat_rsccw_r_5_0
  iintro ⟨HO, Hat_rsccw_r_5_0, #Hrch_rsccw_r_5_0_1, Hpay⟩
  iclear HIo
  ihave Hp := (Entails.of_eq (rest_single X _ _ _ (duties_rsccw_r_5_0 X c) (payload_rsccw_r_5_0 X c false))) $$ Hpay
  ihave Hq := (owns_elim _ _ _) $$ Hp
  icases Hq with ⟨%f_rsccw_r_5_0, %hf_rsccw_r_5_0, Hs_rsccw_r_5_0⟩
  -- add ccw s=5 b=0: the loads and the store run by themselves (within the next run)
  -- wait send rs ccw t=4 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 27) (W := _) (R := 2) (m := 0) (T := ∅)
      (by rw [Nat.zero_add, expect_rsccw_s_0_2 X c])) $$ [Hcs_rsccw_s_0_2 HO Hat_rsccw_s_0]
  · isplitr; · iexact HIo
    isplitl [Hcs_rsccw_s_0_2]; · iexact Hcs_rsccw_s_0_2
    isplitl [HO]; · iexact HO
    isplitr; · iapply (mayWait_rem (F := F) c 27 (by decide) _ (by show (0 : ℕ) < 2 + 27; decide)); iexact Hlev
    iexact Hat_rsccw_s_0
  iintro ⟨HO, Hat_rsccw_s_0, #Hrch_rsccw_s_0_3, Hpay⟩
  iclear HIo
  ihave Hp := (Entails.of_eq (rest_single X _ _ _ (duties_rsccw_s_0_2 X c) (payload_rsccw_s_0_2 X c false))) $$ Hpay
  irename Hp => Hback_rsccw_r_3_0
  -- send rs ccw t=6 b=0 (payment 27, device function 28)
  try sl_exec_parts
  ihave HO := (owes_congr (rem_peel_27 c)) $$ HO
  ihave #HIo := (bigSepL_elim_idx ownQs _ 4 (by decide)) $$ HInvOwn
  ihave #HIt := (bigSepL_elim_idx recvCcw _ 12 (by decide)) $$ HInbCcw
  iapply (@send_owns_at F _ X c (prv c) ⟨k0_dev28 c, k0_dev28_lt c⟩ (dev28_eq c _) (slot bM 5 0 inb_S15x128x1024_S1x64x1024_5_0_0) (slot bM 6 0 inb_S15x128x1024_S1x64x1024_6_0_0) _ (qS cc0_scratch4 0 inb_S4_S1_0) (qR cc0_scratch5 6 0 inb_S15x2_S1x1_6_0) _ _ _ _ _ _ fullShare (addV X false 0 5 c) 3 (K (dcell c (qS cc0_scratch4 0 inb_S4_S1_0))) (K (dcell (prv c) (qR cc0_scratch5 6 0 inb_S15x2_S1x1_6_0))) _ (rem c 28) _ (by rw [duties_rsccw_s_0_3 X c]; exact Finset.mem_singleton_self _) (by rw [duties_rsccw_r_6_0 X (prv c)]; exact Finset.mem_singleton_self _) (by exact amount_rsccw_s_0_3 X c false) (by exact amount_rsccw_r_6_0 X (prv c) false) (by rfl) (by exact payload_rsccw_s_0_3 X c false) (by exact hp2_rsccw_r_6_0 X c) (by rfl) (by routes)) $$ [Hs_rsccw_r_5_0 Hd_rsccw_r_6_0 HO Hts_rsccw_s_0_3 Htn_rsccw_r_6_0]
  · isplitr; · iexact HIo
    isplitr; · iexact HIt
    isplitl [Hs_rsccw_r_5_0]; · iapply (owns_intro_add X false 5 0 0 c 7 bM _ f_rsccw_r_5_0 _ _ _ rfl (off4_7_0 c) hf_rsccw_r_5_0 (addV_eq_ccw_5_0 X c)); iexact Hs_rsccw_r_5_0
    isplitl [Hd_rsccw_r_6_0]; · iexact Hd_rsccw_r_6_0
    isplitl [HO]; · iexact HO
    isplitl [Hts_rsccw_s_0_3]; · iexact Hts_rsccw_s_0_3
    isplitr; · iexact Hrch_rsccw_s_0_3
    isplitl [Htn_rsccw_r_6_0]; · iexact Htn_rsccw_r_6_0
    iexact Hrn_rsccw_r_6_0
  iintro ⟨Hcs_rsccw_s_0_3, HO⟩
  iclear HIo HIt
  -- wait recv rs cw t=5 b=1
  try sl_exec_parts
  ihave #HIo := (bigSepL_elim_idx ownQs _ 27 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 28) (W := _) (R := 0) (m := 0) (T := ∅)
      (by rw [Nat.zero_add, expect_rscw_r_5_1 X c])) $$ [Hc_rscw_r_5_1 HO Hat_rscw_r_5_1]
  · isplitr; · iexact HIo
    isplitl [Hc_rscw_r_5_1]; · iexact Hc_rscw_r_5_1
    isplitl [HO]; · iexact HO
    isplitr; · iapply (mayWait_rem (F := F) c 28 (by decide) _ (by show (26 : ℕ) < 2 + 28; decide)); iexact Hlev
    iexact Hat_rscw_r_5_1
  iintro ⟨HO, Hat_rscw_r_5_1, #Hrch_rscw_r_5_1_1, Hpay⟩
  iclear HIo
  ihave Hp := (Entails.of_eq (rest_single X _ _ _ (duties_rscw_r_5_1 X c) (payload_rscw_r_5_1 X c false))) $$ Hpay
  ihave Hq := (owns_elim _ _ _) $$ Hp
  icases Hq with ⟨%f_rscw_r_5_1, %hf_rscw_r_5_1, Hs_rscw_r_5_1⟩
  -- add cw s=5 b=1: the loads and the store run by themselves (within the next run)
  -- wait send rs cw t=4 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 28) (W := _) (R := 2) (m := 0) (T := ∅)
      (by rw [Nat.zero_add, expect_rscw_s_1_2 X c])) $$ [Hcs_rscw_s_1_2 HO Hat_rscw_s_1]
  · isplitr; · iexact HIo
    isplitl [Hcs_rscw_s_1_2]; · iexact Hcs_rscw_s_1_2
    isplitl [HO]; · iexact HO
    isplitr; · iapply (mayWait_rem (F := F) c 28 (by decide) _ (by show (0 : ℕ) < 2 + 28; decide)); iexact Hlev
    iexact Hat_rscw_s_1
  iintro ⟨HO, Hat_rscw_s_1, #Hrch_rscw_s_1_3, Hpay⟩
  iclear HIo
  ihave Hp := (Entails.of_eq (rest_single X _ _ _ (duties_rscw_s_1_2 X c) (payload_rscw_s_1_2 X c false))) $$ Hpay
  irename Hp => Hback_rscw_r_3_1
  -- send rs cw t=6 b=1 (payment 28, device function 29)
  try sl_exec_parts
  ihave HO := (owes_congr (rem_peel_28 c)) $$ HO
  ihave #HIo := (bigSepL_elim_idx ownQs _ 1 (by decide)) $$ HInvOwn
  ihave #HIt := (bigSepL_elim_idx recvCw _ 13 (by decide)) $$ HInbCw
  iapply (@send_owns_at F _ X c (nxt c) ⟨k0_dev29 c, k0_dev29_lt c⟩ (dev29_eq c _) (slot aM 5 64 inb_S15x128x1024_S1x64x1024_5_64_0) (slot aM 6 64 inb_S15x128x1024_S1x64x1024_6_64_0) _ (qS cc0_scratch2 1 inb_S4_S1_1) (qR cc0_scratch3 6 1 inb_S15x2_S1x1_6_1) _ _ _ _ _ _ fullShare (addV X true 1 5 c) 3 (K (dcell c (qS cc0_scratch2 1 inb_S4_S1_1))) (K (dcell (nxt c) (qR cc0_scratch3 6 1 inb_S15x2_S1x1_6_1))) _ (rem c 29) _ (by rw [duties_rscw_s_1_3 X c]; exact Finset.mem_singleton_self _) (by rw [duties_rscw_r_6_1 X (nxt c)]; exact Finset.mem_singleton_self _) (by exact amount_rscw_s_1_3 X c false) (by exact amount_rscw_r_6_1 X (nxt c) false) (by rfl) (by exact payload_rscw_s_1_3 X c false) (by exact hp2_rscw_r_6_1 X c) (by rfl) (by routes)) $$ [Hs_rscw_r_5_1 Hd_rscw_r_6_1 HO Hts_rscw_s_1_3 Htn_rscw_r_6_1]
  · isplitr; · iexact HIo
    isplitr; · iexact HIt
    isplitl [Hs_rscw_r_5_1]; · iapply (owns_intro_add X true 5 64 1 c 9 aM _ f_rscw_r_5_1 _ _ _ rfl (off3_m7_64 c) hf_rscw_r_5_1 (addV_eq_cw_5_1 X c)); iexact Hs_rscw_r_5_1
    isplitl [Hd_rscw_r_6_1]; · iexact Hd_rscw_r_6_1
    isplitl [HO]; · iexact HO
    isplitl [Hts_rscw_s_1_3]; · iexact Hts_rscw_s_1_3
    isplitr; · iexact Hrch_rscw_s_1_3
    isplitl [Htn_rscw_r_6_1]; · iexact Htn_rscw_r_6_1
    iexact Hrn_rscw_r_6_1
  iintro ⟨Hcs_rscw_s_1_3, HO⟩
  iclear HIo HIt
  -- wait recv rs ccw t=5 b=1
  try sl_exec_parts
  ihave #HIo := (bigSepL_elim_idx ownQs _ 87 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 29) (W := _) (R := 0) (m := 0) (T := ∅)
      (by rw [Nat.zero_add, expect_rsccw_r_5_1 X c])) $$ [Hc_rsccw_r_5_1 HO Hat_rsccw_r_5_1]
  · isplitr; · iexact HIo
    isplitl [Hc_rsccw_r_5_1]; · iexact Hc_rsccw_r_5_1
    isplitl [HO]; · iexact HO
    isplitr; · iapply (mayWait_rem (F := F) c 29 (by decide) _ (by show (27 : ℕ) < 2 + 29; decide)); iexact Hlev
    iexact Hat_rsccw_r_5_1
  iintro ⟨HO, Hat_rsccw_r_5_1, #Hrch_rsccw_r_5_1_1, Hpay⟩
  iclear HIo
  ihave Hp := (Entails.of_eq (rest_single X _ _ _ (duties_rsccw_r_5_1 X c) (payload_rsccw_r_5_1 X c false))) $$ Hpay
  ihave Hq := (owns_elim _ _ _) $$ Hp
  icases Hq with ⟨%f_rsccw_r_5_1, %hf_rsccw_r_5_1, Hs_rsccw_r_5_1⟩
  -- add ccw s=5 b=1: the loads and the store run by themselves (within the next run)
  -- wait send rs ccw t=4 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 29) (W := _) (R := 2) (m := 0) (T := ∅)
      (by rw [Nat.zero_add, expect_rsccw_s_1_2 X c])) $$ [Hcs_rsccw_s_1_2 HO Hat_rsccw_s_1]
  · isplitr; · iexact HIo
    isplitl [Hcs_rsccw_s_1_2]; · iexact Hcs_rsccw_s_1_2
    isplitl [HO]; · iexact HO
    isplitr; · iapply (mayWait_rem (F := F) c 29 (by decide) _ (by show (0 : ℕ) < 2 + 29; decide)); iexact Hlev
    iexact Hat_rsccw_s_1
  iintro ⟨HO, Hat_rsccw_s_1, #Hrch_rsccw_s_1_3, Hpay⟩
  iclear HIo
  ihave Hp := (Entails.of_eq (rest_single X _ _ _ (duties_rsccw_s_1_2 X c) (payload_rsccw_s_1_2 X c false))) $$ Hpay
  irename Hp => Hback_rsccw_r_3_1
  -- send rs ccw t=6 b=1 (payment 29, device function 30)
  try sl_exec_parts
  ihave HO := (owes_congr (rem_peel_29 c)) $$ HO
  ihave #HIo := (bigSepL_elim_idx ownQs _ 5 (by decide)) $$ HInvOwn
  ihave #HIt := (bigSepL_elim_idx recvCcw _ 13 (by decide)) $$ HInbCcw
  iapply (@send_owns_at F _ X c (prv c) ⟨k0_dev30 c, k0_dev30_lt c⟩ (dev30_eq c _) (slot bM 5 64 inb_S15x128x1024_S1x64x1024_5_64_0) (slot bM 6 64 inb_S15x128x1024_S1x64x1024_6_64_0) _ (qS cc0_scratch4 1 inb_S4_S1_1) (qR cc0_scratch5 6 1 inb_S15x2_S1x1_6_1) _ _ _ _ _ _ fullShare (addV X false 1 5 c) 3 (K (dcell c (qS cc0_scratch4 1 inb_S4_S1_1))) (K (dcell (prv c) (qR cc0_scratch5 6 1 inb_S15x2_S1x1_6_1))) _ (rem c 30) _ (by rw [duties_rsccw_s_1_3 X c]; exact Finset.mem_singleton_self _) (by rw [duties_rsccw_r_6_1 X (prv c)]; exact Finset.mem_singleton_self _) (by exact amount_rsccw_s_1_3 X c false) (by exact amount_rsccw_r_6_1 X (prv c) false) (by rfl) (by exact payload_rsccw_s_1_3 X c false) (by exact hp2_rsccw_r_6_1 X c) (by rfl) (by routes)) $$ [Hs_rsccw_r_5_1 Hd_rsccw_r_6_1 HO Hts_rsccw_s_1_3 Htn_rsccw_r_6_1]
  · isplitr; · iexact HIo
    isplitr; · iexact HIt
    isplitl [Hs_rsccw_r_5_1]; · iapply (owns_intro_add X false 5 64 1 c 7 bM _ f_rsccw_r_5_1 _ _ _ rfl (off4_7_64 c) hf_rsccw_r_5_1 (addV_eq_ccw_5_1 X c)); iexact Hs_rsccw_r_5_1
    isplitl [Hd_rsccw_r_6_1]; · iexact Hd_rsccw_r_6_1
    isplitl [HO]; · iexact HO
    isplitl [Hts_rsccw_s_1_3]; · iexact Hts_rsccw_s_1_3
    isplitr; · iexact Hrch_rsccw_s_1_3
    isplitl [Htn_rsccw_r_6_1]; · iexact Htn_rsccw_r_6_1
    iexact Hrn_rsccw_r_6_1
  iintro ⟨Hcs_rsccw_s_1_3, HO⟩
  iclear HIo HIt
  -- wait recv rs cw t=6 b=0
  try sl_exec_parts
  ihave #HIo := (bigSepL_elim_idx ownQs _ 28 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 30) (W := _) (R := 0) (m := 0) (T := ∅)
      (by rw [Nat.zero_add, expect_rscw_r_6_0 X c])) $$ [Hc_rscw_r_6_0 HO Hat_rscw_r_6_0]
  · isplitr; · iexact HIo
    isplitl [Hc_rscw_r_6_0]; · iexact Hc_rscw_r_6_0
    isplitl [HO]; · iexact HO
    isplitr; · iapply (mayWait_rem (F := F) c 30 (by decide) _ (by show (28 : ℕ) < 2 + 30; decide)); iexact Hlev
    iexact Hat_rscw_r_6_0
  iintro ⟨HO, Hat_rscw_r_6_0, #Hrch_rscw_r_6_0_1, Hpay⟩
  iclear HIo
  ihave Hp := (Entails.of_eq (rest_single X _ _ _ (duties_rscw_r_6_0 X c) (payload_rscw_r_6_0 X c false))) $$ Hpay
  ihave Hq := (owns_elim _ _ _) $$ Hp
  icases Hq with ⟨%f_rscw_r_6_0, %hf_rscw_r_6_0, Hs_rscw_r_6_0⟩
  -- add cw s=6 b=0: the loads and the store run by themselves (within the next run)
  -- wait send rs cw t=5 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 30) (W := _) (R := 2) (m := 0) (T := ∅)
      (by rw [Nat.zero_add, expect_rscw_s_2_2 X c])) $$ [Hcs_rscw_s_2_2 HO Hat_rscw_s_2]
  · isplitr; · iexact HIo
    isplitl [Hcs_rscw_s_2_2]; · iexact Hcs_rscw_s_2_2
    isplitl [HO]; · iexact HO
    isplitr; · iapply (mayWait_rem (F := F) c 30 (by decide) _ (by show (0 : ℕ) < 2 + 30; decide)); iexact Hlev
    iexact Hat_rscw_s_2
  iintro ⟨HO, Hat_rscw_s_2, #Hrch_rscw_s_2_3, Hpay⟩
  iclear HIo
  ihave Hp := (Entails.of_eq (rest_single X _ _ _ (duties_rscw_s_2_2 X c) (payload_rscw_s_2_2 X c false))) $$ Hpay
  irename Hp => Hback_rscw_r_4_0
  -- send rs cw t=7 b=0 (payment 30, device function 31)
  try sl_exec_parts
  ihave HO := (owes_congr (rem_peel_30 c)) $$ HO
  ihave #HIo := (bigSepL_elim_idx ownQs _ 2 (by decide)) $$ HInvOwn
  ihave #HIt := (bigSepL_elim_idx recvCw _ 14 (by decide)) $$ HInbCw
  iapply (@send_owns_at F _ X c (nxt c) ⟨k0_dev31 c, k0_dev31_lt c⟩ (dev31_eq c _) (slot aM 6 0 inb_S15x128x1024_S1x64x1024_6_0_0) (slot aM 7 0 inb_S15x128x1024_S1x64x1024_7_0_0) _ (qS cc0_scratch2 2 inb_S4_S1_2) (qR cc0_scratch3 7 0 inb_S15x2_S1x1_7_0) _ _ _ _ _ _ fullShare (addV X true 0 6 c) 3 (K (dcell c (qS cc0_scratch2 2 inb_S4_S1_2))) (K (dcell (nxt c) (qR cc0_scratch3 7 0 inb_S15x2_S1x1_7_0))) _ (rem c 31) _ (by rw [duties_rscw_s_2_3 X c]; exact Finset.mem_singleton_self _) (by rw [duties_rscw_r_7_0 X (nxt c)]; exact Finset.mem_singleton_self _) (by exact amount_rscw_s_2_3 X c false) (by exact amount_rscw_r_7_0 X (nxt c) false) (by rfl) (by exact payload_rscw_s_2_3 X c false) (by exact hp2_rscw_r_7_0 X c) (by rfl) (by routes)) $$ [Hs_rscw_r_6_0 Hd_rscw_r_7_0 HO Hts_rscw_s_2_3 Htn_rscw_r_7_0]
  · isplitr; · iexact HIo
    isplitr; · iexact HIt
    isplitl [Hs_rscw_r_6_0]; · iapply (owns_intro_add X true 6 0 0 c 8 aM _ f_rscw_r_6_0 _ _ _ rfl (off3_m8_0 c) hf_rscw_r_6_0 (addV_eq_cw_6_0 X c)); iexact Hs_rscw_r_6_0
    isplitl [Hd_rscw_r_7_0]; · iexact Hd_rscw_r_7_0
    isplitl [HO]; · iexact HO
    isplitl [Hts_rscw_s_2_3]; · iexact Hts_rscw_s_2_3
    isplitr; · iexact Hrch_rscw_s_2_3
    isplitl [Htn_rscw_r_7_0]; · iexact Htn_rscw_r_7_0
    iexact Hrn_rscw_r_7_0
  iintro ⟨Hcs_rscw_s_2_3, HO⟩
  iclear HIo HIt
  -- wait recv rs ccw t=6 b=0
  try sl_exec_parts
  ihave #HIo := (bigSepL_elim_idx ownQs _ 88 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 31) (W := _) (R := 0) (m := 0) (T := ∅)
      (by rw [Nat.zero_add, expect_rsccw_r_6_0 X c])) $$ [Hc_rsccw_r_6_0 HO Hat_rsccw_r_6_0]
  · isplitr; · iexact HIo
    isplitl [Hc_rsccw_r_6_0]; · iexact Hc_rsccw_r_6_0
    isplitl [HO]; · iexact HO
    isplitr; · iapply (mayWait_rem (F := F) c 31 (by decide) _ (by show (29 : ℕ) < 2 + 31; decide)); iexact Hlev
    iexact Hat_rsccw_r_6_0
  iintro ⟨HO, Hat_rsccw_r_6_0, #Hrch_rsccw_r_6_0_1, Hpay⟩
  iclear HIo
  ihave Hp := (Entails.of_eq (rest_single X _ _ _ (duties_rsccw_r_6_0 X c) (payload_rsccw_r_6_0 X c false))) $$ Hpay
  ihave Hq := (owns_elim _ _ _) $$ Hp
  icases Hq with ⟨%f_rsccw_r_6_0, %hf_rsccw_r_6_0, Hs_rsccw_r_6_0⟩
  -- add ccw s=6 b=0: the loads and the store run by themselves (within the next run)
  -- wait send rs ccw t=5 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 31) (W := _) (R := 2) (m := 0) (T := ∅)
      (by rw [Nat.zero_add, expect_rsccw_s_2_2 X c])) $$ [Hcs_rsccw_s_2_2 HO Hat_rsccw_s_2]
  · isplitr; · iexact HIo
    isplitl [Hcs_rsccw_s_2_2]; · iexact Hcs_rsccw_s_2_2
    isplitl [HO]; · iexact HO
    isplitr; · iapply (mayWait_rem (F := F) c 31 (by decide) _ (by show (0 : ℕ) < 2 + 31; decide)); iexact Hlev
    iexact Hat_rsccw_s_2
  iintro ⟨HO, Hat_rsccw_s_2, #Hrch_rsccw_s_2_3, Hpay⟩
  iclear HIo
  ihave Hp := (Entails.of_eq (rest_single X _ _ _ (duties_rsccw_s_2_2 X c) (payload_rsccw_s_2_2 X c false))) $$ Hpay
  irename Hp => Hback_rsccw_r_4_0
  -- send rs ccw t=7 b=0 (payment 31, device function 32)
  try sl_exec_parts
  ihave HO := (owes_congr (rem_peel_31 c)) $$ HO
  ihave #HIo := (bigSepL_elim_idx ownQs _ 6 (by decide)) $$ HInvOwn
  ihave #HIt := (bigSepL_elim_idx recvCcw _ 14 (by decide)) $$ HInbCcw
  iapply (@send_owns_at F _ X c (prv c) ⟨k0_dev32 c, k0_dev32_lt c⟩ (dev32_eq c _) (slot bM 6 0 inb_S15x128x1024_S1x64x1024_6_0_0) (slot bM 7 0 inb_S15x128x1024_S1x64x1024_7_0_0) _ (qS cc0_scratch4 2 inb_S4_S1_2) (qR cc0_scratch5 7 0 inb_S15x2_S1x1_7_0) _ _ _ _ _ _ fullShare (addV X false 0 6 c) 3 (K (dcell c (qS cc0_scratch4 2 inb_S4_S1_2))) (K (dcell (prv c) (qR cc0_scratch5 7 0 inb_S15x2_S1x1_7_0))) _ (rem c 32) _ (by rw [duties_rsccw_s_2_3 X c]; exact Finset.mem_singleton_self _) (by rw [duties_rsccw_r_7_0 X (prv c)]; exact Finset.mem_singleton_self _) (by exact amount_rsccw_s_2_3 X c false) (by exact amount_rsccw_r_7_0 X (prv c) false) (by rfl) (by exact payload_rsccw_s_2_3 X c false) (by exact hp2_rsccw_r_7_0 X c) (by rfl) (by routes)) $$ [Hs_rsccw_r_6_0 Hd_rsccw_r_7_0 HO Hts_rsccw_s_2_3 Htn_rsccw_r_7_0]
  · isplitr; · iexact HIo
    isplitr; · iexact HIt
    isplitl [Hs_rsccw_r_6_0]; · iapply (owns_intro_add X false 6 0 0 c 8 bM _ f_rsccw_r_6_0 _ _ _ rfl (off4_8_0 c) hf_rsccw_r_6_0 (addV_eq_ccw_6_0 X c)); iexact Hs_rsccw_r_6_0
    isplitl [Hd_rsccw_r_7_0]; · iexact Hd_rsccw_r_7_0
    isplitl [HO]; · iexact HO
    isplitl [Hts_rsccw_s_2_3]; · iexact Hts_rsccw_s_2_3
    isplitr; · iexact Hrch_rsccw_s_2_3
    isplitl [Htn_rsccw_r_7_0]; · iexact Htn_rsccw_r_7_0
    iexact Hrn_rsccw_r_7_0
  iintro ⟨Hcs_rsccw_s_2_3, HO⟩
  iclear HIo HIt
  -- wait recv rs cw t=6 b=1
  try sl_exec_parts
  ihave #HIo := (bigSepL_elim_idx ownQs _ 29 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 32) (W := _) (R := 0) (m := 0) (T := ∅)
      (by rw [Nat.zero_add, expect_rscw_r_6_1 X c])) $$ [Hc_rscw_r_6_1 HO Hat_rscw_r_6_1]
  · isplitr; · iexact HIo
    isplitl [Hc_rscw_r_6_1]; · iexact Hc_rscw_r_6_1
    isplitl [HO]; · iexact HO
    isplitr; · iapply (mayWait_rem (F := F) c 32 (by decide) _ (by show (30 : ℕ) < 2 + 32; decide)); iexact Hlev
    iexact Hat_rscw_r_6_1
  iintro ⟨HO, Hat_rscw_r_6_1, #Hrch_rscw_r_6_1_1, Hpay⟩
  iclear HIo
  ihave Hp := (Entails.of_eq (rest_single X _ _ _ (duties_rscw_r_6_1 X c) (payload_rscw_r_6_1 X c false))) $$ Hpay
  ihave Hq := (owns_elim _ _ _) $$ Hp
  icases Hq with ⟨%f_rscw_r_6_1, %hf_rscw_r_6_1, Hs_rscw_r_6_1⟩
  -- add cw s=6 b=1: the loads and the store run by themselves (within the next run)
  -- wait send rs cw t=5 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 32) (W := _) (R := 2) (m := 0) (T := ∅)
      (by rw [Nat.zero_add, expect_rscw_s_3_2 X c])) $$ [Hcs_rscw_s_3_2 HO Hat_rscw_s_3]
  · isplitr; · iexact HIo
    isplitl [Hcs_rscw_s_3_2]; · iexact Hcs_rscw_s_3_2
    isplitl [HO]; · iexact HO
    isplitr; · iapply (mayWait_rem (F := F) c 32 (by decide) _ (by show (0 : ℕ) < 2 + 32; decide)); iexact Hlev
    iexact Hat_rscw_s_3
  iintro ⟨HO, Hat_rscw_s_3, #Hrch_rscw_s_3_3, Hpay⟩
  iclear HIo
  ihave Hp := (Entails.of_eq (rest_single X _ _ _ (duties_rscw_s_3_2 X c) (payload_rscw_s_3_2 X c false))) $$ Hpay
  irename Hp => Hback_rscw_r_4_1
  -- send rs cw t=7 b=1 (payment 32, device function 33)
  try sl_exec_parts
  ihave HO := (owes_congr (rem_peel_32 c)) $$ HO
  ihave #HIo := (bigSepL_elim_idx ownQs _ 3 (by decide)) $$ HInvOwn
  ihave #HIt := (bigSepL_elim_idx recvCw _ 15 (by decide)) $$ HInbCw
  iapply (@send_owns_at F _ X c (nxt c) ⟨k0_dev33 c, k0_dev33_lt c⟩ (dev33_eq c _) (slot aM 6 64 inb_S15x128x1024_S1x64x1024_6_64_0) (slot aM 7 64 inb_S15x128x1024_S1x64x1024_7_64_0) _ (qS cc0_scratch2 3 inb_S4_S1_3) (qR cc0_scratch3 7 1 inb_S15x2_S1x1_7_1) _ _ _ _ _ _ fullShare (addV X true 1 6 c) 3 (K (dcell c (qS cc0_scratch2 3 inb_S4_S1_3))) (K (dcell (nxt c) (qR cc0_scratch3 7 1 inb_S15x2_S1x1_7_1))) _ (rem c 33) _ (by rw [duties_rscw_s_3_3 X c]; exact Finset.mem_singleton_self _) (by rw [duties_rscw_r_7_1 X (nxt c)]; exact Finset.mem_singleton_self _) (by exact amount_rscw_s_3_3 X c false) (by exact amount_rscw_r_7_1 X (nxt c) false) (by rfl) (by exact payload_rscw_s_3_3 X c false) (by exact hp2_rscw_r_7_1 X c) (by rfl) (by routes)) $$ [Hs_rscw_r_6_1 Hd_rscw_r_7_1 HO Hts_rscw_s_3_3 Htn_rscw_r_7_1]
  · isplitr; · iexact HIo
    isplitr; · iexact HIt
    isplitl [Hs_rscw_r_6_1]; · iapply (owns_intro_add X true 6 64 1 c 8 aM _ f_rscw_r_6_1 _ _ _ rfl (off3_m8_64 c) hf_rscw_r_6_1 (addV_eq_cw_6_1 X c)); iexact Hs_rscw_r_6_1
    isplitl [Hd_rscw_r_7_1]; · iexact Hd_rscw_r_7_1
    isplitl [HO]; · iexact HO
    isplitl [Hts_rscw_s_3_3]; · iexact Hts_rscw_s_3_3
    isplitr; · iexact Hrch_rscw_s_3_3
    isplitl [Htn_rscw_r_7_1]; · iexact Htn_rscw_r_7_1
    iexact Hrn_rscw_r_7_1
  iintro ⟨Hcs_rscw_s_3_3, HO⟩
  iclear HIo HIt
  -- wait recv rs ccw t=6 b=1
  try sl_exec_parts
  ihave #HIo := (bigSepL_elim_idx ownQs _ 89 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 33) (W := _) (R := 0) (m := 0) (T := ∅)
      (by rw [Nat.zero_add, expect_rsccw_r_6_1 X c])) $$ [Hc_rsccw_r_6_1 HO Hat_rsccw_r_6_1]
  · isplitr; · iexact HIo
    isplitl [Hc_rsccw_r_6_1]; · iexact Hc_rsccw_r_6_1
    isplitl [HO]; · iexact HO
    isplitr; · iapply (mayWait_rem (F := F) c 33 (by decide) _ (by show (31 : ℕ) < 2 + 33; decide)); iexact Hlev
    iexact Hat_rsccw_r_6_1
  iintro ⟨HO, Hat_rsccw_r_6_1, #Hrch_rsccw_r_6_1_1, Hpay⟩
  iclear HIo
  ihave Hp := (Entails.of_eq (rest_single X _ _ _ (duties_rsccw_r_6_1 X c) (payload_rsccw_r_6_1 X c false))) $$ Hpay
  ihave Hq := (owns_elim _ _ _) $$ Hp
  icases Hq with ⟨%f_rsccw_r_6_1, %hf_rsccw_r_6_1, Hs_rsccw_r_6_1⟩
  -- add ccw s=6 b=1: the loads and the store run by themselves (within the next run)
  -- wait send rs ccw t=5 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 33) (W := _) (R := 2) (m := 0) (T := ∅)
      (by rw [Nat.zero_add, expect_rsccw_s_3_2 X c])) $$ [Hcs_rsccw_s_3_2 HO Hat_rsccw_s_3]
  · isplitr; · iexact HIo
    isplitl [Hcs_rsccw_s_3_2]; · iexact Hcs_rsccw_s_3_2
    isplitl [HO]; · iexact HO
    isplitr; · iapply (mayWait_rem (F := F) c 33 (by decide) _ (by show (0 : ℕ) < 2 + 33; decide)); iexact Hlev
    iexact Hat_rsccw_s_3
  iintro ⟨HO, Hat_rsccw_s_3, #Hrch_rsccw_s_3_3, Hpay⟩
  iclear HIo
  ihave Hp := (Entails.of_eq (rest_single X _ _ _ (duties_rsccw_s_3_2 X c) (payload_rsccw_s_3_2 X c false))) $$ Hpay
  irename Hp => Hback_rsccw_r_4_1
  -- send rs ccw t=7 b=1 (payment 33, device function 34)
  try sl_exec_parts
  ihave HO := (owes_congr (rem_peel_33 c)) $$ HO
  ihave #HIo := (bigSepL_elim_idx ownQs _ 7 (by decide)) $$ HInvOwn
  ihave #HIt := (bigSepL_elim_idx recvCcw _ 15 (by decide)) $$ HInbCcw
  iapply (@send_owns_at F _ X c (prv c) ⟨k0_dev34 c, k0_dev34_lt c⟩ (dev34_eq c _) (slot bM 6 64 inb_S15x128x1024_S1x64x1024_6_64_0) (slot bM 7 64 inb_S15x128x1024_S1x64x1024_7_64_0) _ (qS cc0_scratch4 3 inb_S4_S1_3) (qR cc0_scratch5 7 1 inb_S15x2_S1x1_7_1) _ _ _ _ _ _ fullShare (addV X false 1 6 c) 3 (K (dcell c (qS cc0_scratch4 3 inb_S4_S1_3))) (K (dcell (prv c) (qR cc0_scratch5 7 1 inb_S15x2_S1x1_7_1))) _ (rem c 34) _ (by rw [duties_rsccw_s_3_3 X c]; exact Finset.mem_singleton_self _) (by rw [duties_rsccw_r_7_1 X (prv c)]; exact Finset.mem_singleton_self _) (by exact amount_rsccw_s_3_3 X c false) (by exact amount_rsccw_r_7_1 X (prv c) false) (by rfl) (by exact payload_rsccw_s_3_3 X c false) (by exact hp2_rsccw_r_7_1 X c) (by rfl) (by routes)) $$ [Hs_rsccw_r_6_1 Hd_rsccw_r_7_1 HO Hts_rsccw_s_3_3 Htn_rsccw_r_7_1]
  · isplitr; · iexact HIo
    isplitr; · iexact HIt
    isplitl [Hs_rsccw_r_6_1]; · iapply (owns_intro_add X false 6 64 1 c 8 bM _ f_rsccw_r_6_1 _ _ _ rfl (off4_8_64 c) hf_rsccw_r_6_1 (addV_eq_ccw_6_1 X c)); iexact Hs_rsccw_r_6_1
    isplitl [Hd_rsccw_r_7_1]; · iexact Hd_rsccw_r_7_1
    isplitl [HO]; · iexact HO
    isplitl [Hts_rsccw_s_3_3]; · iexact Hts_rsccw_s_3_3
    isplitr; · iexact Hrch_rsccw_s_3_3
    isplitl [Htn_rsccw_r_7_1]; · iexact Htn_rsccw_r_7_1
    iexact Hrn_rsccw_r_7_1
  iintro ⟨Hcs_rsccw_s_3_3, HO⟩
  iclear HIo HIt
  -- wait recv rs cw t=7 b=0
  try sl_exec_parts
  ihave #HIo := (bigSepL_elim_idx ownQs _ 30 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 34) (W := _) (R := 0) (m := 0) (T := ∅)
      (by rw [Nat.zero_add, expect_rscw_r_7_0 X c])) $$ [Hc_rscw_r_7_0 HO Hat_rscw_r_7_0]
  · isplitr; · iexact HIo
    isplitl [Hc_rscw_r_7_0]; · iexact Hc_rscw_r_7_0
    isplitl [HO]; · iexact HO
    isplitr; · iapply (mayWait_rem (F := F) c 34 (by decide) _ (by show (32 : ℕ) < 2 + 34; decide)); iexact Hlev
    iexact Hat_rscw_r_7_0
  iintro ⟨HO, Hat_rscw_r_7_0, #Hrch_rscw_r_7_0_1, Hpay⟩
  iclear HIo
  ihave Hp := (Entails.of_eq (rest_single X _ _ _ (duties_rscw_r_7_0 X c) (payload_rscw_r_7_0 X c false))) $$ Hpay
  ihave Hq := (owns_elim _ _ _) $$ Hp
  icases Hq with ⟨%f_rscw_r_7_0, %hf_rscw_r_7_0, Hs_rscw_r_7_0⟩
  -- add cw s=7 b=0: the loads and the store run by themselves (within the next run)
  -- wait send rs cw t=6 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 34) (W := _) (R := 3) (m := 0) (T := ∅)
      (by rw [Nat.zero_add, expect_rscw_s_0_3 X c])) $$ [Hcs_rscw_s_0_3 HO Hat_rscw_s_0]
  · isplitr; · iexact HIo
    isplitl [Hcs_rscw_s_0_3]; · iexact Hcs_rscw_s_0_3
    isplitl [HO]; · iexact HO
    isplitr; · iapply (mayWait_rem (F := F) c 34 (by decide) _ (by show (0 : ℕ) < 2 + 34; decide)); iexact Hlev
    iexact Hat_rscw_s_0
  iintro ⟨HO, Hat_rscw_s_0, #Hrch_rscw_s_0_4, Hpay⟩
  iclear HIo
  ihave Hp := (Entails.of_eq (rest_single X _ _ _ (duties_rscw_s_0_3 X c) (payload_rscw_s_0_3 X c false))) $$ Hpay
  irename Hp => Hback_rscw_r_5_0
  -- send rs cw t=8 b=0 (payment 34, device function 35)
  try sl_exec_parts
  ihave HO := (owes_congr (rem_peel_34 c)) $$ HO
  ihave #HIo := (bigSepL_elim_idx ownQs _ 0 (by decide)) $$ HInvOwn
  ihave #HIt := (bigSepL_elim_idx recvCw _ 16 (by decide)) $$ HInbCw
  iapply (@send_owns_at F _ X c (nxt c) ⟨k0_dev35 c, k0_dev35_lt c⟩ (dev35_eq c _) (slot aM 7 0 inb_S15x128x1024_S1x64x1024_7_0_0) (slot aM 8 0 inb_S15x128x1024_S1x64x1024_8_0_0) _ (qS cc0_scratch2 0 inb_S4_S1_0) (qR cc0_scratch3 8 0 inb_S15x2_S1x1_8_0) _ _ _ _ _ _ fullShare (addV X true 0 7 c) 4 (K (dcell c (qS cc0_scratch2 0 inb_S4_S1_0))) (K (dcell (nxt c) (qR cc0_scratch3 8 0 inb_S15x2_S1x1_8_0))) _ (rem c 35) _ (by rw [duties_rscw_s_0_4 X c]; exact Finset.mem_singleton_self _) (by rw [duties_rscw_r_8_0 X (nxt c)]; exact Finset.mem_singleton_self _) (by exact amount_rscw_s_0_4 X c false) (by exact amount_rscw_r_8_0 X (nxt c) false) (by rfl) (by exact payload_rscw_s_0_4 X c false) (by exact hp2_rscw_r_8_0 X c) (by rfl) (by routes)) $$ [Hs_rscw_r_7_0 Hd_rscw_r_8_0 HO Hts_rscw_s_0_4 Htn_rscw_r_8_0]
  · isplitr; · iexact HIo
    isplitr; · iexact HIt
    isplitl [Hs_rscw_r_7_0]; · iapply (owns_intro_add X true 7 0 0 c 7 aM _ f_rscw_r_7_0 _ _ _ rfl (off3_m9_0 c) hf_rscw_r_7_0 (addV_eq_cw_7_0 X c)); iexact Hs_rscw_r_7_0
    isplitl [Hd_rscw_r_8_0]; · iexact Hd_rscw_r_8_0
    isplitl [HO]; · iexact HO
    isplitl [Hts_rscw_s_0_4]; · iexact Hts_rscw_s_0_4
    isplitr; · iexact Hrch_rscw_s_0_4
    isplitl [Htn_rscw_r_8_0]; · iexact Htn_rscw_r_8_0
    iexact Hrn_rscw_r_8_0
  iintro ⟨Hcs_rscw_s_0_4, HO⟩
  iclear HIo HIt
  -- wait recv rs ccw t=7 b=0
  try sl_exec_parts
  ihave #HIo := (bigSepL_elim_idx ownQs _ 90 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 35) (W := _) (R := 0) (m := 0) (T := ∅)
      (by rw [Nat.zero_add, expect_rsccw_r_7_0 X c])) $$ [Hc_rsccw_r_7_0 HO Hat_rsccw_r_7_0]
  · isplitr; · iexact HIo
    isplitl [Hc_rsccw_r_7_0]; · iexact Hc_rsccw_r_7_0
    isplitl [HO]; · iexact HO
    isplitr; · iapply (mayWait_rem (F := F) c 35 (by decide) _ (by show (33 : ℕ) < 2 + 35; decide)); iexact Hlev
    iexact Hat_rsccw_r_7_0
  iintro ⟨HO, Hat_rsccw_r_7_0, #Hrch_rsccw_r_7_0_1, Hpay⟩
  iclear HIo
  ihave Hp := (Entails.of_eq (rest_single X _ _ _ (duties_rsccw_r_7_0 X c) (payload_rsccw_r_7_0 X c false))) $$ Hpay
  ihave Hq := (owns_elim _ _ _) $$ Hp
  icases Hq with ⟨%f_rsccw_r_7_0, %hf_rsccw_r_7_0, Hs_rsccw_r_7_0⟩
  -- add ccw s=7 b=0: the loads and the store run by themselves (within the next run)
  -- wait send rs ccw t=6 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 35) (W := _) (R := 3) (m := 0) (T := ∅)
      (by rw [Nat.zero_add, expect_rsccw_s_0_3 X c])) $$ [Hcs_rsccw_s_0_3 HO Hat_rsccw_s_0]
  · isplitr; · iexact HIo
    isplitl [Hcs_rsccw_s_0_3]; · iexact Hcs_rsccw_s_0_3
    isplitl [HO]; · iexact HO
    isplitr; · iapply (mayWait_rem (F := F) c 35 (by decide) _ (by show (0 : ℕ) < 2 + 35; decide)); iexact Hlev
    iexact Hat_rsccw_s_0
  iintro ⟨HO, Hat_rsccw_s_0, #Hrch_rsccw_s_0_4, Hpay⟩
  iclear HIo
  ihave Hp := (Entails.of_eq (rest_single X _ _ _ (duties_rsccw_s_0_3 X c) (payload_rsccw_s_0_3 X c false))) $$ Hpay
  irename Hp => Hback_rsccw_r_5_0
  -- send rs ccw t=8 b=0 (payment 35, device function 36)
  try sl_exec_parts
  ihave HO := (owes_congr (rem_peel_35 c)) $$ HO
  ihave #HIo := (bigSepL_elim_idx ownQs _ 4 (by decide)) $$ HInvOwn
  ihave #HIt := (bigSepL_elim_idx recvCcw _ 16 (by decide)) $$ HInbCcw
  iapply (@send_owns_at F _ X c (prv c) ⟨k0_dev36 c, k0_dev36_lt c⟩ (dev36_eq c _) (slot bM 7 0 inb_S15x128x1024_S1x64x1024_7_0_0) (slot bM 8 0 inb_S15x128x1024_S1x64x1024_8_0_0) _ (qS cc0_scratch4 0 inb_S4_S1_0) (qR cc0_scratch5 8 0 inb_S15x2_S1x1_8_0) _ _ _ _ _ _ fullShare (addV X false 0 7 c) 4 (K (dcell c (qS cc0_scratch4 0 inb_S4_S1_0))) (K (dcell (prv c) (qR cc0_scratch5 8 0 inb_S15x2_S1x1_8_0))) _ (rem c 36) _ (by rw [duties_rsccw_s_0_4 X c]; exact Finset.mem_singleton_self _) (by rw [duties_rsccw_r_8_0 X (prv c)]; exact Finset.mem_singleton_self _) (by exact amount_rsccw_s_0_4 X c false) (by exact amount_rsccw_r_8_0 X (prv c) false) (by rfl) (by exact payload_rsccw_s_0_4 X c false) (by exact hp2_rsccw_r_8_0 X c) (by rfl) (by routes)) $$ [Hs_rsccw_r_7_0 Hd_rsccw_r_8_0 HO Hts_rsccw_s_0_4 Htn_rsccw_r_8_0]
  · isplitr; · iexact HIo
    isplitr; · iexact HIt
    isplitl [Hs_rsccw_r_7_0]; · iapply (owns_intro_add X false 7 0 0 c 9 bM _ f_rsccw_r_7_0 _ _ _ rfl (off4_9_0 c) hf_rsccw_r_7_0 (addV_eq_ccw_7_0 X c)); iexact Hs_rsccw_r_7_0
    isplitl [Hd_rsccw_r_8_0]; · iexact Hd_rsccw_r_8_0
    isplitl [HO]; · iexact HO
    isplitl [Hts_rsccw_s_0_4]; · iexact Hts_rsccw_s_0_4
    isplitr; · iexact Hrch_rsccw_s_0_4
    isplitl [Htn_rsccw_r_8_0]; · iexact Htn_rsccw_r_8_0
    iexact Hrn_rsccw_r_8_0
  iintro ⟨Hcs_rsccw_s_0_4, HO⟩
  iclear HIo HIt
  -- wait recv rs cw t=7 b=1
  try sl_exec_parts
  ihave #HIo := (bigSepL_elim_idx ownQs _ 31 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 36) (W := _) (R := 0) (m := 0) (T := ∅)
      (by rw [Nat.zero_add, expect_rscw_r_7_1 X c])) $$ [Hc_rscw_r_7_1 HO Hat_rscw_r_7_1]
  · isplitr; · iexact HIo
    isplitl [Hc_rscw_r_7_1]; · iexact Hc_rscw_r_7_1
    isplitl [HO]; · iexact HO
    isplitr; · iapply (mayWait_rem (F := F) c 36 (by decide) _ (by show (34 : ℕ) < 2 + 36; decide)); iexact Hlev
    iexact Hat_rscw_r_7_1
  iintro ⟨HO, Hat_rscw_r_7_1, #Hrch_rscw_r_7_1_1, Hpay⟩
  iclear HIo
  ihave Hp := (Entails.of_eq (rest_single X _ _ _ (duties_rscw_r_7_1 X c) (payload_rscw_r_7_1 X c false))) $$ Hpay
  ihave Hq := (owns_elim _ _ _) $$ Hp
  icases Hq with ⟨%f_rscw_r_7_1, %hf_rscw_r_7_1, Hs_rscw_r_7_1⟩
  -- add cw s=7 b=1: the loads and the store run by themselves (within the next run)
  -- wait send rs cw t=6 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 36) (W := _) (R := 3) (m := 0) (T := ∅)
      (by rw [Nat.zero_add, expect_rscw_s_1_3 X c])) $$ [Hcs_rscw_s_1_3 HO Hat_rscw_s_1]
  · isplitr; · iexact HIo
    isplitl [Hcs_rscw_s_1_3]; · iexact Hcs_rscw_s_1_3
    isplitl [HO]; · iexact HO
    isplitr; · iapply (mayWait_rem (F := F) c 36 (by decide) _ (by show (0 : ℕ) < 2 + 36; decide)); iexact Hlev
    iexact Hat_rscw_s_1
  iintro ⟨HO, Hat_rscw_s_1, #Hrch_rscw_s_1_4, Hpay⟩
  iclear HIo
  ihave Hp := (Entails.of_eq (rest_single X _ _ _ (duties_rscw_s_1_3 X c) (payload_rscw_s_1_3 X c false))) $$ Hpay
  irename Hp => Hback_rscw_r_5_1
  -- send rs cw t=8 b=1 (payment 36, device function 37)
  try sl_exec_parts
  ihave HO := (owes_congr (rem_peel_36 c)) $$ HO
  ihave #HIo := (bigSepL_elim_idx ownQs _ 1 (by decide)) $$ HInvOwn
  ihave #HIt := (bigSepL_elim_idx recvCw _ 17 (by decide)) $$ HInbCw
  iapply (@send_owns_at F _ X c (nxt c) ⟨k0_dev37 c, k0_dev37_lt c⟩ (dev37_eq c _) (slot aM 7 64 inb_S15x128x1024_S1x64x1024_7_64_0) (slot aM 8 64 inb_S15x128x1024_S1x64x1024_8_64_0) _ (qS cc0_scratch2 1 inb_S4_S1_1) (qR cc0_scratch3 8 1 inb_S15x2_S1x1_8_1) _ _ _ _ _ _ fullShare (addV X true 1 7 c) 4 (K (dcell c (qS cc0_scratch2 1 inb_S4_S1_1))) (K (dcell (nxt c) (qR cc0_scratch3 8 1 inb_S15x2_S1x1_8_1))) _ (rem c 37) _ (by rw [duties_rscw_s_1_4 X c]; exact Finset.mem_singleton_self _) (by rw [duties_rscw_r_8_1 X (nxt c)]; exact Finset.mem_singleton_self _) (by exact amount_rscw_s_1_4 X c false) (by exact amount_rscw_r_8_1 X (nxt c) false) (by rfl) (by exact payload_rscw_s_1_4 X c false) (by exact hp2_rscw_r_8_1 X c) (by rfl) (by routes)) $$ [Hs_rscw_r_7_1 Hd_rscw_r_8_1 HO Hts_rscw_s_1_4 Htn_rscw_r_8_1]
  · isplitr; · iexact HIo
    isplitr; · iexact HIt
    isplitl [Hs_rscw_r_7_1]; · iapply (owns_intro_add X true 7 64 1 c 7 aM _ f_rscw_r_7_1 _ _ _ rfl (off3_m9_64 c) hf_rscw_r_7_1 (addV_eq_cw_7_1 X c)); iexact Hs_rscw_r_7_1
    isplitl [Hd_rscw_r_8_1]; · iexact Hd_rscw_r_8_1
    isplitl [HO]; · iexact HO
    isplitl [Hts_rscw_s_1_4]; · iexact Hts_rscw_s_1_4
    isplitr; · iexact Hrch_rscw_s_1_4
    isplitl [Htn_rscw_r_8_1]; · iexact Htn_rscw_r_8_1
    iexact Hrn_rscw_r_8_1
  iintro ⟨Hcs_rscw_s_1_4, HO⟩
  iclear HIo HIt
  -- wait recv rs ccw t=7 b=1
  try sl_exec_parts
  ihave #HIo := (bigSepL_elim_idx ownQs _ 91 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 37) (W := _) (R := 0) (m := 0) (T := ∅)
      (by rw [Nat.zero_add, expect_rsccw_r_7_1 X c])) $$ [Hc_rsccw_r_7_1 HO Hat_rsccw_r_7_1]
  · isplitr; · iexact HIo
    isplitl [Hc_rsccw_r_7_1]; · iexact Hc_rsccw_r_7_1
    isplitl [HO]; · iexact HO
    isplitr; · iapply (mayWait_rem (F := F) c 37 (by decide) _ (by show (35 : ℕ) < 2 + 37; decide)); iexact Hlev
    iexact Hat_rsccw_r_7_1
  iintro ⟨HO, Hat_rsccw_r_7_1, #Hrch_rsccw_r_7_1_1, Hpay⟩
  iclear HIo
  ihave Hp := (Entails.of_eq (rest_single X _ _ _ (duties_rsccw_r_7_1 X c) (payload_rsccw_r_7_1 X c false))) $$ Hpay
  ihave Hq := (owns_elim _ _ _) $$ Hp
  icases Hq with ⟨%f_rsccw_r_7_1, %hf_rsccw_r_7_1, Hs_rsccw_r_7_1⟩
  -- add ccw s=7 b=1: the loads and the store run by themselves (within the next run)
  -- wait send rs ccw t=6 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 37) (W := _) (R := 3) (m := 0) (T := ∅)
      (by rw [Nat.zero_add, expect_rsccw_s_1_3 X c])) $$ [Hcs_rsccw_s_1_3 HO Hat_rsccw_s_1]
  · isplitr; · iexact HIo
    isplitl [Hcs_rsccw_s_1_3]; · iexact Hcs_rsccw_s_1_3
    isplitl [HO]; · iexact HO
    isplitr; · iapply (mayWait_rem (F := F) c 37 (by decide) _ (by show (0 : ℕ) < 2 + 37; decide)); iexact Hlev
    iexact Hat_rsccw_s_1
  iintro ⟨HO, Hat_rsccw_s_1, #Hrch_rsccw_s_1_4, Hpay⟩
  iclear HIo
  ihave Hp := (Entails.of_eq (rest_single X _ _ _ (duties_rsccw_s_1_3 X c) (payload_rsccw_s_1_3 X c false))) $$ Hpay
  irename Hp => Hback_rsccw_r_5_1
  -- send rs ccw t=8 b=1 (payment 37, device function 38)
  try sl_exec_parts
  ihave HO := (owes_congr (rem_peel_37 c)) $$ HO
  ihave #HIo := (bigSepL_elim_idx ownQs _ 5 (by decide)) $$ HInvOwn
  ihave #HIt := (bigSepL_elim_idx recvCcw _ 17 (by decide)) $$ HInbCcw
  iapply (@send_owns_at F _ X c (prv c) ⟨k0_dev38 c, k0_dev38_lt c⟩ (dev38_eq c _) (slot bM 7 64 inb_S15x128x1024_S1x64x1024_7_64_0) (slot bM 8 64 inb_S15x128x1024_S1x64x1024_8_64_0) _ (qS cc0_scratch4 1 inb_S4_S1_1) (qR cc0_scratch5 8 1 inb_S15x2_S1x1_8_1) _ _ _ _ _ _ fullShare (addV X false 1 7 c) 4 (K (dcell c (qS cc0_scratch4 1 inb_S4_S1_1))) (K (dcell (prv c) (qR cc0_scratch5 8 1 inb_S15x2_S1x1_8_1))) _ (rem c 38) _ (by rw [duties_rsccw_s_1_4 X c]; exact Finset.mem_singleton_self _) (by rw [duties_rsccw_r_8_1 X (prv c)]; exact Finset.mem_singleton_self _) (by exact amount_rsccw_s_1_4 X c false) (by exact amount_rsccw_r_8_1 X (prv c) false) (by rfl) (by exact payload_rsccw_s_1_4 X c false) (by exact hp2_rsccw_r_8_1 X c) (by rfl) (by routes)) $$ [Hs_rsccw_r_7_1 Hd_rsccw_r_8_1 HO Hts_rsccw_s_1_4 Htn_rsccw_r_8_1]
  · isplitr; · iexact HIo
    isplitr; · iexact HIt
    isplitl [Hs_rsccw_r_7_1]; · iapply (owns_intro_add X false 7 64 1 c 9 bM _ f_rsccw_r_7_1 _ _ _ rfl (off4_9_64 c) hf_rsccw_r_7_1 (addV_eq_ccw_7_1 X c)); iexact Hs_rsccw_r_7_1
    isplitl [Hd_rsccw_r_8_1]; · iexact Hd_rsccw_r_8_1
    isplitl [HO]; · iexact HO
    isplitl [Hts_rsccw_s_1_4]; · iexact Hts_rsccw_s_1_4
    isplitr; · iexact Hrch_rsccw_s_1_4
    isplitl [Htn_rsccw_r_8_1]; · iexact Htn_rsccw_r_8_1
    iexact Hrn_rsccw_r_8_1
  iintro ⟨Hcs_rsccw_s_1_4, HO⟩
  iclear HIo HIt
  -- wait recv rs cw t=8 b=0
  try sl_exec_parts
  ihave #HIo := (bigSepL_elim_idx ownQs _ 32 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 38) (W := _) (R := 0) (m := 0) (T := ∅)
      (by rw [Nat.zero_add, expect_rscw_r_8_0 X c])) $$ [Hc_rscw_r_8_0 HO Hat_rscw_r_8_0]
  · isplitr; · iexact HIo
    isplitl [Hc_rscw_r_8_0]; · iexact Hc_rscw_r_8_0
    isplitl [HO]; · iexact HO
    isplitr; · iapply (mayWait_rem (F := F) c 38 (by decide) _ (by show (36 : ℕ) < 2 + 38; decide)); iexact Hlev
    iexact Hat_rscw_r_8_0
  iintro ⟨HO, Hat_rscw_r_8_0, #Hrch_rscw_r_8_0_1, Hpay⟩
  iclear HIo
  ihave Hp := (Entails.of_eq (rest_single X _ _ _ (duties_rscw_r_8_0 X c) (payload_rscw_r_8_0 X c false))) $$ Hpay
  ihave Hq := (owns_elim _ _ _) $$ Hp
  icases Hq with ⟨%f_rscw_r_8_0, %hf_rscw_r_8_0, Hs_rscw_r_8_0⟩
  -- add cw s=8 b=0: the loads and the store run by themselves (within the next run)
  -- wait send rs cw t=7 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 38) (W := _) (R := 3) (m := 0) (T := ∅)
      (by rw [Nat.zero_add, expect_rscw_s_2_3 X c])) $$ [Hcs_rscw_s_2_3 HO Hat_rscw_s_2]
  · isplitr; · iexact HIo
    isplitl [Hcs_rscw_s_2_3]; · iexact Hcs_rscw_s_2_3
    isplitl [HO]; · iexact HO
    isplitr; · iapply (mayWait_rem (F := F) c 38 (by decide) _ (by show (0 : ℕ) < 2 + 38; decide)); iexact Hlev
    iexact Hat_rscw_s_2
  iintro ⟨HO, Hat_rscw_s_2, #Hrch_rscw_s_2_4, Hpay⟩
  iclear HIo
  ihave Hp := (Entails.of_eq (rest_single X _ _ _ (duties_rscw_s_2_3 X c) (payload_rscw_s_2_3 X c false))) $$ Hpay
  irename Hp => Hback_rscw_r_6_0
  -- send rs cw t=9 b=0 (payment 38, device function 39)
  try sl_exec_parts
  ihave HO := (owes_congr (rem_peel_38 c)) $$ HO
  ihave #HIo := (bigSepL_elim_idx ownQs _ 2 (by decide)) $$ HInvOwn
  ihave #HIt := (bigSepL_elim_idx recvCw _ 18 (by decide)) $$ HInbCw
  iapply (@send_owns_at F _ X c (nxt c) ⟨k0_dev39 c, k0_dev39_lt c⟩ (dev39_eq c _) (slot aM 8 0 inb_S15x128x1024_S1x64x1024_8_0_0) (slot aM 9 0 inb_S15x128x1024_S1x64x1024_9_0_0) _ (qS cc0_scratch2 2 inb_S4_S1_2) (qR cc0_scratch3 9 0 inb_S15x2_S1x1_9_0) _ _ _ _ _ _ fullShare (addV X true 0 8 c) 4 (K (dcell c (qS cc0_scratch2 2 inb_S4_S1_2))) (K (dcell (nxt c) (qR cc0_scratch3 9 0 inb_S15x2_S1x1_9_0))) _ (rem c 39) _ (by rw [duties_rscw_s_2_4 X c]; exact Finset.mem_singleton_self _) (by rw [duties_rscw_r_9_0 X (nxt c)]; exact Finset.mem_singleton_self _) (by exact amount_rscw_s_2_4 X c false) (by exact amount_rscw_r_9_0 X (nxt c) false) (by rfl) (by exact payload_rscw_s_2_4 X c false) (by exact hp2_rscw_r_9_0 X c) (by rfl) (by routes)) $$ [Hs_rscw_r_8_0 Hd_rscw_r_9_0 HO Hts_rscw_s_2_4 Htn_rscw_r_9_0]
  · isplitr; · iexact HIo
    isplitr; · iexact HIt
    isplitl [Hs_rscw_r_8_0]; · iapply (owns_intro_add X true 8 0 0 c 6 aM _ f_rscw_r_8_0 _ _ _ rfl (off3_m10_0 c) hf_rscw_r_8_0 (addV_eq_cw_8_0 X c)); iexact Hs_rscw_r_8_0
    isplitl [Hd_rscw_r_9_0]; · iexact Hd_rscw_r_9_0
    isplitl [HO]; · iexact HO
    isplitl [Hts_rscw_s_2_4]; · iexact Hts_rscw_s_2_4
    isplitr; · iexact Hrch_rscw_s_2_4
    isplitl [Htn_rscw_r_9_0]; · iexact Htn_rscw_r_9_0
    iexact Hrn_rscw_r_9_0
  iintro ⟨Hcs_rscw_s_2_4, HO⟩
  iclear HIo HIt
  -- wait recv rs ccw t=8 b=0
  try sl_exec_parts
  ihave #HIo := (bigSepL_elim_idx ownQs _ 92 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 39) (W := _) (R := 0) (m := 0) (T := ∅)
      (by rw [Nat.zero_add, expect_rsccw_r_8_0 X c])) $$ [Hc_rsccw_r_8_0 HO Hat_rsccw_r_8_0]
  · isplitr; · iexact HIo
    isplitl [Hc_rsccw_r_8_0]; · iexact Hc_rsccw_r_8_0
    isplitl [HO]; · iexact HO
    isplitr; · iapply (mayWait_rem (F := F) c 39 (by decide) _ (by show (37 : ℕ) < 2 + 39; decide)); iexact Hlev
    iexact Hat_rsccw_r_8_0
  iintro ⟨HO, Hat_rsccw_r_8_0, #Hrch_rsccw_r_8_0_1, Hpay⟩
  iclear HIo
  ihave Hp := (Entails.of_eq (rest_single X _ _ _ (duties_rsccw_r_8_0 X c) (payload_rsccw_r_8_0 X c false))) $$ Hpay
  ihave Hq := (owns_elim _ _ _) $$ Hp
  icases Hq with ⟨%f_rsccw_r_8_0, %hf_rsccw_r_8_0, Hs_rsccw_r_8_0⟩
  -- add ccw s=8 b=0: the loads and the store run by themselves (within the next run)
  -- wait send rs ccw t=7 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 39) (W := _) (R := 3) (m := 0) (T := ∅)
      (by rw [Nat.zero_add, expect_rsccw_s_2_3 X c])) $$ [Hcs_rsccw_s_2_3 HO Hat_rsccw_s_2]
  · isplitr; · iexact HIo
    isplitl [Hcs_rsccw_s_2_3]; · iexact Hcs_rsccw_s_2_3
    isplitl [HO]; · iexact HO
    isplitr; · iapply (mayWait_rem (F := F) c 39 (by decide) _ (by show (0 : ℕ) < 2 + 39; decide)); iexact Hlev
    iexact Hat_rsccw_s_2
  iintro ⟨HO, Hat_rsccw_s_2, #Hrch_rsccw_s_2_4, Hpay⟩
  iclear HIo
  ihave Hp := (Entails.of_eq (rest_single X _ _ _ (duties_rsccw_s_2_3 X c) (payload_rsccw_s_2_3 X c false))) $$ Hpay
  irename Hp => Hback_rsccw_r_6_0
  -- send rs ccw t=9 b=0 (payment 39, device function 40)
  try sl_exec_parts
  ihave HO := (owes_congr (rem_peel_39 c)) $$ HO
  ihave #HIo := (bigSepL_elim_idx ownQs _ 6 (by decide)) $$ HInvOwn
  ihave #HIt := (bigSepL_elim_idx recvCcw _ 18 (by decide)) $$ HInbCcw
  iapply (@send_owns_at F _ X c (prv c) ⟨k0_dev40 c, k0_dev40_lt c⟩ (dev40_eq c _) (slot bM 8 0 inb_S15x128x1024_S1x64x1024_8_0_0) (slot bM 9 0 inb_S15x128x1024_S1x64x1024_9_0_0) _ (qS cc0_scratch4 2 inb_S4_S1_2) (qR cc0_scratch5 9 0 inb_S15x2_S1x1_9_0) _ _ _ _ _ _ fullShare (addV X false 0 8 c) 4 (K (dcell c (qS cc0_scratch4 2 inb_S4_S1_2))) (K (dcell (prv c) (qR cc0_scratch5 9 0 inb_S15x2_S1x1_9_0))) _ (rem c 40) _ (by rw [duties_rsccw_s_2_4 X c]; exact Finset.mem_singleton_self _) (by rw [duties_rsccw_r_9_0 X (prv c)]; exact Finset.mem_singleton_self _) (by exact amount_rsccw_s_2_4 X c false) (by exact amount_rsccw_r_9_0 X (prv c) false) (by rfl) (by exact payload_rsccw_s_2_4 X c false) (by exact hp2_rsccw_r_9_0 X c) (by rfl) (by routes)) $$ [Hs_rsccw_r_8_0 Hd_rsccw_r_9_0 HO Hts_rsccw_s_2_4 Htn_rsccw_r_9_0]
  · isplitr; · iexact HIo
    isplitr; · iexact HIt
    isplitl [Hs_rsccw_r_8_0]; · iapply (owns_intro_add X false 8 0 0 c 10 bM _ f_rsccw_r_8_0 _ _ _ rfl (off4_10_0 c) hf_rsccw_r_8_0 (addV_eq_ccw_8_0 X c)); iexact Hs_rsccw_r_8_0
    isplitl [Hd_rsccw_r_9_0]; · iexact Hd_rsccw_r_9_0
    isplitl [HO]; · iexact HO
    isplitl [Hts_rsccw_s_2_4]; · iexact Hts_rsccw_s_2_4
    isplitr; · iexact Hrch_rsccw_s_2_4
    isplitl [Htn_rsccw_r_9_0]; · iexact Htn_rsccw_r_9_0
    iexact Hrn_rsccw_r_9_0
  iintro ⟨Hcs_rsccw_s_2_4, HO⟩
  iclear HIo HIt
  -- wait recv rs cw t=8 b=1
  try sl_exec_parts
  ihave #HIo := (bigSepL_elim_idx ownQs _ 33 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 40) (W := _) (R := 0) (m := 0) (T := ∅)
      (by rw [Nat.zero_add, expect_rscw_r_8_1 X c])) $$ [Hc_rscw_r_8_1 HO Hat_rscw_r_8_1]
  · isplitr; · iexact HIo
    isplitl [Hc_rscw_r_8_1]; · iexact Hc_rscw_r_8_1
    isplitl [HO]; · iexact HO
    isplitr; · iapply (mayWait_rem (F := F) c 40 (by decide) _ (by show (38 : ℕ) < 2 + 40; decide)); iexact Hlev
    iexact Hat_rscw_r_8_1
  iintro ⟨HO, Hat_rscw_r_8_1, #Hrch_rscw_r_8_1_1, Hpay⟩
  iclear HIo
  ihave Hp := (Entails.of_eq (rest_single X _ _ _ (duties_rscw_r_8_1 X c) (payload_rscw_r_8_1 X c false))) $$ Hpay
  ihave Hq := (owns_elim _ _ _) $$ Hp
  icases Hq with ⟨%f_rscw_r_8_1, %hf_rscw_r_8_1, Hs_rscw_r_8_1⟩
  -- add cw s=8 b=1: the loads and the store run by themselves (within the next run)
  -- wait send rs cw t=7 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 40) (W := _) (R := 3) (m := 0) (T := ∅)
      (by rw [Nat.zero_add, expect_rscw_s_3_3 X c])) $$ [Hcs_rscw_s_3_3 HO Hat_rscw_s_3]
  · isplitr; · iexact HIo
    isplitl [Hcs_rscw_s_3_3]; · iexact Hcs_rscw_s_3_3
    isplitl [HO]; · iexact HO
    isplitr; · iapply (mayWait_rem (F := F) c 40 (by decide) _ (by show (0 : ℕ) < 2 + 40; decide)); iexact Hlev
    iexact Hat_rscw_s_3
  iintro ⟨HO, Hat_rscw_s_3, #Hrch_rscw_s_3_4, Hpay⟩
  iclear HIo
  ihave Hp := (Entails.of_eq (rest_single X _ _ _ (duties_rscw_s_3_3 X c) (payload_rscw_s_3_3 X c false))) $$ Hpay
  irename Hp => Hback_rscw_r_6_1
  -- send rs cw t=9 b=1 (payment 40, device function 41)
  try sl_exec_parts
  ihave HO := (owes_congr (rem_peel_40 c)) $$ HO
  ihave #HIo := (bigSepL_elim_idx ownQs _ 3 (by decide)) $$ HInvOwn
  ihave #HIt := (bigSepL_elim_idx recvCw _ 19 (by decide)) $$ HInbCw
  iapply (@send_owns_at F _ X c (nxt c) ⟨k0_dev41 c, k0_dev41_lt c⟩ (dev41_eq c _) (slot aM 8 64 inb_S15x128x1024_S1x64x1024_8_64_0) (slot aM 9 64 inb_S15x128x1024_S1x64x1024_9_64_0) _ (qS cc0_scratch2 3 inb_S4_S1_3) (qR cc0_scratch3 9 1 inb_S15x2_S1x1_9_1) _ _ _ _ _ _ fullShare (addV X true 1 8 c) 4 (K (dcell c (qS cc0_scratch2 3 inb_S4_S1_3))) (K (dcell (nxt c) (qR cc0_scratch3 9 1 inb_S15x2_S1x1_9_1))) _ (rem c 41) _ (by rw [duties_rscw_s_3_4 X c]; exact Finset.mem_singleton_self _) (by rw [duties_rscw_r_9_1 X (nxt c)]; exact Finset.mem_singleton_self _) (by exact amount_rscw_s_3_4 X c false) (by exact amount_rscw_r_9_1 X (nxt c) false) (by rfl) (by exact payload_rscw_s_3_4 X c false) (by exact hp2_rscw_r_9_1 X c) (by rfl) (by routes)) $$ [Hs_rscw_r_8_1 Hd_rscw_r_9_1 HO Hts_rscw_s_3_4 Htn_rscw_r_9_1]
  · isplitr; · iexact HIo
    isplitr; · iexact HIt
    isplitl [Hs_rscw_r_8_1]; · iapply (owns_intro_add X true 8 64 1 c 6 aM _ f_rscw_r_8_1 _ _ _ rfl (off3_m10_64 c) hf_rscw_r_8_1 (addV_eq_cw_8_1 X c)); iexact Hs_rscw_r_8_1
    isplitl [Hd_rscw_r_9_1]; · iexact Hd_rscw_r_9_1
    isplitl [HO]; · iexact HO
    isplitl [Hts_rscw_s_3_4]; · iexact Hts_rscw_s_3_4
    isplitr; · iexact Hrch_rscw_s_3_4
    isplitl [Htn_rscw_r_9_1]; · iexact Htn_rscw_r_9_1
    iexact Hrn_rscw_r_9_1
  iintro ⟨Hcs_rscw_s_3_4, HO⟩
  iclear HIo HIt
  -- wait recv rs ccw t=8 b=1
  try sl_exec_parts
  ihave #HIo := (bigSepL_elim_idx ownQs _ 93 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 41) (W := _) (R := 0) (m := 0) (T := ∅)
      (by rw [Nat.zero_add, expect_rsccw_r_8_1 X c])) $$ [Hc_rsccw_r_8_1 HO Hat_rsccw_r_8_1]
  · isplitr; · iexact HIo
    isplitl [Hc_rsccw_r_8_1]; · iexact Hc_rsccw_r_8_1
    isplitl [HO]; · iexact HO
    isplitr; · iapply (mayWait_rem (F := F) c 41 (by decide) _ (by show (39 : ℕ) < 2 + 41; decide)); iexact Hlev
    iexact Hat_rsccw_r_8_1
  iintro ⟨HO, Hat_rsccw_r_8_1, #Hrch_rsccw_r_8_1_1, Hpay⟩
  iclear HIo
  ihave Hp := (Entails.of_eq (rest_single X _ _ _ (duties_rsccw_r_8_1 X c) (payload_rsccw_r_8_1 X c false))) $$ Hpay
  ihave Hq := (owns_elim _ _ _) $$ Hp
  icases Hq with ⟨%f_rsccw_r_8_1, %hf_rsccw_r_8_1, Hs_rsccw_r_8_1⟩
  -- add ccw s=8 b=1: the loads and the store run by themselves (within the next run)
  -- wait send rs ccw t=7 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 41) (W := _) (R := 3) (m := 0) (T := ∅)
      (by rw [Nat.zero_add, expect_rsccw_s_3_3 X c])) $$ [Hcs_rsccw_s_3_3 HO Hat_rsccw_s_3]
  · isplitr; · iexact HIo
    isplitl [Hcs_rsccw_s_3_3]; · iexact Hcs_rsccw_s_3_3
    isplitl [HO]; · iexact HO
    isplitr; · iapply (mayWait_rem (F := F) c 41 (by decide) _ (by show (0 : ℕ) < 2 + 41; decide)); iexact Hlev
    iexact Hat_rsccw_s_3
  iintro ⟨HO, Hat_rsccw_s_3, #Hrch_rsccw_s_3_4, Hpay⟩
  iclear HIo
  ihave Hp := (Entails.of_eq (rest_single X _ _ _ (duties_rsccw_s_3_3 X c) (payload_rsccw_s_3_3 X c false))) $$ Hpay
  irename Hp => Hback_rsccw_r_6_1
  -- send rs ccw t=9 b=1 (payment 41, device function 42)
  try sl_exec_parts
  ihave HO := (owes_congr (rem_peel_41 c)) $$ HO
  ihave #HIo := (bigSepL_elim_idx ownQs _ 7 (by decide)) $$ HInvOwn
  ihave #HIt := (bigSepL_elim_idx recvCcw _ 19 (by decide)) $$ HInbCcw
  iapply (@send_owns_at F _ X c (prv c) ⟨k0_dev42 c, k0_dev42_lt c⟩ (dev42_eq c _) (slot bM 8 64 inb_S15x128x1024_S1x64x1024_8_64_0) (slot bM 9 64 inb_S15x128x1024_S1x64x1024_9_64_0) _ (qS cc0_scratch4 3 inb_S4_S1_3) (qR cc0_scratch5 9 1 inb_S15x2_S1x1_9_1) _ _ _ _ _ _ fullShare (addV X false 1 8 c) 4 (K (dcell c (qS cc0_scratch4 3 inb_S4_S1_3))) (K (dcell (prv c) (qR cc0_scratch5 9 1 inb_S15x2_S1x1_9_1))) _ (rem c 42) _ (by rw [duties_rsccw_s_3_4 X c]; exact Finset.mem_singleton_self _) (by rw [duties_rsccw_r_9_1 X (prv c)]; exact Finset.mem_singleton_self _) (by exact amount_rsccw_s_3_4 X c false) (by exact amount_rsccw_r_9_1 X (prv c) false) (by rfl) (by exact payload_rsccw_s_3_4 X c false) (by exact hp2_rsccw_r_9_1 X c) (by rfl) (by routes)) $$ [Hs_rsccw_r_8_1 Hd_rsccw_r_9_1 HO Hts_rsccw_s_3_4 Htn_rsccw_r_9_1]
  · isplitr; · iexact HIo
    isplitr; · iexact HIt
    isplitl [Hs_rsccw_r_8_1]; · iapply (owns_intro_add X false 8 64 1 c 10 bM _ f_rsccw_r_8_1 _ _ _ rfl (off4_10_64 c) hf_rsccw_r_8_1 (addV_eq_ccw_8_1 X c)); iexact Hs_rsccw_r_8_1
    isplitl [Hd_rsccw_r_9_1]; · iexact Hd_rsccw_r_9_1
    isplitl [HO]; · iexact HO
    isplitl [Hts_rsccw_s_3_4]; · iexact Hts_rsccw_s_3_4
    isplitr; · iexact Hrch_rsccw_s_3_4
    isplitl [Htn_rsccw_r_9_1]; · iexact Htn_rsccw_r_9_1
    iexact Hrn_rsccw_r_9_1
  iintro ⟨Hcs_rsccw_s_3_4, HO⟩
  iclear HIo HIt
  -- wait recv rs cw t=9 b=0
  try sl_exec_parts
  ihave #HIo := (bigSepL_elim_idx ownQs _ 34 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 42) (W := _) (R := 0) (m := 0) (T := ∅)
      (by rw [Nat.zero_add, expect_rscw_r_9_0 X c])) $$ [Hc_rscw_r_9_0 HO Hat_rscw_r_9_0]
  · isplitr; · iexact HIo
    isplitl [Hc_rscw_r_9_0]; · iexact Hc_rscw_r_9_0
    isplitl [HO]; · iexact HO
    isplitr; · iapply (mayWait_rem (F := F) c 42 (by decide) _ (by show (40 : ℕ) < 2 + 42; decide)); iexact Hlev
    iexact Hat_rscw_r_9_0
  iintro ⟨HO, Hat_rscw_r_9_0, #Hrch_rscw_r_9_0_1, Hpay⟩
  iclear HIo
  ihave Hp := (Entails.of_eq (rest_single X _ _ _ (duties_rscw_r_9_0 X c) (payload_rscw_r_9_0 X c false))) $$ Hpay
  ihave Hq := (owns_elim _ _ _) $$ Hp
  icases Hq with ⟨%f_rscw_r_9_0, %hf_rscw_r_9_0, Hs_rscw_r_9_0⟩
  -- add cw s=9 b=0: the loads and the store run by themselves (within the next run)
  -- wait send rs cw t=8 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 42) (W := _) (R := 4) (m := 0) (T := ∅)
      (by rw [Nat.zero_add, expect_rscw_s_0_4 X c])) $$ [Hcs_rscw_s_0_4 HO Hat_rscw_s_0]
  · isplitr; · iexact HIo
    isplitl [Hcs_rscw_s_0_4]; · iexact Hcs_rscw_s_0_4
    isplitl [HO]; · iexact HO
    isplitr; · iapply (mayWait_rem (F := F) c 42 (by decide) _ (by show (0 : ℕ) < 2 + 42; decide)); iexact Hlev
    iexact Hat_rscw_s_0
  iintro ⟨HO, Hat_rscw_s_0, #Hrch_rscw_s_0_5, Hpay⟩
  iclear HIo
  ihave Hp := (Entails.of_eq (rest_single X _ _ _ (duties_rscw_s_0_4 X c) (payload_rscw_s_0_4 X c false))) $$ Hpay
  irename Hp => Hback_rscw_r_7_0
  -- send rs cw t=10 b=0 (payment 42, device function 43)
  try sl_exec_parts
  ihave HO := (owes_congr (rem_peel_42 c)) $$ HO
  ihave #HIo := (bigSepL_elim_idx ownQs _ 0 (by decide)) $$ HInvOwn
  ihave #HIt := (bigSepL_elim_idx recvCw _ 20 (by decide)) $$ HInbCw
  iapply (@send_owns_at F _ X c (nxt c) ⟨k0_dev43 c, k0_dev43_lt c⟩ (dev43_eq c _) (slot aM 9 0 inb_S15x128x1024_S1x64x1024_9_0_0) (slot aM 10 0 inb_S15x128x1024_S1x64x1024_10_0_0) _ (qS cc0_scratch2 0 inb_S4_S1_0) (qR cc0_scratch3 10 0 inb_S15x2_S1x1_10_0) _ _ _ _ _ _ fullShare (addV X true 0 9 c) 5 (K (dcell c (qS cc0_scratch2 0 inb_S4_S1_0))) (K (dcell (nxt c) (qR cc0_scratch3 10 0 inb_S15x2_S1x1_10_0))) _ (rem c 43) _ (by rw [duties_rscw_s_0_5 X c]; exact Finset.mem_singleton_self _) (by rw [duties_rscw_r_10_0 X (nxt c)]; exact Finset.mem_singleton_self _) (by exact amount_rscw_s_0_5 X c false) (by exact amount_rscw_r_10_0 X (nxt c) false) (by rfl) (by exact payload_rscw_s_0_5 X c false) (by exact hp2_rscw_r_10_0 X c) (by rfl) (by routes)) $$ [Hs_rscw_r_9_0 Hd_rscw_r_10_0 HO Hts_rscw_s_0_5 Htn_rscw_r_10_0]
  · isplitr; · iexact HIo
    isplitr; · iexact HIt
    isplitl [Hs_rscw_r_9_0]; · iapply (owns_intro_add X true 9 0 0 c 5 aM _ f_rscw_r_9_0 _ _ _ rfl (off3_m11_0 c) hf_rscw_r_9_0 (addV_eq_cw_9_0 X c)); iexact Hs_rscw_r_9_0
    isplitl [Hd_rscw_r_10_0]; · iexact Hd_rscw_r_10_0
    isplitl [HO]; · iexact HO
    isplitl [Hts_rscw_s_0_5]; · iexact Hts_rscw_s_0_5
    isplitr; · iexact Hrch_rscw_s_0_5
    isplitl [Htn_rscw_r_10_0]; · iexact Htn_rscw_r_10_0
    iexact Hrn_rscw_r_10_0
  iintro ⟨Hcs_rscw_s_0_5, HO⟩
  iclear HIo HIt
  -- wait recv rs ccw t=9 b=0
  try sl_exec_parts
  ihave #HIo := (bigSepL_elim_idx ownQs _ 94 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 43) (W := _) (R := 0) (m := 0) (T := ∅)
      (by rw [Nat.zero_add, expect_rsccw_r_9_0 X c])) $$ [Hc_rsccw_r_9_0 HO Hat_rsccw_r_9_0]
  · isplitr; · iexact HIo
    isplitl [Hc_rsccw_r_9_0]; · iexact Hc_rsccw_r_9_0
    isplitl [HO]; · iexact HO
    isplitr; · iapply (mayWait_rem (F := F) c 43 (by decide) _ (by show (41 : ℕ) < 2 + 43; decide)); iexact Hlev
    iexact Hat_rsccw_r_9_0
  iintro ⟨HO, Hat_rsccw_r_9_0, #Hrch_rsccw_r_9_0_1, Hpay⟩
  iclear HIo
  ihave Hp := (Entails.of_eq (rest_single X _ _ _ (duties_rsccw_r_9_0 X c) (payload_rsccw_r_9_0 X c false))) $$ Hpay
  ihave Hq := (owns_elim _ _ _) $$ Hp
  icases Hq with ⟨%f_rsccw_r_9_0, %hf_rsccw_r_9_0, Hs_rsccw_r_9_0⟩
  -- add ccw s=9 b=0: the loads and the store run by themselves (within the next run)
  -- wait send rs ccw t=8 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 43) (W := _) (R := 4) (m := 0) (T := ∅)
      (by rw [Nat.zero_add, expect_rsccw_s_0_4 X c])) $$ [Hcs_rsccw_s_0_4 HO Hat_rsccw_s_0]
  · isplitr; · iexact HIo
    isplitl [Hcs_rsccw_s_0_4]; · iexact Hcs_rsccw_s_0_4
    isplitl [HO]; · iexact HO
    isplitr; · iapply (mayWait_rem (F := F) c 43 (by decide) _ (by show (0 : ℕ) < 2 + 43; decide)); iexact Hlev
    iexact Hat_rsccw_s_0
  iintro ⟨HO, Hat_rsccw_s_0, #Hrch_rsccw_s_0_5, Hpay⟩
  iclear HIo
  ihave Hp := (Entails.of_eq (rest_single X _ _ _ (duties_rsccw_s_0_4 X c) (payload_rsccw_s_0_4 X c false))) $$ Hpay
  irename Hp => Hback_rsccw_r_7_0
  -- send rs ccw t=10 b=0 (payment 43, device function 44)
  try sl_exec_parts
  ihave HO := (owes_congr (rem_peel_43 c)) $$ HO
  ihave #HIo := (bigSepL_elim_idx ownQs _ 4 (by decide)) $$ HInvOwn
  ihave #HIt := (bigSepL_elim_idx recvCcw _ 20 (by decide)) $$ HInbCcw
  iapply (@send_owns_at F _ X c (prv c) ⟨k0_dev44 c, k0_dev44_lt c⟩ (dev44_eq c _) (slot bM 9 0 inb_S15x128x1024_S1x64x1024_9_0_0) (slot bM 10 0 inb_S15x128x1024_S1x64x1024_10_0_0) _ (qS cc0_scratch4 0 inb_S4_S1_0) (qR cc0_scratch5 10 0 inb_S15x2_S1x1_10_0) _ _ _ _ _ _ fullShare (addV X false 0 9 c) 5 (K (dcell c (qS cc0_scratch4 0 inb_S4_S1_0))) (K (dcell (prv c) (qR cc0_scratch5 10 0 inb_S15x2_S1x1_10_0))) _ (rem c 44) _ (by rw [duties_rsccw_s_0_5 X c]; exact Finset.mem_singleton_self _) (by rw [duties_rsccw_r_10_0 X (prv c)]; exact Finset.mem_singleton_self _) (by exact amount_rsccw_s_0_5 X c false) (by exact amount_rsccw_r_10_0 X (prv c) false) (by rfl) (by exact payload_rsccw_s_0_5 X c false) (by exact hp2_rsccw_r_10_0 X c) (by rfl) (by routes)) $$ [Hs_rsccw_r_9_0 Hd_rsccw_r_10_0 HO Hts_rsccw_s_0_5 Htn_rsccw_r_10_0]
  · isplitr; · iexact HIo
    isplitr; · iexact HIt
    isplitl [Hs_rsccw_r_9_0]; · iapply (owns_intro_add X false 9 0 0 c 11 bM _ f_rsccw_r_9_0 _ _ _ rfl (off4_11_0 c) hf_rsccw_r_9_0 (addV_eq_ccw_9_0 X c)); iexact Hs_rsccw_r_9_0
    isplitl [Hd_rsccw_r_10_0]; · iexact Hd_rsccw_r_10_0
    isplitl [HO]; · iexact HO
    isplitl [Hts_rsccw_s_0_5]; · iexact Hts_rsccw_s_0_5
    isplitr; · iexact Hrch_rsccw_s_0_5
    isplitl [Htn_rsccw_r_10_0]; · iexact Htn_rsccw_r_10_0
    iexact Hrn_rsccw_r_10_0
  iintro ⟨Hcs_rsccw_s_0_5, HO⟩
  iclear HIo HIt
  -- wait recv rs cw t=9 b=1
  try sl_exec_parts
  ihave #HIo := (bigSepL_elim_idx ownQs _ 35 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 44) (W := _) (R := 0) (m := 0) (T := ∅)
      (by rw [Nat.zero_add, expect_rscw_r_9_1 X c])) $$ [Hc_rscw_r_9_1 HO Hat_rscw_r_9_1]
  · isplitr; · iexact HIo
    isplitl [Hc_rscw_r_9_1]; · iexact Hc_rscw_r_9_1
    isplitl [HO]; · iexact HO
    isplitr; · iapply (mayWait_rem (F := F) c 44 (by decide) _ (by show (42 : ℕ) < 2 + 44; decide)); iexact Hlev
    iexact Hat_rscw_r_9_1
  iintro ⟨HO, Hat_rscw_r_9_1, #Hrch_rscw_r_9_1_1, Hpay⟩
  iclear HIo
  ihave Hp := (Entails.of_eq (rest_single X _ _ _ (duties_rscw_r_9_1 X c) (payload_rscw_r_9_1 X c false))) $$ Hpay
  ihave Hq := (owns_elim _ _ _) $$ Hp
  icases Hq with ⟨%f_rscw_r_9_1, %hf_rscw_r_9_1, Hs_rscw_r_9_1⟩
  -- add cw s=9 b=1: the loads and the store run by themselves (within the next run)
  -- wait send rs cw t=8 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 44) (W := _) (R := 4) (m := 0) (T := ∅)
      (by rw [Nat.zero_add, expect_rscw_s_1_4 X c])) $$ [Hcs_rscw_s_1_4 HO Hat_rscw_s_1]
  · isplitr; · iexact HIo
    isplitl [Hcs_rscw_s_1_4]; · iexact Hcs_rscw_s_1_4
    isplitl [HO]; · iexact HO
    isplitr; · iapply (mayWait_rem (F := F) c 44 (by decide) _ (by show (0 : ℕ) < 2 + 44; decide)); iexact Hlev
    iexact Hat_rscw_s_1
  iintro ⟨HO, Hat_rscw_s_1, #Hrch_rscw_s_1_5, Hpay⟩
  iclear HIo
  ihave Hp := (Entails.of_eq (rest_single X _ _ _ (duties_rscw_s_1_4 X c) (payload_rscw_s_1_4 X c false))) $$ Hpay
  irename Hp => Hback_rscw_r_7_1
  -- send rs cw t=10 b=1 (payment 44, device function 45)
  try sl_exec_parts
  ihave HO := (owes_congr (rem_peel_44 c)) $$ HO
  ihave #HIo := (bigSepL_elim_idx ownQs _ 1 (by decide)) $$ HInvOwn
  ihave #HIt := (bigSepL_elim_idx recvCw _ 21 (by decide)) $$ HInbCw
  iapply (@send_owns_at F _ X c (nxt c) ⟨k0_dev45 c, k0_dev45_lt c⟩ (dev45_eq c _) (slot aM 9 64 inb_S15x128x1024_S1x64x1024_9_64_0) (slot aM 10 64 inb_S15x128x1024_S1x64x1024_10_64_0) _ (qS cc0_scratch2 1 inb_S4_S1_1) (qR cc0_scratch3 10 1 inb_S15x2_S1x1_10_1) _ _ _ _ _ _ fullShare (addV X true 1 9 c) 5 (K (dcell c (qS cc0_scratch2 1 inb_S4_S1_1))) (K (dcell (nxt c) (qR cc0_scratch3 10 1 inb_S15x2_S1x1_10_1))) _ (rem c 45) _ (by rw [duties_rscw_s_1_5 X c]; exact Finset.mem_singleton_self _) (by rw [duties_rscw_r_10_1 X (nxt c)]; exact Finset.mem_singleton_self _) (by exact amount_rscw_s_1_5 X c false) (by exact amount_rscw_r_10_1 X (nxt c) false) (by rfl) (by exact payload_rscw_s_1_5 X c false) (by exact hp2_rscw_r_10_1 X c) (by rfl) (by routes)) $$ [Hs_rscw_r_9_1 Hd_rscw_r_10_1 HO Hts_rscw_s_1_5 Htn_rscw_r_10_1]
  · isplitr; · iexact HIo
    isplitr; · iexact HIt
    isplitl [Hs_rscw_r_9_1]; · iapply (owns_intro_add X true 9 64 1 c 5 aM _ f_rscw_r_9_1 _ _ _ rfl (off3_m11_64 c) hf_rscw_r_9_1 (addV_eq_cw_9_1 X c)); iexact Hs_rscw_r_9_1
    isplitl [Hd_rscw_r_10_1]; · iexact Hd_rscw_r_10_1
    isplitl [HO]; · iexact HO
    isplitl [Hts_rscw_s_1_5]; · iexact Hts_rscw_s_1_5
    isplitr; · iexact Hrch_rscw_s_1_5
    isplitl [Htn_rscw_r_10_1]; · iexact Htn_rscw_r_10_1
    iexact Hrn_rscw_r_10_1
  iintro ⟨Hcs_rscw_s_1_5, HO⟩
  iclear HIo HIt
  -- wait recv rs ccw t=9 b=1
  try sl_exec_parts
  ihave #HIo := (bigSepL_elim_idx ownQs _ 95 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 45) (W := _) (R := 0) (m := 0) (T := ∅)
      (by rw [Nat.zero_add, expect_rsccw_r_9_1 X c])) $$ [Hc_rsccw_r_9_1 HO Hat_rsccw_r_9_1]
  · isplitr; · iexact HIo
    isplitl [Hc_rsccw_r_9_1]; · iexact Hc_rsccw_r_9_1
    isplitl [HO]; · iexact HO
    isplitr; · iapply (mayWait_rem (F := F) c 45 (by decide) _ (by show (43 : ℕ) < 2 + 45; decide)); iexact Hlev
    iexact Hat_rsccw_r_9_1
  iintro ⟨HO, Hat_rsccw_r_9_1, #Hrch_rsccw_r_9_1_1, Hpay⟩
  iclear HIo
  ihave Hp := (Entails.of_eq (rest_single X _ _ _ (duties_rsccw_r_9_1 X c) (payload_rsccw_r_9_1 X c false))) $$ Hpay
  ihave Hq := (owns_elim _ _ _) $$ Hp
  icases Hq with ⟨%f_rsccw_r_9_1, %hf_rsccw_r_9_1, Hs_rsccw_r_9_1⟩
  -- add ccw s=9 b=1: the loads and the store run by themselves (within the next run)
  -- wait send rs ccw t=8 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 45) (W := _) (R := 4) (m := 0) (T := ∅)
      (by rw [Nat.zero_add, expect_rsccw_s_1_4 X c])) $$ [Hcs_rsccw_s_1_4 HO Hat_rsccw_s_1]
  · isplitr; · iexact HIo
    isplitl [Hcs_rsccw_s_1_4]; · iexact Hcs_rsccw_s_1_4
    isplitl [HO]; · iexact HO
    isplitr; · iapply (mayWait_rem (F := F) c 45 (by decide) _ (by show (0 : ℕ) < 2 + 45; decide)); iexact Hlev
    iexact Hat_rsccw_s_1
  iintro ⟨HO, Hat_rsccw_s_1, #Hrch_rsccw_s_1_5, Hpay⟩
  iclear HIo
  ihave Hp := (Entails.of_eq (rest_single X _ _ _ (duties_rsccw_s_1_4 X c) (payload_rsccw_s_1_4 X c false))) $$ Hpay
  irename Hp => Hback_rsccw_r_7_1
  -- send rs ccw t=10 b=1 (payment 45, device function 46)
  try sl_exec_parts
  ihave HO := (owes_congr (rem_peel_45 c)) $$ HO
  ihave #HIo := (bigSepL_elim_idx ownQs _ 5 (by decide)) $$ HInvOwn
  ihave #HIt := (bigSepL_elim_idx recvCcw _ 21 (by decide)) $$ HInbCcw
  iapply (@send_owns_at F _ X c (prv c) ⟨k0_dev46 c, k0_dev46_lt c⟩ (dev46_eq c _) (slot bM 9 64 inb_S15x128x1024_S1x64x1024_9_64_0) (slot bM 10 64 inb_S15x128x1024_S1x64x1024_10_64_0) _ (qS cc0_scratch4 1 inb_S4_S1_1) (qR cc0_scratch5 10 1 inb_S15x2_S1x1_10_1) _ _ _ _ _ _ fullShare (addV X false 1 9 c) 5 (K (dcell c (qS cc0_scratch4 1 inb_S4_S1_1))) (K (dcell (prv c) (qR cc0_scratch5 10 1 inb_S15x2_S1x1_10_1))) _ (rem c 46) _ (by rw [duties_rsccw_s_1_5 X c]; exact Finset.mem_singleton_self _) (by rw [duties_rsccw_r_10_1 X (prv c)]; exact Finset.mem_singleton_self _) (by exact amount_rsccw_s_1_5 X c false) (by exact amount_rsccw_r_10_1 X (prv c) false) (by rfl) (by exact payload_rsccw_s_1_5 X c false) (by exact hp2_rsccw_r_10_1 X c) (by rfl) (by routes)) $$ [Hs_rsccw_r_9_1 Hd_rsccw_r_10_1 HO Hts_rsccw_s_1_5 Htn_rsccw_r_10_1]
  · isplitr; · iexact HIo
    isplitr; · iexact HIt
    isplitl [Hs_rsccw_r_9_1]; · iapply (owns_intro_add X false 9 64 1 c 11 bM _ f_rsccw_r_9_1 _ _ _ rfl (off4_11_64 c) hf_rsccw_r_9_1 (addV_eq_ccw_9_1 X c)); iexact Hs_rsccw_r_9_1
    isplitl [Hd_rsccw_r_10_1]; · iexact Hd_rsccw_r_10_1
    isplitl [HO]; · iexact HO
    isplitl [Hts_rsccw_s_1_5]; · iexact Hts_rsccw_s_1_5
    isplitr; · iexact Hrch_rsccw_s_1_5
    isplitl [Htn_rsccw_r_10_1]; · iexact Htn_rsccw_r_10_1
    iexact Hrn_rsccw_r_10_1
  iintro ⟨Hcs_rsccw_s_1_5, HO⟩
  iclear HIo HIt
  -- wait recv rs cw t=10 b=0
  try sl_exec_parts
  ihave #HIo := (bigSepL_elim_idx ownQs _ 36 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 46) (W := _) (R := 0) (m := 0) (T := ∅)
      (by rw [Nat.zero_add, expect_rscw_r_10_0 X c])) $$ [Hc_rscw_r_10_0 HO Hat_rscw_r_10_0]
  · isplitr; · iexact HIo
    isplitl [Hc_rscw_r_10_0]; · iexact Hc_rscw_r_10_0
    isplitl [HO]; · iexact HO
    isplitr; · iapply (mayWait_rem (F := F) c 46 (by decide) _ (by show (44 : ℕ) < 2 + 46; decide)); iexact Hlev
    iexact Hat_rscw_r_10_0
  iintro ⟨HO, Hat_rscw_r_10_0, #Hrch_rscw_r_10_0_1, Hpay⟩
  iclear HIo
  ihave Hp := (Entails.of_eq (rest_single X _ _ _ (duties_rscw_r_10_0 X c) (payload_rscw_r_10_0 X c false))) $$ Hpay
  ihave Hq := (owns_elim _ _ _) $$ Hp
  icases Hq with ⟨%f_rscw_r_10_0, %hf_rscw_r_10_0, Hs_rscw_r_10_0⟩
  -- add cw s=10 b=0: the loads and the store run by themselves (within the next run)
  -- wait send rs cw t=9 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 46) (W := _) (R := 4) (m := 0) (T := ∅)
      (by rw [Nat.zero_add, expect_rscw_s_2_4 X c])) $$ [Hcs_rscw_s_2_4 HO Hat_rscw_s_2]
  · isplitr; · iexact HIo
    isplitl [Hcs_rscw_s_2_4]; · iexact Hcs_rscw_s_2_4
    isplitl [HO]; · iexact HO
    isplitr; · iapply (mayWait_rem (F := F) c 46 (by decide) _ (by show (0 : ℕ) < 2 + 46; decide)); iexact Hlev
    iexact Hat_rscw_s_2
  iintro ⟨HO, Hat_rscw_s_2, #Hrch_rscw_s_2_5, Hpay⟩
  iclear HIo
  ihave Hp := (Entails.of_eq (rest_single X _ _ _ (duties_rscw_s_2_4 X c) (payload_rscw_s_2_4 X c false))) $$ Hpay
  irename Hp => Hback_rscw_r_8_0
  -- send rs cw t=11 b=0 (payment 46, device function 47)
  try sl_exec_parts
  ihave HO := (owes_congr (rem_peel_46 c)) $$ HO
  ihave #HIo := (bigSepL_elim_idx ownQs _ 2 (by decide)) $$ HInvOwn
  ihave #HIt := (bigSepL_elim_idx recvCw _ 22 (by decide)) $$ HInbCw
  iapply (@send_owns_at F _ X c (nxt c) ⟨k0_dev47 c, k0_dev47_lt c⟩ (dev47_eq c _) (slot aM 10 0 inb_S15x128x1024_S1x64x1024_10_0_0) (slot aM 11 0 inb_S15x128x1024_S1x64x1024_11_0_0) _ (qS cc0_scratch2 2 inb_S4_S1_2) (qR cc0_scratch3 11 0 inb_S15x2_S1x1_11_0) _ _ _ _ _ _ fullShare (addV X true 0 10 c) 5 (K (dcell c (qS cc0_scratch2 2 inb_S4_S1_2))) (K (dcell (nxt c) (qR cc0_scratch3 11 0 inb_S15x2_S1x1_11_0))) _ (rem c 47) _ (by rw [duties_rscw_s_2_5 X c]; exact Finset.mem_singleton_self _) (by rw [duties_rscw_r_11_0 X (nxt c)]; exact Finset.mem_singleton_self _) (by exact amount_rscw_s_2_5 X c false) (by exact amount_rscw_r_11_0 X (nxt c) false) (by rfl) (by exact payload_rscw_s_2_5 X c false) (by exact hp2_rscw_r_11_0 X c) (by rfl) (by routes)) $$ [Hs_rscw_r_10_0 Hd_rscw_r_11_0 HO Hts_rscw_s_2_5 Htn_rscw_r_11_0]
  · isplitr; · iexact HIo
    isplitr; · iexact HIt
    isplitl [Hs_rscw_r_10_0]; · iapply (owns_intro_add X true 10 0 0 c 4 aM _ f_rscw_r_10_0 _ _ _ rfl (off3_m12_0 c) hf_rscw_r_10_0 (addV_eq_cw_10_0 X c)); iexact Hs_rscw_r_10_0
    isplitl [Hd_rscw_r_11_0]; · iexact Hd_rscw_r_11_0
    isplitl [HO]; · iexact HO
    isplitl [Hts_rscw_s_2_5]; · iexact Hts_rscw_s_2_5
    isplitr; · iexact Hrch_rscw_s_2_5
    isplitl [Htn_rscw_r_11_0]; · iexact Htn_rscw_r_11_0
    iexact Hrn_rscw_r_11_0
  iintro ⟨Hcs_rscw_s_2_5, HO⟩
  iclear HIo HIt
  -- wait recv rs ccw t=10 b=0
  try sl_exec_parts
  ihave #HIo := (bigSepL_elim_idx ownQs _ 96 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 47) (W := _) (R := 0) (m := 0) (T := ∅)
      (by rw [Nat.zero_add, expect_rsccw_r_10_0 X c])) $$ [Hc_rsccw_r_10_0 HO Hat_rsccw_r_10_0]
  · isplitr; · iexact HIo
    isplitl [Hc_rsccw_r_10_0]; · iexact Hc_rsccw_r_10_0
    isplitl [HO]; · iexact HO
    isplitr; · iapply (mayWait_rem (F := F) c 47 (by decide) _ (by show (45 : ℕ) < 2 + 47; decide)); iexact Hlev
    iexact Hat_rsccw_r_10_0
  iintro ⟨HO, Hat_rsccw_r_10_0, #Hrch_rsccw_r_10_0_1, Hpay⟩
  iclear HIo
  ihave Hp := (Entails.of_eq (rest_single X _ _ _ (duties_rsccw_r_10_0 X c) (payload_rsccw_r_10_0 X c false))) $$ Hpay
  ihave Hq := (owns_elim _ _ _) $$ Hp
  icases Hq with ⟨%f_rsccw_r_10_0, %hf_rsccw_r_10_0, Hs_rsccw_r_10_0⟩
  -- add ccw s=10 b=0: the loads and the store run by themselves (within the next run)
  -- wait send rs ccw t=9 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 47) (W := _) (R := 4) (m := 0) (T := ∅)
      (by rw [Nat.zero_add, expect_rsccw_s_2_4 X c])) $$ [Hcs_rsccw_s_2_4 HO Hat_rsccw_s_2]
  · isplitr; · iexact HIo
    isplitl [Hcs_rsccw_s_2_4]; · iexact Hcs_rsccw_s_2_4
    isplitl [HO]; · iexact HO
    isplitr; · iapply (mayWait_rem (F := F) c 47 (by decide) _ (by show (0 : ℕ) < 2 + 47; decide)); iexact Hlev
    iexact Hat_rsccw_s_2
  iintro ⟨HO, Hat_rsccw_s_2, #Hrch_rsccw_s_2_5, Hpay⟩
  iclear HIo
  ihave Hp := (Entails.of_eq (rest_single X _ _ _ (duties_rsccw_s_2_4 X c) (payload_rsccw_s_2_4 X c false))) $$ Hpay
  irename Hp => Hback_rsccw_r_8_0
  -- send rs ccw t=11 b=0 (payment 47, device function 48)
  try sl_exec_parts
  ihave HO := (owes_congr (rem_peel_47 c)) $$ HO
  ihave #HIo := (bigSepL_elim_idx ownQs _ 6 (by decide)) $$ HInvOwn
  ihave #HIt := (bigSepL_elim_idx recvCcw _ 22 (by decide)) $$ HInbCcw
  iapply (@send_owns_at F _ X c (prv c) ⟨k0_dev48 c, k0_dev48_lt c⟩ (dev48_eq c _) (slot bM 10 0 inb_S15x128x1024_S1x64x1024_10_0_0) (slot bM 11 0 inb_S15x128x1024_S1x64x1024_11_0_0) _ (qS cc0_scratch4 2 inb_S4_S1_2) (qR cc0_scratch5 11 0 inb_S15x2_S1x1_11_0) _ _ _ _ _ _ fullShare (addV X false 0 10 c) 5 (K (dcell c (qS cc0_scratch4 2 inb_S4_S1_2))) (K (dcell (prv c) (qR cc0_scratch5 11 0 inb_S15x2_S1x1_11_0))) _ (rem c 48) _ (by rw [duties_rsccw_s_2_5 X c]; exact Finset.mem_singleton_self _) (by rw [duties_rsccw_r_11_0 X (prv c)]; exact Finset.mem_singleton_self _) (by exact amount_rsccw_s_2_5 X c false) (by exact amount_rsccw_r_11_0 X (prv c) false) (by rfl) (by exact payload_rsccw_s_2_5 X c false) (by exact hp2_rsccw_r_11_0 X c) (by rfl) (by routes)) $$ [Hs_rsccw_r_10_0 Hd_rsccw_r_11_0 HO Hts_rsccw_s_2_5 Htn_rsccw_r_11_0]
  · isplitr; · iexact HIo
    isplitr; · iexact HIt
    isplitl [Hs_rsccw_r_10_0]; · iapply (owns_intro_add X false 10 0 0 c 12 bM _ f_rsccw_r_10_0 _ _ _ rfl (off4_12_0 c) hf_rsccw_r_10_0 (addV_eq_ccw_10_0 X c)); iexact Hs_rsccw_r_10_0
    isplitl [Hd_rsccw_r_11_0]; · iexact Hd_rsccw_r_11_0
    isplitl [HO]; · iexact HO
    isplitl [Hts_rsccw_s_2_5]; · iexact Hts_rsccw_s_2_5
    isplitr; · iexact Hrch_rsccw_s_2_5
    isplitl [Htn_rsccw_r_11_0]; · iexact Htn_rsccw_r_11_0
    iexact Hrn_rsccw_r_11_0
  iintro ⟨Hcs_rsccw_s_2_5, HO⟩
  iclear HIo HIt
  -- wait recv rs cw t=10 b=1
  try sl_exec_parts
  ihave #HIo := (bigSepL_elim_idx ownQs _ 37 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 48) (W := _) (R := 0) (m := 0) (T := ∅)
      (by rw [Nat.zero_add, expect_rscw_r_10_1 X c])) $$ [Hc_rscw_r_10_1 HO Hat_rscw_r_10_1]
  · isplitr; · iexact HIo
    isplitl [Hc_rscw_r_10_1]; · iexact Hc_rscw_r_10_1
    isplitl [HO]; · iexact HO
    isplitr; · iapply (mayWait_rem (F := F) c 48 (by decide) _ (by show (46 : ℕ) < 2 + 48; decide)); iexact Hlev
    iexact Hat_rscw_r_10_1
  iintro ⟨HO, Hat_rscw_r_10_1, #Hrch_rscw_r_10_1_1, Hpay⟩
  iclear HIo
  ihave Hp := (Entails.of_eq (rest_single X _ _ _ (duties_rscw_r_10_1 X c) (payload_rscw_r_10_1 X c false))) $$ Hpay
  ihave Hq := (owns_elim _ _ _) $$ Hp
  icases Hq with ⟨%f_rscw_r_10_1, %hf_rscw_r_10_1, Hs_rscw_r_10_1⟩
  -- add cw s=10 b=1: the loads and the store run by themselves (within the next run)
  -- wait send rs cw t=9 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 48) (W := _) (R := 4) (m := 0) (T := ∅)
      (by rw [Nat.zero_add, expect_rscw_s_3_4 X c])) $$ [Hcs_rscw_s_3_4 HO Hat_rscw_s_3]
  · isplitr; · iexact HIo
    isplitl [Hcs_rscw_s_3_4]; · iexact Hcs_rscw_s_3_4
    isplitl [HO]; · iexact HO
    isplitr; · iapply (mayWait_rem (F := F) c 48 (by decide) _ (by show (0 : ℕ) < 2 + 48; decide)); iexact Hlev
    iexact Hat_rscw_s_3
  iintro ⟨HO, Hat_rscw_s_3, #Hrch_rscw_s_3_5, Hpay⟩
  iclear HIo
  ihave Hp := (Entails.of_eq (rest_single X _ _ _ (duties_rscw_s_3_4 X c) (payload_rscw_s_3_4 X c false))) $$ Hpay
  irename Hp => Hback_rscw_r_8_1
  -- send rs cw t=11 b=1 (payment 48, device function 49)
  try sl_exec_parts
  ihave HO := (owes_congr (rem_peel_48 c)) $$ HO
  ihave #HIo := (bigSepL_elim_idx ownQs _ 3 (by decide)) $$ HInvOwn
  ihave #HIt := (bigSepL_elim_idx recvCw _ 23 (by decide)) $$ HInbCw
  iapply (@send_owns_at F _ X c (nxt c) ⟨k0_dev49 c, k0_dev49_lt c⟩ (dev49_eq c _) (slot aM 10 64 inb_S15x128x1024_S1x64x1024_10_64_0) (slot aM 11 64 inb_S15x128x1024_S1x64x1024_11_64_0) _ (qS cc0_scratch2 3 inb_S4_S1_3) (qR cc0_scratch3 11 1 inb_S15x2_S1x1_11_1) _ _ _ _ _ _ fullShare (addV X true 1 10 c) 5 (K (dcell c (qS cc0_scratch2 3 inb_S4_S1_3))) (K (dcell (nxt c) (qR cc0_scratch3 11 1 inb_S15x2_S1x1_11_1))) _ (rem c 49) _ (by rw [duties_rscw_s_3_5 X c]; exact Finset.mem_singleton_self _) (by rw [duties_rscw_r_11_1 X (nxt c)]; exact Finset.mem_singleton_self _) (by exact amount_rscw_s_3_5 X c false) (by exact amount_rscw_r_11_1 X (nxt c) false) (by rfl) (by exact payload_rscw_s_3_5 X c false) (by exact hp2_rscw_r_11_1 X c) (by rfl) (by routes)) $$ [Hs_rscw_r_10_1 Hd_rscw_r_11_1 HO Hts_rscw_s_3_5 Htn_rscw_r_11_1]
  · isplitr; · iexact HIo
    isplitr; · iexact HIt
    isplitl [Hs_rscw_r_10_1]; · iapply (owns_intro_add X true 10 64 1 c 4 aM _ f_rscw_r_10_1 _ _ _ rfl (off3_m12_64 c) hf_rscw_r_10_1 (addV_eq_cw_10_1 X c)); iexact Hs_rscw_r_10_1
    isplitl [Hd_rscw_r_11_1]; · iexact Hd_rscw_r_11_1
    isplitl [HO]; · iexact HO
    isplitl [Hts_rscw_s_3_5]; · iexact Hts_rscw_s_3_5
    isplitr; · iexact Hrch_rscw_s_3_5
    isplitl [Htn_rscw_r_11_1]; · iexact Htn_rscw_r_11_1
    iexact Hrn_rscw_r_11_1
  iintro ⟨Hcs_rscw_s_3_5, HO⟩
  iclear HIo HIt
  -- wait recv rs ccw t=10 b=1
  try sl_exec_parts
  ihave #HIo := (bigSepL_elim_idx ownQs _ 97 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 49) (W := _) (R := 0) (m := 0) (T := ∅)
      (by rw [Nat.zero_add, expect_rsccw_r_10_1 X c])) $$ [Hc_rsccw_r_10_1 HO Hat_rsccw_r_10_1]
  · isplitr; · iexact HIo
    isplitl [Hc_rsccw_r_10_1]; · iexact Hc_rsccw_r_10_1
    isplitl [HO]; · iexact HO
    isplitr; · iapply (mayWait_rem (F := F) c 49 (by decide) _ (by show (47 : ℕ) < 2 + 49; decide)); iexact Hlev
    iexact Hat_rsccw_r_10_1
  iintro ⟨HO, Hat_rsccw_r_10_1, #Hrch_rsccw_r_10_1_1, Hpay⟩
  iclear HIo
  ihave Hp := (Entails.of_eq (rest_single X _ _ _ (duties_rsccw_r_10_1 X c) (payload_rsccw_r_10_1 X c false))) $$ Hpay
  ihave Hq := (owns_elim _ _ _) $$ Hp
  icases Hq with ⟨%f_rsccw_r_10_1, %hf_rsccw_r_10_1, Hs_rsccw_r_10_1⟩
  -- add ccw s=10 b=1: the loads and the store run by themselves (within the next run)
  -- wait send rs ccw t=9 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 49) (W := _) (R := 4) (m := 0) (T := ∅)
      (by rw [Nat.zero_add, expect_rsccw_s_3_4 X c])) $$ [Hcs_rsccw_s_3_4 HO Hat_rsccw_s_3]
  · isplitr; · iexact HIo
    isplitl [Hcs_rsccw_s_3_4]; · iexact Hcs_rsccw_s_3_4
    isplitl [HO]; · iexact HO
    isplitr; · iapply (mayWait_rem (F := F) c 49 (by decide) _ (by show (0 : ℕ) < 2 + 49; decide)); iexact Hlev
    iexact Hat_rsccw_s_3
  iintro ⟨HO, Hat_rsccw_s_3, #Hrch_rsccw_s_3_5, Hpay⟩
  iclear HIo
  ihave Hp := (Entails.of_eq (rest_single X _ _ _ (duties_rsccw_s_3_4 X c) (payload_rsccw_s_3_4 X c false))) $$ Hpay
  irename Hp => Hback_rsccw_r_8_1
  -- send rs ccw t=11 b=1 (payment 49, device function 50)
  try sl_exec_parts
  ihave HO := (owes_congr (rem_peel_49 c)) $$ HO
  ihave #HIo := (bigSepL_elim_idx ownQs _ 7 (by decide)) $$ HInvOwn
  ihave #HIt := (bigSepL_elim_idx recvCcw _ 23 (by decide)) $$ HInbCcw
  iapply (@send_owns_at F _ X c (prv c) ⟨k0_dev50 c, k0_dev50_lt c⟩ (dev50_eq c _) (slot bM 10 64 inb_S15x128x1024_S1x64x1024_10_64_0) (slot bM 11 64 inb_S15x128x1024_S1x64x1024_11_64_0) _ (qS cc0_scratch4 3 inb_S4_S1_3) (qR cc0_scratch5 11 1 inb_S15x2_S1x1_11_1) _ _ _ _ _ _ fullShare (addV X false 1 10 c) 5 (K (dcell c (qS cc0_scratch4 3 inb_S4_S1_3))) (K (dcell (prv c) (qR cc0_scratch5 11 1 inb_S15x2_S1x1_11_1))) _ (rem c 50) _ (by rw [duties_rsccw_s_3_5 X c]; exact Finset.mem_singleton_self _) (by rw [duties_rsccw_r_11_1 X (prv c)]; exact Finset.mem_singleton_self _) (by exact amount_rsccw_s_3_5 X c false) (by exact amount_rsccw_r_11_1 X (prv c) false) (by rfl) (by exact payload_rsccw_s_3_5 X c false) (by exact hp2_rsccw_r_11_1 X c) (by rfl) (by routes)) $$ [Hs_rsccw_r_10_1 Hd_rsccw_r_11_1 HO Hts_rsccw_s_3_5 Htn_rsccw_r_11_1]
  · isplitr; · iexact HIo
    isplitr; · iexact HIt
    isplitl [Hs_rsccw_r_10_1]; · iapply (owns_intro_add X false 10 64 1 c 12 bM _ f_rsccw_r_10_1 _ _ _ rfl (off4_12_64 c) hf_rsccw_r_10_1 (addV_eq_ccw_10_1 X c)); iexact Hs_rsccw_r_10_1
    isplitl [Hd_rsccw_r_11_1]; · iexact Hd_rsccw_r_11_1
    isplitl [HO]; · iexact HO
    isplitl [Hts_rsccw_s_3_5]; · iexact Hts_rsccw_s_3_5
    isplitr; · iexact Hrch_rsccw_s_3_5
    isplitl [Htn_rsccw_r_11_1]; · iexact Htn_rsccw_r_11_1
    iexact Hrn_rsccw_r_11_1
  iintro ⟨Hcs_rsccw_s_3_5, HO⟩
  iclear HIo HIt
  -- wait recv rs cw t=11 b=0
  try sl_exec_parts
  ihave #HIo := (bigSepL_elim_idx ownQs _ 38 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 50) (W := _) (R := 0) (m := 0) (T := ∅)
      (by rw [Nat.zero_add, expect_rscw_r_11_0 X c])) $$ [Hc_rscw_r_11_0 HO Hat_rscw_r_11_0]
  · isplitr; · iexact HIo
    isplitl [Hc_rscw_r_11_0]; · iexact Hc_rscw_r_11_0
    isplitl [HO]; · iexact HO
    isplitr; · iapply (mayWait_rem (F := F) c 50 (by decide) _ (by show (48 : ℕ) < 2 + 50; decide)); iexact Hlev
    iexact Hat_rscw_r_11_0
  iintro ⟨HO, Hat_rscw_r_11_0, #Hrch_rscw_r_11_0_1, Hpay⟩
  iclear HIo
  ihave Hp := (Entails.of_eq (rest_single X _ _ _ (duties_rscw_r_11_0 X c) (payload_rscw_r_11_0 X c false))) $$ Hpay
  ihave Hq := (owns_elim _ _ _) $$ Hp
  icases Hq with ⟨%f_rscw_r_11_0, %hf_rscw_r_11_0, Hs_rscw_r_11_0⟩
  -- add cw s=11 b=0: the loads and the store run by themselves (within the next run)
  -- wait send rs cw t=10 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 50) (W := _) (R := 5) (m := 0) (T := ∅)
      (by rw [Nat.zero_add, expect_rscw_s_0_5 X c])) $$ [Hcs_rscw_s_0_5 HO Hat_rscw_s_0]
  · isplitr; · iexact HIo
    isplitl [Hcs_rscw_s_0_5]; · iexact Hcs_rscw_s_0_5
    isplitl [HO]; · iexact HO
    isplitr; · iapply (mayWait_rem (F := F) c 50 (by decide) _ (by show (0 : ℕ) < 2 + 50; decide)); iexact Hlev
    iexact Hat_rscw_s_0
  iintro ⟨HO, Hat_rscw_s_0, #Hrch_rscw_s_0_6, Hpay⟩
  iclear HIo
  ihave Hp := (Entails.of_eq (rest_single X _ _ _ (duties_rscw_s_0_5 X c) (payload_rscw_s_0_5 X c false))) $$ Hpay
  irename Hp => Hback_rscw_r_9_0
  -- send rs cw t=12 b=0 (payment 50, device function 51)
  try sl_exec_parts
  ihave HO := (owes_congr (rem_peel_50 c)) $$ HO
  ihave #HIo := (bigSepL_elim_idx ownQs _ 0 (by decide)) $$ HInvOwn
  ihave #HIt := (bigSepL_elim_idx recvCw _ 24 (by decide)) $$ HInbCw
  iapply (@send_owns_at F _ X c (nxt c) ⟨k0_dev51 c, k0_dev51_lt c⟩ (dev51_eq c _) (slot aM 11 0 inb_S15x128x1024_S1x64x1024_11_0_0) (slot aM 12 0 inb_S15x128x1024_S1x64x1024_12_0_0) _ (qS cc0_scratch2 0 inb_S4_S1_0) (qR cc0_scratch3 12 0 inb_S15x2_S1x1_12_0) _ _ _ _ _ _ fullShare (addV X true 0 11 c) 6 (K (dcell c (qS cc0_scratch2 0 inb_S4_S1_0))) (K (dcell (nxt c) (qR cc0_scratch3 12 0 inb_S15x2_S1x1_12_0))) _ (rem c 51) _ (by rw [duties_rscw_s_0_6 X c]; exact Finset.mem_singleton_self _) (by rw [duties_rscw_r_12_0 X (nxt c)]; exact Finset.mem_singleton_self _) (by exact amount_rscw_s_0_6 X c false) (by exact amount_rscw_r_12_0 X (nxt c) false) (by rfl) (by exact payload_rscw_s_0_6 X c false) (by exact hp2_rscw_r_12_0 X c) (by rfl) (by routes)) $$ [Hs_rscw_r_11_0 Hd_rscw_r_12_0 HO Hts_rscw_s_0_6 Htn_rscw_r_12_0]
  · isplitr; · iexact HIo
    isplitr; · iexact HIt
    isplitl [Hs_rscw_r_11_0]; · iapply (owns_intro_add X true 11 0 0 c 3 aM _ f_rscw_r_11_0 _ _ _ rfl (off3_m13_0 c) hf_rscw_r_11_0 (addV_eq_cw_11_0 X c)); iexact Hs_rscw_r_11_0
    isplitl [Hd_rscw_r_12_0]; · iexact Hd_rscw_r_12_0
    isplitl [HO]; · iexact HO
    isplitl [Hts_rscw_s_0_6]; · iexact Hts_rscw_s_0_6
    isplitr; · iexact Hrch_rscw_s_0_6
    isplitl [Htn_rscw_r_12_0]; · iexact Htn_rscw_r_12_0
    iexact Hrn_rscw_r_12_0
  iintro ⟨Hcs_rscw_s_0_6, HO⟩
  iclear HIo HIt
  -- wait recv rs ccw t=11 b=0
  try sl_exec_parts
  ihave #HIo := (bigSepL_elim_idx ownQs _ 98 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 51) (W := _) (R := 0) (m := 0) (T := ∅)
      (by rw [Nat.zero_add, expect_rsccw_r_11_0 X c])) $$ [Hc_rsccw_r_11_0 HO Hat_rsccw_r_11_0]
  · isplitr; · iexact HIo
    isplitl [Hc_rsccw_r_11_0]; · iexact Hc_rsccw_r_11_0
    isplitl [HO]; · iexact HO
    isplitr; · iapply (mayWait_rem (F := F) c 51 (by decide) _ (by show (49 : ℕ) < 2 + 51; decide)); iexact Hlev
    iexact Hat_rsccw_r_11_0
  iintro ⟨HO, Hat_rsccw_r_11_0, #Hrch_rsccw_r_11_0_1, Hpay⟩
  iclear HIo
  ihave Hp := (Entails.of_eq (rest_single X _ _ _ (duties_rsccw_r_11_0 X c) (payload_rsccw_r_11_0 X c false))) $$ Hpay
  ihave Hq := (owns_elim _ _ _) $$ Hp
  icases Hq with ⟨%f_rsccw_r_11_0, %hf_rsccw_r_11_0, Hs_rsccw_r_11_0⟩
  -- add ccw s=11 b=0: the loads and the store run by themselves (within the next run)
  -- wait send rs ccw t=10 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 51) (W := _) (R := 5) (m := 0) (T := ∅)
      (by rw [Nat.zero_add, expect_rsccw_s_0_5 X c])) $$ [Hcs_rsccw_s_0_5 HO Hat_rsccw_s_0]
  · isplitr; · iexact HIo
    isplitl [Hcs_rsccw_s_0_5]; · iexact Hcs_rsccw_s_0_5
    isplitl [HO]; · iexact HO
    isplitr; · iapply (mayWait_rem (F := F) c 51 (by decide) _ (by show (0 : ℕ) < 2 + 51; decide)); iexact Hlev
    iexact Hat_rsccw_s_0
  iintro ⟨HO, Hat_rsccw_s_0, #Hrch_rsccw_s_0_6, Hpay⟩
  iclear HIo
  ihave Hp := (Entails.of_eq (rest_single X _ _ _ (duties_rsccw_s_0_5 X c) (payload_rsccw_s_0_5 X c false))) $$ Hpay
  irename Hp => Hback_rsccw_r_9_0
  -- send rs ccw t=12 b=0 (payment 51, device function 52)
  try sl_exec_parts
  ihave HO := (owes_congr (rem_peel_51 c)) $$ HO
  ihave #HIo := (bigSepL_elim_idx ownQs _ 4 (by decide)) $$ HInvOwn
  ihave #HIt := (bigSepL_elim_idx recvCcw _ 24 (by decide)) $$ HInbCcw
  iapply (@send_owns_at F _ X c (prv c) ⟨k0_dev52 c, k0_dev52_lt c⟩ (dev52_eq c _) (slot bM 11 0 inb_S15x128x1024_S1x64x1024_11_0_0) (slot bM 12 0 inb_S15x128x1024_S1x64x1024_12_0_0) _ (qS cc0_scratch4 0 inb_S4_S1_0) (qR cc0_scratch5 12 0 inb_S15x2_S1x1_12_0) _ _ _ _ _ _ fullShare (addV X false 0 11 c) 6 (K (dcell c (qS cc0_scratch4 0 inb_S4_S1_0))) (K (dcell (prv c) (qR cc0_scratch5 12 0 inb_S15x2_S1x1_12_0))) _ (rem c 52) _ (by rw [duties_rsccw_s_0_6 X c]; exact Finset.mem_singleton_self _) (by rw [duties_rsccw_r_12_0 X (prv c)]; exact Finset.mem_singleton_self _) (by exact amount_rsccw_s_0_6 X c false) (by exact amount_rsccw_r_12_0 X (prv c) false) (by rfl) (by exact payload_rsccw_s_0_6 X c false) (by exact hp2_rsccw_r_12_0 X c) (by rfl) (by routes)) $$ [Hs_rsccw_r_11_0 Hd_rsccw_r_12_0 HO Hts_rsccw_s_0_6 Htn_rsccw_r_12_0]
  · isplitr; · iexact HIo
    isplitr; · iexact HIt
    isplitl [Hs_rsccw_r_11_0]; · iapply (owns_intro_add X false 11 0 0 c 13 bM _ f_rsccw_r_11_0 _ _ _ rfl (off4_13_0 c) hf_rsccw_r_11_0 (addV_eq_ccw_11_0 X c)); iexact Hs_rsccw_r_11_0
    isplitl [Hd_rsccw_r_12_0]; · iexact Hd_rsccw_r_12_0
    isplitl [HO]; · iexact HO
    isplitl [Hts_rsccw_s_0_6]; · iexact Hts_rsccw_s_0_6
    isplitr; · iexact Hrch_rsccw_s_0_6
    isplitl [Htn_rsccw_r_12_0]; · iexact Htn_rsccw_r_12_0
    iexact Hrn_rsccw_r_12_0
  iintro ⟨Hcs_rsccw_s_0_6, HO⟩
  iclear HIo HIt
  -- wait recv rs cw t=11 b=1
  try sl_exec_parts
  ihave #HIo := (bigSepL_elim_idx ownQs _ 39 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 52) (W := _) (R := 0) (m := 0) (T := ∅)
      (by rw [Nat.zero_add, expect_rscw_r_11_1 X c])) $$ [Hc_rscw_r_11_1 HO Hat_rscw_r_11_1]
  · isplitr; · iexact HIo
    isplitl [Hc_rscw_r_11_1]; · iexact Hc_rscw_r_11_1
    isplitl [HO]; · iexact HO
    isplitr; · iapply (mayWait_rem (F := F) c 52 (by decide) _ (by show (50 : ℕ) < 2 + 52; decide)); iexact Hlev
    iexact Hat_rscw_r_11_1
  iintro ⟨HO, Hat_rscw_r_11_1, #Hrch_rscw_r_11_1_1, Hpay⟩
  iclear HIo
  ihave Hp := (Entails.of_eq (rest_single X _ _ _ (duties_rscw_r_11_1 X c) (payload_rscw_r_11_1 X c false))) $$ Hpay
  ihave Hq := (owns_elim _ _ _) $$ Hp
  icases Hq with ⟨%f_rscw_r_11_1, %hf_rscw_r_11_1, Hs_rscw_r_11_1⟩
  -- add cw s=11 b=1: the loads and the store run by themselves (within the next run)
  -- wait send rs cw t=10 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 52) (W := _) (R := 5) (m := 0) (T := ∅)
      (by rw [Nat.zero_add, expect_rscw_s_1_5 X c])) $$ [Hcs_rscw_s_1_5 HO Hat_rscw_s_1]
  · isplitr; · iexact HIo
    isplitl [Hcs_rscw_s_1_5]; · iexact Hcs_rscw_s_1_5
    isplitl [HO]; · iexact HO
    isplitr; · iapply (mayWait_rem (F := F) c 52 (by decide) _ (by show (0 : ℕ) < 2 + 52; decide)); iexact Hlev
    iexact Hat_rscw_s_1
  iintro ⟨HO, Hat_rscw_s_1, #Hrch_rscw_s_1_6, Hpay⟩
  iclear HIo
  ihave Hp := (Entails.of_eq (rest_single X _ _ _ (duties_rscw_s_1_5 X c) (payload_rscw_s_1_5 X c false))) $$ Hpay
  irename Hp => Hback_rscw_r_9_1
  -- send rs cw t=12 b=1 (payment 52, device function 53)
  try sl_exec_parts
  ihave HO := (owes_congr (rem_peel_52 c)) $$ HO
  ihave #HIo := (bigSepL_elim_idx ownQs _ 1 (by decide)) $$ HInvOwn
  ihave #HIt := (bigSepL_elim_idx recvCw _ 25 (by decide)) $$ HInbCw
  iapply (@send_owns_at F _ X c (nxt c) ⟨k0_dev53 c, k0_dev53_lt c⟩ (dev53_eq c _) (slot aM 11 64 inb_S15x128x1024_S1x64x1024_11_64_0) (slot aM 12 64 inb_S15x128x1024_S1x64x1024_12_64_0) _ (qS cc0_scratch2 1 inb_S4_S1_1) (qR cc0_scratch3 12 1 inb_S15x2_S1x1_12_1) _ _ _ _ _ _ fullShare (addV X true 1 11 c) 6 (K (dcell c (qS cc0_scratch2 1 inb_S4_S1_1))) (K (dcell (nxt c) (qR cc0_scratch3 12 1 inb_S15x2_S1x1_12_1))) _ (rem c 53) _ (by rw [duties_rscw_s_1_6 X c]; exact Finset.mem_singleton_self _) (by rw [duties_rscw_r_12_1 X (nxt c)]; exact Finset.mem_singleton_self _) (by exact amount_rscw_s_1_6 X c false) (by exact amount_rscw_r_12_1 X (nxt c) false) (by rfl) (by exact payload_rscw_s_1_6 X c false) (by exact hp2_rscw_r_12_1 X c) (by rfl) (by routes)) $$ [Hs_rscw_r_11_1 Hd_rscw_r_12_1 HO Hts_rscw_s_1_6 Htn_rscw_r_12_1]
  · isplitr; · iexact HIo
    isplitr; · iexact HIt
    isplitl [Hs_rscw_r_11_1]; · iapply (owns_intro_add X true 11 64 1 c 3 aM _ f_rscw_r_11_1 _ _ _ rfl (off3_m13_64 c) hf_rscw_r_11_1 (addV_eq_cw_11_1 X c)); iexact Hs_rscw_r_11_1
    isplitl [Hd_rscw_r_12_1]; · iexact Hd_rscw_r_12_1
    isplitl [HO]; · iexact HO
    isplitl [Hts_rscw_s_1_6]; · iexact Hts_rscw_s_1_6
    isplitr; · iexact Hrch_rscw_s_1_6
    isplitl [Htn_rscw_r_12_1]; · iexact Htn_rscw_r_12_1
    iexact Hrn_rscw_r_12_1
  iintro ⟨Hcs_rscw_s_1_6, HO⟩
  iclear HIo HIt
  -- wait recv rs ccw t=11 b=1
  try sl_exec_parts
  ihave #HIo := (bigSepL_elim_idx ownQs _ 99 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 53) (W := _) (R := 0) (m := 0) (T := ∅)
      (by rw [Nat.zero_add, expect_rsccw_r_11_1 X c])) $$ [Hc_rsccw_r_11_1 HO Hat_rsccw_r_11_1]
  · isplitr; · iexact HIo
    isplitl [Hc_rsccw_r_11_1]; · iexact Hc_rsccw_r_11_1
    isplitl [HO]; · iexact HO
    isplitr; · iapply (mayWait_rem (F := F) c 53 (by decide) _ (by show (51 : ℕ) < 2 + 53; decide)); iexact Hlev
    iexact Hat_rsccw_r_11_1
  iintro ⟨HO, Hat_rsccw_r_11_1, #Hrch_rsccw_r_11_1_1, Hpay⟩
  iclear HIo
  ihave Hp := (Entails.of_eq (rest_single X _ _ _ (duties_rsccw_r_11_1 X c) (payload_rsccw_r_11_1 X c false))) $$ Hpay
  ihave Hq := (owns_elim _ _ _) $$ Hp
  icases Hq with ⟨%f_rsccw_r_11_1, %hf_rsccw_r_11_1, Hs_rsccw_r_11_1⟩
  -- add ccw s=11 b=1: the loads and the store run by themselves (within the next run)
  -- wait send rs ccw t=10 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 53) (W := _) (R := 5) (m := 0) (T := ∅)
      (by rw [Nat.zero_add, expect_rsccw_s_1_5 X c])) $$ [Hcs_rsccw_s_1_5 HO Hat_rsccw_s_1]
  · isplitr; · iexact HIo
    isplitl [Hcs_rsccw_s_1_5]; · iexact Hcs_rsccw_s_1_5
    isplitl [HO]; · iexact HO
    isplitr; · iapply (mayWait_rem (F := F) c 53 (by decide) _ (by show (0 : ℕ) < 2 + 53; decide)); iexact Hlev
    iexact Hat_rsccw_s_1
  iintro ⟨HO, Hat_rsccw_s_1, #Hrch_rsccw_s_1_6, Hpay⟩
  iclear HIo
  ihave Hp := (Entails.of_eq (rest_single X _ _ _ (duties_rsccw_s_1_5 X c) (payload_rsccw_s_1_5 X c false))) $$ Hpay
  irename Hp => Hback_rsccw_r_9_1
  -- send rs ccw t=12 b=1 (payment 53, device function 54)
  try sl_exec_parts
  ihave HO := (owes_congr (rem_peel_53 c)) $$ HO
  ihave #HIo := (bigSepL_elim_idx ownQs _ 5 (by decide)) $$ HInvOwn
  ihave #HIt := (bigSepL_elim_idx recvCcw _ 25 (by decide)) $$ HInbCcw
  iapply (@send_owns_at F _ X c (prv c) ⟨k0_dev54 c, k0_dev54_lt c⟩ (dev54_eq c _) (slot bM 11 64 inb_S15x128x1024_S1x64x1024_11_64_0) (slot bM 12 64 inb_S15x128x1024_S1x64x1024_12_64_0) _ (qS cc0_scratch4 1 inb_S4_S1_1) (qR cc0_scratch5 12 1 inb_S15x2_S1x1_12_1) _ _ _ _ _ _ fullShare (addV X false 1 11 c) 6 (K (dcell c (qS cc0_scratch4 1 inb_S4_S1_1))) (K (dcell (prv c) (qR cc0_scratch5 12 1 inb_S15x2_S1x1_12_1))) _ (rem c 54) _ (by rw [duties_rsccw_s_1_6 X c]; exact Finset.mem_singleton_self _) (by rw [duties_rsccw_r_12_1 X (prv c)]; exact Finset.mem_singleton_self _) (by exact amount_rsccw_s_1_6 X c false) (by exact amount_rsccw_r_12_1 X (prv c) false) (by rfl) (by exact payload_rsccw_s_1_6 X c false) (by exact hp2_rsccw_r_12_1 X c) (by rfl) (by routes)) $$ [Hs_rsccw_r_11_1 Hd_rsccw_r_12_1 HO Hts_rsccw_s_1_6 Htn_rsccw_r_12_1]
  · isplitr; · iexact HIo
    isplitr; · iexact HIt
    isplitl [Hs_rsccw_r_11_1]; · iapply (owns_intro_add X false 11 64 1 c 13 bM _ f_rsccw_r_11_1 _ _ _ rfl (off4_13_64 c) hf_rsccw_r_11_1 (addV_eq_ccw_11_1 X c)); iexact Hs_rsccw_r_11_1
    isplitl [Hd_rsccw_r_12_1]; · iexact Hd_rsccw_r_12_1
    isplitl [HO]; · iexact HO
    isplitl [Hts_rsccw_s_1_6]; · iexact Hts_rsccw_s_1_6
    isplitr; · iexact Hrch_rsccw_s_1_6
    isplitl [Htn_rsccw_r_12_1]; · iexact Htn_rsccw_r_12_1
    iexact Hrn_rsccw_r_12_1
  iintro ⟨Hcs_rsccw_s_1_6, HO⟩
  iclear HIo HIt
  -- wait recv rs cw t=12 b=0
  try sl_exec_parts
  ihave #HIo := (bigSepL_elim_idx ownQs _ 40 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 54) (W := _) (R := 0) (m := 0) (T := ∅)
      (by rw [Nat.zero_add, expect_rscw_r_12_0 X c])) $$ [Hc_rscw_r_12_0 HO Hat_rscw_r_12_0]
  · isplitr; · iexact HIo
    isplitl [Hc_rscw_r_12_0]; · iexact Hc_rscw_r_12_0
    isplitl [HO]; · iexact HO
    isplitr; · iapply (mayWait_rem (F := F) c 54 (by decide) _ (by show (52 : ℕ) < 2 + 54; decide)); iexact Hlev
    iexact Hat_rscw_r_12_0
  iintro ⟨HO, Hat_rscw_r_12_0, #Hrch_rscw_r_12_0_1, Hpay⟩
  iclear HIo
  ihave Hp := (Entails.of_eq (rest_single X _ _ _ (duties_rscw_r_12_0 X c) (payload_rscw_r_12_0 X c false))) $$ Hpay
  ihave Hq := (owns_elim _ _ _) $$ Hp
  icases Hq with ⟨%f_rscw_r_12_0, %hf_rscw_r_12_0, Hs_rscw_r_12_0⟩
  -- add cw s=12 b=0: the loads and the store run by themselves (within the next run)
  -- wait send rs cw t=11 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 54) (W := _) (R := 5) (m := 0) (T := ∅)
      (by rw [Nat.zero_add, expect_rscw_s_2_5 X c])) $$ [Hcs_rscw_s_2_5 HO Hat_rscw_s_2]
  · isplitr; · iexact HIo
    isplitl [Hcs_rscw_s_2_5]; · iexact Hcs_rscw_s_2_5
    isplitl [HO]; · iexact HO
    isplitr; · iapply (mayWait_rem (F := F) c 54 (by decide) _ (by show (0 : ℕ) < 2 + 54; decide)); iexact Hlev
    iexact Hat_rscw_s_2
  iintro ⟨HO, Hat_rscw_s_2, #Hrch_rscw_s_2_6, Hpay⟩
  iclear HIo
  ihave Hp := (Entails.of_eq (rest_single X _ _ _ (duties_rscw_s_2_5 X c) (payload_rscw_s_2_5 X c false))) $$ Hpay
  irename Hp => Hback_rscw_r_10_0
  -- send rs cw t=13 b=0 (payment 54, device function 55)
  try sl_exec_parts
  ihave HO := (owes_congr (rem_peel_54 c)) $$ HO
  ihave #HIo := (bigSepL_elim_idx ownQs _ 2 (by decide)) $$ HInvOwn
  ihave #HIt := (bigSepL_elim_idx recvCw _ 26 (by decide)) $$ HInbCw
  iapply (@send_owns_at F _ X c (nxt c) ⟨k0_dev55 c, k0_dev55_lt c⟩ (dev55_eq c _) (slot aM 12 0 inb_S15x128x1024_S1x64x1024_12_0_0) (slot aM 13 0 inb_S15x128x1024_S1x64x1024_13_0_0) _ (qS cc0_scratch2 2 inb_S4_S1_2) (qR cc0_scratch3 13 0 inb_S15x2_S1x1_13_0) _ _ _ _ _ _ fullShare (addV X true 0 12 c) 6 (K (dcell c (qS cc0_scratch2 2 inb_S4_S1_2))) (K (dcell (nxt c) (qR cc0_scratch3 13 0 inb_S15x2_S1x1_13_0))) _ (rem c 55) _ (by rw [duties_rscw_s_2_6 X c]; exact Finset.mem_singleton_self _) (by rw [duties_rscw_r_13_0 X (nxt c)]; exact Finset.mem_singleton_self _) (by exact amount_rscw_s_2_6 X c false) (by exact amount_rscw_r_13_0 X (nxt c) false) (by rfl) (by exact payload_rscw_s_2_6 X c false) (by exact hp2_rscw_r_13_0 X c) (by rfl) (by routes)) $$ [Hs_rscw_r_12_0 Hd_rscw_r_13_0 HO Hts_rscw_s_2_6 Htn_rscw_r_13_0]
  · isplitr; · iexact HIo
    isplitr; · iexact HIt
    isplitl [Hs_rscw_r_12_0]; · iapply (owns_intro_add X true 12 0 0 c 2 aM _ f_rscw_r_12_0 _ _ _ rfl (off3_m14_0 c) hf_rscw_r_12_0 (addV_eq_cw_12_0 X c)); iexact Hs_rscw_r_12_0
    isplitl [Hd_rscw_r_13_0]; · iexact Hd_rscw_r_13_0
    isplitl [HO]; · iexact HO
    isplitl [Hts_rscw_s_2_6]; · iexact Hts_rscw_s_2_6
    isplitr; · iexact Hrch_rscw_s_2_6
    isplitl [Htn_rscw_r_13_0]; · iexact Htn_rscw_r_13_0
    iexact Hrn_rscw_r_13_0
  iintro ⟨Hcs_rscw_s_2_6, HO⟩
  iclear HIo HIt
  -- wait recv rs ccw t=12 b=0
  try sl_exec_parts
  ihave #HIo := (bigSepL_elim_idx ownQs _ 100 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 55) (W := _) (R := 0) (m := 0) (T := ∅)
      (by rw [Nat.zero_add, expect_rsccw_r_12_0 X c])) $$ [Hc_rsccw_r_12_0 HO Hat_rsccw_r_12_0]
  · isplitr; · iexact HIo
    isplitl [Hc_rsccw_r_12_0]; · iexact Hc_rsccw_r_12_0
    isplitl [HO]; · iexact HO
    isplitr; · iapply (mayWait_rem (F := F) c 55 (by decide) _ (by show (53 : ℕ) < 2 + 55; decide)); iexact Hlev
    iexact Hat_rsccw_r_12_0
  iintro ⟨HO, Hat_rsccw_r_12_0, #Hrch_rsccw_r_12_0_1, Hpay⟩
  iclear HIo
  ihave Hp := (Entails.of_eq (rest_single X _ _ _ (duties_rsccw_r_12_0 X c) (payload_rsccw_r_12_0 X c false))) $$ Hpay
  ihave Hq := (owns_elim _ _ _) $$ Hp
  icases Hq with ⟨%f_rsccw_r_12_0, %hf_rsccw_r_12_0, Hs_rsccw_r_12_0⟩
  -- add ccw s=12 b=0: the loads and the store run by themselves (within the next run)
  -- wait send rs ccw t=11 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 55) (W := _) (R := 5) (m := 0) (T := ∅)
      (by rw [Nat.zero_add, expect_rsccw_s_2_5 X c])) $$ [Hcs_rsccw_s_2_5 HO Hat_rsccw_s_2]
  · isplitr; · iexact HIo
    isplitl [Hcs_rsccw_s_2_5]; · iexact Hcs_rsccw_s_2_5
    isplitl [HO]; · iexact HO
    isplitr; · iapply (mayWait_rem (F := F) c 55 (by decide) _ (by show (0 : ℕ) < 2 + 55; decide)); iexact Hlev
    iexact Hat_rsccw_s_2
  iintro ⟨HO, Hat_rsccw_s_2, #Hrch_rsccw_s_2_6, Hpay⟩
  iclear HIo
  ihave Hp := (Entails.of_eq (rest_single X _ _ _ (duties_rsccw_s_2_5 X c) (payload_rsccw_s_2_5 X c false))) $$ Hpay
  irename Hp => Hback_rsccw_r_10_0
  -- send rs ccw t=13 b=0 (payment 55, device function 56)
  try sl_exec_parts
  ihave HO := (owes_congr (rem_peel_55 c)) $$ HO
  ihave #HIo := (bigSepL_elim_idx ownQs _ 6 (by decide)) $$ HInvOwn
  ihave #HIt := (bigSepL_elim_idx recvCcw _ 26 (by decide)) $$ HInbCcw
  iapply (@send_owns_at F _ X c (prv c) ⟨k0_dev56 c, k0_dev56_lt c⟩ (dev56_eq c _) (slot bM 12 0 inb_S15x128x1024_S1x64x1024_12_0_0) (slot bM 13 0 inb_S15x128x1024_S1x64x1024_13_0_0) _ (qS cc0_scratch4 2 inb_S4_S1_2) (qR cc0_scratch5 13 0 inb_S15x2_S1x1_13_0) _ _ _ _ _ _ fullShare (addV X false 0 12 c) 6 (K (dcell c (qS cc0_scratch4 2 inb_S4_S1_2))) (K (dcell (prv c) (qR cc0_scratch5 13 0 inb_S15x2_S1x1_13_0))) _ (rem c 56) _ (by rw [duties_rsccw_s_2_6 X c]; exact Finset.mem_singleton_self _) (by rw [duties_rsccw_r_13_0 X (prv c)]; exact Finset.mem_singleton_self _) (by exact amount_rsccw_s_2_6 X c false) (by exact amount_rsccw_r_13_0 X (prv c) false) (by rfl) (by exact payload_rsccw_s_2_6 X c false) (by exact hp2_rsccw_r_13_0 X c) (by rfl) (by routes)) $$ [Hs_rsccw_r_12_0 Hd_rsccw_r_13_0 HO Hts_rsccw_s_2_6 Htn_rsccw_r_13_0]
  · isplitr; · iexact HIo
    isplitr; · iexact HIt
    isplitl [Hs_rsccw_r_12_0]; · iapply (owns_intro_add X false 12 0 0 c 14 bM _ f_rsccw_r_12_0 _ _ _ rfl (off4_14_0 c) hf_rsccw_r_12_0 (addV_eq_ccw_12_0 X c)); iexact Hs_rsccw_r_12_0
    isplitl [Hd_rsccw_r_13_0]; · iexact Hd_rsccw_r_13_0
    isplitl [HO]; · iexact HO
    isplitl [Hts_rsccw_s_2_6]; · iexact Hts_rsccw_s_2_6
    isplitr; · iexact Hrch_rsccw_s_2_6
    isplitl [Htn_rsccw_r_13_0]; · iexact Htn_rsccw_r_13_0
    iexact Hrn_rsccw_r_13_0
  iintro ⟨Hcs_rsccw_s_2_6, HO⟩
  iclear HIo HIt
  -- wait recv rs cw t=12 b=1
  try sl_exec_parts
  ihave #HIo := (bigSepL_elim_idx ownQs _ 41 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 56) (W := _) (R := 0) (m := 0) (T := ∅)
      (by rw [Nat.zero_add, expect_rscw_r_12_1 X c])) $$ [Hc_rscw_r_12_1 HO Hat_rscw_r_12_1]
  · isplitr; · iexact HIo
    isplitl [Hc_rscw_r_12_1]; · iexact Hc_rscw_r_12_1
    isplitl [HO]; · iexact HO
    isplitr; · iapply (mayWait_rem (F := F) c 56 (by decide) _ (by show (54 : ℕ) < 2 + 56; decide)); iexact Hlev
    iexact Hat_rscw_r_12_1
  iintro ⟨HO, Hat_rscw_r_12_1, #Hrch_rscw_r_12_1_1, Hpay⟩
  iclear HIo
  ihave Hp := (Entails.of_eq (rest_single X _ _ _ (duties_rscw_r_12_1 X c) (payload_rscw_r_12_1 X c false))) $$ Hpay
  ihave Hq := (owns_elim _ _ _) $$ Hp
  icases Hq with ⟨%f_rscw_r_12_1, %hf_rscw_r_12_1, Hs_rscw_r_12_1⟩
  -- add cw s=12 b=1: the loads and the store run by themselves (within the next run)
  -- wait send rs cw t=11 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 56) (W := _) (R := 5) (m := 0) (T := ∅)
      (by rw [Nat.zero_add, expect_rscw_s_3_5 X c])) $$ [Hcs_rscw_s_3_5 HO Hat_rscw_s_3]
  · isplitr; · iexact HIo
    isplitl [Hcs_rscw_s_3_5]; · iexact Hcs_rscw_s_3_5
    isplitl [HO]; · iexact HO
    isplitr; · iapply (mayWait_rem (F := F) c 56 (by decide) _ (by show (0 : ℕ) < 2 + 56; decide)); iexact Hlev
    iexact Hat_rscw_s_3
  iintro ⟨HO, Hat_rscw_s_3, #Hrch_rscw_s_3_6, Hpay⟩
  iclear HIo
  ihave Hp := (Entails.of_eq (rest_single X _ _ _ (duties_rscw_s_3_5 X c) (payload_rscw_s_3_5 X c false))) $$ Hpay
  irename Hp => Hback_rscw_r_10_1
  -- send rs cw t=13 b=1 (payment 56, device function 57)
  try sl_exec_parts
  ihave HO := (owes_congr (rem_peel_56 c)) $$ HO
  ihave #HIo := (bigSepL_elim_idx ownQs _ 3 (by decide)) $$ HInvOwn
  ihave #HIt := (bigSepL_elim_idx recvCw _ 27 (by decide)) $$ HInbCw
  iapply (@send_owns_at F _ X c (nxt c) ⟨k0_dev57 c, k0_dev57_lt c⟩ (dev57_eq c _) (slot aM 12 64 inb_S15x128x1024_S1x64x1024_12_64_0) (slot aM 13 64 inb_S15x128x1024_S1x64x1024_13_64_0) _ (qS cc0_scratch2 3 inb_S4_S1_3) (qR cc0_scratch3 13 1 inb_S15x2_S1x1_13_1) _ _ _ _ _ _ fullShare (addV X true 1 12 c) 6 (K (dcell c (qS cc0_scratch2 3 inb_S4_S1_3))) (K (dcell (nxt c) (qR cc0_scratch3 13 1 inb_S15x2_S1x1_13_1))) _ (rem c 57) _ (by rw [duties_rscw_s_3_6 X c]; exact Finset.mem_singleton_self _) (by rw [duties_rscw_r_13_1 X (nxt c)]; exact Finset.mem_singleton_self _) (by exact amount_rscw_s_3_6 X c false) (by exact amount_rscw_r_13_1 X (nxt c) false) (by rfl) (by exact payload_rscw_s_3_6 X c false) (by exact hp2_rscw_r_13_1 X c) (by rfl) (by routes)) $$ [Hs_rscw_r_12_1 Hd_rscw_r_13_1 HO Hts_rscw_s_3_6 Htn_rscw_r_13_1]
  · isplitr; · iexact HIo
    isplitr; · iexact HIt
    isplitl [Hs_rscw_r_12_1]; · iapply (owns_intro_add X true 12 64 1 c 2 aM _ f_rscw_r_12_1 _ _ _ rfl (off3_m14_64 c) hf_rscw_r_12_1 (addV_eq_cw_12_1 X c)); iexact Hs_rscw_r_12_1
    isplitl [Hd_rscw_r_13_1]; · iexact Hd_rscw_r_13_1
    isplitl [HO]; · iexact HO
    isplitl [Hts_rscw_s_3_6]; · iexact Hts_rscw_s_3_6
    isplitr; · iexact Hrch_rscw_s_3_6
    isplitl [Htn_rscw_r_13_1]; · iexact Htn_rscw_r_13_1
    iexact Hrn_rscw_r_13_1
  iintro ⟨Hcs_rscw_s_3_6, HO⟩
  iclear HIo HIt
  -- wait recv rs ccw t=12 b=1
  try sl_exec_parts
  ihave #HIo := (bigSepL_elim_idx ownQs _ 101 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 57) (W := _) (R := 0) (m := 0) (T := ∅)
      (by rw [Nat.zero_add, expect_rsccw_r_12_1 X c])) $$ [Hc_rsccw_r_12_1 HO Hat_rsccw_r_12_1]
  · isplitr; · iexact HIo
    isplitl [Hc_rsccw_r_12_1]; · iexact Hc_rsccw_r_12_1
    isplitl [HO]; · iexact HO
    isplitr; · iapply (mayWait_rem (F := F) c 57 (by decide) _ (by show (55 : ℕ) < 2 + 57; decide)); iexact Hlev
    iexact Hat_rsccw_r_12_1
  iintro ⟨HO, Hat_rsccw_r_12_1, #Hrch_rsccw_r_12_1_1, Hpay⟩
  iclear HIo
  ihave Hp := (Entails.of_eq (rest_single X _ _ _ (duties_rsccw_r_12_1 X c) (payload_rsccw_r_12_1 X c false))) $$ Hpay
  ihave Hq := (owns_elim _ _ _) $$ Hp
  icases Hq with ⟨%f_rsccw_r_12_1, %hf_rsccw_r_12_1, Hs_rsccw_r_12_1⟩
  -- add ccw s=12 b=1: the loads and the store run by themselves (within the next run)
  -- wait send rs ccw t=11 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 57) (W := _) (R := 5) (m := 0) (T := ∅)
      (by rw [Nat.zero_add, expect_rsccw_s_3_5 X c])) $$ [Hcs_rsccw_s_3_5 HO Hat_rsccw_s_3]
  · isplitr; · iexact HIo
    isplitl [Hcs_rsccw_s_3_5]; · iexact Hcs_rsccw_s_3_5
    isplitl [HO]; · iexact HO
    isplitr; · iapply (mayWait_rem (F := F) c 57 (by decide) _ (by show (0 : ℕ) < 2 + 57; decide)); iexact Hlev
    iexact Hat_rsccw_s_3
  iintro ⟨HO, Hat_rsccw_s_3, #Hrch_rsccw_s_3_6, Hpay⟩
  iclear HIo
  ihave Hp := (Entails.of_eq (rest_single X _ _ _ (duties_rsccw_s_3_5 X c) (payload_rsccw_s_3_5 X c false))) $$ Hpay
  irename Hp => Hback_rsccw_r_10_1
  -- send rs ccw t=13 b=1 (payment 57, device function 58)
  try sl_exec_parts
  ihave HO := (owes_congr (rem_peel_57 c)) $$ HO
  ihave #HIo := (bigSepL_elim_idx ownQs _ 7 (by decide)) $$ HInvOwn
  ihave #HIt := (bigSepL_elim_idx recvCcw _ 27 (by decide)) $$ HInbCcw
  iapply (@send_owns_at F _ X c (prv c) ⟨k0_dev58 c, k0_dev58_lt c⟩ (dev58_eq c _) (slot bM 12 64 inb_S15x128x1024_S1x64x1024_12_64_0) (slot bM 13 64 inb_S15x128x1024_S1x64x1024_13_64_0) _ (qS cc0_scratch4 3 inb_S4_S1_3) (qR cc0_scratch5 13 1 inb_S15x2_S1x1_13_1) _ _ _ _ _ _ fullShare (addV X false 1 12 c) 6 (K (dcell c (qS cc0_scratch4 3 inb_S4_S1_3))) (K (dcell (prv c) (qR cc0_scratch5 13 1 inb_S15x2_S1x1_13_1))) _ (rem c 58) _ (by rw [duties_rsccw_s_3_6 X c]; exact Finset.mem_singleton_self _) (by rw [duties_rsccw_r_13_1 X (prv c)]; exact Finset.mem_singleton_self _) (by exact amount_rsccw_s_3_6 X c false) (by exact amount_rsccw_r_13_1 X (prv c) false) (by rfl) (by exact payload_rsccw_s_3_6 X c false) (by exact hp2_rsccw_r_13_1 X c) (by rfl) (by routes)) $$ [Hs_rsccw_r_12_1 Hd_rsccw_r_13_1 HO Hts_rsccw_s_3_6 Htn_rsccw_r_13_1]
  · isplitr; · iexact HIo
    isplitr; · iexact HIt
    isplitl [Hs_rsccw_r_12_1]; · iapply (owns_intro_add X false 12 64 1 c 14 bM _ f_rsccw_r_12_1 _ _ _ rfl (off4_14_64 c) hf_rsccw_r_12_1 (addV_eq_ccw_12_1 X c)); iexact Hs_rsccw_r_12_1
    isplitl [Hd_rsccw_r_13_1]; · iexact Hd_rsccw_r_13_1
    isplitl [HO]; · iexact HO
    isplitl [Hts_rsccw_s_3_6]; · iexact Hts_rsccw_s_3_6
    isplitr; · iexact Hrch_rsccw_s_3_6
    isplitl [Htn_rsccw_r_13_1]; · iexact Htn_rsccw_r_13_1
    iexact Hrn_rsccw_r_13_1
  iintro ⟨Hcs_rsccw_s_3_6, HO⟩
  iclear HIo HIt
  -- wait recv rs cw t=13 b=0
  try sl_exec_parts
  ihave #HIo := (bigSepL_elim_idx ownQs _ 42 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 58) (W := _) (R := 0) (m := 0) (T := ∅)
      (by rw [Nat.zero_add, expect_rscw_r_13_0 X c])) $$ [Hc_rscw_r_13_0 HO Hat_rscw_r_13_0]
  · isplitr; · iexact HIo
    isplitl [Hc_rscw_r_13_0]; · iexact Hc_rscw_r_13_0
    isplitl [HO]; · iexact HO
    isplitr; · iapply (mayWait_rem (F := F) c 58 (by decide) _ (by show (56 : ℕ) < 2 + 58; decide)); iexact Hlev
    iexact Hat_rscw_r_13_0
  iintro ⟨HO, Hat_rscw_r_13_0, #Hrch_rscw_r_13_0_1, Hpay⟩
  iclear HIo
  ihave Hp := (Entails.of_eq (rest_single X _ _ _ (duties_rscw_r_13_0 X c) (payload_rscw_r_13_0 X c false))) $$ Hpay
  ihave Hq := (owns_elim _ _ _) $$ Hp
  icases Hq with ⟨%f_rscw_r_13_0, %hf_rscw_r_13_0, Hs_rscw_r_13_0⟩
  -- add cw s=13 b=0: the loads and the store run by themselves (within the next run)
  -- wait send rs cw t=12 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 58) (W := _) (R := 6) (m := 0) (T := ∅)
      (by rw [Nat.zero_add, expect_rscw_s_0_6 X c])) $$ [Hcs_rscw_s_0_6 HO Hat_rscw_s_0]
  · isplitr; · iexact HIo
    isplitl [Hcs_rscw_s_0_6]; · iexact Hcs_rscw_s_0_6
    isplitl [HO]; · iexact HO
    isplitr; · iapply (mayWait_rem (F := F) c 58 (by decide) _ (by show (0 : ℕ) < 2 + 58; decide)); iexact Hlev
    iexact Hat_rscw_s_0
  iintro ⟨HO, Hat_rscw_s_0, #Hrch_rscw_s_0_7, Hpay⟩
  iclear HIo
  ihave Hp := (Entails.of_eq (rest_single X _ _ _ (duties_rscw_s_0_6 X c) (payload_rscw_s_0_6 X c false))) $$ Hpay
  irename Hp => Hback_rscw_r_11_0
  -- send rs cw t=14 b=0 (payment 58, device function 59)
  try sl_exec_parts
  ihave HO := (owes_congr (rem_peel_58 c)) $$ HO
  ihave #HIo := (bigSepL_elim_idx ownQs _ 0 (by decide)) $$ HInvOwn
  ihave #HIt := (bigSepL_elim_idx recvCw _ 28 (by decide)) $$ HInbCw
  iapply (@send_owns_at F _ X c (nxt c) ⟨k0_dev59 c, k0_dev59_lt c⟩ (dev59_eq c _) (slot aM 13 0 inb_S15x128x1024_S1x64x1024_13_0_0) (slot aM 14 0 inb_S15x128x1024_S1x64x1024_14_0_0) _ (qS cc0_scratch2 0 inb_S4_S1_0) (qR cc0_scratch3 14 0 inb_S15x2_S1x1_14_0) _ _ _ _ _ _ fullShare (addV X true 0 13 c) 7 (K (dcell c (qS cc0_scratch2 0 inb_S4_S1_0))) (K (dcell (nxt c) (qR cc0_scratch3 14 0 inb_S15x2_S1x1_14_0))) _ (rem c 59) _ (by rw [duties_rscw_s_0_7 X c]; exact Finset.mem_singleton_self _) (by rw [duties_rscw_r_14_0 X (nxt c)]; exact Finset.mem_singleton_self _) (by exact amount_rscw_s_0_7 X c false) (by exact amount_rscw_r_14_0 X (nxt c) false) (by rfl) (by exact payload_rscw_s_0_7 X c false) (by exact hp2_rscw_r_14_0 X c) (by rfl) (by routes)) $$ [Hs_rscw_r_13_0 Hd_rscw_r_14_0 HO Hts_rscw_s_0_7 Htn_rscw_r_14_0]
  · isplitr; · iexact HIo
    isplitr; · iexact HIt
    isplitl [Hs_rscw_r_13_0]; · iapply (owns_intro_add X true 13 0 0 c 1 aM _ f_rscw_r_13_0 _ _ _ rfl (off3_m15_0 c) hf_rscw_r_13_0 (addV_eq_cw_13_0 X c)); iexact Hs_rscw_r_13_0
    isplitl [Hd_rscw_r_14_0]; · iexact Hd_rscw_r_14_0
    isplitl [HO]; · iexact HO
    isplitl [Hts_rscw_s_0_7]; · iexact Hts_rscw_s_0_7
    isplitr; · iexact Hrch_rscw_s_0_7
    isplitl [Htn_rscw_r_14_0]; · iexact Htn_rscw_r_14_0
    iexact Hrn_rscw_r_14_0
  iintro ⟨Hcs_rscw_s_0_7, HO⟩
  iclear HIo HIt
  -- wait recv rs ccw t=13 b=0
  try sl_exec_parts
  ihave #HIo := (bigSepL_elim_idx ownQs _ 102 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 59) (W := _) (R := 0) (m := 0) (T := ∅)
      (by rw [Nat.zero_add, expect_rsccw_r_13_0 X c])) $$ [Hc_rsccw_r_13_0 HO Hat_rsccw_r_13_0]
  · isplitr; · iexact HIo
    isplitl [Hc_rsccw_r_13_0]; · iexact Hc_rsccw_r_13_0
    isplitl [HO]; · iexact HO
    isplitr; · iapply (mayWait_rem (F := F) c 59 (by decide) _ (by show (57 : ℕ) < 2 + 59; decide)); iexact Hlev
    iexact Hat_rsccw_r_13_0
  iintro ⟨HO, Hat_rsccw_r_13_0, #Hrch_rsccw_r_13_0_1, Hpay⟩
  iclear HIo
  ihave Hp := (Entails.of_eq (rest_single X _ _ _ (duties_rsccw_r_13_0 X c) (payload_rsccw_r_13_0 X c false))) $$ Hpay
  ihave Hq := (owns_elim _ _ _) $$ Hp
  icases Hq with ⟨%f_rsccw_r_13_0, %hf_rsccw_r_13_0, Hs_rsccw_r_13_0⟩
  -- add ccw s=13 b=0: the loads and the store run by themselves (within the next run)
  -- wait send rs ccw t=12 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 59) (W := _) (R := 6) (m := 0) (T := ∅)
      (by rw [Nat.zero_add, expect_rsccw_s_0_6 X c])) $$ [Hcs_rsccw_s_0_6 HO Hat_rsccw_s_0]
  · isplitr; · iexact HIo
    isplitl [Hcs_rsccw_s_0_6]; · iexact Hcs_rsccw_s_0_6
    isplitl [HO]; · iexact HO
    isplitr; · iapply (mayWait_rem (F := F) c 59 (by decide) _ (by show (0 : ℕ) < 2 + 59; decide)); iexact Hlev
    iexact Hat_rsccw_s_0
  iintro ⟨HO, Hat_rsccw_s_0, #Hrch_rsccw_s_0_7, Hpay⟩
  iclear HIo
  ihave Hp := (Entails.of_eq (rest_single X _ _ _ (duties_rsccw_s_0_6 X c) (payload_rsccw_s_0_6 X c false))) $$ Hpay
  irename Hp => Hback_rsccw_r_11_0
  -- send rs ccw t=14 b=0 (payment 59, device function 60)
  try sl_exec_parts
  ihave HO := (owes_congr (rem_peel_59 c)) $$ HO
  ihave #HIo := (bigSepL_elim_idx ownQs _ 4 (by decide)) $$ HInvOwn
  ihave #HIt := (bigSepL_elim_idx recvCcw _ 28 (by decide)) $$ HInbCcw
  iapply (@send_owns_at F _ X c (prv c) ⟨k0_dev60 c, k0_dev60_lt c⟩ (dev60_eq c _) (slot bM 13 0 inb_S15x128x1024_S1x64x1024_13_0_0) (slot bM 14 0 inb_S15x128x1024_S1x64x1024_14_0_0) _ (qS cc0_scratch4 0 inb_S4_S1_0) (qR cc0_scratch5 14 0 inb_S15x2_S1x1_14_0) _ _ _ _ _ _ fullShare (addV X false 0 13 c) 7 (K (dcell c (qS cc0_scratch4 0 inb_S4_S1_0))) (K (dcell (prv c) (qR cc0_scratch5 14 0 inb_S15x2_S1x1_14_0))) _ (rem c 60) _ (by rw [duties_rsccw_s_0_7 X c]; exact Finset.mem_singleton_self _) (by rw [duties_rsccw_r_14_0 X (prv c)]; exact Finset.mem_singleton_self _) (by exact amount_rsccw_s_0_7 X c false) (by exact amount_rsccw_r_14_0 X (prv c) false) (by rfl) (by exact payload_rsccw_s_0_7 X c false) (by exact hp2_rsccw_r_14_0 X c) (by rfl) (by routes)) $$ [Hs_rsccw_r_13_0 Hd_rsccw_r_14_0 HO Hts_rsccw_s_0_7 Htn_rsccw_r_14_0]
  · isplitr; · iexact HIo
    isplitr; · iexact HIt
    isplitl [Hs_rsccw_r_13_0]; · iapply (owns_intro_add X false 13 0 0 c 15 bM _ f_rsccw_r_13_0 _ _ _ rfl (off4_15_0 c) hf_rsccw_r_13_0 (addV_eq_ccw_13_0 X c)); iexact Hs_rsccw_r_13_0
    isplitl [Hd_rsccw_r_14_0]; · iexact Hd_rsccw_r_14_0
    isplitl [HO]; · iexact HO
    isplitl [Hts_rsccw_s_0_7]; · iexact Hts_rsccw_s_0_7
    isplitr; · iexact Hrch_rsccw_s_0_7
    isplitl [Htn_rsccw_r_14_0]; · iexact Htn_rsccw_r_14_0
    iexact Hrn_rsccw_r_14_0
  iintro ⟨Hcs_rsccw_s_0_7, HO⟩
  iclear HIo HIt
  -- wait recv rs cw t=13 b=1
  try sl_exec_parts
  ihave #HIo := (bigSepL_elim_idx ownQs _ 43 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 60) (W := _) (R := 0) (m := 0) (T := ∅)
      (by rw [Nat.zero_add, expect_rscw_r_13_1 X c])) $$ [Hc_rscw_r_13_1 HO Hat_rscw_r_13_1]
  · isplitr; · iexact HIo
    isplitl [Hc_rscw_r_13_1]; · iexact Hc_rscw_r_13_1
    isplitl [HO]; · iexact HO
    isplitr; · iapply (mayWait_rem (F := F) c 60 (by decide) _ (by show (58 : ℕ) < 2 + 60; decide)); iexact Hlev
    iexact Hat_rscw_r_13_1
  iintro ⟨HO, Hat_rscw_r_13_1, #Hrch_rscw_r_13_1_1, Hpay⟩
  iclear HIo
  ihave Hp := (Entails.of_eq (rest_single X _ _ _ (duties_rscw_r_13_1 X c) (payload_rscw_r_13_1 X c false))) $$ Hpay
  ihave Hq := (owns_elim _ _ _) $$ Hp
  icases Hq with ⟨%f_rscw_r_13_1, %hf_rscw_r_13_1, Hs_rscw_r_13_1⟩
  -- add cw s=13 b=1: the loads and the store run by themselves (within the next run)
  -- wait send rs cw t=12 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 60) (W := _) (R := 6) (m := 0) (T := ∅)
      (by rw [Nat.zero_add, expect_rscw_s_1_6 X c])) $$ [Hcs_rscw_s_1_6 HO Hat_rscw_s_1]
  · isplitr; · iexact HIo
    isplitl [Hcs_rscw_s_1_6]; · iexact Hcs_rscw_s_1_6
    isplitl [HO]; · iexact HO
    isplitr; · iapply (mayWait_rem (F := F) c 60 (by decide) _ (by show (0 : ℕ) < 2 + 60; decide)); iexact Hlev
    iexact Hat_rscw_s_1
  iintro ⟨HO, Hat_rscw_s_1, #Hrch_rscw_s_1_7, Hpay⟩
  iclear HIo
  ihave Hp := (Entails.of_eq (rest_single X _ _ _ (duties_rscw_s_1_6 X c) (payload_rscw_s_1_6 X c false))) $$ Hpay
  irename Hp => Hback_rscw_r_11_1
  -- send rs cw t=14 b=1 (payment 60, device function 61)
  try sl_exec_parts
  ihave HO := (owes_congr (rem_peel_60 c)) $$ HO
  ihave #HIo := (bigSepL_elim_idx ownQs _ 1 (by decide)) $$ HInvOwn
  ihave #HIt := (bigSepL_elim_idx recvCw _ 29 (by decide)) $$ HInbCw
  iapply (@send_owns_at F _ X c (nxt c) ⟨k0_dev61 c, k0_dev61_lt c⟩ (dev61_eq c _) (slot aM 13 64 inb_S15x128x1024_S1x64x1024_13_64_0) (slot aM 14 64 inb_S15x128x1024_S1x64x1024_14_64_0) _ (qS cc0_scratch2 1 inb_S4_S1_1) (qR cc0_scratch3 14 1 inb_S15x2_S1x1_14_1) _ _ _ _ _ _ fullShare (addV X true 1 13 c) 7 (K (dcell c (qS cc0_scratch2 1 inb_S4_S1_1))) (K (dcell (nxt c) (qR cc0_scratch3 14 1 inb_S15x2_S1x1_14_1))) _ (rem c 61) _ (by rw [duties_rscw_s_1_7 X c]; exact Finset.mem_singleton_self _) (by rw [duties_rscw_r_14_1 X (nxt c)]; exact Finset.mem_singleton_self _) (by exact amount_rscw_s_1_7 X c false) (by exact amount_rscw_r_14_1 X (nxt c) false) (by rfl) (by exact payload_rscw_s_1_7 X c false) (by exact hp2_rscw_r_14_1 X c) (by rfl) (by routes)) $$ [Hs_rscw_r_13_1 Hd_rscw_r_14_1 HO Hts_rscw_s_1_7 Htn_rscw_r_14_1]
  · isplitr; · iexact HIo
    isplitr; · iexact HIt
    isplitl [Hs_rscw_r_13_1]; · iapply (owns_intro_add X true 13 64 1 c 1 aM _ f_rscw_r_13_1 _ _ _ rfl (off3_m15_64 c) hf_rscw_r_13_1 (addV_eq_cw_13_1 X c)); iexact Hs_rscw_r_13_1
    isplitl [Hd_rscw_r_14_1]; · iexact Hd_rscw_r_14_1
    isplitl [HO]; · iexact HO
    isplitl [Hts_rscw_s_1_7]; · iexact Hts_rscw_s_1_7
    isplitr; · iexact Hrch_rscw_s_1_7
    isplitl [Htn_rscw_r_14_1]; · iexact Htn_rscw_r_14_1
    iexact Hrn_rscw_r_14_1
  iintro ⟨Hcs_rscw_s_1_7, HO⟩
  iclear HIo HIt
  -- wait recv rs ccw t=13 b=1
  try sl_exec_parts
  ihave #HIo := (bigSepL_elim_idx ownQs _ 103 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 61) (W := _) (R := 0) (m := 0) (T := ∅)
      (by rw [Nat.zero_add, expect_rsccw_r_13_1 X c])) $$ [Hc_rsccw_r_13_1 HO Hat_rsccw_r_13_1]
  · isplitr; · iexact HIo
    isplitl [Hc_rsccw_r_13_1]; · iexact Hc_rsccw_r_13_1
    isplitl [HO]; · iexact HO
    isplitr; · iapply (mayWait_rem (F := F) c 61 (by decide) _ (by show (59 : ℕ) < 2 + 61; decide)); iexact Hlev
    iexact Hat_rsccw_r_13_1
  iintro ⟨HO, Hat_rsccw_r_13_1, #Hrch_rsccw_r_13_1_1, Hpay⟩
  iclear HIo
  ihave Hp := (Entails.of_eq (rest_single X _ _ _ (duties_rsccw_r_13_1 X c) (payload_rsccw_r_13_1 X c false))) $$ Hpay
  ihave Hq := (owns_elim _ _ _) $$ Hp
  icases Hq with ⟨%f_rsccw_r_13_1, %hf_rsccw_r_13_1, Hs_rsccw_r_13_1⟩
  -- add ccw s=13 b=1: the loads and the store run by themselves (within the next run)
  -- wait send rs ccw t=12 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 61) (W := _) (R := 6) (m := 0) (T := ∅)
      (by rw [Nat.zero_add, expect_rsccw_s_1_6 X c])) $$ [Hcs_rsccw_s_1_6 HO Hat_rsccw_s_1]
  · isplitr; · iexact HIo
    isplitl [Hcs_rsccw_s_1_6]; · iexact Hcs_rsccw_s_1_6
    isplitl [HO]; · iexact HO
    isplitr; · iapply (mayWait_rem (F := F) c 61 (by decide) _ (by show (0 : ℕ) < 2 + 61; decide)); iexact Hlev
    iexact Hat_rsccw_s_1
  iintro ⟨HO, Hat_rsccw_s_1, #Hrch_rsccw_s_1_7, Hpay⟩
  iclear HIo
  ihave Hp := (Entails.of_eq (rest_single X _ _ _ (duties_rsccw_s_1_6 X c) (payload_rsccw_s_1_6 X c false))) $$ Hpay
  irename Hp => Hback_rsccw_r_11_1
  -- send rs ccw t=14 b=1 (payment 61, device function 62)
  try sl_exec_parts
  ihave HO := (owes_congr (rem_peel_61 c)) $$ HO
  ihave #HIo := (bigSepL_elim_idx ownQs _ 5 (by decide)) $$ HInvOwn
  ihave #HIt := (bigSepL_elim_idx recvCcw _ 29 (by decide)) $$ HInbCcw
  iapply (@send_owns_at F _ X c (prv c) ⟨k0_dev62 c, k0_dev62_lt c⟩ (dev62_eq c _) (slot bM 13 64 inb_S15x128x1024_S1x64x1024_13_64_0) (slot bM 14 64 inb_S15x128x1024_S1x64x1024_14_64_0) _ (qS cc0_scratch4 1 inb_S4_S1_1) (qR cc0_scratch5 14 1 inb_S15x2_S1x1_14_1) _ _ _ _ _ _ fullShare (addV X false 1 13 c) 7 (K (dcell c (qS cc0_scratch4 1 inb_S4_S1_1))) (K (dcell (prv c) (qR cc0_scratch5 14 1 inb_S15x2_S1x1_14_1))) _ (rem c 62) _ (by rw [duties_rsccw_s_1_7 X c]; exact Finset.mem_singleton_self _) (by rw [duties_rsccw_r_14_1 X (prv c)]; exact Finset.mem_singleton_self _) (by exact amount_rsccw_s_1_7 X c false) (by exact amount_rsccw_r_14_1 X (prv c) false) (by rfl) (by exact payload_rsccw_s_1_7 X c false) (by exact hp2_rsccw_r_14_1 X c) (by rfl) (by routes)) $$ [Hs_rsccw_r_13_1 Hd_rsccw_r_14_1 HO Hts_rsccw_s_1_7 Htn_rsccw_r_14_1]
  · isplitr; · iexact HIo
    isplitr; · iexact HIt
    isplitl [Hs_rsccw_r_13_1]; · iapply (owns_intro_add X false 13 64 1 c 15 bM _ f_rsccw_r_13_1 _ _ _ rfl (off4_15_64 c) hf_rsccw_r_13_1 (addV_eq_ccw_13_1 X c)); iexact Hs_rsccw_r_13_1
    isplitl [Hd_rsccw_r_14_1]; · iexact Hd_rsccw_r_14_1
    isplitl [HO]; · iexact HO
    isplitl [Hts_rsccw_s_1_7]; · iexact Hts_rsccw_s_1_7
    isplitr; · iexact Hrch_rsccw_s_1_7
    isplitl [Htn_rsccw_r_14_1]; · iexact Htn_rsccw_r_14_1
    iexact Hrn_rsccw_r_14_1
  iintro ⟨Hcs_rsccw_s_1_7, HO⟩
  iclear HIo HIt
  -- wait recv rs cw t=14 b=0
  try sl_exec_parts
  ihave #HIo := (bigSepL_elim_idx ownQs _ 44 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 62) (W := _) (R := 0) (m := 0) (T := ∅)
      (by rw [Nat.zero_add, expect_rscw_r_14_0 X c])) $$ [Hc_rscw_r_14_0 HO Hat_rscw_r_14_0]
  · isplitr; · iexact HIo
    isplitl [Hc_rscw_r_14_0]; · iexact Hc_rscw_r_14_0
    isplitl [HO]; · iexact HO
    isplitr; · iapply (mayWait_rem (F := F) c 62 (by decide) _ (by show (60 : ℕ) < 2 + 62; decide)); iexact Hlev
    iexact Hat_rscw_r_14_0
  iintro ⟨HO, Hat_rscw_r_14_0, #Hrch_rscw_r_14_0_1, Hpay⟩
  iclear HIo
  ihave Hp := (Entails.of_eq (rest_single X _ _ _ (duties_rscw_r_14_0 X c) (payload_rscw_r_14_0 X c false))) $$ Hpay
  ihave Hq := (owns_elim _ _ _) $$ Hp
  icases Hq with ⟨%f_rscw_r_14_0, %hf_rscw_r_14_0, Hs_rscw_r_14_0⟩
  -- add cw s=14 b=0: the loads and the store run by themselves (within the next run)
  try sl_exec_parts
  ihave Hq := (owns_intro_add X true 14 0 0 c 0 aM _ f_rscw_r_14_0 _ _ _ rfl (off3_m16_0 c) hf_rscw_r_14_0 (addV_eq_cw_14_0 X c)) $$ [Hs_rscw_r_14_0]
  · iexact Hs_rscw_r_14_0
  ihave Hq2 := (owns_share_split _ _ _) $$ Hq
  icases Hq2 with ⟨HsL_rscw_r_14_0, HsR_rscw_r_14_0⟩
  -- send ag cw t=0 b=0 (payment 62, device function 63)
  try sl_exec_parts
  ihave HO := (owes_congr (rem_peel_62 c)) $$ HO
  ihave #HIo := (bigSepL_elim_idx ownQs _ 8 (by decide)) $$ HInvOwn
  ihave #HIt := (bigSepL_elim_idx recvCw _ 30 (by decide)) $$ HInbCw
  iapply (@send_owns_at F _ X c (nxt c) ⟨k0_dev63 c, k0_dev63_lt c⟩ (dev63_eq c _) (slot aM 14 0 inb_S15x128x1024_S1x64x1024_14_0_0) (rows oM (off true (c.val + 0) 0) (off_inb true _ 0)) _ (qS cc0_scratch6 0 inb_S4_S1_0) (qR cc0_scratch7 0 0 inb_S15x2_S1x1_0_0) _ _ _ _ _ _ fullShare.right (addV X true 0 14 c) 0 (K (dcell c (qS cc0_scratch6 0 inb_S4_S1_0))) (K (dcell (nxt c) (qR cc0_scratch7 0 0 inb_S15x2_S1x1_0_0))) _ (rem c 63) _ (by rw [duties_agcw_s_0_0 X c]; exact Finset.mem_singleton_self _) (by rw [duties_agcw_r_0_0 X (nxt c)]; exact Finset.mem_singleton_self _) (by exact amount_agcw_s_0_0 X c false) (by exact amount_agcw_r_0_0 X (nxt c) false) (by rfl) (by exact payload_agcw_s_0_0 X c false) (by exact hp2_agcw_r_0_0 X c) (by rfl) (by routes)) $$ [HsR_rscw_r_14_0 Hd_agcw_r_0_0 HO Hts_agcw_s_0_0 Htn_agcw_r_0_0]
  · isplitr; · iexact HIo
    isplitr; · iexact HIt
    isplitl [HsR_rscw_r_14_0]; · iexact HsR_rscw_r_14_0
    isplitl [Hd_agcw_r_0_0]; · iexact Hd_agcw_r_0_0
    isplitl [HO]; · iexact HO
    isplitl [Hts_agcw_s_0_0]; · iexact Hts_agcw_s_0_0
    isplitr; · iexact Hrs_agcw_s_0_0
    isplitl [Htn_agcw_r_0_0]; · iexact Htn_agcw_r_0_0
    iexact Hrn_agcw_r_0_0
  iintro ⟨Hcs_agcw_s_0_0, HO⟩
  iclear HIo HIt
  -- wait recv rs ccw t=14 b=0
  try sl_exec_parts
  ihave #HIo := (bigSepL_elim_idx ownQs _ 104 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 63) (W := _) (R := 0) (m := 0) (T := ∅)
      (by rw [Nat.zero_add, expect_rsccw_r_14_0 X c])) $$ [Hc_rsccw_r_14_0 HO Hat_rsccw_r_14_0]
  · isplitr; · iexact HIo
    isplitl [Hc_rsccw_r_14_0]; · iexact Hc_rsccw_r_14_0
    isplitl [HO]; · iexact HO
    isplitr; · iapply (mayWait_rem (F := F) c 63 (by decide) _ (by show (61 : ℕ) < 2 + 63; decide)); iexact Hlev
    iexact Hat_rsccw_r_14_0
  iintro ⟨HO, Hat_rsccw_r_14_0, #Hrch_rsccw_r_14_0_1, Hpay⟩
  iclear HIo
  ihave Hp := (Entails.of_eq (rest_single X _ _ _ (duties_rsccw_r_14_0 X c) (payload_rsccw_r_14_0 X c false))) $$ Hpay
  ihave Hq := (owns_elim _ _ _) $$ Hp
  icases Hq with ⟨%f_rsccw_r_14_0, %hf_rsccw_r_14_0, Hs_rsccw_r_14_0⟩
  -- add ccw s=14 b=0: the loads and the store run by themselves (within the next run)
  try sl_exec_parts
  ihave Hq := (owns_intro_add X false 14 0 0 c 0 bM _ f_rsccw_r_14_0 _ _ _ rfl (off4_16_0 c) hf_rsccw_r_14_0 (addV_eq_ccw_14_0 X c)) $$ [Hs_rsccw_r_14_0]
  · iexact Hs_rsccw_r_14_0
  ihave Hq2 := (owns_share_split _ _ _) $$ Hq
  icases Hq2 with ⟨HsL_rsccw_r_14_0, HsR_rsccw_r_14_0⟩
  -- send ag ccw t=0 b=0 (payment 63, device function 64)
  try sl_exec_parts
  ihave HO := (owes_congr (rem_peel_63 c)) $$ HO
  ihave #HIo := (bigSepL_elim_idx ownQs _ 12 (by decide)) $$ HInvOwn
  ihave #HIt := (bigSepL_elim_idx recvCcw _ 30 (by decide)) $$ HInbCcw
  iapply (@send_owns_at F _ X c (prv c) ⟨k0_dev64 c, k0_dev64_lt c⟩ (dev64_eq c _) (slot bM 14 0 inb_S15x128x1024_S1x64x1024_14_0_0) (rows oM (off false (c.val + 0) 0) (off_inb false _ 0)) _ (qS cc0_scratch8 0 inb_S4_S1_0) (qR cc0_scratch9 0 0 inb_S15x2_S1x1_0_0) _ _ _ _ _ _ fullShare.right (addV X false 0 14 c) 0 (K (dcell c (qS cc0_scratch8 0 inb_S4_S1_0))) (K (dcell (prv c) (qR cc0_scratch9 0 0 inb_S15x2_S1x1_0_0))) _ (rem c 64) _ (by rw [duties_agccw_s_0_0 X c]; exact Finset.mem_singleton_self _) (by rw [duties_agccw_r_0_0 X (prv c)]; exact Finset.mem_singleton_self _) (by exact amount_agccw_s_0_0 X c false) (by exact amount_agccw_r_0_0 X (prv c) false) (by rfl) (by exact payload_agccw_s_0_0 X c false) (by exact hp2_agccw_r_0_0 X c) (by rfl) (by routes)) $$ [HsR_rsccw_r_14_0 Hd_agccw_r_0_0 HO Hts_agccw_s_0_0 Htn_agccw_r_0_0]
  · isplitr; · iexact HIo
    isplitr; · iexact HIt
    isplitl [HsR_rsccw_r_14_0]; · iexact HsR_rsccw_r_14_0
    isplitl [Hd_agccw_r_0_0]; · iexact Hd_agccw_r_0_0
    isplitl [HO]; · iexact HO
    isplitl [Hts_agccw_s_0_0]; · iexact Hts_agccw_s_0_0
    isplitr; · iexact Hrs_agccw_s_0_0
    isplitl [Htn_agccw_r_0_0]; · iexact Htn_agccw_r_0_0
    iexact Hrn_agccw_r_0_0
  iintro ⟨Hcs_agccw_s_0_0, HO⟩
  iclear HIo HIt
  -- wait recv rs cw t=14 b=1
  try sl_exec_parts
  ihave #HIo := (bigSepL_elim_idx ownQs _ 45 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 64) (W := _) (R := 0) (m := 0) (T := ∅)
      (by rw [Nat.zero_add, expect_rscw_r_14_1 X c])) $$ [Hc_rscw_r_14_1 HO Hat_rscw_r_14_1]
  · isplitr; · iexact HIo
    isplitl [Hc_rscw_r_14_1]; · iexact Hc_rscw_r_14_1
    isplitl [HO]; · iexact HO
    isplitr; · iapply (mayWait_rem (F := F) c 64 (by decide) _ (by show (62 : ℕ) < 2 + 64; decide)); iexact Hlev
    iexact Hat_rscw_r_14_1
  iintro ⟨HO, Hat_rscw_r_14_1, #Hrch_rscw_r_14_1_1, Hpay⟩
  iclear HIo
  ihave Hp := (Entails.of_eq (rest_single X _ _ _ (duties_rscw_r_14_1 X c) (payload_rscw_r_14_1 X c false))) $$ Hpay
  ihave Hq := (owns_elim _ _ _) $$ Hp
  icases Hq with ⟨%f_rscw_r_14_1, %hf_rscw_r_14_1, Hs_rscw_r_14_1⟩
  -- add cw s=14 b=1: the loads and the store run by themselves (within the next run)
  try sl_exec_parts
  ihave Hq := (owns_intro_add X true 14 64 1 c 0 aM _ f_rscw_r_14_1 _ _ _ rfl (off3_m16_64 c) hf_rscw_r_14_1 (addV_eq_cw_14_1 X c)) $$ [Hs_rscw_r_14_1]
  · iexact Hs_rscw_r_14_1
  ihave Hq2 := (owns_share_split _ _ _) $$ Hq
  icases Hq2 with ⟨HsL_rscw_r_14_1, HsR_rscw_r_14_1⟩
  -- send ag cw t=0 b=1 (payment 64, device function 65)
  try sl_exec_parts
  ihave HO := (owes_congr (rem_peel_64 c)) $$ HO
  ihave #HIo := (bigSepL_elim_idx ownQs _ 9 (by decide)) $$ HInvOwn
  ihave #HIt := (bigSepL_elim_idx recvCw _ 31 (by decide)) $$ HInbCw
  iapply (@send_owns_at F _ X c (nxt c) ⟨k0_dev65 c, k0_dev65_lt c⟩ (dev65_eq c _) (slot aM 14 64 inb_S15x128x1024_S1x64x1024_14_64_0) (rows oM (off true (c.val + 0) 1) (off_inb true _ 1)) _ (qS cc0_scratch6 1 inb_S4_S1_1) (qR cc0_scratch7 0 1 inb_S15x2_S1x1_0_1) _ _ _ _ _ _ fullShare.right (addV X true 1 14 c) 0 (K (dcell c (qS cc0_scratch6 1 inb_S4_S1_1))) (K (dcell (nxt c) (qR cc0_scratch7 0 1 inb_S15x2_S1x1_0_1))) _ (rem c 65) _ (by rw [duties_agcw_s_1_0 X c]; exact Finset.mem_singleton_self _) (by rw [duties_agcw_r_0_1 X (nxt c)]; exact Finset.mem_singleton_self _) (by exact amount_agcw_s_1_0 X c false) (by exact amount_agcw_r_0_1 X (nxt c) false) (by rfl) (by exact payload_agcw_s_1_0 X c false) (by exact hp2_agcw_r_0_1 X c) (by rfl) (by routes)) $$ [HsR_rscw_r_14_1 Hd_agcw_r_0_1 HO Hts_agcw_s_1_0 Htn_agcw_r_0_1]
  · isplitr; · iexact HIo
    isplitr; · iexact HIt
    isplitl [HsR_rscw_r_14_1]; · iexact HsR_rscw_r_14_1
    isplitl [Hd_agcw_r_0_1]; · iexact Hd_agcw_r_0_1
    isplitl [HO]; · iexact HO
    isplitl [Hts_agcw_s_1_0]; · iexact Hts_agcw_s_1_0
    isplitr; · iexact Hrs_agcw_s_1_0
    isplitl [Htn_agcw_r_0_1]; · iexact Htn_agcw_r_0_1
    iexact Hrn_agcw_r_0_1
  iintro ⟨Hcs_agcw_s_1_0, HO⟩
  iclear HIo HIt
  -- wait recv rs ccw t=14 b=1
  try sl_exec_parts
  ihave #HIo := (bigSepL_elim_idx ownQs _ 105 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 65) (W := _) (R := 0) (m := 0) (T := ∅)
      (by rw [Nat.zero_add, expect_rsccw_r_14_1 X c])) $$ [Hc_rsccw_r_14_1 HO Hat_rsccw_r_14_1]
  · isplitr; · iexact HIo
    isplitl [Hc_rsccw_r_14_1]; · iexact Hc_rsccw_r_14_1
    isplitl [HO]; · iexact HO
    isplitr; · iapply (mayWait_rem (F := F) c 65 (by decide) _ (by show (63 : ℕ) < 2 + 65; decide)); iexact Hlev
    iexact Hat_rsccw_r_14_1
  iintro ⟨HO, Hat_rsccw_r_14_1, #Hrch_rsccw_r_14_1_1, Hpay⟩
  iclear HIo
  ihave Hp := (Entails.of_eq (rest_single X _ _ _ (duties_rsccw_r_14_1 X c) (payload_rsccw_r_14_1 X c false))) $$ Hpay
  ihave Hq := (owns_elim _ _ _) $$ Hp
  icases Hq with ⟨%f_rsccw_r_14_1, %hf_rsccw_r_14_1, Hs_rsccw_r_14_1⟩
  -- add ccw s=14 b=1: the loads and the store run by themselves (within the next run)
  try sl_exec_parts
  ihave Hq := (owns_intro_add X false 14 64 1 c 0 bM _ f_rsccw_r_14_1 _ _ _ rfl (off4_16_64 c) hf_rsccw_r_14_1 (addV_eq_ccw_14_1 X c)) $$ [Hs_rsccw_r_14_1]
  · iexact Hs_rsccw_r_14_1
  ihave Hq2 := (owns_share_split _ _ _) $$ Hq
  icases Hq2 with ⟨HsL_rsccw_r_14_1, HsR_rsccw_r_14_1⟩
  -- send ag ccw t=0 b=1 (payment 65, device function 66)
  try sl_exec_parts
  ihave HO := (owes_congr (rem_peel_65 c)) $$ HO
  ihave #HIo := (bigSepL_elim_idx ownQs _ 13 (by decide)) $$ HInvOwn
  ihave #HIt := (bigSepL_elim_idx recvCcw _ 31 (by decide)) $$ HInbCcw
  iapply (@send_owns_at F _ X c (prv c) ⟨k0_dev66 c, k0_dev66_lt c⟩ (dev66_eq c _) (slot bM 14 64 inb_S15x128x1024_S1x64x1024_14_64_0) (rows oM (off false (c.val + 0) 1) (off_inb false _ 1)) _ (qS cc0_scratch8 1 inb_S4_S1_1) (qR cc0_scratch9 0 1 inb_S15x2_S1x1_0_1) _ _ _ _ _ _ fullShare.right (addV X false 1 14 c) 0 (K (dcell c (qS cc0_scratch8 1 inb_S4_S1_1))) (K (dcell (prv c) (qR cc0_scratch9 0 1 inb_S15x2_S1x1_0_1))) _ (rem c 66) _ (by rw [duties_agccw_s_1_0 X c]; exact Finset.mem_singleton_self _) (by rw [duties_agccw_r_0_1 X (prv c)]; exact Finset.mem_singleton_self _) (by exact amount_agccw_s_1_0 X c false) (by exact amount_agccw_r_0_1 X (prv c) false) (by rfl) (by exact payload_agccw_s_1_0 X c false) (by exact hp2_agccw_r_0_1 X c) (by rfl) (by routes)) $$ [HsR_rsccw_r_14_1 Hd_agccw_r_0_1 HO Hts_agccw_s_1_0 Htn_agccw_r_0_1]
  · isplitr; · iexact HIo
    isplitr; · iexact HIt
    isplitl [HsR_rsccw_r_14_1]; · iexact HsR_rsccw_r_14_1
    isplitl [Hd_agccw_r_0_1]; · iexact Hd_agccw_r_0_1
    isplitl [HO]; · iexact HO
    isplitl [Hts_agccw_s_1_0]; · iexact Hts_agccw_s_1_0
    isplitr; · iexact Hrs_agccw_s_1_0
    isplitl [Htn_agccw_r_0_1]; · iexact Htn_agccw_r_0_1
    iexact Hrn_agccw_r_0_1
  iintro ⟨Hcs_agccw_s_1_0, HO⟩
  iclear HIo HIt
  -- the own chunk's cw half: slot 14's two left halves joined for the 128-row load
  ihave Hj := (join128 aM c fullShare.left _ _ inb_S15x128x1024_S1x64x1024_14_0_0 inb_S15x128x1024_S1x64x1024_14_64_0 inb_S15x128x1024_S1x128x1024_14_0_0) $$ [HsL_rscw_r_14_0 HsL_rscw_r_14_1]
  · isplitl [HsL_rscw_r_14_0]; · iexact HsL_rscw_r_14_0
    iexact HsL_rscw_r_14_1
  icases Hj with ⟨%f128_cw, %hf128_cw, H128_cw⟩
  icases Hown_cw with ⟨%fo_cw, Hown_cw⟩
  -- the own chunk's ccw half: slot 14's two left halves joined for the 128-row load
  ihave Hj := (join128 bM c fullShare.left _ _ inb_S15x128x1024_S1x64x1024_14_0_0 inb_S15x128x1024_S1x64x1024_14_64_0 inb_S15x128x1024_S1x128x1024_14_0_0) $$ [HsL_rsccw_r_14_0 HsL_rsccw_r_14_1]
  · isplitl [HsL_rsccw_r_14_0]; · iexact HsL_rsccw_r_14_0
    iexact HsL_rsccw_r_14_1
  icases Hj with ⟨%f128_ccw, %hf128_ccw, H128_ccw⟩
  icases Hown_ccw with ⟨%fo_ccw, Hown_ccw⟩
  unfold own128 slot128
  try sl_exec_parts
  ihave Hw := (own_store_intro_cw aM c f128_cw fo_cw inb_S15x128x1024_S1x128x1024_14_0_0 _ rfl _ _ inb_S15x128x1024_S1x64x1024_14_0_0 inb_S15x128x1024_S1x64x1024_14_64_0 hf128_cw.1 hf128_cw.2) $$ [Hown_cw]
  · unfold own128; dsimp only; iexact Hown_cw
  icases Hw with ⟨Hg_own_cw0, Hg_own_cw1⟩
  ihave Hs2 := (split128 aM c fullShare.left _ _ inb_S15x128x1024_S1x64x1024_14_0_0 inb_S15x128x1024_S1x64x1024_14_64_0 inb_S15x128x1024_S1x128x1024_14_0_0) $$ [H128_cw]
  · iexists f128_cw; isplitr; · (ipureintro; exact hf128_cw)
    iexact H128_cw
  icases Hs2 with ⟨HsL_rscw_r_14_0, HsL_rscw_r_14_1⟩
  ihave Hw := (own_store_intro_ccw bM c f128_ccw fo_ccw inb_S15x128x1024_S1x128x1024_14_0_0 _ rfl _ _ inb_S15x128x1024_S1x64x1024_14_0_0 inb_S15x128x1024_S1x64x1024_14_64_0 hf128_ccw.1 hf128_ccw.2) $$ [Hown_ccw]
  · unfold own128; dsimp only; iexact Hown_ccw
  icases Hw with ⟨Hg_own_ccw0, Hg_own_ccw1⟩
  ihave Hs2 := (split128 bM c fullShare.left _ _ inb_S15x128x1024_S1x64x1024_14_0_0 inb_S15x128x1024_S1x64x1024_14_64_0 inb_S15x128x1024_S1x128x1024_14_0_0) $$ [H128_ccw]
  · iexists f128_ccw; isplitr; · (ipureintro; exact hf128_ccw)
    iexact H128_ccw
  icases Hs2 with ⟨HsL_rsccw_r_14_0, HsL_rsccw_r_14_1⟩
  -- wait recv ag cw t=0 b=0
  try sl_exec_parts
  ihave #HIo := (bigSepL_elim_idx ownQs _ 46 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 66) (W := _) (R := 0) (m := 0) (T := ∅)
      (by rw [Nat.zero_add, expect_agcw_r_0_0 X c])) $$ [Hc_agcw_r_0_0 HO Hat_agcw_r_0_0]
  · isplitr; · iexact HIo
    isplitl [Hc_agcw_r_0_0]; · iexact Hc_agcw_r_0_0
    isplitl [HO]; · iexact HO
    isplitr; · iapply (mayWait_rem (F := F) c 66 (by decide) _ (by show (64 : ℕ) < 2 + 66; decide)); iexact Hlev
    iexact Hat_agcw_r_0_0
  iintro ⟨HO, Hat_agcw_r_0_0, #Hrch_agcw_r_0_0_1, Hpay⟩
  iclear HIo
  ihave Hp := (Entails.of_eq (rest_single X _ _ _ (duties_agcw_r_0_0 X c) (payload_agcw_r_0_0 X c false))) $$ Hpay
  irename Hp => Hg_agcw_r_0_0
  -- send ag cw t=1 b=0 (payment 66, device function 67)
  try sl_exec_parts
  ihave HO := (owes_congr (rem_peel_66 c)) $$ HO
  ihave #HIo := (bigSepL_elim_idx ownQs _ 10 (by decide)) $$ HInvOwn
  ihave #HIt := (bigSepL_elim_idx recvCw _ 32 (by decide)) $$ HInbCw
  iapply (@send_owns_at F _ X c (nxt c) ⟨k0_dev67 c, k0_dev67_lt c⟩ (dev67_eq c _) (rows oM (off true (c.val + 15) 0) (off_inb true _ 0)) (rows oM (off true (c.val + 15) 0) (off_inb true _ 0)) _ (qS cc0_scratch6 2 inb_S4_S1_2) (qR cc0_scratch7 1 0 inb_S15x2_S1x1_1_0) _ _ _ _ _ _ fullShare (doneV X true 0 (devAt c 15)) 0 (K (dcell c (qS cc0_scratch6 2 inb_S4_S1_2))) (K (dcell (nxt c) (qR cc0_scratch7 1 0 inb_S15x2_S1x1_1_0))) _ (rem c 67) _ (by rw [duties_agcw_s_2_0 X c]; exact Finset.mem_singleton_self _) (by rw [duties_agcw_r_1_0 X (nxt c)]; exact Finset.mem_singleton_self _) (by exact amount_agcw_s_2_0 X c false) (by exact amount_agcw_r_1_0 X (nxt c) false) (by rfl) (by exact payload_agcw_s_2_0 X c false) (by exact hp2_agcw_r_1_0 X c) (by rfl) (by routes)) $$ [Hg_agcw_r_0_0 Hd_agcw_r_1_0 HO Hts_agcw_s_2_0 Htn_agcw_r_1_0]
  · isplitr; · iexact HIo
    isplitr; · iexact HIt
    isplitl [Hg_agcw_r_0_0]; · iexact Hg_agcw_r_0_0
    isplitl [Hd_agcw_r_1_0]; · iexact Hd_agcw_r_1_0
    isplitl [HO]; · iexact HO
    isplitl [Hts_agcw_s_2_0]; · iexact Hts_agcw_s_2_0
    isplitr; · iexact Hrs_agcw_s_2_0
    isplitl [Htn_agcw_r_1_0]; · iexact Htn_agcw_r_1_0
    iexact Hrn_agcw_r_1_0
  iintro ⟨Hcs_agcw_s_2_0, HO⟩
  iclear HIo HIt
  -- wait recv ag ccw t=0 b=0
  try sl_exec_parts
  ihave #HIo := (bigSepL_elim_idx ownQs _ 106 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 67) (W := _) (R := 0) (m := 0) (T := ∅)
      (by rw [Nat.zero_add, expect_agccw_r_0_0 X c])) $$ [Hc_agccw_r_0_0 HO Hat_agccw_r_0_0]
  · isplitr; · iexact HIo
    isplitl [Hc_agccw_r_0_0]; · iexact Hc_agccw_r_0_0
    isplitl [HO]; · iexact HO
    isplitr; · iapply (mayWait_rem (F := F) c 67 (by decide) _ (by show (65 : ℕ) < 2 + 67; decide)); iexact Hlev
    iexact Hat_agccw_r_0_0
  iintro ⟨HO, Hat_agccw_r_0_0, #Hrch_agccw_r_0_0_1, Hpay⟩
  iclear HIo
  ihave Hp := (Entails.of_eq (rest_single X _ _ _ (duties_agccw_r_0_0 X c) (payload_agccw_r_0_0 X c false))) $$ Hpay
  irename Hp => Hg_agccw_r_0_0
  -- send ag ccw t=1 b=0 (payment 67, device function 68)
  try sl_exec_parts
  ihave HO := (owes_congr (rem_peel_67 c)) $$ HO
  ihave #HIo := (bigSepL_elim_idx ownQs _ 14 (by decide)) $$ HInvOwn
  ihave #HIt := (bigSepL_elim_idx recvCcw _ 32 (by decide)) $$ HInbCcw
  iapply (@send_owns_at F _ X c (prv c) ⟨k0_dev68 c, k0_dev68_lt c⟩ (dev68_eq c _) (rows oM (off false (c.val + 1) 0) (off_inb false _ 0)) (rows oM (off false (c.val + 1) 0) (off_inb false _ 0)) _ (qS cc0_scratch8 2 inb_S4_S1_2) (qR cc0_scratch9 1 0 inb_S15x2_S1x1_1_0) _ _ _ _ _ _ fullShare (doneV X false 0 (devAt c 1)) 0 (K (dcell c (qS cc0_scratch8 2 inb_S4_S1_2))) (K (dcell (prv c) (qR cc0_scratch9 1 0 inb_S15x2_S1x1_1_0))) _ (rem c 68) _ (by rw [duties_agccw_s_2_0 X c]; exact Finset.mem_singleton_self _) (by rw [duties_agccw_r_1_0 X (prv c)]; exact Finset.mem_singleton_self _) (by exact amount_agccw_s_2_0 X c false) (by exact amount_agccw_r_1_0 X (prv c) false) (by rfl) (by exact payload_agccw_s_2_0 X c false) (by exact hp2_agccw_r_1_0 X c) (by rfl) (by routes)) $$ [Hg_agccw_r_0_0 Hd_agccw_r_1_0 HO Hts_agccw_s_2_0 Htn_agccw_r_1_0]
  · isplitr; · iexact HIo
    isplitr; · iexact HIt
    isplitl [Hg_agccw_r_0_0]; · iexact Hg_agccw_r_0_0
    isplitl [Hd_agccw_r_1_0]; · iexact Hd_agccw_r_1_0
    isplitl [HO]; · iexact HO
    isplitl [Hts_agccw_s_2_0]; · iexact Hts_agccw_s_2_0
    isplitr; · iexact Hrs_agccw_s_2_0
    isplitl [Htn_agccw_r_1_0]; · iexact Htn_agccw_r_1_0
    iexact Hrn_agccw_r_1_0
  iintro ⟨Hcs_agccw_s_2_0, HO⟩
  iclear HIo HIt
  -- wait recv ag cw t=0 b=1
  try sl_exec_parts
  ihave #HIo := (bigSepL_elim_idx ownQs _ 47 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 68) (W := _) (R := 0) (m := 0) (T := ∅)
      (by rw [Nat.zero_add, expect_agcw_r_0_1 X c])) $$ [Hc_agcw_r_0_1 HO Hat_agcw_r_0_1]
  · isplitr; · iexact HIo
    isplitl [Hc_agcw_r_0_1]; · iexact Hc_agcw_r_0_1
    isplitl [HO]; · iexact HO
    isplitr; · iapply (mayWait_rem (F := F) c 68 (by decide) _ (by show (66 : ℕ) < 2 + 68; decide)); iexact Hlev
    iexact Hat_agcw_r_0_1
  iintro ⟨HO, Hat_agcw_r_0_1, #Hrch_agcw_r_0_1_1, Hpay⟩
  iclear HIo
  ihave Hp := (Entails.of_eq (rest_single X _ _ _ (duties_agcw_r_0_1 X c) (payload_agcw_r_0_1 X c false))) $$ Hpay
  irename Hp => Hg_agcw_r_0_1
  -- send ag cw t=1 b=1 (payment 68, device function 69)
  try sl_exec_parts
  ihave HO := (owes_congr (rem_peel_68 c)) $$ HO
  ihave #HIo := (bigSepL_elim_idx ownQs _ 11 (by decide)) $$ HInvOwn
  ihave #HIt := (bigSepL_elim_idx recvCw _ 33 (by decide)) $$ HInbCw
  iapply (@send_owns_at F _ X c (nxt c) ⟨k0_dev69 c, k0_dev69_lt c⟩ (dev69_eq c _) (rows oM (off true (c.val + 15) 1) (off_inb true _ 1)) (rows oM (off true (c.val + 15) 1) (off_inb true _ 1)) _ (qS cc0_scratch6 3 inb_S4_S1_3) (qR cc0_scratch7 1 1 inb_S15x2_S1x1_1_1) _ _ _ _ _ _ fullShare (doneV X true 1 (devAt c 15)) 0 (K (dcell c (qS cc0_scratch6 3 inb_S4_S1_3))) (K (dcell (nxt c) (qR cc0_scratch7 1 1 inb_S15x2_S1x1_1_1))) _ (rem c 69) _ (by rw [duties_agcw_s_3_0 X c]; exact Finset.mem_singleton_self _) (by rw [duties_agcw_r_1_1 X (nxt c)]; exact Finset.mem_singleton_self _) (by exact amount_agcw_s_3_0 X c false) (by exact amount_agcw_r_1_1 X (nxt c) false) (by rfl) (by exact payload_agcw_s_3_0 X c false) (by exact hp2_agcw_r_1_1 X c) (by rfl) (by routes)) $$ [Hg_agcw_r_0_1 Hd_agcw_r_1_1 HO Hts_agcw_s_3_0 Htn_agcw_r_1_1]
  · isplitr; · iexact HIo
    isplitr; · iexact HIt
    isplitl [Hg_agcw_r_0_1]; · iexact Hg_agcw_r_0_1
    isplitl [Hd_agcw_r_1_1]; · iexact Hd_agcw_r_1_1
    isplitl [HO]; · iexact HO
    isplitl [Hts_agcw_s_3_0]; · iexact Hts_agcw_s_3_0
    isplitr; · iexact Hrs_agcw_s_3_0
    isplitl [Htn_agcw_r_1_1]; · iexact Htn_agcw_r_1_1
    iexact Hrn_agcw_r_1_1
  iintro ⟨Hcs_agcw_s_3_0, HO⟩
  iclear HIo HIt
  -- wait recv ag ccw t=0 b=1
  try sl_exec_parts
  ihave #HIo := (bigSepL_elim_idx ownQs _ 107 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 69) (W := _) (R := 0) (m := 0) (T := ∅)
      (by rw [Nat.zero_add, expect_agccw_r_0_1 X c])) $$ [Hc_agccw_r_0_1 HO Hat_agccw_r_0_1]
  · isplitr; · iexact HIo
    isplitl [Hc_agccw_r_0_1]; · iexact Hc_agccw_r_0_1
    isplitl [HO]; · iexact HO
    isplitr; · iapply (mayWait_rem (F := F) c 69 (by decide) _ (by show (67 : ℕ) < 2 + 69; decide)); iexact Hlev
    iexact Hat_agccw_r_0_1
  iintro ⟨HO, Hat_agccw_r_0_1, #Hrch_agccw_r_0_1_1, Hpay⟩
  iclear HIo
  ihave Hp := (Entails.of_eq (rest_single X _ _ _ (duties_agccw_r_0_1 X c) (payload_agccw_r_0_1 X c false))) $$ Hpay
  irename Hp => Hg_agccw_r_0_1
  -- send ag ccw t=1 b=1 (payment 69, device function 70)
  try sl_exec_parts
  ihave HO := (owes_congr (rem_peel_69 c)) $$ HO
  ihave #HIo := (bigSepL_elim_idx ownQs _ 15 (by decide)) $$ HInvOwn
  ihave #HIt := (bigSepL_elim_idx recvCcw _ 33 (by decide)) $$ HInbCcw
  iapply (@send_owns_at F _ X c (prv c) ⟨k0_dev70 c, k0_dev70_lt c⟩ (dev70_eq c _) (rows oM (off false (c.val + 1) 1) (off_inb false _ 1)) (rows oM (off false (c.val + 1) 1) (off_inb false _ 1)) _ (qS cc0_scratch8 3 inb_S4_S1_3) (qR cc0_scratch9 1 1 inb_S15x2_S1x1_1_1) _ _ _ _ _ _ fullShare (doneV X false 1 (devAt c 1)) 0 (K (dcell c (qS cc0_scratch8 3 inb_S4_S1_3))) (K (dcell (prv c) (qR cc0_scratch9 1 1 inb_S15x2_S1x1_1_1))) _ (rem c 70) _ (by rw [duties_agccw_s_3_0 X c]; exact Finset.mem_singleton_self _) (by rw [duties_agccw_r_1_1 X (prv c)]; exact Finset.mem_singleton_self _) (by exact amount_agccw_s_3_0 X c false) (by exact amount_agccw_r_1_1 X (prv c) false) (by rfl) (by exact payload_agccw_s_3_0 X c false) (by exact hp2_agccw_r_1_1 X c) (by rfl) (by routes)) $$ [Hg_agccw_r_0_1 Hd_agccw_r_1_1 HO Hts_agccw_s_3_0 Htn_agccw_r_1_1]
  · isplitr; · iexact HIo
    isplitr; · iexact HIt
    isplitl [Hg_agccw_r_0_1]; · iexact Hg_agccw_r_0_1
    isplitl [Hd_agccw_r_1_1]; · iexact Hd_agccw_r_1_1
    isplitl [HO]; · iexact HO
    isplitl [Hts_agccw_s_3_0]; · iexact Hts_agccw_s_3_0
    isplitr; · iexact Hrs_agccw_s_3_0
    isplitl [Htn_agccw_r_1_1]; · iexact Htn_agccw_r_1_1
    iexact Hrn_agccw_r_1_1
  iintro ⟨Hcs_agccw_s_3_0, HO⟩
  iclear HIo HIt
  -- wait recv ag cw t=1 b=0
  try sl_exec_parts
  ihave #HIo := (bigSepL_elim_idx ownQs _ 48 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 70) (W := _) (R := 0) (m := 0) (T := ∅)
      (by rw [Nat.zero_add, expect_agcw_r_1_0 X c])) $$ [Hc_agcw_r_1_0 HO Hat_agcw_r_1_0]
  · isplitr; · iexact HIo
    isplitl [Hc_agcw_r_1_0]; · iexact Hc_agcw_r_1_0
    isplitl [HO]; · iexact HO
    isplitr; · iapply (mayWait_rem (F := F) c 70 (by decide) _ (by show (68 : ℕ) < 2 + 70; decide)); iexact Hlev
    iexact Hat_agcw_r_1_0
  iintro ⟨HO, Hat_agcw_r_1_0, #Hrch_agcw_r_1_0_1, Hpay⟩
  iclear HIo
  ihave Hp := (Entails.of_eq (rest_single X _ _ _ (duties_agcw_r_1_0 X c) (payload_agcw_r_1_0 X c false))) $$ Hpay
  irename Hp => Hg_agcw_r_1_0
  -- wait send ag cw t=0 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 70) (W := _) (R := 0) (m := 0) (T := ∅)
      (by rw [Nat.zero_add, expect_agcw_s_0_0 X c])) $$ [Hcs_agcw_s_0_0 HO Hat_agcw_s_0]
  · isplitr; · iexact HIo
    isplitl [Hcs_agcw_s_0_0]; · iexact Hcs_agcw_s_0_0
    isplitl [HO]; · iexact HO
    isplitr; · iapply (mayWait_rem (F := F) c 70 (by decide) _ (by show (0 : ℕ) < 2 + 70; decide)); iexact Hlev
    iexact Hat_agcw_s_0
  iintro ⟨HO, Hat_agcw_s_0, #Hrch_agcw_s_0_1, Hpay⟩
  iclear HIo
  ihave Hp := (Entails.of_eq (rest_single X _ _ _ (duties_agcw_s_0_0 X c) (payload_agcw_s_0_0 X c false))) $$ Hpay
  irename Hp => HbackR_rscw_r_14_0
  -- send ag cw t=2 b=0 (payment 70, device function 71)
  try sl_exec_parts
  ihave HO := (owes_congr (rem_peel_70 c)) $$ HO
  ihave #HIo := (bigSepL_elim_idx ownQs _ 8 (by decide)) $$ HInvOwn
  ihave #HIt := (bigSepL_elim_idx recvCw _ 34 (by decide)) $$ HInbCw
  iapply (@send_owns_at F _ X c (nxt c) ⟨k0_dev71 c, k0_dev71_lt c⟩ (dev71_eq c _) (rows oM (off true (c.val + 14) 0) (off_inb true _ 0)) (rows oM (off true (c.val + 14) 0) (off_inb true _ 0)) _ (qS cc0_scratch6 0 inb_S4_S1_0) (qR cc0_scratch7 2 0 inb_S15x2_S1x1_2_0) _ _ _ _ _ _ fullShare (doneV X true 0 (devAt c 14)) 1 (K (dcell c (qS cc0_scratch6 0 inb_S4_S1_0))) (K (dcell (nxt c) (qR cc0_scratch7 2 0 inb_S15x2_S1x1_2_0))) _ (rem c 71) _ (by rw [duties_agcw_s_0_1 X c]; exact Finset.mem_singleton_self _) (by rw [duties_agcw_r_2_0 X (nxt c)]; exact Finset.mem_singleton_self _) (by exact amount_agcw_s_0_1 X c false) (by exact amount_agcw_r_2_0 X (nxt c) false) (by rfl) (by exact payload_agcw_s_0_1 X c false) (by exact hp2_agcw_r_2_0 X c) (by rfl) (by routes)) $$ [Hg_agcw_r_1_0 Hd_agcw_r_2_0 HO Hts_agcw_s_0_1 Htn_agcw_r_2_0]
  · isplitr; · iexact HIo
    isplitr; · iexact HIt
    isplitl [Hg_agcw_r_1_0]; · iexact Hg_agcw_r_1_0
    isplitl [Hd_agcw_r_2_0]; · iexact Hd_agcw_r_2_0
    isplitl [HO]; · iexact HO
    isplitl [Hts_agcw_s_0_1]; · iexact Hts_agcw_s_0_1
    isplitr; · iexact Hrch_agcw_s_0_1
    isplitl [Htn_agcw_r_2_0]; · iexact Htn_agcw_r_2_0
    iexact Hrn_agcw_r_2_0
  iintro ⟨Hcs_agcw_s_0_1, HO⟩
  iclear HIo HIt
  -- wait recv ag ccw t=1 b=0
  try sl_exec_parts
  ihave #HIo := (bigSepL_elim_idx ownQs _ 108 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 71) (W := _) (R := 0) (m := 0) (T := ∅)
      (by rw [Nat.zero_add, expect_agccw_r_1_0 X c])) $$ [Hc_agccw_r_1_0 HO Hat_agccw_r_1_0]
  · isplitr; · iexact HIo
    isplitl [Hc_agccw_r_1_0]; · iexact Hc_agccw_r_1_0
    isplitl [HO]; · iexact HO
    isplitr; · iapply (mayWait_rem (F := F) c 71 (by decide) _ (by show (69 : ℕ) < 2 + 71; decide)); iexact Hlev
    iexact Hat_agccw_r_1_0
  iintro ⟨HO, Hat_agccw_r_1_0, #Hrch_agccw_r_1_0_1, Hpay⟩
  iclear HIo
  ihave Hp := (Entails.of_eq (rest_single X _ _ _ (duties_agccw_r_1_0 X c) (payload_agccw_r_1_0 X c false))) $$ Hpay
  irename Hp => Hg_agccw_r_1_0
  -- wait send ag ccw t=0 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 71) (W := _) (R := 0) (m := 0) (T := ∅)
      (by rw [Nat.zero_add, expect_agccw_s_0_0 X c])) $$ [Hcs_agccw_s_0_0 HO Hat_agccw_s_0]
  · isplitr; · iexact HIo
    isplitl [Hcs_agccw_s_0_0]; · iexact Hcs_agccw_s_0_0
    isplitl [HO]; · iexact HO
    isplitr; · iapply (mayWait_rem (F := F) c 71 (by decide) _ (by show (0 : ℕ) < 2 + 71; decide)); iexact Hlev
    iexact Hat_agccw_s_0
  iintro ⟨HO, Hat_agccw_s_0, #Hrch_agccw_s_0_1, Hpay⟩
  iclear HIo
  ihave Hp := (Entails.of_eq (rest_single X _ _ _ (duties_agccw_s_0_0 X c) (payload_agccw_s_0_0 X c false))) $$ Hpay
  irename Hp => HbackR_rsccw_r_14_0
  -- send ag ccw t=2 b=0 (payment 71, device function 72)
  try sl_exec_parts
  ihave HO := (owes_congr (rem_peel_71 c)) $$ HO
  ihave #HIo := (bigSepL_elim_idx ownQs _ 12 (by decide)) $$ HInvOwn
  ihave #HIt := (bigSepL_elim_idx recvCcw _ 34 (by decide)) $$ HInbCcw
  iapply (@send_owns_at F _ X c (prv c) ⟨k0_dev72 c, k0_dev72_lt c⟩ (dev72_eq c _) (rows oM (off false (c.val + 2) 0) (off_inb false _ 0)) (rows oM (off false (c.val + 2) 0) (off_inb false _ 0)) _ (qS cc0_scratch8 0 inb_S4_S1_0) (qR cc0_scratch9 2 0 inb_S15x2_S1x1_2_0) _ _ _ _ _ _ fullShare (doneV X false 0 (devAt c 2)) 1 (K (dcell c (qS cc0_scratch8 0 inb_S4_S1_0))) (K (dcell (prv c) (qR cc0_scratch9 2 0 inb_S15x2_S1x1_2_0))) _ (rem c 72) _ (by rw [duties_agccw_s_0_1 X c]; exact Finset.mem_singleton_self _) (by rw [duties_agccw_r_2_0 X (prv c)]; exact Finset.mem_singleton_self _) (by exact amount_agccw_s_0_1 X c false) (by exact amount_agccw_r_2_0 X (prv c) false) (by rfl) (by exact payload_agccw_s_0_1 X c false) (by exact hp2_agccw_r_2_0 X c) (by rfl) (by routes)) $$ [Hg_agccw_r_1_0 Hd_agccw_r_2_0 HO Hts_agccw_s_0_1 Htn_agccw_r_2_0]
  · isplitr; · iexact HIo
    isplitr; · iexact HIt
    isplitl [Hg_agccw_r_1_0]; · iexact Hg_agccw_r_1_0
    isplitl [Hd_agccw_r_2_0]; · iexact Hd_agccw_r_2_0
    isplitl [HO]; · iexact HO
    isplitl [Hts_agccw_s_0_1]; · iexact Hts_agccw_s_0_1
    isplitr; · iexact Hrch_agccw_s_0_1
    isplitl [Htn_agccw_r_2_0]; · iexact Htn_agccw_r_2_0
    iexact Hrn_agccw_r_2_0
  iintro ⟨Hcs_agccw_s_0_1, HO⟩
  iclear HIo HIt
  -- wait recv ag cw t=1 b=1
  try sl_exec_parts
  ihave #HIo := (bigSepL_elim_idx ownQs _ 49 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 72) (W := _) (R := 0) (m := 0) (T := ∅)
      (by rw [Nat.zero_add, expect_agcw_r_1_1 X c])) $$ [Hc_agcw_r_1_1 HO Hat_agcw_r_1_1]
  · isplitr; · iexact HIo
    isplitl [Hc_agcw_r_1_1]; · iexact Hc_agcw_r_1_1
    isplitl [HO]; · iexact HO
    isplitr; · iapply (mayWait_rem (F := F) c 72 (by decide) _ (by show (70 : ℕ) < 2 + 72; decide)); iexact Hlev
    iexact Hat_agcw_r_1_1
  iintro ⟨HO, Hat_agcw_r_1_1, #Hrch_agcw_r_1_1_1, Hpay⟩
  iclear HIo
  ihave Hp := (Entails.of_eq (rest_single X _ _ _ (duties_agcw_r_1_1 X c) (payload_agcw_r_1_1 X c false))) $$ Hpay
  irename Hp => Hg_agcw_r_1_1
  -- wait send ag cw t=0 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 72) (W := _) (R := 0) (m := 0) (T := ∅)
      (by rw [Nat.zero_add, expect_agcw_s_1_0 X c])) $$ [Hcs_agcw_s_1_0 HO Hat_agcw_s_1]
  · isplitr; · iexact HIo
    isplitl [Hcs_agcw_s_1_0]; · iexact Hcs_agcw_s_1_0
    isplitl [HO]; · iexact HO
    isplitr; · iapply (mayWait_rem (F := F) c 72 (by decide) _ (by show (0 : ℕ) < 2 + 72; decide)); iexact Hlev
    iexact Hat_agcw_s_1
  iintro ⟨HO, Hat_agcw_s_1, #Hrch_agcw_s_1_1, Hpay⟩
  iclear HIo
  ihave Hp := (Entails.of_eq (rest_single X _ _ _ (duties_agcw_s_1_0 X c) (payload_agcw_s_1_0 X c false))) $$ Hpay
  irename Hp => HbackR_rscw_r_14_1
  -- send ag cw t=2 b=1 (payment 72, device function 73)
  try sl_exec_parts
  ihave HO := (owes_congr (rem_peel_72 c)) $$ HO
  ihave #HIo := (bigSepL_elim_idx ownQs _ 9 (by decide)) $$ HInvOwn
  ihave #HIt := (bigSepL_elim_idx recvCw _ 35 (by decide)) $$ HInbCw
  iapply (@send_owns_at F _ X c (nxt c) ⟨k0_dev73 c, k0_dev73_lt c⟩ (dev73_eq c _) (rows oM (off true (c.val + 14) 1) (off_inb true _ 1)) (rows oM (off true (c.val + 14) 1) (off_inb true _ 1)) _ (qS cc0_scratch6 1 inb_S4_S1_1) (qR cc0_scratch7 2 1 inb_S15x2_S1x1_2_1) _ _ _ _ _ _ fullShare (doneV X true 1 (devAt c 14)) 1 (K (dcell c (qS cc0_scratch6 1 inb_S4_S1_1))) (K (dcell (nxt c) (qR cc0_scratch7 2 1 inb_S15x2_S1x1_2_1))) _ (rem c 73) _ (by rw [duties_agcw_s_1_1 X c]; exact Finset.mem_singleton_self _) (by rw [duties_agcw_r_2_1 X (nxt c)]; exact Finset.mem_singleton_self _) (by exact amount_agcw_s_1_1 X c false) (by exact amount_agcw_r_2_1 X (nxt c) false) (by rfl) (by exact payload_agcw_s_1_1 X c false) (by exact hp2_agcw_r_2_1 X c) (by rfl) (by routes)) $$ [Hg_agcw_r_1_1 Hd_agcw_r_2_1 HO Hts_agcw_s_1_1 Htn_agcw_r_2_1]
  · isplitr; · iexact HIo
    isplitr; · iexact HIt
    isplitl [Hg_agcw_r_1_1]; · iexact Hg_agcw_r_1_1
    isplitl [Hd_agcw_r_2_1]; · iexact Hd_agcw_r_2_1
    isplitl [HO]; · iexact HO
    isplitl [Hts_agcw_s_1_1]; · iexact Hts_agcw_s_1_1
    isplitr; · iexact Hrch_agcw_s_1_1
    isplitl [Htn_agcw_r_2_1]; · iexact Htn_agcw_r_2_1
    iexact Hrn_agcw_r_2_1
  iintro ⟨Hcs_agcw_s_1_1, HO⟩
  iclear HIo HIt
  -- wait recv ag ccw t=1 b=1
  try sl_exec_parts
  ihave #HIo := (bigSepL_elim_idx ownQs _ 109 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 73) (W := _) (R := 0) (m := 0) (T := ∅)
      (by rw [Nat.zero_add, expect_agccw_r_1_1 X c])) $$ [Hc_agccw_r_1_1 HO Hat_agccw_r_1_1]
  · isplitr; · iexact HIo
    isplitl [Hc_agccw_r_1_1]; · iexact Hc_agccw_r_1_1
    isplitl [HO]; · iexact HO
    isplitr; · iapply (mayWait_rem (F := F) c 73 (by decide) _ (by show (71 : ℕ) < 2 + 73; decide)); iexact Hlev
    iexact Hat_agccw_r_1_1
  iintro ⟨HO, Hat_agccw_r_1_1, #Hrch_agccw_r_1_1_1, Hpay⟩
  iclear HIo
  ihave Hp := (Entails.of_eq (rest_single X _ _ _ (duties_agccw_r_1_1 X c) (payload_agccw_r_1_1 X c false))) $$ Hpay
  irename Hp => Hg_agccw_r_1_1
  -- wait send ag ccw t=0 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 73) (W := _) (R := 0) (m := 0) (T := ∅)
      (by rw [Nat.zero_add, expect_agccw_s_1_0 X c])) $$ [Hcs_agccw_s_1_0 HO Hat_agccw_s_1]
  · isplitr; · iexact HIo
    isplitl [Hcs_agccw_s_1_0]; · iexact Hcs_agccw_s_1_0
    isplitl [HO]; · iexact HO
    isplitr; · iapply (mayWait_rem (F := F) c 73 (by decide) _ (by show (0 : ℕ) < 2 + 73; decide)); iexact Hlev
    iexact Hat_agccw_s_1
  iintro ⟨HO, Hat_agccw_s_1, #Hrch_agccw_s_1_1, Hpay⟩
  iclear HIo
  ihave Hp := (Entails.of_eq (rest_single X _ _ _ (duties_agccw_s_1_0 X c) (payload_agccw_s_1_0 X c false))) $$ Hpay
  irename Hp => HbackR_rsccw_r_14_1
  -- send ag ccw t=2 b=1 (payment 73, device function 74)
  try sl_exec_parts
  ihave HO := (owes_congr (rem_peel_73 c)) $$ HO
  ihave #HIo := (bigSepL_elim_idx ownQs _ 13 (by decide)) $$ HInvOwn
  ihave #HIt := (bigSepL_elim_idx recvCcw _ 35 (by decide)) $$ HInbCcw
  iapply (@send_owns_at F _ X c (prv c) ⟨k0_dev74 c, k0_dev74_lt c⟩ (dev74_eq c _) (rows oM (off false (c.val + 2) 1) (off_inb false _ 1)) (rows oM (off false (c.val + 2) 1) (off_inb false _ 1)) _ (qS cc0_scratch8 1 inb_S4_S1_1) (qR cc0_scratch9 2 1 inb_S15x2_S1x1_2_1) _ _ _ _ _ _ fullShare (doneV X false 1 (devAt c 2)) 1 (K (dcell c (qS cc0_scratch8 1 inb_S4_S1_1))) (K (dcell (prv c) (qR cc0_scratch9 2 1 inb_S15x2_S1x1_2_1))) _ (rem c 74) _ (by rw [duties_agccw_s_1_1 X c]; exact Finset.mem_singleton_self _) (by rw [duties_agccw_r_2_1 X (prv c)]; exact Finset.mem_singleton_self _) (by exact amount_agccw_s_1_1 X c false) (by exact amount_agccw_r_2_1 X (prv c) false) (by rfl) (by exact payload_agccw_s_1_1 X c false) (by exact hp2_agccw_r_2_1 X c) (by rfl) (by routes)) $$ [Hg_agccw_r_1_1 Hd_agccw_r_2_1 HO Hts_agccw_s_1_1 Htn_agccw_r_2_1]
  · isplitr; · iexact HIo
    isplitr; · iexact HIt
    isplitl [Hg_agccw_r_1_1]; · iexact Hg_agccw_r_1_1
    isplitl [Hd_agccw_r_2_1]; · iexact Hd_agccw_r_2_1
    isplitl [HO]; · iexact HO
    isplitl [Hts_agccw_s_1_1]; · iexact Hts_agccw_s_1_1
    isplitr; · iexact Hrch_agccw_s_1_1
    isplitl [Htn_agccw_r_2_1]; · iexact Htn_agccw_r_2_1
    iexact Hrn_agccw_r_2_1
  iintro ⟨Hcs_agccw_s_1_1, HO⟩
  iclear HIo HIt
  -- wait recv ag cw t=2 b=0
  try sl_exec_parts
  ihave #HIo := (bigSepL_elim_idx ownQs _ 50 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 74) (W := _) (R := 0) (m := 0) (T := ∅)
      (by rw [Nat.zero_add, expect_agcw_r_2_0 X c])) $$ [Hc_agcw_r_2_0 HO Hat_agcw_r_2_0]
  · isplitr; · iexact HIo
    isplitl [Hc_agcw_r_2_0]; · iexact Hc_agcw_r_2_0
    isplitl [HO]; · iexact HO
    isplitr; · iapply (mayWait_rem (F := F) c 74 (by decide) _ (by show (72 : ℕ) < 2 + 74; decide)); iexact Hlev
    iexact Hat_agcw_r_2_0
  iintro ⟨HO, Hat_agcw_r_2_0, #Hrch_agcw_r_2_0_1, Hpay⟩
  iclear HIo
  ihave Hp := (Entails.of_eq (rest_single X _ _ _ (duties_agcw_r_2_0 X c) (payload_agcw_r_2_0 X c false))) $$ Hpay
  irename Hp => Hg_agcw_r_2_0
  -- wait send ag cw t=1 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 74) (W := _) (R := 0) (m := 0) (T := ∅)
      (by rw [Nat.zero_add, expect_agcw_s_2_0 X c])) $$ [Hcs_agcw_s_2_0 HO Hat_agcw_s_2]
  · isplitr; · iexact HIo
    isplitl [Hcs_agcw_s_2_0]; · iexact Hcs_agcw_s_2_0
    isplitl [HO]; · iexact HO
    isplitr; · iapply (mayWait_rem (F := F) c 74 (by decide) _ (by show (0 : ℕ) < 2 + 74; decide)); iexact Hlev
    iexact Hat_agcw_s_2
  iintro ⟨HO, Hat_agcw_s_2, #Hrch_agcw_s_2_1, Hpay⟩
  iclear HIo
  ihave Hp := (Entails.of_eq (rest_single X _ _ _ (duties_agcw_s_2_0 X c) (payload_agcw_s_2_0 X c false))) $$ Hpay
  irename Hp => Hback_agcw_r_0_0
  -- send ag cw t=3 b=0 (payment 74, device function 75)
  try sl_exec_parts
  ihave HO := (owes_congr (rem_peel_74 c)) $$ HO
  ihave #HIo := (bigSepL_elim_idx ownQs _ 10 (by decide)) $$ HInvOwn
  ihave #HIt := (bigSepL_elim_idx recvCw _ 36 (by decide)) $$ HInbCw
  iapply (@send_owns_at F _ X c (nxt c) ⟨k0_dev75 c, k0_dev75_lt c⟩ (dev75_eq c _) (rows oM (off true (c.val + 13) 0) (off_inb true _ 0)) (rows oM (off true (c.val + 13) 0) (off_inb true _ 0)) _ (qS cc0_scratch6 2 inb_S4_S1_2) (qR cc0_scratch7 3 0 inb_S15x2_S1x1_3_0) _ _ _ _ _ _ fullShare (doneV X true 0 (devAt c 13)) 1 (K (dcell c (qS cc0_scratch6 2 inb_S4_S1_2))) (K (dcell (nxt c) (qR cc0_scratch7 3 0 inb_S15x2_S1x1_3_0))) _ (rem c 75) _ (by rw [duties_agcw_s_2_1 X c]; exact Finset.mem_singleton_self _) (by rw [duties_agcw_r_3_0 X (nxt c)]; exact Finset.mem_singleton_self _) (by exact amount_agcw_s_2_1 X c false) (by exact amount_agcw_r_3_0 X (nxt c) false) (by rfl) (by exact payload_agcw_s_2_1 X c false) (by exact hp2_agcw_r_3_0 X c) (by rfl) (by routes)) $$ [Hg_agcw_r_2_0 Hd_agcw_r_3_0 HO Hts_agcw_s_2_1 Htn_agcw_r_3_0]
  · isplitr; · iexact HIo
    isplitr; · iexact HIt
    isplitl [Hg_agcw_r_2_0]; · iexact Hg_agcw_r_2_0
    isplitl [Hd_agcw_r_3_0]; · iexact Hd_agcw_r_3_0
    isplitl [HO]; · iexact HO
    isplitl [Hts_agcw_s_2_1]; · iexact Hts_agcw_s_2_1
    isplitr; · iexact Hrch_agcw_s_2_1
    isplitl [Htn_agcw_r_3_0]; · iexact Htn_agcw_r_3_0
    iexact Hrn_agcw_r_3_0
  iintro ⟨Hcs_agcw_s_2_1, HO⟩
  iclear HIo HIt
  -- wait recv ag ccw t=2 b=0
  try sl_exec_parts
  ihave #HIo := (bigSepL_elim_idx ownQs _ 110 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 75) (W := _) (R := 0) (m := 0) (T := ∅)
      (by rw [Nat.zero_add, expect_agccw_r_2_0 X c])) $$ [Hc_agccw_r_2_0 HO Hat_agccw_r_2_0]
  · isplitr; · iexact HIo
    isplitl [Hc_agccw_r_2_0]; · iexact Hc_agccw_r_2_0
    isplitl [HO]; · iexact HO
    isplitr; · iapply (mayWait_rem (F := F) c 75 (by decide) _ (by show (73 : ℕ) < 2 + 75; decide)); iexact Hlev
    iexact Hat_agccw_r_2_0
  iintro ⟨HO, Hat_agccw_r_2_0, #Hrch_agccw_r_2_0_1, Hpay⟩
  iclear HIo
  ihave Hp := (Entails.of_eq (rest_single X _ _ _ (duties_agccw_r_2_0 X c) (payload_agccw_r_2_0 X c false))) $$ Hpay
  irename Hp => Hg_agccw_r_2_0
  -- wait send ag ccw t=1 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 75) (W := _) (R := 0) (m := 0) (T := ∅)
      (by rw [Nat.zero_add, expect_agccw_s_2_0 X c])) $$ [Hcs_agccw_s_2_0 HO Hat_agccw_s_2]
  · isplitr; · iexact HIo
    isplitl [Hcs_agccw_s_2_0]; · iexact Hcs_agccw_s_2_0
    isplitl [HO]; · iexact HO
    isplitr; · iapply (mayWait_rem (F := F) c 75 (by decide) _ (by show (0 : ℕ) < 2 + 75; decide)); iexact Hlev
    iexact Hat_agccw_s_2
  iintro ⟨HO, Hat_agccw_s_2, #Hrch_agccw_s_2_1, Hpay⟩
  iclear HIo
  ihave Hp := (Entails.of_eq (rest_single X _ _ _ (duties_agccw_s_2_0 X c) (payload_agccw_s_2_0 X c false))) $$ Hpay
  irename Hp => Hback_agccw_r_0_0
  -- send ag ccw t=3 b=0 (payment 75, device function 76)
  try sl_exec_parts
  ihave HO := (owes_congr (rem_peel_75 c)) $$ HO
  ihave #HIo := (bigSepL_elim_idx ownQs _ 14 (by decide)) $$ HInvOwn
  ihave #HIt := (bigSepL_elim_idx recvCcw _ 36 (by decide)) $$ HInbCcw
  iapply (@send_owns_at F _ X c (prv c) ⟨k0_dev76 c, k0_dev76_lt c⟩ (dev76_eq c _) (rows oM (off false (c.val + 3) 0) (off_inb false _ 0)) (rows oM (off false (c.val + 3) 0) (off_inb false _ 0)) _ (qS cc0_scratch8 2 inb_S4_S1_2) (qR cc0_scratch9 3 0 inb_S15x2_S1x1_3_0) _ _ _ _ _ _ fullShare (doneV X false 0 (devAt c 3)) 1 (K (dcell c (qS cc0_scratch8 2 inb_S4_S1_2))) (K (dcell (prv c) (qR cc0_scratch9 3 0 inb_S15x2_S1x1_3_0))) _ (rem c 76) _ (by rw [duties_agccw_s_2_1 X c]; exact Finset.mem_singleton_self _) (by rw [duties_agccw_r_3_0 X (prv c)]; exact Finset.mem_singleton_self _) (by exact amount_agccw_s_2_1 X c false) (by exact amount_agccw_r_3_0 X (prv c) false) (by rfl) (by exact payload_agccw_s_2_1 X c false) (by exact hp2_agccw_r_3_0 X c) (by rfl) (by routes)) $$ [Hg_agccw_r_2_0 Hd_agccw_r_3_0 HO Hts_agccw_s_2_1 Htn_agccw_r_3_0]
  · isplitr; · iexact HIo
    isplitr; · iexact HIt
    isplitl [Hg_agccw_r_2_0]; · iexact Hg_agccw_r_2_0
    isplitl [Hd_agccw_r_3_0]; · iexact Hd_agccw_r_3_0
    isplitl [HO]; · iexact HO
    isplitl [Hts_agccw_s_2_1]; · iexact Hts_agccw_s_2_1
    isplitr; · iexact Hrch_agccw_s_2_1
    isplitl [Htn_agccw_r_3_0]; · iexact Htn_agccw_r_3_0
    iexact Hrn_agccw_r_3_0
  iintro ⟨Hcs_agccw_s_2_1, HO⟩
  iclear HIo HIt
  -- wait recv ag cw t=2 b=1
  try sl_exec_parts
  ihave #HIo := (bigSepL_elim_idx ownQs _ 51 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 76) (W := _) (R := 0) (m := 0) (T := ∅)
      (by rw [Nat.zero_add, expect_agcw_r_2_1 X c])) $$ [Hc_agcw_r_2_1 HO Hat_agcw_r_2_1]
  · isplitr; · iexact HIo
    isplitl [Hc_agcw_r_2_1]; · iexact Hc_agcw_r_2_1
    isplitl [HO]; · iexact HO
    isplitr; · iapply (mayWait_rem (F := F) c 76 (by decide) _ (by show (74 : ℕ) < 2 + 76; decide)); iexact Hlev
    iexact Hat_agcw_r_2_1
  iintro ⟨HO, Hat_agcw_r_2_1, #Hrch_agcw_r_2_1_1, Hpay⟩
  iclear HIo
  ihave Hp := (Entails.of_eq (rest_single X _ _ _ (duties_agcw_r_2_1 X c) (payload_agcw_r_2_1 X c false))) $$ Hpay
  irename Hp => Hg_agcw_r_2_1
  -- wait send ag cw t=1 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 76) (W := _) (R := 0) (m := 0) (T := ∅)
      (by rw [Nat.zero_add, expect_agcw_s_3_0 X c])) $$ [Hcs_agcw_s_3_0 HO Hat_agcw_s_3]
  · isplitr; · iexact HIo
    isplitl [Hcs_agcw_s_3_0]; · iexact Hcs_agcw_s_3_0
    isplitl [HO]; · iexact HO
    isplitr; · iapply (mayWait_rem (F := F) c 76 (by decide) _ (by show (0 : ℕ) < 2 + 76; decide)); iexact Hlev
    iexact Hat_agcw_s_3
  iintro ⟨HO, Hat_agcw_s_3, #Hrch_agcw_s_3_1, Hpay⟩
  iclear HIo
  ihave Hp := (Entails.of_eq (rest_single X _ _ _ (duties_agcw_s_3_0 X c) (payload_agcw_s_3_0 X c false))) $$ Hpay
  irename Hp => Hback_agcw_r_0_1
  -- send ag cw t=3 b=1 (payment 76, device function 77)
  try sl_exec_parts
  ihave HO := (owes_congr (rem_peel_76 c)) $$ HO
  ihave #HIo := (bigSepL_elim_idx ownQs _ 11 (by decide)) $$ HInvOwn
  ihave #HIt := (bigSepL_elim_idx recvCw _ 37 (by decide)) $$ HInbCw
  iapply (@send_owns_at F _ X c (nxt c) ⟨k0_dev77 c, k0_dev77_lt c⟩ (dev77_eq c _) (rows oM (off true (c.val + 13) 1) (off_inb true _ 1)) (rows oM (off true (c.val + 13) 1) (off_inb true _ 1)) _ (qS cc0_scratch6 3 inb_S4_S1_3) (qR cc0_scratch7 3 1 inb_S15x2_S1x1_3_1) _ _ _ _ _ _ fullShare (doneV X true 1 (devAt c 13)) 1 (K (dcell c (qS cc0_scratch6 3 inb_S4_S1_3))) (K (dcell (nxt c) (qR cc0_scratch7 3 1 inb_S15x2_S1x1_3_1))) _ (rem c 77) _ (by rw [duties_agcw_s_3_1 X c]; exact Finset.mem_singleton_self _) (by rw [duties_agcw_r_3_1 X (nxt c)]; exact Finset.mem_singleton_self _) (by exact amount_agcw_s_3_1 X c false) (by exact amount_agcw_r_3_1 X (nxt c) false) (by rfl) (by exact payload_agcw_s_3_1 X c false) (by exact hp2_agcw_r_3_1 X c) (by rfl) (by routes)) $$ [Hg_agcw_r_2_1 Hd_agcw_r_3_1 HO Hts_agcw_s_3_1 Htn_agcw_r_3_1]
  · isplitr; · iexact HIo
    isplitr; · iexact HIt
    isplitl [Hg_agcw_r_2_1]; · iexact Hg_agcw_r_2_1
    isplitl [Hd_agcw_r_3_1]; · iexact Hd_agcw_r_3_1
    isplitl [HO]; · iexact HO
    isplitl [Hts_agcw_s_3_1]; · iexact Hts_agcw_s_3_1
    isplitr; · iexact Hrch_agcw_s_3_1
    isplitl [Htn_agcw_r_3_1]; · iexact Htn_agcw_r_3_1
    iexact Hrn_agcw_r_3_1
  iintro ⟨Hcs_agcw_s_3_1, HO⟩
  iclear HIo HIt
  -- wait recv ag ccw t=2 b=1
  try sl_exec_parts
  ihave #HIo := (bigSepL_elim_idx ownQs _ 111 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 77) (W := _) (R := 0) (m := 0) (T := ∅)
      (by rw [Nat.zero_add, expect_agccw_r_2_1 X c])) $$ [Hc_agccw_r_2_1 HO Hat_agccw_r_2_1]
  · isplitr; · iexact HIo
    isplitl [Hc_agccw_r_2_1]; · iexact Hc_agccw_r_2_1
    isplitl [HO]; · iexact HO
    isplitr; · iapply (mayWait_rem (F := F) c 77 (by decide) _ (by show (75 : ℕ) < 2 + 77; decide)); iexact Hlev
    iexact Hat_agccw_r_2_1
  iintro ⟨HO, Hat_agccw_r_2_1, #Hrch_agccw_r_2_1_1, Hpay⟩
  iclear HIo
  ihave Hp := (Entails.of_eq (rest_single X _ _ _ (duties_agccw_r_2_1 X c) (payload_agccw_r_2_1 X c false))) $$ Hpay
  irename Hp => Hg_agccw_r_2_1
  -- wait send ag ccw t=1 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 77) (W := _) (R := 0) (m := 0) (T := ∅)
      (by rw [Nat.zero_add, expect_agccw_s_3_0 X c])) $$ [Hcs_agccw_s_3_0 HO Hat_agccw_s_3]
  · isplitr; · iexact HIo
    isplitl [Hcs_agccw_s_3_0]; · iexact Hcs_agccw_s_3_0
    isplitl [HO]; · iexact HO
    isplitr; · iapply (mayWait_rem (F := F) c 77 (by decide) _ (by show (0 : ℕ) < 2 + 77; decide)); iexact Hlev
    iexact Hat_agccw_s_3
  iintro ⟨HO, Hat_agccw_s_3, #Hrch_agccw_s_3_1, Hpay⟩
  iclear HIo
  ihave Hp := (Entails.of_eq (rest_single X _ _ _ (duties_agccw_s_3_0 X c) (payload_agccw_s_3_0 X c false))) $$ Hpay
  irename Hp => Hback_agccw_r_0_1
  -- send ag ccw t=3 b=1 (payment 77, device function 78)
  try sl_exec_parts
  ihave HO := (owes_congr (rem_peel_77 c)) $$ HO
  ihave #HIo := (bigSepL_elim_idx ownQs _ 15 (by decide)) $$ HInvOwn
  ihave #HIt := (bigSepL_elim_idx recvCcw _ 37 (by decide)) $$ HInbCcw
  iapply (@send_owns_at F _ X c (prv c) ⟨k0_dev78 c, k0_dev78_lt c⟩ (dev78_eq c _) (rows oM (off false (c.val + 3) 1) (off_inb false _ 1)) (rows oM (off false (c.val + 3) 1) (off_inb false _ 1)) _ (qS cc0_scratch8 3 inb_S4_S1_3) (qR cc0_scratch9 3 1 inb_S15x2_S1x1_3_1) _ _ _ _ _ _ fullShare (doneV X false 1 (devAt c 3)) 1 (K (dcell c (qS cc0_scratch8 3 inb_S4_S1_3))) (K (dcell (prv c) (qR cc0_scratch9 3 1 inb_S15x2_S1x1_3_1))) _ (rem c 78) _ (by rw [duties_agccw_s_3_1 X c]; exact Finset.mem_singleton_self _) (by rw [duties_agccw_r_3_1 X (prv c)]; exact Finset.mem_singleton_self _) (by exact amount_agccw_s_3_1 X c false) (by exact amount_agccw_r_3_1 X (prv c) false) (by rfl) (by exact payload_agccw_s_3_1 X c false) (by exact hp2_agccw_r_3_1 X c) (by rfl) (by routes)) $$ [Hg_agccw_r_2_1 Hd_agccw_r_3_1 HO Hts_agccw_s_3_1 Htn_agccw_r_3_1]
  · isplitr; · iexact HIo
    isplitr; · iexact HIt
    isplitl [Hg_agccw_r_2_1]; · iexact Hg_agccw_r_2_1
    isplitl [Hd_agccw_r_3_1]; · iexact Hd_agccw_r_3_1
    isplitl [HO]; · iexact HO
    isplitl [Hts_agccw_s_3_1]; · iexact Hts_agccw_s_3_1
    isplitr; · iexact Hrch_agccw_s_3_1
    isplitl [Htn_agccw_r_3_1]; · iexact Htn_agccw_r_3_1
    iexact Hrn_agccw_r_3_1
  iintro ⟨Hcs_agccw_s_3_1, HO⟩
  iclear HIo HIt
  -- wait recv ag cw t=3 b=0
  try sl_exec_parts
  ihave #HIo := (bigSepL_elim_idx ownQs _ 52 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 78) (W := _) (R := 0) (m := 0) (T := ∅)
      (by rw [Nat.zero_add, expect_agcw_r_3_0 X c])) $$ [Hc_agcw_r_3_0 HO Hat_agcw_r_3_0]
  · isplitr; · iexact HIo
    isplitl [Hc_agcw_r_3_0]; · iexact Hc_agcw_r_3_0
    isplitl [HO]; · iexact HO
    isplitr; · iapply (mayWait_rem (F := F) c 78 (by decide) _ (by show (76 : ℕ) < 2 + 78; decide)); iexact Hlev
    iexact Hat_agcw_r_3_0
  iintro ⟨HO, Hat_agcw_r_3_0, #Hrch_agcw_r_3_0_1, Hpay⟩
  iclear HIo
  ihave Hp := (Entails.of_eq (rest_single X _ _ _ (duties_agcw_r_3_0 X c) (payload_agcw_r_3_0 X c false))) $$ Hpay
  irename Hp => Hg_agcw_r_3_0
  -- wait send ag cw t=2 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 78) (W := _) (R := 1) (m := 0) (T := ∅)
      (by rw [Nat.zero_add, expect_agcw_s_0_1 X c])) $$ [Hcs_agcw_s_0_1 HO Hat_agcw_s_0]
  · isplitr; · iexact HIo
    isplitl [Hcs_agcw_s_0_1]; · iexact Hcs_agcw_s_0_1
    isplitl [HO]; · iexact HO
    isplitr; · iapply (mayWait_rem (F := F) c 78 (by decide) _ (by show (0 : ℕ) < 2 + 78; decide)); iexact Hlev
    iexact Hat_agcw_s_0
  iintro ⟨HO, Hat_agcw_s_0, #Hrch_agcw_s_0_2, Hpay⟩
  iclear HIo
  ihave Hp := (Entails.of_eq (rest_single X _ _ _ (duties_agcw_s_0_1 X c) (payload_agcw_s_0_1 X c false))) $$ Hpay
  irename Hp => Hback_agcw_r_1_0
  -- send ag cw t=4 b=0 (payment 78, device function 79)
  try sl_exec_parts
  ihave HO := (owes_congr (rem_peel_78 c)) $$ HO
  ihave #HIo := (bigSepL_elim_idx ownQs _ 8 (by decide)) $$ HInvOwn
  ihave #HIt := (bigSepL_elim_idx recvCw _ 38 (by decide)) $$ HInbCw
  iapply (@send_owns_at F _ X c (nxt c) ⟨k0_dev79 c, k0_dev79_lt c⟩ (dev79_eq c _) (rows oM (off true (c.val + 12) 0) (off_inb true _ 0)) (rows oM (off true (c.val + 12) 0) (off_inb true _ 0)) _ (qS cc0_scratch6 0 inb_S4_S1_0) (qR cc0_scratch7 4 0 inb_S15x2_S1x1_4_0) _ _ _ _ _ _ fullShare (doneV X true 0 (devAt c 12)) 2 (K (dcell c (qS cc0_scratch6 0 inb_S4_S1_0))) (K (dcell (nxt c) (qR cc0_scratch7 4 0 inb_S15x2_S1x1_4_0))) _ (rem c 79) _ (by rw [duties_agcw_s_0_2 X c]; exact Finset.mem_singleton_self _) (by rw [duties_agcw_r_4_0 X (nxt c)]; exact Finset.mem_singleton_self _) (by exact amount_agcw_s_0_2 X c false) (by exact amount_agcw_r_4_0 X (nxt c) false) (by rfl) (by exact payload_agcw_s_0_2 X c false) (by exact hp2_agcw_r_4_0 X c) (by rfl) (by routes)) $$ [Hg_agcw_r_3_0 Hd_agcw_r_4_0 HO Hts_agcw_s_0_2 Htn_agcw_r_4_0]
  · isplitr; · iexact HIo
    isplitr; · iexact HIt
    isplitl [Hg_agcw_r_3_0]; · iexact Hg_agcw_r_3_0
    isplitl [Hd_agcw_r_4_0]; · iexact Hd_agcw_r_4_0
    isplitl [HO]; · iexact HO
    isplitl [Hts_agcw_s_0_2]; · iexact Hts_agcw_s_0_2
    isplitr; · iexact Hrch_agcw_s_0_2
    isplitl [Htn_agcw_r_4_0]; · iexact Htn_agcw_r_4_0
    iexact Hrn_agcw_r_4_0
  iintro ⟨Hcs_agcw_s_0_2, HO⟩
  iclear HIo HIt
  -- wait recv ag ccw t=3 b=0
  try sl_exec_parts
  ihave #HIo := (bigSepL_elim_idx ownQs _ 112 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 79) (W := _) (R := 0) (m := 0) (T := ∅)
      (by rw [Nat.zero_add, expect_agccw_r_3_0 X c])) $$ [Hc_agccw_r_3_0 HO Hat_agccw_r_3_0]
  · isplitr; · iexact HIo
    isplitl [Hc_agccw_r_3_0]; · iexact Hc_agccw_r_3_0
    isplitl [HO]; · iexact HO
    isplitr; · iapply (mayWait_rem (F := F) c 79 (by decide) _ (by show (77 : ℕ) < 2 + 79; decide)); iexact Hlev
    iexact Hat_agccw_r_3_0
  iintro ⟨HO, Hat_agccw_r_3_0, #Hrch_agccw_r_3_0_1, Hpay⟩
  iclear HIo
  ihave Hp := (Entails.of_eq (rest_single X _ _ _ (duties_agccw_r_3_0 X c) (payload_agccw_r_3_0 X c false))) $$ Hpay
  irename Hp => Hg_agccw_r_3_0
  -- wait send ag ccw t=2 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 79) (W := _) (R := 1) (m := 0) (T := ∅)
      (by rw [Nat.zero_add, expect_agccw_s_0_1 X c])) $$ [Hcs_agccw_s_0_1 HO Hat_agccw_s_0]
  · isplitr; · iexact HIo
    isplitl [Hcs_agccw_s_0_1]; · iexact Hcs_agccw_s_0_1
    isplitl [HO]; · iexact HO
    isplitr; · iapply (mayWait_rem (F := F) c 79 (by decide) _ (by show (0 : ℕ) < 2 + 79; decide)); iexact Hlev
    iexact Hat_agccw_s_0
  iintro ⟨HO, Hat_agccw_s_0, #Hrch_agccw_s_0_2, Hpay⟩
  iclear HIo
  ihave Hp := (Entails.of_eq (rest_single X _ _ _ (duties_agccw_s_0_1 X c) (payload_agccw_s_0_1 X c false))) $$ Hpay
  irename Hp => Hback_agccw_r_1_0
  -- send ag ccw t=4 b=0 (payment 79, device function 80)
  try sl_exec_parts
  ihave HO := (owes_congr (rem_peel_79 c)) $$ HO
  ihave #HIo := (bigSepL_elim_idx ownQs _ 12 (by decide)) $$ HInvOwn
  ihave #HIt := (bigSepL_elim_idx recvCcw _ 38 (by decide)) $$ HInbCcw
  iapply (@send_owns_at F _ X c (prv c) ⟨k0_dev80 c, k0_dev80_lt c⟩ (dev80_eq c _) (rows oM (off false (c.val + 4) 0) (off_inb false _ 0)) (rows oM (off false (c.val + 4) 0) (off_inb false _ 0)) _ (qS cc0_scratch8 0 inb_S4_S1_0) (qR cc0_scratch9 4 0 inb_S15x2_S1x1_4_0) _ _ _ _ _ _ fullShare (doneV X false 0 (devAt c 4)) 2 (K (dcell c (qS cc0_scratch8 0 inb_S4_S1_0))) (K (dcell (prv c) (qR cc0_scratch9 4 0 inb_S15x2_S1x1_4_0))) _ (rem c 80) _ (by rw [duties_agccw_s_0_2 X c]; exact Finset.mem_singleton_self _) (by rw [duties_agccw_r_4_0 X (prv c)]; exact Finset.mem_singleton_self _) (by exact amount_agccw_s_0_2 X c false) (by exact amount_agccw_r_4_0 X (prv c) false) (by rfl) (by exact payload_agccw_s_0_2 X c false) (by exact hp2_agccw_r_4_0 X c) (by rfl) (by routes)) $$ [Hg_agccw_r_3_0 Hd_agccw_r_4_0 HO Hts_agccw_s_0_2 Htn_agccw_r_4_0]
  · isplitr; · iexact HIo
    isplitr; · iexact HIt
    isplitl [Hg_agccw_r_3_0]; · iexact Hg_agccw_r_3_0
    isplitl [Hd_agccw_r_4_0]; · iexact Hd_agccw_r_4_0
    isplitl [HO]; · iexact HO
    isplitl [Hts_agccw_s_0_2]; · iexact Hts_agccw_s_0_2
    isplitr; · iexact Hrch_agccw_s_0_2
    isplitl [Htn_agccw_r_4_0]; · iexact Htn_agccw_r_4_0
    iexact Hrn_agccw_r_4_0
  iintro ⟨Hcs_agccw_s_0_2, HO⟩
  iclear HIo HIt
  -- wait recv ag cw t=3 b=1
  try sl_exec_parts
  ihave #HIo := (bigSepL_elim_idx ownQs _ 53 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 80) (W := _) (R := 0) (m := 0) (T := ∅)
      (by rw [Nat.zero_add, expect_agcw_r_3_1 X c])) $$ [Hc_agcw_r_3_1 HO Hat_agcw_r_3_1]
  · isplitr; · iexact HIo
    isplitl [Hc_agcw_r_3_1]; · iexact Hc_agcw_r_3_1
    isplitl [HO]; · iexact HO
    isplitr; · iapply (mayWait_rem (F := F) c 80 (by decide) _ (by show (78 : ℕ) < 2 + 80; decide)); iexact Hlev
    iexact Hat_agcw_r_3_1
  iintro ⟨HO, Hat_agcw_r_3_1, #Hrch_agcw_r_3_1_1, Hpay⟩
  iclear HIo
  ihave Hp := (Entails.of_eq (rest_single X _ _ _ (duties_agcw_r_3_1 X c) (payload_agcw_r_3_1 X c false))) $$ Hpay
  irename Hp => Hg_agcw_r_3_1
  -- wait send ag cw t=2 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 80) (W := _) (R := 1) (m := 0) (T := ∅)
      (by rw [Nat.zero_add, expect_agcw_s_1_1 X c])) $$ [Hcs_agcw_s_1_1 HO Hat_agcw_s_1]
  · isplitr; · iexact HIo
    isplitl [Hcs_agcw_s_1_1]; · iexact Hcs_agcw_s_1_1
    isplitl [HO]; · iexact HO
    isplitr; · iapply (mayWait_rem (F := F) c 80 (by decide) _ (by show (0 : ℕ) < 2 + 80; decide)); iexact Hlev
    iexact Hat_agcw_s_1
  iintro ⟨HO, Hat_agcw_s_1, #Hrch_agcw_s_1_2, Hpay⟩
  iclear HIo
  ihave Hp := (Entails.of_eq (rest_single X _ _ _ (duties_agcw_s_1_1 X c) (payload_agcw_s_1_1 X c false))) $$ Hpay
  irename Hp => Hback_agcw_r_1_1
  -- send ag cw t=4 b=1 (payment 80, device function 81)
  try sl_exec_parts
  ihave HO := (owes_congr (rem_peel_80 c)) $$ HO
  ihave #HIo := (bigSepL_elim_idx ownQs _ 9 (by decide)) $$ HInvOwn
  ihave #HIt := (bigSepL_elim_idx recvCw _ 39 (by decide)) $$ HInbCw
  iapply (@send_owns_at F _ X c (nxt c) ⟨k0_dev81 c, k0_dev81_lt c⟩ (dev81_eq c _) (rows oM (off true (c.val + 12) 1) (off_inb true _ 1)) (rows oM (off true (c.val + 12) 1) (off_inb true _ 1)) _ (qS cc0_scratch6 1 inb_S4_S1_1) (qR cc0_scratch7 4 1 inb_S15x2_S1x1_4_1) _ _ _ _ _ _ fullShare (doneV X true 1 (devAt c 12)) 2 (K (dcell c (qS cc0_scratch6 1 inb_S4_S1_1))) (K (dcell (nxt c) (qR cc0_scratch7 4 1 inb_S15x2_S1x1_4_1))) _ (rem c 81) _ (by rw [duties_agcw_s_1_2 X c]; exact Finset.mem_singleton_self _) (by rw [duties_agcw_r_4_1 X (nxt c)]; exact Finset.mem_singleton_self _) (by exact amount_agcw_s_1_2 X c false) (by exact amount_agcw_r_4_1 X (nxt c) false) (by rfl) (by exact payload_agcw_s_1_2 X c false) (by exact hp2_agcw_r_4_1 X c) (by rfl) (by routes)) $$ [Hg_agcw_r_3_1 Hd_agcw_r_4_1 HO Hts_agcw_s_1_2 Htn_agcw_r_4_1]
  · isplitr; · iexact HIo
    isplitr; · iexact HIt
    isplitl [Hg_agcw_r_3_1]; · iexact Hg_agcw_r_3_1
    isplitl [Hd_agcw_r_4_1]; · iexact Hd_agcw_r_4_1
    isplitl [HO]; · iexact HO
    isplitl [Hts_agcw_s_1_2]; · iexact Hts_agcw_s_1_2
    isplitr; · iexact Hrch_agcw_s_1_2
    isplitl [Htn_agcw_r_4_1]; · iexact Htn_agcw_r_4_1
    iexact Hrn_agcw_r_4_1
  iintro ⟨Hcs_agcw_s_1_2, HO⟩
  iclear HIo HIt
  -- wait recv ag ccw t=3 b=1
  try sl_exec_parts
  ihave #HIo := (bigSepL_elim_idx ownQs _ 113 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 81) (W := _) (R := 0) (m := 0) (T := ∅)
      (by rw [Nat.zero_add, expect_agccw_r_3_1 X c])) $$ [Hc_agccw_r_3_1 HO Hat_agccw_r_3_1]
  · isplitr; · iexact HIo
    isplitl [Hc_agccw_r_3_1]; · iexact Hc_agccw_r_3_1
    isplitl [HO]; · iexact HO
    isplitr; · iapply (mayWait_rem (F := F) c 81 (by decide) _ (by show (79 : ℕ) < 2 + 81; decide)); iexact Hlev
    iexact Hat_agccw_r_3_1
  iintro ⟨HO, Hat_agccw_r_3_1, #Hrch_agccw_r_3_1_1, Hpay⟩
  iclear HIo
  ihave Hp := (Entails.of_eq (rest_single X _ _ _ (duties_agccw_r_3_1 X c) (payload_agccw_r_3_1 X c false))) $$ Hpay
  irename Hp => Hg_agccw_r_3_1
  -- wait send ag ccw t=2 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 81) (W := _) (R := 1) (m := 0) (T := ∅)
      (by rw [Nat.zero_add, expect_agccw_s_1_1 X c])) $$ [Hcs_agccw_s_1_1 HO Hat_agccw_s_1]
  · isplitr; · iexact HIo
    isplitl [Hcs_agccw_s_1_1]; · iexact Hcs_agccw_s_1_1
    isplitl [HO]; · iexact HO
    isplitr; · iapply (mayWait_rem (F := F) c 81 (by decide) _ (by show (0 : ℕ) < 2 + 81; decide)); iexact Hlev
    iexact Hat_agccw_s_1
  iintro ⟨HO, Hat_agccw_s_1, #Hrch_agccw_s_1_2, Hpay⟩
  iclear HIo
  ihave Hp := (Entails.of_eq (rest_single X _ _ _ (duties_agccw_s_1_1 X c) (payload_agccw_s_1_1 X c false))) $$ Hpay
  irename Hp => Hback_agccw_r_1_1
  -- send ag ccw t=4 b=1 (payment 81, device function 82)
  try sl_exec_parts
  ihave HO := (owes_congr (rem_peel_81 c)) $$ HO
  ihave #HIo := (bigSepL_elim_idx ownQs _ 13 (by decide)) $$ HInvOwn
  ihave #HIt := (bigSepL_elim_idx recvCcw _ 39 (by decide)) $$ HInbCcw
  iapply (@send_owns_at F _ X c (prv c) ⟨k0_dev82 c, k0_dev82_lt c⟩ (dev82_eq c _) (rows oM (off false (c.val + 4) 1) (off_inb false _ 1)) (rows oM (off false (c.val + 4) 1) (off_inb false _ 1)) _ (qS cc0_scratch8 1 inb_S4_S1_1) (qR cc0_scratch9 4 1 inb_S15x2_S1x1_4_1) _ _ _ _ _ _ fullShare (doneV X false 1 (devAt c 4)) 2 (K (dcell c (qS cc0_scratch8 1 inb_S4_S1_1))) (K (dcell (prv c) (qR cc0_scratch9 4 1 inb_S15x2_S1x1_4_1))) _ (rem c 82) _ (by rw [duties_agccw_s_1_2 X c]; exact Finset.mem_singleton_self _) (by rw [duties_agccw_r_4_1 X (prv c)]; exact Finset.mem_singleton_self _) (by exact amount_agccw_s_1_2 X c false) (by exact amount_agccw_r_4_1 X (prv c) false) (by rfl) (by exact payload_agccw_s_1_2 X c false) (by exact hp2_agccw_r_4_1 X c) (by rfl) (by routes)) $$ [Hg_agccw_r_3_1 Hd_agccw_r_4_1 HO Hts_agccw_s_1_2 Htn_agccw_r_4_1]
  · isplitr; · iexact HIo
    isplitr; · iexact HIt
    isplitl [Hg_agccw_r_3_1]; · iexact Hg_agccw_r_3_1
    isplitl [Hd_agccw_r_4_1]; · iexact Hd_agccw_r_4_1
    isplitl [HO]; · iexact HO
    isplitl [Hts_agccw_s_1_2]; · iexact Hts_agccw_s_1_2
    isplitr; · iexact Hrch_agccw_s_1_2
    isplitl [Htn_agccw_r_4_1]; · iexact Htn_agccw_r_4_1
    iexact Hrn_agccw_r_4_1
  iintro ⟨Hcs_agccw_s_1_2, HO⟩
  iclear HIo HIt
  -- wait recv ag cw t=4 b=0
  try sl_exec_parts
  ihave #HIo := (bigSepL_elim_idx ownQs _ 54 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 82) (W := _) (R := 0) (m := 0) (T := ∅)
      (by rw [Nat.zero_add, expect_agcw_r_4_0 X c])) $$ [Hc_agcw_r_4_0 HO Hat_agcw_r_4_0]
  · isplitr; · iexact HIo
    isplitl [Hc_agcw_r_4_0]; · iexact Hc_agcw_r_4_0
    isplitl [HO]; · iexact HO
    isplitr; · iapply (mayWait_rem (F := F) c 82 (by decide) _ (by show (80 : ℕ) < 2 + 82; decide)); iexact Hlev
    iexact Hat_agcw_r_4_0
  iintro ⟨HO, Hat_agcw_r_4_0, #Hrch_agcw_r_4_0_1, Hpay⟩
  iclear HIo
  ihave Hp := (Entails.of_eq (rest_single X _ _ _ (duties_agcw_r_4_0 X c) (payload_agcw_r_4_0 X c false))) $$ Hpay
  irename Hp => Hg_agcw_r_4_0
  -- wait send ag cw t=3 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 82) (W := _) (R := 1) (m := 0) (T := ∅)
      (by rw [Nat.zero_add, expect_agcw_s_2_1 X c])) $$ [Hcs_agcw_s_2_1 HO Hat_agcw_s_2]
  · isplitr; · iexact HIo
    isplitl [Hcs_agcw_s_2_1]; · iexact Hcs_agcw_s_2_1
    isplitl [HO]; · iexact HO
    isplitr; · iapply (mayWait_rem (F := F) c 82 (by decide) _ (by show (0 : ℕ) < 2 + 82; decide)); iexact Hlev
    iexact Hat_agcw_s_2
  iintro ⟨HO, Hat_agcw_s_2, #Hrch_agcw_s_2_2, Hpay⟩
  iclear HIo
  ihave Hp := (Entails.of_eq (rest_single X _ _ _ (duties_agcw_s_2_1 X c) (payload_agcw_s_2_1 X c false))) $$ Hpay
  irename Hp => Hback_agcw_r_2_0
  -- send ag cw t=5 b=0 (payment 82, device function 83)
  try sl_exec_parts
  ihave HO := (owes_congr (rem_peel_82 c)) $$ HO
  ihave #HIo := (bigSepL_elim_idx ownQs _ 10 (by decide)) $$ HInvOwn
  ihave #HIt := (bigSepL_elim_idx recvCw _ 40 (by decide)) $$ HInbCw
  iapply (@send_owns_at F _ X c (nxt c) ⟨k0_dev83 c, k0_dev83_lt c⟩ (dev83_eq c _) (rows oM (off true (c.val + 11) 0) (off_inb true _ 0)) (rows oM (off true (c.val + 11) 0) (off_inb true _ 0)) _ (qS cc0_scratch6 2 inb_S4_S1_2) (qR cc0_scratch7 5 0 inb_S15x2_S1x1_5_0) _ _ _ _ _ _ fullShare (doneV X true 0 (devAt c 11)) 2 (K (dcell c (qS cc0_scratch6 2 inb_S4_S1_2))) (K (dcell (nxt c) (qR cc0_scratch7 5 0 inb_S15x2_S1x1_5_0))) _ (rem c 83) _ (by rw [duties_agcw_s_2_2 X c]; exact Finset.mem_singleton_self _) (by rw [duties_agcw_r_5_0 X (nxt c)]; exact Finset.mem_singleton_self _) (by exact amount_agcw_s_2_2 X c false) (by exact amount_agcw_r_5_0 X (nxt c) false) (by rfl) (by exact payload_agcw_s_2_2 X c false) (by exact hp2_agcw_r_5_0 X c) (by rfl) (by routes)) $$ [Hg_agcw_r_4_0 Hd_agcw_r_5_0 HO Hts_agcw_s_2_2 Htn_agcw_r_5_0]
  · isplitr; · iexact HIo
    isplitr; · iexact HIt
    isplitl [Hg_agcw_r_4_0]; · iexact Hg_agcw_r_4_0
    isplitl [Hd_agcw_r_5_0]; · iexact Hd_agcw_r_5_0
    isplitl [HO]; · iexact HO
    isplitl [Hts_agcw_s_2_2]; · iexact Hts_agcw_s_2_2
    isplitr; · iexact Hrch_agcw_s_2_2
    isplitl [Htn_agcw_r_5_0]; · iexact Htn_agcw_r_5_0
    iexact Hrn_agcw_r_5_0
  iintro ⟨Hcs_agcw_s_2_2, HO⟩
  iclear HIo HIt
  -- wait recv ag ccw t=4 b=0
  try sl_exec_parts
  ihave #HIo := (bigSepL_elim_idx ownQs _ 114 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 83) (W := _) (R := 0) (m := 0) (T := ∅)
      (by rw [Nat.zero_add, expect_agccw_r_4_0 X c])) $$ [Hc_agccw_r_4_0 HO Hat_agccw_r_4_0]
  · isplitr; · iexact HIo
    isplitl [Hc_agccw_r_4_0]; · iexact Hc_agccw_r_4_0
    isplitl [HO]; · iexact HO
    isplitr; · iapply (mayWait_rem (F := F) c 83 (by decide) _ (by show (81 : ℕ) < 2 + 83; decide)); iexact Hlev
    iexact Hat_agccw_r_4_0
  iintro ⟨HO, Hat_agccw_r_4_0, #Hrch_agccw_r_4_0_1, Hpay⟩
  iclear HIo
  ihave Hp := (Entails.of_eq (rest_single X _ _ _ (duties_agccw_r_4_0 X c) (payload_agccw_r_4_0 X c false))) $$ Hpay
  irename Hp => Hg_agccw_r_4_0
  -- wait send ag ccw t=3 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 83) (W := _) (R := 1) (m := 0) (T := ∅)
      (by rw [Nat.zero_add, expect_agccw_s_2_1 X c])) $$ [Hcs_agccw_s_2_1 HO Hat_agccw_s_2]
  · isplitr; · iexact HIo
    isplitl [Hcs_agccw_s_2_1]; · iexact Hcs_agccw_s_2_1
    isplitl [HO]; · iexact HO
    isplitr; · iapply (mayWait_rem (F := F) c 83 (by decide) _ (by show (0 : ℕ) < 2 + 83; decide)); iexact Hlev
    iexact Hat_agccw_s_2
  iintro ⟨HO, Hat_agccw_s_2, #Hrch_agccw_s_2_2, Hpay⟩
  iclear HIo
  ihave Hp := (Entails.of_eq (rest_single X _ _ _ (duties_agccw_s_2_1 X c) (payload_agccw_s_2_1 X c false))) $$ Hpay
  irename Hp => Hback_agccw_r_2_0
  -- send ag ccw t=5 b=0 (payment 83, device function 84)
  try sl_exec_parts
  ihave HO := (owes_congr (rem_peel_83 c)) $$ HO
  ihave #HIo := (bigSepL_elim_idx ownQs _ 14 (by decide)) $$ HInvOwn
  ihave #HIt := (bigSepL_elim_idx recvCcw _ 40 (by decide)) $$ HInbCcw
  iapply (@send_owns_at F _ X c (prv c) ⟨k0_dev84 c, k0_dev84_lt c⟩ (dev84_eq c _) (rows oM (off false (c.val + 5) 0) (off_inb false _ 0)) (rows oM (off false (c.val + 5) 0) (off_inb false _ 0)) _ (qS cc0_scratch8 2 inb_S4_S1_2) (qR cc0_scratch9 5 0 inb_S15x2_S1x1_5_0) _ _ _ _ _ _ fullShare (doneV X false 0 (devAt c 5)) 2 (K (dcell c (qS cc0_scratch8 2 inb_S4_S1_2))) (K (dcell (prv c) (qR cc0_scratch9 5 0 inb_S15x2_S1x1_5_0))) _ (rem c 84) _ (by rw [duties_agccw_s_2_2 X c]; exact Finset.mem_singleton_self _) (by rw [duties_agccw_r_5_0 X (prv c)]; exact Finset.mem_singleton_self _) (by exact amount_agccw_s_2_2 X c false) (by exact amount_agccw_r_5_0 X (prv c) false) (by rfl) (by exact payload_agccw_s_2_2 X c false) (by exact hp2_agccw_r_5_0 X c) (by rfl) (by routes)) $$ [Hg_agccw_r_4_0 Hd_agccw_r_5_0 HO Hts_agccw_s_2_2 Htn_agccw_r_5_0]
  · isplitr; · iexact HIo
    isplitr; · iexact HIt
    isplitl [Hg_agccw_r_4_0]; · iexact Hg_agccw_r_4_0
    isplitl [Hd_agccw_r_5_0]; · iexact Hd_agccw_r_5_0
    isplitl [HO]; · iexact HO
    isplitl [Hts_agccw_s_2_2]; · iexact Hts_agccw_s_2_2
    isplitr; · iexact Hrch_agccw_s_2_2
    isplitl [Htn_agccw_r_5_0]; · iexact Htn_agccw_r_5_0
    iexact Hrn_agccw_r_5_0
  iintro ⟨Hcs_agccw_s_2_2, HO⟩
  iclear HIo HIt
  -- wait recv ag cw t=4 b=1
  try sl_exec_parts
  ihave #HIo := (bigSepL_elim_idx ownQs _ 55 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 84) (W := _) (R := 0) (m := 0) (T := ∅)
      (by rw [Nat.zero_add, expect_agcw_r_4_1 X c])) $$ [Hc_agcw_r_4_1 HO Hat_agcw_r_4_1]
  · isplitr; · iexact HIo
    isplitl [Hc_agcw_r_4_1]; · iexact Hc_agcw_r_4_1
    isplitl [HO]; · iexact HO
    isplitr; · iapply (mayWait_rem (F := F) c 84 (by decide) _ (by show (82 : ℕ) < 2 + 84; decide)); iexact Hlev
    iexact Hat_agcw_r_4_1
  iintro ⟨HO, Hat_agcw_r_4_1, #Hrch_agcw_r_4_1_1, Hpay⟩
  iclear HIo
  ihave Hp := (Entails.of_eq (rest_single X _ _ _ (duties_agcw_r_4_1 X c) (payload_agcw_r_4_1 X c false))) $$ Hpay
  irename Hp => Hg_agcw_r_4_1
  -- wait send ag cw t=3 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 84) (W := _) (R := 1) (m := 0) (T := ∅)
      (by rw [Nat.zero_add, expect_agcw_s_3_1 X c])) $$ [Hcs_agcw_s_3_1 HO Hat_agcw_s_3]
  · isplitr; · iexact HIo
    isplitl [Hcs_agcw_s_3_1]; · iexact Hcs_agcw_s_3_1
    isplitl [HO]; · iexact HO
    isplitr; · iapply (mayWait_rem (F := F) c 84 (by decide) _ (by show (0 : ℕ) < 2 + 84; decide)); iexact Hlev
    iexact Hat_agcw_s_3
  iintro ⟨HO, Hat_agcw_s_3, #Hrch_agcw_s_3_2, Hpay⟩
  iclear HIo
  ihave Hp := (Entails.of_eq (rest_single X _ _ _ (duties_agcw_s_3_1 X c) (payload_agcw_s_3_1 X c false))) $$ Hpay
  irename Hp => Hback_agcw_r_2_1
  -- send ag cw t=5 b=1 (payment 84, device function 85)
  try sl_exec_parts
  ihave HO := (owes_congr (rem_peel_84 c)) $$ HO
  ihave #HIo := (bigSepL_elim_idx ownQs _ 11 (by decide)) $$ HInvOwn
  ihave #HIt := (bigSepL_elim_idx recvCw _ 41 (by decide)) $$ HInbCw
  iapply (@send_owns_at F _ X c (nxt c) ⟨k0_dev85 c, k0_dev85_lt c⟩ (dev85_eq c _) (rows oM (off true (c.val + 11) 1) (off_inb true _ 1)) (rows oM (off true (c.val + 11) 1) (off_inb true _ 1)) _ (qS cc0_scratch6 3 inb_S4_S1_3) (qR cc0_scratch7 5 1 inb_S15x2_S1x1_5_1) _ _ _ _ _ _ fullShare (doneV X true 1 (devAt c 11)) 2 (K (dcell c (qS cc0_scratch6 3 inb_S4_S1_3))) (K (dcell (nxt c) (qR cc0_scratch7 5 1 inb_S15x2_S1x1_5_1))) _ (rem c 85) _ (by rw [duties_agcw_s_3_2 X c]; exact Finset.mem_singleton_self _) (by rw [duties_agcw_r_5_1 X (nxt c)]; exact Finset.mem_singleton_self _) (by exact amount_agcw_s_3_2 X c false) (by exact amount_agcw_r_5_1 X (nxt c) false) (by rfl) (by exact payload_agcw_s_3_2 X c false) (by exact hp2_agcw_r_5_1 X c) (by rfl) (by routes)) $$ [Hg_agcw_r_4_1 Hd_agcw_r_5_1 HO Hts_agcw_s_3_2 Htn_agcw_r_5_1]
  · isplitr; · iexact HIo
    isplitr; · iexact HIt
    isplitl [Hg_agcw_r_4_1]; · iexact Hg_agcw_r_4_1
    isplitl [Hd_agcw_r_5_1]; · iexact Hd_agcw_r_5_1
    isplitl [HO]; · iexact HO
    isplitl [Hts_agcw_s_3_2]; · iexact Hts_agcw_s_3_2
    isplitr; · iexact Hrch_agcw_s_3_2
    isplitl [Htn_agcw_r_5_1]; · iexact Htn_agcw_r_5_1
    iexact Hrn_agcw_r_5_1
  iintro ⟨Hcs_agcw_s_3_2, HO⟩
  iclear HIo HIt
  -- wait recv ag ccw t=4 b=1
  try sl_exec_parts
  ihave #HIo := (bigSepL_elim_idx ownQs _ 115 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 85) (W := _) (R := 0) (m := 0) (T := ∅)
      (by rw [Nat.zero_add, expect_agccw_r_4_1 X c])) $$ [Hc_agccw_r_4_1 HO Hat_agccw_r_4_1]
  · isplitr; · iexact HIo
    isplitl [Hc_agccw_r_4_1]; · iexact Hc_agccw_r_4_1
    isplitl [HO]; · iexact HO
    isplitr; · iapply (mayWait_rem (F := F) c 85 (by decide) _ (by show (83 : ℕ) < 2 + 85; decide)); iexact Hlev
    iexact Hat_agccw_r_4_1
  iintro ⟨HO, Hat_agccw_r_4_1, #Hrch_agccw_r_4_1_1, Hpay⟩
  iclear HIo
  ihave Hp := (Entails.of_eq (rest_single X _ _ _ (duties_agccw_r_4_1 X c) (payload_agccw_r_4_1 X c false))) $$ Hpay
  irename Hp => Hg_agccw_r_4_1
  -- wait send ag ccw t=3 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 85) (W := _) (R := 1) (m := 0) (T := ∅)
      (by rw [Nat.zero_add, expect_agccw_s_3_1 X c])) $$ [Hcs_agccw_s_3_1 HO Hat_agccw_s_3]
  · isplitr; · iexact HIo
    isplitl [Hcs_agccw_s_3_1]; · iexact Hcs_agccw_s_3_1
    isplitl [HO]; · iexact HO
    isplitr; · iapply (mayWait_rem (F := F) c 85 (by decide) _ (by show (0 : ℕ) < 2 + 85; decide)); iexact Hlev
    iexact Hat_agccw_s_3
  iintro ⟨HO, Hat_agccw_s_3, #Hrch_agccw_s_3_2, Hpay⟩
  iclear HIo
  ihave Hp := (Entails.of_eq (rest_single X _ _ _ (duties_agccw_s_3_1 X c) (payload_agccw_s_3_1 X c false))) $$ Hpay
  irename Hp => Hback_agccw_r_2_1
  -- send ag ccw t=5 b=1 (payment 85, device function 86)
  try sl_exec_parts
  ihave HO := (owes_congr (rem_peel_85 c)) $$ HO
  ihave #HIo := (bigSepL_elim_idx ownQs _ 15 (by decide)) $$ HInvOwn
  ihave #HIt := (bigSepL_elim_idx recvCcw _ 41 (by decide)) $$ HInbCcw
  iapply (@send_owns_at F _ X c (prv c) ⟨k0_dev86 c, k0_dev86_lt c⟩ (dev86_eq c _) (rows oM (off false (c.val + 5) 1) (off_inb false _ 1)) (rows oM (off false (c.val + 5) 1) (off_inb false _ 1)) _ (qS cc0_scratch8 3 inb_S4_S1_3) (qR cc0_scratch9 5 1 inb_S15x2_S1x1_5_1) _ _ _ _ _ _ fullShare (doneV X false 1 (devAt c 5)) 2 (K (dcell c (qS cc0_scratch8 3 inb_S4_S1_3))) (K (dcell (prv c) (qR cc0_scratch9 5 1 inb_S15x2_S1x1_5_1))) _ (rem c 86) _ (by rw [duties_agccw_s_3_2 X c]; exact Finset.mem_singleton_self _) (by rw [duties_agccw_r_5_1 X (prv c)]; exact Finset.mem_singleton_self _) (by exact amount_agccw_s_3_2 X c false) (by exact amount_agccw_r_5_1 X (prv c) false) (by rfl) (by exact payload_agccw_s_3_2 X c false) (by exact hp2_agccw_r_5_1 X c) (by rfl) (by routes)) $$ [Hg_agccw_r_4_1 Hd_agccw_r_5_1 HO Hts_agccw_s_3_2 Htn_agccw_r_5_1]
  · isplitr; · iexact HIo
    isplitr; · iexact HIt
    isplitl [Hg_agccw_r_4_1]; · iexact Hg_agccw_r_4_1
    isplitl [Hd_agccw_r_5_1]; · iexact Hd_agccw_r_5_1
    isplitl [HO]; · iexact HO
    isplitl [Hts_agccw_s_3_2]; · iexact Hts_agccw_s_3_2
    isplitr; · iexact Hrch_agccw_s_3_2
    isplitl [Htn_agccw_r_5_1]; · iexact Htn_agccw_r_5_1
    iexact Hrn_agccw_r_5_1
  iintro ⟨Hcs_agccw_s_3_2, HO⟩
  iclear HIo HIt
  -- wait recv ag cw t=5 b=0
  try sl_exec_parts
  ihave #HIo := (bigSepL_elim_idx ownQs _ 56 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 86) (W := _) (R := 0) (m := 0) (T := ∅)
      (by rw [Nat.zero_add, expect_agcw_r_5_0 X c])) $$ [Hc_agcw_r_5_0 HO Hat_agcw_r_5_0]
  · isplitr; · iexact HIo
    isplitl [Hc_agcw_r_5_0]; · iexact Hc_agcw_r_5_0
    isplitl [HO]; · iexact HO
    isplitr; · iapply (mayWait_rem (F := F) c 86 (by decide) _ (by show (84 : ℕ) < 2 + 86; decide)); iexact Hlev
    iexact Hat_agcw_r_5_0
  iintro ⟨HO, Hat_agcw_r_5_0, #Hrch_agcw_r_5_0_1, Hpay⟩
  iclear HIo
  ihave Hp := (Entails.of_eq (rest_single X _ _ _ (duties_agcw_r_5_0 X c) (payload_agcw_r_5_0 X c false))) $$ Hpay
  irename Hp => Hg_agcw_r_5_0
  -- wait send ag cw t=4 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 86) (W := _) (R := 2) (m := 0) (T := ∅)
      (by rw [Nat.zero_add, expect_agcw_s_0_2 X c])) $$ [Hcs_agcw_s_0_2 HO Hat_agcw_s_0]
  · isplitr; · iexact HIo
    isplitl [Hcs_agcw_s_0_2]; · iexact Hcs_agcw_s_0_2
    isplitl [HO]; · iexact HO
    isplitr; · iapply (mayWait_rem (F := F) c 86 (by decide) _ (by show (0 : ℕ) < 2 + 86; decide)); iexact Hlev
    iexact Hat_agcw_s_0
  iintro ⟨HO, Hat_agcw_s_0, #Hrch_agcw_s_0_3, Hpay⟩
  iclear HIo
  ihave Hp := (Entails.of_eq (rest_single X _ _ _ (duties_agcw_s_0_2 X c) (payload_agcw_s_0_2 X c false))) $$ Hpay
  irename Hp => Hback_agcw_r_3_0
  -- send ag cw t=6 b=0 (payment 86, device function 87)
  try sl_exec_parts
  ihave HO := (owes_congr (rem_peel_86 c)) $$ HO
  ihave #HIo := (bigSepL_elim_idx ownQs _ 8 (by decide)) $$ HInvOwn
  ihave #HIt := (bigSepL_elim_idx recvCw _ 42 (by decide)) $$ HInbCw
  iapply (@send_owns_at F _ X c (nxt c) ⟨k0_dev87 c, k0_dev87_lt c⟩ (dev87_eq c _) (rows oM (off true (c.val + 10) 0) (off_inb true _ 0)) (rows oM (off true (c.val + 10) 0) (off_inb true _ 0)) _ (qS cc0_scratch6 0 inb_S4_S1_0) (qR cc0_scratch7 6 0 inb_S15x2_S1x1_6_0) _ _ _ _ _ _ fullShare (doneV X true 0 (devAt c 10)) 3 (K (dcell c (qS cc0_scratch6 0 inb_S4_S1_0))) (K (dcell (nxt c) (qR cc0_scratch7 6 0 inb_S15x2_S1x1_6_0))) _ (rem c 87) _ (by rw [duties_agcw_s_0_3 X c]; exact Finset.mem_singleton_self _) (by rw [duties_agcw_r_6_0 X (nxt c)]; exact Finset.mem_singleton_self _) (by exact amount_agcw_s_0_3 X c false) (by exact amount_agcw_r_6_0 X (nxt c) false) (by rfl) (by exact payload_agcw_s_0_3 X c false) (by exact hp2_agcw_r_6_0 X c) (by rfl) (by routes)) $$ [Hg_agcw_r_5_0 Hd_agcw_r_6_0 HO Hts_agcw_s_0_3 Htn_agcw_r_6_0]
  · isplitr; · iexact HIo
    isplitr; · iexact HIt
    isplitl [Hg_agcw_r_5_0]; · iexact Hg_agcw_r_5_0
    isplitl [Hd_agcw_r_6_0]; · iexact Hd_agcw_r_6_0
    isplitl [HO]; · iexact HO
    isplitl [Hts_agcw_s_0_3]; · iexact Hts_agcw_s_0_3
    isplitr; · iexact Hrch_agcw_s_0_3
    isplitl [Htn_agcw_r_6_0]; · iexact Htn_agcw_r_6_0
    iexact Hrn_agcw_r_6_0
  iintro ⟨Hcs_agcw_s_0_3, HO⟩
  iclear HIo HIt
  -- wait recv ag ccw t=5 b=0
  try sl_exec_parts
  ihave #HIo := (bigSepL_elim_idx ownQs _ 116 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 87) (W := _) (R := 0) (m := 0) (T := ∅)
      (by rw [Nat.zero_add, expect_agccw_r_5_0 X c])) $$ [Hc_agccw_r_5_0 HO Hat_agccw_r_5_0]
  · isplitr; · iexact HIo
    isplitl [Hc_agccw_r_5_0]; · iexact Hc_agccw_r_5_0
    isplitl [HO]; · iexact HO
    isplitr; · iapply (mayWait_rem (F := F) c 87 (by decide) _ (by show (85 : ℕ) < 2 + 87; decide)); iexact Hlev
    iexact Hat_agccw_r_5_0
  iintro ⟨HO, Hat_agccw_r_5_0, #Hrch_agccw_r_5_0_1, Hpay⟩
  iclear HIo
  ihave Hp := (Entails.of_eq (rest_single X _ _ _ (duties_agccw_r_5_0 X c) (payload_agccw_r_5_0 X c false))) $$ Hpay
  irename Hp => Hg_agccw_r_5_0
  -- wait send ag ccw t=4 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 87) (W := _) (R := 2) (m := 0) (T := ∅)
      (by rw [Nat.zero_add, expect_agccw_s_0_2 X c])) $$ [Hcs_agccw_s_0_2 HO Hat_agccw_s_0]
  · isplitr; · iexact HIo
    isplitl [Hcs_agccw_s_0_2]; · iexact Hcs_agccw_s_0_2
    isplitl [HO]; · iexact HO
    isplitr; · iapply (mayWait_rem (F := F) c 87 (by decide) _ (by show (0 : ℕ) < 2 + 87; decide)); iexact Hlev
    iexact Hat_agccw_s_0
  iintro ⟨HO, Hat_agccw_s_0, #Hrch_agccw_s_0_3, Hpay⟩
  iclear HIo
  ihave Hp := (Entails.of_eq (rest_single X _ _ _ (duties_agccw_s_0_2 X c) (payload_agccw_s_0_2 X c false))) $$ Hpay
  irename Hp => Hback_agccw_r_3_0
  -- send ag ccw t=6 b=0 (payment 87, device function 88)
  try sl_exec_parts
  ihave HO := (owes_congr (rem_peel_87 c)) $$ HO
  ihave #HIo := (bigSepL_elim_idx ownQs _ 12 (by decide)) $$ HInvOwn
  ihave #HIt := (bigSepL_elim_idx recvCcw _ 42 (by decide)) $$ HInbCcw
  iapply (@send_owns_at F _ X c (prv c) ⟨k0_dev88 c, k0_dev88_lt c⟩ (dev88_eq c _) (rows oM (off false (c.val + 6) 0) (off_inb false _ 0)) (rows oM (off false (c.val + 6) 0) (off_inb false _ 0)) _ (qS cc0_scratch8 0 inb_S4_S1_0) (qR cc0_scratch9 6 0 inb_S15x2_S1x1_6_0) _ _ _ _ _ _ fullShare (doneV X false 0 (devAt c 6)) 3 (K (dcell c (qS cc0_scratch8 0 inb_S4_S1_0))) (K (dcell (prv c) (qR cc0_scratch9 6 0 inb_S15x2_S1x1_6_0))) _ (rem c 88) _ (by rw [duties_agccw_s_0_3 X c]; exact Finset.mem_singleton_self _) (by rw [duties_agccw_r_6_0 X (prv c)]; exact Finset.mem_singleton_self _) (by exact amount_agccw_s_0_3 X c false) (by exact amount_agccw_r_6_0 X (prv c) false) (by rfl) (by exact payload_agccw_s_0_3 X c false) (by exact hp2_agccw_r_6_0 X c) (by rfl) (by routes)) $$ [Hg_agccw_r_5_0 Hd_agccw_r_6_0 HO Hts_agccw_s_0_3 Htn_agccw_r_6_0]
  · isplitr; · iexact HIo
    isplitr; · iexact HIt
    isplitl [Hg_agccw_r_5_0]; · iexact Hg_agccw_r_5_0
    isplitl [Hd_agccw_r_6_0]; · iexact Hd_agccw_r_6_0
    isplitl [HO]; · iexact HO
    isplitl [Hts_agccw_s_0_3]; · iexact Hts_agccw_s_0_3
    isplitr; · iexact Hrch_agccw_s_0_3
    isplitl [Htn_agccw_r_6_0]; · iexact Htn_agccw_r_6_0
    iexact Hrn_agccw_r_6_0
  iintro ⟨Hcs_agccw_s_0_3, HO⟩
  iclear HIo HIt
  -- wait recv ag cw t=5 b=1
  try sl_exec_parts
  ihave #HIo := (bigSepL_elim_idx ownQs _ 57 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 88) (W := _) (R := 0) (m := 0) (T := ∅)
      (by rw [Nat.zero_add, expect_agcw_r_5_1 X c])) $$ [Hc_agcw_r_5_1 HO Hat_agcw_r_5_1]
  · isplitr; · iexact HIo
    isplitl [Hc_agcw_r_5_1]; · iexact Hc_agcw_r_5_1
    isplitl [HO]; · iexact HO
    isplitr; · iapply (mayWait_rem (F := F) c 88 (by decide) _ (by show (86 : ℕ) < 2 + 88; decide)); iexact Hlev
    iexact Hat_agcw_r_5_1
  iintro ⟨HO, Hat_agcw_r_5_1, #Hrch_agcw_r_5_1_1, Hpay⟩
  iclear HIo
  ihave Hp := (Entails.of_eq (rest_single X _ _ _ (duties_agcw_r_5_1 X c) (payload_agcw_r_5_1 X c false))) $$ Hpay
  irename Hp => Hg_agcw_r_5_1
  -- wait send ag cw t=4 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 88) (W := _) (R := 2) (m := 0) (T := ∅)
      (by rw [Nat.zero_add, expect_agcw_s_1_2 X c])) $$ [Hcs_agcw_s_1_2 HO Hat_agcw_s_1]
  · isplitr; · iexact HIo
    isplitl [Hcs_agcw_s_1_2]; · iexact Hcs_agcw_s_1_2
    isplitl [HO]; · iexact HO
    isplitr; · iapply (mayWait_rem (F := F) c 88 (by decide) _ (by show (0 : ℕ) < 2 + 88; decide)); iexact Hlev
    iexact Hat_agcw_s_1
  iintro ⟨HO, Hat_agcw_s_1, #Hrch_agcw_s_1_3, Hpay⟩
  iclear HIo
  ihave Hp := (Entails.of_eq (rest_single X _ _ _ (duties_agcw_s_1_2 X c) (payload_agcw_s_1_2 X c false))) $$ Hpay
  irename Hp => Hback_agcw_r_3_1
  -- send ag cw t=6 b=1 (payment 88, device function 89)
  try sl_exec_parts
  ihave HO := (owes_congr (rem_peel_88 c)) $$ HO
  ihave #HIo := (bigSepL_elim_idx ownQs _ 9 (by decide)) $$ HInvOwn
  ihave #HIt := (bigSepL_elim_idx recvCw _ 43 (by decide)) $$ HInbCw
  iapply (@send_owns_at F _ X c (nxt c) ⟨k0_dev89 c, k0_dev89_lt c⟩ (dev89_eq c _) (rows oM (off true (c.val + 10) 1) (off_inb true _ 1)) (rows oM (off true (c.val + 10) 1) (off_inb true _ 1)) _ (qS cc0_scratch6 1 inb_S4_S1_1) (qR cc0_scratch7 6 1 inb_S15x2_S1x1_6_1) _ _ _ _ _ _ fullShare (doneV X true 1 (devAt c 10)) 3 (K (dcell c (qS cc0_scratch6 1 inb_S4_S1_1))) (K (dcell (nxt c) (qR cc0_scratch7 6 1 inb_S15x2_S1x1_6_1))) _ (rem c 89) _ (by rw [duties_agcw_s_1_3 X c]; exact Finset.mem_singleton_self _) (by rw [duties_agcw_r_6_1 X (nxt c)]; exact Finset.mem_singleton_self _) (by exact amount_agcw_s_1_3 X c false) (by exact amount_agcw_r_6_1 X (nxt c) false) (by rfl) (by exact payload_agcw_s_1_3 X c false) (by exact hp2_agcw_r_6_1 X c) (by rfl) (by routes)) $$ [Hg_agcw_r_5_1 Hd_agcw_r_6_1 HO Hts_agcw_s_1_3 Htn_agcw_r_6_1]
  · isplitr; · iexact HIo
    isplitr; · iexact HIt
    isplitl [Hg_agcw_r_5_1]; · iexact Hg_agcw_r_5_1
    isplitl [Hd_agcw_r_6_1]; · iexact Hd_agcw_r_6_1
    isplitl [HO]; · iexact HO
    isplitl [Hts_agcw_s_1_3]; · iexact Hts_agcw_s_1_3
    isplitr; · iexact Hrch_agcw_s_1_3
    isplitl [Htn_agcw_r_6_1]; · iexact Htn_agcw_r_6_1
    iexact Hrn_agcw_r_6_1
  iintro ⟨Hcs_agcw_s_1_3, HO⟩
  iclear HIo HIt
  -- wait recv ag ccw t=5 b=1
  try sl_exec_parts
  ihave #HIo := (bigSepL_elim_idx ownQs _ 117 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 89) (W := _) (R := 0) (m := 0) (T := ∅)
      (by rw [Nat.zero_add, expect_agccw_r_5_1 X c])) $$ [Hc_agccw_r_5_1 HO Hat_agccw_r_5_1]
  · isplitr; · iexact HIo
    isplitl [Hc_agccw_r_5_1]; · iexact Hc_agccw_r_5_1
    isplitl [HO]; · iexact HO
    isplitr; · iapply (mayWait_rem (F := F) c 89 (by decide) _ (by show (87 : ℕ) < 2 + 89; decide)); iexact Hlev
    iexact Hat_agccw_r_5_1
  iintro ⟨HO, Hat_agccw_r_5_1, #Hrch_agccw_r_5_1_1, Hpay⟩
  iclear HIo
  ihave Hp := (Entails.of_eq (rest_single X _ _ _ (duties_agccw_r_5_1 X c) (payload_agccw_r_5_1 X c false))) $$ Hpay
  irename Hp => Hg_agccw_r_5_1
  -- wait send ag ccw t=4 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 89) (W := _) (R := 2) (m := 0) (T := ∅)
      (by rw [Nat.zero_add, expect_agccw_s_1_2 X c])) $$ [Hcs_agccw_s_1_2 HO Hat_agccw_s_1]
  · isplitr; · iexact HIo
    isplitl [Hcs_agccw_s_1_2]; · iexact Hcs_agccw_s_1_2
    isplitl [HO]; · iexact HO
    isplitr; · iapply (mayWait_rem (F := F) c 89 (by decide) _ (by show (0 : ℕ) < 2 + 89; decide)); iexact Hlev
    iexact Hat_agccw_s_1
  iintro ⟨HO, Hat_agccw_s_1, #Hrch_agccw_s_1_3, Hpay⟩
  iclear HIo
  ihave Hp := (Entails.of_eq (rest_single X _ _ _ (duties_agccw_s_1_2 X c) (payload_agccw_s_1_2 X c false))) $$ Hpay
  irename Hp => Hback_agccw_r_3_1
  -- send ag ccw t=6 b=1 (payment 89, device function 90)
  try sl_exec_parts
  ihave HO := (owes_congr (rem_peel_89 c)) $$ HO
  ihave #HIo := (bigSepL_elim_idx ownQs _ 13 (by decide)) $$ HInvOwn
  ihave #HIt := (bigSepL_elim_idx recvCcw _ 43 (by decide)) $$ HInbCcw
  iapply (@send_owns_at F _ X c (prv c) ⟨k0_dev90 c, k0_dev90_lt c⟩ (dev90_eq c _) (rows oM (off false (c.val + 6) 1) (off_inb false _ 1)) (rows oM (off false (c.val + 6) 1) (off_inb false _ 1)) _ (qS cc0_scratch8 1 inb_S4_S1_1) (qR cc0_scratch9 6 1 inb_S15x2_S1x1_6_1) _ _ _ _ _ _ fullShare (doneV X false 1 (devAt c 6)) 3 (K (dcell c (qS cc0_scratch8 1 inb_S4_S1_1))) (K (dcell (prv c) (qR cc0_scratch9 6 1 inb_S15x2_S1x1_6_1))) _ (rem c 90) _ (by rw [duties_agccw_s_1_3 X c]; exact Finset.mem_singleton_self _) (by rw [duties_agccw_r_6_1 X (prv c)]; exact Finset.mem_singleton_self _) (by exact amount_agccw_s_1_3 X c false) (by exact amount_agccw_r_6_1 X (prv c) false) (by rfl) (by exact payload_agccw_s_1_3 X c false) (by exact hp2_agccw_r_6_1 X c) (by rfl) (by routes)) $$ [Hg_agccw_r_5_1 Hd_agccw_r_6_1 HO Hts_agccw_s_1_3 Htn_agccw_r_6_1]
  · isplitr; · iexact HIo
    isplitr; · iexact HIt
    isplitl [Hg_agccw_r_5_1]; · iexact Hg_agccw_r_5_1
    isplitl [Hd_agccw_r_6_1]; · iexact Hd_agccw_r_6_1
    isplitl [HO]; · iexact HO
    isplitl [Hts_agccw_s_1_3]; · iexact Hts_agccw_s_1_3
    isplitr; · iexact Hrch_agccw_s_1_3
    isplitl [Htn_agccw_r_6_1]; · iexact Htn_agccw_r_6_1
    iexact Hrn_agccw_r_6_1
  iintro ⟨Hcs_agccw_s_1_3, HO⟩
  iclear HIo HIt
  -- wait recv ag cw t=6 b=0
  try sl_exec_parts
  ihave #HIo := (bigSepL_elim_idx ownQs _ 58 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 90) (W := _) (R := 0) (m := 0) (T := ∅)
      (by rw [Nat.zero_add, expect_agcw_r_6_0 X c])) $$ [Hc_agcw_r_6_0 HO Hat_agcw_r_6_0]
  · isplitr; · iexact HIo
    isplitl [Hc_agcw_r_6_0]; · iexact Hc_agcw_r_6_0
    isplitl [HO]; · iexact HO
    isplitr; · iapply (mayWait_rem (F := F) c 90 (by decide) _ (by show (88 : ℕ) < 2 + 90; decide)); iexact Hlev
    iexact Hat_agcw_r_6_0
  iintro ⟨HO, Hat_agcw_r_6_0, #Hrch_agcw_r_6_0_1, Hpay⟩
  iclear HIo
  ihave Hp := (Entails.of_eq (rest_single X _ _ _ (duties_agcw_r_6_0 X c) (payload_agcw_r_6_0 X c false))) $$ Hpay
  irename Hp => Hg_agcw_r_6_0
  -- wait send ag cw t=5 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 90) (W := _) (R := 2) (m := 0) (T := ∅)
      (by rw [Nat.zero_add, expect_agcw_s_2_2 X c])) $$ [Hcs_agcw_s_2_2 HO Hat_agcw_s_2]
  · isplitr; · iexact HIo
    isplitl [Hcs_agcw_s_2_2]; · iexact Hcs_agcw_s_2_2
    isplitl [HO]; · iexact HO
    isplitr; · iapply (mayWait_rem (F := F) c 90 (by decide) _ (by show (0 : ℕ) < 2 + 90; decide)); iexact Hlev
    iexact Hat_agcw_s_2
  iintro ⟨HO, Hat_agcw_s_2, #Hrch_agcw_s_2_3, Hpay⟩
  iclear HIo
  ihave Hp := (Entails.of_eq (rest_single X _ _ _ (duties_agcw_s_2_2 X c) (payload_agcw_s_2_2 X c false))) $$ Hpay
  irename Hp => Hback_agcw_r_4_0
  -- send ag cw t=7 b=0 (payment 90, device function 91)
  try sl_exec_parts
  ihave HO := (owes_congr (rem_peel_90 c)) $$ HO
  ihave #HIo := (bigSepL_elim_idx ownQs _ 10 (by decide)) $$ HInvOwn
  ihave #HIt := (bigSepL_elim_idx recvCw _ 44 (by decide)) $$ HInbCw
  iapply (@send_owns_at F _ X c (nxt c) ⟨k0_dev91 c, k0_dev91_lt c⟩ (dev91_eq c _) (rows oM (off true (c.val + 9) 0) (off_inb true _ 0)) (rows oM (off true (c.val + 9) 0) (off_inb true _ 0)) _ (qS cc0_scratch6 2 inb_S4_S1_2) (qR cc0_scratch7 7 0 inb_S15x2_S1x1_7_0) _ _ _ _ _ _ fullShare (doneV X true 0 (devAt c 9)) 3 (K (dcell c (qS cc0_scratch6 2 inb_S4_S1_2))) (K (dcell (nxt c) (qR cc0_scratch7 7 0 inb_S15x2_S1x1_7_0))) _ (rem c 91) _ (by rw [duties_agcw_s_2_3 X c]; exact Finset.mem_singleton_self _) (by rw [duties_agcw_r_7_0 X (nxt c)]; exact Finset.mem_singleton_self _) (by exact amount_agcw_s_2_3 X c false) (by exact amount_agcw_r_7_0 X (nxt c) false) (by rfl) (by exact payload_agcw_s_2_3 X c false) (by exact hp2_agcw_r_7_0 X c) (by rfl) (by routes)) $$ [Hg_agcw_r_6_0 Hd_agcw_r_7_0 HO Hts_agcw_s_2_3 Htn_agcw_r_7_0]
  · isplitr; · iexact HIo
    isplitr; · iexact HIt
    isplitl [Hg_agcw_r_6_0]; · iexact Hg_agcw_r_6_0
    isplitl [Hd_agcw_r_7_0]; · iexact Hd_agcw_r_7_0
    isplitl [HO]; · iexact HO
    isplitl [Hts_agcw_s_2_3]; · iexact Hts_agcw_s_2_3
    isplitr; · iexact Hrch_agcw_s_2_3
    isplitl [Htn_agcw_r_7_0]; · iexact Htn_agcw_r_7_0
    iexact Hrn_agcw_r_7_0
  iintro ⟨Hcs_agcw_s_2_3, HO⟩
  iclear HIo HIt
  -- wait recv ag ccw t=6 b=0
  try sl_exec_parts
  ihave #HIo := (bigSepL_elim_idx ownQs _ 118 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 91) (W := _) (R := 0) (m := 0) (T := ∅)
      (by rw [Nat.zero_add, expect_agccw_r_6_0 X c])) $$ [Hc_agccw_r_6_0 HO Hat_agccw_r_6_0]
  · isplitr; · iexact HIo
    isplitl [Hc_agccw_r_6_0]; · iexact Hc_agccw_r_6_0
    isplitl [HO]; · iexact HO
    isplitr; · iapply (mayWait_rem (F := F) c 91 (by decide) _ (by show (89 : ℕ) < 2 + 91; decide)); iexact Hlev
    iexact Hat_agccw_r_6_0
  iintro ⟨HO, Hat_agccw_r_6_0, #Hrch_agccw_r_6_0_1, Hpay⟩
  iclear HIo
  ihave Hp := (Entails.of_eq (rest_single X _ _ _ (duties_agccw_r_6_0 X c) (payload_agccw_r_6_0 X c false))) $$ Hpay
  irename Hp => Hg_agccw_r_6_0
  -- wait send ag ccw t=5 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 91) (W := _) (R := 2) (m := 0) (T := ∅)
      (by rw [Nat.zero_add, expect_agccw_s_2_2 X c])) $$ [Hcs_agccw_s_2_2 HO Hat_agccw_s_2]
  · isplitr; · iexact HIo
    isplitl [Hcs_agccw_s_2_2]; · iexact Hcs_agccw_s_2_2
    isplitl [HO]; · iexact HO
    isplitr; · iapply (mayWait_rem (F := F) c 91 (by decide) _ (by show (0 : ℕ) < 2 + 91; decide)); iexact Hlev
    iexact Hat_agccw_s_2
  iintro ⟨HO, Hat_agccw_s_2, #Hrch_agccw_s_2_3, Hpay⟩
  iclear HIo
  ihave Hp := (Entails.of_eq (rest_single X _ _ _ (duties_agccw_s_2_2 X c) (payload_agccw_s_2_2 X c false))) $$ Hpay
  irename Hp => Hback_agccw_r_4_0
  -- send ag ccw t=7 b=0 (payment 91, device function 92)
  try sl_exec_parts
  ihave HO := (owes_congr (rem_peel_91 c)) $$ HO
  ihave #HIo := (bigSepL_elim_idx ownQs _ 14 (by decide)) $$ HInvOwn
  ihave #HIt := (bigSepL_elim_idx recvCcw _ 44 (by decide)) $$ HInbCcw
  iapply (@send_owns_at F _ X c (prv c) ⟨k0_dev92 c, k0_dev92_lt c⟩ (dev92_eq c _) (rows oM (off false (c.val + 7) 0) (off_inb false _ 0)) (rows oM (off false (c.val + 7) 0) (off_inb false _ 0)) _ (qS cc0_scratch8 2 inb_S4_S1_2) (qR cc0_scratch9 7 0 inb_S15x2_S1x1_7_0) _ _ _ _ _ _ fullShare (doneV X false 0 (devAt c 7)) 3 (K (dcell c (qS cc0_scratch8 2 inb_S4_S1_2))) (K (dcell (prv c) (qR cc0_scratch9 7 0 inb_S15x2_S1x1_7_0))) _ (rem c 92) _ (by rw [duties_agccw_s_2_3 X c]; exact Finset.mem_singleton_self _) (by rw [duties_agccw_r_7_0 X (prv c)]; exact Finset.mem_singleton_self _) (by exact amount_agccw_s_2_3 X c false) (by exact amount_agccw_r_7_0 X (prv c) false) (by rfl) (by exact payload_agccw_s_2_3 X c false) (by exact hp2_agccw_r_7_0 X c) (by rfl) (by routes)) $$ [Hg_agccw_r_6_0 Hd_agccw_r_7_0 HO Hts_agccw_s_2_3 Htn_agccw_r_7_0]
  · isplitr; · iexact HIo
    isplitr; · iexact HIt
    isplitl [Hg_agccw_r_6_0]; · iexact Hg_agccw_r_6_0
    isplitl [Hd_agccw_r_7_0]; · iexact Hd_agccw_r_7_0
    isplitl [HO]; · iexact HO
    isplitl [Hts_agccw_s_2_3]; · iexact Hts_agccw_s_2_3
    isplitr; · iexact Hrch_agccw_s_2_3
    isplitl [Htn_agccw_r_7_0]; · iexact Htn_agccw_r_7_0
    iexact Hrn_agccw_r_7_0
  iintro ⟨Hcs_agccw_s_2_3, HO⟩
  iclear HIo HIt
  -- wait recv ag cw t=6 b=1
  try sl_exec_parts
  ihave #HIo := (bigSepL_elim_idx ownQs _ 59 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 92) (W := _) (R := 0) (m := 0) (T := ∅)
      (by rw [Nat.zero_add, expect_agcw_r_6_1 X c])) $$ [Hc_agcw_r_6_1 HO Hat_agcw_r_6_1]
  · isplitr; · iexact HIo
    isplitl [Hc_agcw_r_6_1]; · iexact Hc_agcw_r_6_1
    isplitl [HO]; · iexact HO
    isplitr; · iapply (mayWait_rem (F := F) c 92 (by decide) _ (by show (90 : ℕ) < 2 + 92; decide)); iexact Hlev
    iexact Hat_agcw_r_6_1
  iintro ⟨HO, Hat_agcw_r_6_1, #Hrch_agcw_r_6_1_1, Hpay⟩
  iclear HIo
  ihave Hp := (Entails.of_eq (rest_single X _ _ _ (duties_agcw_r_6_1 X c) (payload_agcw_r_6_1 X c false))) $$ Hpay
  irename Hp => Hg_agcw_r_6_1
  -- wait send ag cw t=5 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 92) (W := _) (R := 2) (m := 0) (T := ∅)
      (by rw [Nat.zero_add, expect_agcw_s_3_2 X c])) $$ [Hcs_agcw_s_3_2 HO Hat_agcw_s_3]
  · isplitr; · iexact HIo
    isplitl [Hcs_agcw_s_3_2]; · iexact Hcs_agcw_s_3_2
    isplitl [HO]; · iexact HO
    isplitr; · iapply (mayWait_rem (F := F) c 92 (by decide) _ (by show (0 : ℕ) < 2 + 92; decide)); iexact Hlev
    iexact Hat_agcw_s_3
  iintro ⟨HO, Hat_agcw_s_3, #Hrch_agcw_s_3_3, Hpay⟩
  iclear HIo
  ihave Hp := (Entails.of_eq (rest_single X _ _ _ (duties_agcw_s_3_2 X c) (payload_agcw_s_3_2 X c false))) $$ Hpay
  irename Hp => Hback_agcw_r_4_1
  -- send ag cw t=7 b=1 (payment 92, device function 93)
  try sl_exec_parts
  ihave HO := (owes_congr (rem_peel_92 c)) $$ HO
  ihave #HIo := (bigSepL_elim_idx ownQs _ 11 (by decide)) $$ HInvOwn
  ihave #HIt := (bigSepL_elim_idx recvCw _ 45 (by decide)) $$ HInbCw
  iapply (@send_owns_at F _ X c (nxt c) ⟨k0_dev93 c, k0_dev93_lt c⟩ (dev93_eq c _) (rows oM (off true (c.val + 9) 1) (off_inb true _ 1)) (rows oM (off true (c.val + 9) 1) (off_inb true _ 1)) _ (qS cc0_scratch6 3 inb_S4_S1_3) (qR cc0_scratch7 7 1 inb_S15x2_S1x1_7_1) _ _ _ _ _ _ fullShare (doneV X true 1 (devAt c 9)) 3 (K (dcell c (qS cc0_scratch6 3 inb_S4_S1_3))) (K (dcell (nxt c) (qR cc0_scratch7 7 1 inb_S15x2_S1x1_7_1))) _ (rem c 93) _ (by rw [duties_agcw_s_3_3 X c]; exact Finset.mem_singleton_self _) (by rw [duties_agcw_r_7_1 X (nxt c)]; exact Finset.mem_singleton_self _) (by exact amount_agcw_s_3_3 X c false) (by exact amount_agcw_r_7_1 X (nxt c) false) (by rfl) (by exact payload_agcw_s_3_3 X c false) (by exact hp2_agcw_r_7_1 X c) (by rfl) (by routes)) $$ [Hg_agcw_r_6_1 Hd_agcw_r_7_1 HO Hts_agcw_s_3_3 Htn_agcw_r_7_1]
  · isplitr; · iexact HIo
    isplitr; · iexact HIt
    isplitl [Hg_agcw_r_6_1]; · iexact Hg_agcw_r_6_1
    isplitl [Hd_agcw_r_7_1]; · iexact Hd_agcw_r_7_1
    isplitl [HO]; · iexact HO
    isplitl [Hts_agcw_s_3_3]; · iexact Hts_agcw_s_3_3
    isplitr; · iexact Hrch_agcw_s_3_3
    isplitl [Htn_agcw_r_7_1]; · iexact Htn_agcw_r_7_1
    iexact Hrn_agcw_r_7_1
  iintro ⟨Hcs_agcw_s_3_3, HO⟩
  iclear HIo HIt
  -- wait recv ag ccw t=6 b=1
  try sl_exec_parts
  ihave #HIo := (bigSepL_elim_idx ownQs _ 119 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 93) (W := _) (R := 0) (m := 0) (T := ∅)
      (by rw [Nat.zero_add, expect_agccw_r_6_1 X c])) $$ [Hc_agccw_r_6_1 HO Hat_agccw_r_6_1]
  · isplitr; · iexact HIo
    isplitl [Hc_agccw_r_6_1]; · iexact Hc_agccw_r_6_1
    isplitl [HO]; · iexact HO
    isplitr; · iapply (mayWait_rem (F := F) c 93 (by decide) _ (by show (91 : ℕ) < 2 + 93; decide)); iexact Hlev
    iexact Hat_agccw_r_6_1
  iintro ⟨HO, Hat_agccw_r_6_1, #Hrch_agccw_r_6_1_1, Hpay⟩
  iclear HIo
  ihave Hp := (Entails.of_eq (rest_single X _ _ _ (duties_agccw_r_6_1 X c) (payload_agccw_r_6_1 X c false))) $$ Hpay
  irename Hp => Hg_agccw_r_6_1
  -- wait send ag ccw t=5 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 93) (W := _) (R := 2) (m := 0) (T := ∅)
      (by rw [Nat.zero_add, expect_agccw_s_3_2 X c])) $$ [Hcs_agccw_s_3_2 HO Hat_agccw_s_3]
  · isplitr; · iexact HIo
    isplitl [Hcs_agccw_s_3_2]; · iexact Hcs_agccw_s_3_2
    isplitl [HO]; · iexact HO
    isplitr; · iapply (mayWait_rem (F := F) c 93 (by decide) _ (by show (0 : ℕ) < 2 + 93; decide)); iexact Hlev
    iexact Hat_agccw_s_3
  iintro ⟨HO, Hat_agccw_s_3, #Hrch_agccw_s_3_3, Hpay⟩
  iclear HIo
  ihave Hp := (Entails.of_eq (rest_single X _ _ _ (duties_agccw_s_3_2 X c) (payload_agccw_s_3_2 X c false))) $$ Hpay
  irename Hp => Hback_agccw_r_4_1
  -- send ag ccw t=7 b=1 (payment 93, device function 94)
  try sl_exec_parts
  ihave HO := (owes_congr (rem_peel_93 c)) $$ HO
  ihave #HIo := (bigSepL_elim_idx ownQs _ 15 (by decide)) $$ HInvOwn
  ihave #HIt := (bigSepL_elim_idx recvCcw _ 45 (by decide)) $$ HInbCcw
  iapply (@send_owns_at F _ X c (prv c) ⟨k0_dev94 c, k0_dev94_lt c⟩ (dev94_eq c _) (rows oM (off false (c.val + 7) 1) (off_inb false _ 1)) (rows oM (off false (c.val + 7) 1) (off_inb false _ 1)) _ (qS cc0_scratch8 3 inb_S4_S1_3) (qR cc0_scratch9 7 1 inb_S15x2_S1x1_7_1) _ _ _ _ _ _ fullShare (doneV X false 1 (devAt c 7)) 3 (K (dcell c (qS cc0_scratch8 3 inb_S4_S1_3))) (K (dcell (prv c) (qR cc0_scratch9 7 1 inb_S15x2_S1x1_7_1))) _ (rem c 94) _ (by rw [duties_agccw_s_3_3 X c]; exact Finset.mem_singleton_self _) (by rw [duties_agccw_r_7_1 X (prv c)]; exact Finset.mem_singleton_self _) (by exact amount_agccw_s_3_3 X c false) (by exact amount_agccw_r_7_1 X (prv c) false) (by rfl) (by exact payload_agccw_s_3_3 X c false) (by exact hp2_agccw_r_7_1 X c) (by rfl) (by routes)) $$ [Hg_agccw_r_6_1 Hd_agccw_r_7_1 HO Hts_agccw_s_3_3 Htn_agccw_r_7_1]
  · isplitr; · iexact HIo
    isplitr; · iexact HIt
    isplitl [Hg_agccw_r_6_1]; · iexact Hg_agccw_r_6_1
    isplitl [Hd_agccw_r_7_1]; · iexact Hd_agccw_r_7_1
    isplitl [HO]; · iexact HO
    isplitl [Hts_agccw_s_3_3]; · iexact Hts_agccw_s_3_3
    isplitr; · iexact Hrch_agccw_s_3_3
    isplitl [Htn_agccw_r_7_1]; · iexact Htn_agccw_r_7_1
    iexact Hrn_agccw_r_7_1
  iintro ⟨Hcs_agccw_s_3_3, HO⟩
  iclear HIo HIt
  -- wait recv ag cw t=7 b=0
  try sl_exec_parts
  ihave #HIo := (bigSepL_elim_idx ownQs _ 60 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 94) (W := _) (R := 0) (m := 0) (T := ∅)
      (by rw [Nat.zero_add, expect_agcw_r_7_0 X c])) $$ [Hc_agcw_r_7_0 HO Hat_agcw_r_7_0]
  · isplitr; · iexact HIo
    isplitl [Hc_agcw_r_7_0]; · iexact Hc_agcw_r_7_0
    isplitl [HO]; · iexact HO
    isplitr; · iapply (mayWait_rem (F := F) c 94 (by decide) _ (by show (92 : ℕ) < 2 + 94; decide)); iexact Hlev
    iexact Hat_agcw_r_7_0
  iintro ⟨HO, Hat_agcw_r_7_0, #Hrch_agcw_r_7_0_1, Hpay⟩
  iclear HIo
  ihave Hp := (Entails.of_eq (rest_single X _ _ _ (duties_agcw_r_7_0 X c) (payload_agcw_r_7_0 X c false))) $$ Hpay
  irename Hp => Hg_agcw_r_7_0
  -- wait send ag cw t=6 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 94) (W := _) (R := 3) (m := 0) (T := ∅)
      (by rw [Nat.zero_add, expect_agcw_s_0_3 X c])) $$ [Hcs_agcw_s_0_3 HO Hat_agcw_s_0]
  · isplitr; · iexact HIo
    isplitl [Hcs_agcw_s_0_3]; · iexact Hcs_agcw_s_0_3
    isplitl [HO]; · iexact HO
    isplitr; · iapply (mayWait_rem (F := F) c 94 (by decide) _ (by show (0 : ℕ) < 2 + 94; decide)); iexact Hlev
    iexact Hat_agcw_s_0
  iintro ⟨HO, Hat_agcw_s_0, #Hrch_agcw_s_0_4, Hpay⟩
  iclear HIo
  ihave Hp := (Entails.of_eq (rest_single X _ _ _ (duties_agcw_s_0_3 X c) (payload_agcw_s_0_3 X c false))) $$ Hpay
  irename Hp => Hback_agcw_r_5_0
  -- send ag cw t=8 b=0 (payment 94, device function 95)
  try sl_exec_parts
  ihave HO := (owes_congr (rem_peel_94 c)) $$ HO
  ihave #HIo := (bigSepL_elim_idx ownQs _ 8 (by decide)) $$ HInvOwn
  ihave #HIt := (bigSepL_elim_idx recvCw _ 46 (by decide)) $$ HInbCw
  iapply (@send_owns_at F _ X c (nxt c) ⟨k0_dev95 c, k0_dev95_lt c⟩ (dev95_eq c _) (rows oM (off true (c.val + 8) 0) (off_inb true _ 0)) (rows oM (off true (c.val + 8) 0) (off_inb true _ 0)) _ (qS cc0_scratch6 0 inb_S4_S1_0) (qR cc0_scratch7 8 0 inb_S15x2_S1x1_8_0) _ _ _ _ _ _ fullShare (doneV X true 0 (devAt c 8)) 4 (K (dcell c (qS cc0_scratch6 0 inb_S4_S1_0))) (K (dcell (nxt c) (qR cc0_scratch7 8 0 inb_S15x2_S1x1_8_0))) _ (rem c 95) _ (by rw [duties_agcw_s_0_4 X c]; exact Finset.mem_singleton_self _) (by rw [duties_agcw_r_8_0 X (nxt c)]; exact Finset.mem_singleton_self _) (by exact amount_agcw_s_0_4 X c false) (by exact amount_agcw_r_8_0 X (nxt c) false) (by rfl) (by exact payload_agcw_s_0_4 X c false) (by exact hp2_agcw_r_8_0 X c) (by rfl) (by routes)) $$ [Hg_agcw_r_7_0 Hd_agcw_r_8_0 HO Hts_agcw_s_0_4 Htn_agcw_r_8_0]
  · isplitr; · iexact HIo
    isplitr; · iexact HIt
    isplitl [Hg_agcw_r_7_0]; · iexact Hg_agcw_r_7_0
    isplitl [Hd_agcw_r_8_0]; · iexact Hd_agcw_r_8_0
    isplitl [HO]; · iexact HO
    isplitl [Hts_agcw_s_0_4]; · iexact Hts_agcw_s_0_4
    isplitr; · iexact Hrch_agcw_s_0_4
    isplitl [Htn_agcw_r_8_0]; · iexact Htn_agcw_r_8_0
    iexact Hrn_agcw_r_8_0
  iintro ⟨Hcs_agcw_s_0_4, HO⟩
  iclear HIo HIt
  -- wait recv ag ccw t=7 b=0
  try sl_exec_parts
  ihave #HIo := (bigSepL_elim_idx ownQs _ 120 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 95) (W := _) (R := 0) (m := 0) (T := ∅)
      (by rw [Nat.zero_add, expect_agccw_r_7_0 X c])) $$ [Hc_agccw_r_7_0 HO Hat_agccw_r_7_0]
  · isplitr; · iexact HIo
    isplitl [Hc_agccw_r_7_0]; · iexact Hc_agccw_r_7_0
    isplitl [HO]; · iexact HO
    isplitr; · iapply (mayWait_rem (F := F) c 95 (by decide) _ (by show (93 : ℕ) < 2 + 95; decide)); iexact Hlev
    iexact Hat_agccw_r_7_0
  iintro ⟨HO, Hat_agccw_r_7_0, #Hrch_agccw_r_7_0_1, Hpay⟩
  iclear HIo
  ihave Hp := (Entails.of_eq (rest_single X _ _ _ (duties_agccw_r_7_0 X c) (payload_agccw_r_7_0 X c false))) $$ Hpay
  irename Hp => Hg_agccw_r_7_0
  -- wait send ag ccw t=6 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 95) (W := _) (R := 3) (m := 0) (T := ∅)
      (by rw [Nat.zero_add, expect_agccw_s_0_3 X c])) $$ [Hcs_agccw_s_0_3 HO Hat_agccw_s_0]
  · isplitr; · iexact HIo
    isplitl [Hcs_agccw_s_0_3]; · iexact Hcs_agccw_s_0_3
    isplitl [HO]; · iexact HO
    isplitr; · iapply (mayWait_rem (F := F) c 95 (by decide) _ (by show (0 : ℕ) < 2 + 95; decide)); iexact Hlev
    iexact Hat_agccw_s_0
  iintro ⟨HO, Hat_agccw_s_0, #Hrch_agccw_s_0_4, Hpay⟩
  iclear HIo
  ihave Hp := (Entails.of_eq (rest_single X _ _ _ (duties_agccw_s_0_3 X c) (payload_agccw_s_0_3 X c false))) $$ Hpay
  irename Hp => Hback_agccw_r_5_0
  -- send ag ccw t=8 b=0 (payment 95, device function 96)
  try sl_exec_parts
  ihave HO := (owes_congr (rem_peel_95 c)) $$ HO
  ihave #HIo := (bigSepL_elim_idx ownQs _ 12 (by decide)) $$ HInvOwn
  ihave #HIt := (bigSepL_elim_idx recvCcw _ 46 (by decide)) $$ HInbCcw
  iapply (@send_owns_at F _ X c (prv c) ⟨k0_dev96 c, k0_dev96_lt c⟩ (dev96_eq c _) (rows oM (off false (c.val + 8) 0) (off_inb false _ 0)) (rows oM (off false (c.val + 8) 0) (off_inb false _ 0)) _ (qS cc0_scratch8 0 inb_S4_S1_0) (qR cc0_scratch9 8 0 inb_S15x2_S1x1_8_0) _ _ _ _ _ _ fullShare (doneV X false 0 (devAt c 8)) 4 (K (dcell c (qS cc0_scratch8 0 inb_S4_S1_0))) (K (dcell (prv c) (qR cc0_scratch9 8 0 inb_S15x2_S1x1_8_0))) _ (rem c 96) _ (by rw [duties_agccw_s_0_4 X c]; exact Finset.mem_singleton_self _) (by rw [duties_agccw_r_8_0 X (prv c)]; exact Finset.mem_singleton_self _) (by exact amount_agccw_s_0_4 X c false) (by exact amount_agccw_r_8_0 X (prv c) false) (by rfl) (by exact payload_agccw_s_0_4 X c false) (by exact hp2_agccw_r_8_0 X c) (by rfl) (by routes)) $$ [Hg_agccw_r_7_0 Hd_agccw_r_8_0 HO Hts_agccw_s_0_4 Htn_agccw_r_8_0]
  · isplitr; · iexact HIo
    isplitr; · iexact HIt
    isplitl [Hg_agccw_r_7_0]; · iexact Hg_agccw_r_7_0
    isplitl [Hd_agccw_r_8_0]; · iexact Hd_agccw_r_8_0
    isplitl [HO]; · iexact HO
    isplitl [Hts_agccw_s_0_4]; · iexact Hts_agccw_s_0_4
    isplitr; · iexact Hrch_agccw_s_0_4
    isplitl [Htn_agccw_r_8_0]; · iexact Htn_agccw_r_8_0
    iexact Hrn_agccw_r_8_0
  iintro ⟨Hcs_agccw_s_0_4, HO⟩
  iclear HIo HIt
  -- wait recv ag cw t=7 b=1
  try sl_exec_parts
  ihave #HIo := (bigSepL_elim_idx ownQs _ 61 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 96) (W := _) (R := 0) (m := 0) (T := ∅)
      (by rw [Nat.zero_add, expect_agcw_r_7_1 X c])) $$ [Hc_agcw_r_7_1 HO Hat_agcw_r_7_1]
  · isplitr; · iexact HIo
    isplitl [Hc_agcw_r_7_1]; · iexact Hc_agcw_r_7_1
    isplitl [HO]; · iexact HO
    isplitr; · iapply (mayWait_rem (F := F) c 96 (by decide) _ (by show (94 : ℕ) < 2 + 96; decide)); iexact Hlev
    iexact Hat_agcw_r_7_1
  iintro ⟨HO, Hat_agcw_r_7_1, #Hrch_agcw_r_7_1_1, Hpay⟩
  iclear HIo
  ihave Hp := (Entails.of_eq (rest_single X _ _ _ (duties_agcw_r_7_1 X c) (payload_agcw_r_7_1 X c false))) $$ Hpay
  irename Hp => Hg_agcw_r_7_1
  -- wait send ag cw t=6 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 96) (W := _) (R := 3) (m := 0) (T := ∅)
      (by rw [Nat.zero_add, expect_agcw_s_1_3 X c])) $$ [Hcs_agcw_s_1_3 HO Hat_agcw_s_1]
  · isplitr; · iexact HIo
    isplitl [Hcs_agcw_s_1_3]; · iexact Hcs_agcw_s_1_3
    isplitl [HO]; · iexact HO
    isplitr; · iapply (mayWait_rem (F := F) c 96 (by decide) _ (by show (0 : ℕ) < 2 + 96; decide)); iexact Hlev
    iexact Hat_agcw_s_1
  iintro ⟨HO, Hat_agcw_s_1, #Hrch_agcw_s_1_4, Hpay⟩
  iclear HIo
  ihave Hp := (Entails.of_eq (rest_single X _ _ _ (duties_agcw_s_1_3 X c) (payload_agcw_s_1_3 X c false))) $$ Hpay
  irename Hp => Hback_agcw_r_5_1
  -- send ag cw t=8 b=1 (payment 96, device function 97)
  try sl_exec_parts
  ihave HO := (owes_congr (rem_peel_96 c)) $$ HO
  ihave #HIo := (bigSepL_elim_idx ownQs _ 9 (by decide)) $$ HInvOwn
  ihave #HIt := (bigSepL_elim_idx recvCw _ 47 (by decide)) $$ HInbCw
  iapply (@send_owns_at F _ X c (nxt c) ⟨k0_dev97 c, k0_dev97_lt c⟩ (dev97_eq c _) (rows oM (off true (c.val + 8) 1) (off_inb true _ 1)) (rows oM (off true (c.val + 8) 1) (off_inb true _ 1)) _ (qS cc0_scratch6 1 inb_S4_S1_1) (qR cc0_scratch7 8 1 inb_S15x2_S1x1_8_1) _ _ _ _ _ _ fullShare (doneV X true 1 (devAt c 8)) 4 (K (dcell c (qS cc0_scratch6 1 inb_S4_S1_1))) (K (dcell (nxt c) (qR cc0_scratch7 8 1 inb_S15x2_S1x1_8_1))) _ (rem c 97) _ (by rw [duties_agcw_s_1_4 X c]; exact Finset.mem_singleton_self _) (by rw [duties_agcw_r_8_1 X (nxt c)]; exact Finset.mem_singleton_self _) (by exact amount_agcw_s_1_4 X c false) (by exact amount_agcw_r_8_1 X (nxt c) false) (by rfl) (by exact payload_agcw_s_1_4 X c false) (by exact hp2_agcw_r_8_1 X c) (by rfl) (by routes)) $$ [Hg_agcw_r_7_1 Hd_agcw_r_8_1 HO Hts_agcw_s_1_4 Htn_agcw_r_8_1]
  · isplitr; · iexact HIo
    isplitr; · iexact HIt
    isplitl [Hg_agcw_r_7_1]; · iexact Hg_agcw_r_7_1
    isplitl [Hd_agcw_r_8_1]; · iexact Hd_agcw_r_8_1
    isplitl [HO]; · iexact HO
    isplitl [Hts_agcw_s_1_4]; · iexact Hts_agcw_s_1_4
    isplitr; · iexact Hrch_agcw_s_1_4
    isplitl [Htn_agcw_r_8_1]; · iexact Htn_agcw_r_8_1
    iexact Hrn_agcw_r_8_1
  iintro ⟨Hcs_agcw_s_1_4, HO⟩
  iclear HIo HIt
  -- wait recv ag ccw t=7 b=1
  try sl_exec_parts
  ihave #HIo := (bigSepL_elim_idx ownQs _ 121 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 97) (W := _) (R := 0) (m := 0) (T := ∅)
      (by rw [Nat.zero_add, expect_agccw_r_7_1 X c])) $$ [Hc_agccw_r_7_1 HO Hat_agccw_r_7_1]
  · isplitr; · iexact HIo
    isplitl [Hc_agccw_r_7_1]; · iexact Hc_agccw_r_7_1
    isplitl [HO]; · iexact HO
    isplitr; · iapply (mayWait_rem (F := F) c 97 (by decide) _ (by show (95 : ℕ) < 2 + 97; decide)); iexact Hlev
    iexact Hat_agccw_r_7_1
  iintro ⟨HO, Hat_agccw_r_7_1, #Hrch_agccw_r_7_1_1, Hpay⟩
  iclear HIo
  ihave Hp := (Entails.of_eq (rest_single X _ _ _ (duties_agccw_r_7_1 X c) (payload_agccw_r_7_1 X c false))) $$ Hpay
  irename Hp => Hg_agccw_r_7_1
  -- wait send ag ccw t=6 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 97) (W := _) (R := 3) (m := 0) (T := ∅)
      (by rw [Nat.zero_add, expect_agccw_s_1_3 X c])) $$ [Hcs_agccw_s_1_3 HO Hat_agccw_s_1]
  · isplitr; · iexact HIo
    isplitl [Hcs_agccw_s_1_3]; · iexact Hcs_agccw_s_1_3
    isplitl [HO]; · iexact HO
    isplitr; · iapply (mayWait_rem (F := F) c 97 (by decide) _ (by show (0 : ℕ) < 2 + 97; decide)); iexact Hlev
    iexact Hat_agccw_s_1
  iintro ⟨HO, Hat_agccw_s_1, #Hrch_agccw_s_1_4, Hpay⟩
  iclear HIo
  ihave Hp := (Entails.of_eq (rest_single X _ _ _ (duties_agccw_s_1_3 X c) (payload_agccw_s_1_3 X c false))) $$ Hpay
  irename Hp => Hback_agccw_r_5_1
  -- send ag ccw t=8 b=1 (payment 97, device function 98)
  try sl_exec_parts
  ihave HO := (owes_congr (rem_peel_97 c)) $$ HO
  ihave #HIo := (bigSepL_elim_idx ownQs _ 13 (by decide)) $$ HInvOwn
  ihave #HIt := (bigSepL_elim_idx recvCcw _ 47 (by decide)) $$ HInbCcw
  iapply (@send_owns_at F _ X c (prv c) ⟨k0_dev98 c, k0_dev98_lt c⟩ (dev98_eq c _) (rows oM (off false (c.val + 8) 1) (off_inb false _ 1)) (rows oM (off false (c.val + 8) 1) (off_inb false _ 1)) _ (qS cc0_scratch8 1 inb_S4_S1_1) (qR cc0_scratch9 8 1 inb_S15x2_S1x1_8_1) _ _ _ _ _ _ fullShare (doneV X false 1 (devAt c 8)) 4 (K (dcell c (qS cc0_scratch8 1 inb_S4_S1_1))) (K (dcell (prv c) (qR cc0_scratch9 8 1 inb_S15x2_S1x1_8_1))) _ (rem c 98) _ (by rw [duties_agccw_s_1_4 X c]; exact Finset.mem_singleton_self _) (by rw [duties_agccw_r_8_1 X (prv c)]; exact Finset.mem_singleton_self _) (by exact amount_agccw_s_1_4 X c false) (by exact amount_agccw_r_8_1 X (prv c) false) (by rfl) (by exact payload_agccw_s_1_4 X c false) (by exact hp2_agccw_r_8_1 X c) (by rfl) (by routes)) $$ [Hg_agccw_r_7_1 Hd_agccw_r_8_1 HO Hts_agccw_s_1_4 Htn_agccw_r_8_1]
  · isplitr; · iexact HIo
    isplitr; · iexact HIt
    isplitl [Hg_agccw_r_7_1]; · iexact Hg_agccw_r_7_1
    isplitl [Hd_agccw_r_8_1]; · iexact Hd_agccw_r_8_1
    isplitl [HO]; · iexact HO
    isplitl [Hts_agccw_s_1_4]; · iexact Hts_agccw_s_1_4
    isplitr; · iexact Hrch_agccw_s_1_4
    isplitl [Htn_agccw_r_8_1]; · iexact Htn_agccw_r_8_1
    iexact Hrn_agccw_r_8_1
  iintro ⟨Hcs_agccw_s_1_4, HO⟩
  iclear HIo HIt
  -- wait recv ag cw t=8 b=0
  try sl_exec_parts
  ihave #HIo := (bigSepL_elim_idx ownQs _ 62 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 98) (W := _) (R := 0) (m := 0) (T := ∅)
      (by rw [Nat.zero_add, expect_agcw_r_8_0 X c])) $$ [Hc_agcw_r_8_0 HO Hat_agcw_r_8_0]
  · isplitr; · iexact HIo
    isplitl [Hc_agcw_r_8_0]; · iexact Hc_agcw_r_8_0
    isplitl [HO]; · iexact HO
    isplitr; · iapply (mayWait_rem (F := F) c 98 (by decide) _ (by show (96 : ℕ) < 2 + 98; decide)); iexact Hlev
    iexact Hat_agcw_r_8_0
  iintro ⟨HO, Hat_agcw_r_8_0, #Hrch_agcw_r_8_0_1, Hpay⟩
  iclear HIo
  ihave Hp := (Entails.of_eq (rest_single X _ _ _ (duties_agcw_r_8_0 X c) (payload_agcw_r_8_0 X c false))) $$ Hpay
  irename Hp => Hg_agcw_r_8_0
  -- wait send ag cw t=7 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 98) (W := _) (R := 3) (m := 0) (T := ∅)
      (by rw [Nat.zero_add, expect_agcw_s_2_3 X c])) $$ [Hcs_agcw_s_2_3 HO Hat_agcw_s_2]
  · isplitr; · iexact HIo
    isplitl [Hcs_agcw_s_2_3]; · iexact Hcs_agcw_s_2_3
    isplitl [HO]; · iexact HO
    isplitr; · iapply (mayWait_rem (F := F) c 98 (by decide) _ (by show (0 : ℕ) < 2 + 98; decide)); iexact Hlev
    iexact Hat_agcw_s_2
  iintro ⟨HO, Hat_agcw_s_2, #Hrch_agcw_s_2_4, Hpay⟩
  iclear HIo
  ihave Hp := (Entails.of_eq (rest_single X _ _ _ (duties_agcw_s_2_3 X c) (payload_agcw_s_2_3 X c false))) $$ Hpay
  irename Hp => Hback_agcw_r_6_0
  -- send ag cw t=9 b=0 (payment 98, device function 99)
  try sl_exec_parts
  ihave HO := (owes_congr (rem_peel_98 c)) $$ HO
  ihave #HIo := (bigSepL_elim_idx ownQs _ 10 (by decide)) $$ HInvOwn
  ihave #HIt := (bigSepL_elim_idx recvCw _ 48 (by decide)) $$ HInbCw
  iapply (@send_owns_at F _ X c (nxt c) ⟨k0_dev99 c, k0_dev99_lt c⟩ (dev99_eq c _) (rows oM (off true (c.val + 7) 0) (off_inb true _ 0)) (rows oM (off true (c.val + 7) 0) (off_inb true _ 0)) _ (qS cc0_scratch6 2 inb_S4_S1_2) (qR cc0_scratch7 9 0 inb_S15x2_S1x1_9_0) _ _ _ _ _ _ fullShare (doneV X true 0 (devAt c 7)) 4 (K (dcell c (qS cc0_scratch6 2 inb_S4_S1_2))) (K (dcell (nxt c) (qR cc0_scratch7 9 0 inb_S15x2_S1x1_9_0))) _ (rem c 99) _ (by rw [duties_agcw_s_2_4 X c]; exact Finset.mem_singleton_self _) (by rw [duties_agcw_r_9_0 X (nxt c)]; exact Finset.mem_singleton_self _) (by exact amount_agcw_s_2_4 X c false) (by exact amount_agcw_r_9_0 X (nxt c) false) (by rfl) (by exact payload_agcw_s_2_4 X c false) (by exact hp2_agcw_r_9_0 X c) (by rfl) (by routes)) $$ [Hg_agcw_r_8_0 Hd_agcw_r_9_0 HO Hts_agcw_s_2_4 Htn_agcw_r_9_0]
  · isplitr; · iexact HIo
    isplitr; · iexact HIt
    isplitl [Hg_agcw_r_8_0]; · iexact Hg_agcw_r_8_0
    isplitl [Hd_agcw_r_9_0]; · iexact Hd_agcw_r_9_0
    isplitl [HO]; · iexact HO
    isplitl [Hts_agcw_s_2_4]; · iexact Hts_agcw_s_2_4
    isplitr; · iexact Hrch_agcw_s_2_4
    isplitl [Htn_agcw_r_9_0]; · iexact Htn_agcw_r_9_0
    iexact Hrn_agcw_r_9_0
  iintro ⟨Hcs_agcw_s_2_4, HO⟩
  iclear HIo HIt
  -- wait recv ag ccw t=8 b=0
  try sl_exec_parts
  ihave #HIo := (bigSepL_elim_idx ownQs _ 122 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 99) (W := _) (R := 0) (m := 0) (T := ∅)
      (by rw [Nat.zero_add, expect_agccw_r_8_0 X c])) $$ [Hc_agccw_r_8_0 HO Hat_agccw_r_8_0]
  · isplitr; · iexact HIo
    isplitl [Hc_agccw_r_8_0]; · iexact Hc_agccw_r_8_0
    isplitl [HO]; · iexact HO
    isplitr; · iapply (mayWait_rem (F := F) c 99 (by decide) _ (by show (97 : ℕ) < 2 + 99; decide)); iexact Hlev
    iexact Hat_agccw_r_8_0
  iintro ⟨HO, Hat_agccw_r_8_0, #Hrch_agccw_r_8_0_1, Hpay⟩
  iclear HIo
  ihave Hp := (Entails.of_eq (rest_single X _ _ _ (duties_agccw_r_8_0 X c) (payload_agccw_r_8_0 X c false))) $$ Hpay
  irename Hp => Hg_agccw_r_8_0
  -- wait send ag ccw t=7 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 99) (W := _) (R := 3) (m := 0) (T := ∅)
      (by rw [Nat.zero_add, expect_agccw_s_2_3 X c])) $$ [Hcs_agccw_s_2_3 HO Hat_agccw_s_2]
  · isplitr; · iexact HIo
    isplitl [Hcs_agccw_s_2_3]; · iexact Hcs_agccw_s_2_3
    isplitl [HO]; · iexact HO
    isplitr; · iapply (mayWait_rem (F := F) c 99 (by decide) _ (by show (0 : ℕ) < 2 + 99; decide)); iexact Hlev
    iexact Hat_agccw_s_2
  iintro ⟨HO, Hat_agccw_s_2, #Hrch_agccw_s_2_4, Hpay⟩
  iclear HIo
  ihave Hp := (Entails.of_eq (rest_single X _ _ _ (duties_agccw_s_2_3 X c) (payload_agccw_s_2_3 X c false))) $$ Hpay
  irename Hp => Hback_agccw_r_6_0
  -- send ag ccw t=9 b=0 (payment 99, device function 100)
  try sl_exec_parts
  ihave HO := (owes_congr (rem_peel_99 c)) $$ HO
  ihave #HIo := (bigSepL_elim_idx ownQs _ 14 (by decide)) $$ HInvOwn
  ihave #HIt := (bigSepL_elim_idx recvCcw _ 48 (by decide)) $$ HInbCcw
  iapply (@send_owns_at F _ X c (prv c) ⟨k0_dev100 c, k0_dev100_lt c⟩ (dev100_eq c _) (rows oM (off false (c.val + 9) 0) (off_inb false _ 0)) (rows oM (off false (c.val + 9) 0) (off_inb false _ 0)) _ (qS cc0_scratch8 2 inb_S4_S1_2) (qR cc0_scratch9 9 0 inb_S15x2_S1x1_9_0) _ _ _ _ _ _ fullShare (doneV X false 0 (devAt c 9)) 4 (K (dcell c (qS cc0_scratch8 2 inb_S4_S1_2))) (K (dcell (prv c) (qR cc0_scratch9 9 0 inb_S15x2_S1x1_9_0))) _ (rem c 100) _ (by rw [duties_agccw_s_2_4 X c]; exact Finset.mem_singleton_self _) (by rw [duties_agccw_r_9_0 X (prv c)]; exact Finset.mem_singleton_self _) (by exact amount_agccw_s_2_4 X c false) (by exact amount_agccw_r_9_0 X (prv c) false) (by rfl) (by exact payload_agccw_s_2_4 X c false) (by exact hp2_agccw_r_9_0 X c) (by rfl) (by routes)) $$ [Hg_agccw_r_8_0 Hd_agccw_r_9_0 HO Hts_agccw_s_2_4 Htn_agccw_r_9_0]
  · isplitr; · iexact HIo
    isplitr; · iexact HIt
    isplitl [Hg_agccw_r_8_0]; · iexact Hg_agccw_r_8_0
    isplitl [Hd_agccw_r_9_0]; · iexact Hd_agccw_r_9_0
    isplitl [HO]; · iexact HO
    isplitl [Hts_agccw_s_2_4]; · iexact Hts_agccw_s_2_4
    isplitr; · iexact Hrch_agccw_s_2_4
    isplitl [Htn_agccw_r_9_0]; · iexact Htn_agccw_r_9_0
    iexact Hrn_agccw_r_9_0
  iintro ⟨Hcs_agccw_s_2_4, HO⟩
  iclear HIo HIt
  -- wait recv ag cw t=8 b=1
  try sl_exec_parts
  ihave #HIo := (bigSepL_elim_idx ownQs _ 63 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 100) (W := _) (R := 0) (m := 0) (T := ∅)
      (by rw [Nat.zero_add, expect_agcw_r_8_1 X c])) $$ [Hc_agcw_r_8_1 HO Hat_agcw_r_8_1]
  · isplitr; · iexact HIo
    isplitl [Hc_agcw_r_8_1]; · iexact Hc_agcw_r_8_1
    isplitl [HO]; · iexact HO
    isplitr; · iapply (mayWait_rem (F := F) c 100 (by decide) _ (by show (98 : ℕ) < 2 + 100; decide)); iexact Hlev
    iexact Hat_agcw_r_8_1
  iintro ⟨HO, Hat_agcw_r_8_1, #Hrch_agcw_r_8_1_1, Hpay⟩
  iclear HIo
  ihave Hp := (Entails.of_eq (rest_single X _ _ _ (duties_agcw_r_8_1 X c) (payload_agcw_r_8_1 X c false))) $$ Hpay
  irename Hp => Hg_agcw_r_8_1
  -- wait send ag cw t=7 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 100) (W := _) (R := 3) (m := 0) (T := ∅)
      (by rw [Nat.zero_add, expect_agcw_s_3_3 X c])) $$ [Hcs_agcw_s_3_3 HO Hat_agcw_s_3]
  · isplitr; · iexact HIo
    isplitl [Hcs_agcw_s_3_3]; · iexact Hcs_agcw_s_3_3
    isplitl [HO]; · iexact HO
    isplitr; · iapply (mayWait_rem (F := F) c 100 (by decide) _ (by show (0 : ℕ) < 2 + 100; decide)); iexact Hlev
    iexact Hat_agcw_s_3
  iintro ⟨HO, Hat_agcw_s_3, #Hrch_agcw_s_3_4, Hpay⟩
  iclear HIo
  ihave Hp := (Entails.of_eq (rest_single X _ _ _ (duties_agcw_s_3_3 X c) (payload_agcw_s_3_3 X c false))) $$ Hpay
  irename Hp => Hback_agcw_r_6_1
  -- send ag cw t=9 b=1 (payment 100, device function 101)
  try sl_exec_parts
  ihave HO := (owes_congr (rem_peel_100 c)) $$ HO
  ihave #HIo := (bigSepL_elim_idx ownQs _ 11 (by decide)) $$ HInvOwn
  ihave #HIt := (bigSepL_elim_idx recvCw _ 49 (by decide)) $$ HInbCw
  iapply (@send_owns_at F _ X c (nxt c) ⟨k0_dev101 c, k0_dev101_lt c⟩ (dev101_eq c _) (rows oM (off true (c.val + 7) 1) (off_inb true _ 1)) (rows oM (off true (c.val + 7) 1) (off_inb true _ 1)) _ (qS cc0_scratch6 3 inb_S4_S1_3) (qR cc0_scratch7 9 1 inb_S15x2_S1x1_9_1) _ _ _ _ _ _ fullShare (doneV X true 1 (devAt c 7)) 4 (K (dcell c (qS cc0_scratch6 3 inb_S4_S1_3))) (K (dcell (nxt c) (qR cc0_scratch7 9 1 inb_S15x2_S1x1_9_1))) _ (rem c 101) _ (by rw [duties_agcw_s_3_4 X c]; exact Finset.mem_singleton_self _) (by rw [duties_agcw_r_9_1 X (nxt c)]; exact Finset.mem_singleton_self _) (by exact amount_agcw_s_3_4 X c false) (by exact amount_agcw_r_9_1 X (nxt c) false) (by rfl) (by exact payload_agcw_s_3_4 X c false) (by exact hp2_agcw_r_9_1 X c) (by rfl) (by routes)) $$ [Hg_agcw_r_8_1 Hd_agcw_r_9_1 HO Hts_agcw_s_3_4 Htn_agcw_r_9_1]
  · isplitr; · iexact HIo
    isplitr; · iexact HIt
    isplitl [Hg_agcw_r_8_1]; · iexact Hg_agcw_r_8_1
    isplitl [Hd_agcw_r_9_1]; · iexact Hd_agcw_r_9_1
    isplitl [HO]; · iexact HO
    isplitl [Hts_agcw_s_3_4]; · iexact Hts_agcw_s_3_4
    isplitr; · iexact Hrch_agcw_s_3_4
    isplitl [Htn_agcw_r_9_1]; · iexact Htn_agcw_r_9_1
    iexact Hrn_agcw_r_9_1
  iintro ⟨Hcs_agcw_s_3_4, HO⟩
  iclear HIo HIt
  -- wait recv ag ccw t=8 b=1
  try sl_exec_parts
  ihave #HIo := (bigSepL_elim_idx ownQs _ 123 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 101) (W := _) (R := 0) (m := 0) (T := ∅)
      (by rw [Nat.zero_add, expect_agccw_r_8_1 X c])) $$ [Hc_agccw_r_8_1 HO Hat_agccw_r_8_1]
  · isplitr; · iexact HIo
    isplitl [Hc_agccw_r_8_1]; · iexact Hc_agccw_r_8_1
    isplitl [HO]; · iexact HO
    isplitr; · iapply (mayWait_rem (F := F) c 101 (by decide) _ (by show (99 : ℕ) < 2 + 101; decide)); iexact Hlev
    iexact Hat_agccw_r_8_1
  iintro ⟨HO, Hat_agccw_r_8_1, #Hrch_agccw_r_8_1_1, Hpay⟩
  iclear HIo
  ihave Hp := (Entails.of_eq (rest_single X _ _ _ (duties_agccw_r_8_1 X c) (payload_agccw_r_8_1 X c false))) $$ Hpay
  irename Hp => Hg_agccw_r_8_1
  -- wait send ag ccw t=7 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 101) (W := _) (R := 3) (m := 0) (T := ∅)
      (by rw [Nat.zero_add, expect_agccw_s_3_3 X c])) $$ [Hcs_agccw_s_3_3 HO Hat_agccw_s_3]
  · isplitr; · iexact HIo
    isplitl [Hcs_agccw_s_3_3]; · iexact Hcs_agccw_s_3_3
    isplitl [HO]; · iexact HO
    isplitr; · iapply (mayWait_rem (F := F) c 101 (by decide) _ (by show (0 : ℕ) < 2 + 101; decide)); iexact Hlev
    iexact Hat_agccw_s_3
  iintro ⟨HO, Hat_agccw_s_3, #Hrch_agccw_s_3_4, Hpay⟩
  iclear HIo
  ihave Hp := (Entails.of_eq (rest_single X _ _ _ (duties_agccw_s_3_3 X c) (payload_agccw_s_3_3 X c false))) $$ Hpay
  irename Hp => Hback_agccw_r_6_1
  -- send ag ccw t=9 b=1 (payment 101, device function 102)
  try sl_exec_parts
  ihave HO := (owes_congr (rem_peel_101 c)) $$ HO
  ihave #HIo := (bigSepL_elim_idx ownQs _ 15 (by decide)) $$ HInvOwn
  ihave #HIt := (bigSepL_elim_idx recvCcw _ 49 (by decide)) $$ HInbCcw
  iapply (@send_owns_at F _ X c (prv c) ⟨k0_dev102 c, k0_dev102_lt c⟩ (dev102_eq c _) (rows oM (off false (c.val + 9) 1) (off_inb false _ 1)) (rows oM (off false (c.val + 9) 1) (off_inb false _ 1)) _ (qS cc0_scratch8 3 inb_S4_S1_3) (qR cc0_scratch9 9 1 inb_S15x2_S1x1_9_1) _ _ _ _ _ _ fullShare (doneV X false 1 (devAt c 9)) 4 (K (dcell c (qS cc0_scratch8 3 inb_S4_S1_3))) (K (dcell (prv c) (qR cc0_scratch9 9 1 inb_S15x2_S1x1_9_1))) _ (rem c 102) _ (by rw [duties_agccw_s_3_4 X c]; exact Finset.mem_singleton_self _) (by rw [duties_agccw_r_9_1 X (prv c)]; exact Finset.mem_singleton_self _) (by exact amount_agccw_s_3_4 X c false) (by exact amount_agccw_r_9_1 X (prv c) false) (by rfl) (by exact payload_agccw_s_3_4 X c false) (by exact hp2_agccw_r_9_1 X c) (by rfl) (by routes)) $$ [Hg_agccw_r_8_1 Hd_agccw_r_9_1 HO Hts_agccw_s_3_4 Htn_agccw_r_9_1]
  · isplitr; · iexact HIo
    isplitr; · iexact HIt
    isplitl [Hg_agccw_r_8_1]; · iexact Hg_agccw_r_8_1
    isplitl [Hd_agccw_r_9_1]; · iexact Hd_agccw_r_9_1
    isplitl [HO]; · iexact HO
    isplitl [Hts_agccw_s_3_4]; · iexact Hts_agccw_s_3_4
    isplitr; · iexact Hrch_agccw_s_3_4
    isplitl [Htn_agccw_r_9_1]; · iexact Htn_agccw_r_9_1
    iexact Hrn_agccw_r_9_1
  iintro ⟨Hcs_agccw_s_3_4, HO⟩
  iclear HIo HIt
  -- wait recv ag cw t=9 b=0
  try sl_exec_parts
  ihave #HIo := (bigSepL_elim_idx ownQs _ 64 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 102) (W := _) (R := 0) (m := 0) (T := ∅)
      (by rw [Nat.zero_add, expect_agcw_r_9_0 X c])) $$ [Hc_agcw_r_9_0 HO Hat_agcw_r_9_0]
  · isplitr; · iexact HIo
    isplitl [Hc_agcw_r_9_0]; · iexact Hc_agcw_r_9_0
    isplitl [HO]; · iexact HO
    isplitr; · iapply (mayWait_rem (F := F) c 102 (by decide) _ (by show (100 : ℕ) < 2 + 102; decide)); iexact Hlev
    iexact Hat_agcw_r_9_0
  iintro ⟨HO, Hat_agcw_r_9_0, #Hrch_agcw_r_9_0_1, Hpay⟩
  iclear HIo
  ihave Hp := (Entails.of_eq (rest_single X _ _ _ (duties_agcw_r_9_0 X c) (payload_agcw_r_9_0 X c false))) $$ Hpay
  irename Hp => Hg_agcw_r_9_0
  -- wait send ag cw t=8 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 102) (W := _) (R := 4) (m := 0) (T := ∅)
      (by rw [Nat.zero_add, expect_agcw_s_0_4 X c])) $$ [Hcs_agcw_s_0_4 HO Hat_agcw_s_0]
  · isplitr; · iexact HIo
    isplitl [Hcs_agcw_s_0_4]; · iexact Hcs_agcw_s_0_4
    isplitl [HO]; · iexact HO
    isplitr; · iapply (mayWait_rem (F := F) c 102 (by decide) _ (by show (0 : ℕ) < 2 + 102; decide)); iexact Hlev
    iexact Hat_agcw_s_0
  iintro ⟨HO, Hat_agcw_s_0, #Hrch_agcw_s_0_5, Hpay⟩
  iclear HIo
  ihave Hp := (Entails.of_eq (rest_single X _ _ _ (duties_agcw_s_0_4 X c) (payload_agcw_s_0_4 X c false))) $$ Hpay
  irename Hp => Hback_agcw_r_7_0
  -- send ag cw t=10 b=0 (payment 102, device function 103)
  try sl_exec_parts
  ihave HO := (owes_congr (rem_peel_102 c)) $$ HO
  ihave #HIo := (bigSepL_elim_idx ownQs _ 8 (by decide)) $$ HInvOwn
  ihave #HIt := (bigSepL_elim_idx recvCw _ 50 (by decide)) $$ HInbCw
  iapply (@send_owns_at F _ X c (nxt c) ⟨k0_dev103 c, k0_dev103_lt c⟩ (dev103_eq c _) (rows oM (off true (c.val + 6) 0) (off_inb true _ 0)) (rows oM (off true (c.val + 6) 0) (off_inb true _ 0)) _ (qS cc0_scratch6 0 inb_S4_S1_0) (qR cc0_scratch7 10 0 inb_S15x2_S1x1_10_0) _ _ _ _ _ _ fullShare (doneV X true 0 (devAt c 6)) 5 (K (dcell c (qS cc0_scratch6 0 inb_S4_S1_0))) (K (dcell (nxt c) (qR cc0_scratch7 10 0 inb_S15x2_S1x1_10_0))) _ (rem c 103) _ (by rw [duties_agcw_s_0_5 X c]; exact Finset.mem_singleton_self _) (by rw [duties_agcw_r_10_0 X (nxt c)]; exact Finset.mem_singleton_self _) (by exact amount_agcw_s_0_5 X c false) (by exact amount_agcw_r_10_0 X (nxt c) false) (by rfl) (by exact payload_agcw_s_0_5 X c false) (by exact hp2_agcw_r_10_0 X c) (by rfl) (by routes)) $$ [Hg_agcw_r_9_0 Hd_agcw_r_10_0 HO Hts_agcw_s_0_5 Htn_agcw_r_10_0]
  · isplitr; · iexact HIo
    isplitr; · iexact HIt
    isplitl [Hg_agcw_r_9_0]; · iexact Hg_agcw_r_9_0
    isplitl [Hd_agcw_r_10_0]; · iexact Hd_agcw_r_10_0
    isplitl [HO]; · iexact HO
    isplitl [Hts_agcw_s_0_5]; · iexact Hts_agcw_s_0_5
    isplitr; · iexact Hrch_agcw_s_0_5
    isplitl [Htn_agcw_r_10_0]; · iexact Htn_agcw_r_10_0
    iexact Hrn_agcw_r_10_0
  iintro ⟨Hcs_agcw_s_0_5, HO⟩
  iclear HIo HIt
  -- wait recv ag ccw t=9 b=0
  try sl_exec_parts
  ihave #HIo := (bigSepL_elim_idx ownQs _ 124 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 103) (W := _) (R := 0) (m := 0) (T := ∅)
      (by rw [Nat.zero_add, expect_agccw_r_9_0 X c])) $$ [Hc_agccw_r_9_0 HO Hat_agccw_r_9_0]
  · isplitr; · iexact HIo
    isplitl [Hc_agccw_r_9_0]; · iexact Hc_agccw_r_9_0
    isplitl [HO]; · iexact HO
    isplitr; · iapply (mayWait_rem (F := F) c 103 (by decide) _ (by show (101 : ℕ) < 2 + 103; decide)); iexact Hlev
    iexact Hat_agccw_r_9_0
  iintro ⟨HO, Hat_agccw_r_9_0, #Hrch_agccw_r_9_0_1, Hpay⟩
  iclear HIo
  ihave Hp := (Entails.of_eq (rest_single X _ _ _ (duties_agccw_r_9_0 X c) (payload_agccw_r_9_0 X c false))) $$ Hpay
  irename Hp => Hg_agccw_r_9_0
  -- wait send ag ccw t=8 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 103) (W := _) (R := 4) (m := 0) (T := ∅)
      (by rw [Nat.zero_add, expect_agccw_s_0_4 X c])) $$ [Hcs_agccw_s_0_4 HO Hat_agccw_s_0]
  · isplitr; · iexact HIo
    isplitl [Hcs_agccw_s_0_4]; · iexact Hcs_agccw_s_0_4
    isplitl [HO]; · iexact HO
    isplitr; · iapply (mayWait_rem (F := F) c 103 (by decide) _ (by show (0 : ℕ) < 2 + 103; decide)); iexact Hlev
    iexact Hat_agccw_s_0
  iintro ⟨HO, Hat_agccw_s_0, #Hrch_agccw_s_0_5, Hpay⟩
  iclear HIo
  ihave Hp := (Entails.of_eq (rest_single X _ _ _ (duties_agccw_s_0_4 X c) (payload_agccw_s_0_4 X c false))) $$ Hpay
  irename Hp => Hback_agccw_r_7_0
  -- send ag ccw t=10 b=0 (payment 103, device function 104)
  try sl_exec_parts
  ihave HO := (owes_congr (rem_peel_103 c)) $$ HO
  ihave #HIo := (bigSepL_elim_idx ownQs _ 12 (by decide)) $$ HInvOwn
  ihave #HIt := (bigSepL_elim_idx recvCcw _ 50 (by decide)) $$ HInbCcw
  iapply (@send_owns_at F _ X c (prv c) ⟨k0_dev104 c, k0_dev104_lt c⟩ (dev104_eq c _) (rows oM (off false (c.val + 10) 0) (off_inb false _ 0)) (rows oM (off false (c.val + 10) 0) (off_inb false _ 0)) _ (qS cc0_scratch8 0 inb_S4_S1_0) (qR cc0_scratch9 10 0 inb_S15x2_S1x1_10_0) _ _ _ _ _ _ fullShare (doneV X false 0 (devAt c 10)) 5 (K (dcell c (qS cc0_scratch8 0 inb_S4_S1_0))) (K (dcell (prv c) (qR cc0_scratch9 10 0 inb_S15x2_S1x1_10_0))) _ (rem c 104) _ (by rw [duties_agccw_s_0_5 X c]; exact Finset.mem_singleton_self _) (by rw [duties_agccw_r_10_0 X (prv c)]; exact Finset.mem_singleton_self _) (by exact amount_agccw_s_0_5 X c false) (by exact amount_agccw_r_10_0 X (prv c) false) (by rfl) (by exact payload_agccw_s_0_5 X c false) (by exact hp2_agccw_r_10_0 X c) (by rfl) (by routes)) $$ [Hg_agccw_r_9_0 Hd_agccw_r_10_0 HO Hts_agccw_s_0_5 Htn_agccw_r_10_0]
  · isplitr; · iexact HIo
    isplitr; · iexact HIt
    isplitl [Hg_agccw_r_9_0]; · iexact Hg_agccw_r_9_0
    isplitl [Hd_agccw_r_10_0]; · iexact Hd_agccw_r_10_0
    isplitl [HO]; · iexact HO
    isplitl [Hts_agccw_s_0_5]; · iexact Hts_agccw_s_0_5
    isplitr; · iexact Hrch_agccw_s_0_5
    isplitl [Htn_agccw_r_10_0]; · iexact Htn_agccw_r_10_0
    iexact Hrn_agccw_r_10_0
  iintro ⟨Hcs_agccw_s_0_5, HO⟩
  iclear HIo HIt
  -- wait recv ag cw t=9 b=1
  try sl_exec_parts
  ihave #HIo := (bigSepL_elim_idx ownQs _ 65 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 104) (W := _) (R := 0) (m := 0) (T := ∅)
      (by rw [Nat.zero_add, expect_agcw_r_9_1 X c])) $$ [Hc_agcw_r_9_1 HO Hat_agcw_r_9_1]
  · isplitr; · iexact HIo
    isplitl [Hc_agcw_r_9_1]; · iexact Hc_agcw_r_9_1
    isplitl [HO]; · iexact HO
    isplitr; · iapply (mayWait_rem (F := F) c 104 (by decide) _ (by show (102 : ℕ) < 2 + 104; decide)); iexact Hlev
    iexact Hat_agcw_r_9_1
  iintro ⟨HO, Hat_agcw_r_9_1, #Hrch_agcw_r_9_1_1, Hpay⟩
  iclear HIo
  ihave Hp := (Entails.of_eq (rest_single X _ _ _ (duties_agcw_r_9_1 X c) (payload_agcw_r_9_1 X c false))) $$ Hpay
  irename Hp => Hg_agcw_r_9_1
  -- wait send ag cw t=8 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 104) (W := _) (R := 4) (m := 0) (T := ∅)
      (by rw [Nat.zero_add, expect_agcw_s_1_4 X c])) $$ [Hcs_agcw_s_1_4 HO Hat_agcw_s_1]
  · isplitr; · iexact HIo
    isplitl [Hcs_agcw_s_1_4]; · iexact Hcs_agcw_s_1_4
    isplitl [HO]; · iexact HO
    isplitr; · iapply (mayWait_rem (F := F) c 104 (by decide) _ (by show (0 : ℕ) < 2 + 104; decide)); iexact Hlev
    iexact Hat_agcw_s_1
  iintro ⟨HO, Hat_agcw_s_1, #Hrch_agcw_s_1_5, Hpay⟩
  iclear HIo
  ihave Hp := (Entails.of_eq (rest_single X _ _ _ (duties_agcw_s_1_4 X c) (payload_agcw_s_1_4 X c false))) $$ Hpay
  irename Hp => Hback_agcw_r_7_1
  -- send ag cw t=10 b=1 (payment 104, device function 105)
  try sl_exec_parts
  ihave HO := (owes_congr (rem_peel_104 c)) $$ HO
  ihave #HIo := (bigSepL_elim_idx ownQs _ 9 (by decide)) $$ HInvOwn
  ihave #HIt := (bigSepL_elim_idx recvCw _ 51 (by decide)) $$ HInbCw
  iapply (@send_owns_at F _ X c (nxt c) ⟨k0_dev105 c, k0_dev105_lt c⟩ (dev105_eq c _) (rows oM (off true (c.val + 6) 1) (off_inb true _ 1)) (rows oM (off true (c.val + 6) 1) (off_inb true _ 1)) _ (qS cc0_scratch6 1 inb_S4_S1_1) (qR cc0_scratch7 10 1 inb_S15x2_S1x1_10_1) _ _ _ _ _ _ fullShare (doneV X true 1 (devAt c 6)) 5 (K (dcell c (qS cc0_scratch6 1 inb_S4_S1_1))) (K (dcell (nxt c) (qR cc0_scratch7 10 1 inb_S15x2_S1x1_10_1))) _ (rem c 105) _ (by rw [duties_agcw_s_1_5 X c]; exact Finset.mem_singleton_self _) (by rw [duties_agcw_r_10_1 X (nxt c)]; exact Finset.mem_singleton_self _) (by exact amount_agcw_s_1_5 X c false) (by exact amount_agcw_r_10_1 X (nxt c) false) (by rfl) (by exact payload_agcw_s_1_5 X c false) (by exact hp2_agcw_r_10_1 X c) (by rfl) (by routes)) $$ [Hg_agcw_r_9_1 Hd_agcw_r_10_1 HO Hts_agcw_s_1_5 Htn_agcw_r_10_1]
  · isplitr; · iexact HIo
    isplitr; · iexact HIt
    isplitl [Hg_agcw_r_9_1]; · iexact Hg_agcw_r_9_1
    isplitl [Hd_agcw_r_10_1]; · iexact Hd_agcw_r_10_1
    isplitl [HO]; · iexact HO
    isplitl [Hts_agcw_s_1_5]; · iexact Hts_agcw_s_1_5
    isplitr; · iexact Hrch_agcw_s_1_5
    isplitl [Htn_agcw_r_10_1]; · iexact Htn_agcw_r_10_1
    iexact Hrn_agcw_r_10_1
  iintro ⟨Hcs_agcw_s_1_5, HO⟩
  iclear HIo HIt
  -- wait recv ag ccw t=9 b=1
  try sl_exec_parts
  ihave #HIo := (bigSepL_elim_idx ownQs _ 125 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 105) (W := _) (R := 0) (m := 0) (T := ∅)
      (by rw [Nat.zero_add, expect_agccw_r_9_1 X c])) $$ [Hc_agccw_r_9_1 HO Hat_agccw_r_9_1]
  · isplitr; · iexact HIo
    isplitl [Hc_agccw_r_9_1]; · iexact Hc_agccw_r_9_1
    isplitl [HO]; · iexact HO
    isplitr; · iapply (mayWait_rem (F := F) c 105 (by decide) _ (by show (103 : ℕ) < 2 + 105; decide)); iexact Hlev
    iexact Hat_agccw_r_9_1
  iintro ⟨HO, Hat_agccw_r_9_1, #Hrch_agccw_r_9_1_1, Hpay⟩
  iclear HIo
  ihave Hp := (Entails.of_eq (rest_single X _ _ _ (duties_agccw_r_9_1 X c) (payload_agccw_r_9_1 X c false))) $$ Hpay
  irename Hp => Hg_agccw_r_9_1
  -- wait send ag ccw t=8 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 105) (W := _) (R := 4) (m := 0) (T := ∅)
      (by rw [Nat.zero_add, expect_agccw_s_1_4 X c])) $$ [Hcs_agccw_s_1_4 HO Hat_agccw_s_1]
  · isplitr; · iexact HIo
    isplitl [Hcs_agccw_s_1_4]; · iexact Hcs_agccw_s_1_4
    isplitl [HO]; · iexact HO
    isplitr; · iapply (mayWait_rem (F := F) c 105 (by decide) _ (by show (0 : ℕ) < 2 + 105; decide)); iexact Hlev
    iexact Hat_agccw_s_1
  iintro ⟨HO, Hat_agccw_s_1, #Hrch_agccw_s_1_5, Hpay⟩
  iclear HIo
  ihave Hp := (Entails.of_eq (rest_single X _ _ _ (duties_agccw_s_1_4 X c) (payload_agccw_s_1_4 X c false))) $$ Hpay
  irename Hp => Hback_agccw_r_7_1
  -- send ag ccw t=10 b=1 (payment 105, device function 106)
  try sl_exec_parts
  ihave HO := (owes_congr (rem_peel_105 c)) $$ HO
  ihave #HIo := (bigSepL_elim_idx ownQs _ 13 (by decide)) $$ HInvOwn
  ihave #HIt := (bigSepL_elim_idx recvCcw _ 51 (by decide)) $$ HInbCcw
  iapply (@send_owns_at F _ X c (prv c) ⟨k0_dev106 c, k0_dev106_lt c⟩ (dev106_eq c _) (rows oM (off false (c.val + 10) 1) (off_inb false _ 1)) (rows oM (off false (c.val + 10) 1) (off_inb false _ 1)) _ (qS cc0_scratch8 1 inb_S4_S1_1) (qR cc0_scratch9 10 1 inb_S15x2_S1x1_10_1) _ _ _ _ _ _ fullShare (doneV X false 1 (devAt c 10)) 5 (K (dcell c (qS cc0_scratch8 1 inb_S4_S1_1))) (K (dcell (prv c) (qR cc0_scratch9 10 1 inb_S15x2_S1x1_10_1))) _ (rem c 106) _ (by rw [duties_agccw_s_1_5 X c]; exact Finset.mem_singleton_self _) (by rw [duties_agccw_r_10_1 X (prv c)]; exact Finset.mem_singleton_self _) (by exact amount_agccw_s_1_5 X c false) (by exact amount_agccw_r_10_1 X (prv c) false) (by rfl) (by exact payload_agccw_s_1_5 X c false) (by exact hp2_agccw_r_10_1 X c) (by rfl) (by routes)) $$ [Hg_agccw_r_9_1 Hd_agccw_r_10_1 HO Hts_agccw_s_1_5 Htn_agccw_r_10_1]
  · isplitr; · iexact HIo
    isplitr; · iexact HIt
    isplitl [Hg_agccw_r_9_1]; · iexact Hg_agccw_r_9_1
    isplitl [Hd_agccw_r_10_1]; · iexact Hd_agccw_r_10_1
    isplitl [HO]; · iexact HO
    isplitl [Hts_agccw_s_1_5]; · iexact Hts_agccw_s_1_5
    isplitr; · iexact Hrch_agccw_s_1_5
    isplitl [Htn_agccw_r_10_1]; · iexact Htn_agccw_r_10_1
    iexact Hrn_agccw_r_10_1
  iintro ⟨Hcs_agccw_s_1_5, HO⟩
  iclear HIo HIt
  -- wait recv ag cw t=10 b=0
  try sl_exec_parts
  ihave #HIo := (bigSepL_elim_idx ownQs _ 66 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 106) (W := _) (R := 0) (m := 0) (T := ∅)
      (by rw [Nat.zero_add, expect_agcw_r_10_0 X c])) $$ [Hc_agcw_r_10_0 HO Hat_agcw_r_10_0]
  · isplitr; · iexact HIo
    isplitl [Hc_agcw_r_10_0]; · iexact Hc_agcw_r_10_0
    isplitl [HO]; · iexact HO
    isplitr; · iapply (mayWait_rem (F := F) c 106 (by decide) _ (by show (104 : ℕ) < 2 + 106; decide)); iexact Hlev
    iexact Hat_agcw_r_10_0
  iintro ⟨HO, Hat_agcw_r_10_0, #Hrch_agcw_r_10_0_1, Hpay⟩
  iclear HIo
  ihave Hp := (Entails.of_eq (rest_single X _ _ _ (duties_agcw_r_10_0 X c) (payload_agcw_r_10_0 X c false))) $$ Hpay
  irename Hp => Hg_agcw_r_10_0
  -- wait send ag cw t=9 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 106) (W := _) (R := 4) (m := 0) (T := ∅)
      (by rw [Nat.zero_add, expect_agcw_s_2_4 X c])) $$ [Hcs_agcw_s_2_4 HO Hat_agcw_s_2]
  · isplitr; · iexact HIo
    isplitl [Hcs_agcw_s_2_4]; · iexact Hcs_agcw_s_2_4
    isplitl [HO]; · iexact HO
    isplitr; · iapply (mayWait_rem (F := F) c 106 (by decide) _ (by show (0 : ℕ) < 2 + 106; decide)); iexact Hlev
    iexact Hat_agcw_s_2
  iintro ⟨HO, Hat_agcw_s_2, #Hrch_agcw_s_2_5, Hpay⟩
  iclear HIo
  ihave Hp := (Entails.of_eq (rest_single X _ _ _ (duties_agcw_s_2_4 X c) (payload_agcw_s_2_4 X c false))) $$ Hpay
  irename Hp => Hback_agcw_r_8_0
  -- send ag cw t=11 b=0 (payment 106, device function 107)
  try sl_exec_parts
  ihave HO := (owes_congr (rem_peel_106 c)) $$ HO
  ihave #HIo := (bigSepL_elim_idx ownQs _ 10 (by decide)) $$ HInvOwn
  ihave #HIt := (bigSepL_elim_idx recvCw _ 52 (by decide)) $$ HInbCw
  iapply (@send_owns_at F _ X c (nxt c) ⟨k0_dev107 c, k0_dev107_lt c⟩ (dev107_eq c _) (rows oM (off true (c.val + 5) 0) (off_inb true _ 0)) (rows oM (off true (c.val + 5) 0) (off_inb true _ 0)) _ (qS cc0_scratch6 2 inb_S4_S1_2) (qR cc0_scratch7 11 0 inb_S15x2_S1x1_11_0) _ _ _ _ _ _ fullShare (doneV X true 0 (devAt c 5)) 5 (K (dcell c (qS cc0_scratch6 2 inb_S4_S1_2))) (K (dcell (nxt c) (qR cc0_scratch7 11 0 inb_S15x2_S1x1_11_0))) _ (rem c 107) _ (by rw [duties_agcw_s_2_5 X c]; exact Finset.mem_singleton_self _) (by rw [duties_agcw_r_11_0 X (nxt c)]; exact Finset.mem_singleton_self _) (by exact amount_agcw_s_2_5 X c false) (by exact amount_agcw_r_11_0 X (nxt c) false) (by rfl) (by exact payload_agcw_s_2_5 X c false) (by exact hp2_agcw_r_11_0 X c) (by rfl) (by routes)) $$ [Hg_agcw_r_10_0 Hd_agcw_r_11_0 HO Hts_agcw_s_2_5 Htn_agcw_r_11_0]
  · isplitr; · iexact HIo
    isplitr; · iexact HIt
    isplitl [Hg_agcw_r_10_0]; · iexact Hg_agcw_r_10_0
    isplitl [Hd_agcw_r_11_0]; · iexact Hd_agcw_r_11_0
    isplitl [HO]; · iexact HO
    isplitl [Hts_agcw_s_2_5]; · iexact Hts_agcw_s_2_5
    isplitr; · iexact Hrch_agcw_s_2_5
    isplitl [Htn_agcw_r_11_0]; · iexact Htn_agcw_r_11_0
    iexact Hrn_agcw_r_11_0
  iintro ⟨Hcs_agcw_s_2_5, HO⟩
  iclear HIo HIt
  -- wait recv ag ccw t=10 b=0
  try sl_exec_parts
  ihave #HIo := (bigSepL_elim_idx ownQs _ 126 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 107) (W := _) (R := 0) (m := 0) (T := ∅)
      (by rw [Nat.zero_add, expect_agccw_r_10_0 X c])) $$ [Hc_agccw_r_10_0 HO Hat_agccw_r_10_0]
  · isplitr; · iexact HIo
    isplitl [Hc_agccw_r_10_0]; · iexact Hc_agccw_r_10_0
    isplitl [HO]; · iexact HO
    isplitr; · iapply (mayWait_rem (F := F) c 107 (by decide) _ (by show (105 : ℕ) < 2 + 107; decide)); iexact Hlev
    iexact Hat_agccw_r_10_0
  iintro ⟨HO, Hat_agccw_r_10_0, #Hrch_agccw_r_10_0_1, Hpay⟩
  iclear HIo
  ihave Hp := (Entails.of_eq (rest_single X _ _ _ (duties_agccw_r_10_0 X c) (payload_agccw_r_10_0 X c false))) $$ Hpay
  irename Hp => Hg_agccw_r_10_0
  -- wait send ag ccw t=9 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 107) (W := _) (R := 4) (m := 0) (T := ∅)
      (by rw [Nat.zero_add, expect_agccw_s_2_4 X c])) $$ [Hcs_agccw_s_2_4 HO Hat_agccw_s_2]
  · isplitr; · iexact HIo
    isplitl [Hcs_agccw_s_2_4]; · iexact Hcs_agccw_s_2_4
    isplitl [HO]; · iexact HO
    isplitr; · iapply (mayWait_rem (F := F) c 107 (by decide) _ (by show (0 : ℕ) < 2 + 107; decide)); iexact Hlev
    iexact Hat_agccw_s_2
  iintro ⟨HO, Hat_agccw_s_2, #Hrch_agccw_s_2_5, Hpay⟩
  iclear HIo
  ihave Hp := (Entails.of_eq (rest_single X _ _ _ (duties_agccw_s_2_4 X c) (payload_agccw_s_2_4 X c false))) $$ Hpay
  irename Hp => Hback_agccw_r_8_0
  -- send ag ccw t=11 b=0 (payment 107, device function 108)
  try sl_exec_parts
  ihave HO := (owes_congr (rem_peel_107 c)) $$ HO
  ihave #HIo := (bigSepL_elim_idx ownQs _ 14 (by decide)) $$ HInvOwn
  ihave #HIt := (bigSepL_elim_idx recvCcw _ 52 (by decide)) $$ HInbCcw
  iapply (@send_owns_at F _ X c (prv c) ⟨k0_dev108 c, k0_dev108_lt c⟩ (dev108_eq c _) (rows oM (off false (c.val + 11) 0) (off_inb false _ 0)) (rows oM (off false (c.val + 11) 0) (off_inb false _ 0)) _ (qS cc0_scratch8 2 inb_S4_S1_2) (qR cc0_scratch9 11 0 inb_S15x2_S1x1_11_0) _ _ _ _ _ _ fullShare (doneV X false 0 (devAt c 11)) 5 (K (dcell c (qS cc0_scratch8 2 inb_S4_S1_2))) (K (dcell (prv c) (qR cc0_scratch9 11 0 inb_S15x2_S1x1_11_0))) _ (rem c 108) _ (by rw [duties_agccw_s_2_5 X c]; exact Finset.mem_singleton_self _) (by rw [duties_agccw_r_11_0 X (prv c)]; exact Finset.mem_singleton_self _) (by exact amount_agccw_s_2_5 X c false) (by exact amount_agccw_r_11_0 X (prv c) false) (by rfl) (by exact payload_agccw_s_2_5 X c false) (by exact hp2_agccw_r_11_0 X c) (by rfl) (by routes)) $$ [Hg_agccw_r_10_0 Hd_agccw_r_11_0 HO Hts_agccw_s_2_5 Htn_agccw_r_11_0]
  · isplitr; · iexact HIo
    isplitr; · iexact HIt
    isplitl [Hg_agccw_r_10_0]; · iexact Hg_agccw_r_10_0
    isplitl [Hd_agccw_r_11_0]; · iexact Hd_agccw_r_11_0
    isplitl [HO]; · iexact HO
    isplitl [Hts_agccw_s_2_5]; · iexact Hts_agccw_s_2_5
    isplitr; · iexact Hrch_agccw_s_2_5
    isplitl [Htn_agccw_r_11_0]; · iexact Htn_agccw_r_11_0
    iexact Hrn_agccw_r_11_0
  iintro ⟨Hcs_agccw_s_2_5, HO⟩
  iclear HIo HIt
  -- wait recv ag cw t=10 b=1
  try sl_exec_parts
  ihave #HIo := (bigSepL_elim_idx ownQs _ 67 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 108) (W := _) (R := 0) (m := 0) (T := ∅)
      (by rw [Nat.zero_add, expect_agcw_r_10_1 X c])) $$ [Hc_agcw_r_10_1 HO Hat_agcw_r_10_1]
  · isplitr; · iexact HIo
    isplitl [Hc_agcw_r_10_1]; · iexact Hc_agcw_r_10_1
    isplitl [HO]; · iexact HO
    isplitr; · iapply (mayWait_rem (F := F) c 108 (by decide) _ (by show (106 : ℕ) < 2 + 108; decide)); iexact Hlev
    iexact Hat_agcw_r_10_1
  iintro ⟨HO, Hat_agcw_r_10_1, #Hrch_agcw_r_10_1_1, Hpay⟩
  iclear HIo
  ihave Hp := (Entails.of_eq (rest_single X _ _ _ (duties_agcw_r_10_1 X c) (payload_agcw_r_10_1 X c false))) $$ Hpay
  irename Hp => Hg_agcw_r_10_1
  -- wait send ag cw t=9 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 108) (W := _) (R := 4) (m := 0) (T := ∅)
      (by rw [Nat.zero_add, expect_agcw_s_3_4 X c])) $$ [Hcs_agcw_s_3_4 HO Hat_agcw_s_3]
  · isplitr; · iexact HIo
    isplitl [Hcs_agcw_s_3_4]; · iexact Hcs_agcw_s_3_4
    isplitl [HO]; · iexact HO
    isplitr; · iapply (mayWait_rem (F := F) c 108 (by decide) _ (by show (0 : ℕ) < 2 + 108; decide)); iexact Hlev
    iexact Hat_agcw_s_3
  iintro ⟨HO, Hat_agcw_s_3, #Hrch_agcw_s_3_5, Hpay⟩
  iclear HIo
  ihave Hp := (Entails.of_eq (rest_single X _ _ _ (duties_agcw_s_3_4 X c) (payload_agcw_s_3_4 X c false))) $$ Hpay
  irename Hp => Hback_agcw_r_8_1
  -- send ag cw t=11 b=1 (payment 108, device function 109)
  try sl_exec_parts
  ihave HO := (owes_congr (rem_peel_108 c)) $$ HO
  ihave #HIo := (bigSepL_elim_idx ownQs _ 11 (by decide)) $$ HInvOwn
  ihave #HIt := (bigSepL_elim_idx recvCw _ 53 (by decide)) $$ HInbCw
  iapply (@send_owns_at F _ X c (nxt c) ⟨k0_dev109 c, k0_dev109_lt c⟩ (dev109_eq c _) (rows oM (off true (c.val + 5) 1) (off_inb true _ 1)) (rows oM (off true (c.val + 5) 1) (off_inb true _ 1)) _ (qS cc0_scratch6 3 inb_S4_S1_3) (qR cc0_scratch7 11 1 inb_S15x2_S1x1_11_1) _ _ _ _ _ _ fullShare (doneV X true 1 (devAt c 5)) 5 (K (dcell c (qS cc0_scratch6 3 inb_S4_S1_3))) (K (dcell (nxt c) (qR cc0_scratch7 11 1 inb_S15x2_S1x1_11_1))) _ (rem c 109) _ (by rw [duties_agcw_s_3_5 X c]; exact Finset.mem_singleton_self _) (by rw [duties_agcw_r_11_1 X (nxt c)]; exact Finset.mem_singleton_self _) (by exact amount_agcw_s_3_5 X c false) (by exact amount_agcw_r_11_1 X (nxt c) false) (by rfl) (by exact payload_agcw_s_3_5 X c false) (by exact hp2_agcw_r_11_1 X c) (by rfl) (by routes)) $$ [Hg_agcw_r_10_1 Hd_agcw_r_11_1 HO Hts_agcw_s_3_5 Htn_agcw_r_11_1]
  · isplitr; · iexact HIo
    isplitr; · iexact HIt
    isplitl [Hg_agcw_r_10_1]; · iexact Hg_agcw_r_10_1
    isplitl [Hd_agcw_r_11_1]; · iexact Hd_agcw_r_11_1
    isplitl [HO]; · iexact HO
    isplitl [Hts_agcw_s_3_5]; · iexact Hts_agcw_s_3_5
    isplitr; · iexact Hrch_agcw_s_3_5
    isplitl [Htn_agcw_r_11_1]; · iexact Htn_agcw_r_11_1
    iexact Hrn_agcw_r_11_1
  iintro ⟨Hcs_agcw_s_3_5, HO⟩
  iclear HIo HIt
  -- wait recv ag ccw t=10 b=1
  try sl_exec_parts
  ihave #HIo := (bigSepL_elim_idx ownQs _ 127 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 109) (W := _) (R := 0) (m := 0) (T := ∅)
      (by rw [Nat.zero_add, expect_agccw_r_10_1 X c])) $$ [Hc_agccw_r_10_1 HO Hat_agccw_r_10_1]
  · isplitr; · iexact HIo
    isplitl [Hc_agccw_r_10_1]; · iexact Hc_agccw_r_10_1
    isplitl [HO]; · iexact HO
    isplitr; · iapply (mayWait_rem (F := F) c 109 (by decide) _ (by show (107 : ℕ) < 2 + 109; decide)); iexact Hlev
    iexact Hat_agccw_r_10_1
  iintro ⟨HO, Hat_agccw_r_10_1, #Hrch_agccw_r_10_1_1, Hpay⟩
  iclear HIo
  ihave Hp := (Entails.of_eq (rest_single X _ _ _ (duties_agccw_r_10_1 X c) (payload_agccw_r_10_1 X c false))) $$ Hpay
  irename Hp => Hg_agccw_r_10_1
  -- wait send ag ccw t=9 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 109) (W := _) (R := 4) (m := 0) (T := ∅)
      (by rw [Nat.zero_add, expect_agccw_s_3_4 X c])) $$ [Hcs_agccw_s_3_4 HO Hat_agccw_s_3]
  · isplitr; · iexact HIo
    isplitl [Hcs_agccw_s_3_4]; · iexact Hcs_agccw_s_3_4
    isplitl [HO]; · iexact HO
    isplitr; · iapply (mayWait_rem (F := F) c 109 (by decide) _ (by show (0 : ℕ) < 2 + 109; decide)); iexact Hlev
    iexact Hat_agccw_s_3
  iintro ⟨HO, Hat_agccw_s_3, #Hrch_agccw_s_3_5, Hpay⟩
  iclear HIo
  ihave Hp := (Entails.of_eq (rest_single X _ _ _ (duties_agccw_s_3_4 X c) (payload_agccw_s_3_4 X c false))) $$ Hpay
  irename Hp => Hback_agccw_r_8_1
  -- send ag ccw t=11 b=1 (payment 109, device function 110)
  try sl_exec_parts
  ihave HO := (owes_congr (rem_peel_109 c)) $$ HO
  ihave #HIo := (bigSepL_elim_idx ownQs _ 15 (by decide)) $$ HInvOwn
  ihave #HIt := (bigSepL_elim_idx recvCcw _ 53 (by decide)) $$ HInbCcw
  iapply (@send_owns_at F _ X c (prv c) ⟨k0_dev110 c, k0_dev110_lt c⟩ (dev110_eq c _) (rows oM (off false (c.val + 11) 1) (off_inb false _ 1)) (rows oM (off false (c.val + 11) 1) (off_inb false _ 1)) _ (qS cc0_scratch8 3 inb_S4_S1_3) (qR cc0_scratch9 11 1 inb_S15x2_S1x1_11_1) _ _ _ _ _ _ fullShare (doneV X false 1 (devAt c 11)) 5 (K (dcell c (qS cc0_scratch8 3 inb_S4_S1_3))) (K (dcell (prv c) (qR cc0_scratch9 11 1 inb_S15x2_S1x1_11_1))) _ (rem c 110) _ (by rw [duties_agccw_s_3_5 X c]; exact Finset.mem_singleton_self _) (by rw [duties_agccw_r_11_1 X (prv c)]; exact Finset.mem_singleton_self _) (by exact amount_agccw_s_3_5 X c false) (by exact amount_agccw_r_11_1 X (prv c) false) (by rfl) (by exact payload_agccw_s_3_5 X c false) (by exact hp2_agccw_r_11_1 X c) (by rfl) (by routes)) $$ [Hg_agccw_r_10_1 Hd_agccw_r_11_1 HO Hts_agccw_s_3_5 Htn_agccw_r_11_1]
  · isplitr; · iexact HIo
    isplitr; · iexact HIt
    isplitl [Hg_agccw_r_10_1]; · iexact Hg_agccw_r_10_1
    isplitl [Hd_agccw_r_11_1]; · iexact Hd_agccw_r_11_1
    isplitl [HO]; · iexact HO
    isplitl [Hts_agccw_s_3_5]; · iexact Hts_agccw_s_3_5
    isplitr; · iexact Hrch_agccw_s_3_5
    isplitl [Htn_agccw_r_11_1]; · iexact Htn_agccw_r_11_1
    iexact Hrn_agccw_r_11_1
  iintro ⟨Hcs_agccw_s_3_5, HO⟩
  iclear HIo HIt
  -- wait recv ag cw t=11 b=0
  try sl_exec_parts
  ihave #HIo := (bigSepL_elim_idx ownQs _ 68 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 110) (W := _) (R := 0) (m := 0) (T := ∅)
      (by rw [Nat.zero_add, expect_agcw_r_11_0 X c])) $$ [Hc_agcw_r_11_0 HO Hat_agcw_r_11_0]
  · isplitr; · iexact HIo
    isplitl [Hc_agcw_r_11_0]; · iexact Hc_agcw_r_11_0
    isplitl [HO]; · iexact HO
    isplitr; · iapply (mayWait_rem (F := F) c 110 (by decide) _ (by show (108 : ℕ) < 2 + 110; decide)); iexact Hlev
    iexact Hat_agcw_r_11_0
  iintro ⟨HO, Hat_agcw_r_11_0, #Hrch_agcw_r_11_0_1, Hpay⟩
  iclear HIo
  ihave Hp := (Entails.of_eq (rest_single X _ _ _ (duties_agcw_r_11_0 X c) (payload_agcw_r_11_0 X c false))) $$ Hpay
  irename Hp => Hg_agcw_r_11_0
  -- wait send ag cw t=10 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 110) (W := _) (R := 5) (m := 0) (T := ∅)
      (by rw [Nat.zero_add, expect_agcw_s_0_5 X c])) $$ [Hcs_agcw_s_0_5 HO Hat_agcw_s_0]
  · isplitr; · iexact HIo
    isplitl [Hcs_agcw_s_0_5]; · iexact Hcs_agcw_s_0_5
    isplitl [HO]; · iexact HO
    isplitr; · iapply (mayWait_rem (F := F) c 110 (by decide) _ (by show (0 : ℕ) < 2 + 110; decide)); iexact Hlev
    iexact Hat_agcw_s_0
  iintro ⟨HO, Hat_agcw_s_0, #Hrch_agcw_s_0_6, Hpay⟩
  iclear HIo
  ihave Hp := (Entails.of_eq (rest_single X _ _ _ (duties_agcw_s_0_5 X c) (payload_agcw_s_0_5 X c false))) $$ Hpay
  irename Hp => Hback_agcw_r_9_0
  -- send ag cw t=12 b=0 (payment 110, device function 111)
  try sl_exec_parts
  ihave HO := (owes_congr (rem_peel_110 c)) $$ HO
  ihave #HIo := (bigSepL_elim_idx ownQs _ 8 (by decide)) $$ HInvOwn
  ihave #HIt := (bigSepL_elim_idx recvCw _ 54 (by decide)) $$ HInbCw
  iapply (@send_owns_at F _ X c (nxt c) ⟨k0_dev111 c, k0_dev111_lt c⟩ (dev111_eq c _) (rows oM (off true (c.val + 4) 0) (off_inb true _ 0)) (rows oM (off true (c.val + 4) 0) (off_inb true _ 0)) _ (qS cc0_scratch6 0 inb_S4_S1_0) (qR cc0_scratch7 12 0 inb_S15x2_S1x1_12_0) _ _ _ _ _ _ fullShare (doneV X true 0 (devAt c 4)) 6 (K (dcell c (qS cc0_scratch6 0 inb_S4_S1_0))) (K (dcell (nxt c) (qR cc0_scratch7 12 0 inb_S15x2_S1x1_12_0))) _ (rem c 111) _ (by rw [duties_agcw_s_0_6 X c]; exact Finset.mem_singleton_self _) (by rw [duties_agcw_r_12_0 X (nxt c)]; exact Finset.mem_singleton_self _) (by exact amount_agcw_s_0_6 X c false) (by exact amount_agcw_r_12_0 X (nxt c) false) (by rfl) (by exact payload_agcw_s_0_6 X c false) (by exact hp2_agcw_r_12_0 X c) (by rfl) (by routes)) $$ [Hg_agcw_r_11_0 Hd_agcw_r_12_0 HO Hts_agcw_s_0_6 Htn_agcw_r_12_0]
  · isplitr; · iexact HIo
    isplitr; · iexact HIt
    isplitl [Hg_agcw_r_11_0]; · iexact Hg_agcw_r_11_0
    isplitl [Hd_agcw_r_12_0]; · iexact Hd_agcw_r_12_0
    isplitl [HO]; · iexact HO
    isplitl [Hts_agcw_s_0_6]; · iexact Hts_agcw_s_0_6
    isplitr; · iexact Hrch_agcw_s_0_6
    isplitl [Htn_agcw_r_12_0]; · iexact Htn_agcw_r_12_0
    iexact Hrn_agcw_r_12_0
  iintro ⟨Hcs_agcw_s_0_6, HO⟩
  iclear HIo HIt
  -- wait recv ag ccw t=11 b=0
  try sl_exec_parts
  ihave #HIo := (bigSepL_elim_idx ownQs _ 128 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 111) (W := _) (R := 0) (m := 0) (T := ∅)
      (by rw [Nat.zero_add, expect_agccw_r_11_0 X c])) $$ [Hc_agccw_r_11_0 HO Hat_agccw_r_11_0]
  · isplitr; · iexact HIo
    isplitl [Hc_agccw_r_11_0]; · iexact Hc_agccw_r_11_0
    isplitl [HO]; · iexact HO
    isplitr; · iapply (mayWait_rem (F := F) c 111 (by decide) _ (by show (109 : ℕ) < 2 + 111; decide)); iexact Hlev
    iexact Hat_agccw_r_11_0
  iintro ⟨HO, Hat_agccw_r_11_0, #Hrch_agccw_r_11_0_1, Hpay⟩
  iclear HIo
  ihave Hp := (Entails.of_eq (rest_single X _ _ _ (duties_agccw_r_11_0 X c) (payload_agccw_r_11_0 X c false))) $$ Hpay
  irename Hp => Hg_agccw_r_11_0
  -- wait send ag ccw t=10 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 111) (W := _) (R := 5) (m := 0) (T := ∅)
      (by rw [Nat.zero_add, expect_agccw_s_0_5 X c])) $$ [Hcs_agccw_s_0_5 HO Hat_agccw_s_0]
  · isplitr; · iexact HIo
    isplitl [Hcs_agccw_s_0_5]; · iexact Hcs_agccw_s_0_5
    isplitl [HO]; · iexact HO
    isplitr; · iapply (mayWait_rem (F := F) c 111 (by decide) _ (by show (0 : ℕ) < 2 + 111; decide)); iexact Hlev
    iexact Hat_agccw_s_0
  iintro ⟨HO, Hat_agccw_s_0, #Hrch_agccw_s_0_6, Hpay⟩
  iclear HIo
  ihave Hp := (Entails.of_eq (rest_single X _ _ _ (duties_agccw_s_0_5 X c) (payload_agccw_s_0_5 X c false))) $$ Hpay
  irename Hp => Hback_agccw_r_9_0
  -- send ag ccw t=12 b=0 (payment 111, device function 112)
  try sl_exec_parts
  ihave HO := (owes_congr (rem_peel_111 c)) $$ HO
  ihave #HIo := (bigSepL_elim_idx ownQs _ 12 (by decide)) $$ HInvOwn
  ihave #HIt := (bigSepL_elim_idx recvCcw _ 54 (by decide)) $$ HInbCcw
  iapply (@send_owns_at F _ X c (prv c) ⟨k0_dev112 c, k0_dev112_lt c⟩ (dev112_eq c _) (rows oM (off false (c.val + 12) 0) (off_inb false _ 0)) (rows oM (off false (c.val + 12) 0) (off_inb false _ 0)) _ (qS cc0_scratch8 0 inb_S4_S1_0) (qR cc0_scratch9 12 0 inb_S15x2_S1x1_12_0) _ _ _ _ _ _ fullShare (doneV X false 0 (devAt c 12)) 6 (K (dcell c (qS cc0_scratch8 0 inb_S4_S1_0))) (K (dcell (prv c) (qR cc0_scratch9 12 0 inb_S15x2_S1x1_12_0))) _ (rem c 112) _ (by rw [duties_agccw_s_0_6 X c]; exact Finset.mem_singleton_self _) (by rw [duties_agccw_r_12_0 X (prv c)]; exact Finset.mem_singleton_self _) (by exact amount_agccw_s_0_6 X c false) (by exact amount_agccw_r_12_0 X (prv c) false) (by rfl) (by exact payload_agccw_s_0_6 X c false) (by exact hp2_agccw_r_12_0 X c) (by rfl) (by routes)) $$ [Hg_agccw_r_11_0 Hd_agccw_r_12_0 HO Hts_agccw_s_0_6 Htn_agccw_r_12_0]
  · isplitr; · iexact HIo
    isplitr; · iexact HIt
    isplitl [Hg_agccw_r_11_0]; · iexact Hg_agccw_r_11_0
    isplitl [Hd_agccw_r_12_0]; · iexact Hd_agccw_r_12_0
    isplitl [HO]; · iexact HO
    isplitl [Hts_agccw_s_0_6]; · iexact Hts_agccw_s_0_6
    isplitr; · iexact Hrch_agccw_s_0_6
    isplitl [Htn_agccw_r_12_0]; · iexact Htn_agccw_r_12_0
    iexact Hrn_agccw_r_12_0
  iintro ⟨Hcs_agccw_s_0_6, HO⟩
  iclear HIo HIt
  -- wait recv ag cw t=11 b=1
  try sl_exec_parts
  ihave #HIo := (bigSepL_elim_idx ownQs _ 69 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 112) (W := _) (R := 0) (m := 0) (T := ∅)
      (by rw [Nat.zero_add, expect_agcw_r_11_1 X c])) $$ [Hc_agcw_r_11_1 HO Hat_agcw_r_11_1]
  · isplitr; · iexact HIo
    isplitl [Hc_agcw_r_11_1]; · iexact Hc_agcw_r_11_1
    isplitl [HO]; · iexact HO
    isplitr; · iapply (mayWait_rem (F := F) c 112 (by decide) _ (by show (110 : ℕ) < 2 + 112; decide)); iexact Hlev
    iexact Hat_agcw_r_11_1
  iintro ⟨HO, Hat_agcw_r_11_1, #Hrch_agcw_r_11_1_1, Hpay⟩
  iclear HIo
  ihave Hp := (Entails.of_eq (rest_single X _ _ _ (duties_agcw_r_11_1 X c) (payload_agcw_r_11_1 X c false))) $$ Hpay
  irename Hp => Hg_agcw_r_11_1
  -- wait send ag cw t=10 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 112) (W := _) (R := 5) (m := 0) (T := ∅)
      (by rw [Nat.zero_add, expect_agcw_s_1_5 X c])) $$ [Hcs_agcw_s_1_5 HO Hat_agcw_s_1]
  · isplitr; · iexact HIo
    isplitl [Hcs_agcw_s_1_5]; · iexact Hcs_agcw_s_1_5
    isplitl [HO]; · iexact HO
    isplitr; · iapply (mayWait_rem (F := F) c 112 (by decide) _ (by show (0 : ℕ) < 2 + 112; decide)); iexact Hlev
    iexact Hat_agcw_s_1
  iintro ⟨HO, Hat_agcw_s_1, #Hrch_agcw_s_1_6, Hpay⟩
  iclear HIo
  ihave Hp := (Entails.of_eq (rest_single X _ _ _ (duties_agcw_s_1_5 X c) (payload_agcw_s_1_5 X c false))) $$ Hpay
  irename Hp => Hback_agcw_r_9_1
  -- send ag cw t=12 b=1 (payment 112, device function 113)
  try sl_exec_parts
  ihave HO := (owes_congr (rem_peel_112 c)) $$ HO
  ihave #HIo := (bigSepL_elim_idx ownQs _ 9 (by decide)) $$ HInvOwn
  ihave #HIt := (bigSepL_elim_idx recvCw _ 55 (by decide)) $$ HInbCw
  iapply (@send_owns_at F _ X c (nxt c) ⟨k0_dev113 c, k0_dev113_lt c⟩ (dev113_eq c _) (rows oM (off true (c.val + 4) 1) (off_inb true _ 1)) (rows oM (off true (c.val + 4) 1) (off_inb true _ 1)) _ (qS cc0_scratch6 1 inb_S4_S1_1) (qR cc0_scratch7 12 1 inb_S15x2_S1x1_12_1) _ _ _ _ _ _ fullShare (doneV X true 1 (devAt c 4)) 6 (K (dcell c (qS cc0_scratch6 1 inb_S4_S1_1))) (K (dcell (nxt c) (qR cc0_scratch7 12 1 inb_S15x2_S1x1_12_1))) _ (rem c 113) _ (by rw [duties_agcw_s_1_6 X c]; exact Finset.mem_singleton_self _) (by rw [duties_agcw_r_12_1 X (nxt c)]; exact Finset.mem_singleton_self _) (by exact amount_agcw_s_1_6 X c false) (by exact amount_agcw_r_12_1 X (nxt c) false) (by rfl) (by exact payload_agcw_s_1_6 X c false) (by exact hp2_agcw_r_12_1 X c) (by rfl) (by routes)) $$ [Hg_agcw_r_11_1 Hd_agcw_r_12_1 HO Hts_agcw_s_1_6 Htn_agcw_r_12_1]
  · isplitr; · iexact HIo
    isplitr; · iexact HIt
    isplitl [Hg_agcw_r_11_1]; · iexact Hg_agcw_r_11_1
    isplitl [Hd_agcw_r_12_1]; · iexact Hd_agcw_r_12_1
    isplitl [HO]; · iexact HO
    isplitl [Hts_agcw_s_1_6]; · iexact Hts_agcw_s_1_6
    isplitr; · iexact Hrch_agcw_s_1_6
    isplitl [Htn_agcw_r_12_1]; · iexact Htn_agcw_r_12_1
    iexact Hrn_agcw_r_12_1
  iintro ⟨Hcs_agcw_s_1_6, HO⟩
  iclear HIo HIt
  -- wait recv ag ccw t=11 b=1
  try sl_exec_parts
  ihave #HIo := (bigSepL_elim_idx ownQs _ 129 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 113) (W := _) (R := 0) (m := 0) (T := ∅)
      (by rw [Nat.zero_add, expect_agccw_r_11_1 X c])) $$ [Hc_agccw_r_11_1 HO Hat_agccw_r_11_1]
  · isplitr; · iexact HIo
    isplitl [Hc_agccw_r_11_1]; · iexact Hc_agccw_r_11_1
    isplitl [HO]; · iexact HO
    isplitr; · iapply (mayWait_rem (F := F) c 113 (by decide) _ (by show (111 : ℕ) < 2 + 113; decide)); iexact Hlev
    iexact Hat_agccw_r_11_1
  iintro ⟨HO, Hat_agccw_r_11_1, #Hrch_agccw_r_11_1_1, Hpay⟩
  iclear HIo
  ihave Hp := (Entails.of_eq (rest_single X _ _ _ (duties_agccw_r_11_1 X c) (payload_agccw_r_11_1 X c false))) $$ Hpay
  irename Hp => Hg_agccw_r_11_1
  -- wait send ag ccw t=10 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 113) (W := _) (R := 5) (m := 0) (T := ∅)
      (by rw [Nat.zero_add, expect_agccw_s_1_5 X c])) $$ [Hcs_agccw_s_1_5 HO Hat_agccw_s_1]
  · isplitr; · iexact HIo
    isplitl [Hcs_agccw_s_1_5]; · iexact Hcs_agccw_s_1_5
    isplitl [HO]; · iexact HO
    isplitr; · iapply (mayWait_rem (F := F) c 113 (by decide) _ (by show (0 : ℕ) < 2 + 113; decide)); iexact Hlev
    iexact Hat_agccw_s_1
  iintro ⟨HO, Hat_agccw_s_1, #Hrch_agccw_s_1_6, Hpay⟩
  iclear HIo
  ihave Hp := (Entails.of_eq (rest_single X _ _ _ (duties_agccw_s_1_5 X c) (payload_agccw_s_1_5 X c false))) $$ Hpay
  irename Hp => Hback_agccw_r_9_1
  -- send ag ccw t=12 b=1 (payment 113, device function 114)
  try sl_exec_parts
  ihave HO := (owes_congr (rem_peel_113 c)) $$ HO
  ihave #HIo := (bigSepL_elim_idx ownQs _ 13 (by decide)) $$ HInvOwn
  ihave #HIt := (bigSepL_elim_idx recvCcw _ 55 (by decide)) $$ HInbCcw
  iapply (@send_owns_at F _ X c (prv c) ⟨k0_dev114 c, k0_dev114_lt c⟩ (dev114_eq c _) (rows oM (off false (c.val + 12) 1) (off_inb false _ 1)) (rows oM (off false (c.val + 12) 1) (off_inb false _ 1)) _ (qS cc0_scratch8 1 inb_S4_S1_1) (qR cc0_scratch9 12 1 inb_S15x2_S1x1_12_1) _ _ _ _ _ _ fullShare (doneV X false 1 (devAt c 12)) 6 (K (dcell c (qS cc0_scratch8 1 inb_S4_S1_1))) (K (dcell (prv c) (qR cc0_scratch9 12 1 inb_S15x2_S1x1_12_1))) _ (rem c 114) _ (by rw [duties_agccw_s_1_6 X c]; exact Finset.mem_singleton_self _) (by rw [duties_agccw_r_12_1 X (prv c)]; exact Finset.mem_singleton_self _) (by exact amount_agccw_s_1_6 X c false) (by exact amount_agccw_r_12_1 X (prv c) false) (by rfl) (by exact payload_agccw_s_1_6 X c false) (by exact hp2_agccw_r_12_1 X c) (by rfl) (by routes)) $$ [Hg_agccw_r_11_1 Hd_agccw_r_12_1 HO Hts_agccw_s_1_6 Htn_agccw_r_12_1]
  · isplitr; · iexact HIo
    isplitr; · iexact HIt
    isplitl [Hg_agccw_r_11_1]; · iexact Hg_agccw_r_11_1
    isplitl [Hd_agccw_r_12_1]; · iexact Hd_agccw_r_12_1
    isplitl [HO]; · iexact HO
    isplitl [Hts_agccw_s_1_6]; · iexact Hts_agccw_s_1_6
    isplitr; · iexact Hrch_agccw_s_1_6
    isplitl [Htn_agccw_r_12_1]; · iexact Htn_agccw_r_12_1
    iexact Hrn_agccw_r_12_1
  iintro ⟨Hcs_agccw_s_1_6, HO⟩
  iclear HIo HIt
  -- wait recv ag cw t=12 b=0
  try sl_exec_parts
  ihave #HIo := (bigSepL_elim_idx ownQs _ 70 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 114) (W := _) (R := 0) (m := 0) (T := ∅)
      (by rw [Nat.zero_add, expect_agcw_r_12_0 X c])) $$ [Hc_agcw_r_12_0 HO Hat_agcw_r_12_0]
  · isplitr; · iexact HIo
    isplitl [Hc_agcw_r_12_0]; · iexact Hc_agcw_r_12_0
    isplitl [HO]; · iexact HO
    isplitr; · iapply (mayWait_rem (F := F) c 114 (by decide) _ (by show (112 : ℕ) < 2 + 114; decide)); iexact Hlev
    iexact Hat_agcw_r_12_0
  iintro ⟨HO, Hat_agcw_r_12_0, #Hrch_agcw_r_12_0_1, Hpay⟩
  iclear HIo
  ihave Hp := (Entails.of_eq (rest_single X _ _ _ (duties_agcw_r_12_0 X c) (payload_agcw_r_12_0 X c false))) $$ Hpay
  irename Hp => Hg_agcw_r_12_0
  -- wait send ag cw t=11 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 114) (W := _) (R := 5) (m := 0) (T := ∅)
      (by rw [Nat.zero_add, expect_agcw_s_2_5 X c])) $$ [Hcs_agcw_s_2_5 HO Hat_agcw_s_2]
  · isplitr; · iexact HIo
    isplitl [Hcs_agcw_s_2_5]; · iexact Hcs_agcw_s_2_5
    isplitl [HO]; · iexact HO
    isplitr; · iapply (mayWait_rem (F := F) c 114 (by decide) _ (by show (0 : ℕ) < 2 + 114; decide)); iexact Hlev
    iexact Hat_agcw_s_2
  iintro ⟨HO, Hat_agcw_s_2, #Hrch_agcw_s_2_6, Hpay⟩
  iclear HIo
  ihave Hp := (Entails.of_eq (rest_single X _ _ _ (duties_agcw_s_2_5 X c) (payload_agcw_s_2_5 X c false))) $$ Hpay
  irename Hp => Hback_agcw_r_10_0
  -- send ag cw t=13 b=0 (payment 114, device function 115)
  try sl_exec_parts
  ihave HO := (owes_congr (rem_peel_114 c)) $$ HO
  ihave #HIo := (bigSepL_elim_idx ownQs _ 10 (by decide)) $$ HInvOwn
  ihave #HIt := (bigSepL_elim_idx recvCw _ 56 (by decide)) $$ HInbCw
  iapply (@send_owns_at F _ X c (nxt c) ⟨k0_dev115 c, k0_dev115_lt c⟩ (dev115_eq c _) (rows oM (off true (c.val + 3) 0) (off_inb true _ 0)) (rows oM (off true (c.val + 3) 0) (off_inb true _ 0)) _ (qS cc0_scratch6 2 inb_S4_S1_2) (qR cc0_scratch7 13 0 inb_S15x2_S1x1_13_0) _ _ _ _ _ _ fullShare (doneV X true 0 (devAt c 3)) 6 (K (dcell c (qS cc0_scratch6 2 inb_S4_S1_2))) (K (dcell (nxt c) (qR cc0_scratch7 13 0 inb_S15x2_S1x1_13_0))) _ (rem c 115) _ (by rw [duties_agcw_s_2_6 X c]; exact Finset.mem_singleton_self _) (by rw [duties_agcw_r_13_0 X (nxt c)]; exact Finset.mem_singleton_self _) (by exact amount_agcw_s_2_6 X c false) (by exact amount_agcw_r_13_0 X (nxt c) false) (by rfl) (by exact payload_agcw_s_2_6 X c false) (by exact hp2_agcw_r_13_0 X c) (by rfl) (by routes)) $$ [Hg_agcw_r_12_0 Hd_agcw_r_13_0 HO Hts_agcw_s_2_6 Htn_agcw_r_13_0]
  · isplitr; · iexact HIo
    isplitr; · iexact HIt
    isplitl [Hg_agcw_r_12_0]; · iexact Hg_agcw_r_12_0
    isplitl [Hd_agcw_r_13_0]; · iexact Hd_agcw_r_13_0
    isplitl [HO]; · iexact HO
    isplitl [Hts_agcw_s_2_6]; · iexact Hts_agcw_s_2_6
    isplitr; · iexact Hrch_agcw_s_2_6
    isplitl [Htn_agcw_r_13_0]; · iexact Htn_agcw_r_13_0
    iexact Hrn_agcw_r_13_0
  iintro ⟨Hcs_agcw_s_2_6, HO⟩
  iclear HIo HIt
  -- wait recv ag ccw t=12 b=0
  try sl_exec_parts
  ihave #HIo := (bigSepL_elim_idx ownQs _ 130 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 115) (W := _) (R := 0) (m := 0) (T := ∅)
      (by rw [Nat.zero_add, expect_agccw_r_12_0 X c])) $$ [Hc_agccw_r_12_0 HO Hat_agccw_r_12_0]
  · isplitr; · iexact HIo
    isplitl [Hc_agccw_r_12_0]; · iexact Hc_agccw_r_12_0
    isplitl [HO]; · iexact HO
    isplitr; · iapply (mayWait_rem (F := F) c 115 (by decide) _ (by show (113 : ℕ) < 2 + 115; decide)); iexact Hlev
    iexact Hat_agccw_r_12_0
  iintro ⟨HO, Hat_agccw_r_12_0, #Hrch_agccw_r_12_0_1, Hpay⟩
  iclear HIo
  ihave Hp := (Entails.of_eq (rest_single X _ _ _ (duties_agccw_r_12_0 X c) (payload_agccw_r_12_0 X c false))) $$ Hpay
  irename Hp => Hg_agccw_r_12_0
  -- wait send ag ccw t=11 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 115) (W := _) (R := 5) (m := 0) (T := ∅)
      (by rw [Nat.zero_add, expect_agccw_s_2_5 X c])) $$ [Hcs_agccw_s_2_5 HO Hat_agccw_s_2]
  · isplitr; · iexact HIo
    isplitl [Hcs_agccw_s_2_5]; · iexact Hcs_agccw_s_2_5
    isplitl [HO]; · iexact HO
    isplitr; · iapply (mayWait_rem (F := F) c 115 (by decide) _ (by show (0 : ℕ) < 2 + 115; decide)); iexact Hlev
    iexact Hat_agccw_s_2
  iintro ⟨HO, Hat_agccw_s_2, #Hrch_agccw_s_2_6, Hpay⟩
  iclear HIo
  ihave Hp := (Entails.of_eq (rest_single X _ _ _ (duties_agccw_s_2_5 X c) (payload_agccw_s_2_5 X c false))) $$ Hpay
  irename Hp => Hback_agccw_r_10_0
  -- send ag ccw t=13 b=0 (payment 115, device function 116)
  try sl_exec_parts
  ihave HO := (owes_congr (rem_peel_115 c)) $$ HO
  ihave #HIo := (bigSepL_elim_idx ownQs _ 14 (by decide)) $$ HInvOwn
  ihave #HIt := (bigSepL_elim_idx recvCcw _ 56 (by decide)) $$ HInbCcw
  iapply (@send_owns_at F _ X c (prv c) ⟨k0_dev116 c, k0_dev116_lt c⟩ (dev116_eq c _) (rows oM (off false (c.val + 13) 0) (off_inb false _ 0)) (rows oM (off false (c.val + 13) 0) (off_inb false _ 0)) _ (qS cc0_scratch8 2 inb_S4_S1_2) (qR cc0_scratch9 13 0 inb_S15x2_S1x1_13_0) _ _ _ _ _ _ fullShare (doneV X false 0 (devAt c 13)) 6 (K (dcell c (qS cc0_scratch8 2 inb_S4_S1_2))) (K (dcell (prv c) (qR cc0_scratch9 13 0 inb_S15x2_S1x1_13_0))) _ (rem c 116) _ (by rw [duties_agccw_s_2_6 X c]; exact Finset.mem_singleton_self _) (by rw [duties_agccw_r_13_0 X (prv c)]; exact Finset.mem_singleton_self _) (by exact amount_agccw_s_2_6 X c false) (by exact amount_agccw_r_13_0 X (prv c) false) (by rfl) (by exact payload_agccw_s_2_6 X c false) (by exact hp2_agccw_r_13_0 X c) (by rfl) (by routes)) $$ [Hg_agccw_r_12_0 Hd_agccw_r_13_0 HO Hts_agccw_s_2_6 Htn_agccw_r_13_0]
  · isplitr; · iexact HIo
    isplitr; · iexact HIt
    isplitl [Hg_agccw_r_12_0]; · iexact Hg_agccw_r_12_0
    isplitl [Hd_agccw_r_13_0]; · iexact Hd_agccw_r_13_0
    isplitl [HO]; · iexact HO
    isplitl [Hts_agccw_s_2_6]; · iexact Hts_agccw_s_2_6
    isplitr; · iexact Hrch_agccw_s_2_6
    isplitl [Htn_agccw_r_13_0]; · iexact Htn_agccw_r_13_0
    iexact Hrn_agccw_r_13_0
  iintro ⟨Hcs_agccw_s_2_6, HO⟩
  iclear HIo HIt
  -- wait recv ag cw t=12 b=1
  try sl_exec_parts
  ihave #HIo := (bigSepL_elim_idx ownQs _ 71 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 116) (W := _) (R := 0) (m := 0) (T := ∅)
      (by rw [Nat.zero_add, expect_agcw_r_12_1 X c])) $$ [Hc_agcw_r_12_1 HO Hat_agcw_r_12_1]
  · isplitr; · iexact HIo
    isplitl [Hc_agcw_r_12_1]; · iexact Hc_agcw_r_12_1
    isplitl [HO]; · iexact HO
    isplitr; · iapply (mayWait_rem (F := F) c 116 (by decide) _ (by show (114 : ℕ) < 2 + 116; decide)); iexact Hlev
    iexact Hat_agcw_r_12_1
  iintro ⟨HO, Hat_agcw_r_12_1, #Hrch_agcw_r_12_1_1, Hpay⟩
  iclear HIo
  ihave Hp := (Entails.of_eq (rest_single X _ _ _ (duties_agcw_r_12_1 X c) (payload_agcw_r_12_1 X c false))) $$ Hpay
  irename Hp => Hg_agcw_r_12_1
  -- wait send ag cw t=11 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 116) (W := _) (R := 5) (m := 0) (T := ∅)
      (by rw [Nat.zero_add, expect_agcw_s_3_5 X c])) $$ [Hcs_agcw_s_3_5 HO Hat_agcw_s_3]
  · isplitr; · iexact HIo
    isplitl [Hcs_agcw_s_3_5]; · iexact Hcs_agcw_s_3_5
    isplitl [HO]; · iexact HO
    isplitr; · iapply (mayWait_rem (F := F) c 116 (by decide) _ (by show (0 : ℕ) < 2 + 116; decide)); iexact Hlev
    iexact Hat_agcw_s_3
  iintro ⟨HO, Hat_agcw_s_3, #Hrch_agcw_s_3_6, Hpay⟩
  iclear HIo
  ihave Hp := (Entails.of_eq (rest_single X _ _ _ (duties_agcw_s_3_5 X c) (payload_agcw_s_3_5 X c false))) $$ Hpay
  irename Hp => Hback_agcw_r_10_1
  -- send ag cw t=13 b=1 (payment 116, device function 117)
  try sl_exec_parts
  ihave HO := (owes_congr (rem_peel_116 c)) $$ HO
  ihave #HIo := (bigSepL_elim_idx ownQs _ 11 (by decide)) $$ HInvOwn
  ihave #HIt := (bigSepL_elim_idx recvCw _ 57 (by decide)) $$ HInbCw
  iapply (@send_owns_at F _ X c (nxt c) ⟨k0_dev117 c, k0_dev117_lt c⟩ (dev117_eq c _) (rows oM (off true (c.val + 3) 1) (off_inb true _ 1)) (rows oM (off true (c.val + 3) 1) (off_inb true _ 1)) _ (qS cc0_scratch6 3 inb_S4_S1_3) (qR cc0_scratch7 13 1 inb_S15x2_S1x1_13_1) _ _ _ _ _ _ fullShare (doneV X true 1 (devAt c 3)) 6 (K (dcell c (qS cc0_scratch6 3 inb_S4_S1_3))) (K (dcell (nxt c) (qR cc0_scratch7 13 1 inb_S15x2_S1x1_13_1))) _ (rem c 117) _ (by rw [duties_agcw_s_3_6 X c]; exact Finset.mem_singleton_self _) (by rw [duties_agcw_r_13_1 X (nxt c)]; exact Finset.mem_singleton_self _) (by exact amount_agcw_s_3_6 X c false) (by exact amount_agcw_r_13_1 X (nxt c) false) (by rfl) (by exact payload_agcw_s_3_6 X c false) (by exact hp2_agcw_r_13_1 X c) (by rfl) (by routes)) $$ [Hg_agcw_r_12_1 Hd_agcw_r_13_1 HO Hts_agcw_s_3_6 Htn_agcw_r_13_1]
  · isplitr; · iexact HIo
    isplitr; · iexact HIt
    isplitl [Hg_agcw_r_12_1]; · iexact Hg_agcw_r_12_1
    isplitl [Hd_agcw_r_13_1]; · iexact Hd_agcw_r_13_1
    isplitl [HO]; · iexact HO
    isplitl [Hts_agcw_s_3_6]; · iexact Hts_agcw_s_3_6
    isplitr; · iexact Hrch_agcw_s_3_6
    isplitl [Htn_agcw_r_13_1]; · iexact Htn_agcw_r_13_1
    iexact Hrn_agcw_r_13_1
  iintro ⟨Hcs_agcw_s_3_6, HO⟩
  iclear HIo HIt
  -- wait recv ag ccw t=12 b=1
  try sl_exec_parts
  ihave #HIo := (bigSepL_elim_idx ownQs _ 131 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 117) (W := _) (R := 0) (m := 0) (T := ∅)
      (by rw [Nat.zero_add, expect_agccw_r_12_1 X c])) $$ [Hc_agccw_r_12_1 HO Hat_agccw_r_12_1]
  · isplitr; · iexact HIo
    isplitl [Hc_agccw_r_12_1]; · iexact Hc_agccw_r_12_1
    isplitl [HO]; · iexact HO
    isplitr; · iapply (mayWait_rem (F := F) c 117 (by decide) _ (by show (115 : ℕ) < 2 + 117; decide)); iexact Hlev
    iexact Hat_agccw_r_12_1
  iintro ⟨HO, Hat_agccw_r_12_1, #Hrch_agccw_r_12_1_1, Hpay⟩
  iclear HIo
  ihave Hp := (Entails.of_eq (rest_single X _ _ _ (duties_agccw_r_12_1 X c) (payload_agccw_r_12_1 X c false))) $$ Hpay
  irename Hp => Hg_agccw_r_12_1
  -- wait send ag ccw t=11 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 117) (W := _) (R := 5) (m := 0) (T := ∅)
      (by rw [Nat.zero_add, expect_agccw_s_3_5 X c])) $$ [Hcs_agccw_s_3_5 HO Hat_agccw_s_3]
  · isplitr; · iexact HIo
    isplitl [Hcs_agccw_s_3_5]; · iexact Hcs_agccw_s_3_5
    isplitl [HO]; · iexact HO
    isplitr; · iapply (mayWait_rem (F := F) c 117 (by decide) _ (by show (0 : ℕ) < 2 + 117; decide)); iexact Hlev
    iexact Hat_agccw_s_3
  iintro ⟨HO, Hat_agccw_s_3, #Hrch_agccw_s_3_6, Hpay⟩
  iclear HIo
  ihave Hp := (Entails.of_eq (rest_single X _ _ _ (duties_agccw_s_3_5 X c) (payload_agccw_s_3_5 X c false))) $$ Hpay
  irename Hp => Hback_agccw_r_10_1
  -- send ag ccw t=13 b=1 (payment 117, device function 118)
  try sl_exec_parts
  ihave HO := (owes_congr (rem_peel_117 c)) $$ HO
  ihave #HIo := (bigSepL_elim_idx ownQs _ 15 (by decide)) $$ HInvOwn
  ihave #HIt := (bigSepL_elim_idx recvCcw _ 57 (by decide)) $$ HInbCcw
  iapply (@send_owns_at F _ X c (prv c) ⟨k0_dev118 c, k0_dev118_lt c⟩ (dev118_eq c _) (rows oM (off false (c.val + 13) 1) (off_inb false _ 1)) (rows oM (off false (c.val + 13) 1) (off_inb false _ 1)) _ (qS cc0_scratch8 3 inb_S4_S1_3) (qR cc0_scratch9 13 1 inb_S15x2_S1x1_13_1) _ _ _ _ _ _ fullShare (doneV X false 1 (devAt c 13)) 6 (K (dcell c (qS cc0_scratch8 3 inb_S4_S1_3))) (K (dcell (prv c) (qR cc0_scratch9 13 1 inb_S15x2_S1x1_13_1))) _ (rem c 118) _ (by rw [duties_agccw_s_3_6 X c]; exact Finset.mem_singleton_self _) (by rw [duties_agccw_r_13_1 X (prv c)]; exact Finset.mem_singleton_self _) (by exact amount_agccw_s_3_6 X c false) (by exact amount_agccw_r_13_1 X (prv c) false) (by rfl) (by exact payload_agccw_s_3_6 X c false) (by exact hp2_agccw_r_13_1 X c) (by rfl) (by routes)) $$ [Hg_agccw_r_12_1 Hd_agccw_r_13_1 HO Hts_agccw_s_3_6 Htn_agccw_r_13_1]
  · isplitr; · iexact HIo
    isplitr; · iexact HIt
    isplitl [Hg_agccw_r_12_1]; · iexact Hg_agccw_r_12_1
    isplitl [Hd_agccw_r_13_1]; · iexact Hd_agccw_r_13_1
    isplitl [HO]; · iexact HO
    isplitl [Hts_agccw_s_3_6]; · iexact Hts_agccw_s_3_6
    isplitr; · iexact Hrch_agccw_s_3_6
    isplitl [Htn_agccw_r_13_1]; · iexact Htn_agccw_r_13_1
    iexact Hrn_agccw_r_13_1
  iintro ⟨Hcs_agccw_s_3_6, HO⟩
  iclear HIo HIt
  -- wait recv ag cw t=13 b=0
  try sl_exec_parts
  ihave #HIo := (bigSepL_elim_idx ownQs _ 72 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 118) (W := _) (R := 0) (m := 0) (T := ∅)
      (by rw [Nat.zero_add, expect_agcw_r_13_0 X c])) $$ [Hc_agcw_r_13_0 HO Hat_agcw_r_13_0]
  · isplitr; · iexact HIo
    isplitl [Hc_agcw_r_13_0]; · iexact Hc_agcw_r_13_0
    isplitl [HO]; · iexact HO
    isplitr; · iapply (mayWait_rem (F := F) c 118 (by decide) _ (by show (116 : ℕ) < 2 + 118; decide)); iexact Hlev
    iexact Hat_agcw_r_13_0
  iintro ⟨HO, Hat_agcw_r_13_0, #Hrch_agcw_r_13_0_1, Hpay⟩
  iclear HIo
  ihave Hp := (Entails.of_eq (rest_single X _ _ _ (duties_agcw_r_13_0 X c) (payload_agcw_r_13_0 X c false))) $$ Hpay
  irename Hp => Hg_agcw_r_13_0
  -- wait send ag cw t=12 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 118) (W := _) (R := 6) (m := 0) (T := ∅)
      (by rw [Nat.zero_add, expect_agcw_s_0_6 X c])) $$ [Hcs_agcw_s_0_6 HO Hat_agcw_s_0]
  · isplitr; · iexact HIo
    isplitl [Hcs_agcw_s_0_6]; · iexact Hcs_agcw_s_0_6
    isplitl [HO]; · iexact HO
    isplitr; · iapply (mayWait_rem (F := F) c 118 (by decide) _ (by show (0 : ℕ) < 2 + 118; decide)); iexact Hlev
    iexact Hat_agcw_s_0
  iintro ⟨HO, Hat_agcw_s_0, #Hrch_agcw_s_0_7, Hpay⟩
  iclear HIo
  ihave Hp := (Entails.of_eq (rest_single X _ _ _ (duties_agcw_s_0_6 X c) (payload_agcw_s_0_6 X c false))) $$ Hpay
  irename Hp => Hback_agcw_r_11_0
  -- send ag cw t=14 b=0 (payment 118, device function 119)
  try sl_exec_parts
  ihave HO := (owes_congr (rem_peel_118 c)) $$ HO
  ihave #HIo := (bigSepL_elim_idx ownQs _ 8 (by decide)) $$ HInvOwn
  ihave #HIt := (bigSepL_elim_idx recvCw _ 58 (by decide)) $$ HInbCw
  iapply (@send_owns_at F _ X c (nxt c) ⟨k0_dev119 c, k0_dev119_lt c⟩ (dev119_eq c _) (rows oM (off true (c.val + 2) 0) (off_inb true _ 0)) (rows oM (off true (c.val + 2) 0) (off_inb true _ 0)) _ (qS cc0_scratch6 0 inb_S4_S1_0) (qR cc0_scratch7 14 0 inb_S15x2_S1x1_14_0) _ _ _ _ _ _ fullShare (doneV X true 0 (devAt c 2)) 7 (K (dcell c (qS cc0_scratch6 0 inb_S4_S1_0))) (K (dcell (nxt c) (qR cc0_scratch7 14 0 inb_S15x2_S1x1_14_0))) _ (rem c 119) _ (by rw [duties_agcw_s_0_7 X c]; exact Finset.mem_singleton_self _) (by rw [duties_agcw_r_14_0 X (nxt c)]; exact Finset.mem_singleton_self _) (by exact amount_agcw_s_0_7 X c false) (by exact amount_agcw_r_14_0 X (nxt c) false) (by rfl) (by exact payload_agcw_s_0_7 X c false) (by exact hp2_agcw_r_14_0 X c) (by rfl) (by routes)) $$ [Hg_agcw_r_13_0 Hd_agcw_r_14_0 HO Hts_agcw_s_0_7 Htn_agcw_r_14_0]
  · isplitr; · iexact HIo
    isplitr; · iexact HIt
    isplitl [Hg_agcw_r_13_0]; · iexact Hg_agcw_r_13_0
    isplitl [Hd_agcw_r_14_0]; · iexact Hd_agcw_r_14_0
    isplitl [HO]; · iexact HO
    isplitl [Hts_agcw_s_0_7]; · iexact Hts_agcw_s_0_7
    isplitr; · iexact Hrch_agcw_s_0_7
    isplitl [Htn_agcw_r_14_0]; · iexact Htn_agcw_r_14_0
    iexact Hrn_agcw_r_14_0
  iintro ⟨Hcs_agcw_s_0_7, HO⟩
  iclear HIo HIt
  -- wait recv ag ccw t=13 b=0
  try sl_exec_parts
  ihave #HIo := (bigSepL_elim_idx ownQs _ 132 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 119) (W := _) (R := 0) (m := 0) (T := ∅)
      (by rw [Nat.zero_add, expect_agccw_r_13_0 X c])) $$ [Hc_agccw_r_13_0 HO Hat_agccw_r_13_0]
  · isplitr; · iexact HIo
    isplitl [Hc_agccw_r_13_0]; · iexact Hc_agccw_r_13_0
    isplitl [HO]; · iexact HO
    isplitr; · iapply (mayWait_rem (F := F) c 119 (by decide) _ (by show (117 : ℕ) < 2 + 119; decide)); iexact Hlev
    iexact Hat_agccw_r_13_0
  iintro ⟨HO, Hat_agccw_r_13_0, #Hrch_agccw_r_13_0_1, Hpay⟩
  iclear HIo
  ihave Hp := (Entails.of_eq (rest_single X _ _ _ (duties_agccw_r_13_0 X c) (payload_agccw_r_13_0 X c false))) $$ Hpay
  irename Hp => Hg_agccw_r_13_0
  -- wait send ag ccw t=12 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 119) (W := _) (R := 6) (m := 0) (T := ∅)
      (by rw [Nat.zero_add, expect_agccw_s_0_6 X c])) $$ [Hcs_agccw_s_0_6 HO Hat_agccw_s_0]
  · isplitr; · iexact HIo
    isplitl [Hcs_agccw_s_0_6]; · iexact Hcs_agccw_s_0_6
    isplitl [HO]; · iexact HO
    isplitr; · iapply (mayWait_rem (F := F) c 119 (by decide) _ (by show (0 : ℕ) < 2 + 119; decide)); iexact Hlev
    iexact Hat_agccw_s_0
  iintro ⟨HO, Hat_agccw_s_0, #Hrch_agccw_s_0_7, Hpay⟩
  iclear HIo
  ihave Hp := (Entails.of_eq (rest_single X _ _ _ (duties_agccw_s_0_6 X c) (payload_agccw_s_0_6 X c false))) $$ Hpay
  irename Hp => Hback_agccw_r_11_0
  -- send ag ccw t=14 b=0 (payment 119, device function 120)
  try sl_exec_parts
  ihave HO := (owes_congr (rem_peel_119 c)) $$ HO
  ihave #HIo := (bigSepL_elim_idx ownQs _ 12 (by decide)) $$ HInvOwn
  ihave #HIt := (bigSepL_elim_idx recvCcw _ 58 (by decide)) $$ HInbCcw
  iapply (@send_owns_at F _ X c (prv c) ⟨k0_dev120 c, k0_dev120_lt c⟩ (dev120_eq c _) (rows oM (off false (c.val + 14) 0) (off_inb false _ 0)) (rows oM (off false (c.val + 14) 0) (off_inb false _ 0)) _ (qS cc0_scratch8 0 inb_S4_S1_0) (qR cc0_scratch9 14 0 inb_S15x2_S1x1_14_0) _ _ _ _ _ _ fullShare (doneV X false 0 (devAt c 14)) 7 (K (dcell c (qS cc0_scratch8 0 inb_S4_S1_0))) (K (dcell (prv c) (qR cc0_scratch9 14 0 inb_S15x2_S1x1_14_0))) _ (rem c 120) _ (by rw [duties_agccw_s_0_7 X c]; exact Finset.mem_singleton_self _) (by rw [duties_agccw_r_14_0 X (prv c)]; exact Finset.mem_singleton_self _) (by exact amount_agccw_s_0_7 X c false) (by exact amount_agccw_r_14_0 X (prv c) false) (by rfl) (by exact payload_agccw_s_0_7 X c false) (by exact hp2_agccw_r_14_0 X c) (by rfl) (by routes)) $$ [Hg_agccw_r_13_0 Hd_agccw_r_14_0 HO Hts_agccw_s_0_7 Htn_agccw_r_14_0]
  · isplitr; · iexact HIo
    isplitr; · iexact HIt
    isplitl [Hg_agccw_r_13_0]; · iexact Hg_agccw_r_13_0
    isplitl [Hd_agccw_r_14_0]; · iexact Hd_agccw_r_14_0
    isplitl [HO]; · iexact HO
    isplitl [Hts_agccw_s_0_7]; · iexact Hts_agccw_s_0_7
    isplitr; · iexact Hrch_agccw_s_0_7
    isplitl [Htn_agccw_r_14_0]; · iexact Htn_agccw_r_14_0
    iexact Hrn_agccw_r_14_0
  iintro ⟨Hcs_agccw_s_0_7, HO⟩
  iclear HIo HIt
  -- wait recv ag cw t=13 b=1
  try sl_exec_parts
  ihave #HIo := (bigSepL_elim_idx ownQs _ 73 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 120) (W := _) (R := 0) (m := 0) (T := ∅)
      (by rw [Nat.zero_add, expect_agcw_r_13_1 X c])) $$ [Hc_agcw_r_13_1 HO Hat_agcw_r_13_1]
  · isplitr; · iexact HIo
    isplitl [Hc_agcw_r_13_1]; · iexact Hc_agcw_r_13_1
    isplitl [HO]; · iexact HO
    isplitr; · iapply (mayWait_rem (F := F) c 120 (by decide) _ (by show (118 : ℕ) < 2 + 120; decide)); iexact Hlev
    iexact Hat_agcw_r_13_1
  iintro ⟨HO, Hat_agcw_r_13_1, #Hrch_agcw_r_13_1_1, Hpay⟩
  iclear HIo
  ihave Hp := (Entails.of_eq (rest_single X _ _ _ (duties_agcw_r_13_1 X c) (payload_agcw_r_13_1 X c false))) $$ Hpay
  irename Hp => Hg_agcw_r_13_1
  -- wait send ag cw t=12 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 120) (W := _) (R := 6) (m := 0) (T := ∅)
      (by rw [Nat.zero_add, expect_agcw_s_1_6 X c])) $$ [Hcs_agcw_s_1_6 HO Hat_agcw_s_1]
  · isplitr; · iexact HIo
    isplitl [Hcs_agcw_s_1_6]; · iexact Hcs_agcw_s_1_6
    isplitl [HO]; · iexact HO
    isplitr; · iapply (mayWait_rem (F := F) c 120 (by decide) _ (by show (0 : ℕ) < 2 + 120; decide)); iexact Hlev
    iexact Hat_agcw_s_1
  iintro ⟨HO, Hat_agcw_s_1, #Hrch_agcw_s_1_7, Hpay⟩
  iclear HIo
  ihave Hp := (Entails.of_eq (rest_single X _ _ _ (duties_agcw_s_1_6 X c) (payload_agcw_s_1_6 X c false))) $$ Hpay
  irename Hp => Hback_agcw_r_11_1
  -- send ag cw t=14 b=1 (payment 120, device function 121)
  try sl_exec_parts
  ihave HO := (owes_congr (rem_peel_120 c)) $$ HO
  ihave #HIo := (bigSepL_elim_idx ownQs _ 9 (by decide)) $$ HInvOwn
  ihave #HIt := (bigSepL_elim_idx recvCw _ 59 (by decide)) $$ HInbCw
  iapply (@send_owns_at F _ X c (nxt c) ⟨k0_dev121 c, k0_dev121_lt c⟩ (dev121_eq c _) (rows oM (off true (c.val + 2) 1) (off_inb true _ 1)) (rows oM (off true (c.val + 2) 1) (off_inb true _ 1)) _ (qS cc0_scratch6 1 inb_S4_S1_1) (qR cc0_scratch7 14 1 inb_S15x2_S1x1_14_1) _ _ _ _ _ _ fullShare (doneV X true 1 (devAt c 2)) 7 (K (dcell c (qS cc0_scratch6 1 inb_S4_S1_1))) (K (dcell (nxt c) (qR cc0_scratch7 14 1 inb_S15x2_S1x1_14_1))) _ (rem c 121) _ (by rw [duties_agcw_s_1_7 X c]; exact Finset.mem_singleton_self _) (by rw [duties_agcw_r_14_1 X (nxt c)]; exact Finset.mem_singleton_self _) (by exact amount_agcw_s_1_7 X c false) (by exact amount_agcw_r_14_1 X (nxt c) false) (by rfl) (by exact payload_agcw_s_1_7 X c false) (by exact hp2_agcw_r_14_1 X c) (by rfl) (by routes)) $$ [Hg_agcw_r_13_1 Hd_agcw_r_14_1 HO Hts_agcw_s_1_7 Htn_agcw_r_14_1]
  · isplitr; · iexact HIo
    isplitr; · iexact HIt
    isplitl [Hg_agcw_r_13_1]; · iexact Hg_agcw_r_13_1
    isplitl [Hd_agcw_r_14_1]; · iexact Hd_agcw_r_14_1
    isplitl [HO]; · iexact HO
    isplitl [Hts_agcw_s_1_7]; · iexact Hts_agcw_s_1_7
    isplitr; · iexact Hrch_agcw_s_1_7
    isplitl [Htn_agcw_r_14_1]; · iexact Htn_agcw_r_14_1
    iexact Hrn_agcw_r_14_1
  iintro ⟨Hcs_agcw_s_1_7, HO⟩
  iclear HIo HIt
  -- wait recv ag ccw t=13 b=1
  try sl_exec_parts
  ihave #HIo := (bigSepL_elim_idx ownQs _ 133 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 121) (W := _) (R := 0) (m := 0) (T := ∅)
      (by rw [Nat.zero_add, expect_agccw_r_13_1 X c])) $$ [Hc_agccw_r_13_1 HO Hat_agccw_r_13_1]
  · isplitr; · iexact HIo
    isplitl [Hc_agccw_r_13_1]; · iexact Hc_agccw_r_13_1
    isplitl [HO]; · iexact HO
    isplitr; · iapply (mayWait_rem (F := F) c 121 (by decide) _ (by show (119 : ℕ) < 2 + 121; decide)); iexact Hlev
    iexact Hat_agccw_r_13_1
  iintro ⟨HO, Hat_agccw_r_13_1, #Hrch_agccw_r_13_1_1, Hpay⟩
  iclear HIo
  ihave Hp := (Entails.of_eq (rest_single X _ _ _ (duties_agccw_r_13_1 X c) (payload_agccw_r_13_1 X c false))) $$ Hpay
  irename Hp => Hg_agccw_r_13_1
  -- wait send ag ccw t=12 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 121) (W := _) (R := 6) (m := 0) (T := ∅)
      (by rw [Nat.zero_add, expect_agccw_s_1_6 X c])) $$ [Hcs_agccw_s_1_6 HO Hat_agccw_s_1]
  · isplitr; · iexact HIo
    isplitl [Hcs_agccw_s_1_6]; · iexact Hcs_agccw_s_1_6
    isplitl [HO]; · iexact HO
    isplitr; · iapply (mayWait_rem (F := F) c 121 (by decide) _ (by show (0 : ℕ) < 2 + 121; decide)); iexact Hlev
    iexact Hat_agccw_s_1
  iintro ⟨HO, Hat_agccw_s_1, #Hrch_agccw_s_1_7, Hpay⟩
  iclear HIo
  ihave Hp := (Entails.of_eq (rest_single X _ _ _ (duties_agccw_s_1_6 X c) (payload_agccw_s_1_6 X c false))) $$ Hpay
  irename Hp => Hback_agccw_r_11_1
  -- send ag ccw t=14 b=1 (payment 121, device function 122)
  try sl_exec_parts
  ihave HO := (owes_congr (rem_peel_121 c)) $$ HO
  ihave #HIo := (bigSepL_elim_idx ownQs _ 13 (by decide)) $$ HInvOwn
  ihave #HIt := (bigSepL_elim_idx recvCcw _ 59 (by decide)) $$ HInbCcw
  iapply (@send_owns_at F _ X c (prv c) ⟨k0_dev122 c, k0_dev122_lt c⟩ (dev122_eq c _) (rows oM (off false (c.val + 14) 1) (off_inb false _ 1)) (rows oM (off false (c.val + 14) 1) (off_inb false _ 1)) _ (qS cc0_scratch8 1 inb_S4_S1_1) (qR cc0_scratch9 14 1 inb_S15x2_S1x1_14_1) _ _ _ _ _ _ fullShare (doneV X false 1 (devAt c 14)) 7 (K (dcell c (qS cc0_scratch8 1 inb_S4_S1_1))) (K (dcell (prv c) (qR cc0_scratch9 14 1 inb_S15x2_S1x1_14_1))) _ (rem c 122) _ (by rw [duties_agccw_s_1_7 X c]; exact Finset.mem_singleton_self _) (by rw [duties_agccw_r_14_1 X (prv c)]; exact Finset.mem_singleton_self _) (by exact amount_agccw_s_1_7 X c false) (by exact amount_agccw_r_14_1 X (prv c) false) (by rfl) (by exact payload_agccw_s_1_7 X c false) (by exact hp2_agccw_r_14_1 X c) (by rfl) (by routes)) $$ [Hg_agccw_r_13_1 Hd_agccw_r_14_1 HO Hts_agccw_s_1_7 Htn_agccw_r_14_1]
  · isplitr; · iexact HIo
    isplitr; · iexact HIt
    isplitl [Hg_agccw_r_13_1]; · iexact Hg_agccw_r_13_1
    isplitl [Hd_agccw_r_14_1]; · iexact Hd_agccw_r_14_1
    isplitl [HO]; · iexact HO
    isplitl [Hts_agccw_s_1_7]; · iexact Hts_agccw_s_1_7
    isplitr; · iexact Hrch_agccw_s_1_7
    isplitl [Htn_agccw_r_14_1]; · iexact Htn_agccw_r_14_1
    iexact Hrn_agccw_r_14_1
  iintro ⟨Hcs_agccw_s_1_7, HO⟩
  iclear HIo HIt
  -- wait recv ag cw t=14 b=0
  try sl_exec_parts
  ihave #HIo := (bigSepL_elim_idx ownQs _ 74 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agcw_r_14_0 X c])) $$ [Hc_agcw_r_14_0 HO Hat_agcw_r_14_0]
  · isplitr; · iexact HIo
    isplitl [Hc_agcw_r_14_0]; · iexact Hc_agcw_r_14_0
    isplitl [HO]; · iexact HO
    isplitr; · iapply (mayWait_rem (F := F) c 122 (by decide) _ (by show (120 : ℕ) < 2 + 122; decide)); iexact Hlev
    iexact Hat_agcw_r_14_0
  iintro ⟨HO, Hat_agcw_r_14_0, #Hrch_agcw_r_14_0_1, Hpay⟩
  iclear HIo
  ihave Hp := (Entails.of_eq (rest_single X _ _ _ (duties_agcw_r_14_0 X c) (payload_agcw_r_14_0 X c false))) $$ Hpay
  irename Hp => Hg_agcw_r_14_0
  -- wait recv ag ccw t=14 b=0
  try sl_exec_parts
  ihave #HIo := (bigSepL_elim_idx ownQs _ 134 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agccw_r_14_0 X c])) $$ [Hc_agccw_r_14_0 HO Hat_agccw_r_14_0]
  · isplitr; · iexact HIo
    isplitl [Hc_agccw_r_14_0]; · iexact Hc_agccw_r_14_0
    isplitl [HO]; · iexact HO
    isplitr; · iapply (mayWait_rem (F := F) c 122 (by decide) _ (by show (121 : ℕ) < 2 + 122; decide)); iexact Hlev
    iexact Hat_agccw_r_14_0
  iintro ⟨HO, Hat_agccw_r_14_0, #Hrch_agccw_r_14_0_1, Hpay⟩
  iclear HIo
  ihave Hp := (Entails.of_eq (rest_single X _ _ _ (duties_agccw_r_14_0 X c) (payload_agccw_r_14_0 X c false))) $$ Hpay
  irename Hp => Hg_agccw_r_14_0
  -- wait recv ag cw t=14 b=1
  try sl_exec_parts
  ihave #HIo := (bigSepL_elim_idx ownQs _ 75 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agcw_r_14_1 X c])) $$ [Hc_agcw_r_14_1 HO Hat_agcw_r_14_1]
  · isplitr; · iexact HIo
    isplitl [Hc_agcw_r_14_1]; · iexact Hc_agcw_r_14_1
    isplitl [HO]; · iexact HO
    isplitr; · iapply (mayWait_rem (F := F) c 122 (by decide) _ (by show (122 : ℕ) < 2 + 122; decide)); iexact Hlev
    iexact Hat_agcw_r_14_1
  iintro ⟨HO, Hat_agcw_r_14_1, #Hrch_agcw_r_14_1_1, Hpay⟩
  iclear HIo
  ihave Hp := (Entails.of_eq (rest_single X _ _ _ (duties_agcw_r_14_1 X c) (payload_agcw_r_14_1 X c false))) $$ Hpay
  irename Hp => Hg_agcw_r_14_1
  -- wait recv ag ccw t=14 b=1
  try sl_exec_parts
  ihave #HIo := (bigSepL_elim_idx ownQs _ 135 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 0) (m := 0) (T := ∅)
      (by rw [Nat.zero_add, expect_agccw_r_14_1 X c])) $$ [Hc_agccw_r_14_1 HO Hat_agccw_r_14_1]
  · isplitr; · iexact HIo
    isplitl [Hc_agccw_r_14_1]; · iexact Hc_agccw_r_14_1
    isplitl [HO]; · iexact HO
    isplitr; · iapply (mayWait_rem (F := F) c 122 (by decide) _ (by show (123 : ℕ) < 2 + 122; decide)); iexact Hlev
    iexact Hat_agccw_r_14_1
  iintro ⟨HO, Hat_agccw_r_14_1, #Hrch_agccw_r_14_1_1, Hpay⟩
  iclear HIo
  ihave Hp := (Entails.of_eq (rest_single X _ _ _ (duties_agccw_r_14_1 X c) (payload_agccw_r_14_1 X c false))) $$ Hpay
  irename Hp => Hg_agccw_r_14_1
  -- wait send rs cw t=13 b=0
  try sl_exec_parts
  ihave #HIo := (bigSepL_elim_idx ownQs _ 2 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rscw_s_2_6 X c])) $$ [Hcs_rscw_s_2_6 HO Hat_rscw_s_2]
  · isplitr; · iexact HIo
    isplitl [Hcs_rscw_s_2_6]; · iexact Hcs_rscw_s_2_6
    isplitl [HO]; · iexact HO
    isplitr; · iapply (mayWait_rem (F := F) c 122 (by decide) _ (by show (0 : ℕ) < 2 + 122; decide)); iexact Hlev
    iexact Hat_rscw_s_2
  iintro ⟨HO, Hat_rscw_s_2, #Hrch_rscw_s_2_7, Hpay⟩
  iclear HIo
  ihave Hp := (Entails.of_eq (rest_single X _ _ _ (duties_rscw_s_2_6 X c) (payload_rscw_s_2_6 X c false))) $$ Hpay
  irename Hp => Hback_rscw_r_12_0
  -- wait send rs cw t=13 b=1
  try sl_exec_parts
  ihave #HIo := (bigSepL_elim_idx ownQs _ 3 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rscw_s_3_6 X c])) $$ [Hcs_rscw_s_3_6 HO Hat_rscw_s_3]
  · isplitr; · iexact HIo
    isplitl [Hcs_rscw_s_3_6]; · iexact Hcs_rscw_s_3_6
    isplitl [HO]; · iexact HO
    isplitr; · iapply (mayWait_rem (F := F) c 122 (by decide) _ (by show (0 : ℕ) < 2 + 122; decide)); iexact Hlev
    iexact Hat_rscw_s_3
  iintro ⟨HO, Hat_rscw_s_3, #Hrch_rscw_s_3_7, Hpay⟩
  iclear HIo
  ihave Hp := (Entails.of_eq (rest_single X _ _ _ (duties_rscw_s_3_6 X c) (payload_rscw_s_3_6 X c false))) $$ Hpay
  irename Hp => Hback_rscw_r_12_1
  -- wait send rs cw t=14 b=0
  try sl_exec_parts
  ihave #HIo := (bigSepL_elim_idx ownQs _ 0 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rscw_s_0_7 X c])) $$ [Hcs_rscw_s_0_7 HO Hat_rscw_s_0]
  · isplitr; · iexact HIo
    isplitl [Hcs_rscw_s_0_7]; · iexact Hcs_rscw_s_0_7
    isplitl [HO]; · iexact HO
    isplitr; · iapply (mayWait_rem (F := F) c 122 (by decide) _ (by show (0 : ℕ) < 2 + 122; decide)); iexact Hlev
    iexact Hat_rscw_s_0
  iintro ⟨HO, Hat_rscw_s_0, #Hrch_rscw_s_0_8, Hpay⟩
  iclear HIo
  ihave Hp := (Entails.of_eq (rest_single X _ _ _ (duties_rscw_s_0_7 X c) (payload_rscw_s_0_7 X c false))) $$ Hpay
  irename Hp => Hback_rscw_r_13_0
  -- wait send rs cw t=14 b=1
  try sl_exec_parts
  ihave #HIo := (bigSepL_elim_idx ownQs _ 1 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rscw_s_1_7 X c])) $$ [Hcs_rscw_s_1_7 HO Hat_rscw_s_1]
  · isplitr; · iexact HIo
    isplitl [Hcs_rscw_s_1_7]; · iexact Hcs_rscw_s_1_7
    isplitl [HO]; · iexact HO
    isplitr; · iapply (mayWait_rem (F := F) c 122 (by decide) _ (by show (0 : ℕ) < 2 + 122; decide)); iexact Hlev
    iexact Hat_rscw_s_1
  iintro ⟨HO, Hat_rscw_s_1, #Hrch_rscw_s_1_8, Hpay⟩
  iclear HIo
  ihave Hp := (Entails.of_eq (rest_single X _ _ _ (duties_rscw_s_1_7 X c) (payload_rscw_s_1_7 X c false))) $$ Hpay
  irename Hp => Hback_rscw_r_13_1
  -- wait send rs ccw t=13 b=0
  try sl_exec_parts
  ihave #HIo := (bigSepL_elim_idx ownQs _ 6 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rsccw_s_2_6 X c])) $$ [Hcs_rsccw_s_2_6 HO Hat_rsccw_s_2]
  · isplitr; · iexact HIo
    isplitl [Hcs_rsccw_s_2_6]; · iexact Hcs_rsccw_s_2_6
    isplitl [HO]; · iexact HO
    isplitr; · iapply (mayWait_rem (F := F) c 122 (by decide) _ (by show (0 : ℕ) < 2 + 122; decide)); iexact Hlev
    iexact Hat_rsccw_s_2
  iintro ⟨HO, Hat_rsccw_s_2, #Hrch_rsccw_s_2_7, Hpay⟩
  iclear HIo
  ihave Hp := (Entails.of_eq (rest_single X _ _ _ (duties_rsccw_s_2_6 X c) (payload_rsccw_s_2_6 X c false))) $$ Hpay
  irename Hp => Hback_rsccw_r_12_0
  -- wait send rs ccw t=13 b=1
  try sl_exec_parts
  ihave #HIo := (bigSepL_elim_idx ownQs _ 7 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_rsccw_s_3_6 X c])) $$ [Hcs_rsccw_s_3_6 HO Hat_rsccw_s_3]
  · isplitr; · iexact HIo
    isplitl [Hcs_rsccw_s_3_6]; · iexact Hcs_rsccw_s_3_6
    isplitl [HO]; · iexact HO
    isplitr; · iapply (mayWait_rem (F := F) c 122 (by decide) _ (by show (0 : ℕ) < 2 + 122; decide)); iexact Hlev
    iexact Hat_rsccw_s_3
  iintro ⟨HO, Hat_rsccw_s_3, #Hrch_rsccw_s_3_7, Hpay⟩
  iclear HIo
  ihave Hp := (Entails.of_eq (rest_single X _ _ _ (duties_rsccw_s_3_6 X c) (payload_rsccw_s_3_6 X c false))) $$ Hpay
  irename Hp => Hback_rsccw_r_12_1
  -- wait send rs ccw t=14 b=0
  try sl_exec_parts
  ihave #HIo := (bigSepL_elim_idx ownQs _ 4 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rsccw_s_0_7 X c])) $$ [Hcs_rsccw_s_0_7 HO Hat_rsccw_s_0]
  · isplitr; · iexact HIo
    isplitl [Hcs_rsccw_s_0_7]; · iexact Hcs_rsccw_s_0_7
    isplitl [HO]; · iexact HO
    isplitr; · iapply (mayWait_rem (F := F) c 122 (by decide) _ (by show (0 : ℕ) < 2 + 122; decide)); iexact Hlev
    iexact Hat_rsccw_s_0
  iintro ⟨HO, Hat_rsccw_s_0, #Hrch_rsccw_s_0_8, Hpay⟩
  iclear HIo
  ihave Hp := (Entails.of_eq (rest_single X _ _ _ (duties_rsccw_s_0_7 X c) (payload_rsccw_s_0_7 X c false))) $$ Hpay
  irename Hp => Hback_rsccw_r_13_0
  -- wait send rs ccw t=14 b=1
  try sl_exec_parts
  ihave #HIo := (bigSepL_elim_idx ownQs _ 5 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_rsccw_s_1_7 X c])) $$ [Hcs_rsccw_s_1_7 HO Hat_rsccw_s_1]
  · isplitr; · iexact HIo
    isplitl [Hcs_rsccw_s_1_7]; · iexact Hcs_rsccw_s_1_7
    isplitl [HO]; · iexact HO
    isplitr; · iapply (mayWait_rem (F := F) c 122 (by decide) _ (by show (0 : ℕ) < 2 + 122; decide)); iexact Hlev
    iexact Hat_rsccw_s_1
  iintro ⟨HO, Hat_rsccw_s_1, #Hrch_rsccw_s_1_8, Hpay⟩
  iclear HIo
  ihave Hp := (Entails.of_eq (rest_single X _ _ _ (duties_rsccw_s_1_7 X c) (payload_rsccw_s_1_7 X c false))) $$ Hpay
  irename Hp => Hback_rsccw_r_13_1
  -- wait send ag cw t=13 b=0
  try sl_exec_parts
  ihave #HIo := (bigSepL_elim_idx ownQs _ 10 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agcw_s_2_6 X c])) $$ [Hcs_agcw_s_2_6 HO Hat_agcw_s_2]
  · isplitr; · iexact HIo
    isplitl [Hcs_agcw_s_2_6]; · iexact Hcs_agcw_s_2_6
    isplitl [HO]; · iexact HO
    isplitr; · iapply (mayWait_rem (F := F) c 122 (by decide) _ (by show (0 : ℕ) < 2 + 122; decide)); iexact Hlev
    iexact Hat_agcw_s_2
  iintro ⟨HO, Hat_agcw_s_2, #Hrch_agcw_s_2_7, Hpay⟩
  iclear HIo
  ihave Hp := (Entails.of_eq (rest_single X _ _ _ (duties_agcw_s_2_6 X c) (payload_agcw_s_2_6 X c false))) $$ Hpay
  irename Hp => Hback_agcw_r_12_0
  -- wait send ag cw t=13 b=1
  try sl_exec_parts
  ihave #HIo := (bigSepL_elim_idx ownQs _ 11 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agcw_s_3_6 X c])) $$ [Hcs_agcw_s_3_6 HO Hat_agcw_s_3]
  · isplitr; · iexact HIo
    isplitl [Hcs_agcw_s_3_6]; · iexact Hcs_agcw_s_3_6
    isplitl [HO]; · iexact HO
    isplitr; · iapply (mayWait_rem (F := F) c 122 (by decide) _ (by show (0 : ℕ) < 2 + 122; decide)); iexact Hlev
    iexact Hat_agcw_s_3
  iintro ⟨HO, Hat_agcw_s_3, #Hrch_agcw_s_3_7, Hpay⟩
  iclear HIo
  ihave Hp := (Entails.of_eq (rest_single X _ _ _ (duties_agcw_s_3_6 X c) (payload_agcw_s_3_6 X c false))) $$ Hpay
  irename Hp => Hback_agcw_r_12_1
  -- wait send ag cw t=14 b=0
  try sl_exec_parts
  ihave #HIo := (bigSepL_elim_idx ownQs _ 8 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agcw_s_0_7 X c])) $$ [Hcs_agcw_s_0_7 HO Hat_agcw_s_0]
  · isplitr; · iexact HIo
    isplitl [Hcs_agcw_s_0_7]; · iexact Hcs_agcw_s_0_7
    isplitl [HO]; · iexact HO
    isplitr; · iapply (mayWait_rem (F := F) c 122 (by decide) _ (by show (0 : ℕ) < 2 + 122; decide)); iexact Hlev
    iexact Hat_agcw_s_0
  iintro ⟨HO, Hat_agcw_s_0, #Hrch_agcw_s_0_8, Hpay⟩
  iclear HIo
  ihave Hp := (Entails.of_eq (rest_single X _ _ _ (duties_agcw_s_0_7 X c) (payload_agcw_s_0_7 X c false))) $$ Hpay
  irename Hp => Hback_agcw_r_13_0
  -- wait send ag cw t=14 b=1
  try sl_exec_parts
  ihave #HIo := (bigSepL_elim_idx ownQs _ 9 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agcw_s_1_7 X c])) $$ [Hcs_agcw_s_1_7 HO Hat_agcw_s_1]
  · isplitr; · iexact HIo
    isplitl [Hcs_agcw_s_1_7]; · iexact Hcs_agcw_s_1_7
    isplitl [HO]; · iexact HO
    isplitr; · iapply (mayWait_rem (F := F) c 122 (by decide) _ (by show (0 : ℕ) < 2 + 122; decide)); iexact Hlev
    iexact Hat_agcw_s_1
  iintro ⟨HO, Hat_agcw_s_1, #Hrch_agcw_s_1_8, Hpay⟩
  iclear HIo
  ihave Hp := (Entails.of_eq (rest_single X _ _ _ (duties_agcw_s_1_7 X c) (payload_agcw_s_1_7 X c false))) $$ Hpay
  irename Hp => Hback_agcw_r_13_1
  -- wait send ag ccw t=13 b=0
  try sl_exec_parts
  ihave #HIo := (bigSepL_elim_idx ownQs _ 14 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agccw_s_2_6 X c])) $$ [Hcs_agccw_s_2_6 HO Hat_agccw_s_2]
  · isplitr; · iexact HIo
    isplitl [Hcs_agccw_s_2_6]; · iexact Hcs_agccw_s_2_6
    isplitl [HO]; · iexact HO
    isplitr; · iapply (mayWait_rem (F := F) c 122 (by decide) _ (by show (0 : ℕ) < 2 + 122; decide)); iexact Hlev
    iexact Hat_agccw_s_2
  iintro ⟨HO, Hat_agccw_s_2, #Hrch_agccw_s_2_7, Hpay⟩
  iclear HIo
  ihave Hp := (Entails.of_eq (rest_single X _ _ _ (duties_agccw_s_2_6 X c) (payload_agccw_s_2_6 X c false))) $$ Hpay
  irename Hp => Hback_agccw_r_12_0
  -- wait send ag ccw t=13 b=1
  try sl_exec_parts
  ihave #HIo := (bigSepL_elim_idx ownQs _ 15 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 6) (m := 0) (T := ∅)
      (by rw [Nat.zero_add, expect_agccw_s_3_6 X c])) $$ [Hcs_agccw_s_3_6 HO Hat_agccw_s_3]
  · isplitr; · iexact HIo
    isplitl [Hcs_agccw_s_3_6]; · iexact Hcs_agccw_s_3_6
    isplitl [HO]; · iexact HO
    isplitr; · iapply (mayWait_rem (F := F) c 122 (by decide) _ (by show (0 : ℕ) < 2 + 122; decide)); iexact Hlev
    iexact Hat_agccw_s_3
  iintro ⟨HO, Hat_agccw_s_3, #Hrch_agccw_s_3_7, Hpay⟩
  iclear HIo
  ihave Hp := (Entails.of_eq (rest_single X _ _ _ (duties_agccw_s_3_6 X c) (payload_agccw_s_3_6 X c false))) $$ Hpay
  irename Hp => Hback_agccw_r_12_1
  -- wait send ag ccw t=14 b=0
  try sl_exec_parts
  ihave #HIo := (bigSepL_elim_idx ownQs _ 12 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agccw_s_0_7 X c])) $$ [Hcs_agccw_s_0_7 HO Hat_agccw_s_0]
  · isplitr; · iexact HIo
    isplitl [Hcs_agccw_s_0_7]; · iexact Hcs_agccw_s_0_7
    isplitl [HO]; · iexact HO
    isplitr; · iapply (mayWait_rem (F := F) c 122 (by decide) _ (by show (0 : ℕ) < 2 + 122; decide)); iexact Hlev
    iexact Hat_agccw_s_0
  iintro ⟨HO, Hat_agccw_s_0, #Hrch_agccw_s_0_8, Hpay⟩
  iclear HIo
  ihave Hp := (Entails.of_eq (rest_single X _ _ _ (duties_agccw_s_0_7 X c) (payload_agccw_s_0_7 X c false))) $$ Hpay
  irename Hp => Hback_agccw_r_13_0
  -- wait send ag ccw t=14 b=1
  try sl_exec_parts
  ihave #HIo := (bigSepL_elim_idx ownQs _ 13 (by decide)) $$ HInvOwn
  iapply (Rounds.wp_wait_rest_token 𝒱₀ ER (Rd X) (c : Thread nD τ) none (κ := K _)
      (wpE_waitDma2_eq 𝒱₀ (c : Thread nD τ) none Set.univ) (Set.mem_univ _) () (O := rem c 122) (W := _) (R := 7) (m := 0) (T := ∅)
      (by rw [Nat.zero_add, expect_agccw_s_1_7 X c])) $$ [Hcs_agccw_s_1_7 HO Hat_agccw_s_1]
  · isplitr; · iexact HIo
    isplitl [Hcs_agccw_s_1_7]; · iexact Hcs_agccw_s_1_7
    isplitl [HO]; · iexact HO
    isplitr; · iapply (mayWait_rem (F := F) c 122 (by decide) _ (by show (0 : ℕ) < 2 + 122; decide)); iexact Hlev
    iexact Hat_agccw_s_1
  iintro ⟨HO, Hat_agccw_s_1, #Hrch_agccw_s_1_8, Hpay⟩
  iclear HIo
  ihave Hp := (Entails.of_eq (rest_single X _ _ _ (duties_agccw_s_1_7 X c) (payload_agccw_s_1_7 X c false))) $$ Hpay
  irename Hp => Hback_agccw_r_13_1
  try sl_exec_parts
  imod (sems_close X c K) $$ [Hat_rscw_s_0 Hat_rscw_s_1 Hat_rscw_s_2 Hat_rscw_s_3 Hat_rsccw_s_0 Hat_rsccw_s_1 Hat_rsccw_s_2 Hat_rsccw_s_3 Hat_agcw_s_0 Hat_agcw_s_1 Hat_agcw_s_2 Hat_agcw_s_3 Hat_agccw_s_0 Hat_agccw_s_1 Hat_agccw_s_2 Hat_agccw_s_3 Hat_rscw_r_0_0 Hat_rscw_r_0_1 Hat_rscw_r_1_0 Hat_rscw_r_1_1 Hat_rscw_r_2_0 Hat_rscw_r_2_1 Hat_rscw_r_3_0 Hat_rscw_r_3_1 Hat_rscw_r_4_0 Hat_rscw_r_4_1 Hat_rscw_r_5_0 Hat_rscw_r_5_1 Hat_rscw_r_6_0 Hat_rscw_r_6_1 Hat_rscw_r_7_0 Hat_rscw_r_7_1 Hat_rscw_r_8_0 Hat_rscw_r_8_1 Hat_rscw_r_9_0 Hat_rscw_r_9_1 Hat_rscw_r_10_0 Hat_rscw_r_10_1 Hat_rscw_r_11_0 Hat_rscw_r_11_1 Hat_rscw_r_12_0 Hat_rscw_r_12_1 Hat_rscw_r_13_0 Hat_rscw_r_13_1 Hat_rscw_r_14_0 Hat_rscw_r_14_1 Hat_agcw_r_0_0 Hat_agcw_r_0_1 Hat_agcw_r_1_0 Hat_agcw_r_1_1 Hat_agcw_r_2_0 Hat_agcw_r_2_1 Hat_agcw_r_3_0 Hat_agcw_r_3_1 Hat_agcw_r_4_0 Hat_agcw_r_4_1 Hat_agcw_r_5_0 Hat_agcw_r_5_1 Hat_agcw_r_6_0 Hat_agcw_r_6_1 Hat_agcw_r_7_0 Hat_agcw_r_7_1 Hat_agcw_r_8_0 Hat_agcw_r_8_1 Hat_agcw_r_9_0 Hat_agcw_r_9_1 Hat_agcw_r_10_0 Hat_agcw_r_10_1 Hat_agcw_r_11_0 Hat_agcw_r_11_1 Hat_agcw_r_12_0 Hat_agcw_r_12_1 Hat_agcw_r_13_0 Hat_agcw_r_13_1 Hat_agcw_r_14_0 Hat_agcw_r_14_1 Hat_rsccw_r_0_0 Hat_rsccw_r_0_1 Hat_rsccw_r_1_0 Hat_rsccw_r_1_1 Hat_rsccw_r_2_0 Hat_rsccw_r_2_1 Hat_rsccw_r_3_0 Hat_rsccw_r_3_1 Hat_rsccw_r_4_0 Hat_rsccw_r_4_1 Hat_rsccw_r_5_0 Hat_rsccw_r_5_1 Hat_rsccw_r_6_0 Hat_rsccw_r_6_1 Hat_rsccw_r_7_0 Hat_rsccw_r_7_1 Hat_rsccw_r_8_0 Hat_rsccw_r_8_1 Hat_rsccw_r_9_0 Hat_rsccw_r_9_1 Hat_rsccw_r_10_0 Hat_rsccw_r_10_1 Hat_rsccw_r_11_0 Hat_rsccw_r_11_1 Hat_rsccw_r_12_0 Hat_rsccw_r_12_1 Hat_rsccw_r_13_0 Hat_rsccw_r_13_1 Hat_rsccw_r_14_0 Hat_rsccw_r_14_1 Hat_agccw_r_0_0 Hat_agccw_r_0_1 Hat_agccw_r_1_0 Hat_agccw_r_1_1 Hat_agccw_r_2_0 Hat_agccw_r_2_1 Hat_agccw_r_3_0 Hat_agccw_r_3_1 Hat_agccw_r_4_0 Hat_agccw_r_4_1 Hat_agccw_r_5_0 Hat_agccw_r_5_1 Hat_agccw_r_6_0 Hat_agccw_r_6_1 Hat_agccw_r_7_0 Hat_agccw_r_7_1 Hat_agccw_r_8_0 Hat_agccw_r_8_1 Hat_agccw_r_9_0 Hat_agccw_r_9_1 Hat_agccw_r_10_0 Hat_agccw_r_10_1 Hat_agccw_r_11_0 Hat_agccw_r_11_1 Hat_agccw_r_12_0 Hat_agccw_r_12_1 Hat_agccw_r_13_0 Hat_agccw_r_13_1 Hat_agccw_r_14_0 Hat_agccw_r_14_1] with Hsem
  · isplitr; · iexact HInvOwn
    isplitl [Hat_rscw_s_0]; · iexact Hat_rscw_s_0
    isplitl [Hat_rscw_s_1]; · iexact Hat_rscw_s_1
    isplitl [Hat_rscw_s_2]; · iexact Hat_rscw_s_2
    isplitl [Hat_rscw_s_3]; · iexact Hat_rscw_s_3
    isplitl [Hat_rsccw_s_0]; · iexact Hat_rsccw_s_0
    isplitl [Hat_rsccw_s_1]; · iexact Hat_rsccw_s_1
    isplitl [Hat_rsccw_s_2]; · iexact Hat_rsccw_s_2
    isplitl [Hat_rsccw_s_3]; · iexact Hat_rsccw_s_3
    isplitl [Hat_agcw_s_0]; · iexact Hat_agcw_s_0
    isplitl [Hat_agcw_s_1]; · iexact Hat_agcw_s_1
    isplitl [Hat_agcw_s_2]; · iexact Hat_agcw_s_2
    isplitl [Hat_agcw_s_3]; · iexact Hat_agcw_s_3
    isplitl [Hat_agccw_s_0]; · iexact Hat_agccw_s_0
    isplitl [Hat_agccw_s_1]; · iexact Hat_agccw_s_1
    isplitl [Hat_agccw_s_2]; · iexact Hat_agccw_s_2
    isplitl [Hat_agccw_s_3]; · iexact Hat_agccw_s_3
    isplitl [Hat_rscw_r_0_0]; · iexact Hat_rscw_r_0_0
    isplitl [Hat_rscw_r_0_1]; · iexact Hat_rscw_r_0_1
    isplitl [Hat_rscw_r_1_0]; · iexact Hat_rscw_r_1_0
    isplitl [Hat_rscw_r_1_1]; · iexact Hat_rscw_r_1_1
    isplitl [Hat_rscw_r_2_0]; · iexact Hat_rscw_r_2_0
    isplitl [Hat_rscw_r_2_1]; · iexact Hat_rscw_r_2_1
    isplitl [Hat_rscw_r_3_0]; · iexact Hat_rscw_r_3_0
    isplitl [Hat_rscw_r_3_1]; · iexact Hat_rscw_r_3_1
    isplitl [Hat_rscw_r_4_0]; · iexact Hat_rscw_r_4_0
    isplitl [Hat_rscw_r_4_1]; · iexact Hat_rscw_r_4_1
    isplitl [Hat_rscw_r_5_0]; · iexact Hat_rscw_r_5_0
    isplitl [Hat_rscw_r_5_1]; · iexact Hat_rscw_r_5_1
    isplitl [Hat_rscw_r_6_0]; · iexact Hat_rscw_r_6_0
    isplitl [Hat_rscw_r_6_1]; · iexact Hat_rscw_r_6_1
    isplitl [Hat_rscw_r_7_0]; · iexact Hat_rscw_r_7_0
    isplitl [Hat_rscw_r_7_1]; · iexact Hat_rscw_r_7_1
    isplitl [Hat_rscw_r_8_0]; · iexact Hat_rscw_r_8_0
    isplitl [Hat_rscw_r_8_1]; · iexact Hat_rscw_r_8_1
    isplitl [Hat_rscw_r_9_0]; · iexact Hat_rscw_r_9_0
    isplitl [Hat_rscw_r_9_1]; · iexact Hat_rscw_r_9_1
    isplitl [Hat_rscw_r_10_0]; · iexact Hat_rscw_r_10_0
    isplitl [Hat_rscw_r_10_1]; · iexact Hat_rscw_r_10_1
    isplitl [Hat_rscw_r_11_0]; · iexact Hat_rscw_r_11_0
    isplitl [Hat_rscw_r_11_1]; · iexact Hat_rscw_r_11_1
    isplitl [Hat_rscw_r_12_0]; · iexact Hat_rscw_r_12_0
    isplitl [Hat_rscw_r_12_1]; · iexact Hat_rscw_r_12_1
    isplitl [Hat_rscw_r_13_0]; · iexact Hat_rscw_r_13_0
    isplitl [Hat_rscw_r_13_1]; · iexact Hat_rscw_r_13_1
    isplitl [Hat_rscw_r_14_0]; · iexact Hat_rscw_r_14_0
    isplitl [Hat_rscw_r_14_1]; · iexact Hat_rscw_r_14_1
    isplitl [Hat_agcw_r_0_0]; · iexact Hat_agcw_r_0_0
    isplitl [Hat_agcw_r_0_1]; · iexact Hat_agcw_r_0_1
    isplitl [Hat_agcw_r_1_0]; · iexact Hat_agcw_r_1_0
    isplitl [Hat_agcw_r_1_1]; · iexact Hat_agcw_r_1_1
    isplitl [Hat_agcw_r_2_0]; · iexact Hat_agcw_r_2_0
    isplitl [Hat_agcw_r_2_1]; · iexact Hat_agcw_r_2_1
    isplitl [Hat_agcw_r_3_0]; · iexact Hat_agcw_r_3_0
    isplitl [Hat_agcw_r_3_1]; · iexact Hat_agcw_r_3_1
    isplitl [Hat_agcw_r_4_0]; · iexact Hat_agcw_r_4_0
    isplitl [Hat_agcw_r_4_1]; · iexact Hat_agcw_r_4_1
    isplitl [Hat_agcw_r_5_0]; · iexact Hat_agcw_r_5_0
    isplitl [Hat_agcw_r_5_1]; · iexact Hat_agcw_r_5_1
    isplitl [Hat_agcw_r_6_0]; · iexact Hat_agcw_r_6_0
    isplitl [Hat_agcw_r_6_1]; · iexact Hat_agcw_r_6_1
    isplitl [Hat_agcw_r_7_0]; · iexact Hat_agcw_r_7_0
    isplitl [Hat_agcw_r_7_1]; · iexact Hat_agcw_r_7_1
    isplitl [Hat_agcw_r_8_0]; · iexact Hat_agcw_r_8_0
    isplitl [Hat_agcw_r_8_1]; · iexact Hat_agcw_r_8_1
    isplitl [Hat_agcw_r_9_0]; · iexact Hat_agcw_r_9_0
    isplitl [Hat_agcw_r_9_1]; · iexact Hat_agcw_r_9_1
    isplitl [Hat_agcw_r_10_0]; · iexact Hat_agcw_r_10_0
    isplitl [Hat_agcw_r_10_1]; · iexact Hat_agcw_r_10_1
    isplitl [Hat_agcw_r_11_0]; · iexact Hat_agcw_r_11_0
    isplitl [Hat_agcw_r_11_1]; · iexact Hat_agcw_r_11_1
    isplitl [Hat_agcw_r_12_0]; · iexact Hat_agcw_r_12_0
    isplitl [Hat_agcw_r_12_1]; · iexact Hat_agcw_r_12_1
    isplitl [Hat_agcw_r_13_0]; · iexact Hat_agcw_r_13_0
    isplitl [Hat_agcw_r_13_1]; · iexact Hat_agcw_r_13_1
    isplitl [Hat_agcw_r_14_0]; · iexact Hat_agcw_r_14_0
    isplitl [Hat_agcw_r_14_1]; · iexact Hat_agcw_r_14_1
    isplitl [Hat_rsccw_r_0_0]; · iexact Hat_rsccw_r_0_0
    isplitl [Hat_rsccw_r_0_1]; · iexact Hat_rsccw_r_0_1
    isplitl [Hat_rsccw_r_1_0]; · iexact Hat_rsccw_r_1_0
    isplitl [Hat_rsccw_r_1_1]; · iexact Hat_rsccw_r_1_1
    isplitl [Hat_rsccw_r_2_0]; · iexact Hat_rsccw_r_2_0
    isplitl [Hat_rsccw_r_2_1]; · iexact Hat_rsccw_r_2_1
    isplitl [Hat_rsccw_r_3_0]; · iexact Hat_rsccw_r_3_0
    isplitl [Hat_rsccw_r_3_1]; · iexact Hat_rsccw_r_3_1
    isplitl [Hat_rsccw_r_4_0]; · iexact Hat_rsccw_r_4_0
    isplitl [Hat_rsccw_r_4_1]; · iexact Hat_rsccw_r_4_1
    isplitl [Hat_rsccw_r_5_0]; · iexact Hat_rsccw_r_5_0
    isplitl [Hat_rsccw_r_5_1]; · iexact Hat_rsccw_r_5_1
    isplitl [Hat_rsccw_r_6_0]; · iexact Hat_rsccw_r_6_0
    isplitl [Hat_rsccw_r_6_1]; · iexact Hat_rsccw_r_6_1
    isplitl [Hat_rsccw_r_7_0]; · iexact Hat_rsccw_r_7_0
    isplitl [Hat_rsccw_r_7_1]; · iexact Hat_rsccw_r_7_1
    isplitl [Hat_rsccw_r_8_0]; · iexact Hat_rsccw_r_8_0
    isplitl [Hat_rsccw_r_8_1]; · iexact Hat_rsccw_r_8_1
    isplitl [Hat_rsccw_r_9_0]; · iexact Hat_rsccw_r_9_0
    isplitl [Hat_rsccw_r_9_1]; · iexact Hat_rsccw_r_9_1
    isplitl [Hat_rsccw_r_10_0]; · iexact Hat_rsccw_r_10_0
    isplitl [Hat_rsccw_r_10_1]; · iexact Hat_rsccw_r_10_1
    isplitl [Hat_rsccw_r_11_0]; · iexact Hat_rsccw_r_11_0
    isplitl [Hat_rsccw_r_11_1]; · iexact Hat_rsccw_r_11_1
    isplitl [Hat_rsccw_r_12_0]; · iexact Hat_rsccw_r_12_0
    isplitl [Hat_rsccw_r_12_1]; · iexact Hat_rsccw_r_12_1
    isplitl [Hat_rsccw_r_13_0]; · iexact Hat_rsccw_r_13_0
    isplitl [Hat_rsccw_r_13_1]; · iexact Hat_rsccw_r_13_1
    isplitl [Hat_rsccw_r_14_0]; · iexact Hat_rsccw_r_14_0
    isplitl [Hat_rsccw_r_14_1]; · iexact Hat_rsccw_r_14_1
    isplitl [Hat_agccw_r_0_0]; · iexact Hat_agccw_r_0_0
    isplitl [Hat_agccw_r_0_1]; · iexact Hat_agccw_r_0_1
    isplitl [Hat_agccw_r_1_0]; · iexact Hat_agccw_r_1_0
    isplitl [Hat_agccw_r_1_1]; · iexact Hat_agccw_r_1_1
    isplitl [Hat_agccw_r_2_0]; · iexact Hat_agccw_r_2_0
    isplitl [Hat_agccw_r_2_1]; · iexact Hat_agccw_r_2_1
    isplitl [Hat_agccw_r_3_0]; · iexact Hat_agccw_r_3_0
    isplitl [Hat_agccw_r_3_1]; · iexact Hat_agccw_r_3_1
    isplitl [Hat_agccw_r_4_0]; · iexact Hat_agccw_r_4_0
    isplitl [Hat_agccw_r_4_1]; · iexact Hat_agccw_r_4_1
    isplitl [Hat_agccw_r_5_0]; · iexact Hat_agccw_r_5_0
    isplitl [Hat_agccw_r_5_1]; · iexact Hat_agccw_r_5_1
    isplitl [Hat_agccw_r_6_0]; · iexact Hat_agccw_r_6_0
    isplitl [Hat_agccw_r_6_1]; · iexact Hat_agccw_r_6_1
    isplitl [Hat_agccw_r_7_0]; · iexact Hat_agccw_r_7_0
    isplitl [Hat_agccw_r_7_1]; · iexact Hat_agccw_r_7_1
    isplitl [Hat_agccw_r_8_0]; · iexact Hat_agccw_r_8_0
    isplitl [Hat_agccw_r_8_1]; · iexact Hat_agccw_r_8_1
    isplitl [Hat_agccw_r_9_0]; · iexact Hat_agccw_r_9_0
    isplitl [Hat_agccw_r_9_1]; · iexact Hat_agccw_r_9_1
    isplitl [Hat_agccw_r_10_0]; · iexact Hat_agccw_r_10_0
    isplitl [Hat_agccw_r_10_1]; · iexact Hat_agccw_r_10_1
    isplitl [Hat_agccw_r_11_0]; · iexact Hat_agccw_r_11_0
    isplitl [Hat_agccw_r_11_1]; · iexact Hat_agccw_r_11_1
    isplitl [Hat_agccw_r_12_0]; · iexact Hat_agccw_r_12_0
    isplitl [Hat_agccw_r_12_1]; · iexact Hat_agccw_r_12_1
    isplitl [Hat_agccw_r_13_0]; · iexact Hat_agccw_r_13_0
    isplitl [Hat_agccw_r_13_1]; · iexact Hat_agccw_r_13_1
    isplitl [Hat_agccw_r_14_0]; · iexact Hat_agccw_r_14_0
    iexact Hat_agccw_r_14_1
  rw [wp_ret]; imodintro
  iapply Hk
  unfold bodyPost Φ₁
  ihave Hsl_cw := (slots_back_cw X c) $$ [Hback_rscw_r_0_0 Hback_rscw_r_0_1 Hback_rscw_r_1_0 Hback_rscw_r_1_1 Hback_rscw_r_2_0 Hback_rscw_r_2_1 Hback_rscw_r_3_0 Hback_rscw_r_3_1 Hback_rscw_r_4_0 Hback_rscw_r_4_1 Hback_rscw_r_5_0 Hback_rscw_r_5_1 Hback_rscw_r_6_0 Hback_rscw_r_6_1 Hback_rscw_r_7_0 Hback_rscw_r_7_1 Hback_rscw_r_8_0 Hback_rscw_r_8_1 Hback_rscw_r_9_0 Hback_rscw_r_9_1 Hback_rscw_r_10_0 Hback_rscw_r_10_1 Hback_rscw_r_11_0 Hback_rscw_r_11_1 Hback_rscw_r_12_0 Hback_rscw_r_12_1 Hback_rscw_r_13_0 Hback_rscw_r_13_1 HsL_rscw_r_14_0 HbackR_rscw_r_14_0 HsL_rscw_r_14_1 HbackR_rscw_r_14_1]
  · isplitl [Hback_rscw_r_0_0]; · iexact Hback_rscw_r_0_0
    isplitl [Hback_rscw_r_0_1]; · iexact Hback_rscw_r_0_1
    isplitl [Hback_rscw_r_1_0]; · iexact Hback_rscw_r_1_0
    isplitl [Hback_rscw_r_1_1]; · iexact Hback_rscw_r_1_1
    isplitl [Hback_rscw_r_2_0]; · iexact Hback_rscw_r_2_0
    isplitl [Hback_rscw_r_2_1]; · iexact Hback_rscw_r_2_1
    isplitl [Hback_rscw_r_3_0]; · iexact Hback_rscw_r_3_0
    isplitl [Hback_rscw_r_3_1]; · iexact Hback_rscw_r_3_1
    isplitl [Hback_rscw_r_4_0]; · iexact Hback_rscw_r_4_0
    isplitl [Hback_rscw_r_4_1]; · iexact Hback_rscw_r_4_1
    isplitl [Hback_rscw_r_5_0]; · iexact Hback_rscw_r_5_0
    isplitl [Hback_rscw_r_5_1]; · iexact Hback_rscw_r_5_1
    isplitl [Hback_rscw_r_6_0]; · iexact Hback_rscw_r_6_0
    isplitl [Hback_rscw_r_6_1]; · iexact Hback_rscw_r_6_1
    isplitl [Hback_rscw_r_7_0]; · iexact Hback_rscw_r_7_0
    isplitl [Hback_rscw_r_7_1]; · iexact Hback_rscw_r_7_1
    isplitl [Hback_rscw_r_8_0]; · iexact Hback_rscw_r_8_0
    isplitl [Hback_rscw_r_8_1]; · iexact Hback_rscw_r_8_1
    isplitl [Hback_rscw_r_9_0]; · iexact Hback_rscw_r_9_0
    isplitl [Hback_rscw_r_9_1]; · iexact Hback_rscw_r_9_1
    isplitl [Hback_rscw_r_10_0]; · iexact Hback_rscw_r_10_0
    isplitl [Hback_rscw_r_10_1]; · iexact Hback_rscw_r_10_1
    isplitl [Hback_rscw_r_11_0]; · iexact Hback_rscw_r_11_0
    isplitl [Hback_rscw_r_11_1]; · iexact Hback_rscw_r_11_1
    isplitl [Hback_rscw_r_12_0]; · iexact Hback_rscw_r_12_0
    isplitl [Hback_rscw_r_12_1]; · iexact Hback_rscw_r_12_1
    isplitl [Hback_rscw_r_13_0]; · iexact Hback_rscw_r_13_0
    isplitl [Hback_rscw_r_13_1]; · iexact Hback_rscw_r_13_1
    isplitl [HsL_rscw_r_14_0]; · iexact HsL_rscw_r_14_0
    isplitl [HbackR_rscw_r_14_0]; · iexact HbackR_rscw_r_14_0
    isplitl [HsL_rscw_r_14_1]; · iexact HsL_rscw_r_14_1
    iexact HbackR_rscw_r_14_1
  ihave Hsl_ccw := (slots_back_ccw X c) $$ [Hback_rsccw_r_0_0 Hback_rsccw_r_0_1 Hback_rsccw_r_1_0 Hback_rsccw_r_1_1 Hback_rsccw_r_2_0 Hback_rsccw_r_2_1 Hback_rsccw_r_3_0 Hback_rsccw_r_3_1 Hback_rsccw_r_4_0 Hback_rsccw_r_4_1 Hback_rsccw_r_5_0 Hback_rsccw_r_5_1 Hback_rsccw_r_6_0 Hback_rsccw_r_6_1 Hback_rsccw_r_7_0 Hback_rsccw_r_7_1 Hback_rsccw_r_8_0 Hback_rsccw_r_8_1 Hback_rsccw_r_9_0 Hback_rsccw_r_9_1 Hback_rsccw_r_10_0 Hback_rsccw_r_10_1 Hback_rsccw_r_11_0 Hback_rsccw_r_11_1 Hback_rsccw_r_12_0 Hback_rsccw_r_12_1 Hback_rsccw_r_13_0 Hback_rsccw_r_13_1 HsL_rsccw_r_14_0 HbackR_rsccw_r_14_0 HsL_rsccw_r_14_1 HbackR_rsccw_r_14_1]
  · isplitl [Hback_rsccw_r_0_0]; · iexact Hback_rsccw_r_0_0
    isplitl [Hback_rsccw_r_0_1]; · iexact Hback_rsccw_r_0_1
    isplitl [Hback_rsccw_r_1_0]; · iexact Hback_rsccw_r_1_0
    isplitl [Hback_rsccw_r_1_1]; · iexact Hback_rsccw_r_1_1
    isplitl [Hback_rsccw_r_2_0]; · iexact Hback_rsccw_r_2_0
    isplitl [Hback_rsccw_r_2_1]; · iexact Hback_rsccw_r_2_1
    isplitl [Hback_rsccw_r_3_0]; · iexact Hback_rsccw_r_3_0
    isplitl [Hback_rsccw_r_3_1]; · iexact Hback_rsccw_r_3_1
    isplitl [Hback_rsccw_r_4_0]; · iexact Hback_rsccw_r_4_0
    isplitl [Hback_rsccw_r_4_1]; · iexact Hback_rsccw_r_4_1
    isplitl [Hback_rsccw_r_5_0]; · iexact Hback_rsccw_r_5_0
    isplitl [Hback_rsccw_r_5_1]; · iexact Hback_rsccw_r_5_1
    isplitl [Hback_rsccw_r_6_0]; · iexact Hback_rsccw_r_6_0
    isplitl [Hback_rsccw_r_6_1]; · iexact Hback_rsccw_r_6_1
    isplitl [Hback_rsccw_r_7_0]; · iexact Hback_rsccw_r_7_0
    isplitl [Hback_rsccw_r_7_1]; · iexact Hback_rsccw_r_7_1
    isplitl [Hback_rsccw_r_8_0]; · iexact Hback_rsccw_r_8_0
    isplitl [Hback_rsccw_r_8_1]; · iexact Hback_rsccw_r_8_1
    isplitl [Hback_rsccw_r_9_0]; · iexact Hback_rsccw_r_9_0
    isplitl [Hback_rsccw_r_9_1]; · iexact Hback_rsccw_r_9_1
    isplitl [Hback_rsccw_r_10_0]; · iexact Hback_rsccw_r_10_0
    isplitl [Hback_rsccw_r_10_1]; · iexact Hback_rsccw_r_10_1
    isplitl [Hback_rsccw_r_11_0]; · iexact Hback_rsccw_r_11_0
    isplitl [Hback_rsccw_r_11_1]; · iexact Hback_rsccw_r_11_1
    isplitl [Hback_rsccw_r_12_0]; · iexact Hback_rsccw_r_12_0
    isplitl [Hback_rsccw_r_12_1]; · iexact Hback_rsccw_r_12_1
    isplitl [Hback_rsccw_r_13_0]; · iexact Hback_rsccw_r_13_0
    isplitl [Hback_rsccw_r_13_1]; · iexact Hback_rsccw_r_13_1
    isplitl [HsL_rsccw_r_14_0]; · iexact HsL_rsccw_r_14_0
    isplitl [HbackR_rsccw_r_14_0]; · iexact HbackR_rsccw_r_14_0
    isplitl [HsL_rsccw_r_14_1]; · iexact HsL_rsccw_r_14_1
    iexact HbackR_rsccw_r_14_1
  ihave Hxb := (x_back c (X c)) $$ [HxL Hx_cw0 Hx_cw1 Hx_ccw0 Hx_ccw1 HxRest]
  · isplitl [HxL]; · iexact HxL
    isplitl [Hx_cw0]; · iexact Hx_cw0
    isplitl [Hx_cw1]; · iexact Hx_cw1
    isplitl [Hx_ccw0]; · iexact Hx_ccw0
    isplitl [Hx_ccw1]; · iexact Hx_ccw1
    iexact HxRest
  ihave Hob := (out_back X c) $$ [Hg_own_cw0 Hg_own_cw1 Hg_agcw_r_14_0 Hg_agcw_r_14_1 Hback_agcw_r_13_0 Hback_agcw_r_13_1 Hback_agcw_r_12_0 Hback_agcw_r_12_1 Hback_agcw_r_11_0 Hback_agcw_r_11_1 Hback_agcw_r_10_0 Hback_agcw_r_10_1 Hback_agcw_r_9_0 Hback_agcw_r_9_1 Hback_agcw_r_8_0 Hback_agcw_r_8_1 Hback_agcw_r_7_0 Hback_agcw_r_7_1 Hback_agcw_r_6_0 Hback_agcw_r_6_1 Hback_agcw_r_5_0 Hback_agcw_r_5_1 Hback_agcw_r_4_0 Hback_agcw_r_4_1 Hback_agcw_r_3_0 Hback_agcw_r_3_1 Hback_agcw_r_2_0 Hback_agcw_r_2_1 Hback_agcw_r_1_0 Hback_agcw_r_1_1 Hback_agcw_r_0_0 Hback_agcw_r_0_1 Hg_own_ccw0 Hg_own_ccw1 Hback_agccw_r_0_0 Hback_agccw_r_0_1 Hback_agccw_r_1_0 Hback_agccw_r_1_1 Hback_agccw_r_2_0 Hback_agccw_r_2_1 Hback_agccw_r_3_0 Hback_agccw_r_3_1 Hback_agccw_r_4_0 Hback_agccw_r_4_1 Hback_agccw_r_5_0 Hback_agccw_r_5_1 Hback_agccw_r_6_0 Hback_agccw_r_6_1 Hback_agccw_r_7_0 Hback_agccw_r_7_1 Hback_agccw_r_8_0 Hback_agccw_r_8_1 Hback_agccw_r_9_0 Hback_agccw_r_9_1 Hback_agccw_r_10_0 Hback_agccw_r_10_1 Hback_agccw_r_11_0 Hback_agccw_r_11_1 Hback_agccw_r_12_0 Hback_agccw_r_12_1 Hback_agccw_r_13_0 Hback_agccw_r_13_1 Hg_agccw_r_14_0 Hg_agccw_r_14_1]
  · rw [devAt_zero c]
    isplitl [Hg_own_cw0]; · iexact Hg_own_cw0
    isplitl [Hg_own_cw1]; · iexact Hg_own_cw1
    isplitl [Hg_agcw_r_14_0]; · iexact Hg_agcw_r_14_0
    isplitl [Hg_agcw_r_14_1]; · iexact Hg_agcw_r_14_1
    isplitl [Hback_agcw_r_13_0]; · iexact Hback_agcw_r_13_0
    isplitl [Hback_agcw_r_13_1]; · iexact Hback_agcw_r_13_1
    isplitl [Hback_agcw_r_12_0]; · iexact Hback_agcw_r_12_0
    isplitl [Hback_agcw_r_12_1]; · iexact Hback_agcw_r_12_1
    isplitl [Hback_agcw_r_11_0]; · iexact Hback_agcw_r_11_0
    isplitl [Hback_agcw_r_11_1]; · iexact Hback_agcw_r_11_1
    isplitl [Hback_agcw_r_10_0]; · iexact Hback_agcw_r_10_0
    isplitl [Hback_agcw_r_10_1]; · iexact Hback_agcw_r_10_1
    isplitl [Hback_agcw_r_9_0]; · iexact Hback_agcw_r_9_0
    isplitl [Hback_agcw_r_9_1]; · iexact Hback_agcw_r_9_1
    isplitl [Hback_agcw_r_8_0]; · iexact Hback_agcw_r_8_0
    isplitl [Hback_agcw_r_8_1]; · iexact Hback_agcw_r_8_1
    isplitl [Hback_agcw_r_7_0]; · iexact Hback_agcw_r_7_0
    isplitl [Hback_agcw_r_7_1]; · iexact Hback_agcw_r_7_1
    isplitl [Hback_agcw_r_6_0]; · iexact Hback_agcw_r_6_0
    isplitl [Hback_agcw_r_6_1]; · iexact Hback_agcw_r_6_1
    isplitl [Hback_agcw_r_5_0]; · iexact Hback_agcw_r_5_0
    isplitl [Hback_agcw_r_5_1]; · iexact Hback_agcw_r_5_1
    isplitl [Hback_agcw_r_4_0]; · iexact Hback_agcw_r_4_0
    isplitl [Hback_agcw_r_4_1]; · iexact Hback_agcw_r_4_1
    isplitl [Hback_agcw_r_3_0]; · iexact Hback_agcw_r_3_0
    isplitl [Hback_agcw_r_3_1]; · iexact Hback_agcw_r_3_1
    isplitl [Hback_agcw_r_2_0]; · iexact Hback_agcw_r_2_0
    isplitl [Hback_agcw_r_2_1]; · iexact Hback_agcw_r_2_1
    isplitl [Hback_agcw_r_1_0]; · iexact Hback_agcw_r_1_0
    isplitl [Hback_agcw_r_1_1]; · iexact Hback_agcw_r_1_1
    isplitl [Hback_agcw_r_0_0]; · iexact Hback_agcw_r_0_0
    isplitl [Hback_agcw_r_0_1]; · iexact Hback_agcw_r_0_1
    isplitl [Hg_own_ccw0]; · iexact Hg_own_ccw0
    isplitl [Hg_own_ccw1]; · iexact Hg_own_ccw1
    isplitl [Hback_agccw_r_0_0]; · iexact Hback_agccw_r_0_0
    isplitl [Hback_agccw_r_0_1]; · iexact Hback_agccw_r_0_1
    isplitl [Hback_agccw_r_1_0]; · iexact Hback_agccw_r_1_0
    isplitl [Hback_agccw_r_1_1]; · iexact Hback_agccw_r_1_1
    isplitl [Hback_agccw_r_2_0]; · iexact Hback_agccw_r_2_0
    isplitl [Hback_agccw_r_2_1]; · iexact Hback_agccw_r_2_1
    isplitl [Hback_agccw_r_3_0]; · iexact Hback_agccw_r_3_0
    isplitl [Hback_agccw_r_3_1]; · iexact Hback_agccw_r_3_1
    isplitl [Hback_agccw_r_4_0]; · iexact Hback_agccw_r_4_0
    isplitl [Hback_agccw_r_4_1]; · iexact Hback_agccw_r_4_1
    isplitl [Hback_agccw_r_5_0]; · iexact Hback_agccw_r_5_0
    isplitl [Hback_agccw_r_5_1]; · iexact Hback_agccw_r_5_1
    isplitl [Hback_agccw_r_6_0]; · iexact Hback_agccw_r_6_0
    isplitl [Hback_agccw_r_6_1]; · iexact Hback_agccw_r_6_1
    isplitl [Hback_agccw_r_7_0]; · iexact Hback_agccw_r_7_0
    isplitl [Hback_agccw_r_7_1]; · iexact Hback_agccw_r_7_1
    isplitl [Hback_agccw_r_8_0]; · iexact Hback_agccw_r_8_0
    isplitl [Hback_agccw_r_8_1]; · iexact Hback_agccw_r_8_1
    isplitl [Hback_agccw_r_9_0]; · iexact Hback_agccw_r_9_0
    isplitl [Hback_agccw_r_9_1]; · iexact Hback_agccw_r_9_1
    isplitl [Hback_agccw_r_10_0]; · iexact Hback_agccw_r_10_0
    isplitl [Hback_agccw_r_10_1]; · iexact Hback_agccw_r_10_1
    isplitl [Hback_agccw_r_11_0]; · iexact Hback_agccw_r_11_0
    isplitl [Hback_agccw_r_11_1]; · iexact Hback_agccw_r_11_1
    isplitl [Hback_agccw_r_12_0]; · iexact Hback_agccw_r_12_0
    isplitl [Hback_agccw_r_12_1]; · iexact Hback_agccw_r_12_1
    isplitl [Hback_agccw_r_13_0]; · iexact Hback_agccw_r_13_0
    isplitl [Hback_agccw_r_13_1]; · iexact Hback_agccw_r_13_1
    isplitl [Hg_agccw_r_14_0]; · iexact Hg_agccw_r_14_0
    iexact Hg_agccw_r_14_1
  isplitl [Hsl_cw Hsl_ccw Hsem]
  · isplitl [Hsl_cw]; · iexact Hsl_cw
    isplitl [Hsl_ccw]; · iexact Hsl_ccw
    iexact Hsem
  isplitl [HO]; · iexists _; iexact HO
  isplitl [Hxb]; · iexact Hxb
  iexact Hob

variable (m : (ℓ : Loc nD τ sig) → Buf (Elt F) ℓ) (ρ : Dev nD → PrngReg)

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  show iprop((dats m ρ 0 c).Φ t0_0.castSucc ∗ (dats m ρ 0 c).owesAt () t0_0.castSucc
      ∗ (∃ d, owns (c : Thread nD τ) xM fullShare ((dats m ρ 0 c).before (0 : Fin 2) t0_0 d))
      ∗ (∃ d, owns (c : Thread nD τ) oM fullShare ((dats m ρ 0 c).before (1 : Fin 2) t0_0 d)))
    ⊢ wp frame (wpE (defs₀ (F := F)) 𝒱₀ c none) Set.univ
        (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9)
        (fun _ => iprop(Φ₁ c ∗ (dats m ρ 0 c).owesAt () t0_0.succ ∗ owns (c : Thread nD τ) xM fullShare (xstg m c) ∗ owns (c : Thread nD τ) oM fullShare (outV (xstg m))))
  iintro H
  ihave H' := (pre_open m ρ c) $$ H
  icases H' with ⟨%K, %W, Hpre⟩
  iapply (sound_body (xstg m) c K W _)
  isplitl [Hpre]
  · iexact Hpre
  · unfold bodyPost
    iintro ⟨HΦ, ⟨%W', HO⟩, Hx, Ho⟩
    isplitl [HΦ]; · iexact HΦ
    isplitl [HO]; · iapply (owes_done m ρ c W'); iexact HO
    isplitl [Hx]; · iexact Hx
    iexact Ho

end Cert.Kernel.RSAG

end
-- ==== Proof.Bits.LaunchA.lean ====
import proofs.«901013_g7700000000001014_dist_rs_then_ag_i_m4096_n1024_v7x_i16_f32_1_alg».proof.Proof.Bits.Dats

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch's ghost state: the ring's cells and duty tokens funded, every cell's invariant allocated from its counter at
    zero, and the result dealt to the devices as the ghost state each body starts from. -/

/-! ## Chains over lists -/

section Lists

universe u v w
variable {M : Type u} [URA M] {I : Type v} {J : Type w}

omit [FloatOps F] in
theorem la_bigSepL_append (l₁ l₂ : List I) (Φ : I → sProp M) :
    bigSepL (l₁ ++ l₂) Φ = iprop(bigSepL l₁ Φ ∗ bigSepL l₂ Φ) := by
  induction l₁ with
  | nil => rw [List.nil_append, bigSepL_nil]; exact (equiv_iff.mp emp_sep).symm
  | cons i l ih => rw [List.cons_append, bigSepL_cons, ih, bigSepL_cons]; exact equiv_iff.mp ⟨BI.sep_assoc', BI.sep_assoc⟩

omit [FloatOps F] in
theorem la_bigSepL_map' (f : J → I) (l : List J) (Φ : I → sProp M) :
    bigSepL (l.map f) Φ = bigSepL l (fun j => Φ (f j)) := by
  induction l with
  | nil => rfl
  | cons j l ih => rw [List.map_cons, bigSepL_cons, ih, bigSepL_cons]

omit [FloatOps F] in
instance la_bigSepL_persistent (l : List I) (Φ : I → sProp M) [∀ i, BI.Persistent (Φ i)] : BI.Persistent (bigSepL l Φ) := by
  induction l with
  | nil => exact inferInstanceAs (BI.Persistent iprop(emp))
  | cons i l ih => rw [bigSepL_cons]; exact inferInstanceAs (BI.Persistent iprop(_ ∗ _))

omit [FloatOps F] in
/-- a chain over a product of two sets is the chain of chains -/
theorem la_bigSep_product {α : Type v} {β : Type w} [DecidableEq α] [DecidableEq β] (s : Finset α) (t : Finset β) (Φ : α × β → sProp M) :
    bigSep (s ×ˢ t) Φ = bigSep s (fun a => bigSep t (fun b => Φ (a, b))) := by
  induction s using Finset.induction_on with
  | empty => rw [Finset.empty_product]; rfl
  | insert a s ha ih =>
    have hdisj : Disjoint (({a} : Finset α) ×ˢ t) (s ×ˢ t) :=
      Finset.disjoint_product.mpr (.inl (Finset.disjoint_singleton_left.mpr ha))
    rw [bigSep_insert ha, Finset.insert_eq, Finset.union_product, bigSep_union hdisj, ih, Finset.singleton_product, bigSep_map]
    rfl

end Lists

/-! ## The kernel's own semaphores -/

/-- the kernel's own transfer semaphores, numbers 2 to 137 -/
abbrev osem : Fin 136 → SemLoc sig :=
  fun i => .dma ⟨i.val + 2, Nat.lt_of_lt_of_le (Nat.add_lt_add_right i.isLt 2) (by decide)⟩

/-- the numbers of a device's 136 transfer semaphores in the order of `ownQs` -/
theorem la_ownQs_vals : ownQs.map (fun q : DmaSem sig => q.val) =
    [2, 3, 4, 5, 36, 37, 38, 39, 70, 71, 72, 73, 104, 105, 106, 107] ++ List.range' 6 30 ++ List.range' 74 30
      ++ List.range' 40 30 ++ List.range' 108 30 := by decide

theorem la_ownQs_nodup : ownQs.Nodup := List.Nodup.of_map (fun q : DmaSem sig => q.val) (by rw [la_ownQs_vals]; decide)

theorem ownSemFacts : Pipeline.OwnSemFacts cfg0.spec osem where
  isScoped := by decide
  inj := fun a b h => by
    have h1 : (a.val + 2 : ℕ) = b.val + 2 := congrArg (fun s : SemLoc sig => match s with | .dma q => q.val | .reg _ => 0) h
    exact Fin.ext (by omega)
  disj := by decide

/-- the places of `ownQs`'s entries among the numbers 2 to 137 -/
def la_ownIx : List (Fin 136) :=
  ([0, 1, 2, 3, 34, 35, 36, 37, 68, 69, 70, 71, 102, 103, 104, 105] ++ List.range' 4 30 ++ List.range' 72 30
      ++ List.range' 38 30 ++ List.range' 106 30).map (fun n => Fin.ofNat 136 n)

omit [FloatOps F] in
/-- the kernel's own semaphores at zero are the cells of `ownQs` at zero -/
theorem ownSems0_eq (c : Dev nD) : (Pipeline.ownSems0 (Ix := Unit) (Name := ℕ) (U := UU) (Lvl := ℕ) (Val := Elt F) (τ := τ) osem c : sProp 𝕄)
    = bigSepL ownQs (fun q => semVal (dcell c q) 0) := by
  rw [Pipeline.ownSems0_eq_of_list c osem la_ownIx (by decide) (by decide),
    show ownQs = la_ownIx.map (fun i => (⟨i.val + 2, Nat.lt_of_lt_of_le (Nat.add_lt_add_right i.isLt 2) (by decide)⟩ : DmaSem sig)) from by decide,
    la_bigSepL_map']

omit [FloatOps F] in
/-- the barrier semaphore is the launch's one unscoped semaphore -/
theorem la_unscopedSems0_eq (c : Dev nD) : (unscopedSems0 c : sProp 𝕄) = semVal (barCell c) 0 := by
  unfold unscopedSems0; rw [bigSep_eq_bigSepL_of_eq [SemLoc.reg barS] (by decide) (by decide)]; rfl

/-! ## The ring's cells and tokens -/

/-- a device's cells by their semaphores: the barrier's, then its 136 transfer semaphores -/
def la_semL : List (SemLoc sig) := SemLoc.reg barS :: ownQs.map SemLoc.dma

theorem la_semL_nodup : la_semL.Nodup :=
  List.nodup_cons.mpr ⟨(fun h => by obtain ⟨q, -, hq⟩ := List.mem_map.mp h; cases hq),
    la_ownQs_nodup.map (fun a b h => SemLoc.dma.inj h)⟩

def la_cellEmb : Dev nD × SemLoc sig ↪ GSem nD τ sig :=
  ⟨fun p => ((p.1 : Thread nD τ), p.2), fun a b h =>
    Prod.ext (by have := congrArg (fun g : GSem nD τ sig => g.1.1) h; exact this)
      (by have := congrArg (fun g : GSem nD τ sig => g.2) h; exact this)⟩

/-- every device's barrier cell and its 136 transfer cells -/
def ringCells : Finset (GSem nD τ sig) := (Finset.univ ×ˢ la_semL.toFinset).map la_cellEmb

/-- a device's cells' duties: the barrier's two, each receive cell's one, each send cell's one per round of its use -/
def la_tokL : List (SemLoc sig × ℕ × Bool) :=
  (SemLoc.reg barS, 0, false) :: (SemLoc.reg barS, 0, true) ::
    ((recvCw ++ recvCcw).map (fun q => (SemLoc.dma q, 0, false)) ++ sendToks.map (fun qr => (SemLoc.dma qr.1, qr.2, false)))

/-- a duty's semaphore by its number (the barrier's as 0), to tell the duties apart -/
def la_tokCode (t : SemLoc sig × ℕ × Bool) : ℕ × ℕ × Bool :=
  (match t.1 with | .reg _ => 0 | .dma q => q.val + 1, t.2.1, t.2.2)

theorem la_tokL_nodup : la_tokL.Nodup := List.Nodup.of_map la_tokCode (by decide)

def la_tokEmb : Dev nD × (SemLoc sig × ℕ × Bool) ↪ GSem nD τ sig × ℕ × Bool :=
  ⟨fun p => (((p.1 : Thread nD τ), p.2.1), p.2.2.1, p.2.2.2), fun a b h =>
    Prod.ext (by have := congrArg (fun x : GSem nD τ sig × ℕ × Bool => x.1.1.1) h; exact this)
      (Prod.ext (by have := congrArg (fun x : GSem nD τ sig × ℕ × Bool => x.1.2) h; exact this)
        (Prod.ext (by have := congrArg (fun x : GSem nD τ sig × ℕ × Bool => x.2.1) h; exact this)
          (by have := congrArg (fun x : GSem nD τ sig × ℕ × Bool => x.2.2) h; exact this)))⟩

def ringToks : Finset (GSem nD τ sig × ℕ × Bool) := (Finset.univ ×ˢ la_tokL.toFinset).map la_tokEmb

def u₀ : UU :=
  (initOf (Pipeline.cells cfgs cellOf_inj) (Pipeline.launchToks cfgs cellOf_inj), initOf ringCells ringToks)

omit [FloatOps F] in
/-- a chain over the ring's cells, device by device: the barrier cell and the 136 transfer cells -/
theorem la_cells_eq (Φ : GSem nD τ sig → sProp 𝕄) :
    bigSep ringCells Φ = bigSep Finset.univ fun c : Dev nD => iprop(Φ (barCell c) ∗ bigSepL ownQs fun q => Φ (dcell c q)) := by
  unfold ringCells
  rw [bigSep_map, la_bigSep_product]
  refine bigSep_congr fun c _ => ?_
  rw [bigSep_eq_bigSepL la_semL la_semL_nodup]
  unfold la_semL
  rw [bigSepL_cons, la_bigSepL_map']
  rfl

omit [FloatOps F] in
theorem la_cells_eq' (Φ : GSem nD τ sig → sProp 𝕄) :
    bigSep ringCells Φ = iprop((bigSep Finset.univ fun c : Dev nD => Φ (barCell c)) ∗ bigSep Finset.univ fun c : Dev nD => bigSepL ownQs fun q => Φ (dcell c q)) :=
  (la_cells_eq Φ).trans (bigSep_sep' _ _ _)

/-- the duty tokens of device `c`'s own cells -/
def la_toks (c : Dev nD) : sProp 𝕄 :=
  iprop(dutyTok ER (barCell c) 0 false ∗ dutyTok ER (barCell c) 0 true
    ∗ (bigSepL recvCw (fun q => dutyTok ER (dcell c q) 0 false) ∗ bigSepL recvCcw (fun q => dutyTok ER (dcell c q) 0 false))
    ∗ bigSepL sendToks (fun qr => dutyTok ER (dcell c qr.1) qr.2 false))

omit [FloatOps F] in
theorem la_toks_eq : bigSep ringToks (fun x => (dutyTok ER x.1 x.2.1 x.2.2 : sProp 𝕄)) = bigSep Finset.univ fun c : Dev nD => la_toks c := by
  unfold ringToks
  rw [bigSep_map, la_bigSep_product]
  refine bigSep_congr fun c _ => ?_
  rw [bigSep_eq_bigSepL la_tokL la_tokL_nodup]
  unfold la_tokL la_toks
  rw [bigSepL_cons, bigSepL_cons, la_bigSepL_append, la_bigSepL_map', la_bigSepL_map', la_bigSepL_append]
  rfl

/-! ## The launch element funded -/

variable (X : Dev nD → S4096x1024.Idx → Elt F .f32)

/-- what the launch element deals device `c`: its cells' round states at counter zero, round 0 of each reached, its
    positions, and its own cells' duty tokens -/
def G (c : Dev nD) : sProp 𝕄 :=
  iprop((roundState ER (Rd X) (barCell c) 0 ∗ bigSepL ownQs fun q => roundState ER (Rd X) (dcell c q) 0)
    ∗ (reached ER (barCell c) 0 ∗ bigSepL ownQs fun q => reached ER (dcell c q) 0)
    ∗ (atPos ER (barCell c) 0 ∅ 0 ∗ bigSepL ownQs fun q => atPos ER (dcell c q) 0 ∅ 0)
    ∗ la_toks c)

theorem la_G_eq : bigSep Finset.univ (G X) = iprop(bigSep ringCells (fun g => roundState ER (Rd X) g 0) ∗ bigSep ringCells (fun g => reached ER g 0)
    ∗ bigSep ringCells (fun g => atPos ER g 0 ∅ 0) ∗ bigSep ringToks (fun x => dutyTok ER x.1 x.2.1 x.2.2)) := by
  unfold G
  rw [la_cells_eq' (fun g => roundState ER (Rd X) g 0), la_cells_eq' (fun g => reached ER g 0), la_cells_eq' (fun g => atPos ER g 0 ∅ 0), la_toks_eq]
  simp only [bigSep_sep']

theorem la_fund_ring : BI.own (ER (initOf ringCells ringToks)) ⊢ (|==> bigSep Finset.univ (G X) : sProp 𝕄) := by
  rw [la_G_eq]; exact Rounds.fund ER (Rd X) ringCells ringToks

theorem hu₀ : (ownU u₀ : sProp 𝕄) ⊢ |={Set.univ}=> iprop(BI.own (EP (initOf (Pipeline.cells cfgs cellOf_inj) (Pipeline.launchToks cfgs cellOf_inj)))
    ∗ bigSep Finset.univ (G X)) := by
  unfold u₀
  iintro Hu
  ihave H := (ownU_pair _ _) $$ Hu
  icases H with ⟨HP, HX⟩
  imod (la_fund_ring X) $$ HX with HG
  imodintro
  isplitl [HP] <;> iassumption

/-! ## The tokens dealt round the ring -/

/-- the tokens of the duties device `c` pays -/
def la_payToks (c : Dev nD) : sProp 𝕄 :=
  iprop(dutyTok ER (barCell (prv c)) 0 false ∗ dutyTok ER (barCell (nxt c)) 0 true
    ∗ bigSepL recvCw (fun q => dutyTok ER (dcell (nxt c) q) 0 false) ∗ bigSepL recvCcw (fun q => dutyTok ER (dcell (prv c) q) 0 false)
    ∗ bigSepL sendToks (fun qr => dutyTok ER (dcell c qr.1) qr.2 false))

omit [FloatOps F] in
/-- a barrier cell's `false` token goes one device up, its `true` token one device down; a clockwise receive cell's token
    one device down (to the device that sends clockwise into it), a counter-clockwise one's one device up -/
theorem la_toks_around : (bigSep Finset.univ fun c : Dev nD => (la_toks c : sProp 𝕄)) ⊢ bigSep Finset.univ fun c : Dev nD => la_payToks c := by
  unfold la_toks la_payToks
  rw [bigSep_sep', bigSep_sep', bigSep_sep', bigSep_sep', bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring (fun c : Dev nD => (bigSepL recvCw (fun q => dutyTok ER (dcell c q) 0 false) : sProp 𝕄)),
    bigSep_univ_equiv ring.symm (fun c : Dev nD => (bigSepL recvCcw (fun q => dutyTok ER (dcell c q) 0 false) : sProp 𝕄))]
  iintro ⟨H1, H2, ⟨H3, H4⟩, H5⟩
  isplitl [H1]; · iexact H1
  isplitl [H2]; · iexact H2
  isplitl [H3]; · iexact H3
  isplitl [H4]; · iexact H4
  iexact H5

/-! ## The invariants allocated, and the whole dealt to the devices -/

/-- what every device may copy: every cell's invariant under the names `K`, and that round 0 of every cell is reached -/
def la_records (K : GSem nD τ sig → ℕ) : sProp 𝕄 :=
  iprop(bigSep ringCells (fun g => cellInv ER (Rd X) (K g) g) ∗ bigSep ringCells (fun g => reached ER g 0))

instance la_records_persistent (K : GSem nD τ sig → ℕ) : BI.Persistent (la_records X K) := by unfold la_records; infer_instance

/-- what stays with device `c`: its positions, and the tokens of the duties it pays -/
def la_linear (c : Dev nD) : sProp 𝕄 :=
  iprop((atPos ER (barCell c) 0 ∅ 0 ∗ bigSepL ownQs fun q => atPos ER (dcell c q) 0 ∅ 0) ∗ la_payToks c)

omit [FloatOps F] in
theorem la_linear_eq : (bigSep Finset.univ fun c : Dev nD => (la_linear c : sProp 𝕄))
    = iprop(((bigSep Finset.univ fun c : Dev nD => atPos ER (barCell c) 0 ∅ 0) ∗ bigSep Finset.univ fun c : Dev nD => bigSepL ownQs fun q => atPos ER (dcell c q) 0 ∅ 0)
        ∗ bigSep Finset.univ fun c : Dev nD => la_payToks c) := by
  unfold la_linear; simp only [bigSep_sep']

section Parts

omit [FloatOps F] in
theorem la_sep_fst {P Q : sProp 𝕄} : iprop(P ∗ Q) ⊢ P := by iintro ⟨H, -⟩; iexact H
omit [FloatOps F] in
theorem la_sep_snd {P Q : sProp 𝕄} : iprop(P ∗ Q) ⊢ Q := by iintro ⟨-, H⟩; iexact H

omit [FloatOps F] in
theorem la_ownQs_split (Ψ : DmaSem sig → sProp 𝕄) :
    bigSepL ownQs Ψ = iprop((bigSepL sendQs Ψ ∗ bigSepL recvCw Ψ) ∗ bigSepL recvCcw Ψ) := by
  rw [show ownQs = (sendQs ++ recvCw) ++ recvCcw from rfl, la_bigSepL_append, la_bigSepL_append]

omit [FloatOps F] in
/-- of a chain over the ring's cells, device `d`'s barrier cell; its transfer cells; and of those the send cells, the
    clockwise and the counter-clockwise receive cells -/
theorem la_cells_bar (Φ : GSem nD τ sig → sProp 𝕄) (d : Dev nD) : bigSep ringCells Φ ⊢ Φ (barCell d) := by
  rw [la_cells_eq]; exact (bigSep_elim (Finset.mem_univ d)).trans la_sep_fst
omit [FloatOps F] in
theorem la_cells_own (Φ : GSem nD τ sig → sProp 𝕄) (d : Dev nD) : bigSep ringCells Φ ⊢ bigSepL ownQs fun q => Φ (dcell d q) := by
  rw [la_cells_eq]; exact (bigSep_elim (Finset.mem_univ d)).trans la_sep_snd
omit [FloatOps F] in
theorem la_cells_send (Φ : GSem nD τ sig → sProp 𝕄) (d : Dev nD) : bigSep ringCells Φ ⊢ bigSepL sendQs fun q => Φ (dcell d q) := by
  refine (la_cells_own Φ d).trans ?_; rw [la_ownQs_split]; iintro ⟨⟨H, -⟩, -⟩; iexact H
omit [FloatOps F] in
theorem la_cells_cw (Φ : GSem nD τ sig → sProp 𝕄) (d : Dev nD) : bigSep ringCells Φ ⊢ bigSepL recvCw fun q => Φ (dcell d q) := by
  refine (la_cells_own Φ d).trans ?_; rw [la_ownQs_split]; iintro ⟨⟨-, H⟩, -⟩; iexact H
omit [FloatOps F] in
theorem la_cells_ccw (Φ : GSem nD τ sig → sProp 𝕄) (d : Dev nD) : bigSep ringCells Φ ⊢ bigSepL recvCcw fun q => Φ (dcell d q) := by
  refine (la_cells_own Φ d).trans ?_; rw [la_ownQs_split]; iintro ⟨-, H⟩; iexact H

end Parts

theorem la_ghost_intro (K : GSem nD τ sig → ℕ) (c : Dev nD) : iprop(la_records X K ∗ la_linear c) ⊢ iprop(∃ K, ghost X K c) := by
  unfold la_records la_linear la_payToks ghost
  iintro ⟨⟨#HI, #HR⟩, ⟨HaB, HaQ⟩, HtBP, HtBN, HtCw, HtCcw, HtS⟩
  iexists K
  isplitr
  · isplitr; · iapply (la_cells_bar (fun g => cellInv ER (Rd X) (K g) g) c); iexact HI
    isplitr; · iapply (la_cells_bar (fun g => cellInv ER (Rd X) (K g) g) (nxt c)); iexact HI
    isplitr; · iapply (la_cells_bar (fun g => cellInv ER (Rd X) (K g) g) (prv c)); iexact HI
    isplitr; · iapply (la_cells_own (fun g => cellInv ER (Rd X) (K g) g) c); iexact HI
    isplitr; · iapply (la_cells_cw (fun g => cellInv ER (Rd X) (K g) g) (nxt c)); iexact HI
    iapply (la_cells_ccw (fun g => cellInv ER (Rd X) (K g) g) (prv c)); iexact HI
  isplitl [HaB HaQ]
  · isplitl [HaB]; · iexact HaB
    iexact HaQ
  isplitr
  · isplitr; · iapply (la_cells_bar (F := F) (fun g => reached ER g 0) (nxt c)); iexact HR
    isplitr; · iapply (la_cells_bar (F := F) (fun g => reached ER g 0) (prv c)); iexact HR
    isplitr; · iapply (la_cells_cw (F := F) (fun g => reached ER g 0) (nxt c)); iexact HR
    isplitr; · iapply (la_cells_ccw (F := F) (fun g => reached ER g 0) (prv c)); iexact HR
    iapply (la_cells_send (F := F) (fun g => reached ER g 0) c); iexact HR
  isplitl [HtBP]; · iexact HtBP
  isplitl [HtBN]; · iexact HtBN
  isplitl [HtCw]; · iexact HtCw
  isplitl [HtCcw]; · iexact HtCcw
  iexact HtS

/-- every device handed its ghost state from what all may copy and what stays with each -/
theorem la_deal (K : GSem nD τ sig → ℕ) :
    iprop(la_records X K ∗ ((bigSep Finset.univ fun c : Dev nD => atPos ER (barCell c) 0 ∅ 0) ∗ bigSep Finset.univ fun c : Dev nD => bigSepL ownQs fun q => atPos ER (dcell c q) 0 ∅ 0)
        ∗ bigSep Finset.univ fun c : Dev nD => la_payToks c)
      ⊢ bigSep Finset.univ (fun c => iprop(∃ K, ghost X K c)) :=
  (sep_mono_right (Entails.of_eq (la_linear_eq (F := F)).symm)).trans (bigSep_with_persistent (R := la_records X K) fun c _ => la_ghost_intro X K c)

/-- The global step: every cell's invariant allocated from its counter at zero and its round state, under names chosen once
    for all cells; the tokens dealt round the ring; every device handed its ghost state. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (fun c => iprop(∃ K, ghost X K c)) := by
  simp only [ownSems0_eq, la_unscopedSems0_eq]
  unfold G
  simp only [bigSep_sep']
  iintro ⟨HvQ, HvB, ⟨HstB, HstQ⟩, ⟨HrB, HrQ⟩, ⟨HaB, HaQ⟩, Htok⟩
  ihave Hv := (Entails.of_eq (la_cells_eq' (fun g => semVal g 0)).symm) $$ [HvQ HvB]
  · isplitl [HvB]; · iexact HvB
    iexact HvQ
  ihave Hst := (Entails.of_eq (la_cells_eq' (fun g => roundState ER (Rd X) g 0)).symm) $$ [HstB HstQ]
  · isplitl [HstB]; · iexact HstB
    iexact HstQ
  ihave Hr := (Entails.of_eq (la_cells_eq' (fun g => reached ER g 0)).symm) $$ [HrB HrQ]
  · isplitl [HrB]; · iexact HrB
    iexact HrQ
  ihave Hb := (show iprop(bigSep ringCells (fun g => semVal g 0) ∗ bigSep ringCells (fun g => roundState ER (Rd X) g 0))
      ⊢ (bigSep ringCells (body ER (Rd X)) : sProp 𝕄) from by
        rw [← bigSep_sep']; exact bigSep_mono fun g _ => Rounds.body_intro ER (Rd X) g) $$ [Hv Hst]
  · isplitl [Hv]; · iexact Hv
    iexact Hst
  imod (inv_alloc_family ringCells (body ER (Rd X)) ∅) $$ Hb with ⟨%K, -, #HI⟩
  imodintro
  icases Hr with #HR
  ihave Htk := (la_toks_around (F := F)) $$ Htok
  iapply (la_deal X K)
  isplitr
  · unfold la_records; isplitl; · iexact HI
    iexact HR
  isplitl [HaB HaQ]
  · isplitl [HaB]; · iexact HaB
    iexact HaQ
  iexact Htk

end Cert.Kernel.RSAG

end
-- ==== Proof.Bits.Launch.lean ====
import proofs.«901013_g7700000000001014_dist_rs_then_ag_i_m4096_n1024_v7x_i16_f32_1_alg».proof.Proof.Bits.Dats
import proofs.«901013_g7700000000001014_dist_rs_then_ag_i_m4096_n1024_v7x_i16_f32_1_alg».proof.Proof.Bits.Body
import proofs.«901013_g7700000000001014_dist_rs_then_ag_i_m4096_n1024_v7x_i16_f32_1_alg».proof.Proof.Bits.LaunchA
import proofs.«901013_g7700000000001014_dist_rs_then_ag_i_m4096_n1024_v7x_i16_f32_1_alg».proof.Proof.Bits.LaunchB

noncomputable section

namespace Cert.Kernel.RSAG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! The launch: the thirty slots of a ring buffer tile it, so the buffer the launch hands over whole is what the body
    wants slot by slot, and back; what each device is dealt at launch is what its body starts from; the launch theorem
    applied; what the two arrays hold after the run; and the two runs the claims read. -/

/-! ## The thirty slots tile a ring buffer -/

/-- the rectangle of slot `sb.1`, sub-block `sb.2`, in a ring buffer -/
abbrev slotRect (sb : Fin 15 × Fin 2) : Rect S15x128x1024 :=
  Rect.unit (s := S15x128x1024) ![sb.1.val, 64 * sb.2.val, 0] S1x64x1024.size (slot_inb _ _ sb.1.isLt sb.2.isLt)

/-- two different slots share no element: they differ in the slot number or in the half of the 128 rows -/
theorem slotRect_disjoint (sb sb' : Fin 15 × Fin 2) (h : sb ≠ sb') : Disjoint (slotRect sb).set (slotRect sb').set := by
  by_cases h1 : sb.1 = sb'.1
  · have h2 : sb.2 ≠ sb'.2 := fun e => h (Prod.ext h1 e)
    have h2' : sb.2.val ≠ sb'.2.val := fun e => h2 (Fin.ext e)
    refine Rect.unit_disjoint (1 : Fin 3) ?_
    show 64 * sb.2.val + 64 ≤ 64 * sb'.2.val ∨ 64 * sb'.2.val + 64 ≤ 64 * sb.2.val
    omega
  · have h1' : sb.1.val ≠ sb'.1.val := fun e => h1 (Fin.ext e)
    refine Rect.unit_disjoint (0 : Fin 3) ?_
    show sb.1.val + 1 ≤ sb'.1.val ∨ sb'.1.val + 1 ≤ sb.1.val
    omega

/-- every element of the buffer lies in the slot of its first coordinate and of the half its row is in -/
theorem slotRect_cover : (Finset.univ : Finset (Fin 15 × Fin 2)).biUnion (fun sb => (slotRect sb).set) = Finset.univ := by
  ext i
  simp only [Finset.mem_biUnion, Finset.mem_univ, true_and, iff_true]
  have h0 : (i 0).val < 15 := (i 0).isLt
  have h1 : (i 1).val < 128 := (i 1).isLt
  have h2 : (i 2).val < 1024 := (i 2).isLt
  refine ⟨(⟨(i 0).val, h0⟩, ⟨(i 1).val / 64, by omega⟩), ?_⟩
  rw [Rect.mem_set_unit]
  intro a
  match a with
  | ⟨0, _⟩ => exact ⟨Nat.le_refl _, by show (i 0).val < (i 0).val + 1; omega⟩
  | ⟨1, _⟩ => exact ⟨by show 64 * ((i 1).val / 64) ≤ (i 1).val; omega, by show (i 1).val < 64 * ((i 1).val / 64) + 64; omega⟩
  | ⟨2, _⟩ => exact ⟨Nat.zero_le _, by show (i 2).val < 0 + 1024; omega⟩

/-- the elements under a slot's window are its rectangle's -/
theorem slot_set_a (sb : Fin 15 × Fin 2) :
    (slot aM sb.1.val (64 * sb.2.val) (slot_inb _ _ sb.1.isLt sb.2.isLt)).view.set = (slotRect sb).set :=
  Eq.trans (View.set_reshape ..) (View.set_slice_whole cc0_scratch0 (slotRect sb))

theorem slot_set_b (sb : Fin 15 × Fin 2) :
    (slot bM sb.1.val (64 * sb.2.val) (slot_inb _ _ sb.1.isLt sb.2.isLt)).view.set = (slotRect sb).set :=
  Eq.trans (View.set_reshape ..) (View.set_slice_whole cc0_scratch1 (slotRect sb))

/-- all thirty slots of the ring buffer `M` on device `d`, each at some contents -/
def slotsOf (M : Memref sig .tc .vmem S15x128x1024 .f32) (d : Dev nD) : sProp 𝕄 :=
  bigSep (Finset.univ : Finset (Fin 15 × Fin 2)) fun sb =>
    iprop(∃ f, (slot M sb.1.val (64 * sb.2.val) (slot_inb _ _ sb.1.isLt sb.2.isLt)).view.loc (d : Thread nD τ)
      ↦[(slot M sb.1.val (64 * sb.2.val) (slot_inb _ _ sb.1.isLt sb.2.isLt)).view.set]{fullShare} f)

omit [FloatOps F] in
/-- a buffer held whole is held rectangle by rectangle -/
theorem whole_rects_a (c : Dev nD) (f : Buf (Elt F) ((c : Thread nD τ).loc cc0_scratch0)) :
    (((c : Thread nD τ).loc cc0_scratch0) ↦{fullShare} f : sProp 𝕄)
      = bigSep Finset.univ fun sb : Fin 15 × Fin 2 => ((c : Thread nD τ).loc cc0_scratch0) ↦[(slotRect sb).set]{fullShare} f := by
  rw [← pointsTo_biUnion _ _ (fun t _ t' _ h => slotRect_disjoint t t' h), slotRect_cover]

omit [FloatOps F] in
theorem whole_rects_b (c : Dev nD) (f : Buf (Elt F) ((c : Thread nD τ).loc cc0_scratch1)) :
    (((c : Thread nD τ).loc cc0_scratch1) ↦{fullShare} f : sProp 𝕄)
      = bigSep Finset.univ fun sb : Fin 15 × Fin 2 => ((c : Thread nD τ).loc cc0_scratch1) ↦[(slotRect sb).set]{fullShare} f := by
  rw [← pointsTo_biUnion _ _ (fun t _ t' _ h => slotRect_disjoint t t' h), slotRect_cover]

omit [FloatOps F] in
/-- a slot's rectangle of the buffer is the slot at some contents, -/
theorem slot_intro_a (c : Dev nD) (f : Buf (Elt F) ((c : Thread nD τ).loc cc0_scratch0)) (sb : Fin 15 × Fin 2) :
    (((c : Thread nD τ).loc cc0_scratch0) ↦[(slotRect sb).set]{fullShare} f : sProp 𝕄)
      ⊢ iprop(∃ f, (slot aM sb.1.val (64 * sb.2.val) (slot_inb _ _ sb.1.isLt sb.2.isLt)).view.loc (c : Thread nD τ)
          ↦[(slot aM sb.1.val (64 * sb.2.val) (slot_inb _ _ sb.1.isLt sb.2.isLt)).view.set]{fullShare} f) := by
  iintro H
  iexists f
  rw [slot_set_a]
  iexact H

omit [FloatOps F] in
theorem slot_intro_b (c : Dev nD) (f : Buf (Elt F) ((c : Thread nD τ).loc cc0_scratch1)) (sb : Fin 15 × Fin 2) :
    (((c : Thread nD τ).loc cc0_scratch1) ↦[(slotRect sb).set]{fullShare} f : sProp 𝕄)
      ⊢ iprop(∃ f, (slot bM sb.1.val (64 * sb.2.val) (slot_inb _ _ sb.1.isLt sb.2.isLt)).view.loc (c : Thread nD τ)
          ↦[(slot bM sb.1.val (64 * sb.2.val) (slot_inb _ _ sb.1.isLt sb.2.isLt)).view.set]{fullShare} f) := by
  iintro H
  iexists f
  rw [slot_set_b]
  iexact H

omit [FloatOps F] in
/-- and back. -/
theorem slot_elim_a (c : Dev nD) (sb : Fin 15 × Fin 2) :
    (iprop(∃ f, (slot aM sb.1.val (64 * sb.2.val) (slot_inb _ _ sb.1.isLt sb.2.isLt)).view.loc (c : Thread nD τ)
          ↦[(slot aM sb.1.val (64 * sb.2.val) (slot_inb _ _ sb.1.isLt sb.2.isLt)).view.set]{fullShare} f) : sProp 𝕄)
      ⊢ iprop(∃ f : Buf (Elt F) ((c : Thread nD τ).loc cc0_scratch0), ((c : Thread nD τ).loc cc0_scratch0) ↦[(slotRect sb).set]{fullShare} f) := by
  rw [slot_set_a]

omit [FloatOps F] in
theorem slot_elim_b (c : Dev nD) (sb : Fin 15 × Fin 2) :
    (iprop(∃ f, (slot bM sb.1.val (64 * sb.2.val) (slot_inb _ _ sb.1.isLt sb.2.isLt)).view.loc (c : Thread nD τ)
          ↦[(slot bM sb.1.val (64 * sb.2.val) (slot_inb _ _ sb.1.isLt sb.2.isLt)).view.set]{fullShare} f) : sProp 𝕄)
      ⊢ iprop(∃ f : Buf (Elt F) ((c : Thread nD τ).loc cc0_scratch1), ((c : Thread nD τ).loc cc0_scratch1) ↦[(slotRect sb).set]{fullShare} f) := by
  rw [slot_set_b]

omit [FloatOps F] in
theorem slots_fwd_a (c : Dev nD) :
    (iprop(∃ f, ((c : Thread nD τ).loc cc0_scratch0) ↦{fullShare} f) : sProp 𝕄) ⊢ slotsOf aM c := by
  unfold slotsOf
  iintro ⟨%f, H⟩
  iapply ((Entails.of_eq (whole_rects_a c f)).trans (bigSep_mono fun sb _ => slot_intro_a c f sb))
  iexact H

omit [FloatOps F] in
theorem slots_fwd_b (c : Dev nD) :
    (iprop(∃ f, ((c : Thread nD τ).loc cc0_scratch1) ↦{fullShare} f) : sProp 𝕄) ⊢ slotsOf bM c := by
  unfold slotsOf
  iintro ⟨%f, H⟩
  iapply ((Entails.of_eq (whole_rects_b c f)).trans (bigSep_mono fun sb _ => slot_intro_b c f sb))
  iexact H

/-- slot by slot at any contents, the buffer is held whole at some contents -/
theorem slots_bwd_a (c : Dev nD) :
    slotsOf aM c ⊢ (iprop(∃ f, ((c : Thread nD τ).loc cc0_scratch0) ↦{fullShare} f) : sProp 𝕄) := by
  unfold slotsOf
  refine (bigSep_mono fun sb _ => slot_elim_a (F := F) c sb).trans ?_
  refine (BI.bigSep_exists_pi Finset.univ (fun (sb : Fin 15 × Fin 2) (f : Buf (Elt F) ((c : Thread nD τ).loc cc0_scratch0)) =>
      (((c : Thread nD τ).loc cc0_scratch0) ↦[(slotRect sb).set]{fullShare} f : sProp 𝕄))).trans ?_
  iintro ⟨%fs, H1⟩
  ihave H2 := (pointsTo_biUnion_join Finset.univ (fun sb : Fin 15 × Fin 2 => (slotRect sb).set) fs (fun _ => Classical.choice inferInstance)
      (fun t _ t' _ h => slotRect_disjoint t t' h)) $$ H1
  icases H2 with ⟨%g, -, H2⟩
  iexists g
  rw [slotRect_cover]
  iexact H2

theorem slots_bwd_b (c : Dev nD) :
    slotsOf bM c ⊢ (iprop(∃ f, ((c : Thread nD τ).loc cc0_scratch1) ↦{fullShare} f) : sProp 𝕄) := by
  unfold slotsOf
  refine (bigSep_mono fun sb _ => slot_elim_b (F := F) c sb).trans ?_
  refine (BI.bigSep_exists_pi Finset.univ (fun (sb : Fin 15 × Fin 2) (f : Buf (Elt F) ((c : Thread nD τ).loc cc0_scratch1)) =>
      (((c : Thread nD τ).loc cc0_scratch1) ↦[(slotRect sb).set]{fullShare} f : sProp 𝕄))).trans ?_
  iintro ⟨%fs, H1⟩
  ihave H2 := (pointsTo_biUnion_join Finset.univ (fun sb : Fin 15 × Fin 2 => (slotRect sb).set) fs (fun _ => Classical.choice inferInstance)
      (fun t _ t' _ h => slotRect_disjoint t t' h)) $$ H1
  icases H2 with ⟨%g, -, H2⟩
  iexists g
  rw [slotRect_cover]
  iexact H2

omit [FloatOps F] in
/-- A ring buffer held whole at some contents is held slot by slot, -/
theorem slots_whole_fwd (cw : Bool) (c : Dev nD) :
    (iprop(∃ f, ((c : Thread nD τ).loc (if cw then cc0_scratch0 else cc0_scratch1)) ↦{fullShare} f) : sProp 𝕄) ⊢ allSlots cw c := by
  cases cw
  · exact slots_fwd_b c
  · exact slots_fwd_a c

/-- and slot by slot it is held whole at some contents. -/
theorem slots_whole_bwd (cw : Bool) (c : Dev nD) :
    allSlots cw c ⊢ (iprop(∃ f, ((c : Thread nD τ).loc (if cw then cc0_scratch0 else cc0_scratch1)) ↦{fullShare} f) : sProp 𝕄) := by
  cases cw
  · exact slots_bwd_b c
  · exact slots_bwd_a c

omit [FloatOps F] in
theorem allSlots_a_intro (c : Dev nD) :
    (iprop(∃ f, ((c : Thread nD τ).loc cc0_scratch0) ↦{fullShare} f) : sProp 𝕄) ⊢ allSlots true c := slots_fwd_a c
omit [FloatOps F] in
theorem allSlots_b_intro (c : Dev nD) :
    (iprop(∃ f, ((c : Thread nD τ).loc cc0_scratch1) ↦{fullShare} f) : sProp 𝕄) ⊢ allSlots false c := slots_fwd_b c
theorem allSlots_a_elim (c : Dev nD) :
    allSlots true c ⊢ (iprop(∃ f, ((c : Thread nD τ).loc cc0_scratch0) ↦{fullShare} f) : sProp 𝕄) := slots_bwd_a c
theorem allSlots_b_elim (c : Dev nD) :
    allSlots false c ⊢ (iprop(∃ f, ((c : Thread nD τ).loc cc0_scratch1) ↦{fullShare} f) : sProp 𝕄) := slots_bwd_b c

/-! ## The launch theorem's side conditions -/

variable (m : (ℓ : Loc nD τ sig) → Buf (Elt F) ℓ) (ρ : Dev nD → PrngReg)

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred (fun c => rem c 0) c ∗ prngReg c (ρ c) ∗ (∃ K, ghost (xstg m) K c))
      ⊢ |={Set.univ}=> iprop(start (xstg m) c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- Before the point: the two ring buffers, whole at some contents, are held slot by slot. -/
theorem phi0_intro (c : Dev nD) :
    iprop(start (xstg m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xstg m) c from rfl, scopedRest0_eq]
  unfold Φ₀
  iintro ⟨Hs, -, ⟨Ha, Hb⟩⟩
  isplitl [Hs]; · iexact Hs
  isplitl [Ha]
  · iapply (allSlots_a_intro c); iexact Ha
  · iapply (allSlots_b_intro c); iexact Hb

/-- After it: the slots are the two buffers whole again, and every own semaphore is at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Ha, Hb, Hz⟩
  isplitr; · iempintro
  isplitl [Hz]; · iexact Hz
  isplitl [Ha]
  · iapply (allSlots_a_elim c); iexact Ha
  · iapply (allSlots_b_elim c); iexact Hb

theorem share_eq (c : Dev nD) (w : Fin cfg0.W) : (dats m ρ 0 c).share w = fullShare := by unfold Dat.share; split <;> rfl

/-! ## The run -/

set_option maxRecDepth 200000 in
/-- At the compiled mesh of sixteen devices, for any float values, from any memory with zero counters: every weakly
    fair execution of @main terminates, and every final state has each device's two arrays at the contents the proof
    data name after the last point. -/
theorem run_main : θ_run defs (onTc (τ := τ) (main (F := F))) (s₀ m ρ)
    (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => rem c 0) (howed₀ := fun _ => rfl) (howedN := fun _ => rfl)
    (L := L) (lv := lv) (hL := L_of_ne) (hwaits := waits m ρ)
    (G := G (xstg m)) (G' := fun c => iprop(∃ K, ghost (xstg m) K c)) (u₀ := u₀)
    (hu₀ := hu₀ (xstg m))
    (hglob := glob (xstg m))
    (hA := fun _ _ => rfl) (hpf := fun _ k => k.elim0)
    (X := start (xstg m)) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is never written. -/
theorem finalA_x (c : Dev nD) : (dats m ρ 0 c).arrAt (0 : Fin 2) cfg0.N = m ((c : Thread nD τ).loc main_arg0) :=
  (dats (F := F) m ρ 0 c).arrAt_in (0 : Fin 2) rfl _

omit [FloatOps F] in
theorem off_zero : (fun a : Fin 2 => (win0_1.index t0_0 a) * win0_1.size a) = fun _ => 0 := funext fun a => Nat.zero_mul _

/-- The result array is one whole block, written back once at the one point: it ends holding the assembled result. -/
theorem finalA_o (c : Dev nD) : (dats m ρ 0 c).arrAt (1 : Fin 2) cfg0.N = outV (xstg m) := by
  have h := (dats (F := F) m ρ 0 c).arrAt_succ (1 : Fin 2) t0_0
  rw [if_pos (show (cfg0.win (1 : Fin 2)).flush t0_0 = true from rfl)] at h
  refine h.trans ?_
  exact Memref.write_access_unit_zero_univ (Elt F) main_v1 off_zero _ _ _

/-- A device's staged block of the argument is the argument array itself: its one block is the whole array. -/
theorem xstg_eq (c : Dev nD) : xstg m c = m ((c : Thread nD τ).loc main_arg0) := by
  unfold xstg
  exact Memref.read_access_unit_zero (Elt F) main_arg0 (off := fun a => (win0_0.index t0_0 a) * win0_0.size a) (funext fun a => Nat.zero_mul _) _ _

/-! ## The two runs the claims read -/

/-- The run with each device's result named and its argument unchanged. -/
theorem value_run : θ_run defs (onTc (τ := τ) (main (F := F))) (s₀ m ρ)
    (fun r => ∀ c : Dev nD, r.2.mem ((c : Thread nD τ).loc main_v1) = outV (xstg m)
      ∧ r.2.mem ((c : Thread nD τ).loc main_arg0) = m ((c : Thread nD τ).loc main_arg0)) :=
  (θ_run (defs (F := F)) _ _).mono
    (fun r h c => ⟨(h c (1 : Fin 2)).trans (finalA_o m ρ c), (h c (0 : Fin 2)).trans (finalA_x m ρ c)⟩)
    (run_main m ρ)

/-- The run with the result's value dropped: it terminates, nothing faults, and the arguments end unchanged. -/
theorem frame_run : θ_run defs (onTc (τ := τ) (main (F := F))) (s₀ m ρ)
    (fun r => ∀ c : Dev nD, r.2.mem ((c : Thread nD τ).loc main_arg0) = m ((c : Thread nD τ).loc main_arg0)) :=
  (θ_run (defs (F := F)) _ _).mono (fun r h c => (h c).2) (value_run m ρ)

end Cert.Kernel.RSAG

end
-- ==== Proof.lean ====
/- The proof of `Cert.Claim`: the word-level kernel's frame, the idealized kernel's frame, the reference's frame, that the
   idealization rewrote no operation, and the value claim at the ideal instance, each from the module that proves it. -/
import proofs.«901013_g7700000000001014_dist_rs_then_ag_i_m4096_n1024_v7x_i16_f32_1_alg».proof.Defs
import proofs.«901013_g7700000000001014_dist_rs_then_ag_i_m4096_n1024_v7x_i16_f32_1_alg».proof.Proof.Claims
import proofs.«901013_g7700000000001014_dist_rs_then_ag_i_m4096_n1024_v7x_i16_f32_1_alg».proof.Proof.Bits.Launch
import proofs.«901013_g7700000000001014_dist_rs_then_ag_i_m4096_n1024_v7x_i16_f32_1_alg».proof.Proof.Gen.Kernel
import proofs.«901013_g7700000000001014_dist_rs_then_ag_i_m4096_n1024_v7x_i16_f32_1_alg».proof.Proof.Gen.KernelIdeal
import proofs.«901013_g7700000000001014_dist_rs_then_ag_i_m4096_n1024_v7x_i16_f32_1_alg».proof.Proof.Gen.ReferenceIdeal
import proofs.«901013_g7700000000001014_dist_rs_then_ag_i_m4096_n1024_v7x_i16_f32_1_alg».proof.Proof.Gen.Pre_finite_inputs_Kernel
import proofs.«901013_g7700000000001014_dist_rs_then_ag_i_m4096_n1024_v7x_i16_f32_1_alg».proof.Proof.Gen.Pre_finite_inputs_ReferenceIdeal

noncomputable section

namespace Cert.Proof

open Idealize.ShloMosaic Idealize.SL.Sem

/-- The kernel as printed, at the word level, runs on the sixteen devices and leaves every device's argument block unchanged. -/
theorem frame_Kernel' :
    Cert.frame_Kernel (hKernel := Cert.Kernel.Gen.facts)
      (hPre_finite_inputs_Kernel := Cert.Pre_finite_inputs_Kernel.Gen.facts) :=
  fun m g _ => Cert.Kernel.RSAG.frame_run (F := Bits) m g

/-- The five claims: the three frames, that the idealization rewrote nothing, and the value claim at the ideal instance. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel', frame_KernelIdeal', Cert.RefSide.frame_ref, trivial, algebraic'⟩

end Cert.Proof

end
